-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 1024]⟩ ⟨2, ![2048, 8192]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 2048]⟩ ⟨2, ![8192, 2048]⟩ 0 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S2048x1024 : Shape := ⟨2, ![2048, 1024]⟩
abbrev S1024x2048 : Shape := ⟨2, ![1024, 2048]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S1024x2048 : S_.BroadcastsInDim S1024x2048 (![] : Fin 0 → Fin S1024x2048.rank)
  reducesTo_S1024x2048_S_d0_1 : S1024x2048.ReducesTo [0, 1] S_

variable [Facts]

def fn {F : FTy → Type} [FloatOps F] (main_arg0 : FVec F S2048x1024 .f32) (main_arg1 : FVec F S1024x2048 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S1024x2048 .f32 := Host.absf main_arg1
  let main_cst_0 : FVec F S_ .f32 := constant S_ .f32 0x7F800000#32
  let main_v5 : FVec F S1024x2048 .f32 := broadcastInDim S1024x2048 ![] bcast_S_S1024x2048 main_cst_0
  let main_v6 : IVec S1024x2048 1 := cmpf .olt main_v4 main_v5
  let main_c_1 : IVec S_ 1 := constantI S_ 1 1#1
  let main_v7 : IVec S_ 1 := (fun x v => Host.reduce IntOp.andi x v reducesTo_S1024x2048_S_d0_1 h_S_) main_v6 main_c_1
  let main_v8 : IVec S_ 1 := andi main_v3 main_v7
  main_v8
-- ==== Pre_finite_inputs_ReferenceIdeal.lean ====
abbrev S2048x8192 : Shape := ⟨2, ![2048, 8192]⟩
abbrev S8192x2048 : Shape := ⟨2, ![8192, 2048]⟩
abbrev S_ : Shape := ⟨0, ![]⟩

class Facts : Prop where
  bcast_S_S2048x8192 : S_.BroadcastsInDim S2048x8192 (![] : Fin 0 → Fin S2048x8192.rank)
  reducesTo_S2048x8192_S_d0_1 : S2048x8192.ReducesTo [0, 1] S_
  h_S_ : 0 < S_.numel
  bcast_S_S8192x2048 : S_.BroadcastsInDim S8192x2048 (![] : Fin 0 → Fin S8192x2048.rank)
  reducesTo_S8192x2048_S_d0_1 : S8192x2048.ReducesTo [0, 1] S_

variable [Facts]

def fn {F : FTy → Type} [FloatOps F] (main_arg0 : FVec F S2048x8192 .f32) (main_arg1 : FVec F S8192x2048 .f32) : IVec S_ 1 :=
  let main_v0 : FVec F S2048x8192 .f32 := Host.absf main_arg0
  let main_cst : FVec F S_ .f32 := constant S_ .f32 0x7F800000#32
  let main_v1 : FVec F S2048x8192 .f32 := broadcastInDim S2048x8192 ![] bcast_S_S2048x8192 main_cst
  let main_v2 : IVec S2048x8192 1 := cmpf .olt main_v0 main_v1
  let main_c : IVec S_ 1 := constantI S_ 1 1#1
  let main_v3 : IVec S_ 1 := (fun x v => Host.reduce IntOp.andi x v reducesTo_S2048x8192_S_d0_1 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  main_v8
-- ==== Kernel.lean ====
abbrev S2048x1024 : Shape := ⟨2, ![2048, 1024]⟩
abbrev S1024x2048 : Shape := ⟨2, ![1024, 2048]⟩
abbrev S2048x2048 : Shape := ⟨2, ![2048, 2048]⟩
abbrev S1792x384 : Shape := ⟨2, ![1792, 384]⟩
abbrev S1792x256 : Shape := ⟨2, ![1792, 256]⟩
abbrev S1024x384 : Shape := ⟨2, ![1024, 384]⟩
abbrev S1024x256 : Shape := ⟨2, ![1024, 256]⟩
abbrev S2048x384 : Shape := ⟨2, ![2048, 384]⟩
abbrev S2048x256 : Shape := ⟨2, ![2048, 256]⟩
abbrev S6x3 : Shape := ⟨2, ![6, 3]⟩
abbrev S24 : Shape := ⟨1, ![24]⟩
abbrev S_ : Shape := ⟨0, ![]⟩
abbrev S1024x1024 : Shape := ⟨2, ![1024, 1024]⟩
abbrev S1x1 : Shape := ⟨2, ![1, 1]⟩
abbrev S512x384 : Shape := ⟨2, ![512, 384]⟩
abbrev S512x256 : Shape := ⟨2, ![512, 256]⟩
abbrev S256x384 : Shape := ⟨2, ![256, 384]⟩
abbrev S256x256 : Shape := ⟨2, ![256, 256]⟩
abbrev S1 : Shape := ⟨1, ![1]⟩

abbrev nBuf : Space → Nat
  | .hbm => 3
  | .vmem => 21
  | .smem => 0
  | _ => 0

abbrev bufTy : (tb : Table) → Fin (tcTables nBuf tb) → BufTy
  | .hbm, ⟨0, _⟩ => ⟨S2048x1024, .f32⟩
  | .hbm, ⟨1, _⟩ => ⟨S1024x2048, .f32⟩
  | .hbm, ⟨2, _⟩ => ⟨S2048x2048, .f32⟩
  | .local _ .vmem, ⟨0, _⟩ => ⟨S2048x1024, .f32⟩
  | .local _ .vmem, ⟨1, _⟩ => ⟨S1024x2048, .f32⟩
  | .local _ .vmem, ⟨2, _⟩ => ⟨S2048x2048, .f32⟩
  | .local _ .vmem, ⟨3, _⟩ => ⟨S1792x384, .bf16⟩
  | .local _ .vmem, ⟨4, _⟩ => ⟨S1792x384, .bf16⟩
  | .local _ .vmem, ⟨5, _⟩ => ⟨S1792x384, .bf16⟩
  | .local _ .vmem, ⟨6, _⟩ => ⟨S1792x384, .bf16⟩
  | .local _ .vmem, ⟨7, _⟩ => ⟨S1792x256, .bf16⟩
  | .local _ .vmem, ⟨8, _⟩ => ⟨S1792x256, .bf16⟩
  | .local _ .vmem, ⟨9, _⟩ => ⟨S1024x384, .bf16⟩
  | .local _ .vmem, ⟨10, _⟩ => ⟨S1024x384, .bf16⟩
  | .local _ .vmem, ⟨11, _⟩ => ⟨S1024x384, .bf16⟩
  | .local _ .vmem, ⟨12, _⟩ => ⟨S1024x384, .bf16⟩
  | .local _ .vmem, ⟨13, _⟩ => ⟨S1024x256, .bf16⟩
  | .local _ .vmem, ⟨14, _⟩ => ⟨S1024x256, .bf16⟩
  | .local _ .vmem, ⟨15, _⟩ => ⟨S2048x384, .bf16⟩
  | .local _ .vmem, ⟨16, _⟩ => ⟨S2048x384, .bf16⟩
  | .local _ .vmem, ⟨17, _⟩ => ⟨S2048x384, .bf16⟩
  | .local _ .vmem, ⟨18, _⟩ => ⟨S2048x384, .bf16⟩
  | .local _ .vmem, ⟨19, _⟩ => ⟨S2048x256, .bf16⟩
  | .local _ .vmem, ⟨20, _⟩ => ⟨S2048x256, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 1 → Bool
  | ⟨0, _⟩ => false
  | _ => false

abbrev dmaSemScoped : Fin 98 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | _ => false

abbrev sig : RefSig :=
  (ofTc nBuf bufTy 1 98 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_scratch6 : Ref sig .tc := ⟨.vmem, 8, rfl⟩
abbrev cc0_scratch7 : Ref sig .tc := ⟨.vmem, 9, rfl⟩
abbrev cc0_scratch8 : Ref sig .tc := ⟨.vmem, 10, rfl⟩
abbrev cc0_scratch9 : Ref sig .tc := ⟨.vmem, 11, rfl⟩
abbrev cc0_scratch10 : Ref sig .tc := ⟨.vmem, 12, rfl⟩
abbrev cc0_scratch11 : Ref sig .tc := ⟨.vmem, 13, rfl⟩
abbrev cc0_scratch12 : Ref sig .tc := ⟨.vmem, 14, rfl⟩
abbrev cc0_scratch13 : Ref sig .tc := ⟨.vmem, 15, rfl⟩
abbrev cc0_scratch14 : Ref sig .tc := ⟨.vmem, 16, rfl⟩
abbrev cc0_scratch15 : Ref sig .tc := ⟨.vmem, 17, rfl⟩
abbrev cc0_scratch16 : Ref sig .tc := ⟨.vmem, 18, rfl⟩
abbrev cc0_scratch17 : Ref sig .tc := ⟨.vmem, 19, rfl⟩
abbrev cc0_scratch18 : Ref sig .tc := ⟨.vmem, 20, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_5 : BitVec 32 := 1#32
  let v11 : BitVec 32 := Scalar.xori v2 c1_i32_5
  let c1_i32_7 : BitVec 32 := 1#32
  let v12 : BitVec 32 := Scalar.muli v11 c1_i32_7
  let v13 : BitVec 32 := Scalar.addi c0_i32 v12
  v13.toNat
def k0_dev2 (d0 : Dev nD) : Nat :=
  let c0_i32_10 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v14 : BitVec 32 := Scalar.xori v2 c3_i32
  let c1_i32_9 : BitVec 32 := 1#32
  let v15 : BitVec 32 := Scalar.muli v14 c1_i32_9
  let v16 : BitVec 32 := Scalar.addi c0_i32_10 v15
  v16.toNat
def k0_dev3 (d0 : Dev nD) : Nat :=
  let c0_i32_13 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v17 : BitVec 32 := Scalar.xori v2 c4_i32
  let c1_i32_12 : BitVec 32 := 1#32
  let v18 : BitVec 32 := Scalar.muli v17 c1_i32_12
  let v19 : BitVec 32 := Scalar.addi c0_i32_13 v18
  v19.toNat
def k0_off1 (d0 : Dev nD) : Fin 2 → Nat :=
  let c1_i32_15 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v3 v5
  let v20 : BitVec 32 := Scalar.subi c1_i32_15 v6
  let c1024_i32 : BitVec 32 := 1024#32
  let v21 : BitVec 32 := Scalar.muli v20 c1024_i32
  let v22 : Index := Scalar.indexCast v21
  let c0 : Index := 0#32
  ![v22.toNat, 0]
def k0_dev4 (d0 : Dev nD) : Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_20 : BitVec 32 := 1#32
  let v34 : BitVec 32 := Scalar.xori v2 c1_i32_20
  let c1_i32_25 : BitVec 32 := 1#32
  let v35 : BitVec 32 := Scalar.muli v34 c1_i32_25
  let v36 : BitVec 32 := Scalar.addi c0_i32_26 v35
  v36.toNat
def k0_off2 (d0 : Dev nD) : Fin 2 → Nat :=
  let c1_i32_32 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v7 : BitVec 32 := Scalar.shrsi v2 c1_i32_3
  let c1_i32_4 : BitVec 32 := 1#32
  let v8 : BitVec 32 := Scalar.andi v7 c1_i32_4
  let v44 : BitVec 32 := Scalar.subi c1_i32_32 v8
  let c1024_i32_33 : BitVec 32 := 1024#32
  let v45 : BitVec 32 := Scalar.muli v44 c1024_i32_33
  let v46 : Index := Scalar.indexCast v45
  let c0_34 : Index := 0#32
  ![v46.toNat, 0]
def k0_dev5 (d0 : Dev nD) : Nat :=
  let c0_i32_45 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_39 : BitVec 32 := 3#32
  let v58 : BitVec 32 := Scalar.xori v2 c3_i32_39
  let c1_i32_44 : BitVec 32 := 1#32
  let v59 : BitVec 32 := Scalar.muli v58 c1_i32_44
  let v60 : BitVec 32 := Scalar.addi c0_i32_45 v59
  v60.toNat
def k0_off3 (d0 : Dev nD) : Fin 2 → Nat :=
  let c1_i32_51 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v9 : BitVec 32 := Scalar.shrsi v2 c2_i32
  let v68 : BitVec 32 := Scalar.subi c1_i32_51 v9
  let c1024_i32_52 : BitVec 32 := 1024#32
  let v69 : BitVec 32 := Scalar.muli v68 c1024_i32_52
  let v70 : Index := Scalar.indexCast v69
  let c0_53 : Index := 0#32
  ![v70.toNat, 0]
def k0_dev6 (d0 : Dev nD) : Nat :=
  let c0_i32_64 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_58 : BitVec 32 := 4#32
  let v82 : BitVec 32 := Scalar.xori v2 c4_i32_58
  let c1_i32_63 : BitVec 32 := 1#32
  let v83 : BitVec 32 := Scalar.muli v82 c1_i32_63
  let v84 : BitVec 32 := Scalar.addi c0_i32_64 v83
  v84.toNat
def k0_dev7 (d0 : Dev nD) : Nat :=
  let c0_i32_83 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_77 : BitVec 32 := 1#32
  let v106 : BitVec 32 := Scalar.xori v2 c1_i32_77
  let c1_i32_82 : BitVec 32 := 1#32
  let v107 : BitVec 32 := Scalar.muli v106 c1_i32_82
  let v108 : BitVec 32 := Scalar.addi c0_i32_83 v107
  v108.toNat
def k0_dev8 (d0 : Dev nD) : Nat :=
  let c0_i32_102 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_96 : BitVec 32 := 3#32
  let v130 : BitVec 32 := Scalar.xori v2 c3_i32_96
  let c1_i32_101 : BitVec 32 := 1#32
  let v131 : BitVec 32 := Scalar.muli v130 c1_i32_101
  let v132 : BitVec 32 := Scalar.addi c0_i32_102 v131
  v132.toNat
def k0_dev9 (d0 : Dev nD) : Nat :=
  let c0_i32_120 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_115 : BitVec 32 := 4#32
  let v154 : BitVec 32 := Scalar.xori v2 c4_i32_115
  let c1_i32_119 : BitVec 32 := 1#32
  let v155 : BitVec 32 := Scalar.muli v154 c1_i32_119
  let v156 : BitVec 32 := Scalar.addi c0_i32_120 v155
  v156.toNat
def k0_off4 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v3 v5
  let c1024_i32_31 : BitVec 32 := 1024#32
  let v43 : BitVec 32 := Scalar.muli v6 c1024_i32_31
  let v164 : Index := Scalar.indexCast v43
  let c0_126 : Index := 0#32
  ![v164.toNat, 0]
def k0_off5 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v3 v5
  let c1024_i32_31 : BitVec 32 := 1024#32
  let v43 : BitVec 32 := Scalar.muli v6 c1024_i32_31
  let v172 : Index := Scalar.indexCast v43
  let c0_130 : Index := 0#32
  ![v172.toNat, 0]
def k0_off6 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v7 : BitVec 32 := Scalar.shrsi v2 c1_i32_3
  let c1_i32_4 : BitVec 32 := 1#32
  let v8 : BitVec 32 := Scalar.andi v7 c1_i32_4
  let c1024_i32_50 : BitVec 32 := 1024#32
  let v67 : BitVec 32 := Scalar.muli v8 c1024_i32_50
  let v176 : Index := Scalar.indexCast v67
  let c0_131 : Index := 0#32
  ![v176.toNat, 0]
def k0_off7 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v7 : BitVec 32 := Scalar.shrsi v2 c1_i32_3
  let c1_i32_4 : BitVec 32 := 1#32
  let v8 : BitVec 32 := Scalar.andi v7 c1_i32_4
  let c1024_i32_50 : BitVec 32 := 1024#32
  let v67 : BitVec 32 := Scalar.muli v8 c1024_i32_50
  let v184 : Index := Scalar.indexCast v67
  let c384_135 : Index := 384#32
  ![v184.toNat, 384]
def k0_off8 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v9 : BitVec 32 := Scalar.shrsi v2 c2_i32
  let c1024_i32_69 : BitVec 32 := 1024#32
  let v91 : BitVec 32 := Scalar.muli v9 c1024_i32_69
  let v188 : Index := Scalar.indexCast v91
  let c0_136 : Index := 0#32
  ![v188.toNat, 0]
def k0_off9 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v9 : BitVec 32 := Scalar.shrsi v2 c2_i32
  let c1024_i32_69 : BitVec 32 := 1024#32
  let v91 : BitVec 32 := Scalar.muli v9 c1024_i32_69
  let v196 : Index := Scalar.indexCast v91
  let c768_140 : Index := 768#32
  ![v196.toNat, 768]
def k0_off10 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v3 v5
  let c1024_i32_88 : BitVec 32 := 1024#32
  let v115 : BitVec 32 := Scalar.muli v6 c1024_i32_88
  let v208 : Index := Scalar.indexCast v115
  let c1152_145 : Index := 1152#32
  ![v208.toNat, 1152]
def k0_off11 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v7 : BitVec 32 := Scalar.shrsi v2 c1_i32_3
  let c1_i32_4 : BitVec 32 := 1#32
  let v8 : BitVec 32 := Scalar.andi v7 c1_i32_4
  let c1024_i32_107 : BitVec 32 := 1024#32
  let v139 : BitVec 32 := Scalar.muli v8 c1024_i32_107
  let v220 : Index := Scalar.indexCast v139
  let c1536_150 : Index := 1536#32
  ![v220.toNat, 1536]
def k0_off12 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v9 : BitVec 32 := Scalar.shrsi v2 c2_i32
  let c1024_i32_125 : BitVec 32 := 1024#32
  let v163 : BitVec 32 := Scalar.muli v9 c1024_i32_125
  let v232 : Index := Scalar.indexCast v163
  let c1792_155 : Index := 1792#32
  ![v232.toNat, 1792]
def k0_off13 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v3 v5
  let c1024_i32_31 : BitVec 32 := 1024#32
  let v43 : BitVec 32 := Scalar.muli v6 c1024_i32_31
  let c1_i32_175 : BitVec 32 := 1#32
  let c1_i32_3 : BitVec 32 := 1#32
  let v7 : BitVec 32 := Scalar.shrsi v2 c1_i32_3
  let c1_i32_4 : BitVec 32 := 1#32
  let v8 : BitVec 32 := Scalar.andi v7 c1_i32_4
  let v246 : BitVec 32 := Scalar.subi c1_i32_175 v8
  let c512_i32 : BitVec 32 := 512#32
  let v247 : BitVec 32 := Scalar.muli v246 c512_i32
  let v248 : BitVec 32 := Scalar.addi v43 v247
  let v251 : Index := Scalar.indexCast v248
  let c0_177 : Index := 0#32
  ![v251.toNat, 0]
def k0_off14 (d0 : Dev nD) : Fin 2 → Nat :=
  let c0_i32_178 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v3 v5
  let c1024_i32_31 : BitVec 32 := 1024#32
  let v43 : BitVec 32 := Scalar.muli v6 c1024_i32_31
  let c1_i32_175 : BitVec 32 := 1#32
  let c1_i32_3 : BitVec 32 := 1#32
  let v7 : BitVec 32 := Scalar.shrsi v2 c1_i32_3
  let c1_i32_4 : BitVec 32 := 1#32
  let v8 : BitVec 32 := Scalar.andi v7 c1_i32_4
  let v246 : BitVec 32 := Scalar.subi c1_i32_175 v8
  let c512_i32 : BitVec 32 := 512#32
  let v247 : BitVec 32 := Scalar.muli v246 c512_i32
  let v248 : BitVec 32 := Scalar.addi v43 v247
  let v253 : BitVec 32 := Scalar.subi v248 v43
  let v254 : BitVec 32 := Scalar.addi c0_i32_178 v253
  let v255 : Index := Scalar.indexCast v254
  let c0_179 : Index := 0#32
  ![v255.toNat, 0]
def k0_dev10 (d0 : Dev nD) : Nat :=
  let c0_i32_190 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_184 : BitVec 32 := 3#32
  let v269 : BitVec 32 := Scalar.xori v2 c3_i32_184
  let c1_i32_189 : BitVec 32 := 1#32
  let v270 : BitVec 32 := Scalar.muli v269 c1_i32_189
  let v271 : BitVec 32 := Scalar.addi c0_i32_190 v270
  v271.toNat
def k0_off15 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v3 v5
  let c1024_i32_31 : BitVec 32 := 1024#32
  let v43 : BitVec 32 := Scalar.muli v6 c1024_i32_31
  let c1_i32_3 : BitVec 32 := 1#32
  let v7 : BitVec 32 := Scalar.shrsi v2 c1_i32_3
  let c1_i32_4 : BitVec 32 := 1#32
  let v8 : BitVec 32 := Scalar.andi v7 c1_i32_4
  let c512_i32_176 : BitVec 32 := 512#32
  let v249 : BitVec 32 := Scalar.muli v8 c512_i32_176
  let v250 : BitVec 32 := Scalar.addi v43 v249
  let v278 : Index := Scalar.indexCast v250
  let c0_195 : Index := 0#32
  ![v278.toNat, 0]
def k0_off16 (d0 : Dev nD) : Fin 2 → Nat :=
  let c0_i32_196 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v3 v5
  let c1024_i32_31 : BitVec 32 := 1024#32
  let v43 : BitVec 32 := Scalar.muli v6 c1024_i32_31
  let c1_i32_3 : BitVec 32 := 1#32
  let v7 : BitVec 32 := Scalar.shrsi v2 c1_i32_3
  let c1_i32_4 : BitVec 32 := 1#32
  let v8 : BitVec 32 := Scalar.andi v7 c1_i32_4
  let c512_i32_176 : BitVec 32 := 512#32
  let v249 : BitVec 32 := Scalar.muli v8 c512_i32_176
  let v250 : BitVec 32 := Scalar.addi v43 v249
  let v280 : BitVec 32 := Scalar.subi v250 v43
  let v281 : BitVec 32 := Scalar.addi c0_i32_196 v280
  let v282 : Index := Scalar.indexCast v281
  let c0_197 : Index := 0#32
  ![v282.toNat, 0]
def k0_off17 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v7 : BitVec 32 := Scalar.shrsi v2 c1_i32_3
  let c1_i32_4 : BitVec 32 := 1#32
  let v8 : BitVec 32 := Scalar.andi v7 c1_i32_4
  let c1024_i32_50 : BitVec 32 := 1024#32
  let v67 : BitVec 32 := Scalar.muli v8 c1024_i32_50
  let c1_i32_218 : BitVec 32 := 1#32
  let c2_i32 : BitVec 32 := 2#32
  let v9 : BitVec 32 := Scalar.shrsi v2 c2_i32
  let v300 : BitVec 32 := Scalar.subi c1_i32_218 v9
  let c512_i32_219 : BitVec 32 := 512#32
  let v301 : BitVec 32 := Scalar.muli v300 c512_i32_219
  let v302 : BitVec 32 := Scalar.addi v67 v301
  let v305 : Index := Scalar.indexCast v302
  let c384_221 : Index := 384#32
  ![v305.toNat, 384]
def k0_off18 (d0 : Dev nD) : Fin 2 → Nat :=
  let c0_i32_222 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v7 : BitVec 32 := Scalar.shrsi v2 c1_i32_3
  let c1_i32_4 : BitVec 32 := 1#32
  let v8 : BitVec 32 := Scalar.andi v7 c1_i32_4
  let c1024_i32_50 : BitVec 32 := 1024#32
  let v67 : BitVec 32 := Scalar.muli v8 c1024_i32_50
  let c1_i32_218 : BitVec 32 := 1#32
  let c2_i32 : BitVec 32 := 2#32
  let v9 : BitVec 32 := Scalar.shrsi v2 c2_i32
  let v300 : BitVec 32 := Scalar.subi c1_i32_218 v9
  let c512_i32_219 : BitVec 32 := 512#32
  let v301 : BitVec 32 := Scalar.muli v300 c512_i32_219
  let v302 : BitVec 32 := Scalar.addi v67 v301
  let v307 : BitVec 32 := Scalar.subi v302 v67
  let v308 : BitVec 32 := Scalar.addi c0_i32_222 v307
  let v309 : Index := Scalar.indexCast v308
  let c0_223 : Index := 0#32
  ![v309.toNat, 0]
def k0_dev11 (d0 : Dev nD) : Nat :=
  let c0_i32_234 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_228 : BitVec 32 := 4#32
  let v323 : BitVec 32 := Scalar.xori v2 c4_i32_228
  let c1_i32_233 : BitVec 32 := 1#32
  let v324 : BitVec 32 := Scalar.muli v323 c1_i32_233
  let v325 : BitVec 32 := Scalar.addi c0_i32_234 v324
  v325.toNat
def k0_off19 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v7 : BitVec 32 := Scalar.shrsi v2 c1_i32_3
  let c1_i32_4 : BitVec 32 := 1#32
  let v8 : BitVec 32 := Scalar.andi v7 c1_i32_4
  let c1024_i32_50 : BitVec 32 := 1024#32
  let v67 : BitVec 32 := Scalar.muli v8 c1024_i32_50
  let c2_i32 : BitVec 32 := 2#32
  let v9 : BitVec 32 := Scalar.shrsi v2 c2_i32
  let c512_i32_220 : BitVec 32 := 512#32
  let v303 : BitVec 32 := Scalar.muli v9 c512_i32_220
  let v304 : BitVec 32 := Scalar.addi v67 v303
  let v332 : Index := Scalar.indexCast v304
  let c384_239 : Index := 384#32
  ![v332.toNat, 384]
def k0_off20 (d0 : Dev nD) : Fin 2 → Nat :=
  let c0_i32_240 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v7 : BitVec 32 := Scalar.shrsi v2 c1_i32_3
  let c1_i32_4 : BitVec 32 := 1#32
  let v8 : BitVec 32 := Scalar.andi v7 c1_i32_4
  let c1024_i32_50 : BitVec 32 := 1024#32
  let v67 : BitVec 32 := Scalar.muli v8 c1024_i32_50
  let c2_i32 : BitVec 32 := 2#32
  let v9 : BitVec 32 := Scalar.shrsi v2 c2_i32
  let c512_i32_220 : BitVec 32 := 512#32
  let v303 : BitVec 32 := Scalar.muli v9 c512_i32_220
  let v304 : BitVec 32 := Scalar.addi v67 v303
  let v334 : BitVec 32 := Scalar.subi v304 v67
  let v335 : BitVec 32 := Scalar.addi c0_i32_240 v334
  let v336 : Index := Scalar.indexCast v335
  let c0_241 : Index := 0#32
  ![v336.toNat, 0]
def k0_off21 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v9 : BitVec 32 := Scalar.shrsi v2 c2_i32
  let c1024_i32_69 : BitVec 32 := 1024#32
  let v91 : BitVec 32 := Scalar.muli v9 c1024_i32_69
  let c1_i32_262 : BitVec 32 := 1#32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v3 v5
  let v354 : BitVec 32 := Scalar.subi c1_i32_262 v6
  let c512_i32_263 : BitVec 32 := 512#32
  let v355 : BitVec 32 := Scalar.muli v354 c512_i32_263
  let v356 : BitVec 32 := Scalar.addi v91 v355
  let v359 : Index := Scalar.indexCast v356
  let c768_265 : Index := 768#32
  ![v359.toNat, 768]
def k0_off22 (d0 : Dev nD) : Fin 2 → Nat :=
  let c0_i32_266 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v9 : BitVec 32 := Scalar.shrsi v2 c2_i32
  let c1024_i32_69 : BitVec 32 := 1024#32
  let v91 : BitVec 32 := Scalar.muli v9 c1024_i32_69
  let c1_i32_262 : BitVec 32 := 1#32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v3 v5
  let v354 : BitVec 32 := Scalar.subi c1_i32_262 v6
  let c512_i32_263 : BitVec 32 := 512#32
  let v355 : BitVec 32 := Scalar.muli v354 c512_i32_263
  let v356 : BitVec 32 := Scalar.addi v91 v355
  let v361 : BitVec 32 := Scalar.subi v356 v91
  let v362 : BitVec 32 := Scalar.addi c0_i32_266 v361
  let v363 : Index := Scalar.indexCast v362
  let c0_267 : Index := 0#32
  ![v363.toNat, 0]
def k0_dev12 (d0 : Dev nD) : Nat :=
  let c0_i32_278 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_272 : BitVec 32 := 1#32
  let v377 : BitVec 32 := Scalar.xori v2 c1_i32_272
  let c1_i32_277 : BitVec 32 := 1#32
  let v378 : BitVec 32 := Scalar.muli v377 c1_i32_277
  let v379 : BitVec 32 := Scalar.addi c0_i32_278 v378
  v379.toNat
def k0_off23 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v9 : BitVec 32 := Scalar.shrsi v2 c2_i32
  let c1024_i32_69 : BitVec 32 := 1024#32
  let v91 : BitVec 32 := Scalar.muli v9 c1024_i32_69
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v3 v5
  let c512_i32_264 : BitVec 32 := 512#32
  let v357 : BitVec 32 := Scalar.muli v6 c512_i32_264
  let v358 : BitVec 32 := Scalar.addi v91 v357
  let v386 : Index := Scalar.indexCast v358
  let c768_283 : Index := 768#32
  ![v386.toNat, 768]
def k0_off24 (d0 : Dev nD) : Fin 2 → Nat :=
  let c0_i32_284 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v9 : BitVec 32 := Scalar.shrsi v2 c2_i32
  let c1024_i32_69 : BitVec 32 := 1024#32
  let v91 : BitVec 32 := Scalar.muli v9 c1024_i32_69
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v3 v5
  let c512_i32_264 : BitVec 32 := 512#32
  let v357 : BitVec 32 := Scalar.muli v6 c512_i32_264
  let v358 : BitVec 32 := Scalar.addi v91 v357
  let v388 : BitVec 32 := Scalar.subi v358 v91
  let v389 : BitVec 32 := Scalar.addi c0_i32_284 v388
  let v390 : Index := Scalar.indexCast v389
  let c0_285 : Index := 0#32
  ![v390.toNat, 0]
def k0_off25 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v3 v5
  let c1024_i32_88 : BitVec 32 := 1024#32
  let v115 : BitVec 32 := Scalar.muli v6 c1024_i32_88
  let c1_i32_306 : BitVec 32 := 1#32
  let c1_i32_3 : BitVec 32 := 1#32
  let v7 : BitVec 32 := Scalar.shrsi v2 c1_i32_3
  let c1_i32_4 : BitVec 32 := 1#32
  let v8 : BitVec 32 := Scalar.andi v7 c1_i32_4
  let v408 : BitVec 32 := Scalar.subi c1_i32_306 v8
  let c512_i32_307 : BitVec 32 := 512#32
  let v409 : BitVec 32 := Scalar.muli v408 c512_i32_307
  let v410 : BitVec 32 := Scalar.addi v115 v409
  let v413 : Index := Scalar.indexCast v410
  let c1152_309 : Index := 1152#32
  ![v413.toNat, 1152]
def k0_dev13 (d0 : Dev nD) : Nat :=
  let c0_i32_322 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_316 : BitVec 32 := 3#32
  let v431 : BitVec 32 := Scalar.xori v2 c3_i32_316
  let c1_i32_321 : BitVec 32 := 1#32
  let v432 : BitVec 32 := Scalar.muli v431 c1_i32_321
  let v433 : BitVec 32 := Scalar.addi c0_i32_322 v432
  v433.toNat
def k0_off26 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v3 v5
  let c1024_i32_88 : BitVec 32 := 1024#32
  let v115 : BitVec 32 := Scalar.muli v6 c1024_i32_88
  let c1_i32_3 : BitVec 32 := 1#32
  let v7 : BitVec 32 := Scalar.shrsi v2 c1_i32_3
  let c1_i32_4 : BitVec 32 := 1#32
  let v8 : BitVec 32 := Scalar.andi v7 c1_i32_4
  let c512_i32_308 : BitVec 32 := 512#32
  let v411 : BitVec 32 := Scalar.muli v8 c512_i32_308
  let v412 : BitVec 32 := Scalar.addi v115 v411
  let v440 : Index := Scalar.indexCast v412
  let c1152_327 : Index := 1152#32
  ![v440.toNat, 1152]
def k0_off27 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v7 : BitVec 32 := Scalar.shrsi v2 c1_i32_3
  let c1_i32_4 : BitVec 32 := 1#32
  let v8 : BitVec 32 := Scalar.andi v7 c1_i32_4
  let c1024_i32_107 : BitVec 32 := 1024#32
  let v139 : BitVec 32 := Scalar.muli v8 c1024_i32_107
  let c1_i32_350 : BitVec 32 := 1#32
  let c2_i32 : BitVec 32 := 2#32
  let v9 : BitVec 32 := Scalar.shrsi v2 c2_i32
  let v462 : BitVec 32 := Scalar.subi c1_i32_350 v9
  let c512_i32_351 : BitVec 32 := 512#32
  let v463 : BitVec 32 := Scalar.muli v462 c512_i32_351
  let v464 : BitVec 32 := Scalar.addi v139 v463
  let v467 : Index := Scalar.indexCast v464
  let c1536_353 : Index := 1536#32
  ![v467.toNat, 1536]
def k0_off28 (d0 : Dev nD) : Fin 2 → Nat :=
  let c0_i32_354 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v7 : BitVec 32 := Scalar.shrsi v2 c1_i32_3
  let c1_i32_4 : BitVec 32 := 1#32
  let v8 : BitVec 32 := Scalar.andi v7 c1_i32_4
  let c1024_i32_107 : BitVec 32 := 1024#32
  let v139 : BitVec 32 := Scalar.muli v8 c1024_i32_107
  let c1_i32_350 : BitVec 32 := 1#32
  let c2_i32 : BitVec 32 := 2#32
  let v9 : BitVec 32 := Scalar.shrsi v2 c2_i32
  let v462 : BitVec 32 := Scalar.subi c1_i32_350 v9
  let c512_i32_351 : BitVec 32 := 512#32
  let v463 : BitVec 32 := Scalar.muli v462 c512_i32_351
  let v464 : BitVec 32 := Scalar.addi v139 v463
  let v469 : BitVec 32 := Scalar.subi v464 v139
  let v470 : BitVec 32 := Scalar.addi c0_i32_354 v469
  let v471 : Index := Scalar.indexCast v470
  let c0_355 : Index := 0#32
  ![v471.toNat, 0]
def k0_dev14 (d0 : Dev nD) : Nat :=
  let c0_i32_366 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_360 : BitVec 32 := 4#32
  let v485 : BitVec 32 := Scalar.xori v2 c4_i32_360
  let c1_i32_365 : BitVec 32 := 1#32
  let v486 : BitVec 32 := Scalar.muli v485 c1_i32_365
  let v487 : BitVec 32 := Scalar.addi c0_i32_366 v486
  v487.toNat
def k0_off29 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v7 : BitVec 32 := Scalar.shrsi v2 c1_i32_3
  let c1_i32_4 : BitVec 32 := 1#32
  let v8 : BitVec 32 := Scalar.andi v7 c1_i32_4
  let c1024_i32_107 : BitVec 32 := 1024#32
  let v139 : BitVec 32 := Scalar.muli v8 c1024_i32_107
  let c2_i32 : BitVec 32 := 2#32
  let v9 : BitVec 32 := Scalar.shrsi v2 c2_i32
  let c512_i32_352 : BitVec 32 := 512#32
  let v465 : BitVec 32 := Scalar.muli v9 c512_i32_352
  let v466 : BitVec 32 := Scalar.addi v139 v465
  let v494 : Index := Scalar.indexCast v466
  let c1536_371 : Index := 1536#32
  ![v494.toNat, 1536]
def k0_off30 (d0 : Dev nD) : Fin 2 → Nat :=
  let c0_i32_372 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v7 : BitVec 32 := Scalar.shrsi v2 c1_i32_3
  let c1_i32_4 : BitVec 32 := 1#32
  let v8 : BitVec 32 := Scalar.andi v7 c1_i32_4
  let c1024_i32_107 : BitVec 32 := 1024#32
  let v139 : BitVec 32 := Scalar.muli v8 c1024_i32_107
  let c2_i32 : BitVec 32 := 2#32
  let v9 : BitVec 32 := Scalar.shrsi v2 c2_i32
  let c512_i32_352 : BitVec 32 := 512#32
  let v465 : BitVec 32 := Scalar.muli v9 c512_i32_352
  let v466 : BitVec 32 := Scalar.addi v139 v465
  let v496 : BitVec 32 := Scalar.subi v466 v139
  let v497 : BitVec 32 := Scalar.addi c0_i32_372 v496
  let v498 : Index := Scalar.indexCast v497
  let c0_373 : Index := 0#32
  ![v498.toNat, 0]
def k0_off31 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v9 : BitVec 32 := Scalar.shrsi v2 c2_i32
  let c1024_i32_125 : BitVec 32 := 1024#32
  let v163 : BitVec 32 := Scalar.muli v9 c1024_i32_125
  let c1_i32_394 : BitVec 32 := 1#32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v3 v5
  let v516 : BitVec 32 := Scalar.subi c1_i32_394 v6
  let c512_i32_395 : BitVec 32 := 512#32
  let v517 : BitVec 32 := Scalar.muli v516 c512_i32_395
  let v518 : BitVec 32 := Scalar.addi v163 v517
  let v521 : Index := Scalar.indexCast v518
  let c1792_397 : Index := 1792#32
  ![v521.toNat, 1792]
def k0_off32 (d0 : Dev nD) : Fin 2 → Nat :=
  let c0_i32_398 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v9 : BitVec 32 := Scalar.shrsi v2 c2_i32
  let c1024_i32_125 : BitVec 32 := 1024#32
  let v163 : BitVec 32 := Scalar.muli v9 c1024_i32_125
  let c1_i32_394 : BitVec 32 := 1#32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v3 v5
  let v516 : BitVec 32 := Scalar.subi c1_i32_394 v6
  let c512_i32_395 : BitVec 32 := 512#32
  let v517 : BitVec 32 := Scalar.muli v516 c512_i32_395
  let v518 : BitVec 32 := Scalar.addi v163 v517
  let v523 : BitVec 32 := Scalar.subi v518 v163
  let v524 : BitVec 32 := Scalar.addi c0_i32_398 v523
  let v525 : Index := Scalar.indexCast v524
  let c0_399 : Index := 0#32
  ![v525.toNat, 0]
def k0_dev15 (d0 : Dev nD) : Nat :=
  let c0_i32_410 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_404 : BitVec 32 := 1#32
  let v539 : BitVec 32 := Scalar.xori v2 c1_i32_404
  let c1_i32_409 : BitVec 32 := 1#32
  let v540 : BitVec 32 := Scalar.muli v539 c1_i32_409
  let v541 : BitVec 32 := Scalar.addi c0_i32_410 v540
  v541.toNat
def k0_off33 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v9 : BitVec 32 := Scalar.shrsi v2 c2_i32
  let c1024_i32_125 : BitVec 32 := 1024#32
  let v163 : BitVec 32 := Scalar.muli v9 c1024_i32_125
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v3 v5
  let c512_i32_396 : BitVec 32 := 512#32
  let v519 : BitVec 32 := Scalar.muli v6 c512_i32_396
  let v520 : BitVec 32 := Scalar.addi v163 v519
  let v548 : Index := Scalar.indexCast v520
  let c1792_415 : Index := 1792#32
  ![v548.toNat, 1792]
def k0_off34 (d0 : Dev nD) : Fin 2 → Nat :=
  let c0_i32_416 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v9 : BitVec 32 := Scalar.shrsi v2 c2_i32
  let c1024_i32_125 : BitVec 32 := 1024#32
  let v163 : BitVec 32 := Scalar.muli v9 c1024_i32_125
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v3 v5
  let c512_i32_396 : BitVec 32 := 512#32
  let v519 : BitVec 32 := Scalar.muli v6 c512_i32_396
  let v520 : BitVec 32 := Scalar.addi v163 v519
  let v550 : BitVec 32 := Scalar.subi v520 v163
  let v551 : BitVec 32 := Scalar.addi c0_i32_416 v550
  let v552 : Index := Scalar.indexCast v551
  let c0_417 : Index := 0#32
  ![v552.toNat, 0]
def k0_off35 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v3 v5
  let c1024_i32_31 : BitVec 32 := 1024#32
  let v43 : BitVec 32 := Scalar.muli v6 c1024_i32_31
  let c1_i32_3 : BitVec 32 := 1#32
  let v7 : BitVec 32 := Scalar.shrsi v2 c1_i32_3
  let c1_i32_4 : BitVec 32 := 1#32
  let v8 : BitVec 32 := Scalar.andi v7 c1_i32_4
  let c512_i32_176 : BitVec 32 := 512#32
  let v249 : BitVec 32 := Scalar.muli v8 c512_i32_176
  let v250 : BitVec 32 := Scalar.addi v43 v249
  let c1_i32_438 : BitVec 32 := 1#32
  let c2_i32 : BitVec 32 := 2#32
  let v9 : BitVec 32 := Scalar.shrsi v2 c2_i32
  let v570 : BitVec 32 := Scalar.subi c1_i32_438 v9
  let c256_i32 : BitVec 32 := 256#32
  let v571 : BitVec 32 := Scalar.muli v570 c256_i32
  let v572 : BitVec 32 := Scalar.addi v250 v571
  let v575 : Index := Scalar.indexCast v572
  let c0_440 : Index := 0#32
  ![v575.toNat, 0]
def k0_off36 (d0 : Dev nD) : Fin 2 → Nat :=
  let c1024_i32_441 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v3 v5
  let c1024_i32_31 : BitVec 32 := 1024#32
  let v43 : BitVec 32 := Scalar.muli v6 c1024_i32_31
  let c1_i32_3 : BitVec 32 := 1#32
  let v7 : BitVec 32 := Scalar.shrsi v2 c1_i32_3
  let c1_i32_4 : BitVec 32 := 1#32
  let v8 : BitVec 32 := Scalar.andi v7 c1_i32_4
  let c512_i32_176 : BitVec 32 := 512#32
  let v249 : BitVec 32 := Scalar.muli v8 c512_i32_176
  let v250 : BitVec 32 := Scalar.addi v43 v249
  let c1_i32_438 : BitVec 32 := 1#32
  let c2_i32 : BitVec 32 := 2#32
  let v9 : BitVec 32 := Scalar.shrsi v2 c2_i32
  let v570 : BitVec 32 := Scalar.subi c1_i32_438 v9
  let c256_i32 : BitVec 32 := 256#32
  let v571 : BitVec 32 := Scalar.muli v570 c256_i32
  let v572 : BitVec 32 := Scalar.addi v250 v571
  let v577 : BitVec 32 := Scalar.subi v572 v250
  let v578 : BitVec 32 := Scalar.addi c1024_i32_441 v577
  let v579 : Index := Scalar.indexCast v578
  let c0_442 : Index := 0#32
  ![v579.toNat, 0]
def k0_dev16 (d0 : Dev nD) : Nat :=
  let c0_i32_453 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_447 : BitVec 32 := 4#32
  let v593 : BitVec 32 := Scalar.xori v2 c4_i32_447
  let c1_i32_452 : BitVec 32 := 1#32
  let v594 : BitVec 32 := Scalar.muli v593 c1_i32_452
  let v595 : BitVec 32 := Scalar.addi c0_i32_453 v594
  v595.toNat
def k0_off37 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v3 v5
  let c1024_i32_31 : BitVec 32 := 1024#32
  let v43 : BitVec 32 := Scalar.muli v6 c1024_i32_31
  let c1_i32_3 : BitVec 32 := 1#32
  let v7 : BitVec 32 := Scalar.shrsi v2 c1_i32_3
  let c1_i32_4 : BitVec 32 := 1#32
  let v8 : BitVec 32 := Scalar.andi v7 c1_i32_4
  let c512_i32_176 : BitVec 32 := 512#32
  let v249 : BitVec 32 := Scalar.muli v8 c512_i32_176
  let v250 : BitVec 32 := Scalar.addi v43 v249
  let c2_i32 : BitVec 32 := 2#32
  let v9 : BitVec 32 := Scalar.shrsi v2 c2_i32
  let c256_i32_439 : BitVec 32 := 256#32
  let v573 : BitVec 32 := Scalar.muli v9 c256_i32_439
  let v574 : BitVec 32 := Scalar.addi v250 v573
  let v602 : Index := Scalar.indexCast v574
  let c0_457 : Index := 0#32
  ![v602.toNat, 0]
def k0_off38 (d0 : Dev nD) : Fin 2 → Nat :=
  let c1024_i32_458 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v3 v5
  let c1024_i32_31 : BitVec 32 := 1024#32
  let v43 : BitVec 32 := Scalar.muli v6 c1024_i32_31
  let c1_i32_3 : BitVec 32 := 1#32
  let v7 : BitVec 32 := Scalar.shrsi v2 c1_i32_3
  let c1_i32_4 : BitVec 32 := 1#32
  let v8 : BitVec 32 := Scalar.andi v7 c1_i32_4
  let c512_i32_176 : BitVec 32 := 512#32
  let v249 : BitVec 32 := Scalar.muli v8 c512_i32_176
  let v250 : BitVec 32 := Scalar.addi v43 v249
  let c2_i32 : BitVec 32 := 2#32
  let v9 : BitVec 32 := Scalar.shrsi v2 c2_i32
  let c256_i32_439 : BitVec 32 := 256#32
  let v573 : BitVec 32 := Scalar.muli v9 c256_i32_439
  let v574 : BitVec 32 := Scalar.addi v250 v573
  let v604 : BitVec 32 := Scalar.subi v574 v250
  let v605 : BitVec 32 := Scalar.addi c1024_i32_458 v604
  let v606 : Index := Scalar.indexCast v605
  let c0_459 : Index := 0#32
  ![v606.toNat, 0]
def k0_off39 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v7 : BitVec 32 := Scalar.shrsi v2 c1_i32_3
  let c1_i32_4 : BitVec 32 := 1#32
  let v8 : BitVec 32 := Scalar.andi v7 c1_i32_4
  let c1024_i32_50 : BitVec 32 := 1024#32
  let v67 : BitVec 32 := Scalar.muli v8 c1024_i32_50
  let c2_i32 : BitVec 32 := 2#32
  let v9 : BitVec 32 := Scalar.shrsi v2 c2_i32
  let c512_i32_220 : BitVec 32 := 512#32
  let v303 : BitVec 32 := Scalar.muli v9 c512_i32_220
  let v304 : BitVec 32 := Scalar.addi v67 v303
  let c1_i32_480 : BitVec 32 := 1#32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v3 v5
  let v624 : BitVec 32 := Scalar.subi c1_i32_480 v6
  let c256_i32_481 : BitVec 32 := 256#32
  let v625 : BitVec 32 := Scalar.muli v624 c256_i32_481
  let v626 : BitVec 32 := Scalar.addi v304 v625
  let v629 : Index := Scalar.indexCast v626
  let c384_483 : Index := 384#32
  ![v629.toNat, 384]
def k0_off40 (d0 : Dev nD) : Fin 2 → Nat :=
  let c1024_i32_484 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v7 : BitVec 32 := Scalar.shrsi v2 c1_i32_3
  let c1_i32_4 : BitVec 32 := 1#32
  let v8 : BitVec 32 := Scalar.andi v7 c1_i32_4
  let c1024_i32_50 : BitVec 32 := 1024#32
  let v67 : BitVec 32 := Scalar.muli v8 c1024_i32_50
  let c2_i32 : BitVec 32 := 2#32
  let v9 : BitVec 32 := Scalar.shrsi v2 c2_i32
  let c512_i32_220 : BitVec 32 := 512#32
  let v303 : BitVec 32 := Scalar.muli v9 c512_i32_220
  let v304 : BitVec 32 := Scalar.addi v67 v303
  let c1_i32_480 : BitVec 32 := 1#32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v3 v5
  let v624 : BitVec 32 := Scalar.subi c1_i32_480 v6
  let c256_i32_481 : BitVec 32 := 256#32
  let v625 : BitVec 32 := Scalar.muli v624 c256_i32_481
  let v626 : BitVec 32 := Scalar.addi v304 v625
  let v631 : BitVec 32 := Scalar.subi v626 v304
  let v632 : BitVec 32 := Scalar.addi c1024_i32_484 v631
  let v633 : Index := Scalar.indexCast v632
  let c0_485 : Index := 0#32
  ![v633.toNat, 0]
def k0_dev17 (d0 : Dev nD) : Nat :=
  let c0_i32_496 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_490 : BitVec 32 := 1#32
  let v647 : BitVec 32 := Scalar.xori v2 c1_i32_490
  let c1_i32_495 : BitVec 32 := 1#32
  let v648 : BitVec 32 := Scalar.muli v647 c1_i32_495
  let v649 : BitVec 32 := Scalar.addi c0_i32_496 v648
  v649.toNat
def k0_off41 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v7 : BitVec 32 := Scalar.shrsi v2 c1_i32_3
  let c1_i32_4 : BitVec 32 := 1#32
  let v8 : BitVec 32 := Scalar.andi v7 c1_i32_4
  let c1024_i32_50 : BitVec 32 := 1024#32
  let v67 : BitVec 32 := Scalar.muli v8 c1024_i32_50
  let c2_i32 : BitVec 32 := 2#32
  let v9 : BitVec 32 := Scalar.shrsi v2 c2_i32
  let c512_i32_220 : BitVec 32 := 512#32
  let v303 : BitVec 32 := Scalar.muli v9 c512_i32_220
  let v304 : BitVec 32 := Scalar.addi v67 v303
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v3 v5
  let c256_i32_482 : BitVec 32 := 256#32
  let v627 : BitVec 32 := Scalar.muli v6 c256_i32_482
  let v628 : BitVec 32 := Scalar.addi v304 v627
  let v656 : Index := Scalar.indexCast v628
  let c384_501 : Index := 384#32
  ![v656.toNat, 384]
def k0_off42 (d0 : Dev nD) : Fin 2 → Nat :=
  let c1024_i32_502 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v7 : BitVec 32 := Scalar.shrsi v2 c1_i32_3
  let c1_i32_4 : BitVec 32 := 1#32
  let v8 : BitVec 32 := Scalar.andi v7 c1_i32_4
  let c1024_i32_50 : BitVec 32 := 1024#32
  let v67 : BitVec 32 := Scalar.muli v8 c1024_i32_50
  let c2_i32 : BitVec 32 := 2#32
  let v9 : BitVec 32 := Scalar.shrsi v2 c2_i32
  let c512_i32_220 : BitVec 32 := 512#32
  let v303 : BitVec 32 := Scalar.muli v9 c512_i32_220
  let v304 : BitVec 32 := Scalar.addi v67 v303
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v3 v5
  let c256_i32_482 : BitVec 32 := 256#32
  let v627 : BitVec 32 := Scalar.muli v6 c256_i32_482
  let v628 : BitVec 32 := Scalar.addi v304 v627
  let v658 : BitVec 32 := Scalar.subi v628 v304
  let v659 : BitVec 32 := Scalar.addi c1024_i32_502 v658
  let v660 : Index := Scalar.indexCast v659
  let c0_503 : Index := 0#32
  ![v660.toNat, 0]
def k0_off43 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v9 : BitVec 32 := Scalar.shrsi v2 c2_i32
  let c1024_i32_69 : BitVec 32 := 1024#32
  let v91 : BitVec 32 := Scalar.muli v9 c1024_i32_69
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v3 v5
  let c512_i32_264 : BitVec 32 := 512#32
  let v357 : BitVec 32 := Scalar.muli v6 c512_i32_264
  let v358 : BitVec 32 := Scalar.addi v91 v357
  let c1_i32_524 : BitVec 32 := 1#32
  let c1_i32_3 : BitVec 32 := 1#32
  let v7 : BitVec 32 := Scalar.shrsi v2 c1_i32_3
  let c1_i32_4 : BitVec 32 := 1#32
  let v8 : BitVec 32 := Scalar.andi v7 c1_i32_4
  let v678 : BitVec 32 := Scalar.subi c1_i32_524 v8
  let c256_i32_525 : BitVec 32 := 256#32
  let v679 : BitVec 32 := Scalar.muli v678 c256_i32_525
  let v680 : BitVec 32 := Scalar.addi v358 v679
  let v683 : Index := Scalar.indexCast v680
  let c768_527 : Index := 768#32
  ![v683.toNat, 768]
def k0_off44 (d0 : Dev nD) : Fin 2 → Nat :=
  let c1024_i32_528 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v9 : BitVec 32 := Scalar.shrsi v2 c2_i32
  let c1024_i32_69 : BitVec 32 := 1024#32
  let v91 : BitVec 32 := Scalar.muli v9 c1024_i32_69
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v3 v5
  let c512_i32_264 : BitVec 32 := 512#32
  let v357 : BitVec 32 := Scalar.muli v6 c512_i32_264
  let v358 : BitVec 32 := Scalar.addi v91 v357
  let c1_i32_524 : BitVec 32 := 1#32
  let c1_i32_3 : BitVec 32 := 1#32
  let v7 : BitVec 32 := Scalar.shrsi v2 c1_i32_3
  let c1_i32_4 : BitVec 32 := 1#32
  let v8 : BitVec 32 := Scalar.andi v7 c1_i32_4
  let v678 : BitVec 32 := Scalar.subi c1_i32_524 v8
  let c256_i32_525 : BitVec 32 := 256#32
  let v679 : BitVec 32 := Scalar.muli v678 c256_i32_525
  let v680 : BitVec 32 := Scalar.addi v358 v679
  let v685 : BitVec 32 := Scalar.subi v680 v358
  let v686 : BitVec 32 := Scalar.addi c1024_i32_528 v685
  let v687 : Index := Scalar.indexCast v686
  let c0_529 : Index := 0#32
  ![v687.toNat, 0]
def k0_dev18 (d0 : Dev nD) : Nat :=
  let c0_i32_540 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_534 : BitVec 32 := 3#32
  let v701 : BitVec 32 := Scalar.xori v2 c3_i32_534
  let c1_i32_539 : BitVec 32 := 1#32
  let v702 : BitVec 32 := Scalar.muli v701 c1_i32_539
  let v703 : BitVec 32 := Scalar.addi c0_i32_540 v702
  v703.toNat
def k0_off45 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v9 : BitVec 32 := Scalar.shrsi v2 c2_i32
  let c1024_i32_69 : BitVec 32 := 1024#32
  let v91 : BitVec 32 := Scalar.muli v9 c1024_i32_69
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v3 v5
  let c512_i32_264 : BitVec 32 := 512#32
  let v357 : BitVec 32 := Scalar.muli v6 c512_i32_264
  let v358 : BitVec 32 := Scalar.addi v91 v357
  let c1_i32_3 : BitVec 32 := 1#32
  let v7 : BitVec 32 := Scalar.shrsi v2 c1_i32_3
  let c1_i32_4 : BitVec 32 := 1#32
  let v8 : BitVec 32 := Scalar.andi v7 c1_i32_4
  let c256_i32_526 : BitVec 32 := 256#32
  let v681 : BitVec 32 := Scalar.muli v8 c256_i32_526
  let v682 : BitVec 32 := Scalar.addi v358 v681
  let v710 : Index := Scalar.indexCast v682
  let c768_545 : Index := 768#32
  ![v710.toNat, 768]
def k0_off46 (d0 : Dev nD) : Fin 2 → Nat :=
  let c1024_i32_546 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v9 : BitVec 32 := Scalar.shrsi v2 c2_i32
  let c1024_i32_69 : BitVec 32 := 1024#32
  let v91 : BitVec 32 := Scalar.muli v9 c1024_i32_69
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v3 v5
  let c512_i32_264 : BitVec 32 := 512#32
  let v357 : BitVec 32 := Scalar.muli v6 c512_i32_264
  let v358 : BitVec 32 := Scalar.addi v91 v357
  let c1_i32_3 : BitVec 32 := 1#32
  let v7 : BitVec 32 := Scalar.shrsi v2 c1_i32_3
  let c1_i32_4 : BitVec 32 := 1#32
  let v8 : BitVec 32 := Scalar.andi v7 c1_i32_4
  let c256_i32_526 : BitVec 32 := 256#32
  let v681 : BitVec 32 := Scalar.muli v8 c256_i32_526
  let v682 : BitVec 32 := Scalar.addi v358 v681
  let v712 : BitVec 32 := Scalar.subi v682 v358
  let v713 : BitVec 32 := Scalar.addi c1024_i32_546 v712
  let v714 : Index := Scalar.indexCast v713
  let c0_547 : Index := 0#32
  ![v714.toNat, 0]
def k0_off47 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v3 v5
  let c1024_i32_88 : BitVec 32 := 1024#32
  let v115 : BitVec 32 := Scalar.muli v6 c1024_i32_88
  let c1_i32_3 : BitVec 32 := 1#32
  let v7 : BitVec 32 := Scalar.shrsi v2 c1_i32_3
  let c1_i32_4 : BitVec 32 := 1#32
  let v8 : BitVec 32 := Scalar.andi v7 c1_i32_4
  let c512_i32_308 : BitVec 32 := 512#32
  let v411 : BitVec 32 := Scalar.muli v8 c512_i32_308
  let v412 : BitVec 32 := Scalar.addi v115 v411
  let c1_i32_568 : BitVec 32 := 1#32
  let c2_i32 : BitVec 32 := 2#32
  let v9 : BitVec 32 := Scalar.shrsi v2 c2_i32
  let v732 : BitVec 32 := Scalar.subi c1_i32_568 v9
  let c256_i32_569 : BitVec 32 := 256#32
  let v733 : BitVec 32 := Scalar.muli v732 c256_i32_569
  let v734 : BitVec 32 := Scalar.addi v412 v733
  let v737 : Index := Scalar.indexCast v734
  let c1152_571 : Index := 1152#32
  ![v737.toNat, 1152]
def k0_dev19 (d0 : Dev nD) : Nat :=
  let c0_i32_584 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_578 : BitVec 32 := 4#32
  let v755 : BitVec 32 := Scalar.xori v2 c4_i32_578
  let c1_i32_583 : BitVec 32 := 1#32
  let v756 : BitVec 32 := Scalar.muli v755 c1_i32_583
  let v757 : BitVec 32 := Scalar.addi c0_i32_584 v756
  v757.toNat
def k0_off48 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v3 v5
  let c1024_i32_88 : BitVec 32 := 1024#32
  let v115 : BitVec 32 := Scalar.muli v6 c1024_i32_88
  let c1_i32_3 : BitVec 32 := 1#32
  let v7 : BitVec 32 := Scalar.shrsi v2 c1_i32_3
  let c1_i32_4 : BitVec 32 := 1#32
  let v8 : BitVec 32 := Scalar.andi v7 c1_i32_4
  let c512_i32_308 : BitVec 32 := 512#32
  let v411 : BitVec 32 := Scalar.muli v8 c512_i32_308
  let v412 : BitVec 32 := Scalar.addi v115 v411
  let c2_i32 : BitVec 32 := 2#32
  let v9 : BitVec 32 := Scalar.shrsi v2 c2_i32
  let c256_i32_570 : BitVec 32 := 256#32
  let v735 : BitVec 32 := Scalar.muli v9 c256_i32_570
  let v736 : BitVec 32 := Scalar.addi v412 v735
  let v764 : Index := Scalar.indexCast v736
  let c1152_589 : Index := 1152#32
  ![v764.toNat, 1152]
def k0_off49 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v7 : BitVec 32 := Scalar.shrsi v2 c1_i32_3
  let c1_i32_4 : BitVec 32 := 1#32
  let v8 : BitVec 32 := Scalar.andi v7 c1_i32_4
  let c1024_i32_107 : BitVec 32 := 1024#32
  let v139 : BitVec 32 := Scalar.muli v8 c1024_i32_107
  let c2_i32 : BitVec 32 := 2#32
  let v9 : BitVec 32 := Scalar.shrsi v2 c2_i32
  let c512_i32_352 : BitVec 32 := 512#32
  let v465 : BitVec 32 := Scalar.muli v9 c512_i32_352
  let v466 : BitVec 32 := Scalar.addi v139 v465
  let c1_i32_612 : BitVec 32 := 1#32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v3 v5
  let v786 : BitVec 32 := Scalar.subi c1_i32_612 v6
  let c256_i32_613 : BitVec 32 := 256#32
  let v787 : BitVec 32 := Scalar.muli v786 c256_i32_613
  let v788 : BitVec 32 := Scalar.addi v466 v787
  let v791 : Index := Scalar.indexCast v788
  let c1536_615 : Index := 1536#32
  ![v791.toNat, 1536]
def k0_off50 (d0 : Dev nD) : Fin 2 → Nat :=
  let c1024_i32_616 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v7 : BitVec 32 := Scalar.shrsi v2 c1_i32_3
  let c1_i32_4 : BitVec 32 := 1#32
  let v8 : BitVec 32 := Scalar.andi v7 c1_i32_4
  let c1024_i32_107 : BitVec 32 := 1024#32
  let v139 : BitVec 32 := Scalar.muli v8 c1024_i32_107
  let c2_i32 : BitVec 32 := 2#32
  let v9 : BitVec 32 := Scalar.shrsi v2 c2_i32
  let c512_i32_352 : BitVec 32 := 512#32
  let v465 : BitVec 32 := Scalar.muli v9 c512_i32_352
  let v466 : BitVec 32 := Scalar.addi v139 v465
  let c1_i32_612 : BitVec 32 := 1#32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v3 v5
  let v786 : BitVec 32 := Scalar.subi c1_i32_612 v6
  let c256_i32_613 : BitVec 32 := 256#32
  let v787 : BitVec 32 := Scalar.muli v786 c256_i32_613
  let v788 : BitVec 32 := Scalar.addi v466 v787
  let v793 : BitVec 32 := Scalar.subi v788 v466
  let v794 : BitVec 32 := Scalar.addi c1024_i32_616 v793
  let v795 : Index := Scalar.indexCast v794
  let c0_617 : Index := 0#32
  ![v795.toNat, 0]
def k0_dev20 (d0 : Dev nD) : Nat :=
  let c0_i32_628 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_622 : BitVec 32 := 1#32
  let v809 : BitVec 32 := Scalar.xori v2 c1_i32_622
  let c1_i32_627 : BitVec 32 := 1#32
  let v810 : BitVec 32 := Scalar.muli v809 c1_i32_627
  let v811 : BitVec 32 := Scalar.addi c0_i32_628 v810
  v811.toNat
def k0_off51 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v7 : BitVec 32 := Scalar.shrsi v2 c1_i32_3
  let c1_i32_4 : BitVec 32 := 1#32
  let v8 : BitVec 32 := Scalar.andi v7 c1_i32_4
  let c1024_i32_107 : BitVec 32 := 1024#32
  let v139 : BitVec 32 := Scalar.muli v8 c1024_i32_107
  let c2_i32 : BitVec 32 := 2#32
  let v9 : BitVec 32 := Scalar.shrsi v2 c2_i32
  let c512_i32_352 : BitVec 32 := 512#32
  let v465 : BitVec 32 := Scalar.muli v9 c512_i32_352
  let v466 : BitVec 32 := Scalar.addi v139 v465
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v3 v5
  let c256_i32_614 : BitVec 32 := 256#32
  let v789 : BitVec 32 := Scalar.muli v6 c256_i32_614
  let v790 : BitVec 32 := Scalar.addi v466 v789
  let v818 : Index := Scalar.indexCast v790
  let c1536_633 : Index := 1536#32
  ![v818.toNat, 1536]
def k0_off52 (d0 : Dev nD) : Fin 2 → Nat :=
  let c1024_i32_634 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v7 : BitVec 32 := Scalar.shrsi v2 c1_i32_3
  let c1_i32_4 : BitVec 32 := 1#32
  let v8 : BitVec 32 := Scalar.andi v7 c1_i32_4
  let c1024_i32_107 : BitVec 32 := 1024#32
  let v139 : BitVec 32 := Scalar.muli v8 c1024_i32_107
  let c2_i32 : BitVec 32 := 2#32
  let v9 : BitVec 32 := Scalar.shrsi v2 c2_i32
  let c512_i32_352 : BitVec 32 := 512#32
  let v465 : BitVec 32 := Scalar.muli v9 c512_i32_352
  let v466 : BitVec 32 := Scalar.addi v139 v465
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v3 v5
  let c256_i32_614 : BitVec 32 := 256#32
  let v789 : BitVec 32 := Scalar.muli v6 c256_i32_614
  let v790 : BitVec 32 := Scalar.addi v466 v789
  let v820 : BitVec 32 := Scalar.subi v790 v466
  let v821 : BitVec 32 := Scalar.addi c1024_i32_634 v820
  let v822 : Index := Scalar.indexCast v821
  let c0_635 : Index := 0#32
  ![v822.toNat, 0]
def k0_off53 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v9 : BitVec 32 := Scalar.shrsi v2 c2_i32
  let c1024_i32_125 : BitVec 32 := 1024#32
  let v163 : BitVec 32 := Scalar.muli v9 c1024_i32_125
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v3 v5
  let c512_i32_396 : BitVec 32 := 512#32
  let v519 : BitVec 32 := Scalar.muli v6 c512_i32_396
  let v520 : BitVec 32 := Scalar.addi v163 v519
  let c1_i32_656 : BitVec 32 := 1#32
  let c1_i32_3 : BitVec 32 := 1#32
  let v7 : BitVec 32 := Scalar.shrsi v2 c1_i32_3
  let c1_i32_4 : BitVec 32 := 1#32
  let v8 : BitVec 32 := Scalar.andi v7 c1_i32_4
  let v840 : BitVec 32 := Scalar.subi c1_i32_656 v8
  let c256_i32_657 : BitVec 32 := 256#32
  let v841 : BitVec 32 := Scalar.muli v840 c256_i32_657
  let v842 : BitVec 32 := Scalar.addi v520 v841
  let v845 : Index := Scalar.indexCast v842
  let c1792_659 : Index := 1792#32
  ![v845.toNat, 1792]
def k0_off54 (d0 : Dev nD) : Fin 2 → Nat :=
  let c1024_i32_660 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v9 : BitVec 32 := Scalar.shrsi v2 c2_i32
  let c1024_i32_125 : BitVec 32 := 1024#32
  let v163 : BitVec 32 := Scalar.muli v9 c1024_i32_125
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v3 v5
  let c512_i32_396 : BitVec 32 := 512#32
  let v519 : BitVec 32 := Scalar.muli v6 c512_i32_396
  let v520 : BitVec 32 := Scalar.addi v163 v519
  let c1_i32_656 : BitVec 32 := 1#32
  let c1_i32_3 : BitVec 32 := 1#32
  let v7 : BitVec 32 := Scalar.shrsi v2 c1_i32_3
  let c1_i32_4 : BitVec 32 := 1#32
  let v8 : BitVec 32 := Scalar.andi v7 c1_i32_4
  let v840 : BitVec 32 := Scalar.subi c1_i32_656 v8
  let c256_i32_657 : BitVec 32 := 256#32
  let v841 : BitVec 32 := Scalar.muli v840 c256_i32_657
  let v842 : BitVec 32 := Scalar.addi v520 v841
  let v847 : BitVec 32 := Scalar.subi v842 v520
  let v848 : BitVec 32 := Scalar.addi c1024_i32_660 v847
  let v849 : Index := Scalar.indexCast v848
  let c0_661 : Index := 0#32
  ![v849.toNat, 0]
def k0_dev21 (d0 : Dev nD) : Nat :=
  let c0_i32_672 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_666 : BitVec 32 := 3#32
  let v863 : BitVec 32 := Scalar.xori v2 c3_i32_666
  let c1_i32_671 : BitVec 32 := 1#32
  let v864 : BitVec 32 := Scalar.muli v863 c1_i32_671
  let v865 : BitVec 32 := Scalar.addi c0_i32_672 v864
  v865.toNat
def k0_off55 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v9 : BitVec 32 := Scalar.shrsi v2 c2_i32
  let c1024_i32_125 : BitVec 32 := 1024#32
  let v163 : BitVec 32 := Scalar.muli v9 c1024_i32_125
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v3 v5
  let c512_i32_396 : BitVec 32 := 512#32
  let v519 : BitVec 32 := Scalar.muli v6 c512_i32_396
  let v520 : BitVec 32 := Scalar.addi v163 v519
  let c1_i32_3 : BitVec 32 := 1#32
  let v7 : BitVec 32 := Scalar.shrsi v2 c1_i32_3
  let c1_i32_4 : BitVec 32 := 1#32
  let v8 : BitVec 32 := Scalar.andi v7 c1_i32_4
  let c256_i32_658 : BitVec 32 := 256#32
  let v843 : BitVec 32 := Scalar.muli v8 c256_i32_658
  let v844 : BitVec 32 := Scalar.addi v520 v843
  let v872 : Index := Scalar.indexCast v844
  let c1792_677 : Index := 1792#32
  ![v872.toNat, 1792]
def k0_off56 (d0 : Dev nD) : Fin 2 → Nat :=
  let c1024_i32_678 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v9 : BitVec 32 := Scalar.shrsi v2 c2_i32
  let c1024_i32_125 : BitVec 32 := 1024#32
  let v163 : BitVec 32 := Scalar.muli v9 c1024_i32_125
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v3 v5
  let c512_i32_396 : BitVec 32 := 512#32
  let v519 : BitVec 32 := Scalar.muli v6 c512_i32_396
  let v520 : BitVec 32 := Scalar.addi v163 v519
  let c1_i32_3 : BitVec 32 := 1#32
  let v7 : BitVec 32 := Scalar.shrsi v2 c1_i32_3
  let c1_i32_4 : BitVec 32 := 1#32
  let v8 : BitVec 32 := Scalar.andi v7 c1_i32_4
  let c256_i32_658 : BitVec 32 := 256#32
  let v843 : BitVec 32 := Scalar.muli v8 c256_i32_658
  let v844 : BitVec 32 := Scalar.addi v520 v843
  let v874 : BitVec 32 := Scalar.subi v844 v520
  let v875 : BitVec 32 := Scalar.addi c1024_i32_678 v874
  let v876 : Index := Scalar.indexCast v875
  let c0_679 : Index := 0#32
  ![v876.toNat, 0]
def k0_off57 (d0 : Dev nD) : Fin 2 → Nat :=
  let c1536_i32_701 : BitVec 32 := 1536#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v3 v5
  let c1024_i32_31 : BitVec 32 := 1024#32
  let v43 : BitVec 32 := Scalar.muli v6 c1024_i32_31
  let c1_i32_3 : BitVec 32 := 1#32
  let v7 : BitVec 32 := Scalar.shrsi v2 c1_i32_3
  let c1_i32_4 : BitVec 32 := 1#32
  let v8 : BitVec 32 := Scalar.andi v7 c1_i32_4
  let c512_i32_176 : BitVec 32 := 512#32
  let v249 : BitVec 32 := Scalar.muli v8 c512_i32_176
  let v250 : BitVec 32 := Scalar.addi v43 v249
  let c2_i32 : BitVec 32 := 2#32
  let v9 : BitVec 32 := Scalar.shrsi v2 c2_i32
  let c256_i32_439 : BitVec 32 := 256#32
  let v573 : BitVec 32 := Scalar.muli v9 c256_i32_439
  let v574 : BitVec 32 := Scalar.addi v250 v573
  let v896 : BitVec 32 := Scalar.subi v574 v574
  let v897 : BitVec 32 := Scalar.addi c1536_i32_701 v896
  let v898 : Index := Scalar.indexCast v897
  let c0_702 : Index := 0#32
  ![v898.toNat, 0]
def k0_off58 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v3 v5
  let c1024_i32_31 : BitVec 32 := 1024#32
  let v43 : BitVec 32 := Scalar.muli v6 c1024_i32_31
  let c1_i32_3 : BitVec 32 := 1#32
  let v7 : BitVec 32 := Scalar.shrsi v2 c1_i32_3
  let c1_i32_4 : BitVec 32 := 1#32
  let v8 : BitVec 32 := Scalar.andi v7 c1_i32_4
  let c512_i32_176 : BitVec 32 := 512#32
  let v249 : BitVec 32 := Scalar.muli v8 c512_i32_176
  let v250 : BitVec 32 := Scalar.addi v43 v249
  let c2_i32 : BitVec 32 := 2#32
  let v9 : BitVec 32 := Scalar.shrsi v2 c2_i32
  let c256_i32_439 : BitVec 32 := 256#32
  let v573 : BitVec 32 := Scalar.muli v9 c256_i32_439
  let v574 : BitVec 32 := Scalar.addi v250 v573
  let v926 : Index := Scalar.indexCast v574
  let c0_710 : Index := 0#32
  ![v926.toNat, 0]
def k0_off59 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v3 v5
  let c1024_i32_31 : BitVec 32 := 1024#32
  let v43 : BitVec 32 := Scalar.muli v6 c1024_i32_31
  let c1_i32_3 : BitVec 32 := 1#32
  let v7 : BitVec 32 := Scalar.shrsi v2 c1_i32_3
  let c1_i32_4 : BitVec 32 := 1#32
  let v8 : BitVec 32 := Scalar.andi v7 c1_i32_4
  let c512_i32_176 : BitVec 32 := 512#32
  let v249 : BitVec 32 := Scalar.muli v8 c512_i32_176
  let v250 : BitVec 32 := Scalar.addi v43 v249
  let c2_i32 : BitVec 32 := 2#32
  let v9 : BitVec 32 := Scalar.shrsi v2 c2_i32
  let c256_i32_439 : BitVec 32 := 256#32
  let v573 : BitVec 32 := Scalar.muli v9 c256_i32_439
  let v574 : BitVec 32 := Scalar.addi v250 v573
  let c0_i32_712 : BitVec 32 := 0#32
  ![v574.toNat, 0]
def k0_off60 (d0 : Dev nD) : Fin 2 → Nat :=
  let c1536_i32_734 : BitVec 32 := 1536#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v7 : BitVec 32 := Scalar.shrsi v2 c1_i32_3
  let c1_i32_4 : BitVec 32 := 1#32
  let v8 : BitVec 32 := Scalar.andi v7 c1_i32_4
  let c1024_i32_50 : BitVec 32 := 1024#32
  let v67 : BitVec 32 := Scalar.muli v8 c1024_i32_50
  let c2_i32 : BitVec 32 := 2#32
  let v9 : BitVec 32 := Scalar.shrsi v2 c2_i32
  let c512_i32_220 : BitVec 32 := 512#32
  let v303 : BitVec 32 := Scalar.muli v9 c512_i32_220
  let v304 : BitVec 32 := Scalar.addi v67 v303
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v3 v5
  let c256_i32_482 : BitVec 32 := 256#32
  let v627 : BitVec 32 := Scalar.muli v6 c256_i32_482
  let v628 : BitVec 32 := Scalar.addi v304 v627
  let v946 : BitVec 32 := Scalar.subi v628 v628
  let v947 : BitVec 32 := Scalar.addi c1536_i32_734 v946
  let v948 : Index := Scalar.indexCast v947
  let c0_735 : Index := 0#32
  ![v948.toNat, 0]
def k0_off61 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v7 : BitVec 32 := Scalar.shrsi v2 c1_i32_3
  let c1_i32_4 : BitVec 32 := 1#32
  let v8 : BitVec 32 := Scalar.andi v7 c1_i32_4
  let c1024_i32_50 : BitVec 32 := 1024#32
  let v67 : BitVec 32 := Scalar.muli v8 c1024_i32_50
  let c2_i32 : BitVec 32 := 2#32
  let v9 : BitVec 32 := Scalar.shrsi v2 c2_i32
  let c512_i32_220 : BitVec 32 := 512#32
  let v303 : BitVec 32 := Scalar.muli v9 c512_i32_220
  let v304 : BitVec 32 := Scalar.addi v67 v303
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v3 v5
  let c256_i32_482 : BitVec 32 := 256#32
  let v627 : BitVec 32 := Scalar.muli v6 c256_i32_482
  let v628 : BitVec 32 := Scalar.addi v304 v627
  let v976 : Index := Scalar.indexCast v628
  let c0_743 : Index := 0#32
  ![v976.toNat, 0]
def k0_off62 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v7 : BitVec 32 := Scalar.shrsi v2 c1_i32_3
  let c1_i32_4 : BitVec 32 := 1#32
  let v8 : BitVec 32 := Scalar.andi v7 c1_i32_4
  let c1024_i32_50 : BitVec 32 := 1024#32
  let v67 : BitVec 32 := Scalar.muli v8 c1024_i32_50
  let c2_i32 : BitVec 32 := 2#32
  let v9 : BitVec 32 := Scalar.shrsi v2 c2_i32
  let c512_i32_220 : BitVec 32 := 512#32
  let v303 : BitVec 32 := Scalar.muli v9 c512_i32_220
  let v304 : BitVec 32 := Scalar.addi v67 v303
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v3 v5
  let c256_i32_482 : BitVec 32 := 256#32
  let v627 : BitVec 32 := Scalar.muli v6 c256_i32_482
  let v628 : BitVec 32 := Scalar.addi v304 v627
  let c384_i32 : BitVec 32 := 384#32
  ![v628.toNat, 384]
def k0_off63 (d0 : Dev nD) : Fin 2 → Nat :=
  let c1536_i32_766 : BitVec 32 := 1536#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v9 : BitVec 32 := Scalar.shrsi v2 c2_i32
  let c1024_i32_69 : BitVec 32 := 1024#32
  let v91 : BitVec 32 := Scalar.muli v9 c1024_i32_69
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v3 v5
  let c512_i32_264 : BitVec 32 := 512#32
  let v357 : BitVec 32 := Scalar.muli v6 c512_i32_264
  let v358 : BitVec 32 := Scalar.addi v91 v357
  let c1_i32_3 : BitVec 32 := 1#32
  let v7 : BitVec 32 := Scalar.shrsi v2 c1_i32_3
  let c1_i32_4 : BitVec 32 := 1#32
  let v8 : BitVec 32 := Scalar.andi v7 c1_i32_4
  let c256_i32_526 : BitVec 32 := 256#32
  let v681 : BitVec 32 := Scalar.muli v8 c256_i32_526
  let v682 : BitVec 32 := Scalar.addi v358 v681
  let v996 : BitVec 32 := Scalar.subi v682 v682
  let v997 : BitVec 32 := Scalar.addi c1536_i32_766 v996
  let v998 : Index := Scalar.indexCast v997
  let c0_767 : Index := 0#32
  ![v998.toNat, 0]
def k0_off64 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v9 : BitVec 32 := Scalar.shrsi v2 c2_i32
  let c1024_i32_69 : BitVec 32 := 1024#32
  let v91 : BitVec 32 := Scalar.muli v9 c1024_i32_69
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v3 v5
  let c512_i32_264 : BitVec 32 := 512#32
  let v357 : BitVec 32 := Scalar.muli v6 c512_i32_264
  let v358 : BitVec 32 := Scalar.addi v91 v357
  let c1_i32_3 : BitVec 32 := 1#32
  let v7 : BitVec 32 := Scalar.shrsi v2 c1_i32_3
  let c1_i32_4 : BitVec 32 := 1#32
  let v8 : BitVec 32 := Scalar.andi v7 c1_i32_4
  let c256_i32_526 : BitVec 32 := 256#32
  let v681 : BitVec 32 := Scalar.muli v8 c256_i32_526
  let v682 : BitVec 32 := Scalar.addi v358 v681
  let v1026 : Index := Scalar.indexCast v682
  let c0_775 : Index := 0#32
  ![v1026.toNat, 0]
def k0_off65 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v9 : BitVec 32 := Scalar.shrsi v2 c2_i32
  let c1024_i32_69 : BitVec 32 := 1024#32
  let v91 : BitVec 32 := Scalar.muli v9 c1024_i32_69
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v3 v5
  let c512_i32_264 : BitVec 32 := 512#32
  let v357 : BitVec 32 := Scalar.muli v6 c512_i32_264
  let v358 : BitVec 32 := Scalar.addi v91 v357
  let c1_i32_3 : BitVec 32 := 1#32
  let v7 : BitVec 32 := Scalar.shrsi v2 c1_i32_3
  let c1_i32_4 : BitVec 32 := 1#32
  let v8 : BitVec 32 := Scalar.andi v7 c1_i32_4
  let c256_i32_526 : BitVec 32 := 256#32
  let v681 : BitVec 32 := Scalar.muli v8 c256_i32_526
  let v682 : BitVec 32 := Scalar.addi v358 v681
  let c768_i32 : BitVec 32 := 768#32
  ![v682.toNat, 768]
def k0_off66 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v3 v5
  let c1024_i32_88 : BitVec 32 := 1024#32
  let v115 : BitVec 32 := Scalar.muli v6 c1024_i32_88
  let c1_i32_3 : BitVec 32 := 1#32
  let v7 : BitVec 32 := Scalar.shrsi v2 c1_i32_3
  let c1_i32_4 : BitVec 32 := 1#32
  let v8 : BitVec 32 := Scalar.andi v7 c1_i32_4
  let c512_i32_308 : BitVec 32 := 512#32
  let v411 : BitVec 32 := Scalar.muli v8 c512_i32_308
  let v412 : BitVec 32 := Scalar.addi v115 v411
  let c2_i32 : BitVec 32 := 2#32
  let v9 : BitVec 32 := Scalar.shrsi v2 c2_i32
  let c256_i32_570 : BitVec 32 := 256#32
  let v735 : BitVec 32 := Scalar.muli v9 c256_i32_570
  let v736 : BitVec 32 := Scalar.addi v412 v735
  let c1152_i32 : BitVec 32 := 1152#32
  ![v736.toNat, 1152]
def k0_off67 (d0 : Dev nD) : Fin 2 → Nat :=
  let c1536_i32_830 : BitVec 32 := 1536#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v7 : BitVec 32 := Scalar.shrsi v2 c1_i32_3
  let c1_i32_4 : BitVec 32 := 1#32
  let v8 : BitVec 32 := Scalar.andi v7 c1_i32_4
  let c1024_i32_107 : BitVec 32 := 1024#32
  let v139 : BitVec 32 := Scalar.muli v8 c1024_i32_107
  let c2_i32 : BitVec 32 := 2#32
  let v9 : BitVec 32 := Scalar.shrsi v2 c2_i32
  let c512_i32_352 : BitVec 32 := 512#32
  let v465 : BitVec 32 := Scalar.muli v9 c512_i32_352
  let v466 : BitVec 32 := Scalar.addi v139 v465
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v3 v5
  let c256_i32_614 : BitVec 32 := 256#32
  let v789 : BitVec 32 := Scalar.muli v6 c256_i32_614
  let v790 : BitVec 32 := Scalar.addi v466 v789
  let v1096 : BitVec 32 := Scalar.subi v790 v790
  let v1097 : BitVec 32 := Scalar.addi c1536_i32_830 v1096
  let v1098 : Index := Scalar.indexCast v1097
  let c0_831 : Index := 0#32
  ![v1098.toNat, 0]
def k0_off68 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v7 : BitVec 32 := Scalar.shrsi v2 c1_i32_3
  let c1_i32_4 : BitVec 32 := 1#32
  let v8 : BitVec 32 := Scalar.andi v7 c1_i32_4
  let c1024_i32_107 : BitVec 32 := 1024#32
  let v139 : BitVec 32 := Scalar.muli v8 c1024_i32_107
  let c2_i32 : BitVec 32 := 2#32
  let v9 : BitVec 32 := Scalar.shrsi v2 c2_i32
  let c512_i32_352 : BitVec 32 := 512#32
  let v465 : BitVec 32 := Scalar.muli v9 c512_i32_352
  let v466 : BitVec 32 := Scalar.addi v139 v465
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v3 v5
  let c256_i32_614 : BitVec 32 := 256#32
  let v789 : BitVec 32 := Scalar.muli v6 c256_i32_614
  let v790 : BitVec 32 := Scalar.addi v466 v789
  let v1126 : Index := Scalar.indexCast v790
  let c0_839 : Index := 0#32
  ![v1126.toNat, 0]
def k0_off69 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v7 : BitVec 32 := Scalar.shrsi v2 c1_i32_3
  let c1_i32_4 : BitVec 32 := 1#32
  let v8 : BitVec 32 := Scalar.andi v7 c1_i32_4
  let c1024_i32_107 : BitVec 32 := 1024#32
  let v139 : BitVec 32 := Scalar.muli v8 c1024_i32_107
  let c2_i32 : BitVec 32 := 2#32
  let v9 : BitVec 32 := Scalar.shrsi v2 c2_i32
  let c512_i32_352 : BitVec 32 := 512#32
  let v465 : BitVec 32 := Scalar.muli v9 c512_i32_352
  let v466 : BitVec 32 := Scalar.addi v139 v465
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v3 v5
  let c256_i32_614 : BitVec 32 := 256#32
  let v789 : BitVec 32 := Scalar.muli v6 c256_i32_614
  let v790 : BitVec 32 := Scalar.addi v466 v789
  let c1536_i32_841 : BitVec 32 := 1536#32
  ![v790.toNat, 1536]
def k0_off70 (d0 : Dev nD) : Fin 2 → Nat :=
  let c1536_i32_863 : BitVec 32 := 1536#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v9 : BitVec 32 := Scalar.shrsi v2 c2_i32
  let c1024_i32_125 : BitVec 32 := 1024#32
  let v163 : BitVec 32 := Scalar.muli v9 c1024_i32_125
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v3 v5
  let c512_i32_396 : BitVec 32 := 512#32
  let v519 : BitVec 32 := Scalar.muli v6 c512_i32_396
  let v520 : BitVec 32 := Scalar.addi v163 v519
  let c1_i32_3 : BitVec 32 := 1#32
  let v7 : BitVec 32 := Scalar.shrsi v2 c1_i32_3
  let c1_i32_4 : BitVec 32 := 1#32
  let v8 : BitVec 32 := Scalar.andi v7 c1_i32_4
  let c256_i32_658 : BitVec 32 := 256#32
  let v843 : BitVec 32 := Scalar.muli v8 c256_i32_658
  let v844 : BitVec 32 := Scalar.addi v520 v843
  let v1146 : BitVec 32 := Scalar.subi v844 v844
  let v1147 : BitVec 32 := Scalar.addi c1536_i32_863 v1146
  let v1148 : Index := Scalar.indexCast v1147
  let c0_864 : Index := 0#32
  ![v1148.toNat, 0]
def k0_off71 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v9 : BitVec 32 := Scalar.shrsi v2 c2_i32
  let c1024_i32_125 : BitVec 32 := 1024#32
  let v163 : BitVec 32 := Scalar.muli v9 c1024_i32_125
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v3 v5
  let c512_i32_396 : BitVec 32 := 512#32
  let v519 : BitVec 32 := Scalar.muli v6 c512_i32_396
  let v520 : BitVec 32 := Scalar.addi v163 v519
  let c1_i32_3 : BitVec 32 := 1#32
  let v7 : BitVec 32 := Scalar.shrsi v2 c1_i32_3
  let c1_i32_4 : BitVec 32 := 1#32
  let v8 : BitVec 32 := Scalar.andi v7 c1_i32_4
  let c256_i32_658 : BitVec 32 := 256#32
  let v843 : BitVec 32 := Scalar.muli v8 c256_i32_658
  let v844 : BitVec 32 := Scalar.addi v520 v843
  let v1176 : Index := Scalar.indexCast v844
  let c0_872 : Index := 0#32
  ![v1176.toNat, 0]
def k0_off72 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v9 : BitVec 32 := Scalar.shrsi v2 c2_i32
  let c1024_i32_125 : BitVec 32 := 1024#32
  let v163 : BitVec 32 := Scalar.muli v9 c1024_i32_125
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v3 v5
  let c512_i32_396 : BitVec 32 := 512#32
  let v519 : BitVec 32 := Scalar.muli v6 c512_i32_396
  let v520 : BitVec 32 := Scalar.addi v163 v519
  let c1_i32_3 : BitVec 32 := 1#32
  let v7 : BitVec 32 := Scalar.shrsi v2 c1_i32_3
  let c1_i32_4 : BitVec 32 := 1#32
  let v8 : BitVec 32 := Scalar.andi v7 c1_i32_4
  let c256_i32_658 : BitVec 32 := 256#32
  let v843 : BitVec 32 := Scalar.muli v8 c256_i32_658
  let v844 : BitVec 32 := Scalar.addi v520 v843
  let c1792_i32 : BitVec 32 := 1792#32
  ![v844.toNat, 1792]
def k0_off73 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v3 v5
  let c1024_i32_31 : BitVec 32 := 1024#32
  let v43 : BitVec 32 := Scalar.muli v6 c1024_i32_31
  let c1_i32_3 : BitVec 32 := 1#32
  let v7 : BitVec 32 := Scalar.shrsi v2 c1_i32_3
  let c1_i32_4 : BitVec 32 := 1#32
  let v8 : BitVec 32 := Scalar.andi v7 c1_i32_4
  let c512_i32_176 : BitVec 32 := 512#32
  let v249 : BitVec 32 := Scalar.muli v8 c512_i32_176
  let v250 : BitVec 32 := Scalar.addi v43 v249
  let c2_i32 : BitVec 32 := 2#32
  let v9 : BitVec 32 := Scalar.shrsi v2 c2_i32
  let c256_i32_439 : BitVec 32 := 256#32
  let v573 : BitVec 32 := Scalar.muli v9 c256_i32_439
  let v574 : BitVec 32 := Scalar.addi v250 v573
  let c0_i32_882 : BitVec 32 := 0#32
  ![v574.toNat, 0]
def k0_dev22 (d0 : Dev nD) : Nat :=
  let c0_i32_881 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_875 : BitVec 32 := 4#32
  let v1184 : BitVec 32 := Scalar.xori v2 c4_i32_875
  let c1_i32_880 : BitVec 32 := 1#32
  let v1185 : BitVec 32 := Scalar.muli v1184 c1_i32_880
  let v1186 : BitVec 32 := Scalar.addi c0_i32_881 v1185
  v1186.toNat
def k0_off74 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v7 : BitVec 32 := Scalar.shrsi v2 c1_i32_3
  let c1_i32_4 : BitVec 32 := 1#32
  let v8 : BitVec 32 := Scalar.andi v7 c1_i32_4
  let c1024_i32_50 : BitVec 32 := 1024#32
  let v67 : BitVec 32 := Scalar.muli v8 c1024_i32_50
  let c2_i32 : BitVec 32 := 2#32
  let v9 : BitVec 32 := Scalar.shrsi v2 c2_i32
  let c512_i32_220 : BitVec 32 := 512#32
  let v303 : BitVec 32 := Scalar.muli v9 c512_i32_220
  let v304 : BitVec 32 := Scalar.addi v67 v303
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v3 v5
  let c256_i32_482 : BitVec 32 := 256#32
  let v627 : BitVec 32 := Scalar.muli v6 c256_i32_482
  let v628 : BitVec 32 := Scalar.addi v304 v627
  let c0_i32_894 : BitVec 32 := 0#32
  ![v628.toNat, 0]
def k0_dev23 (d0 : Dev nD) : Nat :=
  let c0_i32_893 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_887 : BitVec 32 := 1#32
  let v1198 : BitVec 32 := Scalar.xori v2 c1_i32_887
  let c1_i32_892 : BitVec 32 := 1#32
  let v1199 : BitVec 32 := Scalar.muli v1198 c1_i32_892
  let v1200 : BitVec 32 := Scalar.addi c0_i32_893 v1199
  v1200.toNat
def k0_off75 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v9 : BitVec 32 := Scalar.shrsi v2 c2_i32
  let c1024_i32_69 : BitVec 32 := 1024#32
  let v91 : BitVec 32 := Scalar.muli v9 c1024_i32_69
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v3 v5
  let c512_i32_264 : BitVec 32 := 512#32
  let v357 : BitVec 32 := Scalar.muli v6 c512_i32_264
  let v358 : BitVec 32 := Scalar.addi v91 v357
  let c1_i32_3 : BitVec 32 := 1#32
  let v7 : BitVec 32 := Scalar.shrsi v2 c1_i32_3
  let c1_i32_4 : BitVec 32 := 1#32
  let v8 : BitVec 32 := Scalar.andi v7 c1_i32_4
  let c256_i32_526 : BitVec 32 := 256#32
  let v681 : BitVec 32 := Scalar.muli v8 c256_i32_526
  let v682 : BitVec 32 := Scalar.addi v358 v681
  let c0_i32_906 : BitVec 32 := 0#32
  ![v682.toNat, 0]
def k0_dev24 (d0 : Dev nD) : Nat :=
  let c0_i32_905 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_899 : BitVec 32 := 3#32
  let v1212 : BitVec 32 := Scalar.xori v2 c3_i32_899
  let c1_i32_904 : BitVec 32 := 1#32
  let v1213 : BitVec 32 := Scalar.muli v1212 c1_i32_904
  let v1214 : BitVec 32 := Scalar.addi c0_i32_905 v1213
  v1214.toNat
def k0_dev25 (d0 : Dev nD) : Nat :=
  let c0_i32_917 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_911 : BitVec 32 := 4#32
  let v1226 : BitVec 32 := Scalar.xori v2 c4_i32_911
  let c1_i32_916 : BitVec 32 := 1#32
  let v1227 : BitVec 32 := Scalar.muli v1226 c1_i32_916
  let v1228 : BitVec 32 := Scalar.addi c0_i32_917 v1227
  v1228.toNat
def k0_off76 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v7 : BitVec 32 := Scalar.shrsi v2 c1_i32_3
  let c1_i32_4 : BitVec 32 := 1#32
  let v8 : BitVec 32 := Scalar.andi v7 c1_i32_4
  let c1024_i32_107 : BitVec 32 := 1024#32
  let v139 : BitVec 32 := Scalar.muli v8 c1024_i32_107
  let c2_i32 : BitVec 32 := 2#32
  let v9 : BitVec 32 := Scalar.shrsi v2 c2_i32
  let c512_i32_352 : BitVec 32 := 512#32
  let v465 : BitVec 32 := Scalar.muli v9 c512_i32_352
  let v466 : BitVec 32 := Scalar.addi v139 v465
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v3 v5
  let c256_i32_614 : BitVec 32 := 256#32
  let v789 : BitVec 32 := Scalar.muli v6 c256_i32_614
  let v790 : BitVec 32 := Scalar.addi v466 v789
  let c0_i32_930 : BitVec 32 := 0#32
  ![v790.toNat, 0]
def k0_dev26 (d0 : Dev nD) : Nat :=
  let c0_i32_929 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_923 : BitVec 32 := 1#32
  let v1240 : BitVec 32 := Scalar.xori v2 c1_i32_923
  let c1_i32_928 : BitVec 32 := 1#32
  let v1241 : BitVec 32 := Scalar.muli v1240 c1_i32_928
  let v1242 : BitVec 32 := Scalar.addi c0_i32_929 v1241
  v1242.toNat
def k0_off77 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v9 : BitVec 32 := Scalar.shrsi v2 c2_i32
  let c1024_i32_125 : BitVec 32 := 1024#32
  let v163 : BitVec 32 := Scalar.muli v9 c1024_i32_125
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v3 v5
  let c512_i32_396 : BitVec 32 := 512#32
  let v519 : BitVec 32 := Scalar.muli v6 c512_i32_396
  let v520 : BitVec 32 := Scalar.addi v163 v519
  let c1_i32_3 : BitVec 32 := 1#32
  let v7 : BitVec 32 := Scalar.shrsi v2 c1_i32_3
  let c1_i32_4 : BitVec 32 := 1#32
  let v8 : BitVec 32 := Scalar.andi v7 c1_i32_4
  let c256_i32_658 : BitVec 32 := 256#32
  let v843 : BitVec 32 := Scalar.muli v8 c256_i32_658
  let v844 : BitVec 32 := Scalar.addi v520 v843
  let c0_i32_942 : BitVec 32 := 0#32
  ![v844.toNat, 0]
def k0_dev27 (d0 : Dev nD) : Nat :=
  let c0_i32_941 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_935 : BitVec 32 := 3#32
  let v1254 : BitVec 32 := Scalar.xori v2 c3_i32_935
  let c1_i32_940 : BitVec 32 := 1#32
  let v1255 : BitVec 32 := Scalar.muli v1254 c1_i32_940
  let v1256 : BitVec 32 := Scalar.addi c0_i32_941 v1255
  v1256.toNat
def k0_off78 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v3 v5
  let c1024_i32_31 : BitVec 32 := 1024#32
  let v43 : BitVec 32 := Scalar.muli v6 c1024_i32_31
  let c1_i32_3 : BitVec 32 := 1#32
  let v7 : BitVec 32 := Scalar.shrsi v2 c1_i32_3
  let c1_i32_4 : BitVec 32 := 1#32
  let v8 : BitVec 32 := Scalar.andi v7 c1_i32_4
  let c512_i32_176 : BitVec 32 := 512#32
  let v249 : BitVec 32 := Scalar.muli v8 c512_i32_176
  let v250 : BitVec 32 := Scalar.addi v43 v249
  let c2_i32 : BitVec 32 := 2#32
  let v9 : BitVec 32 := Scalar.shrsi v2 c2_i32
  let c256_i32_439 : BitVec 32 := 256#32
  let v573 : BitVec 32 := Scalar.muli v9 c256_i32_439
  let v574 : BitVec 32 := Scalar.addi v250 v573
  let c256_i32_884 : BitVec 32 := 256#32
  let v1193 : BitVec 32 := Scalar.muli v9 c256_i32_884
  let v1194 : BitVec 32 := Scalar.subi v574 v1193
  let c0_i32_969 : BitVec 32 := 0#32
  ![v1194.toNat, 0]
def k0_dev28 (d0 : Dev nD) : Nat :=
  let c0_i32_968 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_962 : BitVec 32 := 3#32
  let v1278 : BitVec 32 := Scalar.xori v2 c3_i32_962
  let c1_i32_967 : BitVec 32 := 1#32
  let v1279 : BitVec 32 := Scalar.muli v1278 c1_i32_967
  let v1280 : BitVec 32 := Scalar.addi c0_i32_968 v1279
  v1280.toNat
def k0_off79 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v3 v5
  let c1024_i32_31 : BitVec 32 := 1024#32
  let v43 : BitVec 32 := Scalar.muli v6 c1024_i32_31
  let c1_i32_3 : BitVec 32 := 1#32
  let v7 : BitVec 32 := Scalar.shrsi v2 c1_i32_3
  let c1_i32_4 : BitVec 32 := 1#32
  let v8 : BitVec 32 := Scalar.andi v7 c1_i32_4
  let c512_i32_176 : BitVec 32 := 512#32
  let v249 : BitVec 32 := Scalar.muli v8 c512_i32_176
  let v250 : BitVec 32 := Scalar.addi v43 v249
  let c2_i32 : BitVec 32 := 2#32
  let v9 : BitVec 32 := Scalar.shrsi v2 c2_i32
  let c256_i32_439 : BitVec 32 := 256#32
  let v573 : BitVec 32 := Scalar.muli v9 c256_i32_439
  let v574 : BitVec 32 := Scalar.addi v250 v573
  let c256_i32_884 : BitVec 32 := 256#32
  let v1193 : BitVec 32 := Scalar.muli v9 c256_i32_884
  let v1194 : BitVec 32 := Scalar.subi v574 v1193
  let c1_i32_885 : BitVec 32 := 1#32
  let v1195 : BitVec 32 := Scalar.subi c1_i32_885 v9
  let c256_i32_886 : BitVec 32 := 256#32
  let v1196 : BitVec 32 := Scalar.muli v1195 c256_i32_886
  let v1197 : BitVec 32 := Scalar.addi v1194 v1196
  let v1292 : Index := Scalar.indexCast v1197
  let c0_974 : Index := 0#32
  ![v1292.toNat, 0]
def k0_off80 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v3 v5
  let c1024_i32_31 : BitVec 32 := 1024#32
  let v43 : BitVec 32 := Scalar.muli v6 c1024_i32_31
  let c1_i32_3 : BitVec 32 := 1#32
  let v7 : BitVec 32 := Scalar.shrsi v2 c1_i32_3
  let c1_i32_4 : BitVec 32 := 1#32
  let v8 : BitVec 32 := Scalar.andi v7 c1_i32_4
  let c512_i32_176 : BitVec 32 := 512#32
  let v249 : BitVec 32 := Scalar.muli v8 c512_i32_176
  let v250 : BitVec 32 := Scalar.addi v43 v249
  let c2_i32 : BitVec 32 := 2#32
  let v9 : BitVec 32 := Scalar.shrsi v2 c2_i32
  let c256_i32_439 : BitVec 32 := 256#32
  let v573 : BitVec 32 := Scalar.muli v9 c256_i32_439
  let v574 : BitVec 32 := Scalar.addi v250 v573
  let c256_i32_884 : BitVec 32 := 256#32
  let v1193 : BitVec 32 := Scalar.muli v9 c256_i32_884
  let v1194 : BitVec 32 := Scalar.subi v574 v1193
  let c1_i32_885 : BitVec 32 := 1#32
  let v1195 : BitVec 32 := Scalar.subi c1_i32_885 v9
  let c256_i32_886 : BitVec 32 := 256#32
  let v1196 : BitVec 32 := Scalar.muli v1195 c256_i32_886
  let v1197 : BitVec 32 := Scalar.addi v1194 v1196
  let v1295 : Index := Scalar.indexCast v1197
  let c0_975 : Index := 0#32
  ![v1295.toNat, 0]
def k0_off81 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v3 v5
  let c1024_i32_31 : BitVec 32 := 1024#32
  let v43 : BitVec 32 := Scalar.muli v6 c1024_i32_31
  let c1_i32_3 : BitVec 32 := 1#32
  let v7 : BitVec 32 := Scalar.shrsi v2 c1_i32_3
  let c1_i32_4 : BitVec 32 := 1#32
  let v8 : BitVec 32 := Scalar.andi v7 c1_i32_4
  let c512_i32_176 : BitVec 32 := 512#32
  let v249 : BitVec 32 := Scalar.muli v8 c512_i32_176
  let v250 : BitVec 32 := Scalar.addi v43 v249
  let c2_i32 : BitVec 32 := 2#32
  let v9 : BitVec 32 := Scalar.shrsi v2 c2_i32
  let c256_i32_439 : BitVec 32 := 256#32
  let v573 : BitVec 32 := Scalar.muli v9 c256_i32_439
  let v574 : BitVec 32 := Scalar.addi v250 v573
  let c256_i32_884 : BitVec 32 := 256#32
  let v1193 : BitVec 32 := Scalar.muli v9 c256_i32_884
  let v1194 : BitVec 32 := Scalar.subi v574 v1193
  let c1_i32_885 : BitVec 32 := 1#32
  let v1195 : BitVec 32 := Scalar.subi c1_i32_885 v9
  let c256_i32_886 : BitVec 32 := 256#32
  let v1196 : BitVec 32 := Scalar.muli v1195 c256_i32_886
  let v1197 : BitVec 32 := Scalar.addi v1194 v1196
  let c0_i32_976 : BitVec 32 := 0#32
  ![v1197.toNat, 0]
def k0_off82 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v7 : BitVec 32 := Scalar.shrsi v2 c1_i32_3
  let c1_i32_4 : BitVec 32 := 1#32
  let v8 : BitVec 32 := Scalar.andi v7 c1_i32_4
  let c1024_i32_50 : BitVec 32 := 1024#32
  let v67 : BitVec 32 := Scalar.muli v8 c1024_i32_50
  let c2_i32 : BitVec 32 := 2#32
  let v9 : BitVec 32 := Scalar.shrsi v2 c2_i32
  let c512_i32_220 : BitVec 32 := 512#32
  let v303 : BitVec 32 := Scalar.muli v9 c512_i32_220
  let v304 : BitVec 32 := Scalar.addi v67 v303
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v3 v5
  let c256_i32_482 : BitVec 32 := 256#32
  let v627 : BitVec 32 := Scalar.muli v6 c256_i32_482
  let v628 : BitVec 32 := Scalar.addi v304 v627
  let c256_i32_896 : BitVec 32 := 256#32
  let v1207 : BitVec 32 := Scalar.muli v6 c256_i32_896
  let v1208 : BitVec 32 := Scalar.subi v628 v1207
  let c0_i32_1000 : BitVec 32 := 0#32
  ![v1208.toNat, 0]
def k0_dev29 (d0 : Dev nD) : Nat :=
  let c0_i32_999 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_993 : BitVec 32 := 4#32
  let v1313 : BitVec 32 := Scalar.xori v2 c4_i32_993
  let c1_i32_998 : BitVec 32 := 1#32
  let v1314 : BitVec 32 := Scalar.muli v1313 c1_i32_998
  let v1315 : BitVec 32 := Scalar.addi c0_i32_999 v1314
  v1315.toNat
def k0_off83 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v7 : BitVec 32 := Scalar.shrsi v2 c1_i32_3
  let c1_i32_4 : BitVec 32 := 1#32
  let v8 : BitVec 32 := Scalar.andi v7 c1_i32_4
  let c1024_i32_50 : BitVec 32 := 1024#32
  let v67 : BitVec 32 := Scalar.muli v8 c1024_i32_50
  let c2_i32 : BitVec 32 := 2#32
  let v9 : BitVec 32 := Scalar.shrsi v2 c2_i32
  let c512_i32_220 : BitVec 32 := 512#32
  let v303 : BitVec 32 := Scalar.muli v9 c512_i32_220
  let v304 : BitVec 32 := Scalar.addi v67 v303
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v3 v5
  let c256_i32_482 : BitVec 32 := 256#32
  let v627 : BitVec 32 := Scalar.muli v6 c256_i32_482
  let v628 : BitVec 32 := Scalar.addi v304 v627
  let c256_i32_896 : BitVec 32 := 256#32
  let v1207 : BitVec 32 := Scalar.muli v6 c256_i32_896
  let v1208 : BitVec 32 := Scalar.subi v628 v1207
  let c1_i32_897 : BitVec 32 := 1#32
  let v1209 : BitVec 32 := Scalar.subi c1_i32_897 v6
  let c256_i32_898 : BitVec 32 := 256#32
  let v1210 : BitVec 32 := Scalar.muli v1209 c256_i32_898
  let v1211 : BitVec 32 := Scalar.addi v1208 v1210
  let v1327 : Index := Scalar.indexCast v1211
  let c0_1005 : Index := 0#32
  ![v1327.toNat, 0]
def k0_off84 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v7 : BitVec 32 := Scalar.shrsi v2 c1_i32_3
  let c1_i32_4 : BitVec 32 := 1#32
  let v8 : BitVec 32 := Scalar.andi v7 c1_i32_4
  let c1024_i32_50 : BitVec 32 := 1024#32
  let v67 : BitVec 32 := Scalar.muli v8 c1024_i32_50
  let c2_i32 : BitVec 32 := 2#32
  let v9 : BitVec 32 := Scalar.shrsi v2 c2_i32
  let c512_i32_220 : BitVec 32 := 512#32
  let v303 : BitVec 32 := Scalar.muli v9 c512_i32_220
  let v304 : BitVec 32 := Scalar.addi v67 v303
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v3 v5
  let c256_i32_482 : BitVec 32 := 256#32
  let v627 : BitVec 32 := Scalar.muli v6 c256_i32_482
  let v628 : BitVec 32 := Scalar.addi v304 v627
  let c256_i32_896 : BitVec 32 := 256#32
  let v1207 : BitVec 32 := Scalar.muli v6 c256_i32_896
  let v1208 : BitVec 32 := Scalar.subi v628 v1207
  let c1_i32_897 : BitVec 32 := 1#32
  let v1209 : BitVec 32 := Scalar.subi c1_i32_897 v6
  let c256_i32_898 : BitVec 32 := 256#32
  let v1210 : BitVec 32 := Scalar.muli v1209 c256_i32_898
  let v1211 : BitVec 32 := Scalar.addi v1208 v1210
  let v1330 : Index := Scalar.indexCast v1211
  let c384_1006 : Index := 384#32
  ![v1330.toNat, 384]
def k0_off85 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v7 : BitVec 32 := Scalar.shrsi v2 c1_i32_3
  let c1_i32_4 : BitVec 32 := 1#32
  let v8 : BitVec 32 := Scalar.andi v7 c1_i32_4
  let c1024_i32_50 : BitVec 32 := 1024#32
  let v67 : BitVec 32 := Scalar.muli v8 c1024_i32_50
  let c2_i32 : BitVec 32 := 2#32
  let v9 : BitVec 32 := Scalar.shrsi v2 c2_i32
  let c512_i32_220 : BitVec 32 := 512#32
  let v303 : BitVec 32 := Scalar.muli v9 c512_i32_220
  let v304 : BitVec 32 := Scalar.addi v67 v303
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v3 v5
  let c256_i32_482 : BitVec 32 := 256#32
  let v627 : BitVec 32 := Scalar.muli v6 c256_i32_482
  let v628 : BitVec 32 := Scalar.addi v304 v627
  let c256_i32_896 : BitVec 32 := 256#32
  let v1207 : BitVec 32 := Scalar.muli v6 c256_i32_896
  let v1208 : BitVec 32 := Scalar.subi v628 v1207
  let c1_i32_897 : BitVec 32 := 1#32
  let v1209 : BitVec 32 := Scalar.subi c1_i32_897 v6
  let c256_i32_898 : BitVec 32 := 256#32
  let v1210 : BitVec 32 := Scalar.muli v1209 c256_i32_898
  let v1211 : BitVec 32 := Scalar.addi v1208 v1210
  let c384_i32_1007 : BitVec 32 := 384#32
  ![v1211.toNat, 384]
def k0_off86 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v9 : BitVec 32 := Scalar.shrsi v2 c2_i32
  let c1024_i32_69 : BitVec 32 := 1024#32
  let v91 : BitVec 32 := Scalar.muli v9 c1024_i32_69
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v3 v5
  let c512_i32_264 : BitVec 32 := 512#32
  let v357 : BitVec 32 := Scalar.muli v6 c512_i32_264
  let v358 : BitVec 32 := Scalar.addi v91 v357
  let c1_i32_3 : BitVec 32 := 1#32
  let v7 : BitVec 32 := Scalar.shrsi v2 c1_i32_3
  let c1_i32_4 : BitVec 32 := 1#32
  let v8 : BitVec 32 := Scalar.andi v7 c1_i32_4
  let c256_i32_526 : BitVec 32 := 256#32
  let v681 : BitVec 32 := Scalar.muli v8 c256_i32_526
  let v682 : BitVec 32 := Scalar.addi v358 v681
  let c256_i32_908 : BitVec 32 := 256#32
  let v1221 : BitVec 32 := Scalar.muli v8 c256_i32_908
  let v1222 : BitVec 32 := Scalar.subi v682 v1221
  let c0_i32_1031 : BitVec 32 := 0#32
  ![v1222.toNat, 0]
def k0_dev30 (d0 : Dev nD) : Nat :=
  let c0_i32_1030 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1024 : BitVec 32 := 1#32
  let v1348 : BitVec 32 := Scalar.xori v2 c1_i32_1024
  let c1_i32_1029 : BitVec 32 := 1#32
  let v1349 : BitVec 32 := Scalar.muli v1348 c1_i32_1029
  let v1350 : BitVec 32 := Scalar.addi c0_i32_1030 v1349
  v1350.toNat
def k0_off87 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v9 : BitVec 32 := Scalar.shrsi v2 c2_i32
  let c1024_i32_69 : BitVec 32 := 1024#32
  let v91 : BitVec 32 := Scalar.muli v9 c1024_i32_69
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v3 v5
  let c512_i32_264 : BitVec 32 := 512#32
  let v357 : BitVec 32 := Scalar.muli v6 c512_i32_264
  let v358 : BitVec 32 := Scalar.addi v91 v357
  let c1_i32_3 : BitVec 32 := 1#32
  let v7 : BitVec 32 := Scalar.shrsi v2 c1_i32_3
  let c1_i32_4 : BitVec 32 := 1#32
  let v8 : BitVec 32 := Scalar.andi v7 c1_i32_4
  let c256_i32_526 : BitVec 32 := 256#32
  let v681 : BitVec 32 := Scalar.muli v8 c256_i32_526
  let v682 : BitVec 32 := Scalar.addi v358 v681
  let c256_i32_908 : BitVec 32 := 256#32
  let v1221 : BitVec 32 := Scalar.muli v8 c256_i32_908
  let v1222 : BitVec 32 := Scalar.subi v682 v1221
  let c1_i32_909 : BitVec 32 := 1#32
  let v1223 : BitVec 32 := Scalar.subi c1_i32_909 v8
  let c256_i32_910 : BitVec 32 := 256#32
  let v1224 : BitVec 32 := Scalar.muli v1223 c256_i32_910
  let v1225 : BitVec 32 := Scalar.addi v1222 v1224
  let v1362 : Index := Scalar.indexCast v1225
  let c0_1036 : Index := 0#32
  ![v1362.toNat, 0]
def k0_off88 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v9 : BitVec 32 := Scalar.shrsi v2 c2_i32
  let c1024_i32_69 : BitVec 32 := 1024#32
  let v91 : BitVec 32 := Scalar.muli v9 c1024_i32_69
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v3 v5
  let c512_i32_264 : BitVec 32 := 512#32
  let v357 : BitVec 32 := Scalar.muli v6 c512_i32_264
  let v358 : BitVec 32 := Scalar.addi v91 v357
  let c1_i32_3 : BitVec 32 := 1#32
  let v7 : BitVec 32 := Scalar.shrsi v2 c1_i32_3
  let c1_i32_4 : BitVec 32 := 1#32
  let v8 : BitVec 32 := Scalar.andi v7 c1_i32_4
  let c256_i32_526 : BitVec 32 := 256#32
  let v681 : BitVec 32 := Scalar.muli v8 c256_i32_526
  let v682 : BitVec 32 := Scalar.addi v358 v681
  let c256_i32_908 : BitVec 32 := 256#32
  let v1221 : BitVec 32 := Scalar.muli v8 c256_i32_908
  let v1222 : BitVec 32 := Scalar.subi v682 v1221
  let c1_i32_909 : BitVec 32 := 1#32
  let v1223 : BitVec 32 := Scalar.subi c1_i32_909 v8
  let c256_i32_910 : BitVec 32 := 256#32
  let v1224 : BitVec 32 := Scalar.muli v1223 c256_i32_910
  let v1225 : BitVec 32 := Scalar.addi v1222 v1224
  let v1365 : Index := Scalar.indexCast v1225
  let c768_1037 : Index := 768#32
  ![v1365.toNat, 768]
def k0_off89 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v9 : BitVec 32 := Scalar.shrsi v2 c2_i32
  let c1024_i32_69 : BitVec 32 := 1024#32
  let v91 : BitVec 32 := Scalar.muli v9 c1024_i32_69
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v3 v5
  let c512_i32_264 : BitVec 32 := 512#32
  let v357 : BitVec 32 := Scalar.muli v6 c512_i32_264
  let v358 : BitVec 32 := Scalar.addi v91 v357
  let c1_i32_3 : BitVec 32 := 1#32
  let v7 : BitVec 32 := Scalar.shrsi v2 c1_i32_3
  let c1_i32_4 : BitVec 32 := 1#32
  let v8 : BitVec 32 := Scalar.andi v7 c1_i32_4
  let c256_i32_526 : BitVec 32 := 256#32
  let v681 : BitVec 32 := Scalar.muli v8 c256_i32_526
  let v682 : BitVec 32 := Scalar.addi v358 v681
  let c256_i32_908 : BitVec 32 := 256#32
  let v1221 : BitVec 32 := Scalar.muli v8 c256_i32_908
  let v1222 : BitVec 32 := Scalar.subi v682 v1221
  let c1_i32_909 : BitVec 32 := 1#32
  let v1223 : BitVec 32 := Scalar.subi c1_i32_909 v8
  let c256_i32_910 : BitVec 32 := 256#32
  let v1224 : BitVec 32 := Scalar.muli v1223 c256_i32_910
  let v1225 : BitVec 32 := Scalar.addi v1222 v1224
  let c768_i32_1039 : BitVec 32 := 768#32
  ![v1225.toNat, 768]
def k0_dev31 (d0 : Dev nD) : Nat :=
  let c0_i32_1062 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1056 : BitVec 32 := 3#32
  let v1383 : BitVec 32 := Scalar.xori v2 c3_i32_1056
  let c1_i32_1061 : BitVec 32 := 1#32
  let v1384 : BitVec 32 := Scalar.muli v1383 c1_i32_1061
  let v1385 : BitVec 32 := Scalar.addi c0_i32_1062 v1384
  v1385.toNat
def k0_off90 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v3 v5
  let c1024_i32_88 : BitVec 32 := 1024#32
  let v115 : BitVec 32 := Scalar.muli v6 c1024_i32_88
  let c1_i32_3 : BitVec 32 := 1#32
  let v7 : BitVec 32 := Scalar.shrsi v2 c1_i32_3
  let c1_i32_4 : BitVec 32 := 1#32
  let v8 : BitVec 32 := Scalar.andi v7 c1_i32_4
  let c512_i32_308 : BitVec 32 := 512#32
  let v411 : BitVec 32 := Scalar.muli v8 c512_i32_308
  let v412 : BitVec 32 := Scalar.addi v115 v411
  let c2_i32 : BitVec 32 := 2#32
  let v9 : BitVec 32 := Scalar.shrsi v2 c2_i32
  let c256_i32_570 : BitVec 32 := 256#32
  let v735 : BitVec 32 := Scalar.muli v9 c256_i32_570
  let v736 : BitVec 32 := Scalar.addi v412 v735
  let c256_i32_920 : BitVec 32 := 256#32
  let v1235 : BitVec 32 := Scalar.muli v9 c256_i32_920
  let v1236 : BitVec 32 := Scalar.subi v736 v1235
  let c1_i32_921 : BitVec 32 := 1#32
  let v1237 : BitVec 32 := Scalar.subi c1_i32_921 v9
  let c256_i32_922 : BitVec 32 := 256#32
  let v1238 : BitVec 32 := Scalar.muli v1237 c256_i32_922
  let v1239 : BitVec 32 := Scalar.addi v1236 v1238
  let v1400 : Index := Scalar.indexCast v1239
  let c1152_1069 : Index := 1152#32
  ![v1400.toNat, 1152]
def k0_off91 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v3 v5
  let c1024_i32_88 : BitVec 32 := 1024#32
  let v115 : BitVec 32 := Scalar.muli v6 c1024_i32_88
  let c1_i32_3 : BitVec 32 := 1#32
  let v7 : BitVec 32 := Scalar.shrsi v2 c1_i32_3
  let c1_i32_4 : BitVec 32 := 1#32
  let v8 : BitVec 32 := Scalar.andi v7 c1_i32_4
  let c512_i32_308 : BitVec 32 := 512#32
  let v411 : BitVec 32 := Scalar.muli v8 c512_i32_308
  let v412 : BitVec 32 := Scalar.addi v115 v411
  let c2_i32 : BitVec 32 := 2#32
  let v9 : BitVec 32 := Scalar.shrsi v2 c2_i32
  let c256_i32_570 : BitVec 32 := 256#32
  let v735 : BitVec 32 := Scalar.muli v9 c256_i32_570
  let v736 : BitVec 32 := Scalar.addi v412 v735
  let c256_i32_920 : BitVec 32 := 256#32
  let v1235 : BitVec 32 := Scalar.muli v9 c256_i32_920
  let v1236 : BitVec 32 := Scalar.subi v736 v1235
  let c1_i32_921 : BitVec 32 := 1#32
  let v1237 : BitVec 32 := Scalar.subi c1_i32_921 v9
  let c256_i32_922 : BitVec 32 := 256#32
  let v1238 : BitVec 32 := Scalar.muli v1237 c256_i32_922
  let v1239 : BitVec 32 := Scalar.addi v1236 v1238
  let c1152_i32_1070 : BitVec 32 := 1152#32
  ![v1239.toNat, 1152]
def k0_off92 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v7 : BitVec 32 := Scalar.shrsi v2 c1_i32_3
  let c1_i32_4 : BitVec 32 := 1#32
  let v8 : BitVec 32 := Scalar.andi v7 c1_i32_4
  let c1024_i32_107 : BitVec 32 := 1024#32
  let v139 : BitVec 32 := Scalar.muli v8 c1024_i32_107
  let c2_i32 : BitVec 32 := 2#32
  let v9 : BitVec 32 := Scalar.shrsi v2 c2_i32
  let c512_i32_352 : BitVec 32 := 512#32
  let v465 : BitVec 32 := Scalar.muli v9 c512_i32_352
  let v466 : BitVec 32 := Scalar.addi v139 v465
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v3 v5
  let c256_i32_614 : BitVec 32 := 256#32
  let v789 : BitVec 32 := Scalar.muli v6 c256_i32_614
  let v790 : BitVec 32 := Scalar.addi v466 v789
  let c256_i32_932 : BitVec 32 := 256#32
  let v1249 : BitVec 32 := Scalar.muli v6 c256_i32_932
  let v1250 : BitVec 32 := Scalar.subi v790 v1249
  let c0_i32_1094 : BitVec 32 := 0#32
  ![v1250.toNat, 0]
def k0_dev32 (d0 : Dev nD) : Nat :=
  let c0_i32_1093 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1087 : BitVec 32 := 4#32
  let v1418 : BitVec 32 := Scalar.xori v2 c4_i32_1087
  let c1_i32_1092 : BitVec 32 := 1#32
  let v1419 : BitVec 32 := Scalar.muli v1418 c1_i32_1092
  let v1420 : BitVec 32 := Scalar.addi c0_i32_1093 v1419
  v1420.toNat
def k0_off93 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v7 : BitVec 32 := Scalar.shrsi v2 c1_i32_3
  let c1_i32_4 : BitVec 32 := 1#32
  let v8 : BitVec 32 := Scalar.andi v7 c1_i32_4
  let c1024_i32_107 : BitVec 32 := 1024#32
  let v139 : BitVec 32 := Scalar.muli v8 c1024_i32_107
  let c2_i32 : BitVec 32 := 2#32
  let v9 : BitVec 32 := Scalar.shrsi v2 c2_i32
  let c512_i32_352 : BitVec 32 := 512#32
  let v465 : BitVec 32 := Scalar.muli v9 c512_i32_352
  let v466 : BitVec 32 := Scalar.addi v139 v465
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v3 v5
  let c256_i32_614 : BitVec 32 := 256#32
  let v789 : BitVec 32 := Scalar.muli v6 c256_i32_614
  let v790 : BitVec 32 := Scalar.addi v466 v789
  let c256_i32_932 : BitVec 32 := 256#32
  let v1249 : BitVec 32 := Scalar.muli v6 c256_i32_932
  let v1250 : BitVec 32 := Scalar.subi v790 v1249
  let c1_i32_933 : BitVec 32 := 1#32
  let v1251 : BitVec 32 := Scalar.subi c1_i32_933 v6
  let c256_i32_934 : BitVec 32 := 256#32
  let v1252 : BitVec 32 := Scalar.muli v1251 c256_i32_934
  let v1253 : BitVec 32 := Scalar.addi v1250 v1252
  let v1432 : Index := Scalar.indexCast v1253
  let c0_1099 : Index := 0#32
  ![v1432.toNat, 0]
def k0_off94 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v7 : BitVec 32 := Scalar.shrsi v2 c1_i32_3
  let c1_i32_4 : BitVec 32 := 1#32
  let v8 : BitVec 32 := Scalar.andi v7 c1_i32_4
  let c1024_i32_107 : BitVec 32 := 1024#32
  let v139 : BitVec 32 := Scalar.muli v8 c1024_i32_107
  let c2_i32 : BitVec 32 := 2#32
  let v9 : BitVec 32 := Scalar.shrsi v2 c2_i32
  let c512_i32_352 : BitVec 32 := 512#32
  let v465 : BitVec 32 := Scalar.muli v9 c512_i32_352
  let v466 : BitVec 32 := Scalar.addi v139 v465
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v3 v5
  let c256_i32_614 : BitVec 32 := 256#32
  let v789 : BitVec 32 := Scalar.muli v6 c256_i32_614
  let v790 : BitVec 32 := Scalar.addi v466 v789
  let c256_i32_932 : BitVec 32 := 256#32
  let v1249 : BitVec 32 := Scalar.muli v6 c256_i32_932
  let v1250 : BitVec 32 := Scalar.subi v790 v1249
  let c1_i32_933 : BitVec 32 := 1#32
  let v1251 : BitVec 32 := Scalar.subi c1_i32_933 v6
  let c256_i32_934 : BitVec 32 := 256#32
  let v1252 : BitVec 32 := Scalar.muli v1251 c256_i32_934
  let v1253 : BitVec 32 := Scalar.addi v1250 v1252
  let v1435 : Index := Scalar.indexCast v1253
  let c1536_1100 : Index := 1536#32
  ![v1435.toNat, 1536]
def k0_off95 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v7 : BitVec 32 := Scalar.shrsi v2 c1_i32_3
  let c1_i32_4 : BitVec 32 := 1#32
  let v8 : BitVec 32 := Scalar.andi v7 c1_i32_4
  let c1024_i32_107 : BitVec 32 := 1024#32
  let v139 : BitVec 32 := Scalar.muli v8 c1024_i32_107
  let c2_i32 : BitVec 32 := 2#32
  let v9 : BitVec 32 := Scalar.shrsi v2 c2_i32
  let c512_i32_352 : BitVec 32 := 512#32
  let v465 : BitVec 32 := Scalar.muli v9 c512_i32_352
  let v466 : BitVec 32 := Scalar.addi v139 v465
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v3 v5
  let c256_i32_614 : BitVec 32 := 256#32
  let v789 : BitVec 32 := Scalar.muli v6 c256_i32_614
  let v790 : BitVec 32 := Scalar.addi v466 v789
  let c256_i32_932 : BitVec 32 := 256#32
  let v1249 : BitVec 32 := Scalar.muli v6 c256_i32_932
  let v1250 : BitVec 32 := Scalar.subi v790 v1249
  let c1_i32_933 : BitVec 32 := 1#32
  let v1251 : BitVec 32 := Scalar.subi c1_i32_933 v6
  let c256_i32_934 : BitVec 32 := 256#32
  let v1252 : BitVec 32 := Scalar.muli v1251 c256_i32_934
  let v1253 : BitVec 32 := Scalar.addi v1250 v1252
  let c1536_i32_1101 : BitVec 32 := 1536#32
  ![v1253.toNat, 1536]
def k0_off96 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v9 : BitVec 32 := Scalar.shrsi v2 c2_i32
  let c1024_i32_125 : BitVec 32 := 1024#32
  let v163 : BitVec 32 := Scalar.muli v9 c1024_i32_125
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v3 v5
  let c512_i32_396 : BitVec 32 := 512#32
  let v519 : BitVec 32 := Scalar.muli v6 c512_i32_396
  let v520 : BitVec 32 := Scalar.addi v163 v519
  let c1_i32_3 : BitVec 32 := 1#32
  let v7 : BitVec 32 := Scalar.shrsi v2 c1_i32_3
  let c1_i32_4 : BitVec 32 := 1#32
  let v8 : BitVec 32 := Scalar.andi v7 c1_i32_4
  let c256_i32_658 : BitVec 32 := 256#32
  let v843 : BitVec 32 := Scalar.muli v8 c256_i32_658
  let v844 : BitVec 32 := Scalar.addi v520 v843
  let c256_i32_944 : BitVec 32 := 256#32
  let v1263 : BitVec 32 := Scalar.muli v8 c256_i32_944
  let v1264 : BitVec 32 := Scalar.subi v844 v1263
  let c0_i32_1125 : BitVec 32 := 0#32
  ![v1264.toNat, 0]
def k0_dev33 (d0 : Dev nD) : Nat :=
  let c0_i32_1124 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1118 : BitVec 32 := 1#32
  let v1453 : BitVec 32 := Scalar.xori v2 c1_i32_1118
  let c1_i32_1123 : BitVec 32 := 1#32
  let v1454 : BitVec 32 := Scalar.muli v1453 c1_i32_1123
  let v1455 : BitVec 32 := Scalar.addi c0_i32_1124 v1454
  v1455.toNat
def k0_off97 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v9 : BitVec 32 := Scalar.shrsi v2 c2_i32
  let c1024_i32_125 : BitVec 32 := 1024#32
  let v163 : BitVec 32 := Scalar.muli v9 c1024_i32_125
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v3 v5
  let c512_i32_396 : BitVec 32 := 512#32
  let v519 : BitVec 32 := Scalar.muli v6 c512_i32_396
  let v520 : BitVec 32 := Scalar.addi v163 v519
  let c1_i32_3 : BitVec 32 := 1#32
  let v7 : BitVec 32 := Scalar.shrsi v2 c1_i32_3
  let c1_i32_4 : BitVec 32 := 1#32
  let v8 : BitVec 32 := Scalar.andi v7 c1_i32_4
  let c256_i32_658 : BitVec 32 := 256#32
  let v843 : BitVec 32 := Scalar.muli v8 c256_i32_658
  let v844 : BitVec 32 := Scalar.addi v520 v843
  let c256_i32_944 : BitVec 32 := 256#32
  let v1263 : BitVec 32 := Scalar.muli v8 c256_i32_944
  let v1264 : BitVec 32 := Scalar.subi v844 v1263
  let c1_i32_945 : BitVec 32 := 1#32
  let v1265 : BitVec 32 := Scalar.subi c1_i32_945 v8
  let c256_i32_946 : BitVec 32 := 256#32
  let v1266 : BitVec 32 := Scalar.muli v1265 c256_i32_946
  let v1267 : BitVec 32 := Scalar.addi v1264 v1266
  let v1467 : Index := Scalar.indexCast v1267
  let c0_1130 : Index := 0#32
  ![v1467.toNat, 0]
def k0_off98 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v9 : BitVec 32 := Scalar.shrsi v2 c2_i32
  let c1024_i32_125 : BitVec 32 := 1024#32
  let v163 : BitVec 32 := Scalar.muli v9 c1024_i32_125
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v3 v5
  let c512_i32_396 : BitVec 32 := 512#32
  let v519 : BitVec 32 := Scalar.muli v6 c512_i32_396
  let v520 : BitVec 32 := Scalar.addi v163 v519
  let c1_i32_3 : BitVec 32 := 1#32
  let v7 : BitVec 32 := Scalar.shrsi v2 c1_i32_3
  let c1_i32_4 : BitVec 32 := 1#32
  let v8 : BitVec 32 := Scalar.andi v7 c1_i32_4
  let c256_i32_658 : BitVec 32 := 256#32
  let v843 : BitVec 32 := Scalar.muli v8 c256_i32_658
  let v844 : BitVec 32 := Scalar.addi v520 v843
  let c256_i32_944 : BitVec 32 := 256#32
  let v1263 : BitVec 32 := Scalar.muli v8 c256_i32_944
  let v1264 : BitVec 32 := Scalar.subi v844 v1263
  let c1_i32_945 : BitVec 32 := 1#32
  let v1265 : BitVec 32 := Scalar.subi c1_i32_945 v8
  let c256_i32_946 : BitVec 32 := 256#32
  let v1266 : BitVec 32 := Scalar.muli v1265 c256_i32_946
  let v1267 : BitVec 32 := Scalar.addi v1264 v1266
  let v1470 : Index := Scalar.indexCast v1267
  let c1792_1131 : Index := 1792#32
  ![v1470.toNat, 1792]
def k0_off99 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v9 : BitVec 32 := Scalar.shrsi v2 c2_i32
  let c1024_i32_125 : BitVec 32 := 1024#32
  let v163 : BitVec 32 := Scalar.muli v9 c1024_i32_125
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v3 v5
  let c512_i32_396 : BitVec 32 := 512#32
  let v519 : BitVec 32 := Scalar.muli v6 c512_i32_396
  let v520 : BitVec 32 := Scalar.addi v163 v519
  let c1_i32_3 : BitVec 32 := 1#32
  let v7 : BitVec 32 := Scalar.shrsi v2 c1_i32_3
  let c1_i32_4 : BitVec 32 := 1#32
  let v8 : BitVec 32 := Scalar.andi v7 c1_i32_4
  let c256_i32_658 : BitVec 32 := 256#32
  let v843 : BitVec 32 := Scalar.muli v8 c256_i32_658
  let v844 : BitVec 32 := Scalar.addi v520 v843
  let c256_i32_944 : BitVec 32 := 256#32
  let v1263 : BitVec 32 := Scalar.muli v8 c256_i32_944
  let v1264 : BitVec 32 := Scalar.subi v844 v1263
  let c1_i32_945 : BitVec 32 := 1#32
  let v1265 : BitVec 32 := Scalar.subi c1_i32_945 v8
  let c256_i32_946 : BitVec 32 := 256#32
  let v1266 : BitVec 32 := Scalar.muli v1265 c256_i32_946
  let v1267 : BitVec 32 := Scalar.addi v1264 v1266
  let c1792_i32_1132 : BitVec 32 := 1792#32
  ![v1267.toNat, 1792]
def k0_off100 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v3 v5
  let c1024_i32_31 : BitVec 32 := 1024#32
  let v43 : BitVec 32 := Scalar.muli v6 c1024_i32_31
  let c1_i32_3 : BitVec 32 := 1#32
  let v7 : BitVec 32 := Scalar.shrsi v2 c1_i32_3
  let c1_i32_4 : BitVec 32 := 1#32
  let v8 : BitVec 32 := Scalar.andi v7 c1_i32_4
  let c512_i32_176 : BitVec 32 := 512#32
  let v249 : BitVec 32 := Scalar.muli v8 c512_i32_176
  let v250 : BitVec 32 := Scalar.addi v43 v249
  let c2_i32 : BitVec 32 := 2#32
  let v9 : BitVec 32 := Scalar.shrsi v2 c2_i32
  let c256_i32_439 : BitVec 32 := 256#32
  let v573 : BitVec 32 := Scalar.muli v9 c256_i32_439
  let v574 : BitVec 32 := Scalar.addi v250 v573
  let c256_i32_884 : BitVec 32 := 256#32
  let v1193 : BitVec 32 := Scalar.muli v9 c256_i32_884
  let v1194 : BitVec 32 := Scalar.subi v574 v1193
  let c512_i32_971 : BitVec 32 := 512#32
  let v1287 : BitVec 32 := Scalar.muli v8 c512_i32_971
  let v1288 : BitVec 32 := Scalar.subi v1194 v1287
  let c0_i32_1156 : BitVec 32 := 0#32
  ![v1288.toNat, 0]
def k0_dev34 (d0 : Dev nD) : Nat :=
  let c0_i32_1155 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1149 : BitVec 32 := 1#32
  let v1488 : BitVec 32 := Scalar.xori v2 c1_i32_1149
  let c1_i32_1154 : BitVec 32 := 1#32
  let v1489 : BitVec 32 := Scalar.muli v1488 c1_i32_1154
  let v1490 : BitVec 32 := Scalar.addi c0_i32_1155 v1489
  v1490.toNat
def k0_off101 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v3 v5
  let c1024_i32_31 : BitVec 32 := 1024#32
  let v43 : BitVec 32 := Scalar.muli v6 c1024_i32_31
  let c1_i32_3 : BitVec 32 := 1#32
  let v7 : BitVec 32 := Scalar.shrsi v2 c1_i32_3
  let c1_i32_4 : BitVec 32 := 1#32
  let v8 : BitVec 32 := Scalar.andi v7 c1_i32_4
  let c512_i32_176 : BitVec 32 := 512#32
  let v249 : BitVec 32 := Scalar.muli v8 c512_i32_176
  let v250 : BitVec 32 := Scalar.addi v43 v249
  let c2_i32 : BitVec 32 := 2#32
  let v9 : BitVec 32 := Scalar.shrsi v2 c2_i32
  let c256_i32_439 : BitVec 32 := 256#32
  let v573 : BitVec 32 := Scalar.muli v9 c256_i32_439
  let v574 : BitVec 32 := Scalar.addi v250 v573
  let c256_i32_884 : BitVec 32 := 256#32
  let v1193 : BitVec 32 := Scalar.muli v9 c256_i32_884
  let v1194 : BitVec 32 := Scalar.subi v574 v1193
  let c512_i32_971 : BitVec 32 := 512#32
  let v1287 : BitVec 32 := Scalar.muli v8 c512_i32_971
  let v1288 : BitVec 32 := Scalar.subi v1194 v1287
  let c1_i32_972 : BitVec 32 := 1#32
  let v1289 : BitVec 32 := Scalar.subi c1_i32_972 v8
  let c512_i32_973 : BitVec 32 := 512#32
  let v1290 : BitVec 32 := Scalar.muli v1289 c512_i32_973
  let v1291 : BitVec 32 := Scalar.addi v1288 v1290
  let v1502 : Index := Scalar.indexCast v1291
  let c0_1161 : Index := 0#32
  ![v1502.toNat, 0]
def k0_off102 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v3 v5
  let c1024_i32_31 : BitVec 32 := 1024#32
  let v43 : BitVec 32 := Scalar.muli v6 c1024_i32_31
  let c1_i32_3 : BitVec 32 := 1#32
  let v7 : BitVec 32 := Scalar.shrsi v2 c1_i32_3
  let c1_i32_4 : BitVec 32 := 1#32
  let v8 : BitVec 32 := Scalar.andi v7 c1_i32_4
  let c512_i32_176 : BitVec 32 := 512#32
  let v249 : BitVec 32 := Scalar.muli v8 c512_i32_176
  let v250 : BitVec 32 := Scalar.addi v43 v249
  let c2_i32 : BitVec 32 := 2#32
  let v9 : BitVec 32 := Scalar.shrsi v2 c2_i32
  let c256_i32_439 : BitVec 32 := 256#32
  let v573 : BitVec 32 := Scalar.muli v9 c256_i32_439
  let v574 : BitVec 32 := Scalar.addi v250 v573
  let c256_i32_884 : BitVec 32 := 256#32
  let v1193 : BitVec 32 := Scalar.muli v9 c256_i32_884
  let v1194 : BitVec 32 := Scalar.subi v574 v1193
  let c512_i32_971 : BitVec 32 := 512#32
  let v1287 : BitVec 32 := Scalar.muli v8 c512_i32_971
  let v1288 : BitVec 32 := Scalar.subi v1194 v1287
  let c1_i32_972 : BitVec 32 := 1#32
  let v1289 : BitVec 32 := Scalar.subi c1_i32_972 v8
  let c512_i32_973 : BitVec 32 := 512#32
  let v1290 : BitVec 32 := Scalar.muli v1289 c512_i32_973
  let v1291 : BitVec 32 := Scalar.addi v1288 v1290
  let v1505 : Index := Scalar.indexCast v1291
  let c0_1162 : Index := 0#32
  ![v1505.toNat, 0]
def k0_off103 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v3 v5
  let c1024_i32_31 : BitVec 32 := 1024#32
  let v43 : BitVec 32 := Scalar.muli v6 c1024_i32_31
  let c1_i32_3 : BitVec 32 := 1#32
  let v7 : BitVec 32 := Scalar.shrsi v2 c1_i32_3
  let c1_i32_4 : BitVec 32 := 1#32
  let v8 : BitVec 32 := Scalar.andi v7 c1_i32_4
  let c512_i32_176 : BitVec 32 := 512#32
  let v249 : BitVec 32 := Scalar.muli v8 c512_i32_176
  let v250 : BitVec 32 := Scalar.addi v43 v249
  let c2_i32 : BitVec 32 := 2#32
  let v9 : BitVec 32 := Scalar.shrsi v2 c2_i32
  let c256_i32_439 : BitVec 32 := 256#32
  let v573 : BitVec 32 := Scalar.muli v9 c256_i32_439
  let v574 : BitVec 32 := Scalar.addi v250 v573
  let c256_i32_884 : BitVec 32 := 256#32
  let v1193 : BitVec 32 := Scalar.muli v9 c256_i32_884
  let v1194 : BitVec 32 := Scalar.subi v574 v1193
  let c512_i32_971 : BitVec 32 := 512#32
  let v1287 : BitVec 32 := Scalar.muli v8 c512_i32_971
  let v1288 : BitVec 32 := Scalar.subi v1194 v1287
  let c1_i32_972 : BitVec 32 := 1#32
  let v1289 : BitVec 32 := Scalar.subi c1_i32_972 v8
  let c512_i32_973 : BitVec 32 := 512#32
  let v1290 : BitVec 32 := Scalar.muli v1289 c512_i32_973
  let v1291 : BitVec 32 := Scalar.addi v1288 v1290
  let c0_i32_1163 : BitVec 32 := 0#32
  ![v1291.toNat, 0]
def k0_off104 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v7 : BitVec 32 := Scalar.shrsi v2 c1_i32_3
  let c1_i32_4 : BitVec 32 := 1#32
  let v8 : BitVec 32 := Scalar.andi v7 c1_i32_4
  let c1024_i32_50 : BitVec 32 := 1024#32
  let v67 : BitVec 32 := Scalar.muli v8 c1024_i32_50
  let c2_i32 : BitVec 32 := 2#32
  let v9 : BitVec 32 := Scalar.shrsi v2 c2_i32
  let c512_i32_220 : BitVec 32 := 512#32
  let v303 : BitVec 32 := Scalar.muli v9 c512_i32_220
  let v304 : BitVec 32 := Scalar.addi v67 v303
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v3 v5
  let c256_i32_482 : BitVec 32 := 256#32
  let v627 : BitVec 32 := Scalar.muli v6 c256_i32_482
  let v628 : BitVec 32 := Scalar.addi v304 v627
  let c256_i32_896 : BitVec 32 := 256#32
  let v1207 : BitVec 32 := Scalar.muli v6 c256_i32_896
  let v1208 : BitVec 32 := Scalar.subi v628 v1207
  let c512_i32_1002 : BitVec 32 := 512#32
  let v1322 : BitVec 32 := Scalar.muli v9 c512_i32_1002
  let v1323 : BitVec 32 := Scalar.subi v1208 v1322
  let c0_i32_1187 : BitVec 32 := 0#32
  ![v1323.toNat, 0]
def k0_dev35 (d0 : Dev nD) : Nat :=
  let c0_i32_1186 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1180 : BitVec 32 := 3#32
  let v1523 : BitVec 32 := Scalar.xori v2 c3_i32_1180
  let c1_i32_1185 : BitVec 32 := 1#32
  let v1524 : BitVec 32 := Scalar.muli v1523 c1_i32_1185
  let v1525 : BitVec 32 := Scalar.addi c0_i32_1186 v1524
  v1525.toNat
def k0_off105 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v7 : BitVec 32 := Scalar.shrsi v2 c1_i32_3
  let c1_i32_4 : BitVec 32 := 1#32
  let v8 : BitVec 32 := Scalar.andi v7 c1_i32_4
  let c1024_i32_50 : BitVec 32 := 1024#32
  let v67 : BitVec 32 := Scalar.muli v8 c1024_i32_50
  let c2_i32 : BitVec 32 := 2#32
  let v9 : BitVec 32 := Scalar.shrsi v2 c2_i32
  let c512_i32_220 : BitVec 32 := 512#32
  let v303 : BitVec 32 := Scalar.muli v9 c512_i32_220
  let v304 : BitVec 32 := Scalar.addi v67 v303
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v3 v5
  let c256_i32_482 : BitVec 32 := 256#32
  let v627 : BitVec 32 := Scalar.muli v6 c256_i32_482
  let v628 : BitVec 32 := Scalar.addi v304 v627
  let c256_i32_896 : BitVec 32 := 256#32
  let v1207 : BitVec 32 := Scalar.muli v6 c256_i32_896
  let v1208 : BitVec 32 := Scalar.subi v628 v1207
  let c512_i32_1002 : BitVec 32 := 512#32
  let v1322 : BitVec 32 := Scalar.muli v9 c512_i32_1002
  let v1323 : BitVec 32 := Scalar.subi v1208 v1322
  let c1_i32_1003 : BitVec 32 := 1#32
  let v1324 : BitVec 32 := Scalar.subi c1_i32_1003 v9
  let c512_i32_1004 : BitVec 32 := 512#32
  let v1325 : BitVec 32 := Scalar.muli v1324 c512_i32_1004
  let v1326 : BitVec 32 := Scalar.addi v1323 v1325
  let v1537 : Index := Scalar.indexCast v1326
  let c0_1192 : Index := 0#32
  ![v1537.toNat, 0]
def k0_off106 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v7 : BitVec 32 := Scalar.shrsi v2 c1_i32_3
  let c1_i32_4 : BitVec 32 := 1#32
  let v8 : BitVec 32 := Scalar.andi v7 c1_i32_4
  let c1024_i32_50 : BitVec 32 := 1024#32
  let v67 : BitVec 32 := Scalar.muli v8 c1024_i32_50
  let c2_i32 : BitVec 32 := 2#32
  let v9 : BitVec 32 := Scalar.shrsi v2 c2_i32
  let c512_i32_220 : BitVec 32 := 512#32
  let v303 : BitVec 32 := Scalar.muli v9 c512_i32_220
  let v304 : BitVec 32 := Scalar.addi v67 v303
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v3 v5
  let c256_i32_482 : BitVec 32 := 256#32
  let v627 : BitVec 32 := Scalar.muli v6 c256_i32_482
  let v628 : BitVec 32 := Scalar.addi v304 v627
  let c256_i32_896 : BitVec 32 := 256#32
  let v1207 : BitVec 32 := Scalar.muli v6 c256_i32_896
  let v1208 : BitVec 32 := Scalar.subi v628 v1207
  let c512_i32_1002 : BitVec 32 := 512#32
  let v1322 : BitVec 32 := Scalar.muli v9 c512_i32_1002
  let v1323 : BitVec 32 := Scalar.subi v1208 v1322
  let c1_i32_1003 : BitVec 32 := 1#32
  let v1324 : BitVec 32 := Scalar.subi c1_i32_1003 v9
  let c512_i32_1004 : BitVec 32 := 512#32
  let v1325 : BitVec 32 := Scalar.muli v1324 c512_i32_1004
  let v1326 : BitVec 32 := Scalar.addi v1323 v1325
  let v1540 : Index := Scalar.indexCast v1326
  let c384_1193 : Index := 384#32
  ![v1540.toNat, 384]
def k0_off107 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v7 : BitVec 32 := Scalar.shrsi v2 c1_i32_3
  let c1_i32_4 : BitVec 32 := 1#32
  let v8 : BitVec 32 := Scalar.andi v7 c1_i32_4
  let c1024_i32_50 : BitVec 32 := 1024#32
  let v67 : BitVec 32 := Scalar.muli v8 c1024_i32_50
  let c2_i32 : BitVec 32 := 2#32
  let v9 : BitVec 32 := Scalar.shrsi v2 c2_i32
  let c512_i32_220 : BitVec 32 := 512#32
  let v303 : BitVec 32 := Scalar.muli v9 c512_i32_220
  let v304 : BitVec 32 := Scalar.addi v67 v303
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v3 v5
  let c256_i32_482 : BitVec 32 := 256#32
  let v627 : BitVec 32 := Scalar.muli v6 c256_i32_482
  let v628 : BitVec 32 := Scalar.addi v304 v627
  let c256_i32_896 : BitVec 32 := 256#32
  let v1207 : BitVec 32 := Scalar.muli v6 c256_i32_896
  let v1208 : BitVec 32 := Scalar.subi v628 v1207
  let c512_i32_1002 : BitVec 32 := 512#32
  let v1322 : BitVec 32 := Scalar.muli v9 c512_i32_1002
  let v1323 : BitVec 32 := Scalar.subi v1208 v1322
  let c1_i32_1003 : BitVec 32 := 1#32
  let v1324 : BitVec 32 := Scalar.subi c1_i32_1003 v9
  let c512_i32_1004 : BitVec 32 := 512#32
  let v1325 : BitVec 32 := Scalar.muli v1324 c512_i32_1004
  let v1326 : BitVec 32 := Scalar.addi v1323 v1325
  let c384_i32_1194 : BitVec 32 := 384#32
  ![v1326.toNat, 384]
def k0_off108 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v9 : BitVec 32 := Scalar.shrsi v2 c2_i32
  let c1024_i32_69 : BitVec 32 := 1024#32
  let v91 : BitVec 32 := Scalar.muli v9 c1024_i32_69
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v3 v5
  let c512_i32_264 : BitVec 32 := 512#32
  let v357 : BitVec 32 := Scalar.muli v6 c512_i32_264
  let v358 : BitVec 32 := Scalar.addi v91 v357
  let c1_i32_3 : BitVec 32 := 1#32
  let v7 : BitVec 32 := Scalar.shrsi v2 c1_i32_3
  let c1_i32_4 : BitVec 32 := 1#32
  let v8 : BitVec 32 := Scalar.andi v7 c1_i32_4
  let c256_i32_526 : BitVec 32 := 256#32
  let v681 : BitVec 32 := Scalar.muli v8 c256_i32_526
  let v682 : BitVec 32 := Scalar.addi v358 v681
  let c256_i32_908 : BitVec 32 := 256#32
  let v1221 : BitVec 32 := Scalar.muli v8 c256_i32_908
  let v1222 : BitVec 32 := Scalar.subi v682 v1221
  let c512_i32_1033 : BitVec 32 := 512#32
  let v1357 : BitVec 32 := Scalar.muli v6 c512_i32_1033
  let v1358 : BitVec 32 := Scalar.subi v1222 v1357
  let c0_i32_1218 : BitVec 32 := 0#32
  ![v1358.toNat, 0]
def k0_dev36 (d0 : Dev nD) : Nat :=
  let c0_i32_1217 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1211 : BitVec 32 := 4#32
  let v1558 : BitVec 32 := Scalar.xori v2 c4_i32_1211
  let c1_i32_1216 : BitVec 32 := 1#32
  let v1559 : BitVec 32 := Scalar.muli v1558 c1_i32_1216
  let v1560 : BitVec 32 := Scalar.addi c0_i32_1217 v1559
  v1560.toNat
def k0_off109 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v9 : BitVec 32 := Scalar.shrsi v2 c2_i32
  let c1024_i32_69 : BitVec 32 := 1024#32
  let v91 : BitVec 32 := Scalar.muli v9 c1024_i32_69
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v3 v5
  let c512_i32_264 : BitVec 32 := 512#32
  let v357 : BitVec 32 := Scalar.muli v6 c512_i32_264
  let v358 : BitVec 32 := Scalar.addi v91 v357
  let c1_i32_3 : BitVec 32 := 1#32
  let v7 : BitVec 32 := Scalar.shrsi v2 c1_i32_3
  let c1_i32_4 : BitVec 32 := 1#32
  let v8 : BitVec 32 := Scalar.andi v7 c1_i32_4
  let c256_i32_526 : BitVec 32 := 256#32
  let v681 : BitVec 32 := Scalar.muli v8 c256_i32_526
  let v682 : BitVec 32 := Scalar.addi v358 v681
  let c256_i32_908 : BitVec 32 := 256#32
  let v1221 : BitVec 32 := Scalar.muli v8 c256_i32_908
  let v1222 : BitVec 32 := Scalar.subi v682 v1221
  let c512_i32_1033 : BitVec 32 := 512#32
  let v1357 : BitVec 32 := Scalar.muli v6 c512_i32_1033
  let v1358 : BitVec 32 := Scalar.subi v1222 v1357
  let c1_i32_1034 : BitVec 32 := 1#32
  let v1359 : BitVec 32 := Scalar.subi c1_i32_1034 v6
  let c512_i32_1035 : BitVec 32 := 512#32
  let v1360 : BitVec 32 := Scalar.muli v1359 c512_i32_1035
  let v1361 : BitVec 32 := Scalar.addi v1358 v1360
  let v1572 : Index := Scalar.indexCast v1361
  let c0_1223 : Index := 0#32
  ![v1572.toNat, 0]
def k0_off110 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v9 : BitVec 32 := Scalar.shrsi v2 c2_i32
  let c1024_i32_69 : BitVec 32 := 1024#32
  let v91 : BitVec 32 := Scalar.muli v9 c1024_i32_69
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v3 v5
  let c512_i32_264 : BitVec 32 := 512#32
  let v357 : BitVec 32 := Scalar.muli v6 c512_i32_264
  let v358 : BitVec 32 := Scalar.addi v91 v357
  let c1_i32_3 : BitVec 32 := 1#32
  let v7 : BitVec 32 := Scalar.shrsi v2 c1_i32_3
  let c1_i32_4 : BitVec 32 := 1#32
  let v8 : BitVec 32 := Scalar.andi v7 c1_i32_4
  let c256_i32_526 : BitVec 32 := 256#32
  let v681 : BitVec 32 := Scalar.muli v8 c256_i32_526
  let v682 : BitVec 32 := Scalar.addi v358 v681
  let c256_i32_908 : BitVec 32 := 256#32
  let v1221 : BitVec 32 := Scalar.muli v8 c256_i32_908
  let v1222 : BitVec 32 := Scalar.subi v682 v1221
  let c512_i32_1033 : BitVec 32 := 512#32
  let v1357 : BitVec 32 := Scalar.muli v6 c512_i32_1033
  let v1358 : BitVec 32 := Scalar.subi v1222 v1357
  let c1_i32_1034 : BitVec 32 := 1#32
  let v1359 : BitVec 32 := Scalar.subi c1_i32_1034 v6
  let c512_i32_1035 : BitVec 32 := 512#32
  let v1360 : BitVec 32 := Scalar.muli v1359 c512_i32_1035
  let v1361 : BitVec 32 := Scalar.addi v1358 v1360
  let v1575 : Index := Scalar.indexCast v1361
  let c768_1224 : Index := 768#32
  ![v1575.toNat, 768]
def k0_off111 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v9 : BitVec 32 := Scalar.shrsi v2 c2_i32
  let c1024_i32_69 : BitVec 32 := 1024#32
  let v91 : BitVec 32 := Scalar.muli v9 c1024_i32_69
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v3 v5
  let c512_i32_264 : BitVec 32 := 512#32
  let v357 : BitVec 32 := Scalar.muli v6 c512_i32_264
  let v358 : BitVec 32 := Scalar.addi v91 v357
  let c1_i32_3 : BitVec 32 := 1#32
  let v7 : BitVec 32 := Scalar.shrsi v2 c1_i32_3
  let c1_i32_4 : BitVec 32 := 1#32
  let v8 : BitVec 32 := Scalar.andi v7 c1_i32_4
  let c256_i32_526 : BitVec 32 := 256#32
  let v681 : BitVec 32 := Scalar.muli v8 c256_i32_526
  let v682 : BitVec 32 := Scalar.addi v358 v681
  let c256_i32_908 : BitVec 32 := 256#32
  let v1221 : BitVec 32 := Scalar.muli v8 c256_i32_908
  let v1222 : BitVec 32 := Scalar.subi v682 v1221
  let c512_i32_1033 : BitVec 32 := 512#32
  let v1357 : BitVec 32 := Scalar.muli v6 c512_i32_1033
  let v1358 : BitVec 32 := Scalar.subi v1222 v1357
  let c1_i32_1034 : BitVec 32 := 1#32
  let v1359 : BitVec 32 := Scalar.subi c1_i32_1034 v6
  let c512_i32_1035 : BitVec 32 := 512#32
  let v1360 : BitVec 32 := Scalar.muli v1359 c512_i32_1035
  let v1361 : BitVec 32 := Scalar.addi v1358 v1360
  let c768_i32_1225 : BitVec 32 := 768#32
  ![v1361.toNat, 768]
def k0_dev37 (d0 : Dev nD) : Nat :=
  let c0_i32_1248 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1242 : BitVec 32 := 1#32
  let v1593 : BitVec 32 := Scalar.xori v2 c1_i32_1242
  let c1_i32_1247 : BitVec 32 := 1#32
  let v1594 : BitVec 32 := Scalar.muli v1593 c1_i32_1247
  let v1595 : BitVec 32 := Scalar.addi c0_i32_1248 v1594
  v1595.toNat
def k0_off112 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v3 v5
  let c1024_i32_88 : BitVec 32 := 1024#32
  let v115 : BitVec 32 := Scalar.muli v6 c1024_i32_88
  let c1_i32_3 : BitVec 32 := 1#32
  let v7 : BitVec 32 := Scalar.shrsi v2 c1_i32_3
  let c1_i32_4 : BitVec 32 := 1#32
  let v8 : BitVec 32 := Scalar.andi v7 c1_i32_4
  let c512_i32_308 : BitVec 32 := 512#32
  let v411 : BitVec 32 := Scalar.muli v8 c512_i32_308
  let v412 : BitVec 32 := Scalar.addi v115 v411
  let c2_i32 : BitVec 32 := 2#32
  let v9 : BitVec 32 := Scalar.shrsi v2 c2_i32
  let c256_i32_570 : BitVec 32 := 256#32
  let v735 : BitVec 32 := Scalar.muli v9 c256_i32_570
  let v736 : BitVec 32 := Scalar.addi v412 v735
  let c256_i32_920 : BitVec 32 := 256#32
  let v1235 : BitVec 32 := Scalar.muli v9 c256_i32_920
  let v1236 : BitVec 32 := Scalar.subi v736 v1235
  let c512_i32_1065 : BitVec 32 := 512#32
  let v1392 : BitVec 32 := Scalar.muli v8 c512_i32_1065
  let v1393 : BitVec 32 := Scalar.subi v1236 v1392
  let c1_i32_1066 : BitVec 32 := 1#32
  let v1394 : BitVec 32 := Scalar.subi c1_i32_1066 v8
  let c512_i32_1067 : BitVec 32 := 512#32
  let v1395 : BitVec 32 := Scalar.muli v1394 c512_i32_1067
  let v1396 : BitVec 32 := Scalar.addi v1393 v1395
  let v1610 : Index := Scalar.indexCast v1396
  let c1152_1255 : Index := 1152#32
  ![v1610.toNat, 1152]
def k0_off113 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v3 v5
  let c1024_i32_88 : BitVec 32 := 1024#32
  let v115 : BitVec 32 := Scalar.muli v6 c1024_i32_88
  let c1_i32_3 : BitVec 32 := 1#32
  let v7 : BitVec 32 := Scalar.shrsi v2 c1_i32_3
  let c1_i32_4 : BitVec 32 := 1#32
  let v8 : BitVec 32 := Scalar.andi v7 c1_i32_4
  let c512_i32_308 : BitVec 32 := 512#32
  let v411 : BitVec 32 := Scalar.muli v8 c512_i32_308
  let v412 : BitVec 32 := Scalar.addi v115 v411
  let c2_i32 : BitVec 32 := 2#32
  let v9 : BitVec 32 := Scalar.shrsi v2 c2_i32
  let c256_i32_570 : BitVec 32 := 256#32
  let v735 : BitVec 32 := Scalar.muli v9 c256_i32_570
  let v736 : BitVec 32 := Scalar.addi v412 v735
  let c256_i32_920 : BitVec 32 := 256#32
  let v1235 : BitVec 32 := Scalar.muli v9 c256_i32_920
  let v1236 : BitVec 32 := Scalar.subi v736 v1235
  let c512_i32_1065 : BitVec 32 := 512#32
  let v1392 : BitVec 32 := Scalar.muli v8 c512_i32_1065
  let v1393 : BitVec 32 := Scalar.subi v1236 v1392
  let c1_i32_1066 : BitVec 32 := 1#32
  let v1394 : BitVec 32 := Scalar.subi c1_i32_1066 v8
  let c512_i32_1067 : BitVec 32 := 512#32
  let v1395 : BitVec 32 := Scalar.muli v1394 c512_i32_1067
  let v1396 : BitVec 32 := Scalar.addi v1393 v1395
  let c1152_i32_1256 : BitVec 32 := 1152#32
  ![v1396.toNat, 1152]
def k0_off114 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v7 : BitVec 32 := Scalar.shrsi v2 c1_i32_3
  let c1_i32_4 : BitVec 32 := 1#32
  let v8 : BitVec 32 := Scalar.andi v7 c1_i32_4
  let c1024_i32_107 : BitVec 32 := 1024#32
  let v139 : BitVec 32 := Scalar.muli v8 c1024_i32_107
  let c2_i32 : BitVec 32 := 2#32
  let v9 : BitVec 32 := Scalar.shrsi v2 c2_i32
  let c512_i32_352 : BitVec 32 := 512#32
  let v465 : BitVec 32 := Scalar.muli v9 c512_i32_352
  let v466 : BitVec 32 := Scalar.addi v139 v465
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v3 v5
  let c256_i32_614 : BitVec 32 := 256#32
  let v789 : BitVec 32 := Scalar.muli v6 c256_i32_614
  let v790 : BitVec 32 := Scalar.addi v466 v789
  let c256_i32_932 : BitVec 32 := 256#32
  let v1249 : BitVec 32 := Scalar.muli v6 c256_i32_932
  let v1250 : BitVec 32 := Scalar.subi v790 v1249
  let c512_i32_1096 : BitVec 32 := 512#32
  let v1427 : BitVec 32 := Scalar.muli v9 c512_i32_1096
  let v1428 : BitVec 32 := Scalar.subi v1250 v1427
  let c0_i32_1280 : BitVec 32 := 0#32
  ![v1428.toNat, 0]
def k0_dev38 (d0 : Dev nD) : Nat :=
  let c0_i32_1279 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1273 : BitVec 32 := 3#32
  let v1628 : BitVec 32 := Scalar.xori v2 c3_i32_1273
  let c1_i32_1278 : BitVec 32 := 1#32
  let v1629 : BitVec 32 := Scalar.muli v1628 c1_i32_1278
  let v1630 : BitVec 32 := Scalar.addi c0_i32_1279 v1629
  v1630.toNat
def k0_off115 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v7 : BitVec 32 := Scalar.shrsi v2 c1_i32_3
  let c1_i32_4 : BitVec 32 := 1#32
  let v8 : BitVec 32 := Scalar.andi v7 c1_i32_4
  let c1024_i32_107 : BitVec 32 := 1024#32
  let v139 : BitVec 32 := Scalar.muli v8 c1024_i32_107
  let c2_i32 : BitVec 32 := 2#32
  let v9 : BitVec 32 := Scalar.shrsi v2 c2_i32
  let c512_i32_352 : BitVec 32 := 512#32
  let v465 : BitVec 32 := Scalar.muli v9 c512_i32_352
  let v466 : BitVec 32 := Scalar.addi v139 v465
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v3 v5
  let c256_i32_614 : BitVec 32 := 256#32
  let v789 : BitVec 32 := Scalar.muli v6 c256_i32_614
  let v790 : BitVec 32 := Scalar.addi v466 v789
  let c256_i32_932 : BitVec 32 := 256#32
  let v1249 : BitVec 32 := Scalar.muli v6 c256_i32_932
  let v1250 : BitVec 32 := Scalar.subi v790 v1249
  let c512_i32_1096 : BitVec 32 := 512#32
  let v1427 : BitVec 32 := Scalar.muli v9 c512_i32_1096
  let v1428 : BitVec 32 := Scalar.subi v1250 v1427
  let c1_i32_1097 : BitVec 32 := 1#32
  let v1429 : BitVec 32 := Scalar.subi c1_i32_1097 v9
  let c512_i32_1098 : BitVec 32 := 512#32
  let v1430 : BitVec 32 := Scalar.muli v1429 c512_i32_1098
  let v1431 : BitVec 32 := Scalar.addi v1428 v1430
  let v1642 : Index := Scalar.indexCast v1431
  let c0_1285 : Index := 0#32
  ![v1642.toNat, 0]
def k0_off116 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v7 : BitVec 32 := Scalar.shrsi v2 c1_i32_3
  let c1_i32_4 : BitVec 32 := 1#32
  let v8 : BitVec 32 := Scalar.andi v7 c1_i32_4
  let c1024_i32_107 : BitVec 32 := 1024#32
  let v139 : BitVec 32 := Scalar.muli v8 c1024_i32_107
  let c2_i32 : BitVec 32 := 2#32
  let v9 : BitVec 32 := Scalar.shrsi v2 c2_i32
  let c512_i32_352 : BitVec 32 := 512#32
  let v465 : BitVec 32 := Scalar.muli v9 c512_i32_352
  let v466 : BitVec 32 := Scalar.addi v139 v465
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v3 v5
  let c256_i32_614 : BitVec 32 := 256#32
  let v789 : BitVec 32 := Scalar.muli v6 c256_i32_614
  let v790 : BitVec 32 := Scalar.addi v466 v789
  let c256_i32_932 : BitVec 32 := 256#32
  let v1249 : BitVec 32 := Scalar.muli v6 c256_i32_932
  let v1250 : BitVec 32 := Scalar.subi v790 v1249
  let c512_i32_1096 : BitVec 32 := 512#32
  let v1427 : BitVec 32 := Scalar.muli v9 c512_i32_1096
  let v1428 : BitVec 32 := Scalar.subi v1250 v1427
  let c1_i32_1097 : BitVec 32 := 1#32
  let v1429 : BitVec 32 := Scalar.subi c1_i32_1097 v9
  let c512_i32_1098 : BitVec 32 := 512#32
  let v1430 : BitVec 32 := Scalar.muli v1429 c512_i32_1098
  let v1431 : BitVec 32 := Scalar.addi v1428 v1430
  let v1645 : Index := Scalar.indexCast v1431
  let c1536_1286 : Index := 1536#32
  ![v1645.toNat, 1536]
def k0_off117 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v7 : BitVec 32 := Scalar.shrsi v2 c1_i32_3
  let c1_i32_4 : BitVec 32 := 1#32
  let v8 : BitVec 32 := Scalar.andi v7 c1_i32_4
  let c1024_i32_107 : BitVec 32 := 1024#32
  let v139 : BitVec 32 := Scalar.muli v8 c1024_i32_107
  let c2_i32 : BitVec 32 := 2#32
  let v9 : BitVec 32 := Scalar.shrsi v2 c2_i32
  let c512_i32_352 : BitVec 32 := 512#32
  let v465 : BitVec 32 := Scalar.muli v9 c512_i32_352
  let v466 : BitVec 32 := Scalar.addi v139 v465
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v3 v5
  let c256_i32_614 : BitVec 32 := 256#32
  let v789 : BitVec 32 := Scalar.muli v6 c256_i32_614
  let v790 : BitVec 32 := Scalar.addi v466 v789
  let c256_i32_932 : BitVec 32 := 256#32
  let v1249 : BitVec 32 := Scalar.muli v6 c256_i32_932
  let v1250 : BitVec 32 := Scalar.subi v790 v1249
  let c512_i32_1096 : BitVec 32 := 512#32
  let v1427 : BitVec 32 := Scalar.muli v9 c512_i32_1096
  let v1428 : BitVec 32 := Scalar.subi v1250 v1427
  let c1_i32_1097 : BitVec 32 := 1#32
  let v1429 : BitVec 32 := Scalar.subi c1_i32_1097 v9
  let c512_i32_1098 : BitVec 32 := 512#32
  let v1430 : BitVec 32 := Scalar.muli v1429 c512_i32_1098
  let v1431 : BitVec 32 := Scalar.addi v1428 v1430
  let c1536_i32_1287 : BitVec 32 := 1536#32
  ![v1431.toNat, 1536]
def k0_off118 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v9 : BitVec 32 := Scalar.shrsi v2 c2_i32
  let c1024_i32_125 : BitVec 32 := 1024#32
  let v163 : BitVec 32 := Scalar.muli v9 c1024_i32_125
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v3 v5
  let c512_i32_396 : BitVec 32 := 512#32
  let v519 : BitVec 32 := Scalar.muli v6 c512_i32_396
  let v520 : BitVec 32 := Scalar.addi v163 v519
  let c1_i32_3 : BitVec 32 := 1#32
  let v7 : BitVec 32 := Scalar.shrsi v2 c1_i32_3
  let c1_i32_4 : BitVec 32 := 1#32
  let v8 : BitVec 32 := Scalar.andi v7 c1_i32_4
  let c256_i32_658 : BitVec 32 := 256#32
  let v843 : BitVec 32 := Scalar.muli v8 c256_i32_658
  let v844 : BitVec 32 := Scalar.addi v520 v843
  let c256_i32_944 : BitVec 32 := 256#32
  let v1263 : BitVec 32 := Scalar.muli v8 c256_i32_944
  let v1264 : BitVec 32 := Scalar.subi v844 v1263
  let c512_i32_1127 : BitVec 32 := 512#32
  let v1462 : BitVec 32 := Scalar.muli v6 c512_i32_1127
  let v1463 : BitVec 32 := Scalar.subi v1264 v1462
  let c0_i32_1311 : BitVec 32 := 0#32
  ![v1463.toNat, 0]
def k0_dev39 (d0 : Dev nD) : Nat :=
  let c0_i32_1310 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1304 : BitVec 32 := 4#32
  let v1663 : BitVec 32 := Scalar.xori v2 c4_i32_1304
  let c1_i32_1309 : BitVec 32 := 1#32
  let v1664 : BitVec 32 := Scalar.muli v1663 c1_i32_1309
  let v1665 : BitVec 32 := Scalar.addi c0_i32_1310 v1664
  v1665.toNat
def k0_off119 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v9 : BitVec 32 := Scalar.shrsi v2 c2_i32
  let c1024_i32_125 : BitVec 32 := 1024#32
  let v163 : BitVec 32 := Scalar.muli v9 c1024_i32_125
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v3 v5
  let c512_i32_396 : BitVec 32 := 512#32
  let v519 : BitVec 32 := Scalar.muli v6 c512_i32_396
  let v520 : BitVec 32 := Scalar.addi v163 v519
  let c1_i32_3 : BitVec 32 := 1#32
  let v7 : BitVec 32 := Scalar.shrsi v2 c1_i32_3
  let c1_i32_4 : BitVec 32 := 1#32
  let v8 : BitVec 32 := Scalar.andi v7 c1_i32_4
  let c256_i32_658 : BitVec 32 := 256#32
  let v843 : BitVec 32 := Scalar.muli v8 c256_i32_658
  let v844 : BitVec 32 := Scalar.addi v520 v843
  let c256_i32_944 : BitVec 32 := 256#32
  let v1263 : BitVec 32 := Scalar.muli v8 c256_i32_944
  let v1264 : BitVec 32 := Scalar.subi v844 v1263
  let c512_i32_1127 : BitVec 32 := 512#32
  let v1462 : BitVec 32 := Scalar.muli v6 c512_i32_1127
  let v1463 : BitVec 32 := Scalar.subi v1264 v1462
  let c1_i32_1128 : BitVec 32 := 1#32
  let v1464 : BitVec 32 := Scalar.subi c1_i32_1128 v6
  let c512_i32_1129 : BitVec 32 := 512#32
  let v1465 : BitVec 32 := Scalar.muli v1464 c512_i32_1129
  let v1466 : BitVec 32 := Scalar.addi v1463 v1465
  let v1677 : Index := Scalar.indexCast v1466
  let c0_1316 : Index := 0#32
  ![v1677.toNat, 0]
def k0_off120 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v9 : BitVec 32 := Scalar.shrsi v2 c2_i32
  let c1024_i32_125 : BitVec 32 := 1024#32
  let v163 : BitVec 32 := Scalar.muli v9 c1024_i32_125
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v3 v5
  let c512_i32_396 : BitVec 32 := 512#32
  let v519 : BitVec 32 := Scalar.muli v6 c512_i32_396
  let v520 : BitVec 32 := Scalar.addi v163 v519
  let c1_i32_3 : BitVec 32 := 1#32
  let v7 : BitVec 32 := Scalar.shrsi v2 c1_i32_3
  let c1_i32_4 : BitVec 32 := 1#32
  let v8 : BitVec 32 := Scalar.andi v7 c1_i32_4
  let c256_i32_658 : BitVec 32 := 256#32
  let v843 : BitVec 32 := Scalar.muli v8 c256_i32_658
  let v844 : BitVec 32 := Scalar.addi v520 v843
  let c256_i32_944 : BitVec 32 := 256#32
  let v1263 : BitVec 32 := Scalar.muli v8 c256_i32_944
  let v1264 : BitVec 32 := Scalar.subi v844 v1263
  let c512_i32_1127 : BitVec 32 := 512#32
  let v1462 : BitVec 32 := Scalar.muli v6 c512_i32_1127
  let v1463 : BitVec 32 := Scalar.subi v1264 v1462
  let c1_i32_1128 : BitVec 32 := 1#32
  let v1464 : BitVec 32 := Scalar.subi c1_i32_1128 v6
  let c512_i32_1129 : BitVec 32 := 512#32
  let v1465 : BitVec 32 := Scalar.muli v1464 c512_i32_1129
  let v1466 : BitVec 32 := Scalar.addi v1463 v1465
  let v1680 : Index := Scalar.indexCast v1466
  let c1792_1317 : Index := 1792#32
  ![v1680.toNat, 1792]
def k0_off121 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v9 : BitVec 32 := Scalar.shrsi v2 c2_i32
  let c1024_i32_125 : BitVec 32 := 1024#32
  let v163 : BitVec 32 := Scalar.muli v9 c1024_i32_125
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v3 v5
  let c512_i32_396 : BitVec 32 := 512#32
  let v519 : BitVec 32 := Scalar.muli v6 c512_i32_396
  let v520 : BitVec 32 := Scalar.addi v163 v519
  let c1_i32_3 : BitVec 32 := 1#32
  let v7 : BitVec 32 := Scalar.shrsi v2 c1_i32_3
  let c1_i32_4 : BitVec 32 := 1#32
  let v8 : BitVec 32 := Scalar.andi v7 c1_i32_4
  let c256_i32_658 : BitVec 32 := 256#32
  let v843 : BitVec 32 := Scalar.muli v8 c256_i32_658
  let v844 : BitVec 32 := Scalar.addi v520 v843
  let c256_i32_944 : BitVec 32 := 256#32
  let v1263 : BitVec 32 := Scalar.muli v8 c256_i32_944
  let v1264 : BitVec 32 := Scalar.subi v844 v1263
  let c512_i32_1127 : BitVec 32 := 512#32
  let v1462 : BitVec 32 := Scalar.muli v6 c512_i32_1127
  let v1463 : BitVec 32 := Scalar.subi v1264 v1462
  let c1_i32_1128 : BitVec 32 := 1#32
  let v1464 : BitVec 32 := Scalar.subi c1_i32_1128 v6
  let c512_i32_1129 : BitVec 32 := 512#32
  let v1465 : BitVec 32 := Scalar.muli v1464 c512_i32_1129
  let v1466 : BitVec 32 := Scalar.addi v1463 v1465
  let c1792_i32_1318 : BitVec 32 := 1792#32
  ![v1466.toNat, 1792]
def k0_off122 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v3 v5
  let c1024_i32_31 : BitVec 32 := 1024#32
  let v43 : BitVec 32 := Scalar.muli v6 c1024_i32_31
  let c1_i32_3 : BitVec 32 := 1#32
  let v7 : BitVec 32 := Scalar.shrsi v2 c1_i32_3
  let c1_i32_4 : BitVec 32 := 1#32
  let v8 : BitVec 32 := Scalar.andi v7 c1_i32_4
  let c512_i32_176 : BitVec 32 := 512#32
  let v249 : BitVec 32 := Scalar.muli v8 c512_i32_176
  let v250 : BitVec 32 := Scalar.addi v43 v249
  let c2_i32 : BitVec 32 := 2#32
  let v9 : BitVec 32 := Scalar.shrsi v2 c2_i32
  let c256_i32_439 : BitVec 32 := 256#32
  let v573 : BitVec 32 := Scalar.muli v9 c256_i32_439
  let v574 : BitVec 32 := Scalar.addi v250 v573
  let c256_i32_884 : BitVec 32 := 256#32
  let v1193 : BitVec 32 := Scalar.muli v9 c256_i32_884
  let v1194 : BitVec 32 := Scalar.subi v574 v1193
  let c512_i32_971 : BitVec 32 := 512#32
  let v1287 : BitVec 32 := Scalar.muli v8 c512_i32_971
  let v1288 : BitVec 32 := Scalar.subi v1194 v1287
  let c1024_i32_1158 : BitVec 32 := 1024#32
  let v1497 : BitVec 32 := Scalar.muli v6 c1024_i32_1158
  let v1498 : BitVec 32 := Scalar.subi v1288 v1497
  let c1_i32_1159 : BitVec 32 := 1#32
  let v1499 : BitVec 32 := Scalar.subi c1_i32_1159 v6
  let c1024_i32_1160 : BitVec 32 := 1024#32
  let v1500 : BitVec 32 := Scalar.muli v1499 c1024_i32_1160
  let v1501 : BitVec 32 := Scalar.addi v1498 v1500
  let v1698 : Index := Scalar.indexCast v1501
  let c0_1335 : Index := 0#32
  ![v1698.toNat, 0]
def k0_off123 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v3 v5
  let c1024_i32_31 : BitVec 32 := 1024#32
  let v43 : BitVec 32 := Scalar.muli v6 c1024_i32_31
  let c1_i32_3 : BitVec 32 := 1#32
  let v7 : BitVec 32 := Scalar.shrsi v2 c1_i32_3
  let c1_i32_4 : BitVec 32 := 1#32
  let v8 : BitVec 32 := Scalar.andi v7 c1_i32_4
  let c512_i32_176 : BitVec 32 := 512#32
  let v249 : BitVec 32 := Scalar.muli v8 c512_i32_176
  let v250 : BitVec 32 := Scalar.addi v43 v249
  let c2_i32 : BitVec 32 := 2#32
  let v9 : BitVec 32 := Scalar.shrsi v2 c2_i32
  let c256_i32_439 : BitVec 32 := 256#32
  let v573 : BitVec 32 := Scalar.muli v9 c256_i32_439
  let v574 : BitVec 32 := Scalar.addi v250 v573
  let c256_i32_884 : BitVec 32 := 256#32
  let v1193 : BitVec 32 := Scalar.muli v9 c256_i32_884
  let v1194 : BitVec 32 := Scalar.subi v574 v1193
  let c512_i32_971 : BitVec 32 := 512#32
  let v1287 : BitVec 32 := Scalar.muli v8 c512_i32_971
  let v1288 : BitVec 32 := Scalar.subi v1194 v1287
  let c1024_i32_1158 : BitVec 32 := 1024#32
  let v1497 : BitVec 32 := Scalar.muli v6 c1024_i32_1158
  let v1498 : BitVec 32 := Scalar.subi v1288 v1497
  let c1_i32_1159 : BitVec 32 := 1#32
  let v1499 : BitVec 32 := Scalar.subi c1_i32_1159 v6
  let c1024_i32_1160 : BitVec 32 := 1024#32
  let v1500 : BitVec 32 := Scalar.muli v1499 c1024_i32_1160
  let v1501 : BitVec 32 := Scalar.addi v1498 v1500
  let v1701 : Index := Scalar.indexCast v1501
  let c0_1336 : Index := 0#32
  ![v1701.toNat, 0]
def k0_off124 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v3 v5
  let c1024_i32_31 : BitVec 32 := 1024#32
  let v43 : BitVec 32 := Scalar.muli v6 c1024_i32_31
  let c1_i32_3 : BitVec 32 := 1#32
  let v7 : BitVec 32 := Scalar.shrsi v2 c1_i32_3
  let c1_i32_4 : BitVec 32 := 1#32
  let v8 : BitVec 32 := Scalar.andi v7 c1_i32_4
  let c512_i32_176 : BitVec 32 := 512#32
  let v249 : BitVec 32 := Scalar.muli v8 c512_i32_176
  let v250 : BitVec 32 := Scalar.addi v43 v249
  let c2_i32 : BitVec 32 := 2#32
  let v9 : BitVec 32 := Scalar.shrsi v2 c2_i32
  let c256_i32_439 : BitVec 32 := 256#32
  let v573 : BitVec 32 := Scalar.muli v9 c256_i32_439
  let v574 : BitVec 32 := Scalar.addi v250 v573
  let c256_i32_884 : BitVec 32 := 256#32
  let v1193 : BitVec 32 := Scalar.muli v9 c256_i32_884
  let v1194 : BitVec 32 := Scalar.subi v574 v1193
  let c512_i32_971 : BitVec 32 := 512#32
  let v1287 : BitVec 32 := Scalar.muli v8 c512_i32_971
  let v1288 : BitVec 32 := Scalar.subi v1194 v1287
  let c1024_i32_1158 : BitVec 32 := 1024#32
  let v1497 : BitVec 32 := Scalar.muli v6 c1024_i32_1158
  let v1498 : BitVec 32 := Scalar.subi v1288 v1497
  let c1_i32_1159 : BitVec 32 := 1#32
  let v1499 : BitVec 32 := Scalar.subi c1_i32_1159 v6
  let c1024_i32_1160 : BitVec 32 := 1024#32
  let v1500 : BitVec 32 := Scalar.muli v1499 c1024_i32_1160
  let v1501 : BitVec 32 := Scalar.addi v1498 v1500
  let c0_i32_1337 : BitVec 32 := 0#32
  ![v1501.toNat, 0]
def k0_off125 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v7 : BitVec 32 := Scalar.shrsi v2 c1_i32_3
  let c1_i32_4 : BitVec 32 := 1#32
  let v8 : BitVec 32 := Scalar.andi v7 c1_i32_4
  let c1024_i32_50 : BitVec 32 := 1024#32
  let v67 : BitVec 32 := Scalar.muli v8 c1024_i32_50
  let c2_i32 : BitVec 32 := 2#32
  let v9 : BitVec 32 := Scalar.shrsi v2 c2_i32
  let c512_i32_220 : BitVec 32 := 512#32
  let v303 : BitVec 32 := Scalar.muli v9 c512_i32_220
  let v304 : BitVec 32 := Scalar.addi v67 v303
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v3 v5
  let c256_i32_482 : BitVec 32 := 256#32
  let v627 : BitVec 32 := Scalar.muli v6 c256_i32_482
  let v628 : BitVec 32 := Scalar.addi v304 v627
  let c256_i32_896 : BitVec 32 := 256#32
  let v1207 : BitVec 32 := Scalar.muli v6 c256_i32_896
  let v1208 : BitVec 32 := Scalar.subi v628 v1207
  let c512_i32_1002 : BitVec 32 := 512#32
  let v1322 : BitVec 32 := Scalar.muli v9 c512_i32_1002
  let v1323 : BitVec 32 := Scalar.subi v1208 v1322
  let c1024_i32_1189 : BitVec 32 := 1024#32
  let v1532 : BitVec 32 := Scalar.muli v8 c1024_i32_1189
  let v1533 : BitVec 32 := Scalar.subi v1323 v1532
  let c1_i32_1190 : BitVec 32 := 1#32
  let v1534 : BitVec 32 := Scalar.subi c1_i32_1190 v8
  let c1024_i32_1191 : BitVec 32 := 1024#32
  let v1535 : BitVec 32 := Scalar.muli v1534 c1024_i32_1191
  let v1536 : BitVec 32 := Scalar.addi v1533 v1535
  let v1719 : Index := Scalar.indexCast v1536
  let c0_1354 : Index := 0#32
  ![v1719.toNat, 0]
def k0_off126 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v7 : BitVec 32 := Scalar.shrsi v2 c1_i32_3
  let c1_i32_4 : BitVec 32 := 1#32
  let v8 : BitVec 32 := Scalar.andi v7 c1_i32_4
  let c1024_i32_50 : BitVec 32 := 1024#32
  let v67 : BitVec 32 := Scalar.muli v8 c1024_i32_50
  let c2_i32 : BitVec 32 := 2#32
  let v9 : BitVec 32 := Scalar.shrsi v2 c2_i32
  let c512_i32_220 : BitVec 32 := 512#32
  let v303 : BitVec 32 := Scalar.muli v9 c512_i32_220
  let v304 : BitVec 32 := Scalar.addi v67 v303
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v3 v5
  let c256_i32_482 : BitVec 32 := 256#32
  let v627 : BitVec 32 := Scalar.muli v6 c256_i32_482
  let v628 : BitVec 32 := Scalar.addi v304 v627
  let c256_i32_896 : BitVec 32 := 256#32
  let v1207 : BitVec 32 := Scalar.muli v6 c256_i32_896
  let v1208 : BitVec 32 := Scalar.subi v628 v1207
  let c512_i32_1002 : BitVec 32 := 512#32
  let v1322 : BitVec 32 := Scalar.muli v9 c512_i32_1002
  let v1323 : BitVec 32 := Scalar.subi v1208 v1322
  let c1024_i32_1189 : BitVec 32 := 1024#32
  let v1532 : BitVec 32 := Scalar.muli v8 c1024_i32_1189
  let v1533 : BitVec 32 := Scalar.subi v1323 v1532
  let c1_i32_1190 : BitVec 32 := 1#32
  let v1534 : BitVec 32 := Scalar.subi c1_i32_1190 v8
  let c1024_i32_1191 : BitVec 32 := 1024#32
  let v1535 : BitVec 32 := Scalar.muli v1534 c1024_i32_1191
  let v1536 : BitVec 32 := Scalar.addi v1533 v1535
  let v1722 : Index := Scalar.indexCast v1536
  let c384_1355 : Index := 384#32
  ![v1722.toNat, 384]
def k0_off127 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v7 : BitVec 32 := Scalar.shrsi v2 c1_i32_3
  let c1_i32_4 : BitVec 32 := 1#32
  let v8 : BitVec 32 := Scalar.andi v7 c1_i32_4
  let c1024_i32_50 : BitVec 32 := 1024#32
  let v67 : BitVec 32 := Scalar.muli v8 c1024_i32_50
  let c2_i32 : BitVec 32 := 2#32
  let v9 : BitVec 32 := Scalar.shrsi v2 c2_i32
  let c512_i32_220 : BitVec 32 := 512#32
  let v303 : BitVec 32 := Scalar.muli v9 c512_i32_220
  let v304 : BitVec 32 := Scalar.addi v67 v303
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v3 v5
  let c256_i32_482 : BitVec 32 := 256#32
  let v627 : BitVec 32 := Scalar.muli v6 c256_i32_482
  let v628 : BitVec 32 := Scalar.addi v304 v627
  let c256_i32_896 : BitVec 32 := 256#32
  let v1207 : BitVec 32 := Scalar.muli v6 c256_i32_896
  let v1208 : BitVec 32 := Scalar.subi v628 v1207
  let c512_i32_1002 : BitVec 32 := 512#32
  let v1322 : BitVec 32 := Scalar.muli v9 c512_i32_1002
  let v1323 : BitVec 32 := Scalar.subi v1208 v1322
  let c1024_i32_1189 : BitVec 32 := 1024#32
  let v1532 : BitVec 32 := Scalar.muli v8 c1024_i32_1189
  let v1533 : BitVec 32 := Scalar.subi v1323 v1532
  let c1_i32_1190 : BitVec 32 := 1#32
  let v1534 : BitVec 32 := Scalar.subi c1_i32_1190 v8
  let c1024_i32_1191 : BitVec 32 := 1024#32
  let v1535 : BitVec 32 := Scalar.muli v1534 c1024_i32_1191
  let v1536 : BitVec 32 := Scalar.addi v1533 v1535
  let c384_i32_1356 : BitVec 32 := 384#32
  ![v1536.toNat, 384]
def k0_off128 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v9 : BitVec 32 := Scalar.shrsi v2 c2_i32
  let c1024_i32_69 : BitVec 32 := 1024#32
  let v91 : BitVec 32 := Scalar.muli v9 c1024_i32_69
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v3 v5
  let c512_i32_264 : BitVec 32 := 512#32
  let v357 : BitVec 32 := Scalar.muli v6 c512_i32_264
  let v358 : BitVec 32 := Scalar.addi v91 v357
  let c1_i32_3 : BitVec 32 := 1#32
  let v7 : BitVec 32 := Scalar.shrsi v2 c1_i32_3
  let c1_i32_4 : BitVec 32 := 1#32
  let v8 : BitVec 32 := Scalar.andi v7 c1_i32_4
  let c256_i32_526 : BitVec 32 := 256#32
  let v681 : BitVec 32 := Scalar.muli v8 c256_i32_526
  let v682 : BitVec 32 := Scalar.addi v358 v681
  let c256_i32_908 : BitVec 32 := 256#32
  let v1221 : BitVec 32 := Scalar.muli v8 c256_i32_908
  let v1222 : BitVec 32 := Scalar.subi v682 v1221
  let c512_i32_1033 : BitVec 32 := 512#32
  let v1357 : BitVec 32 := Scalar.muli v6 c512_i32_1033
  let v1358 : BitVec 32 := Scalar.subi v1222 v1357
  let c1024_i32_1220 : BitVec 32 := 1024#32
  let v1567 : BitVec 32 := Scalar.muli v9 c1024_i32_1220
  let v1568 : BitVec 32 := Scalar.subi v1358 v1567
  let c1_i32_1221 : BitVec 32 := 1#32
  let v1569 : BitVec 32 := Scalar.subi c1_i32_1221 v9
  let c1024_i32_1222 : BitVec 32 := 1024#32
  let v1570 : BitVec 32 := Scalar.muli v1569 c1024_i32_1222
  let v1571 : BitVec 32 := Scalar.addi v1568 v1570
  let v1740 : Index := Scalar.indexCast v1571
  let c0_1373 : Index := 0#32
  ![v1740.toNat, 0]
def k0_off129 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v9 : BitVec 32 := Scalar.shrsi v2 c2_i32
  let c1024_i32_69 : BitVec 32 := 1024#32
  let v91 : BitVec 32 := Scalar.muli v9 c1024_i32_69
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v3 v5
  let c512_i32_264 : BitVec 32 := 512#32
  let v357 : BitVec 32 := Scalar.muli v6 c512_i32_264
  let v358 : BitVec 32 := Scalar.addi v91 v357
  let c1_i32_3 : BitVec 32 := 1#32
  let v7 : BitVec 32 := Scalar.shrsi v2 c1_i32_3
  let c1_i32_4 : BitVec 32 := 1#32
  let v8 : BitVec 32 := Scalar.andi v7 c1_i32_4
  let c256_i32_526 : BitVec 32 := 256#32
  let v681 : BitVec 32 := Scalar.muli v8 c256_i32_526
  let v682 : BitVec 32 := Scalar.addi v358 v681
  let c256_i32_908 : BitVec 32 := 256#32
  let v1221 : BitVec 32 := Scalar.muli v8 c256_i32_908
  let v1222 : BitVec 32 := Scalar.subi v682 v1221
  let c512_i32_1033 : BitVec 32 := 512#32
  let v1357 : BitVec 32 := Scalar.muli v6 c512_i32_1033
  let v1358 : BitVec 32 := Scalar.subi v1222 v1357
  let c1024_i32_1220 : BitVec 32 := 1024#32
  let v1567 : BitVec 32 := Scalar.muli v9 c1024_i32_1220
  let v1568 : BitVec 32 := Scalar.subi v1358 v1567
  let c1_i32_1221 : BitVec 32 := 1#32
  let v1569 : BitVec 32 := Scalar.subi c1_i32_1221 v9
  let c1024_i32_1222 : BitVec 32 := 1024#32
  let v1570 : BitVec 32 := Scalar.muli v1569 c1024_i32_1222
  let v1571 : BitVec 32 := Scalar.addi v1568 v1570
  let v1743 : Index := Scalar.indexCast v1571
  let c768_1374 : Index := 768#32
  ![v1743.toNat, 768]
def k0_off130 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v9 : BitVec 32 := Scalar.shrsi v2 c2_i32
  let c1024_i32_69 : BitVec 32 := 1024#32
  let v91 : BitVec 32 := Scalar.muli v9 c1024_i32_69
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v3 v5
  let c512_i32_264 : BitVec 32 := 512#32
  let v357 : BitVec 32 := Scalar.muli v6 c512_i32_264
  let v358 : BitVec 32 := Scalar.addi v91 v357
  let c1_i32_3 : BitVec 32 := 1#32
  let v7 : BitVec 32 := Scalar.shrsi v2 c1_i32_3
  let c1_i32_4 : BitVec 32 := 1#32
  let v8 : BitVec 32 := Scalar.andi v7 c1_i32_4
  let c256_i32_526 : BitVec 32 := 256#32
  let v681 : BitVec 32 := Scalar.muli v8 c256_i32_526
  let v682 : BitVec 32 := Scalar.addi v358 v681
  let c256_i32_908 : BitVec 32 := 256#32
  let v1221 : BitVec 32 := Scalar.muli v8 c256_i32_908
  let v1222 : BitVec 32 := Scalar.subi v682 v1221
  let c512_i32_1033 : BitVec 32 := 512#32
  let v1357 : BitVec 32 := Scalar.muli v6 c512_i32_1033
  let v1358 : BitVec 32 := Scalar.subi v1222 v1357
  let c1024_i32_1220 : BitVec 32 := 1024#32
  let v1567 : BitVec 32 := Scalar.muli v9 c1024_i32_1220
  let v1568 : BitVec 32 := Scalar.subi v1358 v1567
  let c1_i32_1221 : BitVec 32 := 1#32
  let v1569 : BitVec 32 := Scalar.subi c1_i32_1221 v9
  let c1024_i32_1222 : BitVec 32 := 1024#32
  let v1570 : BitVec 32 := Scalar.muli v1569 c1024_i32_1222
  let v1571 : BitVec 32 := Scalar.addi v1568 v1570
  let c768_i32_1375 : BitVec 32 := 768#32
  ![v1571.toNat, 768]
def k0_off131 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v3 v5
  let c1024_i32_88 : BitVec 32 := 1024#32
  let v115 : BitVec 32 := Scalar.muli v6 c1024_i32_88
  let c1_i32_3 : BitVec 32 := 1#32
  let v7 : BitVec 32 := Scalar.shrsi v2 c1_i32_3
  let c1_i32_4 : BitVec 32 := 1#32
  let v8 : BitVec 32 := Scalar.andi v7 c1_i32_4
  let c512_i32_308 : BitVec 32 := 512#32
  let v411 : BitVec 32 := Scalar.muli v8 c512_i32_308
  let v412 : BitVec 32 := Scalar.addi v115 v411
  let c2_i32 : BitVec 32 := 2#32
  let v9 : BitVec 32 := Scalar.shrsi v2 c2_i32
  let c256_i32_570 : BitVec 32 := 256#32
  let v735 : BitVec 32 := Scalar.muli v9 c256_i32_570
  let v736 : BitVec 32 := Scalar.addi v412 v735
  let c256_i32_920 : BitVec 32 := 256#32
  let v1235 : BitVec 32 := Scalar.muli v9 c256_i32_920
  let v1236 : BitVec 32 := Scalar.subi v736 v1235
  let c512_i32_1065 : BitVec 32 := 512#32
  let v1392 : BitVec 32 := Scalar.muli v8 c512_i32_1065
  let v1393 : BitVec 32 := Scalar.subi v1236 v1392
  let c1024_i32_1251 : BitVec 32 := 1024#32
  let v1602 : BitVec 32 := Scalar.muli v6 c1024_i32_1251
  let v1603 : BitVec 32 := Scalar.subi v1393 v1602
  let c1_i32_1252 : BitVec 32 := 1#32
  let v1604 : BitVec 32 := Scalar.subi c1_i32_1252 v6
  let c1024_i32_1253 : BitVec 32 := 1024#32
  let v1605 : BitVec 32 := Scalar.muli v1604 c1024_i32_1253
  let v1606 : BitVec 32 := Scalar.addi v1603 v1605
  let v1764 : Index := Scalar.indexCast v1606
  let c1152_1393 : Index := 1152#32
  ![v1764.toNat, 1152]
def k0_off132 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v3 v5
  let c1024_i32_88 : BitVec 32 := 1024#32
  let v115 : BitVec 32 := Scalar.muli v6 c1024_i32_88
  let c1_i32_3 : BitVec 32 := 1#32
  let v7 : BitVec 32 := Scalar.shrsi v2 c1_i32_3
  let c1_i32_4 : BitVec 32 := 1#32
  let v8 : BitVec 32 := Scalar.andi v7 c1_i32_4
  let c512_i32_308 : BitVec 32 := 512#32
  let v411 : BitVec 32 := Scalar.muli v8 c512_i32_308
  let v412 : BitVec 32 := Scalar.addi v115 v411
  let c2_i32 : BitVec 32 := 2#32
  let v9 : BitVec 32 := Scalar.shrsi v2 c2_i32
  let c256_i32_570 : BitVec 32 := 256#32
  let v735 : BitVec 32 := Scalar.muli v9 c256_i32_570
  let v736 : BitVec 32 := Scalar.addi v412 v735
  let c256_i32_920 : BitVec 32 := 256#32
  let v1235 : BitVec 32 := Scalar.muli v9 c256_i32_920
  let v1236 : BitVec 32 := Scalar.subi v736 v1235
  let c512_i32_1065 : BitVec 32 := 512#32
  let v1392 : BitVec 32 := Scalar.muli v8 c512_i32_1065
  let v1393 : BitVec 32 := Scalar.subi v1236 v1392
  let c1024_i32_1251 : BitVec 32 := 1024#32
  let v1602 : BitVec 32 := Scalar.muli v6 c1024_i32_1251
  let v1603 : BitVec 32 := Scalar.subi v1393 v1602
  let c1_i32_1252 : BitVec 32 := 1#32
  let v1604 : BitVec 32 := Scalar.subi c1_i32_1252 v6
  let c1024_i32_1253 : BitVec 32 := 1024#32
  let v1605 : BitVec 32 := Scalar.muli v1604 c1024_i32_1253
  let v1606 : BitVec 32 := Scalar.addi v1603 v1605
  let c1152_i32_1394 : BitVec 32 := 1152#32
  ![v1606.toNat, 1152]
def k0_off133 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v7 : BitVec 32 := Scalar.shrsi v2 c1_i32_3
  let c1_i32_4 : BitVec 32 := 1#32
  let v8 : BitVec 32 := Scalar.andi v7 c1_i32_4
  let c1024_i32_107 : BitVec 32 := 1024#32
  let v139 : BitVec 32 := Scalar.muli v8 c1024_i32_107
  let c2_i32 : BitVec 32 := 2#32
  let v9 : BitVec 32 := Scalar.shrsi v2 c2_i32
  let c512_i32_352 : BitVec 32 := 512#32
  let v465 : BitVec 32 := Scalar.muli v9 c512_i32_352
  let v466 : BitVec 32 := Scalar.addi v139 v465
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v3 v5
  let c256_i32_614 : BitVec 32 := 256#32
  let v789 : BitVec 32 := Scalar.muli v6 c256_i32_614
  let v790 : BitVec 32 := Scalar.addi v466 v789
  let c256_i32_932 : BitVec 32 := 256#32
  let v1249 : BitVec 32 := Scalar.muli v6 c256_i32_932
  let v1250 : BitVec 32 := Scalar.subi v790 v1249
  let c512_i32_1096 : BitVec 32 := 512#32
  let v1427 : BitVec 32 := Scalar.muli v9 c512_i32_1096
  let v1428 : BitVec 32 := Scalar.subi v1250 v1427
  let c1024_i32_1282 : BitVec 32 := 1024#32
  let v1637 : BitVec 32 := Scalar.muli v8 c1024_i32_1282
  let v1638 : BitVec 32 := Scalar.subi v1428 v1637
  let c1_i32_1283 : BitVec 32 := 1#32
  let v1639 : BitVec 32 := Scalar.subi c1_i32_1283 v8
  let c1024_i32_1284 : BitVec 32 := 1024#32
  let v1640 : BitVec 32 := Scalar.muli v1639 c1024_i32_1284
  let v1641 : BitVec 32 := Scalar.addi v1638 v1640
  let v1782 : Index := Scalar.indexCast v1641
  let c0_1411 : Index := 0#32
  ![v1782.toNat, 0]
def k0_off134 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v7 : BitVec 32 := Scalar.shrsi v2 c1_i32_3
  let c1_i32_4 : BitVec 32 := 1#32
  let v8 : BitVec 32 := Scalar.andi v7 c1_i32_4
  let c1024_i32_107 : BitVec 32 := 1024#32
  let v139 : BitVec 32 := Scalar.muli v8 c1024_i32_107
  let c2_i32 : BitVec 32 := 2#32
  let v9 : BitVec 32 := Scalar.shrsi v2 c2_i32
  let c512_i32_352 : BitVec 32 := 512#32
  let v465 : BitVec 32 := Scalar.muli v9 c512_i32_352
  let v466 : BitVec 32 := Scalar.addi v139 v465
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v3 v5
  let c256_i32_614 : BitVec 32 := 256#32
  let v789 : BitVec 32 := Scalar.muli v6 c256_i32_614
  let v790 : BitVec 32 := Scalar.addi v466 v789
  let c256_i32_932 : BitVec 32 := 256#32
  let v1249 : BitVec 32 := Scalar.muli v6 c256_i32_932
  let v1250 : BitVec 32 := Scalar.subi v790 v1249
  let c512_i32_1096 : BitVec 32 := 512#32
  let v1427 : BitVec 32 := Scalar.muli v9 c512_i32_1096
  let v1428 : BitVec 32 := Scalar.subi v1250 v1427
  let c1024_i32_1282 : BitVec 32 := 1024#32
  let v1637 : BitVec 32 := Scalar.muli v8 c1024_i32_1282
  let v1638 : BitVec 32 := Scalar.subi v1428 v1637
  let c1_i32_1283 : BitVec 32 := 1#32
  let v1639 : BitVec 32 := Scalar.subi c1_i32_1283 v8
  let c1024_i32_1284 : BitVec 32 := 1024#32
  let v1640 : BitVec 32 := Scalar.muli v1639 c1024_i32_1284
  let v1641 : BitVec 32 := Scalar.addi v1638 v1640
  let v1785 : Index := Scalar.indexCast v1641
  let c1536_1412 : Index := 1536#32
  ![v1785.toNat, 1536]
def k0_off135 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v7 : BitVec 32 := Scalar.shrsi v2 c1_i32_3
  let c1_i32_4 : BitVec 32 := 1#32
  let v8 : BitVec 32 := Scalar.andi v7 c1_i32_4
  let c1024_i32_107 : BitVec 32 := 1024#32
  let v139 : BitVec 32 := Scalar.muli v8 c1024_i32_107
  let c2_i32 : BitVec 32 := 2#32
  let v9 : BitVec 32 := Scalar.shrsi v2 c2_i32
  let c512_i32_352 : BitVec 32 := 512#32
  let v465 : BitVec 32 := Scalar.muli v9 c512_i32_352
  let v466 : BitVec 32 := Scalar.addi v139 v465
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v3 v5
  let c256_i32_614 : BitVec 32 := 256#32
  let v789 : BitVec 32 := Scalar.muli v6 c256_i32_614
  let v790 : BitVec 32 := Scalar.addi v466 v789
  let c256_i32_932 : BitVec 32 := 256#32
  let v1249 : BitVec 32 := Scalar.muli v6 c256_i32_932
  let v1250 : BitVec 32 := Scalar.subi v790 v1249
  let c512_i32_1096 : BitVec 32 := 512#32
  let v1427 : BitVec 32 := Scalar.muli v9 c512_i32_1096
  let v1428 : BitVec 32 := Scalar.subi v1250 v1427
  let c1024_i32_1282 : BitVec 32 := 1024#32
  let v1637 : BitVec 32 := Scalar.muli v8 c1024_i32_1282
  let v1638 : BitVec 32 := Scalar.subi v1428 v1637
  let c1_i32_1283 : BitVec 32 := 1#32
  let v1639 : BitVec 32 := Scalar.subi c1_i32_1283 v8
  let c1024_i32_1284 : BitVec 32 := 1024#32
  let v1640 : BitVec 32 := Scalar.muli v1639 c1024_i32_1284
  let v1641 : BitVec 32 := Scalar.addi v1638 v1640
  let c1536_i32_1413 : BitVec 32 := 1536#32
  ![v1641.toNat, 1536]
def k0_off136 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v9 : BitVec 32 := Scalar.shrsi v2 c2_i32
  let c1024_i32_125 : BitVec 32 := 1024#32
  let v163 : BitVec 32 := Scalar.muli v9 c1024_i32_125
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v3 v5
  let c512_i32_396 : BitVec 32 := 512#32
  let v519 : BitVec 32 := Scalar.muli v6 c512_i32_396
  let v520 : BitVec 32 := Scalar.addi v163 v519
  let c1_i32_3 : BitVec 32 := 1#32
  let v7 : BitVec 32 := Scalar.shrsi v2 c1_i32_3
  let c1_i32_4 : BitVec 32 := 1#32
  let v8 : BitVec 32 := Scalar.andi v7 c1_i32_4
  let c256_i32_658 : BitVec 32 := 256#32
  let v843 : BitVec 32 := Scalar.muli v8 c256_i32_658
  let v844 : BitVec 32 := Scalar.addi v520 v843
  let c256_i32_944 : BitVec 32 := 256#32
  let v1263 : BitVec 32 := Scalar.muli v8 c256_i32_944
  let v1264 : BitVec 32 := Scalar.subi v844 v1263
  let c512_i32_1127 : BitVec 32 := 512#32
  let v1462 : BitVec 32 := Scalar.muli v6 c512_i32_1127
  let v1463 : BitVec 32 := Scalar.subi v1264 v1462
  let c1024_i32_1313 : BitVec 32 := 1024#32
  let v1672 : BitVec 32 := Scalar.muli v9 c1024_i32_1313
  let v1673 : BitVec 32 := Scalar.subi v1463 v1672
  let c1_i32_1314 : BitVec 32 := 1#32
  let v1674 : BitVec 32 := Scalar.subi c1_i32_1314 v9
  let c1024_i32_1315 : BitVec 32 := 1024#32
  let v1675 : BitVec 32 := Scalar.muli v1674 c1024_i32_1315
  let v1676 : BitVec 32 := Scalar.addi v1673 v1675
  let v1803 : Index := Scalar.indexCast v1676
  let c0_1430 : Index := 0#32
  ![v1803.toNat, 0]
def k0_off137 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v9 : BitVec 32 := Scalar.shrsi v2 c2_i32
  let c1024_i32_125 : BitVec 32 := 1024#32
  let v163 : BitVec 32 := Scalar.muli v9 c1024_i32_125
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v3 v5
  let c512_i32_396 : BitVec 32 := 512#32
  let v519 : BitVec 32 := Scalar.muli v6 c512_i32_396
  let v520 : BitVec 32 := Scalar.addi v163 v519
  let c1_i32_3 : BitVec 32 := 1#32
  let v7 : BitVec 32 := Scalar.shrsi v2 c1_i32_3
  let c1_i32_4 : BitVec 32 := 1#32
  let v8 : BitVec 32 := Scalar.andi v7 c1_i32_4
  let c256_i32_658 : BitVec 32 := 256#32
  let v843 : BitVec 32 := Scalar.muli v8 c256_i32_658
  let v844 : BitVec 32 := Scalar.addi v520 v843
  let c256_i32_944 : BitVec 32 := 256#32
  let v1263 : BitVec 32 := Scalar.muli v8 c256_i32_944
  let v1264 : BitVec 32 := Scalar.subi v844 v1263
  let c512_i32_1127 : BitVec 32 := 512#32
  let v1462 : BitVec 32 := Scalar.muli v6 c512_i32_1127
  let v1463 : BitVec 32 := Scalar.subi v1264 v1462
  let c1024_i32_1313 : BitVec 32 := 1024#32
  let v1672 : BitVec 32 := Scalar.muli v9 c1024_i32_1313
  let v1673 : BitVec 32 := Scalar.subi v1463 v1672
  let c1_i32_1314 : BitVec 32 := 1#32
  let v1674 : BitVec 32 := Scalar.subi c1_i32_1314 v9
  let c1024_i32_1315 : BitVec 32 := 1024#32
  let v1675 : BitVec 32 := Scalar.muli v1674 c1024_i32_1315
  let v1676 : BitVec 32 := Scalar.addi v1673 v1675
  let v1806 : Index := Scalar.indexCast v1676
  let c1792_1431 : Index := 1792#32
  ![v1806.toNat, 1792]
def k0_off138 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v9 : BitVec 32 := Scalar.shrsi v2 c2_i32
  let c1024_i32_125 : BitVec 32 := 1024#32
  let v163 : BitVec 32 := Scalar.muli v9 c1024_i32_125
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v3 v5
  let c512_i32_396 : BitVec 32 := 512#32
  let v519 : BitVec 32 := Scalar.muli v6 c512_i32_396
  let v520 : BitVec 32 := Scalar.addi v163 v519
  let c1_i32_3 : BitVec 32 := 1#32
  let v7 : BitVec 32 := Scalar.shrsi v2 c1_i32_3
  let c1_i32_4 : BitVec 32 := 1#32
  let v8 : BitVec 32 := Scalar.andi v7 c1_i32_4
  let c256_i32_658 : BitVec 32 := 256#32
  let v843 : BitVec 32 := Scalar.muli v8 c256_i32_658
  let v844 : BitVec 32 := Scalar.addi v520 v843
  let c256_i32_944 : BitVec 32 := 256#32
  let v1263 : BitVec 32 := Scalar.muli v8 c256_i32_944
  let v1264 : BitVec 32 := Scalar.subi v844 v1263
  let c512_i32_1127 : BitVec 32 := 512#32
  let v1462 : BitVec 32 := Scalar.muli v6 c512_i32_1127
  let v1463 : BitVec 32 := Scalar.subi v1264 v1462
  let c1024_i32_1313 : BitVec 32 := 1024#32
  let v1672 : BitVec 32 := Scalar.muli v9 c1024_i32_1313
  let v1673 : BitVec 32 := Scalar.subi v1463 v1672
  let c1_i32_1314 : BitVec 32 := 1#32
  let v1674 : BitVec 32 := Scalar.subi c1_i32_1314 v9
  let c1024_i32_1315 : BitVec 32 := 1024#32
  let v1675 : BitVec 32 := Scalar.muli v1674 c1024_i32_1315
  let v1676 : BitVec 32 := Scalar.addi v1673 v1675
  let c1792_i32_1432 : BitVec 32 := 1792#32
  ![v1676.toNat, 1792]
abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  hamt_3 : (3#32 : BitVec 32).msb = false
  h_S1024x1024 : 0 < S1024x1024.numel
  shapeCasts_S1024x1024_S1024x1024 : S1024x1024.ShapeCasts S1024x1024
  bitsLt_bf16_f32 : FTy.bits .bf16 < FTy.bits .f32
  inb_S1024x2048_S1024x384_0_0 : ∀ a, (![0, 0] : Fin 2 → Nat) a + S1024x384.size a ≤ S1024x2048.size a
  h_S1024x384 : 0 < S1024x384.numel
  shapeCasts_S1024x384_S1024x384 : S1024x384.ShapeCasts S1024x384
  inb_S1024x384_S1024x384_0_0 : ∀ a, (![0, 0] : Fin 2 → Nat) a + S1024x384.size a ≤ S1024x384.size a
  packedbf16_S1024x384_S1024x384_0_0 : (Rect.unit (s := S1024x384) ![0, 0] S1024x384.size inb_S1024x384_S1024x384_0_0).PackedRows (EltTy.packing .bf16)
  inb_S6x3_S1x1_0_0 : ∀ a, (![0, 0] : Fin 2 → Nat) a + S1x1.size a ≤ S6x3.size a
  squeezes_S1x1_S_ : S1x1.Squeezes S_
  inb_S1792x384_S1024x384_0_0 : ∀ a, (![0, 0] : Fin 2 → Nat) a + S1024x384.size a ≤ S1792x384.size a
  wordsbf16_S1024x384_S1024x384_0_0 : (Rect.unit (s := S1024x384) ![0, 0] S1024x384.size inb_S1024x384_S1024x384_0_0).WholeWords (EltTy.packing .bf16)
  wordsbf16_S1792x384_S1024x384_0_0 : (Rect.unit (s := S1792x384) ![0, 0] S1024x384.size inb_S1792x384_S1024x384_0_0).WholeWords (EltTy.packing .bf16)
  inb_S1024x2048_S1024x384_0_384 : ∀ a, (![0, 384] : Fin 2 → Nat) a + S1024x384.size a ≤ S1024x2048.size a
  inb_S6x3_S1x1_1_0 : ∀ a, (![1, 0] : Fin 2 → Nat) a + S1x1.size a ≤ S6x3.size a
  inb_S1024x2048_S1024x384_0_768 : ∀ a, (![0, 768] : Fin 2 → Nat) a + S1024x384.size a ≤ S1024x2048.size a
  inb_S6x3_S1x1_2_0 : ∀ a, (![2, 0] : Fin 2 → Nat) a + S1x1.size a ≤ S6x3.size a
  inb_S1024x2048_S1024x384_0_1152 : ∀ a, (![0, 1152] : Fin 2 → Nat) a + S1024x384.size a ≤ S1024x2048.size a
  inb_S6x3_S1x1_3_0 : ∀ a, (![3, 0] : Fin 2 → Nat) a + S1x1.size a ≤ S6x3.size a
  inb_S1024x2048_S1024x256_0_1536 : ∀ a, (![0, 1536] : Fin 2 → Nat) a + S1024x256.size a ≤ S1024x2048.size a
  h_S1024x256 : 0 < S1024x256.numel
  shapeCasts_S1024x256_S1024x256 : S1024x256.ShapeCasts S1024x256
  inb_S1024x256_S1024x256_0_0 : ∀ a, (![0, 0] : Fin 2 → Nat) a + S1024x256.size a ≤ S1024x256.size a
  packedbf16_S1024x256_S1024x256_0_0 : (Rect.unit (s := S1024x256) ![0, 0] S1024x256.size inb_S1024x256_S1024x256_0_0).PackedRows (EltTy.packing .bf16)
  inb_S6x3_S1x1_4_0 : ∀ a, (![4, 0] : Fin 2 → Nat) a + S1x1.size a ≤ S6x3.size a
  inb_S1792x256_S1024x256_0_0 : ∀ a, (![0, 0] : Fin 2 → Nat) a + S1024x256.size a ≤ S1792x256.size a
  wordsbf16_S1024x256_S1024x256_0_0 : (Rect.unit (s := S1024x256) ![0, 0] S1024x256.size inb_S1024x256_S1024x256_0_0).WholeWords (EltTy.packing .bf16)
  wordsbf16_S1792x256_S1024x256_0_0 : (Rect.unit (s := S1792x256) ![0, 0] S1024x256.size inb_S1792x256_S1024x256_0_0).WholeWords (EltTy.packing .bf16)
  inb_S1024x2048_S1024x256_0_1792 : ∀ a, (![0, 1792] : Fin 2 → Nat) a + S1024x256.size a ≤ S1024x2048.size a
  inb_S6x3_S1x1_5_0 : ∀ a, (![5, 0] : Fin 2 → Nat) a + S1x1.size a ≤ S6x3.size a
  h_S512x384 : 0 < S512x384.numel
  shapeCasts_S512x384_S512x384 : S512x384.ShapeCasts S512x384
  inb_S1024x384_S512x384_0_0 : ∀ a, (![0, 0] : Fin 2 → Nat) a + S512x384.size a ≤ S1024x384.size a
  packedbf16_S1024x384_S512x384_0_0 : (Rect.unit (s := S1024x384) ![0, 0] S512x384.size inb_S1024x384_S512x384_0_0).PackedRows (EltTy.packing .bf16)
  inb_S6x3_S1x1_0_1 : ∀ a, (![0, 1] : Fin 2 → Nat) a + S1x1.size a ≤ S6x3.size a
  inb_S1792x384_S512x384_1024_0 : ∀ a, (![1024, 0] : Fin 2 → Nat) a + S512x384.size a ≤ S1792x384.size a
  wordsbf16_S1024x384_S512x384_0_0 : (Rect.unit (s := S1024x384) ![0, 0] S512x384.size inb_S1024x384_S512x384_0_0).WholeWords (EltTy.packing .bf16)
  wordsbf16_S1792x384_S512x384_1024_0 : (Rect.unit (s := S1792x384) ![1024, 0] S512x384.size inb_S1792x384_S512x384_1024_0).WholeWords (EltTy.packing .bf16)
  inb_S6x3_S1x1_1_1 : ∀ a, (![1, 1] : Fin 2 → Nat) a + S1x1.size a ≤ S6x3.size a
  inb_S6x3_S1x1_2_1 : ∀ a, (![2, 1] : Fin 2 → Nat) a + S1x1.size a ≤ S6x3.size a
  inb_S6x3_S1x1_3_1 : ∀ a, (![3, 1] : Fin 2 → Nat) a + S1x1.size a ≤ S6x3.size a
  h_S512x256 : 0 < S512x256.numel
  shapeCasts_S512x256_S512x256 : S512x256.ShapeCasts S512x256
  inb_S1024x256_S512x256_0_0 : ∀ a, (![0, 0] : Fin 2 → Nat) a + S512x256.size a ≤ S1024x256.size a
  packedbf16_S1024x256_S512x256_0_0 : (Rect.unit (s := S1024x256) ![0, 0] S512x256.size inb_S1024x256_S512x256_0_0).PackedRows (EltTy.packing .bf16)
  inb_S6x3_S1x1_4_1 : ∀ a, (![4, 1] : Fin 2 → Nat) a + S1x1.size a ≤ S6x3.size a
  inb_S1792x256_S512x256_1024_0 : ∀ a, (![1024, 0] : Fin 2 → Nat) a + S512x256.size a ≤ S1792x256.size a
  wordsbf16_S1024x256_S512x256_0_0 : (Rect.unit (s := S1024x256) ![0, 0] S512x256.size inb_S1024x256_S512x256_0_0).WholeWords (EltTy.packing .bf16)
  wordsbf16_S1792x256_S512x256_1024_0 : (Rect.unit (s := S1792x256) ![1024, 0] S512x256.size inb_S1792x256_S512x256_1024_0).WholeWords (EltTy.packing .bf16)
  inb_S6x3_S1x1_5_1 : ∀ a, (![5, 1] : Fin 2 → Nat) a + S1x1.size a ≤ S6x3.size a
  h_S256x384 : 0 < S256x384.numel
  shapeCasts_S256x384_S256x384 : S256x384.ShapeCasts S256x384
  inb_S1024x384_S256x384_0_0 : ∀ a, (![0, 0] : Fin 2 → Nat) a + S256x384.size a ≤ S1024x384.size a
  packedbf16_S1024x384_S256x384_0_0 : (Rect.unit (s := S1024x384) ![0, 0] S256x384.size inb_S1024x384_S256x384_0_0).PackedRows (EltTy.packing .bf16)
  inb_S6x3_S1x1_0_2 : ∀ a, (![0, 2] : Fin 2 → Nat) a + S1x1.size a ≤ S6x3.size a
  inb_S1792x384_S256x384_1536_0 : ∀ a, (![1536, 0] : Fin 2 → Nat) a + S256x384.size a ≤ S1792x384.size a
  wordsbf16_S1024x384_S256x384_0_0 : (Rect.unit (s := S1024x384) ![0, 0] S256x384.size inb_S1024x384_S256x384_0_0).WholeWords (EltTy.packing .bf16)
  wordsbf16_S1792x384_S256x384_1536_0 : (Rect.unit (s := S1792x384) ![1536, 0] S256x384.size inb_S1792x384_S256x384_1536_0).WholeWords (EltTy.packing .bf16)
  inb_S6x3_S1x1_1_2 : ∀ a, (![1, 2] : Fin 2 → Nat) a + S1x1.size a ≤ S6x3.size a
  inb_S6x3_S1x1_2_2 : ∀ a, (![2, 2] : Fin 2 → Nat) a + S1x1.size a ≤ S6x3.size a
  inb_S6x3_S1x1_3_2 : ∀ a, (![3, 2] : Fin 2 → Nat) a + S1x1.size a ≤ S6x3.size a
  h_S256x256 : 0 < S256x256.numel
  shapeCasts_S256x256_S256x256 : S256x256.ShapeCasts S256x256
  inb_S1024x256_S256x256_0_0 : ∀ a, (![0, 0] : Fin 2 → Nat) a + S256x256.size a ≤ S1024x256.size a
  packedbf16_S1024x256_S256x256_0_0 : (Rect.unit (s := S1024x256) ![0, 0] S256x256.size inb_S1024x256_S256x256_0_0).PackedRows (EltTy.packing .bf16)
  inb_S6x3_S1x1_4_2 : ∀ a, (![4, 2] : Fin 2 → Nat) a + S1x1.size a ≤ S6x3.size a
  inb_S1792x256_S256x256_1536_0 : ∀ a, (![1536, 0] : Fin 2 → Nat) a + S256x256.size a ≤ S1792x256.size a
  wordsbf16_S1024x256_S256x256_0_0 : (Rect.unit (s := S1024x256) ![0, 0] S256x256.size inb_S1024x256_S256x256_0_0).WholeWords (EltTy.packing .bf16)
  wordsbf16_S1792x256_S256x256_1536_0 : (Rect.unit (s := S1792x256) ![1536, 0] S256x256.size inb_S1792x256_S256x256_1536_0).WholeWords (EltTy.packing .bf16)
  inb_S6x3_S1x1_5_2 : ∀ a, (![5, 2] : Fin 2 → Nat) a + S1x1.size a ≤ S6x3.size a
  inb_S24_S1_0 : ∀ a, (![0] : Fin 1 → Nat) a + S1.size a ≤ S24.size a
  squeezes_S1_S_ : S1.Squeezes S_
  inb_S24_S1_1 : ∀ a, (![1] : Fin 1 → Nat) a + S1.size a ≤ S24.size a
  inb_S24_S1_2 : ∀ a, (![2] : Fin 1 → Nat) a + S1.size a ≤ S24.size a
  inb_S24_S1_3 : ∀ a, (![3] : Fin 1 → Nat) a + S1.size a ≤ S24.size a
  inb_S24_S1_4 : ∀ a, (![4] : Fin 1 → Nat) a + S1.size a ≤ S24.size a
  inb_S24_S1_5 : ∀ a, (![5] : Fin 1 → Nat) a + S1.size a ≤ S24.size a
  inb_S24_S1_6 : ∀ a, (![6] : Fin 1 → Nat) a + S1.size a ≤ S24.size a
  inb_S24_S1_7 : ∀ a, (![7] : Fin 1 → Nat) a + S1.size a ≤ S24.size a
  inb_S24_S1_8 : ∀ a, (![8] : Fin 1 → Nat) a + S1.size a ≤ S24.size a
  inb_S24_S1_9 : ∀ a, (![9] : Fin 1 → Nat) a + S1.size a ≤ S24.size a
  inb_S24_S1_10 : ∀ a, (![10] : Fin 1 → Nat) a + S1.size a ≤ S24.size a
  inb_S24_S1_11 : ∀ a, (![11] : Fin 1 → Nat) a + S1.size a ≤ S24.size a
  inb_S24_S1_12 : ∀ a, (![12] : Fin 1 → Nat) a + S1.size a ≤ S24.size a
  inb_S24_S1_13 : ∀ a, (![13] : Fin 1 → Nat) a + S1.size a ≤ S24.size a
  inb_S24_S1_14 : ∀ a, (![14] : Fin 1 → Nat) a + S1.size a ≤ S24.size a
  inb_S24_S1_15 : ∀ a, (![15] : Fin 1 → Nat) a + S1.size a ≤ S24.size a
  inb_S24_S1_16 : ∀ a, (![16] : Fin 1 → Nat) a + S1.size a ≤ S24.size a
  inb_S24_S1_17 : ∀ a, (![17] : Fin 1 → Nat) a + S1.size a ≤ S24.size a
  inb_S24_S1_18 : ∀ a, (![18] : Fin 1 → Nat) a + S1.size a ≤ S24.size a
  inb_S24_S1_19 : ∀ a, (![19] : Fin 1 → Nat) a + S1.size a ≤ S24.size a
  inb_S24_S1_20 : ∀ a, (![20] : Fin 1 → Nat) a + S1.size a ≤ S24.size a
  inb_S24_S1_21 : ∀ a, (![21] : Fin 1 → Nat) a + S1.size a ≤ S24.size a
  inb_S24_S1_22 : ∀ a, (![22] : Fin 1 → Nat) a + S1.size a ≤ S24.size a
  inb_S24_S1_23 : ∀ a, (![23] : Fin 1 → Nat) a + S1.size a ≤ S24.size a
  dot_S1024x1024_S1024x384_S1024x384_1_0_0_1_n_n_wf : DotDims.WF S1024x1024 S1024x384 S1024x384 [1] [0] [0] [1] [] []
  dot_S1024x1024_S1024x256_S1024x256_1_0_0_1_n_n_wf : DotDims.WF S1024x1024 S1024x256 S1024x256 [1] [0] [0] [1] [] []
  hcc0_scratch19 : 2 + S6x3.numel ≤ 98
  hcc0_scratch20 : 20 + S6x3.numel ≤ 98
  hcc0_scratch21 : 38 + S6x3.numel ≤ 98
  hcc0_scratch22 : 56 + S6x3.numel ≤ 98
  hcc0_scratch23 : 74 + S24.numel ≤ 98
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_off1_inb : ∀ d0 : Dev nD, ∀ a, (k0_off1 d0) a + S1024x1024.size a ≤ S2048x1024.size a
  k0_dev4_lt : ∀ d0 : Dev nD, (k0_dev4 d0) < nD
  k0_off2_inb : ∀ d0 : Dev nD, ∀ a, (k0_off2 d0) a + S1024x1024.size a ≤ S2048x1024.size a
  k0_dev5_lt : ∀ d0 : Dev nD, (k0_dev5 d0) < nD
  k0_off3_inb : ∀ d0 : Dev nD, ∀ a, (k0_off3 d0) a + S1024x1024.size a ≤ S2048x1024.size a
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_off4_inb : ∀ d0 : Dev nD, ∀ a, (k0_off4 d0) a + S1024x1024.size a ≤ S2048x1024.size a
  k0_off5_inb : ∀ d0 : Dev nD, ∀ a, (k0_off5 d0) a + S1024x384.size a ≤ S2048x2048.size a
  k0_off6_inb : ∀ d0 : Dev nD, ∀ a, (k0_off6 d0) a + S1024x1024.size a ≤ S2048x1024.size a
  k0_off7_inb : ∀ d0 : Dev nD, ∀ a, (k0_off7 d0) a + S1024x384.size a ≤ S2048x2048.size a
  k0_off8_inb : ∀ d0 : Dev nD, ∀ a, (k0_off8 d0) a + S1024x1024.size a ≤ S2048x1024.size a
  k0_off9_inb : ∀ d0 : Dev nD, ∀ a, (k0_off9 d0) a + S1024x384.size a ≤ S2048x2048.size a
  k0_off10_inb : ∀ d0 : Dev nD, ∀ a, (k0_off10 d0) a + S1024x384.size a ≤ S2048x2048.size a
  k0_off11_inb : ∀ d0 : Dev nD, ∀ a, (k0_off11 d0) a + S1024x256.size a ≤ S2048x2048.size a
  k0_off12_inb : ∀ d0 : Dev nD, ∀ a, (k0_off12 d0) a + S1024x256.size a ≤ S2048x2048.size a
  k0_off13_inb : ∀ d0 : Dev nD, ∀ a, (k0_off13 d0) a + S512x384.size a ≤ S2048x2048.size a
  k0_off14_inb : ∀ d0 : Dev nD, ∀ a, (k0_off14 d0) a + S512x384.size a ≤ S1792x384.size a
  k0_dev10_lt : ∀ d0 : Dev nD, (k0_dev10 d0) < nD
  k0_off15_inb : ∀ d0 : Dev nD, ∀ a, (k0_off15 d0) a + S512x384.size a ≤ S2048x2048.size a
  k0_off16_inb : ∀ d0 : Dev nD, ∀ a, (k0_off16 d0) a + S512x384.size a ≤ S1792x384.size a
  k0_off17_inb : ∀ d0 : Dev nD, ∀ a, (k0_off17 d0) a + S512x384.size a ≤ S2048x2048.size a
  k0_off18_inb : ∀ d0 : Dev nD, ∀ a, (k0_off18 d0) a + S512x384.size a ≤ S1792x384.size a
  k0_dev11_lt : ∀ d0 : Dev nD, (k0_dev11 d0) < nD
  k0_off19_inb : ∀ d0 : Dev nD, ∀ a, (k0_off19 d0) a + S512x384.size a ≤ S2048x2048.size a
  k0_off20_inb : ∀ d0 : Dev nD, ∀ a, (k0_off20 d0) a + S512x384.size a ≤ S1792x384.size a
  k0_off21_inb : ∀ d0 : Dev nD, ∀ a, (k0_off21 d0) a + S512x384.size a ≤ S2048x2048.size a
  k0_off22_inb : ∀ d0 : Dev nD, ∀ a, (k0_off22 d0) a + S512x384.size a ≤ S1792x384.size a
  k0_dev12_lt : ∀ d0 : Dev nD, (k0_dev12 d0) < nD
  k0_off23_inb : ∀ d0 : Dev nD, ∀ a, (k0_off23 d0) a + S512x384.size a ≤ S2048x2048.size a
  k0_off24_inb : ∀ d0 : Dev nD, ∀ a, (k0_off24 d0) a + S512x384.size a ≤ S1792x384.size a
  k0_off25_inb : ∀ d0 : Dev nD, ∀ a, (k0_off25 d0) a + S512x384.size a ≤ S2048x2048.size a
  k0_dev13_lt : ∀ d0 : Dev nD, (k0_dev13 d0) < nD
  k0_off26_inb : ∀ d0 : Dev nD, ∀ a, (k0_off26 d0) a + S512x384.size a ≤ S2048x2048.size a
  k0_off27_inb : ∀ d0 : Dev nD, ∀ a, (k0_off27 d0) a + S512x256.size a ≤ S2048x2048.size a
  k0_off28_inb : ∀ d0 : Dev nD, ∀ a, (k0_off28 d0) a + S512x256.size a ≤ S1792x256.size a
  k0_dev14_lt : ∀ d0 : Dev nD, (k0_dev14 d0) < nD
  k0_off29_inb : ∀ d0 : Dev nD, ∀ a, (k0_off29 d0) a + S512x256.size a ≤ S2048x2048.size a
  k0_off30_inb : ∀ d0 : Dev nD, ∀ a, (k0_off30 d0) a + S512x256.size a ≤ S1792x256.size a
  k0_off31_inb : ∀ d0 : Dev nD, ∀ a, (k0_off31 d0) a + S512x256.size a ≤ S2048x2048.size a
  k0_off32_inb : ∀ d0 : Dev nD, ∀ a, (k0_off32 d0) a + S512x256.size a ≤ S1792x256.size a
  k0_dev15_lt : ∀ d0 : Dev nD, (k0_dev15 d0) < nD
  k0_off33_inb : ∀ d0 : Dev nD, ∀ a, (k0_off33 d0) a + S512x256.size a ≤ S2048x2048.size a
  k0_off34_inb : ∀ d0 : Dev nD, ∀ a, (k0_off34 d0) a + S512x256.size a ≤ S1792x256.size a
  k0_off35_inb : ∀ d0 : Dev nD, ∀ a, (k0_off35 d0) a + S256x384.size a ≤ S2048x2048.size a
  k0_off36_inb : ∀ d0 : Dev nD, ∀ a, (k0_off36 d0) a + S256x384.size a ≤ S1792x384.size a
  k0_dev16_lt : ∀ d0 : Dev nD, (k0_dev16 d0) < nD
  k0_off37_inb : ∀ d0 : Dev nD, ∀ a, (k0_off37 d0) a + S256x384.size a ≤ S2048x2048.size a
  k0_off38_inb : ∀ d0 : Dev nD, ∀ a, (k0_off38 d0) a + S256x384.size a ≤ S1792x384.size a
  k0_off39_inb : ∀ d0 : Dev nD, ∀ a, (k0_off39 d0) a + S256x384.size a ≤ S2048x2048.size a
  k0_off40_inb : ∀ d0 : Dev nD, ∀ a, (k0_off40 d0) a + S256x384.size a ≤ S1792x384.size a
  k0_dev17_lt : ∀ d0 : Dev nD, (k0_dev17 d0) < nD
  k0_off41_inb : ∀ d0 : Dev nD, ∀ a, (k0_off41 d0) a + S256x384.size a ≤ S2048x2048.size a
  k0_off42_inb : ∀ d0 : Dev nD, ∀ a, (k0_off42 d0) a + S256x384.size a ≤ S1792x384.size a
  k0_off43_inb : ∀ d0 : Dev nD, ∀ a, (k0_off43 d0) a + S256x384.size a ≤ S2048x2048.size a
  k0_off44_inb : ∀ d0 : Dev nD, ∀ a, (k0_off44 d0) a + S256x384.size a ≤ S1792x384.size a
  k0_dev18_lt : ∀ d0 : Dev nD, (k0_dev18 d0) < nD
  k0_off45_inb : ∀ d0 : Dev nD, ∀ a, (k0_off45 d0) a + S256x384.size a ≤ S2048x2048.size a
  k0_off46_inb : ∀ d0 : Dev nD, ∀ a, (k0_off46 d0) a + S256x384.size a ≤ S1792x384.size a
  k0_off47_inb : ∀ d0 : Dev nD, ∀ a, (k0_off47 d0) a + S256x384.size a ≤ S2048x2048.size a
  k0_dev19_lt : ∀ d0 : Dev nD, (k0_dev19 d0) < nD
  k0_off48_inb : ∀ d0 : Dev nD, ∀ a, (k0_off48 d0) a + S256x384.size a ≤ S2048x2048.size a
  k0_off49_inb : ∀ d0 : Dev nD, ∀ a, (k0_off49 d0) a + S256x256.size a ≤ S2048x2048.size a
  k0_off50_inb : ∀ d0 : Dev nD, ∀ a, (k0_off50 d0) a + S256x256.size a ≤ S1792x256.size a
  k0_dev20_lt : ∀ d0 : Dev nD, (k0_dev20 d0) < nD
  k0_off51_inb : ∀ d0 : Dev nD, ∀ a, (k0_off51 d0) a + S256x256.size a ≤ S2048x2048.size a
  k0_off52_inb : ∀ d0 : Dev nD, ∀ a, (k0_off52 d0) a + S256x256.size a ≤ S1792x256.size a
  k0_off53_inb : ∀ d0 : Dev nD, ∀ a, (k0_off53 d0) a + S256x256.size a ≤ S2048x2048.size a
  k0_off54_inb : ∀ d0 : Dev nD, ∀ a, (k0_off54 d0) a + S256x256.size a ≤ S1792x256.size a
  k0_dev21_lt : ∀ d0 : Dev nD, (k0_dev21 d0) < nD
  k0_off55_inb : ∀ d0 : Dev nD, ∀ a, (k0_off55 d0) a + S256x256.size a ≤ S2048x2048.size a
  k0_off56_inb : ∀ d0 : Dev nD, ∀ a, (k0_off56 d0) a + S256x256.size a ≤ S1792x256.size a
  k0_off57_inb : ∀ d0 : Dev nD, ∀ a, (k0_off57 d0) a + S256x384.size a ≤ S1792x384.size a
  k0_off58_inb : ∀ d0 : Dev nD, ∀ a, (k0_off58 d0) a + S256x384.size a ≤ S2048x384.size a
  k0_off58_packedbf16 : ∀ d0 : Dev nD, (Rect.unit (s := S2048x384) (k0_off58 d0) S256x384.size (k0_off58_inb d0)).PackedRows (EltTy.packing .bf16)
  k0_off59_inb : ∀ d0 : Dev nD, ∀ a, (k0_off59 d0) a + S256x384.size a ≤ S2048x2048.size a
  k0_off60_inb : ∀ d0 : Dev nD, ∀ a, (k0_off60 d0) a + S256x384.size a ≤ S1792x384.size a
  k0_off61_inb : ∀ d0 : Dev nD, ∀ a, (k0_off61 d0) a + S256x384.size a ≤ S2048x384.size a
  k0_off61_packedbf16 : ∀ d0 : Dev nD, (Rect.unit (s := S2048x384) (k0_off61 d0) S256x384.size (k0_off61_inb d0)).PackedRows (EltTy.packing .bf16)
  k0_off62_inb : ∀ d0 : Dev nD, ∀ a, (k0_off62 d0) a + S256x384.size a ≤ S2048x2048.size a
  k0_off63_inb : ∀ d0 : Dev nD, ∀ a, (k0_off63 d0) a + S256x384.size a ≤ S1792x384.size a
  k0_off64_inb : ∀ d0 : Dev nD, ∀ a, (k0_off64 d0) a + S256x384.size a ≤ S2048x384.size a
  k0_off64_packedbf16 : ∀ d0 : Dev nD, (Rect.unit (s := S2048x384) (k0_off64 d0) S256x384.size (k0_off64_inb d0)).PackedRows (EltTy.packing .bf16)
  k0_off65_inb : ∀ d0 : Dev nD, ∀ a, (k0_off65 d0) a + S256x384.size a ≤ S2048x2048.size a
  k0_off66_inb : ∀ d0 : Dev nD, ∀ a, (k0_off66 d0) a + S256x384.size a ≤ S2048x2048.size a
  k0_off67_inb : ∀ d0 : Dev nD, ∀ a, (k0_off67 d0) a + S256x256.size a ≤ S1792x256.size a
  k0_off68_inb : ∀ d0 : Dev nD, ∀ a, (k0_off68 d0) a + S256x256.size a ≤ S2048x256.size a
  k0_off68_packedbf16 : ∀ d0 : Dev nD, (Rect.unit (s := S2048x256) (k0_off68 d0) S256x256.size (k0_off68_inb d0)).PackedRows (EltTy.packing .bf16)
  k0_off69_inb : ∀ d0 : Dev nD, ∀ a, (k0_off69 d0) a + S256x256.size a ≤ S2048x2048.size a
  k0_off70_inb : ∀ d0 : Dev nD, ∀ a, (k0_off70 d0) a + S256x256.size a ≤ S1792x256.size a
  k0_off71_inb : ∀ d0 : Dev nD, ∀ a, (k0_off71 d0) a + S256x256.size a ≤ S2048x256.size a
  k0_off71_packedbf16 : ∀ d0 : Dev nD, (Rect.unit (s := S2048x256) (k0_off71 d0) S256x256.size (k0_off71_inb d0)).PackedRows (EltTy.packing .bf16)
  k0_off72_inb : ∀ d0 : Dev nD, ∀ a, (k0_off72 d0) a + S256x256.size a ≤ S2048x2048.size a
  k0_off73_inb : ∀ d0 : Dev nD, ∀ a, (k0_off73 d0) a + S256x384.size a ≤ S2048x384.size a
  k0_off73_wordsbf16 : ∀ d0 : Dev nD, (Rect.unit (s := S2048x384) (k0_off73 d0) S256x384.size (k0_off73_inb d0)).WholeWords (EltTy.packing .bf16)
  k0_dev22_lt : ∀ d0 : Dev nD, (k0_dev22 d0) < nD
  k0_off74_inb : ∀ d0 : Dev nD, ∀ a, (k0_off74 d0) a + S256x384.size a ≤ S2048x384.size a
  k0_off74_wordsbf16 : ∀ d0 : Dev nD, (Rect.unit (s := S2048x384) (k0_off74 d0) S256x384.size (k0_off74_inb d0)).WholeWords (EltTy.packing .bf16)
  k0_dev23_lt : ∀ d0 : Dev nD, (k0_dev23 d0) < nD
  k0_off75_inb : ∀ d0 : Dev nD, ∀ a, (k0_off75 d0) a + S256x384.size a ≤ S2048x384.size a
  k0_off75_wordsbf16 : ∀ d0 : Dev nD, (Rect.unit (s := S2048x384) (k0_off75 d0) S256x384.size (k0_off75_inb d0)).WholeWords (EltTy.packing .bf16)
  k0_dev24_lt : ∀ d0 : Dev nD, (k0_dev24 d0) < nD
  k0_dev25_lt : ∀ d0 : Dev nD, (k0_dev25 d0) < nD
  k0_off76_inb : ∀ d0 : Dev nD, ∀ a, (k0_off76 d0) a + S256x256.size a ≤ S2048x256.size a
  k0_off76_wordsbf16 : ∀ d0 : Dev nD, (Rect.unit (s := S2048x256) (k0_off76 d0) S256x256.size (k0_off76_inb d0)).WholeWords (EltTy.packing .bf16)
  k0_dev26_lt : ∀ d0 : Dev nD, (k0_dev26 d0) < nD
  k0_off77_inb : ∀ d0 : Dev nD, ∀ a, (k0_off77 d0) a + S256x256.size a ≤ S2048x256.size a
  k0_off77_wordsbf16 : ∀ d0 : Dev nD, (Rect.unit (s := S2048x256) (k0_off77 d0) S256x256.size (k0_off77_inb d0)).WholeWords (EltTy.packing .bf16)
  k0_dev27_lt : ∀ d0 : Dev nD, (k0_dev27 d0) < nD
  k0_off78_inb : ∀ d0 : Dev nD, ∀ a, (k0_off78 d0) a + S512x384.size a ≤ S2048x384.size a
  k0_off78_wordsbf16 : ∀ d0 : Dev nD, (Rect.unit (s := S2048x384) (k0_off78 d0) S512x384.size (k0_off78_inb d0)).WholeWords (EltTy.packing .bf16)
  k0_dev28_lt : ∀ d0 : Dev nD, (k0_dev28 d0) < nD
  k0_off79_inb : ∀ d0 : Dev nD, ∀ a, (k0_off79 d0) a + S256x384.size a ≤ S2048x384.size a
  k0_off80_inb : ∀ d0 : Dev nD, ∀ a, (k0_off80 d0) a + S256x384.size a ≤ S2048x2048.size a
  k0_off81_inb : ∀ d0 : Dev nD, ∀ a, (k0_off81 d0) a + S256x384.size a ≤ S2048x2048.size a
  k0_off82_inb : ∀ d0 : Dev nD, ∀ a, (k0_off82 d0) a + S512x384.size a ≤ S2048x384.size a
  k0_off82_wordsbf16 : ∀ d0 : Dev nD, (Rect.unit (s := S2048x384) (k0_off82 d0) S512x384.size (k0_off82_inb d0)).WholeWords (EltTy.packing .bf16)
  k0_dev29_lt : ∀ d0 : Dev nD, (k0_dev29 d0) < nD
  k0_off83_inb : ∀ d0 : Dev nD, ∀ a, (k0_off83 d0) a + S256x384.size a ≤ S2048x384.size a
  k0_off84_inb : ∀ d0 : Dev nD, ∀ a, (k0_off84 d0) a + S256x384.size a ≤ S2048x2048.size a
  k0_off85_inb : ∀ d0 : Dev nD, ∀ a, (k0_off85 d0) a + S256x384.size a ≤ S2048x2048.size a
  k0_off86_inb : ∀ d0 : Dev nD, ∀ a, (k0_off86 d0) a + S512x384.size a ≤ S2048x384.size a
  k0_off86_wordsbf16 : ∀ d0 : Dev nD, (Rect.unit (s := S2048x384) (k0_off86 d0) S512x384.size (k0_off86_inb d0)).WholeWords (EltTy.packing .bf16)
  k0_dev30_lt : ∀ d0 : Dev nD, (k0_dev30 d0) < nD
  k0_off87_inb : ∀ d0 : Dev nD, ∀ a, (k0_off87 d0) a + S256x384.size a ≤ S2048x384.size a
  k0_off88_inb : ∀ d0 : Dev nD, ∀ a, (k0_off88 d0) a + S256x384.size a ≤ S2048x2048.size a
  k0_off89_inb : ∀ d0 : Dev nD, ∀ a, (k0_off89 d0) a + S256x384.size a ≤ S2048x2048.size a
  k0_dev31_lt : ∀ d0 : Dev nD, (k0_dev31 d0) < nD
  k0_off90_inb : ∀ d0 : Dev nD, ∀ a, (k0_off90 d0) a + S256x384.size a ≤ S2048x2048.size a
  k0_off91_inb : ∀ d0 : Dev nD, ∀ a, (k0_off91 d0) a + S256x384.size a ≤ S2048x2048.size a
  k0_off92_inb : ∀ d0 : Dev nD, ∀ a, (k0_off92 d0) a + S512x256.size a ≤ S2048x256.size a
  k0_off92_wordsbf16 : ∀ d0 : Dev nD, (Rect.unit (s := S2048x256) (k0_off92 d0) S512x256.size (k0_off92_inb d0)).WholeWords (EltTy.packing .bf16)
  k0_dev32_lt : ∀ d0 : Dev nD, (k0_dev32 d0) < nD
  k0_off93_inb : ∀ d0 : Dev nD, ∀ a, (k0_off93 d0) a + S256x256.size a ≤ S2048x256.size a
  k0_off94_inb : ∀ d0 : Dev nD, ∀ a, (k0_off94 d0) a + S256x256.size a ≤ S2048x2048.size a
  k0_off95_inb : ∀ d0 : Dev nD, ∀ a, (k0_off95 d0) a + S256x256.size a ≤ S2048x2048.size a
  k0_off96_inb : ∀ d0 : Dev nD, ∀ a, (k0_off96 d0) a + S512x256.size a ≤ S2048x256.size a
  k0_off96_wordsbf16 : ∀ d0 : Dev nD, (Rect.unit (s := S2048x256) (k0_off96 d0) S512x256.size (k0_off96_inb d0)).WholeWords (EltTy.packing .bf16)
  k0_dev33_lt : ∀ d0 : Dev nD, (k0_dev33 d0) < nD
  k0_off97_inb : ∀ d0 : Dev nD, ∀ a, (k0_off97 d0) a + S256x256.size a ≤ S2048x256.size a
  k0_off98_inb : ∀ d0 : Dev nD, ∀ a, (k0_off98 d0) a + S256x256.size a ≤ S2048x2048.size a
  k0_off99_inb : ∀ d0 : Dev nD, ∀ a, (k0_off99 d0) a + S256x256.size a ≤ S2048x2048.size a
  k0_off100_inb : ∀ d0 : Dev nD, ∀ a, (k0_off100 d0) a + S1024x384.size a ≤ S2048x384.size a
  k0_off100_wordsbf16 : ∀ d0 : Dev nD, (Rect.unit (s := S2048x384) (k0_off100 d0) S1024x384.size (k0_off100_inb d0)).WholeWords (EltTy.packing .bf16)
  k0_dev34_lt : ∀ d0 : Dev nD, (k0_dev34 d0) < nD
  k0_off101_inb : ∀ d0 : Dev nD, ∀ a, (k0_off101 d0) a + S512x384.size a ≤ S2048x384.size a
  k0_off102_inb : ∀ d0 : Dev nD, ∀ a, (k0_off102 d0) a + S512x384.size a ≤ S2048x2048.size a
  k0_off103_inb : ∀ d0 : Dev nD, ∀ a, (k0_off103 d0) a + S512x384.size a ≤ S2048x2048.size a
  k0_off104_inb : ∀ d0 : Dev nD, ∀ a, (k0_off104 d0) a + S1024x384.size a ≤ S2048x384.size a
  k0_off104_wordsbf16 : ∀ d0 : Dev nD, (Rect.unit (s := S2048x384) (k0_off104 d0) S1024x384.size (k0_off104_inb d0)).WholeWords (EltTy.packing .bf16)
  k0_dev35_lt : ∀ d0 : Dev nD, (k0_dev35 d0) < nD
  k0_off105_inb : ∀ d0 : Dev nD, ∀ a, (k0_off105 d0) a + S512x384.size a ≤ S2048x384.size a
  k0_off106_inb : ∀ d0 : Dev nD, ∀ a, (k0_off106 d0) a + S512x384.size a ≤ S2048x2048.size a
  k0_off107_inb : ∀ d0 : Dev nD, ∀ a, (k0_off107 d0) a + S512x384.size a ≤ S2048x2048.size a
  k0_off108_inb : ∀ d0 : Dev nD, ∀ a, (k0_off108 d0) a + S1024x384.size a ≤ S2048x384.size a
  k0_off108_wordsbf16 : ∀ d0 : Dev nD, (Rect.unit (s := S2048x384) (k0_off108 d0) S1024x384.size (k0_off108_inb d0)).WholeWords (EltTy.packing .bf16)
  k0_dev36_lt : ∀ d0 : Dev nD, (k0_dev36 d0) < nD
  k0_off109_inb : ∀ d0 : Dev nD, ∀ a, (k0_off109 d0) a + S512x384.size a ≤ S2048x384.size a
  k0_off110_inb : ∀ d0 : Dev nD, ∀ a, (k0_off110 d0) a + S512x384.size a ≤ S2048x2048.size a
  k0_off111_inb : ∀ d0 : Dev nD, ∀ a, (k0_off111 d0) a + S512x384.size a ≤ S2048x2048.size a
  k0_dev37_lt : ∀ d0 : Dev nD, (k0_dev37 d0) < nD
  k0_off112_inb : ∀ d0 : Dev nD, ∀ a, (k0_off112 d0) a + S512x384.size a ≤ S2048x2048.size a
  k0_off113_inb : ∀ d0 : Dev nD, ∀ a, (k0_off113 d0) a + S512x384.size a ≤ S2048x2048.size a
  k0_off114_inb : ∀ d0 : Dev nD, ∀ a, (k0_off114 d0) a + S1024x256.size a ≤ S2048x256.size a
  k0_off114_wordsbf16 : ∀ d0 : Dev nD, (Rect.unit (s := S2048x256) (k0_off114 d0) S1024x256.size (k0_off114_inb d0)).WholeWords (EltTy.packing .bf16)
  k0_dev38_lt : ∀ d0 : Dev nD, (k0_dev38 d0) < nD
  k0_off115_inb : ∀ d0 : Dev nD, ∀ a, (k0_off115 d0) a + S512x256.size a ≤ S2048x256.size a
  k0_off116_inb : ∀ d0 : Dev nD, ∀ a, (k0_off116 d0) a + S512x256.size a ≤ S2048x2048.size a
  k0_off117_inb : ∀ d0 : Dev nD, ∀ a, (k0_off117 d0) a + S512x256.size a ≤ S2048x2048.size a
  k0_off118_inb : ∀ d0 : Dev nD, ∀ a, (k0_off118 d0) a + S1024x256.size a ≤ S2048x256.size a
  k0_off118_wordsbf16 : ∀ d0 : Dev nD, (Rect.unit (s := S2048x256) (k0_off118 d0) S1024x256.size (k0_off118_inb d0)).WholeWords (EltTy.packing .bf16)
  k0_dev39_lt : ∀ d0 : Dev nD, (k0_dev39 d0) < nD
  k0_off119_inb : ∀ d0 : Dev nD, ∀ a, (k0_off119 d0) a + S512x256.size a ≤ S2048x256.size a
  k0_off120_inb : ∀ d0 : Dev nD, ∀ a, (k0_off120 d0) a + S512x256.size a ≤ S2048x2048.size a
  k0_off121_inb : ∀ d0 : Dev nD, ∀ a, (k0_off121 d0) a + S512x256.size a ≤ S2048x2048.size a
  k0_off122_inb : ∀ d0 : Dev nD, ∀ a, (k0_off122 d0) a + S1024x384.size a ≤ S2048x384.size a
  k0_off123_inb : ∀ d0 : Dev nD, ∀ a, (k0_off123 d0) a + S1024x384.size a ≤ S2048x2048.size a
  k0_off124_inb : ∀ d0 : Dev nD, ∀ a, (k0_off124 d0) a + S1024x384.size a ≤ S2048x2048.size a
  k0_off125_inb : ∀ d0 : Dev nD, ∀ a, (k0_off125 d0) a + S1024x384.size a ≤ S2048x384.size a
  k0_off126_inb : ∀ d0 : Dev nD, ∀ a, (k0_off126 d0) a + S1024x384.size a ≤ S2048x2048.size a
  k0_off127_inb : ∀ d0 : Dev nD, ∀ a, (k0_off127 d0) a + S1024x384.size a ≤ S2048x2048.size a
  k0_off128_inb : ∀ d0 : Dev nD, ∀ a, (k0_off128 d0) a + S1024x384.size a ≤ S2048x384.size a
  k0_off129_inb : ∀ d0 : Dev nD, ∀ a, (k0_off129 d0) a + S1024x384.size a ≤ S2048x2048.size a
  k0_off130_inb : ∀ d0 : Dev nD, ∀ a, (k0_off130 d0) a + S1024x384.size a ≤ S2048x2048.size a
  k0_off131_inb : ∀ d0 : Dev nD, ∀ a, (k0_off131 d0) a + S1024x384.size a ≤ S2048x2048.size a
  k0_off132_inb : ∀ d0 : Dev nD, ∀ a, (k0_off132 d0) a + S1024x384.size a ≤ S2048x2048.size a
  k0_off133_inb : ∀ d0 : Dev nD, ∀ a, (k0_off133 d0) a + S1024x256.size a ≤ S2048x256.size a
  k0_off134_inb : ∀ d0 : Dev nD, ∀ a, (k0_off134 d0) a + S1024x256.size a ≤ S2048x2048.size a
  k0_off135_inb : ∀ d0 : Dev nD, ∀ a, (k0_off135 d0) a + S1024x256.size a ≤ S2048x2048.size a
  k0_off136_inb : ∀ d0 : Dev nD, ∀ a, (k0_off136 d0) a + S1024x256.size a ≤ S2048x256.size a
  k0_off137_inb : ∀ d0 : Dev nD, ∀ a, (k0_off137 d0) a + S1024x256.size a ≤ S2048x2048.size a
  k0_off138_inb : ∀ d0 : Dev nD, ∀ a, (k0_off138 d0) a + S1024x256.size a ≤ S2048x2048.size a
  hstage0_0 : ∀ j, (stage0_0 j).IsWhole
  hstage0_1 : ∀ j, (stage0_1 j).IsWhole

variable [Facts₀]

abbrev cc0_scratch19 : DmaSems sig S6x3 := SemArray.consecutive 2 S6x3 hcc0_scratch19
abbrev cc0_scratch20 : DmaSems sig S6x3 := SemArray.consecutive 20 S6x3 hcc0_scratch20
abbrev cc0_scratch21 : DmaSems sig S6x3 := SemArray.consecutive 38 S6x3 hcc0_scratch21
abbrev cc0_scratch22 : DmaSems sig S6x3 := SemArray.consecutive 56 S6x3 hcc0_scratch22
abbrev cc0_scratch23 : DmaSems sig S24 := SemArray.consecutive 74 S24 hcc0_scratch23
def dot_S1024x1024_S1024x384_S1024x384_1_0_0_1_n_n : DotDims S1024x1024 S1024x384 S1024x384 where
  lhsContracting := [1]
  rhsContracting := [0]
  lhsNonContracting := [0]
  rhsNonContracting := [1]
  lhsBatch := []
  rhsBatch := []
  wf := dot_S1024x1024_S1024x384_S1024x384_1_0_0_1_n_n_wf
def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg1) false false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S2048x8192 : Shape := ⟨2, ![2048, 8192]⟩
abbrev S8192x2048 : Shape := ⟨2, ![8192, 2048]⟩
abbrev S2048x2048 : Shape := ⟨2, ![2048, 2048]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S2048x8192, .f32⟩
  | .hbm, ⟨1, _⟩ => ⟨S8192x2048, .f32⟩
  | .hbm, ⟨2, _⟩ => ⟨S2048x2048, .f32⟩
  | .hbm, ⟨3, _⟩ => ⟨S_, .f32⟩
  | .hbm, ⟨4, _⟩ => ⟨S2048x2048, .f32⟩
  | .hbm, ⟨5, _⟩ => ⟨S2048x2048, .f32⟩
  | .hbm, ⟨6, _⟩ => ⟨S_, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S_, .f32⟩
  | .hbm, ⟨13, _⟩ => ⟨S2048x2048, .f32⟩
  | .hbm, ⟨14, _⟩ => ⟨S2048x2048, .f32⟩
  | .hbm, ⟨15, _⟩ => ⟨S2048x2048, .f32⟩
  | .hbm, ⟨16, _⟩ => ⟨S_, .f32⟩
  | .hbm, ⟨17, _⟩ => ⟨S2048x2048, .f32⟩
  | .hbm, ⟨18, _⟩ => ⟨S2048x2048, .f32⟩
  | .hbm, ⟨19, _⟩ => ⟨S2048x2048, .f32⟩
  | _, _ => ⟨S2048x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]

class Facts₀ : Prop where
  bcast_S_S2048x2048 : S_.BroadcastsInDim S2048x2048 (![] : Fin 0 → Fin S2048x2048.rank)
  dot_S2048x8192_S8192x2048_S2048x2048_1_0_0_1_n_n_wf : DotDims.WF S2048x8192 S8192x2048 S2048x2048 [1] [0] [0] [1] [] []

variable [Facts₀]

def dot_S2048x8192_S8192x2048_S2048x2048_1_0_0_1_n_n : DotDims S2048x8192 S8192x2048 S2048x2048 where
  lhsContracting := [1]
  rhsContracting := [0]
  lhsNonContracting := [0]
  rhsNonContracting := [1]
  lhsBatch := []
  rhsBatch := []
  wf := dot_S2048x8192_S8192x2048_S2048x2048_1_0_0_1_n_n_wf

class Facts : Prop extends Facts₀ where

variable [Facts]
-- ==== Proof.RefSpec.lean ====
/-
  The specification of the result, at the ideal instance (floats are extended reals, operations exact):
  the tanh form of GELU applied entrywise to the product of the two whole argument arrays.

  For one extended real z,
      gelu1 z = (h · z) · (u + tanh (s · (z + ((k · z) · z) · z)))
  where h, k, s, u are the extended reals denoted by the four f32 words the reference program prints
  (one half, 0.044715, sqrt(2/π) rounded, one). The words are kept as words: nothing below evaluates them.
  For A : 2048 × 8192 and B : 8192 × 2048,
      Gref A B (i, j) = gelu1 (∑ K < 8192, A (i, K) · B (K, j)).
-/
import Idealize.ShloMosaic.PureOps.Ideal
import Idealize.ShloMosaic.Lib.ValueIdx

noncomputable section

open scoped BigOperators

namespace Cert.RefSide

open Idealize.ShloMosaic Idealize.ShloMosaic.ValueIdx

/-- The tanh form of GELU on one extended real, the constants being the four printed f32 words. -/
def gelu1 (z : EReal) : EReal :=
  (Ideal.ofBits .f32 0x3F000000#32 * z) *
    (Ideal.ofBits .f32 0x3F800000#32 +
      Ideal.tanh (Ideal.ofBits .f32 0x3F4C422A#32 * (z + ((Ideal.ofBits .f32 0x3D372713#32 * z) * z) * z)))

/-- Entry (i, j) of the product of a 2048 × 8192 array with an 8192 × 2048 array: the sum over the whole
    contracted axis. -/
def dot (A : (⟨2, ![2048, 8192]⟩ : Shape).Idx → EReal) (B : (⟨2, ![8192, 2048]⟩ : Shape).Idx → EReal)
    (i j : Fin 2048) : EReal :=
  ∑ K : Fin 8192, A (ix2 i K) * B (ix2 K j)

/-- The whole result: GELU of the product, entry by entry. -/
def Gref (A : (⟨2, ![2048, 8192]⟩ : Shape).Idx → EReal) (B : (⟨2, ![8192, 2048]⟩ : Shape).Idx → EReal) :
    (⟨2, ![2048, 2048]⟩ : Shape).Idx → EReal :=
  fun y => gelu1 (dot A B (y 0) (y 1))

theorem Gref_apply (A : (⟨2, ![2048, 8192]⟩ : Shape).Idx → EReal) (B : (⟨2, ![8192, 2048]⟩ : Shape).Idx → EReal)
    (i j : Fin 2048) : Gref A B (ix2 i j) = gelu1 (∑ K : Fin 8192, A (ix2 i K) * B (ix2 K j)) := rfl

end Cert.RefSide

end
-- ==== Proof.RefIsSpec.lean ====
/-
  The reference program computes the specification.

  Its run ends with the result array at the composed term of its eighteen host operations; read
  at an index (i, j), stage by stage, that term is
      (h · z) · (u + tanh (s · (z + ((k · z) · z) · z))),   z = ∑ K < 8192, A (i, K) · B (K, j),
  which is `gelu1 z`, entry (i, j) of `Gref A B`. Hence the run's post with the result named `Gref`, and the
  program's frame (the run with the result dropped).
-/
import proofs.«900882_g7700000000000883_dist_matmul_gelu_kshard_i_m2048_n2048_k1024_v7x_i8_f32_1_alg».proof.Defs
import proofs.«900882_g7700000000000883_dist_matmul_gelu_kshard_i_m2048_n2048_k1024_v7x_i8_f32_1_alg».proof.Proof.Gen.ReferenceIdeal.Run
import proofs.«900882_g7700000000000883_dist_matmul_gelu_kshard_i_m2048_n2048_k1024_v7x_i8_f32_1_alg».proof.Proof.Gen.ReferenceIdeal.Read
import proofs.«900882_g7700000000000883_dist_matmul_gelu_kshard_i_m2048_n2048_k1024_v7x_i8_f32_1_alg».proof.Proof.RefSpec

noncomputable section

open scoped BigOperators

namespace Cert.RefSide

open Idealize.ShloMosaic Idealize.ShloMosaic.TcCoe Idealize.SL.Sem Idealize.ShloMosaic.ValueIdx
open Cert.ReferenceIdeal Cert.ReferenceIdeal.Gen Cert.ReferenceIdeal.Read

/-- The left operand's index of the contraction at result entry (i, j), position K: (i, K). -/
theorem lidx_eq (i j : Fin 2048) (K : Fin 8192) : lidx_main_v0 (ix2 i j) K = ix2 i K :=
  funext fun a => Fin.ext (by match a with | ⟨0, _⟩ => rfl | ⟨1, _⟩ => rfl)

/-- The right operand's: (K, j). -/
theorem ridx_eq (i j : Fin 2048) (K : Fin 8192) : ridx_main_v0 (ix2 i j) K = ix2 K j :=
  funext fun a => Fin.ext (by match a with | ⟨0, _⟩ => rfl | ⟨1, _⟩ => rfl)

/-- The product stage at (i, j) is the sum over the whole contracted axis. -/
theorem prod_at (x0 : (⟨S2048x8192, .f32⟩ : BufTy).Contents (Elt Ideal)) (x1 : (⟨S8192x2048, .f32⟩ : BufTy).Contents (Elt Ideal))
    (i j : Fin 2048) : val_main_v0 (F := Ideal) x0 x1 (ix2 i j) = dot x0 x1 i j := by
  rw [val_main_v0_apply]
  unfold dot
  refine Finset.sum_congr rfl fun K _ => ?_
  rw [lidx_eq, ridx_eq]

/-- The reference's last stage is the specification. -/
theorem ref_is_spec (x0 : (⟨S2048x8192, .f32⟩ : BufTy).Contents (Elt Ideal)) (x1 : (⟨S8192x2048, .f32⟩ : BufTy).Contents (Elt Ideal)) :
    val_main_v13 (F := Ideal) x0 x1 = Gref x0 x1 := by
  funext y
  obtain ⟨i, j, rfl⟩ : ∃ (i : Fin 2048) (j : Fin 2048), y = ix2 i j := ⟨y 0, y 1, eq_ix2 y⟩
  rw [val_main_v13_apply, val_main_v2_apply, val_main_v12_apply, val_main_v10_apply, val_main_v9_apply,
    val_main_v7_apply, val_main_v6_apply, val_main_v5_apply, val_main_v4_apply,
    val_main_v1_apply, val_main_v3_apply, val_main_v8_apply, val_main_v11_apply,
    val_main_cst_apply, val_main_cst_0_apply, val_main_cst_1_apply, val_main_cst_2_apply, prod_at]
  simp only [Ideal.mulf_def, Ideal.addf_def, Ideal.hostUnary_tanh_def, Ideal.ofBits_def]
  rfl

/-- The reference runs to the end with its result array at the specification of its two argument arrays, the
    arguments unchanged. -/
theorem ref_run [hReferenceIdeal : Cert.ReferenceIdeal.Facts]
    (m' : (ℓ : Loc Cert.ReferenceIdeal.nD Cert.ReferenceIdeal.τ Cert.ReferenceIdeal.sig) → Buf (Elt Ideal) ℓ)
    (g' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, g'⟩ (fun r =>
      r.2.mem (((0 : Dev Cert.ReferenceIdeal.nD).tc : Thread Cert.ReferenceIdeal.nD Cert.ReferenceIdeal.τ).loc Cert.ReferenceIdeal.main_v13)
          = Gref (m' (((0 : Dev Cert.ReferenceIdeal.nD).tc : Thread Cert.ReferenceIdeal.nD Cert.ReferenceIdeal.τ).loc Cert.ReferenceIdeal.main_arg0))
              (m' (((0 : Dev Cert.ReferenceIdeal.nD).tc : Thread Cert.ReferenceIdeal.nD Cert.ReferenceIdeal.τ).loc Cert.ReferenceIdeal.main_arg1))
      ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
      ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)) :=
  (θ_run Cert.ReferenceIdeal.defs _ _).mono
    (fun _ h => ⟨(h 0).1.trans ((val_main_v13_eq _ _).trans (ref_is_spec _ _)), (h 0).2⟩)
    (Cert.ReferenceIdeal.Value.run (F := Ideal) m' g')

/-- The reference's frame: its run with the result dropped. -/
theorem frame_ref [hReferenceIdeal : Cert.ReferenceIdeal.Facts]
    [hPre_finite_inputs_ReferenceIdeal : Cert.Pre_finite_inputs_ReferenceIdeal.Facts] : Cert.frame_ReferenceIdeal :=
  fun m ρ _ => (θ_run Cert.ReferenceIdeal.defs _ _).mono (fun _ h c => (h c).2) (Cert.ReferenceIdeal.Value.run (F := Ideal) m ρ)

end Cert.RefSide

end
-- ==== Proof.BlockSum.lean ====
/-
  The algebra of a contraction cut into blocks, on the extended reals (only commutativity and associativity
  of + are used: the extended reals are an additive commutative monoid).

  The contracted axis of length 8192 is cut into 8 consecutive blocks of length 1024: block c of the left
  array holds its columns [1024 c, 1024 c + 1024), block c of the right array the rows with the same numbers.
  Position K = 1024 c + κ of the whole axis is position κ of block c, so the sum over the whole axis is the
  double sum over (c, κ). Eight partial sums added along any binary tree whose leaves list the eight blocks
  once each give the same total.
-/
import Idealize.ShloMosaic.PureOps.Ideal
import Idealize.ShloMosaic.Lib.ValueIdx
import Idealize.ShloMosaic.Lib.Layout
import Mathlib.Algebra.BigOperators.Fin
import Mathlib.Logic.Equiv.Fin.Basic

noncomputable section

open scoped BigOperators

namespace Cert.BlockSum

open Idealize.ShloMosaic Idealize.ShloMosaic.ValueIdx

/-- Position κ of block c is position 1024 c + κ of the whole axis. -/
def pos : Fin 8 × Fin 1024 ≃ Fin 8192 := finProdFinEquiv

theorem pos_val (c : Fin 8) (κ : Fin 1024) : (pos (c, κ)).val = c.val * 1024 + κ.val := by
  show κ.val + 1024 * c.val = _
  omega

/-- Column κ of block c of the left array is column 1024 c + κ of the whole. -/
theorem left_block (A : (⟨2, ![2048, 8192]⟩ : Shape).Idx → EReal) (c : Fin 8) (i : Fin 2048) (κ : Fin 1024) :
    (Layout.block ⟨2, ![2048, 1024]⟩ ⟨2, ![2048, 8192]⟩ 1 8 c A) (ix2 i κ) = A (ix2 i (pos (c, κ))) := by
  rw [Layout.block_apply]
  congr 1
  funext a
  refine Fin.ext ?_
  match a with
  | ⟨0, _⟩ => rfl
  | ⟨1, _⟩ => exact (pos_val c κ).symm

/-- Row κ of block c of the right array is row 1024 c + κ of the whole. -/
theorem right_block (B : (⟨2, ![8192, 2048]⟩ : Shape).Idx → EReal) (c : Fin 8) (κ : Fin 1024) (j : Fin 2048) :
    (Layout.block ⟨2, ![1024, 2048]⟩ ⟨2, ![8192, 2048]⟩ 0 8 c B) (ix2 κ j) = B (ix2 (pos (c, κ)) j) := by
  rw [Layout.block_apply]
  congr 1
  funext a
  refine Fin.ext ?_
  match a with
  | ⟨0, _⟩ => exact (pos_val c κ).symm
  | ⟨1, _⟩ => rfl

/-- The eight blocks' partial products add up to the whole product, entry by entry. -/
theorem sum_blocks (A : (⟨2, ![2048, 8192]⟩ : Shape).Idx → EReal) (B : (⟨2, ![8192, 2048]⟩ : Shape).Idx → EReal)
    (i j : Fin 2048) :
    ∑ c : Fin 8, ∑ κ : Fin 1024,
        (Layout.block ⟨2, ![2048, 1024]⟩ ⟨2, ![2048, 8192]⟩ 1 8 c A) (ix2 i κ)
          * (Layout.block ⟨2, ![1024, 2048]⟩ ⟨2, ![8192, 2048]⟩ 0 8 c B) (ix2 κ j)
      = ∑ K : Fin 8192, A (ix2 i K) * B (ix2 K j) := by
  rw [← Equiv.sum_comp pos (fun K => A (ix2 i K) * B (ix2 K j)), Fintype.sum_prod_type]
  refine Finset.sum_congr rfl fun c _ => Finset.sum_congr rfl fun κ _ => ?_
  rw [left_block, right_block]

/-- A sum over the eight blocks does not depend on the order they are listed in. -/
theorem sum_eight_perm (f : Fin 8 → EReal) (σ : Equiv.Perm (Fin 8)) : ∑ c, f (σ c) = ∑ c, f c :=
  Equiv.sum_comp σ f

/-- The sum over the eight blocks written out, left to right. -/
theorem sum_eight (f : Fin 8 → EReal) :
    ∑ c, f c = f 0 + f 1 + f 2 + f 3 + f 4 + f 5 + f 6 + f 7 :=
  Fin.sum_univ_eight f

/-- A balanced binary tree over any listing p of the eight blocks (each once) sums to the total. -/
theorem tree_sum (f : Fin 8 → EReal) (p : Fin 8 → Fin 8) (hp : Function.Bijective p) :
    ((f (p 0) + f (p 1)) + (f (p 2) + f (p 3))) + ((f (p 4) + f (p 5)) + (f (p 6) + f (p 7))) = ∑ c, f c := by
  rw [← Equiv.sum_comp (Equiv.ofBijective p hp) f, Fin.sum_univ_eight]
  simp only [Equiv.ofBijective_apply]
  ac_rfl

/-- The tree of three pairwise exchanges along the axes of a 2 × 2 × 2 cube (partners c xor 1, c xor 3,
    c xor 4), seen from any of the eight blocks c: it sums all eight. -/
theorem cube_sum (f : Fin 8 → EReal) (c : Fin 8) :
    ((f c + f (c ^^^ 1)) + (f (c ^^^ 3) + f (c ^^^ 2)))
      + ((f (c ^^^ 4) + f (c ^^^ 5)) + (f (c ^^^ 7) + f (c ^^^ 6))) = ∑ c', f c' := by
  rw [Fin.sum_univ_eight]
  fin_cases c <;> (simp only [Fin.reduceFinMk, Fin.reduceXor, Fin.isValue]; ac_rfl)

end Cert.BlockSum

end
-- ==== Proof.Cells.lean ====
/-
The semaphore cells of the reduce-scatter / all-gather protocol on the 2x2x2 device cube.

Every device has one barrier cell (the entry handshake with its three cube neighbours), and for each
column group k < 6 and each step s < 3 four DMA cells: the send and receive cells of the reduce-scatter
exchange and the send and receive cells of the all-gather exchange; and 24 cells of the copies of the
finished result blocks from the accumulator to the result array.
-/
import proofs.«900882_g7700000000000883_dist_matmul_gelu_kshard_i_m2048_n2048_k1024_v7x_i8_f32_1_alg».proof.Proof.Gen.KernelIdeal.Frame
import Idealize.ShloMosaic.Lib.Pipeline.Launch
import Idealize.ShloMosaic.Lib.Pipeline.Kit
import Idealize.ShloMosaic.Lib.Tactic

noncomputable section

namespace Cert.KernelIdeal.Proto

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-- The barrier semaphore of the collective (one per core, not scoped to the launch). -/
abbrev barS : Sem sig := (SemArray.scalar (sig.barrier 0 rfl) : Sems sig S_).sem

/-- The kinds of cell a device owns. -/
inductive CK where
  | bar
  | rsS (k : Fin 6) (s : Fin 3)
  | rsR (k : Fin 6) (s : Fin 3)
  | agS (k : Fin 6) (s : Fin 3)
  | agR (k : Fin 6) (s : Fin 3)
  | out (j : Fin 24)
  deriving DecidableEq

/-- The index of group k, step s in a 6x3 semaphore array. -/
def ks (k : Fin 6) (s : Fin 3) : ℕ := 3 * k.val + s.val
theorem ks_lt (k : Fin 6) (s : Fin 3) : ks k s < 18 := by unfold ks; omega

/-- The semaphore of each kind: the four 6x3 arrays start at 2, 20, 38, 56 and the 24 result-copy
    semaphores at 74 (the two before them stage the argument blocks). -/
def CK.sem : CK → SemLoc sig
  | .bar => .reg barS
  | .rsS k s => .dma ⟨2 + ks k s, by have := ks_lt k s; show _ < 98; omega⟩
  | .rsR k s => .dma ⟨20 + ks k s, by have := ks_lt k s; show _ < 98; omega⟩
  | .agS k s => .dma ⟨38 + ks k s, by have := ks_lt k s; show _ < 98; omega⟩
  | .agR k s => .dma ⟨56 + ks k s, by have := ks_lt k s; show _ < 98; omega⟩
  | .out j => .dma ⟨74 + j.val, by show _ < 98; omega⟩

/-- Which kind a semaphore is, if any. -/
def decode : SemLoc sig → Option CK
  | .reg s => if s = barS then some .bar else none
  | .dma d =>
    if h : 2 ≤ d.val ∧ d.val < 20 then some (.rsS ⟨(d.val - 2) / 3, by omega⟩ ⟨(d.val - 2) % 3, Nat.mod_lt _ (by decide)⟩)
    else if h : 20 ≤ d.val ∧ d.val < 38 then some (.rsR ⟨(d.val - 20) / 3, by omega⟩ ⟨(d.val - 20) % 3, Nat.mod_lt _ (by decide)⟩)
    else if h : 38 ≤ d.val ∧ d.val < 56 then some (.agS ⟨(d.val - 38) / 3, by omega⟩ ⟨(d.val - 38) % 3, Nat.mod_lt _ (by decide)⟩)
    else if h : 56 ≤ d.val ∧ d.val < 74 then some (.agR ⟨(d.val - 56) / 3, by omega⟩ ⟨(d.val - 56) % 3, Nat.mod_lt _ (by decide)⟩)
    else if h : 74 ≤ d.val ∧ d.val < 98 then some (.out ⟨d.val - 74, by omega⟩)
    else none

theorem decode_sem : ∀ κ : CK, decode κ.sem = some κ := by
  intro κ
  cases κ with
  | bar => simp [CK.sem, decode]
  | rsS k s => revert k s; decide
  | rsR k s => revert k s; decide
  | agS k s => revert k s; decide
  | agR k s => revert k s; decide
  | out j => revert j; decide

theorem sem_injective : Function.Injective CK.sem := fun a b h =>
  Option.some.inj (by rw [← decode_sem a, ← decode_sem b, h])

/-- The printed semaphore operands are these cells' semaphores. -/
theorem rsS_sem_eq : ∀ (k : Fin 6) (s : Fin 3) (h : ∀ a, (![k.val, s.val] : Fin 2 → Nat) a + S1x1.size a ≤ S6x3.size a),
    SemLoc.dma ((cc0_scratch19.slice (Rect.unit (s := S6x3) ![k.val, s.val] S1x1.size h)).squeeze S_ squeezes_S1x1_S_).sem = (CK.rsS k s).sem := by
  decide
theorem rsR_sem_eq : ∀ (k : Fin 6) (s : Fin 3) (h : ∀ a, (![k.val, s.val] : Fin 2 → Nat) a + S1x1.size a ≤ S6x3.size a),
    SemLoc.dma ((cc0_scratch20.slice (Rect.unit (s := S6x3) ![k.val, s.val] S1x1.size h)).squeeze S_ squeezes_S1x1_S_).sem = (CK.rsR k s).sem := by
  decide
theorem agS_sem_eq : ∀ (k : Fin 6) (s : Fin 3) (h : ∀ a, (![k.val, s.val] : Fin 2 → Nat) a + S1x1.size a ≤ S6x3.size a),
    SemLoc.dma ((cc0_scratch21.slice (Rect.unit (s := S6x3) ![k.val, s.val] S1x1.size h)).squeeze S_ squeezes_S1x1_S_).sem = (CK.agS k s).sem := by
  decide
theorem agR_sem_eq : ∀ (k : Fin 6) (s : Fin 3) (h : ∀ a, (![k.val, s.val] : Fin 2 → Nat) a + S1x1.size a ≤ S6x3.size a),
    SemLoc.dma ((cc0_scratch22.slice (Rect.unit (s := S6x3) ![k.val, s.val] S1x1.size h)).squeeze S_ squeezes_S1x1_S_).sem = (CK.agR k s).sem := by
  decide
theorem out_sem_eq : ∀ (j : Fin 24) (h : ∀ a, (![j.val] : Fin 1 → Nat) a + S1.size a ≤ S24.size a),
    SemLoc.dma ((cc0_scratch23.slice (Rect.unit (s := S24) ![j.val] S1.size h)).squeeze S_ squeezes_S1_S_).sem = (CK.out j).sem := by
  decide

/-- A device's cell of a kind. -/
abbrev cell (c : Dev nD) (κ : CK) : GSem nD τ sig := ((c : Thread nD τ), κ.sem)

theorem cell_injective : Function.Injective (fun ck : Dev nD × CK => cell ck.1 ck.2) := by
  rintro ⟨c, κ⟩ ⟨c', κ'⟩ h
  have h1 : c = c' := by have := congrArg (fun g : GSem nD τ sig => g.1.1) h; exact this
  subst h1
  have h2 : κ.sem = κ'.sem := congrArg Prod.snd h
  rw [sem_injective h2]

end Cert.KernelIdeal.Proto

end
-- ==== Proof.Views.lean ====
/-
The pieces of the scratch buffers the protocol moves between devices, per column group k and step s:
the rows of a device's reduce-scatter landing buffer that step s fills (rows OFFS s .. OFFS s + size s),
the leading rows of its staging buffer that step s sends, and the rows of its all-gather buffer that
it sends at all-gather step s (they start at a row that depends on the device's cube coordinates).
-/
import proofs.«900882_g7700000000000883_dist_matmul_gelu_kshard_i_m2048_n2048_k1024_v7x_i8_f32_1_alg».proof.Proof.Cells

noncomputable section

namespace Cert.KernelIdeal.Proto

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

/-- Group 0: the rows 0..1024 of the landing buffer (what reduce-scatter step 0 fills). -/
abbrev commM0_0 : Memref sig .tc .vmem S1024x384 .bf16 := (Memref.whole cc0_scratch1).slice (Rect.unit (s := S1792x384) ![0, 0] S1024x384.size inb_S1792x384_S1024x384_0_0) (fun _ => rfl)
/-- Group 0: the first 1024 rows of the staging buffer (what reduce-scatter step 0 sends). -/
abbrev stgM0_0 : Memref sig .tc .vmem S1024x384 .bf16 := (Memref.whole cc0_scratch7).slice (Rect.unit (s := S1024x384) ![0, 0] S1024x384.size inb_S1024x384_S1024x384_0_0) (fun _ => rfl)
/-- Group 0: the rows 1024..1536 of the landing buffer (what reduce-scatter step 1 fills). -/
abbrev commM0_1 : Memref sig .tc .vmem S512x384 .bf16 := (Memref.whole cc0_scratch1).slice (Rect.unit (s := S1792x384) ![1024, 0] S512x384.size inb_S1792x384_S512x384_1024_0) (fun _ => rfl)
/-- Group 0: the first 512 rows of the staging buffer (what reduce-scatter step 1 sends). -/
abbrev stgM0_1 : Memref sig .tc .vmem S512x384 .bf16 := (Memref.whole cc0_scratch7).slice (Rect.unit (s := S1024x384) ![0, 0] S512x384.size inb_S1024x384_S512x384_0_0) (fun _ => rfl)
/-- Group 0: the rows 1536..1792 of the landing buffer (what reduce-scatter step 2 fills). -/
abbrev commM0_2 : Memref sig .tc .vmem S256x384 .bf16 := (Memref.whole cc0_scratch1).slice (Rect.unit (s := S1792x384) ![1536, 0] S256x384.size inb_S1792x384_S256x384_1536_0) (fun _ => rfl)
/-- Group 0: the first 256 rows of the staging buffer (what reduce-scatter step 2 sends). -/
abbrev stgM0_2 : Memref sig .tc .vmem S256x384 .bf16 := (Memref.whole cc0_scratch7).slice (Rect.unit (s := S1024x384) ![0, 0] S256x384.size inb_S1024x384_S256x384_0_0) (fun _ => rfl)
/-- Group 1: the rows 0..1024 of the landing buffer (what reduce-scatter step 0 fills). -/
abbrev commM1_0 : Memref sig .tc .vmem S1024x384 .bf16 := (Memref.whole cc0_scratch2).slice (Rect.unit (s := S1792x384) ![0, 0] S1024x384.size inb_S1792x384_S1024x384_0_0) (fun _ => rfl)
/-- Group 1: the first 1024 rows of the staging buffer (what reduce-scatter step 0 sends). -/
abbrev stgM1_0 : Memref sig .tc .vmem S1024x384 .bf16 := (Memref.whole cc0_scratch8).slice (Rect.unit (s := S1024x384) ![0, 0] S1024x384.size inb_S1024x384_S1024x384_0_0) (fun _ => rfl)
/-- Group 1: the rows 1024..1536 of the landing buffer (what reduce-scatter step 1 fills). -/
abbrev commM1_1 : Memref sig .tc .vmem S512x384 .bf16 := (Memref.whole cc0_scratch2).slice (Rect.unit (s := S1792x384) ![1024, 0] S512x384.size inb_S1792x384_S512x384_1024_0) (fun _ => rfl)
/-- Group 1: the first 512 rows of the staging buffer (what reduce-scatter step 1 sends). -/
abbrev stgM1_1 : Memref sig .tc .vmem S512x384 .bf16 := (Memref.whole cc0_scratch8).slice (Rect.unit (s := S1024x384) ![0, 0] S512x384.size inb_S1024x384_S512x384_0_0) (fun _ => rfl)
/-- Group 1: the rows 1536..1792 of the landing buffer (what reduce-scatter step 2 fills). -/
abbrev commM1_2 : Memref sig .tc .vmem S256x384 .bf16 := (Memref.whole cc0_scratch2).slice (Rect.unit (s := S1792x384) ![1536, 0] S256x384.size inb_S1792x384_S256x384_1536_0) (fun _ => rfl)
/-- Group 1: the first 256 rows of the staging buffer (what reduce-scatter step 2 sends). -/
abbrev stgM1_2 : Memref sig .tc .vmem S256x384 .bf16 := (Memref.whole cc0_scratch8).slice (Rect.unit (s := S1024x384) ![0, 0] S256x384.size inb_S1024x384_S256x384_0_0) (fun _ => rfl)
/-- Group 2: the rows 0..1024 of the landing buffer (what reduce-scatter step 0 fills). -/
abbrev commM2_0 : Memref sig .tc .vmem S1024x384 .bf16 := (Memref.whole cc0_scratch3).slice (Rect.unit (s := S1792x384) ![0, 0] S1024x384.size inb_S1792x384_S1024x384_0_0) (fun _ => rfl)
/-- Group 2: the first 1024 rows of the staging buffer (what reduce-scatter step 0 sends). -/
abbrev stgM2_0 : Memref sig .tc .vmem S1024x384 .bf16 := (Memref.whole cc0_scratch9).slice (Rect.unit (s := S1024x384) ![0, 0] S1024x384.size inb_S1024x384_S1024x384_0_0) (fun _ => rfl)
/-- Group 2: the rows 1024..1536 of the landing buffer (what reduce-scatter step 1 fills). -/
abbrev commM2_1 : Memref sig .tc .vmem S512x384 .bf16 := (Memref.whole cc0_scratch3).slice (Rect.unit (s := S1792x384) ![1024, 0] S512x384.size inb_S1792x384_S512x384_1024_0) (fun _ => rfl)
/-- Group 2: the first 512 rows of the staging buffer (what reduce-scatter step 1 sends). -/
abbrev stgM2_1 : Memref sig .tc .vmem S512x384 .bf16 := (Memref.whole cc0_scratch9).slice (Rect.unit (s := S1024x384) ![0, 0] S512x384.size inb_S1024x384_S512x384_0_0) (fun _ => rfl)
/-- Group 2: the rows 1536..1792 of the landing buffer (what reduce-scatter step 2 fills). -/
abbrev commM2_2 : Memref sig .tc .vmem S256x384 .bf16 := (Memref.whole cc0_scratch3).slice (Rect.unit (s := S1792x384) ![1536, 0] S256x384.size inb_S1792x384_S256x384_1536_0) (fun _ => rfl)
/-- Group 2: the first 256 rows of the staging buffer (what reduce-scatter step 2 sends). -/
abbrev stgM2_2 : Memref sig .tc .vmem S256x384 .bf16 := (Memref.whole cc0_scratch9).slice (Rect.unit (s := S1024x384) ![0, 0] S256x384.size inb_S1024x384_S256x384_0_0) (fun _ => rfl)
/-- Group 3: the rows 0..1024 of the landing buffer (what reduce-scatter step 0 fills). -/
abbrev commM3_0 : Memref sig .tc .vmem S1024x384 .bf16 := (Memref.whole cc0_scratch4).slice (Rect.unit (s := S1792x384) ![0, 0] S1024x384.size inb_S1792x384_S1024x384_0_0) (fun _ => rfl)
/-- Group 3: the first 1024 rows of the staging buffer (what reduce-scatter step 0 sends). -/
abbrev stgM3_0 : Memref sig .tc .vmem S1024x384 .bf16 := (Memref.whole cc0_scratch10).slice (Rect.unit (s := S1024x384) ![0, 0] S1024x384.size inb_S1024x384_S1024x384_0_0) (fun _ => rfl)
/-- Group 3: the rows 1024..1536 of the landing buffer (what reduce-scatter step 1 fills). -/
abbrev commM3_1 : Memref sig .tc .vmem S512x384 .bf16 := (Memref.whole cc0_scratch4).slice (Rect.unit (s := S1792x384) ![1024, 0] S512x384.size inb_S1792x384_S512x384_1024_0) (fun _ => rfl)
/-- Group 3: the first 512 rows of the staging buffer (what reduce-scatter step 1 sends). -/
abbrev stgM3_1 : Memref sig .tc .vmem S512x384 .bf16 := (Memref.whole cc0_scratch10).slice (Rect.unit (s := S1024x384) ![0, 0] S512x384.size inb_S1024x384_S512x384_0_0) (fun _ => rfl)
/-- Group 3: the rows 1536..1792 of the landing buffer (what reduce-scatter step 2 fills). -/
abbrev commM3_2 : Memref sig .tc .vmem S256x384 .bf16 := (Memref.whole cc0_scratch4).slice (Rect.unit (s := S1792x384) ![1536, 0] S256x384.size inb_S1792x384_S256x384_1536_0) (fun _ => rfl)
/-- Group 3: the first 256 rows of the staging buffer (what reduce-scatter step 2 sends). -/
abbrev stgM3_2 : Memref sig .tc .vmem S256x384 .bf16 := (Memref.whole cc0_scratch10).slice (Rect.unit (s := S1024x384) ![0, 0] S256x384.size inb_S1024x384_S256x384_0_0) (fun _ => rfl)
/-- Group 4: the rows 0..1024 of the landing buffer (what reduce-scatter step 0 fills). -/
abbrev commM4_0 : Memref sig .tc .vmem S1024x256 .bf16 := (Memref.whole cc0_scratch5).slice (Rect.unit (s := S1792x256) ![0, 0] S1024x256.size inb_S1792x256_S1024x256_0_0) (fun _ => rfl)
/-- Group 4: the first 1024 rows of the staging buffer (what reduce-scatter step 0 sends). -/
abbrev stgM4_0 : Memref sig .tc .vmem S1024x256 .bf16 := (Memref.whole cc0_scratch11).slice (Rect.unit (s := S1024x256) ![0, 0] S1024x256.size inb_S1024x256_S1024x256_0_0) (fun _ => rfl)
/-- Group 4: the rows 1024..1536 of the landing buffer (what reduce-scatter step 1 fills). -/
abbrev commM4_1 : Memref sig .tc .vmem S512x256 .bf16 := (Memref.whole cc0_scratch5).slice (Rect.unit (s := S1792x256) ![1024, 0] S512x256.size inb_S1792x256_S512x256_1024_0) (fun _ => rfl)
/-- Group 4: the first 512 rows of the staging buffer (what reduce-scatter step 1 sends). -/
abbrev stgM4_1 : Memref sig .tc .vmem S512x256 .bf16 := (Memref.whole cc0_scratch11).slice (Rect.unit (s := S1024x256) ![0, 0] S512x256.size inb_S1024x256_S512x256_0_0) (fun _ => rfl)
/-- Group 4: the rows 1536..1792 of the landing buffer (what reduce-scatter step 2 fills). -/
abbrev commM4_2 : Memref sig .tc .vmem S256x256 .bf16 := (Memref.whole cc0_scratch5).slice (Rect.unit (s := S1792x256) ![1536, 0] S256x256.size inb_S1792x256_S256x256_1536_0) (fun _ => rfl)
/-- Group 4: the first 256 rows of the staging buffer (what reduce-scatter step 2 sends). -/
abbrev stgM4_2 : Memref sig .tc .vmem S256x256 .bf16 := (Memref.whole cc0_scratch11).slice (Rect.unit (s := S1024x256) ![0, 0] S256x256.size inb_S1024x256_S256x256_0_0) (fun _ => rfl)
/-- Group 5: the rows 0..1024 of the landing buffer (what reduce-scatter step 0 fills). -/
abbrev commM5_0 : Memref sig .tc .vmem S1024x256 .bf16 := (Memref.whole cc0_scratch6).slice (Rect.unit (s := S1792x256) ![0, 0] S1024x256.size inb_S1792x256_S1024x256_0_0) (fun _ => rfl)
/-- Group 5: the first 1024 rows of the staging buffer (what reduce-scatter step 0 sends). -/
abbrev stgM5_0 : Memref sig .tc .vmem S1024x256 .bf16 := (Memref.whole cc0_scratch12).slice (Rect.unit (s := S1024x256) ![0, 0] S1024x256.size inb_S1024x256_S1024x256_0_0) (fun _ => rfl)
/-- Group 5: the rows 1024..1536 of the landing buffer (what reduce-scatter step 1 fills). -/
abbrev commM5_1 : Memref sig .tc .vmem S512x256 .bf16 := (Memref.whole cc0_scratch6).slice (Rect.unit (s := S1792x256) ![1024, 0] S512x256.size inb_S1792x256_S512x256_1024_0) (fun _ => rfl)
/-- Group 5: the first 512 rows of the staging buffer (what reduce-scatter step 1 sends). -/
abbrev stgM5_1 : Memref sig .tc .vmem S512x256 .bf16 := (Memref.whole cc0_scratch12).slice (Rect.unit (s := S1024x256) ![0, 0] S512x256.size inb_S1024x256_S512x256_0_0) (fun _ => rfl)
/-- Group 5: the rows 1536..1792 of the landing buffer (what reduce-scatter step 2 fills). -/
abbrev commM5_2 : Memref sig .tc .vmem S256x256 .bf16 := (Memref.whole cc0_scratch6).slice (Rect.unit (s := S1792x256) ![1536, 0] S256x256.size inb_S1792x256_S256x256_1536_0) (fun _ => rfl)
/-- Group 5: the first 256 rows of the staging buffer (what reduce-scatter step 2 sends). -/
abbrev stgM5_2 : Memref sig .tc .vmem S256x256 .bf16 := (Memref.whole cc0_scratch12).slice (Rect.unit (s := S1024x256) ![0, 0] S256x256.size inb_S1024x256_S256x256_0_0) (fun _ => rfl)
/-- Group 0: the 256 rows of the all-gather buffer that device c sends at all-gather step 0 (they land, at the same rows, in its neighbour's buffer). -/
abbrev agM0_0 (c : Dev nD) : Memref sig .tc .vmem S256x384 .bf16 := (Memref.whole cc0_scratch13).slice (Rect.unit (s := S2048x384) (k0_off73 c) S256x384.size (k0_off73_inb c)) (fun _ => rfl)
/-- Group 0: the 512 rows of the all-gather buffer that device c sends at all-gather step 1 (they land, at the same rows, in its neighbour's buffer). -/
abbrev agM0_1 (c : Dev nD) : Memref sig .tc .vmem S512x384 .bf16 := (Memref.whole cc0_scratch13).slice (Rect.unit (s := S2048x384) (k0_off78 c) S512x384.size (k0_off78_inb c)) (fun _ => rfl)
/-- Group 0: the 1024 rows of the all-gather buffer that device c sends at all-gather step 2 (they land, at the same rows, in its neighbour's buffer). -/
abbrev agM0_2 (c : Dev nD) : Memref sig .tc .vmem S1024x384 .bf16 := (Memref.whole cc0_scratch13).slice (Rect.unit (s := S2048x384) (k0_off100 c) S1024x384.size (k0_off100_inb c)) (fun _ => rfl)
/-- Group 1: the 256 rows of the all-gather buffer that device c sends at all-gather step 0 (they land, at the same rows, in its neighbour's buffer). -/
abbrev agM1_0 (c : Dev nD) : Memref sig .tc .vmem S256x384 .bf16 := (Memref.whole cc0_scratch14).slice (Rect.unit (s := S2048x384) (k0_off74 c) S256x384.size (k0_off74_inb c)) (fun _ => rfl)
/-- Group 1: the 512 rows of the all-gather buffer that device c sends at all-gather step 1 (they land, at the same rows, in its neighbour's buffer). -/
abbrev agM1_1 (c : Dev nD) : Memref sig .tc .vmem S512x384 .bf16 := (Memref.whole cc0_scratch14).slice (Rect.unit (s := S2048x384) (k0_off82 c) S512x384.size (k0_off82_inb c)) (fun _ => rfl)
/-- Group 1: the 1024 rows of the all-gather buffer that device c sends at all-gather step 2 (they land, at the same rows, in its neighbour's buffer). -/
abbrev agM1_2 (c : Dev nD) : Memref sig .tc .vmem S1024x384 .bf16 := (Memref.whole cc0_scratch14).slice (Rect.unit (s := S2048x384) (k0_off104 c) S1024x384.size (k0_off104_inb c)) (fun _ => rfl)
/-- Group 2: the 256 rows of the all-gather buffer that device c sends at all-gather step 0 (they land, at the same rows, in its neighbour's buffer). -/
abbrev agM2_0 (c : Dev nD) : Memref sig .tc .vmem S256x384 .bf16 := (Memref.whole cc0_scratch15).slice (Rect.unit (s := S2048x384) (k0_off75 c) S256x384.size (k0_off75_inb c)) (fun _ => rfl)
/-- Group 2: the 512 rows of the all-gather buffer that device c sends at all-gather step 1 (they land, at the same rows, in its neighbour's buffer). -/
abbrev agM2_1 (c : Dev nD) : Memref sig .tc .vmem S512x384 .bf16 := (Memref.whole cc0_scratch15).slice (Rect.unit (s := S2048x384) (k0_off86 c) S512x384.size (k0_off86_inb c)) (fun _ => rfl)
/-- Group 2: the 1024 rows of the all-gather buffer that device c sends at all-gather step 2 (they land, at the same rows, in its neighbour's buffer). -/
abbrev agM2_2 (c : Dev nD) : Memref sig .tc .vmem S1024x384 .bf16 := (Memref.whole cc0_scratch15).slice (Rect.unit (s := S2048x384) (k0_off108 c) S1024x384.size (k0_off108_inb c)) (fun _ => rfl)
/-- Group 3: the 256 rows of the all-gather buffer that device c sends at all-gather step 0 (they land, at the same rows, in its neighbour's buffer). -/
abbrev agM3_0 (c : Dev nD) : Memref sig .tc .vmem S256x384 .bf16 := (Memref.whole cc0_scratch16).slice (Rect.unit (s := S2048x384) (k0_off73 c) S256x384.size (k0_off73_inb c)) (fun _ => rfl)
/-- Group 3: the 512 rows of the all-gather buffer that device c sends at all-gather step 1 (they land, at the same rows, in its neighbour's buffer). -/
abbrev agM3_1 (c : Dev nD) : Memref sig .tc .vmem S512x384 .bf16 := (Memref.whole cc0_scratch16).slice (Rect.unit (s := S2048x384) (k0_off78 c) S512x384.size (k0_off78_inb c)) (fun _ => rfl)
/-- Group 3: the 1024 rows of the all-gather buffer that device c sends at all-gather step 2 (they land, at the same rows, in its neighbour's buffer). -/
abbrev agM3_2 (c : Dev nD) : Memref sig .tc .vmem S1024x384 .bf16 := (Memref.whole cc0_scratch16).slice (Rect.unit (s := S2048x384) (k0_off100 c) S1024x384.size (k0_off100_inb c)) (fun _ => rfl)
/-- Group 4: the 256 rows of the all-gather buffer that device c sends at all-gather step 0 (they land, at the same rows, in its neighbour's buffer). -/
abbrev agM4_0 (c : Dev nD) : Memref sig .tc .vmem S256x256 .bf16 := (Memref.whole cc0_scratch17).slice (Rect.unit (s := S2048x256) (k0_off76 c) S256x256.size (k0_off76_inb c)) (fun _ => rfl)
/-- Group 4: the 512 rows of the all-gather buffer that device c sends at all-gather step 1 (they land, at the same rows, in its neighbour's buffer). -/
abbrev agM4_1 (c : Dev nD) : Memref sig .tc .vmem S512x256 .bf16 := (Memref.whole cc0_scratch17).slice (Rect.unit (s := S2048x256) (k0_off92 c) S512x256.size (k0_off92_inb c)) (fun _ => rfl)
/-- Group 4: the 1024 rows of the all-gather buffer that device c sends at all-gather step 2 (they land, at the same rows, in its neighbour's buffer). -/
abbrev agM4_2 (c : Dev nD) : Memref sig .tc .vmem S1024x256 .bf16 := (Memref.whole cc0_scratch17).slice (Rect.unit (s := S2048x256) (k0_off114 c) S1024x256.size (k0_off114_inb c)) (fun _ => rfl)
/-- Group 5: the 256 rows of the all-gather buffer that device c sends at all-gather step 0 (they land, at the same rows, in its neighbour's buffer). -/
abbrev agM5_0 (c : Dev nD) : Memref sig .tc .vmem S256x256 .bf16 := (Memref.whole cc0_scratch18).slice (Rect.unit (s := S2048x256) (k0_off77 c) S256x256.size (k0_off77_inb c)) (fun _ => rfl)
/-- Group 5: the 512 rows of the all-gather buffer that device c sends at all-gather step 1 (they land, at the same rows, in its neighbour's buffer). -/
abbrev agM5_1 (c : Dev nD) : Memref sig .tc .vmem S512x256 .bf16 := (Memref.whole cc0_scratch18).slice (Rect.unit (s := S2048x256) (k0_off96 c) S512x256.size (k0_off96_inb c)) (fun _ => rfl)
/-- Group 5: the 1024 rows of the all-gather buffer that device c sends at all-gather step 2 (they land, at the same rows, in its neighbour's buffer). -/
abbrev agM5_2 (c : Dev nD) : Memref sig .tc .vmem S1024x256 .bf16 := (Memref.whole cc0_scratch18).slice (Rect.unit (s := S2048x256) (k0_off118 c) S1024x256.size (k0_off118_inb c)) (fun _ => rfl)

end Cert.KernelIdeal.Proto

end
-- ==== Proof.Topo.lean ====
import proofs.«900882_g7700000000000883_dist_matmul_gelu_kshard_i_m2048_n2048_k1024_v7x_i8_f32_1_alg».proof.Proof.Gen.KernelIdeal

/-! The eight devices as the corners of a 2 x 2 x 2 cube.

    Device `c` (a number below 8, bits `b0 b1 b2` from the lowest) sits at the corner `(cx, cy, cz)` with
    `cx = b0 xor b1`, `cy = b1`, `cz = b2`: along the numbers 0, 1, 2, 3 the first two coordinates run through
    (0,0), (1,0), (1,1), (0,1), a Gray code, so that consecutive numbers are neighbours. The neighbour of `c` across
    axis `d` is `c xor 1`, `c xor 3`, `c xor 4` for `d = 0, 1, 2`: it flips the coordinate of that axis and keeps
    the other two. Every statement here is over the eight devices (and the three axes) and is decided by evaluation. -/

namespace Cert.KernelIdeal.Topo

open Cert.KernelIdeal Cert.KernelIdeal.Gen Idealize.ShloMosaic

/-- The first coordinate: bit 0 xor bit 1 of the device's number. -/
def cx (c : Dev nD) : Nat := (c.val % 2 + c.val / 2 % 2) % 2
/-- The second coordinate: bit 1 of the device's number. -/
def cy (c : Dev nD) : Nat := c.val / 2 % 2
/-- The third coordinate: bit 2 of the device's number. -/
def cz (c : Dev nD) : Nat := c.val / 4

/-- The word whose xor with a device's number crosses axis `d`. -/
def mask : Fin 3 → Dev nD := ![1, 3, 4]

/-- The neighbour of `c` across axis `d`. -/
def nbr (d : Fin 3) (c : Dev nD) : Dev nD := c ^^^ mask d

theorem nbr_val (d : Fin 3) (c : Dev nD) : (nbr d c).val = c.val ^^^ (mask d).val := by
  revert d c; decide

/-! ### The coordinates are bits, and name the device -/

theorem cx_le (c : Dev nD) : cx c ≤ 1 := by revert c; decide
theorem cy_le (c : Dev nD) : cy c ≤ 1 := by revert c; decide
theorem cz_le (c : Dev nD) : cz c ≤ 1 := by revert c; decide

/-- The device's number from its coordinates. -/
theorem val_eq (c : Dev nD) : c.val = (cx c + cy c) % 2 + 2 * cy c + 4 * cz c := by revert c; decide

/-- Two devices with the same coordinates are the same device. -/
theorem ext_coords (c c' : Dev nD) (hx : cx c = cx c') (hy : cy c = cy c') (hz : cz c = cz c') : c = c' := by
  apply Fin.ext; rw [val_eq c, val_eq c', hx, hy, hz]

/-! ### Crossing an axis -/

/-- Crossing the same axis twice comes back. -/
theorem nbr_nbr (d : Fin 3) (c : Dev nD) : nbr d (nbr d c) = c := by revert d c; decide
/-- The neighbour is another device. -/
theorem nbr_ne (d : Fin 3) (c : Dev nD) : nbr d c ≠ c := by revert d c; decide
/-- The three neighbours of a device are three devices. -/
theorem nbr_inj (c : Dev nD) {d d' : Fin 3} (h : nbr d c = nbr d' c) : d = d' := by revert c d d'; decide
/-- Each axis' crossing is one-to-one. -/
theorem nbr_left_inj (d : Fin 3) {c c' : Dev nD} (h : nbr d c = nbr d c') : c = c' := by
  rw [← nbr_nbr d c, h, nbr_nbr]
/-- Crossings of two axes commute. -/
theorem nbr_comm (d d' : Fin 3) (c : Dev nD) : nbr d (nbr d' c) = nbr d' (nbr d c) := by revert d d' c; decide
/-- `c` is the neighbour of `c'` exactly when `c'` is the neighbour of `c`. -/
theorem nbr_eq_iff (d : Fin 3) (c c' : Dev nD) : nbr d c = c' ↔ c = nbr d c' := by
  constructor
  · intro h; rw [← h, nbr_nbr]
  · intro h; rw [h, nbr_nbr]

/-! ### What a crossing does to the coordinates -/

@[simp] theorem cx_nbr0 (c : Dev nD) : cx (nbr 0 c) = 1 - cx c := by revert c; decide
@[simp] theorem cy_nbr0 (c : Dev nD) : cy (nbr 0 c) = cy c := by revert c; decide
@[simp] theorem cz_nbr0 (c : Dev nD) : cz (nbr 0 c) = cz c := by revert c; decide
@[simp] theorem cx_nbr1 (c : Dev nD) : cx (nbr 1 c) = cx c := by revert c; decide
@[simp] theorem cy_nbr1 (c : Dev nD) : cy (nbr 1 c) = 1 - cy c := by revert c; decide
@[simp] theorem cz_nbr1 (c : Dev nD) : cz (nbr 1 c) = cz c := by revert c; decide
@[simp] theorem cx_nbr2 (c : Dev nD) : cx (nbr 2 c) = cx c := by revert c; decide
@[simp] theorem cy_nbr2 (c : Dev nD) : cy (nbr 2 c) = cy c := by revert c; decide
@[simp] theorem cz_nbr2 (c : Dev nD) : cz (nbr 2 c) = 1 - cz c := by revert c; decide

end Cert.KernelIdeal.Topo
-- ==== Proof.SchedTab.lean ====
/-
The schedule's tables, case by case over the 18 (group, step) pairs (numbered 3 k + s) and the 24 copies of
result blocks: the values that travel (one record field per transfer), each cell's amount (the credit of its
transfer's destination piece) and each cell's payload (the piece it hands its owner when the transfer lands).
-/
import proofs.«900882_g7700000000000883_dist_matmul_gelu_kshard_i_m2048_n2048_k1024_v7x_i8_f32_1_alg».proof.Proof.Views
import proofs.«900882_g7700000000000883_dist_matmul_gelu_kshard_i_m2048_n2048_k1024_v7x_i8_f32_1_alg».proof.Proof.Topo

noncomputable section

namespace Cert.KernelIdeal.Proto

open Cert.KernelIdeal Cert.KernelIdeal.Gen Cert.KernelIdeal.Topo
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The result-copy pieces: copy j moves these rows and columns of the accumulator to the same place of the result array. -/
abbrev outSrcM0 (c : Dev nD) : Memref sig .tc .vmem S256x384 .f32 := (Memref.whole cc0_scratch0).slice (Rect.unit (s := S2048x2048) (k0_off59 c) S256x384.size (k0_off59_inb c)) (fun _ => rfl)
abbrev outDstM0 (c : Dev nD) : Memref sig .tc .hbm S256x384 .f32 := (Memref.whole main_v1).slice (Rect.unit (s := S2048x2048) (k0_off59 c) S256x384.size (k0_off59_inb c)) (fun _ => rfl)
abbrev outSrcM1 (c : Dev nD) : Memref sig .tc .vmem S256x384 .f32 := (Memref.whole cc0_scratch0).slice (Rect.unit (s := S2048x2048) (k0_off62 c) S256x384.size (k0_off62_inb c)) (fun _ => rfl)
abbrev outDstM1 (c : Dev nD) : Memref sig .tc .hbm S256x384 .f32 := (Memref.whole main_v1).slice (Rect.unit (s := S2048x2048) (k0_off62 c) S256x384.size (k0_off62_inb c)) (fun _ => rfl)
abbrev outSrcM2 (c : Dev nD) : Memref sig .tc .vmem S256x384 .f32 := (Memref.whole cc0_scratch0).slice (Rect.unit (s := S2048x2048) (k0_off65 c) S256x384.size (k0_off65_inb c)) (fun _ => rfl)
abbrev outDstM2 (c : Dev nD) : Memref sig .tc .hbm S256x384 .f32 := (Memref.whole main_v1).slice (Rect.unit (s := S2048x2048) (k0_off65 c) S256x384.size (k0_off65_inb c)) (fun _ => rfl)
abbrev outSrcM3 (c : Dev nD) : Memref sig .tc .vmem S256x384 .f32 := (Memref.whole cc0_scratch0).slice (Rect.unit (s := S2048x2048) (k0_off66 c) S256x384.size (k0_off66_inb c)) (fun _ => rfl)
abbrev outDstM3 (c : Dev nD) : Memref sig .tc .hbm S256x384 .f32 := (Memref.whole main_v1).slice (Rect.unit (s := S2048x2048) (k0_off66 c) S256x384.size (k0_off66_inb c)) (fun _ => rfl)
abbrev outSrcM4 (c : Dev nD) : Memref sig .tc .vmem S256x256 .f32 := (Memref.whole cc0_scratch0).slice (Rect.unit (s := S2048x2048) (k0_off69 c) S256x256.size (k0_off69_inb c)) (fun _ => rfl)
abbrev outDstM4 (c : Dev nD) : Memref sig .tc .hbm S256x256 .f32 := (Memref.whole main_v1).slice (Rect.unit (s := S2048x2048) (k0_off69 c) S256x256.size (k0_off69_inb c)) (fun _ => rfl)
abbrev outSrcM5 (c : Dev nD) : Memref sig .tc .vmem S256x256 .f32 := (Memref.whole cc0_scratch0).slice (Rect.unit (s := S2048x2048) (k0_off72 c) S256x256.size (k0_off72_inb c)) (fun _ => rfl)
abbrev outDstM5 (c : Dev nD) : Memref sig .tc .hbm S256x256 .f32 := (Memref.whole main_v1).slice (Rect.unit (s := S2048x2048) (k0_off72 c) S256x256.size (k0_off72_inb c)) (fun _ => rfl)
abbrev outSrcM6 (c : Dev nD) : Memref sig .tc .vmem S256x384 .f32 := (Memref.whole cc0_scratch0).slice (Rect.unit (s := S2048x2048) (k0_off81 c) S256x384.size (k0_off81_inb c)) (fun _ => rfl)
abbrev outDstM6 (c : Dev nD) : Memref sig .tc .hbm S256x384 .f32 := (Memref.whole main_v1).slice (Rect.unit (s := S2048x2048) (k0_off81 c) S256x384.size (k0_off81_inb c)) (fun _ => rfl)
abbrev outSrcM7 (c : Dev nD) : Memref sig .tc .vmem S256x384 .f32 := (Memref.whole cc0_scratch0).slice (Rect.unit (s := S2048x2048) (k0_off85 c) S256x384.size (k0_off85_inb c)) (fun _ => rfl)
abbrev outDstM7 (c : Dev nD) : Memref sig .tc .hbm S256x384 .f32 := (Memref.whole main_v1).slice (Rect.unit (s := S2048x2048) (k0_off85 c) S256x384.size (k0_off85_inb c)) (fun _ => rfl)
abbrev outSrcM8 (c : Dev nD) : Memref sig .tc .vmem S256x384 .f32 := (Memref.whole cc0_scratch0).slice (Rect.unit (s := S2048x2048) (k0_off89 c) S256x384.size (k0_off89_inb c)) (fun _ => rfl)
abbrev outDstM8 (c : Dev nD) : Memref sig .tc .hbm S256x384 .f32 := (Memref.whole main_v1).slice (Rect.unit (s := S2048x2048) (k0_off89 c) S256x384.size (k0_off89_inb c)) (fun _ => rfl)
abbrev outSrcM9 (c : Dev nD) : Memref sig .tc .vmem S256x384 .f32 := (Memref.whole cc0_scratch0).slice (Rect.unit (s := S2048x2048) (k0_off91 c) S256x384.size (k0_off91_inb c)) (fun _ => rfl)
abbrev outDstM9 (c : Dev nD) : Memref sig .tc .hbm S256x384 .f32 := (Memref.whole main_v1).slice (Rect.unit (s := S2048x2048) (k0_off91 c) S256x384.size (k0_off91_inb c)) (fun _ => rfl)
abbrev outSrcM10 (c : Dev nD) : Memref sig .tc .vmem S256x256 .f32 := (Memref.whole cc0_scratch0).slice (Rect.unit (s := S2048x2048) (k0_off95 c) S256x256.size (k0_off95_inb c)) (fun _ => rfl)
abbrev outDstM10 (c : Dev nD) : Memref sig .tc .hbm S256x256 .f32 := (Memref.whole main_v1).slice (Rect.unit (s := S2048x2048) (k0_off95 c) S256x256.size (k0_off95_inb c)) (fun _ => rfl)
abbrev outSrcM11 (c : Dev nD) : Memref sig .tc .vmem S256x256 .f32 := (Memref.whole cc0_scratch0).slice (Rect.unit (s := S2048x2048) (k0_off99 c) S256x256.size (k0_off99_inb c)) (fun _ => rfl)
abbrev outDstM11 (c : Dev nD) : Memref sig .tc .hbm S256x256 .f32 := (Memref.whole main_v1).slice (Rect.unit (s := S2048x2048) (k0_off99 c) S256x256.size (k0_off99_inb c)) (fun _ => rfl)
abbrev outSrcM12 (c : Dev nD) : Memref sig .tc .vmem S512x384 .f32 := (Memref.whole cc0_scratch0).slice (Rect.unit (s := S2048x2048) (k0_off103 c) S512x384.size (k0_off103_inb c)) (fun _ => rfl)
abbrev outDstM12 (c : Dev nD) : Memref sig .tc .hbm S512x384 .f32 := (Memref.whole main_v1).slice (Rect.unit (s := S2048x2048) (k0_off103 c) S512x384.size (k0_off103_inb c)) (fun _ => rfl)
abbrev outSrcM13 (c : Dev nD) : Memref sig .tc .vmem S512x384 .f32 := (Memref.whole cc0_scratch0).slice (Rect.unit (s := S2048x2048) (k0_off107 c) S512x384.size (k0_off107_inb c)) (fun _ => rfl)
abbrev outDstM13 (c : Dev nD) : Memref sig .tc .hbm S512x384 .f32 := (Memref.whole main_v1).slice (Rect.unit (s := S2048x2048) (k0_off107 c) S512x384.size (k0_off107_inb c)) (fun _ => rfl)
abbrev outSrcM14 (c : Dev nD) : Memref sig .tc .vmem S512x384 .f32 := (Memref.whole cc0_scratch0).slice (Rect.unit (s := S2048x2048) (k0_off111 c) S512x384.size (k0_off111_inb c)) (fun _ => rfl)
abbrev outDstM14 (c : Dev nD) : Memref sig .tc .hbm S512x384 .f32 := (Memref.whole main_v1).slice (Rect.unit (s := S2048x2048) (k0_off111 c) S512x384.size (k0_off111_inb c)) (fun _ => rfl)
abbrev outSrcM15 (c : Dev nD) : Memref sig .tc .vmem S512x384 .f32 := (Memref.whole cc0_scratch0).slice (Rect.unit (s := S2048x2048) (k0_off113 c) S512x384.size (k0_off113_inb c)) (fun _ => rfl)
abbrev outDstM15 (c : Dev nD) : Memref sig .tc .hbm S512x384 .f32 := (Memref.whole main_v1).slice (Rect.unit (s := S2048x2048) (k0_off113 c) S512x384.size (k0_off113_inb c)) (fun _ => rfl)
abbrev outSrcM16 (c : Dev nD) : Memref sig .tc .vmem S512x256 .f32 := (Memref.whole cc0_scratch0).slice (Rect.unit (s := S2048x2048) (k0_off117 c) S512x256.size (k0_off117_inb c)) (fun _ => rfl)
abbrev outDstM16 (c : Dev nD) : Memref sig .tc .hbm S512x256 .f32 := (Memref.whole main_v1).slice (Rect.unit (s := S2048x2048) (k0_off117 c) S512x256.size (k0_off117_inb c)) (fun _ => rfl)
abbrev outSrcM17 (c : Dev nD) : Memref sig .tc .vmem S512x256 .f32 := (Memref.whole cc0_scratch0).slice (Rect.unit (s := S2048x2048) (k0_off121 c) S512x256.size (k0_off121_inb c)) (fun _ => rfl)
abbrev outDstM17 (c : Dev nD) : Memref sig .tc .hbm S512x256 .f32 := (Memref.whole main_v1).slice (Rect.unit (s := S2048x2048) (k0_off121 c) S512x256.size (k0_off121_inb c)) (fun _ => rfl)
abbrev outSrcM18 (c : Dev nD) : Memref sig .tc .vmem S1024x384 .f32 := (Memref.whole cc0_scratch0).slice (Rect.unit (s := S2048x2048) (k0_off124 c) S1024x384.size (k0_off124_inb c)) (fun _ => rfl)
abbrev outDstM18 (c : Dev nD) : Memref sig .tc .hbm S1024x384 .f32 := (Memref.whole main_v1).slice (Rect.unit (s := S2048x2048) (k0_off124 c) S1024x384.size (k0_off124_inb c)) (fun _ => rfl)
abbrev outSrcM19 (c : Dev nD) : Memref sig .tc .vmem S1024x384 .f32 := (Memref.whole cc0_scratch0).slice (Rect.unit (s := S2048x2048) (k0_off127 c) S1024x384.size (k0_off127_inb c)) (fun _ => rfl)
abbrev outDstM19 (c : Dev nD) : Memref sig .tc .hbm S1024x384 .f32 := (Memref.whole main_v1).slice (Rect.unit (s := S2048x2048) (k0_off127 c) S1024x384.size (k0_off127_inb c)) (fun _ => rfl)
abbrev outSrcM20 (c : Dev nD) : Memref sig .tc .vmem S1024x384 .f32 := (Memref.whole cc0_scratch0).slice (Rect.unit (s := S2048x2048) (k0_off130 c) S1024x384.size (k0_off130_inb c)) (fun _ => rfl)
abbrev outDstM20 (c : Dev nD) : Memref sig .tc .hbm S1024x384 .f32 := (Memref.whole main_v1).slice (Rect.unit (s := S2048x2048) (k0_off130 c) S1024x384.size (k0_off130_inb c)) (fun _ => rfl)
abbrev outSrcM21 (c : Dev nD) : Memref sig .tc .vmem S1024x384 .f32 := (Memref.whole cc0_scratch0).slice (Rect.unit (s := S2048x2048) (k0_off132 c) S1024x384.size (k0_off132_inb c)) (fun _ => rfl)
abbrev outDstM21 (c : Dev nD) : Memref sig .tc .hbm S1024x384 .f32 := (Memref.whole main_v1).slice (Rect.unit (s := S2048x2048) (k0_off132 c) S1024x384.size (k0_off132_inb c)) (fun _ => rfl)
abbrev outSrcM22 (c : Dev nD) : Memref sig .tc .vmem S1024x256 .f32 := (Memref.whole cc0_scratch0).slice (Rect.unit (s := S2048x2048) (k0_off135 c) S1024x256.size (k0_off135_inb c)) (fun _ => rfl)
abbrev outDstM22 (c : Dev nD) : Memref sig .tc .hbm S1024x256 .f32 := (Memref.whole main_v1).slice (Rect.unit (s := S2048x2048) (k0_off135 c) S1024x256.size (k0_off135_inb c)) (fun _ => rfl)
abbrev outSrcM23 (c : Dev nD) : Memref sig .tc .vmem S1024x256 .f32 := (Memref.whole cc0_scratch0).slice (Rect.unit (s := S2048x2048) (k0_off138 c) S1024x256.size (k0_off138_inb c)) (fun _ => rfl)
abbrev outDstM23 (c : Dev nD) : Memref sig .tc .hbm S1024x256 .f32 := (Memref.whole main_v1).slice (Rect.unit (s := S2048x2048) (k0_off138 c) S1024x256.size (k0_off138_inb c)) (fun _ => rfl)

/-- What is known of the values that travel, as predicates: of what each device sends at each reduce-scatter step and at each all-gather step of each group, of the block of the result each copy writes, and of a device's whole result array. (All true: a run that says nothing of values. Equalities with the computed terms: the run with every value named.) -/
structure Vals (F : FTy → Type) where
  rs0_0 : Dev nD → (S1024x384.Idx → Elt F .bf16) → Prop
  rs0_1 : Dev nD → (S512x384.Idx → Elt F .bf16) → Prop
  rs0_2 : Dev nD → (S256x384.Idx → Elt F .bf16) → Prop
  rs1_0 : Dev nD → (S1024x384.Idx → Elt F .bf16) → Prop
  rs1_1 : Dev nD → (S512x384.Idx → Elt F .bf16) → Prop
  rs1_2 : Dev nD → (S256x384.Idx → Elt F .bf16) → Prop
  rs2_0 : Dev nD → (S1024x384.Idx → Elt F .bf16) → Prop
  rs2_1 : Dev nD → (S512x384.Idx → Elt F .bf16) → Prop
  rs2_2 : Dev nD → (S256x384.Idx → Elt F .bf16) → Prop
  rs3_0 : Dev nD → (S1024x384.Idx → Elt F .bf16) → Prop
  rs3_1 : Dev nD → (S512x384.Idx → Elt F .bf16) → Prop
  rs3_2 : Dev nD → (S256x384.Idx → Elt F .bf16) → Prop
  rs4_0 : Dev nD → (S1024x256.Idx → Elt F .bf16) → Prop
  rs4_1 : Dev nD → (S512x256.Idx → Elt F .bf16) → Prop
  rs4_2 : Dev nD → (S256x256.Idx → Elt F .bf16) → Prop
  rs5_0 : Dev nD → (S1024x256.Idx → Elt F .bf16) → Prop
  rs5_1 : Dev nD → (S512x256.Idx → Elt F .bf16) → Prop
  rs5_2 : Dev nD → (S256x256.Idx → Elt F .bf16) → Prop
  ag0_0 : Dev nD → (S256x384.Idx → Elt F .bf16) → Prop
  ag0_1 : Dev nD → (S512x384.Idx → Elt F .bf16) → Prop
  ag0_2 : Dev nD → (S1024x384.Idx → Elt F .bf16) → Prop
  ag1_0 : Dev nD → (S256x384.Idx → Elt F .bf16) → Prop
  ag1_1 : Dev nD → (S512x384.Idx → Elt F .bf16) → Prop
  ag1_2 : Dev nD → (S1024x384.Idx → Elt F .bf16) → Prop
  ag2_0 : Dev nD → (S256x384.Idx → Elt F .bf16) → Prop
  ag2_1 : Dev nD → (S512x384.Idx → Elt F .bf16) → Prop
  ag2_2 : Dev nD → (S1024x384.Idx → Elt F .bf16) → Prop
  ag3_0 : Dev nD → (S256x384.Idx → Elt F .bf16) → Prop
  ag3_1 : Dev nD → (S512x384.Idx → Elt F .bf16) → Prop
  ag3_2 : Dev nD → (S1024x384.Idx → Elt F .bf16) → Prop
  ag4_0 : Dev nD → (S256x256.Idx → Elt F .bf16) → Prop
  ag4_1 : Dev nD → (S512x256.Idx → Elt F .bf16) → Prop
  ag4_2 : Dev nD → (S1024x256.Idx → Elt F .bf16) → Prop
  ag5_0 : Dev nD → (S256x256.Idx → Elt F .bf16) → Prop
  ag5_1 : Dev nD → (S512x256.Idx → Elt F .bf16) → Prop
  ag5_2 : Dev nD → (S1024x256.Idx → Elt F .bf16) → Prop
  out0 : Dev nD → (S256x384.Idx → Elt F .f32) → Prop
  out1 : Dev nD → (S256x384.Idx → Elt F .f32) → Prop
  out2 : Dev nD → (S256x384.Idx → Elt F .f32) → Prop
  out3 : Dev nD → (S256x384.Idx → Elt F .f32) → Prop
  out4 : Dev nD → (S256x256.Idx → Elt F .f32) → Prop
  out5 : Dev nD → (S256x256.Idx → Elt F .f32) → Prop
  out6 : Dev nD → (S256x384.Idx → Elt F .f32) → Prop
  out7 : Dev nD → (S256x384.Idx → Elt F .f32) → Prop
  out8 : Dev nD → (S256x384.Idx → Elt F .f32) → Prop
  out9 : Dev nD → (S256x384.Idx → Elt F .f32) → Prop
  out10 : Dev nD → (S256x256.Idx → Elt F .f32) → Prop
  out11 : Dev nD → (S256x256.Idx → Elt F .f32) → Prop
  out12 : Dev nD → (S512x384.Idx → Elt F .f32) → Prop
  out13 : Dev nD → (S512x384.Idx → Elt F .f32) → Prop
  out14 : Dev nD → (S512x384.Idx → Elt F .f32) → Prop
  out15 : Dev nD → (S512x384.Idx → Elt F .f32) → Prop
  out16 : Dev nD → (S512x256.Idx → Elt F .f32) → Prop
  out17 : Dev nD → (S512x256.Idx → Elt F .f32) → Prop
  out18 : Dev nD → (S1024x384.Idx → Elt F .f32) → Prop
  out19 : Dev nD → (S1024x384.Idx → Elt F .f32) → Prop
  out20 : Dev nD → (S1024x384.Idx → Elt F .f32) → Prop
  out21 : Dev nD → (S1024x384.Idx → Elt F .f32) → Prop
  out22 : Dev nD → (S1024x256.Idx → Elt F .f32) → Prop
  out23 : Dev nD → (S1024x256.Idx → Elt F .f32) → Prop
  res : Dev nD → (main_v1 : Ref sig .tc).ty.Contents (Elt F) → Prop

local notation "𝕄" => MT nD τ sig Unit (Elt F) ℕ (UR sig nD τ × URounds (GSem nD τ sig) (Fin 3)) ℕ

/-- A piece of a buffer of device c, held whole at some contents. -/
def ptsAny (c : Dev nD) {sp : Space} {s : Shape} {e : EltTy} (M : Memref sig .tc sp s e) : sProp 𝕄 :=
  iprop(∃ f : Buf (Elt F) (M.view.loc (c : Thread nD τ)), M.view.loc (c : Thread nD τ) ↦[M.view.set]{fullShare} f)
/-- A piece of a buffer of device c, held whole, whose reading satisfies X. -/
def ptsIs (c : Dev nD) {sp : Space} {s : Shape} {e : EltTy} (M : Memref sig .tc sp s e) (X : (s.Idx → Elt F e) → Prop) : sProp 𝕄 :=
  iprop(∃ f : Buf (Elt F) (M.view.loc (c : Thread nD τ)), (M.view.loc (c : Thread nD τ) ↦[M.view.set]{fullShare} f) ∗ ⌜X (M.view.read (Elt F) f)⌝)
/-- The left half-share of a piece of a buffer of device c, at some contents (what a transfer that only reads it borrows). -/
def ptsLent (c : Dev nD) {sp : Space} {s : Shape} {e : EltTy} (M : Memref sig .tc sp s e) : sProp 𝕄 :=
  iprop(∃ f : Buf (Elt F) (M.view.loc (c : Thread nD τ)), M.view.loc (c : Thread nD τ) ↦[M.view.set]{fullShare.left} f)

/-- The cube axis group k's reduce-scatter step s crosses, and the one its all-gather step s crosses (pairs numbered 3 k + s). -/
def dirRS : Fin 18 → Fin 3
  | 0 => 0
  | 1 => 1
  | 2 => 2
  | 3 => 1
  | 4 => 2
  | 5 => 0
  | 6 => 2
  | 7 => 0
  | 8 => 1
  | 9 => 0
  | 10 => 1
  | 11 => 2
  | 12 => 1
  | 13 => 2
  | 14 => 0
  | 15 => 2
  | 16 => 0
  | 17 => 1
  | ⟨_ + 18, h⟩ => absurd h (Nat.not_lt.2 (Nat.le_add_left _ _))
def dirAG : Fin 18 → Fin 3
  | 0 => 2
  | 1 => 1
  | 2 => 0
  | 3 => 0
  | 4 => 2
  | 5 => 1
  | 6 => 1
  | 7 => 0
  | 8 => 2
  | 9 => 2
  | 10 => 1
  | 11 => 0
  | 12 => 0
  | 13 => 2
  | 14 => 1
  | 15 => 1
  | 16 => 0
  | 17 => 2
  | ⟨_ + 18, h⟩ => absurd h (Nat.not_lt.2 (Nat.le_add_left _ _))

/-- The amounts: the credit of the destination piece. -/
def rsAmt : Fin 18 → ℕ
  | 0 => (commM0_0 : Memref sig .tc .vmem S1024x384 .bf16).view.dmaCredit
  | 1 => (commM0_1 : Memref sig .tc .vmem S512x384 .bf16).view.dmaCredit
  | 2 => (commM0_2 : Memref sig .tc .vmem S256x384 .bf16).view.dmaCredit
  | 3 => (commM1_0 : Memref sig .tc .vmem S1024x384 .bf16).view.dmaCredit
  | 4 => (commM1_1 : Memref sig .tc .vmem S512x384 .bf16).view.dmaCredit
  | 5 => (commM1_2 : Memref sig .tc .vmem S256x384 .bf16).view.dmaCredit
  | 6 => (commM2_0 : Memref sig .tc .vmem S1024x384 .bf16).view.dmaCredit
  | 7 => (commM2_1 : Memref sig .tc .vmem S512x384 .bf16).view.dmaCredit
  | 8 => (commM2_2 : Memref sig .tc .vmem S256x384 .bf16).view.dmaCredit
  | 9 => (commM3_0 : Memref sig .tc .vmem S1024x384 .bf16).view.dmaCredit
  | 10 => (commM3_1 : Memref sig .tc .vmem S512x384 .bf16).view.dmaCredit
  | 11 => (commM3_2 : Memref sig .tc .vmem S256x384 .bf16).view.dmaCredit
  | 12 => (commM4_0 : Memref sig .tc .vmem S1024x256 .bf16).view.dmaCredit
  | 13 => (commM4_1 : Memref sig .tc .vmem S512x256 .bf16).view.dmaCredit
  | 14 => (commM4_2 : Memref sig .tc .vmem S256x256 .bf16).view.dmaCredit
  | 15 => (commM5_0 : Memref sig .tc .vmem S1024x256 .bf16).view.dmaCredit
  | 16 => (commM5_1 : Memref sig .tc .vmem S512x256 .bf16).view.dmaCredit
  | 17 => (commM5_2 : Memref sig .tc .vmem S256x256 .bf16).view.dmaCredit
  | ⟨_ + 18, h⟩ => absurd h (Nat.not_lt.2 (Nat.le_add_left _ _))
def agAmt : Fin 18 → ℕ
  | 0 => (agM0_0 0 : Memref sig .tc .vmem S256x384 .bf16).view.dmaCredit
  | 1 => (agM0_1 0 : Memref sig .tc .vmem S512x384 .bf16).view.dmaCredit
  | 2 => (agM0_2 0 : Memref sig .tc .vmem S1024x384 .bf16).view.dmaCredit
  | 3 => (agM1_0 0 : Memref sig .tc .vmem S256x384 .bf16).view.dmaCredit
  | 4 => (agM1_1 0 : Memref sig .tc .vmem S512x384 .bf16).view.dmaCredit
  | 5 => (agM1_2 0 : Memref sig .tc .vmem S1024x384 .bf16).view.dmaCredit
  | 6 => (agM2_0 0 : Memref sig .tc .vmem S256x384 .bf16).view.dmaCredit
  | 7 => (agM2_1 0 : Memref sig .tc .vmem S512x384 .bf16).view.dmaCredit
  | 8 => (agM2_2 0 : Memref sig .tc .vmem S1024x384 .bf16).view.dmaCredit
  | 9 => (agM3_0 0 : Memref sig .tc .vmem S256x384 .bf16).view.dmaCredit
  | 10 => (agM3_1 0 : Memref sig .tc .vmem S512x384 .bf16).view.dmaCredit
  | 11 => (agM3_2 0 : Memref sig .tc .vmem S1024x384 .bf16).view.dmaCredit
  | 12 => (agM4_0 0 : Memref sig .tc .vmem S256x256 .bf16).view.dmaCredit
  | 13 => (agM4_1 0 : Memref sig .tc .vmem S512x256 .bf16).view.dmaCredit
  | 14 => (agM4_2 0 : Memref sig .tc .vmem S1024x256 .bf16).view.dmaCredit
  | 15 => (agM5_0 0 : Memref sig .tc .vmem S256x256 .bf16).view.dmaCredit
  | 16 => (agM5_1 0 : Memref sig .tc .vmem S512x256 .bf16).view.dmaCredit
  | 17 => (agM5_2 0 : Memref sig .tc .vmem S1024x256 .bf16).view.dmaCredit
  | ⟨_ + 18, h⟩ => absurd h (Nat.not_lt.2 (Nat.le_add_left _ _))
def outAmt : Fin 24 → ℕ
  | 0 => (outDstM0 0 : Memref sig .tc .hbm S256x384 .f32).view.dmaCredit
  | 1 => (outDstM1 0 : Memref sig .tc .hbm S256x384 .f32).view.dmaCredit
  | 2 => (outDstM2 0 : Memref sig .tc .hbm S256x384 .f32).view.dmaCredit
  | 3 => (outDstM3 0 : Memref sig .tc .hbm S256x384 .f32).view.dmaCredit
  | 4 => (outDstM4 0 : Memref sig .tc .hbm S256x256 .f32).view.dmaCredit
  | 5 => (outDstM5 0 : Memref sig .tc .hbm S256x256 .f32).view.dmaCredit
  | 6 => (outDstM6 0 : Memref sig .tc .hbm S256x384 .f32).view.dmaCredit
  | 7 => (outDstM7 0 : Memref sig .tc .hbm S256x384 .f32).view.dmaCredit
  | 8 => (outDstM8 0 : Memref sig .tc .hbm S256x384 .f32).view.dmaCredit
  | 9 => (outDstM9 0 : Memref sig .tc .hbm S256x384 .f32).view.dmaCredit
  | 10 => (outDstM10 0 : Memref sig .tc .hbm S256x256 .f32).view.dmaCredit
  | 11 => (outDstM11 0 : Memref sig .tc .hbm S256x256 .f32).view.dmaCredit
  | 12 => (outDstM12 0 : Memref sig .tc .hbm S512x384 .f32).view.dmaCredit
  | 13 => (outDstM13 0 : Memref sig .tc .hbm S512x384 .f32).view.dmaCredit
  | 14 => (outDstM14 0 : Memref sig .tc .hbm S512x384 .f32).view.dmaCredit
  | 15 => (outDstM15 0 : Memref sig .tc .hbm S512x384 .f32).view.dmaCredit
  | 16 => (outDstM16 0 : Memref sig .tc .hbm S512x256 .f32).view.dmaCredit
  | 17 => (outDstM17 0 : Memref sig .tc .hbm S512x256 .f32).view.dmaCredit
  | 18 => (outDstM18 0 : Memref sig .tc .hbm S1024x384 .f32).view.dmaCredit
  | 19 => (outDstM19 0 : Memref sig .tc .hbm S1024x384 .f32).view.dmaCredit
  | 20 => (outDstM20 0 : Memref sig .tc .hbm S1024x384 .f32).view.dmaCredit
  | 21 => (outDstM21 0 : Memref sig .tc .hbm S1024x384 .f32).view.dmaCredit
  | 22 => (outDstM22 0 : Memref sig .tc .hbm S1024x256 .f32).view.dmaCredit
  | 23 => (outDstM23 0 : Memref sig .tc .hbm S1024x256 .f32).view.dmaCredit
  | ⟨_ + 24, h⟩ => absurd h (Nat.not_lt.2 (Nat.le_add_left _ _))

/-- Reduce-scatter receive cell of device c: its landing rows, holding what the neighbour across that step's axis sent. -/
def rsRPay (V : Vals F) (c : Dev nD) : Fin 18 → sProp 𝕄
  | 0 => ptsIs c commM0_0 (V.rs0_0 (nbr 0 c))
  | 1 => ptsIs c commM0_1 (V.rs0_1 (nbr 1 c))
  | 2 => ptsIs c commM0_2 (V.rs0_2 (nbr 2 c))
  | 3 => ptsIs c commM1_0 (V.rs1_0 (nbr 1 c))
  | 4 => ptsIs c commM1_1 (V.rs1_1 (nbr 2 c))
  | 5 => ptsIs c commM1_2 (V.rs1_2 (nbr 0 c))
  | 6 => ptsIs c commM2_0 (V.rs2_0 (nbr 2 c))
  | 7 => ptsIs c commM2_1 (V.rs2_1 (nbr 0 c))
  | 8 => ptsIs c commM2_2 (V.rs2_2 (nbr 1 c))
  | 9 => ptsIs c commM3_0 (V.rs3_0 (nbr 0 c))
  | 10 => ptsIs c commM3_1 (V.rs3_1 (nbr 1 c))
  | 11 => ptsIs c commM3_2 (V.rs3_2 (nbr 2 c))
  | 12 => ptsIs c commM4_0 (V.rs4_0 (nbr 1 c))
  | 13 => ptsIs c commM4_1 (V.rs4_1 (nbr 2 c))
  | 14 => ptsIs c commM4_2 (V.rs4_2 (nbr 0 c))
  | 15 => ptsIs c commM5_0 (V.rs5_0 (nbr 2 c))
  | 16 => ptsIs c commM5_1 (V.rs5_1 (nbr 0 c))
  | 17 => ptsIs c commM5_2 (V.rs5_2 (nbr 1 c))
  | ⟨_ + 18, h⟩ => absurd h (Nat.not_lt.2 (Nat.le_add_left _ _))
/-- Reduce-scatter send cell of device c: its staging rows back, at some contents. -/
def rsSPay (c : Dev nD) : Fin 18 → sProp 𝕄
  | 0 => ptsAny (F := F) c stgM0_0
  | 1 => ptsAny (F := F) c stgM0_1
  | 2 => ptsAny (F := F) c stgM0_2
  | 3 => ptsAny (F := F) c stgM1_0
  | 4 => ptsAny (F := F) c stgM1_1
  | 5 => ptsAny (F := F) c stgM1_2
  | 6 => ptsAny (F := F) c stgM2_0
  | 7 => ptsAny (F := F) c stgM2_1
  | 8 => ptsAny (F := F) c stgM2_2
  | 9 => ptsAny (F := F) c stgM3_0
  | 10 => ptsAny (F := F) c stgM3_1
  | 11 => ptsAny (F := F) c stgM3_2
  | 12 => ptsAny (F := F) c stgM4_0
  | 13 => ptsAny (F := F) c stgM4_1
  | 14 => ptsAny (F := F) c stgM4_2
  | 15 => ptsAny (F := F) c stgM5_0
  | 16 => ptsAny (F := F) c stgM5_1
  | 17 => ptsAny (F := F) c stgM5_2
  | ⟨_ + 18, h⟩ => absurd h (Nat.not_lt.2 (Nat.le_add_left _ _))
/-- All-gather receive cell of device c: the rows its neighbour across that step's axis sent, holding what it sent. -/
def agRPay (V : Vals F) (c : Dev nD) : Fin 18 → sProp 𝕄
  | 0 => ptsIs c (agM0_0 (nbr 2 c)) (V.ag0_0 (nbr 2 c))
  | 1 => ptsIs c (agM0_1 (nbr 1 c)) (V.ag0_1 (nbr 1 c))
  | 2 => ptsIs c (agM0_2 (nbr 0 c)) (V.ag0_2 (nbr 0 c))
  | 3 => ptsIs c (agM1_0 (nbr 0 c)) (V.ag1_0 (nbr 0 c))
  | 4 => ptsIs c (agM1_1 (nbr 2 c)) (V.ag1_1 (nbr 2 c))
  | 5 => ptsIs c (agM1_2 (nbr 1 c)) (V.ag1_2 (nbr 1 c))
  | 6 => ptsIs c (agM2_0 (nbr 1 c)) (V.ag2_0 (nbr 1 c))
  | 7 => ptsIs c (agM2_1 (nbr 0 c)) (V.ag2_1 (nbr 0 c))
  | 8 => ptsIs c (agM2_2 (nbr 2 c)) (V.ag2_2 (nbr 2 c))
  | 9 => ptsIs c (agM3_0 (nbr 2 c)) (V.ag3_0 (nbr 2 c))
  | 10 => ptsIs c (agM3_1 (nbr 1 c)) (V.ag3_1 (nbr 1 c))
  | 11 => ptsIs c (agM3_2 (nbr 0 c)) (V.ag3_2 (nbr 0 c))
  | 12 => ptsIs c (agM4_0 (nbr 0 c)) (V.ag4_0 (nbr 0 c))
  | 13 => ptsIs c (agM4_1 (nbr 2 c)) (V.ag4_1 (nbr 2 c))
  | 14 => ptsIs c (agM4_2 (nbr 1 c)) (V.ag4_2 (nbr 1 c))
  | 15 => ptsIs c (agM5_0 (nbr 1 c)) (V.ag5_0 (nbr 1 c))
  | 16 => ptsIs c (agM5_1 (nbr 0 c)) (V.ag5_1 (nbr 0 c))
  | 17 => ptsIs c (agM5_2 (nbr 2 c)) (V.ag5_2 (nbr 2 c))
  | ⟨_ + 18, h⟩ => absurd h (Nat.not_lt.2 (Nat.le_add_left _ _))
/-- All-gather send cell of device c: the half-share of the rows it sent that the transfer borrowed. -/
def agSPay (c : Dev nD) : Fin 18 → sProp 𝕄
  | 0 => ptsLent (F := F) c (agM0_0 c)
  | 1 => ptsLent (F := F) c (agM0_1 c)
  | 2 => ptsLent (F := F) c (agM0_2 c)
  | 3 => ptsLent (F := F) c (agM1_0 c)
  | 4 => ptsLent (F := F) c (agM1_1 c)
  | 5 => ptsLent (F := F) c (agM1_2 c)
  | 6 => ptsLent (F := F) c (agM2_0 c)
  | 7 => ptsLent (F := F) c (agM2_1 c)
  | 8 => ptsLent (F := F) c (agM2_2 c)
  | 9 => ptsLent (F := F) c (agM3_0 c)
  | 10 => ptsLent (F := F) c (agM3_1 c)
  | 11 => ptsLent (F := F) c (agM3_2 c)
  | 12 => ptsLent (F := F) c (agM4_0 c)
  | 13 => ptsLent (F := F) c (agM4_1 c)
  | 14 => ptsLent (F := F) c (agM4_2 c)
  | 15 => ptsLent (F := F) c (agM5_0 c)
  | 16 => ptsLent (F := F) c (agM5_1 c)
  | 17 => ptsLent (F := F) c (agM5_2 c)
  | ⟨_ + 18, h⟩ => absurd h (Nat.not_lt.2 (Nat.le_add_left _ _))
/-- Result-copy cell j of device c: the block of the result array written, and the accumulator's rows back. -/
def outPay (V : Vals F) (c : Dev nD) : Fin 24 → sProp 𝕄
  | 0 => iprop(ptsIs c (outDstM0 c) (V.out0 c) ∗ ptsAny (F := F) c (outSrcM0 c))
  | 1 => iprop(ptsIs c (outDstM1 c) (V.out1 c) ∗ ptsAny (F := F) c (outSrcM1 c))
  | 2 => iprop(ptsIs c (outDstM2 c) (V.out2 c) ∗ ptsAny (F := F) c (outSrcM2 c))
  | 3 => iprop(ptsIs c (outDstM3 c) (V.out3 c) ∗ ptsAny (F := F) c (outSrcM3 c))
  | 4 => iprop(ptsIs c (outDstM4 c) (V.out4 c) ∗ ptsAny (F := F) c (outSrcM4 c))
  | 5 => iprop(ptsIs c (outDstM5 c) (V.out5 c) ∗ ptsAny (F := F) c (outSrcM5 c))
  | 6 => iprop(ptsIs c (outDstM6 c) (V.out6 c) ∗ ptsAny (F := F) c (outSrcM6 c))
  | 7 => iprop(ptsIs c (outDstM7 c) (V.out7 c) ∗ ptsAny (F := F) c (outSrcM7 c))
  | 8 => iprop(ptsIs c (outDstM8 c) (V.out8 c) ∗ ptsAny (F := F) c (outSrcM8 c))
  | 9 => iprop(ptsIs c (outDstM9 c) (V.out9 c) ∗ ptsAny (F := F) c (outSrcM9 c))
  | 10 => iprop(ptsIs c (outDstM10 c) (V.out10 c) ∗ ptsAny (F := F) c (outSrcM10 c))
  | 11 => iprop(ptsIs c (outDstM11 c) (V.out11 c) ∗ ptsAny (F := F) c (outSrcM11 c))
  | 12 => iprop(ptsIs c (outDstM12 c) (V.out12 c) ∗ ptsAny (F := F) c (outSrcM12 c))
  | 13 => iprop(ptsIs c (outDstM13 c) (V.out13 c) ∗ ptsAny (F := F) c (outSrcM13 c))
  | 14 => iprop(ptsIs c (outDstM14 c) (V.out14 c) ∗ ptsAny (F := F) c (outSrcM14 c))
  | 15 => iprop(ptsIs c (outDstM15 c) (V.out15 c) ∗ ptsAny (F := F) c (outSrcM15 c))
  | 16 => iprop(ptsIs c (outDstM16 c) (V.out16 c) ∗ ptsAny (F := F) c (outSrcM16 c))
  | 17 => iprop(ptsIs c (outDstM17 c) (V.out17 c) ∗ ptsAny (F := F) c (outSrcM17 c))
  | 18 => iprop(ptsIs c (outDstM18 c) (V.out18 c) ∗ ptsAny (F := F) c (outSrcM18 c))
  | 19 => iprop(ptsIs c (outDstM19 c) (V.out19 c) ∗ ptsAny (F := F) c (outSrcM19 c))
  | 20 => iprop(ptsIs c (outDstM20 c) (V.out20 c) ∗ ptsAny (F := F) c (outSrcM20 c))
  | 21 => iprop(ptsIs c (outDstM21 c) (V.out21 c) ∗ ptsAny (F := F) c (outSrcM21 c))
  | 22 => iprop(ptsIs c (outDstM22 c) (V.out22 c) ∗ ptsAny (F := F) c (outSrcM22 c))
  | 23 => iprop(ptsIs c (outDstM23 c) (V.out23 c) ∗ ptsAny (F := F) c (outSrcM23 c))
  | ⟨_ + 24, h⟩ => absurd h (Nat.not_lt.2 (Nat.le_add_left _ _))
/-- Duty d of device c's barrier cell, paid by its neighbour n across axis d: the pieces of n's landing and all-gather buffers that c's transfers across that axis will write. -/
def barPay (c : Dev nD) : Fin 3 → sProp 𝕄
  | 0 => iprop(ptsAny (F := F) (nbr 0 c) commM0_0 ∗ ptsAny (F := F) (nbr 0 c) commM1_2 ∗ ptsAny (F := F) (nbr 0 c) commM2_1 ∗ ptsAny (F := F) (nbr 0 c) commM3_0 ∗ ptsAny (F := F) (nbr 0 c) commM4_2 ∗ ptsAny (F := F) (nbr 0 c) commM5_1 ∗ ptsAny (F := F) (nbr 0 c) (agM0_2 c) ∗ ptsAny (F := F) (nbr 0 c) (agM1_0 c) ∗ ptsAny (F := F) (nbr 0 c) (agM2_1 c) ∗ ptsAny (F := F) (nbr 0 c) (agM3_2 c) ∗ ptsAny (F := F) (nbr 0 c) (agM4_0 c) ∗ ptsAny (F := F) (nbr 0 c) (agM5_1 c))
  | 1 => iprop(ptsAny (F := F) (nbr 1 c) commM0_1 ∗ ptsAny (F := F) (nbr 1 c) commM1_0 ∗ ptsAny (F := F) (nbr 1 c) commM2_2 ∗ ptsAny (F := F) (nbr 1 c) commM3_1 ∗ ptsAny (F := F) (nbr 1 c) commM4_0 ∗ ptsAny (F := F) (nbr 1 c) commM5_2 ∗ ptsAny (F := F) (nbr 1 c) (agM0_1 c) ∗ ptsAny (F := F) (nbr 1 c) (agM1_2 c) ∗ ptsAny (F := F) (nbr 1 c) (agM2_0 c) ∗ ptsAny (F := F) (nbr 1 c) (agM3_1 c) ∗ ptsAny (F := F) (nbr 1 c) (agM4_2 c) ∗ ptsAny (F := F) (nbr 1 c) (agM5_0 c))
  | 2 => iprop(ptsAny (F := F) (nbr 2 c) commM0_2 ∗ ptsAny (F := F) (nbr 2 c) commM1_1 ∗ ptsAny (F := F) (nbr 2 c) commM2_0 ∗ ptsAny (F := F) (nbr 2 c) commM3_2 ∗ ptsAny (F := F) (nbr 2 c) commM4_1 ∗ ptsAny (F := F) (nbr 2 c) commM5_0 ∗ ptsAny (F := F) (nbr 2 c) (agM0_0 c) ∗ ptsAny (F := F) (nbr 2 c) (agM1_1 c) ∗ ptsAny (F := F) (nbr 2 c) (agM2_2 c) ∗ ptsAny (F := F) (nbr 2 c) (agM3_0 c) ∗ ptsAny (F := F) (nbr 2 c) (agM4_1 c) ∗ ptsAny (F := F) (nbr 2 c) (agM5_2 c))
  | ⟨_ + 3, h⟩ => absurd h (Nat.not_lt.2 (Nat.le_add_left _ _))

end Cert.KernelIdeal.Proto

end
-- ==== Proof.Sched.lean ====
/-
The rounds schedule of the protocol. Every cell has ONE round (round 0). A barrier cell has three duties,
one per cube axis d, each one unit, paid by the neighbour across that axis, whose payload is the pieces of
that neighbour's buffers the device will write across the axis. Every transfer cell has the one duty 0 of
its transfer's credit, whose payload is the piece the transfer returns or fills.
-/
import proofs.«900882_g7700000000000883_dist_matmul_gelu_kshard_i_m2048_n2048_k1024_v7x_i8_f32_1_alg».proof.Proof.SchedTab

noncomputable section

namespace Cert.KernelIdeal.Proto

open Cert.KernelIdeal Cert.KernelIdeal.Gen Cert.KernelIdeal.Topo
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline library's copy and the protocol's (duties Fin 3) -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-- The pair number 3 k + s. -/
def ksF (k : Fin 6) (s : Fin 3) : Fin 18 := ⟨ks k s, ks_lt k s⟩

/-- A cell kind's amount. -/
def amt : CK → ℕ
  | .bar => 1
  | .rsS k s => rsAmt (ksF k s)
  | .rsR k s => rsAmt (ksF k s)
  | .agS k s => agAmt (ksF k s)
  | .agR k s => agAmt (ksF k s)
  | .out j => outAmt j

/-- A cell kind's payload on device c (duty d matters for the barrier only). -/
def pay (V : Vals F) (c : Dev nD) : CK → Fin 3 → sProp 𝕄
  | .bar, d => barPay c d
  | .rsS k s, _ => rsSPay c (ksF k s)
  | .rsR k s, _ => rsRPay V c (ksF k s)
  | .agS k s, _ => agSPay c (ksF k s)
  | .agR k s, _ => agRPay V c (ksF k s)
  | .out j, _ => outPay V c j

/-- A cell kind's duties. -/
def dut : CK → Finset (Fin 3)
  | .bar => Finset.univ
  | _ => {0}

theorem amt_pos : ∀ κ : CK, 0 < amt κ := by
  intro κ
  cases κ with
  | bar => exact Nat.one_pos
  | rsS k s => revert k s; unfold amt ksF ks rsAmt; decide
  | rsR k s => revert k s; unfold amt ksF ks rsAmt; decide
  | agS k s => revert k s; unfold amt ksF ks agAmt; decide
  | agR k s => revert k s; unfold amt ksF ks agAmt; decide
  | out j => revert j; unfold amt outAmt; decide

def sched (V : Vals F) : Rounds.Schedule (GSem nD τ sig) (Fin 3) 𝕄 where
  duties g r := if r = 0 ∧ g.1.2 = .tc then (match decode g.2 with | some κ => dut κ | none => ∅) else ∅
  unitless _ := False
  amount g _ _ := match decode g.2 with | some κ => amt κ | none => 1
  payload g _ d := match decode g.2 with | some κ => pay V g.1.1 κ d | none => iprop(emp)
  amount_pos g _ _ _ := by
    cases h : decode g.2 with
    | none => exact Nat.one_pos
    | some κ => exact amt_pos κ

section Tables
variable (V : Vals F) (c : Dev nD) (κ : CK)

omit [FloatOps F] in
theorem duties_cell : (sched V).duties (cell c κ) 0 = dut κ := by
  dsimp only [sched]; rw [if_pos ⟨rfl, rfl⟩, decode_sem]
omit [FloatOps F] in
theorem duties_later (g : GSem nD τ sig) : ∀ r, 1 ≤ r → (sched V).duties g r = ∅ :=
  fun r hr => by dsimp only [sched]; rw [if_neg fun h => by omega]
omit [FloatOps F] in
theorem amount_cell (r : ℕ) (d : Fin 3) : (sched V).amount (cell c κ) r d = amt κ := by
  dsimp only [sched]; rw [decode_sem]
omit [FloatOps F] in
theorem payload_cell (r : ℕ) (d : Fin 3) : (sched V).payload (cell c κ) r d = pay V c κ d := by
  dsimp only [sched]; rw [decode_sem]

omit [FloatOps F] in
theorem expect_bar : (sched V).expect (cell c .bar) 0 = 3 := by
  unfold Schedule.expect Schedule.amountOf
  rw [duties_cell, Finset.sum_congr rfl fun d _ => amount_cell V c .bar 0 d]
  rfl
omit [FloatOps F] in
theorem expect_xfer (h : κ ≠ .bar) : (sched V).expect (cell c κ) 0 = amt κ := by
  unfold Schedule.expect Schedule.amountOf
  rw [duties_cell, show dut κ = {0} from by cases κ <;> first | rfl | exact absurd rfl h, Finset.sum_singleton, amount_cell]

end Tables

end Cert.KernelIdeal.Proto

end
-- ==== Proof.Levels.lean ====
/-
The levels of the cells. A wait is allowed only on a cell whose level lies below the level of every cell the
waiting device still owes. A receive cell's level is two more than the place, in program order, of the transfer
that fills it (3 + 6 s + k for reduce-scatter step s of group k, 21 + 6 s + k for all-gather step s); a barrier
cell's level is 1; every other cell (a device's own send cells, its result copies, the two staging cells of the
argument blocks) has level 0: nobody owes those.
-/
import proofs.«900882_g7700000000000883_dist_matmul_gelu_kshard_i_m2048_n2048_k1024_v7x_i8_f32_1_alg».proof.Proof.Sched

noncomputable section

namespace Cert.KernelIdeal.Proto

open Cert.KernelIdeal Cert.KernelIdeal.Gen Cert.KernelIdeal.Topo
open Idealize.ShloMosaic Idealize.ShloMosaic.TcCoe
open Idealize.SL Idealize.SL.RA Idealize.SL.BI

def L (g : GSem nD τ sig) : Finset Unit := if g.1.2 = .tc then {()} else ∅

def lv (g : GSem nD τ sig) (_ : Unit) : ℕ :=
  match decode g.2 with
  | some .bar => 1
  | some (.rsR k s) => 5 + 6 * s.val + k.val
  | some (.agR k s) => 23 + 6 * s.val + k.val
  | _ => 0

theorem L_of_ne (g : GSem nD τ sig) (h : g.1.2 ≠ .tc) : L g = ∅ := if_neg h
theorem L_tc (c : Dev nD) (sm : SemLoc sig) : L ((c : Thread nD τ), sm) = {()} := if_pos rfl

theorem lv_cell (c : Dev nD) (κ : CK) : lv (cell c κ) () =
    match κ with | .bar => 1 | .rsR k s => 5 + 6 * s.val + k.val | .agR k s => 23 + 6 * s.val + k.val | _ => 0 := by
  unfold lv; rw [decode_sem]; cases κ <;> rfl

end Cert.KernelIdeal.Proto

end
-- ==== Proof.Owes.lean ====
/-
What a device still owes, place by place of its program.

A device pays other devices' cells in a fixed order: first one unit to the barrier cell of each of its three
cube neighbours (places 0, 1, 2); then its 18 reduce-scatter transfers, step by step and inside a step group
by group (place 3 + 6 s + k pays the receive cell of the neighbour the transfer of group k, step s goes to);
then its 18 all-gather transfers in the same order (place 21 + 6 s + k). Its own send cells and the cells of
its result copies are paid by its own engine and are never owed.

`Owe c n` is what device c still owes before its n-th payment: the sum of the payments n, n + 1, ..., 38.
The level of a paid cell grows with the place of the payment (1 for the three barrier payments, n + 2 from
place 3 on), so a wait on a cell whose level lies below the level of the next payment is below everything
still owed: that is what a wait must present.
-/
import proofs.«900882_g7700000000000883_dist_matmul_gelu_kshard_i_m2048_n2048_k1024_v7x_i8_f32_1_alg».proof.Proof.Levels
import Idealize.ShloMosaic.Lib.Pipeline.Launch
import Mathlib.Algebra.Order.BigOperators.Group.LocallyFinite

noncomputable section

namespace Cert.KernelIdeal.Proto

open Cert.KernelIdeal Cert.KernelIdeal.Gen Cert.KernelIdeal.Topo
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The payments in program order -/

/-- The group of the m-th transfer of a phase (m = 6 s + k). -/
def kOf (m : ℕ) : Fin 6 := ⟨m % 6, Nat.mod_lt _ (by decide)⟩
/-- The step of the m-th transfer of a phase (m = 6 s + k). -/
def sOf (m : ℕ) : Fin 3 := ⟨m / 6 % 3, Nat.mod_lt _ (by decide)⟩

theorem kOf_add (k : Fin 6) (s : Fin 3) : kOf (6 * s.val + k.val) = k := by
  have := k.isLt; have := s.isLt
  exact Fin.ext (by show (6 * s.val + k.val) % 6 = k.val; omega)
theorem sOf_add (k : Fin 6) (s : Fin 3) : sOf (6 * s.val + k.val) = s := by
  have := k.isLt; have := s.isLt
  exact Fin.ext (by show (6 * s.val + k.val) / 6 % 3 = s.val; omega)

/-- The n-th paid cell and its amount (n < 39). -/
def paid (c : Dev nD) (n : ℕ) : GSem nD τ sig × ℕ :=
  if h : n < 3 then (cell (nbr ⟨n, h⟩ c) .bar, 1)
  else if n < 21 then
    (cell (nbr (dirRS (ksF (kOf (n - 3)) (sOf (n - 3)))) c) (.rsR (kOf (n - 3)) (sOf (n - 3))), amt (.rsR (kOf (n - 3)) (sOf (n - 3))))
  else
    (cell (nbr (dirAG (ksF (kOf (n - 21)) (sOf (n - 21)))) c) (.agR (kOf (n - 21)) (sOf (n - 21))), amt (.agR (kOf (n - 21)) (sOf (n - 21))))

theorem paid_bar (c : Dev nD) (d : Fin 3) : paid c d.val = (cell (nbr d c) .bar, 1) := by
  unfold paid; rw [dif_pos d.isLt]

theorem paid_rs (c : Dev nD) (k : Fin 6) (s : Fin 3) :
    paid c (3 + 6 * s.val + k.val) = (cell (nbr (dirRS (ksF k s)) c) (.rsR k s), amt (.rsR k s)) := by
  have := k.isLt; have := s.isLt
  have e : 3 + 6 * s.val + k.val - 3 = 6 * s.val + k.val := by omega
  unfold paid
  rw [dif_neg (by omega), if_pos (by omega), e, kOf_add, sOf_add]

theorem paid_ag (c : Dev nD) (k : Fin 6) (s : Fin 3) :
    paid c (21 + 6 * s.val + k.val) = (cell (nbr (dirAG (ksF k s)) c) (.agR k s), amt (.agR k s)) := by
  have := k.isLt; have := s.isLt
  have e : 21 + 6 * s.val + k.val - 21 = 6 * s.val + k.val := by omega
  unfold paid
  rw [dif_neg (by omega), if_neg (by omega), e, kOf_add, sOf_add]

/-- Every paid cell is a cell of a device's core. -/
theorem paid_L (c : Dev nD) (n : ℕ) : L (paid c n).1 = {()} := by
  unfold paid; split_ifs <;> exact L_tc _ _

/-- The level of the n-th paid cell: 1 for the barrier payments, n + 2 after them. -/
theorem lv_paid (c : Dev nD) (n : ℕ) (h : n < 39) : lv (paid c n).1 () = if n < 3 then 1 else n + 2 := by
  unfold paid
  by_cases h3 : n < 3
  · rw [dif_pos h3, if_pos h3]; exact lv_cell _ .bar
  · rw [dif_neg h3, if_neg h3]
    by_cases h21 : n < 21
    · rw [if_pos h21]; refine (lv_cell _ _).trans ?_
      show 5 + 6 * ((n - 3) / 6 % 3) + (n - 3) % 6 = n + 2; omega
    · rw [if_neg h21]; refine (lv_cell _ _).trans ?_
      show 23 + 6 * ((n - 21) / 6 % 3) + (n - 21) % 6 = n + 2; omega

/-! ## What is still owed -/

/-- What device c still owes before its n-th payment. -/
def Owe (c : Dev nD) (n : ℕ) : CellTallies nD τ sig Unit :=
  ∑ i ∈ Finset.Ico n 39, tallyAt (paid c i).1 () (paid c i).2

/-- The next payment is the last summand. -/
theorem Owe_succ (c : Dev nD) (n : ℕ) (h : n < 39) : Owe c n = Owe c (n + 1) + tallyAt (paid c n).1 () (paid c n).2 := by
  unfold Owe; rw [Finset.sum_eq_sum_Ico_succ_bot h, add_comm]

theorem Owe_end (c : Dev nD) : Owe c 39 = 0 := by
  unfold Owe; rw [Finset.Ico_self, Finset.sum_empty]

/-- Whatever is still owed before the n-th payment is one of the payments from n on. -/
theorem Owe_pos {c : Dev nD} {n : ℕ} {g : GSem nD τ sig} {u : Unit} (h : 0 < Owe c n g u) :
    ∃ i, n ≤ i ∧ i < 39 ∧ g = (paid c i).1 := by
  obtain ⟨i, hi, hpos⟩ := Pipeline.sum_pos_exists h
  rw [Finset.mem_Ico] at hi
  exact ⟨i, hi.1, hi.2, (Pipeline.tallyAt_pos hpos).1⟩

/-! ## Waits -/

omit [FloatOps F] in
/-- A wait on a cell below the level of the next payment is below everything still owed. -/
theorem mayWait (c : Dev nD) (sm : SemLoc sig) (n : ℕ) (hlv : lv ((c : Thread nD τ), sm) () < (if n < 3 then 1 else n + 2)) :
    (levAts L lv : sProp 𝕄) ⊢ MayWait (c : Thread nD τ) sm () (Owe c n) := by
  refine Pipeline.mayWait_of_levAts (by rw [L_tc]; exact Finset.mem_singleton_self _) fun g u hg => ?_
  obtain ⟨i, hni, hi, rfl⟩ := Owe_pos hg
  refine ⟨by rw [paid_L]; exact Finset.mem_singleton.mpr rfl, ?_⟩
  have e : lv (paid c i).1 u = lv (paid c i).1 () := rfl
  rw [e, lv_paid c i hi]
  refine lt_of_lt_of_le hlv ?_
  split_ifs <;> omega

omit [FloatOps F] in
/-- At its barrier wait a device has made its three barrier payments. -/
theorem mayWait_bar (c : Dev nD) : (levAts L lv : sProp 𝕄) ⊢ MayWait (c : Thread nD τ) (CK.bar).sem () (Owe c 3) := by
  have e : lv ((c : Thread nD τ), (CK.bar).sem) () = 1 := lv_cell c .bar
  exact mayWait c _ 3 (by rw [e]; decide)

omit [FloatOps F] in
/-- A wait on a cell nobody owes (a device's own send cells, its result copies) is allowed at every place. -/
theorem mayWait_own (c : Dev nD) (κ : CK) (hκ : lv (cell c κ) () = 0) (n : ℕ) :
    (levAts L lv : sProp 𝕄) ⊢ MayWait (c : Thread nD τ) κ.sem () (Owe c n) := by
  have e : lv ((c : Thread nD τ), κ.sem) () = 0 := hκ
  exact mayWait c _ n (by rw [e]; split_ifs <;> omega)

omit [FloatOps F] in
/-- A wait on the receive cell of reduce-scatter group k, step s, after the device's own transfer of that place. -/
theorem mayWait_rsR (c : Dev nD) (k : Fin 6) (s : Fin 3) (n : ℕ) (h : 3 + 6 * s.val + k.val < n) :
    (levAts L lv : sProp 𝕄) ⊢ MayWait (c : Thread nD τ) (CK.rsR k s).sem () (Owe c n) := by
  have e : lv ((c : Thread nD τ), (CK.rsR k s).sem) () = 5 + 6 * s.val + k.val := lv_cell c (.rsR k s)
  exact mayWait c _ n (by rw [e]; split_ifs <;> omega)

omit [FloatOps F] in
/-- A wait on the receive cell of all-gather group k, step s, after the device's own transfer of that place. -/
theorem mayWait_agR (c : Dev nD) (k : Fin 6) (s : Fin 3) (n : ℕ) (h : 21 + 6 * s.val + k.val < n) :
    (levAts L lv : sProp 𝕄) ⊢ MayWait (c : Thread nD τ) (CK.agR k s).sem () (Owe c n) := by
  have e : lv ((c : Thread nD τ), (CK.agR k s).sem) () = 23 + 6 * s.val + k.val := lv_cell c (.agR k s)
  exact mayWait c _ n (by rw [e]; split_ifs <;> omega)

omit [FloatOps F] in
/-- A wait on a staging cell of the argument blocks, before any payment or owing nothing. -/
theorem mayWait_stage (c : Dev nD) (q : DmaSem sig) (hq : decode (.dma q) = none) (O : CellTallies nD τ sig Unit)
    (hO : O = Owe c 0 ∨ O = 0) : (levAts L lv : sProp 𝕄) ⊢ MayWait (c : Thread nD τ) (.dma q) () O := by
  rcases hO with rfl | rfl
  · have e : lv ((c : Thread nD τ), SemLoc.dma q) () = 0 := by
      show (match decode (SemLoc.dma q) with | some .bar => 1 | some (.rsR k s) => 5 + 6 * s.val + k.val | some (.agR k s) => 23 + 6 * s.val + k.val | _ => 0) = 0
      rw [hq]
    exact mayWait c _ 0 (by rw [e]; decide)
  · rw [MayWait_zero]; iintro -; iempintro

end Cert.KernelIdeal.Proto

end
-- ==== Proof.Ghost.lean ====
/-
The protocol's ghost state as a device's body finds it at the start of the region: the cells' invariants and
that round 0 of every cell is reached (persistent, shared by all devices), the device's positions at round 0 of
its own 97 cells, the tokens of the duties it pays (its three barrier units, its 36 transfers' landing duties on
its neighbours' receive cells and their source duties on its own send cells, its 24 result copies), and the
credit dealt at launch on the cells others pay: its barrier cell's three units and its 36 receive cells' amounts.
-/
import proofs.«900882_g7700000000000883_dist_matmul_gelu_kshard_i_m2048_n2048_k1024_v7x_i8_f32_1_alg».proof.Proof.Levels

noncomputable section

namespace Cert.KernelIdeal.Proto

open Cert.KernelIdeal Cert.KernelIdeal.Gen Cert.KernelIdeal.Topo
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## A device's 97 cells, numbered -/

/-- Pair number i = 3 k + s as the four kinds of transfer cell. -/
def rsSk (i : Fin 18) : CK := .rsS ⟨i.val / 3, by omega⟩ ⟨i.val % 3, Nat.mod_lt _ (by decide)⟩
def rsRk (i : Fin 18) : CK := .rsR ⟨i.val / 3, by omega⟩ ⟨i.val % 3, Nat.mod_lt _ (by decide)⟩
def agSk (i : Fin 18) : CK := .agS ⟨i.val / 3, by omega⟩ ⟨i.val % 3, Nat.mod_lt _ (by decide)⟩
def agRk (i : Fin 18) : CK := .agR ⟨i.val / 3, by omega⟩ ⟨i.val % 3, Nat.mod_lt _ (by decide)⟩

/-- The 97 kinds in a row: the barrier, then 18 each of reduce-scatter send, reduce-scatter receive, all-gather
    send, all-gather receive, then the 24 result copies. -/
def ckOf (i : Fin 97) : CK :=
  if h0 : i.val = 0 then .bar
  else if h1 : i.val < 19 then rsSk ⟨i.val - 1, by omega⟩
  else if h2 : i.val < 37 then rsRk ⟨i.val - 19, by omega⟩
  else if h3 : i.val < 55 then agSk ⟨i.val - 37, by omega⟩
  else if h4 : i.val < 73 then agRk ⟨i.val - 55, by omega⟩
  else .out ⟨i.val - 73, by omega⟩

/-- The number of a kind. -/
def ckIdx : CK → Fin 97
  | .bar => 0
  | .rsS k s => ⟨1 + ks k s, by have := ks_lt k s; omega⟩
  | .rsR k s => ⟨19 + ks k s, by have := ks_lt k s; omega⟩
  | .agS k s => ⟨37 + ks k s, by have := ks_lt k s; omega⟩
  | .agR k s => ⟨55 + ks k s, by have := ks_lt k s; omega⟩
  | .out j => ⟨73 + j.val, by omega⟩

theorem ckIdx_ckOf : ∀ i : Fin 97, ckIdx (ckOf i) = i := by decide
theorem ckOf_ckIdx : ∀ κ : CK, ckOf (ckIdx κ) = κ := by
  intro κ
  cases κ with
  | bar => rfl
  | rsS k s => revert k s; decide
  | rsR k s => revert k s; decide
  | agS k s => revert k s; decide
  | agR k s => revert k s; decide
  | out j => revert j; decide
theorem ckOf_injective : Function.Injective ckOf := fun a b h => by rw [← ckIdx_ckOf a, ← ckIdx_ckOf b, h]

abbrev kcell (ck : Dev nD × Fin 97) : GSem nD τ sig := cell ck.1 (ckOf ck.2)
theorem kcell_injective : Function.Injective (kcell : Dev nD × Fin 97 → GSem nD τ sig) := by
  rintro ⟨c, i⟩ ⟨c', i'⟩ h
  have := cell_injective (a₁ := (c, ckOf i)) (a₂ := (c', ckOf i')) h
  rw [Prod.mk.injEq] at this
  rw [this.1, ckOf_injective this.2]

/-! ## The ghost state -/

variable (m : (ℓ : Loc nD τ sig) → Buf (Elt F) ℓ) (ρ : Dev nD → PrngReg) (V : Vals F)

/-- The memory at launch: arbitrary contents, every semaphore counter zero, arbitrary generator registers. -/
def s₀ : MemSt nD τ sig (Elt F) := ⟨m, fun _ => 0, ρ⟩

/-- What every device knows of every cell: its invariant, under the name `K` allocated it at, and that round 0 is reached. -/
def records (K : Dev nD × Fin 97 → ℕ) : sProp 𝕄 :=
  iprop((bigSep Finset.univ fun ck : Dev nD × Fin 97 => cellInv ER (sched V) (K ck) (kcell ck))
    ∗ bigSep Finset.univ fun ck : Dev nD × Fin 97 => reached ER (kcell ck) 0)

instance records_persistent (K : Dev nD × Fin 97 → ℕ) : BI.Persistent (records V K) := by unfold records; infer_instance

/-- The tokens of the duties device `c` pays: duty d of the barrier cell of its neighbour across axis d (that neighbour's
    neighbour across d is c), the landing duty of each of its 36 transfers on the destination's receive cell, the
    source duty of each on its own send cell, and its 24 result copies' duties. -/
def payToks (c : Dev nD) : sProp 𝕄 :=
  iprop((bigSep Finset.univ fun d : Fin 3 => dutyTok ER (cell (nbr d c) .bar) 0 d)
    ∗ (bigSep Finset.univ fun i : Fin 18 => dutyTok ER (cell (nbr (dirRS i) c) (rsRk i)) 0 (0 : Fin 3))
    ∗ (bigSep Finset.univ fun i : Fin 18 => dutyTok ER (cell (nbr (dirAG i) c) (agRk i)) 0 (0 : Fin 3))
    ∗ (bigSep Finset.univ fun i : Fin 18 => dutyTok ER (cell c (rsSk i)) 0 (0 : Fin 3))
    ∗ (bigSep Finset.univ fun i : Fin 18 => dutyTok ER (cell c (agSk i)) 0 (0 : Fin 3))
    ∗ (bigSep Finset.univ fun j : Fin 24 => dutyTok ER (cell c (.out j)) 0 (0 : Fin 3)))

/-- What stays with device `c` alone: its positions at round 0 of its own cells, and the tokens it pays with. -/
def linear (c : Dev nD) : sProp 𝕄 :=
  iprop((bigSep Finset.univ fun i : Fin 97 => atPos ER (cell c (ckOf i)) 0 ∅ 0) ∗ payToks (F := F) c)

def ghost (K : Dev nD × Fin 97 → ℕ) (c : Dev nD) : sProp 𝕄 := iprop(records V K ∗ linear (F := F) c)

/-- The credit dealt at launch on the cells of `c` that OTHER devices pay. -/
def creds (c : Dev nD) : sProp 𝕄 :=
  iprop(cred (tallyAt (cell c .bar) () 3)
    ∗ (bigSep Finset.univ fun i : Fin 18 => cred (tallyAt (cell c (rsRk i)) () (amt (rsRk i))))
    ∗ (bigSep Finset.univ fun i : Fin 18 => cred (tallyAt (cell c (agRk i)) () (amt (agRk i)))))

/-- What device `c`'s body starts from, besides its buffers: the ghost state at some names, the launch credit, the levels. -/
def start (c : Dev nD) : sProp 𝕄 :=
  iprop((∃ K, ghost V K c) ∗ creds (F := F) c ∗ levAts L lv)

end Cert.KernelIdeal.Proto

end
-- ==== Proof.Rules.lean ====
/-
The rounds library's rules at this protocol's cells: a remote transfer from device c to its neighbour across a
cube axis (paying the neighbour's receive cell out of what c owes and its own send cell), a wait for the one
round of a transfer cell, and a local copy. Each is stated for any semaphore operand that IS the cell's
semaphore, and the transfer for any device operand that IS the neighbour, so that the printed operands are
substituted, not rewritten.
-/
import proofs.«900882_g7700000000000883_dist_matmul_gelu_kshard_i_m2048_n2048_k1024_v7x_i8_f32_1_alg».proof.Proof.Owes
import proofs.«900882_g7700000000000883_dist_matmul_gelu_kshard_i_m2048_n2048_k1024_v7x_i8_f32_1_alg».proof.Proof.Ghost

noncomputable section

namespace Cert.KernelIdeal.Proto

open Cert.KernelIdeal Cert.KernelIdeal.Gen Cert.KernelIdeal.Topo
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

variable (V : Vals F)

/-! ## The schedule's tables at a semaphore operand -/

section Tables
variable (c : Dev nD) (κ : CK) {sm : SemLoc sig} (hsm : sm = κ.sem)
include hsm

omit [FloatOps F] in
theorem duties_at : (sched V).duties ((c : Thread nD τ), sm) 0 = dut κ := by subst hsm; exact duties_cell V c κ
omit [FloatOps F] in
theorem amount_at (r : ℕ) (d : Fin 3) : (sched V).amount ((c : Thread nD τ), sm) r d = amt κ := by subst hsm; exact amount_cell V c κ r d
omit [FloatOps F] in
theorem payload_at (r : ℕ) (d : Fin 3) : (sched V).payload ((c : Thread nD τ), sm) r d = pay V c κ d := by subst hsm; exact payload_cell V c κ r d
omit [FloatOps F] in
theorem expect_at (h : κ ≠ .bar) : (sched V).expect ((c : Thread nD τ), sm) 0 = amt κ := by subst hsm; exact expect_xfer V c κ h
omit [FloatOps F] in
theorem duties_later_at : ∀ r, 1 ≤ r → (sched V).duties ((c : Thread nD τ), sm) r = ∅ := duties_later V _

end Tables

/-! ## The barrier cell's tables, and a whole buffer kept folded -/

omit [FloatOps F] in
theorem duties_bar (c : Dev nD) : (sched V).duties ((c : Thread nD τ), SemLoc.reg barS) 0 = Finset.univ := duties_cell V c .bar
omit [FloatOps F] in
theorem amount_bar (c : Dev nD) (d : Fin 3) : (sched V).amount ((c : Thread nD τ), SemLoc.reg barS) 0 d = 1 := amount_cell V c .bar 0 d
omit [FloatOps F] in
theorem payload_bar (c : Dev nD) (d : Fin 3) : (sched V).payload ((c : Thread nD τ), SemLoc.reg barS) 0 d = barPay c d := payload_cell V c .bar 0 d
omit [FloatOps F] in
theorem expect_bar' (c : Dev nD) : (sched V).expect ((c : Thread nD τ), SemLoc.reg barS) 0 = 3 := expect_bar V c

omit [FloatOps F] in
/-- The three payloads of a device's barrier round. -/
theorem rest_bar (c : Dev nD) :
    bigSep ((sched V).duties ((c : Thread nD τ), SemLoc.reg barS) 0 \ ∅) (fun d => (sched V).payload ((c : Thread nD τ), SemLoc.reg barS) 0 d)
      = iprop(barPay (F := F) c 0 ∗ barPay (F := F) c 1 ∗ barPay (F := F) c 2) := by
  rw [Finset.sdiff_empty, duties_bar, bigSep_univ_eq_bigSepL [(0 : Fin 3), 1, 2] (by decide) (by decide), bigSepL_cons_cons, bigSepL_cons_cons, bigSepL_singleton,
    payload_bar, payload_bar, payload_bar]
  rfl

/-- A whole buffer of device c held at contents f. -/
def heldW (c : Dev nD) {sp : Space} {s : Shape} {e : EltTy} (M : Memref sig .tc sp s e) (f : Buf (Elt F) (M.view.loc (c : Thread nD τ))) : sProp 𝕄 :=
  M.view.loc (c : Thread nD τ) ↦[M.view.set]{fullShare} f

omit [FloatOps F] in
theorem dut_xfer {κ : CK} (h : κ ≠ .bar) : dut κ = {0} := by cases κ <;> first | rfl | exact absurd rfl h

omit [FloatOps F] in
/-- The one payload of a transfer cell's round. -/
theorem rest_xfer (c : Dev nD) (κ : CK) (h : κ ≠ .bar) {sm : SemLoc sig} (hsm : sm = κ.sem) :
    bigSep ((sched V).duties ((c : Thread nD τ), sm) 0 \ ∅) (fun d => (sched V).payload ((c : Thread nD τ), sm) 0 d) = pay V c κ 0 := by
  rw [Finset.sdiff_empty, duties_at V c κ hsm, dut_xfer h, bigSep_singleton, payload_at V c κ hsm]

omit [FloatOps F] in
/-- A points-to depends on its element set only. -/
theorem pts_set_eq {ℓ : Loc nD τ sig} {S S' : Finset (Idx ℓ)} (h : S = S') {q : PosShare TreeShare} {f : Buf (Elt F) ℓ} :
    (ℓ ↦[S]{q} f : sProp 𝕄) = (ℓ ↦[S']{q} f) := by rw [h]

omit [FloatOps F] in
theorem ptsAny_intro (c : Dev nD) {sp : Space} {s : Shape} {e : EltTy} (M : Memref sig .tc sp s e) (f : Buf (Elt F) (M.view.loc (c : Thread nD τ))) :
    (M.view.loc (c : Thread nD τ) ↦[M.view.set]{fullShare} f : sProp 𝕄) ⊢ ptsAny c M := by
  unfold ptsAny; iintro H; iexists f; iexact H
omit [FloatOps F] in
theorem ptsIs_intro (c : Dev nD) {sp : Space} {s : Shape} {e : EltTy} (M : Memref sig .tc sp s e) (f : Buf (Elt F) (M.view.loc (c : Thread nD τ)))
    (X : (s.Idx → Elt F e) → Prop) (h : X (M.view.read (Elt F) f)) :
    (M.view.loc (c : Thread nD τ) ↦[M.view.set]{fullShare} f : sProp 𝕄) ⊢ ptsIs c M X := by
  unfold ptsIs; iintro H; iexists f; isplitl [H]; · iexact H
  ipureintro; exact h
omit [FloatOps F] in
theorem ptsLent_intro (c : Dev nD) {sp : Space} {s : Shape} {e : EltTy} (M : Memref sig .tc sp s e) (f : Buf (Elt F) (M.view.loc (c : Thread nD τ))) :
    (M.view.loc (c : Thread nD τ) ↦[M.view.set]{fullShare.left} f : sProp 𝕄) ⊢ ptsLent c M := by
  unfold ptsLent; iintro H; iexists f; iexact H

/-! ## A remote transfer to the neighbour across axis d -/

/-- Device c's transfer number `idx` in program order, to its neighbour across axis d (the printed device operand `n` IS that
    neighbour): source cell κS on c, landing cell κR on the neighbour. What c owes loses the landing's amount; c gets the
    source cell's credit. -/
theorem wp_send_to (c n : Dev nD) (d : Fin 3) (hn : n = nbr d c) (κS κR : CK) (hκS : κS ≠ .bar) (hκR : κR ≠ .bar) (idx : ℕ) (hidx : idx < 39)
    (hpaid : paid c idx = (cell (nbr d c) κR, amt κR)) (hamt : amt κS = amt κR)
    {sp sp' : Space} {s : Shape} {e : EltTy}
    {src : Memref sig .tc sp s e} {dst : Memref sig .tc sp' s e}
    {hsc : (dst : Memref sig (Dev.tc n : Thread nD τ).2.kind sp' s e).view.ref.isScScratch = false}
    {sS sem : SemLoc sig} (hsS : sS = κS.sem) (hsem' : sem = κR.sem)
    {hsrc : src.view.WordExact} {hdst : dst.view.WordExact}
    {hsem : DmaTarget.Typed sp sem (.remote (Dev.tc n : Thread nD τ) (dst : Memref sig (Dev.tc n : Thread nD τ).2.kind sp' s e) sS hsc)}
    (hN : dst.view.amount sem = amt κR)
    {α : Type} {Q : α → sProp 𝕄} {k : PUnit → Prog (TpuEff nD τ sig (Elt F) Λ₀ .tc) α}
    {q : PosShare TreeShare} {fs : Buf (Elt F) (src.view.loc (c : Thread nD τ))} (fd : Buf (Elt F) (dst.view.loc (nbr d c : Thread nD τ)))
    (κ₁ κ₂ : ℕ) (W : Waits sig Unit)
    (hpay₁ : (src.view.loc (c : Thread nD τ) ↦[src.view.set]{q} fs) ⊢ pay V c κS 0)
    (hpay₂ : (dst.view.loc (nbr d c : Thread nD τ) ↦[dst.view.set]{fullShare} (dst.view.write (Elt F) fd (src.view.read (Elt F) fs) Finset.univ)) ⊢ pay V (nbr d c) κR 0) :
    iprop(cellInv ER (sched V) κ₁ (cell c κS) ∗ cellInv ER (sched V) κ₂ (cell (nbr d c) κR)
        ∗ (src.view.loc (c : Thread nD τ) ↦[src.view.set]{q} fs) ∗ (dst.view.loc (nbr d c : Thread nD τ) ↦[dst.view.set]{fullShare} fd)
        ∗ owes (c : Thread nD τ) (Owe c idx) W
        ∗ dutyTok ER (cell c κS) 0 (0 : Fin 3) ∗ reached ER (cell c κS) 0
        ∗ dutyTok ER (cell (nbr d c) κR) 0 (0 : Fin 3) ∗ reached ER (cell (nbr d c) κR) 0)
      ⊢ iprop(((cred (tallyAt (cell c κS) () (amt κR)) ∗ owes (c : Thread nD τ) (Owe c (idx + 1)) W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) (dst : Memref sig (Dev.tc n : Thread nD τ).2.kind sp' s e) sS hsc) sem hsrc hdst hsem) k) Q) := by
  subst hn hsS hsem'
  exact Rounds.wp_send_pointsTo 𝒱₀ ER (sched V) (c : Thread nD τ) none (κ₁ := κ₁) (κ₂ := κ₂)
    (r₁ := 0) (r₂ := 0) (d₁ := (0 : Fin 3)) (d₂ := (0 : Fin 3)) (fd := fd)
    (by rw [duties_cell, dut_xfer hκS]; exact Finset.mem_singleton_self _) (by rw [duties_cell, dut_xfer hκR]; exact Finset.mem_singleton_self _)
    () () (amt κR) hN ((amount_cell V c κS 0 0).trans hamt) (amount_cell V (nbr d c) κR 0 0) (Owe c (idx + 1))
    (by rw [Owe_succ c idx hidx, hpaid]) (W := W)
    (by rw [payload_cell]; exact hpay₁)
    (by rw [payload_cell]; exact hpay₂)

/-! ## A local copy (a finished block of the accumulator to the result array) -/

/-- Device c's local copy on its own cell κ (a result copy): the cell's payload is made of the destination rewritten and the
    source back; c gets the cell's credit. Nothing is owed for it. -/
theorem wp_copy_own (c : Dev nD) (κ : CK) (hκ : κ ≠ .bar)
    {sp sp' : Space} {s : Shape} {e : EltTy} {src : Memref sig .tc sp s e} {dst : Memref sig .tc sp' s e}
    {sem : SemLoc sig} (hsem' : sem = κ.sem)
    {hsrc : src.view.WordExact} {hdst : dst.view.WordExact} {hsem : DmaTarget.Typed (nD := nD) (τ := τ) sp sem (DmaTarget.here (p := Proc.tc) dst)}
    (hN : dst.view.amount sem = amt κ)
    {α : Type} {Q : α → sProp 𝕄} {k : PUnit → Prog (TpuEff nD τ sig (Elt F) Λ₀ .tc) α}
    {q : PosShare TreeShare} {fs : Buf (Elt F) (src.view.loc (c : Thread nD τ))} (fd : Buf (Elt F) (dst.view.loc (c : Thread nD τ))) (κn : ℕ)
    (hpay : iprop((dst.view.loc (c : Thread nD τ) ↦[dst.view.set]{fullShare} (dst.view.write (Elt F) fd (src.view.read (Elt F) fs) Finset.univ))
              ∗ (src.view.loc (c : Thread nD τ) ↦[src.view.set]{q} fs)) ⊢ pay V c κ 0) :
    iprop(cellInv ER (sched V) κn (cell c κ) ∗ (src.view.loc (c : Thread nD τ) ↦[src.view.set]{q} fs) ∗ (dst.view.loc (c : Thread nD τ) ↦[dst.view.set]{fullShare} fd)
        ∗ dutyTok ER (cell c κ) 0 (0 : Fin 3) ∗ reached ER (cell c κ) 0)
      ⊢ iprop((cred (tallyAt (cell c κ) () (amt κ)) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma src (DmaTarget.here (p := Proc.tc) dst) sem hsrc hdst hsem) k) Q) := by
  subst hsem'
  exact Rounds.wp_copy_pointsTo 𝒱₀ ER (sched V) (c : Thread nD τ) none (κ := κn) (r := 0) (d := (0 : Fin 3)) (fd := fd)
    (by rw [duties_cell, dut_xfer hκ]; exact Finset.mem_singleton_self _) () (amt κ) hN (amount_cell V c κ 0 0)
    (by rw [payload_cell]; exact hpay)

/-! ## A wait for the one round of a transfer cell -/

/-- A wait for the whole amount of device c's transfer cell κ while it still owes `Owe c n`: the round's payload comes back. -/
theorem wp_wait_xfer (c : Dev nD) (κ : CK) (hκ : κ ≠ .bar) (n : ℕ) {sm : SemLoc sig} (hsm : sm = κ.sem) {k' : ℕ} (hk' : k' = amt κ)
    {w : TpuEff nD τ sig (Elt F) Λ₀ .tc PUnit}
    (hw : ∀ K : PUnit → sProp 𝕄, wpE (defs₀ (F := F)) 𝒱₀ (c : Thread nD τ) none Set.univ w K = waitSpec (c : Thread nD τ) Set.univ sm k' K)
    (hmay : (levAts L lv : sProp 𝕄) ⊢ MayWait (c : Thread nD τ) κ.sem () (Owe c n))
    {α : Type} {Q : α → sProp 𝕄} {k : PUnit → Prog (TpuEff nD τ sig (Elt F) Λ₀ .tc) α} (κn : ℕ) (W : Waits sig Unit) :
    iprop(cellInv ER (sched V) κn (cell c κ) ∗ cred (tallyAt (cell c κ) () (amt κ)) ∗ owes (c : Thread nD τ) (Owe c n) W ∗ levAts L lv
        ∗ atPos ER (cell c κ) 0 ∅ 0)
      ⊢ iprop(((owes (c : Thread nD τ) (Owe c n) (insert (κ.sem, ()) W) ∗ atPos ER (cell c κ) 1 ∅ 0 ∗ pay V c κ 0)
            -∗ wp frame (wpE (defs₀ (F := F)) 𝒱₀ (c : Thread nD τ) none) Set.univ (k ⟨⟩) Q)
          -∗ wp frame (wpE (defs₀ (F := F)) 𝒱₀ (c : Thread nD τ) none) Set.univ (.op w k) Q) := by
  subst hsm hk'
  iintro ⟨#HI, Hc, HO, #Hlev, Hat⟩ Hk
  iapply (Rounds.wp_wait_rest_token 𝒱₀ ER (sched V) (c : Thread nD τ) none (κ := κn) hw (Set.mem_univ _) () (O := Owe c n) (W := W) (R := 0) (m := 0) (T := ∅)
      (by rw [Nat.zero_add]; exact (expect_xfer V c κ hκ).symm)) $$ [Hc HO Hat]
  · isplitr; · iexact HI
    isplitl [Hc]; · iexact Hc
    isplitl [HO]; · iexact HO
    isplitr; · iapply hmay; iexact Hlev
    iexact Hat
  iintro ⟨HO, Hat, -, Hpay⟩
  ihave Hp := (Entails.of_eq (rest_xfer V c κ hκ rfl)) $$ Hpay
  iapply Hk
  isplitl [HO]; · iexact HO
  isplitl [Hat]; · iexact Hat
  iexact Hp

end Cert.KernelIdeal.Proto

end
-- ==== Proof.Dats.lean ====
/-
The proof data of the one region, on device c.

Before its one point the region's assertion holds what the device's body starts from: the protocol's ghost
state, the launch credit and the levels; the result array whole, at its launch contents; and the nineteen
scratch buffers whole, at some contents. After the point it holds the result array whole at contents of which
the result predicate holds, the device's 96 protocol semaphores back at zero, and the scratch buffers again.
The two staged argument blocks are left in place by the body. At the point the device owes all of its 39
payments; after it nothing.
-/
import proofs.«900882_g7700000000000883_dist_matmul_gelu_kshard_i_m2048_n2048_k1024_v7x_i8_f32_1_alg».proof.Proof.Rules

noncomputable section

namespace Cert.KernelIdeal.Proto

open Cert.KernelIdeal Cert.KernelIdeal.Gen Cert.KernelIdeal.Topo
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (V : Vals F)

/-! ## Contents -/

/-- The staged block of the first argument: the whole of the device's array. -/
def Astg (c : Dev nD) : (cc0_stg0_0 : Ref sig .tc).ty.Contents (Elt F) :=
  (win0_0.blk (0 : Fin 1)).view.read (Elt F) (m ((c : Thread nD τ).loc main_arg0))

/-- The staged block of the second argument. -/
def Bstg (c : Dev nD) : (cc0_stg1_0 : Ref sig .tc).ty.Contents (Elt F) :=
  (win0_1.blk (0 : Fin 1)).view.read (Elt F) (m ((c : Thread nD τ).loc main_arg1))

/-! ## Buffers -/

/-- The nineteen scratch buffers of device c, each whole at some contents. -/
def scratchAny (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f)
    ∗ (∃ f : Buf (Elt F) ((c : Thread nD τ).loc cc0_scratch4), ((c : Thread nD τ).loc cc0_scratch4) ↦{fullShare} f)
    ∗ (∃ f : Buf (Elt F) ((c : Thread nD τ).loc cc0_scratch5), ((c : Thread nD τ).loc cc0_scratch5) ↦{fullShare} f)
    ∗ (∃ f : Buf (Elt F) ((c : Thread nD τ).loc cc0_scratch6), ((c : Thread nD τ).loc cc0_scratch6) ↦{fullShare} f)
    ∗ (∃ f : Buf (Elt F) ((c : Thread nD τ).loc cc0_scratch7), ((c : Thread nD τ).loc cc0_scratch7) ↦{fullShare} f)
    ∗ (∃ f : Buf (Elt F) ((c : Thread nD τ).loc cc0_scratch8), ((c : Thread nD τ).loc cc0_scratch8) ↦{fullShare} f)
    ∗ (∃ f : Buf (Elt F) ((c : Thread nD τ).loc cc0_scratch9), ((c : Thread nD τ).loc cc0_scratch9) ↦{fullShare} f)
    ∗ (∃ f : Buf (Elt F) ((c : Thread nD τ).loc cc0_scratch10), ((c : Thread nD τ).loc cc0_scratch10) ↦{fullShare} f)
    ∗ (∃ f : Buf (Elt F) ((c : Thread nD τ).loc cc0_scratch11), ((c : Thread nD τ).loc cc0_scratch11) ↦{fullShare} f)
    ∗ (∃ f : Buf (Elt F) ((c : Thread nD τ).loc cc0_scratch12), ((c : Thread nD τ).loc cc0_scratch12) ↦{fullShare} f)
    ∗ (∃ f : Buf (Elt F) ((c : Thread nD τ).loc cc0_scratch13), ((c : Thread nD τ).loc cc0_scratch13) ↦{fullShare} f)
    ∗ (∃ f : Buf (Elt F) ((c : Thread nD τ).loc cc0_scratch14), ((c : Thread nD τ).loc cc0_scratch14) ↦{fullShare} f)
    ∗ (∃ f : Buf (Elt F) ((c : Thread nD τ).loc cc0_scratch15), ((c : Thread nD τ).loc cc0_scratch15) ↦{fullShare} f)
    ∗ (∃ f : Buf (Elt F) ((c : Thread nD τ).loc cc0_scratch16), ((c : Thread nD τ).loc cc0_scratch16) ↦{fullShare} f)
    ∗ (∃ f : Buf (Elt F) ((c : Thread nD τ).loc cc0_scratch17), ((c : Thread nD τ).loc cc0_scratch17) ↦{fullShare} f)
    ∗ (∃ f : Buf (Elt F) ((c : Thread nD τ).loc cc0_scratch18), ((c : Thread nD τ).loc cc0_scratch18) ↦{fullShare} f))

/-- The result array of device c, whole, at contents f. -/
def outWhole (c : Dev nD) (f : Buf (Elt F) ((c : Thread nD τ).loc main_v1)) : sProp 𝕄 :=
  ((c : Thread nD τ).loc main_v1) ↦{fullShare} f

/-- The 96 protocol semaphores of device c (every cell but the barrier's, which is not the launch's to hand back)
    at zero. -/
def ownZero (c : Dev nD) : sProp 𝕄 :=
  bigSep (Finset.univ.erase (0 : Fin 97)) fun i => semVal (cell c (ckOf i)) 0

omit [FloatOps F] in
/-- The scratch buffers are the region's scoped buffers that stage no window. -/
theorem scopedRest_eq (c : Dev nD) :
    (Pipeline.scopedRest (Ix := Unit) (Name := ℕ) (U := UU) (Lvl := ℕ) (Val := Elt F) spec0 c : sProp 𝕄) = scratchAny c :=
  scopedRest0_eq c

/-! ## The region's assertions -/

def Φ₀ (c : Dev nD) : sProp 𝕄 :=
  iprop(start V c ∗ outWhole c (m ((c : Thread nD τ).loc main_v1)) ∗ scratchAny (F := F) c)

def Φ₁ (c : Dev nD) : sProp 𝕄 :=
  iprop((∃ f, outWhole c f ∗ ⌜V.res c f⌝) ∗ ownZero (F := F) c ∗ scratchAny (F := F) c)

/-- The region's proof data on device c. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => Astg m c
    | ⟨1, _⟩ => Bstg m c
  Φ t := match t with
    | ⟨0, _⟩ => Φ₀ m V c
    | ⟨_ + 1, _⟩ => Φ₁ V c
  q _ := fullShare
  owed t := match t with
    | ⟨0, _⟩ => Owe c 0
    | ⟨_ + 1, _⟩ => 0

end Cert.KernelIdeal.Proto

end
-- ==== Proof.SepFin.lean ====
/-
The separating conjunctions over the 3 cube axes, the 18 (group, step) pairs, the 24 result copies and a
device's 97 cells, written out member by member.
-/
import proofs.«900882_g7700000000000883_dist_matmul_gelu_kshard_i_m2048_n2048_k1024_v7x_i8_f32_1_alg».proof.Proof.Dats

set_option maxRecDepth 16384

noncomputable section

namespace Cert.KernelIdeal.Proto

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

omit [FloatOps F] in
theorem sep_fin3 (Φ : Fin 3 → sProp 𝕄) : bigSep Finset.univ Φ = iprop(Φ 0 ∗ Φ 1 ∗ Φ 2) :=
  bigSep_univ_eq_bigSepL [0, 1, 2] (by decide) (by decide) Φ
omit [FloatOps F] in
theorem sep_fin18 (Φ : Fin 18 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17) :=
  bigSep_univ_eq_bigSepL [0, 1, 2, 3, 4, 5, 6, 7, 8, 9, 10, 11, 12, 13, 14, 15, 16, 17] (by decide) (by decide) Φ
omit [FloatOps F] in
theorem sep_fin24 (Φ : Fin 24 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23) :=
  bigSep_univ_eq_bigSepL [0, 1, 2, 3, 4, 5, 6, 7, 8, 9, 10, 11, 12, 13, 14, 15, 16, 17, 18, 19, 20, 21, 22, 23] (by decide) (by decide) Φ
omit [FloatOps F] in
theorem sep_fin97 (Φ : Fin 97 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24 ∗ Φ 25 ∗ Φ 26 ∗ Φ 27 ∗ Φ 28 ∗ Φ 29 ∗ Φ 30 ∗ Φ 31 ∗ Φ 32 ∗ Φ 33 ∗ Φ 34 ∗ Φ 35 ∗ Φ 36 ∗ Φ 37 ∗ Φ 38 ∗ Φ 39 ∗ Φ 40 ∗ Φ 41 ∗ Φ 42 ∗ Φ 43 ∗ Φ 44 ∗ Φ 45 ∗ Φ 46 ∗ Φ 47 ∗ Φ 48 ∗ Φ 49 ∗ Φ 50 ∗ Φ 51 ∗ Φ 52 ∗ Φ 53 ∗ Φ 54 ∗ Φ 55 ∗ Φ 56 ∗ Φ 57 ∗ Φ 58 ∗ Φ 59 ∗ Φ 60 ∗ Φ 61 ∗ Φ 62 ∗ Φ 63 ∗ Φ 64 ∗ Φ 65 ∗ Φ 66 ∗ Φ 67 ∗ Φ 68 ∗ Φ 69 ∗ Φ 70 ∗ Φ 71 ∗ Φ 72 ∗ Φ 73 ∗ Φ 74 ∗ Φ 75 ∗ Φ 76 ∗ Φ 77 ∗ Φ 78 ∗ Φ 79 ∗ Φ 80 ∗ Φ 81 ∗ Φ 82 ∗ Φ 83 ∗ Φ 84 ∗ Φ 85 ∗ Φ 86 ∗ Φ 87 ∗ Φ 88 ∗ Φ 89 ∗ Φ 90 ∗ Φ 91 ∗ Φ 92 ∗ Φ 93 ∗ Φ 94 ∗ Φ 95 ∗ Φ 96) :=
  bigSep_univ_eq_bigSepL [0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44, 45, 46, 47, 48, 49, 50, 51, 52, 53, 54, 55, 56, 57, 58, 59, 60, 61, 62, 63, 64, 65, 66, 67, 68, 69, 70, 71, 72, 73, 74, 75, 76, 77, 78, 79, 80, 81, 82, 83, 84, 85, 86, 87, 88, 89, 90, 91, 92, 93, 94, 95, 96] (by decide) (by decide) Φ

end Cert.KernelIdeal.Proto

end
-- ==== Proof.Start.lean ====
/-
Taking a device's starting state apart: a cell's invariant and its reached round read off the shared records;
a whole buffer in the two spellings of its location.
-/
import proofs.«900882_g7700000000000883_dist_matmul_gelu_kshard_i_m2048_n2048_k1024_v7x_i8_f32_1_alg».proof.Proof.SepFin

set_option maxRecDepth 16384

noncomputable section

namespace Cert.KernelIdeal.Proto

open Cert.KernelIdeal Cert.KernelIdeal.Gen Cert.KernelIdeal.Topo
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (V : Vals F)

omit [FloatOps F] in
theorem inv_at' (K : Dev nD × Fin 97 → ℕ) (ck : Dev nD × Fin 97) :
    (bigSep Finset.univ fun ck : Dev nD × Fin 97 => (cellInv ER (sched V) (K ck) (kcell ck) : sProp 𝕄)) ⊢ cellInv ER (sched V) (K ck) (kcell ck) :=
  bigSep_elim (Finset.mem_univ ck)
omit [FloatOps F] in
theorem reached_at' (ck : Dev nD × Fin 97) :
    (bigSep Finset.univ fun ck : Dev nD × Fin 97 => (reached ER (kcell ck) 0 : sProp 𝕄)) ⊢ reached ER (kcell ck) 0 :=
  bigSep_elim (Finset.mem_univ ck)

omit [FloatOps F] in
theorem kcell_ckIdx (c' : Dev nD) (κ : CK) : kcell (c', ckIdx κ) = cell c' κ := by
  show cell c' (ckOf (ckIdx κ)) = _; rw [ckOf_ckIdx]

omit [FloatOps F] in
/-- Any device's any cell: its invariant, from the records. -/
theorem records_inv (K : Dev nD × Fin 97 → ℕ) (c' : Dev nD) (κ : CK) :
    records V K ⊢ cellInv ER (sched V) (K (c', ckIdx κ)) (cell c' κ) := by
  unfold records
  iintro ⟨#HI, -⟩
  rw [← kcell_ckIdx c' κ]
  iapply (inv_at' V K (c', ckIdx κ))
  iexact HI
omit [FloatOps F] in
/-- Any device's any cell: round 0 reached, from the records. -/
theorem records_reached (K : Dev nD × Fin 97 → ℕ) (c' : Dev nD) (κ : CK) :
    records V K ⊢ reached ER (cell c' κ) 0 := by
  unfold records
  iintro ⟨-, #HR⟩
  rw [← kcell_ckIdx c' κ]
  iapply (reached_at' (F := F) (c', ckIdx κ))
  iexact HR

omit [FloatOps F] in
/-- A whole buffer: its location spelt through the whole memref's view, or bare. -/
theorem heldW_whole_eq (c : Dev nD) (b : Ref sig .tc) (f : Buf (Elt F) ((c : Thread nD τ).loc b)) :
    heldW c (Memref.whole b : Memref sig .tc b.space b.ty.shape b.ty.elt) f = (((c : Thread nD τ).loc b) ↦{fullShare} f : sProp 𝕄) := by
  unfold heldW
  exact pts_set_eq (show (Memref.whole b : Memref sig .tc b.space b.ty.shape b.ty.elt).view.set = Finset.univ from View.set_whole _)

end Cert.KernelIdeal.Proto

end
-- ==== Proof.TopoTab.lean ====
import proofs.«900882_g7700000000000883_dist_matmul_gelu_kshard_i_m2048_n2048_k1024_v7x_i8_f32_1_alg».proof.Proof.Topo

/-! The closed forms of the printed device chains and offset functions, one line per function: the device a
    chain addresses is the neighbour across one axis of the 2x2x2 cube, and an offset is a row built from the
    device's coordinates next to a literal column. Each line is a statement over the eight devices, decided by
    evaluation. -/

set_option Elab.async false

namespace Cert.KernelIdeal.Topo

open Cert.KernelIdeal Cert.KernelIdeal.Gen Idealize.ShloMosaic

@[sl_canon] theorem dev1_eq (c : Dev nD) : (⟨k0_dev1 c, k0_dev1_lt c⟩ : Dev nD) = nbr 0 c := by
  revert c; decide +kernel
@[sl_canon] theorem dev2_eq (c : Dev nD) : (⟨k0_dev2 c, k0_dev2_lt c⟩ : Dev nD) = nbr 1 c := by
  revert c; decide +kernel
@[sl_canon] theorem dev3_eq (c : Dev nD) : (⟨k0_dev3 c, k0_dev3_lt c⟩ : Dev nD) = nbr 2 c := by
  revert c; decide +kernel
@[sl_canon] theorem dev4_eq (c : Dev nD) : (⟨k0_dev4 c, k0_dev4_lt c⟩ : Dev nD) = nbr 0 c := by
  revert c; decide +kernel
@[sl_canon] theorem dev5_eq (c : Dev nD) : (⟨k0_dev5 c, k0_dev5_lt c⟩ : Dev nD) = nbr 1 c := by
  revert c; decide +kernel
@[sl_canon] theorem dev6_eq (c : Dev nD) : (⟨k0_dev6 c, k0_dev6_lt c⟩ : Dev nD) = nbr 2 c := by
  revert c; decide +kernel
@[sl_canon] theorem dev7_eq (c : Dev nD) : (⟨k0_dev7 c, k0_dev7_lt c⟩ : Dev nD) = nbr 0 c := by
  revert c; decide +kernel
@[sl_canon] theorem dev8_eq (c : Dev nD) : (⟨k0_dev8 c, k0_dev8_lt c⟩ : Dev nD) = nbr 1 c := by
  revert c; decide +kernel
@[sl_canon] theorem dev9_eq (c : Dev nD) : (⟨k0_dev9 c, k0_dev9_lt c⟩ : Dev nD) = nbr 2 c := by
  revert c; decide +kernel
@[sl_canon] theorem dev10_eq (c : Dev nD) : (⟨k0_dev10 c, k0_dev10_lt c⟩ : Dev nD) = nbr 1 c := by
  revert c; decide +kernel
@[sl_canon] theorem dev11_eq (c : Dev nD) : (⟨k0_dev11 c, k0_dev11_lt c⟩ : Dev nD) = nbr 2 c := by
  revert c; decide +kernel
@[sl_canon] theorem dev12_eq (c : Dev nD) : (⟨k0_dev12 c, k0_dev12_lt c⟩ : Dev nD) = nbr 0 c := by
  revert c; decide +kernel
@[sl_canon] theorem dev13_eq (c : Dev nD) : (⟨k0_dev13 c, k0_dev13_lt c⟩ : Dev nD) = nbr 1 c := by
  revert c; decide +kernel
@[sl_canon] theorem dev14_eq (c : Dev nD) : (⟨k0_dev14 c, k0_dev14_lt c⟩ : Dev nD) = nbr 2 c := by
  revert c; decide +kernel
@[sl_canon] theorem dev15_eq (c : Dev nD) : (⟨k0_dev15 c, k0_dev15_lt c⟩ : Dev nD) = nbr 0 c := by
  revert c; decide +kernel
@[sl_canon] theorem dev16_eq (c : Dev nD) : (⟨k0_dev16 c, k0_dev16_lt c⟩ : Dev nD) = nbr 2 c := by
  revert c; decide +kernel
@[sl_canon] theorem dev17_eq (c : Dev nD) : (⟨k0_dev17 c, k0_dev17_lt c⟩ : Dev nD) = nbr 0 c := by
  revert c; decide +kernel
@[sl_canon] theorem dev18_eq (c : Dev nD) : (⟨k0_dev18 c, k0_dev18_lt c⟩ : Dev nD) = nbr 1 c := by
  revert c; decide +kernel
@[sl_canon] theorem dev19_eq (c : Dev nD) : (⟨k0_dev19 c, k0_dev19_lt c⟩ : Dev nD) = nbr 2 c := by
  revert c; decide +kernel
@[sl_canon] theorem dev20_eq (c : Dev nD) : (⟨k0_dev20 c, k0_dev20_lt c⟩ : Dev nD) = nbr 0 c := by
  revert c; decide +kernel
@[sl_canon] theorem dev21_eq (c : Dev nD) : (⟨k0_dev21 c, k0_dev21_lt c⟩ : Dev nD) = nbr 1 c := by
  revert c; decide +kernel
@[sl_canon] theorem dev22_eq (c : Dev nD) : (⟨k0_dev22 c, k0_dev22_lt c⟩ : Dev nD) = nbr 2 c := by
  revert c; decide +kernel
@[sl_canon] theorem dev23_eq (c : Dev nD) : (⟨k0_dev23 c, k0_dev23_lt c⟩ : Dev nD) = nbr 0 c := by
  revert c; decide +kernel
@[sl_canon] theorem dev24_eq (c : Dev nD) : (⟨k0_dev24 c, k0_dev24_lt c⟩ : Dev nD) = nbr 1 c := by
  revert c; decide +kernel
@[sl_canon] theorem dev25_eq (c : Dev nD) : (⟨k0_dev25 c, k0_dev25_lt c⟩ : Dev nD) = nbr 2 c := by
  revert c; decide +kernel
@[sl_canon] theorem dev26_eq (c : Dev nD) : (⟨k0_dev26 c, k0_dev26_lt c⟩ : Dev nD) = nbr 0 c := by
  revert c; decide +kernel
@[sl_canon] theorem dev27_eq (c : Dev nD) : (⟨k0_dev27 c, k0_dev27_lt c⟩ : Dev nD) = nbr 1 c := by
  revert c; decide +kernel
@[sl_canon] theorem dev28_eq (c : Dev nD) : (⟨k0_dev28 c, k0_dev28_lt c⟩ : Dev nD) = nbr 1 c := by
  revert c; decide +kernel
@[sl_canon] theorem dev29_eq (c : Dev nD) : (⟨k0_dev29 c, k0_dev29_lt c⟩ : Dev nD) = nbr 2 c := by
  revert c; decide +kernel
@[sl_canon] theorem dev30_eq (c : Dev nD) : (⟨k0_dev30 c, k0_dev30_lt c⟩ : Dev nD) = nbr 0 c := by
  revert c; decide +kernel
@[sl_canon] theorem dev31_eq (c : Dev nD) : (⟨k0_dev31 c, k0_dev31_lt c⟩ : Dev nD) = nbr 1 c := by
  revert c; decide +kernel
@[sl_canon] theorem dev32_eq (c : Dev nD) : (⟨k0_dev32 c, k0_dev32_lt c⟩ : Dev nD) = nbr 2 c := by
  revert c; decide +kernel
@[sl_canon] theorem dev33_eq (c : Dev nD) : (⟨k0_dev33 c, k0_dev33_lt c⟩ : Dev nD) = nbr 0 c := by
  revert c; decide +kernel
@[sl_canon] theorem dev34_eq (c : Dev nD) : (⟨k0_dev34 c, k0_dev34_lt c⟩ : Dev nD) = nbr 0 c := by
  revert c; decide +kernel
@[sl_canon] theorem dev35_eq (c : Dev nD) : (⟨k0_dev35 c, k0_dev35_lt c⟩ : Dev nD) = nbr 1 c := by
  revert c; decide +kernel
@[sl_canon] theorem dev36_eq (c : Dev nD) : (⟨k0_dev36 c, k0_dev36_lt c⟩ : Dev nD) = nbr 2 c := by
  revert c; decide +kernel
@[sl_canon] theorem dev37_eq (c : Dev nD) : (⟨k0_dev37 c, k0_dev37_lt c⟩ : Dev nD) = nbr 0 c := by
  revert c; decide +kernel
@[sl_canon] theorem dev38_eq (c : Dev nD) : (⟨k0_dev38 c, k0_dev38_lt c⟩ : Dev nD) = nbr 1 c := by
  revert c; decide +kernel
@[sl_canon] theorem dev39_eq (c : Dev nD) : (⟨k0_dev39 c, k0_dev39_lt c⟩ : Dev nD) = nbr 2 c := by
  revert c; decide +kernel

theorem off1_eq (c : Dev nD) : k0_off1 c = ![(1 - cx c) * 1024, 0] := by
  revert c; decide +kernel
theorem off2_eq (c : Dev nD) : k0_off2 c = ![(1 - cy c) * 1024, 0] := by
  revert c; decide +kernel
theorem off3_eq (c : Dev nD) : k0_off3 c = ![(1 - cz c) * 1024, 0] := by
  revert c; decide +kernel
theorem off4_eq (c : Dev nD) : k0_off4 c = ![cx c * 1024, 0] := by
  revert c; decide +kernel
theorem off5_eq (c : Dev nD) : k0_off5 c = ![cx c * 1024, 0] := by
  revert c; decide +kernel
theorem off6_eq (c : Dev nD) : k0_off6 c = ![cy c * 1024, 0] := by
  revert c; decide +kernel
theorem off7_eq (c : Dev nD) : k0_off7 c = ![cy c * 1024, 384] := by
  revert c; decide +kernel
theorem off8_eq (c : Dev nD) : k0_off8 c = ![cz c * 1024, 0] := by
  revert c; decide +kernel
theorem off9_eq (c : Dev nD) : k0_off9 c = ![cz c * 1024, 768] := by
  revert c; decide +kernel
theorem off10_eq (c : Dev nD) : k0_off10 c = ![cx c * 1024, 1152] := by
  revert c; decide +kernel
theorem off11_eq (c : Dev nD) : k0_off11 c = ![cy c * 1024, 1536] := by
  revert c; decide +kernel
theorem off12_eq (c : Dev nD) : k0_off12 c = ![cz c * 1024, 1792] := by
  revert c; decide +kernel
theorem off13_eq (c : Dev nD) : k0_off13 c = ![cx c * 1024 + (1 - cy c) * 512, 0] := by
  revert c; decide +kernel
theorem off14_eq (c : Dev nD) : k0_off14 c = ![(1 - cy c) * 512, 0] := by
  revert c; decide +kernel
theorem off15_eq (c : Dev nD) : k0_off15 c = ![cx c * 1024 + cy c * 512, 0] := by
  revert c; decide +kernel
theorem off16_eq (c : Dev nD) : k0_off16 c = ![cy c * 512, 0] := by
  revert c; decide +kernel
theorem off17_eq (c : Dev nD) : k0_off17 c = ![cy c * 1024 + (1 - cz c) * 512, 384] := by
  revert c; decide +kernel
theorem off18_eq (c : Dev nD) : k0_off18 c = ![(1 - cz c) * 512, 0] := by
  revert c; decide +kernel
theorem off19_eq (c : Dev nD) : k0_off19 c = ![cy c * 1024 + cz c * 512, 384] := by
  revert c; decide +kernel
theorem off20_eq (c : Dev nD) : k0_off20 c = ![cz c * 512, 0] := by
  revert c; decide +kernel
theorem off21_eq (c : Dev nD) : k0_off21 c = ![cz c * 1024 + (1 - cx c) * 512, 768] := by
  revert c; decide +kernel
theorem off22_eq (c : Dev nD) : k0_off22 c = ![(1 - cx c) * 512, 0] := by
  revert c; decide +kernel
theorem off23_eq (c : Dev nD) : k0_off23 c = ![cz c * 1024 + cx c * 512, 768] := by
  revert c; decide +kernel
theorem off24_eq (c : Dev nD) : k0_off24 c = ![cx c * 512, 0] := by
  revert c; decide +kernel
theorem off25_eq (c : Dev nD) : k0_off25 c = ![cx c * 1024 + (1 - cy c) * 512, 1152] := by
  revert c; decide +kernel
theorem off26_eq (c : Dev nD) : k0_off26 c = ![cx c * 1024 + cy c * 512, 1152] := by
  revert c; decide +kernel
theorem off27_eq (c : Dev nD) : k0_off27 c = ![cy c * 1024 + (1 - cz c) * 512, 1536] := by
  revert c; decide +kernel
theorem off28_eq (c : Dev nD) : k0_off28 c = ![(1 - cz c) * 512, 0] := by
  revert c; decide +kernel
theorem off29_eq (c : Dev nD) : k0_off29 c = ![cy c * 1024 + cz c * 512, 1536] := by
  revert c; decide +kernel
theorem off30_eq (c : Dev nD) : k0_off30 c = ![cz c * 512, 0] := by
  revert c; decide +kernel
theorem off31_eq (c : Dev nD) : k0_off31 c = ![cz c * 1024 + (1 - cx c) * 512, 1792] := by
  revert c; decide +kernel
theorem off32_eq (c : Dev nD) : k0_off32 c = ![(1 - cx c) * 512, 0] := by
  revert c; decide +kernel
theorem off33_eq (c : Dev nD) : k0_off33 c = ![cz c * 1024 + cx c * 512, 1792] := by
  revert c; decide +kernel
theorem off34_eq (c : Dev nD) : k0_off34 c = ![cx c * 512, 0] := by
  revert c; decide +kernel
theorem off35_eq (c : Dev nD) : k0_off35 c = ![cx c * 1024 + cy c * 512 + (1 - cz c) * 256, 0] := by
  revert c; decide +kernel
theorem off36_eq (c : Dev nD) : k0_off36 c = ![1024 + (1 - cz c) * 256, 0] := by
  revert c; decide +kernel
theorem off37_eq (c : Dev nD) : k0_off37 c = ![cx c * 1024 + cy c * 512 + cz c * 256, 0] := by
  revert c; decide +kernel
theorem off38_eq (c : Dev nD) : k0_off38 c = ![1024 + cz c * 256, 0] := by
  revert c; decide +kernel
theorem off39_eq (c : Dev nD) : k0_off39 c = ![cy c * 1024 + cz c * 512 + (1 - cx c) * 256, 384] := by
  revert c; decide +kernel
theorem off40_eq (c : Dev nD) : k0_off40 c = ![1024 + (1 - cx c) * 256, 0] := by
  revert c; decide +kernel
theorem off41_eq (c : Dev nD) : k0_off41 c = ![cy c * 1024 + cz c * 512 + cx c * 256, 384] := by
  revert c; decide +kernel
theorem off42_eq (c : Dev nD) : k0_off42 c = ![1024 + cx c * 256, 0] := by
  revert c; decide +kernel
theorem off43_eq (c : Dev nD) : k0_off43 c = ![cz c * 1024 + cx c * 512 + (1 - cy c) * 256, 768] := by
  revert c; decide +kernel
theorem off44_eq (c : Dev nD) : k0_off44 c = ![1024 + (1 - cy c) * 256, 0] := by
  revert c; decide +kernel
theorem off45_eq (c : Dev nD) : k0_off45 c = ![cz c * 1024 + cx c * 512 + cy c * 256, 768] := by
  revert c; decide +kernel
theorem off46_eq (c : Dev nD) : k0_off46 c = ![1024 + cy c * 256, 0] := by
  revert c; decide +kernel
theorem off47_eq (c : Dev nD) : k0_off47 c = ![cx c * 1024 + cy c * 512 + (1 - cz c) * 256, 1152] := by
  revert c; decide +kernel
theorem off48_eq (c : Dev nD) : k0_off48 c = ![cx c * 1024 + cy c * 512 + cz c * 256, 1152] := by
  revert c; decide +kernel
theorem off49_eq (c : Dev nD) : k0_off49 c = ![cy c * 1024 + cz c * 512 + (1 - cx c) * 256, 1536] := by
  revert c; decide +kernel
theorem off50_eq (c : Dev nD) : k0_off50 c = ![1024 + (1 - cx c) * 256, 0] := by
  revert c; decide +kernel
theorem off51_eq (c : Dev nD) : k0_off51 c = ![cy c * 1024 + cz c * 512 + cx c * 256, 1536] := by
  revert c; decide +kernel
theorem off52_eq (c : Dev nD) : k0_off52 c = ![1024 + cx c * 256, 0] := by
  revert c; decide +kernel
theorem off53_eq (c : Dev nD) : k0_off53 c = ![cz c * 1024 + cx c * 512 + (1 - cy c) * 256, 1792] := by
  revert c; decide +kernel
theorem off54_eq (c : Dev nD) : k0_off54 c = ![1024 + (1 - cy c) * 256, 0] := by
  revert c; decide +kernel
theorem off55_eq (c : Dev nD) : k0_off55 c = ![cz c * 1024 + cx c * 512 + cy c * 256, 1792] := by
  revert c; decide +kernel
theorem off56_eq (c : Dev nD) : k0_off56 c = ![1024 + cy c * 256, 0] := by
  revert c; decide +kernel
theorem off57_eq (c : Dev nD) : k0_off57 c = ![1536, 0] := by
  revert c; decide +kernel
theorem off58_eq (c : Dev nD) : k0_off58 c = ![cx c * 1024 + cy c * 512 + cz c * 256, 0] := by
  revert c; decide +kernel
theorem off59_eq (c : Dev nD) : k0_off59 c = ![cx c * 1024 + cy c * 512 + cz c * 256, 0] := by
  revert c; decide +kernel
theorem off60_eq (c : Dev nD) : k0_off60 c = ![1536, 0] := by
  revert c; decide +kernel
theorem off61_eq (c : Dev nD) : k0_off61 c = ![cy c * 1024 + cz c * 512 + cx c * 256, 0] := by
  revert c; decide +kernel
theorem off62_eq (c : Dev nD) : k0_off62 c = ![cy c * 1024 + cz c * 512 + cx c * 256, 384] := by
  revert c; decide +kernel
theorem off63_eq (c : Dev nD) : k0_off63 c = ![1536, 0] := by
  revert c; decide +kernel
theorem off64_eq (c : Dev nD) : k0_off64 c = ![cz c * 1024 + cx c * 512 + cy c * 256, 0] := by
  revert c; decide +kernel
theorem off65_eq (c : Dev nD) : k0_off65 c = ![cz c * 1024 + cx c * 512 + cy c * 256, 768] := by
  revert c; decide +kernel
theorem off66_eq (c : Dev nD) : k0_off66 c = ![cx c * 1024 + cy c * 512 + cz c * 256, 1152] := by
  revert c; decide +kernel
theorem off67_eq (c : Dev nD) : k0_off67 c = ![1536, 0] := by
  revert c; decide +kernel
theorem off68_eq (c : Dev nD) : k0_off68 c = ![cy c * 1024 + cz c * 512 + cx c * 256, 0] := by
  revert c; decide +kernel
theorem off69_eq (c : Dev nD) : k0_off69 c = ![cy c * 1024 + cz c * 512 + cx c * 256, 1536] := by
  revert c; decide +kernel
theorem off70_eq (c : Dev nD) : k0_off70 c = ![1536, 0] := by
  revert c; decide +kernel
theorem off71_eq (c : Dev nD) : k0_off71 c = ![cz c * 1024 + cx c * 512 + cy c * 256, 0] := by
  revert c; decide +kernel
theorem off72_eq (c : Dev nD) : k0_off72 c = ![cz c * 1024 + cx c * 512 + cy c * 256, 1792] := by
  revert c; decide +kernel
theorem off73_eq (c : Dev nD) : k0_off73 c = ![cx c * 1024 + cy c * 512 + cz c * 256, 0] := by
  revert c; decide +kernel
theorem off74_eq (c : Dev nD) : k0_off74 c = ![cy c * 1024 + cz c * 512 + cx c * 256, 0] := by
  revert c; decide +kernel
theorem off75_eq (c : Dev nD) : k0_off75 c = ![cz c * 1024 + cx c * 512 + cy c * 256, 0] := by
  revert c; decide +kernel
theorem off76_eq (c : Dev nD) : k0_off76 c = ![cy c * 1024 + cz c * 512 + cx c * 256, 0] := by
  revert c; decide +kernel
theorem off77_eq (c : Dev nD) : k0_off77 c = ![cz c * 1024 + cx c * 512 + cy c * 256, 0] := by
  revert c; decide +kernel
theorem off78_eq (c : Dev nD) : k0_off78 c = ![cx c * 1024 + cy c * 512, 0] := by
  revert c; decide +kernel
theorem off79_eq (c : Dev nD) : k0_off79 c = ![cx c * 1024 + cy c * 512 + (1 - cz c) * 256, 0] := by
  revert c; decide +kernel
theorem off80_eq (c : Dev nD) : k0_off80 c = ![cx c * 1024 + cy c * 512 + (1 - cz c) * 256, 0] := by
  revert c; decide +kernel
theorem off81_eq (c : Dev nD) : k0_off81 c = ![cx c * 1024 + cy c * 512 + (1 - cz c) * 256, 0] := by
  revert c; decide +kernel
theorem off82_eq (c : Dev nD) : k0_off82 c = ![cy c * 1024 + cz c * 512, 0] := by
  revert c; decide +kernel
theorem off83_eq (c : Dev nD) : k0_off83 c = ![cy c * 1024 + cz c * 512 + (1 - cx c) * 256, 0] := by
  revert c; decide +kernel
theorem off84_eq (c : Dev nD) : k0_off84 c = ![cy c * 1024 + cz c * 512 + (1 - cx c) * 256, 384] := by
  revert c; decide +kernel
theorem off85_eq (c : Dev nD) : k0_off85 c = ![cy c * 1024 + cz c * 512 + (1 - cx c) * 256, 384] := by
  revert c; decide +kernel
theorem off86_eq (c : Dev nD) : k0_off86 c = ![cz c * 1024 + cx c * 512, 0] := by
  revert c; decide +kernel
theorem off87_eq (c : Dev nD) : k0_off87 c = ![cz c * 1024 + cx c * 512 + (1 - cy c) * 256, 0] := by
  revert c; decide +kernel
theorem off88_eq (c : Dev nD) : k0_off88 c = ![cz c * 1024 + cx c * 512 + (1 - cy c) * 256, 768] := by
  revert c; decide +kernel
theorem off89_eq (c : Dev nD) : k0_off89 c = ![cz c * 1024 + cx c * 512 + (1 - cy c) * 256, 768] := by
  revert c; decide +kernel
theorem off90_eq (c : Dev nD) : k0_off90 c = ![cx c * 1024 + cy c * 512 + (1 - cz c) * 256, 1152] := by
  revert c; decide +kernel
theorem off91_eq (c : Dev nD) : k0_off91 c = ![cx c * 1024 + cy c * 512 + (1 - cz c) * 256, 1152] := by
  revert c; decide +kernel
theorem off92_eq (c : Dev nD) : k0_off92 c = ![cy c * 1024 + cz c * 512, 0] := by
  revert c; decide +kernel
theorem off93_eq (c : Dev nD) : k0_off93 c = ![cy c * 1024 + cz c * 512 + (1 - cx c) * 256, 0] := by
  revert c; decide +kernel
theorem off94_eq (c : Dev nD) : k0_off94 c = ![cy c * 1024 + cz c * 512 + (1 - cx c) * 256, 1536] := by
  revert c; decide +kernel
theorem off95_eq (c : Dev nD) : k0_off95 c = ![cy c * 1024 + cz c * 512 + (1 - cx c) * 256, 1536] := by
  revert c; decide +kernel
theorem off96_eq (c : Dev nD) : k0_off96 c = ![cz c * 1024 + cx c * 512, 0] := by
  revert c; decide +kernel
theorem off97_eq (c : Dev nD) : k0_off97 c = ![cz c * 1024 + cx c * 512 + (1 - cy c) * 256, 0] := by
  revert c; decide +kernel
theorem off98_eq (c : Dev nD) : k0_off98 c = ![cz c * 1024 + cx c * 512 + (1 - cy c) * 256, 1792] := by
  revert c; decide +kernel
theorem off99_eq (c : Dev nD) : k0_off99 c = ![cz c * 1024 + cx c * 512 + (1 - cy c) * 256, 1792] := by
  revert c; decide +kernel
theorem off100_eq (c : Dev nD) : k0_off100 c = ![cx c * 1024, 0] := by
  revert c; decide +kernel
theorem off101_eq (c : Dev nD) : k0_off101 c = ![cx c * 1024 + (1 - cy c) * 512, 0] := by
  revert c; decide +kernel
theorem off102_eq (c : Dev nD) : k0_off102 c = ![cx c * 1024 + (1 - cy c) * 512, 0] := by
  revert c; decide +kernel
theorem off103_eq (c : Dev nD) : k0_off103 c = ![cx c * 1024 + (1 - cy c) * 512, 0] := by
  revert c; decide +kernel
theorem off104_eq (c : Dev nD) : k0_off104 c = ![cy c * 1024, 0] := by
  revert c; decide +kernel
theorem off105_eq (c : Dev nD) : k0_off105 c = ![cy c * 1024 + (1 - cz c) * 512, 0] := by
  revert c; decide +kernel
theorem off106_eq (c : Dev nD) : k0_off106 c = ![cy c * 1024 + (1 - cz c) * 512, 384] := by
  revert c; decide +kernel
theorem off107_eq (c : Dev nD) : k0_off107 c = ![cy c * 1024 + (1 - cz c) * 512, 384] := by
  revert c; decide +kernel
theorem off108_eq (c : Dev nD) : k0_off108 c = ![cz c * 1024, 0] := by
  revert c; decide +kernel
theorem off109_eq (c : Dev nD) : k0_off109 c = ![cz c * 1024 + (1 - cx c) * 512, 0] := by
  revert c; decide +kernel
theorem off110_eq (c : Dev nD) : k0_off110 c = ![cz c * 1024 + (1 - cx c) * 512, 768] := by
  revert c; decide +kernel
theorem off111_eq (c : Dev nD) : k0_off111 c = ![cz c * 1024 + (1 - cx c) * 512, 768] := by
  revert c; decide +kernel
theorem off112_eq (c : Dev nD) : k0_off112 c = ![cx c * 1024 + (1 - cy c) * 512, 1152] := by
  revert c; decide +kernel
theorem off113_eq (c : Dev nD) : k0_off113 c = ![cx c * 1024 + (1 - cy c) * 512, 1152] := by
  revert c; decide +kernel
theorem off114_eq (c : Dev nD) : k0_off114 c = ![cy c * 1024, 0] := by
  revert c; decide +kernel
theorem off115_eq (c : Dev nD) : k0_off115 c = ![cy c * 1024 + (1 - cz c) * 512, 0] := by
  revert c; decide +kernel
theorem off116_eq (c : Dev nD) : k0_off116 c = ![cy c * 1024 + (1 - cz c) * 512, 1536] := by
  revert c; decide +kernel
theorem off117_eq (c : Dev nD) : k0_off117 c = ![cy c * 1024 + (1 - cz c) * 512, 1536] := by
  revert c; decide +kernel
theorem off118_eq (c : Dev nD) : k0_off118 c = ![cz c * 1024, 0] := by
  revert c; decide +kernel
theorem off119_eq (c : Dev nD) : k0_off119 c = ![cz c * 1024 + (1 - cx c) * 512, 0] := by
  revert c; decide +kernel
theorem off120_eq (c : Dev nD) : k0_off120 c = ![cz c * 1024 + (1 - cx c) * 512, 1792] := by
  revert c; decide +kernel
theorem off121_eq (c : Dev nD) : k0_off121 c = ![cz c * 1024 + (1 - cx c) * 512, 1792] := by
  revert c; decide +kernel
theorem off122_eq (c : Dev nD) : k0_off122 c = ![(1 - cx c) * 1024, 0] := by
  revert c; decide +kernel
theorem off123_eq (c : Dev nD) : k0_off123 c = ![(1 - cx c) * 1024, 0] := by
  revert c; decide +kernel
theorem off124_eq (c : Dev nD) : k0_off124 c = ![(1 - cx c) * 1024, 0] := by
  revert c; decide +kernel
theorem off125_eq (c : Dev nD) : k0_off125 c = ![(1 - cy c) * 1024, 0] := by
  revert c; decide +kernel
theorem off126_eq (c : Dev nD) : k0_off126 c = ![(1 - cy c) * 1024, 384] := by
  revert c; decide +kernel
theorem off127_eq (c : Dev nD) : k0_off127 c = ![(1 - cy c) * 1024, 384] := by
  revert c; decide +kernel
theorem off128_eq (c : Dev nD) : k0_off128 c = ![(1 - cz c) * 1024, 0] := by
  revert c; decide +kernel
theorem off129_eq (c : Dev nD) : k0_off129 c = ![(1 - cz c) * 1024, 768] := by
  revert c; decide +kernel
theorem off130_eq (c : Dev nD) : k0_off130 c = ![(1 - cz c) * 1024, 768] := by
  revert c; decide +kernel
theorem off131_eq (c : Dev nD) : k0_off131 c = ![(1 - cx c) * 1024, 1152] := by
  revert c; decide +kernel
theorem off132_eq (c : Dev nD) : k0_off132 c = ![(1 - cx c) * 1024, 1152] := by
  revert c; decide +kernel
theorem off133_eq (c : Dev nD) : k0_off133 c = ![(1 - cy c) * 1024, 0] := by
  revert c; decide +kernel
theorem off134_eq (c : Dev nD) : k0_off134 c = ![(1 - cy c) * 1024, 1536] := by
  revert c; decide +kernel
theorem off135_eq (c : Dev nD) : k0_off135 c = ![(1 - cy c) * 1024, 1536] := by
  revert c; decide +kernel
theorem off136_eq (c : Dev nD) : k0_off136 c = ![(1 - cz c) * 1024, 0] := by
  revert c; decide +kernel
theorem off137_eq (c : Dev nD) : k0_off137 c = ![(1 - cz c) * 1024, 1792] := by
  revert c; decide +kernel
theorem off138_eq (c : Dev nD) : k0_off138 c = ![(1 - cz c) * 1024, 1792] := by
  revert c; decide +kernel

end Cert.KernelIdeal.Topo
-- ==== Proof.Pieces.lean ====
/-
The pieces of the scratch buffers as sets of indices: which pieces are disjoint, which tile a buffer, and
how a device's rows of the all-gather buffer double from step to step by joining with the rows of the
neighbour across the step's axis. With them, the lemma that cuts a points-to along a disjoint union.
-/
import proofs.«900882_g7700000000000883_dist_matmul_gelu_kshard_i_m2048_n2048_k1024_v7x_i8_f32_1_alg».proof.Proof.SchedTab
import proofs.«900882_g7700000000000883_dist_matmul_gelu_kshard_i_m2048_n2048_k1024_v7x_i8_f32_1_alg».proof.Proof.TopoTab

noncomputable section

namespace Cert.KernelIdeal.Proto

open Cert.KernelIdeal Cert.KernelIdeal.Gen Cert.KernelIdeal.Topo
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ × URounds (GSem nD τ sig) (Fin 3)) ℕ

/-- A points-to over a disjoint union is the two points-to's side by side. -/
theorem pts_union {ℓ : Loc nD τ sig} {S1 S2 : Finset (Idx ℓ)} {q : PosShare TreeShare} {f : Buf (Elt F) ℓ}
    (h : Disjoint S1 S2) :
    (ℓ ↦[S1 ∪ S2]{q} f : sProp 𝕄) ⊣⊢ iprop((ℓ ↦[S1]{q} f) ∗ (ℓ ↦[S2]{q} f)) :=
  Region.is_union h

/-- Contents that agree on the set give the same points-to. -/
theorem pts_congr {ℓ : Loc nD τ sig} {S : Finset (Idx ℓ)} {q : PosShare TreeShare} {f g : Buf (Elt F) ℓ}
    (h : ∀ i ∈ S, f i = g i) :
    (ℓ ↦[S]{q} f : sProp 𝕄) = (ℓ ↦[S]{q} g) :=
  Region.is_congr h

/-! ### Rectangles in an `n x w` array

A unit-stride rectangle is the product of a row range and a column range, so the set facts below are
facts about intervals of naturals. -/

section Rows

variable {n w : ℕ}

/-- Rectangles whose row ranges lie apart are disjoint. -/
theorem unit_disjoint_rows {o o' z z' : Fin 2 → ℕ} {inb inb'}
    (h : o 0 + z 0 ≤ o' 0 ∨ o' 0 + z' 0 ≤ o 0) :
    Disjoint (Rect.unit (s := ⟨2, ![n, w]⟩) o z inb).set (Rect.unit (s := ⟨2, ![n, w]⟩) o' z' inb').set :=
  Rect.unit_disjoint 0 h

/-- Rectangles whose column ranges lie apart are disjoint. -/
theorem unit_disjoint_cols {o o' z z' : Fin 2 → ℕ} {inb inb'}
    (h : o 1 + z 1 ≤ o' 1 ∨ o' 1 + z' 1 ≤ o 1) :
    Disjoint (Rect.unit (s := ⟨2, ![n, w]⟩) o z inb).set (Rect.unit (s := ⟨2, ![n, w]⟩) o' z' inb').set :=
  Rect.unit_disjoint 1 h

/-- Two rectangles with the same columns and adjacent row ranges make up the rectangle over the joined
    row range (the first may sit above or below the second). -/
theorem unit_union_rows {o o1 o2 z z1 z2 : Fin 2 → ℕ} {inb inb1 inb2}
    (h : (o1 1 = o 1 ∧ o2 1 = o 1 ∧ z1 1 = z 1 ∧ z2 1 = z 1) ∧
      (o1 0 = o 0 ∧ o2 0 = o 0 + z1 0 ∨ o2 0 = o 0 ∧ o1 0 = o 0 + z2 0) ∧ z 0 = z1 0 + z2 0) :
    (Rect.unit (s := ⟨2, ![n, w]⟩) o z inb).set
      = (Rect.unit (s := ⟨2, ![n, w]⟩) o1 z1 inb1).set ∪ (Rect.unit (s := ⟨2, ![n, w]⟩) o2 z2 inb2).set := by
  ext i
  simp only [Finset.mem_union, Rect.mem_set_unit, Fin.forall_fin_two]
  omega

/-- A rectangle that starts at the origin and has the array's extents is the whole array. -/
theorem unit_eq_univ {o z : Fin 2 → ℕ} {inb} (h : (o 0 = 0 ∧ o 1 = 0) ∧ z 0 = n ∧ z 1 = w) :
    (Rect.unit (s := ⟨2, ![n, w]⟩) o z inb).set = Finset.univ := by
  ext i
  simp only [Rect.mem_set_unit, Fin.forall_fin_two, Finset.mem_univ, iff_true]
  have h0 : (i 0 : ℕ) < n := (i 0).isLt
  have h1 : (i 1 : ℕ) < w := (i 1).isLt
  omega

/-- Two rectangles over all columns whose row ranges are adjacent and together run over all rows make up
    the whole array. -/
theorem unit_union_univ {o1 o2 z1 z2 : Fin 2 → ℕ} {inb1 inb2}
    (h : (o1 1 = 0 ∧ o2 1 = 0 ∧ z1 1 = w ∧ z2 1 = w) ∧
      (o1 0 = 0 ∧ o2 0 = z1 0 ∨ o2 0 = 0 ∧ o1 0 = z2 0) ∧ z1 0 + z2 0 = n) :
    (Rect.unit (s := ⟨2, ![n, w]⟩) o1 z1 inb1).set ∪ (Rect.unit (s := ⟨2, ![n, w]⟩) o2 z2 inb2).set
      = Finset.univ := by
  ext i
  simp only [Finset.mem_union, Rect.mem_set_unit, Fin.forall_fin_two, Finset.mem_univ, iff_true]
  have h0 : (i 0 : ℕ) < n := (i 0).isLt
  have h1 : (i 1 : ℕ) < w := (i 1).isLt
  omega

/-- Three rectangles over all columns whose row ranges follow one another from row 0 to the last row
    make up the whole array. -/
theorem unit_union3_univ {o1 o2 o3 z1 z2 z3 : Fin 2 → ℕ} {inb1 inb2 inb3}
    (h : ((o1 1 = 0 ∧ o2 1 = 0 ∧ o3 1 = 0) ∧ z1 1 = w ∧ z2 1 = w ∧ z3 1 = w) ∧
      o1 0 = 0 ∧ o2 0 = z1 0 ∧ o3 0 = z1 0 + z2 0 ∧ z1 0 + z2 0 + z3 0 = n) :
    (Rect.unit (s := ⟨2, ![n, w]⟩) o1 z1 inb1).set ∪ (Rect.unit (s := ⟨2, ![n, w]⟩) o2 z2 inb2).set
        ∪ (Rect.unit (s := ⟨2, ![n, w]⟩) o3 z3 inb3).set
      = Finset.univ := by
  ext i
  simp only [Finset.mem_union, Rect.mem_set_unit, Fin.forall_fin_two, Finset.mem_univ, iff_true]
  have h0 : (i 0 : ℕ) < n := (i 0).isLt
  have h1 : (i 1 : ℕ) < w := (i 1).isLt
  omega

/-- A rectangle inside another, axis by axis. -/
theorem unit_subset {o o' z z' : Fin 2 → ℕ} {inb inb'}
    (h : (o' 0 ≤ o 0 ∧ o 0 + z 0 ≤ o' 0 + z' 0) ∧ (o' 1 ≤ o 1 ∧ o 1 + z 1 ≤ o' 1 + z' 1)) :
    (Rect.unit (s := ⟨2, ![n, w]⟩) o z inb).set ⊆ (Rect.unit (s := ⟨2, ![n, w]⟩) o' z' inb').set := by
  intro i
  simp only [Rect.mem_set_unit, Fin.forall_fin_two]
  omega

end Rows

/-! ### How the table of cases is closed

Every piece is a slice of a whole buffer, so its set of indices is its rectangle. At literal rows the
hypothesis of the lemma above is a closed statement about numbers. At a device's rows it is a statement
about the closed forms of the row offsets, linear in the device's three coordinates, each 0 or 1; the
neighbour's coordinates are the device's with one of them flipped. -/

/-- A fact about pieces at literal rows: read the sets as rectangles and apply the lemma, its hypotheses
    being closed statements about numbers. -/
macro "piece_lit " t:term : tactic =>
  `(tactic| (simp only [View.set_slice_whole]; exact $t))

/-- The arithmetic of a device's row offsets: the closed forms `ls`, the neighbour's coordinates, and the
    coordinates being at most 1. -/
macro "piece_arith " c:ident " [" ls:Lean.Parser.Tactic.simpLemma,* "]" : tactic =>
  `(tactic| (
    simp only [$ls,*, cx_nbr0, cy_nbr0, cz_nbr0, cx_nbr1, cy_nbr1, cz_nbr1, cx_nbr2, cy_nbr2, cz_nbr2,
      Matrix.cons_val_zero, Matrix.cons_val_one, and_true, true_and, and_self]
    have := cx_le $c
    have := cy_le $c
    have := cz_le $c
    omega))

/-- A fact about pieces at a device's rows. -/
macro "piece_dev " c:ident t:ident " [" ls:Lean.Parser.Tactic.simpLemma,* "]" : tactic =>
  `(tactic| (simp only [View.set_slice_whole]; refine $t ?_; piece_arith $c [$ls,*]))

end Cert.KernelIdeal.Proto

end
-- ==== Proof.PiecesOut.lean ====
/-
The 24 copies of finished result blocks, as sets of indices of the 2048 x 2048 accumulator and of the
result array: copy j = 6 l + k moves the rows of level l in the columns of group k. For a device with
coordinates (p, q, r) along the axes k, k + 1, k + 2 (mod 3) the levels are its own 256 rows, the 256 rows
of the sibling block, the other 512 rows of its half and the other half: four row ranges that tile 0..2048;
the six column groups tile the columns. So the 24 sets are pairwise disjoint and make up the whole array.
-/
import proofs.«900882_g7700000000000883_dist_matmul_gelu_kshard_i_m2048_n2048_k1024_v7x_i8_f32_1_alg».proof.Proof.Pieces
import Mathlib.Algebra.BigOperators.Fin

noncomputable section

namespace Cert.KernelIdeal.Proto

open Cert.KernelIdeal Cert.KernelIdeal.Gen Cert.KernelIdeal.Topo
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ × URounds (GSem nD τ sig) (Fin 3)) ℕ

/-- The device's coordinate along axis `a` (mod 3). -/
def coordN (c : Dev nD) (a : ℕ) : ℕ := if a % 3 = 0 then cx c else if a % 3 = 1 then cy c else cz c

/-- The first row of copy `j`: with `k = j % 6` and `(p, q, r)` the coordinates along `k, k + 1, k + 2`,
    level 0 is the device's own block `1024 p + 512 q + 256 r`, level 1 its sibling (`r` flipped), level 2
    the other 512 rows of its half (`q` flipped) and level 3 the other half (`p` flipped). -/
def outRow (c : Dev nD) (j : Fin 24) : ℕ :=
  match j.val / 6 with
  | 0 => coordN c (j.val % 6) * 1024 + coordN c (j.val % 6 + 1) * 512 + coordN c (j.val % 6 + 2) * 256
  | 1 => coordN c (j.val % 6) * 1024 + coordN c (j.val % 6 + 1) * 512 + (1 - coordN c (j.val % 6 + 2)) * 256
  | 2 => coordN c (j.val % 6) * 1024 + (1 - coordN c (j.val % 6 + 1)) * 512
  | _ => (1 - coordN c (j.val % 6)) * 1024
/-- How many rows copy `j` moves. -/
def outRowH (j : Fin 24) : ℕ :=
  match j.val / 6 with
  | 0 => 256
  | 1 => 256
  | 2 => 512
  | _ => 1024
/-- The first column of copy `j`'s column group. -/
def outColLo (j : Fin 24) : ℕ :=
  match j.val % 6 with
  | 0 => 0
  | 1 => 384
  | 2 => 768
  | 3 => 1152
  | 4 => 1536
  | _ => 1792
/-- The width of copy `j`'s column group. -/
def outColW (j : Fin 24) : ℕ := if j.val % 6 < 4 then 384 else 256

/-- Every copy stays inside the array (evaluated over the 8 devices and 24 copies). -/
theorem out_inb : ∀ (c : Dev nD) (j : Fin 24) (a : Fin 2),
    (![outRow c j, outColLo j] : Fin 2 → ℕ) a + (![outRowH j, outColW j] : Fin 2 → ℕ) a ≤ S2048x2048.size a := by
  decide +kernel

/-- Two different copies are apart in their rows or in their columns (evaluated over the 8 devices and the
    pairs of copies). -/
theorem out_apart : ∀ (c : Dev nD) (j j' : Fin 24), j ≠ j' →
    (outRow c j + outRowH j ≤ outRow c j' ∨ outRow c j' + outRowH j' ≤ outRow c j) ∨
    (outColLo j + outColW j ≤ outColLo j' ∨ outColLo j' + outColW j' ≤ outColLo j) := by
  decide +kernel

/-- The rectangle of copy `j` of device `c`. -/
def outRect (c : Dev nD) (j : Fin 24) : Rect S2048x2048 :=
  Rect.unit ![outRow c j, outColLo j] ![outRowH j, outColW j] (out_inb c j)

/-- The indices copy `j` of device `c` moves (the same in the accumulator and in the result array). -/
def outSet (c : Dev nD) (j : Fin 24) : Finset S2048x2048.Idx := (outRect c j).set

theorem outSet_disjoint (c : Dev nD) : ∀ j j' : Fin 24, j ≠ j' → Disjoint (outSet c j) (outSet c j') := by
  intro j j' h
  rcases out_apart c j j' h with h0 | h1
  · exact Rect.unit_disjoint 0 h0
  · exact Rect.unit_disjoint 1 h1

theorem outSet_card (c : Dev nD) (j : Fin 24) : (outSet c j).card = outRowH j * outColW j := by
  unfold outSet outRect
  rw [Rect.card_set]
  simp [Shape.numel, Fin.prod_univ_two]

/-- Pairwise disjoint sets whose sizes add up to the size of the array make up the array. -/
theorem outSet_cover (c : Dev nD) : Finset.univ.biUnion (outSet c) = Finset.univ := by
  apply Shape.eq_univ_of_card
  rw [Finset.card_biUnion (fun j _ j' _ h => outSet_disjoint c j j' h)]
  simp only [outSet_card]
  decide +kernel

/-- Rectangles at equal offsets and sizes are the same set. -/
theorem unit_set_congr {s : Shape} {o o' z z' : Fin s.rank → ℕ} {inb inb'} (ho : o = o') (hz : z = z') :
    (Rect.unit (s := s) o z inb).set = (Rect.unit (s := s) o' z' inb').set := by
  subst ho; subst hz; rfl

/-- A printed piece is copy `j`'s set once its offset is put in closed form. -/
macro "piece_out " l:term : tactic =>
  `(tactic| (rw [View.set_slice_whole]; exact unit_set_congr (by rw [$l:term]; rfl) rfl))

end Cert.KernelIdeal.Proto

end
-- ==== Proof.PiecesOutTab.lean ====
/-
Each printed piece of the accumulator and of the result array that a copy of finished result blocks
moves is that copy's set of indices: its offset function in closed form is the copy's first row and
first column.
-/
import proofs.«900882_g7700000000000883_dist_matmul_gelu_kshard_i_m2048_n2048_k1024_v7x_i8_f32_1_alg».proof.Proof.PiecesOut

noncomputable section

namespace Cert.KernelIdeal.Proto

open Cert.KernelIdeal Cert.KernelIdeal.Gen Cert.KernelIdeal.Topo
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

theorem outSrc_set_0 (c : Dev nD) : (outSrcM0 c).view.set = outSet c 0 := by piece_out off59_eq
theorem outDst_set_0 (c : Dev nD) : (outDstM0 c).view.set = outSet c 0 := by piece_out off59_eq
theorem outSrc_set_1 (c : Dev nD) : (outSrcM1 c).view.set = outSet c 1 := by piece_out off62_eq
theorem outDst_set_1 (c : Dev nD) : (outDstM1 c).view.set = outSet c 1 := by piece_out off62_eq
theorem outSrc_set_2 (c : Dev nD) : (outSrcM2 c).view.set = outSet c 2 := by piece_out off65_eq
theorem outDst_set_2 (c : Dev nD) : (outDstM2 c).view.set = outSet c 2 := by piece_out off65_eq
theorem outSrc_set_3 (c : Dev nD) : (outSrcM3 c).view.set = outSet c 3 := by piece_out off66_eq
theorem outDst_set_3 (c : Dev nD) : (outDstM3 c).view.set = outSet c 3 := by piece_out off66_eq
theorem outSrc_set_4 (c : Dev nD) : (outSrcM4 c).view.set = outSet c 4 := by piece_out off69_eq
theorem outDst_set_4 (c : Dev nD) : (outDstM4 c).view.set = outSet c 4 := by piece_out off69_eq
theorem outSrc_set_5 (c : Dev nD) : (outSrcM5 c).view.set = outSet c 5 := by piece_out off72_eq
theorem outDst_set_5 (c : Dev nD) : (outDstM5 c).view.set = outSet c 5 := by piece_out off72_eq
theorem outSrc_set_6 (c : Dev nD) : (outSrcM6 c).view.set = outSet c 6 := by piece_out off81_eq
theorem outDst_set_6 (c : Dev nD) : (outDstM6 c).view.set = outSet c 6 := by piece_out off81_eq
theorem outSrc_set_7 (c : Dev nD) : (outSrcM7 c).view.set = outSet c 7 := by piece_out off85_eq
theorem outDst_set_7 (c : Dev nD) : (outDstM7 c).view.set = outSet c 7 := by piece_out off85_eq
theorem outSrc_set_8 (c : Dev nD) : (outSrcM8 c).view.set = outSet c 8 := by piece_out off89_eq
theorem outDst_set_8 (c : Dev nD) : (outDstM8 c).view.set = outSet c 8 := by piece_out off89_eq
theorem outSrc_set_9 (c : Dev nD) : (outSrcM9 c).view.set = outSet c 9 := by piece_out off91_eq
theorem outDst_set_9 (c : Dev nD) : (outDstM9 c).view.set = outSet c 9 := by piece_out off91_eq
theorem outSrc_set_10 (c : Dev nD) : (outSrcM10 c).view.set = outSet c 10 := by piece_out off95_eq
theorem outDst_set_10 (c : Dev nD) : (outDstM10 c).view.set = outSet c 10 := by piece_out off95_eq
theorem outSrc_set_11 (c : Dev nD) : (outSrcM11 c).view.set = outSet c 11 := by piece_out off99_eq
theorem outDst_set_11 (c : Dev nD) : (outDstM11 c).view.set = outSet c 11 := by piece_out off99_eq
theorem outSrc_set_12 (c : Dev nD) : (outSrcM12 c).view.set = outSet c 12 := by piece_out off103_eq
theorem outDst_set_12 (c : Dev nD) : (outDstM12 c).view.set = outSet c 12 := by piece_out off103_eq
theorem outSrc_set_13 (c : Dev nD) : (outSrcM13 c).view.set = outSet c 13 := by piece_out off107_eq
theorem outDst_set_13 (c : Dev nD) : (outDstM13 c).view.set = outSet c 13 := by piece_out off107_eq
theorem outSrc_set_14 (c : Dev nD) : (outSrcM14 c).view.set = outSet c 14 := by piece_out off111_eq
theorem outDst_set_14 (c : Dev nD) : (outDstM14 c).view.set = outSet c 14 := by piece_out off111_eq
theorem outSrc_set_15 (c : Dev nD) : (outSrcM15 c).view.set = outSet c 15 := by piece_out off113_eq
theorem outDst_set_15 (c : Dev nD) : (outDstM15 c).view.set = outSet c 15 := by piece_out off113_eq
theorem outSrc_set_16 (c : Dev nD) : (outSrcM16 c).view.set = outSet c 16 := by piece_out off117_eq
theorem outDst_set_16 (c : Dev nD) : (outDstM16 c).view.set = outSet c 16 := by piece_out off117_eq
theorem outSrc_set_17 (c : Dev nD) : (outSrcM17 c).view.set = outSet c 17 := by piece_out off121_eq
theorem outDst_set_17 (c : Dev nD) : (outDstM17 c).view.set = outSet c 17 := by piece_out off121_eq
theorem outSrc_set_18 (c : Dev nD) : (outSrcM18 c).view.set = outSet c 18 := by piece_out off124_eq
theorem outDst_set_18 (c : Dev nD) : (outDstM18 c).view.set = outSet c 18 := by piece_out off124_eq
theorem outSrc_set_19 (c : Dev nD) : (outSrcM19 c).view.set = outSet c 19 := by piece_out off127_eq
theorem outDst_set_19 (c : Dev nD) : (outDstM19 c).view.set = outSet c 19 := by piece_out off127_eq
theorem outSrc_set_20 (c : Dev nD) : (outSrcM20 c).view.set = outSet c 20 := by piece_out off130_eq
theorem outDst_set_20 (c : Dev nD) : (outDstM20 c).view.set = outSet c 20 := by piece_out off130_eq
theorem outSrc_set_21 (c : Dev nD) : (outSrcM21 c).view.set = outSet c 21 := by piece_out off132_eq
theorem outDst_set_21 (c : Dev nD) : (outDstM21 c).view.set = outSet c 21 := by piece_out off132_eq
theorem outSrc_set_22 (c : Dev nD) : (outSrcM22 c).view.set = outSet c 22 := by piece_out off135_eq
theorem outDst_set_22 (c : Dev nD) : (outDstM22 c).view.set = outSet c 22 := by piece_out off135_eq
theorem outSrc_set_23 (c : Dev nD) : (outSrcM23 c).view.set = outSet c 23 := by piece_out off138_eq
theorem outDst_set_23 (c : Dev nD) : (outDstM23 c).view.set = outSet c 23 := by piece_out off138_eq

end Cert.KernelIdeal.Proto

end
-- ==== Proof.PiecesOutSep.lean ====
/-
The accumulator and the result array, held whole, are held copy by copy over the 24 sets of the copies of
finished result blocks; and the copies' sets, held each at contents of its own, join to the whole array.
-/
import proofs.«900882_g7700000000000883_dist_matmul_gelu_kshard_i_m2048_n2048_k1024_v7x_i8_f32_1_alg».proof.Proof.PiecesOutTab

noncomputable section

namespace Cert.KernelIdeal.Proto

open Cert.KernelIdeal Cert.KernelIdeal.Gen Cert.KernelIdeal.Topo
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ × URounds (GSem nD τ sig) (Fin 3)) ℕ

/-- The accumulator held whole is held copy by copy. -/
theorem outSrc_blocks (c : Dev nD) {q : PosShare TreeShare}
    (f : Buf (Elt F) ((Memref.whole cc0_scratch0).view.loc (c : Thread nD τ))) :
    ((Memref.whole cc0_scratch0).view.loc (c : Thread nD τ) ↦{q} f : sProp 𝕄)
      = bigSep Finset.univ fun j => (Memref.whole cc0_scratch0).view.loc (c : Thread nD τ) ↦[outSet c j]{q} f := by
  have hc : (Finset.univ.biUnion (outSet c) : Finset (Idx ((Memref.whole cc0_scratch0).view.loc (c : Thread nD τ))))
      = Finset.univ := outSet_cover c
  rw [← hc]
  exact pointsTo_biUnion (ℓ := (Memref.whole cc0_scratch0).view.loc (c : Thread nD τ)) Finset.univ (outSet c)
    (fun j _ j' _ h => outSet_disjoint c j j' h)

/-- The copies' sets, each held at contents of its own, join to the accumulator held whole at contents that
    agree with each on its set. -/
theorem outSrc_join (c : Dev nD) {q : PosShare TreeShare}
    (fs : Fin 24 → Buf (Elt F) ((Memref.whole cc0_scratch0).view.loc (c : Thread nD τ)))
    (f₀ : Buf (Elt F) ((Memref.whole cc0_scratch0).view.loc (c : Thread nD τ))) :
    bigSep Finset.univ (fun j => (Memref.whole cc0_scratch0).view.loc (c : Thread nD τ) ↦[outSet c j]{q} fs j)
      ⊢ (iprop(∃ g, ⌜∀ j : Fin 24, ∀ i ∈ outSet c j, g i = fs j i⌝
          ∗ (Memref.whole cc0_scratch0).view.loc (c : Thread nD τ) ↦{q} g) : sProp 𝕄) := by
  have hc : (Finset.univ.biUnion (outSet c) : Finset (Idx ((Memref.whole cc0_scratch0).view.loc (c : Thread nD τ))))
      = Finset.univ := outSet_cover c
  refine (pointsTo_biUnion_join (ℓ := (Memref.whole cc0_scratch0).view.loc (c : Thread nD τ)) Finset.univ (outSet c) fs f₀
    (fun j _ j' _ h => outSet_disjoint c j j' h)).trans ?_
  rw [hc]
  iintro ⟨%g, %hg, H⟩
  iexists g
  isplitr
  · ipureintro; exact fun j => hg j (Finset.mem_univ j)
  · iexact H

/-- The result array held whole is held copy by copy. -/
theorem outDst_blocks (c : Dev nD) {q : PosShare TreeShare}
    (f : Buf (Elt F) ((Memref.whole main_v1).view.loc (c : Thread nD τ))) :
    ((Memref.whole main_v1).view.loc (c : Thread nD τ) ↦{q} f : sProp 𝕄)
      = bigSep Finset.univ fun j => (Memref.whole main_v1).view.loc (c : Thread nD τ) ↦[outSet c j]{q} f := by
  have hc : (Finset.univ.biUnion (outSet c) : Finset (Idx ((Memref.whole main_v1).view.loc (c : Thread nD τ))))
      = Finset.univ := outSet_cover c
  rw [← hc]
  exact pointsTo_biUnion (ℓ := (Memref.whole main_v1).view.loc (c : Thread nD τ)) Finset.univ (outSet c)
    (fun j _ j' _ h => outSet_disjoint c j j' h)

/-- The copies' sets, each held at contents of its own, join to the result array held whole at contents that
    agree with each on its set. -/
theorem outDst_join (c : Dev nD) {q : PosShare TreeShare}
    (fs : Fin 24 → Buf (Elt F) ((Memref.whole main_v1).view.loc (c : Thread nD τ)))
    (f₀ : Buf (Elt F) ((Memref.whole main_v1).view.loc (c : Thread nD τ))) :
    bigSep Finset.univ (fun j => (Memref.whole main_v1).view.loc (c : Thread nD τ) ↦[outSet c j]{q} fs j)
      ⊢ (iprop(∃ g, ⌜∀ j : Fin 24, ∀ i ∈ outSet c j, g i = fs j i⌝
          ∗ (Memref.whole main_v1).view.loc (c : Thread nD τ) ↦{q} g) : sProp 𝕄) := by
  have hc : (Finset.univ.biUnion (outSet c) : Finset (Idx ((Memref.whole main_v1).view.loc (c : Thread nD τ))))
      = Finset.univ := outSet_cover c
  refine (pointsTo_biUnion_join (ℓ := (Memref.whole main_v1).view.loc (c : Thread nD τ)) Finset.univ (outSet c) fs f₀
    (fun j _ j' _ h => outSet_disjoint c j j' h)).trans ?_
  rw [hc]
  iintro ⟨%g, %hg, H⟩
  iexists g
  isplitr
  · ipureintro; exact fun j => hg j (Finset.mem_univ j)
  · iexact H

end Cert.KernelIdeal.Proto

end
-- ==== Proof.EpilogueCut.lean ====
/-
Closing lemmas. A transfer cell whose one round is over closes: its counter, at zero, is the core's again.
Pieces of a buffer held at contents of their own join to the buffer held whole at some contents: two or three
pairwise disjoint pieces that cover it; a piece inside a piece inside the whole with the two remainders; and the
24 blocks of the accumulator or of the result array, the joined contents agreeing with each block's on its set
(so that what was known of a block's reading is known of the whole's).
-/
import proofs.«900882_g7700000000000883_dist_matmul_gelu_kshard_i_m2048_n2048_k1024_v7x_i8_f32_1_alg».proof.Proof.Start
import proofs.«900882_g7700000000000883_dist_matmul_gelu_kshard_i_m2048_n2048_k1024_v7x_i8_f32_1_alg».proof.Proof.Pieces
import proofs.«900882_g7700000000000883_dist_matmul_gelu_kshard_i_m2048_n2048_k1024_v7x_i8_f32_1_alg».proof.Proof.PiecesOutSep

noncomputable section

namespace Cert.KernelIdeal.Proto

open Cert.KernelIdeal Cert.KernelIdeal.Gen Cert.KernelIdeal.Topo
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : Vals F)

/-! ## Closing a cell -/

omit [FloatOps F] in
/-- Device c's cell κ, its one round over and nothing of a later round taken: the counter is back at zero. -/
theorem close_cell (c : Dev nD) (κ : CK) (κn : ℕ) :
    iprop(cellInv ER (sched V) κn (cell c κ) ∗ atPos ER (cell c κ) 1 ∅ 0) ⊢ (|={Set.univ}=> semVal (cell c κ) 0 : sProp 𝕄) :=
  Rounds.cell_close ER (sched V) (Set.mem_univ κn) (fun h => h) (R := 1) (duties_later V (cell c κ))

/-! ## Joining pieces -/

omit [FloatOps F] in
/-- Two disjoint pieces that cover the buffer. -/
theorem pts_join2 {ℓ : Loc nD τ sig} {A B : Finset (Idx ℓ)} {q : PosShare TreeShare} (fA fB : Buf (Elt F) ℓ)
    (hAB : Disjoint A B) (hcov : A ∪ B = Finset.univ) :
    iprop((ℓ ↦[A]{q} fA) ∗ (ℓ ↦[B]{q} fB)) ⊢ (iprop(∃ f, ℓ ↦{q} f) : sProp 𝕄) := by
  have h : iprop((ℓ ↦[A]{q} fA) ∗ (ℓ ↦[B]{q} fB)) ⊢ (ℓ ↦[A ∪ B]{q} (B.piecewise fB fA) : sProp 𝕄) := Region.is_join hAB
  iintro H
  ihave H' := h $$ H
  iexists (B.piecewise fB fA)
  rw [show (ℓ ↦{q} B.piecewise fB fA : sProp 𝕄) = (ℓ ↦[A ∪ B]{q} B.piecewise fB fA) from pts_set_eq hcov.symm]
  iexact H'

omit [FloatOps F] in
/-- Three pairwise disjoint pieces that cover the buffer. -/
theorem pts_join3 {ℓ : Loc nD τ sig} {A B C : Finset (Idx ℓ)} {q : PosShare TreeShare} (fA fB fC : Buf (Elt F) ℓ)
    (hAB : Disjoint A B) (hAC : Disjoint A C) (hBC : Disjoint B C) (hcov : A ∪ B ∪ C = Finset.univ) :
    iprop((ℓ ↦[A]{q} fA) ∗ (ℓ ↦[B]{q} fB) ∗ (ℓ ↦[C]{q} fC)) ⊢ (iprop(∃ f, ℓ ↦{q} f) : sProp 𝕄) := by
  have h : iprop((ℓ ↦[A]{q} fA) ∗ (ℓ ↦[B]{q} fB)) ⊢ (ℓ ↦[A ∪ B]{q} (B.piecewise fB fA) : sProp 𝕄) := Region.is_join hAB
  iintro ⟨HA, HB, HC⟩
  ihave HAB := h $$ [HA HB]
  · isplitl [HA] <;> iassumption
  iapply (pts_join2 (B.piecewise fB fA) fC (Finset.disjoint_union_left.mpr ⟨hAC, hBC⟩) hcov)
  isplitl [HAB] <;> iassumption

omit [FloatOps F] in
/-- A piece S2 inside a piece S1 inside the whole S0, with the two remainders. -/
theorem pts_join_nested {ℓ : Loc nD τ sig} {S2 S1 S0 : Finset (Idx ℓ)} {q : PosShare TreeShare} (f2 f1 f0 : Buf (Elt F) ℓ)
    (h21 : S2 ⊆ S1) (h10 : S1 ⊆ S0) (h0 : S0 = Finset.univ) :
    iprop((ℓ ↦[S2]{q} f2) ∗ (ℓ ↦[S1 \ S2]{q} f1) ∗ (ℓ ↦[S0 \ S1]{q} f0)) ⊢ (iprop(∃ f, ℓ ↦{q} f) : sProp 𝕄) := by
  have ha : iprop((ℓ ↦[S2]{q} f2) ∗ (ℓ ↦[S1 \ S2]{q} f1)) ⊢ (ℓ ↦[S1]{q} (S2.piecewise f2 f1) : sProp 𝕄) := pointsTo_join_subset h21
  have hb : iprop((ℓ ↦[S1]{q} (S2.piecewise f2 f1)) ∗ (ℓ ↦[S0 \ S1]{q} f0)) ⊢ (ℓ ↦[S0]{q} (S1.piecewise (S2.piecewise f2 f1) f0) : sProp 𝕄) :=
    pointsTo_join_subset h10
  iintro ⟨H2, H1, H0⟩
  ihave Ha := ha $$ [H2 H1]
  · isplitl [H2] <;> iassumption
  ihave Hb := hb $$ [Ha H0]
  · isplitl [Ha] <;> iassumption
  iexists (S1.piecewise (S2.piecewise f2 f1) f0)
  rw [show (ℓ ↦{q} S1.piecewise (S2.piecewise f2 f1) f0 : sProp 𝕄) = (ℓ ↦[S0]{q} S1.piecewise (S2.piecewise f2 f1) f0) from pts_set_eq h0.symm]
  iexact Hb

/-! ## The 24 blocks of the accumulator and of the result array -/

/-- The accumulator from its 24 blocks, each at some contents. -/
theorem acc_join (c : Dev nD) :
    (bigSep Finset.univ fun j : Fin 24 => iprop(∃ f : Buf (Elt F) ((Memref.whole cc0_scratch0).view.loc (c : Thread nD τ)),
        (Memref.whole cc0_scratch0).view.loc (c : Thread nD τ) ↦[outSet c j]{fullShare} f) : sProp 𝕄)
      ⊢ iprop(∃ g, (Memref.whole cc0_scratch0).view.loc (c : Thread nD τ) ↦{fullShare} g) := by
  iintro H
  ihave H' := (BI.bigSep_exists_pi Finset.univ (fun (j : Fin 24) (f : Buf (Elt F) ((Memref.whole cc0_scratch0).view.loc (c : Thread nD τ))) =>
    ((Memref.whole cc0_scratch0).view.loc (c : Thread nD τ) ↦[outSet c j]{fullShare} f : sProp 𝕄))) $$ H
  icases H' with ⟨%fs, H'⟩
  ihave H2 := (outSrc_join c fs (fs 0)) $$ H'
  icases H2 with ⟨%g, -, Hg⟩
  iexists g
  iexact Hg

/-- The result array from its 24 blocks, each at contents of which a fact P j is known that depends on the block's
    elements only: the fact is known of the joined contents. -/
theorem dst_join (c : Dev nD) (P : Fin 24 → Buf (Elt F) ((Memref.whole main_v1).view.loc (c : Thread nD τ)) → Prop)
    (hP : ∀ j f g, (∀ i ∈ outSet c j, g i = f i) → P j f → P j g) :
    (bigSep Finset.univ fun j : Fin 24 => iprop(∃ f : Buf (Elt F) ((Memref.whole main_v1).view.loc (c : Thread nD τ)),
        ((Memref.whole main_v1).view.loc (c : Thread nD τ) ↦[outSet c j]{fullShare} f) ∗ ⌜P j f⌝) : sProp 𝕄)
      ⊢ iprop(∃ g, ((Memref.whole main_v1).view.loc (c : Thread nD τ) ↦{fullShare} g) ∗ ⌜∀ j, P j g⌝) := by
  have hsw (j : Fin 24) : (iprop(∃ f : Buf (Elt F) ((Memref.whole main_v1).view.loc (c : Thread nD τ)),
        ((Memref.whole main_v1).view.loc (c : Thread nD τ) ↦[outSet c j]{fullShare} f) ∗ ⌜P j f⌝) : sProp 𝕄)
      ⊢ iprop(∃ f : Buf (Elt F) ((Memref.whole main_v1).view.loc (c : Thread nD τ)),
        ⌜P j f⌝ ∗ ((Memref.whole main_v1).view.loc (c : Thread nD τ) ↦[outSet c j]{fullShare} f)) := by
    iintro ⟨%f, Hf, %hp⟩
    iexists f
    isplitr; · ipureintro; exact hp
    iexact Hf
  have hswap : (bigSep Finset.univ fun j : Fin 24 => iprop(∃ f : Buf (Elt F) ((Memref.whole main_v1).view.loc (c : Thread nD τ)),
        ((Memref.whole main_v1).view.loc (c : Thread nD τ) ↦[outSet c j]{fullShare} f) ∗ ⌜P j f⌝) : sProp 𝕄)
      ⊢ bigSep Finset.univ fun j : Fin 24 => iprop(∃ f : Buf (Elt F) ((Memref.whole main_v1).view.loc (c : Thread nD τ)),
        ⌜P j f⌝ ∗ ((Memref.whole main_v1).view.loc (c : Thread nD τ) ↦[outSet c j]{fullShare} f)) :=
    bigSep_mono fun j _ => hsw j
  iintro H
  ihave H1 := hswap $$ H
  ihave H2 := (BI.bigSep_exists_pi Finset.univ (fun (j : Fin 24) (f : Buf (Elt F) ((Memref.whole main_v1).view.loc (c : Thread nD τ))) =>
    (iprop(⌜P j f⌝ ∗ ((Memref.whole main_v1).view.loc (c : Thread nD τ) ↦[outSet c j]{fullShare} f)) : sProp 𝕄))) $$ H1
  icases H2 with ⟨%fs, H2⟩
  ihave H3 := (BI.bigSep_pure_sep Finset.univ (fun j : Fin 24 => P j (fs j))
    (fun j => ((Memref.whole main_v1).view.loc (c : Thread nD τ) ↦[outSet c j]{fullShare} fs j : sProp 𝕄))) $$ H2
  icases H3 with ⟨%hp, H3⟩
  ihave H4 := (outDst_join c fs (fs 0)) $$ H3
  icases H4 with ⟨%g, %hg, Hg⟩
  iexists g
  isplitl [Hg]; · iexact Hg
  ipureintro
  exact fun j => hP j (fs j) g (hg j) (hp j (Finset.mem_univ j))

end Cert.KernelIdeal.Proto

end
-- ==== Proof.PrologueTab.lean ====
/-
The starting state of a device's body, member by member, in literal spelling: the records of its own 97 cells and
of the 39 cells it pays on its neighbours; the tokens of the duties it pays; its positions; its launch credit; and
its buffers, cut the way the protocol uses them. Each block equals the compact form the launch hands over.
-/
import proofs.«900882_g7700000000000883_dist_matmul_gelu_kshard_i_m2048_n2048_k1024_v7x_i8_f32_1_alg».proof.Proof.Start

set_option maxRecDepth 100000

noncomputable section

namespace Cert.KernelIdeal.Proto

open Cert.KernelIdeal Cert.KernelIdeal.Gen Cert.KernelIdeal.Topo
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (V : Vals F)

/-! ## The numberings at literals -/

theorem ckOf_lit_0 : ckOf 0 = CK.bar := by decide
theorem ckOf_lit_1 : ckOf 1 = CK.rsS 0 0 := by decide
theorem ckOf_lit_2 : ckOf 2 = CK.rsS 0 1 := by decide
theorem ckOf_lit_3 : ckOf 3 = CK.rsS 0 2 := by decide
theorem ckOf_lit_4 : ckOf 4 = CK.rsS 1 0 := by decide
theorem ckOf_lit_5 : ckOf 5 = CK.rsS 1 1 := by decide
theorem ckOf_lit_6 : ckOf 6 = CK.rsS 1 2 := by decide
theorem ckOf_lit_7 : ckOf 7 = CK.rsS 2 0 := by decide
theorem ckOf_lit_8 : ckOf 8 = CK.rsS 2 1 := by decide
theorem ckOf_lit_9 : ckOf 9 = CK.rsS 2 2 := by decide
theorem ckOf_lit_10 : ckOf 10 = CK.rsS 3 0 := by decide
theorem ckOf_lit_11 : ckOf 11 = CK.rsS 3 1 := by decide
theorem ckOf_lit_12 : ckOf 12 = CK.rsS 3 2 := by decide
theorem ckOf_lit_13 : ckOf 13 = CK.rsS 4 0 := by decide
theorem ckOf_lit_14 : ckOf 14 = CK.rsS 4 1 := by decide
theorem ckOf_lit_15 : ckOf 15 = CK.rsS 4 2 := by decide
theorem ckOf_lit_16 : ckOf 16 = CK.rsS 5 0 := by decide
theorem ckOf_lit_17 : ckOf 17 = CK.rsS 5 1 := by decide
theorem ckOf_lit_18 : ckOf 18 = CK.rsS 5 2 := by decide
theorem ckOf_lit_19 : ckOf 19 = CK.rsR 0 0 := by decide
theorem ckOf_lit_20 : ckOf 20 = CK.rsR 0 1 := by decide
theorem ckOf_lit_21 : ckOf 21 = CK.rsR 0 2 := by decide
theorem ckOf_lit_22 : ckOf 22 = CK.rsR 1 0 := by decide
theorem ckOf_lit_23 : ckOf 23 = CK.rsR 1 1 := by decide
theorem ckOf_lit_24 : ckOf 24 = CK.rsR 1 2 := by decide
theorem ckOf_lit_25 : ckOf 25 = CK.rsR 2 0 := by decide
theorem ckOf_lit_26 : ckOf 26 = CK.rsR 2 1 := by decide
theorem ckOf_lit_27 : ckOf 27 = CK.rsR 2 2 := by decide
theorem ckOf_lit_28 : ckOf 28 = CK.rsR 3 0 := by decide
theorem ckOf_lit_29 : ckOf 29 = CK.rsR 3 1 := by decide
theorem ckOf_lit_30 : ckOf 30 = CK.rsR 3 2 := by decide
theorem ckOf_lit_31 : ckOf 31 = CK.rsR 4 0 := by decide
theorem ckOf_lit_32 : ckOf 32 = CK.rsR 4 1 := by decide
theorem ckOf_lit_33 : ckOf 33 = CK.rsR 4 2 := by decide
theorem ckOf_lit_34 : ckOf 34 = CK.rsR 5 0 := by decide
theorem ckOf_lit_35 : ckOf 35 = CK.rsR 5 1 := by decide
theorem ckOf_lit_36 : ckOf 36 = CK.rsR 5 2 := by decide
theorem ckOf_lit_37 : ckOf 37 = CK.agS 0 0 := by decide
theorem ckOf_lit_38 : ckOf 38 = CK.agS 0 1 := by decide
theorem ckOf_lit_39 : ckOf 39 = CK.agS 0 2 := by decide
theorem ckOf_lit_40 : ckOf 40 = CK.agS 1 0 := by decide
theorem ckOf_lit_41 : ckOf 41 = CK.agS 1 1 := by decide
theorem ckOf_lit_42 : ckOf 42 = CK.agS 1 2 := by decide
theorem ckOf_lit_43 : ckOf 43 = CK.agS 2 0 := by decide
theorem ckOf_lit_44 : ckOf 44 = CK.agS 2 1 := by decide
theorem ckOf_lit_45 : ckOf 45 = CK.agS 2 2 := by decide
theorem ckOf_lit_46 : ckOf 46 = CK.agS 3 0 := by decide
theorem ckOf_lit_47 : ckOf 47 = CK.agS 3 1 := by decide
theorem ckOf_lit_48 : ckOf 48 = CK.agS 3 2 := by decide
theorem ckOf_lit_49 : ckOf 49 = CK.agS 4 0 := by decide
theorem ckOf_lit_50 : ckOf 50 = CK.agS 4 1 := by decide
theorem ckOf_lit_51 : ckOf 51 = CK.agS 4 2 := by decide
theorem ckOf_lit_52 : ckOf 52 = CK.agS 5 0 := by decide
theorem ckOf_lit_53 : ckOf 53 = CK.agS 5 1 := by decide
theorem ckOf_lit_54 : ckOf 54 = CK.agS 5 2 := by decide
theorem ckOf_lit_55 : ckOf 55 = CK.agR 0 0 := by decide
theorem ckOf_lit_56 : ckOf 56 = CK.agR 0 1 := by decide
theorem ckOf_lit_57 : ckOf 57 = CK.agR 0 2 := by decide
theorem ckOf_lit_58 : ckOf 58 = CK.agR 1 0 := by decide
theorem ckOf_lit_59 : ckOf 59 = CK.agR 1 1 := by decide
theorem ckOf_lit_60 : ckOf 60 = CK.agR 1 2 := by decide
theorem ckOf_lit_61 : ckOf 61 = CK.agR 2 0 := by decide
theorem ckOf_lit_62 : ckOf 62 = CK.agR 2 1 := by decide
theorem ckOf_lit_63 : ckOf 63 = CK.agR 2 2 := by decide
theorem ckOf_lit_64 : ckOf 64 = CK.agR 3 0 := by decide
theorem ckOf_lit_65 : ckOf 65 = CK.agR 3 1 := by decide
theorem ckOf_lit_66 : ckOf 66 = CK.agR 3 2 := by decide
theorem ckOf_lit_67 : ckOf 67 = CK.agR 4 0 := by decide
theorem ckOf_lit_68 : ckOf 68 = CK.agR 4 1 := by decide
theorem ckOf_lit_69 : ckOf 69 = CK.agR 4 2 := by decide
theorem ckOf_lit_70 : ckOf 70 = CK.agR 5 0 := by decide
theorem ckOf_lit_71 : ckOf 71 = CK.agR 5 1 := by decide
theorem ckOf_lit_72 : ckOf 72 = CK.agR 5 2 := by decide
theorem ckOf_lit_73 : ckOf 73 = CK.out 0 := by decide
theorem ckOf_lit_74 : ckOf 74 = CK.out 1 := by decide
theorem ckOf_lit_75 : ckOf 75 = CK.out 2 := by decide
theorem ckOf_lit_76 : ckOf 76 = CK.out 3 := by decide
theorem ckOf_lit_77 : ckOf 77 = CK.out 4 := by decide
theorem ckOf_lit_78 : ckOf 78 = CK.out 5 := by decide
theorem ckOf_lit_79 : ckOf 79 = CK.out 6 := by decide
theorem ckOf_lit_80 : ckOf 80 = CK.out 7 := by decide
theorem ckOf_lit_81 : ckOf 81 = CK.out 8 := by decide
theorem ckOf_lit_82 : ckOf 82 = CK.out 9 := by decide
theorem ckOf_lit_83 : ckOf 83 = CK.out 10 := by decide
theorem ckOf_lit_84 : ckOf 84 = CK.out 11 := by decide
theorem ckOf_lit_85 : ckOf 85 = CK.out 12 := by decide
theorem ckOf_lit_86 : ckOf 86 = CK.out 13 := by decide
theorem ckOf_lit_87 : ckOf 87 = CK.out 14 := by decide
theorem ckOf_lit_88 : ckOf 88 = CK.out 15 := by decide
theorem ckOf_lit_89 : ckOf 89 = CK.out 16 := by decide
theorem ckOf_lit_90 : ckOf 90 = CK.out 17 := by decide
theorem ckOf_lit_91 : ckOf 91 = CK.out 18 := by decide
theorem ckOf_lit_92 : ckOf 92 = CK.out 19 := by decide
theorem ckOf_lit_93 : ckOf 93 = CK.out 20 := by decide
theorem ckOf_lit_94 : ckOf 94 = CK.out 21 := by decide
theorem ckOf_lit_95 : ckOf 95 = CK.out 22 := by decide
theorem ckOf_lit_96 : ckOf 96 = CK.out 23 := by decide
theorem ckIdx_lit_0 : ckIdx CK.bar = 0 := by decide
theorem ckIdx_lit_1 : ckIdx (CK.rsS 0 0) = 1 := by decide
theorem ckIdx_lit_2 : ckIdx (CK.rsS 0 1) = 2 := by decide
theorem ckIdx_lit_3 : ckIdx (CK.rsS 0 2) = 3 := by decide
theorem ckIdx_lit_4 : ckIdx (CK.rsS 1 0) = 4 := by decide
theorem ckIdx_lit_5 : ckIdx (CK.rsS 1 1) = 5 := by decide
theorem ckIdx_lit_6 : ckIdx (CK.rsS 1 2) = 6 := by decide
theorem ckIdx_lit_7 : ckIdx (CK.rsS 2 0) = 7 := by decide
theorem ckIdx_lit_8 : ckIdx (CK.rsS 2 1) = 8 := by decide
theorem ckIdx_lit_9 : ckIdx (CK.rsS 2 2) = 9 := by decide
theorem ckIdx_lit_10 : ckIdx (CK.rsS 3 0) = 10 := by decide
theorem ckIdx_lit_11 : ckIdx (CK.rsS 3 1) = 11 := by decide
theorem ckIdx_lit_12 : ckIdx (CK.rsS 3 2) = 12 := by decide
theorem ckIdx_lit_13 : ckIdx (CK.rsS 4 0) = 13 := by decide
theorem ckIdx_lit_14 : ckIdx (CK.rsS 4 1) = 14 := by decide
theorem ckIdx_lit_15 : ckIdx (CK.rsS 4 2) = 15 := by decide
theorem ckIdx_lit_16 : ckIdx (CK.rsS 5 0) = 16 := by decide
theorem ckIdx_lit_17 : ckIdx (CK.rsS 5 1) = 17 := by decide
theorem ckIdx_lit_18 : ckIdx (CK.rsS 5 2) = 18 := by decide
theorem ckIdx_lit_19 : ckIdx (CK.rsR 0 0) = 19 := by decide
theorem ckIdx_lit_20 : ckIdx (CK.rsR 0 1) = 20 := by decide
theorem ckIdx_lit_21 : ckIdx (CK.rsR 0 2) = 21 := by decide
theorem ckIdx_lit_22 : ckIdx (CK.rsR 1 0) = 22 := by decide
theorem ckIdx_lit_23 : ckIdx (CK.rsR 1 1) = 23 := by decide
theorem ckIdx_lit_24 : ckIdx (CK.rsR 1 2) = 24 := by decide
theorem ckIdx_lit_25 : ckIdx (CK.rsR 2 0) = 25 := by decide
theorem ckIdx_lit_26 : ckIdx (CK.rsR 2 1) = 26 := by decide
theorem ckIdx_lit_27 : ckIdx (CK.rsR 2 2) = 27 := by decide
theorem ckIdx_lit_28 : ckIdx (CK.rsR 3 0) = 28 := by decide
theorem ckIdx_lit_29 : ckIdx (CK.rsR 3 1) = 29 := by decide
theorem ckIdx_lit_30 : ckIdx (CK.rsR 3 2) = 30 := by decide
theorem ckIdx_lit_31 : ckIdx (CK.rsR 4 0) = 31 := by decide
theorem ckIdx_lit_32 : ckIdx (CK.rsR 4 1) = 32 := by decide
theorem ckIdx_lit_33 : ckIdx (CK.rsR 4 2) = 33 := by decide
theorem ckIdx_lit_34 : ckIdx (CK.rsR 5 0) = 34 := by decide
theorem ckIdx_lit_35 : ckIdx (CK.rsR 5 1) = 35 := by decide
theorem ckIdx_lit_36 : ckIdx (CK.rsR 5 2) = 36 := by decide
theorem ckIdx_lit_37 : ckIdx (CK.agS 0 0) = 37 := by decide
theorem ckIdx_lit_38 : ckIdx (CK.agS 0 1) = 38 := by decide
theorem ckIdx_lit_39 : ckIdx (CK.agS 0 2) = 39 := by decide
theorem ckIdx_lit_40 : ckIdx (CK.agS 1 0) = 40 := by decide
theorem ckIdx_lit_41 : ckIdx (CK.agS 1 1) = 41 := by decide
theorem ckIdx_lit_42 : ckIdx (CK.agS 1 2) = 42 := by decide
theorem ckIdx_lit_43 : ckIdx (CK.agS 2 0) = 43 := by decide
theorem ckIdx_lit_44 : ckIdx (CK.agS 2 1) = 44 := by decide
theorem ckIdx_lit_45 : ckIdx (CK.agS 2 2) = 45 := by decide
theorem ckIdx_lit_46 : ckIdx (CK.agS 3 0) = 46 := by decide
theorem ckIdx_lit_47 : ckIdx (CK.agS 3 1) = 47 := by decide
theorem ckIdx_lit_48 : ckIdx (CK.agS 3 2) = 48 := by decide
theorem ckIdx_lit_49 : ckIdx (CK.agS 4 0) = 49 := by decide
theorem ckIdx_lit_50 : ckIdx (CK.agS 4 1) = 50 := by decide
theorem ckIdx_lit_51 : ckIdx (CK.agS 4 2) = 51 := by decide
theorem ckIdx_lit_52 : ckIdx (CK.agS 5 0) = 52 := by decide
theorem ckIdx_lit_53 : ckIdx (CK.agS 5 1) = 53 := by decide
theorem ckIdx_lit_54 : ckIdx (CK.agS 5 2) = 54 := by decide
theorem ckIdx_lit_55 : ckIdx (CK.agR 0 0) = 55 := by decide
theorem ckIdx_lit_56 : ckIdx (CK.agR 0 1) = 56 := by decide
theorem ckIdx_lit_57 : ckIdx (CK.agR 0 2) = 57 := by decide
theorem ckIdx_lit_58 : ckIdx (CK.agR 1 0) = 58 := by decide
theorem ckIdx_lit_59 : ckIdx (CK.agR 1 1) = 59 := by decide
theorem ckIdx_lit_60 : ckIdx (CK.agR 1 2) = 60 := by decide
theorem ckIdx_lit_61 : ckIdx (CK.agR 2 0) = 61 := by decide
theorem ckIdx_lit_62 : ckIdx (CK.agR 2 1) = 62 := by decide
theorem ckIdx_lit_63 : ckIdx (CK.agR 2 2) = 63 := by decide
theorem ckIdx_lit_64 : ckIdx (CK.agR 3 0) = 64 := by decide
theorem ckIdx_lit_65 : ckIdx (CK.agR 3 1) = 65 := by decide
theorem ckIdx_lit_66 : ckIdx (CK.agR 3 2) = 66 := by decide
theorem ckIdx_lit_67 : ckIdx (CK.agR 4 0) = 67 := by decide
theorem ckIdx_lit_68 : ckIdx (CK.agR 4 1) = 68 := by decide
theorem ckIdx_lit_69 : ckIdx (CK.agR 4 2) = 69 := by decide
theorem ckIdx_lit_70 : ckIdx (CK.agR 5 0) = 70 := by decide
theorem ckIdx_lit_71 : ckIdx (CK.agR 5 1) = 71 := by decide
theorem ckIdx_lit_72 : ckIdx (CK.agR 5 2) = 72 := by decide
theorem ckIdx_lit_73 : ckIdx (CK.out 0) = 73 := by decide
theorem ckIdx_lit_74 : ckIdx (CK.out 1) = 74 := by decide
theorem ckIdx_lit_75 : ckIdx (CK.out 2) = 75 := by decide
theorem ckIdx_lit_76 : ckIdx (CK.out 3) = 76 := by decide
theorem ckIdx_lit_77 : ckIdx (CK.out 4) = 77 := by decide
theorem ckIdx_lit_78 : ckIdx (CK.out 5) = 78 := by decide
theorem ckIdx_lit_79 : ckIdx (CK.out 6) = 79 := by decide
theorem ckIdx_lit_80 : ckIdx (CK.out 7) = 80 := by decide
theorem ckIdx_lit_81 : ckIdx (CK.out 8) = 81 := by decide
theorem ckIdx_lit_82 : ckIdx (CK.out 9) = 82 := by decide
theorem ckIdx_lit_83 : ckIdx (CK.out 10) = 83 := by decide
theorem ckIdx_lit_84 : ckIdx (CK.out 11) = 84 := by decide
theorem ckIdx_lit_85 : ckIdx (CK.out 12) = 85 := by decide
theorem ckIdx_lit_86 : ckIdx (CK.out 13) = 86 := by decide
theorem ckIdx_lit_87 : ckIdx (CK.out 14) = 87 := by decide
theorem ckIdx_lit_88 : ckIdx (CK.out 15) = 88 := by decide
theorem ckIdx_lit_89 : ckIdx (CK.out 16) = 89 := by decide
theorem ckIdx_lit_90 : ckIdx (CK.out 17) = 90 := by decide
theorem ckIdx_lit_91 : ckIdx (CK.out 18) = 91 := by decide
theorem ckIdx_lit_92 : ckIdx (CK.out 19) = 92 := by decide
theorem ckIdx_lit_93 : ckIdx (CK.out 20) = 93 := by decide
theorem ckIdx_lit_94 : ckIdx (CK.out 21) = 94 := by decide
theorem ckIdx_lit_95 : ckIdx (CK.out 22) = 95 := by decide
theorem ckIdx_lit_96 : ckIdx (CK.out 23) = 96 := by decide
theorem rsSk_lit_0 : rsSk 0 = CK.rsS 0 0 := by decide
theorem rsSk_lit_1 : rsSk 1 = CK.rsS 0 1 := by decide
theorem rsSk_lit_2 : rsSk 2 = CK.rsS 0 2 := by decide
theorem rsSk_lit_3 : rsSk 3 = CK.rsS 1 0 := by decide
theorem rsSk_lit_4 : rsSk 4 = CK.rsS 1 1 := by decide
theorem rsSk_lit_5 : rsSk 5 = CK.rsS 1 2 := by decide
theorem rsSk_lit_6 : rsSk 6 = CK.rsS 2 0 := by decide
theorem rsSk_lit_7 : rsSk 7 = CK.rsS 2 1 := by decide
theorem rsSk_lit_8 : rsSk 8 = CK.rsS 2 2 := by decide
theorem rsSk_lit_9 : rsSk 9 = CK.rsS 3 0 := by decide
theorem rsSk_lit_10 : rsSk 10 = CK.rsS 3 1 := by decide
theorem rsSk_lit_11 : rsSk 11 = CK.rsS 3 2 := by decide
theorem rsSk_lit_12 : rsSk 12 = CK.rsS 4 0 := by decide
theorem rsSk_lit_13 : rsSk 13 = CK.rsS 4 1 := by decide
theorem rsSk_lit_14 : rsSk 14 = CK.rsS 4 2 := by decide
theorem rsSk_lit_15 : rsSk 15 = CK.rsS 5 0 := by decide
theorem rsSk_lit_16 : rsSk 16 = CK.rsS 5 1 := by decide
theorem rsSk_lit_17 : rsSk 17 = CK.rsS 5 2 := by decide
theorem rsRk_lit_0 : rsRk 0 = CK.rsR 0 0 := by decide
theorem rsRk_lit_1 : rsRk 1 = CK.rsR 0 1 := by decide
theorem rsRk_lit_2 : rsRk 2 = CK.rsR 0 2 := by decide
theorem rsRk_lit_3 : rsRk 3 = CK.rsR 1 0 := by decide
theorem rsRk_lit_4 : rsRk 4 = CK.rsR 1 1 := by decide
theorem rsRk_lit_5 : rsRk 5 = CK.rsR 1 2 := by decide
theorem rsRk_lit_6 : rsRk 6 = CK.rsR 2 0 := by decide
theorem rsRk_lit_7 : rsRk 7 = CK.rsR 2 1 := by decide
theorem rsRk_lit_8 : rsRk 8 = CK.rsR 2 2 := by decide
theorem rsRk_lit_9 : rsRk 9 = CK.rsR 3 0 := by decide
theorem rsRk_lit_10 : rsRk 10 = CK.rsR 3 1 := by decide
theorem rsRk_lit_11 : rsRk 11 = CK.rsR 3 2 := by decide
theorem rsRk_lit_12 : rsRk 12 = CK.rsR 4 0 := by decide
theorem rsRk_lit_13 : rsRk 13 = CK.rsR 4 1 := by decide
theorem rsRk_lit_14 : rsRk 14 = CK.rsR 4 2 := by decide
theorem rsRk_lit_15 : rsRk 15 = CK.rsR 5 0 := by decide
theorem rsRk_lit_16 : rsRk 16 = CK.rsR 5 1 := by decide
theorem rsRk_lit_17 : rsRk 17 = CK.rsR 5 2 := by decide
theorem agSk_lit_0 : agSk 0 = CK.agS 0 0 := by decide
theorem agSk_lit_1 : agSk 1 = CK.agS 0 1 := by decide
theorem agSk_lit_2 : agSk 2 = CK.agS 0 2 := by decide
theorem agSk_lit_3 : agSk 3 = CK.agS 1 0 := by decide
theorem agSk_lit_4 : agSk 4 = CK.agS 1 1 := by decide
theorem agSk_lit_5 : agSk 5 = CK.agS 1 2 := by decide
theorem agSk_lit_6 : agSk 6 = CK.agS 2 0 := by decide
theorem agSk_lit_7 : agSk 7 = CK.agS 2 1 := by decide
theorem agSk_lit_8 : agSk 8 = CK.agS 2 2 := by decide
theorem agSk_lit_9 : agSk 9 = CK.agS 3 0 := by decide
theorem agSk_lit_10 : agSk 10 = CK.agS 3 1 := by decide
theorem agSk_lit_11 : agSk 11 = CK.agS 3 2 := by decide
theorem agSk_lit_12 : agSk 12 = CK.agS 4 0 := by decide
theorem agSk_lit_13 : agSk 13 = CK.agS 4 1 := by decide
theorem agSk_lit_14 : agSk 14 = CK.agS 4 2 := by decide
theorem agSk_lit_15 : agSk 15 = CK.agS 5 0 := by decide
theorem agSk_lit_16 : agSk 16 = CK.agS 5 1 := by decide
theorem agSk_lit_17 : agSk 17 = CK.agS 5 2 := by decide
theorem agRk_lit_0 : agRk 0 = CK.agR 0 0 := by decide
theorem agRk_lit_1 : agRk 1 = CK.agR 0 1 := by decide
theorem agRk_lit_2 : agRk 2 = CK.agR 0 2 := by decide
theorem agRk_lit_3 : agRk 3 = CK.agR 1 0 := by decide
theorem agRk_lit_4 : agRk 4 = CK.agR 1 1 := by decide
theorem agRk_lit_5 : agRk 5 = CK.agR 1 2 := by decide
theorem agRk_lit_6 : agRk 6 = CK.agR 2 0 := by decide
theorem agRk_lit_7 : agRk 7 = CK.agR 2 1 := by decide
theorem agRk_lit_8 : agRk 8 = CK.agR 2 2 := by decide
theorem agRk_lit_9 : agRk 9 = CK.agR 3 0 := by decide
theorem agRk_lit_10 : agRk 10 = CK.agR 3 1 := by decide
theorem agRk_lit_11 : agRk 11 = CK.agR 3 2 := by decide
theorem agRk_lit_12 : agRk 12 = CK.agR 4 0 := by decide
theorem agRk_lit_13 : agRk 13 = CK.agR 4 1 := by decide
theorem agRk_lit_14 : agRk 14 = CK.agR 4 2 := by decide
theorem agRk_lit_15 : agRk 15 = CK.agR 5 0 := by decide
theorem agRk_lit_16 : agRk 16 = CK.agR 5 1 := by decide
theorem agRk_lit_17 : agRk 17 = CK.agR 5 2 := by decide
theorem dirRS_lit_0 : dirRS 0 = 0 := by decide
theorem dirRS_lit_1 : dirRS 1 = 1 := by decide
theorem dirRS_lit_2 : dirRS 2 = 2 := by decide
theorem dirRS_lit_3 : dirRS 3 = 1 := by decide
theorem dirRS_lit_4 : dirRS 4 = 2 := by decide
theorem dirRS_lit_5 : dirRS 5 = 0 := by decide
theorem dirRS_lit_6 : dirRS 6 = 2 := by decide
theorem dirRS_lit_7 : dirRS 7 = 0 := by decide
theorem dirRS_lit_8 : dirRS 8 = 1 := by decide
theorem dirRS_lit_9 : dirRS 9 = 0 := by decide
theorem dirRS_lit_10 : dirRS 10 = 1 := by decide
theorem dirRS_lit_11 : dirRS 11 = 2 := by decide
theorem dirRS_lit_12 : dirRS 12 = 1 := by decide
theorem dirRS_lit_13 : dirRS 13 = 2 := by decide
theorem dirRS_lit_14 : dirRS 14 = 0 := by decide
theorem dirRS_lit_15 : dirRS 15 = 2 := by decide
theorem dirRS_lit_16 : dirRS 16 = 0 := by decide
theorem dirRS_lit_17 : dirRS 17 = 1 := by decide
theorem dirAG_lit_0 : dirAG 0 = 2 := by decide
theorem dirAG_lit_1 : dirAG 1 = 1 := by decide
theorem dirAG_lit_2 : dirAG 2 = 0 := by decide
theorem dirAG_lit_3 : dirAG 3 = 0 := by decide
theorem dirAG_lit_4 : dirAG 4 = 2 := by decide
theorem dirAG_lit_5 : dirAG 5 = 1 := by decide
theorem dirAG_lit_6 : dirAG 6 = 1 := by decide
theorem dirAG_lit_7 : dirAG 7 = 0 := by decide
theorem dirAG_lit_8 : dirAG 8 = 2 := by decide
theorem dirAG_lit_9 : dirAG 9 = 2 := by decide
theorem dirAG_lit_10 : dirAG 10 = 1 := by decide
theorem dirAG_lit_11 : dirAG 11 = 0 := by decide
theorem dirAG_lit_12 : dirAG 12 = 0 := by decide
theorem dirAG_lit_13 : dirAG 13 = 2 := by decide
theorem dirAG_lit_14 : dirAG 14 = 1 := by decide
theorem dirAG_lit_15 : dirAG 15 = 1 := by decide
theorem dirAG_lit_16 : dirAG 16 = 0 := by decide
theorem dirAG_lit_17 : dirAG 17 = 2 := by decide

/-! ## The blocks -/

/-- The records of device c's own 97 cells: each one's invariant and that its round 0 is reached. -/
def ownRecs (K : Dev nD × Fin 97 → ℕ) (c : Dev nD) : sProp 𝕄 :=
  iprop((cellInv ER (sched V) (K (c, ckIdx CK.bar)) (cell c CK.bar) ∗ reached ER (cell c CK.bar) 0)
    ∗ (cellInv ER (sched V) (K (c, ckIdx (CK.rsS 0 0))) (cell c (CK.rsS 0 0)) ∗ reached ER (cell c (CK.rsS 0 0)) 0)
    ∗ (cellInv ER (sched V) (K (c, ckIdx (CK.rsS 0 1))) (cell c (CK.rsS 0 1)) ∗ reached ER (cell c (CK.rsS 0 1)) 0)
    ∗ (cellInv ER (sched V) (K (c, ckIdx (CK.rsS 0 2))) (cell c (CK.rsS 0 2)) ∗ reached ER (cell c (CK.rsS 0 2)) 0)
    ∗ (cellInv ER (sched V) (K (c, ckIdx (CK.rsS 1 0))) (cell c (CK.rsS 1 0)) ∗ reached ER (cell c (CK.rsS 1 0)) 0)
    ∗ (cellInv ER (sched V) (K (c, ckIdx (CK.rsS 1 1))) (cell c (CK.rsS 1 1)) ∗ reached ER (cell c (CK.rsS 1 1)) 0)
    ∗ (cellInv ER (sched V) (K (c, ckIdx (CK.rsS 1 2))) (cell c (CK.rsS 1 2)) ∗ reached ER (cell c (CK.rsS 1 2)) 0)
    ∗ (cellInv ER (sched V) (K (c, ckIdx (CK.rsS 2 0))) (cell c (CK.rsS 2 0)) ∗ reached ER (cell c (CK.rsS 2 0)) 0)
    ∗ (cellInv ER (sched V) (K (c, ckIdx (CK.rsS 2 1))) (cell c (CK.rsS 2 1)) ∗ reached ER (cell c (CK.rsS 2 1)) 0)
    ∗ (cellInv ER (sched V) (K (c, ckIdx (CK.rsS 2 2))) (cell c (CK.rsS 2 2)) ∗ reached ER (cell c (CK.rsS 2 2)) 0)
    ∗ (cellInv ER (sched V) (K (c, ckIdx (CK.rsS 3 0))) (cell c (CK.rsS 3 0)) ∗ reached ER (cell c (CK.rsS 3 0)) 0)
    ∗ (cellInv ER (sched V) (K (c, ckIdx (CK.rsS 3 1))) (cell c (CK.rsS 3 1)) ∗ reached ER (cell c (CK.rsS 3 1)) 0)
    ∗ (cellInv ER (sched V) (K (c, ckIdx (CK.rsS 3 2))) (cell c (CK.rsS 3 2)) ∗ reached ER (cell c (CK.rsS 3 2)) 0)
    ∗ (cellInv ER (sched V) (K (c, ckIdx (CK.rsS 4 0))) (cell c (CK.rsS 4 0)) ∗ reached ER (cell c (CK.rsS 4 0)) 0)
    ∗ (cellInv ER (sched V) (K (c, ckIdx (CK.rsS 4 1))) (cell c (CK.rsS 4 1)) ∗ reached ER (cell c (CK.rsS 4 1)) 0)
    ∗ (cellInv ER (sched V) (K (c, ckIdx (CK.rsS 4 2))) (cell c (CK.rsS 4 2)) ∗ reached ER (cell c (CK.rsS 4 2)) 0)
    ∗ (cellInv ER (sched V) (K (c, ckIdx (CK.rsS 5 0))) (cell c (CK.rsS 5 0)) ∗ reached ER (cell c (CK.rsS 5 0)) 0)
    ∗ (cellInv ER (sched V) (K (c, ckIdx (CK.rsS 5 1))) (cell c (CK.rsS 5 1)) ∗ reached ER (cell c (CK.rsS 5 1)) 0)
    ∗ (cellInv ER (sched V) (K (c, ckIdx (CK.rsS 5 2))) (cell c (CK.rsS 5 2)) ∗ reached ER (cell c (CK.rsS 5 2)) 0)
    ∗ (cellInv ER (sched V) (K (c, ckIdx (CK.rsR 0 0))) (cell c (CK.rsR 0 0)) ∗ reached ER (cell c (CK.rsR 0 0)) 0)
    ∗ (cellInv ER (sched V) (K (c, ckIdx (CK.rsR 0 1))) (cell c (CK.rsR 0 1)) ∗ reached ER (cell c (CK.rsR 0 1)) 0)
    ∗ (cellInv ER (sched V) (K (c, ckIdx (CK.rsR 0 2))) (cell c (CK.rsR 0 2)) ∗ reached ER (cell c (CK.rsR 0 2)) 0)
    ∗ (cellInv ER (sched V) (K (c, ckIdx (CK.rsR 1 0))) (cell c (CK.rsR 1 0)) ∗ reached ER (cell c (CK.rsR 1 0)) 0)
    ∗ (cellInv ER (sched V) (K (c, ckIdx (CK.rsR 1 1))) (cell c (CK.rsR 1 1)) ∗ reached ER (cell c (CK.rsR 1 1)) 0)
    ∗ (cellInv ER (sched V) (K (c, ckIdx (CK.rsR 1 2))) (cell c (CK.rsR 1 2)) ∗ reached ER (cell c (CK.rsR 1 2)) 0)
    ∗ (cellInv ER (sched V) (K (c, ckIdx (CK.rsR 2 0))) (cell c (CK.rsR 2 0)) ∗ reached ER (cell c (CK.rsR 2 0)) 0)
    ∗ (cellInv ER (sched V) (K (c, ckIdx (CK.rsR 2 1))) (cell c (CK.rsR 2 1)) ∗ reached ER (cell c (CK.rsR 2 1)) 0)
    ∗ (cellInv ER (sched V) (K (c, ckIdx (CK.rsR 2 2))) (cell c (CK.rsR 2 2)) ∗ reached ER (cell c (CK.rsR 2 2)) 0)
    ∗ (cellInv ER (sched V) (K (c, ckIdx (CK.rsR 3 0))) (cell c (CK.rsR 3 0)) ∗ reached ER (cell c (CK.rsR 3 0)) 0)
    ∗ (cellInv ER (sched V) (K (c, ckIdx (CK.rsR 3 1))) (cell c (CK.rsR 3 1)) ∗ reached ER (cell c (CK.rsR 3 1)) 0)
    ∗ (cellInv ER (sched V) (K (c, ckIdx (CK.rsR 3 2))) (cell c (CK.rsR 3 2)) ∗ reached ER (cell c (CK.rsR 3 2)) 0)
    ∗ (cellInv ER (sched V) (K (c, ckIdx (CK.rsR 4 0))) (cell c (CK.rsR 4 0)) ∗ reached ER (cell c (CK.rsR 4 0)) 0)
    ∗ (cellInv ER (sched V) (K (c, ckIdx (CK.rsR 4 1))) (cell c (CK.rsR 4 1)) ∗ reached ER (cell c (CK.rsR 4 1)) 0)
    ∗ (cellInv ER (sched V) (K (c, ckIdx (CK.rsR 4 2))) (cell c (CK.rsR 4 2)) ∗ reached ER (cell c (CK.rsR 4 2)) 0)
    ∗ (cellInv ER (sched V) (K (c, ckIdx (CK.rsR 5 0))) (cell c (CK.rsR 5 0)) ∗ reached ER (cell c (CK.rsR 5 0)) 0)
    ∗ (cellInv ER (sched V) (K (c, ckIdx (CK.rsR 5 1))) (cell c (CK.rsR 5 1)) ∗ reached ER (cell c (CK.rsR 5 1)) 0)
    ∗ (cellInv ER (sched V) (K (c, ckIdx (CK.rsR 5 2))) (cell c (CK.rsR 5 2)) ∗ reached ER (cell c (CK.rsR 5 2)) 0)
    ∗ (cellInv ER (sched V) (K (c, ckIdx (CK.agS 0 0))) (cell c (CK.agS 0 0)) ∗ reached ER (cell c (CK.agS 0 0)) 0)
    ∗ (cellInv ER (sched V) (K (c, ckIdx (CK.agS 0 1))) (cell c (CK.agS 0 1)) ∗ reached ER (cell c (CK.agS 0 1)) 0)
    ∗ (cellInv ER (sched V) (K (c, ckIdx (CK.agS 0 2))) (cell c (CK.agS 0 2)) ∗ reached ER (cell c (CK.agS 0 2)) 0)
    ∗ (cellInv ER (sched V) (K (c, ckIdx (CK.agS 1 0))) (cell c (CK.agS 1 0)) ∗ reached ER (cell c (CK.agS 1 0)) 0)
    ∗ (cellInv ER (sched V) (K (c, ckIdx (CK.agS 1 1))) (cell c (CK.agS 1 1)) ∗ reached ER (cell c (CK.agS 1 1)) 0)
    ∗ (cellInv ER (sched V) (K (c, ckIdx (CK.agS 1 2))) (cell c (CK.agS 1 2)) ∗ reached ER (cell c (CK.agS 1 2)) 0)
    ∗ (cellInv ER (sched V) (K (c, ckIdx (CK.agS 2 0))) (cell c (CK.agS 2 0)) ∗ reached ER (cell c (CK.agS 2 0)) 0)
    ∗ (cellInv ER (sched V) (K (c, ckIdx (CK.agS 2 1))) (cell c (CK.agS 2 1)) ∗ reached ER (cell c (CK.agS 2 1)) 0)
    ∗ (cellInv ER (sched V) (K (c, ckIdx (CK.agS 2 2))) (cell c (CK.agS 2 2)) ∗ reached ER (cell c (CK.agS 2 2)) 0)
    ∗ (cellInv ER (sched V) (K (c, ckIdx (CK.agS 3 0))) (cell c (CK.agS 3 0)) ∗ reached ER (cell c (CK.agS 3 0)) 0)
    ∗ (cellInv ER (sched V) (K (c, ckIdx (CK.agS 3 1))) (cell c (CK.agS 3 1)) ∗ reached ER (cell c (CK.agS 3 1)) 0)
    ∗ (cellInv ER (sched V) (K (c, ckIdx (CK.agS 3 2))) (cell c (CK.agS 3 2)) ∗ reached ER (cell c (CK.agS 3 2)) 0)
    ∗ (cellInv ER (sched V) (K (c, ckIdx (CK.agS 4 0))) (cell c (CK.agS 4 0)) ∗ reached ER (cell c (CK.agS 4 0)) 0)
    ∗ (cellInv ER (sched V) (K (c, ckIdx (CK.agS 4 1))) (cell c (CK.agS 4 1)) ∗ reached ER (cell c (CK.agS 4 1)) 0)
    ∗ (cellInv ER (sched V) (K (c, ckIdx (CK.agS 4 2))) (cell c (CK.agS 4 2)) ∗ reached ER (cell c (CK.agS 4 2)) 0)
    ∗ (cellInv ER (sched V) (K (c, ckIdx (CK.agS 5 0))) (cell c (CK.agS 5 0)) ∗ reached ER (cell c (CK.agS 5 0)) 0)
    ∗ (cellInv ER (sched V) (K (c, ckIdx (CK.agS 5 1))) (cell c (CK.agS 5 1)) ∗ reached ER (cell c (CK.agS 5 1)) 0)
    ∗ (cellInv ER (sched V) (K (c, ckIdx (CK.agS 5 2))) (cell c (CK.agS 5 2)) ∗ reached ER (cell c (CK.agS 5 2)) 0)
    ∗ (cellInv ER (sched V) (K (c, ckIdx (CK.agR 0 0))) (cell c (CK.agR 0 0)) ∗ reached ER (cell c (CK.agR 0 0)) 0)
    ∗ (cellInv ER (sched V) (K (c, ckIdx (CK.agR 0 1))) (cell c (CK.agR 0 1)) ∗ reached ER (cell c (CK.agR 0 1)) 0)
    ∗ (cellInv ER (sched V) (K (c, ckIdx (CK.agR 0 2))) (cell c (CK.agR 0 2)) ∗ reached ER (cell c (CK.agR 0 2)) 0)
    ∗ (cellInv ER (sched V) (K (c, ckIdx (CK.agR 1 0))) (cell c (CK.agR 1 0)) ∗ reached ER (cell c (CK.agR 1 0)) 0)
    ∗ (cellInv ER (sched V) (K (c, ckIdx (CK.agR 1 1))) (cell c (CK.agR 1 1)) ∗ reached ER (cell c (CK.agR 1 1)) 0)
    ∗ (cellInv ER (sched V) (K (c, ckIdx (CK.agR 1 2))) (cell c (CK.agR 1 2)) ∗ reached ER (cell c (CK.agR 1 2)) 0)
    ∗ (cellInv ER (sched V) (K (c, ckIdx (CK.agR 2 0))) (cell c (CK.agR 2 0)) ∗ reached ER (cell c (CK.agR 2 0)) 0)
    ∗ (cellInv ER (sched V) (K (c, ckIdx (CK.agR 2 1))) (cell c (CK.agR 2 1)) ∗ reached ER (cell c (CK.agR 2 1)) 0)
    ∗ (cellInv ER (sched V) (K (c, ckIdx (CK.agR 2 2))) (cell c (CK.agR 2 2)) ∗ reached ER (cell c (CK.agR 2 2)) 0)
    ∗ (cellInv ER (sched V) (K (c, ckIdx (CK.agR 3 0))) (cell c (CK.agR 3 0)) ∗ reached ER (cell c (CK.agR 3 0)) 0)
    ∗ (cellInv ER (sched V) (K (c, ckIdx (CK.agR 3 1))) (cell c (CK.agR 3 1)) ∗ reached ER (cell c (CK.agR 3 1)) 0)
    ∗ (cellInv ER (sched V) (K (c, ckIdx (CK.agR 3 2))) (cell c (CK.agR 3 2)) ∗ reached ER (cell c (CK.agR 3 2)) 0)
    ∗ (cellInv ER (sched V) (K (c, ckIdx (CK.agR 4 0))) (cell c (CK.agR 4 0)) ∗ reached ER (cell c (CK.agR 4 0)) 0)
    ∗ (cellInv ER (sched V) (K (c, ckIdx (CK.agR 4 1))) (cell c (CK.agR 4 1)) ∗ reached ER (cell c (CK.agR 4 1)) 0)
    ∗ (cellInv ER (sched V) (K (c, ckIdx (CK.agR 4 2))) (cell c (CK.agR 4 2)) ∗ reached ER (cell c (CK.agR 4 2)) 0)
    ∗ (cellInv ER (sched V) (K (c, ckIdx (CK.agR 5 0))) (cell c (CK.agR 5 0)) ∗ reached ER (cell c (CK.agR 5 0)) 0)
    ∗ (cellInv ER (sched V) (K (c, ckIdx (CK.agR 5 1))) (cell c (CK.agR 5 1)) ∗ reached ER (cell c (CK.agR 5 1)) 0)
    ∗ (cellInv ER (sched V) (K (c, ckIdx (CK.agR 5 2))) (cell c (CK.agR 5 2)) ∗ reached ER (cell c (CK.agR 5 2)) 0)
    ∗ (cellInv ER (sched V) (K (c, ckIdx (CK.out 0))) (cell c (CK.out 0)) ∗ reached ER (cell c (CK.out 0)) 0)
    ∗ (cellInv ER (sched V) (K (c, ckIdx (CK.out 1))) (cell c (CK.out 1)) ∗ reached ER (cell c (CK.out 1)) 0)
    ∗ (cellInv ER (sched V) (K (c, ckIdx (CK.out 2))) (cell c (CK.out 2)) ∗ reached ER (cell c (CK.out 2)) 0)
    ∗ (cellInv ER (sched V) (K (c, ckIdx (CK.out 3))) (cell c (CK.out 3)) ∗ reached ER (cell c (CK.out 3)) 0)
    ∗ (cellInv ER (sched V) (K (c, ckIdx (CK.out 4))) (cell c (CK.out 4)) ∗ reached ER (cell c (CK.out 4)) 0)
    ∗ (cellInv ER (sched V) (K (c, ckIdx (CK.out 5))) (cell c (CK.out 5)) ∗ reached ER (cell c (CK.out 5)) 0)
    ∗ (cellInv ER (sched V) (K (c, ckIdx (CK.out 6))) (cell c (CK.out 6)) ∗ reached ER (cell c (CK.out 6)) 0)
    ∗ (cellInv ER (sched V) (K (c, ckIdx (CK.out 7))) (cell c (CK.out 7)) ∗ reached ER (cell c (CK.out 7)) 0)
    ∗ (cellInv ER (sched V) (K (c, ckIdx (CK.out 8))) (cell c (CK.out 8)) ∗ reached ER (cell c (CK.out 8)) 0)
    ∗ (cellInv ER (sched V) (K (c, ckIdx (CK.out 9))) (cell c (CK.out 9)) ∗ reached ER (cell c (CK.out 9)) 0)
    ∗ (cellInv ER (sched V) (K (c, ckIdx (CK.out 10))) (cell c (CK.out 10)) ∗ reached ER (cell c (CK.out 10)) 0)
    ∗ (cellInv ER (sched V) (K (c, ckIdx (CK.out 11))) (cell c (CK.out 11)) ∗ reached ER (cell c (CK.out 11)) 0)
    ∗ (cellInv ER (sched V) (K (c, ckIdx (CK.out 12))) (cell c (CK.out 12)) ∗ reached ER (cell c (CK.out 12)) 0)
    ∗ (cellInv ER (sched V) (K (c, ckIdx (CK.out 13))) (cell c (CK.out 13)) ∗ reached ER (cell c (CK.out 13)) 0)
    ∗ (cellInv ER (sched V) (K (c, ckIdx (CK.out 14))) (cell c (CK.out 14)) ∗ reached ER (cell c (CK.out 14)) 0)
    ∗ (cellInv ER (sched V) (K (c, ckIdx (CK.out 15))) (cell c (CK.out 15)) ∗ reached ER (cell c (CK.out 15)) 0)
    ∗ (cellInv ER (sched V) (K (c, ckIdx (CK.out 16))) (cell c (CK.out 16)) ∗ reached ER (cell c (CK.out 16)) 0)
    ∗ (cellInv ER (sched V) (K (c, ckIdx (CK.out 17))) (cell c (CK.out 17)) ∗ reached ER (cell c (CK.out 17)) 0)
    ∗ (cellInv ER (sched V) (K (c, ckIdx (CK.out 18))) (cell c (CK.out 18)) ∗ reached ER (cell c (CK.out 18)) 0)
    ∗ (cellInv ER (sched V) (K (c, ckIdx (CK.out 19))) (cell c (CK.out 19)) ∗ reached ER (cell c (CK.out 19)) 0)
    ∗ (cellInv ER (sched V) (K (c, ckIdx (CK.out 20))) (cell c (CK.out 20)) ∗ reached ER (cell c (CK.out 20)) 0)
    ∗ (cellInv ER (sched V) (K (c, ckIdx (CK.out 21))) (cell c (CK.out 21)) ∗ reached ER (cell c (CK.out 21)) 0)
    ∗ (cellInv ER (sched V) (K (c, ckIdx (CK.out 22))) (cell c (CK.out 22)) ∗ reached ER (cell c (CK.out 22)) 0)
    ∗ (cellInv ER (sched V) (K (c, ckIdx (CK.out 23))) (cell c (CK.out 23)) ∗ reached ER (cell c (CK.out 23)) 0))

omit [FloatOps F] in
theorem ownRecs_eq (K : Dev nD × Fin 97 → ℕ) (c : Dev nD) :
    ownRecs V K c = bigSep Finset.univ fun i : Fin 97 => iprop(cellInv ER (sched V) (K (c, i)) (cell c (ckOf i)) ∗ reached ER (cell c (ckOf i)) 0) := by
  unfold ownRecs; rw [sep_fin97]; simp only [ckOf_lit_0, ckOf_lit_1, ckOf_lit_2, ckOf_lit_3, ckOf_lit_4, ckOf_lit_5, ckOf_lit_6, ckOf_lit_7, ckOf_lit_8, ckOf_lit_9, ckOf_lit_10, ckOf_lit_11, ckOf_lit_12, ckOf_lit_13, ckOf_lit_14, ckOf_lit_15, ckOf_lit_16, ckOf_lit_17, ckOf_lit_18, ckOf_lit_19, ckOf_lit_20, ckOf_lit_21, ckOf_lit_22, ckOf_lit_23, ckOf_lit_24, ckOf_lit_25, ckOf_lit_26, ckOf_lit_27, ckOf_lit_28, ckOf_lit_29, ckOf_lit_30, ckOf_lit_31, ckOf_lit_32, ckOf_lit_33, ckOf_lit_34, ckOf_lit_35, ckOf_lit_36, ckOf_lit_37, ckOf_lit_38, ckOf_lit_39, ckOf_lit_40, ckOf_lit_41, ckOf_lit_42, ckOf_lit_43, ckOf_lit_44, ckOf_lit_45, ckOf_lit_46, ckOf_lit_47, ckOf_lit_48, ckOf_lit_49, ckOf_lit_50, ckOf_lit_51, ckOf_lit_52, ckOf_lit_53, ckOf_lit_54, ckOf_lit_55, ckOf_lit_56, ckOf_lit_57, ckOf_lit_58, ckOf_lit_59, ckOf_lit_60, ckOf_lit_61, ckOf_lit_62, ckOf_lit_63, ckOf_lit_64, ckOf_lit_65, ckOf_lit_66, ckOf_lit_67, ckOf_lit_68, ckOf_lit_69, ckOf_lit_70, ckOf_lit_71, ckOf_lit_72, ckOf_lit_73, ckOf_lit_74, ckOf_lit_75, ckOf_lit_76, ckOf_lit_77, ckOf_lit_78, ckOf_lit_79, ckOf_lit_80, ckOf_lit_81, ckOf_lit_82, ckOf_lit_83, ckOf_lit_84, ckOf_lit_85, ckOf_lit_86, ckOf_lit_87, ckOf_lit_88, ckOf_lit_89, ckOf_lit_90, ckOf_lit_91, ckOf_lit_92, ckOf_lit_93, ckOf_lit_94, ckOf_lit_95, ckOf_lit_96, ckIdx_lit_0, ckIdx_lit_1, ckIdx_lit_2, ckIdx_lit_3, ckIdx_lit_4, ckIdx_lit_5, ckIdx_lit_6, ckIdx_lit_7, ckIdx_lit_8, ckIdx_lit_9, ckIdx_lit_10, ckIdx_lit_11, ckIdx_lit_12, ckIdx_lit_13, ckIdx_lit_14, ckIdx_lit_15, ckIdx_lit_16, ckIdx_lit_17, ckIdx_lit_18, ckIdx_lit_19, ckIdx_lit_20, ckIdx_lit_21, ckIdx_lit_22, ckIdx_lit_23, ckIdx_lit_24, ckIdx_lit_25, ckIdx_lit_26, ckIdx_lit_27, ckIdx_lit_28, ckIdx_lit_29, ckIdx_lit_30, ckIdx_lit_31, ckIdx_lit_32, ckIdx_lit_33, ckIdx_lit_34, ckIdx_lit_35, ckIdx_lit_36, ckIdx_lit_37, ckIdx_lit_38, ckIdx_lit_39, ckIdx_lit_40, ckIdx_lit_41, ckIdx_lit_42, ckIdx_lit_43, ckIdx_lit_44, ckIdx_lit_45, ckIdx_lit_46, ckIdx_lit_47, ckIdx_lit_48, ckIdx_lit_49, ckIdx_lit_50, ckIdx_lit_51, ckIdx_lit_52, ckIdx_lit_53, ckIdx_lit_54, ckIdx_lit_55, ckIdx_lit_56, ckIdx_lit_57, ckIdx_lit_58, ckIdx_lit_59, ckIdx_lit_60, ckIdx_lit_61, ckIdx_lit_62, ckIdx_lit_63, ckIdx_lit_64, ckIdx_lit_65, ckIdx_lit_66, ckIdx_lit_67, ckIdx_lit_68, ckIdx_lit_69, ckIdx_lit_70, ckIdx_lit_71, ckIdx_lit_72, ckIdx_lit_73, ckIdx_lit_74, ckIdx_lit_75, ckIdx_lit_76, ckIdx_lit_77, ckIdx_lit_78, ckIdx_lit_79, ckIdx_lit_80, ckIdx_lit_81, ckIdx_lit_82, ckIdx_lit_83, ckIdx_lit_84, ckIdx_lit_85, ckIdx_lit_86, ckIdx_lit_87, ckIdx_lit_88, ckIdx_lit_89, ckIdx_lit_90, ckIdx_lit_91, ckIdx_lit_92, ckIdx_lit_93, ckIdx_lit_94, ckIdx_lit_95, ckIdx_lit_96]

/-- The records of the 39 cells device c pays: its three neighbours' barrier cells and the receive cells its 36 transfers fill. -/
def paidRecs (K : Dev nD × Fin 97 → ℕ) (c : Dev nD) : sProp 𝕄 :=
  iprop(((cellInv ER (sched V) (K ((nbr 0 c), ckIdx CK.bar)) (cell (nbr 0 c) CK.bar) ∗ reached ER (cell (nbr 0 c) CK.bar) 0)
    ∗ (cellInv ER (sched V) (K ((nbr 1 c), ckIdx CK.bar)) (cell (nbr 1 c) CK.bar) ∗ reached ER (cell (nbr 1 c) CK.bar) 0)
    ∗ (cellInv ER (sched V) (K ((nbr 2 c), ckIdx CK.bar)) (cell (nbr 2 c) CK.bar) ∗ reached ER (cell (nbr 2 c) CK.bar) 0))
    ∗ ((cellInv ER (sched V) (K ((nbr 0 c), ckIdx (CK.rsR 0 0))) (cell (nbr 0 c) (CK.rsR 0 0)) ∗ reached ER (cell (nbr 0 c) (CK.rsR 0 0)) 0)
    ∗ (cellInv ER (sched V) (K ((nbr 1 c), ckIdx (CK.rsR 0 1))) (cell (nbr 1 c) (CK.rsR 0 1)) ∗ reached ER (cell (nbr 1 c) (CK.rsR 0 1)) 0)
    ∗ (cellInv ER (sched V) (K ((nbr 2 c), ckIdx (CK.rsR 0 2))) (cell (nbr 2 c) (CK.rsR 0 2)) ∗ reached ER (cell (nbr 2 c) (CK.rsR 0 2)) 0)
    ∗ (cellInv ER (sched V) (K ((nbr 1 c), ckIdx (CK.rsR 1 0))) (cell (nbr 1 c) (CK.rsR 1 0)) ∗ reached ER (cell (nbr 1 c) (CK.rsR 1 0)) 0)
    ∗ (cellInv ER (sched V) (K ((nbr 2 c), ckIdx (CK.rsR 1 1))) (cell (nbr 2 c) (CK.rsR 1 1)) ∗ reached ER (cell (nbr 2 c) (CK.rsR 1 1)) 0)
    ∗ (cellInv ER (sched V) (K ((nbr 0 c), ckIdx (CK.rsR 1 2))) (cell (nbr 0 c) (CK.rsR 1 2)) ∗ reached ER (cell (nbr 0 c) (CK.rsR 1 2)) 0)
    ∗ (cellInv ER (sched V) (K ((nbr 2 c), ckIdx (CK.rsR 2 0))) (cell (nbr 2 c) (CK.rsR 2 0)) ∗ reached ER (cell (nbr 2 c) (CK.rsR 2 0)) 0)
    ∗ (cellInv ER (sched V) (K ((nbr 0 c), ckIdx (CK.rsR 2 1))) (cell (nbr 0 c) (CK.rsR 2 1)) ∗ reached ER (cell (nbr 0 c) (CK.rsR 2 1)) 0)
    ∗ (cellInv ER (sched V) (K ((nbr 1 c), ckIdx (CK.rsR 2 2))) (cell (nbr 1 c) (CK.rsR 2 2)) ∗ reached ER (cell (nbr 1 c) (CK.rsR 2 2)) 0)
    ∗ (cellInv ER (sched V) (K ((nbr 0 c), ckIdx (CK.rsR 3 0))) (cell (nbr 0 c) (CK.rsR 3 0)) ∗ reached ER (cell (nbr 0 c) (CK.rsR 3 0)) 0)
    ∗ (cellInv ER (sched V) (K ((nbr 1 c), ckIdx (CK.rsR 3 1))) (cell (nbr 1 c) (CK.rsR 3 1)) ∗ reached ER (cell (nbr 1 c) (CK.rsR 3 1)) 0)
    ∗ (cellInv ER (sched V) (K ((nbr 2 c), ckIdx (CK.rsR 3 2))) (cell (nbr 2 c) (CK.rsR 3 2)) ∗ reached ER (cell (nbr 2 c) (CK.rsR 3 2)) 0)
    ∗ (cellInv ER (sched V) (K ((nbr 1 c), ckIdx (CK.rsR 4 0))) (cell (nbr 1 c) (CK.rsR 4 0)) ∗ reached ER (cell (nbr 1 c) (CK.rsR 4 0)) 0)
    ∗ (cellInv ER (sched V) (K ((nbr 2 c), ckIdx (CK.rsR 4 1))) (cell (nbr 2 c) (CK.rsR 4 1)) ∗ reached ER (cell (nbr 2 c) (CK.rsR 4 1)) 0)
    ∗ (cellInv ER (sched V) (K ((nbr 0 c), ckIdx (CK.rsR 4 2))) (cell (nbr 0 c) (CK.rsR 4 2)) ∗ reached ER (cell (nbr 0 c) (CK.rsR 4 2)) 0)
    ∗ (cellInv ER (sched V) (K ((nbr 2 c), ckIdx (CK.rsR 5 0))) (cell (nbr 2 c) (CK.rsR 5 0)) ∗ reached ER (cell (nbr 2 c) (CK.rsR 5 0)) 0)
    ∗ (cellInv ER (sched V) (K ((nbr 0 c), ckIdx (CK.rsR 5 1))) (cell (nbr 0 c) (CK.rsR 5 1)) ∗ reached ER (cell (nbr 0 c) (CK.rsR 5 1)) 0)
    ∗ (cellInv ER (sched V) (K ((nbr 1 c), ckIdx (CK.rsR 5 2))) (cell (nbr 1 c) (CK.rsR 5 2)) ∗ reached ER (cell (nbr 1 c) (CK.rsR 5 2)) 0))
    ∗ ((cellInv ER (sched V) (K ((nbr 2 c), ckIdx (CK.agR 0 0))) (cell (nbr 2 c) (CK.agR 0 0)) ∗ reached ER (cell (nbr 2 c) (CK.agR 0 0)) 0)
    ∗ (cellInv ER (sched V) (K ((nbr 1 c), ckIdx (CK.agR 0 1))) (cell (nbr 1 c) (CK.agR 0 1)) ∗ reached ER (cell (nbr 1 c) (CK.agR 0 1)) 0)
    ∗ (cellInv ER (sched V) (K ((nbr 0 c), ckIdx (CK.agR 0 2))) (cell (nbr 0 c) (CK.agR 0 2)) ∗ reached ER (cell (nbr 0 c) (CK.agR 0 2)) 0)
    ∗ (cellInv ER (sched V) (K ((nbr 0 c), ckIdx (CK.agR 1 0))) (cell (nbr 0 c) (CK.agR 1 0)) ∗ reached ER (cell (nbr 0 c) (CK.agR 1 0)) 0)
    ∗ (cellInv ER (sched V) (K ((nbr 2 c), ckIdx (CK.agR 1 1))) (cell (nbr 2 c) (CK.agR 1 1)) ∗ reached ER (cell (nbr 2 c) (CK.agR 1 1)) 0)
    ∗ (cellInv ER (sched V) (K ((nbr 1 c), ckIdx (CK.agR 1 2))) (cell (nbr 1 c) (CK.agR 1 2)) ∗ reached ER (cell (nbr 1 c) (CK.agR 1 2)) 0)
    ∗ (cellInv ER (sched V) (K ((nbr 1 c), ckIdx (CK.agR 2 0))) (cell (nbr 1 c) (CK.agR 2 0)) ∗ reached ER (cell (nbr 1 c) (CK.agR 2 0)) 0)
    ∗ (cellInv ER (sched V) (K ((nbr 0 c), ckIdx (CK.agR 2 1))) (cell (nbr 0 c) (CK.agR 2 1)) ∗ reached ER (cell (nbr 0 c) (CK.agR 2 1)) 0)
    ∗ (cellInv ER (sched V) (K ((nbr 2 c), ckIdx (CK.agR 2 2))) (cell (nbr 2 c) (CK.agR 2 2)) ∗ reached ER (cell (nbr 2 c) (CK.agR 2 2)) 0)
    ∗ (cellInv ER (sched V) (K ((nbr 2 c), ckIdx (CK.agR 3 0))) (cell (nbr 2 c) (CK.agR 3 0)) ∗ reached ER (cell (nbr 2 c) (CK.agR 3 0)) 0)
    ∗ (cellInv ER (sched V) (K ((nbr 1 c), ckIdx (CK.agR 3 1))) (cell (nbr 1 c) (CK.agR 3 1)) ∗ reached ER (cell (nbr 1 c) (CK.agR 3 1)) 0)
    ∗ (cellInv ER (sched V) (K ((nbr 0 c), ckIdx (CK.agR 3 2))) (cell (nbr 0 c) (CK.agR 3 2)) ∗ reached ER (cell (nbr 0 c) (CK.agR 3 2)) 0)
    ∗ (cellInv ER (sched V) (K ((nbr 0 c), ckIdx (CK.agR 4 0))) (cell (nbr 0 c) (CK.agR 4 0)) ∗ reached ER (cell (nbr 0 c) (CK.agR 4 0)) 0)
    ∗ (cellInv ER (sched V) (K ((nbr 2 c), ckIdx (CK.agR 4 1))) (cell (nbr 2 c) (CK.agR 4 1)) ∗ reached ER (cell (nbr 2 c) (CK.agR 4 1)) 0)
    ∗ (cellInv ER (sched V) (K ((nbr 1 c), ckIdx (CK.agR 4 2))) (cell (nbr 1 c) (CK.agR 4 2)) ∗ reached ER (cell (nbr 1 c) (CK.agR 4 2)) 0)
    ∗ (cellInv ER (sched V) (K ((nbr 1 c), ckIdx (CK.agR 5 0))) (cell (nbr 1 c) (CK.agR 5 0)) ∗ reached ER (cell (nbr 1 c) (CK.agR 5 0)) 0)
    ∗ (cellInv ER (sched V) (K ((nbr 0 c), ckIdx (CK.agR 5 1))) (cell (nbr 0 c) (CK.agR 5 1)) ∗ reached ER (cell (nbr 0 c) (CK.agR 5 1)) 0)
    ∗ (cellInv ER (sched V) (K ((nbr 2 c), ckIdx (CK.agR 5 2))) (cell (nbr 2 c) (CK.agR 5 2)) ∗ reached ER (cell (nbr 2 c) (CK.agR 5 2)) 0)))

omit [FloatOps F] in
theorem paidRecs_eq (K : Dev nD × Fin 97 → ℕ) (c : Dev nD) :
    paidRecs V K c = iprop((bigSep Finset.univ fun d : Fin 3 => iprop(cellInv ER (sched V) (K (nbr d c, ckIdx CK.bar)) (cell (nbr d c) CK.bar) ∗ reached ER (cell (nbr d c) CK.bar) 0))
      ∗ (bigSep Finset.univ fun i : Fin 18 => iprop(cellInv ER (sched V) (K (nbr (dirRS i) c, ckIdx (rsRk i))) (cell (nbr (dirRS i) c) (rsRk i)) ∗ reached ER (cell (nbr (dirRS i) c) (rsRk i)) 0))
      ∗ (bigSep Finset.univ fun i : Fin 18 => iprop(cellInv ER (sched V) (K (nbr (dirAG i) c, ckIdx (agRk i))) (cell (nbr (dirAG i) c) (agRk i)) ∗ reached ER (cell (nbr (dirAG i) c) (agRk i)) 0))) := by
  unfold paidRecs; rw [sep_fin3, sep_fin18, sep_fin18]; simp only [rsRk_lit_0, rsRk_lit_1, rsRk_lit_2, rsRk_lit_3, rsRk_lit_4, rsRk_lit_5, rsRk_lit_6, rsRk_lit_7, rsRk_lit_8, rsRk_lit_9, rsRk_lit_10, rsRk_lit_11, rsRk_lit_12, rsRk_lit_13, rsRk_lit_14, rsRk_lit_15, rsRk_lit_16, rsRk_lit_17, agRk_lit_0, agRk_lit_1, agRk_lit_2, agRk_lit_3, agRk_lit_4, agRk_lit_5, agRk_lit_6, agRk_lit_7, agRk_lit_8, agRk_lit_9, agRk_lit_10, agRk_lit_11, agRk_lit_12, agRk_lit_13, agRk_lit_14, agRk_lit_15, agRk_lit_16, agRk_lit_17, dirRS_lit_0, dirRS_lit_1, dirRS_lit_2, dirRS_lit_3, dirRS_lit_4, dirRS_lit_5, dirRS_lit_6, dirRS_lit_7, dirRS_lit_8, dirRS_lit_9, dirRS_lit_10, dirRS_lit_11, dirRS_lit_12, dirRS_lit_13, dirRS_lit_14, dirRS_lit_15, dirRS_lit_16, dirRS_lit_17, dirAG_lit_0, dirAG_lit_1, dirAG_lit_2, dirAG_lit_3, dirAG_lit_4, dirAG_lit_5, dirAG_lit_6, dirAG_lit_7, dirAG_lit_8, dirAG_lit_9, dirAG_lit_10, dirAG_lit_11, dirAG_lit_12, dirAG_lit_13, dirAG_lit_14, dirAG_lit_15, dirAG_lit_16, dirAG_lit_17]

/-- The tokens of the duties device c pays. -/
def toksLit (c : Dev nD) : sProp 𝕄 :=
  iprop((dutyTok ER (cell (nbr 0 c) CK.bar) 0 (0 : Fin 3)
    ∗ dutyTok ER (cell (nbr 1 c) CK.bar) 0 (1 : Fin 3)
    ∗ dutyTok ER (cell (nbr 2 c) CK.bar) 0 (2 : Fin 3))
    ∗ (dutyTok ER (cell (nbr 0 c) (CK.rsR 0 0)) 0 (0 : Fin 3)
    ∗ dutyTok ER (cell (nbr 1 c) (CK.rsR 0 1)) 0 (0 : Fin 3)
    ∗ dutyTok ER (cell (nbr 2 c) (CK.rsR 0 2)) 0 (0 : Fin 3)
    ∗ dutyTok ER (cell (nbr 1 c) (CK.rsR 1 0)) 0 (0 : Fin 3)
    ∗ dutyTok ER (cell (nbr 2 c) (CK.rsR 1 1)) 0 (0 : Fin 3)
    ∗ dutyTok ER (cell (nbr 0 c) (CK.rsR 1 2)) 0 (0 : Fin 3)
    ∗ dutyTok ER (cell (nbr 2 c) (CK.rsR 2 0)) 0 (0 : Fin 3)
    ∗ dutyTok ER (cell (nbr 0 c) (CK.rsR 2 1)) 0 (0 : Fin 3)
    ∗ dutyTok ER (cell (nbr 1 c) (CK.rsR 2 2)) 0 (0 : Fin 3)
    ∗ dutyTok ER (cell (nbr 0 c) (CK.rsR 3 0)) 0 (0 : Fin 3)
    ∗ dutyTok ER (cell (nbr 1 c) (CK.rsR 3 1)) 0 (0 : Fin 3)
    ∗ dutyTok ER (cell (nbr 2 c) (CK.rsR 3 2)) 0 (0 : Fin 3)
    ∗ dutyTok ER (cell (nbr 1 c) (CK.rsR 4 0)) 0 (0 : Fin 3)
    ∗ dutyTok ER (cell (nbr 2 c) (CK.rsR 4 1)) 0 (0 : Fin 3)
    ∗ dutyTok ER (cell (nbr 0 c) (CK.rsR 4 2)) 0 (0 : Fin 3)
    ∗ dutyTok ER (cell (nbr 2 c) (CK.rsR 5 0)) 0 (0 : Fin 3)
    ∗ dutyTok ER (cell (nbr 0 c) (CK.rsR 5 1)) 0 (0 : Fin 3)
    ∗ dutyTok ER (cell (nbr 1 c) (CK.rsR 5 2)) 0 (0 : Fin 3))
    ∗ (dutyTok ER (cell (nbr 2 c) (CK.agR 0 0)) 0 (0 : Fin 3)
    ∗ dutyTok ER (cell (nbr 1 c) (CK.agR 0 1)) 0 (0 : Fin 3)
    ∗ dutyTok ER (cell (nbr 0 c) (CK.agR 0 2)) 0 (0 : Fin 3)
    ∗ dutyTok ER (cell (nbr 0 c) (CK.agR 1 0)) 0 (0 : Fin 3)
    ∗ dutyTok ER (cell (nbr 2 c) (CK.agR 1 1)) 0 (0 : Fin 3)
    ∗ dutyTok ER (cell (nbr 1 c) (CK.agR 1 2)) 0 (0 : Fin 3)
    ∗ dutyTok ER (cell (nbr 1 c) (CK.agR 2 0)) 0 (0 : Fin 3)
    ∗ dutyTok ER (cell (nbr 0 c) (CK.agR 2 1)) 0 (0 : Fin 3)
    ∗ dutyTok ER (cell (nbr 2 c) (CK.agR 2 2)) 0 (0 : Fin 3)
    ∗ dutyTok ER (cell (nbr 2 c) (CK.agR 3 0)) 0 (0 : Fin 3)
    ∗ dutyTok ER (cell (nbr 1 c) (CK.agR 3 1)) 0 (0 : Fin 3)
    ∗ dutyTok ER (cell (nbr 0 c) (CK.agR 3 2)) 0 (0 : Fin 3)
    ∗ dutyTok ER (cell (nbr 0 c) (CK.agR 4 0)) 0 (0 : Fin 3)
    ∗ dutyTok ER (cell (nbr 2 c) (CK.agR 4 1)) 0 (0 : Fin 3)
    ∗ dutyTok ER (cell (nbr 1 c) (CK.agR 4 2)) 0 (0 : Fin 3)
    ∗ dutyTok ER (cell (nbr 1 c) (CK.agR 5 0)) 0 (0 : Fin 3)
    ∗ dutyTok ER (cell (nbr 0 c) (CK.agR 5 1)) 0 (0 : Fin 3)
    ∗ dutyTok ER (cell (nbr 2 c) (CK.agR 5 2)) 0 (0 : Fin 3))
    ∗ (dutyTok ER (cell c (CK.rsS 0 0)) 0 (0 : Fin 3)
    ∗ dutyTok ER (cell c (CK.rsS 0 1)) 0 (0 : Fin 3)
    ∗ dutyTok ER (cell c (CK.rsS 0 2)) 0 (0 : Fin 3)
    ∗ dutyTok ER (cell c (CK.rsS 1 0)) 0 (0 : Fin 3)
    ∗ dutyTok ER (cell c (CK.rsS 1 1)) 0 (0 : Fin 3)
    ∗ dutyTok ER (cell c (CK.rsS 1 2)) 0 (0 : Fin 3)
    ∗ dutyTok ER (cell c (CK.rsS 2 0)) 0 (0 : Fin 3)
    ∗ dutyTok ER (cell c (CK.rsS 2 1)) 0 (0 : Fin 3)
    ∗ dutyTok ER (cell c (CK.rsS 2 2)) 0 (0 : Fin 3)
    ∗ dutyTok ER (cell c (CK.rsS 3 0)) 0 (0 : Fin 3)
    ∗ dutyTok ER (cell c (CK.rsS 3 1)) 0 (0 : Fin 3)
    ∗ dutyTok ER (cell c (CK.rsS 3 2)) 0 (0 : Fin 3)
    ∗ dutyTok ER (cell c (CK.rsS 4 0)) 0 (0 : Fin 3)
    ∗ dutyTok ER (cell c (CK.rsS 4 1)) 0 (0 : Fin 3)
    ∗ dutyTok ER (cell c (CK.rsS 4 2)) 0 (0 : Fin 3)
    ∗ dutyTok ER (cell c (CK.rsS 5 0)) 0 (0 : Fin 3)
    ∗ dutyTok ER (cell c (CK.rsS 5 1)) 0 (0 : Fin 3)
    ∗ dutyTok ER (cell c (CK.rsS 5 2)) 0 (0 : Fin 3))
    ∗ (dutyTok ER (cell c (CK.agS 0 0)) 0 (0 : Fin 3)
    ∗ dutyTok ER (cell c (CK.agS 0 1)) 0 (0 : Fin 3)
    ∗ dutyTok ER (cell c (CK.agS 0 2)) 0 (0 : Fin 3)
    ∗ dutyTok ER (cell c (CK.agS 1 0)) 0 (0 : Fin 3)
    ∗ dutyTok ER (cell c (CK.agS 1 1)) 0 (0 : Fin 3)
    ∗ dutyTok ER (cell c (CK.agS 1 2)) 0 (0 : Fin 3)
    ∗ dutyTok ER (cell c (CK.agS 2 0)) 0 (0 : Fin 3)
    ∗ dutyTok ER (cell c (CK.agS 2 1)) 0 (0 : Fin 3)
    ∗ dutyTok ER (cell c (CK.agS 2 2)) 0 (0 : Fin 3)
    ∗ dutyTok ER (cell c (CK.agS 3 0)) 0 (0 : Fin 3)
    ∗ dutyTok ER (cell c (CK.agS 3 1)) 0 (0 : Fin 3)
    ∗ dutyTok ER (cell c (CK.agS 3 2)) 0 (0 : Fin 3)
    ∗ dutyTok ER (cell c (CK.agS 4 0)) 0 (0 : Fin 3)
    ∗ dutyTok ER (cell c (CK.agS 4 1)) 0 (0 : Fin 3)
    ∗ dutyTok ER (cell c (CK.agS 4 2)) 0 (0 : Fin 3)
    ∗ dutyTok ER (cell c (CK.agS 5 0)) 0 (0 : Fin 3)
    ∗ dutyTok ER (cell c (CK.agS 5 1)) 0 (0 : Fin 3)
    ∗ dutyTok ER (cell c (CK.agS 5 2)) 0 (0 : Fin 3))
    ∗ (dutyTok ER (cell c (CK.out 0)) 0 (0 : Fin 3)
    ∗ dutyTok ER (cell c (CK.out 1)) 0 (0 : Fin 3)
    ∗ dutyTok ER (cell c (CK.out 2)) 0 (0 : Fin 3)
    ∗ dutyTok ER (cell c (CK.out 3)) 0 (0 : Fin 3)
    ∗ dutyTok ER (cell c (CK.out 4)) 0 (0 : Fin 3)
    ∗ dutyTok ER (cell c (CK.out 5)) 0 (0 : Fin 3)
    ∗ dutyTok ER (cell c (CK.out 6)) 0 (0 : Fin 3)
    ∗ dutyTok ER (cell c (CK.out 7)) 0 (0 : Fin 3)
    ∗ dutyTok ER (cell c (CK.out 8)) 0 (0 : Fin 3)
    ∗ dutyTok ER (cell c (CK.out 9)) 0 (0 : Fin 3)
    ∗ dutyTok ER (cell c (CK.out 10)) 0 (0 : Fin 3)
    ∗ dutyTok ER (cell c (CK.out 11)) 0 (0 : Fin 3)
    ∗ dutyTok ER (cell c (CK.out 12)) 0 (0 : Fin 3)
    ∗ dutyTok ER (cell c (CK.out 13)) 0 (0 : Fin 3)
    ∗ dutyTok ER (cell c (CK.out 14)) 0 (0 : Fin 3)
    ∗ dutyTok ER (cell c (CK.out 15)) 0 (0 : Fin 3)
    ∗ dutyTok ER (cell c (CK.out 16)) 0 (0 : Fin 3)
    ∗ dutyTok ER (cell c (CK.out 17)) 0 (0 : Fin 3)
    ∗ dutyTok ER (cell c (CK.out 18)) 0 (0 : Fin 3)
    ∗ dutyTok ER (cell c (CK.out 19)) 0 (0 : Fin 3)
    ∗ dutyTok ER (cell c (CK.out 20)) 0 (0 : Fin 3)
    ∗ dutyTok ER (cell c (CK.out 21)) 0 (0 : Fin 3)
    ∗ dutyTok ER (cell c (CK.out 22)) 0 (0 : Fin 3)
    ∗ dutyTok ER (cell c (CK.out 23)) 0 (0 : Fin 3)))

omit [FloatOps F] in
theorem toksLit_eq (c : Dev nD) : (toksLit c : sProp 𝕄) = payToks c := by
  unfold toksLit payToks; rw [sep_fin3, sep_fin18, sep_fin18, sep_fin18, sep_fin18, sep_fin24]; simp only [rsSk_lit_0, rsSk_lit_1, rsSk_lit_2, rsSk_lit_3, rsSk_lit_4, rsSk_lit_5, rsSk_lit_6, rsSk_lit_7, rsSk_lit_8, rsSk_lit_9, rsSk_lit_10, rsSk_lit_11, rsSk_lit_12, rsSk_lit_13, rsSk_lit_14, rsSk_lit_15, rsSk_lit_16, rsSk_lit_17, rsRk_lit_0, rsRk_lit_1, rsRk_lit_2, rsRk_lit_3, rsRk_lit_4, rsRk_lit_5, rsRk_lit_6, rsRk_lit_7, rsRk_lit_8, rsRk_lit_9, rsRk_lit_10, rsRk_lit_11, rsRk_lit_12, rsRk_lit_13, rsRk_lit_14, rsRk_lit_15, rsRk_lit_16, rsRk_lit_17, agSk_lit_0, agSk_lit_1, agSk_lit_2, agSk_lit_3, agSk_lit_4, agSk_lit_5, agSk_lit_6, agSk_lit_7, agSk_lit_8, agSk_lit_9, agSk_lit_10, agSk_lit_11, agSk_lit_12, agSk_lit_13, agSk_lit_14, agSk_lit_15, agSk_lit_16, agSk_lit_17, agRk_lit_0, agRk_lit_1, agRk_lit_2, agRk_lit_3, agRk_lit_4, agRk_lit_5, agRk_lit_6, agRk_lit_7, agRk_lit_8, agRk_lit_9, agRk_lit_10, agRk_lit_11, agRk_lit_12, agRk_lit_13, agRk_lit_14, agRk_lit_15, agRk_lit_16, agRk_lit_17, dirRS_lit_0, dirRS_lit_1, dirRS_lit_2, dirRS_lit_3, dirRS_lit_4, dirRS_lit_5, dirRS_lit_6, dirRS_lit_7, dirRS_lit_8, dirRS_lit_9, dirRS_lit_10, dirRS_lit_11, dirRS_lit_12, dirRS_lit_13, dirRS_lit_14, dirRS_lit_15, dirRS_lit_16, dirRS_lit_17, dirAG_lit_0, dirAG_lit_1, dirAG_lit_2, dirAG_lit_3, dirAG_lit_4, dirAG_lit_5, dirAG_lit_6, dirAG_lit_7, dirAG_lit_8, dirAG_lit_9, dirAG_lit_10, dirAG_lit_11, dirAG_lit_12, dirAG_lit_13, dirAG_lit_14, dirAG_lit_15, dirAG_lit_16, dirAG_lit_17]

/-- Device c's positions at round 0 of its own 97 cells. -/
def posLit (c : Dev nD) : sProp 𝕄 :=
  iprop(atPos ER (cell c CK.bar) 0 ∅ 0
    ∗ atPos ER (cell c (CK.rsS 0 0)) 0 ∅ 0
    ∗ atPos ER (cell c (CK.rsS 0 1)) 0 ∅ 0
    ∗ atPos ER (cell c (CK.rsS 0 2)) 0 ∅ 0
    ∗ atPos ER (cell c (CK.rsS 1 0)) 0 ∅ 0
    ∗ atPos ER (cell c (CK.rsS 1 1)) 0 ∅ 0
    ∗ atPos ER (cell c (CK.rsS 1 2)) 0 ∅ 0
    ∗ atPos ER (cell c (CK.rsS 2 0)) 0 ∅ 0
    ∗ atPos ER (cell c (CK.rsS 2 1)) 0 ∅ 0
    ∗ atPos ER (cell c (CK.rsS 2 2)) 0 ∅ 0
    ∗ atPos ER (cell c (CK.rsS 3 0)) 0 ∅ 0
    ∗ atPos ER (cell c (CK.rsS 3 1)) 0 ∅ 0
    ∗ atPos ER (cell c (CK.rsS 3 2)) 0 ∅ 0
    ∗ atPos ER (cell c (CK.rsS 4 0)) 0 ∅ 0
    ∗ atPos ER (cell c (CK.rsS 4 1)) 0 ∅ 0
    ∗ atPos ER (cell c (CK.rsS 4 2)) 0 ∅ 0
    ∗ atPos ER (cell c (CK.rsS 5 0)) 0 ∅ 0
    ∗ atPos ER (cell c (CK.rsS 5 1)) 0 ∅ 0
    ∗ atPos ER (cell c (CK.rsS 5 2)) 0 ∅ 0
    ∗ atPos ER (cell c (CK.rsR 0 0)) 0 ∅ 0
    ∗ atPos ER (cell c (CK.rsR 0 1)) 0 ∅ 0
    ∗ atPos ER (cell c (CK.rsR 0 2)) 0 ∅ 0
    ∗ atPos ER (cell c (CK.rsR 1 0)) 0 ∅ 0
    ∗ atPos ER (cell c (CK.rsR 1 1)) 0 ∅ 0
    ∗ atPos ER (cell c (CK.rsR 1 2)) 0 ∅ 0
    ∗ atPos ER (cell c (CK.rsR 2 0)) 0 ∅ 0
    ∗ atPos ER (cell c (CK.rsR 2 1)) 0 ∅ 0
    ∗ atPos ER (cell c (CK.rsR 2 2)) 0 ∅ 0
    ∗ atPos ER (cell c (CK.rsR 3 0)) 0 ∅ 0
    ∗ atPos ER (cell c (CK.rsR 3 1)) 0 ∅ 0
    ∗ atPos ER (cell c (CK.rsR 3 2)) 0 ∅ 0
    ∗ atPos ER (cell c (CK.rsR 4 0)) 0 ∅ 0
    ∗ atPos ER (cell c (CK.rsR 4 1)) 0 ∅ 0
    ∗ atPos ER (cell c (CK.rsR 4 2)) 0 ∅ 0
    ∗ atPos ER (cell c (CK.rsR 5 0)) 0 ∅ 0
    ∗ atPos ER (cell c (CK.rsR 5 1)) 0 ∅ 0
    ∗ atPos ER (cell c (CK.rsR 5 2)) 0 ∅ 0
    ∗ atPos ER (cell c (CK.agS 0 0)) 0 ∅ 0
    ∗ atPos ER (cell c (CK.agS 0 1)) 0 ∅ 0
    ∗ atPos ER (cell c (CK.agS 0 2)) 0 ∅ 0
    ∗ atPos ER (cell c (CK.agS 1 0)) 0 ∅ 0
    ∗ atPos ER (cell c (CK.agS 1 1)) 0 ∅ 0
    ∗ atPos ER (cell c (CK.agS 1 2)) 0 ∅ 0
    ∗ atPos ER (cell c (CK.agS 2 0)) 0 ∅ 0
    ∗ atPos ER (cell c (CK.agS 2 1)) 0 ∅ 0
    ∗ atPos ER (cell c (CK.agS 2 2)) 0 ∅ 0
    ∗ atPos ER (cell c (CK.agS 3 0)) 0 ∅ 0
    ∗ atPos ER (cell c (CK.agS 3 1)) 0 ∅ 0
    ∗ atPos ER (cell c (CK.agS 3 2)) 0 ∅ 0
    ∗ atPos ER (cell c (CK.agS 4 0)) 0 ∅ 0
    ∗ atPos ER (cell c (CK.agS 4 1)) 0 ∅ 0
    ∗ atPos ER (cell c (CK.agS 4 2)) 0 ∅ 0
    ∗ atPos ER (cell c (CK.agS 5 0)) 0 ∅ 0
    ∗ atPos ER (cell c (CK.agS 5 1)) 0 ∅ 0
    ∗ atPos ER (cell c (CK.agS 5 2)) 0 ∅ 0
    ∗ atPos ER (cell c (CK.agR 0 0)) 0 ∅ 0
    ∗ atPos ER (cell c (CK.agR 0 1)) 0 ∅ 0
    ∗ atPos ER (cell c (CK.agR 0 2)) 0 ∅ 0
    ∗ atPos ER (cell c (CK.agR 1 0)) 0 ∅ 0
    ∗ atPos ER (cell c (CK.agR 1 1)) 0 ∅ 0
    ∗ atPos ER (cell c (CK.agR 1 2)) 0 ∅ 0
    ∗ atPos ER (cell c (CK.agR 2 0)) 0 ∅ 0
    ∗ atPos ER (cell c (CK.agR 2 1)) 0 ∅ 0
    ∗ atPos ER (cell c (CK.agR 2 2)) 0 ∅ 0
    ∗ atPos ER (cell c (CK.agR 3 0)) 0 ∅ 0
    ∗ atPos ER (cell c (CK.agR 3 1)) 0 ∅ 0
    ∗ atPos ER (cell c (CK.agR 3 2)) 0 ∅ 0
    ∗ atPos ER (cell c (CK.agR 4 0)) 0 ∅ 0
    ∗ atPos ER (cell c (CK.agR 4 1)) 0 ∅ 0
    ∗ atPos ER (cell c (CK.agR 4 2)) 0 ∅ 0
    ∗ atPos ER (cell c (CK.agR 5 0)) 0 ∅ 0
    ∗ atPos ER (cell c (CK.agR 5 1)) 0 ∅ 0
    ∗ atPos ER (cell c (CK.agR 5 2)) 0 ∅ 0
    ∗ atPos ER (cell c (CK.out 0)) 0 ∅ 0
    ∗ atPos ER (cell c (CK.out 1)) 0 ∅ 0
    ∗ atPos ER (cell c (CK.out 2)) 0 ∅ 0
    ∗ atPos ER (cell c (CK.out 3)) 0 ∅ 0
    ∗ atPos ER (cell c (CK.out 4)) 0 ∅ 0
    ∗ atPos ER (cell c (CK.out 5)) 0 ∅ 0
    ∗ atPos ER (cell c (CK.out 6)) 0 ∅ 0
    ∗ atPos ER (cell c (CK.out 7)) 0 ∅ 0
    ∗ atPos ER (cell c (CK.out 8)) 0 ∅ 0
    ∗ atPos ER (cell c (CK.out 9)) 0 ∅ 0
    ∗ atPos ER (cell c (CK.out 10)) 0 ∅ 0
    ∗ atPos ER (cell c (CK.out 11)) 0 ∅ 0
    ∗ atPos ER (cell c (CK.out 12)) 0 ∅ 0
    ∗ atPos ER (cell c (CK.out 13)) 0 ∅ 0
    ∗ atPos ER (cell c (CK.out 14)) 0 ∅ 0
    ∗ atPos ER (cell c (CK.out 15)) 0 ∅ 0
    ∗ atPos ER (cell c (CK.out 16)) 0 ∅ 0
    ∗ atPos ER (cell c (CK.out 17)) 0 ∅ 0
    ∗ atPos ER (cell c (CK.out 18)) 0 ∅ 0
    ∗ atPos ER (cell c (CK.out 19)) 0 ∅ 0
    ∗ atPos ER (cell c (CK.out 20)) 0 ∅ 0
    ∗ atPos ER (cell c (CK.out 21)) 0 ∅ 0
    ∗ atPos ER (cell c (CK.out 22)) 0 ∅ 0
    ∗ atPos ER (cell c (CK.out 23)) 0 ∅ 0)

omit [FloatOps F] in
theorem posLit_eq (c : Dev nD) : (posLit c : sProp 𝕄) = bigSep Finset.univ fun i : Fin 97 => atPos ER (cell c (ckOf i)) 0 ∅ 0 := by
  unfold posLit; rw [sep_fin97]; simp only [ckOf_lit_0, ckOf_lit_1, ckOf_lit_2, ckOf_lit_3, ckOf_lit_4, ckOf_lit_5, ckOf_lit_6, ckOf_lit_7, ckOf_lit_8, ckOf_lit_9, ckOf_lit_10, ckOf_lit_11, ckOf_lit_12, ckOf_lit_13, ckOf_lit_14, ckOf_lit_15, ckOf_lit_16, ckOf_lit_17, ckOf_lit_18, ckOf_lit_19, ckOf_lit_20, ckOf_lit_21, ckOf_lit_22, ckOf_lit_23, ckOf_lit_24, ckOf_lit_25, ckOf_lit_26, ckOf_lit_27, ckOf_lit_28, ckOf_lit_29, ckOf_lit_30, ckOf_lit_31, ckOf_lit_32, ckOf_lit_33, ckOf_lit_34, ckOf_lit_35, ckOf_lit_36, ckOf_lit_37, ckOf_lit_38, ckOf_lit_39, ckOf_lit_40, ckOf_lit_41, ckOf_lit_42, ckOf_lit_43, ckOf_lit_44, ckOf_lit_45, ckOf_lit_46, ckOf_lit_47, ckOf_lit_48, ckOf_lit_49, ckOf_lit_50, ckOf_lit_51, ckOf_lit_52, ckOf_lit_53, ckOf_lit_54, ckOf_lit_55, ckOf_lit_56, ckOf_lit_57, ckOf_lit_58, ckOf_lit_59, ckOf_lit_60, ckOf_lit_61, ckOf_lit_62, ckOf_lit_63, ckOf_lit_64, ckOf_lit_65, ckOf_lit_66, ckOf_lit_67, ckOf_lit_68, ckOf_lit_69, ckOf_lit_70, ckOf_lit_71, ckOf_lit_72, ckOf_lit_73, ckOf_lit_74, ckOf_lit_75, ckOf_lit_76, ckOf_lit_77, ckOf_lit_78, ckOf_lit_79, ckOf_lit_80, ckOf_lit_81, ckOf_lit_82, ckOf_lit_83, ckOf_lit_84, ckOf_lit_85, ckOf_lit_86, ckOf_lit_87, ckOf_lit_88, ckOf_lit_89, ckOf_lit_90, ckOf_lit_91, ckOf_lit_92, ckOf_lit_93, ckOf_lit_94, ckOf_lit_95, ckOf_lit_96]

/-- Device c's launch credit: three units on its barrier cell, each receive cell's amount. -/
def credLit (c : Dev nD) : sProp 𝕄 :=
  iprop(cred (tallyAt (cell c CK.bar) () 3)
    ∗ (cred (tallyAt (cell c (CK.rsR 0 0)) () (amt (CK.rsR 0 0)))
    ∗ cred (tallyAt (cell c (CK.rsR 0 1)) () (amt (CK.rsR 0 1)))
    ∗ cred (tallyAt (cell c (CK.rsR 0 2)) () (amt (CK.rsR 0 2)))
    ∗ cred (tallyAt (cell c (CK.rsR 1 0)) () (amt (CK.rsR 1 0)))
    ∗ cred (tallyAt (cell c (CK.rsR 1 1)) () (amt (CK.rsR 1 1)))
    ∗ cred (tallyAt (cell c (CK.rsR 1 2)) () (amt (CK.rsR 1 2)))
    ∗ cred (tallyAt (cell c (CK.rsR 2 0)) () (amt (CK.rsR 2 0)))
    ∗ cred (tallyAt (cell c (CK.rsR 2 1)) () (amt (CK.rsR 2 1)))
    ∗ cred (tallyAt (cell c (CK.rsR 2 2)) () (amt (CK.rsR 2 2)))
    ∗ cred (tallyAt (cell c (CK.rsR 3 0)) () (amt (CK.rsR 3 0)))
    ∗ cred (tallyAt (cell c (CK.rsR 3 1)) () (amt (CK.rsR 3 1)))
    ∗ cred (tallyAt (cell c (CK.rsR 3 2)) () (amt (CK.rsR 3 2)))
    ∗ cred (tallyAt (cell c (CK.rsR 4 0)) () (amt (CK.rsR 4 0)))
    ∗ cred (tallyAt (cell c (CK.rsR 4 1)) () (amt (CK.rsR 4 1)))
    ∗ cred (tallyAt (cell c (CK.rsR 4 2)) () (amt (CK.rsR 4 2)))
    ∗ cred (tallyAt (cell c (CK.rsR 5 0)) () (amt (CK.rsR 5 0)))
    ∗ cred (tallyAt (cell c (CK.rsR 5 1)) () (amt (CK.rsR 5 1)))
    ∗ cred (tallyAt (cell c (CK.rsR 5 2)) () (amt (CK.rsR 5 2))))
    ∗ (cred (tallyAt (cell c (CK.agR 0 0)) () (amt (CK.agR 0 0)))
    ∗ cred (tallyAt (cell c (CK.agR 0 1)) () (amt (CK.agR 0 1)))
    ∗ cred (tallyAt (cell c (CK.agR 0 2)) () (amt (CK.agR 0 2)))
    ∗ cred (tallyAt (cell c (CK.agR 1 0)) () (amt (CK.agR 1 0)))
    ∗ cred (tallyAt (cell c (CK.agR 1 1)) () (amt (CK.agR 1 1)))
    ∗ cred (tallyAt (cell c (CK.agR 1 2)) () (amt (CK.agR 1 2)))
    ∗ cred (tallyAt (cell c (CK.agR 2 0)) () (amt (CK.agR 2 0)))
    ∗ cred (tallyAt (cell c (CK.agR 2 1)) () (amt (CK.agR 2 1)))
    ∗ cred (tallyAt (cell c (CK.agR 2 2)) () (amt (CK.agR 2 2)))
    ∗ cred (tallyAt (cell c (CK.agR 3 0)) () (amt (CK.agR 3 0)))
    ∗ cred (tallyAt (cell c (CK.agR 3 1)) () (amt (CK.agR 3 1)))
    ∗ cred (tallyAt (cell c (CK.agR 3 2)) () (amt (CK.agR 3 2)))
    ∗ cred (tallyAt (cell c (CK.agR 4 0)) () (amt (CK.agR 4 0)))
    ∗ cred (tallyAt (cell c (CK.agR 4 1)) () (amt (CK.agR 4 1)))
    ∗ cred (tallyAt (cell c (CK.agR 4 2)) () (amt (CK.agR 4 2)))
    ∗ cred (tallyAt (cell c (CK.agR 5 0)) () (amt (CK.agR 5 0)))
    ∗ cred (tallyAt (cell c (CK.agR 5 1)) () (amt (CK.agR 5 1)))
    ∗ cred (tallyAt (cell c (CK.agR 5 2)) () (amt (CK.agR 5 2)))))

omit [FloatOps F] in
theorem credLit_eq (c : Dev nD) : (credLit c : sProp 𝕄) = creds c := by
  unfold credLit creds; rw [sep_fin18, sep_fin18]; simp only [rsRk_lit_0, rsRk_lit_1, rsRk_lit_2, rsRk_lit_3, rsRk_lit_4, rsRk_lit_5, rsRk_lit_6, rsRk_lit_7, rsRk_lit_8, rsRk_lit_9, rsRk_lit_10, rsRk_lit_11, rsRk_lit_12, rsRk_lit_13, rsRk_lit_14, rsRk_lit_15, rsRk_lit_16, rsRk_lit_17, agRk_lit_0, agRk_lit_1, agRk_lit_2, agRk_lit_3, agRk_lit_4, agRk_lit_5, agRk_lit_6, agRk_lit_7, agRk_lit_8, agRk_lit_9, agRk_lit_10, agRk_lit_11, agRk_lit_12, agRk_lit_13, agRk_lit_14, agRk_lit_15, agRk_lit_16, agRk_lit_17]

/-- Device c's buffers: the two staged argument blocks, the result array, the accumulator and the six staging
    buffers whole; what it hands its three neighbours at the barrier (all of its six landing buffers, and of each
    all-gather buffer everything but its own rows); and its own rows of the six all-gather buffers. -/
def bufsLit (c : Dev nD) : sProp 𝕄 :=
  iprop(heldW c (Memref.whole cc0_stg0_0 : Memref sig .tc .vmem S2048x1024 .f32) (Astg m c)
    ∗ heldW c (Memref.whole cc0_stg1_0 : Memref sig .tc .vmem S1024x2048 .f32) (Bstg m c)
    ∗ heldW c (Memref.whole main_v1 : Memref sig .tc .hbm S2048x2048 .f32) (m ((c : Thread nD τ).loc main_v1))
    ∗ (∃ f, heldW c (Memref.whole cc0_scratch0 : Memref sig .tc .vmem S2048x2048 .f32) f)
    ∗ ((∃ f, heldW c (Memref.whole cc0_scratch7 : Memref sig .tc .vmem S1024x384 .bf16) f)
    ∗ (∃ f, heldW c (Memref.whole cc0_scratch8 : Memref sig .tc .vmem S1024x384 .bf16) f)
    ∗ (∃ f, heldW c (Memref.whole cc0_scratch9 : Memref sig .tc .vmem S1024x384 .bf16) f)
    ∗ (∃ f, heldW c (Memref.whole cc0_scratch10 : Memref sig .tc .vmem S1024x384 .bf16) f)
    ∗ (∃ f, heldW c (Memref.whole cc0_scratch11 : Memref sig .tc .vmem S1024x256 .bf16) f)
    ∗ (∃ f, heldW c (Memref.whole cc0_scratch12 : Memref sig .tc .vmem S1024x256 .bf16) f))
    ∗ (barPay (F := F) (nbr 0 c) 0 ∗ barPay (F := F) (nbr 1 c) 1 ∗ barPay (F := F) (nbr 2 c) 2)
    ∗ ((∃ f, heldW c (agM0_0 c) f)
    ∗ (∃ f, heldW c (agM1_0 c) f)
    ∗ (∃ f, heldW c (agM2_0 c) f)
    ∗ (∃ f, heldW c (agM3_0 c) f)
    ∗ (∃ f, heldW c (agM4_0 c) f)
    ∗ (∃ f, heldW c (agM5_0 c) f)))

/-- What device c's body starts from, under the cells' names K, the waits W. -/
def bodyStart (K : Dev nD × Fin 97 → ℕ) (c : Dev nD) (W : Waits sig Unit) : sProp 𝕄 :=
  iprop((levAts L lv ∗ ownRecs V K c ∗ paidRecs V K c) ∗ toksLit (F := F) c ∗ posLit (F := F) c ∗ credLit (F := F) c
    ∗ owes (c : Thread nD τ) (Owe c 0) W ∗ bufsLit m c)

end Cert.KernelIdeal.Proto

end
-- ==== Proof.PiecesTab.lean ====
/-
The set facts about the pieces of the scratch buffers, group by group: the three pieces of the landing
buffer tile it; the pieces of the staging buffer are nested and the first is all of it; a device's rows
of the all-gather buffer at one step and its neighbour's across that step's axis are disjoint and make
up its rows at the next step, and after the last step the whole buffer.
-/
import proofs.«900882_g7700000000000883_dist_matmul_gelu_kshard_i_m2048_n2048_k1024_v7x_i8_f32_1_alg».proof.Proof.Pieces

noncomputable section

namespace Cert.KernelIdeal.Proto

open Cert.KernelIdeal Cert.KernelIdeal.Gen Cert.KernelIdeal.Topo
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-! Column group 0 -/
theorem comm_disj01_0 : Disjoint (commM0_0).view.set (commM0_1).view.set := by
  piece_lit unit_disjoint_rows (by decide)
theorem comm_disj02_0 : Disjoint (commM0_0).view.set (commM0_2).view.set := by
  piece_lit unit_disjoint_rows (by decide)
theorem comm_disj12_0 : Disjoint (commM0_1).view.set (commM0_2).view.set := by
  piece_lit unit_disjoint_rows (by decide)
theorem comm_cover_0 : (commM0_0).view.set ∪ (commM0_1).view.set ∪ (commM0_2).view.set = Finset.univ := by
  piece_lit unit_union3_univ (by decide)
theorem stg_univ_0 : (stgM0_0).view.set = Finset.univ := by
  piece_lit unit_eq_univ (by decide)
theorem stg_sub1_0 : (stgM0_1).view.set ⊆ (stgM0_0).view.set := by
  piece_lit unit_subset (by decide)
theorem stg_sub2_0 : (stgM0_2).view.set ⊆ (stgM0_1).view.set := by
  piece_lit unit_subset (by decide)
theorem ag_disj0_0 (c : Dev nD) : Disjoint (agM0_0 c).view.set (agM0_0 (nbr 2 c)).view.set := by
  piece_dev c unit_disjoint_rows [off73_eq]
theorem ag_join0_0 (c : Dev nD) : (agM0_1 c).view.set = (agM0_0 c).view.set ∪ (agM0_0 (nbr 2 c)).view.set := by
  piece_dev c unit_union_rows [off73_eq, off78_eq]
theorem ag_disj1_0 (c : Dev nD) : Disjoint (agM0_1 c).view.set (agM0_1 (nbr 1 c)).view.set := by
  piece_dev c unit_disjoint_rows [off78_eq]
theorem ag_join1_0 (c : Dev nD) : (agM0_2 c).view.set = (agM0_1 c).view.set ∪ (agM0_1 (nbr 1 c)).view.set := by
  piece_dev c unit_union_rows [off78_eq, off100_eq]
theorem ag_disj2_0 (c : Dev nD) : Disjoint (agM0_2 c).view.set (agM0_2 (nbr 0 c)).view.set := by
  piece_dev c unit_disjoint_rows [off100_eq]
theorem ag_cover_0 (c : Dev nD) : (agM0_2 c).view.set ∪ (agM0_2 (nbr 0 c)).view.set = Finset.univ := by
  piece_dev c unit_union_univ [off100_eq]

/-! Column group 1 -/
theorem comm_disj01_1 : Disjoint (commM1_0).view.set (commM1_1).view.set := by
  piece_lit unit_disjoint_rows (by decide)
theorem comm_disj02_1 : Disjoint (commM1_0).view.set (commM1_2).view.set := by
  piece_lit unit_disjoint_rows (by decide)
theorem comm_disj12_1 : Disjoint (commM1_1).view.set (commM1_2).view.set := by
  piece_lit unit_disjoint_rows (by decide)
theorem comm_cover_1 : (commM1_0).view.set ∪ (commM1_1).view.set ∪ (commM1_2).view.set = Finset.univ := by
  piece_lit unit_union3_univ (by decide)
theorem stg_univ_1 : (stgM1_0).view.set = Finset.univ := by
  piece_lit unit_eq_univ (by decide)
theorem stg_sub1_1 : (stgM1_1).view.set ⊆ (stgM1_0).view.set := by
  piece_lit unit_subset (by decide)
theorem stg_sub2_1 : (stgM1_2).view.set ⊆ (stgM1_1).view.set := by
  piece_lit unit_subset (by decide)
theorem ag_disj0_1 (c : Dev nD) : Disjoint (agM1_0 c).view.set (agM1_0 (nbr 0 c)).view.set := by
  piece_dev c unit_disjoint_rows [off74_eq]
theorem ag_join0_1 (c : Dev nD) : (agM1_1 c).view.set = (agM1_0 c).view.set ∪ (agM1_0 (nbr 0 c)).view.set := by
  piece_dev c unit_union_rows [off74_eq, off82_eq]
theorem ag_disj1_1 (c : Dev nD) : Disjoint (agM1_1 c).view.set (agM1_1 (nbr 2 c)).view.set := by
  piece_dev c unit_disjoint_rows [off82_eq]
theorem ag_join1_1 (c : Dev nD) : (agM1_2 c).view.set = (agM1_1 c).view.set ∪ (agM1_1 (nbr 2 c)).view.set := by
  piece_dev c unit_union_rows [off82_eq, off104_eq]
theorem ag_disj2_1 (c : Dev nD) : Disjoint (agM1_2 c).view.set (agM1_2 (nbr 1 c)).view.set := by
  piece_dev c unit_disjoint_rows [off104_eq]
theorem ag_cover_1 (c : Dev nD) : (agM1_2 c).view.set ∪ (agM1_2 (nbr 1 c)).view.set = Finset.univ := by
  piece_dev c unit_union_univ [off104_eq]

/-! Column group 2 -/
theorem comm_disj01_2 : Disjoint (commM2_0).view.set (commM2_1).view.set := by
  piece_lit unit_disjoint_rows (by decide)
theorem comm_disj02_2 : Disjoint (commM2_0).view.set (commM2_2).view.set := by
  piece_lit unit_disjoint_rows (by decide)
theorem comm_disj12_2 : Disjoint (commM2_1).view.set (commM2_2).view.set := by
  piece_lit unit_disjoint_rows (by decide)
theorem comm_cover_2 : (commM2_0).view.set ∪ (commM2_1).view.set ∪ (commM2_2).view.set = Finset.univ := by
  piece_lit unit_union3_univ (by decide)
theorem stg_univ_2 : (stgM2_0).view.set = Finset.univ := by
  piece_lit unit_eq_univ (by decide)
theorem stg_sub1_2 : (stgM2_1).view.set ⊆ (stgM2_0).view.set := by
  piece_lit unit_subset (by decide)
theorem stg_sub2_2 : (stgM2_2).view.set ⊆ (stgM2_1).view.set := by
  piece_lit unit_subset (by decide)
theorem ag_disj0_2 (c : Dev nD) : Disjoint (agM2_0 c).view.set (agM2_0 (nbr 1 c)).view.set := by
  piece_dev c unit_disjoint_rows [off75_eq]
theorem ag_join0_2 (c : Dev nD) : (agM2_1 c).view.set = (agM2_0 c).view.set ∪ (agM2_0 (nbr 1 c)).view.set := by
  piece_dev c unit_union_rows [off75_eq, off86_eq]
theorem ag_disj1_2 (c : Dev nD) : Disjoint (agM2_1 c).view.set (agM2_1 (nbr 0 c)).view.set := by
  piece_dev c unit_disjoint_rows [off86_eq]
theorem ag_join1_2 (c : Dev nD) : (agM2_2 c).view.set = (agM2_1 c).view.set ∪ (agM2_1 (nbr 0 c)).view.set := by
  piece_dev c unit_union_rows [off86_eq, off108_eq]
theorem ag_disj2_2 (c : Dev nD) : Disjoint (agM2_2 c).view.set (agM2_2 (nbr 2 c)).view.set := by
  piece_dev c unit_disjoint_rows [off108_eq]
theorem ag_cover_2 (c : Dev nD) : (agM2_2 c).view.set ∪ (agM2_2 (nbr 2 c)).view.set = Finset.univ := by
  piece_dev c unit_union_univ [off108_eq]

/-! Column group 3 -/
theorem comm_disj01_3 : Disjoint (commM3_0).view.set (commM3_1).view.set := by
  piece_lit unit_disjoint_rows (by decide)
theorem comm_disj02_3 : Disjoint (commM3_0).view.set (commM3_2).view.set := by
  piece_lit unit_disjoint_rows (by decide)
theorem comm_disj12_3 : Disjoint (commM3_1).view.set (commM3_2).view.set := by
  piece_lit unit_disjoint_rows (by decide)
theorem comm_cover_3 : (commM3_0).view.set ∪ (commM3_1).view.set ∪ (commM3_2).view.set = Finset.univ := by
  piece_lit unit_union3_univ (by decide)
theorem stg_univ_3 : (stgM3_0).view.set = Finset.univ := by
  piece_lit unit_eq_univ (by decide)
theorem stg_sub1_3 : (stgM3_1).view.set ⊆ (stgM3_0).view.set := by
  piece_lit unit_subset (by decide)
theorem stg_sub2_3 : (stgM3_2).view.set ⊆ (stgM3_1).view.set := by
  piece_lit unit_subset (by decide)
theorem ag_disj0_3 (c : Dev nD) : Disjoint (agM3_0 c).view.set (agM3_0 (nbr 2 c)).view.set := by
  piece_dev c unit_disjoint_rows [off73_eq]
theorem ag_join0_3 (c : Dev nD) : (agM3_1 c).view.set = (agM3_0 c).view.set ∪ (agM3_0 (nbr 2 c)).view.set := by
  piece_dev c unit_union_rows [off73_eq, off78_eq]
theorem ag_disj1_3 (c : Dev nD) : Disjoint (agM3_1 c).view.set (agM3_1 (nbr 1 c)).view.set := by
  piece_dev c unit_disjoint_rows [off78_eq]
theorem ag_join1_3 (c : Dev nD) : (agM3_2 c).view.set = (agM3_1 c).view.set ∪ (agM3_1 (nbr 1 c)).view.set := by
  piece_dev c unit_union_rows [off78_eq, off100_eq]
theorem ag_disj2_3 (c : Dev nD) : Disjoint (agM3_2 c).view.set (agM3_2 (nbr 0 c)).view.set := by
  piece_dev c unit_disjoint_rows [off100_eq]
theorem ag_cover_3 (c : Dev nD) : (agM3_2 c).view.set ∪ (agM3_2 (nbr 0 c)).view.set = Finset.univ := by
  piece_dev c unit_union_univ [off100_eq]

/-! Column group 4 -/
theorem comm_disj01_4 : Disjoint (commM4_0).view.set (commM4_1).view.set := by
  piece_lit unit_disjoint_rows (by decide)
theorem comm_disj02_4 : Disjoint (commM4_0).view.set (commM4_2).view.set := by
  piece_lit unit_disjoint_rows (by decide)
theorem comm_disj12_4 : Disjoint (commM4_1).view.set (commM4_2).view.set := by
  piece_lit unit_disjoint_rows (by decide)
theorem comm_cover_4 : (commM4_0).view.set ∪ (commM4_1).view.set ∪ (commM4_2).view.set = Finset.univ := by
  piece_lit unit_union3_univ (by decide)
theorem stg_univ_4 : (stgM4_0).view.set = Finset.univ := by
  piece_lit unit_eq_univ (by decide)
theorem stg_sub1_4 : (stgM4_1).view.set ⊆ (stgM4_0).view.set := by
  piece_lit unit_subset (by decide)
theorem stg_sub2_4 : (stgM4_2).view.set ⊆ (stgM4_1).view.set := by
  piece_lit unit_subset (by decide)
theorem ag_disj0_4 (c : Dev nD) : Disjoint (agM4_0 c).view.set (agM4_0 (nbr 0 c)).view.set := by
  piece_dev c unit_disjoint_rows [off76_eq]
theorem ag_join0_4 (c : Dev nD) : (agM4_1 c).view.set = (agM4_0 c).view.set ∪ (agM4_0 (nbr 0 c)).view.set := by
  piece_dev c unit_union_rows [off76_eq, off92_eq]
theorem ag_disj1_4 (c : Dev nD) : Disjoint (agM4_1 c).view.set (agM4_1 (nbr 2 c)).view.set := by
  piece_dev c unit_disjoint_rows [off92_eq]
theorem ag_join1_4 (c : Dev nD) : (agM4_2 c).view.set = (agM4_1 c).view.set ∪ (agM4_1 (nbr 2 c)).view.set := by
  piece_dev c unit_union_rows [off92_eq, off114_eq]
theorem ag_disj2_4 (c : Dev nD) : Disjoint (agM4_2 c).view.set (agM4_2 (nbr 1 c)).view.set := by
  piece_dev c unit_disjoint_rows [off114_eq]
theorem ag_cover_4 (c : Dev nD) : (agM4_2 c).view.set ∪ (agM4_2 (nbr 1 c)).view.set = Finset.univ := by
  piece_dev c unit_union_univ [off114_eq]

/-! Column group 5 -/
theorem comm_disj01_5 : Disjoint (commM5_0).view.set (commM5_1).view.set := by
  piece_lit unit_disjoint_rows (by decide)
theorem comm_disj02_5 : Disjoint (commM5_0).view.set (commM5_2).view.set := by
  piece_lit unit_disjoint_rows (by decide)
theorem comm_disj12_5 : Disjoint (commM5_1).view.set (commM5_2).view.set := by
  piece_lit unit_disjoint_rows (by decide)
theorem comm_cover_5 : (commM5_0).view.set ∪ (commM5_1).view.set ∪ (commM5_2).view.set = Finset.univ := by
  piece_lit unit_union3_univ (by decide)
theorem stg_univ_5 : (stgM5_0).view.set = Finset.univ := by
  piece_lit unit_eq_univ (by decide)
theorem stg_sub1_5 : (stgM5_1).view.set ⊆ (stgM5_0).view.set := by
  piece_lit unit_subset (by decide)
theorem stg_sub2_5 : (stgM5_2).view.set ⊆ (stgM5_1).view.set := by
  piece_lit unit_subset (by decide)
theorem ag_disj0_5 (c : Dev nD) : Disjoint (agM5_0 c).view.set (agM5_0 (nbr 1 c)).view.set := by
  piece_dev c unit_disjoint_rows [off77_eq]
theorem ag_join0_5 (c : Dev nD) : (agM5_1 c).view.set = (agM5_0 c).view.set ∪ (agM5_0 (nbr 1 c)).view.set := by
  piece_dev c unit_union_rows [off77_eq, off96_eq]
theorem ag_disj1_5 (c : Dev nD) : Disjoint (agM5_1 c).view.set (agM5_1 (nbr 0 c)).view.set := by
  piece_dev c unit_disjoint_rows [off96_eq]
theorem ag_join1_5 (c : Dev nD) : (agM5_2 c).view.set = (agM5_1 c).view.set ∪ (agM5_1 (nbr 0 c)).view.set := by
  piece_dev c unit_union_rows [off96_eq, off118_eq]
theorem ag_disj2_5 (c : Dev nD) : Disjoint (agM5_2 c).view.set (agM5_2 (nbr 2 c)).view.set := by
  piece_dev c unit_disjoint_rows [off118_eq]
theorem ag_cover_5 (c : Dev nD) : (agM5_2 c).view.set ∪ (agM5_2 (nbr 2 c)).view.set = Finset.univ := by
  piece_dev c unit_union_univ [off118_eq]

end Cert.KernelIdeal.Proto

end
-- ==== Proof.EpilogueTab.lean ====
/-
The end of a device's body, case by case: its 96 protocol semaphores at zero, member by member; landing buffer k
from its three pieces, staging buffer k from its first 256 rows and the two remainders, all-gather buffer k from
its two halves; the accumulator from its 24 blocks; the result array from its 24 blocks, with what is known of
each block's reading.
-/
import proofs.«900882_g7700000000000883_dist_matmul_gelu_kshard_i_m2048_n2048_k1024_v7x_i8_f32_1_alg».proof.Proof.EpilogueCut
import proofs.«900882_g7700000000000883_dist_matmul_gelu_kshard_i_m2048_n2048_k1024_v7x_i8_f32_1_alg».proof.Proof.PrologueTab
import proofs.«900882_g7700000000000883_dist_matmul_gelu_kshard_i_m2048_n2048_k1024_v7x_i8_f32_1_alg».proof.Proof.PiecesTab

set_option maxRecDepth 100000

noncomputable section

namespace Cert.KernelIdeal.Proto

open Cert.KernelIdeal Cert.KernelIdeal.Gen Cert.KernelIdeal.Topo
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (V : Vals F)

/-- Device c's 96 protocol semaphores at zero, member by member. -/
def zeroLit (c : Dev nD) : sProp 𝕄 :=
  iprop(semVal (cell c (CK.rsS 0 0)) 0
    ∗ semVal (cell c (CK.rsS 0 1)) 0
    ∗ semVal (cell c (CK.rsS 0 2)) 0
    ∗ semVal (cell c (CK.rsS 1 0)) 0
    ∗ semVal (cell c (CK.rsS 1 1)) 0
    ∗ semVal (cell c (CK.rsS 1 2)) 0
    ∗ semVal (cell c (CK.rsS 2 0)) 0
    ∗ semVal (cell c (CK.rsS 2 1)) 0
    ∗ semVal (cell c (CK.rsS 2 2)) 0
    ∗ semVal (cell c (CK.rsS 3 0)) 0
    ∗ semVal (cell c (CK.rsS 3 1)) 0
    ∗ semVal (cell c (CK.rsS 3 2)) 0
    ∗ semVal (cell c (CK.rsS 4 0)) 0
    ∗ semVal (cell c (CK.rsS 4 1)) 0
    ∗ semVal (cell c (CK.rsS 4 2)) 0
    ∗ semVal (cell c (CK.rsS 5 0)) 0
    ∗ semVal (cell c (CK.rsS 5 1)) 0
    ∗ semVal (cell c (CK.rsS 5 2)) 0
    ∗ semVal (cell c (CK.rsR 0 0)) 0
    ∗ semVal (cell c (CK.rsR 0 1)) 0
    ∗ semVal (cell c (CK.rsR 0 2)) 0
    ∗ semVal (cell c (CK.rsR 1 0)) 0
    ∗ semVal (cell c (CK.rsR 1 1)) 0
    ∗ semVal (cell c (CK.rsR 1 2)) 0
    ∗ semVal (cell c (CK.rsR 2 0)) 0
    ∗ semVal (cell c (CK.rsR 2 1)) 0
    ∗ semVal (cell c (CK.rsR 2 2)) 0
    ∗ semVal (cell c (CK.rsR 3 0)) 0
    ∗ semVal (cell c (CK.rsR 3 1)) 0
    ∗ semVal (cell c (CK.rsR 3 2)) 0
    ∗ semVal (cell c (CK.rsR 4 0)) 0
    ∗ semVal (cell c (CK.rsR 4 1)) 0
    ∗ semVal (cell c (CK.rsR 4 2)) 0
    ∗ semVal (cell c (CK.rsR 5 0)) 0
    ∗ semVal (cell c (CK.rsR 5 1)) 0
    ∗ semVal (cell c (CK.rsR 5 2)) 0
    ∗ semVal (cell c (CK.agS 0 0)) 0
    ∗ semVal (cell c (CK.agS 0 1)) 0
    ∗ semVal (cell c (CK.agS 0 2)) 0
    ∗ semVal (cell c (CK.agS 1 0)) 0
    ∗ semVal (cell c (CK.agS 1 1)) 0
    ∗ semVal (cell c (CK.agS 1 2)) 0
    ∗ semVal (cell c (CK.agS 2 0)) 0
    ∗ semVal (cell c (CK.agS 2 1)) 0
    ∗ semVal (cell c (CK.agS 2 2)) 0
    ∗ semVal (cell c (CK.agS 3 0)) 0
    ∗ semVal (cell c (CK.agS 3 1)) 0
    ∗ semVal (cell c (CK.agS 3 2)) 0
    ∗ semVal (cell c (CK.agS 4 0)) 0
    ∗ semVal (cell c (CK.agS 4 1)) 0
    ∗ semVal (cell c (CK.agS 4 2)) 0
    ∗ semVal (cell c (CK.agS 5 0)) 0
    ∗ semVal (cell c (CK.agS 5 1)) 0
    ∗ semVal (cell c (CK.agS 5 2)) 0
    ∗ semVal (cell c (CK.agR 0 0)) 0
    ∗ semVal (cell c (CK.agR 0 1)) 0
    ∗ semVal (cell c (CK.agR 0 2)) 0
    ∗ semVal (cell c (CK.agR 1 0)) 0
    ∗ semVal (cell c (CK.agR 1 1)) 0
    ∗ semVal (cell c (CK.agR 1 2)) 0
    ∗ semVal (cell c (CK.agR 2 0)) 0
    ∗ semVal (cell c (CK.agR 2 1)) 0
    ∗ semVal (cell c (CK.agR 2 2)) 0
    ∗ semVal (cell c (CK.agR 3 0)) 0
    ∗ semVal (cell c (CK.agR 3 1)) 0
    ∗ semVal (cell c (CK.agR 3 2)) 0
    ∗ semVal (cell c (CK.agR 4 0)) 0
    ∗ semVal (cell c (CK.agR 4 1)) 0
    ∗ semVal (cell c (CK.agR 4 2)) 0
    ∗ semVal (cell c (CK.agR 5 0)) 0
    ∗ semVal (cell c (CK.agR 5 1)) 0
    ∗ semVal (cell c (CK.agR 5 2)) 0
    ∗ semVal (cell c (CK.out 0)) 0
    ∗ semVal (cell c (CK.out 1)) 0
    ∗ semVal (cell c (CK.out 2)) 0
    ∗ semVal (cell c (CK.out 3)) 0
    ∗ semVal (cell c (CK.out 4)) 0
    ∗ semVal (cell c (CK.out 5)) 0
    ∗ semVal (cell c (CK.out 6)) 0
    ∗ semVal (cell c (CK.out 7)) 0
    ∗ semVal (cell c (CK.out 8)) 0
    ∗ semVal (cell c (CK.out 9)) 0
    ∗ semVal (cell c (CK.out 10)) 0
    ∗ semVal (cell c (CK.out 11)) 0
    ∗ semVal (cell c (CK.out 12)) 0
    ∗ semVal (cell c (CK.out 13)) 0
    ∗ semVal (cell c (CK.out 14)) 0
    ∗ semVal (cell c (CK.out 15)) 0
    ∗ semVal (cell c (CK.out 16)) 0
    ∗ semVal (cell c (CK.out 17)) 0
    ∗ semVal (cell c (CK.out 18)) 0
    ∗ semVal (cell c (CK.out 19)) 0
    ∗ semVal (cell c (CK.out 20)) 0
    ∗ semVal (cell c (CK.out 21)) 0
    ∗ semVal (cell c (CK.out 22)) 0
    ∗ semVal (cell c (CK.out 23)) 0)

omit [FloatOps F] in
/-- A conjunction over a device's 96 cells other than the barrier's, member by member. -/
theorem zero_chain (Φ : Fin 97 → sProp 𝕄) : bigSep (Finset.univ.erase (0 : Fin 97)) Φ = iprop(Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24 ∗ Φ 25 ∗ Φ 26 ∗ Φ 27 ∗ Φ 28 ∗ Φ 29 ∗ Φ 30 ∗ Φ 31 ∗ Φ 32 ∗ Φ 33 ∗ Φ 34 ∗ Φ 35 ∗ Φ 36 ∗ Φ 37 ∗ Φ 38 ∗ Φ 39 ∗ Φ 40 ∗ Φ 41 ∗ Φ 42 ∗ Φ 43 ∗ Φ 44 ∗ Φ 45 ∗ Φ 46 ∗ Φ 47 ∗ Φ 48 ∗ Φ 49 ∗ Φ 50 ∗ Φ 51 ∗ Φ 52 ∗ Φ 53 ∗ Φ 54 ∗ Φ 55 ∗ Φ 56 ∗ Φ 57 ∗ Φ 58 ∗ Φ 59 ∗ Φ 60 ∗ Φ 61 ∗ Φ 62 ∗ Φ 63 ∗ Φ 64 ∗ Φ 65 ∗ Φ 66 ∗ Φ 67 ∗ Φ 68 ∗ Φ 69 ∗ Φ 70 ∗ Φ 71 ∗ Φ 72 ∗ Φ 73 ∗ Φ 74 ∗ Φ 75 ∗ Φ 76 ∗ Φ 77 ∗ Φ 78 ∗ Φ 79 ∗ Φ 80 ∗ Φ 81 ∗ Φ 82 ∗ Φ 83 ∗ Φ 84 ∗ Φ 85 ∗ Φ 86 ∗ Φ 87 ∗ Φ 88 ∗ Φ 89 ∗ Φ 90 ∗ Φ 91 ∗ Φ 92 ∗ Φ 93 ∗ Φ 94 ∗ Φ 95 ∗ Φ 96) :=
  bigSep_eq_bigSepL_of_eq ([1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44, 45, 46, 47, 48, 49, 50, 51, 52, 53, 54, 55, 56, 57, 58, 59, 60, 61, 62, 63, 64, 65, 66, 67, 68, 69, 70, 71, 72, 73, 74, 75, 76, 77, 78, 79, 80, 81, 82, 83, 84, 85, 86, 87, 88, 89, 90, 91, 92, 93, 94, 95, 96] : List (Fin 97)) (by decide) (by decide) Φ

omit [FloatOps F] in
theorem zeroLit_eq (c : Dev nD) : (zeroLit c : sProp 𝕄) = ownZero c := by
  unfold zeroLit ownZero; rw [zero_chain]; simp only [ckOf_lit_1, ckOf_lit_2, ckOf_lit_3, ckOf_lit_4, ckOf_lit_5, ckOf_lit_6, ckOf_lit_7, ckOf_lit_8, ckOf_lit_9, ckOf_lit_10, ckOf_lit_11, ckOf_lit_12, ckOf_lit_13, ckOf_lit_14, ckOf_lit_15, ckOf_lit_16, ckOf_lit_17, ckOf_lit_18, ckOf_lit_19, ckOf_lit_20, ckOf_lit_21, ckOf_lit_22, ckOf_lit_23, ckOf_lit_24, ckOf_lit_25, ckOf_lit_26, ckOf_lit_27, ckOf_lit_28, ckOf_lit_29, ckOf_lit_30, ckOf_lit_31, ckOf_lit_32, ckOf_lit_33, ckOf_lit_34, ckOf_lit_35, ckOf_lit_36, ckOf_lit_37, ckOf_lit_38, ckOf_lit_39, ckOf_lit_40, ckOf_lit_41, ckOf_lit_42, ckOf_lit_43, ckOf_lit_44, ckOf_lit_45, ckOf_lit_46, ckOf_lit_47, ckOf_lit_48, ckOf_lit_49, ckOf_lit_50, ckOf_lit_51, ckOf_lit_52, ckOf_lit_53, ckOf_lit_54, ckOf_lit_55, ckOf_lit_56, ckOf_lit_57, ckOf_lit_58, ckOf_lit_59, ckOf_lit_60, ckOf_lit_61, ckOf_lit_62, ckOf_lit_63, ckOf_lit_64, ckOf_lit_65, ckOf_lit_66, ckOf_lit_67, ckOf_lit_68, ckOf_lit_69, ckOf_lit_70, ckOf_lit_71, ckOf_lit_72, ckOf_lit_73, ckOf_lit_74, ckOf_lit_75, ckOf_lit_76, ckOf_lit_77, ckOf_lit_78, ckOf_lit_79, ckOf_lit_80, ckOf_lit_81, ckOf_lit_82, ckOf_lit_83, ckOf_lit_84, ckOf_lit_85, ckOf_lit_86, ckOf_lit_87, ckOf_lit_88, ckOf_lit_89, ckOf_lit_90, ckOf_lit_91, ckOf_lit_92, ckOf_lit_93, ckOf_lit_94, ckOf_lit_95, ckOf_lit_96]

omit [FloatOps F] in
theorem comm_join_0 (c : Dev nD) :
    iprop(ptsAny (F := F) c commM0_0 ∗ ptsAny (F := F) c commM0_1 ∗ ptsAny (F := F) c commM0_2)
      ⊢ (iprop(∃ f, ((c : Thread nD τ).loc cc0_scratch1) ↦{fullShare} f) : sProp 𝕄) := by
  unfold ptsAny
  iintro ⟨⟨%f0, H0⟩, ⟨%f1, H1⟩, ⟨%f2, H2⟩⟩
  iapply (pts_join3 f0 f1 f2 comm_disj01_0 comm_disj02_0 comm_disj12_0 comm_cover_0)
  isplitl [H0]; · iexact H0
  isplitl [H1]; · iexact H1
  iexact H2
omit [FloatOps F] in
theorem comm_join_1 (c : Dev nD) :
    iprop(ptsAny (F := F) c commM1_0 ∗ ptsAny (F := F) c commM1_1 ∗ ptsAny (F := F) c commM1_2)
      ⊢ (iprop(∃ f, ((c : Thread nD τ).loc cc0_scratch2) ↦{fullShare} f) : sProp 𝕄) := by
  unfold ptsAny
  iintro ⟨⟨%f0, H0⟩, ⟨%f1, H1⟩, ⟨%f2, H2⟩⟩
  iapply (pts_join3 f0 f1 f2 comm_disj01_1 comm_disj02_1 comm_disj12_1 comm_cover_1)
  isplitl [H0]; · iexact H0
  isplitl [H1]; · iexact H1
  iexact H2
omit [FloatOps F] in
theorem comm_join_2 (c : Dev nD) :
    iprop(ptsAny (F := F) c commM2_0 ∗ ptsAny (F := F) c commM2_1 ∗ ptsAny (F := F) c commM2_2)
      ⊢ (iprop(∃ f, ((c : Thread nD τ).loc cc0_scratch3) ↦{fullShare} f) : sProp 𝕄) := by
  unfold ptsAny
  iintro ⟨⟨%f0, H0⟩, ⟨%f1, H1⟩, ⟨%f2, H2⟩⟩
  iapply (pts_join3 f0 f1 f2 comm_disj01_2 comm_disj02_2 comm_disj12_2 comm_cover_2)
  isplitl [H0]; · iexact H0
  isplitl [H1]; · iexact H1
  iexact H2
omit [FloatOps F] in
theorem comm_join_3 (c : Dev nD) :
    iprop(ptsAny (F := F) c commM3_0 ∗ ptsAny (F := F) c commM3_1 ∗ ptsAny (F := F) c commM3_2)
      ⊢ (iprop(∃ f, ((c : Thread nD τ).loc cc0_scratch4) ↦{fullShare} f) : sProp 𝕄) := by
  unfold ptsAny
  iintro ⟨⟨%f0, H0⟩, ⟨%f1, H1⟩, ⟨%f2, H2⟩⟩
  iapply (pts_join3 f0 f1 f2 comm_disj01_3 comm_disj02_3 comm_disj12_3 comm_cover_3)
  isplitl [H0]; · iexact H0
  isplitl [H1]; · iexact H1
  iexact H2
omit [FloatOps F] in
theorem comm_join_4 (c : Dev nD) :
    iprop(ptsAny (F := F) c commM4_0 ∗ ptsAny (F := F) c commM4_1 ∗ ptsAny (F := F) c commM4_2)
      ⊢ (iprop(∃ f, ((c : Thread nD τ).loc cc0_scratch5) ↦{fullShare} f) : sProp 𝕄) := by
  unfold ptsAny
  iintro ⟨⟨%f0, H0⟩, ⟨%f1, H1⟩, ⟨%f2, H2⟩⟩
  iapply (pts_join3 f0 f1 f2 comm_disj01_4 comm_disj02_4 comm_disj12_4 comm_cover_4)
  isplitl [H0]; · iexact H0
  isplitl [H1]; · iexact H1
  iexact H2
omit [FloatOps F] in
theorem comm_join_5 (c : Dev nD) :
    iprop(ptsAny (F := F) c commM5_0 ∗ ptsAny (F := F) c commM5_1 ∗ ptsAny (F := F) c commM5_2)
      ⊢ (iprop(∃ f, ((c : Thread nD τ).loc cc0_scratch6) ↦{fullShare} f) : sProp 𝕄) := by
  unfold ptsAny
  iintro ⟨⟨%f0, H0⟩, ⟨%f1, H1⟩, ⟨%f2, H2⟩⟩
  iapply (pts_join3 f0 f1 f2 comm_disj01_5 comm_disj02_5 comm_disj12_5 comm_cover_5)
  isplitl [H0]; · iexact H0
  isplitl [H1]; · iexact H1
  iexact H2

omit [FloatOps F] in
theorem stg_join_0 (c : Dev nD) :
    iprop(ptsAny (F := F) c stgM0_2
        ∗ (∃ f : Buf (Elt F) ((c : Thread nD τ).loc cc0_scratch7), ((c : Thread nD τ).loc cc0_scratch7) ↦[(stgM0_1).view.set \ (stgM0_2).view.set]{fullShare} f)
        ∗ (∃ f : Buf (Elt F) ((c : Thread nD τ).loc cc0_scratch7), ((c : Thread nD τ).loc cc0_scratch7) ↦[(stgM0_0).view.set \ (stgM0_1).view.set]{fullShare} f))
      ⊢ (iprop(∃ f, ((c : Thread nD τ).loc cc0_scratch7) ↦{fullShare} f) : sProp 𝕄) := by
  unfold ptsAny
  iintro ⟨⟨%f2, H2⟩, ⟨%f1, H1⟩, ⟨%f0, H0⟩⟩
  iapply (pts_join_nested f2 f1 f0 stg_sub2_0 stg_sub1_0 stg_univ_0)
  isplitl [H2]; · iexact H2
  isplitl [H1]; · iexact H1
  iexact H0
omit [FloatOps F] in
theorem stg_join_1 (c : Dev nD) :
    iprop(ptsAny (F := F) c stgM1_2
        ∗ (∃ f : Buf (Elt F) ((c : Thread nD τ).loc cc0_scratch8), ((c : Thread nD τ).loc cc0_scratch8) ↦[(stgM1_1).view.set \ (stgM1_2).view.set]{fullShare} f)
        ∗ (∃ f : Buf (Elt F) ((c : Thread nD τ).loc cc0_scratch8), ((c : Thread nD τ).loc cc0_scratch8) ↦[(stgM1_0).view.set \ (stgM1_1).view.set]{fullShare} f))
      ⊢ (iprop(∃ f, ((c : Thread nD τ).loc cc0_scratch8) ↦{fullShare} f) : sProp 𝕄) := by
  unfold ptsAny
  iintro ⟨⟨%f2, H2⟩, ⟨%f1, H1⟩, ⟨%f0, H0⟩⟩
  iapply (pts_join_nested f2 f1 f0 stg_sub2_1 stg_sub1_1 stg_univ_1)
  isplitl [H2]; · iexact H2
  isplitl [H1]; · iexact H1
  iexact H0
omit [FloatOps F] in
theorem stg_join_2 (c : Dev nD) :
    iprop(ptsAny (F := F) c stgM2_2
        ∗ (∃ f : Buf (Elt F) ((c : Thread nD τ).loc cc0_scratch9), ((c : Thread nD τ).loc cc0_scratch9) ↦[(stgM2_1).view.set \ (stgM2_2).view.set]{fullShare} f)
        ∗ (∃ f : Buf (Elt F) ((c : Thread nD τ).loc cc0_scratch9), ((c : Thread nD τ).loc cc0_scratch9) ↦[(stgM2_0).view.set \ (stgM2_1).view.set]{fullShare} f))
      ⊢ (iprop(∃ f, ((c : Thread nD τ).loc cc0_scratch9) ↦{fullShare} f) : sProp 𝕄) := by
  unfold ptsAny
  iintro ⟨⟨%f2, H2⟩, ⟨%f1, H1⟩, ⟨%f0, H0⟩⟩
  iapply (pts_join_nested f2 f1 f0 stg_sub2_2 stg_sub1_2 stg_univ_2)
  isplitl [H2]; · iexact H2
  isplitl [H1]; · iexact H1
  iexact H0
omit [FloatOps F] in
theorem stg_join_3 (c : Dev nD) :
    iprop(ptsAny (F := F) c stgM3_2
        ∗ (∃ f : Buf (Elt F) ((c : Thread nD τ).loc cc0_scratch10), ((c : Thread nD τ).loc cc0_scratch10) ↦[(stgM3_1).view.set \ (stgM3_2).view.set]{fullShare} f)
        ∗ (∃ f : Buf (Elt F) ((c : Thread nD τ).loc cc0_scratch10), ((c : Thread nD τ).loc cc0_scratch10) ↦[(stgM3_0).view.set \ (stgM3_1).view.set]{fullShare} f))
      ⊢ (iprop(∃ f, ((c : Thread nD τ).loc cc0_scratch10) ↦{fullShare} f) : sProp 𝕄) := by
  unfold ptsAny
  iintro ⟨⟨%f2, H2⟩, ⟨%f1, H1⟩, ⟨%f0, H0⟩⟩
  iapply (pts_join_nested f2 f1 f0 stg_sub2_3 stg_sub1_3 stg_univ_3)
  isplitl [H2]; · iexact H2
  isplitl [H1]; · iexact H1
  iexact H0
omit [FloatOps F] in
theorem stg_join_4 (c : Dev nD) :
    iprop(ptsAny (F := F) c stgM4_2
        ∗ (∃ f : Buf (Elt F) ((c : Thread nD τ).loc cc0_scratch11), ((c : Thread nD τ).loc cc0_scratch11) ↦[(stgM4_1).view.set \ (stgM4_2).view.set]{fullShare} f)
        ∗ (∃ f : Buf (Elt F) ((c : Thread nD τ).loc cc0_scratch11), ((c : Thread nD τ).loc cc0_scratch11) ↦[(stgM4_0).view.set \ (stgM4_1).view.set]{fullShare} f))
      ⊢ (iprop(∃ f, ((c : Thread nD τ).loc cc0_scratch11) ↦{fullShare} f) : sProp 𝕄) := by
  unfold ptsAny
  iintro ⟨⟨%f2, H2⟩, ⟨%f1, H1⟩, ⟨%f0, H0⟩⟩
  iapply (pts_join_nested f2 f1 f0 stg_sub2_4 stg_sub1_4 stg_univ_4)
  isplitl [H2]; · iexact H2
  isplitl [H1]; · iexact H1
  iexact H0
omit [FloatOps F] in
theorem stg_join_5 (c : Dev nD) :
    iprop(ptsAny (F := F) c stgM5_2
        ∗ (∃ f : Buf (Elt F) ((c : Thread nD τ).loc cc0_scratch12), ((c : Thread nD τ).loc cc0_scratch12) ↦[(stgM5_1).view.set \ (stgM5_2).view.set]{fullShare} f)
        ∗ (∃ f : Buf (Elt F) ((c : Thread nD τ).loc cc0_scratch12), ((c : Thread nD τ).loc cc0_scratch12) ↦[(stgM5_0).view.set \ (stgM5_1).view.set]{fullShare} f))
      ⊢ (iprop(∃ f, ((c : Thread nD τ).loc cc0_scratch12) ↦{fullShare} f) : sProp 𝕄) := by
  unfold ptsAny
  iintro ⟨⟨%f2, H2⟩, ⟨%f1, H1⟩, ⟨%f0, H0⟩⟩
  iapply (pts_join_nested f2 f1 f0 stg_sub2_5 stg_sub1_5 stg_univ_5)
  isplitl [H2]; · iexact H2
  isplitl [H1]; · iexact H1
  iexact H0

omit [FloatOps F] in
/-- A half of all-gather buffer 0 held at some contents, the contents typed at the buffer itself. -/
theorem ag_any_0 (c c' : Dev nD) :
    ptsAny (F := F) c (agM0_2 c')
      ⊢ (iprop(∃ f : Buf (Elt F) ((c : Thread nD τ).loc cc0_scratch13), ((c : Thread nD τ).loc cc0_scratch13) ↦[(agM0_2 c').view.set]{fullShare} f) : sProp 𝕄) := by
  unfold ptsAny
  iintro ⟨%f, H⟩
  iexists f
  iexact H
omit [FloatOps F] in
theorem ag_join_0 (c : Dev nD) :
    iprop(ptsAny (F := F) c (agM0_2 c) ∗ ptsAny (F := F) c (agM0_2 (nbr 0 c)))
      ⊢ (iprop(∃ f, ((c : Thread nD τ).loc cc0_scratch13) ↦{fullShare} f) : sProp 𝕄) := by
  iintro ⟨Ha, Hb⟩
  ihave Ha' := (ag_any_0 (F := F) c c) $$ Ha
  ihave Hb' := (ag_any_0 (F := F) c (nbr 0 c)) $$ Hb
  icases Ha' with ⟨%f0, H0⟩
  icases Hb' with ⟨%f1, H1⟩
  iapply (pts_join2 f0 f1 (ag_disj2_0 c) (ag_cover_0 c))
  isplitl [H0]; · iexact H0
  iexact H1
omit [FloatOps F] in
/-- A half of all-gather buffer 1 held at some contents, the contents typed at the buffer itself. -/
theorem ag_any_1 (c c' : Dev nD) :
    ptsAny (F := F) c (agM1_2 c')
      ⊢ (iprop(∃ f : Buf (Elt F) ((c : Thread nD τ).loc cc0_scratch14), ((c : Thread nD τ).loc cc0_scratch14) ↦[(agM1_2 c').view.set]{fullShare} f) : sProp 𝕄) := by
  unfold ptsAny
  iintro ⟨%f, H⟩
  iexists f
  iexact H
omit [FloatOps F] in
theorem ag_join_1 (c : Dev nD) :
    iprop(ptsAny (F := F) c (agM1_2 c) ∗ ptsAny (F := F) c (agM1_2 (nbr 1 c)))
      ⊢ (iprop(∃ f, ((c : Thread nD τ).loc cc0_scratch14) ↦{fullShare} f) : sProp 𝕄) := by
  iintro ⟨Ha, Hb⟩
  ihave Ha' := (ag_any_1 (F := F) c c) $$ Ha
  ihave Hb' := (ag_any_1 (F := F) c (nbr 1 c)) $$ Hb
  icases Ha' with ⟨%f0, H0⟩
  icases Hb' with ⟨%f1, H1⟩
  iapply (pts_join2 f0 f1 (ag_disj2_1 c) (ag_cover_1 c))
  isplitl [H0]; · iexact H0
  iexact H1
omit [FloatOps F] in
/-- A half of all-gather buffer 2 held at some contents, the contents typed at the buffer itself. -/
theorem ag_any_2 (c c' : Dev nD) :
    ptsAny (F := F) c (agM2_2 c')
      ⊢ (iprop(∃ f : Buf (Elt F) ((c : Thread nD τ).loc cc0_scratch15), ((c : Thread nD τ).loc cc0_scratch15) ↦[(agM2_2 c').view.set]{fullShare} f) : sProp 𝕄) := by
  unfold ptsAny
  iintro ⟨%f, H⟩
  iexists f
  iexact H
omit [FloatOps F] in
theorem ag_join_2 (c : Dev nD) :
    iprop(ptsAny (F := F) c (agM2_2 c) ∗ ptsAny (F := F) c (agM2_2 (nbr 2 c)))
      ⊢ (iprop(∃ f, ((c : Thread nD τ).loc cc0_scratch15) ↦{fullShare} f) : sProp 𝕄) := by
  iintro ⟨Ha, Hb⟩
  ihave Ha' := (ag_any_2 (F := F) c c) $$ Ha
  ihave Hb' := (ag_any_2 (F := F) c (nbr 2 c)) $$ Hb
  icases Ha' with ⟨%f0, H0⟩
  icases Hb' with ⟨%f1, H1⟩
  iapply (pts_join2 f0 f1 (ag_disj2_2 c) (ag_cover_2 c))
  isplitl [H0]; · iexact H0
  iexact H1
omit [FloatOps F] in
/-- A half of all-gather buffer 3 held at some contents, the contents typed at the buffer itself. -/
theorem ag_any_3 (c c' : Dev nD) :
    ptsAny (F := F) c (agM3_2 c')
      ⊢ (iprop(∃ f : Buf (Elt F) ((c : Thread nD τ).loc cc0_scratch16), ((c : Thread nD τ).loc cc0_scratch16) ↦[(agM3_2 c').view.set]{fullShare} f) : sProp 𝕄) := by
  unfold ptsAny
  iintro ⟨%f, H⟩
  iexists f
  iexact H
omit [FloatOps F] in
theorem ag_join_3 (c : Dev nD) :
    iprop(ptsAny (F := F) c (agM3_2 c) ∗ ptsAny (F := F) c (agM3_2 (nbr 0 c)))
      ⊢ (iprop(∃ f, ((c : Thread nD τ).loc cc0_scratch16) ↦{fullShare} f) : sProp 𝕄) := by
  iintro ⟨Ha, Hb⟩
  ihave Ha' := (ag_any_3 (F := F) c c) $$ Ha
  ihave Hb' := (ag_any_3 (F := F) c (nbr 0 c)) $$ Hb
  icases Ha' with ⟨%f0, H0⟩
  icases Hb' with ⟨%f1, H1⟩
  iapply (pts_join2 f0 f1 (ag_disj2_3 c) (ag_cover_3 c))
  isplitl [H0]; · iexact H0
  iexact H1
omit [FloatOps F] in
/-- A half of all-gather buffer 4 held at some contents, the contents typed at the buffer itself. -/
theorem ag_any_4 (c c' : Dev nD) :
    ptsAny (F := F) c (agM4_2 c')
      ⊢ (iprop(∃ f : Buf (Elt F) ((c : Thread nD τ).loc cc0_scratch17), ((c : Thread nD τ).loc cc0_scratch17) ↦[(agM4_2 c').view.set]{fullShare} f) : sProp 𝕄) := by
  unfold ptsAny
  iintro ⟨%f, H⟩
  iexists f
  iexact H
omit [FloatOps F] in
theorem ag_join_4 (c : Dev nD) :
    iprop(ptsAny (F := F) c (agM4_2 c) ∗ ptsAny (F := F) c (agM4_2 (nbr 1 c)))
      ⊢ (iprop(∃ f, ((c : Thread nD τ).loc cc0_scratch17) ↦{fullShare} f) : sProp 𝕄) := by
  iintro ⟨Ha, Hb⟩
  ihave Ha' := (ag_any_4 (F := F) c c) $$ Ha
  ihave Hb' := (ag_any_4 (F := F) c (nbr 1 c)) $$ Hb
  icases Ha' with ⟨%f0, H0⟩
  icases Hb' with ⟨%f1, H1⟩
  iapply (pts_join2 f0 f1 (ag_disj2_4 c) (ag_cover_4 c))
  isplitl [H0]; · iexact H0
  iexact H1
omit [FloatOps F] in
/-- A half of all-gather buffer 5 held at some contents, the contents typed at the buffer itself. -/
theorem ag_any_5 (c c' : Dev nD) :
    ptsAny (F := F) c (agM5_2 c')
      ⊢ (iprop(∃ f : Buf (Elt F) ((c : Thread nD τ).loc cc0_scratch18), ((c : Thread nD τ).loc cc0_scratch18) ↦[(agM5_2 c').view.set]{fullShare} f) : sProp 𝕄) := by
  unfold ptsAny
  iintro ⟨%f, H⟩
  iexists f
  iexact H
omit [FloatOps F] in
theorem ag_join_5 (c : Dev nD) :
    iprop(ptsAny (F := F) c (agM5_2 c) ∗ ptsAny (F := F) c (agM5_2 (nbr 2 c)))
      ⊢ (iprop(∃ f, ((c : Thread nD τ).loc cc0_scratch18) ↦{fullShare} f) : sProp 𝕄) := by
  iintro ⟨Ha, Hb⟩
  ihave Ha' := (ag_any_5 (F := F) c c) $$ Ha
  ihave Hb' := (ag_any_5 (F := F) c (nbr 2 c)) $$ Hb
  icases Ha' with ⟨%f0, H0⟩
  icases Hb' with ⟨%f1, H1⟩
  iapply (pts_join2 f0 f1 (ag_disj2_5 c) (ag_cover_5 c))
  isplitl [H0]; · iexact H0
  iexact H1

end Cert.KernelIdeal.Proto

end
-- ==== Proof.EpilogueOut.lean ====
/-
The accumulator from its 24 blocks, each at some contents; the result array from its 24 blocks, each reading
something of which its result predicate holds: that is then known of the whole array's reading, block by block.
-/
import proofs.«900882_g7700000000000883_dist_matmul_gelu_kshard_i_m2048_n2048_k1024_v7x_i8_f32_1_alg».proof.Proof.EpilogueCut
import proofs.«900882_g7700000000000883_dist_matmul_gelu_kshard_i_m2048_n2048_k1024_v7x_i8_f32_1_alg».proof.Proof.PiecesOutTab

set_option maxRecDepth 100000

noncomputable section

namespace Cert.KernelIdeal.Proto

open Cert.KernelIdeal Cert.KernelIdeal.Gen Cert.KernelIdeal.Topo
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (V : Vals F)

omit [FloatOps F] in
theorem src_any_0 (c : Dev nD) : ptsAny (F := F) c (outSrcM0 c)
    ⊢ (iprop(∃ f : Buf (Elt F) ((Memref.whole cc0_scratch0).view.loc (c : Thread nD τ)), ((Memref.whole cc0_scratch0).view.loc (c : Thread nD τ)) ↦[outSet c 0]{fullShare} f) : sProp 𝕄) := by
  unfold ptsAny; rw [outSrc_set_0]
omit [FloatOps F] in
theorem src_any_1 (c : Dev nD) : ptsAny (F := F) c (outSrcM1 c)
    ⊢ (iprop(∃ f : Buf (Elt F) ((Memref.whole cc0_scratch0).view.loc (c : Thread nD τ)), ((Memref.whole cc0_scratch0).view.loc (c : Thread nD τ)) ↦[outSet c 1]{fullShare} f) : sProp 𝕄) := by
  unfold ptsAny; rw [outSrc_set_1]
omit [FloatOps F] in
theorem src_any_2 (c : Dev nD) : ptsAny (F := F) c (outSrcM2 c)
    ⊢ (iprop(∃ f : Buf (Elt F) ((Memref.whole cc0_scratch0).view.loc (c : Thread nD τ)), ((Memref.whole cc0_scratch0).view.loc (c : Thread nD τ)) ↦[outSet c 2]{fullShare} f) : sProp 𝕄) := by
  unfold ptsAny; rw [outSrc_set_2]
omit [FloatOps F] in
theorem src_any_3 (c : Dev nD) : ptsAny (F := F) c (outSrcM3 c)
    ⊢ (iprop(∃ f : Buf (Elt F) ((Memref.whole cc0_scratch0).view.loc (c : Thread nD τ)), ((Memref.whole cc0_scratch0).view.loc (c : Thread nD τ)) ↦[outSet c 3]{fullShare} f) : sProp 𝕄) := by
  unfold ptsAny; rw [outSrc_set_3]
omit [FloatOps F] in
theorem src_any_4 (c : Dev nD) : ptsAny (F := F) c (outSrcM4 c)
    ⊢ (iprop(∃ f : Buf (Elt F) ((Memref.whole cc0_scratch0).view.loc (c : Thread nD τ)), ((Memref.whole cc0_scratch0).view.loc (c : Thread nD τ)) ↦[outSet c 4]{fullShare} f) : sProp 𝕄) := by
  unfold ptsAny; rw [outSrc_set_4]
omit [FloatOps F] in
theorem src_any_5 (c : Dev nD) : ptsAny (F := F) c (outSrcM5 c)
    ⊢ (iprop(∃ f : Buf (Elt F) ((Memref.whole cc0_scratch0).view.loc (c : Thread nD τ)), ((Memref.whole cc0_scratch0).view.loc (c : Thread nD τ)) ↦[outSet c 5]{fullShare} f) : sProp 𝕄) := by
  unfold ptsAny; rw [outSrc_set_5]
omit [FloatOps F] in
theorem src_any_6 (c : Dev nD) : ptsAny (F := F) c (outSrcM6 c)
    ⊢ (iprop(∃ f : Buf (Elt F) ((Memref.whole cc0_scratch0).view.loc (c : Thread nD τ)), ((Memref.whole cc0_scratch0).view.loc (c : Thread nD τ)) ↦[outSet c 6]{fullShare} f) : sProp 𝕄) := by
  unfold ptsAny; rw [outSrc_set_6]
omit [FloatOps F] in
theorem src_any_7 (c : Dev nD) : ptsAny (F := F) c (outSrcM7 c)
    ⊢ (iprop(∃ f : Buf (Elt F) ((Memref.whole cc0_scratch0).view.loc (c : Thread nD τ)), ((Memref.whole cc0_scratch0).view.loc (c : Thread nD τ)) ↦[outSet c 7]{fullShare} f) : sProp 𝕄) := by
  unfold ptsAny; rw [outSrc_set_7]
omit [FloatOps F] in
theorem src_any_8 (c : Dev nD) : ptsAny (F := F) c (outSrcM8 c)
    ⊢ (iprop(∃ f : Buf (Elt F) ((Memref.whole cc0_scratch0).view.loc (c : Thread nD τ)), ((Memref.whole cc0_scratch0).view.loc (c : Thread nD τ)) ↦[outSet c 8]{fullShare} f) : sProp 𝕄) := by
  unfold ptsAny; rw [outSrc_set_8]
omit [FloatOps F] in
theorem src_any_9 (c : Dev nD) : ptsAny (F := F) c (outSrcM9 c)
    ⊢ (iprop(∃ f : Buf (Elt F) ((Memref.whole cc0_scratch0).view.loc (c : Thread nD τ)), ((Memref.whole cc0_scratch0).view.loc (c : Thread nD τ)) ↦[outSet c 9]{fullShare} f) : sProp 𝕄) := by
  unfold ptsAny; rw [outSrc_set_9]
omit [FloatOps F] in
theorem src_any_10 (c : Dev nD) : ptsAny (F := F) c (outSrcM10 c)
    ⊢ (iprop(∃ f : Buf (Elt F) ((Memref.whole cc0_scratch0).view.loc (c : Thread nD τ)), ((Memref.whole cc0_scratch0).view.loc (c : Thread nD τ)) ↦[outSet c 10]{fullShare} f) : sProp 𝕄) := by
  unfold ptsAny; rw [outSrc_set_10]
omit [FloatOps F] in
theorem src_any_11 (c : Dev nD) : ptsAny (F := F) c (outSrcM11 c)
    ⊢ (iprop(∃ f : Buf (Elt F) ((Memref.whole cc0_scratch0).view.loc (c : Thread nD τ)), ((Memref.whole cc0_scratch0).view.loc (c : Thread nD τ)) ↦[outSet c 11]{fullShare} f) : sProp 𝕄) := by
  unfold ptsAny; rw [outSrc_set_11]
omit [FloatOps F] in
theorem src_any_12 (c : Dev nD) : ptsAny (F := F) c (outSrcM12 c)
    ⊢ (iprop(∃ f : Buf (Elt F) ((Memref.whole cc0_scratch0).view.loc (c : Thread nD τ)), ((Memref.whole cc0_scratch0).view.loc (c : Thread nD τ)) ↦[outSet c 12]{fullShare} f) : sProp 𝕄) := by
  unfold ptsAny; rw [outSrc_set_12]
omit [FloatOps F] in
theorem src_any_13 (c : Dev nD) : ptsAny (F := F) c (outSrcM13 c)
    ⊢ (iprop(∃ f : Buf (Elt F) ((Memref.whole cc0_scratch0).view.loc (c : Thread nD τ)), ((Memref.whole cc0_scratch0).view.loc (c : Thread nD τ)) ↦[outSet c 13]{fullShare} f) : sProp 𝕄) := by
  unfold ptsAny; rw [outSrc_set_13]
omit [FloatOps F] in
theorem src_any_14 (c : Dev nD) : ptsAny (F := F) c (outSrcM14 c)
    ⊢ (iprop(∃ f : Buf (Elt F) ((Memref.whole cc0_scratch0).view.loc (c : Thread nD τ)), ((Memref.whole cc0_scratch0).view.loc (c : Thread nD τ)) ↦[outSet c 14]{fullShare} f) : sProp 𝕄) := by
  unfold ptsAny; rw [outSrc_set_14]
omit [FloatOps F] in
theorem src_any_15 (c : Dev nD) : ptsAny (F := F) c (outSrcM15 c)
    ⊢ (iprop(∃ f : Buf (Elt F) ((Memref.whole cc0_scratch0).view.loc (c : Thread nD τ)), ((Memref.whole cc0_scratch0).view.loc (c : Thread nD τ)) ↦[outSet c 15]{fullShare} f) : sProp 𝕄) := by
  unfold ptsAny; rw [outSrc_set_15]
omit [FloatOps F] in
theorem src_any_16 (c : Dev nD) : ptsAny (F := F) c (outSrcM16 c)
    ⊢ (iprop(∃ f : Buf (Elt F) ((Memref.whole cc0_scratch0).view.loc (c : Thread nD τ)), ((Memref.whole cc0_scratch0).view.loc (c : Thread nD τ)) ↦[outSet c 16]{fullShare} f) : sProp 𝕄) := by
  unfold ptsAny; rw [outSrc_set_16]
omit [FloatOps F] in
theorem src_any_17 (c : Dev nD) : ptsAny (F := F) c (outSrcM17 c)
    ⊢ (iprop(∃ f : Buf (Elt F) ((Memref.whole cc0_scratch0).view.loc (c : Thread nD τ)), ((Memref.whole cc0_scratch0).view.loc (c : Thread nD τ)) ↦[outSet c 17]{fullShare} f) : sProp 𝕄) := by
  unfold ptsAny; rw [outSrc_set_17]
omit [FloatOps F] in
theorem src_any_18 (c : Dev nD) : ptsAny (F := F) c (outSrcM18 c)
    ⊢ (iprop(∃ f : Buf (Elt F) ((Memref.whole cc0_scratch0).view.loc (c : Thread nD τ)), ((Memref.whole cc0_scratch0).view.loc (c : Thread nD τ)) ↦[outSet c 18]{fullShare} f) : sProp 𝕄) := by
  unfold ptsAny; rw [outSrc_set_18]
omit [FloatOps F] in
theorem src_any_19 (c : Dev nD) : ptsAny (F := F) c (outSrcM19 c)
    ⊢ (iprop(∃ f : Buf (Elt F) ((Memref.whole cc0_scratch0).view.loc (c : Thread nD τ)), ((Memref.whole cc0_scratch0).view.loc (c : Thread nD τ)) ↦[outSet c 19]{fullShare} f) : sProp 𝕄) := by
  unfold ptsAny; rw [outSrc_set_19]
omit [FloatOps F] in
theorem src_any_20 (c : Dev nD) : ptsAny (F := F) c (outSrcM20 c)
    ⊢ (iprop(∃ f : Buf (Elt F) ((Memref.whole cc0_scratch0).view.loc (c : Thread nD τ)), ((Memref.whole cc0_scratch0).view.loc (c : Thread nD τ)) ↦[outSet c 20]{fullShare} f) : sProp 𝕄) := by
  unfold ptsAny; rw [outSrc_set_20]
omit [FloatOps F] in
theorem src_any_21 (c : Dev nD) : ptsAny (F := F) c (outSrcM21 c)
    ⊢ (iprop(∃ f : Buf (Elt F) ((Memref.whole cc0_scratch0).view.loc (c : Thread nD τ)), ((Memref.whole cc0_scratch0).view.loc (c : Thread nD τ)) ↦[outSet c 21]{fullShare} f) : sProp 𝕄) := by
  unfold ptsAny; rw [outSrc_set_21]
omit [FloatOps F] in
theorem src_any_22 (c : Dev nD) : ptsAny (F := F) c (outSrcM22 c)
    ⊢ (iprop(∃ f : Buf (Elt F) ((Memref.whole cc0_scratch0).view.loc (c : Thread nD τ)), ((Memref.whole cc0_scratch0).view.loc (c : Thread nD τ)) ↦[outSet c 22]{fullShare} f) : sProp 𝕄) := by
  unfold ptsAny; rw [outSrc_set_22]
omit [FloatOps F] in
theorem src_any_23 (c : Dev nD) : ptsAny (F := F) c (outSrcM23 c)
    ⊢ (iprop(∃ f : Buf (Elt F) ((Memref.whole cc0_scratch0).view.loc (c : Thread nD τ)), ((Memref.whole cc0_scratch0).view.loc (c : Thread nD τ)) ↦[outSet c 23]{fullShare} f) : sProp 𝕄) := by
  unfold ptsAny; rw [outSrc_set_23]

/-- The accumulator's 24 blocks, each at some contents. -/
def accLit (c : Dev nD) : sProp 𝕄 :=
  iprop(ptsAny (F := F) c (outSrcM0 c)
    ∗ ptsAny (F := F) c (outSrcM1 c)
    ∗ ptsAny (F := F) c (outSrcM2 c)
    ∗ ptsAny (F := F) c (outSrcM3 c)
    ∗ ptsAny (F := F) c (outSrcM4 c)
    ∗ ptsAny (F := F) c (outSrcM5 c)
    ∗ ptsAny (F := F) c (outSrcM6 c)
    ∗ ptsAny (F := F) c (outSrcM7 c)
    ∗ ptsAny (F := F) c (outSrcM8 c)
    ∗ ptsAny (F := F) c (outSrcM9 c)
    ∗ ptsAny (F := F) c (outSrcM10 c)
    ∗ ptsAny (F := F) c (outSrcM11 c)
    ∗ ptsAny (F := F) c (outSrcM12 c)
    ∗ ptsAny (F := F) c (outSrcM13 c)
    ∗ ptsAny (F := F) c (outSrcM14 c)
    ∗ ptsAny (F := F) c (outSrcM15 c)
    ∗ ptsAny (F := F) c (outSrcM16 c)
    ∗ ptsAny (F := F) c (outSrcM17 c)
    ∗ ptsAny (F := F) c (outSrcM18 c)
    ∗ ptsAny (F := F) c (outSrcM19 c)
    ∗ ptsAny (F := F) c (outSrcM20 c)
    ∗ ptsAny (F := F) c (outSrcM21 c)
    ∗ ptsAny (F := F) c (outSrcM22 c)
    ∗ ptsAny (F := F) c (outSrcM23 c))

theorem acc_whole (c : Dev nD) : (accLit c : sProp 𝕄) ⊢ iprop(∃ f, ((c : Thread nD τ).loc cc0_scratch0) ↦{fullShare} f) := by
  unfold accLit
  refine BIBase.Entails.trans (BIClass.sep_mono (src_any_0 c) (BIClass.sep_mono (src_any_1 c) (BIClass.sep_mono (src_any_2 c) (BIClass.sep_mono (src_any_3 c) (BIClass.sep_mono (src_any_4 c) (BIClass.sep_mono (src_any_5 c) (BIClass.sep_mono (src_any_6 c) (BIClass.sep_mono (src_any_7 c) (BIClass.sep_mono (src_any_8 c) (BIClass.sep_mono (src_any_9 c) (BIClass.sep_mono (src_any_10 c) (BIClass.sep_mono (src_any_11 c) (BIClass.sep_mono (src_any_12 c) (BIClass.sep_mono (src_any_13 c) (BIClass.sep_mono (src_any_14 c) (BIClass.sep_mono (src_any_15 c) (BIClass.sep_mono (src_any_16 c) (BIClass.sep_mono (src_any_17 c) (BIClass.sep_mono (src_any_18 c) (BIClass.sep_mono (src_any_19 c) (BIClass.sep_mono (src_any_20 c) (BIClass.sep_mono (src_any_21 c) (BIClass.sep_mono (src_any_22 c) (src_any_23 c)))))))))))))))))))))))) ?_
  refine BIBase.Entails.trans (Entails.of_eq (sep_fin24 (fun j : Fin 24 => (iprop(∃ f : Buf (Elt F) ((Memref.whole cc0_scratch0).view.loc (c : Thread nD τ)), ((Memref.whole cc0_scratch0).view.loc (c : Thread nD τ)) ↦[outSet c j]{fullShare} f) : sProp 𝕄))).symm) ?_
  exact acc_join c

/-- What is known of the reading of result block j (one clause per block; the others are void). -/
def outP (c : Dev nD) (j : Fin 24) (f : Buf (Elt F) ((Memref.whole main_v1).view.loc (c : Thread nD τ))) : Prop :=
  (j.val = 0 → V.out0 c ((outDstM0 c).view.read (Elt F) f))
    ∧ (j.val = 1 → V.out1 c ((outDstM1 c).view.read (Elt F) f))
    ∧ (j.val = 2 → V.out2 c ((outDstM2 c).view.read (Elt F) f))
    ∧ (j.val = 3 → V.out3 c ((outDstM3 c).view.read (Elt F) f))
    ∧ (j.val = 4 → V.out4 c ((outDstM4 c).view.read (Elt F) f))
    ∧ (j.val = 5 → V.out5 c ((outDstM5 c).view.read (Elt F) f))
    ∧ (j.val = 6 → V.out6 c ((outDstM6 c).view.read (Elt F) f))
    ∧ (j.val = 7 → V.out7 c ((outDstM7 c).view.read (Elt F) f))
    ∧ (j.val = 8 → V.out8 c ((outDstM8 c).view.read (Elt F) f))
    ∧ (j.val = 9 → V.out9 c ((outDstM9 c).view.read (Elt F) f))
    ∧ (j.val = 10 → V.out10 c ((outDstM10 c).view.read (Elt F) f))
    ∧ (j.val = 11 → V.out11 c ((outDstM11 c).view.read (Elt F) f))
    ∧ (j.val = 12 → V.out12 c ((outDstM12 c).view.read (Elt F) f))
    ∧ (j.val = 13 → V.out13 c ((outDstM13 c).view.read (Elt F) f))
    ∧ (j.val = 14 → V.out14 c ((outDstM14 c).view.read (Elt F) f))
    ∧ (j.val = 15 → V.out15 c ((outDstM15 c).view.read (Elt F) f))
    ∧ (j.val = 16 → V.out16 c ((outDstM16 c).view.read (Elt F) f))
    ∧ (j.val = 17 → V.out17 c ((outDstM17 c).view.read (Elt F) f))
    ∧ (j.val = 18 → V.out18 c ((outDstM18 c).view.read (Elt F) f))
    ∧ (j.val = 19 → V.out19 c ((outDstM19 c).view.read (Elt F) f))
    ∧ (j.val = 20 → V.out20 c ((outDstM20 c).view.read (Elt F) f))
    ∧ (j.val = 21 → V.out21 c ((outDstM21 c).view.read (Elt F) f))
    ∧ (j.val = 22 → V.out22 c ((outDstM22 c).view.read (Elt F) f))
    ∧ (j.val = 23 → V.out23 c ((outDstM23 c).view.read (Elt F) f))

omit [FloatOps F] in
theorem outP_intro_0 (c : Dev nD) (f : Buf (Elt F) ((Memref.whole main_v1).view.loc (c : Thread nD τ))) (hp : V.out0 c ((outDstM0 c).view.read (Elt F) f)) : outP V c 0 f := by
  unfold outP
  refine ⟨?_, ?_, ?_, ?_, ?_, ?_, ?_, ?_, ?_, ?_, ?_, ?_, ?_, ?_, ?_, ?_, ?_, ?_, ?_, ?_, ?_, ?_, ?_, ?_⟩ <;> first | exact fun _ => hp | exact fun h => absurd h (by decide)
omit [FloatOps F] in
theorem outP_intro_1 (c : Dev nD) (f : Buf (Elt F) ((Memref.whole main_v1).view.loc (c : Thread nD τ))) (hp : V.out1 c ((outDstM1 c).view.read (Elt F) f)) : outP V c 1 f := by
  unfold outP
  refine ⟨?_, ?_, ?_, ?_, ?_, ?_, ?_, ?_, ?_, ?_, ?_, ?_, ?_, ?_, ?_, ?_, ?_, ?_, ?_, ?_, ?_, ?_, ?_, ?_⟩ <;> first | exact fun _ => hp | exact fun h => absurd h (by decide)
omit [FloatOps F] in
theorem outP_intro_2 (c : Dev nD) (f : Buf (Elt F) ((Memref.whole main_v1).view.loc (c : Thread nD τ))) (hp : V.out2 c ((outDstM2 c).view.read (Elt F) f)) : outP V c 2 f := by
  unfold outP
  refine ⟨?_, ?_, ?_, ?_, ?_, ?_, ?_, ?_, ?_, ?_, ?_, ?_, ?_, ?_, ?_, ?_, ?_, ?_, ?_, ?_, ?_, ?_, ?_, ?_⟩ <;> first | exact fun _ => hp | exact fun h => absurd h (by decide)
omit [FloatOps F] in
theorem outP_intro_3 (c : Dev nD) (f : Buf (Elt F) ((Memref.whole main_v1).view.loc (c : Thread nD τ))) (hp : V.out3 c ((outDstM3 c).view.read (Elt F) f)) : outP V c 3 f := by
  unfold outP
  refine ⟨?_, ?_, ?_, ?_, ?_, ?_, ?_, ?_, ?_, ?_, ?_, ?_, ?_, ?_, ?_, ?_, ?_, ?_, ?_, ?_, ?_, ?_, ?_, ?_⟩ <;> first | exact fun _ => hp | exact fun h => absurd h (by decide)
omit [FloatOps F] in
theorem outP_intro_4 (c : Dev nD) (f : Buf (Elt F) ((Memref.whole main_v1).view.loc (c : Thread nD τ))) (hp : V.out4 c ((outDstM4 c).view.read (Elt F) f)) : outP V c 4 f := by
  unfold outP
  refine ⟨?_, ?_, ?_, ?_, ?_, ?_, ?_, ?_, ?_, ?_, ?_, ?_, ?_, ?_, ?_, ?_, ?_, ?_, ?_, ?_, ?_, ?_, ?_, ?_⟩ <;> first | exact fun _ => hp | exact fun h => absurd h (by decide)
omit [FloatOps F] in
theorem outP_intro_5 (c : Dev nD) (f : Buf (Elt F) ((Memref.whole main_v1).view.loc (c : Thread nD τ))) (hp : V.out5 c ((outDstM5 c).view.read (Elt F) f)) : outP V c 5 f := by
  unfold outP
  refine ⟨?_, ?_, ?_, ?_, ?_, ?_, ?_, ?_, ?_, ?_, ?_, ?_, ?_, ?_, ?_, ?_, ?_, ?_, ?_, ?_, ?_, ?_, ?_, ?_⟩ <;> first | exact fun _ => hp | exact fun h => absurd h (by decide)
omit [FloatOps F] in
theorem outP_intro_6 (c : Dev nD) (f : Buf (Elt F) ((Memref.whole main_v1).view.loc (c : Thread nD τ))) (hp : V.out6 c ((outDstM6 c).view.read (Elt F) f)) : outP V c 6 f := by
  unfold outP
  refine ⟨?_, ?_, ?_, ?_, ?_, ?_, ?_, ?_, ?_, ?_, ?_, ?_, ?_, ?_, ?_, ?_, ?_, ?_, ?_, ?_, ?_, ?_, ?_, ?_⟩ <;> first | exact fun _ => hp | exact fun h => absurd h (by decide)
omit [FloatOps F] in
theorem outP_intro_7 (c : Dev nD) (f : Buf (Elt F) ((Memref.whole main_v1).view.loc (c : Thread nD τ))) (hp : V.out7 c ((outDstM7 c).view.read (Elt F) f)) : outP V c 7 f := by
  unfold outP
  refine ⟨?_, ?_, ?_, ?_, ?_, ?_, ?_, ?_, ?_, ?_, ?_, ?_, ?_, ?_, ?_, ?_, ?_, ?_, ?_, ?_, ?_, ?_, ?_, ?_⟩ <;> first | exact fun _ => hp | exact fun h => absurd h (by decide)
omit [FloatOps F] in
theorem outP_intro_8 (c : Dev nD) (f : Buf (Elt F) ((Memref.whole main_v1).view.loc (c : Thread nD τ))) (hp : V.out8 c ((outDstM8 c).view.read (Elt F) f)) : outP V c 8 f := by
  unfold outP
  refine ⟨?_, ?_, ?_, ?_, ?_, ?_, ?_, ?_, ?_, ?_, ?_, ?_, ?_, ?_, ?_, ?_, ?_, ?_, ?_, ?_, ?_, ?_, ?_, ?_⟩ <;> first | exact fun _ => hp | exact fun h => absurd h (by decide)
omit [FloatOps F] in
theorem outP_intro_9 (c : Dev nD) (f : Buf (Elt F) ((Memref.whole main_v1).view.loc (c : Thread nD τ))) (hp : V.out9 c ((outDstM9 c).view.read (Elt F) f)) : outP V c 9 f := by
  unfold outP
  refine ⟨?_, ?_, ?_, ?_, ?_, ?_, ?_, ?_, ?_, ?_, ?_, ?_, ?_, ?_, ?_, ?_, ?_, ?_, ?_, ?_, ?_, ?_, ?_, ?_⟩ <;> first | exact fun _ => hp | exact fun h => absurd h (by decide)
omit [FloatOps F] in
theorem outP_intro_10 (c : Dev nD) (f : Buf (Elt F) ((Memref.whole main_v1).view.loc (c : Thread nD τ))) (hp : V.out10 c ((outDstM10 c).view.read (Elt F) f)) : outP V c 10 f := by
  unfold outP
  refine ⟨?_, ?_, ?_, ?_, ?_, ?_, ?_, ?_, ?_, ?_, ?_, ?_, ?_, ?_, ?_, ?_, ?_, ?_, ?_, ?_, ?_, ?_, ?_, ?_⟩ <;> first | exact fun _ => hp | exact fun h => absurd h (by decide)
omit [FloatOps F] in
theorem outP_intro_11 (c : Dev nD) (f : Buf (Elt F) ((Memref.whole main_v1).view.loc (c : Thread nD τ))) (hp : V.out11 c ((outDstM11 c).view.read (Elt F) f)) : outP V c 11 f := by
  unfold outP
  refine ⟨?_, ?_, ?_, ?_, ?_, ?_, ?_, ?_, ?_, ?_, ?_, ?_, ?_, ?_, ?_, ?_, ?_, ?_, ?_, ?_, ?_, ?_, ?_, ?_⟩ <;> first | exact fun _ => hp | exact fun h => absurd h (by decide)
omit [FloatOps F] in
theorem outP_intro_12 (c : Dev nD) (f : Buf (Elt F) ((Memref.whole main_v1).view.loc (c : Thread nD τ))) (hp : V.out12 c ((outDstM12 c).view.read (Elt F) f)) : outP V c 12 f := by
  unfold outP
  refine ⟨?_, ?_, ?_, ?_, ?_, ?_, ?_, ?_, ?_, ?_, ?_, ?_, ?_, ?_, ?_, ?_, ?_, ?_, ?_, ?_, ?_, ?_, ?_, ?_⟩ <;> first | exact fun _ => hp | exact fun h => absurd h (by decide)
omit [FloatOps F] in
theorem outP_intro_13 (c : Dev nD) (f : Buf (Elt F) ((Memref.whole main_v1).view.loc (c : Thread nD τ))) (hp : V.out13 c ((outDstM13 c).view.read (Elt F) f)) : outP V c 13 f := by
  unfold outP
  refine ⟨?_, ?_, ?_, ?_, ?_, ?_, ?_, ?_, ?_, ?_, ?_, ?_, ?_, ?_, ?_, ?_, ?_, ?_, ?_, ?_, ?_, ?_, ?_, ?_⟩ <;> first | exact fun _ => hp | exact fun h => absurd h (by decide)
omit [FloatOps F] in
theorem outP_intro_14 (c : Dev nD) (f : Buf (Elt F) ((Memref.whole main_v1).view.loc (c : Thread nD τ))) (hp : V.out14 c ((outDstM14 c).view.read (Elt F) f)) : outP V c 14 f := by
  unfold outP
  refine ⟨?_, ?_, ?_, ?_, ?_, ?_, ?_, ?_, ?_, ?_, ?_, ?_, ?_, ?_, ?_, ?_, ?_, ?_, ?_, ?_, ?_, ?_, ?_, ?_⟩ <;> first | exact fun _ => hp | exact fun h => absurd h (by decide)
omit [FloatOps F] in
theorem outP_intro_15 (c : Dev nD) (f : Buf (Elt F) ((Memref.whole main_v1).view.loc (c : Thread nD τ))) (hp : V.out15 c ((outDstM15 c).view.read (Elt F) f)) : outP V c 15 f := by
  unfold outP
  refine ⟨?_, ?_, ?_, ?_, ?_, ?_, ?_, ?_, ?_, ?_, ?_, ?_, ?_, ?_, ?_, ?_, ?_, ?_, ?_, ?_, ?_, ?_, ?_, ?_⟩ <;> first | exact fun _ => hp | exact fun h => absurd h (by decide)
omit [FloatOps F] in
theorem outP_intro_16 (c : Dev nD) (f : Buf (Elt F) ((Memref.whole main_v1).view.loc (c : Thread nD τ))) (hp : V.out16 c ((outDstM16 c).view.read (Elt F) f)) : outP V c 16 f := by
  unfold outP
  refine ⟨?_, ?_, ?_, ?_, ?_, ?_, ?_, ?_, ?_, ?_, ?_, ?_, ?_, ?_, ?_, ?_, ?_, ?_, ?_, ?_, ?_, ?_, ?_, ?_⟩ <;> first | exact fun _ => hp | exact fun h => absurd h (by decide)
omit [FloatOps F] in
theorem outP_intro_17 (c : Dev nD) (f : Buf (Elt F) ((Memref.whole main_v1).view.loc (c : Thread nD τ))) (hp : V.out17 c ((outDstM17 c).view.read (Elt F) f)) : outP V c 17 f := by
  unfold outP
  refine ⟨?_, ?_, ?_, ?_, ?_, ?_, ?_, ?_, ?_, ?_, ?_, ?_, ?_, ?_, ?_, ?_, ?_, ?_, ?_, ?_, ?_, ?_, ?_, ?_⟩ <;> first | exact fun _ => hp | exact fun h => absurd h (by decide)
omit [FloatOps F] in
theorem outP_intro_18 (c : Dev nD) (f : Buf (Elt F) ((Memref.whole main_v1).view.loc (c : Thread nD τ))) (hp : V.out18 c ((outDstM18 c).view.read (Elt F) f)) : outP V c 18 f := by
  unfold outP
  refine ⟨?_, ?_, ?_, ?_, ?_, ?_, ?_, ?_, ?_, ?_, ?_, ?_, ?_, ?_, ?_, ?_, ?_, ?_, ?_, ?_, ?_, ?_, ?_, ?_⟩ <;> first | exact fun _ => hp | exact fun h => absurd h (by decide)
omit [FloatOps F] in
theorem outP_intro_19 (c : Dev nD) (f : Buf (Elt F) ((Memref.whole main_v1).view.loc (c : Thread nD τ))) (hp : V.out19 c ((outDstM19 c).view.read (Elt F) f)) : outP V c 19 f := by
  unfold outP
  refine ⟨?_, ?_, ?_, ?_, ?_, ?_, ?_, ?_, ?_, ?_, ?_, ?_, ?_, ?_, ?_, ?_, ?_, ?_, ?_, ?_, ?_, ?_, ?_, ?_⟩ <;> first | exact fun _ => hp | exact fun h => absurd h (by decide)
omit [FloatOps F] in
theorem outP_intro_20 (c : Dev nD) (f : Buf (Elt F) ((Memref.whole main_v1).view.loc (c : Thread nD τ))) (hp : V.out20 c ((outDstM20 c).view.read (Elt F) f)) : outP V c 20 f := by
  unfold outP
  refine ⟨?_, ?_, ?_, ?_, ?_, ?_, ?_, ?_, ?_, ?_, ?_, ?_, ?_, ?_, ?_, ?_, ?_, ?_, ?_, ?_, ?_, ?_, ?_, ?_⟩ <;> first | exact fun _ => hp | exact fun h => absurd h (by decide)
omit [FloatOps F] in
theorem outP_intro_21 (c : Dev nD) (f : Buf (Elt F) ((Memref.whole main_v1).view.loc (c : Thread nD τ))) (hp : V.out21 c ((outDstM21 c).view.read (Elt F) f)) : outP V c 21 f := by
  unfold outP
  refine ⟨?_, ?_, ?_, ?_, ?_, ?_, ?_, ?_, ?_, ?_, ?_, ?_, ?_, ?_, ?_, ?_, ?_, ?_, ?_, ?_, ?_, ?_, ?_, ?_⟩ <;> first | exact fun _ => hp | exact fun h => absurd h (by decide)
omit [FloatOps F] in
theorem outP_intro_22 (c : Dev nD) (f : Buf (Elt F) ((Memref.whole main_v1).view.loc (c : Thread nD τ))) (hp : V.out22 c ((outDstM22 c).view.read (Elt F) f)) : outP V c 22 f := by
  unfold outP
  refine ⟨?_, ?_, ?_, ?_, ?_, ?_, ?_, ?_, ?_, ?_, ?_, ?_, ?_, ?_, ?_, ?_, ?_, ?_, ?_, ?_, ?_, ?_, ?_, ?_⟩ <;> first | exact fun _ => hp | exact fun h => absurd h (by decide)
omit [FloatOps F] in
theorem outP_intro_23 (c : Dev nD) (f : Buf (Elt F) ((Memref.whole main_v1).view.loc (c : Thread nD τ))) (hp : V.out23 c ((outDstM23 c).view.read (Elt F) f)) : outP V c 23 f := by
  unfold outP
  refine ⟨?_, ?_, ?_, ?_, ?_, ?_, ?_, ?_, ?_, ?_, ?_, ?_, ?_, ?_, ?_, ?_, ?_, ?_, ?_, ?_, ?_, ?_, ?_, ?_⟩ <;> first | exact fun _ => hp | exact fun h => absurd h (by decide)

omit [FloatOps F] in
theorem outP_congr_0 (c : Dev nD) (f g : Buf (Elt F) ((Memref.whole main_v1).view.loc (c : Thread nD τ)))
    (h : ∀ i ∈ outSet c 0, g i = f i) (hp : V.out0 c ((outDstM0 c).view.read (Elt F) f)) : V.out0 c ((outDstM0 c).view.read (Elt F) g) := by
  have e : (outDstM0 c).view.read (Elt F) g = (outDstM0 c).view.read (Elt F) f := View.read_congr (fun i hi => h i (by rw [← outDst_set_0]; exact hi))
  rw [e]; exact hp
omit [FloatOps F] in
theorem outP_congr_1 (c : Dev nD) (f g : Buf (Elt F) ((Memref.whole main_v1).view.loc (c : Thread nD τ)))
    (h : ∀ i ∈ outSet c 1, g i = f i) (hp : V.out1 c ((outDstM1 c).view.read (Elt F) f)) : V.out1 c ((outDstM1 c).view.read (Elt F) g) := by
  have e : (outDstM1 c).view.read (Elt F) g = (outDstM1 c).view.read (Elt F) f := View.read_congr (fun i hi => h i (by rw [← outDst_set_1]; exact hi))
  rw [e]; exact hp
omit [FloatOps F] in
theorem outP_congr_2 (c : Dev nD) (f g : Buf (Elt F) ((Memref.whole main_v1).view.loc (c : Thread nD τ)))
    (h : ∀ i ∈ outSet c 2, g i = f i) (hp : V.out2 c ((outDstM2 c).view.read (Elt F) f)) : V.out2 c ((outDstM2 c).view.read (Elt F) g) := by
  have e : (outDstM2 c).view.read (Elt F) g = (outDstM2 c).view.read (Elt F) f := View.read_congr (fun i hi => h i (by rw [← outDst_set_2]; exact hi))
  rw [e]; exact hp
omit [FloatOps F] in
theorem outP_congr_3 (c : Dev nD) (f g : Buf (Elt F) ((Memref.whole main_v1).view.loc (c : Thread nD τ)))
    (h : ∀ i ∈ outSet c 3, g i = f i) (hp : V.out3 c ((outDstM3 c).view.read (Elt F) f)) : V.out3 c ((outDstM3 c).view.read (Elt F) g) := by
  have e : (outDstM3 c).view.read (Elt F) g = (outDstM3 c).view.read (Elt F) f := View.read_congr (fun i hi => h i (by rw [← outDst_set_3]; exact hi))
  rw [e]; exact hp
omit [FloatOps F] in
theorem outP_congr_4 (c : Dev nD) (f g : Buf (Elt F) ((Memref.whole main_v1).view.loc (c : Thread nD τ)))
    (h : ∀ i ∈ outSet c 4, g i = f i) (hp : V.out4 c ((outDstM4 c).view.read (Elt F) f)) : V.out4 c ((outDstM4 c).view.read (Elt F) g) := by
  have e : (outDstM4 c).view.read (Elt F) g = (outDstM4 c).view.read (Elt F) f := View.read_congr (fun i hi => h i (by rw [← outDst_set_4]; exact hi))
  rw [e]; exact hp
omit [FloatOps F] in
theorem outP_congr_5 (c : Dev nD) (f g : Buf (Elt F) ((Memref.whole main_v1).view.loc (c : Thread nD τ)))
    (h : ∀ i ∈ outSet c 5, g i = f i) (hp : V.out5 c ((outDstM5 c).view.read (Elt F) f)) : V.out5 c ((outDstM5 c).view.read (Elt F) g) := by
  have e : (outDstM5 c).view.read (Elt F) g = (outDstM5 c).view.read (Elt F) f := View.read_congr (fun i hi => h i (by rw [← outDst_set_5]; exact hi))
  rw [e]; exact hp
omit [FloatOps F] in
theorem outP_congr_6 (c : Dev nD) (f g : Buf (Elt F) ((Memref.whole main_v1).view.loc (c : Thread nD τ)))
    (h : ∀ i ∈ outSet c 6, g i = f i) (hp : V.out6 c ((outDstM6 c).view.read (Elt F) f)) : V.out6 c ((outDstM6 c).view.read (Elt F) g) := by
  have e : (outDstM6 c).view.read (Elt F) g = (outDstM6 c).view.read (Elt F) f := View.read_congr (fun i hi => h i (by rw [← outDst_set_6]; exact hi))
  rw [e]; exact hp
omit [FloatOps F] in
theorem outP_congr_7 (c : Dev nD) (f g : Buf (Elt F) ((Memref.whole main_v1).view.loc (c : Thread nD τ)))
    (h : ∀ i ∈ outSet c 7, g i = f i) (hp : V.out7 c ((outDstM7 c).view.read (Elt F) f)) : V.out7 c ((outDstM7 c).view.read (Elt F) g) := by
  have e : (outDstM7 c).view.read (Elt F) g = (outDstM7 c).view.read (Elt F) f := View.read_congr (fun i hi => h i (by rw [← outDst_set_7]; exact hi))
  rw [e]; exact hp
omit [FloatOps F] in
theorem outP_congr_8 (c : Dev nD) (f g : Buf (Elt F) ((Memref.whole main_v1).view.loc (c : Thread nD τ)))
    (h : ∀ i ∈ outSet c 8, g i = f i) (hp : V.out8 c ((outDstM8 c).view.read (Elt F) f)) : V.out8 c ((outDstM8 c).view.read (Elt F) g) := by
  have e : (outDstM8 c).view.read (Elt F) g = (outDstM8 c).view.read (Elt F) f := View.read_congr (fun i hi => h i (by rw [← outDst_set_8]; exact hi))
  rw [e]; exact hp
omit [FloatOps F] in
theorem outP_congr_9 (c : Dev nD) (f g : Buf (Elt F) ((Memref.whole main_v1).view.loc (c : Thread nD τ)))
    (h : ∀ i ∈ outSet c 9, g i = f i) (hp : V.out9 c ((outDstM9 c).view.read (Elt F) f)) : V.out9 c ((outDstM9 c).view.read (Elt F) g) := by
  have e : (outDstM9 c).view.read (Elt F) g = (outDstM9 c).view.read (Elt F) f := View.read_congr (fun i hi => h i (by rw [← outDst_set_9]; exact hi))
  rw [e]; exact hp
omit [FloatOps F] in
theorem outP_congr_10 (c : Dev nD) (f g : Buf (Elt F) ((Memref.whole main_v1).view.loc (c : Thread nD τ)))
    (h : ∀ i ∈ outSet c 10, g i = f i) (hp : V.out10 c ((outDstM10 c).view.read (Elt F) f)) : V.out10 c ((outDstM10 c).view.read (Elt F) g) := by
  have e : (outDstM10 c).view.read (Elt F) g = (outDstM10 c).view.read (Elt F) f := View.read_congr (fun i hi => h i (by rw [← outDst_set_10]; exact hi))
  rw [e]; exact hp
omit [FloatOps F] in
theorem outP_congr_11 (c : Dev nD) (f g : Buf (Elt F) ((Memref.whole main_v1).view.loc (c : Thread nD τ)))
    (h : ∀ i ∈ outSet c 11, g i = f i) (hp : V.out11 c ((outDstM11 c).view.read (Elt F) f)) : V.out11 c ((outDstM11 c).view.read (Elt F) g) := by
  have e : (outDstM11 c).view.read (Elt F) g = (outDstM11 c).view.read (Elt F) f := View.read_congr (fun i hi => h i (by rw [← outDst_set_11]; exact hi))
  rw [e]; exact hp
omit [FloatOps F] in
theorem outP_congr_12 (c : Dev nD) (f g : Buf (Elt F) ((Memref.whole main_v1).view.loc (c : Thread nD τ)))
    (h : ∀ i ∈ outSet c 12, g i = f i) (hp : V.out12 c ((outDstM12 c).view.read (Elt F) f)) : V.out12 c ((outDstM12 c).view.read (Elt F) g) := by
  have e : (outDstM12 c).view.read (Elt F) g = (outDstM12 c).view.read (Elt F) f := View.read_congr (fun i hi => h i (by rw [← outDst_set_12]; exact hi))
  rw [e]; exact hp
omit [FloatOps F] in
theorem outP_congr_13 (c : Dev nD) (f g : Buf (Elt F) ((Memref.whole main_v1).view.loc (c : Thread nD τ)))
    (h : ∀ i ∈ outSet c 13, g i = f i) (hp : V.out13 c ((outDstM13 c).view.read (Elt F) f)) : V.out13 c ((outDstM13 c).view.read (Elt F) g) := by
  have e : (outDstM13 c).view.read (Elt F) g = (outDstM13 c).view.read (Elt F) f := View.read_congr (fun i hi => h i (by rw [← outDst_set_13]; exact hi))
  rw [e]; exact hp
omit [FloatOps F] in
theorem outP_congr_14 (c : Dev nD) (f g : Buf (Elt F) ((Memref.whole main_v1).view.loc (c : Thread nD τ)))
    (h : ∀ i ∈ outSet c 14, g i = f i) (hp : V.out14 c ((outDstM14 c).view.read (Elt F) f)) : V.out14 c ((outDstM14 c).view.read (Elt F) g) := by
  have e : (outDstM14 c).view.read (Elt F) g = (outDstM14 c).view.read (Elt F) f := View.read_congr (fun i hi => h i (by rw [← outDst_set_14]; exact hi))
  rw [e]; exact hp
omit [FloatOps F] in
theorem outP_congr_15 (c : Dev nD) (f g : Buf (Elt F) ((Memref.whole main_v1).view.loc (c : Thread nD τ)))
    (h : ∀ i ∈ outSet c 15, g i = f i) (hp : V.out15 c ((outDstM15 c).view.read (Elt F) f)) : V.out15 c ((outDstM15 c).view.read (Elt F) g) := by
  have e : (outDstM15 c).view.read (Elt F) g = (outDstM15 c).view.read (Elt F) f := View.read_congr (fun i hi => h i (by rw [← outDst_set_15]; exact hi))
  rw [e]; exact hp
omit [FloatOps F] in
theorem outP_congr_16 (c : Dev nD) (f g : Buf (Elt F) ((Memref.whole main_v1).view.loc (c : Thread nD τ)))
    (h : ∀ i ∈ outSet c 16, g i = f i) (hp : V.out16 c ((outDstM16 c).view.read (Elt F) f)) : V.out16 c ((outDstM16 c).view.read (Elt F) g) := by
  have e : (outDstM16 c).view.read (Elt F) g = (outDstM16 c).view.read (Elt F) f := View.read_congr (fun i hi => h i (by rw [← outDst_set_16]; exact hi))
  rw [e]; exact hp
omit [FloatOps F] in
theorem outP_congr_17 (c : Dev nD) (f g : Buf (Elt F) ((Memref.whole main_v1).view.loc (c : Thread nD τ)))
    (h : ∀ i ∈ outSet c 17, g i = f i) (hp : V.out17 c ((outDstM17 c).view.read (Elt F) f)) : V.out17 c ((outDstM17 c).view.read (Elt F) g) := by
  have e : (outDstM17 c).view.read (Elt F) g = (outDstM17 c).view.read (Elt F) f := View.read_congr (fun i hi => h i (by rw [← outDst_set_17]; exact hi))
  rw [e]; exact hp
omit [FloatOps F] in
theorem outP_congr_18 (c : Dev nD) (f g : Buf (Elt F) ((Memref.whole main_v1).view.loc (c : Thread nD τ)))
    (h : ∀ i ∈ outSet c 18, g i = f i) (hp : V.out18 c ((outDstM18 c).view.read (Elt F) f)) : V.out18 c ((outDstM18 c).view.read (Elt F) g) := by
  have e : (outDstM18 c).view.read (Elt F) g = (outDstM18 c).view.read (Elt F) f := View.read_congr (fun i hi => h i (by rw [← outDst_set_18]; exact hi))
  rw [e]; exact hp
omit [FloatOps F] in
theorem outP_congr_19 (c : Dev nD) (f g : Buf (Elt F) ((Memref.whole main_v1).view.loc (c : Thread nD τ)))
    (h : ∀ i ∈ outSet c 19, g i = f i) (hp : V.out19 c ((outDstM19 c).view.read (Elt F) f)) : V.out19 c ((outDstM19 c).view.read (Elt F) g) := by
  have e : (outDstM19 c).view.read (Elt F) g = (outDstM19 c).view.read (Elt F) f := View.read_congr (fun i hi => h i (by rw [← outDst_set_19]; exact hi))
  rw [e]; exact hp
omit [FloatOps F] in
theorem outP_congr_20 (c : Dev nD) (f g : Buf (Elt F) ((Memref.whole main_v1).view.loc (c : Thread nD τ)))
    (h : ∀ i ∈ outSet c 20, g i = f i) (hp : V.out20 c ((outDstM20 c).view.read (Elt F) f)) : V.out20 c ((outDstM20 c).view.read (Elt F) g) := by
  have e : (outDstM20 c).view.read (Elt F) g = (outDstM20 c).view.read (Elt F) f := View.read_congr (fun i hi => h i (by rw [← outDst_set_20]; exact hi))
  rw [e]; exact hp
omit [FloatOps F] in
theorem outP_congr_21 (c : Dev nD) (f g : Buf (Elt F) ((Memref.whole main_v1).view.loc (c : Thread nD τ)))
    (h : ∀ i ∈ outSet c 21, g i = f i) (hp : V.out21 c ((outDstM21 c).view.read (Elt F) f)) : V.out21 c ((outDstM21 c).view.read (Elt F) g) := by
  have e : (outDstM21 c).view.read (Elt F) g = (outDstM21 c).view.read (Elt F) f := View.read_congr (fun i hi => h i (by rw [← outDst_set_21]; exact hi))
  rw [e]; exact hp
omit [FloatOps F] in
theorem outP_congr_22 (c : Dev nD) (f g : Buf (Elt F) ((Memref.whole main_v1).view.loc (c : Thread nD τ)))
    (h : ∀ i ∈ outSet c 22, g i = f i) (hp : V.out22 c ((outDstM22 c).view.read (Elt F) f)) : V.out22 c ((outDstM22 c).view.read (Elt F) g) := by
  have e : (outDstM22 c).view.read (Elt F) g = (outDstM22 c).view.read (Elt F) f := View.read_congr (fun i hi => h i (by rw [← outDst_set_22]; exact hi))
  rw [e]; exact hp
omit [FloatOps F] in
theorem outP_congr_23 (c : Dev nD) (f g : Buf (Elt F) ((Memref.whole main_v1).view.loc (c : Thread nD τ)))
    (h : ∀ i ∈ outSet c 23, g i = f i) (hp : V.out23 c ((outDstM23 c).view.read (Elt F) f)) : V.out23 c ((outDstM23 c).view.read (Elt F) g) := by
  have e : (outDstM23 c).view.read (Elt F) g = (outDstM23 c).view.read (Elt F) f := View.read_congr (fun i hi => h i (by rw [← outDst_set_23]; exact hi))
  rw [e]; exact hp

omit [FloatOps F] in
theorem outP_congr (c : Dev nD) (j : Fin 24) (f g : Buf (Elt F) ((Memref.whole main_v1).view.loc (c : Thread nD τ)))
    (h : ∀ i ∈ outSet c j, g i = f i) (hp : outP V c j f) : outP V c j g := by
  unfold outP at hp ⊢
  obtain ⟨h0, h1, h2, h3, h4, h5, h6, h7, h8, h9, h10, h11, h12, h13, h14, h15, h16, h17, h18, h19, h20, h21, h22, h23⟩ := hp
  refine ⟨fun hj => ?_, fun hj => ?_, fun hj => ?_, fun hj => ?_, fun hj => ?_, fun hj => ?_, fun hj => ?_, fun hj => ?_, fun hj => ?_, fun hj => ?_, fun hj => ?_, fun hj => ?_, fun hj => ?_, fun hj => ?_, fun hj => ?_, fun hj => ?_, fun hj => ?_, fun hj => ?_, fun hj => ?_, fun hj => ?_, fun hj => ?_, fun hj => ?_, fun hj => ?_, fun hj => ?_⟩
  · have e : j = 0 := Fin.ext hj
    subst e; exact outP_congr_0 V c f g h (h0 rfl)
  · have e : j = 1 := Fin.ext hj
    subst e; exact outP_congr_1 V c f g h (h1 rfl)
  · have e : j = 2 := Fin.ext hj
    subst e; exact outP_congr_2 V c f g h (h2 rfl)
  · have e : j = 3 := Fin.ext hj
    subst e; exact outP_congr_3 V c f g h (h3 rfl)
  · have e : j = 4 := Fin.ext hj
    subst e; exact outP_congr_4 V c f g h (h4 rfl)
  · have e : j = 5 := Fin.ext hj
    subst e; exact outP_congr_5 V c f g h (h5 rfl)
  · have e : j = 6 := Fin.ext hj
    subst e; exact outP_congr_6 V c f g h (h6 rfl)
  · have e : j = 7 := Fin.ext hj
    subst e; exact outP_congr_7 V c f g h (h7 rfl)
  · have e : j = 8 := Fin.ext hj
    subst e; exact outP_congr_8 V c f g h (h8 rfl)
  · have e : j = 9 := Fin.ext hj
    subst e; exact outP_congr_9 V c f g h (h9 rfl)
  · have e : j = 10 := Fin.ext hj
    subst e; exact outP_congr_10 V c f g h (h10 rfl)
  · have e : j = 11 := Fin.ext hj
    subst e; exact outP_congr_11 V c f g h (h11 rfl)
  · have e : j = 12 := Fin.ext hj
    subst e; exact outP_congr_12 V c f g h (h12 rfl)
  · have e : j = 13 := Fin.ext hj
    subst e; exact outP_congr_13 V c f g h (h13 rfl)
  · have e : j = 14 := Fin.ext hj
    subst e; exact outP_congr_14 V c f g h (h14 rfl)
  · have e : j = 15 := Fin.ext hj
    subst e; exact outP_congr_15 V c f g h (h15 rfl)
  · have e : j = 16 := Fin.ext hj
    subst e; exact outP_congr_16 V c f g h (h16 rfl)
  · have e : j = 17 := Fin.ext hj
    subst e; exact outP_congr_17 V c f g h (h17 rfl)
  · have e : j = 18 := Fin.ext hj
    subst e; exact outP_congr_18 V c f g h (h18 rfl)
  · have e : j = 19 := Fin.ext hj
    subst e; exact outP_congr_19 V c f g h (h19 rfl)
  · have e : j = 20 := Fin.ext hj
    subst e; exact outP_congr_20 V c f g h (h20 rfl)
  · have e : j = 21 := Fin.ext hj
    subst e; exact outP_congr_21 V c f g h (h21 rfl)
  · have e : j = 22 := Fin.ext hj
    subst e; exact outP_congr_22 V c f g h (h22 rfl)
  · have e : j = 23 := Fin.ext hj
    subst e; exact outP_congr_23 V c f g h (h23 rfl)

omit [FloatOps F] in
theorem dst_any_0 (c : Dev nD) : ptsIs c (outDstM0 c) (V.out0 c)
    ⊢ (iprop(∃ f : Buf (Elt F) ((Memref.whole main_v1).view.loc (c : Thread nD τ)), (((Memref.whole main_v1).view.loc (c : Thread nD τ)) ↦[outSet c 0]{fullShare} f) ∗ ⌜outP V c 0 f⌝) : sProp 𝕄) := by
  unfold ptsIs; rw [outDst_set_0]; iintro ⟨%f, H, %hp⟩; iexists f
  isplitl [H]; · iexact H
  ipureintro; exact outP_intro_0 V c f hp
omit [FloatOps F] in
theorem dst_any_1 (c : Dev nD) : ptsIs c (outDstM1 c) (V.out1 c)
    ⊢ (iprop(∃ f : Buf (Elt F) ((Memref.whole main_v1).view.loc (c : Thread nD τ)), (((Memref.whole main_v1).view.loc (c : Thread nD τ)) ↦[outSet c 1]{fullShare} f) ∗ ⌜outP V c 1 f⌝) : sProp 𝕄) := by
  unfold ptsIs; rw [outDst_set_1]; iintro ⟨%f, H, %hp⟩; iexists f
  isplitl [H]; · iexact H
  ipureintro; exact outP_intro_1 V c f hp
omit [FloatOps F] in
theorem dst_any_2 (c : Dev nD) : ptsIs c (outDstM2 c) (V.out2 c)
    ⊢ (iprop(∃ f : Buf (Elt F) ((Memref.whole main_v1).view.loc (c : Thread nD τ)), (((Memref.whole main_v1).view.loc (c : Thread nD τ)) ↦[outSet c 2]{fullShare} f) ∗ ⌜outP V c 2 f⌝) : sProp 𝕄) := by
  unfold ptsIs; rw [outDst_set_2]; iintro ⟨%f, H, %hp⟩; iexists f
  isplitl [H]; · iexact H
  ipureintro; exact outP_intro_2 V c f hp
omit [FloatOps F] in
theorem dst_any_3 (c : Dev nD) : ptsIs c (outDstM3 c) (V.out3 c)
    ⊢ (iprop(∃ f : Buf (Elt F) ((Memref.whole main_v1).view.loc (c : Thread nD τ)), (((Memref.whole main_v1).view.loc (c : Thread nD τ)) ↦[outSet c 3]{fullShare} f) ∗ ⌜outP V c 3 f⌝) : sProp 𝕄) := by
  unfold ptsIs; rw [outDst_set_3]; iintro ⟨%f, H, %hp⟩; iexists f
  isplitl [H]; · iexact H
  ipureintro; exact outP_intro_3 V c f hp
omit [FloatOps F] in
theorem dst_any_4 (c : Dev nD) : ptsIs c (outDstM4 c) (V.out4 c)
    ⊢ (iprop(∃ f : Buf (Elt F) ((Memref.whole main_v1).view.loc (c : Thread nD τ)), (((Memref.whole main_v1).view.loc (c : Thread nD τ)) ↦[outSet c 4]{fullShare} f) ∗ ⌜outP V c 4 f⌝) : sProp 𝕄) := by
  unfold ptsIs; rw [outDst_set_4]; iintro ⟨%f, H, %hp⟩; iexists f
  isplitl [H]; · iexact H
  ipureintro; exact outP_intro_4 V c f hp
omit [FloatOps F] in
theorem dst_any_5 (c : Dev nD) : ptsIs c (outDstM5 c) (V.out5 c)
    ⊢ (iprop(∃ f : Buf (Elt F) ((Memref.whole main_v1).view.loc (c : Thread nD τ)), (((Memref.whole main_v1).view.loc (c : Thread nD τ)) ↦[outSet c 5]{fullShare} f) ∗ ⌜outP V c 5 f⌝) : sProp 𝕄) := by
  unfold ptsIs; rw [outDst_set_5]; iintro ⟨%f, H, %hp⟩; iexists f
  isplitl [H]; · iexact H
  ipureintro; exact outP_intro_5 V c f hp
omit [FloatOps F] in
theorem dst_any_6 (c : Dev nD) : ptsIs c (outDstM6 c) (V.out6 c)
    ⊢ (iprop(∃ f : Buf (Elt F) ((Memref.whole main_v1).view.loc (c : Thread nD τ)), (((Memref.whole main_v1).view.loc (c : Thread nD τ)) ↦[outSet c 6]{fullShare} f) ∗ ⌜outP V c 6 f⌝) : sProp 𝕄) := by
  unfold ptsIs; rw [outDst_set_6]; iintro ⟨%f, H, %hp⟩; iexists f
  isplitl [H]; · iexact H
  ipureintro; exact outP_intro_6 V c f hp
omit [FloatOps F] in
theorem dst_any_7 (c : Dev nD) : ptsIs c (outDstM7 c) (V.out7 c)
    ⊢ (iprop(∃ f : Buf (Elt F) ((Memref.whole main_v1).view.loc (c : Thread nD τ)), (((Memref.whole main_v1).view.loc (c : Thread nD τ)) ↦[outSet c 7]{fullShare} f) ∗ ⌜outP V c 7 f⌝) : sProp 𝕄) := by
  unfold ptsIs; rw [outDst_set_7]; iintro ⟨%f, H, %hp⟩; iexists f
  isplitl [H]; · iexact H
  ipureintro; exact outP_intro_7 V c f hp
omit [FloatOps F] in
theorem dst_any_8 (c : Dev nD) : ptsIs c (outDstM8 c) (V.out8 c)
    ⊢ (iprop(∃ f : Buf (Elt F) ((Memref.whole main_v1).view.loc (c : Thread nD τ)), (((Memref.whole main_v1).view.loc (c : Thread nD τ)) ↦[outSet c 8]{fullShare} f) ∗ ⌜outP V c 8 f⌝) : sProp 𝕄) := by
  unfold ptsIs; rw [outDst_set_8]; iintro ⟨%f, H, %hp⟩; iexists f
  isplitl [H]; · iexact H
  ipureintro; exact outP_intro_8 V c f hp
omit [FloatOps F] in
theorem dst_any_9 (c : Dev nD) : ptsIs c (outDstM9 c) (V.out9 c)
    ⊢ (iprop(∃ f : Buf (Elt F) ((Memref.whole main_v1).view.loc (c : Thread nD τ)), (((Memref.whole main_v1).view.loc (c : Thread nD τ)) ↦[outSet c 9]{fullShare} f) ∗ ⌜outP V c 9 f⌝) : sProp 𝕄) := by
  unfold ptsIs; rw [outDst_set_9]; iintro ⟨%f, H, %hp⟩; iexists f
  isplitl [H]; · iexact H
  ipureintro; exact outP_intro_9 V c f hp
omit [FloatOps F] in
theorem dst_any_10 (c : Dev nD) : ptsIs c (outDstM10 c) (V.out10 c)
    ⊢ (iprop(∃ f : Buf (Elt F) ((Memref.whole main_v1).view.loc (c : Thread nD τ)), (((Memref.whole main_v1).view.loc (c : Thread nD τ)) ↦[outSet c 10]{fullShare} f) ∗ ⌜outP V c 10 f⌝) : sProp 𝕄) := by
  unfold ptsIs; rw [outDst_set_10]; iintro ⟨%f, H, %hp⟩; iexists f
  isplitl [H]; · iexact H
  ipureintro; exact outP_intro_10 V c f hp
omit [FloatOps F] in
theorem dst_any_11 (c : Dev nD) : ptsIs c (outDstM11 c) (V.out11 c)
    ⊢ (iprop(∃ f : Buf (Elt F) ((Memref.whole main_v1).view.loc (c : Thread nD τ)), (((Memref.whole main_v1).view.loc (c : Thread nD τ)) ↦[outSet c 11]{fullShare} f) ∗ ⌜outP V c 11 f⌝) : sProp 𝕄) := by
  unfold ptsIs; rw [outDst_set_11]; iintro ⟨%f, H, %hp⟩; iexists f
  isplitl [H]; · iexact H
  ipureintro; exact outP_intro_11 V c f hp
omit [FloatOps F] in
theorem dst_any_12 (c : Dev nD) : ptsIs c (outDstM12 c) (V.out12 c)
    ⊢ (iprop(∃ f : Buf (Elt F) ((Memref.whole main_v1).view.loc (c : Thread nD τ)), (((Memref.whole main_v1).view.loc (c : Thread nD τ)) ↦[outSet c 12]{fullShare} f) ∗ ⌜outP V c 12 f⌝) : sProp 𝕄) := by
  unfold ptsIs; rw [outDst_set_12]; iintro ⟨%f, H, %hp⟩; iexists f
  isplitl [H]; · iexact H
  ipureintro; exact outP_intro_12 V c f hp
omit [FloatOps F] in
theorem dst_any_13 (c : Dev nD) : ptsIs c (outDstM13 c) (V.out13 c)
    ⊢ (iprop(∃ f : Buf (Elt F) ((Memref.whole main_v1).view.loc (c : Thread nD τ)), (((Memref.whole main_v1).view.loc (c : Thread nD τ)) ↦[outSet c 13]{fullShare} f) ∗ ⌜outP V c 13 f⌝) : sProp 𝕄) := by
  unfold ptsIs; rw [outDst_set_13]; iintro ⟨%f, H, %hp⟩; iexists f
  isplitl [H]; · iexact H
  ipureintro; exact outP_intro_13 V c f hp
omit [FloatOps F] in
theorem dst_any_14 (c : Dev nD) : ptsIs c (outDstM14 c) (V.out14 c)
    ⊢ (iprop(∃ f : Buf (Elt F) ((Memref.whole main_v1).view.loc (c : Thread nD τ)), (((Memref.whole main_v1).view.loc (c : Thread nD τ)) ↦[outSet c 14]{fullShare} f) ∗ ⌜outP V c 14 f⌝) : sProp 𝕄) := by
  unfold ptsIs; rw [outDst_set_14]; iintro ⟨%f, H, %hp⟩; iexists f
  isplitl [H]; · iexact H
  ipureintro; exact outP_intro_14 V c f hp
omit [FloatOps F] in
theorem dst_any_15 (c : Dev nD) : ptsIs c (outDstM15 c) (V.out15 c)
    ⊢ (iprop(∃ f : Buf (Elt F) ((Memref.whole main_v1).view.loc (c : Thread nD τ)), (((Memref.whole main_v1).view.loc (c : Thread nD τ)) ↦[outSet c 15]{fullShare} f) ∗ ⌜outP V c 15 f⌝) : sProp 𝕄) := by
  unfold ptsIs; rw [outDst_set_15]; iintro ⟨%f, H, %hp⟩; iexists f
  isplitl [H]; · iexact H
  ipureintro; exact outP_intro_15 V c f hp
omit [FloatOps F] in
theorem dst_any_16 (c : Dev nD) : ptsIs c (outDstM16 c) (V.out16 c)
    ⊢ (iprop(∃ f : Buf (Elt F) ((Memref.whole main_v1).view.loc (c : Thread nD τ)), (((Memref.whole main_v1).view.loc (c : Thread nD τ)) ↦[outSet c 16]{fullShare} f) ∗ ⌜outP V c 16 f⌝) : sProp 𝕄) := by
  unfold ptsIs; rw [outDst_set_16]; iintro ⟨%f, H, %hp⟩; iexists f
  isplitl [H]; · iexact H
  ipureintro; exact outP_intro_16 V c f hp
omit [FloatOps F] in
theorem dst_any_17 (c : Dev nD) : ptsIs c (outDstM17 c) (V.out17 c)
    ⊢ (iprop(∃ f : Buf (Elt F) ((Memref.whole main_v1).view.loc (c : Thread nD τ)), (((Memref.whole main_v1).view.loc (c : Thread nD τ)) ↦[outSet c 17]{fullShare} f) ∗ ⌜outP V c 17 f⌝) : sProp 𝕄) := by
  unfold ptsIs; rw [outDst_set_17]; iintro ⟨%f, H, %hp⟩; iexists f
  isplitl [H]; · iexact H
  ipureintro; exact outP_intro_17 V c f hp
omit [FloatOps F] in
theorem dst_any_18 (c : Dev nD) : ptsIs c (outDstM18 c) (V.out18 c)
    ⊢ (iprop(∃ f : Buf (Elt F) ((Memref.whole main_v1).view.loc (c : Thread nD τ)), (((Memref.whole main_v1).view.loc (c : Thread nD τ)) ↦[outSet c 18]{fullShare} f) ∗ ⌜outP V c 18 f⌝) : sProp 𝕄) := by
  unfold ptsIs; rw [outDst_set_18]; iintro ⟨%f, H, %hp⟩; iexists f
  isplitl [H]; · iexact H
  ipureintro; exact outP_intro_18 V c f hp
omit [FloatOps F] in
theorem dst_any_19 (c : Dev nD) : ptsIs c (outDstM19 c) (V.out19 c)
    ⊢ (iprop(∃ f : Buf (Elt F) ((Memref.whole main_v1).view.loc (c : Thread nD τ)), (((Memref.whole main_v1).view.loc (c : Thread nD τ)) ↦[outSet c 19]{fullShare} f) ∗ ⌜outP V c 19 f⌝) : sProp 𝕄) := by
  unfold ptsIs; rw [outDst_set_19]; iintro ⟨%f, H, %hp⟩; iexists f
  isplitl [H]; · iexact H
  ipureintro; exact outP_intro_19 V c f hp
omit [FloatOps F] in
theorem dst_any_20 (c : Dev nD) : ptsIs c (outDstM20 c) (V.out20 c)
    ⊢ (iprop(∃ f : Buf (Elt F) ((Memref.whole main_v1).view.loc (c : Thread nD τ)), (((Memref.whole main_v1).view.loc (c : Thread nD τ)) ↦[outSet c 20]{fullShare} f) ∗ ⌜outP V c 20 f⌝) : sProp 𝕄) := by
  unfold ptsIs; rw [outDst_set_20]; iintro ⟨%f, H, %hp⟩; iexists f
  isplitl [H]; · iexact H
  ipureintro; exact outP_intro_20 V c f hp
omit [FloatOps F] in
theorem dst_any_21 (c : Dev nD) : ptsIs c (outDstM21 c) (V.out21 c)
    ⊢ (iprop(∃ f : Buf (Elt F) ((Memref.whole main_v1).view.loc (c : Thread nD τ)), (((Memref.whole main_v1).view.loc (c : Thread nD τ)) ↦[outSet c 21]{fullShare} f) ∗ ⌜outP V c 21 f⌝) : sProp 𝕄) := by
  unfold ptsIs; rw [outDst_set_21]; iintro ⟨%f, H, %hp⟩; iexists f
  isplitl [H]; · iexact H
  ipureintro; exact outP_intro_21 V c f hp
omit [FloatOps F] in
theorem dst_any_22 (c : Dev nD) : ptsIs c (outDstM22 c) (V.out22 c)
    ⊢ (iprop(∃ f : Buf (Elt F) ((Memref.whole main_v1).view.loc (c : Thread nD τ)), (((Memref.whole main_v1).view.loc (c : Thread nD τ)) ↦[outSet c 22]{fullShare} f) ∗ ⌜outP V c 22 f⌝) : sProp 𝕄) := by
  unfold ptsIs; rw [outDst_set_22]; iintro ⟨%f, H, %hp⟩; iexists f
  isplitl [H]; · iexact H
  ipureintro; exact outP_intro_22 V c f hp
omit [FloatOps F] in
theorem dst_any_23 (c : Dev nD) : ptsIs c (outDstM23 c) (V.out23 c)
    ⊢ (iprop(∃ f : Buf (Elt F) ((Memref.whole main_v1).view.loc (c : Thread nD τ)), (((Memref.whole main_v1).view.loc (c : Thread nD τ)) ↦[outSet c 23]{fullShare} f) ∗ ⌜outP V c 23 f⌝) : sProp 𝕄) := by
  unfold ptsIs; rw [outDst_set_23]; iintro ⟨%f, H, %hp⟩; iexists f
  isplitl [H]; · iexact H
  ipureintro; exact outP_intro_23 V c f hp

/-- The result array's 24 blocks, each reading something of which its result predicate holds. -/
def dstLit (c : Dev nD) : sProp 𝕄 :=
  iprop(ptsIs c (outDstM0 c) (V.out0 c)
    ∗ ptsIs c (outDstM1 c) (V.out1 c)
    ∗ ptsIs c (outDstM2 c) (V.out2 c)
    ∗ ptsIs c (outDstM3 c) (V.out3 c)
    ∗ ptsIs c (outDstM4 c) (V.out4 c)
    ∗ ptsIs c (outDstM5 c) (V.out5 c)
    ∗ ptsIs c (outDstM6 c) (V.out6 c)
    ∗ ptsIs c (outDstM7 c) (V.out7 c)
    ∗ ptsIs c (outDstM8 c) (V.out8 c)
    ∗ ptsIs c (outDstM9 c) (V.out9 c)
    ∗ ptsIs c (outDstM10 c) (V.out10 c)
    ∗ ptsIs c (outDstM11 c) (V.out11 c)
    ∗ ptsIs c (outDstM12 c) (V.out12 c)
    ∗ ptsIs c (outDstM13 c) (V.out13 c)
    ∗ ptsIs c (outDstM14 c) (V.out14 c)
    ∗ ptsIs c (outDstM15 c) (V.out15 c)
    ∗ ptsIs c (outDstM16 c) (V.out16 c)
    ∗ ptsIs c (outDstM17 c) (V.out17 c)
    ∗ ptsIs c (outDstM18 c) (V.out18 c)
    ∗ ptsIs c (outDstM19 c) (V.out19 c)
    ∗ ptsIs c (outDstM20 c) (V.out20 c)
    ∗ ptsIs c (outDstM21 c) (V.out21 c)
    ∗ ptsIs c (outDstM22 c) (V.out22 c)
    ∗ ptsIs c (outDstM23 c) (V.out23 c))

theorem dst_whole (c : Dev nD) : dstLit V c
    ⊢ iprop(∃ g, outWhole c g ∗ ⌜V.out0 c ((outDstM0 c).view.read (Elt F) g) ∧ V.out1 c ((outDstM1 c).view.read (Elt F) g) ∧ V.out2 c ((outDstM2 c).view.read (Elt F) g) ∧ V.out3 c ((outDstM3 c).view.read (Elt F) g) ∧ V.out4 c ((outDstM4 c).view.read (Elt F) g) ∧ V.out5 c ((outDstM5 c).view.read (Elt F) g) ∧ V.out6 c ((outDstM6 c).view.read (Elt F) g) ∧ V.out7 c ((outDstM7 c).view.read (Elt F) g) ∧ V.out8 c ((outDstM8 c).view.read (Elt F) g) ∧ V.out9 c ((outDstM9 c).view.read (Elt F) g) ∧ V.out10 c ((outDstM10 c).view.read (Elt F) g) ∧ V.out11 c ((outDstM11 c).view.read (Elt F) g) ∧ V.out12 c ((outDstM12 c).view.read (Elt F) g) ∧ V.out13 c ((outDstM13 c).view.read (Elt F) g) ∧ V.out14 c ((outDstM14 c).view.read (Elt F) g) ∧ V.out15 c ((outDstM15 c).view.read (Elt F) g) ∧ V.out16 c ((outDstM16 c).view.read (Elt F) g) ∧ V.out17 c ((outDstM17 c).view.read (Elt F) g) ∧ V.out18 c ((outDstM18 c).view.read (Elt F) g) ∧ V.out19 c ((outDstM19 c).view.read (Elt F) g) ∧ V.out20 c ((outDstM20 c).view.read (Elt F) g) ∧ V.out21 c ((outDstM21 c).view.read (Elt F) g) ∧ V.out22 c ((outDstM22 c).view.read (Elt F) g) ∧ V.out23 c ((outDstM23 c).view.read (Elt F) g)⌝) := by
  unfold dstLit
  refine BIBase.Entails.trans (BIClass.sep_mono (dst_any_0 V c) (BIClass.sep_mono (dst_any_1 V c) (BIClass.sep_mono (dst_any_2 V c) (BIClass.sep_mono (dst_any_3 V c) (BIClass.sep_mono (dst_any_4 V c) (BIClass.sep_mono (dst_any_5 V c) (BIClass.sep_mono (dst_any_6 V c) (BIClass.sep_mono (dst_any_7 V c) (BIClass.sep_mono (dst_any_8 V c) (BIClass.sep_mono (dst_any_9 V c) (BIClass.sep_mono (dst_any_10 V c) (BIClass.sep_mono (dst_any_11 V c) (BIClass.sep_mono (dst_any_12 V c) (BIClass.sep_mono (dst_any_13 V c) (BIClass.sep_mono (dst_any_14 V c) (BIClass.sep_mono (dst_any_15 V c) (BIClass.sep_mono (dst_any_16 V c) (BIClass.sep_mono (dst_any_17 V c) (BIClass.sep_mono (dst_any_18 V c) (BIClass.sep_mono (dst_any_19 V c) (BIClass.sep_mono (dst_any_20 V c) (BIClass.sep_mono (dst_any_21 V c) (BIClass.sep_mono (dst_any_22 V c) (dst_any_23 V c)))))))))))))))))))))))) ?_
  refine BIBase.Entails.trans (Entails.of_eq (sep_fin24 (fun j : Fin 24 => (iprop(∃ f : Buf (Elt F) ((Memref.whole main_v1).view.loc (c : Thread nD τ)), (((Memref.whole main_v1).view.loc (c : Thread nD τ)) ↦[outSet c j]{fullShare} f) ∗ ⌜outP V c j f⌝) : sProp 𝕄))).symm) ?_
  refine BIBase.Entails.trans (dst_join c (outP V c) (outP_congr V c)) ?_
  iintro ⟨%g, Hg, %hg⟩
  iexists g
  isplitl [Hg]; · unfold outWhole; iexact Hg
  ipureintro
  exact ⟨(hg 0).1 rfl, (hg 1).2.1 rfl, (hg 2).2.2.1 rfl, (hg 3).2.2.2.1 rfl, (hg 4).2.2.2.2.1 rfl, (hg 5).2.2.2.2.2.1 rfl, (hg 6).2.2.2.2.2.2.1 rfl, (hg 7).2.2.2.2.2.2.2.1 rfl, (hg 8).2.2.2.2.2.2.2.2.1 rfl, (hg 9).2.2.2.2.2.2.2.2.2.1 rfl, (hg 10).2.2.2.2.2.2.2.2.2.2.1 rfl, (hg 11).2.2.2.2.2.2.2.2.2.2.2.1 rfl, (hg 12).2.2.2.2.2.2.2.2.2.2.2.2.1 rfl, (hg 13).2.2.2.2.2.2.2.2.2.2.2.2.2.1 rfl, (hg 14).2.2.2.2.2.2.2.2.2.2.2.2.2.2.1 rfl, (hg 15).2.2.2.2.2.2.2.2.2.2.2.2.2.2.2.1 rfl, (hg 16).2.2.2.2.2.2.2.2.2.2.2.2.2.2.2.2.1 rfl, (hg 17).2.2.2.2.2.2.2.2.2.2.2.2.2.2.2.2.2.1 rfl, (hg 18).2.2.2.2.2.2.2.2.2.2.2.2.2.2.2.2.2.2.1 rfl, (hg 19).2.2.2.2.2.2.2.2.2.2.2.2.2.2.2.2.2.2.2.1 rfl, (hg 20).2.2.2.2.2.2.2.2.2.2.2.2.2.2.2.2.2.2.2.2.1 rfl, (hg 21).2.2.2.2.2.2.2.2.2.2.2.2.2.2.2.2.2.2.2.2.2.1 rfl, (hg 22).2.2.2.2.2.2.2.2.2.2.2.2.2.2.2.2.2.2.2.2.2.2.1 rfl, (hg 23).2.2.2.2.2.2.2.2.2.2.2.2.2.2.2.2.2.2.2.2.2.2.2 rfl⟩

end Cert.KernelIdeal.Proto

end
-- ==== Proof.EpilogueClose.lean ====
/-
A device's positions at the end of its body: past the one round of each of its 96 transfer and copy cells.
-/
import proofs.«900882_g7700000000000883_dist_matmul_gelu_kshard_i_m2048_n2048_k1024_v7x_i8_f32_1_alg».proof.Proof.EpilogueTab

set_option maxRecDepth 100000

noncomputable section

namespace Cert.KernelIdeal.Proto

open Cert.KernelIdeal Cert.KernelIdeal.Gen Cert.KernelIdeal.Topo
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (V : Vals F)

/-- Device c past round 0 of each of its 96 cells other than the barrier's, nothing of round 1 taken. -/
def pos1Lit (c : Dev nD) : sProp 𝕄 :=
  iprop(atPos ER (cell c (CK.rsS 0 0)) 1 ∅ 0
    ∗ atPos ER (cell c (CK.rsS 0 1)) 1 ∅ 0
    ∗ atPos ER (cell c (CK.rsS 0 2)) 1 ∅ 0
    ∗ atPos ER (cell c (CK.rsS 1 0)) 1 ∅ 0
    ∗ atPos ER (cell c (CK.rsS 1 1)) 1 ∅ 0
    ∗ atPos ER (cell c (CK.rsS 1 2)) 1 ∅ 0
    ∗ atPos ER (cell c (CK.rsS 2 0)) 1 ∅ 0
    ∗ atPos ER (cell c (CK.rsS 2 1)) 1 ∅ 0
    ∗ atPos ER (cell c (CK.rsS 2 2)) 1 ∅ 0
    ∗ atPos ER (cell c (CK.rsS 3 0)) 1 ∅ 0
    ∗ atPos ER (cell c (CK.rsS 3 1)) 1 ∅ 0
    ∗ atPos ER (cell c (CK.rsS 3 2)) 1 ∅ 0
    ∗ atPos ER (cell c (CK.rsS 4 0)) 1 ∅ 0
    ∗ atPos ER (cell c (CK.rsS 4 1)) 1 ∅ 0
    ∗ atPos ER (cell c (CK.rsS 4 2)) 1 ∅ 0
    ∗ atPos ER (cell c (CK.rsS 5 0)) 1 ∅ 0
    ∗ atPos ER (cell c (CK.rsS 5 1)) 1 ∅ 0
    ∗ atPos ER (cell c (CK.rsS 5 2)) 1 ∅ 0
    ∗ atPos ER (cell c (CK.rsR 0 0)) 1 ∅ 0
    ∗ atPos ER (cell c (CK.rsR 0 1)) 1 ∅ 0
    ∗ atPos ER (cell c (CK.rsR 0 2)) 1 ∅ 0
    ∗ atPos ER (cell c (CK.rsR 1 0)) 1 ∅ 0
    ∗ atPos ER (cell c (CK.rsR 1 1)) 1 ∅ 0
    ∗ atPos ER (cell c (CK.rsR 1 2)) 1 ∅ 0
    ∗ atPos ER (cell c (CK.rsR 2 0)) 1 ∅ 0
    ∗ atPos ER (cell c (CK.rsR 2 1)) 1 ∅ 0
    ∗ atPos ER (cell c (CK.rsR 2 2)) 1 ∅ 0
    ∗ atPos ER (cell c (CK.rsR 3 0)) 1 ∅ 0
    ∗ atPos ER (cell c (CK.rsR 3 1)) 1 ∅ 0
    ∗ atPos ER (cell c (CK.rsR 3 2)) 1 ∅ 0
    ∗ atPos ER (cell c (CK.rsR 4 0)) 1 ∅ 0
    ∗ atPos ER (cell c (CK.rsR 4 1)) 1 ∅ 0
    ∗ atPos ER (cell c (CK.rsR 4 2)) 1 ∅ 0
    ∗ atPos ER (cell c (CK.rsR 5 0)) 1 ∅ 0
    ∗ atPos ER (cell c (CK.rsR 5 1)) 1 ∅ 0
    ∗ atPos ER (cell c (CK.rsR 5 2)) 1 ∅ 0
    ∗ atPos ER (cell c (CK.agS 0 0)) 1 ∅ 0
    ∗ atPos ER (cell c (CK.agS 0 1)) 1 ∅ 0
    ∗ atPos ER (cell c (CK.agS 0 2)) 1 ∅ 0
    ∗ atPos ER (cell c (CK.agS 1 0)) 1 ∅ 0
    ∗ atPos ER (cell c (CK.agS 1 1)) 1 ∅ 0
    ∗ atPos ER (cell c (CK.agS 1 2)) 1 ∅ 0
    ∗ atPos ER (cell c (CK.agS 2 0)) 1 ∅ 0
    ∗ atPos ER (cell c (CK.agS 2 1)) 1 ∅ 0
    ∗ atPos ER (cell c (CK.agS 2 2)) 1 ∅ 0
    ∗ atPos ER (cell c (CK.agS 3 0)) 1 ∅ 0
    ∗ atPos ER (cell c (CK.agS 3 1)) 1 ∅ 0
    ∗ atPos ER (cell c (CK.agS 3 2)) 1 ∅ 0
    ∗ atPos ER (cell c (CK.agS 4 0)) 1 ∅ 0
    ∗ atPos ER (cell c (CK.agS 4 1)) 1 ∅ 0
    ∗ atPos ER (cell c (CK.agS 4 2)) 1 ∅ 0
    ∗ atPos ER (cell c (CK.agS 5 0)) 1 ∅ 0
    ∗ atPos ER (cell c (CK.agS 5 1)) 1 ∅ 0
    ∗ atPos ER (cell c (CK.agS 5 2)) 1 ∅ 0
    ∗ atPos ER (cell c (CK.agR 0 0)) 1 ∅ 0
    ∗ atPos ER (cell c (CK.agR 0 1)) 1 ∅ 0
    ∗ atPos ER (cell c (CK.agR 0 2)) 1 ∅ 0
    ∗ atPos ER (cell c (CK.agR 1 0)) 1 ∅ 0
    ∗ atPos ER (cell c (CK.agR 1 1)) 1 ∅ 0
    ∗ atPos ER (cell c (CK.agR 1 2)) 1 ∅ 0
    ∗ atPos ER (cell c (CK.agR 2 0)) 1 ∅ 0
    ∗ atPos ER (cell c (CK.agR 2 1)) 1 ∅ 0
    ∗ atPos ER (cell c (CK.agR 2 2)) 1 ∅ 0
    ∗ atPos ER (cell c (CK.agR 3 0)) 1 ∅ 0
    ∗ atPos ER (cell c (CK.agR 3 1)) 1 ∅ 0
    ∗ atPos ER (cell c (CK.agR 3 2)) 1 ∅ 0
    ∗ atPos ER (cell c (CK.agR 4 0)) 1 ∅ 0
    ∗ atPos ER (cell c (CK.agR 4 1)) 1 ∅ 0
    ∗ atPos ER (cell c (CK.agR 4 2)) 1 ∅ 0
    ∗ atPos ER (cell c (CK.agR 5 0)) 1 ∅ 0
    ∗ atPos ER (cell c (CK.agR 5 1)) 1 ∅ 0
    ∗ atPos ER (cell c (CK.agR 5 2)) 1 ∅ 0
    ∗ atPos ER (cell c (CK.out 0)) 1 ∅ 0
    ∗ atPos ER (cell c (CK.out 1)) 1 ∅ 0
    ∗ atPos ER (cell c (CK.out 2)) 1 ∅ 0
    ∗ atPos ER (cell c (CK.out 3)) 1 ∅ 0
    ∗ atPos ER (cell c (CK.out 4)) 1 ∅ 0
    ∗ atPos ER (cell c (CK.out 5)) 1 ∅ 0
    ∗ atPos ER (cell c (CK.out 6)) 1 ∅ 0
    ∗ atPos ER (cell c (CK.out 7)) 1 ∅ 0
    ∗ atPos ER (cell c (CK.out 8)) 1 ∅ 0
    ∗ atPos ER (cell c (CK.out 9)) 1 ∅ 0
    ∗ atPos ER (cell c (CK.out 10)) 1 ∅ 0
    ∗ atPos ER (cell c (CK.out 11)) 1 ∅ 0
    ∗ atPos ER (cell c (CK.out 12)) 1 ∅ 0
    ∗ atPos ER (cell c (CK.out 13)) 1 ∅ 0
    ∗ atPos ER (cell c (CK.out 14)) 1 ∅ 0
    ∗ atPos ER (cell c (CK.out 15)) 1 ∅ 0
    ∗ atPos ER (cell c (CK.out 16)) 1 ∅ 0
    ∗ atPos ER (cell c (CK.out 17)) 1 ∅ 0
    ∗ atPos ER (cell c (CK.out 18)) 1 ∅ 0
    ∗ atPos ER (cell c (CK.out 19)) 1 ∅ 0
    ∗ atPos ER (cell c (CK.out 20)) 1 ∅ 0
    ∗ atPos ER (cell c (CK.out 21)) 1 ∅ 0
    ∗ atPos ER (cell c (CK.out 22)) 1 ∅ 0
    ∗ atPos ER (cell c (CK.out 23)) 1 ∅ 0)

omit [FloatOps F] in
theorem pos1Lit_eq (c : Dev nD) : (pos1Lit c : sProp 𝕄) = bigSep (Finset.univ.erase (0 : Fin 97)) fun i => atPos ER (cell c (ckOf i)) 1 ∅ 0 := by
  unfold pos1Lit; rw [zero_chain]; simp only [ckOf_lit_1, ckOf_lit_2, ckOf_lit_3, ckOf_lit_4, ckOf_lit_5, ckOf_lit_6, ckOf_lit_7, ckOf_lit_8, ckOf_lit_9, ckOf_lit_10, ckOf_lit_11, ckOf_lit_12, ckOf_lit_13, ckOf_lit_14, ckOf_lit_15, ckOf_lit_16, ckOf_lit_17, ckOf_lit_18, ckOf_lit_19, ckOf_lit_20, ckOf_lit_21, ckOf_lit_22, ckOf_lit_23, ckOf_lit_24, ckOf_lit_25, ckOf_lit_26, ckOf_lit_27, ckOf_lit_28, ckOf_lit_29, ckOf_lit_30, ckOf_lit_31, ckOf_lit_32, ckOf_lit_33, ckOf_lit_34, ckOf_lit_35, ckOf_lit_36, ckOf_lit_37, ckOf_lit_38, ckOf_lit_39, ckOf_lit_40, ckOf_lit_41, ckOf_lit_42, ckOf_lit_43, ckOf_lit_44, ckOf_lit_45, ckOf_lit_46, ckOf_lit_47, ckOf_lit_48, ckOf_lit_49, ckOf_lit_50, ckOf_lit_51, ckOf_lit_52, ckOf_lit_53, ckOf_lit_54, ckOf_lit_55, ckOf_lit_56, ckOf_lit_57, ckOf_lit_58, ckOf_lit_59, ckOf_lit_60, ckOf_lit_61, ckOf_lit_62, ckOf_lit_63, ckOf_lit_64, ckOf_lit_65, ckOf_lit_66, ckOf_lit_67, ckOf_lit_68, ckOf_lit_69, ckOf_lit_70, ckOf_lit_71, ckOf_lit_72, ckOf_lit_73, ckOf_lit_74, ckOf_lit_75, ckOf_lit_76, ckOf_lit_77, ckOf_lit_78, ckOf_lit_79, ckOf_lit_80, ckOf_lit_81, ckOf_lit_82, ckOf_lit_83, ckOf_lit_84, ckOf_lit_85, ckOf_lit_86, ckOf_lit_87, ckOf_lit_88, ckOf_lit_89, ckOf_lit_90, ckOf_lit_91, ckOf_lit_92, ckOf_lit_93, ckOf_lit_94, ckOf_lit_95, ckOf_lit_96]

end Cert.KernelIdeal.Proto

end
-- ==== Proof.EpilogueShare.lean ====
/-
Half shares of a piece come back together: a transfer that only reads a piece borrows the left half of its share;
when the transfer is over the two halves, which agree on the piece's contents, are the whole share again.
-/
import proofs.«900882_g7700000000000883_dist_matmul_gelu_kshard_i_m2048_n2048_k1024_v7x_i8_f32_1_alg».proof.Proof.Start
import proofs.«900882_g7700000000000883_dist_matmul_gelu_kshard_i_m2048_n2048_k1024_v7x_i8_f32_1_alg».proof.Proof.Pieces

noncomputable section

namespace Cert.KernelIdeal.Proto

open Cert.KernelIdeal Cert.KernelIdeal.Gen Cert.KernelIdeal.Topo
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

omit [FloatOps F] in
/-- The left half at contents f and the right half at contents g: they agree, and together are the full share. -/
theorem halves_join {ℓ : Loc nD τ sig} {I : Finset (Idx ℓ)} (f g : Buf (Elt F) ℓ) :
    iprop((ℓ ↦[I]{fullShare.left} f) ∗ (ℓ ↦[I]{fullShare.right} g)) ⊢ (ℓ ↦[I]{fullShare} g : sProp 𝕄) := by
  have hag : iprop((ℓ ↦[I]{fullShare.left} f) ∗ (ℓ ↦[I]{fullShare.right} g))
      ⊢ (iprop(⌜∀ i ∈ I ∩ I, f i = g i ∧ PCS.opDef fullShare.left fullShare.right⌝) : sProp 𝕄) := pointsTo_agree
  have hjoin : iprop((ℓ ↦[I]{fullShare.left} g) ∗ (ℓ ↦[I]{fullShare.right} g)) ⊢ (ℓ ↦[I]{fullShare} g : sProp 𝕄) :=
    (pointsTo_share (PosShare.mem_left_op_right fullShare)).2
  iintro H
  ihave H' := (persistent_entails_right hag) $$ H
  icases H' with ⟨%h, Hl, Hr⟩
  have e : (ℓ ↦[I]{fullShare.left} f : sProp 𝕄) = (ℓ ↦[I]{fullShare.left} g) :=
    pointsTo_congr (fun i hi => (h i (Finset.mem_inter.mpr ⟨hi, hi⟩)).1)
  ihave Hl' := (Entails.of_eq e) $$ Hl
  iapply hjoin
  isplitl [Hl']; · iexact Hl'
  iexact Hr

omit [FloatOps F] in
/-- A piece whose left half was lent to a transfer, the transfer over: the piece is held whole again. -/
theorem lent_back (c : Dev nD) {sp : Space} {s : Shape} {e : EltTy} (M : Memref sig .tc sp s e) (g : Buf (Elt F) (M.view.loc (c : Thread nD τ))) :
    iprop(ptsLent (F := F) c M ∗ (M.view.loc (c : Thread nD τ) ↦[M.view.set]{fullShare.right} g)) ⊢ (ptsAny c M : sProp 𝕄) := by
  unfold ptsLent ptsAny
  iintro ⟨⟨%f, Hl⟩, Hr⟩
  iexists g
  iapply (halves_join f g)
  isplitl [Hl]; · iexact Hl
  iexact Hr

end Cert.KernelIdeal.Proto

end
-- ==== Proof.EpilogueEnd.lean ====
/-
The end state of a device's body, block by block: the landed pieces of its six landing buffers; of each staging
buffer its first 256 rows and the two remainders; of each all-gather buffer the lent left half and the kept right
half of the device's own 1024 rows and the 1024 rows that arrived last; and which scratch buffer each makes whole.
-/
import proofs.«900882_g7700000000000883_dist_matmul_gelu_kshard_i_m2048_n2048_k1024_v7x_i8_f32_1_alg».proof.Proof.EpilogueTab
import proofs.«900882_g7700000000000883_dist_matmul_gelu_kshard_i_m2048_n2048_k1024_v7x_i8_f32_1_alg».proof.Proof.EpilogueOut
import proofs.«900882_g7700000000000883_dist_matmul_gelu_kshard_i_m2048_n2048_k1024_v7x_i8_f32_1_alg».proof.Proof.EpilogueClose
import proofs.«900882_g7700000000000883_dist_matmul_gelu_kshard_i_m2048_n2048_k1024_v7x_i8_f32_1_alg».proof.Proof.EpilogueShare

set_option maxRecDepth 100000

noncomputable section

namespace Cert.KernelIdeal.Proto

open Cert.KernelIdeal Cert.KernelIdeal.Gen Cert.KernelIdeal.Topo
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (V : Vals F)

/-- The eighteen landed pieces, group by group, each at some contents. -/
def commEnd (c : Dev nD) : sProp 𝕄 :=
  iprop((ptsAny (F := F) c commM0_0 ∗ ptsAny (F := F) c commM0_1 ∗ ptsAny (F := F) c commM0_2)
    ∗ (ptsAny (F := F) c commM1_0 ∗ ptsAny (F := F) c commM1_1 ∗ ptsAny (F := F) c commM1_2)
    ∗ (ptsAny (F := F) c commM2_0 ∗ ptsAny (F := F) c commM2_1 ∗ ptsAny (F := F) c commM2_2)
    ∗ (ptsAny (F := F) c commM3_0 ∗ ptsAny (F := F) c commM3_1 ∗ ptsAny (F := F) c commM3_2)
    ∗ (ptsAny (F := F) c commM4_0 ∗ ptsAny (F := F) c commM4_1 ∗ ptsAny (F := F) c commM4_2)
    ∗ (ptsAny (F := F) c commM5_0 ∗ ptsAny (F := F) c commM5_1 ∗ ptsAny (F := F) c commM5_2))

/-- The six staging buffers, each as its first 256 rows and the two remainders, at some contents. -/
def stgEnd (c : Dev nD) : sProp 𝕄 :=
  iprop((ptsAny (F := F) c stgM0_2 ∗ (∃ f : Buf (Elt F) ((c : Thread nD τ).loc cc0_scratch7), ((c : Thread nD τ).loc cc0_scratch7) ↦[(stgM0_1).view.set \ (stgM0_2).view.set]{fullShare} f) ∗ (∃ f : Buf (Elt F) ((c : Thread nD τ).loc cc0_scratch7), ((c : Thread nD τ).loc cc0_scratch7) ↦[(stgM0_0).view.set \ (stgM0_1).view.set]{fullShare} f))
    ∗ (ptsAny (F := F) c stgM1_2 ∗ (∃ f : Buf (Elt F) ((c : Thread nD τ).loc cc0_scratch8), ((c : Thread nD τ).loc cc0_scratch8) ↦[(stgM1_1).view.set \ (stgM1_2).view.set]{fullShare} f) ∗ (∃ f : Buf (Elt F) ((c : Thread nD τ).loc cc0_scratch8), ((c : Thread nD τ).loc cc0_scratch8) ↦[(stgM1_0).view.set \ (stgM1_1).view.set]{fullShare} f))
    ∗ (ptsAny (F := F) c stgM2_2 ∗ (∃ f : Buf (Elt F) ((c : Thread nD τ).loc cc0_scratch9), ((c : Thread nD τ).loc cc0_scratch9) ↦[(stgM2_1).view.set \ (stgM2_2).view.set]{fullShare} f) ∗ (∃ f : Buf (Elt F) ((c : Thread nD τ).loc cc0_scratch9), ((c : Thread nD τ).loc cc0_scratch9) ↦[(stgM2_0).view.set \ (stgM2_1).view.set]{fullShare} f))
    ∗ (ptsAny (F := F) c stgM3_2 ∗ (∃ f : Buf (Elt F) ((c : Thread nD τ).loc cc0_scratch10), ((c : Thread nD τ).loc cc0_scratch10) ↦[(stgM3_1).view.set \ (stgM3_2).view.set]{fullShare} f) ∗ (∃ f : Buf (Elt F) ((c : Thread nD τ).loc cc0_scratch10), ((c : Thread nD τ).loc cc0_scratch10) ↦[(stgM3_0).view.set \ (stgM3_1).view.set]{fullShare} f))
    ∗ (ptsAny (F := F) c stgM4_2 ∗ (∃ f : Buf (Elt F) ((c : Thread nD τ).loc cc0_scratch11), ((c : Thread nD τ).loc cc0_scratch11) ↦[(stgM4_1).view.set \ (stgM4_2).view.set]{fullShare} f) ∗ (∃ f : Buf (Elt F) ((c : Thread nD τ).loc cc0_scratch11), ((c : Thread nD τ).loc cc0_scratch11) ↦[(stgM4_0).view.set \ (stgM4_1).view.set]{fullShare} f))
    ∗ (ptsAny (F := F) c stgM5_2 ∗ (∃ f : Buf (Elt F) ((c : Thread nD τ).loc cc0_scratch12), ((c : Thread nD τ).loc cc0_scratch12) ↦[(stgM5_1).view.set \ (stgM5_2).view.set]{fullShare} f) ∗ (∃ f : Buf (Elt F) ((c : Thread nD τ).loc cc0_scratch12), ((c : Thread nD τ).loc cc0_scratch12) ↦[(stgM5_0).view.set \ (stgM5_1).view.set]{fullShare} f)))

/-- The six all-gather buffers: of the device's own 1024 rows the lent left half and the kept right half, and the
    1024 rows that arrived at the last step, at some contents. -/
def agEnd (c : Dev nD) : sProp 𝕄 :=
  iprop((ptsLent (F := F) c (agM0_2 c) ∗ (∃ g : Buf (Elt F) ((agM0_2 c).view.loc (c : Thread nD τ)), (agM0_2 c).view.loc (c : Thread nD τ) ↦[(agM0_2 c).view.set]{fullShare.right} g) ∗ ptsAny (F := F) c (agM0_2 (nbr 0 c)))
    ∗ (ptsLent (F := F) c (agM1_2 c) ∗ (∃ g : Buf (Elt F) ((agM1_2 c).view.loc (c : Thread nD τ)), (agM1_2 c).view.loc (c : Thread nD τ) ↦[(agM1_2 c).view.set]{fullShare.right} g) ∗ ptsAny (F := F) c (agM1_2 (nbr 1 c)))
    ∗ (ptsLent (F := F) c (agM2_2 c) ∗ (∃ g : Buf (Elt F) ((agM2_2 c).view.loc (c : Thread nD τ)), (agM2_2 c).view.loc (c : Thread nD τ) ↦[(agM2_2 c).view.set]{fullShare.right} g) ∗ ptsAny (F := F) c (agM2_2 (nbr 2 c)))
    ∗ (ptsLent (F := F) c (agM3_2 c) ∗ (∃ g : Buf (Elt F) ((agM3_2 c).view.loc (c : Thread nD τ)), (agM3_2 c).view.loc (c : Thread nD τ) ↦[(agM3_2 c).view.set]{fullShare.right} g) ∗ ptsAny (F := F) c (agM3_2 (nbr 0 c)))
    ∗ (ptsLent (F := F) c (agM4_2 c) ∗ (∃ g : Buf (Elt F) ((agM4_2 c).view.loc (c : Thread nD τ)), (agM4_2 c).view.loc (c : Thread nD τ) ↦[(agM4_2 c).view.set]{fullShare.right} g) ∗ ptsAny (F := F) c (agM4_2 (nbr 1 c)))
    ∗ (ptsLent (F := F) c (agM5_2 c) ∗ (∃ g : Buf (Elt F) ((agM5_2 c).view.loc (c : Thread nD τ)), (agM5_2 c).view.loc (c : Thread nD τ) ↦[(agM5_2 c).view.set]{fullShare.right} g) ∗ ptsAny (F := F) c (agM5_2 (nbr 2 c))))

/-- What is known of the result array's reading, block by block. -/
def outFacts (c : Dev nD) (g : Buf (Elt F) ((Memref.whole main_v1).view.loc (c : Thread nD τ))) : Prop :=
  V.out0 c ((outDstM0 c).view.read (Elt F) g) ∧ V.out1 c ((outDstM1 c).view.read (Elt F) g) ∧ V.out2 c ((outDstM2 c).view.read (Elt F) g) ∧ V.out3 c ((outDstM3 c).view.read (Elt F) g) ∧ V.out4 c ((outDstM4 c).view.read (Elt F) g) ∧ V.out5 c ((outDstM5 c).view.read (Elt F) g) ∧ V.out6 c ((outDstM6 c).view.read (Elt F) g) ∧ V.out7 c ((outDstM7 c).view.read (Elt F) g) ∧ V.out8 c ((outDstM8 c).view.read (Elt F) g) ∧ V.out9 c ((outDstM9 c).view.read (Elt F) g) ∧ V.out10 c ((outDstM10 c).view.read (Elt F) g) ∧ V.out11 c ((outDstM11 c).view.read (Elt F) g) ∧ V.out12 c ((outDstM12 c).view.read (Elt F) g) ∧ V.out13 c ((outDstM13 c).view.read (Elt F) g) ∧ V.out14 c ((outDstM14 c).view.read (Elt F) g) ∧ V.out15 c ((outDstM15 c).view.read (Elt F) g) ∧ V.out16 c ((outDstM16 c).view.read (Elt F) g) ∧ V.out17 c ((outDstM17 c).view.read (Elt F) g) ∧ V.out18 c ((outDstM18 c).view.read (Elt F) g) ∧ V.out19 c ((outDstM19 c).view.read (Elt F) g) ∧ V.out20 c ((outDstM20 c).view.read (Elt F) g) ∧ V.out21 c ((outDstM21 c).view.read (Elt F) g) ∧ V.out22 c ((outDstM22 c).view.read (Elt F) g) ∧ V.out23 c ((outDstM23 c).view.read (Elt F) g)

theorem dst_facts (c : Dev nD) : dstLit V c ⊢ iprop(∃ g, outWhole c g ∗ ⌜outFacts V c g⌝) := by
  unfold outFacts; exact dst_whole V c

/-- The nineteen scratch buffers whole again, from the accumulator's blocks and the pieces above. -/
theorem scratch_end (c : Dev nD) : iprop(accLit (F := F) c ∗ commEnd (F := F) c ∗ stgEnd (F := F) c ∗ agEnd (F := F) c) ⊢ scratchAny (F := F) c := by
  unfold commEnd stgEnd agEnd scratchAny
  iintro ⟨Hacc, ⟨⟨Hc00, Hc01, Hc02⟩, ⟨Hc10, Hc11, Hc12⟩, ⟨Hc20, Hc21, Hc22⟩, ⟨Hc30, Hc31, Hc32⟩, ⟨Hc40, Hc41, Hc42⟩, ⟨Hc50, Hc51, Hc52⟩⟩, ⟨⟨Hs0, Hr01, Hr00⟩, ⟨Hs1, Hr11, Hr10⟩, ⟨Hs2, Hr21, Hr20⟩, ⟨Hs3, Hr31, Hr30⟩, ⟨Hs4, Hr41, Hr40⟩, ⟨Hs5, Hr51, Hr50⟩⟩, ⟨⟨Hl0, ⟨%g0, Hk0⟩, Ha0⟩, ⟨Hl1, ⟨%g1, Hk1⟩, Ha1⟩, ⟨Hl2, ⟨%g2, Hk2⟩, Ha2⟩, ⟨Hl3, ⟨%g3, Hk3⟩, Ha3⟩, ⟨Hl4, ⟨%g4, Hk4⟩, Ha4⟩, ⟨Hl5, ⟨%g5, Hk5⟩, Ha5⟩⟩⟩
  isplitl [Hacc]; · iapply (acc_whole c); iexact Hacc
  isplitl [Hc00 Hc01 Hc02]
  · iapply (comm_join_0 c)
    isplitl [Hc00]; · iexact Hc00
    isplitl [Hc01]; · iexact Hc01
    iexact Hc02
  isplitl [Hc10 Hc11 Hc12]
  · iapply (comm_join_1 c)
    isplitl [Hc10]; · iexact Hc10
    isplitl [Hc11]; · iexact Hc11
    iexact Hc12
  isplitl [Hc20 Hc21 Hc22]
  · iapply (comm_join_2 c)
    isplitl [Hc20]; · iexact Hc20
    isplitl [Hc21]; · iexact Hc21
    iexact Hc22
  isplitl [Hc30 Hc31 Hc32]
  · iapply (comm_join_3 c)
    isplitl [Hc30]; · iexact Hc30
    isplitl [Hc31]; · iexact Hc31
    iexact Hc32
  isplitl [Hc40 Hc41 Hc42]
  · iapply (comm_join_4 c)
    isplitl [Hc40]; · iexact Hc40
    isplitl [Hc41]; · iexact Hc41
    iexact Hc42
  isplitl [Hc50 Hc51 Hc52]
  · iapply (comm_join_5 c)
    isplitl [Hc50]; · iexact Hc50
    isplitl [Hc51]; · iexact Hc51
    iexact Hc52
  isplitl [Hs0 Hr01 Hr00]
  · iapply (stg_join_0 c)
    isplitl [Hs0]; · iexact Hs0
    isplitl [Hr01]; · iexact Hr01
    iexact Hr00
  isplitl [Hs1 Hr11 Hr10]
  · iapply (stg_join_1 c)
    isplitl [Hs1]; · iexact Hs1
    isplitl [Hr11]; · iexact Hr11
    iexact Hr10
  isplitl [Hs2 Hr21 Hr20]
  · iapply (stg_join_2 c)
    isplitl [Hs2]; · iexact Hs2
    isplitl [Hr21]; · iexact Hr21
    iexact Hr20
  isplitl [Hs3 Hr31 Hr30]
  · iapply (stg_join_3 c)
    isplitl [Hs3]; · iexact Hs3
    isplitl [Hr31]; · iexact Hr31
    iexact Hr30
  isplitl [Hs4 Hr41 Hr40]
  · iapply (stg_join_4 c)
    isplitl [Hs4]; · iexact Hs4
    isplitl [Hr41]; · iexact Hr41
    iexact Hr40
  isplitl [Hs5 Hr51 Hr50]
  · iapply (stg_join_5 c)
    isplitl [Hs5]; · iexact Hs5
    isplitl [Hr51]; · iexact Hr51
    iexact Hr50
  ihave Hf0 := (lent_back c (agM0_2 c) g0) $$ [Hl0 Hk0]
  · isplitl [Hl0]; · iexact Hl0
    iexact Hk0
  ihave Hf1 := (lent_back c (agM1_2 c) g1) $$ [Hl1 Hk1]
  · isplitl [Hl1]; · iexact Hl1
    iexact Hk1
  ihave Hf2 := (lent_back c (agM2_2 c) g2) $$ [Hl2 Hk2]
  · isplitl [Hl2]; · iexact Hl2
    iexact Hk2
  ihave Hf3 := (lent_back c (agM3_2 c) g3) $$ [Hl3 Hk3]
  · isplitl [Hl3]; · iexact Hl3
    iexact Hk3
  ihave Hf4 := (lent_back c (agM4_2 c) g4) $$ [Hl4 Hk4]
  · isplitl [Hl4]; · iexact Hl4
    iexact Hk4
  ihave Hf5 := (lent_back c (agM5_2 c) g5) $$ [Hl5 Hk5]
  · isplitl [Hl5]; · iexact Hl5
    iexact Hk5
  isplitl [Hf0 Ha0]
  · iapply (ag_join_0 c)
    isplitl [Hf0]; · iexact Hf0
    iexact Ha0
  isplitl [Hf1 Ha1]
  · iapply (ag_join_1 c)
    isplitl [Hf1]; · iexact Hf1
    iexact Ha1
  isplitl [Hf2 Ha2]
  · iapply (ag_join_2 c)
    isplitl [Hf2]; · iexact Hf2
    iexact Ha2
  isplitl [Hf3 Ha3]
  · iapply (ag_join_3 c)
    isplitl [Hf3]; · iexact Hf3
    iexact Ha3
  isplitl [Hf4 Ha4]
  · iapply (ag_join_4 c)
    isplitl [Hf4]; · iexact Hf4
    iexact Ha4
  iapply (ag_join_5 c)
  isplitl [Hf5]; · iexact Hf5
  iexact Ha5

end Cert.KernelIdeal.Proto

end
-- ==== Proof.PrologueCut.lean ====
/-
Cutting a whole buffer: along three pairwise disjoint sets that cover it, and along three successive halvings
(the whole is U2 ∪ N2, U2 is U1 ∪ N1, U1 is U0 ∪ N0). A points-to over a disjoint union is the two points-to's
side by side, and a points-to depends on its element set only.
-/
import proofs.«900882_g7700000000000883_dist_matmul_gelu_kshard_i_m2048_n2048_k1024_v7x_i8_f32_1_alg».proof.Proof.Start
import proofs.«900882_g7700000000000883_dist_matmul_gelu_kshard_i_m2048_n2048_k1024_v7x_i8_f32_1_alg».proof.Proof.Pieces

noncomputable section

namespace Cert.KernelIdeal.Proto

open Cert.KernelIdeal Cert.KernelIdeal.Gen Cert.KernelIdeal.Topo
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

omit [FloatOps F] in
/-- A whole buffer along three pairwise disjoint sets that cover it. -/
theorem pts_split3 {ℓ : Loc nD τ sig} {A B C : Finset (Idx ℓ)} {q : PosShare TreeShare} (f : Buf (Elt F) ℓ)
    (hAB : Disjoint A B) (hAC : Disjoint A C) (hBC : Disjoint B C) (hcov : A ∪ B ∪ C = Finset.univ) :
    (ℓ ↦{q} f : sProp 𝕄) ⊢ iprop((ℓ ↦[A]{q} f) ∗ (ℓ ↦[B]{q} f) ∗ (ℓ ↦[C]{q} f)) := by
  rw [show (ℓ ↦{q} f : sProp 𝕄) = (ℓ ↦[A ∪ B ∪ C]{q} f) from pts_set_eq hcov.symm]
  have h2 : (ℓ ↦[A ∪ B ∪ C]{q} f : sProp 𝕄) ⊢ iprop((ℓ ↦[A ∪ B]{q} f) ∗ (ℓ ↦[C]{q} f)) :=
    (Region.is_union (Finset.disjoint_union_left.mpr ⟨hAC, hBC⟩)).1
  have h3 : (ℓ ↦[A ∪ B]{q} f : sProp 𝕄) ⊢ iprop((ℓ ↦[A]{q} f) ∗ (ℓ ↦[B]{q} f)) := (Region.is_union hAB).1
  iintro H
  ihave H2 := h2 $$ H
  icases H2 with ⟨HAB, HC⟩
  ihave H3 := h3 $$ HAB
  icases H3 with ⟨HA, HB⟩
  isplitl [HA]; · iexact HA
  isplitl [HB]; · iexact HB
  iexact HC

omit [FloatOps F] in
/-- A whole buffer halved three times: U2 ∪ N2 the whole, U2 = U1 ∪ N1, U1 = U0 ∪ N0. -/
theorem pts_split4 {ℓ : Loc nD τ sig} {U2 N2 U1 N1 U0 N0 : Finset (Idx ℓ)} {q : PosShare TreeShare} (f : Buf (Elt F) ℓ)
    (hcov : U2 ∪ N2 = Finset.univ) (hd2 : Disjoint U2 N2) (hj1 : U2 = U1 ∪ N1) (hd1 : Disjoint U1 N1)
    (hj0 : U1 = U0 ∪ N0) (hd0 : Disjoint U0 N0) :
    (ℓ ↦{q} f : sProp 𝕄) ⊢ iprop((ℓ ↦[U0]{q} f) ∗ (ℓ ↦[N0]{q} f) ∗ (ℓ ↦[N1]{q} f) ∗ (ℓ ↦[N2]{q} f)) := by
  subst hj1; subst hj0
  rw [show (ℓ ↦{q} f : sProp 𝕄) = (ℓ ↦[(U0 ∪ N0 ∪ N1) ∪ N2]{q} f) from pts_set_eq hcov.symm]
  have h2 : (ℓ ↦[(U0 ∪ N0 ∪ N1) ∪ N2]{q} f : sProp 𝕄) ⊢ iprop((ℓ ↦[U0 ∪ N0 ∪ N1]{q} f) ∗ (ℓ ↦[N2]{q} f)) := (Region.is_union hd2).1
  have h1 : (ℓ ↦[(U0 ∪ N0) ∪ N1]{q} f : sProp 𝕄) ⊢ iprop((ℓ ↦[U0 ∪ N0]{q} f) ∗ (ℓ ↦[N1]{q} f)) := (Region.is_union hd1).1
  have h0 : (ℓ ↦[U0 ∪ N0]{q} f : sProp 𝕄) ⊢ iprop((ℓ ↦[U0]{q} f) ∗ (ℓ ↦[N0]{q} f)) := (Region.is_union hd0).1
  iintro H
  ihave H2 := h2 $$ H
  icases H2 with ⟨HU2, HN2⟩
  ihave H1 := h1 $$ HU2
  icases H1 with ⟨HU1, HN1⟩
  ihave H0 := h0 $$ HU1
  icases H0 with ⟨HU0, HN0⟩
  isplitl [HU0]; · iexact HU0
  isplitl [HN0]; · iexact HN0
  isplitl [HN1]; · iexact HN1
  iexact HN2

omit [FloatOps F] in
/-- A piece held at the full share at contents f is that piece held at some contents. -/
theorem heldW_intro (c : Dev nD) {sp : Space} {s : Shape} {e : EltTy} (M : Memref sig .tc sp s e) (f : Buf (Elt F) (M.view.loc (c : Thread nD τ))) :
    (M.view.loc (c : Thread nD τ) ↦[M.view.set]{fullShare} f : sProp 𝕄) ⊢ iprop(∃ g, heldW c M g) := by
  unfold heldW; iintro H; iexists f; iexact H

end Cert.KernelIdeal.Proto

end
-- ==== Proof.PrologueBufs.lean ====
/-
The buffers of a device's starting state, case by case: landing buffer k (scratch 1 + k) cut into its three pieces;
all-gather buffer k (scratch 13 + k) cut into the device's own rows and the three pieces its neighbours' transfers
fill (the neighbour across axis (k + 2 - s) % 3 at step s); and the pieces handed to the neighbour across axis d
at the barrier: landing piece (k, s) with (k + s) % 3 = d and all-gather piece (k, s) with (k + 2 - s) % 3 = d.
-/
import proofs.«900882_g7700000000000883_dist_matmul_gelu_kshard_i_m2048_n2048_k1024_v7x_i8_f32_1_alg».proof.Proof.PrologueTab
import proofs.«900882_g7700000000000883_dist_matmul_gelu_kshard_i_m2048_n2048_k1024_v7x_i8_f32_1_alg».proof.Proof.PrologueCut
import proofs.«900882_g7700000000000883_dist_matmul_gelu_kshard_i_m2048_n2048_k1024_v7x_i8_f32_1_alg».proof.Proof.PiecesTab

set_option maxRecDepth 100000

noncomputable section

namespace Cert.KernelIdeal.Proto

open Cert.KernelIdeal Cert.KernelIdeal.Gen Cert.KernelIdeal.Topo
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

omit [FloatOps F] in
theorem comm_split_0 (c : Dev nD) (f : Buf (Elt F) ((c : Thread nD τ).loc cc0_scratch1)) :
    (((c : Thread nD τ).loc cc0_scratch1) ↦{fullShare} f : sProp 𝕄) ⊢ iprop(ptsAny c commM0_0 ∗ ptsAny c commM0_1 ∗ ptsAny c commM0_2) :=
  (pts_split3 f comm_disj01_0 comm_disj02_0 comm_disj12_0 comm_cover_0).trans
    (BIClass.sep_mono (ptsAny_intro c commM0_0 f) (BIClass.sep_mono (ptsAny_intro c commM0_1 f) (ptsAny_intro c commM0_2 f)))
omit [FloatOps F] in
theorem comm_split_1 (c : Dev nD) (f : Buf (Elt F) ((c : Thread nD τ).loc cc0_scratch2)) :
    (((c : Thread nD τ).loc cc0_scratch2) ↦{fullShare} f : sProp 𝕄) ⊢ iprop(ptsAny c commM1_0 ∗ ptsAny c commM1_1 ∗ ptsAny c commM1_2) :=
  (pts_split3 f comm_disj01_1 comm_disj02_1 comm_disj12_1 comm_cover_1).trans
    (BIClass.sep_mono (ptsAny_intro c commM1_0 f) (BIClass.sep_mono (ptsAny_intro c commM1_1 f) (ptsAny_intro c commM1_2 f)))
omit [FloatOps F] in
theorem comm_split_2 (c : Dev nD) (f : Buf (Elt F) ((c : Thread nD τ).loc cc0_scratch3)) :
    (((c : Thread nD τ).loc cc0_scratch3) ↦{fullShare} f : sProp 𝕄) ⊢ iprop(ptsAny c commM2_0 ∗ ptsAny c commM2_1 ∗ ptsAny c commM2_2) :=
  (pts_split3 f comm_disj01_2 comm_disj02_2 comm_disj12_2 comm_cover_2).trans
    (BIClass.sep_mono (ptsAny_intro c commM2_0 f) (BIClass.sep_mono (ptsAny_intro c commM2_1 f) (ptsAny_intro c commM2_2 f)))
omit [FloatOps F] in
theorem comm_split_3 (c : Dev nD) (f : Buf (Elt F) ((c : Thread nD τ).loc cc0_scratch4)) :
    (((c : Thread nD τ).loc cc0_scratch4) ↦{fullShare} f : sProp 𝕄) ⊢ iprop(ptsAny c commM3_0 ∗ ptsAny c commM3_1 ∗ ptsAny c commM3_2) :=
  (pts_split3 f comm_disj01_3 comm_disj02_3 comm_disj12_3 comm_cover_3).trans
    (BIClass.sep_mono (ptsAny_intro c commM3_0 f) (BIClass.sep_mono (ptsAny_intro c commM3_1 f) (ptsAny_intro c commM3_2 f)))
omit [FloatOps F] in
theorem comm_split_4 (c : Dev nD) (f : Buf (Elt F) ((c : Thread nD τ).loc cc0_scratch5)) :
    (((c : Thread nD τ).loc cc0_scratch5) ↦{fullShare} f : sProp 𝕄) ⊢ iprop(ptsAny c commM4_0 ∗ ptsAny c commM4_1 ∗ ptsAny c commM4_2) :=
  (pts_split3 f comm_disj01_4 comm_disj02_4 comm_disj12_4 comm_cover_4).trans
    (BIClass.sep_mono (ptsAny_intro c commM4_0 f) (BIClass.sep_mono (ptsAny_intro c commM4_1 f) (ptsAny_intro c commM4_2 f)))
omit [FloatOps F] in
theorem comm_split_5 (c : Dev nD) (f : Buf (Elt F) ((c : Thread nD τ).loc cc0_scratch6)) :
    (((c : Thread nD τ).loc cc0_scratch6) ↦{fullShare} f : sProp 𝕄) ⊢ iprop(ptsAny c commM5_0 ∗ ptsAny c commM5_1 ∗ ptsAny c commM5_2) :=
  (pts_split3 f comm_disj01_5 comm_disj02_5 comm_disj12_5 comm_cover_5).trans
    (BIClass.sep_mono (ptsAny_intro c commM5_0 f) (BIClass.sep_mono (ptsAny_intro c commM5_1 f) (ptsAny_intro c commM5_2 f)))

omit [FloatOps F] in
theorem ag_split_0 (c : Dev nD) (f : Buf (Elt F) ((c : Thread nD τ).loc cc0_scratch13)) :
    (((c : Thread nD τ).loc cc0_scratch13) ↦{fullShare} f : sProp 𝕄)
      ⊢ iprop((∃ g, heldW c (agM0_0 c) g) ∗ ptsAny c (agM0_0 (nbr 2 c)) ∗ ptsAny c (agM0_1 (nbr 1 c)) ∗ ptsAny c (agM0_2 (nbr 0 c))) :=
  (pts_split4 f (ag_cover_0 c) (ag_disj2_0 c) (ag_join1_0 c) (ag_disj1_0 c) (ag_join0_0 c) (ag_disj0_0 c)).trans
    (BIClass.sep_mono (heldW_intro c (agM0_0 c) f) (BIClass.sep_mono (ptsAny_intro c (agM0_0 (nbr 2 c)) f)
      (BIClass.sep_mono (ptsAny_intro c (agM0_1 (nbr 1 c)) f) (ptsAny_intro c (agM0_2 (nbr 0 c)) f))))
omit [FloatOps F] in
theorem ag_split_1 (c : Dev nD) (f : Buf (Elt F) ((c : Thread nD τ).loc cc0_scratch14)) :
    (((c : Thread nD τ).loc cc0_scratch14) ↦{fullShare} f : sProp 𝕄)
      ⊢ iprop((∃ g, heldW c (agM1_0 c) g) ∗ ptsAny c (agM1_0 (nbr 0 c)) ∗ ptsAny c (agM1_1 (nbr 2 c)) ∗ ptsAny c (agM1_2 (nbr 1 c))) :=
  (pts_split4 f (ag_cover_1 c) (ag_disj2_1 c) (ag_join1_1 c) (ag_disj1_1 c) (ag_join0_1 c) (ag_disj0_1 c)).trans
    (BIClass.sep_mono (heldW_intro c (agM1_0 c) f) (BIClass.sep_mono (ptsAny_intro c (agM1_0 (nbr 0 c)) f)
      (BIClass.sep_mono (ptsAny_intro c (agM1_1 (nbr 2 c)) f) (ptsAny_intro c (agM1_2 (nbr 1 c)) f))))
omit [FloatOps F] in
theorem ag_split_2 (c : Dev nD) (f : Buf (Elt F) ((c : Thread nD τ).loc cc0_scratch15)) :
    (((c : Thread nD τ).loc cc0_scratch15) ↦{fullShare} f : sProp 𝕄)
      ⊢ iprop((∃ g, heldW c (agM2_0 c) g) ∗ ptsAny c (agM2_0 (nbr 1 c)) ∗ ptsAny c (agM2_1 (nbr 0 c)) ∗ ptsAny c (agM2_2 (nbr 2 c))) :=
  (pts_split4 f (ag_cover_2 c) (ag_disj2_2 c) (ag_join1_2 c) (ag_disj1_2 c) (ag_join0_2 c) (ag_disj0_2 c)).trans
    (BIClass.sep_mono (heldW_intro c (agM2_0 c) f) (BIClass.sep_mono (ptsAny_intro c (agM2_0 (nbr 1 c)) f)
      (BIClass.sep_mono (ptsAny_intro c (agM2_1 (nbr 0 c)) f) (ptsAny_intro c (agM2_2 (nbr 2 c)) f))))
omit [FloatOps F] in
theorem ag_split_3 (c : Dev nD) (f : Buf (Elt F) ((c : Thread nD τ).loc cc0_scratch16)) :
    (((c : Thread nD τ).loc cc0_scratch16) ↦{fullShare} f : sProp 𝕄)
      ⊢ iprop((∃ g, heldW c (agM3_0 c) g) ∗ ptsAny c (agM3_0 (nbr 2 c)) ∗ ptsAny c (agM3_1 (nbr 1 c)) ∗ ptsAny c (agM3_2 (nbr 0 c))) :=
  (pts_split4 f (ag_cover_3 c) (ag_disj2_3 c) (ag_join1_3 c) (ag_disj1_3 c) (ag_join0_3 c) (ag_disj0_3 c)).trans
    (BIClass.sep_mono (heldW_intro c (agM3_0 c) f) (BIClass.sep_mono (ptsAny_intro c (agM3_0 (nbr 2 c)) f)
      (BIClass.sep_mono (ptsAny_intro c (agM3_1 (nbr 1 c)) f) (ptsAny_intro c (agM3_2 (nbr 0 c)) f))))
omit [FloatOps F] in
theorem ag_split_4 (c : Dev nD) (f : Buf (Elt F) ((c : Thread nD τ).loc cc0_scratch17)) :
    (((c : Thread nD τ).loc cc0_scratch17) ↦{fullShare} f : sProp 𝕄)
      ⊢ iprop((∃ g, heldW c (agM4_0 c) g) ∗ ptsAny c (agM4_0 (nbr 0 c)) ∗ ptsAny c (agM4_1 (nbr 2 c)) ∗ ptsAny c (agM4_2 (nbr 1 c))) :=
  (pts_split4 f (ag_cover_4 c) (ag_disj2_4 c) (ag_join1_4 c) (ag_disj1_4 c) (ag_join0_4 c) (ag_disj0_4 c)).trans
    (BIClass.sep_mono (heldW_intro c (agM4_0 c) f) (BIClass.sep_mono (ptsAny_intro c (agM4_0 (nbr 0 c)) f)
      (BIClass.sep_mono (ptsAny_intro c (agM4_1 (nbr 2 c)) f) (ptsAny_intro c (agM4_2 (nbr 1 c)) f))))
omit [FloatOps F] in
theorem ag_split_5 (c : Dev nD) (f : Buf (Elt F) ((c : Thread nD τ).loc cc0_scratch18)) :
    (((c : Thread nD τ).loc cc0_scratch18) ↦{fullShare} f : sProp 𝕄)
      ⊢ iprop((∃ g, heldW c (agM5_0 c) g) ∗ ptsAny c (agM5_0 (nbr 1 c)) ∗ ptsAny c (agM5_1 (nbr 0 c)) ∗ ptsAny c (agM5_2 (nbr 2 c))) :=
  (pts_split4 f (ag_cover_5 c) (ag_disj2_5 c) (ag_join1_5 c) (ag_disj1_5 c) (ag_join0_5 c) (ag_disj0_5 c)).trans
    (BIClass.sep_mono (heldW_intro c (agM5_0 c) f) (BIClass.sep_mono (ptsAny_intro c (agM5_0 (nbr 1 c)) f)
      (BIClass.sep_mono (ptsAny_intro c (agM5_1 (nbr 0 c)) f) (ptsAny_intro c (agM5_2 (nbr 2 c)) f))))

omit [FloatOps F] in
/-- The buffers of the starting state from the two staged blocks, the result array and the nineteen scratch buffers. -/
theorem bufs_intro (c : Dev nD) :
    iprop(heldW c (Memref.whole cc0_stg0_0 : Memref sig .tc .vmem S2048x1024 .f32) (Astg m c)
        ∗ heldW c (Memref.whole cc0_stg1_0 : Memref sig .tc .vmem S1024x2048 .f32) (Bstg m c)
        ∗ outWhole c (m ((c : Thread nD τ).loc main_v1)) ∗ scratchAny (F := F) c)
      ⊢ bufsLit m c := by
  unfold scratchAny bufsLit outWhole
  simp only [barPay, nbr_nbr]
  iintro ⟨HA, HB, Ho, ⟨%f0, H0⟩, ⟨%f1, H1⟩, ⟨%f2, H2⟩, ⟨%f3, H3⟩, ⟨%f4, H4⟩, ⟨%f5, H5⟩, ⟨%f6, H6⟩, ⟨%f7, H7⟩, ⟨%f8, H8⟩, ⟨%f9, H9⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩⟩
  ihave Hc0 := (comm_split_0 c f1) $$ H1; icases Hc0 with ⟨Hc00, Hc01, Hc02⟩
  ihave Hc1 := (comm_split_1 c f2) $$ H2; icases Hc1 with ⟨Hc10, Hc11, Hc12⟩
  ihave Hc2 := (comm_split_2 c f3) $$ H3; icases Hc2 with ⟨Hc20, Hc21, Hc22⟩
  ihave Hc3 := (comm_split_3 c f4) $$ H4; icases Hc3 with ⟨Hc30, Hc31, Hc32⟩
  ihave Hc4 := (comm_split_4 c f5) $$ H5; icases Hc4 with ⟨Hc40, Hc41, Hc42⟩
  ihave Hc5 := (comm_split_5 c f6) $$ H6; icases Hc5 with ⟨Hc50, Hc51, Hc52⟩
  ihave Hg0 := (ag_split_0 c f13) $$ H13; icases Hg0 with ⟨Hown0, Hg00, Hg01, Hg02⟩
  ihave Hg1 := (ag_split_1 c f14) $$ H14; icases Hg1 with ⟨Hown1, Hg10, Hg11, Hg12⟩
  ihave Hg2 := (ag_split_2 c f15) $$ H15; icases Hg2 with ⟨Hown2, Hg20, Hg21, Hg22⟩
  ihave Hg3 := (ag_split_3 c f16) $$ H16; icases Hg3 with ⟨Hown3, Hg30, Hg31, Hg32⟩
  ihave Hg4 := (ag_split_4 c f17) $$ H17; icases Hg4 with ⟨Hown4, Hg40, Hg41, Hg42⟩
  ihave Hg5 := (ag_split_5 c f18) $$ H18; icases Hg5 with ⟨Hown5, Hg50, Hg51, Hg52⟩
  isplitl [HA]; · iexact HA
  isplitl [HB]; · iexact HB
  isplitl [Ho]; · rw [heldW_whole_eq]; iexact Ho
  isplitl [H0]; · iexists f0; rw [heldW_whole_eq]; iexact H0
  isplitl [H7 H8 H9 H10 H11 H12]
  · isplitl [H7]; · iexists f7; rw [heldW_whole_eq]; iexact H7
    isplitl [H8]; · iexists f8; rw [heldW_whole_eq]; iexact H8
    isplitl [H9]; · iexists f9; rw [heldW_whole_eq]; iexact H9
    isplitl [H10]; · iexists f10; rw [heldW_whole_eq]; iexact H10
    isplitl [H11]; · iexists f11; rw [heldW_whole_eq]; iexact H11
    iexists f12; rw [heldW_whole_eq]; iexact H12
  isplitl [Hc00 Hc12 Hc21 Hc30 Hc42 Hc51 Hg02 Hg10 Hg21 Hg32 Hg40 Hg51 Hc01 Hc10 Hc22 Hc31 Hc40 Hc52 Hg01 Hg12 Hg20 Hg31 Hg42 Hg50 Hc02 Hc11 Hc20 Hc32 Hc41 Hc50 Hg00 Hg11 Hg22 Hg30 Hg41 Hg52]
  · isplitl [Hc00 Hc12 Hc21 Hc30 Hc42 Hc51 Hg02 Hg10 Hg21 Hg32 Hg40 Hg51]
    · isplitl [Hc00]; · iexact Hc00
      isplitl [Hc12]; · iexact Hc12
      isplitl [Hc21]; · iexact Hc21
      isplitl [Hc30]; · iexact Hc30
      isplitl [Hc42]; · iexact Hc42
      isplitl [Hc51]; · iexact Hc51
      isplitl [Hg02]; · iexact Hg02
      isplitl [Hg10]; · iexact Hg10
      isplitl [Hg21]; · iexact Hg21
      isplitl [Hg32]; · iexact Hg32
      isplitl [Hg40]; · iexact Hg40
      iexact Hg51
    isplitl [Hc01 Hc10 Hc22 Hc31 Hc40 Hc52 Hg01 Hg12 Hg20 Hg31 Hg42 Hg50]
    · isplitl [Hc01]; · iexact Hc01
      isplitl [Hc10]; · iexact Hc10
      isplitl [Hc22]; · iexact Hc22
      isplitl [Hc31]; · iexact Hc31
      isplitl [Hc40]; · iexact Hc40
      isplitl [Hc52]; · iexact Hc52
      isplitl [Hg01]; · iexact Hg01
      isplitl [Hg12]; · iexact Hg12
      isplitl [Hg20]; · iexact Hg20
      isplitl [Hg31]; · iexact Hg31
      isplitl [Hg42]; · iexact Hg42
      iexact Hg50
    isplitl [Hc02]; · iexact Hc02
    isplitl [Hc11]; · iexact Hc11
    isplitl [Hc20]; · iexact Hc20
    isplitl [Hc32]; · iexact Hc32
    isplitl [Hc41]; · iexact Hc41
    isplitl [Hc50]; · iexact Hc50
    isplitl [Hg00]; · iexact Hg00
    isplitl [Hg11]; · iexact Hg11
    isplitl [Hg22]; · iexact Hg22
    isplitl [Hg30]; · iexact Hg30
    isplitl [Hg41]; · iexact Hg41
    iexact Hg52
  isplitl [Hown0]; · iexact Hown0
  isplitl [Hown1]; · iexact Hown1
  isplitl [Hown2]; · iexact Hown2
  isplitl [Hown3]; · iexact Hown3
  isplitl [Hown4]; · iexact Hown4
  iexact Hown5

end Cert.KernelIdeal.Proto

end
-- ==== Proof.Launch.lean ====
/-
The launch of the protocol: from "every device's body is proved" to the run of the whole program.

The protocol's ghost state is allocated for all eight devices at once (the barrier cells are shared by the three
devices that signal them): every cell of every device gets its invariant, its owner its position at round 0, and
the token of every duty travels to the device that pays it — a barrier duty across its axis, a receive cell's
landing duty to the neighbour whose transfer fills it. The units the devices owe one another at launch are dealt
to the owners of the cells as credit. The result array, staged by no window, travels into the region's first
assertion and out of its last, and is read back against the final memory.
-/
import proofs.«900882_g7700000000000883_dist_matmul_gelu_kshard_i_m2048_n2048_k1024_v7x_i8_f32_1_alg».proof.Proof.Dats
import Mathlib.Algebra.BigOperators.Intervals
import Mathlib.Algebra.BigOperators.Fin

noncomputable section

namespace Cert.KernelIdeal.Proto

open Cert.KernelIdeal Cert.KernelIdeal.Gen Cert.KernelIdeal.Topo
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (V : Vals F)

/-! ## The kernel's own semaphores -/

/-- The 96 scoped semaphores of the protocol: every cell but the barrier's. -/
def osem : Fin 96 → SemLoc sig := fun i => (ckOf i.succ).sem

theorem osem_injective : Function.Injective osem :=
  fun a b h => Fin.succ_injective _ (ckOf_injective (sem_injective h))

set_option maxRecDepth 16384 in
theorem ownSemFacts : Pipeline.OwnSemFacts cfg0.spec osem :=
  ⟨by decide, osem_injective, by decide⟩

theorem share_eq (c : Dev nD) (w : Fin cfg0.W) : (dats m ρ V 0 c).share w = fullShare := by unfold Dat.share; split <;> rfl

/-! ## The cells and the minted tokens -/

def allCells : Finset (GSem nD τ sig) := Finset.univ.map ⟨kcell, kcell_injective⟩

/-- A device's own cells' duties, as minted: the barrier's three; duty 0 of each reduce-scatter receive cell, each
    all-gather receive cell, each reduce-scatter send cell, each all-gather send cell, each result copy's cell. -/
abbrev TokIx : Type := Fin 3 ⊕ (Fin 18 ⊕ (Fin 18 ⊕ (Fin 18 ⊕ (Fin 18 ⊕ Fin 24))))

def tokCK : TokIx → CK × Fin 3
  | .inl d => (.bar, d)
  | .inr (.inl i) => (rsRk i, 0)
  | .inr (.inr (.inl i)) => (agRk i, 0)
  | .inr (.inr (.inr (.inl i))) => (rsSk i, 0)
  | .inr (.inr (.inr (.inr (.inl i)))) => (agSk i, 0)
  | .inr (.inr (.inr (.inr (.inr j)))) => (.out j, 0)

def tokIx : CK × Fin 3 → TokIx
  | (.bar, d) => .inl d
  | (.rsR k s, _) => .inr (.inl (ksF k s))
  | (.agR k s, _) => .inr (.inr (.inl (ksF k s)))
  | (.rsS k s, _) => .inr (.inr (.inr (.inl (ksF k s))))
  | (.agS k s, _) => .inr (.inr (.inr (.inr (.inl (ksF k s)))))
  | (.out j, _) => .inr (.inr (.inr (.inr (.inr j))))

theorem tokIx_tokCK : ∀ t : TokIx, tokIx (tokCK t) = t := by
  rintro (d | i | i | i | i | j)
  · rfl
  · revert i; decide
  · revert i; decide
  · revert i; decide
  · revert i; decide
  · rfl

theorem tokCK_injective : Function.Injective tokCK :=
  fun a b h => by rw [← tokIx_tokCK a, ← tokIx_tokCK b, h]

abbrev tokOf (x : Dev nD × TokIx) : GSem nD τ sig × ℕ × Fin 3 := (cell x.1 (tokCK x.2).1, 0, (tokCK x.2).2)

theorem tokOf_injective : Function.Injective (tokOf : Dev nD × TokIx → GSem nD τ sig × ℕ × Fin 3) := by
  rintro ⟨c, t⟩ ⟨c', t'⟩ h
  have h1 : c = c' := by have := congrArg (fun x : GSem nD τ sig × ℕ × Fin 3 => x.1.1.1) h; exact this
  subst h1
  have h2 : (tokCK t).1.sem = (tokCK t').1.sem := congrArg (fun x : GSem nD τ sig × ℕ × Fin 3 => x.1.2) h
  have h3 : (tokCK t).2 = (tokCK t').2 := congrArg (fun x : GSem nD τ sig × ℕ × Fin 3 => x.2.2) h
  rw [tokCK_injective (Prod.ext (sem_injective h2) h3)]

def allToks : Finset (GSem nD τ sig × ℕ × Fin 3) := Finset.univ.map ⟨tokOf, tokOf_injective⟩

def u₀ : UU :=
  (initOf (Pipeline.cells cfgs cellOf_inj) (Pipeline.launchToks cfgs cellOf_inj), initOf allCells allToks)

/-- The duty tokens of device c's own cells. -/
def toks (c : Dev nD) : sProp 𝕄 :=
  iprop((bigSep Finset.univ fun d : Fin 3 => dutyTok ER (cell c .bar) 0 d)
    ∗ (bigSep Finset.univ fun i : Fin 18 => dutyTok ER (cell c (rsRk i)) 0 (0 : Fin 3))
    ∗ (bigSep Finset.univ fun i : Fin 18 => dutyTok ER (cell c (agRk i)) 0 (0 : Fin 3))
    ∗ (bigSep Finset.univ fun i : Fin 18 => dutyTok ER (cell c (rsSk i)) 0 (0 : Fin 3))
    ∗ (bigSep Finset.univ fun i : Fin 18 => dutyTok ER (cell c (agSk i)) 0 (0 : Fin 3))
    ∗ (bigSep Finset.univ fun j : Fin 24 => dutyTok ER (cell c (.out j)) 0 (0 : Fin 3)))

/-- What the launch element deals device c (the theorem's G). -/
def G (c : Dev nD) : sProp 𝕄 :=
  iprop((bigSep Finset.univ fun k : Fin 97 => roundState ER (sched V) (kcell (c, k)) 0)
    ∗ (bigSep Finset.univ fun k : Fin 97 => iprop(atPos ER (kcell (c, k)) 0 ∅ 0 ∗ reached ER (kcell (c, k)) 0)) ∗ toks (F := F) c)

/-- What the global step makes of it (G'). -/
def G' (c : Dev nD) : sProp 𝕄 := iprop(∃ K, ghost V K c)

omit [FloatOps F] in
theorem fund_all : BI.own (ER (initOf allCells allToks)) ⊢ (|==> bigSep Finset.univ (G V) : sProp 𝕄) := by
  have hX (Φ : GSem nD τ sig → sProp 𝕄) : bigSep allCells Φ = bigSep Finset.univ fun c : Dev nD => bigSep Finset.univ fun k : Fin 97 => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by
      unfold toks
      rw [bigSep_univ_sum, bigSep_univ_sum, bigSep_univ_sum, bigSep_univ_sum, bigSep_univ_sum]; rfl
  iintro HX
  imod (Rounds.fund ER (sched V) allCells allToks) $$ HX with ⟨Hst, Hr, Hat, Htok⟩
  imodintro
  ihave Hst' := (Entails.of_eq (hX fun g => roundState ER (sched V) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores at zero -/

theorem erase_zero_eq : (Finset.univ.erase (0 : Fin 97)) = Finset.univ.map (Fin.succEmb 96) := by
  ext i
  rw [Finset.mem_erase, Finset.mem_map]
  constructor
  · rintro ⟨h0, -⟩
    exact ⟨i.pred h0, Finset.mem_univ _, Fin.succ_pred i h0⟩
  · rintro ⟨j, -, rfl⟩
    exact ⟨Fin.succ_ne_zero j, Finset.mem_univ _⟩

omit [FloatOps F] in
/-- A conjunction over a device's 97 cells: the barrier's, and the 96 others'. -/
theorem bigSep_fin97 (Φ : Fin 97 → sProp 𝕄) :
    bigSep Finset.univ Φ = iprop(Φ 0 ∗ bigSep Finset.univ fun i : Fin 96 => Φ i.succ) := by
  rw [bigSep_univ_split (0 : Fin 97), erase_zero_eq, bigSep_map]; rfl

omit [FloatOps F] in
/-- The protocol's own semaphores at zero are the launch's own; -/
theorem ownSems0_eq (c : Dev nD) : (Pipeline.ownSems0 (Ix := Unit) (Name := ℕ) (U := UU) (Lvl := ℕ) (Val := Elt F) (τ := τ) osem c : sProp 𝕄) = ownZero c := by
  unfold ownZero Pipeline.ownSems0; rw [erase_zero_eq, bigSep_map]; rfl

omit [FloatOps F] in
/-- the barrier semaphore the launch's one unscoped semaphore. -/
theorem unscopedSems0_eq (c : Dev nD) : (unscopedSems0 c : sProp 𝕄) = semVal (cell c .bar) 0 := by
  unfold unscopedSems0; rw [bigSep_eq_bigSepL_of_eq [SemLoc.reg barS] (by decide) (by decide)]; rfl

omit [FloatOps F] in
theorem own96_eq (c : Dev nD) : (Pipeline.ownSems0 (Ix := Unit) (Name := ℕ) (U := UU) (Lvl := ℕ) (Val := Elt F) (τ := τ) osem c : sProp 𝕄)
    = bigSep Finset.univ fun i : Fin 96 => semVal (kcell (c, i.succ)) 0 := rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 97 => semVal (kcell (c, k)) 0 : sProp 𝕄) := by
  rw [bigSep_fin97, unscopedSems0_eq, own96_eq]
  iintro ⟨HS, HB⟩
  isplitl [HB]; · iexact HB
  iexact HS

/-! ## The payloads are assertions an invariant can hold -/

omit [FloatOps F] in
instance ptsAny_storable (c : Dev nD) {sp : Space} {s : Shape} {e : EltTy} (M : Memref sig .tc sp s e) :
    BI.Storable (upEmb : UEmb _ 𝕄) (ptsAny (F := F) c M) := by unfold ptsAny; infer_instance
omit [FloatOps F] in
instance ptsIs_storable (c : Dev nD) {sp : Space} {s : Shape} {e : EltTy} (M : Memref sig .tc sp s e) (X : (s.Idx → Elt F e) → Prop) :
    BI.Storable (upEmb : UEmb _ 𝕄) (ptsIs c M X) := by unfold ptsIs; infer_instance
omit [FloatOps F] in
instance ptsLent_storable (c : Dev nD) {sp : Space} {s : Shape} {e : EltTy} (M : Memref sig .tc sp s e) :
    BI.Storable (upEmb : UEmb _ 𝕄) (ptsLent (F := F) c M) := by unfold ptsLent; infer_instance

omit [FloatOps F] in
/-- Every payload of the schedule is an assertion an invariant can hold. -/
theorem pay_storable (V : Vals F) (c : Dev nD) (κ : CK) (d : Fin 3) : BI.Storable (upEmb : UEmb _ 𝕄) (pay V c κ d) := by
  cases κ with
  | bar => show BI.Storable upEmb (barPay c d); fin_cases d <;> (simp only [barPay]; infer_instance)
  | rsS k s => show BI.Storable upEmb (rsSPay c (ksF k s)); generalize ksF k s = i; fin_cases i <;> (simp only [rsSPay]; infer_instance)
  | rsR k s => show BI.Storable upEmb (rsRPay V c (ksF k s)); generalize ksF k s = i; fin_cases i <;> (simp only [rsRPay]; infer_instance)
  | agS k s => show BI.Storable upEmb (agSPay c (ksF k s)); generalize ksF k s = i; fin_cases i <;> (simp only [agSPay]; infer_instance)
  | agR k s => show BI.Storable upEmb (agRPay V c (ksF k s)); generalize ksF k s = i; fin_cases i <;> (simp only [agRPay]; infer_instance)
  | out j => show BI.Storable upEmb (outPay V c j); fin_cases j <;> (simp only [outPay]; infer_instance)

omit [FloatOps F] in
instance sched_payload_storable (V : Vals F) (g : GSem nD τ sig) (r : ℕ) (d : Fin 3) :
    BI.Storable (upEmb : UEmb _ 𝕄) ((sched V).payload g r d) := by
  show BI.Storable upEmb (match decode g.2 with | some κ => pay V g.1.1 κ d | none => iprop(emp))
  cases decode g.2 with
  | none => infer_instance
  | some κ => exact pay_storable V g.1.1 κ d

/-! ## The global step -/

omit [FloatOps F] in
theorem core_alloc (c : Dev nD) :
    iprop(Pipeline.ownSems0 (Ix := Unit) (Name := ℕ) (U := UU) (Lvl := ℕ) (Val := Elt F) (τ := τ) osem c ∗ unscopedSems0 c ∗ G V c)
      ⊢ |={Set.univ}=> iprop((bigSep Finset.univ fun k => iprop(∃ κ : ℕ, cellInv ER (sched V) κ (kcell (c, k))))
          ∗ (bigSep Finset.univ fun k : Fin 97 => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 97 => semVal (kcell (c, k)) 0) ∗ bigSep Finset.univ fun k : Fin 97 => roundState ER (sched V) (kcell (c, k)) 0)
      ⊢ (|={Set.univ}=> bigSep Finset.univ fun k => iprop(∃ κ : ℕ, cellInv ER (sched V) κ (kcell (c, k))) : sProp 𝕄) from by
        rw [← bigSep_sep']
        exact (bigSep_mono fun k _ => (Rounds.body_intro ER (sched V) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
theorem ghost_intro (K : Dev nD × Fin 97 → ℕ) (c : Dev nD) : iprop(records V K ∗ linear (F := F) c) ⊢ G' V c := by
  unfold G' ghost
  iintro H
  iexists K
  iexact H

/-- Crossing an axis, as a permutation of the devices. -/
def nbrE (d : Fin 3) : Dev nD ≃ Dev nD := ⟨nbr d, nbr d, nbr_nbr d, nbr_nbr d⟩

omit [FloatOps F] in
/-- Tokens indexed by (device, i), each handed across the axis its index names: every device gets one of each index. -/
theorem around {n : ℕ} (dir : Fin n → Fin 3) (Ψ : Fin n → Dev nD → sProp 𝕄) :
    (bigSep Finset.univ fun c : Dev nD => bigSep Finset.univ fun i : Fin n => Ψ i c)
      = bigSep Finset.univ fun c : Dev nD => bigSep Finset.univ fun i : Fin n => Ψ i (nbr (dir i) c) := by
  rw [bigSep_univ_comm, bigSep_univ_comm (fun (c : Dev nD) (i : Fin n) => Ψ i (nbr (dir i) c))]
  exact bigSep_congr fun i _ => bigSep_univ_equiv (nbrE (dir i)) (Ψ i)

omit [FloatOps F] in
/-- The tokens dealt to their payers: a barrier's duty d across axis d, a receive cell's landing duty across the axis
    of its transfer; the send cells' and result copies' tokens stay. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep', bigSep_sep', bigSep_sep', bigSep_sep', bigSep_sep', bigSep_sep', bigSep_sep',
    around (fun d : Fin 3 => d) (fun d c => (dutyTok ER (cell c .bar) 0 d : sProp 𝕄)),
    around dirRS (fun i c => (dutyTok ER (cell c (rsRk i)) 0 (0 : Fin 3) : sProp 𝕄)),
    around dirAG (fun i c => (dutyTok ER (cell c (agRk i)) 0 (0 : Fin 3) : sProp 𝕄))]

omit [FloatOps F] in
theorem regroup :
    (bigSep Finset.univ fun c : Dev nD => iprop((bigSep Finset.univ fun k => iprop(∃ κ : ℕ, cellInv ER (sched V) κ (kcell (c, k))))
          ∗ (bigSep Finset.univ fun k : Fin 97 => iprop(atPos ER (kcell (c, k)) 0 ∅ 0 ∗ reached ER (kcell (c, k)) 0)) ∗ toks c) : sProp 𝕄)
      ⊢ bigSep Finset.univ (G' V) := by
  rw [bigSep_sep', bigSep_sep', ← bigSep_univ_prod (fun ck : Dev nD × Fin 97 => iprop(∃ κ : ℕ, cellInv ER (sched V) κ (kcell ck))),
    bigSep_congr (s := Finset.univ) (fun (c : Dev nD) _ => bigSep_sep' Finset.univ (fun k : Fin 97 => (atPos ER (kcell (c, k)) 0 ∅ 0 : sProp 𝕄)) (fun k => reached ER (kcell (c, k)) 0)),
    bigSep_sep', ← bigSep_univ_prod (fun ck : Dev nD × Fin 97 => (reached ER (kcell ck) 0 : sProp 𝕄))]
  iintro ⟨HI, ⟨Hat, #HR⟩, Htok⟩
  ihave HK := (BI.bigSep_exists_pi Finset.univ (fun (ck : Dev nD × Fin 97) (κ : ℕ) => (cellInv ER (sched V) κ (kcell ck) : sProp 𝕄))) $$ HI
  icases HK with ⟨%K, #HI⟩
  ihave Htk := (toks_around (F := F)) $$ Htok
  iapply (bigSep_with_persistent (R := records V K) fun c _ => ghost_intro V K c)
  isplitr
  · unfold records; isplitl; · iexact HI
    iexact HR
  · iapply (Entails.of_eq (bigSep_sep' Finset.univ (fun c : Dev nD => bigSep Finset.univ fun k : Fin 97 => (atPos ER (cell c (ckOf k)) 0 ∅ 0 : sProp 𝕄)) payToks).symm)
    isplitl [Hat]; · iexact Hat
    iexact Htk

omit [FloatOps F] in
/-- The global step: own AND unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G V c) : sProp 𝕄)
    ⊢ |={Set.univ}=> bigSep Finset.univ (G' V) :=
  ((bigSep_mono fun c _ => core_alloc V c).trans (bigSep_fupd _ _)).trans (BI.fupd_mono (regroup V))

/-! ## The launch credit -/

/-- The place 6 s + k, inside its phase, of the pair numbered 3 k + s. -/
def placeE : Fin 18 ≃ Fin 18 where
  toFun i := ⟨6 * (i.val % 3) + i.val / 3, by have := i.isLt; omega⟩
  invFun j := ⟨3 * (j.val % 6) + j.val / 6, by have := j.isLt; omega⟩
  left_inv := by decide
  right_inv := by decide

theorem ksF_div_mod (i : Fin 18) : ksF ⟨i.val / 3, by have := i.isLt; omega⟩ ⟨i.val % 3, Nat.mod_lt _ (by decide)⟩ = i :=
  Fin.ext (by have := i.isLt; show 3 * (i.val / 3) + i.val % 3 = i.val; omega)

/-- What a device owes at launch, by kind: a unit to each neighbour's barrier cell, and the amount of each of its 36
    transfers to the receive cell it fills. -/
theorem Owe_zero_eq (d : Dev nD) :
    Owe d 0 = (∑ x : Fin 3, tallyAt (cell (nbr x d) .bar) () 1)
      + ((∑ i : Fin 18, tallyAt (cell (nbr (dirRS i) d) (rsRk i)) () (amt (rsRk i)))
        + (∑ i : Fin 18, tallyAt (cell (nbr (dirAG i) d) (agRk i)) () (amt (agRk i)))) := by
  unfold Owe
  rw [← Finset.sum_Ico_consecutive _ (show 0 ≤ 3 by omega) (show 3 ≤ 39 by omega),
    ← Finset.sum_Ico_consecutive _ (show 3 ≤ 21 by omega) (show 21 ≤ 39 by omega)]
  refine congrArg₂ (· + ·) ?_ (congrArg₂ (· + ·) ?_ ?_)
  · rw [Finset.sum_Ico_eq_sum_range]
    simp only [Nat.reduceSub]
    rw [← Fin.sum_univ_eq_sum_range (fun n => tallyAt (paid d (0 + n)).1 () (paid d (0 + n)).2) 3]
    refine Finset.sum_congr rfl fun x _ => ?_
    rw [Nat.zero_add, paid_bar]
  · rw [Finset.sum_Ico_eq_sum_range]
    simp only [Nat.reduceSub]
    rw [← Fin.sum_univ_eq_sum_range (fun n => tallyAt (paid d (3 + n)).1 () (paid d (3 + n)).2) 18, ← Equiv.sum_comp placeE]
    refine Finset.sum_congr rfl fun i _ => ?_
    have h := paid_rs d ⟨i.val / 3, by have := i.isLt; omega⟩ ⟨i.val % 3, Nat.mod_lt _ (by decide)⟩
    rw [ksF_div_mod] at h
    show tallyAt (paid d (3 + (6 * (i.val % 3) + i.val / 3))).1 () (paid d (3 + (6 * (i.val % 3) + i.val / 3))).2 = _
    rw [show 3 + (6 * (i.val % 3) + i.val / 3) = 3 + 6 * (i.val % 3) + i.val / 3 by omega, h]
    rfl
  · rw [Finset.sum_Ico_eq_sum_range]
    simp only [Nat.reduceSub]
    rw [← Fin.sum_univ_eq_sum_range (fun n => tallyAt (paid d (21 + n)).1 () (paid d (21 + n)).2) 18, ← Equiv.sum_comp placeE]
    refine Finset.sum_congr rfl fun i _ => ?_
    have h := paid_ag d ⟨i.val / 3, by have := i.isLt; omega⟩ ⟨i.val % 3, Nat.mod_lt _ (by decide)⟩
    rw [ksF_div_mod] at h
    show tallyAt (paid d (21 + (6 * (i.val % 3) + i.val / 3))).1 () (paid d (21 + (6 * (i.val % 3) + i.val / 3))).2 = _
    rw [show 21 + (6 * (i.val % 3) + i.val / 3) = 21 + 6 * (i.val % 3) + i.val / 3 by omega, h]
    rfl

omit [FloatOps F] in
/-- The launch deals each device the credit of what the others owe its cells: three units on its barrier cell, each
    receive cell's amount. -/
theorem creds_intro (c : Dev nD) : (Pipeline.launchCred (fun d => Owe d 0) c : sProp 𝕄) ⊢ creds c := by
  rw [show (fun d => Owe d 0) = fun d => (∑ x : Fin 3, tallyAt (cell (nbr x d) .bar) () 1)
      + ((∑ i : Fin 18, tallyAt (cell (nbr (dirRS i) d) (rsRk i)) () (amt (rsRk i)))
        + (∑ i : Fin 18, tallyAt (cell (nbr (dirAG i) d) (agRk i)) () (amt (agRk i)))) from funext Owe_zero_eq,
    Pipeline.launchCred_add (fun d => ∑ x : Fin 3, tallyAt (cell (nbr x d) .bar) () 1),
    Pipeline.launchCred_add (fun d => ∑ i : Fin 18, tallyAt (cell (nbr (dirRS i) d) (rsRk i)) () (amt (rsRk i))),
    Pipeline.launchCred_sum Finset.univ (fun (x : Fin 3) d => tallyAt (cell (nbr x d) .bar) () 1),
    Pipeline.launchCred_sum Finset.univ (fun (i : Fin 18) d => tallyAt (cell (nbr (dirRS i) d) (rsRk i)) () (amt (rsRk i))),
    Pipeline.launchCred_sum Finset.univ (fun (i : Fin 18) d => tallyAt (cell (nbr (dirAG i) d) (agRk i)) () (amt (agRk i)))]
  unfold creds
  refine sep_mono ?_ (sep_mono ?_ ?_)
  · refine (bigSep_mono fun x _ => Pipeline.launchCred_tallyAt (CK.bar).sem (nbr x) (nbr x) (nbr_nbr x) (nbr_nbr x) () 1 c).trans ?_
    rw [← Pipeline.cred_finsetSum, Fin.sum_univ_three, tallyAt_add, tallyAt_add]
    exact (BI.Entails.refl _ : (cred (tallyAt (cell c CK.bar) () 3) : sProp 𝕄) ⊢ cred (tallyAt (cell c CK.bar) () 3))
  · exact bigSep_mono fun i _ => Pipeline.launchCred_tallyAt (rsRk i).sem (nbr (dirRS i)) (nbr (dirRS i)) (nbr_nbr _) (nbr_nbr _) () (amt (rsRk i)) c
  · exact bigSep_mono fun i _ => Pipeline.launchCred_tallyAt (agRk i).sem (nbr (dirAG i)) (nbr (dirAG i)) (nbr_nbr _) (nbr_nbr _) () (amt (agRk i)) c

/-! ## The theorem's side conditions -/

/-- What enters the region besides the scoped buffers: the body's start and the result array at its launch contents. -/
def X (c : Dev nD) : sProp 𝕄 := iprop(start V c ∗ outWhole c (m ((c : Thread nD τ).loc main_v1)))
/-- What leaves it: the result array, at contents of which the result predicate holds. -/
def Y (c : Dev nD) : sProp 𝕄 := iprop(∃ f, outWhole c f ∗ ⌜V.res c f⌝)

omit [FloatOps F] in
theorem start_intro (c : Dev nD) :
    iprop(Pipeline.unscopedRestP Pipeline.Prefetch.none cfg0.spec c (fun b => m ((c : Thread nD τ).loc b)) ∗ levAts L lv
        ∗ Pipeline.launchCred (fun d => Owe d 0) c ∗ prngReg c (ρ c) ∗ G' V c)
      ⊢ |={Set.univ}=> iprop(X m V c ∗ emp) := by
  rw [Pipeline.unscopedRestP_none, unscopedRest0_eq]
  iintro ⟨Hout, Hlev, Hcr, -, HG⟩
  ihave Hc := (creds_intro (F := F) c) $$ Hcr
  imodintro
  unfold X start G' outWhole
  isplitl
  · isplitr [Hout]
    · isplitl [HG]; · iexact HG
      isplitl [Hc]; · iexact Hc
      iexact Hlev
    · iexact Hout
  · iempintro

theorem phi0_intro (c : Dev nD) :
    iprop(X m V c ∗ Pipeline.prefHeld Pipeline.Prefetch.none c (fun _ => fullShare.right) (fun k => k.elim0) ∗ Pipeline.scopedRest cfg0.spec c)
      ⊢ (dats m ρ V 0 c).Φ 0 := by
  rw [show (dats m ρ V 0 c).Φ 0 = Φ₀ m V c from rfl, scopedRest_eq]
  unfold Φ₀ X
  iintro ⟨⟨Hs, Ho⟩, -, Hr⟩
  isplitl [Hs]; · iexact Hs
  isplitl [Ho]; · iexact Ho
  iexact Hr

theorem phi1_exit (c : Dev nD) :
    (dats m ρ V 0 c).Φ (Fin.last cfg0.N) ⊢ iprop(Y V c ∗ Pipeline.ownSems0 osem c ∗ Pipeline.scopedRest cfg0.spec c) := by
  rw [show (dats m ρ V 0 c).Φ (Fin.last cfg0.N) = Φ₁ V c from rfl, scopedRest_eq, ownSems0_eq]
  unfold Φ₁ Y
  iintro ⟨Ho, Hz, Hr⟩
  isplitl [Ho]; · iexact Ho
  isplitl [Hz]; · iexact Hz
  iexact Hr

theorem waits (c : Dev nD) : (levAts L lv : sProp 𝕄) ⊢ Pipeline.cellsWaits cfgs (dats m ρ V) () 0 c :=
  Pipeline.cellsWaits_intro cfgs (dats m ρ V) () 0 c fun w s t =>
    mayWait_stage c _ (by fin_cases w <;> fin_cases s <;> decide) _ (by
      rcases t with ⟨_ | _, ht⟩
      · exact Or.inl rfl
      · exact Or.inr rfl)

/-- The first argument's array after the run holds what it held; -/
theorem final_arg0 (c : Dev nD) : (dats m ρ V 0 c).arrAt (0 : Fin 2) cfg0.N = m ((c : Thread nD τ).loc main_arg0) :=
  (dats (F := F) m ρ V 0 c).arrAt_in (0 : Fin 2) rfl _
/-- and so does the second's. -/
theorem final_arg1 (c : Dev nD) : (dats m ρ V 0 c).arrAt (1 : Fin 2) cfg0.N = m ((c : Thread nD τ).loc main_arg1) :=
  (dats (F := F) m ρ V 0 c).arrAt_in (1 : Fin 2) rfl _

/-! ## The run -/

set_option maxRecDepth 100000 in
/-- At the compiled mesh of eight devices, for any float values, from any memory with zero counters: if every device's
    body meets its obligation, every weakly fair execution of @main terminates, and every final state has each device's
    result array at contents of which the result predicate holds and its two argument arrays unchanged. -/
theorem run_main (hbody : ∀ c, BodyObligation (dats m ρ V 0 c) (defs₀ (F := F)) 𝒱₀ () Set.univ) :
    θ_run defs (onTc (τ := τ) (main (F := F))) (s₀ m ρ) (fun r => ∀ c : Dev nD,
      V.res c (r.2.mem ((c : Thread nD τ).loc main_v1))
      ∧ r.2.mem ((c : Thread nD τ).loc main_arg0) = m ((c : Thread nD τ).loc main_arg0)
      ∧ r.2.mem ((c : Thread nD τ).loc main_arg1) = m ((c : Thread nD τ).loc main_arg1)) :=
  Pipeline.θ_run_region_owing_glob_pf (fun p => (cfgs p).toPCfg) (fun p => (cfgs p).toPCfg_adm) (dats m ρ V) () cellOf_inj (0 : Fin 1)
    winFacts0.to₀ ownSemFacts (Pipeline.PreFacts.none _) EP defs₀ 𝒱₀ m ρ main
    (hmain := fun _ => rfl)
    (hbody := hbody) (hne := fun w => by fin_cases w <;> exact Nat.succ_pos _) (harr := arr_whole0) (hstage := stage_whole0) (hshare := share_eq m ρ V)
    (hdistinct := winFacts0.arr_inj)
    (O₀ := fun d => Owe d 0) (howed₀ := fun _ => rfl) (howedN := fun _ => rfl)
    (L := L) (lv := lv) (hL := L_of_ne) (hwaits := waits m ρ V)
    (G := G V) (G' := G' V) (u₀ := u₀)
    (hu₀ := by
      unfold u₀
      iintro Hu
      ihave H := (ownU_pair _ _) $$ Hu
      icases H with ⟨HP, HX⟩
      imod (fund_all V) $$ HX with HG
      imodintro
      isplitl [HP] <;> iassumption)
    (hglob := glob V)
    (hA := fun _ _ => rfl) (hpf := fun _ k => k.elim0)
    (X := X m V) (Y := Y V) (Z := fun _ => iprop(emp))
    (hX := start_intro m ρ V) (hin := phi0_intro m ρ V) (hout := phi1_exit m ρ V)
    (QY := fun c s => V.res c (s.mem ((c : Thread nD τ).loc main_v1)))
    (hY := fun c s' => by
      unfold Y outWhole
      iintro ⟨⟨%f, Ho, %hf⟩, -, HSI⟩
      icombine HSI Ho gives %hx
      imodintro
      isplitr
      · ipureintro
        rw [Buf.eq_of_forall_mem_univ hx]; exact hf
      iexact HSI)
    (hQ := fun s h c => ⟨(h c).2.2, ((h c).1 0).trans (final_arg0 m ρ V c), ((h c).1 1).trans (final_arg1 m ρ V c)⟩)

/-- info: 'Cert.KernelIdeal.Proto.run_main' depends on axioms: [propext, Classical.choice, Quot.sound] -/
#guard_msgs in #print axioms run_main

end Cert.KernelIdeal.Proto

end
-- ==== Proof.Prologue.lean ====
/-
The prologue of a device's body: from what the region hands the body at its one point — the region's first
assertion, what the device owes, and the two staged argument blocks — to the body's starting state member by
member: the shared records read at the device's own cells and at the cells it pays; its tokens, positions and
credit; and its buffers cut the way the protocol uses them.
-/
import proofs.«900882_g7700000000000883_dist_matmul_gelu_kshard_i_m2048_n2048_k1024_v7x_i8_f32_1_alg».proof.Proof.PrologueBufs
import proofs.«900882_g7700000000000883_dist_matmul_gelu_kshard_i_m2048_n2048_k1024_v7x_i8_f32_1_alg».proof.Proof.Launch
import proofs.«900882_g7700000000000883_dist_matmul_gelu_kshard_i_m2048_n2048_k1024_v7x_i8_f32_1_alg».proof.Proof.PiecesOutSep

noncomputable section

namespace Cert.KernelIdeal.Proto

open Cert.KernelIdeal Cert.KernelIdeal.Gen Cert.KernelIdeal.Topo
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (V : Vals F)

/-! ## The records at the device's cells -/

omit [FloatOps F] in
/-- The shared records, read at device c's cell number i. -/
theorem own_pair (K : Dev nD × Fin 97 → ℕ) (c : Dev nD) (i : Fin 97) :
    records V K ⊢ iprop(cellInv ER (sched V) (K (c, i)) (cell c (ckOf i)) ∗ reached ER (cell c (ckOf i)) 0) := by
  unfold records
  iintro ⟨#HI, #HR⟩
  isplitr
  · iapply (inv_at' V K (c, i)); iexact HI
  · iapply (reached_at' (F := F) (c, i)); iexact HR

omit [FloatOps F] in
/-- The shared records, read at each of device c's own 97 cells. -/
theorem ownRecs_intro (K : Dev nD × Fin 97 → ℕ) (c : Dev nD) : records V K ⊢ ownRecs V K c := by
  rw [ownRecs_eq]
  exact (BI.bigSep_of_persistent Finset.univ (records V K)).trans (bigSep_mono fun i _ => own_pair V K c i)

omit [FloatOps F] in
/-- The shared records, read at one cell of one device. -/
theorem rec_pair (K : Dev nD × Fin 97 → ℕ) (c' : Dev nD) (κ : CK) :
    records V K ⊢ iprop(cellInv ER (sched V) (K (c', ckIdx κ)) (cell c' κ) ∗ reached ER (cell c' κ) 0) := by
  iintro #H
  isplitr
  · iapply (records_inv V K c' κ); iexact H
  · iapply (records_reached V K c' κ); iexact H

omit [FloatOps F] in
/-- The shared records, read at the 39 cells device c pays. -/
theorem paidRecs_intro (K : Dev nD × Fin 97 → ℕ) (c : Dev nD) : records V K ⊢ paidRecs V K c := by
  rw [paidRecs_eq]
  iintro #H
  isplitr
  · iapply ((BI.bigSep_of_persistent Finset.univ (records V K)).trans (bigSep_mono fun d _ => rec_pair V K (nbr d c) CK.bar)); iexact H
  isplitr
  · iapply ((BI.bigSep_of_persistent Finset.univ (records V K)).trans (bigSep_mono fun i _ => rec_pair V K (nbr (dirRS i) c) (rsRk i))); iexact H
  · iapply ((BI.bigSep_of_persistent Finset.univ (records V K)).trans (bigSep_mono fun i _ => rec_pair V K (nbr (dirAG i) c) (agRk i))); iexact H

/-! ## The prologue -/

omit [FloatOps F] in
/-- Holding a whole staging buffer at contents X. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

theorem fetch_0 (t : Fin cfg0.N) : (cfg0.win (0 : Fin 2)).fetch t = true := by rw [fin_N0 t]; rfl
theorem fetch_1 (t : Fin cfg0.N) : (cfg0.win (1 : Fin 2)).fetch t = true := by rw [fin_N0 t]; rfl

/-- A staged block: the whole staging buffer at contents X. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the region hands device c's body at its one point. -/
def bodyPre' (c : Dev nD) : sProp 𝕄 :=
  iprop(Φ₀ m V c ∗ (dats m ρ V 0 c).owesAt () t0_0.castSucc
    ∗ (∃ d, stg c cc0_stg0_0 ((dats m ρ V 0 c).before (0 : Fin 2) t0_0 d))
    ∗ (∃ d, stg c cc0_stg1_0 ((dats m ρ V 0 c).before (1 : Fin 2) t0_0 d)))

/-- From what the region hands the body to the body's starting state, at some names of the cells and some waits. -/
theorem prologue (c : Dev nD) : bodyPre' m ρ V c ⊢ iprop(∃ K W, bodyStart m V K c W) := by
  unfold bodyPre' Φ₀ start ghost linear Dat.owesAt Pipeline.owesWithin
  iintro ⟨⟨⟨⟨%K, #Hrec, Hat, Htok⟩, Hcr, #Hlev⟩, Hout, Hscr⟩, ⟨%W, %hW, HO⟩, ⟨%d0, %g0, %hg0, HA⟩, ⟨%d1, %g1, %hg1, HB⟩⟩
  have hA : g0 = Astg m c := by rw [hg0]; unfold Dat.before; rw [if_pos (fetch_0 t0_0)]; rfl
  have hB : g1 = Bstg m c := by rw [hg1]; unfold Dat.before; rw [if_pos (fetch_1 t0_0)]; rfl
  subst hA; subst hB
  iexists K
  iexists W
  unfold bodyStart
  isplitr
  · isplitr; · iexact Hlev
    isplitr
    · iapply (ownRecs_intro V K c); iexact Hrec
    · iapply (paidRecs_intro V K c); iexact Hrec
  isplitl [Htok]; · rw [toksLit_eq]; iexact Htok
  isplitl [Hat]; · rw [posLit_eq]; iexact Hat
  isplitl [Hcr]; · rw [credLit_eq]; iexact Hcr
  isplitl [HO]; · iexact HO
  iapply (bufs_intro m c)
  isplitl [HA]; · rw [heldW_whole_eq]; iexact HA
  isplitl [HB]; · rw [heldW_whole_eq]; iexact HB
  isplitl [Hout]; · iexact Hout
  iexact Hscr

end Cert.KernelIdeal.Proto

end
-- ==== Proof.Epilogue.lean ====
/-
The epilogue of a device's body: from the body's end state — the result array at contents of which the result
predicate holds, the device's 96 protocol semaphores at zero, its nineteen scratch buffers whole again, nothing
owed, and the two staged argument blocks untouched — to what the region expects of the body after its one point.
-/
import proofs.«900882_g7700000000000883_dist_matmul_gelu_kshard_i_m2048_n2048_k1024_v7x_i8_f32_1_alg».proof.Proof.EpilogueTab
import proofs.«900882_g7700000000000883_dist_matmul_gelu_kshard_i_m2048_n2048_k1024_v7x_i8_f32_1_alg».proof.Proof.EpilogueOut
import proofs.«900882_g7700000000000883_dist_matmul_gelu_kshard_i_m2048_n2048_k1024_v7x_i8_f32_1_alg».proof.Proof.EpilogueClose
import proofs.«900882_g7700000000000883_dist_matmul_gelu_kshard_i_m2048_n2048_k1024_v7x_i8_f32_1_alg».proof.Proof.EpilogueShare
import proofs.«900882_g7700000000000883_dist_matmul_gelu_kshard_i_m2048_n2048_k1024_v7x_i8_f32_1_alg».proof.Proof.Prologue

noncomputable section

namespace Cert.KernelIdeal.Proto

open Cert.KernelIdeal Cert.KernelIdeal.Gen Cert.KernelIdeal.Topo
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (V : Vals F)

/-! ## Closing the 96 cells -/

omit [FloatOps F] in
/-- One of the 96 cells closes, its invariant read off the device's records. -/
theorem close_step (K : Dev nD × Fin 97 → ℕ) (c : Dev nD) (i : Fin 97) :
    iprop((bigSep Finset.univ fun i : Fin 97 => iprop(cellInv ER (sched V) (K (c, i)) (cell c (ckOf i)) ∗ reached ER (cell c (ckOf i)) 0))
        ∗ atPos ER (cell c (ckOf i)) 1 ∅ 0)
      ⊢ (iprop(|={Set.univ}=> semVal (cell c (ckOf i)) 0) : sProp 𝕄) := by
  have hel : (bigSep Finset.univ fun i : Fin 97 => iprop(cellInv ER (sched V) (K (c, i)) (cell c (ckOf i)) ∗ reached ER (cell c (ckOf i)) 0) : sProp 𝕄)
      ⊢ iprop(cellInv ER (sched V) (K (c, i)) (cell c (ckOf i)) ∗ reached ER (cell c (ckOf i)) 0) := bigSep_elim (Finset.mem_univ i)
  iintro ⟨#HR, Hat⟩
  ihave HI := hel $$ HR
  icases HI with ⟨#Hinv, -⟩
  iapply (close_cell V c (ckOf i) (K (c, i)))
  isplitr; · iexact Hinv
  iexact Hat

omit [FloatOps F] in
/-- The device's 96 transfer and copy cells, each past its one round, close: their semaphores are at zero. -/
theorem close_all (K : Dev nD × Fin 97 → ℕ) (c : Dev nD) :
    iprop(ownRecs V K c ∗ pos1Lit (F := F) c) ⊢ (iprop(|={Set.univ}=> zeroLit (F := F) c) : sProp 𝕄) := by
  rw [ownRecs_eq, pos1Lit_eq, zeroLit_eq]
  unfold ownZero
  exact BIBase.Entails.trans
    (bigSep_with_persistent
      (R := bigSep Finset.univ fun i : Fin 97 => iprop(cellInv ER (sched V) (K (c, i)) (cell c (ckOf i)) ∗ reached ER (cell c (ckOf i)) 0))
      (Ψ := fun i : Fin 97 => iprop(|={Set.univ}=> semVal (cell c (ckOf i)) 0)) fun i _ => close_step V K c i)
    (bigSep_fupd _ _)

omit [FloatOps F] in
/-- A piece that reads something known is a piece at some contents. -/
theorem ptsIs_any (c : Dev nD) {sp : Space} {s : Shape} {e : EltTy} (M : Memref sig .tc sp s e) (X : (s.Idx → Elt F e) → Prop) :
    (ptsIs c M X : sProp 𝕄) ⊢ ptsAny c M := by
  unfold ptsIs ptsAny
  iintro ⟨%f, H, -⟩
  iexists f
  iexact H

/-- At the end nothing is owed. -/
theorem Owe_last (c : Dev nD) : Owe c 39 = 0 := Owe_end c

/-! ## The end -/

/-- What the region expects of device c's body after its one point. -/
def bodyPost' (c : Dev nD) : sProp 𝕄 :=
  iprop(Φ₁ V c ∗ (dats m ρ V 0 c).owesAt () t0_0.succ ∗ stg c cc0_stg0_0 (Astg m c) ∗ stg c cc0_stg1_0 (Bstg m c))

omit [FloatOps F] in
/-- Where the result predicate holds of every contents, it holds of the result array's. -/
theorem out_res (hres : ∀ c f, V.res c f) (c : Dev nD) :
    (iprop(∃ f, outWhole (F := F) c f) : sProp 𝕄) ⊢ iprop(∃ f, outWhole c f ∗ ⌜V.res c f⌝) := by
  iintro ⟨%f, H⟩
  iexists f
  isplitl [H]; · iexact H
  ipureintro; exact hres c f

theorem epilogue (c : Dev nD) (W : Waits sig Unit) :
    iprop((∃ f, outWhole c f ∗ ⌜V.res c f⌝) ∗ zeroLit (F := F) c ∗ scratchAny (F := F) c ∗ owes (c : Thread nD τ) 0 W
        ∗ heldW c (Memref.whole cc0_stg0_0 : Memref sig .tc .vmem S2048x1024 .f32) (Astg m c)
        ∗ heldW c (Memref.whole cc0_stg1_0 : Memref sig .tc .vmem S1024x2048 .f32) (Bstg m c))
      ⊢ bodyPost' m ρ V c := by
  unfold bodyPost' Φ₁ Dat.owesAt Pipeline.owesWithin
  rw [zeroLit_eq, show (dats m ρ V 0 c).owed t0_0.succ = 0 from rfl]
  iintro ⟨Ho, Hz, Hs, HO, HA, HB⟩
  isplitl [Ho Hz Hs]
  · isplitl [Ho]; · iexact Ho
    isplitl [Hz]; · iexact Hz
    iexact Hs
  isplitl [HO]
  · iexists W
    isplitr; · ipureintro; exact fun _ _ => Or.inl trivial
    iexact HO
  isplitl [HA]
  · iexists (Astg m c)
    isplitr; · (ipureintro; rfl)
    iapply (Entails.of_eq (heldW_whole_eq c cc0_stg0_0 (Astg m c)))
    iexact HA
  iexists (Bstg m c)
  isplitr; · (ipureintro; rfl)
  iapply (Entails.of_eq (heldW_whole_eq c cc0_stg1_0 (Bstg m c)))
  iexact HB

end Cert.KernelIdeal.Proto

end
-- ==== Proof.BodyEnd.lean ====
/-
The end of a device's body: from its end state — the records of its cells, its positions past the one round of
each of its 96 transfer and copy cells, nothing owed, the staged argument blocks untouched, the result array and
the accumulator block by block, and the pieces of its scratch buffers — to what the region expects after its one
point: the cells close, the pieces join to the whole buffers, and what is known of each result block's reading is
known of the whole result array's.
-/
import proofs.«900882_g7700000000000883_dist_matmul_gelu_kshard_i_m2048_n2048_k1024_v7x_i8_f32_1_alg».proof.Proof.EpilogueEnd
import proofs.«900882_g7700000000000883_dist_matmul_gelu_kshard_i_m2048_n2048_k1024_v7x_i8_f32_1_alg».proof.Proof.Epilogue

noncomputable section

namespace Cert.KernelIdeal.Proto

open Cert.KernelIdeal Cert.KernelIdeal.Gen Cert.KernelIdeal.Topo
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (V : Vals F)

omit [FloatOps F] in
instance ownRecs_persistent (K : Dev nD × Fin 97 → ℕ) (c : Dev nD) : BI.Persistent (ownRecs V K c) := by
  rw [ownRecs_eq]; infer_instance

/-- The end state of device c's body, under the cells' names K, the waits W. -/
def bodyEnd (K : Dev nD × Fin 97 → ℕ) (c : Dev nD) (W : Waits sig Unit) : sProp 𝕄 :=
  iprop(ownRecs V K c ∗ pos1Lit (F := F) c ∗ owes (c : Thread nD τ) (Owe c 39) W
    ∗ heldW c (Memref.whole cc0_stg0_0 : Memref sig .tc .vmem S2048x1024 .f32) (Astg m c)
    ∗ heldW c (Memref.whole cc0_stg1_0 : Memref sig .tc .vmem S1024x2048 .f32) (Bstg m c)
    ∗ dstLit V c ∗ accLit (F := F) c ∗ commEnd (F := F) c ∗ stgEnd (F := F) c ∗ agEnd (F := F) c)

/-- From the end state to what the region expects, where the result predicate follows from what is known of the
    24 result blocks. -/
theorem epilogue_end (hres : ∀ c g, outFacts V c g → V.res c g) (K : Dev nD × Fin 97 → ℕ) (c : Dev nD) (W : Waits sig Unit) :
    bodyEnd m V K c W ⊢ (iprop(|={Set.univ}=> bodyPost' m ρ V c) : sProp 𝕄) := by
  have hO : (owes (c : Thread nD τ) (Owe c 39) W : sProp 𝕄) = owes (c : Thread nD τ) 0 W := by rw [Owe_last]
  unfold bodyEnd
  iintro ⟨#Hrec, Hpos, HO, HA, HB, Hdst, Hacc, Hcomm, Hstg, Hag⟩
  imod (close_all V K c) $$ [Hpos] with Hz
  · isplitr; · iexact Hrec
    iexact Hpos
  imodintro
  ihave Hs := (scratch_end (F := F) c) $$ [Hacc Hcomm Hstg Hag]
  · isplitl [Hacc]; · iexact Hacc
    isplitl [Hcomm]; · iexact Hcomm
    isplitl [Hstg]; · iexact Hstg
    iexact Hag
  ihave Hd := (dst_facts V c) $$ Hdst
  icases Hd with ⟨%g, Hg, %hg⟩
  ihave HO' := (Entails.of_eq hO) $$ HO
  iapply (epilogue m ρ V c W)
  isplitl [Hg]
  · iexists g
    isplitl [Hg]; · iexact Hg
    ipureintro; exact hres c g hg
  isplitl [Hz]; · iexact Hz
  isplitl [Hs]; · iexact Hs
  isplitl [HO']; · iexact HO'
  isplitl [HA]; · iexact HA
  iexact HB

end Cert.KernelIdeal.Proto

end
-- ==== Proof.TopoClosed.lean ====
import proofs.«900882_g7700000000000883_dist_matmul_gelu_kshard_i_m2048_n2048_k1024_v7x_i8_f32_1_alg».proof.Proof.TopoTab

/-! Each offset function's closed form (a row built from the device's coordinates next to a literal column), as
    the instance by which a symbolic run of the body reads a rectangle's place. -/

set_option Elab.async false

namespace Cert.KernelIdeal.Topo

open Cert.KernelIdeal Cert.KernelIdeal.Gen Idealize.ShloMosaic

instance closedOff_k0_off1 (c : Dev nD) : ClosedOff (k0_off1 c) := ⟨![(1 - cx c) * 1024, 0], off1_eq c⟩
instance closedOff_k0_off2 (c : Dev nD) : ClosedOff (k0_off2 c) := ⟨![(1 - cy c) * 1024, 0], off2_eq c⟩
instance closedOff_k0_off3 (c : Dev nD) : ClosedOff (k0_off3 c) := ⟨![(1 - cz c) * 1024, 0], off3_eq c⟩
instance closedOff_k0_off4 (c : Dev nD) : ClosedOff (k0_off4 c) := ⟨![cx c * 1024, 0], off4_eq c⟩
instance closedOff_k0_off5 (c : Dev nD) : ClosedOff (k0_off5 c) := ⟨![cx c * 1024, 0], off5_eq c⟩
instance closedOff_k0_off6 (c : Dev nD) : ClosedOff (k0_off6 c) := ⟨![cy c * 1024, 0], off6_eq c⟩
instance closedOff_k0_off7 (c : Dev nD) : ClosedOff (k0_off7 c) := ⟨![cy c * 1024, 384], off7_eq c⟩
instance closedOff_k0_off8 (c : Dev nD) : ClosedOff (k0_off8 c) := ⟨![cz c * 1024, 0], off8_eq c⟩
instance closedOff_k0_off9 (c : Dev nD) : ClosedOff (k0_off9 c) := ⟨![cz c * 1024, 768], off9_eq c⟩
instance closedOff_k0_off10 (c : Dev nD) : ClosedOff (k0_off10 c) := ⟨![cx c * 1024, 1152], off10_eq c⟩
instance closedOff_k0_off11 (c : Dev nD) : ClosedOff (k0_off11 c) := ⟨![cy c * 1024, 1536], off11_eq c⟩
instance closedOff_k0_off12 (c : Dev nD) : ClosedOff (k0_off12 c) := ⟨![cz c * 1024, 1792], off12_eq c⟩
instance closedOff_k0_off13 (c : Dev nD) : ClosedOff (k0_off13 c) := ⟨![cx c * 1024 + (1 - cy c) * 512, 0], off13_eq c⟩
instance closedOff_k0_off14 (c : Dev nD) : ClosedOff (k0_off14 c) := ⟨![(1 - cy c) * 512, 0], off14_eq c⟩
instance closedOff_k0_off15 (c : Dev nD) : ClosedOff (k0_off15 c) := ⟨![cx c * 1024 + cy c * 512, 0], off15_eq c⟩
instance closedOff_k0_off16 (c : Dev nD) : ClosedOff (k0_off16 c) := ⟨![cy c * 512, 0], off16_eq c⟩
instance closedOff_k0_off17 (c : Dev nD) : ClosedOff (k0_off17 c) := ⟨![cy c * 1024 + (1 - cz c) * 512, 384], off17_eq c⟩
instance closedOff_k0_off18 (c : Dev nD) : ClosedOff (k0_off18 c) := ⟨![(1 - cz c) * 512, 0], off18_eq c⟩
instance closedOff_k0_off19 (c : Dev nD) : ClosedOff (k0_off19 c) := ⟨![cy c * 1024 + cz c * 512, 384], off19_eq c⟩
instance closedOff_k0_off20 (c : Dev nD) : ClosedOff (k0_off20 c) := ⟨![cz c * 512, 0], off20_eq c⟩
instance closedOff_k0_off21 (c : Dev nD) : ClosedOff (k0_off21 c) := ⟨![cz c * 1024 + (1 - cx c) * 512, 768], off21_eq c⟩
instance closedOff_k0_off22 (c : Dev nD) : ClosedOff (k0_off22 c) := ⟨![(1 - cx c) * 512, 0], off22_eq c⟩
instance closedOff_k0_off23 (c : Dev nD) : ClosedOff (k0_off23 c) := ⟨![cz c * 1024 + cx c * 512, 768], off23_eq c⟩
instance closedOff_k0_off24 (c : Dev nD) : ClosedOff (k0_off24 c) := ⟨![cx c * 512, 0], off24_eq c⟩
instance closedOff_k0_off25 (c : Dev nD) : ClosedOff (k0_off25 c) := ⟨![cx c * 1024 + (1 - cy c) * 512, 1152], off25_eq c⟩
instance closedOff_k0_off26 (c : Dev nD) : ClosedOff (k0_off26 c) := ⟨![cx c * 1024 + cy c * 512, 1152], off26_eq c⟩
instance closedOff_k0_off27 (c : Dev nD) : ClosedOff (k0_off27 c) := ⟨![cy c * 1024 + (1 - cz c) * 512, 1536], off27_eq c⟩
instance closedOff_k0_off28 (c : Dev nD) : ClosedOff (k0_off28 c) := ⟨![(1 - cz c) * 512, 0], off28_eq c⟩
instance closedOff_k0_off29 (c : Dev nD) : ClosedOff (k0_off29 c) := ⟨![cy c * 1024 + cz c * 512, 1536], off29_eq c⟩
instance closedOff_k0_off30 (c : Dev nD) : ClosedOff (k0_off30 c) := ⟨![cz c * 512, 0], off30_eq c⟩
instance closedOff_k0_off31 (c : Dev nD) : ClosedOff (k0_off31 c) := ⟨![cz c * 1024 + (1 - cx c) * 512, 1792], off31_eq c⟩
instance closedOff_k0_off32 (c : Dev nD) : ClosedOff (k0_off32 c) := ⟨![(1 - cx c) * 512, 0], off32_eq c⟩
instance closedOff_k0_off33 (c : Dev nD) : ClosedOff (k0_off33 c) := ⟨![cz c * 1024 + cx c * 512, 1792], off33_eq c⟩
instance closedOff_k0_off34 (c : Dev nD) : ClosedOff (k0_off34 c) := ⟨![cx c * 512, 0], off34_eq c⟩
instance closedOff_k0_off35 (c : Dev nD) : ClosedOff (k0_off35 c) := ⟨![cx c * 1024 + cy c * 512 + (1 - cz c) * 256, 0], off35_eq c⟩
instance closedOff_k0_off36 (c : Dev nD) : ClosedOff (k0_off36 c) := ⟨![1024 + (1 - cz c) * 256, 0], off36_eq c⟩
instance closedOff_k0_off37 (c : Dev nD) : ClosedOff (k0_off37 c) := ⟨![cx c * 1024 + cy c * 512 + cz c * 256, 0], off37_eq c⟩
instance closedOff_k0_off38 (c : Dev nD) : ClosedOff (k0_off38 c) := ⟨![1024 + cz c * 256, 0], off38_eq c⟩
instance closedOff_k0_off39 (c : Dev nD) : ClosedOff (k0_off39 c) := ⟨![cy c * 1024 + cz c * 512 + (1 - cx c) * 256, 384], off39_eq c⟩
instance closedOff_k0_off40 (c : Dev nD) : ClosedOff (k0_off40 c) := ⟨![1024 + (1 - cx c) * 256, 0], off40_eq c⟩
instance closedOff_k0_off41 (c : Dev nD) : ClosedOff (k0_off41 c) := ⟨![cy c * 1024 + cz c * 512 + cx c * 256, 384], off41_eq c⟩
instance closedOff_k0_off42 (c : Dev nD) : ClosedOff (k0_off42 c) := ⟨![1024 + cx c * 256, 0], off42_eq c⟩
instance closedOff_k0_off43 (c : Dev nD) : ClosedOff (k0_off43 c) := ⟨![cz c * 1024 + cx c * 512 + (1 - cy c) * 256, 768], off43_eq c⟩
instance closedOff_k0_off44 (c : Dev nD) : ClosedOff (k0_off44 c) := ⟨![1024 + (1 - cy c) * 256, 0], off44_eq c⟩
instance closedOff_k0_off45 (c : Dev nD) : ClosedOff (k0_off45 c) := ⟨![cz c * 1024 + cx c * 512 + cy c * 256, 768], off45_eq c⟩
instance closedOff_k0_off46 (c : Dev nD) : ClosedOff (k0_off46 c) := ⟨![1024 + cy c * 256, 0], off46_eq c⟩
instance closedOff_k0_off47 (c : Dev nD) : ClosedOff (k0_off47 c) := ⟨![cx c * 1024 + cy c * 512 + (1 - cz c) * 256, 1152], off47_eq c⟩
instance closedOff_k0_off48 (c : Dev nD) : ClosedOff (k0_off48 c) := ⟨![cx c * 1024 + cy c * 512 + cz c * 256, 1152], off48_eq c⟩
instance closedOff_k0_off49 (c : Dev nD) : ClosedOff (k0_off49 c) := ⟨![cy c * 1024 + cz c * 512 + (1 - cx c) * 256, 1536], off49_eq c⟩
instance closedOff_k0_off50 (c : Dev nD) : ClosedOff (k0_off50 c) := ⟨![1024 + (1 - cx c) * 256, 0], off50_eq c⟩
instance closedOff_k0_off51 (c : Dev nD) : ClosedOff (k0_off51 c) := ⟨![cy c * 1024 + cz c * 512 + cx c * 256, 1536], off51_eq c⟩
instance closedOff_k0_off52 (c : Dev nD) : ClosedOff (k0_off52 c) := ⟨![1024 + cx c * 256, 0], off52_eq c⟩
instance closedOff_k0_off53 (c : Dev nD) : ClosedOff (k0_off53 c) := ⟨![cz c * 1024 + cx c * 512 + (1 - cy c) * 256, 1792], off53_eq c⟩
instance closedOff_k0_off54 (c : Dev nD) : ClosedOff (k0_off54 c) := ⟨![1024 + (1 - cy c) * 256, 0], off54_eq c⟩
instance closedOff_k0_off55 (c : Dev nD) : ClosedOff (k0_off55 c) := ⟨![cz c * 1024 + cx c * 512 + cy c * 256, 1792], off55_eq c⟩
instance closedOff_k0_off56 (c : Dev nD) : ClosedOff (k0_off56 c) := ⟨![1024 + cy c * 256, 0], off56_eq c⟩
instance closedOff_k0_off57 (c : Dev nD) : ClosedOff (k0_off57 c) := ⟨![1536, 0], off57_eq c⟩
instance closedOff_k0_off58 (c : Dev nD) : ClosedOff (k0_off58 c) := ⟨![cx c * 1024 + cy c * 512 + cz c * 256, 0], off58_eq c⟩
instance closedOff_k0_off59 (c : Dev nD) : ClosedOff (k0_off59 c) := ⟨![cx c * 1024 + cy c * 512 + cz c * 256, 0], off59_eq c⟩
instance closedOff_k0_off60 (c : Dev nD) : ClosedOff (k0_off60 c) := ⟨![1536, 0], off60_eq c⟩
instance closedOff_k0_off61 (c : Dev nD) : ClosedOff (k0_off61 c) := ⟨![cy c * 1024 + cz c * 512 + cx c * 256, 0], off61_eq c⟩
instance closedOff_k0_off62 (c : Dev nD) : ClosedOff (k0_off62 c) := ⟨![cy c * 1024 + cz c * 512 + cx c * 256, 384], off62_eq c⟩
instance closedOff_k0_off63 (c : Dev nD) : ClosedOff (k0_off63 c) := ⟨![1536, 0], off63_eq c⟩
instance closedOff_k0_off64 (c : Dev nD) : ClosedOff (k0_off64 c) := ⟨![cz c * 1024 + cx c * 512 + cy c * 256, 0], off64_eq c⟩
instance closedOff_k0_off65 (c : Dev nD) : ClosedOff (k0_off65 c) := ⟨![cz c * 1024 + cx c * 512 + cy c * 256, 768], off65_eq c⟩
instance closedOff_k0_off66 (c : Dev nD) : ClosedOff (k0_off66 c) := ⟨![cx c * 1024 + cy c * 512 + cz c * 256, 1152], off66_eq c⟩
instance closedOff_k0_off67 (c : Dev nD) : ClosedOff (k0_off67 c) := ⟨![1536, 0], off67_eq c⟩
instance closedOff_k0_off68 (c : Dev nD) : ClosedOff (k0_off68 c) := ⟨![cy c * 1024 + cz c * 512 + cx c * 256, 0], off68_eq c⟩
instance closedOff_k0_off69 (c : Dev nD) : ClosedOff (k0_off69 c) := ⟨![cy c * 1024 + cz c * 512 + cx c * 256, 1536], off69_eq c⟩
instance closedOff_k0_off70 (c : Dev nD) : ClosedOff (k0_off70 c) := ⟨![1536, 0], off70_eq c⟩
instance closedOff_k0_off71 (c : Dev nD) : ClosedOff (k0_off71 c) := ⟨![cz c * 1024 + cx c * 512 + cy c * 256, 0], off71_eq c⟩
instance closedOff_k0_off72 (c : Dev nD) : ClosedOff (k0_off72 c) := ⟨![cz c * 1024 + cx c * 512 + cy c * 256, 1792], off72_eq c⟩
instance closedOff_k0_off73 (c : Dev nD) : ClosedOff (k0_off73 c) := ⟨![cx c * 1024 + cy c * 512 + cz c * 256, 0], off73_eq c⟩
instance closedOff_k0_off74 (c : Dev nD) : ClosedOff (k0_off74 c) := ⟨![cy c * 1024 + cz c * 512 + cx c * 256, 0], off74_eq c⟩
instance closedOff_k0_off75 (c : Dev nD) : ClosedOff (k0_off75 c) := ⟨![cz c * 1024 + cx c * 512 + cy c * 256, 0], off75_eq c⟩
instance closedOff_k0_off76 (c : Dev nD) : ClosedOff (k0_off76 c) := ⟨![cy c * 1024 + cz c * 512 + cx c * 256, 0], off76_eq c⟩
instance closedOff_k0_off77 (c : Dev nD) : ClosedOff (k0_off77 c) := ⟨![cz c * 1024 + cx c * 512 + cy c * 256, 0], off77_eq c⟩
instance closedOff_k0_off78 (c : Dev nD) : ClosedOff (k0_off78 c) := ⟨![cx c * 1024 + cy c * 512, 0], off78_eq c⟩
instance closedOff_k0_off79 (c : Dev nD) : ClosedOff (k0_off79 c) := ⟨![cx c * 1024 + cy c * 512 + (1 - cz c) * 256, 0], off79_eq c⟩
instance closedOff_k0_off80 (c : Dev nD) : ClosedOff (k0_off80 c) := ⟨![cx c * 1024 + cy c * 512 + (1 - cz c) * 256, 0], off80_eq c⟩
instance closedOff_k0_off81 (c : Dev nD) : ClosedOff (k0_off81 c) := ⟨![cx c * 1024 + cy c * 512 + (1 - cz c) * 256, 0], off81_eq c⟩
instance closedOff_k0_off82 (c : Dev nD) : ClosedOff (k0_off82 c) := ⟨![cy c * 1024 + cz c * 512, 0], off82_eq c⟩
instance closedOff_k0_off83 (c : Dev nD) : ClosedOff (k0_off83 c) := ⟨![cy c * 1024 + cz c * 512 + (1 - cx c) * 256, 0], off83_eq c⟩
instance closedOff_k0_off84 (c : Dev nD) : ClosedOff (k0_off84 c) := ⟨![cy c * 1024 + cz c * 512 + (1 - cx c) * 256, 384], off84_eq c⟩
instance closedOff_k0_off85 (c : Dev nD) : ClosedOff (k0_off85 c) := ⟨![cy c * 1024 + cz c * 512 + (1 - cx c) * 256, 384], off85_eq c⟩
instance closedOff_k0_off86 (c : Dev nD) : ClosedOff (k0_off86 c) := ⟨![cz c * 1024 + cx c * 512, 0], off86_eq c⟩
instance closedOff_k0_off87 (c : Dev nD) : ClosedOff (k0_off87 c) := ⟨![cz c * 1024 + cx c * 512 + (1 - cy c) * 256, 0], off87_eq c⟩
instance closedOff_k0_off88 (c : Dev nD) : ClosedOff (k0_off88 c) := ⟨![cz c * 1024 + cx c * 512 + (1 - cy c) * 256, 768], off88_eq c⟩
instance closedOff_k0_off89 (c : Dev nD) : ClosedOff (k0_off89 c) := ⟨![cz c * 1024 + cx c * 512 + (1 - cy c) * 256, 768], off89_eq c⟩
instance closedOff_k0_off90 (c : Dev nD) : ClosedOff (k0_off90 c) := ⟨![cx c * 1024 + cy c * 512 + (1 - cz c) * 256, 1152], off90_eq c⟩
instance closedOff_k0_off91 (c : Dev nD) : ClosedOff (k0_off91 c) := ⟨![cx c * 1024 + cy c * 512 + (1 - cz c) * 256, 1152], off91_eq c⟩
instance closedOff_k0_off92 (c : Dev nD) : ClosedOff (k0_off92 c) := ⟨![cy c * 1024 + cz c * 512, 0], off92_eq c⟩
instance closedOff_k0_off93 (c : Dev nD) : ClosedOff (k0_off93 c) := ⟨![cy c * 1024 + cz c * 512 + (1 - cx c) * 256, 0], off93_eq c⟩
instance closedOff_k0_off94 (c : Dev nD) : ClosedOff (k0_off94 c) := ⟨![cy c * 1024 + cz c * 512 + (1 - cx c) * 256, 1536], off94_eq c⟩
instance closedOff_k0_off95 (c : Dev nD) : ClosedOff (k0_off95 c) := ⟨![cy c * 1024 + cz c * 512 + (1 - cx c) * 256, 1536], off95_eq c⟩
instance closedOff_k0_off96 (c : Dev nD) : ClosedOff (k0_off96 c) := ⟨![cz c * 1024 + cx c * 512, 0], off96_eq c⟩
instance closedOff_k0_off97 (c : Dev nD) : ClosedOff (k0_off97 c) := ⟨![cz c * 1024 + cx c * 512 + (1 - cy c) * 256, 0], off97_eq c⟩
instance closedOff_k0_off98 (c : Dev nD) : ClosedOff (k0_off98 c) := ⟨![cz c * 1024 + cx c * 512 + (1 - cy c) * 256, 1792], off98_eq c⟩
instance closedOff_k0_off99 (c : Dev nD) : ClosedOff (k0_off99 c) := ⟨![cz c * 1024 + cx c * 512 + (1 - cy c) * 256, 1792], off99_eq c⟩
instance closedOff_k0_off100 (c : Dev nD) : ClosedOff (k0_off100 c) := ⟨![cx c * 1024, 0], off100_eq c⟩
instance closedOff_k0_off101 (c : Dev nD) : ClosedOff (k0_off101 c) := ⟨![cx c * 1024 + (1 - cy c) * 512, 0], off101_eq c⟩
instance closedOff_k0_off102 (c : Dev nD) : ClosedOff (k0_off102 c) := ⟨![cx c * 1024 + (1 - cy c) * 512, 0], off102_eq c⟩
instance closedOff_k0_off103 (c : Dev nD) : ClosedOff (k0_off103 c) := ⟨![cx c * 1024 + (1 - cy c) * 512, 0], off103_eq c⟩
instance closedOff_k0_off104 (c : Dev nD) : ClosedOff (k0_off104 c) := ⟨![cy c * 1024, 0], off104_eq c⟩
instance closedOff_k0_off105 (c : Dev nD) : ClosedOff (k0_off105 c) := ⟨![cy c * 1024 + (1 - cz c) * 512, 0], off105_eq c⟩
instance closedOff_k0_off106 (c : Dev nD) : ClosedOff (k0_off106 c) := ⟨![cy c * 1024 + (1 - cz c) * 512, 384], off106_eq c⟩
instance closedOff_k0_off107 (c : Dev nD) : ClosedOff (k0_off107 c) := ⟨![cy c * 1024 + (1 - cz c) * 512, 384], off107_eq c⟩
instance closedOff_k0_off108 (c : Dev nD) : ClosedOff (k0_off108 c) := ⟨![cz c * 1024, 0], off108_eq c⟩
instance closedOff_k0_off109 (c : Dev nD) : ClosedOff (k0_off109 c) := ⟨![cz c * 1024 + (1 - cx c) * 512, 0], off109_eq c⟩
instance closedOff_k0_off110 (c : Dev nD) : ClosedOff (k0_off110 c) := ⟨![cz c * 1024 + (1 - cx c) * 512, 768], off110_eq c⟩
instance closedOff_k0_off111 (c : Dev nD) : ClosedOff (k0_off111 c) := ⟨![cz c * 1024 + (1 - cx c) * 512, 768], off111_eq c⟩
instance closedOff_k0_off112 (c : Dev nD) : ClosedOff (k0_off112 c) := ⟨![cx c * 1024 + (1 - cy c) * 512, 1152], off112_eq c⟩
instance closedOff_k0_off113 (c : Dev nD) : ClosedOff (k0_off113 c) := ⟨![cx c * 1024 + (1 - cy c) * 512, 1152], off113_eq c⟩
instance closedOff_k0_off114 (c : Dev nD) : ClosedOff (k0_off114 c) := ⟨![cy c * 1024, 0], off114_eq c⟩
instance closedOff_k0_off115 (c : Dev nD) : ClosedOff (k0_off115 c) := ⟨![cy c * 1024 + (1 - cz c) * 512, 0], off115_eq c⟩
instance closedOff_k0_off116 (c : Dev nD) : ClosedOff (k0_off116 c) := ⟨![cy c * 1024 + (1 - cz c) * 512, 1536], off116_eq c⟩
instance closedOff_k0_off117 (c : Dev nD) : ClosedOff (k0_off117 c) := ⟨![cy c * 1024 + (1 - cz c) * 512, 1536], off117_eq c⟩
instance closedOff_k0_off118 (c : Dev nD) : ClosedOff (k0_off118 c) := ⟨![cz c * 1024, 0], off118_eq c⟩
instance closedOff_k0_off119 (c : Dev nD) : ClosedOff (k0_off119 c) := ⟨![cz c * 1024 + (1 - cx c) * 512, 0], off119_eq c⟩
instance closedOff_k0_off120 (c : Dev nD) : ClosedOff (k0_off120 c) := ⟨![cz c * 1024 + (1 - cx c) * 512, 1792], off120_eq c⟩
instance closedOff_k0_off121 (c : Dev nD) : ClosedOff (k0_off121 c) := ⟨![cz c * 1024 + (1 - cx c) * 512, 1792], off121_eq c⟩
instance closedOff_k0_off122 (c : Dev nD) : ClosedOff (k0_off122 c) := ⟨![(1 - cx c) * 1024, 0], off122_eq c⟩
instance closedOff_k0_off123 (c : Dev nD) : ClosedOff (k0_off123 c) := ⟨![(1 - cx c) * 1024, 0], off123_eq c⟩
instance closedOff_k0_off124 (c : Dev nD) : ClosedOff (k0_off124 c) := ⟨![(1 - cx c) * 1024, 0], off124_eq c⟩
instance closedOff_k0_off125 (c : Dev nD) : ClosedOff (k0_off125 c) := ⟨![(1 - cy c) * 1024, 0], off125_eq c⟩
instance closedOff_k0_off126 (c : Dev nD) : ClosedOff (k0_off126 c) := ⟨![(1 - cy c) * 1024, 384], off126_eq c⟩
instance closedOff_k0_off127 (c : Dev nD) : ClosedOff (k0_off127 c) := ⟨![(1 - cy c) * 1024, 384], off127_eq c⟩
instance closedOff_k0_off128 (c : Dev nD) : ClosedOff (k0_off128 c) := ⟨![(1 - cz c) * 1024, 0], off128_eq c⟩
instance closedOff_k0_off129 (c : Dev nD) : ClosedOff (k0_off129 c) := ⟨![(1 - cz c) * 1024, 768], off129_eq c⟩
instance closedOff_k0_off130 (c : Dev nD) : ClosedOff (k0_off130 c) := ⟨![(1 - cz c) * 1024, 768], off130_eq c⟩
instance closedOff_k0_off131 (c : Dev nD) : ClosedOff (k0_off131 c) := ⟨![(1 - cx c) * 1024, 1152], off131_eq c⟩
instance closedOff_k0_off132 (c : Dev nD) : ClosedOff (k0_off132 c) := ⟨![(1 - cx c) * 1024, 1152], off132_eq c⟩
instance closedOff_k0_off133 (c : Dev nD) : ClosedOff (k0_off133 c) := ⟨![(1 - cy c) * 1024, 0], off133_eq c⟩
instance closedOff_k0_off134 (c : Dev nD) : ClosedOff (k0_off134 c) := ⟨![(1 - cy c) * 1024, 1536], off134_eq c⟩
instance closedOff_k0_off135 (c : Dev nD) : ClosedOff (k0_off135 c) := ⟨![(1 - cy c) * 1024, 1536], off135_eq c⟩
instance closedOff_k0_off136 (c : Dev nD) : ClosedOff (k0_off136 c) := ⟨![(1 - cz c) * 1024, 0], off136_eq c⟩
instance closedOff_k0_off137 (c : Dev nD) : ClosedOff (k0_off137 c) := ⟨![(1 - cz c) * 1024, 1792], off137_eq c⟩
instance closedOff_k0_off138 (c : Dev nD) : ClosedOff (k0_off138 c) := ⟨![(1 - cz c) * 1024, 1792], off138_eq c⟩

end Cert.KernelIdeal.Topo
-- ==== Proof.Body01.lean ====
/-
The first two stretches of a device's kernel body. The first: the entry handshake — one unit to each of the three
cube neighbours' barrier cells, each carrying the pieces of this device's landing and all-gather buffers that
neighbour will write, then the wait for the three units, which bring the neighbours' pieces — and the loads of the
half of A and the columns of B that group 0's first partial product needs. The second: that product, rounded, stored
into group 0's staging buffer and sent to the neighbour across axis 0, whose landing rows it fills; and group 1's
product stored into its staging buffer.
-/
import proofs.«900882_g7700000000000883_dist_matmul_gelu_kshard_i_m2048_n2048_k1024_v7x_i8_f32_1_alg».proof.Proof.Rules
import proofs.«900882_g7700000000000883_dist_matmul_gelu_kshard_i_m2048_n2048_k1024_v7x_i8_f32_1_alg».proof.Proof.TopoTab
import proofs.«900882_g7700000000000883_dist_matmul_gelu_kshard_i_m2048_n2048_k1024_v7x_i8_f32_1_alg».proof.Proof.PiecesTab
import proofs.«900882_g7700000000000883_dist_matmul_gelu_kshard_i_m2048_n2048_k1024_v7x_i8_f32_1_alg».proof.Proof.Gen.KernelIdeal.Skeleton
import Idealize.ShloMosaic.Lib.Pipeline.Value

set_option maxRecDepth 16384

noncomputable section

namespace Cert.KernelIdeal.Proto

open Cert.KernelIdeal Cert.KernelIdeal.Gen Cert.KernelIdeal.Topo
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : Vals F)

theorem dev1_eq' (c : Dev nD) : (⟨k0_dev1 c, k0_dev1_lt c⟩ : Dev nD) = nbr 0 c := dev1_eq c
theorem dev2_eq' (c : Dev nD) : (⟨k0_dev2 c, k0_dev2_lt c⟩ : Dev nD) = nbr 1 c := dev2_eq c
theorem dev3_eq' (c : Dev nD) : (⟨k0_dev3 c, k0_dev3_lt c⟩ : Dev nD) = nbr 2 c := dev3_eq c

set_option maxHeartbeats 1000000 in
theorem part1_run (c : Dev nD) (κ0 κ1 κ2 κb : ℕ) (W : Waits sig Unit)
    (fa : Buf (Elt F) ((Memref.whole cc0_stg0_0 : Memref sig .tc .vmem S2048x1024 .f32).view.loc (c : Thread nD τ))) (fb : Buf (Elt F) ((Memref.whole cc0_stg1_0 : Memref sig .tc .vmem S1024x2048 .f32).view.loc (c : Thread nD τ)))
    :
    iprop(cellInv ER (sched V) κ0 (cell (nbr 0 c) .bar) ∗ cellInv ER (sched V) κ1 (cell (nbr 1 c) .bar) ∗ cellInv ER (sched V) κ2 (cell (nbr 2 c) .bar)
        ∗ cellInv ER (sched V) κb (cell c .bar)
        ∗ reached ER (cell (nbr 0 c) .bar) 0 ∗ reached ER (cell (nbr 1 c) .bar) 0 ∗ reached ER (cell (nbr 2 c) .bar) 0
        ∗ dutyTok ER (cell (nbr 0 c) .bar) 0 (0 : Fin 3) ∗ dutyTok ER (cell (nbr 1 c) .bar) 0 (1 : Fin 3) ∗ dutyTok ER (cell (nbr 2 c) .bar) 0 (2 : Fin 3)
        ∗ barPay (F := F) (nbr 0 c) 0 ∗ barPay (F := F) (nbr 1 c) 1 ∗ barPay (F := F) (nbr 2 c) 2
        ∗ owes (c : Thread nD τ) (Owe c 0) W ∗ cred (tallyAt (cell c .bar) () 3) ∗ atPos ER (cell c .bar) 0 ∅ 0 ∗ levAts L lv
        ∗ heldW c (Memref.whole cc0_stg0_0 : Memref sig .tc .vmem S2048x1024 .f32) fa ∗ heldW c (Memref.whole cc0_stg1_0 : Memref sig .tc .vmem S1024x2048 .f32) fb)
      ⊢ wp frame (wpE (defs₀ (F := F)) 𝒱₀ c none) Set.univ
          (k0_part1 (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23)
          (fun r => iprop(⌜r = ⟨c, Scalar.remsi (Scalar.divsi c.word 1#32) 8#32,
                Scalar.xori (Scalar.andi (Scalar.remsi (Scalar.divsi c.word 1#32) 8#32) 1#32) (Scalar.andi (Scalar.shrsi (Scalar.remsi (Scalar.divsi c.word 1#32) 8#32) 1#32) 1#32),
                Scalar.andi (Scalar.shrsi (Scalar.remsi (Scalar.divsi c.word 1#32) 8#32) 1#32) 1#32,
                Scalar.shrsi (Scalar.remsi (Scalar.divsi c.word 1#32) 8#32) 2#32,
                k0_pay1 (View.readAt (Elt F) (Memref.whole cc0_stg0_0 : Memref sig .tc .vmem S2048x1024 .f32).view (Rect.unit (s := S2048x1024) (k0_off1 c) S1024x1024.size (k0_off1_inb c)).toLoadRect fa),
                k0_pay2 (View.readAt (Elt F) (Memref.whole cc0_stg1_0 : Memref sig .tc .vmem S1024x2048 .f32).view (Rect.unit (s := S1024x2048) ![0, 0] S1024x384.size inb_S1024x2048_S1024x384_0_0).toLoadRect fb)⟩⌝
            ∗ barPay (F := F) c 0 ∗ barPay (F := F) c 1 ∗ barPay (F := F) c 2
            ∗ owes (c : Thread nD τ) (Owe c 3) (insert (SemLoc.reg barS, ()) W) ∗ atPos ER (cell c .bar) 1 ∅ 0
            ∗ heldW c (Memref.whole cc0_stg0_0 : Memref sig .tc .vmem S2048x1024 .f32) fa ∗ heldW c (Memref.whole cc0_stg1_0 : Memref sig .tc .vmem S1024x2048 .f32) fb)) := by
  simp only [k0_part1_eq_skeleton]; unfold k0_part1_skel
  simp only [semSignalWord, semWaitWord, Prog.lift, Prog.bind_op, Prog.bind_ret, Prog.pure_eq_ret, wp_deviceId]
  iintro ⟨#HI0, #HI1, #HI2, #HIb, #Hr0, #Hr1, #Hr2, Ht0, Ht1, Ht2, Hp0, Hp1, Hp2, HO, Hcb, Hat, #Hlev, Ha, Hb⟩
  simp only [dev1_eq' c, dev2_eq' c, dev3_eq' c]
  have hO0 : Owe c 0 = Owe c 1 + tallyAt ((nbr 0 c : Thread nD τ), SemLoc.reg barS) () 1 := by
    rw [Owe_succ c 0 (by decide), show paid c 0 = _ from paid_bar c 0]; rfl
  have hO1 : Owe c 1 = Owe c 2 + tallyAt ((nbr 1 c : Thread nD τ), SemLoc.reg barS) () 1 := by
    rw [Owe_succ c 1 (by decide), show paid c 1 = _ from paid_bar c 1]; rfl
  have hO2 : Owe c 2 = Owe c 3 + tallyAt ((nbr 2 c : Thread nD τ), SemLoc.reg barS) () 1 := by
    rw [Owe_succ c 2 (by decide), show paid c 2 = _ from paid_bar c 2]; rfl
  iapply (Rounds.wp_signal 𝒱₀ ER (sched V) (c : Thread nD τ) none (dst := (nbr 0 c : Thread nD τ)) (κ := κ0)
      (d := (0 : Fin 3)) (by rw [duties_bar]; exact Finset.mem_univ _) (amount_bar V (nbr 0 c) 0) () (Owe c 1)
      hO0) $$ [HO Ht0 Hp0]
  · isplitr; · iexact HI0
    isplitl [HO]; · iexact HO
    isplitl [Ht0]; · iexact Ht0
    isplitl [Hp0]; · rw [payload_bar]; iexact Hp0
    iexact Hr0
  iintro HO
  iapply (Rounds.wp_signal 𝒱₀ ER (sched V) (c : Thread nD τ) none (dst := (nbr 1 c : Thread nD τ)) (κ := κ1)
      (d := (1 : Fin 3)) (by rw [duties_bar]; exact Finset.mem_univ _) (amount_bar V (nbr 1 c) 1) () (Owe c 2)
      hO1) $$ [HO Ht1 Hp1]
  · isplitr; · iexact HI1
    isplitl [HO]; · iexact HO
    isplitl [Ht1]; · iexact Ht1
    isplitl [Hp1]; · rw [payload_bar]; iexact Hp1
    iexact Hr1
  iintro HO
  iapply (Rounds.wp_signal 𝒱₀ ER (sched V) (c : Thread nD τ) none (dst := (nbr 2 c : Thread nD τ)) (κ := κ2)
      (d := (2 : Fin 3)) (by rw [duties_bar]; exact Finset.mem_univ _) (amount_bar V (nbr 2 c) 2) () (Owe c 3)
      hO2) $$ [HO Ht2 Hp2]
  · isplitr; · iexact HI2
    isplitl [HO]; · iexact HO
    isplitl [Ht2]; · iexact Ht2
    isplitl [Hp2]; · rw [payload_bar]; iexact Hp2
    iexact Hr2
  iintro HO
  -- the wait for the three units: the neighbours' pieces come with them
  iapply (Rounds.wp_wait_rest_token 𝒱₀ ER (sched V) (c : Thread nD τ) none (κ := κb)
      (wpE_semWait_eq 𝒱₀ (c : Thread nD τ) none Set.univ) (Set.mem_univ _) () (O := Owe c 3) (W := W) (R := 0) (m := 0) (T := ∅)
      (by show 0 + 3 = (sched V).expect ((c : Thread nD τ), SemLoc.reg barS) 0; rw [expect_bar'])) $$ [Hcb HO Hat]
  · isplitr; · iexact HIb
    isplitl [Hcb]; · iexact Hcb
    isplitl [HO]; · iexact HO
    isplitr; · iapply (mayWait_bar c); iexact Hlev
    iexact Hat
  iintro ⟨HO, Hat, #HrB, Hpay⟩
  ihave Hp := (Entails.of_eq (rest_bar V c)) $$ Hpay
  icases Hp with ⟨Hq0, Hq1, Hq2⟩
  unfold heldW
  sl_exec
  sl_step
  isplitr; · ipureintro; rfl
  isplitl [Hq0]; · iexact Hq0
  isplitl [Hq1]; · iexact Hq1
  isplitl [Hq2]; · iexact Hq2
  isplitl [HO]; · iexact HO
  isplitl [Hat]; · iexact Hat
  isplitl [Ha]; · iexact Ha
  iexact Hb

theorem dev4_eq' (c : Dev nD) : (⟨k0_dev4 c, k0_dev4_lt c⟩ : Dev nD) = nbr 0 c := dev4_eq c

set_option maxHeartbeats 2000000 in
theorem part2_run (c : Dev nD) (κs κr : ℕ) (W : Waits sig Unit) (v2 v6 v8 : BitVec 32) (v25 : FVec F S1024x1024 .bf16) (v27 : FVec F S1024x384 .f32)
    (fa : Buf (Elt F) ((Memref.whole cc0_stg0_0 : Memref sig .tc .vmem S2048x1024 .f32).view.loc (c : Thread nD τ)))
    (fb : Buf (Elt F) ((Memref.whole cc0_stg1_0 : Memref sig .tc .vmem S1024x2048 .f32).view.loc (c : Thread nD τ)))
    (f10 : Buf (Elt F) ((Memref.whole cc0_scratch7 : Memref sig .tc .vmem S1024x384 .bf16).view.loc (c : Thread nD τ)))
    (f11 : Buf (Elt F) ((Memref.whole cc0_scratch8 : Memref sig .tc .vmem S1024x384 .bf16).view.loc (c : Thread nD τ)))
    (hV : V.rs0_0 c ((stgM0_0 : Memref sig .tc .vmem S1024x384 .bf16).view.read (Elt F)
        ((Memref.whole cc0_scratch7 : Memref sig .tc .vmem S1024x384 .bf16).view.writes (Elt F) f10 [⟨Rect.unit (s := S1024x384) ![0, 0] S1024x384.size inb_S1024x384_S1024x384_0_0, k0_pay3 v25 v27⟩])))
    :
    iprop(cellInv ER (sched V) κs (cell c (.rsS 0 0)) ∗ cellInv ER (sched V) κr (cell (nbr 0 c) (.rsR 0 0))
        ∗ reached ER (cell c (.rsS 0 0)) 0 ∗ reached ER (cell (nbr 0 c) (.rsR 0 0)) 0
        ∗ dutyTok ER (cell c (.rsS 0 0)) 0 (0 : Fin 3) ∗ dutyTok ER (cell (nbr 0 c) (.rsR 0 0)) 0 (0 : Fin 3)
        ∗ ptsAny (F := F) (nbr 0 c) commM0_0
        ∗ owes (c : Thread nD τ) (Owe c 3) W
        ∗ heldW c (Memref.whole cc0_stg0_0 : Memref sig .tc .vmem S2048x1024 .f32) fa ∗ heldW c (Memref.whole cc0_stg1_0 : Memref sig .tc .vmem S1024x2048 .f32) fb
        ∗ heldW c (Memref.whole cc0_scratch7 : Memref sig .tc .vmem S1024x384 .bf16) f10 ∗ heldW c (Memref.whole cc0_scratch8 : Memref sig .tc .vmem S1024x384 .bf16) f11)
      ⊢ wp frame (wpE (defs₀ (F := F)) 𝒱₀ c none) Set.univ
          (k0_part2 (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23 c v2 v6 v8 v25 v27)
          (fun r => iprop(⌜r = ⟨Scalar.xori v2 1#32, Scalar.muli v6 1024#32, Scalar.xori v2 3#32⟩⌝
            ∗ cred (tallyAt (cell c (.rsS 0 0)) () (amt (.rsR 0 0))) ∗ owes (c : Thread nD τ) (Owe c 4) W
            ∗ heldW c (Memref.whole cc0_stg0_0 : Memref sig .tc .vmem S2048x1024 .f32) fa ∗ heldW c (Memref.whole cc0_stg1_0 : Memref sig .tc .vmem S1024x2048 .f32) fb
            ∗ heldW c (Memref.whole cc0_scratch8 : Memref sig .tc .vmem S1024x384 .bf16)
                ((Memref.whole cc0_scratch8 : Memref sig .tc .vmem S1024x384 .bf16).view.writes (Elt F) f11
                  [⟨Rect.unit (s := S1024x384) ![0, 0] S1024x384.size inb_S1024x384_S1024x384_0_0,
                    k0_pay4 (View.readAt (Elt F) (Memref.whole cc0_stg0_0 : Memref sig .tc .vmem S2048x1024 .f32).view (Rect.unit (s := S2048x1024) (k0_off2 c) S1024x1024.size (k0_off2_inb c)).toLoadRect fa)
                      (View.readAt (Elt F) (Memref.whole cc0_stg1_0 : Memref sig .tc .vmem S1024x2048 .f32).view (Rect.unit (s := S1024x2048) ![0, 384] S1024x384.size inb_S1024x2048_S1024x384_0_384).toLoadRect fb)⟩]))) := by
  simp only [k0_part2_eq_skeleton]; unfold k0_part2_skel
  simp only [Prog.lift, Prog.bind_op, Prog.bind_ret, Prog.pure_eq_ret]
  iintro ⟨#HIs, #HIr, #Hrs, #Hrr, Hts, Htr, Hdst, HO, Ha, Hb, H10, H11⟩
  unfold heldW
  sl_exec
  unfold ptsAny
  icases Hdst with ⟨%fd, Hdst⟩
  -- the staging buffer, held whole, is the piece the transfer reads
  ihave H10s := (Entails.of_eq (pts_set_eq (F := F) (ℓ := (Memref.whole cc0_scratch7 : Memref sig .tc .vmem S1024x384 .bf16).view.loc (c : Thread nD τ))
      (S' := (stgM0_0 : Memref sig .tc .vmem S1024x384 .bf16).view.set) ((show (Memref.whole cc0_scratch7 : Memref sig .tc .vmem S1024x384 .bf16).view.set = Finset.univ from View.set_whole _).trans stg_univ_0.symm))) $$ H10
  iapply (wp_send_to V c ⟨k0_dev4 c, k0_dev4_lt c⟩ 0 (dev4_eq c) (.rsS 0 0) (.rsR 0 0) (by decide) (by decide) 3 (by decide) (paid_rs c 0 0) rfl
      (src := stgM0_0) (dst := commM0_0) (rsS_sem_eq 0 0 _) (rsR_sem_eq 0 0 _) rfl fd κs κr W
      (ptsAny_intro c stgM0_0 _)
      (ptsIs_intro (nbr 0 c) commM0_0 _ _ (by rw [View.read_write_univ, nbr_nbr]; exact hV))) $$ [H10s Hdst HO Hts Htr]
  · isplitr; · iexact HIs
    isplitr; · iexact HIr
    isplitl [H10s]; · iexact H10s
    isplitl [Hdst]; · iexact Hdst
    isplitl [HO]; · iexact HO
    isplitl [Hts]; · iexact Hts
    isplitr; · iexact Hrs
    isplitl [Htr]; · iexact Htr
    iexact Hrr
  iintro ⟨Hcs, HO⟩
  sl_exec
  sl_step
  isplitr; · ipureintro; rfl
  isplitl [Hcs]; · iexact Hcs
  isplitl [HO]; · iexact HO
  isplitl [Ha]; · iexact Ha
  isplitl [Hb]; · iexact Hb
  iexact H11

end Cert.KernelIdeal.Proto

end
-- ==== Proof.Body03.lean ====
/-
The third stretch of a device's kernel body: group 1's rounded partial product, stored into its staging buffer by
the stretch before, is sent to the neighbour across axis 1, whose landing rows it fills; then group 2's product of
the half of A that leaves across axis 2 with its columns of B is stored into group 2's staging buffer.
-/
import proofs.«900882_g7700000000000883_dist_matmul_gelu_kshard_i_m2048_n2048_k1024_v7x_i8_f32_1_alg».proof.Proof.Rules
import proofs.«900882_g7700000000000883_dist_matmul_gelu_kshard_i_m2048_n2048_k1024_v7x_i8_f32_1_alg».proof.Proof.TopoTab
import proofs.«900882_g7700000000000883_dist_matmul_gelu_kshard_i_m2048_n2048_k1024_v7x_i8_f32_1_alg».proof.Proof.PiecesTab
import proofs.«900882_g7700000000000883_dist_matmul_gelu_kshard_i_m2048_n2048_k1024_v7x_i8_f32_1_alg».proof.Proof.Gen.KernelIdeal.Skeleton
import Idealize.ShloMosaic.Lib.Pipeline.Value

set_option maxRecDepth 16384

noncomputable section

namespace Cert.KernelIdeal.Proto

open Cert.KernelIdeal Cert.KernelIdeal.Gen Cert.KernelIdeal.Topo
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : Vals F)

set_option maxHeartbeats 2000000 in
theorem part3_run (c : Dev nD) (κs κr : ℕ) (W : Waits sig Unit) (v2 v8 v9 v58 : BitVec 32)
    (fa : Buf (Elt F) ((Memref.whole cc0_stg0_0 : Memref sig .tc .vmem S2048x1024 .f32).view.loc (c : Thread nD τ)))
    (fb : Buf (Elt F) ((Memref.whole cc0_stg1_0 : Memref sig .tc .vmem S1024x2048 .f32).view.loc (c : Thread nD τ)))
    (f11 : Buf (Elt F) ((Memref.whole cc0_scratch8 : Memref sig .tc .vmem S1024x384 .bf16).view.loc (c : Thread nD τ)))
    (f12 : Buf (Elt F) ((Memref.whole cc0_scratch9 : Memref sig .tc .vmem S1024x384 .bf16).view.loc (c : Thread nD τ)))
    (hV : V.rs1_0 c ((stgM1_0 : Memref sig .tc .vmem S1024x384 .bf16).view.read (Elt F) f11)) :
    iprop(cellInv ER (sched V) κs (cell c (.rsS 1 0))
        ∗ cellInv ER (sched V) κr (cell (nbr 1 c) (.rsR 1 0))
        ∗ reached ER (cell c (.rsS 1 0)) 0
        ∗ reached ER (cell (nbr 1 c) (.rsR 1 0)) 0
        ∗ dutyTok ER (cell c (.rsS 1 0)) 0 (0 : Fin 3)
        ∗ dutyTok ER (cell (nbr 1 c) (.rsR 1 0)) 0 (0 : Fin 3)
        ∗ ptsAny (F := F) (nbr 1 c) commM1_0
        ∗ owes (c : Thread nD τ) (Owe c 4) W
        ∗ heldW c (Memref.whole cc0_stg0_0 : Memref sig .tc .vmem S2048x1024 .f32) fa
        ∗ heldW c (Memref.whole cc0_stg1_0 : Memref sig .tc .vmem S1024x2048 .f32) fb
        ∗ heldW c (Memref.whole cc0_scratch8 : Memref sig .tc .vmem S1024x384 .bf16) f11
        ∗ heldW c (Memref.whole cc0_scratch9 : Memref sig .tc .vmem S1024x384 .bf16) f12)
      ⊢ wp frame (wpE (defs₀ (F := F)) 𝒱₀ c none) Set.univ
          (k0_part3 (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23 c v2 v8 v9 v58)
          (fun r => iprop(⌜r = ⟨Scalar.muli v8 1024#32, Scalar.xori v2 4#32⟩⌝
            ∗ cred (tallyAt (cell c (.rsS 1 0)) () (amt (.rsR 1 0)))
            ∗ owes (c : Thread nD τ) (Owe c 5) W
            ∗ heldW c (Memref.whole cc0_stg0_0 : Memref sig .tc .vmem S2048x1024 .f32) fa
            ∗ heldW c (Memref.whole cc0_stg1_0 : Memref sig .tc .vmem S1024x2048 .f32) fb
            ∗ heldW c (Memref.whole cc0_scratch9 : Memref sig .tc .vmem S1024x384 .bf16) ((Memref.whole cc0_scratch9 : Memref sig .tc .vmem S1024x384 .bf16).view.writes (Elt F) f12 [⟨Rect.unit (s := S1024x384) ![0, 0] S1024x384.size inb_S1024x384_S1024x384_0_0, k0_pay5 (View.readAt (Elt F) (Memref.whole cc0_stg0_0 : Memref sig .tc .vmem S2048x1024 .f32).view (Rect.unit (s := S2048x1024) (k0_off3 c) S1024x1024.size (k0_off3_inb c)).toLoadRect fa) (View.readAt (Elt F) (Memref.whole cc0_stg1_0 : Memref sig .tc .vmem S1024x2048 .f32).view (Rect.unit (s := S1024x2048) ![0, 768] S1024x384.size inb_S1024x2048_S1024x384_0_768).toLoadRect fb)⟩]))) := by
  simp only [k0_part3_eq_skeleton]; unfold k0_part3_skel
  simp only [Prog.lift, Prog.bind_op, Prog.bind_ret, Prog.pure_eq_ret]
  iintro ⟨#HIs, #HIr, #Hrs, #Hrr, Hts, Htr, Hdst, HO, Ha, Hb, H11, H12⟩
  unfold heldW
  unfold ptsAny
  icases Hdst with ⟨%fd, Hdst⟩
  ihave H11s := (Entails.of_eq (pts_set_eq (F := F) (ℓ := (Memref.whole cc0_scratch8 : Memref sig .tc .vmem S1024x384 .bf16).view.loc (c : Thread nD τ))
      (S' := (stgM1_0 : Memref sig .tc .vmem S1024x384 .bf16).view.set) ((show (Memref.whole cc0_scratch8 : Memref sig .tc .vmem S1024x384 .bf16).view.set = Finset.univ from View.set_whole _).trans stg_univ_1.symm))) $$ H11
  iapply (wp_send_to V c ⟨k0_dev5 c, k0_dev5_lt c⟩ 1 (dev5_eq c) (.rsS 1 0) (.rsR 1 0) (by decide) (by decide) 4 (by decide) (paid_rs c 1 0) rfl
      (src := stgM1_0) (dst := commM1_0) (rsS_sem_eq 1 0 _) (rsR_sem_eq 1 0 _) rfl fd κs κr W
      (ptsAny_intro c stgM1_0 _)
      (ptsIs_intro (nbr 1 c) commM1_0 _ _ (by rw [View.read_write_univ, nbr_nbr]; exact hV))) $$ [H11s Hdst HO Hts Htr]
  · isplitr; · iexact HIs
    isplitr; · iexact HIr
    isplitl [H11s]; · iexact H11s
    isplitl [Hdst]; · iexact Hdst
    isplitl [HO]; · iexact HO
    isplitl [Hts]; · iexact Hts
    isplitr; · iexact Hrs
    isplitl [Htr]; · iexact Htr
    iexact Hrr
  iintro ⟨Hcs, HO⟩
  sl_exec
  sl_step
  isplitr; · ipureintro; rfl
  isplitl [Hcs]; · iexact Hcs
  isplitl [HO]; · iexact HO
  isplitl [Ha]; · iexact Ha
  isplitl [Hb]; · iexact Hb
  iexact H12

end Cert.KernelIdeal.Proto

end
-- ==== Proof.Body04.lean ====
/-
The fourth stretch of a device's kernel body: group 2's rounded partial product goes to the neighbour across axis 2;
group 3's product of the half of A that leaves across axis 0 with its columns of B is rounded, stored into group 3's
staging buffer and sent to the neighbour across axis 0; and the half of A that leaves across axis 1 is loaded and
rounded for group 4.
-/
import proofs.«900882_g7700000000000883_dist_matmul_gelu_kshard_i_m2048_n2048_k1024_v7x_i8_f32_1_alg».proof.Proof.Rules
import proofs.«900882_g7700000000000883_dist_matmul_gelu_kshard_i_m2048_n2048_k1024_v7x_i8_f32_1_alg».proof.Proof.TopoTab
import proofs.«900882_g7700000000000883_dist_matmul_gelu_kshard_i_m2048_n2048_k1024_v7x_i8_f32_1_alg».proof.Proof.PiecesTab
import proofs.«900882_g7700000000000883_dist_matmul_gelu_kshard_i_m2048_n2048_k1024_v7x_i8_f32_1_alg».proof.Proof.Gen.KernelIdeal.Skeleton
import Idealize.ShloMosaic.Lib.Pipeline.Value

set_option maxRecDepth 16384

noncomputable section

namespace Cert.KernelIdeal.Proto

open Cert.KernelIdeal Cert.KernelIdeal.Gen Cert.KernelIdeal.Topo
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : Vals F)

set_option maxHeartbeats 2000000 in
theorem part4_run (c : Dev nD) (κs2 κr2 κs3 κr3 : ℕ) (W : Waits sig Unit) (v2 v6 v8 v9 : BitVec 32)
    (fa : Buf (Elt F) ((Memref.whole cc0_stg0_0 : Memref sig .tc .vmem S2048x1024 .f32).view.loc (c : Thread nD τ)))
    (fb : Buf (Elt F) ((Memref.whole cc0_stg1_0 : Memref sig .tc .vmem S1024x2048 .f32).view.loc (c : Thread nD τ)))
    (f12 : Buf (Elt F) ((Memref.whole cc0_scratch9 : Memref sig .tc .vmem S1024x384 .bf16).view.loc (c : Thread nD τ)))
    (f13 : Buf (Elt F) ((Memref.whole cc0_scratch10 : Memref sig .tc .vmem S1024x384 .bf16).view.loc (c : Thread nD τ)))
    (hV2 : V.rs2_0 c ((stgM2_0 : Memref sig .tc .vmem S1024x384 .bf16).view.read (Elt F) f12))
    (hV3 : V.rs3_0 c ((stgM3_0 : Memref sig .tc .vmem S1024x384 .bf16).view.read (Elt F)
        ((Memref.whole cc0_scratch10 : Memref sig .tc .vmem S1024x384 .bf16).view.writes (Elt F) f13 [⟨Rect.unit (s := S1024x384) ![0, 0] S1024x384.size inb_S1024x384_S1024x384_0_0, k0_pay6 (View.readAt (Elt F) (Memref.whole cc0_stg0_0 : Memref sig .tc .vmem S2048x1024 .f32).view (Rect.unit (s := S2048x1024) (k0_off1 c) S1024x1024.size (k0_off1_inb c)).toLoadRect fa) (View.readAt (Elt F) (Memref.whole cc0_stg1_0 : Memref sig .tc .vmem S1024x2048 .f32).view (Rect.unit (s := S1024x2048) ![0, 1152] S1024x384.size inb_S1024x2048_S1024x384_0_1152).toLoadRect fb)⟩]))) :
    iprop(cellInv ER (sched V) κs2 (cell c (.rsS 2 0))
        ∗ cellInv ER (sched V) κr2 (cell (nbr 2 c) (.rsR 2 0))
        ∗ reached ER (cell c (.rsS 2 0)) 0
        ∗ reached ER (cell (nbr 2 c) (.rsR 2 0)) 0
        ∗ cellInv ER (sched V) κs3 (cell c (.rsS 3 0))
        ∗ cellInv ER (sched V) κr3 (cell (nbr 0 c) (.rsR 3 0))
        ∗ reached ER (cell c (.rsS 3 0)) 0
        ∗ reached ER (cell (nbr 0 c) (.rsR 3 0)) 0
        ∗ dutyTok ER (cell c (.rsS 2 0)) 0 (0 : Fin 3)
        ∗ dutyTok ER (cell (nbr 2 c) (.rsR 2 0)) 0 (0 : Fin 3)
        ∗ ptsAny (F := F) (nbr 2 c) commM2_0
        ∗ dutyTok ER (cell c (.rsS 3 0)) 0 (0 : Fin 3)
        ∗ dutyTok ER (cell (nbr 0 c) (.rsR 3 0)) 0 (0 : Fin 3)
        ∗ ptsAny (F := F) (nbr 0 c) commM3_0
        ∗ owes (c : Thread nD τ) (Owe c 5) W
        ∗ heldW c (Memref.whole cc0_stg0_0 : Memref sig .tc .vmem S2048x1024 .f32) fa
        ∗ heldW c (Memref.whole cc0_stg1_0 : Memref sig .tc .vmem S1024x2048 .f32) fb
        ∗ heldW c (Memref.whole cc0_scratch9 : Memref sig .tc .vmem S1024x384 .bf16) f12
        ∗ heldW c (Memref.whole cc0_scratch10 : Memref sig .tc .vmem S1024x384 .bf16) f13)
      ⊢ wp frame (wpE (defs₀ (F := F)) 𝒱₀ c none) Set.univ
          (k0_part4 (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23 c v2 v6 v8 v9)
          (fun r => iprop(⌜r = ⟨Scalar.muli v9 1024#32, Scalar.xori v2 1#32, Scalar.muli v6 1024#32, k0_pay7 (View.readAt (Elt F) (Memref.whole cc0_stg0_0 : Memref sig .tc .vmem S2048x1024 .f32).view (Rect.unit (s := S2048x1024) (k0_off2 c) S1024x1024.size (k0_off2_inb c)).toLoadRect fa)⟩⌝
            ∗ cred (tallyAt (cell c (.rsS 2 0)) () (amt (.rsR 2 0)))
            ∗ cred (tallyAt (cell c (.rsS 3 0)) () (amt (.rsR 3 0)))
            ∗ owes (c : Thread nD τ) (Owe c 7) W
            ∗ heldW c (Memref.whole cc0_stg0_0 : Memref sig .tc .vmem S2048x1024 .f32) fa
            ∗ heldW c (Memref.whole cc0_stg1_0 : Memref sig .tc .vmem S1024x2048 .f32) fb)) := by
  simp only [k0_part4_eq_skeleton]; unfold k0_part4_skel
  simp only [Prog.lift, Prog.bind_op, Prog.bind_ret, Prog.pure_eq_ret]
  iintro ⟨#HIs2, #HIr2, #Hrs2, #Hrr2, #HIs3, #HIr3, #Hrs3, #Hrr3, Hts2, Htr2, Hdst2, Hts3, Htr3, Hdst3, HO, Ha, Hb, H12, H13⟩
  unfold heldW
  unfold ptsAny
  icases Hdst2 with ⟨%fd2, Hdst2⟩
  icases Hdst3 with ⟨%fd3, Hdst3⟩
  ihave H12s := (Entails.of_eq (pts_set_eq (F := F) (ℓ := (Memref.whole cc0_scratch9 : Memref sig .tc .vmem S1024x384 .bf16).view.loc (c : Thread nD τ))
      (S' := (stgM2_0 : Memref sig .tc .vmem S1024x384 .bf16).view.set) ((show (Memref.whole cc0_scratch9 : Memref sig .tc .vmem S1024x384 .bf16).view.set = Finset.univ from View.set_whole _).trans stg_univ_2.symm))) $$ H12
  iapply (wp_send_to V c ⟨k0_dev6 c, k0_dev6_lt c⟩ 2 (dev6_eq c) (.rsS 2 0) (.rsR 2 0) (by decide) (by decide) 5 (by decide) (paid_rs c 2 0) rfl
      (src := stgM2_0) (dst := commM2_0) (rsS_sem_eq 2 0 _) (rsR_sem_eq 2 0 _) rfl fd2 κs2 κr2 W
      (ptsAny_intro c stgM2_0 _)
      (ptsIs_intro (nbr 2 c) commM2_0 _ _ (by rw [View.read_write_univ, nbr_nbr]; exact hV2))) $$ [H12s Hdst2 HO Hts2 Htr2]
  · isplitr; · iexact HIs2
    isplitr; · iexact HIr2
    isplitl [H12s]; · iexact H12s
    isplitl [Hdst2]; · iexact Hdst2
    isplitl [HO]; · iexact HO
    isplitl [Hts2]; · iexact Hts2
    isplitr; · iexact Hrs2
    isplitl [Htr2]; · iexact Htr2
    iexact Hrr2
  iintro ⟨Hcs2, HO⟩
  sl_exec
  ihave H13s := (Entails.of_eq (pts_set_eq (F := F) (ℓ := (Memref.whole cc0_scratch10 : Memref sig .tc .vmem S1024x384 .bf16).view.loc (c : Thread nD τ))
      (S' := (stgM3_0 : Memref sig .tc .vmem S1024x384 .bf16).view.set) ((show (Memref.whole cc0_scratch10 : Memref sig .tc .vmem S1024x384 .bf16).view.set = Finset.univ from View.set_whole _).trans stg_univ_3.symm))) $$ H13
  iapply (wp_send_to V c ⟨k0_dev7 c, k0_dev7_lt c⟩ 0 (dev7_eq c) (.rsS 3 0) (.rsR 3 0) (by decide) (by decide) 6 (by decide) (paid_rs c 3 0) rfl
      (src := stgM3_0) (dst := commM3_0) (rsS_sem_eq 3 0 _) (rsR_sem_eq 3 0 _) rfl fd3 κs3 κr3 W
      (ptsAny_intro c stgM3_0 _)
      (ptsIs_intro (nbr 0 c) commM3_0 _ _ (by rw [View.read_write_univ, nbr_nbr]; exact hV3))) $$ [H13s Hdst3 HO Hts3 Htr3]
  · isplitr; · iexact HIs3
    isplitr; · iexact HIr3
    isplitl [H13s]; · iexact H13s
    isplitl [Hdst3]; · iexact Hdst3
    isplitl [HO]; · iexact HO
    isplitl [Hts3]; · iexact Hts3
    isplitr; · iexact Hrs3
    isplitl [Htr3]; · iexact Htr3
    iexact Hrr3
  iintro ⟨Hcs3, HO⟩
  sl_exec
  sl_step
  isplitr; · ipureintro; rfl
  isplitl [Hcs2]; · iexact Hcs2
  isplitl [Hcs3]; · iexact Hcs3
  isplitl [HO]; · iexact HO
  isplitl [Ha]; · iexact Ha
  iexact Hb

end Cert.KernelIdeal.Proto

end
-- ==== Proof.Body05.lean ====
/-
The fifth stretch of a device's kernel body: group 4's product of the half of A that leaves across axis 1 with its
columns of B is rounded, stored into group 4's staging buffer and sent to the neighbour across axis 1; then group 5's
product of the half of A that leaves across axis 2 is stored into group 5's staging buffer.
-/
import proofs.«900882_g7700000000000883_dist_matmul_gelu_kshard_i_m2048_n2048_k1024_v7x_i8_f32_1_alg».proof.Proof.Rules
import proofs.«900882_g7700000000000883_dist_matmul_gelu_kshard_i_m2048_n2048_k1024_v7x_i8_f32_1_alg».proof.Proof.TopoTab
import proofs.«900882_g7700000000000883_dist_matmul_gelu_kshard_i_m2048_n2048_k1024_v7x_i8_f32_1_alg».proof.Proof.PiecesTab
import proofs.«900882_g7700000000000883_dist_matmul_gelu_kshard_i_m2048_n2048_k1024_v7x_i8_f32_1_alg».proof.Proof.Gen.KernelIdeal.Skeleton
import Idealize.ShloMosaic.Lib.Pipeline.Value

set_option maxRecDepth 16384

noncomputable section

namespace Cert.KernelIdeal.Proto

open Cert.KernelIdeal Cert.KernelIdeal.Gen Cert.KernelIdeal.Topo
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : Vals F)

set_option maxHeartbeats 2000000 in
theorem part5_run (c : Dev nD) (κs κr : ℕ) (W : Waits sig Unit) (v2 v8 v9 : BitVec 32) (v121 : FVec F S1024x1024 .bf16)
    (fa : Buf (Elt F) ((Memref.whole cc0_stg0_0 : Memref sig .tc .vmem S2048x1024 .f32).view.loc (c : Thread nD τ)))
    (fb : Buf (Elt F) ((Memref.whole cc0_stg1_0 : Memref sig .tc .vmem S1024x2048 .f32).view.loc (c : Thread nD τ)))
    (f14 : Buf (Elt F) ((Memref.whole cc0_scratch11 : Memref sig .tc .vmem S1024x256 .bf16).view.loc (c : Thread nD τ)))
    (f15 : Buf (Elt F) ((Memref.whole cc0_scratch12 : Memref sig .tc .vmem S1024x256 .bf16).view.loc (c : Thread nD τ)))
    (hV : V.rs4_0 c ((stgM4_0 : Memref sig .tc .vmem S1024x256 .bf16).view.read (Elt F)
        ((Memref.whole cc0_scratch11 : Memref sig .tc .vmem S1024x256 .bf16).view.writes (Elt F) f14 [⟨Rect.unit (s := S1024x256) ![0, 0] S1024x256.size inb_S1024x256_S1024x256_0_0, k0_pay8 v121 (View.readAt (Elt F) (Memref.whole cc0_stg1_0 : Memref sig .tc .vmem S1024x2048 .f32).view (Rect.unit (s := S1024x2048) ![0, 1536] S1024x256.size inb_S1024x2048_S1024x256_0_1536).toLoadRect fb)⟩]))) :
    iprop(cellInv ER (sched V) κs (cell c (.rsS 4 0))
        ∗ cellInv ER (sched V) κr (cell (nbr 1 c) (.rsR 4 0))
        ∗ reached ER (cell c (.rsS 4 0)) 0
        ∗ reached ER (cell (nbr 1 c) (.rsR 4 0)) 0
        ∗ dutyTok ER (cell c (.rsS 4 0)) 0 (0 : Fin 3)
        ∗ dutyTok ER (cell (nbr 1 c) (.rsR 4 0)) 0 (0 : Fin 3)
        ∗ ptsAny (F := F) (nbr 1 c) commM4_0
        ∗ owes (c : Thread nD τ) (Owe c 7) W
        ∗ heldW c (Memref.whole cc0_stg0_0 : Memref sig .tc .vmem S2048x1024 .f32) fa
        ∗ heldW c (Memref.whole cc0_stg1_0 : Memref sig .tc .vmem S1024x2048 .f32) fb
        ∗ heldW c (Memref.whole cc0_scratch11 : Memref sig .tc .vmem S1024x256 .bf16) f14
        ∗ heldW c (Memref.whole cc0_scratch12 : Memref sig .tc .vmem S1024x256 .bf16) f15)
      ⊢ wp frame (wpE (defs₀ (F := F)) 𝒱₀ c none) Set.univ
          (k0_part5 (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23 c v2 v8 v9 v121)
          (fun r => iprop(⌜r = ⟨Scalar.xori v2 3#32, Scalar.muli v8 1024#32⟩⌝
            ∗ cred (tallyAt (cell c (.rsS 4 0)) () (amt (.rsR 4 0)))
            ∗ owes (c : Thread nD τ) (Owe c 8) W
            ∗ heldW c (Memref.whole cc0_stg0_0 : Memref sig .tc .vmem S2048x1024 .f32) fa
            ∗ heldW c (Memref.whole cc0_stg1_0 : Memref sig .tc .vmem S1024x2048 .f32) fb
            ∗ heldW c (Memref.whole cc0_scratch12 : Memref sig .tc .vmem S1024x256 .bf16) ((Memref.whole cc0_scratch12 : Memref sig .tc .vmem S1024x256 .bf16).view.writes (Elt F) f15 [⟨Rect.unit (s := S1024x256) ![0, 0] S1024x256.size inb_S1024x256_S1024x256_0_0, k0_pay9 (View.readAt (Elt F) (Memref.whole cc0_stg0_0 : Memref sig .tc .vmem S2048x1024 .f32).view (Rect.unit (s := S2048x1024) (k0_off3 c) S1024x1024.size (k0_off3_inb c)).toLoadRect fa) (View.readAt (Elt F) (Memref.whole cc0_stg1_0 : Memref sig .tc .vmem S1024x2048 .f32).view (Rect.unit (s := S1024x2048) ![0, 1792] S1024x256.size inb_S1024x2048_S1024x256_0_1792).toLoadRect fb)⟩]))) := by
  simp only [k0_part5_eq_skeleton]; unfold k0_part5_skel
  simp only [Prog.lift, Prog.bind_op, Prog.bind_ret, Prog.pure_eq_ret]
  iintro ⟨#HIs, #HIr, #Hrs, #Hrr, Hts, Htr, Hdst, HO, Ha, Hb, H14, H15⟩
  unfold heldW
  unfold ptsAny
  icases Hdst with ⟨%fd, Hdst⟩
  sl_exec
  ihave H14s := (Entails.of_eq (pts_set_eq (F := F) (ℓ := (Memref.whole cc0_scratch11 : Memref sig .tc .vmem S1024x256 .bf16).view.loc (c : Thread nD τ))
      (S' := (stgM4_0 : Memref sig .tc .vmem S1024x256 .bf16).view.set) ((show (Memref.whole cc0_scratch11 : Memref sig .tc .vmem S1024x256 .bf16).view.set = Finset.univ from View.set_whole _).trans stg_univ_4.symm))) $$ H14
  iapply (wp_send_to V c ⟨k0_dev8 c, k0_dev8_lt c⟩ 1 (dev8_eq c) (.rsS 4 0) (.rsR 4 0) (by decide) (by decide) 7 (by decide) (paid_rs c 4 0) rfl
      (src := stgM4_0) (dst := commM4_0) (rsS_sem_eq 4 0 _) (rsR_sem_eq 4 0 _) rfl fd κs κr W
      (ptsAny_intro c stgM4_0 _)
      (ptsIs_intro (nbr 1 c) commM4_0 _ _ (by rw [View.read_write_univ, nbr_nbr]; exact hV))) $$ [H14s Hdst HO Hts Htr]
  · isplitr; · iexact HIs
    isplitr; · iexact HIr
    isplitl [H14s]; · iexact H14s
    isplitl [Hdst]; · iexact Hdst
    isplitl [HO]; · iexact HO
    isplitl [Hts]; · iexact Hts
    isplitr; · iexact Hrs
    isplitl [Htr]; · iexact Htr
    iexact Hrr
  iintro ⟨Hcs, HO⟩
  sl_exec
  sl_step
  isplitr; · ipureintro; rfl
  isplitl [Hcs]; · iexact Hcs
  isplitl [HO]; · iexact HO
  isplitl [Ha]; · iexact Ha
  isplitl [Hb]; · iexact Hb
  iexact H15

end Cert.KernelIdeal.Proto

end
-- ==== Proof.Body06.lean ====
/-
The sixth stretch of a device's kernel body: group 5's rounded partial product goes to the neighbour across axis 2;
then the rows of the accumulator that stay on this device get, for groups 0 and 1, the product of the kept half of A
with the group's columns of B.
-/
import proofs.«900882_g7700000000000883_dist_matmul_gelu_kshard_i_m2048_n2048_k1024_v7x_i8_f32_1_alg».proof.Proof.Rules
import proofs.«900882_g7700000000000883_dist_matmul_gelu_kshard_i_m2048_n2048_k1024_v7x_i8_f32_1_alg».proof.Proof.TopoTab
import proofs.«900882_g7700000000000883_dist_matmul_gelu_kshard_i_m2048_n2048_k1024_v7x_i8_f32_1_alg».proof.Proof.PiecesTab
import proofs.«900882_g7700000000000883_dist_matmul_gelu_kshard_i_m2048_n2048_k1024_v7x_i8_f32_1_alg».proof.Proof.Gen.KernelIdeal.Skeleton
import Idealize.ShloMosaic.Lib.Pipeline.Value

set_option maxRecDepth 16384

noncomputable section

namespace Cert.KernelIdeal.Proto

open Cert.KernelIdeal Cert.KernelIdeal.Gen Cert.KernelIdeal.Topo
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : Vals F)

set_option maxHeartbeats 2000000 in
theorem part6_run (c : Dev nD) (κs κr : ℕ) (W : Waits sig Unit) (v2 v9 v43 v67 v91 : BitVec 32)
    (fa : Buf (Elt F) ((Memref.whole cc0_stg0_0 : Memref sig .tc .vmem S2048x1024 .f32).view.loc (c : Thread nD τ)))
    (fb : Buf (Elt F) ((Memref.whole cc0_stg1_0 : Memref sig .tc .vmem S1024x2048 .f32).view.loc (c : Thread nD τ)))
    (f15 : Buf (Elt F) ((Memref.whole cc0_scratch12 : Memref sig .tc .vmem S1024x256 .bf16).view.loc (c : Thread nD τ)))
    (f3 : Buf (Elt F) ((Memref.whole cc0_scratch0 : Memref sig .tc .vmem S2048x2048 .f32).view.loc (c : Thread nD τ)))
    (hV : V.rs5_0 c ((stgM5_0 : Memref sig .tc .vmem S1024x256 .bf16).view.read (Elt F) f15)) :
    iprop(cellInv ER (sched V) κs (cell c (.rsS 5 0))
        ∗ cellInv ER (sched V) κr (cell (nbr 2 c) (.rsR 5 0))
        ∗ reached ER (cell c (.rsS 5 0)) 0
        ∗ reached ER (cell (nbr 2 c) (.rsR 5 0)) 0
        ∗ dutyTok ER (cell c (.rsS 5 0)) 0 (0 : Fin 3)
        ∗ dutyTok ER (cell (nbr 2 c) (.rsR 5 0)) 0 (0 : Fin 3)
        ∗ ptsAny (F := F) (nbr 2 c) commM5_0
        ∗ owes (c : Thread nD τ) (Owe c 8) W
        ∗ heldW c (Memref.whole cc0_stg0_0 : Memref sig .tc .vmem S2048x1024 .f32) fa
        ∗ heldW c (Memref.whole cc0_stg1_0 : Memref sig .tc .vmem S1024x2048 .f32) fb
        ∗ heldW c (Memref.whole cc0_scratch12 : Memref sig .tc .vmem S1024x256 .bf16) f15
        ∗ heldW c (Memref.whole cc0_scratch0 : Memref sig .tc .vmem S2048x2048 .f32) f3)
      ⊢ wp frame (wpE (defs₀ (F := F)) 𝒱₀ c none) Set.univ
          (k0_part6 (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23 c v2 v9 v43 v67 v91)
          (fun r => iprop(⌜r = ⟨Scalar.xori v2 4#32, Scalar.muli v9 1024#32⟩⌝
            ∗ cred (tallyAt (cell c (.rsS 5 0)) () (amt (.rsR 5 0)))
            ∗ owes (c : Thread nD τ) (Owe c 9) W
            ∗ heldW c (Memref.whole cc0_stg0_0 : Memref sig .tc .vmem S2048x1024 .f32) fa
            ∗ heldW c (Memref.whole cc0_stg1_0 : Memref sig .tc .vmem S1024x2048 .f32) fb
            ∗ heldW c (Memref.whole cc0_scratch0 : Memref sig .tc .vmem S2048x2048 .f32) ((Memref.whole cc0_scratch0 : Memref sig .tc .vmem S2048x2048 .f32).view.writes (Elt F) f3
              [⟨Rect.unit (s := S2048x2048) (k0_off7 c) S1024x384.size (k0_off7_inb c), k0_pay11 (View.readAt (Elt F) (Memref.whole cc0_stg0_0 : Memref sig .tc .vmem S2048x1024 .f32).view (Rect.unit (s := S2048x1024) (k0_off6 c) S1024x1024.size (k0_off6_inb c)).toLoadRect fa) (View.readAt (Elt F) (Memref.whole cc0_stg1_0 : Memref sig .tc .vmem S1024x2048 .f32).view (Rect.unit (s := S1024x2048) ![0, 384] S1024x384.size inb_S1024x2048_S1024x384_0_384).toLoadRect fb)⟩,
               ⟨Rect.unit (s := S2048x2048) (k0_off5 c) S1024x384.size (k0_off5_inb c), k0_pay10 (View.readAt (Elt F) (Memref.whole cc0_stg0_0 : Memref sig .tc .vmem S2048x1024 .f32).view (Rect.unit (s := S2048x1024) (k0_off4 c) S1024x1024.size (k0_off4_inb c)).toLoadRect fa) (View.readAt (Elt F) (Memref.whole cc0_stg1_0 : Memref sig .tc .vmem S1024x2048 .f32).view (Rect.unit (s := S1024x2048) ![0, 0] S1024x384.size inb_S1024x2048_S1024x384_0_0).toLoadRect fb)⟩]))) := by
  simp only [k0_part6_eq_skeleton]; unfold k0_part6_skel
  simp only [Prog.lift, Prog.bind_op, Prog.bind_ret, Prog.pure_eq_ret]
  iintro ⟨#HIs, #HIr, #Hrs, #Hrr, Hts, Htr, Hdst, HO, Ha, Hb, H15, H3⟩
  unfold heldW
  unfold ptsAny
  icases Hdst with ⟨%fd, Hdst⟩
  ihave H15s := (Entails.of_eq (pts_set_eq (F := F) (ℓ := (Memref.whole cc0_scratch12 : Memref sig .tc .vmem S1024x256 .bf16).view.loc (c : Thread nD τ))
      (S' := (stgM5_0 : Memref sig .tc .vmem S1024x256 .bf16).view.set) ((show (Memref.whole cc0_scratch12 : Memref sig .tc .vmem S1024x256 .bf16).view.set = Finset.univ from View.set_whole _).trans stg_univ_5.symm))) $$ H15
  iapply (wp_send_to V c ⟨k0_dev9 c, k0_dev9_lt c⟩ 2 (dev9_eq c) (.rsS 5 0) (.rsR 5 0) (by decide) (by decide) 8 (by decide) (paid_rs c 5 0) rfl
      (src := stgM5_0) (dst := commM5_0) (rsS_sem_eq 5 0 _) (rsR_sem_eq 5 0 _) rfl fd κs κr W
      (ptsAny_intro c stgM5_0 _)
      (ptsIs_intro (nbr 2 c) commM5_0 _ _ (by rw [View.read_write_univ, nbr_nbr]; exact hV))) $$ [H15s Hdst HO Hts Htr]
  · isplitr; · iexact HIs
    isplitr; · iexact HIr
    isplitl [H15s]; · iexact H15s
    isplitl [Hdst]; · iexact Hdst
    isplitl [HO]; · iexact HO
    isplitl [Hts]; · iexact Hts
    isplitr; · iexact Hrs
    isplitl [Htr]; · iexact Htr
    iexact Hrr
  iintro ⟨Hcs, HO⟩
  sl_exec
  sl_step
  isplitr; · ipureintro; rfl
  isplitl [Hcs]; · iexact Hcs
  isplitl [HO]; · iexact HO
  isplitl [Ha]; · iexact Ha
  isplitl [Hb]; · iexact Hb
  iexact H3

end Cert.KernelIdeal.Proto

end
-- ==== Proof.Body07.lean ====
/-
The seventh stretch of a device's kernel body: the rows of the accumulator that stay on this device get, for groups
2, 3 and 4, the product of the kept half of A with the group's columns of B; and the kept half of A for group 5 is
loaded and rounded.
-/
import proofs.«900882_g7700000000000883_dist_matmul_gelu_kshard_i_m2048_n2048_k1024_v7x_i8_f32_1_alg».proof.Proof.Rules
import proofs.«900882_g7700000000000883_dist_matmul_gelu_kshard_i_m2048_n2048_k1024_v7x_i8_f32_1_alg».proof.Proof.TopoTab
import proofs.«900882_g7700000000000883_dist_matmul_gelu_kshard_i_m2048_n2048_k1024_v7x_i8_f32_1_alg».proof.Proof.PiecesTab
import proofs.«900882_g7700000000000883_dist_matmul_gelu_kshard_i_m2048_n2048_k1024_v7x_i8_f32_1_alg».proof.Proof.Gen.KernelIdeal.Skeleton
import Idealize.ShloMosaic.Lib.Pipeline.Value

set_option maxRecDepth 16384

noncomputable section

namespace Cert.KernelIdeal.Proto

open Cert.KernelIdeal Cert.KernelIdeal.Gen Cert.KernelIdeal.Topo
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : Vals F)

set_option maxHeartbeats 2000000 in
theorem part7_run (c : Dev nD) (v91 v115 v139 v163 : BitVec 32)
    (fa : Buf (Elt F) ((Memref.whole cc0_stg0_0 : Memref sig .tc .vmem S2048x1024 .f32).view.loc (c : Thread nD τ)))
    (fb : Buf (Elt F) ((Memref.whole cc0_stg1_0 : Memref sig .tc .vmem S1024x2048 .f32).view.loc (c : Thread nD τ)))
    (f3 : Buf (Elt F) ((Memref.whole cc0_scratch0 : Memref sig .tc .vmem S2048x2048 .f32).view.loc (c : Thread nD τ)))
 :
    iprop(heldW c (Memref.whole cc0_stg0_0 : Memref sig .tc .vmem S2048x1024 .f32) fa
        ∗ heldW c (Memref.whole cc0_stg1_0 : Memref sig .tc .vmem S1024x2048 .f32) fb
        ∗ heldW c (Memref.whole cc0_scratch0 : Memref sig .tc .vmem S2048x2048 .f32) f3)
      ⊢ wp frame (wpE (defs₀ (F := F)) 𝒱₀ c none) Set.univ
          (k0_part7 (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23 c v91 v115 v139 v163)
          (fun r => iprop(⌜r = k0_pay15 (View.readAt (Elt F) (Memref.whole cc0_stg0_0 : Memref sig .tc .vmem S2048x1024 .f32).view (Rect.unit (s := S2048x1024) (k0_off8 c) S1024x1024.size (k0_off8_inb c)).toLoadRect fa)⌝
            ∗ heldW c (Memref.whole cc0_stg0_0 : Memref sig .tc .vmem S2048x1024 .f32) fa
            ∗ heldW c (Memref.whole cc0_stg1_0 : Memref sig .tc .vmem S1024x2048 .f32) fb
            ∗ heldW c (Memref.whole cc0_scratch0 : Memref sig .tc .vmem S2048x2048 .f32) ((Memref.whole cc0_scratch0 : Memref sig .tc .vmem S2048x2048 .f32).view.writes (Elt F) f3
              [⟨Rect.unit (s := S2048x2048) (k0_off11 c) S1024x256.size (k0_off11_inb c), k0_pay14 (View.readAt (Elt F) (Memref.whole cc0_stg0_0 : Memref sig .tc .vmem S2048x1024 .f32).view (Rect.unit (s := S2048x1024) (k0_off6 c) S1024x1024.size (k0_off6_inb c)).toLoadRect fa) (View.readAt (Elt F) (Memref.whole cc0_stg1_0 : Memref sig .tc .vmem S1024x2048 .f32).view (Rect.unit (s := S1024x2048) ![0, 1536] S1024x256.size inb_S1024x2048_S1024x256_0_1536).toLoadRect fb)⟩,
               ⟨Rect.unit (s := S2048x2048) (k0_off10 c) S1024x384.size (k0_off10_inb c), k0_pay13 (View.readAt (Elt F) (Memref.whole cc0_stg0_0 : Memref sig .tc .vmem S2048x1024 .f32).view (Rect.unit (s := S2048x1024) (k0_off4 c) S1024x1024.size (k0_off4_inb c)).toLoadRect fa) (View.readAt (Elt F) (Memref.whole cc0_stg1_0 : Memref sig .tc .vmem S1024x2048 .f32).view (Rect.unit (s := S1024x2048) ![0, 1152] S1024x384.size inb_S1024x2048_S1024x384_0_1152).toLoadRect fb)⟩,
               ⟨Rect.unit (s := S2048x2048) (k0_off9 c) S1024x384.size (k0_off9_inb c), k0_pay12 (View.readAt (Elt F) (Memref.whole cc0_stg0_0 : Memref sig .tc .vmem S2048x1024 .f32).view (Rect.unit (s := S2048x1024) (k0_off8 c) S1024x1024.size (k0_off8_inb c)).toLoadRect fa) (View.readAt (Elt F) (Memref.whole cc0_stg1_0 : Memref sig .tc .vmem S1024x2048 .f32).view (Rect.unit (s := S1024x2048) ![0, 768] S1024x384.size inb_S1024x2048_S1024x384_0_768).toLoadRect fb)⟩]))) := by
  simp only [k0_part7_eq_skeleton]; unfold k0_part7_skel
  simp only [Prog.lift, Prog.bind_op, Prog.bind_ret, Prog.pure_eq_ret]
  iintro ⟨Ha, Hb, H3⟩
  unfold heldW
  sl_exec
  sl_step
  isplitr; · ipureintro; rfl
  isplitl [Ha]; · iexact Ha
  isplitl [Hb]; · iexact Hb
  iexact H3

end Cert.KernelIdeal.Proto

end
-- ==== Proof.Body08.lean ====
/-
The eighth stretch of a device's kernel body: the rows of the accumulator that stay on this device get group 5's
product; then the first reduce-scatter exchange of group 0 is awaited — the staging buffer comes back and the
neighbour's rounded partial product has landed — and the rows of the accumulator that leave at the second step are
loaded together with the landed rows that are added to them.
-/
import proofs.«900882_g7700000000000883_dist_matmul_gelu_kshard_i_m2048_n2048_k1024_v7x_i8_f32_1_alg».proof.Proof.Rules
import proofs.«900882_g7700000000000883_dist_matmul_gelu_kshard_i_m2048_n2048_k1024_v7x_i8_f32_1_alg».proof.Proof.TopoTab
import proofs.«900882_g7700000000000883_dist_matmul_gelu_kshard_i_m2048_n2048_k1024_v7x_i8_f32_1_alg».proof.Proof.PiecesTab
import proofs.«900882_g7700000000000883_dist_matmul_gelu_kshard_i_m2048_n2048_k1024_v7x_i8_f32_1_alg».proof.Proof.TopoClosed
import proofs.«900882_g7700000000000883_dist_matmul_gelu_kshard_i_m2048_n2048_k1024_v7x_i8_f32_1_alg».proof.Proof.Gen.KernelIdeal.Skeleton
import Idealize.ShloMosaic.Lib.Pipeline.Value

set_option maxRecDepth 16384

noncomputable section

namespace Cert.KernelIdeal.Proto

open Cert.KernelIdeal Cert.KernelIdeal.Gen Cert.KernelIdeal.Topo
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : Vals F)

set_option maxHeartbeats 2000000 in
theorem part8_run (c : Dev nD) (κw1 κw2 : ℕ) (W : Waits sig Unit) (v8 v34 v43 v163 : BitVec 32) (v227 : FVec F S1024x1024 .bf16)
    (fb : Buf (Elt F) ((Memref.whole cc0_stg1_0 : Memref sig .tc .vmem S1024x2048 .f32).view.loc (c : Thread nD τ)))
    (f3 : Buf (Elt F) ((Memref.whole cc0_scratch0 : Memref sig .tc .vmem S2048x2048 .f32).view.loc (c : Thread nD τ))) :
    iprop(cellInv ER (sched V) κw1 (cell c (.rsS 0 0)) ∗ cellInv ER (sched V) κw2 (cell c (.rsR 0 0)) ∗ levAts L lv
        ∗ cred (tallyAt (cell c (.rsS 0 0)) () (amt (.rsR 0 0))) ∗ cred (tallyAt (cell c (.rsR 0 0)) () (amt (.rsR 0 0)))
        ∗ atPos ER (cell c (.rsS 0 0)) 0 ∅ 0 ∗ atPos ER (cell c (.rsR 0 0)) 0 ∅ 0
        ∗ owes (c : Thread nD τ) (Owe c 9) W
        ∗ heldW c (Memref.whole cc0_stg1_0 : Memref sig .tc .vmem S1024x2048 .f32) fb ∗ heldW c (Memref.whole cc0_scratch0 : Memref sig .tc .vmem S2048x2048 .f32) f3)
      ⊢ wp frame (wpE (defs₀ (F := F)) 𝒱₀ c none) Set.univ
          (k0_part8 (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23 c v8 v34 v43 v163 v227)
          (fun r => iprop(∃ fr : Buf (Elt F) ((commM0_0 : Memref sig .tc .vmem S1024x384 .bf16).view.loc (c : Thread nD τ)),
            ⌜r = ⟨Scalar.addi v43 (Scalar.muli (Scalar.subi 1#32 v8) 512#32), Scalar.addi v43 (Scalar.muli v8 512#32),
                (View.readAt (Elt F) (Memref.whole cc0_scratch0 : Memref sig .tc .vmem S2048x2048 .f32).view (Rect.unit (s := S2048x2048) (k0_off13 c) S512x384.size (k0_off13_inb c)).toLoadRect f3),
                k0_pay17 (View.readAt (Elt F) (Memref.whole cc0_scratch1 : Memref sig .tc .vmem S1792x384 .bf16).view (Rect.unit (s := S1792x384) (k0_off14 c) S512x384.size (k0_off14_inb c)).toLoadRect fr)⟩⌝
            ∗ ⌜V.rs0_0 (nbr 0 c) ((commM0_0 : Memref sig .tc .vmem S1024x384 .bf16).view.read (Elt F) fr)⌝
            ∗ owes (c : Thread nD τ) (Owe c 9) (insert ((CK.rsR 0 0).sem, ()) (insert ((CK.rsS 0 0).sem, ()) W))
            ∗ atPos ER (cell c (.rsS 0 0)) 1 ∅ 0 ∗ atPos ER (cell c (.rsR 0 0)) 1 ∅ 0
            ∗ ptsAny (F := F) c stgM0_0
            ∗ heldW c (commM0_0 : Memref sig .tc .vmem S1024x384 .bf16) fr
            ∗ heldW c (Memref.whole cc0_stg1_0 : Memref sig .tc .vmem S1024x2048 .f32) fb
            ∗ heldW c (Memref.whole cc0_scratch0 : Memref sig .tc .vmem S2048x2048 .f32) ((Memref.whole cc0_scratch0 : Memref sig .tc .vmem S2048x2048 .f32).view.writes (Elt F) f3
              [⟨Rect.unit (s := S2048x2048) (k0_off12 c) S1024x256.size (k0_off12_inb c), k0_pay16 v227 (View.readAt (Elt F) (Memref.whole cc0_stg1_0 : Memref sig .tc .vmem S1024x2048 .f32).view (Rect.unit (s := S1024x2048) ![0, 1792] S1024x256.size inb_S1024x2048_S1024x256_0_1792).toLoadRect fb)⟩]))) := by
  simp only [k0_part8_eq_skeleton]; unfold k0_part8_skel
  simp only [Prog.lift, Prog.bind_op, Prog.bind_ret, Prog.pure_eq_ret]
  iintro ⟨#HIw1, #HIw2, #Hlev, Hc1, Hc2, Hat1, Hat2, HO, Hb, H3⟩
  unfold heldW
  sl_exec
  iapply (wp_wait_xfer V c (.rsS 0 0) (by decide) 9 (rsS_sem_eq 0 0 _) rfl (w := TpuEff.waitDma2 _ (commM0_0 : Memref sig .tc .vmem S1024x384 .bf16) (stgM0_0 : Memref sig .tc .vmem S1024x384 .bf16) _ _) (wpE_waitDma2_eq 𝒱₀ (c : Thread nD τ) none Set.univ)
      (mayWait_own c (.rsS 0 0) (lv_cell c (.rsS 0 0)) 9) κw1 (W)) $$ [Hc1 HO Hat1]
  · isplitr; · iexact HIw1
    isplitl [Hc1]; · iexact Hc1
    isplitl [HO]; · iexact HO
    isplitr; · iexact Hlev
    iexact Hat1
  iintro ⟨HO, Hat1, Hstg⟩
  iapply (wp_wait_xfer V c (.rsR 0 0) (by decide) 9 (rsR_sem_eq 0 0 _) rfl (w := TpuEff.waitDma2 _ (stgM0_0 : Memref sig .tc .vmem S1024x384 .bf16) (commM0_0 : Memref sig .tc .vmem S1024x384 .bf16) _ _) (wpE_waitDma2_eq 𝒱₀ (c : Thread nD τ) none Set.univ)
      (mayWait_rsR c 0 0 9 (by decide)) κw2 (insert ((CK.rsS 0 0).sem, ()) W)) $$ [Hc2 HO Hat2]
  · isplitr; · iexact HIw2
    isplitl [Hc2]; · iexact Hc2
    isplitl [HO]; · iexact HO
    isplitr; · iexact Hlev
    iexact Hat2
  iintro ⟨HO, Hat2, Hrcv⟩
  ihave Hrcv' := (Entails.of_eq (show pay V c (.rsR 0 0) 0 = ptsIs c commM0_0 (V.rs0_0 (nbr 0 c)) from rfl)) $$ Hrcv
  unfold ptsIs
  icases Hrcv' with ⟨%fr, Hr, %hVr⟩
  sl_exec
  sl_step
  ihave Hstg' := (Entails.of_eq (show pay V c (.rsS 0 0) 0 = ptsAny c stgM0_0 from rfl)) $$ Hstg
  iexists fr
  isplitr; · ipureintro; rfl
  isplitr; · ipureintro; exact hVr
  isplitl [HO]; · iexact HO
  isplitl [Hat1]; · iexact Hat1
  isplitl [Hat2]; · iexact Hat2
  isplitl [Hstg']; · iexact Hstg'
  isplitl [Hr]; · iexact Hr
  isplitl [Hb]; · iexact Hb
  iexact H3

end Cert.KernelIdeal.Proto

end
-- ==== Proof.Body09.lean ====
/-
The ninth stretch of a device's kernel body, the second reduce-scatter step of group 0: the landed rows are added to
the rows of the accumulator that leave at this step, the sums are rounded into the first 512 rows of the staging
buffer and sent to the neighbour across axis 1; then the landed rows that belong to the kept rows are added to those.
-/
import proofs.«900882_g7700000000000883_dist_matmul_gelu_kshard_i_m2048_n2048_k1024_v7x_i8_f32_1_alg».proof.Proof.Rules
import proofs.«900882_g7700000000000883_dist_matmul_gelu_kshard_i_m2048_n2048_k1024_v7x_i8_f32_1_alg».proof.Proof.TopoTab
import proofs.«900882_g7700000000000883_dist_matmul_gelu_kshard_i_m2048_n2048_k1024_v7x_i8_f32_1_alg».proof.Proof.PiecesTab
import proofs.«900882_g7700000000000883_dist_matmul_gelu_kshard_i_m2048_n2048_k1024_v7x_i8_f32_1_alg».proof.Proof.TopoClosed
import proofs.«900882_g7700000000000883_dist_matmul_gelu_kshard_i_m2048_n2048_k1024_v7x_i8_f32_1_alg».proof.Proof.Gen.KernelIdeal.Skeleton
import Idealize.ShloMosaic.Lib.Pipeline.Value

set_option maxRecDepth 16384

noncomputable section

namespace Cert.KernelIdeal.Proto

open Cert.KernelIdeal Cert.KernelIdeal.Gen Cert.KernelIdeal.Topo
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : Vals F)

set_option maxHeartbeats 1000000 in
theorem part9_run (c : Dev nD) (κs κr : ℕ) (W : Waits sig Unit) (v2 v43 v248 v250 : BitVec 32) (v252 : Vec F S512x384 .f32) (v257 : FVec F S512x384 .f32)
    (fs : Buf (Elt F) ((stgM0_0 : Memref sig .tc .vmem S1024x384 .bf16).view.loc (c : Thread nD τ)))
    (fr : Buf (Elt F) ((commM0_0 : Memref sig .tc .vmem S1024x384 .bf16).view.loc (c : Thread nD τ)))
    (f3 : Buf (Elt F) ((Memref.whole cc0_scratch0 : Memref sig .tc .vmem S2048x2048 .f32).view.loc (c : Thread nD τ)))
    (hV : V.rs0_1 c ((stgM0_1 : Memref sig .tc .vmem S512x384 .bf16).view.read (Elt F) (View.write (Elt F) ((Memref.whole cc0_scratch7 : Memref sig .tc .vmem S1024x384 .bf16).access (Rect.unit (s := S1024x384) ![0, 0] S512x384.size inb_S1024x384_S512x384_0_0)) fs (k0_pay19 ((Memref.whole cc0_scratch0 : Memref sig .tc .vmem S2048x2048 .f32).view.readCov [⟨Rect.unit (s := S2048x2048) (k0_off13 c) S512x384.size (k0_off13_inb c), k0_pay18 v252 v257⟩] (Rect.unit (s := S2048x2048) (k0_off13 c) S512x384.size (k0_off13_inb c)).toLoadRect)) Finset.univ))) :
    iprop(cellInv ER (sched V) κs (cell c (.rsS 0 1))
        ∗ cellInv ER (sched V) κr (cell (nbr 1 c) (.rsR 0 1))
        ∗ reached ER (cell c (.rsS 0 1)) 0
        ∗ reached ER (cell (nbr 1 c) (.rsR 0 1)) 0
        ∗ dutyTok ER (cell c (.rsS 0 1)) 0 (0 : Fin 3)
        ∗ dutyTok ER (cell (nbr 1 c) (.rsR 0 1)) 0 (0 : Fin 3)
        ∗ ptsAny (F := F) (nbr 1 c) commM0_1
        ∗ owes (c : Thread nD τ) (Owe c 9) W
        ∗ heldW c (stgM0_0 : Memref sig .tc .vmem S1024x384 .bf16) fs
        ∗ heldW c (commM0_0 : Memref sig .tc .vmem S1024x384 .bf16) fr
        ∗ heldW c (Memref.whole cc0_scratch0 : Memref sig .tc .vmem S2048x2048 .f32) f3)
      ⊢ wp frame (wpE (defs₀ (F := F)) 𝒱₀ c none) Set.univ
          (k0_part9 (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23 c v2 v43 v248 v250 v252 v257)
          (fun r => iprop(⌜r = Scalar.xori v2 3#32⌝
            ∗ cred (tallyAt (cell c (.rsS 0 1)) () (amt (.rsR 0 1)))
            ∗ owes (c : Thread nD τ) (Owe c 10) W
            ∗ ((stgM0_0 : Memref sig .tc .vmem S1024x384 .bf16).view.loc (c : Thread nD τ) ↦[(stgM0_0 : Memref sig .tc .vmem S1024x384 .bf16).view.set \ (stgM0_1 : Memref sig .tc .vmem S512x384 .bf16).view.set]{fullShare} (View.write (Elt F) ((Memref.whole cc0_scratch7 : Memref sig .tc .vmem S1024x384 .bf16).access (Rect.unit (s := S1024x384) ![0, 0] S512x384.size inb_S1024x384_S512x384_0_0)) fs (k0_pay19 ((Memref.whole cc0_scratch0 : Memref sig .tc .vmem S2048x2048 .f32).view.readCov [⟨Rect.unit (s := S2048x2048) (k0_off13 c) S512x384.size (k0_off13_inb c), k0_pay18 v252 v257⟩] (Rect.unit (s := S2048x2048) (k0_off13 c) S512x384.size (k0_off13_inb c)).toLoadRect)) Finset.univ))
            ∗ heldW c (commM0_0 : Memref sig .tc .vmem S1024x384 .bf16) fr
            ∗ heldW c (Memref.whole cc0_scratch0 : Memref sig .tc .vmem S2048x2048 .f32) ((Memref.whole cc0_scratch0 : Memref sig .tc .vmem S2048x2048 .f32).view.writes (Elt F) f3
              [⟨Rect.unit (s := S2048x2048) (k0_off15 c) S512x384.size (k0_off15_inb c), k0_pay20 (View.readAt (Elt F) (Memref.whole cc0_scratch0 : Memref sig .tc .vmem S2048x2048 .f32).view (Rect.unit (s := S2048x2048) (k0_off15 c) S512x384.size (k0_off15_inb c)).toLoadRect ((Memref.whole cc0_scratch0 : Memref sig .tc .vmem S2048x2048 .f32).view.writes (Elt F) f3
              [⟨Rect.unit (s := S2048x2048) (k0_off13 c) S512x384.size (k0_off13_inb c), k0_pay18 v252 v257⟩])) (View.readAt (Elt F) (Memref.whole cc0_scratch1 : Memref sig .tc .vmem S1792x384 .bf16).view (Rect.unit (s := S1792x384) (k0_off16 c) S512x384.size (k0_off16_inb c)).toLoadRect fr)⟩,
               ⟨Rect.unit (s := S2048x2048) (k0_off13 c) S512x384.size (k0_off13_inb c), k0_pay18 v252 v257⟩]))) := by
  simp only [k0_part9_eq_skeleton]; unfold k0_part9_skel
  simp only [Prog.lift, Prog.bind_op, Prog.bind_ret, Prog.pure_eq_ret]
  iintro ⟨#HIs, #HIr, #Hrs, #Hrr, Hts, Htr, Hdst, HO, Hstg, Hland, H3⟩
  unfold heldW
  unfold ptsAny
  icases Hdst with ⟨%fd, Hdst⟩
  have := cx_le c; have := cy_le c; have := cz_le c
  sl_exec
  ihave Hs_ := (Entails.of_eq (pts_set_eq (F := F) (ℓ := (stgM0_0 : Memref sig .tc .vmem S1024x384 .bf16).view.loc (c : Thread nD τ))
      (S' := (stgM0_1 : Memref sig .tc .vmem S512x384 .bf16).view.set ∪ ((stgM0_0 : Memref sig .tc .vmem S1024x384 .bf16).view.set \ (stgM0_1 : Memref sig .tc .vmem S512x384 .bf16).view.set)) (Finset.union_sdiff_of_subset stg_sub1_0).symm)) $$ Hstg
  ihave Hs2_ := (pts_union (F := F) Finset.disjoint_sdiff).1 $$ Hs_
  icases Hs2_ with ⟨Hsrc, Hrem⟩
  iapply (wp_send_to V c ⟨k0_dev10 c, k0_dev10_lt c⟩ 1 (dev10_eq c) (.rsS 0 1) (.rsR 0 1) (by decide) (by decide) 9 (by decide) (paid_rs c 0 1) rfl
      (src := stgM0_1) (dst := commM0_1) (rsS_sem_eq 0 1 _) (rsR_sem_eq 0 1 _) rfl fd κs κr W
      (ptsAny_intro c stgM0_1 _)
      (ptsIs_intro (nbr 1 c) commM0_1 _ _ (by rw [View.read_write_univ, nbr_nbr]; exact hV))) $$ [Hsrc Hdst HO Hts Htr]
  · isplitr; · iexact HIs
    isplitr; · iexact HIr
    isplitl [Hsrc]; · iexact Hsrc
    isplitl [Hdst]; · iexact Hdst
    isplitl [HO]; · iexact HO
    isplitl [Hts]; · iexact Hts
    isplitr; · iexact Hrs
    isplitl [Htr]; · iexact Htr
    iexact Hrr
  iintro ⟨Hcs, HO⟩
  sl_exec
  sl_step
  isplitr; · ipureintro; rfl
  isplitl [Hcs]; · iexact Hcs
  isplitl [HO]; · iexact HO
  isplitl [Hrem]; · iexact Hrem
  isplitl [Hland]; · iexact Hland
  iexact H3

end Cert.KernelIdeal.Proto

end
-- ==== Proof.Body10.lean ====
/-
The tenth stretch of a device's kernel body: the first reduce-scatter exchange of group 1 is awaited — its staging
buffer comes back, the neighbour's rounded partial product has landed — and the landed rows are added to the rows
of the accumulator that leave at the second step; the sums are read back and rounded.
-/
import proofs.«900882_g7700000000000883_dist_matmul_gelu_kshard_i_m2048_n2048_k1024_v7x_i8_f32_1_alg».proof.Proof.Rules
import proofs.«900882_g7700000000000883_dist_matmul_gelu_kshard_i_m2048_n2048_k1024_v7x_i8_f32_1_alg».proof.Proof.TopoTab
import proofs.«900882_g7700000000000883_dist_matmul_gelu_kshard_i_m2048_n2048_k1024_v7x_i8_f32_1_alg».proof.Proof.PiecesTab
import proofs.«900882_g7700000000000883_dist_matmul_gelu_kshard_i_m2048_n2048_k1024_v7x_i8_f32_1_alg».proof.Proof.TopoClosed
import proofs.«900882_g7700000000000883_dist_matmul_gelu_kshard_i_m2048_n2048_k1024_v7x_i8_f32_1_alg».proof.Proof.Gen.KernelIdeal.Skeleton
import Idealize.ShloMosaic.Lib.Pipeline.Value

set_option maxRecDepth 16384

noncomputable section

namespace Cert.KernelIdeal.Proto

open Cert.KernelIdeal Cert.KernelIdeal.Gen Cert.KernelIdeal.Topo
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : Vals F)

set_option maxHeartbeats 1000000 in
theorem part10_run (c : Dev nD) (κw1 κw2 : ℕ) (W : Waits sig Unit) (v9 v58 v67 : BitVec 32)
    (f3 : Buf (Elt F) ((Memref.whole cc0_scratch0 : Memref sig .tc .vmem S2048x2048 .f32).view.loc (c : Thread nD τ))) :
    iprop(cellInv ER (sched V) κw1 (cell c (.rsS 1 0))
        ∗ cellInv ER (sched V) κw2 (cell c (.rsR 1 0))
        ∗ levAts L lv
        ∗ cred (tallyAt (cell c (.rsS 1 0)) () (amt (.rsR 1 0)))
        ∗ cred (tallyAt (cell c (.rsR 1 0)) () (amt (.rsR 1 0)))
        ∗ atPos ER (cell c (.rsS 1 0)) 0 ∅ 0
        ∗ atPos ER (cell c (.rsR 1 0)) 0 ∅ 0
        ∗ owes (c : Thread nD τ) (Owe c 10) W
        ∗ heldW c (Memref.whole cc0_scratch0 : Memref sig .tc .vmem S2048x2048 .f32) f3)
      ⊢ wp frame (wpE (defs₀ (F := F)) 𝒱₀ c none) Set.univ
          (k0_part10 (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23 c v9 v58 v67)
          (fun r => iprop(∃ fr : Buf (Elt F) ((commM1_0 : Memref sig .tc .vmem S1024x384 .bf16).view.loc (c : Thread nD τ)), ⌜r = ⟨Scalar.addi v67 (Scalar.muli v9 512#32), k0_pay22 ((Memref.whole cc0_scratch0 : Memref sig .tc .vmem S2048x2048 .f32).view.readCov [⟨Rect.unit (s := S2048x2048) (k0_off17 c) S512x384.size (k0_off17_inb c), k0_pay21 (View.readAt (Elt F) (Memref.whole cc0_scratch0 : Memref sig .tc .vmem S2048x2048 .f32).view (Rect.unit (s := S2048x2048) (k0_off17 c) S512x384.size (k0_off17_inb c)).toLoadRect f3) (View.readAt (Elt F) (Memref.whole cc0_scratch2 : Memref sig .tc .vmem S1792x384 .bf16).view (Rect.unit (s := S1792x384) (k0_off18 c) S512x384.size (k0_off18_inb c)).toLoadRect fr)⟩] (Rect.unit (s := S2048x2048) (k0_off17 c) S512x384.size (k0_off17_inb c)).toLoadRect)⟩⌝
            ∗ ⌜V.rs1_0 (nbr 1 c) ((commM1_0 : Memref sig .tc .vmem S1024x384 .bf16).view.read (Elt F) fr)⌝
            ∗ owes (c : Thread nD τ) (Owe c 10) (insert ((CK.rsR 1 0).sem, ()) (insert ((CK.rsS 1 0).sem, ()) W))
            ∗ atPos ER (cell c (.rsS 1 0)) 1 ∅ 0
            ∗ atPos ER (cell c (.rsR 1 0)) 1 ∅ 0
            ∗ ptsAny (F := F) c stgM1_0
            ∗ heldW c (commM1_0 : Memref sig .tc .vmem S1024x384 .bf16) fr
            ∗ heldW c (Memref.whole cc0_scratch0 : Memref sig .tc .vmem S2048x2048 .f32) ((Memref.whole cc0_scratch0 : Memref sig .tc .vmem S2048x2048 .f32).view.writes (Elt F) f3
              [⟨Rect.unit (s := S2048x2048) (k0_off17 c) S512x384.size (k0_off17_inb c), k0_pay21 (View.readAt (Elt F) (Memref.whole cc0_scratch0 : Memref sig .tc .vmem S2048x2048 .f32).view (Rect.unit (s := S2048x2048) (k0_off17 c) S512x384.size (k0_off17_inb c)).toLoadRect f3) (View.readAt (Elt F) (Memref.whole cc0_scratch2 : Memref sig .tc .vmem S1792x384 .bf16).view (Rect.unit (s := S1792x384) (k0_off18 c) S512x384.size (k0_off18_inb c)).toLoadRect fr)⟩]))) := by
  simp only [k0_part10_eq_skeleton]; unfold k0_part10_skel
  simp only [Prog.lift, Prog.bind_op, Prog.bind_ret, Prog.pure_eq_ret]
  iintro ⟨#HIw1, #HIw2, #Hlev, Hc1, Hc2, Hat1, Hat2, HO, H3⟩
  unfold heldW
  have := cx_le c; have := cy_le c; have := cz_le c
  iapply (wp_wait_xfer V c (.rsS 1 0) (by decide) 10 (rsS_sem_eq 1 0 _) rfl (w := TpuEff.waitDma2 _ (commM1_0 : Memref sig .tc .vmem S1024x384 .bf16) (stgM1_0 : Memref sig .tc .vmem S1024x384 .bf16) _ _) (wpE_waitDma2_eq 𝒱₀ (c : Thread nD τ) none Set.univ)
      (mayWait_own c (.rsS 1 0) (lv_cell c (.rsS 1 0)) 10) κw1 (W)) $$ [Hc1 HO Hat1]
  · isplitr; · iexact HIw1
    isplitl [Hc1]; · iexact Hc1
    isplitl [HO]; · iexact HO
    isplitr; · iexact Hlev
    iexact Hat1
  iintro ⟨HO, Hat1, Hstgp⟩
  iapply (wp_wait_xfer V c (.rsR 1 0) (by decide) 10 (rsR_sem_eq 1 0 _) rfl (w := TpuEff.waitDma2 _ (stgM1_0 : Memref sig .tc .vmem S1024x384 .bf16) (commM1_0 : Memref sig .tc .vmem S1024x384 .bf16) _ _) (wpE_waitDma2_eq 𝒱₀ (c : Thread nD τ) none Set.univ)
      (mayWait_rsR c 1 0 10 (by decide)) κw2 (insert ((CK.rsS 1 0).sem, ()) W)) $$ [Hc2 HO Hat2]
  · isplitr; · iexact HIw2
    isplitl [Hc2]; · iexact Hc2
    isplitl [HO]; · iexact HO
    isplitr; · iexact Hlev
    iexact Hat2
  iintro ⟨HO, Hat2, Hrcvp⟩
  ihave Hstg' := (Entails.of_eq (show pay V c (.rsS 1 0) 0 = ptsAny c stgM1_0 from rfl)) $$ Hstgp
  ihave Hrcv' := (Entails.of_eq (show pay V c (.rsR 1 0) 0 = ptsIs c commM1_0 (V.rs1_0 (nbr 1 c)) from rfl)) $$ Hrcvp
  unfold ptsIs
  icases Hrcv' with ⟨%fr, Hr, %hVr⟩
  unfold ptsAny
  icases Hstg' with ⟨%fs, Hs⟩
  sl_exec
  sl_step
  iexists fr
  isplitr; · ipureintro; rfl
  isplitr; · ipureintro; exact hVr
  isplitl [HO]; · iexact HO
  isplitl [Hat1]; · iexact Hat1
  isplitl [Hat2]; · iexact Hat2
  isplitl [Hs]; · iexists fs; iexact Hs
  isplitl [Hr]; · iexact Hr
  iexact H3

end Cert.KernelIdeal.Proto

end
-- ==== Proof.Body11.lean ====
/-
The eleventh stretch of a device's kernel body, the second reduce-scatter step of group 1: the rounded sums go into the
first 512 rows of the staging buffer and to the neighbour across axis 2; the landed rows that belong to the kept
rows are added to those; and group 2's first transfer is awaited at its source.
-/
import proofs.«900882_g7700000000000883_dist_matmul_gelu_kshard_i_m2048_n2048_k1024_v7x_i8_f32_1_alg».proof.Proof.Rules
import proofs.«900882_g7700000000000883_dist_matmul_gelu_kshard_i_m2048_n2048_k1024_v7x_i8_f32_1_alg».proof.Proof.TopoTab
import proofs.«900882_g7700000000000883_dist_matmul_gelu_kshard_i_m2048_n2048_k1024_v7x_i8_f32_1_alg».proof.Proof.PiecesTab
import proofs.«900882_g7700000000000883_dist_matmul_gelu_kshard_i_m2048_n2048_k1024_v7x_i8_f32_1_alg».proof.Proof.TopoClosed
import proofs.«900882_g7700000000000883_dist_matmul_gelu_kshard_i_m2048_n2048_k1024_v7x_i8_f32_1_alg».proof.Proof.Gen.KernelIdeal.Skeleton
import Idealize.ShloMosaic.Lib.Pipeline.Value

set_option maxRecDepth 16384

noncomputable section

namespace Cert.KernelIdeal.Proto

open Cert.KernelIdeal Cert.KernelIdeal.Gen Cert.KernelIdeal.Topo
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : Vals F)

set_option maxHeartbeats 1000000 in
theorem part11_run (c : Dev nD) (κs κr κw1 : ℕ) (W : Waits sig Unit) (v2 v67 v82 v304 : BitVec 32) (v322 : FVec F S512x384 .bf16)
    (fs : Buf (Elt F) ((stgM1_0 : Memref sig .tc .vmem S1024x384 .bf16).view.loc (c : Thread nD τ)))
    (fr : Buf (Elt F) ((commM1_0 : Memref sig .tc .vmem S1024x384 .bf16).view.loc (c : Thread nD τ)))
    (f3 : Buf (Elt F) ((Memref.whole cc0_scratch0 : Memref sig .tc .vmem S2048x2048 .f32).view.loc (c : Thread nD τ)))
    (hV : V.rs1_1 c ((stgM1_1 : Memref sig .tc .vmem S512x384 .bf16).view.read (Elt F) (View.write (Elt F) ((Memref.whole cc0_scratch8 : Memref sig .tc .vmem S1024x384 .bf16).access (Rect.unit (s := S1024x384) ![0, 0] S512x384.size inb_S1024x384_S512x384_0_0)) fs v322 Finset.univ))) :
    iprop(cellInv ER (sched V) κs (cell c (.rsS 1 1))
        ∗ cellInv ER (sched V) κr (cell (nbr 2 c) (.rsR 1 1))
        ∗ reached ER (cell c (.rsS 1 1)) 0
        ∗ reached ER (cell (nbr 2 c) (.rsR 1 1)) 0
        ∗ dutyTok ER (cell c (.rsS 1 1)) 0 (0 : Fin 3)
        ∗ dutyTok ER (cell (nbr 2 c) (.rsR 1 1)) 0 (0 : Fin 3)
        ∗ ptsAny (F := F) (nbr 2 c) commM1_1
        ∗ owes (c : Thread nD τ) (Owe c 10) W
        ∗ heldW c (stgM1_0 : Memref sig .tc .vmem S1024x384 .bf16) fs
        ∗ heldW c (commM1_0 : Memref sig .tc .vmem S1024x384 .bf16) fr
        ∗ heldW c (Memref.whole cc0_scratch0 : Memref sig .tc .vmem S2048x2048 .f32) f3
        ∗ cellInv ER (sched V) κw1 (cell c (.rsS 2 0))
        ∗ levAts L lv
        ∗ cred (tallyAt (cell c (.rsS 2 0)) () (amt (.rsR 2 0)))
        ∗ atPos ER (cell c (.rsS 2 0)) 0 ∅ 0)
      ⊢ wp frame (wpE (defs₀ (F := F)) 𝒱₀ c none) Set.univ
          (k0_part11 (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23 c v2 v67 v82 v304 v322)
          (fun r => iprop(⌜r = ⟨Scalar.xori v2 4#32, Scalar.muli v82 1#32, 0#32⟩⌝
            ∗ cred (tallyAt (cell c (.rsS 1 1)) () (amt (.rsR 1 1)))
            ∗ owes (c : Thread nD τ) (Owe c 11) (insert ((CK.rsS 2 0).sem, ()) W)
            ∗ ((stgM1_0 : Memref sig .tc .vmem S1024x384 .bf16).view.loc (c : Thread nD τ) ↦[(stgM1_0 : Memref sig .tc .vmem S1024x384 .bf16).view.set \ (stgM1_1 : Memref sig .tc .vmem S512x384 .bf16).view.set]{fullShare} (View.write (Elt F) ((Memref.whole cc0_scratch8 : Memref sig .tc .vmem S1024x384 .bf16).access (Rect.unit (s := S1024x384) ![0, 0] S512x384.size inb_S1024x384_S512x384_0_0)) fs v322 Finset.univ))
            ∗ heldW c (commM1_0 : Memref sig .tc .vmem S1024x384 .bf16) fr
            ∗ heldW c (Memref.whole cc0_scratch0 : Memref sig .tc .vmem S2048x2048 .f32) ((Memref.whole cc0_scratch0 : Memref sig .tc .vmem S2048x2048 .f32).view.writes (Elt F) f3
              [⟨Rect.unit (s := S2048x2048) (k0_off19 c) S512x384.size (k0_off19_inb c), k0_pay23 (View.readAt (Elt F) (Memref.whole cc0_scratch0 : Memref sig .tc .vmem S2048x2048 .f32).view (Rect.unit (s := S2048x2048) (k0_off19 c) S512x384.size (k0_off19_inb c)).toLoadRect f3) (View.readAt (Elt F) (Memref.whole cc0_scratch2 : Memref sig .tc .vmem S1792x384 .bf16).view (Rect.unit (s := S1792x384) (k0_off20 c) S512x384.size (k0_off20_inb c)).toLoadRect fr)⟩])
            ∗ atPos ER (cell c (.rsS 2 0)) 1 ∅ 0
            ∗ ptsAny (F := F) c stgM2_0)) := by
  simp only [k0_part11_eq_skeleton]; unfold k0_part11_skel
  simp only [Prog.lift, Prog.bind_op, Prog.bind_ret, Prog.pure_eq_ret]
  iintro ⟨#HIs, #HIr, #Hrs, #Hrr, Hts, Htr, Hdst, HO, Hstg, Hland, H3, #HIw1, #Hlev, Hc1, Hat1⟩
  unfold heldW
  unfold ptsAny
  icases Hdst with ⟨%fd, Hdst⟩
  have := cx_le c; have := cy_le c; have := cz_le c
  sl_exec
  ihave Hs_ := (Entails.of_eq (pts_set_eq (F := F) (ℓ := (stgM1_0 : Memref sig .tc .vmem S1024x384 .bf16).view.loc (c : Thread nD τ))
      (S' := (stgM1_1 : Memref sig .tc .vmem S512x384 .bf16).view.set ∪ ((stgM1_0 : Memref sig .tc .vmem S1024x384 .bf16).view.set \ (stgM1_1 : Memref sig .tc .vmem S512x384 .bf16).view.set)) (Finset.union_sdiff_of_subset stg_sub1_1).symm)) $$ Hstg
  ihave Hs2_ := (pts_union (F := F) Finset.disjoint_sdiff).1 $$ Hs_
  icases Hs2_ with ⟨Hsrc, Hrem⟩
  iapply (wp_send_to V c ⟨k0_dev11 c, k0_dev11_lt c⟩ 2 (dev11_eq c) (.rsS 1 1) (.rsR 1 1) (by decide) (by decide) 10 (by decide) (paid_rs c 1 1) rfl
      (src := stgM1_1) (dst := commM1_1) (rsS_sem_eq 1 1 _) (rsR_sem_eq 1 1 _) rfl fd κs κr W
      (ptsAny_intro c stgM1_1 _)
      (ptsIs_intro (nbr 2 c) commM1_1 _ _ (by rw [View.read_write_univ, nbr_nbr]; exact hV))) $$ [Hsrc Hdst HO Hts Htr]
  · isplitr; · iexact HIs
    isplitr; · iexact HIr
    isplitl [Hsrc]; · iexact Hsrc
    isplitl [Hdst]; · iexact Hdst
    isplitl [HO]; · iexact HO
    isplitl [Hts]; · iexact Hts
    isplitr; · iexact Hrs
    isplitl [Htr]; · iexact Htr
    iexact Hrr
  iintro ⟨Hcs, HO⟩
  sl_exec
  iapply (wp_wait_xfer V c (.rsS 2 0) (by decide) 11 (rsS_sem_eq 2 0 _) rfl (w := TpuEff.waitDma2 _ (commM2_0 : Memref sig .tc .vmem S1024x384 .bf16) (stgM2_0 : Memref sig .tc .vmem S1024x384 .bf16) _ _) (wpE_waitDma2_eq 𝒱₀ (c : Thread nD τ) none Set.univ)
      (mayWait_own c (.rsS 2 0) (lv_cell c (.rsS 2 0)) 11) κw1 (W)) $$ [Hc1 HO Hat1]
  · isplitr; · iexact HIw1
    isplitl [Hc1]; · iexact Hc1
    isplitl [HO]; · iexact HO
    isplitr; · iexact Hlev
    iexact Hat1
  iintro ⟨HO, Hat1, Hstgp⟩
  ihave Hstg2 := (Entails.of_eq (show pay V c (.rsS 2 0) 0 = ptsAny c stgM2_0 from rfl)) $$ Hstgp
  unfold ptsAny
  sl_step
  isplitr; · ipureintro; rfl
  isplitl [Hcs]; · iexact Hcs
  isplitl [HO]; · iexact HO
  isplitl [Hrem]; · iexact Hrem
  isplitl [Hland]; · iexact Hland
  isplitl [H3]; · iexact H3
  isplitl [Hat1]; · iexact Hat1
  iexact Hstg2

end Cert.KernelIdeal.Proto

end
-- ==== Proof.Body12.lean ====
/-
The twelfth stretch of a device's kernel body: group 2's first landing is awaited; the landed rows are added to the rows
of the accumulator that leave at the second step, and the sums are rounded into the first 512 rows of group 2's
staging buffer.
-/
import proofs.«900882_g7700000000000883_dist_matmul_gelu_kshard_i_m2048_n2048_k1024_v7x_i8_f32_1_alg».proof.Proof.Rules
import proofs.«900882_g7700000000000883_dist_matmul_gelu_kshard_i_m2048_n2048_k1024_v7x_i8_f32_1_alg».proof.Proof.TopoTab
import proofs.«900882_g7700000000000883_dist_matmul_gelu_kshard_i_m2048_n2048_k1024_v7x_i8_f32_1_alg».proof.Proof.PiecesTab
import proofs.«900882_g7700000000000883_dist_matmul_gelu_kshard_i_m2048_n2048_k1024_v7x_i8_f32_1_alg».proof.Proof.TopoClosed
import proofs.«900882_g7700000000000883_dist_matmul_gelu_kshard_i_m2048_n2048_k1024_v7x_i8_f32_1_alg».proof.Proof.Gen.KernelIdeal.Skeleton
import Idealize.ShloMosaic.Lib.Pipeline.Value

set_option maxRecDepth 16384

noncomputable section

namespace Cert.KernelIdeal.Proto

open Cert.KernelIdeal Cert.KernelIdeal.Gen Cert.KernelIdeal.Topo
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : Vals F)

set_option maxHeartbeats 1000000 in
theorem part12_run (c : Dev nD) (κw2 : ℕ) (W : Waits sig Unit) (v2 v6 v91 v348 c0_i32_257 : BitVec 32)
    (fs : Buf (Elt F) ((stgM2_0 : Memref sig .tc .vmem S1024x384 .bf16).view.loc (c : Thread nD τ)))
    (f3 : Buf (Elt F) ((Memref.whole cc0_scratch0 : Memref sig .tc .vmem S2048x2048 .f32).view.loc (c : Thread nD τ))) :
    iprop(cellInv ER (sched V) κw2 (cell c (.rsR 2 0))
        ∗ levAts L lv
        ∗ cred (tallyAt (cell c (.rsR 2 0)) () (amt (.rsR 2 0)))
        ∗ atPos ER (cell c (.rsR 2 0)) 0 ∅ 0
        ∗ owes (c : Thread nD τ) (Owe c 11) W
        ∗ heldW c (stgM2_0 : Memref sig .tc .vmem S1024x384 .bf16) fs
        ∗ heldW c (Memref.whole cc0_scratch0 : Memref sig .tc .vmem S2048x2048 .f32) f3)
      ⊢ wp frame (wpE (defs₀ (F := F)) 𝒱₀ c none) Set.univ
          (k0_part12 (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23 c v2 v6 v91 v348 c0_i32_257)
          (fun r => iprop(∃ fr : Buf (Elt F) ((commM2_0 : Memref sig .tc .vmem S1024x384 .bf16).view.loc (c : Thread nD τ)), ⌜r = ⟨Scalar.addi v91 (Scalar.muli v6 512#32), Scalar.xori v2 1#32⟩⌝
            ∗ ⌜V.rs2_0 (nbr 2 c) ((commM2_0 : Memref sig .tc .vmem S1024x384 .bf16).view.read (Elt F) fr)⌝
            ∗ owes (c : Thread nD τ) (Owe c 11) (insert ((CK.rsR 2 0).sem, ()) W)
            ∗ atPos ER (cell c (.rsR 2 0)) 1 ∅ 0
            ∗ heldW c (stgM2_0 : Memref sig .tc .vmem S1024x384 .bf16) (View.write (Elt F) ((Memref.whole cc0_scratch9 : Memref sig .tc .vmem S1024x384 .bf16).access (Rect.unit (s := S1024x384) ![0, 0] S512x384.size inb_S1024x384_S512x384_0_0)) fs (k0_pay25 ((Memref.whole cc0_scratch0 : Memref sig .tc .vmem S2048x2048 .f32).view.readCov [⟨Rect.unit (s := S2048x2048) (k0_off21 c) S512x384.size (k0_off21_inb c), k0_pay24 (View.readAt (Elt F) (Memref.whole cc0_scratch0 : Memref sig .tc .vmem S2048x2048 .f32).view (Rect.unit (s := S2048x2048) (k0_off21 c) S512x384.size (k0_off21_inb c)).toLoadRect f3) (View.readAt (Elt F) (Memref.whole cc0_scratch3 : Memref sig .tc .vmem S1792x384 .bf16).view (Rect.unit (s := S1792x384) (k0_off22 c) S512x384.size (k0_off22_inb c)).toLoadRect fr)⟩] (Rect.unit (s := S2048x2048) (k0_off21 c) S512x384.size (k0_off21_inb c)).toLoadRect)) Finset.univ)
            ∗ heldW c (commM2_0 : Memref sig .tc .vmem S1024x384 .bf16) fr
            ∗ heldW c (Memref.whole cc0_scratch0 : Memref sig .tc .vmem S2048x2048 .f32) ((Memref.whole cc0_scratch0 : Memref sig .tc .vmem S2048x2048 .f32).view.writes (Elt F) f3
              [⟨Rect.unit (s := S2048x2048) (k0_off21 c) S512x384.size (k0_off21_inb c), k0_pay24 (View.readAt (Elt F) (Memref.whole cc0_scratch0 : Memref sig .tc .vmem S2048x2048 .f32).view (Rect.unit (s := S2048x2048) (k0_off21 c) S512x384.size (k0_off21_inb c)).toLoadRect f3) (View.readAt (Elt F) (Memref.whole cc0_scratch3 : Memref sig .tc .vmem S1792x384 .bf16).view (Rect.unit (s := S1792x384) (k0_off22 c) S512x384.size (k0_off22_inb c)).toLoadRect fr)⟩]))) := by
  simp only [k0_part12_eq_skeleton]; unfold k0_part12_skel
  simp only [Prog.lift, Prog.bind_op, Prog.bind_ret, Prog.pure_eq_ret]
  iintro ⟨#HIw2, #Hlev, Hc2, Hat2, HO, Hstg, H3⟩
  unfold heldW
  have := cx_le c; have := cy_le c; have := cz_le c
  iapply (wp_wait_xfer V c (.rsR 2 0) (by decide) 11 (rsR_sem_eq 2 0 _) rfl (w := TpuEff.waitDma2 _ (stgM2_0 : Memref sig .tc .vmem S1024x384 .bf16) (commM2_0 : Memref sig .tc .vmem S1024x384 .bf16) _ _) (wpE_waitDma2_eq 𝒱₀ (c : Thread nD τ) none Set.univ)
      (mayWait_rsR c 2 0 11 (by decide)) κw2 (W)) $$ [Hc2 HO Hat2]
  · isplitr; · iexact HIw2
    isplitl [Hc2]; · iexact Hc2
    isplitl [HO]; · iexact HO
    isplitr; · iexact Hlev
    iexact Hat2
  iintro ⟨HO, Hat2, Hrcvp⟩
  ihave Hrcv' := (Entails.of_eq (show pay V c (.rsR 2 0) 0 = ptsIs c commM2_0 (V.rs2_0 (nbr 2 c)) from rfl)) $$ Hrcvp
  unfold ptsIs
  icases Hrcv' with ⟨%fr, Hr, %hVr⟩
  sl_exec
  sl_step
  iexists fr
  isplitr; · ipureintro; rfl
  isplitr; · ipureintro; exact hVr
  isplitl [HO]; · iexact HO
  isplitl [Hat2]; · iexact Hat2
  isplitl [Hstg]; · iexact Hstg
  isplitl [Hr]; · iexact Hr
  iexact H3

end Cert.KernelIdeal.Proto

end
-- ==== Proof.Body13.lean ====
/-
The thirteenth stretch of a device's kernel body, the second reduce-scatter step of group 2: the first 512 rows of its
staging buffer go to the neighbour across axis 0; the landed rows that belong to the kept rows are added to those;
and the first reduce-scatter exchange of group 3 is awaited.
-/
import proofs.«900882_g7700000000000883_dist_matmul_gelu_kshard_i_m2048_n2048_k1024_v7x_i8_f32_1_alg».proof.Proof.Rules
import proofs.«900882_g7700000000000883_dist_matmul_gelu_kshard_i_m2048_n2048_k1024_v7x_i8_f32_1_alg».proof.Proof.TopoTab
import proofs.«900882_g7700000000000883_dist_matmul_gelu_kshard_i_m2048_n2048_k1024_v7x_i8_f32_1_alg».proof.Proof.PiecesTab
import proofs.«900882_g7700000000000883_dist_matmul_gelu_kshard_i_m2048_n2048_k1024_v7x_i8_f32_1_alg».proof.Proof.TopoClosed
import proofs.«900882_g7700000000000883_dist_matmul_gelu_kshard_i_m2048_n2048_k1024_v7x_i8_f32_1_alg».proof.Proof.Gen.KernelIdeal.Skeleton
import Idealize.ShloMosaic.Lib.Pipeline.Value

set_option maxRecDepth 16384

noncomputable section

namespace Cert.KernelIdeal.Proto

open Cert.KernelIdeal Cert.KernelIdeal.Gen Cert.KernelIdeal.Topo
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : Vals F)

set_option maxHeartbeats 1000000 in
theorem part13_run (c : Dev nD) (κs κr κw1 κw2 : ℕ) (W : Waits sig Unit) (v8 v91 v106 v115 v358 : BitVec 32)
    (fs : Buf (Elt F) ((stgM2_0 : Memref sig .tc .vmem S1024x384 .bf16).view.loc (c : Thread nD τ)))
    (fr : Buf (Elt F) ((commM2_0 : Memref sig .tc .vmem S1024x384 .bf16).view.loc (c : Thread nD τ)))
    (f3 : Buf (Elt F) ((Memref.whole cc0_scratch0 : Memref sig .tc .vmem S2048x2048 .f32).view.loc (c : Thread nD τ)))
    (hV : V.rs2_1 c ((stgM2_1 : Memref sig .tc .vmem S512x384 .bf16).view.read (Elt F) fs)) :
    iprop(cellInv ER (sched V) κs (cell c (.rsS 2 1))
        ∗ cellInv ER (sched V) κr (cell (nbr 0 c) (.rsR 2 1))
        ∗ reached ER (cell c (.rsS 2 1)) 0
        ∗ reached ER (cell (nbr 0 c) (.rsR 2 1)) 0
        ∗ dutyTok ER (cell c (.rsS 2 1)) 0 (0 : Fin 3)
        ∗ dutyTok ER (cell (nbr 0 c) (.rsR 2 1)) 0 (0 : Fin 3)
        ∗ ptsAny (F := F) (nbr 0 c) commM2_1
        ∗ owes (c : Thread nD τ) (Owe c 11) W
        ∗ heldW c (stgM2_0 : Memref sig .tc .vmem S1024x384 .bf16) fs
        ∗ heldW c (commM2_0 : Memref sig .tc .vmem S1024x384 .bf16) fr
        ∗ heldW c (Memref.whole cc0_scratch0 : Memref sig .tc .vmem S2048x2048 .f32) f3
        ∗ cellInv ER (sched V) κw1 (cell c (.rsS 3 0))
        ∗ cellInv ER (sched V) κw2 (cell c (.rsR 3 0))
        ∗ levAts L lv
        ∗ cred (tallyAt (cell c (.rsS 3 0)) () (amt (.rsR 3 0)))
        ∗ cred (tallyAt (cell c (.rsR 3 0)) () (amt (.rsR 3 0)))
        ∗ atPos ER (cell c (.rsS 3 0)) 0 ∅ 0
        ∗ atPos ER (cell c (.rsR 3 0)) 0 ∅ 0)
      ⊢ wp frame (wpE (defs₀ (F := F)) 𝒱₀ c none) Set.univ
          (k0_part13 (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23 c v8 v91 v106 v115 v358)
          (fun r => iprop(∃ fr3 : Buf (Elt F) ((commM3_0 : Memref sig .tc .vmem S1024x384 .bf16).view.loc (c : Thread nD τ)), ⌜r = ⟨Scalar.addi v115 (Scalar.muli (Scalar.subi 1#32 v8) 512#32), 512#32⟩⌝
            ∗ ⌜V.rs3_0 (nbr 0 c) ((commM3_0 : Memref sig .tc .vmem S1024x384 .bf16).view.read (Elt F) fr3)⌝
            ∗ cred (tallyAt (cell c (.rsS 2 1)) () (amt (.rsR 2 1)))
            ∗ owes (c : Thread nD τ) (Owe c 12) (insert ((CK.rsR 3 0).sem, ()) (insert ((CK.rsS 3 0).sem, ()) W))
            ∗ ((stgM2_0 : Memref sig .tc .vmem S1024x384 .bf16).view.loc (c : Thread nD τ) ↦[(stgM2_0 : Memref sig .tc .vmem S1024x384 .bf16).view.set \ (stgM2_1 : Memref sig .tc .vmem S512x384 .bf16).view.set]{fullShare} fs)
            ∗ heldW c (commM2_0 : Memref sig .tc .vmem S1024x384 .bf16) fr
            ∗ heldW c (Memref.whole cc0_scratch0 : Memref sig .tc .vmem S2048x2048 .f32) ((Memref.whole cc0_scratch0 : Memref sig .tc .vmem S2048x2048 .f32).view.writes (Elt F) f3
              [⟨Rect.unit (s := S2048x2048) (k0_off23 c) S512x384.size (k0_off23_inb c), k0_pay26 (View.readAt (Elt F) (Memref.whole cc0_scratch0 : Memref sig .tc .vmem S2048x2048 .f32).view (Rect.unit (s := S2048x2048) (k0_off23 c) S512x384.size (k0_off23_inb c)).toLoadRect f3) (View.readAt (Elt F) (Memref.whole cc0_scratch3 : Memref sig .tc .vmem S1792x384 .bf16).view (Rect.unit (s := S1792x384) (k0_off24 c) S512x384.size (k0_off24_inb c)).toLoadRect fr)⟩])
            ∗ atPos ER (cell c (.rsS 3 0)) 1 ∅ 0
            ∗ atPos ER (cell c (.rsR 3 0)) 1 ∅ 0
            ∗ ptsAny (F := F) c stgM3_0
            ∗ heldW c (commM3_0 : Memref sig .tc .vmem S1024x384 .bf16) fr3)) := by
  simp only [k0_part13_eq_skeleton]; unfold k0_part13_skel
  simp only [Prog.lift, Prog.bind_op, Prog.bind_ret, Prog.pure_eq_ret]
  iintro ⟨#HIs, #HIr, #Hrs, #Hrr, Hts, Htr, Hdst, HO, Hstg, Hland, H3, #HIw1, #HIw2, #Hlev, Hc1, Hc2, Hat1, Hat2⟩
  unfold heldW
  unfold ptsAny
  icases Hdst with ⟨%fd, Hdst⟩
  have := cx_le c; have := cy_le c; have := cz_le c
  ihave Hs_ := (Entails.of_eq (pts_set_eq (F := F) (ℓ := (stgM2_0 : Memref sig .tc .vmem S1024x384 .bf16).view.loc (c : Thread nD τ))
      (S' := (stgM2_1 : Memref sig .tc .vmem S512x384 .bf16).view.set ∪ ((stgM2_0 : Memref sig .tc .vmem S1024x384 .bf16).view.set \ (stgM2_1 : Memref sig .tc .vmem S512x384 .bf16).view.set)) (Finset.union_sdiff_of_subset stg_sub1_2).symm)) $$ Hstg
  ihave Hs2_ := (pts_union (F := F) Finset.disjoint_sdiff).1 $$ Hs_
  icases Hs2_ with ⟨Hsrc, Hrem⟩
  iapply (wp_send_to V c ⟨k0_dev12 c, k0_dev12_lt c⟩ 0 (dev12_eq c) (.rsS 2 1) (.rsR 2 1) (by decide) (by decide) 11 (by decide) (paid_rs c 2 1) rfl
      (src := stgM2_1) (dst := commM2_1) (rsS_sem_eq 2 1 _) (rsR_sem_eq 2 1 _) rfl fd κs κr W
      (ptsAny_intro c stgM2_1 _)
      (ptsIs_intro (nbr 0 c) commM2_1 _ _ (by rw [View.read_write_univ, nbr_nbr]; exact hV))) $$ [Hsrc Hdst HO Hts Htr]
  · isplitr; · iexact HIs
    isplitr; · iexact HIr
    isplitl [Hsrc]; · iexact Hsrc
    isplitl [Hdst]; · iexact Hdst
    isplitl [HO]; · iexact HO
    isplitl [Hts]; · iexact Hts
    isplitr; · iexact Hrs
    isplitl [Htr]; · iexact Htr
    iexact Hrr
  iintro ⟨Hcs, HO⟩
  sl_exec
  iapply (wp_wait_xfer V c (.rsS 3 0) (by decide) 12 (rsS_sem_eq 3 0 _) rfl (w := TpuEff.waitDma2 _ (commM3_0 : Memref sig .tc .vmem S1024x384 .bf16) (stgM3_0 : Memref sig .tc .vmem S1024x384 .bf16) _ _) (wpE_waitDma2_eq 𝒱₀ (c : Thread nD τ) none Set.univ)
      (mayWait_own c (.rsS 3 0) (lv_cell c (.rsS 3 0)) 12) κw1 (W)) $$ [Hc1 HO Hat1]
  · isplitr; · iexact HIw1
    isplitl [Hc1]; · iexact Hc1
    isplitl [HO]; · iexact HO
    isplitr; · iexact Hlev
    iexact Hat1
  iintro ⟨HO, Hat1, Hstgp⟩
  iapply (wp_wait_xfer V c (.rsR 3 0) (by decide) 12 (rsR_sem_eq 3 0 _) rfl (w := TpuEff.waitDma2 _ (stgM3_0 : Memref sig .tc .vmem S1024x384 .bf16) (commM3_0 : Memref sig .tc .vmem S1024x384 .bf16) _ _) (wpE_waitDma2_eq 𝒱₀ (c : Thread nD τ) none Set.univ)
      (mayWait_rsR c 3 0 12 (by decide)) κw2 (insert ((CK.rsS 3 0).sem, ()) W)) $$ [Hc2 HO Hat2]
  · isplitr; · iexact HIw2
    isplitl [Hc2]; · iexact Hc2
    isplitl [HO]; · iexact HO
    isplitr; · iexact Hlev
    iexact Hat2
  iintro ⟨HO, Hat2, Hrcvp⟩
  ihave Hstg3 := (Entails.of_eq (show pay V c (.rsS 3 0) 0 = ptsAny c stgM3_0 from rfl)) $$ Hstgp
  ihave Hrcv' := (Entails.of_eq (show pay V c (.rsR 3 0) 0 = ptsIs c commM3_0 (V.rs3_0 (nbr 0 c)) from rfl)) $$ Hrcvp
  unfold ptsIs
  icases Hrcv' with ⟨%fr3, Hr3, %hVr⟩
  unfold ptsAny
  sl_step
  iexists fr3
  isplitr; · ipureintro; rfl
  isplitr; · ipureintro; exact hVr
  isplitl [Hcs]; · iexact Hcs
  isplitl [HO]; · iexact HO
  isplitl [Hrem]; · iexact Hrem
  isplitl [Hland]; · iexact Hland
  isplitl [H3]; · iexact H3
  isplitl [Hat1]; · iexact Hat1
  isplitl [Hat2]; · iexact Hat2
  isplitl [Hstg3]; · iexact Hstg3
  iexact Hr3

end Cert.KernelIdeal.Proto

end
-- ==== Proof.Body14.lean ====
/-
Stretch 14 of a device's kernel body: the sum of the sent-on 512 rows of group 3's first landing into the accumulator,
their rounding into the first 512 rows of group 3's staging buffer, group 3's second reduce-scatter send (those rows to the
neighbour across axis 1), and the loads for the sum of the kept 512 rows.
-/
import proofs.«900882_g7700000000000883_dist_matmul_gelu_kshard_i_m2048_n2048_k1024_v7x_i8_f32_1_alg».proof.Proof.Rules
import proofs.«900882_g7700000000000883_dist_matmul_gelu_kshard_i_m2048_n2048_k1024_v7x_i8_f32_1_alg».proof.Proof.TopoTab
import proofs.«900882_g7700000000000883_dist_matmul_gelu_kshard_i_m2048_n2048_k1024_v7x_i8_f32_1_alg».proof.Proof.PiecesTab
import proofs.«900882_g7700000000000883_dist_matmul_gelu_kshard_i_m2048_n2048_k1024_v7x_i8_f32_1_alg».proof.Proof.Gen.KernelIdeal.Skeleton
import proofs.«900882_g7700000000000883_dist_matmul_gelu_kshard_i_m2048_n2048_k1024_v7x_i8_f32_1_alg».proof.Proof.TopoClosed
import Idealize.ShloMosaic.Lib.Pipeline.Value

set_option maxRecDepth 16384

noncomputable section

namespace Cert.KernelIdeal.Proto

open Cert.KernelIdeal Cert.KernelIdeal.Gen Cert.KernelIdeal.Topo
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : Vals F)

set_option maxHeartbeats 2000000 in
theorem part14_run (c : Dev nD) (κs κr : ℕ) (W : Waits sig Unit) (v2 v8 v115 v410 c512_i32_308 : BitVec 32)
    (f3 : Buf (Elt F) ((Memref.whole cc0_scratch0 : Memref sig .tc .vmem S2048x2048 .f32).view.loc (c : Thread nD τ)))
    (f13 : Buf (Elt F) ((stgM3_0 : Memref sig .tc .vmem S1024x384 .bf16).view.loc (c : Thread nD τ)))
    (fl : Buf (Elt F) ((commM3_0 : Memref sig .tc .vmem S1024x384 .bf16).view.loc (c : Thread nD τ)))
    (hV : V.rs3_1 c ((stgM3_1 : Memref sig .tc .vmem S512x384 .bf16).view.read (Elt F) (View.write (Elt F) ((Memref.whole cc0_scratch10 : Memref sig .tc .vmem S1024x384 .bf16).access (Rect.unit (s := S1024x384) ![0, 0] ![512, 384] inb_S1024x384_S512x384_0_0)) f13 (k0_pay28 ((Memref.whole cc0_scratch0 : Memref sig .tc .vmem S2048x2048 .f32).view.readCov [⟨Rect.unit (s := S2048x2048) (k0_off25 c) ![512, 384] (k0_off25_inb c), k0_pay27 (View.readAt (Elt F) (Memref.whole cc0_scratch0 : Memref sig .tc .vmem S2048x2048 .f32).view (Rect.unit (s := S2048x2048) (k0_off25 c) ![512, 384] (k0_off25_inb c)).toLoadRect f3) (View.readAt (Elt F) (Memref.whole cc0_scratch4 : Memref sig .tc .vmem S1792x384 .bf16).view (Rect.unit (s := S1792x384) (k0_off14 c) ![512, 384] (k0_off14_inb c)).toLoadRect fl)⟩] (Rect.unit (s := S2048x2048) (k0_off25 c) ![512, 384] (k0_off25_inb c)).toLoadRect)) Finset.univ))) :
    iprop(cellInv ER (sched V) κs (cell c (.rsS 3 1)) ∗ cellInv ER (sched V) κr (cell (nbr 1 c) (.rsR 3 1))
        ∗ reached ER (cell c (.rsS 3 1)) 0 ∗ reached ER (cell (nbr 1 c) (.rsR 3 1)) 0
        ∗ dutyTok ER (cell c (.rsS 3 1)) 0 (0 : Fin 3) ∗ dutyTok ER (cell (nbr 1 c) (.rsR 3 1)) 0 (0 : Fin 3)
        ∗ ptsAny (F := F) (nbr 1 c) commM3_1
        ∗ owes (c : Thread nD τ) (Owe c 12) W
        ∗ heldW c (stgM3_0 : Memref sig .tc .vmem S1024x384 .bf16) f13
        ∗ heldW c (Memref.whole cc0_scratch0 : Memref sig .tc .vmem S2048x2048 .f32) f3
        ∗ heldW c (commM3_0 : Memref sig .tc .vmem S1024x384 .bf16) fl)
      ⊢ wp frame (wpE (defs₀ (F := F)) 𝒱₀ c none) Set.univ
          (k0_part14 (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23 c v2 v8 v115 v410 c512_i32_308)
          (fun r => iprop(⌜r = ⟨Scalar.addi v115 (Scalar.muli v8 c512_i32_308), ⟨Scalar.xori v2 3#32, ⟨View.readAt (Elt F) (Memref.whole cc0_scratch0 : Memref sig .tc .vmem S2048x2048 .f32).view (Rect.unit (s := S2048x2048) (k0_off26 c) ![512, 384] (k0_off26_inb c)).toLoadRect ((Memref.whole cc0_scratch0 : Memref sig .tc .vmem S2048x2048 .f32).view.writes (Elt F) f3 [⟨Rect.unit (s := S2048x2048) (k0_off25 c) ![512, 384] (k0_off25_inb c), k0_pay27 (View.readAt (Elt F) (Memref.whole cc0_scratch0 : Memref sig .tc .vmem S2048x2048 .f32).view (Rect.unit (s := S2048x2048) (k0_off25 c) ![512, 384] (k0_off25_inb c)).toLoadRect f3) (View.readAt (Elt F) (Memref.whole cc0_scratch4 : Memref sig .tc .vmem S1792x384 .bf16).view (Rect.unit (s := S1792x384) (k0_off14 c) ![512, 384] (k0_off14_inb c)).toLoadRect fl)⟩]), k0_pay29 (View.readAt (Elt F) (Memref.whole cc0_scratch4 : Memref sig .tc .vmem S1792x384 .bf16).view (Rect.unit (s := S1792x384) (k0_off16 c) ![512, 384] (k0_off16_inb c)).toLoadRect fl)⟩⟩⟩⌝ ∗ cred (tallyAt (cell c (.rsS 3 1)) () (amt (.rsR 3 1)))
            ∗ owes (c : Thread nD τ) (Owe c 13) W
            ∗ heldW c (Memref.whole cc0_scratch0 : Memref sig .tc .vmem S2048x2048 .f32) ((Memref.whole cc0_scratch0 : Memref sig .tc .vmem S2048x2048 .f32).view.writes (Elt F) f3 [⟨Rect.unit (s := S2048x2048) (k0_off25 c) ![512, 384] (k0_off25_inb c), k0_pay27 (View.readAt (Elt F) (Memref.whole cc0_scratch0 : Memref sig .tc .vmem S2048x2048 .f32).view (Rect.unit (s := S2048x2048) (k0_off25 c) ![512, 384] (k0_off25_inb c)).toLoadRect f3) (View.readAt (Elt F) (Memref.whole cc0_scratch4 : Memref sig .tc .vmem S1792x384 .bf16).view (Rect.unit (s := S1792x384) (k0_off14 c) ![512, 384] (k0_off14_inb c)).toLoadRect fl)⟩])
            ∗ heldW c (commM3_0 : Memref sig .tc .vmem S1024x384 .bf16) fl
            ∗ ((stgM3_0 : Memref sig .tc .vmem S1024x384 .bf16).view.loc (c : Thread nD τ) ↦[(stgM3_0 : Memref sig .tc .vmem S1024x384 .bf16).view.set \ (stgM3_1 : Memref sig .tc .vmem S512x384 .bf16).view.set]{fullShare} (View.write (Elt F) ((Memref.whole cc0_scratch10 : Memref sig .tc .vmem S1024x384 .bf16).access (Rect.unit (s := S1024x384) ![0, 0] ![512, 384] inb_S1024x384_S512x384_0_0)) f13 (k0_pay28 ((Memref.whole cc0_scratch0 : Memref sig .tc .vmem S2048x2048 .f32).view.readCov [⟨Rect.unit (s := S2048x2048) (k0_off25 c) ![512, 384] (k0_off25_inb c), k0_pay27 (View.readAt (Elt F) (Memref.whole cc0_scratch0 : Memref sig .tc .vmem S2048x2048 .f32).view (Rect.unit (s := S2048x2048) (k0_off25 c) ![512, 384] (k0_off25_inb c)).toLoadRect f3) (View.readAt (Elt F) (Memref.whole cc0_scratch4 : Memref sig .tc .vmem S1792x384 .bf16).view (Rect.unit (s := S1792x384) (k0_off14 c) ![512, 384] (k0_off14_inb c)).toLoadRect fl)⟩] (Rect.unit (s := S2048x2048) (k0_off25 c) ![512, 384] (k0_off25_inb c)).toLoadRect)) Finset.univ)))) := by
  simp only [k0_part14_eq_skeleton]; unfold k0_part14_skel
  simp only [Prog.lift, Prog.bind_op, Prog.bind_ret, Prog.pure_eq_ret]
  iintro ⟨#HIs, #HIr, #Hrs, #Hrr, Hts, Htr, Hdst, HO, Hstg, Hacc, Hland⟩
  unfold heldW
  unfold ptsAny
  icases Hdst with ⟨%fd, Hdst⟩
  have hinc1 : ((Memref.whole cc0_scratch4 : Memref sig .tc .vmem S1792x384 .bf16).access (Rect.unit (s := S1792x384) (k0_off14 c) ![512, 384] (k0_off14_inb c))).set
      ⊆ (commM3_0 : Memref sig .tc .vmem S1024x384 .bf16).view.set := by
    rw [View.set_slice_whole, View.set_slice_whole]
    refine unit_subset ?_
    piece_arith c [off14_eq]
  have hinc2 : ((Memref.whole cc0_scratch4 : Memref sig .tc .vmem S1792x384 .bf16).access (Rect.unit (s := S1792x384) (k0_off16 c) ![512, 384] (k0_off16_inb c))).set
      ⊆ (commM3_0 : Memref sig .tc .vmem S1024x384 .bf16).view.set := by
    rw [View.set_slice_whole, View.set_slice_whole]
    refine unit_subset ?_
    piece_arith c [off16_eq]
  have hinc3 : ((Memref.whole cc0_scratch10 : Memref sig .tc .vmem S1024x384 .bf16).access (Rect.unit (s := S1024x384) ![0, 0] ![512, 384] inb_S1024x384_S512x384_0_0)).set
      ⊆ (stgM3_0 : Memref sig .tc .vmem S1024x384 .bf16).view.set := by
    rw [View.set_slice_whole, View.set_slice_whole]
    exact unit_subset (by decide)
  have hinc4 : ((Memref.whole cc0_scratch10 : Memref sig .tc .vmem S1024x384 .bf16).access (Rect.unit (s := S1024x384) ![0, 0] ![512, 384] inb_S1024x384_S512x384_0_0)).setOn Finset.univ
      ⊆ (stgM3_0 : Memref sig .tc .vmem S1024x384 .bf16).view.set := by
    rw [View.setOn_univ]
    rw [View.set_slice_whole, View.set_slice_whole]
    exact unit_subset (by decide)
  sl_exec
  -- the staging buffer is cut into the 512 rows sent now and the rest
  ihave Hs := (Entails.of_eq (pts_set_eq (F := F) (ℓ := (stgM3_0 : Memref sig .tc .vmem S1024x384 .bf16).view.loc (c : Thread nD τ))
      (S' := (stgM3_1 : Memref sig .tc .vmem S512x384 .bf16).view.set ∪ ((stgM3_0 : Memref sig .tc .vmem S1024x384 .bf16).view.set \ (stgM3_1 : Memref sig .tc .vmem S512x384 .bf16).view.set)) (Finset.union_sdiff_of_subset stg_sub1_3).symm)) $$ Hstg
  ihave Hs2 := (pts_union (F := F) Finset.disjoint_sdiff).1 $$ Hs
  icases Hs2 with ⟨Hsrc, Hrem⟩
  iapply (wp_send_to V c ⟨k0_dev13 c, k0_dev13_lt c⟩ 1 (dev13_eq c) (.rsS 3 1) (.rsR 3 1) (by decide) (by decide) 12 (by decide) (paid_rs c 3 1) rfl
      (src := stgM3_1) (dst := commM3_1) (rsS_sem_eq 3 1 _) (rsR_sem_eq 3 1 _) rfl fd κs κr W
      (ptsAny_intro c stgM3_1 _)
      (ptsIs_intro (nbr 1 c) commM3_1 _ _ (by rw [View.read_write_univ, nbr_nbr]; exact hV))) $$ [Hsrc Hdst HO Hts Htr]
  · isplitr; · iexact HIs
    isplitr; · iexact HIr
    isplitl [Hsrc]; · iexact Hsrc
    isplitl [Hdst]; · iexact Hdst
    isplitl [HO]; · iexact HO
    isplitl [Hts]; · iexact Hts
    isplitr; · iexact Hrs
    isplitl [Htr]; · iexact Htr
    iexact Hrr
  iintro ⟨Hcs, HO⟩
  sl_exec
  sl_step
  isplitr; · ipureintro; rfl
  isplitl [Hcs]; · iexact Hcs
  isplitl [HO]; · iexact HO
  isplitl [Hacc]; · iexact Hacc
  isplitl [Hland]; · iexact Hland
  iexact Hrem

end Cert.KernelIdeal.Proto

end
-- ==== Proof.Body15.lean ====
/-
Stretch 15 of a device's kernel body: the store of the sum of the kept 512 rows of group 3's first landing into the
accumulator, the two waits of group 4's first exchange, and the loads for the sum of the sent-on 512 rows of its landing.
-/
import proofs.«900882_g7700000000000883_dist_matmul_gelu_kshard_i_m2048_n2048_k1024_v7x_i8_f32_1_alg».proof.Proof.Rules
import proofs.«900882_g7700000000000883_dist_matmul_gelu_kshard_i_m2048_n2048_k1024_v7x_i8_f32_1_alg».proof.Proof.TopoTab
import proofs.«900882_g7700000000000883_dist_matmul_gelu_kshard_i_m2048_n2048_k1024_v7x_i8_f32_1_alg».proof.Proof.PiecesTab
import proofs.«900882_g7700000000000883_dist_matmul_gelu_kshard_i_m2048_n2048_k1024_v7x_i8_f32_1_alg».proof.Proof.Gen.KernelIdeal.Skeleton
import proofs.«900882_g7700000000000883_dist_matmul_gelu_kshard_i_m2048_n2048_k1024_v7x_i8_f32_1_alg».proof.Proof.TopoClosed
import Idealize.ShloMosaic.Lib.Pipeline.Value

set_option maxRecDepth 16384

noncomputable section

namespace Cert.KernelIdeal.Proto

open Cert.KernelIdeal Cert.KernelIdeal.Gen Cert.KernelIdeal.Topo
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : Vals F)

set_option maxHeartbeats 2000000 in
theorem part15_run (c : Dev nD) (κw κv : ℕ) (W : Waits sig Unit) (v9 v130 v139 v412 : BitVec 32) (v441 : Vec F S512x384 .f32) (v446 : FVec F S512x384 .f32)
    (f3 : Buf (Elt F) ((Memref.whole cc0_scratch0 : Memref sig .tc .vmem S2048x2048 .f32).view.loc (c : Thread nD τ))) :
    iprop(owes (c : Thread nD τ) (Owe c 13) W ∗ levAts L lv
        ∗ heldW c (Memref.whole cc0_scratch0 : Memref sig .tc .vmem S2048x2048 .f32) f3
        ∗ cellInv ER (sched V) κw (cell c (.rsS 4 0)) ∗ cred (tallyAt (cell c (.rsS 4 0)) () (amt (.rsS 4 0))) ∗ atPos ER (cell c (.rsS 4 0)) 0 ∅ 0
        ∗ cellInv ER (sched V) κv (cell c (.rsR 4 0)) ∗ cred (tallyAt (cell c (.rsR 4 0)) () (amt (.rsR 4 0))) ∗ atPos ER (cell c (.rsR 4 0)) 0 ∅ 0)
      ⊢ wp frame (wpE (defs₀ (F := F)) 𝒱₀ c none) Set.univ
          (k0_part15 (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23 c v9 v130 v139 v412 v441 v446)
          (fun r => iprop(∃ fl : Buf (Elt F) ((commM4_0 : Memref sig .tc .vmem S1024x256 .bf16).view.loc (c : Thread nD τ)), ⌜r = ⟨Scalar.addi v139 (Scalar.muli (Scalar.subi (1#32) v9) 512#32), ⟨Scalar.addi v139 (Scalar.muli v9 512#32), ⟨k0_pay31 (View.readAt (Elt F) (Memref.whole cc0_scratch0 : Memref sig .tc .vmem S2048x2048 .f32).view (Rect.unit (s := S2048x2048) (k0_off27 c) ![512, 256] (k0_off27_inb c)).toLoadRect f3) (View.readAt (Elt F) (Memref.whole cc0_scratch5 : Memref sig .tc .vmem S1792x256 .bf16).view (Rect.unit (s := S1792x256) (k0_off28 c) ![512, 256] (k0_off28_inb c)).toLoadRect fl), View.readAt (Elt F) (Memref.whole cc0_scratch0 : Memref sig .tc .vmem S2048x2048 .f32).view (Rect.unit (s := S2048x2048) (k0_off27 c) ![512, 256] (k0_off27_inb c)).toLoadRect f3⟩⟩⟩⌝
            ∗ ⌜V.rs4_0 (nbr 1 c) ((commM4_0 : Memref sig .tc .vmem S1024x256 .bf16).view.read (Elt F) fl)⌝
            ∗ heldW c (commM4_0 : Memref sig .tc .vmem S1024x256 .bf16) fl
            ∗ owes (c : Thread nD τ) (Owe c 13) (insert ((CK.rsR 4 0).sem, ()) (insert ((CK.rsS 4 0).sem, ()) W))
            ∗ atPos ER (cell c (.rsS 4 0)) 1 ∅ 0 ∗ atPos ER (cell c (.rsR 4 0)) 1 ∅ 0
            ∗ ptsAny (F := F) c stgM4_0
            ∗ heldW c (Memref.whole cc0_scratch0 : Memref sig .tc .vmem S2048x2048 .f32) ((Memref.whole cc0_scratch0 : Memref sig .tc .vmem S2048x2048 .f32).view.writes (Elt F) f3 [⟨Rect.unit (s := S2048x2048) (k0_off26 c) ![512, 384] (k0_off26_inb c), k0_pay30 v441 v446⟩]))) := by
  simp only [k0_part15_eq_skeleton]; unfold k0_part15_skel
  simp only [Prog.lift, Prog.bind_op, Prog.bind_ret, Prog.pure_eq_ret]
  iintro ⟨HO, #Hlev, Hacc, #HIw, Hcw, Hatw, #HIv, Hcv, Hatv⟩
  unfold heldW
  sl_exec
  iapply (wp_wait_xfer V c (.rsS 4 0) (by decide) 13 (rsS_sem_eq 4 0 _)
      (show (stgM4_0 : Memref sig .tc .vmem S1024x256 .bf16).view.dmaCredit = amt (.rsS 4 0) from rfl)
      (wpE_waitDma2_eq 𝒱₀ (c : Thread nD τ) none Set.univ)
      (mayWait_own c (.rsS 4 0) (lv_cell c _) 13) κw W) $$ [Hcw HO Hatw]
  · isplitr; · iexact HIw
    isplitl [Hcw]; · iexact Hcw
    isplitl [HO]; · iexact HO
    isplitr; · iexact Hlev
    iexact Hatw
  iintro ⟨HO, Hatw, Hpay1⟩
  iapply (wp_wait_xfer V c (.rsR 4 0) (by decide) 13 (rsR_sem_eq 4 0 _)
      (show (commM4_0 : Memref sig .tc .vmem S1024x256 .bf16).view.dmaCredit = amt (.rsR 4 0) from rfl)
      (wpE_waitDma2_eq 𝒱₀ (c : Thread nD τ) none Set.univ)
      (mayWait_rsR c 4 0 13 (by decide)) κv (insert ((CK.rsS 4 0).sem, ()) W)) $$ [Hcv HO Hatv]
  · isplitr; · iexact HIv
    isplitl [Hcv]; · iexact Hcv
    isplitl [HO]; · iexact HO
    isplitr; · iexact Hlev
    iexact Hatv
  iintro ⟨HO, Hatv, Hpay2⟩
  ihave Hp1 := (Entails.of_eq (show pay V c (CK.rsS 4 0) 0 = ptsAny (F := F) c stgM4_0 from rfl)) $$ Hpay1
  ihave Hp2 := (Entails.of_eq (show pay V c (CK.rsR 4 0) 0 = ptsIs c commM4_0 (V.rs4_0 (nbr 1 c)) from rfl)) $$ Hpay2
  unfold ptsIs
  icases Hp2 with ⟨%fl, Hland, %hX⟩
  have hinc1 : ((Memref.whole cc0_scratch5 : Memref sig .tc .vmem S1792x256 .bf16).access (Rect.unit (s := S1792x256) (k0_off28 c) ![512, 256] (k0_off28_inb c))).set
      ⊆ (commM4_0 : Memref sig .tc .vmem S1024x256 .bf16).view.set := by
    rw [View.set_slice_whole, View.set_slice_whole]
    refine unit_subset ?_
    piece_arith c [off28_eq]
  sl_exec
  sl_step
  iexists fl
  isplitr; · ipureintro; rfl
  isplitr; · ipureintro; exact hX
  isplitl [Hland]; · iexact Hland
  isplitl [HO]; · iexact HO
  isplitl [Hatw]; · iexact Hatw
  isplitl [Hatv]; · iexact Hatv
  isplitl [Hp1]; · iexact Hp1
  iexact Hacc

end Cert.KernelIdeal.Proto

end
-- ==== Proof.Body16.lean ====
/-
Stretch 16 of a device's kernel body: the store of the sum of the sent-on 512 rows of group 4's first landing into the
accumulator, their rounding into the first 512 rows of group 4's staging buffer, group 4's second reduce-scatter send (those
rows to the neighbour across axis 2), and the sum of the kept 512 rows into the accumulator.
-/
import proofs.«900882_g7700000000000883_dist_matmul_gelu_kshard_i_m2048_n2048_k1024_v7x_i8_f32_1_alg».proof.Proof.Rules
import proofs.«900882_g7700000000000883_dist_matmul_gelu_kshard_i_m2048_n2048_k1024_v7x_i8_f32_1_alg».proof.Proof.TopoTab
import proofs.«900882_g7700000000000883_dist_matmul_gelu_kshard_i_m2048_n2048_k1024_v7x_i8_f32_1_alg».proof.Proof.PiecesTab
import proofs.«900882_g7700000000000883_dist_matmul_gelu_kshard_i_m2048_n2048_k1024_v7x_i8_f32_1_alg».proof.Proof.Gen.KernelIdeal.Skeleton
import proofs.«900882_g7700000000000883_dist_matmul_gelu_kshard_i_m2048_n2048_k1024_v7x_i8_f32_1_alg».proof.Proof.TopoClosed
import Idealize.ShloMosaic.Lib.Pipeline.Value

set_option maxRecDepth 16384

noncomputable section

namespace Cert.KernelIdeal.Proto

open Cert.KernelIdeal Cert.KernelIdeal.Gen Cert.KernelIdeal.Topo
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : Vals F)

set_option maxHeartbeats 2000000 in
theorem part16_run (c : Dev nD) (κs κr : ℕ) (W : Waits sig Unit) (v2 v139 v464 v466 : BitVec 32) (v474 : FVec F S512x256 .f32) (v476 : Vec F S512x256 .f32)
    (f3 : Buf (Elt F) ((Memref.whole cc0_scratch0 : Memref sig .tc .vmem S2048x2048 .f32).view.loc (c : Thread nD τ)))
    (f14 : Buf (Elt F) ((stgM4_0 : Memref sig .tc .vmem S1024x256 .bf16).view.loc (c : Thread nD τ)))
    (fl : Buf (Elt F) ((commM4_0 : Memref sig .tc .vmem S1024x256 .bf16).view.loc (c : Thread nD τ)))
    (hV : V.rs4_1 c ((stgM4_1 : Memref sig .tc .vmem S512x256 .bf16).view.read (Elt F) (View.write (Elt F) ((Memref.whole cc0_scratch11 : Memref sig .tc .vmem S1024x256 .bf16).access (Rect.unit (s := S1024x256) ![0, 0] ![512, 256] inb_S1024x256_S512x256_0_0)) f14 (k0_pay33 ((Memref.whole cc0_scratch0 : Memref sig .tc .vmem S2048x2048 .f32).view.readCov [⟨Rect.unit (s := S2048x2048) (k0_off27 c) ![512, 256] (k0_off27_inb c), k0_pay32 v474⟩] (Rect.unit (s := S2048x2048) (k0_off27 c) ![512, 256] (k0_off27_inb c)).toLoadRect)) Finset.univ))) :
    iprop(cellInv ER (sched V) κs (cell c (.rsS 4 1)) ∗ cellInv ER (sched V) κr (cell (nbr 2 c) (.rsR 4 1))
        ∗ reached ER (cell c (.rsS 4 1)) 0 ∗ reached ER (cell (nbr 2 c) (.rsR 4 1)) 0
        ∗ dutyTok ER (cell c (.rsS 4 1)) 0 (0 : Fin 3) ∗ dutyTok ER (cell (nbr 2 c) (.rsR 4 1)) 0 (0 : Fin 3)
        ∗ ptsAny (F := F) (nbr 2 c) commM4_1
        ∗ owes (c : Thread nD τ) (Owe c 13) W
        ∗ heldW c (stgM4_0 : Memref sig .tc .vmem S1024x256 .bf16) f14
        ∗ heldW c (Memref.whole cc0_scratch0 : Memref sig .tc .vmem S2048x2048 .f32) f3
        ∗ heldW c (commM4_0 : Memref sig .tc .vmem S1024x256 .bf16) fl)
      ⊢ wp frame (wpE (defs₀ (F := F)) 𝒱₀ c none) Set.univ
          (k0_part16 (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23 c v2 v139 v464 v466 v474 v476)
          (fun r => iprop(⌜r = (Scalar.xori v2 4#32)⌝ ∗ cred (tallyAt (cell c (.rsS 4 1)) () (amt (.rsR 4 1)))
            ∗ owes (c : Thread nD τ) (Owe c 14) W
            ∗ heldW c (Memref.whole cc0_scratch0 : Memref sig .tc .vmem S2048x2048 .f32) ((Memref.whole cc0_scratch0 : Memref sig .tc .vmem S2048x2048 .f32).view.writes (Elt F) f3 [⟨Rect.unit (s := S2048x2048) (k0_off29 c) ![512, 256] (k0_off29_inb c), k0_pay34 (View.readAt (Elt F) (Memref.whole cc0_scratch0 : Memref sig .tc .vmem S2048x2048 .f32).view (Rect.unit (s := S2048x2048) (k0_off29 c) ![512, 256] (k0_off29_inb c)).toLoadRect ((Memref.whole cc0_scratch0 : Memref sig .tc .vmem S2048x2048 .f32).view.writes (Elt F) f3 [⟨Rect.unit (s := S2048x2048) (k0_off27 c) ![512, 256] (k0_off27_inb c), k0_pay32 v474⟩])) (View.readAt (Elt F) (Memref.whole cc0_scratch5 : Memref sig .tc .vmem S1792x256 .bf16).view (Rect.unit (s := S1792x256) (k0_off30 c) ![512, 256] (k0_off30_inb c)).toLoadRect fl)⟩, ⟨Rect.unit (s := S2048x2048) (k0_off27 c) ![512, 256] (k0_off27_inb c), k0_pay32 v474⟩])
            ∗ heldW c (commM4_0 : Memref sig .tc .vmem S1024x256 .bf16) fl
            ∗ ((stgM4_0 : Memref sig .tc .vmem S1024x256 .bf16).view.loc (c : Thread nD τ) ↦[(stgM4_0 : Memref sig .tc .vmem S1024x256 .bf16).view.set \ (stgM4_1 : Memref sig .tc .vmem S512x256 .bf16).view.set]{fullShare} (View.write (Elt F) ((Memref.whole cc0_scratch11 : Memref sig .tc .vmem S1024x256 .bf16).access (Rect.unit (s := S1024x256) ![0, 0] ![512, 256] inb_S1024x256_S512x256_0_0)) f14 (k0_pay33 ((Memref.whole cc0_scratch0 : Memref sig .tc .vmem S2048x2048 .f32).view.readCov [⟨Rect.unit (s := S2048x2048) (k0_off27 c) ![512, 256] (k0_off27_inb c), k0_pay32 v474⟩] (Rect.unit (s := S2048x2048) (k0_off27 c) ![512, 256] (k0_off27_inb c)).toLoadRect)) Finset.univ)))) := by
  simp only [k0_part16_eq_skeleton]; unfold k0_part16_skel
  simp only [Prog.lift, Prog.bind_op, Prog.bind_ret, Prog.pure_eq_ret]
  iintro ⟨#HIs, #HIr, #Hrs, #Hrr, Hts, Htr, Hdst, HO, Hstg, Hacc, Hland⟩
  unfold heldW
  unfold ptsAny
  icases Hdst with ⟨%fd, Hdst⟩
  have hinc2 : ((Memref.whole cc0_scratch5 : Memref sig .tc .vmem S1792x256 .bf16).access (Rect.unit (s := S1792x256) (k0_off30 c) ![512, 256] (k0_off30_inb c))).set
      ⊆ (commM4_0 : Memref sig .tc .vmem S1024x256 .bf16).view.set := by
    rw [View.set_slice_whole, View.set_slice_whole]
    refine unit_subset ?_
    piece_arith c [off30_eq]
  have hinc3 : ((Memref.whole cc0_scratch11 : Memref sig .tc .vmem S1024x256 .bf16).access (Rect.unit (s := S1024x256) ![0, 0] ![512, 256] inb_S1024x256_S512x256_0_0)).set
      ⊆ (stgM4_0 : Memref sig .tc .vmem S1024x256 .bf16).view.set := by
    rw [View.set_slice_whole, View.set_slice_whole]
    exact unit_subset (by decide)
  have hinc4 : ((Memref.whole cc0_scratch11 : Memref sig .tc .vmem S1024x256 .bf16).access (Rect.unit (s := S1024x256) ![0, 0] ![512, 256] inb_S1024x256_S512x256_0_0)).setOn Finset.univ
      ⊆ (stgM4_0 : Memref sig .tc .vmem S1024x256 .bf16).view.set := by
    rw [View.setOn_univ]
    rw [View.set_slice_whole, View.set_slice_whole]
    exact unit_subset (by decide)
  sl_exec
  -- the staging buffer is cut into the 512 rows sent now and the rest
  ihave Hs := (Entails.of_eq (pts_set_eq (F := F) (ℓ := (stgM4_0 : Memref sig .tc .vmem S1024x256 .bf16).view.loc (c : Thread nD τ))
      (S' := (stgM4_1 : Memref sig .tc .vmem S512x256 .bf16).view.set ∪ ((stgM4_0 : Memref sig .tc .vmem S1024x256 .bf16).view.set \ (stgM4_1 : Memref sig .tc .vmem S512x256 .bf16).view.set)) (Finset.union_sdiff_of_subset stg_sub1_4).symm)) $$ Hstg
  ihave Hs2 := (pts_union (F := F) Finset.disjoint_sdiff).1 $$ Hs
  icases Hs2 with ⟨Hsrc, Hrem⟩
  iapply (wp_send_to V c ⟨k0_dev14 c, k0_dev14_lt c⟩ 2 (dev14_eq c) (.rsS 4 1) (.rsR 4 1) (by decide) (by decide) 13 (by decide) (paid_rs c 4 1) rfl
      (src := stgM4_1) (dst := commM4_1) (rsS_sem_eq 4 1 _) (rsR_sem_eq 4 1 _) rfl fd κs κr W
      (ptsAny_intro c stgM4_1 _)
      (ptsIs_intro (nbr 2 c) commM4_1 _ _ (by rw [View.read_write_univ, nbr_nbr]; exact hV))) $$ [Hsrc Hdst HO Hts Htr]
  · isplitr; · iexact HIs
    isplitr; · iexact HIr
    isplitl [Hsrc]; · iexact Hsrc
    isplitl [Hdst]; · iexact Hdst
    isplitl [HO]; · iexact HO
    isplitl [Hts]; · iexact Hts
    isplitr; · iexact Hrs
    isplitl [Htr]; · iexact Htr
    iexact Hrr
  iintro ⟨Hcs, HO⟩
  sl_exec
  sl_step
  isplitr; · ipureintro; rfl
  isplitl [Hcs]; · iexact Hcs
  isplitl [HO]; · iexact HO
  isplitl [Hacc]; · iexact Hacc
  isplitl [Hland]; · iexact Hland
  iexact Hrem

end Cert.KernelIdeal.Proto

end
-- ==== Proof.Body17.lean ====
/-
Stretch 17 of a device's kernel body: the two waits of group 5's first exchange, the sum of the sent-on 512 rows of its
landing into the accumulator, and their rounding into the first 512 rows of group 5's staging buffer, which is then cut
into those 512 rows (lent by the next send) and the rest.
-/
import proofs.«900882_g7700000000000883_dist_matmul_gelu_kshard_i_m2048_n2048_k1024_v7x_i8_f32_1_alg».proof.Proof.Rules
import proofs.«900882_g7700000000000883_dist_matmul_gelu_kshard_i_m2048_n2048_k1024_v7x_i8_f32_1_alg».proof.Proof.TopoTab
import proofs.«900882_g7700000000000883_dist_matmul_gelu_kshard_i_m2048_n2048_k1024_v7x_i8_f32_1_alg».proof.Proof.PiecesTab
import proofs.«900882_g7700000000000883_dist_matmul_gelu_kshard_i_m2048_n2048_k1024_v7x_i8_f32_1_alg».proof.Proof.Gen.KernelIdeal.Skeleton
import proofs.«900882_g7700000000000883_dist_matmul_gelu_kshard_i_m2048_n2048_k1024_v7x_i8_f32_1_alg».proof.Proof.TopoClosed
import Idealize.ShloMosaic.Lib.Pipeline.Value

set_option maxRecDepth 16384

noncomputable section

namespace Cert.KernelIdeal.Proto

open Cert.KernelIdeal Cert.KernelIdeal.Gen Cert.KernelIdeal.Topo
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : Vals F)

set_option maxHeartbeats 2000000 in
theorem part17_run (c : Dev nD) (κw κv : ℕ) (W : Waits sig Unit) (v2 v6 v154 v163 : BitVec 32)
    (f3 : Buf (Elt F) ((Memref.whole cc0_scratch0 : Memref sig .tc .vmem S2048x2048 .f32).view.loc (c : Thread nD τ))) :
    iprop(owes (c : Thread nD τ) (Owe c 14) W ∗ levAts L lv
        ∗ heldW c (Memref.whole cc0_scratch0 : Memref sig .tc .vmem S2048x2048 .f32) f3
        ∗ cellInv ER (sched V) κw (cell c (.rsS 5 0)) ∗ cred (tallyAt (cell c (.rsS 5 0)) () (amt (.rsS 5 0))) ∗ atPos ER (cell c (.rsS 5 0)) 0 ∅ 0
        ∗ cellInv ER (sched V) κv (cell c (.rsR 5 0)) ∗ cred (tallyAt (cell c (.rsR 5 0)) () (amt (.rsR 5 0))) ∗ atPos ER (cell c (.rsR 5 0)) 0 ∅ 0)
      ⊢ wp frame (wpE (defs₀ (F := F)) 𝒱₀ c none) Set.univ
          (k0_part17 (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23 c v2 v6 v154 v163)
          (fun r => iprop(⌜r = ⟨Scalar.addi v163 (Scalar.muli v6 512#32), Scalar.xori v2 1#32⟩⌝
            ∗ (∃ (fl : Buf (Elt F) ((commM5_0 : Memref sig .tc .vmem S1024x256 .bf16).view.loc (c : Thread nD τ))) (fs : Buf (Elt F) ((stgM5_0 : Memref sig .tc .vmem S1024x256 .bf16).view.loc (c : Thread nD τ))), ⌜V.rs5_0 (nbr 2 c) ((commM5_0 : Memref sig .tc .vmem S1024x256 .bf16).view.read (Elt F) fl)⌝
              ∗ heldW c (commM5_0 : Memref sig .tc .vmem S1024x256 .bf16) fl
              ∗ owes (c : Thread nD τ) (Owe c 14) (insert ((CK.rsR 5 0).sem, ()) (insert ((CK.rsS 5 0).sem, ()) W))
              ∗ atPos ER (cell c (.rsS 5 0)) 1 ∅ 0 ∗ atPos ER (cell c (.rsR 5 0)) 1 ∅ 0
              ∗ heldW c (Memref.whole cc0_scratch0 : Memref sig .tc .vmem S2048x2048 .f32) ((Memref.whole cc0_scratch0 : Memref sig .tc .vmem S2048x2048 .f32).view.writes (Elt F) f3 [⟨Rect.unit (s := S2048x2048) (k0_off31 c) ![512, 256] (k0_off31_inb c), k0_pay35 (View.readAt (Elt F) (Memref.whole cc0_scratch0 : Memref sig .tc .vmem S2048x2048 .f32).view (Rect.unit (s := S2048x2048) (k0_off31 c) ![512, 256] (k0_off31_inb c)).toLoadRect f3) (View.readAt (Elt F) (Memref.whole cc0_scratch6 : Memref sig .tc .vmem S1792x256 .bf16).view (Rect.unit (s := S1792x256) (k0_off32 c) ![512, 256] (k0_off32_inb c)).toLoadRect fl)⟩])
              ∗ heldW c (stgM5_1 : Memref sig .tc .vmem S512x256 .bf16) (View.write (Elt F) ((Memref.whole cc0_scratch12 : Memref sig .tc .vmem S1024x256 .bf16).access (Rect.unit (s := S1024x256) ![0, 0] ![512, 256] inb_S1024x256_S512x256_0_0)) fs (k0_pay36 ((Memref.whole cc0_scratch0 : Memref sig .tc .vmem S2048x2048 .f32).view.readCov [⟨Rect.unit (s := S2048x2048) (k0_off31 c) ![512, 256] (k0_off31_inb c), k0_pay35 (View.readAt (Elt F) (Memref.whole cc0_scratch0 : Memref sig .tc .vmem S2048x2048 .f32).view (Rect.unit (s := S2048x2048) (k0_off31 c) ![512, 256] (k0_off31_inb c)).toLoadRect f3) (View.readAt (Elt F) (Memref.whole cc0_scratch6 : Memref sig .tc .vmem S1792x256 .bf16).view (Rect.unit (s := S1792x256) (k0_off32 c) ![512, 256] (k0_off32_inb c)).toLoadRect fl)⟩] (Rect.unit (s := S2048x2048) (k0_off31 c) ![512, 256] (k0_off31_inb c)).toLoadRect)) Finset.univ)
              ∗ ((stgM5_0 : Memref sig .tc .vmem S1024x256 .bf16).view.loc (c : Thread nD τ) ↦[(stgM5_0 : Memref sig .tc .vmem S1024x256 .bf16).view.set \ (stgM5_1 : Memref sig .tc .vmem S512x256 .bf16).view.set]{fullShare} (View.write (Elt F) ((Memref.whole cc0_scratch12 : Memref sig .tc .vmem S1024x256 .bf16).access (Rect.unit (s := S1024x256) ![0, 0] ![512, 256] inb_S1024x256_S512x256_0_0)) fs (k0_pay36 ((Memref.whole cc0_scratch0 : Memref sig .tc .vmem S2048x2048 .f32).view.readCov [⟨Rect.unit (s := S2048x2048) (k0_off31 c) ![512, 256] (k0_off31_inb c), k0_pay35 (View.readAt (Elt F) (Memref.whole cc0_scratch0 : Memref sig .tc .vmem S2048x2048 .f32).view (Rect.unit (s := S2048x2048) (k0_off31 c) ![512, 256] (k0_off31_inb c)).toLoadRect f3) (View.readAt (Elt F) (Memref.whole cc0_scratch6 : Memref sig .tc .vmem S1792x256 .bf16).view (Rect.unit (s := S1792x256) (k0_off32 c) ![512, 256] (k0_off32_inb c)).toLoadRect fl)⟩] (Rect.unit (s := S2048x2048) (k0_off31 c) ![512, 256] (k0_off31_inb c)).toLoadRect)) Finset.univ))))) := by
  simp only [k0_part17_eq_skeleton]; unfold k0_part17_skel
  simp only [Prog.lift, Prog.bind_op, Prog.bind_ret, Prog.pure_eq_ret]
  iintro ⟨HO, #Hlev, Hacc, #HIw, Hcw, Hatw, #HIv, Hcv, Hatv⟩
  unfold heldW
  iapply (wp_wait_xfer V c (.rsS 5 0) (by decide) 14 (rsS_sem_eq 5 0 _)
      (show (stgM5_0 : Memref sig .tc .vmem S1024x256 .bf16).view.dmaCredit = amt (.rsS 5 0) from rfl)
      (wpE_waitDma2_eq 𝒱₀ (c : Thread nD τ) none Set.univ)
      (mayWait_own c (.rsS 5 0) (lv_cell c _) 14) κw W) $$ [Hcw HO Hatw]
  · isplitr; · iexact HIw
    isplitl [Hcw]; · iexact Hcw
    isplitl [HO]; · iexact HO
    isplitr; · iexact Hlev
    iexact Hatw
  iintro ⟨HO, Hatw, Hpay1⟩
  iapply (wp_wait_xfer V c (.rsR 5 0) (by decide) 14 (rsR_sem_eq 5 0 _)
      (show (commM5_0 : Memref sig .tc .vmem S1024x256 .bf16).view.dmaCredit = amt (.rsR 5 0) from rfl)
      (wpE_waitDma2_eq 𝒱₀ (c : Thread nD τ) none Set.univ)
      (mayWait_rsR c 5 0 14 (by decide)) κv (insert ((CK.rsS 5 0).sem, ()) W)) $$ [Hcv HO Hatv]
  · isplitr; · iexact HIv
    isplitl [Hcv]; · iexact Hcv
    isplitl [HO]; · iexact HO
    isplitr; · iexact Hlev
    iexact Hatv
  iintro ⟨HO, Hatv, Hpay2⟩
  ihave Hp1 := (Entails.of_eq (show pay V c (CK.rsS 5 0) 0 = ptsAny (F := F) c stgM5_0 from rfl)) $$ Hpay1
  ihave Hp2 := (Entails.of_eq (show pay V c (CK.rsR 5 0) 0 = ptsIs c commM5_0 (V.rs5_0 (nbr 2 c)) from rfl)) $$ Hpay2
  unfold ptsAny
  icases Hp1 with ⟨%fs, Hstg⟩
  unfold ptsIs
  icases Hp2 with ⟨%fl, Hland, %hX⟩
  have hinc1 : ((Memref.whole cc0_scratch6 : Memref sig .tc .vmem S1792x256 .bf16).access (Rect.unit (s := S1792x256) (k0_off32 c) ![512, 256] (k0_off32_inb c))).set
      ⊆ (commM5_0 : Memref sig .tc .vmem S1024x256 .bf16).view.set := by
    rw [View.set_slice_whole, View.set_slice_whole]
    refine unit_subset ?_
    piece_arith c [off32_eq]
  have hinc3 : ((Memref.whole cc0_scratch12 : Memref sig .tc .vmem S1024x256 .bf16).access (Rect.unit (s := S1024x256) ![0, 0] ![512, 256] inb_S1024x256_S512x256_0_0)).set
      ⊆ (stgM5_0 : Memref sig .tc .vmem S1024x256 .bf16).view.set := by
    rw [View.set_slice_whole, View.set_slice_whole]
    exact unit_subset (by decide)
  have hinc4 : ((Memref.whole cc0_scratch12 : Memref sig .tc .vmem S1024x256 .bf16).access (Rect.unit (s := S1024x256) ![0, 0] ![512, 256] inb_S1024x256_S512x256_0_0)).setOn Finset.univ
      ⊆ (stgM5_0 : Memref sig .tc .vmem S1024x256 .bf16).view.set := by
    rw [View.setOn_univ]
    rw [View.set_slice_whole, View.set_slice_whole]
    exact unit_subset (by decide)
  sl_exec
  -- the staging buffer is cut into the 512 rows the next send lends and the rest
  ihave Hs := (Entails.of_eq (pts_set_eq (F := F) (ℓ := (stgM5_0 : Memref sig .tc .vmem S1024x256 .bf16).view.loc (c : Thread nD τ))
      (S' := (stgM5_1 : Memref sig .tc .vmem S512x256 .bf16).view.set ∪ ((stgM5_0 : Memref sig .tc .vmem S1024x256 .bf16).view.set \ (stgM5_1 : Memref sig .tc .vmem S512x256 .bf16).view.set)) (Finset.union_sdiff_of_subset stg_sub1_5).symm)) $$ Hstg
  ihave Hs2 := (pts_union (F := F) Finset.disjoint_sdiff).1 $$ Hs
  icases Hs2 with ⟨Hsrc, Hrem⟩
  sl_step
  isplitr; · ipureintro; rfl
  iexists fl, fs
  isplitr; · ipureintro; exact hX
  isplitl [Hland]; · iexact Hland
  isplitl [HO]; · iexact HO
  isplitl [Hatw]; · iexact Hatw
  isplitl [Hatv]; · iexact Hatv
  isplitl [Hacc]; · iexact Hacc
  isplitl [Hsrc]; · iexact Hsrc
  iexact Hrem

end Cert.KernelIdeal.Proto

end
-- ==== Proof.Body18.lean ====
/-
Stretch 18 of a device's kernel body: group 5's second reduce-scatter send (the first 512 rows of its staging buffer
to the neighbour across axis 0), the sum of the kept 512 rows of group 5's landed block into the accumulator, and the
wait for group 0's second send to leave its staging rows.
-/
import proofs.«900882_g7700000000000883_dist_matmul_gelu_kshard_i_m2048_n2048_k1024_v7x_i8_f32_1_alg».proof.Proof.Rules
import proofs.«900882_g7700000000000883_dist_matmul_gelu_kshard_i_m2048_n2048_k1024_v7x_i8_f32_1_alg».proof.Proof.TopoTab
import proofs.«900882_g7700000000000883_dist_matmul_gelu_kshard_i_m2048_n2048_k1024_v7x_i8_f32_1_alg».proof.Proof.PiecesTab
import proofs.«900882_g7700000000000883_dist_matmul_gelu_kshard_i_m2048_n2048_k1024_v7x_i8_f32_1_alg».proof.Proof.Gen.KernelIdeal.Skeleton
import Idealize.ShloMosaic.Lib.Pipeline.Value

set_option maxRecDepth 16384

noncomputable section

namespace Cert.KernelIdeal.Proto

open Cert.KernelIdeal Cert.KernelIdeal.Gen Cert.KernelIdeal.Topo
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : Vals F)

set_option maxHeartbeats 2000000 in
theorem part18_run (c : Dev nD) (κs κr κw : ℕ) (W : Waits sig Unit) (v163 v269 v520 v539 : BitVec 32)
    (f3 : Buf (Elt F) ((Memref.whole cc0_scratch0 : Memref sig .tc .vmem S2048x2048 .f32).view.loc (c : Thread nD τ)))
    (f9 : Buf (Elt F) ((commM5_0 : Memref sig .tc .vmem S1024x256 .bf16).view.loc (c : Thread nD τ)))
    (f15 : Buf (Elt F) ((stgM5_1 : Memref sig .tc .vmem S512x256 .bf16).view.loc (c : Thread nD τ)))
    (hV : V.rs5_1 c ((stgM5_1 : Memref sig .tc .vmem S512x256 .bf16).view.read (Elt F) f15)) :
    iprop(cellInv ER (sched V) κs (cell c (.rsS 5 1)) ∗ cellInv ER (sched V) κr (cell (nbr 0 c) (.rsR 5 1))
        ∗ reached ER (cell c (.rsS 5 1)) 0 ∗ reached ER (cell (nbr 0 c) (.rsR 5 1)) 0
        ∗ dutyTok ER (cell c (.rsS 5 1)) 0 (0 : Fin 3) ∗ dutyTok ER (cell (nbr 0 c) (.rsR 5 1)) 0 (0 : Fin 3)
        ∗ ptsAny (F := F) (nbr 0 c) commM5_1
        ∗ owes (c : Thread nD τ) (Owe c 14) W
        ∗ heldW c (stgM5_1 : Memref sig .tc .vmem S512x256 .bf16) f15
        ∗ heldW c (Memref.whole cc0_scratch0 : Memref sig .tc .vmem S2048x2048 .f32) f3
        ∗ heldW c (commM5_0 : Memref sig .tc .vmem S1024x256 .bf16) f9
        ∗ cellInv ER (sched V) κw (cell c (.rsS 0 1)) ∗ cred (tallyAt (cell c (.rsS 0 1)) () (amt (.rsS 0 1))) ∗ levAts L lv ∗ atPos ER (cell c (.rsS 0 1)) 0 ∅ 0)
      ⊢ wp frame (wpE (defs₀ (F := F)) 𝒱₀ c none) Set.univ
          (k0_part18 (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23 c v163 v269 v520 v539)
          (fun r => iprop(⌜r = ⟨⟩⌝ ∗ cred (tallyAt (cell c (.rsS 5 1)) () (amt (.rsR 5 1))) ∗ owes (c : Thread nD τ) (Owe c 15) (insert ((CK.rsS 0 1).sem, ()) W)
            ∗ heldW c (Memref.whole cc0_scratch0 : Memref sig .tc .vmem S2048x2048 .f32) ((Memref.whole cc0_scratch0 : Memref sig .tc .vmem S2048x2048 .f32).view.writes (Elt F) f3
                [⟨Rect.unit (s := S2048x2048) (k0_off33 c) S512x256.size (k0_off33_inb c),
                  k0_pay37 (View.readAt (Elt F) (Memref.whole cc0_scratch0 : Memref sig .tc .vmem S2048x2048 .f32).view (Rect.unit (s := S2048x2048) (k0_off33 c) S512x256.size (k0_off33_inb c)).toLoadRect f3)
                    (View.readAt (Elt F) (Memref.whole cc0_scratch6 : Memref sig .tc .vmem S1792x256 .bf16).view (Rect.unit (s := S1792x256) (k0_off34 c) S512x256.size (k0_off34_inb c)).toLoadRect f9)⟩])
            ∗ heldW c (commM5_0 : Memref sig .tc .vmem S1024x256 .bf16) f9
            ∗ atPos ER (cell c (.rsS 0 1)) 1 ∅ 0 ∗ ptsAny (F := F) c stgM0_1)) := by
  simp only [k0_part18_eq_skeleton]; unfold k0_part18_skel
  simp only [Prog.lift, Prog.bind_op, Prog.bind_ret, Prog.pure_eq_ret]
  iintro ⟨#HIs, #HIr, #Hrs, #Hrr, Hts, Htr, Hdst, HO, Hsrc, Hacc, Hland, #HIw, Hcw, #Hlev, Hatw⟩
  unfold heldW
  unfold ptsAny
  icases Hdst with ⟨%fd, Hdst⟩
  iapply (wp_send_to V c ⟨k0_dev15 c, k0_dev15_lt c⟩ 0 (dev15_eq c) (.rsS 5 1) (.rsR 5 1) (by decide) (by decide) 14 (by decide) (paid_rs c 5 1) rfl
      (src := stgM5_1) (dst := commM5_1) (rsS_sem_eq 5 1 _) (rsR_sem_eq 5 1 _) rfl fd κs κr W
      (ptsAny_intro c stgM5_1 _)
      (ptsIs_intro (nbr 0 c) commM5_1 _ _ (by rw [View.read_write_univ, nbr_nbr]; exact hV))) $$ [Hsrc Hdst HO Hts Htr]
  · isplitr; · iexact HIs
    isplitr; · iexact HIr
    isplitl [Hsrc]; · iexact Hsrc
    isplitl [Hdst]; · iexact Hdst
    isplitl [HO]; · iexact HO
    isplitl [Hts]; · iexact Hts
    isplitr; · iexact Hrs
    isplitl [Htr]; · iexact Htr
    iexact Hrr
  iintro ⟨Hcs, HO⟩
  -- the landed rows are read through the whole landing buffer: they lie inside the piece held
  have hinc : ((Memref.whole cc0_scratch6 : Memref sig .tc .vmem S1792x256 .bf16).access (Rect.unit (s := S1792x256) (k0_off34 c) ![512, 256] (k0_off34_inb c))).set
      ⊆ (commM5_0 : Memref sig .tc .vmem S1024x256 .bf16).view.set := by
    rw [View.set_slice_whole, View.set_slice_whole]
    refine unit_subset ?_
    piece_arith c [off34_eq]
  sl_exec
  iapply (wp_wait_xfer V c (.rsS 0 1) (by decide) 15 (rsS_sem_eq 0 1 _)
      (show (stgM0_1 : Memref sig .tc .vmem S512x384 .bf16).view.dmaCredit = amt (.rsS 0 1) from rfl)
      (wpE_waitDma2_eq 𝒱₀ (c : Thread nD τ) none Set.univ)
      (mayWait_own c (.rsS 0 1) (lv_cell c _) 15) κw W) $$ [Hcw HO Hatw]
  · isplitr; · iexact HIw
    isplitl [Hcw]; · iexact Hcw
    isplitl [HO]; · iexact HO
    isplitr; · iexact Hlev
    iexact Hatw
  iintro ⟨HO, Hatw, Hpay⟩
  sl_step
  isplitr; · ipureintro; trivial
  isplitl [Hcs]; · iexact Hcs
  isplitl [HO]; · iexact HO
  isplitl [Hacc]; · iexact Hacc
  isplitl [Hland]; · iexact Hland
  isplitl [Hatw]; · iexact Hatw
  ihave Hp := (Entails.of_eq (show pay V c (CK.rsS 0 1) 0 = ptsAny (F := F) c stgM0_1 from rfl)) $$ Hpay
  unfold ptsAny
  iexact Hp

end Cert.KernelIdeal.Proto

end
-- ==== Proof.Body19.lean ====
/-
Stretch 19 of a device's kernel body: the wait for group 0's second landing (512 rows from the neighbour across axis 1),
the sum of its 256 rows that are sent on into the accumulator, and their rounding into the first 256 rows of group 0's
staging buffer.
-/
import proofs.«900882_g7700000000000883_dist_matmul_gelu_kshard_i_m2048_n2048_k1024_v7x_i8_f32_1_alg».proof.Proof.Rules
import proofs.«900882_g7700000000000883_dist_matmul_gelu_kshard_i_m2048_n2048_k1024_v7x_i8_f32_1_alg».proof.Proof.TopoTab
import proofs.«900882_g7700000000000883_dist_matmul_gelu_kshard_i_m2048_n2048_k1024_v7x_i8_f32_1_alg».proof.Proof.PiecesTab
import proofs.«900882_g7700000000000883_dist_matmul_gelu_kshard_i_m2048_n2048_k1024_v7x_i8_f32_1_alg».proof.Proof.Gen.KernelIdeal.Skeleton
import Idealize.ShloMosaic.Lib.Pipeline.Value

set_option maxRecDepth 16384

noncomputable section

namespace Cert.KernelIdeal.Proto

open Cert.KernelIdeal Cert.KernelIdeal.Gen Cert.KernelIdeal.Topo
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : Vals F)

set_option maxHeartbeats 2000000 in
theorem part19_run (c : Dev nD) (κw : ℕ) (W : Waits sig Unit) (v2 v9 v250 : BitVec 32)
    (f3 : Buf (Elt F) ((Memref.whole cc0_scratch0 : Memref sig .tc .vmem S2048x2048 .f32).view.loc (c : Thread nD τ)))
    (f10 : Buf (Elt F) ((stgM0_1 : Memref sig .tc .vmem S512x384 .bf16).view.loc (c : Thread nD τ))) :
    iprop(cellInv ER (sched V) κw (cell c (.rsR 0 1)) ∗ cred (tallyAt (cell c (.rsR 0 1)) () (amt (.rsR 0 1)))
        ∗ owes (c : Thread nD τ) (Owe c 15) W ∗ levAts L lv ∗ atPos ER (cell c (.rsR 0 1)) 0 ∅ 0
        ∗ heldW c (Memref.whole cc0_scratch0 : Memref sig .tc .vmem S2048x2048 .f32) f3
        ∗ heldW c (stgM0_1 : Memref sig .tc .vmem S512x384 .bf16) f10)
      ⊢ wp frame (wpE (defs₀ (F := F)) 𝒱₀ c none) Set.univ
          (k0_part19 (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23 c v2 v9 v250)
          (fun r => iprop(⌜r = ⟨Scalar.addi v250 (Scalar.muli v9 256#32), Scalar.xori v2 4#32⟩⌝ ∗ (∃ fl : Buf (Elt F) ((commM0_1 : Memref sig .tc .vmem S512x384 .bf16).view.loc (c : Thread nD τ)), ⌜V.rs0_1 (nbr 1 c) ((commM0_1 : Memref sig .tc .vmem S512x384 .bf16).view.read (Elt F) fl)⌝
            ∗ heldW c (commM0_1 : Memref sig .tc .vmem S512x384 .bf16) fl
            ∗ owes (c : Thread nD τ) (Owe c 15) (insert ((CK.rsR 0 1).sem, ()) W) ∗ atPos ER (cell c (.rsR 0 1)) 1 ∅ 0
            ∗ heldW c (Memref.whole cc0_scratch0 : Memref sig .tc .vmem S2048x2048 .f32) ((Memref.whole cc0_scratch0 : Memref sig .tc .vmem S2048x2048 .f32).view.writes (Elt F) f3 [⟨Rect.unit (s := S2048x2048) (k0_off35 c) ![256, 384] (k0_off35_inb c), k0_pay38 (View.readAt (Elt F) (Memref.whole cc0_scratch0 : Memref sig .tc .vmem S2048x2048 .f32).view (Rect.unit (s := S2048x2048) (k0_off35 c) ![256, 384] (k0_off35_inb c)).toLoadRect f3) (View.readAt (Elt F) (Memref.whole cc0_scratch1 : Memref sig .tc .vmem S1792x384 .bf16).view (Rect.unit (s := S1792x384) (k0_off36 c) ![256, 384] (k0_off36_inb c)).toLoadRect fl)⟩])
            ∗ heldW c (stgM0_1 : Memref sig .tc .vmem S512x384 .bf16) (View.write (Elt F) ((Memref.whole cc0_scratch7 : Memref sig .tc .vmem S1024x384 .bf16).access (Rect.unit (s := S1024x384) ![0, 0] ![256, 384] inb_S1024x384_S256x384_0_0)) f10 (k0_pay39 ((Memref.whole cc0_scratch0 : Memref sig .tc .vmem S2048x2048 .f32).view.readCov [⟨Rect.unit (s := S2048x2048) (k0_off35 c) ![256, 384] (k0_off35_inb c), k0_pay38 (View.readAt (Elt F) (Memref.whole cc0_scratch0 : Memref sig .tc .vmem S2048x2048 .f32).view (Rect.unit (s := S2048x2048) (k0_off35 c) ![256, 384] (k0_off35_inb c)).toLoadRect f3) (View.readAt (Elt F) (Memref.whole cc0_scratch1 : Memref sig .tc .vmem S1792x384 .bf16).view (Rect.unit (s := S1792x384) (k0_off36 c) ![256, 384] (k0_off36_inb c)).toLoadRect fl)⟩] (Rect.unit (s := S2048x2048) (k0_off35 c) ![256, 384] (k0_off35_inb c)).toLoadRect)) Finset.univ)))) := by
  simp only [k0_part19_eq_skeleton]; unfold k0_part19_skel
  simp only [Prog.lift, Prog.bind_op, Prog.bind_ret, Prog.pure_eq_ret]
  iintro ⟨#HIw, Hcw, HO, #Hlev, Hatw, Hacc, Hstg⟩
  unfold heldW
  iapply (wp_wait_xfer V c (.rsR 0 1) (by decide) 15 (rsR_sem_eq 0 1 _)
      (show (commM0_1 : Memref sig .tc .vmem S512x384 .bf16).view.dmaCredit = amt (.rsR 0 1) from rfl)
      (wpE_waitDma2_eq 𝒱₀ (c : Thread nD τ) none Set.univ)
      (mayWait_rsR c 0 1 15 (by decide)) κw W) $$ [Hcw HO Hatw]
  · isplitr; · iexact HIw
    isplitl [Hcw]; · iexact Hcw
    isplitl [HO]; · iexact HO
    isplitr; · iexact Hlev
    iexact Hatw
  iintro ⟨HO, Hatw, Hpay⟩
  ihave Hp := (Entails.of_eq (show pay V c (CK.rsR 0 1) 0 = ptsIs c commM0_1 (V.rs0_1 (nbr 1 c)) from rfl)) $$ Hpay
  unfold ptsIs
  icases Hp with ⟨%fl, Hland, %hX⟩
  -- the landed rows that are read lie inside the piece that arrived; the staging rows read and rewritten lie inside the piece that came back
  have hinc1 : ((Memref.whole cc0_scratch1 : Memref sig .tc .vmem S1792x384 .bf16).access (Rect.unit (s := S1792x384) (k0_off36 c) ![256, 384] (k0_off36_inb c))).set
      ⊆ (commM0_1 : Memref sig .tc .vmem S512x384 .bf16).view.set := by
    rw [View.set_slice_whole, View.set_slice_whole]
    refine unit_subset ?_
    piece_arith c [off36_eq]
  have hinc2 : ((Memref.whole cc0_scratch7 : Memref sig .tc .vmem S1024x384 .bf16).access (Rect.unit (s := S1024x384) ![0, 0] ![256, 384] inb_S1024x384_S256x384_0_0)).set
      ⊆ (stgM0_1 : Memref sig .tc .vmem S512x384 .bf16).view.set := by
    rw [View.set_slice_whole, View.set_slice_whole]
    exact unit_subset (by decide)
  have hinc3 : ((Memref.whole cc0_scratch7 : Memref sig .tc .vmem S1024x384 .bf16).access (Rect.unit (s := S1024x384) ![0, 0] ![256, 384] inb_S1024x384_S256x384_0_0)).setOn Finset.univ
      ⊆ (stgM0_1 : Memref sig .tc .vmem S512x384 .bf16).view.set := by
    rw [View.setOn_univ]; exact hinc2
  sl_exec
  sl_step
  isplitr; · ipureintro; rfl
  iexists fl
  isplitr; · ipureintro; exact hX
  isplitl [Hland]; · iexact Hland
  isplitl [HO]; · iexact HO
  isplitl [Hatw]; · iexact Hatw
  isplitl [Hacc]; · iexact Hacc
  iexact Hstg

end Cert.KernelIdeal.Proto

end
-- ==== Proof.Body20.lean ====
/-
Stretch 20 of a device's kernel body: group 0's third reduce-scatter send (the first 256 rows of its staging buffer to the
neighbour across axis 2), the sum of the kept 256 rows of its second landing into the accumulator, and the two waits of
group 1's second exchange (its staging rows back, its 512 landed rows in).
-/
import proofs.«900882_g7700000000000883_dist_matmul_gelu_kshard_i_m2048_n2048_k1024_v7x_i8_f32_1_alg».proof.Proof.Rules
import proofs.«900882_g7700000000000883_dist_matmul_gelu_kshard_i_m2048_n2048_k1024_v7x_i8_f32_1_alg».proof.Proof.TopoTab
import proofs.«900882_g7700000000000883_dist_matmul_gelu_kshard_i_m2048_n2048_k1024_v7x_i8_f32_1_alg».proof.Proof.PiecesTab
import proofs.«900882_g7700000000000883_dist_matmul_gelu_kshard_i_m2048_n2048_k1024_v7x_i8_f32_1_alg».proof.Proof.Gen.KernelIdeal.Skeleton
import Idealize.ShloMosaic.Lib.Pipeline.Value

set_option maxRecDepth 16384

noncomputable section

namespace Cert.KernelIdeal.Proto

open Cert.KernelIdeal Cert.KernelIdeal.Gen Cert.KernelIdeal.Topo
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : Vals F)

set_option maxHeartbeats 2000000 in
theorem part20_run (c : Dev nD) (κs κr κw κv : ℕ) (W : Waits sig Unit) (v6 v250 v304 v323 v574 : BitVec 32)
    (f3 : Buf (Elt F) ((Memref.whole cc0_scratch0 : Memref sig .tc .vmem S2048x2048 .f32).view.loc (c : Thread nD τ)))
    (f10 : Buf (Elt F) ((stgM0_1 : Memref sig .tc .vmem S512x384 .bf16).view.loc (c : Thread nD τ)))
    (fl : Buf (Elt F) ((commM0_1 : Memref sig .tc .vmem S512x384 .bf16).view.loc (c : Thread nD τ)))
    (hV : V.rs0_2 c ((stgM0_2 : Memref sig .tc .vmem S256x384 .bf16).view.read (Elt F) f10)) :
    iprop(cellInv ER (sched V) κs (cell c (.rsS 0 2)) ∗ cellInv ER (sched V) κr (cell (nbr 2 c) (.rsR 0 2))
        ∗ reached ER (cell c (.rsS 0 2)) 0 ∗ reached ER (cell (nbr 2 c) (.rsR 0 2)) 0
        ∗ dutyTok ER (cell c (.rsS 0 2)) 0 (0 : Fin 3) ∗ dutyTok ER (cell (nbr 2 c) (.rsR 0 2)) 0 (0 : Fin 3)
        ∗ ptsAny (F := F) (nbr 2 c) commM0_2
        ∗ owes (c : Thread nD τ) (Owe c 15) W
        ∗ heldW c (stgM0_1 : Memref sig .tc .vmem S512x384 .bf16) f10
        ∗ heldW c (Memref.whole cc0_scratch0 : Memref sig .tc .vmem S2048x2048 .f32) f3
        ∗ heldW c (commM0_1 : Memref sig .tc .vmem S512x384 .bf16) fl
        ∗ levAts L lv
        ∗ cellInv ER (sched V) κw (cell c (.rsS 1 1)) ∗ cred (tallyAt (cell c (.rsS 1 1)) () (amt (.rsS 1 1))) ∗ atPos ER (cell c (.rsS 1 1)) 0 ∅ 0
        ∗ cellInv ER (sched V) κv (cell c (.rsR 1 1)) ∗ cred (tallyAt (cell c (.rsR 1 1)) () (amt (.rsR 1 1))) ∗ atPos ER (cell c (.rsR 1 1)) 0 ∅ 0)
      ⊢ wp frame (wpE (defs₀ (F := F)) 𝒱₀ c none) Set.univ
          (k0_part20 (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23 c v6 v250 v304 v323 v574)
          (fun r => iprop(⌜r = ⟨Scalar.addi v304 (Scalar.muli (Scalar.subi (1#32) v6) 256#32), Scalar.addi v304 (Scalar.muli v6 256#32)⟩⌝ ∗ cred (tallyAt (cell c (.rsS 0 2)) () (amt (.rsR 0 2)))
            ∗ owes (c : Thread nD τ) (Owe c 16) (insert ((CK.rsR 1 1).sem, ()) (insert ((CK.rsS 1 1).sem, ()) W))
            ∗ heldW c (Memref.whole cc0_scratch0 : Memref sig .tc .vmem S2048x2048 .f32) ((Memref.whole cc0_scratch0 : Memref sig .tc .vmem S2048x2048 .f32).view.writes (Elt F) f3 [⟨Rect.unit (s := S2048x2048) (k0_off37 c) ![256, 384] (k0_off37_inb c), k0_pay40 (View.readAt (Elt F) (Memref.whole cc0_scratch0 : Memref sig .tc .vmem S2048x2048 .f32).view (Rect.unit (s := S2048x2048) (k0_off37 c) ![256, 384] (k0_off37_inb c)).toLoadRect f3) (View.readAt (Elt F) (Memref.whole cc0_scratch1 : Memref sig .tc .vmem S1792x384 .bf16).view (Rect.unit (s := S1792x384) (k0_off38 c) ![256, 384] (k0_off38_inb c)).toLoadRect fl)⟩])
            ∗ heldW c (commM0_1 : Memref sig .tc .vmem S512x384 .bf16) fl
            ∗ ((stgM0_1 : Memref sig .tc .vmem S512x384 .bf16).view.loc (c : Thread nD τ) ↦[(stgM0_1 : Memref sig .tc .vmem S512x384 .bf16).view.set \ (stgM0_2 : Memref sig .tc .vmem S256x384 .bf16).view.set]{fullShare} f10)
            ∗ atPos ER (cell c (.rsS 1 1)) 1 ∅ 0 ∗ atPos ER (cell c (.rsR 1 1)) 1 ∅ 0
            ∗ ptsAny (F := F) c stgM1_1 ∗ ptsIs c commM1_1 (V.rs1_1 (nbr 2 c)))) := by
  simp only [k0_part20_eq_skeleton]; unfold k0_part20_skel
  simp only [Prog.lift, Prog.bind_op, Prog.bind_ret, Prog.pure_eq_ret]
  iintro ⟨#HIs, #HIr, #Hrs, #Hrr, Hts, Htr, Hdst, HO, Hstg, Hacc, Hland, #Hlev, #HIw, Hcw, Hatw, #HIv, Hcv, Hatv⟩
  unfold heldW
  unfold ptsAny
  icases Hdst with ⟨%fd, Hdst⟩
  -- the rows that came back are cut into the 256 rows sent now and the rest
  ihave Hs := (Entails.of_eq (pts_set_eq (F := F) (ℓ := (stgM0_1 : Memref sig .tc .vmem S512x384 .bf16).view.loc (c : Thread nD τ))
      (S' := (stgM0_2 : Memref sig .tc .vmem S256x384 .bf16).view.set ∪ ((stgM0_1 : Memref sig .tc .vmem S512x384 .bf16).view.set \ (stgM0_2 : Memref sig .tc .vmem S256x384 .bf16).view.set)) (Finset.union_sdiff_of_subset stg_sub2_0).symm)) $$ Hstg
  ihave Hs2 := (pts_union (F := F) Finset.disjoint_sdiff).1 $$ Hs
  icases Hs2 with ⟨Hsrc, Hrem⟩
  iapply (wp_send_to V c ⟨k0_dev16 c, k0_dev16_lt c⟩ 2 (dev16_eq c) (.rsS 0 2) (.rsR 0 2) (by decide) (by decide) 15 (by decide) (paid_rs c 0 2) rfl
      (src := stgM0_2) (dst := commM0_2) (rsS_sem_eq 0 2 _) (rsR_sem_eq 0 2 _) rfl fd κs κr W
      (ptsAny_intro c stgM0_2 _)
      (ptsIs_intro (nbr 2 c) commM0_2 _ _ (by rw [View.read_write_univ, nbr_nbr]; exact hV))) $$ [Hsrc Hdst HO Hts Htr]
  · isplitr; · iexact HIs
    isplitr; · iexact HIr
    isplitl [Hsrc]; · iexact Hsrc
    isplitl [Hdst]; · iexact Hdst
    isplitl [HO]; · iexact HO
    isplitl [Hts]; · iexact Hts
    isplitr; · iexact Hrs
    isplitl [Htr]; · iexact Htr
    iexact Hrr
  iintro ⟨Hcs, HO⟩
  have hinc1 : ((Memref.whole cc0_scratch1 : Memref sig .tc .vmem S1792x384 .bf16).access (Rect.unit (s := S1792x384) (k0_off38 c) ![256, 384] (k0_off38_inb c))).set
      ⊆ (commM0_1 : Memref sig .tc .vmem S512x384 .bf16).view.set := by
    rw [View.set_slice_whole, View.set_slice_whole]
    refine unit_subset ?_
    piece_arith c [off38_eq]
  sl_exec
  iapply (wp_wait_xfer V c (.rsS 1 1) (by decide) 16 (rsS_sem_eq 1 1 _)
      (show (stgM1_1 : Memref sig .tc .vmem S512x384 .bf16).view.dmaCredit = amt (.rsS 1 1) from rfl)
      (wpE_waitDma2_eq 𝒱₀ (c : Thread nD τ) none Set.univ)
      (mayWait_own c (.rsS 1 1) (lv_cell c _) 16) κw W) $$ [Hcw HO Hatw]
  · isplitr; · iexact HIw
    isplitl [Hcw]; · iexact Hcw
    isplitl [HO]; · iexact HO
    isplitr; · iexact Hlev
    iexact Hatw
  iintro ⟨HO, Hatw, Hpay1⟩
  iapply (wp_wait_xfer V c (.rsR 1 1) (by decide) 16 (rsR_sem_eq 1 1 _)
      (show (commM1_1 : Memref sig .tc .vmem S512x384 .bf16).view.dmaCredit = amt (.rsR 1 1) from rfl)
      (wpE_waitDma2_eq 𝒱₀ (c : Thread nD τ) none Set.univ)
      (mayWait_rsR c 1 1 16 (by decide)) κv (insert ((CK.rsS 1 1).sem, ()) W)) $$ [Hcv HO Hatv]
  · isplitr; · iexact HIv
    isplitl [Hcv]; · iexact Hcv
    isplitl [HO]; · iexact HO
    isplitr; · iexact Hlev
    iexact Hatv
  iintro ⟨HO, Hatv, Hpay2⟩
  ihave Hp1 := (Entails.of_eq (show pay V c (CK.rsS 1 1) 0 = ptsAny (F := F) c stgM1_1 from rfl)) $$ Hpay1
  ihave Hp2 := (Entails.of_eq (show pay V c (CK.rsR 1 1) 0 = ptsIs c commM1_1 (V.rs1_1 (nbr 2 c)) from rfl)) $$ Hpay2
  sl_step
  isplitr; · ipureintro; rfl
  unfold ptsAny
  isplitl [Hcs]; · iexact Hcs
  isplitl [HO]; · iexact HO
  isplitl [Hacc]; · iexact Hacc
  isplitl [Hland]; · iexact Hland
  isplitl [Hrem]; · iexact Hrem
  isplitl [Hatw]; · iexact Hatw
  isplitl [Hatv]; · iexact Hatv
  isplitl [Hp1]; · iexact Hp1
  iexact Hp2

end Cert.KernelIdeal.Proto

end
-- ==== Proof.Body21.lean ====
/-
Stretch 21 of a device's kernel body: the sum of the sent-on 256 rows of group 1's second landing into the accumulator,
their rounding into the first 256 rows of group 1's staging buffer, group 1's third reduce-scatter send (those rows to the
neighbour across axis 0), and the loads for the sum of the kept 256 rows.
-/
import proofs.«900882_g7700000000000883_dist_matmul_gelu_kshard_i_m2048_n2048_k1024_v7x_i8_f32_1_alg».proof.Proof.Rules
import proofs.«900882_g7700000000000883_dist_matmul_gelu_kshard_i_m2048_n2048_k1024_v7x_i8_f32_1_alg».proof.Proof.TopoTab
import proofs.«900882_g7700000000000883_dist_matmul_gelu_kshard_i_m2048_n2048_k1024_v7x_i8_f32_1_alg».proof.Proof.PiecesTab
import proofs.«900882_g7700000000000883_dist_matmul_gelu_kshard_i_m2048_n2048_k1024_v7x_i8_f32_1_alg».proof.Proof.Gen.KernelIdeal.Skeleton
import proofs.«900882_g7700000000000883_dist_matmul_gelu_kshard_i_m2048_n2048_k1024_v7x_i8_f32_1_alg».proof.Proof.TopoClosed
import Idealize.ShloMosaic.Lib.Pipeline.Value

set_option maxRecDepth 16384

noncomputable section

namespace Cert.KernelIdeal.Proto

open Cert.KernelIdeal Cert.KernelIdeal.Gen Cert.KernelIdeal.Topo
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : Vals F)

set_option maxHeartbeats 2000000 in
theorem part21_run (c : Dev nD) (κs κr : ℕ) (W : Waits sig Unit) (v2 v304 v626 v628 : BitVec 32)
    (f3 : Buf (Elt F) ((Memref.whole cc0_scratch0 : Memref sig .tc .vmem S2048x2048 .f32).view.loc (c : Thread nD τ)))
    (f11 : Buf (Elt F) ((stgM1_1 : Memref sig .tc .vmem S512x384 .bf16).view.loc (c : Thread nD τ)))
    (fl : Buf (Elt F) ((commM1_1 : Memref sig .tc .vmem S512x384 .bf16).view.loc (c : Thread nD τ)))
    (hV : V.rs1_2 c ((stgM1_2 : Memref sig .tc .vmem S256x384 .bf16).view.read (Elt F) (View.write (Elt F) ((Memref.whole cc0_scratch8 : Memref sig .tc .vmem S1024x384 .bf16).access (Rect.unit (s := S1024x384) ![0, 0] ![256, 384] inb_S1024x384_S256x384_0_0)) f11 (k0_pay42 ((Memref.whole cc0_scratch0 : Memref sig .tc .vmem S2048x2048 .f32).view.readCov [⟨Rect.unit (s := S2048x2048) (k0_off39 c) ![256, 384] (k0_off39_inb c), k0_pay41 (View.readAt (Elt F) (Memref.whole cc0_scratch0 : Memref sig .tc .vmem S2048x2048 .f32).view (Rect.unit (s := S2048x2048) (k0_off39 c) ![256, 384] (k0_off39_inb c)).toLoadRect f3) (View.readAt (Elt F) (Memref.whole cc0_scratch2 : Memref sig .tc .vmem S1792x384 .bf16).view (Rect.unit (s := S1792x384) (k0_off40 c) ![256, 384] (k0_off40_inb c)).toLoadRect fl)⟩] (Rect.unit (s := S2048x2048) (k0_off39 c) ![256, 384] (k0_off39_inb c)).toLoadRect)) Finset.univ))) :
    iprop(cellInv ER (sched V) κs (cell c (.rsS 1 2)) ∗ cellInv ER (sched V) κr (cell (nbr 0 c) (.rsR 1 2))
        ∗ reached ER (cell c (.rsS 1 2)) 0 ∗ reached ER (cell (nbr 0 c) (.rsR 1 2)) 0
        ∗ dutyTok ER (cell c (.rsS 1 2)) 0 (0 : Fin 3) ∗ dutyTok ER (cell (nbr 0 c) (.rsR 1 2)) 0 (0 : Fin 3)
        ∗ ptsAny (F := F) (nbr 0 c) commM1_2
        ∗ owes (c : Thread nD τ) (Owe c 16) W
        ∗ heldW c (stgM1_1 : Memref sig .tc .vmem S512x384 .bf16) f11
        ∗ heldW c (Memref.whole cc0_scratch0 : Memref sig .tc .vmem S2048x2048 .f32) f3
        ∗ heldW c (commM1_1 : Memref sig .tc .vmem S512x384 .bf16) fl)
      ⊢ wp frame (wpE (defs₀ (F := F)) 𝒱₀ c none) Set.univ
          (k0_part21 (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23 c v2 v304 v626 v628)
          (fun r => iprop(⌜r = ⟨Scalar.xori v2 1#32, ⟨k0_pay43 (View.readAt (Elt F) (Memref.whole cc0_scratch0 : Memref sig .tc .vmem S2048x2048 .f32).view (Rect.unit (s := S2048x2048) (k0_off41 c) ![256, 384] (k0_off41_inb c)).toLoadRect ((Memref.whole cc0_scratch0 : Memref sig .tc .vmem S2048x2048 .f32).view.writes (Elt F) f3 [⟨Rect.unit (s := S2048x2048) (k0_off39 c) ![256, 384] (k0_off39_inb c), k0_pay41 (View.readAt (Elt F) (Memref.whole cc0_scratch0 : Memref sig .tc .vmem S2048x2048 .f32).view (Rect.unit (s := S2048x2048) (k0_off39 c) ![256, 384] (k0_off39_inb c)).toLoadRect f3) (View.readAt (Elt F) (Memref.whole cc0_scratch2 : Memref sig .tc .vmem S1792x384 .bf16).view (Rect.unit (s := S1792x384) (k0_off40 c) ![256, 384] (k0_off40_inb c)).toLoadRect fl)⟩])) (View.readAt (Elt F) (Memref.whole cc0_scratch2 : Memref sig .tc .vmem S1792x384 .bf16).view (Rect.unit (s := S1792x384) (k0_off42 c) ![256, 384] (k0_off42_inb c)).toLoadRect fl), View.readAt (Elt F) (Memref.whole cc0_scratch0 : Memref sig .tc .vmem S2048x2048 .f32).view (Rect.unit (s := S2048x2048) (k0_off41 c) ![256, 384] (k0_off41_inb c)).toLoadRect ((Memref.whole cc0_scratch0 : Memref sig .tc .vmem S2048x2048 .f32).view.writes (Elt F) f3 [⟨Rect.unit (s := S2048x2048) (k0_off39 c) ![256, 384] (k0_off39_inb c), k0_pay41 (View.readAt (Elt F) (Memref.whole cc0_scratch0 : Memref sig .tc .vmem S2048x2048 .f32).view (Rect.unit (s := S2048x2048) (k0_off39 c) ![256, 384] (k0_off39_inb c)).toLoadRect f3) (View.readAt (Elt F) (Memref.whole cc0_scratch2 : Memref sig .tc .vmem S1792x384 .bf16).view (Rect.unit (s := S1792x384) (k0_off40 c) ![256, 384] (k0_off40_inb c)).toLoadRect fl)⟩])⟩⟩⌝ ∗ cred (tallyAt (cell c (.rsS 1 2)) () (amt (.rsR 1 2)))
            ∗ owes (c : Thread nD τ) (Owe c 17) W
            ∗ heldW c (Memref.whole cc0_scratch0 : Memref sig .tc .vmem S2048x2048 .f32) ((Memref.whole cc0_scratch0 : Memref sig .tc .vmem S2048x2048 .f32).view.writes (Elt F) f3 [⟨Rect.unit (s := S2048x2048) (k0_off39 c) ![256, 384] (k0_off39_inb c), k0_pay41 (View.readAt (Elt F) (Memref.whole cc0_scratch0 : Memref sig .tc .vmem S2048x2048 .f32).view (Rect.unit (s := S2048x2048) (k0_off39 c) ![256, 384] (k0_off39_inb c)).toLoadRect f3) (View.readAt (Elt F) (Memref.whole cc0_scratch2 : Memref sig .tc .vmem S1792x384 .bf16).view (Rect.unit (s := S1792x384) (k0_off40 c) ![256, 384] (k0_off40_inb c)).toLoadRect fl)⟩])
            ∗ heldW c (commM1_1 : Memref sig .tc .vmem S512x384 .bf16) fl
            ∗ ((stgM1_1 : Memref sig .tc .vmem S512x384 .bf16).view.loc (c : Thread nD τ) ↦[(stgM1_1 : Memref sig .tc .vmem S512x384 .bf16).view.set \ (stgM1_2 : Memref sig .tc .vmem S256x384 .bf16).view.set]{fullShare} (View.write (Elt F) ((Memref.whole cc0_scratch8 : Memref sig .tc .vmem S1024x384 .bf16).access (Rect.unit (s := S1024x384) ![0, 0] ![256, 384] inb_S1024x384_S256x384_0_0)) f11 (k0_pay42 ((Memref.whole cc0_scratch0 : Memref sig .tc .vmem S2048x2048 .f32).view.readCov [⟨Rect.unit (s := S2048x2048) (k0_off39 c) ![256, 384] (k0_off39_inb c), k0_pay41 (View.readAt (Elt F) (Memref.whole cc0_scratch0 : Memref sig .tc .vmem S2048x2048 .f32).view (Rect.unit (s := S2048x2048) (k0_off39 c) ![256, 384] (k0_off39_inb c)).toLoadRect f3) (View.readAt (Elt F) (Memref.whole cc0_scratch2 : Memref sig .tc .vmem S1792x384 .bf16).view (Rect.unit (s := S1792x384) (k0_off40 c) ![256, 384] (k0_off40_inb c)).toLoadRect fl)⟩] (Rect.unit (s := S2048x2048) (k0_off39 c) ![256, 384] (k0_off39_inb c)).toLoadRect)) Finset.univ)))) := by
  simp only [k0_part21_eq_skeleton]; unfold k0_part21_skel
  simp only [Prog.lift, Prog.bind_op, Prog.bind_ret, Prog.pure_eq_ret]
  iintro ⟨#HIs, #HIr, #Hrs, #Hrr, Hts, Htr, Hdst, HO, Hstg, Hacc, Hland⟩
  unfold heldW
  unfold ptsAny
  icases Hdst with ⟨%fd, Hdst⟩
  have hinc1 : ((Memref.whole cc0_scratch2 : Memref sig .tc .vmem S1792x384 .bf16).access (Rect.unit (s := S1792x384) (k0_off40 c) ![256, 384] (k0_off40_inb c))).set
      ⊆ (commM1_1 : Memref sig .tc .vmem S512x384 .bf16).view.set := by
    rw [View.set_slice_whole, View.set_slice_whole]
    refine unit_subset ?_
    piece_arith c [off40_eq]
  have hinc2 : ((Memref.whole cc0_scratch2 : Memref sig .tc .vmem S1792x384 .bf16).access (Rect.unit (s := S1792x384) (k0_off42 c) ![256, 384] (k0_off42_inb c))).set
      ⊆ (commM1_1 : Memref sig .tc .vmem S512x384 .bf16).view.set := by
    rw [View.set_slice_whole, View.set_slice_whole]
    refine unit_subset ?_
    piece_arith c [off42_eq]
  have hinc3 : ((Memref.whole cc0_scratch8 : Memref sig .tc .vmem S1024x384 .bf16).access (Rect.unit (s := S1024x384) ![0, 0] ![256, 384] inb_S1024x384_S256x384_0_0)).set
      ⊆ (stgM1_1 : Memref sig .tc .vmem S512x384 .bf16).view.set := by
    rw [View.set_slice_whole, View.set_slice_whole]
    exact unit_subset (by decide)
  have hinc4 : ((Memref.whole cc0_scratch8 : Memref sig .tc .vmem S1024x384 .bf16).access (Rect.unit (s := S1024x384) ![0, 0] ![256, 384] inb_S1024x384_S256x384_0_0)).setOn Finset.univ
      ⊆ (stgM1_1 : Memref sig .tc .vmem S512x384 .bf16).view.set := by
    rw [View.setOn_univ]
    rw [View.set_slice_whole, View.set_slice_whole]
    exact unit_subset (by decide)
  sl_exec
  -- the rows that came back are cut into the 256 rows sent now and the rest
  ihave Hs := (Entails.of_eq (pts_set_eq (F := F) (ℓ := (stgM1_1 : Memref sig .tc .vmem S512x384 .bf16).view.loc (c : Thread nD τ))
      (S' := (stgM1_2 : Memref sig .tc .vmem S256x384 .bf16).view.set ∪ ((stgM1_1 : Memref sig .tc .vmem S512x384 .bf16).view.set \ (stgM1_2 : Memref sig .tc .vmem S256x384 .bf16).view.set)) (Finset.union_sdiff_of_subset stg_sub2_1).symm)) $$ Hstg
  ihave Hs2 := (pts_union (F := F) Finset.disjoint_sdiff).1 $$ Hs
  icases Hs2 with ⟨Hsrc, Hrem⟩
  iapply (wp_send_to V c ⟨k0_dev17 c, k0_dev17_lt c⟩ 0 (dev17_eq c) (.rsS 1 2) (.rsR 1 2) (by decide) (by decide) 16 (by decide) (paid_rs c 1 2) rfl
      (src := stgM1_2) (dst := commM1_2) (rsS_sem_eq 1 2 _) (rsR_sem_eq 1 2 _) rfl fd κs κr W
      (ptsAny_intro c stgM1_2 _)
      (ptsIs_intro (nbr 0 c) commM1_2 _ _ (by rw [View.read_write_univ, nbr_nbr]; exact hV))) $$ [Hsrc Hdst HO Hts Htr]
  · isplitr; · iexact HIs
    isplitr; · iexact HIr
    isplitl [Hsrc]; · iexact Hsrc
    isplitl [Hdst]; · iexact Hdst
    isplitl [HO]; · iexact HO
    isplitl [Hts]; · iexact Hts
    isplitr; · iexact Hrs
    isplitl [Htr]; · iexact Htr
    iexact Hrr
  iintro ⟨Hcs, HO⟩
  sl_exec
  sl_step
  isplitr; · ipureintro; rfl
  isplitl [Hcs]; · iexact Hcs
  isplitl [HO]; · iexact HO
  isplitl [Hacc]; · iexact Hacc
  isplitl [Hland]; · iexact Hland
  iexact Hrem

end Cert.KernelIdeal.Proto

end
-- ==== Proof.Body22.lean ====
/-
Stretch 22 of a device's kernel body: the store of the sum of the kept 256 rows of group 1's second landing into the
accumulator, the two waits of group 2's second exchange, and the sum of the sent-on 256 rows of its landing into the
accumulator.
-/
import proofs.«900882_g7700000000000883_dist_matmul_gelu_kshard_i_m2048_n2048_k1024_v7x_i8_f32_1_alg».proof.Proof.Rules
import proofs.«900882_g7700000000000883_dist_matmul_gelu_kshard_i_m2048_n2048_k1024_v7x_i8_f32_1_alg».proof.Proof.TopoTab
import proofs.«900882_g7700000000000883_dist_matmul_gelu_kshard_i_m2048_n2048_k1024_v7x_i8_f32_1_alg».proof.Proof.PiecesTab
import proofs.«900882_g7700000000000883_dist_matmul_gelu_kshard_i_m2048_n2048_k1024_v7x_i8_f32_1_alg».proof.Proof.Gen.KernelIdeal.Skeleton
import proofs.«900882_g7700000000000883_dist_matmul_gelu_kshard_i_m2048_n2048_k1024_v7x_i8_f32_1_alg».proof.Proof.TopoClosed
import Idealize.ShloMosaic.Lib.Pipeline.Value

set_option maxRecDepth 16384

noncomputable section

namespace Cert.KernelIdeal.Proto

open Cert.KernelIdeal Cert.KernelIdeal.Gen Cert.KernelIdeal.Topo
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : Vals F)

set_option maxHeartbeats 2000000 in
theorem part22_run (c : Dev nD) (κw κv : ℕ) (W : Waits sig Unit) (v8 v358 v377 : BitVec 32) (v663 : FVec F S256x384 .f32) (v665 : Vec F S256x384 .f32)
    (f3 : Buf (Elt F) ((Memref.whole cc0_scratch0 : Memref sig .tc .vmem S2048x2048 .f32).view.loc (c : Thread nD τ))) :
    iprop(owes (c : Thread nD τ) (Owe c 17) W ∗ levAts L lv
        ∗ heldW c (Memref.whole cc0_scratch0 : Memref sig .tc .vmem S2048x2048 .f32) f3
        ∗ cellInv ER (sched V) κw (cell c (.rsS 2 1)) ∗ cred (tallyAt (cell c (.rsS 2 1)) () (amt (.rsS 2 1))) ∗ atPos ER (cell c (.rsS 2 1)) 0 ∅ 0
        ∗ cellInv ER (sched V) κv (cell c (.rsR 2 1)) ∗ cred (tallyAt (cell c (.rsR 2 1)) () (amt (.rsR 2 1))) ∗ atPos ER (cell c (.rsR 2 1)) 0 ∅ 0)
      ⊢ wp frame (wpE (defs₀ (F := F)) 𝒱₀ c none) Set.univ
          (k0_part22 (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23 c v8 v358 v377 v663 v665)
          (fun r => iprop(⌜r = (Scalar.addi v358 (Scalar.muli v8 256#32))⌝ ∗ (∃ fl : Buf (Elt F) ((commM2_1 : Memref sig .tc .vmem S512x384 .bf16).view.loc (c : Thread nD τ)), ⌜V.rs2_1 (nbr 0 c) ((commM2_1 : Memref sig .tc .vmem S512x384 .bf16).view.read (Elt F) fl)⌝
            ∗ heldW c (commM2_1 : Memref sig .tc .vmem S512x384 .bf16) fl
            ∗ owes (c : Thread nD τ) (Owe c 17) (insert ((CK.rsR 2 1).sem, ()) (insert ((CK.rsS 2 1).sem, ()) W))
            ∗ atPos ER (cell c (.rsS 2 1)) 1 ∅ 0 ∗ atPos ER (cell c (.rsR 2 1)) 1 ∅ 0
            ∗ ptsAny (F := F) c stgM2_1
            ∗ heldW c (Memref.whole cc0_scratch0 : Memref sig .tc .vmem S2048x2048 .f32) ((Memref.whole cc0_scratch0 : Memref sig .tc .vmem S2048x2048 .f32).view.writes (Elt F) f3 [⟨Rect.unit (s := S2048x2048) (k0_off43 c) ![256, 384] (k0_off43_inb c), k0_pay45 (View.readAt (Elt F) (Memref.whole cc0_scratch0 : Memref sig .tc .vmem S2048x2048 .f32).view (Rect.unit (s := S2048x2048) (k0_off43 c) ![256, 384] (k0_off43_inb c)).toLoadRect f3) (View.readAt (Elt F) (Memref.whole cc0_scratch3 : Memref sig .tc .vmem S1792x384 .bf16).view (Rect.unit (s := S1792x384) (k0_off44 c) ![256, 384] (k0_off44_inb c)).toLoadRect fl)⟩, ⟨Rect.unit (s := S2048x2048) (k0_off41 c) ![256, 384] (k0_off41_inb c), k0_pay44 v663⟩])))) := by
  simp only [k0_part22_eq_skeleton]; unfold k0_part22_skel
  simp only [Prog.lift, Prog.bind_op, Prog.bind_ret, Prog.pure_eq_ret]
  iintro ⟨HO, #Hlev, Hacc, #HIw, Hcw, Hatw, #HIv, Hcv, Hatv⟩
  unfold heldW
  sl_exec
  iapply (wp_wait_xfer V c (.rsS 2 1) (by decide) 17 (rsS_sem_eq 2 1 _)
      (show (stgM2_1 : Memref sig .tc .vmem S512x384 .bf16).view.dmaCredit = amt (.rsS 2 1) from rfl)
      (wpE_waitDma2_eq 𝒱₀ (c : Thread nD τ) none Set.univ)
      (mayWait_own c (.rsS 2 1) (lv_cell c _) 17) κw W) $$ [Hcw HO Hatw]
  · isplitr; · iexact HIw
    isplitl [Hcw]; · iexact Hcw
    isplitl [HO]; · iexact HO
    isplitr; · iexact Hlev
    iexact Hatw
  iintro ⟨HO, Hatw, Hpay1⟩
  iapply (wp_wait_xfer V c (.rsR 2 1) (by decide) 17 (rsR_sem_eq 2 1 _)
      (show (commM2_1 : Memref sig .tc .vmem S512x384 .bf16).view.dmaCredit = amt (.rsR 2 1) from rfl)
      (wpE_waitDma2_eq 𝒱₀ (c : Thread nD τ) none Set.univ)
      (mayWait_rsR c 2 1 17 (by decide)) κv (insert ((CK.rsS 2 1).sem, ()) W)) $$ [Hcv HO Hatv]
  · isplitr; · iexact HIv
    isplitl [Hcv]; · iexact Hcv
    isplitl [HO]; · iexact HO
    isplitr; · iexact Hlev
    iexact Hatv
  iintro ⟨HO, Hatv, Hpay2⟩
  ihave Hp1 := (Entails.of_eq (show pay V c (CK.rsS 2 1) 0 = ptsAny (F := F) c stgM2_1 from rfl)) $$ Hpay1
  ihave Hp2 := (Entails.of_eq (show pay V c (CK.rsR 2 1) 0 = ptsIs c commM2_1 (V.rs2_1 (nbr 0 c)) from rfl)) $$ Hpay2
  unfold ptsIs
  icases Hp2 with ⟨%fl, Hland, %hX⟩
  have hinc1 : ((Memref.whole cc0_scratch3 : Memref sig .tc .vmem S1792x384 .bf16).access (Rect.unit (s := S1792x384) (k0_off44 c) ![256, 384] (k0_off44_inb c))).set
      ⊆ (commM2_1 : Memref sig .tc .vmem S512x384 .bf16).view.set := by
    rw [View.set_slice_whole, View.set_slice_whole]
    refine unit_subset ?_
    piece_arith c [off44_eq]
  sl_exec
  sl_step
  isplitr; · ipureintro; rfl
  iexists fl
  isplitr; · ipureintro; exact hX
  isplitl [Hland]; · iexact Hland
  isplitl [HO]; · iexact HO
  isplitl [Hatw]; · iexact Hatw
  isplitl [Hatv]; · iexact Hatv
  isplitl [Hp1]; · iexact Hp1
  iexact Hacc

end Cert.KernelIdeal.Proto

end
-- ==== Proof.Body23.lean ====
/-
Stretch 23 of a device's kernel body: the rounding of the sent-on 256 rows of group 2 into the first 256 rows of its
staging buffer, group 2's third reduce-scatter send (those rows to the neighbour across axis 1), and the sum of the kept
256 rows of its second landing into the accumulator.
-/
import proofs.«900882_g7700000000000883_dist_matmul_gelu_kshard_i_m2048_n2048_k1024_v7x_i8_f32_1_alg».proof.Proof.Rules
import proofs.«900882_g7700000000000883_dist_matmul_gelu_kshard_i_m2048_n2048_k1024_v7x_i8_f32_1_alg».proof.Proof.TopoTab
import proofs.«900882_g7700000000000883_dist_matmul_gelu_kshard_i_m2048_n2048_k1024_v7x_i8_f32_1_alg».proof.Proof.PiecesTab
import proofs.«900882_g7700000000000883_dist_matmul_gelu_kshard_i_m2048_n2048_k1024_v7x_i8_f32_1_alg».proof.Proof.Gen.KernelIdeal.Skeleton
import proofs.«900882_g7700000000000883_dist_matmul_gelu_kshard_i_m2048_n2048_k1024_v7x_i8_f32_1_alg».proof.Proof.TopoClosed
import Idealize.ShloMosaic.Lib.Pipeline.Value

set_option maxRecDepth 16384

noncomputable section

namespace Cert.KernelIdeal.Proto

open Cert.KernelIdeal Cert.KernelIdeal.Gen Cert.KernelIdeal.Topo
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : Vals F)

set_option maxHeartbeats 2000000 in
theorem part23_run (c : Dev nD) (κs κr : ℕ) (W : Waits sig Unit) (v2 v358 v682 : BitVec 32)
    (f3 : Buf (Elt F) ((Memref.whole cc0_scratch0 : Memref sig .tc .vmem S2048x2048 .f32).view.loc (c : Thread nD τ)))
    (f12 : Buf (Elt F) ((stgM2_1 : Memref sig .tc .vmem S512x384 .bf16).view.loc (c : Thread nD τ)))
    (fl : Buf (Elt F) ((commM2_1 : Memref sig .tc .vmem S512x384 .bf16).view.loc (c : Thread nD τ)))
    (hV : V.rs2_2 c ((stgM2_2 : Memref sig .tc .vmem S256x384 .bf16).view.read (Elt F) (View.write (Elt F) ((Memref.whole cc0_scratch9 : Memref sig .tc .vmem S1024x384 .bf16).access (Rect.unit (s := S1024x384) ![0, 0] ![256, 384] inb_S1024x384_S256x384_0_0)) f12 (k0_pay46 (View.readAt (Elt F) (Memref.whole cc0_scratch0 : Memref sig .tc .vmem S2048x2048 .f32).view (Rect.unit (s := S2048x2048) (k0_off43 c) ![256, 384] (k0_off43_inb c)).toLoadRect f3)) Finset.univ))) :
    iprop(cellInv ER (sched V) κs (cell c (.rsS 2 2)) ∗ cellInv ER (sched V) κr (cell (nbr 1 c) (.rsR 2 2))
        ∗ reached ER (cell c (.rsS 2 2)) 0 ∗ reached ER (cell (nbr 1 c) (.rsR 2 2)) 0
        ∗ dutyTok ER (cell c (.rsS 2 2)) 0 (0 : Fin 3) ∗ dutyTok ER (cell (nbr 1 c) (.rsR 2 2)) 0 (0 : Fin 3)
        ∗ ptsAny (F := F) (nbr 1 c) commM2_2
        ∗ owes (c : Thread nD τ) (Owe c 17) W
        ∗ heldW c (stgM2_1 : Memref sig .tc .vmem S512x384 .bf16) f12
        ∗ heldW c (Memref.whole cc0_scratch0 : Memref sig .tc .vmem S2048x2048 .f32) f3
        ∗ heldW c (commM2_1 : Memref sig .tc .vmem S512x384 .bf16) fl)
      ⊢ wp frame (wpE (defs₀ (F := F)) 𝒱₀ c none) Set.univ
          (k0_part23 (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23 c v2 v358 v682)
          (fun r => iprop(⌜r = (Scalar.xori v2 3#32)⌝ ∗ cred (tallyAt (cell c (.rsS 2 2)) () (amt (.rsR 2 2)))
            ∗ owes (c : Thread nD τ) (Owe c 18) W
            ∗ heldW c (Memref.whole cc0_scratch0 : Memref sig .tc .vmem S2048x2048 .f32) ((Memref.whole cc0_scratch0 : Memref sig .tc .vmem S2048x2048 .f32).view.writes (Elt F) f3 [⟨Rect.unit (s := S2048x2048) (k0_off45 c) ![256, 384] (k0_off45_inb c), k0_pay47 (View.readAt (Elt F) (Memref.whole cc0_scratch0 : Memref sig .tc .vmem S2048x2048 .f32).view (Rect.unit (s := S2048x2048) (k0_off45 c) ![256, 384] (k0_off45_inb c)).toLoadRect f3) (View.readAt (Elt F) (Memref.whole cc0_scratch3 : Memref sig .tc .vmem S1792x384 .bf16).view (Rect.unit (s := S1792x384) (k0_off46 c) ![256, 384] (k0_off46_inb c)).toLoadRect fl)⟩])
            ∗ heldW c (commM2_1 : Memref sig .tc .vmem S512x384 .bf16) fl
            ∗ ((stgM2_1 : Memref sig .tc .vmem S512x384 .bf16).view.loc (c : Thread nD τ) ↦[(stgM2_1 : Memref sig .tc .vmem S512x384 .bf16).view.set \ (stgM2_2 : Memref sig .tc .vmem S256x384 .bf16).view.set]{fullShare} (View.write (Elt F) ((Memref.whole cc0_scratch9 : Memref sig .tc .vmem S1024x384 .bf16).access (Rect.unit (s := S1024x384) ![0, 0] ![256, 384] inb_S1024x384_S256x384_0_0)) f12 (k0_pay46 (View.readAt (Elt F) (Memref.whole cc0_scratch0 : Memref sig .tc .vmem S2048x2048 .f32).view (Rect.unit (s := S2048x2048) (k0_off43 c) ![256, 384] (k0_off43_inb c)).toLoadRect f3)) Finset.univ)))) := by
  simp only [k0_part23_eq_skeleton]; unfold k0_part23_skel
  simp only [Prog.lift, Prog.bind_op, Prog.bind_ret, Prog.pure_eq_ret]
  iintro ⟨#HIs, #HIr, #Hrs, #Hrr, Hts, Htr, Hdst, HO, Hstg, Hacc, Hland⟩
  unfold heldW
  unfold ptsAny
  icases Hdst with ⟨%fd, Hdst⟩
  have hinc1 : ((Memref.whole cc0_scratch3 : Memref sig .tc .vmem S1792x384 .bf16).access (Rect.unit (s := S1792x384) (k0_off46 c) ![256, 384] (k0_off46_inb c))).set
      ⊆ (commM2_1 : Memref sig .tc .vmem S512x384 .bf16).view.set := by
    rw [View.set_slice_whole, View.set_slice_whole]
    refine unit_subset ?_
    piece_arith c [off46_eq]
  have hinc3 : ((Memref.whole cc0_scratch9 : Memref sig .tc .vmem S1024x384 .bf16).access (Rect.unit (s := S1024x384) ![0, 0] ![256, 384] inb_S1024x384_S256x384_0_0)).set
      ⊆ (stgM2_1 : Memref sig .tc .vmem S512x384 .bf16).view.set := by
    rw [View.set_slice_whole, View.set_slice_whole]
    exact unit_subset (by decide)
  have hinc4 : ((Memref.whole cc0_scratch9 : Memref sig .tc .vmem S1024x384 .bf16).access (Rect.unit (s := S1024x384) ![0, 0] ![256, 384] inb_S1024x384_S256x384_0_0)).setOn Finset.univ
      ⊆ (stgM2_1 : Memref sig .tc .vmem S512x384 .bf16).view.set := by
    rw [View.setOn_univ]
    rw [View.set_slice_whole, View.set_slice_whole]
    exact unit_subset (by decide)
  sl_exec
  -- the rows that came back are cut into the 256 rows sent now and the rest
  ihave Hs := (Entails.of_eq (pts_set_eq (F := F) (ℓ := (stgM2_1 : Memref sig .tc .vmem S512x384 .bf16).view.loc (c : Thread nD τ))
      (S' := (stgM2_2 : Memref sig .tc .vmem S256x384 .bf16).view.set ∪ ((stgM2_1 : Memref sig .tc .vmem S512x384 .bf16).view.set \ (stgM2_2 : Memref sig .tc .vmem S256x384 .bf16).view.set)) (Finset.union_sdiff_of_subset stg_sub2_2).symm)) $$ Hstg
  ihave Hs2 := (pts_union (F := F) Finset.disjoint_sdiff).1 $$ Hs
  icases Hs2 with ⟨Hsrc, Hrem⟩
  iapply (wp_send_to V c ⟨k0_dev18 c, k0_dev18_lt c⟩ 1 (dev18_eq c) (.rsS 2 2) (.rsR 2 2) (by decide) (by decide) 17 (by decide) (paid_rs c 2 2) rfl
      (src := stgM2_2) (dst := commM2_2) (rsS_sem_eq 2 2 _) (rsR_sem_eq 2 2 _) rfl fd κs κr W
      (ptsAny_intro c stgM2_2 _)
      (ptsIs_intro (nbr 1 c) commM2_2 _ _ (by rw [View.read_write_univ, nbr_nbr]; exact hV))) $$ [Hsrc Hdst HO Hts Htr]
  · isplitr; · iexact HIs
    isplitr; · iexact HIr
    isplitl [Hsrc]; · iexact Hsrc
    isplitl [Hdst]; · iexact Hdst
    isplitl [HO]; · iexact HO
    isplitl [Hts]; · iexact Hts
    isplitr; · iexact Hrs
    isplitl [Htr]; · iexact Htr
    iexact Hrr
  iintro ⟨Hcs, HO⟩
  sl_exec
  sl_step
  isplitr; · ipureintro; rfl
  isplitl [Hcs]; · iexact Hcs
  isplitl [HO]; · iexact HO
  isplitl [Hacc]; · iexact Hacc
  isplitl [Hland]; · iexact Hland
  iexact Hrem

end Cert.KernelIdeal.Proto

end
-- ==== Proof.Body24.lean ====
/-
Stretch 24 of a device's kernel body: the two waits of group 3's second exchange, the sum of the sent-on 256 rows of its
landing into the accumulator, and their rounding into the first 256 rows of group 3's staging buffer.
-/
import proofs.«900882_g7700000000000883_dist_matmul_gelu_kshard_i_m2048_n2048_k1024_v7x_i8_f32_1_alg».proof.Proof.Rules
import proofs.«900882_g7700000000000883_dist_matmul_gelu_kshard_i_m2048_n2048_k1024_v7x_i8_f32_1_alg».proof.Proof.TopoTab
import proofs.«900882_g7700000000000883_dist_matmul_gelu_kshard_i_m2048_n2048_k1024_v7x_i8_f32_1_alg».proof.Proof.PiecesTab
import proofs.«900882_g7700000000000883_dist_matmul_gelu_kshard_i_m2048_n2048_k1024_v7x_i8_f32_1_alg».proof.Proof.Gen.KernelIdeal.Skeleton
import proofs.«900882_g7700000000000883_dist_matmul_gelu_kshard_i_m2048_n2048_k1024_v7x_i8_f32_1_alg».proof.Proof.TopoClosed
import Idealize.ShloMosaic.Lib.Pipeline.Value

set_option maxRecDepth 16384

noncomputable section

namespace Cert.KernelIdeal.Proto

open Cert.KernelIdeal Cert.KernelIdeal.Gen Cert.KernelIdeal.Topo
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : Vals F)

set_option maxHeartbeats 2000000 in
theorem part24_run (c : Dev nD) (κw κv : ℕ) (W : Waits sig Unit) (v2 v9 v412 v431 : BitVec 32)
    (f3 : Buf (Elt F) ((Memref.whole cc0_scratch0 : Memref sig .tc .vmem S2048x2048 .f32).view.loc (c : Thread nD τ))) :
    iprop(owes (c : Thread nD τ) (Owe c 18) W ∗ levAts L lv
        ∗ heldW c (Memref.whole cc0_scratch0 : Memref sig .tc .vmem S2048x2048 .f32) f3
        ∗ cellInv ER (sched V) κw (cell c (.rsS 3 1)) ∗ cred (tallyAt (cell c (.rsS 3 1)) () (amt (.rsS 3 1))) ∗ atPos ER (cell c (.rsS 3 1)) 0 ∅ 0
        ∗ cellInv ER (sched V) κv (cell c (.rsR 3 1)) ∗ cred (tallyAt (cell c (.rsR 3 1)) () (amt (.rsR 3 1))) ∗ atPos ER (cell c (.rsR 3 1)) 0 ∅ 0)
      ⊢ wp frame (wpE (defs₀ (F := F)) 𝒱₀ c none) Set.univ
          (k0_part24 (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23 c v2 v9 v412 v431)
          (fun r => iprop(⌜r = ⟨Scalar.addi v412 (Scalar.muli v9 256#32), ⟨Scalar.xori v2 4#32, 1#32⟩⟩⌝ ∗ (∃ (fl : Buf (Elt F) ((commM3_1 : Memref sig .tc .vmem S512x384 .bf16).view.loc (c : Thread nD τ))) (fs : Buf (Elt F) ((stgM3_1 : Memref sig .tc .vmem S512x384 .bf16).view.loc (c : Thread nD τ))), ⌜V.rs3_1 (nbr 1 c) ((commM3_1 : Memref sig .tc .vmem S512x384 .bf16).view.read (Elt F) fl)⌝
            ∗ heldW c (commM3_1 : Memref sig .tc .vmem S512x384 .bf16) fl
            ∗ owes (c : Thread nD τ) (Owe c 18) (insert ((CK.rsR 3 1).sem, ()) (insert ((CK.rsS 3 1).sem, ()) W))
            ∗ atPos ER (cell c (.rsS 3 1)) 1 ∅ 0 ∗ atPos ER (cell c (.rsR 3 1)) 1 ∅ 0
            ∗ heldW c (Memref.whole cc0_scratch0 : Memref sig .tc .vmem S2048x2048 .f32) ((Memref.whole cc0_scratch0 : Memref sig .tc .vmem S2048x2048 .f32).view.writes (Elt F) f3 [⟨Rect.unit (s := S2048x2048) (k0_off47 c) ![256, 384] (k0_off47_inb c), k0_pay48 (View.readAt (Elt F) (Memref.whole cc0_scratch0 : Memref sig .tc .vmem S2048x2048 .f32).view (Rect.unit (s := S2048x2048) (k0_off47 c) ![256, 384] (k0_off47_inb c)).toLoadRect f3) (View.readAt (Elt F) (Memref.whole cc0_scratch4 : Memref sig .tc .vmem S1792x384 .bf16).view (Rect.unit (s := S1792x384) (k0_off36 c) ![256, 384] (k0_off36_inb c)).toLoadRect fl)⟩])
            ∗ heldW c (stgM3_1 : Memref sig .tc .vmem S512x384 .bf16) (View.write (Elt F) ((Memref.whole cc0_scratch10 : Memref sig .tc .vmem S1024x384 .bf16).access (Rect.unit (s := S1024x384) ![0, 0] ![256, 384] inb_S1024x384_S256x384_0_0)) fs (k0_pay49 ((Memref.whole cc0_scratch0 : Memref sig .tc .vmem S2048x2048 .f32).view.readCov [⟨Rect.unit (s := S2048x2048) (k0_off47 c) ![256, 384] (k0_off47_inb c), k0_pay48 (View.readAt (Elt F) (Memref.whole cc0_scratch0 : Memref sig .tc .vmem S2048x2048 .f32).view (Rect.unit (s := S2048x2048) (k0_off47 c) ![256, 384] (k0_off47_inb c)).toLoadRect f3) (View.readAt (Elt F) (Memref.whole cc0_scratch4 : Memref sig .tc .vmem S1792x384 .bf16).view (Rect.unit (s := S1792x384) (k0_off36 c) ![256, 384] (k0_off36_inb c)).toLoadRect fl)⟩] (Rect.unit (s := S2048x2048) (k0_off47 c) ![256, 384] (k0_off47_inb c)).toLoadRect)) Finset.univ)))) := by
  simp only [k0_part24_eq_skeleton]; unfold k0_part24_skel
  simp only [Prog.lift, Prog.bind_op, Prog.bind_ret, Prog.pure_eq_ret]
  iintro ⟨HO, #Hlev, Hacc, #HIw, Hcw, Hatw, #HIv, Hcv, Hatv⟩
  unfold heldW
  iapply (wp_wait_xfer V c (.rsS 3 1) (by decide) 18 (rsS_sem_eq 3 1 _)
      (show (stgM3_1 : Memref sig .tc .vmem S512x384 .bf16).view.dmaCredit = amt (.rsS 3 1) from rfl)
      (wpE_waitDma2_eq 𝒱₀ (c : Thread nD τ) none Set.univ)
      (mayWait_own c (.rsS 3 1) (lv_cell c _) 18) κw W) $$ [Hcw HO Hatw]
  · isplitr; · iexact HIw
    isplitl [Hcw]; · iexact Hcw
    isplitl [HO]; · iexact HO
    isplitr; · iexact Hlev
    iexact Hatw
  iintro ⟨HO, Hatw, Hpay1⟩
  iapply (wp_wait_xfer V c (.rsR 3 1) (by decide) 18 (rsR_sem_eq 3 1 _)
      (show (commM3_1 : Memref sig .tc .vmem S512x384 .bf16).view.dmaCredit = amt (.rsR 3 1) from rfl)
      (wpE_waitDma2_eq 𝒱₀ (c : Thread nD τ) none Set.univ)
      (mayWait_rsR c 3 1 18 (by decide)) κv (insert ((CK.rsS 3 1).sem, ()) W)) $$ [Hcv HO Hatv]
  · isplitr; · iexact HIv
    isplitl [Hcv]; · iexact Hcv
    isplitl [HO]; · iexact HO
    isplitr; · iexact Hlev
    iexact Hatv
  iintro ⟨HO, Hatv, Hpay2⟩
  ihave Hp1 := (Entails.of_eq (show pay V c (CK.rsS 3 1) 0 = ptsAny (F := F) c stgM3_1 from rfl)) $$ Hpay1
  ihave Hp2 := (Entails.of_eq (show pay V c (CK.rsR 3 1) 0 = ptsIs c commM3_1 (V.rs3_1 (nbr 1 c)) from rfl)) $$ Hpay2
  unfold ptsAny
  icases Hp1 with ⟨%fs, Hstg⟩
  unfold ptsIs
  icases Hp2 with ⟨%fl, Hland, %hX⟩
  have hinc1 : ((Memref.whole cc0_scratch4 : Memref sig .tc .vmem S1792x384 .bf16).access (Rect.unit (s := S1792x384) (k0_off36 c) ![256, 384] (k0_off36_inb c))).set
      ⊆ (commM3_1 : Memref sig .tc .vmem S512x384 .bf16).view.set := by
    rw [View.set_slice_whole, View.set_slice_whole]
    refine unit_subset ?_
    piece_arith c [off36_eq]
  have hinc3 : ((Memref.whole cc0_scratch10 : Memref sig .tc .vmem S1024x384 .bf16).access (Rect.unit (s := S1024x384) ![0, 0] ![256, 384] inb_S1024x384_S256x384_0_0)).set
      ⊆ (stgM3_1 : Memref sig .tc .vmem S512x384 .bf16).view.set := by
    rw [View.set_slice_whole, View.set_slice_whole]
    exact unit_subset (by decide)
  have hinc4 : ((Memref.whole cc0_scratch10 : Memref sig .tc .vmem S1024x384 .bf16).access (Rect.unit (s := S1024x384) ![0, 0] ![256, 384] inb_S1024x384_S256x384_0_0)).setOn Finset.univ
      ⊆ (stgM3_1 : Memref sig .tc .vmem S512x384 .bf16).view.set := by
    rw [View.setOn_univ]
    rw [View.set_slice_whole, View.set_slice_whole]
    exact unit_subset (by decide)
  sl_exec
  sl_step
  isplitr; · ipureintro; rfl
  iexists fl, fs
  isplitr; · ipureintro; exact hX
  isplitl [Hland]; · iexact Hland
  isplitl [HO]; · iexact HO
  isplitl [Hatw]; · iexact Hatw
  isplitl [Hatv]; · iexact Hatv
  isplitl [Hacc]; · iexact Hacc
  iexact Hstg

end Cert.KernelIdeal.Proto

end
-- ==== Proof.Body25.lean ====
/-
Stretch 25 of a device's kernel body: group 3's third reduce-scatter send (the first 256 rows of its staging buffer to the
neighbour across axis 2), the sum of the kept 256 rows of its second landing into the accumulator, and the wait for
group 4's second send to leave its staging rows.
-/
import proofs.«900882_g7700000000000883_dist_matmul_gelu_kshard_i_m2048_n2048_k1024_v7x_i8_f32_1_alg».proof.Proof.Rules
import proofs.«900882_g7700000000000883_dist_matmul_gelu_kshard_i_m2048_n2048_k1024_v7x_i8_f32_1_alg».proof.Proof.TopoTab
import proofs.«900882_g7700000000000883_dist_matmul_gelu_kshard_i_m2048_n2048_k1024_v7x_i8_f32_1_alg».proof.Proof.PiecesTab
import proofs.«900882_g7700000000000883_dist_matmul_gelu_kshard_i_m2048_n2048_k1024_v7x_i8_f32_1_alg».proof.Proof.Gen.KernelIdeal.Skeleton
import proofs.«900882_g7700000000000883_dist_matmul_gelu_kshard_i_m2048_n2048_k1024_v7x_i8_f32_1_alg».proof.Proof.TopoClosed
import Idealize.ShloMosaic.Lib.Pipeline.Value

set_option maxRecDepth 16384

noncomputable section

namespace Cert.KernelIdeal.Proto

open Cert.KernelIdeal Cert.KernelIdeal.Gen Cert.KernelIdeal.Topo
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : Vals F)

set_option maxHeartbeats 2000000 in
theorem part25_run (c : Dev nD) (κs κr κw : ℕ) (W : Waits sig Unit) (v412 v485 v736 v755 c1_i32_583 : BitVec 32)
    (f3 : Buf (Elt F) ((Memref.whole cc0_scratch0 : Memref sig .tc .vmem S2048x2048 .f32).view.loc (c : Thread nD τ)))
    (f13 : Buf (Elt F) ((stgM3_1 : Memref sig .tc .vmem S512x384 .bf16).view.loc (c : Thread nD τ)))
    (fl : Buf (Elt F) ((commM3_1 : Memref sig .tc .vmem S512x384 .bf16).view.loc (c : Thread nD τ)))
    (hV : V.rs3_2 c ((stgM3_2 : Memref sig .tc .vmem S256x384 .bf16).view.read (Elt F) f13)) :
    iprop(cellInv ER (sched V) κs (cell c (.rsS 3 2)) ∗ cellInv ER (sched V) κr (cell (nbr 2 c) (.rsR 3 2))
        ∗ reached ER (cell c (.rsS 3 2)) 0 ∗ reached ER (cell (nbr 2 c) (.rsR 3 2)) 0
        ∗ dutyTok ER (cell c (.rsS 3 2)) 0 (0 : Fin 3) ∗ dutyTok ER (cell (nbr 2 c) (.rsR 3 2)) 0 (0 : Fin 3)
        ∗ ptsAny (F := F) (nbr 2 c) commM3_2
        ∗ owes (c : Thread nD τ) (Owe c 18) W
        ∗ heldW c (stgM3_1 : Memref sig .tc .vmem S512x384 .bf16) f13
        ∗ heldW c (Memref.whole cc0_scratch0 : Memref sig .tc .vmem S2048x2048 .f32) f3
        ∗ heldW c (commM3_1 : Memref sig .tc .vmem S512x384 .bf16) fl
        ∗ levAts L lv
        ∗ cellInv ER (sched V) κw (cell c (.rsS 4 1)) ∗ cred (tallyAt (cell c (.rsS 4 1)) () (amt (.rsS 4 1))) ∗ atPos ER (cell c (.rsS 4 1)) 0 ∅ 0)
      ⊢ wp frame (wpE (defs₀ (F := F)) 𝒱₀ c none) Set.univ
          (k0_part25 (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23 c v412 v485 v736 v755 c1_i32_583)
          (fun r => iprop(⌜r = ⟨⟩⌝ ∗ cred (tallyAt (cell c (.rsS 3 2)) () (amt (.rsR 3 2)))
            ∗ owes (c : Thread nD τ) (Owe c 19) (insert ((CK.rsS 4 1).sem, ()) W)
            ∗ heldW c (Memref.whole cc0_scratch0 : Memref sig .tc .vmem S2048x2048 .f32) ((Memref.whole cc0_scratch0 : Memref sig .tc .vmem S2048x2048 .f32).view.writes (Elt F) f3 [⟨Rect.unit (s := S2048x2048) (k0_off48 c) ![256, 384] (k0_off48_inb c), k0_pay50 (View.readAt (Elt F) (Memref.whole cc0_scratch0 : Memref sig .tc .vmem S2048x2048 .f32).view (Rect.unit (s := S2048x2048) (k0_off48 c) ![256, 384] (k0_off48_inb c)).toLoadRect f3) (View.readAt (Elt F) (Memref.whole cc0_scratch4 : Memref sig .tc .vmem S1792x384 .bf16).view (Rect.unit (s := S1792x384) (k0_off38 c) ![256, 384] (k0_off38_inb c)).toLoadRect fl)⟩])
            ∗ heldW c (commM3_1 : Memref sig .tc .vmem S512x384 .bf16) fl
            ∗ ((stgM3_1 : Memref sig .tc .vmem S512x384 .bf16).view.loc (c : Thread nD τ) ↦[(stgM3_1 : Memref sig .tc .vmem S512x384 .bf16).view.set \ (stgM3_2 : Memref sig .tc .vmem S256x384 .bf16).view.set]{fullShare} f13)
            ∗ atPos ER (cell c (.rsS 4 1)) 1 ∅ 0
            ∗ ptsAny (F := F) c stgM4_1)) := by
  simp only [k0_part25_eq_skeleton]; unfold k0_part25_skel
  simp only [Prog.lift, Prog.bind_op, Prog.bind_ret, Prog.pure_eq_ret]
  iintro ⟨#HIs, #HIr, #Hrs, #Hrr, Hts, Htr, Hdst, HO, Hstg, Hacc, Hland, #Hlev, #HIw, Hcw, Hatw⟩
  unfold heldW
  unfold ptsAny
  icases Hdst with ⟨%fd, Hdst⟩
  -- the rows that came back are cut into the 256 rows sent now and the rest
  ihave Hs := (Entails.of_eq (pts_set_eq (F := F) (ℓ := (stgM3_1 : Memref sig .tc .vmem S512x384 .bf16).view.loc (c : Thread nD τ))
      (S' := (stgM3_2 : Memref sig .tc .vmem S256x384 .bf16).view.set ∪ ((stgM3_1 : Memref sig .tc .vmem S512x384 .bf16).view.set \ (stgM3_2 : Memref sig .tc .vmem S256x384 .bf16).view.set)) (Finset.union_sdiff_of_subset stg_sub2_3).symm)) $$ Hstg
  ihave Hs2 := (pts_union (F := F) Finset.disjoint_sdiff).1 $$ Hs
  icases Hs2 with ⟨Hsrc, Hrem⟩
  iapply (wp_send_to V c ⟨k0_dev19 c, k0_dev19_lt c⟩ 2 (dev19_eq c) (.rsS 3 2) (.rsR 3 2) (by decide) (by decide) 18 (by decide) (paid_rs c 3 2) rfl
      (src := stgM3_2) (dst := commM3_2) (rsS_sem_eq 3 2 _) (rsR_sem_eq 3 2 _) rfl fd κs κr W
      (ptsAny_intro c stgM3_2 _)
      (ptsIs_intro (nbr 2 c) commM3_2 _ _ (by rw [View.read_write_univ, nbr_nbr]; exact hV))) $$ [Hsrc Hdst HO Hts Htr]
  · isplitr; · iexact HIs
    isplitr; · iexact HIr
    isplitl [Hsrc]; · iexact Hsrc
    isplitl [Hdst]; · iexact Hdst
    isplitl [HO]; · iexact HO
    isplitl [Hts]; · iexact Hts
    isplitr; · iexact Hrs
    isplitl [Htr]; · iexact Htr
    iexact Hrr
  iintro ⟨Hcs, HO⟩
  have hinc1 : ((Memref.whole cc0_scratch4 : Memref sig .tc .vmem S1792x384 .bf16).access (Rect.unit (s := S1792x384) (k0_off38 c) ![256, 384] (k0_off38_inb c))).set
      ⊆ (commM3_1 : Memref sig .tc .vmem S512x384 .bf16).view.set := by
    rw [View.set_slice_whole, View.set_slice_whole]
    refine unit_subset ?_
    piece_arith c [off38_eq]
  sl_exec
  iapply (wp_wait_xfer V c (.rsS 4 1) (by decide) 19 (rsS_sem_eq 4 1 _)
      (show (stgM4_1 : Memref sig .tc .vmem S512x256 .bf16).view.dmaCredit = amt (.rsS 4 1) from rfl)
      (wpE_waitDma2_eq 𝒱₀ (c : Thread nD τ) none Set.univ)
      (mayWait_own c (.rsS 4 1) (lv_cell c _) 19) κw W) $$ [Hcw HO Hatw]
  · isplitr; · iexact HIw
    isplitl [Hcw]; · iexact Hcw
    isplitl [HO]; · iexact HO
    isplitr; · iexact Hlev
    iexact Hatw
  iintro ⟨HO, Hatw, Hpay1⟩
  ihave Hp1 := (Entails.of_eq (show pay V c (CK.rsS 4 1) 0 = ptsAny (F := F) c stgM4_1 from rfl)) $$ Hpay1
  sl_step
  isplitr; · ipureintro; trivial
  unfold ptsAny
  isplitl [Hcs]; · iexact Hcs
  isplitl [HO]; · iexact HO
  isplitl [Hacc]; · iexact Hacc
  isplitl [Hland]; · iexact Hland
  isplitl [Hrem]; · iexact Hrem
  isplitl [Hatw]; · iexact Hatw
  iexact Hp1

end Cert.KernelIdeal.Proto

end
-- ==== Proof.Body26.lean ====
/-
Stretch 26 of a device's kernel body: the wait for group 4's second landing, the sum of its sent-on 256 rows into the
accumulator, their rounding into the first 256 rows of group 4's staging buffer, and group 4's third reduce-scatter send
(those rows to the neighbour across axis 0).
-/
import proofs.«900882_g7700000000000883_dist_matmul_gelu_kshard_i_m2048_n2048_k1024_v7x_i8_f32_1_alg».proof.Proof.Rules
import proofs.«900882_g7700000000000883_dist_matmul_gelu_kshard_i_m2048_n2048_k1024_v7x_i8_f32_1_alg».proof.Proof.TopoTab
import proofs.«900882_g7700000000000883_dist_matmul_gelu_kshard_i_m2048_n2048_k1024_v7x_i8_f32_1_alg».proof.Proof.PiecesTab
import proofs.«900882_g7700000000000883_dist_matmul_gelu_kshard_i_m2048_n2048_k1024_v7x_i8_f32_1_alg».proof.Proof.Gen.KernelIdeal.Skeleton
import proofs.«900882_g7700000000000883_dist_matmul_gelu_kshard_i_m2048_n2048_k1024_v7x_i8_f32_1_alg».proof.Proof.TopoClosed
import Idealize.ShloMosaic.Lib.Pipeline.Value

set_option maxRecDepth 16384

noncomputable section

namespace Cert.KernelIdeal.Proto

open Cert.KernelIdeal Cert.KernelIdeal.Gen Cert.KernelIdeal.Topo
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : Vals F)

set_option maxHeartbeats 2000000 in
theorem part26_run (c : Dev nD) (κv κs κr : ℕ) (W : Waits sig Unit) (v2 v6 v466 : BitVec 32)
    (f3 : Buf (Elt F) ((Memref.whole cc0_scratch0 : Memref sig .tc .vmem S2048x2048 .f32).view.loc (c : Thread nD τ)))
    (f14 : Buf (Elt F) ((stgM4_1 : Memref sig .tc .vmem S512x256 .bf16).view.loc (c : Thread nD τ)))
    (hV : ∀ fl : Buf (Elt F) ((commM4_1 : Memref sig .tc .vmem S512x256 .bf16).view.loc (c : Thread nD τ)), V.rs4_1 (nbr 2 c) ((commM4_1 : Memref sig .tc .vmem S512x256 .bf16).view.read (Elt F) fl) →
        V.rs4_2 c ((stgM4_2 : Memref sig .tc .vmem S256x256 .bf16).view.read (Elt F) (View.write (Elt F) ((Memref.whole cc0_scratch11 : Memref sig .tc .vmem S1024x256 .bf16).access (Rect.unit (s := S1024x256) ![0, 0] ![256, 256] inb_S1024x256_S256x256_0_0)) f14 (k0_pay52 ((Memref.whole cc0_scratch0 : Memref sig .tc .vmem S2048x2048 .f32).view.readCov [⟨Rect.unit (s := S2048x2048) (k0_off49 c) ![256, 256] (k0_off49_inb c), k0_pay51 (View.readAt (Elt F) (Memref.whole cc0_scratch0 : Memref sig .tc .vmem S2048x2048 .f32).view (Rect.unit (s := S2048x2048) (k0_off49 c) ![256, 256] (k0_off49_inb c)).toLoadRect f3) (View.readAt (Elt F) (Memref.whole cc0_scratch5 : Memref sig .tc .vmem S1792x256 .bf16).view (Rect.unit (s := S1792x256) (k0_off50 c) ![256, 256] (k0_off50_inb c)).toLoadRect fl)⟩] (Rect.unit (s := S2048x2048) (k0_off49 c) ![256, 256] (k0_off49_inb c)).toLoadRect)) Finset.univ))) :
    iprop(owes (c : Thread nD τ) (Owe c 19) W ∗ levAts L lv
        ∗ cellInv ER (sched V) κv (cell c (.rsR 4 1)) ∗ cred (tallyAt (cell c (.rsR 4 1)) () (amt (.rsR 4 1))) ∗ atPos ER (cell c (.rsR 4 1)) 0 ∅ 0
        ∗ heldW c (Memref.whole cc0_scratch0 : Memref sig .tc .vmem S2048x2048 .f32) f3
        ∗ heldW c (stgM4_1 : Memref sig .tc .vmem S512x256 .bf16) f14
        ∗ cellInv ER (sched V) κs (cell c (.rsS 4 2)) ∗ cellInv ER (sched V) κr (cell (nbr 0 c) (.rsR 4 2))
        ∗ reached ER (cell c (.rsS 4 2)) 0 ∗ reached ER (cell (nbr 0 c) (.rsR 4 2)) 0
        ∗ dutyTok ER (cell c (.rsS 4 2)) 0 (0 : Fin 3) ∗ dutyTok ER (cell (nbr 0 c) (.rsR 4 2)) 0 (0 : Fin 3)
        ∗ ptsAny (F := F) (nbr 0 c) commM4_2)
      ⊢ wp frame (wpE (defs₀ (F := F)) 𝒱₀ c none) Set.univ
          (k0_part26 (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23 c v2 v6 v466)
          (fun r => iprop(⌜r = ⟨Scalar.addi v466 (Scalar.muli v6 256#32), Scalar.xori v2 1#32⟩⌝ ∗ (∃ fl : Buf (Elt F) ((commM4_1 : Memref sig .tc .vmem S512x256 .bf16).view.loc (c : Thread nD τ)), ⌜V.rs4_1 (nbr 2 c) ((commM4_1 : Memref sig .tc .vmem S512x256 .bf16).view.read (Elt F) fl)⌝
            ∗ heldW c (commM4_1 : Memref sig .tc .vmem S512x256 .bf16) fl
            ∗ cred (tallyAt (cell c (.rsS 4 2)) () (amt (.rsR 4 2)))
            ∗ owes (c : Thread nD τ) (Owe c 20) (insert ((CK.rsR 4 1).sem, ()) W)
            ∗ atPos ER (cell c (.rsR 4 1)) 1 ∅ 0
            ∗ heldW c (Memref.whole cc0_scratch0 : Memref sig .tc .vmem S2048x2048 .f32) ((Memref.whole cc0_scratch0 : Memref sig .tc .vmem S2048x2048 .f32).view.writes (Elt F) f3 [⟨Rect.unit (s := S2048x2048) (k0_off49 c) ![256, 256] (k0_off49_inb c), k0_pay51 (View.readAt (Elt F) (Memref.whole cc0_scratch0 : Memref sig .tc .vmem S2048x2048 .f32).view (Rect.unit (s := S2048x2048) (k0_off49 c) ![256, 256] (k0_off49_inb c)).toLoadRect f3) (View.readAt (Elt F) (Memref.whole cc0_scratch5 : Memref sig .tc .vmem S1792x256 .bf16).view (Rect.unit (s := S1792x256) (k0_off50 c) ![256, 256] (k0_off50_inb c)).toLoadRect fl)⟩])
            ∗ ((stgM4_1 : Memref sig .tc .vmem S512x256 .bf16).view.loc (c : Thread nD τ) ↦[(stgM4_1 : Memref sig .tc .vmem S512x256 .bf16).view.set \ (stgM4_2 : Memref sig .tc .vmem S256x256 .bf16).view.set]{fullShare} (View.write (Elt F) ((Memref.whole cc0_scratch11 : Memref sig .tc .vmem S1024x256 .bf16).access (Rect.unit (s := S1024x256) ![0, 0] ![256, 256] inb_S1024x256_S256x256_0_0)) f14 (k0_pay52 ((Memref.whole cc0_scratch0 : Memref sig .tc .vmem S2048x2048 .f32).view.readCov [⟨Rect.unit (s := S2048x2048) (k0_off49 c) ![256, 256] (k0_off49_inb c), k0_pay51 (View.readAt (Elt F) (Memref.whole cc0_scratch0 : Memref sig .tc .vmem S2048x2048 .f32).view (Rect.unit (s := S2048x2048) (k0_off49 c) ![256, 256] (k0_off49_inb c)).toLoadRect f3) (View.readAt (Elt F) (Memref.whole cc0_scratch5 : Memref sig .tc .vmem S1792x256 .bf16).view (Rect.unit (s := S1792x256) (k0_off50 c) ![256, 256] (k0_off50_inb c)).toLoadRect fl)⟩] (Rect.unit (s := S2048x2048) (k0_off49 c) ![256, 256] (k0_off49_inb c)).toLoadRect)) Finset.univ))))) := by
  simp only [k0_part26_eq_skeleton]; unfold k0_part26_skel
  simp only [Prog.lift, Prog.bind_op, Prog.bind_ret, Prog.pure_eq_ret]
  iintro ⟨HO, #Hlev, #HIv, Hcv, Hatv, Hacc, Hstg, #HIs, #HIr, #Hrs, #Hrr, Hts, Htr, Hdst⟩
  unfold heldW
  unfold ptsAny
  icases Hdst with ⟨%fd, Hdst⟩
  iapply (wp_wait_xfer V c (.rsR 4 1) (by decide) 19 (rsR_sem_eq 4 1 _)
      (show (commM4_1 : Memref sig .tc .vmem S512x256 .bf16).view.dmaCredit = amt (.rsR 4 1) from rfl)
      (wpE_waitDma2_eq 𝒱₀ (c : Thread nD τ) none Set.univ)
      (mayWait_rsR c 4 1 19 (by decide)) κv W) $$ [Hcv HO Hatv]
  · isplitr; · iexact HIv
    isplitl [Hcv]; · iexact Hcv
    isplitl [HO]; · iexact HO
    isplitr; · iexact Hlev
    iexact Hatv
  iintro ⟨HO, Hatv, Hpay2⟩
  ihave Hp2 := (Entails.of_eq (show pay V c (CK.rsR 4 1) 0 = ptsIs c commM4_1 (V.rs4_1 (nbr 2 c)) from rfl)) $$ Hpay2
  unfold ptsIs
  icases Hp2 with ⟨%fl, Hland, %hX⟩
  have hinc1 : ((Memref.whole cc0_scratch5 : Memref sig .tc .vmem S1792x256 .bf16).access (Rect.unit (s := S1792x256) (k0_off50 c) ![256, 256] (k0_off50_inb c))).set
      ⊆ (commM4_1 : Memref sig .tc .vmem S512x256 .bf16).view.set := by
    rw [View.set_slice_whole, View.set_slice_whole]
    refine unit_subset ?_
    piece_arith c [off50_eq]
  have hinc3 : ((Memref.whole cc0_scratch11 : Memref sig .tc .vmem S1024x256 .bf16).access (Rect.unit (s := S1024x256) ![0, 0] ![256, 256] inb_S1024x256_S256x256_0_0)).set
      ⊆ (stgM4_1 : Memref sig .tc .vmem S512x256 .bf16).view.set := by
    rw [View.set_slice_whole, View.set_slice_whole]
    exact unit_subset (by decide)
  have hinc4 : ((Memref.whole cc0_scratch11 : Memref sig .tc .vmem S1024x256 .bf16).access (Rect.unit (s := S1024x256) ![0, 0] ![256, 256] inb_S1024x256_S256x256_0_0)).setOn Finset.univ
      ⊆ (stgM4_1 : Memref sig .tc .vmem S512x256 .bf16).view.set := by
    rw [View.setOn_univ]
    rw [View.set_slice_whole, View.set_slice_whole]
    exact unit_subset (by decide)
  sl_exec
  -- the rows that came back are cut into the 256 rows sent now and the rest
  ihave Hs := (Entails.of_eq (pts_set_eq (F := F) (ℓ := (stgM4_1 : Memref sig .tc .vmem S512x256 .bf16).view.loc (c : Thread nD τ))
      (S' := (stgM4_2 : Memref sig .tc .vmem S256x256 .bf16).view.set ∪ ((stgM4_1 : Memref sig .tc .vmem S512x256 .bf16).view.set \ (stgM4_2 : Memref sig .tc .vmem S256x256 .bf16).view.set)) (Finset.union_sdiff_of_subset stg_sub2_4).symm)) $$ Hstg
  ihave Hs2 := (pts_union (F := F) Finset.disjoint_sdiff).1 $$ Hs
  icases Hs2 with ⟨Hsrc, Hrem⟩
  iapply (wp_send_to V c ⟨k0_dev20 c, k0_dev20_lt c⟩ 0 (dev20_eq c) (.rsS 4 2) (.rsR 4 2) (by decide) (by decide) 19 (by decide) (paid_rs c 4 2) rfl
      (src := stgM4_2) (dst := commM4_2) (rsS_sem_eq 4 2 _) (rsR_sem_eq 4 2 _) rfl fd κs κr (insert ((CK.rsR 4 1).sem, ()) W)
      (ptsAny_intro c stgM4_2 _)
      (ptsIs_intro (nbr 0 c) commM4_2 _ _ (by rw [View.read_write_univ, nbr_nbr]; exact (hV fl hX)))) $$ [Hsrc Hdst HO Hts Htr]
  · isplitr; · iexact HIs
    isplitr; · iexact HIr
    isplitl [Hsrc]; · iexact Hsrc
    isplitl [Hdst]; · iexact Hdst
    isplitl [HO]; · iexact HO
    isplitl [Hts]; · iexact Hts
    isplitr; · iexact Hrs
    isplitl [Htr]; · iexact Htr
    iexact Hrr
  iintro ⟨Hcs, HO⟩
  sl_step
  isplitr; · ipureintro; rfl
  iexists fl
  isplitr; · ipureintro; exact hX
  isplitl [Hland]; · iexact Hland
  isplitl [Hcs]; · iexact Hcs
  isplitl [HO]; · iexact HO
  isplitl [Hatv]; · iexact Hatv
  isplitl [Hacc]; · iexact Hacc
  iexact Hrem

end Cert.KernelIdeal.Proto

end
-- ==== Proof.Body27.lean ====
/-
Stretch 27 of a device's kernel body: the sum of the kept 256 rows of group 4's second landing into the accumulator, the
two waits of group 5's second exchange, and the load of the accumulator rows its landing is added to.
-/
import proofs.«900882_g7700000000000883_dist_matmul_gelu_kshard_i_m2048_n2048_k1024_v7x_i8_f32_1_alg».proof.Proof.Rules
import proofs.«900882_g7700000000000883_dist_matmul_gelu_kshard_i_m2048_n2048_k1024_v7x_i8_f32_1_alg».proof.Proof.TopoTab
import proofs.«900882_g7700000000000883_dist_matmul_gelu_kshard_i_m2048_n2048_k1024_v7x_i8_f32_1_alg».proof.Proof.PiecesTab
import proofs.«900882_g7700000000000883_dist_matmul_gelu_kshard_i_m2048_n2048_k1024_v7x_i8_f32_1_alg».proof.Proof.Gen.KernelIdeal.Skeleton
import proofs.«900882_g7700000000000883_dist_matmul_gelu_kshard_i_m2048_n2048_k1024_v7x_i8_f32_1_alg».proof.Proof.TopoClosed
import Idealize.ShloMosaic.Lib.Pipeline.Value

set_option maxRecDepth 16384

noncomputable section

namespace Cert.KernelIdeal.Proto

open Cert.KernelIdeal Cert.KernelIdeal.Gen Cert.KernelIdeal.Topo
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : Vals F)

set_option maxHeartbeats 2000000 in
theorem part27_run (c : Dev nD) (κw κv : ℕ) (W : Waits sig Unit) (v8 v466 v520 v539 v790 : BitVec 32)
    (f3 : Buf (Elt F) ((Memref.whole cc0_scratch0 : Memref sig .tc .vmem S2048x2048 .f32).view.loc (c : Thread nD τ)))
    (fl : Buf (Elt F) ((commM4_1 : Memref sig .tc .vmem S512x256 .bf16).view.loc (c : Thread nD τ))) :
    iprop(owes (c : Thread nD τ) (Owe c 20) W ∗ levAts L lv
        ∗ heldW c (Memref.whole cc0_scratch0 : Memref sig .tc .vmem S2048x2048 .f32) f3
        ∗ heldW c (commM4_1 : Memref sig .tc .vmem S512x256 .bf16) fl
        ∗ cellInv ER (sched V) κw (cell c (.rsS 5 1)) ∗ cred (tallyAt (cell c (.rsS 5 1)) () (amt (.rsS 5 1))) ∗ atPos ER (cell c (.rsS 5 1)) 0 ∅ 0
        ∗ cellInv ER (sched V) κv (cell c (.rsR 5 1)) ∗ cred (tallyAt (cell c (.rsR 5 1)) () (amt (.rsR 5 1))) ∗ atPos ER (cell c (.rsR 5 1)) 0 ∅ 0)
      ⊢ wp frame (wpE (defs₀ (F := F)) 𝒱₀ c none) Set.univ
          (k0_part27 (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23 c v8 v466 v520 v539 v790)
          (fun r => iprop(⌜r = ⟨Scalar.addi v520 (Scalar.muli (Scalar.subi (1#32) v8) 256#32), ⟨Scalar.addi v520 (Scalar.muli v8 256#32), ⟨View.readAt (Elt F) (Memref.whole cc0_scratch0 : Memref sig .tc .vmem S2048x2048 .f32).view (Rect.unit (s := S2048x2048) (k0_off53 c) ![256, 256] (k0_off53_inb c)).toLoadRect f3, Scalar.addi (1024#32) (Scalar.subi (Scalar.addi v520 (Scalar.muli (Scalar.subi (1#32) v8) 256#32)) v520)⟩⟩⟩⌝ ∗ owes (c : Thread nD τ) (Owe c 20) (insert ((CK.rsR 5 1).sem, ()) (insert ((CK.rsS 5 1).sem, ()) W))
            ∗ heldW c (Memref.whole cc0_scratch0 : Memref sig .tc .vmem S2048x2048 .f32) ((Memref.whole cc0_scratch0 : Memref sig .tc .vmem S2048x2048 .f32).view.writes (Elt F) f3 [⟨Rect.unit (s := S2048x2048) (k0_off51 c) ![256, 256] (k0_off51_inb c), k0_pay53 (View.readAt (Elt F) (Memref.whole cc0_scratch0 : Memref sig .tc .vmem S2048x2048 .f32).view (Rect.unit (s := S2048x2048) (k0_off51 c) ![256, 256] (k0_off51_inb c)).toLoadRect f3) (View.readAt (Elt F) (Memref.whole cc0_scratch5 : Memref sig .tc .vmem S1792x256 .bf16).view (Rect.unit (s := S1792x256) (k0_off52 c) ![256, 256] (k0_off52_inb c)).toLoadRect fl)⟩])
            ∗ heldW c (commM4_1 : Memref sig .tc .vmem S512x256 .bf16) fl
            ∗ atPos ER (cell c (.rsS 5 1)) 1 ∅ 0 ∗ atPos ER (cell c (.rsR 5 1)) 1 ∅ 0
            ∗ ptsAny (F := F) c stgM5_1 ∗ ptsIs c commM5_1 (V.rs5_1 (nbr 0 c)))) := by
  simp only [k0_part27_eq_skeleton]; unfold k0_part27_skel
  simp only [Prog.lift, Prog.bind_op, Prog.bind_ret, Prog.pure_eq_ret]
  iintro ⟨HO, #Hlev, Hacc, Hland, #HIw, Hcw, Hatw, #HIv, Hcv, Hatv⟩
  unfold heldW
  have hinc1 : ((Memref.whole cc0_scratch5 : Memref sig .tc .vmem S1792x256 .bf16).access (Rect.unit (s := S1792x256) (k0_off52 c) ![256, 256] (k0_off52_inb c))).set
      ⊆ (commM4_1 : Memref sig .tc .vmem S512x256 .bf16).view.set := by
    rw [View.set_slice_whole, View.set_slice_whole]
    refine unit_subset ?_
    piece_arith c [off52_eq]
  sl_exec
  iapply (wp_wait_xfer V c (.rsS 5 1) (by decide) 20 (rsS_sem_eq 5 1 _)
      (show (stgM5_1 : Memref sig .tc .vmem S512x256 .bf16).view.dmaCredit = amt (.rsS 5 1) from rfl)
      (wpE_waitDma2_eq 𝒱₀ (c : Thread nD τ) none Set.univ)
      (mayWait_own c (.rsS 5 1) (lv_cell c _) 20) κw W) $$ [Hcw HO Hatw]
  · isplitr; · iexact HIw
    isplitl [Hcw]; · iexact Hcw
    isplitl [HO]; · iexact HO
    isplitr; · iexact Hlev
    iexact Hatw
  iintro ⟨HO, Hatw, Hpay1⟩
  iapply (wp_wait_xfer V c (.rsR 5 1) (by decide) 20 (rsR_sem_eq 5 1 _)
      (show (commM5_1 : Memref sig .tc .vmem S512x256 .bf16).view.dmaCredit = amt (.rsR 5 1) from rfl)
      (wpE_waitDma2_eq 𝒱₀ (c : Thread nD τ) none Set.univ)
      (mayWait_rsR c 5 1 20 (by decide)) κv (insert ((CK.rsS 5 1).sem, ()) W)) $$ [Hcv HO Hatv]
  · isplitr; · iexact HIv
    isplitl [Hcv]; · iexact Hcv
    isplitl [HO]; · iexact HO
    isplitr; · iexact Hlev
    iexact Hatv
  iintro ⟨HO, Hatv, Hpay2⟩
  ihave Hp1 := (Entails.of_eq (show pay V c (CK.rsS 5 1) 0 = ptsAny (F := F) c stgM5_1 from rfl)) $$ Hpay1
  ihave Hp2 := (Entails.of_eq (show pay V c (CK.rsR 5 1) 0 = ptsIs c commM5_1 (V.rs5_1 (nbr 0 c)) from rfl)) $$ Hpay2
  sl_exec
  sl_step
  isplitr; · ipureintro; rfl
  isplitl [HO]; · iexact HO
  isplitl [Hacc]; · iexact Hacc
  isplitl [Hland]; · iexact Hland
  isplitl [Hatw]; · iexact Hatw
  isplitl [Hatv]; · iexact Hatv
  isplitl [Hp1]; · iexact Hp1
  iexact Hp2

end Cert.KernelIdeal.Proto

end
-- ==== Proof.Body28.lean ====
/-
Stretch 28 of a device's kernel body: the sum of the sent-on 256 rows of group 5's second landing into the accumulator,
their rounding into the first 256 rows of group 5's staging buffer, group 5's third reduce-scatter send (those rows to the
neighbour across axis 1), and the sum of the kept 256 rows into the accumulator.
-/
import proofs.«900882_g7700000000000883_dist_matmul_gelu_kshard_i_m2048_n2048_k1024_v7x_i8_f32_1_alg».proof.Proof.Rules
import proofs.«900882_g7700000000000883_dist_matmul_gelu_kshard_i_m2048_n2048_k1024_v7x_i8_f32_1_alg».proof.Proof.TopoTab
import proofs.«900882_g7700000000000883_dist_matmul_gelu_kshard_i_m2048_n2048_k1024_v7x_i8_f32_1_alg».proof.Proof.PiecesTab
import proofs.«900882_g7700000000000883_dist_matmul_gelu_kshard_i_m2048_n2048_k1024_v7x_i8_f32_1_alg».proof.Proof.Gen.KernelIdeal.Skeleton
import proofs.«900882_g7700000000000883_dist_matmul_gelu_kshard_i_m2048_n2048_k1024_v7x_i8_f32_1_alg».proof.Proof.TopoClosed
import Idealize.ShloMosaic.Lib.Pipeline.Value

set_option maxRecDepth 16384

noncomputable section

namespace Cert.KernelIdeal.Proto

open Cert.KernelIdeal Cert.KernelIdeal.Gen Cert.KernelIdeal.Topo
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : Vals F)

set_option maxHeartbeats 2000000 in
theorem part28_run (c : Dev nD) (κs κr : ℕ) (W : Waits sig Unit) (v2 v520 v842 v844 : BitVec 32) (v846 : Vec F S256x256 .f32) (v848 : BitVec 32)
    (f3 : Buf (Elt F) ((Memref.whole cc0_scratch0 : Memref sig .tc .vmem S2048x2048 .f32).view.loc (c : Thread nD τ)))
    (f15 : Buf (Elt F) ((stgM5_1 : Memref sig .tc .vmem S512x256 .bf16).view.loc (c : Thread nD τ)))
    (fl : Buf (Elt F) ((commM5_1 : Memref sig .tc .vmem S512x256 .bf16).view.loc (c : Thread nD τ)))
    (hV : V.rs5_2 c ((stgM5_2 : Memref sig .tc .vmem S256x256 .bf16).view.read (Elt F) (View.write (Elt F) ((Memref.whole cc0_scratch12 : Memref sig .tc .vmem S1024x256 .bf16).access (Rect.unit (s := S1024x256) ![0, 0] ![256, 256] inb_S1024x256_S256x256_0_0)) f15 (k0_pay55 ((Memref.whole cc0_scratch0 : Memref sig .tc .vmem S2048x2048 .f32).view.readCov [⟨Rect.unit (s := S2048x2048) (k0_off53 c) ![256, 256] (k0_off53_inb c), k0_pay54 v846 (View.readAt (Elt F) (Memref.whole cc0_scratch6 : Memref sig .tc .vmem S1792x256 .bf16).view (Rect.unit (s := S1792x256) (k0_off54 c) ![256, 256] (k0_off54_inb c)).toLoadRect fl)⟩] (Rect.unit (s := S2048x2048) (k0_off53 c) ![256, 256] (k0_off53_inb c)).toLoadRect)) Finset.univ))) :
    iprop(cellInv ER (sched V) κs (cell c (.rsS 5 2)) ∗ cellInv ER (sched V) κr (cell (nbr 1 c) (.rsR 5 2))
        ∗ reached ER (cell c (.rsS 5 2)) 0 ∗ reached ER (cell (nbr 1 c) (.rsR 5 2)) 0
        ∗ dutyTok ER (cell c (.rsS 5 2)) 0 (0 : Fin 3) ∗ dutyTok ER (cell (nbr 1 c) (.rsR 5 2)) 0 (0 : Fin 3)
        ∗ ptsAny (F := F) (nbr 1 c) commM5_2
        ∗ owes (c : Thread nD τ) (Owe c 20) W
        ∗ heldW c (stgM5_1 : Memref sig .tc .vmem S512x256 .bf16) f15
        ∗ heldW c (Memref.whole cc0_scratch0 : Memref sig .tc .vmem S2048x2048 .f32) f3
        ∗ heldW c (commM5_1 : Memref sig .tc .vmem S512x256 .bf16) fl)
      ⊢ wp frame (wpE (defs₀ (F := F)) 𝒱₀ c none) Set.univ
          (k0_part28 (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23 c v2 v520 v842 v844 v846 v848)
          (fun r => iprop(⌜r = (Scalar.xori v2 3#32)⌝ ∗ cred (tallyAt (cell c (.rsS 5 2)) () (amt (.rsR 5 2)))
            ∗ owes (c : Thread nD τ) (Owe c 21) W
            ∗ heldW c (Memref.whole cc0_scratch0 : Memref sig .tc .vmem S2048x2048 .f32) ((Memref.whole cc0_scratch0 : Memref sig .tc .vmem S2048x2048 .f32).view.writes (Elt F) f3 [⟨Rect.unit (s := S2048x2048) (k0_off55 c) ![256, 256] (k0_off55_inb c), k0_pay56 (View.readAt (Elt F) (Memref.whole cc0_scratch0 : Memref sig .tc .vmem S2048x2048 .f32).view (Rect.unit (s := S2048x2048) (k0_off55 c) ![256, 256] (k0_off55_inb c)).toLoadRect ((Memref.whole cc0_scratch0 : Memref sig .tc .vmem S2048x2048 .f32).view.writes (Elt F) f3 [⟨Rect.unit (s := S2048x2048) (k0_off53 c) ![256, 256] (k0_off53_inb c), k0_pay54 v846 (View.readAt (Elt F) (Memref.whole cc0_scratch6 : Memref sig .tc .vmem S1792x256 .bf16).view (Rect.unit (s := S1792x256) (k0_off54 c) ![256, 256] (k0_off54_inb c)).toLoadRect fl)⟩])) (View.readAt (Elt F) (Memref.whole cc0_scratch6 : Memref sig .tc .vmem S1792x256 .bf16).view (Rect.unit (s := S1792x256) (k0_off56 c) ![256, 256] (k0_off56_inb c)).toLoadRect fl)⟩, ⟨Rect.unit (s := S2048x2048) (k0_off53 c) ![256, 256] (k0_off53_inb c), k0_pay54 v846 (View.readAt (Elt F) (Memref.whole cc0_scratch6 : Memref sig .tc .vmem S1792x256 .bf16).view (Rect.unit (s := S1792x256) (k0_off54 c) ![256, 256] (k0_off54_inb c)).toLoadRect fl)⟩])
            ∗ heldW c (commM5_1 : Memref sig .tc .vmem S512x256 .bf16) fl
            ∗ ((stgM5_1 : Memref sig .tc .vmem S512x256 .bf16).view.loc (c : Thread nD τ) ↦[(stgM5_1 : Memref sig .tc .vmem S512x256 .bf16).view.set \ (stgM5_2 : Memref sig .tc .vmem S256x256 .bf16).view.set]{fullShare} (View.write (Elt F) ((Memref.whole cc0_scratch12 : Memref sig .tc .vmem S1024x256 .bf16).access (Rect.unit (s := S1024x256) ![0, 0] ![256, 256] inb_S1024x256_S256x256_0_0)) f15 (k0_pay55 ((Memref.whole cc0_scratch0 : Memref sig .tc .vmem S2048x2048 .f32).view.readCov [⟨Rect.unit (s := S2048x2048) (k0_off53 c) ![256, 256] (k0_off53_inb c), k0_pay54 v846 (View.readAt (Elt F) (Memref.whole cc0_scratch6 : Memref sig .tc .vmem S1792x256 .bf16).view (Rect.unit (s := S1792x256) (k0_off54 c) ![256, 256] (k0_off54_inb c)).toLoadRect fl)⟩] (Rect.unit (s := S2048x2048) (k0_off53 c) ![256, 256] (k0_off53_inb c)).toLoadRect)) Finset.univ)))) := by
  simp only [k0_part28_eq_skeleton]; unfold k0_part28_skel
  simp only [Prog.lift, Prog.bind_op, Prog.bind_ret, Prog.pure_eq_ret]
  iintro ⟨#HIs, #HIr, #Hrs, #Hrr, Hts, Htr, Hdst, HO, Hstg, Hacc, Hland⟩
  unfold heldW
  unfold ptsAny
  icases Hdst with ⟨%fd, Hdst⟩
  have hinc1 : ((Memref.whole cc0_scratch6 : Memref sig .tc .vmem S1792x256 .bf16).access (Rect.unit (s := S1792x256) (k0_off54 c) ![256, 256] (k0_off54_inb c))).set
      ⊆ (commM5_1 : Memref sig .tc .vmem S512x256 .bf16).view.set := by
    rw [View.set_slice_whole, View.set_slice_whole]
    refine unit_subset ?_
    piece_arith c [off54_eq]
  have hinc2 : ((Memref.whole cc0_scratch6 : Memref sig .tc .vmem S1792x256 .bf16).access (Rect.unit (s := S1792x256) (k0_off56 c) ![256, 256] (k0_off56_inb c))).set
      ⊆ (commM5_1 : Memref sig .tc .vmem S512x256 .bf16).view.set := by
    rw [View.set_slice_whole, View.set_slice_whole]
    refine unit_subset ?_
    piece_arith c [off56_eq]
  have hinc3 : ((Memref.whole cc0_scratch12 : Memref sig .tc .vmem S1024x256 .bf16).access (Rect.unit (s := S1024x256) ![0, 0] ![256, 256] inb_S1024x256_S256x256_0_0)).set
      ⊆ (stgM5_1 : Memref sig .tc .vmem S512x256 .bf16).view.set := by
    rw [View.set_slice_whole, View.set_slice_whole]
    exact unit_subset (by decide)
  have hinc4 : ((Memref.whole cc0_scratch12 : Memref sig .tc .vmem S1024x256 .bf16).access (Rect.unit (s := S1024x256) ![0, 0] ![256, 256] inb_S1024x256_S256x256_0_0)).setOn Finset.univ
      ⊆ (stgM5_1 : Memref sig .tc .vmem S512x256 .bf16).view.set := by
    rw [View.setOn_univ]
    rw [View.set_slice_whole, View.set_slice_whole]
    exact unit_subset (by decide)
  sl_exec
  -- the rows that came back are cut into the 256 rows sent now and the rest
  ihave Hs := (Entails.of_eq (pts_set_eq (F := F) (ℓ := (stgM5_1 : Memref sig .tc .vmem S512x256 .bf16).view.loc (c : Thread nD τ))
      (S' := (stgM5_2 : Memref sig .tc .vmem S256x256 .bf16).view.set ∪ ((stgM5_1 : Memref sig .tc .vmem S512x256 .bf16).view.set \ (stgM5_2 : Memref sig .tc .vmem S256x256 .bf16).view.set)) (Finset.union_sdiff_of_subset stg_sub2_5).symm)) $$ Hstg
  ihave Hs2 := (pts_union (F := F) Finset.disjoint_sdiff).1 $$ Hs
  icases Hs2 with ⟨Hsrc, Hrem⟩
  iapply (wp_send_to V c ⟨k0_dev21 c, k0_dev21_lt c⟩ 1 (dev21_eq c) (.rsS 5 2) (.rsR 5 2) (by decide) (by decide) 20 (by decide) (paid_rs c 5 2) rfl
      (src := stgM5_2) (dst := commM5_2) (rsS_sem_eq 5 2 _) (rsR_sem_eq 5 2 _) rfl fd κs κr W
      (ptsAny_intro c stgM5_2 _)
      (ptsIs_intro (nbr 1 c) commM5_2 _ _ (by rw [View.read_write_univ, nbr_nbr]; exact hV))) $$ [Hsrc Hdst HO Hts Htr]
  · isplitr; · iexact HIs
    isplitr; · iexact HIr
    isplitl [Hsrc]; · iexact Hsrc
    isplitl [Hdst]; · iexact Hdst
    isplitl [HO]; · iexact HO
    isplitl [Hts]; · iexact Hts
    isplitr; · iexact Hrs
    isplitl [Htr]; · iexact Htr
    iexact Hrr
  iintro ⟨Hcs, HO⟩
  sl_exec
  sl_step
  isplitr; · ipureintro; rfl
  isplitl [Hcs]; · iexact Hcs
  isplitl [HO]; · iexact HO
  isplitl [Hacc]; · iexact Hacc
  isplitl [Hland]; · iexact Hland
  iexact Hrem

end Cert.KernelIdeal.Proto

end
-- ==== Proof.Body29.lean ====
/-
Stretch 29 of a device's kernel body: the two waits of group 0's third exchange, the sum of its last landing (256 rows)
into the device's own 256 rows of the accumulator, and the first terms of the gelu of those rows.
-/
import proofs.«900882_g7700000000000883_dist_matmul_gelu_kshard_i_m2048_n2048_k1024_v7x_i8_f32_1_alg».proof.Proof.Rules
import proofs.«900882_g7700000000000883_dist_matmul_gelu_kshard_i_m2048_n2048_k1024_v7x_i8_f32_1_alg».proof.Proof.TopoTab
import proofs.«900882_g7700000000000883_dist_matmul_gelu_kshard_i_m2048_n2048_k1024_v7x_i8_f32_1_alg».proof.Proof.PiecesTab
import proofs.«900882_g7700000000000883_dist_matmul_gelu_kshard_i_m2048_n2048_k1024_v7x_i8_f32_1_alg».proof.Proof.Gen.KernelIdeal.Skeleton
import proofs.«900882_g7700000000000883_dist_matmul_gelu_kshard_i_m2048_n2048_k1024_v7x_i8_f32_1_alg».proof.Proof.TopoClosed
import Idealize.ShloMosaic.Lib.Pipeline.Value

set_option maxRecDepth 16384

noncomputable section

namespace Cert.KernelIdeal.Proto

open Cert.KernelIdeal Cert.KernelIdeal.Gen Cert.KernelIdeal.Topo
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : Vals F)

set_option maxHeartbeats 2000000 in
theorem part29_run (c : Dev nD) (κw κv : ℕ) (W : Waits sig Unit) (v574 v593 : BitVec 32)
    (f3 : Buf (Elt F) ((Memref.whole cc0_scratch0 : Memref sig .tc .vmem S2048x2048 .f32).view.loc (c : Thread nD τ))) :
    iprop(owes (c : Thread nD τ) (Owe c 21) W ∗ levAts L lv
        ∗ heldW c (Memref.whole cc0_scratch0 : Memref sig .tc .vmem S2048x2048 .f32) f3
        ∗ cellInv ER (sched V) κw (cell c (.rsS 0 2)) ∗ cred (tallyAt (cell c (.rsS 0 2)) () (amt (.rsS 0 2))) ∗ atPos ER (cell c (.rsS 0 2)) 0 ∅ 0
        ∗ cellInv ER (sched V) κv (cell c (.rsR 0 2)) ∗ cred (tallyAt (cell c (.rsR 0 2)) () (amt (.rsR 0 2))) ∗ atPos ER (cell c (.rsR 0 2)) 0 ∅ 0)
      ⊢ wp frame (wpE (defs₀ (F := F)) 𝒱₀ c none) Set.univ
          (k0_part29 (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23 c v574 v593)
          (fun r => iprop(∃ fl : Buf (Elt F) ((commM0_2 : Memref sig .tc .vmem S256x384 .bf16).view.loc (c : Thread nD τ)), ⌜r = ⟨k0_pay58 ((Memref.whole cc0_scratch0 : Memref sig .tc .vmem S2048x2048 .f32).view.readCov [⟨Rect.unit (s := S2048x2048) (k0_off37 c) ![256, 384] (k0_off37_inb c), k0_pay57 (View.readAt (Elt F) (Memref.whole cc0_scratch0 : Memref sig .tc .vmem S2048x2048 .f32).view (Rect.unit (s := S2048x2048) (k0_off37 c) ![256, 384] (k0_off37_inb c)).toLoadRect f3) (View.readAt (Elt F) (Memref.whole cc0_scratch1 : Memref sig .tc .vmem S1792x384 .bf16).view (Rect.unit (s := S1792x384) (k0_off57 c) ![256, 384] (k0_off57_inb c)).toLoadRect fl)⟩] (Rect.unit (s := S2048x2048) (k0_off37 c) ![256, 384] (k0_off37_inb c)).toLoadRect), ⟨k0_pay59 ((Memref.whole cc0_scratch0 : Memref sig .tc .vmem S2048x2048 .f32).view.readCov [⟨Rect.unit (s := S2048x2048) (k0_off37 c) ![256, 384] (k0_off37_inb c), k0_pay57 (View.readAt (Elt F) (Memref.whole cc0_scratch0 : Memref sig .tc .vmem S2048x2048 .f32).view (Rect.unit (s := S2048x2048) (k0_off37 c) ![256, 384] (k0_off37_inb c)).toLoadRect f3) (View.readAt (Elt F) (Memref.whole cc0_scratch1 : Memref sig .tc .vmem S1792x384 .bf16).view (Rect.unit (s := S1792x384) (k0_off57 c) ![256, 384] (k0_off57_inb c)).toLoadRect fl)⟩] (Rect.unit (s := S2048x2048) (k0_off37 c) ![256, 384] (k0_off37_inb c)).toLoadRect), FloatOps.ofBits FTy.f32 1061962282#32⟩⟩⌝
            ∗ ⌜V.rs0_2 (nbr 2 c) ((commM0_2 : Memref sig .tc .vmem S256x384 .bf16).view.read (Elt F) fl)⌝
            ∗ heldW c (commM0_2 : Memref sig .tc .vmem S256x384 .bf16) fl
            ∗ owes (c : Thread nD τ) (Owe c 21) (insert ((CK.rsR 0 2).sem, ()) (insert ((CK.rsS 0 2).sem, ()) W))
            ∗ atPos ER (cell c (.rsS 0 2)) 1 ∅ 0 ∗ atPos ER (cell c (.rsR 0 2)) 1 ∅ 0
            ∗ ptsAny (F := F) c stgM0_2
            ∗ heldW c (Memref.whole cc0_scratch0 : Memref sig .tc .vmem S2048x2048 .f32) ((Memref.whole cc0_scratch0 : Memref sig .tc .vmem S2048x2048 .f32).view.writes (Elt F) f3 [⟨Rect.unit (s := S2048x2048) (k0_off37 c) ![256, 384] (k0_off37_inb c), k0_pay57 (View.readAt (Elt F) (Memref.whole cc0_scratch0 : Memref sig .tc .vmem S2048x2048 .f32).view (Rect.unit (s := S2048x2048) (k0_off37 c) ![256, 384] (k0_off37_inb c)).toLoadRect f3) (View.readAt (Elt F) (Memref.whole cc0_scratch1 : Memref sig .tc .vmem S1792x384 .bf16).view (Rect.unit (s := S1792x384) (k0_off57 c) ![256, 384] (k0_off57_inb c)).toLoadRect fl)⟩]))) := by
  simp only [k0_part29_eq_skeleton]; unfold k0_part29_skel
  simp only [Prog.lift, Prog.bind_op, Prog.bind_ret, Prog.pure_eq_ret]
  iintro ⟨HO, #Hlev, Hacc, #HIw, Hcw, Hatw, #HIv, Hcv, Hatv⟩
  unfold heldW
  iapply (wp_wait_xfer V c (.rsS 0 2) (by decide) 21 (rsS_sem_eq 0 2 _)
      (show (stgM0_2 : Memref sig .tc .vmem S256x384 .bf16).view.dmaCredit = amt (.rsS 0 2) from rfl)
      (wpE_waitDma2_eq 𝒱₀ (c : Thread nD τ) none Set.univ)
      (mayWait_own c (.rsS 0 2) (lv_cell c _) 21) κw W) $$ [Hcw HO Hatw]
  · isplitr; · iexact HIw
    isplitl [Hcw]; · iexact Hcw
    isplitl [HO]; · iexact HO
    isplitr; · iexact Hlev
    iexact Hatw
  iintro ⟨HO, Hatw, Hpay1⟩
  iapply (wp_wait_xfer V c (.rsR 0 2) (by decide) 21 (rsR_sem_eq 0 2 _)
      (show (commM0_2 : Memref sig .tc .vmem S256x384 .bf16).view.dmaCredit = amt (.rsR 0 2) from rfl)
      (wpE_waitDma2_eq 𝒱₀ (c : Thread nD τ) none Set.univ)
      (mayWait_rsR c 0 2 21 (by decide)) κv (insert ((CK.rsS 0 2).sem, ()) W)) $$ [Hcv HO Hatv]
  · isplitr; · iexact HIv
    isplitl [Hcv]; · iexact Hcv
    isplitl [HO]; · iexact HO
    isplitr; · iexact Hlev
    iexact Hatv
  iintro ⟨HO, Hatv, Hpay2⟩
  ihave Hp1 := (Entails.of_eq (show pay V c (CK.rsS 0 2) 0 = ptsAny (F := F) c stgM0_2 from rfl)) $$ Hpay1
  ihave Hp2 := (Entails.of_eq (show pay V c (CK.rsR 0 2) 0 = ptsIs c commM0_2 (V.rs0_2 (nbr 2 c)) from rfl)) $$ Hpay2
  unfold ptsIs
  icases Hp2 with ⟨%fl, Hland, %hX⟩
  have hinc1 : ((Memref.whole cc0_scratch1 : Memref sig .tc .vmem S1792x384 .bf16).access (Rect.unit (s := S1792x384) (k0_off57 c) ![256, 384] (k0_off57_inb c))).set
      ⊆ (commM0_2 : Memref sig .tc .vmem S256x384 .bf16).view.set := by
    rw [View.set_slice_whole, View.set_slice_whole]
    refine unit_subset ?_
    piece_arith c [off57_eq]
  sl_exec
  sl_step
  iexists fl
  isplitr; · ipureintro; rfl
  isplitr; · ipureintro; exact hX
  isplitl [Hland]; · iexact Hland
  isplitl [HO]; · iexact HO
  isplitl [Hatw]; · iexact Hatw
  isplitl [Hatv]; · iexact Hatv
  isplitl [Hp1]; · iexact Hp1
  iexact Hacc

end Cert.KernelIdeal.Proto

end
-- ==== Proof.Body30.lean ====
/-
Stretch 30 of a device's kernel body: the gelu of the device's own 256 rows of group 0 stored back into the accumulator
and, rounded, into its own rows of group 0's all-gather buffer; the first copy of a finished block to the result array —
here the accumulator and the result array, held whole so far, are cut into the 24 blocks of the result copies —; and the
two waits of group 1's third exchange.
-/
import proofs.«900882_g7700000000000883_dist_matmul_gelu_kshard_i_m2048_n2048_k1024_v7x_i8_f32_1_alg».proof.Proof.Rules
import proofs.«900882_g7700000000000883_dist_matmul_gelu_kshard_i_m2048_n2048_k1024_v7x_i8_f32_1_alg».proof.Proof.TopoTab
import proofs.«900882_g7700000000000883_dist_matmul_gelu_kshard_i_m2048_n2048_k1024_v7x_i8_f32_1_alg».proof.Proof.PiecesTab
import proofs.«900882_g7700000000000883_dist_matmul_gelu_kshard_i_m2048_n2048_k1024_v7x_i8_f32_1_alg».proof.Proof.Gen.KernelIdeal.Skeleton
import proofs.«900882_g7700000000000883_dist_matmul_gelu_kshard_i_m2048_n2048_k1024_v7x_i8_f32_1_alg».proof.Proof.TopoClosed
import proofs.«900882_g7700000000000883_dist_matmul_gelu_kshard_i_m2048_n2048_k1024_v7x_i8_f32_1_alg».proof.Proof.PiecesOutSep
import Idealize.ShloMosaic.Lib.Pipeline.Value

set_option maxRecDepth 16384

noncomputable section

namespace Cert.KernelIdeal.Proto

open Cert.KernelIdeal Cert.KernelIdeal.Gen Cert.KernelIdeal.Topo
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : Vals F)

/-- A chain over the 24 result copies, written out. -/
private theorem bigSepL24 (Φ : Fin 24 → sProp 𝕄) :
    bigSepL [0, 1, 2, 3, 4, 5, 6, 7, 8, 9, 10, 11, 12, 13, 14, 15, 16, 17, 18, 19, 20, 21, 22, 23] Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23) := rfl

set_option maxHeartbeats 4000000 in
theorem part30_run (c : Dev nD) (κo κw κv : ℕ) (W : Waits sig Unit) (v574 v628 v647 : BitVec 32) (v909 v914 : FVec F S256x384 .f32) (cst_707 : F .f32)
    (f3 : Buf (Elt F) ((Memref.whole cc0_scratch0 : Memref sig .tc .vmem S2048x2048 .f32).view.loc (c : Thread nD τ)))
    (fa : Buf (Elt F) ((agM0_0 c : Memref sig .tc .vmem S256x384 .bf16).view.loc (c : Thread nD τ)))
    (fo : Buf (Elt F) ((Memref.whole main_v1 : Memref sig .tc .hbm S2048x2048 .f32).view.loc (c : Thread nD τ)))
    (hV : V.out0 c ((outSrcM0 c : Memref sig .tc .vmem S256x384 .f32).view.read (Elt F) ((Memref.whole cc0_scratch0 : Memref sig .tc .vmem S2048x2048 .f32).view.writes (Elt F) f3 [⟨Rect.unit (s := S2048x2048) (k0_off37 c) ![256, 384] (k0_off37_inb c), k0_pay61 v909 v914 cst_707⟩]))) :
    iprop(owes (c : Thread nD τ) (Owe c 21) W ∗ levAts L lv
        ∗ heldW c (Memref.whole cc0_scratch0 : Memref sig .tc .vmem S2048x2048 .f32) f3
        ∗ heldW c (agM0_0 c : Memref sig .tc .vmem S256x384 .bf16) fa
        ∗ heldW c (Memref.whole main_v1 : Memref sig .tc .hbm S2048x2048 .f32) fo
        ∗ cellInv ER (sched V) κo (cell c (.out 0)) ∗ dutyTok ER (cell c (.out 0)) 0 (0 : Fin 3) ∗ reached ER (cell c (.out 0)) 0
        ∗ cellInv ER (sched V) κw (cell c (.rsS 1 2)) ∗ cred (tallyAt (cell c (.rsS 1 2)) () (amt (.rsS 1 2))) ∗ atPos ER (cell c (.rsS 1 2)) 0 ∅ 0
        ∗ cellInv ER (sched V) κv (cell c (.rsR 1 2)) ∗ cred (tallyAt (cell c (.rsR 1 2)) () (amt (.rsR 1 2))) ∗ atPos ER (cell c (.rsR 1 2)) 0 ∅ 0)
      ⊢ wp frame (wpE (defs₀ (F := F)) 𝒱₀ c none) Set.univ
          (k0_part30 (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23 c v574 v628 v647 v909 v914 cst_707)
          (fun r => iprop(⌜r = ⟨⟩⌝ ∗ cred (tallyAt (cell c (.out 0)) () (amt (.out 0)))
            ∗ owes (c : Thread nD τ) (Owe c 21) (insert ((CK.rsR 1 2).sem, ()) (insert ((CK.rsS 1 2).sem, ()) W))
            ∗ atPos ER (cell c (.rsS 1 2)) 1 ∅ 0 ∗ atPos ER (cell c (.rsR 1 2)) 1 ∅ 0
            ∗ ptsAny (F := F) c stgM1_2 ∗ ptsIs c commM1_2 (V.rs1_2 (nbr 0 c))
            ∗ heldW c (agM0_0 c : Memref sig .tc .vmem S256x384 .bf16) (View.write (Elt F) ((Memref.whole cc0_scratch13 : Memref sig .tc .vmem S2048x384 .bf16).access (Rect.unit (s := S2048x384) (k0_off58 c) ![256, 384] (k0_off58_inb c))) fa (k0_pay62 v909 v914 cst_707) Finset.univ)
            ∗ heldW c (outSrcM1 c : Memref sig .tc .vmem S256x384 .f32) ((Memref.whole cc0_scratch0 : Memref sig .tc .vmem S2048x2048 .f32).view.writes (Elt F) f3 [⟨Rect.unit (s := S2048x2048) (k0_off37 c) ![256, 384] (k0_off37_inb c), k0_pay61 v909 v914 cst_707⟩])
            ∗ heldW c (outSrcM2 c : Memref sig .tc .vmem S256x384 .f32) ((Memref.whole cc0_scratch0 : Memref sig .tc .vmem S2048x2048 .f32).view.writes (Elt F) f3 [⟨Rect.unit (s := S2048x2048) (k0_off37 c) ![256, 384] (k0_off37_inb c), k0_pay61 v909 v914 cst_707⟩])
            ∗ heldW c (outSrcM3 c : Memref sig .tc .vmem S256x384 .f32) ((Memref.whole cc0_scratch0 : Memref sig .tc .vmem S2048x2048 .f32).view.writes (Elt F) f3 [⟨Rect.unit (s := S2048x2048) (k0_off37 c) ![256, 384] (k0_off37_inb c), k0_pay61 v909 v914 cst_707⟩])
            ∗ heldW c (outSrcM4 c : Memref sig .tc .vmem S256x256 .f32) ((Memref.whole cc0_scratch0 : Memref sig .tc .vmem S2048x2048 .f32).view.writes (Elt F) f3 [⟨Rect.unit (s := S2048x2048) (k0_off37 c) ![256, 384] (k0_off37_inb c), k0_pay61 v909 v914 cst_707⟩])
            ∗ heldW c (outSrcM5 c : Memref sig .tc .vmem S256x256 .f32) ((Memref.whole cc0_scratch0 : Memref sig .tc .vmem S2048x2048 .f32).view.writes (Elt F) f3 [⟨Rect.unit (s := S2048x2048) (k0_off37 c) ![256, 384] (k0_off37_inb c), k0_pay61 v909 v914 cst_707⟩])
            ∗ heldW c (outSrcM6 c : Memref sig .tc .vmem S256x384 .f32) ((Memref.whole cc0_scratch0 : Memref sig .tc .vmem S2048x2048 .f32).view.writes (Elt F) f3 [⟨Rect.unit (s := S2048x2048) (k0_off37 c) ![256, 384] (k0_off37_inb c), k0_pay61 v909 v914 cst_707⟩])
            ∗ heldW c (outSrcM7 c : Memref sig .tc .vmem S256x384 .f32) ((Memref.whole cc0_scratch0 : Memref sig .tc .vmem S2048x2048 .f32).view.writes (Elt F) f3 [⟨Rect.unit (s := S2048x2048) (k0_off37 c) ![256, 384] (k0_off37_inb c), k0_pay61 v909 v914 cst_707⟩])
            ∗ heldW c (outSrcM8 c : Memref sig .tc .vmem S256x384 .f32) ((Memref.whole cc0_scratch0 : Memref sig .tc .vmem S2048x2048 .f32).view.writes (Elt F) f3 [⟨Rect.unit (s := S2048x2048) (k0_off37 c) ![256, 384] (k0_off37_inb c), k0_pay61 v909 v914 cst_707⟩])
            ∗ heldW c (outSrcM9 c : Memref sig .tc .vmem S256x384 .f32) ((Memref.whole cc0_scratch0 : Memref sig .tc .vmem S2048x2048 .f32).view.writes (Elt F) f3 [⟨Rect.unit (s := S2048x2048) (k0_off37 c) ![256, 384] (k0_off37_inb c), k0_pay61 v909 v914 cst_707⟩])
            ∗ heldW c (outSrcM10 c : Memref sig .tc .vmem S256x256 .f32) ((Memref.whole cc0_scratch0 : Memref sig .tc .vmem S2048x2048 .f32).view.writes (Elt F) f3 [⟨Rect.unit (s := S2048x2048) (k0_off37 c) ![256, 384] (k0_off37_inb c), k0_pay61 v909 v914 cst_707⟩])
            ∗ heldW c (outSrcM11 c : Memref sig .tc .vmem S256x256 .f32) ((Memref.whole cc0_scratch0 : Memref sig .tc .vmem S2048x2048 .f32).view.writes (Elt F) f3 [⟨Rect.unit (s := S2048x2048) (k0_off37 c) ![256, 384] (k0_off37_inb c), k0_pay61 v909 v914 cst_707⟩])
            ∗ heldW c (outSrcM12 c : Memref sig .tc .vmem S512x384 .f32) ((Memref.whole cc0_scratch0 : Memref sig .tc .vmem S2048x2048 .f32).view.writes (Elt F) f3 [⟨Rect.unit (s := S2048x2048) (k0_off37 c) ![256, 384] (k0_off37_inb c), k0_pay61 v909 v914 cst_707⟩])
            ∗ heldW c (outSrcM13 c : Memref sig .tc .vmem S512x384 .f32) ((Memref.whole cc0_scratch0 : Memref sig .tc .vmem S2048x2048 .f32).view.writes (Elt F) f3 [⟨Rect.unit (s := S2048x2048) (k0_off37 c) ![256, 384] (k0_off37_inb c), k0_pay61 v909 v914 cst_707⟩])
            ∗ heldW c (outSrcM14 c : Memref sig .tc .vmem S512x384 .f32) ((Memref.whole cc0_scratch0 : Memref sig .tc .vmem S2048x2048 .f32).view.writes (Elt F) f3 [⟨Rect.unit (s := S2048x2048) (k0_off37 c) ![256, 384] (k0_off37_inb c), k0_pay61 v909 v914 cst_707⟩])
            ∗ heldW c (outSrcM15 c : Memref sig .tc .vmem S512x384 .f32) ((Memref.whole cc0_scratch0 : Memref sig .tc .vmem S2048x2048 .f32).view.writes (Elt F) f3 [⟨Rect.unit (s := S2048x2048) (k0_off37 c) ![256, 384] (k0_off37_inb c), k0_pay61 v909 v914 cst_707⟩])
            ∗ heldW c (outSrcM16 c : Memref sig .tc .vmem S512x256 .f32) ((Memref.whole cc0_scratch0 : Memref sig .tc .vmem S2048x2048 .f32).view.writes (Elt F) f3 [⟨Rect.unit (s := S2048x2048) (k0_off37 c) ![256, 384] (k0_off37_inb c), k0_pay61 v909 v914 cst_707⟩])
            ∗ heldW c (outSrcM17 c : Memref sig .tc .vmem S512x256 .f32) ((Memref.whole cc0_scratch0 : Memref sig .tc .vmem S2048x2048 .f32).view.writes (Elt F) f3 [⟨Rect.unit (s := S2048x2048) (k0_off37 c) ![256, 384] (k0_off37_inb c), k0_pay61 v909 v914 cst_707⟩])
            ∗ heldW c (outSrcM18 c : Memref sig .tc .vmem S1024x384 .f32) ((Memref.whole cc0_scratch0 : Memref sig .tc .vmem S2048x2048 .f32).view.writes (Elt F) f3 [⟨Rect.unit (s := S2048x2048) (k0_off37 c) ![256, 384] (k0_off37_inb c), k0_pay61 v909 v914 cst_707⟩])
            ∗ heldW c (outSrcM19 c : Memref sig .tc .vmem S1024x384 .f32) ((Memref.whole cc0_scratch0 : Memref sig .tc .vmem S2048x2048 .f32).view.writes (Elt F) f3 [⟨Rect.unit (s := S2048x2048) (k0_off37 c) ![256, 384] (k0_off37_inb c), k0_pay61 v909 v914 cst_707⟩])
            ∗ heldW c (outSrcM20 c : Memref sig .tc .vmem S1024x384 .f32) ((Memref.whole cc0_scratch0 : Memref sig .tc .vmem S2048x2048 .f32).view.writes (Elt F) f3 [⟨Rect.unit (s := S2048x2048) (k0_off37 c) ![256, 384] (k0_off37_inb c), k0_pay61 v909 v914 cst_707⟩])
            ∗ heldW c (outSrcM21 c : Memref sig .tc .vmem S1024x384 .f32) ((Memref.whole cc0_scratch0 : Memref sig .tc .vmem S2048x2048 .f32).view.writes (Elt F) f3 [⟨Rect.unit (s := S2048x2048) (k0_off37 c) ![256, 384] (k0_off37_inb c), k0_pay61 v909 v914 cst_707⟩])
            ∗ heldW c (outSrcM22 c : Memref sig .tc .vmem S1024x256 .f32) ((Memref.whole cc0_scratch0 : Memref sig .tc .vmem S2048x2048 .f32).view.writes (Elt F) f3 [⟨Rect.unit (s := S2048x2048) (k0_off37 c) ![256, 384] (k0_off37_inb c), k0_pay61 v909 v914 cst_707⟩])
            ∗ heldW c (outSrcM23 c : Memref sig .tc .vmem S1024x256 .f32) ((Memref.whole cc0_scratch0 : Memref sig .tc .vmem S2048x2048 .f32).view.writes (Elt F) f3 [⟨Rect.unit (s := S2048x2048) (k0_off37 c) ![256, 384] (k0_off37_inb c), k0_pay61 v909 v914 cst_707⟩])
            ∗ heldW c (outDstM1 c : Memref sig .tc .hbm S256x384 .f32) fo
            ∗ heldW c (outDstM2 c : Memref sig .tc .hbm S256x384 .f32) fo
            ∗ heldW c (outDstM3 c : Memref sig .tc .hbm S256x384 .f32) fo
            ∗ heldW c (outDstM4 c : Memref sig .tc .hbm S256x256 .f32) fo
            ∗ heldW c (outDstM5 c : Memref sig .tc .hbm S256x256 .f32) fo
            ∗ heldW c (outDstM6 c : Memref sig .tc .hbm S256x384 .f32) fo
            ∗ heldW c (outDstM7 c : Memref sig .tc .hbm S256x384 .f32) fo
            ∗ heldW c (outDstM8 c : Memref sig .tc .hbm S256x384 .f32) fo
            ∗ heldW c (outDstM9 c : Memref sig .tc .hbm S256x384 .f32) fo
            ∗ heldW c (outDstM10 c : Memref sig .tc .hbm S256x256 .f32) fo
            ∗ heldW c (outDstM11 c : Memref sig .tc .hbm S256x256 .f32) fo
            ∗ heldW c (outDstM12 c : Memref sig .tc .hbm S512x384 .f32) fo
            ∗ heldW c (outDstM13 c : Memref sig .tc .hbm S512x384 .f32) fo
            ∗ heldW c (outDstM14 c : Memref sig .tc .hbm S512x384 .f32) fo
            ∗ heldW c (outDstM15 c : Memref sig .tc .hbm S512x384 .f32) fo
            ∗ heldW c (outDstM16 c : Memref sig .tc .hbm S512x256 .f32) fo
            ∗ heldW c (outDstM17 c : Memref sig .tc .hbm S512x256 .f32) fo
            ∗ heldW c (outDstM18 c : Memref sig .tc .hbm S1024x384 .f32) fo
            ∗ heldW c (outDstM19 c : Memref sig .tc .hbm S1024x384 .f32) fo
            ∗ heldW c (outDstM20 c : Memref sig .tc .hbm S1024x384 .f32) fo
            ∗ heldW c (outDstM21 c : Memref sig .tc .hbm S1024x384 .f32) fo
            ∗ heldW c (outDstM22 c : Memref sig .tc .hbm S1024x256 .f32) fo
            ∗ heldW c (outDstM23 c : Memref sig .tc .hbm S1024x256 .f32) fo)) := by
  simp only [k0_part30_eq_skeleton]; unfold k0_part30_skel
  simp only [Prog.lift, Prog.bind_op, Prog.bind_ret, Prog.pure_eq_ret]
  iintro ⟨HO, #Hlev, Hacc, Hag, Hout, #HIo, Hto, #Hro, #HIw, Hcw, Hatw, #HIv, Hcv, Hatv⟩
  unfold heldW
  have hincA : ((Memref.whole cc0_scratch13 : Memref sig .tc .vmem S2048x384 .bf16).access (Rect.unit (s := S2048x384) (k0_off58 c) ![256, 384] (k0_off58_inb c))).set
      ⊆ (agM0_0 c : Memref sig .tc .vmem S256x384 .bf16).view.set := by
    rw [View.set_slice_whole, View.set_slice_whole]
    refine unit_subset ?_
    piece_arith c [off58_eq, off73_eq]
  have hincB : ((Memref.whole cc0_scratch13 : Memref sig .tc .vmem S2048x384 .bf16).access (Rect.unit (s := S2048x384) (k0_off58 c) ![256, 384] (k0_off58_inb c))).setOn Finset.univ
      ⊆ (agM0_0 c : Memref sig .tc .vmem S256x384 .bf16).view.set := by
    rw [View.setOn_univ]; exact hincA
  sl_exec
  -- the accumulator and the result array, held whole, are cut into the 24 blocks of the result copies
  ihave Haccu := (Entails.of_eq (pts_set_eq (F := F) (ℓ := (Memref.whole cc0_scratch0 : Memref sig .tc .vmem S2048x2048 .f32).view.loc (c : Thread nD τ)) (S' := Finset.univ) (View.set_whole _))) $$ Hacc
  ihave Haccb := (Entails.of_eq ((outSrc_blocks (F := F) c _).trans ((bigSep_univ_eq_bigSepL [0, 1, 2, 3, 4, 5, 6, 7, 8, 9, 10, 11, 12, 13, 14, 15, 16, 17, 18, 19, 20, 21, 22, 23] (by decide) (by decide) _).trans (bigSepL24 (F := F) _)))) $$ Haccu
  icases Haccb with ⟨Hs0, Hs1, Hs2, Hs3, Hs4, Hs5, Hs6, Hs7, Hs8, Hs9, Hs10, Hs11, Hs12, Hs13, Hs14, Hs15, Hs16, Hs17, Hs18, Hs19, Hs20, Hs21, Hs22, Hs23⟩
  ihave Hs0 := (Entails.of_eq (pts_set_eq (F := F) (ℓ := (Memref.whole cc0_scratch0 : Memref sig .tc .vmem S2048x2048 .f32).view.loc (c : Thread nD τ)) (outSrc_set_0 c).symm)) $$ Hs0
  ihave Hs1 := (Entails.of_eq (pts_set_eq (F := F) (ℓ := (Memref.whole cc0_scratch0 : Memref sig .tc .vmem S2048x2048 .f32).view.loc (c : Thread nD τ)) (outSrc_set_1 c).symm)) $$ Hs1
  ihave Hs2 := (Entails.of_eq (pts_set_eq (F := F) (ℓ := (Memref.whole cc0_scratch0 : Memref sig .tc .vmem S2048x2048 .f32).view.loc (c : Thread nD τ)) (outSrc_set_2 c).symm)) $$ Hs2
  ihave Hs3 := (Entails.of_eq (pts_set_eq (F := F) (ℓ := (Memref.whole cc0_scratch0 : Memref sig .tc .vmem S2048x2048 .f32).view.loc (c : Thread nD τ)) (outSrc_set_3 c).symm)) $$ Hs3
  ihave Hs4 := (Entails.of_eq (pts_set_eq (F := F) (ℓ := (Memref.whole cc0_scratch0 : Memref sig .tc .vmem S2048x2048 .f32).view.loc (c : Thread nD τ)) (outSrc_set_4 c).symm)) $$ Hs4
  ihave Hs5 := (Entails.of_eq (pts_set_eq (F := F) (ℓ := (Memref.whole cc0_scratch0 : Memref sig .tc .vmem S2048x2048 .f32).view.loc (c : Thread nD τ)) (outSrc_set_5 c).symm)) $$ Hs5
  ihave Hs6 := (Entails.of_eq (pts_set_eq (F := F) (ℓ := (Memref.whole cc0_scratch0 : Memref sig .tc .vmem S2048x2048 .f32).view.loc (c : Thread nD τ)) (outSrc_set_6 c).symm)) $$ Hs6
  ihave Hs7 := (Entails.of_eq (pts_set_eq (F := F) (ℓ := (Memref.whole cc0_scratch0 : Memref sig .tc .vmem S2048x2048 .f32).view.loc (c : Thread nD τ)) (outSrc_set_7 c).symm)) $$ Hs7
  ihave Hs8 := (Entails.of_eq (pts_set_eq (F := F) (ℓ := (Memref.whole cc0_scratch0 : Memref sig .tc .vmem S2048x2048 .f32).view.loc (c : Thread nD τ)) (outSrc_set_8 c).symm)) $$ Hs8
  ihave Hs9 := (Entails.of_eq (pts_set_eq (F := F) (ℓ := (Memref.whole cc0_scratch0 : Memref sig .tc .vmem S2048x2048 .f32).view.loc (c : Thread nD τ)) (outSrc_set_9 c).symm)) $$ Hs9
  ihave Hs10 := (Entails.of_eq (pts_set_eq (F := F) (ℓ := (Memref.whole cc0_scratch0 : Memref sig .tc .vmem S2048x2048 .f32).view.loc (c : Thread nD τ)) (outSrc_set_10 c).symm)) $$ Hs10
  ihave Hs11 := (Entails.of_eq (pts_set_eq (F := F) (ℓ := (Memref.whole cc0_scratch0 : Memref sig .tc .vmem S2048x2048 .f32).view.loc (c : Thread nD τ)) (outSrc_set_11 c).symm)) $$ Hs11
  ihave Hs12 := (Entails.of_eq (pts_set_eq (F := F) (ℓ := (Memref.whole cc0_scratch0 : Memref sig .tc .vmem S2048x2048 .f32).view.loc (c : Thread nD τ)) (outSrc_set_12 c).symm)) $$ Hs12
  ihave Hs13 := (Entails.of_eq (pts_set_eq (F := F) (ℓ := (Memref.whole cc0_scratch0 : Memref sig .tc .vmem S2048x2048 .f32).view.loc (c : Thread nD τ)) (outSrc_set_13 c).symm)) $$ Hs13
  ihave Hs14 := (Entails.of_eq (pts_set_eq (F := F) (ℓ := (Memref.whole cc0_scratch0 : Memref sig .tc .vmem S2048x2048 .f32).view.loc (c : Thread nD τ)) (outSrc_set_14 c).symm)) $$ Hs14
  ihave Hs15 := (Entails.of_eq (pts_set_eq (F := F) (ℓ := (Memref.whole cc0_scratch0 : Memref sig .tc .vmem S2048x2048 .f32).view.loc (c : Thread nD τ)) (outSrc_set_15 c).symm)) $$ Hs15
  ihave Hs16 := (Entails.of_eq (pts_set_eq (F := F) (ℓ := (Memref.whole cc0_scratch0 : Memref sig .tc .vmem S2048x2048 .f32).view.loc (c : Thread nD τ)) (outSrc_set_16 c).symm)) $$ Hs16
  ihave Hs17 := (Entails.of_eq (pts_set_eq (F := F) (ℓ := (Memref.whole cc0_scratch0 : Memref sig .tc .vmem S2048x2048 .f32).view.loc (c : Thread nD τ)) (outSrc_set_17 c).symm)) $$ Hs17
  ihave Hs18 := (Entails.of_eq (pts_set_eq (F := F) (ℓ := (Memref.whole cc0_scratch0 : Memref sig .tc .vmem S2048x2048 .f32).view.loc (c : Thread nD τ)) (outSrc_set_18 c).symm)) $$ Hs18
  ihave Hs19 := (Entails.of_eq (pts_set_eq (F := F) (ℓ := (Memref.whole cc0_scratch0 : Memref sig .tc .vmem S2048x2048 .f32).view.loc (c : Thread nD τ)) (outSrc_set_19 c).symm)) $$ Hs19
  ihave Hs20 := (Entails.of_eq (pts_set_eq (F := F) (ℓ := (Memref.whole cc0_scratch0 : Memref sig .tc .vmem S2048x2048 .f32).view.loc (c : Thread nD τ)) (outSrc_set_20 c).symm)) $$ Hs20
  ihave Hs21 := (Entails.of_eq (pts_set_eq (F := F) (ℓ := (Memref.whole cc0_scratch0 : Memref sig .tc .vmem S2048x2048 .f32).view.loc (c : Thread nD τ)) (outSrc_set_21 c).symm)) $$ Hs21
  ihave Hs22 := (Entails.of_eq (pts_set_eq (F := F) (ℓ := (Memref.whole cc0_scratch0 : Memref sig .tc .vmem S2048x2048 .f32).view.loc (c : Thread nD τ)) (outSrc_set_22 c).symm)) $$ Hs22
  ihave Hs23 := (Entails.of_eq (pts_set_eq (F := F) (ℓ := (Memref.whole cc0_scratch0 : Memref sig .tc .vmem S2048x2048 .f32).view.loc (c : Thread nD τ)) (outSrc_set_23 c).symm)) $$ Hs23
  ihave Houtu := (Entails.of_eq (pts_set_eq (F := F) (ℓ := (Memref.whole main_v1 : Memref sig .tc .hbm S2048x2048 .f32).view.loc (c : Thread nD τ)) (S' := Finset.univ) (View.set_whole _))) $$ Hout
  ihave Houtb := (Entails.of_eq ((outDst_blocks (F := F) c _).trans ((bigSep_univ_eq_bigSepL [0, 1, 2, 3, 4, 5, 6, 7, 8, 9, 10, 11, 12, 13, 14, 15, 16, 17, 18, 19, 20, 21, 22, 23] (by decide) (by decide) _).trans (bigSepL24 (F := F) _)))) $$ Houtu
  icases Houtb with ⟨Hd0, Hd1, Hd2, Hd3, Hd4, Hd5, Hd6, Hd7, Hd8, Hd9, Hd10, Hd11, Hd12, Hd13, Hd14, Hd15, Hd16, Hd17, Hd18, Hd19, Hd20, Hd21, Hd22, Hd23⟩
  ihave Hd0 := (Entails.of_eq (pts_set_eq (F := F) (ℓ := (Memref.whole main_v1 : Memref sig .tc .hbm S2048x2048 .f32).view.loc (c : Thread nD τ)) (outDst_set_0 c).symm)) $$ Hd0
  ihave Hd1 := (Entails.of_eq (pts_set_eq (F := F) (ℓ := (Memref.whole main_v1 : Memref sig .tc .hbm S2048x2048 .f32).view.loc (c : Thread nD τ)) (outDst_set_1 c).symm)) $$ Hd1
  ihave Hd2 := (Entails.of_eq (pts_set_eq (F := F) (ℓ := (Memref.whole main_v1 : Memref sig .tc .hbm S2048x2048 .f32).view.loc (c : Thread nD τ)) (outDst_set_2 c).symm)) $$ Hd2
  ihave Hd3 := (Entails.of_eq (pts_set_eq (F := F) (ℓ := (Memref.whole main_v1 : Memref sig .tc .hbm S2048x2048 .f32).view.loc (c : Thread nD τ)) (outDst_set_3 c).symm)) $$ Hd3
  ihave Hd4 := (Entails.of_eq (pts_set_eq (F := F) (ℓ := (Memref.whole main_v1 : Memref sig .tc .hbm S2048x2048 .f32).view.loc (c : Thread nD τ)) (outDst_set_4 c).symm)) $$ Hd4
  ihave Hd5 := (Entails.of_eq (pts_set_eq (F := F) (ℓ := (Memref.whole main_v1 : Memref sig .tc .hbm S2048x2048 .f32).view.loc (c : Thread nD τ)) (outDst_set_5 c).symm)) $$ Hd5
  ihave Hd6 := (Entails.of_eq (pts_set_eq (F := F) (ℓ := (Memref.whole main_v1 : Memref sig .tc .hbm S2048x2048 .f32).view.loc (c : Thread nD τ)) (outDst_set_6 c).symm)) $$ Hd6
  ihave Hd7 := (Entails.of_eq (pts_set_eq (F := F) (ℓ := (Memref.whole main_v1 : Memref sig .tc .hbm S2048x2048 .f32).view.loc (c : Thread nD τ)) (outDst_set_7 c).symm)) $$ Hd7
  ihave Hd8 := (Entails.of_eq (pts_set_eq (F := F) (ℓ := (Memref.whole main_v1 : Memref sig .tc .hbm S2048x2048 .f32).view.loc (c : Thread nD τ)) (outDst_set_8 c).symm)) $$ Hd8
  ihave Hd9 := (Entails.of_eq (pts_set_eq (F := F) (ℓ := (Memref.whole main_v1 : Memref sig .tc .hbm S2048x2048 .f32).view.loc (c : Thread nD τ)) (outDst_set_9 c).symm)) $$ Hd9
  ihave Hd10 := (Entails.of_eq (pts_set_eq (F := F) (ℓ := (Memref.whole main_v1 : Memref sig .tc .hbm S2048x2048 .f32).view.loc (c : Thread nD τ)) (outDst_set_10 c).symm)) $$ Hd10
  ihave Hd11 := (Entails.of_eq (pts_set_eq (F := F) (ℓ := (Memref.whole main_v1 : Memref sig .tc .hbm S2048x2048 .f32).view.loc (c : Thread nD τ)) (outDst_set_11 c).symm)) $$ Hd11
  ihave Hd12 := (Entails.of_eq (pts_set_eq (F := F) (ℓ := (Memref.whole main_v1 : Memref sig .tc .hbm S2048x2048 .f32).view.loc (c : Thread nD τ)) (outDst_set_12 c).symm)) $$ Hd12
  ihave Hd13 := (Entails.of_eq (pts_set_eq (F := F) (ℓ := (Memref.whole main_v1 : Memref sig .tc .hbm S2048x2048 .f32).view.loc (c : Thread nD τ)) (outDst_set_13 c).symm)) $$ Hd13
  ihave Hd14 := (Entails.of_eq (pts_set_eq (F := F) (ℓ := (Memref.whole main_v1 : Memref sig .tc .hbm S2048x2048 .f32).view.loc (c : Thread nD τ)) (outDst_set_14 c).symm)) $$ Hd14
  ihave Hd15 := (Entails.of_eq (pts_set_eq (F := F) (ℓ := (Memref.whole main_v1 : Memref sig .tc .hbm S2048x2048 .f32).view.loc (c : Thread nD τ)) (outDst_set_15 c).symm)) $$ Hd15
  ihave Hd16 := (Entails.of_eq (pts_set_eq (F := F) (ℓ := (Memref.whole main_v1 : Memref sig .tc .hbm S2048x2048 .f32).view.loc (c : Thread nD τ)) (outDst_set_16 c).symm)) $$ Hd16
  ihave Hd17 := (Entails.of_eq (pts_set_eq (F := F) (ℓ := (Memref.whole main_v1 : Memref sig .tc .hbm S2048x2048 .f32).view.loc (c : Thread nD τ)) (outDst_set_17 c).symm)) $$ Hd17
  ihave Hd18 := (Entails.of_eq (pts_set_eq (F := F) (ℓ := (Memref.whole main_v1 : Memref sig .tc .hbm S2048x2048 .f32).view.loc (c : Thread nD τ)) (outDst_set_18 c).symm)) $$ Hd18
  ihave Hd19 := (Entails.of_eq (pts_set_eq (F := F) (ℓ := (Memref.whole main_v1 : Memref sig .tc .hbm S2048x2048 .f32).view.loc (c : Thread nD τ)) (outDst_set_19 c).symm)) $$ Hd19
  ihave Hd20 := (Entails.of_eq (pts_set_eq (F := F) (ℓ := (Memref.whole main_v1 : Memref sig .tc .hbm S2048x2048 .f32).view.loc (c : Thread nD τ)) (outDst_set_20 c).symm)) $$ Hd20
  ihave Hd21 := (Entails.of_eq (pts_set_eq (F := F) (ℓ := (Memref.whole main_v1 : Memref sig .tc .hbm S2048x2048 .f32).view.loc (c : Thread nD τ)) (outDst_set_21 c).symm)) $$ Hd21
  ihave Hd22 := (Entails.of_eq (pts_set_eq (F := F) (ℓ := (Memref.whole main_v1 : Memref sig .tc .hbm S2048x2048 .f32).view.loc (c : Thread nD τ)) (outDst_set_22 c).symm)) $$ Hd22
  ihave Hd23 := (Entails.of_eq (pts_set_eq (F := F) (ℓ := (Memref.whole main_v1 : Memref sig .tc .hbm S2048x2048 .f32).view.loc (c : Thread nD τ)) (outDst_set_23 c).symm)) $$ Hd23
  have hpay : iprop(((outDstM0 c : Memref sig .tc .hbm S256x384 .f32).view.loc (c : Thread nD τ) ↦[(outDstM0 c : Memref sig .tc .hbm S256x384 .f32).view.set]{fullShare}
        ((outDstM0 c : Memref sig .tc .hbm S256x384 .f32).view.write (Elt F) fo ((outSrcM0 c : Memref sig .tc .vmem S256x384 .f32).view.read (Elt F) ((Memref.whole cc0_scratch0 : Memref sig .tc .vmem S2048x2048 .f32).view.writes (Elt F) f3 [⟨Rect.unit (s := S2048x2048) (k0_off37 c) ![256, 384] (k0_off37_inb c), k0_pay61 v909 v914 cst_707⟩])) Finset.univ))
      ∗ ((outSrcM0 c : Memref sig .tc .vmem S256x384 .f32).view.loc (c : Thread nD τ) ↦[(outSrcM0 c : Memref sig .tc .vmem S256x384 .f32).view.set]{fullShare} ((Memref.whole cc0_scratch0 : Memref sig .tc .vmem S2048x2048 .f32).view.writes (Elt F) f3 [⟨Rect.unit (s := S2048x2048) (k0_off37 c) ![256, 384] (k0_off37_inb c), k0_pay61 v909 v914 cst_707⟩]))) ⊢ pay V c (.out 0) 0 := by
    show _ ⊢ iprop(ptsIs c (outDstM0 c) (V.out0 c) ∗ ptsAny (F := F) c (outSrcM0 c))
    iintro ⟨Hd, Hs⟩
    isplitl [Hd]
    · unfold ptsIs
      iexists _
      isplitl [Hd]; · iexact Hd
      ipureintro; rw [View.read_write_univ]; exact hV
    · unfold ptsAny
      iexists _
      iexact Hs
  iapply (wp_copy_own V c (.out 0) (by decide) (src := outSrcM0 c) (dst := outDstM0 c) (out_sem_eq 0 _) rfl fo κo hpay) $$ [Hs0 Hd0 Hto]
  · isplitr; · iexact HIo
    isplitl [Hs0]; · iexact Hs0
    isplitl [Hd0]; · iexact Hd0
    isplitl [Hto]; · iexact Hto
    iexact Hro
  iintro Hco
  iapply (wp_wait_xfer V c (.rsS 1 2) (by decide) 21 (rsS_sem_eq 1 2 _)
      (show (stgM1_2 : Memref sig .tc .vmem S256x384 .bf16).view.dmaCredit = amt (.rsS 1 2) from rfl)
      (wpE_waitDma2_eq 𝒱₀ (c : Thread nD τ) none Set.univ)
      (mayWait_own c (.rsS 1 2) (lv_cell c _) 21) κw W) $$ [Hcw HO Hatw]
  · isplitr; · iexact HIw
    isplitl [Hcw]; · iexact Hcw
    isplitl [HO]; · iexact HO
    isplitr; · iexact Hlev
    iexact Hatw
  iintro ⟨HO, Hatw, Hpay1⟩
  iapply (wp_wait_xfer V c (.rsR 1 2) (by decide) 21 (rsR_sem_eq 1 2 _)
      (show (commM1_2 : Memref sig .tc .vmem S256x384 .bf16).view.dmaCredit = amt (.rsR 1 2) from rfl)
      (wpE_waitDma2_eq 𝒱₀ (c : Thread nD τ) none Set.univ)
      (mayWait_rsR c 1 2 21 (by decide)) κv (insert ((CK.rsS 1 2).sem, ()) W)) $$ [Hcv HO Hatv]
  · isplitr; · iexact HIv
    isplitl [Hcv]; · iexact Hcv
    isplitl [HO]; · iexact HO
    isplitr; · iexact Hlev
    iexact Hatv
  iintro ⟨HO, Hatv, Hpay2⟩
  ihave Hp1 := (Entails.of_eq (show pay V c (CK.rsS 1 2) 0 = ptsAny (F := F) c stgM1_2 from rfl)) $$ Hpay1
  ihave Hp2 := (Entails.of_eq (show pay V c (CK.rsR 1 2) 0 = ptsIs c commM1_2 (V.rs1_2 (nbr 0 c)) from rfl)) $$ Hpay2
  sl_step
  isplitr; · ipureintro; trivial
  isplitl [Hco]; · iexact Hco
  isplitl [HO]; · iexact HO
  isplitl [Hatw]; · iexact Hatw
  isplitl [Hatv]; · iexact Hatv
  isplitl [Hp1]; · iexact Hp1
  isplitl [Hp2]; · iexact Hp2
  isplitl [Hag]; · iexact Hag
  isplitl [Hs1]; · iexact Hs1
  isplitl [Hs2]; · iexact Hs2
  isplitl [Hs3]; · iexact Hs3
  isplitl [Hs4]; · iexact Hs4
  isplitl [Hs5]; · iexact Hs5
  isplitl [Hs6]; · iexact Hs6
  isplitl [Hs7]; · iexact Hs7
  isplitl [Hs8]; · iexact Hs8
  isplitl [Hs9]; · iexact Hs9
  isplitl [Hs10]; · iexact Hs10
  isplitl [Hs11]; · iexact Hs11
  isplitl [Hs12]; · iexact Hs12
  isplitl [Hs13]; · iexact Hs13
  isplitl [Hs14]; · iexact Hs14
  isplitl [Hs15]; · iexact Hs15
  isplitl [Hs16]; · iexact Hs16
  isplitl [Hs17]; · iexact Hs17
  isplitl [Hs18]; · iexact Hs18
  isplitl [Hs19]; · iexact Hs19
  isplitl [Hs20]; · iexact Hs20
  isplitl [Hs21]; · iexact Hs21
  isplitl [Hs22]; · iexact Hs22
  isplitl [Hs23]; · iexact Hs23
  isplitl [Hd1]; · iexact Hd1
  isplitl [Hd2]; · iexact Hd2
  isplitl [Hd3]; · iexact Hd3
  isplitl [Hd4]; · iexact Hd4
  isplitl [Hd5]; · iexact Hd5
  isplitl [Hd6]; · iexact Hd6
  isplitl [Hd7]; · iexact Hd7
  isplitl [Hd8]; · iexact Hd8
  isplitl [Hd9]; · iexact Hd9
  isplitl [Hd10]; · iexact Hd10
  isplitl [Hd11]; · iexact Hd11
  isplitl [Hd12]; · iexact Hd12
  isplitl [Hd13]; · iexact Hd13
  isplitl [Hd14]; · iexact Hd14
  isplitl [Hd15]; · iexact Hd15
  isplitl [Hd16]; · iexact Hd16
  isplitl [Hd17]; · iexact Hd17
  isplitl [Hd18]; · iexact Hd18
  isplitl [Hd19]; · iexact Hd19
  isplitl [Hd20]; · iexact Hd20
  isplitl [Hd21]; · iexact Hd21
  isplitl [Hd22]; · iexact Hd22
  iexact Hd23

end Cert.KernelIdeal.Proto

end
-- ==== Proof.Body31.lean ====
/-
Stretch 31 of a device's kernel body: the sum of group 1's last landing (256 rows) into the device's own 256 rows of the
accumulator's block 1, their gelu stored back and, rounded, into its own rows of group 1's all-gather buffer, and the copy
of that finished block to the result array.
-/
import proofs.«900882_g7700000000000883_dist_matmul_gelu_kshard_i_m2048_n2048_k1024_v7x_i8_f32_1_alg».proof.Proof.Rules
import proofs.«900882_g7700000000000883_dist_matmul_gelu_kshard_i_m2048_n2048_k1024_v7x_i8_f32_1_alg».proof.Proof.TopoTab
import proofs.«900882_g7700000000000883_dist_matmul_gelu_kshard_i_m2048_n2048_k1024_v7x_i8_f32_1_alg».proof.Proof.PiecesTab
import proofs.«900882_g7700000000000883_dist_matmul_gelu_kshard_i_m2048_n2048_k1024_v7x_i8_f32_1_alg».proof.Proof.Gen.KernelIdeal.Skeleton
import proofs.«900882_g7700000000000883_dist_matmul_gelu_kshard_i_m2048_n2048_k1024_v7x_i8_f32_1_alg».proof.Proof.TopoClosed
import proofs.«900882_g7700000000000883_dist_matmul_gelu_kshard_i_m2048_n2048_k1024_v7x_i8_f32_1_alg».proof.Proof.PiecesOutSep
import Idealize.ShloMosaic.Lib.Pipeline.Value

set_option maxRecDepth 16384

noncomputable section

namespace Cert.KernelIdeal.Proto

open Cert.KernelIdeal Cert.KernelIdeal.Gen Cert.KernelIdeal.Topo
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : Vals F)

set_option maxHeartbeats 4000000 in
theorem part31_run (c : Dev nD) (κo : ℕ) (v628 : BitVec 32)
    (fb : Buf (Elt F) ((outSrcM1 c : Memref sig .tc .vmem S256x384 .f32).view.loc (c : Thread nD τ)))
    (fl : Buf (Elt F) ((commM1_2 : Memref sig .tc .vmem S256x384 .bf16).view.loc (c : Thread nD τ)))
    (fa : Buf (Elt F) ((agM1_0 c : Memref sig .tc .vmem S256x384 .bf16).view.loc (c : Thread nD τ)))
    (fo : Buf (Elt F) ((outDstM1 c : Memref sig .tc .hbm S256x384 .f32).view.loc (c : Thread nD τ)))
    (hV : V.out1 c ((outSrcM1 c : Memref sig .tc .vmem S256x384 .f32).view.read (Elt F) (View.write (Elt F) ((Memref.whole cc0_scratch0 : Memref sig .tc .vmem S2048x2048 .f32).access (Rect.unit (s := S2048x2048) (k0_off41 c) ![256, 384] (k0_off41_inb c))) (View.write (Elt F) ((Memref.whole cc0_scratch0 : Memref sig .tc .vmem S2048x2048 .f32).access (Rect.unit (s := S2048x2048) (k0_off41 c) ![256, 384] (k0_off41_inb c))) fb (k0_pay63 (View.readAt (Elt F) (Memref.whole cc0_scratch0 : Memref sig .tc .vmem S2048x2048 .f32).view (Rect.unit (s := S2048x2048) (k0_off41 c) ![256, 384] (k0_off41_inb c)).toLoadRect fb) (View.readAt (Elt F) (Memref.whole cc0_scratch2 : Memref sig .tc .vmem S1792x384 .bf16).view (Rect.unit (s := S1792x384) (k0_off60 c) ![256, 384] (k0_off60_inb c)).toLoadRect fl)) Finset.univ) (k0_pay65 (k0_pay63 (View.readAt (Elt F) (Memref.whole cc0_scratch0 : Memref sig .tc .vmem S2048x2048 .f32).view (Rect.unit (s := S2048x2048) (k0_off41 c) ![256, 384] (k0_off41_inb c)).toLoadRect fb) (View.readAt (Elt F) (Memref.whole cc0_scratch2 : Memref sig .tc .vmem S1792x384 .bf16).view (Rect.unit (s := S1792x384) (k0_off60 c) ![256, 384] (k0_off60_inb c)).toLoadRect fl))) Finset.univ))) :
    iprop(heldW c (outSrcM1 c : Memref sig .tc .vmem S256x384 .f32) fb
        ∗ heldW c (commM1_2 : Memref sig .tc .vmem S256x384 .bf16) fl
        ∗ heldW c (agM1_0 c : Memref sig .tc .vmem S256x384 .bf16) fa
        ∗ heldW c (outDstM1 c : Memref sig .tc .hbm S256x384 .f32) fo
        ∗ cellInv ER (sched V) κo (cell c (.out 1)) ∗ dutyTok ER (cell c (.out 1)) 0 (0 : Fin 3) ∗ reached ER (cell c (.out 1)) 0)
      ⊢ wp frame (wpE (defs₀ (F := F)) 𝒱₀ c none) Set.univ
          (k0_part31 (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23 c v628)
          (fun r => iprop(⌜r = ⟨⟩⌝ ∗ cred (tallyAt (cell c (.out 1)) () (amt (.out 1)))
            ∗ heldW c (commM1_2 : Memref sig .tc .vmem S256x384 .bf16) fl
            ∗ heldW c (agM1_0 c : Memref sig .tc .vmem S256x384 .bf16) (View.write (Elt F) ((Memref.whole cc0_scratch14 : Memref sig .tc .vmem S2048x384 .bf16).access (Rect.unit (s := S2048x384) (k0_off61 c) ![256, 384] (k0_off61_inb c))) fa (k0_pay66 (k0_pay63 (View.readAt (Elt F) (Memref.whole cc0_scratch0 : Memref sig .tc .vmem S2048x2048 .f32).view (Rect.unit (s := S2048x2048) (k0_off41 c) ![256, 384] (k0_off41_inb c)).toLoadRect fb) (View.readAt (Elt F) (Memref.whole cc0_scratch2 : Memref sig .tc .vmem S1792x384 .bf16).view (Rect.unit (s := S1792x384) (k0_off60 c) ![256, 384] (k0_off60_inb c)).toLoadRect fl))) Finset.univ))) := by
  simp only [k0_part31_eq_skeleton]; unfold k0_part31_skel
  simp only [Prog.lift, Prog.bind_op, Prog.bind_ret, Prog.pure_eq_ret]
  iintro ⟨Hblk, Hland, Hag, Hdst, #HIo, Hto, #Hro⟩
  unfold heldW
  have hinc1 : ((Memref.whole cc0_scratch2 : Memref sig .tc .vmem S1792x384 .bf16).access (Rect.unit (s := S1792x384) (k0_off60 c) ![256, 384] (k0_off60_inb c))).set
      ⊆ (commM1_2 : Memref sig .tc .vmem S256x384 .bf16).view.set := by
    rw [View.set_slice_whole, View.set_slice_whole]
    refine unit_subset ?_
    piece_arith c [off60_eq]
  have hinc2 : ((Memref.whole cc0_scratch0 : Memref sig .tc .vmem S2048x2048 .f32).access (Rect.unit (s := S2048x2048) (k0_off41 c) ![256, 384] (k0_off41_inb c))).set
      ⊆ (outSrcM1 c : Memref sig .tc .vmem S256x384 .f32).view.set := by
    rw [View.set_slice_whole, View.set_slice_whole]
    refine unit_subset ?_
    piece_arith c [off41_eq, off62_eq]
  have hinc3 : ((Memref.whole cc0_scratch0 : Memref sig .tc .vmem S2048x2048 .f32).access (Rect.unit (s := S2048x2048) (k0_off41 c) ![256, 384] (k0_off41_inb c))).setOn Finset.univ
      ⊆ (outSrcM1 c : Memref sig .tc .vmem S256x384 .f32).view.set := by
    rw [View.setOn_univ]
    rw [View.set_slice_whole, View.set_slice_whole]
    refine unit_subset ?_
    piece_arith c [off41_eq, off62_eq]
  have hincA : ((Memref.whole cc0_scratch14 : Memref sig .tc .vmem S2048x384 .bf16).access (Rect.unit (s := S2048x384) (k0_off61 c) ![256, 384] (k0_off61_inb c))).set
      ⊆ (agM1_0 c : Memref sig .tc .vmem S256x384 .bf16).view.set := by
    rw [View.set_slice_whole, View.set_slice_whole]
    refine unit_subset ?_
    piece_arith c [off61_eq, off74_eq]
  have hincB : ((Memref.whole cc0_scratch14 : Memref sig .tc .vmem S2048x384 .bf16).access (Rect.unit (s := S2048x384) (k0_off61 c) ![256, 384] (k0_off61_inb c))).setOn Finset.univ
      ⊆ (agM1_0 c : Memref sig .tc .vmem S256x384 .bf16).view.set := by
    rw [View.setOn_univ]; exact hincA
  sl_exec
  have hpay : iprop(((outDstM1 c : Memref sig .tc .hbm S256x384 .f32).view.loc (c : Thread nD τ) ↦[(outDstM1 c : Memref sig .tc .hbm S256x384 .f32).view.set]{fullShare}
        ((outDstM1 c : Memref sig .tc .hbm S256x384 .f32).view.write (Elt F) fo ((outSrcM1 c : Memref sig .tc .vmem S256x384 .f32).view.read (Elt F) (View.write (Elt F) ((Memref.whole cc0_scratch0 : Memref sig .tc .vmem S2048x2048 .f32).access (Rect.unit (s := S2048x2048) (k0_off41 c) ![256, 384] (k0_off41_inb c))) (View.write (Elt F) ((Memref.whole cc0_scratch0 : Memref sig .tc .vmem S2048x2048 .f32).access (Rect.unit (s := S2048x2048) (k0_off41 c) ![256, 384] (k0_off41_inb c))) fb (k0_pay63 (View.readAt (Elt F) (Memref.whole cc0_scratch0 : Memref sig .tc .vmem S2048x2048 .f32).view (Rect.unit (s := S2048x2048) (k0_off41 c) ![256, 384] (k0_off41_inb c)).toLoadRect fb) (View.readAt (Elt F) (Memref.whole cc0_scratch2 : Memref sig .tc .vmem S1792x384 .bf16).view (Rect.unit (s := S1792x384) (k0_off60 c) ![256, 384] (k0_off60_inb c)).toLoadRect fl)) Finset.univ) (k0_pay65 (k0_pay63 (View.readAt (Elt F) (Memref.whole cc0_scratch0 : Memref sig .tc .vmem S2048x2048 .f32).view (Rect.unit (s := S2048x2048) (k0_off41 c) ![256, 384] (k0_off41_inb c)).toLoadRect fb) (View.readAt (Elt F) (Memref.whole cc0_scratch2 : Memref sig .tc .vmem S1792x384 .bf16).view (Rect.unit (s := S1792x384) (k0_off60 c) ![256, 384] (k0_off60_inb c)).toLoadRect fl))) Finset.univ)) Finset.univ))
      ∗ ((outSrcM1 c : Memref sig .tc .vmem S256x384 .f32).view.loc (c : Thread nD τ) ↦[(outSrcM1 c : Memref sig .tc .vmem S256x384 .f32).view.set]{fullShare} (View.write (Elt F) ((Memref.whole cc0_scratch0 : Memref sig .tc .vmem S2048x2048 .f32).access (Rect.unit (s := S2048x2048) (k0_off41 c) ![256, 384] (k0_off41_inb c))) (View.write (Elt F) ((Memref.whole cc0_scratch0 : Memref sig .tc .vmem S2048x2048 .f32).access (Rect.unit (s := S2048x2048) (k0_off41 c) ![256, 384] (k0_off41_inb c))) fb (k0_pay63 (View.readAt (Elt F) (Memref.whole cc0_scratch0 : Memref sig .tc .vmem S2048x2048 .f32).view (Rect.unit (s := S2048x2048) (k0_off41 c) ![256, 384] (k0_off41_inb c)).toLoadRect fb) (View.readAt (Elt F) (Memref.whole cc0_scratch2 : Memref sig .tc .vmem S1792x384 .bf16).view (Rect.unit (s := S1792x384) (k0_off60 c) ![256, 384] (k0_off60_inb c)).toLoadRect fl)) Finset.univ) (k0_pay65 (k0_pay63 (View.readAt (Elt F) (Memref.whole cc0_scratch0 : Memref sig .tc .vmem S2048x2048 .f32).view (Rect.unit (s := S2048x2048) (k0_off41 c) ![256, 384] (k0_off41_inb c)).toLoadRect fb) (View.readAt (Elt F) (Memref.whole cc0_scratch2 : Memref sig .tc .vmem S1792x384 .bf16).view (Rect.unit (s := S1792x384) (k0_off60 c) ![256, 384] (k0_off60_inb c)).toLoadRect fl))) Finset.univ))) ⊢ pay V c (.out 1) 0 := by
    show _ ⊢ iprop(ptsIs c (outDstM1 c) (V.out1 c) ∗ ptsAny (F := F) c (outSrcM1 c))
    iintro ⟨Hd, Hs⟩
    isplitl [Hd]
    · unfold ptsIs
      iexists _
      isplitl [Hd]; · iexact Hd
      ipureintro; rw [View.read_write_univ]; exact hV
    · unfold ptsAny
      iexists _
      iexact Hs
  iapply (wp_copy_own V c (.out 1) (by decide) (src := outSrcM1 c) (dst := outDstM1 c) (out_sem_eq 1 _) rfl fo κo hpay) $$ [Hblk Hdst Hto]
  · isplitr; · iexact HIo
    isplitl [Hblk]; · iexact Hblk
    isplitl [Hdst]; · iexact Hdst
    isplitl [Hto]; · iexact Hto
    iexact Hro
  iintro Hco
  sl_step
  isplitr; · ipureintro; trivial
  isplitl [Hco]; · iexact Hco
  isplitl [Hland]; · iexact Hland
  iexact Hag

end Cert.KernelIdeal.Proto

end
-- ==== Proof.Body32.lean ====
/-
Stretch 32 of a device's kernel body: the two waits of group 2's third exchange, the sum of its last landing (256 rows)
into the device's own 256 rows of the accumulator's block 2, and the first terms of the gelu of those rows.
-/
import proofs.«900882_g7700000000000883_dist_matmul_gelu_kshard_i_m2048_n2048_k1024_v7x_i8_f32_1_alg».proof.Proof.Rules
import proofs.«900882_g7700000000000883_dist_matmul_gelu_kshard_i_m2048_n2048_k1024_v7x_i8_f32_1_alg».proof.Proof.TopoTab
import proofs.«900882_g7700000000000883_dist_matmul_gelu_kshard_i_m2048_n2048_k1024_v7x_i8_f32_1_alg».proof.Proof.PiecesTab
import proofs.«900882_g7700000000000883_dist_matmul_gelu_kshard_i_m2048_n2048_k1024_v7x_i8_f32_1_alg».proof.Proof.Gen.KernelIdeal.Skeleton
import proofs.«900882_g7700000000000883_dist_matmul_gelu_kshard_i_m2048_n2048_k1024_v7x_i8_f32_1_alg».proof.Proof.TopoClosed
import proofs.«900882_g7700000000000883_dist_matmul_gelu_kshard_i_m2048_n2048_k1024_v7x_i8_f32_1_alg».proof.Proof.PiecesOutSep
import Idealize.ShloMosaic.Lib.Pipeline.Value

set_option maxRecDepth 16384

noncomputable section

namespace Cert.KernelIdeal.Proto

open Cert.KernelIdeal Cert.KernelIdeal.Gen Cert.KernelIdeal.Topo
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : Vals F)

set_option maxHeartbeats 2000000 in
theorem part32_run (c : Dev nD) (κw κv : ℕ) (W : Waits sig Unit) (v682 v701 : BitVec 32)
    (fb : Buf (Elt F) ((outSrcM2 c : Memref sig .tc .vmem S256x384 .f32).view.loc (c : Thread nD τ))) :
    iprop(owes (c : Thread nD τ) (Owe c 21) W ∗ levAts L lv
        ∗ heldW c (outSrcM2 c : Memref sig .tc .vmem S256x384 .f32) fb
        ∗ cellInv ER (sched V) κw (cell c (.rsS 2 2)) ∗ cred (tallyAt (cell c (.rsS 2 2)) () (amt (.rsS 2 2))) ∗ atPos ER (cell c (.rsS 2 2)) 0 ∅ 0
        ∗ cellInv ER (sched V) κv (cell c (.rsR 2 2)) ∗ cred (tallyAt (cell c (.rsR 2 2)) () (amt (.rsR 2 2))) ∗ atPos ER (cell c (.rsR 2 2)) 0 ∅ 0)
      ⊢ wp frame (wpE (defs₀ (F := F)) 𝒱₀ c none) Set.univ
          (k0_part32 (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23 c v682 v701)
          (fun r => iprop(∃ fl : Buf (Elt F) ((commM2_2 : Memref sig .tc .vmem S256x384 .bf16).view.loc (c : Thread nD τ)), ⌜r = ⟨k0_pay68 (k0_pay67 (View.readAt (Elt F) (Memref.whole cc0_scratch0 : Memref sig .tc .vmem S2048x2048 .f32).view (Rect.unit (s := S2048x2048) (k0_off45 c) ![256, 384] (k0_off45_inb c)).toLoadRect fb) (View.readAt (Elt F) (Memref.whole cc0_scratch3 : Memref sig .tc .vmem S1792x384 .bf16).view (Rect.unit (s := S1792x384) (k0_off63 c) ![256, 384] (k0_off63_inb c)).toLoadRect fl)), k0_pay69 (k0_pay67 (View.readAt (Elt F) (Memref.whole cc0_scratch0 : Memref sig .tc .vmem S2048x2048 .f32).view (Rect.unit (s := S2048x2048) (k0_off45 c) ![256, 384] (k0_off45_inb c)).toLoadRect fb) (View.readAt (Elt F) (Memref.whole cc0_scratch3 : Memref sig .tc .vmem S1792x384 .bf16).view (Rect.unit (s := S1792x384) (k0_off63 c) ![256, 384] (k0_off63_inb c)).toLoadRect fl))⟩⌝
            ∗ ⌜V.rs2_2 (nbr 1 c) ((commM2_2 : Memref sig .tc .vmem S256x384 .bf16).view.read (Elt F) fl)⌝
            ∗ heldW c (commM2_2 : Memref sig .tc .vmem S256x384 .bf16) fl
            ∗ owes (c : Thread nD τ) (Owe c 21) (insert ((CK.rsR 2 2).sem, ()) (insert ((CK.rsS 2 2).sem, ()) W))
            ∗ atPos ER (cell c (.rsS 2 2)) 1 ∅ 0 ∗ atPos ER (cell c (.rsR 2 2)) 1 ∅ 0
            ∗ ptsAny (F := F) c stgM2_2
            ∗ heldW c (outSrcM2 c : Memref sig .tc .vmem S256x384 .f32) (View.write (Elt F) ((Memref.whole cc0_scratch0 : Memref sig .tc .vmem S2048x2048 .f32).access (Rect.unit (s := S2048x2048) (k0_off45 c) ![256, 384] (k0_off45_inb c))) fb (k0_pay67 (View.readAt (Elt F) (Memref.whole cc0_scratch0 : Memref sig .tc .vmem S2048x2048 .f32).view (Rect.unit (s := S2048x2048) (k0_off45 c) ![256, 384] (k0_off45_inb c)).toLoadRect fb) (View.readAt (Elt F) (Memref.whole cc0_scratch3 : Memref sig .tc .vmem S1792x384 .bf16).view (Rect.unit (s := S1792x384) (k0_off63 c) ![256, 384] (k0_off63_inb c)).toLoadRect fl)) Finset.univ))) := by
  simp only [k0_part32_eq_skeleton]; unfold k0_part32_skel
  simp only [Prog.lift, Prog.bind_op, Prog.bind_ret, Prog.pure_eq_ret]
  iintro ⟨HO, #Hlev, Hblk, #HIw, Hcw, Hatw, #HIv, Hcv, Hatv⟩
  unfold heldW
  iapply (wp_wait_xfer V c (.rsS 2 2) (by decide) 21 (rsS_sem_eq 2 2 _)
      (show (stgM2_2 : Memref sig .tc .vmem S256x384 .bf16).view.dmaCredit = amt (.rsS 2 2) from rfl)
      (wpE_waitDma2_eq 𝒱₀ (c : Thread nD τ) none Set.univ)
      (mayWait_own c (.rsS 2 2) (lv_cell c _) 21) κw W) $$ [Hcw HO Hatw]
  · isplitr; · iexact HIw
    isplitl [Hcw]; · iexact Hcw
    isplitl [HO]; · iexact HO
    isplitr; · iexact Hlev
    iexact Hatw
  iintro ⟨HO, Hatw, Hpay1⟩
  iapply (wp_wait_xfer V c (.rsR 2 2) (by decide) 21 (rsR_sem_eq 2 2 _)
      (show (commM2_2 : Memref sig .tc .vmem S256x384 .bf16).view.dmaCredit = amt (.rsR 2 2) from rfl)
      (wpE_waitDma2_eq 𝒱₀ (c : Thread nD τ) none Set.univ)
      (mayWait_rsR c 2 2 21 (by decide)) κv (insert ((CK.rsS 2 2).sem, ()) W)) $$ [Hcv HO Hatv]
  · isplitr; · iexact HIv
    isplitl [Hcv]; · iexact Hcv
    isplitl [HO]; · iexact HO
    isplitr; · iexact Hlev
    iexact Hatv
  iintro ⟨HO, Hatv, Hpay2⟩
  ihave Hp1 := (Entails.of_eq (show pay V c (CK.rsS 2 2) 0 = ptsAny (F := F) c stgM2_2 from rfl)) $$ Hpay1
  ihave Hp2 := (Entails.of_eq (show pay V c (CK.rsR 2 2) 0 = ptsIs c commM2_2 (V.rs2_2 (nbr 1 c)) from rfl)) $$ Hpay2
  unfold ptsIs
  icases Hp2 with ⟨%fl, Hland, %hX⟩
  have hinc1 : ((Memref.whole cc0_scratch3 : Memref sig .tc .vmem S1792x384 .bf16).access (Rect.unit (s := S1792x384) (k0_off63 c) ![256, 384] (k0_off63_inb c))).set
      ⊆ (commM2_2 : Memref sig .tc .vmem S256x384 .bf16).view.set := by
    rw [View.set_slice_whole, View.set_slice_whole]
    refine unit_subset ?_
    piece_arith c [off63_eq]
  have hinc2 : ((Memref.whole cc0_scratch0 : Memref sig .tc .vmem S2048x2048 .f32).access (Rect.unit (s := S2048x2048) (k0_off45 c) ![256, 384] (k0_off45_inb c))).set
      ⊆ (outSrcM2 c : Memref sig .tc .vmem S256x384 .f32).view.set := by
    rw [View.set_slice_whole, View.set_slice_whole]
    refine unit_subset ?_
    piece_arith c [off45_eq, off65_eq]
  have hinc3 : ((Memref.whole cc0_scratch0 : Memref sig .tc .vmem S2048x2048 .f32).access (Rect.unit (s := S2048x2048) (k0_off45 c) ![256, 384] (k0_off45_inb c))).setOn Finset.univ
      ⊆ (outSrcM2 c : Memref sig .tc .vmem S256x384 .f32).view.set := by
    rw [View.setOn_univ]
    rw [View.set_slice_whole, View.set_slice_whole]
    refine unit_subset ?_
    piece_arith c [off45_eq, off65_eq]
  sl_exec
  sl_step
  iexists fl
  isplitr; · ipureintro; rfl
  isplitr; · ipureintro; exact hX
  isplitl [Hland]; · iexact Hland
  isplitl [HO]; · iexact HO
  isplitl [Hatw]; · iexact Hatw
  isplitl [Hatv]; · iexact Hatv
  isplitl [Hp1]; · iexact Hp1
  iexact Hblk

end Cert.KernelIdeal.Proto

end
-- ==== Proof.Body33.lean ====
/-
Group 2's rows after the activation: stored back into the accumulator, rounded into the all-gather buffer's own rows, and the
finished block copied to the result array; then the waits for the last reduce-scatter round of group 3 (its staging rows come
back, the neighbour's partial sums land) and the load of group 3's own rows of the accumulator.
-/
import proofs.«900882_g7700000000000883_dist_matmul_gelu_kshard_i_m2048_n2048_k1024_v7x_i8_f32_1_alg».proof.Proof.Rules
import proofs.«900882_g7700000000000883_dist_matmul_gelu_kshard_i_m2048_n2048_k1024_v7x_i8_f32_1_alg».proof.Proof.TopoTab
import proofs.«900882_g7700000000000883_dist_matmul_gelu_kshard_i_m2048_n2048_k1024_v7x_i8_f32_1_alg».proof.Proof.PiecesTab
import proofs.«900882_g7700000000000883_dist_matmul_gelu_kshard_i_m2048_n2048_k1024_v7x_i8_f32_1_alg».proof.Proof.PiecesOutTab
import proofs.«900882_g7700000000000883_dist_matmul_gelu_kshard_i_m2048_n2048_k1024_v7x_i8_f32_1_alg».proof.Proof.Gen.KernelIdeal.Skeleton
import Idealize.ShloMosaic.Lib.Pipeline.Value

set_option maxRecDepth 16384

noncomputable section

namespace Cert.KernelIdeal.Proto

open Cert.KernelIdeal Cert.KernelIdeal.Gen Cert.KernelIdeal.Topo
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : Vals F)

set_option maxHeartbeats 2000000 in
theorem part33_run (c : Dev nD) (κo κs κr : ℕ) (W : Waits sig Unit) (v682 v736 v755 : BitVec 32) (v1009 v1016 : FVec F S256x384 .f32)
    (f2 : Buf (Elt F) ((outSrcM2 c).view.loc (c : Thread nD τ))) (f3 : Buf (Elt F) ((outSrcM3 c).view.loc (c : Thread nD τ)))
    (g2 : Buf (Elt F) ((agM2_0 c).view.loc (c : Thread nD τ))) (fd : Buf (Elt F) ((outDstM2 c).view.loc (c : Thread nD τ)))
    (hV : V.out2 c ((outSrcM2 c).view.read (Elt F) (((Memref.whole cc0_scratch0 : Memref sig .tc .vmem S2048x2048 .f32).access (Rect.unit (s := S2048x2048) (k0_off45 c) S256x384.size (k0_off45_inb c))).write (Elt F) f2 (k0_pay71 v1009 v1016) Finset.univ))) :
    iprop(cellInv ER (sched V) κo (cell c (.out 2)) ∗ cellInv ER (sched V) κs (cell c (.rsS 3 2)) ∗ cellInv ER (sched V) κr (cell c (.rsR 3 2))
        ∗ reached ER (cell c (.out 2)) 0 ∗ dutyTok ER (cell c (.out 2)) 0 (0 : Fin 3)
        ∗ cred (tallyAt (cell c (.rsS 3 2)) () (amt (.rsR 3 2))) ∗ cred (tallyAt (cell c (.rsR 3 2)) () (amt (.rsR 3 2)))
        ∗ atPos ER (cell c (.rsS 3 2)) 0 ∅ 0 ∗ atPos ER (cell c (.rsR 3 2)) 0 ∅ 0
        ∗ owes (c : Thread nD τ) (Owe c 21) W ∗ levAts L lv
        ∗ heldW c (outSrcM2 c) f2 ∗ heldW c (outSrcM3 c) f3 ∗ heldW c (agM2_0 c) g2 ∗ heldW c (outDstM2 c) fd)
      ⊢ wp frame (wpE (defs₀ (F := F)) 𝒱₀ c none) Set.univ
          (k0_part33 (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23 c v682 v736 v755 v1009 v1016)
          (fun r => iprop(⌜r = View.readAt (Elt F) (Memref.whole cc0_scratch0 : Memref sig .tc .vmem S2048x2048 .f32).view (Rect.unit (s := S2048x2048) (k0_off48 c) S256x384.size (k0_off48_inb c)).toLoadRect f3⌝
            ∗ cred (tallyAt (cell c (.out 2)) () (amt (.out 2)))
            ∗ owes (c : Thread nD τ) (Owe c 21) (insert ((CK.rsR 3 2).sem, ()) (insert ((CK.rsS 3 2).sem, ()) W))
            ∗ atPos ER (cell c (.rsS 3 2)) 1 ∅ 0 ∗ atPos ER (cell c (.rsR 3 2)) 1 ∅ 0
            ∗ ptsAny (F := F) c stgM3_2 ∗ ptsIs c commM3_2 (V.rs3_2 (nbr 2 c))
            ∗ heldW c (outSrcM3 c) f3 ∗ heldW c (agM2_0 c) (((Memref.whole cc0_scratch15 : Memref sig .tc .vmem S2048x384 .bf16).access (Rect.unit (s := S2048x384) (k0_off64 c) S256x384.size (k0_off64_inb c))).write (Elt F) g2 (k0_pay72 v1009 v1016) Finset.univ))) := by
  simp only [k0_part33_eq_skeleton]; unfold k0_part33_skel
  simp only [Prog.lift, Prog.bind_op, Prog.bind_ret, Prog.pure_eq_ret]
  iintro ⟨#HIo, #HIs, #HIr, #Hro, Hto, Hcs0, Hcr, Hats, Hatr, HO, #Hlev, H2, H3, Hg2, Hd⟩
  unfold heldW
  ihave Hcs := (Entails.of_eq (show cred (tallyAt (cell c (.rsS 3 2)) () (amt (.rsR 3 2))) = cred (tallyAt (cell c (.rsS 3 2)) () (amt (.rsS 3 2))) from rfl)) $$ Hcs0
  have h45 : ((Memref.whole cc0_scratch0 : Memref sig .tc .vmem S2048x2048 .f32).access (Rect.unit (s := S2048x2048) (k0_off45 c) ![256, 384] (k0_off45_inb c))).set ⊆ (outSrcM2 c).view.set :=
    le_of_eq ((View.set_slice_whole _ _).trans ((unit_set_congr ((off45_eq c).trans (off65_eq c).symm) rfl).trans (View.set_slice_whole _ _).symm))
  have h45' : ((Memref.whole cc0_scratch0 : Memref sig .tc .vmem S2048x2048 .f32).access (Rect.unit (s := S2048x2048) (k0_off45 c) ![256, 384] (k0_off45_inb c))).setOn Finset.univ ⊆ (outSrcM2 c).view.set := h45
  have h64 : ((Memref.whole cc0_scratch15 : Memref sig .tc .vmem S2048x384 .bf16).access (Rect.unit (s := S2048x384) (k0_off64 c) ![256, 384] (k0_off64_inb c))).set ⊆ (agM2_0 c).view.set :=
    le_of_eq ((View.set_slice_whole _ _).trans ((unit_set_congr ((off64_eq c).trans (off75_eq c).symm) rfl).trans (View.set_slice_whole _ _).symm))
  have h64' : ((Memref.whole cc0_scratch15 : Memref sig .tc .vmem S2048x384 .bf16).access (Rect.unit (s := S2048x384) (k0_off64 c) ![256, 384] (k0_off64_inb c))).setOn Finset.univ ⊆ (agM2_0 c).view.set := h64
  have h48 : ((Memref.whole cc0_scratch0 : Memref sig .tc .vmem S2048x2048 .f32).access (Rect.unit (s := S2048x2048) (k0_off48 c) ![256, 384] (k0_off48_inb c))).set ⊆ (outSrcM3 c).view.set :=
    le_of_eq ((View.set_slice_whole _ _).trans ((unit_set_congr ((off48_eq c).trans (off66_eq c).symm) rfl).trans (View.set_slice_whole _ _).symm))
  sl_exec
  -- the finished block goes to the result array
  iapply (wp_copy_own V c (.out 2) (by decide) (src := outSrcM2 c) (dst := outDstM2 c) (out_sem_eq 2 _) rfl fd κo
      (by
        show _ ⊢ iprop(ptsIs c (outDstM2 c) (V.out2 c) ∗ ptsAny (F := F) c (outSrcM2 c))
        exact BIClass.sep_mono (ptsIs_intro c (outDstM2 c) _ _ (by rw [View.read_write_univ]; exact hV)) (ptsAny_intro c (outSrcM2 c) _))) $$ [H2 Hd Hto]
  · isplitr; · iexact HIo
    isplitl [H2]; · iexact H2
    isplitl [Hd]; · iexact Hd
    isplitl [Hto]; · iexact Hto
    iexact Hro
  iintro Hco
  -- group 3's last reduce-scatter round: the staging rows come back, the landing rows arrive
  iapply (wp_wait_xfer V c (.rsS 3 2) (by decide) 21 (rsS_sem_eq 3 2 _) (k' := (stgM3_2 : Memref sig .tc .vmem S256x384 .bf16).view.dmaCredit) rfl (wpE_waitDma2_eq 𝒱₀ (c : Thread nD τ) none Set.univ)
      (mayWait_own c (.rsS 3 2) (lv_cell c (.rsS 3 2)) 21) κs W) $$ [Hcs HO Hats]
  · isplitr; · iexact HIs
    isplitl [Hcs]; · iexact Hcs
    isplitl [HO]; · iexact HO
    isplitr; · iexact Hlev
    iexact Hats
  iintro ⟨HO, Hats, Hqs⟩
  ihave Hps := (Entails.of_eq (show pay V c (.rsS 3 2) 0 = ptsAny (F := F) c stgM3_2 from rfl)) $$ Hqs
  iapply (wp_wait_xfer V c (.rsR 3 2) (by decide) 21 (rsR_sem_eq 3 2 _) (k' := (commM3_2 : Memref sig .tc .vmem S256x384 .bf16).view.dmaCredit) rfl (wpE_waitDma2_eq 𝒱₀ (c : Thread nD τ) none Set.univ)
      (mayWait_rsR c 3 2 21 (by decide)) κr _) $$ [Hcr HO Hatr]
  · isplitr; · iexact HIr
    isplitl [Hcr]; · iexact Hcr
    isplitl [HO]; · iexact HO
    isplitr; · iexact Hlev
    iexact Hatr
  iintro ⟨HO, Hatr, Hqr⟩
  ihave Hpr := (Entails.of_eq (show pay V c (.rsR 3 2) 0 = ptsIs c commM3_2 (V.rs3_2 (nbr 2 c)) from rfl)) $$ Hqr
  sl_exec
  sl_step
  isplitr; · ipureintro; rfl
  isplitl [Hco]; · iexact Hco
  isplitl [HO]; · iexact HO
  isplitl [Hats]; · iexact Hats
  isplitl [Hatr]; · iexact Hatr
  isplitl [Hps]; · iexact Hps
  isplitl [Hpr]; · iexact Hpr
  isplitl [H3]; · iexact H3
  iexact Hg2

end Cert.KernelIdeal.Proto

end
-- ==== Proof.Body34.lean ====
/-
Group 3's own rows: the neighbour's partial sums that landed at the last reduce-scatter step are added into the accumulator,
the activation is applied, the result stored back and rounded into the all-gather buffer's own rows, and the finished block
copied to the result array.
-/
import proofs.«900882_g7700000000000883_dist_matmul_gelu_kshard_i_m2048_n2048_k1024_v7x_i8_f32_1_alg».proof.Proof.Rules
import proofs.«900882_g7700000000000883_dist_matmul_gelu_kshard_i_m2048_n2048_k1024_v7x_i8_f32_1_alg».proof.Proof.TopoTab
import proofs.«900882_g7700000000000883_dist_matmul_gelu_kshard_i_m2048_n2048_k1024_v7x_i8_f32_1_alg».proof.Proof.PiecesTab
import proofs.«900882_g7700000000000883_dist_matmul_gelu_kshard_i_m2048_n2048_k1024_v7x_i8_f32_1_alg».proof.Proof.PiecesOutTab
import proofs.«900882_g7700000000000883_dist_matmul_gelu_kshard_i_m2048_n2048_k1024_v7x_i8_f32_1_alg».proof.Proof.Gen.KernelIdeal.Skeleton
import Idealize.ShloMosaic.Lib.Pipeline.Value

set_option maxRecDepth 16384

noncomputable section

namespace Cert.KernelIdeal.Proto

open Cert.KernelIdeal Cert.KernelIdeal.Gen Cert.KernelIdeal.Topo
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : Vals F)

set_option maxHeartbeats 2000000 in
theorem part34_run (c : Dev nD) (κo : ℕ) (v736 : BitVec 32) (v1045 : Vec F S256x384 .f32)
    (f3 : Buf (Elt F) ((outSrcM3 c).view.loc (c : Thread nD τ))) (fc : Buf (Elt F) ((commM3_2 : Memref sig .tc .vmem S256x384 .bf16).view.loc (c : Thread nD τ)))
    (g3 : Buf (Elt F) ((agM3_0 c).view.loc (c : Thread nD τ))) (fd : Buf (Elt F) ((outDstM3 c).view.loc (c : Thread nD τ)))
    (hV : V.out3 c ((outSrcM3 c).view.read (Elt F) (((Memref.whole cc0_scratch0 : Memref sig .tc .vmem S2048x2048 .f32).access (Rect.unit (s := S2048x2048) (k0_off48 c) S256x384.size (k0_off48_inb c))).write (Elt F) (((Memref.whole cc0_scratch0 : Memref sig .tc .vmem S2048x2048 .f32).access (Rect.unit (s := S2048x2048) (k0_off48 c) S256x384.size (k0_off48_inb c))).write (Elt F) f3 (k0_pay73 v1045 (View.readAt (Elt F) (Memref.whole cc0_scratch4 : Memref sig .tc .vmem S1792x384 .bf16).view (Rect.unit (s := S1792x384) (k0_off57 c) S256x384.size (k0_off57_inb c)).toLoadRect fc)) Finset.univ) (k0_pay75 (k0_pay73 v1045 (View.readAt (Elt F) (Memref.whole cc0_scratch4 : Memref sig .tc .vmem S1792x384 .bf16).view (Rect.unit (s := S1792x384) (k0_off57 c) S256x384.size (k0_off57_inb c)).toLoadRect fc))) Finset.univ))) :
    iprop(cellInv ER (sched V) κo (cell c (.out 3)) ∗ reached ER (cell c (.out 3)) 0 ∗ dutyTok ER (cell c (.out 3)) 0 (0 : Fin 3)
        ∗ heldW c (commM3_2 : Memref sig .tc .vmem S256x384 .bf16) fc ∗ heldW c (outSrcM3 c) f3 ∗ heldW c (agM3_0 c) g3 ∗ heldW c (outDstM3 c) fd)
      ⊢ wp frame (wpE (defs₀ (F := F)) 𝒱₀ c none) Set.univ
          (k0_part34 (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23 c v736 v1045)
          (fun r => iprop(⌜r = ⟨⟩⌝
            ∗ cred (tallyAt (cell c (.out 3)) () (amt (.out 3)))
            ∗ heldW c (commM3_2 : Memref sig .tc .vmem S256x384 .bf16) fc ∗ heldW c (agM3_0 c) (((Memref.whole cc0_scratch16 : Memref sig .tc .vmem S2048x384 .bf16).access (Rect.unit (s := S2048x384) (k0_off58 c) S256x384.size (k0_off58_inb c))).write (Elt F) g3 (k0_pay76 (k0_pay73 v1045 (View.readAt (Elt F) (Memref.whole cc0_scratch4 : Memref sig .tc .vmem S1792x384 .bf16).view (Rect.unit (s := S1792x384) (k0_off57 c) S256x384.size (k0_off57_inb c)).toLoadRect fc))) Finset.univ))) := by
  simp only [k0_part34_eq_skeleton]; unfold k0_part34_skel
  simp only [Prog.lift, Prog.bind_op, Prog.bind_ret, Prog.pure_eq_ret]
  iintro ⟨#HIo, #Hro, Hto, Hc, H3, Hg3, Hd⟩
  unfold heldW
  have h57 : ((Memref.whole cc0_scratch4 : Memref sig .tc .vmem S1792x384 .bf16).access (Rect.unit (s := S1792x384) (k0_off57 c) ![256, 384] (k0_off57_inb c))).set ⊆ (commM3_2 : Memref sig .tc .vmem S256x384 .bf16).view.set :=
    le_of_eq ((View.set_slice_whole _ _).trans ((unit_set_congr ((off57_eq c).trans (rfl).symm) rfl).trans (View.set_slice_whole _ _).symm))
  have h48 : ((Memref.whole cc0_scratch0 : Memref sig .tc .vmem S2048x2048 .f32).access (Rect.unit (s := S2048x2048) (k0_off48 c) ![256, 384] (k0_off48_inb c))).set ⊆ (outSrcM3 c).view.set :=
    le_of_eq ((View.set_slice_whole _ _).trans ((unit_set_congr ((off48_eq c).trans (off66_eq c).symm) rfl).trans (View.set_slice_whole _ _).symm))
  have h48' : ((Memref.whole cc0_scratch0 : Memref sig .tc .vmem S2048x2048 .f32).access (Rect.unit (s := S2048x2048) (k0_off48 c) ![256, 384] (k0_off48_inb c))).setOn Finset.univ ⊆ (outSrcM3 c).view.set := h48
  have h58 : ((Memref.whole cc0_scratch16 : Memref sig .tc .vmem S2048x384 .bf16).access (Rect.unit (s := S2048x384) (k0_off58 c) ![256, 384] (k0_off58_inb c))).set ⊆ (agM3_0 c).view.set :=
    le_of_eq ((View.set_slice_whole _ _).trans ((unit_set_congr ((off58_eq c).trans (off73_eq c).symm) rfl).trans (View.set_slice_whole _ _).symm))
  have h58' : ((Memref.whole cc0_scratch16 : Memref sig .tc .vmem S2048x384 .bf16).access (Rect.unit (s := S2048x384) (k0_off58 c) ![256, 384] (k0_off58_inb c))).setOn Finset.univ ⊆ (agM3_0 c).view.set := h58
  sl_exec
  -- the finished block goes to the result array
  iapply (wp_copy_own V c (.out 3) (by decide) (src := outSrcM3 c) (dst := outDstM3 c) (out_sem_eq 3 _) rfl fd κo
      (by
        show _ ⊢ iprop(ptsIs c (outDstM3 c) (V.out3 c) ∗ ptsAny (F := F) c (outSrcM3 c))
        exact BIClass.sep_mono (ptsIs_intro c (outDstM3 c) _ _ (by rw [View.read_write_univ]; exact hV)) (ptsAny_intro c (outSrcM3 c) _))) $$ [H3 Hd Hto]
  · isplitr; · iexact HIo
    isplitl [H3]; · iexact H3
    isplitl [Hd]; · iexact Hd
    isplitl [Hto]; · iexact Hto
    iexact Hro
  iintro Hco
  sl_step
  isplitr; · ipureintro; trivial
  isplitl [Hco]; · iexact Hco
  isplitl [Hc]; · iexact Hc
  iexact Hg3

end Cert.KernelIdeal.Proto

end
-- ==== Proof.Body35.lean ====
/-
The waits for the last reduce-scatter round of group 4 (its staging rows come back, the neighbour's partial sums land), and
the sum of the landed rows into group 4's own rows of the accumulator, whose activation's first factors are returned.
-/
import proofs.«900882_g7700000000000883_dist_matmul_gelu_kshard_i_m2048_n2048_k1024_v7x_i8_f32_1_alg».proof.Proof.Rules
import proofs.«900882_g7700000000000883_dist_matmul_gelu_kshard_i_m2048_n2048_k1024_v7x_i8_f32_1_alg».proof.Proof.TopoTab
import proofs.«900882_g7700000000000883_dist_matmul_gelu_kshard_i_m2048_n2048_k1024_v7x_i8_f32_1_alg».proof.Proof.PiecesTab
import proofs.«900882_g7700000000000883_dist_matmul_gelu_kshard_i_m2048_n2048_k1024_v7x_i8_f32_1_alg».proof.Proof.PiecesOutTab
import proofs.«900882_g7700000000000883_dist_matmul_gelu_kshard_i_m2048_n2048_k1024_v7x_i8_f32_1_alg».proof.Proof.Gen.KernelIdeal.Skeleton
import Idealize.ShloMosaic.Lib.Pipeline.Value

set_option maxRecDepth 16384

noncomputable section

namespace Cert.KernelIdeal.Proto

open Cert.KernelIdeal Cert.KernelIdeal.Gen Cert.KernelIdeal.Topo
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : Vals F)

set_option maxHeartbeats 2000000 in
theorem part35_run (c : Dev nD) (κs κr : ℕ) (W : Waits sig Unit) (v790 v809 : BitVec 32)
    (f4 : Buf (Elt F) ((outSrcM4 c).view.loc (c : Thread nD τ))) :
    iprop(cellInv ER (sched V) κs (cell c (.rsS 4 2)) ∗ cellInv ER (sched V) κr (cell c (.rsR 4 2))
        ∗ cred (tallyAt (cell c (.rsS 4 2)) () (amt (.rsR 4 2))) ∗ cred (tallyAt (cell c (.rsR 4 2)) () (amt (.rsR 4 2)))
        ∗ atPos ER (cell c (.rsS 4 2)) 0 ∅ 0 ∗ atPos ER (cell c (.rsR 4 2)) 0 ∅ 0
        ∗ owes (c : Thread nD τ) (Owe c 21) W ∗ levAts L lv
        ∗ heldW c (outSrcM4 c) f4)
      ⊢ wp frame (wpE (defs₀ (F := F)) 𝒱₀ c none) Set.univ
          (k0_part35 (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23 c v790 v809)
          (fun r => iprop(∃ fc : Buf (Elt F) ((commM4_2 : Memref sig .tc .vmem S256x256 .bf16).view.loc (c : Thread nD τ)),
            ⌜r = ⟨k0_pay78 (k0_pay77 (View.readAt (Elt F) (Memref.whole cc0_scratch0 : Memref sig .tc .vmem S2048x2048 .f32).view (Rect.unit (s := S2048x2048) (k0_off51 c) S256x256.size (k0_off51_inb c)).toLoadRect f4) (View.readAt (Elt F) (Memref.whole cc0_scratch5 : Memref sig .tc .vmem S1792x256 .bf16).view (Rect.unit (s := S1792x256) (k0_off67 c) S256x256.size (k0_off67_inb c)).toLoadRect fc)), k0_pay79 (k0_pay77 (View.readAt (Elt F) (Memref.whole cc0_scratch0 : Memref sig .tc .vmem S2048x2048 .f32).view (Rect.unit (s := S2048x2048) (k0_off51 c) S256x256.size (k0_off51_inb c)).toLoadRect f4) (View.readAt (Elt F) (Memref.whole cc0_scratch5 : Memref sig .tc .vmem S1792x256 .bf16).view (Rect.unit (s := S1792x256) (k0_off67 c) S256x256.size (k0_off67_inb c)).toLoadRect fc)), Scalar.ofBits .f32 0x3F800000#32⟩⌝
            ∗ ⌜V.rs4_2 (nbr 0 c) ((commM4_2 : Memref sig .tc .vmem S256x256 .bf16).view.read (Elt F) fc)⌝
            ∗ owes (c : Thread nD τ) (Owe c 21) (insert ((CK.rsR 4 2).sem, ()) (insert ((CK.rsS 4 2).sem, ()) W))
            ∗ atPos ER (cell c (.rsS 4 2)) 1 ∅ 0 ∗ atPos ER (cell c (.rsR 4 2)) 1 ∅ 0
            ∗ ptsAny (F := F) c stgM4_2
            ∗ heldW c (commM4_2 : Memref sig .tc .vmem S256x256 .bf16) fc
            ∗ heldW c (outSrcM4 c) (((Memref.whole cc0_scratch0 : Memref sig .tc .vmem S2048x2048 .f32).access (Rect.unit (s := S2048x2048) (k0_off51 c) S256x256.size (k0_off51_inb c))).write (Elt F) f4 (k0_pay77 (View.readAt (Elt F) (Memref.whole cc0_scratch0 : Memref sig .tc .vmem S2048x2048 .f32).view (Rect.unit (s := S2048x2048) (k0_off51 c) S256x256.size (k0_off51_inb c)).toLoadRect f4) (View.readAt (Elt F) (Memref.whole cc0_scratch5 : Memref sig .tc .vmem S1792x256 .bf16).view (Rect.unit (s := S1792x256) (k0_off67 c) S256x256.size (k0_off67_inb c)).toLoadRect fc)) Finset.univ))) := by
  simp only [k0_part35_eq_skeleton]; unfold k0_part35_skel
  simp only [Prog.lift, Prog.bind_op, Prog.bind_ret, Prog.pure_eq_ret]
  iintro ⟨#HIs, #HIr, Hcs0, Hcr, Hats, Hatr, HO, #Hlev, H4⟩
  unfold heldW
  ihave Hcs := (Entails.of_eq (show cred (tallyAt (cell c (.rsS 4 2)) () (amt (.rsR 4 2))) = cred (tallyAt (cell c (.rsS 4 2)) () (amt (.rsS 4 2))) from rfl)) $$ Hcs0
  have h67 : ((Memref.whole cc0_scratch5 : Memref sig .tc .vmem S1792x256 .bf16).access (Rect.unit (s := S1792x256) (k0_off67 c) ![256, 256] (k0_off67_inb c))).set ⊆ (commM4_2 : Memref sig .tc .vmem S256x256 .bf16).view.set :=
    le_of_eq ((View.set_slice_whole _ _).trans ((unit_set_congr ((off67_eq c).trans (rfl).symm) rfl).trans (View.set_slice_whole _ _).symm))
  have h51 : ((Memref.whole cc0_scratch0 : Memref sig .tc .vmem S2048x2048 .f32).access (Rect.unit (s := S2048x2048) (k0_off51 c) ![256, 256] (k0_off51_inb c))).set ⊆ (outSrcM4 c).view.set :=
    le_of_eq ((View.set_slice_whole _ _).trans ((unit_set_congr ((off51_eq c).trans (off69_eq c).symm) rfl).trans (View.set_slice_whole _ _).symm))
  have h51' : ((Memref.whole cc0_scratch0 : Memref sig .tc .vmem S2048x2048 .f32).access (Rect.unit (s := S2048x2048) (k0_off51 c) ![256, 256] (k0_off51_inb c))).setOn Finset.univ ⊆ (outSrcM4 c).view.set := h51
  -- group 4's last reduce-scatter round: the staging rows come back, the landing rows arrive
  iapply (wp_wait_xfer V c (.rsS 4 2) (by decide) 21 (rsS_sem_eq 4 2 _) (k' := (stgM4_2 : Memref sig .tc .vmem S256x256 .bf16).view.dmaCredit) rfl (wpE_waitDma2_eq 𝒱₀ (c : Thread nD τ) none Set.univ)
      (mayWait_own c (.rsS 4 2) (lv_cell c (.rsS 4 2)) 21) κs W) $$ [Hcs HO Hats]
  · isplitr; · iexact HIs
    isplitl [Hcs]; · iexact Hcs
    isplitl [HO]; · iexact HO
    isplitr; · iexact Hlev
    iexact Hats
  iintro ⟨HO, Hats, Hqs⟩
  ihave Hps := (Entails.of_eq (show pay V c (.rsS 4 2) 0 = ptsAny (F := F) c stgM4_2 from rfl)) $$ Hqs
  iapply (wp_wait_xfer V c (.rsR 4 2) (by decide) 21 (rsR_sem_eq 4 2 _) (k' := (commM4_2 : Memref sig .tc .vmem S256x256 .bf16).view.dmaCredit) rfl (wpE_waitDma2_eq 𝒱₀ (c : Thread nD τ) none Set.univ)
      (mayWait_rsR c 4 2 21 (by decide)) κr _) $$ [Hcr HO Hatr]
  · isplitr; · iexact HIr
    isplitl [Hcr]; · iexact Hcr
    isplitl [HO]; · iexact HO
    isplitr; · iexact Hlev
    iexact Hatr
  iintro ⟨HO, Hatr, Hqr⟩
  ihave Hpr := (Entails.of_eq (show pay V c (.rsR 4 2) 0 = ptsIs c commM4_2 (V.rs4_2 (nbr 0 c)) from rfl)) $$ Hqr
  unfold ptsIs
  icases Hpr with ⟨%fc, Hc, %hfc⟩
  sl_exec
  sl_step
  iexists fc
  isplitr; · ipureintro; rfl
  isplitr; · ipureintro; exact hfc
  isplitl [HO]; · iexact HO
  isplitl [Hats]; · iexact Hats
  isplitl [Hatr]; · iexact Hatr
  isplitl [Hps]; · iexact Hps
  isplitl [Hc]; · iexact Hc
  iexact H4

end Cert.KernelIdeal.Proto

end
-- ==== Proof.Body36.lean ====
/-
Group 4's rows after the activation: stored back into the accumulator, rounded into the all-gather buffer's own rows, and the
finished block copied to the result array; then the waits for the last reduce-scatter round of group 5 (its staging rows come
back, the neighbour's partial sums land) and the load of group 5's own rows of the accumulator.
-/
import proofs.«900882_g7700000000000883_dist_matmul_gelu_kshard_i_m2048_n2048_k1024_v7x_i8_f32_1_alg».proof.Proof.Rules
import proofs.«900882_g7700000000000883_dist_matmul_gelu_kshard_i_m2048_n2048_k1024_v7x_i8_f32_1_alg».proof.Proof.TopoTab
import proofs.«900882_g7700000000000883_dist_matmul_gelu_kshard_i_m2048_n2048_k1024_v7x_i8_f32_1_alg».proof.Proof.PiecesTab
import proofs.«900882_g7700000000000883_dist_matmul_gelu_kshard_i_m2048_n2048_k1024_v7x_i8_f32_1_alg».proof.Proof.PiecesOutTab
import proofs.«900882_g7700000000000883_dist_matmul_gelu_kshard_i_m2048_n2048_k1024_v7x_i8_f32_1_alg».proof.Proof.Gen.KernelIdeal.Skeleton
import Idealize.ShloMosaic.Lib.Pipeline.Value

set_option maxRecDepth 16384

noncomputable section

namespace Cert.KernelIdeal.Proto

open Cert.KernelIdeal Cert.KernelIdeal.Gen Cert.KernelIdeal.Topo
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : Vals F)

set_option maxHeartbeats 2000000 in
theorem part36_run (c : Dev nD) (κo κs κr : ℕ) (W : Waits sig Unit) (v790 v844 v863 : BitVec 32) (v1109 v1117 : FVec F S256x256 .f32) (cst_837 : F .f32)
    (f4 : Buf (Elt F) ((outSrcM4 c).view.loc (c : Thread nD τ))) (f5 : Buf (Elt F) ((outSrcM5 c).view.loc (c : Thread nD τ)))
    (g4 : Buf (Elt F) ((agM4_0 c).view.loc (c : Thread nD τ))) (fd : Buf (Elt F) ((outDstM4 c).view.loc (c : Thread nD τ)))
    (hV : V.out4 c ((outSrcM4 c).view.read (Elt F) (((Memref.whole cc0_scratch0 : Memref sig .tc .vmem S2048x2048 .f32).access (Rect.unit (s := S2048x2048) (k0_off51 c) S256x256.size (k0_off51_inb c))).write (Elt F) f4 (k0_pay81 v1109 v1117 cst_837) Finset.univ))) :
    iprop(cellInv ER (sched V) κo (cell c (.out 4)) ∗ cellInv ER (sched V) κs (cell c (.rsS 5 2)) ∗ cellInv ER (sched V) κr (cell c (.rsR 5 2))
        ∗ reached ER (cell c (.out 4)) 0 ∗ dutyTok ER (cell c (.out 4)) 0 (0 : Fin 3)
        ∗ cred (tallyAt (cell c (.rsS 5 2)) () (amt (.rsR 5 2))) ∗ cred (tallyAt (cell c (.rsR 5 2)) () (amt (.rsR 5 2)))
        ∗ atPos ER (cell c (.rsS 5 2)) 0 ∅ 0 ∗ atPos ER (cell c (.rsR 5 2)) 0 ∅ 0
        ∗ owes (c : Thread nD τ) (Owe c 21) W ∗ levAts L lv
        ∗ heldW c (outSrcM4 c) f4 ∗ heldW c (outSrcM5 c) f5 ∗ heldW c (agM4_0 c) g4 ∗ heldW c (outDstM4 c) fd)
      ⊢ wp frame (wpE (defs₀ (F := F)) 𝒱₀ c none) Set.univ
          (k0_part36 (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23 c v790 v844 v863 v1109 v1117 cst_837)
          (fun r => iprop(⌜r = ⟨View.readAt (Elt F) (Memref.whole cc0_scratch0 : Memref sig .tc .vmem S2048x2048 .f32).view (Rect.unit (s := S2048x2048) (k0_off55 c) S256x256.size (k0_off55_inb c)).toLoadRect f5, Scalar.subi v844 v844, 1536#32⟩⌝
            ∗ cred (tallyAt (cell c (.out 4)) () (amt (.out 4)))
            ∗ owes (c : Thread nD τ) (Owe c 21) (insert ((CK.rsR 5 2).sem, ()) (insert ((CK.rsS 5 2).sem, ()) W))
            ∗ atPos ER (cell c (.rsS 5 2)) 1 ∅ 0 ∗ atPos ER (cell c (.rsR 5 2)) 1 ∅ 0
            ∗ ptsAny (F := F) c stgM5_2 ∗ ptsIs c commM5_2 (V.rs5_2 (nbr 1 c))
            ∗ heldW c (outSrcM5 c) f5 ∗ heldW c (agM4_0 c) (((Memref.whole cc0_scratch17 : Memref sig .tc .vmem S2048x256 .bf16).access (Rect.unit (s := S2048x256) (k0_off68 c) S256x256.size (k0_off68_inb c))).write (Elt F) g4 (k0_pay82 v1109 v1117 cst_837) Finset.univ))) := by
  simp only [k0_part36_eq_skeleton]; unfold k0_part36_skel
  simp only [Prog.lift, Prog.bind_op, Prog.bind_ret, Prog.pure_eq_ret]
  iintro ⟨#HIo, #HIs, #HIr, #Hro, Hto, Hcs0, Hcr, Hats, Hatr, HO, #Hlev, H4, H5, Hg4, Hd⟩
  unfold heldW
  ihave Hcs := (Entails.of_eq (show cred (tallyAt (cell c (.rsS 5 2)) () (amt (.rsR 5 2))) = cred (tallyAt (cell c (.rsS 5 2)) () (amt (.rsS 5 2))) from rfl)) $$ Hcs0
  have h51 : ((Memref.whole cc0_scratch0 : Memref sig .tc .vmem S2048x2048 .f32).access (Rect.unit (s := S2048x2048) (k0_off51 c) ![256, 256] (k0_off51_inb c))).set ⊆ (outSrcM4 c).view.set :=
    le_of_eq ((View.set_slice_whole _ _).trans ((unit_set_congr ((off51_eq c).trans (off69_eq c).symm) rfl).trans (View.set_slice_whole _ _).symm))
  have h51' : ((Memref.whole cc0_scratch0 : Memref sig .tc .vmem S2048x2048 .f32).access (Rect.unit (s := S2048x2048) (k0_off51 c) ![256, 256] (k0_off51_inb c))).setOn Finset.univ ⊆ (outSrcM4 c).view.set := h51
  have h68 : ((Memref.whole cc0_scratch17 : Memref sig .tc .vmem S2048x256 .bf16).access (Rect.unit (s := S2048x256) (k0_off68 c) ![256, 256] (k0_off68_inb c))).set ⊆ (agM4_0 c).view.set :=
    le_of_eq ((View.set_slice_whole _ _).trans ((unit_set_congr ((off68_eq c).trans (off76_eq c).symm) rfl).trans (View.set_slice_whole _ _).symm))
  have h68' : ((Memref.whole cc0_scratch17 : Memref sig .tc .vmem S2048x256 .bf16).access (Rect.unit (s := S2048x256) (k0_off68 c) ![256, 256] (k0_off68_inb c))).setOn Finset.univ ⊆ (agM4_0 c).view.set := h68
  have h55 : ((Memref.whole cc0_scratch0 : Memref sig .tc .vmem S2048x2048 .f32).access (Rect.unit (s := S2048x2048) (k0_off55 c) ![256, 256] (k0_off55_inb c))).set ⊆ (outSrcM5 c).view.set :=
    le_of_eq ((View.set_slice_whole _ _).trans ((unit_set_congr ((off55_eq c).trans (off72_eq c).symm) rfl).trans (View.set_slice_whole _ _).symm))
  sl_exec
  -- the finished block goes to the result array
  iapply (wp_copy_own V c (.out 4) (by decide) (src := outSrcM4 c) (dst := outDstM4 c) (out_sem_eq 4 _) rfl fd κo
      (by
        show _ ⊢ iprop(ptsIs c (outDstM4 c) (V.out4 c) ∗ ptsAny (F := F) c (outSrcM4 c))
        exact BIClass.sep_mono (ptsIs_intro c (outDstM4 c) _ _ (by rw [View.read_write_univ]; exact hV)) (ptsAny_intro c (outSrcM4 c) _))) $$ [H4 Hd Hto]
  · isplitr; · iexact HIo
    isplitl [H4]; · iexact H4
    isplitl [Hd]; · iexact Hd
    isplitl [Hto]; · iexact Hto
    iexact Hro
  iintro Hco
  -- group 5's last reduce-scatter round: the staging rows come back, the landing rows arrive
  iapply (wp_wait_xfer V c (.rsS 5 2) (by decide) 21 (rsS_sem_eq 5 2 _) (k' := (stgM5_2 : Memref sig .tc .vmem S256x256 .bf16).view.dmaCredit) rfl (wpE_waitDma2_eq 𝒱₀ (c : Thread nD τ) none Set.univ)
      (mayWait_own c (.rsS 5 2) (lv_cell c (.rsS 5 2)) 21) κs W) $$ [Hcs HO Hats]
  · isplitr; · iexact HIs
    isplitl [Hcs]; · iexact Hcs
    isplitl [HO]; · iexact HO
    isplitr; · iexact Hlev
    iexact Hats
  iintro ⟨HO, Hats, Hqs⟩
  ihave Hps := (Entails.of_eq (show pay V c (.rsS 5 2) 0 = ptsAny (F := F) c stgM5_2 from rfl)) $$ Hqs
  iapply (wp_wait_xfer V c (.rsR 5 2) (by decide) 21 (rsR_sem_eq 5 2 _) (k' := (commM5_2 : Memref sig .tc .vmem S256x256 .bf16).view.dmaCredit) rfl (wpE_waitDma2_eq 𝒱₀ (c : Thread nD τ) none Set.univ)
      (mayWait_rsR c 5 2 21 (by decide)) κr _) $$ [Hcr HO Hatr]
  · isplitr; · iexact HIr
    isplitl [Hcr]; · iexact Hcr
    isplitl [HO]; · iexact HO
    isplitr; · iexact Hlev
    iexact Hatr
  iintro ⟨HO, Hatr, Hqr⟩
  ihave Hpr := (Entails.of_eq (show pay V c (.rsR 5 2) 0 = ptsIs c commM5_2 (V.rs5_2 (nbr 1 c)) from rfl)) $$ Hqr
  sl_exec
  sl_step
  isplitr; · ipureintro; rfl
  isplitl [Hco]; · iexact Hco
  isplitl [HO]; · iexact HO
  isplitl [Hats]; · iexact Hats
  isplitl [Hatr]; · iexact Hatr
  isplitl [Hps]; · iexact Hps
  isplitl [Hpr]; · iexact Hpr
  isplitl [H5]; · iexact H5
  iexact Hg4

end Cert.KernelIdeal.Proto

end
-- ==== Proof.Body37.lean ====
/-
Group 5's own rows: the neighbour's partial sums that landed at the last reduce-scatter step are added into the accumulator,
the activation is applied, the result stored back and rounded into the all-gather buffer's own rows, and the finished block
copied to the result array.
-/
import proofs.«900882_g7700000000000883_dist_matmul_gelu_kshard_i_m2048_n2048_k1024_v7x_i8_f32_1_alg».proof.Proof.Rules
import proofs.«900882_g7700000000000883_dist_matmul_gelu_kshard_i_m2048_n2048_k1024_v7x_i8_f32_1_alg».proof.Proof.TopoTab
import proofs.«900882_g7700000000000883_dist_matmul_gelu_kshard_i_m2048_n2048_k1024_v7x_i8_f32_1_alg».proof.Proof.PiecesTab
import proofs.«900882_g7700000000000883_dist_matmul_gelu_kshard_i_m2048_n2048_k1024_v7x_i8_f32_1_alg».proof.Proof.PiecesOutTab
import proofs.«900882_g7700000000000883_dist_matmul_gelu_kshard_i_m2048_n2048_k1024_v7x_i8_f32_1_alg».proof.Proof.Gen.KernelIdeal.Skeleton
import Idealize.ShloMosaic.Lib.Pipeline.Value

set_option maxRecDepth 16384

noncomputable section

namespace Cert.KernelIdeal.Proto

open Cert.KernelIdeal Cert.KernelIdeal.Gen Cert.KernelIdeal.Topo
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : Vals F)

set_option maxHeartbeats 2000000 in
theorem part37_run (c : Dev nD) (κo : ℕ) (v2 v844 : BitVec 32) (v1145 : Vec F S256x256 .f32) (v1146 c1536_i32_863 : BitVec 32)
    (f5 : Buf (Elt F) ((outSrcM5 c).view.loc (c : Thread nD τ))) (fc : Buf (Elt F) ((commM5_2 : Memref sig .tc .vmem S256x256 .bf16).view.loc (c : Thread nD τ)))
    (g5 : Buf (Elt F) ((agM5_0 c).view.loc (c : Thread nD τ))) (fd : Buf (Elt F) ((outDstM5 c).view.loc (c : Thread nD τ)))
    (hV : V.out5 c ((outSrcM5 c).view.read (Elt F) (((Memref.whole cc0_scratch0 : Memref sig .tc .vmem S2048x2048 .f32).access (Rect.unit (s := S2048x2048) (k0_off55 c) S256x256.size (k0_off55_inb c))).write (Elt F) (((Memref.whole cc0_scratch0 : Memref sig .tc .vmem S2048x2048 .f32).access (Rect.unit (s := S2048x2048) (k0_off55 c) S256x256.size (k0_off55_inb c))).write (Elt F) f5 (k0_pay83 v1145 (View.readAt (Elt F) (Memref.whole cc0_scratch6 : Memref sig .tc .vmem S1792x256 .bf16).view (Rect.unit (s := S1792x256) (k0_off70 c) S256x256.size (k0_off70_inb c)).toLoadRect fc)) Finset.univ) (k0_pay85 (k0_pay83 v1145 (View.readAt (Elt F) (Memref.whole cc0_scratch6 : Memref sig .tc .vmem S1792x256 .bf16).view (Rect.unit (s := S1792x256) (k0_off70 c) S256x256.size (k0_off70_inb c)).toLoadRect fc))) Finset.univ))) :
    iprop(cellInv ER (sched V) κo (cell c (.out 5)) ∗ reached ER (cell c (.out 5)) 0 ∗ dutyTok ER (cell c (.out 5)) 0 (0 : Fin 3)
        ∗ heldW c (commM5_2 : Memref sig .tc .vmem S256x256 .bf16) fc ∗ heldW c (outSrcM5 c) f5 ∗ heldW c (agM5_0 c) g5 ∗ heldW c (outDstM5 c) fd)
      ⊢ wp frame (wpE (defs₀ (F := F)) 𝒱₀ c none) Set.univ
          (k0_part37 (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23 c v2 v844 v1145 v1146 c1536_i32_863)
          (fun r => iprop(⌜r = ⟨Scalar.xori v2 4#32, 1#32⟩⌝
            ∗ cred (tallyAt (cell c (.out 5)) () (amt (.out 5)))
            ∗ heldW c (commM5_2 : Memref sig .tc .vmem S256x256 .bf16) fc ∗ heldW c (agM5_0 c) (((Memref.whole cc0_scratch18 : Memref sig .tc .vmem S2048x256 .bf16).access (Rect.unit (s := S2048x256) (k0_off71 c) S256x256.size (k0_off71_inb c))).write (Elt F) g5 (k0_pay86 (k0_pay83 v1145 (View.readAt (Elt F) (Memref.whole cc0_scratch6 : Memref sig .tc .vmem S1792x256 .bf16).view (Rect.unit (s := S1792x256) (k0_off70 c) S256x256.size (k0_off70_inb c)).toLoadRect fc))) Finset.univ))) := by
  simp only [k0_part37_eq_skeleton]; unfold k0_part37_skel
  simp only [Prog.lift, Prog.bind_op, Prog.bind_ret, Prog.pure_eq_ret]
  iintro ⟨#HIo, #Hro, Hto, Hc, H5, Hg5, Hd⟩
  unfold heldW
  have h70 : ((Memref.whole cc0_scratch6 : Memref sig .tc .vmem S1792x256 .bf16).access (Rect.unit (s := S1792x256) (k0_off70 c) ![256, 256] (k0_off70_inb c))).set ⊆ (commM5_2 : Memref sig .tc .vmem S256x256 .bf16).view.set :=
    le_of_eq ((View.set_slice_whole _ _).trans ((unit_set_congr ((off70_eq c).trans (rfl).symm) rfl).trans (View.set_slice_whole _ _).symm))
  have h55 : ((Memref.whole cc0_scratch0 : Memref sig .tc .vmem S2048x2048 .f32).access (Rect.unit (s := S2048x2048) (k0_off55 c) ![256, 256] (k0_off55_inb c))).set ⊆ (outSrcM5 c).view.set :=
    le_of_eq ((View.set_slice_whole _ _).trans ((unit_set_congr ((off55_eq c).trans (off72_eq c).symm) rfl).trans (View.set_slice_whole _ _).symm))
  have h55' : ((Memref.whole cc0_scratch0 : Memref sig .tc .vmem S2048x2048 .f32).access (Rect.unit (s := S2048x2048) (k0_off55 c) ![256, 256] (k0_off55_inb c))).setOn Finset.univ ⊆ (outSrcM5 c).view.set := h55
  have h71 : ((Memref.whole cc0_scratch18 : Memref sig .tc .vmem S2048x256 .bf16).access (Rect.unit (s := S2048x256) (k0_off71 c) ![256, 256] (k0_off71_inb c))).set ⊆ (agM5_0 c).view.set :=
    le_of_eq ((View.set_slice_whole _ _).trans ((unit_set_congr ((off71_eq c).trans (off77_eq c).symm) rfl).trans (View.set_slice_whole _ _).symm))
  have h71' : ((Memref.whole cc0_scratch18 : Memref sig .tc .vmem S2048x256 .bf16).access (Rect.unit (s := S2048x256) (k0_off71 c) ![256, 256] (k0_off71_inb c))).setOn Finset.univ ⊆ (agM5_0 c).view.set := h71
  sl_exec
  -- the finished block goes to the result array
  iapply (wp_copy_own V c (.out 5) (by decide) (src := outSrcM5 c) (dst := outDstM5 c) (out_sem_eq 5 _) rfl fd κo
      (by
        show _ ⊢ iprop(ptsIs c (outDstM5 c) (V.out5 c) ∗ ptsAny (F := F) c (outSrcM5 c))
        exact BIClass.sep_mono (ptsIs_intro c (outDstM5 c) _ _ (by rw [View.read_write_univ]; exact hV)) (ptsAny_intro c (outSrcM5 c) _))) $$ [H5 Hd Hto]
  · isplitr; · iexact HIo
    isplitl [H5]; · iexact H5
    isplitl [Hd]; · iexact Hd
    isplitl [Hto]; · iexact Hto
    iexact Hro
  iintro Hco
  sl_step
  isplitr; · ipureintro; rfl
  isplitl [Hco]; · iexact Hco
  isplitl [Hc]; · iexact Hc
  iexact Hg5

end Cert.KernelIdeal.Proto

end
-- ==== Proof.Body38.lean ====
/-
The first all-gather transfers of groups 0 and 1: each group's own finished rows go to the neighbour across the group's first
all-gather axis, landing at the same rows of the neighbour's buffer; the transfer borrows the left half of the rows' share and
the device keeps the right half (it reads the rows again while the transfer is pending).
-/
import proofs.«900882_g7700000000000883_dist_matmul_gelu_kshard_i_m2048_n2048_k1024_v7x_i8_f32_1_alg».proof.Proof.Rules
import proofs.«900882_g7700000000000883_dist_matmul_gelu_kshard_i_m2048_n2048_k1024_v7x_i8_f32_1_alg».proof.Proof.TopoTab
import proofs.«900882_g7700000000000883_dist_matmul_gelu_kshard_i_m2048_n2048_k1024_v7x_i8_f32_1_alg».proof.Proof.PiecesTab
import proofs.«900882_g7700000000000883_dist_matmul_gelu_kshard_i_m2048_n2048_k1024_v7x_i8_f32_1_alg».proof.Proof.PiecesOutTab
import proofs.«900882_g7700000000000883_dist_matmul_gelu_kshard_i_m2048_n2048_k1024_v7x_i8_f32_1_alg».proof.Proof.Gen.KernelIdeal.Skeleton
import Idealize.ShloMosaic.Lib.Pipeline.Value

set_option maxRecDepth 16384

noncomputable section

namespace Cert.KernelIdeal.Proto

open Cert.KernelIdeal Cert.KernelIdeal.Gen Cert.KernelIdeal.Topo
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : Vals F)

set_option maxHeartbeats 2000000 in
theorem part38_run (c : Dev nD) (κs0 κr0 κs1 κr1 : ℕ) (W : Waits sig Unit) (v2 v6 v9 v574 v628 v1184 c1_i32_880 : BitVec 32)
    (g0 : Buf (Elt F) ((agM0_0 c).view.loc (c : Thread nD τ))) (g1 : Buf (Elt F) ((agM1_0 c).view.loc (c : Thread nD τ)))
    (hV0 : V.ag0_0 c ((agM0_0 c).view.read (Elt F) g0)) (hV1 : V.ag1_0 c ((agM1_0 c).view.read (Elt F) g1)) :
    iprop(cellInv ER (sched V) κs0 (cell c (.agS 0 0)) ∗ cellInv ER (sched V) κr0 (cell (nbr 2 c) (.agR 0 0))
        ∗ cellInv ER (sched V) κs1 (cell c (.agS 1 0)) ∗ cellInv ER (sched V) κr1 (cell (nbr 0 c) (.agR 1 0))
        ∗ reached ER (cell c (.agS 0 0)) 0 ∗ reached ER (cell (nbr 2 c) (.agR 0 0)) 0
        ∗ reached ER (cell c (.agS 1 0)) 0 ∗ reached ER (cell (nbr 0 c) (.agR 1 0)) 0
        ∗ dutyTok ER (cell c (.agS 0 0)) 0 (0 : Fin 3) ∗ dutyTok ER (cell (nbr 2 c) (.agR 0 0)) 0 (0 : Fin 3)
        ∗ dutyTok ER (cell c (.agS 1 0)) 0 (0 : Fin 3) ∗ dutyTok ER (cell (nbr 0 c) (.agR 1 0)) 0 (0 : Fin 3)
        ∗ ptsAny (F := F) (nbr 2 c) (agM0_0 c) ∗ ptsAny (F := F) (nbr 0 c) (agM1_0 c)
        ∗ owes (c : Thread nD τ) (Owe c 21) W
        ∗ heldW c (agM0_0 c) g0 ∗ heldW c (agM1_0 c) g1)
      ⊢ wp frame (wpE (defs₀ (F := F)) 𝒱₀ c none) Set.univ
          (k0_part38 (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23 c v2 v6 v9 v574 v628 v1184 c1_i32_880)
          (fun r => iprop(⌜r = ⟨Scalar.subi v574 (Scalar.muli v9 256#32), Scalar.addi (Scalar.subi v574 (Scalar.muli v9 256#32)) (Scalar.muli (Scalar.subi 1#32 v9) 256#32), Scalar.xori v2 1#32,
                Scalar.subi v628 (Scalar.muli v6 256#32), Scalar.addi (Scalar.subi v628 (Scalar.muli v6 256#32)) (Scalar.muli (Scalar.subi 1#32 v6) 256#32), Scalar.xori v2 3#32⟩⌝
            ∗ cred (tallyAt (cell c (.agS 0 0)) () (amt (.agR 0 0))) ∗ cred (tallyAt (cell c (.agS 1 0)) () (amt (.agR 1 0)))
            ∗ owes (c : Thread nD τ) (Owe c 23) W
            ∗ ((agM0_0 c).view.loc (c : Thread nD τ) ↦[(agM0_0 c).view.set]{fullShare.right} g0)
            ∗ ((agM1_0 c).view.loc (c : Thread nD τ) ↦[(agM1_0 c).view.set]{fullShare.right} g1))) := by
  simp only [k0_part38_eq_skeleton]; unfold k0_part38_skel
  simp only [Prog.lift, Prog.bind_op, Prog.bind_ret, Prog.pure_eq_ret]
  iintro ⟨#HIs0, #HIr0, #HIs1, #HIr1, #Hrs0, #Hrr0, #Hrs1, #Hrr1, Hts0, Htr0, Hts1, Htr1, Hdst0, Hdst1, HO, Hg0, Hg1⟩
  unfold heldW
  -- group 0's own rows go to the neighbour across axis 2: the transfer borrows the left half of the rows' share
  unfold ptsAny
  icases Hdst0 with ⟨%fd0, Hdst0⟩
  icases Hdst1 with ⟨%fd1, Hdst1⟩
  ihave Hg0 := (pointsTo_share (PosShare.mem_left_op_right fullShare)).1 $$ Hg0
  icases Hg0 with ⟨Hg0l, Hg0r⟩
  iapply (wp_send_to V c ⟨k0_dev22 c, k0_dev22_lt c⟩ 2 (dev22_eq c) (.agS 0 0) (.agR 0 0) (by decide) (by decide) 21 (by decide) (paid_ag c 0 0) rfl
      (src := agM0_0 c) (dst := agM0_0 c) (agS_sem_eq 0 0 _) (agR_sem_eq 0 0 _) rfl fd0 κs0 κr0 W
      (ptsLent_intro c (agM0_0 c) _)
      (by
        rw [show pay V (nbr 2 c) (.agR 0 0) 0 = ptsIs (nbr 2 c) (agM0_0 (nbr 2 (nbr 2 c))) (V.ag0_0 (nbr 2 (nbr 2 c))) from rfl, nbr_nbr]
        exact ptsIs_intro (nbr 2 c) (agM0_0 c) _ _ (by rw [View.read_write_univ]; exact hV0))) $$ [Hg0l Hdst0 HO Hts0 Htr0]
  · isplitr; · iexact HIs0
    isplitr; · iexact HIr0
    isplitl [Hg0l]; · iexact Hg0l
    isplitl [Hdst0]; · iexact Hdst0
    isplitl [HO]; · iexact HO
    isplitl [Hts0]; · iexact Hts0
    isplitr; · iexact Hrs0
    isplitl [Htr0]; · iexact Htr0
    iexact Hrr0
  iintro ⟨Hcs0, HO⟩
  -- group 1's own rows go to the neighbour across axis 0
  ihave Hg1 := (pointsTo_share (PosShare.mem_left_op_right fullShare)).1 $$ Hg1
  icases Hg1 with ⟨Hg1l, Hg1r⟩
  iapply (wp_send_to V c ⟨k0_dev23 c, k0_dev23_lt c⟩ 0 (dev23_eq c) (.agS 1 0) (.agR 1 0) (by decide) (by decide) 22 (by decide) (paid_ag c 1 0) rfl
      (src := agM1_0 c) (dst := agM1_0 c) (agS_sem_eq 1 0 _) (agR_sem_eq 1 0 _) rfl fd1 κs1 κr1 W
      (ptsLent_intro c (agM1_0 c) _)
      (by
        rw [show pay V (nbr 0 c) (.agR 1 0) 0 = ptsIs (nbr 0 c) (agM1_0 (nbr 0 (nbr 0 c))) (V.ag1_0 (nbr 0 (nbr 0 c))) from rfl, nbr_nbr]
        exact ptsIs_intro (nbr 0 c) (agM1_0 c) _ _ (by rw [View.read_write_univ]; exact hV1))) $$ [Hg1l Hdst1 HO Hts1 Htr1]
  · isplitr; · iexact HIs1
    isplitr; · iexact HIr1
    isplitl [Hg1l]; · iexact Hg1l
    isplitl [Hdst1]; · iexact Hdst1
    isplitl [HO]; · iexact HO
    isplitl [Hts1]; · iexact Hts1
    isplitr; · iexact Hrs1
    isplitl [Htr1]; · iexact Htr1
    iexact Hrr1
  iintro ⟨Hcs1, HO⟩
  sl_step
  isplitr; · ipureintro; rfl
  isplitl [Hcs0]; · iexact Hcs0
  isplitl [Hcs1]; · iexact Hcs1
  isplitl [HO]; · iexact HO
  isplitl [Hg0r]; · iexact Hg0r
  iexact Hg1r

end Cert.KernelIdeal.Proto

end
-- ==== Proof.Body39.lean ====
/-
The first all-gather transfers of groups 2, 3 and 4: each group's own finished rows go to the neighbour across the group's first
all-gather axis, landing at the same rows of the neighbour's buffer; the transfer borrows the left half of the rows' share and
the device keeps the right half.
-/
import proofs.«900882_g7700000000000883_dist_matmul_gelu_kshard_i_m2048_n2048_k1024_v7x_i8_f32_1_alg».proof.Proof.Rules
import proofs.«900882_g7700000000000883_dist_matmul_gelu_kshard_i_m2048_n2048_k1024_v7x_i8_f32_1_alg».proof.Proof.TopoTab
import proofs.«900882_g7700000000000883_dist_matmul_gelu_kshard_i_m2048_n2048_k1024_v7x_i8_f32_1_alg».proof.Proof.PiecesTab
import proofs.«900882_g7700000000000883_dist_matmul_gelu_kshard_i_m2048_n2048_k1024_v7x_i8_f32_1_alg».proof.Proof.PiecesOutTab
import proofs.«900882_g7700000000000883_dist_matmul_gelu_kshard_i_m2048_n2048_k1024_v7x_i8_f32_1_alg».proof.Proof.Gen.KernelIdeal.Skeleton
import Idealize.ShloMosaic.Lib.Pipeline.Value

set_option maxRecDepth 16384

noncomputable section

namespace Cert.KernelIdeal.Proto

open Cert.KernelIdeal Cert.KernelIdeal.Gen Cert.KernelIdeal.Topo
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : Vals F)

set_option maxHeartbeats 4000000 in
theorem part39_run (c : Dev nD) (κs2 κr2 κs3 κr3 κs4 κr4 : ℕ) (W : Waits sig Unit) (v2 v8 v9 v682 v736 : BitVec 32)
    (g2 : Buf (Elt F) ((agM2_0 c).view.loc (c : Thread nD τ))) (g3 : Buf (Elt F) ((agM3_0 c).view.loc (c : Thread nD τ))) (g4 : Buf (Elt F) ((agM4_0 c).view.loc (c : Thread nD τ)))
    (hV2 : V.ag2_0 c ((agM2_0 c).view.read (Elt F) g2)) (hV3 : V.ag3_0 c ((agM3_0 c).view.read (Elt F) g3)) (hV4 : V.ag4_0 c ((agM4_0 c).view.read (Elt F) g4)) :
    iprop(cellInv ER (sched V) κs2 (cell c (.agS 2 0)) ∗ cellInv ER (sched V) κr2 (cell (nbr 1 c) (.agR 2 0))
        ∗ cellInv ER (sched V) κs3 (cell c (.agS 3 0)) ∗ cellInv ER (sched V) κr3 (cell (nbr 2 c) (.agR 3 0))
        ∗ cellInv ER (sched V) κs4 (cell c (.agS 4 0)) ∗ cellInv ER (sched V) κr4 (cell (nbr 0 c) (.agR 4 0))
        ∗ reached ER (cell c (.agS 2 0)) 0 ∗ reached ER (cell (nbr 1 c) (.agR 2 0)) 0
        ∗ reached ER (cell c (.agS 3 0)) 0 ∗ reached ER (cell (nbr 2 c) (.agR 3 0)) 0
        ∗ reached ER (cell c (.agS 4 0)) 0 ∗ reached ER (cell (nbr 0 c) (.agR 4 0)) 0
        ∗ dutyTok ER (cell c (.agS 2 0)) 0 (0 : Fin 3) ∗ dutyTok ER (cell (nbr 1 c) (.agR 2 0)) 0 (0 : Fin 3)
        ∗ dutyTok ER (cell c (.agS 3 0)) 0 (0 : Fin 3) ∗ dutyTok ER (cell (nbr 2 c) (.agR 3 0)) 0 (0 : Fin 3)
        ∗ dutyTok ER (cell c (.agS 4 0)) 0 (0 : Fin 3) ∗ dutyTok ER (cell (nbr 0 c) (.agR 4 0)) 0 (0 : Fin 3)
        ∗ ptsAny (F := F) (nbr 1 c) (agM2_0 c) ∗ ptsAny (F := F) (nbr 2 c) (agM3_0 c) ∗ ptsAny (F := F) (nbr 0 c) (agM4_0 c)
        ∗ owes (c : Thread nD τ) (Owe c 23) W
        ∗ heldW c (agM2_0 c) g2 ∗ heldW c (agM3_0 c) g3 ∗ heldW c (agM4_0 c) g4)
      ⊢ wp frame (wpE (defs₀ (F := F)) 𝒱₀ c none) Set.univ
          (k0_part39 (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23 c v2 v8 v9 v682 v736)
          (fun r => iprop(⌜r = ⟨Scalar.subi v682 (Scalar.muli v8 256#32), Scalar.addi (Scalar.subi v682 (Scalar.muli v8 256#32)) (Scalar.muli (Scalar.subi 1#32 v8) 256#32), Scalar.xori v2 4#32,
                Scalar.subi v736 (Scalar.muli v9 256#32), Scalar.addi (Scalar.subi v736 (Scalar.muli v9 256#32)) (Scalar.muli (Scalar.subi 1#32 v9) 256#32), Scalar.xori v2 1#32⟩⌝
            ∗ cred (tallyAt (cell c (.agS 2 0)) () (amt (.agR 2 0))) ∗ cred (tallyAt (cell c (.agS 3 0)) () (amt (.agR 3 0))) ∗ cred (tallyAt (cell c (.agS 4 0)) () (amt (.agR 4 0)))
            ∗ owes (c : Thread nD τ) (Owe c 26) W
            ∗ ((agM2_0 c).view.loc (c : Thread nD τ) ↦[(agM2_0 c).view.set]{fullShare.right} g2)
            ∗ ((agM3_0 c).view.loc (c : Thread nD τ) ↦[(agM3_0 c).view.set]{fullShare.right} g3)
            ∗ ((agM4_0 c).view.loc (c : Thread nD τ) ↦[(agM4_0 c).view.set]{fullShare.right} g4))) := by
  simp only [k0_part39_eq_skeleton]; unfold k0_part39_skel
  simp only [Prog.lift, Prog.bind_op, Prog.bind_ret, Prog.pure_eq_ret]
  iintro ⟨#HIs2, #HIr2, #HIs3, #HIr3, #HIs4, #HIr4, #Hrs2, #Hrr2, #Hrs3, #Hrr3, #Hrs4, #Hrr4, Hts2, Htr2, Hts3, Htr3, Hts4, Htr4, Hdst2, Hdst3, Hdst4, HO, Hg2, Hg3, Hg4⟩
  unfold heldW
  unfold ptsAny
  icases Hdst2 with ⟨%fd2, Hdst2⟩
  icases Hdst3 with ⟨%fd3, Hdst3⟩
  icases Hdst4 with ⟨%fd4, Hdst4⟩
  -- group 2's own rows go to the neighbour across axis 1
  ihave Hg2 := (pointsTo_share (PosShare.mem_left_op_right fullShare)).1 $$ Hg2
  icases Hg2 with ⟨Hg2l, Hg2r⟩
  iapply (wp_send_to V c ⟨k0_dev24 c, k0_dev24_lt c⟩ 1 (dev24_eq c) (.agS 2 0) (.agR 2 0) (by decide) (by decide) 23 (by decide) (paid_ag c 2 0) rfl
      (src := agM2_0 c) (dst := agM2_0 c) (agS_sem_eq 2 0 _) (agR_sem_eq 2 0 _) rfl fd2 κs2 κr2 W
      (ptsLent_intro c (agM2_0 c) _)
      (by
        rw [show pay V (nbr 1 c) (.agR 2 0) 0 = ptsIs (nbr 1 c) (agM2_0 (nbr 1 (nbr 1 c))) (V.ag2_0 (nbr 1 (nbr 1 c))) from rfl, nbr_nbr]
        exact ptsIs_intro (nbr 1 c) (agM2_0 c) _ _ (by rw [View.read_write_univ]; exact hV2))) $$ [Hg2l Hdst2 HO Hts2 Htr2]
  · isplitr; · iexact HIs2
    isplitr; · iexact HIr2
    isplitl [Hg2l]; · iexact Hg2l
    isplitl [Hdst2]; · iexact Hdst2
    isplitl [HO]; · iexact HO
    isplitl [Hts2]; · iexact Hts2
    isplitr; · iexact Hrs2
    isplitl [Htr2]; · iexact Htr2
    iexact Hrr2
  iintro ⟨Hcs2, HO⟩
  -- group 3's own rows go to the neighbour across axis 2
  ihave Hg3 := (pointsTo_share (PosShare.mem_left_op_right fullShare)).1 $$ Hg3
  icases Hg3 with ⟨Hg3l, Hg3r⟩
  iapply (wp_send_to V c ⟨k0_dev25 c, k0_dev25_lt c⟩ 2 (dev25_eq c) (.agS 3 0) (.agR 3 0) (by decide) (by decide) 24 (by decide) (paid_ag c 3 0) rfl
      (src := agM3_0 c) (dst := agM3_0 c) (agS_sem_eq 3 0 _) (agR_sem_eq 3 0 _) rfl fd3 κs3 κr3 W
      (ptsLent_intro c (agM3_0 c) _)
      (by
        rw [show pay V (nbr 2 c) (.agR 3 0) 0 = ptsIs (nbr 2 c) (agM3_0 (nbr 2 (nbr 2 c))) (V.ag3_0 (nbr 2 (nbr 2 c))) from rfl, nbr_nbr]
        exact ptsIs_intro (nbr 2 c) (agM3_0 c) _ _ (by rw [View.read_write_univ]; exact hV3))) $$ [Hg3l Hdst3 HO Hts3 Htr3]
  · isplitr; · iexact HIs3
    isplitr; · iexact HIr3
    isplitl [Hg3l]; · iexact Hg3l
    isplitl [Hdst3]; · iexact Hdst3
    isplitl [HO]; · iexact HO
    isplitl [Hts3]; · iexact Hts3
    isplitr; · iexact Hrs3
    isplitl [Htr3]; · iexact Htr3
    iexact Hrr3
  iintro ⟨Hcs3, HO⟩
  -- group 4's own rows go to the neighbour across axis 0
  ihave Hg4 := (pointsTo_share (PosShare.mem_left_op_right fullShare)).1 $$ Hg4
  icases Hg4 with ⟨Hg4l, Hg4r⟩
  iapply (wp_send_to V c ⟨k0_dev26 c, k0_dev26_lt c⟩ 0 (dev26_eq c) (.agS 4 0) (.agR 4 0) (by decide) (by decide) 25 (by decide) (paid_ag c 4 0) rfl
      (src := agM4_0 c) (dst := agM4_0 c) (agS_sem_eq 4 0 _) (agR_sem_eq 4 0 _) rfl fd4 κs4 κr4 W
      (ptsLent_intro c (agM4_0 c) _)
      (by
        rw [show pay V (nbr 0 c) (.agR 4 0) 0 = ptsIs (nbr 0 c) (agM4_0 (nbr 0 (nbr 0 c))) (V.ag4_0 (nbr 0 (nbr 0 c))) from rfl, nbr_nbr]
        exact ptsIs_intro (nbr 0 c) (agM4_0 c) _ _ (by rw [View.read_write_univ]; exact hV4))) $$ [Hg4l Hdst4 HO Hts4 Htr4]
  · isplitr; · iexact HIs4
    isplitr; · iexact HIr4
    isplitl [Hg4l]; · iexact Hg4l
    isplitl [Hdst4]; · iexact Hdst4
    isplitl [HO]; · iexact HO
    isplitl [Hts4]; · iexact Hts4
    isplitr; · iexact Hrs4
    isplitl [Htr4]; · iexact Htr4
    iexact Hrr4
  iintro ⟨Hcs4, HO⟩
  sl_step
  isplitr; · ipureintro; rfl
  isplitl [Hcs2]; · iexact Hcs2
  isplitl [Hcs3]; · iexact Hcs3
  isplitl [Hcs4]; · iexact Hcs4
  isplitl [HO]; · iexact HO
  isplitl [Hg2r]; · iexact Hg2r
  isplitl [Hg3r]; · iexact Hg3r
  iexact Hg4r

end Cert.KernelIdeal.Proto

end
-- ==== Proof.Body40.lean ====
/-
The first all-gather transfer of group 5 (its own finished rows go to the neighbour across axis 1), and the wait for the end of
group 0's first all-gather transfer, which gives the lent half share of group 0's own rows back.
-/
import proofs.«900882_g7700000000000883_dist_matmul_gelu_kshard_i_m2048_n2048_k1024_v7x_i8_f32_1_alg».proof.Proof.Rules
import proofs.«900882_g7700000000000883_dist_matmul_gelu_kshard_i_m2048_n2048_k1024_v7x_i8_f32_1_alg».proof.Proof.TopoTab
import proofs.«900882_g7700000000000883_dist_matmul_gelu_kshard_i_m2048_n2048_k1024_v7x_i8_f32_1_alg».proof.Proof.PiecesTab
import proofs.«900882_g7700000000000883_dist_matmul_gelu_kshard_i_m2048_n2048_k1024_v7x_i8_f32_1_alg».proof.Proof.PiecesOutTab
import proofs.«900882_g7700000000000883_dist_matmul_gelu_kshard_i_m2048_n2048_k1024_v7x_i8_f32_1_alg».proof.Proof.Gen.KernelIdeal.Skeleton
import Idealize.ShloMosaic.Lib.Pipeline.Value

set_option maxRecDepth 16384

noncomputable section

namespace Cert.KernelIdeal.Proto

open Cert.KernelIdeal Cert.KernelIdeal.Gen Cert.KernelIdeal.Topo
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : Vals F)

set_option maxHeartbeats 4000000 in
theorem part40_run (c : Dev nD) (κs5 κr5 κwS : ℕ) (W : Waits sig Unit) (v2 v6 v8 v790 v844 v1184 : BitVec 32)
    (g5 : Buf (Elt F) ((agM5_0 c).view.loc (c : Thread nD τ)))
    (hV5 : V.ag5_0 c ((agM5_0 c).view.read (Elt F) g5)) :
    iprop(cellInv ER (sched V) κs5 (cell c (.agS 5 0)) ∗ cellInv ER (sched V) κr5 (cell (nbr 1 c) (.agR 5 0)) ∗ cellInv ER (sched V) κwS (cell c (.agS 0 0))
        ∗ reached ER (cell c (.agS 5 0)) 0 ∗ reached ER (cell (nbr 1 c) (.agR 5 0)) 0
        ∗ dutyTok ER (cell c (.agS 5 0)) 0 (0 : Fin 3) ∗ dutyTok ER (cell (nbr 1 c) (.agR 5 0)) 0 (0 : Fin 3)
        ∗ ptsAny (F := F) (nbr 1 c) (agM5_0 c)
        ∗ cred (tallyAt (cell c (.agS 0 0)) () (amt (.agR 0 0))) ∗ atPos ER (cell c (.agS 0 0)) 0 ∅ 0
        ∗ owes (c : Thread nD τ) (Owe c 26) W ∗ levAts L lv
        ∗ heldW c (agM5_0 c) g5)
      ⊢ wp frame (wpE (defs₀ (F := F)) 𝒱₀ c none) Set.univ
          (k0_part40 (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23 c v2 v6 v8 v790 v844 v1184)
          (fun r => iprop(⌜r = ⟨Scalar.subi v790 (Scalar.muli v6 256#32), Scalar.addi (Scalar.subi v790 (Scalar.muli v6 256#32)) (Scalar.muli (Scalar.subi 1#32 v6) 256#32), Scalar.xori v2 3#32,
                Scalar.subi v844 (Scalar.muli v8 256#32), Scalar.addi (Scalar.subi v844 (Scalar.muli v8 256#32)) (Scalar.muli (Scalar.subi 1#32 v8) 256#32)⟩⌝
            ∗ cred (tallyAt (cell c (.agS 5 0)) () (amt (.agR 5 0)))
            ∗ owes (c : Thread nD τ) (Owe c 27) (insert ((CK.agS 0 0).sem, ()) W)
            ∗ atPos ER (cell c (.agS 0 0)) 1 ∅ 0
            ∗ ptsLent (F := F) c (agM0_0 c)
            ∗ ((agM5_0 c).view.loc (c : Thread nD τ) ↦[(agM5_0 c).view.set]{fullShare.right} g5))) := by
  simp only [k0_part40_eq_skeleton]; unfold k0_part40_skel
  simp only [Prog.lift, Prog.bind_op, Prog.bind_ret, Prog.pure_eq_ret]
  iintro ⟨#HIs5, #HIr5, #HIwS, #Hrs5, #Hrr5, Hts5, Htr5, Hdst5, HcwS, HatS, HO, #Hlev, Hg5⟩
  unfold heldW
  unfold ptsAny
  icases Hdst5 with ⟨%fd5, Hdst5⟩
  -- group 5's own rows go to the neighbour across axis 1
  ihave Hg5 := (pointsTo_share (PosShare.mem_left_op_right fullShare)).1 $$ Hg5
  icases Hg5 with ⟨Hg5l, Hg5r⟩
  iapply (wp_send_to V c ⟨k0_dev27 c, k0_dev27_lt c⟩ 1 (dev27_eq c) (.agS 5 0) (.agR 5 0) (by decide) (by decide) 26 (by decide) (paid_ag c 5 0) rfl
      (src := agM5_0 c) (dst := agM5_0 c) (agS_sem_eq 5 0 _) (agR_sem_eq 5 0 _) rfl fd5 κs5 κr5 W
      (ptsLent_intro c (agM5_0 c) _)
      (by
        rw [show pay V (nbr 1 c) (.agR 5 0) 0 = ptsIs (nbr 1 c) (agM5_0 (nbr 1 (nbr 1 c))) (V.ag5_0 (nbr 1 (nbr 1 c))) from rfl, nbr_nbr]
        exact ptsIs_intro (nbr 1 c) (agM5_0 c) _ _ (by rw [View.read_write_univ]; exact hV5))) $$ [Hg5l Hdst5 HO Hts5 Htr5]
  · isplitr; · iexact HIs5
    isplitr; · iexact HIr5
    isplitl [Hg5l]; · iexact Hg5l
    isplitl [Hdst5]; · iexact Hdst5
    isplitl [HO]; · iexact HO
    isplitl [Hts5]; · iexact Hts5
    isplitr; · iexact Hrs5
    isplitl [Htr5]; · iexact Htr5
    iexact Hrr5
  iintro ⟨Hcs5, HO⟩
  -- group 0's first all-gather transfer is over: the lent half share of its own rows comes back
  ihave HcwS := (Entails.of_eq (show cred (tallyAt (cell c (.agS 0 0)) () (amt (.agR 0 0))) = cred (tallyAt (cell c (.agS 0 0)) () (amt (.agS 0 0))) from rfl)) $$ HcwS
  iapply (wp_wait_xfer V c (.agS 0 0) (by decide) 27 (agS_sem_eq 0 0 _) (k' := (agM0_0 c : Memref sig .tc .vmem S256x384 .bf16).view.dmaCredit) rfl (wpE_waitDma2_eq 𝒱₀ (c : Thread nD τ) none Set.univ)
      (mayWait_own c (.agS 0 0) (lv_cell c (.agS 0 0)) 27) κwS W) $$ [HcwS HO HatS]
  · isplitr; · iexact HIwS
    isplitl [HcwS]; · iexact HcwS
    isplitl [HO]; · iexact HO
    isplitr; · iexact Hlev
    iexact HatS
  iintro ⟨HO, HatS, HqS⟩
  ihave HpS := (Entails.of_eq (show pay V c (.agS 0 0) 0 = ptsLent (F := F) c (agM0_0 c) from rfl)) $$ HqS
  sl_step
  isplitr; · ipureintro; rfl
  isplitl [Hcs5]; · iexact Hcs5
  isplitl [HO]; · iexact HO
  isplitl [HatS]; · iexact HatS
  isplitl [HpS]; · iexact HpS
  iexact Hg5r

end Cert.KernelIdeal.Proto

end
-- ==== Proof.Body41.lean ====
/-
All-gather step 1 of group 0: the neighbour's rows of step 0 have arrived; with the device's own rows (whose lent half share is
back) they are the rows of step 1, sent to the neighbour across axis 1 (the left half share lent again). The arrived rows are
widened into the accumulator and that finished block copied to the result array; then the wait for the end of group 1's first
transfer.
-/
import proofs.«900882_g7700000000000883_dist_matmul_gelu_kshard_i_m2048_n2048_k1024_v7x_i8_f32_1_alg».proof.Proof.Rules
import proofs.«900882_g7700000000000883_dist_matmul_gelu_kshard_i_m2048_n2048_k1024_v7x_i8_f32_1_alg».proof.Proof.TopoTab
import proofs.«900882_g7700000000000883_dist_matmul_gelu_kshard_i_m2048_n2048_k1024_v7x_i8_f32_1_alg».proof.Proof.PiecesTab
import proofs.«900882_g7700000000000883_dist_matmul_gelu_kshard_i_m2048_n2048_k1024_v7x_i8_f32_1_alg».proof.Proof.PiecesOutTab
import proofs.«900882_g7700000000000883_dist_matmul_gelu_kshard_i_m2048_n2048_k1024_v7x_i8_f32_1_alg».proof.Proof.Gen.KernelIdeal.Skeleton
import Idealize.ShloMosaic.Lib.Pipeline.Value

set_option maxRecDepth 16384

noncomputable section

namespace Cert.KernelIdeal.Proto

open Cert.KernelIdeal Cert.KernelIdeal.Gen Cert.KernelIdeal.Topo
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : Vals F)

set_option maxRecDepth 65536 in
set_option maxHeartbeats 4000000 in
theorem part41_run (c : Dev nD) (κwR κs κr κo κw1 : ℕ) (W : Waits sig Unit) (v2 v8 v1194 v1197 : BitVec 32)
    (g0 : Buf (Elt F) ((agM0_0 c).view.loc (c : Thread nD τ)))
    (f6 : Buf (Elt F) ((outSrcM6 c).view.loc (c : Thread nD τ))) (fd : Buf (Elt F) ((outDstM6 c).view.loc (c : Thread nD τ)))
    (hVag : ∀ fa : Buf (Elt F) ((agM0_0 (nbr 2 c)).view.loc (c : Thread nD τ)), V.ag0_0 (nbr 2 c) ((agM0_0 (nbr 2 c)).view.read (Elt F) fa) →
      V.ag0_1 c ((agM0_1 c).view.read (Elt F) ((agM0_0 (nbr 2 c)).view.set.piecewise fa g0)))
    (hVout : ∀ fa : Buf (Elt F) ((agM0_0 (nbr 2 c)).view.loc (c : Thread nD τ)), V.ag0_0 (nbr 2 c) ((agM0_0 (nbr 2 c)).view.read (Elt F) fa) →
      V.out6 c ((outSrcM6 c).view.read (Elt F) (((Memref.whole cc0_scratch0 : Memref sig .tc .vmem S2048x2048 .f32).access (Rect.unit (s := S2048x2048) (k0_off80 c) S256x384.size (k0_off80_inb c))).write (Elt F) f6 (k0_pay87 (View.readAt (Elt F) (Memref.whole cc0_scratch13 : Memref sig .tc .vmem S2048x384 .bf16).view (Rect.unit (s := S2048x384) (k0_off79 c) S256x384.size (k0_off79_inb c)).toLoadRect ((agM0_0 (nbr 2 c)).view.set.piecewise fa g0))) Finset.univ))) :
    iprop(cellInv ER (sched V) κwR (cell c (.agR 0 0)) ∗ cellInv ER (sched V) κs (cell c (.agS 0 1)) ∗ cellInv ER (sched V) κr (cell (nbr 1 c) (.agR 0 1))
        ∗ cellInv ER (sched V) κo (cell c (.out 6)) ∗ cellInv ER (sched V) κw1 (cell c (.agS 1 0))
        ∗ reached ER (cell c (.agS 0 1)) 0 ∗ reached ER (cell (nbr 1 c) (.agR 0 1)) 0 ∗ reached ER (cell c (.out 6)) 0
        ∗ dutyTok ER (cell c (.agS 0 1)) 0 (0 : Fin 3) ∗ dutyTok ER (cell (nbr 1 c) (.agR 0 1)) 0 (0 : Fin 3) ∗ dutyTok ER (cell c (.out 6)) 0 (0 : Fin 3)
        ∗ cred (tallyAt (cell c (.agR 0 0)) () (amt (.agR 0 0))) ∗ atPos ER (cell c (.agR 0 0)) 0 ∅ 0
        ∗ cred (tallyAt (cell c (.agS 1 0)) () (amt (.agR 1 0))) ∗ atPos ER (cell c (.agS 1 0)) 0 ∅ 0
        ∗ owes (c : Thread nD τ) (Owe c 27) W ∗ levAts L lv
        ∗ ptsAny (F := F) (nbr 1 c) (agM0_1 c)
        ∗ ptsLent (F := F) c (agM0_0 c) ∗ ((agM0_0 c).view.loc (c : Thread nD τ) ↦[(agM0_0 c).view.set]{fullShare.right} g0)
        ∗ heldW c (outSrcM6 c) f6 ∗ heldW c (outDstM6 c) fd)
      ⊢ wp frame (wpE (defs₀ (F := F)) 𝒱₀ c none) Set.univ
          (k0_part41 (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23 c v2 v8 v1194 v1197)
          (fun r => iprop(∃ fa : Buf (Elt F) ((agM0_0 (nbr 2 c)).view.loc (c : Thread nD τ)),
            ⌜r = ⟨Scalar.xori v2 3#32, Scalar.subi v1194 (Scalar.muli v8 512#32), Scalar.addi (Scalar.subi v1194 (Scalar.muli v8 512#32)) (Scalar.muli (Scalar.subi 1#32 v8) 512#32)⟩⌝
            ∗ ⌜V.ag0_0 (nbr 2 c) ((agM0_0 (nbr 2 c)).view.read (Elt F) fa)⌝
            ∗ owes (c : Thread nD τ) (Owe c 28) (insert ((CK.agS 1 0).sem, ()) (insert ((CK.agR 0 0).sem, ()) W))
            ∗ atPos ER (cell c (.agR 0 0)) 1 ∅ 0 ∗ atPos ER (cell c (.agS 1 0)) 1 ∅ 0
            ∗ cred (tallyAt (cell c (.agS 0 1)) () (amt (.agR 0 1))) ∗ cred (tallyAt (cell c (.out 6)) () (amt (.out 6)))
            ∗ ((agM0_1 c).view.loc (c : Thread nD τ) ↦[(agM0_1 c).view.set]{fullShare.right} ((agM0_0 (nbr 2 c)).view.set.piecewise fa g0))
            ∗ ptsLent (F := F) c (agM1_0 c))) := by
  simp only [k0_part41_eq_skeleton]; unfold k0_part41_skel
  simp only [Prog.lift, Prog.bind_op, Prog.bind_ret, Prog.pure_eq_ret]
  iintro ⟨#HIwR, #HIs, #HIr, #HIo, #HIw1, #Hrs, #Hrr, #Hro, Hts, Htr, Hto, HcwR, HatR, Hcw1, Hat1, HO, #Hlev, Hdst, Hlent, Hown, H6, Hd⟩
  unfold heldW
  -- the neighbour's rows of all-gather step 0 have arrived
  iapply (wp_wait_xfer V c (.agR 0 0) (by decide) 27 (agR_sem_eq 0 0 _) (k' := (agM0_0 c : Memref sig .tc .vmem S256x384 .bf16).view.dmaCredit) rfl (wpE_waitDma2_eq 𝒱₀ (c : Thread nD τ) none Set.univ)
      (mayWait_agR c 0 0 27 (by decide)) κwR W) $$ [HcwR HO HatR]
  · isplitr; · iexact HIwR
    isplitl [HcwR]; · iexact HcwR
    isplitl [HO]; · iexact HO
    isplitr; · iexact Hlev
    iexact HatR
  iintro ⟨HO, HatR, HqR⟩
  ihave HpR := (Entails.of_eq (show pay V c (.agR 0 0) 0 = ptsIs c (agM0_0 (nbr 2 c)) (V.ag0_0 (nbr 2 c)) from rfl)) $$ HqR
  unfold ptsIs ptsLent ptsAny
  icases HpR with ⟨%fa, Hfa, %hfa⟩
  icases Hlent with ⟨%g0', Hlent⟩
  icases Hdst with ⟨%fdn, Hdst⟩
  -- the kept right half and the lent left half of the own rows agree, so they make the full share again
  ihave Hag := (persistent_entails_right pointsTo_agree) $$ [Hlent Hown]
  · isplitl [Hlent]; · iexact Hlent
    iexact Hown
  icases Hag with ⟨%hag, Hlent, Hown⟩
  ihave Hlent' := (Entails.of_eq (pointsTo_congr (f := g0') (g := g0) fun i hi => (hag i (Finset.mem_inter.mpr ⟨hi, hi⟩)).1)) $$ Hlent
  ihave Hfull := (pointsTo_share (PosShare.mem_left_op_right fullShare)).2 $$ [Hlent' Hown]
  · isplitl [Hlent']; · iexact Hlent'
    iexact Hown
  -- the own rows and the arrived rows are the rows of the next step
  ihave Hj := (pointsTo_join (ℓ := (Memref.whole cc0_scratch13 : Memref sig .tc .vmem S2048x384 .bf16).view.loc (c : Thread nD τ)) (q := fullShare) (f := g0) (g := fa) (ag_disj0_0 c)) $$ [Hfull Hfa]
  · isplitl [Hfull]; · iexact Hfull
    iexact Hfa
  ihave Hj2 := (Entails.of_eq (pts_set_eq (F := F) (ag_join0_0 c).symm)) $$ Hj
  ihave Hh := (pointsTo_share (PosShare.mem_left_op_right fullShare)).1 $$ Hj2
  icases Hh with ⟨HjL, HjR⟩
  have hp2 : ((agM0_1 c).view.loc (nbr 1 c : Thread nD τ) ↦[(agM0_1 c).view.set]{fullShare}
      ((agM0_1 c).view.write (Elt F) fdn ((agM0_1 c).view.read (Elt F) ((agM0_0 (nbr 2 c)).view.set.piecewise fa g0)) Finset.univ) : sProp 𝕄)
      ⊢ pay V (nbr 1 c) (.agR 0 1) 0 := by
    have e : pay V (nbr 1 c) (.agR 0 1) 0 = ptsIs (nbr 1 c) (agM0_1 c) (V.ag0_1 c) := by
      show ptsIs (nbr 1 c) (agM0_1 (nbr 1 (nbr 1 c))) (V.ag0_1 (nbr 1 (nbr 1 c))) = _
      rw [nbr_nbr]
    rw [e]
    exact ptsIs_intro (nbr 1 c) (agM0_1 c) _ _ (by rw [View.read_write_univ]; exact hVag fa hfa)
  iapply (wp_send_to V c ⟨k0_dev28 c, k0_dev28_lt c⟩ 1 (dev28_eq c) (.agS 0 1) (.agR 0 1) (by decide) (by decide) 27 (by decide) (paid_ag c 0 1) rfl
      (src := agM0_1 c) (dst := agM0_1 c) (agS_sem_eq 0 1 _) (agR_sem_eq 0 1 _) rfl fdn κs κr _
      (ptsLent_intro c (agM0_1 c) _) hp2) $$ [HjL Hdst HO Hts Htr]
  · isplitr; · iexact HIs
    isplitr; · iexact HIr
    isplitl [HjL]; · iexact HjL
    isplitl [Hdst]; · iexact Hdst
    isplitl [HO]; · iexact HO
    isplitl [Hts]; · iexact Hts
    isplitr; · iexact Hrs
    isplitl [Htr]; · iexact Htr
    iexact Hrr
  iintro ⟨Hcs, HO⟩
  have h79 : ((Memref.whole cc0_scratch13 : Memref sig .tc .vmem S2048x384 .bf16).access (Rect.unit (s := S2048x384) (k0_off79 c) ![256, 384] (k0_off79_inb c))).set ⊆ (agM0_1 c).view.set := by
    refine (le_of_eq (View.set_slice_whole _ _)).trans ?_
    piece_dev c unit_subset [off79_eq, off78_eq]
  ihave HjR := (Entails.of_eq (show ((Memref.whole cc0_scratch13 : Memref sig .tc .vmem S2048x384 .bf16).view.loc (c : Thread nD τ) ↦[(agM0_1 c).view.set]{fullShare.right} ((agM0_0 (nbr 2 c)).view.set.piecewise fa g0) : sProp 𝕄)
      = ((agM0_1 c).view.loc (c : Thread nD τ) ↦[(agM0_1 c).view.set]{fullShare.right} ((agM0_0 (nbr 2 c)).view.set.piecewise fa g0)) from rfl)) $$ HjR
  have h80 : ((Memref.whole cc0_scratch0 : Memref sig .tc .vmem S2048x2048 .f32).access (Rect.unit (s := S2048x2048) (k0_off80 c) ![256, 384] (k0_off80_inb c))).set ⊆ (outSrcM6 c).view.set :=
    le_of_eq ((View.set_slice_whole _ _).trans ((unit_set_congr ((off80_eq c).trans (off81_eq c).symm) rfl).trans (View.set_slice_whole _ _).symm))
  have h80' : ((Memref.whole cc0_scratch0 : Memref sig .tc .vmem S2048x2048 .f32).access (Rect.unit (s := S2048x2048) (k0_off80 c) ![256, 384] (k0_off80_inb c))).setOn Finset.univ ⊆ (outSrcM6 c).view.set := h80
  sl_exec
  -- the rows that arrived, widened, are a finished block of the accumulator: it goes to the result array
  iapply (wp_copy_own V c (.out 6) (by decide) (src := outSrcM6 c) (dst := outDstM6 c) (out_sem_eq 6 _) rfl fd κo
      (by
        show _ ⊢ iprop(ptsIs c (outDstM6 c) (V.out6 c) ∗ ptsAny (F := F) c (outSrcM6 c))
        exact BIClass.sep_mono (ptsIs_intro c (outDstM6 c) _ _ (by rw [View.read_write_univ]; exact hVout fa hfa)) (ptsAny_intro c (outSrcM6 c) _))) $$ [H6 Hd Hto]
  · isplitr; · iexact HIo
    isplitl [H6]; · iexact H6
    isplitl [Hd]; · iexact Hd
    isplitl [Hto]; · iexact Hto
    iexact Hro
  iintro Hco
  -- group 1's first all-gather transfer is over: the lent half share of its own rows comes back
  ihave Hcw1 := (Entails.of_eq (show cred (tallyAt (cell c (.agS 1 0)) () (amt (.agR 1 0))) = cred (tallyAt (cell c (.agS 1 0)) () (amt (.agS 1 0))) from rfl)) $$ Hcw1
  iapply (wp_wait_xfer V c (.agS 1 0) (by decide) 28 (agS_sem_eq 1 0 _) (k' := (agM1_0 c : Memref sig .tc .vmem S256x384 .bf16).view.dmaCredit) rfl (wpE_waitDma2_eq 𝒱₀ (c : Thread nD τ) none Set.univ)
      (mayWait_own c (.agS 1 0) (lv_cell c (.agS 1 0)) 28) κw1 _) $$ [Hcw1 HO Hat1]
  · isplitr; · iexact HIw1
    isplitl [Hcw1]; · iexact Hcw1
    isplitl [HO]; · iexact HO
    isplitr; · iexact Hlev
    iexact Hat1
  iintro ⟨HO, Hat1, Hq1⟩
  ihave Hp1 := (Entails.of_eq (show pay V c (.agS 1 0) 0 = ptsLent (F := F) c (agM1_0 c) from rfl)) $$ Hq1
  sl_step
  iexists fa
  isplitr; · ipureintro; rfl
  isplitr; · ipureintro; exact hfa
  isplitl [HO]; · iexact HO
  isplitl [HatR]; · iexact HatR
  isplitl [Hat1]; · iexact Hat1
  isplitl [Hcs]; · iexact Hcs
  isplitl [Hco]; · iexact Hco
  isplitl [HjR]; · iexact HjR
  unfold ptsLent
  iexact Hp1

end Cert.KernelIdeal.Proto

end
-- ==== Proof.Body42.lean ====
/-
All-gather step 1 of group 1: the neighbour's rows of step 0 have arrived; with the device's own rows (whose lent half share is
back) they are the rows of step 1, sent to the neighbour across axis 2 (the left half share lent again). The arrived rows are
widened into the accumulator and that finished block copied to the result array.
-/
import proofs.«900882_g7700000000000883_dist_matmul_gelu_kshard_i_m2048_n2048_k1024_v7x_i8_f32_1_alg».proof.Proof.Rules
import proofs.«900882_g7700000000000883_dist_matmul_gelu_kshard_i_m2048_n2048_k1024_v7x_i8_f32_1_alg».proof.Proof.TopoTab
import proofs.«900882_g7700000000000883_dist_matmul_gelu_kshard_i_m2048_n2048_k1024_v7x_i8_f32_1_alg».proof.Proof.PiecesTab
import proofs.«900882_g7700000000000883_dist_matmul_gelu_kshard_i_m2048_n2048_k1024_v7x_i8_f32_1_alg».proof.Proof.PiecesOutTab
import proofs.«900882_g7700000000000883_dist_matmul_gelu_kshard_i_m2048_n2048_k1024_v7x_i8_f32_1_alg».proof.Proof.Gen.KernelIdeal.Skeleton
import Idealize.ShloMosaic.Lib.Pipeline.Value

set_option maxRecDepth 16384

noncomputable section

namespace Cert.KernelIdeal.Proto

open Cert.KernelIdeal Cert.KernelIdeal.Gen Cert.KernelIdeal.Topo
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : Vals F)

set_option maxRecDepth 65536 in
set_option maxHeartbeats 4000000 in
theorem part42_run (c : Dev nD) (κwR κs κr κo : ℕ) (W : Waits sig Unit) (v2 v9 v1198 v1208 v1211 : BitVec 32)
    (g1 : Buf (Elt F) ((agM1_0 c).view.loc (c : Thread nD τ)))
    (f7 : Buf (Elt F) ((outSrcM7 c).view.loc (c : Thread nD τ))) (fd : Buf (Elt F) ((outDstM7 c).view.loc (c : Thread nD τ)))
    (hVag : ∀ fa : Buf (Elt F) ((agM1_0 (nbr 0 c)).view.loc (c : Thread nD τ)), V.ag1_0 (nbr 0 c) ((agM1_0 (nbr 0 c)).view.read (Elt F) fa) →
      V.ag1_1 c ((agM1_1 c).view.read (Elt F) ((agM1_0 (nbr 0 c)).view.set.piecewise fa g1)))
    (hVout : ∀ fa : Buf (Elt F) ((agM1_0 (nbr 0 c)).view.loc (c : Thread nD τ)), V.ag1_0 (nbr 0 c) ((agM1_0 (nbr 0 c)).view.read (Elt F) fa) →
      V.out7 c ((outSrcM7 c).view.read (Elt F) (((Memref.whole cc0_scratch0 : Memref sig .tc .vmem S2048x2048 .f32).access (Rect.unit (s := S2048x2048) (k0_off84 c) S256x384.size (k0_off84_inb c))).write (Elt F) f7 (k0_pay88 (View.readAt (Elt F) (Memref.whole cc0_scratch14 : Memref sig .tc .vmem S2048x384 .bf16).view (Rect.unit (s := S2048x384) (k0_off83 c) S256x384.size (k0_off83_inb c)).toLoadRect ((agM1_0 (nbr 0 c)).view.set.piecewise fa g1))) Finset.univ))) :
    iprop(cellInv ER (sched V) κwR (cell c (.agR 1 0)) ∗ cellInv ER (sched V) κs (cell c (.agS 1 1)) ∗ cellInv ER (sched V) κr (cell (nbr 2 c) (.agR 1 1))
        ∗ cellInv ER (sched V) κo (cell c (.out 7))
        ∗ reached ER (cell c (.agS 1 1)) 0 ∗ reached ER (cell (nbr 2 c) (.agR 1 1)) 0 ∗ reached ER (cell c (.out 7)) 0
        ∗ dutyTok ER (cell c (.agS 1 1)) 0 (0 : Fin 3) ∗ dutyTok ER (cell (nbr 2 c) (.agR 1 1)) 0 (0 : Fin 3) ∗ dutyTok ER (cell c (.out 7)) 0 (0 : Fin 3)
        ∗ cred (tallyAt (cell c (.agR 1 0)) () (amt (.agR 1 0))) ∗ atPos ER (cell c (.agR 1 0)) 0 ∅ 0
        ∗ owes (c : Thread nD τ) (Owe c 28) W ∗ levAts L lv
        ∗ ptsAny (F := F) (nbr 2 c) (agM1_1 c)
        ∗ ptsLent (F := F) c (agM1_0 c) ∗ ((agM1_0 c).view.loc (c : Thread nD τ) ↦[(agM1_0 c).view.set]{fullShare.right} g1)
        ∗ heldW c (outSrcM7 c) f7 ∗ heldW c (outDstM7 c) fd)
      ⊢ wp frame (wpE (defs₀ (F := F)) 𝒱₀ c none) Set.univ
          (k0_part42 (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23 c v2 v9 v1198 v1208 v1211)
          (fun r => iprop(∃ fa : Buf (Elt F) ((agM1_0 (nbr 0 c)).view.loc (c : Thread nD τ)),
            ⌜r = ⟨Scalar.xori v2 4#32, Scalar.subi v1208 (Scalar.muli v9 512#32), Scalar.addi (Scalar.subi v1208 (Scalar.muli v9 512#32)) (Scalar.muli (Scalar.subi 1#32 v9) 512#32)⟩⌝
            ∗ ⌜V.ag1_0 (nbr 0 c) ((agM1_0 (nbr 0 c)).view.read (Elt F) fa)⌝
            ∗ owes (c : Thread nD τ) (Owe c 29) (insert ((CK.agR 1 0).sem, ()) W)
            ∗ atPos ER (cell c (.agR 1 0)) 1 ∅ 0
            ∗ cred (tallyAt (cell c (.agS 1 1)) () (amt (.agR 1 1))) ∗ cred (tallyAt (cell c (.out 7)) () (amt (.out 7)))
            ∗ ((agM1_1 c).view.loc (c : Thread nD τ) ↦[(agM1_1 c).view.set]{fullShare.right} ((agM1_0 (nbr 0 c)).view.set.piecewise fa g1)))) := by
  simp only [k0_part42_eq_skeleton]; unfold k0_part42_skel
  simp only [Prog.lift, Prog.bind_op, Prog.bind_ret, Prog.pure_eq_ret]
  iintro ⟨#HIwR, #HIs, #HIr, #HIo, #Hrs, #Hrr, #Hro, Hts, Htr, Hto, HcwR, HatR, HO, #Hlev, Hdst, Hlent, Hown, H7, Hd⟩
  unfold heldW
  -- the neighbour's rows of all-gather step 0 have arrived
  iapply (wp_wait_xfer V c (.agR 1 0) (by decide) 28 (agR_sem_eq 1 0 _) (k' := (agM1_0 c : Memref sig .tc .vmem S256x384 .bf16).view.dmaCredit) rfl (wpE_waitDma2_eq 𝒱₀ (c : Thread nD τ) none Set.univ)
      (mayWait_agR c 1 0 28 (by decide)) κwR W) $$ [HcwR HO HatR]
  · isplitr; · iexact HIwR
    isplitl [HcwR]; · iexact HcwR
    isplitl [HO]; · iexact HO
    isplitr; · iexact Hlev
    iexact HatR
  iintro ⟨HO, HatR, HqR⟩
  ihave HpR := (Entails.of_eq (show pay V c (.agR 1 0) 0 = ptsIs c (agM1_0 (nbr 0 c)) (V.ag1_0 (nbr 0 c)) from rfl)) $$ HqR
  unfold ptsIs ptsLent ptsAny
  icases HpR with ⟨%fa, Hfa, %hfa⟩
  icases Hlent with ⟨%g1', Hlent⟩
  icases Hdst with ⟨%fdn, Hdst⟩
  -- the kept right half and the lent left half of the own rows agree, so they make the full share again
  ihave Hag := (persistent_entails_right pointsTo_agree) $$ [Hlent Hown]
  · isplitl [Hlent]; · iexact Hlent
    iexact Hown
  icases Hag with ⟨%hag, Hlent, Hown⟩
  ihave Hlent' := (Entails.of_eq (pointsTo_congr (f := g1') (g := g1) fun i hi => (hag i (Finset.mem_inter.mpr ⟨hi, hi⟩)).1)) $$ Hlent
  ihave Hfull := (pointsTo_share (PosShare.mem_left_op_right fullShare)).2 $$ [Hlent' Hown]
  · isplitl [Hlent']; · iexact Hlent'
    iexact Hown
  -- the own rows and the arrived rows are the rows of the next step
  ihave Hj := (pointsTo_join (ℓ := (Memref.whole cc0_scratch14 : Memref sig .tc .vmem S2048x384 .bf16).view.loc (c : Thread nD τ)) (q := fullShare) (f := g1) (g := fa) (ag_disj0_1 c)) $$ [Hfull Hfa]
  · isplitl [Hfull]; · iexact Hfull
    iexact Hfa
  ihave Hj2 := (Entails.of_eq (pts_set_eq (F := F) (ag_join0_1 c).symm)) $$ Hj
  ihave Hh := (pointsTo_share (PosShare.mem_left_op_right fullShare)).1 $$ Hj2
  icases Hh with ⟨HjL, HjR⟩
  have hp2 : ((agM1_1 c).view.loc (nbr 2 c : Thread nD τ) ↦[(agM1_1 c).view.set]{fullShare}
      ((agM1_1 c).view.write (Elt F) fdn ((agM1_1 c).view.read (Elt F) ((agM1_0 (nbr 0 c)).view.set.piecewise fa g1)) Finset.univ) : sProp 𝕄)
      ⊢ pay V (nbr 2 c) (.agR 1 1) 0 := by
    have e : pay V (nbr 2 c) (.agR 1 1) 0 = ptsIs (nbr 2 c) (agM1_1 c) (V.ag1_1 c) := by
      show ptsIs (nbr 2 c) (agM1_1 (nbr 2 (nbr 2 c))) (V.ag1_1 (nbr 2 (nbr 2 c))) = _
      rw [nbr_nbr]
    rw [e]
    exact ptsIs_intro (nbr 2 c) (agM1_1 c) _ _ (by rw [View.read_write_univ]; exact hVag fa hfa)
  iapply (wp_send_to V c ⟨k0_dev29 c, k0_dev29_lt c⟩ 2 (dev29_eq c) (.agS 1 1) (.agR 1 1) (by decide) (by decide) 28 (by decide) (paid_ag c 1 1) rfl
      (src := agM1_1 c) (dst := agM1_1 c) (agS_sem_eq 1 1 _) (agR_sem_eq 1 1 _) rfl fdn κs κr _
      (ptsLent_intro c (agM1_1 c) _) hp2) $$ [HjL Hdst HO Hts Htr]
  · isplitr; · iexact HIs
    isplitr; · iexact HIr
    isplitl [HjL]; · iexact HjL
    isplitl [Hdst]; · iexact Hdst
    isplitl [HO]; · iexact HO
    isplitl [Hts]; · iexact Hts
    isplitr; · iexact Hrs
    isplitl [Htr]; · iexact Htr
    iexact Hrr
  iintro ⟨Hcs, HO⟩
  have h83 : ((Memref.whole cc0_scratch14 : Memref sig .tc .vmem S2048x384 .bf16).access (Rect.unit (s := S2048x384) (k0_off83 c) ![256, 384] (k0_off83_inb c))).set ⊆ (agM1_1 c).view.set := by
    refine (le_of_eq (View.set_slice_whole _ _)).trans ?_
    piece_dev c unit_subset [off83_eq, off82_eq]
  have h84 : ((Memref.whole cc0_scratch0 : Memref sig .tc .vmem S2048x2048 .f32).access (Rect.unit (s := S2048x2048) (k0_off84 c) ![256, 384] (k0_off84_inb c))).set ⊆ (outSrcM7 c).view.set :=
    le_of_eq ((View.set_slice_whole _ _).trans ((unit_set_congr ((off84_eq c).trans (off85_eq c).symm) rfl).trans (View.set_slice_whole _ _).symm))
  have h84' : ((Memref.whole cc0_scratch0 : Memref sig .tc .vmem S2048x2048 .f32).access (Rect.unit (s := S2048x2048) (k0_off84 c) ![256, 384] (k0_off84_inb c))).setOn Finset.univ ⊆ (outSrcM7 c).view.set := h84
  ihave HjR := (Entails.of_eq (show ((Memref.whole cc0_scratch14 : Memref sig .tc .vmem S2048x384 .bf16).view.loc (c : Thread nD τ) ↦[(agM1_1 c).view.set]{fullShare.right} ((agM1_0 (nbr 0 c)).view.set.piecewise fa g1) : sProp 𝕄)
      = ((agM1_1 c).view.loc (c : Thread nD τ) ↦[(agM1_1 c).view.set]{fullShare.right} ((agM1_0 (nbr 0 c)).view.set.piecewise fa g1)) from rfl)) $$ HjR
  sl_exec
  -- the rows that arrived, widened, are a finished block of the accumulator: it goes to the result array
  iapply (wp_copy_own V c (.out 7) (by decide) (src := outSrcM7 c) (dst := outDstM7 c) (out_sem_eq 7 _) rfl fd κo
      (by
        show _ ⊢ iprop(ptsIs c (outDstM7 c) (V.out7 c) ∗ ptsAny (F := F) c (outSrcM7 c))
        exact BIClass.sep_mono (ptsIs_intro c (outDstM7 c) _ _ (by rw [View.read_write_univ]; exact hVout fa hfa)) (ptsAny_intro c (outSrcM7 c) _))) $$ [H7 Hd Hto]
  · isplitr; · iexact HIo
    isplitl [H7]; · iexact H7
    isplitl [Hd]; · iexact Hd
    isplitl [Hto]; · iexact Hto
    iexact Hro
  iintro Hco
  sl_step
  iexists fa
  isplitr; · ipureintro; rfl
  isplitr; · ipureintro; exact hfa
  isplitl [HO]; · iexact HO
  isplitl [HatR]; · iexact HatR
  isplitl [Hcs]; · iexact Hcs
  isplitl [Hco]; · iexact Hco
  iexact HjR

end Cert.KernelIdeal.Proto

end
-- ==== Proof.Body43.lean ====
/-
All-gather step 1 of group 2: its first transfer is over and the neighbour's rows of step 0 have arrived; with the device's own
rows they are the rows of step 1, sent to the neighbour across axis 0 (the left half share lent again). The arrived rows and the
accumulator rows they will overwrite are loaded.
-/
import proofs.«900882_g7700000000000883_dist_matmul_gelu_kshard_i_m2048_n2048_k1024_v7x_i8_f32_1_alg».proof.Proof.Rules
import proofs.«900882_g7700000000000883_dist_matmul_gelu_kshard_i_m2048_n2048_k1024_v7x_i8_f32_1_alg».proof.Proof.TopoTab
import proofs.«900882_g7700000000000883_dist_matmul_gelu_kshard_i_m2048_n2048_k1024_v7x_i8_f32_1_alg».proof.Proof.PiecesTab
import proofs.«900882_g7700000000000883_dist_matmul_gelu_kshard_i_m2048_n2048_k1024_v7x_i8_f32_1_alg».proof.Proof.PiecesOutTab
import proofs.«900882_g7700000000000883_dist_matmul_gelu_kshard_i_m2048_n2048_k1024_v7x_i8_f32_1_alg».proof.Proof.Gen.KernelIdeal.Skeleton
import Idealize.ShloMosaic.Lib.Pipeline.Value

set_option maxRecDepth 16384

noncomputable section

namespace Cert.KernelIdeal.Proto

open Cert.KernelIdeal Cert.KernelIdeal.Gen Cert.KernelIdeal.Topo
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : Vals F)

set_option maxRecDepth 65536 in
set_option maxHeartbeats 4000000 in
theorem part43_run (c : Dev nD) (κwS κwR κs κr : ℕ) (W : Waits sig Unit) (v2 v6 v1212 v1222 v1225 : BitVec 32)
    (g2 : Buf (Elt F) ((agM2_0 c).view.loc (c : Thread nD τ)))
    (f8 : Buf (Elt F) ((outSrcM8 c).view.loc (c : Thread nD τ)))
    (hVag : ∀ fa : Buf (Elt F) ((agM2_0 (nbr 1 c)).view.loc (c : Thread nD τ)), V.ag2_0 (nbr 1 c) ((agM2_0 (nbr 1 c)).view.read (Elt F) fa) →
      V.ag2_1 c ((agM2_1 c).view.read (Elt F) ((agM2_0 (nbr 1 c)).view.set.piecewise fa g2))) :
    iprop(cellInv ER (sched V) κwS (cell c (.agS 2 0)) ∗ cellInv ER (sched V) κwR (cell c (.agR 2 0))
        ∗ cellInv ER (sched V) κs (cell c (.agS 2 1)) ∗ cellInv ER (sched V) κr (cell (nbr 0 c) (.agR 2 1))
        ∗ reached ER (cell c (.agS 2 1)) 0 ∗ reached ER (cell (nbr 0 c) (.agR 2 1)) 0
        ∗ dutyTok ER (cell c (.agS 2 1)) 0 (0 : Fin 3) ∗ dutyTok ER (cell (nbr 0 c) (.agR 2 1)) 0 (0 : Fin 3)
        ∗ cred (tallyAt (cell c (.agS 2 0)) () (amt (.agR 2 0))) ∗ atPos ER (cell c (.agS 2 0)) 0 ∅ 0
        ∗ cred (tallyAt (cell c (.agR 2 0)) () (amt (.agR 2 0))) ∗ atPos ER (cell c (.agR 2 0)) 0 ∅ 0
        ∗ owes (c : Thread nD τ) (Owe c 29) W ∗ levAts L lv
        ∗ ptsAny (F := F) (nbr 0 c) (agM2_1 c)
        ∗ ((agM2_0 c).view.loc (c : Thread nD τ) ↦[(agM2_0 c).view.set]{fullShare.right} g2)
        ∗ heldW c (outSrcM8 c) f8)
      ⊢ wp frame (wpE (defs₀ (F := F)) 𝒱₀ c none) Set.univ
          (k0_part43 (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23 c v2 v6 v1212 v1222 v1225)
          (fun r => iprop(∃ fa : Buf (Elt F) ((agM2_0 (nbr 1 c)).view.loc (c : Thread nD τ)),
            ⌜r = ⟨Scalar.xori v2 1#32, Scalar.subi v1222 (Scalar.muli v6 512#32), Scalar.addi (Scalar.subi v1222 (Scalar.muli v6 512#32)) (Scalar.muli (Scalar.subi 1#32 v6) 512#32),
                k0_pay89 (View.readAt (Elt F) (Memref.whole cc0_scratch15 : Memref sig .tc .vmem S2048x384 .bf16).view (Rect.unit (s := S2048x384) (k0_off87 c) S256x384.size (k0_off87_inb c)).toLoadRect ((agM2_0 (nbr 1 c)).view.set.piecewise fa g2)),
                View.readAt (Elt F) (Memref.whole cc0_scratch0 : Memref sig .tc .vmem S2048x2048 .f32).view (Rect.unit (s := S2048x2048) (k0_off88 c) S256x384.size (k0_off88_inb c)).toLoadRect f8⟩⌝
            ∗ ⌜V.ag2_0 (nbr 1 c) ((agM2_0 (nbr 1 c)).view.read (Elt F) fa)⌝
            ∗ owes (c : Thread nD τ) (Owe c 30) (insert ((CK.agR 2 0).sem, ()) (insert ((CK.agS 2 0).sem, ()) W))
            ∗ atPos ER (cell c (.agS 2 0)) 1 ∅ 0 ∗ atPos ER (cell c (.agR 2 0)) 1 ∅ 0
            ∗ cred (tallyAt (cell c (.agS 2 1)) () (amt (.agR 2 1)))
            ∗ ((agM2_1 c).view.loc (c : Thread nD τ) ↦[(agM2_1 c).view.set]{fullShare.right} ((agM2_0 (nbr 1 c)).view.set.piecewise fa g2))
            ∗ heldW c (outSrcM8 c) f8)) := by
  simp only [k0_part43_eq_skeleton]; unfold k0_part43_skel
  simp only [Prog.lift, Prog.bind_op, Prog.bind_ret, Prog.pure_eq_ret]
  iintro ⟨#HIwS, #HIwR, #HIs, #HIr, #Hrs, #Hrr, Hts, Htr, HcwS, HatS, HcwR, HatR, HO, #Hlev, Hdst, Hown, H8⟩
  unfold heldW
  -- group 2's first all-gather transfer is over: the lent half share of its own rows comes back
  ihave HcwS := (Entails.of_eq (show cred (tallyAt (cell c (.agS 2 0)) () (amt (.agR 2 0))) = cred (tallyAt (cell c (.agS 2 0)) () (amt (.agS 2 0))) from rfl)) $$ HcwS
  iapply (wp_wait_xfer V c (.agS 2 0) (by decide) 29 (agS_sem_eq 2 0 _) (k' := (agM2_0 c : Memref sig .tc .vmem S256x384 .bf16).view.dmaCredit) rfl (wpE_waitDma2_eq 𝒱₀ (c : Thread nD τ) none Set.univ)
      (mayWait_own c (.agS 2 0) (lv_cell c (.agS 2 0)) 29) κwS W) $$ [HcwS HO HatS]
  · isplitr; · iexact HIwS
    isplitl [HcwS]; · iexact HcwS
    isplitl [HO]; · iexact HO
    isplitr; · iexact Hlev
    iexact HatS
  iintro ⟨HO, HatS, HqS⟩
  ihave HpS := (Entails.of_eq (show pay V c (.agS 2 0) 0 = ptsLent (F := F) c (agM2_0 c) from rfl)) $$ HqS
  -- and the neighbour's rows of all-gather step 0 have arrived
  iapply (wp_wait_xfer V c (.agR 2 0) (by decide) 29 (agR_sem_eq 2 0 _) (k' := (agM2_0 c : Memref sig .tc .vmem S256x384 .bf16).view.dmaCredit) rfl (wpE_waitDma2_eq 𝒱₀ (c : Thread nD τ) none Set.univ)
      (mayWait_agR c 2 0 29 (by decide)) κwR _) $$ [HcwR HO HatR]
  · isplitr; · iexact HIwR
    isplitl [HcwR]; · iexact HcwR
    isplitl [HO]; · iexact HO
    isplitr; · iexact Hlev
    iexact HatR
  iintro ⟨HO, HatR, HqR⟩
  ihave HpR := (Entails.of_eq (show pay V c (.agR 2 0) 0 = ptsIs c (agM2_0 (nbr 1 c)) (V.ag2_0 (nbr 1 c)) from rfl)) $$ HqR
  unfold ptsIs ptsLent ptsAny
  icases HpR with ⟨%fa, Hfa, %hfa⟩
  icases HpS with ⟨%g2', Hlent⟩
  icases Hdst with ⟨%fdn, Hdst⟩
  -- the kept right half and the lent left half of the own rows agree, so they make the full share again
  ihave Hag := (persistent_entails_right pointsTo_agree) $$ [Hlent Hown]
  · isplitl [Hlent]; · iexact Hlent
    iexact Hown
  icases Hag with ⟨%hag, Hlent, Hown⟩
  ihave Hlent' := (Entails.of_eq (pointsTo_congr (f := g2') (g := g2) fun i hi => (hag i (Finset.mem_inter.mpr ⟨hi, hi⟩)).1)) $$ Hlent
  ihave Hfull := (pointsTo_share (PosShare.mem_left_op_right fullShare)).2 $$ [Hlent' Hown]
  · isplitl [Hlent']; · iexact Hlent'
    iexact Hown
  -- the own rows and the arrived rows are the rows of the next step
  ihave Hj := (pointsTo_join (ℓ := (Memref.whole cc0_scratch15 : Memref sig .tc .vmem S2048x384 .bf16).view.loc (c : Thread nD τ)) (q := fullShare) (f := g2) (g := fa) (ag_disj0_2 c)) $$ [Hfull Hfa]
  · isplitl [Hfull]; · iexact Hfull
    iexact Hfa
  ihave Hj2 := (Entails.of_eq (pts_set_eq (F := F) (ag_join0_2 c).symm)) $$ Hj
  ihave Hh := (pointsTo_share (PosShare.mem_left_op_right fullShare)).1 $$ Hj2
  icases Hh with ⟨HjL, HjR⟩
  have hp2 : ((agM2_1 c).view.loc (nbr 0 c : Thread nD τ) ↦[(agM2_1 c).view.set]{fullShare}
      ((agM2_1 c).view.write (Elt F) fdn ((agM2_1 c).view.read (Elt F) ((agM2_0 (nbr 1 c)).view.set.piecewise fa g2)) Finset.univ) : sProp 𝕄)
      ⊢ pay V (nbr 0 c) (.agR 2 1) 0 := by
    have e : pay V (nbr 0 c) (.agR 2 1) 0 = ptsIs (nbr 0 c) (agM2_1 c) (V.ag2_1 c) := by
      show ptsIs (nbr 0 c) (agM2_1 (nbr 0 (nbr 0 c))) (V.ag2_1 (nbr 0 (nbr 0 c))) = _
      rw [nbr_nbr]
    rw [e]
    exact ptsIs_intro (nbr 0 c) (agM2_1 c) _ _ (by rw [View.read_write_univ]; exact hVag fa hfa)
  iapply (wp_send_to V c ⟨k0_dev30 c, k0_dev30_lt c⟩ 0 (dev30_eq c) (.agS 2 1) (.agR 2 1) (by decide) (by decide) 29 (by decide) (paid_ag c 2 1) rfl
      (src := agM2_1 c) (dst := agM2_1 c) (agS_sem_eq 2 1 _) (agR_sem_eq 2 1 _) rfl fdn κs κr _
      (ptsLent_intro c (agM2_1 c) _) hp2) $$ [HjL Hdst HO Hts Htr]
  · isplitr; · iexact HIs
    isplitr; · iexact HIr
    isplitl [HjL]; · iexact HjL
    isplitl [Hdst]; · iexact Hdst
    isplitl [HO]; · iexact HO
    isplitl [Hts]; · iexact Hts
    isplitr; · iexact Hrs
    isplitl [Htr]; · iexact Htr
    iexact Hrr
  iintro ⟨Hcs, HO⟩
  have h87 : ((Memref.whole cc0_scratch15 : Memref sig .tc .vmem S2048x384 .bf16).access (Rect.unit (s := S2048x384) (k0_off87 c) ![256, 384] (k0_off87_inb c))).set ⊆ (agM2_1 c).view.set := by
    refine (le_of_eq (View.set_slice_whole _ _)).trans ?_
    piece_dev c unit_subset [off87_eq, off86_eq]
  have h88 : ((Memref.whole cc0_scratch0 : Memref sig .tc .vmem S2048x2048 .f32).access (Rect.unit (s := S2048x2048) (k0_off88 c) ![256, 384] (k0_off88_inb c))).set ⊆ (outSrcM8 c).view.set :=
    le_of_eq ((View.set_slice_whole _ _).trans ((unit_set_congr ((off88_eq c).trans (off89_eq c).symm) rfl).trans (View.set_slice_whole _ _).symm))
  ihave HjR := (Entails.of_eq (show ((Memref.whole cc0_scratch15 : Memref sig .tc .vmem S2048x384 .bf16).view.loc (c : Thread nD τ) ↦[(agM2_1 c).view.set]{fullShare.right} ((agM2_0 (nbr 1 c)).view.set.piecewise fa g2) : sProp 𝕄)
      = ((agM2_1 c).view.loc (c : Thread nD τ) ↦[(agM2_1 c).view.set]{fullShare.right} ((agM2_0 (nbr 1 c)).view.set.piecewise fa g2)) from rfl)) $$ HjR
  sl_exec
  sl_step
  iexists fa
  isplitr; · ipureintro; rfl
  isplitr; · ipureintro; exact hfa
  isplitl [HO]; · iexact HO
  isplitl [HatS]; · iexact HatS
  isplitl [HatR]; · iexact HatR
  isplitl [Hcs]; · iexact Hcs
  isplitl [HjR]; · iexact HjR
  iexact H8

end Cert.KernelIdeal.Proto

end
-- ==== Proof.Body44.lean ====
/-
The rows of group 2 that arrived at all-gather step 0, widened, are stored into the accumulator and that finished block copied to
the result array. Then all-gather step 1 of group 3: its first transfer is over and the neighbour's rows of step 0 have arrived;
with the device's own rows they are the rows of step 1, sent to the neighbour across axis 1 (the left half share lent again).
-/
import proofs.«900882_g7700000000000883_dist_matmul_gelu_kshard_i_m2048_n2048_k1024_v7x_i8_f32_1_alg».proof.Proof.Rules
import proofs.«900882_g7700000000000883_dist_matmul_gelu_kshard_i_m2048_n2048_k1024_v7x_i8_f32_1_alg».proof.Proof.TopoTab
import proofs.«900882_g7700000000000883_dist_matmul_gelu_kshard_i_m2048_n2048_k1024_v7x_i8_f32_1_alg».proof.Proof.PiecesTab
import proofs.«900882_g7700000000000883_dist_matmul_gelu_kshard_i_m2048_n2048_k1024_v7x_i8_f32_1_alg».proof.Proof.PiecesOutTab
import proofs.«900882_g7700000000000883_dist_matmul_gelu_kshard_i_m2048_n2048_k1024_v7x_i8_f32_1_alg».proof.Proof.Gen.KernelIdeal.Skeleton
import Idealize.ShloMosaic.Lib.Pipeline.Value

set_option maxRecDepth 16384

noncomputable section

namespace Cert.KernelIdeal.Proto

open Cert.KernelIdeal Cert.KernelIdeal.Gen Cert.KernelIdeal.Topo
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : Vals F)

set_option maxRecDepth 65536 in
set_option maxHeartbeats 4000000 in
theorem part44_run (c : Dev nD) (κo κwS κwR κs κr : ℕ) (W : Waits sig Unit) (v2 v8 v1226 v1236 : BitVec 32) (v1364 : FVec F S256x384 .f32) (v1366 : Vec F S256x384 .f32)
    (g3 : Buf (Elt F) ((agM3_0 c).view.loc (c : Thread nD τ)))
    (f8 : Buf (Elt F) ((outSrcM8 c).view.loc (c : Thread nD τ))) (fd : Buf (Elt F) ((outDstM8 c).view.loc (c : Thread nD τ)))
    (hVout : V.out8 c ((outSrcM8 c).view.read (Elt F) (((Memref.whole cc0_scratch0 : Memref sig .tc .vmem S2048x2048 .f32).access (Rect.unit (s := S2048x2048) (k0_off88 c) S256x384.size (k0_off88_inb c))).write (Elt F) f8 (k0_pay90 v1364) Finset.univ)))
    (hVag : ∀ fa : Buf (Elt F) ((agM3_0 (nbr 2 c)).view.loc (c : Thread nD τ)), V.ag3_0 (nbr 2 c) ((agM3_0 (nbr 2 c)).view.read (Elt F) fa) →
      V.ag3_1 c ((agM3_1 c).view.read (Elt F) ((agM3_0 (nbr 2 c)).view.set.piecewise fa g3))) :
    iprop(cellInv ER (sched V) κo (cell c (.out 8)) ∗ cellInv ER (sched V) κwS (cell c (.agS 3 0)) ∗ cellInv ER (sched V) κwR (cell c (.agR 3 0))
        ∗ cellInv ER (sched V) κs (cell c (.agS 3 1)) ∗ cellInv ER (sched V) κr (cell (nbr 1 c) (.agR 3 1))
        ∗ reached ER (cell c (.out 8)) 0 ∗ reached ER (cell c (.agS 3 1)) 0 ∗ reached ER (cell (nbr 1 c) (.agR 3 1)) 0
        ∗ dutyTok ER (cell c (.out 8)) 0 (0 : Fin 3) ∗ dutyTok ER (cell c (.agS 3 1)) 0 (0 : Fin 3) ∗ dutyTok ER (cell (nbr 1 c) (.agR 3 1)) 0 (0 : Fin 3)
        ∗ cred (tallyAt (cell c (.agS 3 0)) () (amt (.agR 3 0))) ∗ atPos ER (cell c (.agS 3 0)) 0 ∅ 0
        ∗ cred (tallyAt (cell c (.agR 3 0)) () (amt (.agR 3 0))) ∗ atPos ER (cell c (.agR 3 0)) 0 ∅ 0
        ∗ owes (c : Thread nD τ) (Owe c 30) W ∗ levAts L lv
        ∗ ptsAny (F := F) (nbr 1 c) (agM3_1 c)
        ∗ ((agM3_0 c).view.loc (c : Thread nD τ) ↦[(agM3_0 c).view.set]{fullShare.right} g3)
        ∗ heldW c (outSrcM8 c) f8 ∗ heldW c (outDstM8 c) fd)
      ⊢ wp frame (wpE (defs₀ (F := F)) 𝒱₀ c none) Set.univ
          (k0_part44 (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23 c v2 v8 v1226 v1236 v1364 v1366)
          (fun r => iprop(∃ fa : Buf (Elt F) ((agM3_0 (nbr 2 c)).view.loc (c : Thread nD τ)),
            ⌜r = ⟨Scalar.xori v2 3#32, Scalar.subi v1236 (Scalar.muli v8 512#32)⟩⌝
            ∗ ⌜V.ag3_0 (nbr 2 c) ((agM3_0 (nbr 2 c)).view.read (Elt F) fa)⌝
            ∗ cred (tallyAt (cell c (.out 8)) () (amt (.out 8)))
            ∗ owes (c : Thread nD τ) (Owe c 31) (insert ((CK.agR 3 0).sem, ()) (insert ((CK.agS 3 0).sem, ()) W))
            ∗ atPos ER (cell c (.agS 3 0)) 1 ∅ 0 ∗ atPos ER (cell c (.agR 3 0)) 1 ∅ 0
            ∗ cred (tallyAt (cell c (.agS 3 1)) () (amt (.agR 3 1)))
            ∗ ((agM3_1 c).view.loc (c : Thread nD τ) ↦[(agM3_1 c).view.set]{fullShare.right} ((agM3_0 (nbr 2 c)).view.set.piecewise fa g3)))) := by
  simp only [k0_part44_eq_skeleton]; unfold k0_part44_skel
  simp only [Prog.lift, Prog.bind_op, Prog.bind_ret, Prog.pure_eq_ret]
  iintro ⟨#HIo, #HIwS, #HIwR, #HIs, #HIr, #Hro, #Hrs, #Hrr, Hto, Hts, Htr, HcwS, HatS, HcwR, HatR, HO, #Hlev, Hdst, Hown, H8, Hd⟩
  unfold heldW
  have h88 : ((Memref.whole cc0_scratch0 : Memref sig .tc .vmem S2048x2048 .f32).access (Rect.unit (s := S2048x2048) (k0_off88 c) ![256, 384] (k0_off88_inb c))).set ⊆ (outSrcM8 c).view.set :=
    le_of_eq ((View.set_slice_whole _ _).trans ((unit_set_congr ((off88_eq c).trans (off89_eq c).symm) rfl).trans (View.set_slice_whole _ _).symm))
  have h88' : ((Memref.whole cc0_scratch0 : Memref sig .tc .vmem S2048x2048 .f32).access (Rect.unit (s := S2048x2048) (k0_off88 c) ![256, 384] (k0_off88_inb c))).setOn Finset.univ ⊆ (outSrcM8 c).view.set := h88
  sl_exec
  -- the rows that arrived at step 0 of group 2, widened, are a finished block of the accumulator: it goes to the result array
  iapply (wp_copy_own V c (.out 8) (by decide) (src := outSrcM8 c) (dst := outDstM8 c) (out_sem_eq 8 _) rfl fd κo
      (by
        show _ ⊢ iprop(ptsIs c (outDstM8 c) (V.out8 c) ∗ ptsAny (F := F) c (outSrcM8 c))
        exact BIClass.sep_mono (ptsIs_intro c (outDstM8 c) _ _ (by rw [View.read_write_univ]; exact hVout)) (ptsAny_intro c (outSrcM8 c) _))) $$ [H8 Hd Hto]
  · isplitr; · iexact HIo
    isplitl [H8]; · iexact H8
    isplitl [Hd]; · iexact Hd
    isplitl [Hto]; · iexact Hto
    iexact Hro
  iintro Hco
  -- group 3's first all-gather transfer is over: the lent half share of its own rows comes back
  ihave HcwS := (Entails.of_eq (show cred (tallyAt (cell c (.agS 3 0)) () (amt (.agR 3 0))) = cred (tallyAt (cell c (.agS 3 0)) () (amt (.agS 3 0))) from rfl)) $$ HcwS
  iapply (wp_wait_xfer V c (.agS 3 0) (by decide) 30 (agS_sem_eq 3 0 _) (k' := (agM3_0 c : Memref sig .tc .vmem S256x384 .bf16).view.dmaCredit) rfl (wpE_waitDma2_eq 𝒱₀ (c : Thread nD τ) none Set.univ)
      (mayWait_own c (.agS 3 0) (lv_cell c (.agS 3 0)) 30) κwS W) $$ [HcwS HO HatS]
  · isplitr; · iexact HIwS
    isplitl [HcwS]; · iexact HcwS
    isplitl [HO]; · iexact HO
    isplitr; · iexact Hlev
    iexact HatS
  iintro ⟨HO, HatS, HqS⟩
  ihave HpS := (Entails.of_eq (show pay V c (.agS 3 0) 0 = ptsLent (F := F) c (agM3_0 c) from rfl)) $$ HqS
  -- and the neighbour's rows of all-gather step 0 have arrived
  iapply (wp_wait_xfer V c (.agR 3 0) (by decide) 30 (agR_sem_eq 3 0 _) (k' := (agM3_0 c : Memref sig .tc .vmem S256x384 .bf16).view.dmaCredit) rfl (wpE_waitDma2_eq 𝒱₀ (c : Thread nD τ) none Set.univ)
      (mayWait_agR c 3 0 30 (by decide)) κwR _) $$ [HcwR HO HatR]
  · isplitr; · iexact HIwR
    isplitl [HcwR]; · iexact HcwR
    isplitl [HO]; · iexact HO
    isplitr; · iexact Hlev
    iexact HatR
  iintro ⟨HO, HatR, HqR⟩
  ihave HpR := (Entails.of_eq (show pay V c (.agR 3 0) 0 = ptsIs c (agM3_0 (nbr 2 c)) (V.ag3_0 (nbr 2 c)) from rfl)) $$ HqR
  unfold ptsIs ptsLent ptsAny
  icases HpR with ⟨%fa, Hfa, %hfa⟩
  icases HpS with ⟨%g3', Hlent⟩
  icases Hdst with ⟨%fdn, Hdst⟩
  -- the kept right half and the lent left half of the own rows agree, so they make the full share again
  ihave Hag := (persistent_entails_right pointsTo_agree) $$ [Hlent Hown]
  · isplitl [Hlent]; · iexact Hlent
    iexact Hown
  icases Hag with ⟨%hag, Hlent, Hown⟩
  ihave Hlent' := (Entails.of_eq (pointsTo_congr (f := g3') (g := g3) fun i hi => (hag i (Finset.mem_inter.mpr ⟨hi, hi⟩)).1)) $$ Hlent
  ihave Hfull := (pointsTo_share (PosShare.mem_left_op_right fullShare)).2 $$ [Hlent' Hown]
  · isplitl [Hlent']; · iexact Hlent'
    iexact Hown
  -- the own rows and the arrived rows are the rows of the next step
  ihave Hj := (pointsTo_join (ℓ := (Memref.whole cc0_scratch16 : Memref sig .tc .vmem S2048x384 .bf16).view.loc (c : Thread nD τ)) (q := fullShare) (f := g3) (g := fa) (ag_disj0_3 c)) $$ [Hfull Hfa]
  · isplitl [Hfull]; · iexact Hfull
    iexact Hfa
  ihave Hj2 := (Entails.of_eq (pts_set_eq (F := F) (ag_join0_3 c).symm)) $$ Hj
  ihave Hh := (pointsTo_share (PosShare.mem_left_op_right fullShare)).1 $$ Hj2
  icases Hh with ⟨HjL, HjR⟩
  have hp2 : ((agM3_1 c).view.loc (nbr 1 c : Thread nD τ) ↦[(agM3_1 c).view.set]{fullShare}
      ((agM3_1 c).view.write (Elt F) fdn ((agM3_1 c).view.read (Elt F) ((agM3_0 (nbr 2 c)).view.set.piecewise fa g3)) Finset.univ) : sProp 𝕄)
      ⊢ pay V (nbr 1 c) (.agR 3 1) 0 := by
    have e : pay V (nbr 1 c) (.agR 3 1) 0 = ptsIs (nbr 1 c) (agM3_1 c) (V.ag3_1 c) := by
      show ptsIs (nbr 1 c) (agM3_1 (nbr 1 (nbr 1 c))) (V.ag3_1 (nbr 1 (nbr 1 c))) = _
      rw [nbr_nbr]
    rw [e]
    exact ptsIs_intro (nbr 1 c) (agM3_1 c) _ _ (by rw [View.read_write_univ]; exact hVag fa hfa)
  iapply (wp_send_to V c ⟨k0_dev31 c, k0_dev31_lt c⟩ 1 (dev31_eq c) (.agS 3 1) (.agR 3 1) (by decide) (by decide) 30 (by decide) (paid_ag c 3 1) rfl
      (src := agM3_1 c) (dst := agM3_1 c) (agS_sem_eq 3 1 _) (agR_sem_eq 3 1 _) rfl fdn κs κr _
      (ptsLent_intro c (agM3_1 c) _) hp2) $$ [HjL Hdst HO Hts Htr]
  · isplitr; · iexact HIs
    isplitr; · iexact HIr
    isplitl [HjL]; · iexact HjL
    isplitl [Hdst]; · iexact Hdst
    isplitl [HO]; · iexact HO
    isplitl [Hts]; · iexact Hts
    isplitr; · iexact Hrs
    isplitl [Htr]; · iexact Htr
    iexact Hrr
  iintro ⟨Hcs, HO⟩
  ihave HjR := (Entails.of_eq (show ((Memref.whole cc0_scratch16 : Memref sig .tc .vmem S2048x384 .bf16).view.loc (c : Thread nD τ) ↦[(agM3_1 c).view.set]{fullShare.right} ((agM3_0 (nbr 2 c)).view.set.piecewise fa g3) : sProp 𝕄)
      = ((agM3_1 c).view.loc (c : Thread nD τ) ↦[(agM3_1 c).view.set]{fullShare.right} ((agM3_0 (nbr 2 c)).view.set.piecewise fa g3)) from rfl)) $$ HjR
  sl_step
  iexists fa
  isplitr; · ipureintro; rfl
  isplitr; · ipureintro; exact hfa
  isplitl [Hco]; · iexact Hco
  isplitl [HO]; · iexact HO
  isplitl [HatS]; · iexact HatS
  isplitl [HatR]; · iexact HatR
  isplitl [Hcs]; · iexact Hcs
  iexact HjR

end Cert.KernelIdeal.Proto

end
-- ==== Proof.Body45.lean ====
/-
The rows of group 3 that arrived at all-gather step 0, widened, are stored into the accumulator and that finished block copied to
the result array; then the waits of group 4's all-gather step 0: its first transfer is over (the lent half share of its own rows
comes back) and the neighbour's rows have arrived.
-/
import proofs.«900882_g7700000000000883_dist_matmul_gelu_kshard_i_m2048_n2048_k1024_v7x_i8_f32_1_alg».proof.Proof.Rules
import proofs.«900882_g7700000000000883_dist_matmul_gelu_kshard_i_m2048_n2048_k1024_v7x_i8_f32_1_alg».proof.Proof.TopoTab
import proofs.«900882_g7700000000000883_dist_matmul_gelu_kshard_i_m2048_n2048_k1024_v7x_i8_f32_1_alg».proof.Proof.PiecesTab
import proofs.«900882_g7700000000000883_dist_matmul_gelu_kshard_i_m2048_n2048_k1024_v7x_i8_f32_1_alg».proof.Proof.PiecesOutTab
import proofs.«900882_g7700000000000883_dist_matmul_gelu_kshard_i_m2048_n2048_k1024_v7x_i8_f32_1_alg».proof.Proof.Gen.KernelIdeal.Skeleton
import Idealize.ShloMosaic.Lib.Pipeline.Value

set_option maxRecDepth 16384

noncomputable section

namespace Cert.KernelIdeal.Proto

open Cert.KernelIdeal Cert.KernelIdeal.Gen Cert.KernelIdeal.Topo
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : Vals F)

/-- The kept right half share of a piece (folded while the program text is normalised). -/
private def heldR (c : Dev nD) {sp : Space} {s : Shape} {e : EltTy} (M : Memref sig .tc sp s e) (f : Buf (Elt F) (M.view.loc (c : Thread nD τ))) : sProp 𝕄 :=
  M.view.loc (c : Thread nD τ) ↦[M.view.set]{fullShare.right} f

set_option maxRecDepth 65536 in
set_option maxHeartbeats 4000000 in
private theorem part45_aux (c : Dev nD) (κo κwS κwR : ℕ) (W : Waits sig Unit) (v2 v8 v1239 v1240 v1393 : BitVec 32)
    (g31 : Buf (Elt F) ((agM3_1 c).view.loc (c : Thread nD τ)))
    (f9 : Buf (Elt F) ((outSrcM9 c).view.loc (c : Thread nD τ))) (fd : Buf (Elt F) ((outDstM9 c).view.loc (c : Thread nD τ)))
    (hVout : V.out9 c ((outSrcM9 c).view.read (Elt F) (((Memref.whole cc0_scratch0 : Memref sig .tc .vmem S2048x2048 .f32).access (Rect.unit (s := S2048x2048) (k0_off90 c) S256x384.size (k0_off90_inb c))).write (Elt F) f9 (k0_pay91 (View.readAt (Elt F) (Memref.whole cc0_scratch16 : Memref sig .tc .vmem S2048x384 .bf16).view (Rect.unit (s := S2048x384) (k0_off79 c) S256x384.size (k0_off79_inb c)).toLoadRect g31)) Finset.univ))) :
    iprop(cellInv ER (sched V) κo (cell c (.out 9)) ∗ cellInv ER (sched V) κwS (cell c (.agS 4 0)) ∗ cellInv ER (sched V) κwR (cell c (.agR 4 0))
        ∗ reached ER (cell c (.out 9)) 0 ∗ dutyTok ER (cell c (.out 9)) 0 (0 : Fin 3)
        ∗ cred (tallyAt (cell c (.agS 4 0)) () (amt (.agR 4 0))) ∗ atPos ER (cell c (.agS 4 0)) 0 ∅ 0
        ∗ cred (tallyAt (cell c (.agR 4 0)) () (amt (.agR 4 0))) ∗ atPos ER (cell c (.agR 4 0)) 0 ∅ 0
        ∗ owes (c : Thread nD τ) (Owe c 31) W ∗ levAts L lv
        ∗ heldR c (agM3_1 c) g31
        ∗ heldW c (outSrcM9 c) f9 ∗ heldW c (outDstM9 c) fd)
      ⊢ wp frame (wpE (defs₀ (F := F)) 𝒱₀ c none) Set.univ
          (k0_part45 (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23 c v2 v8 v1239 v1240 v1393)
          (fun r => iprop(⌜r = ⟨Scalar.addi v1393 (Scalar.muli (Scalar.subi 1#32 v8) 512#32), Scalar.xori v2 4#32⟩⌝
            ∗ cred (tallyAt (cell c (.out 9)) () (amt (.out 9)))
            ∗ owes (c : Thread nD τ) (Owe c 31) (insert ((CK.agR 4 0).sem, ()) (insert ((CK.agS 4 0).sem, ()) W))
            ∗ atPos ER (cell c (.agS 4 0)) 1 ∅ 0 ∗ atPos ER (cell c (.agR 4 0)) 1 ∅ 0
            ∗ ptsLent (F := F) c (agM4_0 c) ∗ ptsIs c (agM4_0 (nbr 0 c)) (V.ag4_0 (nbr 0 c))
            ∗ heldR c (agM3_1 c) g31)) := by
  simp only [k0_part45_eq_skeleton]; unfold k0_part45_skel
  simp only [Prog.lift, Prog.bind_op, Prog.bind_ret, Prog.pure_eq_ret]
  iintro ⟨#HIo, #HIwS, #HIwR, #Hro, Hto, HcwS, HatS, HcwR, HatR, HO, #Hlev, Hr, H9, Hd⟩
  unfold heldW heldR
  have h79 : ((Memref.whole cc0_scratch16 : Memref sig .tc .vmem S2048x384 .bf16).access (Rect.unit (s := S2048x384) (k0_off79 c) ![256, 384] (k0_off79_inb c))).set ⊆ (agM3_1 c).view.set := by
    refine (le_of_eq (View.set_slice_whole _ _)).trans ?_
    piece_dev c unit_subset [off79_eq, off78_eq]
  have h90 : ((Memref.whole cc0_scratch0 : Memref sig .tc .vmem S2048x2048 .f32).access (Rect.unit (s := S2048x2048) (k0_off90 c) ![256, 384] (k0_off90_inb c))).set ⊆ (outSrcM9 c).view.set :=
    le_of_eq ((View.set_slice_whole _ _).trans ((unit_set_congr ((off90_eq c).trans (off91_eq c).symm) rfl).trans (View.set_slice_whole _ _).symm))
  have h90' : ((Memref.whole cc0_scratch0 : Memref sig .tc .vmem S2048x2048 .f32).access (Rect.unit (s := S2048x2048) (k0_off90 c) ![256, 384] (k0_off90_inb c))).setOn Finset.univ ⊆ (outSrcM9 c).view.set := h90
  sl_exec
  -- the rows that arrived at step 0 of group 3, widened, are a finished block of the accumulator: it goes to the result array
  iapply (wp_copy_own V c (.out 9) (by decide) (src := outSrcM9 c) (dst := outDstM9 c) (out_sem_eq 9 _) rfl fd κo
      (by
        show _ ⊢ iprop(ptsIs c (outDstM9 c) (V.out9 c) ∗ ptsAny (F := F) c (outSrcM9 c))
        exact BIClass.sep_mono (ptsIs_intro c (outDstM9 c) _ _ (by rw [View.read_write_univ]; exact hVout)) (ptsAny_intro c (outSrcM9 c) _))) $$ [H9 Hd Hto]
  · isplitr; · iexact HIo
    isplitl [H9]; · iexact H9
    isplitl [Hd]; · iexact Hd
    isplitl [Hto]; · iexact Hto
    iexact Hro
  iintro Hco
  -- group 4's first all-gather transfer is over: the lent half share of its own rows comes back
  ihave HcwS := (Entails.of_eq (show cred (tallyAt (cell c (.agS 4 0)) () (amt (.agR 4 0))) = cred (tallyAt (cell c (.agS 4 0)) () (amt (.agS 4 0))) from rfl)) $$ HcwS
  iapply (wp_wait_xfer V c (.agS 4 0) (by decide) 31 (agS_sem_eq 4 0 _) (k' := (agM4_0 c : Memref sig .tc .vmem S256x256 .bf16).view.dmaCredit) rfl (wpE_waitDma2_eq 𝒱₀ (c : Thread nD τ) none Set.univ)
      (mayWait_own c (.agS 4 0) (lv_cell c (.agS 4 0)) 31) κwS W) $$ [HcwS HO HatS]
  · isplitr; · iexact HIwS
    isplitl [HcwS]; · iexact HcwS
    isplitl [HO]; · iexact HO
    isplitr; · iexact Hlev
    iexact HatS
  iintro ⟨HO, HatS, HqS⟩
  ihave HpS := (Entails.of_eq (show pay V c (.agS 4 0) 0 = ptsLent (F := F) c (agM4_0 c) from rfl)) $$ HqS
  -- and the neighbour's rows of all-gather step 0 have arrived
  iapply (wp_wait_xfer V c (.agR 4 0) (by decide) 31 (agR_sem_eq 4 0 _) (k' := (agM4_0 c : Memref sig .tc .vmem S256x256 .bf16).view.dmaCredit) rfl (wpE_waitDma2_eq 𝒱₀ (c : Thread nD τ) none Set.univ)
      (mayWait_agR c 4 0 31 (by decide)) κwR _) $$ [HcwR HO HatR]
  · isplitr; · iexact HIwR
    isplitl [HcwR]; · iexact HcwR
    isplitl [HO]; · iexact HO
    isplitr; · iexact Hlev
    iexact HatR
  iintro ⟨HO, HatR, HqR⟩
  ihave HpR := (Entails.of_eq (show pay V c (.agR 4 0) 0 = ptsIs c (agM4_0 (nbr 0 c)) (V.ag4_0 (nbr 0 c)) from rfl)) $$ HqR
  sl_step
  isplitr; · ipureintro; rfl
  isplitl [Hco]; · iexact Hco
  isplitl [HO]; · iexact HO
  isplitl [HatS]; · iexact HatS
  isplitl [HatR]; · iexact HatR
  isplitl [HpS]; · iexact HpS
  isplitl [HpR]; · iexact HpR
  iexact Hr

theorem part45_run (c : Dev nD) (κo κwS κwR : ℕ) (W : Waits sig Unit) (v2 v8 v1239 v1240 v1393 : BitVec 32)
    (g31 : Buf (Elt F) ((agM3_1 c).view.loc (c : Thread nD τ)))
    (f9 : Buf (Elt F) ((outSrcM9 c).view.loc (c : Thread nD τ))) (fd : Buf (Elt F) ((outDstM9 c).view.loc (c : Thread nD τ)))
    (hVout : V.out9 c ((outSrcM9 c).view.read (Elt F) (((Memref.whole cc0_scratch0 : Memref sig .tc .vmem S2048x2048 .f32).access (Rect.unit (s := S2048x2048) (k0_off90 c) S256x384.size (k0_off90_inb c))).write (Elt F) f9 (k0_pay91 (View.readAt (Elt F) (Memref.whole cc0_scratch16 : Memref sig .tc .vmem S2048x384 .bf16).view (Rect.unit (s := S2048x384) (k0_off79 c) S256x384.size (k0_off79_inb c)).toLoadRect g31)) Finset.univ))) :
    iprop(cellInv ER (sched V) κo (cell c (.out 9)) ∗ cellInv ER (sched V) κwS (cell c (.agS 4 0)) ∗ cellInv ER (sched V) κwR (cell c (.agR 4 0))
        ∗ reached ER (cell c (.out 9)) 0 ∗ dutyTok ER (cell c (.out 9)) 0 (0 : Fin 3)
        ∗ cred (tallyAt (cell c (.agS 4 0)) () (amt (.agR 4 0))) ∗ atPos ER (cell c (.agS 4 0)) 0 ∅ 0
        ∗ cred (tallyAt (cell c (.agR 4 0)) () (amt (.agR 4 0))) ∗ atPos ER (cell c (.agR 4 0)) 0 ∅ 0
        ∗ owes (c : Thread nD τ) (Owe c 31) W ∗ levAts L lv
        ∗ ((agM3_1 c).view.loc (c : Thread nD τ) ↦[(agM3_1 c).view.set]{fullShare.right} g31)
        ∗ heldW c (outSrcM9 c) f9 ∗ heldW c (outDstM9 c) fd)
      ⊢ wp frame (wpE (defs₀ (F := F)) 𝒱₀ c none) Set.univ
          (k0_part45 (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23 c v2 v8 v1239 v1240 v1393)
          (fun r => iprop(⌜r = ⟨Scalar.addi v1393 (Scalar.muli (Scalar.subi 1#32 v8) 512#32), Scalar.xori v2 4#32⟩⌝
            ∗ cred (tallyAt (cell c (.out 9)) () (amt (.out 9)))
            ∗ owes (c : Thread nD τ) (Owe c 31) (insert ((CK.agR 4 0).sem, ()) (insert ((CK.agS 4 0).sem, ()) W))
            ∗ atPos ER (cell c (.agS 4 0)) 1 ∅ 0 ∗ atPos ER (cell c (.agR 4 0)) 1 ∅ 0
            ∗ ptsLent (F := F) c (agM4_0 c) ∗ ptsIs c (agM4_0 (nbr 0 c)) (V.ag4_0 (nbr 0 c))
            ∗ ((agM3_1 c).view.loc (c : Thread nD τ) ↦[(agM3_1 c).view.set]{fullShare.right} g31))) := by
  have h := part45_aux V c κo κwS κwR W v2 v8 v1239 v1240 v1393 g31 f9 fd hVout
  unfold heldR at h
  exact h

end Cert.KernelIdeal.Proto

end
-- ==== Proof.Body46.lean ====
/-
Stretch 46 of a device's kernel body: all-gather step 1 of group 4 — the device's own rows (whose lent half share is back)
and the neighbour's rows that arrived at step 0 are the rows of step 1, sent to the neighbour across axis 2 (the left half
share lent again); the arrived rows are widened into block 10 of the accumulator and that block copied to the result
array; then the wait for the end of group 5's first all-gather transfer.
-/
import proofs.«900882_g7700000000000883_dist_matmul_gelu_kshard_i_m2048_n2048_k1024_v7x_i8_f32_1_alg».proof.Proof.Rules
import proofs.«900882_g7700000000000883_dist_matmul_gelu_kshard_i_m2048_n2048_k1024_v7x_i8_f32_1_alg».proof.Proof.TopoTab
import proofs.«900882_g7700000000000883_dist_matmul_gelu_kshard_i_m2048_n2048_k1024_v7x_i8_f32_1_alg».proof.Proof.PiecesTab
import proofs.«900882_g7700000000000883_dist_matmul_gelu_kshard_i_m2048_n2048_k1024_v7x_i8_f32_1_alg».proof.Proof.Gen.KernelIdeal.Skeleton
import proofs.«900882_g7700000000000883_dist_matmul_gelu_kshard_i_m2048_n2048_k1024_v7x_i8_f32_1_alg».proof.Proof.TopoClosed
import proofs.«900882_g7700000000000883_dist_matmul_gelu_kshard_i_m2048_n2048_k1024_v7x_i8_f32_1_alg».proof.Proof.PiecesOutSep
import Idealize.ShloMosaic.Lib.Pipeline.Value

set_option maxRecDepth 16384

noncomputable section

namespace Cert.KernelIdeal.Proto

open Cert.KernelIdeal Cert.KernelIdeal.Gen Cert.KernelIdeal.Topo
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : Vals F)

set_option maxRecDepth 65536 in
set_option maxHeartbeats 4000000 in
theorem part46_run (c : Dev nD) (κs κr κo κw : ℕ) (W : Waits sig Unit) (v9 v1250 v1253 v1254 : BitVec 32)
    (g0 : Buf (Elt F) ((agM4_0 c : Memref sig .tc .vmem S256x256 .bf16).view.loc (c : Thread nD τ)))
    (fa : Buf (Elt F) ((agM4_0 (nbr 0 c) : Memref sig .tc .vmem S256x256 .bf16).view.loc (c : Thread nD τ)))
    (fo : Buf (Elt F) ((outSrcM10 c : Memref sig .tc .vmem S256x256 .f32).view.loc (c : Thread nD τ))) (fd : Buf (Elt F) ((outDstM10 c : Memref sig .tc .hbm S256x256 .f32).view.loc (c : Thread nD τ)))
    (hVag : V.ag4_1 c ((agM4_1 c : Memref sig .tc .vmem S512x256 .bf16).view.read (Elt F) ((agM4_0 (nbr 0 c) : Memref sig .tc .vmem S256x256 .bf16).view.set.piecewise fa g0)))
    (hVout : V.out10 c ((outSrcM10 c : Memref sig .tc .vmem S256x256 .f32).view.read (Elt F) (View.write (Elt F) ((Memref.whole cc0_scratch0 : Memref sig .tc .vmem S2048x2048 .f32).access (Rect.unit (s := S2048x2048) (k0_off94 c) ![256, 256] (k0_off94_inb c))) fo (k0_pay92 (View.readAt (Elt F) (Memref.whole cc0_scratch17 : Memref sig .tc .vmem S2048x256 .bf16).view (Rect.unit (s := S2048x256) (k0_off93 c) ![256, 256] (k0_off93_inb c)).toLoadRect ((agM4_0 (nbr 0 c)).view.set.piecewise fa g0))) Finset.univ))) :
    iprop(cellInv ER (sched V) κs (cell c (.agS 4 1)) ∗ cellInv ER (sched V) κr (cell (nbr 2 c) (.agR 4 1))
        ∗ cellInv ER (sched V) κo (cell c (.out 10)) ∗ cellInv ER (sched V) κw (cell c (.agS 5 0))
        ∗ reached ER (cell c (.agS 4 1)) 0 ∗ reached ER (cell (nbr 2 c) (.agR 4 1)) 0 ∗ reached ER (cell c (.out 10)) 0
        ∗ dutyTok ER (cell c (.agS 4 1)) 0 (0 : Fin 3) ∗ dutyTok ER (cell (nbr 2 c) (.agR 4 1)) 0 (0 : Fin 3) ∗ dutyTok ER (cell c (.out 10)) 0 (0 : Fin 3)
        ∗ cred (tallyAt (cell c (.agS 5 0)) () (amt (.agR 5 0))) ∗ atPos ER (cell c (.agS 5 0)) 0 ∅ 0
        ∗ owes (c : Thread nD τ) (Owe c 31) W ∗ levAts L lv
        ∗ ptsAny (F := F) (nbr 2 c) (agM4_1 c)
        ∗ ptsLent (F := F) c (agM4_0 c) ∗ ((agM4_0 c : Memref sig .tc .vmem S256x256 .bf16).view.loc (c : Thread nD τ) ↦[(agM4_0 c : Memref sig .tc .vmem S256x256 .bf16).view.set]{fullShare.right} g0)
        ∗ heldW c (agM4_0 (nbr 0 c) : Memref sig .tc .vmem S256x256 .bf16) fa
        ∗ heldW c (outSrcM10 c : Memref sig .tc .vmem S256x256 .f32) fo ∗ heldW c (outDstM10 c : Memref sig .tc .hbm S256x256 .f32) fd)
      ⊢ wp frame (wpE (defs₀ (F := F)) 𝒱₀ c none) Set.univ
          (k0_part46 (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23 c v9 v1250 v1253 v1254)
          (fun r => iprop(⌜r = ⟨Scalar.subi v1250 (Scalar.muli v9 512#32), Scalar.addi (Scalar.subi v1250 (Scalar.muli v9 512#32)) (Scalar.muli (Scalar.subi (1#32) v9) 512#32)⟩⌝
            ∗ owes (c : Thread nD τ) (Owe c 32) (insert ((CK.agS 5 0).sem, ()) W)
            ∗ atPos ER (cell c (.agS 5 0)) 1 ∅ 0
            ∗ cred (tallyAt (cell c (.agS 4 1)) () (amt (.agR 4 1))) ∗ cred (tallyAt (cell c (.out 10)) () (amt (.out 10)))
            ∗ ((agM4_1 c : Memref sig .tc .vmem S512x256 .bf16).view.loc (c : Thread nD τ) ↦[(agM4_1 c : Memref sig .tc .vmem S512x256 .bf16).view.set]{fullShare.right} ((agM4_0 (nbr 0 c) : Memref sig .tc .vmem S256x256 .bf16).view.set.piecewise fa g0))
            ∗ ptsLent (F := F) c (agM5_0 c))) := by
  simp only [k0_part46_eq_skeleton]; unfold k0_part46_skel
  simp only [Prog.lift, Prog.bind_op, Prog.bind_ret, Prog.pure_eq_ret]
  iintro ⟨#HIs, #HIr, #HIo10, #HIw, #Hrs, #Hrr, #Hro10, Hts, Htr, Hto10, Hcw, Hatw, HO, #Hlev, Hdst, Hlent, Hown, Hfa, Hblk, Hd⟩
  unfold heldW
  unfold ptsLent ptsAny
  icases Hlent with ⟨%g0', Hlent⟩
  icases Hdst with ⟨%fdn, Hdst⟩
  -- the kept right half and the lent left half of the own rows agree, so they make the full share again
  ihave Hag := (persistent_entails_right pointsTo_agree) $$ [Hlent Hown]
  · isplitl [Hlent]; · iexact Hlent
    iexact Hown
  icases Hag with ⟨%hag, Hlent, Hown⟩
  ihave Hlent' := (Entails.of_eq (pointsTo_congr (f := g0') (g := g0) fun i hi => (hag i (Finset.mem_inter.mpr ⟨hi, hi⟩)).1)) $$ Hlent
  ihave Hfull := (pointsTo_share (PosShare.mem_left_op_right fullShare)).2 $$ [Hlent' Hown]
  · isplitl [Hlent']; · iexact Hlent'
    iexact Hown
  -- the own rows and the arrived rows are the rows of the next step
  ihave Hj := (pointsTo_join (ℓ := (Memref.whole cc0_scratch17 : Memref sig .tc .vmem S2048x256 .bf16).view.loc (c : Thread nD τ)) (q := fullShare) (f := g0) (g := fa) (ag_disj0_4 c)) $$ [Hfull Hfa]
  · isplitl [Hfull]; · iexact Hfull
    iexact Hfa
  ihave Hj2 := (Entails.of_eq (pts_set_eq (F := F) (ag_join0_4 c).symm)) $$ Hj
  ihave Hh := (pointsTo_share (PosShare.mem_left_op_right fullShare)).1 $$ Hj2
  icases Hh with ⟨HjL, HjR⟩
  have hp2 : ((agM4_1 c : Memref sig .tc .vmem S512x256 .bf16).view.loc (nbr 2 c : Thread nD τ) ↦[(agM4_1 c : Memref sig .tc .vmem S512x256 .bf16).view.set]{fullShare}
      ((agM4_1 c : Memref sig .tc .vmem S512x256 .bf16).view.write (Elt F) fdn ((agM4_1 c : Memref sig .tc .vmem S512x256 .bf16).view.read (Elt F) ((agM4_0 (nbr 0 c) : Memref sig .tc .vmem S256x256 .bf16).view.set.piecewise fa g0)) Finset.univ) : sProp 𝕄)
      ⊢ pay V (nbr 2 c) (.agR 4 1) 0 := by
    have e : pay V (nbr 2 c) (.agR 4 1) 0 = ptsIs (nbr 2 c) (agM4_1 c) (V.ag4_1 c) := by
      show ptsIs (nbr 2 c) (agM4_1 (nbr 2 (nbr 2 c))) (V.ag4_1 (nbr 2 (nbr 2 c))) = _
      rw [nbr_nbr]
    rw [e]
    exact ptsIs_intro (nbr 2 c) (agM4_1 c) _ _ (by rw [View.read_write_univ]; exact hVag)
  iapply (wp_send_to V c ⟨k0_dev32 c, k0_dev32_lt c⟩ 2 (dev32_eq c) (.agS 4 1) (.agR 4 1) (by decide) (by decide) 31 (by decide) (paid_ag c 4 1) rfl
      (src := agM4_1 c) (dst := agM4_1 c) (agS_sem_eq 4 1 _) (agR_sem_eq 4 1 _) rfl fdn κs κr _
      (ptsLent_intro c (agM4_1 c) _) hp2) $$ [HjL Hdst HO Hts Htr]
  · isplitr; · iexact HIs
    isplitr; · iexact HIr
    isplitl [HjL]; · iexact HjL
    isplitl [Hdst]; · iexact Hdst
    isplitl [HO]; · iexact HO
    isplitl [Hts]; · iexact Hts
    isplitr; · iexact Hrs
    isplitl [Htr]; · iexact Htr
    iexact Hrr
  iintro ⟨Hcs, HO⟩
  have hinc1 : ((Memref.whole cc0_scratch17 : Memref sig .tc .vmem S2048x256 .bf16).access (Rect.unit (s := S2048x256) (k0_off93 c) ![256, 256] (k0_off93_inb c))).set
      ⊆ (agM4_1 c : Memref sig .tc .vmem S512x256 .bf16).view.set := by
    rw [View.set_slice_whole, View.set_slice_whole]
    refine unit_subset ?_
    piece_arith c [off93_eq, off92_eq]
  ihave HjR := (Entails.of_eq (show ((Memref.whole cc0_scratch17 : Memref sig .tc .vmem S2048x256 .bf16).view.loc (c : Thread nD τ) ↦[(agM4_1 c : Memref sig .tc .vmem S512x256 .bf16).view.set]{fullShare.right} ((agM4_0 (nbr 0 c) : Memref sig .tc .vmem S256x256 .bf16).view.set.piecewise fa g0) : sProp 𝕄)
      = ((agM4_1 c : Memref sig .tc .vmem S512x256 .bf16).view.loc (c : Thread nD τ) ↦[(agM4_1 c : Memref sig .tc .vmem S512x256 .bf16).view.set]{fullShare.right} ((agM4_0 (nbr 0 c) : Memref sig .tc .vmem S256x256 .bf16).view.set.piecewise fa g0)) from rfl)) $$ HjR
  have hinc2 : ((Memref.whole cc0_scratch0 : Memref sig .tc .vmem S2048x2048 .f32).access (Rect.unit (s := S2048x2048) (k0_off94 c) ![256, 256] (k0_off94_inb c))).set
      ⊆ (outSrcM10 c : Memref sig .tc .vmem S256x256 .f32).view.set := by
    rw [View.set_slice_whole, View.set_slice_whole]
    refine unit_subset ?_
    piece_arith c [off94_eq, off95_eq]
  have hinc3 : ((Memref.whole cc0_scratch0 : Memref sig .tc .vmem S2048x2048 .f32).access (Rect.unit (s := S2048x2048) (k0_off94 c) ![256, 256] (k0_off94_inb c))).setOn Finset.univ
      ⊆ (outSrcM10 c : Memref sig .tc .vmem S256x256 .f32).view.set := by
    rw [View.setOn_univ]
    rw [View.set_slice_whole, View.set_slice_whole]
    refine unit_subset ?_
    piece_arith c [off94_eq, off95_eq]
  sl_exec
  have hpay10 : iprop(((outDstM10 c : Memref sig .tc .hbm S256x256 .f32).view.loc (c : Thread nD τ) ↦[(outDstM10 c : Memref sig .tc .hbm S256x256 .f32).view.set]{fullShare}
        ((outDstM10 c : Memref sig .tc .hbm S256x256 .f32).view.write (Elt F) fd ((outSrcM10 c : Memref sig .tc .vmem S256x256 .f32).view.read (Elt F) (View.write (Elt F) ((Memref.whole cc0_scratch0 : Memref sig .tc .vmem S2048x2048 .f32).access (Rect.unit (s := S2048x2048) (k0_off94 c) ![256, 256] (k0_off94_inb c))) fo (k0_pay92 (View.readAt (Elt F) (Memref.whole cc0_scratch17 : Memref sig .tc .vmem S2048x256 .bf16).view (Rect.unit (s := S2048x256) (k0_off93 c) ![256, 256] (k0_off93_inb c)).toLoadRect ((agM4_0 (nbr 0 c)).view.set.piecewise fa g0))) Finset.univ)) Finset.univ))
      ∗ ((outSrcM10 c : Memref sig .tc .vmem S256x256 .f32).view.loc (c : Thread nD τ) ↦[(outSrcM10 c : Memref sig .tc .vmem S256x256 .f32).view.set]{fullShare} (View.write (Elt F) ((Memref.whole cc0_scratch0 : Memref sig .tc .vmem S2048x2048 .f32).access (Rect.unit (s := S2048x2048) (k0_off94 c) ![256, 256] (k0_off94_inb c))) fo (k0_pay92 (View.readAt (Elt F) (Memref.whole cc0_scratch17 : Memref sig .tc .vmem S2048x256 .bf16).view (Rect.unit (s := S2048x256) (k0_off93 c) ![256, 256] (k0_off93_inb c)).toLoadRect ((agM4_0 (nbr 0 c)).view.set.piecewise fa g0))) Finset.univ))) ⊢ pay V c (.out 10) 0 := by
    show _ ⊢ iprop(ptsIs c (outDstM10 c) (V.out10 c) ∗ ptsAny (F := F) c (outSrcM10 c))
    iintro ⟨Hd, Hs⟩
    isplitl [Hd]
    · unfold ptsIs
      iexists _
      isplitl [Hd]; · iexact Hd
      ipureintro; rw [View.read_write_univ]; exact hVout
    · unfold ptsAny
      iexists _
      iexact Hs
  iapply (wp_copy_own V c (.out 10) (by decide) (src := outSrcM10 c) (dst := outDstM10 c) (out_sem_eq 10 _) rfl fd κo hpay10) $$ [Hblk Hd Hto10]
  · isplitr; · iexact HIo10
    isplitl [Hblk]; · iexact Hblk
    isplitl [Hd]; · iexact Hd
    isplitl [Hto10]; · iexact Hto10
    iexact Hro10
  iintro Hco10
  -- group 5's first all-gather transfer is over: the lent half share of its own rows comes back
  ihave Hcw := (Entails.of_eq (show cred (tallyAt (cell c (.agS 5 0)) () (amt (.agR 5 0))) = cred (tallyAt (cell c (.agS 5 0)) () (amt (.agS 5 0))) from rfl)) $$ Hcw
  iapply (wp_wait_xfer V c (.agS 5 0) (by decide) 32 (agS_sem_eq 5 0 _)
      (show (agM5_0 c : Memref sig .tc .vmem S256x256 .bf16).view.dmaCredit = amt (.agS 5 0) from rfl)
      (wpE_waitDma2_eq 𝒱₀ (c : Thread nD τ) none Set.univ)
      (mayWait_own c (.agS 5 0) (lv_cell c _) 32) κw W) $$ [Hcw HO Hatw]
  · isplitr; · iexact HIw
    isplitl [Hcw]; · iexact Hcw
    isplitl [HO]; · iexact HO
    isplitr; · iexact Hlev
    iexact Hatw
  iintro ⟨HO, Hatw, Hpay1⟩
  ihave Hp1 := (Entails.of_eq (show pay V c (CK.agS 5 0) 0 = ptsLent (F := F) c (agM5_0 c) from rfl)) $$ Hpay1
  sl_step
  isplitr; · ipureintro; rfl
  isplitl [HO]; · iexact HO
  isplitl [Hatw]; · iexact Hatw
  isplitl [Hcs]; · iexact Hcs
  isplitl [Hco10]; · iexact Hco10
  isplitl [HjR]; · iexact HjR
  unfold ptsLent
  iexact Hp1

end Cert.KernelIdeal.Proto

end
-- ==== Proof.Body47.lean ====
/-
All-gather step 1 of group 5: the neighbour's rows of step 0 have arrived; with the device's own rows (whose lent half share is
back) they are the rows of step 1, sent to the neighbour across axis 0 (the left half share lent again). The arrived rows are
widened into the accumulator and that finished block copied to the result array; then the wait for the end of group 0's second
transfer.
-/
import proofs.«900882_g7700000000000883_dist_matmul_gelu_kshard_i_m2048_n2048_k1024_v7x_i8_f32_1_alg».proof.Proof.Rules
import proofs.«900882_g7700000000000883_dist_matmul_gelu_kshard_i_m2048_n2048_k1024_v7x_i8_f32_1_alg».proof.Proof.TopoTab
import proofs.«900882_g7700000000000883_dist_matmul_gelu_kshard_i_m2048_n2048_k1024_v7x_i8_f32_1_alg».proof.Proof.PiecesTab
import proofs.«900882_g7700000000000883_dist_matmul_gelu_kshard_i_m2048_n2048_k1024_v7x_i8_f32_1_alg».proof.Proof.PiecesOutTab
import proofs.«900882_g7700000000000883_dist_matmul_gelu_kshard_i_m2048_n2048_k1024_v7x_i8_f32_1_alg».proof.Proof.Gen.KernelIdeal.Skeleton
import Idealize.ShloMosaic.Lib.Pipeline.Value

set_option maxRecDepth 16384

noncomputable section

namespace Cert.KernelIdeal.Proto

open Cert.KernelIdeal Cert.KernelIdeal.Gen Cert.KernelIdeal.Topo
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : Vals F)

set_option maxRecDepth 65536 in
set_option maxHeartbeats 4000000 in
theorem part47_run (c : Dev nD) (κwR κs κr κo κw1 : ℕ) (W : Waits sig Unit) (v2 v6 v1264 v1267 : BitVec 32)
    (g0 : Buf (Elt F) ((agM5_0 c).view.loc (c : Thread nD τ)))
    (fo : Buf (Elt F) ((outSrcM11 c).view.loc (c : Thread nD τ))) (fd : Buf (Elt F) ((outDstM11 c).view.loc (c : Thread nD τ)))
    (hVag : ∀ fa : Buf (Elt F) ((agM5_0 (nbr 1 c)).view.loc (c : Thread nD τ)), V.ag5_0 (nbr 1 c) ((agM5_0 (nbr 1 c)).view.read (Elt F) fa) →
      V.ag5_1 c ((agM5_1 c).view.read (Elt F) ((agM5_0 (nbr 1 c)).view.set.piecewise fa g0)))
    (hVout : ∀ fa : Buf (Elt F) ((agM5_0 (nbr 1 c)).view.loc (c : Thread nD τ)), V.ag5_0 (nbr 1 c) ((agM5_0 (nbr 1 c)).view.read (Elt F) fa) →
      V.out11 c ((outSrcM11 c).view.read (Elt F) (((Memref.whole cc0_scratch0 : Memref sig .tc .vmem S2048x2048 .f32).access (Rect.unit (s := S2048x2048) (k0_off98 c) S256x256.size (k0_off98_inb c))).write (Elt F) fo (k0_pay93 (View.readAt (Elt F) (Memref.whole cc0_scratch18 : Memref sig .tc .vmem S2048x256 .bf16).view (Rect.unit (s := S2048x256) (k0_off97 c) S256x256.size (k0_off97_inb c)).toLoadRect ((agM5_0 (nbr 1 c)).view.set.piecewise fa g0))) Finset.univ))) :
    iprop(cellInv ER (sched V) κwR (cell c (.agR 5 0)) ∗ cellInv ER (sched V) κs (cell c (.agS 5 1)) ∗ cellInv ER (sched V) κr (cell (nbr 0 c) (.agR 5 1))
        ∗ cellInv ER (sched V) κo (cell c (.out 11)) ∗ cellInv ER (sched V) κw1 (cell c (.agS 0 1))
        ∗ reached ER (cell c (.agS 5 1)) 0 ∗ reached ER (cell (nbr 0 c) (.agR 5 1)) 0 ∗ reached ER (cell c (.out 11)) 0
        ∗ dutyTok ER (cell c (.agS 5 1)) 0 (0 : Fin 3) ∗ dutyTok ER (cell (nbr 0 c) (.agR 5 1)) 0 (0 : Fin 3) ∗ dutyTok ER (cell c (.out 11)) 0 (0 : Fin 3)
        ∗ cred (tallyAt (cell c (.agR 5 0)) () (amt (.agR 5 0))) ∗ atPos ER (cell c (.agR 5 0)) 0 ∅ 0
        ∗ cred (tallyAt (cell c (.agS 0 1)) () (amt (.agR 0 1))) ∗ atPos ER (cell c (.agS 0 1)) 0 ∅ 0
        ∗ owes (c : Thread nD τ) (Owe c 32) W ∗ levAts L lv
        ∗ ptsAny (F := F) (nbr 0 c) (agM5_1 c)
        ∗ ptsLent (F := F) c (agM5_0 c) ∗ ((agM5_0 c).view.loc (c : Thread nD τ) ↦[(agM5_0 c).view.set]{fullShare.right} g0)
        ∗ heldW c (outSrcM11 c) fo ∗ heldW c (outDstM11 c) fd)
      ⊢ wp frame (wpE (defs₀ (F := F)) 𝒱₀ c none) Set.univ
          (k0_part47 (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23 c v2 v6 v1264 v1267)
          (fun r => iprop(∃ fa : Buf (Elt F) ((agM5_0 (nbr 1 c)).view.loc (c : Thread nD τ)),
            ⌜r = ⟨Scalar.xori v2 1#32, Scalar.subi v1264 (Scalar.muli v6 512#32), Scalar.addi (Scalar.subi v1264 (Scalar.muli v6 512#32)) (Scalar.muli (Scalar.subi 1#32 v6) 512#32)⟩⌝
            ∗ ⌜V.ag5_0 (nbr 1 c) ((agM5_0 (nbr 1 c)).view.read (Elt F) fa)⌝
            ∗ owes (c : Thread nD τ) (Owe c 33) (insert ((CK.agS 0 1).sem, ()) (insert ((CK.agR 5 0).sem, ()) W))
            ∗ atPos ER (cell c (.agR 5 0)) 1 ∅ 0 ∗ atPos ER (cell c (.agS 0 1)) 1 ∅ 0
            ∗ cred (tallyAt (cell c (.agS 5 1)) () (amt (.agR 5 1))) ∗ cred (tallyAt (cell c (.out 11)) () (amt (.out 11)))
            ∗ ((agM5_1 c).view.loc (c : Thread nD τ) ↦[(agM5_1 c).view.set]{fullShare.right} ((agM5_0 (nbr 1 c)).view.set.piecewise fa g0))
            ∗ ptsLent (F := F) c (agM0_1 c))) := by
  simp only [k0_part47_eq_skeleton]; unfold k0_part47_skel
  simp only [Prog.lift, Prog.bind_op, Prog.bind_ret, Prog.pure_eq_ret]
  iintro ⟨#HIwR, #HIs, #HIr, #HIo, #HIw1, #Hrs, #Hrr, #Hro, Hts, Htr, Hto, HcwR, HatR, Hcw1, Hat1, HO, #Hlev, Hdst, Hlent, Hown, H6, Hd⟩
  unfold heldW
  -- the neighbour's rows of all-gather step 0 have arrived
  iapply (wp_wait_xfer V c (.agR 5 0) (by decide) 32 (agR_sem_eq 5 0 _) (k' := (agM5_0 c : Memref sig .tc .vmem S256x256 .bf16).view.dmaCredit) rfl (wpE_waitDma2_eq 𝒱₀ (c : Thread nD τ) none Set.univ)
      (mayWait_agR c 5 0 32 (by decide)) κwR W) $$ [HcwR HO HatR]
  · isplitr; · iexact HIwR
    isplitl [HcwR]; · iexact HcwR
    isplitl [HO]; · iexact HO
    isplitr; · iexact Hlev
    iexact HatR
  iintro ⟨HO, HatR, HqR⟩
  ihave HpR := (Entails.of_eq (show pay V c (.agR 5 0) 0 = ptsIs c (agM5_0 (nbr 1 c)) (V.ag5_0 (nbr 1 c)) from rfl)) $$ HqR
  unfold ptsIs ptsLent ptsAny
  icases HpR with ⟨%fa, Hfa, %hfa⟩
  icases Hlent with ⟨%g0', Hlent⟩
  icases Hdst with ⟨%fdn, Hdst⟩
  -- the kept right half and the lent left half of the own rows agree, so they make the full share again
  ihave Hag := (persistent_entails_right pointsTo_agree) $$ [Hlent Hown]
  · isplitl [Hlent]; · iexact Hlent
    iexact Hown
  icases Hag with ⟨%hag, Hlent, Hown⟩
  ihave Hlent' := (Entails.of_eq (pointsTo_congr (f := g0') (g := g0) fun i hi => (hag i (Finset.mem_inter.mpr ⟨hi, hi⟩)).1)) $$ Hlent
  ihave Hfull := (pointsTo_share (PosShare.mem_left_op_right fullShare)).2 $$ [Hlent' Hown]
  · isplitl [Hlent']; · iexact Hlent'
    iexact Hown
  -- the own rows and the arrived rows are the rows of the next step
  ihave Hj := (pointsTo_join (ℓ := (Memref.whole cc0_scratch18 : Memref sig .tc .vmem S2048x256 .bf16).view.loc (c : Thread nD τ)) (q := fullShare) (f := g0) (g := fa) (ag_disj0_5 c)) $$ [Hfull Hfa]
  · isplitl [Hfull]; · iexact Hfull
    iexact Hfa
  ihave Hj2 := (Entails.of_eq (pts_set_eq (F := F) (ag_join0_5 c).symm)) $$ Hj
  ihave Hh := (pointsTo_share (PosShare.mem_left_op_right fullShare)).1 $$ Hj2
  icases Hh with ⟨HjL, HjR⟩
  have hp2 : ((agM5_1 c).view.loc (nbr 0 c : Thread nD τ) ↦[(agM5_1 c).view.set]{fullShare}
      ((agM5_1 c).view.write (Elt F) fdn ((agM5_1 c).view.read (Elt F) ((agM5_0 (nbr 1 c)).view.set.piecewise fa g0)) Finset.univ) : sProp 𝕄)
      ⊢ pay V (nbr 0 c) (.agR 5 1) 0 := by
    have e : pay V (nbr 0 c) (.agR 5 1) 0 = ptsIs (nbr 0 c) (agM5_1 c) (V.ag5_1 c) := by
      show ptsIs (nbr 0 c) (agM5_1 (nbr 0 (nbr 0 c))) (V.ag5_1 (nbr 0 (nbr 0 c))) = _
      rw [nbr_nbr]
    rw [e]
    exact ptsIs_intro (nbr 0 c) (agM5_1 c) _ _ (by rw [View.read_write_univ]; exact hVag fa hfa)
  iapply (wp_send_to V c ⟨k0_dev33 c, k0_dev33_lt c⟩ 0 (dev33_eq c) (.agS 5 1) (.agR 5 1) (by decide) (by decide) 32 (by decide) (paid_ag c 5 1) rfl
      (src := agM5_1 c) (dst := agM5_1 c) (agS_sem_eq 5 1 _) (agR_sem_eq 5 1 _) rfl fdn κs κr _
      (ptsLent_intro c (agM5_1 c) _) hp2) $$ [HjL Hdst HO Hts Htr]
  · isplitr; · iexact HIs
    isplitr; · iexact HIr
    isplitl [HjL]; · iexact HjL
    isplitl [Hdst]; · iexact Hdst
    isplitl [HO]; · iexact HO
    isplitl [Hts]; · iexact Hts
    isplitr; · iexact Hrs
    isplitl [Htr]; · iexact Htr
    iexact Hrr
  iintro ⟨Hcs, HO⟩
  have h79 : ((Memref.whole cc0_scratch18 : Memref sig .tc .vmem S2048x256 .bf16).access (Rect.unit (s := S2048x256) (k0_off97 c) ![256, 256] (k0_off97_inb c))).set ⊆ (agM5_1 c).view.set := by
    refine (le_of_eq (View.set_slice_whole _ _)).trans ?_
    piece_dev c unit_subset [off97_eq, off96_eq]
  ihave HjR := (Entails.of_eq (show ((Memref.whole cc0_scratch18 : Memref sig .tc .vmem S2048x256 .bf16).view.loc (c : Thread nD τ) ↦[(agM5_1 c).view.set]{fullShare.right} ((agM5_0 (nbr 1 c)).view.set.piecewise fa g0) : sProp 𝕄)
      = ((agM5_1 c).view.loc (c : Thread nD τ) ↦[(agM5_1 c).view.set]{fullShare.right} ((agM5_0 (nbr 1 c)).view.set.piecewise fa g0)) from rfl)) $$ HjR
  have h80 : ((Memref.whole cc0_scratch0 : Memref sig .tc .vmem S2048x2048 .f32).access (Rect.unit (s := S2048x2048) (k0_off98 c) ![256, 256] (k0_off98_inb c))).set ⊆ (outSrcM11 c).view.set :=
    le_of_eq ((View.set_slice_whole _ _).trans ((unit_set_congr ((off98_eq c).trans (off99_eq c).symm) rfl).trans (View.set_slice_whole _ _).symm))
  have h80' : ((Memref.whole cc0_scratch0 : Memref sig .tc .vmem S2048x2048 .f32).access (Rect.unit (s := S2048x2048) (k0_off98 c) ![256, 256] (k0_off98_inb c))).setOn Finset.univ ⊆ (outSrcM11 c).view.set := h80
  sl_exec
  -- the rows that arrived, widened, are a finished block of the accumulator: it goes to the result array
  iapply (wp_copy_own V c (.out 11) (by decide) (src := outSrcM11 c) (dst := outDstM11 c) (out_sem_eq 11 _) rfl fd κo
      (by
        show _ ⊢ iprop(ptsIs c (outDstM11 c) (V.out11 c) ∗ ptsAny (F := F) c (outSrcM11 c))
        exact BIClass.sep_mono (ptsIs_intro c (outDstM11 c) _ _ (by rw [View.read_write_univ]; exact hVout fa hfa)) (ptsAny_intro c (outSrcM11 c) _))) $$ [H6 Hd Hto]
  · isplitr; · iexact HIo
    isplitl [H6]; · iexact H6
    isplitl [Hd]; · iexact Hd
    isplitl [Hto]; · iexact Hto
    iexact Hro
  iintro Hco
  -- group 1's first all-gather transfer is over: the lent half share of its own rows comes back
  ihave Hcw1 := (Entails.of_eq (show cred (tallyAt (cell c (.agS 0 1)) () (amt (.agR 0 1))) = cred (tallyAt (cell c (.agS 0 1)) () (amt (.agS 0 1))) from rfl)) $$ Hcw1
  iapply (wp_wait_xfer V c (.agS 0 1) (by decide) 33 (agS_sem_eq 0 1 _) (k' := (agM0_1 c : Memref sig .tc .vmem S512x384 .bf16).view.dmaCredit) rfl (wpE_waitDma2_eq 𝒱₀ (c : Thread nD τ) none Set.univ)
      (mayWait_own c (.agS 0 1) (lv_cell c (.agS 0 1)) 33) κw1 _) $$ [Hcw1 HO Hat1]
  · isplitr; · iexact HIw1
    isplitl [Hcw1]; · iexact Hcw1
    isplitl [HO]; · iexact HO
    isplitr; · iexact Hlev
    iexact Hat1
  iintro ⟨HO, Hat1, Hq1⟩
  ihave Hp1 := (Entails.of_eq (show pay V c (.agS 0 1) 0 = ptsLent (F := F) c (agM0_1 c) from rfl)) $$ Hq1
  sl_step
  iexists fa
  isplitr; · ipureintro; rfl
  isplitr; · ipureintro; exact hfa
  isplitl [HO]; · iexact HO
  isplitl [HatR]; · iexact HatR
  isplitl [Hat1]; · iexact Hat1
  isplitl [Hcs]; · iexact Hcs
  isplitl [Hco]; · iexact Hco
  isplitl [HjR]; · iexact HjR
  unfold ptsLent
  iexact Hp1

end Cert.KernelIdeal.Proto

end
-- ==== Proof.Body48.lean ====
/-
A stretch of a device's kernel body, in the all-gather phase. Column group 0's second round: the 512 rows that
arrived from the neighbour across axis 1 join the device's own 512 rows into the 1024 rows it sends across axis 0.
The transfer borrows the left half share of those rows; the device keeps the right half, reads the arrived rows
again, widens them to f32 into their block of the accumulator and copies that block to the result array.
-/
import proofs.«900882_g7700000000000883_dist_matmul_gelu_kshard_i_m2048_n2048_k1024_v7x_i8_f32_1_alg».proof.Proof.Rules
import proofs.«900882_g7700000000000883_dist_matmul_gelu_kshard_i_m2048_n2048_k1024_v7x_i8_f32_1_alg».proof.Proof.TopoTab
import proofs.«900882_g7700000000000883_dist_matmul_gelu_kshard_i_m2048_n2048_k1024_v7x_i8_f32_1_alg».proof.Proof.PiecesTab
import proofs.«900882_g7700000000000883_dist_matmul_gelu_kshard_i_m2048_n2048_k1024_v7x_i8_f32_1_alg».proof.Proof.PiecesOutSep
import proofs.«900882_g7700000000000883_dist_matmul_gelu_kshard_i_m2048_n2048_k1024_v7x_i8_f32_1_alg».proof.Proof.PiecesOutTab
import proofs.«900882_g7700000000000883_dist_matmul_gelu_kshard_i_m2048_n2048_k1024_v7x_i8_f32_1_alg».proof.Proof.Gen.KernelIdeal.Skeleton
import Idealize.ShloMosaic.Lib.Pipeline.Value

set_option maxRecDepth 16384

noncomputable section

namespace Cert.KernelIdeal.Proto

open Cert.KernelIdeal Cert.KernelIdeal.Gen Cert.KernelIdeal.Topo
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : Vals F)

set_option maxHeartbeats 4000000 in
theorem part48_run (c : Dev nD) (κr1 κs κr κo : ℕ) (W : Waits sig Unit) (v2 v6 v1278 v1288 v1291 : BitVec 32)
    (g1 : Buf (Elt F) ((Memref.whole cc0_scratch13 : Memref sig .tc .vmem S2048x384 .bf16).view.loc (c : Thread nD τ)))
    (f12 : Buf (Elt F) ((outSrcM12 c).view.loc (c : Thread nD τ))) (fd : Buf (Elt F) ((outDstM12 c).view.loc (c : Thread nD τ)))
    (hVag : ∀ f2 : Buf (Elt F) ((Memref.whole cc0_scratch13 : Memref sig .tc .vmem S2048x384 .bf16).view.loc (c : Thread nD τ)), V.ag0_1 (nbr 1 c) ((agM0_1 (nbr 1 c)).view.read (Elt F) f2) →
      V.ag0_2 c ((agM0_2 c).view.read (Elt F) (((agM0_1 (nbr 1 c)).view.set : Finset (Idx ((Memref.whole cc0_scratch13 : Memref sig .tc .vmem S2048x384 .bf16).view.loc (c : Thread nD τ)))).piecewise f2 g1)))
    (hVout : ∀ f2 : Buf (Elt F) ((Memref.whole cc0_scratch13 : Memref sig .tc .vmem S2048x384 .bf16).view.loc (c : Thread nD τ)), V.ag0_1 (nbr 1 c) ((agM0_1 (nbr 1 c)).view.read (Elt F) f2) →
      V.out12 c ((outSrcM12 c).view.read (Elt F)
        (((Memref.whole cc0_scratch0 : Memref sig .tc .vmem S2048x2048 .f32).access (Rect.unit (s := S2048x2048) (k0_off102 c) S512x384.size (k0_off102_inb c))).write (Elt F) f12
          (k0_pay94 (View.readAt (Elt F) (Memref.whole cc0_scratch13 : Memref sig .tc .vmem S2048x384 .bf16).view (Rect.unit (s := S2048x384) (k0_off101 c) S512x384.size (k0_off101_inb c)).toLoadRect (((agM0_1 (nbr 1 c)).view.set : Finset (Idx ((Memref.whole cc0_scratch13 : Memref sig .tc .vmem S2048x384 .bf16).view.loc (c : Thread nD τ)))).piecewise f2 g1))) Finset.univ))) :
    iprop(cellInv ER (sched V) κr1 (cell c (.agR 0 1)) ∗ cellInv ER (sched V) κs (cell c (.agS 0 2)) ∗ cellInv ER (sched V) κr (cell (nbr 0 c) (.agR 0 2))
        ∗ cellInv ER (sched V) κo (cell c (.out 12))
        ∗ reached ER (cell c (.agS 0 2)) 0 ∗ reached ER (cell (nbr 0 c) (.agR 0 2)) 0 ∗ reached ER (cell c (.out 12)) 0
        ∗ dutyTok ER (cell c (.agS 0 2)) 0 (0 : Fin 3) ∗ dutyTok ER (cell (nbr 0 c) (.agR 0 2)) 0 (0 : Fin 3) ∗ dutyTok ER (cell c (.out 12)) 0 (0 : Fin 3)
        ∗ cred (tallyAt (cell c (.agR 0 1)) () (amt (.agR 0 1))) ∗ atPos ER (cell c (.agR 0 1)) 0 ∅ 0
        ∗ owes (c : Thread nD τ) (Owe c 33) W ∗ levAts L lv
        ∗ ptsAny (F := F) (nbr 0 c) (agM0_2 c)
        ∗ ptsLent (F := F) c (agM0_1 c) ∗ ((agM0_1 c).view.loc (c : Thread nD τ) ↦[(agM0_1 c).view.set]{fullShare.right} g1)
        ∗ heldW c (outSrcM12 c) f12 ∗ heldW c (outDstM12 c) fd)
      ⊢ wp frame (wpE (defs₀ (F := F)) 𝒱₀ c none) Set.univ
          (k0_part48 (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23 c v2 v6 v1278 v1288 v1291)
          (fun r => iprop(⌜r = ⟨Scalar.xori v2 1#32, Scalar.addi (Scalar.subi v1288 (Scalar.muli v6 1024#32)) (Scalar.muli (Scalar.subi 1#32 v6) 1024#32)⟩⌝
            ∗ ∃ f2 : Buf (Elt F) ((Memref.whole cc0_scratch13 : Memref sig .tc .vmem S2048x384 .bf16).view.loc (c : Thread nD τ)), ⌜V.ag0_1 (nbr 1 c) ((agM0_1 (nbr 1 c)).view.read (Elt F) f2)⌝
            ∗ owes (c : Thread nD τ) (Owe c 34) (insert ((CK.agR 0 1).sem, ()) W) ∗ atPos ER (cell c (.agR 0 1)) 1 ∅ 0
            ∗ cred (tallyAt (cell c (.agS 0 2)) () (amt (.agR 0 2))) ∗ cred (tallyAt (cell c (.out 12)) () (amt (.out 12)))
            ∗ ((agM0_2 c).view.loc (c : Thread nD τ) ↦[(agM0_2 c).view.set]{fullShare.right} (((agM0_1 (nbr 1 c)).view.set : Finset (Idx ((Memref.whole cc0_scratch13 : Memref sig .tc .vmem S2048x384 .bf16).view.loc (c : Thread nD τ)))).piecewise f2 g1)))) := by
  simp only [k0_part48_eq_skeleton]; unfold k0_part48_skel
  simp only [Prog.lift, Prog.bind_op, Prog.bind_ret, Prog.pure_eq_ret]
  iintro ⟨#HIr1, #HIs, #HIr, #HIo, #Hrs, #Hrr, #Hro, Hts, Htr, Hto, Hcr1, Hat1, HO, #Hlev, Hdst, Hlent, Hown, H12, Hd⟩
  unfold heldW
  iapply (wp_wait_xfer V c (.agR 0 1) (by decide) 33 (agR_sem_eq 0 1 _) (k' := (agM0_1 c : Memref sig .tc .vmem S512x384 .bf16).view.dmaCredit) rfl (wpE_waitDma2_eq 𝒱₀ (c : Thread nD τ) none Set.univ)
      (mayWait_agR c 0 1 33 (by decide)) κr1 W) $$ [Hcr1 HO Hat1]
  · isplitr; · iexact HIr1
    isplitl [Hcr1]; · iexact Hcr1
    isplitl [HO]; · iexact HO
    isplitr; · iexact Hlev
    iexact Hat1
  iintro ⟨HO, Hat1, Hpay⟩
  ihave Hp := (Entails.of_eq (show pay V c (.agR 0 1) 0 = ptsIs c (agM0_1 (nbr 1 c)) (V.ag0_1 (nbr 1 c)) from rfl)) $$ Hpay
  unfold ptsIs ptsLent ptsAny
  icases Hp with ⟨%f2, Hf2, %hf2⟩
  icases Hlent with ⟨%g1', Hlent⟩
  icases Hdst with ⟨%fdn, Hdst⟩
  -- the kept right half and the lent left half of the own rows agree, so they make the full share again
  ihave Hag := (persistent_entails_right (pointsTo_agree (ℓ := ((Memref.whole cc0_scratch13 : Memref sig .tc .vmem S2048x384 .bf16).view.loc (c : Thread nD τ))) (I := (agM0_1 c).view.set) (J := (agM0_1 c).view.set) (q₁ := fullShare.left) (q₂ := fullShare.right) (f := g1') (g := g1))) $$ [Hlent Hown]
  · isplitl [Hlent]; · iexact Hlent
    iexact Hown
  icases Hag with ⟨%hag, Hlent, Hown⟩
  ihave Hlent' := (Entails.of_eq (pointsTo_congr (ℓ := ((Memref.whole cc0_scratch13 : Memref sig .tc .vmem S2048x384 .bf16).view.loc (c : Thread nD τ))) (I := (agM0_1 c).view.set) (q := fullShare.left) (f := g1') (g := g1) fun i hi => (hag i (Finset.mem_inter.mpr ⟨hi, hi⟩)).1)) $$ Hlent
  ihave Hfull := (pointsTo_share (ℓ := ((Memref.whole cc0_scratch13 : Memref sig .tc .vmem S2048x384 .bf16).view.loc (c : Thread nD τ))) (I := (agM0_1 c).view.set) (f := g1) (PosShare.mem_left_op_right fullShare)).2 $$ [Hlent' Hown]
  · isplitl [Hlent']; · iexact Hlent'
    iexact Hown
  -- the own rows and the arrived rows are the rows of the next step
  ihave Hj := (pointsTo_join (ℓ := ((Memref.whole cc0_scratch13 : Memref sig .tc .vmem S2048x384 .bf16).view.loc (c : Thread nD τ))) (I := (agM0_1 c).view.set) (J := (agM0_1 (nbr 1 c)).view.set) (q := fullShare) (f := g1) (g := f2) (ag_disj1_0 c)) $$ [Hfull Hf2]
  · isplitl [Hfull]; · iexact Hfull
    iexact Hf2
  ihave Hj2 := (Entails.of_eq (pts_set_eq (F := F) (ℓ := ((Memref.whole cc0_scratch13 : Memref sig .tc .vmem S2048x384 .bf16).view.loc (c : Thread nD τ))) (S' := (agM0_2 c).view.set) (q := fullShare) (f := (((agM0_1 (nbr 1 c)).view.set : Finset (Idx ((Memref.whole cc0_scratch13 : Memref sig .tc .vmem S2048x384 .bf16).view.loc (c : Thread nD τ)))).piecewise f2 g1)) (ag_join1_0 c).symm)) $$ Hj
  ihave Hh := (pointsTo_share (ℓ := ((Memref.whole cc0_scratch13 : Memref sig .tc .vmem S2048x384 .bf16).view.loc (c : Thread nD τ))) (I := (agM0_2 c).view.set) (f := (((agM0_1 (nbr 1 c)).view.set : Finset (Idx ((Memref.whole cc0_scratch13 : Memref sig .tc .vmem S2048x384 .bf16).view.loc (c : Thread nD τ)))).piecewise f2 g1)) (PosShare.mem_left_op_right fullShare)).1 $$ Hj2
  icases Hh with ⟨HjL0, HjR0⟩
  ihave HjL := (Entails.of_eq (show ((((Memref.whole cc0_scratch13 : Memref sig .tc .vmem S2048x384 .bf16).view.loc (c : Thread nD τ)) ↦[(agM0_2 c).view.set]{fullShare.left} (((agM0_1 (nbr 1 c)).view.set : Finset (Idx ((Memref.whole cc0_scratch13 : Memref sig .tc .vmem S2048x384 .bf16).view.loc (c : Thread nD τ)))).piecewise f2 g1) : sProp 𝕄)) = ((agM0_2 c).view.loc (c : Thread nD τ) ↦[(agM0_2 c).view.set]{fullShare.left} (((agM0_1 (nbr 1 c)).view.set : Finset (Idx ((Memref.whole cc0_scratch13 : Memref sig .tc .vmem S2048x384 .bf16).view.loc (c : Thread nD τ)))).piecewise f2 g1)) from rfl)) $$ HjL0
  ihave HjR := (Entails.of_eq (show ((((Memref.whole cc0_scratch13 : Memref sig .tc .vmem S2048x384 .bf16).view.loc (c : Thread nD τ)) ↦[(agM0_2 c).view.set]{fullShare.right} (((agM0_1 (nbr 1 c)).view.set : Finset (Idx ((Memref.whole cc0_scratch13 : Memref sig .tc .vmem S2048x384 .bf16).view.loc (c : Thread nD τ)))).piecewise f2 g1) : sProp 𝕄)) = ((agM0_2 c).view.loc (c : Thread nD τ) ↦[(agM0_2 c).view.set]{fullShare.right} (((agM0_1 (nbr 1 c)).view.set : Finset (Idx ((Memref.whole cc0_scratch13 : Memref sig .tc .vmem S2048x384 .bf16).view.loc (c : Thread nD τ)))).piecewise f2 g1)) from rfl)) $$ HjR0
  have hp2 : ((agM0_2 c).view.loc (nbr 0 c : Thread nD τ) ↦[(agM0_2 c).view.set]{fullShare}
      ((agM0_2 c).view.write (Elt F) fdn ((agM0_2 c).view.read (Elt F) (((agM0_1 (nbr 1 c)).view.set : Finset (Idx ((Memref.whole cc0_scratch13 : Memref sig .tc .vmem S2048x384 .bf16).view.loc (c : Thread nD τ)))).piecewise f2 g1)) Finset.univ) : sProp 𝕄)
      ⊢ pay V (nbr 0 c) (.agR 0 2) 0 := by
    have e : pay V (nbr 0 c) (.agR 0 2) 0 = ptsIs (nbr 0 c) (agM0_2 c) (V.ag0_2 c) := by
      show ptsIs (nbr 0 c) (agM0_2 (nbr 0 (nbr 0 c))) (V.ag0_2 (nbr 0 (nbr 0 c))) = _
      rw [nbr_nbr]
    rw [e]
    exact ptsIs_intro (nbr 0 c) (agM0_2 c) _ _ (by rw [View.read_write_univ]; exact hVag f2 hf2)
  iapply (wp_send_to V c ⟨k0_dev34 c, k0_dev34_lt c⟩ 0 (dev34_eq c) (.agS 0 2) (.agR 0 2) (by decide) (by decide) 33 (by decide) (paid_ag c 0 2) rfl
      (src := agM0_2 c) (dst := agM0_2 c) (agS_sem_eq 0 2 _) (agR_sem_eq 0 2 _) rfl fdn κs κr _
      (ptsLent_intro c (agM0_2 c) _) hp2) $$ [HjL Hdst HO Hts Htr]
  · isplitr; · iexact HIs
    isplitr; · iexact HIr
    isplitl [HjL]; · iexact HjL
    isplitl [Hdst]; · iexact Hdst
    isplitl [HO]; · iexact HO
    isplitl [Hts]; · iexact Hts
    isplitr; · iexact Hrs
    isplitl [Htr]; · iexact Htr
    iexact Hrr
  iintro ⟨Hcs, HO⟩
  have h101 : ((Memref.whole cc0_scratch13 : Memref sig .tc .vmem S2048x384 .bf16).access (Rect.unit (s := S2048x384) (k0_off101 c) ![512, 384] (k0_off101_inb c))).set ⊆ (agM0_2 c).view.set := by
    refine Finset.Subset.trans (le_of_eq (View.set_slice_whole _ _)) ?_
    piece_dev c unit_subset [off101_eq, off100_eq]
  have h102 : ((Memref.whole cc0_scratch0 : Memref sig .tc .vmem S2048x2048 .f32).access (Rect.unit (s := S2048x2048) (k0_off102 c) ![512, 384] (k0_off102_inb c))).set ⊆ (outSrcM12 c).view.set :=
    le_of_eq ((View.set_slice_whole _ _).trans ((unit_set_congr ((off102_eq c).trans (off103_eq c).symm) rfl).trans (View.set_slice_whole _ _).symm))
  have h102' : ((Memref.whole cc0_scratch0 : Memref sig .tc .vmem S2048x2048 .f32).access (Rect.unit (s := S2048x2048) (k0_off102 c) ![512, 384] (k0_off102_inb c))).setOn Finset.univ ⊆ (outSrcM12 c).view.set := h102
  sl_exec
  have hpo : iprop(((outDstM12 c).view.loc (c : Thread nD τ) ↦[(outDstM12 c).view.set]{fullShare} ((outDstM12 c).view.write (Elt F) fd ((outSrcM12 c).view.read (Elt F)
        (((Memref.whole cc0_scratch0 : Memref sig .tc .vmem S2048x2048 .f32).access (Rect.unit (s := S2048x2048) (k0_off102 c) S512x384.size (k0_off102_inb c))).write (Elt F) f12
          (k0_pay94 (View.readAt (Elt F) (Memref.whole cc0_scratch13 : Memref sig .tc .vmem S2048x384 .bf16).view (Rect.unit (s := S2048x384) (k0_off101 c) S512x384.size (k0_off101_inb c)).toLoadRect (((agM0_1 (nbr 1 c)).view.set : Finset (Idx ((Memref.whole cc0_scratch13 : Memref sig .tc .vmem S2048x384 .bf16).view.loc (c : Thread nD τ)))).piecewise f2 g1))) Finset.univ)) Finset.univ))
      ∗ ((outSrcM12 c).view.loc (c : Thread nD τ) ↦[(outSrcM12 c).view.set]{fullShare}
        (((Memref.whole cc0_scratch0 : Memref sig .tc .vmem S2048x2048 .f32).access (Rect.unit (s := S2048x2048) (k0_off102 c) S512x384.size (k0_off102_inb c))).write (Elt F) f12
          (k0_pay94 (View.readAt (Elt F) (Memref.whole cc0_scratch13 : Memref sig .tc .vmem S2048x384 .bf16).view (Rect.unit (s := S2048x384) (k0_off101 c) S512x384.size (k0_off101_inb c)).toLoadRect (((agM0_1 (nbr 1 c)).view.set : Finset (Idx ((Memref.whole cc0_scratch13 : Memref sig .tc .vmem S2048x384 .bf16).view.loc (c : Thread nD τ)))).piecewise f2 g1))) Finset.univ)) : sProp 𝕄) ⊢ pay V c (.out 12) 0 := by
    show _ ⊢ iprop(ptsIs c (outDstM12 c) (V.out12 c) ∗ ptsAny (F := F) c (outSrcM12 c))
    exact BI.sep_mono (ptsIs_intro c (outDstM12 c) _ _ (by rw [View.read_write_univ]; exact hVout f2 hf2)) (ptsAny_intro c (outSrcM12 c) _)
  iapply (wp_copy_own V c (.out 12) (by decide) (src := outSrcM12 c) (dst := outDstM12 c) (out_sem_eq 12 _) rfl fd κo hpo) $$ [H12 Hd Hto]
  · isplitr; · iexact HIo
    isplitl [H12]; · iexact H12
    isplitl [Hd]; · iexact Hd
    isplitl [Hto]; · iexact Hto
    iexact Hro
  iintro Hco
  sl_step
  isplitr; · ipureintro; rfl
  iexists f2
  isplitr; · ipureintro; exact hf2
  isplitl [HO]; · iexact HO
  isplitl [Hat1]; · iexact Hat1
  isplitl [Hcs]; · iexact Hcs
  isplitl [Hco]; · iexact Hco
  iexact HjR

end Cert.KernelIdeal.Proto

end
-- ==== Proof.Body49.lean ====
/-
A stretch of a device's kernel body, in the all-gather phase. Column group 1's second round: its first-round
transfer is over (the lent half share of the own rows comes back) and the neighbour's 512 rows across axis 2 have
arrived; joined with the own rows they are the 1024 rows sent across axis 1, of which the transfer borrows the left
half share. The arrived rows and their block of the accumulator are then read.
-/
import proofs.«900882_g7700000000000883_dist_matmul_gelu_kshard_i_m2048_n2048_k1024_v7x_i8_f32_1_alg».proof.Proof.Rules
import proofs.«900882_g7700000000000883_dist_matmul_gelu_kshard_i_m2048_n2048_k1024_v7x_i8_f32_1_alg».proof.Proof.TopoTab
import proofs.«900882_g7700000000000883_dist_matmul_gelu_kshard_i_m2048_n2048_k1024_v7x_i8_f32_1_alg».proof.Proof.PiecesTab
import proofs.«900882_g7700000000000883_dist_matmul_gelu_kshard_i_m2048_n2048_k1024_v7x_i8_f32_1_alg».proof.Proof.PiecesOutSep
import proofs.«900882_g7700000000000883_dist_matmul_gelu_kshard_i_m2048_n2048_k1024_v7x_i8_f32_1_alg».proof.Proof.PiecesOutTab
import proofs.«900882_g7700000000000883_dist_matmul_gelu_kshard_i_m2048_n2048_k1024_v7x_i8_f32_1_alg».proof.Proof.Gen.KernelIdeal.Skeleton
import Idealize.ShloMosaic.Lib.Pipeline.Value

set_option maxRecDepth 16384

noncomputable section

namespace Cert.KernelIdeal.Proto

open Cert.KernelIdeal Cert.KernelIdeal.Gen Cert.KernelIdeal.Topo
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : Vals F)

set_option maxHeartbeats 4000000 in
theorem part49_run (c : Dev nD) (κs1 κr1 κs κr : ℕ) (W : Waits sig Unit) (v2 v8 v1313 v1323 v1326 : BitVec 32)
    (g1 : Buf (Elt F) ((Memref.whole cc0_scratch14 : Memref sig .tc .vmem S2048x384 .bf16).view.loc (c : Thread nD τ)))
    (f13 : Buf (Elt F) ((outSrcM13 c).view.loc (c : Thread nD τ)))
    (hVag : ∀ f2 : Buf (Elt F) ((Memref.whole cc0_scratch14 : Memref sig .tc .vmem S2048x384 .bf16).view.loc (c : Thread nD τ)), V.ag1_1 (nbr 2 c) ((agM1_1 (nbr 2 c)).view.read (Elt F) f2) →
      V.ag1_2 c ((agM1_2 c).view.read (Elt F) (((agM1_1 (nbr 2 c)).view.set : Finset (Idx ((Memref.whole cc0_scratch14 : Memref sig .tc .vmem S2048x384 .bf16).view.loc (c : Thread nD τ)))).piecewise f2 g1))) :
    iprop(cellInv ER (sched V) κs1 (cell c (.agS 1 1)) ∗ cellInv ER (sched V) κr1 (cell c (.agR 1 1))
        ∗ cellInv ER (sched V) κs (cell c (.agS 1 2)) ∗ cellInv ER (sched V) κr (cell (nbr 1 c) (.agR 1 2))
        ∗ reached ER (cell c (.agS 1 2)) 0 ∗ reached ER (cell (nbr 1 c) (.agR 1 2)) 0
        ∗ dutyTok ER (cell c (.agS 1 2)) 0 (0 : Fin 3) ∗ dutyTok ER (cell (nbr 1 c) (.agR 1 2)) 0 (0 : Fin 3)
        ∗ cred (tallyAt (cell c (.agS 1 1)) () (amt (.agR 1 1))) ∗ atPos ER (cell c (.agS 1 1)) 0 ∅ 0
        ∗ cred (tallyAt (cell c (.agR 1 1)) () (amt (.agR 1 1))) ∗ atPos ER (cell c (.agR 1 1)) 0 ∅ 0
        ∗ owes (c : Thread nD τ) (Owe c 34) W ∗ levAts L lv
        ∗ ptsAny (F := F) (nbr 1 c) (agM1_2 c)
        ∗ ((agM1_1 c).view.loc (c : Thread nD τ) ↦[(agM1_1 c).view.set]{fullShare.right} g1)
        ∗ heldW c (outSrcM13 c) f13)
      ⊢ wp frame (wpE (defs₀ (F := F)) 𝒱₀ c none) Set.univ
          (k0_part49 (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23 c v2 v8 v1313 v1323 v1326)
          (fun r => iprop(∃ f2 : Buf (Elt F) ((Memref.whole cc0_scratch14 : Memref sig .tc .vmem S2048x384 .bf16).view.loc (c : Thread nD τ)),
            ⌜r = ⟨Scalar.xori v2 3#32, Scalar.addi (Scalar.subi v1323 (Scalar.muli v8 1024#32)) (Scalar.muli (Scalar.subi 1#32 v8) 1024#32), k0_pay95 (View.readAt (Elt F) (Memref.whole cc0_scratch14 : Memref sig .tc .vmem S2048x384 .bf16).view (Rect.unit (s := S2048x384) (k0_off105 c) S512x384.size (k0_off105_inb c)).toLoadRect (((agM1_1 (nbr 2 c)).view.set : Finset (Idx ((Memref.whole cc0_scratch14 : Memref sig .tc .vmem S2048x384 .bf16).view.loc (c : Thread nD τ)))).piecewise f2 g1)), (View.readAt (Elt F) (Memref.whole cc0_scratch0 : Memref sig .tc .vmem S2048x2048 .f32).view (Rect.unit (s := S2048x2048) (k0_off106 c) S512x384.size (k0_off106_inb c)).toLoadRect f13)⟩⌝
            ∗ ⌜V.ag1_1 (nbr 2 c) ((agM1_1 (nbr 2 c)).view.read (Elt F) f2)⌝
            ∗ owes (c : Thread nD τ) (Owe c 35) (insert ((CK.agR 1 1).sem, ()) (insert ((CK.agS 1 1).sem, ()) W))
            ∗ atPos ER (cell c (.agS 1 1)) 1 ∅ 0 ∗ atPos ER (cell c (.agR 1 1)) 1 ∅ 0
            ∗ cred (tallyAt (cell c (.agS 1 2)) () (amt (.agR 1 2)))
            ∗ ((agM1_2 c).view.loc (c : Thread nD τ) ↦[(agM1_2 c).view.set]{fullShare.right} (((agM1_1 (nbr 2 c)).view.set : Finset (Idx ((Memref.whole cc0_scratch14 : Memref sig .tc .vmem S2048x384 .bf16).view.loc (c : Thread nD τ)))).piecewise f2 g1))
            ∗ heldW c (outSrcM13 c) f13)) := by
  simp only [k0_part49_eq_skeleton]; unfold k0_part49_skel
  simp only [Prog.lift, Prog.bind_op, Prog.bind_ret, Prog.pure_eq_ret]
  iintro ⟨#HIs1, #HIr1, #HIs, #HIr, #Hrs, #Hrr, Hts, Htr, Hcs1, Hats1, Hcr1, Hatr1, HO, #Hlev, Hdst, Hown, H13⟩
  unfold heldW
  iapply (wp_wait_xfer V c (.agS 1 1) (by decide) 34 (agS_sem_eq 1 1 _) (k' := ((agM1_1 c) : Memref sig .tc .vmem S512x384 .bf16).view.dmaCredit) rfl (wpE_waitDma2_eq 𝒱₀ (c : Thread nD τ) none Set.univ)
      (mayWait_own c (.agS 1 1) (lv_cell c (.agS 1 1)) 34) κs1 W) $$ [Hcs1 HO Hats1]
  · isplitr; · iexact HIs1
    isplitl [Hcs1]; · iexact Hcs1
    isplitl [HO]; · iexact HO
    isplitr; · iexact Hlev
    iexact Hats1
  iintro ⟨HO, Hats1, HqS⟩
  iapply (wp_wait_xfer V c (.agR 1 1) (by decide) 34 (agR_sem_eq 1 1 _) (k' := ((agM1_1 c) : Memref sig .tc .vmem S512x384 .bf16).view.dmaCredit) rfl (wpE_waitDma2_eq 𝒱₀ (c : Thread nD τ) none Set.univ)
      (mayWait_agR c 1 1 34 (by decide)) κr1 (insert ((CK.agS 1 1).sem, ()) W)) $$ [Hcr1 HO Hatr1]
  · isplitr; · iexact HIr1
    isplitl [Hcr1]; · iexact Hcr1
    isplitl [HO]; · iexact HO
    isplitr; · iexact Hlev
    iexact Hatr1
  iintro ⟨HO, Hatr1, HqR⟩
  ihave Hlent := (Entails.of_eq (show pay V c (.agS 1 1) 0 = ptsLent (F := F) c (agM1_1 c) from rfl)) $$ HqS
  ihave Hp := (Entails.of_eq (show pay V c (.agR 1 1) 0 = ptsIs c (agM1_1 (nbr 2 c)) (V.ag1_1 (nbr 2 c)) from rfl)) $$ HqR
  unfold ptsIs ptsLent ptsAny
  icases Hp with ⟨%f2, Hf2, %hf2⟩
  icases Hlent with ⟨%g1', Hlent⟩
  icases Hdst with ⟨%fdn, Hdst⟩
  -- the kept right half and the lent left half of the own rows agree, so they make the full share again
  ihave Hag := (persistent_entails_right (pointsTo_agree (ℓ := ((Memref.whole cc0_scratch14 : Memref sig .tc .vmem S2048x384 .bf16).view.loc (c : Thread nD τ))) (I := (agM1_1 c).view.set) (J := (agM1_1 c).view.set) (q₁ := fullShare.left) (q₂ := fullShare.right) (f := g1') (g := g1))) $$ [Hlent Hown]
  · isplitl [Hlent]; · iexact Hlent
    iexact Hown
  icases Hag with ⟨%hag, Hlent, Hown⟩
  ihave Hlent' := (Entails.of_eq (pointsTo_congr (ℓ := ((Memref.whole cc0_scratch14 : Memref sig .tc .vmem S2048x384 .bf16).view.loc (c : Thread nD τ))) (I := (agM1_1 c).view.set) (q := fullShare.left) (f := g1') (g := g1) fun i hi => (hag i (Finset.mem_inter.mpr ⟨hi, hi⟩)).1)) $$ Hlent
  ihave Hfull := (pointsTo_share (ℓ := ((Memref.whole cc0_scratch14 : Memref sig .tc .vmem S2048x384 .bf16).view.loc (c : Thread nD τ))) (I := (agM1_1 c).view.set) (f := g1) (PosShare.mem_left_op_right fullShare)).2 $$ [Hlent' Hown]
  · isplitl [Hlent']; · iexact Hlent'
    iexact Hown
  -- the own rows and the arrived rows are the rows of the next step
  ihave Hj := (pointsTo_join (ℓ := ((Memref.whole cc0_scratch14 : Memref sig .tc .vmem S2048x384 .bf16).view.loc (c : Thread nD τ))) (I := (agM1_1 c).view.set) (J := (agM1_1 (nbr 2 c)).view.set) (q := fullShare) (f := g1) (g := f2) (ag_disj1_1 c)) $$ [Hfull Hf2]
  · isplitl [Hfull]; · iexact Hfull
    iexact Hf2
  ihave Hj2 := (Entails.of_eq (pts_set_eq (F := F) (ℓ := ((Memref.whole cc0_scratch14 : Memref sig .tc .vmem S2048x384 .bf16).view.loc (c : Thread nD τ))) (S' := (agM1_2 c).view.set) (q := fullShare) (f := (((agM1_1 (nbr 2 c)).view.set : Finset (Idx ((Memref.whole cc0_scratch14 : Memref sig .tc .vmem S2048x384 .bf16).view.loc (c : Thread nD τ)))).piecewise f2 g1)) (ag_join1_1 c).symm)) $$ Hj
  ihave Hh := (pointsTo_share (ℓ := ((Memref.whole cc0_scratch14 : Memref sig .tc .vmem S2048x384 .bf16).view.loc (c : Thread nD τ))) (I := (agM1_2 c).view.set) (f := (((agM1_1 (nbr 2 c)).view.set : Finset (Idx ((Memref.whole cc0_scratch14 : Memref sig .tc .vmem S2048x384 .bf16).view.loc (c : Thread nD τ)))).piecewise f2 g1)) (PosShare.mem_left_op_right fullShare)).1 $$ Hj2
  icases Hh with ⟨HjL0, HjR0⟩
  ihave HjL := (Entails.of_eq (show ((((Memref.whole cc0_scratch14 : Memref sig .tc .vmem S2048x384 .bf16).view.loc (c : Thread nD τ)) ↦[(agM1_2 c).view.set]{fullShare.left} (((agM1_1 (nbr 2 c)).view.set : Finset (Idx ((Memref.whole cc0_scratch14 : Memref sig .tc .vmem S2048x384 .bf16).view.loc (c : Thread nD τ)))).piecewise f2 g1) : sProp 𝕄)) = ((agM1_2 c).view.loc (c : Thread nD τ) ↦[(agM1_2 c).view.set]{fullShare.left} (((agM1_1 (nbr 2 c)).view.set : Finset (Idx ((Memref.whole cc0_scratch14 : Memref sig .tc .vmem S2048x384 .bf16).view.loc (c : Thread nD τ)))).piecewise f2 g1)) from rfl)) $$ HjL0
  ihave HjR := (Entails.of_eq (show ((((Memref.whole cc0_scratch14 : Memref sig .tc .vmem S2048x384 .bf16).view.loc (c : Thread nD τ)) ↦[(agM1_2 c).view.set]{fullShare.right} (((agM1_1 (nbr 2 c)).view.set : Finset (Idx ((Memref.whole cc0_scratch14 : Memref sig .tc .vmem S2048x384 .bf16).view.loc (c : Thread nD τ)))).piecewise f2 g1) : sProp 𝕄)) = ((agM1_2 c).view.loc (c : Thread nD τ) ↦[(agM1_2 c).view.set]{fullShare.right} (((agM1_1 (nbr 2 c)).view.set : Finset (Idx ((Memref.whole cc0_scratch14 : Memref sig .tc .vmem S2048x384 .bf16).view.loc (c : Thread nD τ)))).piecewise f2 g1)) from rfl)) $$ HjR0
  have hp2 : ((agM1_2 c).view.loc (nbr 1 c : Thread nD τ) ↦[(agM1_2 c).view.set]{fullShare}
      ((agM1_2 c).view.write (Elt F) fdn ((agM1_2 c).view.read (Elt F) (((agM1_1 (nbr 2 c)).view.set : Finset (Idx ((Memref.whole cc0_scratch14 : Memref sig .tc .vmem S2048x384 .bf16).view.loc (c : Thread nD τ)))).piecewise f2 g1)) Finset.univ) : sProp 𝕄)
      ⊢ pay V (nbr 1 c) (.agR 1 2) 0 := by
    have e : pay V (nbr 1 c) (.agR 1 2) 0 = ptsIs (nbr 1 c) (agM1_2 c) (V.ag1_2 c) := by
      show ptsIs (nbr 1 c) (agM1_2 (nbr 1 (nbr 1 c))) (V.ag1_2 (nbr 1 (nbr 1 c))) = _
      rw [nbr_nbr]
    rw [e]
    exact ptsIs_intro (nbr 1 c) (agM1_2 c) _ _ (by rw [View.read_write_univ]; exact hVag f2 hf2)
  iapply (wp_send_to V c ⟨k0_dev35 c, k0_dev35_lt c⟩ 1 (dev35_eq c) (.agS 1 2) (.agR 1 2) (by decide) (by decide) 34 (by decide) (paid_ag c 1 2) rfl
      (src := (agM1_2 c)) (dst := (agM1_2 c)) (agS_sem_eq 1 2 _) (agR_sem_eq 1 2 _) rfl fdn κs κr _
      (ptsLent_intro c (agM1_2 c) _) hp2) $$ [HjL Hdst HO Hts Htr]
  · isplitr; · iexact HIs
    isplitr; · iexact HIr
    isplitl [HjL]; · iexact HjL
    isplitl [Hdst]; · iexact Hdst
    isplitl [HO]; · iexact HO
    isplitl [Hts]; · iexact Hts
    isplitr; · iexact Hrs
    isplitl [Htr]; · iexact Htr
    iexact Hrr
  iintro ⟨Hcs, HO⟩
  have hA : ((Memref.whole cc0_scratch14 : Memref sig .tc .vmem S2048x384 .bf16).access (Rect.unit (s := S2048x384) (k0_off105 c) ![512, 384] (k0_off105_inb c))).set ⊆ (agM1_2 c).view.set := by
    refine Finset.Subset.trans (le_of_eq (View.set_slice_whole _ _)) ?_
    piece_dev c unit_subset [off105_eq, off104_eq]
  have hB : ((Memref.whole cc0_scratch0 : Memref sig .tc .vmem S2048x2048 .f32).access (Rect.unit (s := S2048x2048) (k0_off106 c) ![512, 384] (k0_off106_inb c))).set ⊆ (outSrcM13 c).view.set :=
    le_of_eq ((View.set_slice_whole _ _).trans ((unit_set_congr ((off106_eq c).trans (off107_eq c).symm) rfl).trans (View.set_slice_whole _ _).symm))
  have hB' : ((Memref.whole cc0_scratch0 : Memref sig .tc .vmem S2048x2048 .f32).access (Rect.unit (s := S2048x2048) (k0_off106 c) ![512, 384] (k0_off106_inb c))).setOn Finset.univ ⊆ (outSrcM13 c).view.set := hB
  sl_exec
  sl_step
  iexists f2
  isplitr; · ipureintro; rfl
  isplitr; · ipureintro; exact hf2
  isplitl [HO]; · iexact HO
  isplitl [Hats1]; · iexact Hats1
  isplitl [Hatr1]; · iexact Hatr1
  isplitl [Hcs]; · iexact Hcs
  isplitl [HjR]; · iexact HjR
  iexact H13

end Cert.KernelIdeal.Proto

end
-- ==== Proof.Body50.lean ====
/-
A stretch of a device's kernel body, in the all-gather phase. The widened rows of column group 1 are stored into
their block of the accumulator and that block is copied to the result array. Column group 2's second round: the
lent half share of its own rows comes back, the neighbour's 512 rows across axis 0 arrive, and the 1024 joined rows
are sent across axis 2, the transfer borrowing their left half share.
-/
import proofs.«900882_g7700000000000883_dist_matmul_gelu_kshard_i_m2048_n2048_k1024_v7x_i8_f32_1_alg».proof.Proof.Rules
import proofs.«900882_g7700000000000883_dist_matmul_gelu_kshard_i_m2048_n2048_k1024_v7x_i8_f32_1_alg».proof.Proof.TopoTab
import proofs.«900882_g7700000000000883_dist_matmul_gelu_kshard_i_m2048_n2048_k1024_v7x_i8_f32_1_alg».proof.Proof.PiecesTab
import proofs.«900882_g7700000000000883_dist_matmul_gelu_kshard_i_m2048_n2048_k1024_v7x_i8_f32_1_alg».proof.Proof.PiecesOutSep
import proofs.«900882_g7700000000000883_dist_matmul_gelu_kshard_i_m2048_n2048_k1024_v7x_i8_f32_1_alg».proof.Proof.PiecesOutTab
import proofs.«900882_g7700000000000883_dist_matmul_gelu_kshard_i_m2048_n2048_k1024_v7x_i8_f32_1_alg».proof.Proof.Gen.KernelIdeal.Skeleton
import Idealize.ShloMosaic.Lib.Pipeline.Value

set_option maxRecDepth 16384

noncomputable section

namespace Cert.KernelIdeal.Proto

open Cert.KernelIdeal Cert.KernelIdeal.Gen Cert.KernelIdeal.Topo
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : Vals F)

set_option maxHeartbeats 4000000 in
theorem part50_run (c : Dev nD) (κo κs1 κr1 κs κr : ℕ) (W : Waits sig Unit) (v2 v9 v1348 v1358 : BitVec 32) (v1539 : FVec F S512x384 .f32) (v1541 : Vec F S512x384 .f32)
    (g1 : Buf (Elt F) ((Memref.whole cc0_scratch15 : Memref sig .tc .vmem S2048x384 .bf16).view.loc (c : Thread nD τ)))
    (f13 : Buf (Elt F) ((outSrcM13 c).view.loc (c : Thread nD τ))) (fd : Buf (Elt F) ((outDstM13 c).view.loc (c : Thread nD τ)))
    (hVout : V.out13 c ((outSrcM13 c).view.read (Elt F) (((Memref.whole cc0_scratch0 : Memref sig .tc .vmem S2048x2048 .f32).access (Rect.unit (s := S2048x2048) (k0_off106 c) S512x384.size (k0_off106_inb c))).write (Elt F) f13 (k0_pay96 v1539) Finset.univ)))
    (hVag : ∀ f2 : Buf (Elt F) ((Memref.whole cc0_scratch15 : Memref sig .tc .vmem S2048x384 .bf16).view.loc (c : Thread nD τ)), V.ag2_1 (nbr 0 c) ((agM2_1 (nbr 0 c)).view.read (Elt F) f2) →
      V.ag2_2 c ((agM2_2 c).view.read (Elt F) (((agM2_1 (nbr 0 c)).view.set : Finset (Idx ((Memref.whole cc0_scratch15 : Memref sig .tc .vmem S2048x384 .bf16).view.loc (c : Thread nD τ)))).piecewise f2 g1))) :
    iprop(cellInv ER (sched V) κo (cell c (.out 13)) ∗ cellInv ER (sched V) κs1 (cell c (.agS 2 1)) ∗ cellInv ER (sched V) κr1 (cell c (.agR 2 1))
        ∗ cellInv ER (sched V) κs (cell c (.agS 2 2)) ∗ cellInv ER (sched V) κr (cell (nbr 2 c) (.agR 2 2))
        ∗ reached ER (cell c (.out 13)) 0 ∗ reached ER (cell c (.agS 2 2)) 0 ∗ reached ER (cell (nbr 2 c) (.agR 2 2)) 0
        ∗ dutyTok ER (cell c (.out 13)) 0 (0 : Fin 3) ∗ dutyTok ER (cell c (.agS 2 2)) 0 (0 : Fin 3) ∗ dutyTok ER (cell (nbr 2 c) (.agR 2 2)) 0 (0 : Fin 3)
        ∗ cred (tallyAt (cell c (.agS 2 1)) () (amt (.agR 2 1))) ∗ atPos ER (cell c (.agS 2 1)) 0 ∅ 0
        ∗ cred (tallyAt (cell c (.agR 2 1)) () (amt (.agR 2 1))) ∗ atPos ER (cell c (.agR 2 1)) 0 ∅ 0
        ∗ owes (c : Thread nD τ) (Owe c 35) W ∗ levAts L lv
        ∗ ptsAny (F := F) (nbr 2 c) (agM2_2 c)
        ∗ ((agM2_1 c).view.loc (c : Thread nD τ) ↦[(agM2_1 c).view.set]{fullShare.right} g1)
        ∗ heldW c (outSrcM13 c) f13 ∗ heldW c (outDstM13 c) fd)
      ⊢ wp frame (wpE (defs₀ (F := F)) 𝒱₀ c none) Set.univ
          (k0_part50 (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23 c v2 v9 v1348 v1358 v1539 v1541)
          (fun r => iprop(⌜r = ⟨Scalar.xori v2 4#32, Scalar.subi v1358 (Scalar.muli v9 1024#32)⟩⌝
            ∗ ∃ f2 : Buf (Elt F) ((Memref.whole cc0_scratch15 : Memref sig .tc .vmem S2048x384 .bf16).view.loc (c : Thread nD τ)), ⌜V.ag2_1 (nbr 0 c) ((agM2_1 (nbr 0 c)).view.read (Elt F) f2)⌝
            ∗ owes (c : Thread nD τ) (Owe c 36) (insert ((CK.agR 2 1).sem, ()) (insert ((CK.agS 2 1).sem, ()) W))
            ∗ atPos ER (cell c (.agS 2 1)) 1 ∅ 0 ∗ atPos ER (cell c (.agR 2 1)) 1 ∅ 0
            ∗ cred (tallyAt (cell c (.out 13)) () (amt (.out 13))) ∗ cred (tallyAt (cell c (.agS 2 2)) () (amt (.agR 2 2)))
            ∗ ((agM2_2 c).view.loc (c : Thread nD τ) ↦[(agM2_2 c).view.set]{fullShare.right} (((agM2_1 (nbr 0 c)).view.set : Finset (Idx ((Memref.whole cc0_scratch15 : Memref sig .tc .vmem S2048x384 .bf16).view.loc (c : Thread nD τ)))).piecewise f2 g1)))) := by
  simp only [k0_part50_eq_skeleton]; unfold k0_part50_skel
  simp only [Prog.lift, Prog.bind_op, Prog.bind_ret, Prog.pure_eq_ret]
  iintro ⟨#HIo, #HIs1, #HIr1, #HIs, #HIr, #Hro, #Hrs, #Hrr, Hto, Hts, Htr, Hcs1, Hats1, Hcr1, Hatr1, HO, #Hlev, Hdst, Hown, H13, Hd⟩
  unfold heldW
  have hB : ((Memref.whole cc0_scratch0 : Memref sig .tc .vmem S2048x2048 .f32).access (Rect.unit (s := S2048x2048) (k0_off106 c) ![512, 384] (k0_off106_inb c))).set ⊆ (outSrcM13 c).view.set :=
    le_of_eq ((View.set_slice_whole _ _).trans ((unit_set_congr ((off106_eq c).trans (off107_eq c).symm) rfl).trans (View.set_slice_whole _ _).symm))
  have hB' : ((Memref.whole cc0_scratch0 : Memref sig .tc .vmem S2048x2048 .f32).access (Rect.unit (s := S2048x2048) (k0_off106 c) ![512, 384] (k0_off106_inb c))).setOn Finset.univ ⊆ (outSrcM13 c).view.set := hB
  sl_exec
  have hpo13 : iprop(((outDstM13 c).view.loc (c : Thread nD τ) ↦[(outDstM13 c).view.set]{fullShare} ((outDstM13 c).view.write (Elt F) fd ((outSrcM13 c).view.read (Elt F)
        (((Memref.whole cc0_scratch0 : Memref sig .tc .vmem S2048x2048 .f32).access (Rect.unit (s := S2048x2048) (k0_off106 c) S512x384.size (k0_off106_inb c))).write (Elt F) f13 (k0_pay96 v1539) Finset.univ)) Finset.univ))
      ∗ ((outSrcM13 c).view.loc (c : Thread nD τ) ↦[(outSrcM13 c).view.set]{fullShare}
        (((Memref.whole cc0_scratch0 : Memref sig .tc .vmem S2048x2048 .f32).access (Rect.unit (s := S2048x2048) (k0_off106 c) S512x384.size (k0_off106_inb c))).write (Elt F) f13 (k0_pay96 v1539) Finset.univ)) : sProp 𝕄) ⊢ pay V c (.out 13) 0 := by
    show _ ⊢ iprop(ptsIs c (outDstM13 c) (V.out13 c) ∗ ptsAny (F := F) c (outSrcM13 c))
    exact BI.sep_mono (ptsIs_intro c (outDstM13 c) _ _ (by rw [View.read_write_univ]; exact hVout)) (ptsAny_intro c (outSrcM13 c) _)
  iapply (wp_copy_own V c (.out 13) (by decide) (src := outSrcM13 c) (dst := outDstM13 c) (out_sem_eq 13 _) rfl fd κo hpo13) $$ [H13 Hd Hto]
  · isplitr; · iexact HIo
    isplitl [H13]; · iexact H13
    isplitl [Hd]; · iexact Hd
    isplitl [Hto]; · iexact Hto
    iexact Hro
  iintro Hco
  iapply (wp_wait_xfer V c (.agS 2 1) (by decide) 35 (agS_sem_eq 2 1 _) (k' := ((agM2_1 c) : Memref sig .tc .vmem S512x384 .bf16).view.dmaCredit) rfl (wpE_waitDma2_eq 𝒱₀ (c : Thread nD τ) none Set.univ)
      (mayWait_own c (.agS 2 1) (lv_cell c (.agS 2 1)) 35) κs1 W) $$ [Hcs1 HO Hats1]
  · isplitr; · iexact HIs1
    isplitl [Hcs1]; · iexact Hcs1
    isplitl [HO]; · iexact HO
    isplitr; · iexact Hlev
    iexact Hats1
  iintro ⟨HO, Hats1, HqS⟩
  iapply (wp_wait_xfer V c (.agR 2 1) (by decide) 35 (agR_sem_eq 2 1 _) (k' := ((agM2_1 c) : Memref sig .tc .vmem S512x384 .bf16).view.dmaCredit) rfl (wpE_waitDma2_eq 𝒱₀ (c : Thread nD τ) none Set.univ)
      (mayWait_agR c 2 1 35 (by decide)) κr1 (insert ((CK.agS 2 1).sem, ()) W)) $$ [Hcr1 HO Hatr1]
  · isplitr; · iexact HIr1
    isplitl [Hcr1]; · iexact Hcr1
    isplitl [HO]; · iexact HO
    isplitr; · iexact Hlev
    iexact Hatr1
  iintro ⟨HO, Hatr1, HqR⟩
  ihave Hlent := (Entails.of_eq (show pay V c (.agS 2 1) 0 = ptsLent (F := F) c (agM2_1 c) from rfl)) $$ HqS
  ihave Hp := (Entails.of_eq (show pay V c (.agR 2 1) 0 = ptsIs c (agM2_1 (nbr 0 c)) (V.ag2_1 (nbr 0 c)) from rfl)) $$ HqR
  unfold ptsIs ptsLent ptsAny
  icases Hp with ⟨%f2, Hf2, %hf2⟩
  icases Hlent with ⟨%g1', Hlent⟩
  icases Hdst with ⟨%fdn, Hdst⟩
  -- the kept right half and the lent left half of the own rows agree, so they make the full share again
  ihave Hag := (persistent_entails_right (pointsTo_agree (ℓ := ((Memref.whole cc0_scratch15 : Memref sig .tc .vmem S2048x384 .bf16).view.loc (c : Thread nD τ))) (I := (agM2_1 c).view.set) (J := (agM2_1 c).view.set) (q₁ := fullShare.left) (q₂ := fullShare.right) (f := g1') (g := g1))) $$ [Hlent Hown]
  · isplitl [Hlent]; · iexact Hlent
    iexact Hown
  icases Hag with ⟨%hag, Hlent, Hown⟩
  ihave Hlent' := (Entails.of_eq (pointsTo_congr (ℓ := ((Memref.whole cc0_scratch15 : Memref sig .tc .vmem S2048x384 .bf16).view.loc (c : Thread nD τ))) (I := (agM2_1 c).view.set) (q := fullShare.left) (f := g1') (g := g1) fun i hi => (hag i (Finset.mem_inter.mpr ⟨hi, hi⟩)).1)) $$ Hlent
  ihave Hfull := (pointsTo_share (ℓ := ((Memref.whole cc0_scratch15 : Memref sig .tc .vmem S2048x384 .bf16).view.loc (c : Thread nD τ))) (I := (agM2_1 c).view.set) (f := g1) (PosShare.mem_left_op_right fullShare)).2 $$ [Hlent' Hown]
  · isplitl [Hlent']; · iexact Hlent'
    iexact Hown
  -- the own rows and the arrived rows are the rows of the next step
  ihave Hj := (pointsTo_join (ℓ := ((Memref.whole cc0_scratch15 : Memref sig .tc .vmem S2048x384 .bf16).view.loc (c : Thread nD τ))) (I := (agM2_1 c).view.set) (J := (agM2_1 (nbr 0 c)).view.set) (q := fullShare) (f := g1) (g := f2) (ag_disj1_2 c)) $$ [Hfull Hf2]
  · isplitl [Hfull]; · iexact Hfull
    iexact Hf2
  ihave Hj2 := (Entails.of_eq (pts_set_eq (F := F) (ℓ := ((Memref.whole cc0_scratch15 : Memref sig .tc .vmem S2048x384 .bf16).view.loc (c : Thread nD τ))) (S' := (agM2_2 c).view.set) (q := fullShare) (f := (((agM2_1 (nbr 0 c)).view.set : Finset (Idx ((Memref.whole cc0_scratch15 : Memref sig .tc .vmem S2048x384 .bf16).view.loc (c : Thread nD τ)))).piecewise f2 g1)) (ag_join1_2 c).symm)) $$ Hj
  ihave Hh := (pointsTo_share (ℓ := ((Memref.whole cc0_scratch15 : Memref sig .tc .vmem S2048x384 .bf16).view.loc (c : Thread nD τ))) (I := (agM2_2 c).view.set) (f := (((agM2_1 (nbr 0 c)).view.set : Finset (Idx ((Memref.whole cc0_scratch15 : Memref sig .tc .vmem S2048x384 .bf16).view.loc (c : Thread nD τ)))).piecewise f2 g1)) (PosShare.mem_left_op_right fullShare)).1 $$ Hj2
  icases Hh with ⟨HjL0, HjR0⟩
  ihave HjL := (Entails.of_eq (show ((((Memref.whole cc0_scratch15 : Memref sig .tc .vmem S2048x384 .bf16).view.loc (c : Thread nD τ)) ↦[(agM2_2 c).view.set]{fullShare.left} (((agM2_1 (nbr 0 c)).view.set : Finset (Idx ((Memref.whole cc0_scratch15 : Memref sig .tc .vmem S2048x384 .bf16).view.loc (c : Thread nD τ)))).piecewise f2 g1) : sProp 𝕄)) = ((agM2_2 c).view.loc (c : Thread nD τ) ↦[(agM2_2 c).view.set]{fullShare.left} (((agM2_1 (nbr 0 c)).view.set : Finset (Idx ((Memref.whole cc0_scratch15 : Memref sig .tc .vmem S2048x384 .bf16).view.loc (c : Thread nD τ)))).piecewise f2 g1)) from rfl)) $$ HjL0
  ihave HjR := (Entails.of_eq (show ((((Memref.whole cc0_scratch15 : Memref sig .tc .vmem S2048x384 .bf16).view.loc (c : Thread nD τ)) ↦[(agM2_2 c).view.set]{fullShare.right} (((agM2_1 (nbr 0 c)).view.set : Finset (Idx ((Memref.whole cc0_scratch15 : Memref sig .tc .vmem S2048x384 .bf16).view.loc (c : Thread nD τ)))).piecewise f2 g1) : sProp 𝕄)) = ((agM2_2 c).view.loc (c : Thread nD τ) ↦[(agM2_2 c).view.set]{fullShare.right} (((agM2_1 (nbr 0 c)).view.set : Finset (Idx ((Memref.whole cc0_scratch15 : Memref sig .tc .vmem S2048x384 .bf16).view.loc (c : Thread nD τ)))).piecewise f2 g1)) from rfl)) $$ HjR0
  have hp2 : ((agM2_2 c).view.loc (nbr 2 c : Thread nD τ) ↦[(agM2_2 c).view.set]{fullShare}
      ((agM2_2 c).view.write (Elt F) fdn ((agM2_2 c).view.read (Elt F) (((agM2_1 (nbr 0 c)).view.set : Finset (Idx ((Memref.whole cc0_scratch15 : Memref sig .tc .vmem S2048x384 .bf16).view.loc (c : Thread nD τ)))).piecewise f2 g1)) Finset.univ) : sProp 𝕄)
      ⊢ pay V (nbr 2 c) (.agR 2 2) 0 := by
    have e : pay V (nbr 2 c) (.agR 2 2) 0 = ptsIs (nbr 2 c) (agM2_2 c) (V.ag2_2 c) := by
      show ptsIs (nbr 2 c) (agM2_2 (nbr 2 (nbr 2 c))) (V.ag2_2 (nbr 2 (nbr 2 c))) = _
      rw [nbr_nbr]
    rw [e]
    exact ptsIs_intro (nbr 2 c) (agM2_2 c) _ _ (by rw [View.read_write_univ]; exact hVag f2 hf2)
  iapply (wp_send_to V c ⟨k0_dev36 c, k0_dev36_lt c⟩ 2 (dev36_eq c) (.agS 2 2) (.agR 2 2) (by decide) (by decide) 35 (by decide) (paid_ag c 2 2) rfl
      (src := (agM2_2 c)) (dst := (agM2_2 c)) (agS_sem_eq 2 2 _) (agR_sem_eq 2 2 _) rfl fdn κs κr _
      (ptsLent_intro c (agM2_2 c) _) hp2) $$ [HjL Hdst HO Hts Htr]
  · isplitr; · iexact HIs
    isplitr; · iexact HIr
    isplitl [HjL]; · iexact HjL
    isplitl [Hdst]; · iexact Hdst
    isplitl [HO]; · iexact HO
    isplitl [Hts]; · iexact Hts
    isplitr; · iexact Hrs
    isplitl [Htr]; · iexact Htr
    iexact Hrr
  iintro ⟨Hcs, HO⟩
  sl_step
  isplitr; · ipureintro; rfl
  iexists f2
  isplitr; · ipureintro; exact hf2
  isplitl [HO]; · iexact HO
  isplitl [Hats1]; · iexact Hats1
  isplitl [Hatr1]; · iexact Hatr1
  isplitl [Hco]; · iexact Hco
  isplitl [Hcs]; · iexact Hcs
  iexact HjR

end Cert.KernelIdeal.Proto

end
-- ==== Proof.Body51.lean ====
/-
A stretch of a device's kernel body, in the all-gather phase. The 512 rows of column group 2 that arrived in its
first round are read from the kept right half share, widened to f32 into their block of the accumulator, and the
block is copied to the result array. Then column group 3's first-round transfer is waited for: the lent half share
of the own rows comes back and the neighbour's 512 rows across axis 1 arrive.
-/
import proofs.«900882_g7700000000000883_dist_matmul_gelu_kshard_i_m2048_n2048_k1024_v7x_i8_f32_1_alg».proof.Proof.Rules
import proofs.«900882_g7700000000000883_dist_matmul_gelu_kshard_i_m2048_n2048_k1024_v7x_i8_f32_1_alg».proof.Proof.TopoTab
import proofs.«900882_g7700000000000883_dist_matmul_gelu_kshard_i_m2048_n2048_k1024_v7x_i8_f32_1_alg».proof.Proof.PiecesTab
import proofs.«900882_g7700000000000883_dist_matmul_gelu_kshard_i_m2048_n2048_k1024_v7x_i8_f32_1_alg».proof.Proof.PiecesOutSep
import proofs.«900882_g7700000000000883_dist_matmul_gelu_kshard_i_m2048_n2048_k1024_v7x_i8_f32_1_alg».proof.Proof.PiecesOutTab
import proofs.«900882_g7700000000000883_dist_matmul_gelu_kshard_i_m2048_n2048_k1024_v7x_i8_f32_1_alg».proof.Proof.Gen.KernelIdeal.Skeleton
import Idealize.ShloMosaic.Lib.Pipeline.Value

set_option maxRecDepth 16384

noncomputable section

namespace Cert.KernelIdeal.Proto

open Cert.KernelIdeal Cert.KernelIdeal.Gen Cert.KernelIdeal.Topo
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : Vals F)

set_option maxHeartbeats 4000000 in
theorem part51_run (c : Dev nD) (κo κs1 κr1 : ℕ) (W : Waits sig Unit) (v2 v9 v1361 v1383 v1568 : BitVec 32)
    (g2 : Buf (Elt F) ((Memref.whole cc0_scratch15 : Memref sig .tc .vmem S2048x384 .bf16).view.loc (c : Thread nD τ)))
    (f14 : Buf (Elt F) ((outSrcM14 c).view.loc (c : Thread nD τ))) (fd : Buf (Elt F) ((outDstM14 c).view.loc (c : Thread nD τ)))
    (hVout : V.out14 c ((outSrcM14 c).view.read (Elt F) (((Memref.whole cc0_scratch0 : Memref sig .tc .vmem S2048x2048 .f32).access (Rect.unit (s := S2048x2048) (k0_off110 c) S512x384.size (k0_off110_inb c))).write (Elt F) f14 (k0_pay97 (View.readAt (Elt F) (Memref.whole cc0_scratch15 : Memref sig .tc .vmem S2048x384 .bf16).view (Rect.unit (s := S2048x384) (k0_off109 c) S512x384.size (k0_off109_inb c)).toLoadRect g2)) Finset.univ))) :
    iprop(cellInv ER (sched V) κo (cell c (.out 14)) ∗ cellInv ER (sched V) κs1 (cell c (.agS 3 1)) ∗ cellInv ER (sched V) κr1 (cell c (.agR 3 1))
        ∗ reached ER (cell c (.out 14)) 0 ∗ dutyTok ER (cell c (.out 14)) 0 (0 : Fin 3)
        ∗ cred (tallyAt (cell c (.agS 3 1)) () (amt (.agR 3 1))) ∗ atPos ER (cell c (.agS 3 1)) 0 ∅ 0
        ∗ cred (tallyAt (cell c (.agR 3 1)) () (amt (.agR 3 1))) ∗ atPos ER (cell c (.agR 3 1)) 0 ∅ 0
        ∗ owes (c : Thread nD τ) (Owe c 36) W ∗ levAts L lv
        ∗ ((agM2_2 c).view.loc (c : Thread nD τ) ↦[(agM2_2 c).view.set]{fullShare.right} g2)
        ∗ heldW c (outSrcM14 c) f14 ∗ heldW c (outDstM14 c) fd)
      ⊢ wp frame (wpE (defs₀ (F := F)) 𝒱₀ c none) Set.univ
          (k0_part51 (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23 c v2 v9 v1361 v1383 v1568)
          (fun r => iprop(⌜r = ⟨Scalar.addi v1568 (Scalar.muli (Scalar.subi 1#32 v9) 1024#32), Scalar.xori v2 1#32⟩⌝
            ∗ ∃ f3 : Buf (Elt F) ((Memref.whole cc0_scratch16 : Memref sig .tc .vmem S2048x384 .bf16).view.loc (c : Thread nD τ)), ⌜V.ag3_1 (nbr 1 c) ((agM3_1 (nbr 1 c)).view.read (Elt F) f3)⌝
            ∗ owes (c : Thread nD τ) (Owe c 36) (insert ((CK.agR 3 1).sem, ()) (insert ((CK.agS 3 1).sem, ()) W))
            ∗ atPos ER (cell c (.agS 3 1)) 1 ∅ 0 ∗ atPos ER (cell c (.agR 3 1)) 1 ∅ 0
            ∗ cred (tallyAt (cell c (.out 14)) () (amt (.out 14)))
            ∗ ((agM2_2 c).view.loc (c : Thread nD τ) ↦[(agM2_2 c).view.set]{fullShare.right} g2)
            ∗ ptsLent (F := F) c (agM3_1 c)
            ∗ ((agM3_1 (nbr 1 c)).view.loc (c : Thread nD τ) ↦[(agM3_1 (nbr 1 c)).view.set]{fullShare} f3))) := by
  simp only [k0_part51_eq_skeleton]; unfold k0_part51_skel
  simp only [Prog.lift, Prog.bind_op, Prog.bind_ret, Prog.pure_eq_ret]
  iintro ⟨#HIo, #HIs1, #HIr1, #Hro, Hto, Hcs1, Hats1, Hcr1, Hatr1, HO, #Hlev, Hg2, H14, Hd⟩
  unfold heldW
  have hA : ((Memref.whole cc0_scratch15 : Memref sig .tc .vmem S2048x384 .bf16).access (Rect.unit (s := S2048x384) (k0_off109 c) ![512, 384] (k0_off109_inb c))).set ⊆ (agM2_2 c).view.set := by
    refine Finset.Subset.trans (le_of_eq (View.set_slice_whole _ _)) ?_
    piece_dev c unit_subset [off109_eq, off108_eq]
  have hB : ((Memref.whole cc0_scratch0 : Memref sig .tc .vmem S2048x2048 .f32).access (Rect.unit (s := S2048x2048) (k0_off110 c) ![512, 384] (k0_off110_inb c))).set ⊆ (outSrcM14 c).view.set :=
    le_of_eq ((View.set_slice_whole _ _).trans ((unit_set_congr ((off110_eq c).trans (off111_eq c).symm) rfl).trans (View.set_slice_whole _ _).symm))
  have hB' : ((Memref.whole cc0_scratch0 : Memref sig .tc .vmem S2048x2048 .f32).access (Rect.unit (s := S2048x2048) (k0_off110 c) ![512, 384] (k0_off110_inb c))).setOn Finset.univ ⊆ (outSrcM14 c).view.set := hB
  ihave Hg2 := (Entails.of_eq (show ((_ : sProp 𝕄)) = ((agM2_2 c).view.loc (c : Thread nD τ) ↦[(agM2_2 c).view.set]{fullShare.right} g2) from rfl)) $$ Hg2
  sl_exec
  have hpo14 : iprop(((outDstM14 c).view.loc (c : Thread nD τ) ↦[(outDstM14 c).view.set]{fullShare} ((outDstM14 c).view.write (Elt F) fd ((outSrcM14 c).view.read (Elt F)
        (((Memref.whole cc0_scratch0 : Memref sig .tc .vmem S2048x2048 .f32).access (Rect.unit (s := S2048x2048) (k0_off110 c) S512x384.size (k0_off110_inb c))).write (Elt F) f14 (k0_pay97 (View.readAt (Elt F) (Memref.whole cc0_scratch15 : Memref sig .tc .vmem S2048x384 .bf16).view (Rect.unit (s := S2048x384) (k0_off109 c) S512x384.size (k0_off109_inb c)).toLoadRect g2)) Finset.univ)) Finset.univ))
      ∗ ((outSrcM14 c).view.loc (c : Thread nD τ) ↦[(outSrcM14 c).view.set]{fullShare}
        (((Memref.whole cc0_scratch0 : Memref sig .tc .vmem S2048x2048 .f32).access (Rect.unit (s := S2048x2048) (k0_off110 c) S512x384.size (k0_off110_inb c))).write (Elt F) f14 (k0_pay97 (View.readAt (Elt F) (Memref.whole cc0_scratch15 : Memref sig .tc .vmem S2048x384 .bf16).view (Rect.unit (s := S2048x384) (k0_off109 c) S512x384.size (k0_off109_inb c)).toLoadRect g2)) Finset.univ)) : sProp 𝕄) ⊢ pay V c (.out 14) 0 := by
    show _ ⊢ iprop(ptsIs c (outDstM14 c) (V.out14 c) ∗ ptsAny (F := F) c (outSrcM14 c))
    exact BI.sep_mono (ptsIs_intro c (outDstM14 c) _ _ (by rw [View.read_write_univ]; exact hVout)) (ptsAny_intro c (outSrcM14 c) _)
  iapply (wp_copy_own V c (.out 14) (by decide) (src := outSrcM14 c) (dst := outDstM14 c) (out_sem_eq 14 _) rfl fd κo hpo14) $$ [H14 Hd Hto]
  · isplitr; · iexact HIo
    isplitl [H14]; · iexact H14
    isplitl [Hd]; · iexact Hd
    isplitl [Hto]; · iexact Hto
    iexact Hro
  iintro Hco
  iapply (wp_wait_xfer V c (.agS 3 1) (by decide) 36 (agS_sem_eq 3 1 _) (k' := ((agM3_1 c) : Memref sig .tc .vmem S512x384 .bf16).view.dmaCredit) rfl (wpE_waitDma2_eq 𝒱₀ (c : Thread nD τ) none Set.univ)
      (mayWait_own c (.agS 3 1) (lv_cell c (.agS 3 1)) 36) κs1 W) $$ [Hcs1 HO Hats1]
  · isplitr; · iexact HIs1
    isplitl [Hcs1]; · iexact Hcs1
    isplitl [HO]; · iexact HO
    isplitr; · iexact Hlev
    iexact Hats1
  iintro ⟨HO, Hats1, HqS⟩
  iapply (wp_wait_xfer V c (.agR 3 1) (by decide) 36 (agR_sem_eq 3 1 _) (k' := ((agM3_1 c) : Memref sig .tc .vmem S512x384 .bf16).view.dmaCredit) rfl (wpE_waitDma2_eq 𝒱₀ (c : Thread nD τ) none Set.univ)
      (mayWait_agR c 3 1 36 (by decide)) κr1 (insert ((CK.agS 3 1).sem, ()) W)) $$ [Hcr1 HO Hatr1]
  · isplitr; · iexact HIr1
    isplitl [Hcr1]; · iexact Hcr1
    isplitl [HO]; · iexact HO
    isplitr; · iexact Hlev
    iexact Hatr1
  iintro ⟨HO, Hatr1, HqR⟩
  ihave Hlent := (Entails.of_eq (show pay V c (.agS 3 1) 0 = ptsLent (F := F) c (agM3_1 c) from rfl)) $$ HqS
  ihave Hp := (Entails.of_eq (show pay V c (.agR 3 1) 0 = ptsIs c (agM3_1 (nbr 1 c)) (V.ag3_1 (nbr 1 c)) from rfl)) $$ HqR
  unfold ptsIs
  icases Hp with ⟨%f3, Hf3, %hf3⟩
  sl_step
  isplitr; · ipureintro; rfl
  iexists f3
  isplitr; · ipureintro; exact hf3
  isplitl [HO]; · iexact HO
  isplitl [Hats1]; · iexact Hats1
  isplitl [Hatr1]; · iexact Hatr1
  isplitl [Hco]; · iexact Hco
  isplitl [Hg2]; · iexact Hg2
  isplitl [Hlent]; · iexact Hlent
  iexact Hf3

end Cert.KernelIdeal.Proto

end
-- ==== Proof.Body52.lean ====
/-
A stretch of a device's kernel body, in the all-gather phase. Column group 3's second round: the own 512 rows and
the arrived 512 rows are the 1024 rows sent across axis 0, the transfer borrowing their left half share; the arrived
rows are widened to f32 into their block of the accumulator and the block is copied to the result array. Then the
lent half share of column group 4's own rows comes back.
-/
import proofs.«900882_g7700000000000883_dist_matmul_gelu_kshard_i_m2048_n2048_k1024_v7x_i8_f32_1_alg».proof.Proof.Rules
import proofs.«900882_g7700000000000883_dist_matmul_gelu_kshard_i_m2048_n2048_k1024_v7x_i8_f32_1_alg».proof.Proof.TopoTab
import proofs.«900882_g7700000000000883_dist_matmul_gelu_kshard_i_m2048_n2048_k1024_v7x_i8_f32_1_alg».proof.Proof.PiecesTab
import proofs.«900882_g7700000000000883_dist_matmul_gelu_kshard_i_m2048_n2048_k1024_v7x_i8_f32_1_alg».proof.Proof.PiecesOutSep
import proofs.«900882_g7700000000000883_dist_matmul_gelu_kshard_i_m2048_n2048_k1024_v7x_i8_f32_1_alg».proof.Proof.PiecesOutTab
import proofs.«900882_g7700000000000883_dist_matmul_gelu_kshard_i_m2048_n2048_k1024_v7x_i8_f32_1_alg».proof.Proof.Gen.KernelIdeal.Skeleton
import Idealize.ShloMosaic.Lib.Pipeline.Value

set_option maxRecDepth 16384

noncomputable section

namespace Cert.KernelIdeal.Proto

open Cert.KernelIdeal Cert.KernelIdeal.Gen Cert.KernelIdeal.Topo
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : Vals F)

set_option maxHeartbeats 4000000 in
theorem part52_run (c : Dev nD) (κs κr κo κs1 : ℕ) (W : Waits sig Unit) (v6 v1393 v1396 v1418 : BitVec 32)
    (g1 f3 : Buf (Elt F) ((Memref.whole cc0_scratch16 : Memref sig .tc .vmem S2048x384 .bf16).view.loc (c : Thread nD τ)))
    (f15 : Buf (Elt F) ((outSrcM15 c).view.loc (c : Thread nD τ))) (fd : Buf (Elt F) ((outDstM15 c).view.loc (c : Thread nD τ)))
    (hVag : V.ag3_2 c ((agM3_2 c).view.read (Elt F) (((agM3_1 (nbr 1 c)).view.set : Finset (Idx ((Memref.whole cc0_scratch16 : Memref sig .tc .vmem S2048x384 .bf16).view.loc (c : Thread nD τ)))).piecewise f3 g1)))
    (hVout : V.out15 c ((outSrcM15 c).view.read (Elt F) (((Memref.whole cc0_scratch0 : Memref sig .tc .vmem S2048x2048 .f32).access (Rect.unit (s := S2048x2048) (k0_off112 c) S512x384.size (k0_off112_inb c))).write (Elt F) f15 (k0_pay98 (View.readAt (Elt F) (Memref.whole cc0_scratch16 : Memref sig .tc .vmem S2048x384 .bf16).view (Rect.unit (s := S2048x384) (k0_off101 c) S512x384.size (k0_off101_inb c)).toLoadRect (((agM3_1 (nbr 1 c)).view.set : Finset (Idx ((Memref.whole cc0_scratch16 : Memref sig .tc .vmem S2048x384 .bf16).view.loc (c : Thread nD τ)))).piecewise f3 g1))) Finset.univ))) :
    iprop(cellInv ER (sched V) κs (cell c (.agS 3 2)) ∗ cellInv ER (sched V) κr (cell (nbr 0 c) (.agR 3 2))
        ∗ cellInv ER (sched V) κo (cell c (.out 15)) ∗ cellInv ER (sched V) κs1 (cell c (.agS 4 1))
        ∗ reached ER (cell c (.agS 3 2)) 0 ∗ reached ER (cell (nbr 0 c) (.agR 3 2)) 0 ∗ reached ER (cell c (.out 15)) 0
        ∗ dutyTok ER (cell c (.agS 3 2)) 0 (0 : Fin 3) ∗ dutyTok ER (cell (nbr 0 c) (.agR 3 2)) 0 (0 : Fin 3) ∗ dutyTok ER (cell c (.out 15)) 0 (0 : Fin 3)
        ∗ cred (tallyAt (cell c (.agS 4 1)) () (amt (.agR 4 1))) ∗ atPos ER (cell c (.agS 4 1)) 0 ∅ 0
        ∗ owes (c : Thread nD τ) (Owe c 36) W ∗ levAts L lv
        ∗ ptsAny (F := F) (nbr 0 c) (agM3_2 c)
        ∗ ptsLent (F := F) c (agM3_1 c) ∗ ((agM3_1 c).view.loc (c : Thread nD τ) ↦[(agM3_1 c).view.set]{fullShare.right} g1)
        ∗ ((agM3_1 (nbr 1 c)).view.loc (c : Thread nD τ) ↦[(agM3_1 (nbr 1 c)).view.set]{fullShare} f3)
        ∗ heldW c (outSrcM15 c) f15 ∗ heldW c (outDstM15 c) fd)
      ⊢ wp frame (wpE (defs₀ (F := F)) 𝒱₀ c none) Set.univ
          (k0_part52 (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23 c v6 v1393 v1396 v1418)
          (fun r => iprop(⌜r = Scalar.addi (Scalar.subi v1393 (Scalar.muli v6 1024#32)) (Scalar.muli (Scalar.subi 1#32 v6) 1024#32)⌝
            ∗ owes (c : Thread nD τ) (Owe c 37) (insert ((CK.agS 4 1).sem, ()) W) ∗ atPos ER (cell c (.agS 4 1)) 1 ∅ 0
            ∗ cred (tallyAt (cell c (.agS 3 2)) () (amt (.agR 3 2))) ∗ cred (tallyAt (cell c (.out 15)) () (amt (.out 15)))
            ∗ ((agM3_2 c).view.loc (c : Thread nD τ) ↦[(agM3_2 c).view.set]{fullShare.right} (((agM3_1 (nbr 1 c)).view.set : Finset (Idx ((Memref.whole cc0_scratch16 : Memref sig .tc .vmem S2048x384 .bf16).view.loc (c : Thread nD τ)))).piecewise f3 g1))
            ∗ ptsLent (F := F) c (agM4_1 c))) := by
  simp only [k0_part52_eq_skeleton]; unfold k0_part52_skel
  simp only [Prog.lift, Prog.bind_op, Prog.bind_ret, Prog.pure_eq_ret]
  iintro ⟨#HIs, #HIr, #HIo, #HIs1, #Hrs, #Hrr, #Hro, Hts, Htr, Hto, Hcs1, Hats1, HO, #Hlev, Hdst, Hlent, Hown, Hf3, H15, Hd⟩
  unfold heldW
  unfold ptsLent ptsAny
  icases Hlent with ⟨%g1', Hlent⟩
  icases Hdst with ⟨%fdn, Hdst⟩
  -- the kept right half and the lent left half of the own rows agree, so they make the full share again
  ihave Hag := (persistent_entails_right (pointsTo_agree (ℓ := ((Memref.whole cc0_scratch16 : Memref sig .tc .vmem S2048x384 .bf16).view.loc (c : Thread nD τ))) (I := (agM3_1 c).view.set) (J := (agM3_1 c).view.set) (q₁ := fullShare.left) (q₂ := fullShare.right) (f := g1') (g := g1))) $$ [Hlent Hown]
  · isplitl [Hlent]; · iexact Hlent
    iexact Hown
  icases Hag with ⟨%hag, Hlent, Hown⟩
  ihave Hlent' := (Entails.of_eq (pointsTo_congr (ℓ := ((Memref.whole cc0_scratch16 : Memref sig .tc .vmem S2048x384 .bf16).view.loc (c : Thread nD τ))) (I := (agM3_1 c).view.set) (q := fullShare.left) (f := g1') (g := g1) fun i hi => (hag i (Finset.mem_inter.mpr ⟨hi, hi⟩)).1)) $$ Hlent
  ihave Hfull := (pointsTo_share (ℓ := ((Memref.whole cc0_scratch16 : Memref sig .tc .vmem S2048x384 .bf16).view.loc (c : Thread nD τ))) (I := (agM3_1 c).view.set) (f := g1) (PosShare.mem_left_op_right fullShare)).2 $$ [Hlent' Hown]
  · isplitl [Hlent']; · iexact Hlent'
    iexact Hown
  -- the own rows and the arrived rows are the rows of the next step
  ihave Hj := (pointsTo_join (ℓ := ((Memref.whole cc0_scratch16 : Memref sig .tc .vmem S2048x384 .bf16).view.loc (c : Thread nD τ))) (I := (agM3_1 c).view.set) (J := (agM3_1 (nbr 1 c)).view.set) (q := fullShare) (f := g1) (g := f3) (ag_disj1_3 c)) $$ [Hfull Hf3]
  · isplitl [Hfull]; · iexact Hfull
    iexact Hf3
  ihave Hj2 := (Entails.of_eq (pts_set_eq (F := F) (ℓ := ((Memref.whole cc0_scratch16 : Memref sig .tc .vmem S2048x384 .bf16).view.loc (c : Thread nD τ))) (S' := (agM3_2 c).view.set) (q := fullShare) (f := (((agM3_1 (nbr 1 c)).view.set : Finset (Idx ((Memref.whole cc0_scratch16 : Memref sig .tc .vmem S2048x384 .bf16).view.loc (c : Thread nD τ)))).piecewise f3 g1)) (ag_join1_3 c).symm)) $$ Hj
  ihave Hh := (pointsTo_share (ℓ := ((Memref.whole cc0_scratch16 : Memref sig .tc .vmem S2048x384 .bf16).view.loc (c : Thread nD τ))) (I := (agM3_2 c).view.set) (f := (((agM3_1 (nbr 1 c)).view.set : Finset (Idx ((Memref.whole cc0_scratch16 : Memref sig .tc .vmem S2048x384 .bf16).view.loc (c : Thread nD τ)))).piecewise f3 g1)) (PosShare.mem_left_op_right fullShare)).1 $$ Hj2
  icases Hh with ⟨HjL0, HjR0⟩
  ihave HjL := (Entails.of_eq (show ((((Memref.whole cc0_scratch16 : Memref sig .tc .vmem S2048x384 .bf16).view.loc (c : Thread nD τ)) ↦[(agM3_2 c).view.set]{fullShare.left} (((agM3_1 (nbr 1 c)).view.set : Finset (Idx ((Memref.whole cc0_scratch16 : Memref sig .tc .vmem S2048x384 .bf16).view.loc (c : Thread nD τ)))).piecewise f3 g1) : sProp 𝕄)) = ((agM3_2 c).view.loc (c : Thread nD τ) ↦[(agM3_2 c).view.set]{fullShare.left} (((agM3_1 (nbr 1 c)).view.set : Finset (Idx ((Memref.whole cc0_scratch16 : Memref sig .tc .vmem S2048x384 .bf16).view.loc (c : Thread nD τ)))).piecewise f3 g1)) from rfl)) $$ HjL0
  ihave HjR := (Entails.of_eq (show ((((Memref.whole cc0_scratch16 : Memref sig .tc .vmem S2048x384 .bf16).view.loc (c : Thread nD τ)) ↦[(agM3_2 c).view.set]{fullShare.right} (((agM3_1 (nbr 1 c)).view.set : Finset (Idx ((Memref.whole cc0_scratch16 : Memref sig .tc .vmem S2048x384 .bf16).view.loc (c : Thread nD τ)))).piecewise f3 g1) : sProp 𝕄)) = ((agM3_2 c).view.loc (c : Thread nD τ) ↦[(agM3_2 c).view.set]{fullShare.right} (((agM3_1 (nbr 1 c)).view.set : Finset (Idx ((Memref.whole cc0_scratch16 : Memref sig .tc .vmem S2048x384 .bf16).view.loc (c : Thread nD τ)))).piecewise f3 g1)) from rfl)) $$ HjR0
  have hp2 : ((agM3_2 c).view.loc (nbr 0 c : Thread nD τ) ↦[(agM3_2 c).view.set]{fullShare}
      ((agM3_2 c).view.write (Elt F) fdn ((agM3_2 c).view.read (Elt F) (((agM3_1 (nbr 1 c)).view.set : Finset (Idx ((Memref.whole cc0_scratch16 : Memref sig .tc .vmem S2048x384 .bf16).view.loc (c : Thread nD τ)))).piecewise f3 g1)) Finset.univ) : sProp 𝕄)
      ⊢ pay V (nbr 0 c) (.agR 3 2) 0 := by
    have e : pay V (nbr 0 c) (.agR 3 2) 0 = ptsIs (nbr 0 c) (agM3_2 c) (V.ag3_2 c) := by
      show ptsIs (nbr 0 c) (agM3_2 (nbr 0 (nbr 0 c))) (V.ag3_2 (nbr 0 (nbr 0 c))) = _
      rw [nbr_nbr]
    rw [e]
    exact ptsIs_intro (nbr 0 c) (agM3_2 c) _ _ (by rw [View.read_write_univ]; exact hVag)
  iapply (wp_send_to V c ⟨k0_dev37 c, k0_dev37_lt c⟩ 0 (dev37_eq c) (.agS 3 2) (.agR 3 2) (by decide) (by decide) 36 (by decide) (paid_ag c 3 2) rfl
      (src := (agM3_2 c)) (dst := (agM3_2 c)) (agS_sem_eq 3 2 _) (agR_sem_eq 3 2 _) rfl fdn κs κr _
      (ptsLent_intro c (agM3_2 c) _) hp2) $$ [HjL Hdst HO Hts Htr]
  · isplitr; · iexact HIs
    isplitr; · iexact HIr
    isplitl [HjL]; · iexact HjL
    isplitl [Hdst]; · iexact Hdst
    isplitl [HO]; · iexact HO
    isplitl [Hts]; · iexact Hts
    isplitr; · iexact Hrs
    isplitl [Htr]; · iexact Htr
    iexact Hrr
  iintro ⟨Hcs, HO⟩
  have hA : ((Memref.whole cc0_scratch16 : Memref sig .tc .vmem S2048x384 .bf16).access (Rect.unit (s := S2048x384) (k0_off101 c) ![512, 384] (k0_off101_inb c))).set ⊆ (agM3_2 c).view.set := by
    refine Finset.Subset.trans (le_of_eq (View.set_slice_whole _ _)) ?_
    piece_dev c unit_subset [off101_eq, off100_eq]
  have hB : ((Memref.whole cc0_scratch0 : Memref sig .tc .vmem S2048x2048 .f32).access (Rect.unit (s := S2048x2048) (k0_off112 c) ![512, 384] (k0_off112_inb c))).set ⊆ (outSrcM15 c).view.set :=
    le_of_eq ((View.set_slice_whole _ _).trans ((unit_set_congr ((off112_eq c).trans (off113_eq c).symm) rfl).trans (View.set_slice_whole _ _).symm))
  have hB' : ((Memref.whole cc0_scratch0 : Memref sig .tc .vmem S2048x2048 .f32).access (Rect.unit (s := S2048x2048) (k0_off112 c) ![512, 384] (k0_off112_inb c))).setOn Finset.univ ⊆ (outSrcM15 c).view.set := hB
  sl_exec
  have hpo15 : iprop(((outDstM15 c).view.loc (c : Thread nD τ) ↦[(outDstM15 c).view.set]{fullShare} ((outDstM15 c).view.write (Elt F) fd ((outSrcM15 c).view.read (Elt F)
        (((Memref.whole cc0_scratch0 : Memref sig .tc .vmem S2048x2048 .f32).access (Rect.unit (s := S2048x2048) (k0_off112 c) S512x384.size (k0_off112_inb c))).write (Elt F) f15 (k0_pay98 (View.readAt (Elt F) (Memref.whole cc0_scratch16 : Memref sig .tc .vmem S2048x384 .bf16).view (Rect.unit (s := S2048x384) (k0_off101 c) S512x384.size (k0_off101_inb c)).toLoadRect (((agM3_1 (nbr 1 c)).view.set : Finset (Idx ((Memref.whole cc0_scratch16 : Memref sig .tc .vmem S2048x384 .bf16).view.loc (c : Thread nD τ)))).piecewise f3 g1))) Finset.univ)) Finset.univ))
      ∗ ((outSrcM15 c).view.loc (c : Thread nD τ) ↦[(outSrcM15 c).view.set]{fullShare}
        (((Memref.whole cc0_scratch0 : Memref sig .tc .vmem S2048x2048 .f32).access (Rect.unit (s := S2048x2048) (k0_off112 c) S512x384.size (k0_off112_inb c))).write (Elt F) f15 (k0_pay98 (View.readAt (Elt F) (Memref.whole cc0_scratch16 : Memref sig .tc .vmem S2048x384 .bf16).view (Rect.unit (s := S2048x384) (k0_off101 c) S512x384.size (k0_off101_inb c)).toLoadRect (((agM3_1 (nbr 1 c)).view.set : Finset (Idx ((Memref.whole cc0_scratch16 : Memref sig .tc .vmem S2048x384 .bf16).view.loc (c : Thread nD τ)))).piecewise f3 g1))) Finset.univ)) : sProp 𝕄) ⊢ pay V c (.out 15) 0 := by
    show _ ⊢ iprop(ptsIs c (outDstM15 c) (V.out15 c) ∗ ptsAny (F := F) c (outSrcM15 c))
    exact BI.sep_mono (ptsIs_intro c (outDstM15 c) _ _ (by rw [View.read_write_univ]; exact hVout)) (ptsAny_intro c (outSrcM15 c) _)
  iapply (wp_copy_own V c (.out 15) (by decide) (src := outSrcM15 c) (dst := outDstM15 c) (out_sem_eq 15 _) rfl fd κo hpo15) $$ [H15 Hd Hto]
  · isplitr; · iexact HIo
    isplitl [H15]; · iexact H15
    isplitl [Hd]; · iexact Hd
    isplitl [Hto]; · iexact Hto
    iexact Hro
  iintro Hco
  iapply (wp_wait_xfer V c (.agS 4 1) (by decide) 37 (agS_sem_eq 4 1 _) (k' := ((agM4_1 c) : Memref sig .tc .vmem S512x256 .bf16).view.dmaCredit) rfl (wpE_waitDma2_eq 𝒱₀ (c : Thread nD τ) none Set.univ)
      (mayWait_own c (.agS 4 1) (lv_cell c (.agS 4 1)) 37) κs1 W) $$ [Hcs1 HO Hats1]
  · isplitr; · iexact HIs1
    isplitl [Hcs1]; · iexact Hcs1
    isplitl [HO]; · iexact HO
    isplitr; · iexact Hlev
    iexact Hats1
  iintro ⟨HO, Hats1, HqS⟩
  ihave Hlent4 := (Entails.of_eq (show pay V c (.agS 4 1) 0 = (iprop(∃ f : Buf (Elt F) ((agM4_1 c).view.loc (c : Thread nD τ)), (agM4_1 c).view.loc (c : Thread nD τ) ↦[(agM4_1 c).view.set]{fullShare.left} f) : sProp 𝕄) from rfl)) $$ HqS
  sl_step
  isplitr; · ipureintro; rfl
  isplitl [HO]; · iexact HO
  isplitl [Hats1]; · iexact Hats1
  isplitl [Hcs]; · iexact Hcs
  isplitl [Hco]; · iexact Hco
  isplitl [HjR]; · iexact HjR
  iexact Hlent4

end Cert.KernelIdeal.Proto

end
-- ==== Proof.Body53.lean ====
/-
A stretch of a device's kernel body, in the all-gather phase. Column group 4's second round: the neighbour's 512
rows across axis 2 arrive, join the own rows into the 1024 rows sent across axis 1 (the transfer borrows their left
half share), are widened to f32 into their block of the accumulator, and the block is copied to the result array.
Then the lent half share of column group 5's own rows comes back.
-/
import proofs.«900882_g7700000000000883_dist_matmul_gelu_kshard_i_m2048_n2048_k1024_v7x_i8_f32_1_alg».proof.Proof.Rules
import proofs.«900882_g7700000000000883_dist_matmul_gelu_kshard_i_m2048_n2048_k1024_v7x_i8_f32_1_alg».proof.Proof.TopoTab
import proofs.«900882_g7700000000000883_dist_matmul_gelu_kshard_i_m2048_n2048_k1024_v7x_i8_f32_1_alg».proof.Proof.PiecesTab
import proofs.«900882_g7700000000000883_dist_matmul_gelu_kshard_i_m2048_n2048_k1024_v7x_i8_f32_1_alg».proof.Proof.PiecesOutSep
import proofs.«900882_g7700000000000883_dist_matmul_gelu_kshard_i_m2048_n2048_k1024_v7x_i8_f32_1_alg».proof.Proof.PiecesOutTab
import proofs.«900882_g7700000000000883_dist_matmul_gelu_kshard_i_m2048_n2048_k1024_v7x_i8_f32_1_alg».proof.Proof.Gen.KernelIdeal.Skeleton
import Idealize.ShloMosaic.Lib.Pipeline.Value

set_option maxRecDepth 16384

noncomputable section

namespace Cert.KernelIdeal.Proto

open Cert.KernelIdeal Cert.KernelIdeal.Gen Cert.KernelIdeal.Topo
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : Vals F)

set_option maxHeartbeats 4000000 in
theorem part53_run (c : Dev nD) (κr1 κs κr κo κs1 : ℕ) (W : Waits sig Unit) (v2 v8 v1428 v1431 : BitVec 32)
    (g1 : Buf (Elt F) ((Memref.whole cc0_scratch17 : Memref sig .tc .vmem S2048x256 .bf16).view.loc (c : Thread nD τ)))
    (f16 : Buf (Elt F) ((outSrcM16 c).view.loc (c : Thread nD τ))) (fd : Buf (Elt F) ((outDstM16 c).view.loc (c : Thread nD τ)))
    (hVag : ∀ f2 : Buf (Elt F) ((Memref.whole cc0_scratch17 : Memref sig .tc .vmem S2048x256 .bf16).view.loc (c : Thread nD τ)), V.ag4_1 (nbr 2 c) ((agM4_1 (nbr 2 c)).view.read (Elt F) f2) →
      V.ag4_2 c ((agM4_2 c).view.read (Elt F) (((agM4_1 (nbr 2 c)).view.set : Finset (Idx ((Memref.whole cc0_scratch17 : Memref sig .tc .vmem S2048x256 .bf16).view.loc (c : Thread nD τ)))).piecewise f2 g1)))
    (hVout : ∀ f2 : Buf (Elt F) ((Memref.whole cc0_scratch17 : Memref sig .tc .vmem S2048x256 .bf16).view.loc (c : Thread nD τ)), V.ag4_1 (nbr 2 c) ((agM4_1 (nbr 2 c)).view.read (Elt F) f2) →
      V.out16 c ((outSrcM16 c).view.read (Elt F) (((Memref.whole cc0_scratch0 : Memref sig .tc .vmem S2048x2048 .f32).access (Rect.unit (s := S2048x2048) (k0_off116 c) S512x256.size (k0_off116_inb c))).write (Elt F) f16 (k0_pay99 (View.readAt (Elt F) (Memref.whole cc0_scratch17 : Memref sig .tc .vmem S2048x256 .bf16).view (Rect.unit (s := S2048x256) (k0_off115 c) S512x256.size (k0_off115_inb c)).toLoadRect (((agM4_1 (nbr 2 c)).view.set : Finset (Idx ((Memref.whole cc0_scratch17 : Memref sig .tc .vmem S2048x256 .bf16).view.loc (c : Thread nD τ)))).piecewise f2 g1))) Finset.univ))) :
    iprop(cellInv ER (sched V) κr1 (cell c (.agR 4 1)) ∗ cellInv ER (sched V) κs (cell c (.agS 4 2)) ∗ cellInv ER (sched V) κr (cell (nbr 1 c) (.agR 4 2))
        ∗ cellInv ER (sched V) κo (cell c (.out 16)) ∗ cellInv ER (sched V) κs1 (cell c (.agS 5 1))
        ∗ reached ER (cell c (.agS 4 2)) 0 ∗ reached ER (cell (nbr 1 c) (.agR 4 2)) 0 ∗ reached ER (cell c (.out 16)) 0
        ∗ dutyTok ER (cell c (.agS 4 2)) 0 (0 : Fin 3) ∗ dutyTok ER (cell (nbr 1 c) (.agR 4 2)) 0 (0 : Fin 3) ∗ dutyTok ER (cell c (.out 16)) 0 (0 : Fin 3)
        ∗ cred (tallyAt (cell c (.agR 4 1)) () (amt (.agR 4 1))) ∗ atPos ER (cell c (.agR 4 1)) 0 ∅ 0
        ∗ cred (tallyAt (cell c (.agS 5 1)) () (amt (.agR 5 1))) ∗ atPos ER (cell c (.agS 5 1)) 0 ∅ 0
        ∗ owes (c : Thread nD τ) (Owe c 37) W ∗ levAts L lv
        ∗ ptsAny (F := F) (nbr 1 c) (agM4_2 c)
        ∗ ptsLent (F := F) c (agM4_1 c) ∗ ((agM4_1 c).view.loc (c : Thread nD τ) ↦[(agM4_1 c).view.set]{fullShare.right} g1)
        ∗ heldW c (outSrcM16 c) f16 ∗ heldW c (outDstM16 c) fd)
      ⊢ wp frame (wpE (defs₀ (F := F)) 𝒱₀ c none) Set.univ
          (k0_part53 (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23 c v2 v8 v1428 v1431)
          (fun r => iprop(⌜r = ⟨Scalar.xori v2 3#32, Scalar.addi (Scalar.subi v1428 (Scalar.muli v8 1024#32)) (Scalar.muli (Scalar.subi 1#32 v8) 1024#32)⟩⌝
            ∗ ∃ f2 : Buf (Elt F) ((Memref.whole cc0_scratch17 : Memref sig .tc .vmem S2048x256 .bf16).view.loc (c : Thread nD τ)), ⌜V.ag4_1 (nbr 2 c) ((agM4_1 (nbr 2 c)).view.read (Elt F) f2)⌝
            ∗ owes (c : Thread nD τ) (Owe c 38) (insert ((CK.agS 5 1).sem, ()) (insert ((CK.agR 4 1).sem, ()) W))
            ∗ atPos ER (cell c (.agR 4 1)) 1 ∅ 0 ∗ atPos ER (cell c (.agS 5 1)) 1 ∅ 0
            ∗ cred (tallyAt (cell c (.agS 4 2)) () (amt (.agR 4 2))) ∗ cred (tallyAt (cell c (.out 16)) () (amt (.out 16)))
            ∗ ((agM4_2 c).view.loc (c : Thread nD τ) ↦[(agM4_2 c).view.set]{fullShare.right} (((agM4_1 (nbr 2 c)).view.set : Finset (Idx ((Memref.whole cc0_scratch17 : Memref sig .tc .vmem S2048x256 .bf16).view.loc (c : Thread nD τ)))).piecewise f2 g1))
            ∗ ptsLent (F := F) c (agM5_1 c))) := by
  simp only [k0_part53_eq_skeleton]; unfold k0_part53_skel
  simp only [Prog.lift, Prog.bind_op, Prog.bind_ret, Prog.pure_eq_ret]
  iintro ⟨#HIr1, #HIs, #HIr, #HIo, #HIs1, #Hrs, #Hrr, #Hro, Hts, Htr, Hto, Hcr1, Hatr1, Hcs1, Hats1, HO, #Hlev, Hdst, Hlent, Hown, H16, Hd⟩
  unfold heldW
  iapply (wp_wait_xfer V c (.agR 4 1) (by decide) 37 (agR_sem_eq 4 1 _) (k' := ((agM4_1 c) : Memref sig .tc .vmem S512x256 .bf16).view.dmaCredit) rfl (wpE_waitDma2_eq 𝒱₀ (c : Thread nD τ) none Set.univ)
      (mayWait_agR c 4 1 37 (by decide)) κr1 W) $$ [Hcr1 HO Hatr1]
  · isplitr; · iexact HIr1
    isplitl [Hcr1]; · iexact Hcr1
    isplitl [HO]; · iexact HO
    isplitr; · iexact Hlev
    iexact Hatr1
  iintro ⟨HO, Hatr1, HqR⟩
  ihave Hp := (Entails.of_eq (show pay V c (.agR 4 1) 0 = ptsIs c (agM4_1 (nbr 2 c)) (V.ag4_1 (nbr 2 c)) from rfl)) $$ HqR
  unfold ptsIs ptsLent ptsAny
  icases Hp with ⟨%f2, Hf2, %hf2⟩
  icases Hlent with ⟨%g1', Hlent⟩
  icases Hdst with ⟨%fdn, Hdst⟩
  -- the kept right half and the lent left half of the own rows agree, so they make the full share again
  ihave Hag := (persistent_entails_right (pointsTo_agree (ℓ := ((Memref.whole cc0_scratch17 : Memref sig .tc .vmem S2048x256 .bf16).view.loc (c : Thread nD τ))) (I := (agM4_1 c).view.set) (J := (agM4_1 c).view.set) (q₁ := fullShare.left) (q₂ := fullShare.right) (f := g1') (g := g1))) $$ [Hlent Hown]
  · isplitl [Hlent]; · iexact Hlent
    iexact Hown
  icases Hag with ⟨%hag, Hlent, Hown⟩
  ihave Hlent' := (Entails.of_eq (pointsTo_congr (ℓ := ((Memref.whole cc0_scratch17 : Memref sig .tc .vmem S2048x256 .bf16).view.loc (c : Thread nD τ))) (I := (agM4_1 c).view.set) (q := fullShare.left) (f := g1') (g := g1) fun i hi => (hag i (Finset.mem_inter.mpr ⟨hi, hi⟩)).1)) $$ Hlent
  ihave Hfull := (pointsTo_share (ℓ := ((Memref.whole cc0_scratch17 : Memref sig .tc .vmem S2048x256 .bf16).view.loc (c : Thread nD τ))) (I := (agM4_1 c).view.set) (f := g1) (PosShare.mem_left_op_right fullShare)).2 $$ [Hlent' Hown]
  · isplitl [Hlent']; · iexact Hlent'
    iexact Hown
  -- the own rows and the arrived rows are the rows of the next step
  ihave Hj := (pointsTo_join (ℓ := ((Memref.whole cc0_scratch17 : Memref sig .tc .vmem S2048x256 .bf16).view.loc (c : Thread nD τ))) (I := (agM4_1 c).view.set) (J := (agM4_1 (nbr 2 c)).view.set) (q := fullShare) (f := g1) (g := f2) (ag_disj1_4 c)) $$ [Hfull Hf2]
  · isplitl [Hfull]; · iexact Hfull
    iexact Hf2
  ihave Hj2 := (Entails.of_eq (pts_set_eq (F := F) (ℓ := ((Memref.whole cc0_scratch17 : Memref sig .tc .vmem S2048x256 .bf16).view.loc (c : Thread nD τ))) (S' := (agM4_2 c).view.set) (q := fullShare) (f := (((agM4_1 (nbr 2 c)).view.set : Finset (Idx ((Memref.whole cc0_scratch17 : Memref sig .tc .vmem S2048x256 .bf16).view.loc (c : Thread nD τ)))).piecewise f2 g1)) (ag_join1_4 c).symm)) $$ Hj
  ihave Hh := (pointsTo_share (ℓ := ((Memref.whole cc0_scratch17 : Memref sig .tc .vmem S2048x256 .bf16).view.loc (c : Thread nD τ))) (I := (agM4_2 c).view.set) (f := (((agM4_1 (nbr 2 c)).view.set : Finset (Idx ((Memref.whole cc0_scratch17 : Memref sig .tc .vmem S2048x256 .bf16).view.loc (c : Thread nD τ)))).piecewise f2 g1)) (PosShare.mem_left_op_right fullShare)).1 $$ Hj2
  icases Hh with ⟨HjL0, HjR0⟩
  ihave HjL := (Entails.of_eq (show ((((Memref.whole cc0_scratch17 : Memref sig .tc .vmem S2048x256 .bf16).view.loc (c : Thread nD τ)) ↦[(agM4_2 c).view.set]{fullShare.left} (((agM4_1 (nbr 2 c)).view.set : Finset (Idx ((Memref.whole cc0_scratch17 : Memref sig .tc .vmem S2048x256 .bf16).view.loc (c : Thread nD τ)))).piecewise f2 g1) : sProp 𝕄)) = ((agM4_2 c).view.loc (c : Thread nD τ) ↦[(agM4_2 c).view.set]{fullShare.left} (((agM4_1 (nbr 2 c)).view.set : Finset (Idx ((Memref.whole cc0_scratch17 : Memref sig .tc .vmem S2048x256 .bf16).view.loc (c : Thread nD τ)))).piecewise f2 g1)) from rfl)) $$ HjL0
  ihave HjR := (Entails.of_eq (show ((((Memref.whole cc0_scratch17 : Memref sig .tc .vmem S2048x256 .bf16).view.loc (c : Thread nD τ)) ↦[(agM4_2 c).view.set]{fullShare.right} (((agM4_1 (nbr 2 c)).view.set : Finset (Idx ((Memref.whole cc0_scratch17 : Memref sig .tc .vmem S2048x256 .bf16).view.loc (c : Thread nD τ)))).piecewise f2 g1) : sProp 𝕄)) = ((agM4_2 c).view.loc (c : Thread nD τ) ↦[(agM4_2 c).view.set]{fullShare.right} (((agM4_1 (nbr 2 c)).view.set : Finset (Idx ((Memref.whole cc0_scratch17 : Memref sig .tc .vmem S2048x256 .bf16).view.loc (c : Thread nD τ)))).piecewise f2 g1)) from rfl)) $$ HjR0
  have hp2 : ((agM4_2 c).view.loc (nbr 1 c : Thread nD τ) ↦[(agM4_2 c).view.set]{fullShare}
      ((agM4_2 c).view.write (Elt F) fdn ((agM4_2 c).view.read (Elt F) (((agM4_1 (nbr 2 c)).view.set : Finset (Idx ((Memref.whole cc0_scratch17 : Memref sig .tc .vmem S2048x256 .bf16).view.loc (c : Thread nD τ)))).piecewise f2 g1)) Finset.univ) : sProp 𝕄)
      ⊢ pay V (nbr 1 c) (.agR 4 2) 0 := by
    have e : pay V (nbr 1 c) (.agR 4 2) 0 = ptsIs (nbr 1 c) (agM4_2 c) (V.ag4_2 c) := by
      show ptsIs (nbr 1 c) (agM4_2 (nbr 1 (nbr 1 c))) (V.ag4_2 (nbr 1 (nbr 1 c))) = _
      rw [nbr_nbr]
    rw [e]
    exact ptsIs_intro (nbr 1 c) (agM4_2 c) _ _ (by rw [View.read_write_univ]; exact hVag f2 hf2)
  iapply (wp_send_to V c ⟨k0_dev38 c, k0_dev38_lt c⟩ 1 (dev38_eq c) (.agS 4 2) (.agR 4 2) (by decide) (by decide) 37 (by decide) (paid_ag c 4 2) rfl
      (src := (agM4_2 c)) (dst := (agM4_2 c)) (agS_sem_eq 4 2 _) (agR_sem_eq 4 2 _) rfl fdn κs κr _
      (ptsLent_intro c (agM4_2 c) _) hp2) $$ [HjL Hdst HO Hts Htr]
  · isplitr; · iexact HIs
    isplitr; · iexact HIr
    isplitl [HjL]; · iexact HjL
    isplitl [Hdst]; · iexact Hdst
    isplitl [HO]; · iexact HO
    isplitl [Hts]; · iexact Hts
    isplitr; · iexact Hrs
    isplitl [Htr]; · iexact Htr
    iexact Hrr
  iintro ⟨Hcs, HO⟩
  have hA : ((Memref.whole cc0_scratch17 : Memref sig .tc .vmem S2048x256 .bf16).access (Rect.unit (s := S2048x256) (k0_off115 c) ![512, 256] (k0_off115_inb c))).set ⊆ (agM4_2 c).view.set := by
    refine Finset.Subset.trans (le_of_eq (View.set_slice_whole _ _)) ?_
    piece_dev c unit_subset [off115_eq, off114_eq]
  have hB : ((Memref.whole cc0_scratch0 : Memref sig .tc .vmem S2048x2048 .f32).access (Rect.unit (s := S2048x2048) (k0_off116 c) ![512, 256] (k0_off116_inb c))).set ⊆ (outSrcM16 c).view.set :=
    le_of_eq ((View.set_slice_whole _ _).trans ((unit_set_congr ((off116_eq c).trans (off117_eq c).symm) rfl).trans (View.set_slice_whole _ _).symm))
  have hB' : ((Memref.whole cc0_scratch0 : Memref sig .tc .vmem S2048x2048 .f32).access (Rect.unit (s := S2048x2048) (k0_off116 c) ![512, 256] (k0_off116_inb c))).setOn Finset.univ ⊆ (outSrcM16 c).view.set := hB
  sl_exec
  have hpo16 : iprop(((outDstM16 c).view.loc (c : Thread nD τ) ↦[(outDstM16 c).view.set]{fullShare} ((outDstM16 c).view.write (Elt F) fd ((outSrcM16 c).view.read (Elt F)
        (((Memref.whole cc0_scratch0 : Memref sig .tc .vmem S2048x2048 .f32).access (Rect.unit (s := S2048x2048) (k0_off116 c) S512x256.size (k0_off116_inb c))).write (Elt F) f16 (k0_pay99 (View.readAt (Elt F) (Memref.whole cc0_scratch17 : Memref sig .tc .vmem S2048x256 .bf16).view (Rect.unit (s := S2048x256) (k0_off115 c) S512x256.size (k0_off115_inb c)).toLoadRect (((agM4_1 (nbr 2 c)).view.set : Finset (Idx ((Memref.whole cc0_scratch17 : Memref sig .tc .vmem S2048x256 .bf16).view.loc (c : Thread nD τ)))).piecewise f2 g1))) Finset.univ)) Finset.univ))
      ∗ ((outSrcM16 c).view.loc (c : Thread nD τ) ↦[(outSrcM16 c).view.set]{fullShare}
        (((Memref.whole cc0_scratch0 : Memref sig .tc .vmem S2048x2048 .f32).access (Rect.unit (s := S2048x2048) (k0_off116 c) S512x256.size (k0_off116_inb c))).write (Elt F) f16 (k0_pay99 (View.readAt (Elt F) (Memref.whole cc0_scratch17 : Memref sig .tc .vmem S2048x256 .bf16).view (Rect.unit (s := S2048x256) (k0_off115 c) S512x256.size (k0_off115_inb c)).toLoadRect (((agM4_1 (nbr 2 c)).view.set : Finset (Idx ((Memref.whole cc0_scratch17 : Memref sig .tc .vmem S2048x256 .bf16).view.loc (c : Thread nD τ)))).piecewise f2 g1))) Finset.univ)) : sProp 𝕄) ⊢ pay V c (.out 16) 0 := by
    show _ ⊢ iprop(ptsIs c (outDstM16 c) (V.out16 c) ∗ ptsAny (F := F) c (outSrcM16 c))
    exact BI.sep_mono (ptsIs_intro c (outDstM16 c) _ _ (by rw [View.read_write_univ]; exact hVout f2 hf2)) (ptsAny_intro c (outSrcM16 c) _)
  iapply (wp_copy_own V c (.out 16) (by decide) (src := outSrcM16 c) (dst := outDstM16 c) (out_sem_eq 16 _) rfl fd κo hpo16) $$ [H16 Hd Hto]
  · isplitr; · iexact HIo
    isplitl [H16]; · iexact H16
    isplitl [Hd]; · iexact Hd
    isplitl [Hto]; · iexact Hto
    iexact Hro
  iintro Hco
  iapply (wp_wait_xfer V c (.agS 5 1) (by decide) 38 (agS_sem_eq 5 1 _) (k' := ((agM5_1 c) : Memref sig .tc .vmem S512x256 .bf16).view.dmaCredit) rfl (wpE_waitDma2_eq 𝒱₀ (c : Thread nD τ) none Set.univ)
      (mayWait_own c (.agS 5 1) (lv_cell c (.agS 5 1)) 38) κs1 (insert ((CK.agR 4 1).sem, ()) W)) $$ [Hcs1 HO Hats1]
  · isplitr; · iexact HIs1
    isplitl [Hcs1]; · iexact Hcs1
    isplitl [HO]; · iexact HO
    isplitr; · iexact Hlev
    iexact Hats1
  iintro ⟨HO, Hats1, HqS⟩
  ihave Hlent5 := (Entails.of_eq (show pay V c (.agS 5 1) 0 = (iprop(∃ f : Buf (Elt F) ((agM5_1 c).view.loc (c : Thread nD τ)), (agM5_1 c).view.loc (c : Thread nD τ) ↦[(agM5_1 c).view.set]{fullShare.left} f) : sProp 𝕄) from rfl)) $$ HqS
  sl_step
  isplitr; · ipureintro; rfl
  iexists f2
  isplitr; · ipureintro; exact hf2
  isplitl [HO]; · iexact HO
  isplitl [Hatr1]; · iexact Hatr1
  isplitl [Hats1]; · iexact Hats1
  isplitl [Hcs]; · iexact Hcs
  isplitl [Hco]; · iexact Hco
  isplitl [HjR]; · iexact HjR
  iexact Hlent5

end Cert.KernelIdeal.Proto

end
-- ==== Proof.Body54.lean ====
/-
A stretch of a device's kernel body, in the all-gather phase. Column group 5's second round: the neighbour's 512
rows across axis 0 arrive, join the own rows into the 1024 rows sent across axis 2 (the transfer borrows their left
half share), are widened to f32 into their block of the accumulator, and the block is copied to the result array.
With this transfer the device has made all its payments.
-/
import proofs.«900882_g7700000000000883_dist_matmul_gelu_kshard_i_m2048_n2048_k1024_v7x_i8_f32_1_alg».proof.Proof.Rules
import proofs.«900882_g7700000000000883_dist_matmul_gelu_kshard_i_m2048_n2048_k1024_v7x_i8_f32_1_alg».proof.Proof.TopoTab
import proofs.«900882_g7700000000000883_dist_matmul_gelu_kshard_i_m2048_n2048_k1024_v7x_i8_f32_1_alg».proof.Proof.PiecesTab
import proofs.«900882_g7700000000000883_dist_matmul_gelu_kshard_i_m2048_n2048_k1024_v7x_i8_f32_1_alg».proof.Proof.PiecesOutSep
import proofs.«900882_g7700000000000883_dist_matmul_gelu_kshard_i_m2048_n2048_k1024_v7x_i8_f32_1_alg».proof.Proof.PiecesOutTab
import proofs.«900882_g7700000000000883_dist_matmul_gelu_kshard_i_m2048_n2048_k1024_v7x_i8_f32_1_alg».proof.Proof.Gen.KernelIdeal.Skeleton
import Idealize.ShloMosaic.Lib.Pipeline.Value

set_option maxRecDepth 16384

noncomputable section

namespace Cert.KernelIdeal.Proto

open Cert.KernelIdeal Cert.KernelIdeal.Gen Cert.KernelIdeal.Topo
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : Vals F)

set_option maxHeartbeats 4000000 in
theorem part54_run (c : Dev nD) (κr1 κs κr κo : ℕ) (W : Waits sig Unit) (v2 v9 v1453 v1463 v1466 : BitVec 32)
    (g1 : Buf (Elt F) ((Memref.whole cc0_scratch18 : Memref sig .tc .vmem S2048x256 .bf16).view.loc (c : Thread nD τ)))
    (f17 : Buf (Elt F) ((outSrcM17 c).view.loc (c : Thread nD τ))) (fd : Buf (Elt F) ((outDstM17 c).view.loc (c : Thread nD τ)))
    (hVag : ∀ f2 : Buf (Elt F) ((Memref.whole cc0_scratch18 : Memref sig .tc .vmem S2048x256 .bf16).view.loc (c : Thread nD τ)), V.ag5_1 (nbr 0 c) ((agM5_1 (nbr 0 c)).view.read (Elt F) f2) →
      V.ag5_2 c ((agM5_2 c).view.read (Elt F) (((agM5_1 (nbr 0 c)).view.set : Finset (Idx ((Memref.whole cc0_scratch18 : Memref sig .tc .vmem S2048x256 .bf16).view.loc (c : Thread nD τ)))).piecewise f2 g1)))
    (hVout : ∀ f2 : Buf (Elt F) ((Memref.whole cc0_scratch18 : Memref sig .tc .vmem S2048x256 .bf16).view.loc (c : Thread nD τ)), V.ag5_1 (nbr 0 c) ((agM5_1 (nbr 0 c)).view.read (Elt F) f2) →
      V.out17 c ((outSrcM17 c).view.read (Elt F) (((Memref.whole cc0_scratch0 : Memref sig .tc .vmem S2048x2048 .f32).access (Rect.unit (s := S2048x2048) (k0_off120 c) S512x256.size (k0_off120_inb c))).write (Elt F) f17 (k0_pay100 (View.readAt (Elt F) (Memref.whole cc0_scratch18 : Memref sig .tc .vmem S2048x256 .bf16).view (Rect.unit (s := S2048x256) (k0_off119 c) S512x256.size (k0_off119_inb c)).toLoadRect (((agM5_1 (nbr 0 c)).view.set : Finset (Idx ((Memref.whole cc0_scratch18 : Memref sig .tc .vmem S2048x256 .bf16).view.loc (c : Thread nD τ)))).piecewise f2 g1))) Finset.univ))) :
    iprop(cellInv ER (sched V) κr1 (cell c (.agR 5 1)) ∗ cellInv ER (sched V) κs (cell c (.agS 5 2)) ∗ cellInv ER (sched V) κr (cell (nbr 2 c) (.agR 5 2))
        ∗ cellInv ER (sched V) κo (cell c (.out 17))
        ∗ reached ER (cell c (.agS 5 2)) 0 ∗ reached ER (cell (nbr 2 c) (.agR 5 2)) 0 ∗ reached ER (cell c (.out 17)) 0
        ∗ dutyTok ER (cell c (.agS 5 2)) 0 (0 : Fin 3) ∗ dutyTok ER (cell (nbr 2 c) (.agR 5 2)) 0 (0 : Fin 3) ∗ dutyTok ER (cell c (.out 17)) 0 (0 : Fin 3)
        ∗ cred (tallyAt (cell c (.agR 5 1)) () (amt (.agR 5 1))) ∗ atPos ER (cell c (.agR 5 1)) 0 ∅ 0
        ∗ owes (c : Thread nD τ) (Owe c 38) W ∗ levAts L lv
        ∗ ptsAny (F := F) (nbr 2 c) (agM5_2 c)
        ∗ ptsLent (F := F) c (agM5_1 c) ∗ ((agM5_1 c).view.loc (c : Thread nD τ) ↦[(agM5_1 c).view.set]{fullShare.right} g1)
        ∗ heldW c (outSrcM17 c) f17 ∗ heldW c (outDstM17 c) fd)
      ⊢ wp frame (wpE (defs₀ (F := F)) 𝒱₀ c none) Set.univ
          (k0_part54 (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23 c v2 v9 v1453 v1463 v1466)
          (fun r => iprop(⌜r = ⟨Scalar.xori v2 4#32, Scalar.addi (Scalar.subi v1463 (Scalar.muli v9 1024#32)) (Scalar.muli (Scalar.subi 1#32 v9) 1024#32)⟩⌝
            ∗ ∃ f2 : Buf (Elt F) ((Memref.whole cc0_scratch18 : Memref sig .tc .vmem S2048x256 .bf16).view.loc (c : Thread nD τ)), ⌜V.ag5_1 (nbr 0 c) ((agM5_1 (nbr 0 c)).view.read (Elt F) f2)⌝
            ∗ owes (c : Thread nD τ) (Owe c 39) (insert ((CK.agR 5 1).sem, ()) W)
            ∗ atPos ER (cell c (.agR 5 1)) 1 ∅ 0
            ∗ cred (tallyAt (cell c (.agS 5 2)) () (amt (.agR 5 2))) ∗ cred (tallyAt (cell c (.out 17)) () (amt (.out 17)))
            ∗ ((agM5_2 c).view.loc (c : Thread nD τ) ↦[(agM5_2 c).view.set]{fullShare.right} (((agM5_1 (nbr 0 c)).view.set : Finset (Idx ((Memref.whole cc0_scratch18 : Memref sig .tc .vmem S2048x256 .bf16).view.loc (c : Thread nD τ)))).piecewise f2 g1)))) := by
  simp only [k0_part54_eq_skeleton]; unfold k0_part54_skel
  simp only [Prog.lift, Prog.bind_op, Prog.bind_ret, Prog.pure_eq_ret]
  iintro ⟨#HIr1, #HIs, #HIr, #HIo, #Hrs, #Hrr, #Hro, Hts, Htr, Hto, Hcr1, Hatr1, HO, #Hlev, Hdst, Hlent, Hown, H17, Hd⟩
  unfold heldW
  iapply (wp_wait_xfer V c (.agR 5 1) (by decide) 38 (agR_sem_eq 5 1 _) (k' := ((agM5_1 c) : Memref sig .tc .vmem S512x256 .bf16).view.dmaCredit) rfl (wpE_waitDma2_eq 𝒱₀ (c : Thread nD τ) none Set.univ)
      (mayWait_agR c 5 1 38 (by decide)) κr1 W) $$ [Hcr1 HO Hatr1]
  · isplitr; · iexact HIr1
    isplitl [Hcr1]; · iexact Hcr1
    isplitl [HO]; · iexact HO
    isplitr; · iexact Hlev
    iexact Hatr1
  iintro ⟨HO, Hatr1, HqR⟩
  ihave Hp := (Entails.of_eq (show pay V c (.agR 5 1) 0 = ptsIs c (agM5_1 (nbr 0 c)) (V.ag5_1 (nbr 0 c)) from rfl)) $$ HqR
  unfold ptsIs ptsLent ptsAny
  icases Hp with ⟨%f2, Hf2, %hf2⟩
  icases Hlent with ⟨%g1', Hlent⟩
  icases Hdst with ⟨%fdn, Hdst⟩
  -- the kept right half and the lent left half of the own rows agree, so they make the full share again
  ihave Hag := (persistent_entails_right (pointsTo_agree (ℓ := ((Memref.whole cc0_scratch18 : Memref sig .tc .vmem S2048x256 .bf16).view.loc (c : Thread nD τ))) (I := (agM5_1 c).view.set) (J := (agM5_1 c).view.set) (q₁ := fullShare.left) (q₂ := fullShare.right) (f := g1') (g := g1))) $$ [Hlent Hown]
  · isplitl [Hlent]; · iexact Hlent
    iexact Hown
  icases Hag with ⟨%hag, Hlent, Hown⟩
  ihave Hlent' := (Entails.of_eq (pointsTo_congr (ℓ := ((Memref.whole cc0_scratch18 : Memref sig .tc .vmem S2048x256 .bf16).view.loc (c : Thread nD τ))) (I := (agM5_1 c).view.set) (q := fullShare.left) (f := g1') (g := g1) fun i hi => (hag i (Finset.mem_inter.mpr ⟨hi, hi⟩)).1)) $$ Hlent
  ihave Hfull := (pointsTo_share (ℓ := ((Memref.whole cc0_scratch18 : Memref sig .tc .vmem S2048x256 .bf16).view.loc (c : Thread nD τ))) (I := (agM5_1 c).view.set) (f := g1) (PosShare.mem_left_op_right fullShare)).2 $$ [Hlent' Hown]
  · isplitl [Hlent']; · iexact Hlent'
    iexact Hown
  -- the own rows and the arrived rows are the rows of the next step
  ihave Hj := (pointsTo_join (ℓ := ((Memref.whole cc0_scratch18 : Memref sig .tc .vmem S2048x256 .bf16).view.loc (c : Thread nD τ))) (I := (agM5_1 c).view.set) (J := (agM5_1 (nbr 0 c)).view.set) (q := fullShare) (f := g1) (g := f2) (ag_disj1_5 c)) $$ [Hfull Hf2]
  · isplitl [Hfull]; · iexact Hfull
    iexact Hf2
  ihave Hj2 := (Entails.of_eq (pts_set_eq (F := F) (ℓ := ((Memref.whole cc0_scratch18 : Memref sig .tc .vmem S2048x256 .bf16).view.loc (c : Thread nD τ))) (S' := (agM5_2 c).view.set) (q := fullShare) (f := (((agM5_1 (nbr 0 c)).view.set : Finset (Idx ((Memref.whole cc0_scratch18 : Memref sig .tc .vmem S2048x256 .bf16).view.loc (c : Thread nD τ)))).piecewise f2 g1)) (ag_join1_5 c).symm)) $$ Hj
  ihave Hh := (pointsTo_share (ℓ := ((Memref.whole cc0_scratch18 : Memref sig .tc .vmem S2048x256 .bf16).view.loc (c : Thread nD τ))) (I := (agM5_2 c).view.set) (f := (((agM5_1 (nbr 0 c)).view.set : Finset (Idx ((Memref.whole cc0_scratch18 : Memref sig .tc .vmem S2048x256 .bf16).view.loc (c : Thread nD τ)))).piecewise f2 g1)) (PosShare.mem_left_op_right fullShare)).1 $$ Hj2
  icases Hh with ⟨HjL0, HjR0⟩
  ihave HjL := (Entails.of_eq (show ((((Memref.whole cc0_scratch18 : Memref sig .tc .vmem S2048x256 .bf16).view.loc (c : Thread nD τ)) ↦[(agM5_2 c).view.set]{fullShare.left} (((agM5_1 (nbr 0 c)).view.set : Finset (Idx ((Memref.whole cc0_scratch18 : Memref sig .tc .vmem S2048x256 .bf16).view.loc (c : Thread nD τ)))).piecewise f2 g1) : sProp 𝕄)) = ((agM5_2 c).view.loc (c : Thread nD τ) ↦[(agM5_2 c).view.set]{fullShare.left} (((agM5_1 (nbr 0 c)).view.set : Finset (Idx ((Memref.whole cc0_scratch18 : Memref sig .tc .vmem S2048x256 .bf16).view.loc (c : Thread nD τ)))).piecewise f2 g1)) from rfl)) $$ HjL0
  ihave HjR := (Entails.of_eq (show ((((Memref.whole cc0_scratch18 : Memref sig .tc .vmem S2048x256 .bf16).view.loc (c : Thread nD τ)) ↦[(agM5_2 c).view.set]{fullShare.right} (((agM5_1 (nbr 0 c)).view.set : Finset (Idx ((Memref.whole cc0_scratch18 : Memref sig .tc .vmem S2048x256 .bf16).view.loc (c : Thread nD τ)))).piecewise f2 g1) : sProp 𝕄)) = ((agM5_2 c).view.loc (c : Thread nD τ) ↦[(agM5_2 c).view.set]{fullShare.right} (((agM5_1 (nbr 0 c)).view.set : Finset (Idx ((Memref.whole cc0_scratch18 : Memref sig .tc .vmem S2048x256 .bf16).view.loc (c : Thread nD τ)))).piecewise f2 g1)) from rfl)) $$ HjR0
  have hp2 : ((agM5_2 c).view.loc (nbr 2 c : Thread nD τ) ↦[(agM5_2 c).view.set]{fullShare}
      ((agM5_2 c).view.write (Elt F) fdn ((agM5_2 c).view.read (Elt F) (((agM5_1 (nbr 0 c)).view.set : Finset (Idx ((Memref.whole cc0_scratch18 : Memref sig .tc .vmem S2048x256 .bf16).view.loc (c : Thread nD τ)))).piecewise f2 g1)) Finset.univ) : sProp 𝕄)
      ⊢ pay V (nbr 2 c) (.agR 5 2) 0 := by
    have e : pay V (nbr 2 c) (.agR 5 2) 0 = ptsIs (nbr 2 c) (agM5_2 c) (V.ag5_2 c) := by
      show ptsIs (nbr 2 c) (agM5_2 (nbr 2 (nbr 2 c))) (V.ag5_2 (nbr 2 (nbr 2 c))) = _
      rw [nbr_nbr]
    rw [e]
    exact ptsIs_intro (nbr 2 c) (agM5_2 c) _ _ (by rw [View.read_write_univ]; exact hVag f2 hf2)
  iapply (wp_send_to V c ⟨k0_dev39 c, k0_dev39_lt c⟩ 2 (dev39_eq c) (.agS 5 2) (.agR 5 2) (by decide) (by decide) 38 (by decide) (paid_ag c 5 2) rfl
      (src := (agM5_2 c)) (dst := (agM5_2 c)) (agS_sem_eq 5 2 _) (agR_sem_eq 5 2 _) rfl fdn κs κr _
      (ptsLent_intro c (agM5_2 c) _) hp2) $$ [HjL Hdst HO Hts Htr]
  · isplitr; · iexact HIs
    isplitr; · iexact HIr
    isplitl [HjL]; · iexact HjL
    isplitl [Hdst]; · iexact Hdst
    isplitl [HO]; · iexact HO
    isplitl [Hts]; · iexact Hts
    isplitr; · iexact Hrs
    isplitl [Htr]; · iexact Htr
    iexact Hrr
  iintro ⟨Hcs, HO⟩
  have hA : ((Memref.whole cc0_scratch18 : Memref sig .tc .vmem S2048x256 .bf16).access (Rect.unit (s := S2048x256) (k0_off119 c) ![512, 256] (k0_off119_inb c))).set ⊆ (agM5_2 c).view.set := by
    refine Finset.Subset.trans (le_of_eq (View.set_slice_whole _ _)) ?_
    piece_dev c unit_subset [off119_eq, off118_eq]
  have hB : ((Memref.whole cc0_scratch0 : Memref sig .tc .vmem S2048x2048 .f32).access (Rect.unit (s := S2048x2048) (k0_off120 c) ![512, 256] (k0_off120_inb c))).set ⊆ (outSrcM17 c).view.set :=
    le_of_eq ((View.set_slice_whole _ _).trans ((unit_set_congr ((off120_eq c).trans (off121_eq c).symm) rfl).trans (View.set_slice_whole _ _).symm))
  have hB' : ((Memref.whole cc0_scratch0 : Memref sig .tc .vmem S2048x2048 .f32).access (Rect.unit (s := S2048x2048) (k0_off120 c) ![512, 256] (k0_off120_inb c))).setOn Finset.univ ⊆ (outSrcM17 c).view.set := hB
  sl_exec
  have hpo17 : iprop(((outDstM17 c).view.loc (c : Thread nD τ) ↦[(outDstM17 c).view.set]{fullShare} ((outDstM17 c).view.write (Elt F) fd ((outSrcM17 c).view.read (Elt F)
        (((Memref.whole cc0_scratch0 : Memref sig .tc .vmem S2048x2048 .f32).access (Rect.unit (s := S2048x2048) (k0_off120 c) S512x256.size (k0_off120_inb c))).write (Elt F) f17 (k0_pay100 (View.readAt (Elt F) (Memref.whole cc0_scratch18 : Memref sig .tc .vmem S2048x256 .bf16).view (Rect.unit (s := S2048x256) (k0_off119 c) S512x256.size (k0_off119_inb c)).toLoadRect (((agM5_1 (nbr 0 c)).view.set : Finset (Idx ((Memref.whole cc0_scratch18 : Memref sig .tc .vmem S2048x256 .bf16).view.loc (c : Thread nD τ)))).piecewise f2 g1))) Finset.univ)) Finset.univ))
      ∗ ((outSrcM17 c).view.loc (c : Thread nD τ) ↦[(outSrcM17 c).view.set]{fullShare}
        (((Memref.whole cc0_scratch0 : Memref sig .tc .vmem S2048x2048 .f32).access (Rect.unit (s := S2048x2048) (k0_off120 c) S512x256.size (k0_off120_inb c))).write (Elt F) f17 (k0_pay100 (View.readAt (Elt F) (Memref.whole cc0_scratch18 : Memref sig .tc .vmem S2048x256 .bf16).view (Rect.unit (s := S2048x256) (k0_off119 c) S512x256.size (k0_off119_inb c)).toLoadRect (((agM5_1 (nbr 0 c)).view.set : Finset (Idx ((Memref.whole cc0_scratch18 : Memref sig .tc .vmem S2048x256 .bf16).view.loc (c : Thread nD τ)))).piecewise f2 g1))) Finset.univ)) : sProp 𝕄) ⊢ pay V c (.out 17) 0 := by
    show _ ⊢ iprop(ptsIs c (outDstM17 c) (V.out17 c) ∗ ptsAny (F := F) c (outSrcM17 c))
    exact BI.sep_mono (ptsIs_intro c (outDstM17 c) _ _ (by rw [View.read_write_univ]; exact hVout f2 hf2)) (ptsAny_intro c (outSrcM17 c) _)
  iapply (wp_copy_own V c (.out 17) (by decide) (src := outSrcM17 c) (dst := outDstM17 c) (out_sem_eq 17 _) rfl fd κo hpo17) $$ [H17 Hd Hto]
  · isplitr; · iexact HIo
    isplitl [H17]; · iexact H17
    isplitl [Hd]; · iexact Hd
    isplitl [Hto]; · iexact Hto
    iexact Hro
  iintro Hco
  sl_step
  isplitr; · ipureintro; rfl
  iexists f2
  isplitr; · ipureintro; exact hf2
  isplitl [HO]; · iexact HO
  isplitl [Hatr1]; · iexact Hatr1
  isplitl [Hcs]; · iexact Hcs
  isplitl [Hco]; · iexact Hco
  iexact HjR

end Cert.KernelIdeal.Proto

end
-- ==== Proof.Body55.lean ====
/-
A stretch of a device's kernel body, at the end of the all-gather phase. Column group 0's last round is waited
for: the lent half share of the 1024 rows sent comes back and the other 1024 rows arrive from the neighbour across
axis 0; they are widened to f32 into the last block of the accumulator's column group 0, which is copied to the
result array. Then the lent half share of column group 1's 1024 rows comes back.
-/
import proofs.«900882_g7700000000000883_dist_matmul_gelu_kshard_i_m2048_n2048_k1024_v7x_i8_f32_1_alg».proof.Proof.Rules
import proofs.«900882_g7700000000000883_dist_matmul_gelu_kshard_i_m2048_n2048_k1024_v7x_i8_f32_1_alg».proof.Proof.TopoTab
import proofs.«900882_g7700000000000883_dist_matmul_gelu_kshard_i_m2048_n2048_k1024_v7x_i8_f32_1_alg».proof.Proof.PiecesTab
import proofs.«900882_g7700000000000883_dist_matmul_gelu_kshard_i_m2048_n2048_k1024_v7x_i8_f32_1_alg».proof.Proof.PiecesOutSep
import proofs.«900882_g7700000000000883_dist_matmul_gelu_kshard_i_m2048_n2048_k1024_v7x_i8_f32_1_alg».proof.Proof.PiecesOutTab
import proofs.«900882_g7700000000000883_dist_matmul_gelu_kshard_i_m2048_n2048_k1024_v7x_i8_f32_1_alg».proof.Proof.Gen.KernelIdeal.Skeleton
import Idealize.ShloMosaic.Lib.Pipeline.Value

set_option maxRecDepth 16384

noncomputable section

namespace Cert.KernelIdeal.Proto

open Cert.KernelIdeal Cert.KernelIdeal.Gen Cert.KernelIdeal.Topo
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : Vals F)

set_option maxHeartbeats 4000000 in
theorem part55_run (c : Dev nD) (κs0 κr0 κo κs1 : ℕ) (W : Waits sig Unit) (v1488 v1501 : BitVec 32)
    (f18 : Buf (Elt F) ((outSrcM18 c).view.loc (c : Thread nD τ))) (fd : Buf (Elt F) ((outDstM18 c).view.loc (c : Thread nD τ)))
    (hVout : ∀ fa : Buf (Elt F) ((Memref.whole cc0_scratch13 : Memref sig .tc .vmem S2048x384 .bf16).view.loc (c : Thread nD τ)), V.ag0_2 (nbr 0 c) ((agM0_2 (nbr 0 c)).view.read (Elt F) fa) →
      V.out18 c ((outSrcM18 c).view.read (Elt F) (((Memref.whole cc0_scratch0 : Memref sig .tc .vmem S2048x2048 .f32).access (Rect.unit (s := S2048x2048) (k0_off123 c) S1024x384.size (k0_off123_inb c))).write (Elt F) f18 (k0_pay101 (View.readAt (Elt F) (Memref.whole cc0_scratch13 : Memref sig .tc .vmem S2048x384 .bf16).view (Rect.unit (s := S2048x384) (k0_off122 c) S1024x384.size (k0_off122_inb c)).toLoadRect fa)) Finset.univ))) :
    iprop(cellInv ER (sched V) κs0 (cell c (.agS 0 2)) ∗ cellInv ER (sched V) κr0 (cell c (.agR 0 2))
        ∗ cellInv ER (sched V) κo (cell c (.out 18)) ∗ cellInv ER (sched V) κs1 (cell c (.agS 1 2))
        ∗ reached ER (cell c (.out 18)) 0 ∗ dutyTok ER (cell c (.out 18)) 0 (0 : Fin 3)
        ∗ cred (tallyAt (cell c (.agS 0 2)) () (amt (.agR 0 2))) ∗ atPos ER (cell c (.agS 0 2)) 0 ∅ 0
        ∗ cred (tallyAt (cell c (.agR 0 2)) () (amt (.agR 0 2))) ∗ atPos ER (cell c (.agR 0 2)) 0 ∅ 0
        ∗ cred (tallyAt (cell c (.agS 1 2)) () (amt (.agR 1 2))) ∗ atPos ER (cell c (.agS 1 2)) 0 ∅ 0
        ∗ owes (c : Thread nD τ) (Owe c 39) W ∗ levAts L lv
        ∗ heldW c (outSrcM18 c) f18 ∗ heldW c (outDstM18 c) fd)
      ⊢ wp frame (wpE (defs₀ (F := F)) 𝒱₀ c none) Set.univ
          (k0_part55 (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23 c v1488 v1501)
          (fun r => iprop(⌜r = ⟨⟩⌝
            ∗ ∃ fa : Buf (Elt F) ((Memref.whole cc0_scratch13 : Memref sig .tc .vmem S2048x384 .bf16).view.loc (c : Thread nD τ)), ⌜V.ag0_2 (nbr 0 c) ((agM0_2 (nbr 0 c)).view.read (Elt F) fa)⌝
            ∗ owes (c : Thread nD τ) (Owe c 39) (insert ((CK.agS 1 2).sem, ()) (insert ((CK.agR 0 2).sem, ()) (insert ((CK.agS 0 2).sem, ()) W)))
            ∗ atPos ER (cell c (.agS 0 2)) 1 ∅ 0 ∗ atPos ER (cell c (.agR 0 2)) 1 ∅ 0 ∗ atPos ER (cell c (.agS 1 2)) 1 ∅ 0
            ∗ cred (tallyAt (cell c (.out 18)) () (amt (.out 18)))
            ∗ ptsLent (F := F) c (agM0_2 c)
            ∗ ((agM0_2 (nbr 0 c)).view.loc (c : Thread nD τ) ↦[(agM0_2 (nbr 0 c)).view.set]{fullShare} fa)
            ∗ ptsLent (F := F) c (agM1_2 c))) := by
  simp only [k0_part55_eq_skeleton]; unfold k0_part55_skel
  simp only [Prog.lift, Prog.bind_op, Prog.bind_ret, Prog.pure_eq_ret]
  iintro ⟨#HIs0, #HIr0, #HIo, #HIs1, #Hro, Hto, Hcs0, Hats0, Hcr0, Hatr0, Hcs1, Hats1, HO, #Hlev, H18, Hd⟩
  unfold heldW
  iapply (wp_wait_xfer V c (.agS 0 2) (by decide) 39 (agS_sem_eq 0 2 _) (k' := ((agM0_2 c) : Memref sig .tc .vmem S1024x384 .bf16).view.dmaCredit) rfl (wpE_waitDma2_eq 𝒱₀ (c : Thread nD τ) none Set.univ)
      (mayWait_own c (.agS 0 2) (lv_cell c (.agS 0 2)) 39) κs0 W) $$ [Hcs0 HO Hats0]
  · isplitr; · iexact HIs0
    isplitl [Hcs0]; · iexact Hcs0
    isplitl [HO]; · iexact HO
    isplitr; · iexact Hlev
    iexact Hats0
  iintro ⟨HO, Hats0, HqS⟩
  iapply (wp_wait_xfer V c (.agR 0 2) (by decide) 39 (agR_sem_eq 0 2 _) (k' := ((agM0_2 c) : Memref sig .tc .vmem S1024x384 .bf16).view.dmaCredit) rfl (wpE_waitDma2_eq 𝒱₀ (c : Thread nD τ) none Set.univ)
      (mayWait_agR c 0 2 39 (by decide)) κr0 (insert ((CK.agS 0 2).sem, ()) W)) $$ [Hcr0 HO Hatr0]
  · isplitr; · iexact HIr0
    isplitl [Hcr0]; · iexact Hcr0
    isplitl [HO]; · iexact HO
    isplitr; · iexact Hlev
    iexact Hatr0
  iintro ⟨HO, Hatr0, HqR⟩
  ihave Hp := (Entails.of_eq (show pay V c (.agR 0 2) 0 = ptsIs c (agM0_2 (nbr 0 c)) (V.ag0_2 (nbr 0 c)) from rfl)) $$ HqR
  unfold ptsIs ptsLent
  icases Hp with ⟨%fa, Hfa, %hfa⟩
  ihave Hlent0 := (Entails.of_eq (show pay V c (.agS 0 2) 0 = (iprop(∃ f : Buf (Elt F) ((agM0_2 c).view.loc (c : Thread nD τ)), (agM0_2 c).view.loc (c : Thread nD τ) ↦[(agM0_2 c).view.set]{fullShare.left} f) : sProp 𝕄) from rfl)) $$ HqS
  have hA : ((Memref.whole cc0_scratch13 : Memref sig .tc .vmem S2048x384 .bf16).access (Rect.unit (s := S2048x384) (k0_off122 c) ![1024, 384] (k0_off122_inb c))).set ⊆ (agM0_2 (nbr 0 c)).view.set := by
    refine Finset.Subset.trans (le_of_eq (View.set_slice_whole _ _)) ?_
    piece_dev c unit_subset [off122_eq, off100_eq]
  have hB : ((Memref.whole cc0_scratch0 : Memref sig .tc .vmem S2048x2048 .f32).access (Rect.unit (s := S2048x2048) (k0_off123 c) ![1024, 384] (k0_off123_inb c))).set ⊆ (outSrcM18 c).view.set :=
    le_of_eq ((View.set_slice_whole _ _).trans ((unit_set_congr ((off123_eq c).trans (off124_eq c).symm) rfl).trans (View.set_slice_whole _ _).symm))
  have hB' : ((Memref.whole cc0_scratch0 : Memref sig .tc .vmem S2048x2048 .f32).access (Rect.unit (s := S2048x2048) (k0_off123 c) ![1024, 384] (k0_off123_inb c))).setOn Finset.univ ⊆ (outSrcM18 c).view.set := hB
  sl_exec
  have hpo18 : iprop(((outDstM18 c).view.loc (c : Thread nD τ) ↦[(outDstM18 c).view.set]{fullShare} ((outDstM18 c).view.write (Elt F) fd ((outSrcM18 c).view.read (Elt F)
        (((Memref.whole cc0_scratch0 : Memref sig .tc .vmem S2048x2048 .f32).access (Rect.unit (s := S2048x2048) (k0_off123 c) S1024x384.size (k0_off123_inb c))).write (Elt F) f18 (k0_pay101 (View.readAt (Elt F) (Memref.whole cc0_scratch13 : Memref sig .tc .vmem S2048x384 .bf16).view (Rect.unit (s := S2048x384) (k0_off122 c) S1024x384.size (k0_off122_inb c)).toLoadRect fa)) Finset.univ)) Finset.univ))
      ∗ ((outSrcM18 c).view.loc (c : Thread nD τ) ↦[(outSrcM18 c).view.set]{fullShare}
        (((Memref.whole cc0_scratch0 : Memref sig .tc .vmem S2048x2048 .f32).access (Rect.unit (s := S2048x2048) (k0_off123 c) S1024x384.size (k0_off123_inb c))).write (Elt F) f18 (k0_pay101 (View.readAt (Elt F) (Memref.whole cc0_scratch13 : Memref sig .tc .vmem S2048x384 .bf16).view (Rect.unit (s := S2048x384) (k0_off122 c) S1024x384.size (k0_off122_inb c)).toLoadRect fa)) Finset.univ)) : sProp 𝕄) ⊢ pay V c (.out 18) 0 := by
    show _ ⊢ iprop(ptsIs c (outDstM18 c) (V.out18 c) ∗ ptsAny (F := F) c (outSrcM18 c))
    exact BI.sep_mono (ptsIs_intro c (outDstM18 c) _ _ (by rw [View.read_write_univ]; exact hVout fa hfa)) (ptsAny_intro c (outSrcM18 c) _)
  iapply (wp_copy_own V c (.out 18) (by decide) (src := outSrcM18 c) (dst := outDstM18 c) (out_sem_eq 18 _) rfl fd κo hpo18) $$ [H18 Hd Hto]
  · isplitr; · iexact HIo
    isplitl [H18]; · iexact H18
    isplitl [Hd]; · iexact Hd
    isplitl [Hto]; · iexact Hto
    iexact Hro
  iintro Hco
  iapply (wp_wait_xfer V c (.agS 1 2) (by decide) 39 (agS_sem_eq 1 2 _) (k' := ((agM1_2 c) : Memref sig .tc .vmem S1024x384 .bf16).view.dmaCredit) rfl (wpE_waitDma2_eq 𝒱₀ (c : Thread nD τ) none Set.univ)
      (mayWait_own c (.agS 1 2) (lv_cell c (.agS 1 2)) 39) κs1 (insert ((CK.agR 0 2).sem, ()) (insert ((CK.agS 0 2).sem, ()) W))) $$ [Hcs1 HO Hats1]
  · isplitr; · iexact HIs1
    isplitl [Hcs1]; · iexact Hcs1
    isplitl [HO]; · iexact HO
    isplitr; · iexact Hlev
    iexact Hats1
  iintro ⟨HO, Hats1, HqS1⟩
  ihave Hlent1 := (Entails.of_eq (show pay V c (.agS 1 2) 0 = (iprop(∃ f : Buf (Elt F) ((agM1_2 c).view.loc (c : Thread nD τ)), (agM1_2 c).view.loc (c : Thread nD τ) ↦[(agM1_2 c).view.set]{fullShare.left} f) : sProp 𝕄) from rfl)) $$ HqS1
  sl_step
  isplitr; · ipureintro; trivial
  iexists fa
  isplitr; · ipureintro; exact hfa
  isplitl [HO]; · iexact HO
  isplitl [Hats0]; · iexact Hats0
  isplitl [Hatr0]; · iexact Hatr0
  isplitl [Hats1]; · iexact Hats1
  isplitl [Hco]; · iexact Hco
  isplitl [Hlent0]; · iexact Hlent0
  isplitl [Hfa]; · iexact Hfa
  iexact Hlent1

end Cert.KernelIdeal.Proto

end
-- ==== Proof.Body56.lean ====
/-
Stretch 56 of a device's kernel body: the wait for group 1's last all-gather landing (1024 rows from the neighbour across
axis 1), their upcast into block 19 of the accumulator and the copy of that block to the result array; the two waits of
group 2's last all-gather exchange and the load of its landed rows.
-/
import proofs.«900882_g7700000000000883_dist_matmul_gelu_kshard_i_m2048_n2048_k1024_v7x_i8_f32_1_alg».proof.Proof.Rules
import proofs.«900882_g7700000000000883_dist_matmul_gelu_kshard_i_m2048_n2048_k1024_v7x_i8_f32_1_alg».proof.Proof.TopoTab
import proofs.«900882_g7700000000000883_dist_matmul_gelu_kshard_i_m2048_n2048_k1024_v7x_i8_f32_1_alg».proof.Proof.PiecesTab
import proofs.«900882_g7700000000000883_dist_matmul_gelu_kshard_i_m2048_n2048_k1024_v7x_i8_f32_1_alg».proof.Proof.Gen.KernelIdeal.Skeleton
import proofs.«900882_g7700000000000883_dist_matmul_gelu_kshard_i_m2048_n2048_k1024_v7x_i8_f32_1_alg».proof.Proof.TopoClosed
import proofs.«900882_g7700000000000883_dist_matmul_gelu_kshard_i_m2048_n2048_k1024_v7x_i8_f32_1_alg».proof.Proof.PiecesOutSep
import Idealize.ShloMosaic.Lib.Pipeline.Value

set_option maxRecDepth 16384

noncomputable section

namespace Cert.KernelIdeal.Proto

open Cert.KernelIdeal Cert.KernelIdeal.Gen Cert.KernelIdeal.Topo
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : Vals F)

set_option maxHeartbeats 4000000 in
theorem part56_run (c : Dev nD) (κa κo19 κb κd : ℕ) (W : Waits sig Unit) (v1523 v1536 v1558 v1571 : BitVec 32)
    (fb : Buf (Elt F) ((outSrcM19 c : Memref sig .tc .vmem S1024x384 .f32).view.loc (c : Thread nD τ)))
    (fo : Buf (Elt F) ((outDstM19 c : Memref sig .tc .hbm S1024x384 .f32).view.loc (c : Thread nD τ)))
    (hV : ∀ fl1 : Buf (Elt F) ((agM1_2 (nbr 1 c) : Memref sig .tc .vmem S1024x384 .bf16).view.loc (c : Thread nD τ)), V.ag1_2 (nbr 1 c) ((agM1_2 (nbr 1 c) : Memref sig .tc .vmem S1024x384 .bf16).view.read (Elt F) fl1) →
        V.out19 c ((outSrcM19 c : Memref sig .tc .vmem S1024x384 .f32).view.read (Elt F) (View.write (Elt F) ((Memref.whole cc0_scratch0 : Memref sig .tc .vmem S2048x2048 .f32).access (Rect.unit (s := S2048x2048) (k0_off126 c) ![1024, 384] (k0_off126_inb c))) fb (k0_pay102 (View.readAt (Elt F) (Memref.whole cc0_scratch14 : Memref sig .tc .vmem S2048x384 .bf16).view (Rect.unit (s := S2048x384) (k0_off125 c) ![1024, 384] (k0_off125_inb c)).toLoadRect fl1)) Finset.univ))) :
    iprop(owes (c : Thread nD τ) (Owe c 39) W ∗ levAts L lv
        ∗ cellInv ER (sched V) κa (cell c (.agR 1 2)) ∗ cred (tallyAt (cell c (.agR 1 2)) () (amt (.agR 1 2))) ∗ atPos ER (cell c (.agR 1 2)) 0 ∅ 0
        ∗ heldW c (outSrcM19 c : Memref sig .tc .vmem S1024x384 .f32) fb
        ∗ heldW c (outDstM19 c : Memref sig .tc .hbm S1024x384 .f32) fo
        ∗ cellInv ER (sched V) κo19 (cell c (.out 19)) ∗ dutyTok ER (cell c (.out 19)) 0 (0 : Fin 3) ∗ reached ER (cell c (.out 19)) 0
        ∗ cellInv ER (sched V) κb (cell c (.agS 2 2)) ∗ cred (tallyAt (cell c (.agS 2 2)) () (amt (.agS 2 2))) ∗ atPos ER (cell c (.agS 2 2)) 0 ∅ 0
        ∗ cellInv ER (sched V) κd (cell c (.agR 2 2)) ∗ cred (tallyAt (cell c (.agR 2 2)) () (amt (.agR 2 2))) ∗ atPos ER (cell c (.agR 2 2)) 0 ∅ 0)
      ⊢ wp frame (wpE (defs₀ (F := F)) 𝒱₀ c none) Set.univ
          (k0_part56 (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23 c v1523 v1536 v1558 v1571)
          (fun r => iprop(∃ (fl1 : Buf (Elt F) ((agM1_2 (nbr 1 c) : Memref sig .tc .vmem S1024x384 .bf16).view.loc (c : Thread nD τ))) (fl2 : Buf (Elt F) ((agM2_2 (nbr 2 c) : Memref sig .tc .vmem S1024x384 .bf16).view.loc (c : Thread nD τ))), ⌜r = (k0_pay103 (View.readAt (Elt F) (Memref.whole cc0_scratch15 : Memref sig .tc .vmem S2048x384 .bf16).view (Rect.unit (s := S2048x384) (k0_off128 c) ![1024, 384] (k0_off128_inb c)).toLoadRect fl2))⌝
            ∗ ⌜V.ag1_2 (nbr 1 c) ((agM1_2 (nbr 1 c) : Memref sig .tc .vmem S1024x384 .bf16).view.read (Elt F) fl1)⌝ ∗ ⌜V.ag2_2 (nbr 2 c) ((agM2_2 (nbr 2 c) : Memref sig .tc .vmem S1024x384 .bf16).view.read (Elt F) fl2)⌝
            ∗ heldW c (agM1_2 (nbr 1 c) : Memref sig .tc .vmem S1024x384 .bf16) fl1 ∗ heldW c (agM2_2 (nbr 2 c) : Memref sig .tc .vmem S1024x384 .bf16) fl2
            ∗ cred (tallyAt (cell c (.out 19)) () (amt (.out 19)))
            ∗ owes (c : Thread nD τ) (Owe c 39) (insert ((CK.agR 2 2).sem, ()) (insert ((CK.agS 2 2).sem, ()) (insert ((CK.agR 1 2).sem, ()) W)))
            ∗ atPos ER (cell c (.agR 1 2)) 1 ∅ 0 ∗ atPos ER (cell c (.agS 2 2)) 1 ∅ 0 ∗ atPos ER (cell c (.agR 2 2)) 1 ∅ 0
            ∗ ptsLent (F := F) c (agM2_2 c))) := by
  simp only [k0_part56_eq_skeleton]; unfold k0_part56_skel
  simp only [Prog.lift, Prog.bind_op, Prog.bind_ret, Prog.pure_eq_ret]
  iintro ⟨HO, #Hlev, #HIa, Hca, Hata, Hblk, Hdst, #HIo19, Hto19, #Hro19, #HIb, Hcb, Hatb, #HId, Hcd, Hatd⟩
  unfold heldW
  iapply (wp_wait_xfer V c (.agR 1 2) (by decide) 39 (agR_sem_eq 1 2 _)
      (show (agM1_2 c : Memref sig .tc .vmem S1024x384 .bf16).view.dmaCredit = amt (.agR 1 2) from rfl)
      (wpE_waitDma2_eq 𝒱₀ (c : Thread nD τ) none Set.univ)
      (mayWait_agR c 1 2 39 (by decide)) κa W) $$ [Hca HO Hata]
  · isplitr; · iexact HIa
    isplitl [Hca]; · iexact Hca
    isplitl [HO]; · iexact HO
    isplitr; · iexact Hlev
    iexact Hata
  iintro ⟨HO, Hata, Hpay0⟩
  ihave Hp0 := (Entails.of_eq (show pay V c (CK.agR 1 2) 0 = ptsIs c (agM1_2 (nbr 1 c)) (V.ag1_2 (nbr 1 c)) from rfl)) $$ Hpay0
  unfold ptsIs
  icases Hp0 with ⟨%fl1, Hl1, %hX1⟩
  have hinc1 : ((Memref.whole cc0_scratch14 : Memref sig .tc .vmem S2048x384 .bf16).access (Rect.unit (s := S2048x384) (k0_off125 c) ![1024, 384] (k0_off125_inb c))).set
      ⊆ (agM1_2 (nbr 1 c) : Memref sig .tc .vmem S1024x384 .bf16).view.set := by
    rw [View.set_slice_whole, View.set_slice_whole]
    refine unit_subset ?_
    piece_arith c [off125_eq, off104_eq]
  have hinc2 : ((Memref.whole cc0_scratch0 : Memref sig .tc .vmem S2048x2048 .f32).access (Rect.unit (s := S2048x2048) (k0_off126 c) ![1024, 384] (k0_off126_inb c))).set
      ⊆ (outSrcM19 c : Memref sig .tc .vmem S1024x384 .f32).view.set := by
    rw [View.set_slice_whole, View.set_slice_whole]
    refine unit_subset ?_
    piece_arith c [off126_eq, off127_eq]
  have hinc3 : ((Memref.whole cc0_scratch0 : Memref sig .tc .vmem S2048x2048 .f32).access (Rect.unit (s := S2048x2048) (k0_off126 c) ![1024, 384] (k0_off126_inb c))).setOn Finset.univ
      ⊆ (outSrcM19 c : Memref sig .tc .vmem S1024x384 .f32).view.set := by
    rw [View.setOn_univ]
    rw [View.set_slice_whole, View.set_slice_whole]
    refine unit_subset ?_
    piece_arith c [off126_eq, off127_eq]
  sl_exec
  have hpay19 : iprop(((outDstM19 c : Memref sig .tc .hbm S1024x384 .f32).view.loc (c : Thread nD τ) ↦[(outDstM19 c : Memref sig .tc .hbm S1024x384 .f32).view.set]{fullShare}
        ((outDstM19 c : Memref sig .tc .hbm S1024x384 .f32).view.write (Elt F) fo ((outSrcM19 c : Memref sig .tc .vmem S1024x384 .f32).view.read (Elt F) (View.write (Elt F) ((Memref.whole cc0_scratch0 : Memref sig .tc .vmem S2048x2048 .f32).access (Rect.unit (s := S2048x2048) (k0_off126 c) ![1024, 384] (k0_off126_inb c))) fb (k0_pay102 (View.readAt (Elt F) (Memref.whole cc0_scratch14 : Memref sig .tc .vmem S2048x384 .bf16).view (Rect.unit (s := S2048x384) (k0_off125 c) ![1024, 384] (k0_off125_inb c)).toLoadRect fl1)) Finset.univ)) Finset.univ))
      ∗ ((outSrcM19 c : Memref sig .tc .vmem S1024x384 .f32).view.loc (c : Thread nD τ) ↦[(outSrcM19 c : Memref sig .tc .vmem S1024x384 .f32).view.set]{fullShare} (View.write (Elt F) ((Memref.whole cc0_scratch0 : Memref sig .tc .vmem S2048x2048 .f32).access (Rect.unit (s := S2048x2048) (k0_off126 c) ![1024, 384] (k0_off126_inb c))) fb (k0_pay102 (View.readAt (Elt F) (Memref.whole cc0_scratch14 : Memref sig .tc .vmem S2048x384 .bf16).view (Rect.unit (s := S2048x384) (k0_off125 c) ![1024, 384] (k0_off125_inb c)).toLoadRect fl1)) Finset.univ))) ⊢ pay V c (.out 19) 0 := by
    show _ ⊢ iprop(ptsIs c (outDstM19 c) (V.out19 c) ∗ ptsAny (F := F) c (outSrcM19 c))
    iintro ⟨Hd, Hs⟩
    isplitl [Hd]
    · unfold ptsIs
      iexists _
      isplitl [Hd]; · iexact Hd
      ipureintro; rw [View.read_write_univ]; exact (hV fl1 hX1)
    · unfold ptsAny
      iexists _
      iexact Hs
  iapply (wp_copy_own V c (.out 19) (by decide) (src := outSrcM19 c) (dst := outDstM19 c) (out_sem_eq 19 _) rfl fo κo19 hpay19) $$ [Hblk Hdst Hto19]
  · isplitr; · iexact HIo19
    isplitl [Hblk]; · iexact Hblk
    isplitl [Hdst]; · iexact Hdst
    isplitl [Hto19]; · iexact Hto19
    iexact Hro19
  iintro Hco19
  iapply (wp_wait_xfer V c (.agS 2 2) (by decide) 39 (agS_sem_eq 2 2 _)
      (show (agM2_2 c : Memref sig .tc .vmem S1024x384 .bf16).view.dmaCredit = amt (.agS 2 2) from rfl)
      (wpE_waitDma2_eq 𝒱₀ (c : Thread nD τ) none Set.univ)
      (mayWait_own c (.agS 2 2) (lv_cell c _) 39) κb (insert ((CK.agR 1 2).sem, ()) W)) $$ [Hcb HO Hatb]
  · isplitr; · iexact HIb
    isplitl [Hcb]; · iexact Hcb
    isplitl [HO]; · iexact HO
    isplitr; · iexact Hlev
    iexact Hatb
  iintro ⟨HO, Hatb, Hpay1⟩
  iapply (wp_wait_xfer V c (.agR 2 2) (by decide) 39 (agR_sem_eq 2 2 _)
      (show (agM2_2 c : Memref sig .tc .vmem S1024x384 .bf16).view.dmaCredit = amt (.agR 2 2) from rfl)
      (wpE_waitDma2_eq 𝒱₀ (c : Thread nD τ) none Set.univ)
      (mayWait_agR c 2 2 39 (by decide)) κd (insert ((CK.agS 2 2).sem, ()) (insert ((CK.agR 1 2).sem, ()) W))) $$ [Hcd HO Hatd]
  · isplitr; · iexact HId
    isplitl [Hcd]; · iexact Hcd
    isplitl [HO]; · iexact HO
    isplitr; · iexact Hlev
    iexact Hatd
  iintro ⟨HO, Hatd, Hpay2⟩
  ihave Hp1 := (Entails.of_eq (show pay V c (CK.agS 2 2) 0 = ptsLent (F := F) c (agM2_2 c) from rfl)) $$ Hpay1
  ihave Hp2 := (Entails.of_eq (show pay V c (CK.agR 2 2) 0 = ptsIs c (agM2_2 (nbr 2 c)) (V.ag2_2 (nbr 2 c)) from rfl)) $$ Hpay2
  unfold ptsIs
  icases Hp2 with ⟨%fl2, Hl2, %hX2⟩
  have hinc4 : ((Memref.whole cc0_scratch15 : Memref sig .tc .vmem S2048x384 .bf16).access (Rect.unit (s := S2048x384) (k0_off128 c) ![1024, 384] (k0_off128_inb c))).set
      ⊆ (agM2_2 (nbr 2 c) : Memref sig .tc .vmem S1024x384 .bf16).view.set := by
    rw [View.set_slice_whole, View.set_slice_whole]
    refine unit_subset ?_
    piece_arith c [off128_eq, off108_eq]
  sl_exec
  sl_step
  iexists fl1, fl2
  isplitr; · ipureintro; rfl
  isplitr; · ipureintro; exact hX1
  isplitr; · ipureintro; exact hX2
  isplitl [Hl1]; · iexact Hl1
  isplitl [Hl2]; · iexact Hl2
  isplitl [Hco19]; · iexact Hco19
  isplitl [HO]; · iexact HO
  isplitl [Hata]; · iexact Hata
  isplitl [Hatb]; · iexact Hatb
  isplitl [Hatd]; · iexact Hatd
  iexact Hp1

end Cert.KernelIdeal.Proto

end
-- ==== Proof.Body57.lean ====
/-
Stretch 57 of a device's kernel body: the upcast of group 2's last landed rows into block 20 of the accumulator and the
copy of that block to the result array; the two waits of group 3's last all-gather exchange, the upcast of its landed
rows into block 21 and the copy of that block.
-/
import proofs.«900882_g7700000000000883_dist_matmul_gelu_kshard_i_m2048_n2048_k1024_v7x_i8_f32_1_alg».proof.Proof.Rules
import proofs.«900882_g7700000000000883_dist_matmul_gelu_kshard_i_m2048_n2048_k1024_v7x_i8_f32_1_alg».proof.Proof.TopoTab
import proofs.«900882_g7700000000000883_dist_matmul_gelu_kshard_i_m2048_n2048_k1024_v7x_i8_f32_1_alg».proof.Proof.PiecesTab
import proofs.«900882_g7700000000000883_dist_matmul_gelu_kshard_i_m2048_n2048_k1024_v7x_i8_f32_1_alg».proof.Proof.Gen.KernelIdeal.Skeleton
import proofs.«900882_g7700000000000883_dist_matmul_gelu_kshard_i_m2048_n2048_k1024_v7x_i8_f32_1_alg».proof.Proof.TopoClosed
import proofs.«900882_g7700000000000883_dist_matmul_gelu_kshard_i_m2048_n2048_k1024_v7x_i8_f32_1_alg».proof.Proof.PiecesOutSep
import Idealize.ShloMosaic.Lib.Pipeline.Value

set_option maxRecDepth 16384

noncomputable section

namespace Cert.KernelIdeal.Proto

open Cert.KernelIdeal Cert.KernelIdeal.Gen Cert.KernelIdeal.Topo
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : Vals F)

set_option maxHeartbeats 4000000 in
theorem part57_run (c : Dev nD) (κo20 κo21 κb κd : ℕ) (W : Waits sig Unit) (v1571 v1593 v1606 : BitVec 32) (v1742 : FVec F S1024x384 .f32)
    (fb20 : Buf (Elt F) ((outSrcM20 c : Memref sig .tc .vmem S1024x384 .f32).view.loc (c : Thread nD τ)))
    (fo20 : Buf (Elt F) ((outDstM20 c : Memref sig .tc .hbm S1024x384 .f32).view.loc (c : Thread nD τ)))
    (fb21 : Buf (Elt F) ((outSrcM21 c : Memref sig .tc .vmem S1024x384 .f32).view.loc (c : Thread nD τ)))
    (fo21 : Buf (Elt F) ((outDstM21 c : Memref sig .tc .hbm S1024x384 .f32).view.loc (c : Thread nD τ)))
    (hV20 : V.out20 c ((outSrcM20 c : Memref sig .tc .vmem S1024x384 .f32).view.read (Elt F) (View.write (Elt F) ((Memref.whole cc0_scratch0 : Memref sig .tc .vmem S2048x2048 .f32).access (Rect.unit (s := S2048x2048) (k0_off129 c) ![1024, 384] (k0_off129_inb c))) fb20 (k0_pay104 v1742) Finset.univ)))
    (hV21 : ∀ fl : Buf (Elt F) ((agM3_2 (nbr 0 c) : Memref sig .tc .vmem S1024x384 .bf16).view.loc (c : Thread nD τ)), V.ag3_2 (nbr 0 c) ((agM3_2 (nbr 0 c) : Memref sig .tc .vmem S1024x384 .bf16).view.read (Elt F) fl) →
        V.out21 c ((outSrcM21 c : Memref sig .tc .vmem S1024x384 .f32).view.read (Elt F) (View.write (Elt F) ((Memref.whole cc0_scratch0 : Memref sig .tc .vmem S2048x2048 .f32).access (Rect.unit (s := S2048x2048) (k0_off131 c) ![1024, 384] (k0_off131_inb c))) fb21 (k0_pay105 (View.readAt (Elt F) (Memref.whole cc0_scratch16 : Memref sig .tc .vmem S2048x384 .bf16).view (Rect.unit (s := S2048x384) (k0_off122 c) ![1024, 384] (k0_off122_inb c)).toLoadRect fl)) Finset.univ))) :
    iprop(owes (c : Thread nD τ) (Owe c 39) W ∗ levAts L lv
        ∗ heldW c (outSrcM20 c : Memref sig .tc .vmem S1024x384 .f32) fb20 ∗ heldW c (outDstM20 c : Memref sig .tc .hbm S1024x384 .f32) fo20
        ∗ cellInv ER (sched V) κo20 (cell c (.out 20)) ∗ dutyTok ER (cell c (.out 20)) 0 (0 : Fin 3) ∗ reached ER (cell c (.out 20)) 0
        ∗ cellInv ER (sched V) κb (cell c (.agS 3 2)) ∗ cred (tallyAt (cell c (.agS 3 2)) () (amt (.agS 3 2))) ∗ atPos ER (cell c (.agS 3 2)) 0 ∅ 0
        ∗ cellInv ER (sched V) κd (cell c (.agR 3 2)) ∗ cred (tallyAt (cell c (.agR 3 2)) () (amt (.agR 3 2))) ∗ atPos ER (cell c (.agR 3 2)) 0 ∅ 0
        ∗ heldW c (outSrcM21 c : Memref sig .tc .vmem S1024x384 .f32) fb21 ∗ heldW c (outDstM21 c : Memref sig .tc .hbm S1024x384 .f32) fo21
        ∗ cellInv ER (sched V) κo21 (cell c (.out 21)) ∗ dutyTok ER (cell c (.out 21)) 0 (0 : Fin 3) ∗ reached ER (cell c (.out 21)) 0)
      ⊢ wp frame (wpE (defs₀ (F := F)) 𝒱₀ c none) Set.univ
          (k0_part57 (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23 c v1571 v1593 v1606 v1742)
          (fun r => iprop(⌜r = ⟨⟩⌝ ∗ (∃ fl : Buf (Elt F) ((agM3_2 (nbr 0 c) : Memref sig .tc .vmem S1024x384 .bf16).view.loc (c : Thread nD τ)), ⌜V.ag3_2 (nbr 0 c) ((agM3_2 (nbr 0 c) : Memref sig .tc .vmem S1024x384 .bf16).view.read (Elt F) fl)⌝
            ∗ heldW c (agM3_2 (nbr 0 c) : Memref sig .tc .vmem S1024x384 .bf16) fl
            ∗ cred (tallyAt (cell c (.out 20)) () (amt (.out 20))) ∗ cred (tallyAt (cell c (.out 21)) () (amt (.out 21)))
            ∗ owes (c : Thread nD τ) (Owe c 39) (insert ((CK.agR 3 2).sem, ()) (insert ((CK.agS 3 2).sem, ()) W))
            ∗ atPos ER (cell c (.agS 3 2)) 1 ∅ 0 ∗ atPos ER (cell c (.agR 3 2)) 1 ∅ 0
            ∗ ptsLent (F := F) c (agM3_2 c)))) := by
  simp only [k0_part57_eq_skeleton]; unfold k0_part57_skel
  simp only [Prog.lift, Prog.bind_op, Prog.bind_ret, Prog.pure_eq_ret]
  iintro ⟨HO, #Hlev, Hblk20, Hdst20, #HIo20, Hto20, #Hro20, #HIb, Hcb, Hatb, #HId, Hcd, Hatd, Hblk21, Hdst21, #HIo21, Hto21, #Hro21⟩
  unfold heldW
  have hinc2 : ((Memref.whole cc0_scratch0 : Memref sig .tc .vmem S2048x2048 .f32).access (Rect.unit (s := S2048x2048) (k0_off129 c) ![1024, 384] (k0_off129_inb c))).set
      ⊆ (outSrcM20 c : Memref sig .tc .vmem S1024x384 .f32).view.set := by
    rw [View.set_slice_whole, View.set_slice_whole]
    refine unit_subset ?_
    piece_arith c [off129_eq, off130_eq]
  have hinc3 : ((Memref.whole cc0_scratch0 : Memref sig .tc .vmem S2048x2048 .f32).access (Rect.unit (s := S2048x2048) (k0_off129 c) ![1024, 384] (k0_off129_inb c))).setOn Finset.univ
      ⊆ (outSrcM20 c : Memref sig .tc .vmem S1024x384 .f32).view.set := by
    rw [View.setOn_univ]
    rw [View.set_slice_whole, View.set_slice_whole]
    refine unit_subset ?_
    piece_arith c [off129_eq, off130_eq]
  sl_exec
  have hpay20 : iprop(((outDstM20 c : Memref sig .tc .hbm S1024x384 .f32).view.loc (c : Thread nD τ) ↦[(outDstM20 c : Memref sig .tc .hbm S1024x384 .f32).view.set]{fullShare}
        ((outDstM20 c : Memref sig .tc .hbm S1024x384 .f32).view.write (Elt F) fo20 ((outSrcM20 c : Memref sig .tc .vmem S1024x384 .f32).view.read (Elt F) (View.write (Elt F) ((Memref.whole cc0_scratch0 : Memref sig .tc .vmem S2048x2048 .f32).access (Rect.unit (s := S2048x2048) (k0_off129 c) ![1024, 384] (k0_off129_inb c))) fb20 (k0_pay104 v1742) Finset.univ)) Finset.univ))
      ∗ ((outSrcM20 c : Memref sig .tc .vmem S1024x384 .f32).view.loc (c : Thread nD τ) ↦[(outSrcM20 c : Memref sig .tc .vmem S1024x384 .f32).view.set]{fullShare} (View.write (Elt F) ((Memref.whole cc0_scratch0 : Memref sig .tc .vmem S2048x2048 .f32).access (Rect.unit (s := S2048x2048) (k0_off129 c) ![1024, 384] (k0_off129_inb c))) fb20 (k0_pay104 v1742) Finset.univ))) ⊢ pay V c (.out 20) 0 := by
    show _ ⊢ iprop(ptsIs c (outDstM20 c) (V.out20 c) ∗ ptsAny (F := F) c (outSrcM20 c))
    iintro ⟨Hd, Hs⟩
    isplitl [Hd]
    · unfold ptsIs
      iexists _
      isplitl [Hd]; · iexact Hd
      ipureintro; rw [View.read_write_univ]; exact hV20
    · unfold ptsAny
      iexists _
      iexact Hs
  iapply (wp_copy_own V c (.out 20) (by decide) (src := outSrcM20 c) (dst := outDstM20 c) (out_sem_eq 20 _) rfl fo20 κo20 hpay20) $$ [Hblk20 Hdst20 Hto20]
  · isplitr; · iexact HIo20
    isplitl [Hblk20]; · iexact Hblk20
    isplitl [Hdst20]; · iexact Hdst20
    isplitl [Hto20]; · iexact Hto20
    iexact Hro20
  iintro Hco20
  iapply (wp_wait_xfer V c (.agS 3 2) (by decide) 39 (agS_sem_eq 3 2 _)
      (show (agM3_2 c : Memref sig .tc .vmem S1024x384 .bf16).view.dmaCredit = amt (.agS 3 2) from rfl)
      (wpE_waitDma2_eq 𝒱₀ (c : Thread nD τ) none Set.univ)
      (mayWait_own c (.agS 3 2) (lv_cell c _) 39) κb W) $$ [Hcb HO Hatb]
  · isplitr; · iexact HIb
    isplitl [Hcb]; · iexact Hcb
    isplitl [HO]; · iexact HO
    isplitr; · iexact Hlev
    iexact Hatb
  iintro ⟨HO, Hatb, Hpay1⟩
  iapply (wp_wait_xfer V c (.agR 3 2) (by decide) 39 (agR_sem_eq 3 2 _)
      (show (agM3_2 c : Memref sig .tc .vmem S1024x384 .bf16).view.dmaCredit = amt (.agR 3 2) from rfl)
      (wpE_waitDma2_eq 𝒱₀ (c : Thread nD τ) none Set.univ)
      (mayWait_agR c 3 2 39 (by decide)) κd (insert ((CK.agS 3 2).sem, ()) W)) $$ [Hcd HO Hatd]
  · isplitr; · iexact HId
    isplitl [Hcd]; · iexact Hcd
    isplitl [HO]; · iexact HO
    isplitr; · iexact Hlev
    iexact Hatd
  iintro ⟨HO, Hatd, Hpay2⟩
  ihave Hp1 := (Entails.of_eq (show pay V c (CK.agS 3 2) 0 = ptsLent (F := F) c (agM3_2 c) from rfl)) $$ Hpay1
  ihave Hp2 := (Entails.of_eq (show pay V c (CK.agR 3 2) 0 = ptsIs c (agM3_2 (nbr 0 c)) (V.ag3_2 (nbr 0 c)) from rfl)) $$ Hpay2
  unfold ptsIs
  icases Hp2 with ⟨%fl, Hl, %hX⟩
  have hinc4 : ((Memref.whole cc0_scratch16 : Memref sig .tc .vmem S2048x384 .bf16).access (Rect.unit (s := S2048x384) (k0_off122 c) ![1024, 384] (k0_off122_inb c))).set
      ⊆ (agM3_2 (nbr 0 c) : Memref sig .tc .vmem S1024x384 .bf16).view.set := by
    rw [View.set_slice_whole, View.set_slice_whole]
    refine unit_subset ?_
    piece_arith c [off122_eq, off100_eq]
  have hinc5 : ((Memref.whole cc0_scratch0 : Memref sig .tc .vmem S2048x2048 .f32).access (Rect.unit (s := S2048x2048) (k0_off131 c) ![1024, 384] (k0_off131_inb c))).set
      ⊆ (outSrcM21 c : Memref sig .tc .vmem S1024x384 .f32).view.set := by
    rw [View.set_slice_whole, View.set_slice_whole]
    refine unit_subset ?_
    piece_arith c [off131_eq, off132_eq]
  have hinc6 : ((Memref.whole cc0_scratch0 : Memref sig .tc .vmem S2048x2048 .f32).access (Rect.unit (s := S2048x2048) (k0_off131 c) ![1024, 384] (k0_off131_inb c))).setOn Finset.univ
      ⊆ (outSrcM21 c : Memref sig .tc .vmem S1024x384 .f32).view.set := by
    rw [View.setOn_univ]
    rw [View.set_slice_whole, View.set_slice_whole]
    refine unit_subset ?_
    piece_arith c [off131_eq, off132_eq]
  sl_exec
  have hpay21 : iprop(((outDstM21 c : Memref sig .tc .hbm S1024x384 .f32).view.loc (c : Thread nD τ) ↦[(outDstM21 c : Memref sig .tc .hbm S1024x384 .f32).view.set]{fullShare}
        ((outDstM21 c : Memref sig .tc .hbm S1024x384 .f32).view.write (Elt F) fo21 ((outSrcM21 c : Memref sig .tc .vmem S1024x384 .f32).view.read (Elt F) (View.write (Elt F) ((Memref.whole cc0_scratch0 : Memref sig .tc .vmem S2048x2048 .f32).access (Rect.unit (s := S2048x2048) (k0_off131 c) ![1024, 384] (k0_off131_inb c))) fb21 (k0_pay105 (View.readAt (Elt F) (Memref.whole cc0_scratch16 : Memref sig .tc .vmem S2048x384 .bf16).view (Rect.unit (s := S2048x384) (k0_off122 c) ![1024, 384] (k0_off122_inb c)).toLoadRect fl)) Finset.univ)) Finset.univ))
      ∗ ((outSrcM21 c : Memref sig .tc .vmem S1024x384 .f32).view.loc (c : Thread nD τ) ↦[(outSrcM21 c : Memref sig .tc .vmem S1024x384 .f32).view.set]{fullShare} (View.write (Elt F) ((Memref.whole cc0_scratch0 : Memref sig .tc .vmem S2048x2048 .f32).access (Rect.unit (s := S2048x2048) (k0_off131 c) ![1024, 384] (k0_off131_inb c))) fb21 (k0_pay105 (View.readAt (Elt F) (Memref.whole cc0_scratch16 : Memref sig .tc .vmem S2048x384 .bf16).view (Rect.unit (s := S2048x384) (k0_off122 c) ![1024, 384] (k0_off122_inb c)).toLoadRect fl)) Finset.univ))) ⊢ pay V c (.out 21) 0 := by
    show _ ⊢ iprop(ptsIs c (outDstM21 c) (V.out21 c) ∗ ptsAny (F := F) c (outSrcM21 c))
    iintro ⟨Hd, Hs⟩
    isplitl [Hd]
    · unfold ptsIs
      iexists _
      isplitl [Hd]; · iexact Hd
      ipureintro; rw [View.read_write_univ]; exact (hV21 fl hX)
    · unfold ptsAny
      iexists _
      iexact Hs
  iapply (wp_copy_own V c (.out 21) (by decide) (src := outSrcM21 c) (dst := outDstM21 c) (out_sem_eq 21 _) rfl fo21 κo21 hpay21) $$ [Hblk21 Hdst21 Hto21]
  · isplitr; · iexact HIo21
    isplitl [Hblk21]; · iexact Hblk21
    isplitl [Hdst21]; · iexact Hdst21
    isplitl [Hto21]; · iexact Hto21
    iexact Hro21
  iintro Hco21
  sl_step
  isplitr; · ipureintro; trivial
  iexists fl
  isplitr; · ipureintro; exact hX
  isplitl [Hl]; · iexact Hl
  isplitl [Hco20]; · iexact Hco20
  isplitl [Hco21]; · iexact Hco21
  isplitl [HO]; · iexact HO
  isplitl [Hatb]; · iexact Hatb
  isplitl [Hatd]; · iexact Hatd
  iexact Hp1

end Cert.KernelIdeal.Proto

end
-- ==== Proof.Body58.lean ====
/-
Stretch 58 of a device's kernel body: the two waits of group 4's last all-gather exchange, the upcast of its landed rows
into block 22 of the accumulator and the copy of that block to the result array; the wait for group 5's last all-gather
send to leave its rows.
-/
import proofs.«900882_g7700000000000883_dist_matmul_gelu_kshard_i_m2048_n2048_k1024_v7x_i8_f32_1_alg».proof.Proof.Rules
import proofs.«900882_g7700000000000883_dist_matmul_gelu_kshard_i_m2048_n2048_k1024_v7x_i8_f32_1_alg».proof.Proof.TopoTab
import proofs.«900882_g7700000000000883_dist_matmul_gelu_kshard_i_m2048_n2048_k1024_v7x_i8_f32_1_alg».proof.Proof.PiecesTab
import proofs.«900882_g7700000000000883_dist_matmul_gelu_kshard_i_m2048_n2048_k1024_v7x_i8_f32_1_alg».proof.Proof.Gen.KernelIdeal.Skeleton
import proofs.«900882_g7700000000000883_dist_matmul_gelu_kshard_i_m2048_n2048_k1024_v7x_i8_f32_1_alg».proof.Proof.TopoClosed
import proofs.«900882_g7700000000000883_dist_matmul_gelu_kshard_i_m2048_n2048_k1024_v7x_i8_f32_1_alg».proof.Proof.PiecesOutSep
import Idealize.ShloMosaic.Lib.Pipeline.Value

set_option maxRecDepth 16384

noncomputable section

namespace Cert.KernelIdeal.Proto

open Cert.KernelIdeal Cert.KernelIdeal.Gen Cert.KernelIdeal.Topo
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : Vals F)

set_option maxHeartbeats 4000000 in
theorem part58_run (c : Dev nD) (κb κd κo22 κe : ℕ) (W : Waits sig Unit) (v1628 v1641 : BitVec 32)
    (fb : Buf (Elt F) ((outSrcM22 c : Memref sig .tc .vmem S1024x256 .f32).view.loc (c : Thread nD τ)))
    (fo : Buf (Elt F) ((outDstM22 c : Memref sig .tc .hbm S1024x256 .f32).view.loc (c : Thread nD τ)))
    (hV : ∀ fl : Buf (Elt F) ((agM4_2 (nbr 1 c) : Memref sig .tc .vmem S1024x256 .bf16).view.loc (c : Thread nD τ)), V.ag4_2 (nbr 1 c) ((agM4_2 (nbr 1 c) : Memref sig .tc .vmem S1024x256 .bf16).view.read (Elt F) fl) →
        V.out22 c ((outSrcM22 c : Memref sig .tc .vmem S1024x256 .f32).view.read (Elt F) (View.write (Elt F) ((Memref.whole cc0_scratch0 : Memref sig .tc .vmem S2048x2048 .f32).access (Rect.unit (s := S2048x2048) (k0_off134 c) ![1024, 256] (k0_off134_inb c))) fb (k0_pay106 (View.readAt (Elt F) (Memref.whole cc0_scratch17 : Memref sig .tc .vmem S2048x256 .bf16).view (Rect.unit (s := S2048x256) (k0_off133 c) ![1024, 256] (k0_off133_inb c)).toLoadRect fl)) Finset.univ))) :
    iprop(owes (c : Thread nD τ) (Owe c 39) W ∗ levAts L lv
        ∗ cellInv ER (sched V) κb (cell c (.agS 4 2)) ∗ cred (tallyAt (cell c (.agS 4 2)) () (amt (.agS 4 2))) ∗ atPos ER (cell c (.agS 4 2)) 0 ∅ 0
        ∗ cellInv ER (sched V) κd (cell c (.agR 4 2)) ∗ cred (tallyAt (cell c (.agR 4 2)) () (amt (.agR 4 2))) ∗ atPos ER (cell c (.agR 4 2)) 0 ∅ 0
        ∗ heldW c (outSrcM22 c : Memref sig .tc .vmem S1024x256 .f32) fb ∗ heldW c (outDstM22 c : Memref sig .tc .hbm S1024x256 .f32) fo
        ∗ cellInv ER (sched V) κo22 (cell c (.out 22)) ∗ dutyTok ER (cell c (.out 22)) 0 (0 : Fin 3) ∗ reached ER (cell c (.out 22)) 0
        ∗ cellInv ER (sched V) κe (cell c (.agS 5 2)) ∗ cred (tallyAt (cell c (.agS 5 2)) () (amt (.agS 5 2))) ∗ atPos ER (cell c (.agS 5 2)) 0 ∅ 0)
      ⊢ wp frame (wpE (defs₀ (F := F)) 𝒱₀ c none) Set.univ
          (k0_part58 (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23 c v1628 v1641)
          (fun r => iprop(⌜r = ⟨⟩⌝ ∗ (∃ fl : Buf (Elt F) ((agM4_2 (nbr 1 c) : Memref sig .tc .vmem S1024x256 .bf16).view.loc (c : Thread nD τ)), ⌜V.ag4_2 (nbr 1 c) ((agM4_2 (nbr 1 c) : Memref sig .tc .vmem S1024x256 .bf16).view.read (Elt F) fl)⌝
            ∗ heldW c (agM4_2 (nbr 1 c) : Memref sig .tc .vmem S1024x256 .bf16) fl
            ∗ cred (tallyAt (cell c (.out 22)) () (amt (.out 22)))
            ∗ owes (c : Thread nD τ) (Owe c 39) (insert ((CK.agS 5 2).sem, ()) (insert ((CK.agR 4 2).sem, ()) (insert ((CK.agS 4 2).sem, ()) W)))
            ∗ atPos ER (cell c (.agS 4 2)) 1 ∅ 0 ∗ atPos ER (cell c (.agR 4 2)) 1 ∅ 0 ∗ atPos ER (cell c (.agS 5 2)) 1 ∅ 0
            ∗ ptsLent (F := F) c (agM4_2 c) ∗ ptsLent (F := F) c (agM5_2 c)))) := by
  simp only [k0_part58_eq_skeleton]; unfold k0_part58_skel
  simp only [Prog.lift, Prog.bind_op, Prog.bind_ret, Prog.pure_eq_ret]
  iintro ⟨HO, #Hlev, #HIb, Hcb, Hatb, #HId, Hcd, Hatd, Hblk, Hdst, #HIo22, Hto22, #Hro22, #HIe, Hce, Hate⟩
  unfold heldW
  iapply (wp_wait_xfer V c (.agS 4 2) (by decide) 39 (agS_sem_eq 4 2 _)
      (show (agM4_2 c : Memref sig .tc .vmem S1024x256 .bf16).view.dmaCredit = amt (.agS 4 2) from rfl)
      (wpE_waitDma2_eq 𝒱₀ (c : Thread nD τ) none Set.univ)
      (mayWait_own c (.agS 4 2) (lv_cell c _) 39) κb W) $$ [Hcb HO Hatb]
  · isplitr; · iexact HIb
    isplitl [Hcb]; · iexact Hcb
    isplitl [HO]; · iexact HO
    isplitr; · iexact Hlev
    iexact Hatb
  iintro ⟨HO, Hatb, Hpay1⟩
  iapply (wp_wait_xfer V c (.agR 4 2) (by decide) 39 (agR_sem_eq 4 2 _)
      (show (agM4_2 c : Memref sig .tc .vmem S1024x256 .bf16).view.dmaCredit = amt (.agR 4 2) from rfl)
      (wpE_waitDma2_eq 𝒱₀ (c : Thread nD τ) none Set.univ)
      (mayWait_agR c 4 2 39 (by decide)) κd (insert ((CK.agS 4 2).sem, ()) W)) $$ [Hcd HO Hatd]
  · isplitr; · iexact HId
    isplitl [Hcd]; · iexact Hcd
    isplitl [HO]; · iexact HO
    isplitr; · iexact Hlev
    iexact Hatd
  iintro ⟨HO, Hatd, Hpay2⟩
  ihave Hp1 := (Entails.of_eq (show pay V c (CK.agS 4 2) 0 = ptsLent (F := F) c (agM4_2 c) from rfl)) $$ Hpay1
  ihave Hp2 := (Entails.of_eq (show pay V c (CK.agR 4 2) 0 = ptsIs c (agM4_2 (nbr 1 c)) (V.ag4_2 (nbr 1 c)) from rfl)) $$ Hpay2
  unfold ptsIs
  icases Hp2 with ⟨%fl, Hl, %hX⟩
  have hinc1 : ((Memref.whole cc0_scratch17 : Memref sig .tc .vmem S2048x256 .bf16).access (Rect.unit (s := S2048x256) (k0_off133 c) ![1024, 256] (k0_off133_inb c))).set
      ⊆ (agM4_2 (nbr 1 c) : Memref sig .tc .vmem S1024x256 .bf16).view.set := by
    rw [View.set_slice_whole, View.set_slice_whole]
    refine unit_subset ?_
    piece_arith c [off133_eq, off114_eq]
  have hinc2 : ((Memref.whole cc0_scratch0 : Memref sig .tc .vmem S2048x2048 .f32).access (Rect.unit (s := S2048x2048) (k0_off134 c) ![1024, 256] (k0_off134_inb c))).set
      ⊆ (outSrcM22 c : Memref sig .tc .vmem S1024x256 .f32).view.set := by
    rw [View.set_slice_whole, View.set_slice_whole]
    refine unit_subset ?_
    piece_arith c [off134_eq, off135_eq]
  have hinc3 : ((Memref.whole cc0_scratch0 : Memref sig .tc .vmem S2048x2048 .f32).access (Rect.unit (s := S2048x2048) (k0_off134 c) ![1024, 256] (k0_off134_inb c))).setOn Finset.univ
      ⊆ (outSrcM22 c : Memref sig .tc .vmem S1024x256 .f32).view.set := by
    rw [View.setOn_univ]
    rw [View.set_slice_whole, View.set_slice_whole]
    refine unit_subset ?_
    piece_arith c [off134_eq, off135_eq]
  sl_exec
  have hpay22 : iprop(((outDstM22 c : Memref sig .tc .hbm S1024x256 .f32).view.loc (c : Thread nD τ) ↦[(outDstM22 c : Memref sig .tc .hbm S1024x256 .f32).view.set]{fullShare}
        ((outDstM22 c : Memref sig .tc .hbm S1024x256 .f32).view.write (Elt F) fo ((outSrcM22 c : Memref sig .tc .vmem S1024x256 .f32).view.read (Elt F) (View.write (Elt F) ((Memref.whole cc0_scratch0 : Memref sig .tc .vmem S2048x2048 .f32).access (Rect.unit (s := S2048x2048) (k0_off134 c) ![1024, 256] (k0_off134_inb c))) fb (k0_pay106 (View.readAt (Elt F) (Memref.whole cc0_scratch17 : Memref sig .tc .vmem S2048x256 .bf16).view (Rect.unit (s := S2048x256) (k0_off133 c) ![1024, 256] (k0_off133_inb c)).toLoadRect fl)) Finset.univ)) Finset.univ))
      ∗ ((outSrcM22 c : Memref sig .tc .vmem S1024x256 .f32).view.loc (c : Thread nD τ) ↦[(outSrcM22 c : Memref sig .tc .vmem S1024x256 .f32).view.set]{fullShare} (View.write (Elt F) ((Memref.whole cc0_scratch0 : Memref sig .tc .vmem S2048x2048 .f32).access (Rect.unit (s := S2048x2048) (k0_off134 c) ![1024, 256] (k0_off134_inb c))) fb (k0_pay106 (View.readAt (Elt F) (Memref.whole cc0_scratch17 : Memref sig .tc .vmem S2048x256 .bf16).view (Rect.unit (s := S2048x256) (k0_off133 c) ![1024, 256] (k0_off133_inb c)).toLoadRect fl)) Finset.univ))) ⊢ pay V c (.out 22) 0 := by
    show _ ⊢ iprop(ptsIs c (outDstM22 c) (V.out22 c) ∗ ptsAny (F := F) c (outSrcM22 c))
    iintro ⟨Hd, Hs⟩
    isplitl [Hd]
    · unfold ptsIs
      iexists _
      isplitl [Hd]; · iexact Hd
      ipureintro; rw [View.read_write_univ]; exact (hV fl hX)
    · unfold ptsAny
      iexists _
      iexact Hs
  iapply (wp_copy_own V c (.out 22) (by decide) (src := outSrcM22 c) (dst := outDstM22 c) (out_sem_eq 22 _) rfl fo κo22 hpay22) $$ [Hblk Hdst Hto22]
  · isplitr; · iexact HIo22
    isplitl [Hblk]; · iexact Hblk
    isplitl [Hdst]; · iexact Hdst
    isplitl [Hto22]; · iexact Hto22
    iexact Hro22
  iintro Hco22
  iapply (wp_wait_xfer V c (.agS 5 2) (by decide) 39 (agS_sem_eq 5 2 _)
      (show (agM5_2 c : Memref sig .tc .vmem S1024x256 .bf16).view.dmaCredit = amt (.agS 5 2) from rfl)
      (wpE_waitDma2_eq 𝒱₀ (c : Thread nD τ) none Set.univ)
      (mayWait_own c (.agS 5 2) (lv_cell c _) 39) κe (insert ((CK.agR 4 2).sem, ()) (insert ((CK.agS 4 2).sem, ()) W))) $$ [Hce HO Hate]
  · isplitr; · iexact HIe
    isplitl [Hce]; · iexact Hce
    isplitl [HO]; · iexact HO
    isplitr; · iexact Hlev
    iexact Hate
  iintro ⟨HO, Hate, Hpay3⟩
  ihave Hp3 := (Entails.of_eq (show pay V c (CK.agS 5 2) 0 = ptsLent (F := F) c (agM5_2 c) from rfl)) $$ Hpay3
  sl_step
  isplitr; · ipureintro; trivial
  iexists fl
  isplitr; · ipureintro; exact hX
  isplitl [Hl]; · iexact Hl
  isplitl [Hco22]; · iexact Hco22
  isplitl [HO]; · iexact HO
  isplitl [Hatb]; · iexact Hatb
  isplitl [Hatd]; · iexact Hatd
  isplitl [Hate]; · iexact Hate
  isplitl [Hp1]; · iexact Hp1
  iexact Hp3

end Cert.KernelIdeal.Proto

end
-- ==== Proof.Body59.lean ====
/-
Stretch 59 of a device's kernel body: the wait for group 5's last all-gather landing, the upcast of its rows into block 23
of the accumulator and the copy of that block to the result array; the waits for the first three result copies.
-/
import proofs.«900882_g7700000000000883_dist_matmul_gelu_kshard_i_m2048_n2048_k1024_v7x_i8_f32_1_alg».proof.Proof.Rules
import proofs.«900882_g7700000000000883_dist_matmul_gelu_kshard_i_m2048_n2048_k1024_v7x_i8_f32_1_alg».proof.Proof.TopoTab
import proofs.«900882_g7700000000000883_dist_matmul_gelu_kshard_i_m2048_n2048_k1024_v7x_i8_f32_1_alg».proof.Proof.PiecesTab
import proofs.«900882_g7700000000000883_dist_matmul_gelu_kshard_i_m2048_n2048_k1024_v7x_i8_f32_1_alg».proof.Proof.Gen.KernelIdeal.Skeleton
import proofs.«900882_g7700000000000883_dist_matmul_gelu_kshard_i_m2048_n2048_k1024_v7x_i8_f32_1_alg».proof.Proof.TopoClosed
import proofs.«900882_g7700000000000883_dist_matmul_gelu_kshard_i_m2048_n2048_k1024_v7x_i8_f32_1_alg».proof.Proof.PiecesOutSep
import Idealize.ShloMosaic.Lib.Pipeline.Value

set_option maxRecDepth 16384

noncomputable section

namespace Cert.KernelIdeal.Proto

open Cert.KernelIdeal Cert.KernelIdeal.Gen Cert.KernelIdeal.Topo
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : Vals F)

set_option maxHeartbeats 4000000 in
theorem part59_run (c : Dev nD) (κd κo23 κw0 κw1 κw2 : ℕ) (W : Waits sig Unit) (v1663 v1676 : BitVec 32)
    (fb : Buf (Elt F) ((outSrcM23 c : Memref sig .tc .vmem S1024x256 .f32).view.loc (c : Thread nD τ)))
    (fo : Buf (Elt F) ((outDstM23 c : Memref sig .tc .hbm S1024x256 .f32).view.loc (c : Thread nD τ)))
    (hV : ∀ fl : Buf (Elt F) ((agM5_2 (nbr 2 c) : Memref sig .tc .vmem S1024x256 .bf16).view.loc (c : Thread nD τ)), V.ag5_2 (nbr 2 c) ((agM5_2 (nbr 2 c) : Memref sig .tc .vmem S1024x256 .bf16).view.read (Elt F) fl) →
        V.out23 c ((outSrcM23 c : Memref sig .tc .vmem S1024x256 .f32).view.read (Elt F) (View.write (Elt F) ((Memref.whole cc0_scratch0 : Memref sig .tc .vmem S2048x2048 .f32).access (Rect.unit (s := S2048x2048) (k0_off137 c) ![1024, 256] (k0_off137_inb c))) fb (k0_pay107 (View.readAt (Elt F) (Memref.whole cc0_scratch18 : Memref sig .tc .vmem S2048x256 .bf16).view (Rect.unit (s := S2048x256) (k0_off136 c) ![1024, 256] (k0_off136_inb c)).toLoadRect fl)) Finset.univ))) :
    iprop(owes (c : Thread nD τ) (Owe c 39) W ∗ levAts L lv
        ∗ cellInv ER (sched V) κd (cell c (.agR 5 2)) ∗ cred (tallyAt (cell c (.agR 5 2)) () (amt (.agR 5 2))) ∗ atPos ER (cell c (.agR 5 2)) 0 ∅ 0
        ∗ heldW c (outSrcM23 c : Memref sig .tc .vmem S1024x256 .f32) fb ∗ heldW c (outDstM23 c : Memref sig .tc .hbm S1024x256 .f32) fo
        ∗ cellInv ER (sched V) κo23 (cell c (.out 23)) ∗ dutyTok ER (cell c (.out 23)) 0 (0 : Fin 3) ∗ reached ER (cell c (.out 23)) 0
        ∗ cellInv ER (sched V) κw0 (cell c (.out 0)) ∗ cred (tallyAt (cell c (.out 0)) () (amt (.out 0))) ∗ atPos ER (cell c (.out 0)) 0 ∅ 0
        ∗ cellInv ER (sched V) κw1 (cell c (.out 1)) ∗ cred (tallyAt (cell c (.out 1)) () (amt (.out 1))) ∗ atPos ER (cell c (.out 1)) 0 ∅ 0
        ∗ cellInv ER (sched V) κw2 (cell c (.out 2)) ∗ cred (tallyAt (cell c (.out 2)) () (amt (.out 2))) ∗ atPos ER (cell c (.out 2)) 0 ∅ 0)
      ⊢ wp frame (wpE (defs₀ (F := F)) 𝒱₀ c none) Set.univ
          (k0_part59 (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23 c v1663 v1676)
          (fun r => iprop(⌜r = ⟨⟩⌝ ∗ (∃ fl : Buf (Elt F) ((agM5_2 (nbr 2 c) : Memref sig .tc .vmem S1024x256 .bf16).view.loc (c : Thread nD τ)), ⌜V.ag5_2 (nbr 2 c) ((agM5_2 (nbr 2 c) : Memref sig .tc .vmem S1024x256 .bf16).view.read (Elt F) fl)⌝
            ∗ heldW c (agM5_2 (nbr 2 c) : Memref sig .tc .vmem S1024x256 .bf16) fl
            ∗ cred (tallyAt (cell c (.out 23)) () (amt (.out 23)))
            ∗ owes (c : Thread nD τ) (Owe c 39) (insert ((CK.out 2).sem, ()) (insert ((CK.out 1).sem, ()) (insert ((CK.out 0).sem, ()) (insert ((CK.agR 5 2).sem, ()) W))))
            ∗ atPos ER (cell c (.agR 5 2)) 1 ∅ 0
            ∗ atPos ER (cell c (.out 0)) 1 ∅ 0 ∗ ptsIs c (outDstM0 c) (V.out0 c) ∗ ptsAny (F := F) c (outSrcM0 c)
            ∗ atPos ER (cell c (.out 1)) 1 ∅ 0 ∗ ptsIs c (outDstM1 c) (V.out1 c) ∗ ptsAny (F := F) c (outSrcM1 c)
            ∗ atPos ER (cell c (.out 2)) 1 ∅ 0 ∗ ptsIs c (outDstM2 c) (V.out2 c) ∗ ptsAny (F := F) c (outSrcM2 c)))) := by
  simp only [k0_part59_eq_skeleton]; unfold k0_part59_skel
  simp only [Prog.lift, Prog.bind_op, Prog.bind_ret, Prog.pure_eq_ret]
  iintro ⟨HO, #Hlev, #HId, Hcd, Hatd, Hblk, Hdst, #HIo23, Hto23, #Hro23, #HIw0, Hcw0, Hatw0, #HIw1, Hcw1, Hatw1, #HIw2, Hcw2, Hatw2⟩
  unfold heldW
  iapply (wp_wait_xfer V c (.agR 5 2) (by decide) 39 (agR_sem_eq 5 2 _)
      (show (agM5_2 c : Memref sig .tc .vmem S1024x256 .bf16).view.dmaCredit = amt (.agR 5 2) from rfl)
      (wpE_waitDma2_eq 𝒱₀ (c : Thread nD τ) none Set.univ)
      (mayWait_agR c 5 2 39 (by decide)) κd W) $$ [Hcd HO Hatd]
  · isplitr; · iexact HId
    isplitl [Hcd]; · iexact Hcd
    isplitl [HO]; · iexact HO
    isplitr; · iexact Hlev
    iexact Hatd
  iintro ⟨HO, Hatd, Hpay2⟩
  ihave Hp2 := (Entails.of_eq (show pay V c (CK.agR 5 2) 0 = ptsIs c (agM5_2 (nbr 2 c)) (V.ag5_2 (nbr 2 c)) from rfl)) $$ Hpay2
  unfold ptsIs
  icases Hp2 with ⟨%fl, Hl, %hX⟩
  have hinc1 : ((Memref.whole cc0_scratch18 : Memref sig .tc .vmem S2048x256 .bf16).access (Rect.unit (s := S2048x256) (k0_off136 c) ![1024, 256] (k0_off136_inb c))).set
      ⊆ (agM5_2 (nbr 2 c) : Memref sig .tc .vmem S1024x256 .bf16).view.set := by
    rw [View.set_slice_whole, View.set_slice_whole]
    refine unit_subset ?_
    piece_arith c [off136_eq, off118_eq]
  have hinc2 : ((Memref.whole cc0_scratch0 : Memref sig .tc .vmem S2048x2048 .f32).access (Rect.unit (s := S2048x2048) (k0_off137 c) ![1024, 256] (k0_off137_inb c))).set
      ⊆ (outSrcM23 c : Memref sig .tc .vmem S1024x256 .f32).view.set := by
    rw [View.set_slice_whole, View.set_slice_whole]
    refine unit_subset ?_
    piece_arith c [off137_eq, off138_eq]
  have hinc3 : ((Memref.whole cc0_scratch0 : Memref sig .tc .vmem S2048x2048 .f32).access (Rect.unit (s := S2048x2048) (k0_off137 c) ![1024, 256] (k0_off137_inb c))).setOn Finset.univ
      ⊆ (outSrcM23 c : Memref sig .tc .vmem S1024x256 .f32).view.set := by
    rw [View.setOn_univ]
    rw [View.set_slice_whole, View.set_slice_whole]
    refine unit_subset ?_
    piece_arith c [off137_eq, off138_eq]
  sl_exec
  have hpay23 : iprop(((outDstM23 c : Memref sig .tc .hbm S1024x256 .f32).view.loc (c : Thread nD τ) ↦[(outDstM23 c : Memref sig .tc .hbm S1024x256 .f32).view.set]{fullShare}
        ((outDstM23 c : Memref sig .tc .hbm S1024x256 .f32).view.write (Elt F) fo ((outSrcM23 c : Memref sig .tc .vmem S1024x256 .f32).view.read (Elt F) (View.write (Elt F) ((Memref.whole cc0_scratch0 : Memref sig .tc .vmem S2048x2048 .f32).access (Rect.unit (s := S2048x2048) (k0_off137 c) ![1024, 256] (k0_off137_inb c))) fb (k0_pay107 (View.readAt (Elt F) (Memref.whole cc0_scratch18 : Memref sig .tc .vmem S2048x256 .bf16).view (Rect.unit (s := S2048x256) (k0_off136 c) ![1024, 256] (k0_off136_inb c)).toLoadRect fl)) Finset.univ)) Finset.univ))
      ∗ ((outSrcM23 c : Memref sig .tc .vmem S1024x256 .f32).view.loc (c : Thread nD τ) ↦[(outSrcM23 c : Memref sig .tc .vmem S1024x256 .f32).view.set]{fullShare} (View.write (Elt F) ((Memref.whole cc0_scratch0 : Memref sig .tc .vmem S2048x2048 .f32).access (Rect.unit (s := S2048x2048) (k0_off137 c) ![1024, 256] (k0_off137_inb c))) fb (k0_pay107 (View.readAt (Elt F) (Memref.whole cc0_scratch18 : Memref sig .tc .vmem S2048x256 .bf16).view (Rect.unit (s := S2048x256) (k0_off136 c) ![1024, 256] (k0_off136_inb c)).toLoadRect fl)) Finset.univ))) ⊢ pay V c (.out 23) 0 := by
    show _ ⊢ iprop(ptsIs c (outDstM23 c) (V.out23 c) ∗ ptsAny (F := F) c (outSrcM23 c))
    iintro ⟨Hd, Hs⟩
    isplitl [Hd]
    · unfold ptsIs
      iexists _
      isplitl [Hd]; · iexact Hd
      ipureintro; rw [View.read_write_univ]; exact (hV fl hX)
    · unfold ptsAny
      iexists _
      iexact Hs
  iapply (wp_copy_own V c (.out 23) (by decide) (src := outSrcM23 c) (dst := outDstM23 c) (out_sem_eq 23 _) rfl fo κo23 hpay23) $$ [Hblk Hdst Hto23]
  · isplitr; · iexact HIo23
    isplitl [Hblk]; · iexact Hblk
    isplitl [Hdst]; · iexact Hdst
    isplitl [Hto23]; · iexact Hto23
    iexact Hro23
  iintro Hco23
  iapply (wp_wait_xfer V c (.out 0) (by decide) 39 (out_sem_eq 0 _)
      (show (outDstM0 c : Memref sig .tc .hbm S256x384 .f32).view.dmaCredit = amt (.out 0) from rfl)
      (wpE_waitDma2_eq 𝒱₀ (c : Thread nD τ) none Set.univ)
      (mayWait_own c (.out 0) (lv_cell c _) 39) κw0 (insert ((CK.agR 5 2).sem, ()) W)) $$ [Hcw0 HO Hatw0]
  · isplitr; · iexact HIw0
    isplitl [Hcw0]; · iexact Hcw0
    isplitl [HO]; · iexact HO
    isplitr; · iexact Hlev
    iexact Hatw0
  iintro ⟨HO, Hatw0, Hpw0⟩
  ihave Hpw0 := (Entails.of_eq (show pay V c (CK.out 0) 0 = iprop(ptsIs c (outDstM0 c) (V.out0 c) ∗ ptsAny (F := F) c (outSrcM0 c)) from rfl)) $$ Hpw0
  icases Hpw0 with ⟨Hpi0, Hpa0⟩
  iapply (wp_wait_xfer V c (.out 1) (by decide) 39 (out_sem_eq 1 _)
      (show (outDstM1 c : Memref sig .tc .hbm S256x384 .f32).view.dmaCredit = amt (.out 1) from rfl)
      (wpE_waitDma2_eq 𝒱₀ (c : Thread nD τ) none Set.univ)
      (mayWait_own c (.out 1) (lv_cell c _) 39) κw1 (insert ((CK.out 0).sem, ()) (insert ((CK.agR 5 2).sem, ()) W))) $$ [Hcw1 HO Hatw1]
  · isplitr; · iexact HIw1
    isplitl [Hcw1]; · iexact Hcw1
    isplitl [HO]; · iexact HO
    isplitr; · iexact Hlev
    iexact Hatw1
  iintro ⟨HO, Hatw1, Hpw1⟩
  ihave Hpw1 := (Entails.of_eq (show pay V c (CK.out 1) 0 = iprop(ptsIs c (outDstM1 c) (V.out1 c) ∗ ptsAny (F := F) c (outSrcM1 c)) from rfl)) $$ Hpw1
  icases Hpw1 with ⟨Hpi1, Hpa1⟩
  iapply (wp_wait_xfer V c (.out 2) (by decide) 39 (out_sem_eq 2 _)
      (show (outDstM2 c : Memref sig .tc .hbm S256x384 .f32).view.dmaCredit = amt (.out 2) from rfl)
      (wpE_waitDma2_eq 𝒱₀ (c : Thread nD τ) none Set.univ)
      (mayWait_own c (.out 2) (lv_cell c _) 39) κw2 (insert ((CK.out 1).sem, ()) (insert ((CK.out 0).sem, ()) (insert ((CK.agR 5 2).sem, ()) W)))) $$ [Hcw2 HO Hatw2]
  · isplitr; · iexact HIw2
    isplitl [Hcw2]; · iexact Hcw2
    isplitl [HO]; · iexact HO
    isplitr; · iexact Hlev
    iexact Hatw2
  iintro ⟨HO, Hatw2, Hpw2⟩
  ihave Hpw2 := (Entails.of_eq (show pay V c (CK.out 2) 0 = iprop(ptsIs c (outDstM2 c) (V.out2 c) ∗ ptsAny (F := F) c (outSrcM2 c)) from rfl)) $$ Hpw2
  icases Hpw2 with ⟨Hpi2, Hpa2⟩
  sl_step
  isplitr; · ipureintro; trivial
  iexists fl
  isplitr; · ipureintro; exact hX
  unfold ptsIs
  isplitl [Hl]; · iexact Hl
  isplitl [Hco23]; · iexact Hco23
  isplitl [HO]; · iexact HO
  isplitl [Hatd]; · iexact Hatd
  isplitl [Hatw0]; · iexact Hatw0
  isplitl [Hpi0]; · iexact Hpi0
  isplitl [Hpa0]; · iexact Hpa0
  isplitl [Hatw1]; · iexact Hatw1
  isplitl [Hpi1]; · iexact Hpi1
  isplitl [Hpa1]; · iexact Hpa1
  isplitl [Hatw2]; · iexact Hatw2
  isplitl [Hpi2]; · iexact Hpi2
  iexact Hpa2

end Cert.KernelIdeal.Proto

end
-- ==== Proof.Body60.lean ====
/-
Stretch 60 of a device's kernel body: the waits for the result copies 3 to 10; each brings the block of the result array
it wrote and gives the accumulator's block back.
-/
import proofs.«900882_g7700000000000883_dist_matmul_gelu_kshard_i_m2048_n2048_k1024_v7x_i8_f32_1_alg».proof.Proof.Rules
import proofs.«900882_g7700000000000883_dist_matmul_gelu_kshard_i_m2048_n2048_k1024_v7x_i8_f32_1_alg».proof.Proof.TopoTab
import proofs.«900882_g7700000000000883_dist_matmul_gelu_kshard_i_m2048_n2048_k1024_v7x_i8_f32_1_alg».proof.Proof.PiecesTab
import proofs.«900882_g7700000000000883_dist_matmul_gelu_kshard_i_m2048_n2048_k1024_v7x_i8_f32_1_alg».proof.Proof.Gen.KernelIdeal.Skeleton
import proofs.«900882_g7700000000000883_dist_matmul_gelu_kshard_i_m2048_n2048_k1024_v7x_i8_f32_1_alg».proof.Proof.TopoClosed
import proofs.«900882_g7700000000000883_dist_matmul_gelu_kshard_i_m2048_n2048_k1024_v7x_i8_f32_1_alg».proof.Proof.PiecesOutSep
import Idealize.ShloMosaic.Lib.Pipeline.Value

set_option maxRecDepth 16384

noncomputable section

namespace Cert.KernelIdeal.Proto

open Cert.KernelIdeal Cert.KernelIdeal.Gen Cert.KernelIdeal.Topo
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : Vals F)

set_option maxHeartbeats 4000000 in
theorem part60_run (c : Dev nD) (κw3 κw4 κw5 κw6 κw7 κw8 κw9 κw10 : ℕ) (W : Waits sig Unit) :
    iprop(owes (c : Thread nD τ) (Owe c 39) W ∗ levAts L lv
        ∗ cellInv ER (sched V) κw3 (cell c (.out 3)) ∗ cred (tallyAt (cell c (.out 3)) () (amt (.out 3))) ∗ atPos ER (cell c (.out 3)) 0 ∅ 0
        ∗ cellInv ER (sched V) κw4 (cell c (.out 4)) ∗ cred (tallyAt (cell c (.out 4)) () (amt (.out 4))) ∗ atPos ER (cell c (.out 4)) 0 ∅ 0
        ∗ cellInv ER (sched V) κw5 (cell c (.out 5)) ∗ cred (tallyAt (cell c (.out 5)) () (amt (.out 5))) ∗ atPos ER (cell c (.out 5)) 0 ∅ 0
        ∗ cellInv ER (sched V) κw6 (cell c (.out 6)) ∗ cred (tallyAt (cell c (.out 6)) () (amt (.out 6))) ∗ atPos ER (cell c (.out 6)) 0 ∅ 0
        ∗ cellInv ER (sched V) κw7 (cell c (.out 7)) ∗ cred (tallyAt (cell c (.out 7)) () (amt (.out 7))) ∗ atPos ER (cell c (.out 7)) 0 ∅ 0
        ∗ cellInv ER (sched V) κw8 (cell c (.out 8)) ∗ cred (tallyAt (cell c (.out 8)) () (amt (.out 8))) ∗ atPos ER (cell c (.out 8)) 0 ∅ 0
        ∗ cellInv ER (sched V) κw9 (cell c (.out 9)) ∗ cred (tallyAt (cell c (.out 9)) () (amt (.out 9))) ∗ atPos ER (cell c (.out 9)) 0 ∅ 0
        ∗ cellInv ER (sched V) κw10 (cell c (.out 10)) ∗ cred (tallyAt (cell c (.out 10)) () (amt (.out 10))) ∗ atPos ER (cell c (.out 10)) 0 ∅ 0)
      ⊢ wp frame (wpE (defs₀ (F := F)) 𝒱₀ c none) Set.univ
          (k0_part60 (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23 c)
          (fun r => iprop(⌜r = ⟨⟩⌝ ∗ owes (c : Thread nD τ) (Owe c 39) (insert ((CK.out 10).sem, ()) (insert ((CK.out 9).sem, ()) (insert ((CK.out 8).sem, ()) (insert ((CK.out 7).sem, ()) (insert ((CK.out 6).sem, ()) (insert ((CK.out 5).sem, ()) (insert ((CK.out 4).sem, ()) (insert ((CK.out 3).sem, ()) W))))))))
            ∗ atPos ER (cell c (.out 3)) 1 ∅ 0 ∗ ptsIs c (outDstM3 c) (V.out3 c) ∗ ptsAny (F := F) c (outSrcM3 c)
            ∗ atPos ER (cell c (.out 4)) 1 ∅ 0 ∗ ptsIs c (outDstM4 c) (V.out4 c) ∗ ptsAny (F := F) c (outSrcM4 c)
            ∗ atPos ER (cell c (.out 5)) 1 ∅ 0 ∗ ptsIs c (outDstM5 c) (V.out5 c) ∗ ptsAny (F := F) c (outSrcM5 c)
            ∗ atPos ER (cell c (.out 6)) 1 ∅ 0 ∗ ptsIs c (outDstM6 c) (V.out6 c) ∗ ptsAny (F := F) c (outSrcM6 c)
            ∗ atPos ER (cell c (.out 7)) 1 ∅ 0 ∗ ptsIs c (outDstM7 c) (V.out7 c) ∗ ptsAny (F := F) c (outSrcM7 c)
            ∗ atPos ER (cell c (.out 8)) 1 ∅ 0 ∗ ptsIs c (outDstM8 c) (V.out8 c) ∗ ptsAny (F := F) c (outSrcM8 c)
            ∗ atPos ER (cell c (.out 9)) 1 ∅ 0 ∗ ptsIs c (outDstM9 c) (V.out9 c) ∗ ptsAny (F := F) c (outSrcM9 c)
            ∗ atPos ER (cell c (.out 10)) 1 ∅ 0 ∗ ptsIs c (outDstM10 c) (V.out10 c) ∗ ptsAny (F := F) c (outSrcM10 c))) := by
  simp only [k0_part60_eq_skeleton]; unfold k0_part60_skel
  simp only [Prog.lift, Prog.bind_op, Prog.bind_ret, Prog.pure_eq_ret]
  iintro ⟨HO, #Hlev, #HIw3, Hcw3, Hatw3, #HIw4, Hcw4, Hatw4, #HIw5, Hcw5, Hatw5, #HIw6, Hcw6, Hatw6, #HIw7, Hcw7, Hatw7, #HIw8, Hcw8, Hatw8, #HIw9, Hcw9, Hatw9, #HIw10, Hcw10, Hatw10⟩
  iapply (wp_wait_xfer V c (.out 3) (by decide) 39 (out_sem_eq 3 _)
      (show (outDstM3 c : Memref sig .tc .hbm S256x384 .f32).view.dmaCredit = amt (.out 3) from rfl)
      (wpE_waitDma2_eq 𝒱₀ (c : Thread nD τ) none Set.univ)
      (mayWait_own c (.out 3) (lv_cell c _) 39) κw3 W) $$ [Hcw3 HO Hatw3]
  · isplitr; · iexact HIw3
    isplitl [Hcw3]; · iexact Hcw3
    isplitl [HO]; · iexact HO
    isplitr; · iexact Hlev
    iexact Hatw3
  iintro ⟨HO, Hatw3, Hpw3⟩
  ihave Hpw3 := (Entails.of_eq (show pay V c (CK.out 3) 0 = iprop(ptsIs c (outDstM3 c) (V.out3 c) ∗ ptsAny (F := F) c (outSrcM3 c)) from rfl)) $$ Hpw3
  icases Hpw3 with ⟨Hpi3, Hpa3⟩
  iapply (wp_wait_xfer V c (.out 4) (by decide) 39 (out_sem_eq 4 _)
      (show (outDstM4 c : Memref sig .tc .hbm S256x256 .f32).view.dmaCredit = amt (.out 4) from rfl)
      (wpE_waitDma2_eq 𝒱₀ (c : Thread nD τ) none Set.univ)
      (mayWait_own c (.out 4) (lv_cell c _) 39) κw4 (insert ((CK.out 3).sem, ()) W)) $$ [Hcw4 HO Hatw4]
  · isplitr; · iexact HIw4
    isplitl [Hcw4]; · iexact Hcw4
    isplitl [HO]; · iexact HO
    isplitr; · iexact Hlev
    iexact Hatw4
  iintro ⟨HO, Hatw4, Hpw4⟩
  ihave Hpw4 := (Entails.of_eq (show pay V c (CK.out 4) 0 = iprop(ptsIs c (outDstM4 c) (V.out4 c) ∗ ptsAny (F := F) c (outSrcM4 c)) from rfl)) $$ Hpw4
  icases Hpw4 with ⟨Hpi4, Hpa4⟩
  iapply (wp_wait_xfer V c (.out 5) (by decide) 39 (out_sem_eq 5 _)
      (show (outDstM5 c : Memref sig .tc .hbm S256x256 .f32).view.dmaCredit = amt (.out 5) from rfl)
      (wpE_waitDma2_eq 𝒱₀ (c : Thread nD τ) none Set.univ)
      (mayWait_own c (.out 5) (lv_cell c _) 39) κw5 (insert ((CK.out 4).sem, ()) (insert ((CK.out 3).sem, ()) W))) $$ [Hcw5 HO Hatw5]
  · isplitr; · iexact HIw5
    isplitl [Hcw5]; · iexact Hcw5
    isplitl [HO]; · iexact HO
    isplitr; · iexact Hlev
    iexact Hatw5
  iintro ⟨HO, Hatw5, Hpw5⟩
  ihave Hpw5 := (Entails.of_eq (show pay V c (CK.out 5) 0 = iprop(ptsIs c (outDstM5 c) (V.out5 c) ∗ ptsAny (F := F) c (outSrcM5 c)) from rfl)) $$ Hpw5
  icases Hpw5 with ⟨Hpi5, Hpa5⟩
  iapply (wp_wait_xfer V c (.out 6) (by decide) 39 (out_sem_eq 6 _)
      (show (outDstM6 c : Memref sig .tc .hbm S256x384 .f32).view.dmaCredit = amt (.out 6) from rfl)
      (wpE_waitDma2_eq 𝒱₀ (c : Thread nD τ) none Set.univ)
      (mayWait_own c (.out 6) (lv_cell c _) 39) κw6 (insert ((CK.out 5).sem, ()) (insert ((CK.out 4).sem, ()) (insert ((CK.out 3).sem, ()) W)))) $$ [Hcw6 HO Hatw6]
  · isplitr; · iexact HIw6
    isplitl [Hcw6]; · iexact Hcw6
    isplitl [HO]; · iexact HO
    isplitr; · iexact Hlev
    iexact Hatw6
  iintro ⟨HO, Hatw6, Hpw6⟩
  ihave Hpw6 := (Entails.of_eq (show pay V c (CK.out 6) 0 = iprop(ptsIs c (outDstM6 c) (V.out6 c) ∗ ptsAny (F := F) c (outSrcM6 c)) from rfl)) $$ Hpw6
  icases Hpw6 with ⟨Hpi6, Hpa6⟩
  iapply (wp_wait_xfer V c (.out 7) (by decide) 39 (out_sem_eq 7 _)
      (show (outDstM7 c : Memref sig .tc .hbm S256x384 .f32).view.dmaCredit = amt (.out 7) from rfl)
      (wpE_waitDma2_eq 𝒱₀ (c : Thread nD τ) none Set.univ)
      (mayWait_own c (.out 7) (lv_cell c _) 39) κw7 (insert ((CK.out 6).sem, ()) (insert ((CK.out 5).sem, ()) (insert ((CK.out 4).sem, ()) (insert ((CK.out 3).sem, ()) W))))) $$ [Hcw7 HO Hatw7]
  · isplitr; · iexact HIw7
    isplitl [Hcw7]; · iexact Hcw7
    isplitl [HO]; · iexact HO
    isplitr; · iexact Hlev
    iexact Hatw7
  iintro ⟨HO, Hatw7, Hpw7⟩
  ihave Hpw7 := (Entails.of_eq (show pay V c (CK.out 7) 0 = iprop(ptsIs c (outDstM7 c) (V.out7 c) ∗ ptsAny (F := F) c (outSrcM7 c)) from rfl)) $$ Hpw7
  icases Hpw7 with ⟨Hpi7, Hpa7⟩
  iapply (wp_wait_xfer V c (.out 8) (by decide) 39 (out_sem_eq 8 _)
      (show (outDstM8 c : Memref sig .tc .hbm S256x384 .f32).view.dmaCredit = amt (.out 8) from rfl)
      (wpE_waitDma2_eq 𝒱₀ (c : Thread nD τ) none Set.univ)
      (mayWait_own c (.out 8) (lv_cell c _) 39) κw8 (insert ((CK.out 7).sem, ()) (insert ((CK.out 6).sem, ()) (insert ((CK.out 5).sem, ()) (insert ((CK.out 4).sem, ()) (insert ((CK.out 3).sem, ()) W)))))) $$ [Hcw8 HO Hatw8]
  · isplitr; · iexact HIw8
    isplitl [Hcw8]; · iexact Hcw8
    isplitl [HO]; · iexact HO
    isplitr; · iexact Hlev
    iexact Hatw8
  iintro ⟨HO, Hatw8, Hpw8⟩
  ihave Hpw8 := (Entails.of_eq (show pay V c (CK.out 8) 0 = iprop(ptsIs c (outDstM8 c) (V.out8 c) ∗ ptsAny (F := F) c (outSrcM8 c)) from rfl)) $$ Hpw8
  icases Hpw8 with ⟨Hpi8, Hpa8⟩
  iapply (wp_wait_xfer V c (.out 9) (by decide) 39 (out_sem_eq 9 _)
      (show (outDstM9 c : Memref sig .tc .hbm S256x384 .f32).view.dmaCredit = amt (.out 9) from rfl)
      (wpE_waitDma2_eq 𝒱₀ (c : Thread nD τ) none Set.univ)
      (mayWait_own c (.out 9) (lv_cell c _) 39) κw9 (insert ((CK.out 8).sem, ()) (insert ((CK.out 7).sem, ()) (insert ((CK.out 6).sem, ()) (insert ((CK.out 5).sem, ()) (insert ((CK.out 4).sem, ()) (insert ((CK.out 3).sem, ()) W))))))) $$ [Hcw9 HO Hatw9]
  · isplitr; · iexact HIw9
    isplitl [Hcw9]; · iexact Hcw9
    isplitl [HO]; · iexact HO
    isplitr; · iexact Hlev
    iexact Hatw9
  iintro ⟨HO, Hatw9, Hpw9⟩
  ihave Hpw9 := (Entails.of_eq (show pay V c (CK.out 9) 0 = iprop(ptsIs c (outDstM9 c) (V.out9 c) ∗ ptsAny (F := F) c (outSrcM9 c)) from rfl)) $$ Hpw9
  icases Hpw9 with ⟨Hpi9, Hpa9⟩
  iapply (wp_wait_xfer V c (.out 10) (by decide) 39 (out_sem_eq 10 _)
      (show (outDstM10 c : Memref sig .tc .hbm S256x256 .f32).view.dmaCredit = amt (.out 10) from rfl)
      (wpE_waitDma2_eq 𝒱₀ (c : Thread nD τ) none Set.univ)
      (mayWait_own c (.out 10) (lv_cell c _) 39) κw10 (insert ((CK.out 9).sem, ()) (insert ((CK.out 8).sem, ()) (insert ((CK.out 7).sem, ()) (insert ((CK.out 6).sem, ()) (insert ((CK.out 5).sem, ()) (insert ((CK.out 4).sem, ()) (insert ((CK.out 3).sem, ()) W)))))))) $$ [Hcw10 HO Hatw10]
  · isplitr; · iexact HIw10
    isplitl [Hcw10]; · iexact Hcw10
    isplitl [HO]; · iexact HO
    isplitr; · iexact Hlev
    iexact Hatw10
  iintro ⟨HO, Hatw10, Hpw10⟩
  ihave Hpw10 := (Entails.of_eq (show pay V c (CK.out 10) 0 = iprop(ptsIs c (outDstM10 c) (V.out10 c) ∗ ptsAny (F := F) c (outSrcM10 c)) from rfl)) $$ Hpw10
  icases Hpw10 with ⟨Hpi10, Hpa10⟩
  sl_step
  isplitr; · ipureintro; trivial
  isplitl [HO]; · iexact HO
  isplitl [Hatw3]; · iexact Hatw3
  isplitl [Hpi3]; · iexact Hpi3
  isplitl [Hpa3]; · iexact Hpa3
  isplitl [Hatw4]; · iexact Hatw4
  isplitl [Hpi4]; · iexact Hpi4
  isplitl [Hpa4]; · iexact Hpa4
  isplitl [Hatw5]; · iexact Hatw5
  isplitl [Hpi5]; · iexact Hpi5
  isplitl [Hpa5]; · iexact Hpa5
  isplitl [Hatw6]; · iexact Hatw6
  isplitl [Hpi6]; · iexact Hpi6
  isplitl [Hpa6]; · iexact Hpa6
  isplitl [Hatw7]; · iexact Hatw7
  isplitl [Hpi7]; · iexact Hpi7
  isplitl [Hpa7]; · iexact Hpa7
  isplitl [Hatw8]; · iexact Hatw8
  isplitl [Hpi8]; · iexact Hpi8
  isplitl [Hpa8]; · iexact Hpa8
  isplitl [Hatw9]; · iexact Hatw9
  isplitl [Hpi9]; · iexact Hpi9
  isplitl [Hpa9]; · iexact Hpa9
  isplitl [Hatw10]; · iexact Hatw10
  isplitl [Hpi10]; · iexact Hpi10
  iexact Hpa10

end Cert.KernelIdeal.Proto

end
-- ==== Proof.Body61.lean ====
/-
Stretch 61 of a device's kernel body: the waits for the result copies 11 to 17.
-/
import proofs.«900882_g7700000000000883_dist_matmul_gelu_kshard_i_m2048_n2048_k1024_v7x_i8_f32_1_alg».proof.Proof.Rules
import proofs.«900882_g7700000000000883_dist_matmul_gelu_kshard_i_m2048_n2048_k1024_v7x_i8_f32_1_alg».proof.Proof.TopoTab
import proofs.«900882_g7700000000000883_dist_matmul_gelu_kshard_i_m2048_n2048_k1024_v7x_i8_f32_1_alg».proof.Proof.PiecesTab
import proofs.«900882_g7700000000000883_dist_matmul_gelu_kshard_i_m2048_n2048_k1024_v7x_i8_f32_1_alg».proof.Proof.Gen.KernelIdeal.Skeleton
import proofs.«900882_g7700000000000883_dist_matmul_gelu_kshard_i_m2048_n2048_k1024_v7x_i8_f32_1_alg».proof.Proof.TopoClosed
import proofs.«900882_g7700000000000883_dist_matmul_gelu_kshard_i_m2048_n2048_k1024_v7x_i8_f32_1_alg».proof.Proof.PiecesOutSep
import Idealize.ShloMosaic.Lib.Pipeline.Value

set_option maxRecDepth 16384

noncomputable section

namespace Cert.KernelIdeal.Proto

open Cert.KernelIdeal Cert.KernelIdeal.Gen Cert.KernelIdeal.Topo
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : Vals F)

set_option maxHeartbeats 4000000 in
theorem part61_run (c : Dev nD) (κw11 κw12 κw13 κw14 κw15 κw16 κw17 : ℕ) (W : Waits sig Unit) :
    iprop(owes (c : Thread nD τ) (Owe c 39) W ∗ levAts L lv
        ∗ cellInv ER (sched V) κw11 (cell c (.out 11)) ∗ cred (tallyAt (cell c (.out 11)) () (amt (.out 11))) ∗ atPos ER (cell c (.out 11)) 0 ∅ 0
        ∗ cellInv ER (sched V) κw12 (cell c (.out 12)) ∗ cred (tallyAt (cell c (.out 12)) () (amt (.out 12))) ∗ atPos ER (cell c (.out 12)) 0 ∅ 0
        ∗ cellInv ER (sched V) κw13 (cell c (.out 13)) ∗ cred (tallyAt (cell c (.out 13)) () (amt (.out 13))) ∗ atPos ER (cell c (.out 13)) 0 ∅ 0
        ∗ cellInv ER (sched V) κw14 (cell c (.out 14)) ∗ cred (tallyAt (cell c (.out 14)) () (amt (.out 14))) ∗ atPos ER (cell c (.out 14)) 0 ∅ 0
        ∗ cellInv ER (sched V) κw15 (cell c (.out 15)) ∗ cred (tallyAt (cell c (.out 15)) () (amt (.out 15))) ∗ atPos ER (cell c (.out 15)) 0 ∅ 0
        ∗ cellInv ER (sched V) κw16 (cell c (.out 16)) ∗ cred (tallyAt (cell c (.out 16)) () (amt (.out 16))) ∗ atPos ER (cell c (.out 16)) 0 ∅ 0
        ∗ cellInv ER (sched V) κw17 (cell c (.out 17)) ∗ cred (tallyAt (cell c (.out 17)) () (amt (.out 17))) ∗ atPos ER (cell c (.out 17)) 0 ∅ 0)
      ⊢ wp frame (wpE (defs₀ (F := F)) 𝒱₀ c none) Set.univ
          (k0_part61 (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23 c)
          (fun r => iprop(⌜r = ⟨⟩⌝ ∗ owes (c : Thread nD τ) (Owe c 39) (insert ((CK.out 17).sem, ()) (insert ((CK.out 16).sem, ()) (insert ((CK.out 15).sem, ()) (insert ((CK.out 14).sem, ()) (insert ((CK.out 13).sem, ()) (insert ((CK.out 12).sem, ()) (insert ((CK.out 11).sem, ()) W)))))))
            ∗ atPos ER (cell c (.out 11)) 1 ∅ 0 ∗ ptsIs c (outDstM11 c) (V.out11 c) ∗ ptsAny (F := F) c (outSrcM11 c)
            ∗ atPos ER (cell c (.out 12)) 1 ∅ 0 ∗ ptsIs c (outDstM12 c) (V.out12 c) ∗ ptsAny (F := F) c (outSrcM12 c)
            ∗ atPos ER (cell c (.out 13)) 1 ∅ 0 ∗ ptsIs c (outDstM13 c) (V.out13 c) ∗ ptsAny (F := F) c (outSrcM13 c)
            ∗ atPos ER (cell c (.out 14)) 1 ∅ 0 ∗ ptsIs c (outDstM14 c) (V.out14 c) ∗ ptsAny (F := F) c (outSrcM14 c)
            ∗ atPos ER (cell c (.out 15)) 1 ∅ 0 ∗ ptsIs c (outDstM15 c) (V.out15 c) ∗ ptsAny (F := F) c (outSrcM15 c)
            ∗ atPos ER (cell c (.out 16)) 1 ∅ 0 ∗ ptsIs c (outDstM16 c) (V.out16 c) ∗ ptsAny (F := F) c (outSrcM16 c)
            ∗ atPos ER (cell c (.out 17)) 1 ∅ 0 ∗ ptsIs c (outDstM17 c) (V.out17 c) ∗ ptsAny (F := F) c (outSrcM17 c))) := by
  simp only [k0_part61_eq_skeleton]; unfold k0_part61_skel
  simp only [Prog.lift, Prog.bind_op, Prog.bind_ret, Prog.pure_eq_ret]
  iintro ⟨HO, #Hlev, #HIw11, Hcw11, Hatw11, #HIw12, Hcw12, Hatw12, #HIw13, Hcw13, Hatw13, #HIw14, Hcw14, Hatw14, #HIw15, Hcw15, Hatw15, #HIw16, Hcw16, Hatw16, #HIw17, Hcw17, Hatw17⟩
  iapply (wp_wait_xfer V c (.out 11) (by decide) 39 (out_sem_eq 11 _)
      (show (outDstM11 c : Memref sig .tc .hbm S256x256 .f32).view.dmaCredit = amt (.out 11) from rfl)
      (wpE_waitDma2_eq 𝒱₀ (c : Thread nD τ) none Set.univ)
      (mayWait_own c (.out 11) (lv_cell c _) 39) κw11 W) $$ [Hcw11 HO Hatw11]
  · isplitr; · iexact HIw11
    isplitl [Hcw11]; · iexact Hcw11
    isplitl [HO]; · iexact HO
    isplitr; · iexact Hlev
    iexact Hatw11
  iintro ⟨HO, Hatw11, Hpw11⟩
  ihave Hpw11 := (Entails.of_eq (show pay V c (CK.out 11) 0 = iprop(ptsIs c (outDstM11 c) (V.out11 c) ∗ ptsAny (F := F) c (outSrcM11 c)) from rfl)) $$ Hpw11
  icases Hpw11 with ⟨Hpi11, Hpa11⟩
  iapply (wp_wait_xfer V c (.out 12) (by decide) 39 (out_sem_eq 12 _)
      (show (outDstM12 c : Memref sig .tc .hbm S512x384 .f32).view.dmaCredit = amt (.out 12) from rfl)
      (wpE_waitDma2_eq 𝒱₀ (c : Thread nD τ) none Set.univ)
      (mayWait_own c (.out 12) (lv_cell c _) 39) κw12 (insert ((CK.out 11).sem, ()) W)) $$ [Hcw12 HO Hatw12]
  · isplitr; · iexact HIw12
    isplitl [Hcw12]; · iexact Hcw12
    isplitl [HO]; · iexact HO
    isplitr; · iexact Hlev
    iexact Hatw12
  iintro ⟨HO, Hatw12, Hpw12⟩
  ihave Hpw12 := (Entails.of_eq (show pay V c (CK.out 12) 0 = iprop(ptsIs c (outDstM12 c) (V.out12 c) ∗ ptsAny (F := F) c (outSrcM12 c)) from rfl)) $$ Hpw12
  icases Hpw12 with ⟨Hpi12, Hpa12⟩
  iapply (wp_wait_xfer V c (.out 13) (by decide) 39 (out_sem_eq 13 _)
      (show (outDstM13 c : Memref sig .tc .hbm S512x384 .f32).view.dmaCredit = amt (.out 13) from rfl)
      (wpE_waitDma2_eq 𝒱₀ (c : Thread nD τ) none Set.univ)
      (mayWait_own c (.out 13) (lv_cell c _) 39) κw13 (insert ((CK.out 12).sem, ()) (insert ((CK.out 11).sem, ()) W))) $$ [Hcw13 HO Hatw13]
  · isplitr; · iexact HIw13
    isplitl [Hcw13]; · iexact Hcw13
    isplitl [HO]; · iexact HO
    isplitr; · iexact Hlev
    iexact Hatw13
  iintro ⟨HO, Hatw13, Hpw13⟩
  ihave Hpw13 := (Entails.of_eq (show pay V c (CK.out 13) 0 = iprop(ptsIs c (outDstM13 c) (V.out13 c) ∗ ptsAny (F := F) c (outSrcM13 c)) from rfl)) $$ Hpw13
  icases Hpw13 with ⟨Hpi13, Hpa13⟩
  iapply (wp_wait_xfer V c (.out 14) (by decide) 39 (out_sem_eq 14 _)
      (show (outDstM14 c : Memref sig .tc .hbm S512x384 .f32).view.dmaCredit = amt (.out 14) from rfl)
      (wpE_waitDma2_eq 𝒱₀ (c : Thread nD τ) none Set.univ)
      (mayWait_own c (.out 14) (lv_cell c _) 39) κw14 (insert ((CK.out 13).sem, ()) (insert ((CK.out 12).sem, ()) (insert ((CK.out 11).sem, ()) W)))) $$ [Hcw14 HO Hatw14]
  · isplitr; · iexact HIw14
    isplitl [Hcw14]; · iexact Hcw14
    isplitl [HO]; · iexact HO
    isplitr; · iexact Hlev
    iexact Hatw14
  iintro ⟨HO, Hatw14, Hpw14⟩
  ihave Hpw14 := (Entails.of_eq (show pay V c (CK.out 14) 0 = iprop(ptsIs c (outDstM14 c) (V.out14 c) ∗ ptsAny (F := F) c (outSrcM14 c)) from rfl)) $$ Hpw14
  icases Hpw14 with ⟨Hpi14, Hpa14⟩
  iapply (wp_wait_xfer V c (.out 15) (by decide) 39 (out_sem_eq 15 _)
      (show (outDstM15 c : Memref sig .tc .hbm S512x384 .f32).view.dmaCredit = amt (.out 15) from rfl)
      (wpE_waitDma2_eq 𝒱₀ (c : Thread nD τ) none Set.univ)
      (mayWait_own c (.out 15) (lv_cell c _) 39) κw15 (insert ((CK.out 14).sem, ()) (insert ((CK.out 13).sem, ()) (insert ((CK.out 12).sem, ()) (insert ((CK.out 11).sem, ()) W))))) $$ [Hcw15 HO Hatw15]
  · isplitr; · iexact HIw15
    isplitl [Hcw15]; · iexact Hcw15
    isplitl [HO]; · iexact HO
    isplitr; · iexact Hlev
    iexact Hatw15
  iintro ⟨HO, Hatw15, Hpw15⟩
  ihave Hpw15 := (Entails.of_eq (show pay V c (CK.out 15) 0 = iprop(ptsIs c (outDstM15 c) (V.out15 c) ∗ ptsAny (F := F) c (outSrcM15 c)) from rfl)) $$ Hpw15
  icases Hpw15 with ⟨Hpi15, Hpa15⟩
  iapply (wp_wait_xfer V c (.out 16) (by decide) 39 (out_sem_eq 16 _)
      (show (outDstM16 c : Memref sig .tc .hbm S512x256 .f32).view.dmaCredit = amt (.out 16) from rfl)
      (wpE_waitDma2_eq 𝒱₀ (c : Thread nD τ) none Set.univ)
      (mayWait_own c (.out 16) (lv_cell c _) 39) κw16 (insert ((CK.out 15).sem, ()) (insert ((CK.out 14).sem, ()) (insert ((CK.out 13).sem, ()) (insert ((CK.out 12).sem, ()) (insert ((CK.out 11).sem, ()) W)))))) $$ [Hcw16 HO Hatw16]
  · isplitr; · iexact HIw16
    isplitl [Hcw16]; · iexact Hcw16
    isplitl [HO]; · iexact HO
    isplitr; · iexact Hlev
    iexact Hatw16
  iintro ⟨HO, Hatw16, Hpw16⟩
  ihave Hpw16 := (Entails.of_eq (show pay V c (CK.out 16) 0 = iprop(ptsIs c (outDstM16 c) (V.out16 c) ∗ ptsAny (F := F) c (outSrcM16 c)) from rfl)) $$ Hpw16
  icases Hpw16 with ⟨Hpi16, Hpa16⟩
  iapply (wp_wait_xfer V c (.out 17) (by decide) 39 (out_sem_eq 17 _)
      (show (outDstM17 c : Memref sig .tc .hbm S512x256 .f32).view.dmaCredit = amt (.out 17) from rfl)
      (wpE_waitDma2_eq 𝒱₀ (c : Thread nD τ) none Set.univ)
      (mayWait_own c (.out 17) (lv_cell c _) 39) κw17 (insert ((CK.out 16).sem, ()) (insert ((CK.out 15).sem, ()) (insert ((CK.out 14).sem, ()) (insert ((CK.out 13).sem, ()) (insert ((CK.out 12).sem, ()) (insert ((CK.out 11).sem, ()) W))))))) $$ [Hcw17 HO Hatw17]
  · isplitr; · iexact HIw17
    isplitl [Hcw17]; · iexact Hcw17
    isplitl [HO]; · iexact HO
    isplitr; · iexact Hlev
    iexact Hatw17
  iintro ⟨HO, Hatw17, Hpw17⟩
  ihave Hpw17 := (Entails.of_eq (show pay V c (CK.out 17) 0 = iprop(ptsIs c (outDstM17 c) (V.out17 c) ∗ ptsAny (F := F) c (outSrcM17 c)) from rfl)) $$ Hpw17
  icases Hpw17 with ⟨Hpi17, Hpa17⟩
  sl_step
  isplitr; · ipureintro; trivial
  isplitl [HO]; · iexact HO
  isplitl [Hatw11]; · iexact Hatw11
  isplitl [Hpi11]; · iexact Hpi11
  isplitl [Hpa11]; · iexact Hpa11
  isplitl [Hatw12]; · iexact Hatw12
  isplitl [Hpi12]; · iexact Hpi12
  isplitl [Hpa12]; · iexact Hpa12
  isplitl [Hatw13]; · iexact Hatw13
  isplitl [Hpi13]; · iexact Hpi13
  isplitl [Hpa13]; · iexact Hpa13
  isplitl [Hatw14]; · iexact Hatw14
  isplitl [Hpi14]; · iexact Hpi14
  isplitl [Hpa14]; · iexact Hpa14
  isplitl [Hatw15]; · iexact Hatw15
  isplitl [Hpi15]; · iexact Hpi15
  isplitl [Hpa15]; · iexact Hpa15
  isplitl [Hatw16]; · iexact Hatw16
  isplitl [Hpi16]; · iexact Hpi16
  isplitl [Hpa16]; · iexact Hpa16
  isplitl [Hatw17]; · iexact Hatw17
  isplitl [Hpi17]; · iexact Hpi17
  iexact Hpa17

end Cert.KernelIdeal.Proto

end
-- ==== Proof.Body62.lean ====
/-
The end of a device's kernel body: the six waits for the result copies 18 to 23 (the 1024-row blocks), each bringing the
block of the result array it wrote and giving the accumulator's block back; and the body as its stretches followed by them.
-/
import proofs.«900882_g7700000000000883_dist_matmul_gelu_kshard_i_m2048_n2048_k1024_v7x_i8_f32_1_alg».proof.Proof.Rules
import proofs.«900882_g7700000000000883_dist_matmul_gelu_kshard_i_m2048_n2048_k1024_v7x_i8_f32_1_alg».proof.Proof.TopoTab
import proofs.«900882_g7700000000000883_dist_matmul_gelu_kshard_i_m2048_n2048_k1024_v7x_i8_f32_1_alg».proof.Proof.PiecesTab
import proofs.«900882_g7700000000000883_dist_matmul_gelu_kshard_i_m2048_n2048_k1024_v7x_i8_f32_1_alg».proof.Proof.Gen.KernelIdeal.Skeleton
import proofs.«900882_g7700000000000883_dist_matmul_gelu_kshard_i_m2048_n2048_k1024_v7x_i8_f32_1_alg».proof.Proof.TopoClosed
import proofs.«900882_g7700000000000883_dist_matmul_gelu_kshard_i_m2048_n2048_k1024_v7x_i8_f32_1_alg».proof.Proof.PiecesOutSep
import Idealize.ShloMosaic.Lib.Pipeline.Value

set_option maxRecDepth 16384

noncomputable section

namespace Cert.KernelIdeal.Proto

open Cert.KernelIdeal Cert.KernelIdeal.Gen Cert.KernelIdeal.Topo
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : Vals F)

/-- The six waits that end the body: for the result copies 18 to 23. -/
def tailProg (c : Dev nD) : Prog (TpuEff nD τ sig (Elt F) Λ₀ .tc) PUnit := do
  Prog.lift (.waitDma2 ((cc0_scratch23.slice (Rect.unit (s := S24) ![18] S1.size inb_S24_S1_18)).squeeze S_ squeezes_S1_S_).sem (outSrcM18 c) (outDstM18 c) (View.wordExact_bits rfl) (View.wordExact_bits rfl))
  Prog.lift (.waitDma2 ((cc0_scratch23.slice (Rect.unit (s := S24) ![19] S1.size inb_S24_S1_19)).squeeze S_ squeezes_S1_S_).sem (outSrcM19 c) (outDstM19 c) (View.wordExact_bits rfl) (View.wordExact_bits rfl))
  Prog.lift (.waitDma2 ((cc0_scratch23.slice (Rect.unit (s := S24) ![20] S1.size inb_S24_S1_20)).squeeze S_ squeezes_S1_S_).sem (outSrcM20 c) (outDstM20 c) (View.wordExact_bits rfl) (View.wordExact_bits rfl))
  Prog.lift (.waitDma2 ((cc0_scratch23.slice (Rect.unit (s := S24) ![21] S1.size inb_S24_S1_21)).squeeze S_ squeezes_S1_S_).sem (outSrcM21 c) (outDstM21 c) (View.wordExact_bits rfl) (View.wordExact_bits rfl))
  Prog.lift (.waitDma2 ((cc0_scratch23.slice (Rect.unit (s := S24) ![22] S1.size inb_S24_S1_22)).squeeze S_ squeezes_S1_S_).sem (outSrcM22 c) (outDstM22 c) (View.wordExact_bits rfl) (View.wordExact_bits rfl))
  Prog.lift (.waitDma2 ((cc0_scratch23.slice (Rect.unit (s := S24) ![23] S1.size inb_S24_S1_23)).squeeze S_ squeezes_S1_S_).sem (outSrcM23 c) (outDstM23 c) (View.wordExact_bits rfl) (View.wordExact_bits rfl))
  pure ⟨⟩

/-- The body is its first stretches, the stretch of the waits 11 to 17, and these six waits. -/
theorem cc0_body_tail :
    cc0_body (F := F) (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23
      = (do
          let d0 ← k0_part62 (F := F) (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23
          k0_part61 (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23 d0
          tailProg d0) := rfl

set_option maxHeartbeats 4000000 in
theorem tail_run (c : Dev nD) (κw18 κw19 κw20 κw21 κw22 κw23 : ℕ) (W : Waits sig Unit) :
    iprop(owes (c : Thread nD τ) (Owe c 39) W ∗ levAts L lv
        ∗ cellInv ER (sched V) κw18 (cell c (.out 18)) ∗ cred (tallyAt (cell c (.out 18)) () (amt (.out 18))) ∗ atPos ER (cell c (.out 18)) 0 ∅ 0
        ∗ cellInv ER (sched V) κw19 (cell c (.out 19)) ∗ cred (tallyAt (cell c (.out 19)) () (amt (.out 19))) ∗ atPos ER (cell c (.out 19)) 0 ∅ 0
        ∗ cellInv ER (sched V) κw20 (cell c (.out 20)) ∗ cred (tallyAt (cell c (.out 20)) () (amt (.out 20))) ∗ atPos ER (cell c (.out 20)) 0 ∅ 0
        ∗ cellInv ER (sched V) κw21 (cell c (.out 21)) ∗ cred (tallyAt (cell c (.out 21)) () (amt (.out 21))) ∗ atPos ER (cell c (.out 21)) 0 ∅ 0
        ∗ cellInv ER (sched V) κw22 (cell c (.out 22)) ∗ cred (tallyAt (cell c (.out 22)) () (amt (.out 22))) ∗ atPos ER (cell c (.out 22)) 0 ∅ 0
        ∗ cellInv ER (sched V) κw23 (cell c (.out 23)) ∗ cred (tallyAt (cell c (.out 23)) () (amt (.out 23))) ∗ atPos ER (cell c (.out 23)) 0 ∅ 0)
      ⊢ wp frame (wpE (defs₀ (F := F)) 𝒱₀ c none) Set.univ
          (tailProg (F := F) c)
          (fun r => iprop(⌜r = ⟨⟩⌝ ∗ owes (c : Thread nD τ) (Owe c 39) (insert ((CK.out 23).sem, ()) (insert ((CK.out 22).sem, ()) (insert ((CK.out 21).sem, ()) (insert ((CK.out 20).sem, ()) (insert ((CK.out 19).sem, ()) (insert ((CK.out 18).sem, ()) W))))))
            ∗ atPos ER (cell c (.out 18)) 1 ∅ 0 ∗ ptsIs c (outDstM18 c) (V.out18 c) ∗ ptsAny (F := F) c (outSrcM18 c)
            ∗ atPos ER (cell c (.out 19)) 1 ∅ 0 ∗ ptsIs c (outDstM19 c) (V.out19 c) ∗ ptsAny (F := F) c (outSrcM19 c)
            ∗ atPos ER (cell c (.out 20)) 1 ∅ 0 ∗ ptsIs c (outDstM20 c) (V.out20 c) ∗ ptsAny (F := F) c (outSrcM20 c)
            ∗ atPos ER (cell c (.out 21)) 1 ∅ 0 ∗ ptsIs c (outDstM21 c) (V.out21 c) ∗ ptsAny (F := F) c (outSrcM21 c)
            ∗ atPos ER (cell c (.out 22)) 1 ∅ 0 ∗ ptsIs c (outDstM22 c) (V.out22 c) ∗ ptsAny (F := F) c (outSrcM22 c)
            ∗ atPos ER (cell c (.out 23)) 1 ∅ 0 ∗ ptsIs c (outDstM23 c) (V.out23 c) ∗ ptsAny (F := F) c (outSrcM23 c))) := by
  unfold tailProg
  simp only [Prog.lift, Prog.bind_op, Prog.bind_ret, Prog.pure_eq_ret]
  iintro ⟨HO, #Hlev, #HIw18, Hcw18, Hatw18, #HIw19, Hcw19, Hatw19, #HIw20, Hcw20, Hatw20, #HIw21, Hcw21, Hatw21, #HIw22, Hcw22, Hatw22, #HIw23, Hcw23, Hatw23⟩
  iapply (wp_wait_xfer V c (.out 18) (by decide) 39 (out_sem_eq 18 _)
      (show (outDstM18 c : Memref sig .tc .hbm S1024x384 .f32).view.dmaCredit = amt (.out 18) from rfl)
      (wpE_waitDma2_eq 𝒱₀ (c : Thread nD τ) none Set.univ)
      (mayWait_own c (.out 18) (lv_cell c _) 39) κw18 W) $$ [Hcw18 HO Hatw18]
  · isplitr; · iexact HIw18
    isplitl [Hcw18]; · iexact Hcw18
    isplitl [HO]; · iexact HO
    isplitr; · iexact Hlev
    iexact Hatw18
  iintro ⟨HO, Hatw18, Hpw18⟩
  ihave Hpw18 := (Entails.of_eq (show pay V c (CK.out 18) 0 = iprop(ptsIs c (outDstM18 c) (V.out18 c) ∗ ptsAny (F := F) c (outSrcM18 c)) from rfl)) $$ Hpw18
  icases Hpw18 with ⟨Hpi18, Hpa18⟩
  iapply (wp_wait_xfer V c (.out 19) (by decide) 39 (out_sem_eq 19 _)
      (show (outDstM19 c : Memref sig .tc .hbm S1024x384 .f32).view.dmaCredit = amt (.out 19) from rfl)
      (wpE_waitDma2_eq 𝒱₀ (c : Thread nD τ) none Set.univ)
      (mayWait_own c (.out 19) (lv_cell c _) 39) κw19 (insert ((CK.out 18).sem, ()) W)) $$ [Hcw19 HO Hatw19]
  · isplitr; · iexact HIw19
    isplitl [Hcw19]; · iexact Hcw19
    isplitl [HO]; · iexact HO
    isplitr; · iexact Hlev
    iexact Hatw19
  iintro ⟨HO, Hatw19, Hpw19⟩
  ihave Hpw19 := (Entails.of_eq (show pay V c (CK.out 19) 0 = iprop(ptsIs c (outDstM19 c) (V.out19 c) ∗ ptsAny (F := F) c (outSrcM19 c)) from rfl)) $$ Hpw19
  icases Hpw19 with ⟨Hpi19, Hpa19⟩
  iapply (wp_wait_xfer V c (.out 20) (by decide) 39 (out_sem_eq 20 _)
      (show (outDstM20 c : Memref sig .tc .hbm S1024x384 .f32).view.dmaCredit = amt (.out 20) from rfl)
      (wpE_waitDma2_eq 𝒱₀ (c : Thread nD τ) none Set.univ)
      (mayWait_own c (.out 20) (lv_cell c _) 39) κw20 (insert ((CK.out 19).sem, ()) (insert ((CK.out 18).sem, ()) W))) $$ [Hcw20 HO Hatw20]
  · isplitr; · iexact HIw20
    isplitl [Hcw20]; · iexact Hcw20
    isplitl [HO]; · iexact HO
    isplitr; · iexact Hlev
    iexact Hatw20
  iintro ⟨HO, Hatw20, Hpw20⟩
  ihave Hpw20 := (Entails.of_eq (show pay V c (CK.out 20) 0 = iprop(ptsIs c (outDstM20 c) (V.out20 c) ∗ ptsAny (F := F) c (outSrcM20 c)) from rfl)) $$ Hpw20
  icases Hpw20 with ⟨Hpi20, Hpa20⟩
  iapply (wp_wait_xfer V c (.out 21) (by decide) 39 (out_sem_eq 21 _)
      (show (outDstM21 c : Memref sig .tc .hbm S1024x384 .f32).view.dmaCredit = amt (.out 21) from rfl)
      (wpE_waitDma2_eq 𝒱₀ (c : Thread nD τ) none Set.univ)
      (mayWait_own c (.out 21) (lv_cell c _) 39) κw21 (insert ((CK.out 20).sem, ()) (insert ((CK.out 19).sem, ()) (insert ((CK.out 18).sem, ()) W)))) $$ [Hcw21 HO Hatw21]
  · isplitr; · iexact HIw21
    isplitl [Hcw21]; · iexact Hcw21
    isplitl [HO]; · iexact HO
    isplitr; · iexact Hlev
    iexact Hatw21
  iintro ⟨HO, Hatw21, Hpw21⟩
  ihave Hpw21 := (Entails.of_eq (show pay V c (CK.out 21) 0 = iprop(ptsIs c (outDstM21 c) (V.out21 c) ∗ ptsAny (F := F) c (outSrcM21 c)) from rfl)) $$ Hpw21
  icases Hpw21 with ⟨Hpi21, Hpa21⟩
  iapply (wp_wait_xfer V c (.out 22) (by decide) 39 (out_sem_eq 22 _)
      (show (outDstM22 c : Memref sig .tc .hbm S1024x256 .f32).view.dmaCredit = amt (.out 22) from rfl)
      (wpE_waitDma2_eq 𝒱₀ (c : Thread nD τ) none Set.univ)
      (mayWait_own c (.out 22) (lv_cell c _) 39) κw22 (insert ((CK.out 21).sem, ()) (insert ((CK.out 20).sem, ()) (insert ((CK.out 19).sem, ()) (insert ((CK.out 18).sem, ()) W))))) $$ [Hcw22 HO Hatw22]
  · isplitr; · iexact HIw22
    isplitl [Hcw22]; · iexact Hcw22
    isplitl [HO]; · iexact HO
    isplitr; · iexact Hlev
    iexact Hatw22
  iintro ⟨HO, Hatw22, Hpw22⟩
  ihave Hpw22 := (Entails.of_eq (show pay V c (CK.out 22) 0 = iprop(ptsIs c (outDstM22 c) (V.out22 c) ∗ ptsAny (F := F) c (outSrcM22 c)) from rfl)) $$ Hpw22
  icases Hpw22 with ⟨Hpi22, Hpa22⟩
  iapply (wp_wait_xfer V c (.out 23) (by decide) 39 (out_sem_eq 23 _)
      (show (outDstM23 c : Memref sig .tc .hbm S1024x256 .f32).view.dmaCredit = amt (.out 23) from rfl)
      (wpE_waitDma2_eq 𝒱₀ (c : Thread nD τ) none Set.univ)
      (mayWait_own c (.out 23) (lv_cell c _) 39) κw23 (insert ((CK.out 22).sem, ()) (insert ((CK.out 21).sem, ()) (insert ((CK.out 20).sem, ()) (insert ((CK.out 19).sem, ()) (insert ((CK.out 18).sem, ()) W)))))) $$ [Hcw23 HO Hatw23]
  · isplitr; · iexact HIw23
    isplitl [Hcw23]; · iexact Hcw23
    isplitl [HO]; · iexact HO
    isplitr; · iexact Hlev
    iexact Hatw23
  iintro ⟨HO, Hatw23, Hpw23⟩
  ihave Hpw23 := (Entails.of_eq (show pay V c (CK.out 23) 0 = iprop(ptsIs c (outDstM23 c) (V.out23 c) ∗ ptsAny (F := F) c (outSrcM23 c)) from rfl)) $$ Hpw23
  icases Hpw23 with ⟨Hpi23, Hpa23⟩
  sl_step
  isplitr; · ipureintro; trivial
  isplitl [HO]; · iexact HO
  isplitl [Hatw18]; · iexact Hatw18
  isplitl [Hpi18]; · iexact Hpi18
  isplitl [Hpa18]; · iexact Hpa18
  isplitl [Hatw19]; · iexact Hatw19
  isplitl [Hpi19]; · iexact Hpi19
  isplitl [Hpa19]; · iexact Hpa19
  isplitl [Hatw20]; · iexact Hatw20
  isplitl [Hpi20]; · iexact Hpi20
  isplitl [Hpa20]; · iexact Hpa20
  isplitl [Hatw21]; · iexact Hatw21
  isplitl [Hpi21]; · iexact Hpi21
  isplitl [Hpa21]; · iexact Hpa21
  isplitl [Hatw22]; · iexact Hatw22
  isplitl [Hpi22]; · iexact Hpi22
  isplitl [Hpa22]; · iexact Hpa22
  isplitl [Hatw23]; · iexact Hatw23
  isplitl [Hpi23]; · iexact Hpi23
  iexact Hpa23

end Cert.KernelIdeal.Proto

end
-- ==== Proof.BodyAll.lean ====
/-
The body of a device, whole: from what the launch hands it, every resource apart, through the sixty-two stretches
of the kernel's body in order — each stretch's lemma applied at its call — to what the body hands back. Nothing is
said of values here: every predicate of the record of values is the true one, so every stretch's value fact holds.
-/
import proofs.«900882_g7700000000000883_dist_matmul_gelu_kshard_i_m2048_n2048_k1024_v7x_i8_f32_1_alg».proof.Proof.BodyEnd
import proofs.«900882_g7700000000000883_dist_matmul_gelu_kshard_i_m2048_n2048_k1024_v7x_i8_f32_1_alg».proof.Proof.TopoClosed
import proofs.«900882_g7700000000000883_dist_matmul_gelu_kshard_i_m2048_n2048_k1024_v7x_i8_f32_1_alg».proof.Proof.Body01
import proofs.«900882_g7700000000000883_dist_matmul_gelu_kshard_i_m2048_n2048_k1024_v7x_i8_f32_1_alg».proof.Proof.Body03
import proofs.«900882_g7700000000000883_dist_matmul_gelu_kshard_i_m2048_n2048_k1024_v7x_i8_f32_1_alg».proof.Proof.Body04
import proofs.«900882_g7700000000000883_dist_matmul_gelu_kshard_i_m2048_n2048_k1024_v7x_i8_f32_1_alg».proof.Proof.Body05
import proofs.«900882_g7700000000000883_dist_matmul_gelu_kshard_i_m2048_n2048_k1024_v7x_i8_f32_1_alg».proof.Proof.Body06
import proofs.«900882_g7700000000000883_dist_matmul_gelu_kshard_i_m2048_n2048_k1024_v7x_i8_f32_1_alg».proof.Proof.Body07
import proofs.«900882_g7700000000000883_dist_matmul_gelu_kshard_i_m2048_n2048_k1024_v7x_i8_f32_1_alg».proof.Proof.Body08
import proofs.«900882_g7700000000000883_dist_matmul_gelu_kshard_i_m2048_n2048_k1024_v7x_i8_f32_1_alg».proof.Proof.Body09
import proofs.«900882_g7700000000000883_dist_matmul_gelu_kshard_i_m2048_n2048_k1024_v7x_i8_f32_1_alg».proof.Proof.Body10
import proofs.«900882_g7700000000000883_dist_matmul_gelu_kshard_i_m2048_n2048_k1024_v7x_i8_f32_1_alg».proof.Proof.Body11
import proofs.«900882_g7700000000000883_dist_matmul_gelu_kshard_i_m2048_n2048_k1024_v7x_i8_f32_1_alg».proof.Proof.Body12
import proofs.«900882_g7700000000000883_dist_matmul_gelu_kshard_i_m2048_n2048_k1024_v7x_i8_f32_1_alg».proof.Proof.Body13
import proofs.«900882_g7700000000000883_dist_matmul_gelu_kshard_i_m2048_n2048_k1024_v7x_i8_f32_1_alg».proof.Proof.Body14
import proofs.«900882_g7700000000000883_dist_matmul_gelu_kshard_i_m2048_n2048_k1024_v7x_i8_f32_1_alg».proof.Proof.Body15
import proofs.«900882_g7700000000000883_dist_matmul_gelu_kshard_i_m2048_n2048_k1024_v7x_i8_f32_1_alg».proof.Proof.Body16
import proofs.«900882_g7700000000000883_dist_matmul_gelu_kshard_i_m2048_n2048_k1024_v7x_i8_f32_1_alg».proof.Proof.Body17
import proofs.«900882_g7700000000000883_dist_matmul_gelu_kshard_i_m2048_n2048_k1024_v7x_i8_f32_1_alg».proof.Proof.Body18
import proofs.«900882_g7700000000000883_dist_matmul_gelu_kshard_i_m2048_n2048_k1024_v7x_i8_f32_1_alg».proof.Proof.Body19
import proofs.«900882_g7700000000000883_dist_matmul_gelu_kshard_i_m2048_n2048_k1024_v7x_i8_f32_1_alg».proof.Proof.Body20
import proofs.«900882_g7700000000000883_dist_matmul_gelu_kshard_i_m2048_n2048_k1024_v7x_i8_f32_1_alg».proof.Proof.Body21
import proofs.«900882_g7700000000000883_dist_matmul_gelu_kshard_i_m2048_n2048_k1024_v7x_i8_f32_1_alg».proof.Proof.Body22
import proofs.«900882_g7700000000000883_dist_matmul_gelu_kshard_i_m2048_n2048_k1024_v7x_i8_f32_1_alg».proof.Proof.Body23
import proofs.«900882_g7700000000000883_dist_matmul_gelu_kshard_i_m2048_n2048_k1024_v7x_i8_f32_1_alg».proof.Proof.Body24
import proofs.«900882_g7700000000000883_dist_matmul_gelu_kshard_i_m2048_n2048_k1024_v7x_i8_f32_1_alg».proof.Proof.Body25
import proofs.«900882_g7700000000000883_dist_matmul_gelu_kshard_i_m2048_n2048_k1024_v7x_i8_f32_1_alg».proof.Proof.Body26
import proofs.«900882_g7700000000000883_dist_matmul_gelu_kshard_i_m2048_n2048_k1024_v7x_i8_f32_1_alg».proof.Proof.Body27
import proofs.«900882_g7700000000000883_dist_matmul_gelu_kshard_i_m2048_n2048_k1024_v7x_i8_f32_1_alg».proof.Proof.Body28
import proofs.«900882_g7700000000000883_dist_matmul_gelu_kshard_i_m2048_n2048_k1024_v7x_i8_f32_1_alg».proof.Proof.Body29
import proofs.«900882_g7700000000000883_dist_matmul_gelu_kshard_i_m2048_n2048_k1024_v7x_i8_f32_1_alg».proof.Proof.Body30
import proofs.«900882_g7700000000000883_dist_matmul_gelu_kshard_i_m2048_n2048_k1024_v7x_i8_f32_1_alg».proof.Proof.Body31
import proofs.«900882_g7700000000000883_dist_matmul_gelu_kshard_i_m2048_n2048_k1024_v7x_i8_f32_1_alg».proof.Proof.Body32
import proofs.«900882_g7700000000000883_dist_matmul_gelu_kshard_i_m2048_n2048_k1024_v7x_i8_f32_1_alg».proof.Proof.Body33
import proofs.«900882_g7700000000000883_dist_matmul_gelu_kshard_i_m2048_n2048_k1024_v7x_i8_f32_1_alg».proof.Proof.Body34
import proofs.«900882_g7700000000000883_dist_matmul_gelu_kshard_i_m2048_n2048_k1024_v7x_i8_f32_1_alg».proof.Proof.Body35
import proofs.«900882_g7700000000000883_dist_matmul_gelu_kshard_i_m2048_n2048_k1024_v7x_i8_f32_1_alg».proof.Proof.Body36
import proofs.«900882_g7700000000000883_dist_matmul_gelu_kshard_i_m2048_n2048_k1024_v7x_i8_f32_1_alg».proof.Proof.Body37
import proofs.«900882_g7700000000000883_dist_matmul_gelu_kshard_i_m2048_n2048_k1024_v7x_i8_f32_1_alg».proof.Proof.Body38
import proofs.«900882_g7700000000000883_dist_matmul_gelu_kshard_i_m2048_n2048_k1024_v7x_i8_f32_1_alg».proof.Proof.Body39
import proofs.«900882_g7700000000000883_dist_matmul_gelu_kshard_i_m2048_n2048_k1024_v7x_i8_f32_1_alg».proof.Proof.Body40
import proofs.«900882_g7700000000000883_dist_matmul_gelu_kshard_i_m2048_n2048_k1024_v7x_i8_f32_1_alg».proof.Proof.Body41
import proofs.«900882_g7700000000000883_dist_matmul_gelu_kshard_i_m2048_n2048_k1024_v7x_i8_f32_1_alg».proof.Proof.Body42
import proofs.«900882_g7700000000000883_dist_matmul_gelu_kshard_i_m2048_n2048_k1024_v7x_i8_f32_1_alg».proof.Proof.Body43
import proofs.«900882_g7700000000000883_dist_matmul_gelu_kshard_i_m2048_n2048_k1024_v7x_i8_f32_1_alg».proof.Proof.Body44
import proofs.«900882_g7700000000000883_dist_matmul_gelu_kshard_i_m2048_n2048_k1024_v7x_i8_f32_1_alg».proof.Proof.Body45
import proofs.«900882_g7700000000000883_dist_matmul_gelu_kshard_i_m2048_n2048_k1024_v7x_i8_f32_1_alg».proof.Proof.Body46
import proofs.«900882_g7700000000000883_dist_matmul_gelu_kshard_i_m2048_n2048_k1024_v7x_i8_f32_1_alg».proof.Proof.Body47
import proofs.«900882_g7700000000000883_dist_matmul_gelu_kshard_i_m2048_n2048_k1024_v7x_i8_f32_1_alg».proof.Proof.Body48
import proofs.«900882_g7700000000000883_dist_matmul_gelu_kshard_i_m2048_n2048_k1024_v7x_i8_f32_1_alg».proof.Proof.Body49
import proofs.«900882_g7700000000000883_dist_matmul_gelu_kshard_i_m2048_n2048_k1024_v7x_i8_f32_1_alg».proof.Proof.Body50
import proofs.«900882_g7700000000000883_dist_matmul_gelu_kshard_i_m2048_n2048_k1024_v7x_i8_f32_1_alg».proof.Proof.Body51
import proofs.«900882_g7700000000000883_dist_matmul_gelu_kshard_i_m2048_n2048_k1024_v7x_i8_f32_1_alg».proof.Proof.Body52
import proofs.«900882_g7700000000000883_dist_matmul_gelu_kshard_i_m2048_n2048_k1024_v7x_i8_f32_1_alg».proof.Proof.Body53
import proofs.«900882_g7700000000000883_dist_matmul_gelu_kshard_i_m2048_n2048_k1024_v7x_i8_f32_1_alg».proof.Proof.Body54
import proofs.«900882_g7700000000000883_dist_matmul_gelu_kshard_i_m2048_n2048_k1024_v7x_i8_f32_1_alg».proof.Proof.Body55
import proofs.«900882_g7700000000000883_dist_matmul_gelu_kshard_i_m2048_n2048_k1024_v7x_i8_f32_1_alg».proof.Proof.Body56
import proofs.«900882_g7700000000000883_dist_matmul_gelu_kshard_i_m2048_n2048_k1024_v7x_i8_f32_1_alg».proof.Proof.Body57
import proofs.«900882_g7700000000000883_dist_matmul_gelu_kshard_i_m2048_n2048_k1024_v7x_i8_f32_1_alg».proof.Proof.Body58
import proofs.«900882_g7700000000000883_dist_matmul_gelu_kshard_i_m2048_n2048_k1024_v7x_i8_f32_1_alg».proof.Proof.Body59
import proofs.«900882_g7700000000000883_dist_matmul_gelu_kshard_i_m2048_n2048_k1024_v7x_i8_f32_1_alg».proof.Proof.Body60
import proofs.«900882_g7700000000000883_dist_matmul_gelu_kshard_i_m2048_n2048_k1024_v7x_i8_f32_1_alg».proof.Proof.Body61
import proofs.«900882_g7700000000000883_dist_matmul_gelu_kshard_i_m2048_n2048_k1024_v7x_i8_f32_1_alg».proof.Proof.Body62

set_option maxRecDepth 65536

noncomputable section

namespace Cert.KernelIdeal.Proto

open Cert.KernelIdeal Cert.KernelIdeal.Gen Cert.KernelIdeal.Topo
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- Nothing is said of any value: every predicate holds of everything. -/
def Vtrue : Vals F := by constructor <;> exact fun _ _ => True

variable (m : (ℓ : Loc nD τ sig) → Buf (Elt F) ℓ) (ρ : Dev nD → PrngReg)

set_option maxHeartbeats 400000000 in
theorem body_run (c : Dev nD) (K : Dev nD × Fin 97 → ℕ) (W : Waits sig Unit) :
    bodyStart m (Vtrue (F := F)) K c W
      ⊢ wp frame (wpE (defs₀ (F := F)) 𝒱₀ c none) Set.univ
          (cc0_body (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23)
          (fun _ => iprop(∃ W', bodyEnd m (Vtrue (F := F)) K c W')) := by
  unfold bodyStart ownRecs paidRecs toksLit posLit credLit bufsLit
  iintro ⟨⟨#Hlev, ⟨⟨#HI_bar, #HR_bar⟩, ⟨#HI_rsS00, #HR_rsS00⟩, ⟨#HI_rsS01, #HR_rsS01⟩, ⟨#HI_rsS02, #HR_rsS02⟩, ⟨#HI_rsS10, #HR_rsS10⟩, ⟨#HI_rsS11, #HR_rsS11⟩, ⟨#HI_rsS12, #HR_rsS12⟩, ⟨#HI_rsS20, #HR_rsS20⟩, ⟨#HI_rsS21, #HR_rsS21⟩, ⟨#HI_rsS22, #HR_rsS22⟩, ⟨#HI_rsS30, #HR_rsS30⟩, ⟨#HI_rsS31, #HR_rsS31⟩, ⟨#HI_rsS32, #HR_rsS32⟩, ⟨#HI_rsS40, #HR_rsS40⟩, ⟨#HI_rsS41, #HR_rsS41⟩, ⟨#HI_rsS42, #HR_rsS42⟩, ⟨#HI_rsS50, #HR_rsS50⟩, ⟨#HI_rsS51, #HR_rsS51⟩, ⟨#HI_rsS52, #HR_rsS52⟩, ⟨#HI_rsR00, #HR_rsR00⟩, ⟨#HI_rsR01, #HR_rsR01⟩, ⟨#HI_rsR02, #HR_rsR02⟩, ⟨#HI_rsR10, #HR_rsR10⟩, ⟨#HI_rsR11, #HR_rsR11⟩, ⟨#HI_rsR12, #HR_rsR12⟩, ⟨#HI_rsR20, #HR_rsR20⟩, ⟨#HI_rsR21, #HR_rsR21⟩, ⟨#HI_rsR22, #HR_rsR22⟩, ⟨#HI_rsR30, #HR_rsR30⟩, ⟨#HI_rsR31, #HR_rsR31⟩, ⟨#HI_rsR32, #HR_rsR32⟩, ⟨#HI_rsR40, #HR_rsR40⟩, ⟨#HI_rsR41, #HR_rsR41⟩, ⟨#HI_rsR42, #HR_rsR42⟩, ⟨#HI_rsR50, #HR_rsR50⟩, ⟨#HI_rsR51, #HR_rsR51⟩, ⟨#HI_rsR52, #HR_rsR52⟩, ⟨#HI_agS00, #HR_agS00⟩, ⟨#HI_agS01, #HR_agS01⟩, ⟨#HI_agS02, #HR_agS02⟩, ⟨#HI_agS10, #HR_agS10⟩, ⟨#HI_agS11, #HR_agS11⟩, ⟨#HI_agS12, #HR_agS12⟩, ⟨#HI_agS20, #HR_agS20⟩, ⟨#HI_agS21, #HR_agS21⟩, ⟨#HI_agS22, #HR_agS22⟩, ⟨#HI_agS30, #HR_agS30⟩, ⟨#HI_agS31, #HR_agS31⟩, ⟨#HI_agS32, #HR_agS32⟩, ⟨#HI_agS40, #HR_agS40⟩, ⟨#HI_agS41, #HR_agS41⟩, ⟨#HI_agS42, #HR_agS42⟩, ⟨#HI_agS50, #HR_agS50⟩, ⟨#HI_agS51, #HR_agS51⟩, ⟨#HI_agS52, #HR_agS52⟩, ⟨#HI_agR00, #HR_agR00⟩, ⟨#HI_agR01, #HR_agR01⟩, ⟨#HI_agR02, #HR_agR02⟩, ⟨#HI_agR10, #HR_agR10⟩, ⟨#HI_agR11, #HR_agR11⟩, ⟨#HI_agR12, #HR_agR12⟩, ⟨#HI_agR20, #HR_agR20⟩, ⟨#HI_agR21, #HR_agR21⟩, ⟨#HI_agR22, #HR_agR22⟩, ⟨#HI_agR30, #HR_agR30⟩, ⟨#HI_agR31, #HR_agR31⟩, ⟨#HI_agR32, #HR_agR32⟩, ⟨#HI_agR40, #HR_agR40⟩, ⟨#HI_agR41, #HR_agR41⟩, ⟨#HI_agR42, #HR_agR42⟩, ⟨#HI_agR50, #HR_agR50⟩, ⟨#HI_agR51, #HR_agR51⟩, ⟨#HI_agR52, #HR_agR52⟩, ⟨#HI_out0, #HR_out0⟩, ⟨#HI_out1, #HR_out1⟩, ⟨#HI_out2, #HR_out2⟩, ⟨#HI_out3, #HR_out3⟩, ⟨#HI_out4, #HR_out4⟩, ⟨#HI_out5, #HR_out5⟩, ⟨#HI_out6, #HR_out6⟩, ⟨#HI_out7, #HR_out7⟩, ⟨#HI_out8, #HR_out8⟩, ⟨#HI_out9, #HR_out9⟩, ⟨#HI_out10, #HR_out10⟩, ⟨#HI_out11, #HR_out11⟩, ⟨#HI_out12, #HR_out12⟩, ⟨#HI_out13, #HR_out13⟩, ⟨#HI_out14, #HR_out14⟩, ⟨#HI_out15, #HR_out15⟩, ⟨#HI_out16, #HR_out16⟩, ⟨#HI_out17, #HR_out17⟩, ⟨#HI_out18, #HR_out18⟩, ⟨#HI_out19, #HR_out19⟩, ⟨#HI_out20, #HR_out20⟩, ⟨#HI_out21, #HR_out21⟩, ⟨#HI_out22, #HR_out22⟩, ⟨#HI_out23, #HR_out23⟩⟩, ⟨⟨⟨#HIn_bar0, #HRn_bar0⟩, ⟨#HIn_bar1, #HRn_bar1⟩, ⟨#HIn_bar2, #HRn_bar2⟩⟩, ⟨⟨#HIn_rsR00, #HRn_rsR00⟩, ⟨#HIn_rsR01, #HRn_rsR01⟩, ⟨#HIn_rsR02, #HRn_rsR02⟩, ⟨#HIn_rsR10, #HRn_rsR10⟩, ⟨#HIn_rsR11, #HRn_rsR11⟩, ⟨#HIn_rsR12, #HRn_rsR12⟩, ⟨#HIn_rsR20, #HRn_rsR20⟩, ⟨#HIn_rsR21, #HRn_rsR21⟩, ⟨#HIn_rsR22, #HRn_rsR22⟩, ⟨#HIn_rsR30, #HRn_rsR30⟩, ⟨#HIn_rsR31, #HRn_rsR31⟩, ⟨#HIn_rsR32, #HRn_rsR32⟩, ⟨#HIn_rsR40, #HRn_rsR40⟩, ⟨#HIn_rsR41, #HRn_rsR41⟩, ⟨#HIn_rsR42, #HRn_rsR42⟩, ⟨#HIn_rsR50, #HRn_rsR50⟩, ⟨#HIn_rsR51, #HRn_rsR51⟩, ⟨#HIn_rsR52, #HRn_rsR52⟩⟩, ⟨⟨#HIn_agR00, #HRn_agR00⟩, ⟨#HIn_agR01, #HRn_agR01⟩, ⟨#HIn_agR02, #HRn_agR02⟩, ⟨#HIn_agR10, #HRn_agR10⟩, ⟨#HIn_agR11, #HRn_agR11⟩, ⟨#HIn_agR12, #HRn_agR12⟩, ⟨#HIn_agR20, #HRn_agR20⟩, ⟨#HIn_agR21, #HRn_agR21⟩, ⟨#HIn_agR22, #HRn_agR22⟩, ⟨#HIn_agR30, #HRn_agR30⟩, ⟨#HIn_agR31, #HRn_agR31⟩, ⟨#HIn_agR32, #HRn_agR32⟩, ⟨#HIn_agR40, #HRn_agR40⟩, ⟨#HIn_agR41, #HRn_agR41⟩, ⟨#HIn_agR42, #HRn_agR42⟩, ⟨#HIn_agR50, #HRn_agR50⟩, ⟨#HIn_agR51, #HRn_agR51⟩, ⟨#HIn_agR52, #HRn_agR52⟩⟩⟩⟩, ⟨⟨Ht_bar0, Ht_bar1, Ht_bar2⟩, ⟨Ht_rsR00, Ht_rsR01, Ht_rsR02, Ht_rsR10, Ht_rsR11, Ht_rsR12, Ht_rsR20, Ht_rsR21, Ht_rsR22, Ht_rsR30, Ht_rsR31, Ht_rsR32, Ht_rsR40, Ht_rsR41, Ht_rsR42, Ht_rsR50, Ht_rsR51, Ht_rsR52⟩, ⟨Ht_agR00, Ht_agR01, Ht_agR02, Ht_agR10, Ht_agR11, Ht_agR12, Ht_agR20, Ht_agR21, Ht_agR22, Ht_agR30, Ht_agR31, Ht_agR32, Ht_agR40, Ht_agR41, Ht_agR42, Ht_agR50, Ht_agR51, Ht_agR52⟩, ⟨Ht_rsS00, Ht_rsS01, Ht_rsS02, Ht_rsS10, Ht_rsS11, Ht_rsS12, Ht_rsS20, Ht_rsS21, Ht_rsS22, Ht_rsS30, Ht_rsS31, Ht_rsS32, Ht_rsS40, Ht_rsS41, Ht_rsS42, Ht_rsS50, Ht_rsS51, Ht_rsS52⟩, ⟨Ht_agS00, Ht_agS01, Ht_agS02, Ht_agS10, Ht_agS11, Ht_agS12, Ht_agS20, Ht_agS21, Ht_agS22, Ht_agS30, Ht_agS31, Ht_agS32, Ht_agS40, Ht_agS41, Ht_agS42, Ht_agS50, Ht_agS51, Ht_agS52⟩, ⟨Ht_out0, Ht_out1, Ht_out2, Ht_out3, Ht_out4, Ht_out5, Ht_out6, Ht_out7, Ht_out8, Ht_out9, Ht_out10, Ht_out11, Ht_out12, Ht_out13, Ht_out14, Ht_out15, Ht_out16, Ht_out17, Ht_out18, Ht_out19, Ht_out20, Ht_out21, Ht_out22, Ht_out23⟩⟩, ⟨Hat_bar, Hat_rsS00, Hat_rsS01, Hat_rsS02, Hat_rsS10, Hat_rsS11, Hat_rsS12, Hat_rsS20, Hat_rsS21, Hat_rsS22, Hat_rsS30, Hat_rsS31, Hat_rsS32, Hat_rsS40, Hat_rsS41, Hat_rsS42, Hat_rsS50, Hat_rsS51, Hat_rsS52, Hat_rsR00, Hat_rsR01, Hat_rsR02, Hat_rsR10, Hat_rsR11, Hat_rsR12, Hat_rsR20, Hat_rsR21, Hat_rsR22, Hat_rsR30, Hat_rsR31, Hat_rsR32, Hat_rsR40, Hat_rsR41, Hat_rsR42, Hat_rsR50, Hat_rsR51, Hat_rsR52, Hat_agS00, Hat_agS01, Hat_agS02, Hat_agS10, Hat_agS11, Hat_agS12, Hat_agS20, Hat_agS21, Hat_agS22, Hat_agS30, Hat_agS31, Hat_agS32, Hat_agS40, Hat_agS41, Hat_agS42, Hat_agS50, Hat_agS51, Hat_agS52, Hat_agR00, Hat_agR01, Hat_agR02, Hat_agR10, Hat_agR11, Hat_agR12, Hat_agR20, Hat_agR21, Hat_agR22, Hat_agR30, Hat_agR31, Hat_agR32, Hat_agR40, Hat_agR41, Hat_agR42, Hat_agR50, Hat_agR51, Hat_agR52, Hat_out0, Hat_out1, Hat_out2, Hat_out3, Hat_out4, Hat_out5, Hat_out6, Hat_out7, Hat_out8, Hat_out9, Hat_out10, Hat_out11, Hat_out12, Hat_out13, Hat_out14, Hat_out15, Hat_out16, Hat_out17, Hat_out18, Hat_out19, Hat_out20, Hat_out21, Hat_out22, Hat_out23⟩, ⟨Hc_bar, ⟨Hc_rsR00, Hc_rsR01, Hc_rsR02, Hc_rsR10, Hc_rsR11, Hc_rsR12, Hc_rsR20, Hc_rsR21, Hc_rsR22, Hc_rsR30, Hc_rsR31, Hc_rsR32, Hc_rsR40, Hc_rsR41, Hc_rsR42, Hc_rsR50, Hc_rsR51, Hc_rsR52⟩, ⟨Hc_agR00, Hc_agR01, Hc_agR02, Hc_agR10, Hc_agR11, Hc_agR12, Hc_agR20, Hc_agR21, Hc_agR22, Hc_agR30, Hc_agR31, Hc_agR32, Hc_agR40, Hc_agR41, Hc_agR42, Hc_agR50, Hc_agR51, Hc_agR52⟩⟩, HO, ⟨HA, HB, Hout, ⟨%facc, Hacc⟩, ⟨⟨%fstg0, Hstg0⟩, ⟨%fstg1, Hstg1⟩, ⟨%fstg2, Hstg2⟩, ⟨%fstg3, Hstg3⟩, ⟨%fstg4, Hstg4⟩, ⟨%fstg5, Hstg5⟩⟩, ⟨Hbp0, Hbp1, Hbp2⟩, ⟨⟨%fown0, Hown0⟩, ⟨%fown1, Hown1⟩, ⟨%fown2, Hown2⟩, ⟨%fown3, Hown3⟩, ⟨%fown4, Hown4⟩, ⟨%fown5, Hown5⟩⟩⟩⟩
  have hcut1 := fun κ0 κ1 κ2 κb W fa fb => part1_run (Vtrue (F := F)) c κ0 κ1 κ2 κb W fa fb
  have hcut2 := fun κs κr W v2 v6 v8 v25 v27 fa fb f10 f11 => part2_run (Vtrue (F := F)) c κs κr W v2 v6 v8 v25 v27 fa fb f10 f11 (by intros; trivial)
  have hcut3 := fun κs κr W v2 v8 v9 v58 fa fb f11 f12 => part3_run (Vtrue (F := F)) c κs κr W v2 v8 v9 v58 fa fb f11 f12 (by intros; trivial)
  have hcut4 := fun κs2 κr2 κs3 κr3 W v2 v6 v8 v9 fa fb f12 f13 => part4_run (Vtrue (F := F)) c κs2 κr2 κs3 κr3 W v2 v6 v8 v9 fa fb f12 f13 (by intros; trivial) (by intros; trivial)
  have hcut5 := fun κs κr W v2 v8 v9 v121 fa fb f14 f15 => part5_run (Vtrue (F := F)) c κs κr W v2 v8 v9 v121 fa fb f14 f15 (by intros; trivial)
  have hcut6 := fun κs κr W v2 v9 v43 v67 v91 fa fb f15 f3 => part6_run (Vtrue (F := F)) c κs κr W v2 v9 v43 v67 v91 fa fb f15 f3 (by intros; trivial)
  have hcut7 := fun v91 v115 v139 v163 fa fb f3 => part7_run (F := F) c v91 v115 v139 v163 fa fb f3
  have hcut8 := fun κw1 κw2 W v8 v34 v43 v163 v227 fb f3 => part8_run (Vtrue (F := F)) c κw1 κw2 W v8 v34 v43 v163 v227 fb f3
  have hcut9 := fun κs κr W v2 v43 v248 v250 v252 v257 fs fr f3 => part9_run (Vtrue (F := F)) c κs κr W v2 v43 v248 v250 v252 v257 fs fr f3 (by intros; trivial)
  have hcut10 := fun κw1 κw2 W v9 v58 v67 f3 => part10_run (Vtrue (F := F)) c κw1 κw2 W v9 v58 v67 f3
  have hcut11 := fun κs κr κw1 W v2 v67 v82 v304 v322 fs fr f3 => part11_run (Vtrue (F := F)) c κs κr κw1 W v2 v67 v82 v304 v322 fs fr f3 (by intros; trivial)
  have hcut12 := fun κw2 W v2 v6 v91 v348 c0_i32_257 fs f3 => part12_run (Vtrue (F := F)) c κw2 W v2 v6 v91 v348 c0_i32_257 fs f3
  have hcut13 := fun κs κr κw1 κw2 W v8 v91 v106 v115 v358 fs fr f3 => part13_run (Vtrue (F := F)) c κs κr κw1 κw2 W v8 v91 v106 v115 v358 fs fr f3 (by intros; trivial)
  have hcut14 := fun κs κr W v2 v8 v115 v410 c512_i32_308 f3 f13 fl => part14_run (Vtrue (F := F)) c κs κr W v2 v8 v115 v410 c512_i32_308 f3 f13 fl (by intros; trivial)
  have hcut15 := fun κw κv W v9 v130 v139 v412 v441 v446 f3 => part15_run (Vtrue (F := F)) c κw κv W v9 v130 v139 v412 v441 v446 f3
  have hcut16 := fun κs κr W v2 v139 v464 v466 v474 v476 f3 f14 fl => part16_run (Vtrue (F := F)) c κs κr W v2 v139 v464 v466 v474 v476 f3 f14 fl (by intros; trivial)
  have hcut17 := fun κw κv W v2 v6 v154 v163 f3 => part17_run (Vtrue (F := F)) c κw κv W v2 v6 v154 v163 f3
  have hcut18 := fun κs κr κw W v163 v269 v520 v539 f3 f9 f15 => part18_run (Vtrue (F := F)) c κs κr κw W v163 v269 v520 v539 f3 f9 f15 (by intros; trivial)
  have hcut19 := fun κw W v2 v9 v250 f3 f10 => part19_run (Vtrue (F := F)) c κw W v2 v9 v250 f3 f10
  have hcut20 := fun κs κr κw κv W v6 v250 v304 v323 v574 f3 f10 fl => part20_run (Vtrue (F := F)) c κs κr κw κv W v6 v250 v304 v323 v574 f3 f10 fl (by intros; trivial)
  have hcut21 := fun κs κr W v2 v304 v626 v628 f3 f11 fl => part21_run (Vtrue (F := F)) c κs κr W v2 v304 v626 v628 f3 f11 fl (by intros; trivial)
  have hcut22 := fun κw κv W v8 v358 v377 v663 v665 f3 => part22_run (Vtrue (F := F)) c κw κv W v8 v358 v377 v663 v665 f3
  have hcut23 := fun κs κr W v2 v358 v682 f3 f12 fl => part23_run (Vtrue (F := F)) c κs κr W v2 v358 v682 f3 f12 fl (by intros; trivial)
  have hcut24 := fun κw κv W v2 v9 v412 v431 f3 => part24_run (Vtrue (F := F)) c κw κv W v2 v9 v412 v431 f3
  have hcut25 := fun κs κr κw W v412 v485 v736 v755 c1_i32_583 f3 f13 fl => part25_run (Vtrue (F := F)) c κs κr κw W v412 v485 v736 v755 c1_i32_583 f3 f13 fl (by intros; trivial)
  have hcut26 := fun κv κs κr W v2 v6 v466 f3 f14 => part26_run (Vtrue (F := F)) c κv κs κr W v2 v6 v466 f3 f14 (by intros; trivial)
  have hcut27 := fun κw κv W v8 v466 v520 v539 v790 f3 fl => part27_run (Vtrue (F := F)) c κw κv W v8 v466 v520 v539 v790 f3 fl
  have hcut28 := fun κs κr W v2 v520 v842 v844 v846 v848 f3 f15 fl => part28_run (Vtrue (F := F)) c κs κr W v2 v520 v842 v844 v846 v848 f3 f15 fl (by intros; trivial)
  have hcut29 := fun κw κv W v574 v593 f3 => part29_run (Vtrue (F := F)) c κw κv W v574 v593 f3
  have hcut30 := fun κo κw κv W v574 v628 v647 v909 v914 cst_707 f3 fa fo => part30_run (Vtrue (F := F)) c κo κw κv W v574 v628 v647 v909 v914 cst_707 f3 fa fo (by intros; trivial)
  have hcut31 := fun κo v628 fb fl fa fo => part31_run (Vtrue (F := F)) c κo v628 fb fl fa fo (by intros; trivial)
  have hcut32 := fun κw κv W v682 v701 fb => part32_run (Vtrue (F := F)) c κw κv W v682 v701 fb
  have hcut33 := fun κo κs κr W v682 v736 v755 v1009 v1016 f2 f3 g2 fd => part33_run (Vtrue (F := F)) c κo κs κr W v682 v736 v755 v1009 v1016 f2 f3 g2 fd (by intros; trivial)
  have hcut34 := fun κo v736 v1045 f3 fc g3 fd => part34_run (Vtrue (F := F)) c κo v736 v1045 f3 fc g3 fd (by intros; trivial)
  have hcut35 := fun κs κr W v790 v809 f4 => part35_run (Vtrue (F := F)) c κs κr W v790 v809 f4
  have hcut36 := fun κo κs κr W v790 v844 v863 v1109 v1117 cst_837 f4 f5 g4 fd => part36_run (Vtrue (F := F)) c κo κs κr W v790 v844 v863 v1109 v1117 cst_837 f4 f5 g4 fd (by intros; trivial)
  have hcut37 := fun κo v2 v844 v1145 v1146 c1536_i32_863 f5 fc g5 fd => part37_run (Vtrue (F := F)) c κo v2 v844 v1145 v1146 c1536_i32_863 f5 fc g5 fd (by intros; trivial)
  have hcut38 := fun κs0 κr0 κs1 κr1 W v2 v6 v9 v574 v628 v1184 c1_i32_880 g0 g1 => part38_run (Vtrue (F := F)) c κs0 κr0 κs1 κr1 W v2 v6 v9 v574 v628 v1184 c1_i32_880 g0 g1 (by intros; trivial) (by intros; trivial)
  have hcut39 := fun κs2 κr2 κs3 κr3 κs4 κr4 W v2 v8 v9 v682 v736 g2 g3 g4 => part39_run (Vtrue (F := F)) c κs2 κr2 κs3 κr3 κs4 κr4 W v2 v8 v9 v682 v736 g2 g3 g4 (by intros; trivial) (by intros; trivial) (by intros; trivial)
  have hcut40 := fun κs5 κr5 κwS W v2 v6 v8 v790 v844 v1184 g5 => part40_run (Vtrue (F := F)) c κs5 κr5 κwS W v2 v6 v8 v790 v844 v1184 g5 (by intros; trivial)
  have hcut41 := fun κwR κs κr κo κw1 W v2 v8 v1194 v1197 g0 f6 fd => part41_run (Vtrue (F := F)) c κwR κs κr κo κw1 W v2 v8 v1194 v1197 g0 f6 fd (by intros; trivial) (by intros; trivial)
  have hcut42 := fun κwR κs κr κo W v2 v9 v1198 v1208 v1211 g1 f7 fd => part42_run (Vtrue (F := F)) c κwR κs κr κo W v2 v9 v1198 v1208 v1211 g1 f7 fd (by intros; trivial) (by intros; trivial)
  have hcut43 := fun κwS κwR κs κr W v2 v6 v1212 v1222 v1225 g2 f8 => part43_run (Vtrue (F := F)) c κwS κwR κs κr W v2 v6 v1212 v1222 v1225 g2 f8 (by intros; trivial)
  have hcut44 := fun κo κwS κwR κs κr W v2 v8 v1226 v1236 v1364 v1366 g3 f8 fd => part44_run (Vtrue (F := F)) c κo κwS κwR κs κr W v2 v8 v1226 v1236 v1364 v1366 g3 f8 fd (by intros; trivial) (by intros; trivial)
  have hcut45 := fun κo κwS κwR W v2 v8 v1239 v1240 v1393 g31 f9 fd => part45_run (Vtrue (F := F)) c κo κwS κwR W v2 v8 v1239 v1240 v1393 g31 f9 fd (by intros; trivial)
  have hcut46 := fun κs κr κo κw W v9 v1250 v1253 v1254 g0 fa fo fd => part46_run (Vtrue (F := F)) c κs κr κo κw W v9 v1250 v1253 v1254 g0 fa fo fd (by intros; trivial) (by intros; trivial)
  have hcut47 := fun κwR κs κr κo κw1 W v2 v6 v1264 v1267 g0 fo fd => part47_run (Vtrue (F := F)) c κwR κs κr κo κw1 W v2 v6 v1264 v1267 g0 fo fd (by intros; trivial) (by intros; trivial)
  have hcut48 := fun κr1 κs κr κo W v2 v6 v1278 v1288 v1291 g1 f12 fd => part48_run (Vtrue (F := F)) c κr1 κs κr κo W v2 v6 v1278 v1288 v1291 g1 f12 fd (by intros; trivial) (by intros; trivial)
  have hcut49 := fun κs1 κr1 κs κr W v2 v8 v1313 v1323 v1326 g1 f13 => part49_run (Vtrue (F := F)) c κs1 κr1 κs κr W v2 v8 v1313 v1323 v1326 g1 f13 (by intros; trivial)
  have hcut50 := fun κo κs1 κr1 κs κr W v2 v9 v1348 v1358 v1539 v1541 g1 f13 fd => part50_run (Vtrue (F := F)) c κo κs1 κr1 κs κr W v2 v9 v1348 v1358 v1539 v1541 g1 f13 fd (by intros; trivial) (by intros; trivial)
  have hcut51 := fun κo κs1 κr1 W v2 v9 v1361 v1383 v1568 g2 f14 fd => part51_run (Vtrue (F := F)) c κo κs1 κr1 W v2 v9 v1361 v1383 v1568 g2 f14 fd (by intros; trivial)
  have hcut52 := fun κs κr κo κs1 W v6 v1393 v1396 v1418 g1 f3 f15 fd => part52_run (Vtrue (F := F)) c κs κr κo κs1 W v6 v1393 v1396 v1418 g1 f3 f15 fd (by intros; trivial) (by intros; trivial)
  have hcut53 := fun κr1 κs κr κo κs1 W v2 v8 v1428 v1431 g1 f16 fd => part53_run (Vtrue (F := F)) c κr1 κs κr κo κs1 W v2 v8 v1428 v1431 g1 f16 fd (by intros; trivial) (by intros; trivial)
  have hcut54 := fun κr1 κs κr κo W v2 v9 v1453 v1463 v1466 g1 f17 fd => part54_run (Vtrue (F := F)) c κr1 κs κr κo W v2 v9 v1453 v1463 v1466 g1 f17 fd (by intros; trivial) (by intros; trivial)
  have hcut55 := fun κs0 κr0 κo κs1 W v1488 v1501 f18 fd => part55_run (Vtrue (F := F)) c κs0 κr0 κo κs1 W v1488 v1501 f18 fd (by intros; trivial)
  have hcut56 := fun κa κo19 κb κd W v1523 v1536 v1558 v1571 fb fo => part56_run (Vtrue (F := F)) c κa κo19 κb κd W v1523 v1536 v1558 v1571 fb fo (by intros; trivial)
  have hcut57 := fun κo20 κo21 κb κd W v1571 v1593 v1606 v1742 fb20 fo20 fb21 fo21 => part57_run (Vtrue (F := F)) c κo20 κo21 κb κd W v1571 v1593 v1606 v1742 fb20 fo20 fb21 fo21 (by intros; trivial) (by intros; trivial)
  have hcut58 := fun κb κd κo22 κe W v1628 v1641 fb fo => part58_run (Vtrue (F := F)) c κb κd κo22 κe W v1628 v1641 fb fo (by intros; trivial)
  have hcut59 := fun κd κo23 κw0 κw1 κw2 W v1663 v1676 fb fo => part59_run (Vtrue (F := F)) c κd κo23 κw0 κw1 κw2 W v1663 v1676 fb fo (by intros; trivial)
  have hcut60 := fun κw3 κw4 κw5 κw6 κw7 κw8 κw9 κw10 W => part60_run (Vtrue (F := F)) c κw3 κw4 κw5 κw6 κw7 κw8 κw9 κw10 W
  have hcut61 := fun κw11 κw12 κw13 κw14 κw15 κw16 κw17 W => part61_run (Vtrue (F := F)) c κw11 κw12 κw13 κw14 κw15 κw16 κw17 W
  have hcutTail := fun κw18 κw19 κw20 κw21 κw22 κw23 W => tail_run (Vtrue (F := F)) c κw18 κw19 κw20 κw21 κw22 κw23 W
  rw [cc0_body_tail]
  unfold k0_part62
  set_option sl_exec.maxSteps 2 in sl_exec
  injection hk0_part1_0 with hd0 hrest
  subst hd0
  clear hrest
  sl_exec
  iexists _
  unfold bodyEnd ownRecs pos1Lit dstLit accLit commEnd stgEnd agEnd
  sl_close

end Cert.KernelIdeal.Proto

end
-- ==== Proof.BodyOb.lean ====
/-
The body obligation of the region from the run of the body: the prologue takes what the region hands the body to
the body's starting state, the run takes the starting state through the program to the end state, and the
epilogue closes the cells, joins the buffers and hands the region what it expects.
-/
import proofs.«900882_g7700000000000883_dist_matmul_gelu_kshard_i_m2048_n2048_k1024_v7x_i8_f32_1_alg».proof.Proof.BodyAll

set_option maxRecDepth 100000

noncomputable section

namespace Cert.KernelIdeal.Proto

open Cert.KernelIdeal Cert.KernelIdeal.Gen Cert.KernelIdeal.Topo
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (V : Vals F)

/-- The library's body obligation on device c, from the run of the body between its starting state and its end state. -/
theorem body_obligation_of (hres : ∀ c g, outFacts V c g → V.res c g) (c : Dev nD)
    (hrun : ∀ (K : Dev nD × Fin 97 → ℕ) (W : Waits sig Unit), bodyStart m V K c W
      ⊢ wp frame (wpE (defs₀ (F := F)) 𝒱₀ c none) Set.univ
          (defs₀ (F := F) .tc cfg0.body (cfg0.bodyArgs t0_0 (cfg0.slots t0_0))) (fun _ => iprop(∃ W', bodyEnd m V K c W'))) :
    BodyObligation (dats m ρ V 0 c) (defs₀ (F := F)) 𝒱₀ () Set.univ := fun t => by
  rw [fin_N0 t]
  rw [bigSep_W0, bigSep_W0]
  simp only [owns_whole_eq]
  show bodyPre' m ρ V c ⊢ wp frame (wpE (defs₀ (F := F)) 𝒱₀ c none) Set.univ
    (defs₀ (F := F) .tc cfg0.body (cfg0.bodyArgs t0_0 (cfg0.slots t0_0))) (fun _ => bodyPost' m ρ V c)
  have hend (K : Dev nD × Fin 97 → ℕ) : (iprop(∃ W', bodyEnd m V K c W') : sProp 𝕄) ⊢ iprop(|={Set.univ}[frame]=> bodyPost' m ρ V c) := by
    iintro ⟨%W', H⟩
    imod (epilogue_end m ρ V hres K c W') $$ H with H'
    imodintro
    iexact H'
  iintro H
  ihave H' := (prologue m ρ V c) $$ H
  icases H' with ⟨%K, %W, Hs⟩
  iapply (wp_fupd frame (wpE (defs₀ (F := F)) 𝒱₀ c none) Set.univ _ _)
  iapply (wp_mono frame (wpE (defs₀ (F := F)) 𝒱₀ c none) Set.univ fun _ => hend K)
  iapply (hrun K W)
  iexact Hs

/-- The library's body obligation on device c, at the result predicates that hold of everything. -/
theorem body_obligation (c : Dev nD) : BodyObligation (dats (F := F) m ρ Vtrue 0 c) (defs₀ (F := F)) 𝒱₀ () Set.univ :=
  body_obligation_of m ρ Vtrue (fun _ _ _ => trivial) c (fun K W => body_run m c K W)

end Cert.KernelIdeal.Proto

end
-- ==== Proof.CellsBits.lean ====
/-
The semaphore cells of the reduce-scatter / all-gather protocol on the 2x2x2 device cube.

Every device has one barrier cell (the entry handshake with its three cube neighbours), and for each
column group k < 6 and each step s < 3 four DMA cells: the send and receive cells of the reduce-scatter
exchange and the send and receive cells of the all-gather exchange; and 24 cells of the copies of the
finished result blocks from the accumulator to the result array.
-/
import proofs.«900882_g7700000000000883_dist_matmul_gelu_kshard_i_m2048_n2048_k1024_v7x_i8_f32_1_alg».proof.Proof.Gen.Kernel.Frame
import Idealize.ShloMosaic.Lib.Pipeline.Launch
import Idealize.ShloMosaic.Lib.Pipeline.Kit
import Idealize.ShloMosaic.Lib.Tactic

noncomputable section

namespace Cert.Kernel.Proto

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-- The barrier semaphore of the collective (one per core, not scoped to the launch). -/
abbrev barS : Sem sig := (SemArray.scalar (sig.barrier 0 rfl) : Sems sig S_).sem

/-- The kinds of cell a device owns. -/
inductive CK where
  | bar
  | rsS (k : Fin 6) (s : Fin 3)
  | rsR (k : Fin 6) (s : Fin 3)
  | agS (k : Fin 6) (s : Fin 3)
  | agR (k : Fin 6) (s : Fin 3)
  | out (j : Fin 24)
  deriving DecidableEq

/-- The index of group k, step s in a 6x3 semaphore array. -/
def ks (k : Fin 6) (s : Fin 3) : ℕ := 3 * k.val + s.val
theorem ks_lt (k : Fin 6) (s : Fin 3) : ks k s < 18 := by unfold ks; omega

/-- The semaphore of each kind: the four 6x3 arrays start at 2, 20, 38, 56 and the 24 result-copy
    semaphores at 74 (the two before them stage the argument blocks). -/
def CK.sem : CK → SemLoc sig
  | .bar => .reg barS
  | .rsS k s => .dma ⟨2 + ks k s, by have := ks_lt k s; show _ < 98; omega⟩
  | .rsR k s => .dma ⟨20 + ks k s, by have := ks_lt k s; show _ < 98; omega⟩
  | .agS k s => .dma ⟨38 + ks k s, by have := ks_lt k s; show _ < 98; omega⟩
  | .agR k s => .dma ⟨56 + ks k s, by have := ks_lt k s; show _ < 98; omega⟩
  | .out j => .dma ⟨74 + j.val, by show _ < 98; omega⟩

/-- Which kind a semaphore is, if any. -/
def decode : SemLoc sig → Option CK
  | .reg s => if s = barS then some .bar else none
  | .dma d =>
    if h : 2 ≤ d.val ∧ d.val < 20 then some (.rsS ⟨(d.val - 2) / 3, by omega⟩ ⟨(d.val - 2) % 3, Nat.mod_lt _ (by decide)⟩)
    else if h : 20 ≤ d.val ∧ d.val < 38 then some (.rsR ⟨(d.val - 20) / 3, by omega⟩ ⟨(d.val - 20) % 3, Nat.mod_lt _ (by decide)⟩)
    else if h : 38 ≤ d.val ∧ d.val < 56 then some (.agS ⟨(d.val - 38) / 3, by omega⟩ ⟨(d.val - 38) % 3, Nat.mod_lt _ (by decide)⟩)
    else if h : 56 ≤ d.val ∧ d.val < 74 then some (.agR ⟨(d.val - 56) / 3, by omega⟩ ⟨(d.val - 56) % 3, Nat.mod_lt _ (by decide)⟩)
    else if h : 74 ≤ d.val ∧ d.val < 98 then some (.out ⟨d.val - 74, by omega⟩)
    else none

theorem decode_sem : ∀ κ : CK, decode κ.sem = some κ := by
  intro κ
  cases κ with
  | bar => simp [CK.sem, decode]
  | rsS k s => revert k s; decide
  | rsR k s => revert k s; decide
  | agS k s => revert k s; decide
  | agR k s => revert k s; decide
  | out j => revert j; decide

theorem sem_injective : Function.Injective CK.sem := fun a b h =>
  Option.some.inj (by rw [← decode_sem a, ← decode_sem b, h])

/-- The printed semaphore operands are these cells' semaphores. -/
theorem rsS_sem_eq : ∀ (k : Fin 6) (s : Fin 3) (h : ∀ a, (![k.val, s.val] : Fin 2 → Nat) a + S1x1.size a ≤ S6x3.size a),
    SemLoc.dma ((cc0_scratch19.slice (Rect.unit (s := S6x3) ![k.val, s.val] S1x1.size h)).squeeze S_ squeezes_S1x1_S_).sem = (CK.rsS k s).sem := by
  decide
theorem rsR_sem_eq : ∀ (k : Fin 6) (s : Fin 3) (h : ∀ a, (![k.val, s.val] : Fin 2 → Nat) a + S1x1.size a ≤ S6x3.size a),
    SemLoc.dma ((cc0_scratch20.slice (Rect.unit (s := S6x3) ![k.val, s.val] S1x1.size h)).squeeze S_ squeezes_S1x1_S_).sem = (CK.rsR k s).sem := by
  decide
theorem agS_sem_eq : ∀ (k : Fin 6) (s : Fin 3) (h : ∀ a, (![k.val, s.val] : Fin 2 → Nat) a + S1x1.size a ≤ S6x3.size a),
    SemLoc.dma ((cc0_scratch21.slice (Rect.unit (s := S6x3) ![k.val, s.val] S1x1.size h)).squeeze S_ squeezes_S1x1_S_).sem = (CK.agS k s).sem := by
  decide
theorem agR_sem_eq : ∀ (k : Fin 6) (s : Fin 3) (h : ∀ a, (![k.val, s.val] : Fin 2 → Nat) a + S1x1.size a ≤ S6x3.size a),
    SemLoc.dma ((cc0_scratch22.slice (Rect.unit (s := S6x3) ![k.val, s.val] S1x1.size h)).squeeze S_ squeezes_S1x1_S_).sem = (CK.agR k s).sem := by
  decide
theorem out_sem_eq : ∀ (j : Fin 24) (h : ∀ a, (![j.val] : Fin 1 → Nat) a + S1.size a ≤ S24.size a),
    SemLoc.dma ((cc0_scratch23.slice (Rect.unit (s := S24) ![j.val] S1.size h)).squeeze S_ squeezes_S1_S_).sem = (CK.out j).sem := by
  decide

/-- A device's cell of a kind. -/
abbrev cell (c : Dev nD) (κ : CK) : GSem nD τ sig := ((c : Thread nD τ), κ.sem)

theorem cell_injective : Function.Injective (fun ck : Dev nD × CK => cell ck.1 ck.2) := by
  rintro ⟨c, κ⟩ ⟨c', κ'⟩ h
  have h1 : c = c' := by have := congrArg (fun g : GSem nD τ sig => g.1.1) h; exact this
  subst h1
  have h2 : κ.sem = κ'.sem := congrArg Prod.snd h
  rw [sem_injective h2]

end Cert.Kernel.Proto

end
-- ==== Proof.ViewsBits.lean ====
/-
The pieces of the scratch buffers the protocol moves between devices, per column group k and step s:
the rows of a device's reduce-scatter landing buffer that step s fills (rows OFFS s .. OFFS s + size s),
the leading rows of its staging buffer that step s sends, and the rows of its all-gather buffer that
it sends at all-gather step s (they start at a row that depends on the device's cube coordinates).
-/
import proofs.«900882_g7700000000000883_dist_matmul_gelu_kshard_i_m2048_n2048_k1024_v7x_i8_f32_1_alg».proof.Proof.CellsBits

noncomputable section

namespace Cert.Kernel.Proto

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

/-- Group 0: the rows 0..1024 of the landing buffer (what reduce-scatter step 0 fills). -/
abbrev commM0_0 : Memref sig .tc .vmem S1024x384 .bf16 := (Memref.whole cc0_scratch1).slice (Rect.unit (s := S1792x384) ![0, 0] S1024x384.size inb_S1792x384_S1024x384_0_0) (fun _ => rfl)
/-- Group 0: the first 1024 rows of the staging buffer (what reduce-scatter step 0 sends). -/
abbrev stgM0_0 : Memref sig .tc .vmem S1024x384 .bf16 := (Memref.whole cc0_scratch7).slice (Rect.unit (s := S1024x384) ![0, 0] S1024x384.size inb_S1024x384_S1024x384_0_0) (fun _ => rfl)
/-- Group 0: the rows 1024..1536 of the landing buffer (what reduce-scatter step 1 fills). -/
abbrev commM0_1 : Memref sig .tc .vmem S512x384 .bf16 := (Memref.whole cc0_scratch1).slice (Rect.unit (s := S1792x384) ![1024, 0] S512x384.size inb_S1792x384_S512x384_1024_0) (fun _ => rfl)
/-- Group 0: the first 512 rows of the staging buffer (what reduce-scatter step 1 sends). -/
abbrev stgM0_1 : Memref sig .tc .vmem S512x384 .bf16 := (Memref.whole cc0_scratch7).slice (Rect.unit (s := S1024x384) ![0, 0] S512x384.size inb_S1024x384_S512x384_0_0) (fun _ => rfl)
/-- Group 0: the rows 1536..1792 of the landing buffer (what reduce-scatter step 2 fills). -/
abbrev commM0_2 : Memref sig .tc .vmem S256x384 .bf16 := (Memref.whole cc0_scratch1).slice (Rect.unit (s := S1792x384) ![1536, 0] S256x384.size inb_S1792x384_S256x384_1536_0) (fun _ => rfl)
/-- Group 0: the first 256 rows of the staging buffer (what reduce-scatter step 2 sends). -/
abbrev stgM0_2 : Memref sig .tc .vmem S256x384 .bf16 := (Memref.whole cc0_scratch7).slice (Rect.unit (s := S1024x384) ![0, 0] S256x384.size inb_S1024x384_S256x384_0_0) (fun _ => rfl)
/-- Group 1: the rows 0..1024 of the landing buffer (what reduce-scatter step 0 fills). -/
abbrev commM1_0 : Memref sig .tc .vmem S1024x384 .bf16 := (Memref.whole cc0_scratch2).slice (Rect.unit (s := S1792x384) ![0, 0] S1024x384.size inb_S1792x384_S1024x384_0_0) (fun _ => rfl)
/-- Group 1: the first 1024 rows of the staging buffer (what reduce-scatter step 0 sends). -/
abbrev stgM1_0 : Memref sig .tc .vmem S1024x384 .bf16 := (Memref.whole cc0_scratch8).slice (Rect.unit (s := S1024x384) ![0, 0] S1024x384.size inb_S1024x384_S1024x384_0_0) (fun _ => rfl)
/-- Group 1: the rows 1024..1536 of the landing buffer (what reduce-scatter step 1 fills). -/
abbrev commM1_1 : Memref sig .tc .vmem S512x384 .bf16 := (Memref.whole cc0_scratch2).slice (Rect.unit (s := S1792x384) ![1024, 0] S512x384.size inb_S1792x384_S512x384_1024_0) (fun _ => rfl)
/-- Group 1: the first 512 rows of the staging buffer (what reduce-scatter step 1 sends). -/
abbrev stgM1_1 : Memref sig .tc .vmem S512x384 .bf16 := (Memref.whole cc0_scratch8).slice (Rect.unit (s := S1024x384) ![0, 0] S512x384.size inb_S1024x384_S512x384_0_0) (fun _ => rfl)
/-- Group 1: the rows 1536..1792 of the landing buffer (what reduce-scatter step 2 fills). -/
abbrev commM1_2 : Memref sig .tc .vmem S256x384 .bf16 := (Memref.whole cc0_scratch2).slice (Rect.unit (s := S1792x384) ![1536, 0] S256x384.size inb_S1792x384_S256x384_1536_0) (fun _ => rfl)
/-- Group 1: the first 256 rows of the staging buffer (what reduce-scatter step 2 sends). -/
abbrev stgM1_2 : Memref sig .tc .vmem S256x384 .bf16 := (Memref.whole cc0_scratch8).slice (Rect.unit (s := S1024x384) ![0, 0] S256x384.size inb_S1024x384_S256x384_0_0) (fun _ => rfl)
/-- Group 2: the rows 0..1024 of the landing buffer (what reduce-scatter step 0 fills). -/
abbrev commM2_0 : Memref sig .tc .vmem S1024x384 .bf16 := (Memref.whole cc0_scratch3).slice (Rect.unit (s := S1792x384) ![0, 0] S1024x384.size inb_S1792x384_S1024x384_0_0) (fun _ => rfl)
/-- Group 2: the first 1024 rows of the staging buffer (what reduce-scatter step 0 sends). -/
abbrev stgM2_0 : Memref sig .tc .vmem S1024x384 .bf16 := (Memref.whole cc0_scratch9).slice (Rect.unit (s := S1024x384) ![0, 0] S1024x384.size inb_S1024x384_S1024x384_0_0) (fun _ => rfl)
/-- Group 2: the rows 1024..1536 of the landing buffer (what reduce-scatter step 1 fills). -/
abbrev commM2_1 : Memref sig .tc .vmem S512x384 .bf16 := (Memref.whole cc0_scratch3).slice (Rect.unit (s := S1792x384) ![1024, 0] S512x384.size inb_S1792x384_S512x384_1024_0) (fun _ => rfl)
/-- Group 2: the first 512 rows of the staging buffer (what reduce-scatter step 1 sends). -/
abbrev stgM2_1 : Memref sig .tc .vmem S512x384 .bf16 := (Memref.whole cc0_scratch9).slice (Rect.unit (s := S1024x384) ![0, 0] S512x384.size inb_S1024x384_S512x384_0_0) (fun _ => rfl)
/-- Group 2: the rows 1536..1792 of the landing buffer (what reduce-scatter step 2 fills). -/
abbrev commM2_2 : Memref sig .tc .vmem S256x384 .bf16 := (Memref.whole cc0_scratch3).slice (Rect.unit (s := S1792x384) ![1536, 0] S256x384.size inb_S1792x384_S256x384_1536_0) (fun _ => rfl)
/-- Group 2: the first 256 rows of the staging buffer (what reduce-scatter step 2 sends). -/
abbrev stgM2_2 : Memref sig .tc .vmem S256x384 .bf16 := (Memref.whole cc0_scratch9).slice (Rect.unit (s := S1024x384) ![0, 0] S256x384.size inb_S1024x384_S256x384_0_0) (fun _ => rfl)
/-- Group 3: the rows 0..1024 of the landing buffer (what reduce-scatter step 0 fills). -/
abbrev commM3_0 : Memref sig .tc .vmem S1024x384 .bf16 := (Memref.whole cc0_scratch4).slice (Rect.unit (s := S1792x384) ![0, 0] S1024x384.size inb_S1792x384_S1024x384_0_0) (fun _ => rfl)
/-- Group 3: the first 1024 rows of the staging buffer (what reduce-scatter step 0 sends). -/
abbrev stgM3_0 : Memref sig .tc .vmem S1024x384 .bf16 := (Memref.whole cc0_scratch10).slice (Rect.unit (s := S1024x384) ![0, 0] S1024x384.size inb_S1024x384_S1024x384_0_0) (fun _ => rfl)
/-- Group 3: the rows 1024..1536 of the landing buffer (what reduce-scatter step 1 fills). -/
abbrev commM3_1 : Memref sig .tc .vmem S512x384 .bf16 := (Memref.whole cc0_scratch4).slice (Rect.unit (s := S1792x384) ![1024, 0] S512x384.size inb_S1792x384_S512x384_1024_0) (fun _ => rfl)
/-- Group 3: the first 512 rows of the staging buffer (what reduce-scatter step 1 sends). -/
abbrev stgM3_1 : Memref sig .tc .vmem S512x384 .bf16 := (Memref.whole cc0_scratch10).slice (Rect.unit (s := S1024x384) ![0, 0] S512x384.size inb_S1024x384_S512x384_0_0) (fun _ => rfl)
/-- Group 3: the rows 1536..1792 of the landing buffer (what reduce-scatter step 2 fills). -/
abbrev commM3_2 : Memref sig .tc .vmem S256x384 .bf16 := (Memref.whole cc0_scratch4).slice (Rect.unit (s := S1792x384) ![1536, 0] S256x384.size inb_S1792x384_S256x384_1536_0) (fun _ => rfl)
/-- Group 3: the first 256 rows of the staging buffer (what reduce-scatter step 2 sends). -/
abbrev stgM3_2 : Memref sig .tc .vmem S256x384 .bf16 := (Memref.whole cc0_scratch10).slice (Rect.unit (s := S1024x384) ![0, 0] S256x384.size inb_S1024x384_S256x384_0_0) (fun _ => rfl)
/-- Group 4: the rows 0..1024 of the landing buffer (what reduce-scatter step 0 fills). -/
abbrev commM4_0 : Memref sig .tc .vmem S1024x256 .bf16 := (Memref.whole cc0_scratch5).slice (Rect.unit (s := S1792x256) ![0, 0] S1024x256.size inb_S1792x256_S1024x256_0_0) (fun _ => rfl)
/-- Group 4: the first 1024 rows of the staging buffer (what reduce-scatter step 0 sends). -/
abbrev stgM4_0 : Memref sig .tc .vmem S1024x256 .bf16 := (Memref.whole cc0_scratch11).slice (Rect.unit (s := S1024x256) ![0, 0] S1024x256.size inb_S1024x256_S1024x256_0_0) (fun _ => rfl)
/-- Group 4: the rows 1024..1536 of the landing buffer (what reduce-scatter step 1 fills). -/
abbrev commM4_1 : Memref sig .tc .vmem S512x256 .bf16 := (Memref.whole cc0_scratch5).slice (Rect.unit (s := S1792x256) ![1024, 0] S512x256.size inb_S1792x256_S512x256_1024_0) (fun _ => rfl)
/-- Group 4: the first 512 rows of the staging buffer (what reduce-scatter step 1 sends). -/
abbrev stgM4_1 : Memref sig .tc .vmem S512x256 .bf16 := (Memref.whole cc0_scratch11).slice (Rect.unit (s := S1024x256) ![0, 0] S512x256.size inb_S1024x256_S512x256_0_0) (fun _ => rfl)
/-- Group 4: the rows 1536..1792 of the landing buffer (what reduce-scatter step 2 fills). -/
abbrev commM4_2 : Memref sig .tc .vmem S256x256 .bf16 := (Memref.whole cc0_scratch5).slice (Rect.unit (s := S1792x256) ![1536, 0] S256x256.size inb_S1792x256_S256x256_1536_0) (fun _ => rfl)
/-- Group 4: the first 256 rows of the staging buffer (what reduce-scatter step 2 sends). -/
abbrev stgM4_2 : Memref sig .tc .vmem S256x256 .bf16 := (Memref.whole cc0_scratch11).slice (Rect.unit (s := S1024x256) ![0, 0] S256x256.size inb_S1024x256_S256x256_0_0) (fun _ => rfl)
/-- Group 5: the rows 0..1024 of the landing buffer (what reduce-scatter step 0 fills). -/
abbrev commM5_0 : Memref sig .tc .vmem S1024x256 .bf16 := (Memref.whole cc0_scratch6).slice (Rect.unit (s := S1792x256) ![0, 0] S1024x256.size inb_S1792x256_S1024x256_0_0) (fun _ => rfl)
/-- Group 5: the first 1024 rows of the staging buffer (what reduce-scatter step 0 sends). -/
abbrev stgM5_0 : Memref sig .tc .vmem S1024x256 .bf16 := (Memref.whole cc0_scratch12).slice (Rect.unit (s := S1024x256) ![0, 0] S1024x256.size inb_S1024x256_S1024x256_0_0) (fun _ => rfl)
/-- Group 5: the rows 1024..1536 of the landing buffer (what reduce-scatter step 1 fills). -/
abbrev commM5_1 : Memref sig .tc .vmem S512x256 .bf16 := (Memref.whole cc0_scratch6).slice (Rect.unit (s := S1792x256) ![1024, 0] S512x256.size inb_S1792x256_S512x256_1024_0) (fun _ => rfl)
/-- Group 5: the first 512 rows of the staging buffer (what reduce-scatter step 1 sends). -/
abbrev stgM5_1 : Memref sig .tc .vmem S512x256 .bf16 := (Memref.whole cc0_scratch12).slice (Rect.unit (s := S1024x256) ![0, 0] S512x256.size inb_S1024x256_S512x256_0_0) (fun _ => rfl)
/-- Group 5: the rows 1536..1792 of the landing buffer (what reduce-scatter step 2 fills). -/
abbrev commM5_2 : Memref sig .tc .vmem S256x256 .bf16 := (Memref.whole cc0_scratch6).slice (Rect.unit (s := S1792x256) ![1536, 0] S256x256.size inb_S1792x256_S256x256_1536_0) (fun _ => rfl)
/-- Group 5: the first 256 rows of the staging buffer (what reduce-scatter step 2 sends). -/
abbrev stgM5_2 : Memref sig .tc .vmem S256x256 .bf16 := (Memref.whole cc0_scratch12).slice (Rect.unit (s := S1024x256) ![0, 0] S256x256.size inb_S1024x256_S256x256_0_0) (fun _ => rfl)
/-- Group 0: the 256 rows of the all-gather buffer that device c sends at all-gather step 0 (they land, at the same rows, in its neighbour's buffer). -/
abbrev agM0_0 (c : Dev nD) : Memref sig .tc .vmem S256x384 .bf16 := (Memref.whole cc0_scratch13).slice (Rect.unit (s := S2048x384) (k0_off73 c) S256x384.size (k0_off73_inb c)) (fun _ => rfl)
/-- Group 0: the 512 rows of the all-gather buffer that device c sends at all-gather step 1 (they land, at the same rows, in its neighbour's buffer). -/
abbrev agM0_1 (c : Dev nD) : Memref sig .tc .vmem S512x384 .bf16 := (Memref.whole cc0_scratch13).slice (Rect.unit (s := S2048x384) (k0_off78 c) S512x384.size (k0_off78_inb c)) (fun _ => rfl)
/-- Group 0: the 1024 rows of the all-gather buffer that device c sends at all-gather step 2 (they land, at the same rows, in its neighbour's buffer). -/
abbrev agM0_2 (c : Dev nD) : Memref sig .tc .vmem S1024x384 .bf16 := (Memref.whole cc0_scratch13).slice (Rect.unit (s := S2048x384) (k0_off100 c) S1024x384.size (k0_off100_inb c)) (fun _ => rfl)
/-- Group 1: the 256 rows of the all-gather buffer that device c sends at all-gather step 0 (they land, at the same rows, in its neighbour's buffer). -/
abbrev agM1_0 (c : Dev nD) : Memref sig .tc .vmem S256x384 .bf16 := (Memref.whole cc0_scratch14).slice (Rect.unit (s := S2048x384) (k0_off74 c) S256x384.size (k0_off74_inb c)) (fun _ => rfl)
/-- Group 1: the 512 rows of the all-gather buffer that device c sends at all-gather step 1 (they land, at the same rows, in its neighbour's buffer). -/
abbrev agM1_1 (c : Dev nD) : Memref sig .tc .vmem S512x384 .bf16 := (Memref.whole cc0_scratch14).slice (Rect.unit (s := S2048x384) (k0_off82 c) S512x384.size (k0_off82_inb c)) (fun _ => rfl)
/-- Group 1: the 1024 rows of the all-gather buffer that device c sends at all-gather step 2 (they land, at the same rows, in its neighbour's buffer). -/
abbrev agM1_2 (c : Dev nD) : Memref sig .tc .vmem S1024x384 .bf16 := (Memref.whole cc0_scratch14).slice (Rect.unit (s := S2048x384) (k0_off104 c) S1024x384.size (k0_off104_inb c)) (fun _ => rfl)
/-- Group 2: the 256 rows of the all-gather buffer that device c sends at all-gather step 0 (they land, at the same rows, in its neighbour's buffer). -/
abbrev agM2_0 (c : Dev nD) : Memref sig .tc .vmem S256x384 .bf16 := (Memref.whole cc0_scratch15).slice (Rect.unit (s := S2048x384) (k0_off75 c) S256x384.size (k0_off75_inb c)) (fun _ => rfl)
/-- Group 2: the 512 rows of the all-gather buffer that device c sends at all-gather step 1 (they land, at the same rows, in its neighbour's buffer). -/
abbrev agM2_1 (c : Dev nD) : Memref sig .tc .vmem S512x384 .bf16 := (Memref.whole cc0_scratch15).slice (Rect.unit (s := S2048x384) (k0_off86 c) S512x384.size (k0_off86_inb c)) (fun _ => rfl)
/-- Group 2: the 1024 rows of the all-gather buffer that device c sends at all-gather step 2 (they land, at the same rows, in its neighbour's buffer). -/
abbrev agM2_2 (c : Dev nD) : Memref sig .tc .vmem S1024x384 .bf16 := (Memref.whole cc0_scratch15).slice (Rect.unit (s := S2048x384) (k0_off108 c) S1024x384.size (k0_off108_inb c)) (fun _ => rfl)
/-- Group 3: the 256 rows of the all-gather buffer that device c sends at all-gather step 0 (they land, at the same rows, in its neighbour's buffer). -/
abbrev agM3_0 (c : Dev nD) : Memref sig .tc .vmem S256x384 .bf16 := (Memref.whole cc0_scratch16).slice (Rect.unit (s := S2048x384) (k0_off73 c) S256x384.size (k0_off73_inb c)) (fun _ => rfl)
/-- Group 3: the 512 rows of the all-gather buffer that device c sends at all-gather step 1 (they land, at the same rows, in its neighbour's buffer). -/
abbrev agM3_1 (c : Dev nD) : Memref sig .tc .vmem S512x384 .bf16 := (Memref.whole cc0_scratch16).slice (Rect.unit (s := S2048x384) (k0_off78 c) S512x384.size (k0_off78_inb c)) (fun _ => rfl)
/-- Group 3: the 1024 rows of the all-gather buffer that device c sends at all-gather step 2 (they land, at the same rows, in its neighbour's buffer). -/
abbrev agM3_2 (c : Dev nD) : Memref sig .tc .vmem S1024x384 .bf16 := (Memref.whole cc0_scratch16).slice (Rect.unit (s := S2048x384) (k0_off100 c) S1024x384.size (k0_off100_inb c)) (fun _ => rfl)
/-- Group 4: the 256 rows of the all-gather buffer that device c sends at all-gather step 0 (they land, at the same rows, in its neighbour's buffer). -/
abbrev agM4_0 (c : Dev nD) : Memref sig .tc .vmem S256x256 .bf16 := (Memref.whole cc0_scratch17).slice (Rect.unit (s := S2048x256) (k0_off76 c) S256x256.size (k0_off76_inb c)) (fun _ => rfl)
/-- Group 4: the 512 rows of the all-gather buffer that device c sends at all-gather step 1 (they land, at the same rows, in its neighbour's buffer). -/
abbrev agM4_1 (c : Dev nD) : Memref sig .tc .vmem S512x256 .bf16 := (Memref.whole cc0_scratch17).slice (Rect.unit (s := S2048x256) (k0_off92 c) S512x256.size (k0_off92_inb c)) (fun _ => rfl)
/-- Group 4: the 1024 rows of the all-gather buffer that device c sends at all-gather step 2 (they land, at the same rows, in its neighbour's buffer). -/
abbrev agM4_2 (c : Dev nD) : Memref sig .tc .vmem S1024x256 .bf16 := (Memref.whole cc0_scratch17).slice (Rect.unit (s := S2048x256) (k0_off114 c) S1024x256.size (k0_off114_inb c)) (fun _ => rfl)
/-- Group 5: the 256 rows of the all-gather buffer that device c sends at all-gather step 0 (they land, at the same rows, in its neighbour's buffer). -/
abbrev agM5_0 (c : Dev nD) : Memref sig .tc .vmem S256x256 .bf16 := (Memref.whole cc0_scratch18).slice (Rect.unit (s := S2048x256) (k0_off77 c) S256x256.size (k0_off77_inb c)) (fun _ => rfl)
/-- Group 5: the 512 rows of the all-gather buffer that device c sends at all-gather step 1 (they land, at the same rows, in its neighbour's buffer). -/
abbrev agM5_1 (c : Dev nD) : Memref sig .tc .vmem S512x256 .bf16 := (Memref.whole cc0_scratch18).slice (Rect.unit (s := S2048x256) (k0_off96 c) S512x256.size (k0_off96_inb c)) (fun _ => rfl)
/-- Group 5: the 1024 rows of the all-gather buffer that device c sends at all-gather step 2 (they land, at the same rows, in its neighbour's buffer). -/
abbrev agM5_2 (c : Dev nD) : Memref sig .tc .vmem S1024x256 .bf16 := (Memref.whole cc0_scratch18).slice (Rect.unit (s := S2048x256) (k0_off118 c) S1024x256.size (k0_off118_inb c)) (fun _ => rfl)

end Cert.Kernel.Proto

end
-- ==== Proof.TopoBits.lean ====
import proofs.«900882_g7700000000000883_dist_matmul_gelu_kshard_i_m2048_n2048_k1024_v7x_i8_f32_1_alg».proof.Proof.Gen.Kernel

/-! The eight devices as the corners of a 2 x 2 x 2 cube.

    Device `c` (a number below 8, bits `b0 b1 b2` from the lowest) sits at the corner `(cx, cy, cz)` with
    `cx = b0 xor b1`, `cy = b1`, `cz = b2`: along the numbers 0, 1, 2, 3 the first two coordinates run through
    (0,0), (1,0), (1,1), (0,1), a Gray code, so that consecutive numbers are neighbours. The neighbour of `c` across
    axis `d` is `c xor 1`, `c xor 3`, `c xor 4` for `d = 0, 1, 2`: it flips the coordinate of that axis and keeps
    the other two. Every statement here is over the eight devices (and the three axes) and is decided by evaluation. -/

namespace Cert.Kernel.Topo

open Cert.Kernel Cert.Kernel.Gen Idealize.ShloMosaic

/-- The first coordinate: bit 0 xor bit 1 of the device's number. -/
def cx (c : Dev nD) : Nat := (c.val % 2 + c.val / 2 % 2) % 2
/-- The second coordinate: bit 1 of the device's number. -/
def cy (c : Dev nD) : Nat := c.val / 2 % 2
/-- The third coordinate: bit 2 of the device's number. -/
def cz (c : Dev nD) : Nat := c.val / 4

/-- The word whose xor with a device's number crosses axis `d`. -/
def mask : Fin 3 → Dev nD := ![1, 3, 4]

/-- The neighbour of `c` across axis `d`. -/
def nbr (d : Fin 3) (c : Dev nD) : Dev nD := c ^^^ mask d

theorem nbr_val (d : Fin 3) (c : Dev nD) : (nbr d c).val = c.val ^^^ (mask d).val := by
  revert d c; decide

/-! ### The coordinates are bits, and name the device -/

theorem cx_le (c : Dev nD) : cx c ≤ 1 := by revert c; decide
theorem cy_le (c : Dev nD) : cy c ≤ 1 := by revert c; decide
theorem cz_le (c : Dev nD) : cz c ≤ 1 := by revert c; decide

/-- The device's number from its coordinates. -/
theorem val_eq (c : Dev nD) : c.val = (cx c + cy c) % 2 + 2 * cy c + 4 * cz c := by revert c; decide

/-- Two devices with the same coordinates are the same device. -/
theorem ext_coords (c c' : Dev nD) (hx : cx c = cx c') (hy : cy c = cy c') (hz : cz c = cz c') : c = c' := by
  apply Fin.ext; rw [val_eq c, val_eq c', hx, hy, hz]

/-! ### Crossing an axis -/

/-- Crossing the same axis twice comes back. -/
theorem nbr_nbr (d : Fin 3) (c : Dev nD) : nbr d (nbr d c) = c := by revert d c; decide
/-- The neighbour is another device. -/
theorem nbr_ne (d : Fin 3) (c : Dev nD) : nbr d c ≠ c := by revert d c; decide
/-- The three neighbours of a device are three devices. -/
theorem nbr_inj (c : Dev nD) {d d' : Fin 3} (h : nbr d c = nbr d' c) : d = d' := by revert c d d'; decide
/-- Each axis' crossing is one-to-one. -/
theorem nbr_left_inj (d : Fin 3) {c c' : Dev nD} (h : nbr d c = nbr d c') : c = c' := by
  rw [← nbr_nbr d c, h, nbr_nbr]
/-- Crossings of two axes commute. -/
theorem nbr_comm (d d' : Fin 3) (c : Dev nD) : nbr d (nbr d' c) = nbr d' (nbr d c) := by revert d d' c; decide
/-- `c` is the neighbour of `c'` exactly when `c'` is the neighbour of `c`. -/
theorem nbr_eq_iff (d : Fin 3) (c c' : Dev nD) : nbr d c = c' ↔ c = nbr d c' := by
  constructor
  · intro h; rw [← h, nbr_nbr]
  · intro h; rw [h, nbr_nbr]

/-! ### What a crossing does to the coordinates -/

@[simp] theorem cx_nbr0 (c : Dev nD) : cx (nbr 0 c) = 1 - cx c := by revert c; decide
@[simp] theorem cy_nbr0 (c : Dev nD) : cy (nbr 0 c) = cy c := by revert c; decide
@[simp] theorem cz_nbr0 (c : Dev nD) : cz (nbr 0 c) = cz c := by revert c; decide
@[simp] theorem cx_nbr1 (c : Dev nD) : cx (nbr 1 c) = cx c := by revert c; decide
@[simp] theorem cy_nbr1 (c : Dev nD) : cy (nbr 1 c) = 1 - cy c := by revert c; decide
@[simp] theorem cz_nbr1 (c : Dev nD) : cz (nbr 1 c) = cz c := by revert c; decide
@[simp] theorem cx_nbr2 (c : Dev nD) : cx (nbr 2 c) = cx c := by revert c; decide
@[simp] theorem cy_nbr2 (c : Dev nD) : cy (nbr 2 c) = cy c := by revert c; decide
@[simp] theorem cz_nbr2 (c : Dev nD) : cz (nbr 2 c) = 1 - cz c := by revert c; decide

end Cert.Kernel.Topo
-- ==== Proof.SchedTabBits.lean ====
/-
The schedule's tables, case by case over the 18 (group, step) pairs (numbered 3 k + s) and the 24 copies of
result blocks: the values that travel (one record field per transfer), each cell's amount (the credit of its
transfer's destination piece) and each cell's payload (the piece it hands its owner when the transfer lands).
-/
import proofs.«900882_g7700000000000883_dist_matmul_gelu_kshard_i_m2048_n2048_k1024_v7x_i8_f32_1_alg».proof.Proof.ViewsBits
import proofs.«900882_g7700000000000883_dist_matmul_gelu_kshard_i_m2048_n2048_k1024_v7x_i8_f32_1_alg».proof.Proof.TopoBits

noncomputable section

namespace Cert.Kernel.Proto

open Cert.Kernel Cert.Kernel.Gen Cert.Kernel.Topo
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The result-copy pieces: copy j moves these rows and columns of the accumulator to the same place of the result array. -/
abbrev outSrcM0 (c : Dev nD) : Memref sig .tc .vmem S256x384 .f32 := (Memref.whole cc0_scratch0).slice (Rect.unit (s := S2048x2048) (k0_off59 c) S256x384.size (k0_off59_inb c)) (fun _ => rfl)
abbrev outDstM0 (c : Dev nD) : Memref sig .tc .hbm S256x384 .f32 := (Memref.whole main_v1).slice (Rect.unit (s := S2048x2048) (k0_off59 c) S256x384.size (k0_off59_inb c)) (fun _ => rfl)
abbrev outSrcM1 (c : Dev nD) : Memref sig .tc .vmem S256x384 .f32 := (Memref.whole cc0_scratch0).slice (Rect.unit (s := S2048x2048) (k0_off62 c) S256x384.size (k0_off62_inb c)) (fun _ => rfl)
abbrev outDstM1 (c : Dev nD) : Memref sig .tc .hbm S256x384 .f32 := (Memref.whole main_v1).slice (Rect.unit (s := S2048x2048) (k0_off62 c) S256x384.size (k0_off62_inb c)) (fun _ => rfl)
abbrev outSrcM2 (c : Dev nD) : Memref sig .tc .vmem S256x384 .f32 := (Memref.whole cc0_scratch0).slice (Rect.unit (s := S2048x2048) (k0_off65 c) S256x384.size (k0_off65_inb c)) (fun _ => rfl)
abbrev outDstM2 (c : Dev nD) : Memref sig .tc .hbm S256x384 .f32 := (Memref.whole main_v1).slice (Rect.unit (s := S2048x2048) (k0_off65 c) S256x384.size (k0_off65_inb c)) (fun _ => rfl)
abbrev outSrcM3 (c : Dev nD) : Memref sig .tc .vmem S256x384 .f32 := (Memref.whole cc0_scratch0).slice (Rect.unit (s := S2048x2048) (k0_off66 c) S256x384.size (k0_off66_inb c)) (fun _ => rfl)
abbrev outDstM3 (c : Dev nD) : Memref sig .tc .hbm S256x384 .f32 := (Memref.whole main_v1).slice (Rect.unit (s := S2048x2048) (k0_off66 c) S256x384.size (k0_off66_inb c)) (fun _ => rfl)
abbrev outSrcM4 (c : Dev nD) : Memref sig .tc .vmem S256x256 .f32 := (Memref.whole cc0_scratch0).slice (Rect.unit (s := S2048x2048) (k0_off69 c) S256x256.size (k0_off69_inb c)) (fun _ => rfl)
abbrev outDstM4 (c : Dev nD) : Memref sig .tc .hbm S256x256 .f32 := (Memref.whole main_v1).slice (Rect.unit (s := S2048x2048) (k0_off69 c) S256x256.size (k0_off69_inb c)) (fun _ => rfl)
abbrev outSrcM5 (c : Dev nD) : Memref sig .tc .vmem S256x256 .f32 := (Memref.whole cc0_scratch0).slice (Rect.unit (s := S2048x2048) (k0_off72 c) S256x256.size (k0_off72_inb c)) (fun _ => rfl)
abbrev outDstM5 (c : Dev nD) : Memref sig .tc .hbm S256x256 .f32 := (Memref.whole main_v1).slice (Rect.unit (s := S2048x2048) (k0_off72 c) S256x256.size (k0_off72_inb c)) (fun _ => rfl)
abbrev outSrcM6 (c : Dev nD) : Memref sig .tc .vmem S256x384 .f32 := (Memref.whole cc0_scratch0).slice (Rect.unit (s := S2048x2048) (k0_off81 c) S256x384.size (k0_off81_inb c)) (fun _ => rfl)
abbrev outDstM6 (c : Dev nD) : Memref sig .tc .hbm S256x384 .f32 := (Memref.whole main_v1).slice (Rect.unit (s := S2048x2048) (k0_off81 c) S256x384.size (k0_off81_inb c)) (fun _ => rfl)
abbrev outSrcM7 (c : Dev nD) : Memref sig .tc .vmem S256x384 .f32 := (Memref.whole cc0_scratch0).slice (Rect.unit (s := S2048x2048) (k0_off85 c) S256x384.size (k0_off85_inb c)) (fun _ => rfl)
abbrev outDstM7 (c : Dev nD) : Memref sig .tc .hbm S256x384 .f32 := (Memref.whole main_v1).slice (Rect.unit (s := S2048x2048) (k0_off85 c) S256x384.size (k0_off85_inb c)) (fun _ => rfl)
abbrev outSrcM8 (c : Dev nD) : Memref sig .tc .vmem S256x384 .f32 := (Memref.whole cc0_scratch0).slice (Rect.unit (s := S2048x2048) (k0_off89 c) S256x384.size (k0_off89_inb c)) (fun _ => rfl)
abbrev outDstM8 (c : Dev nD) : Memref sig .tc .hbm S256x384 .f32 := (Memref.whole main_v1).slice (Rect.unit (s := S2048x2048) (k0_off89 c) S256x384.size (k0_off89_inb c)) (fun _ => rfl)
abbrev outSrcM9 (c : Dev nD) : Memref sig .tc .vmem S256x384 .f32 := (Memref.whole cc0_scratch0).slice (Rect.unit (s := S2048x2048) (k0_off91 c) S256x384.size (k0_off91_inb c)) (fun _ => rfl)
abbrev outDstM9 (c : Dev nD) : Memref sig .tc .hbm S256x384 .f32 := (Memref.whole main_v1).slice (Rect.unit (s := S2048x2048) (k0_off91 c) S256x384.size (k0_off91_inb c)) (fun _ => rfl)
abbrev outSrcM10 (c : Dev nD) : Memref sig .tc .vmem S256x256 .f32 := (Memref.whole cc0_scratch0).slice (Rect.unit (s := S2048x2048) (k0_off95 c) S256x256.size (k0_off95_inb c)) (fun _ => rfl)
abbrev outDstM10 (c : Dev nD) : Memref sig .tc .hbm S256x256 .f32 := (Memref.whole main_v1).slice (Rect.unit (s := S2048x2048) (k0_off95 c) S256x256.size (k0_off95_inb c)) (fun _ => rfl)
abbrev outSrcM11 (c : Dev nD) : Memref sig .tc .vmem S256x256 .f32 := (Memref.whole cc0_scratch0).slice (Rect.unit (s := S2048x2048) (k0_off99 c) S256x256.size (k0_off99_inb c)) (fun _ => rfl)
abbrev outDstM11 (c : Dev nD) : Memref sig .tc .hbm S256x256 .f32 := (Memref.whole main_v1).slice (Rect.unit (s := S2048x2048) (k0_off99 c) S256x256.size (k0_off99_inb c)) (fun _ => rfl)
abbrev outSrcM12 (c : Dev nD) : Memref sig .tc .vmem S512x384 .f32 := (Memref.whole cc0_scratch0).slice (Rect.unit (s := S2048x2048) (k0_off103 c) S512x384.size (k0_off103_inb c)) (fun _ => rfl)
abbrev outDstM12 (c : Dev nD) : Memref sig .tc .hbm S512x384 .f32 := (Memref.whole main_v1).slice (Rect.unit (s := S2048x2048) (k0_off103 c) S512x384.size (k0_off103_inb c)) (fun _ => rfl)
abbrev outSrcM13 (c : Dev nD) : Memref sig .tc .vmem S512x384 .f32 := (Memref.whole cc0_scratch0).slice (Rect.unit (s := S2048x2048) (k0_off107 c) S512x384.size (k0_off107_inb c)) (fun _ => rfl)
abbrev outDstM13 (c : Dev nD) : Memref sig .tc .hbm S512x384 .f32 := (Memref.whole main_v1).slice (Rect.unit (s := S2048x2048) (k0_off107 c) S512x384.size (k0_off107_inb c)) (fun _ => rfl)
abbrev outSrcM14 (c : Dev nD) : Memref sig .tc .vmem S512x384 .f32 := (Memref.whole cc0_scratch0).slice (Rect.unit (s := S2048x2048) (k0_off111 c) S512x384.size (k0_off111_inb c)) (fun _ => rfl)
abbrev outDstM14 (c : Dev nD) : Memref sig .tc .hbm S512x384 .f32 := (Memref.whole main_v1).slice (Rect.unit (s := S2048x2048) (k0_off111 c) S512x384.size (k0_off111_inb c)) (fun _ => rfl)
abbrev outSrcM15 (c : Dev nD) : Memref sig .tc .vmem S512x384 .f32 := (Memref.whole cc0_scratch0).slice (Rect.unit (s := S2048x2048) (k0_off113 c) S512x384.size (k0_off113_inb c)) (fun _ => rfl)
abbrev outDstM15 (c : Dev nD) : Memref sig .tc .hbm S512x384 .f32 := (Memref.whole main_v1).slice (Rect.unit (s := S2048x2048) (k0_off113 c) S512x384.size (k0_off113_inb c)) (fun _ => rfl)
abbrev outSrcM16 (c : Dev nD) : Memref sig .tc .vmem S512x256 .f32 := (Memref.whole cc0_scratch0).slice (Rect.unit (s := S2048x2048) (k0_off117 c) S512x256.size (k0_off117_inb c)) (fun _ => rfl)
abbrev outDstM16 (c : Dev nD) : Memref sig .tc .hbm S512x256 .f32 := (Memref.whole main_v1).slice (Rect.unit (s := S2048x2048) (k0_off117 c) S512x256.size (k0_off117_inb c)) (fun _ => rfl)
abbrev outSrcM17 (c : Dev nD) : Memref sig .tc .vmem S512x256 .f32 := (Memref.whole cc0_scratch0).slice (Rect.unit (s := S2048x2048) (k0_off121 c) S512x256.size (k0_off121_inb c)) (fun _ => rfl)
abbrev outDstM17 (c : Dev nD) : Memref sig .tc .hbm S512x256 .f32 := (Memref.whole main_v1).slice (Rect.unit (s := S2048x2048) (k0_off121 c) S512x256.size (k0_off121_inb c)) (fun _ => rfl)
abbrev outSrcM18 (c : Dev nD) : Memref sig .tc .vmem S1024x384 .f32 := (Memref.whole cc0_scratch0).slice (Rect.unit (s := S2048x2048) (k0_off124 c) S1024x384.size (k0_off124_inb c)) (fun _ => rfl)
abbrev outDstM18 (c : Dev nD) : Memref sig .tc .hbm S1024x384 .f32 := (Memref.whole main_v1).slice (Rect.unit (s := S2048x2048) (k0_off124 c) S1024x384.size (k0_off124_inb c)) (fun _ => rfl)
abbrev outSrcM19 (c : Dev nD) : Memref sig .tc .vmem S1024x384 .f32 := (Memref.whole cc0_scratch0).slice (Rect.unit (s := S2048x2048) (k0_off127 c) S1024x384.size (k0_off127_inb c)) (fun _ => rfl)
abbrev outDstM19 (c : Dev nD) : Memref sig .tc .hbm S1024x384 .f32 := (Memref.whole main_v1).slice (Rect.unit (s := S2048x2048) (k0_off127 c) S1024x384.size (k0_off127_inb c)) (fun _ => rfl)
abbrev outSrcM20 (c : Dev nD) : Memref sig .tc .vmem S1024x384 .f32 := (Memref.whole cc0_scratch0).slice (Rect.unit (s := S2048x2048) (k0_off130 c) S1024x384.size (k0_off130_inb c)) (fun _ => rfl)
abbrev outDstM20 (c : Dev nD) : Memref sig .tc .hbm S1024x384 .f32 := (Memref.whole main_v1).slice (Rect.unit (s := S2048x2048) (k0_off130 c) S1024x384.size (k0_off130_inb c)) (fun _ => rfl)
abbrev outSrcM21 (c : Dev nD) : Memref sig .tc .vmem S1024x384 .f32 := (Memref.whole cc0_scratch0).slice (Rect.unit (s := S2048x2048) (k0_off132 c) S1024x384.size (k0_off132_inb c)) (fun _ => rfl)
abbrev outDstM21 (c : Dev nD) : Memref sig .tc .hbm S1024x384 .f32 := (Memref.whole main_v1).slice (Rect.unit (s := S2048x2048) (k0_off132 c) S1024x384.size (k0_off132_inb c)) (fun _ => rfl)
abbrev outSrcM22 (c : Dev nD) : Memref sig .tc .vmem S1024x256 .f32 := (Memref.whole cc0_scratch0).slice (Rect.unit (s := S2048x2048) (k0_off135 c) S1024x256.size (k0_off135_inb c)) (fun _ => rfl)
abbrev outDstM22 (c : Dev nD) : Memref sig .tc .hbm S1024x256 .f32 := (Memref.whole main_v1).slice (Rect.unit (s := S2048x2048) (k0_off135 c) S1024x256.size (k0_off135_inb c)) (fun _ => rfl)
abbrev outSrcM23 (c : Dev nD) : Memref sig .tc .vmem S1024x256 .f32 := (Memref.whole cc0_scratch0).slice (Rect.unit (s := S2048x2048) (k0_off138 c) S1024x256.size (k0_off138_inb c)) (fun _ => rfl)
abbrev outDstM23 (c : Dev nD) : Memref sig .tc .hbm S1024x256 .f32 := (Memref.whole main_v1).slice (Rect.unit (s := S2048x2048) (k0_off138 c) S1024x256.size (k0_off138_inb c)) (fun _ => rfl)

/-- What is known of the values that travel, as predicates: of what each device sends at each reduce-scatter step and at each all-gather step of each group, of the block of the result each copy writes, and of a device's whole result array. (All true: a run that says nothing of values. Equalities with the computed terms: the run with every value named.) -/
structure Vals (F : FTy → Type) where
  rs0_0 : Dev nD → (S1024x384.Idx → Elt F .bf16) → Prop
  rs0_1 : Dev nD → (S512x384.Idx → Elt F .bf16) → Prop
  rs0_2 : Dev nD → (S256x384.Idx → Elt F .bf16) → Prop
  rs1_0 : Dev nD → (S1024x384.Idx → Elt F .bf16) → Prop
  rs1_1 : Dev nD → (S512x384.Idx → Elt F .bf16) → Prop
  rs1_2 : Dev nD → (S256x384.Idx → Elt F .bf16) → Prop
  rs2_0 : Dev nD → (S1024x384.Idx → Elt F .bf16) → Prop
  rs2_1 : Dev nD → (S512x384.Idx → Elt F .bf16) → Prop
  rs2_2 : Dev nD → (S256x384.Idx → Elt F .bf16) → Prop
  rs3_0 : Dev nD → (S1024x384.Idx → Elt F .bf16) → Prop
  rs3_1 : Dev nD → (S512x384.Idx → Elt F .bf16) → Prop
  rs3_2 : Dev nD → (S256x384.Idx → Elt F .bf16) → Prop
  rs4_0 : Dev nD → (S1024x256.Idx → Elt F .bf16) → Prop
  rs4_1 : Dev nD → (S512x256.Idx → Elt F .bf16) → Prop
  rs4_2 : Dev nD → (S256x256.Idx → Elt F .bf16) → Prop
  rs5_0 : Dev nD → (S1024x256.Idx → Elt F .bf16) → Prop
  rs5_1 : Dev nD → (S512x256.Idx → Elt F .bf16) → Prop
  rs5_2 : Dev nD → (S256x256.Idx → Elt F .bf16) → Prop
  ag0_0 : Dev nD → (S256x384.Idx → Elt F .bf16) → Prop
  ag0_1 : Dev nD → (S512x384.Idx → Elt F .bf16) → Prop
  ag0_2 : Dev nD → (S1024x384.Idx → Elt F .bf16) → Prop
  ag1_0 : Dev nD → (S256x384.Idx → Elt F .bf16) → Prop
  ag1_1 : Dev nD → (S512x384.Idx → Elt F .bf16) → Prop
  ag1_2 : Dev nD → (S1024x384.Idx → Elt F .bf16) → Prop
  ag2_0 : Dev nD → (S256x384.Idx → Elt F .bf16) → Prop
  ag2_1 : Dev nD → (S512x384.Idx → Elt F .bf16) → Prop
  ag2_2 : Dev nD → (S1024x384.Idx → Elt F .bf16) → Prop
  ag3_0 : Dev nD → (S256x384.Idx → Elt F .bf16) → Prop
  ag3_1 : Dev nD → (S512x384.Idx → Elt F .bf16) → Prop
  ag3_2 : Dev nD → (S1024x384.Idx → Elt F .bf16) → Prop
  ag4_0 : Dev nD → (S256x256.Idx → Elt F .bf16) → Prop
  ag4_1 : Dev nD → (S512x256.Idx → Elt F .bf16) → Prop
  ag4_2 : Dev nD → (S1024x256.Idx → Elt F .bf16) → Prop
  ag5_0 : Dev nD → (S256x256.Idx → Elt F .bf16) → Prop
  ag5_1 : Dev nD → (S512x256.Idx → Elt F .bf16) → Prop
  ag5_2 : Dev nD → (S1024x256.Idx → Elt F .bf16) → Prop
  out0 : Dev nD → (S256x384.Idx → Elt F .f32) → Prop
  out1 : Dev nD → (S256x384.Idx → Elt F .f32) → Prop
  out2 : Dev nD → (S256x384.Idx → Elt F .f32) → Prop
  out3 : Dev nD → (S256x384.Idx → Elt F .f32) → Prop
  out4 : Dev nD → (S256x256.Idx → Elt F .f32) → Prop
  out5 : Dev nD → (S256x256.Idx → Elt F .f32) → Prop
  out6 : Dev nD → (S256x384.Idx → Elt F .f32) → Prop
  out7 : Dev nD → (S256x384.Idx → Elt F .f32) → Prop
  out8 : Dev nD → (S256x384.Idx → Elt F .f32) → Prop
  out9 : Dev nD → (S256x384.Idx → Elt F .f32) → Prop
  out10 : Dev nD → (S256x256.Idx → Elt F .f32) → Prop
  out11 : Dev nD → (S256x256.Idx → Elt F .f32) → Prop
  out12 : Dev nD → (S512x384.Idx → Elt F .f32) → Prop
  out13 : Dev nD → (S512x384.Idx → Elt F .f32) → Prop
  out14 : Dev nD → (S512x384.Idx → Elt F .f32) → Prop
  out15 : Dev nD → (S512x384.Idx → Elt F .f32) → Prop
  out16 : Dev nD → (S512x256.Idx → Elt F .f32) → Prop
  out17 : Dev nD → (S512x256.Idx → Elt F .f32) → Prop
  out18 : Dev nD → (S1024x384.Idx → Elt F .f32) → Prop
  out19 : Dev nD → (S1024x384.Idx → Elt F .f32) → Prop
  out20 : Dev nD → (S1024x384.Idx → Elt F .f32) → Prop
  out21 : Dev nD → (S1024x384.Idx → Elt F .f32) → Prop
  out22 : Dev nD → (S1024x256.Idx → Elt F .f32) → Prop
  out23 : Dev nD → (S1024x256.Idx → Elt F .f32) → Prop
  res : Dev nD → (main_v1 : Ref sig .tc).ty.Contents (Elt F) → Prop

local notation "𝕄" => MT nD τ sig Unit (Elt F) ℕ (UR sig nD τ × URounds (GSem nD τ sig) (Fin 3)) ℕ

/-- A piece of a buffer of device c, held whole at some contents. -/
def ptsAny (c : Dev nD) {sp : Space} {s : Shape} {e : EltTy} (M : Memref sig .tc sp s e) : sProp 𝕄 :=
  iprop(∃ f : Buf (Elt F) (M.view.loc (c : Thread nD τ)), M.view.loc (c : Thread nD τ) ↦[M.view.set]{fullShare} f)
/-- A piece of a buffer of device c, held whole, whose reading satisfies X. -/
def ptsIs (c : Dev nD) {sp : Space} {s : Shape} {e : EltTy} (M : Memref sig .tc sp s e) (X : (s.Idx → Elt F e) → Prop) : sProp 𝕄 :=
  iprop(∃ f : Buf (Elt F) (M.view.loc (c : Thread nD τ)), (M.view.loc (c : Thread nD τ) ↦[M.view.set]{fullShare} f) ∗ ⌜X (M.view.read (Elt F) f)⌝)
/-- The left half-share of a piece of a buffer of device c, at some contents (what a transfer that only reads it borrows). -/
def ptsLent (c : Dev nD) {sp : Space} {s : Shape} {e : EltTy} (M : Memref sig .tc sp s e) : sProp 𝕄 :=
  iprop(∃ f : Buf (Elt F) (M.view.loc (c : Thread nD τ)), M.view.loc (c : Thread nD τ) ↦[M.view.set]{fullShare.left} f)

/-- The cube axis group k's reduce-scatter step s crosses, and the one its all-gather step s crosses (pairs numbered 3 k + s). -/
def dirRS : Fin 18 → Fin 3
  | 0 => 0
  | 1 => 1
  | 2 => 2
  | 3 => 1
  | 4 => 2
  | 5 => 0
  | 6 => 2
  | 7 => 0
  | 8 => 1
  | 9 => 0
  | 10 => 1
  | 11 => 2
  | 12 => 1
  | 13 => 2
  | 14 => 0
  | 15 => 2
  | 16 => 0
  | 17 => 1
  | ⟨_ + 18, h⟩ => absurd h (Nat.not_lt.2 (Nat.le_add_left _ _))
def dirAG : Fin 18 → Fin 3
  | 0 => 2
  | 1 => 1
  | 2 => 0
  | 3 => 0
  | 4 => 2
  | 5 => 1
  | 6 => 1
  | 7 => 0
  | 8 => 2
  | 9 => 2
  | 10 => 1
  | 11 => 0
  | 12 => 0
  | 13 => 2
  | 14 => 1
  | 15 => 1
  | 16 => 0
  | 17 => 2
  | ⟨_ + 18, h⟩ => absurd h (Nat.not_lt.2 (Nat.le_add_left _ _))

/-- The amounts: the credit of the destination piece. -/
def rsAmt : Fin 18 → ℕ
  | 0 => (commM0_0 : Memref sig .tc .vmem S1024x384 .bf16).view.dmaCredit
  | 1 => (commM0_1 : Memref sig .tc .vmem S512x384 .bf16).view.dmaCredit
  | 2 => (commM0_2 : Memref sig .tc .vmem S256x384 .bf16).view.dmaCredit
  | 3 => (commM1_0 : Memref sig .tc .vmem S1024x384 .bf16).view.dmaCredit
  | 4 => (commM1_1 : Memref sig .tc .vmem S512x384 .bf16).view.dmaCredit
  | 5 => (commM1_2 : Memref sig .tc .vmem S256x384 .bf16).view.dmaCredit
  | 6 => (commM2_0 : Memref sig .tc .vmem S1024x384 .bf16).view.dmaCredit
  | 7 => (commM2_1 : Memref sig .tc .vmem S512x384 .bf16).view.dmaCredit
  | 8 => (commM2_2 : Memref sig .tc .vmem S256x384 .bf16).view.dmaCredit
  | 9 => (commM3_0 : Memref sig .tc .vmem S1024x384 .bf16).view.dmaCredit
  | 10 => (commM3_1 : Memref sig .tc .vmem S512x384 .bf16).view.dmaCredit
  | 11 => (commM3_2 : Memref sig .tc .vmem S256x384 .bf16).view.dmaCredit
  | 12 => (commM4_0 : Memref sig .tc .vmem S1024x256 .bf16).view.dmaCredit
  | 13 => (commM4_1 : Memref sig .tc .vmem S512x256 .bf16).view.dmaCredit
  | 14 => (commM4_2 : Memref sig .tc .vmem S256x256 .bf16).view.dmaCredit
  | 15 => (commM5_0 : Memref sig .tc .vmem S1024x256 .bf16).view.dmaCredit
  | 16 => (commM5_1 : Memref sig .tc .vmem S512x256 .bf16).view.dmaCredit
  | 17 => (commM5_2 : Memref sig .tc .vmem S256x256 .bf16).view.dmaCredit
  | ⟨_ + 18, h⟩ => absurd h (Nat.not_lt.2 (Nat.le_add_left _ _))
def agAmt : Fin 18 → ℕ
  | 0 => (agM0_0 0 : Memref sig .tc .vmem S256x384 .bf16).view.dmaCredit
  | 1 => (agM0_1 0 : Memref sig .tc .vmem S512x384 .bf16).view.dmaCredit
  | 2 => (agM0_2 0 : Memref sig .tc .vmem S1024x384 .bf16).view.dmaCredit
  | 3 => (agM1_0 0 : Memref sig .tc .vmem S256x384 .bf16).view.dmaCredit
  | 4 => (agM1_1 0 : Memref sig .tc .vmem S512x384 .bf16).view.dmaCredit
  | 5 => (agM1_2 0 : Memref sig .tc .vmem S1024x384 .bf16).view.dmaCredit
  | 6 => (agM2_0 0 : Memref sig .tc .vmem S256x384 .bf16).view.dmaCredit
  | 7 => (agM2_1 0 : Memref sig .tc .vmem S512x384 .bf16).view.dmaCredit
  | 8 => (agM2_2 0 : Memref sig .tc .vmem S1024x384 .bf16).view.dmaCredit
  | 9 => (agM3_0 0 : Memref sig .tc .vmem S256x384 .bf16).view.dmaCredit
  | 10 => (agM3_1 0 : Memref sig .tc .vmem S512x384 .bf16).view.dmaCredit
  | 11 => (agM3_2 0 : Memref sig .tc .vmem S1024x384 .bf16).view.dmaCredit
  | 12 => (agM4_0 0 : Memref sig .tc .vmem S256x256 .bf16).view.dmaCredit
  | 13 => (agM4_1 0 : Memref sig .tc .vmem S512x256 .bf16).view.dmaCredit
  | 14 => (agM4_2 0 : Memref sig .tc .vmem S1024x256 .bf16).view.dmaCredit
  | 15 => (agM5_0 0 : Memref sig .tc .vmem S256x256 .bf16).view.dmaCredit
  | 16 => (agM5_1 0 : Memref sig .tc .vmem S512x256 .bf16).view.dmaCredit
  | 17 => (agM5_2 0 : Memref sig .tc .vmem S1024x256 .bf16).view.dmaCredit
  | ⟨_ + 18, h⟩ => absurd h (Nat.not_lt.2 (Nat.le_add_left _ _))
def outAmt : Fin 24 → ℕ
  | 0 => (outDstM0 0 : Memref sig .tc .hbm S256x384 .f32).view.dmaCredit
  | 1 => (outDstM1 0 : Memref sig .tc .hbm S256x384 .f32).view.dmaCredit
  | 2 => (outDstM2 0 : Memref sig .tc .hbm S256x384 .f32).view.dmaCredit
  | 3 => (outDstM3 0 : Memref sig .tc .hbm S256x384 .f32).view.dmaCredit
  | 4 => (outDstM4 0 : Memref sig .tc .hbm S256x256 .f32).view.dmaCredit
  | 5 => (outDstM5 0 : Memref sig .tc .hbm S256x256 .f32).view.dmaCredit
  | 6 => (outDstM6 0 : Memref sig .tc .hbm S256x384 .f32).view.dmaCredit
  | 7 => (outDstM7 0 : Memref sig .tc .hbm S256x384 .f32).view.dmaCredit
  | 8 => (outDstM8 0 : Memref sig .tc .hbm S256x384 .f32).view.dmaCredit
  | 9 => (outDstM9 0 : Memref sig .tc .hbm S256x384 .f32).view.dmaCredit
  | 10 => (outDstM10 0 : Memref sig .tc .hbm S256x256 .f32).view.dmaCredit
  | 11 => (outDstM11 0 : Memref sig .tc .hbm S256x256 .f32).view.dmaCredit
  | 12 => (outDstM12 0 : Memref sig .tc .hbm S512x384 .f32).view.dmaCredit
  | 13 => (outDstM13 0 : Memref sig .tc .hbm S512x384 .f32).view.dmaCredit
  | 14 => (outDstM14 0 : Memref sig .tc .hbm S512x384 .f32).view.dmaCredit
  | 15 => (outDstM15 0 : Memref sig .tc .hbm S512x384 .f32).view.dmaCredit
  | 16 => (outDstM16 0 : Memref sig .tc .hbm S512x256 .f32).view.dmaCredit
  | 17 => (outDstM17 0 : Memref sig .tc .hbm S512x256 .f32).view.dmaCredit
  | 18 => (outDstM18 0 : Memref sig .tc .hbm S1024x384 .f32).view.dmaCredit
  | 19 => (outDstM19 0 : Memref sig .tc .hbm S1024x384 .f32).view.dmaCredit
  | 20 => (outDstM20 0 : Memref sig .tc .hbm S1024x384 .f32).view.dmaCredit
  | 21 => (outDstM21 0 : Memref sig .tc .hbm S1024x384 .f32).view.dmaCredit
  | 22 => (outDstM22 0 : Memref sig .tc .hbm S1024x256 .f32).view.dmaCredit
  | 23 => (outDstM23 0 : Memref sig .tc .hbm S1024x256 .f32).view.dmaCredit
  | ⟨_ + 24, h⟩ => absurd h (Nat.not_lt.2 (Nat.le_add_left _ _))

/-- Reduce-scatter receive cell of device c: its landing rows, holding what the neighbour across that step's axis sent. -/
def rsRPay (V : Vals F) (c : Dev nD) : Fin 18 → sProp 𝕄
  | 0 => ptsIs c commM0_0 (V.rs0_0 (nbr 0 c))
  | 1 => ptsIs c commM0_1 (V.rs0_1 (nbr 1 c))
  | 2 => ptsIs c commM0_2 (V.rs0_2 (nbr 2 c))
  | 3 => ptsIs c commM1_0 (V.rs1_0 (nbr 1 c))
  | 4 => ptsIs c commM1_1 (V.rs1_1 (nbr 2 c))
  | 5 => ptsIs c commM1_2 (V.rs1_2 (nbr 0 c))
  | 6 => ptsIs c commM2_0 (V.rs2_0 (nbr 2 c))
  | 7 => ptsIs c commM2_1 (V.rs2_1 (nbr 0 c))
  | 8 => ptsIs c commM2_2 (V.rs2_2 (nbr 1 c))
  | 9 => ptsIs c commM3_0 (V.rs3_0 (nbr 0 c))
  | 10 => ptsIs c commM3_1 (V.rs3_1 (nbr 1 c))
  | 11 => ptsIs c commM3_2 (V.rs3_2 (nbr 2 c))
  | 12 => ptsIs c commM4_0 (V.rs4_0 (nbr 1 c))
  | 13 => ptsIs c commM4_1 (V.rs4_1 (nbr 2 c))
  | 14 => ptsIs c commM4_2 (V.rs4_2 (nbr 0 c))
  | 15 => ptsIs c commM5_0 (V.rs5_0 (nbr 2 c))
  | 16 => ptsIs c commM5_1 (V.rs5_1 (nbr 0 c))
  | 17 => ptsIs c commM5_2 (V.rs5_2 (nbr 1 c))
  | ⟨_ + 18, h⟩ => absurd h (Nat.not_lt.2 (Nat.le_add_left _ _))
/-- Reduce-scatter send cell of device c: its staging rows back, at some contents. -/
def rsSPay (c : Dev nD) : Fin 18 → sProp 𝕄
  | 0 => ptsAny (F := F) c stgM0_0
  | 1 => ptsAny (F := F) c stgM0_1
  | 2 => ptsAny (F := F) c stgM0_2
  | 3 => ptsAny (F := F) c stgM1_0
  | 4 => ptsAny (F := F) c stgM1_1
  | 5 => ptsAny (F := F) c stgM1_2
  | 6 => ptsAny (F := F) c stgM2_0
  | 7 => ptsAny (F := F) c stgM2_1
  | 8 => ptsAny (F := F) c stgM2_2
  | 9 => ptsAny (F := F) c stgM3_0
  | 10 => ptsAny (F := F) c stgM3_1
  | 11 => ptsAny (F := F) c stgM3_2
  | 12 => ptsAny (F := F) c stgM4_0
  | 13 => ptsAny (F := F) c stgM4_1
  | 14 => ptsAny (F := F) c stgM4_2
  | 15 => ptsAny (F := F) c stgM5_0
  | 16 => ptsAny (F := F) c stgM5_1
  | 17 => ptsAny (F := F) c stgM5_2
  | ⟨_ + 18, h⟩ => absurd h (Nat.not_lt.2 (Nat.le_add_left _ _))
/-- All-gather receive cell of device c: the rows its neighbour across that step's axis sent, holding what it sent. -/
def agRPay (V : Vals F) (c : Dev nD) : Fin 18 → sProp 𝕄
  | 0 => ptsIs c (agM0_0 (nbr 2 c)) (V.ag0_0 (nbr 2 c))
  | 1 => ptsIs c (agM0_1 (nbr 1 c)) (V.ag0_1 (nbr 1 c))
  | 2 => ptsIs c (agM0_2 (nbr 0 c)) (V.ag0_2 (nbr 0 c))
  | 3 => ptsIs c (agM1_0 (nbr 0 c)) (V.ag1_0 (nbr 0 c))
  | 4 => ptsIs c (agM1_1 (nbr 2 c)) (V.ag1_1 (nbr 2 c))
  | 5 => ptsIs c (agM1_2 (nbr 1 c)) (V.ag1_2 (nbr 1 c))
  | 6 => ptsIs c (agM2_0 (nbr 1 c)) (V.ag2_0 (nbr 1 c))
  | 7 => ptsIs c (agM2_1 (nbr 0 c)) (V.ag2_1 (nbr 0 c))
  | 8 => ptsIs c (agM2_2 (nbr 2 c)) (V.ag2_2 (nbr 2 c))
  | 9 => ptsIs c (agM3_0 (nbr 2 c)) (V.ag3_0 (nbr 2 c))
  | 10 => ptsIs c (agM3_1 (nbr 1 c)) (V.ag3_1 (nbr 1 c))
  | 11 => ptsIs c (agM3_2 (nbr 0 c)) (V.ag3_2 (nbr 0 c))
  | 12 => ptsIs c (agM4_0 (nbr 0 c)) (V.ag4_0 (nbr 0 c))
  | 13 => ptsIs c (agM4_1 (nbr 2 c)) (V.ag4_1 (nbr 2 c))
  | 14 => ptsIs c (agM4_2 (nbr 1 c)) (V.ag4_2 (nbr 1 c))
  | 15 => ptsIs c (agM5_0 (nbr 1 c)) (V.ag5_0 (nbr 1 c))
  | 16 => ptsIs c (agM5_1 (nbr 0 c)) (V.ag5_1 (nbr 0 c))
  | 17 => ptsIs c (agM5_2 (nbr 2 c)) (V.ag5_2 (nbr 2 c))
  | ⟨_ + 18, h⟩ => absurd h (Nat.not_lt.2 (Nat.le_add_left _ _))
/-- All-gather send cell of device c: the half-share of the rows it sent that the transfer borrowed. -/
def agSPay (c : Dev nD) : Fin 18 → sProp 𝕄
  | 0 => ptsLent (F := F) c (agM0_0 c)
  | 1 => ptsLent (F := F) c (agM0_1 c)
  | 2 => ptsLent (F := F) c (agM0_2 c)
  | 3 => ptsLent (F := F) c (agM1_0 c)
  | 4 => ptsLent (F := F) c (agM1_1 c)
  | 5 => ptsLent (F := F) c (agM1_2 c)
  | 6 => ptsLent (F := F) c (agM2_0 c)
  | 7 => ptsLent (F := F) c (agM2_1 c)
  | 8 => ptsLent (F := F) c (agM2_2 c)
  | 9 => ptsLent (F := F) c (agM3_0 c)
  | 10 => ptsLent (F := F) c (agM3_1 c)
  | 11 => ptsLent (F := F) c (agM3_2 c)
  | 12 => ptsLent (F := F) c (agM4_0 c)
  | 13 => ptsLent (F := F) c (agM4_1 c)
  | 14 => ptsLent (F := F) c (agM4_2 c)
  | 15 => ptsLent (F := F) c (agM5_0 c)
  | 16 => ptsLent (F := F) c (agM5_1 c)
  | 17 => ptsLent (F := F) c (agM5_2 c)
  | ⟨_ + 18, h⟩ => absurd h (Nat.not_lt.2 (Nat.le_add_left _ _))
/-- Result-copy cell j of device c: the block of the result array written, and the accumulator's rows back. -/
def outPay (V : Vals F) (c : Dev nD) : Fin 24 → sProp 𝕄
  | 0 => iprop(ptsIs c (outDstM0 c) (V.out0 c) ∗ ptsAny (F := F) c (outSrcM0 c))
  | 1 => iprop(ptsIs c (outDstM1 c) (V.out1 c) ∗ ptsAny (F := F) c (outSrcM1 c))
  | 2 => iprop(ptsIs c (outDstM2 c) (V.out2 c) ∗ ptsAny (F := F) c (outSrcM2 c))
  | 3 => iprop(ptsIs c (outDstM3 c) (V.out3 c) ∗ ptsAny (F := F) c (outSrcM3 c))
  | 4 => iprop(ptsIs c (outDstM4 c) (V.out4 c) ∗ ptsAny (F := F) c (outSrcM4 c))
  | 5 => iprop(ptsIs c (outDstM5 c) (V.out5 c) ∗ ptsAny (F := F) c (outSrcM5 c))
  | 6 => iprop(ptsIs c (outDstM6 c) (V.out6 c) ∗ ptsAny (F := F) c (outSrcM6 c))
  | 7 => iprop(ptsIs c (outDstM7 c) (V.out7 c) ∗ ptsAny (F := F) c (outSrcM7 c))
  | 8 => iprop(ptsIs c (outDstM8 c) (V.out8 c) ∗ ptsAny (F := F) c (outSrcM8 c))
  | 9 => iprop(ptsIs c (outDstM9 c) (V.out9 c) ∗ ptsAny (F := F) c (outSrcM9 c))
  | 10 => iprop(ptsIs c (outDstM10 c) (V.out10 c) ∗ ptsAny (F := F) c (outSrcM10 c))
  | 11 => iprop(ptsIs c (outDstM11 c) (V.out11 c) ∗ ptsAny (F := F) c (outSrcM11 c))
  | 12 => iprop(ptsIs c (outDstM12 c) (V.out12 c) ∗ ptsAny (F := F) c (outSrcM12 c))
  | 13 => iprop(ptsIs c (outDstM13 c) (V.out13 c) ∗ ptsAny (F := F) c (outSrcM13 c))
  | 14 => iprop(ptsIs c (outDstM14 c) (V.out14 c) ∗ ptsAny (F := F) c (outSrcM14 c))
  | 15 => iprop(ptsIs c (outDstM15 c) (V.out15 c) ∗ ptsAny (F := F) c (outSrcM15 c))
  | 16 => iprop(ptsIs c (outDstM16 c) (V.out16 c) ∗ ptsAny (F := F) c (outSrcM16 c))
  | 17 => iprop(ptsIs c (outDstM17 c) (V.out17 c) ∗ ptsAny (F := F) c (outSrcM17 c))
  | 18 => iprop(ptsIs c (outDstM18 c) (V.out18 c) ∗ ptsAny (F := F) c (outSrcM18 c))
  | 19 => iprop(ptsIs c (outDstM19 c) (V.out19 c) ∗ ptsAny (F := F) c (outSrcM19 c))
  | 20 => iprop(ptsIs c (outDstM20 c) (V.out20 c) ∗ ptsAny (F := F) c (outSrcM20 c))
  | 21 => iprop(ptsIs c (outDstM21 c) (V.out21 c) ∗ ptsAny (F := F) c (outSrcM21 c))
  | 22 => iprop(ptsIs c (outDstM22 c) (V.out22 c) ∗ ptsAny (F := F) c (outSrcM22 c))
  | 23 => iprop(ptsIs c (outDstM23 c) (V.out23 c) ∗ ptsAny (F := F) c (outSrcM23 c))
  | ⟨_ + 24, h⟩ => absurd h (Nat.not_lt.2 (Nat.le_add_left _ _))
/-- Duty d of device c's barrier cell, paid by its neighbour n across axis d: the pieces of n's landing and all-gather buffers that c's transfers across that axis will write. -/
def barPay (c : Dev nD) : Fin 3 → sProp 𝕄
  | 0 => iprop(ptsAny (F := F) (nbr 0 c) commM0_0 ∗ ptsAny (F := F) (nbr 0 c) commM1_2 ∗ ptsAny (F := F) (nbr 0 c) commM2_1 ∗ ptsAny (F := F) (nbr 0 c) commM3_0 ∗ ptsAny (F := F) (nbr 0 c) commM4_2 ∗ ptsAny (F := F) (nbr 0 c) commM5_1 ∗ ptsAny (F := F) (nbr 0 c) (agM0_2 c) ∗ ptsAny (F := F) (nbr 0 c) (agM1_0 c) ∗ ptsAny (F := F) (nbr 0 c) (agM2_1 c) ∗ ptsAny (F := F) (nbr 0 c) (agM3_2 c) ∗ ptsAny (F := F) (nbr 0 c) (agM4_0 c) ∗ ptsAny (F := F) (nbr 0 c) (agM5_1 c))
  | 1 => iprop(ptsAny (F := F) (nbr 1 c) commM0_1 ∗ ptsAny (F := F) (nbr 1 c) commM1_0 ∗ ptsAny (F := F) (nbr 1 c) commM2_2 ∗ ptsAny (F := F) (nbr 1 c) commM3_1 ∗ ptsAny (F := F) (nbr 1 c) commM4_0 ∗ ptsAny (F := F) (nbr 1 c) commM5_2 ∗ ptsAny (F := F) (nbr 1 c) (agM0_1 c) ∗ ptsAny (F := F) (nbr 1 c) (agM1_2 c) ∗ ptsAny (F := F) (nbr 1 c) (agM2_0 c) ∗ ptsAny (F := F) (nbr 1 c) (agM3_1 c) ∗ ptsAny (F := F) (nbr 1 c) (agM4_2 c) ∗ ptsAny (F := F) (nbr 1 c) (agM5_0 c))
  | 2 => iprop(ptsAny (F := F) (nbr 2 c) commM0_2 ∗ ptsAny (F := F) (nbr 2 c) commM1_1 ∗ ptsAny (F := F) (nbr 2 c) commM2_0 ∗ ptsAny (F := F) (nbr 2 c) commM3_2 ∗ ptsAny (F := F) (nbr 2 c) commM4_1 ∗ ptsAny (F := F) (nbr 2 c) commM5_0 ∗ ptsAny (F := F) (nbr 2 c) (agM0_0 c) ∗ ptsAny (F := F) (nbr 2 c) (agM1_1 c) ∗ ptsAny (F := F) (nbr 2 c) (agM2_2 c) ∗ ptsAny (F := F) (nbr 2 c) (agM3_0 c) ∗ ptsAny (F := F) (nbr 2 c) (agM4_1 c) ∗ ptsAny (F := F) (nbr 2 c) (agM5_2 c))
  | ⟨_ + 3, h⟩ => absurd h (Nat.not_lt.2 (Nat.le_add_left _ _))

end Cert.Kernel.Proto

end
-- ==== Proof.SchedBits.lean ====
/-
The rounds schedule of the protocol. Every cell has ONE round (round 0). A barrier cell has three duties,
one per cube axis d, each one unit, paid by the neighbour across that axis, whose payload is the pieces of
that neighbour's buffers the device will write across the axis. Every transfer cell has the one duty 0 of
its transfer's credit, whose payload is the piece the transfer returns or fills.
-/
import proofs.«900882_g7700000000000883_dist_matmul_gelu_kshard_i_m2048_n2048_k1024_v7x_i8_f32_1_alg».proof.Proof.SchedTabBits

noncomputable section

namespace Cert.Kernel.Proto

open Cert.Kernel Cert.Kernel.Gen Cert.Kernel.Topo
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline library's copy and the protocol's (duties Fin 3) -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-- The pair number 3 k + s. -/
def ksF (k : Fin 6) (s : Fin 3) : Fin 18 := ⟨ks k s, ks_lt k s⟩

/-- A cell kind's amount. -/
def amt : CK → ℕ
  | .bar => 1
  | .rsS k s => rsAmt (ksF k s)
  | .rsR k s => rsAmt (ksF k s)
  | .agS k s => agAmt (ksF k s)
  | .agR k s => agAmt (ksF k s)
  | .out j => outAmt j

/-- A cell kind's payload on device c (duty d matters for the barrier only). -/
def pay (V : Vals F) (c : Dev nD) : CK → Fin 3 → sProp 𝕄
  | .bar, d => barPay c d
  | .rsS k s, _ => rsSPay c (ksF k s)
  | .rsR k s, _ => rsRPay V c (ksF k s)
  | .agS k s, _ => agSPay c (ksF k s)
  | .agR k s, _ => agRPay V c (ksF k s)
  | .out j, _ => outPay V c j

/-- A cell kind's duties. -/
def dut : CK → Finset (Fin 3)
  | .bar => Finset.univ
  | _ => {0}

theorem amt_pos : ∀ κ : CK, 0 < amt κ := by
  intro κ
  cases κ with
  | bar => exact Nat.one_pos
  | rsS k s => revert k s; unfold amt ksF ks rsAmt; decide
  | rsR k s => revert k s; unfold amt ksF ks rsAmt; decide
  | agS k s => revert k s; unfold amt ksF ks agAmt; decide
  | agR k s => revert k s; unfold amt ksF ks agAmt; decide
  | out j => revert j; unfold amt outAmt; decide

def sched (V : Vals F) : Rounds.Schedule (GSem nD τ sig) (Fin 3) 𝕄 where
  duties g r := if r = 0 ∧ g.1.2 = .tc then (match decode g.2 with | some κ => dut κ | none => ∅) else ∅
  unitless _ := False
  amount g _ _ := match decode g.2 with | some κ => amt κ | none => 1
  payload g _ d := match decode g.2 with | some κ => pay V g.1.1 κ d | none => iprop(emp)
  amount_pos g _ _ _ := by
    cases h : decode g.2 with
    | none => exact Nat.one_pos
    | some κ => exact amt_pos κ

section Tables
variable (V : Vals F) (c : Dev nD) (κ : CK)

omit [FloatOps F] in
theorem duties_cell : (sched V).duties (cell c κ) 0 = dut κ := by
  dsimp only [sched]; rw [if_pos ⟨rfl, rfl⟩, decode_sem]
omit [FloatOps F] in
theorem duties_later (g : GSem nD τ sig) : ∀ r, 1 ≤ r → (sched V).duties g r = ∅ :=
  fun r hr => by dsimp only [sched]; rw [if_neg fun h => by omega]
omit [FloatOps F] in
theorem amount_cell (r : ℕ) (d : Fin 3) : (sched V).amount (cell c κ) r d = amt κ := by
  dsimp only [sched]; rw [decode_sem]
omit [FloatOps F] in
theorem payload_cell (r : ℕ) (d : Fin 3) : (sched V).payload (cell c κ) r d = pay V c κ d := by
  dsimp only [sched]; rw [decode_sem]

omit [FloatOps F] in
theorem expect_bar : (sched V).expect (cell c .bar) 0 = 3 := by
  unfold Schedule.expect Schedule.amountOf
  rw [duties_cell, Finset.sum_congr rfl fun d _ => amount_cell V c .bar 0 d]
  rfl
omit [FloatOps F] in
theorem expect_xfer (h : κ ≠ .bar) : (sched V).expect (cell c κ) 0 = amt κ := by
  unfold Schedule.expect Schedule.amountOf
  rw [duties_cell, show dut κ = {0} from by cases κ <;> first | rfl | exact absurd rfl h, Finset.sum_singleton, amount_cell]

end Tables

end Cert.Kernel.Proto

end
-- ==== Proof.LevelsBits.lean ====
/-
The levels of the cells. A wait is allowed only on a cell whose level lies below the level of every cell the
waiting device still owes. A receive cell's level is two more than the place, in program order, of the transfer
that fills it (3 + 6 s + k for reduce-scatter step s of group k, 21 + 6 s + k for all-gather step s); a barrier
cell's level is 1; every other cell (a device's own send cells, its result copies, the two staging cells of the
argument blocks) has level 0: nobody owes those.
-/
import proofs.«900882_g7700000000000883_dist_matmul_gelu_kshard_i_m2048_n2048_k1024_v7x_i8_f32_1_alg».proof.Proof.SchedBits

noncomputable section

namespace Cert.Kernel.Proto

open Cert.Kernel Cert.Kernel.Gen Cert.Kernel.Topo
open Idealize.ShloMosaic Idealize.ShloMosaic.TcCoe
open Idealize.SL Idealize.SL.RA Idealize.SL.BI

def L (g : GSem nD τ sig) : Finset Unit := if g.1.2 = .tc then {()} else ∅

def lv (g : GSem nD τ sig) (_ : Unit) : ℕ :=
  match decode g.2 with
  | some .bar => 1
  | some (.rsR k s) => 5 + 6 * s.val + k.val
  | some (.agR k s) => 23 + 6 * s.val + k.val
  | _ => 0

theorem L_of_ne (g : GSem nD τ sig) (h : g.1.2 ≠ .tc) : L g = ∅ := if_neg h
theorem L_tc (c : Dev nD) (sm : SemLoc sig) : L ((c : Thread nD τ), sm) = {()} := if_pos rfl

theorem lv_cell (c : Dev nD) (κ : CK) : lv (cell c κ) () =
    match κ with | .bar => 1 | .rsR k s => 5 + 6 * s.val + k.val | .agR k s => 23 + 6 * s.val + k.val | _ => 0 := by
  unfold lv; rw [decode_sem]; cases κ <;> rfl

end Cert.Kernel.Proto

end
-- ==== Proof.OwesBits.lean ====
/-
What a device still owes, place by place of its program.

A device pays other devices' cells in a fixed order: first one unit to the barrier cell of each of its three
cube neighbours (places 0, 1, 2); then its 18 reduce-scatter transfers, step by step and inside a step group
by group (place 3 + 6 s + k pays the receive cell of the neighbour the transfer of group k, step s goes to);
then its 18 all-gather transfers in the same order (place 21 + 6 s + k). Its own send cells and the cells of
its result copies are paid by its own engine and are never owed.

`Owe c n` is what device c still owes before its n-th payment: the sum of the payments n, n + 1, ..., 38.
The level of a paid cell grows with the place of the payment (1 for the three barrier payments, n + 2 from
place 3 on), so a wait on a cell whose level lies below the level of the next payment is below everything
still owed: that is what a wait must present.
-/
import proofs.«900882_g7700000000000883_dist_matmul_gelu_kshard_i_m2048_n2048_k1024_v7x_i8_f32_1_alg».proof.Proof.LevelsBits
import Idealize.ShloMosaic.Lib.Pipeline.Launch
import Mathlib.Algebra.Order.BigOperators.Group.LocallyFinite

noncomputable section

namespace Cert.Kernel.Proto

open Cert.Kernel Cert.Kernel.Gen Cert.Kernel.Topo
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The payments in program order -/

/-- The group of the m-th transfer of a phase (m = 6 s + k). -/
def kOf (m : ℕ) : Fin 6 := ⟨m % 6, Nat.mod_lt _ (by decide)⟩
/-- The step of the m-th transfer of a phase (m = 6 s + k). -/
def sOf (m : ℕ) : Fin 3 := ⟨m / 6 % 3, Nat.mod_lt _ (by decide)⟩

theorem kOf_add (k : Fin 6) (s : Fin 3) : kOf (6 * s.val + k.val) = k := by
  have := k.isLt; have := s.isLt
  exact Fin.ext (by show (6 * s.val + k.val) % 6 = k.val; omega)
theorem sOf_add (k : Fin 6) (s : Fin 3) : sOf (6 * s.val + k.val) = s := by
  have := k.isLt; have := s.isLt
  exact Fin.ext (by show (6 * s.val + k.val) / 6 % 3 = s.val; omega)

/-- The n-th paid cell and its amount (n < 39). -/
def paid (c : Dev nD) (n : ℕ) : GSem nD τ sig × ℕ :=
  if h : n < 3 then (cell (nbr ⟨n, h⟩ c) .bar, 1)
  else if n < 21 then
    (cell (nbr (dirRS (ksF (kOf (n - 3)) (sOf (n - 3)))) c) (.rsR (kOf (n - 3)) (sOf (n - 3))), amt (.rsR (kOf (n - 3)) (sOf (n - 3))))
  else
    (cell (nbr (dirAG (ksF (kOf (n - 21)) (sOf (n - 21)))) c) (.agR (kOf (n - 21)) (sOf (n - 21))), amt (.agR (kOf (n - 21)) (sOf (n - 21))))

theorem paid_bar (c : Dev nD) (d : Fin 3) : paid c d.val = (cell (nbr d c) .bar, 1) := by
  unfold paid; rw [dif_pos d.isLt]

theorem paid_rs (c : Dev nD) (k : Fin 6) (s : Fin 3) :
    paid c (3 + 6 * s.val + k.val) = (cell (nbr (dirRS (ksF k s)) c) (.rsR k s), amt (.rsR k s)) := by
  have := k.isLt; have := s.isLt
  have e : 3 + 6 * s.val + k.val - 3 = 6 * s.val + k.val := by omega
  unfold paid
  rw [dif_neg (by omega), if_pos (by omega), e, kOf_add, sOf_add]

theorem paid_ag (c : Dev nD) (k : Fin 6) (s : Fin 3) :
    paid c (21 + 6 * s.val + k.val) = (cell (nbr (dirAG (ksF k s)) c) (.agR k s), amt (.agR k s)) := by
  have := k.isLt; have := s.isLt
  have e : 21 + 6 * s.val + k.val - 21 = 6 * s.val + k.val := by omega
  unfold paid
  rw [dif_neg (by omega), if_neg (by omega), e, kOf_add, sOf_add]

/-- Every paid cell is a cell of a device's core. -/
theorem paid_L (c : Dev nD) (n : ℕ) : L (paid c n).1 = {()} := by
  unfold paid; split_ifs <;> exact L_tc _ _

/-- The level of the n-th paid cell: 1 for the barrier payments, n + 2 after them. -/
theorem lv_paid (c : Dev nD) (n : ℕ) (h : n < 39) : lv (paid c n).1 () = if n < 3 then 1 else n + 2 := by
  unfold paid
  by_cases h3 : n < 3
  · rw [dif_pos h3, if_pos h3]; exact lv_cell _ .bar
  · rw [dif_neg h3, if_neg h3]
    by_cases h21 : n < 21
    · rw [if_pos h21]; refine (lv_cell _ _).trans ?_
      show 5 + 6 * ((n - 3) / 6 % 3) + (n - 3) % 6 = n + 2; omega
    · rw [if_neg h21]; refine (lv_cell _ _).trans ?_
      show 23 + 6 * ((n - 21) / 6 % 3) + (n - 21) % 6 = n + 2; omega

/-! ## What is still owed -/

/-- What device c still owes before its n-th payment. -/
def Owe (c : Dev nD) (n : ℕ) : CellTallies nD τ sig Unit :=
  ∑ i ∈ Finset.Ico n 39, tallyAt (paid c i).1 () (paid c i).2

/-- The next payment is the last summand. -/
theorem Owe_succ (c : Dev nD) (n : ℕ) (h : n < 39) : Owe c n = Owe c (n + 1) + tallyAt (paid c n).1 () (paid c n).2 := by
  unfold Owe; rw [Finset.sum_eq_sum_Ico_succ_bot h, add_comm]

theorem Owe_end (c : Dev nD) : Owe c 39 = 0 := by
  unfold Owe; rw [Finset.Ico_self, Finset.sum_empty]

/-- Whatever is still owed before the n-th payment is one of the payments from n on. -/
theorem Owe_pos {c : Dev nD} {n : ℕ} {g : GSem nD τ sig} {u : Unit} (h : 0 < Owe c n g u) :
    ∃ i, n ≤ i ∧ i < 39 ∧ g = (paid c i).1 := by
  obtain ⟨i, hi, hpos⟩ := Pipeline.sum_pos_exists h
  rw [Finset.mem_Ico] at hi
  exact ⟨i, hi.1, hi.2, (Pipeline.tallyAt_pos hpos).1⟩

/-! ## Waits -/

omit [FloatOps F] in
/-- A wait on a cell below the level of the next payment is below everything still owed. -/
theorem mayWait (c : Dev nD) (sm : SemLoc sig) (n : ℕ) (hlv : lv ((c : Thread nD τ), sm) () < (if n < 3 then 1 else n + 2)) :
    (levAts L lv : sProp 𝕄) ⊢ MayWait (c : Thread nD τ) sm () (Owe c n) := by
  refine Pipeline.mayWait_of_levAts (by rw [L_tc]; exact Finset.mem_singleton_self _) fun g u hg => ?_
  obtain ⟨i, hni, hi, rfl⟩ := Owe_pos hg
  refine ⟨by rw [paid_L]; exact Finset.mem_singleton.mpr rfl, ?_⟩
  have e : lv (paid c i).1 u = lv (paid c i).1 () := rfl
  rw [e, lv_paid c i hi]
  refine lt_of_lt_of_le hlv ?_
  split_ifs <;> omega

omit [FloatOps F] in
/-- At its barrier wait a device has made its three barrier payments. -/
theorem mayWait_bar (c : Dev nD) : (levAts L lv : sProp 𝕄) ⊢ MayWait (c : Thread nD τ) (CK.bar).sem () (Owe c 3) := by
  have e : lv ((c : Thread nD τ), (CK.bar).sem) () = 1 := lv_cell c .bar
  exact mayWait c _ 3 (by rw [e]; decide)

omit [FloatOps F] in
/-- A wait on a cell nobody owes (a device's own send cells, its result copies) is allowed at every place. -/
theorem mayWait_own (c : Dev nD) (κ : CK) (hκ : lv (cell c κ) () = 0) (n : ℕ) :
    (levAts L lv : sProp 𝕄) ⊢ MayWait (c : Thread nD τ) κ.sem () (Owe c n) := by
  have e : lv ((c : Thread nD τ), κ.sem) () = 0 := hκ
  exact mayWait c _ n (by rw [e]; split_ifs <;> omega)

omit [FloatOps F] in
/-- A wait on the receive cell of reduce-scatter group k, step s, after the device's own transfer of that place. -/
theorem mayWait_rsR (c : Dev nD) (k : Fin 6) (s : Fin 3) (n : ℕ) (h : 3 + 6 * s.val + k.val < n) :
    (levAts L lv : sProp 𝕄) ⊢ MayWait (c : Thread nD τ) (CK.rsR k s).sem () (Owe c n) := by
  have e : lv ((c : Thread nD τ), (CK.rsR k s).sem) () = 5 + 6 * s.val + k.val := lv_cell c (.rsR k s)
  exact mayWait c _ n (by rw [e]; split_ifs <;> omega)

omit [FloatOps F] in
/-- A wait on the receive cell of all-gather group k, step s, after the device's own transfer of that place. -/
theorem mayWait_agR (c : Dev nD) (k : Fin 6) (s : Fin 3) (n : ℕ) (h : 21 + 6 * s.val + k.val < n) :
    (levAts L lv : sProp 𝕄) ⊢ MayWait (c : Thread nD τ) (CK.agR k s).sem () (Owe c n) := by
  have e : lv ((c : Thread nD τ), (CK.agR k s).sem) () = 23 + 6 * s.val + k.val := lv_cell c (.agR k s)
  exact mayWait c _ n (by rw [e]; split_ifs <;> omega)

omit [FloatOps F] in
/-- A wait on a staging cell of the argument blocks, before any payment or owing nothing. -/
theorem mayWait_stage (c : Dev nD) (q : DmaSem sig) (hq : decode (.dma q) = none) (O : CellTallies nD τ sig Unit)
    (hO : O = Owe c 0 ∨ O = 0) : (levAts L lv : sProp 𝕄) ⊢ MayWait (c : Thread nD τ) (.dma q) () O := by
  rcases hO with rfl | rfl
  · have e : lv ((c : Thread nD τ), SemLoc.dma q) () = 0 := by
      show (match decode (SemLoc.dma q) with | some .bar => 1 | some (.rsR k s) => 5 + 6 * s.val + k.val | some (.agR k s) => 23 + 6 * s.val + k.val | _ => 0) = 0
      rw [hq]
    exact mayWait c _ 0 (by rw [e]; decide)
  · rw [MayWait_zero]; iintro -; iempintro

end Cert.Kernel.Proto

end
-- ==== Proof.GhostBits.lean ====
/-
The protocol's ghost state as a device's body finds it at the start of the region: the cells' invariants and
that round 0 of every cell is reached (persistent, shared by all devices), the device's positions at round 0 of
its own 97 cells, the tokens of the duties it pays (its three barrier units, its 36 transfers' landing duties on
its neighbours' receive cells and their source duties on its own send cells, its 24 result copies), and the
credit dealt at launch on the cells others pay: its barrier cell's three units and its 36 receive cells' amounts.
-/
import proofs.«900882_g7700000000000883_dist_matmul_gelu_kshard_i_m2048_n2048_k1024_v7x_i8_f32_1_alg».proof.Proof.LevelsBits

noncomputable section

namespace Cert.Kernel.Proto

open Cert.Kernel Cert.Kernel.Gen Cert.Kernel.Topo
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## A device's 97 cells, numbered -/

/-- Pair number i = 3 k + s as the four kinds of transfer cell. -/
def rsSk (i : Fin 18) : CK := .rsS ⟨i.val / 3, by omega⟩ ⟨i.val % 3, Nat.mod_lt _ (by decide)⟩
def rsRk (i : Fin 18) : CK := .rsR ⟨i.val / 3, by omega⟩ ⟨i.val % 3, Nat.mod_lt _ (by decide)⟩
def agSk (i : Fin 18) : CK := .agS ⟨i.val / 3, by omega⟩ ⟨i.val % 3, Nat.mod_lt _ (by decide)⟩
def agRk (i : Fin 18) : CK := .agR ⟨i.val / 3, by omega⟩ ⟨i.val % 3, Nat.mod_lt _ (by decide)⟩

/-- The 97 kinds in a row: the barrier, then 18 each of reduce-scatter send, reduce-scatter receive, all-gather
    send, all-gather receive, then the 24 result copies. -/
def ckOf (i : Fin 97) : CK :=
  if h0 : i.val = 0 then .bar
  else if h1 : i.val < 19 then rsSk ⟨i.val - 1, by omega⟩
  else if h2 : i.val < 37 then rsRk ⟨i.val - 19, by omega⟩
  else if h3 : i.val < 55 then agSk ⟨i.val - 37, by omega⟩
  else if h4 : i.val < 73 then agRk ⟨i.val - 55, by omega⟩
  else .out ⟨i.val - 73, by omega⟩

/-- The number of a kind. -/
def ckIdx : CK → Fin 97
  | .bar => 0
  | .rsS k s => ⟨1 + ks k s, by have := ks_lt k s; omega⟩
  | .rsR k s => ⟨19 + ks k s, by have := ks_lt k s; omega⟩
  | .agS k s => ⟨37 + ks k s, by have := ks_lt k s; omega⟩
  | .agR k s => ⟨55 + ks k s, by have := ks_lt k s; omega⟩
  | .out j => ⟨73 + j.val, by omega⟩

theorem ckIdx_ckOf : ∀ i : Fin 97, ckIdx (ckOf i) = i := by decide
theorem ckOf_ckIdx : ∀ κ : CK, ckOf (ckIdx κ) = κ := by
  intro κ
  cases κ with
  | bar => rfl
  | rsS k s => revert k s; decide
  | rsR k s => revert k s; decide
  | agS k s => revert k s; decide
  | agR k s => revert k s; decide
  | out j => revert j; decide
theorem ckOf_injective : Function.Injective ckOf := fun a b h => by rw [← ckIdx_ckOf a, ← ckIdx_ckOf b, h]

abbrev kcell (ck : Dev nD × Fin 97) : GSem nD τ sig := cell ck.1 (ckOf ck.2)
theorem kcell_injective : Function.Injective (kcell : Dev nD × Fin 97 → GSem nD τ sig) := by
  rintro ⟨c, i⟩ ⟨c', i'⟩ h
  have := cell_injective (a₁ := (c, ckOf i)) (a₂ := (c', ckOf i')) h
  rw [Prod.mk.injEq] at this
  rw [this.1, ckOf_injective this.2]

/-! ## The ghost state -/

variable (m : (ℓ : Loc nD τ sig) → Buf (Elt F) ℓ) (ρ : Dev nD → PrngReg) (V : Vals F)

/-- The memory at launch: arbitrary contents, every semaphore counter zero, arbitrary generator registers. -/
def s₀ : MemSt nD τ sig (Elt F) := ⟨m, fun _ => 0, ρ⟩

/-- What every device knows of every cell: its invariant, under the name `K` allocated it at, and that round 0 is reached. -/
def records (K : Dev nD × Fin 97 → ℕ) : sProp 𝕄 :=
  iprop((bigSep Finset.univ fun ck : Dev nD × Fin 97 => cellInv ER (sched V) (K ck) (kcell ck))
    ∗ bigSep Finset.univ fun ck : Dev nD × Fin 97 => reached ER (kcell ck) 0)

instance records_persistent (K : Dev nD × Fin 97 → ℕ) : BI.Persistent (records V K) := by unfold records; infer_instance

/-- The tokens of the duties device `c` pays: duty d of the barrier cell of its neighbour across axis d (that neighbour's
    neighbour across d is c), the landing duty of each of its 36 transfers on the destination's receive cell, the
    source duty of each on its own send cell, and its 24 result copies' duties. -/
def payToks (c : Dev nD) : sProp 𝕄 :=
  iprop((bigSep Finset.univ fun d : Fin 3 => dutyTok ER (cell (nbr d c) .bar) 0 d)
    ∗ (bigSep Finset.univ fun i : Fin 18 => dutyTok ER (cell (nbr (dirRS i) c) (rsRk i)) 0 (0 : Fin 3))
    ∗ (bigSep Finset.univ fun i : Fin 18 => dutyTok ER (cell (nbr (dirAG i) c) (agRk i)) 0 (0 : Fin 3))
    ∗ (bigSep Finset.univ fun i : Fin 18 => dutyTok ER (cell c (rsSk i)) 0 (0 : Fin 3))
    ∗ (bigSep Finset.univ fun i : Fin 18 => dutyTok ER (cell c (agSk i)) 0 (0 : Fin 3))
    ∗ (bigSep Finset.univ fun j : Fin 24 => dutyTok ER (cell c (.out j)) 0 (0 : Fin 3)))

/-- What stays with device `c` alone: its positions at round 0 of its own cells, and the tokens it pays with. -/
def linear (c : Dev nD) : sProp 𝕄 :=
  iprop((bigSep Finset.univ fun i : Fin 97 => atPos ER (cell c (ckOf i)) 0 ∅ 0) ∗ payToks (F := F) c)

def ghost (K : Dev nD × Fin 97 → ℕ) (c : Dev nD) : sProp 𝕄 := iprop(records V K ∗ linear (F := F) c)

/-- The credit dealt at launch on the cells of `c` that OTHER devices pay. -/
def creds (c : Dev nD) : sProp 𝕄 :=
  iprop(cred (tallyAt (cell c .bar) () 3)
    ∗ (bigSep Finset.univ fun i : Fin 18 => cred (tallyAt (cell c (rsRk i)) () (amt (rsRk i))))
    ∗ (bigSep Finset.univ fun i : Fin 18 => cred (tallyAt (cell c (agRk i)) () (amt (agRk i)))))

/-- What device `c`'s body starts from, besides its buffers: the ghost state at some names, the launch credit, the levels. -/
def start (c : Dev nD) : sProp 𝕄 :=
  iprop((∃ K, ghost V K c) ∗ creds (F := F) c ∗ levAts L lv)

end Cert.Kernel.Proto

end
-- ==== Proof.RulesBits.lean ====
/-
The rounds library's rules at this protocol's cells: a remote transfer from device c to its neighbour across a
cube axis (paying the neighbour's receive cell out of what c owes and its own send cell), a wait for the one
round of a transfer cell, and a local copy. Each is stated for any semaphore operand that IS the cell's
semaphore, and the transfer for any device operand that IS the neighbour, so that the printed operands are
substituted, not rewritten.
-/
import proofs.«900882_g7700000000000883_dist_matmul_gelu_kshard_i_m2048_n2048_k1024_v7x_i8_f32_1_alg».proof.Proof.OwesBits
import proofs.«900882_g7700000000000883_dist_matmul_gelu_kshard_i_m2048_n2048_k1024_v7x_i8_f32_1_alg».proof.Proof.GhostBits

noncomputable section

namespace Cert.Kernel.Proto

open Cert.Kernel Cert.Kernel.Gen Cert.Kernel.Topo
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

variable (V : Vals F)

/-! ## The schedule's tables at a semaphore operand -/

section Tables
variable (c : Dev nD) (κ : CK) {sm : SemLoc sig} (hsm : sm = κ.sem)
include hsm

omit [FloatOps F] in
theorem duties_at : (sched V).duties ((c : Thread nD τ), sm) 0 = dut κ := by subst hsm; exact duties_cell V c κ
omit [FloatOps F] in
theorem amount_at (r : ℕ) (d : Fin 3) : (sched V).amount ((c : Thread nD τ), sm) r d = amt κ := by subst hsm; exact amount_cell V c κ r d
omit [FloatOps F] in
theorem payload_at (r : ℕ) (d : Fin 3) : (sched V).payload ((c : Thread nD τ), sm) r d = pay V c κ d := by subst hsm; exact payload_cell V c κ r d
omit [FloatOps F] in
theorem expect_at (h : κ ≠ .bar) : (sched V).expect ((c : Thread nD τ), sm) 0 = amt κ := by subst hsm; exact expect_xfer V c κ h
omit [FloatOps F] in
theorem duties_later_at : ∀ r, 1 ≤ r → (sched V).duties ((c : Thread nD τ), sm) r = ∅ := duties_later V _

end Tables

/-! ## The barrier cell's tables, and a whole buffer kept folded -/

omit [FloatOps F] in
theorem duties_bar (c : Dev nD) : (sched V).duties ((c : Thread nD τ), SemLoc.reg barS) 0 = Finset.univ := duties_cell V c .bar
omit [FloatOps F] in
theorem amount_bar (c : Dev nD) (d : Fin 3) : (sched V).amount ((c : Thread nD τ), SemLoc.reg barS) 0 d = 1 := amount_cell V c .bar 0 d
omit [FloatOps F] in
theorem payload_bar (c : Dev nD) (d : Fin 3) : (sched V).payload ((c : Thread nD τ), SemLoc.reg barS) 0 d = barPay c d := payload_cell V c .bar 0 d
omit [FloatOps F] in
theorem expect_bar' (c : Dev nD) : (sched V).expect ((c : Thread nD τ), SemLoc.reg barS) 0 = 3 := expect_bar V c

omit [FloatOps F] in
/-- The three payloads of a device's barrier round. -/
theorem rest_bar (c : Dev nD) :
    bigSep ((sched V).duties ((c : Thread nD τ), SemLoc.reg barS) 0 \ ∅) (fun d => (sched V).payload ((c : Thread nD τ), SemLoc.reg barS) 0 d)
      = iprop(barPay (F := F) c 0 ∗ barPay (F := F) c 1 ∗ barPay (F := F) c 2) := by
  rw [Finset.sdiff_empty, duties_bar, bigSep_univ_eq_bigSepL [(0 : Fin 3), 1, 2] (by decide) (by decide), bigSepL_cons_cons, bigSepL_cons_cons, bigSepL_singleton,
    payload_bar, payload_bar, payload_bar]
  rfl

/-- A whole buffer of device c held at contents f. -/
def heldW (c : Dev nD) {sp : Space} {s : Shape} {e : EltTy} (M : Memref sig .tc sp s e) (f : Buf (Elt F) (M.view.loc (c : Thread nD τ))) : sProp 𝕄 :=
  M.view.loc (c : Thread nD τ) ↦[M.view.set]{fullShare} f

omit [FloatOps F] in
theorem dut_xfer {κ : CK} (h : κ ≠ .bar) : dut κ = {0} := by cases κ <;> first | rfl | exact absurd rfl h

omit [FloatOps F] in
/-- The one payload of a transfer cell's round. -/
theorem rest_xfer (c : Dev nD) (κ : CK) (h : κ ≠ .bar) {sm : SemLoc sig} (hsm : sm = κ.sem) :
    bigSep ((sched V).duties ((c : Thread nD τ), sm) 0 \ ∅) (fun d => (sched V).payload ((c : Thread nD τ), sm) 0 d) = pay V c κ 0 := by
  rw [Finset.sdiff_empty, duties_at V c κ hsm, dut_xfer h, bigSep_singleton, payload_at V c κ hsm]

omit [FloatOps F] in
/-- A points-to depends on its element set only. -/
theorem pts_set_eq {ℓ : Loc nD τ sig} {S S' : Finset (Idx ℓ)} (h : S = S') {q : PosShare TreeShare} {f : Buf (Elt F) ℓ} :
    (ℓ ↦[S]{q} f : sProp 𝕄) = (ℓ ↦[S']{q} f) := by rw [h]

omit [FloatOps F] in
theorem ptsAny_intro (c : Dev nD) {sp : Space} {s : Shape} {e : EltTy} (M : Memref sig .tc sp s e) (f : Buf (Elt F) (M.view.loc (c : Thread nD τ))) :
    (M.view.loc (c : Thread nD τ) ↦[M.view.set]{fullShare} f : sProp 𝕄) ⊢ ptsAny c M := by
  unfold ptsAny; iintro H; iexists f; iexact H
omit [FloatOps F] in
theorem ptsIs_intro (c : Dev nD) {sp : Space} {s : Shape} {e : EltTy} (M : Memref sig .tc sp s e) (f : Buf (Elt F) (M.view.loc (c : Thread nD τ)))
    (X : (s.Idx → Elt F e) → Prop) (h : X (M.view.read (Elt F) f)) :
    (M.view.loc (c : Thread nD τ) ↦[M.view.set]{fullShare} f : sProp 𝕄) ⊢ ptsIs c M X := by
  unfold ptsIs; iintro H; iexists f; isplitl [H]; · iexact H
  ipureintro; exact h
omit [FloatOps F] in
theorem ptsLent_intro (c : Dev nD) {sp : Space} {s : Shape} {e : EltTy} (M : Memref sig .tc sp s e) (f : Buf (Elt F) (M.view.loc (c : Thread nD τ))) :
    (M.view.loc (c : Thread nD τ) ↦[M.view.set]{fullShare.left} f : sProp 𝕄) ⊢ ptsLent c M := by
  unfold ptsLent; iintro H; iexists f; iexact H

/-! ## A remote transfer to the neighbour across axis d -/

/-- Device c's transfer number `idx` in program order, to its neighbour across axis d (the printed device operand `n` IS that
    neighbour): source cell κS on c, landing cell κR on the neighbour. What c owes loses the landing's amount; c gets the
    source cell's credit. -/
theorem wp_send_to (c n : Dev nD) (d : Fin 3) (hn : n = nbr d c) (κS κR : CK) (hκS : κS ≠ .bar) (hκR : κR ≠ .bar) (idx : ℕ) (hidx : idx < 39)
    (hpaid : paid c idx = (cell (nbr d c) κR, amt κR)) (hamt : amt κS = amt κR)
    {sp sp' : Space} {s : Shape} {e : EltTy}
    {src : Memref sig .tc sp s e} {dst : Memref sig .tc sp' s e}
    {hsc : (dst : Memref sig (Dev.tc n : Thread nD τ).2.kind sp' s e).view.ref.isScScratch = false}
    {sS sem : SemLoc sig} (hsS : sS = κS.sem) (hsem' : sem = κR.sem)
    {hsrc : src.view.WordExact} {hdst : dst.view.WordExact}
    {hsem : DmaTarget.Typed sp sem (.remote (Dev.tc n : Thread nD τ) (dst : Memref sig (Dev.tc n : Thread nD τ).2.kind sp' s e) sS hsc)}
    (hN : dst.view.amount sem = amt κR)
    {α : Type} {Q : α → sProp 𝕄} {k : PUnit → Prog (TpuEff nD τ sig (Elt F) Λ₀ .tc) α}
    {q : PosShare TreeShare} {fs : Buf (Elt F) (src.view.loc (c : Thread nD τ))} (fd : Buf (Elt F) (dst.view.loc (nbr d c : Thread nD τ)))
    (κ₁ κ₂ : ℕ) (W : Waits sig Unit)
    (hpay₁ : (src.view.loc (c : Thread nD τ) ↦[src.view.set]{q} fs) ⊢ pay V c κS 0)
    (hpay₂ : (dst.view.loc (nbr d c : Thread nD τ) ↦[dst.view.set]{fullShare} (dst.view.write (Elt F) fd (src.view.read (Elt F) fs) Finset.univ)) ⊢ pay V (nbr d c) κR 0) :
    iprop(cellInv ER (sched V) κ₁ (cell c κS) ∗ cellInv ER (sched V) κ₂ (cell (nbr d c) κR)
        ∗ (src.view.loc (c : Thread nD τ) ↦[src.view.set]{q} fs) ∗ (dst.view.loc (nbr d c : Thread nD τ) ↦[dst.view.set]{fullShare} fd)
        ∗ owes (c : Thread nD τ) (Owe c idx) W
        ∗ dutyTok ER (cell c κS) 0 (0 : Fin 3) ∗ reached ER (cell c κS) 0
        ∗ dutyTok ER (cell (nbr d c) κR) 0 (0 : Fin 3) ∗ reached ER (cell (nbr d c) κR) 0)
      ⊢ iprop(((cred (tallyAt (cell c κS) () (amt κR)) ∗ owes (c : Thread nD τ) (Owe c (idx + 1)) W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) (dst : Memref sig (Dev.tc n : Thread nD τ).2.kind sp' s e) sS hsc) sem hsrc hdst hsem) k) Q) := by
  subst hn hsS hsem'
  exact Rounds.wp_send_pointsTo 𝒱₀ ER (sched V) (c : Thread nD τ) none (κ₁ := κ₁) (κ₂ := κ₂)
    (r₁ := 0) (r₂ := 0) (d₁ := (0 : Fin 3)) (d₂ := (0 : Fin 3)) (fd := fd)
    (by rw [duties_cell, dut_xfer hκS]; exact Finset.mem_singleton_self _) (by rw [duties_cell, dut_xfer hκR]; exact Finset.mem_singleton_self _)
    () () (amt κR) hN ((amount_cell V c κS 0 0).trans hamt) (amount_cell V (nbr d c) κR 0 0) (Owe c (idx + 1))
    (by rw [Owe_succ c idx hidx, hpaid]) (W := W)
    (by rw [payload_cell]; exact hpay₁)
    (by rw [payload_cell]; exact hpay₂)

/-! ## A local copy (a finished block of the accumulator to the result array) -/

/-- Device c's local copy on its own cell κ (a result copy): the cell's payload is made of the destination rewritten and the
    source back; c gets the cell's credit. Nothing is owed for it. -/
theorem wp_copy_own (c : Dev nD) (κ : CK) (hκ : κ ≠ .bar)
    {sp sp' : Space} {s : Shape} {e : EltTy} {src : Memref sig .tc sp s e} {dst : Memref sig .tc sp' s e}
    {sem : SemLoc sig} (hsem' : sem = κ.sem)
    {hsrc : src.view.WordExact} {hdst : dst.view.WordExact} {hsem : DmaTarget.Typed (nD := nD) (τ := τ) sp sem (DmaTarget.here (p := Proc.tc) dst)}
    (hN : dst.view.amount sem = amt κ)
    {α : Type} {Q : α → sProp 𝕄} {k : PUnit → Prog (TpuEff nD τ sig (Elt F) Λ₀ .tc) α}
    {q : PosShare TreeShare} {fs : Buf (Elt F) (src.view.loc (c : Thread nD τ))} (fd : Buf (Elt F) (dst.view.loc (c : Thread nD τ))) (κn : ℕ)
    (hpay : iprop((dst.view.loc (c : Thread nD τ) ↦[dst.view.set]{fullShare} (dst.view.write (Elt F) fd (src.view.read (Elt F) fs) Finset.univ))
              ∗ (src.view.loc (c : Thread nD τ) ↦[src.view.set]{q} fs)) ⊢ pay V c κ 0) :
    iprop(cellInv ER (sched V) κn (cell c κ) ∗ (src.view.loc (c : Thread nD τ) ↦[src.view.set]{q} fs) ∗ (dst.view.loc (c : Thread nD τ) ↦[dst.view.set]{fullShare} fd)
        ∗ dutyTok ER (cell c κ) 0 (0 : Fin 3) ∗ reached ER (cell c κ) 0)
      ⊢ iprop((cred (tallyAt (cell c κ) () (amt κ)) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma src (DmaTarget.here (p := Proc.tc) dst) sem hsrc hdst hsem) k) Q) := by
  subst hsem'
  exact Rounds.wp_copy_pointsTo 𝒱₀ ER (sched V) (c : Thread nD τ) none (κ := κn) (r := 0) (d := (0 : Fin 3)) (fd := fd)
    (by rw [duties_cell, dut_xfer hκ]; exact Finset.mem_singleton_self _) () (amt κ) hN (amount_cell V c κ 0 0)
    (by rw [payload_cell]; exact hpay)

/-! ## A wait for the one round of a transfer cell -/

/-- A wait for the whole amount of device c's transfer cell κ while it still owes `Owe c n`: the round's payload comes back. -/
theorem wp_wait_xfer (c : Dev nD) (κ : CK) (hκ : κ ≠ .bar) (n : ℕ) {sm : SemLoc sig} (hsm : sm = κ.sem) {k' : ℕ} (hk' : k' = amt κ)
    {w : TpuEff nD τ sig (Elt F) Λ₀ .tc PUnit}
    (hw : ∀ K : PUnit → sProp 𝕄, wpE (defs₀ (F := F)) 𝒱₀ (c : Thread nD τ) none Set.univ w K = waitSpec (c : Thread nD τ) Set.univ sm k' K)
    (hmay : (levAts L lv : sProp 𝕄) ⊢ MayWait (c : Thread nD τ) κ.sem () (Owe c n))
    {α : Type} {Q : α → sProp 𝕄} {k : PUnit → Prog (TpuEff nD τ sig (Elt F) Λ₀ .tc) α} (κn : ℕ) (W : Waits sig Unit) :
    iprop(cellInv ER (sched V) κn (cell c κ) ∗ cred (tallyAt (cell c κ) () (amt κ)) ∗ owes (c : Thread nD τ) (Owe c n) W ∗ levAts L lv
        ∗ atPos ER (cell c κ) 0 ∅ 0)
      ⊢ iprop(((owes (c : Thread nD τ) (Owe c n) (insert (κ.sem, ()) W) ∗ atPos ER (cell c κ) 1 ∅ 0 ∗ pay V c κ 0)
            -∗ wp frame (wpE (defs₀ (F := F)) 𝒱₀ (c : Thread nD τ) none) Set.univ (k ⟨⟩) Q)
          -∗ wp frame (wpE (defs₀ (F := F)) 𝒱₀ (c : Thread nD τ) none) Set.univ (.op w k) Q) := by
  subst hsm hk'
  iintro ⟨#HI, Hc, HO, #Hlev, Hat⟩ Hk
  iapply (Rounds.wp_wait_rest_token 𝒱₀ ER (sched V) (c : Thread nD τ) none (κ := κn) hw (Set.mem_univ _) () (O := Owe c n) (W := W) (R := 0) (m := 0) (T := ∅)
      (by rw [Nat.zero_add]; exact (expect_xfer V c κ hκ).symm)) $$ [Hc HO Hat]
  · isplitr; · iexact HI
    isplitl [Hc]; · iexact Hc
    isplitl [HO]; · iexact HO
    isplitr; · iapply hmay; iexact Hlev
    iexact Hat
  iintro ⟨HO, Hat, -, Hpay⟩
  ihave Hp := (Entails.of_eq (rest_xfer V c κ hκ rfl)) $$ Hpay
  iapply Hk
  isplitl [HO]; · iexact HO
  isplitl [Hat]; · iexact Hat
  iexact Hp

end Cert.Kernel.Proto

end
-- ==== Proof.DatsBits.lean ====
/-
The proof data of the one region, on device c.

Before its one point the region's assertion holds what the device's body starts from: the protocol's ghost
state, the launch credit and the levels; the result array whole, at its launch contents; and the nineteen
scratch buffers whole, at some contents. After the point it holds the result array whole at contents of which
the result predicate holds, the device's 96 protocol semaphores back at zero, and the scratch buffers again.
The two staged argument blocks are left in place by the body. At the point the device owes all of its 39
payments; after it nothing.
-/
import proofs.«900882_g7700000000000883_dist_matmul_gelu_kshard_i_m2048_n2048_k1024_v7x_i8_f32_1_alg».proof.Proof.RulesBits

noncomputable section

namespace Cert.Kernel.Proto

open Cert.Kernel Cert.Kernel.Gen Cert.Kernel.Topo
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (V : Vals F)

/-! ## Contents -/

/-- The staged block of the first argument: the whole of the device's array. -/
def Astg (c : Dev nD) : (cc0_stg0_0 : Ref sig .tc).ty.Contents (Elt F) :=
  (win0_0.blk (0 : Fin 1)).view.read (Elt F) (m ((c : Thread nD τ).loc main_arg0))

/-- The staged block of the second argument. -/
def Bstg (c : Dev nD) : (cc0_stg1_0 : Ref sig .tc).ty.Contents (Elt F) :=
  (win0_1.blk (0 : Fin 1)).view.read (Elt F) (m ((c : Thread nD τ).loc main_arg1))

/-! ## Buffers -/

/-- The nineteen scratch buffers of device c, each whole at some contents. -/
def scratchAny (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f)
    ∗ (∃ f : Buf (Elt F) ((c : Thread nD τ).loc cc0_scratch4), ((c : Thread nD τ).loc cc0_scratch4) ↦{fullShare} f)
    ∗ (∃ f : Buf (Elt F) ((c : Thread nD τ).loc cc0_scratch5), ((c : Thread nD τ).loc cc0_scratch5) ↦{fullShare} f)
    ∗ (∃ f : Buf (Elt F) ((c : Thread nD τ).loc cc0_scratch6), ((c : Thread nD τ).loc cc0_scratch6) ↦{fullShare} f)
    ∗ (∃ f : Buf (Elt F) ((c : Thread nD τ).loc cc0_scratch7), ((c : Thread nD τ).loc cc0_scratch7) ↦{fullShare} f)
    ∗ (∃ f : Buf (Elt F) ((c : Thread nD τ).loc cc0_scratch8), ((c : Thread nD τ).loc cc0_scratch8) ↦{fullShare} f)
    ∗ (∃ f : Buf (Elt F) ((c : Thread nD τ).loc cc0_scratch9), ((c : Thread nD τ).loc cc0_scratch9) ↦{fullShare} f)
    ∗ (∃ f : Buf (Elt F) ((c : Thread nD τ).loc cc0_scratch10), ((c : Thread nD τ).loc cc0_scratch10) ↦{fullShare} f)
    ∗ (∃ f : Buf (Elt F) ((c : Thread nD τ).loc cc0_scratch11), ((c : Thread nD τ).loc cc0_scratch11) ↦{fullShare} f)
    ∗ (∃ f : Buf (Elt F) ((c : Thread nD τ).loc cc0_scratch12), ((c : Thread nD τ).loc cc0_scratch12) ↦{fullShare} f)
    ∗ (∃ f : Buf (Elt F) ((c : Thread nD τ).loc cc0_scratch13), ((c : Thread nD τ).loc cc0_scratch13) ↦{fullShare} f)
    ∗ (∃ f : Buf (Elt F) ((c : Thread nD τ).loc cc0_scratch14), ((c : Thread nD τ).loc cc0_scratch14) ↦{fullShare} f)
    ∗ (∃ f : Buf (Elt F) ((c : Thread nD τ).loc cc0_scratch15), ((c : Thread nD τ).loc cc0_scratch15) ↦{fullShare} f)
    ∗ (∃ f : Buf (Elt F) ((c : Thread nD τ).loc cc0_scratch16), ((c : Thread nD τ).loc cc0_scratch16) ↦{fullShare} f)
    ∗ (∃ f : Buf (Elt F) ((c : Thread nD τ).loc cc0_scratch17), ((c : Thread nD τ).loc cc0_scratch17) ↦{fullShare} f)
    ∗ (∃ f : Buf (Elt F) ((c : Thread nD τ).loc cc0_scratch18), ((c : Thread nD τ).loc cc0_scratch18) ↦{fullShare} f))

/-- The result array of device c, whole, at contents f. -/
def outWhole (c : Dev nD) (f : Buf (Elt F) ((c : Thread nD τ).loc main_v1)) : sProp 𝕄 :=
  ((c : Thread nD τ).loc main_v1) ↦{fullShare} f

/-- The 96 protocol semaphores of device c (every cell but the barrier's, which is not the launch's to hand back)
    at zero. -/
def ownZero (c : Dev nD) : sProp 𝕄 :=
  bigSep (Finset.univ.erase (0 : Fin 97)) fun i => semVal (cell c (ckOf i)) 0

omit [FloatOps F] in
/-- The scratch buffers are the region's scoped buffers that stage no window. -/
theorem scopedRest_eq (c : Dev nD) :
    (Pipeline.scopedRest (Ix := Unit) (Name := ℕ) (U := UU) (Lvl := ℕ) (Val := Elt F) spec0 c : sProp 𝕄) = scratchAny c :=
  scopedRest0_eq c

/-! ## The region's assertions -/

def Φ₀ (c : Dev nD) : sProp 𝕄 :=
  iprop(start V c ∗ outWhole c (m ((c : Thread nD τ).loc main_v1)) ∗ scratchAny (F := F) c)

def Φ₁ (c : Dev nD) : sProp 𝕄 :=
  iprop((∃ f, outWhole c f ∗ ⌜V.res c f⌝) ∗ ownZero (F := F) c ∗ scratchAny (F := F) c)

/-- The region's proof data on device c. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => Astg m c
    | ⟨1, _⟩ => Bstg m c
  Φ t := match t with
    | ⟨0, _⟩ => Φ₀ m V c
    | ⟨_ + 1, _⟩ => Φ₁ V c
  q _ := fullShare
  owed t := match t with
    | ⟨0, _⟩ => Owe c 0
    | ⟨_ + 1, _⟩ => 0

end Cert.Kernel.Proto

end
-- ==== Proof.SepFinBits.lean ====
/-
The separating conjunctions over the 3 cube axes, the 18 (group, step) pairs, the 24 result copies and a
device's 97 cells, written out member by member.
-/
import proofs.«900882_g7700000000000883_dist_matmul_gelu_kshard_i_m2048_n2048_k1024_v7x_i8_f32_1_alg».proof.Proof.DatsBits

set_option maxRecDepth 16384

noncomputable section

namespace Cert.Kernel.Proto

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

omit [FloatOps F] in
theorem sep_fin3 (Φ : Fin 3 → sProp 𝕄) : bigSep Finset.univ Φ = iprop(Φ 0 ∗ Φ 1 ∗ Φ 2) :=
  bigSep_univ_eq_bigSepL [0, 1, 2] (by decide) (by decide) Φ
omit [FloatOps F] in
theorem sep_fin18 (Φ : Fin 18 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17) :=
  bigSep_univ_eq_bigSepL [0, 1, 2, 3, 4, 5, 6, 7, 8, 9, 10, 11, 12, 13, 14, 15, 16, 17] (by decide) (by decide) Φ
omit [FloatOps F] in
theorem sep_fin24 (Φ : Fin 24 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23) :=
  bigSep_univ_eq_bigSepL [0, 1, 2, 3, 4, 5, 6, 7, 8, 9, 10, 11, 12, 13, 14, 15, 16, 17, 18, 19, 20, 21, 22, 23] (by decide) (by decide) Φ
omit [FloatOps F] in
theorem sep_fin97 (Φ : Fin 97 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24 ∗ Φ 25 ∗ Φ 26 ∗ Φ 27 ∗ Φ 28 ∗ Φ 29 ∗ Φ 30 ∗ Φ 31 ∗ Φ 32 ∗ Φ 33 ∗ Φ 34 ∗ Φ 35 ∗ Φ 36 ∗ Φ 37 ∗ Φ 38 ∗ Φ 39 ∗ Φ 40 ∗ Φ 41 ∗ Φ 42 ∗ Φ 43 ∗ Φ 44 ∗ Φ 45 ∗ Φ 46 ∗ Φ 47 ∗ Φ 48 ∗ Φ 49 ∗ Φ 50 ∗ Φ 51 ∗ Φ 52 ∗ Φ 53 ∗ Φ 54 ∗ Φ 55 ∗ Φ 56 ∗ Φ 57 ∗ Φ 58 ∗ Φ 59 ∗ Φ 60 ∗ Φ 61 ∗ Φ 62 ∗ Φ 63 ∗ Φ 64 ∗ Φ 65 ∗ Φ 66 ∗ Φ 67 ∗ Φ 68 ∗ Φ 69 ∗ Φ 70 ∗ Φ 71 ∗ Φ 72 ∗ Φ 73 ∗ Φ 74 ∗ Φ 75 ∗ Φ 76 ∗ Φ 77 ∗ Φ 78 ∗ Φ 79 ∗ Φ 80 ∗ Φ 81 ∗ Φ 82 ∗ Φ 83 ∗ Φ 84 ∗ Φ 85 ∗ Φ 86 ∗ Φ 87 ∗ Φ 88 ∗ Φ 89 ∗ Φ 90 ∗ Φ 91 ∗ Φ 92 ∗ Φ 93 ∗ Φ 94 ∗ Φ 95 ∗ Φ 96) :=
  bigSep_univ_eq_bigSepL [0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44, 45, 46, 47, 48, 49, 50, 51, 52, 53, 54, 55, 56, 57, 58, 59, 60, 61, 62, 63, 64, 65, 66, 67, 68, 69, 70, 71, 72, 73, 74, 75, 76, 77, 78, 79, 80, 81, 82, 83, 84, 85, 86, 87, 88, 89, 90, 91, 92, 93, 94, 95, 96] (by decide) (by decide) Φ

end Cert.Kernel.Proto

end
-- ==== Proof.StartBits.lean ====
/-
Taking a device's starting state apart: a cell's invariant and its reached round read off the shared records;
a whole buffer in the two spellings of its location.
-/
import proofs.«900882_g7700000000000883_dist_matmul_gelu_kshard_i_m2048_n2048_k1024_v7x_i8_f32_1_alg».proof.Proof.SepFinBits

set_option maxRecDepth 16384

noncomputable section

namespace Cert.Kernel.Proto

open Cert.Kernel Cert.Kernel.Gen Cert.Kernel.Topo
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (V : Vals F)

omit [FloatOps F] in
theorem inv_at' (K : Dev nD × Fin 97 → ℕ) (ck : Dev nD × Fin 97) :
    (bigSep Finset.univ fun ck : Dev nD × Fin 97 => (cellInv ER (sched V) (K ck) (kcell ck) : sProp 𝕄)) ⊢ cellInv ER (sched V) (K ck) (kcell ck) :=
  bigSep_elim (Finset.mem_univ ck)
omit [FloatOps F] in
theorem reached_at' (ck : Dev nD × Fin 97) :
    (bigSep Finset.univ fun ck : Dev nD × Fin 97 => (reached ER (kcell ck) 0 : sProp 𝕄)) ⊢ reached ER (kcell ck) 0 :=
  bigSep_elim (Finset.mem_univ ck)

omit [FloatOps F] in
theorem kcell_ckIdx (c' : Dev nD) (κ : CK) : kcell (c', ckIdx κ) = cell c' κ := by
  show cell c' (ckOf (ckIdx κ)) = _; rw [ckOf_ckIdx]

omit [FloatOps F] in
/-- Any device's any cell: its invariant, from the records. -/
theorem records_inv (K : Dev nD × Fin 97 → ℕ) (c' : Dev nD) (κ : CK) :
    records V K ⊢ cellInv ER (sched V) (K (c', ckIdx κ)) (cell c' κ) := by
  unfold records
  iintro ⟨#HI, -⟩
  rw [← kcell_ckIdx c' κ]
  iapply (inv_at' V K (c', ckIdx κ))
  iexact HI
omit [FloatOps F] in
/-- Any device's any cell: round 0 reached, from the records. -/
theorem records_reached (K : Dev nD × Fin 97 → ℕ) (c' : Dev nD) (κ : CK) :
    records V K ⊢ reached ER (cell c' κ) 0 := by
  unfold records
  iintro ⟨-, #HR⟩
  rw [← kcell_ckIdx c' κ]
  iapply (reached_at' (F := F) (c', ckIdx κ))
  iexact HR

omit [FloatOps F] in
/-- A whole buffer: its location spelt through the whole memref's view, or bare. -/
theorem heldW_whole_eq (c : Dev nD) (b : Ref sig .tc) (f : Buf (Elt F) ((c : Thread nD τ).loc b)) :
    heldW c (Memref.whole b : Memref sig .tc b.space b.ty.shape b.ty.elt) f = (((c : Thread nD τ).loc b) ↦{fullShare} f : sProp 𝕄) := by
  unfold heldW
  exact pts_set_eq (show (Memref.whole b : Memref sig .tc b.space b.ty.shape b.ty.elt).view.set = Finset.univ from View.set_whole _)

end Cert.Kernel.Proto

end
-- ==== Proof.TopoBitsTab.lean ====
import proofs.«900882_g7700000000000883_dist_matmul_gelu_kshard_i_m2048_n2048_k1024_v7x_i8_f32_1_alg».proof.Proof.TopoBits

/-! The closed forms of the printed device chains and offset functions, one line per function: the device a
    chain addresses is the neighbour across one axis of the 2x2x2 cube, and an offset is a row built from the
    device's coordinates next to a literal column. Each line is a statement over the eight devices, decided by
    evaluation. -/

set_option Elab.async false

namespace Cert.Kernel.Topo

open Cert.Kernel Cert.Kernel.Gen Idealize.ShloMosaic

@[sl_canon] theorem dev1_eq (c : Dev nD) : (⟨k0_dev1 c, k0_dev1_lt c⟩ : Dev nD) = nbr 0 c := by
  revert c; decide +kernel
@[sl_canon] theorem dev2_eq (c : Dev nD) : (⟨k0_dev2 c, k0_dev2_lt c⟩ : Dev nD) = nbr 1 c := by
  revert c; decide +kernel
@[sl_canon] theorem dev3_eq (c : Dev nD) : (⟨k0_dev3 c, k0_dev3_lt c⟩ : Dev nD) = nbr 2 c := by
  revert c; decide +kernel
@[sl_canon] theorem dev4_eq (c : Dev nD) : (⟨k0_dev4 c, k0_dev4_lt c⟩ : Dev nD) = nbr 0 c := by
  revert c; decide +kernel
@[sl_canon] theorem dev5_eq (c : Dev nD) : (⟨k0_dev5 c, k0_dev5_lt c⟩ : Dev nD) = nbr 1 c := by
  revert c; decide +kernel
@[sl_canon] theorem dev6_eq (c : Dev nD) : (⟨k0_dev6 c, k0_dev6_lt c⟩ : Dev nD) = nbr 2 c := by
  revert c; decide +kernel
@[sl_canon] theorem dev7_eq (c : Dev nD) : (⟨k0_dev7 c, k0_dev7_lt c⟩ : Dev nD) = nbr 0 c := by
  revert c; decide +kernel
@[sl_canon] theorem dev8_eq (c : Dev nD) : (⟨k0_dev8 c, k0_dev8_lt c⟩ : Dev nD) = nbr 1 c := by
  revert c; decide +kernel
@[sl_canon] theorem dev9_eq (c : Dev nD) : (⟨k0_dev9 c, k0_dev9_lt c⟩ : Dev nD) = nbr 2 c := by
  revert c; decide +kernel
@[sl_canon] theorem dev10_eq (c : Dev nD) : (⟨k0_dev10 c, k0_dev10_lt c⟩ : Dev nD) = nbr 1 c := by
  revert c; decide +kernel
@[sl_canon] theorem dev11_eq (c : Dev nD) : (⟨k0_dev11 c, k0_dev11_lt c⟩ : Dev nD) = nbr 2 c := by
  revert c; decide +kernel
@[sl_canon] theorem dev12_eq (c : Dev nD) : (⟨k0_dev12 c, k0_dev12_lt c⟩ : Dev nD) = nbr 0 c := by
  revert c; decide +kernel
@[sl_canon] theorem dev13_eq (c : Dev nD) : (⟨k0_dev13 c, k0_dev13_lt c⟩ : Dev nD) = nbr 1 c := by
  revert c; decide +kernel
@[sl_canon] theorem dev14_eq (c : Dev nD) : (⟨k0_dev14 c, k0_dev14_lt c⟩ : Dev nD) = nbr 2 c := by
  revert c; decide +kernel
@[sl_canon] theorem dev15_eq (c : Dev nD) : (⟨k0_dev15 c, k0_dev15_lt c⟩ : Dev nD) = nbr 0 c := by
  revert c; decide +kernel
@[sl_canon] theorem dev16_eq (c : Dev nD) : (⟨k0_dev16 c, k0_dev16_lt c⟩ : Dev nD) = nbr 2 c := by
  revert c; decide +kernel
@[sl_canon] theorem dev17_eq (c : Dev nD) : (⟨k0_dev17 c, k0_dev17_lt c⟩ : Dev nD) = nbr 0 c := by
  revert c; decide +kernel
@[sl_canon] theorem dev18_eq (c : Dev nD) : (⟨k0_dev18 c, k0_dev18_lt c⟩ : Dev nD) = nbr 1 c := by
  revert c; decide +kernel
@[sl_canon] theorem dev19_eq (c : Dev nD) : (⟨k0_dev19 c, k0_dev19_lt c⟩ : Dev nD) = nbr 2 c := by
  revert c; decide +kernel
@[sl_canon] theorem dev20_eq (c : Dev nD) : (⟨k0_dev20 c, k0_dev20_lt c⟩ : Dev nD) = nbr 0 c := by
  revert c; decide +kernel
@[sl_canon] theorem dev21_eq (c : Dev nD) : (⟨k0_dev21 c, k0_dev21_lt c⟩ : Dev nD) = nbr 1 c := by
  revert c; decide +kernel
@[sl_canon] theorem dev22_eq (c : Dev nD) : (⟨k0_dev22 c, k0_dev22_lt c⟩ : Dev nD) = nbr 2 c := by
  revert c; decide +kernel
@[sl_canon] theorem dev23_eq (c : Dev nD) : (⟨k0_dev23 c, k0_dev23_lt c⟩ : Dev nD) = nbr 0 c := by
  revert c; decide +kernel
@[sl_canon] theorem dev24_eq (c : Dev nD) : (⟨k0_dev24 c, k0_dev24_lt c⟩ : Dev nD) = nbr 1 c := by
  revert c; decide +kernel
@[sl_canon] theorem dev25_eq (c : Dev nD) : (⟨k0_dev25 c, k0_dev25_lt c⟩ : Dev nD) = nbr 2 c := by
  revert c; decide +kernel
@[sl_canon] theorem dev26_eq (c : Dev nD) : (⟨k0_dev26 c, k0_dev26_lt c⟩ : Dev nD) = nbr 0 c := by
  revert c; decide +kernel
@[sl_canon] theorem dev27_eq (c : Dev nD) : (⟨k0_dev27 c, k0_dev27_lt c⟩ : Dev nD) = nbr 1 c := by
  revert c; decide +kernel
@[sl_canon] theorem dev28_eq (c : Dev nD) : (⟨k0_dev28 c, k0_dev28_lt c⟩ : Dev nD) = nbr 1 c := by
  revert c; decide +kernel
@[sl_canon] theorem dev29_eq (c : Dev nD) : (⟨k0_dev29 c, k0_dev29_lt c⟩ : Dev nD) = nbr 2 c := by
  revert c; decide +kernel
@[sl_canon] theorem dev30_eq (c : Dev nD) : (⟨k0_dev30 c, k0_dev30_lt c⟩ : Dev nD) = nbr 0 c := by
  revert c; decide +kernel
@[sl_canon] theorem dev31_eq (c : Dev nD) : (⟨k0_dev31 c, k0_dev31_lt c⟩ : Dev nD) = nbr 1 c := by
  revert c; decide +kernel
@[sl_canon] theorem dev32_eq (c : Dev nD) : (⟨k0_dev32 c, k0_dev32_lt c⟩ : Dev nD) = nbr 2 c := by
  revert c; decide +kernel
@[sl_canon] theorem dev33_eq (c : Dev nD) : (⟨k0_dev33 c, k0_dev33_lt c⟩ : Dev nD) = nbr 0 c := by
  revert c; decide +kernel
@[sl_canon] theorem dev34_eq (c : Dev nD) : (⟨k0_dev34 c, k0_dev34_lt c⟩ : Dev nD) = nbr 0 c := by
  revert c; decide +kernel
@[sl_canon] theorem dev35_eq (c : Dev nD) : (⟨k0_dev35 c, k0_dev35_lt c⟩ : Dev nD) = nbr 1 c := by
  revert c; decide +kernel
@[sl_canon] theorem dev36_eq (c : Dev nD) : (⟨k0_dev36 c, k0_dev36_lt c⟩ : Dev nD) = nbr 2 c := by
  revert c; decide +kernel
@[sl_canon] theorem dev37_eq (c : Dev nD) : (⟨k0_dev37 c, k0_dev37_lt c⟩ : Dev nD) = nbr 0 c := by
  revert c; decide +kernel
@[sl_canon] theorem dev38_eq (c : Dev nD) : (⟨k0_dev38 c, k0_dev38_lt c⟩ : Dev nD) = nbr 1 c := by
  revert c; decide +kernel
@[sl_canon] theorem dev39_eq (c : Dev nD) : (⟨k0_dev39 c, k0_dev39_lt c⟩ : Dev nD) = nbr 2 c := by
  revert c; decide +kernel

theorem off1_eq (c : Dev nD) : k0_off1 c = ![(1 - cx c) * 1024, 0] := by
  revert c; decide +kernel
theorem off2_eq (c : Dev nD) : k0_off2 c = ![(1 - cy c) * 1024, 0] := by
  revert c; decide +kernel
theorem off3_eq (c : Dev nD) : k0_off3 c = ![(1 - cz c) * 1024, 0] := by
  revert c; decide +kernel
theorem off4_eq (c : Dev nD) : k0_off4 c = ![cx c * 1024, 0] := by
  revert c; decide +kernel
theorem off5_eq (c : Dev nD) : k0_off5 c = ![cx c * 1024, 0] := by
  revert c; decide +kernel
theorem off6_eq (c : Dev nD) : k0_off6 c = ![cy c * 1024, 0] := by
  revert c; decide +kernel
theorem off7_eq (c : Dev nD) : k0_off7 c = ![cy c * 1024, 384] := by
  revert c; decide +kernel
theorem off8_eq (c : Dev nD) : k0_off8 c = ![cz c * 1024, 0] := by
  revert c; decide +kernel
theorem off9_eq (c : Dev nD) : k0_off9 c = ![cz c * 1024, 768] := by
  revert c; decide +kernel
theorem off10_eq (c : Dev nD) : k0_off10 c = ![cx c * 1024, 1152] := by
  revert c; decide +kernel
theorem off11_eq (c : Dev nD) : k0_off11 c = ![cy c * 1024, 1536] := by
  revert c; decide +kernel
theorem off12_eq (c : Dev nD) : k0_off12 c = ![cz c * 1024, 1792] := by
  revert c; decide +kernel
theorem off13_eq (c : Dev nD) : k0_off13 c = ![cx c * 1024 + (1 - cy c) * 512, 0] := by
  revert c; decide +kernel
theorem off14_eq (c : Dev nD) : k0_off14 c = ![(1 - cy c) * 512, 0] := by
  revert c; decide +kernel
theorem off15_eq (c : Dev nD) : k0_off15 c = ![cx c * 1024 + cy c * 512, 0] := by
  revert c; decide +kernel
theorem off16_eq (c : Dev nD) : k0_off16 c = ![cy c * 512, 0] := by
  revert c; decide +kernel
theorem off17_eq (c : Dev nD) : k0_off17 c = ![cy c * 1024 + (1 - cz c) * 512, 384] := by
  revert c; decide +kernel
theorem off18_eq (c : Dev nD) : k0_off18 c = ![(1 - cz c) * 512, 0] := by
  revert c; decide +kernel
theorem off19_eq (c : Dev nD) : k0_off19 c = ![cy c * 1024 + cz c * 512, 384] := by
  revert c; decide +kernel
theorem off20_eq (c : Dev nD) : k0_off20 c = ![cz c * 512, 0] := by
  revert c; decide +kernel
theorem off21_eq (c : Dev nD) : k0_off21 c = ![cz c * 1024 + (1 - cx c) * 512, 768] := by
  revert c; decide +kernel
theorem off22_eq (c : Dev nD) : k0_off22 c = ![(1 - cx c) * 512, 0] := by
  revert c; decide +kernel
theorem off23_eq (c : Dev nD) : k0_off23 c = ![cz c * 1024 + cx c * 512, 768] := by
  revert c; decide +kernel
theorem off24_eq (c : Dev nD) : k0_off24 c = ![cx c * 512, 0] := by
  revert c; decide +kernel
theorem off25_eq (c : Dev nD) : k0_off25 c = ![cx c * 1024 + (1 - cy c) * 512, 1152] := by
  revert c; decide +kernel
theorem off26_eq (c : Dev nD) : k0_off26 c = ![cx c * 1024 + cy c * 512, 1152] := by
  revert c; decide +kernel
theorem off27_eq (c : Dev nD) : k0_off27 c = ![cy c * 1024 + (1 - cz c) * 512, 1536] := by
  revert c; decide +kernel
theorem off28_eq (c : Dev nD) : k0_off28 c = ![(1 - cz c) * 512, 0] := by
  revert c; decide +kernel
theorem off29_eq (c : Dev nD) : k0_off29 c = ![cy c * 1024 + cz c * 512, 1536] := by
  revert c; decide +kernel
theorem off30_eq (c : Dev nD) : k0_off30 c = ![cz c * 512, 0] := by
  revert c; decide +kernel
theorem off31_eq (c : Dev nD) : k0_off31 c = ![cz c * 1024 + (1 - cx c) * 512, 1792] := by
  revert c; decide +kernel
theorem off32_eq (c : Dev nD) : k0_off32 c = ![(1 - cx c) * 512, 0] := by
  revert c; decide +kernel
theorem off33_eq (c : Dev nD) : k0_off33 c = ![cz c * 1024 + cx c * 512, 1792] := by
  revert c; decide +kernel
theorem off34_eq (c : Dev nD) : k0_off34 c = ![cx c * 512, 0] := by
  revert c; decide +kernel
theorem off35_eq (c : Dev nD) : k0_off35 c = ![cx c * 1024 + cy c * 512 + (1 - cz c) * 256, 0] := by
  revert c; decide +kernel
theorem off36_eq (c : Dev nD) : k0_off36 c = ![1024 + (1 - cz c) * 256, 0] := by
  revert c; decide +kernel
theorem off37_eq (c : Dev nD) : k0_off37 c = ![cx c * 1024 + cy c * 512 + cz c * 256, 0] := by
  revert c; decide +kernel
theorem off38_eq (c : Dev nD) : k0_off38 c = ![1024 + cz c * 256, 0] := by
  revert c; decide +kernel
theorem off39_eq (c : Dev nD) : k0_off39 c = ![cy c * 1024 + cz c * 512 + (1 - cx c) * 256, 384] := by
  revert c; decide +kernel
theorem off40_eq (c : Dev nD) : k0_off40 c = ![1024 + (1 - cx c) * 256, 0] := by
  revert c; decide +kernel
theorem off41_eq (c : Dev nD) : k0_off41 c = ![cy c * 1024 + cz c * 512 + cx c * 256, 384] := by
  revert c; decide +kernel
theorem off42_eq (c : Dev nD) : k0_off42 c = ![1024 + cx c * 256, 0] := by
  revert c; decide +kernel
theorem off43_eq (c : Dev nD) : k0_off43 c = ![cz c * 1024 + cx c * 512 + (1 - cy c) * 256, 768] := by
  revert c; decide +kernel
theorem off44_eq (c : Dev nD) : k0_off44 c = ![1024 + (1 - cy c) * 256, 0] := by
  revert c; decide +kernel
theorem off45_eq (c : Dev nD) : k0_off45 c = ![cz c * 1024 + cx c * 512 + cy c * 256, 768] := by
  revert c; decide +kernel
theorem off46_eq (c : Dev nD) : k0_off46 c = ![1024 + cy c * 256, 0] := by
  revert c; decide +kernel
theorem off47_eq (c : Dev nD) : k0_off47 c = ![cx c * 1024 + cy c * 512 + (1 - cz c) * 256, 1152] := by
  revert c; decide +kernel
theorem off48_eq (c : Dev nD) : k0_off48 c = ![cx c * 1024 + cy c * 512 + cz c * 256, 1152] := by
  revert c; decide +kernel
theorem off49_eq (c : Dev nD) : k0_off49 c = ![cy c * 1024 + cz c * 512 + (1 - cx c) * 256, 1536] := by
  revert c; decide +kernel
theorem off50_eq (c : Dev nD) : k0_off50 c = ![1024 + (1 - cx c) * 256, 0] := by
  revert c; decide +kernel
theorem off51_eq (c : Dev nD) : k0_off51 c = ![cy c * 1024 + cz c * 512 + cx c * 256, 1536] := by
  revert c; decide +kernel
theorem off52_eq (c : Dev nD) : k0_off52 c = ![1024 + cx c * 256, 0] := by
  revert c; decide +kernel
theorem off53_eq (c : Dev nD) : k0_off53 c = ![cz c * 1024 + cx c * 512 + (1 - cy c) * 256, 1792] := by
  revert c; decide +kernel
theorem off54_eq (c : Dev nD) : k0_off54 c = ![1024 + (1 - cy c) * 256, 0] := by
  revert c; decide +kernel
theorem off55_eq (c : Dev nD) : k0_off55 c = ![cz c * 1024 + cx c * 512 + cy c * 256, 1792] := by
  revert c; decide +kernel
theorem off56_eq (c : Dev nD) : k0_off56 c = ![1024 + cy c * 256, 0] := by
  revert c; decide +kernel
theorem off57_eq (c : Dev nD) : k0_off57 c = ![1536, 0] := by
  revert c; decide +kernel
theorem off58_eq (c : Dev nD) : k0_off58 c = ![cx c * 1024 + cy c * 512 + cz c * 256, 0] := by
  revert c; decide +kernel
theorem off59_eq (c : Dev nD) : k0_off59 c = ![cx c * 1024 + cy c * 512 + cz c * 256, 0] := by
  revert c; decide +kernel
theorem off60_eq (c : Dev nD) : k0_off60 c = ![1536, 0] := by
  revert c; decide +kernel
theorem off61_eq (c : Dev nD) : k0_off61 c = ![cy c * 1024 + cz c * 512 + cx c * 256, 0] := by
  revert c; decide +kernel
theorem off62_eq (c : Dev nD) : k0_off62 c = ![cy c * 1024 + cz c * 512 + cx c * 256, 384] := by
  revert c; decide +kernel
theorem off63_eq (c : Dev nD) : k0_off63 c = ![1536, 0] := by
  revert c; decide +kernel
theorem off64_eq (c : Dev nD) : k0_off64 c = ![cz c * 1024 + cx c * 512 + cy c * 256, 0] := by
  revert c; decide +kernel
theorem off65_eq (c : Dev nD) : k0_off65 c = ![cz c * 1024 + cx c * 512 + cy c * 256, 768] := by
  revert c; decide +kernel
theorem off66_eq (c : Dev nD) : k0_off66 c = ![cx c * 1024 + cy c * 512 + cz c * 256, 1152] := by
  revert c; decide +kernel
theorem off67_eq (c : Dev nD) : k0_off67 c = ![1536, 0] := by
  revert c; decide +kernel
theorem off68_eq (c : Dev nD) : k0_off68 c = ![cy c * 1024 + cz c * 512 + cx c * 256, 0] := by
  revert c; decide +kernel
theorem off69_eq (c : Dev nD) : k0_off69 c = ![cy c * 1024 + cz c * 512 + cx c * 256, 1536] := by
  revert c; decide +kernel
theorem off70_eq (c : Dev nD) : k0_off70 c = ![1536, 0] := by
  revert c; decide +kernel
theorem off71_eq (c : Dev nD) : k0_off71 c = ![cz c * 1024 + cx c * 512 + cy c * 256, 0] := by
  revert c; decide +kernel
theorem off72_eq (c : Dev nD) : k0_off72 c = ![cz c * 1024 + cx c * 512 + cy c * 256, 1792] := by
  revert c; decide +kernel
theorem off73_eq (c : Dev nD) : k0_off73 c = ![cx c * 1024 + cy c * 512 + cz c * 256, 0] := by
  revert c; decide +kernel
theorem off74_eq (c : Dev nD) : k0_off74 c = ![cy c * 1024 + cz c * 512 + cx c * 256, 0] := by
  revert c; decide +kernel
theorem off75_eq (c : Dev nD) : k0_off75 c = ![cz c * 1024 + cx c * 512 + cy c * 256, 0] := by
  revert c; decide +kernel
theorem off76_eq (c : Dev nD) : k0_off76 c = ![cy c * 1024 + cz c * 512 + cx c * 256, 0] := by
  revert c; decide +kernel
theorem off77_eq (c : Dev nD) : k0_off77 c = ![cz c * 1024 + cx c * 512 + cy c * 256, 0] := by
  revert c; decide +kernel
theorem off78_eq (c : Dev nD) : k0_off78 c = ![cx c * 1024 + cy c * 512, 0] := by
  revert c; decide +kernel
theorem off79_eq (c : Dev nD) : k0_off79 c = ![cx c * 1024 + cy c * 512 + (1 - cz c) * 256, 0] := by
  revert c; decide +kernel
theorem off80_eq (c : Dev nD) : k0_off80 c = ![cx c * 1024 + cy c * 512 + (1 - cz c) * 256, 0] := by
  revert c; decide +kernel
theorem off81_eq (c : Dev nD) : k0_off81 c = ![cx c * 1024 + cy c * 512 + (1 - cz c) * 256, 0] := by
  revert c; decide +kernel
theorem off82_eq (c : Dev nD) : k0_off82 c = ![cy c * 1024 + cz c * 512, 0] := by
  revert c; decide +kernel
theorem off83_eq (c : Dev nD) : k0_off83 c = ![cy c * 1024 + cz c * 512 + (1 - cx c) * 256, 0] := by
  revert c; decide +kernel
theorem off84_eq (c : Dev nD) : k0_off84 c = ![cy c * 1024 + cz c * 512 + (1 - cx c) * 256, 384] := by
  revert c; decide +kernel
theorem off85_eq (c : Dev nD) : k0_off85 c = ![cy c * 1024 + cz c * 512 + (1 - cx c) * 256, 384] := by
  revert c; decide +kernel
theorem off86_eq (c : Dev nD) : k0_off86 c = ![cz c * 1024 + cx c * 512, 0] := by
  revert c; decide +kernel
theorem off87_eq (c : Dev nD) : k0_off87 c = ![cz c * 1024 + cx c * 512 + (1 - cy c) * 256, 0] := by
  revert c; decide +kernel
theorem off88_eq (c : Dev nD) : k0_off88 c = ![cz c * 1024 + cx c * 512 + (1 - cy c) * 256, 768] := by
  revert c; decide +kernel
theorem off89_eq (c : Dev nD) : k0_off89 c = ![cz c * 1024 + cx c * 512 + (1 - cy c) * 256, 768] := by
  revert c; decide +kernel
theorem off90_eq (c : Dev nD) : k0_off90 c = ![cx c * 1024 + cy c * 512 + (1 - cz c) * 256, 1152] := by
  revert c; decide +kernel
theorem off91_eq (c : Dev nD) : k0_off91 c = ![cx c * 1024 + cy c * 512 + (1 - cz c) * 256, 1152] := by
  revert c; decide +kernel
theorem off92_eq (c : Dev nD) : k0_off92 c = ![cy c * 1024 + cz c * 512, 0] := by
  revert c; decide +kernel
theorem off93_eq (c : Dev nD) : k0_off93 c = ![cy c * 1024 + cz c * 512 + (1 - cx c) * 256, 0] := by
  revert c; decide +kernel
theorem off94_eq (c : Dev nD) : k0_off94 c = ![cy c * 1024 + cz c * 512 + (1 - cx c) * 256, 1536] := by
  revert c; decide +kernel
theorem off95_eq (c : Dev nD) : k0_off95 c = ![cy c * 1024 + cz c * 512 + (1 - cx c) * 256, 1536] := by
  revert c; decide +kernel
theorem off96_eq (c : Dev nD) : k0_off96 c = ![cz c * 1024 + cx c * 512, 0] := by
  revert c; decide +kernel
theorem off97_eq (c : Dev nD) : k0_off97 c = ![cz c * 1024 + cx c * 512 + (1 - cy c) * 256, 0] := by
  revert c; decide +kernel
theorem off98_eq (c : Dev nD) : k0_off98 c = ![cz c * 1024 + cx c * 512 + (1 - cy c) * 256, 1792] := by
  revert c; decide +kernel
theorem off99_eq (c : Dev nD) : k0_off99 c = ![cz c * 1024 + cx c * 512 + (1 - cy c) * 256, 1792] := by
  revert c; decide +kernel
theorem off100_eq (c : Dev nD) : k0_off100 c = ![cx c * 1024, 0] := by
  revert c; decide +kernel
theorem off101_eq (c : Dev nD) : k0_off101 c = ![cx c * 1024 + (1 - cy c) * 512, 0] := by
  revert c; decide +kernel
theorem off102_eq (c : Dev nD) : k0_off102 c = ![cx c * 1024 + (1 - cy c) * 512, 0] := by
  revert c; decide +kernel
theorem off103_eq (c : Dev nD) : k0_off103 c = ![cx c * 1024 + (1 - cy c) * 512, 0] := by
  revert c; decide +kernel
theorem off104_eq (c : Dev nD) : k0_off104 c = ![cy c * 1024, 0] := by
  revert c; decide +kernel
theorem off105_eq (c : Dev nD) : k0_off105 c = ![cy c * 1024 + (1 - cz c) * 512, 0] := by
  revert c; decide +kernel
theorem off106_eq (c : Dev nD) : k0_off106 c = ![cy c * 1024 + (1 - cz c) * 512, 384] := by
  revert c; decide +kernel
theorem off107_eq (c : Dev nD) : k0_off107 c = ![cy c * 1024 + (1 - cz c) * 512, 384] := by
  revert c; decide +kernel
theorem off108_eq (c : Dev nD) : k0_off108 c = ![cz c * 1024, 0] := by
  revert c; decide +kernel
theorem off109_eq (c : Dev nD) : k0_off109 c = ![cz c * 1024 + (1 - cx c) * 512, 0] := by
  revert c; decide +kernel
theorem off110_eq (c : Dev nD) : k0_off110 c = ![cz c * 1024 + (1 - cx c) * 512, 768] := by
  revert c; decide +kernel
theorem off111_eq (c : Dev nD) : k0_off111 c = ![cz c * 1024 + (1 - cx c) * 512, 768] := by
  revert c; decide +kernel
theorem off112_eq (c : Dev nD) : k0_off112 c = ![cx c * 1024 + (1 - cy c) * 512, 1152] := by
  revert c; decide +kernel
theorem off113_eq (c : Dev nD) : k0_off113 c = ![cx c * 1024 + (1 - cy c) * 512, 1152] := by
  revert c; decide +kernel
theorem off114_eq (c : Dev nD) : k0_off114 c = ![cy c * 1024, 0] := by
  revert c; decide +kernel
theorem off115_eq (c : Dev nD) : k0_off115 c = ![cy c * 1024 + (1 - cz c) * 512, 0] := by
  revert c; decide +kernel
theorem off116_eq (c : Dev nD) : k0_off116 c = ![cy c * 1024 + (1 - cz c) * 512, 1536] := by
  revert c; decide +kernel
theorem off117_eq (c : Dev nD) : k0_off117 c = ![cy c * 1024 + (1 - cz c) * 512, 1536] := by
  revert c; decide +kernel
theorem off118_eq (c : Dev nD) : k0_off118 c = ![cz c * 1024, 0] := by
  revert c; decide +kernel
theorem off119_eq (c : Dev nD) : k0_off119 c = ![cz c * 1024 + (1 - cx c) * 512, 0] := by
  revert c; decide +kernel
theorem off120_eq (c : Dev nD) : k0_off120 c = ![cz c * 1024 + (1 - cx c) * 512, 1792] := by
  revert c; decide +kernel
theorem off121_eq (c : Dev nD) : k0_off121 c = ![cz c * 1024 + (1 - cx c) * 512, 1792] := by
  revert c; decide +kernel
theorem off122_eq (c : Dev nD) : k0_off122 c = ![(1 - cx c) * 1024, 0] := by
  revert c; decide +kernel
theorem off123_eq (c : Dev nD) : k0_off123 c = ![(1 - cx c) * 1024, 0] := by
  revert c; decide +kernel
theorem off124_eq (c : Dev nD) : k0_off124 c = ![(1 - cx c) * 1024, 0] := by
  revert c; decide +kernel
theorem off125_eq (c : Dev nD) : k0_off125 c = ![(1 - cy c) * 1024, 0] := by
  revert c; decide +kernel
theorem off126_eq (c : Dev nD) : k0_off126 c = ![(1 - cy c) * 1024, 384] := by
  revert c; decide +kernel
theorem off127_eq (c : Dev nD) : k0_off127 c = ![(1 - cy c) * 1024, 384] := by
  revert c; decide +kernel
theorem off128_eq (c : Dev nD) : k0_off128 c = ![(1 - cz c) * 1024, 0] := by
  revert c; decide +kernel
theorem off129_eq (c : Dev nD) : k0_off129 c = ![(1 - cz c) * 1024, 768] := by
  revert c; decide +kernel
theorem off130_eq (c : Dev nD) : k0_off130 c = ![(1 - cz c) * 1024, 768] := by
  revert c; decide +kernel
theorem off131_eq (c : Dev nD) : k0_off131 c = ![(1 - cx c) * 1024, 1152] := by
  revert c; decide +kernel
theorem off132_eq (c : Dev nD) : k0_off132 c = ![(1 - cx c) * 1024, 1152] := by
  revert c; decide +kernel
theorem off133_eq (c : Dev nD) : k0_off133 c = ![(1 - cy c) * 1024, 0] := by
  revert c; decide +kernel
theorem off134_eq (c : Dev nD) : k0_off134 c = ![(1 - cy c) * 1024, 1536] := by
  revert c; decide +kernel
theorem off135_eq (c : Dev nD) : k0_off135 c = ![(1 - cy c) * 1024, 1536] := by
  revert c; decide +kernel
theorem off136_eq (c : Dev nD) : k0_off136 c = ![(1 - cz c) * 1024, 0] := by
  revert c; decide +kernel
theorem off137_eq (c : Dev nD) : k0_off137 c = ![(1 - cz c) * 1024, 1792] := by
  revert c; decide +kernel
theorem off138_eq (c : Dev nD) : k0_off138 c = ![(1 - cz c) * 1024, 1792] := by
  revert c; decide +kernel

end Cert.Kernel.Topo
-- ==== Proof.PiecesBits.lean ====
/-
The pieces of the scratch buffers as sets of indices: which pieces are disjoint, which tile a buffer, and
how a device's rows of the all-gather buffer double from step to step by joining with the rows of the
neighbour across the step's axis. With them, the lemma that cuts a points-to along a disjoint union.
-/
import proofs.«900882_g7700000000000883_dist_matmul_gelu_kshard_i_m2048_n2048_k1024_v7x_i8_f32_1_alg».proof.Proof.SchedTabBits
import proofs.«900882_g7700000000000883_dist_matmul_gelu_kshard_i_m2048_n2048_k1024_v7x_i8_f32_1_alg».proof.Proof.TopoBitsTab

noncomputable section

namespace Cert.Kernel.Proto

open Cert.Kernel Cert.Kernel.Gen Cert.Kernel.Topo
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ × URounds (GSem nD τ sig) (Fin 3)) ℕ

/-- A points-to over a disjoint union is the two points-to's side by side. -/
theorem pts_union {ℓ : Loc nD τ sig} {S1 S2 : Finset (Idx ℓ)} {q : PosShare TreeShare} {f : Buf (Elt F) ℓ}
    (h : Disjoint S1 S2) :
    (ℓ ↦[S1 ∪ S2]{q} f : sProp 𝕄) ⊣⊢ iprop((ℓ ↦[S1]{q} f) ∗ (ℓ ↦[S2]{q} f)) :=
  Region.is_union h

/-- Contents that agree on the set give the same points-to. -/
theorem pts_congr {ℓ : Loc nD τ sig} {S : Finset (Idx ℓ)} {q : PosShare TreeShare} {f g : Buf (Elt F) ℓ}
    (h : ∀ i ∈ S, f i = g i) :
    (ℓ ↦[S]{q} f : sProp 𝕄) = (ℓ ↦[S]{q} g) :=
  Region.is_congr h

/-! ### Rectangles in an `n x w` array

A unit-stride rectangle is the product of a row range and a column range, so the set facts below are
facts about intervals of naturals. -/

section Rows

variable {n w : ℕ}

/-- Rectangles whose row ranges lie apart are disjoint. -/
theorem unit_disjoint_rows {o o' z z' : Fin 2 → ℕ} {inb inb'}
    (h : o 0 + z 0 ≤ o' 0 ∨ o' 0 + z' 0 ≤ o 0) :
    Disjoint (Rect.unit (s := ⟨2, ![n, w]⟩) o z inb).set (Rect.unit (s := ⟨2, ![n, w]⟩) o' z' inb').set :=
  Rect.unit_disjoint 0 h

/-- Rectangles whose column ranges lie apart are disjoint. -/
theorem unit_disjoint_cols {o o' z z' : Fin 2 → ℕ} {inb inb'}
    (h : o 1 + z 1 ≤ o' 1 ∨ o' 1 + z' 1 ≤ o 1) :
    Disjoint (Rect.unit (s := ⟨2, ![n, w]⟩) o z inb).set (Rect.unit (s := ⟨2, ![n, w]⟩) o' z' inb').set :=
  Rect.unit_disjoint 1 h

/-- Two rectangles with the same columns and adjacent row ranges make up the rectangle over the joined
    row range (the first may sit above or below the second). -/
theorem unit_union_rows {o o1 o2 z z1 z2 : Fin 2 → ℕ} {inb inb1 inb2}
    (h : (o1 1 = o 1 ∧ o2 1 = o 1 ∧ z1 1 = z 1 ∧ z2 1 = z 1) ∧
      (o1 0 = o 0 ∧ o2 0 = o 0 + z1 0 ∨ o2 0 = o 0 ∧ o1 0 = o 0 + z2 0) ∧ z 0 = z1 0 + z2 0) :
    (Rect.unit (s := ⟨2, ![n, w]⟩) o z inb).set
      = (Rect.unit (s := ⟨2, ![n, w]⟩) o1 z1 inb1).set ∪ (Rect.unit (s := ⟨2, ![n, w]⟩) o2 z2 inb2).set := by
  ext i
  simp only [Finset.mem_union, Rect.mem_set_unit, Fin.forall_fin_two]
  omega

/-- A rectangle that starts at the origin and has the array's extents is the whole array. -/
theorem unit_eq_univ {o z : Fin 2 → ℕ} {inb} (h : (o 0 = 0 ∧ o 1 = 0) ∧ z 0 = n ∧ z 1 = w) :
    (Rect.unit (s := ⟨2, ![n, w]⟩) o z inb).set = Finset.univ := by
  ext i
  simp only [Rect.mem_set_unit, Fin.forall_fin_two, Finset.mem_univ, iff_true]
  have h0 : (i 0 : ℕ) < n := (i 0).isLt
  have h1 : (i 1 : ℕ) < w := (i 1).isLt
  omega

/-- Two rectangles over all columns whose row ranges are adjacent and together run over all rows make up
    the whole array. -/
theorem unit_union_univ {o1 o2 z1 z2 : Fin 2 → ℕ} {inb1 inb2}
    (h : (o1 1 = 0 ∧ o2 1 = 0 ∧ z1 1 = w ∧ z2 1 = w) ∧
      (o1 0 = 0 ∧ o2 0 = z1 0 ∨ o2 0 = 0 ∧ o1 0 = z2 0) ∧ z1 0 + z2 0 = n) :
    (Rect.unit (s := ⟨2, ![n, w]⟩) o1 z1 inb1).set ∪ (Rect.unit (s := ⟨2, ![n, w]⟩) o2 z2 inb2).set
      = Finset.univ := by
  ext i
  simp only [Finset.mem_union, Rect.mem_set_unit, Fin.forall_fin_two, Finset.mem_univ, iff_true]
  have h0 : (i 0 : ℕ) < n := (i 0).isLt
  have h1 : (i 1 : ℕ) < w := (i 1).isLt
  omega

/-- Three rectangles over all columns whose row ranges follow one another from row 0 to the last row
    make up the whole array. -/
theorem unit_union3_univ {o1 o2 o3 z1 z2 z3 : Fin 2 → ℕ} {inb1 inb2 inb3}
    (h : ((o1 1 = 0 ∧ o2 1 = 0 ∧ o3 1 = 0) ∧ z1 1 = w ∧ z2 1 = w ∧ z3 1 = w) ∧
      o1 0 = 0 ∧ o2 0 = z1 0 ∧ o3 0 = z1 0 + z2 0 ∧ z1 0 + z2 0 + z3 0 = n) :
    (Rect.unit (s := ⟨2, ![n, w]⟩) o1 z1 inb1).set ∪ (Rect.unit (s := ⟨2, ![n, w]⟩) o2 z2 inb2).set
        ∪ (Rect.unit (s := ⟨2, ![n, w]⟩) o3 z3 inb3).set
      = Finset.univ := by
  ext i
  simp only [Finset.mem_union, Rect.mem_set_unit, Fin.forall_fin_two, Finset.mem_univ, iff_true]
  have h0 : (i 0 : ℕ) < n := (i 0).isLt
  have h1 : (i 1 : ℕ) < w := (i 1).isLt
  omega

/-- A rectangle inside another, axis by axis. -/
theorem unit_subset {o o' z z' : Fin 2 → ℕ} {inb inb'}
    (h : (o' 0 ≤ o 0 ∧ o 0 + z 0 ≤ o' 0 + z' 0) ∧ (o' 1 ≤ o 1 ∧ o 1 + z 1 ≤ o' 1 + z' 1)) :
    (Rect.unit (s := ⟨2, ![n, w]⟩) o z inb).set ⊆ (Rect.unit (s := ⟨2, ![n, w]⟩) o' z' inb').set := by
  intro i
  simp only [Rect.mem_set_unit, Fin.forall_fin_two]
  omega

end Rows

/-! ### How the table of cases is closed

Every piece is a slice of a whole buffer, so its set of indices is its rectangle. At literal rows the
hypothesis of the lemma above is a closed statement about numbers. At a device's rows it is a statement
about the closed forms of the row offsets, linear in the device's three coordinates, each 0 or 1; the
neighbour's coordinates are the device's with one of them flipped. -/

/-- A fact about pieces at literal rows: read the sets as rectangles and apply the lemma, its hypotheses
    being closed statements about numbers. -/
macro "piece_lit " t:term : tactic =>
  `(tactic| (simp only [View.set_slice_whole]; exact $t))

/-- The arithmetic of a device's row offsets: the closed forms `ls`, the neighbour's coordinates, and the
    coordinates being at most 1. -/
macro "piece_arith " c:ident " [" ls:Lean.Parser.Tactic.simpLemma,* "]" : tactic =>
  `(tactic| (
    simp only [$ls,*, cx_nbr0, cy_nbr0, cz_nbr0, cx_nbr1, cy_nbr1, cz_nbr1, cx_nbr2, cy_nbr2, cz_nbr2,
      Matrix.cons_val_zero, Matrix.cons_val_one, and_true, true_and, and_self]
    have := cx_le $c
    have := cy_le $c
    have := cz_le $c
    omega))

/-- A fact about pieces at a device's rows. -/
macro "piece_dev " c:ident t:ident " [" ls:Lean.Parser.Tactic.simpLemma,* "]" : tactic =>
  `(tactic| (simp only [View.set_slice_whole]; refine $t ?_; piece_arith $c [$ls,*]))

end Cert.Kernel.Proto

end
-- ==== Proof.PiecesOutBits.lean ====
/-
The 24 copies of finished result blocks, as sets of indices of the 2048 x 2048 accumulator and of the
result array: copy j = 6 l + k moves the rows of level l in the columns of group k. For a device with
coordinates (p, q, r) along the axes k, k + 1, k + 2 (mod 3) the levels are its own 256 rows, the 256 rows
of the sibling block, the other 512 rows of its half and the other half: four row ranges that tile 0..2048;
the six column groups tile the columns. So the 24 sets are pairwise disjoint and make up the whole array.
-/
import proofs.«900882_g7700000000000883_dist_matmul_gelu_kshard_i_m2048_n2048_k1024_v7x_i8_f32_1_alg».proof.Proof.PiecesBits
import Mathlib.Algebra.BigOperators.Fin

noncomputable section

namespace Cert.Kernel.Proto

open Cert.Kernel Cert.Kernel.Gen Cert.Kernel.Topo
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ × URounds (GSem nD τ sig) (Fin 3)) ℕ

/-- The device's coordinate along axis `a` (mod 3). -/
def coordN (c : Dev nD) (a : ℕ) : ℕ := if a % 3 = 0 then cx c else if a % 3 = 1 then cy c else cz c

/-- The first row of copy `j`: with `k = j % 6` and `(p, q, r)` the coordinates along `k, k + 1, k + 2`,
    level 0 is the device's own block `1024 p + 512 q + 256 r`, level 1 its sibling (`r` flipped), level 2
    the other 512 rows of its half (`q` flipped) and level 3 the other half (`p` flipped). -/
def outRow (c : Dev nD) (j : Fin 24) : ℕ :=
  match j.val / 6 with
  | 0 => coordN c (j.val % 6) * 1024 + coordN c (j.val % 6 + 1) * 512 + coordN c (j.val % 6 + 2) * 256
  | 1 => coordN c (j.val % 6) * 1024 + coordN c (j.val % 6 + 1) * 512 + (1 - coordN c (j.val % 6 + 2)) * 256
  | 2 => coordN c (j.val % 6) * 1024 + (1 - coordN c (j.val % 6 + 1)) * 512
  | _ => (1 - coordN c (j.val % 6)) * 1024
/-- How many rows copy `j` moves. -/
def outRowH (j : Fin 24) : ℕ :=
  match j.val / 6 with
  | 0 => 256
  | 1 => 256
  | 2 => 512
  | _ => 1024
/-- The first column of copy `j`'s column group. -/
def outColLo (j : Fin 24) : ℕ :=
  match j.val % 6 with
  | 0 => 0
  | 1 => 384
  | 2 => 768
  | 3 => 1152
  | 4 => 1536
  | _ => 1792
/-- The width of copy `j`'s column group. -/
def outColW (j : Fin 24) : ℕ := if j.val % 6 < 4 then 384 else 256

/-- Every copy stays inside the array (evaluated over the 8 devices and 24 copies). -/
theorem out_inb : ∀ (c : Dev nD) (j : Fin 24) (a : Fin 2),
    (![outRow c j, outColLo j] : Fin 2 → ℕ) a + (![outRowH j, outColW j] : Fin 2 → ℕ) a ≤ S2048x2048.size a := by
  decide +kernel

/-- Two different copies are apart in their rows or in their columns (evaluated over the 8 devices and the
    pairs of copies). -/
theorem out_apart : ∀ (c : Dev nD) (j j' : Fin 24), j ≠ j' →
    (outRow c j + outRowH j ≤ outRow c j' ∨ outRow c j' + outRowH j' ≤ outRow c j) ∨
    (outColLo j + outColW j ≤ outColLo j' ∨ outColLo j' + outColW j' ≤ outColLo j) := by
  decide +kernel

/-- The rectangle of copy `j` of device `c`. -/
def outRect (c : Dev nD) (j : Fin 24) : Rect S2048x2048 :=
  Rect.unit ![outRow c j, outColLo j] ![outRowH j, outColW j] (out_inb c j)

/-- The indices copy `j` of device `c` moves (the same in the accumulator and in the result array). -/
def outSet (c : Dev nD) (j : Fin 24) : Finset S2048x2048.Idx := (outRect c j).set

theorem outSet_disjoint (c : Dev nD) : ∀ j j' : Fin 24, j ≠ j' → Disjoint (outSet c j) (outSet c j') := by
  intro j j' h
  rcases out_apart c j j' h with h0 | h1
  · exact Rect.unit_disjoint 0 h0
  · exact Rect.unit_disjoint 1 h1

theorem outSet_card (c : Dev nD) (j : Fin 24) : (outSet c j).card = outRowH j * outColW j := by
  unfold outSet outRect
  rw [Rect.card_set]
  simp [Shape.numel, Fin.prod_univ_two]

/-- Pairwise disjoint sets whose sizes add up to the size of the array make up the array. -/
theorem outSet_cover (c : Dev nD) : Finset.univ.biUnion (outSet c) = Finset.univ := by
  apply Shape.eq_univ_of_card
  rw [Finset.card_biUnion (fun j _ j' _ h => outSet_disjoint c j j' h)]
  simp only [outSet_card]
  decide +kernel

/-- Rectangles at equal offsets and sizes are the same set. -/
theorem unit_set_congr {s : Shape} {o o' z z' : Fin s.rank → ℕ} {inb inb'} (ho : o = o') (hz : z = z') :
    (Rect.unit (s := s) o z inb).set = (Rect.unit (s := s) o' z' inb').set := by
  subst ho; subst hz; rfl

/-- A printed piece is copy `j`'s set once its offset is put in closed form. -/
macro "piece_out " l:term : tactic =>
  `(tactic| (rw [View.set_slice_whole]; exact unit_set_congr (by rw [$l:term]; rfl) rfl))

end Cert.Kernel.Proto

end
-- ==== Proof.PiecesOutTabBits.lean ====
/-
Each printed piece of the accumulator and of the result array that a copy of finished result blocks
moves is that copy's set of indices: its offset function in closed form is the copy's first row and
first column.
-/
import proofs.«900882_g7700000000000883_dist_matmul_gelu_kshard_i_m2048_n2048_k1024_v7x_i8_f32_1_alg».proof.Proof.PiecesOutBits

noncomputable section

namespace Cert.Kernel.Proto

open Cert.Kernel Cert.Kernel.Gen Cert.Kernel.Topo
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

theorem outSrc_set_0 (c : Dev nD) : (outSrcM0 c).view.set = outSet c 0 := by piece_out off59_eq
theorem outDst_set_0 (c : Dev nD) : (outDstM0 c).view.set = outSet c 0 := by piece_out off59_eq
theorem outSrc_set_1 (c : Dev nD) : (outSrcM1 c).view.set = outSet c 1 := by piece_out off62_eq
theorem outDst_set_1 (c : Dev nD) : (outDstM1 c).view.set = outSet c 1 := by piece_out off62_eq
theorem outSrc_set_2 (c : Dev nD) : (outSrcM2 c).view.set = outSet c 2 := by piece_out off65_eq
theorem outDst_set_2 (c : Dev nD) : (outDstM2 c).view.set = outSet c 2 := by piece_out off65_eq
theorem outSrc_set_3 (c : Dev nD) : (outSrcM3 c).view.set = outSet c 3 := by piece_out off66_eq
theorem outDst_set_3 (c : Dev nD) : (outDstM3 c).view.set = outSet c 3 := by piece_out off66_eq
theorem outSrc_set_4 (c : Dev nD) : (outSrcM4 c).view.set = outSet c 4 := by piece_out off69_eq
theorem outDst_set_4 (c : Dev nD) : (outDstM4 c).view.set = outSet c 4 := by piece_out off69_eq
theorem outSrc_set_5 (c : Dev nD) : (outSrcM5 c).view.set = outSet c 5 := by piece_out off72_eq
theorem outDst_set_5 (c : Dev nD) : (outDstM5 c).view.set = outSet c 5 := by piece_out off72_eq
theorem outSrc_set_6 (c : Dev nD) : (outSrcM6 c).view.set = outSet c 6 := by piece_out off81_eq
theorem outDst_set_6 (c : Dev nD) : (outDstM6 c).view.set = outSet c 6 := by piece_out off81_eq
theorem outSrc_set_7 (c : Dev nD) : (outSrcM7 c).view.set = outSet c 7 := by piece_out off85_eq
theorem outDst_set_7 (c : Dev nD) : (outDstM7 c).view.set = outSet c 7 := by piece_out off85_eq
theorem outSrc_set_8 (c : Dev nD) : (outSrcM8 c).view.set = outSet c 8 := by piece_out off89_eq
theorem outDst_set_8 (c : Dev nD) : (outDstM8 c).view.set = outSet c 8 := by piece_out off89_eq
theorem outSrc_set_9 (c : Dev nD) : (outSrcM9 c).view.set = outSet c 9 := by piece_out off91_eq
theorem outDst_set_9 (c : Dev nD) : (outDstM9 c).view.set = outSet c 9 := by piece_out off91_eq
theorem outSrc_set_10 (c : Dev nD) : (outSrcM10 c).view.set = outSet c 10 := by piece_out off95_eq
theorem outDst_set_10 (c : Dev nD) : (outDstM10 c).view.set = outSet c 10 := by piece_out off95_eq
theorem outSrc_set_11 (c : Dev nD) : (outSrcM11 c).view.set = outSet c 11 := by piece_out off99_eq
theorem outDst_set_11 (c : Dev nD) : (outDstM11 c).view.set = outSet c 11 := by piece_out off99_eq
theorem outSrc_set_12 (c : Dev nD) : (outSrcM12 c).view.set = outSet c 12 := by piece_out off103_eq
theorem outDst_set_12 (c : Dev nD) : (outDstM12 c).view.set = outSet c 12 := by piece_out off103_eq
theorem outSrc_set_13 (c : Dev nD) : (outSrcM13 c).view.set = outSet c 13 := by piece_out off107_eq
theorem outDst_set_13 (c : Dev nD) : (outDstM13 c).view.set = outSet c 13 := by piece_out off107_eq
theorem outSrc_set_14 (c : Dev nD) : (outSrcM14 c).view.set = outSet c 14 := by piece_out off111_eq
theorem outDst_set_14 (c : Dev nD) : (outDstM14 c).view.set = outSet c 14 := by piece_out off111_eq
theorem outSrc_set_15 (c : Dev nD) : (outSrcM15 c).view.set = outSet c 15 := by piece_out off113_eq
theorem outDst_set_15 (c : Dev nD) : (outDstM15 c).view.set = outSet c 15 := by piece_out off113_eq
theorem outSrc_set_16 (c : Dev nD) : (outSrcM16 c).view.set = outSet c 16 := by piece_out off117_eq
theorem outDst_set_16 (c : Dev nD) : (outDstM16 c).view.set = outSet c 16 := by piece_out off117_eq
theorem outSrc_set_17 (c : Dev nD) : (outSrcM17 c).view.set = outSet c 17 := by piece_out off121_eq
theorem outDst_set_17 (c : Dev nD) : (outDstM17 c).view.set = outSet c 17 := by piece_out off121_eq
theorem outSrc_set_18 (c : Dev nD) : (outSrcM18 c).view.set = outSet c 18 := by piece_out off124_eq
theorem outDst_set_18 (c : Dev nD) : (outDstM18 c).view.set = outSet c 18 := by piece_out off124_eq
theorem outSrc_set_19 (c : Dev nD) : (outSrcM19 c).view.set = outSet c 19 := by piece_out off127_eq
theorem outDst_set_19 (c : Dev nD) : (outDstM19 c).view.set = outSet c 19 := by piece_out off127_eq
theorem outSrc_set_20 (c : Dev nD) : (outSrcM20 c).view.set = outSet c 20 := by piece_out off130_eq
theorem outDst_set_20 (c : Dev nD) : (outDstM20 c).view.set = outSet c 20 := by piece_out off130_eq
theorem outSrc_set_21 (c : Dev nD) : (outSrcM21 c).view.set = outSet c 21 := by piece_out off132_eq
theorem outDst_set_21 (c : Dev nD) : (outDstM21 c).view.set = outSet c 21 := by piece_out off132_eq
theorem outSrc_set_22 (c : Dev nD) : (outSrcM22 c).view.set = outSet c 22 := by piece_out off135_eq
theorem outDst_set_22 (c : Dev nD) : (outDstM22 c).view.set = outSet c 22 := by piece_out off135_eq
theorem outSrc_set_23 (c : Dev nD) : (outSrcM23 c).view.set = outSet c 23 := by piece_out off138_eq
theorem outDst_set_23 (c : Dev nD) : (outDstM23 c).view.set = outSet c 23 := by piece_out off138_eq

end Cert.Kernel.Proto

end
-- ==== Proof.PiecesOutSepBits.lean ====
/-
The accumulator and the result array, held whole, are held copy by copy over the 24 sets of the copies of
finished result blocks; and the copies' sets, held each at contents of its own, join to the whole array.
-/
import proofs.«900882_g7700000000000883_dist_matmul_gelu_kshard_i_m2048_n2048_k1024_v7x_i8_f32_1_alg».proof.Proof.PiecesOutTabBits

noncomputable section

namespace Cert.Kernel.Proto

open Cert.Kernel Cert.Kernel.Gen Cert.Kernel.Topo
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ × URounds (GSem nD τ sig) (Fin 3)) ℕ

/-- The accumulator held whole is held copy by copy. -/
theorem outSrc_blocks (c : Dev nD) {q : PosShare TreeShare}
    (f : Buf (Elt F) ((Memref.whole cc0_scratch0).view.loc (c : Thread nD τ))) :
    ((Memref.whole cc0_scratch0).view.loc (c : Thread nD τ) ↦{q} f : sProp 𝕄)
      = bigSep Finset.univ fun j => (Memref.whole cc0_scratch0).view.loc (c : Thread nD τ) ↦[outSet c j]{q} f := by
  have hc : (Finset.univ.biUnion (outSet c) : Finset (Idx ((Memref.whole cc0_scratch0).view.loc (c : Thread nD τ))))
      = Finset.univ := outSet_cover c
  rw [← hc]
  exact pointsTo_biUnion (ℓ := (Memref.whole cc0_scratch0).view.loc (c : Thread nD τ)) Finset.univ (outSet c)
    (fun j _ j' _ h => outSet_disjoint c j j' h)

/-- The copies' sets, each held at contents of its own, join to the accumulator held whole at contents that
    agree with each on its set. -/
theorem outSrc_join (c : Dev nD) {q : PosShare TreeShare}
    (fs : Fin 24 → Buf (Elt F) ((Memref.whole cc0_scratch0).view.loc (c : Thread nD τ)))
    (f₀ : Buf (Elt F) ((Memref.whole cc0_scratch0).view.loc (c : Thread nD τ))) :
    bigSep Finset.univ (fun j => (Memref.whole cc0_scratch0).view.loc (c : Thread nD τ) ↦[outSet c j]{q} fs j)
      ⊢ (iprop(∃ g, ⌜∀ j : Fin 24, ∀ i ∈ outSet c j, g i = fs j i⌝
          ∗ (Memref.whole cc0_scratch0).view.loc (c : Thread nD τ) ↦{q} g) : sProp 𝕄) := by
  have hc : (Finset.univ.biUnion (outSet c) : Finset (Idx ((Memref.whole cc0_scratch0).view.loc (c : Thread nD τ))))
      = Finset.univ := outSet_cover c
  refine (pointsTo_biUnion_join (ℓ := (Memref.whole cc0_scratch0).view.loc (c : Thread nD τ)) Finset.univ (outSet c) fs f₀
    (fun j _ j' _ h => outSet_disjoint c j j' h)).trans ?_
  rw [hc]
  iintro ⟨%g, %hg, H⟩
  iexists g
  isplitr
  · ipureintro; exact fun j => hg j (Finset.mem_univ j)
  · iexact H

/-- The result array held whole is held copy by copy. -/
theorem outDst_blocks (c : Dev nD) {q : PosShare TreeShare}
    (f : Buf (Elt F) ((Memref.whole main_v1).view.loc (c : Thread nD τ))) :
    ((Memref.whole main_v1).view.loc (c : Thread nD τ) ↦{q} f : sProp 𝕄)
      = bigSep Finset.univ fun j => (Memref.whole main_v1).view.loc (c : Thread nD τ) ↦[outSet c j]{q} f := by
  have hc : (Finset.univ.biUnion (outSet c) : Finset (Idx ((Memref.whole main_v1).view.loc (c : Thread nD τ))))
      = Finset.univ := outSet_cover c
  rw [← hc]
  exact pointsTo_biUnion (ℓ := (Memref.whole main_v1).view.loc (c : Thread nD τ)) Finset.univ (outSet c)
    (fun j _ j' _ h => outSet_disjoint c j j' h)

/-- The copies' sets, each held at contents of its own, join to the result array held whole at contents that
    agree with each on its set. -/
theorem outDst_join (c : Dev nD) {q : PosShare TreeShare}
    (fs : Fin 24 → Buf (Elt F) ((Memref.whole main_v1).view.loc (c : Thread nD τ)))
    (f₀ : Buf (Elt F) ((Memref.whole main_v1).view.loc (c : Thread nD τ))) :
    bigSep Finset.univ (fun j => (Memref.whole main_v1).view.loc (c : Thread nD τ) ↦[outSet c j]{q} fs j)
      ⊢ (iprop(∃ g, ⌜∀ j : Fin 24, ∀ i ∈ outSet c j, g i = fs j i⌝
          ∗ (Memref.whole main_v1).view.loc (c : Thread nD τ) ↦{q} g) : sProp 𝕄) := by
  have hc : (Finset.univ.biUnion (outSet c) : Finset (Idx ((Memref.whole main_v1).view.loc (c : Thread nD τ))))
      = Finset.univ := outSet_cover c
  refine (pointsTo_biUnion_join (ℓ := (Memref.whole main_v1).view.loc (c : Thread nD τ)) Finset.univ (outSet c) fs f₀
    (fun j _ j' _ h => outSet_disjoint c j j' h)).trans ?_
  rw [hc]
  iintro ⟨%g, %hg, H⟩
  iexists g
  isplitr
  · ipureintro; exact fun j => hg j (Finset.mem_univ j)
  · iexact H

end Cert.Kernel.Proto

end
-- ==== Proof.EpilogueCutBits.lean ====
/-
Closing lemmas. A transfer cell whose one round is over closes: its counter, at zero, is the core's again.
Pieces of a buffer held at contents of their own join to the buffer held whole at some contents: two or three
pairwise disjoint pieces that cover it; a piece inside a piece inside the whole with the two remainders; and the
24 blocks of the accumulator or of the result array, the joined contents agreeing with each block's on its set
(so that what was known of a block's reading is known of the whole's).
-/
import proofs.«900882_g7700000000000883_dist_matmul_gelu_kshard_i_m2048_n2048_k1024_v7x_i8_f32_1_alg».proof.Proof.StartBits
import proofs.«900882_g7700000000000883_dist_matmul_gelu_kshard_i_m2048_n2048_k1024_v7x_i8_f32_1_alg».proof.Proof.PiecesBits
import proofs.«900882_g7700000000000883_dist_matmul_gelu_kshard_i_m2048_n2048_k1024_v7x_i8_f32_1_alg».proof.Proof.PiecesOutSepBits

noncomputable section

namespace Cert.Kernel.Proto

open Cert.Kernel Cert.Kernel.Gen Cert.Kernel.Topo
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : Vals F)

/-! ## Closing a cell -/

omit [FloatOps F] in
/-- Device c's cell κ, its one round over and nothing of a later round taken: the counter is back at zero. -/
theorem close_cell (c : Dev nD) (κ : CK) (κn : ℕ) :
    iprop(cellInv ER (sched V) κn (cell c κ) ∗ atPos ER (cell c κ) 1 ∅ 0) ⊢ (|={Set.univ}=> semVal (cell c κ) 0 : sProp 𝕄) :=
  Rounds.cell_close ER (sched V) (Set.mem_univ κn) (fun h => h) (R := 1) (duties_later V (cell c κ))

/-! ## Joining pieces -/

omit [FloatOps F] in
/-- Two disjoint pieces that cover the buffer. -/
theorem pts_join2 {ℓ : Loc nD τ sig} {A B : Finset (Idx ℓ)} {q : PosShare TreeShare} (fA fB : Buf (Elt F) ℓ)
    (hAB : Disjoint A B) (hcov : A ∪ B = Finset.univ) :
    iprop((ℓ ↦[A]{q} fA) ∗ (ℓ ↦[B]{q} fB)) ⊢ (iprop(∃ f, ℓ ↦{q} f) : sProp 𝕄) := by
  have h : iprop((ℓ ↦[A]{q} fA) ∗ (ℓ ↦[B]{q} fB)) ⊢ (ℓ ↦[A ∪ B]{q} (B.piecewise fB fA) : sProp 𝕄) := Region.is_join hAB
  iintro H
  ihave H' := h $$ H
  iexists (B.piecewise fB fA)
  rw [show (ℓ ↦{q} B.piecewise fB fA : sProp 𝕄) = (ℓ ↦[A ∪ B]{q} B.piecewise fB fA) from pts_set_eq hcov.symm]
  iexact H'

omit [FloatOps F] in
/-- Three pairwise disjoint pieces that cover the buffer. -/
theorem pts_join3 {ℓ : Loc nD τ sig} {A B C : Finset (Idx ℓ)} {q : PosShare TreeShare} (fA fB fC : Buf (Elt F) ℓ)
    (hAB : Disjoint A B) (hAC : Disjoint A C) (hBC : Disjoint B C) (hcov : A ∪ B ∪ C = Finset.univ) :
    iprop((ℓ ↦[A]{q} fA) ∗ (ℓ ↦[B]{q} fB) ∗ (ℓ ↦[C]{q} fC)) ⊢ (iprop(∃ f, ℓ ↦{q} f) : sProp 𝕄) := by
  have h : iprop((ℓ ↦[A]{q} fA) ∗ (ℓ ↦[B]{q} fB)) ⊢ (ℓ ↦[A ∪ B]{q} (B.piecewise fB fA) : sProp 𝕄) := Region.is_join hAB
  iintro ⟨HA, HB, HC⟩
  ihave HAB := h $$ [HA HB]
  · isplitl [HA] <;> iassumption
  iapply (pts_join2 (B.piecewise fB fA) fC (Finset.disjoint_union_left.mpr ⟨hAC, hBC⟩) hcov)
  isplitl [HAB] <;> iassumption

omit [FloatOps F] in
/-- A piece S2 inside a piece S1 inside the whole S0, with the two remainders. -/
theorem pts_join_nested {ℓ : Loc nD τ sig} {S2 S1 S0 : Finset (Idx ℓ)} {q : PosShare TreeShare} (f2 f1 f0 : Buf (Elt F) ℓ)
    (h21 : S2 ⊆ S1) (h10 : S1 ⊆ S0) (h0 : S0 = Finset.univ) :
    iprop((ℓ ↦[S2]{q} f2) ∗ (ℓ ↦[S1 \ S2]{q} f1) ∗ (ℓ ↦[S0 \ S1]{q} f0)) ⊢ (iprop(∃ f, ℓ ↦{q} f) : sProp 𝕄) := by
  have ha : iprop((ℓ ↦[S2]{q} f2) ∗ (ℓ ↦[S1 \ S2]{q} f1)) ⊢ (ℓ ↦[S1]{q} (S2.piecewise f2 f1) : sProp 𝕄) := pointsTo_join_subset h21
  have hb : iprop((ℓ ↦[S1]{q} (S2.piecewise f2 f1)) ∗ (ℓ ↦[S0 \ S1]{q} f0)) ⊢ (ℓ ↦[S0]{q} (S1.piecewise (S2.piecewise f2 f1) f0) : sProp 𝕄) :=
    pointsTo_join_subset h10
  iintro ⟨H2, H1, H0⟩
  ihave Ha := ha $$ [H2 H1]
  · isplitl [H2] <;> iassumption
  ihave Hb := hb $$ [Ha H0]
  · isplitl [Ha] <;> iassumption
  iexists (S1.piecewise (S2.piecewise f2 f1) f0)
  rw [show (ℓ ↦{q} S1.piecewise (S2.piecewise f2 f1) f0 : sProp 𝕄) = (ℓ ↦[S0]{q} S1.piecewise (S2.piecewise f2 f1) f0) from pts_set_eq h0.symm]
  iexact Hb

/-! ## The 24 blocks of the accumulator and of the result array -/

/-- The accumulator from its 24 blocks, each at some contents. -/
theorem acc_join (c : Dev nD) :
    (bigSep Finset.univ fun j : Fin 24 => iprop(∃ f : Buf (Elt F) ((Memref.whole cc0_scratch0).view.loc (c : Thread nD τ)),
        (Memref.whole cc0_scratch0).view.loc (c : Thread nD τ) ↦[outSet c j]{fullShare} f) : sProp 𝕄)
      ⊢ iprop(∃ g, (Memref.whole cc0_scratch0).view.loc (c : Thread nD τ) ↦{fullShare} g) := by
  iintro H
  ihave H' := (BI.bigSep_exists_pi Finset.univ (fun (j : Fin 24) (f : Buf (Elt F) ((Memref.whole cc0_scratch0).view.loc (c : Thread nD τ))) =>
    ((Memref.whole cc0_scratch0).view.loc (c : Thread nD τ) ↦[outSet c j]{fullShare} f : sProp 𝕄))) $$ H
  icases H' with ⟨%fs, H'⟩
  ihave H2 := (outSrc_join c fs (fs 0)) $$ H'
  icases H2 with ⟨%g, -, Hg⟩
  iexists g
  iexact Hg

/-- The result array from its 24 blocks, each at contents of which a fact P j is known that depends on the block's
    elements only: the fact is known of the joined contents. -/
theorem dst_join (c : Dev nD) (P : Fin 24 → Buf (Elt F) ((Memref.whole main_v1).view.loc (c : Thread nD τ)) → Prop)
    (hP : ∀ j f g, (∀ i ∈ outSet c j, g i = f i) → P j f → P j g) :
    (bigSep Finset.univ fun j : Fin 24 => iprop(∃ f : Buf (Elt F) ((Memref.whole main_v1).view.loc (c : Thread nD τ)),
        ((Memref.whole main_v1).view.loc (c : Thread nD τ) ↦[outSet c j]{fullShare} f) ∗ ⌜P j f⌝) : sProp 𝕄)
      ⊢ iprop(∃ g, ((Memref.whole main_v1).view.loc (c : Thread nD τ) ↦{fullShare} g) ∗ ⌜∀ j, P j g⌝) := by
  have hsw (j : Fin 24) : (iprop(∃ f : Buf (Elt F) ((Memref.whole main_v1).view.loc (c : Thread nD τ)),
        ((Memref.whole main_v1).view.loc (c : Thread nD τ) ↦[outSet c j]{fullShare} f) ∗ ⌜P j f⌝) : sProp 𝕄)
      ⊢ iprop(∃ f : Buf (Elt F) ((Memref.whole main_v1).view.loc (c : Thread nD τ)),
        ⌜P j f⌝ ∗ ((Memref.whole main_v1).view.loc (c : Thread nD τ) ↦[outSet c j]{fullShare} f)) := by
    iintro ⟨%f, Hf, %hp⟩
    iexists f
    isplitr; · ipureintro; exact hp
    iexact Hf
  have hswap : (bigSep Finset.univ fun j : Fin 24 => iprop(∃ f : Buf (Elt F) ((Memref.whole main_v1).view.loc (c : Thread nD τ)),
        ((Memref.whole main_v1).view.loc (c : Thread nD τ) ↦[outSet c j]{fullShare} f) ∗ ⌜P j f⌝) : sProp 𝕄)
      ⊢ bigSep Finset.univ fun j : Fin 24 => iprop(∃ f : Buf (Elt F) ((Memref.whole main_v1).view.loc (c : Thread nD τ)),
        ⌜P j f⌝ ∗ ((Memref.whole main_v1).view.loc (c : Thread nD τ) ↦[outSet c j]{fullShare} f)) :=
    bigSep_mono fun j _ => hsw j
  iintro H
  ihave H1 := hswap $$ H
  ihave H2 := (BI.bigSep_exists_pi Finset.univ (fun (j : Fin 24) (f : Buf (Elt F) ((Memref.whole main_v1).view.loc (c : Thread nD τ))) =>
    (iprop(⌜P j f⌝ ∗ ((Memref.whole main_v1).view.loc (c : Thread nD τ) ↦[outSet c j]{fullShare} f)) : sProp 𝕄))) $$ H1
  icases H2 with ⟨%fs, H2⟩
  ihave H3 := (BI.bigSep_pure_sep Finset.univ (fun j : Fin 24 => P j (fs j))
    (fun j => ((Memref.whole main_v1).view.loc (c : Thread nD τ) ↦[outSet c j]{fullShare} fs j : sProp 𝕄))) $$ H2
  icases H3 with ⟨%hp, H3⟩
  ihave H4 := (outDst_join c fs (fs 0)) $$ H3
  icases H4 with ⟨%g, %hg, Hg⟩
  iexists g
  isplitl [Hg]; · iexact Hg
  ipureintro
  exact fun j => hP j (fs j) g (hg j) (hp j (Finset.mem_univ j))

end Cert.Kernel.Proto

end
-- ==== Proof.PrologueTabBits.lean ====
/-
The starting state of a device's body, member by member, in literal spelling: the records of its own 97 cells and
of the 39 cells it pays on its neighbours; the tokens of the duties it pays; its positions; its launch credit; and
its buffers, cut the way the protocol uses them. Each block equals the compact form the launch hands over.
-/
import proofs.«900882_g7700000000000883_dist_matmul_gelu_kshard_i_m2048_n2048_k1024_v7x_i8_f32_1_alg».proof.Proof.StartBits

set_option maxRecDepth 100000

noncomputable section

namespace Cert.Kernel.Proto

open Cert.Kernel Cert.Kernel.Gen Cert.Kernel.Topo
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (V : Vals F)

/-! ## The numberings at literals -/

theorem ckOf_lit_0 : ckOf 0 = CK.bar := by decide
theorem ckOf_lit_1 : ckOf 1 = CK.rsS 0 0 := by decide
theorem ckOf_lit_2 : ckOf 2 = CK.rsS 0 1 := by decide
theorem ckOf_lit_3 : ckOf 3 = CK.rsS 0 2 := by decide
theorem ckOf_lit_4 : ckOf 4 = CK.rsS 1 0 := by decide
theorem ckOf_lit_5 : ckOf 5 = CK.rsS 1 1 := by decide
theorem ckOf_lit_6 : ckOf 6 = CK.rsS 1 2 := by decide
theorem ckOf_lit_7 : ckOf 7 = CK.rsS 2 0 := by decide
theorem ckOf_lit_8 : ckOf 8 = CK.rsS 2 1 := by decide
theorem ckOf_lit_9 : ckOf 9 = CK.rsS 2 2 := by decide
theorem ckOf_lit_10 : ckOf 10 = CK.rsS 3 0 := by decide
theorem ckOf_lit_11 : ckOf 11 = CK.rsS 3 1 := by decide
theorem ckOf_lit_12 : ckOf 12 = CK.rsS 3 2 := by decide
theorem ckOf_lit_13 : ckOf 13 = CK.rsS 4 0 := by decide
theorem ckOf_lit_14 : ckOf 14 = CK.rsS 4 1 := by decide
theorem ckOf_lit_15 : ckOf 15 = CK.rsS 4 2 := by decide
theorem ckOf_lit_16 : ckOf 16 = CK.rsS 5 0 := by decide
theorem ckOf_lit_17 : ckOf 17 = CK.rsS 5 1 := by decide
theorem ckOf_lit_18 : ckOf 18 = CK.rsS 5 2 := by decide
theorem ckOf_lit_19 : ckOf 19 = CK.rsR 0 0 := by decide
theorem ckOf_lit_20 : ckOf 20 = CK.rsR 0 1 := by decide
theorem ckOf_lit_21 : ckOf 21 = CK.rsR 0 2 := by decide
theorem ckOf_lit_22 : ckOf 22 = CK.rsR 1 0 := by decide
theorem ckOf_lit_23 : ckOf 23 = CK.rsR 1 1 := by decide
theorem ckOf_lit_24 : ckOf 24 = CK.rsR 1 2 := by decide
theorem ckOf_lit_25 : ckOf 25 = CK.rsR 2 0 := by decide
theorem ckOf_lit_26 : ckOf 26 = CK.rsR 2 1 := by decide
theorem ckOf_lit_27 : ckOf 27 = CK.rsR 2 2 := by decide
theorem ckOf_lit_28 : ckOf 28 = CK.rsR 3 0 := by decide
theorem ckOf_lit_29 : ckOf 29 = CK.rsR 3 1 := by decide
theorem ckOf_lit_30 : ckOf 30 = CK.rsR 3 2 := by decide
theorem ckOf_lit_31 : ckOf 31 = CK.rsR 4 0 := by decide
theorem ckOf_lit_32 : ckOf 32 = CK.rsR 4 1 := by decide
theorem ckOf_lit_33 : ckOf 33 = CK.rsR 4 2 := by decide
theorem ckOf_lit_34 : ckOf 34 = CK.rsR 5 0 := by decide
theorem ckOf_lit_35 : ckOf 35 = CK.rsR 5 1 := by decide
theorem ckOf_lit_36 : ckOf 36 = CK.rsR 5 2 := by decide
theorem ckOf_lit_37 : ckOf 37 = CK.agS 0 0 := by decide
theorem ckOf_lit_38 : ckOf 38 = CK.agS 0 1 := by decide
theorem ckOf_lit_39 : ckOf 39 = CK.agS 0 2 := by decide
theorem ckOf_lit_40 : ckOf 40 = CK.agS 1 0 := by decide
theorem ckOf_lit_41 : ckOf 41 = CK.agS 1 1 := by decide
theorem ckOf_lit_42 : ckOf 42 = CK.agS 1 2 := by decide
theorem ckOf_lit_43 : ckOf 43 = CK.agS 2 0 := by decide
theorem ckOf_lit_44 : ckOf 44 = CK.agS 2 1 := by decide
theorem ckOf_lit_45 : ckOf 45 = CK.agS 2 2 := by decide
theorem ckOf_lit_46 : ckOf 46 = CK.agS 3 0 := by decide
theorem ckOf_lit_47 : ckOf 47 = CK.agS 3 1 := by decide
theorem ckOf_lit_48 : ckOf 48 = CK.agS 3 2 := by decide
theorem ckOf_lit_49 : ckOf 49 = CK.agS 4 0 := by decide
theorem ckOf_lit_50 : ckOf 50 = CK.agS 4 1 := by decide
theorem ckOf_lit_51 : ckOf 51 = CK.agS 4 2 := by decide
theorem ckOf_lit_52 : ckOf 52 = CK.agS 5 0 := by decide
theorem ckOf_lit_53 : ckOf 53 = CK.agS 5 1 := by decide
theorem ckOf_lit_54 : ckOf 54 = CK.agS 5 2 := by decide
theorem ckOf_lit_55 : ckOf 55 = CK.agR 0 0 := by decide
theorem ckOf_lit_56 : ckOf 56 = CK.agR 0 1 := by decide
theorem ckOf_lit_57 : ckOf 57 = CK.agR 0 2 := by decide
theorem ckOf_lit_58 : ckOf 58 = CK.agR 1 0 := by decide
theorem ckOf_lit_59 : ckOf 59 = CK.agR 1 1 := by decide
theorem ckOf_lit_60 : ckOf 60 = CK.agR 1 2 := by decide
theorem ckOf_lit_61 : ckOf 61 = CK.agR 2 0 := by decide
theorem ckOf_lit_62 : ckOf 62 = CK.agR 2 1 := by decide
theorem ckOf_lit_63 : ckOf 63 = CK.agR 2 2 := by decide
theorem ckOf_lit_64 : ckOf 64 = CK.agR 3 0 := by decide
theorem ckOf_lit_65 : ckOf 65 = CK.agR 3 1 := by decide
theorem ckOf_lit_66 : ckOf 66 = CK.agR 3 2 := by decide
theorem ckOf_lit_67 : ckOf 67 = CK.agR 4 0 := by decide
theorem ckOf_lit_68 : ckOf 68 = CK.agR 4 1 := by decide
theorem ckOf_lit_69 : ckOf 69 = CK.agR 4 2 := by decide
theorem ckOf_lit_70 : ckOf 70 = CK.agR 5 0 := by decide
theorem ckOf_lit_71 : ckOf 71 = CK.agR 5 1 := by decide
theorem ckOf_lit_72 : ckOf 72 = CK.agR 5 2 := by decide
theorem ckOf_lit_73 : ckOf 73 = CK.out 0 := by decide
theorem ckOf_lit_74 : ckOf 74 = CK.out 1 := by decide
theorem ckOf_lit_75 : ckOf 75 = CK.out 2 := by decide
theorem ckOf_lit_76 : ckOf 76 = CK.out 3 := by decide
theorem ckOf_lit_77 : ckOf 77 = CK.out 4 := by decide
theorem ckOf_lit_78 : ckOf 78 = CK.out 5 := by decide
theorem ckOf_lit_79 : ckOf 79 = CK.out 6 := by decide
theorem ckOf_lit_80 : ckOf 80 = CK.out 7 := by decide
theorem ckOf_lit_81 : ckOf 81 = CK.out 8 := by decide
theorem ckOf_lit_82 : ckOf 82 = CK.out 9 := by decide
theorem ckOf_lit_83 : ckOf 83 = CK.out 10 := by decide
theorem ckOf_lit_84 : ckOf 84 = CK.out 11 := by decide
theorem ckOf_lit_85 : ckOf 85 = CK.out 12 := by decide
theorem ckOf_lit_86 : ckOf 86 = CK.out 13 := by decide
theorem ckOf_lit_87 : ckOf 87 = CK.out 14 := by decide
theorem ckOf_lit_88 : ckOf 88 = CK.out 15 := by decide
theorem ckOf_lit_89 : ckOf 89 = CK.out 16 := by decide
theorem ckOf_lit_90 : ckOf 90 = CK.out 17 := by decide
theorem ckOf_lit_91 : ckOf 91 = CK.out 18 := by decide
theorem ckOf_lit_92 : ckOf 92 = CK.out 19 := by decide
theorem ckOf_lit_93 : ckOf 93 = CK.out 20 := by decide
theorem ckOf_lit_94 : ckOf 94 = CK.out 21 := by decide
theorem ckOf_lit_95 : ckOf 95 = CK.out 22 := by decide
theorem ckOf_lit_96 : ckOf 96 = CK.out 23 := by decide
theorem ckIdx_lit_0 : ckIdx CK.bar = 0 := by decide
theorem ckIdx_lit_1 : ckIdx (CK.rsS 0 0) = 1 := by decide
theorem ckIdx_lit_2 : ckIdx (CK.rsS 0 1) = 2 := by decide
theorem ckIdx_lit_3 : ckIdx (CK.rsS 0 2) = 3 := by decide
theorem ckIdx_lit_4 : ckIdx (CK.rsS 1 0) = 4 := by decide
theorem ckIdx_lit_5 : ckIdx (CK.rsS 1 1) = 5 := by decide
theorem ckIdx_lit_6 : ckIdx (CK.rsS 1 2) = 6 := by decide
theorem ckIdx_lit_7 : ckIdx (CK.rsS 2 0) = 7 := by decide
theorem ckIdx_lit_8 : ckIdx (CK.rsS 2 1) = 8 := by decide
theorem ckIdx_lit_9 : ckIdx (CK.rsS 2 2) = 9 := by decide
theorem ckIdx_lit_10 : ckIdx (CK.rsS 3 0) = 10 := by decide
theorem ckIdx_lit_11 : ckIdx (CK.rsS 3 1) = 11 := by decide
theorem ckIdx_lit_12 : ckIdx (CK.rsS 3 2) = 12 := by decide
theorem ckIdx_lit_13 : ckIdx (CK.rsS 4 0) = 13 := by decide
theorem ckIdx_lit_14 : ckIdx (CK.rsS 4 1) = 14 := by decide
theorem ckIdx_lit_15 : ckIdx (CK.rsS 4 2) = 15 := by decide
theorem ckIdx_lit_16 : ckIdx (CK.rsS 5 0) = 16 := by decide
theorem ckIdx_lit_17 : ckIdx (CK.rsS 5 1) = 17 := by decide
theorem ckIdx_lit_18 : ckIdx (CK.rsS 5 2) = 18 := by decide
theorem ckIdx_lit_19 : ckIdx (CK.rsR 0 0) = 19 := by decide
theorem ckIdx_lit_20 : ckIdx (CK.rsR 0 1) = 20 := by decide
theorem ckIdx_lit_21 : ckIdx (CK.rsR 0 2) = 21 := by decide
theorem ckIdx_lit_22 : ckIdx (CK.rsR 1 0) = 22 := by decide
theorem ckIdx_lit_23 : ckIdx (CK.rsR 1 1) = 23 := by decide
theorem ckIdx_lit_24 : ckIdx (CK.rsR 1 2) = 24 := by decide
theorem ckIdx_lit_25 : ckIdx (CK.rsR 2 0) = 25 := by decide
theorem ckIdx_lit_26 : ckIdx (CK.rsR 2 1) = 26 := by decide
theorem ckIdx_lit_27 : ckIdx (CK.rsR 2 2) = 27 := by decide
theorem ckIdx_lit_28 : ckIdx (CK.rsR 3 0) = 28 := by decide
theorem ckIdx_lit_29 : ckIdx (CK.rsR 3 1) = 29 := by decide
theorem ckIdx_lit_30 : ckIdx (CK.rsR 3 2) = 30 := by decide
theorem ckIdx_lit_31 : ckIdx (CK.rsR 4 0) = 31 := by decide
theorem ckIdx_lit_32 : ckIdx (CK.rsR 4 1) = 32 := by decide
theorem ckIdx_lit_33 : ckIdx (CK.rsR 4 2) = 33 := by decide
theorem ckIdx_lit_34 : ckIdx (CK.rsR 5 0) = 34 := by decide
theorem ckIdx_lit_35 : ckIdx (CK.rsR 5 1) = 35 := by decide
theorem ckIdx_lit_36 : ckIdx (CK.rsR 5 2) = 36 := by decide
theorem ckIdx_lit_37 : ckIdx (CK.agS 0 0) = 37 := by decide
theorem ckIdx_lit_38 : ckIdx (CK.agS 0 1) = 38 := by decide
theorem ckIdx_lit_39 : ckIdx (CK.agS 0 2) = 39 := by decide
theorem ckIdx_lit_40 : ckIdx (CK.agS 1 0) = 40 := by decide
theorem ckIdx_lit_41 : ckIdx (CK.agS 1 1) = 41 := by decide
theorem ckIdx_lit_42 : ckIdx (CK.agS 1 2) = 42 := by decide
theorem ckIdx_lit_43 : ckIdx (CK.agS 2 0) = 43 := by decide
theorem ckIdx_lit_44 : ckIdx (CK.agS 2 1) = 44 := by decide
theorem ckIdx_lit_45 : ckIdx (CK.agS 2 2) = 45 := by decide
theorem ckIdx_lit_46 : ckIdx (CK.agS 3 0) = 46 := by decide
theorem ckIdx_lit_47 : ckIdx (CK.agS 3 1) = 47 := by decide
theorem ckIdx_lit_48 : ckIdx (CK.agS 3 2) = 48 := by decide
theorem ckIdx_lit_49 : ckIdx (CK.agS 4 0) = 49 := by decide
theorem ckIdx_lit_50 : ckIdx (CK.agS 4 1) = 50 := by decide
theorem ckIdx_lit_51 : ckIdx (CK.agS 4 2) = 51 := by decide
theorem ckIdx_lit_52 : ckIdx (CK.agS 5 0) = 52 := by decide
theorem ckIdx_lit_53 : ckIdx (CK.agS 5 1) = 53 := by decide
theorem ckIdx_lit_54 : ckIdx (CK.agS 5 2) = 54 := by decide
theorem ckIdx_lit_55 : ckIdx (CK.agR 0 0) = 55 := by decide
theorem ckIdx_lit_56 : ckIdx (CK.agR 0 1) = 56 := by decide
theorem ckIdx_lit_57 : ckIdx (CK.agR 0 2) = 57 := by decide
theorem ckIdx_lit_58 : ckIdx (CK.agR 1 0) = 58 := by decide
theorem ckIdx_lit_59 : ckIdx (CK.agR 1 1) = 59 := by decide
theorem ckIdx_lit_60 : ckIdx (CK.agR 1 2) = 60 := by decide
theorem ckIdx_lit_61 : ckIdx (CK.agR 2 0) = 61 := by decide
theorem ckIdx_lit_62 : ckIdx (CK.agR 2 1) = 62 := by decide
theorem ckIdx_lit_63 : ckIdx (CK.agR 2 2) = 63 := by decide
theorem ckIdx_lit_64 : ckIdx (CK.agR 3 0) = 64 := by decide
theorem ckIdx_lit_65 : ckIdx (CK.agR 3 1) = 65 := by decide
theorem ckIdx_lit_66 : ckIdx (CK.agR 3 2) = 66 := by decide
theorem ckIdx_lit_67 : ckIdx (CK.agR 4 0) = 67 := by decide
theorem ckIdx_lit_68 : ckIdx (CK.agR 4 1) = 68 := by decide
theorem ckIdx_lit_69 : ckIdx (CK.agR 4 2) = 69 := by decide
theorem ckIdx_lit_70 : ckIdx (CK.agR 5 0) = 70 := by decide
theorem ckIdx_lit_71 : ckIdx (CK.agR 5 1) = 71 := by decide
theorem ckIdx_lit_72 : ckIdx (CK.agR 5 2) = 72 := by decide
theorem ckIdx_lit_73 : ckIdx (CK.out 0) = 73 := by decide
theorem ckIdx_lit_74 : ckIdx (CK.out 1) = 74 := by decide
theorem ckIdx_lit_75 : ckIdx (CK.out 2) = 75 := by decide
theorem ckIdx_lit_76 : ckIdx (CK.out 3) = 76 := by decide
theorem ckIdx_lit_77 : ckIdx (CK.out 4) = 77 := by decide
theorem ckIdx_lit_78 : ckIdx (CK.out 5) = 78 := by decide
theorem ckIdx_lit_79 : ckIdx (CK.out 6) = 79 := by decide
theorem ckIdx_lit_80 : ckIdx (CK.out 7) = 80 := by decide
theorem ckIdx_lit_81 : ckIdx (CK.out 8) = 81 := by decide
theorem ckIdx_lit_82 : ckIdx (CK.out 9) = 82 := by decide
theorem ckIdx_lit_83 : ckIdx (CK.out 10) = 83 := by decide
theorem ckIdx_lit_84 : ckIdx (CK.out 11) = 84 := by decide
theorem ckIdx_lit_85 : ckIdx (CK.out 12) = 85 := by decide
theorem ckIdx_lit_86 : ckIdx (CK.out 13) = 86 := by decide
theorem ckIdx_lit_87 : ckIdx (CK.out 14) = 87 := by decide
theorem ckIdx_lit_88 : ckIdx (CK.out 15) = 88 := by decide
theorem ckIdx_lit_89 : ckIdx (CK.out 16) = 89 := by decide
theorem ckIdx_lit_90 : ckIdx (CK.out 17) = 90 := by decide
theorem ckIdx_lit_91 : ckIdx (CK.out 18) = 91 := by decide
theorem ckIdx_lit_92 : ckIdx (CK.out 19) = 92 := by decide
theorem ckIdx_lit_93 : ckIdx (CK.out 20) = 93 := by decide
theorem ckIdx_lit_94 : ckIdx (CK.out 21) = 94 := by decide
theorem ckIdx_lit_95 : ckIdx (CK.out 22) = 95 := by decide
theorem ckIdx_lit_96 : ckIdx (CK.out 23) = 96 := by decide
theorem rsSk_lit_0 : rsSk 0 = CK.rsS 0 0 := by decide
theorem rsSk_lit_1 : rsSk 1 = CK.rsS 0 1 := by decide
theorem rsSk_lit_2 : rsSk 2 = CK.rsS 0 2 := by decide
theorem rsSk_lit_3 : rsSk 3 = CK.rsS 1 0 := by decide
theorem rsSk_lit_4 : rsSk 4 = CK.rsS 1 1 := by decide
theorem rsSk_lit_5 : rsSk 5 = CK.rsS 1 2 := by decide
theorem rsSk_lit_6 : rsSk 6 = CK.rsS 2 0 := by decide
theorem rsSk_lit_7 : rsSk 7 = CK.rsS 2 1 := by decide
theorem rsSk_lit_8 : rsSk 8 = CK.rsS 2 2 := by decide
theorem rsSk_lit_9 : rsSk 9 = CK.rsS 3 0 := by decide
theorem rsSk_lit_10 : rsSk 10 = CK.rsS 3 1 := by decide
theorem rsSk_lit_11 : rsSk 11 = CK.rsS 3 2 := by decide
theorem rsSk_lit_12 : rsSk 12 = CK.rsS 4 0 := by decide
theorem rsSk_lit_13 : rsSk 13 = CK.rsS 4 1 := by decide
theorem rsSk_lit_14 : rsSk 14 = CK.rsS 4 2 := by decide
theorem rsSk_lit_15 : rsSk 15 = CK.rsS 5 0 := by decide
theorem rsSk_lit_16 : rsSk 16 = CK.rsS 5 1 := by decide
theorem rsSk_lit_17 : rsSk 17 = CK.rsS 5 2 := by decide
theorem rsRk_lit_0 : rsRk 0 = CK.rsR 0 0 := by decide
theorem rsRk_lit_1 : rsRk 1 = CK.rsR 0 1 := by decide
theorem rsRk_lit_2 : rsRk 2 = CK.rsR 0 2 := by decide
theorem rsRk_lit_3 : rsRk 3 = CK.rsR 1 0 := by decide
theorem rsRk_lit_4 : rsRk 4 = CK.rsR 1 1 := by decide
theorem rsRk_lit_5 : rsRk 5 = CK.rsR 1 2 := by decide
theorem rsRk_lit_6 : rsRk 6 = CK.rsR 2 0 := by decide
theorem rsRk_lit_7 : rsRk 7 = CK.rsR 2 1 := by decide
theorem rsRk_lit_8 : rsRk 8 = CK.rsR 2 2 := by decide
theorem rsRk_lit_9 : rsRk 9 = CK.rsR 3 0 := by decide
theorem rsRk_lit_10 : rsRk 10 = CK.rsR 3 1 := by decide
theorem rsRk_lit_11 : rsRk 11 = CK.rsR 3 2 := by decide
theorem rsRk_lit_12 : rsRk 12 = CK.rsR 4 0 := by decide
theorem rsRk_lit_13 : rsRk 13 = CK.rsR 4 1 := by decide
theorem rsRk_lit_14 : rsRk 14 = CK.rsR 4 2 := by decide
theorem rsRk_lit_15 : rsRk 15 = CK.rsR 5 0 := by decide
theorem rsRk_lit_16 : rsRk 16 = CK.rsR 5 1 := by decide
theorem rsRk_lit_17 : rsRk 17 = CK.rsR 5 2 := by decide
theorem agSk_lit_0 : agSk 0 = CK.agS 0 0 := by decide
theorem agSk_lit_1 : agSk 1 = CK.agS 0 1 := by decide
theorem agSk_lit_2 : agSk 2 = CK.agS 0 2 := by decide
theorem agSk_lit_3 : agSk 3 = CK.agS 1 0 := by decide
theorem agSk_lit_4 : agSk 4 = CK.agS 1 1 := by decide
theorem agSk_lit_5 : agSk 5 = CK.agS 1 2 := by decide
theorem agSk_lit_6 : agSk 6 = CK.agS 2 0 := by decide
theorem agSk_lit_7 : agSk 7 = CK.agS 2 1 := by decide
theorem agSk_lit_8 : agSk 8 = CK.agS 2 2 := by decide
theorem agSk_lit_9 : agSk 9 = CK.agS 3 0 := by decide
theorem agSk_lit_10 : agSk 10 = CK.agS 3 1 := by decide
theorem agSk_lit_11 : agSk 11 = CK.agS 3 2 := by decide
theorem agSk_lit_12 : agSk 12 = CK.agS 4 0 := by decide
theorem agSk_lit_13 : agSk 13 = CK.agS 4 1 := by decide
theorem agSk_lit_14 : agSk 14 = CK.agS 4 2 := by decide
theorem agSk_lit_15 : agSk 15 = CK.agS 5 0 := by decide
theorem agSk_lit_16 : agSk 16 = CK.agS 5 1 := by decide
theorem agSk_lit_17 : agSk 17 = CK.agS 5 2 := by decide
theorem agRk_lit_0 : agRk 0 = CK.agR 0 0 := by decide
theorem agRk_lit_1 : agRk 1 = CK.agR 0 1 := by decide
theorem agRk_lit_2 : agRk 2 = CK.agR 0 2 := by decide
theorem agRk_lit_3 : agRk 3 = CK.agR 1 0 := by decide
theorem agRk_lit_4 : agRk 4 = CK.agR 1 1 := by decide
theorem agRk_lit_5 : agRk 5 = CK.agR 1 2 := by decide
theorem agRk_lit_6 : agRk 6 = CK.agR 2 0 := by decide
theorem agRk_lit_7 : agRk 7 = CK.agR 2 1 := by decide
theorem agRk_lit_8 : agRk 8 = CK.agR 2 2 := by decide
theorem agRk_lit_9 : agRk 9 = CK.agR 3 0 := by decide
theorem agRk_lit_10 : agRk 10 = CK.agR 3 1 := by decide
theorem agRk_lit_11 : agRk 11 = CK.agR 3 2 := by decide
theorem agRk_lit_12 : agRk 12 = CK.agR 4 0 := by decide
theorem agRk_lit_13 : agRk 13 = CK.agR 4 1 := by decide
theorem agRk_lit_14 : agRk 14 = CK.agR 4 2 := by decide
theorem agRk_lit_15 : agRk 15 = CK.agR 5 0 := by decide
theorem agRk_lit_16 : agRk 16 = CK.agR 5 1 := by decide
theorem agRk_lit_17 : agRk 17 = CK.agR 5 2 := by decide
theorem dirRS_lit_0 : dirRS 0 = 0 := by decide
theorem dirRS_lit_1 : dirRS 1 = 1 := by decide
theorem dirRS_lit_2 : dirRS 2 = 2 := by decide
theorem dirRS_lit_3 : dirRS 3 = 1 := by decide
theorem dirRS_lit_4 : dirRS 4 = 2 := by decide
theorem dirRS_lit_5 : dirRS 5 = 0 := by decide
theorem dirRS_lit_6 : dirRS 6 = 2 := by decide
theorem dirRS_lit_7 : dirRS 7 = 0 := by decide
theorem dirRS_lit_8 : dirRS 8 = 1 := by decide
theorem dirRS_lit_9 : dirRS 9 = 0 := by decide
theorem dirRS_lit_10 : dirRS 10 = 1 := by decide
theorem dirRS_lit_11 : dirRS 11 = 2 := by decide
theorem dirRS_lit_12 : dirRS 12 = 1 := by decide
theorem dirRS_lit_13 : dirRS 13 = 2 := by decide
theorem dirRS_lit_14 : dirRS 14 = 0 := by decide
theorem dirRS_lit_15 : dirRS 15 = 2 := by decide
theorem dirRS_lit_16 : dirRS 16 = 0 := by decide
theorem dirRS_lit_17 : dirRS 17 = 1 := by decide
theorem dirAG_lit_0 : dirAG 0 = 2 := by decide
theorem dirAG_lit_1 : dirAG 1 = 1 := by decide
theorem dirAG_lit_2 : dirAG 2 = 0 := by decide
theorem dirAG_lit_3 : dirAG 3 = 0 := by decide
theorem dirAG_lit_4 : dirAG 4 = 2 := by decide
theorem dirAG_lit_5 : dirAG 5 = 1 := by decide
theorem dirAG_lit_6 : dirAG 6 = 1 := by decide
theorem dirAG_lit_7 : dirAG 7 = 0 := by decide
theorem dirAG_lit_8 : dirAG 8 = 2 := by decide
theorem dirAG_lit_9 : dirAG 9 = 2 := by decide
theorem dirAG_lit_10 : dirAG 10 = 1 := by decide
theorem dirAG_lit_11 : dirAG 11 = 0 := by decide
theorem dirAG_lit_12 : dirAG 12 = 0 := by decide
theorem dirAG_lit_13 : dirAG 13 = 2 := by decide
theorem dirAG_lit_14 : dirAG 14 = 1 := by decide
theorem dirAG_lit_15 : dirAG 15 = 1 := by decide
theorem dirAG_lit_16 : dirAG 16 = 0 := by decide
theorem dirAG_lit_17 : dirAG 17 = 2 := by decide

/-! ## The blocks -/

/-- The records of device c's own 97 cells: each one's invariant and that its round 0 is reached. -/
def ownRecs (K : Dev nD × Fin 97 → ℕ) (c : Dev nD) : sProp 𝕄 :=
  iprop((cellInv ER (sched V) (K (c, ckIdx CK.bar)) (cell c CK.bar) ∗ reached ER (cell c CK.bar) 0)
    ∗ (cellInv ER (sched V) (K (c, ckIdx (CK.rsS 0 0))) (cell c (CK.rsS 0 0)) ∗ reached ER (cell c (CK.rsS 0 0)) 0)
    ∗ (cellInv ER (sched V) (K (c, ckIdx (CK.rsS 0 1))) (cell c (CK.rsS 0 1)) ∗ reached ER (cell c (CK.rsS 0 1)) 0)
    ∗ (cellInv ER (sched V) (K (c, ckIdx (CK.rsS 0 2))) (cell c (CK.rsS 0 2)) ∗ reached ER (cell c (CK.rsS 0 2)) 0)
    ∗ (cellInv ER (sched V) (K (c, ckIdx (CK.rsS 1 0))) (cell c (CK.rsS 1 0)) ∗ reached ER (cell c (CK.rsS 1 0)) 0)
    ∗ (cellInv ER (sched V) (K (c, ckIdx (CK.rsS 1 1))) (cell c (CK.rsS 1 1)) ∗ reached ER (cell c (CK.rsS 1 1)) 0)
    ∗ (cellInv ER (sched V) (K (c, ckIdx (CK.rsS 1 2))) (cell c (CK.rsS 1 2)) ∗ reached ER (cell c (CK.rsS 1 2)) 0)
    ∗ (cellInv ER (sched V) (K (c, ckIdx (CK.rsS 2 0))) (cell c (CK.rsS 2 0)) ∗ reached ER (cell c (CK.rsS 2 0)) 0)
    ∗ (cellInv ER (sched V) (K (c, ckIdx (CK.rsS 2 1))) (cell c (CK.rsS 2 1)) ∗ reached ER (cell c (CK.rsS 2 1)) 0)
    ∗ (cellInv ER (sched V) (K (c, ckIdx (CK.rsS 2 2))) (cell c (CK.rsS 2 2)) ∗ reached ER (cell c (CK.rsS 2 2)) 0)
    ∗ (cellInv ER (sched V) (K (c, ckIdx (CK.rsS 3 0))) (cell c (CK.rsS 3 0)) ∗ reached ER (cell c (CK.rsS 3 0)) 0)
    ∗ (cellInv ER (sched V) (K (c, ckIdx (CK.rsS 3 1))) (cell c (CK.rsS 3 1)) ∗ reached ER (cell c (CK.rsS 3 1)) 0)
    ∗ (cellInv ER (sched V) (K (c, ckIdx (CK.rsS 3 2))) (cell c (CK.rsS 3 2)) ∗ reached ER (cell c (CK.rsS 3 2)) 0)
    ∗ (cellInv ER (sched V) (K (c, ckIdx (CK.rsS 4 0))) (cell c (CK.rsS 4 0)) ∗ reached ER (cell c (CK.rsS 4 0)) 0)
    ∗ (cellInv ER (sched V) (K (c, ckIdx (CK.rsS 4 1))) (cell c (CK.rsS 4 1)) ∗ reached ER (cell c (CK.rsS 4 1)) 0)
    ∗ (cellInv ER (sched V) (K (c, ckIdx (CK.rsS 4 2))) (cell c (CK.rsS 4 2)) ∗ reached ER (cell c (CK.rsS 4 2)) 0)
    ∗ (cellInv ER (sched V) (K (c, ckIdx (CK.rsS 5 0))) (cell c (CK.rsS 5 0)) ∗ reached ER (cell c (CK.rsS 5 0)) 0)
    ∗ (cellInv ER (sched V) (K (c, ckIdx (CK.rsS 5 1))) (cell c (CK.rsS 5 1)) ∗ reached ER (cell c (CK.rsS 5 1)) 0)
    ∗ (cellInv ER (sched V) (K (c, ckIdx (CK.rsS 5 2))) (cell c (CK.rsS 5 2)) ∗ reached ER (cell c (CK.rsS 5 2)) 0)
    ∗ (cellInv ER (sched V) (K (c, ckIdx (CK.rsR 0 0))) (cell c (CK.rsR 0 0)) ∗ reached ER (cell c (CK.rsR 0 0)) 0)
    ∗ (cellInv ER (sched V) (K (c, ckIdx (CK.rsR 0 1))) (cell c (CK.rsR 0 1)) ∗ reached ER (cell c (CK.rsR 0 1)) 0)
    ∗ (cellInv ER (sched V) (K (c, ckIdx (CK.rsR 0 2))) (cell c (CK.rsR 0 2)) ∗ reached ER (cell c (CK.rsR 0 2)) 0)
    ∗ (cellInv ER (sched V) (K (c, ckIdx (CK.rsR 1 0))) (cell c (CK.rsR 1 0)) ∗ reached ER (cell c (CK.rsR 1 0)) 0)
    ∗ (cellInv ER (sched V) (K (c, ckIdx (CK.rsR 1 1))) (cell c (CK.rsR 1 1)) ∗ reached ER (cell c (CK.rsR 1 1)) 0)
    ∗ (cellInv ER (sched V) (K (c, ckIdx (CK.rsR 1 2))) (cell c (CK.rsR 1 2)) ∗ reached ER (cell c (CK.rsR 1 2)) 0)
    ∗ (cellInv ER (sched V) (K (c, ckIdx (CK.rsR 2 0))) (cell c (CK.rsR 2 0)) ∗ reached ER (cell c (CK.rsR 2 0)) 0)
    ∗ (cellInv ER (sched V) (K (c, ckIdx (CK.rsR 2 1))) (cell c (CK.rsR 2 1)) ∗ reached ER (cell c (CK.rsR 2 1)) 0)
    ∗ (cellInv ER (sched V) (K (c, ckIdx (CK.rsR 2 2))) (cell c (CK.rsR 2 2)) ∗ reached ER (cell c (CK.rsR 2 2)) 0)
    ∗ (cellInv ER (sched V) (K (c, ckIdx (CK.rsR 3 0))) (cell c (CK.rsR 3 0)) ∗ reached ER (cell c (CK.rsR 3 0)) 0)
    ∗ (cellInv ER (sched V) (K (c, ckIdx (CK.rsR 3 1))) (cell c (CK.rsR 3 1)) ∗ reached ER (cell c (CK.rsR 3 1)) 0)
    ∗ (cellInv ER (sched V) (K (c, ckIdx (CK.rsR 3 2))) (cell c (CK.rsR 3 2)) ∗ reached ER (cell c (CK.rsR 3 2)) 0)
    ∗ (cellInv ER (sched V) (K (c, ckIdx (CK.rsR 4 0))) (cell c (CK.rsR 4 0)) ∗ reached ER (cell c (CK.rsR 4 0)) 0)
    ∗ (cellInv ER (sched V) (K (c, ckIdx (CK.rsR 4 1))) (cell c (CK.rsR 4 1)) ∗ reached ER (cell c (CK.rsR 4 1)) 0)
    ∗ (cellInv ER (sched V) (K (c, ckIdx (CK.rsR 4 2))) (cell c (CK.rsR 4 2)) ∗ reached ER (cell c (CK.rsR 4 2)) 0)
    ∗ (cellInv ER (sched V) (K (c, ckIdx (CK.rsR 5 0))) (cell c (CK.rsR 5 0)) ∗ reached ER (cell c (CK.rsR 5 0)) 0)
    ∗ (cellInv ER (sched V) (K (c, ckIdx (CK.rsR 5 1))) (cell c (CK.rsR 5 1)) ∗ reached ER (cell c (CK.rsR 5 1)) 0)
    ∗ (cellInv ER (sched V) (K (c, ckIdx (CK.rsR 5 2))) (cell c (CK.rsR 5 2)) ∗ reached ER (cell c (CK.rsR 5 2)) 0)
    ∗ (cellInv ER (sched V) (K (c, ckIdx (CK.agS 0 0))) (cell c (CK.agS 0 0)) ∗ reached ER (cell c (CK.agS 0 0)) 0)
    ∗ (cellInv ER (sched V) (K (c, ckIdx (CK.agS 0 1))) (cell c (CK.agS 0 1)) ∗ reached ER (cell c (CK.agS 0 1)) 0)
    ∗ (cellInv ER (sched V) (K (c, ckIdx (CK.agS 0 2))) (cell c (CK.agS 0 2)) ∗ reached ER (cell c (CK.agS 0 2)) 0)
    ∗ (cellInv ER (sched V) (K (c, ckIdx (CK.agS 1 0))) (cell c (CK.agS 1 0)) ∗ reached ER (cell c (CK.agS 1 0)) 0)
    ∗ (cellInv ER (sched V) (K (c, ckIdx (CK.agS 1 1))) (cell c (CK.agS 1 1)) ∗ reached ER (cell c (CK.agS 1 1)) 0)
    ∗ (cellInv ER (sched V) (K (c, ckIdx (CK.agS 1 2))) (cell c (CK.agS 1 2)) ∗ reached ER (cell c (CK.agS 1 2)) 0)
    ∗ (cellInv ER (sched V) (K (c, ckIdx (CK.agS 2 0))) (cell c (CK.agS 2 0)) ∗ reached ER (cell c (CK.agS 2 0)) 0)
    ∗ (cellInv ER (sched V) (K (c, ckIdx (CK.agS 2 1))) (cell c (CK.agS 2 1)) ∗ reached ER (cell c (CK.agS 2 1)) 0)
    ∗ (cellInv ER (sched V) (K (c, ckIdx (CK.agS 2 2))) (cell c (CK.agS 2 2)) ∗ reached ER (cell c (CK.agS 2 2)) 0)
    ∗ (cellInv ER (sched V) (K (c, ckIdx (CK.agS 3 0))) (cell c (CK.agS 3 0)) ∗ reached ER (cell c (CK.agS 3 0)) 0)
    ∗ (cellInv ER (sched V) (K (c, ckIdx (CK.agS 3 1))) (cell c (CK.agS 3 1)) ∗ reached ER (cell c (CK.agS 3 1)) 0)
    ∗ (cellInv ER (sched V) (K (c, ckIdx (CK.agS 3 2))) (cell c (CK.agS 3 2)) ∗ reached ER (cell c (CK.agS 3 2)) 0)
    ∗ (cellInv ER (sched V) (K (c, ckIdx (CK.agS 4 0))) (cell c (CK.agS 4 0)) ∗ reached ER (cell c (CK.agS 4 0)) 0)
    ∗ (cellInv ER (sched V) (K (c, ckIdx (CK.agS 4 1))) (cell c (CK.agS 4 1)) ∗ reached ER (cell c (CK.agS 4 1)) 0)
    ∗ (cellInv ER (sched V) (K (c, ckIdx (CK.agS 4 2))) (cell c (CK.agS 4 2)) ∗ reached ER (cell c (CK.agS 4 2)) 0)
    ∗ (cellInv ER (sched V) (K (c, ckIdx (CK.agS 5 0))) (cell c (CK.agS 5 0)) ∗ reached ER (cell c (CK.agS 5 0)) 0)
    ∗ (cellInv ER (sched V) (K (c, ckIdx (CK.agS 5 1))) (cell c (CK.agS 5 1)) ∗ reached ER (cell c (CK.agS 5 1)) 0)
    ∗ (cellInv ER (sched V) (K (c, ckIdx (CK.agS 5 2))) (cell c (CK.agS 5 2)) ∗ reached ER (cell c (CK.agS 5 2)) 0)
    ∗ (cellInv ER (sched V) (K (c, ckIdx (CK.agR 0 0))) (cell c (CK.agR 0 0)) ∗ reached ER (cell c (CK.agR 0 0)) 0)
    ∗ (cellInv ER (sched V) (K (c, ckIdx (CK.agR 0 1))) (cell c (CK.agR 0 1)) ∗ reached ER (cell c (CK.agR 0 1)) 0)
    ∗ (cellInv ER (sched V) (K (c, ckIdx (CK.agR 0 2))) (cell c (CK.agR 0 2)) ∗ reached ER (cell c (CK.agR 0 2)) 0)
    ∗ (cellInv ER (sched V) (K (c, ckIdx (CK.agR 1 0))) (cell c (CK.agR 1 0)) ∗ reached ER (cell c (CK.agR 1 0)) 0)
    ∗ (cellInv ER (sched V) (K (c, ckIdx (CK.agR 1 1))) (cell c (CK.agR 1 1)) ∗ reached ER (cell c (CK.agR 1 1)) 0)
    ∗ (cellInv ER (sched V) (K (c, ckIdx (CK.agR 1 2))) (cell c (CK.agR 1 2)) ∗ reached ER (cell c (CK.agR 1 2)) 0)
    ∗ (cellInv ER (sched V) (K (c, ckIdx (CK.agR 2 0))) (cell c (CK.agR 2 0)) ∗ reached ER (cell c (CK.agR 2 0)) 0)
    ∗ (cellInv ER (sched V) (K (c, ckIdx (CK.agR 2 1))) (cell c (CK.agR 2 1)) ∗ reached ER (cell c (CK.agR 2 1)) 0)
    ∗ (cellInv ER (sched V) (K (c, ckIdx (CK.agR 2 2))) (cell c (CK.agR 2 2)) ∗ reached ER (cell c (CK.agR 2 2)) 0)
    ∗ (cellInv ER (sched V) (K (c, ckIdx (CK.agR 3 0))) (cell c (CK.agR 3 0)) ∗ reached ER (cell c (CK.agR 3 0)) 0)
    ∗ (cellInv ER (sched V) (K (c, ckIdx (CK.agR 3 1))) (cell c (CK.agR 3 1)) ∗ reached ER (cell c (CK.agR 3 1)) 0)
    ∗ (cellInv ER (sched V) (K (c, ckIdx (CK.agR 3 2))) (cell c (CK.agR 3 2)) ∗ reached ER (cell c (CK.agR 3 2)) 0)
    ∗ (cellInv ER (sched V) (K (c, ckIdx (CK.agR 4 0))) (cell c (CK.agR 4 0)) ∗ reached ER (cell c (CK.agR 4 0)) 0)
    ∗ (cellInv ER (sched V) (K (c, ckIdx (CK.agR 4 1))) (cell c (CK.agR 4 1)) ∗ reached ER (cell c (CK.agR 4 1)) 0)
    ∗ (cellInv ER (sched V) (K (c, ckIdx (CK.agR 4 2))) (cell c (CK.agR 4 2)) ∗ reached ER (cell c (CK.agR 4 2)) 0)
    ∗ (cellInv ER (sched V) (K (c, ckIdx (CK.agR 5 0))) (cell c (CK.agR 5 0)) ∗ reached ER (cell c (CK.agR 5 0)) 0)
    ∗ (cellInv ER (sched V) (K (c, ckIdx (CK.agR 5 1))) (cell c (CK.agR 5 1)) ∗ reached ER (cell c (CK.agR 5 1)) 0)
    ∗ (cellInv ER (sched V) (K (c, ckIdx (CK.agR 5 2))) (cell c (CK.agR 5 2)) ∗ reached ER (cell c (CK.agR 5 2)) 0)
    ∗ (cellInv ER (sched V) (K (c, ckIdx (CK.out 0))) (cell c (CK.out 0)) ∗ reached ER (cell c (CK.out 0)) 0)
    ∗ (cellInv ER (sched V) (K (c, ckIdx (CK.out 1))) (cell c (CK.out 1)) ∗ reached ER (cell c (CK.out 1)) 0)
    ∗ (cellInv ER (sched V) (K (c, ckIdx (CK.out 2))) (cell c (CK.out 2)) ∗ reached ER (cell c (CK.out 2)) 0)
    ∗ (cellInv ER (sched V) (K (c, ckIdx (CK.out 3))) (cell c (CK.out 3)) ∗ reached ER (cell c (CK.out 3)) 0)
    ∗ (cellInv ER (sched V) (K (c, ckIdx (CK.out 4))) (cell c (CK.out 4)) ∗ reached ER (cell c (CK.out 4)) 0)
    ∗ (cellInv ER (sched V) (K (c, ckIdx (CK.out 5))) (cell c (CK.out 5)) ∗ reached ER (cell c (CK.out 5)) 0)
    ∗ (cellInv ER (sched V) (K (c, ckIdx (CK.out 6))) (cell c (CK.out 6)) ∗ reached ER (cell c (CK.out 6)) 0)
    ∗ (cellInv ER (sched V) (K (c, ckIdx (CK.out 7))) (cell c (CK.out 7)) ∗ reached ER (cell c (CK.out 7)) 0)
    ∗ (cellInv ER (sched V) (K (c, ckIdx (CK.out 8))) (cell c (CK.out 8)) ∗ reached ER (cell c (CK.out 8)) 0)
    ∗ (cellInv ER (sched V) (K (c, ckIdx (CK.out 9))) (cell c (CK.out 9)) ∗ reached ER (cell c (CK.out 9)) 0)
    ∗ (cellInv ER (sched V) (K (c, ckIdx (CK.out 10))) (cell c (CK.out 10)) ∗ reached ER (cell c (CK.out 10)) 0)
    ∗ (cellInv ER (sched V) (K (c, ckIdx (CK.out 11))) (cell c (CK.out 11)) ∗ reached ER (cell c (CK.out 11)) 0)
    ∗ (cellInv ER (sched V) (K (c, ckIdx (CK.out 12))) (cell c (CK.out 12)) ∗ reached ER (cell c (CK.out 12)) 0)
    ∗ (cellInv ER (sched V) (K (c, ckIdx (CK.out 13))) (cell c (CK.out 13)) ∗ reached ER (cell c (CK.out 13)) 0)
    ∗ (cellInv ER (sched V) (K (c, ckIdx (CK.out 14))) (cell c (CK.out 14)) ∗ reached ER (cell c (CK.out 14)) 0)
    ∗ (cellInv ER (sched V) (K (c, ckIdx (CK.out 15))) (cell c (CK.out 15)) ∗ reached ER (cell c (CK.out 15)) 0)
    ∗ (cellInv ER (sched V) (K (c, ckIdx (CK.out 16))) (cell c (CK.out 16)) ∗ reached ER (cell c (CK.out 16)) 0)
    ∗ (cellInv ER (sched V) (K (c, ckIdx (CK.out 17))) (cell c (CK.out 17)) ∗ reached ER (cell c (CK.out 17)) 0)
    ∗ (cellInv ER (sched V) (K (c, ckIdx (CK.out 18))) (cell c (CK.out 18)) ∗ reached ER (cell c (CK.out 18)) 0)
    ∗ (cellInv ER (sched V) (K (c, ckIdx (CK.out 19))) (cell c (CK.out 19)) ∗ reached ER (cell c (CK.out 19)) 0)
    ∗ (cellInv ER (sched V) (K (c, ckIdx (CK.out 20))) (cell c (CK.out 20)) ∗ reached ER (cell c (CK.out 20)) 0)
    ∗ (cellInv ER (sched V) (K (c, ckIdx (CK.out 21))) (cell c (CK.out 21)) ∗ reached ER (cell c (CK.out 21)) 0)
    ∗ (cellInv ER (sched V) (K (c, ckIdx (CK.out 22))) (cell c (CK.out 22)) ∗ reached ER (cell c (CK.out 22)) 0)
    ∗ (cellInv ER (sched V) (K (c, ckIdx (CK.out 23))) (cell c (CK.out 23)) ∗ reached ER (cell c (CK.out 23)) 0))

omit [FloatOps F] in
theorem ownRecs_eq (K : Dev nD × Fin 97 → ℕ) (c : Dev nD) :
    ownRecs V K c = bigSep Finset.univ fun i : Fin 97 => iprop(cellInv ER (sched V) (K (c, i)) (cell c (ckOf i)) ∗ reached ER (cell c (ckOf i)) 0) := by
  unfold ownRecs; rw [sep_fin97]; simp only [ckOf_lit_0, ckOf_lit_1, ckOf_lit_2, ckOf_lit_3, ckOf_lit_4, ckOf_lit_5, ckOf_lit_6, ckOf_lit_7, ckOf_lit_8, ckOf_lit_9, ckOf_lit_10, ckOf_lit_11, ckOf_lit_12, ckOf_lit_13, ckOf_lit_14, ckOf_lit_15, ckOf_lit_16, ckOf_lit_17, ckOf_lit_18, ckOf_lit_19, ckOf_lit_20, ckOf_lit_21, ckOf_lit_22, ckOf_lit_23, ckOf_lit_24, ckOf_lit_25, ckOf_lit_26, ckOf_lit_27, ckOf_lit_28, ckOf_lit_29, ckOf_lit_30, ckOf_lit_31, ckOf_lit_32, ckOf_lit_33, ckOf_lit_34, ckOf_lit_35, ckOf_lit_36, ckOf_lit_37, ckOf_lit_38, ckOf_lit_39, ckOf_lit_40, ckOf_lit_41, ckOf_lit_42, ckOf_lit_43, ckOf_lit_44, ckOf_lit_45, ckOf_lit_46, ckOf_lit_47, ckOf_lit_48, ckOf_lit_49, ckOf_lit_50, ckOf_lit_51, ckOf_lit_52, ckOf_lit_53, ckOf_lit_54, ckOf_lit_55, ckOf_lit_56, ckOf_lit_57, ckOf_lit_58, ckOf_lit_59, ckOf_lit_60, ckOf_lit_61, ckOf_lit_62, ckOf_lit_63, ckOf_lit_64, ckOf_lit_65, ckOf_lit_66, ckOf_lit_67, ckOf_lit_68, ckOf_lit_69, ckOf_lit_70, ckOf_lit_71, ckOf_lit_72, ckOf_lit_73, ckOf_lit_74, ckOf_lit_75, ckOf_lit_76, ckOf_lit_77, ckOf_lit_78, ckOf_lit_79, ckOf_lit_80, ckOf_lit_81, ckOf_lit_82, ckOf_lit_83, ckOf_lit_84, ckOf_lit_85, ckOf_lit_86, ckOf_lit_87, ckOf_lit_88, ckOf_lit_89, ckOf_lit_90, ckOf_lit_91, ckOf_lit_92, ckOf_lit_93, ckOf_lit_94, ckOf_lit_95, ckOf_lit_96, ckIdx_lit_0, ckIdx_lit_1, ckIdx_lit_2, ckIdx_lit_3, ckIdx_lit_4, ckIdx_lit_5, ckIdx_lit_6, ckIdx_lit_7, ckIdx_lit_8, ckIdx_lit_9, ckIdx_lit_10, ckIdx_lit_11, ckIdx_lit_12, ckIdx_lit_13, ckIdx_lit_14, ckIdx_lit_15, ckIdx_lit_16, ckIdx_lit_17, ckIdx_lit_18, ckIdx_lit_19, ckIdx_lit_20, ckIdx_lit_21, ckIdx_lit_22, ckIdx_lit_23, ckIdx_lit_24, ckIdx_lit_25, ckIdx_lit_26, ckIdx_lit_27, ckIdx_lit_28, ckIdx_lit_29, ckIdx_lit_30, ckIdx_lit_31, ckIdx_lit_32, ckIdx_lit_33, ckIdx_lit_34, ckIdx_lit_35, ckIdx_lit_36, ckIdx_lit_37, ckIdx_lit_38, ckIdx_lit_39, ckIdx_lit_40, ckIdx_lit_41, ckIdx_lit_42, ckIdx_lit_43, ckIdx_lit_44, ckIdx_lit_45, ckIdx_lit_46, ckIdx_lit_47, ckIdx_lit_48, ckIdx_lit_49, ckIdx_lit_50, ckIdx_lit_51, ckIdx_lit_52, ckIdx_lit_53, ckIdx_lit_54, ckIdx_lit_55, ckIdx_lit_56, ckIdx_lit_57, ckIdx_lit_58, ckIdx_lit_59, ckIdx_lit_60, ckIdx_lit_61, ckIdx_lit_62, ckIdx_lit_63, ckIdx_lit_64, ckIdx_lit_65, ckIdx_lit_66, ckIdx_lit_67, ckIdx_lit_68, ckIdx_lit_69, ckIdx_lit_70, ckIdx_lit_71, ckIdx_lit_72, ckIdx_lit_73, ckIdx_lit_74, ckIdx_lit_75, ckIdx_lit_76, ckIdx_lit_77, ckIdx_lit_78, ckIdx_lit_79, ckIdx_lit_80, ckIdx_lit_81, ckIdx_lit_82, ckIdx_lit_83, ckIdx_lit_84, ckIdx_lit_85, ckIdx_lit_86, ckIdx_lit_87, ckIdx_lit_88, ckIdx_lit_89, ckIdx_lit_90, ckIdx_lit_91, ckIdx_lit_92, ckIdx_lit_93, ckIdx_lit_94, ckIdx_lit_95, ckIdx_lit_96]

/-- The records of the 39 cells device c pays: its three neighbours' barrier cells and the receive cells its 36 transfers fill. -/
def paidRecs (K : Dev nD × Fin 97 → ℕ) (c : Dev nD) : sProp 𝕄 :=
  iprop(((cellInv ER (sched V) (K ((nbr 0 c), ckIdx CK.bar)) (cell (nbr 0 c) CK.bar) ∗ reached ER (cell (nbr 0 c) CK.bar) 0)
    ∗ (cellInv ER (sched V) (K ((nbr 1 c), ckIdx CK.bar)) (cell (nbr 1 c) CK.bar) ∗ reached ER (cell (nbr 1 c) CK.bar) 0)
    ∗ (cellInv ER (sched V) (K ((nbr 2 c), ckIdx CK.bar)) (cell (nbr 2 c) CK.bar) ∗ reached ER (cell (nbr 2 c) CK.bar) 0))
    ∗ ((cellInv ER (sched V) (K ((nbr 0 c), ckIdx (CK.rsR 0 0))) (cell (nbr 0 c) (CK.rsR 0 0)) ∗ reached ER (cell (nbr 0 c) (CK.rsR 0 0)) 0)
    ∗ (cellInv ER (sched V) (K ((nbr 1 c), ckIdx (CK.rsR 0 1))) (cell (nbr 1 c) (CK.rsR 0 1)) ∗ reached ER (cell (nbr 1 c) (CK.rsR 0 1)) 0)
    ∗ (cellInv ER (sched V) (K ((nbr 2 c), ckIdx (CK.rsR 0 2))) (cell (nbr 2 c) (CK.rsR 0 2)) ∗ reached ER (cell (nbr 2 c) (CK.rsR 0 2)) 0)
    ∗ (cellInv ER (sched V) (K ((nbr 1 c), ckIdx (CK.rsR 1 0))) (cell (nbr 1 c) (CK.rsR 1 0)) ∗ reached ER (cell (nbr 1 c) (CK.rsR 1 0)) 0)
    ∗ (cellInv ER (sched V) (K ((nbr 2 c), ckIdx (CK.rsR 1 1))) (cell (nbr 2 c) (CK.rsR 1 1)) ∗ reached ER (cell (nbr 2 c) (CK.rsR 1 1)) 0)
    ∗ (cellInv ER (sched V) (K ((nbr 0 c), ckIdx (CK.rsR 1 2))) (cell (nbr 0 c) (CK.rsR 1 2)) ∗ reached ER (cell (nbr 0 c) (CK.rsR 1 2)) 0)
    ∗ (cellInv ER (sched V) (K ((nbr 2 c), ckIdx (CK.rsR 2 0))) (cell (nbr 2 c) (CK.rsR 2 0)) ∗ reached ER (cell (nbr 2 c) (CK.rsR 2 0)) 0)
    ∗ (cellInv ER (sched V) (K ((nbr 0 c), ckIdx (CK.rsR 2 1))) (cell (nbr 0 c) (CK.rsR 2 1)) ∗ reached ER (cell (nbr 0 c) (CK.rsR 2 1)) 0)
    ∗ (cellInv ER (sched V) (K ((nbr 1 c), ckIdx (CK.rsR 2 2))) (cell (nbr 1 c) (CK.rsR 2 2)) ∗ reached ER (cell (nbr 1 c) (CK.rsR 2 2)) 0)
    ∗ (cellInv ER (sched V) (K ((nbr 0 c), ckIdx (CK.rsR 3 0))) (cell (nbr 0 c) (CK.rsR 3 0)) ∗ reached ER (cell (nbr 0 c) (CK.rsR 3 0)) 0)
    ∗ (cellInv ER (sched V) (K ((nbr 1 c), ckIdx (CK.rsR 3 1))) (cell (nbr 1 c) (CK.rsR 3 1)) ∗ reached ER (cell (nbr 1 c) (CK.rsR 3 1)) 0)
    ∗ (cellInv ER (sched V) (K ((nbr 2 c), ckIdx (CK.rsR 3 2))) (cell (nbr 2 c) (CK.rsR 3 2)) ∗ reached ER (cell (nbr 2 c) (CK.rsR 3 2)) 0)
    ∗ (cellInv ER (sched V) (K ((nbr 1 c), ckIdx (CK.rsR 4 0))) (cell (nbr 1 c) (CK.rsR 4 0)) ∗ reached ER (cell (nbr 1 c) (CK.rsR 4 0)) 0)
    ∗ (cellInv ER (sched V) (K ((nbr 2 c), ckIdx (CK.rsR 4 1))) (cell (nbr 2 c) (CK.rsR 4 1)) ∗ reached ER (cell (nbr 2 c) (CK.rsR 4 1)) 0)
    ∗ (cellInv ER (sched V) (K ((nbr 0 c), ckIdx (CK.rsR 4 2))) (cell (nbr 0 c) (CK.rsR 4 2)) ∗ reached ER (cell (nbr 0 c) (CK.rsR 4 2)) 0)
    ∗ (cellInv ER (sched V) (K ((nbr 2 c), ckIdx (CK.rsR 5 0))) (cell (nbr 2 c) (CK.rsR 5 0)) ∗ reached ER (cell (nbr 2 c) (CK.rsR 5 0)) 0)
    ∗ (cellInv ER (sched V) (K ((nbr 0 c), ckIdx (CK.rsR 5 1))) (cell (nbr 0 c) (CK.rsR 5 1)) ∗ reached ER (cell (nbr 0 c) (CK.rsR 5 1)) 0)
    ∗ (cellInv ER (sched V) (K ((nbr 1 c), ckIdx (CK.rsR 5 2))) (cell (nbr 1 c) (CK.rsR 5 2)) ∗ reached ER (cell (nbr 1 c) (CK.rsR 5 2)) 0))
    ∗ ((cellInv ER (sched V) (K ((nbr 2 c), ckIdx (CK.agR 0 0))) (cell (nbr 2 c) (CK.agR 0 0)) ∗ reached ER (cell (nbr 2 c) (CK.agR 0 0)) 0)
    ∗ (cellInv ER (sched V) (K ((nbr 1 c), ckIdx (CK.agR 0 1))) (cell (nbr 1 c) (CK.agR 0 1)) ∗ reached ER (cell (nbr 1 c) (CK.agR 0 1)) 0)
    ∗ (cellInv ER (sched V) (K ((nbr 0 c), ckIdx (CK.agR 0 2))) (cell (nbr 0 c) (CK.agR 0 2)) ∗ reached ER (cell (nbr 0 c) (CK.agR 0 2)) 0)
    ∗ (cellInv ER (sched V) (K ((nbr 0 c), ckIdx (CK.agR 1 0))) (cell (nbr 0 c) (CK.agR 1 0)) ∗ reached ER (cell (nbr 0 c) (CK.agR 1 0)) 0)
    ∗ (cellInv ER (sched V) (K ((nbr 2 c), ckIdx (CK.agR 1 1))) (cell (nbr 2 c) (CK.agR 1 1)) ∗ reached ER (cell (nbr 2 c) (CK.agR 1 1)) 0)
    ∗ (cellInv ER (sched V) (K ((nbr 1 c), ckIdx (CK.agR 1 2))) (cell (nbr 1 c) (CK.agR 1 2)) ∗ reached ER (cell (nbr 1 c) (CK.agR 1 2)) 0)
    ∗ (cellInv ER (sched V) (K ((nbr 1 c), ckIdx (CK.agR 2 0))) (cell (nbr 1 c) (CK.agR 2 0)) ∗ reached ER (cell (nbr 1 c) (CK.agR 2 0)) 0)
    ∗ (cellInv ER (sched V) (K ((nbr 0 c), ckIdx (CK.agR 2 1))) (cell (nbr 0 c) (CK.agR 2 1)) ∗ reached ER (cell (nbr 0 c) (CK.agR 2 1)) 0)
    ∗ (cellInv ER (sched V) (K ((nbr 2 c), ckIdx (CK.agR 2 2))) (cell (nbr 2 c) (CK.agR 2 2)) ∗ reached ER (cell (nbr 2 c) (CK.agR 2 2)) 0)
    ∗ (cellInv ER (sched V) (K ((nbr 2 c), ckIdx (CK.agR 3 0))) (cell (nbr 2 c) (CK.agR 3 0)) ∗ reached ER (cell (nbr 2 c) (CK.agR 3 0)) 0)
    ∗ (cellInv ER (sched V) (K ((nbr 1 c), ckIdx (CK.agR 3 1))) (cell (nbr 1 c) (CK.agR 3 1)) ∗ reached ER (cell (nbr 1 c) (CK.agR 3 1)) 0)
    ∗ (cellInv ER (sched V) (K ((nbr 0 c), ckIdx (CK.agR 3 2))) (cell (nbr 0 c) (CK.agR 3 2)) ∗ reached ER (cell (nbr 0 c) (CK.agR 3 2)) 0)
    ∗ (cellInv ER (sched V) (K ((nbr 0 c), ckIdx (CK.agR 4 0))) (cell (nbr 0 c) (CK.agR 4 0)) ∗ reached ER (cell (nbr 0 c) (CK.agR 4 0)) 0)
    ∗ (cellInv ER (sched V) (K ((nbr 2 c), ckIdx (CK.agR 4 1))) (cell (nbr 2 c) (CK.agR 4 1)) ∗ reached ER (cell (nbr 2 c) (CK.agR 4 1)) 0)
    ∗ (cellInv ER (sched V) (K ((nbr 1 c), ckIdx (CK.agR 4 2))) (cell (nbr 1 c) (CK.agR 4 2)) ∗ reached ER (cell (nbr 1 c) (CK.agR 4 2)) 0)
    ∗ (cellInv ER (sched V) (K ((nbr 1 c), ckIdx (CK.agR 5 0))) (cell (nbr 1 c) (CK.agR 5 0)) ∗ reached ER (cell (nbr 1 c) (CK.agR 5 0)) 0)
    ∗ (cellInv ER (sched V) (K ((nbr 0 c), ckIdx (CK.agR 5 1))) (cell (nbr 0 c) (CK.agR 5 1)) ∗ reached ER (cell (nbr 0 c) (CK.agR 5 1)) 0)
    ∗ (cellInv ER (sched V) (K ((nbr 2 c), ckIdx (CK.agR 5 2))) (cell (nbr 2 c) (CK.agR 5 2)) ∗ reached ER (cell (nbr 2 c) (CK.agR 5 2)) 0)))

omit [FloatOps F] in
theorem paidRecs_eq (K : Dev nD × Fin 97 → ℕ) (c : Dev nD) :
    paidRecs V K c = iprop((bigSep Finset.univ fun d : Fin 3 => iprop(cellInv ER (sched V) (K (nbr d c, ckIdx CK.bar)) (cell (nbr d c) CK.bar) ∗ reached ER (cell (nbr d c) CK.bar) 0))
      ∗ (bigSep Finset.univ fun i : Fin 18 => iprop(cellInv ER (sched V) (K (nbr (dirRS i) c, ckIdx (rsRk i))) (cell (nbr (dirRS i) c) (rsRk i)) ∗ reached ER (cell (nbr (dirRS i) c) (rsRk i)) 0))
      ∗ (bigSep Finset.univ fun i : Fin 18 => iprop(cellInv ER (sched V) (K (nbr (dirAG i) c, ckIdx (agRk i))) (cell (nbr (dirAG i) c) (agRk i)) ∗ reached ER (cell (nbr (dirAG i) c) (agRk i)) 0))) := by
  unfold paidRecs; rw [sep_fin3, sep_fin18, sep_fin18]; simp only [rsRk_lit_0, rsRk_lit_1, rsRk_lit_2, rsRk_lit_3, rsRk_lit_4, rsRk_lit_5, rsRk_lit_6, rsRk_lit_7, rsRk_lit_8, rsRk_lit_9, rsRk_lit_10, rsRk_lit_11, rsRk_lit_12, rsRk_lit_13, rsRk_lit_14, rsRk_lit_15, rsRk_lit_16, rsRk_lit_17, agRk_lit_0, agRk_lit_1, agRk_lit_2, agRk_lit_3, agRk_lit_4, agRk_lit_5, agRk_lit_6, agRk_lit_7, agRk_lit_8, agRk_lit_9, agRk_lit_10, agRk_lit_11, agRk_lit_12, agRk_lit_13, agRk_lit_14, agRk_lit_15, agRk_lit_16, agRk_lit_17, dirRS_lit_0, dirRS_lit_1, dirRS_lit_2, dirRS_lit_3, dirRS_lit_4, dirRS_lit_5, dirRS_lit_6, dirRS_lit_7, dirRS_lit_8, dirRS_lit_9, dirRS_lit_10, dirRS_lit_11, dirRS_lit_12, dirRS_lit_13, dirRS_lit_14, dirRS_lit_15, dirRS_lit_16, dirRS_lit_17, dirAG_lit_0, dirAG_lit_1, dirAG_lit_2, dirAG_lit_3, dirAG_lit_4, dirAG_lit_5, dirAG_lit_6, dirAG_lit_7, dirAG_lit_8, dirAG_lit_9, dirAG_lit_10, dirAG_lit_11, dirAG_lit_12, dirAG_lit_13, dirAG_lit_14, dirAG_lit_15, dirAG_lit_16, dirAG_lit_17]

/-- The tokens of the duties device c pays. -/
def toksLit (c : Dev nD) : sProp 𝕄 :=
  iprop((dutyTok ER (cell (nbr 0 c) CK.bar) 0 (0 : Fin 3)
    ∗ dutyTok ER (cell (nbr 1 c) CK.bar) 0 (1 : Fin 3)
    ∗ dutyTok ER (cell (nbr 2 c) CK.bar) 0 (2 : Fin 3))
    ∗ (dutyTok ER (cell (nbr 0 c) (CK.rsR 0 0)) 0 (0 : Fin 3)
    ∗ dutyTok ER (cell (nbr 1 c) (CK.rsR 0 1)) 0 (0 : Fin 3)
    ∗ dutyTok ER (cell (nbr 2 c) (CK.rsR 0 2)) 0 (0 : Fin 3)
    ∗ dutyTok ER (cell (nbr 1 c) (CK.rsR 1 0)) 0 (0 : Fin 3)
    ∗ dutyTok ER (cell (nbr 2 c) (CK.rsR 1 1)) 0 (0 : Fin 3)
    ∗ dutyTok ER (cell (nbr 0 c) (CK.rsR 1 2)) 0 (0 : Fin 3)
    ∗ dutyTok ER (cell (nbr 2 c) (CK.rsR 2 0)) 0 (0 : Fin 3)
    ∗ dutyTok ER (cell (nbr 0 c) (CK.rsR 2 1)) 0 (0 : Fin 3)
    ∗ dutyTok ER (cell (nbr 1 c) (CK.rsR 2 2)) 0 (0 : Fin 3)
    ∗ dutyTok ER (cell (nbr 0 c) (CK.rsR 3 0)) 0 (0 : Fin 3)
    ∗ dutyTok ER (cell (nbr 1 c) (CK.rsR 3 1)) 0 (0 : Fin 3)
    ∗ dutyTok ER (cell (nbr 2 c) (CK.rsR 3 2)) 0 (0 : Fin 3)
    ∗ dutyTok ER (cell (nbr 1 c) (CK.rsR 4 0)) 0 (0 : Fin 3)
    ∗ dutyTok ER (cell (nbr 2 c) (CK.rsR 4 1)) 0 (0 : Fin 3)
    ∗ dutyTok ER (cell (nbr 0 c) (CK.rsR 4 2)) 0 (0 : Fin 3)
    ∗ dutyTok ER (cell (nbr 2 c) (CK.rsR 5 0)) 0 (0 : Fin 3)
    ∗ dutyTok ER (cell (nbr 0 c) (CK.rsR 5 1)) 0 (0 : Fin 3)
    ∗ dutyTok ER (cell (nbr 1 c) (CK.rsR 5 2)) 0 (0 : Fin 3))
    ∗ (dutyTok ER (cell (nbr 2 c) (CK.agR 0 0)) 0 (0 : Fin 3)
    ∗ dutyTok ER (cell (nbr 1 c) (CK.agR 0 1)) 0 (0 : Fin 3)
    ∗ dutyTok ER (cell (nbr 0 c) (CK.agR 0 2)) 0 (0 : Fin 3)
    ∗ dutyTok ER (cell (nbr 0 c) (CK.agR 1 0)) 0 (0 : Fin 3)
    ∗ dutyTok ER (cell (nbr 2 c) (CK.agR 1 1)) 0 (0 : Fin 3)
    ∗ dutyTok ER (cell (nbr 1 c) (CK.agR 1 2)) 0 (0 : Fin 3)
    ∗ dutyTok ER (cell (nbr 1 c) (CK.agR 2 0)) 0 (0 : Fin 3)
    ∗ dutyTok ER (cell (nbr 0 c) (CK.agR 2 1)) 0 (0 : Fin 3)
    ∗ dutyTok ER (cell (nbr 2 c) (CK.agR 2 2)) 0 (0 : Fin 3)
    ∗ dutyTok ER (cell (nbr 2 c) (CK.agR 3 0)) 0 (0 : Fin 3)
    ∗ dutyTok ER (cell (nbr 1 c) (CK.agR 3 1)) 0 (0 : Fin 3)
    ∗ dutyTok ER (cell (nbr 0 c) (CK.agR 3 2)) 0 (0 : Fin 3)
    ∗ dutyTok ER (cell (nbr 0 c) (CK.agR 4 0)) 0 (0 : Fin 3)
    ∗ dutyTok ER (cell (nbr 2 c) (CK.agR 4 1)) 0 (0 : Fin 3)
    ∗ dutyTok ER (cell (nbr 1 c) (CK.agR 4 2)) 0 (0 : Fin 3)
    ∗ dutyTok ER (cell (nbr 1 c) (CK.agR 5 0)) 0 (0 : Fin 3)
    ∗ dutyTok ER (cell (nbr 0 c) (CK.agR 5 1)) 0 (0 : Fin 3)
    ∗ dutyTok ER (cell (nbr 2 c) (CK.agR 5 2)) 0 (0 : Fin 3))
    ∗ (dutyTok ER (cell c (CK.rsS 0 0)) 0 (0 : Fin 3)
    ∗ dutyTok ER (cell c (CK.rsS 0 1)) 0 (0 : Fin 3)
    ∗ dutyTok ER (cell c (CK.rsS 0 2)) 0 (0 : Fin 3)
    ∗ dutyTok ER (cell c (CK.rsS 1 0)) 0 (0 : Fin 3)
    ∗ dutyTok ER (cell c (CK.rsS 1 1)) 0 (0 : Fin 3)
    ∗ dutyTok ER (cell c (CK.rsS 1 2)) 0 (0 : Fin 3)
    ∗ dutyTok ER (cell c (CK.rsS 2 0)) 0 (0 : Fin 3)
    ∗ dutyTok ER (cell c (CK.rsS 2 1)) 0 (0 : Fin 3)
    ∗ dutyTok ER (cell c (CK.rsS 2 2)) 0 (0 : Fin 3)
    ∗ dutyTok ER (cell c (CK.rsS 3 0)) 0 (0 : Fin 3)
    ∗ dutyTok ER (cell c (CK.rsS 3 1)) 0 (0 : Fin 3)
    ∗ dutyTok ER (cell c (CK.rsS 3 2)) 0 (0 : Fin 3)
    ∗ dutyTok ER (cell c (CK.rsS 4 0)) 0 (0 : Fin 3)
    ∗ dutyTok ER (cell c (CK.rsS 4 1)) 0 (0 : Fin 3)
    ∗ dutyTok ER (cell c (CK.rsS 4 2)) 0 (0 : Fin 3)
    ∗ dutyTok ER (cell c (CK.rsS 5 0)) 0 (0 : Fin 3)
    ∗ dutyTok ER (cell c (CK.rsS 5 1)) 0 (0 : Fin 3)
    ∗ dutyTok ER (cell c (CK.rsS 5 2)) 0 (0 : Fin 3))
    ∗ (dutyTok ER (cell c (CK.agS 0 0)) 0 (0 : Fin 3)
    ∗ dutyTok ER (cell c (CK.agS 0 1)) 0 (0 : Fin 3)
    ∗ dutyTok ER (cell c (CK.agS 0 2)) 0 (0 : Fin 3)
    ∗ dutyTok ER (cell c (CK.agS 1 0)) 0 (0 : Fin 3)
    ∗ dutyTok ER (cell c (CK.agS 1 1)) 0 (0 : Fin 3)
    ∗ dutyTok ER (cell c (CK.agS 1 2)) 0 (0 : Fin 3)
    ∗ dutyTok ER (cell c (CK.agS 2 0)) 0 (0 : Fin 3)
    ∗ dutyTok ER (cell c (CK.agS 2 1)) 0 (0 : Fin 3)
    ∗ dutyTok ER (cell c (CK.agS 2 2)) 0 (0 : Fin 3)
    ∗ dutyTok ER (cell c (CK.agS 3 0)) 0 (0 : Fin 3)
    ∗ dutyTok ER (cell c (CK.agS 3 1)) 0 (0 : Fin 3)
    ∗ dutyTok ER (cell c (CK.agS 3 2)) 0 (0 : Fin 3)
    ∗ dutyTok ER (cell c (CK.agS 4 0)) 0 (0 : Fin 3)
    ∗ dutyTok ER (cell c (CK.agS 4 1)) 0 (0 : Fin 3)
    ∗ dutyTok ER (cell c (CK.agS 4 2)) 0 (0 : Fin 3)
    ∗ dutyTok ER (cell c (CK.agS 5 0)) 0 (0 : Fin 3)
    ∗ dutyTok ER (cell c (CK.agS 5 1)) 0 (0 : Fin 3)
    ∗ dutyTok ER (cell c (CK.agS 5 2)) 0 (0 : Fin 3))
    ∗ (dutyTok ER (cell c (CK.out 0)) 0 (0 : Fin 3)
    ∗ dutyTok ER (cell c (CK.out 1)) 0 (0 : Fin 3)
    ∗ dutyTok ER (cell c (CK.out 2)) 0 (0 : Fin 3)
    ∗ dutyTok ER (cell c (CK.out 3)) 0 (0 : Fin 3)
    ∗ dutyTok ER (cell c (CK.out 4)) 0 (0 : Fin 3)
    ∗ dutyTok ER (cell c (CK.out 5)) 0 (0 : Fin 3)
    ∗ dutyTok ER (cell c (CK.out 6)) 0 (0 : Fin 3)
    ∗ dutyTok ER (cell c (CK.out 7)) 0 (0 : Fin 3)
    ∗ dutyTok ER (cell c (CK.out 8)) 0 (0 : Fin 3)
    ∗ dutyTok ER (cell c (CK.out 9)) 0 (0 : Fin 3)
    ∗ dutyTok ER (cell c (CK.out 10)) 0 (0 : Fin 3)
    ∗ dutyTok ER (cell c (CK.out 11)) 0 (0 : Fin 3)
    ∗ dutyTok ER (cell c (CK.out 12)) 0 (0 : Fin 3)
    ∗ dutyTok ER (cell c (CK.out 13)) 0 (0 : Fin 3)
    ∗ dutyTok ER (cell c (CK.out 14)) 0 (0 : Fin 3)
    ∗ dutyTok ER (cell c (CK.out 15)) 0 (0 : Fin 3)
    ∗ dutyTok ER (cell c (CK.out 16)) 0 (0 : Fin 3)
    ∗ dutyTok ER (cell c (CK.out 17)) 0 (0 : Fin 3)
    ∗ dutyTok ER (cell c (CK.out 18)) 0 (0 : Fin 3)
    ∗ dutyTok ER (cell c (CK.out 19)) 0 (0 : Fin 3)
    ∗ dutyTok ER (cell c (CK.out 20)) 0 (0 : Fin 3)
    ∗ dutyTok ER (cell c (CK.out 21)) 0 (0 : Fin 3)
    ∗ dutyTok ER (cell c (CK.out 22)) 0 (0 : Fin 3)
    ∗ dutyTok ER (cell c (CK.out 23)) 0 (0 : Fin 3)))

omit [FloatOps F] in
theorem toksLit_eq (c : Dev nD) : (toksLit c : sProp 𝕄) = payToks c := by
  unfold toksLit payToks; rw [sep_fin3, sep_fin18, sep_fin18, sep_fin18, sep_fin18, sep_fin24]; simp only [rsSk_lit_0, rsSk_lit_1, rsSk_lit_2, rsSk_lit_3, rsSk_lit_4, rsSk_lit_5, rsSk_lit_6, rsSk_lit_7, rsSk_lit_8, rsSk_lit_9, rsSk_lit_10, rsSk_lit_11, rsSk_lit_12, rsSk_lit_13, rsSk_lit_14, rsSk_lit_15, rsSk_lit_16, rsSk_lit_17, rsRk_lit_0, rsRk_lit_1, rsRk_lit_2, rsRk_lit_3, rsRk_lit_4, rsRk_lit_5, rsRk_lit_6, rsRk_lit_7, rsRk_lit_8, rsRk_lit_9, rsRk_lit_10, rsRk_lit_11, rsRk_lit_12, rsRk_lit_13, rsRk_lit_14, rsRk_lit_15, rsRk_lit_16, rsRk_lit_17, agSk_lit_0, agSk_lit_1, agSk_lit_2, agSk_lit_3, agSk_lit_4, agSk_lit_5, agSk_lit_6, agSk_lit_7, agSk_lit_8, agSk_lit_9, agSk_lit_10, agSk_lit_11, agSk_lit_12, agSk_lit_13, agSk_lit_14, agSk_lit_15, agSk_lit_16, agSk_lit_17, agRk_lit_0, agRk_lit_1, agRk_lit_2, agRk_lit_3, agRk_lit_4, agRk_lit_5, agRk_lit_6, agRk_lit_7, agRk_lit_8, agRk_lit_9, agRk_lit_10, agRk_lit_11, agRk_lit_12, agRk_lit_13, agRk_lit_14, agRk_lit_15, agRk_lit_16, agRk_lit_17, dirRS_lit_0, dirRS_lit_1, dirRS_lit_2, dirRS_lit_3, dirRS_lit_4, dirRS_lit_5, dirRS_lit_6, dirRS_lit_7, dirRS_lit_8, dirRS_lit_9, dirRS_lit_10, dirRS_lit_11, dirRS_lit_12, dirRS_lit_13, dirRS_lit_14, dirRS_lit_15, dirRS_lit_16, dirRS_lit_17, dirAG_lit_0, dirAG_lit_1, dirAG_lit_2, dirAG_lit_3, dirAG_lit_4, dirAG_lit_5, dirAG_lit_6, dirAG_lit_7, dirAG_lit_8, dirAG_lit_9, dirAG_lit_10, dirAG_lit_11, dirAG_lit_12, dirAG_lit_13, dirAG_lit_14, dirAG_lit_15, dirAG_lit_16, dirAG_lit_17]

/-- Device c's positions at round 0 of its own 97 cells. -/
def posLit (c : Dev nD) : sProp 𝕄 :=
  iprop(atPos ER (cell c CK.bar) 0 ∅ 0
    ∗ atPos ER (cell c (CK.rsS 0 0)) 0 ∅ 0
    ∗ atPos ER (cell c (CK.rsS 0 1)) 0 ∅ 0
    ∗ atPos ER (cell c (CK.rsS 0 2)) 0 ∅ 0
    ∗ atPos ER (cell c (CK.rsS 1 0)) 0 ∅ 0
    ∗ atPos ER (cell c (CK.rsS 1 1)) 0 ∅ 0
    ∗ atPos ER (cell c (CK.rsS 1 2)) 0 ∅ 0
    ∗ atPos ER (cell c (CK.rsS 2 0)) 0 ∅ 0
    ∗ atPos ER (cell c (CK.rsS 2 1)) 0 ∅ 0
    ∗ atPos ER (cell c (CK.rsS 2 2)) 0 ∅ 0
    ∗ atPos ER (cell c (CK.rsS 3 0)) 0 ∅ 0
    ∗ atPos ER (cell c (CK.rsS 3 1)) 0 ∅ 0
    ∗ atPos ER (cell c (CK.rsS 3 2)) 0 ∅ 0
    ∗ atPos ER (cell c (CK.rsS 4 0)) 0 ∅ 0
    ∗ atPos ER (cell c (CK.rsS 4 1)) 0 ∅ 0
    ∗ atPos ER (cell c (CK.rsS 4 2)) 0 ∅ 0
    ∗ atPos ER (cell c (CK.rsS 5 0)) 0 ∅ 0
    ∗ atPos ER (cell c (CK.rsS 5 1)) 0 ∅ 0
    ∗ atPos ER (cell c (CK.rsS 5 2)) 0 ∅ 0
    ∗ atPos ER (cell c (CK.rsR 0 0)) 0 ∅ 0
    ∗ atPos ER (cell c (CK.rsR 0 1)) 0 ∅ 0
    ∗ atPos ER (cell c (CK.rsR 0 2)) 0 ∅ 0
    ∗ atPos ER (cell c (CK.rsR 1 0)) 0 ∅ 0
    ∗ atPos ER (cell c (CK.rsR 1 1)) 0 ∅ 0
    ∗ atPos ER (cell c (CK.rsR 1 2)) 0 ∅ 0
    ∗ atPos ER (cell c (CK.rsR 2 0)) 0 ∅ 0
    ∗ atPos ER (cell c (CK.rsR 2 1)) 0 ∅ 0
    ∗ atPos ER (cell c (CK.rsR 2 2)) 0 ∅ 0
    ∗ atPos ER (cell c (CK.rsR 3 0)) 0 ∅ 0
    ∗ atPos ER (cell c (CK.rsR 3 1)) 0 ∅ 0
    ∗ atPos ER (cell c (CK.rsR 3 2)) 0 ∅ 0
    ∗ atPos ER (cell c (CK.rsR 4 0)) 0 ∅ 0
    ∗ atPos ER (cell c (CK.rsR 4 1)) 0 ∅ 0
    ∗ atPos ER (cell c (CK.rsR 4 2)) 0 ∅ 0
    ∗ atPos ER (cell c (CK.rsR 5 0)) 0 ∅ 0
    ∗ atPos ER (cell c (CK.rsR 5 1)) 0 ∅ 0
    ∗ atPos ER (cell c (CK.rsR 5 2)) 0 ∅ 0
    ∗ atPos ER (cell c (CK.agS 0 0)) 0 ∅ 0
    ∗ atPos ER (cell c (CK.agS 0 1)) 0 ∅ 0
    ∗ atPos ER (cell c (CK.agS 0 2)) 0 ∅ 0
    ∗ atPos ER (cell c (CK.agS 1 0)) 0 ∅ 0
    ∗ atPos ER (cell c (CK.agS 1 1)) 0 ∅ 0
    ∗ atPos ER (cell c (CK.agS 1 2)) 0 ∅ 0
    ∗ atPos ER (cell c (CK.agS 2 0)) 0 ∅ 0
    ∗ atPos ER (cell c (CK.agS 2 1)) 0 ∅ 0
    ∗ atPos ER (cell c (CK.agS 2 2)) 0 ∅ 0
    ∗ atPos ER (cell c (CK.agS 3 0)) 0 ∅ 0
    ∗ atPos ER (cell c (CK.agS 3 1)) 0 ∅ 0
    ∗ atPos ER (cell c (CK.agS 3 2)) 0 ∅ 0
    ∗ atPos ER (cell c (CK.agS 4 0)) 0 ∅ 0
    ∗ atPos ER (cell c (CK.agS 4 1)) 0 ∅ 0
    ∗ atPos ER (cell c (CK.agS 4 2)) 0 ∅ 0
    ∗ atPos ER (cell c (CK.agS 5 0)) 0 ∅ 0
    ∗ atPos ER (cell c (CK.agS 5 1)) 0 ∅ 0
    ∗ atPos ER (cell c (CK.agS 5 2)) 0 ∅ 0
    ∗ atPos ER (cell c (CK.agR 0 0)) 0 ∅ 0
    ∗ atPos ER (cell c (CK.agR 0 1)) 0 ∅ 0
    ∗ atPos ER (cell c (CK.agR 0 2)) 0 ∅ 0
    ∗ atPos ER (cell c (CK.agR 1 0)) 0 ∅ 0
    ∗ atPos ER (cell c (CK.agR 1 1)) 0 ∅ 0
    ∗ atPos ER (cell c (CK.agR 1 2)) 0 ∅ 0
    ∗ atPos ER (cell c (CK.agR 2 0)) 0 ∅ 0
    ∗ atPos ER (cell c (CK.agR 2 1)) 0 ∅ 0
    ∗ atPos ER (cell c (CK.agR 2 2)) 0 ∅ 0
    ∗ atPos ER (cell c (CK.agR 3 0)) 0 ∅ 0
    ∗ atPos ER (cell c (CK.agR 3 1)) 0 ∅ 0
    ∗ atPos ER (cell c (CK.agR 3 2)) 0 ∅ 0
    ∗ atPos ER (cell c (CK.agR 4 0)) 0 ∅ 0
    ∗ atPos ER (cell c (CK.agR 4 1)) 0 ∅ 0
    ∗ atPos ER (cell c (CK.agR 4 2)) 0 ∅ 0
    ∗ atPos ER (cell c (CK.agR 5 0)) 0 ∅ 0
    ∗ atPos ER (cell c (CK.agR 5 1)) 0 ∅ 0
    ∗ atPos ER (cell c (CK.agR 5 2)) 0 ∅ 0
    ∗ atPos ER (cell c (CK.out 0)) 0 ∅ 0
    ∗ atPos ER (cell c (CK.out 1)) 0 ∅ 0
    ∗ atPos ER (cell c (CK.out 2)) 0 ∅ 0
    ∗ atPos ER (cell c (CK.out 3)) 0 ∅ 0
    ∗ atPos ER (cell c (CK.out 4)) 0 ∅ 0
    ∗ atPos ER (cell c (CK.out 5)) 0 ∅ 0
    ∗ atPos ER (cell c (CK.out 6)) 0 ∅ 0
    ∗ atPos ER (cell c (CK.out 7)) 0 ∅ 0
    ∗ atPos ER (cell c (CK.out 8)) 0 ∅ 0
    ∗ atPos ER (cell c (CK.out 9)) 0 ∅ 0
    ∗ atPos ER (cell c (CK.out 10)) 0 ∅ 0
    ∗ atPos ER (cell c (CK.out 11)) 0 ∅ 0
    ∗ atPos ER (cell c (CK.out 12)) 0 ∅ 0
    ∗ atPos ER (cell c (CK.out 13)) 0 ∅ 0
    ∗ atPos ER (cell c (CK.out 14)) 0 ∅ 0
    ∗ atPos ER (cell c (CK.out 15)) 0 ∅ 0
    ∗ atPos ER (cell c (CK.out 16)) 0 ∅ 0
    ∗ atPos ER (cell c (CK.out 17)) 0 ∅ 0
    ∗ atPos ER (cell c (CK.out 18)) 0 ∅ 0
    ∗ atPos ER (cell c (CK.out 19)) 0 ∅ 0
    ∗ atPos ER (cell c (CK.out 20)) 0 ∅ 0
    ∗ atPos ER (cell c (CK.out 21)) 0 ∅ 0
    ∗ atPos ER (cell c (CK.out 22)) 0 ∅ 0
    ∗ atPos ER (cell c (CK.out 23)) 0 ∅ 0)

omit [FloatOps F] in
theorem posLit_eq (c : Dev nD) : (posLit c : sProp 𝕄) = bigSep Finset.univ fun i : Fin 97 => atPos ER (cell c (ckOf i)) 0 ∅ 0 := by
  unfold posLit; rw [sep_fin97]; simp only [ckOf_lit_0, ckOf_lit_1, ckOf_lit_2, ckOf_lit_3, ckOf_lit_4, ckOf_lit_5, ckOf_lit_6, ckOf_lit_7, ckOf_lit_8, ckOf_lit_9, ckOf_lit_10, ckOf_lit_11, ckOf_lit_12, ckOf_lit_13, ckOf_lit_14, ckOf_lit_15, ckOf_lit_16, ckOf_lit_17, ckOf_lit_18, ckOf_lit_19, ckOf_lit_20, ckOf_lit_21, ckOf_lit_22, ckOf_lit_23, ckOf_lit_24, ckOf_lit_25, ckOf_lit_26, ckOf_lit_27, ckOf_lit_28, ckOf_lit_29, ckOf_lit_30, ckOf_lit_31, ckOf_lit_32, ckOf_lit_33, ckOf_lit_34, ckOf_lit_35, ckOf_lit_36, ckOf_lit_37, ckOf_lit_38, ckOf_lit_39, ckOf_lit_40, ckOf_lit_41, ckOf_lit_42, ckOf_lit_43, ckOf_lit_44, ckOf_lit_45, ckOf_lit_46, ckOf_lit_47, ckOf_lit_48, ckOf_lit_49, ckOf_lit_50, ckOf_lit_51, ckOf_lit_52, ckOf_lit_53, ckOf_lit_54, ckOf_lit_55, ckOf_lit_56, ckOf_lit_57, ckOf_lit_58, ckOf_lit_59, ckOf_lit_60, ckOf_lit_61, ckOf_lit_62, ckOf_lit_63, ckOf_lit_64, ckOf_lit_65, ckOf_lit_66, ckOf_lit_67, ckOf_lit_68, ckOf_lit_69, ckOf_lit_70, ckOf_lit_71, ckOf_lit_72, ckOf_lit_73, ckOf_lit_74, ckOf_lit_75, ckOf_lit_76, ckOf_lit_77, ckOf_lit_78, ckOf_lit_79, ckOf_lit_80, ckOf_lit_81, ckOf_lit_82, ckOf_lit_83, ckOf_lit_84, ckOf_lit_85, ckOf_lit_86, ckOf_lit_87, ckOf_lit_88, ckOf_lit_89, ckOf_lit_90, ckOf_lit_91, ckOf_lit_92, ckOf_lit_93, ckOf_lit_94, ckOf_lit_95, ckOf_lit_96]

/-- Device c's launch credit: three units on its barrier cell, each receive cell's amount. -/
def credLit (c : Dev nD) : sProp 𝕄 :=
  iprop(cred (tallyAt (cell c CK.bar) () 3)
    ∗ (cred (tallyAt (cell c (CK.rsR 0 0)) () (amt (CK.rsR 0 0)))
    ∗ cred (tallyAt (cell c (CK.rsR 0 1)) () (amt (CK.rsR 0 1)))
    ∗ cred (tallyAt (cell c (CK.rsR 0 2)) () (amt (CK.rsR 0 2)))
    ∗ cred (tallyAt (cell c (CK.rsR 1 0)) () (amt (CK.rsR 1 0)))
    ∗ cred (tallyAt (cell c (CK.rsR 1 1)) () (amt (CK.rsR 1 1)))
    ∗ cred (tallyAt (cell c (CK.rsR 1 2)) () (amt (CK.rsR 1 2)))
    ∗ cred (tallyAt (cell c (CK.rsR 2 0)) () (amt (CK.rsR 2 0)))
    ∗ cred (tallyAt (cell c (CK.rsR 2 1)) () (amt (CK.rsR 2 1)))
    ∗ cred (tallyAt (cell c (CK.rsR 2 2)) () (amt (CK.rsR 2 2)))
    ∗ cred (tallyAt (cell c (CK.rsR 3 0)) () (amt (CK.rsR 3 0)))
    ∗ cred (tallyAt (cell c (CK.rsR 3 1)) () (amt (CK.rsR 3 1)))
    ∗ cred (tallyAt (cell c (CK.rsR 3 2)) () (amt (CK.rsR 3 2)))
    ∗ cred (tallyAt (cell c (CK.rsR 4 0)) () (amt (CK.rsR 4 0)))
    ∗ cred (tallyAt (cell c (CK.rsR 4 1)) () (amt (CK.rsR 4 1)))
    ∗ cred (tallyAt (cell c (CK.rsR 4 2)) () (amt (CK.rsR 4 2)))
    ∗ cred (tallyAt (cell c (CK.rsR 5 0)) () (amt (CK.rsR 5 0)))
    ∗ cred (tallyAt (cell c (CK.rsR 5 1)) () (amt (CK.rsR 5 1)))
    ∗ cred (tallyAt (cell c (CK.rsR 5 2)) () (amt (CK.rsR 5 2))))
    ∗ (cred (tallyAt (cell c (CK.agR 0 0)) () (amt (CK.agR 0 0)))
    ∗ cred (tallyAt (cell c (CK.agR 0 1)) () (amt (CK.agR 0 1)))
    ∗ cred (tallyAt (cell c (CK.agR 0 2)) () (amt (CK.agR 0 2)))
    ∗ cred (tallyAt (cell c (CK.agR 1 0)) () (amt (CK.agR 1 0)))
    ∗ cred (tallyAt (cell c (CK.agR 1 1)) () (amt (CK.agR 1 1)))
    ∗ cred (tallyAt (cell c (CK.agR 1 2)) () (amt (CK.agR 1 2)))
    ∗ cred (tallyAt (cell c (CK.agR 2 0)) () (amt (CK.agR 2 0)))
    ∗ cred (tallyAt (cell c (CK.agR 2 1)) () (amt (CK.agR 2 1)))
    ∗ cred (tallyAt (cell c (CK.agR 2 2)) () (amt (CK.agR 2 2)))
    ∗ cred (tallyAt (cell c (CK.agR 3 0)) () (amt (CK.agR 3 0)))
    ∗ cred (tallyAt (cell c (CK.agR 3 1)) () (amt (CK.agR 3 1)))
    ∗ cred (tallyAt (cell c (CK.agR 3 2)) () (amt (CK.agR 3 2)))
    ∗ cred (tallyAt (cell c (CK.agR 4 0)) () (amt (CK.agR 4 0)))
    ∗ cred (tallyAt (cell c (CK.agR 4 1)) () (amt (CK.agR 4 1)))
    ∗ cred (tallyAt (cell c (CK.agR 4 2)) () (amt (CK.agR 4 2)))
    ∗ cred (tallyAt (cell c (CK.agR 5 0)) () (amt (CK.agR 5 0)))
    ∗ cred (tallyAt (cell c (CK.agR 5 1)) () (amt (CK.agR 5 1)))
    ∗ cred (tallyAt (cell c (CK.agR 5 2)) () (amt (CK.agR 5 2)))))

omit [FloatOps F] in
theorem credLit_eq (c : Dev nD) : (credLit c : sProp 𝕄) = creds c := by
  unfold credLit creds; rw [sep_fin18, sep_fin18]; simp only [rsRk_lit_0, rsRk_lit_1, rsRk_lit_2, rsRk_lit_3, rsRk_lit_4, rsRk_lit_5, rsRk_lit_6, rsRk_lit_7, rsRk_lit_8, rsRk_lit_9, rsRk_lit_10, rsRk_lit_11, rsRk_lit_12, rsRk_lit_13, rsRk_lit_14, rsRk_lit_15, rsRk_lit_16, rsRk_lit_17, agRk_lit_0, agRk_lit_1, agRk_lit_2, agRk_lit_3, agRk_lit_4, agRk_lit_5, agRk_lit_6, agRk_lit_7, agRk_lit_8, agRk_lit_9, agRk_lit_10, agRk_lit_11, agRk_lit_12, agRk_lit_13, agRk_lit_14, agRk_lit_15, agRk_lit_16, agRk_lit_17]

/-- Device c's buffers: the two staged argument blocks, the result array, the accumulator and the six staging
    buffers whole; what it hands its three neighbours at the barrier (all of its six landing buffers, and of each
    all-gather buffer everything but its own rows); and its own rows of the six all-gather buffers. -/
def bufsLit (c : Dev nD) : sProp 𝕄 :=
  iprop(heldW c (Memref.whole cc0_stg0_0 : Memref sig .tc .vmem S2048x1024 .f32) (Astg m c)
    ∗ heldW c (Memref.whole cc0_stg1_0 : Memref sig .tc .vmem S1024x2048 .f32) (Bstg m c)
    ∗ heldW c (Memref.whole main_v1 : Memref sig .tc .hbm S2048x2048 .f32) (m ((c : Thread nD τ).loc main_v1))
    ∗ (∃ f, heldW c (Memref.whole cc0_scratch0 : Memref sig .tc .vmem S2048x2048 .f32) f)
    ∗ ((∃ f, heldW c (Memref.whole cc0_scratch7 : Memref sig .tc .vmem S1024x384 .bf16) f)
    ∗ (∃ f, heldW c (Memref.whole cc0_scratch8 : Memref sig .tc .vmem S1024x384 .bf16) f)
    ∗ (∃ f, heldW c (Memref.whole cc0_scratch9 : Memref sig .tc .vmem S1024x384 .bf16) f)
    ∗ (∃ f, heldW c (Memref.whole cc0_scratch10 : Memref sig .tc .vmem S1024x384 .bf16) f)
    ∗ (∃ f, heldW c (Memref.whole cc0_scratch11 : Memref sig .tc .vmem S1024x256 .bf16) f)
    ∗ (∃ f, heldW c (Memref.whole cc0_scratch12 : Memref sig .tc .vmem S1024x256 .bf16) f))
    ∗ (barPay (F := F) (nbr 0 c) 0 ∗ barPay (F := F) (nbr 1 c) 1 ∗ barPay (F := F) (nbr 2 c) 2)
    ∗ ((∃ f, heldW c (agM0_0 c) f)
    ∗ (∃ f, heldW c (agM1_0 c) f)
    ∗ (∃ f, heldW c (agM2_0 c) f)
    ∗ (∃ f, heldW c (agM3_0 c) f)
    ∗ (∃ f, heldW c (agM4_0 c) f)
    ∗ (∃ f, heldW c (agM5_0 c) f)))

/-- What device c's body starts from, under the cells' names K, the waits W. -/
def bodyStart (K : Dev nD × Fin 97 → ℕ) (c : Dev nD) (W : Waits sig Unit) : sProp 𝕄 :=
  iprop((levAts L lv ∗ ownRecs V K c ∗ paidRecs V K c) ∗ toksLit (F := F) c ∗ posLit (F := F) c ∗ credLit (F := F) c
    ∗ owes (c : Thread nD τ) (Owe c 0) W ∗ bufsLit m c)

end Cert.Kernel.Proto

end
-- ==== Proof.PiecesTabBits.lean ====
/-
The set facts about the pieces of the scratch buffers, group by group: the three pieces of the landing
buffer tile it; the pieces of the staging buffer are nested and the first is all of it; a device's rows
of the all-gather buffer at one step and its neighbour's across that step's axis are disjoint and make
up its rows at the next step, and after the last step the whole buffer.
-/
import proofs.«900882_g7700000000000883_dist_matmul_gelu_kshard_i_m2048_n2048_k1024_v7x_i8_f32_1_alg».proof.Proof.PiecesBits

noncomputable section

namespace Cert.Kernel.Proto

open Cert.Kernel Cert.Kernel.Gen Cert.Kernel.Topo
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-! Column group 0 -/
theorem comm_disj01_0 : Disjoint (commM0_0).view.set (commM0_1).view.set := by
  piece_lit unit_disjoint_rows (by decide)
theorem comm_disj02_0 : Disjoint (commM0_0).view.set (commM0_2).view.set := by
  piece_lit unit_disjoint_rows (by decide)
theorem comm_disj12_0 : Disjoint (commM0_1).view.set (commM0_2).view.set := by
  piece_lit unit_disjoint_rows (by decide)
theorem comm_cover_0 : (commM0_0).view.set ∪ (commM0_1).view.set ∪ (commM0_2).view.set = Finset.univ := by
  piece_lit unit_union3_univ (by decide)
theorem stg_univ_0 : (stgM0_0).view.set = Finset.univ := by
  piece_lit unit_eq_univ (by decide)
theorem stg_sub1_0 : (stgM0_1).view.set ⊆ (stgM0_0).view.set := by
  piece_lit unit_subset (by decide)
theorem stg_sub2_0 : (stgM0_2).view.set ⊆ (stgM0_1).view.set := by
  piece_lit unit_subset (by decide)
theorem ag_disj0_0 (c : Dev nD) : Disjoint (agM0_0 c).view.set (agM0_0 (nbr 2 c)).view.set := by
  piece_dev c unit_disjoint_rows [off73_eq]
theorem ag_join0_0 (c : Dev nD) : (agM0_1 c).view.set = (agM0_0 c).view.set ∪ (agM0_0 (nbr 2 c)).view.set := by
  piece_dev c unit_union_rows [off73_eq, off78_eq]
theorem ag_disj1_0 (c : Dev nD) : Disjoint (agM0_1 c).view.set (agM0_1 (nbr 1 c)).view.set := by
  piece_dev c unit_disjoint_rows [off78_eq]
theorem ag_join1_0 (c : Dev nD) : (agM0_2 c).view.set = (agM0_1 c).view.set ∪ (agM0_1 (nbr 1 c)).view.set := by
  piece_dev c unit_union_rows [off78_eq, off100_eq]
theorem ag_disj2_0 (c : Dev nD) : Disjoint (agM0_2 c).view.set (agM0_2 (nbr 0 c)).view.set := by
  piece_dev c unit_disjoint_rows [off100_eq]
theorem ag_cover_0 (c : Dev nD) : (agM0_2 c).view.set ∪ (agM0_2 (nbr 0 c)).view.set = Finset.univ := by
  piece_dev c unit_union_univ [off100_eq]

/-! Column group 1 -/
theorem comm_disj01_1 : Disjoint (commM1_0).view.set (commM1_1).view.set := by
  piece_lit unit_disjoint_rows (by decide)
theorem comm_disj02_1 : Disjoint (commM1_0).view.set (commM1_2).view.set := by
  piece_lit unit_disjoint_rows (by decide)
theorem comm_disj12_1 : Disjoint (commM1_1).view.set (commM1_2).view.set := by
  piece_lit unit_disjoint_rows (by decide)
theorem comm_cover_1 : (commM1_0).view.set ∪ (commM1_1).view.set ∪ (commM1_2).view.set = Finset.univ := by
  piece_lit unit_union3_univ (by decide)
theorem stg_univ_1 : (stgM1_0).view.set = Finset.univ := by
  piece_lit unit_eq_univ (by decide)
theorem stg_sub1_1 : (stgM1_1).view.set ⊆ (stgM1_0).view.set := by
  piece_lit unit_subset (by decide)
theorem stg_sub2_1 : (stgM1_2).view.set ⊆ (stgM1_1).view.set := by
  piece_lit unit_subset (by decide)
theorem ag_disj0_1 (c : Dev nD) : Disjoint (agM1_0 c).view.set (agM1_0 (nbr 0 c)).view.set := by
  piece_dev c unit_disjoint_rows [off74_eq]
theorem ag_join0_1 (c : Dev nD) : (agM1_1 c).view.set = (agM1_0 c).view.set ∪ (agM1_0 (nbr 0 c)).view.set := by
  piece_dev c unit_union_rows [off74_eq, off82_eq]
theorem ag_disj1_1 (c : Dev nD) : Disjoint (agM1_1 c).view.set (agM1_1 (nbr 2 c)).view.set := by
  piece_dev c unit_disjoint_rows [off82_eq]
theorem ag_join1_1 (c : Dev nD) : (agM1_2 c).view.set = (agM1_1 c).view.set ∪ (agM1_1 (nbr 2 c)).view.set := by
  piece_dev c unit_union_rows [off82_eq, off104_eq]
theorem ag_disj2_1 (c : Dev nD) : Disjoint (agM1_2 c).view.set (agM1_2 (nbr 1 c)).view.set := by
  piece_dev c unit_disjoint_rows [off104_eq]
theorem ag_cover_1 (c : Dev nD) : (agM1_2 c).view.set ∪ (agM1_2 (nbr 1 c)).view.set = Finset.univ := by
  piece_dev c unit_union_univ [off104_eq]

/-! Column group 2 -/
theorem comm_disj01_2 : Disjoint (commM2_0).view.set (commM2_1).view.set := by
  piece_lit unit_disjoint_rows (by decide)
theorem comm_disj02_2 : Disjoint (commM2_0).view.set (commM2_2).view.set := by
  piece_lit unit_disjoint_rows (by decide)
theorem comm_disj12_2 : Disjoint (commM2_1).view.set (commM2_2).view.set := by
  piece_lit unit_disjoint_rows (by decide)
theorem comm_cover_2 : (commM2_0).view.set ∪ (commM2_1).view.set ∪ (commM2_2).view.set = Finset.univ := by
  piece_lit unit_union3_univ (by decide)
theorem stg_univ_2 : (stgM2_0).view.set = Finset.univ := by
  piece_lit unit_eq_univ (by decide)
theorem stg_sub1_2 : (stgM2_1).view.set ⊆ (stgM2_0).view.set := by
  piece_lit unit_subset (by decide)
theorem stg_sub2_2 : (stgM2_2).view.set ⊆ (stgM2_1).view.set := by
  piece_lit unit_subset (by decide)
theorem ag_disj0_2 (c : Dev nD) : Disjoint (agM2_0 c).view.set (agM2_0 (nbr 1 c)).view.set := by
  piece_dev c unit_disjoint_rows [off75_eq]
theorem ag_join0_2 (c : Dev nD) : (agM2_1 c).view.set = (agM2_0 c).view.set ∪ (agM2_0 (nbr 1 c)).view.set := by
  piece_dev c unit_union_rows [off75_eq, off86_eq]
theorem ag_disj1_2 (c : Dev nD) : Disjoint (agM2_1 c).view.set (agM2_1 (nbr 0 c)).view.set := by
  piece_dev c unit_disjoint_rows [off86_eq]
theorem ag_join1_2 (c : Dev nD) : (agM2_2 c).view.set = (agM2_1 c).view.set ∪ (agM2_1 (nbr 0 c)).view.set := by
  piece_dev c unit_union_rows [off86_eq, off108_eq]
theorem ag_disj2_2 (c : Dev nD) : Disjoint (agM2_2 c).view.set (agM2_2 (nbr 2 c)).view.set := by
  piece_dev c unit_disjoint_rows [off108_eq]
theorem ag_cover_2 (c : Dev nD) : (agM2_2 c).view.set ∪ (agM2_2 (nbr 2 c)).view.set = Finset.univ := by
  piece_dev c unit_union_univ [off108_eq]

/-! Column group 3 -/
theorem comm_disj01_3 : Disjoint (commM3_0).view.set (commM3_1).view.set := by
  piece_lit unit_disjoint_rows (by decide)
theorem comm_disj02_3 : Disjoint (commM3_0).view.set (commM3_2).view.set := by
  piece_lit unit_disjoint_rows (by decide)
theorem comm_disj12_3 : Disjoint (commM3_1).view.set (commM3_2).view.set := by
  piece_lit unit_disjoint_rows (by decide)
theorem comm_cover_3 : (commM3_0).view.set ∪ (commM3_1).view.set ∪ (commM3_2).view.set = Finset.univ := by
  piece_lit unit_union3_univ (by decide)
theorem stg_univ_3 : (stgM3_0).view.set = Finset.univ := by
  piece_lit unit_eq_univ (by decide)
theorem stg_sub1_3 : (stgM3_1).view.set ⊆ (stgM3_0).view.set := by
  piece_lit unit_subset (by decide)
theorem stg_sub2_3 : (stgM3_2).view.set ⊆ (stgM3_1).view.set := by
  piece_lit unit_subset (by decide)
theorem ag_disj0_3 (c : Dev nD) : Disjoint (agM3_0 c).view.set (agM3_0 (nbr 2 c)).view.set := by
  piece_dev c unit_disjoint_rows [off73_eq]
theorem ag_join0_3 (c : Dev nD) : (agM3_1 c).view.set = (agM3_0 c).view.set ∪ (agM3_0 (nbr 2 c)).view.set := by
  piece_dev c unit_union_rows [off73_eq, off78_eq]
theorem ag_disj1_3 (c : Dev nD) : Disjoint (agM3_1 c).view.set (agM3_1 (nbr 1 c)).view.set := by
  piece_dev c unit_disjoint_rows [off78_eq]
theorem ag_join1_3 (c : Dev nD) : (agM3_2 c).view.set = (agM3_1 c).view.set ∪ (agM3_1 (nbr 1 c)).view.set := by
  piece_dev c unit_union_rows [off78_eq, off100_eq]
theorem ag_disj2_3 (c : Dev nD) : Disjoint (agM3_2 c).view.set (agM3_2 (nbr 0 c)).view.set := by
  piece_dev c unit_disjoint_rows [off100_eq]
theorem ag_cover_3 (c : Dev nD) : (agM3_2 c).view.set ∪ (agM3_2 (nbr 0 c)).view.set = Finset.univ := by
  piece_dev c unit_union_univ [off100_eq]

/-! Column group 4 -/
theorem comm_disj01_4 : Disjoint (commM4_0).view.set (commM4_1).view.set := by
  piece_lit unit_disjoint_rows (by decide)
theorem comm_disj02_4 : Disjoint (commM4_0).view.set (commM4_2).view.set := by
  piece_lit unit_disjoint_rows (by decide)
theorem comm_disj12_4 : Disjoint (commM4_1).view.set (commM4_2).view.set := by
  piece_lit unit_disjoint_rows (by decide)
theorem comm_cover_4 : (commM4_0).view.set ∪ (commM4_1).view.set ∪ (commM4_2).view.set = Finset.univ := by
  piece_lit unit_union3_univ (by decide)
theorem stg_univ_4 : (stgM4_0).view.set = Finset.univ := by
  piece_lit unit_eq_univ (by decide)
theorem stg_sub1_4 : (stgM4_1).view.set ⊆ (stgM4_0).view.set := by
  piece_lit unit_subset (by decide)
theorem stg_sub2_4 : (stgM4_2).view.set ⊆ (stgM4_1).view.set := by
  piece_lit unit_subset (by decide)
theorem ag_disj0_4 (c : Dev nD) : Disjoint (agM4_0 c).view.set (agM4_0 (nbr 0 c)).view.set := by
  piece_dev c unit_disjoint_rows [off76_eq]
theorem ag_join0_4 (c : Dev nD) : (agM4_1 c).view.set = (agM4_0 c).view.set ∪ (agM4_0 (nbr 0 c)).view.set := by
  piece_dev c unit_union_rows [off76_eq, off92_eq]
theorem ag_disj1_4 (c : Dev nD) : Disjoint (agM4_1 c).view.set (agM4_1 (nbr 2 c)).view.set := by
  piece_dev c unit_disjoint_rows [off92_eq]
theorem ag_join1_4 (c : Dev nD) : (agM4_2 c).view.set = (agM4_1 c).view.set ∪ (agM4_1 (nbr 2 c)).view.set := by
  piece_dev c unit_union_rows [off92_eq, off114_eq]
theorem ag_disj2_4 (c : Dev nD) : Disjoint (agM4_2 c).view.set (agM4_2 (nbr 1 c)).view.set := by
  piece_dev c unit_disjoint_rows [off114_eq]
theorem ag_cover_4 (c : Dev nD) : (agM4_2 c).view.set ∪ (agM4_2 (nbr 1 c)).view.set = Finset.univ := by
  piece_dev c unit_union_univ [off114_eq]

/-! Column group 5 -/
theorem comm_disj01_5 : Disjoint (commM5_0).view.set (commM5_1).view.set := by
  piece_lit unit_disjoint_rows (by decide)
theorem comm_disj02_5 : Disjoint (commM5_0).view.set (commM5_2).view.set := by
  piece_lit unit_disjoint_rows (by decide)
theorem comm_disj12_5 : Disjoint (commM5_1).view.set (commM5_2).view.set := by
  piece_lit unit_disjoint_rows (by decide)
theorem comm_cover_5 : (commM5_0).view.set ∪ (commM5_1).view.set ∪ (commM5_2).view.set = Finset.univ := by
  piece_lit unit_union3_univ (by decide)
theorem stg_univ_5 : (stgM5_0).view.set = Finset.univ := by
  piece_lit unit_eq_univ (by decide)
theorem stg_sub1_5 : (stgM5_1).view.set ⊆ (stgM5_0).view.set := by
  piece_lit unit_subset (by decide)
theorem stg_sub2_5 : (stgM5_2).view.set ⊆ (stgM5_1).view.set := by
  piece_lit unit_subset (by decide)
theorem ag_disj0_5 (c : Dev nD) : Disjoint (agM5_0 c).view.set (agM5_0 (nbr 1 c)).view.set := by
  piece_dev c unit_disjoint_rows [off77_eq]
theorem ag_join0_5 (c : Dev nD) : (agM5_1 c).view.set = (agM5_0 c).view.set ∪ (agM5_0 (nbr 1 c)).view.set := by
  piece_dev c unit_union_rows [off77_eq, off96_eq]
theorem ag_disj1_5 (c : Dev nD) : Disjoint (agM5_1 c).view.set (agM5_1 (nbr 0 c)).view.set := by
  piece_dev c unit_disjoint_rows [off96_eq]
theorem ag_join1_5 (c : Dev nD) : (agM5_2 c).view.set = (agM5_1 c).view.set ∪ (agM5_1 (nbr 0 c)).view.set := by
  piece_dev c unit_union_rows [off96_eq, off118_eq]
theorem ag_disj2_5 (c : Dev nD) : Disjoint (agM5_2 c).view.set (agM5_2 (nbr 2 c)).view.set := by
  piece_dev c unit_disjoint_rows [off118_eq]
theorem ag_cover_5 (c : Dev nD) : (agM5_2 c).view.set ∪ (agM5_2 (nbr 2 c)).view.set = Finset.univ := by
  piece_dev c unit_union_univ [off118_eq]

end Cert.Kernel.Proto

end
-- ==== Proof.EpilogueTabBits.lean ====
/-
The end of a device's body, case by case: its 96 protocol semaphores at zero, member by member; landing buffer k
from its three pieces, staging buffer k from its first 256 rows and the two remainders, all-gather buffer k from
its two halves; the accumulator from its 24 blocks; the result array from its 24 blocks, with what is known of
each block's reading.
-/
import proofs.«900882_g7700000000000883_dist_matmul_gelu_kshard_i_m2048_n2048_k1024_v7x_i8_f32_1_alg».proof.Proof.EpilogueCutBits
import proofs.«900882_g7700000000000883_dist_matmul_gelu_kshard_i_m2048_n2048_k1024_v7x_i8_f32_1_alg».proof.Proof.PrologueTabBits
import proofs.«900882_g7700000000000883_dist_matmul_gelu_kshard_i_m2048_n2048_k1024_v7x_i8_f32_1_alg».proof.Proof.PiecesTabBits

set_option maxRecDepth 100000

noncomputable section

namespace Cert.Kernel.Proto

open Cert.Kernel Cert.Kernel.Gen Cert.Kernel.Topo
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (V : Vals F)

/-- Device c's 96 protocol semaphores at zero, member by member. -/
def zeroLit (c : Dev nD) : sProp 𝕄 :=
  iprop(semVal (cell c (CK.rsS 0 0)) 0
    ∗ semVal (cell c (CK.rsS 0 1)) 0
    ∗ semVal (cell c (CK.rsS 0 2)) 0
    ∗ semVal (cell c (CK.rsS 1 0)) 0
    ∗ semVal (cell c (CK.rsS 1 1)) 0
    ∗ semVal (cell c (CK.rsS 1 2)) 0
    ∗ semVal (cell c (CK.rsS 2 0)) 0
    ∗ semVal (cell c (CK.rsS 2 1)) 0
    ∗ semVal (cell c (CK.rsS 2 2)) 0
    ∗ semVal (cell c (CK.rsS 3 0)) 0
    ∗ semVal (cell c (CK.rsS 3 1)) 0
    ∗ semVal (cell c (CK.rsS 3 2)) 0
    ∗ semVal (cell c (CK.rsS 4 0)) 0
    ∗ semVal (cell c (CK.rsS 4 1)) 0
    ∗ semVal (cell c (CK.rsS 4 2)) 0
    ∗ semVal (cell c (CK.rsS 5 0)) 0
    ∗ semVal (cell c (CK.rsS 5 1)) 0
    ∗ semVal (cell c (CK.rsS 5 2)) 0
    ∗ semVal (cell c (CK.rsR 0 0)) 0
    ∗ semVal (cell c (CK.rsR 0 1)) 0
    ∗ semVal (cell c (CK.rsR 0 2)) 0
    ∗ semVal (cell c (CK.rsR 1 0)) 0
    ∗ semVal (cell c (CK.rsR 1 1)) 0
    ∗ semVal (cell c (CK.rsR 1 2)) 0
    ∗ semVal (cell c (CK.rsR 2 0)) 0
    ∗ semVal (cell c (CK.rsR 2 1)) 0
    ∗ semVal (cell c (CK.rsR 2 2)) 0
    ∗ semVal (cell c (CK.rsR 3 0)) 0
    ∗ semVal (cell c (CK.rsR 3 1)) 0
    ∗ semVal (cell c (CK.rsR 3 2)) 0
    ∗ semVal (cell c (CK.rsR 4 0)) 0
    ∗ semVal (cell c (CK.rsR 4 1)) 0
    ∗ semVal (cell c (CK.rsR 4 2)) 0
    ∗ semVal (cell c (CK.rsR 5 0)) 0
    ∗ semVal (cell c (CK.rsR 5 1)) 0
    ∗ semVal (cell c (CK.rsR 5 2)) 0
    ∗ semVal (cell c (CK.agS 0 0)) 0
    ∗ semVal (cell c (CK.agS 0 1)) 0
    ∗ semVal (cell c (CK.agS 0 2)) 0
    ∗ semVal (cell c (CK.agS 1 0)) 0
    ∗ semVal (cell c (CK.agS 1 1)) 0
    ∗ semVal (cell c (CK.agS 1 2)) 0
    ∗ semVal (cell c (CK.agS 2 0)) 0
    ∗ semVal (cell c (CK.agS 2 1)) 0
    ∗ semVal (cell c (CK.agS 2 2)) 0
    ∗ semVal (cell c (CK.agS 3 0)) 0
    ∗ semVal (cell c (CK.agS 3 1)) 0
    ∗ semVal (cell c (CK.agS 3 2)) 0
    ∗ semVal (cell c (CK.agS 4 0)) 0
    ∗ semVal (cell c (CK.agS 4 1)) 0
    ∗ semVal (cell c (CK.agS 4 2)) 0
    ∗ semVal (cell c (CK.agS 5 0)) 0
    ∗ semVal (cell c (CK.agS 5 1)) 0
    ∗ semVal (cell c (CK.agS 5 2)) 0
    ∗ semVal (cell c (CK.agR 0 0)) 0
    ∗ semVal (cell c (CK.agR 0 1)) 0
    ∗ semVal (cell c (CK.agR 0 2)) 0
    ∗ semVal (cell c (CK.agR 1 0)) 0
    ∗ semVal (cell c (CK.agR 1 1)) 0
    ∗ semVal (cell c (CK.agR 1 2)) 0
    ∗ semVal (cell c (CK.agR 2 0)) 0
    ∗ semVal (cell c (CK.agR 2 1)) 0
    ∗ semVal (cell c (CK.agR 2 2)) 0
    ∗ semVal (cell c (CK.agR 3 0)) 0
    ∗ semVal (cell c (CK.agR 3 1)) 0
    ∗ semVal (cell c (CK.agR 3 2)) 0
    ∗ semVal (cell c (CK.agR 4 0)) 0
    ∗ semVal (cell c (CK.agR 4 1)) 0
    ∗ semVal (cell c (CK.agR 4 2)) 0
    ∗ semVal (cell c (CK.agR 5 0)) 0
    ∗ semVal (cell c (CK.agR 5 1)) 0
    ∗ semVal (cell c (CK.agR 5 2)) 0
    ∗ semVal (cell c (CK.out 0)) 0
    ∗ semVal (cell c (CK.out 1)) 0
    ∗ semVal (cell c (CK.out 2)) 0
    ∗ semVal (cell c (CK.out 3)) 0
    ∗ semVal (cell c (CK.out 4)) 0
    ∗ semVal (cell c (CK.out 5)) 0
    ∗ semVal (cell c (CK.out 6)) 0
    ∗ semVal (cell c (CK.out 7)) 0
    ∗ semVal (cell c (CK.out 8)) 0
    ∗ semVal (cell c (CK.out 9)) 0
    ∗ semVal (cell c (CK.out 10)) 0
    ∗ semVal (cell c (CK.out 11)) 0
    ∗ semVal (cell c (CK.out 12)) 0
    ∗ semVal (cell c (CK.out 13)) 0
    ∗ semVal (cell c (CK.out 14)) 0
    ∗ semVal (cell c (CK.out 15)) 0
    ∗ semVal (cell c (CK.out 16)) 0
    ∗ semVal (cell c (CK.out 17)) 0
    ∗ semVal (cell c (CK.out 18)) 0
    ∗ semVal (cell c (CK.out 19)) 0
    ∗ semVal (cell c (CK.out 20)) 0
    ∗ semVal (cell c (CK.out 21)) 0
    ∗ semVal (cell c (CK.out 22)) 0
    ∗ semVal (cell c (CK.out 23)) 0)

omit [FloatOps F] in
/-- A conjunction over a device's 96 cells other than the barrier's, member by member. -/
theorem zero_chain (Φ : Fin 97 → sProp 𝕄) : bigSep (Finset.univ.erase (0 : Fin 97)) Φ = iprop(Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24 ∗ Φ 25 ∗ Φ 26 ∗ Φ 27 ∗ Φ 28 ∗ Φ 29 ∗ Φ 30 ∗ Φ 31 ∗ Φ 32 ∗ Φ 33 ∗ Φ 34 ∗ Φ 35 ∗ Φ 36 ∗ Φ 37 ∗ Φ 38 ∗ Φ 39 ∗ Φ 40 ∗ Φ 41 ∗ Φ 42 ∗ Φ 43 ∗ Φ 44 ∗ Φ 45 ∗ Φ 46 ∗ Φ 47 ∗ Φ 48 ∗ Φ 49 ∗ Φ 50 ∗ Φ 51 ∗ Φ 52 ∗ Φ 53 ∗ Φ 54 ∗ Φ 55 ∗ Φ 56 ∗ Φ 57 ∗ Φ 58 ∗ Φ 59 ∗ Φ 60 ∗ Φ 61 ∗ Φ 62 ∗ Φ 63 ∗ Φ 64 ∗ Φ 65 ∗ Φ 66 ∗ Φ 67 ∗ Φ 68 ∗ Φ 69 ∗ Φ 70 ∗ Φ 71 ∗ Φ 72 ∗ Φ 73 ∗ Φ 74 ∗ Φ 75 ∗ Φ 76 ∗ Φ 77 ∗ Φ 78 ∗ Φ 79 ∗ Φ 80 ∗ Φ 81 ∗ Φ 82 ∗ Φ 83 ∗ Φ 84 ∗ Φ 85 ∗ Φ 86 ∗ Φ 87 ∗ Φ 88 ∗ Φ 89 ∗ Φ 90 ∗ Φ 91 ∗ Φ 92 ∗ Φ 93 ∗ Φ 94 ∗ Φ 95 ∗ Φ 96) :=
  bigSep_eq_bigSepL_of_eq ([1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44, 45, 46, 47, 48, 49, 50, 51, 52, 53, 54, 55, 56, 57, 58, 59, 60, 61, 62, 63, 64, 65, 66, 67, 68, 69, 70, 71, 72, 73, 74, 75, 76, 77, 78, 79, 80, 81, 82, 83, 84, 85, 86, 87, 88, 89, 90, 91, 92, 93, 94, 95, 96] : List (Fin 97)) (by decide) (by decide) Φ

omit [FloatOps F] in
theorem zeroLit_eq (c : Dev nD) : (zeroLit c : sProp 𝕄) = ownZero c := by
  unfold zeroLit ownZero; rw [zero_chain]; simp only [ckOf_lit_1, ckOf_lit_2, ckOf_lit_3, ckOf_lit_4, ckOf_lit_5, ckOf_lit_6, ckOf_lit_7, ckOf_lit_8, ckOf_lit_9, ckOf_lit_10, ckOf_lit_11, ckOf_lit_12, ckOf_lit_13, ckOf_lit_14, ckOf_lit_15, ckOf_lit_16, ckOf_lit_17, ckOf_lit_18, ckOf_lit_19, ckOf_lit_20, ckOf_lit_21, ckOf_lit_22, ckOf_lit_23, ckOf_lit_24, ckOf_lit_25, ckOf_lit_26, ckOf_lit_27, ckOf_lit_28, ckOf_lit_29, ckOf_lit_30, ckOf_lit_31, ckOf_lit_32, ckOf_lit_33, ckOf_lit_34, ckOf_lit_35, ckOf_lit_36, ckOf_lit_37, ckOf_lit_38, ckOf_lit_39, ckOf_lit_40, ckOf_lit_41, ckOf_lit_42, ckOf_lit_43, ckOf_lit_44, ckOf_lit_45, ckOf_lit_46, ckOf_lit_47, ckOf_lit_48, ckOf_lit_49, ckOf_lit_50, ckOf_lit_51, ckOf_lit_52, ckOf_lit_53, ckOf_lit_54, ckOf_lit_55, ckOf_lit_56, ckOf_lit_57, ckOf_lit_58, ckOf_lit_59, ckOf_lit_60, ckOf_lit_61, ckOf_lit_62, ckOf_lit_63, ckOf_lit_64, ckOf_lit_65, ckOf_lit_66, ckOf_lit_67, ckOf_lit_68, ckOf_lit_69, ckOf_lit_70, ckOf_lit_71, ckOf_lit_72, ckOf_lit_73, ckOf_lit_74, ckOf_lit_75, ckOf_lit_76, ckOf_lit_77, ckOf_lit_78, ckOf_lit_79, ckOf_lit_80, ckOf_lit_81, ckOf_lit_82, ckOf_lit_83, ckOf_lit_84, ckOf_lit_85, ckOf_lit_86, ckOf_lit_87, ckOf_lit_88, ckOf_lit_89, ckOf_lit_90, ckOf_lit_91, ckOf_lit_92, ckOf_lit_93, ckOf_lit_94, ckOf_lit_95, ckOf_lit_96]

omit [FloatOps F] in
theorem comm_join_0 (c : Dev nD) :
    iprop(ptsAny (F := F) c commM0_0 ∗ ptsAny (F := F) c commM0_1 ∗ ptsAny (F := F) c commM0_2)
      ⊢ (iprop(∃ f, ((c : Thread nD τ).loc cc0_scratch1) ↦{fullShare} f) : sProp 𝕄) := by
  unfold ptsAny
  iintro ⟨⟨%f0, H0⟩, ⟨%f1, H1⟩, ⟨%f2, H2⟩⟩
  iapply (pts_join3 f0 f1 f2 comm_disj01_0 comm_disj02_0 comm_disj12_0 comm_cover_0)
  isplitl [H0]; · iexact H0
  isplitl [H1]; · iexact H1
  iexact H2
omit [FloatOps F] in
theorem comm_join_1 (c : Dev nD) :
    iprop(ptsAny (F := F) c commM1_0 ∗ ptsAny (F := F) c commM1_1 ∗ ptsAny (F := F) c commM1_2)
      ⊢ (iprop(∃ f, ((c : Thread nD τ).loc cc0_scratch2) ↦{fullShare} f) : sProp 𝕄) := by
  unfold ptsAny
  iintro ⟨⟨%f0, H0⟩, ⟨%f1, H1⟩, ⟨%f2, H2⟩⟩
  iapply (pts_join3 f0 f1 f2 comm_disj01_1 comm_disj02_1 comm_disj12_1 comm_cover_1)
  isplitl [H0]; · iexact H0
  isplitl [H1]; · iexact H1
  iexact H2
omit [FloatOps F] in
theorem comm_join_2 (c : Dev nD) :
    iprop(ptsAny (F := F) c commM2_0 ∗ ptsAny (F := F) c commM2_1 ∗ ptsAny (F := F) c commM2_2)
      ⊢ (iprop(∃ f, ((c : Thread nD τ).loc cc0_scratch3) ↦{fullShare} f) : sProp 𝕄) := by
  unfold ptsAny
  iintro ⟨⟨%f0, H0⟩, ⟨%f1, H1⟩, ⟨%f2, H2⟩⟩
  iapply (pts_join3 f0 f1 f2 comm_disj01_2 comm_disj02_2 comm_disj12_2 comm_cover_2)
  isplitl [H0]; · iexact H0
  isplitl [H1]; · iexact H1
  iexact H2
omit [FloatOps F] in
theorem comm_join_3 (c : Dev nD) :
    iprop(ptsAny (F := F) c commM3_0 ∗ ptsAny (F := F) c commM3_1 ∗ ptsAny (F := F) c commM3_2)
      ⊢ (iprop(∃ f, ((c : Thread nD τ).loc cc0_scratch4) ↦{fullShare} f) : sProp 𝕄) := by
  unfold ptsAny
  iintro ⟨⟨%f0, H0⟩, ⟨%f1, H1⟩, ⟨%f2, H2⟩⟩
  iapply (pts_join3 f0 f1 f2 comm_disj01_3 comm_disj02_3 comm_disj12_3 comm_cover_3)
  isplitl [H0]; · iexact H0
  isplitl [H1]; · iexact H1
  iexact H2
omit [FloatOps F] in
theorem comm_join_4 (c : Dev nD) :
    iprop(ptsAny (F := F) c commM4_0 ∗ ptsAny (F := F) c commM4_1 ∗ ptsAny (F := F) c commM4_2)
      ⊢ (iprop(∃ f, ((c : Thread nD τ).loc cc0_scratch5) ↦{fullShare} f) : sProp 𝕄) := by
  unfold ptsAny
  iintro ⟨⟨%f0, H0⟩, ⟨%f1, H1⟩, ⟨%f2, H2⟩⟩
  iapply (pts_join3 f0 f1 f2 comm_disj01_4 comm_disj02_4 comm_disj12_4 comm_cover_4)
  isplitl [H0]; · iexact H0
  isplitl [H1]; · iexact H1
  iexact H2
omit [FloatOps F] in
theorem comm_join_5 (c : Dev nD) :
    iprop(ptsAny (F := F) c commM5_0 ∗ ptsAny (F := F) c commM5_1 ∗ ptsAny (F := F) c commM5_2)
      ⊢ (iprop(∃ f, ((c : Thread nD τ).loc cc0_scratch6) ↦{fullShare} f) : sProp 𝕄) := by
  unfold ptsAny
  iintro ⟨⟨%f0, H0⟩, ⟨%f1, H1⟩, ⟨%f2, H2⟩⟩
  iapply (pts_join3 f0 f1 f2 comm_disj01_5 comm_disj02_5 comm_disj12_5 comm_cover_5)
  isplitl [H0]; · iexact H0
  isplitl [H1]; · iexact H1
  iexact H2

omit [FloatOps F] in
theorem stg_join_0 (c : Dev nD) :
    iprop(ptsAny (F := F) c stgM0_2
        ∗ (∃ f : Buf (Elt F) ((c : Thread nD τ).loc cc0_scratch7), ((c : Thread nD τ).loc cc0_scratch7) ↦[(stgM0_1).view.set \ (stgM0_2).view.set]{fullShare} f)
        ∗ (∃ f : Buf (Elt F) ((c : Thread nD τ).loc cc0_scratch7), ((c : Thread nD τ).loc cc0_scratch7) ↦[(stgM0_0).view.set \ (stgM0_1).view.set]{fullShare} f))
      ⊢ (iprop(∃ f, ((c : Thread nD τ).loc cc0_scratch7) ↦{fullShare} f) : sProp 𝕄) := by
  unfold ptsAny
  iintro ⟨⟨%f2, H2⟩, ⟨%f1, H1⟩, ⟨%f0, H0⟩⟩
  iapply (pts_join_nested f2 f1 f0 stg_sub2_0 stg_sub1_0 stg_univ_0)
  isplitl [H2]; · iexact H2
  isplitl [H1]; · iexact H1
  iexact H0
omit [FloatOps F] in
theorem stg_join_1 (c : Dev nD) :
    iprop(ptsAny (F := F) c stgM1_2
        ∗ (∃ f : Buf (Elt F) ((c : Thread nD τ).loc cc0_scratch8), ((c : Thread nD τ).loc cc0_scratch8) ↦[(stgM1_1).view.set \ (stgM1_2).view.set]{fullShare} f)
        ∗ (∃ f : Buf (Elt F) ((c : Thread nD τ).loc cc0_scratch8), ((c : Thread nD τ).loc cc0_scratch8) ↦[(stgM1_0).view.set \ (stgM1_1).view.set]{fullShare} f))
      ⊢ (iprop(∃ f, ((c : Thread nD τ).loc cc0_scratch8) ↦{fullShare} f) : sProp 𝕄) := by
  unfold ptsAny
  iintro ⟨⟨%f2, H2⟩, ⟨%f1, H1⟩, ⟨%f0, H0⟩⟩
  iapply (pts_join_nested f2 f1 f0 stg_sub2_1 stg_sub1_1 stg_univ_1)
  isplitl [H2]; · iexact H2
  isplitl [H1]; · iexact H1
  iexact H0
omit [FloatOps F] in
theorem stg_join_2 (c : Dev nD) :
    iprop(ptsAny (F := F) c stgM2_2
        ∗ (∃ f : Buf (Elt F) ((c : Thread nD τ).loc cc0_scratch9), ((c : Thread nD τ).loc cc0_scratch9) ↦[(stgM2_1).view.set \ (stgM2_2).view.set]{fullShare} f)
        ∗ (∃ f : Buf (Elt F) ((c : Thread nD τ).loc cc0_scratch9), ((c : Thread nD τ).loc cc0_scratch9) ↦[(stgM2_0).view.set \ (stgM2_1).view.set]{fullShare} f))
      ⊢ (iprop(∃ f, ((c : Thread nD τ).loc cc0_scratch9) ↦{fullShare} f) : sProp 𝕄) := by
  unfold ptsAny
  iintro ⟨⟨%f2, H2⟩, ⟨%f1, H1⟩, ⟨%f0, H0⟩⟩
  iapply (pts_join_nested f2 f1 f0 stg_sub2_2 stg_sub1_2 stg_univ_2)
  isplitl [H2]; · iexact H2
  isplitl [H1]; · iexact H1
  iexact H0
omit [FloatOps F] in
theorem stg_join_3 (c : Dev nD) :
    iprop(ptsAny (F := F) c stgM3_2
        ∗ (∃ f : Buf (Elt F) ((c : Thread nD τ).loc cc0_scratch10), ((c : Thread nD τ).loc cc0_scratch10) ↦[(stgM3_1).view.set \ (stgM3_2).view.set]{fullShare} f)
        ∗ (∃ f : Buf (Elt F) ((c : Thread nD τ).loc cc0_scratch10), ((c : Thread nD τ).loc cc0_scratch10) ↦[(stgM3_0).view.set \ (stgM3_1).view.set]{fullShare} f))
      ⊢ (iprop(∃ f, ((c : Thread nD τ).loc cc0_scratch10) ↦{fullShare} f) : sProp 𝕄) := by
  unfold ptsAny
  iintro ⟨⟨%f2, H2⟩, ⟨%f1, H1⟩, ⟨%f0, H0⟩⟩
  iapply (pts_join_nested f2 f1 f0 stg_sub2_3 stg_sub1_3 stg_univ_3)
  isplitl [H2]; · iexact H2
  isplitl [H1]; · iexact H1
  iexact H0
omit [FloatOps F] in
theorem stg_join_4 (c : Dev nD) :
    iprop(ptsAny (F := F) c stgM4_2
        ∗ (∃ f : Buf (Elt F) ((c : Thread nD τ).loc cc0_scratch11), ((c : Thread nD τ).loc cc0_scratch11) ↦[(stgM4_1).view.set \ (stgM4_2).view.set]{fullShare} f)
        ∗ (∃ f : Buf (Elt F) ((c : Thread nD τ).loc cc0_scratch11), ((c : Thread nD τ).loc cc0_scratch11) ↦[(stgM4_0).view.set \ (stgM4_1).view.set]{fullShare} f))
      ⊢ (iprop(∃ f, ((c : Thread nD τ).loc cc0_scratch11) ↦{fullShare} f) : sProp 𝕄) := by
  unfold ptsAny
  iintro ⟨⟨%f2, H2⟩, ⟨%f1, H1⟩, ⟨%f0, H0⟩⟩
  iapply (pts_join_nested f2 f1 f0 stg_sub2_4 stg_sub1_4 stg_univ_4)
  isplitl [H2]; · iexact H2
  isplitl [H1]; · iexact H1
  iexact H0
omit [FloatOps F] in
theorem stg_join_5 (c : Dev nD) :
    iprop(ptsAny (F := F) c stgM5_2
        ∗ (∃ f : Buf (Elt F) ((c : Thread nD τ).loc cc0_scratch12), ((c : Thread nD τ).loc cc0_scratch12) ↦[(stgM5_1).view.set \ (stgM5_2).view.set]{fullShare} f)
        ∗ (∃ f : Buf (Elt F) ((c : Thread nD τ).loc cc0_scratch12), ((c : Thread nD τ).loc cc0_scratch12) ↦[(stgM5_0).view.set \ (stgM5_1).view.set]{fullShare} f))
      ⊢ (iprop(∃ f, ((c : Thread nD τ).loc cc0_scratch12) ↦{fullShare} f) : sProp 𝕄) := by
  unfold ptsAny
  iintro ⟨⟨%f2, H2⟩, ⟨%f1, H1⟩, ⟨%f0, H0⟩⟩
  iapply (pts_join_nested f2 f1 f0 stg_sub2_5 stg_sub1_5 stg_univ_5)
  isplitl [H2]; · iexact H2
  isplitl [H1]; · iexact H1
  iexact H0

omit [FloatOps F] in
/-- A half of all-gather buffer 0 held at some contents, the contents typed at the buffer itself. -/
theorem ag_any_0 (c c' : Dev nD) :
    ptsAny (F := F) c (agM0_2 c')
      ⊢ (iprop(∃ f : Buf (Elt F) ((c : Thread nD τ).loc cc0_scratch13), ((c : Thread nD τ).loc cc0_scratch13) ↦[(agM0_2 c').view.set]{fullShare} f) : sProp 𝕄) := by
  unfold ptsAny
  iintro ⟨%f, H⟩
  iexists f
  iexact H
omit [FloatOps F] in
theorem ag_join_0 (c : Dev nD) :
    iprop(ptsAny (F := F) c (agM0_2 c) ∗ ptsAny (F := F) c (agM0_2 (nbr 0 c)))
      ⊢ (iprop(∃ f, ((c : Thread nD τ).loc cc0_scratch13) ↦{fullShare} f) : sProp 𝕄) := by
  iintro ⟨Ha, Hb⟩
  ihave Ha' := (ag_any_0 (F := F) c c) $$ Ha
  ihave Hb' := (ag_any_0 (F := F) c (nbr 0 c)) $$ Hb
  icases Ha' with ⟨%f0, H0⟩
  icases Hb' with ⟨%f1, H1⟩
  iapply (pts_join2 f0 f1 (ag_disj2_0 c) (ag_cover_0 c))
  isplitl [H0]; · iexact H0
  iexact H1
omit [FloatOps F] in
/-- A half of all-gather buffer 1 held at some contents, the contents typed at the buffer itself. -/
theorem ag_any_1 (c c' : Dev nD) :
    ptsAny (F := F) c (agM1_2 c')
      ⊢ (iprop(∃ f : Buf (Elt F) ((c : Thread nD τ).loc cc0_scratch14), ((c : Thread nD τ).loc cc0_scratch14) ↦[(agM1_2 c').view.set]{fullShare} f) : sProp 𝕄) := by
  unfold ptsAny
  iintro ⟨%f, H⟩
  iexists f
  iexact H
omit [FloatOps F] in
theorem ag_join_1 (c : Dev nD) :
    iprop(ptsAny (F := F) c (agM1_2 c) ∗ ptsAny (F := F) c (agM1_2 (nbr 1 c)))
      ⊢ (iprop(∃ f, ((c : Thread nD τ).loc cc0_scratch14) ↦{fullShare} f) : sProp 𝕄) := by
  iintro ⟨Ha, Hb⟩
  ihave Ha' := (ag_any_1 (F := F) c c) $$ Ha
  ihave Hb' := (ag_any_1 (F := F) c (nbr 1 c)) $$ Hb
  icases Ha' with ⟨%f0, H0⟩
  icases Hb' with ⟨%f1, H1⟩
  iapply (pts_join2 f0 f1 (ag_disj2_1 c) (ag_cover_1 c))
  isplitl [H0]; · iexact H0
  iexact H1
omit [FloatOps F] in
/-- A half of all-gather buffer 2 held at some contents, the contents typed at the buffer itself. -/
theorem ag_any_2 (c c' : Dev nD) :
    ptsAny (F := F) c (agM2_2 c')
      ⊢ (iprop(∃ f : Buf (Elt F) ((c : Thread nD τ).loc cc0_scratch15), ((c : Thread nD τ).loc cc0_scratch15) ↦[(agM2_2 c').view.set]{fullShare} f) : sProp 𝕄) := by
  unfold ptsAny
  iintro ⟨%f, H⟩
  iexists f
  iexact H
omit [FloatOps F] in
theorem ag_join_2 (c : Dev nD) :
    iprop(ptsAny (F := F) c (agM2_2 c) ∗ ptsAny (F := F) c (agM2_2 (nbr 2 c)))
      ⊢ (iprop(∃ f, ((c : Thread nD τ).loc cc0_scratch15) ↦{fullShare} f) : sProp 𝕄) := by
  iintro ⟨Ha, Hb⟩
  ihave Ha' := (ag_any_2 (F := F) c c) $$ Ha
  ihave Hb' := (ag_any_2 (F := F) c (nbr 2 c)) $$ Hb
  icases Ha' with ⟨%f0, H0⟩
  icases Hb' with ⟨%f1, H1⟩
  iapply (pts_join2 f0 f1 (ag_disj2_2 c) (ag_cover_2 c))
  isplitl [H0]; · iexact H0
  iexact H1
omit [FloatOps F] in
/-- A half of all-gather buffer 3 held at some contents, the contents typed at the buffer itself. -/
theorem ag_any_3 (c c' : Dev nD) :
    ptsAny (F := F) c (agM3_2 c')
      ⊢ (iprop(∃ f : Buf (Elt F) ((c : Thread nD τ).loc cc0_scratch16), ((c : Thread nD τ).loc cc0_scratch16) ↦[(agM3_2 c').view.set]{fullShare} f) : sProp 𝕄) := by
  unfold ptsAny
  iintro ⟨%f, H⟩
  iexists f
  iexact H
omit [FloatOps F] in
theorem ag_join_3 (c : Dev nD) :
    iprop(ptsAny (F := F) c (agM3_2 c) ∗ ptsAny (F := F) c (agM3_2 (nbr 0 c)))
      ⊢ (iprop(∃ f, ((c : Thread nD τ).loc cc0_scratch16) ↦{fullShare} f) : sProp 𝕄) := by
  iintro ⟨Ha, Hb⟩
  ihave Ha' := (ag_any_3 (F := F) c c) $$ Ha
  ihave Hb' := (ag_any_3 (F := F) c (nbr 0 c)) $$ Hb
  icases Ha' with ⟨%f0, H0⟩
  icases Hb' with ⟨%f1, H1⟩
  iapply (pts_join2 f0 f1 (ag_disj2_3 c) (ag_cover_3 c))
  isplitl [H0]; · iexact H0
  iexact H1
omit [FloatOps F] in
/-- A half of all-gather buffer 4 held at some contents, the contents typed at the buffer itself. -/
theorem ag_any_4 (c c' : Dev nD) :
    ptsAny (F := F) c (agM4_2 c')
      ⊢ (iprop(∃ f : Buf (Elt F) ((c : Thread nD τ).loc cc0_scratch17), ((c : Thread nD τ).loc cc0_scratch17) ↦[(agM4_2 c').view.set]{fullShare} f) : sProp 𝕄) := by
  unfold ptsAny
  iintro ⟨%f, H⟩
  iexists f
  iexact H
omit [FloatOps F] in
theorem ag_join_4 (c : Dev nD) :
    iprop(ptsAny (F := F) c (agM4_2 c) ∗ ptsAny (F := F) c (agM4_2 (nbr 1 c)))
      ⊢ (iprop(∃ f, ((c : Thread nD τ).loc cc0_scratch17) ↦{fullShare} f) : sProp 𝕄) := by
  iintro ⟨Ha, Hb⟩
  ihave Ha' := (ag_any_4 (F := F) c c) $$ Ha
  ihave Hb' := (ag_any_4 (F := F) c (nbr 1 c)) $$ Hb
  icases Ha' with ⟨%f0, H0⟩
  icases Hb' with ⟨%f1, H1⟩
  iapply (pts_join2 f0 f1 (ag_disj2_4 c) (ag_cover_4 c))
  isplitl [H0]; · iexact H0
  iexact H1
omit [FloatOps F] in
/-- A half of all-gather buffer 5 held at some contents, the contents typed at the buffer itself. -/
theorem ag_any_5 (c c' : Dev nD) :
    ptsAny (F := F) c (agM5_2 c')
      ⊢ (iprop(∃ f : Buf (Elt F) ((c : Thread nD τ).loc cc0_scratch18), ((c : Thread nD τ).loc cc0_scratch18) ↦[(agM5_2 c').view.set]{fullShare} f) : sProp 𝕄) := by
  unfold ptsAny
  iintro ⟨%f, H⟩
  iexists f
  iexact H
omit [FloatOps F] in
theorem ag_join_5 (c : Dev nD) :
    iprop(ptsAny (F := F) c (agM5_2 c) ∗ ptsAny (F := F) c (agM5_2 (nbr 2 c)))
      ⊢ (iprop(∃ f, ((c : Thread nD τ).loc cc0_scratch18) ↦{fullShare} f) : sProp 𝕄) := by
  iintro ⟨Ha, Hb⟩
  ihave Ha' := (ag_any_5 (F := F) c c) $$ Ha
  ihave Hb' := (ag_any_5 (F := F) c (nbr 2 c)) $$ Hb
  icases Ha' with ⟨%f0, H0⟩
  icases Hb' with ⟨%f1, H1⟩
  iapply (pts_join2 f0 f1 (ag_disj2_5 c) (ag_cover_5 c))
  isplitl [H0]; · iexact H0
  iexact H1

end Cert.Kernel.Proto

end
-- ==== Proof.EpilogueOutBits.lean ====
/-
The accumulator from its 24 blocks, each at some contents; the result array from its 24 blocks, each reading
something of which its result predicate holds: that is then known of the whole array's reading, block by block.
-/
import proofs.«900882_g7700000000000883_dist_matmul_gelu_kshard_i_m2048_n2048_k1024_v7x_i8_f32_1_alg».proof.Proof.EpilogueCutBits
import proofs.«900882_g7700000000000883_dist_matmul_gelu_kshard_i_m2048_n2048_k1024_v7x_i8_f32_1_alg».proof.Proof.PiecesOutTabBits

set_option maxRecDepth 100000

noncomputable section

namespace Cert.Kernel.Proto

open Cert.Kernel Cert.Kernel.Gen Cert.Kernel.Topo
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (V : Vals F)

omit [FloatOps F] in
theorem src_any_0 (c : Dev nD) : ptsAny (F := F) c (outSrcM0 c)
    ⊢ (iprop(∃ f : Buf (Elt F) ((Memref.whole cc0_scratch0).view.loc (c : Thread nD τ)), ((Memref.whole cc0_scratch0).view.loc (c : Thread nD τ)) ↦[outSet c 0]{fullShare} f) : sProp 𝕄) := by
  unfold ptsAny; rw [outSrc_set_0]
omit [FloatOps F] in
theorem src_any_1 (c : Dev nD) : ptsAny (F := F) c (outSrcM1 c)
    ⊢ (iprop(∃ f : Buf (Elt F) ((Memref.whole cc0_scratch0).view.loc (c : Thread nD τ)), ((Memref.whole cc0_scratch0).view.loc (c : Thread nD τ)) ↦[outSet c 1]{fullShare} f) : sProp 𝕄) := by
  unfold ptsAny; rw [outSrc_set_1]
omit [FloatOps F] in
theorem src_any_2 (c : Dev nD) : ptsAny (F := F) c (outSrcM2 c)
    ⊢ (iprop(∃ f : Buf (Elt F) ((Memref.whole cc0_scratch0).view.loc (c : Thread nD τ)), ((Memref.whole cc0_scratch0).view.loc (c : Thread nD τ)) ↦[outSet c 2]{fullShare} f) : sProp 𝕄) := by
  unfold ptsAny; rw [outSrc_set_2]
omit [FloatOps F] in
theorem src_any_3 (c : Dev nD) : ptsAny (F := F) c (outSrcM3 c)
    ⊢ (iprop(∃ f : Buf (Elt F) ((Memref.whole cc0_scratch0).view.loc (c : Thread nD τ)), ((Memref.whole cc0_scratch0).view.loc (c : Thread nD τ)) ↦[outSet c 3]{fullShare} f) : sProp 𝕄) := by
  unfold ptsAny; rw [outSrc_set_3]
omit [FloatOps F] in
theorem src_any_4 (c : Dev nD) : ptsAny (F := F) c (outSrcM4 c)
    ⊢ (iprop(∃ f : Buf (Elt F) ((Memref.whole cc0_scratch0).view.loc (c : Thread nD τ)), ((Memref.whole cc0_scratch0).view.loc (c : Thread nD τ)) ↦[outSet c 4]{fullShare} f) : sProp 𝕄) := by
  unfold ptsAny; rw [outSrc_set_4]
omit [FloatOps F] in
theorem src_any_5 (c : Dev nD) : ptsAny (F := F) c (outSrcM5 c)
    ⊢ (iprop(∃ f : Buf (Elt F) ((Memref.whole cc0_scratch0).view.loc (c : Thread nD τ)), ((Memref.whole cc0_scratch0).view.loc (c : Thread nD τ)) ↦[outSet c 5]{fullShare} f) : sProp 𝕄) := by
  unfold ptsAny; rw [outSrc_set_5]
omit [FloatOps F] in
theorem src_any_6 (c : Dev nD) : ptsAny (F := F) c (outSrcM6 c)
    ⊢ (iprop(∃ f : Buf (Elt F) ((Memref.whole cc0_scratch0).view.loc (c : Thread nD τ)), ((Memref.whole cc0_scratch0).view.loc (c : Thread nD τ)) ↦[outSet c 6]{fullShare} f) : sProp 𝕄) := by
  unfold ptsAny; rw [outSrc_set_6]
omit [FloatOps F] in
theorem src_any_7 (c : Dev nD) : ptsAny (F := F) c (outSrcM7 c)
    ⊢ (iprop(∃ f : Buf (Elt F) ((Memref.whole cc0_scratch0).view.loc (c : Thread nD τ)), ((Memref.whole cc0_scratch0).view.loc (c : Thread nD τ)) ↦[outSet c 7]{fullShare} f) : sProp 𝕄) := by
  unfold ptsAny; rw [outSrc_set_7]
omit [FloatOps F] in
theorem src_any_8 (c : Dev nD) : ptsAny (F := F) c (outSrcM8 c)
    ⊢ (iprop(∃ f : Buf (Elt F) ((Memref.whole cc0_scratch0).view.loc (c : Thread nD τ)), ((Memref.whole cc0_scratch0).view.loc (c : Thread nD τ)) ↦[outSet c 8]{fullShare} f) : sProp 𝕄) := by
  unfold ptsAny; rw [outSrc_set_8]
omit [FloatOps F] in
theorem src_any_9 (c : Dev nD) : ptsAny (F := F) c (outSrcM9 c)
    ⊢ (iprop(∃ f : Buf (Elt F) ((Memref.whole cc0_scratch0).view.loc (c : Thread nD τ)), ((Memref.whole cc0_scratch0).view.loc (c : Thread nD τ)) ↦[outSet c 9]{fullShare} f) : sProp 𝕄) := by
  unfold ptsAny; rw [outSrc_set_9]
omit [FloatOps F] in
theorem src_any_10 (c : Dev nD) : ptsAny (F := F) c (outSrcM10 c)
    ⊢ (iprop(∃ f : Buf (Elt F) ((Memref.whole cc0_scratch0).view.loc (c : Thread nD τ)), ((Memref.whole cc0_scratch0).view.loc (c : Thread nD τ)) ↦[outSet c 10]{fullShare} f) : sProp 𝕄) := by
  unfold ptsAny; rw [outSrc_set_10]
omit [FloatOps F] in
theorem src_any_11 (c : Dev nD) : ptsAny (F := F) c (outSrcM11 c)
    ⊢ (iprop(∃ f : Buf (Elt F) ((Memref.whole cc0_scratch0).view.loc (c : Thread nD τ)), ((Memref.whole cc0_scratch0).view.loc (c : Thread nD τ)) ↦[outSet c 11]{fullShare} f) : sProp 𝕄) := by
  unfold ptsAny; rw [outSrc_set_11]
omit [FloatOps F] in
theorem src_any_12 (c : Dev nD) : ptsAny (F := F) c (outSrcM12 c)
    ⊢ (iprop(∃ f : Buf (Elt F) ((Memref.whole cc0_scratch0).view.loc (c : Thread nD τ)), ((Memref.whole cc0_scratch0).view.loc (c : Thread nD τ)) ↦[outSet c 12]{fullShare} f) : sProp 𝕄) := by
  unfold ptsAny; rw [outSrc_set_12]
omit [FloatOps F] in
theorem src_any_13 (c : Dev nD) : ptsAny (F := F) c (outSrcM13 c)
    ⊢ (iprop(∃ f : Buf (Elt F) ((Memref.whole cc0_scratch0).view.loc (c : Thread nD τ)), ((Memref.whole cc0_scratch0).view.loc (c : Thread nD τ)) ↦[outSet c 13]{fullShare} f) : sProp 𝕄) := by
  unfold ptsAny; rw [outSrc_set_13]
omit [FloatOps F] in
theorem src_any_14 (c : Dev nD) : ptsAny (F := F) c (outSrcM14 c)
    ⊢ (iprop(∃ f : Buf (Elt F) ((Memref.whole cc0_scratch0).view.loc (c : Thread nD τ)), ((Memref.whole cc0_scratch0).view.loc (c : Thread nD τ)) ↦[outSet c 14]{fullShare} f) : sProp 𝕄) := by
  unfold ptsAny; rw [outSrc_set_14]
omit [FloatOps F] in
theorem src_any_15 (c : Dev nD) : ptsAny (F := F) c (outSrcM15 c)
    ⊢ (iprop(∃ f : Buf (Elt F) ((Memref.whole cc0_scratch0).view.loc (c : Thread nD τ)), ((Memref.whole cc0_scratch0).view.loc (c : Thread nD τ)) ↦[outSet c 15]{fullShare} f) : sProp 𝕄) := by
  unfold ptsAny; rw [outSrc_set_15]
omit [FloatOps F] in
theorem src_any_16 (c : Dev nD) : ptsAny (F := F) c (outSrcM16 c)
    ⊢ (iprop(∃ f : Buf (Elt F) ((Memref.whole cc0_scratch0).view.loc (c : Thread nD τ)), ((Memref.whole cc0_scratch0).view.loc (c : Thread nD τ)) ↦[outSet c 16]{fullShare} f) : sProp 𝕄) := by
  unfold ptsAny; rw [outSrc_set_16]
omit [FloatOps F] in
theorem src_any_17 (c : Dev nD) : ptsAny (F := F) c (outSrcM17 c)
    ⊢ (iprop(∃ f : Buf (Elt F) ((Memref.whole cc0_scratch0).view.loc (c : Thread nD τ)), ((Memref.whole cc0_scratch0).view.loc (c : Thread nD τ)) ↦[outSet c 17]{fullShare} f) : sProp 𝕄) := by
  unfold ptsAny; rw [outSrc_set_17]
omit [FloatOps F] in
theorem src_any_18 (c : Dev nD) : ptsAny (F := F) c (outSrcM18 c)
    ⊢ (iprop(∃ f : Buf (Elt F) ((Memref.whole cc0_scratch0).view.loc (c : Thread nD τ)), ((Memref.whole cc0_scratch0).view.loc (c : Thread nD τ)) ↦[outSet c 18]{fullShare} f) : sProp 𝕄) := by
  unfold ptsAny; rw [outSrc_set_18]
omit [FloatOps F] in
theorem src_any_19 (c : Dev nD) : ptsAny (F := F) c (outSrcM19 c)
    ⊢ (iprop(∃ f : Buf (Elt F) ((Memref.whole cc0_scratch0).view.loc (c : Thread nD τ)), ((Memref.whole cc0_scratch0).view.loc (c : Thread nD τ)) ↦[outSet c 19]{fullShare} f) : sProp 𝕄) := by
  unfold ptsAny; rw [outSrc_set_19]
omit [FloatOps F] in
theorem src_any_20 (c : Dev nD) : ptsAny (F := F) c (outSrcM20 c)
    ⊢ (iprop(∃ f : Buf (Elt F) ((Memref.whole cc0_scratch0).view.loc (c : Thread nD τ)), ((Memref.whole cc0_scratch0).view.loc (c : Thread nD τ)) ↦[outSet c 20]{fullShare} f) : sProp 𝕄) := by
  unfold ptsAny; rw [outSrc_set_20]
omit [FloatOps F] in
theorem src_any_21 (c : Dev nD) : ptsAny (F := F) c (outSrcM21 c)
    ⊢ (iprop(∃ f : Buf (Elt F) ((Memref.whole cc0_scratch0).view.loc (c : Thread nD τ)), ((Memref.whole cc0_scratch0).view.loc (c : Thread nD τ)) ↦[outSet c 21]{fullShare} f) : sProp 𝕄) := by
  unfold ptsAny; rw [outSrc_set_21]
omit [FloatOps F] in
theorem src_any_22 (c : Dev nD) : ptsAny (F := F) c (outSrcM22 c)
    ⊢ (iprop(∃ f : Buf (Elt F) ((Memref.whole cc0_scratch0).view.loc (c : Thread nD τ)), ((Memref.whole cc0_scratch0).view.loc (c : Thread nD τ)) ↦[outSet c 22]{fullShare} f) : sProp 𝕄) := by
  unfold ptsAny; rw [outSrc_set_22]
omit [FloatOps F] in
theorem src_any_23 (c : Dev nD) : ptsAny (F := F) c (outSrcM23 c)
    ⊢ (iprop(∃ f : Buf (Elt F) ((Memref.whole cc0_scratch0).view.loc (c : Thread nD τ)), ((Memref.whole cc0_scratch0).view.loc (c : Thread nD τ)) ↦[outSet c 23]{fullShare} f) : sProp 𝕄) := by
  unfold ptsAny; rw [outSrc_set_23]

/-- The accumulator's 24 blocks, each at some contents. -/
def accLit (c : Dev nD) : sProp 𝕄 :=
  iprop(ptsAny (F := F) c (outSrcM0 c)
    ∗ ptsAny (F := F) c (outSrcM1 c)
    ∗ ptsAny (F := F) c (outSrcM2 c)
    ∗ ptsAny (F := F) c (outSrcM3 c)
    ∗ ptsAny (F := F) c (outSrcM4 c)
    ∗ ptsAny (F := F) c (outSrcM5 c)
    ∗ ptsAny (F := F) c (outSrcM6 c)
    ∗ ptsAny (F := F) c (outSrcM7 c)
    ∗ ptsAny (F := F) c (outSrcM8 c)
    ∗ ptsAny (F := F) c (outSrcM9 c)
    ∗ ptsAny (F := F) c (outSrcM10 c)
    ∗ ptsAny (F := F) c (outSrcM11 c)
    ∗ ptsAny (F := F) c (outSrcM12 c)
    ∗ ptsAny (F := F) c (outSrcM13 c)
    ∗ ptsAny (F := F) c (outSrcM14 c)
    ∗ ptsAny (F := F) c (outSrcM15 c)
    ∗ ptsAny (F := F) c (outSrcM16 c)
    ∗ ptsAny (F := F) c (outSrcM17 c)
    ∗ ptsAny (F := F) c (outSrcM18 c)
    ∗ ptsAny (F := F) c (outSrcM19 c)
    ∗ ptsAny (F := F) c (outSrcM20 c)
    ∗ ptsAny (F := F) c (outSrcM21 c)
    ∗ ptsAny (F := F) c (outSrcM22 c)
    ∗ ptsAny (F := F) c (outSrcM23 c))

theorem acc_whole (c : Dev nD) : (accLit c : sProp 𝕄) ⊢ iprop(∃ f, ((c : Thread nD τ).loc cc0_scratch0) ↦{fullShare} f) := by
  unfold accLit
  refine BIBase.Entails.trans (BIClass.sep_mono (src_any_0 c) (BIClass.sep_mono (src_any_1 c) (BIClass.sep_mono (src_any_2 c) (BIClass.sep_mono (src_any_3 c) (BIClass.sep_mono (src_any_4 c) (BIClass.sep_mono (src_any_5 c) (BIClass.sep_mono (src_any_6 c) (BIClass.sep_mono (src_any_7 c) (BIClass.sep_mono (src_any_8 c) (BIClass.sep_mono (src_any_9 c) (BIClass.sep_mono (src_any_10 c) (BIClass.sep_mono (src_any_11 c) (BIClass.sep_mono (src_any_12 c) (BIClass.sep_mono (src_any_13 c) (BIClass.sep_mono (src_any_14 c) (BIClass.sep_mono (src_any_15 c) (BIClass.sep_mono (src_any_16 c) (BIClass.sep_mono (src_any_17 c) (BIClass.sep_mono (src_any_18 c) (BIClass.sep_mono (src_any_19 c) (BIClass.sep_mono (src_any_20 c) (BIClass.sep_mono (src_any_21 c) (BIClass.sep_mono (src_any_22 c) (src_any_23 c)))))))))))))))))))))))) ?_
  refine BIBase.Entails.trans (Entails.of_eq (sep_fin24 (fun j : Fin 24 => (iprop(∃ f : Buf (Elt F) ((Memref.whole cc0_scratch0).view.loc (c : Thread nD τ)), ((Memref.whole cc0_scratch0).view.loc (c : Thread nD τ)) ↦[outSet c j]{fullShare} f) : sProp 𝕄))).symm) ?_
  exact acc_join c

/-- What is known of the reading of result block j (one clause per block; the others are void). -/
def outP (c : Dev nD) (j : Fin 24) (f : Buf (Elt F) ((Memref.whole main_v1).view.loc (c : Thread nD τ))) : Prop :=
  (j.val = 0 → V.out0 c ((outDstM0 c).view.read (Elt F) f))
    ∧ (j.val = 1 → V.out1 c ((outDstM1 c).view.read (Elt F) f))
    ∧ (j.val = 2 → V.out2 c ((outDstM2 c).view.read (Elt F) f))
    ∧ (j.val = 3 → V.out3 c ((outDstM3 c).view.read (Elt F) f))
    ∧ (j.val = 4 → V.out4 c ((outDstM4 c).view.read (Elt F) f))
    ∧ (j.val = 5 → V.out5 c ((outDstM5 c).view.read (Elt F) f))
    ∧ (j.val = 6 → V.out6 c ((outDstM6 c).view.read (Elt F) f))
    ∧ (j.val = 7 → V.out7 c ((outDstM7 c).view.read (Elt F) f))
    ∧ (j.val = 8 → V.out8 c ((outDstM8 c).view.read (Elt F) f))
    ∧ (j.val = 9 → V.out9 c ((outDstM9 c).view.read (Elt F) f))
    ∧ (j.val = 10 → V.out10 c ((outDstM10 c).view.read (Elt F) f))
    ∧ (j.val = 11 → V.out11 c ((outDstM11 c).view.read (Elt F) f))
    ∧ (j.val = 12 → V.out12 c ((outDstM12 c).view.read (Elt F) f))
    ∧ (j.val = 13 → V.out13 c ((outDstM13 c).view.read (Elt F) f))
    ∧ (j.val = 14 → V.out14 c ((outDstM14 c).view.read (Elt F) f))
    ∧ (j.val = 15 → V.out15 c ((outDstM15 c).view.read (Elt F) f))
    ∧ (j.val = 16 → V.out16 c ((outDstM16 c).view.read (Elt F) f))
    ∧ (j.val = 17 → V.out17 c ((outDstM17 c).view.read (Elt F) f))
    ∧ (j.val = 18 → V.out18 c ((outDstM18 c).view.read (Elt F) f))
    ∧ (j.val = 19 → V.out19 c ((outDstM19 c).view.read (Elt F) f))
    ∧ (j.val = 20 → V.out20 c ((outDstM20 c).view.read (Elt F) f))
    ∧ (j.val = 21 → V.out21 c ((outDstM21 c).view.read (Elt F) f))
    ∧ (j.val = 22 → V.out22 c ((outDstM22 c).view.read (Elt F) f))
    ∧ (j.val = 23 → V.out23 c ((outDstM23 c).view.read (Elt F) f))

omit [FloatOps F] in
theorem outP_intro_0 (c : Dev nD) (f : Buf (Elt F) ((Memref.whole main_v1).view.loc (c : Thread nD τ))) (hp : V.out0 c ((outDstM0 c).view.read (Elt F) f)) : outP V c 0 f := by
  unfold outP
  refine ⟨?_, ?_, ?_, ?_, ?_, ?_, ?_, ?_, ?_, ?_, ?_, ?_, ?_, ?_, ?_, ?_, ?_, ?_, ?_, ?_, ?_, ?_, ?_, ?_⟩ <;> first | exact fun _ => hp | exact fun h => absurd h (by decide)
omit [FloatOps F] in
theorem outP_intro_1 (c : Dev nD) (f : Buf (Elt F) ((Memref.whole main_v1).view.loc (c : Thread nD τ))) (hp : V.out1 c ((outDstM1 c).view.read (Elt F) f)) : outP V c 1 f := by
  unfold outP
  refine ⟨?_, ?_, ?_, ?_, ?_, ?_, ?_, ?_, ?_, ?_, ?_, ?_, ?_, ?_, ?_, ?_, ?_, ?_, ?_, ?_, ?_, ?_, ?_, ?_⟩ <;> first | exact fun _ => hp | exact fun h => absurd h (by decide)
omit [FloatOps F] in
theorem outP_intro_2 (c : Dev nD) (f : Buf (Elt F) ((Memref.whole main_v1).view.loc (c : Thread nD τ))) (hp : V.out2 c ((outDstM2 c).view.read (Elt F) f)) : outP V c 2 f := by
  unfold outP
  refine ⟨?_, ?_, ?_, ?_, ?_, ?_, ?_, ?_, ?_, ?_, ?_, ?_, ?_, ?_, ?_, ?_, ?_, ?_, ?_, ?_, ?_, ?_, ?_, ?_⟩ <;> first | exact fun _ => hp | exact fun h => absurd h (by decide)
omit [FloatOps F] in
theorem outP_intro_3 (c : Dev nD) (f : Buf (Elt F) ((Memref.whole main_v1).view.loc (c : Thread nD τ))) (hp : V.out3 c ((outDstM3 c).view.read (Elt F) f)) : outP V c 3 f := by
  unfold outP
  refine ⟨?_, ?_, ?_, ?_, ?_, ?_, ?_, ?_, ?_, ?_, ?_, ?_, ?_, ?_, ?_, ?_, ?_, ?_, ?_, ?_, ?_, ?_, ?_, ?_⟩ <;> first | exact fun _ => hp | exact fun h => absurd h (by decide)
omit [FloatOps F] in
theorem outP_intro_4 (c : Dev nD) (f : Buf (Elt F) ((Memref.whole main_v1).view.loc (c : Thread nD τ))) (hp : V.out4 c ((outDstM4 c).view.read (Elt F) f)) : outP V c 4 f := by
  unfold outP
  refine ⟨?_, ?_, ?_, ?_, ?_, ?_, ?_, ?_, ?_, ?_, ?_, ?_, ?_, ?_, ?_, ?_, ?_, ?_, ?_, ?_, ?_, ?_, ?_, ?_⟩ <;> first | exact fun _ => hp | exact fun h => absurd h (by decide)
omit [FloatOps F] in
theorem outP_intro_5 (c : Dev nD) (f : Buf (Elt F) ((Memref.whole main_v1).view.loc (c : Thread nD τ))) (hp : V.out5 c ((outDstM5 c).view.read (Elt F) f)) : outP V c 5 f := by
  unfold outP
  refine ⟨?_, ?_, ?_, ?_, ?_, ?_, ?_, ?_, ?_, ?_, ?_, ?_, ?_, ?_, ?_, ?_, ?_, ?_, ?_, ?_, ?_, ?_, ?_, ?_⟩ <;> first | exact fun _ => hp | exact fun h => absurd h (by decide)
omit [FloatOps F] in
theorem outP_intro_6 (c : Dev nD) (f : Buf (Elt F) ((Memref.whole main_v1).view.loc (c : Thread nD τ))) (hp : V.out6 c ((outDstM6 c).view.read (Elt F) f)) : outP V c 6 f := by
  unfold outP
  refine ⟨?_, ?_, ?_, ?_, ?_, ?_, ?_, ?_, ?_, ?_, ?_, ?_, ?_, ?_, ?_, ?_, ?_, ?_, ?_, ?_, ?_, ?_, ?_, ?_⟩ <;> first | exact fun _ => hp | exact fun h => absurd h (by decide)
omit [FloatOps F] in
theorem outP_intro_7 (c : Dev nD) (f : Buf (Elt F) ((Memref.whole main_v1).view.loc (c : Thread nD τ))) (hp : V.out7 c ((outDstM7 c).view.read (Elt F) f)) : outP V c 7 f := by
  unfold outP
  refine ⟨?_, ?_, ?_, ?_, ?_, ?_, ?_, ?_, ?_, ?_, ?_, ?_, ?_, ?_, ?_, ?_, ?_, ?_, ?_, ?_, ?_, ?_, ?_, ?_⟩ <;> first | exact fun _ => hp | exact fun h => absurd h (by decide)
omit [FloatOps F] in
theorem outP_intro_8 (c : Dev nD) (f : Buf (Elt F) ((Memref.whole main_v1).view.loc (c : Thread nD τ))) (hp : V.out8 c ((outDstM8 c).view.read (Elt F) f)) : outP V c 8 f := by
  unfold outP
  refine ⟨?_, ?_, ?_, ?_, ?_, ?_, ?_, ?_, ?_, ?_, ?_, ?_, ?_, ?_, ?_, ?_, ?_, ?_, ?_, ?_, ?_, ?_, ?_, ?_⟩ <;> first | exact fun _ => hp | exact fun h => absurd h (by decide)
omit [FloatOps F] in
theorem outP_intro_9 (c : Dev nD) (f : Buf (Elt F) ((Memref.whole main_v1).view.loc (c : Thread nD τ))) (hp : V.out9 c ((outDstM9 c).view.read (Elt F) f)) : outP V c 9 f := by
  unfold outP
  refine ⟨?_, ?_, ?_, ?_, ?_, ?_, ?_, ?_, ?_, ?_, ?_, ?_, ?_, ?_, ?_, ?_, ?_, ?_, ?_, ?_, ?_, ?_, ?_, ?_⟩ <;> first | exact fun _ => hp | exact fun h => absurd h (by decide)
omit [FloatOps F] in
theorem outP_intro_10 (c : Dev nD) (f : Buf (Elt F) ((Memref.whole main_v1).view.loc (c : Thread nD τ))) (hp : V.out10 c ((outDstM10 c).view.read (Elt F) f)) : outP V c 10 f := by
  unfold outP
  refine ⟨?_, ?_, ?_, ?_, ?_, ?_, ?_, ?_, ?_, ?_, ?_, ?_, ?_, ?_, ?_, ?_, ?_, ?_, ?_, ?_, ?_, ?_, ?_, ?_⟩ <;> first | exact fun _ => hp | exact fun h => absurd h (by decide)
omit [FloatOps F] in
theorem outP_intro_11 (c : Dev nD) (f : Buf (Elt F) ((Memref.whole main_v1).view.loc (c : Thread nD τ))) (hp : V.out11 c ((outDstM11 c).view.read (Elt F) f)) : outP V c 11 f := by
  unfold outP
  refine ⟨?_, ?_, ?_, ?_, ?_, ?_, ?_, ?_, ?_, ?_, ?_, ?_, ?_, ?_, ?_, ?_, ?_, ?_, ?_, ?_, ?_, ?_, ?_, ?_⟩ <;> first | exact fun _ => hp | exact fun h => absurd h (by decide)
omit [FloatOps F] in
theorem outP_intro_12 (c : Dev nD) (f : Buf (Elt F) ((Memref.whole main_v1).view.loc (c : Thread nD τ))) (hp : V.out12 c ((outDstM12 c).view.read (Elt F) f)) : outP V c 12 f := by
  unfold outP
  refine ⟨?_, ?_, ?_, ?_, ?_, ?_, ?_, ?_, ?_, ?_, ?_, ?_, ?_, ?_, ?_, ?_, ?_, ?_, ?_, ?_, ?_, ?_, ?_, ?_⟩ <;> first | exact fun _ => hp | exact fun h => absurd h (by decide)
omit [FloatOps F] in
theorem outP_intro_13 (c : Dev nD) (f : Buf (Elt F) ((Memref.whole main_v1).view.loc (c : Thread nD τ))) (hp : V.out13 c ((outDstM13 c).view.read (Elt F) f)) : outP V c 13 f := by
  unfold outP
  refine ⟨?_, ?_, ?_, ?_, ?_, ?_, ?_, ?_, ?_, ?_, ?_, ?_, ?_, ?_, ?_, ?_, ?_, ?_, ?_, ?_, ?_, ?_, ?_, ?_⟩ <;> first | exact fun _ => hp | exact fun h => absurd h (by decide)
omit [FloatOps F] in
theorem outP_intro_14 (c : Dev nD) (f : Buf (Elt F) ((Memref.whole main_v1).view.loc (c : Thread nD τ))) (hp : V.out14 c ((outDstM14 c).view.read (Elt F) f)) : outP V c 14 f := by
  unfold outP
  refine ⟨?_, ?_, ?_, ?_, ?_, ?_, ?_, ?_, ?_, ?_, ?_, ?_, ?_, ?_, ?_, ?_, ?_, ?_, ?_, ?_, ?_, ?_, ?_, ?_⟩ <;> first | exact fun _ => hp | exact fun h => absurd h (by decide)
omit [FloatOps F] in
theorem outP_intro_15 (c : Dev nD) (f : Buf (Elt F) ((Memref.whole main_v1).view.loc (c : Thread nD τ))) (hp : V.out15 c ((outDstM15 c).view.read (Elt F) f)) : outP V c 15 f := by
  unfold outP
  refine ⟨?_, ?_, ?_, ?_, ?_, ?_, ?_, ?_, ?_, ?_, ?_, ?_, ?_, ?_, ?_, ?_, ?_, ?_, ?_, ?_, ?_, ?_, ?_, ?_⟩ <;> first | exact fun _ => hp | exact fun h => absurd h (by decide)
omit [FloatOps F] in
theorem outP_intro_16 (c : Dev nD) (f : Buf (Elt F) ((Memref.whole main_v1).view.loc (c : Thread nD τ))) (hp : V.out16 c ((outDstM16 c).view.read (Elt F) f)) : outP V c 16 f := by
  unfold outP
  refine ⟨?_, ?_, ?_, ?_, ?_, ?_, ?_, ?_, ?_, ?_, ?_, ?_, ?_, ?_, ?_, ?_, ?_, ?_, ?_, ?_, ?_, ?_, ?_, ?_⟩ <;> first | exact fun _ => hp | exact fun h => absurd h (by decide)
omit [FloatOps F] in
theorem outP_intro_17 (c : Dev nD) (f : Buf (Elt F) ((Memref.whole main_v1).view.loc (c : Thread nD τ))) (hp : V.out17 c ((outDstM17 c).view.read (Elt F) f)) : outP V c 17 f := by
  unfold outP
  refine ⟨?_, ?_, ?_, ?_, ?_, ?_, ?_, ?_, ?_, ?_, ?_, ?_, ?_, ?_, ?_, ?_, ?_, ?_, ?_, ?_, ?_, ?_, ?_, ?_⟩ <;> first | exact fun _ => hp | exact fun h => absurd h (by decide)
omit [FloatOps F] in
theorem outP_intro_18 (c : Dev nD) (f : Buf (Elt F) ((Memref.whole main_v1).view.loc (c : Thread nD τ))) (hp : V.out18 c ((outDstM18 c).view.read (Elt F) f)) : outP V c 18 f := by
  unfold outP
  refine ⟨?_, ?_, ?_, ?_, ?_, ?_, ?_, ?_, ?_, ?_, ?_, ?_, ?_, ?_, ?_, ?_, ?_, ?_, ?_, ?_, ?_, ?_, ?_, ?_⟩ <;> first | exact fun _ => hp | exact fun h => absurd h (by decide)
omit [FloatOps F] in
theorem outP_intro_19 (c : Dev nD) (f : Buf (Elt F) ((Memref.whole main_v1).view.loc (c : Thread nD τ))) (hp : V.out19 c ((outDstM19 c).view.read (Elt F) f)) : outP V c 19 f := by
  unfold outP
  refine ⟨?_, ?_, ?_, ?_, ?_, ?_, ?_, ?_, ?_, ?_, ?_, ?_, ?_, ?_, ?_, ?_, ?_, ?_, ?_, ?_, ?_, ?_, ?_, ?_⟩ <;> first | exact fun _ => hp | exact fun h => absurd h (by decide)
omit [FloatOps F] in
theorem outP_intro_20 (c : Dev nD) (f : Buf (Elt F) ((Memref.whole main_v1).view.loc (c : Thread nD τ))) (hp : V.out20 c ((outDstM20 c).view.read (Elt F) f)) : outP V c 20 f := by
  unfold outP
  refine ⟨?_, ?_, ?_, ?_, ?_, ?_, ?_, ?_, ?_, ?_, ?_, ?_, ?_, ?_, ?_, ?_, ?_, ?_, ?_, ?_, ?_, ?_, ?_, ?_⟩ <;> first | exact fun _ => hp | exact fun h => absurd h (by decide)
omit [FloatOps F] in
theorem outP_intro_21 (c : Dev nD) (f : Buf (Elt F) ((Memref.whole main_v1).view.loc (c : Thread nD τ))) (hp : V.out21 c ((outDstM21 c).view.read (Elt F) f)) : outP V c 21 f := by
  unfold outP
  refine ⟨?_, ?_, ?_, ?_, ?_, ?_, ?_, ?_, ?_, ?_, ?_, ?_, ?_, ?_, ?_, ?_, ?_, ?_, ?_, ?_, ?_, ?_, ?_, ?_⟩ <;> first | exact fun _ => hp | exact fun h => absurd h (by decide)
omit [FloatOps F] in
theorem outP_intro_22 (c : Dev nD) (f : Buf (Elt F) ((Memref.whole main_v1).view.loc (c : Thread nD τ))) (hp : V.out22 c ((outDstM22 c).view.read (Elt F) f)) : outP V c 22 f := by
  unfold outP
  refine ⟨?_, ?_, ?_, ?_, ?_, ?_, ?_, ?_, ?_, ?_, ?_, ?_, ?_, ?_, ?_, ?_, ?_, ?_, ?_, ?_, ?_, ?_, ?_, ?_⟩ <;> first | exact fun _ => hp | exact fun h => absurd h (by decide)
omit [FloatOps F] in
theorem outP_intro_23 (c : Dev nD) (f : Buf (Elt F) ((Memref.whole main_v1).view.loc (c : Thread nD τ))) (hp : V.out23 c ((outDstM23 c).view.read (Elt F) f)) : outP V c 23 f := by
  unfold outP
  refine ⟨?_, ?_, ?_, ?_, ?_, ?_, ?_, ?_, ?_, ?_, ?_, ?_, ?_, ?_, ?_, ?_, ?_, ?_, ?_, ?_, ?_, ?_, ?_, ?_⟩ <;> first | exact fun _ => hp | exact fun h => absurd h (by decide)

omit [FloatOps F] in
theorem outP_congr_0 (c : Dev nD) (f g : Buf (Elt F) ((Memref.whole main_v1).view.loc (c : Thread nD τ)))
    (h : ∀ i ∈ outSet c 0, g i = f i) (hp : V.out0 c ((outDstM0 c).view.read (Elt F) f)) : V.out0 c ((outDstM0 c).view.read (Elt F) g) := by
  have e : (outDstM0 c).view.read (Elt F) g = (outDstM0 c).view.read (Elt F) f := View.read_congr (fun i hi => h i (by rw [← outDst_set_0]; exact hi))
  rw [e]; exact hp
omit [FloatOps F] in
theorem outP_congr_1 (c : Dev nD) (f g : Buf (Elt F) ((Memref.whole main_v1).view.loc (c : Thread nD τ)))
    (h : ∀ i ∈ outSet c 1, g i = f i) (hp : V.out1 c ((outDstM1 c).view.read (Elt F) f)) : V.out1 c ((outDstM1 c).view.read (Elt F) g) := by
  have e : (outDstM1 c).view.read (Elt F) g = (outDstM1 c).view.read (Elt F) f := View.read_congr (fun i hi => h i (by rw [← outDst_set_1]; exact hi))
  rw [e]; exact hp
omit [FloatOps F] in
theorem outP_congr_2 (c : Dev nD) (f g : Buf (Elt F) ((Memref.whole main_v1).view.loc (c : Thread nD τ)))
    (h : ∀ i ∈ outSet c 2, g i = f i) (hp : V.out2 c ((outDstM2 c).view.read (Elt F) f)) : V.out2 c ((outDstM2 c).view.read (Elt F) g) := by
  have e : (outDstM2 c).view.read (Elt F) g = (outDstM2 c).view.read (Elt F) f := View.read_congr (fun i hi => h i (by rw [← outDst_set_2]; exact hi))
  rw [e]; exact hp
omit [FloatOps F] in
theorem outP_congr_3 (c : Dev nD) (f g : Buf (Elt F) ((Memref.whole main_v1).view.loc (c : Thread nD τ)))
    (h : ∀ i ∈ outSet c 3, g i = f i) (hp : V.out3 c ((outDstM3 c).view.read (Elt F) f)) : V.out3 c ((outDstM3 c).view.read (Elt F) g) := by
  have e : (outDstM3 c).view.read (Elt F) g = (outDstM3 c).view.read (Elt F) f := View.read_congr (fun i hi => h i (by rw [← outDst_set_3]; exact hi))
  rw [e]; exact hp
omit [FloatOps F] in
theorem outP_congr_4 (c : Dev nD) (f g : Buf (Elt F) ((Memref.whole main_v1).view.loc (c : Thread nD τ)))
    (h : ∀ i ∈ outSet c 4, g i = f i) (hp : V.out4 c ((outDstM4 c).view.read (Elt F) f)) : V.out4 c ((outDstM4 c).view.read (Elt F) g) := by
  have e : (outDstM4 c).view.read (Elt F) g = (outDstM4 c).view.read (Elt F) f := View.read_congr (fun i hi => h i (by rw [← outDst_set_4]; exact hi))
  rw [e]; exact hp
omit [FloatOps F] in
theorem outP_congr_5 (c : Dev nD) (f g : Buf (Elt F) ((Memref.whole main_v1).view.loc (c : Thread nD τ)))
    (h : ∀ i ∈ outSet c 5, g i = f i) (hp : V.out5 c ((outDstM5 c).view.read (Elt F) f)) : V.out5 c ((outDstM5 c).view.read (Elt F) g) := by
  have e : (outDstM5 c).view.read (Elt F) g = (outDstM5 c).view.read (Elt F) f := View.read_congr (fun i hi => h i (by rw [← outDst_set_5]; exact hi))
  rw [e]; exact hp
omit [FloatOps F] in
theorem outP_congr_6 (c : Dev nD) (f g : Buf (Elt F) ((Memref.whole main_v1).view.loc (c : Thread nD τ)))
    (h : ∀ i ∈ outSet c 6, g i = f i) (hp : V.out6 c ((outDstM6 c).view.read (Elt F) f)) : V.out6 c ((outDstM6 c).view.read (Elt F) g) := by
  have e : (outDstM6 c).view.read (Elt F) g = (outDstM6 c).view.read (Elt F) f := View.read_congr (fun i hi => h i (by rw [← outDst_set_6]; exact hi))
  rw [e]; exact hp
omit [FloatOps F] in
theorem outP_congr_7 (c : Dev nD) (f g : Buf (Elt F) ((Memref.whole main_v1).view.loc (c : Thread nD τ)))
    (h : ∀ i ∈ outSet c 7, g i = f i) (hp : V.out7 c ((outDstM7 c).view.read (Elt F) f)) : V.out7 c ((outDstM7 c).view.read (Elt F) g) := by
  have e : (outDstM7 c).view.read (Elt F) g = (outDstM7 c).view.read (Elt F) f := View.read_congr (fun i hi => h i (by rw [← outDst_set_7]; exact hi))
  rw [e]; exact hp
omit [FloatOps F] in
theorem outP_congr_8 (c : Dev nD) (f g : Buf (Elt F) ((Memref.whole main_v1).view.loc (c : Thread nD τ)))
    (h : ∀ i ∈ outSet c 8, g i = f i) (hp : V.out8 c ((outDstM8 c).view.read (Elt F) f)) : V.out8 c ((outDstM8 c).view.read (Elt F) g) := by
  have e : (outDstM8 c).view.read (Elt F) g = (outDstM8 c).view.read (Elt F) f := View.read_congr (fun i hi => h i (by rw [← outDst_set_8]; exact hi))
  rw [e]; exact hp
omit [FloatOps F] in
theorem outP_congr_9 (c : Dev nD) (f g : Buf (Elt F) ((Memref.whole main_v1).view.loc (c : Thread nD τ)))
    (h : ∀ i ∈ outSet c 9, g i = f i) (hp : V.out9 c ((outDstM9 c).view.read (Elt F) f)) : V.out9 c ((outDstM9 c).view.read (Elt F) g) := by
  have e : (outDstM9 c).view.read (Elt F) g = (outDstM9 c).view.read (Elt F) f := View.read_congr (fun i hi => h i (by rw [← outDst_set_9]; exact hi))
  rw [e]; exact hp
omit [FloatOps F] in
theorem outP_congr_10 (c : Dev nD) (f g : Buf (Elt F) ((Memref.whole main_v1).view.loc (c : Thread nD τ)))
    (h : ∀ i ∈ outSet c 10, g i = f i) (hp : V.out10 c ((outDstM10 c).view.read (Elt F) f)) : V.out10 c ((outDstM10 c).view.read (Elt F) g) := by
  have e : (outDstM10 c).view.read (Elt F) g = (outDstM10 c).view.read (Elt F) f := View.read_congr (fun i hi => h i (by rw [← outDst_set_10]; exact hi))
  rw [e]; exact hp
omit [FloatOps F] in
theorem outP_congr_11 (c : Dev nD) (f g : Buf (Elt F) ((Memref.whole main_v1).view.loc (c : Thread nD τ)))
    (h : ∀ i ∈ outSet c 11, g i = f i) (hp : V.out11 c ((outDstM11 c).view.read (Elt F) f)) : V.out11 c ((outDstM11 c).view.read (Elt F) g) := by
  have e : (outDstM11 c).view.read (Elt F) g = (outDstM11 c).view.read (Elt F) f := View.read_congr (fun i hi => h i (by rw [← outDst_set_11]; exact hi))
  rw [e]; exact hp
omit [FloatOps F] in
theorem outP_congr_12 (c : Dev nD) (f g : Buf (Elt F) ((Memref.whole main_v1).view.loc (c : Thread nD τ)))
    (h : ∀ i ∈ outSet c 12, g i = f i) (hp : V.out12 c ((outDstM12 c).view.read (Elt F) f)) : V.out12 c ((outDstM12 c).view.read (Elt F) g) := by
  have e : (outDstM12 c).view.read (Elt F) g = (outDstM12 c).view.read (Elt F) f := View.read_congr (fun i hi => h i (by rw [← outDst_set_12]; exact hi))
  rw [e]; exact hp
omit [FloatOps F] in
theorem outP_congr_13 (c : Dev nD) (f g : Buf (Elt F) ((Memref.whole main_v1).view.loc (c : Thread nD τ)))
    (h : ∀ i ∈ outSet c 13, g i = f i) (hp : V.out13 c ((outDstM13 c).view.read (Elt F) f)) : V.out13 c ((outDstM13 c).view.read (Elt F) g) := by
  have e : (outDstM13 c).view.read (Elt F) g = (outDstM13 c).view.read (Elt F) f := View.read_congr (fun i hi => h i (by rw [← outDst_set_13]; exact hi))
  rw [e]; exact hp
omit [FloatOps F] in
theorem outP_congr_14 (c : Dev nD) (f g : Buf (Elt F) ((Memref.whole main_v1).view.loc (c : Thread nD τ)))
    (h : ∀ i ∈ outSet c 14, g i = f i) (hp : V.out14 c ((outDstM14 c).view.read (Elt F) f)) : V.out14 c ((outDstM14 c).view.read (Elt F) g) := by
  have e : (outDstM14 c).view.read (Elt F) g = (outDstM14 c).view.read (Elt F) f := View.read_congr (fun i hi => h i (by rw [← outDst_set_14]; exact hi))
  rw [e]; exact hp
omit [FloatOps F] in
theorem outP_congr_15 (c : Dev nD) (f g : Buf (Elt F) ((Memref.whole main_v1).view.loc (c : Thread nD τ)))
    (h : ∀ i ∈ outSet c 15, g i = f i) (hp : V.out15 c ((outDstM15 c).view.read (Elt F) f)) : V.out15 c ((outDstM15 c).view.read (Elt F) g) := by
  have e : (outDstM15 c).view.read (Elt F) g = (outDstM15 c).view.read (Elt F) f := View.read_congr (fun i hi => h i (by rw [← outDst_set_15]; exact hi))
  rw [e]; exact hp
omit [FloatOps F] in
theorem outP_congr_16 (c : Dev nD) (f g : Buf (Elt F) ((Memref.whole main_v1).view.loc (c : Thread nD τ)))
    (h : ∀ i ∈ outSet c 16, g i = f i) (hp : V.out16 c ((outDstM16 c).view.read (Elt F) f)) : V.out16 c ((outDstM16 c).view.read (Elt F) g) := by
  have e : (outDstM16 c).view.read (Elt F) g = (outDstM16 c).view.read (Elt F) f := View.read_congr (fun i hi => h i (by rw [← outDst_set_16]; exact hi))
  rw [e]; exact hp
omit [FloatOps F] in
theorem outP_congr_17 (c : Dev nD) (f g : Buf (Elt F) ((Memref.whole main_v1).view.loc (c : Thread nD τ)))
    (h : ∀ i ∈ outSet c 17, g i = f i) (hp : V.out17 c ((outDstM17 c).view.read (Elt F) f)) : V.out17 c ((outDstM17 c).view.read (Elt F) g) := by
  have e : (outDstM17 c).view.read (Elt F) g = (outDstM17 c).view.read (Elt F) f := View.read_congr (fun i hi => h i (by rw [← outDst_set_17]; exact hi))
  rw [e]; exact hp
omit [FloatOps F] in
theorem outP_congr_18 (c : Dev nD) (f g : Buf (Elt F) ((Memref.whole main_v1).view.loc (c : Thread nD τ)))
    (h : ∀ i ∈ outSet c 18, g i = f i) (hp : V.out18 c ((outDstM18 c).view.read (Elt F) f)) : V.out18 c ((outDstM18 c).view.read (Elt F) g) := by
  have e : (outDstM18 c).view.read (Elt F) g = (outDstM18 c).view.read (Elt F) f := View.read_congr (fun i hi => h i (by rw [← outDst_set_18]; exact hi))
  rw [e]; exact hp
omit [FloatOps F] in
theorem outP_congr_19 (c : Dev nD) (f g : Buf (Elt F) ((Memref.whole main_v1).view.loc (c : Thread nD τ)))
    (h : ∀ i ∈ outSet c 19, g i = f i) (hp : V.out19 c ((outDstM19 c).view.read (Elt F) f)) : V.out19 c ((outDstM19 c).view.read (Elt F) g) := by
  have e : (outDstM19 c).view.read (Elt F) g = (outDstM19 c).view.read (Elt F) f := View.read_congr (fun i hi => h i (by rw [← outDst_set_19]; exact hi))
  rw [e]; exact hp
omit [FloatOps F] in
theorem outP_congr_20 (c : Dev nD) (f g : Buf (Elt F) ((Memref.whole main_v1).view.loc (c : Thread nD τ)))
    (h : ∀ i ∈ outSet c 20, g i = f i) (hp : V.out20 c ((outDstM20 c).view.read (Elt F) f)) : V.out20 c ((outDstM20 c).view.read (Elt F) g) := by
  have e : (outDstM20 c).view.read (Elt F) g = (outDstM20 c).view.read (Elt F) f := View.read_congr (fun i hi => h i (by rw [← outDst_set_20]; exact hi))
  rw [e]; exact hp
omit [FloatOps F] in
theorem outP_congr_21 (c : Dev nD) (f g : Buf (Elt F) ((Memref.whole main_v1).view.loc (c : Thread nD τ)))
    (h : ∀ i ∈ outSet c 21, g i = f i) (hp : V.out21 c ((outDstM21 c).view.read (Elt F) f)) : V.out21 c ((outDstM21 c).view.read (Elt F) g) := by
  have e : (outDstM21 c).view.read (Elt F) g = (outDstM21 c).view.read (Elt F) f := View.read_congr (fun i hi => h i (by rw [← outDst_set_21]; exact hi))
  rw [e]; exact hp
omit [FloatOps F] in
theorem outP_congr_22 (c : Dev nD) (f g : Buf (Elt F) ((Memref.whole main_v1).view.loc (c : Thread nD τ)))
    (h : ∀ i ∈ outSet c 22, g i = f i) (hp : V.out22 c ((outDstM22 c).view.read (Elt F) f)) : V.out22 c ((outDstM22 c).view.read (Elt F) g) := by
  have e : (outDstM22 c).view.read (Elt F) g = (outDstM22 c).view.read (Elt F) f := View.read_congr (fun i hi => h i (by rw [← outDst_set_22]; exact hi))
  rw [e]; exact hp
omit [FloatOps F] in
theorem outP_congr_23 (c : Dev nD) (f g : Buf (Elt F) ((Memref.whole main_v1).view.loc (c : Thread nD τ)))
    (h : ∀ i ∈ outSet c 23, g i = f i) (hp : V.out23 c ((outDstM23 c).view.read (Elt F) f)) : V.out23 c ((outDstM23 c).view.read (Elt F) g) := by
  have e : (outDstM23 c).view.read (Elt F) g = (outDstM23 c).view.read (Elt F) f := View.read_congr (fun i hi => h i (by rw [← outDst_set_23]; exact hi))
  rw [e]; exact hp

omit [FloatOps F] in
theorem outP_congr (c : Dev nD) (j : Fin 24) (f g : Buf (Elt F) ((Memref.whole main_v1).view.loc (c : Thread nD τ)))
    (h : ∀ i ∈ outSet c j, g i = f i) (hp : outP V c j f) : outP V c j g := by
  unfold outP at hp ⊢
  obtain ⟨h0, h1, h2, h3, h4, h5, h6, h7, h8, h9, h10, h11, h12, h13, h14, h15, h16, h17, h18, h19, h20, h21, h22, h23⟩ := hp
  refine ⟨fun hj => ?_, fun hj => ?_, fun hj => ?_, fun hj => ?_, fun hj => ?_, fun hj => ?_, fun hj => ?_, fun hj => ?_, fun hj => ?_, fun hj => ?_, fun hj => ?_, fun hj => ?_, fun hj => ?_, fun hj => ?_, fun hj => ?_, fun hj => ?_, fun hj => ?_, fun hj => ?_, fun hj => ?_, fun hj => ?_, fun hj => ?_, fun hj => ?_, fun hj => ?_, fun hj => ?_⟩
  · have e : j = 0 := Fin.ext hj
    subst e; exact outP_congr_0 V c f g h (h0 rfl)
  · have e : j = 1 := Fin.ext hj
    subst e; exact outP_congr_1 V c f g h (h1 rfl)
  · have e : j = 2 := Fin.ext hj
    subst e; exact outP_congr_2 V c f g h (h2 rfl)
  · have e : j = 3 := Fin.ext hj
    subst e; exact outP_congr_3 V c f g h (h3 rfl)
  · have e : j = 4 := Fin.ext hj
    subst e; exact outP_congr_4 V c f g h (h4 rfl)
  · have e : j = 5 := Fin.ext hj
    subst e; exact outP_congr_5 V c f g h (h5 rfl)
  · have e : j = 6 := Fin.ext hj
    subst e; exact outP_congr_6 V c f g h (h6 rfl)
  · have e : j = 7 := Fin.ext hj
    subst e; exact outP_congr_7 V c f g h (h7 rfl)
  · have e : j = 8 := Fin.ext hj
    subst e; exact outP_congr_8 V c f g h (h8 rfl)
  · have e : j = 9 := Fin.ext hj
    subst e; exact outP_congr_9 V c f g h (h9 rfl)
  · have e : j = 10 := Fin.ext hj
    subst e; exact outP_congr_10 V c f g h (h10 rfl)
  · have e : j = 11 := Fin.ext hj
    subst e; exact outP_congr_11 V c f g h (h11 rfl)
  · have e : j = 12 := Fin.ext hj
    subst e; exact outP_congr_12 V c f g h (h12 rfl)
  · have e : j = 13 := Fin.ext hj
    subst e; exact outP_congr_13 V c f g h (h13 rfl)
  · have e : j = 14 := Fin.ext hj
    subst e; exact outP_congr_14 V c f g h (h14 rfl)
  · have e : j = 15 := Fin.ext hj
    subst e; exact outP_congr_15 V c f g h (h15 rfl)
  · have e : j = 16 := Fin.ext hj
    subst e; exact outP_congr_16 V c f g h (h16 rfl)
  · have e : j = 17 := Fin.ext hj
    subst e; exact outP_congr_17 V c f g h (h17 rfl)
  · have e : j = 18 := Fin.ext hj
    subst e; exact outP_congr_18 V c f g h (h18 rfl)
  · have e : j = 19 := Fin.ext hj
    subst e; exact outP_congr_19 V c f g h (h19 rfl)
  · have e : j = 20 := Fin.ext hj
    subst e; exact outP_congr_20 V c f g h (h20 rfl)
  · have e : j = 21 := Fin.ext hj
    subst e; exact outP_congr_21 V c f g h (h21 rfl)
  · have e : j = 22 := Fin.ext hj
    subst e; exact outP_congr_22 V c f g h (h22 rfl)
  · have e : j = 23 := Fin.ext hj
    subst e; exact outP_congr_23 V c f g h (h23 rfl)

omit [FloatOps F] in
theorem dst_any_0 (c : Dev nD) : ptsIs c (outDstM0 c) (V.out0 c)
    ⊢ (iprop(∃ f : Buf (Elt F) ((Memref.whole main_v1).view.loc (c : Thread nD τ)), (((Memref.whole main_v1).view.loc (c : Thread nD τ)) ↦[outSet c 0]{fullShare} f) ∗ ⌜outP V c 0 f⌝) : sProp 𝕄) := by
  unfold ptsIs; rw [outDst_set_0]; iintro ⟨%f, H, %hp⟩; iexists f
  isplitl [H]; · iexact H
  ipureintro; exact outP_intro_0 V c f hp
omit [FloatOps F] in
theorem dst_any_1 (c : Dev nD) : ptsIs c (outDstM1 c) (V.out1 c)
    ⊢ (iprop(∃ f : Buf (Elt F) ((Memref.whole main_v1).view.loc (c : Thread nD τ)), (((Memref.whole main_v1).view.loc (c : Thread nD τ)) ↦[outSet c 1]{fullShare} f) ∗ ⌜outP V c 1 f⌝) : sProp 𝕄) := by
  unfold ptsIs; rw [outDst_set_1]; iintro ⟨%f, H, %hp⟩; iexists f
  isplitl [H]; · iexact H
  ipureintro; exact outP_intro_1 V c f hp
omit [FloatOps F] in
theorem dst_any_2 (c : Dev nD) : ptsIs c (outDstM2 c) (V.out2 c)
    ⊢ (iprop(∃ f : Buf (Elt F) ((Memref.whole main_v1).view.loc (c : Thread nD τ)), (((Memref.whole main_v1).view.loc (c : Thread nD τ)) ↦[outSet c 2]{fullShare} f) ∗ ⌜outP V c 2 f⌝) : sProp 𝕄) := by
  unfold ptsIs; rw [outDst_set_2]; iintro ⟨%f, H, %hp⟩; iexists f
  isplitl [H]; · iexact H
  ipureintro; exact outP_intro_2 V c f hp
omit [FloatOps F] in
theorem dst_any_3 (c : Dev nD) : ptsIs c (outDstM3 c) (V.out3 c)
    ⊢ (iprop(∃ f : Buf (Elt F) ((Memref.whole main_v1).view.loc (c : Thread nD τ)), (((Memref.whole main_v1).view.loc (c : Thread nD τ)) ↦[outSet c 3]{fullShare} f) ∗ ⌜outP V c 3 f⌝) : sProp 𝕄) := by
  unfold ptsIs; rw [outDst_set_3]; iintro ⟨%f, H, %hp⟩; iexists f
  isplitl [H]; · iexact H
  ipureintro; exact outP_intro_3 V c f hp
omit [FloatOps F] in
theorem dst_any_4 (c : Dev nD) : ptsIs c (outDstM4 c) (V.out4 c)
    ⊢ (iprop(∃ f : Buf (Elt F) ((Memref.whole main_v1).view.loc (c : Thread nD τ)), (((Memref.whole main_v1).view.loc (c : Thread nD τ)) ↦[outSet c 4]{fullShare} f) ∗ ⌜outP V c 4 f⌝) : sProp 𝕄) := by
  unfold ptsIs; rw [outDst_set_4]; iintro ⟨%f, H, %hp⟩; iexists f
  isplitl [H]; · iexact H
  ipureintro; exact outP_intro_4 V c f hp
omit [FloatOps F] in
theorem dst_any_5 (c : Dev nD) : ptsIs c (outDstM5 c) (V.out5 c)
    ⊢ (iprop(∃ f : Buf (Elt F) ((Memref.whole main_v1).view.loc (c : Thread nD τ)), (((Memref.whole main_v1).view.loc (c : Thread nD τ)) ↦[outSet c 5]{fullShare} f) ∗ ⌜outP V c 5 f⌝) : sProp 𝕄) := by
  unfold ptsIs; rw [outDst_set_5]; iintro ⟨%f, H, %hp⟩; iexists f
  isplitl [H]; · iexact H
  ipureintro; exact outP_intro_5 V c f hp
omit [FloatOps F] in
theorem dst_any_6 (c : Dev nD) : ptsIs c (outDstM6 c) (V.out6 c)
    ⊢ (iprop(∃ f : Buf (Elt F) ((Memref.whole main_v1).view.loc (c : Thread nD τ)), (((Memref.whole main_v1).view.loc (c : Thread nD τ)) ↦[outSet c 6]{fullShare} f) ∗ ⌜outP V c 6 f⌝) : sProp 𝕄) := by
  unfold ptsIs; rw [outDst_set_6]; iintro ⟨%f, H, %hp⟩; iexists f
  isplitl [H]; · iexact H
  ipureintro; exact outP_intro_6 V c f hp
omit [FloatOps F] in
theorem dst_any_7 (c : Dev nD) : ptsIs c (outDstM7 c) (V.out7 c)
    ⊢ (iprop(∃ f : Buf (Elt F) ((Memref.whole main_v1).view.loc (c : Thread nD τ)), (((Memref.whole main_v1).view.loc (c : Thread nD τ)) ↦[outSet c 7]{fullShare} f) ∗ ⌜outP V c 7 f⌝) : sProp 𝕄) := by
  unfold ptsIs; rw [outDst_set_7]; iintro ⟨%f, H, %hp⟩; iexists f
  isplitl [H]; · iexact H
  ipureintro; exact outP_intro_7 V c f hp
omit [FloatOps F] in
theorem dst_any_8 (c : Dev nD) : ptsIs c (outDstM8 c) (V.out8 c)
    ⊢ (iprop(∃ f : Buf (Elt F) ((Memref.whole main_v1).view.loc (c : Thread nD τ)), (((Memref.whole main_v1).view.loc (c : Thread nD τ)) ↦[outSet c 8]{fullShare} f) ∗ ⌜outP V c 8 f⌝) : sProp 𝕄) := by
  unfold ptsIs; rw [outDst_set_8]; iintro ⟨%f, H, %hp⟩; iexists f
  isplitl [H]; · iexact H
  ipureintro; exact outP_intro_8 V c f hp
omit [FloatOps F] in
theorem dst_any_9 (c : Dev nD) : ptsIs c (outDstM9 c) (V.out9 c)
    ⊢ (iprop(∃ f : Buf (Elt F) ((Memref.whole main_v1).view.loc (c : Thread nD τ)), (((Memref.whole main_v1).view.loc (c : Thread nD τ)) ↦[outSet c 9]{fullShare} f) ∗ ⌜outP V c 9 f⌝) : sProp 𝕄) := by
  unfold ptsIs; rw [outDst_set_9]; iintro ⟨%f, H, %hp⟩; iexists f
  isplitl [H]; · iexact H
  ipureintro; exact outP_intro_9 V c f hp
omit [FloatOps F] in
theorem dst_any_10 (c : Dev nD) : ptsIs c (outDstM10 c) (V.out10 c)
    ⊢ (iprop(∃ f : Buf (Elt F) ((Memref.whole main_v1).view.loc (c : Thread nD τ)), (((Memref.whole main_v1).view.loc (c : Thread nD τ)) ↦[outSet c 10]{fullShare} f) ∗ ⌜outP V c 10 f⌝) : sProp 𝕄) := by
  unfold ptsIs; rw [outDst_set_10]; iintro ⟨%f, H, %hp⟩; iexists f
  isplitl [H]; · iexact H
  ipureintro; exact outP_intro_10 V c f hp
omit [FloatOps F] in
theorem dst_any_11 (c : Dev nD) : ptsIs c (outDstM11 c) (V.out11 c)
    ⊢ (iprop(∃ f : Buf (Elt F) ((Memref.whole main_v1).view.loc (c : Thread nD τ)), (((Memref.whole main_v1).view.loc (c : Thread nD τ)) ↦[outSet c 11]{fullShare} f) ∗ ⌜outP V c 11 f⌝) : sProp 𝕄) := by
  unfold ptsIs; rw [outDst_set_11]; iintro ⟨%f, H, %hp⟩; iexists f
  isplitl [H]; · iexact H
  ipureintro; exact outP_intro_11 V c f hp
omit [FloatOps F] in
theorem dst_any_12 (c : Dev nD) : ptsIs c (outDstM12 c) (V.out12 c)
    ⊢ (iprop(∃ f : Buf (Elt F) ((Memref.whole main_v1).view.loc (c : Thread nD τ)), (((Memref.whole main_v1).view.loc (c : Thread nD τ)) ↦[outSet c 12]{fullShare} f) ∗ ⌜outP V c 12 f⌝) : sProp 𝕄) := by
  unfold ptsIs; rw [outDst_set_12]; iintro ⟨%f, H, %hp⟩; iexists f
  isplitl [H]; · iexact H
  ipureintro; exact outP_intro_12 V c f hp
omit [FloatOps F] in
theorem dst_any_13 (c : Dev nD) : ptsIs c (outDstM13 c) (V.out13 c)
    ⊢ (iprop(∃ f : Buf (Elt F) ((Memref.whole main_v1).view.loc (c : Thread nD τ)), (((Memref.whole main_v1).view.loc (c : Thread nD τ)) ↦[outSet c 13]{fullShare} f) ∗ ⌜outP V c 13 f⌝) : sProp 𝕄) := by
  unfold ptsIs; rw [outDst_set_13]; iintro ⟨%f, H, %hp⟩; iexists f
  isplitl [H]; · iexact H
  ipureintro; exact outP_intro_13 V c f hp
omit [FloatOps F] in
theorem dst_any_14 (c : Dev nD) : ptsIs c (outDstM14 c) (V.out14 c)
    ⊢ (iprop(∃ f : Buf (Elt F) ((Memref.whole main_v1).view.loc (c : Thread nD τ)), (((Memref.whole main_v1).view.loc (c : Thread nD τ)) ↦[outSet c 14]{fullShare} f) ∗ ⌜outP V c 14 f⌝) : sProp 𝕄) := by
  unfold ptsIs; rw [outDst_set_14]; iintro ⟨%f, H, %hp⟩; iexists f
  isplitl [H]; · iexact H
  ipureintro; exact outP_intro_14 V c f hp
omit [FloatOps F] in
theorem dst_any_15 (c : Dev nD) : ptsIs c (outDstM15 c) (V.out15 c)
    ⊢ (iprop(∃ f : Buf (Elt F) ((Memref.whole main_v1).view.loc (c : Thread nD τ)), (((Memref.whole main_v1).view.loc (c : Thread nD τ)) ↦[outSet c 15]{fullShare} f) ∗ ⌜outP V c 15 f⌝) : sProp 𝕄) := by
  unfold ptsIs; rw [outDst_set_15]; iintro ⟨%f, H, %hp⟩; iexists f
  isplitl [H]; · iexact H
  ipureintro; exact outP_intro_15 V c f hp
omit [FloatOps F] in
theorem dst_any_16 (c : Dev nD) : ptsIs c (outDstM16 c) (V.out16 c)
    ⊢ (iprop(∃ f : Buf (Elt F) ((Memref.whole main_v1).view.loc (c : Thread nD τ)), (((Memref.whole main_v1).view.loc (c : Thread nD τ)) ↦[outSet c 16]{fullShare} f) ∗ ⌜outP V c 16 f⌝) : sProp 𝕄) := by
  unfold ptsIs; rw [outDst_set_16]; iintro ⟨%f, H, %hp⟩; iexists f
  isplitl [H]; · iexact H
  ipureintro; exact outP_intro_16 V c f hp
omit [FloatOps F] in
theorem dst_any_17 (c : Dev nD) : ptsIs c (outDstM17 c) (V.out17 c)
    ⊢ (iprop(∃ f : Buf (Elt F) ((Memref.whole main_v1).view.loc (c : Thread nD τ)), (((Memref.whole main_v1).view.loc (c : Thread nD τ)) ↦[outSet c 17]{fullShare} f) ∗ ⌜outP V c 17 f⌝) : sProp 𝕄) := by
  unfold ptsIs; rw [outDst_set_17]; iintro ⟨%f, H, %hp⟩; iexists f
  isplitl [H]; · iexact H
  ipureintro; exact outP_intro_17 V c f hp
omit [FloatOps F] in
theorem dst_any_18 (c : Dev nD) : ptsIs c (outDstM18 c) (V.out18 c)
    ⊢ (iprop(∃ f : Buf (Elt F) ((Memref.whole main_v1).view.loc (c : Thread nD τ)), (((Memref.whole main_v1).view.loc (c : Thread nD τ)) ↦[outSet c 18]{fullShare} f) ∗ ⌜outP V c 18 f⌝) : sProp 𝕄) := by
  unfold ptsIs; rw [outDst_set_18]; iintro ⟨%f, H, %hp⟩; iexists f
  isplitl [H]; · iexact H
  ipureintro; exact outP_intro_18 V c f hp
omit [FloatOps F] in
theorem dst_any_19 (c : Dev nD) : ptsIs c (outDstM19 c) (V.out19 c)
    ⊢ (iprop(∃ f : Buf (Elt F) ((Memref.whole main_v1).view.loc (c : Thread nD τ)), (((Memref.whole main_v1).view.loc (c : Thread nD τ)) ↦[outSet c 19]{fullShare} f) ∗ ⌜outP V c 19 f⌝) : sProp 𝕄) := by
  unfold ptsIs; rw [outDst_set_19]; iintro ⟨%f, H, %hp⟩; iexists f
  isplitl [H]; · iexact H
  ipureintro; exact outP_intro_19 V c f hp
omit [FloatOps F] in
theorem dst_any_20 (c : Dev nD) : ptsIs c (outDstM20 c) (V.out20 c)
    ⊢ (iprop(∃ f : Buf (Elt F) ((Memref.whole main_v1).view.loc (c : Thread nD τ)), (((Memref.whole main_v1).view.loc (c : Thread nD τ)) ↦[outSet c 20]{fullShare} f) ∗ ⌜outP V c 20 f⌝) : sProp 𝕄) := by
  unfold ptsIs; rw [outDst_set_20]; iintro ⟨%f, H, %hp⟩; iexists f
  isplitl [H]; · iexact H
  ipureintro; exact outP_intro_20 V c f hp
omit [FloatOps F] in
theorem dst_any_21 (c : Dev nD) : ptsIs c (outDstM21 c) (V.out21 c)
    ⊢ (iprop(∃ f : Buf (Elt F) ((Memref.whole main_v1).view.loc (c : Thread nD τ)), (((Memref.whole main_v1).view.loc (c : Thread nD τ)) ↦[outSet c 21]{fullShare} f) ∗ ⌜outP V c 21 f⌝) : sProp 𝕄) := by
  unfold ptsIs; rw [outDst_set_21]; iintro ⟨%f, H, %hp⟩; iexists f
  isplitl [H]; · iexact H
  ipureintro; exact outP_intro_21 V c f hp
omit [FloatOps F] in
theorem dst_any_22 (c : Dev nD) : ptsIs c (outDstM22 c) (V.out22 c)
    ⊢ (iprop(∃ f : Buf (Elt F) ((Memref.whole main_v1).view.loc (c : Thread nD τ)), (((Memref.whole main_v1).view.loc (c : Thread nD τ)) ↦[outSet c 22]{fullShare} f) ∗ ⌜outP V c 22 f⌝) : sProp 𝕄) := by
  unfold ptsIs; rw [outDst_set_22]; iintro ⟨%f, H, %hp⟩; iexists f
  isplitl [H]; · iexact H
  ipureintro; exact outP_intro_22 V c f hp
omit [FloatOps F] in
theorem dst_any_23 (c : Dev nD) : ptsIs c (outDstM23 c) (V.out23 c)
    ⊢ (iprop(∃ f : Buf (Elt F) ((Memref.whole main_v1).view.loc (c : Thread nD τ)), (((Memref.whole main_v1).view.loc (c : Thread nD τ)) ↦[outSet c 23]{fullShare} f) ∗ ⌜outP V c 23 f⌝) : sProp 𝕄) := by
  unfold ptsIs; rw [outDst_set_23]; iintro ⟨%f, H, %hp⟩; iexists f
  isplitl [H]; · iexact H
  ipureintro; exact outP_intro_23 V c f hp

/-- The result array's 24 blocks, each reading something of which its result predicate holds. -/
def dstLit (c : Dev nD) : sProp 𝕄 :=
  iprop(ptsIs c (outDstM0 c) (V.out0 c)
    ∗ ptsIs c (outDstM1 c) (V.out1 c)
    ∗ ptsIs c (outDstM2 c) (V.out2 c)
    ∗ ptsIs c (outDstM3 c) (V.out3 c)
    ∗ ptsIs c (outDstM4 c) (V.out4 c)
    ∗ ptsIs c (outDstM5 c) (V.out5 c)
    ∗ ptsIs c (outDstM6 c) (V.out6 c)
    ∗ ptsIs c (outDstM7 c) (V.out7 c)
    ∗ ptsIs c (outDstM8 c) (V.out8 c)
    ∗ ptsIs c (outDstM9 c) (V.out9 c)
    ∗ ptsIs c (outDstM10 c) (V.out10 c)
    ∗ ptsIs c (outDstM11 c) (V.out11 c)
    ∗ ptsIs c (outDstM12 c) (V.out12 c)
    ∗ ptsIs c (outDstM13 c) (V.out13 c)
    ∗ ptsIs c (outDstM14 c) (V.out14 c)
    ∗ ptsIs c (outDstM15 c) (V.out15 c)
    ∗ ptsIs c (outDstM16 c) (V.out16 c)
    ∗ ptsIs c (outDstM17 c) (V.out17 c)
    ∗ ptsIs c (outDstM18 c) (V.out18 c)
    ∗ ptsIs c (outDstM19 c) (V.out19 c)
    ∗ ptsIs c (outDstM20 c) (V.out20 c)
    ∗ ptsIs c (outDstM21 c) (V.out21 c)
    ∗ ptsIs c (outDstM22 c) (V.out22 c)
    ∗ ptsIs c (outDstM23 c) (V.out23 c))

theorem dst_whole (c : Dev nD) : dstLit V c
    ⊢ iprop(∃ g, outWhole c g ∗ ⌜V.out0 c ((outDstM0 c).view.read (Elt F) g) ∧ V.out1 c ((outDstM1 c).view.read (Elt F) g) ∧ V.out2 c ((outDstM2 c).view.read (Elt F) g) ∧ V.out3 c ((outDstM3 c).view.read (Elt F) g) ∧ V.out4 c ((outDstM4 c).view.read (Elt F) g) ∧ V.out5 c ((outDstM5 c).view.read (Elt F) g) ∧ V.out6 c ((outDstM6 c).view.read (Elt F) g) ∧ V.out7 c ((outDstM7 c).view.read (Elt F) g) ∧ V.out8 c ((outDstM8 c).view.read (Elt F) g) ∧ V.out9 c ((outDstM9 c).view.read (Elt F) g) ∧ V.out10 c ((outDstM10 c).view.read (Elt F) g) ∧ V.out11 c ((outDstM11 c).view.read (Elt F) g) ∧ V.out12 c ((outDstM12 c).view.read (Elt F) g) ∧ V.out13 c ((outDstM13 c).view.read (Elt F) g) ∧ V.out14 c ((outDstM14 c).view.read (Elt F) g) ∧ V.out15 c ((outDstM15 c).view.read (Elt F) g) ∧ V.out16 c ((outDstM16 c).view.read (Elt F) g) ∧ V.out17 c ((outDstM17 c).view.read (Elt F) g) ∧ V.out18 c ((outDstM18 c).view.read (Elt F) g) ∧ V.out19 c ((outDstM19 c).view.read (Elt F) g) ∧ V.out20 c ((outDstM20 c).view.read (Elt F) g) ∧ V.out21 c ((outDstM21 c).view.read (Elt F) g) ∧ V.out22 c ((outDstM22 c).view.read (Elt F) g) ∧ V.out23 c ((outDstM23 c).view.read (Elt F) g)⌝) := by
  unfold dstLit
  refine BIBase.Entails.trans (BIClass.sep_mono (dst_any_0 V c) (BIClass.sep_mono (dst_any_1 V c) (BIClass.sep_mono (dst_any_2 V c) (BIClass.sep_mono (dst_any_3 V c) (BIClass.sep_mono (dst_any_4 V c) (BIClass.sep_mono (dst_any_5 V c) (BIClass.sep_mono (dst_any_6 V c) (BIClass.sep_mono (dst_any_7 V c) (BIClass.sep_mono (dst_any_8 V c) (BIClass.sep_mono (dst_any_9 V c) (BIClass.sep_mono (dst_any_10 V c) (BIClass.sep_mono (dst_any_11 V c) (BIClass.sep_mono (dst_any_12 V c) (BIClass.sep_mono (dst_any_13 V c) (BIClass.sep_mono (dst_any_14 V c) (BIClass.sep_mono (dst_any_15 V c) (BIClass.sep_mono (dst_any_16 V c) (BIClass.sep_mono (dst_any_17 V c) (BIClass.sep_mono (dst_any_18 V c) (BIClass.sep_mono (dst_any_19 V c) (BIClass.sep_mono (dst_any_20 V c) (BIClass.sep_mono (dst_any_21 V c) (BIClass.sep_mono (dst_any_22 V c) (dst_any_23 V c)))))))))))))))))))))))) ?_
  refine BIBase.Entails.trans (Entails.of_eq (sep_fin24 (fun j : Fin 24 => (iprop(∃ f : Buf (Elt F) ((Memref.whole main_v1).view.loc (c : Thread nD τ)), (((Memref.whole main_v1).view.loc (c : Thread nD τ)) ↦[outSet c j]{fullShare} f) ∗ ⌜outP V c j f⌝) : sProp 𝕄))).symm) ?_
  refine BIBase.Entails.trans (dst_join c (outP V c) (outP_congr V c)) ?_
  iintro ⟨%g, Hg, %hg⟩
  iexists g
  isplitl [Hg]; · unfold outWhole; iexact Hg
  ipureintro
  exact ⟨(hg 0).1 rfl, (hg 1).2.1 rfl, (hg 2).2.2.1 rfl, (hg 3).2.2.2.1 rfl, (hg 4).2.2.2.2.1 rfl, (hg 5).2.2.2.2.2.1 rfl, (hg 6).2.2.2.2.2.2.1 rfl, (hg 7).2.2.2.2.2.2.2.1 rfl, (hg 8).2.2.2.2.2.2.2.2.1 rfl, (hg 9).2.2.2.2.2.2.2.2.2.1 rfl, (hg 10).2.2.2.2.2.2.2.2.2.2.1 rfl, (hg 11).2.2.2.2.2.2.2.2.2.2.2.1 rfl, (hg 12).2.2.2.2.2.2.2.2.2.2.2.2.1 rfl, (hg 13).2.2.2.2.2.2.2.2.2.2.2.2.2.1 rfl, (hg 14).2.2.2.2.2.2.2.2.2.2.2.2.2.2.1 rfl, (hg 15).2.2.2.2.2.2.2.2.2.2.2.2.2.2.2.1 rfl, (hg 16).2.2.2.2.2.2.2.2.2.2.2.2.2.2.2.2.1 rfl, (hg 17).2.2.2.2.2.2.2.2.2.2.2.2.2.2.2.2.2.1 rfl, (hg 18).2.2.2.2.2.2.2.2.2.2.2.2.2.2.2.2.2.2.1 rfl, (hg 19).2.2.2.2.2.2.2.2.2.2.2.2.2.2.2.2.2.2.2.1 rfl, (hg 20).2.2.2.2.2.2.2.2.2.2.2.2.2.2.2.2.2.2.2.2.1 rfl, (hg 21).2.2.2.2.2.2.2.2.2.2.2.2.2.2.2.2.2.2.2.2.2.1 rfl, (hg 22).2.2.2.2.2.2.2.2.2.2.2.2.2.2.2.2.2.2.2.2.2.2.1 rfl, (hg 23).2.2.2.2.2.2.2.2.2.2.2.2.2.2.2.2.2.2.2.2.2.2.2 rfl⟩

end Cert.Kernel.Proto

end
-- ==== Proof.EpilogueCloseBits.lean ====
/-
A device's positions at the end of its body: past the one round of each of its 96 transfer and copy cells.
-/
import proofs.«900882_g7700000000000883_dist_matmul_gelu_kshard_i_m2048_n2048_k1024_v7x_i8_f32_1_alg».proof.Proof.EpilogueTabBits

set_option maxRecDepth 100000

noncomputable section

namespace Cert.Kernel.Proto

open Cert.Kernel Cert.Kernel.Gen Cert.Kernel.Topo
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (V : Vals F)

/-- Device c past round 0 of each of its 96 cells other than the barrier's, nothing of round 1 taken. -/
def pos1Lit (c : Dev nD) : sProp 𝕄 :=
  iprop(atPos ER (cell c (CK.rsS 0 0)) 1 ∅ 0
    ∗ atPos ER (cell c (CK.rsS 0 1)) 1 ∅ 0
    ∗ atPos ER (cell c (CK.rsS 0 2)) 1 ∅ 0
    ∗ atPos ER (cell c (CK.rsS 1 0)) 1 ∅ 0
    ∗ atPos ER (cell c (CK.rsS 1 1)) 1 ∅ 0
    ∗ atPos ER (cell c (CK.rsS 1 2)) 1 ∅ 0
    ∗ atPos ER (cell c (CK.rsS 2 0)) 1 ∅ 0
    ∗ atPos ER (cell c (CK.rsS 2 1)) 1 ∅ 0
    ∗ atPos ER (cell c (CK.rsS 2 2)) 1 ∅ 0
    ∗ atPos ER (cell c (CK.rsS 3 0)) 1 ∅ 0
    ∗ atPos ER (cell c (CK.rsS 3 1)) 1 ∅ 0
    ∗ atPos ER (cell c (CK.rsS 3 2)) 1 ∅ 0
    ∗ atPos ER (cell c (CK.rsS 4 0)) 1 ∅ 0
    ∗ atPos ER (cell c (CK.rsS 4 1)) 1 ∅ 0
    ∗ atPos ER (cell c (CK.rsS 4 2)) 1 ∅ 0
    ∗ atPos ER (cell c (CK.rsS 5 0)) 1 ∅ 0
    ∗ atPos ER (cell c (CK.rsS 5 1)) 1 ∅ 0
    ∗ atPos ER (cell c (CK.rsS 5 2)) 1 ∅ 0
    ∗ atPos ER (cell c (CK.rsR 0 0)) 1 ∅ 0
    ∗ atPos ER (cell c (CK.rsR 0 1)) 1 ∅ 0
    ∗ atPos ER (cell c (CK.rsR 0 2)) 1 ∅ 0
    ∗ atPos ER (cell c (CK.rsR 1 0)) 1 ∅ 0
    ∗ atPos ER (cell c (CK.rsR 1 1)) 1 ∅ 0
    ∗ atPos ER (cell c (CK.rsR 1 2)) 1 ∅ 0
    ∗ atPos ER (cell c (CK.rsR 2 0)) 1 ∅ 0
    ∗ atPos ER (cell c (CK.rsR 2 1)) 1 ∅ 0
    ∗ atPos ER (cell c (CK.rsR 2 2)) 1 ∅ 0
    ∗ atPos ER (cell c (CK.rsR 3 0)) 1 ∅ 0
    ∗ atPos ER (cell c (CK.rsR 3 1)) 1 ∅ 0
    ∗ atPos ER (cell c (CK.rsR 3 2)) 1 ∅ 0
    ∗ atPos ER (cell c (CK.rsR 4 0)) 1 ∅ 0
    ∗ atPos ER (cell c (CK.rsR 4 1)) 1 ∅ 0
    ∗ atPos ER (cell c (CK.rsR 4 2)) 1 ∅ 0
    ∗ atPos ER (cell c (CK.rsR 5 0)) 1 ∅ 0
    ∗ atPos ER (cell c (CK.rsR 5 1)) 1 ∅ 0
    ∗ atPos ER (cell c (CK.rsR 5 2)) 1 ∅ 0
    ∗ atPos ER (cell c (CK.agS 0 0)) 1 ∅ 0
    ∗ atPos ER (cell c (CK.agS 0 1)) 1 ∅ 0
    ∗ atPos ER (cell c (CK.agS 0 2)) 1 ∅ 0
    ∗ atPos ER (cell c (CK.agS 1 0)) 1 ∅ 0
    ∗ atPos ER (cell c (CK.agS 1 1)) 1 ∅ 0
    ∗ atPos ER (cell c (CK.agS 1 2)) 1 ∅ 0
    ∗ atPos ER (cell c (CK.agS 2 0)) 1 ∅ 0
    ∗ atPos ER (cell c (CK.agS 2 1)) 1 ∅ 0
    ∗ atPos ER (cell c (CK.agS 2 2)) 1 ∅ 0
    ∗ atPos ER (cell c (CK.agS 3 0)) 1 ∅ 0
    ∗ atPos ER (cell c (CK.agS 3 1)) 1 ∅ 0
    ∗ atPos ER (cell c (CK.agS 3 2)) 1 ∅ 0
    ∗ atPos ER (cell c (CK.agS 4 0)) 1 ∅ 0
    ∗ atPos ER (cell c (CK.agS 4 1)) 1 ∅ 0
    ∗ atPos ER (cell c (CK.agS 4 2)) 1 ∅ 0
    ∗ atPos ER (cell c (CK.agS 5 0)) 1 ∅ 0
    ∗ atPos ER (cell c (CK.agS 5 1)) 1 ∅ 0
    ∗ atPos ER (cell c (CK.agS 5 2)) 1 ∅ 0
    ∗ atPos ER (cell c (CK.agR 0 0)) 1 ∅ 0
    ∗ atPos ER (cell c (CK.agR 0 1)) 1 ∅ 0
    ∗ atPos ER (cell c (CK.agR 0 2)) 1 ∅ 0
    ∗ atPos ER (cell c (CK.agR 1 0)) 1 ∅ 0
    ∗ atPos ER (cell c (CK.agR 1 1)) 1 ∅ 0
    ∗ atPos ER (cell c (CK.agR 1 2)) 1 ∅ 0
    ∗ atPos ER (cell c (CK.agR 2 0)) 1 ∅ 0
    ∗ atPos ER (cell c (CK.agR 2 1)) 1 ∅ 0
    ∗ atPos ER (cell c (CK.agR 2 2)) 1 ∅ 0
    ∗ atPos ER (cell c (CK.agR 3 0)) 1 ∅ 0
    ∗ atPos ER (cell c (CK.agR 3 1)) 1 ∅ 0
    ∗ atPos ER (cell c (CK.agR 3 2)) 1 ∅ 0
    ∗ atPos ER (cell c (CK.agR 4 0)) 1 ∅ 0
    ∗ atPos ER (cell c (CK.agR 4 1)) 1 ∅ 0
    ∗ atPos ER (cell c (CK.agR 4 2)) 1 ∅ 0
    ∗ atPos ER (cell c (CK.agR 5 0)) 1 ∅ 0
    ∗ atPos ER (cell c (CK.agR 5 1)) 1 ∅ 0
    ∗ atPos ER (cell c (CK.agR 5 2)) 1 ∅ 0
    ∗ atPos ER (cell c (CK.out 0)) 1 ∅ 0
    ∗ atPos ER (cell c (CK.out 1)) 1 ∅ 0
    ∗ atPos ER (cell c (CK.out 2)) 1 ∅ 0
    ∗ atPos ER (cell c (CK.out 3)) 1 ∅ 0
    ∗ atPos ER (cell c (CK.out 4)) 1 ∅ 0
    ∗ atPos ER (cell c (CK.out 5)) 1 ∅ 0
    ∗ atPos ER (cell c (CK.out 6)) 1 ∅ 0
    ∗ atPos ER (cell c (CK.out 7)) 1 ∅ 0
    ∗ atPos ER (cell c (CK.out 8)) 1 ∅ 0
    ∗ atPos ER (cell c (CK.out 9)) 1 ∅ 0
    ∗ atPos ER (cell c (CK.out 10)) 1 ∅ 0
    ∗ atPos ER (cell c (CK.out 11)) 1 ∅ 0
    ∗ atPos ER (cell c (CK.out 12)) 1 ∅ 0
    ∗ atPos ER (cell c (CK.out 13)) 1 ∅ 0
    ∗ atPos ER (cell c (CK.out 14)) 1 ∅ 0
    ∗ atPos ER (cell c (CK.out 15)) 1 ∅ 0
    ∗ atPos ER (cell c (CK.out 16)) 1 ∅ 0
    ∗ atPos ER (cell c (CK.out 17)) 1 ∅ 0
    ∗ atPos ER (cell c (CK.out 18)) 1 ∅ 0
    ∗ atPos ER (cell c (CK.out 19)) 1 ∅ 0
    ∗ atPos ER (cell c (CK.out 20)) 1 ∅ 0
    ∗ atPos ER (cell c (CK.out 21)) 1 ∅ 0
    ∗ atPos ER (cell c (CK.out 22)) 1 ∅ 0
    ∗ atPos ER (cell c (CK.out 23)) 1 ∅ 0)

omit [FloatOps F] in
theorem pos1Lit_eq (c : Dev nD) : (pos1Lit c : sProp 𝕄) = bigSep (Finset.univ.erase (0 : Fin 97)) fun i => atPos ER (cell c (ckOf i)) 1 ∅ 0 := by
  unfold pos1Lit; rw [zero_chain]; simp only [ckOf_lit_1, ckOf_lit_2, ckOf_lit_3, ckOf_lit_4, ckOf_lit_5, ckOf_lit_6, ckOf_lit_7, ckOf_lit_8, ckOf_lit_9, ckOf_lit_10, ckOf_lit_11, ckOf_lit_12, ckOf_lit_13, ckOf_lit_14, ckOf_lit_15, ckOf_lit_16, ckOf_lit_17, ckOf_lit_18, ckOf_lit_19, ckOf_lit_20, ckOf_lit_21, ckOf_lit_22, ckOf_lit_23, ckOf_lit_24, ckOf_lit_25, ckOf_lit_26, ckOf_lit_27, ckOf_lit_28, ckOf_lit_29, ckOf_lit_30, ckOf_lit_31, ckOf_lit_32, ckOf_lit_33, ckOf_lit_34, ckOf_lit_35, ckOf_lit_36, ckOf_lit_37, ckOf_lit_38, ckOf_lit_39, ckOf_lit_40, ckOf_lit_41, ckOf_lit_42, ckOf_lit_43, ckOf_lit_44, ckOf_lit_45, ckOf_lit_46, ckOf_lit_47, ckOf_lit_48, ckOf_lit_49, ckOf_lit_50, ckOf_lit_51, ckOf_lit_52, ckOf_lit_53, ckOf_lit_54, ckOf_lit_55, ckOf_lit_56, ckOf_lit_57, ckOf_lit_58, ckOf_lit_59, ckOf_lit_60, ckOf_lit_61, ckOf_lit_62, ckOf_lit_63, ckOf_lit_64, ckOf_lit_65, ckOf_lit_66, ckOf_lit_67, ckOf_lit_68, ckOf_lit_69, ckOf_lit_70, ckOf_lit_71, ckOf_lit_72, ckOf_lit_73, ckOf_lit_74, ckOf_lit_75, ckOf_lit_76, ckOf_lit_77, ckOf_lit_78, ckOf_lit_79, ckOf_lit_80, ckOf_lit_81, ckOf_lit_82, ckOf_lit_83, ckOf_lit_84, ckOf_lit_85, ckOf_lit_86, ckOf_lit_87, ckOf_lit_88, ckOf_lit_89, ckOf_lit_90, ckOf_lit_91, ckOf_lit_92, ckOf_lit_93, ckOf_lit_94, ckOf_lit_95, ckOf_lit_96]

end Cert.Kernel.Proto

end
-- ==== Proof.EpilogueShareBits.lean ====
/-
Half shares of a piece come back together: a transfer that only reads a piece borrows the left half of its share;
when the transfer is over the two halves, which agree on the piece's contents, are the whole share again.
-/
import proofs.«900882_g7700000000000883_dist_matmul_gelu_kshard_i_m2048_n2048_k1024_v7x_i8_f32_1_alg».proof.Proof.StartBits
import proofs.«900882_g7700000000000883_dist_matmul_gelu_kshard_i_m2048_n2048_k1024_v7x_i8_f32_1_alg».proof.Proof.PiecesBits

noncomputable section

namespace Cert.Kernel.Proto

open Cert.Kernel Cert.Kernel.Gen Cert.Kernel.Topo
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

omit [FloatOps F] in
/-- The left half at contents f and the right half at contents g: they agree, and together are the full share. -/
theorem halves_join {ℓ : Loc nD τ sig} {I : Finset (Idx ℓ)} (f g : Buf (Elt F) ℓ) :
    iprop((ℓ ↦[I]{fullShare.left} f) ∗ (ℓ ↦[I]{fullShare.right} g)) ⊢ (ℓ ↦[I]{fullShare} g : sProp 𝕄) := by
  have hag : iprop((ℓ ↦[I]{fullShare.left} f) ∗ (ℓ ↦[I]{fullShare.right} g))
      ⊢ (iprop(⌜∀ i ∈ I ∩ I, f i = g i ∧ PCS.opDef fullShare.left fullShare.right⌝) : sProp 𝕄) := pointsTo_agree
  have hjoin : iprop((ℓ ↦[I]{fullShare.left} g) ∗ (ℓ ↦[I]{fullShare.right} g)) ⊢ (ℓ ↦[I]{fullShare} g : sProp 𝕄) :=
    (pointsTo_share (PosShare.mem_left_op_right fullShare)).2
  iintro H
  ihave H' := (persistent_entails_right hag) $$ H
  icases H' with ⟨%h, Hl, Hr⟩
  have e : (ℓ ↦[I]{fullShare.left} f : sProp 𝕄) = (ℓ ↦[I]{fullShare.left} g) :=
    pointsTo_congr (fun i hi => (h i (Finset.mem_inter.mpr ⟨hi, hi⟩)).1)
  ihave Hl' := (Entails.of_eq e) $$ Hl
  iapply hjoin
  isplitl [Hl']; · iexact Hl'
  iexact Hr

omit [FloatOps F] in
/-- A piece whose left half was lent to a transfer, the transfer over: the piece is held whole again. -/
theorem lent_back (c : Dev nD) {sp : Space} {s : Shape} {e : EltTy} (M : Memref sig .tc sp s e) (g : Buf (Elt F) (M.view.loc (c : Thread nD τ))) :
    iprop(ptsLent (F := F) c M ∗ (M.view.loc (c : Thread nD τ) ↦[M.view.set]{fullShare.right} g)) ⊢ (ptsAny c M : sProp 𝕄) := by
  unfold ptsLent ptsAny
  iintro ⟨⟨%f, Hl⟩, Hr⟩
  iexists g
  iapply (halves_join f g)
  isplitl [Hl]; · iexact Hl
  iexact Hr

end Cert.Kernel.Proto

end
-- ==== Proof.EpilogueEndBits.lean ====
/-
The end state of a device's body, block by block: the landed pieces of its six landing buffers; of each staging
buffer its first 256 rows and the two remainders; of each all-gather buffer the lent left half and the kept right
half of the device's own 1024 rows and the 1024 rows that arrived last; and which scratch buffer each makes whole.
-/
import proofs.«900882_g7700000000000883_dist_matmul_gelu_kshard_i_m2048_n2048_k1024_v7x_i8_f32_1_alg».proof.Proof.EpilogueTabBits
import proofs.«900882_g7700000000000883_dist_matmul_gelu_kshard_i_m2048_n2048_k1024_v7x_i8_f32_1_alg».proof.Proof.EpilogueOutBits
import proofs.«900882_g7700000000000883_dist_matmul_gelu_kshard_i_m2048_n2048_k1024_v7x_i8_f32_1_alg».proof.Proof.EpilogueCloseBits
import proofs.«900882_g7700000000000883_dist_matmul_gelu_kshard_i_m2048_n2048_k1024_v7x_i8_f32_1_alg».proof.Proof.EpilogueShareBits

set_option maxRecDepth 100000

noncomputable section

namespace Cert.Kernel.Proto

open Cert.Kernel Cert.Kernel.Gen Cert.Kernel.Topo
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (V : Vals F)

/-- The eighteen landed pieces, group by group, each at some contents. -/
def commEnd (c : Dev nD) : sProp 𝕄 :=
  iprop((ptsAny (F := F) c commM0_0 ∗ ptsAny (F := F) c commM0_1 ∗ ptsAny (F := F) c commM0_2)
    ∗ (ptsAny (F := F) c commM1_0 ∗ ptsAny (F := F) c commM1_1 ∗ ptsAny (F := F) c commM1_2)
    ∗ (ptsAny (F := F) c commM2_0 ∗ ptsAny (F := F) c commM2_1 ∗ ptsAny (F := F) c commM2_2)
    ∗ (ptsAny (F := F) c commM3_0 ∗ ptsAny (F := F) c commM3_1 ∗ ptsAny (F := F) c commM3_2)
    ∗ (ptsAny (F := F) c commM4_0 ∗ ptsAny (F := F) c commM4_1 ∗ ptsAny (F := F) c commM4_2)
    ∗ (ptsAny (F := F) c commM5_0 ∗ ptsAny (F := F) c commM5_1 ∗ ptsAny (F := F) c commM5_2))

/-- The six staging buffers, each as its first 256 rows and the two remainders, at some contents. -/
def stgEnd (c : Dev nD) : sProp 𝕄 :=
  iprop((ptsAny (F := F) c stgM0_2 ∗ (∃ f : Buf (Elt F) ((c : Thread nD τ).loc cc0_scratch7), ((c : Thread nD τ).loc cc0_scratch7) ↦[(stgM0_1).view.set \ (stgM0_2).view.set]{fullShare} f) ∗ (∃ f : Buf (Elt F) ((c : Thread nD τ).loc cc0_scratch7), ((c : Thread nD τ).loc cc0_scratch7) ↦[(stgM0_0).view.set \ (stgM0_1).view.set]{fullShare} f))
    ∗ (ptsAny (F := F) c stgM1_2 ∗ (∃ f : Buf (Elt F) ((c : Thread nD τ).loc cc0_scratch8), ((c : Thread nD τ).loc cc0_scratch8) ↦[(stgM1_1).view.set \ (stgM1_2).view.set]{fullShare} f) ∗ (∃ f : Buf (Elt F) ((c : Thread nD τ).loc cc0_scratch8), ((c : Thread nD τ).loc cc0_scratch8) ↦[(stgM1_0).view.set \ (stgM1_1).view.set]{fullShare} f))
    ∗ (ptsAny (F := F) c stgM2_2 ∗ (∃ f : Buf (Elt F) ((c : Thread nD τ).loc cc0_scratch9), ((c : Thread nD τ).loc cc0_scratch9) ↦[(stgM2_1).view.set \ (stgM2_2).view.set]{fullShare} f) ∗ (∃ f : Buf (Elt F) ((c : Thread nD τ).loc cc0_scratch9), ((c : Thread nD τ).loc cc0_scratch9) ↦[(stgM2_0).view.set \ (stgM2_1).view.set]{fullShare} f))
    ∗ (ptsAny (F := F) c stgM3_2 ∗ (∃ f : Buf (Elt F) ((c : Thread nD τ).loc cc0_scratch10), ((c : Thread nD τ).loc cc0_scratch10) ↦[(stgM3_1).view.set \ (stgM3_2).view.set]{fullShare} f) ∗ (∃ f : Buf (Elt F) ((c : Thread nD τ).loc cc0_scratch10), ((c : Thread nD τ).loc cc0_scratch10) ↦[(stgM3_0).view.set \ (stgM3_1).view.set]{fullShare} f))
    ∗ (ptsAny (F := F) c stgM4_2 ∗ (∃ f : Buf (Elt F) ((c : Thread nD τ).loc cc0_scratch11), ((c : Thread nD τ).loc cc0_scratch11) ↦[(stgM4_1).view.set \ (stgM4_2).view.set]{fullShare} f) ∗ (∃ f : Buf (Elt F) ((c : Thread nD τ).loc cc0_scratch11), ((c : Thread nD τ).loc cc0_scratch11) ↦[(stgM4_0).view.set \ (stgM4_1).view.set]{fullShare} f))
    ∗ (ptsAny (F := F) c stgM5_2 ∗ (∃ f : Buf (Elt F) ((c : Thread nD τ).loc cc0_scratch12), ((c : Thread nD τ).loc cc0_scratch12) ↦[(stgM5_1).view.set \ (stgM5_2).view.set]{fullShare} f) ∗ (∃ f : Buf (Elt F) ((c : Thread nD τ).loc cc0_scratch12), ((c : Thread nD τ).loc cc0_scratch12) ↦[(stgM5_0).view.set \ (stgM5_1).view.set]{fullShare} f)))

/-- The six all-gather buffers: of the device's own 1024 rows the lent left half and the kept right half, and the
    1024 rows that arrived at the last step, at some contents. -/
def agEnd (c : Dev nD) : sProp 𝕄 :=
  iprop((ptsLent (F := F) c (agM0_2 c) ∗ (∃ g : Buf (Elt F) ((agM0_2 c).view.loc (c : Thread nD τ)), (agM0_2 c).view.loc (c : Thread nD τ) ↦[(agM0_2 c).view.set]{fullShare.right} g) ∗ ptsAny (F := F) c (agM0_2 (nbr 0 c)))
    ∗ (ptsLent (F := F) c (agM1_2 c) ∗ (∃ g : Buf (Elt F) ((agM1_2 c).view.loc (c : Thread nD τ)), (agM1_2 c).view.loc (c : Thread nD τ) ↦[(agM1_2 c).view.set]{fullShare.right} g) ∗ ptsAny (F := F) c (agM1_2 (nbr 1 c)))
    ∗ (ptsLent (F := F) c (agM2_2 c) ∗ (∃ g : Buf (Elt F) ((agM2_2 c).view.loc (c : Thread nD τ)), (agM2_2 c).view.loc (c : Thread nD τ) ↦[(agM2_2 c).view.set]{fullShare.right} g) ∗ ptsAny (F := F) c (agM2_2 (nbr 2 c)))
    ∗ (ptsLent (F := F) c (agM3_2 c) ∗ (∃ g : Buf (Elt F) ((agM3_2 c).view.loc (c : Thread nD τ)), (agM3_2 c).view.loc (c : Thread nD τ) ↦[(agM3_2 c).view.set]{fullShare.right} g) ∗ ptsAny (F := F) c (agM3_2 (nbr 0 c)))
    ∗ (ptsLent (F := F) c (agM4_2 c) ∗ (∃ g : Buf (Elt F) ((agM4_2 c).view.loc (c : Thread nD τ)), (agM4_2 c).view.loc (c : Thread nD τ) ↦[(agM4_2 c).view.set]{fullShare.right} g) ∗ ptsAny (F := F) c (agM4_2 (nbr 1 c)))
    ∗ (ptsLent (F := F) c (agM5_2 c) ∗ (∃ g : Buf (Elt F) ((agM5_2 c).view.loc (c : Thread nD τ)), (agM5_2 c).view.loc (c : Thread nD τ) ↦[(agM5_2 c).view.set]{fullShare.right} g) ∗ ptsAny (F := F) c (agM5_2 (nbr 2 c))))

/-- What is known of the result array's reading, block by block. -/
def outFacts (c : Dev nD) (g : Buf (Elt F) ((Memref.whole main_v1).view.loc (c : Thread nD τ))) : Prop :=
  V.out0 c ((outDstM0 c).view.read (Elt F) g) ∧ V.out1 c ((outDstM1 c).view.read (Elt F) g) ∧ V.out2 c ((outDstM2 c).view.read (Elt F) g) ∧ V.out3 c ((outDstM3 c).view.read (Elt F) g) ∧ V.out4 c ((outDstM4 c).view.read (Elt F) g) ∧ V.out5 c ((outDstM5 c).view.read (Elt F) g) ∧ V.out6 c ((outDstM6 c).view.read (Elt F) g) ∧ V.out7 c ((outDstM7 c).view.read (Elt F) g) ∧ V.out8 c ((outDstM8 c).view.read (Elt F) g) ∧ V.out9 c ((outDstM9 c).view.read (Elt F) g) ∧ V.out10 c ((outDstM10 c).view.read (Elt F) g) ∧ V.out11 c ((outDstM11 c).view.read (Elt F) g) ∧ V.out12 c ((outDstM12 c).view.read (Elt F) g) ∧ V.out13 c ((outDstM13 c).view.read (Elt F) g) ∧ V.out14 c ((outDstM14 c).view.read (Elt F) g) ∧ V.out15 c ((outDstM15 c).view.read (Elt F) g) ∧ V.out16 c ((outDstM16 c).view.read (Elt F) g) ∧ V.out17 c ((outDstM17 c).view.read (Elt F) g) ∧ V.out18 c ((outDstM18 c).view.read (Elt F) g) ∧ V.out19 c ((outDstM19 c).view.read (Elt F) g) ∧ V.out20 c ((outDstM20 c).view.read (Elt F) g) ∧ V.out21 c ((outDstM21 c).view.read (Elt F) g) ∧ V.out22 c ((outDstM22 c).view.read (Elt F) g) ∧ V.out23 c ((outDstM23 c).view.read (Elt F) g)

theorem dst_facts (c : Dev nD) : dstLit V c ⊢ iprop(∃ g, outWhole c g ∗ ⌜outFacts V c g⌝) := by
  unfold outFacts; exact dst_whole V c

/-- The nineteen scratch buffers whole again, from the accumulator's blocks and the pieces above. -/
theorem scratch_end (c : Dev nD) : iprop(accLit (F := F) c ∗ commEnd (F := F) c ∗ stgEnd (F := F) c ∗ agEnd (F := F) c) ⊢ scratchAny (F := F) c := by
  unfold commEnd stgEnd agEnd scratchAny
  iintro ⟨Hacc, ⟨⟨Hc00, Hc01, Hc02⟩, ⟨Hc10, Hc11, Hc12⟩, ⟨Hc20, Hc21, Hc22⟩, ⟨Hc30, Hc31, Hc32⟩, ⟨Hc40, Hc41, Hc42⟩, ⟨Hc50, Hc51, Hc52⟩⟩, ⟨⟨Hs0, Hr01, Hr00⟩, ⟨Hs1, Hr11, Hr10⟩, ⟨Hs2, Hr21, Hr20⟩, ⟨Hs3, Hr31, Hr30⟩, ⟨Hs4, Hr41, Hr40⟩, ⟨Hs5, Hr51, Hr50⟩⟩, ⟨⟨Hl0, ⟨%g0, Hk0⟩, Ha0⟩, ⟨Hl1, ⟨%g1, Hk1⟩, Ha1⟩, ⟨Hl2, ⟨%g2, Hk2⟩, Ha2⟩, ⟨Hl3, ⟨%g3, Hk3⟩, Ha3⟩, ⟨Hl4, ⟨%g4, Hk4⟩, Ha4⟩, ⟨Hl5, ⟨%g5, Hk5⟩, Ha5⟩⟩⟩
  isplitl [Hacc]; · iapply (acc_whole c); iexact Hacc
  isplitl [Hc00 Hc01 Hc02]
  · iapply (comm_join_0 c)
    isplitl [Hc00]; · iexact Hc00
    isplitl [Hc01]; · iexact Hc01
    iexact Hc02
  isplitl [Hc10 Hc11 Hc12]
  · iapply (comm_join_1 c)
    isplitl [Hc10]; · iexact Hc10
    isplitl [Hc11]; · iexact Hc11
    iexact Hc12
  isplitl [Hc20 Hc21 Hc22]
  · iapply (comm_join_2 c)
    isplitl [Hc20]; · iexact Hc20
    isplitl [Hc21]; · iexact Hc21
    iexact Hc22
  isplitl [Hc30 Hc31 Hc32]
  · iapply (comm_join_3 c)
    isplitl [Hc30]; · iexact Hc30
    isplitl [Hc31]; · iexact Hc31
    iexact Hc32
  isplitl [Hc40 Hc41 Hc42]
  · iapply (comm_join_4 c)
    isplitl [Hc40]; · iexact Hc40
    isplitl [Hc41]; · iexact Hc41
    iexact Hc42
  isplitl [Hc50 Hc51 Hc52]
  · iapply (comm_join_5 c)
    isplitl [Hc50]; · iexact Hc50
    isplitl [Hc51]; · iexact Hc51
    iexact Hc52
  isplitl [Hs0 Hr01 Hr00]
  · iapply (stg_join_0 c)
    isplitl [Hs0]; · iexact Hs0
    isplitl [Hr01]; · iexact Hr01
    iexact Hr00
  isplitl [Hs1 Hr11 Hr10]
  · iapply (stg_join_1 c)
    isplitl [Hs1]; · iexact Hs1
    isplitl [Hr11]; · iexact Hr11
    iexact Hr10
  isplitl [Hs2 Hr21 Hr20]
  · iapply (stg_join_2 c)
    isplitl [Hs2]; · iexact Hs2
    isplitl [Hr21]; · iexact Hr21
    iexact Hr20
  isplitl [Hs3 Hr31 Hr30]
  · iapply (stg_join_3 c)
    isplitl [Hs3]; · iexact Hs3
    isplitl [Hr31]; · iexact Hr31
    iexact Hr30
  isplitl [Hs4 Hr41 Hr40]
  · iapply (stg_join_4 c)
    isplitl [Hs4]; · iexact Hs4
    isplitl [Hr41]; · iexact Hr41
    iexact Hr40
  isplitl [Hs5 Hr51 Hr50]
  · iapply (stg_join_5 c)
    isplitl [Hs5]; · iexact Hs5
    isplitl [Hr51]; · iexact Hr51
    iexact Hr50
  ihave Hf0 := (lent_back c (agM0_2 c) g0) $$ [Hl0 Hk0]
  · isplitl [Hl0]; · iexact Hl0
    iexact Hk0
  ihave Hf1 := (lent_back c (agM1_2 c) g1) $$ [Hl1 Hk1]
  · isplitl [Hl1]; · iexact Hl1
    iexact Hk1
  ihave Hf2 := (lent_back c (agM2_2 c) g2) $$ [Hl2 Hk2]
  · isplitl [Hl2]; · iexact Hl2
    iexact Hk2
  ihave Hf3 := (lent_back c (agM3_2 c) g3) $$ [Hl3 Hk3]
  · isplitl [Hl3]; · iexact Hl3
    iexact Hk3
  ihave Hf4 := (lent_back c (agM4_2 c) g4) $$ [Hl4 Hk4]
  · isplitl [Hl4]; · iexact Hl4
    iexact Hk4
  ihave Hf5 := (lent_back c (agM5_2 c) g5) $$ [Hl5 Hk5]
  · isplitl [Hl5]; · iexact Hl5
    iexact Hk5
  isplitl [Hf0 Ha0]
  · iapply (ag_join_0 c)
    isplitl [Hf0]; · iexact Hf0
    iexact Ha0
  isplitl [Hf1 Ha1]
  · iapply (ag_join_1 c)
    isplitl [Hf1]; · iexact Hf1
    iexact Ha1
  isplitl [Hf2 Ha2]
  · iapply (ag_join_2 c)
    isplitl [Hf2]; · iexact Hf2
    iexact Ha2
  isplitl [Hf3 Ha3]
  · iapply (ag_join_3 c)
    isplitl [Hf3]; · iexact Hf3
    iexact Ha3
  isplitl [Hf4 Ha4]
  · iapply (ag_join_4 c)
    isplitl [Hf4]; · iexact Hf4
    iexact Ha4
  iapply (ag_join_5 c)
  isplitl [Hf5]; · iexact Hf5
  iexact Ha5

end Cert.Kernel.Proto

end
-- ==== Proof.PrologueCutBits.lean ====
/-
Cutting a whole buffer: along three pairwise disjoint sets that cover it, and along three successive halvings
(the whole is U2 ∪ N2, U2 is U1 ∪ N1, U1 is U0 ∪ N0). A points-to over a disjoint union is the two points-to's
side by side, and a points-to depends on its element set only.
-/
import proofs.«900882_g7700000000000883_dist_matmul_gelu_kshard_i_m2048_n2048_k1024_v7x_i8_f32_1_alg».proof.Proof.StartBits
import proofs.«900882_g7700000000000883_dist_matmul_gelu_kshard_i_m2048_n2048_k1024_v7x_i8_f32_1_alg».proof.Proof.PiecesBits

noncomputable section

namespace Cert.Kernel.Proto

open Cert.Kernel Cert.Kernel.Gen Cert.Kernel.Topo
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

omit [FloatOps F] in
/-- A whole buffer along three pairwise disjoint sets that cover it. -/
theorem pts_split3 {ℓ : Loc nD τ sig} {A B C : Finset (Idx ℓ)} {q : PosShare TreeShare} (f : Buf (Elt F) ℓ)
    (hAB : Disjoint A B) (hAC : Disjoint A C) (hBC : Disjoint B C) (hcov : A ∪ B ∪ C = Finset.univ) :
    (ℓ ↦{q} f : sProp 𝕄) ⊢ iprop((ℓ ↦[A]{q} f) ∗ (ℓ ↦[B]{q} f) ∗ (ℓ ↦[C]{q} f)) := by
  rw [show (ℓ ↦{q} f : sProp 𝕄) = (ℓ ↦[A ∪ B ∪ C]{q} f) from pts_set_eq hcov.symm]
  have h2 : (ℓ ↦[A ∪ B ∪ C]{q} f : sProp 𝕄) ⊢ iprop((ℓ ↦[A ∪ B]{q} f) ∗ (ℓ ↦[C]{q} f)) :=
    (Region.is_union (Finset.disjoint_union_left.mpr ⟨hAC, hBC⟩)).1
  have h3 : (ℓ ↦[A ∪ B]{q} f : sProp 𝕄) ⊢ iprop((ℓ ↦[A]{q} f) ∗ (ℓ ↦[B]{q} f)) := (Region.is_union hAB).1
  iintro H
  ihave H2 := h2 $$ H
  icases H2 with ⟨HAB, HC⟩
  ihave H3 := h3 $$ HAB
  icases H3 with ⟨HA, HB⟩
  isplitl [HA]; · iexact HA
  isplitl [HB]; · iexact HB
  iexact HC

omit [FloatOps F] in
/-- A whole buffer halved three times: U2 ∪ N2 the whole, U2 = U1 ∪ N1, U1 = U0 ∪ N0. -/
theorem pts_split4 {ℓ : Loc nD τ sig} {U2 N2 U1 N1 U0 N0 : Finset (Idx ℓ)} {q : PosShare TreeShare} (f : Buf (Elt F) ℓ)
    (hcov : U2 ∪ N2 = Finset.univ) (hd2 : Disjoint U2 N2) (hj1 : U2 = U1 ∪ N1) (hd1 : Disjoint U1 N1)
    (hj0 : U1 = U0 ∪ N0) (hd0 : Disjoint U0 N0) :
    (ℓ ↦{q} f : sProp 𝕄) ⊢ iprop((ℓ ↦[U0]{q} f) ∗ (ℓ ↦[N0]{q} f) ∗ (ℓ ↦[N1]{q} f) ∗ (ℓ ↦[N2]{q} f)) := by
  subst hj1; subst hj0
  rw [show (ℓ ↦{q} f : sProp 𝕄) = (ℓ ↦[(U0 ∪ N0 ∪ N1) ∪ N2]{q} f) from pts_set_eq hcov.symm]
  have h2 : (ℓ ↦[(U0 ∪ N0 ∪ N1) ∪ N2]{q} f : sProp 𝕄) ⊢ iprop((ℓ ↦[U0 ∪ N0 ∪ N1]{q} f) ∗ (ℓ ↦[N2]{q} f)) := (Region.is_union hd2).1
  have h1 : (ℓ ↦[(U0 ∪ N0) ∪ N1]{q} f : sProp 𝕄) ⊢ iprop((ℓ ↦[U0 ∪ N0]{q} f) ∗ (ℓ ↦[N1]{q} f)) := (Region.is_union hd1).1
  have h0 : (ℓ ↦[U0 ∪ N0]{q} f : sProp 𝕄) ⊢ iprop((ℓ ↦[U0]{q} f) ∗ (ℓ ↦[N0]{q} f)) := (Region.is_union hd0).1
  iintro H
  ihave H2 := h2 $$ H
  icases H2 with ⟨HU2, HN2⟩
  ihave H1 := h1 $$ HU2
  icases H1 with ⟨HU1, HN1⟩
  ihave H0 := h0 $$ HU1
  icases H0 with ⟨HU0, HN0⟩
  isplitl [HU0]; · iexact HU0
  isplitl [HN0]; · iexact HN0
  isplitl [HN1]; · iexact HN1
  iexact HN2

omit [FloatOps F] in
/-- A piece held at the full share at contents f is that piece held at some contents. -/
theorem heldW_intro (c : Dev nD) {sp : Space} {s : Shape} {e : EltTy} (M : Memref sig .tc sp s e) (f : Buf (Elt F) (M.view.loc (c : Thread nD τ))) :
    (M.view.loc (c : Thread nD τ) ↦[M.view.set]{fullShare} f : sProp 𝕄) ⊢ iprop(∃ g, heldW c M g) := by
  unfold heldW; iintro H; iexists f; iexact H

end Cert.Kernel.Proto

end
-- ==== Proof.PrologueBufsBits.lean ====
/-
The buffers of a device's starting state, case by case: landing buffer k (scratch 1 + k) cut into its three pieces;
all-gather buffer k (scratch 13 + k) cut into the device's own rows and the three pieces its neighbours' transfers
fill (the neighbour across axis (k + 2 - s) % 3 at step s); and the pieces handed to the neighbour across axis d
at the barrier: landing piece (k, s) with (k + s) % 3 = d and all-gather piece (k, s) with (k + 2 - s) % 3 = d.
-/
import proofs.«900882_g7700000000000883_dist_matmul_gelu_kshard_i_m2048_n2048_k1024_v7x_i8_f32_1_alg».proof.Proof.PrologueTabBits
import proofs.«900882_g7700000000000883_dist_matmul_gelu_kshard_i_m2048_n2048_k1024_v7x_i8_f32_1_alg».proof.Proof.PrologueCutBits
import proofs.«900882_g7700000000000883_dist_matmul_gelu_kshard_i_m2048_n2048_k1024_v7x_i8_f32_1_alg».proof.Proof.PiecesTabBits

set_option maxRecDepth 100000

noncomputable section

namespace Cert.Kernel.Proto

open Cert.Kernel Cert.Kernel.Gen Cert.Kernel.Topo
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

omit [FloatOps F] in
theorem comm_split_0 (c : Dev nD) (f : Buf (Elt F) ((c : Thread nD τ).loc cc0_scratch1)) :
    (((c : Thread nD τ).loc cc0_scratch1) ↦{fullShare} f : sProp 𝕄) ⊢ iprop(ptsAny c commM0_0 ∗ ptsAny c commM0_1 ∗ ptsAny c commM0_2) :=
  (pts_split3 f comm_disj01_0 comm_disj02_0 comm_disj12_0 comm_cover_0).trans
    (BIClass.sep_mono (ptsAny_intro c commM0_0 f) (BIClass.sep_mono (ptsAny_intro c commM0_1 f) (ptsAny_intro c commM0_2 f)))
omit [FloatOps F] in
theorem comm_split_1 (c : Dev nD) (f : Buf (Elt F) ((c : Thread nD τ).loc cc0_scratch2)) :
    (((c : Thread nD τ).loc cc0_scratch2) ↦{fullShare} f : sProp 𝕄) ⊢ iprop(ptsAny c commM1_0 ∗ ptsAny c commM1_1 ∗ ptsAny c commM1_2) :=
  (pts_split3 f comm_disj01_1 comm_disj02_1 comm_disj12_1 comm_cover_1).trans
    (BIClass.sep_mono (ptsAny_intro c commM1_0 f) (BIClass.sep_mono (ptsAny_intro c commM1_1 f) (ptsAny_intro c commM1_2 f)))
omit [FloatOps F] in
theorem comm_split_2 (c : Dev nD) (f : Buf (Elt F) ((c : Thread nD τ).loc cc0_scratch3)) :
    (((c : Thread nD τ).loc cc0_scratch3) ↦{fullShare} f : sProp 𝕄) ⊢ iprop(ptsAny c commM2_0 ∗ ptsAny c commM2_1 ∗ ptsAny c commM2_2) :=
  (pts_split3 f comm_disj01_2 comm_disj02_2 comm_disj12_2 comm_cover_2).trans
    (BIClass.sep_mono (ptsAny_intro c commM2_0 f) (BIClass.sep_mono (ptsAny_intro c commM2_1 f) (ptsAny_intro c commM2_2 f)))
omit [FloatOps F] in
theorem comm_split_3 (c : Dev nD) (f : Buf (Elt F) ((c : Thread nD τ).loc cc0_scratch4)) :
    (((c : Thread nD τ).loc cc0_scratch4) ↦{fullShare} f : sProp 𝕄) ⊢ iprop(ptsAny c commM3_0 ∗ ptsAny c commM3_1 ∗ ptsAny c commM3_2) :=
  (pts_split3 f comm_disj01_3 comm_disj02_3 comm_disj12_3 comm_cover_3).trans
    (BIClass.sep_mono (ptsAny_intro c commM3_0 f) (BIClass.sep_mono (ptsAny_intro c commM3_1 f) (ptsAny_intro c commM3_2 f)))
omit [FloatOps F] in
theorem comm_split_4 (c : Dev nD) (f : Buf (Elt F) ((c : Thread nD τ).loc cc0_scratch5)) :
    (((c : Thread nD τ).loc cc0_scratch5) ↦{fullShare} f : sProp 𝕄) ⊢ iprop(ptsAny c commM4_0 ∗ ptsAny c commM4_1 ∗ ptsAny c commM4_2) :=
  (pts_split3 f comm_disj01_4 comm_disj02_4 comm_disj12_4 comm_cover_4).trans
    (BIClass.sep_mono (ptsAny_intro c commM4_0 f) (BIClass.sep_mono (ptsAny_intro c commM4_1 f) (ptsAny_intro c commM4_2 f)))
omit [FloatOps F] in
theorem comm_split_5 (c : Dev nD) (f : Buf (Elt F) ((c : Thread nD τ).loc cc0_scratch6)) :
    (((c : Thread nD τ).loc cc0_scratch6) ↦{fullShare} f : sProp 𝕄) ⊢ iprop(ptsAny c commM5_0 ∗ ptsAny c commM5_1 ∗ ptsAny c commM5_2) :=
  (pts_split3 f comm_disj01_5 comm_disj02_5 comm_disj12_5 comm_cover_5).trans
    (BIClass.sep_mono (ptsAny_intro c commM5_0 f) (BIClass.sep_mono (ptsAny_intro c commM5_1 f) (ptsAny_intro c commM5_2 f)))

omit [FloatOps F] in
theorem ag_split_0 (c : Dev nD) (f : Buf (Elt F) ((c : Thread nD τ).loc cc0_scratch13)) :
    (((c : Thread nD τ).loc cc0_scratch13) ↦{fullShare} f : sProp 𝕄)
      ⊢ iprop((∃ g, heldW c (agM0_0 c) g) ∗ ptsAny c (agM0_0 (nbr 2 c)) ∗ ptsAny c (agM0_1 (nbr 1 c)) ∗ ptsAny c (agM0_2 (nbr 0 c))) :=
  (pts_split4 f (ag_cover_0 c) (ag_disj2_0 c) (ag_join1_0 c) (ag_disj1_0 c) (ag_join0_0 c) (ag_disj0_0 c)).trans
    (BIClass.sep_mono (heldW_intro c (agM0_0 c) f) (BIClass.sep_mono (ptsAny_intro c (agM0_0 (nbr 2 c)) f)
      (BIClass.sep_mono (ptsAny_intro c (agM0_1 (nbr 1 c)) f) (ptsAny_intro c (agM0_2 (nbr 0 c)) f))))
omit [FloatOps F] in
theorem ag_split_1 (c : Dev nD) (f : Buf (Elt F) ((c : Thread nD τ).loc cc0_scratch14)) :
    (((c : Thread nD τ).loc cc0_scratch14) ↦{fullShare} f : sProp 𝕄)
      ⊢ iprop((∃ g, heldW c (agM1_0 c) g) ∗ ptsAny c (agM1_0 (nbr 0 c)) ∗ ptsAny c (agM1_1 (nbr 2 c)) ∗ ptsAny c (agM1_2 (nbr 1 c))) :=
  (pts_split4 f (ag_cover_1 c) (ag_disj2_1 c) (ag_join1_1 c) (ag_disj1_1 c) (ag_join0_1 c) (ag_disj0_1 c)).trans
    (BIClass.sep_mono (heldW_intro c (agM1_0 c) f) (BIClass.sep_mono (ptsAny_intro c (agM1_0 (nbr 0 c)) f)
      (BIClass.sep_mono (ptsAny_intro c (agM1_1 (nbr 2 c)) f) (ptsAny_intro c (agM1_2 (nbr 1 c)) f))))
omit [FloatOps F] in
theorem ag_split_2 (c : Dev nD) (f : Buf (Elt F) ((c : Thread nD τ).loc cc0_scratch15)) :
    (((c : Thread nD τ).loc cc0_scratch15) ↦{fullShare} f : sProp 𝕄)
      ⊢ iprop((∃ g, heldW c (agM2_0 c) g) ∗ ptsAny c (agM2_0 (nbr 1 c)) ∗ ptsAny c (agM2_1 (nbr 0 c)) ∗ ptsAny c (agM2_2 (nbr 2 c))) :=
  (pts_split4 f (ag_cover_2 c) (ag_disj2_2 c) (ag_join1_2 c) (ag_disj1_2 c) (ag_join0_2 c) (ag_disj0_2 c)).trans
    (BIClass.sep_mono (heldW_intro c (agM2_0 c) f) (BIClass.sep_mono (ptsAny_intro c (agM2_0 (nbr 1 c)) f)
      (BIClass.sep_mono (ptsAny_intro c (agM2_1 (nbr 0 c)) f) (ptsAny_intro c (agM2_2 (nbr 2 c)) f))))
omit [FloatOps F] in
theorem ag_split_3 (c : Dev nD) (f : Buf (Elt F) ((c : Thread nD τ).loc cc0_scratch16)) :
    (((c : Thread nD τ).loc cc0_scratch16) ↦{fullShare} f : sProp 𝕄)
      ⊢ iprop((∃ g, heldW c (agM3_0 c) g) ∗ ptsAny c (agM3_0 (nbr 2 c)) ∗ ptsAny c (agM3_1 (nbr 1 c)) ∗ ptsAny c (agM3_2 (nbr 0 c))) :=
  (pts_split4 f (ag_cover_3 c) (ag_disj2_3 c) (ag_join1_3 c) (ag_disj1_3 c) (ag_join0_3 c) (ag_disj0_3 c)).trans
    (BIClass.sep_mono (heldW_intro c (agM3_0 c) f) (BIClass.sep_mono (ptsAny_intro c (agM3_0 (nbr 2 c)) f)
      (BIClass.sep_mono (ptsAny_intro c (agM3_1 (nbr 1 c)) f) (ptsAny_intro c (agM3_2 (nbr 0 c)) f))))
omit [FloatOps F] in
theorem ag_split_4 (c : Dev nD) (f : Buf (Elt F) ((c : Thread nD τ).loc cc0_scratch17)) :
    (((c : Thread nD τ).loc cc0_scratch17) ↦{fullShare} f : sProp 𝕄)
      ⊢ iprop((∃ g, heldW c (agM4_0 c) g) ∗ ptsAny c (agM4_0 (nbr 0 c)) ∗ ptsAny c (agM4_1 (nbr 2 c)) ∗ ptsAny c (agM4_2 (nbr 1 c))) :=
  (pts_split4 f (ag_cover_4 c) (ag_disj2_4 c) (ag_join1_4 c) (ag_disj1_4 c) (ag_join0_4 c) (ag_disj0_4 c)).trans
    (BIClass.sep_mono (heldW_intro c (agM4_0 c) f) (BIClass.sep_mono (ptsAny_intro c (agM4_0 (nbr 0 c)) f)
      (BIClass.sep_mono (ptsAny_intro c (agM4_1 (nbr 2 c)) f) (ptsAny_intro c (agM4_2 (nbr 1 c)) f))))
omit [FloatOps F] in
theorem ag_split_5 (c : Dev nD) (f : Buf (Elt F) ((c : Thread nD τ).loc cc0_scratch18)) :
    (((c : Thread nD τ).loc cc0_scratch18) ↦{fullShare} f : sProp 𝕄)
      ⊢ iprop((∃ g, heldW c (agM5_0 c) g) ∗ ptsAny c (agM5_0 (nbr 1 c)) ∗ ptsAny c (agM5_1 (nbr 0 c)) ∗ ptsAny c (agM5_2 (nbr 2 c))) :=
  (pts_split4 f (ag_cover_5 c) (ag_disj2_5 c) (ag_join1_5 c) (ag_disj1_5 c) (ag_join0_5 c) (ag_disj0_5 c)).trans
    (BIClass.sep_mono (heldW_intro c (agM5_0 c) f) (BIClass.sep_mono (ptsAny_intro c (agM5_0 (nbr 1 c)) f)
      (BIClass.sep_mono (ptsAny_intro c (agM5_1 (nbr 0 c)) f) (ptsAny_intro c (agM5_2 (nbr 2 c)) f))))

omit [FloatOps F] in
/-- The buffers of the starting state from the two staged blocks, the result array and the nineteen scratch buffers. -/
theorem bufs_intro (c : Dev nD) :
    iprop(heldW c (Memref.whole cc0_stg0_0 : Memref sig .tc .vmem S2048x1024 .f32) (Astg m c)
        ∗ heldW c (Memref.whole cc0_stg1_0 : Memref sig .tc .vmem S1024x2048 .f32) (Bstg m c)
        ∗ outWhole c (m ((c : Thread nD τ).loc main_v1)) ∗ scratchAny (F := F) c)
      ⊢ bufsLit m c := by
  unfold scratchAny bufsLit outWhole
  simp only [barPay, nbr_nbr]
  iintro ⟨HA, HB, Ho, ⟨%f0, H0⟩, ⟨%f1, H1⟩, ⟨%f2, H2⟩, ⟨%f3, H3⟩, ⟨%f4, H4⟩, ⟨%f5, H5⟩, ⟨%f6, H6⟩, ⟨%f7, H7⟩, ⟨%f8, H8⟩, ⟨%f9, H9⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩⟩
  ihave Hc0 := (comm_split_0 c f1) $$ H1; icases Hc0 with ⟨Hc00, Hc01, Hc02⟩
  ihave Hc1 := (comm_split_1 c f2) $$ H2; icases Hc1 with ⟨Hc10, Hc11, Hc12⟩
  ihave Hc2 := (comm_split_2 c f3) $$ H3; icases Hc2 with ⟨Hc20, Hc21, Hc22⟩
  ihave Hc3 := (comm_split_3 c f4) $$ H4; icases Hc3 with ⟨Hc30, Hc31, Hc32⟩
  ihave Hc4 := (comm_split_4 c f5) $$ H5; icases Hc4 with ⟨Hc40, Hc41, Hc42⟩
  ihave Hc5 := (comm_split_5 c f6) $$ H6; icases Hc5 with ⟨Hc50, Hc51, Hc52⟩
  ihave Hg0 := (ag_split_0 c f13) $$ H13; icases Hg0 with ⟨Hown0, Hg00, Hg01, Hg02⟩
  ihave Hg1 := (ag_split_1 c f14) $$ H14; icases Hg1 with ⟨Hown1, Hg10, Hg11, Hg12⟩
  ihave Hg2 := (ag_split_2 c f15) $$ H15; icases Hg2 with ⟨Hown2, Hg20, Hg21, Hg22⟩
  ihave Hg3 := (ag_split_3 c f16) $$ H16; icases Hg3 with ⟨Hown3, Hg30, Hg31, Hg32⟩
  ihave Hg4 := (ag_split_4 c f17) $$ H17; icases Hg4 with ⟨Hown4, Hg40, Hg41, Hg42⟩
  ihave Hg5 := (ag_split_5 c f18) $$ H18; icases Hg5 with ⟨Hown5, Hg50, Hg51, Hg52⟩
  isplitl [HA]; · iexact HA
  isplitl [HB]; · iexact HB
  isplitl [Ho]; · rw [heldW_whole_eq]; iexact Ho
  isplitl [H0]; · iexists f0; rw [heldW_whole_eq]; iexact H0
  isplitl [H7 H8 H9 H10 H11 H12]
  · isplitl [H7]; · iexists f7; rw [heldW_whole_eq]; iexact H7
    isplitl [H8]; · iexists f8; rw [heldW_whole_eq]; iexact H8
    isplitl [H9]; · iexists f9; rw [heldW_whole_eq]; iexact H9
    isplitl [H10]; · iexists f10; rw [heldW_whole_eq]; iexact H10
    isplitl [H11]; · iexists f11; rw [heldW_whole_eq]; iexact H11
    iexists f12; rw [heldW_whole_eq]; iexact H12
  isplitl [Hc00 Hc12 Hc21 Hc30 Hc42 Hc51 Hg02 Hg10 Hg21 Hg32 Hg40 Hg51 Hc01 Hc10 Hc22 Hc31 Hc40 Hc52 Hg01 Hg12 Hg20 Hg31 Hg42 Hg50 Hc02 Hc11 Hc20 Hc32 Hc41 Hc50 Hg00 Hg11 Hg22 Hg30 Hg41 Hg52]
  · isplitl [Hc00 Hc12 Hc21 Hc30 Hc42 Hc51 Hg02 Hg10 Hg21 Hg32 Hg40 Hg51]
    · isplitl [Hc00]; · iexact Hc00
      isplitl [Hc12]; · iexact Hc12
      isplitl [Hc21]; · iexact Hc21
      isplitl [Hc30]; · iexact Hc30
      isplitl [Hc42]; · iexact Hc42
      isplitl [Hc51]; · iexact Hc51
      isplitl [Hg02]; · iexact Hg02
      isplitl [Hg10]; · iexact Hg10
      isplitl [Hg21]; · iexact Hg21
      isplitl [Hg32]; · iexact Hg32
      isplitl [Hg40]; · iexact Hg40
      iexact Hg51
    isplitl [Hc01 Hc10 Hc22 Hc31 Hc40 Hc52 Hg01 Hg12 Hg20 Hg31 Hg42 Hg50]
    · isplitl [Hc01]; · iexact Hc01
      isplitl [Hc10]; · iexact Hc10
      isplitl [Hc22]; · iexact Hc22
      isplitl [Hc31]; · iexact Hc31
      isplitl [Hc40]; · iexact Hc40
      isplitl [Hc52]; · iexact Hc52
      isplitl [Hg01]; · iexact Hg01
      isplitl [Hg12]; · iexact Hg12
      isplitl [Hg20]; · iexact Hg20
      isplitl [Hg31]; · iexact Hg31
      isplitl [Hg42]; · iexact Hg42
      iexact Hg50
    isplitl [Hc02]; · iexact Hc02
    isplitl [Hc11]; · iexact Hc11
    isplitl [Hc20]; · iexact Hc20
    isplitl [Hc32]; · iexact Hc32
    isplitl [Hc41]; · iexact Hc41
    isplitl [Hc50]; · iexact Hc50
    isplitl [Hg00]; · iexact Hg00
    isplitl [Hg11]; · iexact Hg11
    isplitl [Hg22]; · iexact Hg22
    isplitl [Hg30]; · iexact Hg30
    isplitl [Hg41]; · iexact Hg41
    iexact Hg52
  isplitl [Hown0]; · iexact Hown0
  isplitl [Hown1]; · iexact Hown1
  isplitl [Hown2]; · iexact Hown2
  isplitl [Hown3]; · iexact Hown3
  isplitl [Hown4]; · iexact Hown4
  iexact Hown5

end Cert.Kernel.Proto

end
-- ==== Proof.LaunchBits.lean ====
/-
The launch of the protocol: from "every device's body is proved" to the run of the whole program.

The protocol's ghost state is allocated for all eight devices at once (the barrier cells are shared by the three
devices that signal them): every cell of every device gets its invariant, its owner its position at round 0, and
the token of every duty travels to the device that pays it — a barrier duty across its axis, a receive cell's
landing duty to the neighbour whose transfer fills it. The units the devices owe one another at launch are dealt
to the owners of the cells as credit. The result array, staged by no window, travels into the region's first
assertion and out of its last, and is read back against the final memory.
-/
import proofs.«900882_g7700000000000883_dist_matmul_gelu_kshard_i_m2048_n2048_k1024_v7x_i8_f32_1_alg».proof.Proof.DatsBits
import Mathlib.Algebra.BigOperators.Intervals
import Mathlib.Algebra.BigOperators.Fin

noncomputable section

namespace Cert.Kernel.Proto

open Cert.Kernel Cert.Kernel.Gen Cert.Kernel.Topo
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (V : Vals F)

/-! ## The kernel's own semaphores -/

/-- The 96 scoped semaphores of the protocol: every cell but the barrier's. -/
def osem : Fin 96 → SemLoc sig := fun i => (ckOf i.succ).sem

theorem osem_injective : Function.Injective osem :=
  fun a b h => Fin.succ_injective _ (ckOf_injective (sem_injective h))

set_option maxRecDepth 16384 in
theorem ownSemFacts : Pipeline.OwnSemFacts cfg0.spec osem :=
  ⟨by decide, osem_injective, by decide⟩

theorem share_eq (c : Dev nD) (w : Fin cfg0.W) : (dats m ρ V 0 c).share w = fullShare := by unfold Dat.share; split <;> rfl

/-! ## The cells and the minted tokens -/

def allCells : Finset (GSem nD τ sig) := Finset.univ.map ⟨kcell, kcell_injective⟩

/-- A device's own cells' duties, as minted: the barrier's three; duty 0 of each reduce-scatter receive cell, each
    all-gather receive cell, each reduce-scatter send cell, each all-gather send cell, each result copy's cell. -/
abbrev TokIx : Type := Fin 3 ⊕ (Fin 18 ⊕ (Fin 18 ⊕ (Fin 18 ⊕ (Fin 18 ⊕ Fin 24))))

def tokCK : TokIx → CK × Fin 3
  | .inl d => (.bar, d)
  | .inr (.inl i) => (rsRk i, 0)
  | .inr (.inr (.inl i)) => (agRk i, 0)
  | .inr (.inr (.inr (.inl i))) => (rsSk i, 0)
  | .inr (.inr (.inr (.inr (.inl i)))) => (agSk i, 0)
  | .inr (.inr (.inr (.inr (.inr j)))) => (.out j, 0)

def tokIx : CK × Fin 3 → TokIx
  | (.bar, d) => .inl d
  | (.rsR k s, _) => .inr (.inl (ksF k s))
  | (.agR k s, _) => .inr (.inr (.inl (ksF k s)))
  | (.rsS k s, _) => .inr (.inr (.inr (.inl (ksF k s))))
  | (.agS k s, _) => .inr (.inr (.inr (.inr (.inl (ksF k s)))))
  | (.out j, _) => .inr (.inr (.inr (.inr (.inr j))))

theorem tokIx_tokCK : ∀ t : TokIx, tokIx (tokCK t) = t := by
  rintro (d | i | i | i | i | j)
  · rfl
  · revert i; decide
  · revert i; decide
  · revert i; decide
  · revert i; decide
  · rfl

theorem tokCK_injective : Function.Injective tokCK :=
  fun a b h => by rw [← tokIx_tokCK a, ← tokIx_tokCK b, h]

abbrev tokOf (x : Dev nD × TokIx) : GSem nD τ sig × ℕ × Fin 3 := (cell x.1 (tokCK x.2).1, 0, (tokCK x.2).2)

theorem tokOf_injective : Function.Injective (tokOf : Dev nD × TokIx → GSem nD τ sig × ℕ × Fin 3) := by
  rintro ⟨c, t⟩ ⟨c', t'⟩ h
  have h1 : c = c' := by have := congrArg (fun x : GSem nD τ sig × ℕ × Fin 3 => x.1.1.1) h; exact this
  subst h1
  have h2 : (tokCK t).1.sem = (tokCK t').1.sem := congrArg (fun x : GSem nD τ sig × ℕ × Fin 3 => x.1.2) h
  have h3 : (tokCK t).2 = (tokCK t').2 := congrArg (fun x : GSem nD τ sig × ℕ × Fin 3 => x.2.2) h
  rw [tokCK_injective (Prod.ext (sem_injective h2) h3)]

def allToks : Finset (GSem nD τ sig × ℕ × Fin 3) := Finset.univ.map ⟨tokOf, tokOf_injective⟩

def u₀ : UU :=
  (initOf (Pipeline.cells cfgs cellOf_inj) (Pipeline.launchToks cfgs cellOf_inj), initOf allCells allToks)

/-- The duty tokens of device c's own cells. -/
def toks (c : Dev nD) : sProp 𝕄 :=
  iprop((bigSep Finset.univ fun d : Fin 3 => dutyTok ER (cell c .bar) 0 d)
    ∗ (bigSep Finset.univ fun i : Fin 18 => dutyTok ER (cell c (rsRk i)) 0 (0 : Fin 3))
    ∗ (bigSep Finset.univ fun i : Fin 18 => dutyTok ER (cell c (agRk i)) 0 (0 : Fin 3))
    ∗ (bigSep Finset.univ fun i : Fin 18 => dutyTok ER (cell c (rsSk i)) 0 (0 : Fin 3))
    ∗ (bigSep Finset.univ fun i : Fin 18 => dutyTok ER (cell c (agSk i)) 0 (0 : Fin 3))
    ∗ (bigSep Finset.univ fun j : Fin 24 => dutyTok ER (cell c (.out j)) 0 (0 : Fin 3)))

/-- What the launch element deals device c (the theorem's G). -/
def G (c : Dev nD) : sProp 𝕄 :=
  iprop((bigSep Finset.univ fun k : Fin 97 => roundState ER (sched V) (kcell (c, k)) 0)
    ∗ (bigSep Finset.univ fun k : Fin 97 => iprop(atPos ER (kcell (c, k)) 0 ∅ 0 ∗ reached ER (kcell (c, k)) 0)) ∗ toks (F := F) c)

/-- What the global step makes of it (G'). -/
def G' (c : Dev nD) : sProp 𝕄 := iprop(∃ K, ghost V K c)

omit [FloatOps F] in
theorem fund_all : BI.own (ER (initOf allCells allToks)) ⊢ (|==> bigSep Finset.univ (G V) : sProp 𝕄) := by
  have hX (Φ : GSem nD τ sig → sProp 𝕄) : bigSep allCells Φ = bigSep Finset.univ fun c : Dev nD => bigSep Finset.univ fun k : Fin 97 => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by
      unfold toks
      rw [bigSep_univ_sum, bigSep_univ_sum, bigSep_univ_sum, bigSep_univ_sum, bigSep_univ_sum]; rfl
  iintro HX
  imod (Rounds.fund ER (sched V) allCells allToks) $$ HX with ⟨Hst, Hr, Hat, Htok⟩
  imodintro
  ihave Hst' := (Entails.of_eq (hX fun g => roundState ER (sched V) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores at zero -/

theorem erase_zero_eq : (Finset.univ.erase (0 : Fin 97)) = Finset.univ.map (Fin.succEmb 96) := by
  ext i
  rw [Finset.mem_erase, Finset.mem_map]
  constructor
  · rintro ⟨h0, -⟩
    exact ⟨i.pred h0, Finset.mem_univ _, Fin.succ_pred i h0⟩
  · rintro ⟨j, -, rfl⟩
    exact ⟨Fin.succ_ne_zero j, Finset.mem_univ _⟩

omit [FloatOps F] in
/-- A conjunction over a device's 97 cells: the barrier's, and the 96 others'. -/
theorem bigSep_fin97 (Φ : Fin 97 → sProp 𝕄) :
    bigSep Finset.univ Φ = iprop(Φ 0 ∗ bigSep Finset.univ fun i : Fin 96 => Φ i.succ) := by
  rw [bigSep_univ_split (0 : Fin 97), erase_zero_eq, bigSep_map]; rfl

omit [FloatOps F] in
/-- The protocol's own semaphores at zero are the launch's own; -/
theorem ownSems0_eq (c : Dev nD) : (Pipeline.ownSems0 (Ix := Unit) (Name := ℕ) (U := UU) (Lvl := ℕ) (Val := Elt F) (τ := τ) osem c : sProp 𝕄) = ownZero c := by
  unfold ownZero Pipeline.ownSems0; rw [erase_zero_eq, bigSep_map]; rfl

omit [FloatOps F] in
/-- the barrier semaphore the launch's one unscoped semaphore. -/
theorem unscopedSems0_eq (c : Dev nD) : (unscopedSems0 c : sProp 𝕄) = semVal (cell c .bar) 0 := by
  unfold unscopedSems0; rw [bigSep_eq_bigSepL_of_eq [SemLoc.reg barS] (by decide) (by decide)]; rfl

omit [FloatOps F] in
theorem own96_eq (c : Dev nD) : (Pipeline.ownSems0 (Ix := Unit) (Name := ℕ) (U := UU) (Lvl := ℕ) (Val := Elt F) (τ := τ) osem c : sProp 𝕄)
    = bigSep Finset.univ fun i : Fin 96 => semVal (kcell (c, i.succ)) 0 := rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 97 => semVal (kcell (c, k)) 0 : sProp 𝕄) := by
  rw [bigSep_fin97, unscopedSems0_eq, own96_eq]
  iintro ⟨HS, HB⟩
  isplitl [HB]; · iexact HB
  iexact HS

/-! ## The payloads are assertions an invariant can hold -/

omit [FloatOps F] in
instance ptsAny_storable (c : Dev nD) {sp : Space} {s : Shape} {e : EltTy} (M : Memref sig .tc sp s e) :
    BI.Storable (upEmb : UEmb _ 𝕄) (ptsAny (F := F) c M) := by unfold ptsAny; infer_instance
omit [FloatOps F] in
instance ptsIs_storable (c : Dev nD) {sp : Space} {s : Shape} {e : EltTy} (M : Memref sig .tc sp s e) (X : (s.Idx → Elt F e) → Prop) :
    BI.Storable (upEmb : UEmb _ 𝕄) (ptsIs c M X) := by unfold ptsIs; infer_instance
omit [FloatOps F] in
instance ptsLent_storable (c : Dev nD) {sp : Space} {s : Shape} {e : EltTy} (M : Memref sig .tc sp s e) :
    BI.Storable (upEmb : UEmb _ 𝕄) (ptsLent (F := F) c M) := by unfold ptsLent; infer_instance

omit [FloatOps F] in
/-- Every payload of the schedule is an assertion an invariant can hold. -/
theorem pay_storable (V : Vals F) (c : Dev nD) (κ : CK) (d : Fin 3) : BI.Storable (upEmb : UEmb _ 𝕄) (pay V c κ d) := by
  cases κ with
  | bar => show BI.Storable upEmb (barPay c d); fin_cases d <;> (simp only [barPay]; infer_instance)
  | rsS k s => show BI.Storable upEmb (rsSPay c (ksF k s)); generalize ksF k s = i; fin_cases i <;> (simp only [rsSPay]; infer_instance)
  | rsR k s => show BI.Storable upEmb (rsRPay V c (ksF k s)); generalize ksF k s = i; fin_cases i <;> (simp only [rsRPay]; infer_instance)
  | agS k s => show BI.Storable upEmb (agSPay c (ksF k s)); generalize ksF k s = i; fin_cases i <;> (simp only [agSPay]; infer_instance)
  | agR k s => show BI.Storable upEmb (agRPay V c (ksF k s)); generalize ksF k s = i; fin_cases i <;> (simp only [agRPay]; infer_instance)
  | out j => show BI.Storable upEmb (outPay V c j); fin_cases j <;> (simp only [outPay]; infer_instance)

omit [FloatOps F] in
instance sched_payload_storable (V : Vals F) (g : GSem nD τ sig) (r : ℕ) (d : Fin 3) :
    BI.Storable (upEmb : UEmb _ 𝕄) ((sched V).payload g r d) := by
  show BI.Storable upEmb (match decode g.2 with | some κ => pay V g.1.1 κ d | none => iprop(emp))
  cases decode g.2 with
  | none => infer_instance
  | some κ => exact pay_storable V g.1.1 κ d

/-! ## The global step -/

omit [FloatOps F] in
theorem core_alloc (c : Dev nD) :
    iprop(Pipeline.ownSems0 (Ix := Unit) (Name := ℕ) (U := UU) (Lvl := ℕ) (Val := Elt F) (τ := τ) osem c ∗ unscopedSems0 c ∗ G V c)
      ⊢ |={Set.univ}=> iprop((bigSep Finset.univ fun k => iprop(∃ κ : ℕ, cellInv ER (sched V) κ (kcell (c, k))))
          ∗ (bigSep Finset.univ fun k : Fin 97 => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 97 => semVal (kcell (c, k)) 0) ∗ bigSep Finset.univ fun k : Fin 97 => roundState ER (sched V) (kcell (c, k)) 0)
      ⊢ (|={Set.univ}=> bigSep Finset.univ fun k => iprop(∃ κ : ℕ, cellInv ER (sched V) κ (kcell (c, k))) : sProp 𝕄) from by
        rw [← bigSep_sep']
        exact (bigSep_mono fun k _ => (Rounds.body_intro ER (sched V) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
theorem ghost_intro (K : Dev nD × Fin 97 → ℕ) (c : Dev nD) : iprop(records V K ∗ linear (F := F) c) ⊢ G' V c := by
  unfold G' ghost
  iintro H
  iexists K
  iexact H

/-- Crossing an axis, as a permutation of the devices. -/
def nbrE (d : Fin 3) : Dev nD ≃ Dev nD := ⟨nbr d, nbr d, nbr_nbr d, nbr_nbr d⟩

omit [FloatOps F] in
/-- Tokens indexed by (device, i), each handed across the axis its index names: every device gets one of each index. -/
theorem around {n : ℕ} (dir : Fin n → Fin 3) (Ψ : Fin n → Dev nD → sProp 𝕄) :
    (bigSep Finset.univ fun c : Dev nD => bigSep Finset.univ fun i : Fin n => Ψ i c)
      = bigSep Finset.univ fun c : Dev nD => bigSep Finset.univ fun i : Fin n => Ψ i (nbr (dir i) c) := by
  rw [bigSep_univ_comm, bigSep_univ_comm (fun (c : Dev nD) (i : Fin n) => Ψ i (nbr (dir i) c))]
  exact bigSep_congr fun i _ => bigSep_univ_equiv (nbrE (dir i)) (Ψ i)

omit [FloatOps F] in
/-- The tokens dealt to their payers: a barrier's duty d across axis d, a receive cell's landing duty across the axis
    of its transfer; the send cells' and result copies' tokens stay. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep', bigSep_sep', bigSep_sep', bigSep_sep', bigSep_sep', bigSep_sep', bigSep_sep',
    around (fun d : Fin 3 => d) (fun d c => (dutyTok ER (cell c .bar) 0 d : sProp 𝕄)),
    around dirRS (fun i c => (dutyTok ER (cell c (rsRk i)) 0 (0 : Fin 3) : sProp 𝕄)),
    around dirAG (fun i c => (dutyTok ER (cell c (agRk i)) 0 (0 : Fin 3) : sProp 𝕄))]

omit [FloatOps F] in
theorem regroup :
    (bigSep Finset.univ fun c : Dev nD => iprop((bigSep Finset.univ fun k => iprop(∃ κ : ℕ, cellInv ER (sched V) κ (kcell (c, k))))
          ∗ (bigSep Finset.univ fun k : Fin 97 => iprop(atPos ER (kcell (c, k)) 0 ∅ 0 ∗ reached ER (kcell (c, k)) 0)) ∗ toks c) : sProp 𝕄)
      ⊢ bigSep Finset.univ (G' V) := by
  rw [bigSep_sep', bigSep_sep', ← bigSep_univ_prod (fun ck : Dev nD × Fin 97 => iprop(∃ κ : ℕ, cellInv ER (sched V) κ (kcell ck))),
    bigSep_congr (s := Finset.univ) (fun (c : Dev nD) _ => bigSep_sep' Finset.univ (fun k : Fin 97 => (atPos ER (kcell (c, k)) 0 ∅ 0 : sProp 𝕄)) (fun k => reached ER (kcell (c, k)) 0)),
    bigSep_sep', ← bigSep_univ_prod (fun ck : Dev nD × Fin 97 => (reached ER (kcell ck) 0 : sProp 𝕄))]
  iintro ⟨HI, ⟨Hat, #HR⟩, Htok⟩
  ihave HK := (BI.bigSep_exists_pi Finset.univ (fun (ck : Dev nD × Fin 97) (κ : ℕ) => (cellInv ER (sched V) κ (kcell ck) : sProp 𝕄))) $$ HI
  icases HK with ⟨%K, #HI⟩
  ihave Htk := (toks_around (F := F)) $$ Htok
  iapply (bigSep_with_persistent (R := records V K) fun c _ => ghost_intro V K c)
  isplitr
  · unfold records; isplitl; · iexact HI
    iexact HR
  · iapply (Entails.of_eq (bigSep_sep' Finset.univ (fun c : Dev nD => bigSep Finset.univ fun k : Fin 97 => (atPos ER (cell c (ckOf k)) 0 ∅ 0 : sProp 𝕄)) payToks).symm)
    isplitl [Hat]; · iexact Hat
    iexact Htk

omit [FloatOps F] in
/-- The global step: own AND unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G V c) : sProp 𝕄)
    ⊢ |={Set.univ}=> bigSep Finset.univ (G' V) :=
  ((bigSep_mono fun c _ => core_alloc V c).trans (bigSep_fupd _ _)).trans (BI.fupd_mono (regroup V))

/-! ## The launch credit -/

/-- The place 6 s + k, inside its phase, of the pair numbered 3 k + s. -/
def placeE : Fin 18 ≃ Fin 18 where
  toFun i := ⟨6 * (i.val % 3) + i.val / 3, by have := i.isLt; omega⟩
  invFun j := ⟨3 * (j.val % 6) + j.val / 6, by have := j.isLt; omega⟩
  left_inv := by decide
  right_inv := by decide

theorem ksF_div_mod (i : Fin 18) : ksF ⟨i.val / 3, by have := i.isLt; omega⟩ ⟨i.val % 3, Nat.mod_lt _ (by decide)⟩ = i :=
  Fin.ext (by have := i.isLt; show 3 * (i.val / 3) + i.val % 3 = i.val; omega)

/-- What a device owes at launch, by kind: a unit to each neighbour's barrier cell, and the amount of each of its 36
    transfers to the receive cell it fills. -/
theorem Owe_zero_eq (d : Dev nD) :
    Owe d 0 = (∑ x : Fin 3, tallyAt (cell (nbr x d) .bar) () 1)
      + ((∑ i : Fin 18, tallyAt (cell (nbr (dirRS i) d) (rsRk i)) () (amt (rsRk i)))
        + (∑ i : Fin 18, tallyAt (cell (nbr (dirAG i) d) (agRk i)) () (amt (agRk i)))) := by
  unfold Owe
  rw [← Finset.sum_Ico_consecutive _ (show 0 ≤ 3 by omega) (show 3 ≤ 39 by omega),
    ← Finset.sum_Ico_consecutive _ (show 3 ≤ 21 by omega) (show 21 ≤ 39 by omega)]
  refine congrArg₂ (· + ·) ?_ (congrArg₂ (· + ·) ?_ ?_)
  · rw [Finset.sum_Ico_eq_sum_range]
    simp only [Nat.reduceSub]
    rw [← Fin.sum_univ_eq_sum_range (fun n => tallyAt (paid d (0 + n)).1 () (paid d (0 + n)).2) 3]
    refine Finset.sum_congr rfl fun x _ => ?_
    rw [Nat.zero_add, paid_bar]
  · rw [Finset.sum_Ico_eq_sum_range]
    simp only [Nat.reduceSub]
    rw [← Fin.sum_univ_eq_sum_range (fun n => tallyAt (paid d (3 + n)).1 () (paid d (3 + n)).2) 18, ← Equiv.sum_comp placeE]
    refine Finset.sum_congr rfl fun i _ => ?_
    have h := paid_rs d ⟨i.val / 3, by have := i.isLt; omega⟩ ⟨i.val % 3, Nat.mod_lt _ (by decide)⟩
    rw [ksF_div_mod] at h
    show tallyAt (paid d (3 + (6 * (i.val % 3) + i.val / 3))).1 () (paid d (3 + (6 * (i.val % 3) + i.val / 3))).2 = _
    rw [show 3 + (6 * (i.val % 3) + i.val / 3) = 3 + 6 * (i.val % 3) + i.val / 3 by omega, h]
    rfl
  · rw [Finset.sum_Ico_eq_sum_range]
    simp only [Nat.reduceSub]
    rw [← Fin.sum_univ_eq_sum_range (fun n => tallyAt (paid d (21 + n)).1 () (paid d (21 + n)).2) 18, ← Equiv.sum_comp placeE]
    refine Finset.sum_congr rfl fun i _ => ?_
    have h := paid_ag d ⟨i.val / 3, by have := i.isLt; omega⟩ ⟨i.val % 3, Nat.mod_lt _ (by decide)⟩
    rw [ksF_div_mod] at h
    show tallyAt (paid d (21 + (6 * (i.val % 3) + i.val / 3))).1 () (paid d (21 + (6 * (i.val % 3) + i.val / 3))).2 = _
    rw [show 21 + (6 * (i.val % 3) + i.val / 3) = 21 + 6 * (i.val % 3) + i.val / 3 by omega, h]
    rfl

omit [FloatOps F] in
/-- The launch deals each device the credit of what the others owe its cells: three units on its barrier cell, each
    receive cell's amount. -/
theorem creds_intro (c : Dev nD) : (Pipeline.launchCred (fun d => Owe d 0) c : sProp 𝕄) ⊢ creds c := by
  rw [show (fun d => Owe d 0) = fun d => (∑ x : Fin 3, tallyAt (cell (nbr x d) .bar) () 1)
      + ((∑ i : Fin 18, tallyAt (cell (nbr (dirRS i) d) (rsRk i)) () (amt (rsRk i)))
        + (∑ i : Fin 18, tallyAt (cell (nbr (dirAG i) d) (agRk i)) () (amt (agRk i)))) from funext Owe_zero_eq,
    Pipeline.launchCred_add (fun d => ∑ x : Fin 3, tallyAt (cell (nbr x d) .bar) () 1),
    Pipeline.launchCred_add (fun d => ∑ i : Fin 18, tallyAt (cell (nbr (dirRS i) d) (rsRk i)) () (amt (rsRk i))),
    Pipeline.launchCred_sum Finset.univ (fun (x : Fin 3) d => tallyAt (cell (nbr x d) .bar) () 1),
    Pipeline.launchCred_sum Finset.univ (fun (i : Fin 18) d => tallyAt (cell (nbr (dirRS i) d) (rsRk i)) () (amt (rsRk i))),
    Pipeline.launchCred_sum Finset.univ (fun (i : Fin 18) d => tallyAt (cell (nbr (dirAG i) d) (agRk i)) () (amt (agRk i)))]
  unfold creds
  refine sep_mono ?_ (sep_mono ?_ ?_)
  · refine (bigSep_mono fun x _ => Pipeline.launchCred_tallyAt (CK.bar).sem (nbr x) (nbr x) (nbr_nbr x) (nbr_nbr x) () 1 c).trans ?_
    rw [← Pipeline.cred_finsetSum, Fin.sum_univ_three, tallyAt_add, tallyAt_add]
    exact (BI.Entails.refl _ : (cred (tallyAt (cell c CK.bar) () 3) : sProp 𝕄) ⊢ cred (tallyAt (cell c CK.bar) () 3))
  · exact bigSep_mono fun i _ => Pipeline.launchCred_tallyAt (rsRk i).sem (nbr (dirRS i)) (nbr (dirRS i)) (nbr_nbr _) (nbr_nbr _) () (amt (rsRk i)) c
  · exact bigSep_mono fun i _ => Pipeline.launchCred_tallyAt (agRk i).sem (nbr (dirAG i)) (nbr (dirAG i)) (nbr_nbr _) (nbr_nbr _) () (amt (agRk i)) c

/-! ## The theorem's side conditions -/

/-- What enters the region besides the scoped buffers: the body's start and the result array at its launch contents. -/
def X (c : Dev nD) : sProp 𝕄 := iprop(start V c ∗ outWhole c (m ((c : Thread nD τ).loc main_v1)))
/-- What leaves it: the result array, at contents of which the result predicate holds. -/
def Y (c : Dev nD) : sProp 𝕄 := iprop(∃ f, outWhole c f ∗ ⌜V.res c f⌝)

omit [FloatOps F] in
theorem start_intro (c : Dev nD) :
    iprop(Pipeline.unscopedRestP Pipeline.Prefetch.none cfg0.spec c (fun b => m ((c : Thread nD τ).loc b)) ∗ levAts L lv
        ∗ Pipeline.launchCred (fun d => Owe d 0) c ∗ prngReg c (ρ c) ∗ G' V c)
      ⊢ |={Set.univ}=> iprop(X m V c ∗ emp) := by
  rw [Pipeline.unscopedRestP_none, unscopedRest0_eq]
  iintro ⟨Hout, Hlev, Hcr, -, HG⟩
  ihave Hc := (creds_intro (F := F) c) $$ Hcr
  imodintro
  unfold X start G' outWhole
  isplitl
  · isplitr [Hout]
    · isplitl [HG]; · iexact HG
      isplitl [Hc]; · iexact Hc
      iexact Hlev
    · iexact Hout
  · iempintro

theorem phi0_intro (c : Dev nD) :
    iprop(X m V c ∗ Pipeline.prefHeld Pipeline.Prefetch.none c (fun _ => fullShare.right) (fun k => k.elim0) ∗ Pipeline.scopedRest cfg0.spec c)
      ⊢ (dats m ρ V 0 c).Φ 0 := by
  rw [show (dats m ρ V 0 c).Φ 0 = Φ₀ m V c from rfl, scopedRest_eq]
  unfold Φ₀ X
  iintro ⟨⟨Hs, Ho⟩, -, Hr⟩
  isplitl [Hs]; · iexact Hs
  isplitl [Ho]; · iexact Ho
  iexact Hr

theorem phi1_exit (c : Dev nD) :
    (dats m ρ V 0 c).Φ (Fin.last cfg0.N) ⊢ iprop(Y V c ∗ Pipeline.ownSems0 osem c ∗ Pipeline.scopedRest cfg0.spec c) := by
  rw [show (dats m ρ V 0 c).Φ (Fin.last cfg0.N) = Φ₁ V c from rfl, scopedRest_eq, ownSems0_eq]
  unfold Φ₁ Y
  iintro ⟨Ho, Hz, Hr⟩
  isplitl [Ho]; · iexact Ho
  isplitl [Hz]; · iexact Hz
  iexact Hr

theorem waits (c : Dev nD) : (levAts L lv : sProp 𝕄) ⊢ Pipeline.cellsWaits cfgs (dats m ρ V) () 0 c :=
  Pipeline.cellsWaits_intro cfgs (dats m ρ V) () 0 c fun w s t =>
    mayWait_stage c _ (by fin_cases w <;> fin_cases s <;> decide) _ (by
      rcases t with ⟨_ | _, ht⟩
      · exact Or.inl rfl
      · exact Or.inr rfl)

/-- The first argument's array after the run holds what it held; -/
theorem final_arg0 (c : Dev nD) : (dats m ρ V 0 c).arrAt (0 : Fin 2) cfg0.N = m ((c : Thread nD τ).loc main_arg0) :=
  (dats (F := F) m ρ V 0 c).arrAt_in (0 : Fin 2) rfl _
/-- and so does the second's. -/
theorem final_arg1 (c : Dev nD) : (dats m ρ V 0 c).arrAt (1 : Fin 2) cfg0.N = m ((c : Thread nD τ).loc main_arg1) :=
  (dats (F := F) m ρ V 0 c).arrAt_in (1 : Fin 2) rfl _

/-! ## The run -/

set_option maxRecDepth 100000 in
/-- At the compiled mesh of eight devices, for any float values, from any memory with zero counters: if every device's
    body meets its obligation, every weakly fair execution of @main terminates, and every final state has each device's
    result array at contents of which the result predicate holds and its two argument arrays unchanged. -/
theorem run_main (hbody : ∀ c, BodyObligation (dats m ρ V 0 c) (defs₀ (F := F)) 𝒱₀ () Set.univ) :
    θ_run defs (onTc (τ := τ) (main (F := F))) (s₀ m ρ) (fun r => ∀ c : Dev nD,
      V.res c (r.2.mem ((c : Thread nD τ).loc main_v1))
      ∧ r.2.mem ((c : Thread nD τ).loc main_arg0) = m ((c : Thread nD τ).loc main_arg0)
      ∧ r.2.mem ((c : Thread nD τ).loc main_arg1) = m ((c : Thread nD τ).loc main_arg1)) :=
  Pipeline.θ_run_region_owing_glob_pf (fun p => (cfgs p).toPCfg) (fun p => (cfgs p).toPCfg_adm) (dats m ρ V) () cellOf_inj (0 : Fin 1)
    winFacts0.to₀ ownSemFacts (Pipeline.PreFacts.none _) EP defs₀ 𝒱₀ m ρ main
    (hmain := fun _ => rfl)
    (hbody := hbody) (hne := fun w => by fin_cases w <;> exact Nat.succ_pos _) (harr := arr_whole0) (hstage := stage_whole0) (hshare := share_eq m ρ V)
    (hdistinct := winFacts0.arr_inj)
    (O₀ := fun d => Owe d 0) (howed₀ := fun _ => rfl) (howedN := fun _ => rfl)
    (L := L) (lv := lv) (hL := L_of_ne) (hwaits := waits m ρ V)
    (G := G V) (G' := G' V) (u₀ := u₀)
    (hu₀ := by
      unfold u₀
      iintro Hu
      ihave H := (ownU_pair _ _) $$ Hu
      icases H with ⟨HP, HX⟩
      imod (fund_all V) $$ HX with HG
      imodintro
      isplitl [HP] <;> iassumption)
    (hglob := glob V)
    (hA := fun _ _ => rfl) (hpf := fun _ k => k.elim0)
    (X := X m V) (Y := Y V) (Z := fun _ => iprop(emp))
    (hX := start_intro m ρ V) (hin := phi0_intro m ρ V) (hout := phi1_exit m ρ V)
    (QY := fun c s => V.res c (s.mem ((c : Thread nD τ).loc main_v1)))
    (hY := fun c s' => by
      unfold Y outWhole
      iintro ⟨⟨%f, Ho, %hf⟩, -, HSI⟩
      icombine HSI Ho gives %hx
      imodintro
      isplitr
      · ipureintro
        rw [Buf.eq_of_forall_mem_univ hx]; exact hf
      iexact HSI)
    (hQ := fun s h c => ⟨(h c).2.2, ((h c).1 0).trans (final_arg0 m ρ V c), ((h c).1 1).trans (final_arg1 m ρ V c)⟩)

/-- info: 'Cert.Kernel.Proto.run_main' depends on axioms: [propext, Classical.choice, Quot.sound] -/
#guard_msgs in #print axioms run_main

end Cert.Kernel.Proto

end
-- ==== Proof.PrologueBits.lean ====
/-
The prologue of a device's body: from what the region hands the body at its one point — the region's first
assertion, what the device owes, and the two staged argument blocks — to the body's starting state member by
member: the shared records read at the device's own cells and at the cells it pays; its tokens, positions and
credit; and its buffers cut the way the protocol uses them.
-/
import proofs.«900882_g7700000000000883_dist_matmul_gelu_kshard_i_m2048_n2048_k1024_v7x_i8_f32_1_alg».proof.Proof.PrologueBufsBits
import proofs.«900882_g7700000000000883_dist_matmul_gelu_kshard_i_m2048_n2048_k1024_v7x_i8_f32_1_alg».proof.Proof.LaunchBits
import proofs.«900882_g7700000000000883_dist_matmul_gelu_kshard_i_m2048_n2048_k1024_v7x_i8_f32_1_alg».proof.Proof.PiecesOutSepBits

noncomputable section

namespace Cert.Kernel.Proto

open Cert.Kernel Cert.Kernel.Gen Cert.Kernel.Topo
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (V : Vals F)

/-! ## The records at the device's cells -/

omit [FloatOps F] in
/-- The shared records, read at device c's cell number i. -/
theorem own_pair (K : Dev nD × Fin 97 → ℕ) (c : Dev nD) (i : Fin 97) :
    records V K ⊢ iprop(cellInv ER (sched V) (K (c, i)) (cell c (ckOf i)) ∗ reached ER (cell c (ckOf i)) 0) := by
  unfold records
  iintro ⟨#HI, #HR⟩
  isplitr
  · iapply (inv_at' V K (c, i)); iexact HI
  · iapply (reached_at' (F := F) (c, i)); iexact HR

omit [FloatOps F] in
/-- The shared records, read at each of device c's own 97 cells. -/
theorem ownRecs_intro (K : Dev nD × Fin 97 → ℕ) (c : Dev nD) : records V K ⊢ ownRecs V K c := by
  rw [ownRecs_eq]
  exact (BI.bigSep_of_persistent Finset.univ (records V K)).trans (bigSep_mono fun i _ => own_pair V K c i)

omit [FloatOps F] in
/-- The shared records, read at one cell of one device. -/
theorem rec_pair (K : Dev nD × Fin 97 → ℕ) (c' : Dev nD) (κ : CK) :
    records V K ⊢ iprop(cellInv ER (sched V) (K (c', ckIdx κ)) (cell c' κ) ∗ reached ER (cell c' κ) 0) := by
  iintro #H
  isplitr
  · iapply (records_inv V K c' κ); iexact H
  · iapply (records_reached V K c' κ); iexact H

omit [FloatOps F] in
/-- The shared records, read at the 39 cells device c pays. -/
theorem paidRecs_intro (K : Dev nD × Fin 97 → ℕ) (c : Dev nD) : records V K ⊢ paidRecs V K c := by
  rw [paidRecs_eq]
  iintro #H
  isplitr
  · iapply ((BI.bigSep_of_persistent Finset.univ (records V K)).trans (bigSep_mono fun d _ => rec_pair V K (nbr d c) CK.bar)); iexact H
  isplitr
  · iapply ((BI.bigSep_of_persistent Finset.univ (records V K)).trans (bigSep_mono fun i _ => rec_pair V K (nbr (dirRS i) c) (rsRk i))); iexact H
  · iapply ((BI.bigSep_of_persistent Finset.univ (records V K)).trans (bigSep_mono fun i _ => rec_pair V K (nbr (dirAG i) c) (agRk i))); iexact H

/-! ## The prologue -/

omit [FloatOps F] in
/-- Holding a whole staging buffer at contents X. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

theorem fetch_0 (t : Fin cfg0.N) : (cfg0.win (0 : Fin 2)).fetch t = true := by rw [fin_N0 t]; rfl
theorem fetch_1 (t : Fin cfg0.N) : (cfg0.win (1 : Fin 2)).fetch t = true := by rw [fin_N0 t]; rfl

/-- A staged block: the whole staging buffer at contents X. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the region hands device c's body at its one point. -/
def bodyPre' (c : Dev nD) : sProp 𝕄 :=
  iprop(Φ₀ m V c ∗ (dats m ρ V 0 c).owesAt () t0_0.castSucc
    ∗ (∃ d, stg c cc0_stg0_0 ((dats m ρ V 0 c).before (0 : Fin 2) t0_0 d))
    ∗ (∃ d, stg c cc0_stg1_0 ((dats m ρ V 0 c).before (1 : Fin 2) t0_0 d)))

/-- From what the region hands the body to the body's starting state, at some names of the cells and some waits. -/
theorem prologue (c : Dev nD) : bodyPre' m ρ V c ⊢ iprop(∃ K W, bodyStart m V K c W) := by
  unfold bodyPre' Φ₀ start ghost linear Dat.owesAt Pipeline.owesWithin
  iintro ⟨⟨⟨⟨%K, #Hrec, Hat, Htok⟩, Hcr, #Hlev⟩, Hout, Hscr⟩, ⟨%W, %hW, HO⟩, ⟨%d0, %g0, %hg0, HA⟩, ⟨%d1, %g1, %hg1, HB⟩⟩
  have hA : g0 = Astg m c := by rw [hg0]; unfold Dat.before; rw [if_pos (fetch_0 t0_0)]; rfl
  have hB : g1 = Bstg m c := by rw [hg1]; unfold Dat.before; rw [if_pos (fetch_1 t0_0)]; rfl
  subst hA; subst hB
  iexists K
  iexists W
  unfold bodyStart
  isplitr
  · isplitr; · iexact Hlev
    isplitr
    · iapply (ownRecs_intro V K c); iexact Hrec
    · iapply (paidRecs_intro V K c); iexact Hrec
  isplitl [Htok]; · rw [toksLit_eq]; iexact Htok
  isplitl [Hat]; · rw [posLit_eq]; iexact Hat
  isplitl [Hcr]; · rw [credLit_eq]; iexact Hcr
  isplitl [HO]; · iexact HO
  iapply (bufs_intro m c)
  isplitl [HA]; · rw [heldW_whole_eq]; iexact HA
  isplitl [HB]; · rw [heldW_whole_eq]; iexact HB
  isplitl [Hout]; · iexact Hout
  iexact Hscr

end Cert.Kernel.Proto

end
-- ==== Proof.EpilogueBits.lean ====
/-
The epilogue of a device's body: from the body's end state — the result array at contents of which the result
predicate holds, the device's 96 protocol semaphores at zero, its nineteen scratch buffers whole again, nothing
owed, and the two staged argument blocks untouched — to what the region expects of the body after its one point.
-/
import proofs.«900882_g7700000000000883_dist_matmul_gelu_kshard_i_m2048_n2048_k1024_v7x_i8_f32_1_alg».proof.Proof.EpilogueTabBits
import proofs.«900882_g7700000000000883_dist_matmul_gelu_kshard_i_m2048_n2048_k1024_v7x_i8_f32_1_alg».proof.Proof.EpilogueOutBits
import proofs.«900882_g7700000000000883_dist_matmul_gelu_kshard_i_m2048_n2048_k1024_v7x_i8_f32_1_alg».proof.Proof.EpilogueCloseBits
import proofs.«900882_g7700000000000883_dist_matmul_gelu_kshard_i_m2048_n2048_k1024_v7x_i8_f32_1_alg».proof.Proof.EpilogueShareBits
import proofs.«900882_g7700000000000883_dist_matmul_gelu_kshard_i_m2048_n2048_k1024_v7x_i8_f32_1_alg».proof.Proof.PrologueBits

noncomputable section

namespace Cert.Kernel.Proto

open Cert.Kernel Cert.Kernel.Gen Cert.Kernel.Topo
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (V : Vals F)

/-! ## Closing the 96 cells -/

omit [FloatOps F] in
/-- One of the 96 cells closes, its invariant read off the device's records. -/
theorem close_step (K : Dev nD × Fin 97 → ℕ) (c : Dev nD) (i : Fin 97) :
    iprop((bigSep Finset.univ fun i : Fin 97 => iprop(cellInv ER (sched V) (K (c, i)) (cell c (ckOf i)) ∗ reached ER (cell c (ckOf i)) 0))
        ∗ atPos ER (cell c (ckOf i)) 1 ∅ 0)
      ⊢ (iprop(|={Set.univ}=> semVal (cell c (ckOf i)) 0) : sProp 𝕄) := by
  have hel : (bigSep Finset.univ fun i : Fin 97 => iprop(cellInv ER (sched V) (K (c, i)) (cell c (ckOf i)) ∗ reached ER (cell c (ckOf i)) 0) : sProp 𝕄)
      ⊢ iprop(cellInv ER (sched V) (K (c, i)) (cell c (ckOf i)) ∗ reached ER (cell c (ckOf i)) 0) := bigSep_elim (Finset.mem_univ i)
  iintro ⟨#HR, Hat⟩
  ihave HI := hel $$ HR
  icases HI with ⟨#Hinv, -⟩
  iapply (close_cell V c (ckOf i) (K (c, i)))
  isplitr; · iexact Hinv
  iexact Hat

omit [FloatOps F] in
/-- The device's 96 transfer and copy cells, each past its one round, close: their semaphores are at zero. -/
theorem close_all (K : Dev nD × Fin 97 → ℕ) (c : Dev nD) :
    iprop(ownRecs V K c ∗ pos1Lit (F := F) c) ⊢ (iprop(|={Set.univ}=> zeroLit (F := F) c) : sProp 𝕄) := by
  rw [ownRecs_eq, pos1Lit_eq, zeroLit_eq]
  unfold ownZero
  exact BIBase.Entails.trans
    (bigSep_with_persistent
      (R := bigSep Finset.univ fun i : Fin 97 => iprop(cellInv ER (sched V) (K (c, i)) (cell c (ckOf i)) ∗ reached ER (cell c (ckOf i)) 0))
      (Ψ := fun i : Fin 97 => iprop(|={Set.univ}=> semVal (cell c (ckOf i)) 0)) fun i _ => close_step V K c i)
    (bigSep_fupd _ _)

omit [FloatOps F] in
/-- A piece that reads something known is a piece at some contents. -/
theorem ptsIs_any (c : Dev nD) {sp : Space} {s : Shape} {e : EltTy} (M : Memref sig .tc sp s e) (X : (s.Idx → Elt F e) → Prop) :
    (ptsIs c M X : sProp 𝕄) ⊢ ptsAny c M := by
  unfold ptsIs ptsAny
  iintro ⟨%f, H, -⟩
  iexists f
  iexact H

/-- At the end nothing is owed. -/
theorem Owe_last (c : Dev nD) : Owe c 39 = 0 := Owe_end c

/-! ## The end -/

/-- What the region expects of device c's body after its one point. -/
def bodyPost' (c : Dev nD) : sProp 𝕄 :=
  iprop(Φ₁ V c ∗ (dats m ρ V 0 c).owesAt () t0_0.succ ∗ stg c cc0_stg0_0 (Astg m c) ∗ stg c cc0_stg1_0 (Bstg m c))

omit [FloatOps F] in
/-- Where the result predicate holds of every contents, it holds of the result array's. -/
theorem out_res (hres : ∀ c f, V.res c f) (c : Dev nD) :
    (iprop(∃ f, outWhole (F := F) c f) : sProp 𝕄) ⊢ iprop(∃ f, outWhole c f ∗ ⌜V.res c f⌝) := by
  iintro ⟨%f, H⟩
  iexists f
  isplitl [H]; · iexact H
  ipureintro; exact hres c f

theorem epilogue (c : Dev nD) (W : Waits sig Unit) :
    iprop((∃ f, outWhole c f ∗ ⌜V.res c f⌝) ∗ zeroLit (F := F) c ∗ scratchAny (F := F) c ∗ owes (c : Thread nD τ) 0 W
        ∗ heldW c (Memref.whole cc0_stg0_0 : Memref sig .tc .vmem S2048x1024 .f32) (Astg m c)
        ∗ heldW c (Memref.whole cc0_stg1_0 : Memref sig .tc .vmem S1024x2048 .f32) (Bstg m c))
      ⊢ bodyPost' m ρ V c := by
  unfold bodyPost' Φ₁ Dat.owesAt Pipeline.owesWithin
  rw [zeroLit_eq, show (dats m ρ V 0 c).owed t0_0.succ = 0 from rfl]
  iintro ⟨Ho, Hz, Hs, HO, HA, HB⟩
  isplitl [Ho Hz Hs]
  · isplitl [Ho]; · iexact Ho
    isplitl [Hz]; · iexact Hz
    iexact Hs
  isplitl [HO]
  · iexists W
    isplitr; · ipureintro; exact fun _ _ => Or.inl trivial
    iexact HO
  isplitl [HA]
  · iexists (Astg m c)
    isplitr; · (ipureintro; rfl)
    iapply (Entails.of_eq (heldW_whole_eq c cc0_stg0_0 (Astg m c)))
    iexact HA
  iexists (Bstg m c)
  isplitr; · (ipureintro; rfl)
  iapply (Entails.of_eq (heldW_whole_eq c cc0_stg1_0 (Bstg m c)))
  iexact HB

end Cert.Kernel.Proto

end
-- ==== Proof.BodyEndBits.lean ====
/-
The end of a device's body: from its end state — the records of its cells, its positions past the one round of
each of its 96 transfer and copy cells, nothing owed, the staged argument blocks untouched, the result array and
the accumulator block by block, and the pieces of its scratch buffers — to what the region expects after its one
point: the cells close, the pieces join to the whole buffers, and what is known of each result block's reading is
known of the whole result array's.
-/
import proofs.«900882_g7700000000000883_dist_matmul_gelu_kshard_i_m2048_n2048_k1024_v7x_i8_f32_1_alg».proof.Proof.EpilogueEndBits
import proofs.«900882_g7700000000000883_dist_matmul_gelu_kshard_i_m2048_n2048_k1024_v7x_i8_f32_1_alg».proof.Proof.EpilogueBits

noncomputable section

namespace Cert.Kernel.Proto

open Cert.Kernel Cert.Kernel.Gen Cert.Kernel.Topo
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (V : Vals F)

omit [FloatOps F] in
instance ownRecs_persistent (K : Dev nD × Fin 97 → ℕ) (c : Dev nD) : BI.Persistent (ownRecs V K c) := by
  rw [ownRecs_eq]; infer_instance

/-- The end state of device c's body, under the cells' names K, the waits W. -/
def bodyEnd (K : Dev nD × Fin 97 → ℕ) (c : Dev nD) (W : Waits sig Unit) : sProp 𝕄 :=
  iprop(ownRecs V K c ∗ pos1Lit (F := F) c ∗ owes (c : Thread nD τ) (Owe c 39) W
    ∗ heldW c (Memref.whole cc0_stg0_0 : Memref sig .tc .vmem S2048x1024 .f32) (Astg m c)
    ∗ heldW c (Memref.whole cc0_stg1_0 : Memref sig .tc .vmem S1024x2048 .f32) (Bstg m c)
    ∗ dstLit V c ∗ accLit (F := F) c ∗ commEnd (F := F) c ∗ stgEnd (F := F) c ∗ agEnd (F := F) c)

/-- From the end state to what the region expects, where the result predicate follows from what is known of the
    24 result blocks. -/
theorem epilogue_end (hres : ∀ c g, outFacts V c g → V.res c g) (K : Dev nD × Fin 97 → ℕ) (c : Dev nD) (W : Waits sig Unit) :
    bodyEnd m V K c W ⊢ (iprop(|={Set.univ}=> bodyPost' m ρ V c) : sProp 𝕄) := by
  have hO : (owes (c : Thread nD τ) (Owe c 39) W : sProp 𝕄) = owes (c : Thread nD τ) 0 W := by rw [Owe_last]
  unfold bodyEnd
  iintro ⟨#Hrec, Hpos, HO, HA, HB, Hdst, Hacc, Hcomm, Hstg, Hag⟩
  imod (close_all V K c) $$ [Hpos] with Hz
  · isplitr; · iexact Hrec
    iexact Hpos
  imodintro
  ihave Hs := (scratch_end (F := F) c) $$ [Hacc Hcomm Hstg Hag]
  · isplitl [Hacc]; · iexact Hacc
    isplitl [Hcomm]; · iexact Hcomm
    isplitl [Hstg]; · iexact Hstg
    iexact Hag
  ihave Hd := (dst_facts V c) $$ Hdst
  icases Hd with ⟨%g, Hg, %hg⟩
  ihave HO' := (Entails.of_eq hO) $$ HO
  iapply (epilogue m ρ V c W)
  isplitl [Hg]
  · iexists g
    isplitl [Hg]; · iexact Hg
    ipureintro; exact hres c g hg
  isplitl [Hz]; · iexact Hz
  isplitl [Hs]; · iexact Hs
  isplitl [HO']; · iexact HO'
  isplitl [HA]; · iexact HA
  iexact HB

end Cert.Kernel.Proto

end
-- ==== Proof.TopoClosedBits.lean ====
import proofs.«900882_g7700000000000883_dist_matmul_gelu_kshard_i_m2048_n2048_k1024_v7x_i8_f32_1_alg».proof.Proof.TopoBitsTab

/-! Each offset function's closed form (a row built from the device's coordinates next to a literal column), as
    the instance by which a symbolic run of the body reads a rectangle's place. -/

set_option Elab.async false

namespace Cert.Kernel.Topo

open Cert.Kernel Cert.Kernel.Gen Idealize.ShloMosaic

instance closedOff_k0_off1 (c : Dev nD) : ClosedOff (k0_off1 c) := ⟨![(1 - cx c) * 1024, 0], off1_eq c⟩
instance closedOff_k0_off2 (c : Dev nD) : ClosedOff (k0_off2 c) := ⟨![(1 - cy c) * 1024, 0], off2_eq c⟩
instance closedOff_k0_off3 (c : Dev nD) : ClosedOff (k0_off3 c) := ⟨![(1 - cz c) * 1024, 0], off3_eq c⟩
instance closedOff_k0_off4 (c : Dev nD) : ClosedOff (k0_off4 c) := ⟨![cx c * 1024, 0], off4_eq c⟩
instance closedOff_k0_off5 (c : Dev nD) : ClosedOff (k0_off5 c) := ⟨![cx c * 1024, 0], off5_eq c⟩
instance closedOff_k0_off6 (c : Dev nD) : ClosedOff (k0_off6 c) := ⟨![cy c * 1024, 0], off6_eq c⟩
instance closedOff_k0_off7 (c : Dev nD) : ClosedOff (k0_off7 c) := ⟨![cy c * 1024, 384], off7_eq c⟩
instance closedOff_k0_off8 (c : Dev nD) : ClosedOff (k0_off8 c) := ⟨![cz c * 1024, 0], off8_eq c⟩
instance closedOff_k0_off9 (c : Dev nD) : ClosedOff (k0_off9 c) := ⟨![cz c * 1024, 768], off9_eq c⟩
instance closedOff_k0_off10 (c : Dev nD) : ClosedOff (k0_off10 c) := ⟨![cx c * 1024, 1152], off10_eq c⟩
instance closedOff_k0_off11 (c : Dev nD) : ClosedOff (k0_off11 c) := ⟨![cy c * 1024, 1536], off11_eq c⟩
instance closedOff_k0_off12 (c : Dev nD) : ClosedOff (k0_off12 c) := ⟨![cz c * 1024, 1792], off12_eq c⟩
instance closedOff_k0_off13 (c : Dev nD) : ClosedOff (k0_off13 c) := ⟨![cx c * 1024 + (1 - cy c) * 512, 0], off13_eq c⟩
instance closedOff_k0_off14 (c : Dev nD) : ClosedOff (k0_off14 c) := ⟨![(1 - cy c) * 512, 0], off14_eq c⟩
instance closedOff_k0_off15 (c : Dev nD) : ClosedOff (k0_off15 c) := ⟨![cx c * 1024 + cy c * 512, 0], off15_eq c⟩
instance closedOff_k0_off16 (c : Dev nD) : ClosedOff (k0_off16 c) := ⟨![cy c * 512, 0], off16_eq c⟩
instance closedOff_k0_off17 (c : Dev nD) : ClosedOff (k0_off17 c) := ⟨![cy c * 1024 + (1 - cz c) * 512, 384], off17_eq c⟩
instance closedOff_k0_off18 (c : Dev nD) : ClosedOff (k0_off18 c) := ⟨![(1 - cz c) * 512, 0], off18_eq c⟩
instance closedOff_k0_off19 (c : Dev nD) : ClosedOff (k0_off19 c) := ⟨![cy c * 1024 + cz c * 512, 384], off19_eq c⟩
instance closedOff_k0_off20 (c : Dev nD) : ClosedOff (k0_off20 c) := ⟨![cz c * 512, 0], off20_eq c⟩
instance closedOff_k0_off21 (c : Dev nD) : ClosedOff (k0_off21 c) := ⟨![cz c * 1024 + (1 - cx c) * 512, 768], off21_eq c⟩
instance closedOff_k0_off22 (c : Dev nD) : ClosedOff (k0_off22 c) := ⟨![(1 - cx c) * 512, 0], off22_eq c⟩
instance closedOff_k0_off23 (c : Dev nD) : ClosedOff (k0_off23 c) := ⟨![cz c * 1024 + cx c * 512, 768], off23_eq c⟩
instance closedOff_k0_off24 (c : Dev nD) : ClosedOff (k0_off24 c) := ⟨![cx c * 512, 0], off24_eq c⟩
instance closedOff_k0_off25 (c : Dev nD) : ClosedOff (k0_off25 c) := ⟨![cx c * 1024 + (1 - cy c) * 512, 1152], off25_eq c⟩
instance closedOff_k0_off26 (c : Dev nD) : ClosedOff (k0_off26 c) := ⟨![cx c * 1024 + cy c * 512, 1152], off26_eq c⟩
instance closedOff_k0_off27 (c : Dev nD) : ClosedOff (k0_off27 c) := ⟨![cy c * 1024 + (1 - cz c) * 512, 1536], off27_eq c⟩
instance closedOff_k0_off28 (c : Dev nD) : ClosedOff (k0_off28 c) := ⟨![(1 - cz c) * 512, 0], off28_eq c⟩
instance closedOff_k0_off29 (c : Dev nD) : ClosedOff (k0_off29 c) := ⟨![cy c * 1024 + cz c * 512, 1536], off29_eq c⟩
instance closedOff_k0_off30 (c : Dev nD) : ClosedOff (k0_off30 c) := ⟨![cz c * 512, 0], off30_eq c⟩
instance closedOff_k0_off31 (c : Dev nD) : ClosedOff (k0_off31 c) := ⟨![cz c * 1024 + (1 - cx c) * 512, 1792], off31_eq c⟩
instance closedOff_k0_off32 (c : Dev nD) : ClosedOff (k0_off32 c) := ⟨![(1 - cx c) * 512, 0], off32_eq c⟩
instance closedOff_k0_off33 (c : Dev nD) : ClosedOff (k0_off33 c) := ⟨![cz c * 1024 + cx c * 512, 1792], off33_eq c⟩
instance closedOff_k0_off34 (c : Dev nD) : ClosedOff (k0_off34 c) := ⟨![cx c * 512, 0], off34_eq c⟩
instance closedOff_k0_off35 (c : Dev nD) : ClosedOff (k0_off35 c) := ⟨![cx c * 1024 + cy c * 512 + (1 - cz c) * 256, 0], off35_eq c⟩
instance closedOff_k0_off36 (c : Dev nD) : ClosedOff (k0_off36 c) := ⟨![1024 + (1 - cz c) * 256, 0], off36_eq c⟩
instance closedOff_k0_off37 (c : Dev nD) : ClosedOff (k0_off37 c) := ⟨![cx c * 1024 + cy c * 512 + cz c * 256, 0], off37_eq c⟩
instance closedOff_k0_off38 (c : Dev nD) : ClosedOff (k0_off38 c) := ⟨![1024 + cz c * 256, 0], off38_eq c⟩
instance closedOff_k0_off39 (c : Dev nD) : ClosedOff (k0_off39 c) := ⟨![cy c * 1024 + cz c * 512 + (1 - cx c) * 256, 384], off39_eq c⟩
instance closedOff_k0_off40 (c : Dev nD) : ClosedOff (k0_off40 c) := ⟨![1024 + (1 - cx c) * 256, 0], off40_eq c⟩
instance closedOff_k0_off41 (c : Dev nD) : ClosedOff (k0_off41 c) := ⟨![cy c * 1024 + cz c * 512 + cx c * 256, 384], off41_eq c⟩
instance closedOff_k0_off42 (c : Dev nD) : ClosedOff (k0_off42 c) := ⟨![1024 + cx c * 256, 0], off42_eq c⟩
instance closedOff_k0_off43 (c : Dev nD) : ClosedOff (k0_off43 c) := ⟨![cz c * 1024 + cx c * 512 + (1 - cy c) * 256, 768], off43_eq c⟩
instance closedOff_k0_off44 (c : Dev nD) : ClosedOff (k0_off44 c) := ⟨![1024 + (1 - cy c) * 256, 0], off44_eq c⟩
instance closedOff_k0_off45 (c : Dev nD) : ClosedOff (k0_off45 c) := ⟨![cz c * 1024 + cx c * 512 + cy c * 256, 768], off45_eq c⟩
instance closedOff_k0_off46 (c : Dev nD) : ClosedOff (k0_off46 c) := ⟨![1024 + cy c * 256, 0], off46_eq c⟩
instance closedOff_k0_off47 (c : Dev nD) : ClosedOff (k0_off47 c) := ⟨![cx c * 1024 + cy c * 512 + (1 - cz c) * 256, 1152], off47_eq c⟩
instance closedOff_k0_off48 (c : Dev nD) : ClosedOff (k0_off48 c) := ⟨![cx c * 1024 + cy c * 512 + cz c * 256, 1152], off48_eq c⟩
instance closedOff_k0_off49 (c : Dev nD) : ClosedOff (k0_off49 c) := ⟨![cy c * 1024 + cz c * 512 + (1 - cx c) * 256, 1536], off49_eq c⟩
instance closedOff_k0_off50 (c : Dev nD) : ClosedOff (k0_off50 c) := ⟨![1024 + (1 - cx c) * 256, 0], off50_eq c⟩
instance closedOff_k0_off51 (c : Dev nD) : ClosedOff (k0_off51 c) := ⟨![cy c * 1024 + cz c * 512 + cx c * 256, 1536], off51_eq c⟩
instance closedOff_k0_off52 (c : Dev nD) : ClosedOff (k0_off52 c) := ⟨![1024 + cx c * 256, 0], off52_eq c⟩
instance closedOff_k0_off53 (c : Dev nD) : ClosedOff (k0_off53 c) := ⟨![cz c * 1024 + cx c * 512 + (1 - cy c) * 256, 1792], off53_eq c⟩
instance closedOff_k0_off54 (c : Dev nD) : ClosedOff (k0_off54 c) := ⟨![1024 + (1 - cy c) * 256, 0], off54_eq c⟩
instance closedOff_k0_off55 (c : Dev nD) : ClosedOff (k0_off55 c) := ⟨![cz c * 1024 + cx c * 512 + cy c * 256, 1792], off55_eq c⟩
instance closedOff_k0_off56 (c : Dev nD) : ClosedOff (k0_off56 c) := ⟨![1024 + cy c * 256, 0], off56_eq c⟩
instance closedOff_k0_off57 (c : Dev nD) : ClosedOff (k0_off57 c) := ⟨![1536, 0], off57_eq c⟩
instance closedOff_k0_off58 (c : Dev nD) : ClosedOff (k0_off58 c) := ⟨![cx c * 1024 + cy c * 512 + cz c * 256, 0], off58_eq c⟩
instance closedOff_k0_off59 (c : Dev nD) : ClosedOff (k0_off59 c) := ⟨![cx c * 1024 + cy c * 512 + cz c * 256, 0], off59_eq c⟩
instance closedOff_k0_off60 (c : Dev nD) : ClosedOff (k0_off60 c) := ⟨![1536, 0], off60_eq c⟩
instance closedOff_k0_off61 (c : Dev nD) : ClosedOff (k0_off61 c) := ⟨![cy c * 1024 + cz c * 512 + cx c * 256, 0], off61_eq c⟩
instance closedOff_k0_off62 (c : Dev nD) : ClosedOff (k0_off62 c) := ⟨![cy c * 1024 + cz c * 512 + cx c * 256, 384], off62_eq c⟩
instance closedOff_k0_off63 (c : Dev nD) : ClosedOff (k0_off63 c) := ⟨![1536, 0], off63_eq c⟩
instance closedOff_k0_off64 (c : Dev nD) : ClosedOff (k0_off64 c) := ⟨![cz c * 1024 + cx c * 512 + cy c * 256, 0], off64_eq c⟩
instance closedOff_k0_off65 (c : Dev nD) : ClosedOff (k0_off65 c) := ⟨![cz c * 1024 + cx c * 512 + cy c * 256, 768], off65_eq c⟩
instance closedOff_k0_off66 (c : Dev nD) : ClosedOff (k0_off66 c) := ⟨![cx c * 1024 + cy c * 512 + cz c * 256, 1152], off66_eq c⟩
instance closedOff_k0_off67 (c : Dev nD) : ClosedOff (k0_off67 c) := ⟨![1536, 0], off67_eq c⟩
instance closedOff_k0_off68 (c : Dev nD) : ClosedOff (k0_off68 c) := ⟨![cy c * 1024 + cz c * 512 + cx c * 256, 0], off68_eq c⟩
instance closedOff_k0_off69 (c : Dev nD) : ClosedOff (k0_off69 c) := ⟨![cy c * 1024 + cz c * 512 + cx c * 256, 1536], off69_eq c⟩
instance closedOff_k0_off70 (c : Dev nD) : ClosedOff (k0_off70 c) := ⟨![1536, 0], off70_eq c⟩
instance closedOff_k0_off71 (c : Dev nD) : ClosedOff (k0_off71 c) := ⟨![cz c * 1024 + cx c * 512 + cy c * 256, 0], off71_eq c⟩
instance closedOff_k0_off72 (c : Dev nD) : ClosedOff (k0_off72 c) := ⟨![cz c * 1024 + cx c * 512 + cy c * 256, 1792], off72_eq c⟩
instance closedOff_k0_off73 (c : Dev nD) : ClosedOff (k0_off73 c) := ⟨![cx c * 1024 + cy c * 512 + cz c * 256, 0], off73_eq c⟩
instance closedOff_k0_off74 (c : Dev nD) : ClosedOff (k0_off74 c) := ⟨![cy c * 1024 + cz c * 512 + cx c * 256, 0], off74_eq c⟩
instance closedOff_k0_off75 (c : Dev nD) : ClosedOff (k0_off75 c) := ⟨![cz c * 1024 + cx c * 512 + cy c * 256, 0], off75_eq c⟩
instance closedOff_k0_off76 (c : Dev nD) : ClosedOff (k0_off76 c) := ⟨![cy c * 1024 + cz c * 512 + cx c * 256, 0], off76_eq c⟩
instance closedOff_k0_off77 (c : Dev nD) : ClosedOff (k0_off77 c) := ⟨![cz c * 1024 + cx c * 512 + cy c * 256, 0], off77_eq c⟩
instance closedOff_k0_off78 (c : Dev nD) : ClosedOff (k0_off78 c) := ⟨![cx c * 1024 + cy c * 512, 0], off78_eq c⟩
instance closedOff_k0_off79 (c : Dev nD) : ClosedOff (k0_off79 c) := ⟨![cx c * 1024 + cy c * 512 + (1 - cz c) * 256, 0], off79_eq c⟩
instance closedOff_k0_off80 (c : Dev nD) : ClosedOff (k0_off80 c) := ⟨![cx c * 1024 + cy c * 512 + (1 - cz c) * 256, 0], off80_eq c⟩
instance closedOff_k0_off81 (c : Dev nD) : ClosedOff (k0_off81 c) := ⟨![cx c * 1024 + cy c * 512 + (1 - cz c) * 256, 0], off81_eq c⟩
instance closedOff_k0_off82 (c : Dev nD) : ClosedOff (k0_off82 c) := ⟨![cy c * 1024 + cz c * 512, 0], off82_eq c⟩
instance closedOff_k0_off83 (c : Dev nD) : ClosedOff (k0_off83 c) := ⟨![cy c * 1024 + cz c * 512 + (1 - cx c) * 256, 0], off83_eq c⟩
instance closedOff_k0_off84 (c : Dev nD) : ClosedOff (k0_off84 c) := ⟨![cy c * 1024 + cz c * 512 + (1 - cx c) * 256, 384], off84_eq c⟩
instance closedOff_k0_off85 (c : Dev nD) : ClosedOff (k0_off85 c) := ⟨![cy c * 1024 + cz c * 512 + (1 - cx c) * 256, 384], off85_eq c⟩
instance closedOff_k0_off86 (c : Dev nD) : ClosedOff (k0_off86 c) := ⟨![cz c * 1024 + cx c * 512, 0], off86_eq c⟩
instance closedOff_k0_off87 (c : Dev nD) : ClosedOff (k0_off87 c) := ⟨![cz c * 1024 + cx c * 512 + (1 - cy c) * 256, 0], off87_eq c⟩
instance closedOff_k0_off88 (c : Dev nD) : ClosedOff (k0_off88 c) := ⟨![cz c * 1024 + cx c * 512 + (1 - cy c) * 256, 768], off88_eq c⟩
instance closedOff_k0_off89 (c : Dev nD) : ClosedOff (k0_off89 c) := ⟨![cz c * 1024 + cx c * 512 + (1 - cy c) * 256, 768], off89_eq c⟩
instance closedOff_k0_off90 (c : Dev nD) : ClosedOff (k0_off90 c) := ⟨![cx c * 1024 + cy c * 512 + (1 - cz c) * 256, 1152], off90_eq c⟩
instance closedOff_k0_off91 (c : Dev nD) : ClosedOff (k0_off91 c) := ⟨![cx c * 1024 + cy c * 512 + (1 - cz c) * 256, 1152], off91_eq c⟩
instance closedOff_k0_off92 (c : Dev nD) : ClosedOff (k0_off92 c) := ⟨![cy c * 1024 + cz c * 512, 0], off92_eq c⟩
instance closedOff_k0_off93 (c : Dev nD) : ClosedOff (k0_off93 c) := ⟨![cy c * 1024 + cz c * 512 + (1 - cx c) * 256, 0], off93_eq c⟩
instance closedOff_k0_off94 (c : Dev nD) : ClosedOff (k0_off94 c) := ⟨![cy c * 1024 + cz c * 512 + (1 - cx c) * 256, 1536], off94_eq c⟩
instance closedOff_k0_off95 (c : Dev nD) : ClosedOff (k0_off95 c) := ⟨![cy c * 1024 + cz c * 512 + (1 - cx c) * 256, 1536], off95_eq c⟩
instance closedOff_k0_off96 (c : Dev nD) : ClosedOff (k0_off96 c) := ⟨![cz c * 1024 + cx c * 512, 0], off96_eq c⟩
instance closedOff_k0_off97 (c : Dev nD) : ClosedOff (k0_off97 c) := ⟨![cz c * 1024 + cx c * 512 + (1 - cy c) * 256, 0], off97_eq c⟩
instance closedOff_k0_off98 (c : Dev nD) : ClosedOff (k0_off98 c) := ⟨![cz c * 1024 + cx c * 512 + (1 - cy c) * 256, 1792], off98_eq c⟩
instance closedOff_k0_off99 (c : Dev nD) : ClosedOff (k0_off99 c) := ⟨![cz c * 1024 + cx c * 512 + (1 - cy c) * 256, 1792], off99_eq c⟩
instance closedOff_k0_off100 (c : Dev nD) : ClosedOff (k0_off100 c) := ⟨![cx c * 1024, 0], off100_eq c⟩
instance closedOff_k0_off101 (c : Dev nD) : ClosedOff (k0_off101 c) := ⟨![cx c * 1024 + (1 - cy c) * 512, 0], off101_eq c⟩
instance closedOff_k0_off102 (c : Dev nD) : ClosedOff (k0_off102 c) := ⟨![cx c * 1024 + (1 - cy c) * 512, 0], off102_eq c⟩
instance closedOff_k0_off103 (c : Dev nD) : ClosedOff (k0_off103 c) := ⟨![cx c * 1024 + (1 - cy c) * 512, 0], off103_eq c⟩
instance closedOff_k0_off104 (c : Dev nD) : ClosedOff (k0_off104 c) := ⟨![cy c * 1024, 0], off104_eq c⟩
instance closedOff_k0_off105 (c : Dev nD) : ClosedOff (k0_off105 c) := ⟨![cy c * 1024 + (1 - cz c) * 512, 0], off105_eq c⟩
instance closedOff_k0_off106 (c : Dev nD) : ClosedOff (k0_off106 c) := ⟨![cy c * 1024 + (1 - cz c) * 512, 384], off106_eq c⟩
instance closedOff_k0_off107 (c : Dev nD) : ClosedOff (k0_off107 c) := ⟨![cy c * 1024 + (1 - cz c) * 512, 384], off107_eq c⟩
instance closedOff_k0_off108 (c : Dev nD) : ClosedOff (k0_off108 c) := ⟨![cz c * 1024, 0], off108_eq c⟩
instance closedOff_k0_off109 (c : Dev nD) : ClosedOff (k0_off109 c) := ⟨![cz c * 1024 + (1 - cx c) * 512, 0], off109_eq c⟩
instance closedOff_k0_off110 (c : Dev nD) : ClosedOff (k0_off110 c) := ⟨![cz c * 1024 + (1 - cx c) * 512, 768], off110_eq c⟩
instance closedOff_k0_off111 (c : Dev nD) : ClosedOff (k0_off111 c) := ⟨![cz c * 1024 + (1 - cx c) * 512, 768], off111_eq c⟩
instance closedOff_k0_off112 (c : Dev nD) : ClosedOff (k0_off112 c) := ⟨![cx c * 1024 + (1 - cy c) * 512, 1152], off112_eq c⟩
instance closedOff_k0_off113 (c : Dev nD) : ClosedOff (k0_off113 c) := ⟨![cx c * 1024 + (1 - cy c) * 512, 1152], off113_eq c⟩
instance closedOff_k0_off114 (c : Dev nD) : ClosedOff (k0_off114 c) := ⟨![cy c * 1024, 0], off114_eq c⟩
instance closedOff_k0_off115 (c : Dev nD) : ClosedOff (k0_off115 c) := ⟨![cy c * 1024 + (1 - cz c) * 512, 0], off115_eq c⟩
instance closedOff_k0_off116 (c : Dev nD) : ClosedOff (k0_off116 c) := ⟨![cy c * 1024 + (1 - cz c) * 512, 1536], off116_eq c⟩
instance closedOff_k0_off117 (c : Dev nD) : ClosedOff (k0_off117 c) := ⟨![cy c * 1024 + (1 - cz c) * 512, 1536], off117_eq c⟩
instance closedOff_k0_off118 (c : Dev nD) : ClosedOff (k0_off118 c) := ⟨![cz c * 1024, 0], off118_eq c⟩
instance closedOff_k0_off119 (c : Dev nD) : ClosedOff (k0_off119 c) := ⟨![cz c * 1024 + (1 - cx c) * 512, 0], off119_eq c⟩
instance closedOff_k0_off120 (c : Dev nD) : ClosedOff (k0_off120 c) := ⟨![cz c * 1024 + (1 - cx c) * 512, 1792], off120_eq c⟩
instance closedOff_k0_off121 (c : Dev nD) : ClosedOff (k0_off121 c) := ⟨![cz c * 1024 + (1 - cx c) * 512, 1792], off121_eq c⟩
instance closedOff_k0_off122 (c : Dev nD) : ClosedOff (k0_off122 c) := ⟨![(1 - cx c) * 1024, 0], off122_eq c⟩
instance closedOff_k0_off123 (c : Dev nD) : ClosedOff (k0_off123 c) := ⟨![(1 - cx c) * 1024, 0], off123_eq c⟩
instance closedOff_k0_off124 (c : Dev nD) : ClosedOff (k0_off124 c) := ⟨![(1 - cx c) * 1024, 0], off124_eq c⟩
instance closedOff_k0_off125 (c : Dev nD) : ClosedOff (k0_off125 c) := ⟨![(1 - cy c) * 1024, 0], off125_eq c⟩
instance closedOff_k0_off126 (c : Dev nD) : ClosedOff (k0_off126 c) := ⟨![(1 - cy c) * 1024, 384], off126_eq c⟩
instance closedOff_k0_off127 (c : Dev nD) : ClosedOff (k0_off127 c) := ⟨![(1 - cy c) * 1024, 384], off127_eq c⟩
instance closedOff_k0_off128 (c : Dev nD) : ClosedOff (k0_off128 c) := ⟨![(1 - cz c) * 1024, 0], off128_eq c⟩
instance closedOff_k0_off129 (c : Dev nD) : ClosedOff (k0_off129 c) := ⟨![(1 - cz c) * 1024, 768], off129_eq c⟩
instance closedOff_k0_off130 (c : Dev nD) : ClosedOff (k0_off130 c) := ⟨![(1 - cz c) * 1024, 768], off130_eq c⟩
instance closedOff_k0_off131 (c : Dev nD) : ClosedOff (k0_off131 c) := ⟨![(1 - cx c) * 1024, 1152], off131_eq c⟩
instance closedOff_k0_off132 (c : Dev nD) : ClosedOff (k0_off132 c) := ⟨![(1 - cx c) * 1024, 1152], off132_eq c⟩
instance closedOff_k0_off133 (c : Dev nD) : ClosedOff (k0_off133 c) := ⟨![(1 - cy c) * 1024, 0], off133_eq c⟩
instance closedOff_k0_off134 (c : Dev nD) : ClosedOff (k0_off134 c) := ⟨![(1 - cy c) * 1024, 1536], off134_eq c⟩
instance closedOff_k0_off135 (c : Dev nD) : ClosedOff (k0_off135 c) := ⟨![(1 - cy c) * 1024, 1536], off135_eq c⟩
instance closedOff_k0_off136 (c : Dev nD) : ClosedOff (k0_off136 c) := ⟨![(1 - cz c) * 1024, 0], off136_eq c⟩
instance closedOff_k0_off137 (c : Dev nD) : ClosedOff (k0_off137 c) := ⟨![(1 - cz c) * 1024, 1792], off137_eq c⟩
instance closedOff_k0_off138 (c : Dev nD) : ClosedOff (k0_off138 c) := ⟨![(1 - cz c) * 1024, 1792], off138_eq c⟩

end Cert.Kernel.Topo
-- ==== Proof.Body01Bits.lean ====
/-
The first two stretches of a device's kernel body. The first: the entry handshake — one unit to each of the three
cube neighbours' barrier cells, each carrying the pieces of this device's landing and all-gather buffers that
neighbour will write, then the wait for the three units, which bring the neighbours' pieces — and the loads of the
half of A and the columns of B that group 0's first partial product needs. The second: that product, rounded, stored
into group 0's staging buffer and sent to the neighbour across axis 0, whose landing rows it fills; and group 1's
product stored into its staging buffer.
-/
import proofs.«900882_g7700000000000883_dist_matmul_gelu_kshard_i_m2048_n2048_k1024_v7x_i8_f32_1_alg».proof.Proof.RulesBits
import proofs.«900882_g7700000000000883_dist_matmul_gelu_kshard_i_m2048_n2048_k1024_v7x_i8_f32_1_alg».proof.Proof.TopoBitsTab
import proofs.«900882_g7700000000000883_dist_matmul_gelu_kshard_i_m2048_n2048_k1024_v7x_i8_f32_1_alg».proof.Proof.PiecesTabBits
import proofs.«900882_g7700000000000883_dist_matmul_gelu_kshard_i_m2048_n2048_k1024_v7x_i8_f32_1_alg».proof.Proof.Gen.Kernel.Skeleton
import Idealize.ShloMosaic.Lib.Pipeline.Value

set_option maxRecDepth 16384

noncomputable section

namespace Cert.Kernel.Proto

open Cert.Kernel Cert.Kernel.Gen Cert.Kernel.Topo
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : Vals F)

theorem dev1_eq' (c : Dev nD) : (⟨k0_dev1 c, k0_dev1_lt c⟩ : Dev nD) = nbr 0 c := dev1_eq c
theorem dev2_eq' (c : Dev nD) : (⟨k0_dev2 c, k0_dev2_lt c⟩ : Dev nD) = nbr 1 c := dev2_eq c
theorem dev3_eq' (c : Dev nD) : (⟨k0_dev3 c, k0_dev3_lt c⟩ : Dev nD) = nbr 2 c := dev3_eq c

set_option maxHeartbeats 1000000 in
theorem part1_run (c : Dev nD) (κ0 κ1 κ2 κb : ℕ) (W : Waits sig Unit)
    (fa : Buf (Elt F) ((Memref.whole cc0_stg0_0 : Memref sig .tc .vmem S2048x1024 .f32).view.loc (c : Thread nD τ))) (fb : Buf (Elt F) ((Memref.whole cc0_stg1_0 : Memref sig .tc .vmem S1024x2048 .f32).view.loc (c : Thread nD τ)))
    :
    iprop(cellInv ER (sched V) κ0 (cell (nbr 0 c) .bar) ∗ cellInv ER (sched V) κ1 (cell (nbr 1 c) .bar) ∗ cellInv ER (sched V) κ2 (cell (nbr 2 c) .bar)
        ∗ cellInv ER (sched V) κb (cell c .bar)
        ∗ reached ER (cell (nbr 0 c) .bar) 0 ∗ reached ER (cell (nbr 1 c) .bar) 0 ∗ reached ER (cell (nbr 2 c) .bar) 0
        ∗ dutyTok ER (cell (nbr 0 c) .bar) 0 (0 : Fin 3) ∗ dutyTok ER (cell (nbr 1 c) .bar) 0 (1 : Fin 3) ∗ dutyTok ER (cell (nbr 2 c) .bar) 0 (2 : Fin 3)
        ∗ barPay (F := F) (nbr 0 c) 0 ∗ barPay (F := F) (nbr 1 c) 1 ∗ barPay (F := F) (nbr 2 c) 2
        ∗ owes (c : Thread nD τ) (Owe c 0) W ∗ cred (tallyAt (cell c .bar) () 3) ∗ atPos ER (cell c .bar) 0 ∅ 0 ∗ levAts L lv
        ∗ heldW c (Memref.whole cc0_stg0_0 : Memref sig .tc .vmem S2048x1024 .f32) fa ∗ heldW c (Memref.whole cc0_stg1_0 : Memref sig .tc .vmem S1024x2048 .f32) fb)
      ⊢ wp frame (wpE (defs₀ (F := F)) 𝒱₀ c none) Set.univ
          (k0_part1 (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23)
          (fun r => iprop(⌜r = ⟨c, Scalar.remsi (Scalar.divsi c.word 1#32) 8#32,
                Scalar.xori (Scalar.andi (Scalar.remsi (Scalar.divsi c.word 1#32) 8#32) 1#32) (Scalar.andi (Scalar.shrsi (Scalar.remsi (Scalar.divsi c.word 1#32) 8#32) 1#32) 1#32),
                Scalar.andi (Scalar.shrsi (Scalar.remsi (Scalar.divsi c.word 1#32) 8#32) 1#32) 1#32,
                Scalar.shrsi (Scalar.remsi (Scalar.divsi c.word 1#32) 8#32) 2#32,
                k0_pay1 (View.readAt (Elt F) (Memref.whole cc0_stg0_0 : Memref sig .tc .vmem S2048x1024 .f32).view (Rect.unit (s := S2048x1024) (k0_off1 c) S1024x1024.size (k0_off1_inb c)).toLoadRect fa),
                k0_pay2 (View.readAt (Elt F) (Memref.whole cc0_stg1_0 : Memref sig .tc .vmem S1024x2048 .f32).view (Rect.unit (s := S1024x2048) ![0, 0] S1024x384.size inb_S1024x2048_S1024x384_0_0).toLoadRect fb)⟩⌝
            ∗ barPay (F := F) c 0 ∗ barPay (F := F) c 1 ∗ barPay (F := F) c 2
            ∗ owes (c : Thread nD τ) (Owe c 3) (insert (SemLoc.reg barS, ()) W) ∗ atPos ER (cell c .bar) 1 ∅ 0
            ∗ heldW c (Memref.whole cc0_stg0_0 : Memref sig .tc .vmem S2048x1024 .f32) fa ∗ heldW c (Memref.whole cc0_stg1_0 : Memref sig .tc .vmem S1024x2048 .f32) fb)) := by
  simp only [k0_part1_eq_skeleton]; unfold k0_part1_skel
  simp only [semSignalWord, semWaitWord, Prog.lift, Prog.bind_op, Prog.bind_ret, Prog.pure_eq_ret, wp_deviceId]
  iintro ⟨#HI0, #HI1, #HI2, #HIb, #Hr0, #Hr1, #Hr2, Ht0, Ht1, Ht2, Hp0, Hp1, Hp2, HO, Hcb, Hat, #Hlev, Ha, Hb⟩
  simp only [dev1_eq' c, dev2_eq' c, dev3_eq' c]
  have hO0 : Owe c 0 = Owe c 1 + tallyAt ((nbr 0 c : Thread nD τ), SemLoc.reg barS) () 1 := by
    rw [Owe_succ c 0 (by decide), show paid c 0 = _ from paid_bar c 0]; rfl
  have hO1 : Owe c 1 = Owe c 2 + tallyAt ((nbr 1 c : Thread nD τ), SemLoc.reg barS) () 1 := by
    rw [Owe_succ c 1 (by decide), show paid c 1 = _ from paid_bar c 1]; rfl
  have hO2 : Owe c 2 = Owe c 3 + tallyAt ((nbr 2 c : Thread nD τ), SemLoc.reg barS) () 1 := by
    rw [Owe_succ c 2 (by decide), show paid c 2 = _ from paid_bar c 2]; rfl
  iapply (Rounds.wp_signal 𝒱₀ ER (sched V) (c : Thread nD τ) none (dst := (nbr 0 c : Thread nD τ)) (κ := κ0)
      (d := (0 : Fin 3)) (by rw [duties_bar]; exact Finset.mem_univ _) (amount_bar V (nbr 0 c) 0) () (Owe c 1)
      hO0) $$ [HO Ht0 Hp0]
  · isplitr; · iexact HI0
    isplitl [HO]; · iexact HO
    isplitl [Ht0]; · iexact Ht0
    isplitl [Hp0]; · rw [payload_bar]; iexact Hp0
    iexact Hr0
  iintro HO
  iapply (Rounds.wp_signal 𝒱₀ ER (sched V) (c : Thread nD τ) none (dst := (nbr 1 c : Thread nD τ)) (κ := κ1)
      (d := (1 : Fin 3)) (by rw [duties_bar]; exact Finset.mem_univ _) (amount_bar V (nbr 1 c) 1) () (Owe c 2)
      hO1) $$ [HO Ht1 Hp1]
  · isplitr; · iexact HI1
    isplitl [HO]; · iexact HO
    isplitl [Ht1]; · iexact Ht1
    isplitl [Hp1]; · rw [payload_bar]; iexact Hp1
    iexact Hr1
  iintro HO
  iapply (Rounds.wp_signal 𝒱₀ ER (sched V) (c : Thread nD τ) none (dst := (nbr 2 c : Thread nD τ)) (κ := κ2)
      (d := (2 : Fin 3)) (by rw [duties_bar]; exact Finset.mem_univ _) (amount_bar V (nbr 2 c) 2) () (Owe c 3)
      hO2) $$ [HO Ht2 Hp2]
  · isplitr; · iexact HI2
    isplitl [HO]; · iexact HO
    isplitl [Ht2]; · iexact Ht2
    isplitl [Hp2]; · rw [payload_bar]; iexact Hp2
    iexact Hr2
  iintro HO
  -- the wait for the three units: the neighbours' pieces come with them
  iapply (Rounds.wp_wait_rest_token 𝒱₀ ER (sched V) (c : Thread nD τ) none (κ := κb)
      (wpE_semWait_eq 𝒱₀ (c : Thread nD τ) none Set.univ) (Set.mem_univ _) () (O := Owe c 3) (W := W) (R := 0) (m := 0) (T := ∅)
      (by show 0 + 3 = (sched V).expect ((c : Thread nD τ), SemLoc.reg barS) 0; rw [expect_bar'])) $$ [Hcb HO Hat]
  · isplitr; · iexact HIb
    isplitl [Hcb]; · iexact Hcb
    isplitl [HO]; · iexact HO
    isplitr; · iapply (mayWait_bar c); iexact Hlev
    iexact Hat
  iintro ⟨HO, Hat, #HrB, Hpay⟩
  ihave Hp := (Entails.of_eq (rest_bar V c)) $$ Hpay
  icases Hp with ⟨Hq0, Hq1, Hq2⟩
  unfold heldW
  sl_exec
  sl_step
  isplitr; · ipureintro; rfl
  isplitl [Hq0]; · iexact Hq0
  isplitl [Hq1]; · iexact Hq1
  isplitl [Hq2]; · iexact Hq2
  isplitl [HO]; · iexact HO
  isplitl [Hat]; · iexact Hat
  isplitl [Ha]; · iexact Ha
  iexact Hb

theorem dev4_eq' (c : Dev nD) : (⟨k0_dev4 c, k0_dev4_lt c⟩ : Dev nD) = nbr 0 c := dev4_eq c

set_option maxHeartbeats 2000000 in
theorem part2_run (c : Dev nD) (κs κr : ℕ) (W : Waits sig Unit) (v2 v6 v8 : BitVec 32) (v25 : FVec F S1024x1024 .bf16) (v27 : FVec F S1024x384 .f32)
    (fa : Buf (Elt F) ((Memref.whole cc0_stg0_0 : Memref sig .tc .vmem S2048x1024 .f32).view.loc (c : Thread nD τ)))
    (fb : Buf (Elt F) ((Memref.whole cc0_stg1_0 : Memref sig .tc .vmem S1024x2048 .f32).view.loc (c : Thread nD τ)))
    (f10 : Buf (Elt F) ((Memref.whole cc0_scratch7 : Memref sig .tc .vmem S1024x384 .bf16).view.loc (c : Thread nD τ)))
    (f11 : Buf (Elt F) ((Memref.whole cc0_scratch8 : Memref sig .tc .vmem S1024x384 .bf16).view.loc (c : Thread nD τ)))
    (hV : V.rs0_0 c ((stgM0_0 : Memref sig .tc .vmem S1024x384 .bf16).view.read (Elt F)
        ((Memref.whole cc0_scratch7 : Memref sig .tc .vmem S1024x384 .bf16).view.writes (Elt F) f10 [⟨Rect.unit (s := S1024x384) ![0, 0] S1024x384.size inb_S1024x384_S1024x384_0_0, k0_pay3 v25 v27⟩])))
    :
    iprop(cellInv ER (sched V) κs (cell c (.rsS 0 0)) ∗ cellInv ER (sched V) κr (cell (nbr 0 c) (.rsR 0 0))
        ∗ reached ER (cell c (.rsS 0 0)) 0 ∗ reached ER (cell (nbr 0 c) (.rsR 0 0)) 0
        ∗ dutyTok ER (cell c (.rsS 0 0)) 0 (0 : Fin 3) ∗ dutyTok ER (cell (nbr 0 c) (.rsR 0 0)) 0 (0 : Fin 3)
        ∗ ptsAny (F := F) (nbr 0 c) commM0_0
        ∗ owes (c : Thread nD τ) (Owe c 3) W
        ∗ heldW c (Memref.whole cc0_stg0_0 : Memref sig .tc .vmem S2048x1024 .f32) fa ∗ heldW c (Memref.whole cc0_stg1_0 : Memref sig .tc .vmem S1024x2048 .f32) fb
        ∗ heldW c (Memref.whole cc0_scratch7 : Memref sig .tc .vmem S1024x384 .bf16) f10 ∗ heldW c (Memref.whole cc0_scratch8 : Memref sig .tc .vmem S1024x384 .bf16) f11)
      ⊢ wp frame (wpE (defs₀ (F := F)) 𝒱₀ c none) Set.univ
          (k0_part2 (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23 c v2 v6 v8 v25 v27)
          (fun r => iprop(⌜r = ⟨Scalar.xori v2 1#32, Scalar.muli v6 1024#32, Scalar.xori v2 3#32⟩⌝
            ∗ cred (tallyAt (cell c (.rsS 0 0)) () (amt (.rsR 0 0))) ∗ owes (c : Thread nD τ) (Owe c 4) W
            ∗ heldW c (Memref.whole cc0_stg0_0 : Memref sig .tc .vmem S2048x1024 .f32) fa ∗ heldW c (Memref.whole cc0_stg1_0 : Memref sig .tc .vmem S1024x2048 .f32) fb
            ∗ heldW c (Memref.whole cc0_scratch8 : Memref sig .tc .vmem S1024x384 .bf16)
                ((Memref.whole cc0_scratch8 : Memref sig .tc .vmem S1024x384 .bf16).view.writes (Elt F) f11
                  [⟨Rect.unit (s := S1024x384) ![0, 0] S1024x384.size inb_S1024x384_S1024x384_0_0,
                    k0_pay4 (View.readAt (Elt F) (Memref.whole cc0_stg0_0 : Memref sig .tc .vmem S2048x1024 .f32).view (Rect.unit (s := S2048x1024) (k0_off2 c) S1024x1024.size (k0_off2_inb c)).toLoadRect fa)
                      (View.readAt (Elt F) (Memref.whole cc0_stg1_0 : Memref sig .tc .vmem S1024x2048 .f32).view (Rect.unit (s := S1024x2048) ![0, 384] S1024x384.size inb_S1024x2048_S1024x384_0_384).toLoadRect fb)⟩]))) := by
  simp only [k0_part2_eq_skeleton]; unfold k0_part2_skel
  simp only [Prog.lift, Prog.bind_op, Prog.bind_ret, Prog.pure_eq_ret]
  iintro ⟨#HIs, #HIr, #Hrs, #Hrr, Hts, Htr, Hdst, HO, Ha, Hb, H10, H11⟩
  unfold heldW
  sl_exec
  unfold ptsAny
  icases Hdst with ⟨%fd, Hdst⟩
  -- the staging buffer, held whole, is the piece the transfer reads
  ihave H10s := (Entails.of_eq (pts_set_eq (F := F) (ℓ := (Memref.whole cc0_scratch7 : Memref sig .tc .vmem S1024x384 .bf16).view.loc (c : Thread nD τ))
      (S' := (stgM0_0 : Memref sig .tc .vmem S1024x384 .bf16).view.set) ((show (Memref.whole cc0_scratch7 : Memref sig .tc .vmem S1024x384 .bf16).view.set = Finset.univ from View.set_whole _).trans stg_univ_0.symm))) $$ H10
  iapply (wp_send_to V c ⟨k0_dev4 c, k0_dev4_lt c⟩ 0 (dev4_eq c) (.rsS 0 0) (.rsR 0 0) (by decide) (by decide) 3 (by decide) (paid_rs c 0 0) rfl
      (src := stgM0_0) (dst := commM0_0) (rsS_sem_eq 0 0 _) (rsR_sem_eq 0 0 _) rfl fd κs κr W
      (ptsAny_intro c stgM0_0 _)
      (ptsIs_intro (nbr 0 c) commM0_0 _ _ (by rw [View.read_write_univ, nbr_nbr]; exact hV))) $$ [H10s Hdst HO Hts Htr]
  · isplitr; · iexact HIs
    isplitr; · iexact HIr
    isplitl [H10s]; · iexact H10s
    isplitl [Hdst]; · iexact Hdst
    isplitl [HO]; · iexact HO
    isplitl [Hts]; · iexact Hts
    isplitr; · iexact Hrs
    isplitl [Htr]; · iexact Htr
    iexact Hrr
  iintro ⟨Hcs, HO⟩
  sl_exec
  sl_step
  isplitr; · ipureintro; rfl
  isplitl [Hcs]; · iexact Hcs
  isplitl [HO]; · iexact HO
  isplitl [Ha]; · iexact Ha
  isplitl [Hb]; · iexact Hb
  iexact H11

end Cert.Kernel.Proto

end
-- ==== Proof.Body03Bits.lean ====
/-
The third stretch of a device's kernel body: group 1's rounded partial product, stored into its staging buffer by
the stretch before, is sent to the neighbour across axis 1, whose landing rows it fills; then group 2's product of
the half of A that leaves across axis 2 with its columns of B is stored into group 2's staging buffer.
-/
import proofs.«900882_g7700000000000883_dist_matmul_gelu_kshard_i_m2048_n2048_k1024_v7x_i8_f32_1_alg».proof.Proof.RulesBits
import proofs.«900882_g7700000000000883_dist_matmul_gelu_kshard_i_m2048_n2048_k1024_v7x_i8_f32_1_alg».proof.Proof.TopoBitsTab
import proofs.«900882_g7700000000000883_dist_matmul_gelu_kshard_i_m2048_n2048_k1024_v7x_i8_f32_1_alg».proof.Proof.PiecesTabBits
import proofs.«900882_g7700000000000883_dist_matmul_gelu_kshard_i_m2048_n2048_k1024_v7x_i8_f32_1_alg».proof.Proof.Gen.Kernel.Skeleton
import Idealize.ShloMosaic.Lib.Pipeline.Value

set_option maxRecDepth 16384

noncomputable section

namespace Cert.Kernel.Proto

open Cert.Kernel Cert.Kernel.Gen Cert.Kernel.Topo
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : Vals F)

set_option maxHeartbeats 2000000 in
theorem part3_run (c : Dev nD) (κs κr : ℕ) (W : Waits sig Unit) (v2 v8 v9 v58 : BitVec 32)
    (fa : Buf (Elt F) ((Memref.whole cc0_stg0_0 : Memref sig .tc .vmem S2048x1024 .f32).view.loc (c : Thread nD τ)))
    (fb : Buf (Elt F) ((Memref.whole cc0_stg1_0 : Memref sig .tc .vmem S1024x2048 .f32).view.loc (c : Thread nD τ)))
    (f11 : Buf (Elt F) ((Memref.whole cc0_scratch8 : Memref sig .tc .vmem S1024x384 .bf16).view.loc (c : Thread nD τ)))
    (f12 : Buf (Elt F) ((Memref.whole cc0_scratch9 : Memref sig .tc .vmem S1024x384 .bf16).view.loc (c : Thread nD τ)))
    (hV : V.rs1_0 c ((stgM1_0 : Memref sig .tc .vmem S1024x384 .bf16).view.read (Elt F) f11)) :
    iprop(cellInv ER (sched V) κs (cell c (.rsS 1 0))
        ∗ cellInv ER (sched V) κr (cell (nbr 1 c) (.rsR 1 0))
        ∗ reached ER (cell c (.rsS 1 0)) 0
        ∗ reached ER (cell (nbr 1 c) (.rsR 1 0)) 0
        ∗ dutyTok ER (cell c (.rsS 1 0)) 0 (0 : Fin 3)
        ∗ dutyTok ER (cell (nbr 1 c) (.rsR 1 0)) 0 (0 : Fin 3)
        ∗ ptsAny (F := F) (nbr 1 c) commM1_0
        ∗ owes (c : Thread nD τ) (Owe c 4) W
        ∗ heldW c (Memref.whole cc0_stg0_0 : Memref sig .tc .vmem S2048x1024 .f32) fa
        ∗ heldW c (Memref.whole cc0_stg1_0 : Memref sig .tc .vmem S1024x2048 .f32) fb
        ∗ heldW c (Memref.whole cc0_scratch8 : Memref sig .tc .vmem S1024x384 .bf16) f11
        ∗ heldW c (Memref.whole cc0_scratch9 : Memref sig .tc .vmem S1024x384 .bf16) f12)
      ⊢ wp frame (wpE (defs₀ (F := F)) 𝒱₀ c none) Set.univ
          (k0_part3 (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23 c v2 v8 v9 v58)
          (fun r => iprop(⌜r = ⟨Scalar.muli v8 1024#32, Scalar.xori v2 4#32⟩⌝
            ∗ cred (tallyAt (cell c (.rsS 1 0)) () (amt (.rsR 1 0)))
            ∗ owes (c : Thread nD τ) (Owe c 5) W
            ∗ heldW c (Memref.whole cc0_stg0_0 : Memref sig .tc .vmem S2048x1024 .f32) fa
            ∗ heldW c (Memref.whole cc0_stg1_0 : Memref sig .tc .vmem S1024x2048 .f32) fb
            ∗ heldW c (Memref.whole cc0_scratch9 : Memref sig .tc .vmem S1024x384 .bf16) ((Memref.whole cc0_scratch9 : Memref sig .tc .vmem S1024x384 .bf16).view.writes (Elt F) f12 [⟨Rect.unit (s := S1024x384) ![0, 0] S1024x384.size inb_S1024x384_S1024x384_0_0, k0_pay5 (View.readAt (Elt F) (Memref.whole cc0_stg0_0 : Memref sig .tc .vmem S2048x1024 .f32).view (Rect.unit (s := S2048x1024) (k0_off3 c) S1024x1024.size (k0_off3_inb c)).toLoadRect fa) (View.readAt (Elt F) (Memref.whole cc0_stg1_0 : Memref sig .tc .vmem S1024x2048 .f32).view (Rect.unit (s := S1024x2048) ![0, 768] S1024x384.size inb_S1024x2048_S1024x384_0_768).toLoadRect fb)⟩]))) := by
  simp only [k0_part3_eq_skeleton]; unfold k0_part3_skel
  simp only [Prog.lift, Prog.bind_op, Prog.bind_ret, Prog.pure_eq_ret]
  iintro ⟨#HIs, #HIr, #Hrs, #Hrr, Hts, Htr, Hdst, HO, Ha, Hb, H11, H12⟩
  unfold heldW
  unfold ptsAny
  icases Hdst with ⟨%fd, Hdst⟩
  ihave H11s := (Entails.of_eq (pts_set_eq (F := F) (ℓ := (Memref.whole cc0_scratch8 : Memref sig .tc .vmem S1024x384 .bf16).view.loc (c : Thread nD τ))
      (S' := (stgM1_0 : Memref sig .tc .vmem S1024x384 .bf16).view.set) ((show (Memref.whole cc0_scratch8 : Memref sig .tc .vmem S1024x384 .bf16).view.set = Finset.univ from View.set_whole _).trans stg_univ_1.symm))) $$ H11
  iapply (wp_send_to V c ⟨k0_dev5 c, k0_dev5_lt c⟩ 1 (dev5_eq c) (.rsS 1 0) (.rsR 1 0) (by decide) (by decide) 4 (by decide) (paid_rs c 1 0) rfl
      (src := stgM1_0) (dst := commM1_0) (rsS_sem_eq 1 0 _) (rsR_sem_eq 1 0 _) rfl fd κs κr W
      (ptsAny_intro c stgM1_0 _)
      (ptsIs_intro (nbr 1 c) commM1_0 _ _ (by rw [View.read_write_univ, nbr_nbr]; exact hV))) $$ [H11s Hdst HO Hts Htr]
  · isplitr; · iexact HIs
    isplitr; · iexact HIr
    isplitl [H11s]; · iexact H11s
    isplitl [Hdst]; · iexact Hdst
    isplitl [HO]; · iexact HO
    isplitl [Hts]; · iexact Hts
    isplitr; · iexact Hrs
    isplitl [Htr]; · iexact Htr
    iexact Hrr
  iintro ⟨Hcs, HO⟩
  sl_exec
  sl_step
  isplitr; · ipureintro; rfl
  isplitl [Hcs]; · iexact Hcs
  isplitl [HO]; · iexact HO
  isplitl [Ha]; · iexact Ha
  isplitl [Hb]; · iexact Hb
  iexact H12

end Cert.Kernel.Proto

end
-- ==== Proof.Body04Bits.lean ====
/-
The fourth stretch of a device's kernel body: group 2's rounded partial product goes to the neighbour across axis 2;
group 3's product of the half of A that leaves across axis 0 with its columns of B is rounded, stored into group 3's
staging buffer and sent to the neighbour across axis 0; and the half of A that leaves across axis 1 is loaded and
rounded for group 4.
-/
import proofs.«900882_g7700000000000883_dist_matmul_gelu_kshard_i_m2048_n2048_k1024_v7x_i8_f32_1_alg».proof.Proof.RulesBits
import proofs.«900882_g7700000000000883_dist_matmul_gelu_kshard_i_m2048_n2048_k1024_v7x_i8_f32_1_alg».proof.Proof.TopoBitsTab
import proofs.«900882_g7700000000000883_dist_matmul_gelu_kshard_i_m2048_n2048_k1024_v7x_i8_f32_1_alg».proof.Proof.PiecesTabBits
import proofs.«900882_g7700000000000883_dist_matmul_gelu_kshard_i_m2048_n2048_k1024_v7x_i8_f32_1_alg».proof.Proof.Gen.Kernel.Skeleton
import Idealize.ShloMosaic.Lib.Pipeline.Value

set_option maxRecDepth 16384

noncomputable section

namespace Cert.Kernel.Proto

open Cert.Kernel Cert.Kernel.Gen Cert.Kernel.Topo
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : Vals F)

set_option maxHeartbeats 2000000 in
theorem part4_run (c : Dev nD) (κs2 κr2 κs3 κr3 : ℕ) (W : Waits sig Unit) (v2 v6 v8 v9 : BitVec 32)
    (fa : Buf (Elt F) ((Memref.whole cc0_stg0_0 : Memref sig .tc .vmem S2048x1024 .f32).view.loc (c : Thread nD τ)))
    (fb : Buf (Elt F) ((Memref.whole cc0_stg1_0 : Memref sig .tc .vmem S1024x2048 .f32).view.loc (c : Thread nD τ)))
    (f12 : Buf (Elt F) ((Memref.whole cc0_scratch9 : Memref sig .tc .vmem S1024x384 .bf16).view.loc (c : Thread nD τ)))
    (f13 : Buf (Elt F) ((Memref.whole cc0_scratch10 : Memref sig .tc .vmem S1024x384 .bf16).view.loc (c : Thread nD τ)))
    (hV2 : V.rs2_0 c ((stgM2_0 : Memref sig .tc .vmem S1024x384 .bf16).view.read (Elt F) f12))
    (hV3 : V.rs3_0 c ((stgM3_0 : Memref sig .tc .vmem S1024x384 .bf16).view.read (Elt F)
        ((Memref.whole cc0_scratch10 : Memref sig .tc .vmem S1024x384 .bf16).view.writes (Elt F) f13 [⟨Rect.unit (s := S1024x384) ![0, 0] S1024x384.size inb_S1024x384_S1024x384_0_0, k0_pay6 (View.readAt (Elt F) (Memref.whole cc0_stg0_0 : Memref sig .tc .vmem S2048x1024 .f32).view (Rect.unit (s := S2048x1024) (k0_off1 c) S1024x1024.size (k0_off1_inb c)).toLoadRect fa) (View.readAt (Elt F) (Memref.whole cc0_stg1_0 : Memref sig .tc .vmem S1024x2048 .f32).view (Rect.unit (s := S1024x2048) ![0, 1152] S1024x384.size inb_S1024x2048_S1024x384_0_1152).toLoadRect fb)⟩]))) :
    iprop(cellInv ER (sched V) κs2 (cell c (.rsS 2 0))
        ∗ cellInv ER (sched V) κr2 (cell (nbr 2 c) (.rsR 2 0))
        ∗ reached ER (cell c (.rsS 2 0)) 0
        ∗ reached ER (cell (nbr 2 c) (.rsR 2 0)) 0
        ∗ cellInv ER (sched V) κs3 (cell c (.rsS 3 0))
        ∗ cellInv ER (sched V) κr3 (cell (nbr 0 c) (.rsR 3 0))
        ∗ reached ER (cell c (.rsS 3 0)) 0
        ∗ reached ER (cell (nbr 0 c) (.rsR 3 0)) 0
        ∗ dutyTok ER (cell c (.rsS 2 0)) 0 (0 : Fin 3)
        ∗ dutyTok ER (cell (nbr 2 c) (.rsR 2 0)) 0 (0 : Fin 3)
        ∗ ptsAny (F := F) (nbr 2 c) commM2_0
        ∗ dutyTok ER (cell c (.rsS 3 0)) 0 (0 : Fin 3)
        ∗ dutyTok ER (cell (nbr 0 c) (.rsR 3 0)) 0 (0 : Fin 3)
        ∗ ptsAny (F := F) (nbr 0 c) commM3_0
        ∗ owes (c : Thread nD τ) (Owe c 5) W
        ∗ heldW c (Memref.whole cc0_stg0_0 : Memref sig .tc .vmem S2048x1024 .f32) fa
        ∗ heldW c (Memref.whole cc0_stg1_0 : Memref sig .tc .vmem S1024x2048 .f32) fb
        ∗ heldW c (Memref.whole cc0_scratch9 : Memref sig .tc .vmem S1024x384 .bf16) f12
        ∗ heldW c (Memref.whole cc0_scratch10 : Memref sig .tc .vmem S1024x384 .bf16) f13)
      ⊢ wp frame (wpE (defs₀ (F := F)) 𝒱₀ c none) Set.univ
          (k0_part4 (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23 c v2 v6 v8 v9)
          (fun r => iprop(⌜r = ⟨Scalar.muli v9 1024#32, Scalar.xori v2 1#32, Scalar.muli v6 1024#32, k0_pay7 (View.readAt (Elt F) (Memref.whole cc0_stg0_0 : Memref sig .tc .vmem S2048x1024 .f32).view (Rect.unit (s := S2048x1024) (k0_off2 c) S1024x1024.size (k0_off2_inb c)).toLoadRect fa)⟩⌝
            ∗ cred (tallyAt (cell c (.rsS 2 0)) () (amt (.rsR 2 0)))
            ∗ cred (tallyAt (cell c (.rsS 3 0)) () (amt (.rsR 3 0)))
            ∗ owes (c : Thread nD τ) (Owe c 7) W
            ∗ heldW c (Memref.whole cc0_stg0_0 : Memref sig .tc .vmem S2048x1024 .f32) fa
            ∗ heldW c (Memref.whole cc0_stg1_0 : Memref sig .tc .vmem S1024x2048 .f32) fb)) := by
  simp only [k0_part4_eq_skeleton]; unfold k0_part4_skel
  simp only [Prog.lift, Prog.bind_op, Prog.bind_ret, Prog.pure_eq_ret]
  iintro ⟨#HIs2, #HIr2, #Hrs2, #Hrr2, #HIs3, #HIr3, #Hrs3, #Hrr3, Hts2, Htr2, Hdst2, Hts3, Htr3, Hdst3, HO, Ha, Hb, H12, H13⟩
  unfold heldW
  unfold ptsAny
  icases Hdst2 with ⟨%fd2, Hdst2⟩
  icases Hdst3 with ⟨%fd3, Hdst3⟩
  ihave H12s := (Entails.of_eq (pts_set_eq (F := F) (ℓ := (Memref.whole cc0_scratch9 : Memref sig .tc .vmem S1024x384 .bf16).view.loc (c : Thread nD τ))
      (S' := (stgM2_0 : Memref sig .tc .vmem S1024x384 .bf16).view.set) ((show (Memref.whole cc0_scratch9 : Memref sig .tc .vmem S1024x384 .bf16).view.set = Finset.univ from View.set_whole _).trans stg_univ_2.symm))) $$ H12
  iapply (wp_send_to V c ⟨k0_dev6 c, k0_dev6_lt c⟩ 2 (dev6_eq c) (.rsS 2 0) (.rsR 2 0) (by decide) (by decide) 5 (by decide) (paid_rs c 2 0) rfl
      (src := stgM2_0) (dst := commM2_0) (rsS_sem_eq 2 0 _) (rsR_sem_eq 2 0 _) rfl fd2 κs2 κr2 W
      (ptsAny_intro c stgM2_0 _)
      (ptsIs_intro (nbr 2 c) commM2_0 _ _ (by rw [View.read_write_univ, nbr_nbr]; exact hV2))) $$ [H12s Hdst2 HO Hts2 Htr2]
  · isplitr; · iexact HIs2
    isplitr; · iexact HIr2
    isplitl [H12s]; · iexact H12s
    isplitl [Hdst2]; · iexact Hdst2
    isplitl [HO]; · iexact HO
    isplitl [Hts2]; · iexact Hts2
    isplitr; · iexact Hrs2
    isplitl [Htr2]; · iexact Htr2
    iexact Hrr2
  iintro ⟨Hcs2, HO⟩
  sl_exec
  ihave H13s := (Entails.of_eq (pts_set_eq (F := F) (ℓ := (Memref.whole cc0_scratch10 : Memref sig .tc .vmem S1024x384 .bf16).view.loc (c : Thread nD τ))
      (S' := (stgM3_0 : Memref sig .tc .vmem S1024x384 .bf16).view.set) ((show (Memref.whole cc0_scratch10 : Memref sig .tc .vmem S1024x384 .bf16).view.set = Finset.univ from View.set_whole _).trans stg_univ_3.symm))) $$ H13
  iapply (wp_send_to V c ⟨k0_dev7 c, k0_dev7_lt c⟩ 0 (dev7_eq c) (.rsS 3 0) (.rsR 3 0) (by decide) (by decide) 6 (by decide) (paid_rs c 3 0) rfl
      (src := stgM3_0) (dst := commM3_0) (rsS_sem_eq 3 0 _) (rsR_sem_eq 3 0 _) rfl fd3 κs3 κr3 W
      (ptsAny_intro c stgM3_0 _)
      (ptsIs_intro (nbr 0 c) commM3_0 _ _ (by rw [View.read_write_univ, nbr_nbr]; exact hV3))) $$ [H13s Hdst3 HO Hts3 Htr3]
  · isplitr; · iexact HIs3
    isplitr; · iexact HIr3
    isplitl [H13s]; · iexact H13s
    isplitl [Hdst3]; · iexact Hdst3
    isplitl [HO]; · iexact HO
    isplitl [Hts3]; · iexact Hts3
    isplitr; · iexact Hrs3
    isplitl [Htr3]; · iexact Htr3
    iexact Hrr3
  iintro ⟨Hcs3, HO⟩
  sl_exec
  sl_step
  isplitr; · ipureintro; rfl
  isplitl [Hcs2]; · iexact Hcs2
  isplitl [Hcs3]; · iexact Hcs3
  isplitl [HO]; · iexact HO
  isplitl [Ha]; · iexact Ha
  iexact Hb

end Cert.Kernel.Proto

end
-- ==== Proof.Body05Bits.lean ====
/-
The fifth stretch of a device's kernel body: group 4's product of the half of A that leaves across axis 1 with its
columns of B is rounded, stored into group 4's staging buffer and sent to the neighbour across axis 1; then group 5's
product of the half of A that leaves across axis 2 is stored into group 5's staging buffer.
-/
import proofs.«900882_g7700000000000883_dist_matmul_gelu_kshard_i_m2048_n2048_k1024_v7x_i8_f32_1_alg».proof.Proof.RulesBits
import proofs.«900882_g7700000000000883_dist_matmul_gelu_kshard_i_m2048_n2048_k1024_v7x_i8_f32_1_alg».proof.Proof.TopoBitsTab
import proofs.«900882_g7700000000000883_dist_matmul_gelu_kshard_i_m2048_n2048_k1024_v7x_i8_f32_1_alg».proof.Proof.PiecesTabBits
import proofs.«900882_g7700000000000883_dist_matmul_gelu_kshard_i_m2048_n2048_k1024_v7x_i8_f32_1_alg».proof.Proof.Gen.Kernel.Skeleton
import Idealize.ShloMosaic.Lib.Pipeline.Value

set_option maxRecDepth 16384

noncomputable section

namespace Cert.Kernel.Proto

open Cert.Kernel Cert.Kernel.Gen Cert.Kernel.Topo
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : Vals F)

set_option maxHeartbeats 2000000 in
theorem part5_run (c : Dev nD) (κs κr : ℕ) (W : Waits sig Unit) (v2 v8 v9 : BitVec 32) (v121 : FVec F S1024x1024 .bf16)
    (fa : Buf (Elt F) ((Memref.whole cc0_stg0_0 : Memref sig .tc .vmem S2048x1024 .f32).view.loc (c : Thread nD τ)))
    (fb : Buf (Elt F) ((Memref.whole cc0_stg1_0 : Memref sig .tc .vmem S1024x2048 .f32).view.loc (c : Thread nD τ)))
    (f14 : Buf (Elt F) ((Memref.whole cc0_scratch11 : Memref sig .tc .vmem S1024x256 .bf16).view.loc (c : Thread nD τ)))
    (f15 : Buf (Elt F) ((Memref.whole cc0_scratch12 : Memref sig .tc .vmem S1024x256 .bf16).view.loc (c : Thread nD τ)))
    (hV : V.rs4_0 c ((stgM4_0 : Memref sig .tc .vmem S1024x256 .bf16).view.read (Elt F)
        ((Memref.whole cc0_scratch11 : Memref sig .tc .vmem S1024x256 .bf16).view.writes (Elt F) f14 [⟨Rect.unit (s := S1024x256) ![0, 0] S1024x256.size inb_S1024x256_S1024x256_0_0, k0_pay8 v121 (View.readAt (Elt F) (Memref.whole cc0_stg1_0 : Memref sig .tc .vmem S1024x2048 .f32).view (Rect.unit (s := S1024x2048) ![0, 1536] S1024x256.size inb_S1024x2048_S1024x256_0_1536).toLoadRect fb)⟩]))) :
    iprop(cellInv ER (sched V) κs (cell c (.rsS 4 0))
        ∗ cellInv ER (sched V) κr (cell (nbr 1 c) (.rsR 4 0))
        ∗ reached ER (cell c (.rsS 4 0)) 0
        ∗ reached ER (cell (nbr 1 c) (.rsR 4 0)) 0
        ∗ dutyTok ER (cell c (.rsS 4 0)) 0 (0 : Fin 3)
        ∗ dutyTok ER (cell (nbr 1 c) (.rsR 4 0)) 0 (0 : Fin 3)
        ∗ ptsAny (F := F) (nbr 1 c) commM4_0
        ∗ owes (c : Thread nD τ) (Owe c 7) W
        ∗ heldW c (Memref.whole cc0_stg0_0 : Memref sig .tc .vmem S2048x1024 .f32) fa
        ∗ heldW c (Memref.whole cc0_stg1_0 : Memref sig .tc .vmem S1024x2048 .f32) fb
        ∗ heldW c (Memref.whole cc0_scratch11 : Memref sig .tc .vmem S1024x256 .bf16) f14
        ∗ heldW c (Memref.whole cc0_scratch12 : Memref sig .tc .vmem S1024x256 .bf16) f15)
      ⊢ wp frame (wpE (defs₀ (F := F)) 𝒱₀ c none) Set.univ
          (k0_part5 (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23 c v2 v8 v9 v121)
          (fun r => iprop(⌜r = ⟨Scalar.xori v2 3#32, Scalar.muli v8 1024#32⟩⌝
            ∗ cred (tallyAt (cell c (.rsS 4 0)) () (amt (.rsR 4 0)))
            ∗ owes (c : Thread nD τ) (Owe c 8) W
            ∗ heldW c (Memref.whole cc0_stg0_0 : Memref sig .tc .vmem S2048x1024 .f32) fa
            ∗ heldW c (Memref.whole cc0_stg1_0 : Memref sig .tc .vmem S1024x2048 .f32) fb
            ∗ heldW c (Memref.whole cc0_scratch12 : Memref sig .tc .vmem S1024x256 .bf16) ((Memref.whole cc0_scratch12 : Memref sig .tc .vmem S1024x256 .bf16).view.writes (Elt F) f15 [⟨Rect.unit (s := S1024x256) ![0, 0] S1024x256.size inb_S1024x256_S1024x256_0_0, k0_pay9 (View.readAt (Elt F) (Memref.whole cc0_stg0_0 : Memref sig .tc .vmem S2048x1024 .f32).view (Rect.unit (s := S2048x1024) (k0_off3 c) S1024x1024.size (k0_off3_inb c)).toLoadRect fa) (View.readAt (Elt F) (Memref.whole cc0_stg1_0 : Memref sig .tc .vmem S1024x2048 .f32).view (Rect.unit (s := S1024x2048) ![0, 1792] S1024x256.size inb_S1024x2048_S1024x256_0_1792).toLoadRect fb)⟩]))) := by
  simp only [k0_part5_eq_skeleton]; unfold k0_part5_skel
  simp only [Prog.lift, Prog.bind_op, Prog.bind_ret, Prog.pure_eq_ret]
  iintro ⟨#HIs, #HIr, #Hrs, #Hrr, Hts, Htr, Hdst, HO, Ha, Hb, H14, H15⟩
  unfold heldW
  unfold ptsAny
  icases Hdst with ⟨%fd, Hdst⟩
  sl_exec
  ihave H14s := (Entails.of_eq (pts_set_eq (F := F) (ℓ := (Memref.whole cc0_scratch11 : Memref sig .tc .vmem S1024x256 .bf16).view.loc (c : Thread nD τ))
      (S' := (stgM4_0 : Memref sig .tc .vmem S1024x256 .bf16).view.set) ((show (Memref.whole cc0_scratch11 : Memref sig .tc .vmem S1024x256 .bf16).view.set = Finset.univ from View.set_whole _).trans stg_univ_4.symm))) $$ H14
  iapply (wp_send_to V c ⟨k0_dev8 c, k0_dev8_lt c⟩ 1 (dev8_eq c) (.rsS 4 0) (.rsR 4 0) (by decide) (by decide) 7 (by decide) (paid_rs c 4 0) rfl
      (src := stgM4_0) (dst := commM4_0) (rsS_sem_eq 4 0 _) (rsR_sem_eq 4 0 _) rfl fd κs κr W
      (ptsAny_intro c stgM4_0 _)
      (ptsIs_intro (nbr 1 c) commM4_0 _ _ (by rw [View.read_write_univ, nbr_nbr]; exact hV))) $$ [H14s Hdst HO Hts Htr]
  · isplitr; · iexact HIs
    isplitr; · iexact HIr
    isplitl [H14s]; · iexact H14s
    isplitl [Hdst]; · iexact Hdst
    isplitl [HO]; · iexact HO
    isplitl [Hts]; · iexact Hts
    isplitr; · iexact Hrs
    isplitl [Htr]; · iexact Htr
    iexact Hrr
  iintro ⟨Hcs, HO⟩
  sl_exec
  sl_step
  isplitr; · ipureintro; rfl
  isplitl [Hcs]; · iexact Hcs
  isplitl [HO]; · iexact HO
  isplitl [Ha]; · iexact Ha
  isplitl [Hb]; · iexact Hb
  iexact H15

end Cert.Kernel.Proto

end
-- ==== Proof.Body06Bits.lean ====
/-
The sixth stretch of a device's kernel body: group 5's rounded partial product goes to the neighbour across axis 2;
then the rows of the accumulator that stay on this device get, for groups 0 and 1, the product of the kept half of A
with the group's columns of B.
-/
import proofs.«900882_g7700000000000883_dist_matmul_gelu_kshard_i_m2048_n2048_k1024_v7x_i8_f32_1_alg».proof.Proof.RulesBits
import proofs.«900882_g7700000000000883_dist_matmul_gelu_kshard_i_m2048_n2048_k1024_v7x_i8_f32_1_alg».proof.Proof.TopoBitsTab
import proofs.«900882_g7700000000000883_dist_matmul_gelu_kshard_i_m2048_n2048_k1024_v7x_i8_f32_1_alg».proof.Proof.PiecesTabBits
import proofs.«900882_g7700000000000883_dist_matmul_gelu_kshard_i_m2048_n2048_k1024_v7x_i8_f32_1_alg».proof.Proof.Gen.Kernel.Skeleton
import Idealize.ShloMosaic.Lib.Pipeline.Value

set_option maxRecDepth 16384

noncomputable section

namespace Cert.Kernel.Proto

open Cert.Kernel Cert.Kernel.Gen Cert.Kernel.Topo
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : Vals F)

set_option maxHeartbeats 2000000 in
theorem part6_run (c : Dev nD) (κs κr : ℕ) (W : Waits sig Unit) (v2 v9 v43 v67 v91 : BitVec 32)
    (fa : Buf (Elt F) ((Memref.whole cc0_stg0_0 : Memref sig .tc .vmem S2048x1024 .f32).view.loc (c : Thread nD τ)))
    (fb : Buf (Elt F) ((Memref.whole cc0_stg1_0 : Memref sig .tc .vmem S1024x2048 .f32).view.loc (c : Thread nD τ)))
    (f15 : Buf (Elt F) ((Memref.whole cc0_scratch12 : Memref sig .tc .vmem S1024x256 .bf16).view.loc (c : Thread nD τ)))
    (f3 : Buf (Elt F) ((Memref.whole cc0_scratch0 : Memref sig .tc .vmem S2048x2048 .f32).view.loc (c : Thread nD τ)))
    (hV : V.rs5_0 c ((stgM5_0 : Memref sig .tc .vmem S1024x256 .bf16).view.read (Elt F) f15)) :
    iprop(cellInv ER (sched V) κs (cell c (.rsS 5 0))
        ∗ cellInv ER (sched V) κr (cell (nbr 2 c) (.rsR 5 0))
        ∗ reached ER (cell c (.rsS 5 0)) 0
        ∗ reached ER (cell (nbr 2 c) (.rsR 5 0)) 0
        ∗ dutyTok ER (cell c (.rsS 5 0)) 0 (0 : Fin 3)
        ∗ dutyTok ER (cell (nbr 2 c) (.rsR 5 0)) 0 (0 : Fin 3)
        ∗ ptsAny (F := F) (nbr 2 c) commM5_0
        ∗ owes (c : Thread nD τ) (Owe c 8) W
        ∗ heldW c (Memref.whole cc0_stg0_0 : Memref sig .tc .vmem S2048x1024 .f32) fa
        ∗ heldW c (Memref.whole cc0_stg1_0 : Memref sig .tc .vmem S1024x2048 .f32) fb
        ∗ heldW c (Memref.whole cc0_scratch12 : Memref sig .tc .vmem S1024x256 .bf16) f15
        ∗ heldW c (Memref.whole cc0_scratch0 : Memref sig .tc .vmem S2048x2048 .f32) f3)
      ⊢ wp frame (wpE (defs₀ (F := F)) 𝒱₀ c none) Set.univ
          (k0_part6 (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23 c v2 v9 v43 v67 v91)
          (fun r => iprop(⌜r = ⟨Scalar.xori v2 4#32, Scalar.muli v9 1024#32⟩⌝
            ∗ cred (tallyAt (cell c (.rsS 5 0)) () (amt (.rsR 5 0)))
            ∗ owes (c : Thread nD τ) (Owe c 9) W
            ∗ heldW c (Memref.whole cc0_stg0_0 : Memref sig .tc .vmem S2048x1024 .f32) fa
            ∗ heldW c (Memref.whole cc0_stg1_0 : Memref sig .tc .vmem S1024x2048 .f32) fb
            ∗ heldW c (Memref.whole cc0_scratch0 : Memref sig .tc .vmem S2048x2048 .f32) ((Memref.whole cc0_scratch0 : Memref sig .tc .vmem S2048x2048 .f32).view.writes (Elt F) f3
              [⟨Rect.unit (s := S2048x2048) (k0_off7 c) S1024x384.size (k0_off7_inb c), k0_pay11 (View.readAt (Elt F) (Memref.whole cc0_stg0_0 : Memref sig .tc .vmem S2048x1024 .f32).view (Rect.unit (s := S2048x1024) (k0_off6 c) S1024x1024.size (k0_off6_inb c)).toLoadRect fa) (View.readAt (Elt F) (Memref.whole cc0_stg1_0 : Memref sig .tc .vmem S1024x2048 .f32).view (Rect.unit (s := S1024x2048) ![0, 384] S1024x384.size inb_S1024x2048_S1024x384_0_384).toLoadRect fb)⟩,
               ⟨Rect.unit (s := S2048x2048) (k0_off5 c) S1024x384.size (k0_off5_inb c), k0_pay10 (View.readAt (Elt F) (Memref.whole cc0_stg0_0 : Memref sig .tc .vmem S2048x1024 .f32).view (Rect.unit (s := S2048x1024) (k0_off4 c) S1024x1024.size (k0_off4_inb c)).toLoadRect fa) (View.readAt (Elt F) (Memref.whole cc0_stg1_0 : Memref sig .tc .vmem S1024x2048 .f32).view (Rect.unit (s := S1024x2048) ![0, 0] S1024x384.size inb_S1024x2048_S1024x384_0_0).toLoadRect fb)⟩]))) := by
  simp only [k0_part6_eq_skeleton]; unfold k0_part6_skel
  simp only [Prog.lift, Prog.bind_op, Prog.bind_ret, Prog.pure_eq_ret]
  iintro ⟨#HIs, #HIr, #Hrs, #Hrr, Hts, Htr, Hdst, HO, Ha, Hb, H15, H3⟩
  unfold heldW
  unfold ptsAny
  icases Hdst with ⟨%fd, Hdst⟩
  ihave H15s := (Entails.of_eq (pts_set_eq (F := F) (ℓ := (Memref.whole cc0_scratch12 : Memref sig .tc .vmem S1024x256 .bf16).view.loc (c : Thread nD τ))
      (S' := (stgM5_0 : Memref sig .tc .vmem S1024x256 .bf16).view.set) ((show (Memref.whole cc0_scratch12 : Memref sig .tc .vmem S1024x256 .bf16).view.set = Finset.univ from View.set_whole _).trans stg_univ_5.symm))) $$ H15
  iapply (wp_send_to V c ⟨k0_dev9 c, k0_dev9_lt c⟩ 2 (dev9_eq c) (.rsS 5 0) (.rsR 5 0) (by decide) (by decide) 8 (by decide) (paid_rs c 5 0) rfl
      (src := stgM5_0) (dst := commM5_0) (rsS_sem_eq 5 0 _) (rsR_sem_eq 5 0 _) rfl fd κs κr W
      (ptsAny_intro c stgM5_0 _)
      (ptsIs_intro (nbr 2 c) commM5_0 _ _ (by rw [View.read_write_univ, nbr_nbr]; exact hV))) $$ [H15s Hdst HO Hts Htr]
  · isplitr; · iexact HIs
    isplitr; · iexact HIr
    isplitl [H15s]; · iexact H15s
    isplitl [Hdst]; · iexact Hdst
    isplitl [HO]; · iexact HO
    isplitl [Hts]; · iexact Hts
    isplitr; · iexact Hrs
    isplitl [Htr]; · iexact Htr
    iexact Hrr
  iintro ⟨Hcs, HO⟩
  sl_exec
  sl_step
  isplitr; · ipureintro; rfl
  isplitl [Hcs]; · iexact Hcs
  isplitl [HO]; · iexact HO
  isplitl [Ha]; · iexact Ha
  isplitl [Hb]; · iexact Hb
  iexact H3

end Cert.Kernel.Proto

end
-- ==== Proof.Body07Bits.lean ====
/-
The seventh stretch of a device's kernel body: the rows of the accumulator that stay on this device get, for groups
2, 3 and 4, the product of the kept half of A with the group's columns of B; and the kept half of A for group 5 is
loaded and rounded.
-/
import proofs.«900882_g7700000000000883_dist_matmul_gelu_kshard_i_m2048_n2048_k1024_v7x_i8_f32_1_alg».proof.Proof.RulesBits
import proofs.«900882_g7700000000000883_dist_matmul_gelu_kshard_i_m2048_n2048_k1024_v7x_i8_f32_1_alg».proof.Proof.TopoBitsTab
import proofs.«900882_g7700000000000883_dist_matmul_gelu_kshard_i_m2048_n2048_k1024_v7x_i8_f32_1_alg».proof.Proof.PiecesTabBits
import proofs.«900882_g7700000000000883_dist_matmul_gelu_kshard_i_m2048_n2048_k1024_v7x_i8_f32_1_alg».proof.Proof.Gen.Kernel.Skeleton
import Idealize.ShloMosaic.Lib.Pipeline.Value

set_option maxRecDepth 16384

noncomputable section

namespace Cert.Kernel.Proto

open Cert.Kernel Cert.Kernel.Gen Cert.Kernel.Topo
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : Vals F)

set_option maxHeartbeats 2000000 in
theorem part7_run (c : Dev nD) (v91 v115 v139 v163 : BitVec 32)
    (fa : Buf (Elt F) ((Memref.whole cc0_stg0_0 : Memref sig .tc .vmem S2048x1024 .f32).view.loc (c : Thread nD τ)))
    (fb : Buf (Elt F) ((Memref.whole cc0_stg1_0 : Memref sig .tc .vmem S1024x2048 .f32).view.loc (c : Thread nD τ)))
    (f3 : Buf (Elt F) ((Memref.whole cc0_scratch0 : Memref sig .tc .vmem S2048x2048 .f32).view.loc (c : Thread nD τ)))
 :
    iprop(heldW c (Memref.whole cc0_stg0_0 : Memref sig .tc .vmem S2048x1024 .f32) fa
        ∗ heldW c (Memref.whole cc0_stg1_0 : Memref sig .tc .vmem S1024x2048 .f32) fb
        ∗ heldW c (Memref.whole cc0_scratch0 : Memref sig .tc .vmem S2048x2048 .f32) f3)
      ⊢ wp frame (wpE (defs₀ (F := F)) 𝒱₀ c none) Set.univ
          (k0_part7 (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23 c v91 v115 v139 v163)
          (fun r => iprop(⌜r = k0_pay15 (View.readAt (Elt F) (Memref.whole cc0_stg0_0 : Memref sig .tc .vmem S2048x1024 .f32).view (Rect.unit (s := S2048x1024) (k0_off8 c) S1024x1024.size (k0_off8_inb c)).toLoadRect fa)⌝
            ∗ heldW c (Memref.whole cc0_stg0_0 : Memref sig .tc .vmem S2048x1024 .f32) fa
            ∗ heldW c (Memref.whole cc0_stg1_0 : Memref sig .tc .vmem S1024x2048 .f32) fb
            ∗ heldW c (Memref.whole cc0_scratch0 : Memref sig .tc .vmem S2048x2048 .f32) ((Memref.whole cc0_scratch0 : Memref sig .tc .vmem S2048x2048 .f32).view.writes (Elt F) f3
              [⟨Rect.unit (s := S2048x2048) (k0_off11 c) S1024x256.size (k0_off11_inb c), k0_pay14 (View.readAt (Elt F) (Memref.whole cc0_stg0_0 : Memref sig .tc .vmem S2048x1024 .f32).view (Rect.unit (s := S2048x1024) (k0_off6 c) S1024x1024.size (k0_off6_inb c)).toLoadRect fa) (View.readAt (Elt F) (Memref.whole cc0_stg1_0 : Memref sig .tc .vmem S1024x2048 .f32).view (Rect.unit (s := S1024x2048) ![0, 1536] S1024x256.size inb_S1024x2048_S1024x256_0_1536).toLoadRect fb)⟩,
               ⟨Rect.unit (s := S2048x2048) (k0_off10 c) S1024x384.size (k0_off10_inb c), k0_pay13 (View.readAt (Elt F) (Memref.whole cc0_stg0_0 : Memref sig .tc .vmem S2048x1024 .f32).view (Rect.unit (s := S2048x1024) (k0_off4 c) S1024x1024.size (k0_off4_inb c)).toLoadRect fa) (View.readAt (Elt F) (Memref.whole cc0_stg1_0 : Memref sig .tc .vmem S1024x2048 .f32).view (Rect.unit (s := S1024x2048) ![0, 1152] S1024x384.size inb_S1024x2048_S1024x384_0_1152).toLoadRect fb)⟩,
               ⟨Rect.unit (s := S2048x2048) (k0_off9 c) S1024x384.size (k0_off9_inb c), k0_pay12 (View.readAt (Elt F) (Memref.whole cc0_stg0_0 : Memref sig .tc .vmem S2048x1024 .f32).view (Rect.unit (s := S2048x1024) (k0_off8 c) S1024x1024.size (k0_off8_inb c)).toLoadRect fa) (View.readAt (Elt F) (Memref.whole cc0_stg1_0 : Memref sig .tc .vmem S1024x2048 .f32).view (Rect.unit (s := S1024x2048) ![0, 768] S1024x384.size inb_S1024x2048_S1024x384_0_768).toLoadRect fb)⟩]))) := by
  simp only [k0_part7_eq_skeleton]; unfold k0_part7_skel
  simp only [Prog.lift, Prog.bind_op, Prog.bind_ret, Prog.pure_eq_ret]
  iintro ⟨Ha, Hb, H3⟩
  unfold heldW
  sl_exec
  sl_step
  isplitr; · ipureintro; rfl
  isplitl [Ha]; · iexact Ha
  isplitl [Hb]; · iexact Hb
  iexact H3

end Cert.Kernel.Proto

end
-- ==== Proof.Body08Bits.lean ====
/-
The eighth stretch of a device's kernel body: the rows of the accumulator that stay on this device get group 5's
product; then the first reduce-scatter exchange of group 0 is awaited — the staging buffer comes back and the
neighbour's rounded partial product has landed — and the rows of the accumulator that leave at the second step are
loaded together with the landed rows that are added to them.
-/
import proofs.«900882_g7700000000000883_dist_matmul_gelu_kshard_i_m2048_n2048_k1024_v7x_i8_f32_1_alg».proof.Proof.RulesBits
import proofs.«900882_g7700000000000883_dist_matmul_gelu_kshard_i_m2048_n2048_k1024_v7x_i8_f32_1_alg».proof.Proof.TopoBitsTab
import proofs.«900882_g7700000000000883_dist_matmul_gelu_kshard_i_m2048_n2048_k1024_v7x_i8_f32_1_alg».proof.Proof.PiecesTabBits
import proofs.«900882_g7700000000000883_dist_matmul_gelu_kshard_i_m2048_n2048_k1024_v7x_i8_f32_1_alg».proof.Proof.TopoClosedBits
import proofs.«900882_g7700000000000883_dist_matmul_gelu_kshard_i_m2048_n2048_k1024_v7x_i8_f32_1_alg».proof.Proof.Gen.Kernel.Skeleton
import Idealize.ShloMosaic.Lib.Pipeline.Value

set_option maxRecDepth 16384

noncomputable section

namespace Cert.Kernel.Proto

open Cert.Kernel Cert.Kernel.Gen Cert.Kernel.Topo
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : Vals F)

set_option maxHeartbeats 2000000 in
theorem part8_run (c : Dev nD) (κw1 κw2 : ℕ) (W : Waits sig Unit) (v8 v34 v43 v163 : BitVec 32) (v227 : FVec F S1024x1024 .bf16)
    (fb : Buf (Elt F) ((Memref.whole cc0_stg1_0 : Memref sig .tc .vmem S1024x2048 .f32).view.loc (c : Thread nD τ)))
    (f3 : Buf (Elt F) ((Memref.whole cc0_scratch0 : Memref sig .tc .vmem S2048x2048 .f32).view.loc (c : Thread nD τ))) :
    iprop(cellInv ER (sched V) κw1 (cell c (.rsS 0 0)) ∗ cellInv ER (sched V) κw2 (cell c (.rsR 0 0)) ∗ levAts L lv
        ∗ cred (tallyAt (cell c (.rsS 0 0)) () (amt (.rsR 0 0))) ∗ cred (tallyAt (cell c (.rsR 0 0)) () (amt (.rsR 0 0)))
        ∗ atPos ER (cell c (.rsS 0 0)) 0 ∅ 0 ∗ atPos ER (cell c (.rsR 0 0)) 0 ∅ 0
        ∗ owes (c : Thread nD τ) (Owe c 9) W
        ∗ heldW c (Memref.whole cc0_stg1_0 : Memref sig .tc .vmem S1024x2048 .f32) fb ∗ heldW c (Memref.whole cc0_scratch0 : Memref sig .tc .vmem S2048x2048 .f32) f3)
      ⊢ wp frame (wpE (defs₀ (F := F)) 𝒱₀ c none) Set.univ
          (k0_part8 (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23 c v8 v34 v43 v163 v227)
          (fun r => iprop(∃ fr : Buf (Elt F) ((commM0_0 : Memref sig .tc .vmem S1024x384 .bf16).view.loc (c : Thread nD τ)),
            ⌜r = ⟨Scalar.addi v43 (Scalar.muli (Scalar.subi 1#32 v8) 512#32), Scalar.addi v43 (Scalar.muli v8 512#32),
                (View.readAt (Elt F) (Memref.whole cc0_scratch0 : Memref sig .tc .vmem S2048x2048 .f32).view (Rect.unit (s := S2048x2048) (k0_off13 c) S512x384.size (k0_off13_inb c)).toLoadRect f3),
                k0_pay17 (View.readAt (Elt F) (Memref.whole cc0_scratch1 : Memref sig .tc .vmem S1792x384 .bf16).view (Rect.unit (s := S1792x384) (k0_off14 c) S512x384.size (k0_off14_inb c)).toLoadRect fr)⟩⌝
            ∗ ⌜V.rs0_0 (nbr 0 c) ((commM0_0 : Memref sig .tc .vmem S1024x384 .bf16).view.read (Elt F) fr)⌝
            ∗ owes (c : Thread nD τ) (Owe c 9) (insert ((CK.rsR 0 0).sem, ()) (insert ((CK.rsS 0 0).sem, ()) W))
            ∗ atPos ER (cell c (.rsS 0 0)) 1 ∅ 0 ∗ atPos ER (cell c (.rsR 0 0)) 1 ∅ 0
            ∗ ptsAny (F := F) c stgM0_0
            ∗ heldW c (commM0_0 : Memref sig .tc .vmem S1024x384 .bf16) fr
            ∗ heldW c (Memref.whole cc0_stg1_0 : Memref sig .tc .vmem S1024x2048 .f32) fb
            ∗ heldW c (Memref.whole cc0_scratch0 : Memref sig .tc .vmem S2048x2048 .f32) ((Memref.whole cc0_scratch0 : Memref sig .tc .vmem S2048x2048 .f32).view.writes (Elt F) f3
              [⟨Rect.unit (s := S2048x2048) (k0_off12 c) S1024x256.size (k0_off12_inb c), k0_pay16 v227 (View.readAt (Elt F) (Memref.whole cc0_stg1_0 : Memref sig .tc .vmem S1024x2048 .f32).view (Rect.unit (s := S1024x2048) ![0, 1792] S1024x256.size inb_S1024x2048_S1024x256_0_1792).toLoadRect fb)⟩]))) := by
  simp only [k0_part8_eq_skeleton]; unfold k0_part8_skel
  simp only [Prog.lift, Prog.bind_op, Prog.bind_ret, Prog.pure_eq_ret]
  iintro ⟨#HIw1, #HIw2, #Hlev, Hc1, Hc2, Hat1, Hat2, HO, Hb, H3⟩
  unfold heldW
  sl_exec
  iapply (wp_wait_xfer V c (.rsS 0 0) (by decide) 9 (rsS_sem_eq 0 0 _) rfl (w := TpuEff.waitDma2 _ (commM0_0 : Memref sig .tc .vmem S1024x384 .bf16) (stgM0_0 : Memref sig .tc .vmem S1024x384 .bf16) _ _) (wpE_waitDma2_eq 𝒱₀ (c : Thread nD τ) none Set.univ)
      (mayWait_own c (.rsS 0 0) (lv_cell c (.rsS 0 0)) 9) κw1 (W)) $$ [Hc1 HO Hat1]
  · isplitr; · iexact HIw1
    isplitl [Hc1]; · iexact Hc1
    isplitl [HO]; · iexact HO
    isplitr; · iexact Hlev
    iexact Hat1
  iintro ⟨HO, Hat1, Hstg⟩
  iapply (wp_wait_xfer V c (.rsR 0 0) (by decide) 9 (rsR_sem_eq 0 0 _) rfl (w := TpuEff.waitDma2 _ (stgM0_0 : Memref sig .tc .vmem S1024x384 .bf16) (commM0_0 : Memref sig .tc .vmem S1024x384 .bf16) _ _) (wpE_waitDma2_eq 𝒱₀ (c : Thread nD τ) none Set.univ)
      (mayWait_rsR c 0 0 9 (by decide)) κw2 (insert ((CK.rsS 0 0).sem, ()) W)) $$ [Hc2 HO Hat2]
  · isplitr; · iexact HIw2
    isplitl [Hc2]; · iexact Hc2
    isplitl [HO]; · iexact HO
    isplitr; · iexact Hlev
    iexact Hat2
  iintro ⟨HO, Hat2, Hrcv⟩
  ihave Hrcv' := (Entails.of_eq (show pay V c (.rsR 0 0) 0 = ptsIs c commM0_0 (V.rs0_0 (nbr 0 c)) from rfl)) $$ Hrcv
  unfold ptsIs
  icases Hrcv' with ⟨%fr, Hr, %hVr⟩
  sl_exec
  sl_step
  ihave Hstg' := (Entails.of_eq (show pay V c (.rsS 0 0) 0 = ptsAny c stgM0_0 from rfl)) $$ Hstg
  iexists fr
  isplitr; · ipureintro; rfl
  isplitr; · ipureintro; exact hVr
  isplitl [HO]; · iexact HO
  isplitl [Hat1]; · iexact Hat1
  isplitl [Hat2]; · iexact Hat2
  isplitl [Hstg']; · iexact Hstg'
  isplitl [Hr]; · iexact Hr
  isplitl [Hb]; · iexact Hb
  iexact H3

end Cert.Kernel.Proto

end
-- ==== Proof.Body09Bits.lean ====
/-
The ninth stretch of a device's kernel body, the second reduce-scatter step of group 0: the landed rows are added to
the rows of the accumulator that leave at this step, the sums are rounded into the first 512 rows of the staging
buffer and sent to the neighbour across axis 1; then the landed rows that belong to the kept rows are added to those.
-/
import proofs.«900882_g7700000000000883_dist_matmul_gelu_kshard_i_m2048_n2048_k1024_v7x_i8_f32_1_alg».proof.Proof.RulesBits
import proofs.«900882_g7700000000000883_dist_matmul_gelu_kshard_i_m2048_n2048_k1024_v7x_i8_f32_1_alg».proof.Proof.TopoBitsTab
import proofs.«900882_g7700000000000883_dist_matmul_gelu_kshard_i_m2048_n2048_k1024_v7x_i8_f32_1_alg».proof.Proof.PiecesTabBits
import proofs.«900882_g7700000000000883_dist_matmul_gelu_kshard_i_m2048_n2048_k1024_v7x_i8_f32_1_alg».proof.Proof.TopoClosedBits
import proofs.«900882_g7700000000000883_dist_matmul_gelu_kshard_i_m2048_n2048_k1024_v7x_i8_f32_1_alg».proof.Proof.Gen.Kernel.Skeleton
import Idealize.ShloMosaic.Lib.Pipeline.Value

set_option maxRecDepth 16384

noncomputable section

namespace Cert.Kernel.Proto

open Cert.Kernel Cert.Kernel.Gen Cert.Kernel.Topo
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : Vals F)

set_option maxHeartbeats 1000000 in
theorem part9_run (c : Dev nD) (κs κr : ℕ) (W : Waits sig Unit) (v2 v43 v248 v250 : BitVec 32) (v252 : Vec F S512x384 .f32) (v257 : FVec F S512x384 .f32)
    (fs : Buf (Elt F) ((stgM0_0 : Memref sig .tc .vmem S1024x384 .bf16).view.loc (c : Thread nD τ)))
    (fr : Buf (Elt F) ((commM0_0 : Memref sig .tc .vmem S1024x384 .bf16).view.loc (c : Thread nD τ)))
    (f3 : Buf (Elt F) ((Memref.whole cc0_scratch0 : Memref sig .tc .vmem S2048x2048 .f32).view.loc (c : Thread nD τ)))
    (hV : V.rs0_1 c ((stgM0_1 : Memref sig .tc .vmem S512x384 .bf16).view.read (Elt F) (View.write (Elt F) ((Memref.whole cc0_scratch7 : Memref sig .tc .vmem S1024x384 .bf16).access (Rect.unit (s := S1024x384) ![0, 0] S512x384.size inb_S1024x384_S512x384_0_0)) fs (k0_pay19 ((Memref.whole cc0_scratch0 : Memref sig .tc .vmem S2048x2048 .f32).view.readCov [⟨Rect.unit (s := S2048x2048) (k0_off13 c) S512x384.size (k0_off13_inb c), k0_pay18 v252 v257⟩] (Rect.unit (s := S2048x2048) (k0_off13 c) S512x384.size (k0_off13_inb c)).toLoadRect)) Finset.univ))) :
    iprop(cellInv ER (sched V) κs (cell c (.rsS 0 1))
        ∗ cellInv ER (sched V) κr (cell (nbr 1 c) (.rsR 0 1))
        ∗ reached ER (cell c (.rsS 0 1)) 0
        ∗ reached ER (cell (nbr 1 c) (.rsR 0 1)) 0
        ∗ dutyTok ER (cell c (.rsS 0 1)) 0 (0 : Fin 3)
        ∗ dutyTok ER (cell (nbr 1 c) (.rsR 0 1)) 0 (0 : Fin 3)
        ∗ ptsAny (F := F) (nbr 1 c) commM0_1
        ∗ owes (c : Thread nD τ) (Owe c 9) W
        ∗ heldW c (stgM0_0 : Memref sig .tc .vmem S1024x384 .bf16) fs
        ∗ heldW c (commM0_0 : Memref sig .tc .vmem S1024x384 .bf16) fr
        ∗ heldW c (Memref.whole cc0_scratch0 : Memref sig .tc .vmem S2048x2048 .f32) f3)
      ⊢ wp frame (wpE (defs₀ (F := F)) 𝒱₀ c none) Set.univ
          (k0_part9 (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23 c v2 v43 v248 v250 v252 v257)
          (fun r => iprop(⌜r = Scalar.xori v2 3#32⌝
            ∗ cred (tallyAt (cell c (.rsS 0 1)) () (amt (.rsR 0 1)))
            ∗ owes (c : Thread nD τ) (Owe c 10) W
            ∗ ((stgM0_0 : Memref sig .tc .vmem S1024x384 .bf16).view.loc (c : Thread nD τ) ↦[(stgM0_0 : Memref sig .tc .vmem S1024x384 .bf16).view.set \ (stgM0_1 : Memref sig .tc .vmem S512x384 .bf16).view.set]{fullShare} (View.write (Elt F) ((Memref.whole cc0_scratch7 : Memref sig .tc .vmem S1024x384 .bf16).access (Rect.unit (s := S1024x384) ![0, 0] S512x384.size inb_S1024x384_S512x384_0_0)) fs (k0_pay19 ((Memref.whole cc0_scratch0 : Memref sig .tc .vmem S2048x2048 .f32).view.readCov [⟨Rect.unit (s := S2048x2048) (k0_off13 c) S512x384.size (k0_off13_inb c), k0_pay18 v252 v257⟩] (Rect.unit (s := S2048x2048) (k0_off13 c) S512x384.size (k0_off13_inb c)).toLoadRect)) Finset.univ))
            ∗ heldW c (commM0_0 : Memref sig .tc .vmem S1024x384 .bf16) fr
            ∗ heldW c (Memref.whole cc0_scratch0 : Memref sig .tc .vmem S2048x2048 .f32) ((Memref.whole cc0_scratch0 : Memref sig .tc .vmem S2048x2048 .f32).view.writes (Elt F) f3
              [⟨Rect.unit (s := S2048x2048) (k0_off15 c) S512x384.size (k0_off15_inb c), k0_pay20 (View.readAt (Elt F) (Memref.whole cc0_scratch0 : Memref sig .tc .vmem S2048x2048 .f32).view (Rect.unit (s := S2048x2048) (k0_off15 c) S512x384.size (k0_off15_inb c)).toLoadRect ((Memref.whole cc0_scratch0 : Memref sig .tc .vmem S2048x2048 .f32).view.writes (Elt F) f3
              [⟨Rect.unit (s := S2048x2048) (k0_off13 c) S512x384.size (k0_off13_inb c), k0_pay18 v252 v257⟩])) (View.readAt (Elt F) (Memref.whole cc0_scratch1 : Memref sig .tc .vmem S1792x384 .bf16).view (Rect.unit (s := S1792x384) (k0_off16 c) S512x384.size (k0_off16_inb c)).toLoadRect fr)⟩,
               ⟨Rect.unit (s := S2048x2048) (k0_off13 c) S512x384.size (k0_off13_inb c), k0_pay18 v252 v257⟩]))) := by
  simp only [k0_part9_eq_skeleton]; unfold k0_part9_skel
  simp only [Prog.lift, Prog.bind_op, Prog.bind_ret, Prog.pure_eq_ret]
  iintro ⟨#HIs, #HIr, #Hrs, #Hrr, Hts, Htr, Hdst, HO, Hstg, Hland, H3⟩
  unfold heldW
  unfold ptsAny
  icases Hdst with ⟨%fd, Hdst⟩
  have := cx_le c; have := cy_le c; have := cz_le c
  sl_exec
  ihave Hs_ := (Entails.of_eq (pts_set_eq (F := F) (ℓ := (stgM0_0 : Memref sig .tc .vmem S1024x384 .bf16).view.loc (c : Thread nD τ))
      (S' := (stgM0_1 : Memref sig .tc .vmem S512x384 .bf16).view.set ∪ ((stgM0_0 : Memref sig .tc .vmem S1024x384 .bf16).view.set \ (stgM0_1 : Memref sig .tc .vmem S512x384 .bf16).view.set)) (Finset.union_sdiff_of_subset stg_sub1_0).symm)) $$ Hstg
  ihave Hs2_ := (pts_union (F := F) Finset.disjoint_sdiff).1 $$ Hs_
  icases Hs2_ with ⟨Hsrc, Hrem⟩
  iapply (wp_send_to V c ⟨k0_dev10 c, k0_dev10_lt c⟩ 1 (dev10_eq c) (.rsS 0 1) (.rsR 0 1) (by decide) (by decide) 9 (by decide) (paid_rs c 0 1) rfl
      (src := stgM0_1) (dst := commM0_1) (rsS_sem_eq 0 1 _) (rsR_sem_eq 0 1 _) rfl fd κs κr W
      (ptsAny_intro c stgM0_1 _)
      (ptsIs_intro (nbr 1 c) commM0_1 _ _ (by rw [View.read_write_univ, nbr_nbr]; exact hV))) $$ [Hsrc Hdst HO Hts Htr]
  · isplitr; · iexact HIs
    isplitr; · iexact HIr
    isplitl [Hsrc]; · iexact Hsrc
    isplitl [Hdst]; · iexact Hdst
    isplitl [HO]; · iexact HO
    isplitl [Hts]; · iexact Hts
    isplitr; · iexact Hrs
    isplitl [Htr]; · iexact Htr
    iexact Hrr
  iintro ⟨Hcs, HO⟩
  sl_exec
  sl_step
  isplitr; · ipureintro; rfl
  isplitl [Hcs]; · iexact Hcs
  isplitl [HO]; · iexact HO
  isplitl [Hrem]; · iexact Hrem
  isplitl [Hland]; · iexact Hland
  iexact H3

end Cert.Kernel.Proto

end
-- ==== Proof.Body10Bits.lean ====
/-
The tenth stretch of a device's kernel body: the first reduce-scatter exchange of group 1 is awaited — its staging
buffer comes back, the neighbour's rounded partial product has landed — and the landed rows are added to the rows
of the accumulator that leave at the second step; the sums are read back and rounded.
-/
import proofs.«900882_g7700000000000883_dist_matmul_gelu_kshard_i_m2048_n2048_k1024_v7x_i8_f32_1_alg».proof.Proof.RulesBits
import proofs.«900882_g7700000000000883_dist_matmul_gelu_kshard_i_m2048_n2048_k1024_v7x_i8_f32_1_alg».proof.Proof.TopoBitsTab
import proofs.«900882_g7700000000000883_dist_matmul_gelu_kshard_i_m2048_n2048_k1024_v7x_i8_f32_1_alg».proof.Proof.PiecesTabBits
import proofs.«900882_g7700000000000883_dist_matmul_gelu_kshard_i_m2048_n2048_k1024_v7x_i8_f32_1_alg».proof.Proof.TopoClosedBits
import proofs.«900882_g7700000000000883_dist_matmul_gelu_kshard_i_m2048_n2048_k1024_v7x_i8_f32_1_alg».proof.Proof.Gen.Kernel.Skeleton
import Idealize.ShloMosaic.Lib.Pipeline.Value

set_option maxRecDepth 16384

noncomputable section

namespace Cert.Kernel.Proto

open Cert.Kernel Cert.Kernel.Gen Cert.Kernel.Topo
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : Vals F)

set_option maxHeartbeats 1000000 in
theorem part10_run (c : Dev nD) (κw1 κw2 : ℕ) (W : Waits sig Unit) (v9 v58 v67 : BitVec 32)
    (f3 : Buf (Elt F) ((Memref.whole cc0_scratch0 : Memref sig .tc .vmem S2048x2048 .f32).view.loc (c : Thread nD τ))) :
    iprop(cellInv ER (sched V) κw1 (cell c (.rsS 1 0))
        ∗ cellInv ER (sched V) κw2 (cell c (.rsR 1 0))
        ∗ levAts L lv
        ∗ cred (tallyAt (cell c (.rsS 1 0)) () (amt (.rsR 1 0)))
        ∗ cred (tallyAt (cell c (.rsR 1 0)) () (amt (.rsR 1 0)))
        ∗ atPos ER (cell c (.rsS 1 0)) 0 ∅ 0
        ∗ atPos ER (cell c (.rsR 1 0)) 0 ∅ 0
        ∗ owes (c : Thread nD τ) (Owe c 10) W
        ∗ heldW c (Memref.whole cc0_scratch0 : Memref sig .tc .vmem S2048x2048 .f32) f3)
      ⊢ wp frame (wpE (defs₀ (F := F)) 𝒱₀ c none) Set.univ
          (k0_part10 (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23 c v9 v58 v67)
          (fun r => iprop(∃ fr : Buf (Elt F) ((commM1_0 : Memref sig .tc .vmem S1024x384 .bf16).view.loc (c : Thread nD τ)), ⌜r = ⟨Scalar.addi v67 (Scalar.muli v9 512#32), k0_pay22 ((Memref.whole cc0_scratch0 : Memref sig .tc .vmem S2048x2048 .f32).view.readCov [⟨Rect.unit (s := S2048x2048) (k0_off17 c) S512x384.size (k0_off17_inb c), k0_pay21 (View.readAt (Elt F) (Memref.whole cc0_scratch0 : Memref sig .tc .vmem S2048x2048 .f32).view (Rect.unit (s := S2048x2048) (k0_off17 c) S512x384.size (k0_off17_inb c)).toLoadRect f3) (View.readAt (Elt F) (Memref.whole cc0_scratch2 : Memref sig .tc .vmem S1792x384 .bf16).view (Rect.unit (s := S1792x384) (k0_off18 c) S512x384.size (k0_off18_inb c)).toLoadRect fr)⟩] (Rect.unit (s := S2048x2048) (k0_off17 c) S512x384.size (k0_off17_inb c)).toLoadRect)⟩⌝
            ∗ ⌜V.rs1_0 (nbr 1 c) ((commM1_0 : Memref sig .tc .vmem S1024x384 .bf16).view.read (Elt F) fr)⌝
            ∗ owes (c : Thread nD τ) (Owe c 10) (insert ((CK.rsR 1 0).sem, ()) (insert ((CK.rsS 1 0).sem, ()) W))
            ∗ atPos ER (cell c (.rsS 1 0)) 1 ∅ 0
            ∗ atPos ER (cell c (.rsR 1 0)) 1 ∅ 0
            ∗ ptsAny (F := F) c stgM1_0
            ∗ heldW c (commM1_0 : Memref sig .tc .vmem S1024x384 .bf16) fr
            ∗ heldW c (Memref.whole cc0_scratch0 : Memref sig .tc .vmem S2048x2048 .f32) ((Memref.whole cc0_scratch0 : Memref sig .tc .vmem S2048x2048 .f32).view.writes (Elt F) f3
              [⟨Rect.unit (s := S2048x2048) (k0_off17 c) S512x384.size (k0_off17_inb c), k0_pay21 (View.readAt (Elt F) (Memref.whole cc0_scratch0 : Memref sig .tc .vmem S2048x2048 .f32).view (Rect.unit (s := S2048x2048) (k0_off17 c) S512x384.size (k0_off17_inb c)).toLoadRect f3) (View.readAt (Elt F) (Memref.whole cc0_scratch2 : Memref sig .tc .vmem S1792x384 .bf16).view (Rect.unit (s := S1792x384) (k0_off18 c) S512x384.size (k0_off18_inb c)).toLoadRect fr)⟩]))) := by
  simp only [k0_part10_eq_skeleton]; unfold k0_part10_skel
  simp only [Prog.lift, Prog.bind_op, Prog.bind_ret, Prog.pure_eq_ret]
  iintro ⟨#HIw1, #HIw2, #Hlev, Hc1, Hc2, Hat1, Hat2, HO, H3⟩
  unfold heldW
  have := cx_le c; have := cy_le c; have := cz_le c
  iapply (wp_wait_xfer V c (.rsS 1 0) (by decide) 10 (rsS_sem_eq 1 0 _) rfl (w := TpuEff.waitDma2 _ (commM1_0 : Memref sig .tc .vmem S1024x384 .bf16) (stgM1_0 : Memref sig .tc .vmem S1024x384 .bf16) _ _) (wpE_waitDma2_eq 𝒱₀ (c : Thread nD τ) none Set.univ)
      (mayWait_own c (.rsS 1 0) (lv_cell c (.rsS 1 0)) 10) κw1 (W)) $$ [Hc1 HO Hat1]
  · isplitr; · iexact HIw1
    isplitl [Hc1]; · iexact Hc1
    isplitl [HO]; · iexact HO
    isplitr; · iexact Hlev
    iexact Hat1
  iintro ⟨HO, Hat1, Hstgp⟩
  iapply (wp_wait_xfer V c (.rsR 1 0) (by decide) 10 (rsR_sem_eq 1 0 _) rfl (w := TpuEff.waitDma2 _ (stgM1_0 : Memref sig .tc .vmem S1024x384 .bf16) (commM1_0 : Memref sig .tc .vmem S1024x384 .bf16) _ _) (wpE_waitDma2_eq 𝒱₀ (c : Thread nD τ) none Set.univ)
      (mayWait_rsR c 1 0 10 (by decide)) κw2 (insert ((CK.rsS 1 0).sem, ()) W)) $$ [Hc2 HO Hat2]
  · isplitr; · iexact HIw2
    isplitl [Hc2]; · iexact Hc2
    isplitl [HO]; · iexact HO
    isplitr; · iexact Hlev
    iexact Hat2
  iintro ⟨HO, Hat2, Hrcvp⟩
  ihave Hstg' := (Entails.of_eq (show pay V c (.rsS 1 0) 0 = ptsAny c stgM1_0 from rfl)) $$ Hstgp
  ihave Hrcv' := (Entails.of_eq (show pay V c (.rsR 1 0) 0 = ptsIs c commM1_0 (V.rs1_0 (nbr 1 c)) from rfl)) $$ Hrcvp
  unfold ptsIs
  icases Hrcv' with ⟨%fr, Hr, %hVr⟩
  unfold ptsAny
  icases Hstg' with ⟨%fs, Hs⟩
  sl_exec
  sl_step
  iexists fr
  isplitr; · ipureintro; rfl
  isplitr; · ipureintro; exact hVr
  isplitl [HO]; · iexact HO
  isplitl [Hat1]; · iexact Hat1
  isplitl [Hat2]; · iexact Hat2
  isplitl [Hs]; · iexists fs; iexact Hs
  isplitl [Hr]; · iexact Hr
  iexact H3

end Cert.Kernel.Proto

end
-- ==== Proof.Body11Bits.lean ====
/-
The eleventh stretch of a device's kernel body, the second reduce-scatter step of group 1: the rounded sums go into the
first 512 rows of the staging buffer and to the neighbour across axis 2; the landed rows that belong to the kept
rows are added to those; and group 2's first transfer is awaited at its source.
-/
import proofs.«900882_g7700000000000883_dist_matmul_gelu_kshard_i_m2048_n2048_k1024_v7x_i8_f32_1_alg».proof.Proof.RulesBits
import proofs.«900882_g7700000000000883_dist_matmul_gelu_kshard_i_m2048_n2048_k1024_v7x_i8_f32_1_alg».proof.Proof.TopoBitsTab
import proofs.«900882_g7700000000000883_dist_matmul_gelu_kshard_i_m2048_n2048_k1024_v7x_i8_f32_1_alg».proof.Proof.PiecesTabBits
import proofs.«900882_g7700000000000883_dist_matmul_gelu_kshard_i_m2048_n2048_k1024_v7x_i8_f32_1_alg».proof.Proof.TopoClosedBits
import proofs.«900882_g7700000000000883_dist_matmul_gelu_kshard_i_m2048_n2048_k1024_v7x_i8_f32_1_alg».proof.Proof.Gen.Kernel.Skeleton
import Idealize.ShloMosaic.Lib.Pipeline.Value

set_option maxRecDepth 16384

noncomputable section

namespace Cert.Kernel.Proto

open Cert.Kernel Cert.Kernel.Gen Cert.Kernel.Topo
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : Vals F)

set_option maxHeartbeats 1000000 in
theorem part11_run (c : Dev nD) (κs κr κw1 : ℕ) (W : Waits sig Unit) (v2 v67 v82 v304 : BitVec 32) (v322 : FVec F S512x384 .bf16)
    (fs : Buf (Elt F) ((stgM1_0 : Memref sig .tc .vmem S1024x384 .bf16).view.loc (c : Thread nD τ)))
    (fr : Buf (Elt F) ((commM1_0 : Memref sig .tc .vmem S1024x384 .bf16).view.loc (c : Thread nD τ)))
    (f3 : Buf (Elt F) ((Memref.whole cc0_scratch0 : Memref sig .tc .vmem S2048x2048 .f32).view.loc (c : Thread nD τ)))
    (hV : V.rs1_1 c ((stgM1_1 : Memref sig .tc .vmem S512x384 .bf16).view.read (Elt F) (View.write (Elt F) ((Memref.whole cc0_scratch8 : Memref sig .tc .vmem S1024x384 .bf16).access (Rect.unit (s := S1024x384) ![0, 0] S512x384.size inb_S1024x384_S512x384_0_0)) fs v322 Finset.univ))) :
    iprop(cellInv ER (sched V) κs (cell c (.rsS 1 1))
        ∗ cellInv ER (sched V) κr (cell (nbr 2 c) (.rsR 1 1))
        ∗ reached ER (cell c (.rsS 1 1)) 0
        ∗ reached ER (cell (nbr 2 c) (.rsR 1 1)) 0
        ∗ dutyTok ER (cell c (.rsS 1 1)) 0 (0 : Fin 3)
        ∗ dutyTok ER (cell (nbr 2 c) (.rsR 1 1)) 0 (0 : Fin 3)
        ∗ ptsAny (F := F) (nbr 2 c) commM1_1
        ∗ owes (c : Thread nD τ) (Owe c 10) W
        ∗ heldW c (stgM1_0 : Memref sig .tc .vmem S1024x384 .bf16) fs
        ∗ heldW c (commM1_0 : Memref sig .tc .vmem S1024x384 .bf16) fr
        ∗ heldW c (Memref.whole cc0_scratch0 : Memref sig .tc .vmem S2048x2048 .f32) f3
        ∗ cellInv ER (sched V) κw1 (cell c (.rsS 2 0))
        ∗ levAts L lv
        ∗ cred (tallyAt (cell c (.rsS 2 0)) () (amt (.rsR 2 0)))
        ∗ atPos ER (cell c (.rsS 2 0)) 0 ∅ 0)
      ⊢ wp frame (wpE (defs₀ (F := F)) 𝒱₀ c none) Set.univ
          (k0_part11 (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23 c v2 v67 v82 v304 v322)
          (fun r => iprop(⌜r = ⟨Scalar.xori v2 4#32, Scalar.muli v82 1#32, 0#32⟩⌝
            ∗ cred (tallyAt (cell c (.rsS 1 1)) () (amt (.rsR 1 1)))
            ∗ owes (c : Thread nD τ) (Owe c 11) (insert ((CK.rsS 2 0).sem, ()) W)
            ∗ ((stgM1_0 : Memref sig .tc .vmem S1024x384 .bf16).view.loc (c : Thread nD τ) ↦[(stgM1_0 : Memref sig .tc .vmem S1024x384 .bf16).view.set \ (stgM1_1 : Memref sig .tc .vmem S512x384 .bf16).view.set]{fullShare} (View.write (Elt F) ((Memref.whole cc0_scratch8 : Memref sig .tc .vmem S1024x384 .bf16).access (Rect.unit (s := S1024x384) ![0, 0] S512x384.size inb_S1024x384_S512x384_0_0)) fs v322 Finset.univ))
            ∗ heldW c (commM1_0 : Memref sig .tc .vmem S1024x384 .bf16) fr
            ∗ heldW c (Memref.whole cc0_scratch0 : Memref sig .tc .vmem S2048x2048 .f32) ((Memref.whole cc0_scratch0 : Memref sig .tc .vmem S2048x2048 .f32).view.writes (Elt F) f3
              [⟨Rect.unit (s := S2048x2048) (k0_off19 c) S512x384.size (k0_off19_inb c), k0_pay23 (View.readAt (Elt F) (Memref.whole cc0_scratch0 : Memref sig .tc .vmem S2048x2048 .f32).view (Rect.unit (s := S2048x2048) (k0_off19 c) S512x384.size (k0_off19_inb c)).toLoadRect f3) (View.readAt (Elt F) (Memref.whole cc0_scratch2 : Memref sig .tc .vmem S1792x384 .bf16).view (Rect.unit (s := S1792x384) (k0_off20 c) S512x384.size (k0_off20_inb c)).toLoadRect fr)⟩])
            ∗ atPos ER (cell c (.rsS 2 0)) 1 ∅ 0
            ∗ ptsAny (F := F) c stgM2_0)) := by
  simp only [k0_part11_eq_skeleton]; unfold k0_part11_skel
  simp only [Prog.lift, Prog.bind_op, Prog.bind_ret, Prog.pure_eq_ret]
  iintro ⟨#HIs, #HIr, #Hrs, #Hrr, Hts, Htr, Hdst, HO, Hstg, Hland, H3, #HIw1, #Hlev, Hc1, Hat1⟩
  unfold heldW
  unfold ptsAny
  icases Hdst with ⟨%fd, Hdst⟩
  have := cx_le c; have := cy_le c; have := cz_le c
  sl_exec
  ihave Hs_ := (Entails.of_eq (pts_set_eq (F := F) (ℓ := (stgM1_0 : Memref sig .tc .vmem S1024x384 .bf16).view.loc (c : Thread nD τ))
      (S' := (stgM1_1 : Memref sig .tc .vmem S512x384 .bf16).view.set ∪ ((stgM1_0 : Memref sig .tc .vmem S1024x384 .bf16).view.set \ (stgM1_1 : Memref sig .tc .vmem S512x384 .bf16).view.set)) (Finset.union_sdiff_of_subset stg_sub1_1).symm)) $$ Hstg
  ihave Hs2_ := (pts_union (F := F) Finset.disjoint_sdiff).1 $$ Hs_
  icases Hs2_ with ⟨Hsrc, Hrem⟩
  iapply (wp_send_to V c ⟨k0_dev11 c, k0_dev11_lt c⟩ 2 (dev11_eq c) (.rsS 1 1) (.rsR 1 1) (by decide) (by decide) 10 (by decide) (paid_rs c 1 1) rfl
      (src := stgM1_1) (dst := commM1_1) (rsS_sem_eq 1 1 _) (rsR_sem_eq 1 1 _) rfl fd κs κr W
      (ptsAny_intro c stgM1_1 _)
      (ptsIs_intro (nbr 2 c) commM1_1 _ _ (by rw [View.read_write_univ, nbr_nbr]; exact hV))) $$ [Hsrc Hdst HO Hts Htr]
  · isplitr; · iexact HIs
    isplitr; · iexact HIr
    isplitl [Hsrc]; · iexact Hsrc
    isplitl [Hdst]; · iexact Hdst
    isplitl [HO]; · iexact HO
    isplitl [Hts]; · iexact Hts
    isplitr; · iexact Hrs
    isplitl [Htr]; · iexact Htr
    iexact Hrr
  iintro ⟨Hcs, HO⟩
  sl_exec
  iapply (wp_wait_xfer V c (.rsS 2 0) (by decide) 11 (rsS_sem_eq 2 0 _) rfl (w := TpuEff.waitDma2 _ (commM2_0 : Memref sig .tc .vmem S1024x384 .bf16) (stgM2_0 : Memref sig .tc .vmem S1024x384 .bf16) _ _) (wpE_waitDma2_eq 𝒱₀ (c : Thread nD τ) none Set.univ)
      (mayWait_own c (.rsS 2 0) (lv_cell c (.rsS 2 0)) 11) κw1 (W)) $$ [Hc1 HO Hat1]
  · isplitr; · iexact HIw1
    isplitl [Hc1]; · iexact Hc1
    isplitl [HO]; · iexact HO
    isplitr; · iexact Hlev
    iexact Hat1
  iintro ⟨HO, Hat1, Hstgp⟩
  ihave Hstg2 := (Entails.of_eq (show pay V c (.rsS 2 0) 0 = ptsAny c stgM2_0 from rfl)) $$ Hstgp
  unfold ptsAny
  sl_step
  isplitr; · ipureintro; rfl
  isplitl [Hcs]; · iexact Hcs
  isplitl [HO]; · iexact HO
  isplitl [Hrem]; · iexact Hrem
  isplitl [Hland]; · iexact Hland
  isplitl [H3]; · iexact H3
  isplitl [Hat1]; · iexact Hat1
  iexact Hstg2

end Cert.Kernel.Proto

end
-- ==== Proof.Body12Bits.lean ====
/-
The twelfth stretch of a device's kernel body: group 2's first landing is awaited; the landed rows are added to the rows
of the accumulator that leave at the second step, and the sums are rounded into the first 512 rows of group 2's
staging buffer.
-/
import proofs.«900882_g7700000000000883_dist_matmul_gelu_kshard_i_m2048_n2048_k1024_v7x_i8_f32_1_alg».proof.Proof.RulesBits
import proofs.«900882_g7700000000000883_dist_matmul_gelu_kshard_i_m2048_n2048_k1024_v7x_i8_f32_1_alg».proof.Proof.TopoBitsTab
import proofs.«900882_g7700000000000883_dist_matmul_gelu_kshard_i_m2048_n2048_k1024_v7x_i8_f32_1_alg».proof.Proof.PiecesTabBits
import proofs.«900882_g7700000000000883_dist_matmul_gelu_kshard_i_m2048_n2048_k1024_v7x_i8_f32_1_alg».proof.Proof.TopoClosedBits
import proofs.«900882_g7700000000000883_dist_matmul_gelu_kshard_i_m2048_n2048_k1024_v7x_i8_f32_1_alg».proof.Proof.Gen.Kernel.Skeleton
import Idealize.ShloMosaic.Lib.Pipeline.Value

set_option maxRecDepth 16384

noncomputable section

namespace Cert.Kernel.Proto

open Cert.Kernel Cert.Kernel.Gen Cert.Kernel.Topo
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : Vals F)

set_option maxHeartbeats 1000000 in
theorem part12_run (c : Dev nD) (κw2 : ℕ) (W : Waits sig Unit) (v2 v6 v91 v348 c0_i32_257 : BitVec 32)
    (fs : Buf (Elt F) ((stgM2_0 : Memref sig .tc .vmem S1024x384 .bf16).view.loc (c : Thread nD τ)))
    (f3 : Buf (Elt F) ((Memref.whole cc0_scratch0 : Memref sig .tc .vmem S2048x2048 .f32).view.loc (c : Thread nD τ))) :
    iprop(cellInv ER (sched V) κw2 (cell c (.rsR 2 0))
        ∗ levAts L lv
        ∗ cred (tallyAt (cell c (.rsR 2 0)) () (amt (.rsR 2 0)))
        ∗ atPos ER (cell c (.rsR 2 0)) 0 ∅ 0
        ∗ owes (c : Thread nD τ) (Owe c 11) W
        ∗ heldW c (stgM2_0 : Memref sig .tc .vmem S1024x384 .bf16) fs
        ∗ heldW c (Memref.whole cc0_scratch0 : Memref sig .tc .vmem S2048x2048 .f32) f3)
      ⊢ wp frame (wpE (defs₀ (F := F)) 𝒱₀ c none) Set.univ
          (k0_part12 (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23 c v2 v6 v91 v348 c0_i32_257)
          (fun r => iprop(∃ fr : Buf (Elt F) ((commM2_0 : Memref sig .tc .vmem S1024x384 .bf16).view.loc (c : Thread nD τ)), ⌜r = ⟨Scalar.addi v91 (Scalar.muli v6 512#32), Scalar.xori v2 1#32⟩⌝
            ∗ ⌜V.rs2_0 (nbr 2 c) ((commM2_0 : Memref sig .tc .vmem S1024x384 .bf16).view.read (Elt F) fr)⌝
            ∗ owes (c : Thread nD τ) (Owe c 11) (insert ((CK.rsR 2 0).sem, ()) W)
            ∗ atPos ER (cell c (.rsR 2 0)) 1 ∅ 0
            ∗ heldW c (stgM2_0 : Memref sig .tc .vmem S1024x384 .bf16) (View.write (Elt F) ((Memref.whole cc0_scratch9 : Memref sig .tc .vmem S1024x384 .bf16).access (Rect.unit (s := S1024x384) ![0, 0] S512x384.size inb_S1024x384_S512x384_0_0)) fs (k0_pay25 ((Memref.whole cc0_scratch0 : Memref sig .tc .vmem S2048x2048 .f32).view.readCov [⟨Rect.unit (s := S2048x2048) (k0_off21 c) S512x384.size (k0_off21_inb c), k0_pay24 (View.readAt (Elt F) (Memref.whole cc0_scratch0 : Memref sig .tc .vmem S2048x2048 .f32).view (Rect.unit (s := S2048x2048) (k0_off21 c) S512x384.size (k0_off21_inb c)).toLoadRect f3) (View.readAt (Elt F) (Memref.whole cc0_scratch3 : Memref sig .tc .vmem S1792x384 .bf16).view (Rect.unit (s := S1792x384) (k0_off22 c) S512x384.size (k0_off22_inb c)).toLoadRect fr)⟩] (Rect.unit (s := S2048x2048) (k0_off21 c) S512x384.size (k0_off21_inb c)).toLoadRect)) Finset.univ)
            ∗ heldW c (commM2_0 : Memref sig .tc .vmem S1024x384 .bf16) fr
            ∗ heldW c (Memref.whole cc0_scratch0 : Memref sig .tc .vmem S2048x2048 .f32) ((Memref.whole cc0_scratch0 : Memref sig .tc .vmem S2048x2048 .f32).view.writes (Elt F) f3
              [⟨Rect.unit (s := S2048x2048) (k0_off21 c) S512x384.size (k0_off21_inb c), k0_pay24 (View.readAt (Elt F) (Memref.whole cc0_scratch0 : Memref sig .tc .vmem S2048x2048 .f32).view (Rect.unit (s := S2048x2048) (k0_off21 c) S512x384.size (k0_off21_inb c)).toLoadRect f3) (View.readAt (Elt F) (Memref.whole cc0_scratch3 : Memref sig .tc .vmem S1792x384 .bf16).view (Rect.unit (s := S1792x384) (k0_off22 c) S512x384.size (k0_off22_inb c)).toLoadRect fr)⟩]))) := by
  simp only [k0_part12_eq_skeleton]; unfold k0_part12_skel
  simp only [Prog.lift, Prog.bind_op, Prog.bind_ret, Prog.pure_eq_ret]
  iintro ⟨#HIw2, #Hlev, Hc2, Hat2, HO, Hstg, H3⟩
  unfold heldW
  have := cx_le c; have := cy_le c; have := cz_le c
  iapply (wp_wait_xfer V c (.rsR 2 0) (by decide) 11 (rsR_sem_eq 2 0 _) rfl (w := TpuEff.waitDma2 _ (stgM2_0 : Memref sig .tc .vmem S1024x384 .bf16) (commM2_0 : Memref sig .tc .vmem S1024x384 .bf16) _ _) (wpE_waitDma2_eq 𝒱₀ (c : Thread nD τ) none Set.univ)
      (mayWait_rsR c 2 0 11 (by decide)) κw2 (W)) $$ [Hc2 HO Hat2]
  · isplitr; · iexact HIw2
    isplitl [Hc2]; · iexact Hc2
    isplitl [HO]; · iexact HO
    isplitr; · iexact Hlev
    iexact Hat2
  iintro ⟨HO, Hat2, Hrcvp⟩
  ihave Hrcv' := (Entails.of_eq (show pay V c (.rsR 2 0) 0 = ptsIs c commM2_0 (V.rs2_0 (nbr 2 c)) from rfl)) $$ Hrcvp
  unfold ptsIs
  icases Hrcv' with ⟨%fr, Hr, %hVr⟩
  sl_exec
  sl_step
  iexists fr
  isplitr; · ipureintro; rfl
  isplitr; · ipureintro; exact hVr
  isplitl [HO]; · iexact HO
  isplitl [Hat2]; · iexact Hat2
  isplitl [Hstg]; · iexact Hstg
  isplitl [Hr]; · iexact Hr
  iexact H3

end Cert.Kernel.Proto

end
-- ==== Proof.Body13Bits.lean ====
/-
The thirteenth stretch of a device's kernel body, the second reduce-scatter step of group 2: the first 512 rows of its
staging buffer go to the neighbour across axis 0; the landed rows that belong to the kept rows are added to those;
and the first reduce-scatter exchange of group 3 is awaited.
-/
import proofs.«900882_g7700000000000883_dist_matmul_gelu_kshard_i_m2048_n2048_k1024_v7x_i8_f32_1_alg».proof.Proof.RulesBits
import proofs.«900882_g7700000000000883_dist_matmul_gelu_kshard_i_m2048_n2048_k1024_v7x_i8_f32_1_alg».proof.Proof.TopoBitsTab
import proofs.«900882_g7700000000000883_dist_matmul_gelu_kshard_i_m2048_n2048_k1024_v7x_i8_f32_1_alg».proof.Proof.PiecesTabBits
import proofs.«900882_g7700000000000883_dist_matmul_gelu_kshard_i_m2048_n2048_k1024_v7x_i8_f32_1_alg».proof.Proof.TopoClosedBits
import proofs.«900882_g7700000000000883_dist_matmul_gelu_kshard_i_m2048_n2048_k1024_v7x_i8_f32_1_alg».proof.Proof.Gen.Kernel.Skeleton
import Idealize.ShloMosaic.Lib.Pipeline.Value

set_option maxRecDepth 16384

noncomputable section

namespace Cert.Kernel.Proto

open Cert.Kernel Cert.Kernel.Gen Cert.Kernel.Topo
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : Vals F)

set_option maxHeartbeats 1000000 in
theorem part13_run (c : Dev nD) (κs κr κw1 κw2 : ℕ) (W : Waits sig Unit) (v8 v91 v106 v115 v358 : BitVec 32)
    (fs : Buf (Elt F) ((stgM2_0 : Memref sig .tc .vmem S1024x384 .bf16).view.loc (c : Thread nD τ)))
    (fr : Buf (Elt F) ((commM2_0 : Memref sig .tc .vmem S1024x384 .bf16).view.loc (c : Thread nD τ)))
    (f3 : Buf (Elt F) ((Memref.whole cc0_scratch0 : Memref sig .tc .vmem S2048x2048 .f32).view.loc (c : Thread nD τ)))
    (hV : V.rs2_1 c ((stgM2_1 : Memref sig .tc .vmem S512x384 .bf16).view.read (Elt F) fs)) :
    iprop(cellInv ER (sched V) κs (cell c (.rsS 2 1))
        ∗ cellInv ER (sched V) κr (cell (nbr 0 c) (.rsR 2 1))
        ∗ reached ER (cell c (.rsS 2 1)) 0
        ∗ reached ER (cell (nbr 0 c) (.rsR 2 1)) 0
        ∗ dutyTok ER (cell c (.rsS 2 1)) 0 (0 : Fin 3)
        ∗ dutyTok ER (cell (nbr 0 c) (.rsR 2 1)) 0 (0 : Fin 3)
        ∗ ptsAny (F := F) (nbr 0 c) commM2_1
        ∗ owes (c : Thread nD τ) (Owe c 11) W
        ∗ heldW c (stgM2_0 : Memref sig .tc .vmem S1024x384 .bf16) fs
        ∗ heldW c (commM2_0 : Memref sig .tc .vmem S1024x384 .bf16) fr
        ∗ heldW c (Memref.whole cc0_scratch0 : Memref sig .tc .vmem S2048x2048 .f32) f3
        ∗ cellInv ER (sched V) κw1 (cell c (.rsS 3 0))
        ∗ cellInv ER (sched V) κw2 (cell c (.rsR 3 0))
        ∗ levAts L lv
        ∗ cred (tallyAt (cell c (.rsS 3 0)) () (amt (.rsR 3 0)))
        ∗ cred (tallyAt (cell c (.rsR 3 0)) () (amt (.rsR 3 0)))
        ∗ atPos ER (cell c (.rsS 3 0)) 0 ∅ 0
        ∗ atPos ER (cell c (.rsR 3 0)) 0 ∅ 0)
      ⊢ wp frame (wpE (defs₀ (F := F)) 𝒱₀ c none) Set.univ
          (k0_part13 (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23 c v8 v91 v106 v115 v358)
          (fun r => iprop(∃ fr3 : Buf (Elt F) ((commM3_0 : Memref sig .tc .vmem S1024x384 .bf16).view.loc (c : Thread nD τ)), ⌜r = ⟨Scalar.addi v115 (Scalar.muli (Scalar.subi 1#32 v8) 512#32), 512#32⟩⌝
            ∗ ⌜V.rs3_0 (nbr 0 c) ((commM3_0 : Memref sig .tc .vmem S1024x384 .bf16).view.read (Elt F) fr3)⌝
            ∗ cred (tallyAt (cell c (.rsS 2 1)) () (amt (.rsR 2 1)))
            ∗ owes (c : Thread nD τ) (Owe c 12) (insert ((CK.rsR 3 0).sem, ()) (insert ((CK.rsS 3 0).sem, ()) W))
            ∗ ((stgM2_0 : Memref sig .tc .vmem S1024x384 .bf16).view.loc (c : Thread nD τ) ↦[(stgM2_0 : Memref sig .tc .vmem S1024x384 .bf16).view.set \ (stgM2_1 : Memref sig .tc .vmem S512x384 .bf16).view.set]{fullShare} fs)
            ∗ heldW c (commM2_0 : Memref sig .tc .vmem S1024x384 .bf16) fr
            ∗ heldW c (Memref.whole cc0_scratch0 : Memref sig .tc .vmem S2048x2048 .f32) ((Memref.whole cc0_scratch0 : Memref sig .tc .vmem S2048x2048 .f32).view.writes (Elt F) f3
              [⟨Rect.unit (s := S2048x2048) (k0_off23 c) S512x384.size (k0_off23_inb c), k0_pay26 (View.readAt (Elt F) (Memref.whole cc0_scratch0 : Memref sig .tc .vmem S2048x2048 .f32).view (Rect.unit (s := S2048x2048) (k0_off23 c) S512x384.size (k0_off23_inb c)).toLoadRect f3) (View.readAt (Elt F) (Memref.whole cc0_scratch3 : Memref sig .tc .vmem S1792x384 .bf16).view (Rect.unit (s := S1792x384) (k0_off24 c) S512x384.size (k0_off24_inb c)).toLoadRect fr)⟩])
            ∗ atPos ER (cell c (.rsS 3 0)) 1 ∅ 0
            ∗ atPos ER (cell c (.rsR 3 0)) 1 ∅ 0
            ∗ ptsAny (F := F) c stgM3_0
            ∗ heldW c (commM3_0 : Memref sig .tc .vmem S1024x384 .bf16) fr3)) := by
  simp only [k0_part13_eq_skeleton]; unfold k0_part13_skel
  simp only [Prog.lift, Prog.bind_op, Prog.bind_ret, Prog.pure_eq_ret]
  iintro ⟨#HIs, #HIr, #Hrs, #Hrr, Hts, Htr, Hdst, HO, Hstg, Hland, H3, #HIw1, #HIw2, #Hlev, Hc1, Hc2, Hat1, Hat2⟩
  unfold heldW
  unfold ptsAny
  icases Hdst with ⟨%fd, Hdst⟩
  have := cx_le c; have := cy_le c; have := cz_le c
  ihave Hs_ := (Entails.of_eq (pts_set_eq (F := F) (ℓ := (stgM2_0 : Memref sig .tc .vmem S1024x384 .bf16).view.loc (c : Thread nD τ))
      (S' := (stgM2_1 : Memref sig .tc .vmem S512x384 .bf16).view.set ∪ ((stgM2_0 : Memref sig .tc .vmem S1024x384 .bf16).view.set \ (stgM2_1 : Memref sig .tc .vmem S512x384 .bf16).view.set)) (Finset.union_sdiff_of_subset stg_sub1_2).symm)) $$ Hstg
  ihave Hs2_ := (pts_union (F := F) Finset.disjoint_sdiff).1 $$ Hs_
  icases Hs2_ with ⟨Hsrc, Hrem⟩
  iapply (wp_send_to V c ⟨k0_dev12 c, k0_dev12_lt c⟩ 0 (dev12_eq c) (.rsS 2 1) (.rsR 2 1) (by decide) (by decide) 11 (by decide) (paid_rs c 2 1) rfl
      (src := stgM2_1) (dst := commM2_1) (rsS_sem_eq 2 1 _) (rsR_sem_eq 2 1 _) rfl fd κs κr W
      (ptsAny_intro c stgM2_1 _)
      (ptsIs_intro (nbr 0 c) commM2_1 _ _ (by rw [View.read_write_univ, nbr_nbr]; exact hV))) $$ [Hsrc Hdst HO Hts Htr]
  · isplitr; · iexact HIs
    isplitr; · iexact HIr
    isplitl [Hsrc]; · iexact Hsrc
    isplitl [Hdst]; · iexact Hdst
    isplitl [HO]; · iexact HO
    isplitl [Hts]; · iexact Hts
    isplitr; · iexact Hrs
    isplitl [Htr]; · iexact Htr
    iexact Hrr
  iintro ⟨Hcs, HO⟩
  sl_exec
  iapply (wp_wait_xfer V c (.rsS 3 0) (by decide) 12 (rsS_sem_eq 3 0 _) rfl (w := TpuEff.waitDma2 _ (commM3_0 : Memref sig .tc .vmem S1024x384 .bf16) (stgM3_0 : Memref sig .tc .vmem S1024x384 .bf16) _ _) (wpE_waitDma2_eq 𝒱₀ (c : Thread nD τ) none Set.univ)
      (mayWait_own c (.rsS 3 0) (lv_cell c (.rsS 3 0)) 12) κw1 (W)) $$ [Hc1 HO Hat1]
  · isplitr; · iexact HIw1
    isplitl [Hc1]; · iexact Hc1
    isplitl [HO]; · iexact HO
    isplitr; · iexact Hlev
    iexact Hat1
  iintro ⟨HO, Hat1, Hstgp⟩
  iapply (wp_wait_xfer V c (.rsR 3 0) (by decide) 12 (rsR_sem_eq 3 0 _) rfl (w := TpuEff.waitDma2 _ (stgM3_0 : Memref sig .tc .vmem S1024x384 .bf16) (commM3_0 : Memref sig .tc .vmem S1024x384 .bf16) _ _) (wpE_waitDma2_eq 𝒱₀ (c : Thread nD τ) none Set.univ)
      (mayWait_rsR c 3 0 12 (by decide)) κw2 (insert ((CK.rsS 3 0).sem, ()) W)) $$ [Hc2 HO Hat2]
  · isplitr; · iexact HIw2
    isplitl [Hc2]; · iexact Hc2
    isplitl [HO]; · iexact HO
    isplitr; · iexact Hlev
    iexact Hat2
  iintro ⟨HO, Hat2, Hrcvp⟩
  ihave Hstg3 := (Entails.of_eq (show pay V c (.rsS 3 0) 0 = ptsAny c stgM3_0 from rfl)) $$ Hstgp
  ihave Hrcv' := (Entails.of_eq (show pay V c (.rsR 3 0) 0 = ptsIs c commM3_0 (V.rs3_0 (nbr 0 c)) from rfl)) $$ Hrcvp
  unfold ptsIs
  icases Hrcv' with ⟨%fr3, Hr3, %hVr⟩
  unfold ptsAny
  sl_step
  iexists fr3
  isplitr; · ipureintro; rfl
  isplitr; · ipureintro; exact hVr
  isplitl [Hcs]; · iexact Hcs
  isplitl [HO]; · iexact HO
  isplitl [Hrem]; · iexact Hrem
  isplitl [Hland]; · iexact Hland
  isplitl [H3]; · iexact H3
  isplitl [Hat1]; · iexact Hat1
  isplitl [Hat2]; · iexact Hat2
  isplitl [Hstg3]; · iexact Hstg3
  iexact Hr3

end Cert.Kernel.Proto

end
-- ==== Proof.Body14Bits.lean ====
/-
Stretch 14 of a device's kernel body: the sum of the sent-on 512 rows of group 3's first landing into the accumulator,
their rounding into the first 512 rows of group 3's staging buffer, group 3's second reduce-scatter send (those rows to the
neighbour across axis 1), and the loads for the sum of the kept 512 rows.
-/
import proofs.«900882_g7700000000000883_dist_matmul_gelu_kshard_i_m2048_n2048_k1024_v7x_i8_f32_1_alg».proof.Proof.RulesBits
import proofs.«900882_g7700000000000883_dist_matmul_gelu_kshard_i_m2048_n2048_k1024_v7x_i8_f32_1_alg».proof.Proof.TopoBitsTab
import proofs.«900882_g7700000000000883_dist_matmul_gelu_kshard_i_m2048_n2048_k1024_v7x_i8_f32_1_alg».proof.Proof.PiecesTabBits
import proofs.«900882_g7700000000000883_dist_matmul_gelu_kshard_i_m2048_n2048_k1024_v7x_i8_f32_1_alg».proof.Proof.Gen.Kernel.Skeleton
import proofs.«900882_g7700000000000883_dist_matmul_gelu_kshard_i_m2048_n2048_k1024_v7x_i8_f32_1_alg».proof.Proof.TopoClosedBits
import Idealize.ShloMosaic.Lib.Pipeline.Value

set_option maxRecDepth 16384

noncomputable section

namespace Cert.Kernel.Proto

open Cert.Kernel Cert.Kernel.Gen Cert.Kernel.Topo
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : Vals F)

set_option maxHeartbeats 2000000 in
theorem part14_run (c : Dev nD) (κs κr : ℕ) (W : Waits sig Unit) (v2 v8 v115 v410 c512_i32_308 : BitVec 32)
    (f3 : Buf (Elt F) ((Memref.whole cc0_scratch0 : Memref sig .tc .vmem S2048x2048 .f32).view.loc (c : Thread nD τ)))
    (f13 : Buf (Elt F) ((stgM3_0 : Memref sig .tc .vmem S1024x384 .bf16).view.loc (c : Thread nD τ)))
    (fl : Buf (Elt F) ((commM3_0 : Memref sig .tc .vmem S1024x384 .bf16).view.loc (c : Thread nD τ)))
    (hV : V.rs3_1 c ((stgM3_1 : Memref sig .tc .vmem S512x384 .bf16).view.read (Elt F) (View.write (Elt F) ((Memref.whole cc0_scratch10 : Memref sig .tc .vmem S1024x384 .bf16).access (Rect.unit (s := S1024x384) ![0, 0] ![512, 384] inb_S1024x384_S512x384_0_0)) f13 (k0_pay28 ((Memref.whole cc0_scratch0 : Memref sig .tc .vmem S2048x2048 .f32).view.readCov [⟨Rect.unit (s := S2048x2048) (k0_off25 c) ![512, 384] (k0_off25_inb c), k0_pay27 (View.readAt (Elt F) (Memref.whole cc0_scratch0 : Memref sig .tc .vmem S2048x2048 .f32).view (Rect.unit (s := S2048x2048) (k0_off25 c) ![512, 384] (k0_off25_inb c)).toLoadRect f3) (View.readAt (Elt F) (Memref.whole cc0_scratch4 : Memref sig .tc .vmem S1792x384 .bf16).view (Rect.unit (s := S1792x384) (k0_off14 c) ![512, 384] (k0_off14_inb c)).toLoadRect fl)⟩] (Rect.unit (s := S2048x2048) (k0_off25 c) ![512, 384] (k0_off25_inb c)).toLoadRect)) Finset.univ))) :
    iprop(cellInv ER (sched V) κs (cell c (.rsS 3 1)) ∗ cellInv ER (sched V) κr (cell (nbr 1 c) (.rsR 3 1))
        ∗ reached ER (cell c (.rsS 3 1)) 0 ∗ reached ER (cell (nbr 1 c) (.rsR 3 1)) 0
        ∗ dutyTok ER (cell c (.rsS 3 1)) 0 (0 : Fin 3) ∗ dutyTok ER (cell (nbr 1 c) (.rsR 3 1)) 0 (0 : Fin 3)
        ∗ ptsAny (F := F) (nbr 1 c) commM3_1
        ∗ owes (c : Thread nD τ) (Owe c 12) W
        ∗ heldW c (stgM3_0 : Memref sig .tc .vmem S1024x384 .bf16) f13
        ∗ heldW c (Memref.whole cc0_scratch0 : Memref sig .tc .vmem S2048x2048 .f32) f3
        ∗ heldW c (commM3_0 : Memref sig .tc .vmem S1024x384 .bf16) fl)
      ⊢ wp frame (wpE (defs₀ (F := F)) 𝒱₀ c none) Set.univ
          (k0_part14 (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23 c v2 v8 v115 v410 c512_i32_308)
          (fun r => iprop(⌜r = ⟨Scalar.addi v115 (Scalar.muli v8 c512_i32_308), ⟨Scalar.xori v2 3#32, ⟨View.readAt (Elt F) (Memref.whole cc0_scratch0 : Memref sig .tc .vmem S2048x2048 .f32).view (Rect.unit (s := S2048x2048) (k0_off26 c) ![512, 384] (k0_off26_inb c)).toLoadRect ((Memref.whole cc0_scratch0 : Memref sig .tc .vmem S2048x2048 .f32).view.writes (Elt F) f3 [⟨Rect.unit (s := S2048x2048) (k0_off25 c) ![512, 384] (k0_off25_inb c), k0_pay27 (View.readAt (Elt F) (Memref.whole cc0_scratch0 : Memref sig .tc .vmem S2048x2048 .f32).view (Rect.unit (s := S2048x2048) (k0_off25 c) ![512, 384] (k0_off25_inb c)).toLoadRect f3) (View.readAt (Elt F) (Memref.whole cc0_scratch4 : Memref sig .tc .vmem S1792x384 .bf16).view (Rect.unit (s := S1792x384) (k0_off14 c) ![512, 384] (k0_off14_inb c)).toLoadRect fl)⟩]), k0_pay29 (View.readAt (Elt F) (Memref.whole cc0_scratch4 : Memref sig .tc .vmem S1792x384 .bf16).view (Rect.unit (s := S1792x384) (k0_off16 c) ![512, 384] (k0_off16_inb c)).toLoadRect fl)⟩⟩⟩⌝ ∗ cred (tallyAt (cell c (.rsS 3 1)) () (amt (.rsR 3 1)))
            ∗ owes (c : Thread nD τ) (Owe c 13) W
            ∗ heldW c (Memref.whole cc0_scratch0 : Memref sig .tc .vmem S2048x2048 .f32) ((Memref.whole cc0_scratch0 : Memref sig .tc .vmem S2048x2048 .f32).view.writes (Elt F) f3 [⟨Rect.unit (s := S2048x2048) (k0_off25 c) ![512, 384] (k0_off25_inb c), k0_pay27 (View.readAt (Elt F) (Memref.whole cc0_scratch0 : Memref sig .tc .vmem S2048x2048 .f32).view (Rect.unit (s := S2048x2048) (k0_off25 c) ![512, 384] (k0_off25_inb c)).toLoadRect f3) (View.readAt (Elt F) (Memref.whole cc0_scratch4 : Memref sig .tc .vmem S1792x384 .bf16).view (Rect.unit (s := S1792x384) (k0_off14 c) ![512, 384] (k0_off14_inb c)).toLoadRect fl)⟩])
            ∗ heldW c (commM3_0 : Memref sig .tc .vmem S1024x384 .bf16) fl
            ∗ ((stgM3_0 : Memref sig .tc .vmem S1024x384 .bf16).view.loc (c : Thread nD τ) ↦[(stgM3_0 : Memref sig .tc .vmem S1024x384 .bf16).view.set \ (stgM3_1 : Memref sig .tc .vmem S512x384 .bf16).view.set]{fullShare} (View.write (Elt F) ((Memref.whole cc0_scratch10 : Memref sig .tc .vmem S1024x384 .bf16).access (Rect.unit (s := S1024x384) ![0, 0] ![512, 384] inb_S1024x384_S512x384_0_0)) f13 (k0_pay28 ((Memref.whole cc0_scratch0 : Memref sig .tc .vmem S2048x2048 .f32).view.readCov [⟨Rect.unit (s := S2048x2048) (k0_off25 c) ![512, 384] (k0_off25_inb c), k0_pay27 (View.readAt (Elt F) (Memref.whole cc0_scratch0 : Memref sig .tc .vmem S2048x2048 .f32).view (Rect.unit (s := S2048x2048) (k0_off25 c) ![512, 384] (k0_off25_inb c)).toLoadRect f3) (View.readAt (Elt F) (Memref.whole cc0_scratch4 : Memref sig .tc .vmem S1792x384 .bf16).view (Rect.unit (s := S1792x384) (k0_off14 c) ![512, 384] (k0_off14_inb c)).toLoadRect fl)⟩] (Rect.unit (s := S2048x2048) (k0_off25 c) ![512, 384] (k0_off25_inb c)).toLoadRect)) Finset.univ)))) := by
  simp only [k0_part14_eq_skeleton]; unfold k0_part14_skel
  simp only [Prog.lift, Prog.bind_op, Prog.bind_ret, Prog.pure_eq_ret]
  iintro ⟨#HIs, #HIr, #Hrs, #Hrr, Hts, Htr, Hdst, HO, Hstg, Hacc, Hland⟩
  unfold heldW
  unfold ptsAny
  icases Hdst with ⟨%fd, Hdst⟩
  have hinc1 : ((Memref.whole cc0_scratch4 : Memref sig .tc .vmem S1792x384 .bf16).access (Rect.unit (s := S1792x384) (k0_off14 c) ![512, 384] (k0_off14_inb c))).set
      ⊆ (commM3_0 : Memref sig .tc .vmem S1024x384 .bf16).view.set := by
    rw [View.set_slice_whole, View.set_slice_whole]
    refine unit_subset ?_
    piece_arith c [off14_eq]
  have hinc2 : ((Memref.whole cc0_scratch4 : Memref sig .tc .vmem S1792x384 .bf16).access (Rect.unit (s := S1792x384) (k0_off16 c) ![512, 384] (k0_off16_inb c))).set
      ⊆ (commM3_0 : Memref sig .tc .vmem S1024x384 .bf16).view.set := by
    rw [View.set_slice_whole, View.set_slice_whole]
    refine unit_subset ?_
    piece_arith c [off16_eq]
  have hinc3 : ((Memref.whole cc0_scratch10 : Memref sig .tc .vmem S1024x384 .bf16).access (Rect.unit (s := S1024x384) ![0, 0] ![512, 384] inb_S1024x384_S512x384_0_0)).set
      ⊆ (stgM3_0 : Memref sig .tc .vmem S1024x384 .bf16).view.set := by
    rw [View.set_slice_whole, View.set_slice_whole]
    exact unit_subset (by decide)
  have hinc4 : ((Memref.whole cc0_scratch10 : Memref sig .tc .vmem S1024x384 .bf16).access (Rect.unit (s := S1024x384) ![0, 0] ![512, 384] inb_S1024x384_S512x384_0_0)).setOn Finset.univ
      ⊆ (stgM3_0 : Memref sig .tc .vmem S1024x384 .bf16).view.set := by
    rw [View.setOn_univ]
    rw [View.set_slice_whole, View.set_slice_whole]
    exact unit_subset (by decide)
  sl_exec
  -- the staging buffer is cut into the 512 rows sent now and the rest
  ihave Hs := (Entails.of_eq (pts_set_eq (F := F) (ℓ := (stgM3_0 : Memref sig .tc .vmem S1024x384 .bf16).view.loc (c : Thread nD τ))
      (S' := (stgM3_1 : Memref sig .tc .vmem S512x384 .bf16).view.set ∪ ((stgM3_0 : Memref sig .tc .vmem S1024x384 .bf16).view.set \ (stgM3_1 : Memref sig .tc .vmem S512x384 .bf16).view.set)) (Finset.union_sdiff_of_subset stg_sub1_3).symm)) $$ Hstg
  ihave Hs2 := (pts_union (F := F) Finset.disjoint_sdiff).1 $$ Hs
  icases Hs2 with ⟨Hsrc, Hrem⟩
  iapply (wp_send_to V c ⟨k0_dev13 c, k0_dev13_lt c⟩ 1 (dev13_eq c) (.rsS 3 1) (.rsR 3 1) (by decide) (by decide) 12 (by decide) (paid_rs c 3 1) rfl
      (src := stgM3_1) (dst := commM3_1) (rsS_sem_eq 3 1 _) (rsR_sem_eq 3 1 _) rfl fd κs κr W
      (ptsAny_intro c stgM3_1 _)
      (ptsIs_intro (nbr 1 c) commM3_1 _ _ (by rw [View.read_write_univ, nbr_nbr]; exact hV))) $$ [Hsrc Hdst HO Hts Htr]
  · isplitr; · iexact HIs
    isplitr; · iexact HIr
    isplitl [Hsrc]; · iexact Hsrc
    isplitl [Hdst]; · iexact Hdst
    isplitl [HO]; · iexact HO
    isplitl [Hts]; · iexact Hts
    isplitr; · iexact Hrs
    isplitl [Htr]; · iexact Htr
    iexact Hrr
  iintro ⟨Hcs, HO⟩
  sl_exec
  sl_step
  isplitr; · ipureintro; rfl
  isplitl [Hcs]; · iexact Hcs
  isplitl [HO]; · iexact HO
  isplitl [Hacc]; · iexact Hacc
  isplitl [Hland]; · iexact Hland
  iexact Hrem

end Cert.Kernel.Proto

end
-- ==== Proof.Body15Bits.lean ====
/-
Stretch 15 of a device's kernel body: the store of the sum of the kept 512 rows of group 3's first landing into the
accumulator, the two waits of group 4's first exchange, and the loads for the sum of the sent-on 512 rows of its landing.
-/
import proofs.«900882_g7700000000000883_dist_matmul_gelu_kshard_i_m2048_n2048_k1024_v7x_i8_f32_1_alg».proof.Proof.RulesBits
import proofs.«900882_g7700000000000883_dist_matmul_gelu_kshard_i_m2048_n2048_k1024_v7x_i8_f32_1_alg».proof.Proof.TopoBitsTab
import proofs.«900882_g7700000000000883_dist_matmul_gelu_kshard_i_m2048_n2048_k1024_v7x_i8_f32_1_alg».proof.Proof.PiecesTabBits
import proofs.«900882_g7700000000000883_dist_matmul_gelu_kshard_i_m2048_n2048_k1024_v7x_i8_f32_1_alg».proof.Proof.Gen.Kernel.Skeleton
import proofs.«900882_g7700000000000883_dist_matmul_gelu_kshard_i_m2048_n2048_k1024_v7x_i8_f32_1_alg».proof.Proof.TopoClosedBits
import Idealize.ShloMosaic.Lib.Pipeline.Value

set_option maxRecDepth 16384

noncomputable section

namespace Cert.Kernel.Proto

open Cert.Kernel Cert.Kernel.Gen Cert.Kernel.Topo
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : Vals F)

set_option maxHeartbeats 2000000 in
theorem part15_run (c : Dev nD) (κw κv : ℕ) (W : Waits sig Unit) (v9 v130 v139 v412 : BitVec 32) (v441 : Vec F S512x384 .f32) (v446 : FVec F S512x384 .f32)
    (f3 : Buf (Elt F) ((Memref.whole cc0_scratch0 : Memref sig .tc .vmem S2048x2048 .f32).view.loc (c : Thread nD τ))) :
    iprop(owes (c : Thread nD τ) (Owe c 13) W ∗ levAts L lv
        ∗ heldW c (Memref.whole cc0_scratch0 : Memref sig .tc .vmem S2048x2048 .f32) f3
        ∗ cellInv ER (sched V) κw (cell c (.rsS 4 0)) ∗ cred (tallyAt (cell c (.rsS 4 0)) () (amt (.rsS 4 0))) ∗ atPos ER (cell c (.rsS 4 0)) 0 ∅ 0
        ∗ cellInv ER (sched V) κv (cell c (.rsR 4 0)) ∗ cred (tallyAt (cell c (.rsR 4 0)) () (amt (.rsR 4 0))) ∗ atPos ER (cell c (.rsR 4 0)) 0 ∅ 0)
      ⊢ wp frame (wpE (defs₀ (F := F)) 𝒱₀ c none) Set.univ
          (k0_part15 (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23 c v9 v130 v139 v412 v441 v446)
          (fun r => iprop(∃ fl : Buf (Elt F) ((commM4_0 : Memref sig .tc .vmem S1024x256 .bf16).view.loc (c : Thread nD τ)), ⌜r = ⟨Scalar.addi v139 (Scalar.muli (Scalar.subi (1#32) v9) 512#32), ⟨Scalar.addi v139 (Scalar.muli v9 512#32), ⟨k0_pay31 (View.readAt (Elt F) (Memref.whole cc0_scratch0 : Memref sig .tc .vmem S2048x2048 .f32).view (Rect.unit (s := S2048x2048) (k0_off27 c) ![512, 256] (k0_off27_inb c)).toLoadRect f3) (View.readAt (Elt F) (Memref.whole cc0_scratch5 : Memref sig .tc .vmem S1792x256 .bf16).view (Rect.unit (s := S1792x256) (k0_off28 c) ![512, 256] (k0_off28_inb c)).toLoadRect fl), View.readAt (Elt F) (Memref.whole cc0_scratch0 : Memref sig .tc .vmem S2048x2048 .f32).view (Rect.unit (s := S2048x2048) (k0_off27 c) ![512, 256] (k0_off27_inb c)).toLoadRect f3⟩⟩⟩⌝
            ∗ ⌜V.rs4_0 (nbr 1 c) ((commM4_0 : Memref sig .tc .vmem S1024x256 .bf16).view.read (Elt F) fl)⌝
            ∗ heldW c (commM4_0 : Memref sig .tc .vmem S1024x256 .bf16) fl
            ∗ owes (c : Thread nD τ) (Owe c 13) (insert ((CK.rsR 4 0).sem, ()) (insert ((CK.rsS 4 0).sem, ()) W))
            ∗ atPos ER (cell c (.rsS 4 0)) 1 ∅ 0 ∗ atPos ER (cell c (.rsR 4 0)) 1 ∅ 0
            ∗ ptsAny (F := F) c stgM4_0
            ∗ heldW c (Memref.whole cc0_scratch0 : Memref sig .tc .vmem S2048x2048 .f32) ((Memref.whole cc0_scratch0 : Memref sig .tc .vmem S2048x2048 .f32).view.writes (Elt F) f3 [⟨Rect.unit (s := S2048x2048) (k0_off26 c) ![512, 384] (k0_off26_inb c), k0_pay30 v441 v446⟩]))) := by
  simp only [k0_part15_eq_skeleton]; unfold k0_part15_skel
  simp only [Prog.lift, Prog.bind_op, Prog.bind_ret, Prog.pure_eq_ret]
  iintro ⟨HO, #Hlev, Hacc, #HIw, Hcw, Hatw, #HIv, Hcv, Hatv⟩
  unfold heldW
  sl_exec
  iapply (wp_wait_xfer V c (.rsS 4 0) (by decide) 13 (rsS_sem_eq 4 0 _)
      (show (stgM4_0 : Memref sig .tc .vmem S1024x256 .bf16).view.dmaCredit = amt (.rsS 4 0) from rfl)
      (wpE_waitDma2_eq 𝒱₀ (c : Thread nD τ) none Set.univ)
      (mayWait_own c (.rsS 4 0) (lv_cell c _) 13) κw W) $$ [Hcw HO Hatw]
  · isplitr; · iexact HIw
    isplitl [Hcw]; · iexact Hcw
    isplitl [HO]; · iexact HO
    isplitr; · iexact Hlev
    iexact Hatw
  iintro ⟨HO, Hatw, Hpay1⟩
  iapply (wp_wait_xfer V c (.rsR 4 0) (by decide) 13 (rsR_sem_eq 4 0 _)
      (show (commM4_0 : Memref sig .tc .vmem S1024x256 .bf16).view.dmaCredit = amt (.rsR 4 0) from rfl)
      (wpE_waitDma2_eq 𝒱₀ (c : Thread nD τ) none Set.univ)
      (mayWait_rsR c 4 0 13 (by decide)) κv (insert ((CK.rsS 4 0).sem, ()) W)) $$ [Hcv HO Hatv]
  · isplitr; · iexact HIv
    isplitl [Hcv]; · iexact Hcv
    isplitl [HO]; · iexact HO
    isplitr; · iexact Hlev
    iexact Hatv
  iintro ⟨HO, Hatv, Hpay2⟩
  ihave Hp1 := (Entails.of_eq (show pay V c (CK.rsS 4 0) 0 = ptsAny (F := F) c stgM4_0 from rfl)) $$ Hpay1
  ihave Hp2 := (Entails.of_eq (show pay V c (CK.rsR 4 0) 0 = ptsIs c commM4_0 (V.rs4_0 (nbr 1 c)) from rfl)) $$ Hpay2
  unfold ptsIs
  icases Hp2 with ⟨%fl, Hland, %hX⟩
  have hinc1 : ((Memref.whole cc0_scratch5 : Memref sig .tc .vmem S1792x256 .bf16).access (Rect.unit (s := S1792x256) (k0_off28 c) ![512, 256] (k0_off28_inb c))).set
      ⊆ (commM4_0 : Memref sig .tc .vmem S1024x256 .bf16).view.set := by
    rw [View.set_slice_whole, View.set_slice_whole]
    refine unit_subset ?_
    piece_arith c [off28_eq]
  sl_exec
  sl_step
  iexists fl
  isplitr; · ipureintro; rfl
  isplitr; · ipureintro; exact hX
  isplitl [Hland]; · iexact Hland
  isplitl [HO]; · iexact HO
  isplitl [Hatw]; · iexact Hatw
  isplitl [Hatv]; · iexact Hatv
  isplitl [Hp1]; · iexact Hp1
  iexact Hacc

end Cert.Kernel.Proto

end
-- ==== Proof.Body16Bits.lean ====
/-
Stretch 16 of a device's kernel body: the store of the sum of the sent-on 512 rows of group 4's first landing into the
accumulator, their rounding into the first 512 rows of group 4's staging buffer, group 4's second reduce-scatter send (those
rows to the neighbour across axis 2), and the sum of the kept 512 rows into the accumulator.
-/
import proofs.«900882_g7700000000000883_dist_matmul_gelu_kshard_i_m2048_n2048_k1024_v7x_i8_f32_1_alg».proof.Proof.RulesBits
import proofs.«900882_g7700000000000883_dist_matmul_gelu_kshard_i_m2048_n2048_k1024_v7x_i8_f32_1_alg».proof.Proof.TopoBitsTab
import proofs.«900882_g7700000000000883_dist_matmul_gelu_kshard_i_m2048_n2048_k1024_v7x_i8_f32_1_alg».proof.Proof.PiecesTabBits
import proofs.«900882_g7700000000000883_dist_matmul_gelu_kshard_i_m2048_n2048_k1024_v7x_i8_f32_1_alg».proof.Proof.Gen.Kernel.Skeleton
import proofs.«900882_g7700000000000883_dist_matmul_gelu_kshard_i_m2048_n2048_k1024_v7x_i8_f32_1_alg».proof.Proof.TopoClosedBits
import Idealize.ShloMosaic.Lib.Pipeline.Value

set_option maxRecDepth 16384

noncomputable section

namespace Cert.Kernel.Proto

open Cert.Kernel Cert.Kernel.Gen Cert.Kernel.Topo
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : Vals F)

set_option maxHeartbeats 2000000 in
theorem part16_run (c : Dev nD) (κs κr : ℕ) (W : Waits sig Unit) (v2 v139 v464 v466 : BitVec 32) (v474 : FVec F S512x256 .f32) (v476 : Vec F S512x256 .f32)
    (f3 : Buf (Elt F) ((Memref.whole cc0_scratch0 : Memref sig .tc .vmem S2048x2048 .f32).view.loc (c : Thread nD τ)))
    (f14 : Buf (Elt F) ((stgM4_0 : Memref sig .tc .vmem S1024x256 .bf16).view.loc (c : Thread nD τ)))
    (fl : Buf (Elt F) ((commM4_0 : Memref sig .tc .vmem S1024x256 .bf16).view.loc (c : Thread nD τ)))
    (hV : V.rs4_1 c ((stgM4_1 : Memref sig .tc .vmem S512x256 .bf16).view.read (Elt F) (View.write (Elt F) ((Memref.whole cc0_scratch11 : Memref sig .tc .vmem S1024x256 .bf16).access (Rect.unit (s := S1024x256) ![0, 0] ![512, 256] inb_S1024x256_S512x256_0_0)) f14 (k0_pay33 ((Memref.whole cc0_scratch0 : Memref sig .tc .vmem S2048x2048 .f32).view.readCov [⟨Rect.unit (s := S2048x2048) (k0_off27 c) ![512, 256] (k0_off27_inb c), k0_pay32 v474⟩] (Rect.unit (s := S2048x2048) (k0_off27 c) ![512, 256] (k0_off27_inb c)).toLoadRect)) Finset.univ))) :
    iprop(cellInv ER (sched V) κs (cell c (.rsS 4 1)) ∗ cellInv ER (sched V) κr (cell (nbr 2 c) (.rsR 4 1))
        ∗ reached ER (cell c (.rsS 4 1)) 0 ∗ reached ER (cell (nbr 2 c) (.rsR 4 1)) 0
        ∗ dutyTok ER (cell c (.rsS 4 1)) 0 (0 : Fin 3) ∗ dutyTok ER (cell (nbr 2 c) (.rsR 4 1)) 0 (0 : Fin 3)
        ∗ ptsAny (F := F) (nbr 2 c) commM4_1
        ∗ owes (c : Thread nD τ) (Owe c 13) W
        ∗ heldW c (stgM4_0 : Memref sig .tc .vmem S1024x256 .bf16) f14
        ∗ heldW c (Memref.whole cc0_scratch0 : Memref sig .tc .vmem S2048x2048 .f32) f3
        ∗ heldW c (commM4_0 : Memref sig .tc .vmem S1024x256 .bf16) fl)
      ⊢ wp frame (wpE (defs₀ (F := F)) 𝒱₀ c none) Set.univ
          (k0_part16 (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23 c v2 v139 v464 v466 v474 v476)
          (fun r => iprop(⌜r = (Scalar.xori v2 4#32)⌝ ∗ cred (tallyAt (cell c (.rsS 4 1)) () (amt (.rsR 4 1)))
            ∗ owes (c : Thread nD τ) (Owe c 14) W
            ∗ heldW c (Memref.whole cc0_scratch0 : Memref sig .tc .vmem S2048x2048 .f32) ((Memref.whole cc0_scratch0 : Memref sig .tc .vmem S2048x2048 .f32).view.writes (Elt F) f3 [⟨Rect.unit (s := S2048x2048) (k0_off29 c) ![512, 256] (k0_off29_inb c), k0_pay34 (View.readAt (Elt F) (Memref.whole cc0_scratch0 : Memref sig .tc .vmem S2048x2048 .f32).view (Rect.unit (s := S2048x2048) (k0_off29 c) ![512, 256] (k0_off29_inb c)).toLoadRect ((Memref.whole cc0_scratch0 : Memref sig .tc .vmem S2048x2048 .f32).view.writes (Elt F) f3 [⟨Rect.unit (s := S2048x2048) (k0_off27 c) ![512, 256] (k0_off27_inb c), k0_pay32 v474⟩])) (View.readAt (Elt F) (Memref.whole cc0_scratch5 : Memref sig .tc .vmem S1792x256 .bf16).view (Rect.unit (s := S1792x256) (k0_off30 c) ![512, 256] (k0_off30_inb c)).toLoadRect fl)⟩, ⟨Rect.unit (s := S2048x2048) (k0_off27 c) ![512, 256] (k0_off27_inb c), k0_pay32 v474⟩])
            ∗ heldW c (commM4_0 : Memref sig .tc .vmem S1024x256 .bf16) fl
            ∗ ((stgM4_0 : Memref sig .tc .vmem S1024x256 .bf16).view.loc (c : Thread nD τ) ↦[(stgM4_0 : Memref sig .tc .vmem S1024x256 .bf16).view.set \ (stgM4_1 : Memref sig .tc .vmem S512x256 .bf16).view.set]{fullShare} (View.write (Elt F) ((Memref.whole cc0_scratch11 : Memref sig .tc .vmem S1024x256 .bf16).access (Rect.unit (s := S1024x256) ![0, 0] ![512, 256] inb_S1024x256_S512x256_0_0)) f14 (k0_pay33 ((Memref.whole cc0_scratch0 : Memref sig .tc .vmem S2048x2048 .f32).view.readCov [⟨Rect.unit (s := S2048x2048) (k0_off27 c) ![512, 256] (k0_off27_inb c), k0_pay32 v474⟩] (Rect.unit (s := S2048x2048) (k0_off27 c) ![512, 256] (k0_off27_inb c)).toLoadRect)) Finset.univ)))) := by
  simp only [k0_part16_eq_skeleton]; unfold k0_part16_skel
  simp only [Prog.lift, Prog.bind_op, Prog.bind_ret, Prog.pure_eq_ret]
  iintro ⟨#HIs, #HIr, #Hrs, #Hrr, Hts, Htr, Hdst, HO, Hstg, Hacc, Hland⟩
  unfold heldW
  unfold ptsAny
  icases Hdst with ⟨%fd, Hdst⟩
  have hinc2 : ((Memref.whole cc0_scratch5 : Memref sig .tc .vmem S1792x256 .bf16).access (Rect.unit (s := S1792x256) (k0_off30 c) ![512, 256] (k0_off30_inb c))).set
      ⊆ (commM4_0 : Memref sig .tc .vmem S1024x256 .bf16).view.set := by
    rw [View.set_slice_whole, View.set_slice_whole]
    refine unit_subset ?_
    piece_arith c [off30_eq]
  have hinc3 : ((Memref.whole cc0_scratch11 : Memref sig .tc .vmem S1024x256 .bf16).access (Rect.unit (s := S1024x256) ![0, 0] ![512, 256] inb_S1024x256_S512x256_0_0)).set
      ⊆ (stgM4_0 : Memref sig .tc .vmem S1024x256 .bf16).view.set := by
    rw [View.set_slice_whole, View.set_slice_whole]
    exact unit_subset (by decide)
  have hinc4 : ((Memref.whole cc0_scratch11 : Memref sig .tc .vmem S1024x256 .bf16).access (Rect.unit (s := S1024x256) ![0, 0] ![512, 256] inb_S1024x256_S512x256_0_0)).setOn Finset.univ
      ⊆ (stgM4_0 : Memref sig .tc .vmem S1024x256 .bf16).view.set := by
    rw [View.setOn_univ]
    rw [View.set_slice_whole, View.set_slice_whole]
    exact unit_subset (by decide)
  sl_exec
  -- the staging buffer is cut into the 512 rows sent now and the rest
  ihave Hs := (Entails.of_eq (pts_set_eq (F := F) (ℓ := (stgM4_0 : Memref sig .tc .vmem S1024x256 .bf16).view.loc (c : Thread nD τ))
      (S' := (stgM4_1 : Memref sig .tc .vmem S512x256 .bf16).view.set ∪ ((stgM4_0 : Memref sig .tc .vmem S1024x256 .bf16).view.set \ (stgM4_1 : Memref sig .tc .vmem S512x256 .bf16).view.set)) (Finset.union_sdiff_of_subset stg_sub1_4).symm)) $$ Hstg
  ihave Hs2 := (pts_union (F := F) Finset.disjoint_sdiff).1 $$ Hs
  icases Hs2 with ⟨Hsrc, Hrem⟩
  iapply (wp_send_to V c ⟨k0_dev14 c, k0_dev14_lt c⟩ 2 (dev14_eq c) (.rsS 4 1) (.rsR 4 1) (by decide) (by decide) 13 (by decide) (paid_rs c 4 1) rfl
      (src := stgM4_1) (dst := commM4_1) (rsS_sem_eq 4 1 _) (rsR_sem_eq 4 1 _) rfl fd κs κr W
      (ptsAny_intro c stgM4_1 _)
      (ptsIs_intro (nbr 2 c) commM4_1 _ _ (by rw [View.read_write_univ, nbr_nbr]; exact hV))) $$ [Hsrc Hdst HO Hts Htr]
  · isplitr; · iexact HIs
    isplitr; · iexact HIr
    isplitl [Hsrc]; · iexact Hsrc
    isplitl [Hdst]; · iexact Hdst
    isplitl [HO]; · iexact HO
    isplitl [Hts]; · iexact Hts
    isplitr; · iexact Hrs
    isplitl [Htr]; · iexact Htr
    iexact Hrr
  iintro ⟨Hcs, HO⟩
  sl_exec
  sl_step
  isplitr; · ipureintro; rfl
  isplitl [Hcs]; · iexact Hcs
  isplitl [HO]; · iexact HO
  isplitl [Hacc]; · iexact Hacc
  isplitl [Hland]; · iexact Hland
  iexact Hrem

end Cert.Kernel.Proto

end
-- ==== Proof.Body17Bits.lean ====
/-
Stretch 17 of a device's kernel body: the two waits of group 5's first exchange, the sum of the sent-on 512 rows of its
landing into the accumulator, and their rounding into the first 512 rows of group 5's staging buffer, which is then cut
into those 512 rows (lent by the next send) and the rest.
-/
import proofs.«900882_g7700000000000883_dist_matmul_gelu_kshard_i_m2048_n2048_k1024_v7x_i8_f32_1_alg».proof.Proof.RulesBits
import proofs.«900882_g7700000000000883_dist_matmul_gelu_kshard_i_m2048_n2048_k1024_v7x_i8_f32_1_alg».proof.Proof.TopoBitsTab
import proofs.«900882_g7700000000000883_dist_matmul_gelu_kshard_i_m2048_n2048_k1024_v7x_i8_f32_1_alg».proof.Proof.PiecesTabBits
import proofs.«900882_g7700000000000883_dist_matmul_gelu_kshard_i_m2048_n2048_k1024_v7x_i8_f32_1_alg».proof.Proof.Gen.Kernel.Skeleton
import proofs.«900882_g7700000000000883_dist_matmul_gelu_kshard_i_m2048_n2048_k1024_v7x_i8_f32_1_alg».proof.Proof.TopoClosedBits
import Idealize.ShloMosaic.Lib.Pipeline.Value

set_option maxRecDepth 16384

noncomputable section

namespace Cert.Kernel.Proto

open Cert.Kernel Cert.Kernel.Gen Cert.Kernel.Topo
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : Vals F)

set_option maxHeartbeats 2000000 in
theorem part17_run (c : Dev nD) (κw κv : ℕ) (W : Waits sig Unit) (v2 v6 v154 v163 : BitVec 32)
    (f3 : Buf (Elt F) ((Memref.whole cc0_scratch0 : Memref sig .tc .vmem S2048x2048 .f32).view.loc (c : Thread nD τ))) :
    iprop(owes (c : Thread nD τ) (Owe c 14) W ∗ levAts L lv
        ∗ heldW c (Memref.whole cc0_scratch0 : Memref sig .tc .vmem S2048x2048 .f32) f3
        ∗ cellInv ER (sched V) κw (cell c (.rsS 5 0)) ∗ cred (tallyAt (cell c (.rsS 5 0)) () (amt (.rsS 5 0))) ∗ atPos ER (cell c (.rsS 5 0)) 0 ∅ 0
        ∗ cellInv ER (sched V) κv (cell c (.rsR 5 0)) ∗ cred (tallyAt (cell c (.rsR 5 0)) () (amt (.rsR 5 0))) ∗ atPos ER (cell c (.rsR 5 0)) 0 ∅ 0)
      ⊢ wp frame (wpE (defs₀ (F := F)) 𝒱₀ c none) Set.univ
          (k0_part17 (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23 c v2 v6 v154 v163)
          (fun r => iprop(⌜r = ⟨Scalar.addi v163 (Scalar.muli v6 512#32), Scalar.xori v2 1#32⟩⌝
            ∗ (∃ (fl : Buf (Elt F) ((commM5_0 : Memref sig .tc .vmem S1024x256 .bf16).view.loc (c : Thread nD τ))) (fs : Buf (Elt F) ((stgM5_0 : Memref sig .tc .vmem S1024x256 .bf16).view.loc (c : Thread nD τ))), ⌜V.rs5_0 (nbr 2 c) ((commM5_0 : Memref sig .tc .vmem S1024x256 .bf16).view.read (Elt F) fl)⌝
              ∗ heldW c (commM5_0 : Memref sig .tc .vmem S1024x256 .bf16) fl
              ∗ owes (c : Thread nD τ) (Owe c 14) (insert ((CK.rsR 5 0).sem, ()) (insert ((CK.rsS 5 0).sem, ()) W))
              ∗ atPos ER (cell c (.rsS 5 0)) 1 ∅ 0 ∗ atPos ER (cell c (.rsR 5 0)) 1 ∅ 0
              ∗ heldW c (Memref.whole cc0_scratch0 : Memref sig .tc .vmem S2048x2048 .f32) ((Memref.whole cc0_scratch0 : Memref sig .tc .vmem S2048x2048 .f32).view.writes (Elt F) f3 [⟨Rect.unit (s := S2048x2048) (k0_off31 c) ![512, 256] (k0_off31_inb c), k0_pay35 (View.readAt (Elt F) (Memref.whole cc0_scratch0 : Memref sig .tc .vmem S2048x2048 .f32).view (Rect.unit (s := S2048x2048) (k0_off31 c) ![512, 256] (k0_off31_inb c)).toLoadRect f3) (View.readAt (Elt F) (Memref.whole cc0_scratch6 : Memref sig .tc .vmem S1792x256 .bf16).view (Rect.unit (s := S1792x256) (k0_off32 c) ![512, 256] (k0_off32_inb c)).toLoadRect fl)⟩])
              ∗ heldW c (stgM5_1 : Memref sig .tc .vmem S512x256 .bf16) (View.write (Elt F) ((Memref.whole cc0_scratch12 : Memref sig .tc .vmem S1024x256 .bf16).access (Rect.unit (s := S1024x256) ![0, 0] ![512, 256] inb_S1024x256_S512x256_0_0)) fs (k0_pay36 ((Memref.whole cc0_scratch0 : Memref sig .tc .vmem S2048x2048 .f32).view.readCov [⟨Rect.unit (s := S2048x2048) (k0_off31 c) ![512, 256] (k0_off31_inb c), k0_pay35 (View.readAt (Elt F) (Memref.whole cc0_scratch0 : Memref sig .tc .vmem S2048x2048 .f32).view (Rect.unit (s := S2048x2048) (k0_off31 c) ![512, 256] (k0_off31_inb c)).toLoadRect f3) (View.readAt (Elt F) (Memref.whole cc0_scratch6 : Memref sig .tc .vmem S1792x256 .bf16).view (Rect.unit (s := S1792x256) (k0_off32 c) ![512, 256] (k0_off32_inb c)).toLoadRect fl)⟩] (Rect.unit (s := S2048x2048) (k0_off31 c) ![512, 256] (k0_off31_inb c)).toLoadRect)) Finset.univ)
              ∗ ((stgM5_0 : Memref sig .tc .vmem S1024x256 .bf16).view.loc (c : Thread nD τ) ↦[(stgM5_0 : Memref sig .tc .vmem S1024x256 .bf16).view.set \ (stgM5_1 : Memref sig .tc .vmem S512x256 .bf16).view.set]{fullShare} (View.write (Elt F) ((Memref.whole cc0_scratch12 : Memref sig .tc .vmem S1024x256 .bf16).access (Rect.unit (s := S1024x256) ![0, 0] ![512, 256] inb_S1024x256_S512x256_0_0)) fs (k0_pay36 ((Memref.whole cc0_scratch0 : Memref sig .tc .vmem S2048x2048 .f32).view.readCov [⟨Rect.unit (s := S2048x2048) (k0_off31 c) ![512, 256] (k0_off31_inb c), k0_pay35 (View.readAt (Elt F) (Memref.whole cc0_scratch0 : Memref sig .tc .vmem S2048x2048 .f32).view (Rect.unit (s := S2048x2048) (k0_off31 c) ![512, 256] (k0_off31_inb c)).toLoadRect f3) (View.readAt (Elt F) (Memref.whole cc0_scratch6 : Memref sig .tc .vmem S1792x256 .bf16).view (Rect.unit (s := S1792x256) (k0_off32 c) ![512, 256] (k0_off32_inb c)).toLoadRect fl)⟩] (Rect.unit (s := S2048x2048) (k0_off31 c) ![512, 256] (k0_off31_inb c)).toLoadRect)) Finset.univ))))) := by
  simp only [k0_part17_eq_skeleton]; unfold k0_part17_skel
  simp only [Prog.lift, Prog.bind_op, Prog.bind_ret, Prog.pure_eq_ret]
  iintro ⟨HO, #Hlev, Hacc, #HIw, Hcw, Hatw, #HIv, Hcv, Hatv⟩
  unfold heldW
  iapply (wp_wait_xfer V c (.rsS 5 0) (by decide) 14 (rsS_sem_eq 5 0 _)
      (show (stgM5_0 : Memref sig .tc .vmem S1024x256 .bf16).view.dmaCredit = amt (.rsS 5 0) from rfl)
      (wpE_waitDma2_eq 𝒱₀ (c : Thread nD τ) none Set.univ)
      (mayWait_own c (.rsS 5 0) (lv_cell c _) 14) κw W) $$ [Hcw HO Hatw]
  · isplitr; · iexact HIw
    isplitl [Hcw]; · iexact Hcw
    isplitl [HO]; · iexact HO
    isplitr; · iexact Hlev
    iexact Hatw
  iintro ⟨HO, Hatw, Hpay1⟩
  iapply (wp_wait_xfer V c (.rsR 5 0) (by decide) 14 (rsR_sem_eq 5 0 _)
      (show (commM5_0 : Memref sig .tc .vmem S1024x256 .bf16).view.dmaCredit = amt (.rsR 5 0) from rfl)
      (wpE_waitDma2_eq 𝒱₀ (c : Thread nD τ) none Set.univ)
      (mayWait_rsR c 5 0 14 (by decide)) κv (insert ((CK.rsS 5 0).sem, ()) W)) $$ [Hcv HO Hatv]
  · isplitr; · iexact HIv
    isplitl [Hcv]; · iexact Hcv
    isplitl [HO]; · iexact HO
    isplitr; · iexact Hlev
    iexact Hatv
  iintro ⟨HO, Hatv, Hpay2⟩
  ihave Hp1 := (Entails.of_eq (show pay V c (CK.rsS 5 0) 0 = ptsAny (F := F) c stgM5_0 from rfl)) $$ Hpay1
  ihave Hp2 := (Entails.of_eq (show pay V c (CK.rsR 5 0) 0 = ptsIs c commM5_0 (V.rs5_0 (nbr 2 c)) from rfl)) $$ Hpay2
  unfold ptsAny
  icases Hp1 with ⟨%fs, Hstg⟩
  unfold ptsIs
  icases Hp2 with ⟨%fl, Hland, %hX⟩
  have hinc1 : ((Memref.whole cc0_scratch6 : Memref sig .tc .vmem S1792x256 .bf16).access (Rect.unit (s := S1792x256) (k0_off32 c) ![512, 256] (k0_off32_inb c))).set
      ⊆ (commM5_0 : Memref sig .tc .vmem S1024x256 .bf16).view.set := by
    rw [View.set_slice_whole, View.set_slice_whole]
    refine unit_subset ?_
    piece_arith c [off32_eq]
  have hinc3 : ((Memref.whole cc0_scratch12 : Memref sig .tc .vmem S1024x256 .bf16).access (Rect.unit (s := S1024x256) ![0, 0] ![512, 256] inb_S1024x256_S512x256_0_0)).set
      ⊆ (stgM5_0 : Memref sig .tc .vmem S1024x256 .bf16).view.set := by
    rw [View.set_slice_whole, View.set_slice_whole]
    exact unit_subset (by decide)
  have hinc4 : ((Memref.whole cc0_scratch12 : Memref sig .tc .vmem S1024x256 .bf16).access (Rect.unit (s := S1024x256) ![0, 0] ![512, 256] inb_S1024x256_S512x256_0_0)).setOn Finset.univ
      ⊆ (stgM5_0 : Memref sig .tc .vmem S1024x256 .bf16).view.set := by
    rw [View.setOn_univ]
    rw [View.set_slice_whole, View.set_slice_whole]
    exact unit_subset (by decide)
  sl_exec
  -- the staging buffer is cut into the 512 rows the next send lends and the rest
  ihave Hs := (Entails.of_eq (pts_set_eq (F := F) (ℓ := (stgM5_0 : Memref sig .tc .vmem S1024x256 .bf16).view.loc (c : Thread nD τ))
      (S' := (stgM5_1 : Memref sig .tc .vmem S512x256 .bf16).view.set ∪ ((stgM5_0 : Memref sig .tc .vmem S1024x256 .bf16).view.set \ (stgM5_1 : Memref sig .tc .vmem S512x256 .bf16).view.set)) (Finset.union_sdiff_of_subset stg_sub1_5).symm)) $$ Hstg
  ihave Hs2 := (pts_union (F := F) Finset.disjoint_sdiff).1 $$ Hs
  icases Hs2 with ⟨Hsrc, Hrem⟩
  sl_step
  isplitr; · ipureintro; rfl
  iexists fl, fs
  isplitr; · ipureintro; exact hX
  isplitl [Hland]; · iexact Hland
  isplitl [HO]; · iexact HO
  isplitl [Hatw]; · iexact Hatw
  isplitl [Hatv]; · iexact Hatv
  isplitl [Hacc]; · iexact Hacc
  isplitl [Hsrc]; · iexact Hsrc
  iexact Hrem

end Cert.Kernel.Proto

end
-- ==== Proof.Body18Bits.lean ====
/-
Stretch 18 of a device's kernel body: group 5's second reduce-scatter send (the first 512 rows of its staging buffer
to the neighbour across axis 0), the sum of the kept 512 rows of group 5's landed block into the accumulator, and the
wait for group 0's second send to leave its staging rows.
-/
import proofs.«900882_g7700000000000883_dist_matmul_gelu_kshard_i_m2048_n2048_k1024_v7x_i8_f32_1_alg».proof.Proof.RulesBits
import proofs.«900882_g7700000000000883_dist_matmul_gelu_kshard_i_m2048_n2048_k1024_v7x_i8_f32_1_alg».proof.Proof.TopoBitsTab
import proofs.«900882_g7700000000000883_dist_matmul_gelu_kshard_i_m2048_n2048_k1024_v7x_i8_f32_1_alg».proof.Proof.PiecesTabBits
import proofs.«900882_g7700000000000883_dist_matmul_gelu_kshard_i_m2048_n2048_k1024_v7x_i8_f32_1_alg».proof.Proof.Gen.Kernel.Skeleton
import Idealize.ShloMosaic.Lib.Pipeline.Value

set_option maxRecDepth 16384

noncomputable section

namespace Cert.Kernel.Proto

open Cert.Kernel Cert.Kernel.Gen Cert.Kernel.Topo
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : Vals F)

set_option maxHeartbeats 2000000 in
theorem part18_run (c : Dev nD) (κs κr κw : ℕ) (W : Waits sig Unit) (v163 v269 v520 v539 : BitVec 32)
    (f3 : Buf (Elt F) ((Memref.whole cc0_scratch0 : Memref sig .tc .vmem S2048x2048 .f32).view.loc (c : Thread nD τ)))
    (f9 : Buf (Elt F) ((commM5_0 : Memref sig .tc .vmem S1024x256 .bf16).view.loc (c : Thread nD τ)))
    (f15 : Buf (Elt F) ((stgM5_1 : Memref sig .tc .vmem S512x256 .bf16).view.loc (c : Thread nD τ)))
    (hV : V.rs5_1 c ((stgM5_1 : Memref sig .tc .vmem S512x256 .bf16).view.read (Elt F) f15)) :
    iprop(cellInv ER (sched V) κs (cell c (.rsS 5 1)) ∗ cellInv ER (sched V) κr (cell (nbr 0 c) (.rsR 5 1))
        ∗ reached ER (cell c (.rsS 5 1)) 0 ∗ reached ER (cell (nbr 0 c) (.rsR 5 1)) 0
        ∗ dutyTok ER (cell c (.rsS 5 1)) 0 (0 : Fin 3) ∗ dutyTok ER (cell (nbr 0 c) (.rsR 5 1)) 0 (0 : Fin 3)
        ∗ ptsAny (F := F) (nbr 0 c) commM5_1
        ∗ owes (c : Thread nD τ) (Owe c 14) W
        ∗ heldW c (stgM5_1 : Memref sig .tc .vmem S512x256 .bf16) f15
        ∗ heldW c (Memref.whole cc0_scratch0 : Memref sig .tc .vmem S2048x2048 .f32) f3
        ∗ heldW c (commM5_0 : Memref sig .tc .vmem S1024x256 .bf16) f9
        ∗ cellInv ER (sched V) κw (cell c (.rsS 0 1)) ∗ cred (tallyAt (cell c (.rsS 0 1)) () (amt (.rsS 0 1))) ∗ levAts L lv ∗ atPos ER (cell c (.rsS 0 1)) 0 ∅ 0)
      ⊢ wp frame (wpE (defs₀ (F := F)) 𝒱₀ c none) Set.univ
          (k0_part18 (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23 c v163 v269 v520 v539)
          (fun r => iprop(⌜r = ⟨⟩⌝ ∗ cred (tallyAt (cell c (.rsS 5 1)) () (amt (.rsR 5 1))) ∗ owes (c : Thread nD τ) (Owe c 15) (insert ((CK.rsS 0 1).sem, ()) W)
            ∗ heldW c (Memref.whole cc0_scratch0 : Memref sig .tc .vmem S2048x2048 .f32) ((Memref.whole cc0_scratch0 : Memref sig .tc .vmem S2048x2048 .f32).view.writes (Elt F) f3
                [⟨Rect.unit (s := S2048x2048) (k0_off33 c) S512x256.size (k0_off33_inb c),
                  k0_pay37 (View.readAt (Elt F) (Memref.whole cc0_scratch0 : Memref sig .tc .vmem S2048x2048 .f32).view (Rect.unit (s := S2048x2048) (k0_off33 c) S512x256.size (k0_off33_inb c)).toLoadRect f3)
                    (View.readAt (Elt F) (Memref.whole cc0_scratch6 : Memref sig .tc .vmem S1792x256 .bf16).view (Rect.unit (s := S1792x256) (k0_off34 c) S512x256.size (k0_off34_inb c)).toLoadRect f9)⟩])
            ∗ heldW c (commM5_0 : Memref sig .tc .vmem S1024x256 .bf16) f9
            ∗ atPos ER (cell c (.rsS 0 1)) 1 ∅ 0 ∗ ptsAny (F := F) c stgM0_1)) := by
  simp only [k0_part18_eq_skeleton]; unfold k0_part18_skel
  simp only [Prog.lift, Prog.bind_op, Prog.bind_ret, Prog.pure_eq_ret]
  iintro ⟨#HIs, #HIr, #Hrs, #Hrr, Hts, Htr, Hdst, HO, Hsrc, Hacc, Hland, #HIw, Hcw, #Hlev, Hatw⟩
  unfold heldW
  unfold ptsAny
  icases Hdst with ⟨%fd, Hdst⟩
  iapply (wp_send_to V c ⟨k0_dev15 c, k0_dev15_lt c⟩ 0 (dev15_eq c) (.rsS 5 1) (.rsR 5 1) (by decide) (by decide) 14 (by decide) (paid_rs c 5 1) rfl
      (src := stgM5_1) (dst := commM5_1) (rsS_sem_eq 5 1 _) (rsR_sem_eq 5 1 _) rfl fd κs κr W
      (ptsAny_intro c stgM5_1 _)
      (ptsIs_intro (nbr 0 c) commM5_1 _ _ (by rw [View.read_write_univ, nbr_nbr]; exact hV))) $$ [Hsrc Hdst HO Hts Htr]
  · isplitr; · iexact HIs
    isplitr; · iexact HIr
    isplitl [Hsrc]; · iexact Hsrc
    isplitl [Hdst]; · iexact Hdst
    isplitl [HO]; · iexact HO
    isplitl [Hts]; · iexact Hts
    isplitr; · iexact Hrs
    isplitl [Htr]; · iexact Htr
    iexact Hrr
  iintro ⟨Hcs, HO⟩
  -- the landed rows are read through the whole landing buffer: they lie inside the piece held
  have hinc : ((Memref.whole cc0_scratch6 : Memref sig .tc .vmem S1792x256 .bf16).access (Rect.unit (s := S1792x256) (k0_off34 c) ![512, 256] (k0_off34_inb c))).set
      ⊆ (commM5_0 : Memref sig .tc .vmem S1024x256 .bf16).view.set := by
    rw [View.set_slice_whole, View.set_slice_whole]
    refine unit_subset ?_
    piece_arith c [off34_eq]
  sl_exec
  iapply (wp_wait_xfer V c (.rsS 0 1) (by decide) 15 (rsS_sem_eq 0 1 _)
      (show (stgM0_1 : Memref sig .tc .vmem S512x384 .bf16).view.dmaCredit = amt (.rsS 0 1) from rfl)
      (wpE_waitDma2_eq 𝒱₀ (c : Thread nD τ) none Set.univ)
      (mayWait_own c (.rsS 0 1) (lv_cell c _) 15) κw W) $$ [Hcw HO Hatw]
  · isplitr; · iexact HIw
    isplitl [Hcw]; · iexact Hcw
    isplitl [HO]; · iexact HO
    isplitr; · iexact Hlev
    iexact Hatw
  iintro ⟨HO, Hatw, Hpay⟩
  sl_step
  isplitr; · ipureintro; trivial
  isplitl [Hcs]; · iexact Hcs
  isplitl [HO]; · iexact HO
  isplitl [Hacc]; · iexact Hacc
  isplitl [Hland]; · iexact Hland
  isplitl [Hatw]; · iexact Hatw
  ihave Hp := (Entails.of_eq (show pay V c (CK.rsS 0 1) 0 = ptsAny (F := F) c stgM0_1 from rfl)) $$ Hpay
  unfold ptsAny
  iexact Hp

end Cert.Kernel.Proto

end
-- ==== Proof.Body19Bits.lean ====
/-
Stretch 19 of a device's kernel body: the wait for group 0's second landing (512 rows from the neighbour across axis 1),
the sum of its 256 rows that are sent on into the accumulator, and their rounding into the first 256 rows of group 0's
staging buffer.
-/
import proofs.«900882_g7700000000000883_dist_matmul_gelu_kshard_i_m2048_n2048_k1024_v7x_i8_f32_1_alg».proof.Proof.RulesBits
import proofs.«900882_g7700000000000883_dist_matmul_gelu_kshard_i_m2048_n2048_k1024_v7x_i8_f32_1_alg».proof.Proof.TopoBitsTab
import proofs.«900882_g7700000000000883_dist_matmul_gelu_kshard_i_m2048_n2048_k1024_v7x_i8_f32_1_alg».proof.Proof.PiecesTabBits
import proofs.«900882_g7700000000000883_dist_matmul_gelu_kshard_i_m2048_n2048_k1024_v7x_i8_f32_1_alg».proof.Proof.Gen.Kernel.Skeleton
import Idealize.ShloMosaic.Lib.Pipeline.Value

set_option maxRecDepth 16384

noncomputable section

namespace Cert.Kernel.Proto

open Cert.Kernel Cert.Kernel.Gen Cert.Kernel.Topo
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : Vals F)

set_option maxHeartbeats 2000000 in
theorem part19_run (c : Dev nD) (κw : ℕ) (W : Waits sig Unit) (v2 v9 v250 : BitVec 32)
    (f3 : Buf (Elt F) ((Memref.whole cc0_scratch0 : Memref sig .tc .vmem S2048x2048 .f32).view.loc (c : Thread nD τ)))
    (f10 : Buf (Elt F) ((stgM0_1 : Memref sig .tc .vmem S512x384 .bf16).view.loc (c : Thread nD τ))) :
    iprop(cellInv ER (sched V) κw (cell c (.rsR 0 1)) ∗ cred (tallyAt (cell c (.rsR 0 1)) () (amt (.rsR 0 1)))
        ∗ owes (c : Thread nD τ) (Owe c 15) W ∗ levAts L lv ∗ atPos ER (cell c (.rsR 0 1)) 0 ∅ 0
        ∗ heldW c (Memref.whole cc0_scratch0 : Memref sig .tc .vmem S2048x2048 .f32) f3
        ∗ heldW c (stgM0_1 : Memref sig .tc .vmem S512x384 .bf16) f10)
      ⊢ wp frame (wpE (defs₀ (F := F)) 𝒱₀ c none) Set.univ
          (k0_part19 (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23 c v2 v9 v250)
          (fun r => iprop(⌜r = ⟨Scalar.addi v250 (Scalar.muli v9 256#32), Scalar.xori v2 4#32⟩⌝ ∗ (∃ fl : Buf (Elt F) ((commM0_1 : Memref sig .tc .vmem S512x384 .bf16).view.loc (c : Thread nD τ)), ⌜V.rs0_1 (nbr 1 c) ((commM0_1 : Memref sig .tc .vmem S512x384 .bf16).view.read (Elt F) fl)⌝
            ∗ heldW c (commM0_1 : Memref sig .tc .vmem S512x384 .bf16) fl
            ∗ owes (c : Thread nD τ) (Owe c 15) (insert ((CK.rsR 0 1).sem, ()) W) ∗ atPos ER (cell c (.rsR 0 1)) 1 ∅ 0
            ∗ heldW c (Memref.whole cc0_scratch0 : Memref sig .tc .vmem S2048x2048 .f32) ((Memref.whole cc0_scratch0 : Memref sig .tc .vmem S2048x2048 .f32).view.writes (Elt F) f3 [⟨Rect.unit (s := S2048x2048) (k0_off35 c) ![256, 384] (k0_off35_inb c), k0_pay38 (View.readAt (Elt F) (Memref.whole cc0_scratch0 : Memref sig .tc .vmem S2048x2048 .f32).view (Rect.unit (s := S2048x2048) (k0_off35 c) ![256, 384] (k0_off35_inb c)).toLoadRect f3) (View.readAt (Elt F) (Memref.whole cc0_scratch1 : Memref sig .tc .vmem S1792x384 .bf16).view (Rect.unit (s := S1792x384) (k0_off36 c) ![256, 384] (k0_off36_inb c)).toLoadRect fl)⟩])
            ∗ heldW c (stgM0_1 : Memref sig .tc .vmem S512x384 .bf16) (View.write (Elt F) ((Memref.whole cc0_scratch7 : Memref sig .tc .vmem S1024x384 .bf16).access (Rect.unit (s := S1024x384) ![0, 0] ![256, 384] inb_S1024x384_S256x384_0_0)) f10 (k0_pay39 ((Memref.whole cc0_scratch0 : Memref sig .tc .vmem S2048x2048 .f32).view.readCov [⟨Rect.unit (s := S2048x2048) (k0_off35 c) ![256, 384] (k0_off35_inb c), k0_pay38 (View.readAt (Elt F) (Memref.whole cc0_scratch0 : Memref sig .tc .vmem S2048x2048 .f32).view (Rect.unit (s := S2048x2048) (k0_off35 c) ![256, 384] (k0_off35_inb c)).toLoadRect f3) (View.readAt (Elt F) (Memref.whole cc0_scratch1 : Memref sig .tc .vmem S1792x384 .bf16).view (Rect.unit (s := S1792x384) (k0_off36 c) ![256, 384] (k0_off36_inb c)).toLoadRect fl)⟩] (Rect.unit (s := S2048x2048) (k0_off35 c) ![256, 384] (k0_off35_inb c)).toLoadRect)) Finset.univ)))) := by
  simp only [k0_part19_eq_skeleton]; unfold k0_part19_skel
  simp only [Prog.lift, Prog.bind_op, Prog.bind_ret, Prog.pure_eq_ret]
  iintro ⟨#HIw, Hcw, HO, #Hlev, Hatw, Hacc, Hstg⟩
  unfold heldW
  iapply (wp_wait_xfer V c (.rsR 0 1) (by decide) 15 (rsR_sem_eq 0 1 _)
      (show (commM0_1 : Memref sig .tc .vmem S512x384 .bf16).view.dmaCredit = amt (.rsR 0 1) from rfl)
      (wpE_waitDma2_eq 𝒱₀ (c : Thread nD τ) none Set.univ)
      (mayWait_rsR c 0 1 15 (by decide)) κw W) $$ [Hcw HO Hatw]
  · isplitr; · iexact HIw
    isplitl [Hcw]; · iexact Hcw
    isplitl [HO]; · iexact HO
    isplitr; · iexact Hlev
    iexact Hatw
  iintro ⟨HO, Hatw, Hpay⟩
  ihave Hp := (Entails.of_eq (show pay V c (CK.rsR 0 1) 0 = ptsIs c commM0_1 (V.rs0_1 (nbr 1 c)) from rfl)) $$ Hpay
  unfold ptsIs
  icases Hp with ⟨%fl, Hland, %hX⟩
  -- the landed rows that are read lie inside the piece that arrived; the staging rows read and rewritten lie inside the piece that came back
  have hinc1 : ((Memref.whole cc0_scratch1 : Memref sig .tc .vmem S1792x384 .bf16).access (Rect.unit (s := S1792x384) (k0_off36 c) ![256, 384] (k0_off36_inb c))).set
      ⊆ (commM0_1 : Memref sig .tc .vmem S512x384 .bf16).view.set := by
    rw [View.set_slice_whole, View.set_slice_whole]
    refine unit_subset ?_
    piece_arith c [off36_eq]
  have hinc2 : ((Memref.whole cc0_scratch7 : Memref sig .tc .vmem S1024x384 .bf16).access (Rect.unit (s := S1024x384) ![0, 0] ![256, 384] inb_S1024x384_S256x384_0_0)).set
      ⊆ (stgM0_1 : Memref sig .tc .vmem S512x384 .bf16).view.set := by
    rw [View.set_slice_whole, View.set_slice_whole]
    exact unit_subset (by decide)
  have hinc3 : ((Memref.whole cc0_scratch7 : Memref sig .tc .vmem S1024x384 .bf16).access (Rect.unit (s := S1024x384) ![0, 0] ![256, 384] inb_S1024x384_S256x384_0_0)).setOn Finset.univ
      ⊆ (stgM0_1 : Memref sig .tc .vmem S512x384 .bf16).view.set := by
    rw [View.setOn_univ]; exact hinc2
  sl_exec
  sl_step
  isplitr; · ipureintro; rfl
  iexists fl
  isplitr; · ipureintro; exact hX
  isplitl [Hland]; · iexact Hland
  isplitl [HO]; · iexact HO
  isplitl [Hatw]; · iexact Hatw
  isplitl [Hacc]; · iexact Hacc
  iexact Hstg

end Cert.Kernel.Proto

end
-- ==== Proof.Body20Bits.lean ====
/-
Stretch 20 of a device's kernel body: group 0's third reduce-scatter send (the first 256 rows of its staging buffer to the
neighbour across axis 2), the sum of the kept 256 rows of its second landing into the accumulator, and the two waits of
group 1's second exchange (its staging rows back, its 512 landed rows in).
-/
import proofs.«900882_g7700000000000883_dist_matmul_gelu_kshard_i_m2048_n2048_k1024_v7x_i8_f32_1_alg».proof.Proof.RulesBits
import proofs.«900882_g7700000000000883_dist_matmul_gelu_kshard_i_m2048_n2048_k1024_v7x_i8_f32_1_alg».proof.Proof.TopoBitsTab
import proofs.«900882_g7700000000000883_dist_matmul_gelu_kshard_i_m2048_n2048_k1024_v7x_i8_f32_1_alg».proof.Proof.PiecesTabBits
import proofs.«900882_g7700000000000883_dist_matmul_gelu_kshard_i_m2048_n2048_k1024_v7x_i8_f32_1_alg».proof.Proof.Gen.Kernel.Skeleton
import Idealize.ShloMosaic.Lib.Pipeline.Value

set_option maxRecDepth 16384

noncomputable section

namespace Cert.Kernel.Proto

open Cert.Kernel Cert.Kernel.Gen Cert.Kernel.Topo
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : Vals F)

set_option maxHeartbeats 2000000 in
theorem part20_run (c : Dev nD) (κs κr κw κv : ℕ) (W : Waits sig Unit) (v6 v250 v304 v323 v574 : BitVec 32)
    (f3 : Buf (Elt F) ((Memref.whole cc0_scratch0 : Memref sig .tc .vmem S2048x2048 .f32).view.loc (c : Thread nD τ)))
    (f10 : Buf (Elt F) ((stgM0_1 : Memref sig .tc .vmem S512x384 .bf16).view.loc (c : Thread nD τ)))
    (fl : Buf (Elt F) ((commM0_1 : Memref sig .tc .vmem S512x384 .bf16).view.loc (c : Thread nD τ)))
    (hV : V.rs0_2 c ((stgM0_2 : Memref sig .tc .vmem S256x384 .bf16).view.read (Elt F) f10)) :
    iprop(cellInv ER (sched V) κs (cell c (.rsS 0 2)) ∗ cellInv ER (sched V) κr (cell (nbr 2 c) (.rsR 0 2))
        ∗ reached ER (cell c (.rsS 0 2)) 0 ∗ reached ER (cell (nbr 2 c) (.rsR 0 2)) 0
        ∗ dutyTok ER (cell c (.rsS 0 2)) 0 (0 : Fin 3) ∗ dutyTok ER (cell (nbr 2 c) (.rsR 0 2)) 0 (0 : Fin 3)
        ∗ ptsAny (F := F) (nbr 2 c) commM0_2
        ∗ owes (c : Thread nD τ) (Owe c 15) W
        ∗ heldW c (stgM0_1 : Memref sig .tc .vmem S512x384 .bf16) f10
        ∗ heldW c (Memref.whole cc0_scratch0 : Memref sig .tc .vmem S2048x2048 .f32) f3
        ∗ heldW c (commM0_1 : Memref sig .tc .vmem S512x384 .bf16) fl
        ∗ levAts L lv
        ∗ cellInv ER (sched V) κw (cell c (.rsS 1 1)) ∗ cred (tallyAt (cell c (.rsS 1 1)) () (amt (.rsS 1 1))) ∗ atPos ER (cell c (.rsS 1 1)) 0 ∅ 0
        ∗ cellInv ER (sched V) κv (cell c (.rsR 1 1)) ∗ cred (tallyAt (cell c (.rsR 1 1)) () (amt (.rsR 1 1))) ∗ atPos ER (cell c (.rsR 1 1)) 0 ∅ 0)
      ⊢ wp frame (wpE (defs₀ (F := F)) 𝒱₀ c none) Set.univ
          (k0_part20 (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23 c v6 v250 v304 v323 v574)
          (fun r => iprop(⌜r = ⟨Scalar.addi v304 (Scalar.muli (Scalar.subi (1#32) v6) 256#32), Scalar.addi v304 (Scalar.muli v6 256#32)⟩⌝ ∗ cred (tallyAt (cell c (.rsS 0 2)) () (amt (.rsR 0 2)))
            ∗ owes (c : Thread nD τ) (Owe c 16) (insert ((CK.rsR 1 1).sem, ()) (insert ((CK.rsS 1 1).sem, ()) W))
            ∗ heldW c (Memref.whole cc0_scratch0 : Memref sig .tc .vmem S2048x2048 .f32) ((Memref.whole cc0_scratch0 : Memref sig .tc .vmem S2048x2048 .f32).view.writes (Elt F) f3 [⟨Rect.unit (s := S2048x2048) (k0_off37 c) ![256, 384] (k0_off37_inb c), k0_pay40 (View.readAt (Elt F) (Memref.whole cc0_scratch0 : Memref sig .tc .vmem S2048x2048 .f32).view (Rect.unit (s := S2048x2048) (k0_off37 c) ![256, 384] (k0_off37_inb c)).toLoadRect f3) (View.readAt (Elt F) (Memref.whole cc0_scratch1 : Memref sig .tc .vmem S1792x384 .bf16).view (Rect.unit (s := S1792x384) (k0_off38 c) ![256, 384] (k0_off38_inb c)).toLoadRect fl)⟩])
            ∗ heldW c (commM0_1 : Memref sig .tc .vmem S512x384 .bf16) fl
            ∗ ((stgM0_1 : Memref sig .tc .vmem S512x384 .bf16).view.loc (c : Thread nD τ) ↦[(stgM0_1 : Memref sig .tc .vmem S512x384 .bf16).view.set \ (stgM0_2 : Memref sig .tc .vmem S256x384 .bf16).view.set]{fullShare} f10)
            ∗ atPos ER (cell c (.rsS 1 1)) 1 ∅ 0 ∗ atPos ER (cell c (.rsR 1 1)) 1 ∅ 0
            ∗ ptsAny (F := F) c stgM1_1 ∗ ptsIs c commM1_1 (V.rs1_1 (nbr 2 c)))) := by
  simp only [k0_part20_eq_skeleton]; unfold k0_part20_skel
  simp only [Prog.lift, Prog.bind_op, Prog.bind_ret, Prog.pure_eq_ret]
  iintro ⟨#HIs, #HIr, #Hrs, #Hrr, Hts, Htr, Hdst, HO, Hstg, Hacc, Hland, #Hlev, #HIw, Hcw, Hatw, #HIv, Hcv, Hatv⟩
  unfold heldW
  unfold ptsAny
  icases Hdst with ⟨%fd, Hdst⟩
  -- the rows that came back are cut into the 256 rows sent now and the rest
  ihave Hs := (Entails.of_eq (pts_set_eq (F := F) (ℓ := (stgM0_1 : Memref sig .tc .vmem S512x384 .bf16).view.loc (c : Thread nD τ))
      (S' := (stgM0_2 : Memref sig .tc .vmem S256x384 .bf16).view.set ∪ ((stgM0_1 : Memref sig .tc .vmem S512x384 .bf16).view.set \ (stgM0_2 : Memref sig .tc .vmem S256x384 .bf16).view.set)) (Finset.union_sdiff_of_subset stg_sub2_0).symm)) $$ Hstg
  ihave Hs2 := (pts_union (F := F) Finset.disjoint_sdiff).1 $$ Hs
  icases Hs2 with ⟨Hsrc, Hrem⟩
  iapply (wp_send_to V c ⟨k0_dev16 c, k0_dev16_lt c⟩ 2 (dev16_eq c) (.rsS 0 2) (.rsR 0 2) (by decide) (by decide) 15 (by decide) (paid_rs c 0 2) rfl
      (src := stgM0_2) (dst := commM0_2) (rsS_sem_eq 0 2 _) (rsR_sem_eq 0 2 _) rfl fd κs κr W
      (ptsAny_intro c stgM0_2 _)
      (ptsIs_intro (nbr 2 c) commM0_2 _ _ (by rw [View.read_write_univ, nbr_nbr]; exact hV))) $$ [Hsrc Hdst HO Hts Htr]
  · isplitr; · iexact HIs
    isplitr; · iexact HIr
    isplitl [Hsrc]; · iexact Hsrc
    isplitl [Hdst]; · iexact Hdst
    isplitl [HO]; · iexact HO
    isplitl [Hts]; · iexact Hts
    isplitr; · iexact Hrs
    isplitl [Htr]; · iexact Htr
    iexact Hrr
  iintro ⟨Hcs, HO⟩
  have hinc1 : ((Memref.whole cc0_scratch1 : Memref sig .tc .vmem S1792x384 .bf16).access (Rect.unit (s := S1792x384) (k0_off38 c) ![256, 384] (k0_off38_inb c))).set
      ⊆ (commM0_1 : Memref sig .tc .vmem S512x384 .bf16).view.set := by
    rw [View.set_slice_whole, View.set_slice_whole]
    refine unit_subset ?_
    piece_arith c [off38_eq]
  sl_exec
  iapply (wp_wait_xfer V c (.rsS 1 1) (by decide) 16 (rsS_sem_eq 1 1 _)
      (show (stgM1_1 : Memref sig .tc .vmem S512x384 .bf16).view.dmaCredit = amt (.rsS 1 1) from rfl)
      (wpE_waitDma2_eq 𝒱₀ (c : Thread nD τ) none Set.univ)
      (mayWait_own c (.rsS 1 1) (lv_cell c _) 16) κw W) $$ [Hcw HO Hatw]
  · isplitr; · iexact HIw
    isplitl [Hcw]; · iexact Hcw
    isplitl [HO]; · iexact HO
    isplitr; · iexact Hlev
    iexact Hatw
  iintro ⟨HO, Hatw, Hpay1⟩
  iapply (wp_wait_xfer V c (.rsR 1 1) (by decide) 16 (rsR_sem_eq 1 1 _)
      (show (commM1_1 : Memref sig .tc .vmem S512x384 .bf16).view.dmaCredit = amt (.rsR 1 1) from rfl)
      (wpE_waitDma2_eq 𝒱₀ (c : Thread nD τ) none Set.univ)
      (mayWait_rsR c 1 1 16 (by decide)) κv (insert ((CK.rsS 1 1).sem, ()) W)) $$ [Hcv HO Hatv]
  · isplitr; · iexact HIv
    isplitl [Hcv]; · iexact Hcv
    isplitl [HO]; · iexact HO
    isplitr; · iexact Hlev
    iexact Hatv
  iintro ⟨HO, Hatv, Hpay2⟩
  ihave Hp1 := (Entails.of_eq (show pay V c (CK.rsS 1 1) 0 = ptsAny (F := F) c stgM1_1 from rfl)) $$ Hpay1
  ihave Hp2 := (Entails.of_eq (show pay V c (CK.rsR 1 1) 0 = ptsIs c commM1_1 (V.rs1_1 (nbr 2 c)) from rfl)) $$ Hpay2
  sl_step
  isplitr; · ipureintro; rfl
  unfold ptsAny
  isplitl [Hcs]; · iexact Hcs
  isplitl [HO]; · iexact HO
  isplitl [Hacc]; · iexact Hacc
  isplitl [Hland]; · iexact Hland
  isplitl [Hrem]; · iexact Hrem
  isplitl [Hatw]; · iexact Hatw
  isplitl [Hatv]; · iexact Hatv
  isplitl [Hp1]; · iexact Hp1
  iexact Hp2

end Cert.Kernel.Proto

end
-- ==== Proof.Body21Bits.lean ====
/-
Stretch 21 of a device's kernel body: the sum of the sent-on 256 rows of group 1's second landing into the accumulator,
their rounding into the first 256 rows of group 1's staging buffer, group 1's third reduce-scatter send (those rows to the
neighbour across axis 0), and the loads for the sum of the kept 256 rows.
-/
import proofs.«900882_g7700000000000883_dist_matmul_gelu_kshard_i_m2048_n2048_k1024_v7x_i8_f32_1_alg».proof.Proof.RulesBits
import proofs.«900882_g7700000000000883_dist_matmul_gelu_kshard_i_m2048_n2048_k1024_v7x_i8_f32_1_alg».proof.Proof.TopoBitsTab
import proofs.«900882_g7700000000000883_dist_matmul_gelu_kshard_i_m2048_n2048_k1024_v7x_i8_f32_1_alg».proof.Proof.PiecesTabBits
import proofs.«900882_g7700000000000883_dist_matmul_gelu_kshard_i_m2048_n2048_k1024_v7x_i8_f32_1_alg».proof.Proof.Gen.Kernel.Skeleton
import proofs.«900882_g7700000000000883_dist_matmul_gelu_kshard_i_m2048_n2048_k1024_v7x_i8_f32_1_alg».proof.Proof.TopoClosedBits
import Idealize.ShloMosaic.Lib.Pipeline.Value

set_option maxRecDepth 16384

noncomputable section

namespace Cert.Kernel.Proto

open Cert.Kernel Cert.Kernel.Gen Cert.Kernel.Topo
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : Vals F)

set_option maxHeartbeats 2000000 in
theorem part21_run (c : Dev nD) (κs κr : ℕ) (W : Waits sig Unit) (v2 v304 v626 v628 : BitVec 32)
    (f3 : Buf (Elt F) ((Memref.whole cc0_scratch0 : Memref sig .tc .vmem S2048x2048 .f32).view.loc (c : Thread nD τ)))
    (f11 : Buf (Elt F) ((stgM1_1 : Memref sig .tc .vmem S512x384 .bf16).view.loc (c : Thread nD τ)))
    (fl : Buf (Elt F) ((commM1_1 : Memref sig .tc .vmem S512x384 .bf16).view.loc (c : Thread nD τ)))
    (hV : V.rs1_2 c ((stgM1_2 : Memref sig .tc .vmem S256x384 .bf16).view.read (Elt F) (View.write (Elt F) ((Memref.whole cc0_scratch8 : Memref sig .tc .vmem S1024x384 .bf16).access (Rect.unit (s := S1024x384) ![0, 0] ![256, 384] inb_S1024x384_S256x384_0_0)) f11 (k0_pay42 ((Memref.whole cc0_scratch0 : Memref sig .tc .vmem S2048x2048 .f32).view.readCov [⟨Rect.unit (s := S2048x2048) (k0_off39 c) ![256, 384] (k0_off39_inb c), k0_pay41 (View.readAt (Elt F) (Memref.whole cc0_scratch0 : Memref sig .tc .vmem S2048x2048 .f32).view (Rect.unit (s := S2048x2048) (k0_off39 c) ![256, 384] (k0_off39_inb c)).toLoadRect f3) (View.readAt (Elt F) (Memref.whole cc0_scratch2 : Memref sig .tc .vmem S1792x384 .bf16).view (Rect.unit (s := S1792x384) (k0_off40 c) ![256, 384] (k0_off40_inb c)).toLoadRect fl)⟩] (Rect.unit (s := S2048x2048) (k0_off39 c) ![256, 384] (k0_off39_inb c)).toLoadRect)) Finset.univ))) :
    iprop(cellInv ER (sched V) κs (cell c (.rsS 1 2)) ∗ cellInv ER (sched V) κr (cell (nbr 0 c) (.rsR 1 2))
        ∗ reached ER (cell c (.rsS 1 2)) 0 ∗ reached ER (cell (nbr 0 c) (.rsR 1 2)) 0
        ∗ dutyTok ER (cell c (.rsS 1 2)) 0 (0 : Fin 3) ∗ dutyTok ER (cell (nbr 0 c) (.rsR 1 2)) 0 (0 : Fin 3)
        ∗ ptsAny (F := F) (nbr 0 c) commM1_2
        ∗ owes (c : Thread nD τ) (Owe c 16) W
        ∗ heldW c (stgM1_1 : Memref sig .tc .vmem S512x384 .bf16) f11
        ∗ heldW c (Memref.whole cc0_scratch0 : Memref sig .tc .vmem S2048x2048 .f32) f3
        ∗ heldW c (commM1_1 : Memref sig .tc .vmem S512x384 .bf16) fl)
      ⊢ wp frame (wpE (defs₀ (F := F)) 𝒱₀ c none) Set.univ
          (k0_part21 (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23 c v2 v304 v626 v628)
          (fun r => iprop(⌜r = ⟨Scalar.xori v2 1#32, ⟨k0_pay43 (View.readAt (Elt F) (Memref.whole cc0_scratch0 : Memref sig .tc .vmem S2048x2048 .f32).view (Rect.unit (s := S2048x2048) (k0_off41 c) ![256, 384] (k0_off41_inb c)).toLoadRect ((Memref.whole cc0_scratch0 : Memref sig .tc .vmem S2048x2048 .f32).view.writes (Elt F) f3 [⟨Rect.unit (s := S2048x2048) (k0_off39 c) ![256, 384] (k0_off39_inb c), k0_pay41 (View.readAt (Elt F) (Memref.whole cc0_scratch0 : Memref sig .tc .vmem S2048x2048 .f32).view (Rect.unit (s := S2048x2048) (k0_off39 c) ![256, 384] (k0_off39_inb c)).toLoadRect f3) (View.readAt (Elt F) (Memref.whole cc0_scratch2 : Memref sig .tc .vmem S1792x384 .bf16).view (Rect.unit (s := S1792x384) (k0_off40 c) ![256, 384] (k0_off40_inb c)).toLoadRect fl)⟩])) (View.readAt (Elt F) (Memref.whole cc0_scratch2 : Memref sig .tc .vmem S1792x384 .bf16).view (Rect.unit (s := S1792x384) (k0_off42 c) ![256, 384] (k0_off42_inb c)).toLoadRect fl), View.readAt (Elt F) (Memref.whole cc0_scratch0 : Memref sig .tc .vmem S2048x2048 .f32).view (Rect.unit (s := S2048x2048) (k0_off41 c) ![256, 384] (k0_off41_inb c)).toLoadRect ((Memref.whole cc0_scratch0 : Memref sig .tc .vmem S2048x2048 .f32).view.writes (Elt F) f3 [⟨Rect.unit (s := S2048x2048) (k0_off39 c) ![256, 384] (k0_off39_inb c), k0_pay41 (View.readAt (Elt F) (Memref.whole cc0_scratch0 : Memref sig .tc .vmem S2048x2048 .f32).view (Rect.unit (s := S2048x2048) (k0_off39 c) ![256, 384] (k0_off39_inb c)).toLoadRect f3) (View.readAt (Elt F) (Memref.whole cc0_scratch2 : Memref sig .tc .vmem S1792x384 .bf16).view (Rect.unit (s := S1792x384) (k0_off40 c) ![256, 384] (k0_off40_inb c)).toLoadRect fl)⟩])⟩⟩⌝ ∗ cred (tallyAt (cell c (.rsS 1 2)) () (amt (.rsR 1 2)))
            ∗ owes (c : Thread nD τ) (Owe c 17) W
            ∗ heldW c (Memref.whole cc0_scratch0 : Memref sig .tc .vmem S2048x2048 .f32) ((Memref.whole cc0_scratch0 : Memref sig .tc .vmem S2048x2048 .f32).view.writes (Elt F) f3 [⟨Rect.unit (s := S2048x2048) (k0_off39 c) ![256, 384] (k0_off39_inb c), k0_pay41 (View.readAt (Elt F) (Memref.whole cc0_scratch0 : Memref sig .tc .vmem S2048x2048 .f32).view (Rect.unit (s := S2048x2048) (k0_off39 c) ![256, 384] (k0_off39_inb c)).toLoadRect f3) (View.readAt (Elt F) (Memref.whole cc0_scratch2 : Memref sig .tc .vmem S1792x384 .bf16).view (Rect.unit (s := S1792x384) (k0_off40 c) ![256, 384] (k0_off40_inb c)).toLoadRect fl)⟩])
            ∗ heldW c (commM1_1 : Memref sig .tc .vmem S512x384 .bf16) fl
            ∗ ((stgM1_1 : Memref sig .tc .vmem S512x384 .bf16).view.loc (c : Thread nD τ) ↦[(stgM1_1 : Memref sig .tc .vmem S512x384 .bf16).view.set \ (stgM1_2 : Memref sig .tc .vmem S256x384 .bf16).view.set]{fullShare} (View.write (Elt F) ((Memref.whole cc0_scratch8 : Memref sig .tc .vmem S1024x384 .bf16).access (Rect.unit (s := S1024x384) ![0, 0] ![256, 384] inb_S1024x384_S256x384_0_0)) f11 (k0_pay42 ((Memref.whole cc0_scratch0 : Memref sig .tc .vmem S2048x2048 .f32).view.readCov [⟨Rect.unit (s := S2048x2048) (k0_off39 c) ![256, 384] (k0_off39_inb c), k0_pay41 (View.readAt (Elt F) (Memref.whole cc0_scratch0 : Memref sig .tc .vmem S2048x2048 .f32).view (Rect.unit (s := S2048x2048) (k0_off39 c) ![256, 384] (k0_off39_inb c)).toLoadRect f3) (View.readAt (Elt F) (Memref.whole cc0_scratch2 : Memref sig .tc .vmem S1792x384 .bf16).view (Rect.unit (s := S1792x384) (k0_off40 c) ![256, 384] (k0_off40_inb c)).toLoadRect fl)⟩] (Rect.unit (s := S2048x2048) (k0_off39 c) ![256, 384] (k0_off39_inb c)).toLoadRect)) Finset.univ)))) := by
  simp only [k0_part21_eq_skeleton]; unfold k0_part21_skel
  simp only [Prog.lift, Prog.bind_op, Prog.bind_ret, Prog.pure_eq_ret]
  iintro ⟨#HIs, #HIr, #Hrs, #Hrr, Hts, Htr, Hdst, HO, Hstg, Hacc, Hland⟩
  unfold heldW
  unfold ptsAny
  icases Hdst with ⟨%fd, Hdst⟩
  have hinc1 : ((Memref.whole cc0_scratch2 : Memref sig .tc .vmem S1792x384 .bf16).access (Rect.unit (s := S1792x384) (k0_off40 c) ![256, 384] (k0_off40_inb c))).set
      ⊆ (commM1_1 : Memref sig .tc .vmem S512x384 .bf16).view.set := by
    rw [View.set_slice_whole, View.set_slice_whole]
    refine unit_subset ?_
    piece_arith c [off40_eq]
  have hinc2 : ((Memref.whole cc0_scratch2 : Memref sig .tc .vmem S1792x384 .bf16).access (Rect.unit (s := S1792x384) (k0_off42 c) ![256, 384] (k0_off42_inb c))).set
      ⊆ (commM1_1 : Memref sig .tc .vmem S512x384 .bf16).view.set := by
    rw [View.set_slice_whole, View.set_slice_whole]
    refine unit_subset ?_
    piece_arith c [off42_eq]
  have hinc3 : ((Memref.whole cc0_scratch8 : Memref sig .tc .vmem S1024x384 .bf16).access (Rect.unit (s := S1024x384) ![0, 0] ![256, 384] inb_S1024x384_S256x384_0_0)).set
      ⊆ (stgM1_1 : Memref sig .tc .vmem S512x384 .bf16).view.set := by
    rw [View.set_slice_whole, View.set_slice_whole]
    exact unit_subset (by decide)
  have hinc4 : ((Memref.whole cc0_scratch8 : Memref sig .tc .vmem S1024x384 .bf16).access (Rect.unit (s := S1024x384) ![0, 0] ![256, 384] inb_S1024x384_S256x384_0_0)).setOn Finset.univ
      ⊆ (stgM1_1 : Memref sig .tc .vmem S512x384 .bf16).view.set := by
    rw [View.setOn_univ]
    rw [View.set_slice_whole, View.set_slice_whole]
    exact unit_subset (by decide)
  sl_exec
  -- the rows that came back are cut into the 256 rows sent now and the rest
  ihave Hs := (Entails.of_eq (pts_set_eq (F := F) (ℓ := (stgM1_1 : Memref sig .tc .vmem S512x384 .bf16).view.loc (c : Thread nD τ))
      (S' := (stgM1_2 : Memref sig .tc .vmem S256x384 .bf16).view.set ∪ ((stgM1_1 : Memref sig .tc .vmem S512x384 .bf16).view.set \ (stgM1_2 : Memref sig .tc .vmem S256x384 .bf16).view.set)) (Finset.union_sdiff_of_subset stg_sub2_1).symm)) $$ Hstg
  ihave Hs2 := (pts_union (F := F) Finset.disjoint_sdiff).1 $$ Hs
  icases Hs2 with ⟨Hsrc, Hrem⟩
  iapply (wp_send_to V c ⟨k0_dev17 c, k0_dev17_lt c⟩ 0 (dev17_eq c) (.rsS 1 2) (.rsR 1 2) (by decide) (by decide) 16 (by decide) (paid_rs c 1 2) rfl
      (src := stgM1_2) (dst := commM1_2) (rsS_sem_eq 1 2 _) (rsR_sem_eq 1 2 _) rfl fd κs κr W
      (ptsAny_intro c stgM1_2 _)
      (ptsIs_intro (nbr 0 c) commM1_2 _ _ (by rw [View.read_write_univ, nbr_nbr]; exact hV))) $$ [Hsrc Hdst HO Hts Htr]
  · isplitr; · iexact HIs
    isplitr; · iexact HIr
    isplitl [Hsrc]; · iexact Hsrc
    isplitl [Hdst]; · iexact Hdst
    isplitl [HO]; · iexact HO
    isplitl [Hts]; · iexact Hts
    isplitr; · iexact Hrs
    isplitl [Htr]; · iexact Htr
    iexact Hrr
  iintro ⟨Hcs, HO⟩
  sl_exec
  sl_step
  isplitr; · ipureintro; rfl
  isplitl [Hcs]; · iexact Hcs
  isplitl [HO]; · iexact HO
  isplitl [Hacc]; · iexact Hacc
  isplitl [Hland]; · iexact Hland
  iexact Hrem

end Cert.Kernel.Proto

end
-- ==== Proof.Body22Bits.lean ====
/-
Stretch 22 of a device's kernel body: the store of the sum of the kept 256 rows of group 1's second landing into the
accumulator, the two waits of group 2's second exchange, and the sum of the sent-on 256 rows of its landing into the
accumulator.
-/
import proofs.«900882_g7700000000000883_dist_matmul_gelu_kshard_i_m2048_n2048_k1024_v7x_i8_f32_1_alg».proof.Proof.RulesBits
import proofs.«900882_g7700000000000883_dist_matmul_gelu_kshard_i_m2048_n2048_k1024_v7x_i8_f32_1_alg».proof.Proof.TopoBitsTab
import proofs.«900882_g7700000000000883_dist_matmul_gelu_kshard_i_m2048_n2048_k1024_v7x_i8_f32_1_alg».proof.Proof.PiecesTabBits
import proofs.«900882_g7700000000000883_dist_matmul_gelu_kshard_i_m2048_n2048_k1024_v7x_i8_f32_1_alg».proof.Proof.Gen.Kernel.Skeleton
import proofs.«900882_g7700000000000883_dist_matmul_gelu_kshard_i_m2048_n2048_k1024_v7x_i8_f32_1_alg».proof.Proof.TopoClosedBits
import Idealize.ShloMosaic.Lib.Pipeline.Value

set_option maxRecDepth 16384

noncomputable section

namespace Cert.Kernel.Proto

open Cert.Kernel Cert.Kernel.Gen Cert.Kernel.Topo
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : Vals F)

set_option maxHeartbeats 2000000 in
theorem part22_run (c : Dev nD) (κw κv : ℕ) (W : Waits sig Unit) (v8 v358 v377 : BitVec 32) (v663 : FVec F S256x384 .f32) (v665 : Vec F S256x384 .f32)
    (f3 : Buf (Elt F) ((Memref.whole cc0_scratch0 : Memref sig .tc .vmem S2048x2048 .f32).view.loc (c : Thread nD τ))) :
    iprop(owes (c : Thread nD τ) (Owe c 17) W ∗ levAts L lv
        ∗ heldW c (Memref.whole cc0_scratch0 : Memref sig .tc .vmem S2048x2048 .f32) f3
        ∗ cellInv ER (sched V) κw (cell c (.rsS 2 1)) ∗ cred (tallyAt (cell c (.rsS 2 1)) () (amt (.rsS 2 1))) ∗ atPos ER (cell c (.rsS 2 1)) 0 ∅ 0
        ∗ cellInv ER (sched V) κv (cell c (.rsR 2 1)) ∗ cred (tallyAt (cell c (.rsR 2 1)) () (amt (.rsR 2 1))) ∗ atPos ER (cell c (.rsR 2 1)) 0 ∅ 0)
      ⊢ wp frame (wpE (defs₀ (F := F)) 𝒱₀ c none) Set.univ
          (k0_part22 (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23 c v8 v358 v377 v663 v665)
          (fun r => iprop(⌜r = (Scalar.addi v358 (Scalar.muli v8 256#32))⌝ ∗ (∃ fl : Buf (Elt F) ((commM2_1 : Memref sig .tc .vmem S512x384 .bf16).view.loc (c : Thread nD τ)), ⌜V.rs2_1 (nbr 0 c) ((commM2_1 : Memref sig .tc .vmem S512x384 .bf16).view.read (Elt F) fl)⌝
            ∗ heldW c (commM2_1 : Memref sig .tc .vmem S512x384 .bf16) fl
            ∗ owes (c : Thread nD τ) (Owe c 17) (insert ((CK.rsR 2 1).sem, ()) (insert ((CK.rsS 2 1).sem, ()) W))
            ∗ atPos ER (cell c (.rsS 2 1)) 1 ∅ 0 ∗ atPos ER (cell c (.rsR 2 1)) 1 ∅ 0
            ∗ ptsAny (F := F) c stgM2_1
            ∗ heldW c (Memref.whole cc0_scratch0 : Memref sig .tc .vmem S2048x2048 .f32) ((Memref.whole cc0_scratch0 : Memref sig .tc .vmem S2048x2048 .f32).view.writes (Elt F) f3 [⟨Rect.unit (s := S2048x2048) (k0_off43 c) ![256, 384] (k0_off43_inb c), k0_pay45 (View.readAt (Elt F) (Memref.whole cc0_scratch0 : Memref sig .tc .vmem S2048x2048 .f32).view (Rect.unit (s := S2048x2048) (k0_off43 c) ![256, 384] (k0_off43_inb c)).toLoadRect f3) (View.readAt (Elt F) (Memref.whole cc0_scratch3 : Memref sig .tc .vmem S1792x384 .bf16).view (Rect.unit (s := S1792x384) (k0_off44 c) ![256, 384] (k0_off44_inb c)).toLoadRect fl)⟩, ⟨Rect.unit (s := S2048x2048) (k0_off41 c) ![256, 384] (k0_off41_inb c), k0_pay44 v663⟩])))) := by
  simp only [k0_part22_eq_skeleton]; unfold k0_part22_skel
  simp only [Prog.lift, Prog.bind_op, Prog.bind_ret, Prog.pure_eq_ret]
  iintro ⟨HO, #Hlev, Hacc, #HIw, Hcw, Hatw, #HIv, Hcv, Hatv⟩
  unfold heldW
  sl_exec
  iapply (wp_wait_xfer V c (.rsS 2 1) (by decide) 17 (rsS_sem_eq 2 1 _)
      (show (stgM2_1 : Memref sig .tc .vmem S512x384 .bf16).view.dmaCredit = amt (.rsS 2 1) from rfl)
      (wpE_waitDma2_eq 𝒱₀ (c : Thread nD τ) none Set.univ)
      (mayWait_own c (.rsS 2 1) (lv_cell c _) 17) κw W) $$ [Hcw HO Hatw]
  · isplitr; · iexact HIw
    isplitl [Hcw]; · iexact Hcw
    isplitl [HO]; · iexact HO
    isplitr; · iexact Hlev
    iexact Hatw
  iintro ⟨HO, Hatw, Hpay1⟩
  iapply (wp_wait_xfer V c (.rsR 2 1) (by decide) 17 (rsR_sem_eq 2 1 _)
      (show (commM2_1 : Memref sig .tc .vmem S512x384 .bf16).view.dmaCredit = amt (.rsR 2 1) from rfl)
      (wpE_waitDma2_eq 𝒱₀ (c : Thread nD τ) none Set.univ)
      (mayWait_rsR c 2 1 17 (by decide)) κv (insert ((CK.rsS 2 1).sem, ()) W)) $$ [Hcv HO Hatv]
  · isplitr; · iexact HIv
    isplitl [Hcv]; · iexact Hcv
    isplitl [HO]; · iexact HO
    isplitr; · iexact Hlev
    iexact Hatv
  iintro ⟨HO, Hatv, Hpay2⟩
  ihave Hp1 := (Entails.of_eq (show pay V c (CK.rsS 2 1) 0 = ptsAny (F := F) c stgM2_1 from rfl)) $$ Hpay1
  ihave Hp2 := (Entails.of_eq (show pay V c (CK.rsR 2 1) 0 = ptsIs c commM2_1 (V.rs2_1 (nbr 0 c)) from rfl)) $$ Hpay2
  unfold ptsIs
  icases Hp2 with ⟨%fl, Hland, %hX⟩
  have hinc1 : ((Memref.whole cc0_scratch3 : Memref sig .tc .vmem S1792x384 .bf16).access (Rect.unit (s := S1792x384) (k0_off44 c) ![256, 384] (k0_off44_inb c))).set
      ⊆ (commM2_1 : Memref sig .tc .vmem S512x384 .bf16).view.set := by
    rw [View.set_slice_whole, View.set_slice_whole]
    refine unit_subset ?_
    piece_arith c [off44_eq]
  sl_exec
  sl_step
  isplitr; · ipureintro; rfl
  iexists fl
  isplitr; · ipureintro; exact hX
  isplitl [Hland]; · iexact Hland
  isplitl [HO]; · iexact HO
  isplitl [Hatw]; · iexact Hatw
  isplitl [Hatv]; · iexact Hatv
  isplitl [Hp1]; · iexact Hp1
  iexact Hacc

end Cert.Kernel.Proto

end
-- ==== Proof.Body23Bits.lean ====
/-
Stretch 23 of a device's kernel body: the rounding of the sent-on 256 rows of group 2 into the first 256 rows of its
staging buffer, group 2's third reduce-scatter send (those rows to the neighbour across axis 1), and the sum of the kept
256 rows of its second landing into the accumulator.
-/
import proofs.«900882_g7700000000000883_dist_matmul_gelu_kshard_i_m2048_n2048_k1024_v7x_i8_f32_1_alg».proof.Proof.RulesBits
import proofs.«900882_g7700000000000883_dist_matmul_gelu_kshard_i_m2048_n2048_k1024_v7x_i8_f32_1_alg».proof.Proof.TopoBitsTab
import proofs.«900882_g7700000000000883_dist_matmul_gelu_kshard_i_m2048_n2048_k1024_v7x_i8_f32_1_alg».proof.Proof.PiecesTabBits
import proofs.«900882_g7700000000000883_dist_matmul_gelu_kshard_i_m2048_n2048_k1024_v7x_i8_f32_1_alg».proof.Proof.Gen.Kernel.Skeleton
import proofs.«900882_g7700000000000883_dist_matmul_gelu_kshard_i_m2048_n2048_k1024_v7x_i8_f32_1_alg».proof.Proof.TopoClosedBits
import Idealize.ShloMosaic.Lib.Pipeline.Value

set_option maxRecDepth 16384

noncomputable section

namespace Cert.Kernel.Proto

open Cert.Kernel Cert.Kernel.Gen Cert.Kernel.Topo
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : Vals F)

set_option maxHeartbeats 2000000 in
theorem part23_run (c : Dev nD) (κs κr : ℕ) (W : Waits sig Unit) (v2 v358 v682 : BitVec 32)
    (f3 : Buf (Elt F) ((Memref.whole cc0_scratch0 : Memref sig .tc .vmem S2048x2048 .f32).view.loc (c : Thread nD τ)))
    (f12 : Buf (Elt F) ((stgM2_1 : Memref sig .tc .vmem S512x384 .bf16).view.loc (c : Thread nD τ)))
    (fl : Buf (Elt F) ((commM2_1 : Memref sig .tc .vmem S512x384 .bf16).view.loc (c : Thread nD τ)))
    (hV : V.rs2_2 c ((stgM2_2 : Memref sig .tc .vmem S256x384 .bf16).view.read (Elt F) (View.write (Elt F) ((Memref.whole cc0_scratch9 : Memref sig .tc .vmem S1024x384 .bf16).access (Rect.unit (s := S1024x384) ![0, 0] ![256, 384] inb_S1024x384_S256x384_0_0)) f12 (k0_pay46 (View.readAt (Elt F) (Memref.whole cc0_scratch0 : Memref sig .tc .vmem S2048x2048 .f32).view (Rect.unit (s := S2048x2048) (k0_off43 c) ![256, 384] (k0_off43_inb c)).toLoadRect f3)) Finset.univ))) :
    iprop(cellInv ER (sched V) κs (cell c (.rsS 2 2)) ∗ cellInv ER (sched V) κr (cell (nbr 1 c) (.rsR 2 2))
        ∗ reached ER (cell c (.rsS 2 2)) 0 ∗ reached ER (cell (nbr 1 c) (.rsR 2 2)) 0
        ∗ dutyTok ER (cell c (.rsS 2 2)) 0 (0 : Fin 3) ∗ dutyTok ER (cell (nbr 1 c) (.rsR 2 2)) 0 (0 : Fin 3)
        ∗ ptsAny (F := F) (nbr 1 c) commM2_2
        ∗ owes (c : Thread nD τ) (Owe c 17) W
        ∗ heldW c (stgM2_1 : Memref sig .tc .vmem S512x384 .bf16) f12
        ∗ heldW c (Memref.whole cc0_scratch0 : Memref sig .tc .vmem S2048x2048 .f32) f3
        ∗ heldW c (commM2_1 : Memref sig .tc .vmem S512x384 .bf16) fl)
      ⊢ wp frame (wpE (defs₀ (F := F)) 𝒱₀ c none) Set.univ
          (k0_part23 (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23 c v2 v358 v682)
          (fun r => iprop(⌜r = (Scalar.xori v2 3#32)⌝ ∗ cred (tallyAt (cell c (.rsS 2 2)) () (amt (.rsR 2 2)))
            ∗ owes (c : Thread nD τ) (Owe c 18) W
            ∗ heldW c (Memref.whole cc0_scratch0 : Memref sig .tc .vmem S2048x2048 .f32) ((Memref.whole cc0_scratch0 : Memref sig .tc .vmem S2048x2048 .f32).view.writes (Elt F) f3 [⟨Rect.unit (s := S2048x2048) (k0_off45 c) ![256, 384] (k0_off45_inb c), k0_pay47 (View.readAt (Elt F) (Memref.whole cc0_scratch0 : Memref sig .tc .vmem S2048x2048 .f32).view (Rect.unit (s := S2048x2048) (k0_off45 c) ![256, 384] (k0_off45_inb c)).toLoadRect f3) (View.readAt (Elt F) (Memref.whole cc0_scratch3 : Memref sig .tc .vmem S1792x384 .bf16).view (Rect.unit (s := S1792x384) (k0_off46 c) ![256, 384] (k0_off46_inb c)).toLoadRect fl)⟩])
            ∗ heldW c (commM2_1 : Memref sig .tc .vmem S512x384 .bf16) fl
            ∗ ((stgM2_1 : Memref sig .tc .vmem S512x384 .bf16).view.loc (c : Thread nD τ) ↦[(stgM2_1 : Memref sig .tc .vmem S512x384 .bf16).view.set \ (stgM2_2 : Memref sig .tc .vmem S256x384 .bf16).view.set]{fullShare} (View.write (Elt F) ((Memref.whole cc0_scratch9 : Memref sig .tc .vmem S1024x384 .bf16).access (Rect.unit (s := S1024x384) ![0, 0] ![256, 384] inb_S1024x384_S256x384_0_0)) f12 (k0_pay46 (View.readAt (Elt F) (Memref.whole cc0_scratch0 : Memref sig .tc .vmem S2048x2048 .f32).view (Rect.unit (s := S2048x2048) (k0_off43 c) ![256, 384] (k0_off43_inb c)).toLoadRect f3)) Finset.univ)))) := by
  simp only [k0_part23_eq_skeleton]; unfold k0_part23_skel
  simp only [Prog.lift, Prog.bind_op, Prog.bind_ret, Prog.pure_eq_ret]
  iintro ⟨#HIs, #HIr, #Hrs, #Hrr, Hts, Htr, Hdst, HO, Hstg, Hacc, Hland⟩
  unfold heldW
  unfold ptsAny
  icases Hdst with ⟨%fd, Hdst⟩
  have hinc1 : ((Memref.whole cc0_scratch3 : Memref sig .tc .vmem S1792x384 .bf16).access (Rect.unit (s := S1792x384) (k0_off46 c) ![256, 384] (k0_off46_inb c))).set
      ⊆ (commM2_1 : Memref sig .tc .vmem S512x384 .bf16).view.set := by
    rw [View.set_slice_whole, View.set_slice_whole]
    refine unit_subset ?_
    piece_arith c [off46_eq]
  have hinc3 : ((Memref.whole cc0_scratch9 : Memref sig .tc .vmem S1024x384 .bf16).access (Rect.unit (s := S1024x384) ![0, 0] ![256, 384] inb_S1024x384_S256x384_0_0)).set
      ⊆ (stgM2_1 : Memref sig .tc .vmem S512x384 .bf16).view.set := by
    rw [View.set_slice_whole, View.set_slice_whole]
    exact unit_subset (by decide)
  have hinc4 : ((Memref.whole cc0_scratch9 : Memref sig .tc .vmem S1024x384 .bf16).access (Rect.unit (s := S1024x384) ![0, 0] ![256, 384] inb_S1024x384_S256x384_0_0)).setOn Finset.univ
      ⊆ (stgM2_1 : Memref sig .tc .vmem S512x384 .bf16).view.set := by
    rw [View.setOn_univ]
    rw [View.set_slice_whole, View.set_slice_whole]
    exact unit_subset (by decide)
  sl_exec
  -- the rows that came back are cut into the 256 rows sent now and the rest
  ihave Hs := (Entails.of_eq (pts_set_eq (F := F) (ℓ := (stgM2_1 : Memref sig .tc .vmem S512x384 .bf16).view.loc (c : Thread nD τ))
      (S' := (stgM2_2 : Memref sig .tc .vmem S256x384 .bf16).view.set ∪ ((stgM2_1 : Memref sig .tc .vmem S512x384 .bf16).view.set \ (stgM2_2 : Memref sig .tc .vmem S256x384 .bf16).view.set)) (Finset.union_sdiff_of_subset stg_sub2_2).symm)) $$ Hstg
  ihave Hs2 := (pts_union (F := F) Finset.disjoint_sdiff).1 $$ Hs
  icases Hs2 with ⟨Hsrc, Hrem⟩
  iapply (wp_send_to V c ⟨k0_dev18 c, k0_dev18_lt c⟩ 1 (dev18_eq c) (.rsS 2 2) (.rsR 2 2) (by decide) (by decide) 17 (by decide) (paid_rs c 2 2) rfl
      (src := stgM2_2) (dst := commM2_2) (rsS_sem_eq 2 2 _) (rsR_sem_eq 2 2 _) rfl fd κs κr W
      (ptsAny_intro c stgM2_2 _)
      (ptsIs_intro (nbr 1 c) commM2_2 _ _ (by rw [View.read_write_univ, nbr_nbr]; exact hV))) $$ [Hsrc Hdst HO Hts Htr]
  · isplitr; · iexact HIs
    isplitr; · iexact HIr
    isplitl [Hsrc]; · iexact Hsrc
    isplitl [Hdst]; · iexact Hdst
    isplitl [HO]; · iexact HO
    isplitl [Hts]; · iexact Hts
    isplitr; · iexact Hrs
    isplitl [Htr]; · iexact Htr
    iexact Hrr
  iintro ⟨Hcs, HO⟩
  sl_exec
  sl_step
  isplitr; · ipureintro; rfl
  isplitl [Hcs]; · iexact Hcs
  isplitl [HO]; · iexact HO
  isplitl [Hacc]; · iexact Hacc
  isplitl [Hland]; · iexact Hland
  iexact Hrem

end Cert.Kernel.Proto

end
-- ==== Proof.Body24Bits.lean ====
/-
Stretch 24 of a device's kernel body: the two waits of group 3's second exchange, the sum of the sent-on 256 rows of its
landing into the accumulator, and their rounding into the first 256 rows of group 3's staging buffer.
-/
import proofs.«900882_g7700000000000883_dist_matmul_gelu_kshard_i_m2048_n2048_k1024_v7x_i8_f32_1_alg».proof.Proof.RulesBits
import proofs.«900882_g7700000000000883_dist_matmul_gelu_kshard_i_m2048_n2048_k1024_v7x_i8_f32_1_alg».proof.Proof.TopoBitsTab
import proofs.«900882_g7700000000000883_dist_matmul_gelu_kshard_i_m2048_n2048_k1024_v7x_i8_f32_1_alg».proof.Proof.PiecesTabBits
import proofs.«900882_g7700000000000883_dist_matmul_gelu_kshard_i_m2048_n2048_k1024_v7x_i8_f32_1_alg».proof.Proof.Gen.Kernel.Skeleton
import proofs.«900882_g7700000000000883_dist_matmul_gelu_kshard_i_m2048_n2048_k1024_v7x_i8_f32_1_alg».proof.Proof.TopoClosedBits
import Idealize.ShloMosaic.Lib.Pipeline.Value

set_option maxRecDepth 16384

noncomputable section

namespace Cert.Kernel.Proto

open Cert.Kernel Cert.Kernel.Gen Cert.Kernel.Topo
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : Vals F)

set_option maxHeartbeats 2000000 in
theorem part24_run (c : Dev nD) (κw κv : ℕ) (W : Waits sig Unit) (v2 v9 v412 v431 : BitVec 32)
    (f3 : Buf (Elt F) ((Memref.whole cc0_scratch0 : Memref sig .tc .vmem S2048x2048 .f32).view.loc (c : Thread nD τ))) :
    iprop(owes (c : Thread nD τ) (Owe c 18) W ∗ levAts L lv
        ∗ heldW c (Memref.whole cc0_scratch0 : Memref sig .tc .vmem S2048x2048 .f32) f3
        ∗ cellInv ER (sched V) κw (cell c (.rsS 3 1)) ∗ cred (tallyAt (cell c (.rsS 3 1)) () (amt (.rsS 3 1))) ∗ atPos ER (cell c (.rsS 3 1)) 0 ∅ 0
        ∗ cellInv ER (sched V) κv (cell c (.rsR 3 1)) ∗ cred (tallyAt (cell c (.rsR 3 1)) () (amt (.rsR 3 1))) ∗ atPos ER (cell c (.rsR 3 1)) 0 ∅ 0)
      ⊢ wp frame (wpE (defs₀ (F := F)) 𝒱₀ c none) Set.univ
          (k0_part24 (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23 c v2 v9 v412 v431)
          (fun r => iprop(⌜r = ⟨Scalar.addi v412 (Scalar.muli v9 256#32), ⟨Scalar.xori v2 4#32, 1#32⟩⟩⌝ ∗ (∃ (fl : Buf (Elt F) ((commM3_1 : Memref sig .tc .vmem S512x384 .bf16).view.loc (c : Thread nD τ))) (fs : Buf (Elt F) ((stgM3_1 : Memref sig .tc .vmem S512x384 .bf16).view.loc (c : Thread nD τ))), ⌜V.rs3_1 (nbr 1 c) ((commM3_1 : Memref sig .tc .vmem S512x384 .bf16).view.read (Elt F) fl)⌝
            ∗ heldW c (commM3_1 : Memref sig .tc .vmem S512x384 .bf16) fl
            ∗ owes (c : Thread nD τ) (Owe c 18) (insert ((CK.rsR 3 1).sem, ()) (insert ((CK.rsS 3 1).sem, ()) W))
            ∗ atPos ER (cell c (.rsS 3 1)) 1 ∅ 0 ∗ atPos ER (cell c (.rsR 3 1)) 1 ∅ 0
            ∗ heldW c (Memref.whole cc0_scratch0 : Memref sig .tc .vmem S2048x2048 .f32) ((Memref.whole cc0_scratch0 : Memref sig .tc .vmem S2048x2048 .f32).view.writes (Elt F) f3 [⟨Rect.unit (s := S2048x2048) (k0_off47 c) ![256, 384] (k0_off47_inb c), k0_pay48 (View.readAt (Elt F) (Memref.whole cc0_scratch0 : Memref sig .tc .vmem S2048x2048 .f32).view (Rect.unit (s := S2048x2048) (k0_off47 c) ![256, 384] (k0_off47_inb c)).toLoadRect f3) (View.readAt (Elt F) (Memref.whole cc0_scratch4 : Memref sig .tc .vmem S1792x384 .bf16).view (Rect.unit (s := S1792x384) (k0_off36 c) ![256, 384] (k0_off36_inb c)).toLoadRect fl)⟩])
            ∗ heldW c (stgM3_1 : Memref sig .tc .vmem S512x384 .bf16) (View.write (Elt F) ((Memref.whole cc0_scratch10 : Memref sig .tc .vmem S1024x384 .bf16).access (Rect.unit (s := S1024x384) ![0, 0] ![256, 384] inb_S1024x384_S256x384_0_0)) fs (k0_pay49 ((Memref.whole cc0_scratch0 : Memref sig .tc .vmem S2048x2048 .f32).view.readCov [⟨Rect.unit (s := S2048x2048) (k0_off47 c) ![256, 384] (k0_off47_inb c), k0_pay48 (View.readAt (Elt F) (Memref.whole cc0_scratch0 : Memref sig .tc .vmem S2048x2048 .f32).view (Rect.unit (s := S2048x2048) (k0_off47 c) ![256, 384] (k0_off47_inb c)).toLoadRect f3) (View.readAt (Elt F) (Memref.whole cc0_scratch4 : Memref sig .tc .vmem S1792x384 .bf16).view (Rect.unit (s := S1792x384) (k0_off36 c) ![256, 384] (k0_off36_inb c)).toLoadRect fl)⟩] (Rect.unit (s := S2048x2048) (k0_off47 c) ![256, 384] (k0_off47_inb c)).toLoadRect)) Finset.univ)))) := by
  simp only [k0_part24_eq_skeleton]; unfold k0_part24_skel
  simp only [Prog.lift, Prog.bind_op, Prog.bind_ret, Prog.pure_eq_ret]
  iintro ⟨HO, #Hlev, Hacc, #HIw, Hcw, Hatw, #HIv, Hcv, Hatv⟩
  unfold heldW
  iapply (wp_wait_xfer V c (.rsS 3 1) (by decide) 18 (rsS_sem_eq 3 1 _)
      (show (stgM3_1 : Memref sig .tc .vmem S512x384 .bf16).view.dmaCredit = amt (.rsS 3 1) from rfl)
      (wpE_waitDma2_eq 𝒱₀ (c : Thread nD τ) none Set.univ)
      (mayWait_own c (.rsS 3 1) (lv_cell c _) 18) κw W) $$ [Hcw HO Hatw]
  · isplitr; · iexact HIw
    isplitl [Hcw]; · iexact Hcw
    isplitl [HO]; · iexact HO
    isplitr; · iexact Hlev
    iexact Hatw
  iintro ⟨HO, Hatw, Hpay1⟩
  iapply (wp_wait_xfer V c (.rsR 3 1) (by decide) 18 (rsR_sem_eq 3 1 _)
      (show (commM3_1 : Memref sig .tc .vmem S512x384 .bf16).view.dmaCredit = amt (.rsR 3 1) from rfl)
      (wpE_waitDma2_eq 𝒱₀ (c : Thread nD τ) none Set.univ)
      (mayWait_rsR c 3 1 18 (by decide)) κv (insert ((CK.rsS 3 1).sem, ()) W)) $$ [Hcv HO Hatv]
  · isplitr; · iexact HIv
    isplitl [Hcv]; · iexact Hcv
    isplitl [HO]; · iexact HO
    isplitr; · iexact Hlev
    iexact Hatv
  iintro ⟨HO, Hatv, Hpay2⟩
  ihave Hp1 := (Entails.of_eq (show pay V c (CK.rsS 3 1) 0 = ptsAny (F := F) c stgM3_1 from rfl)) $$ Hpay1
  ihave Hp2 := (Entails.of_eq (show pay V c (CK.rsR 3 1) 0 = ptsIs c commM3_1 (V.rs3_1 (nbr 1 c)) from rfl)) $$ Hpay2
  unfold ptsAny
  icases Hp1 with ⟨%fs, Hstg⟩
  unfold ptsIs
  icases Hp2 with ⟨%fl, Hland, %hX⟩
  have hinc1 : ((Memref.whole cc0_scratch4 : Memref sig .tc .vmem S1792x384 .bf16).access (Rect.unit (s := S1792x384) (k0_off36 c) ![256, 384] (k0_off36_inb c))).set
      ⊆ (commM3_1 : Memref sig .tc .vmem S512x384 .bf16).view.set := by
    rw [View.set_slice_whole, View.set_slice_whole]
    refine unit_subset ?_
    piece_arith c [off36_eq]
  have hinc3 : ((Memref.whole cc0_scratch10 : Memref sig .tc .vmem S1024x384 .bf16).access (Rect.unit (s := S1024x384) ![0, 0] ![256, 384] inb_S1024x384_S256x384_0_0)).set
      ⊆ (stgM3_1 : Memref sig .tc .vmem S512x384 .bf16).view.set := by
    rw [View.set_slice_whole, View.set_slice_whole]
    exact unit_subset (by decide)
  have hinc4 : ((Memref.whole cc0_scratch10 : Memref sig .tc .vmem S1024x384 .bf16).access (Rect.unit (s := S1024x384) ![0, 0] ![256, 384] inb_S1024x384_S256x384_0_0)).setOn Finset.univ
      ⊆ (stgM3_1 : Memref sig .tc .vmem S512x384 .bf16).view.set := by
    rw [View.setOn_univ]
    rw [View.set_slice_whole, View.set_slice_whole]
    exact unit_subset (by decide)
  sl_exec
  sl_step
  isplitr; · ipureintro; rfl
  iexists fl, fs
  isplitr; · ipureintro; exact hX
  isplitl [Hland]; · iexact Hland
  isplitl [HO]; · iexact HO
  isplitl [Hatw]; · iexact Hatw
  isplitl [Hatv]; · iexact Hatv
  isplitl [Hacc]; · iexact Hacc
  iexact Hstg

end Cert.Kernel.Proto

end
-- ==== Proof.Body25Bits.lean ====
/-
Stretch 25 of a device's kernel body: group 3's third reduce-scatter send (the first 256 rows of its staging buffer to the
neighbour across axis 2), the sum of the kept 256 rows of its second landing into the accumulator, and the wait for
group 4's second send to leave its staging rows.
-/
import proofs.«900882_g7700000000000883_dist_matmul_gelu_kshard_i_m2048_n2048_k1024_v7x_i8_f32_1_alg».proof.Proof.RulesBits
import proofs.«900882_g7700000000000883_dist_matmul_gelu_kshard_i_m2048_n2048_k1024_v7x_i8_f32_1_alg».proof.Proof.TopoBitsTab
import proofs.«900882_g7700000000000883_dist_matmul_gelu_kshard_i_m2048_n2048_k1024_v7x_i8_f32_1_alg».proof.Proof.PiecesTabBits
import proofs.«900882_g7700000000000883_dist_matmul_gelu_kshard_i_m2048_n2048_k1024_v7x_i8_f32_1_alg».proof.Proof.Gen.Kernel.Skeleton
import proofs.«900882_g7700000000000883_dist_matmul_gelu_kshard_i_m2048_n2048_k1024_v7x_i8_f32_1_alg».proof.Proof.TopoClosedBits
import Idealize.ShloMosaic.Lib.Pipeline.Value

set_option maxRecDepth 16384

noncomputable section

namespace Cert.Kernel.Proto

open Cert.Kernel Cert.Kernel.Gen Cert.Kernel.Topo
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : Vals F)

set_option maxHeartbeats 2000000 in
theorem part25_run (c : Dev nD) (κs κr κw : ℕ) (W : Waits sig Unit) (v412 v485 v736 v755 c1_i32_583 : BitVec 32)
    (f3 : Buf (Elt F) ((Memref.whole cc0_scratch0 : Memref sig .tc .vmem S2048x2048 .f32).view.loc (c : Thread nD τ)))
    (f13 : Buf (Elt F) ((stgM3_1 : Memref sig .tc .vmem S512x384 .bf16).view.loc (c : Thread nD τ)))
    (fl : Buf (Elt F) ((commM3_1 : Memref sig .tc .vmem S512x384 .bf16).view.loc (c : Thread nD τ)))
    (hV : V.rs3_2 c ((stgM3_2 : Memref sig .tc .vmem S256x384 .bf16).view.read (Elt F) f13)) :
    iprop(cellInv ER (sched V) κs (cell c (.rsS 3 2)) ∗ cellInv ER (sched V) κr (cell (nbr 2 c) (.rsR 3 2))
        ∗ reached ER (cell c (.rsS 3 2)) 0 ∗ reached ER (cell (nbr 2 c) (.rsR 3 2)) 0
        ∗ dutyTok ER (cell c (.rsS 3 2)) 0 (0 : Fin 3) ∗ dutyTok ER (cell (nbr 2 c) (.rsR 3 2)) 0 (0 : Fin 3)
        ∗ ptsAny (F := F) (nbr 2 c) commM3_2
        ∗ owes (c : Thread nD τ) (Owe c 18) W
        ∗ heldW c (stgM3_1 : Memref sig .tc .vmem S512x384 .bf16) f13
        ∗ heldW c (Memref.whole cc0_scratch0 : Memref sig .tc .vmem S2048x2048 .f32) f3
        ∗ heldW c (commM3_1 : Memref sig .tc .vmem S512x384 .bf16) fl
        ∗ levAts L lv
        ∗ cellInv ER (sched V) κw (cell c (.rsS 4 1)) ∗ cred (tallyAt (cell c (.rsS 4 1)) () (amt (.rsS 4 1))) ∗ atPos ER (cell c (.rsS 4 1)) 0 ∅ 0)
      ⊢ wp frame (wpE (defs₀ (F := F)) 𝒱₀ c none) Set.univ
          (k0_part25 (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23 c v412 v485 v736 v755 c1_i32_583)
          (fun r => iprop(⌜r = ⟨⟩⌝ ∗ cred (tallyAt (cell c (.rsS 3 2)) () (amt (.rsR 3 2)))
            ∗ owes (c : Thread nD τ) (Owe c 19) (insert ((CK.rsS 4 1).sem, ()) W)
            ∗ heldW c (Memref.whole cc0_scratch0 : Memref sig .tc .vmem S2048x2048 .f32) ((Memref.whole cc0_scratch0 : Memref sig .tc .vmem S2048x2048 .f32).view.writes (Elt F) f3 [⟨Rect.unit (s := S2048x2048) (k0_off48 c) ![256, 384] (k0_off48_inb c), k0_pay50 (View.readAt (Elt F) (Memref.whole cc0_scratch0 : Memref sig .tc .vmem S2048x2048 .f32).view (Rect.unit (s := S2048x2048) (k0_off48 c) ![256, 384] (k0_off48_inb c)).toLoadRect f3) (View.readAt (Elt F) (Memref.whole cc0_scratch4 : Memref sig .tc .vmem S1792x384 .bf16).view (Rect.unit (s := S1792x384) (k0_off38 c) ![256, 384] (k0_off38_inb c)).toLoadRect fl)⟩])
            ∗ heldW c (commM3_1 : Memref sig .tc .vmem S512x384 .bf16) fl
            ∗ ((stgM3_1 : Memref sig .tc .vmem S512x384 .bf16).view.loc (c : Thread nD τ) ↦[(stgM3_1 : Memref sig .tc .vmem S512x384 .bf16).view.set \ (stgM3_2 : Memref sig .tc .vmem S256x384 .bf16).view.set]{fullShare} f13)
            ∗ atPos ER (cell c (.rsS 4 1)) 1 ∅ 0
            ∗ ptsAny (F := F) c stgM4_1)) := by
  simp only [k0_part25_eq_skeleton]; unfold k0_part25_skel
  simp only [Prog.lift, Prog.bind_op, Prog.bind_ret, Prog.pure_eq_ret]
  iintro ⟨#HIs, #HIr, #Hrs, #Hrr, Hts, Htr, Hdst, HO, Hstg, Hacc, Hland, #Hlev, #HIw, Hcw, Hatw⟩
  unfold heldW
  unfold ptsAny
  icases Hdst with ⟨%fd, Hdst⟩
  -- the rows that came back are cut into the 256 rows sent now and the rest
  ihave Hs := (Entails.of_eq (pts_set_eq (F := F) (ℓ := (stgM3_1 : Memref sig .tc .vmem S512x384 .bf16).view.loc (c : Thread nD τ))
      (S' := (stgM3_2 : Memref sig .tc .vmem S256x384 .bf16).view.set ∪ ((stgM3_1 : Memref sig .tc .vmem S512x384 .bf16).view.set \ (stgM3_2 : Memref sig .tc .vmem S256x384 .bf16).view.set)) (Finset.union_sdiff_of_subset stg_sub2_3).symm)) $$ Hstg
  ihave Hs2 := (pts_union (F := F) Finset.disjoint_sdiff).1 $$ Hs
  icases Hs2 with ⟨Hsrc, Hrem⟩
  iapply (wp_send_to V c ⟨k0_dev19 c, k0_dev19_lt c⟩ 2 (dev19_eq c) (.rsS 3 2) (.rsR 3 2) (by decide) (by decide) 18 (by decide) (paid_rs c 3 2) rfl
      (src := stgM3_2) (dst := commM3_2) (rsS_sem_eq 3 2 _) (rsR_sem_eq 3 2 _) rfl fd κs κr W
      (ptsAny_intro c stgM3_2 _)
      (ptsIs_intro (nbr 2 c) commM3_2 _ _ (by rw [View.read_write_univ, nbr_nbr]; exact hV))) $$ [Hsrc Hdst HO Hts Htr]
  · isplitr; · iexact HIs
    isplitr; · iexact HIr
    isplitl [Hsrc]; · iexact Hsrc
    isplitl [Hdst]; · iexact Hdst
    isplitl [HO]; · iexact HO
    isplitl [Hts]; · iexact Hts
    isplitr; · iexact Hrs
    isplitl [Htr]; · iexact Htr
    iexact Hrr
  iintro ⟨Hcs, HO⟩
  have hinc1 : ((Memref.whole cc0_scratch4 : Memref sig .tc .vmem S1792x384 .bf16).access (Rect.unit (s := S1792x384) (k0_off38 c) ![256, 384] (k0_off38_inb c))).set
      ⊆ (commM3_1 : Memref sig .tc .vmem S512x384 .bf16).view.set := by
    rw [View.set_slice_whole, View.set_slice_whole]
    refine unit_subset ?_
    piece_arith c [off38_eq]
  sl_exec
  iapply (wp_wait_xfer V c (.rsS 4 1) (by decide) 19 (rsS_sem_eq 4 1 _)
      (show (stgM4_1 : Memref sig .tc .vmem S512x256 .bf16).view.dmaCredit = amt (.rsS 4 1) from rfl)
      (wpE_waitDma2_eq 𝒱₀ (c : Thread nD τ) none Set.univ)
      (mayWait_own c (.rsS 4 1) (lv_cell c _) 19) κw W) $$ [Hcw HO Hatw]
  · isplitr; · iexact HIw
    isplitl [Hcw]; · iexact Hcw
    isplitl [HO]; · iexact HO
    isplitr; · iexact Hlev
    iexact Hatw
  iintro ⟨HO, Hatw, Hpay1⟩
  ihave Hp1 := (Entails.of_eq (show pay V c (CK.rsS 4 1) 0 = ptsAny (F := F) c stgM4_1 from rfl)) $$ Hpay1
  sl_step
  isplitr; · ipureintro; trivial
  unfold ptsAny
  isplitl [Hcs]; · iexact Hcs
  isplitl [HO]; · iexact HO
  isplitl [Hacc]; · iexact Hacc
  isplitl [Hland]; · iexact Hland
  isplitl [Hrem]; · iexact Hrem
  isplitl [Hatw]; · iexact Hatw
  iexact Hp1

end Cert.Kernel.Proto

end
-- ==== Proof.Body26Bits.lean ====
/-
Stretch 26 of a device's kernel body: the wait for group 4's second landing, the sum of its sent-on 256 rows into the
accumulator, their rounding into the first 256 rows of group 4's staging buffer, and group 4's third reduce-scatter send
(those rows to the neighbour across axis 0).
-/
import proofs.«900882_g7700000000000883_dist_matmul_gelu_kshard_i_m2048_n2048_k1024_v7x_i8_f32_1_alg».proof.Proof.RulesBits
import proofs.«900882_g7700000000000883_dist_matmul_gelu_kshard_i_m2048_n2048_k1024_v7x_i8_f32_1_alg».proof.Proof.TopoBitsTab
import proofs.«900882_g7700000000000883_dist_matmul_gelu_kshard_i_m2048_n2048_k1024_v7x_i8_f32_1_alg».proof.Proof.PiecesTabBits
import proofs.«900882_g7700000000000883_dist_matmul_gelu_kshard_i_m2048_n2048_k1024_v7x_i8_f32_1_alg».proof.Proof.Gen.Kernel.Skeleton
import proofs.«900882_g7700000000000883_dist_matmul_gelu_kshard_i_m2048_n2048_k1024_v7x_i8_f32_1_alg».proof.Proof.TopoClosedBits
import Idealize.ShloMosaic.Lib.Pipeline.Value

set_option maxRecDepth 16384

noncomputable section

namespace Cert.Kernel.Proto

open Cert.Kernel Cert.Kernel.Gen Cert.Kernel.Topo
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : Vals F)

set_option maxHeartbeats 2000000 in
theorem part26_run (c : Dev nD) (κv κs κr : ℕ) (W : Waits sig Unit) (v2 v6 v466 : BitVec 32)
    (f3 : Buf (Elt F) ((Memref.whole cc0_scratch0 : Memref sig .tc .vmem S2048x2048 .f32).view.loc (c : Thread nD τ)))
    (f14 : Buf (Elt F) ((stgM4_1 : Memref sig .tc .vmem S512x256 .bf16).view.loc (c : Thread nD τ)))
    (hV : ∀ fl : Buf (Elt F) ((commM4_1 : Memref sig .tc .vmem S512x256 .bf16).view.loc (c : Thread nD τ)), V.rs4_1 (nbr 2 c) ((commM4_1 : Memref sig .tc .vmem S512x256 .bf16).view.read (Elt F) fl) →
        V.rs4_2 c ((stgM4_2 : Memref sig .tc .vmem S256x256 .bf16).view.read (Elt F) (View.write (Elt F) ((Memref.whole cc0_scratch11 : Memref sig .tc .vmem S1024x256 .bf16).access (Rect.unit (s := S1024x256) ![0, 0] ![256, 256] inb_S1024x256_S256x256_0_0)) f14 (k0_pay52 ((Memref.whole cc0_scratch0 : Memref sig .tc .vmem S2048x2048 .f32).view.readCov [⟨Rect.unit (s := S2048x2048) (k0_off49 c) ![256, 256] (k0_off49_inb c), k0_pay51 (View.readAt (Elt F) (Memref.whole cc0_scratch0 : Memref sig .tc .vmem S2048x2048 .f32).view (Rect.unit (s := S2048x2048) (k0_off49 c) ![256, 256] (k0_off49_inb c)).toLoadRect f3) (View.readAt (Elt F) (Memref.whole cc0_scratch5 : Memref sig .tc .vmem S1792x256 .bf16).view (Rect.unit (s := S1792x256) (k0_off50 c) ![256, 256] (k0_off50_inb c)).toLoadRect fl)⟩] (Rect.unit (s := S2048x2048) (k0_off49 c) ![256, 256] (k0_off49_inb c)).toLoadRect)) Finset.univ))) :
    iprop(owes (c : Thread nD τ) (Owe c 19) W ∗ levAts L lv
        ∗ cellInv ER (sched V) κv (cell c (.rsR 4 1)) ∗ cred (tallyAt (cell c (.rsR 4 1)) () (amt (.rsR 4 1))) ∗ atPos ER (cell c (.rsR 4 1)) 0 ∅ 0
        ∗ heldW c (Memref.whole cc0_scratch0 : Memref sig .tc .vmem S2048x2048 .f32) f3
        ∗ heldW c (stgM4_1 : Memref sig .tc .vmem S512x256 .bf16) f14
        ∗ cellInv ER (sched V) κs (cell c (.rsS 4 2)) ∗ cellInv ER (sched V) κr (cell (nbr 0 c) (.rsR 4 2))
        ∗ reached ER (cell c (.rsS 4 2)) 0 ∗ reached ER (cell (nbr 0 c) (.rsR 4 2)) 0
        ∗ dutyTok ER (cell c (.rsS 4 2)) 0 (0 : Fin 3) ∗ dutyTok ER (cell (nbr 0 c) (.rsR 4 2)) 0 (0 : Fin 3)
        ∗ ptsAny (F := F) (nbr 0 c) commM4_2)
      ⊢ wp frame (wpE (defs₀ (F := F)) 𝒱₀ c none) Set.univ
          (k0_part26 (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23 c v2 v6 v466)
          (fun r => iprop(⌜r = ⟨Scalar.addi v466 (Scalar.muli v6 256#32), Scalar.xori v2 1#32⟩⌝ ∗ (∃ fl : Buf (Elt F) ((commM4_1 : Memref sig .tc .vmem S512x256 .bf16).view.loc (c : Thread nD τ)), ⌜V.rs4_1 (nbr 2 c) ((commM4_1 : Memref sig .tc .vmem S512x256 .bf16).view.read (Elt F) fl)⌝
            ∗ heldW c (commM4_1 : Memref sig .tc .vmem S512x256 .bf16) fl
            ∗ cred (tallyAt (cell c (.rsS 4 2)) () (amt (.rsR 4 2)))
            ∗ owes (c : Thread nD τ) (Owe c 20) (insert ((CK.rsR 4 1).sem, ()) W)
            ∗ atPos ER (cell c (.rsR 4 1)) 1 ∅ 0
            ∗ heldW c (Memref.whole cc0_scratch0 : Memref sig .tc .vmem S2048x2048 .f32) ((Memref.whole cc0_scratch0 : Memref sig .tc .vmem S2048x2048 .f32).view.writes (Elt F) f3 [⟨Rect.unit (s := S2048x2048) (k0_off49 c) ![256, 256] (k0_off49_inb c), k0_pay51 (View.readAt (Elt F) (Memref.whole cc0_scratch0 : Memref sig .tc .vmem S2048x2048 .f32).view (Rect.unit (s := S2048x2048) (k0_off49 c) ![256, 256] (k0_off49_inb c)).toLoadRect f3) (View.readAt (Elt F) (Memref.whole cc0_scratch5 : Memref sig .tc .vmem S1792x256 .bf16).view (Rect.unit (s := S1792x256) (k0_off50 c) ![256, 256] (k0_off50_inb c)).toLoadRect fl)⟩])
            ∗ ((stgM4_1 : Memref sig .tc .vmem S512x256 .bf16).view.loc (c : Thread nD τ) ↦[(stgM4_1 : Memref sig .tc .vmem S512x256 .bf16).view.set \ (stgM4_2 : Memref sig .tc .vmem S256x256 .bf16).view.set]{fullShare} (View.write (Elt F) ((Memref.whole cc0_scratch11 : Memref sig .tc .vmem S1024x256 .bf16).access (Rect.unit (s := S1024x256) ![0, 0] ![256, 256] inb_S1024x256_S256x256_0_0)) f14 (k0_pay52 ((Memref.whole cc0_scratch0 : Memref sig .tc .vmem S2048x2048 .f32).view.readCov [⟨Rect.unit (s := S2048x2048) (k0_off49 c) ![256, 256] (k0_off49_inb c), k0_pay51 (View.readAt (Elt F) (Memref.whole cc0_scratch0 : Memref sig .tc .vmem S2048x2048 .f32).view (Rect.unit (s := S2048x2048) (k0_off49 c) ![256, 256] (k0_off49_inb c)).toLoadRect f3) (View.readAt (Elt F) (Memref.whole cc0_scratch5 : Memref sig .tc .vmem S1792x256 .bf16).view (Rect.unit (s := S1792x256) (k0_off50 c) ![256, 256] (k0_off50_inb c)).toLoadRect fl)⟩] (Rect.unit (s := S2048x2048) (k0_off49 c) ![256, 256] (k0_off49_inb c)).toLoadRect)) Finset.univ))))) := by
  simp only [k0_part26_eq_skeleton]; unfold k0_part26_skel
  simp only [Prog.lift, Prog.bind_op, Prog.bind_ret, Prog.pure_eq_ret]
  iintro ⟨HO, #Hlev, #HIv, Hcv, Hatv, Hacc, Hstg, #HIs, #HIr, #Hrs, #Hrr, Hts, Htr, Hdst⟩
  unfold heldW
  unfold ptsAny
  icases Hdst with ⟨%fd, Hdst⟩
  iapply (wp_wait_xfer V c (.rsR 4 1) (by decide) 19 (rsR_sem_eq 4 1 _)
      (show (commM4_1 : Memref sig .tc .vmem S512x256 .bf16).view.dmaCredit = amt (.rsR 4 1) from rfl)
      (wpE_waitDma2_eq 𝒱₀ (c : Thread nD τ) none Set.univ)
      (mayWait_rsR c 4 1 19 (by decide)) κv W) $$ [Hcv HO Hatv]
  · isplitr; · iexact HIv
    isplitl [Hcv]; · iexact Hcv
    isplitl [HO]; · iexact HO
    isplitr; · iexact Hlev
    iexact Hatv
  iintro ⟨HO, Hatv, Hpay2⟩
  ihave Hp2 := (Entails.of_eq (show pay V c (CK.rsR 4 1) 0 = ptsIs c commM4_1 (V.rs4_1 (nbr 2 c)) from rfl)) $$ Hpay2
  unfold ptsIs
  icases Hp2 with ⟨%fl, Hland, %hX⟩
  have hinc1 : ((Memref.whole cc0_scratch5 : Memref sig .tc .vmem S1792x256 .bf16).access (Rect.unit (s := S1792x256) (k0_off50 c) ![256, 256] (k0_off50_inb c))).set
      ⊆ (commM4_1 : Memref sig .tc .vmem S512x256 .bf16).view.set := by
    rw [View.set_slice_whole, View.set_slice_whole]
    refine unit_subset ?_
    piece_arith c [off50_eq]
  have hinc3 : ((Memref.whole cc0_scratch11 : Memref sig .tc .vmem S1024x256 .bf16).access (Rect.unit (s := S1024x256) ![0, 0] ![256, 256] inb_S1024x256_S256x256_0_0)).set
      ⊆ (stgM4_1 : Memref sig .tc .vmem S512x256 .bf16).view.set := by
    rw [View.set_slice_whole, View.set_slice_whole]
    exact unit_subset (by decide)
  have hinc4 : ((Memref.whole cc0_scratch11 : Memref sig .tc .vmem S1024x256 .bf16).access (Rect.unit (s := S1024x256) ![0, 0] ![256, 256] inb_S1024x256_S256x256_0_0)).setOn Finset.univ
      ⊆ (stgM4_1 : Memref sig .tc .vmem S512x256 .bf16).view.set := by
    rw [View.setOn_univ]
    rw [View.set_slice_whole, View.set_slice_whole]
    exact unit_subset (by decide)
  sl_exec
  -- the rows that came back are cut into the 256 rows sent now and the rest
  ihave Hs := (Entails.of_eq (pts_set_eq (F := F) (ℓ := (stgM4_1 : Memref sig .tc .vmem S512x256 .bf16).view.loc (c : Thread nD τ))
      (S' := (stgM4_2 : Memref sig .tc .vmem S256x256 .bf16).view.set ∪ ((stgM4_1 : Memref sig .tc .vmem S512x256 .bf16).view.set \ (stgM4_2 : Memref sig .tc .vmem S256x256 .bf16).view.set)) (Finset.union_sdiff_of_subset stg_sub2_4).symm)) $$ Hstg
  ihave Hs2 := (pts_union (F := F) Finset.disjoint_sdiff).1 $$ Hs
  icases Hs2 with ⟨Hsrc, Hrem⟩
  iapply (wp_send_to V c ⟨k0_dev20 c, k0_dev20_lt c⟩ 0 (dev20_eq c) (.rsS 4 2) (.rsR 4 2) (by decide) (by decide) 19 (by decide) (paid_rs c 4 2) rfl
      (src := stgM4_2) (dst := commM4_2) (rsS_sem_eq 4 2 _) (rsR_sem_eq 4 2 _) rfl fd κs κr (insert ((CK.rsR 4 1).sem, ()) W)
      (ptsAny_intro c stgM4_2 _)
      (ptsIs_intro (nbr 0 c) commM4_2 _ _ (by rw [View.read_write_univ, nbr_nbr]; exact (hV fl hX)))) $$ [Hsrc Hdst HO Hts Htr]
  · isplitr; · iexact HIs
    isplitr; · iexact HIr
    isplitl [Hsrc]; · iexact Hsrc
    isplitl [Hdst]; · iexact Hdst
    isplitl [HO]; · iexact HO
    isplitl [Hts]; · iexact Hts
    isplitr; · iexact Hrs
    isplitl [Htr]; · iexact Htr
    iexact Hrr
  iintro ⟨Hcs, HO⟩
  sl_step
  isplitr; · ipureintro; rfl
  iexists fl
  isplitr; · ipureintro; exact hX
  isplitl [Hland]; · iexact Hland
  isplitl [Hcs]; · iexact Hcs
  isplitl [HO]; · iexact HO
  isplitl [Hatv]; · iexact Hatv
  isplitl [Hacc]; · iexact Hacc
  iexact Hrem

end Cert.Kernel.Proto

end
-- ==== Proof.Body27Bits.lean ====
/-
Stretch 27 of a device's kernel body: the sum of the kept 256 rows of group 4's second landing into the accumulator, the
two waits of group 5's second exchange, and the load of the accumulator rows its landing is added to.
-/
import proofs.«900882_g7700000000000883_dist_matmul_gelu_kshard_i_m2048_n2048_k1024_v7x_i8_f32_1_alg».proof.Proof.RulesBits
import proofs.«900882_g7700000000000883_dist_matmul_gelu_kshard_i_m2048_n2048_k1024_v7x_i8_f32_1_alg».proof.Proof.TopoBitsTab
import proofs.«900882_g7700000000000883_dist_matmul_gelu_kshard_i_m2048_n2048_k1024_v7x_i8_f32_1_alg».proof.Proof.PiecesTabBits
import proofs.«900882_g7700000000000883_dist_matmul_gelu_kshard_i_m2048_n2048_k1024_v7x_i8_f32_1_alg».proof.Proof.Gen.Kernel.Skeleton
import proofs.«900882_g7700000000000883_dist_matmul_gelu_kshard_i_m2048_n2048_k1024_v7x_i8_f32_1_alg».proof.Proof.TopoClosedBits
import Idealize.ShloMosaic.Lib.Pipeline.Value

set_option maxRecDepth 16384

noncomputable section

namespace Cert.Kernel.Proto

open Cert.Kernel Cert.Kernel.Gen Cert.Kernel.Topo
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : Vals F)

set_option maxHeartbeats 2000000 in
theorem part27_run (c : Dev nD) (κw κv : ℕ) (W : Waits sig Unit) (v8 v466 v520 v539 v790 : BitVec 32)
    (f3 : Buf (Elt F) ((Memref.whole cc0_scratch0 : Memref sig .tc .vmem S2048x2048 .f32).view.loc (c : Thread nD τ)))
    (fl : Buf (Elt F) ((commM4_1 : Memref sig .tc .vmem S512x256 .bf16).view.loc (c : Thread nD τ))) :
    iprop(owes (c : Thread nD τ) (Owe c 20) W ∗ levAts L lv
        ∗ heldW c (Memref.whole cc0_scratch0 : Memref sig .tc .vmem S2048x2048 .f32) f3
        ∗ heldW c (commM4_1 : Memref sig .tc .vmem S512x256 .bf16) fl
        ∗ cellInv ER (sched V) κw (cell c (.rsS 5 1)) ∗ cred (tallyAt (cell c (.rsS 5 1)) () (amt (.rsS 5 1))) ∗ atPos ER (cell c (.rsS 5 1)) 0 ∅ 0
        ∗ cellInv ER (sched V) κv (cell c (.rsR 5 1)) ∗ cred (tallyAt (cell c (.rsR 5 1)) () (amt (.rsR 5 1))) ∗ atPos ER (cell c (.rsR 5 1)) 0 ∅ 0)
      ⊢ wp frame (wpE (defs₀ (F := F)) 𝒱₀ c none) Set.univ
          (k0_part27 (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23 c v8 v466 v520 v539 v790)
          (fun r => iprop(⌜r = ⟨Scalar.addi v520 (Scalar.muli (Scalar.subi (1#32) v8) 256#32), ⟨Scalar.addi v520 (Scalar.muli v8 256#32), ⟨View.readAt (Elt F) (Memref.whole cc0_scratch0 : Memref sig .tc .vmem S2048x2048 .f32).view (Rect.unit (s := S2048x2048) (k0_off53 c) ![256, 256] (k0_off53_inb c)).toLoadRect f3, Scalar.addi (1024#32) (Scalar.subi (Scalar.addi v520 (Scalar.muli (Scalar.subi (1#32) v8) 256#32)) v520)⟩⟩⟩⌝ ∗ owes (c : Thread nD τ) (Owe c 20) (insert ((CK.rsR 5 1).sem, ()) (insert ((CK.rsS 5 1).sem, ()) W))
            ∗ heldW c (Memref.whole cc0_scratch0 : Memref sig .tc .vmem S2048x2048 .f32) ((Memref.whole cc0_scratch0 : Memref sig .tc .vmem S2048x2048 .f32).view.writes (Elt F) f3 [⟨Rect.unit (s := S2048x2048) (k0_off51 c) ![256, 256] (k0_off51_inb c), k0_pay53 (View.readAt (Elt F) (Memref.whole cc0_scratch0 : Memref sig .tc .vmem S2048x2048 .f32).view (Rect.unit (s := S2048x2048) (k0_off51 c) ![256, 256] (k0_off51_inb c)).toLoadRect f3) (View.readAt (Elt F) (Memref.whole cc0_scratch5 : Memref sig .tc .vmem S1792x256 .bf16).view (Rect.unit (s := S1792x256) (k0_off52 c) ![256, 256] (k0_off52_inb c)).toLoadRect fl)⟩])
            ∗ heldW c (commM4_1 : Memref sig .tc .vmem S512x256 .bf16) fl
            ∗ atPos ER (cell c (.rsS 5 1)) 1 ∅ 0 ∗ atPos ER (cell c (.rsR 5 1)) 1 ∅ 0
            ∗ ptsAny (F := F) c stgM5_1 ∗ ptsIs c commM5_1 (V.rs5_1 (nbr 0 c)))) := by
  simp only [k0_part27_eq_skeleton]; unfold k0_part27_skel
  simp only [Prog.lift, Prog.bind_op, Prog.bind_ret, Prog.pure_eq_ret]
  iintro ⟨HO, #Hlev, Hacc, Hland, #HIw, Hcw, Hatw, #HIv, Hcv, Hatv⟩
  unfold heldW
  have hinc1 : ((Memref.whole cc0_scratch5 : Memref sig .tc .vmem S1792x256 .bf16).access (Rect.unit (s := S1792x256) (k0_off52 c) ![256, 256] (k0_off52_inb c))).set
      ⊆ (commM4_1 : Memref sig .tc .vmem S512x256 .bf16).view.set := by
    rw [View.set_slice_whole, View.set_slice_whole]
    refine unit_subset ?_
    piece_arith c [off52_eq]
  sl_exec
  iapply (wp_wait_xfer V c (.rsS 5 1) (by decide) 20 (rsS_sem_eq 5 1 _)
      (show (stgM5_1 : Memref sig .tc .vmem S512x256 .bf16).view.dmaCredit = amt (.rsS 5 1) from rfl)
      (wpE_waitDma2_eq 𝒱₀ (c : Thread nD τ) none Set.univ)
      (mayWait_own c (.rsS 5 1) (lv_cell c _) 20) κw W) $$ [Hcw HO Hatw]
  · isplitr; · iexact HIw
    isplitl [Hcw]; · iexact Hcw
    isplitl [HO]; · iexact HO
    isplitr; · iexact Hlev
    iexact Hatw
  iintro ⟨HO, Hatw, Hpay1⟩
  iapply (wp_wait_xfer V c (.rsR 5 1) (by decide) 20 (rsR_sem_eq 5 1 _)
      (show (commM5_1 : Memref sig .tc .vmem S512x256 .bf16).view.dmaCredit = amt (.rsR 5 1) from rfl)
      (wpE_waitDma2_eq 𝒱₀ (c : Thread nD τ) none Set.univ)
      (mayWait_rsR c 5 1 20 (by decide)) κv (insert ((CK.rsS 5 1).sem, ()) W)) $$ [Hcv HO Hatv]
  · isplitr; · iexact HIv
    isplitl [Hcv]; · iexact Hcv
    isplitl [HO]; · iexact HO
    isplitr; · iexact Hlev
    iexact Hatv
  iintro ⟨HO, Hatv, Hpay2⟩
  ihave Hp1 := (Entails.of_eq (show pay V c (CK.rsS 5 1) 0 = ptsAny (F := F) c stgM5_1 from rfl)) $$ Hpay1
  ihave Hp2 := (Entails.of_eq (show pay V c (CK.rsR 5 1) 0 = ptsIs c commM5_1 (V.rs5_1 (nbr 0 c)) from rfl)) $$ Hpay2
  sl_exec
  sl_step
  isplitr; · ipureintro; rfl
  isplitl [HO]; · iexact HO
  isplitl [Hacc]; · iexact Hacc
  isplitl [Hland]; · iexact Hland
  isplitl [Hatw]; · iexact Hatw
  isplitl [Hatv]; · iexact Hatv
  isplitl [Hp1]; · iexact Hp1
  iexact Hp2

end Cert.Kernel.Proto

end
-- ==== Proof.Body28Bits.lean ====
/-
Stretch 28 of a device's kernel body: the sum of the sent-on 256 rows of group 5's second landing into the accumulator,
their rounding into the first 256 rows of group 5's staging buffer, group 5's third reduce-scatter send (those rows to the
neighbour across axis 1), and the sum of the kept 256 rows into the accumulator.
-/
import proofs.«900882_g7700000000000883_dist_matmul_gelu_kshard_i_m2048_n2048_k1024_v7x_i8_f32_1_alg».proof.Proof.RulesBits
import proofs.«900882_g7700000000000883_dist_matmul_gelu_kshard_i_m2048_n2048_k1024_v7x_i8_f32_1_alg».proof.Proof.TopoBitsTab
import proofs.«900882_g7700000000000883_dist_matmul_gelu_kshard_i_m2048_n2048_k1024_v7x_i8_f32_1_alg».proof.Proof.PiecesTabBits
import proofs.«900882_g7700000000000883_dist_matmul_gelu_kshard_i_m2048_n2048_k1024_v7x_i8_f32_1_alg».proof.Proof.Gen.Kernel.Skeleton
import proofs.«900882_g7700000000000883_dist_matmul_gelu_kshard_i_m2048_n2048_k1024_v7x_i8_f32_1_alg».proof.Proof.TopoClosedBits
import Idealize.ShloMosaic.Lib.Pipeline.Value

set_option maxRecDepth 16384

noncomputable section

namespace Cert.Kernel.Proto

open Cert.Kernel Cert.Kernel.Gen Cert.Kernel.Topo
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : Vals F)

set_option maxHeartbeats 2000000 in
theorem part28_run (c : Dev nD) (κs κr : ℕ) (W : Waits sig Unit) (v2 v520 v842 v844 : BitVec 32) (v846 : Vec F S256x256 .f32) (v848 : BitVec 32)
    (f3 : Buf (Elt F) ((Memref.whole cc0_scratch0 : Memref sig .tc .vmem S2048x2048 .f32).view.loc (c : Thread nD τ)))
    (f15 : Buf (Elt F) ((stgM5_1 : Memref sig .tc .vmem S512x256 .bf16).view.loc (c : Thread nD τ)))
    (fl : Buf (Elt F) ((commM5_1 : Memref sig .tc .vmem S512x256 .bf16).view.loc (c : Thread nD τ)))
    (hV : V.rs5_2 c ((stgM5_2 : Memref sig .tc .vmem S256x256 .bf16).view.read (Elt F) (View.write (Elt F) ((Memref.whole cc0_scratch12 : Memref sig .tc .vmem S1024x256 .bf16).access (Rect.unit (s := S1024x256) ![0, 0] ![256, 256] inb_S1024x256_S256x256_0_0)) f15 (k0_pay55 ((Memref.whole cc0_scratch0 : Memref sig .tc .vmem S2048x2048 .f32).view.readCov [⟨Rect.unit (s := S2048x2048) (k0_off53 c) ![256, 256] (k0_off53_inb c), k0_pay54 v846 (View.readAt (Elt F) (Memref.whole cc0_scratch6 : Memref sig .tc .vmem S1792x256 .bf16).view (Rect.unit (s := S1792x256) (k0_off54 c) ![256, 256] (k0_off54_inb c)).toLoadRect fl)⟩] (Rect.unit (s := S2048x2048) (k0_off53 c) ![256, 256] (k0_off53_inb c)).toLoadRect)) Finset.univ))) :
    iprop(cellInv ER (sched V) κs (cell c (.rsS 5 2)) ∗ cellInv ER (sched V) κr (cell (nbr 1 c) (.rsR 5 2))
        ∗ reached ER (cell c (.rsS 5 2)) 0 ∗ reached ER (cell (nbr 1 c) (.rsR 5 2)) 0
        ∗ dutyTok ER (cell c (.rsS 5 2)) 0 (0 : Fin 3) ∗ dutyTok ER (cell (nbr 1 c) (.rsR 5 2)) 0 (0 : Fin 3)
        ∗ ptsAny (F := F) (nbr 1 c) commM5_2
        ∗ owes (c : Thread nD τ) (Owe c 20) W
        ∗ heldW c (stgM5_1 : Memref sig .tc .vmem S512x256 .bf16) f15
        ∗ heldW c (Memref.whole cc0_scratch0 : Memref sig .tc .vmem S2048x2048 .f32) f3
        ∗ heldW c (commM5_1 : Memref sig .tc .vmem S512x256 .bf16) fl)
      ⊢ wp frame (wpE (defs₀ (F := F)) 𝒱₀ c none) Set.univ
          (k0_part28 (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23 c v2 v520 v842 v844 v846 v848)
          (fun r => iprop(⌜r = (Scalar.xori v2 3#32)⌝ ∗ cred (tallyAt (cell c (.rsS 5 2)) () (amt (.rsR 5 2)))
            ∗ owes (c : Thread nD τ) (Owe c 21) W
            ∗ heldW c (Memref.whole cc0_scratch0 : Memref sig .tc .vmem S2048x2048 .f32) ((Memref.whole cc0_scratch0 : Memref sig .tc .vmem S2048x2048 .f32).view.writes (Elt F) f3 [⟨Rect.unit (s := S2048x2048) (k0_off55 c) ![256, 256] (k0_off55_inb c), k0_pay56 (View.readAt (Elt F) (Memref.whole cc0_scratch0 : Memref sig .tc .vmem S2048x2048 .f32).view (Rect.unit (s := S2048x2048) (k0_off55 c) ![256, 256] (k0_off55_inb c)).toLoadRect ((Memref.whole cc0_scratch0 : Memref sig .tc .vmem S2048x2048 .f32).view.writes (Elt F) f3 [⟨Rect.unit (s := S2048x2048) (k0_off53 c) ![256, 256] (k0_off53_inb c), k0_pay54 v846 (View.readAt (Elt F) (Memref.whole cc0_scratch6 : Memref sig .tc .vmem S1792x256 .bf16).view (Rect.unit (s := S1792x256) (k0_off54 c) ![256, 256] (k0_off54_inb c)).toLoadRect fl)⟩])) (View.readAt (Elt F) (Memref.whole cc0_scratch6 : Memref sig .tc .vmem S1792x256 .bf16).view (Rect.unit (s := S1792x256) (k0_off56 c) ![256, 256] (k0_off56_inb c)).toLoadRect fl)⟩, ⟨Rect.unit (s := S2048x2048) (k0_off53 c) ![256, 256] (k0_off53_inb c), k0_pay54 v846 (View.readAt (Elt F) (Memref.whole cc0_scratch6 : Memref sig .tc .vmem S1792x256 .bf16).view (Rect.unit (s := S1792x256) (k0_off54 c) ![256, 256] (k0_off54_inb c)).toLoadRect fl)⟩])
            ∗ heldW c (commM5_1 : Memref sig .tc .vmem S512x256 .bf16) fl
            ∗ ((stgM5_1 : Memref sig .tc .vmem S512x256 .bf16).view.loc (c : Thread nD τ) ↦[(stgM5_1 : Memref sig .tc .vmem S512x256 .bf16).view.set \ (stgM5_2 : Memref sig .tc .vmem S256x256 .bf16).view.set]{fullShare} (View.write (Elt F) ((Memref.whole cc0_scratch12 : Memref sig .tc .vmem S1024x256 .bf16).access (Rect.unit (s := S1024x256) ![0, 0] ![256, 256] inb_S1024x256_S256x256_0_0)) f15 (k0_pay55 ((Memref.whole cc0_scratch0 : Memref sig .tc .vmem S2048x2048 .f32).view.readCov [⟨Rect.unit (s := S2048x2048) (k0_off53 c) ![256, 256] (k0_off53_inb c), k0_pay54 v846 (View.readAt (Elt F) (Memref.whole cc0_scratch6 : Memref sig .tc .vmem S1792x256 .bf16).view (Rect.unit (s := S1792x256) (k0_off54 c) ![256, 256] (k0_off54_inb c)).toLoadRect fl)⟩] (Rect.unit (s := S2048x2048) (k0_off53 c) ![256, 256] (k0_off53_inb c)).toLoadRect)) Finset.univ)))) := by
  simp only [k0_part28_eq_skeleton]; unfold k0_part28_skel
  simp only [Prog.lift, Prog.bind_op, Prog.bind_ret, Prog.pure_eq_ret]
  iintro ⟨#HIs, #HIr, #Hrs, #Hrr, Hts, Htr, Hdst, HO, Hstg, Hacc, Hland⟩
  unfold heldW
  unfold ptsAny
  icases Hdst with ⟨%fd, Hdst⟩
  have hinc1 : ((Memref.whole cc0_scratch6 : Memref sig .tc .vmem S1792x256 .bf16).access (Rect.unit (s := S1792x256) (k0_off54 c) ![256, 256] (k0_off54_inb c))).set
      ⊆ (commM5_1 : Memref sig .tc .vmem S512x256 .bf16).view.set := by
    rw [View.set_slice_whole, View.set_slice_whole]
    refine unit_subset ?_
    piece_arith c [off54_eq]
  have hinc2 : ((Memref.whole cc0_scratch6 : Memref sig .tc .vmem S1792x256 .bf16).access (Rect.unit (s := S1792x256) (k0_off56 c) ![256, 256] (k0_off56_inb c))).set
      ⊆ (commM5_1 : Memref sig .tc .vmem S512x256 .bf16).view.set := by
    rw [View.set_slice_whole, View.set_slice_whole]
    refine unit_subset ?_
    piece_arith c [off56_eq]
  have hinc3 : ((Memref.whole cc0_scratch12 : Memref sig .tc .vmem S1024x256 .bf16).access (Rect.unit (s := S1024x256) ![0, 0] ![256, 256] inb_S1024x256_S256x256_0_0)).set
      ⊆ (stgM5_1 : Memref sig .tc .vmem S512x256 .bf16).view.set := by
    rw [View.set_slice_whole, View.set_slice_whole]
    exact unit_subset (by decide)
  have hinc4 : ((Memref.whole cc0_scratch12 : Memref sig .tc .vmem S1024x256 .bf16).access (Rect.unit (s := S1024x256) ![0, 0] ![256, 256] inb_S1024x256_S256x256_0_0)).setOn Finset.univ
      ⊆ (stgM5_1 : Memref sig .tc .vmem S512x256 .bf16).view.set := by
    rw [View.setOn_univ]
    rw [View.set_slice_whole, View.set_slice_whole]
    exact unit_subset (by decide)
  sl_exec
  -- the rows that came back are cut into the 256 rows sent now and the rest
  ihave Hs := (Entails.of_eq (pts_set_eq (F := F) (ℓ := (stgM5_1 : Memref sig .tc .vmem S512x256 .bf16).view.loc (c : Thread nD τ))
      (S' := (stgM5_2 : Memref sig .tc .vmem S256x256 .bf16).view.set ∪ ((stgM5_1 : Memref sig .tc .vmem S512x256 .bf16).view.set \ (stgM5_2 : Memref sig .tc .vmem S256x256 .bf16).view.set)) (Finset.union_sdiff_of_subset stg_sub2_5).symm)) $$ Hstg
  ihave Hs2 := (pts_union (F := F) Finset.disjoint_sdiff).1 $$ Hs
  icases Hs2 with ⟨Hsrc, Hrem⟩
  iapply (wp_send_to V c ⟨k0_dev21 c, k0_dev21_lt c⟩ 1 (dev21_eq c) (.rsS 5 2) (.rsR 5 2) (by decide) (by decide) 20 (by decide) (paid_rs c 5 2) rfl
      (src := stgM5_2) (dst := commM5_2) (rsS_sem_eq 5 2 _) (rsR_sem_eq 5 2 _) rfl fd κs κr W
      (ptsAny_intro c stgM5_2 _)
      (ptsIs_intro (nbr 1 c) commM5_2 _ _ (by rw [View.read_write_univ, nbr_nbr]; exact hV))) $$ [Hsrc Hdst HO Hts Htr]
  · isplitr; · iexact HIs
    isplitr; · iexact HIr
    isplitl [Hsrc]; · iexact Hsrc
    isplitl [Hdst]; · iexact Hdst
    isplitl [HO]; · iexact HO
    isplitl [Hts]; · iexact Hts
    isplitr; · iexact Hrs
    isplitl [Htr]; · iexact Htr
    iexact Hrr
  iintro ⟨Hcs, HO⟩
  sl_exec
  sl_step
  isplitr; · ipureintro; rfl
  isplitl [Hcs]; · iexact Hcs
  isplitl [HO]; · iexact HO
  isplitl [Hacc]; · iexact Hacc
  isplitl [Hland]; · iexact Hland
  iexact Hrem

end Cert.Kernel.Proto

end
-- ==== Proof.Body29Bits.lean ====
/-
Stretch 29 of a device's kernel body: the two waits of group 0's third exchange, the sum of its last landing (256 rows)
into the device's own 256 rows of the accumulator, and the first terms of the gelu of those rows.
-/
import proofs.«900882_g7700000000000883_dist_matmul_gelu_kshard_i_m2048_n2048_k1024_v7x_i8_f32_1_alg».proof.Proof.RulesBits
import proofs.«900882_g7700000000000883_dist_matmul_gelu_kshard_i_m2048_n2048_k1024_v7x_i8_f32_1_alg».proof.Proof.TopoBitsTab
import proofs.«900882_g7700000000000883_dist_matmul_gelu_kshard_i_m2048_n2048_k1024_v7x_i8_f32_1_alg».proof.Proof.PiecesTabBits
import proofs.«900882_g7700000000000883_dist_matmul_gelu_kshard_i_m2048_n2048_k1024_v7x_i8_f32_1_alg».proof.Proof.Gen.Kernel.Skeleton
import proofs.«900882_g7700000000000883_dist_matmul_gelu_kshard_i_m2048_n2048_k1024_v7x_i8_f32_1_alg».proof.Proof.TopoClosedBits
import Idealize.ShloMosaic.Lib.Pipeline.Value

set_option maxRecDepth 16384

noncomputable section

namespace Cert.Kernel.Proto

open Cert.Kernel Cert.Kernel.Gen Cert.Kernel.Topo
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : Vals F)

set_option maxHeartbeats 2000000 in
theorem part29_run (c : Dev nD) (κw κv : ℕ) (W : Waits sig Unit) (v574 v593 : BitVec 32)
    (f3 : Buf (Elt F) ((Memref.whole cc0_scratch0 : Memref sig .tc .vmem S2048x2048 .f32).view.loc (c : Thread nD τ))) :
    iprop(owes (c : Thread nD τ) (Owe c 21) W ∗ levAts L lv
        ∗ heldW c (Memref.whole cc0_scratch0 : Memref sig .tc .vmem S2048x2048 .f32) f3
        ∗ cellInv ER (sched V) κw (cell c (.rsS 0 2)) ∗ cred (tallyAt (cell c (.rsS 0 2)) () (amt (.rsS 0 2))) ∗ atPos ER (cell c (.rsS 0 2)) 0 ∅ 0
        ∗ cellInv ER (sched V) κv (cell c (.rsR 0 2)) ∗ cred (tallyAt (cell c (.rsR 0 2)) () (amt (.rsR 0 2))) ∗ atPos ER (cell c (.rsR 0 2)) 0 ∅ 0)
      ⊢ wp frame (wpE (defs₀ (F := F)) 𝒱₀ c none) Set.univ
          (k0_part29 (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23 c v574 v593)
          (fun r => iprop(∃ fl : Buf (Elt F) ((commM0_2 : Memref sig .tc .vmem S256x384 .bf16).view.loc (c : Thread nD τ)), ⌜r = ⟨k0_pay58 ((Memref.whole cc0_scratch0 : Memref sig .tc .vmem S2048x2048 .f32).view.readCov [⟨Rect.unit (s := S2048x2048) (k0_off37 c) ![256, 384] (k0_off37_inb c), k0_pay57 (View.readAt (Elt F) (Memref.whole cc0_scratch0 : Memref sig .tc .vmem S2048x2048 .f32).view (Rect.unit (s := S2048x2048) (k0_off37 c) ![256, 384] (k0_off37_inb c)).toLoadRect f3) (View.readAt (Elt F) (Memref.whole cc0_scratch1 : Memref sig .tc .vmem S1792x384 .bf16).view (Rect.unit (s := S1792x384) (k0_off57 c) ![256, 384] (k0_off57_inb c)).toLoadRect fl)⟩] (Rect.unit (s := S2048x2048) (k0_off37 c) ![256, 384] (k0_off37_inb c)).toLoadRect), ⟨k0_pay59 ((Memref.whole cc0_scratch0 : Memref sig .tc .vmem S2048x2048 .f32).view.readCov [⟨Rect.unit (s := S2048x2048) (k0_off37 c) ![256, 384] (k0_off37_inb c), k0_pay57 (View.readAt (Elt F) (Memref.whole cc0_scratch0 : Memref sig .tc .vmem S2048x2048 .f32).view (Rect.unit (s := S2048x2048) (k0_off37 c) ![256, 384] (k0_off37_inb c)).toLoadRect f3) (View.readAt (Elt F) (Memref.whole cc0_scratch1 : Memref sig .tc .vmem S1792x384 .bf16).view (Rect.unit (s := S1792x384) (k0_off57 c) ![256, 384] (k0_off57_inb c)).toLoadRect fl)⟩] (Rect.unit (s := S2048x2048) (k0_off37 c) ![256, 384] (k0_off37_inb c)).toLoadRect), FloatOps.ofBits FTy.f32 1061962282#32⟩⟩⌝
            ∗ ⌜V.rs0_2 (nbr 2 c) ((commM0_2 : Memref sig .tc .vmem S256x384 .bf16).view.read (Elt F) fl)⌝
            ∗ heldW c (commM0_2 : Memref sig .tc .vmem S256x384 .bf16) fl
            ∗ owes (c : Thread nD τ) (Owe c 21) (insert ((CK.rsR 0 2).sem, ()) (insert ((CK.rsS 0 2).sem, ()) W))
            ∗ atPos ER (cell c (.rsS 0 2)) 1 ∅ 0 ∗ atPos ER (cell c (.rsR 0 2)) 1 ∅ 0
            ∗ ptsAny (F := F) c stgM0_2
            ∗ heldW c (Memref.whole cc0_scratch0 : Memref sig .tc .vmem S2048x2048 .f32) ((Memref.whole cc0_scratch0 : Memref sig .tc .vmem S2048x2048 .f32).view.writes (Elt F) f3 [⟨Rect.unit (s := S2048x2048) (k0_off37 c) ![256, 384] (k0_off37_inb c), k0_pay57 (View.readAt (Elt F) (Memref.whole cc0_scratch0 : Memref sig .tc .vmem S2048x2048 .f32).view (Rect.unit (s := S2048x2048) (k0_off37 c) ![256, 384] (k0_off37_inb c)).toLoadRect f3) (View.readAt (Elt F) (Memref.whole cc0_scratch1 : Memref sig .tc .vmem S1792x384 .bf16).view (Rect.unit (s := S1792x384) (k0_off57 c) ![256, 384] (k0_off57_inb c)).toLoadRect fl)⟩]))) := by
  simp only [k0_part29_eq_skeleton]; unfold k0_part29_skel
  simp only [Prog.lift, Prog.bind_op, Prog.bind_ret, Prog.pure_eq_ret]
  iintro ⟨HO, #Hlev, Hacc, #HIw, Hcw, Hatw, #HIv, Hcv, Hatv⟩
  unfold heldW
  iapply (wp_wait_xfer V c (.rsS 0 2) (by decide) 21 (rsS_sem_eq 0 2 _)
      (show (stgM0_2 : Memref sig .tc .vmem S256x384 .bf16).view.dmaCredit = amt (.rsS 0 2) from rfl)
      (wpE_waitDma2_eq 𝒱₀ (c : Thread nD τ) none Set.univ)
      (mayWait_own c (.rsS 0 2) (lv_cell c _) 21) κw W) $$ [Hcw HO Hatw]
  · isplitr; · iexact HIw
    isplitl [Hcw]; · iexact Hcw
    isplitl [HO]; · iexact HO
    isplitr; · iexact Hlev
    iexact Hatw
  iintro ⟨HO, Hatw, Hpay1⟩
  iapply (wp_wait_xfer V c (.rsR 0 2) (by decide) 21 (rsR_sem_eq 0 2 _)
      (show (commM0_2 : Memref sig .tc .vmem S256x384 .bf16).view.dmaCredit = amt (.rsR 0 2) from rfl)
      (wpE_waitDma2_eq 𝒱₀ (c : Thread nD τ) none Set.univ)
      (mayWait_rsR c 0 2 21 (by decide)) κv (insert ((CK.rsS 0 2).sem, ()) W)) $$ [Hcv HO Hatv]
  · isplitr; · iexact HIv
    isplitl [Hcv]; · iexact Hcv
    isplitl [HO]; · iexact HO
    isplitr; · iexact Hlev
    iexact Hatv
  iintro ⟨HO, Hatv, Hpay2⟩
  ihave Hp1 := (Entails.of_eq (show pay V c (CK.rsS 0 2) 0 = ptsAny (F := F) c stgM0_2 from rfl)) $$ Hpay1
  ihave Hp2 := (Entails.of_eq (show pay V c (CK.rsR 0 2) 0 = ptsIs c commM0_2 (V.rs0_2 (nbr 2 c)) from rfl)) $$ Hpay2
  unfold ptsIs
  icases Hp2 with ⟨%fl, Hland, %hX⟩
  have hinc1 : ((Memref.whole cc0_scratch1 : Memref sig .tc .vmem S1792x384 .bf16).access (Rect.unit (s := S1792x384) (k0_off57 c) ![256, 384] (k0_off57_inb c))).set
      ⊆ (commM0_2 : Memref sig .tc .vmem S256x384 .bf16).view.set := by
    rw [View.set_slice_whole, View.set_slice_whole]
    refine unit_subset ?_
    piece_arith c [off57_eq]
  sl_exec
  sl_step
  iexists fl
  isplitr; · ipureintro; rfl
  isplitr; · ipureintro; exact hX
  isplitl [Hland]; · iexact Hland
  isplitl [HO]; · iexact HO
  isplitl [Hatw]; · iexact Hatw
  isplitl [Hatv]; · iexact Hatv
  isplitl [Hp1]; · iexact Hp1
  iexact Hacc

end Cert.Kernel.Proto

end
-- ==== Proof.Body30Bits.lean ====
/-
Stretch 30 of a device's kernel body: the gelu of the device's own 256 rows of group 0 stored back into the accumulator
and, rounded, into its own rows of group 0's all-gather buffer; the first copy of a finished block to the result array —
here the accumulator and the result array, held whole so far, are cut into the 24 blocks of the result copies —; and the
two waits of group 1's third exchange.
-/
import proofs.«900882_g7700000000000883_dist_matmul_gelu_kshard_i_m2048_n2048_k1024_v7x_i8_f32_1_alg».proof.Proof.RulesBits
import proofs.«900882_g7700000000000883_dist_matmul_gelu_kshard_i_m2048_n2048_k1024_v7x_i8_f32_1_alg».proof.Proof.TopoBitsTab
import proofs.«900882_g7700000000000883_dist_matmul_gelu_kshard_i_m2048_n2048_k1024_v7x_i8_f32_1_alg».proof.Proof.PiecesTabBits
import proofs.«900882_g7700000000000883_dist_matmul_gelu_kshard_i_m2048_n2048_k1024_v7x_i8_f32_1_alg».proof.Proof.Gen.Kernel.Skeleton
import proofs.«900882_g7700000000000883_dist_matmul_gelu_kshard_i_m2048_n2048_k1024_v7x_i8_f32_1_alg».proof.Proof.TopoClosedBits
import proofs.«900882_g7700000000000883_dist_matmul_gelu_kshard_i_m2048_n2048_k1024_v7x_i8_f32_1_alg».proof.Proof.PiecesOutSepBits
import Idealize.ShloMosaic.Lib.Pipeline.Value

set_option maxRecDepth 16384

noncomputable section

namespace Cert.Kernel.Proto

open Cert.Kernel Cert.Kernel.Gen Cert.Kernel.Topo
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : Vals F)

/-- A chain over the 24 result copies, written out. -/
private theorem bigSepL24 (Φ : Fin 24 → sProp 𝕄) :
    bigSepL [0, 1, 2, 3, 4, 5, 6, 7, 8, 9, 10, 11, 12, 13, 14, 15, 16, 17, 18, 19, 20, 21, 22, 23] Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23) := rfl

set_option maxHeartbeats 4000000 in
theorem part30_run (c : Dev nD) (κo κw κv : ℕ) (W : Waits sig Unit) (v574 v628 v647 : BitVec 32) (v909 v914 : FVec F S256x384 .f32) (cst_707 : F .f32)
    (f3 : Buf (Elt F) ((Memref.whole cc0_scratch0 : Memref sig .tc .vmem S2048x2048 .f32).view.loc (c : Thread nD τ)))
    (fa : Buf (Elt F) ((agM0_0 c : Memref sig .tc .vmem S256x384 .bf16).view.loc (c : Thread nD τ)))
    (fo : Buf (Elt F) ((Memref.whole main_v1 : Memref sig .tc .hbm S2048x2048 .f32).view.loc (c : Thread nD τ)))
    (hV : V.out0 c ((outSrcM0 c : Memref sig .tc .vmem S256x384 .f32).view.read (Elt F) ((Memref.whole cc0_scratch0 : Memref sig .tc .vmem S2048x2048 .f32).view.writes (Elt F) f3 [⟨Rect.unit (s := S2048x2048) (k0_off37 c) ![256, 384] (k0_off37_inb c), k0_pay61 v909 v914 cst_707⟩]))) :
    iprop(owes (c : Thread nD τ) (Owe c 21) W ∗ levAts L lv
        ∗ heldW c (Memref.whole cc0_scratch0 : Memref sig .tc .vmem S2048x2048 .f32) f3
        ∗ heldW c (agM0_0 c : Memref sig .tc .vmem S256x384 .bf16) fa
        ∗ heldW c (Memref.whole main_v1 : Memref sig .tc .hbm S2048x2048 .f32) fo
        ∗ cellInv ER (sched V) κo (cell c (.out 0)) ∗ dutyTok ER (cell c (.out 0)) 0 (0 : Fin 3) ∗ reached ER (cell c (.out 0)) 0
        ∗ cellInv ER (sched V) κw (cell c (.rsS 1 2)) ∗ cred (tallyAt (cell c (.rsS 1 2)) () (amt (.rsS 1 2))) ∗ atPos ER (cell c (.rsS 1 2)) 0 ∅ 0
        ∗ cellInv ER (sched V) κv (cell c (.rsR 1 2)) ∗ cred (tallyAt (cell c (.rsR 1 2)) () (amt (.rsR 1 2))) ∗ atPos ER (cell c (.rsR 1 2)) 0 ∅ 0)
      ⊢ wp frame (wpE (defs₀ (F := F)) 𝒱₀ c none) Set.univ
          (k0_part30 (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23 c v574 v628 v647 v909 v914 cst_707)
          (fun r => iprop(⌜r = ⟨⟩⌝ ∗ cred (tallyAt (cell c (.out 0)) () (amt (.out 0)))
            ∗ owes (c : Thread nD τ) (Owe c 21) (insert ((CK.rsR 1 2).sem, ()) (insert ((CK.rsS 1 2).sem, ()) W))
            ∗ atPos ER (cell c (.rsS 1 2)) 1 ∅ 0 ∗ atPos ER (cell c (.rsR 1 2)) 1 ∅ 0
            ∗ ptsAny (F := F) c stgM1_2 ∗ ptsIs c commM1_2 (V.rs1_2 (nbr 0 c))
            ∗ heldW c (agM0_0 c : Memref sig .tc .vmem S256x384 .bf16) (View.write (Elt F) ((Memref.whole cc0_scratch13 : Memref sig .tc .vmem S2048x384 .bf16).access (Rect.unit (s := S2048x384) (k0_off58 c) ![256, 384] (k0_off58_inb c))) fa (k0_pay62 v909 v914 cst_707) Finset.univ)
            ∗ heldW c (outSrcM1 c : Memref sig .tc .vmem S256x384 .f32) ((Memref.whole cc0_scratch0 : Memref sig .tc .vmem S2048x2048 .f32).view.writes (Elt F) f3 [⟨Rect.unit (s := S2048x2048) (k0_off37 c) ![256, 384] (k0_off37_inb c), k0_pay61 v909 v914 cst_707⟩])
            ∗ heldW c (outSrcM2 c : Memref sig .tc .vmem S256x384 .f32) ((Memref.whole cc0_scratch0 : Memref sig .tc .vmem S2048x2048 .f32).view.writes (Elt F) f3 [⟨Rect.unit (s := S2048x2048) (k0_off37 c) ![256, 384] (k0_off37_inb c), k0_pay61 v909 v914 cst_707⟩])
            ∗ heldW c (outSrcM3 c : Memref sig .tc .vmem S256x384 .f32) ((Memref.whole cc0_scratch0 : Memref sig .tc .vmem S2048x2048 .f32).view.writes (Elt F) f3 [⟨Rect.unit (s := S2048x2048) (k0_off37 c) ![256, 384] (k0_off37_inb c), k0_pay61 v909 v914 cst_707⟩])
            ∗ heldW c (outSrcM4 c : Memref sig .tc .vmem S256x256 .f32) ((Memref.whole cc0_scratch0 : Memref sig .tc .vmem S2048x2048 .f32).view.writes (Elt F) f3 [⟨Rect.unit (s := S2048x2048) (k0_off37 c) ![256, 384] (k0_off37_inb c), k0_pay61 v909 v914 cst_707⟩])
            ∗ heldW c (outSrcM5 c : Memref sig .tc .vmem S256x256 .f32) ((Memref.whole cc0_scratch0 : Memref sig .tc .vmem S2048x2048 .f32).view.writes (Elt F) f3 [⟨Rect.unit (s := S2048x2048) (k0_off37 c) ![256, 384] (k0_off37_inb c), k0_pay61 v909 v914 cst_707⟩])
            ∗ heldW c (outSrcM6 c : Memref sig .tc .vmem S256x384 .f32) ((Memref.whole cc0_scratch0 : Memref sig .tc .vmem S2048x2048 .f32).view.writes (Elt F) f3 [⟨Rect.unit (s := S2048x2048) (k0_off37 c) ![256, 384] (k0_off37_inb c), k0_pay61 v909 v914 cst_707⟩])
            ∗ heldW c (outSrcM7 c : Memref sig .tc .vmem S256x384 .f32) ((Memref.whole cc0_scratch0 : Memref sig .tc .vmem S2048x2048 .f32).view.writes (Elt F) f3 [⟨Rect.unit (s := S2048x2048) (k0_off37 c) ![256, 384] (k0_off37_inb c), k0_pay61 v909 v914 cst_707⟩])
            ∗ heldW c (outSrcM8 c : Memref sig .tc .vmem S256x384 .f32) ((Memref.whole cc0_scratch0 : Memref sig .tc .vmem S2048x2048 .f32).view.writes (Elt F) f3 [⟨Rect.unit (s := S2048x2048) (k0_off37 c) ![256, 384] (k0_off37_inb c), k0_pay61 v909 v914 cst_707⟩])
            ∗ heldW c (outSrcM9 c : Memref sig .tc .vmem S256x384 .f32) ((Memref.whole cc0_scratch0 : Memref sig .tc .vmem S2048x2048 .f32).view.writes (Elt F) f3 [⟨Rect.unit (s := S2048x2048) (k0_off37 c) ![256, 384] (k0_off37_inb c), k0_pay61 v909 v914 cst_707⟩])
            ∗ heldW c (outSrcM10 c : Memref sig .tc .vmem S256x256 .f32) ((Memref.whole cc0_scratch0 : Memref sig .tc .vmem S2048x2048 .f32).view.writes (Elt F) f3 [⟨Rect.unit (s := S2048x2048) (k0_off37 c) ![256, 384] (k0_off37_inb c), k0_pay61 v909 v914 cst_707⟩])
            ∗ heldW c (outSrcM11 c : Memref sig .tc .vmem S256x256 .f32) ((Memref.whole cc0_scratch0 : Memref sig .tc .vmem S2048x2048 .f32).view.writes (Elt F) f3 [⟨Rect.unit (s := S2048x2048) (k0_off37 c) ![256, 384] (k0_off37_inb c), k0_pay61 v909 v914 cst_707⟩])
            ∗ heldW c (outSrcM12 c : Memref sig .tc .vmem S512x384 .f32) ((Memref.whole cc0_scratch0 : Memref sig .tc .vmem S2048x2048 .f32).view.writes (Elt F) f3 [⟨Rect.unit (s := S2048x2048) (k0_off37 c) ![256, 384] (k0_off37_inb c), k0_pay61 v909 v914 cst_707⟩])
            ∗ heldW c (outSrcM13 c : Memref sig .tc .vmem S512x384 .f32) ((Memref.whole cc0_scratch0 : Memref sig .tc .vmem S2048x2048 .f32).view.writes (Elt F) f3 [⟨Rect.unit (s := S2048x2048) (k0_off37 c) ![256, 384] (k0_off37_inb c), k0_pay61 v909 v914 cst_707⟩])
            ∗ heldW c (outSrcM14 c : Memref sig .tc .vmem S512x384 .f32) ((Memref.whole cc0_scratch0 : Memref sig .tc .vmem S2048x2048 .f32).view.writes (Elt F) f3 [⟨Rect.unit (s := S2048x2048) (k0_off37 c) ![256, 384] (k0_off37_inb c), k0_pay61 v909 v914 cst_707⟩])
            ∗ heldW c (outSrcM15 c : Memref sig .tc .vmem S512x384 .f32) ((Memref.whole cc0_scratch0 : Memref sig .tc .vmem S2048x2048 .f32).view.writes (Elt F) f3 [⟨Rect.unit (s := S2048x2048) (k0_off37 c) ![256, 384] (k0_off37_inb c), k0_pay61 v909 v914 cst_707⟩])
            ∗ heldW c (outSrcM16 c : Memref sig .tc .vmem S512x256 .f32) ((Memref.whole cc0_scratch0 : Memref sig .tc .vmem S2048x2048 .f32).view.writes (Elt F) f3 [⟨Rect.unit (s := S2048x2048) (k0_off37 c) ![256, 384] (k0_off37_inb c), k0_pay61 v909 v914 cst_707⟩])
            ∗ heldW c (outSrcM17 c : Memref sig .tc .vmem S512x256 .f32) ((Memref.whole cc0_scratch0 : Memref sig .tc .vmem S2048x2048 .f32).view.writes (Elt F) f3 [⟨Rect.unit (s := S2048x2048) (k0_off37 c) ![256, 384] (k0_off37_inb c), k0_pay61 v909 v914 cst_707⟩])
            ∗ heldW c (outSrcM18 c : Memref sig .tc .vmem S1024x384 .f32) ((Memref.whole cc0_scratch0 : Memref sig .tc .vmem S2048x2048 .f32).view.writes (Elt F) f3 [⟨Rect.unit (s := S2048x2048) (k0_off37 c) ![256, 384] (k0_off37_inb c), k0_pay61 v909 v914 cst_707⟩])
            ∗ heldW c (outSrcM19 c : Memref sig .tc .vmem S1024x384 .f32) ((Memref.whole cc0_scratch0 : Memref sig .tc .vmem S2048x2048 .f32).view.writes (Elt F) f3 [⟨Rect.unit (s := S2048x2048) (k0_off37 c) ![256, 384] (k0_off37_inb c), k0_pay61 v909 v914 cst_707⟩])
            ∗ heldW c (outSrcM20 c : Memref sig .tc .vmem S1024x384 .f32) ((Memref.whole cc0_scratch0 : Memref sig .tc .vmem S2048x2048 .f32).view.writes (Elt F) f3 [⟨Rect.unit (s := S2048x2048) (k0_off37 c) ![256, 384] (k0_off37_inb c), k0_pay61 v909 v914 cst_707⟩])
            ∗ heldW c (outSrcM21 c : Memref sig .tc .vmem S1024x384 .f32) ((Memref.whole cc0_scratch0 : Memref sig .tc .vmem S2048x2048 .f32).view.writes (Elt F) f3 [⟨Rect.unit (s := S2048x2048) (k0_off37 c) ![256, 384] (k0_off37_inb c), k0_pay61 v909 v914 cst_707⟩])
            ∗ heldW c (outSrcM22 c : Memref sig .tc .vmem S1024x256 .f32) ((Memref.whole cc0_scratch0 : Memref sig .tc .vmem S2048x2048 .f32).view.writes (Elt F) f3 [⟨Rect.unit (s := S2048x2048) (k0_off37 c) ![256, 384] (k0_off37_inb c), k0_pay61 v909 v914 cst_707⟩])
            ∗ heldW c (outSrcM23 c : Memref sig .tc .vmem S1024x256 .f32) ((Memref.whole cc0_scratch0 : Memref sig .tc .vmem S2048x2048 .f32).view.writes (Elt F) f3 [⟨Rect.unit (s := S2048x2048) (k0_off37 c) ![256, 384] (k0_off37_inb c), k0_pay61 v909 v914 cst_707⟩])
            ∗ heldW c (outDstM1 c : Memref sig .tc .hbm S256x384 .f32) fo
            ∗ heldW c (outDstM2 c : Memref sig .tc .hbm S256x384 .f32) fo
            ∗ heldW c (outDstM3 c : Memref sig .tc .hbm S256x384 .f32) fo
            ∗ heldW c (outDstM4 c : Memref sig .tc .hbm S256x256 .f32) fo
            ∗ heldW c (outDstM5 c : Memref sig .tc .hbm S256x256 .f32) fo
            ∗ heldW c (outDstM6 c : Memref sig .tc .hbm S256x384 .f32) fo
            ∗ heldW c (outDstM7 c : Memref sig .tc .hbm S256x384 .f32) fo
            ∗ heldW c (outDstM8 c : Memref sig .tc .hbm S256x384 .f32) fo
            ∗ heldW c (outDstM9 c : Memref sig .tc .hbm S256x384 .f32) fo
            ∗ heldW c (outDstM10 c : Memref sig .tc .hbm S256x256 .f32) fo
            ∗ heldW c (outDstM11 c : Memref sig .tc .hbm S256x256 .f32) fo
            ∗ heldW c (outDstM12 c : Memref sig .tc .hbm S512x384 .f32) fo
            ∗ heldW c (outDstM13 c : Memref sig .tc .hbm S512x384 .f32) fo
            ∗ heldW c (outDstM14 c : Memref sig .tc .hbm S512x384 .f32) fo
            ∗ heldW c (outDstM15 c : Memref sig .tc .hbm S512x384 .f32) fo
            ∗ heldW c (outDstM16 c : Memref sig .tc .hbm S512x256 .f32) fo
            ∗ heldW c (outDstM17 c : Memref sig .tc .hbm S512x256 .f32) fo
            ∗ heldW c (outDstM18 c : Memref sig .tc .hbm S1024x384 .f32) fo
            ∗ heldW c (outDstM19 c : Memref sig .tc .hbm S1024x384 .f32) fo
            ∗ heldW c (outDstM20 c : Memref sig .tc .hbm S1024x384 .f32) fo
            ∗ heldW c (outDstM21 c : Memref sig .tc .hbm S1024x384 .f32) fo
            ∗ heldW c (outDstM22 c : Memref sig .tc .hbm S1024x256 .f32) fo
            ∗ heldW c (outDstM23 c : Memref sig .tc .hbm S1024x256 .f32) fo)) := by
  simp only [k0_part30_eq_skeleton]; unfold k0_part30_skel
  simp only [Prog.lift, Prog.bind_op, Prog.bind_ret, Prog.pure_eq_ret]
  iintro ⟨HO, #Hlev, Hacc, Hag, Hout, #HIo, Hto, #Hro, #HIw, Hcw, Hatw, #HIv, Hcv, Hatv⟩
  unfold heldW
  have hincA : ((Memref.whole cc0_scratch13 : Memref sig .tc .vmem S2048x384 .bf16).access (Rect.unit (s := S2048x384) (k0_off58 c) ![256, 384] (k0_off58_inb c))).set
      ⊆ (agM0_0 c : Memref sig .tc .vmem S256x384 .bf16).view.set := by
    rw [View.set_slice_whole, View.set_slice_whole]
    refine unit_subset ?_
    piece_arith c [off58_eq, off73_eq]
  have hincB : ((Memref.whole cc0_scratch13 : Memref sig .tc .vmem S2048x384 .bf16).access (Rect.unit (s := S2048x384) (k0_off58 c) ![256, 384] (k0_off58_inb c))).setOn Finset.univ
      ⊆ (agM0_0 c : Memref sig .tc .vmem S256x384 .bf16).view.set := by
    rw [View.setOn_univ]; exact hincA
  sl_exec
  -- the accumulator and the result array, held whole, are cut into the 24 blocks of the result copies
  ihave Haccu := (Entails.of_eq (pts_set_eq (F := F) (ℓ := (Memref.whole cc0_scratch0 : Memref sig .tc .vmem S2048x2048 .f32).view.loc (c : Thread nD τ)) (S' := Finset.univ) (View.set_whole _))) $$ Hacc
  ihave Haccb := (Entails.of_eq ((outSrc_blocks (F := F) c _).trans ((bigSep_univ_eq_bigSepL [0, 1, 2, 3, 4, 5, 6, 7, 8, 9, 10, 11, 12, 13, 14, 15, 16, 17, 18, 19, 20, 21, 22, 23] (by decide) (by decide) _).trans (bigSepL24 (F := F) _)))) $$ Haccu
  icases Haccb with ⟨Hs0, Hs1, Hs2, Hs3, Hs4, Hs5, Hs6, Hs7, Hs8, Hs9, Hs10, Hs11, Hs12, Hs13, Hs14, Hs15, Hs16, Hs17, Hs18, Hs19, Hs20, Hs21, Hs22, Hs23⟩
  ihave Hs0 := (Entails.of_eq (pts_set_eq (F := F) (ℓ := (Memref.whole cc0_scratch0 : Memref sig .tc .vmem S2048x2048 .f32).view.loc (c : Thread nD τ)) (outSrc_set_0 c).symm)) $$ Hs0
  ihave Hs1 := (Entails.of_eq (pts_set_eq (F := F) (ℓ := (Memref.whole cc0_scratch0 : Memref sig .tc .vmem S2048x2048 .f32).view.loc (c : Thread nD τ)) (outSrc_set_1 c).symm)) $$ Hs1
  ihave Hs2 := (Entails.of_eq (pts_set_eq (F := F) (ℓ := (Memref.whole cc0_scratch0 : Memref sig .tc .vmem S2048x2048 .f32).view.loc (c : Thread nD τ)) (outSrc_set_2 c).symm)) $$ Hs2
  ihave Hs3 := (Entails.of_eq (pts_set_eq (F := F) (ℓ := (Memref.whole cc0_scratch0 : Memref sig .tc .vmem S2048x2048 .f32).view.loc (c : Thread nD τ)) (outSrc_set_3 c).symm)) $$ Hs3
  ihave Hs4 := (Entails.of_eq (pts_set_eq (F := F) (ℓ := (Memref.whole cc0_scratch0 : Memref sig .tc .vmem S2048x2048 .f32).view.loc (c : Thread nD τ)) (outSrc_set_4 c).symm)) $$ Hs4
  ihave Hs5 := (Entails.of_eq (pts_set_eq (F := F) (ℓ := (Memref.whole cc0_scratch0 : Memref sig .tc .vmem S2048x2048 .f32).view.loc (c : Thread nD τ)) (outSrc_set_5 c).symm)) $$ Hs5
  ihave Hs6 := (Entails.of_eq (pts_set_eq (F := F) (ℓ := (Memref.whole cc0_scratch0 : Memref sig .tc .vmem S2048x2048 .f32).view.loc (c : Thread nD τ)) (outSrc_set_6 c).symm)) $$ Hs6
  ihave Hs7 := (Entails.of_eq (pts_set_eq (F := F) (ℓ := (Memref.whole cc0_scratch0 : Memref sig .tc .vmem S2048x2048 .f32).view.loc (c : Thread nD τ)) (outSrc_set_7 c).symm)) $$ Hs7
  ihave Hs8 := (Entails.of_eq (pts_set_eq (F := F) (ℓ := (Memref.whole cc0_scratch0 : Memref sig .tc .vmem S2048x2048 .f32).view.loc (c : Thread nD τ)) (outSrc_set_8 c).symm)) $$ Hs8
  ihave Hs9 := (Entails.of_eq (pts_set_eq (F := F) (ℓ := (Memref.whole cc0_scratch0 : Memref sig .tc .vmem S2048x2048 .f32).view.loc (c : Thread nD τ)) (outSrc_set_9 c).symm)) $$ Hs9
  ihave Hs10 := (Entails.of_eq (pts_set_eq (F := F) (ℓ := (Memref.whole cc0_scratch0 : Memref sig .tc .vmem S2048x2048 .f32).view.loc (c : Thread nD τ)) (outSrc_set_10 c).symm)) $$ Hs10
  ihave Hs11 := (Entails.of_eq (pts_set_eq (F := F) (ℓ := (Memref.whole cc0_scratch0 : Memref sig .tc .vmem S2048x2048 .f32).view.loc (c : Thread nD τ)) (outSrc_set_11 c).symm)) $$ Hs11
  ihave Hs12 := (Entails.of_eq (pts_set_eq (F := F) (ℓ := (Memref.whole cc0_scratch0 : Memref sig .tc .vmem S2048x2048 .f32).view.loc (c : Thread nD τ)) (outSrc_set_12 c).symm)) $$ Hs12
  ihave Hs13 := (Entails.of_eq (pts_set_eq (F := F) (ℓ := (Memref.whole cc0_scratch0 : Memref sig .tc .vmem S2048x2048 .f32).view.loc (c : Thread nD τ)) (outSrc_set_13 c).symm)) $$ Hs13
  ihave Hs14 := (Entails.of_eq (pts_set_eq (F := F) (ℓ := (Memref.whole cc0_scratch0 : Memref sig .tc .vmem S2048x2048 .f32).view.loc (c : Thread nD τ)) (outSrc_set_14 c).symm)) $$ Hs14
  ihave Hs15 := (Entails.of_eq (pts_set_eq (F := F) (ℓ := (Memref.whole cc0_scratch0 : Memref sig .tc .vmem S2048x2048 .f32).view.loc (c : Thread nD τ)) (outSrc_set_15 c).symm)) $$ Hs15
  ihave Hs16 := (Entails.of_eq (pts_set_eq (F := F) (ℓ := (Memref.whole cc0_scratch0 : Memref sig .tc .vmem S2048x2048 .f32).view.loc (c : Thread nD τ)) (outSrc_set_16 c).symm)) $$ Hs16
  ihave Hs17 := (Entails.of_eq (pts_set_eq (F := F) (ℓ := (Memref.whole cc0_scratch0 : Memref sig .tc .vmem S2048x2048 .f32).view.loc (c : Thread nD τ)) (outSrc_set_17 c).symm)) $$ Hs17
  ihave Hs18 := (Entails.of_eq (pts_set_eq (F := F) (ℓ := (Memref.whole cc0_scratch0 : Memref sig .tc .vmem S2048x2048 .f32).view.loc (c : Thread nD τ)) (outSrc_set_18 c).symm)) $$ Hs18
  ihave Hs19 := (Entails.of_eq (pts_set_eq (F := F) (ℓ := (Memref.whole cc0_scratch0 : Memref sig .tc .vmem S2048x2048 .f32).view.loc (c : Thread nD τ)) (outSrc_set_19 c).symm)) $$ Hs19
  ihave Hs20 := (Entails.of_eq (pts_set_eq (F := F) (ℓ := (Memref.whole cc0_scratch0 : Memref sig .tc .vmem S2048x2048 .f32).view.loc (c : Thread nD τ)) (outSrc_set_20 c).symm)) $$ Hs20
  ihave Hs21 := (Entails.of_eq (pts_set_eq (F := F) (ℓ := (Memref.whole cc0_scratch0 : Memref sig .tc .vmem S2048x2048 .f32).view.loc (c : Thread nD τ)) (outSrc_set_21 c).symm)) $$ Hs21
  ihave Hs22 := (Entails.of_eq (pts_set_eq (F := F) (ℓ := (Memref.whole cc0_scratch0 : Memref sig .tc .vmem S2048x2048 .f32).view.loc (c : Thread nD τ)) (outSrc_set_22 c).symm)) $$ Hs22
  ihave Hs23 := (Entails.of_eq (pts_set_eq (F := F) (ℓ := (Memref.whole cc0_scratch0 : Memref sig .tc .vmem S2048x2048 .f32).view.loc (c : Thread nD τ)) (outSrc_set_23 c).symm)) $$ Hs23
  ihave Houtu := (Entails.of_eq (pts_set_eq (F := F) (ℓ := (Memref.whole main_v1 : Memref sig .tc .hbm S2048x2048 .f32).view.loc (c : Thread nD τ)) (S' := Finset.univ) (View.set_whole _))) $$ Hout
  ihave Houtb := (Entails.of_eq ((outDst_blocks (F := F) c _).trans ((bigSep_univ_eq_bigSepL [0, 1, 2, 3, 4, 5, 6, 7, 8, 9, 10, 11, 12, 13, 14, 15, 16, 17, 18, 19, 20, 21, 22, 23] (by decide) (by decide) _).trans (bigSepL24 (F := F) _)))) $$ Houtu
  icases Houtb with ⟨Hd0, Hd1, Hd2, Hd3, Hd4, Hd5, Hd6, Hd7, Hd8, Hd9, Hd10, Hd11, Hd12, Hd13, Hd14, Hd15, Hd16, Hd17, Hd18, Hd19, Hd20, Hd21, Hd22, Hd23⟩
  ihave Hd0 := (Entails.of_eq (pts_set_eq (F := F) (ℓ := (Memref.whole main_v1 : Memref sig .tc .hbm S2048x2048 .f32).view.loc (c : Thread nD τ)) (outDst_set_0 c).symm)) $$ Hd0
  ihave Hd1 := (Entails.of_eq (pts_set_eq (F := F) (ℓ := (Memref.whole main_v1 : Memref sig .tc .hbm S2048x2048 .f32).view.loc (c : Thread nD τ)) (outDst_set_1 c).symm)) $$ Hd1
  ihave Hd2 := (Entails.of_eq (pts_set_eq (F := F) (ℓ := (Memref.whole main_v1 : Memref sig .tc .hbm S2048x2048 .f32).view.loc (c : Thread nD τ)) (outDst_set_2 c).symm)) $$ Hd2
  ihave Hd3 := (Entails.of_eq (pts_set_eq (F := F) (ℓ := (Memref.whole main_v1 : Memref sig .tc .hbm S2048x2048 .f32).view.loc (c : Thread nD τ)) (outDst_set_3 c).symm)) $$ Hd3
  ihave Hd4 := (Entails.of_eq (pts_set_eq (F := F) (ℓ := (Memref.whole main_v1 : Memref sig .tc .hbm S2048x2048 .f32).view.loc (c : Thread nD τ)) (outDst_set_4 c).symm)) $$ Hd4
  ihave Hd5 := (Entails.of_eq (pts_set_eq (F := F) (ℓ := (Memref.whole main_v1 : Memref sig .tc .hbm S2048x2048 .f32).view.loc (c : Thread nD τ)) (outDst_set_5 c).symm)) $$ Hd5
  ihave Hd6 := (Entails.of_eq (pts_set_eq (F := F) (ℓ := (Memref.whole main_v1 : Memref sig .tc .hbm S2048x2048 .f32).view.loc (c : Thread nD τ)) (outDst_set_6 c).symm)) $$ Hd6
  ihave Hd7 := (Entails.of_eq (pts_set_eq (F := F) (ℓ := (Memref.whole main_v1 : Memref sig .tc .hbm S2048x2048 .f32).view.loc (c : Thread nD τ)) (outDst_set_7 c).symm)) $$ Hd7
  ihave Hd8 := (Entails.of_eq (pts_set_eq (F := F) (ℓ := (Memref.whole main_v1 : Memref sig .tc .hbm S2048x2048 .f32).view.loc (c : Thread nD τ)) (outDst_set_8 c).symm)) $$ Hd8
  ihave Hd9 := (Entails.of_eq (pts_set_eq (F := F) (ℓ := (Memref.whole main_v1 : Memref sig .tc .hbm S2048x2048 .f32).view.loc (c : Thread nD τ)) (outDst_set_9 c).symm)) $$ Hd9
  ihave Hd10 := (Entails.of_eq (pts_set_eq (F := F) (ℓ := (Memref.whole main_v1 : Memref sig .tc .hbm S2048x2048 .f32).view.loc (c : Thread nD τ)) (outDst_set_10 c).symm)) $$ Hd10
  ihave Hd11 := (Entails.of_eq (pts_set_eq (F := F) (ℓ := (Memref.whole main_v1 : Memref sig .tc .hbm S2048x2048 .f32).view.loc (c : Thread nD τ)) (outDst_set_11 c).symm)) $$ Hd11
  ihave Hd12 := (Entails.of_eq (pts_set_eq (F := F) (ℓ := (Memref.whole main_v1 : Memref sig .tc .hbm S2048x2048 .f32).view.loc (c : Thread nD τ)) (outDst_set_12 c).symm)) $$ Hd12
  ihave Hd13 := (Entails.of_eq (pts_set_eq (F := F) (ℓ := (Memref.whole main_v1 : Memref sig .tc .hbm S2048x2048 .f32).view.loc (c : Thread nD τ)) (outDst_set_13 c).symm)) $$ Hd13
  ihave Hd14 := (Entails.of_eq (pts_set_eq (F := F) (ℓ := (Memref.whole main_v1 : Memref sig .tc .hbm S2048x2048 .f32).view.loc (c : Thread nD τ)) (outDst_set_14 c).symm)) $$ Hd14
  ihave Hd15 := (Entails.of_eq (pts_set_eq (F := F) (ℓ := (Memref.whole main_v1 : Memref sig .tc .hbm S2048x2048 .f32).view.loc (c : Thread nD τ)) (outDst_set_15 c).symm)) $$ Hd15
  ihave Hd16 := (Entails.of_eq (pts_set_eq (F := F) (ℓ := (Memref.whole main_v1 : Memref sig .tc .hbm S2048x2048 .f32).view.loc (c : Thread nD τ)) (outDst_set_16 c).symm)) $$ Hd16
  ihave Hd17 := (Entails.of_eq (pts_set_eq (F := F) (ℓ := (Memref.whole main_v1 : Memref sig .tc .hbm S2048x2048 .f32).view.loc (c : Thread nD τ)) (outDst_set_17 c).symm)) $$ Hd17
  ihave Hd18 := (Entails.of_eq (pts_set_eq (F := F) (ℓ := (Memref.whole main_v1 : Memref sig .tc .hbm S2048x2048 .f32).view.loc (c : Thread nD τ)) (outDst_set_18 c).symm)) $$ Hd18
  ihave Hd19 := (Entails.of_eq (pts_set_eq (F := F) (ℓ := (Memref.whole main_v1 : Memref sig .tc .hbm S2048x2048 .f32).view.loc (c : Thread nD τ)) (outDst_set_19 c).symm)) $$ Hd19
  ihave Hd20 := (Entails.of_eq (pts_set_eq (F := F) (ℓ := (Memref.whole main_v1 : Memref sig .tc .hbm S2048x2048 .f32).view.loc (c : Thread nD τ)) (outDst_set_20 c).symm)) $$ Hd20
  ihave Hd21 := (Entails.of_eq (pts_set_eq (F := F) (ℓ := (Memref.whole main_v1 : Memref sig .tc .hbm S2048x2048 .f32).view.loc (c : Thread nD τ)) (outDst_set_21 c).symm)) $$ Hd21
  ihave Hd22 := (Entails.of_eq (pts_set_eq (F := F) (ℓ := (Memref.whole main_v1 : Memref sig .tc .hbm S2048x2048 .f32).view.loc (c : Thread nD τ)) (outDst_set_22 c).symm)) $$ Hd22
  ihave Hd23 := (Entails.of_eq (pts_set_eq (F := F) (ℓ := (Memref.whole main_v1 : Memref sig .tc .hbm S2048x2048 .f32).view.loc (c : Thread nD τ)) (outDst_set_23 c).symm)) $$ Hd23
  have hpay : iprop(((outDstM0 c : Memref sig .tc .hbm S256x384 .f32).view.loc (c : Thread nD τ) ↦[(outDstM0 c : Memref sig .tc .hbm S256x384 .f32).view.set]{fullShare}
        ((outDstM0 c : Memref sig .tc .hbm S256x384 .f32).view.write (Elt F) fo ((outSrcM0 c : Memref sig .tc .vmem S256x384 .f32).view.read (Elt F) ((Memref.whole cc0_scratch0 : Memref sig .tc .vmem S2048x2048 .f32).view.writes (Elt F) f3 [⟨Rect.unit (s := S2048x2048) (k0_off37 c) ![256, 384] (k0_off37_inb c), k0_pay61 v909 v914 cst_707⟩])) Finset.univ))
      ∗ ((outSrcM0 c : Memref sig .tc .vmem S256x384 .f32).view.loc (c : Thread nD τ) ↦[(outSrcM0 c : Memref sig .tc .vmem S256x384 .f32).view.set]{fullShare} ((Memref.whole cc0_scratch0 : Memref sig .tc .vmem S2048x2048 .f32).view.writes (Elt F) f3 [⟨Rect.unit (s := S2048x2048) (k0_off37 c) ![256, 384] (k0_off37_inb c), k0_pay61 v909 v914 cst_707⟩]))) ⊢ pay V c (.out 0) 0 := by
    show _ ⊢ iprop(ptsIs c (outDstM0 c) (V.out0 c) ∗ ptsAny (F := F) c (outSrcM0 c))
    iintro ⟨Hd, Hs⟩
    isplitl [Hd]
    · unfold ptsIs
      iexists _
      isplitl [Hd]; · iexact Hd
      ipureintro; rw [View.read_write_univ]; exact hV
    · unfold ptsAny
      iexists _
      iexact Hs
  iapply (wp_copy_own V c (.out 0) (by decide) (src := outSrcM0 c) (dst := outDstM0 c) (out_sem_eq 0 _) rfl fo κo hpay) $$ [Hs0 Hd0 Hto]
  · isplitr; · iexact HIo
    isplitl [Hs0]; · iexact Hs0
    isplitl [Hd0]; · iexact Hd0
    isplitl [Hto]; · iexact Hto
    iexact Hro
  iintro Hco
  iapply (wp_wait_xfer V c (.rsS 1 2) (by decide) 21 (rsS_sem_eq 1 2 _)
      (show (stgM1_2 : Memref sig .tc .vmem S256x384 .bf16).view.dmaCredit = amt (.rsS 1 2) from rfl)
      (wpE_waitDma2_eq 𝒱₀ (c : Thread nD τ) none Set.univ)
      (mayWait_own c (.rsS 1 2) (lv_cell c _) 21) κw W) $$ [Hcw HO Hatw]
  · isplitr; · iexact HIw
    isplitl [Hcw]; · iexact Hcw
    isplitl [HO]; · iexact HO
    isplitr; · iexact Hlev
    iexact Hatw
  iintro ⟨HO, Hatw, Hpay1⟩
  iapply (wp_wait_xfer V c (.rsR 1 2) (by decide) 21 (rsR_sem_eq 1 2 _)
      (show (commM1_2 : Memref sig .tc .vmem S256x384 .bf16).view.dmaCredit = amt (.rsR 1 2) from rfl)
      (wpE_waitDma2_eq 𝒱₀ (c : Thread nD τ) none Set.univ)
      (mayWait_rsR c 1 2 21 (by decide)) κv (insert ((CK.rsS 1 2).sem, ()) W)) $$ [Hcv HO Hatv]
  · isplitr; · iexact HIv
    isplitl [Hcv]; · iexact Hcv
    isplitl [HO]; · iexact HO
    isplitr; · iexact Hlev
    iexact Hatv
  iintro ⟨HO, Hatv, Hpay2⟩
  ihave Hp1 := (Entails.of_eq (show pay V c (CK.rsS 1 2) 0 = ptsAny (F := F) c stgM1_2 from rfl)) $$ Hpay1
  ihave Hp2 := (Entails.of_eq (show pay V c (CK.rsR 1 2) 0 = ptsIs c commM1_2 (V.rs1_2 (nbr 0 c)) from rfl)) $$ Hpay2
  sl_step
  isplitr; · ipureintro; trivial
  isplitl [Hco]; · iexact Hco
  isplitl [HO]; · iexact HO
  isplitl [Hatw]; · iexact Hatw
  isplitl [Hatv]; · iexact Hatv
  isplitl [Hp1]; · iexact Hp1
  isplitl [Hp2]; · iexact Hp2
  isplitl [Hag]; · iexact Hag
  isplitl [Hs1]; · iexact Hs1
  isplitl [Hs2]; · iexact Hs2
  isplitl [Hs3]; · iexact Hs3
  isplitl [Hs4]; · iexact Hs4
  isplitl [Hs5]; · iexact Hs5
  isplitl [Hs6]; · iexact Hs6
  isplitl [Hs7]; · iexact Hs7
  isplitl [Hs8]; · iexact Hs8
  isplitl [Hs9]; · iexact Hs9
  isplitl [Hs10]; · iexact Hs10
  isplitl [Hs11]; · iexact Hs11
  isplitl [Hs12]; · iexact Hs12
  isplitl [Hs13]; · iexact Hs13
  isplitl [Hs14]; · iexact Hs14
  isplitl [Hs15]; · iexact Hs15
  isplitl [Hs16]; · iexact Hs16
  isplitl [Hs17]; · iexact Hs17
  isplitl [Hs18]; · iexact Hs18
  isplitl [Hs19]; · iexact Hs19
  isplitl [Hs20]; · iexact Hs20
  isplitl [Hs21]; · iexact Hs21
  isplitl [Hs22]; · iexact Hs22
  isplitl [Hs23]; · iexact Hs23
  isplitl [Hd1]; · iexact Hd1
  isplitl [Hd2]; · iexact Hd2
  isplitl [Hd3]; · iexact Hd3
  isplitl [Hd4]; · iexact Hd4
  isplitl [Hd5]; · iexact Hd5
  isplitl [Hd6]; · iexact Hd6
  isplitl [Hd7]; · iexact Hd7
  isplitl [Hd8]; · iexact Hd8
  isplitl [Hd9]; · iexact Hd9
  isplitl [Hd10]; · iexact Hd10
  isplitl [Hd11]; · iexact Hd11
  isplitl [Hd12]; · iexact Hd12
  isplitl [Hd13]; · iexact Hd13
  isplitl [Hd14]; · iexact Hd14
  isplitl [Hd15]; · iexact Hd15
  isplitl [Hd16]; · iexact Hd16
  isplitl [Hd17]; · iexact Hd17
  isplitl [Hd18]; · iexact Hd18
  isplitl [Hd19]; · iexact Hd19
  isplitl [Hd20]; · iexact Hd20
  isplitl [Hd21]; · iexact Hd21
  isplitl [Hd22]; · iexact Hd22
  iexact Hd23

end Cert.Kernel.Proto

end
-- ==== Proof.Body31Bits.lean ====
/-
Stretch 31 of a device's kernel body: the sum of group 1's last landing (256 rows) into the device's own 256 rows of the
accumulator's block 1, their gelu stored back and, rounded, into its own rows of group 1's all-gather buffer, and the copy
of that finished block to the result array.
-/
import proofs.«900882_g7700000000000883_dist_matmul_gelu_kshard_i_m2048_n2048_k1024_v7x_i8_f32_1_alg».proof.Proof.RulesBits
import proofs.«900882_g7700000000000883_dist_matmul_gelu_kshard_i_m2048_n2048_k1024_v7x_i8_f32_1_alg».proof.Proof.TopoBitsTab
import proofs.«900882_g7700000000000883_dist_matmul_gelu_kshard_i_m2048_n2048_k1024_v7x_i8_f32_1_alg».proof.Proof.PiecesTabBits
import proofs.«900882_g7700000000000883_dist_matmul_gelu_kshard_i_m2048_n2048_k1024_v7x_i8_f32_1_alg».proof.Proof.Gen.Kernel.Skeleton
import proofs.«900882_g7700000000000883_dist_matmul_gelu_kshard_i_m2048_n2048_k1024_v7x_i8_f32_1_alg».proof.Proof.TopoClosedBits
import proofs.«900882_g7700000000000883_dist_matmul_gelu_kshard_i_m2048_n2048_k1024_v7x_i8_f32_1_alg».proof.Proof.PiecesOutSepBits
import Idealize.ShloMosaic.Lib.Pipeline.Value

set_option maxRecDepth 16384

noncomputable section

namespace Cert.Kernel.Proto

open Cert.Kernel Cert.Kernel.Gen Cert.Kernel.Topo
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : Vals F)

set_option maxHeartbeats 4000000 in
theorem part31_run (c : Dev nD) (κo : ℕ) (v628 : BitVec 32)
    (fb : Buf (Elt F) ((outSrcM1 c : Memref sig .tc .vmem S256x384 .f32).view.loc (c : Thread nD τ)))
    (fl : Buf (Elt F) ((commM1_2 : Memref sig .tc .vmem S256x384 .bf16).view.loc (c : Thread nD τ)))
    (fa : Buf (Elt F) ((agM1_0 c : Memref sig .tc .vmem S256x384 .bf16).view.loc (c : Thread nD τ)))
    (fo : Buf (Elt F) ((outDstM1 c : Memref sig .tc .hbm S256x384 .f32).view.loc (c : Thread nD τ)))
    (hV : V.out1 c ((outSrcM1 c : Memref sig .tc .vmem S256x384 .f32).view.read (Elt F) (View.write (Elt F) ((Memref.whole cc0_scratch0 : Memref sig .tc .vmem S2048x2048 .f32).access (Rect.unit (s := S2048x2048) (k0_off41 c) ![256, 384] (k0_off41_inb c))) (View.write (Elt F) ((Memref.whole cc0_scratch0 : Memref sig .tc .vmem S2048x2048 .f32).access (Rect.unit (s := S2048x2048) (k0_off41 c) ![256, 384] (k0_off41_inb c))) fb (k0_pay63 (View.readAt (Elt F) (Memref.whole cc0_scratch0 : Memref sig .tc .vmem S2048x2048 .f32).view (Rect.unit (s := S2048x2048) (k0_off41 c) ![256, 384] (k0_off41_inb c)).toLoadRect fb) (View.readAt (Elt F) (Memref.whole cc0_scratch2 : Memref sig .tc .vmem S1792x384 .bf16).view (Rect.unit (s := S1792x384) (k0_off60 c) ![256, 384] (k0_off60_inb c)).toLoadRect fl)) Finset.univ) (k0_pay65 (k0_pay63 (View.readAt (Elt F) (Memref.whole cc0_scratch0 : Memref sig .tc .vmem S2048x2048 .f32).view (Rect.unit (s := S2048x2048) (k0_off41 c) ![256, 384] (k0_off41_inb c)).toLoadRect fb) (View.readAt (Elt F) (Memref.whole cc0_scratch2 : Memref sig .tc .vmem S1792x384 .bf16).view (Rect.unit (s := S1792x384) (k0_off60 c) ![256, 384] (k0_off60_inb c)).toLoadRect fl))) Finset.univ))) :
    iprop(heldW c (outSrcM1 c : Memref sig .tc .vmem S256x384 .f32) fb
        ∗ heldW c (commM1_2 : Memref sig .tc .vmem S256x384 .bf16) fl
        ∗ heldW c (agM1_0 c : Memref sig .tc .vmem S256x384 .bf16) fa
        ∗ heldW c (outDstM1 c : Memref sig .tc .hbm S256x384 .f32) fo
        ∗ cellInv ER (sched V) κo (cell c (.out 1)) ∗ dutyTok ER (cell c (.out 1)) 0 (0 : Fin 3) ∗ reached ER (cell c (.out 1)) 0)
      ⊢ wp frame (wpE (defs₀ (F := F)) 𝒱₀ c none) Set.univ
          (k0_part31 (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23 c v628)
          (fun r => iprop(⌜r = ⟨⟩⌝ ∗ cred (tallyAt (cell c (.out 1)) () (amt (.out 1)))
            ∗ heldW c (commM1_2 : Memref sig .tc .vmem S256x384 .bf16) fl
            ∗ heldW c (agM1_0 c : Memref sig .tc .vmem S256x384 .bf16) (View.write (Elt F) ((Memref.whole cc0_scratch14 : Memref sig .tc .vmem S2048x384 .bf16).access (Rect.unit (s := S2048x384) (k0_off61 c) ![256, 384] (k0_off61_inb c))) fa (k0_pay66 (k0_pay63 (View.readAt (Elt F) (Memref.whole cc0_scratch0 : Memref sig .tc .vmem S2048x2048 .f32).view (Rect.unit (s := S2048x2048) (k0_off41 c) ![256, 384] (k0_off41_inb c)).toLoadRect fb) (View.readAt (Elt F) (Memref.whole cc0_scratch2 : Memref sig .tc .vmem S1792x384 .bf16).view (Rect.unit (s := S1792x384) (k0_off60 c) ![256, 384] (k0_off60_inb c)).toLoadRect fl))) Finset.univ))) := by
  simp only [k0_part31_eq_skeleton]; unfold k0_part31_skel
  simp only [Prog.lift, Prog.bind_op, Prog.bind_ret, Prog.pure_eq_ret]
  iintro ⟨Hblk, Hland, Hag, Hdst, #HIo, Hto, #Hro⟩
  unfold heldW
  have hinc1 : ((Memref.whole cc0_scratch2 : Memref sig .tc .vmem S1792x384 .bf16).access (Rect.unit (s := S1792x384) (k0_off60 c) ![256, 384] (k0_off60_inb c))).set
      ⊆ (commM1_2 : Memref sig .tc .vmem S256x384 .bf16).view.set := by
    rw [View.set_slice_whole, View.set_slice_whole]
    refine unit_subset ?_
    piece_arith c [off60_eq]
  have hinc2 : ((Memref.whole cc0_scratch0 : Memref sig .tc .vmem S2048x2048 .f32).access (Rect.unit (s := S2048x2048) (k0_off41 c) ![256, 384] (k0_off41_inb c))).set
      ⊆ (outSrcM1 c : Memref sig .tc .vmem S256x384 .f32).view.set := by
    rw [View.set_slice_whole, View.set_slice_whole]
    refine unit_subset ?_
    piece_arith c [off41_eq, off62_eq]
  have hinc3 : ((Memref.whole cc0_scratch0 : Memref sig .tc .vmem S2048x2048 .f32).access (Rect.unit (s := S2048x2048) (k0_off41 c) ![256, 384] (k0_off41_inb c))).setOn Finset.univ
      ⊆ (outSrcM1 c : Memref sig .tc .vmem S256x384 .f32).view.set := by
    rw [View.setOn_univ]
    rw [View.set_slice_whole, View.set_slice_whole]
    refine unit_subset ?_
    piece_arith c [off41_eq, off62_eq]
  have hincA : ((Memref.whole cc0_scratch14 : Memref sig .tc .vmem S2048x384 .bf16).access (Rect.unit (s := S2048x384) (k0_off61 c) ![256, 384] (k0_off61_inb c))).set
      ⊆ (agM1_0 c : Memref sig .tc .vmem S256x384 .bf16).view.set := by
    rw [View.set_slice_whole, View.set_slice_whole]
    refine unit_subset ?_
    piece_arith c [off61_eq, off74_eq]
  have hincB : ((Memref.whole cc0_scratch14 : Memref sig .tc .vmem S2048x384 .bf16).access (Rect.unit (s := S2048x384) (k0_off61 c) ![256, 384] (k0_off61_inb c))).setOn Finset.univ
      ⊆ (agM1_0 c : Memref sig .tc .vmem S256x384 .bf16).view.set := by
    rw [View.setOn_univ]; exact hincA
  sl_exec
  have hpay : iprop(((outDstM1 c : Memref sig .tc .hbm S256x384 .f32).view.loc (c : Thread nD τ) ↦[(outDstM1 c : Memref sig .tc .hbm S256x384 .f32).view.set]{fullShare}
        ((outDstM1 c : Memref sig .tc .hbm S256x384 .f32).view.write (Elt F) fo ((outSrcM1 c : Memref sig .tc .vmem S256x384 .f32).view.read (Elt F) (View.write (Elt F) ((Memref.whole cc0_scratch0 : Memref sig .tc .vmem S2048x2048 .f32).access (Rect.unit (s := S2048x2048) (k0_off41 c) ![256, 384] (k0_off41_inb c))) (View.write (Elt F) ((Memref.whole cc0_scratch0 : Memref sig .tc .vmem S2048x2048 .f32).access (Rect.unit (s := S2048x2048) (k0_off41 c) ![256, 384] (k0_off41_inb c))) fb (k0_pay63 (View.readAt (Elt F) (Memref.whole cc0_scratch0 : Memref sig .tc .vmem S2048x2048 .f32).view (Rect.unit (s := S2048x2048) (k0_off41 c) ![256, 384] (k0_off41_inb c)).toLoadRect fb) (View.readAt (Elt F) (Memref.whole cc0_scratch2 : Memref sig .tc .vmem S1792x384 .bf16).view (Rect.unit (s := S1792x384) (k0_off60 c) ![256, 384] (k0_off60_inb c)).toLoadRect fl)) Finset.univ) (k0_pay65 (k0_pay63 (View.readAt (Elt F) (Memref.whole cc0_scratch0 : Memref sig .tc .vmem S2048x2048 .f32).view (Rect.unit (s := S2048x2048) (k0_off41 c) ![256, 384] (k0_off41_inb c)).toLoadRect fb) (View.readAt (Elt F) (Memref.whole cc0_scratch2 : Memref sig .tc .vmem S1792x384 .bf16).view (Rect.unit (s := S1792x384) (k0_off60 c) ![256, 384] (k0_off60_inb c)).toLoadRect fl))) Finset.univ)) Finset.univ))
      ∗ ((outSrcM1 c : Memref sig .tc .vmem S256x384 .f32).view.loc (c : Thread nD τ) ↦[(outSrcM1 c : Memref sig .tc .vmem S256x384 .f32).view.set]{fullShare} (View.write (Elt F) ((Memref.whole cc0_scratch0 : Memref sig .tc .vmem S2048x2048 .f32).access (Rect.unit (s := S2048x2048) (k0_off41 c) ![256, 384] (k0_off41_inb c))) (View.write (Elt F) ((Memref.whole cc0_scratch0 : Memref sig .tc .vmem S2048x2048 .f32).access (Rect.unit (s := S2048x2048) (k0_off41 c) ![256, 384] (k0_off41_inb c))) fb (k0_pay63 (View.readAt (Elt F) (Memref.whole cc0_scratch0 : Memref sig .tc .vmem S2048x2048 .f32).view (Rect.unit (s := S2048x2048) (k0_off41 c) ![256, 384] (k0_off41_inb c)).toLoadRect fb) (View.readAt (Elt F) (Memref.whole cc0_scratch2 : Memref sig .tc .vmem S1792x384 .bf16).view (Rect.unit (s := S1792x384) (k0_off60 c) ![256, 384] (k0_off60_inb c)).toLoadRect fl)) Finset.univ) (k0_pay65 (k0_pay63 (View.readAt (Elt F) (Memref.whole cc0_scratch0 : Memref sig .tc .vmem S2048x2048 .f32).view (Rect.unit (s := S2048x2048) (k0_off41 c) ![256, 384] (k0_off41_inb c)).toLoadRect fb) (View.readAt (Elt F) (Memref.whole cc0_scratch2 : Memref sig .tc .vmem S1792x384 .bf16).view (Rect.unit (s := S1792x384) (k0_off60 c) ![256, 384] (k0_off60_inb c)).toLoadRect fl))) Finset.univ))) ⊢ pay V c (.out 1) 0 := by
    show _ ⊢ iprop(ptsIs c (outDstM1 c) (V.out1 c) ∗ ptsAny (F := F) c (outSrcM1 c))
    iintro ⟨Hd, Hs⟩
    isplitl [Hd]
    · unfold ptsIs
      iexists _
      isplitl [Hd]; · iexact Hd
      ipureintro; rw [View.read_write_univ]; exact hV
    · unfold ptsAny
      iexists _
      iexact Hs
  iapply (wp_copy_own V c (.out 1) (by decide) (src := outSrcM1 c) (dst := outDstM1 c) (out_sem_eq 1 _) rfl fo κo hpay) $$ [Hblk Hdst Hto]
  · isplitr; · iexact HIo
    isplitl [Hblk]; · iexact Hblk
    isplitl [Hdst]; · iexact Hdst
    isplitl [Hto]; · iexact Hto
    iexact Hro
  iintro Hco
  sl_step
  isplitr; · ipureintro; trivial
  isplitl [Hco]; · iexact Hco
  isplitl [Hland]; · iexact Hland
  iexact Hag

end Cert.Kernel.Proto

end
-- ==== Proof.Body32Bits.lean ====
/-
Stretch 32 of a device's kernel body: the two waits of group 2's third exchange, the sum of its last landing (256 rows)
into the device's own 256 rows of the accumulator's block 2, and the first terms of the gelu of those rows.
-/
import proofs.«900882_g7700000000000883_dist_matmul_gelu_kshard_i_m2048_n2048_k1024_v7x_i8_f32_1_alg».proof.Proof.RulesBits
import proofs.«900882_g7700000000000883_dist_matmul_gelu_kshard_i_m2048_n2048_k1024_v7x_i8_f32_1_alg».proof.Proof.TopoBitsTab
import proofs.«900882_g7700000000000883_dist_matmul_gelu_kshard_i_m2048_n2048_k1024_v7x_i8_f32_1_alg».proof.Proof.PiecesTabBits
import proofs.«900882_g7700000000000883_dist_matmul_gelu_kshard_i_m2048_n2048_k1024_v7x_i8_f32_1_alg».proof.Proof.Gen.Kernel.Skeleton
import proofs.«900882_g7700000000000883_dist_matmul_gelu_kshard_i_m2048_n2048_k1024_v7x_i8_f32_1_alg».proof.Proof.TopoClosedBits
import proofs.«900882_g7700000000000883_dist_matmul_gelu_kshard_i_m2048_n2048_k1024_v7x_i8_f32_1_alg».proof.Proof.PiecesOutSepBits
import Idealize.ShloMosaic.Lib.Pipeline.Value

set_option maxRecDepth 16384

noncomputable section

namespace Cert.Kernel.Proto

open Cert.Kernel Cert.Kernel.Gen Cert.Kernel.Topo
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : Vals F)

set_option maxHeartbeats 2000000 in
theorem part32_run (c : Dev nD) (κw κv : ℕ) (W : Waits sig Unit) (v682 v701 : BitVec 32)
    (fb : Buf (Elt F) ((outSrcM2 c : Memref sig .tc .vmem S256x384 .f32).view.loc (c : Thread nD τ))) :
    iprop(owes (c : Thread nD τ) (Owe c 21) W ∗ levAts L lv
        ∗ heldW c (outSrcM2 c : Memref sig .tc .vmem S256x384 .f32) fb
        ∗ cellInv ER (sched V) κw (cell c (.rsS 2 2)) ∗ cred (tallyAt (cell c (.rsS 2 2)) () (amt (.rsS 2 2))) ∗ atPos ER (cell c (.rsS 2 2)) 0 ∅ 0
        ∗ cellInv ER (sched V) κv (cell c (.rsR 2 2)) ∗ cred (tallyAt (cell c (.rsR 2 2)) () (amt (.rsR 2 2))) ∗ atPos ER (cell c (.rsR 2 2)) 0 ∅ 0)
      ⊢ wp frame (wpE (defs₀ (F := F)) 𝒱₀ c none) Set.univ
          (k0_part32 (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23 c v682 v701)
          (fun r => iprop(∃ fl : Buf (Elt F) ((commM2_2 : Memref sig .tc .vmem S256x384 .bf16).view.loc (c : Thread nD τ)), ⌜r = ⟨k0_pay68 (k0_pay67 (View.readAt (Elt F) (Memref.whole cc0_scratch0 : Memref sig .tc .vmem S2048x2048 .f32).view (Rect.unit (s := S2048x2048) (k0_off45 c) ![256, 384] (k0_off45_inb c)).toLoadRect fb) (View.readAt (Elt F) (Memref.whole cc0_scratch3 : Memref sig .tc .vmem S1792x384 .bf16).view (Rect.unit (s := S1792x384) (k0_off63 c) ![256, 384] (k0_off63_inb c)).toLoadRect fl)), k0_pay69 (k0_pay67 (View.readAt (Elt F) (Memref.whole cc0_scratch0 : Memref sig .tc .vmem S2048x2048 .f32).view (Rect.unit (s := S2048x2048) (k0_off45 c) ![256, 384] (k0_off45_inb c)).toLoadRect fb) (View.readAt (Elt F) (Memref.whole cc0_scratch3 : Memref sig .tc .vmem S1792x384 .bf16).view (Rect.unit (s := S1792x384) (k0_off63 c) ![256, 384] (k0_off63_inb c)).toLoadRect fl))⟩⌝
            ∗ ⌜V.rs2_2 (nbr 1 c) ((commM2_2 : Memref sig .tc .vmem S256x384 .bf16).view.read (Elt F) fl)⌝
            ∗ heldW c (commM2_2 : Memref sig .tc .vmem S256x384 .bf16) fl
            ∗ owes (c : Thread nD τ) (Owe c 21) (insert ((CK.rsR 2 2).sem, ()) (insert ((CK.rsS 2 2).sem, ()) W))
            ∗ atPos ER (cell c (.rsS 2 2)) 1 ∅ 0 ∗ atPos ER (cell c (.rsR 2 2)) 1 ∅ 0
            ∗ ptsAny (F := F) c stgM2_2
            ∗ heldW c (outSrcM2 c : Memref sig .tc .vmem S256x384 .f32) (View.write (Elt F) ((Memref.whole cc0_scratch0 : Memref sig .tc .vmem S2048x2048 .f32).access (Rect.unit (s := S2048x2048) (k0_off45 c) ![256, 384] (k0_off45_inb c))) fb (k0_pay67 (View.readAt (Elt F) (Memref.whole cc0_scratch0 : Memref sig .tc .vmem S2048x2048 .f32).view (Rect.unit (s := S2048x2048) (k0_off45 c) ![256, 384] (k0_off45_inb c)).toLoadRect fb) (View.readAt (Elt F) (Memref.whole cc0_scratch3 : Memref sig .tc .vmem S1792x384 .bf16).view (Rect.unit (s := S1792x384) (k0_off63 c) ![256, 384] (k0_off63_inb c)).toLoadRect fl)) Finset.univ))) := by
  simp only [k0_part32_eq_skeleton]; unfold k0_part32_skel
  simp only [Prog.lift, Prog.bind_op, Prog.bind_ret, Prog.pure_eq_ret]
  iintro ⟨HO, #Hlev, Hblk, #HIw, Hcw, Hatw, #HIv, Hcv, Hatv⟩
  unfold heldW
  iapply (wp_wait_xfer V c (.rsS 2 2) (by decide) 21 (rsS_sem_eq 2 2 _)
      (show (stgM2_2 : Memref sig .tc .vmem S256x384 .bf16).view.dmaCredit = amt (.rsS 2 2) from rfl)
      (wpE_waitDma2_eq 𝒱₀ (c : Thread nD τ) none Set.univ)
      (mayWait_own c (.rsS 2 2) (lv_cell c _) 21) κw W) $$ [Hcw HO Hatw]
  · isplitr; · iexact HIw
    isplitl [Hcw]; · iexact Hcw
    isplitl [HO]; · iexact HO
    isplitr; · iexact Hlev
    iexact Hatw
  iintro ⟨HO, Hatw, Hpay1⟩
  iapply (wp_wait_xfer V c (.rsR 2 2) (by decide) 21 (rsR_sem_eq 2 2 _)
      (show (commM2_2 : Memref sig .tc .vmem S256x384 .bf16).view.dmaCredit = amt (.rsR 2 2) from rfl)
      (wpE_waitDma2_eq 𝒱₀ (c : Thread nD τ) none Set.univ)
      (mayWait_rsR c 2 2 21 (by decide)) κv (insert ((CK.rsS 2 2).sem, ()) W)) $$ [Hcv HO Hatv]
  · isplitr; · iexact HIv
    isplitl [Hcv]; · iexact Hcv
    isplitl [HO]; · iexact HO
    isplitr; · iexact Hlev
    iexact Hatv
  iintro ⟨HO, Hatv, Hpay2⟩
  ihave Hp1 := (Entails.of_eq (show pay V c (CK.rsS 2 2) 0 = ptsAny (F := F) c stgM2_2 from rfl)) $$ Hpay1
  ihave Hp2 := (Entails.of_eq (show pay V c (CK.rsR 2 2) 0 = ptsIs c commM2_2 (V.rs2_2 (nbr 1 c)) from rfl)) $$ Hpay2
  unfold ptsIs
  icases Hp2 with ⟨%fl, Hland, %hX⟩
  have hinc1 : ((Memref.whole cc0_scratch3 : Memref sig .tc .vmem S1792x384 .bf16).access (Rect.unit (s := S1792x384) (k0_off63 c) ![256, 384] (k0_off63_inb c))).set
      ⊆ (commM2_2 : Memref sig .tc .vmem S256x384 .bf16).view.set := by
    rw [View.set_slice_whole, View.set_slice_whole]
    refine unit_subset ?_
    piece_arith c [off63_eq]
  have hinc2 : ((Memref.whole cc0_scratch0 : Memref sig .tc .vmem S2048x2048 .f32).access (Rect.unit (s := S2048x2048) (k0_off45 c) ![256, 384] (k0_off45_inb c))).set
      ⊆ (outSrcM2 c : Memref sig .tc .vmem S256x384 .f32).view.set := by
    rw [View.set_slice_whole, View.set_slice_whole]
    refine unit_subset ?_
    piece_arith c [off45_eq, off65_eq]
  have hinc3 : ((Memref.whole cc0_scratch0 : Memref sig .tc .vmem S2048x2048 .f32).access (Rect.unit (s := S2048x2048) (k0_off45 c) ![256, 384] (k0_off45_inb c))).setOn Finset.univ
      ⊆ (outSrcM2 c : Memref sig .tc .vmem S256x384 .f32).view.set := by
    rw [View.setOn_univ]
    rw [View.set_slice_whole, View.set_slice_whole]
    refine unit_subset ?_
    piece_arith c [off45_eq, off65_eq]
  sl_exec
  sl_step
  iexists fl
  isplitr; · ipureintro; rfl
  isplitr; · ipureintro; exact hX
  isplitl [Hland]; · iexact Hland
  isplitl [HO]; · iexact HO
  isplitl [Hatw]; · iexact Hatw
  isplitl [Hatv]; · iexact Hatv
  isplitl [Hp1]; · iexact Hp1
  iexact Hblk

end Cert.Kernel.Proto

end
-- ==== Proof.Body33Bits.lean ====
/-
Group 2's rows after the activation: stored back into the accumulator, rounded into the all-gather buffer's own rows, and the
finished block copied to the result array; then the waits for the last reduce-scatter round of group 3 (its staging rows come
back, the neighbour's partial sums land) and the load of group 3's own rows of the accumulator.
-/
import proofs.«900882_g7700000000000883_dist_matmul_gelu_kshard_i_m2048_n2048_k1024_v7x_i8_f32_1_alg».proof.Proof.RulesBits
import proofs.«900882_g7700000000000883_dist_matmul_gelu_kshard_i_m2048_n2048_k1024_v7x_i8_f32_1_alg».proof.Proof.TopoBitsTab
import proofs.«900882_g7700000000000883_dist_matmul_gelu_kshard_i_m2048_n2048_k1024_v7x_i8_f32_1_alg».proof.Proof.PiecesTabBits
import proofs.«900882_g7700000000000883_dist_matmul_gelu_kshard_i_m2048_n2048_k1024_v7x_i8_f32_1_alg».proof.Proof.PiecesOutTabBits
import proofs.«900882_g7700000000000883_dist_matmul_gelu_kshard_i_m2048_n2048_k1024_v7x_i8_f32_1_alg».proof.Proof.Gen.Kernel.Skeleton
import Idealize.ShloMosaic.Lib.Pipeline.Value

set_option maxRecDepth 16384

noncomputable section

namespace Cert.Kernel.Proto

open Cert.Kernel Cert.Kernel.Gen Cert.Kernel.Topo
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : Vals F)

set_option maxHeartbeats 2000000 in
theorem part33_run (c : Dev nD) (κo κs κr : ℕ) (W : Waits sig Unit) (v682 v736 v755 : BitVec 32) (v1009 v1016 : FVec F S256x384 .f32)
    (f2 : Buf (Elt F) ((outSrcM2 c).view.loc (c : Thread nD τ))) (f3 : Buf (Elt F) ((outSrcM3 c).view.loc (c : Thread nD τ)))
    (g2 : Buf (Elt F) ((agM2_0 c).view.loc (c : Thread nD τ))) (fd : Buf (Elt F) ((outDstM2 c).view.loc (c : Thread nD τ)))
    (hV : V.out2 c ((outSrcM2 c).view.read (Elt F) (((Memref.whole cc0_scratch0 : Memref sig .tc .vmem S2048x2048 .f32).access (Rect.unit (s := S2048x2048) (k0_off45 c) S256x384.size (k0_off45_inb c))).write (Elt F) f2 (k0_pay71 v1009 v1016) Finset.univ))) :
    iprop(cellInv ER (sched V) κo (cell c (.out 2)) ∗ cellInv ER (sched V) κs (cell c (.rsS 3 2)) ∗ cellInv ER (sched V) κr (cell c (.rsR 3 2))
        ∗ reached ER (cell c (.out 2)) 0 ∗ dutyTok ER (cell c (.out 2)) 0 (0 : Fin 3)
        ∗ cred (tallyAt (cell c (.rsS 3 2)) () (amt (.rsR 3 2))) ∗ cred (tallyAt (cell c (.rsR 3 2)) () (amt (.rsR 3 2)))
        ∗ atPos ER (cell c (.rsS 3 2)) 0 ∅ 0 ∗ atPos ER (cell c (.rsR 3 2)) 0 ∅ 0
        ∗ owes (c : Thread nD τ) (Owe c 21) W ∗ levAts L lv
        ∗ heldW c (outSrcM2 c) f2 ∗ heldW c (outSrcM3 c) f3 ∗ heldW c (agM2_0 c) g2 ∗ heldW c (outDstM2 c) fd)
      ⊢ wp frame (wpE (defs₀ (F := F)) 𝒱₀ c none) Set.univ
          (k0_part33 (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23 c v682 v736 v755 v1009 v1016)
          (fun r => iprop(⌜r = View.readAt (Elt F) (Memref.whole cc0_scratch0 : Memref sig .tc .vmem S2048x2048 .f32).view (Rect.unit (s := S2048x2048) (k0_off48 c) S256x384.size (k0_off48_inb c)).toLoadRect f3⌝
            ∗ cred (tallyAt (cell c (.out 2)) () (amt (.out 2)))
            ∗ owes (c : Thread nD τ) (Owe c 21) (insert ((CK.rsR 3 2).sem, ()) (insert ((CK.rsS 3 2).sem, ()) W))
            ∗ atPos ER (cell c (.rsS 3 2)) 1 ∅ 0 ∗ atPos ER (cell c (.rsR 3 2)) 1 ∅ 0
            ∗ ptsAny (F := F) c stgM3_2 ∗ ptsIs c commM3_2 (V.rs3_2 (nbr 2 c))
            ∗ heldW c (outSrcM3 c) f3 ∗ heldW c (agM2_0 c) (((Memref.whole cc0_scratch15 : Memref sig .tc .vmem S2048x384 .bf16).access (Rect.unit (s := S2048x384) (k0_off64 c) S256x384.size (k0_off64_inb c))).write (Elt F) g2 (k0_pay72 v1009 v1016) Finset.univ))) := by
  simp only [k0_part33_eq_skeleton]; unfold k0_part33_skel
  simp only [Prog.lift, Prog.bind_op, Prog.bind_ret, Prog.pure_eq_ret]
  iintro ⟨#HIo, #HIs, #HIr, #Hro, Hto, Hcs0, Hcr, Hats, Hatr, HO, #Hlev, H2, H3, Hg2, Hd⟩
  unfold heldW
  ihave Hcs := (Entails.of_eq (show cred (tallyAt (cell c (.rsS 3 2)) () (amt (.rsR 3 2))) = cred (tallyAt (cell c (.rsS 3 2)) () (amt (.rsS 3 2))) from rfl)) $$ Hcs0
  have h45 : ((Memref.whole cc0_scratch0 : Memref sig .tc .vmem S2048x2048 .f32).access (Rect.unit (s := S2048x2048) (k0_off45 c) ![256, 384] (k0_off45_inb c))).set ⊆ (outSrcM2 c).view.set :=
    le_of_eq ((View.set_slice_whole _ _).trans ((unit_set_congr ((off45_eq c).trans (off65_eq c).symm) rfl).trans (View.set_slice_whole _ _).symm))
  have h45' : ((Memref.whole cc0_scratch0 : Memref sig .tc .vmem S2048x2048 .f32).access (Rect.unit (s := S2048x2048) (k0_off45 c) ![256, 384] (k0_off45_inb c))).setOn Finset.univ ⊆ (outSrcM2 c).view.set := h45
  have h64 : ((Memref.whole cc0_scratch15 : Memref sig .tc .vmem S2048x384 .bf16).access (Rect.unit (s := S2048x384) (k0_off64 c) ![256, 384] (k0_off64_inb c))).set ⊆ (agM2_0 c).view.set :=
    le_of_eq ((View.set_slice_whole _ _).trans ((unit_set_congr ((off64_eq c).trans (off75_eq c).symm) rfl).trans (View.set_slice_whole _ _).symm))
  have h64' : ((Memref.whole cc0_scratch15 : Memref sig .tc .vmem S2048x384 .bf16).access (Rect.unit (s := S2048x384) (k0_off64 c) ![256, 384] (k0_off64_inb c))).setOn Finset.univ ⊆ (agM2_0 c).view.set := h64
  have h48 : ((Memref.whole cc0_scratch0 : Memref sig .tc .vmem S2048x2048 .f32).access (Rect.unit (s := S2048x2048) (k0_off48 c) ![256, 384] (k0_off48_inb c))).set ⊆ (outSrcM3 c).view.set :=
    le_of_eq ((View.set_slice_whole _ _).trans ((unit_set_congr ((off48_eq c).trans (off66_eq c).symm) rfl).trans (View.set_slice_whole _ _).symm))
  sl_exec
  -- the finished block goes to the result array
  iapply (wp_copy_own V c (.out 2) (by decide) (src := outSrcM2 c) (dst := outDstM2 c) (out_sem_eq 2 _) rfl fd κo
      (by
        show _ ⊢ iprop(ptsIs c (outDstM2 c) (V.out2 c) ∗ ptsAny (F := F) c (outSrcM2 c))
        exact BIClass.sep_mono (ptsIs_intro c (outDstM2 c) _ _ (by rw [View.read_write_univ]; exact hV)) (ptsAny_intro c (outSrcM2 c) _))) $$ [H2 Hd Hto]
  · isplitr; · iexact HIo
    isplitl [H2]; · iexact H2
    isplitl [Hd]; · iexact Hd
    isplitl [Hto]; · iexact Hto
    iexact Hro
  iintro Hco
  -- group 3's last reduce-scatter round: the staging rows come back, the landing rows arrive
  iapply (wp_wait_xfer V c (.rsS 3 2) (by decide) 21 (rsS_sem_eq 3 2 _) (k' := (stgM3_2 : Memref sig .tc .vmem S256x384 .bf16).view.dmaCredit) rfl (wpE_waitDma2_eq 𝒱₀ (c : Thread nD τ) none Set.univ)
      (mayWait_own c (.rsS 3 2) (lv_cell c (.rsS 3 2)) 21) κs W) $$ [Hcs HO Hats]
  · isplitr; · iexact HIs
    isplitl [Hcs]; · iexact Hcs
    isplitl [HO]; · iexact HO
    isplitr; · iexact Hlev
    iexact Hats
  iintro ⟨HO, Hats, Hqs⟩
  ihave Hps := (Entails.of_eq (show pay V c (.rsS 3 2) 0 = ptsAny (F := F) c stgM3_2 from rfl)) $$ Hqs
  iapply (wp_wait_xfer V c (.rsR 3 2) (by decide) 21 (rsR_sem_eq 3 2 _) (k' := (commM3_2 : Memref sig .tc .vmem S256x384 .bf16).view.dmaCredit) rfl (wpE_waitDma2_eq 𝒱₀ (c : Thread nD τ) none Set.univ)
      (mayWait_rsR c 3 2 21 (by decide)) κr _) $$ [Hcr HO Hatr]
  · isplitr; · iexact HIr
    isplitl [Hcr]; · iexact Hcr
    isplitl [HO]; · iexact HO
    isplitr; · iexact Hlev
    iexact Hatr
  iintro ⟨HO, Hatr, Hqr⟩
  ihave Hpr := (Entails.of_eq (show pay V c (.rsR 3 2) 0 = ptsIs c commM3_2 (V.rs3_2 (nbr 2 c)) from rfl)) $$ Hqr
  sl_exec
  sl_step
  isplitr; · ipureintro; rfl
  isplitl [Hco]; · iexact Hco
  isplitl [HO]; · iexact HO
  isplitl [Hats]; · iexact Hats
  isplitl [Hatr]; · iexact Hatr
  isplitl [Hps]; · iexact Hps
  isplitl [Hpr]; · iexact Hpr
  isplitl [H3]; · iexact H3
  iexact Hg2

end Cert.Kernel.Proto

end
-- ==== Proof.Body34Bits.lean ====
/-
Group 3's own rows: the neighbour's partial sums that landed at the last reduce-scatter step are added into the accumulator,
the activation is applied, the result stored back and rounded into the all-gather buffer's own rows, and the finished block
copied to the result array.
-/
import proofs.«900882_g7700000000000883_dist_matmul_gelu_kshard_i_m2048_n2048_k1024_v7x_i8_f32_1_alg».proof.Proof.RulesBits
import proofs.«900882_g7700000000000883_dist_matmul_gelu_kshard_i_m2048_n2048_k1024_v7x_i8_f32_1_alg».proof.Proof.TopoBitsTab
import proofs.«900882_g7700000000000883_dist_matmul_gelu_kshard_i_m2048_n2048_k1024_v7x_i8_f32_1_alg».proof.Proof.PiecesTabBits
import proofs.«900882_g7700000000000883_dist_matmul_gelu_kshard_i_m2048_n2048_k1024_v7x_i8_f32_1_alg».proof.Proof.PiecesOutTabBits
import proofs.«900882_g7700000000000883_dist_matmul_gelu_kshard_i_m2048_n2048_k1024_v7x_i8_f32_1_alg».proof.Proof.Gen.Kernel.Skeleton
import Idealize.ShloMosaic.Lib.Pipeline.Value

set_option maxRecDepth 16384

noncomputable section

namespace Cert.Kernel.Proto

open Cert.Kernel Cert.Kernel.Gen Cert.Kernel.Topo
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : Vals F)

set_option maxHeartbeats 2000000 in
theorem part34_run (c : Dev nD) (κo : ℕ) (v736 : BitVec 32) (v1045 : Vec F S256x384 .f32)
    (f3 : Buf (Elt F) ((outSrcM3 c).view.loc (c : Thread nD τ))) (fc : Buf (Elt F) ((commM3_2 : Memref sig .tc .vmem S256x384 .bf16).view.loc (c : Thread nD τ)))
    (g3 : Buf (Elt F) ((agM3_0 c).view.loc (c : Thread nD τ))) (fd : Buf (Elt F) ((outDstM3 c).view.loc (c : Thread nD τ)))
    (hV : V.out3 c ((outSrcM3 c).view.read (Elt F) (((Memref.whole cc0_scratch0 : Memref sig .tc .vmem S2048x2048 .f32).access (Rect.unit (s := S2048x2048) (k0_off48 c) S256x384.size (k0_off48_inb c))).write (Elt F) (((Memref.whole cc0_scratch0 : Memref sig .tc .vmem S2048x2048 .f32).access (Rect.unit (s := S2048x2048) (k0_off48 c) S256x384.size (k0_off48_inb c))).write (Elt F) f3 (k0_pay73 v1045 (View.readAt (Elt F) (Memref.whole cc0_scratch4 : Memref sig .tc .vmem S1792x384 .bf16).view (Rect.unit (s := S1792x384) (k0_off57 c) S256x384.size (k0_off57_inb c)).toLoadRect fc)) Finset.univ) (k0_pay75 (k0_pay73 v1045 (View.readAt (Elt F) (Memref.whole cc0_scratch4 : Memref sig .tc .vmem S1792x384 .bf16).view (Rect.unit (s := S1792x384) (k0_off57 c) S256x384.size (k0_off57_inb c)).toLoadRect fc))) Finset.univ))) :
    iprop(cellInv ER (sched V) κo (cell c (.out 3)) ∗ reached ER (cell c (.out 3)) 0 ∗ dutyTok ER (cell c (.out 3)) 0 (0 : Fin 3)
        ∗ heldW c (commM3_2 : Memref sig .tc .vmem S256x384 .bf16) fc ∗ heldW c (outSrcM3 c) f3 ∗ heldW c (agM3_0 c) g3 ∗ heldW c (outDstM3 c) fd)
      ⊢ wp frame (wpE (defs₀ (F := F)) 𝒱₀ c none) Set.univ
          (k0_part34 (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23 c v736 v1045)
          (fun r => iprop(⌜r = ⟨⟩⌝
            ∗ cred (tallyAt (cell c (.out 3)) () (amt (.out 3)))
            ∗ heldW c (commM3_2 : Memref sig .tc .vmem S256x384 .bf16) fc ∗ heldW c (agM3_0 c) (((Memref.whole cc0_scratch16 : Memref sig .tc .vmem S2048x384 .bf16).access (Rect.unit (s := S2048x384) (k0_off58 c) S256x384.size (k0_off58_inb c))).write (Elt F) g3 (k0_pay76 (k0_pay73 v1045 (View.readAt (Elt F) (Memref.whole cc0_scratch4 : Memref sig .tc .vmem S1792x384 .bf16).view (Rect.unit (s := S1792x384) (k0_off57 c) S256x384.size (k0_off57_inb c)).toLoadRect fc))) Finset.univ))) := by
  simp only [k0_part34_eq_skeleton]; unfold k0_part34_skel
  simp only [Prog.lift, Prog.bind_op, Prog.bind_ret, Prog.pure_eq_ret]
  iintro ⟨#HIo, #Hro, Hto, Hc, H3, Hg3, Hd⟩
  unfold heldW
  have h57 : ((Memref.whole cc0_scratch4 : Memref sig .tc .vmem S1792x384 .bf16).access (Rect.unit (s := S1792x384) (k0_off57 c) ![256, 384] (k0_off57_inb c))).set ⊆ (commM3_2 : Memref sig .tc .vmem S256x384 .bf16).view.set :=
    le_of_eq ((View.set_slice_whole _ _).trans ((unit_set_congr ((off57_eq c).trans (rfl).symm) rfl).trans (View.set_slice_whole _ _).symm))
  have h48 : ((Memref.whole cc0_scratch0 : Memref sig .tc .vmem S2048x2048 .f32).access (Rect.unit (s := S2048x2048) (k0_off48 c) ![256, 384] (k0_off48_inb c))).set ⊆ (outSrcM3 c).view.set :=
    le_of_eq ((View.set_slice_whole _ _).trans ((unit_set_congr ((off48_eq c).trans (off66_eq c).symm) rfl).trans (View.set_slice_whole _ _).symm))
  have h48' : ((Memref.whole cc0_scratch0 : Memref sig .tc .vmem S2048x2048 .f32).access (Rect.unit (s := S2048x2048) (k0_off48 c) ![256, 384] (k0_off48_inb c))).setOn Finset.univ ⊆ (outSrcM3 c).view.set := h48
  have h58 : ((Memref.whole cc0_scratch16 : Memref sig .tc .vmem S2048x384 .bf16).access (Rect.unit (s := S2048x384) (k0_off58 c) ![256, 384] (k0_off58_inb c))).set ⊆ (agM3_0 c).view.set :=
    le_of_eq ((View.set_slice_whole _ _).trans ((unit_set_congr ((off58_eq c).trans (off73_eq c).symm) rfl).trans (View.set_slice_whole _ _).symm))
  have h58' : ((Memref.whole cc0_scratch16 : Memref sig .tc .vmem S2048x384 .bf16).access (Rect.unit (s := S2048x384) (k0_off58 c) ![256, 384] (k0_off58_inb c))).setOn Finset.univ ⊆ (agM3_0 c).view.set := h58
  sl_exec
  -- the finished block goes to the result array
  iapply (wp_copy_own V c (.out 3) (by decide) (src := outSrcM3 c) (dst := outDstM3 c) (out_sem_eq 3 _) rfl fd κo
      (by
        show _ ⊢ iprop(ptsIs c (outDstM3 c) (V.out3 c) ∗ ptsAny (F := F) c (outSrcM3 c))
        exact BIClass.sep_mono (ptsIs_intro c (outDstM3 c) _ _ (by rw [View.read_write_univ]; exact hV)) (ptsAny_intro c (outSrcM3 c) _))) $$ [H3 Hd Hto]
  · isplitr; · iexact HIo
    isplitl [H3]; · iexact H3
    isplitl [Hd]; · iexact Hd
    isplitl [Hto]; · iexact Hto
    iexact Hro
  iintro Hco
  sl_step
  isplitr; · ipureintro; trivial
  isplitl [Hco]; · iexact Hco
  isplitl [Hc]; · iexact Hc
  iexact Hg3

end Cert.Kernel.Proto

end
-- ==== Proof.Body35Bits.lean ====
/-
The waits for the last reduce-scatter round of group 4 (its staging rows come back, the neighbour's partial sums land), and
the sum of the landed rows into group 4's own rows of the accumulator, whose activation's first factors are returned.
-/
import proofs.«900882_g7700000000000883_dist_matmul_gelu_kshard_i_m2048_n2048_k1024_v7x_i8_f32_1_alg».proof.Proof.RulesBits
import proofs.«900882_g7700000000000883_dist_matmul_gelu_kshard_i_m2048_n2048_k1024_v7x_i8_f32_1_alg».proof.Proof.TopoBitsTab
import proofs.«900882_g7700000000000883_dist_matmul_gelu_kshard_i_m2048_n2048_k1024_v7x_i8_f32_1_alg».proof.Proof.PiecesTabBits
import proofs.«900882_g7700000000000883_dist_matmul_gelu_kshard_i_m2048_n2048_k1024_v7x_i8_f32_1_alg».proof.Proof.PiecesOutTabBits
import proofs.«900882_g7700000000000883_dist_matmul_gelu_kshard_i_m2048_n2048_k1024_v7x_i8_f32_1_alg».proof.Proof.Gen.Kernel.Skeleton
import Idealize.ShloMosaic.Lib.Pipeline.Value

set_option maxRecDepth 16384

noncomputable section

namespace Cert.Kernel.Proto

open Cert.Kernel Cert.Kernel.Gen Cert.Kernel.Topo
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : Vals F)

set_option maxHeartbeats 2000000 in
theorem part35_run (c : Dev nD) (κs κr : ℕ) (W : Waits sig Unit) (v790 v809 : BitVec 32)
    (f4 : Buf (Elt F) ((outSrcM4 c).view.loc (c : Thread nD τ))) :
    iprop(cellInv ER (sched V) κs (cell c (.rsS 4 2)) ∗ cellInv ER (sched V) κr (cell c (.rsR 4 2))
        ∗ cred (tallyAt (cell c (.rsS 4 2)) () (amt (.rsR 4 2))) ∗ cred (tallyAt (cell c (.rsR 4 2)) () (amt (.rsR 4 2)))
        ∗ atPos ER (cell c (.rsS 4 2)) 0 ∅ 0 ∗ atPos ER (cell c (.rsR 4 2)) 0 ∅ 0
        ∗ owes (c : Thread nD τ) (Owe c 21) W ∗ levAts L lv
        ∗ heldW c (outSrcM4 c) f4)
      ⊢ wp frame (wpE (defs₀ (F := F)) 𝒱₀ c none) Set.univ
          (k0_part35 (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23 c v790 v809)
          (fun r => iprop(∃ fc : Buf (Elt F) ((commM4_2 : Memref sig .tc .vmem S256x256 .bf16).view.loc (c : Thread nD τ)),
            ⌜r = ⟨k0_pay78 (k0_pay77 (View.readAt (Elt F) (Memref.whole cc0_scratch0 : Memref sig .tc .vmem S2048x2048 .f32).view (Rect.unit (s := S2048x2048) (k0_off51 c) S256x256.size (k0_off51_inb c)).toLoadRect f4) (View.readAt (Elt F) (Memref.whole cc0_scratch5 : Memref sig .tc .vmem S1792x256 .bf16).view (Rect.unit (s := S1792x256) (k0_off67 c) S256x256.size (k0_off67_inb c)).toLoadRect fc)), k0_pay79 (k0_pay77 (View.readAt (Elt F) (Memref.whole cc0_scratch0 : Memref sig .tc .vmem S2048x2048 .f32).view (Rect.unit (s := S2048x2048) (k0_off51 c) S256x256.size (k0_off51_inb c)).toLoadRect f4) (View.readAt (Elt F) (Memref.whole cc0_scratch5 : Memref sig .tc .vmem S1792x256 .bf16).view (Rect.unit (s := S1792x256) (k0_off67 c) S256x256.size (k0_off67_inb c)).toLoadRect fc)), Scalar.ofBits .f32 0x3F800000#32⟩⌝
            ∗ ⌜V.rs4_2 (nbr 0 c) ((commM4_2 : Memref sig .tc .vmem S256x256 .bf16).view.read (Elt F) fc)⌝
            ∗ owes (c : Thread nD τ) (Owe c 21) (insert ((CK.rsR 4 2).sem, ()) (insert ((CK.rsS 4 2).sem, ()) W))
            ∗ atPos ER (cell c (.rsS 4 2)) 1 ∅ 0 ∗ atPos ER (cell c (.rsR 4 2)) 1 ∅ 0
            ∗ ptsAny (F := F) c stgM4_2
            ∗ heldW c (commM4_2 : Memref sig .tc .vmem S256x256 .bf16) fc
            ∗ heldW c (outSrcM4 c) (((Memref.whole cc0_scratch0 : Memref sig .tc .vmem S2048x2048 .f32).access (Rect.unit (s := S2048x2048) (k0_off51 c) S256x256.size (k0_off51_inb c))).write (Elt F) f4 (k0_pay77 (View.readAt (Elt F) (Memref.whole cc0_scratch0 : Memref sig .tc .vmem S2048x2048 .f32).view (Rect.unit (s := S2048x2048) (k0_off51 c) S256x256.size (k0_off51_inb c)).toLoadRect f4) (View.readAt (Elt F) (Memref.whole cc0_scratch5 : Memref sig .tc .vmem S1792x256 .bf16).view (Rect.unit (s := S1792x256) (k0_off67 c) S256x256.size (k0_off67_inb c)).toLoadRect fc)) Finset.univ))) := by
  simp only [k0_part35_eq_skeleton]; unfold k0_part35_skel
  simp only [Prog.lift, Prog.bind_op, Prog.bind_ret, Prog.pure_eq_ret]
  iintro ⟨#HIs, #HIr, Hcs0, Hcr, Hats, Hatr, HO, #Hlev, H4⟩
  unfold heldW
  ihave Hcs := (Entails.of_eq (show cred (tallyAt (cell c (.rsS 4 2)) () (amt (.rsR 4 2))) = cred (tallyAt (cell c (.rsS 4 2)) () (amt (.rsS 4 2))) from rfl)) $$ Hcs0
  have h67 : ((Memref.whole cc0_scratch5 : Memref sig .tc .vmem S1792x256 .bf16).access (Rect.unit (s := S1792x256) (k0_off67 c) ![256, 256] (k0_off67_inb c))).set ⊆ (commM4_2 : Memref sig .tc .vmem S256x256 .bf16).view.set :=
    le_of_eq ((View.set_slice_whole _ _).trans ((unit_set_congr ((off67_eq c).trans (rfl).symm) rfl).trans (View.set_slice_whole _ _).symm))
  have h51 : ((Memref.whole cc0_scratch0 : Memref sig .tc .vmem S2048x2048 .f32).access (Rect.unit (s := S2048x2048) (k0_off51 c) ![256, 256] (k0_off51_inb c))).set ⊆ (outSrcM4 c).view.set :=
    le_of_eq ((View.set_slice_whole _ _).trans ((unit_set_congr ((off51_eq c).trans (off69_eq c).symm) rfl).trans (View.set_slice_whole _ _).symm))
  have h51' : ((Memref.whole cc0_scratch0 : Memref sig .tc .vmem S2048x2048 .f32).access (Rect.unit (s := S2048x2048) (k0_off51 c) ![256, 256] (k0_off51_inb c))).setOn Finset.univ ⊆ (outSrcM4 c).view.set := h51
  -- group 4's last reduce-scatter round: the staging rows come back, the landing rows arrive
  iapply (wp_wait_xfer V c (.rsS 4 2) (by decide) 21 (rsS_sem_eq 4 2 _) (k' := (stgM4_2 : Memref sig .tc .vmem S256x256 .bf16).view.dmaCredit) rfl (wpE_waitDma2_eq 𝒱₀ (c : Thread nD τ) none Set.univ)
      (mayWait_own c (.rsS 4 2) (lv_cell c (.rsS 4 2)) 21) κs W) $$ [Hcs HO Hats]
  · isplitr; · iexact HIs
    isplitl [Hcs]; · iexact Hcs
    isplitl [HO]; · iexact HO
    isplitr; · iexact Hlev
    iexact Hats
  iintro ⟨HO, Hats, Hqs⟩
  ihave Hps := (Entails.of_eq (show pay V c (.rsS 4 2) 0 = ptsAny (F := F) c stgM4_2 from rfl)) $$ Hqs
  iapply (wp_wait_xfer V c (.rsR 4 2) (by decide) 21 (rsR_sem_eq 4 2 _) (k' := (commM4_2 : Memref sig .tc .vmem S256x256 .bf16).view.dmaCredit) rfl (wpE_waitDma2_eq 𝒱₀ (c : Thread nD τ) none Set.univ)
      (mayWait_rsR c 4 2 21 (by decide)) κr _) $$ [Hcr HO Hatr]
  · isplitr; · iexact HIr
    isplitl [Hcr]; · iexact Hcr
    isplitl [HO]; · iexact HO
    isplitr; · iexact Hlev
    iexact Hatr
  iintro ⟨HO, Hatr, Hqr⟩
  ihave Hpr := (Entails.of_eq (show pay V c (.rsR 4 2) 0 = ptsIs c commM4_2 (V.rs4_2 (nbr 0 c)) from rfl)) $$ Hqr
  unfold ptsIs
  icases Hpr with ⟨%fc, Hc, %hfc⟩
  sl_exec
  sl_step
  iexists fc
  isplitr; · ipureintro; rfl
  isplitr; · ipureintro; exact hfc
  isplitl [HO]; · iexact HO
  isplitl [Hats]; · iexact Hats
  isplitl [Hatr]; · iexact Hatr
  isplitl [Hps]; · iexact Hps
  isplitl [Hc]; · iexact Hc
  iexact H4

end Cert.Kernel.Proto

end
-- ==== Proof.Body36Bits.lean ====
/-
Group 4's rows after the activation: stored back into the accumulator, rounded into the all-gather buffer's own rows, and the
finished block copied to the result array; then the waits for the last reduce-scatter round of group 5 (its staging rows come
back, the neighbour's partial sums land) and the load of group 5's own rows of the accumulator.
-/
import proofs.«900882_g7700000000000883_dist_matmul_gelu_kshard_i_m2048_n2048_k1024_v7x_i8_f32_1_alg».proof.Proof.RulesBits
import proofs.«900882_g7700000000000883_dist_matmul_gelu_kshard_i_m2048_n2048_k1024_v7x_i8_f32_1_alg».proof.Proof.TopoBitsTab
import proofs.«900882_g7700000000000883_dist_matmul_gelu_kshard_i_m2048_n2048_k1024_v7x_i8_f32_1_alg».proof.Proof.PiecesTabBits
import proofs.«900882_g7700000000000883_dist_matmul_gelu_kshard_i_m2048_n2048_k1024_v7x_i8_f32_1_alg».proof.Proof.PiecesOutTabBits
import proofs.«900882_g7700000000000883_dist_matmul_gelu_kshard_i_m2048_n2048_k1024_v7x_i8_f32_1_alg».proof.Proof.Gen.Kernel.Skeleton
import Idealize.ShloMosaic.Lib.Pipeline.Value

set_option maxRecDepth 16384

noncomputable section

namespace Cert.Kernel.Proto

open Cert.Kernel Cert.Kernel.Gen Cert.Kernel.Topo
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : Vals F)

set_option maxHeartbeats 2000000 in
theorem part36_run (c : Dev nD) (κo κs κr : ℕ) (W : Waits sig Unit) (v790 v844 v863 : BitVec 32) (v1109 v1117 : FVec F S256x256 .f32) (cst_837 : F .f32)
    (f4 : Buf (Elt F) ((outSrcM4 c).view.loc (c : Thread nD τ))) (f5 : Buf (Elt F) ((outSrcM5 c).view.loc (c : Thread nD τ)))
    (g4 : Buf (Elt F) ((agM4_0 c).view.loc (c : Thread nD τ))) (fd : Buf (Elt F) ((outDstM4 c).view.loc (c : Thread nD τ)))
    (hV : V.out4 c ((outSrcM4 c).view.read (Elt F) (((Memref.whole cc0_scratch0 : Memref sig .tc .vmem S2048x2048 .f32).access (Rect.unit (s := S2048x2048) (k0_off51 c) S256x256.size (k0_off51_inb c))).write (Elt F) f4 (k0_pay81 v1109 v1117 cst_837) Finset.univ))) :
    iprop(cellInv ER (sched V) κo (cell c (.out 4)) ∗ cellInv ER (sched V) κs (cell c (.rsS 5 2)) ∗ cellInv ER (sched V) κr (cell c (.rsR 5 2))
        ∗ reached ER (cell c (.out 4)) 0 ∗ dutyTok ER (cell c (.out 4)) 0 (0 : Fin 3)
        ∗ cred (tallyAt (cell c (.rsS 5 2)) () (amt (.rsR 5 2))) ∗ cred (tallyAt (cell c (.rsR 5 2)) () (amt (.rsR 5 2)))
        ∗ atPos ER (cell c (.rsS 5 2)) 0 ∅ 0 ∗ atPos ER (cell c (.rsR 5 2)) 0 ∅ 0
        ∗ owes (c : Thread nD τ) (Owe c 21) W ∗ levAts L lv
        ∗ heldW c (outSrcM4 c) f4 ∗ heldW c (outSrcM5 c) f5 ∗ heldW c (agM4_0 c) g4 ∗ heldW c (outDstM4 c) fd)
      ⊢ wp frame (wpE (defs₀ (F := F)) 𝒱₀ c none) Set.univ
          (k0_part36 (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23 c v790 v844 v863 v1109 v1117 cst_837)
          (fun r => iprop(⌜r = ⟨View.readAt (Elt F) (Memref.whole cc0_scratch0 : Memref sig .tc .vmem S2048x2048 .f32).view (Rect.unit (s := S2048x2048) (k0_off55 c) S256x256.size (k0_off55_inb c)).toLoadRect f5, Scalar.subi v844 v844, 1536#32⟩⌝
            ∗ cred (tallyAt (cell c (.out 4)) () (amt (.out 4)))
            ∗ owes (c : Thread nD τ) (Owe c 21) (insert ((CK.rsR 5 2).sem, ()) (insert ((CK.rsS 5 2).sem, ()) W))
            ∗ atPos ER (cell c (.rsS 5 2)) 1 ∅ 0 ∗ atPos ER (cell c (.rsR 5 2)) 1 ∅ 0
            ∗ ptsAny (F := F) c stgM5_2 ∗ ptsIs c commM5_2 (V.rs5_2 (nbr 1 c))
            ∗ heldW c (outSrcM5 c) f5 ∗ heldW c (agM4_0 c) (((Memref.whole cc0_scratch17 : Memref sig .tc .vmem S2048x256 .bf16).access (Rect.unit (s := S2048x256) (k0_off68 c) S256x256.size (k0_off68_inb c))).write (Elt F) g4 (k0_pay82 v1109 v1117 cst_837) Finset.univ))) := by
  simp only [k0_part36_eq_skeleton]; unfold k0_part36_skel
  simp only [Prog.lift, Prog.bind_op, Prog.bind_ret, Prog.pure_eq_ret]
  iintro ⟨#HIo, #HIs, #HIr, #Hro, Hto, Hcs0, Hcr, Hats, Hatr, HO, #Hlev, H4, H5, Hg4, Hd⟩
  unfold heldW
  ihave Hcs := (Entails.of_eq (show cred (tallyAt (cell c (.rsS 5 2)) () (amt (.rsR 5 2))) = cred (tallyAt (cell c (.rsS 5 2)) () (amt (.rsS 5 2))) from rfl)) $$ Hcs0
  have h51 : ((Memref.whole cc0_scratch0 : Memref sig .tc .vmem S2048x2048 .f32).access (Rect.unit (s := S2048x2048) (k0_off51 c) ![256, 256] (k0_off51_inb c))).set ⊆ (outSrcM4 c).view.set :=
    le_of_eq ((View.set_slice_whole _ _).trans ((unit_set_congr ((off51_eq c).trans (off69_eq c).symm) rfl).trans (View.set_slice_whole _ _).symm))
  have h51' : ((Memref.whole cc0_scratch0 : Memref sig .tc .vmem S2048x2048 .f32).access (Rect.unit (s := S2048x2048) (k0_off51 c) ![256, 256] (k0_off51_inb c))).setOn Finset.univ ⊆ (outSrcM4 c).view.set := h51
  have h68 : ((Memref.whole cc0_scratch17 : Memref sig .tc .vmem S2048x256 .bf16).access (Rect.unit (s := S2048x256) (k0_off68 c) ![256, 256] (k0_off68_inb c))).set ⊆ (agM4_0 c).view.set :=
    le_of_eq ((View.set_slice_whole _ _).trans ((unit_set_congr ((off68_eq c).trans (off76_eq c).symm) rfl).trans (View.set_slice_whole _ _).symm))
  have h68' : ((Memref.whole cc0_scratch17 : Memref sig .tc .vmem S2048x256 .bf16).access (Rect.unit (s := S2048x256) (k0_off68 c) ![256, 256] (k0_off68_inb c))).setOn Finset.univ ⊆ (agM4_0 c).view.set := h68
  have h55 : ((Memref.whole cc0_scratch0 : Memref sig .tc .vmem S2048x2048 .f32).access (Rect.unit (s := S2048x2048) (k0_off55 c) ![256, 256] (k0_off55_inb c))).set ⊆ (outSrcM5 c).view.set :=
    le_of_eq ((View.set_slice_whole _ _).trans ((unit_set_congr ((off55_eq c).trans (off72_eq c).symm) rfl).trans (View.set_slice_whole _ _).symm))
  sl_exec
  -- the finished block goes to the result array
  iapply (wp_copy_own V c (.out 4) (by decide) (src := outSrcM4 c) (dst := outDstM4 c) (out_sem_eq 4 _) rfl fd κo
      (by
        show _ ⊢ iprop(ptsIs c (outDstM4 c) (V.out4 c) ∗ ptsAny (F := F) c (outSrcM4 c))
        exact BIClass.sep_mono (ptsIs_intro c (outDstM4 c) _ _ (by rw [View.read_write_univ]; exact hV)) (ptsAny_intro c (outSrcM4 c) _))) $$ [H4 Hd Hto]
  · isplitr; · iexact HIo
    isplitl [H4]; · iexact H4
    isplitl [Hd]; · iexact Hd
    isplitl [Hto]; · iexact Hto
    iexact Hro
  iintro Hco
  -- group 5's last reduce-scatter round: the staging rows come back, the landing rows arrive
  iapply (wp_wait_xfer V c (.rsS 5 2) (by decide) 21 (rsS_sem_eq 5 2 _) (k' := (stgM5_2 : Memref sig .tc .vmem S256x256 .bf16).view.dmaCredit) rfl (wpE_waitDma2_eq 𝒱₀ (c : Thread nD τ) none Set.univ)
      (mayWait_own c (.rsS 5 2) (lv_cell c (.rsS 5 2)) 21) κs W) $$ [Hcs HO Hats]
  · isplitr; · iexact HIs
    isplitl [Hcs]; · iexact Hcs
    isplitl [HO]; · iexact HO
    isplitr; · iexact Hlev
    iexact Hats
  iintro ⟨HO, Hats, Hqs⟩
  ihave Hps := (Entails.of_eq (show pay V c (.rsS 5 2) 0 = ptsAny (F := F) c stgM5_2 from rfl)) $$ Hqs
  iapply (wp_wait_xfer V c (.rsR 5 2) (by decide) 21 (rsR_sem_eq 5 2 _) (k' := (commM5_2 : Memref sig .tc .vmem S256x256 .bf16).view.dmaCredit) rfl (wpE_waitDma2_eq 𝒱₀ (c : Thread nD τ) none Set.univ)
      (mayWait_rsR c 5 2 21 (by decide)) κr _) $$ [Hcr HO Hatr]
  · isplitr; · iexact HIr
    isplitl [Hcr]; · iexact Hcr
    isplitl [HO]; · iexact HO
    isplitr; · iexact Hlev
    iexact Hatr
  iintro ⟨HO, Hatr, Hqr⟩
  ihave Hpr := (Entails.of_eq (show pay V c (.rsR 5 2) 0 = ptsIs c commM5_2 (V.rs5_2 (nbr 1 c)) from rfl)) $$ Hqr
  sl_exec
  sl_step
  isplitr; · ipureintro; rfl
  isplitl [Hco]; · iexact Hco
  isplitl [HO]; · iexact HO
  isplitl [Hats]; · iexact Hats
  isplitl [Hatr]; · iexact Hatr
  isplitl [Hps]; · iexact Hps
  isplitl [Hpr]; · iexact Hpr
  isplitl [H5]; · iexact H5
  iexact Hg4

end Cert.Kernel.Proto

end
-- ==== Proof.Body37Bits.lean ====
/-
Group 5's own rows: the neighbour's partial sums that landed at the last reduce-scatter step are added into the accumulator,
the activation is applied, the result stored back and rounded into the all-gather buffer's own rows, and the finished block
copied to the result array.
-/
import proofs.«900882_g7700000000000883_dist_matmul_gelu_kshard_i_m2048_n2048_k1024_v7x_i8_f32_1_alg».proof.Proof.RulesBits
import proofs.«900882_g7700000000000883_dist_matmul_gelu_kshard_i_m2048_n2048_k1024_v7x_i8_f32_1_alg».proof.Proof.TopoBitsTab
import proofs.«900882_g7700000000000883_dist_matmul_gelu_kshard_i_m2048_n2048_k1024_v7x_i8_f32_1_alg».proof.Proof.PiecesTabBits
import proofs.«900882_g7700000000000883_dist_matmul_gelu_kshard_i_m2048_n2048_k1024_v7x_i8_f32_1_alg».proof.Proof.PiecesOutTabBits
import proofs.«900882_g7700000000000883_dist_matmul_gelu_kshard_i_m2048_n2048_k1024_v7x_i8_f32_1_alg».proof.Proof.Gen.Kernel.Skeleton
import Idealize.ShloMosaic.Lib.Pipeline.Value

set_option maxRecDepth 16384

noncomputable section

namespace Cert.Kernel.Proto

open Cert.Kernel Cert.Kernel.Gen Cert.Kernel.Topo
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : Vals F)

set_option maxHeartbeats 2000000 in
theorem part37_run (c : Dev nD) (κo : ℕ) (v2 v844 : BitVec 32) (v1145 : Vec F S256x256 .f32) (v1146 c1536_i32_863 : BitVec 32)
    (f5 : Buf (Elt F) ((outSrcM5 c).view.loc (c : Thread nD τ))) (fc : Buf (Elt F) ((commM5_2 : Memref sig .tc .vmem S256x256 .bf16).view.loc (c : Thread nD τ)))
    (g5 : Buf (Elt F) ((agM5_0 c).view.loc (c : Thread nD τ))) (fd : Buf (Elt F) ((outDstM5 c).view.loc (c : Thread nD τ)))
    (hV : V.out5 c ((outSrcM5 c).view.read (Elt F) (((Memref.whole cc0_scratch0 : Memref sig .tc .vmem S2048x2048 .f32).access (Rect.unit (s := S2048x2048) (k0_off55 c) S256x256.size (k0_off55_inb c))).write (Elt F) (((Memref.whole cc0_scratch0 : Memref sig .tc .vmem S2048x2048 .f32).access (Rect.unit (s := S2048x2048) (k0_off55 c) S256x256.size (k0_off55_inb c))).write (Elt F) f5 (k0_pay83 v1145 (View.readAt (Elt F) (Memref.whole cc0_scratch6 : Memref sig .tc .vmem S1792x256 .bf16).view (Rect.unit (s := S1792x256) (k0_off70 c) S256x256.size (k0_off70_inb c)).toLoadRect fc)) Finset.univ) (k0_pay85 (k0_pay83 v1145 (View.readAt (Elt F) (Memref.whole cc0_scratch6 : Memref sig .tc .vmem S1792x256 .bf16).view (Rect.unit (s := S1792x256) (k0_off70 c) S256x256.size (k0_off70_inb c)).toLoadRect fc))) Finset.univ))) :
    iprop(cellInv ER (sched V) κo (cell c (.out 5)) ∗ reached ER (cell c (.out 5)) 0 ∗ dutyTok ER (cell c (.out 5)) 0 (0 : Fin 3)
        ∗ heldW c (commM5_2 : Memref sig .tc .vmem S256x256 .bf16) fc ∗ heldW c (outSrcM5 c) f5 ∗ heldW c (agM5_0 c) g5 ∗ heldW c (outDstM5 c) fd)
      ⊢ wp frame (wpE (defs₀ (F := F)) 𝒱₀ c none) Set.univ
          (k0_part37 (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23 c v2 v844 v1145 v1146 c1536_i32_863)
          (fun r => iprop(⌜r = ⟨Scalar.xori v2 4#32, 1#32⟩⌝
            ∗ cred (tallyAt (cell c (.out 5)) () (amt (.out 5)))
            ∗ heldW c (commM5_2 : Memref sig .tc .vmem S256x256 .bf16) fc ∗ heldW c (agM5_0 c) (((Memref.whole cc0_scratch18 : Memref sig .tc .vmem S2048x256 .bf16).access (Rect.unit (s := S2048x256) (k0_off71 c) S256x256.size (k0_off71_inb c))).write (Elt F) g5 (k0_pay86 (k0_pay83 v1145 (View.readAt (Elt F) (Memref.whole cc0_scratch6 : Memref sig .tc .vmem S1792x256 .bf16).view (Rect.unit (s := S1792x256) (k0_off70 c) S256x256.size (k0_off70_inb c)).toLoadRect fc))) Finset.univ))) := by
  simp only [k0_part37_eq_skeleton]; unfold k0_part37_skel
  simp only [Prog.lift, Prog.bind_op, Prog.bind_ret, Prog.pure_eq_ret]
  iintro ⟨#HIo, #Hro, Hto, Hc, H5, Hg5, Hd⟩
  unfold heldW
  have h70 : ((Memref.whole cc0_scratch6 : Memref sig .tc .vmem S1792x256 .bf16).access (Rect.unit (s := S1792x256) (k0_off70 c) ![256, 256] (k0_off70_inb c))).set ⊆ (commM5_2 : Memref sig .tc .vmem S256x256 .bf16).view.set :=
    le_of_eq ((View.set_slice_whole _ _).trans ((unit_set_congr ((off70_eq c).trans (rfl).symm) rfl).trans (View.set_slice_whole _ _).symm))
  have h55 : ((Memref.whole cc0_scratch0 : Memref sig .tc .vmem S2048x2048 .f32).access (Rect.unit (s := S2048x2048) (k0_off55 c) ![256, 256] (k0_off55_inb c))).set ⊆ (outSrcM5 c).view.set :=
    le_of_eq ((View.set_slice_whole _ _).trans ((unit_set_congr ((off55_eq c).trans (off72_eq c).symm) rfl).trans (View.set_slice_whole _ _).symm))
  have h55' : ((Memref.whole cc0_scratch0 : Memref sig .tc .vmem S2048x2048 .f32).access (Rect.unit (s := S2048x2048) (k0_off55 c) ![256, 256] (k0_off55_inb c))).setOn Finset.univ ⊆ (outSrcM5 c).view.set := h55
  have h71 : ((Memref.whole cc0_scratch18 : Memref sig .tc .vmem S2048x256 .bf16).access (Rect.unit (s := S2048x256) (k0_off71 c) ![256, 256] (k0_off71_inb c))).set ⊆ (agM5_0 c).view.set :=
    le_of_eq ((View.set_slice_whole _ _).trans ((unit_set_congr ((off71_eq c).trans (off77_eq c).symm) rfl).trans (View.set_slice_whole _ _).symm))
  have h71' : ((Memref.whole cc0_scratch18 : Memref sig .tc .vmem S2048x256 .bf16).access (Rect.unit (s := S2048x256) (k0_off71 c) ![256, 256] (k0_off71_inb c))).setOn Finset.univ ⊆ (agM5_0 c).view.set := h71
  sl_exec
  -- the finished block goes to the result array
  iapply (wp_copy_own V c (.out 5) (by decide) (src := outSrcM5 c) (dst := outDstM5 c) (out_sem_eq 5 _) rfl fd κo
      (by
        show _ ⊢ iprop(ptsIs c (outDstM5 c) (V.out5 c) ∗ ptsAny (F := F) c (outSrcM5 c))
        exact BIClass.sep_mono (ptsIs_intro c (outDstM5 c) _ _ (by rw [View.read_write_univ]; exact hV)) (ptsAny_intro c (outSrcM5 c) _))) $$ [H5 Hd Hto]
  · isplitr; · iexact HIo
    isplitl [H5]; · iexact H5
    isplitl [Hd]; · iexact Hd
    isplitl [Hto]; · iexact Hto
    iexact Hro
  iintro Hco
  sl_step
  isplitr; · ipureintro; rfl
  isplitl [Hco]; · iexact Hco
  isplitl [Hc]; · iexact Hc
  iexact Hg5

end Cert.Kernel.Proto

end
-- ==== Proof.Body38Bits.lean ====
/-
The first all-gather transfers of groups 0 and 1: each group's own finished rows go to the neighbour across the group's first
all-gather axis, landing at the same rows of the neighbour's buffer; the transfer borrows the left half of the rows' share and
the device keeps the right half (it reads the rows again while the transfer is pending).
-/
import proofs.«900882_g7700000000000883_dist_matmul_gelu_kshard_i_m2048_n2048_k1024_v7x_i8_f32_1_alg».proof.Proof.RulesBits
import proofs.«900882_g7700000000000883_dist_matmul_gelu_kshard_i_m2048_n2048_k1024_v7x_i8_f32_1_alg».proof.Proof.TopoBitsTab
import proofs.«900882_g7700000000000883_dist_matmul_gelu_kshard_i_m2048_n2048_k1024_v7x_i8_f32_1_alg».proof.Proof.PiecesTabBits
import proofs.«900882_g7700000000000883_dist_matmul_gelu_kshard_i_m2048_n2048_k1024_v7x_i8_f32_1_alg».proof.Proof.PiecesOutTabBits
import proofs.«900882_g7700000000000883_dist_matmul_gelu_kshard_i_m2048_n2048_k1024_v7x_i8_f32_1_alg».proof.Proof.Gen.Kernel.Skeleton
import Idealize.ShloMosaic.Lib.Pipeline.Value

set_option maxRecDepth 16384

noncomputable section

namespace Cert.Kernel.Proto

open Cert.Kernel Cert.Kernel.Gen Cert.Kernel.Topo
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : Vals F)

set_option maxHeartbeats 2000000 in
theorem part38_run (c : Dev nD) (κs0 κr0 κs1 κr1 : ℕ) (W : Waits sig Unit) (v2 v6 v9 v574 v628 v1184 c1_i32_880 : BitVec 32)
    (g0 : Buf (Elt F) ((agM0_0 c).view.loc (c : Thread nD τ))) (g1 : Buf (Elt F) ((agM1_0 c).view.loc (c : Thread nD τ)))
    (hV0 : V.ag0_0 c ((agM0_0 c).view.read (Elt F) g0)) (hV1 : V.ag1_0 c ((agM1_0 c).view.read (Elt F) g1)) :
    iprop(cellInv ER (sched V) κs0 (cell c (.agS 0 0)) ∗ cellInv ER (sched V) κr0 (cell (nbr 2 c) (.agR 0 0))
        ∗ cellInv ER (sched V) κs1 (cell c (.agS 1 0)) ∗ cellInv ER (sched V) κr1 (cell (nbr 0 c) (.agR 1 0))
        ∗ reached ER (cell c (.agS 0 0)) 0 ∗ reached ER (cell (nbr 2 c) (.agR 0 0)) 0
        ∗ reached ER (cell c (.agS 1 0)) 0 ∗ reached ER (cell (nbr 0 c) (.agR 1 0)) 0
        ∗ dutyTok ER (cell c (.agS 0 0)) 0 (0 : Fin 3) ∗ dutyTok ER (cell (nbr 2 c) (.agR 0 0)) 0 (0 : Fin 3)
        ∗ dutyTok ER (cell c (.agS 1 0)) 0 (0 : Fin 3) ∗ dutyTok ER (cell (nbr 0 c) (.agR 1 0)) 0 (0 : Fin 3)
        ∗ ptsAny (F := F) (nbr 2 c) (agM0_0 c) ∗ ptsAny (F := F) (nbr 0 c) (agM1_0 c)
        ∗ owes (c : Thread nD τ) (Owe c 21) W
        ∗ heldW c (agM0_0 c) g0 ∗ heldW c (agM1_0 c) g1)
      ⊢ wp frame (wpE (defs₀ (F := F)) 𝒱₀ c none) Set.univ
          (k0_part38 (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23 c v2 v6 v9 v574 v628 v1184 c1_i32_880)
          (fun r => iprop(⌜r = ⟨Scalar.subi v574 (Scalar.muli v9 256#32), Scalar.addi (Scalar.subi v574 (Scalar.muli v9 256#32)) (Scalar.muli (Scalar.subi 1#32 v9) 256#32), Scalar.xori v2 1#32,
                Scalar.subi v628 (Scalar.muli v6 256#32), Scalar.addi (Scalar.subi v628 (Scalar.muli v6 256#32)) (Scalar.muli (Scalar.subi 1#32 v6) 256#32), Scalar.xori v2 3#32⟩⌝
            ∗ cred (tallyAt (cell c (.agS 0 0)) () (amt (.agR 0 0))) ∗ cred (tallyAt (cell c (.agS 1 0)) () (amt (.agR 1 0)))
            ∗ owes (c : Thread nD τ) (Owe c 23) W
            ∗ ((agM0_0 c).view.loc (c : Thread nD τ) ↦[(agM0_0 c).view.set]{fullShare.right} g0)
            ∗ ((agM1_0 c).view.loc (c : Thread nD τ) ↦[(agM1_0 c).view.set]{fullShare.right} g1))) := by
  simp only [k0_part38_eq_skeleton]; unfold k0_part38_skel
  simp only [Prog.lift, Prog.bind_op, Prog.bind_ret, Prog.pure_eq_ret]
  iintro ⟨#HIs0, #HIr0, #HIs1, #HIr1, #Hrs0, #Hrr0, #Hrs1, #Hrr1, Hts0, Htr0, Hts1, Htr1, Hdst0, Hdst1, HO, Hg0, Hg1⟩
  unfold heldW
  -- group 0's own rows go to the neighbour across axis 2: the transfer borrows the left half of the rows' share
  unfold ptsAny
  icases Hdst0 with ⟨%fd0, Hdst0⟩
  icases Hdst1 with ⟨%fd1, Hdst1⟩
  ihave Hg0 := (pointsTo_share (PosShare.mem_left_op_right fullShare)).1 $$ Hg0
  icases Hg0 with ⟨Hg0l, Hg0r⟩
  iapply (wp_send_to V c ⟨k0_dev22 c, k0_dev22_lt c⟩ 2 (dev22_eq c) (.agS 0 0) (.agR 0 0) (by decide) (by decide) 21 (by decide) (paid_ag c 0 0) rfl
      (src := agM0_0 c) (dst := agM0_0 c) (agS_sem_eq 0 0 _) (agR_sem_eq 0 0 _) rfl fd0 κs0 κr0 W
      (ptsLent_intro c (agM0_0 c) _)
      (by
        rw [show pay V (nbr 2 c) (.agR 0 0) 0 = ptsIs (nbr 2 c) (agM0_0 (nbr 2 (nbr 2 c))) (V.ag0_0 (nbr 2 (nbr 2 c))) from rfl, nbr_nbr]
        exact ptsIs_intro (nbr 2 c) (agM0_0 c) _ _ (by rw [View.read_write_univ]; exact hV0))) $$ [Hg0l Hdst0 HO Hts0 Htr0]
  · isplitr; · iexact HIs0
    isplitr; · iexact HIr0
    isplitl [Hg0l]; · iexact Hg0l
    isplitl [Hdst0]; · iexact Hdst0
    isplitl [HO]; · iexact HO
    isplitl [Hts0]; · iexact Hts0
    isplitr; · iexact Hrs0
    isplitl [Htr0]; · iexact Htr0
    iexact Hrr0
  iintro ⟨Hcs0, HO⟩
  -- group 1's own rows go to the neighbour across axis 0
  ihave Hg1 := (pointsTo_share (PosShare.mem_left_op_right fullShare)).1 $$ Hg1
  icases Hg1 with ⟨Hg1l, Hg1r⟩
  iapply (wp_send_to V c ⟨k0_dev23 c, k0_dev23_lt c⟩ 0 (dev23_eq c) (.agS 1 0) (.agR 1 0) (by decide) (by decide) 22 (by decide) (paid_ag c 1 0) rfl
      (src := agM1_0 c) (dst := agM1_0 c) (agS_sem_eq 1 0 _) (agR_sem_eq 1 0 _) rfl fd1 κs1 κr1 W
      (ptsLent_intro c (agM1_0 c) _)
      (by
        rw [show pay V (nbr 0 c) (.agR 1 0) 0 = ptsIs (nbr 0 c) (agM1_0 (nbr 0 (nbr 0 c))) (V.ag1_0 (nbr 0 (nbr 0 c))) from rfl, nbr_nbr]
        exact ptsIs_intro (nbr 0 c) (agM1_0 c) _ _ (by rw [View.read_write_univ]; exact hV1))) $$ [Hg1l Hdst1 HO Hts1 Htr1]
  · isplitr; · iexact HIs1
    isplitr; · iexact HIr1
    isplitl [Hg1l]; · iexact Hg1l
    isplitl [Hdst1]; · iexact Hdst1
    isplitl [HO]; · iexact HO
    isplitl [Hts1]; · iexact Hts1
    isplitr; · iexact Hrs1
    isplitl [Htr1]; · iexact Htr1
    iexact Hrr1
  iintro ⟨Hcs1, HO⟩
  sl_step
  isplitr; · ipureintro; rfl
  isplitl [Hcs0]; · iexact Hcs0
  isplitl [Hcs1]; · iexact Hcs1
  isplitl [HO]; · iexact HO
  isplitl [Hg0r]; · iexact Hg0r
  iexact Hg1r

end Cert.Kernel.Proto

end
-- ==== Proof.Body39Bits.lean ====
/-
The first all-gather transfers of groups 2, 3 and 4: each group's own finished rows go to the neighbour across the group's first
all-gather axis, landing at the same rows of the neighbour's buffer; the transfer borrows the left half of the rows' share and
the device keeps the right half.
-/
import proofs.«900882_g7700000000000883_dist_matmul_gelu_kshard_i_m2048_n2048_k1024_v7x_i8_f32_1_alg».proof.Proof.RulesBits
import proofs.«900882_g7700000000000883_dist_matmul_gelu_kshard_i_m2048_n2048_k1024_v7x_i8_f32_1_alg».proof.Proof.TopoBitsTab
import proofs.«900882_g7700000000000883_dist_matmul_gelu_kshard_i_m2048_n2048_k1024_v7x_i8_f32_1_alg».proof.Proof.PiecesTabBits
import proofs.«900882_g7700000000000883_dist_matmul_gelu_kshard_i_m2048_n2048_k1024_v7x_i8_f32_1_alg».proof.Proof.PiecesOutTabBits
import proofs.«900882_g7700000000000883_dist_matmul_gelu_kshard_i_m2048_n2048_k1024_v7x_i8_f32_1_alg».proof.Proof.Gen.Kernel.Skeleton
import Idealize.ShloMosaic.Lib.Pipeline.Value

set_option maxRecDepth 16384

noncomputable section

namespace Cert.Kernel.Proto

open Cert.Kernel Cert.Kernel.Gen Cert.Kernel.Topo
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : Vals F)

set_option maxHeartbeats 4000000 in
theorem part39_run (c : Dev nD) (κs2 κr2 κs3 κr3 κs4 κr4 : ℕ) (W : Waits sig Unit) (v2 v8 v9 v682 v736 : BitVec 32)
    (g2 : Buf (Elt F) ((agM2_0 c).view.loc (c : Thread nD τ))) (g3 : Buf (Elt F) ((agM3_0 c).view.loc (c : Thread nD τ))) (g4 : Buf (Elt F) ((agM4_0 c).view.loc (c : Thread nD τ)))
    (hV2 : V.ag2_0 c ((agM2_0 c).view.read (Elt F) g2)) (hV3 : V.ag3_0 c ((agM3_0 c).view.read (Elt F) g3)) (hV4 : V.ag4_0 c ((agM4_0 c).view.read (Elt F) g4)) :
    iprop(cellInv ER (sched V) κs2 (cell c (.agS 2 0)) ∗ cellInv ER (sched V) κr2 (cell (nbr 1 c) (.agR 2 0))
        ∗ cellInv ER (sched V) κs3 (cell c (.agS 3 0)) ∗ cellInv ER (sched V) κr3 (cell (nbr 2 c) (.agR 3 0))
        ∗ cellInv ER (sched V) κs4 (cell c (.agS 4 0)) ∗ cellInv ER (sched V) κr4 (cell (nbr 0 c) (.agR 4 0))
        ∗ reached ER (cell c (.agS 2 0)) 0 ∗ reached ER (cell (nbr 1 c) (.agR 2 0)) 0
        ∗ reached ER (cell c (.agS 3 0)) 0 ∗ reached ER (cell (nbr 2 c) (.agR 3 0)) 0
        ∗ reached ER (cell c (.agS 4 0)) 0 ∗ reached ER (cell (nbr 0 c) (.agR 4 0)) 0
        ∗ dutyTok ER (cell c (.agS 2 0)) 0 (0 : Fin 3) ∗ dutyTok ER (cell (nbr 1 c) (.agR 2 0)) 0 (0 : Fin 3)
        ∗ dutyTok ER (cell c (.agS 3 0)) 0 (0 : Fin 3) ∗ dutyTok ER (cell (nbr 2 c) (.agR 3 0)) 0 (0 : Fin 3)
        ∗ dutyTok ER (cell c (.agS 4 0)) 0 (0 : Fin 3) ∗ dutyTok ER (cell (nbr 0 c) (.agR 4 0)) 0 (0 : Fin 3)
        ∗ ptsAny (F := F) (nbr 1 c) (agM2_0 c) ∗ ptsAny (F := F) (nbr 2 c) (agM3_0 c) ∗ ptsAny (F := F) (nbr 0 c) (agM4_0 c)
        ∗ owes (c : Thread nD τ) (Owe c 23) W
        ∗ heldW c (agM2_0 c) g2 ∗ heldW c (agM3_0 c) g3 ∗ heldW c (agM4_0 c) g4)
      ⊢ wp frame (wpE (defs₀ (F := F)) 𝒱₀ c none) Set.univ
          (k0_part39 (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23 c v2 v8 v9 v682 v736)
          (fun r => iprop(⌜r = ⟨Scalar.subi v682 (Scalar.muli v8 256#32), Scalar.addi (Scalar.subi v682 (Scalar.muli v8 256#32)) (Scalar.muli (Scalar.subi 1#32 v8) 256#32), Scalar.xori v2 4#32,
                Scalar.subi v736 (Scalar.muli v9 256#32), Scalar.addi (Scalar.subi v736 (Scalar.muli v9 256#32)) (Scalar.muli (Scalar.subi 1#32 v9) 256#32), Scalar.xori v2 1#32⟩⌝
            ∗ cred (tallyAt (cell c (.agS 2 0)) () (amt (.agR 2 0))) ∗ cred (tallyAt (cell c (.agS 3 0)) () (amt (.agR 3 0))) ∗ cred (tallyAt (cell c (.agS 4 0)) () (amt (.agR 4 0)))
            ∗ owes (c : Thread nD τ) (Owe c 26) W
            ∗ ((agM2_0 c).view.loc (c : Thread nD τ) ↦[(agM2_0 c).view.set]{fullShare.right} g2)
            ∗ ((agM3_0 c).view.loc (c : Thread nD τ) ↦[(agM3_0 c).view.set]{fullShare.right} g3)
            ∗ ((agM4_0 c).view.loc (c : Thread nD τ) ↦[(agM4_0 c).view.set]{fullShare.right} g4))) := by
  simp only [k0_part39_eq_skeleton]; unfold k0_part39_skel
  simp only [Prog.lift, Prog.bind_op, Prog.bind_ret, Prog.pure_eq_ret]
  iintro ⟨#HIs2, #HIr2, #HIs3, #HIr3, #HIs4, #HIr4, #Hrs2, #Hrr2, #Hrs3, #Hrr3, #Hrs4, #Hrr4, Hts2, Htr2, Hts3, Htr3, Hts4, Htr4, Hdst2, Hdst3, Hdst4, HO, Hg2, Hg3, Hg4⟩
  unfold heldW
  unfold ptsAny
  icases Hdst2 with ⟨%fd2, Hdst2⟩
  icases Hdst3 with ⟨%fd3, Hdst3⟩
  icases Hdst4 with ⟨%fd4, Hdst4⟩
  -- group 2's own rows go to the neighbour across axis 1
  ihave Hg2 := (pointsTo_share (PosShare.mem_left_op_right fullShare)).1 $$ Hg2
  icases Hg2 with ⟨Hg2l, Hg2r⟩
  iapply (wp_send_to V c ⟨k0_dev24 c, k0_dev24_lt c⟩ 1 (dev24_eq c) (.agS 2 0) (.agR 2 0) (by decide) (by decide) 23 (by decide) (paid_ag c 2 0) rfl
      (src := agM2_0 c) (dst := agM2_0 c) (agS_sem_eq 2 0 _) (agR_sem_eq 2 0 _) rfl fd2 κs2 κr2 W
      (ptsLent_intro c (agM2_0 c) _)
      (by
        rw [show pay V (nbr 1 c) (.agR 2 0) 0 = ptsIs (nbr 1 c) (agM2_0 (nbr 1 (nbr 1 c))) (V.ag2_0 (nbr 1 (nbr 1 c))) from rfl, nbr_nbr]
        exact ptsIs_intro (nbr 1 c) (agM2_0 c) _ _ (by rw [View.read_write_univ]; exact hV2))) $$ [Hg2l Hdst2 HO Hts2 Htr2]
  · isplitr; · iexact HIs2
    isplitr; · iexact HIr2
    isplitl [Hg2l]; · iexact Hg2l
    isplitl [Hdst2]; · iexact Hdst2
    isplitl [HO]; · iexact HO
    isplitl [Hts2]; · iexact Hts2
    isplitr; · iexact Hrs2
    isplitl [Htr2]; · iexact Htr2
    iexact Hrr2
  iintro ⟨Hcs2, HO⟩
  -- group 3's own rows go to the neighbour across axis 2
  ihave Hg3 := (pointsTo_share (PosShare.mem_left_op_right fullShare)).1 $$ Hg3
  icases Hg3 with ⟨Hg3l, Hg3r⟩
  iapply (wp_send_to V c ⟨k0_dev25 c, k0_dev25_lt c⟩ 2 (dev25_eq c) (.agS 3 0) (.agR 3 0) (by decide) (by decide) 24 (by decide) (paid_ag c 3 0) rfl
      (src := agM3_0 c) (dst := agM3_0 c) (agS_sem_eq 3 0 _) (agR_sem_eq 3 0 _) rfl fd3 κs3 κr3 W
      (ptsLent_intro c (agM3_0 c) _)
      (by
        rw [show pay V (nbr 2 c) (.agR 3 0) 0 = ptsIs (nbr 2 c) (agM3_0 (nbr 2 (nbr 2 c))) (V.ag3_0 (nbr 2 (nbr 2 c))) from rfl, nbr_nbr]
        exact ptsIs_intro (nbr 2 c) (agM3_0 c) _ _ (by rw [View.read_write_univ]; exact hV3))) $$ [Hg3l Hdst3 HO Hts3 Htr3]
  · isplitr; · iexact HIs3
    isplitr; · iexact HIr3
    isplitl [Hg3l]; · iexact Hg3l
    isplitl [Hdst3]; · iexact Hdst3
    isplitl [HO]; · iexact HO
    isplitl [Hts3]; · iexact Hts3
    isplitr; · iexact Hrs3
    isplitl [Htr3]; · iexact Htr3
    iexact Hrr3
  iintro ⟨Hcs3, HO⟩
  -- group 4's own rows go to the neighbour across axis 0
  ihave Hg4 := (pointsTo_share (PosShare.mem_left_op_right fullShare)).1 $$ Hg4
  icases Hg4 with ⟨Hg4l, Hg4r⟩
  iapply (wp_send_to V c ⟨k0_dev26 c, k0_dev26_lt c⟩ 0 (dev26_eq c) (.agS 4 0) (.agR 4 0) (by decide) (by decide) 25 (by decide) (paid_ag c 4 0) rfl
      (src := agM4_0 c) (dst := agM4_0 c) (agS_sem_eq 4 0 _) (agR_sem_eq 4 0 _) rfl fd4 κs4 κr4 W
      (ptsLent_intro c (agM4_0 c) _)
      (by
        rw [show pay V (nbr 0 c) (.agR 4 0) 0 = ptsIs (nbr 0 c) (agM4_0 (nbr 0 (nbr 0 c))) (V.ag4_0 (nbr 0 (nbr 0 c))) from rfl, nbr_nbr]
        exact ptsIs_intro (nbr 0 c) (agM4_0 c) _ _ (by rw [View.read_write_univ]; exact hV4))) $$ [Hg4l Hdst4 HO Hts4 Htr4]
  · isplitr; · iexact HIs4
    isplitr; · iexact HIr4
    isplitl [Hg4l]; · iexact Hg4l
    isplitl [Hdst4]; · iexact Hdst4
    isplitl [HO]; · iexact HO
    isplitl [Hts4]; · iexact Hts4
    isplitr; · iexact Hrs4
    isplitl [Htr4]; · iexact Htr4
    iexact Hrr4
  iintro ⟨Hcs4, HO⟩
  sl_step
  isplitr; · ipureintro; rfl
  isplitl [Hcs2]; · iexact Hcs2
  isplitl [Hcs3]; · iexact Hcs3
  isplitl [Hcs4]; · iexact Hcs4
  isplitl [HO]; · iexact HO
  isplitl [Hg2r]; · iexact Hg2r
  isplitl [Hg3r]; · iexact Hg3r
  iexact Hg4r

end Cert.Kernel.Proto

end
-- ==== Proof.Body40Bits.lean ====
/-
The first all-gather transfer of group 5 (its own finished rows go to the neighbour across axis 1), and the wait for the end of
group 0's first all-gather transfer, which gives the lent half share of group 0's own rows back.
-/
import proofs.«900882_g7700000000000883_dist_matmul_gelu_kshard_i_m2048_n2048_k1024_v7x_i8_f32_1_alg».proof.Proof.RulesBits
import proofs.«900882_g7700000000000883_dist_matmul_gelu_kshard_i_m2048_n2048_k1024_v7x_i8_f32_1_alg».proof.Proof.TopoBitsTab
import proofs.«900882_g7700000000000883_dist_matmul_gelu_kshard_i_m2048_n2048_k1024_v7x_i8_f32_1_alg».proof.Proof.PiecesTabBits
import proofs.«900882_g7700000000000883_dist_matmul_gelu_kshard_i_m2048_n2048_k1024_v7x_i8_f32_1_alg».proof.Proof.PiecesOutTabBits
import proofs.«900882_g7700000000000883_dist_matmul_gelu_kshard_i_m2048_n2048_k1024_v7x_i8_f32_1_alg».proof.Proof.Gen.Kernel.Skeleton
import Idealize.ShloMosaic.Lib.Pipeline.Value

set_option maxRecDepth 16384

noncomputable section

namespace Cert.Kernel.Proto

open Cert.Kernel Cert.Kernel.Gen Cert.Kernel.Topo
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : Vals F)

set_option maxHeartbeats 4000000 in
theorem part40_run (c : Dev nD) (κs5 κr5 κwS : ℕ) (W : Waits sig Unit) (v2 v6 v8 v790 v844 v1184 : BitVec 32)
    (g5 : Buf (Elt F) ((agM5_0 c).view.loc (c : Thread nD τ)))
    (hV5 : V.ag5_0 c ((agM5_0 c).view.read (Elt F) g5)) :
    iprop(cellInv ER (sched V) κs5 (cell c (.agS 5 0)) ∗ cellInv ER (sched V) κr5 (cell (nbr 1 c) (.agR 5 0)) ∗ cellInv ER (sched V) κwS (cell c (.agS 0 0))
        ∗ reached ER (cell c (.agS 5 0)) 0 ∗ reached ER (cell (nbr 1 c) (.agR 5 0)) 0
        ∗ dutyTok ER (cell c (.agS 5 0)) 0 (0 : Fin 3) ∗ dutyTok ER (cell (nbr 1 c) (.agR 5 0)) 0 (0 : Fin 3)
        ∗ ptsAny (F := F) (nbr 1 c) (agM5_0 c)
        ∗ cred (tallyAt (cell c (.agS 0 0)) () (amt (.agR 0 0))) ∗ atPos ER (cell c (.agS 0 0)) 0 ∅ 0
        ∗ owes (c : Thread nD τ) (Owe c 26) W ∗ levAts L lv
        ∗ heldW c (agM5_0 c) g5)
      ⊢ wp frame (wpE (defs₀ (F := F)) 𝒱₀ c none) Set.univ
          (k0_part40 (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23 c v2 v6 v8 v790 v844 v1184)
          (fun r => iprop(⌜r = ⟨Scalar.subi v790 (Scalar.muli v6 256#32), Scalar.addi (Scalar.subi v790 (Scalar.muli v6 256#32)) (Scalar.muli (Scalar.subi 1#32 v6) 256#32), Scalar.xori v2 3#32,
                Scalar.subi v844 (Scalar.muli v8 256#32), Scalar.addi (Scalar.subi v844 (Scalar.muli v8 256#32)) (Scalar.muli (Scalar.subi 1#32 v8) 256#32)⟩⌝
            ∗ cred (tallyAt (cell c (.agS 5 0)) () (amt (.agR 5 0)))
            ∗ owes (c : Thread nD τ) (Owe c 27) (insert ((CK.agS 0 0).sem, ()) W)
            ∗ atPos ER (cell c (.agS 0 0)) 1 ∅ 0
            ∗ ptsLent (F := F) c (agM0_0 c)
            ∗ ((agM5_0 c).view.loc (c : Thread nD τ) ↦[(agM5_0 c).view.set]{fullShare.right} g5))) := by
  simp only [k0_part40_eq_skeleton]; unfold k0_part40_skel
  simp only [Prog.lift, Prog.bind_op, Prog.bind_ret, Prog.pure_eq_ret]
  iintro ⟨#HIs5, #HIr5, #HIwS, #Hrs5, #Hrr5, Hts5, Htr5, Hdst5, HcwS, HatS, HO, #Hlev, Hg5⟩
  unfold heldW
  unfold ptsAny
  icases Hdst5 with ⟨%fd5, Hdst5⟩
  -- group 5's own rows go to the neighbour across axis 1
  ihave Hg5 := (pointsTo_share (PosShare.mem_left_op_right fullShare)).1 $$ Hg5
  icases Hg5 with ⟨Hg5l, Hg5r⟩
  iapply (wp_send_to V c ⟨k0_dev27 c, k0_dev27_lt c⟩ 1 (dev27_eq c) (.agS 5 0) (.agR 5 0) (by decide) (by decide) 26 (by decide) (paid_ag c 5 0) rfl
      (src := agM5_0 c) (dst := agM5_0 c) (agS_sem_eq 5 0 _) (agR_sem_eq 5 0 _) rfl fd5 κs5 κr5 W
      (ptsLent_intro c (agM5_0 c) _)
      (by
        rw [show pay V (nbr 1 c) (.agR 5 0) 0 = ptsIs (nbr 1 c) (agM5_0 (nbr 1 (nbr 1 c))) (V.ag5_0 (nbr 1 (nbr 1 c))) from rfl, nbr_nbr]
        exact ptsIs_intro (nbr 1 c) (agM5_0 c) _ _ (by rw [View.read_write_univ]; exact hV5))) $$ [Hg5l Hdst5 HO Hts5 Htr5]
  · isplitr; · iexact HIs5
    isplitr; · iexact HIr5
    isplitl [Hg5l]; · iexact Hg5l
    isplitl [Hdst5]; · iexact Hdst5
    isplitl [HO]; · iexact HO
    isplitl [Hts5]; · iexact Hts5
    isplitr; · iexact Hrs5
    isplitl [Htr5]; · iexact Htr5
    iexact Hrr5
  iintro ⟨Hcs5, HO⟩
  -- group 0's first all-gather transfer is over: the lent half share of its own rows comes back
  ihave HcwS := (Entails.of_eq (show cred (tallyAt (cell c (.agS 0 0)) () (amt (.agR 0 0))) = cred (tallyAt (cell c (.agS 0 0)) () (amt (.agS 0 0))) from rfl)) $$ HcwS
  iapply (wp_wait_xfer V c (.agS 0 0) (by decide) 27 (agS_sem_eq 0 0 _) (k' := (agM0_0 c : Memref sig .tc .vmem S256x384 .bf16).view.dmaCredit) rfl (wpE_waitDma2_eq 𝒱₀ (c : Thread nD τ) none Set.univ)
      (mayWait_own c (.agS 0 0) (lv_cell c (.agS 0 0)) 27) κwS W) $$ [HcwS HO HatS]
  · isplitr; · iexact HIwS
    isplitl [HcwS]; · iexact HcwS
    isplitl [HO]; · iexact HO
    isplitr; · iexact Hlev
    iexact HatS
  iintro ⟨HO, HatS, HqS⟩
  ihave HpS := (Entails.of_eq (show pay V c (.agS 0 0) 0 = ptsLent (F := F) c (agM0_0 c) from rfl)) $$ HqS
  sl_step
  isplitr; · ipureintro; rfl
  isplitl [Hcs5]; · iexact Hcs5
  isplitl [HO]; · iexact HO
  isplitl [HatS]; · iexact HatS
  isplitl [HpS]; · iexact HpS
  iexact Hg5r

end Cert.Kernel.Proto

end
-- ==== Proof.Body41Bits.lean ====
/-
All-gather step 1 of group 0: the neighbour's rows of step 0 have arrived; with the device's own rows (whose lent half share is
back) they are the rows of step 1, sent to the neighbour across axis 1 (the left half share lent again). The arrived rows are
widened into the accumulator and that finished block copied to the result array; then the wait for the end of group 1's first
transfer.
-/
import proofs.«900882_g7700000000000883_dist_matmul_gelu_kshard_i_m2048_n2048_k1024_v7x_i8_f32_1_alg».proof.Proof.RulesBits
import proofs.«900882_g7700000000000883_dist_matmul_gelu_kshard_i_m2048_n2048_k1024_v7x_i8_f32_1_alg».proof.Proof.TopoBitsTab
import proofs.«900882_g7700000000000883_dist_matmul_gelu_kshard_i_m2048_n2048_k1024_v7x_i8_f32_1_alg».proof.Proof.PiecesTabBits
import proofs.«900882_g7700000000000883_dist_matmul_gelu_kshard_i_m2048_n2048_k1024_v7x_i8_f32_1_alg».proof.Proof.PiecesOutTabBits
import proofs.«900882_g7700000000000883_dist_matmul_gelu_kshard_i_m2048_n2048_k1024_v7x_i8_f32_1_alg».proof.Proof.Gen.Kernel.Skeleton
import Idealize.ShloMosaic.Lib.Pipeline.Value

set_option maxRecDepth 16384

noncomputable section

namespace Cert.Kernel.Proto

open Cert.Kernel Cert.Kernel.Gen Cert.Kernel.Topo
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : Vals F)

set_option maxRecDepth 65536 in
set_option maxHeartbeats 4000000 in
theorem part41_run (c : Dev nD) (κwR κs κr κo κw1 : ℕ) (W : Waits sig Unit) (v2 v8 v1194 v1197 : BitVec 32)
    (g0 : Buf (Elt F) ((agM0_0 c).view.loc (c : Thread nD τ)))
    (f6 : Buf (Elt F) ((outSrcM6 c).view.loc (c : Thread nD τ))) (fd : Buf (Elt F) ((outDstM6 c).view.loc (c : Thread nD τ)))
    (hVag : ∀ fa : Buf (Elt F) ((agM0_0 (nbr 2 c)).view.loc (c : Thread nD τ)), V.ag0_0 (nbr 2 c) ((agM0_0 (nbr 2 c)).view.read (Elt F) fa) →
      V.ag0_1 c ((agM0_1 c).view.read (Elt F) ((agM0_0 (nbr 2 c)).view.set.piecewise fa g0)))
    (hVout : ∀ fa : Buf (Elt F) ((agM0_0 (nbr 2 c)).view.loc (c : Thread nD τ)), V.ag0_0 (nbr 2 c) ((agM0_0 (nbr 2 c)).view.read (Elt F) fa) →
      V.out6 c ((outSrcM6 c).view.read (Elt F) (((Memref.whole cc0_scratch0 : Memref sig .tc .vmem S2048x2048 .f32).access (Rect.unit (s := S2048x2048) (k0_off80 c) S256x384.size (k0_off80_inb c))).write (Elt F) f6 (k0_pay87 (View.readAt (Elt F) (Memref.whole cc0_scratch13 : Memref sig .tc .vmem S2048x384 .bf16).view (Rect.unit (s := S2048x384) (k0_off79 c) S256x384.size (k0_off79_inb c)).toLoadRect ((agM0_0 (nbr 2 c)).view.set.piecewise fa g0))) Finset.univ))) :
    iprop(cellInv ER (sched V) κwR (cell c (.agR 0 0)) ∗ cellInv ER (sched V) κs (cell c (.agS 0 1)) ∗ cellInv ER (sched V) κr (cell (nbr 1 c) (.agR 0 1))
        ∗ cellInv ER (sched V) κo (cell c (.out 6)) ∗ cellInv ER (sched V) κw1 (cell c (.agS 1 0))
        ∗ reached ER (cell c (.agS 0 1)) 0 ∗ reached ER (cell (nbr 1 c) (.agR 0 1)) 0 ∗ reached ER (cell c (.out 6)) 0
        ∗ dutyTok ER (cell c (.agS 0 1)) 0 (0 : Fin 3) ∗ dutyTok ER (cell (nbr 1 c) (.agR 0 1)) 0 (0 : Fin 3) ∗ dutyTok ER (cell c (.out 6)) 0 (0 : Fin 3)
        ∗ cred (tallyAt (cell c (.agR 0 0)) () (amt (.agR 0 0))) ∗ atPos ER (cell c (.agR 0 0)) 0 ∅ 0
        ∗ cred (tallyAt (cell c (.agS 1 0)) () (amt (.agR 1 0))) ∗ atPos ER (cell c (.agS 1 0)) 0 ∅ 0
        ∗ owes (c : Thread nD τ) (Owe c 27) W ∗ levAts L lv
        ∗ ptsAny (F := F) (nbr 1 c) (agM0_1 c)
        ∗ ptsLent (F := F) c (agM0_0 c) ∗ ((agM0_0 c).view.loc (c : Thread nD τ) ↦[(agM0_0 c).view.set]{fullShare.right} g0)
        ∗ heldW c (outSrcM6 c) f6 ∗ heldW c (outDstM6 c) fd)
      ⊢ wp frame (wpE (defs₀ (F := F)) 𝒱₀ c none) Set.univ
          (k0_part41 (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23 c v2 v8 v1194 v1197)
          (fun r => iprop(∃ fa : Buf (Elt F) ((agM0_0 (nbr 2 c)).view.loc (c : Thread nD τ)),
            ⌜r = ⟨Scalar.xori v2 3#32, Scalar.subi v1194 (Scalar.muli v8 512#32), Scalar.addi (Scalar.subi v1194 (Scalar.muli v8 512#32)) (Scalar.muli (Scalar.subi 1#32 v8) 512#32)⟩⌝
            ∗ ⌜V.ag0_0 (nbr 2 c) ((agM0_0 (nbr 2 c)).view.read (Elt F) fa)⌝
            ∗ owes (c : Thread nD τ) (Owe c 28) (insert ((CK.agS 1 0).sem, ()) (insert ((CK.agR 0 0).sem, ()) W))
            ∗ atPos ER (cell c (.agR 0 0)) 1 ∅ 0 ∗ atPos ER (cell c (.agS 1 0)) 1 ∅ 0
            ∗ cred (tallyAt (cell c (.agS 0 1)) () (amt (.agR 0 1))) ∗ cred (tallyAt (cell c (.out 6)) () (amt (.out 6)))
            ∗ ((agM0_1 c).view.loc (c : Thread nD τ) ↦[(agM0_1 c).view.set]{fullShare.right} ((agM0_0 (nbr 2 c)).view.set.piecewise fa g0))
            ∗ ptsLent (F := F) c (agM1_0 c))) := by
  simp only [k0_part41_eq_skeleton]; unfold k0_part41_skel
  simp only [Prog.lift, Prog.bind_op, Prog.bind_ret, Prog.pure_eq_ret]
  iintro ⟨#HIwR, #HIs, #HIr, #HIo, #HIw1, #Hrs, #Hrr, #Hro, Hts, Htr, Hto, HcwR, HatR, Hcw1, Hat1, HO, #Hlev, Hdst, Hlent, Hown, H6, Hd⟩
  unfold heldW
  -- the neighbour's rows of all-gather step 0 have arrived
  iapply (wp_wait_xfer V c (.agR 0 0) (by decide) 27 (agR_sem_eq 0 0 _) (k' := (agM0_0 c : Memref sig .tc .vmem S256x384 .bf16).view.dmaCredit) rfl (wpE_waitDma2_eq 𝒱₀ (c : Thread nD τ) none Set.univ)
      (mayWait_agR c 0 0 27 (by decide)) κwR W) $$ [HcwR HO HatR]
  · isplitr; · iexact HIwR
    isplitl [HcwR]; · iexact HcwR
    isplitl [HO]; · iexact HO
    isplitr; · iexact Hlev
    iexact HatR
  iintro ⟨HO, HatR, HqR⟩
  ihave HpR := (Entails.of_eq (show pay V c (.agR 0 0) 0 = ptsIs c (agM0_0 (nbr 2 c)) (V.ag0_0 (nbr 2 c)) from rfl)) $$ HqR
  unfold ptsIs ptsLent ptsAny
  icases HpR with ⟨%fa, Hfa, %hfa⟩
  icases Hlent with ⟨%g0', Hlent⟩
  icases Hdst with ⟨%fdn, Hdst⟩
  -- the kept right half and the lent left half of the own rows agree, so they make the full share again
  ihave Hag := (persistent_entails_right pointsTo_agree) $$ [Hlent Hown]
  · isplitl [Hlent]; · iexact Hlent
    iexact Hown
  icases Hag with ⟨%hag, Hlent, Hown⟩
  ihave Hlent' := (Entails.of_eq (pointsTo_congr (f := g0') (g := g0) fun i hi => (hag i (Finset.mem_inter.mpr ⟨hi, hi⟩)).1)) $$ Hlent
  ihave Hfull := (pointsTo_share (PosShare.mem_left_op_right fullShare)).2 $$ [Hlent' Hown]
  · isplitl [Hlent']; · iexact Hlent'
    iexact Hown
  -- the own rows and the arrived rows are the rows of the next step
  ihave Hj := (pointsTo_join (ℓ := (Memref.whole cc0_scratch13 : Memref sig .tc .vmem S2048x384 .bf16).view.loc (c : Thread nD τ)) (q := fullShare) (f := g0) (g := fa) (ag_disj0_0 c)) $$ [Hfull Hfa]
  · isplitl [Hfull]; · iexact Hfull
    iexact Hfa
  ihave Hj2 := (Entails.of_eq (pts_set_eq (F := F) (ag_join0_0 c).symm)) $$ Hj
  ihave Hh := (pointsTo_share (PosShare.mem_left_op_right fullShare)).1 $$ Hj2
  icases Hh with ⟨HjL, HjR⟩
  have hp2 : ((agM0_1 c).view.loc (nbr 1 c : Thread nD τ) ↦[(agM0_1 c).view.set]{fullShare}
      ((agM0_1 c).view.write (Elt F) fdn ((agM0_1 c).view.read (Elt F) ((agM0_0 (nbr 2 c)).view.set.piecewise fa g0)) Finset.univ) : sProp 𝕄)
      ⊢ pay V (nbr 1 c) (.agR 0 1) 0 := by
    have e : pay V (nbr 1 c) (.agR 0 1) 0 = ptsIs (nbr 1 c) (agM0_1 c) (V.ag0_1 c) := by
      show ptsIs (nbr 1 c) (agM0_1 (nbr 1 (nbr 1 c))) (V.ag0_1 (nbr 1 (nbr 1 c))) = _
      rw [nbr_nbr]
    rw [e]
    exact ptsIs_intro (nbr 1 c) (agM0_1 c) _ _ (by rw [View.read_write_univ]; exact hVag fa hfa)
  iapply (wp_send_to V c ⟨k0_dev28 c, k0_dev28_lt c⟩ 1 (dev28_eq c) (.agS 0 1) (.agR 0 1) (by decide) (by decide) 27 (by decide) (paid_ag c 0 1) rfl
      (src := agM0_1 c) (dst := agM0_1 c) (agS_sem_eq 0 1 _) (agR_sem_eq 0 1 _) rfl fdn κs κr _
      (ptsLent_intro c (agM0_1 c) _) hp2) $$ [HjL Hdst HO Hts Htr]
  · isplitr; · iexact HIs
    isplitr; · iexact HIr
    isplitl [HjL]; · iexact HjL
    isplitl [Hdst]; · iexact Hdst
    isplitl [HO]; · iexact HO
    isplitl [Hts]; · iexact Hts
    isplitr; · iexact Hrs
    isplitl [Htr]; · iexact Htr
    iexact Hrr
  iintro ⟨Hcs, HO⟩
  have h79 : ((Memref.whole cc0_scratch13 : Memref sig .tc .vmem S2048x384 .bf16).access (Rect.unit (s := S2048x384) (k0_off79 c) ![256, 384] (k0_off79_inb c))).set ⊆ (agM0_1 c).view.set := by
    refine (le_of_eq (View.set_slice_whole _ _)).trans ?_
    piece_dev c unit_subset [off79_eq, off78_eq]
  ihave HjR := (Entails.of_eq (show ((Memref.whole cc0_scratch13 : Memref sig .tc .vmem S2048x384 .bf16).view.loc (c : Thread nD τ) ↦[(agM0_1 c).view.set]{fullShare.right} ((agM0_0 (nbr 2 c)).view.set.piecewise fa g0) : sProp 𝕄)
      = ((agM0_1 c).view.loc (c : Thread nD τ) ↦[(agM0_1 c).view.set]{fullShare.right} ((agM0_0 (nbr 2 c)).view.set.piecewise fa g0)) from rfl)) $$ HjR
  have h80 : ((Memref.whole cc0_scratch0 : Memref sig .tc .vmem S2048x2048 .f32).access (Rect.unit (s := S2048x2048) (k0_off80 c) ![256, 384] (k0_off80_inb c))).set ⊆ (outSrcM6 c).view.set :=
    le_of_eq ((View.set_slice_whole _ _).trans ((unit_set_congr ((off80_eq c).trans (off81_eq c).symm) rfl).trans (View.set_slice_whole _ _).symm))
  have h80' : ((Memref.whole cc0_scratch0 : Memref sig .tc .vmem S2048x2048 .f32).access (Rect.unit (s := S2048x2048) (k0_off80 c) ![256, 384] (k0_off80_inb c))).setOn Finset.univ ⊆ (outSrcM6 c).view.set := h80
  sl_exec
  -- the rows that arrived, widened, are a finished block of the accumulator: it goes to the result array
  iapply (wp_copy_own V c (.out 6) (by decide) (src := outSrcM6 c) (dst := outDstM6 c) (out_sem_eq 6 _) rfl fd κo
      (by
        show _ ⊢ iprop(ptsIs c (outDstM6 c) (V.out6 c) ∗ ptsAny (F := F) c (outSrcM6 c))
        exact BIClass.sep_mono (ptsIs_intro c (outDstM6 c) _ _ (by rw [View.read_write_univ]; exact hVout fa hfa)) (ptsAny_intro c (outSrcM6 c) _))) $$ [H6 Hd Hto]
  · isplitr; · iexact HIo
    isplitl [H6]; · iexact H6
    isplitl [Hd]; · iexact Hd
    isplitl [Hto]; · iexact Hto
    iexact Hro
  iintro Hco
  -- group 1's first all-gather transfer is over: the lent half share of its own rows comes back
  ihave Hcw1 := (Entails.of_eq (show cred (tallyAt (cell c (.agS 1 0)) () (amt (.agR 1 0))) = cred (tallyAt (cell c (.agS 1 0)) () (amt (.agS 1 0))) from rfl)) $$ Hcw1
  iapply (wp_wait_xfer V c (.agS 1 0) (by decide) 28 (agS_sem_eq 1 0 _) (k' := (agM1_0 c : Memref sig .tc .vmem S256x384 .bf16).view.dmaCredit) rfl (wpE_waitDma2_eq 𝒱₀ (c : Thread nD τ) none Set.univ)
      (mayWait_own c (.agS 1 0) (lv_cell c (.agS 1 0)) 28) κw1 _) $$ [Hcw1 HO Hat1]
  · isplitr; · iexact HIw1
    isplitl [Hcw1]; · iexact Hcw1
    isplitl [HO]; · iexact HO
    isplitr; · iexact Hlev
    iexact Hat1
  iintro ⟨HO, Hat1, Hq1⟩
  ihave Hp1 := (Entails.of_eq (show pay V c (.agS 1 0) 0 = ptsLent (F := F) c (agM1_0 c) from rfl)) $$ Hq1
  sl_step
  iexists fa
  isplitr; · ipureintro; rfl
  isplitr; · ipureintro; exact hfa
  isplitl [HO]; · iexact HO
  isplitl [HatR]; · iexact HatR
  isplitl [Hat1]; · iexact Hat1
  isplitl [Hcs]; · iexact Hcs
  isplitl [Hco]; · iexact Hco
  isplitl [HjR]; · iexact HjR
  unfold ptsLent
  iexact Hp1

end Cert.Kernel.Proto

end
-- ==== Proof.Body42Bits.lean ====
/-
All-gather step 1 of group 1: the neighbour's rows of step 0 have arrived; with the device's own rows (whose lent half share is
back) they are the rows of step 1, sent to the neighbour across axis 2 (the left half share lent again). The arrived rows are
widened into the accumulator and that finished block copied to the result array.
-/
import proofs.«900882_g7700000000000883_dist_matmul_gelu_kshard_i_m2048_n2048_k1024_v7x_i8_f32_1_alg».proof.Proof.RulesBits
import proofs.«900882_g7700000000000883_dist_matmul_gelu_kshard_i_m2048_n2048_k1024_v7x_i8_f32_1_alg».proof.Proof.TopoBitsTab
import proofs.«900882_g7700000000000883_dist_matmul_gelu_kshard_i_m2048_n2048_k1024_v7x_i8_f32_1_alg».proof.Proof.PiecesTabBits
import proofs.«900882_g7700000000000883_dist_matmul_gelu_kshard_i_m2048_n2048_k1024_v7x_i8_f32_1_alg».proof.Proof.PiecesOutTabBits
import proofs.«900882_g7700000000000883_dist_matmul_gelu_kshard_i_m2048_n2048_k1024_v7x_i8_f32_1_alg».proof.Proof.Gen.Kernel.Skeleton
import Idealize.ShloMosaic.Lib.Pipeline.Value

set_option maxRecDepth 16384

noncomputable section

namespace Cert.Kernel.Proto

open Cert.Kernel Cert.Kernel.Gen Cert.Kernel.Topo
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : Vals F)

set_option maxRecDepth 65536 in
set_option maxHeartbeats 4000000 in
theorem part42_run (c : Dev nD) (κwR κs κr κo : ℕ) (W : Waits sig Unit) (v2 v9 v1198 v1208 v1211 : BitVec 32)
    (g1 : Buf (Elt F) ((agM1_0 c).view.loc (c : Thread nD τ)))
    (f7 : Buf (Elt F) ((outSrcM7 c).view.loc (c : Thread nD τ))) (fd : Buf (Elt F) ((outDstM7 c).view.loc (c : Thread nD τ)))
    (hVag : ∀ fa : Buf (Elt F) ((agM1_0 (nbr 0 c)).view.loc (c : Thread nD τ)), V.ag1_0 (nbr 0 c) ((agM1_0 (nbr 0 c)).view.read (Elt F) fa) →
      V.ag1_1 c ((agM1_1 c).view.read (Elt F) ((agM1_0 (nbr 0 c)).view.set.piecewise fa g1)))
    (hVout : ∀ fa : Buf (Elt F) ((agM1_0 (nbr 0 c)).view.loc (c : Thread nD τ)), V.ag1_0 (nbr 0 c) ((agM1_0 (nbr 0 c)).view.read (Elt F) fa) →
      V.out7 c ((outSrcM7 c).view.read (Elt F) (((Memref.whole cc0_scratch0 : Memref sig .tc .vmem S2048x2048 .f32).access (Rect.unit (s := S2048x2048) (k0_off84 c) S256x384.size (k0_off84_inb c))).write (Elt F) f7 (k0_pay88 (View.readAt (Elt F) (Memref.whole cc0_scratch14 : Memref sig .tc .vmem S2048x384 .bf16).view (Rect.unit (s := S2048x384) (k0_off83 c) S256x384.size (k0_off83_inb c)).toLoadRect ((agM1_0 (nbr 0 c)).view.set.piecewise fa g1))) Finset.univ))) :
    iprop(cellInv ER (sched V) κwR (cell c (.agR 1 0)) ∗ cellInv ER (sched V) κs (cell c (.agS 1 1)) ∗ cellInv ER (sched V) κr (cell (nbr 2 c) (.agR 1 1))
        ∗ cellInv ER (sched V) κo (cell c (.out 7))
        ∗ reached ER (cell c (.agS 1 1)) 0 ∗ reached ER (cell (nbr 2 c) (.agR 1 1)) 0 ∗ reached ER (cell c (.out 7)) 0
        ∗ dutyTok ER (cell c (.agS 1 1)) 0 (0 : Fin 3) ∗ dutyTok ER (cell (nbr 2 c) (.agR 1 1)) 0 (0 : Fin 3) ∗ dutyTok ER (cell c (.out 7)) 0 (0 : Fin 3)
        ∗ cred (tallyAt (cell c (.agR 1 0)) () (amt (.agR 1 0))) ∗ atPos ER (cell c (.agR 1 0)) 0 ∅ 0
        ∗ owes (c : Thread nD τ) (Owe c 28) W ∗ levAts L lv
        ∗ ptsAny (F := F) (nbr 2 c) (agM1_1 c)
        ∗ ptsLent (F := F) c (agM1_0 c) ∗ ((agM1_0 c).view.loc (c : Thread nD τ) ↦[(agM1_0 c).view.set]{fullShare.right} g1)
        ∗ heldW c (outSrcM7 c) f7 ∗ heldW c (outDstM7 c) fd)
      ⊢ wp frame (wpE (defs₀ (F := F)) 𝒱₀ c none) Set.univ
          (k0_part42 (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23 c v2 v9 v1198 v1208 v1211)
          (fun r => iprop(∃ fa : Buf (Elt F) ((agM1_0 (nbr 0 c)).view.loc (c : Thread nD τ)),
            ⌜r = ⟨Scalar.xori v2 4#32, Scalar.subi v1208 (Scalar.muli v9 512#32), Scalar.addi (Scalar.subi v1208 (Scalar.muli v9 512#32)) (Scalar.muli (Scalar.subi 1#32 v9) 512#32)⟩⌝
            ∗ ⌜V.ag1_0 (nbr 0 c) ((agM1_0 (nbr 0 c)).view.read (Elt F) fa)⌝
            ∗ owes (c : Thread nD τ) (Owe c 29) (insert ((CK.agR 1 0).sem, ()) W)
            ∗ atPos ER (cell c (.agR 1 0)) 1 ∅ 0
            ∗ cred (tallyAt (cell c (.agS 1 1)) () (amt (.agR 1 1))) ∗ cred (tallyAt (cell c (.out 7)) () (amt (.out 7)))
            ∗ ((agM1_1 c).view.loc (c : Thread nD τ) ↦[(agM1_1 c).view.set]{fullShare.right} ((agM1_0 (nbr 0 c)).view.set.piecewise fa g1)))) := by
  simp only [k0_part42_eq_skeleton]; unfold k0_part42_skel
  simp only [Prog.lift, Prog.bind_op, Prog.bind_ret, Prog.pure_eq_ret]
  iintro ⟨#HIwR, #HIs, #HIr, #HIo, #Hrs, #Hrr, #Hro, Hts, Htr, Hto, HcwR, HatR, HO, #Hlev, Hdst, Hlent, Hown, H7, Hd⟩
  unfold heldW
  -- the neighbour's rows of all-gather step 0 have arrived
  iapply (wp_wait_xfer V c (.agR 1 0) (by decide) 28 (agR_sem_eq 1 0 _) (k' := (agM1_0 c : Memref sig .tc .vmem S256x384 .bf16).view.dmaCredit) rfl (wpE_waitDma2_eq 𝒱₀ (c : Thread nD τ) none Set.univ)
      (mayWait_agR c 1 0 28 (by decide)) κwR W) $$ [HcwR HO HatR]
  · isplitr; · iexact HIwR
    isplitl [HcwR]; · iexact HcwR
    isplitl [HO]; · iexact HO
    isplitr; · iexact Hlev
    iexact HatR
  iintro ⟨HO, HatR, HqR⟩
  ihave HpR := (Entails.of_eq (show pay V c (.agR 1 0) 0 = ptsIs c (agM1_0 (nbr 0 c)) (V.ag1_0 (nbr 0 c)) from rfl)) $$ HqR
  unfold ptsIs ptsLent ptsAny
  icases HpR with ⟨%fa, Hfa, %hfa⟩
  icases Hlent with ⟨%g1', Hlent⟩
  icases Hdst with ⟨%fdn, Hdst⟩
  -- the kept right half and the lent left half of the own rows agree, so they make the full share again
  ihave Hag := (persistent_entails_right pointsTo_agree) $$ [Hlent Hown]
  · isplitl [Hlent]; · iexact Hlent
    iexact Hown
  icases Hag with ⟨%hag, Hlent, Hown⟩
  ihave Hlent' := (Entails.of_eq (pointsTo_congr (f := g1') (g := g1) fun i hi => (hag i (Finset.mem_inter.mpr ⟨hi, hi⟩)).1)) $$ Hlent
  ihave Hfull := (pointsTo_share (PosShare.mem_left_op_right fullShare)).2 $$ [Hlent' Hown]
  · isplitl [Hlent']; · iexact Hlent'
    iexact Hown
  -- the own rows and the arrived rows are the rows of the next step
  ihave Hj := (pointsTo_join (ℓ := (Memref.whole cc0_scratch14 : Memref sig .tc .vmem S2048x384 .bf16).view.loc (c : Thread nD τ)) (q := fullShare) (f := g1) (g := fa) (ag_disj0_1 c)) $$ [Hfull Hfa]
  · isplitl [Hfull]; · iexact Hfull
    iexact Hfa
  ihave Hj2 := (Entails.of_eq (pts_set_eq (F := F) (ag_join0_1 c).symm)) $$ Hj
  ihave Hh := (pointsTo_share (PosShare.mem_left_op_right fullShare)).1 $$ Hj2
  icases Hh with ⟨HjL, HjR⟩
  have hp2 : ((agM1_1 c).view.loc (nbr 2 c : Thread nD τ) ↦[(agM1_1 c).view.set]{fullShare}
      ((agM1_1 c).view.write (Elt F) fdn ((agM1_1 c).view.read (Elt F) ((agM1_0 (nbr 0 c)).view.set.piecewise fa g1)) Finset.univ) : sProp 𝕄)
      ⊢ pay V (nbr 2 c) (.agR 1 1) 0 := by
    have e : pay V (nbr 2 c) (.agR 1 1) 0 = ptsIs (nbr 2 c) (agM1_1 c) (V.ag1_1 c) := by
      show ptsIs (nbr 2 c) (agM1_1 (nbr 2 (nbr 2 c))) (V.ag1_1 (nbr 2 (nbr 2 c))) = _
      rw [nbr_nbr]
    rw [e]
    exact ptsIs_intro (nbr 2 c) (agM1_1 c) _ _ (by rw [View.read_write_univ]; exact hVag fa hfa)
  iapply (wp_send_to V c ⟨k0_dev29 c, k0_dev29_lt c⟩ 2 (dev29_eq c) (.agS 1 1) (.agR 1 1) (by decide) (by decide) 28 (by decide) (paid_ag c 1 1) rfl
      (src := agM1_1 c) (dst := agM1_1 c) (agS_sem_eq 1 1 _) (agR_sem_eq 1 1 _) rfl fdn κs κr _
      (ptsLent_intro c (agM1_1 c) _) hp2) $$ [HjL Hdst HO Hts Htr]
  · isplitr; · iexact HIs
    isplitr; · iexact HIr
    isplitl [HjL]; · iexact HjL
    isplitl [Hdst]; · iexact Hdst
    isplitl [HO]; · iexact HO
    isplitl [Hts]; · iexact Hts
    isplitr; · iexact Hrs
    isplitl [Htr]; · iexact Htr
    iexact Hrr
  iintro ⟨Hcs, HO⟩
  have h83 : ((Memref.whole cc0_scratch14 : Memref sig .tc .vmem S2048x384 .bf16).access (Rect.unit (s := S2048x384) (k0_off83 c) ![256, 384] (k0_off83_inb c))).set ⊆ (agM1_1 c).view.set := by
    refine (le_of_eq (View.set_slice_whole _ _)).trans ?_
    piece_dev c unit_subset [off83_eq, off82_eq]
  have h84 : ((Memref.whole cc0_scratch0 : Memref sig .tc .vmem S2048x2048 .f32).access (Rect.unit (s := S2048x2048) (k0_off84 c) ![256, 384] (k0_off84_inb c))).set ⊆ (outSrcM7 c).view.set :=
    le_of_eq ((View.set_slice_whole _ _).trans ((unit_set_congr ((off84_eq c).trans (off85_eq c).symm) rfl).trans (View.set_slice_whole _ _).symm))
  have h84' : ((Memref.whole cc0_scratch0 : Memref sig .tc .vmem S2048x2048 .f32).access (Rect.unit (s := S2048x2048) (k0_off84 c) ![256, 384] (k0_off84_inb c))).setOn Finset.univ ⊆ (outSrcM7 c).view.set := h84
  ihave HjR := (Entails.of_eq (show ((Memref.whole cc0_scratch14 : Memref sig .tc .vmem S2048x384 .bf16).view.loc (c : Thread nD τ) ↦[(agM1_1 c).view.set]{fullShare.right} ((agM1_0 (nbr 0 c)).view.set.piecewise fa g1) : sProp 𝕄)
      = ((agM1_1 c).view.loc (c : Thread nD τ) ↦[(agM1_1 c).view.set]{fullShare.right} ((agM1_0 (nbr 0 c)).view.set.piecewise fa g1)) from rfl)) $$ HjR
  sl_exec
  -- the rows that arrived, widened, are a finished block of the accumulator: it goes to the result array
  iapply (wp_copy_own V c (.out 7) (by decide) (src := outSrcM7 c) (dst := outDstM7 c) (out_sem_eq 7 _) rfl fd κo
      (by
        show _ ⊢ iprop(ptsIs c (outDstM7 c) (V.out7 c) ∗ ptsAny (F := F) c (outSrcM7 c))
        exact BIClass.sep_mono (ptsIs_intro c (outDstM7 c) _ _ (by rw [View.read_write_univ]; exact hVout fa hfa)) (ptsAny_intro c (outSrcM7 c) _))) $$ [H7 Hd Hto]
  · isplitr; · iexact HIo
    isplitl [H7]; · iexact H7
    isplitl [Hd]; · iexact Hd
    isplitl [Hto]; · iexact Hto
    iexact Hro
  iintro Hco
  sl_step
  iexists fa
  isplitr; · ipureintro; rfl
  isplitr; · ipureintro; exact hfa
  isplitl [HO]; · iexact HO
  isplitl [HatR]; · iexact HatR
  isplitl [Hcs]; · iexact Hcs
  isplitl [Hco]; · iexact Hco
  iexact HjR

end Cert.Kernel.Proto

end
-- ==== Proof.Body43Bits.lean ====
/-
All-gather step 1 of group 2: its first transfer is over and the neighbour's rows of step 0 have arrived; with the device's own
rows they are the rows of step 1, sent to the neighbour across axis 0 (the left half share lent again). The arrived rows and the
accumulator rows they will overwrite are loaded.
-/
import proofs.«900882_g7700000000000883_dist_matmul_gelu_kshard_i_m2048_n2048_k1024_v7x_i8_f32_1_alg».proof.Proof.RulesBits
import proofs.«900882_g7700000000000883_dist_matmul_gelu_kshard_i_m2048_n2048_k1024_v7x_i8_f32_1_alg».proof.Proof.TopoBitsTab
import proofs.«900882_g7700000000000883_dist_matmul_gelu_kshard_i_m2048_n2048_k1024_v7x_i8_f32_1_alg».proof.Proof.PiecesTabBits
import proofs.«900882_g7700000000000883_dist_matmul_gelu_kshard_i_m2048_n2048_k1024_v7x_i8_f32_1_alg».proof.Proof.PiecesOutTabBits
import proofs.«900882_g7700000000000883_dist_matmul_gelu_kshard_i_m2048_n2048_k1024_v7x_i8_f32_1_alg».proof.Proof.Gen.Kernel.Skeleton
import Idealize.ShloMosaic.Lib.Pipeline.Value

set_option maxRecDepth 16384

noncomputable section

namespace Cert.Kernel.Proto

open Cert.Kernel Cert.Kernel.Gen Cert.Kernel.Topo
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : Vals F)

set_option maxRecDepth 65536 in
set_option maxHeartbeats 4000000 in
theorem part43_run (c : Dev nD) (κwS κwR κs κr : ℕ) (W : Waits sig Unit) (v2 v6 v1212 v1222 v1225 : BitVec 32)
    (g2 : Buf (Elt F) ((agM2_0 c).view.loc (c : Thread nD τ)))
    (f8 : Buf (Elt F) ((outSrcM8 c).view.loc (c : Thread nD τ)))
    (hVag : ∀ fa : Buf (Elt F) ((agM2_0 (nbr 1 c)).view.loc (c : Thread nD τ)), V.ag2_0 (nbr 1 c) ((agM2_0 (nbr 1 c)).view.read (Elt F) fa) →
      V.ag2_1 c ((agM2_1 c).view.read (Elt F) ((agM2_0 (nbr 1 c)).view.set.piecewise fa g2))) :
    iprop(cellInv ER (sched V) κwS (cell c (.agS 2 0)) ∗ cellInv ER (sched V) κwR (cell c (.agR 2 0))
        ∗ cellInv ER (sched V) κs (cell c (.agS 2 1)) ∗ cellInv ER (sched V) κr (cell (nbr 0 c) (.agR 2 1))
        ∗ reached ER (cell c (.agS 2 1)) 0 ∗ reached ER (cell (nbr 0 c) (.agR 2 1)) 0
        ∗ dutyTok ER (cell c (.agS 2 1)) 0 (0 : Fin 3) ∗ dutyTok ER (cell (nbr 0 c) (.agR 2 1)) 0 (0 : Fin 3)
        ∗ cred (tallyAt (cell c (.agS 2 0)) () (amt (.agR 2 0))) ∗ atPos ER (cell c (.agS 2 0)) 0 ∅ 0
        ∗ cred (tallyAt (cell c (.agR 2 0)) () (amt (.agR 2 0))) ∗ atPos ER (cell c (.agR 2 0)) 0 ∅ 0
        ∗ owes (c : Thread nD τ) (Owe c 29) W ∗ levAts L lv
        ∗ ptsAny (F := F) (nbr 0 c) (agM2_1 c)
        ∗ ((agM2_0 c).view.loc (c : Thread nD τ) ↦[(agM2_0 c).view.set]{fullShare.right} g2)
        ∗ heldW c (outSrcM8 c) f8)
      ⊢ wp frame (wpE (defs₀ (F := F)) 𝒱₀ c none) Set.univ
          (k0_part43 (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23 c v2 v6 v1212 v1222 v1225)
          (fun r => iprop(∃ fa : Buf (Elt F) ((agM2_0 (nbr 1 c)).view.loc (c : Thread nD τ)),
            ⌜r = ⟨Scalar.xori v2 1#32, Scalar.subi v1222 (Scalar.muli v6 512#32), Scalar.addi (Scalar.subi v1222 (Scalar.muli v6 512#32)) (Scalar.muli (Scalar.subi 1#32 v6) 512#32),
                k0_pay89 (View.readAt (Elt F) (Memref.whole cc0_scratch15 : Memref sig .tc .vmem S2048x384 .bf16).view (Rect.unit (s := S2048x384) (k0_off87 c) S256x384.size (k0_off87_inb c)).toLoadRect ((agM2_0 (nbr 1 c)).view.set.piecewise fa g2)),
                View.readAt (Elt F) (Memref.whole cc0_scratch0 : Memref sig .tc .vmem S2048x2048 .f32).view (Rect.unit (s := S2048x2048) (k0_off88 c) S256x384.size (k0_off88_inb c)).toLoadRect f8⟩⌝
            ∗ ⌜V.ag2_0 (nbr 1 c) ((agM2_0 (nbr 1 c)).view.read (Elt F) fa)⌝
            ∗ owes (c : Thread nD τ) (Owe c 30) (insert ((CK.agR 2 0).sem, ()) (insert ((CK.agS 2 0).sem, ()) W))
            ∗ atPos ER (cell c (.agS 2 0)) 1 ∅ 0 ∗ atPos ER (cell c (.agR 2 0)) 1 ∅ 0
            ∗ cred (tallyAt (cell c (.agS 2 1)) () (amt (.agR 2 1)))
            ∗ ((agM2_1 c).view.loc (c : Thread nD τ) ↦[(agM2_1 c).view.set]{fullShare.right} ((agM2_0 (nbr 1 c)).view.set.piecewise fa g2))
            ∗ heldW c (outSrcM8 c) f8)) := by
  simp only [k0_part43_eq_skeleton]; unfold k0_part43_skel
  simp only [Prog.lift, Prog.bind_op, Prog.bind_ret, Prog.pure_eq_ret]
  iintro ⟨#HIwS, #HIwR, #HIs, #HIr, #Hrs, #Hrr, Hts, Htr, HcwS, HatS, HcwR, HatR, HO, #Hlev, Hdst, Hown, H8⟩
  unfold heldW
  -- group 2's first all-gather transfer is over: the lent half share of its own rows comes back
  ihave HcwS := (Entails.of_eq (show cred (tallyAt (cell c (.agS 2 0)) () (amt (.agR 2 0))) = cred (tallyAt (cell c (.agS 2 0)) () (amt (.agS 2 0))) from rfl)) $$ HcwS
  iapply (wp_wait_xfer V c (.agS 2 0) (by decide) 29 (agS_sem_eq 2 0 _) (k' := (agM2_0 c : Memref sig .tc .vmem S256x384 .bf16).view.dmaCredit) rfl (wpE_waitDma2_eq 𝒱₀ (c : Thread nD τ) none Set.univ)
      (mayWait_own c (.agS 2 0) (lv_cell c (.agS 2 0)) 29) κwS W) $$ [HcwS HO HatS]
  · isplitr; · iexact HIwS
    isplitl [HcwS]; · iexact HcwS
    isplitl [HO]; · iexact HO
    isplitr; · iexact Hlev
    iexact HatS
  iintro ⟨HO, HatS, HqS⟩
  ihave HpS := (Entails.of_eq (show pay V c (.agS 2 0) 0 = ptsLent (F := F) c (agM2_0 c) from rfl)) $$ HqS
  -- and the neighbour's rows of all-gather step 0 have arrived
  iapply (wp_wait_xfer V c (.agR 2 0) (by decide) 29 (agR_sem_eq 2 0 _) (k' := (agM2_0 c : Memref sig .tc .vmem S256x384 .bf16).view.dmaCredit) rfl (wpE_waitDma2_eq 𝒱₀ (c : Thread nD τ) none Set.univ)
      (mayWait_agR c 2 0 29 (by decide)) κwR _) $$ [HcwR HO HatR]
  · isplitr; · iexact HIwR
    isplitl [HcwR]; · iexact HcwR
    isplitl [HO]; · iexact HO
    isplitr; · iexact Hlev
    iexact HatR
  iintro ⟨HO, HatR, HqR⟩
  ihave HpR := (Entails.of_eq (show pay V c (.agR 2 0) 0 = ptsIs c (agM2_0 (nbr 1 c)) (V.ag2_0 (nbr 1 c)) from rfl)) $$ HqR
  unfold ptsIs ptsLent ptsAny
  icases HpR with ⟨%fa, Hfa, %hfa⟩
  icases HpS with ⟨%g2', Hlent⟩
  icases Hdst with ⟨%fdn, Hdst⟩
  -- the kept right half and the lent left half of the own rows agree, so they make the full share again
  ihave Hag := (persistent_entails_right pointsTo_agree) $$ [Hlent Hown]
  · isplitl [Hlent]; · iexact Hlent
    iexact Hown
  icases Hag with ⟨%hag, Hlent, Hown⟩
  ihave Hlent' := (Entails.of_eq (pointsTo_congr (f := g2') (g := g2) fun i hi => (hag i (Finset.mem_inter.mpr ⟨hi, hi⟩)).1)) $$ Hlent
  ihave Hfull := (pointsTo_share (PosShare.mem_left_op_right fullShare)).2 $$ [Hlent' Hown]
  · isplitl [Hlent']; · iexact Hlent'
    iexact Hown
  -- the own rows and the arrived rows are the rows of the next step
  ihave Hj := (pointsTo_join (ℓ := (Memref.whole cc0_scratch15 : Memref sig .tc .vmem S2048x384 .bf16).view.loc (c : Thread nD τ)) (q := fullShare) (f := g2) (g := fa) (ag_disj0_2 c)) $$ [Hfull Hfa]
  · isplitl [Hfull]; · iexact Hfull
    iexact Hfa
  ihave Hj2 := (Entails.of_eq (pts_set_eq (F := F) (ag_join0_2 c).symm)) $$ Hj
  ihave Hh := (pointsTo_share (PosShare.mem_left_op_right fullShare)).1 $$ Hj2
  icases Hh with ⟨HjL, HjR⟩
  have hp2 : ((agM2_1 c).view.loc (nbr 0 c : Thread nD τ) ↦[(agM2_1 c).view.set]{fullShare}
      ((agM2_1 c).view.write (Elt F) fdn ((agM2_1 c).view.read (Elt F) ((agM2_0 (nbr 1 c)).view.set.piecewise fa g2)) Finset.univ) : sProp 𝕄)
      ⊢ pay V (nbr 0 c) (.agR 2 1) 0 := by
    have e : pay V (nbr 0 c) (.agR 2 1) 0 = ptsIs (nbr 0 c) (agM2_1 c) (V.ag2_1 c) := by
      show ptsIs (nbr 0 c) (agM2_1 (nbr 0 (nbr 0 c))) (V.ag2_1 (nbr 0 (nbr 0 c))) = _
      rw [nbr_nbr]
    rw [e]
    exact ptsIs_intro (nbr 0 c) (agM2_1 c) _ _ (by rw [View.read_write_univ]; exact hVag fa hfa)
  iapply (wp_send_to V c ⟨k0_dev30 c, k0_dev30_lt c⟩ 0 (dev30_eq c) (.agS 2 1) (.agR 2 1) (by decide) (by decide) 29 (by decide) (paid_ag c 2 1) rfl
      (src := agM2_1 c) (dst := agM2_1 c) (agS_sem_eq 2 1 _) (agR_sem_eq 2 1 _) rfl fdn κs κr _
      (ptsLent_intro c (agM2_1 c) _) hp2) $$ [HjL Hdst HO Hts Htr]
  · isplitr; · iexact HIs
    isplitr; · iexact HIr
    isplitl [HjL]; · iexact HjL
    isplitl [Hdst]; · iexact Hdst
    isplitl [HO]; · iexact HO
    isplitl [Hts]; · iexact Hts
    isplitr; · iexact Hrs
    isplitl [Htr]; · iexact Htr
    iexact Hrr
  iintro ⟨Hcs, HO⟩
  have h87 : ((Memref.whole cc0_scratch15 : Memref sig .tc .vmem S2048x384 .bf16).access (Rect.unit (s := S2048x384) (k0_off87 c) ![256, 384] (k0_off87_inb c))).set ⊆ (agM2_1 c).view.set := by
    refine (le_of_eq (View.set_slice_whole _ _)).trans ?_
    piece_dev c unit_subset [off87_eq, off86_eq]
  have h88 : ((Memref.whole cc0_scratch0 : Memref sig .tc .vmem S2048x2048 .f32).access (Rect.unit (s := S2048x2048) (k0_off88 c) ![256, 384] (k0_off88_inb c))).set ⊆ (outSrcM8 c).view.set :=
    le_of_eq ((View.set_slice_whole _ _).trans ((unit_set_congr ((off88_eq c).trans (off89_eq c).symm) rfl).trans (View.set_slice_whole _ _).symm))
  ihave HjR := (Entails.of_eq (show ((Memref.whole cc0_scratch15 : Memref sig .tc .vmem S2048x384 .bf16).view.loc (c : Thread nD τ) ↦[(agM2_1 c).view.set]{fullShare.right} ((agM2_0 (nbr 1 c)).view.set.piecewise fa g2) : sProp 𝕄)
      = ((agM2_1 c).view.loc (c : Thread nD τ) ↦[(agM2_1 c).view.set]{fullShare.right} ((agM2_0 (nbr 1 c)).view.set.piecewise fa g2)) from rfl)) $$ HjR
  sl_exec
  sl_step
  iexists fa
  isplitr; · ipureintro; rfl
  isplitr; · ipureintro; exact hfa
  isplitl [HO]; · iexact HO
  isplitl [HatS]; · iexact HatS
  isplitl [HatR]; · iexact HatR
  isplitl [Hcs]; · iexact Hcs
  isplitl [HjR]; · iexact HjR
  iexact H8

end Cert.Kernel.Proto

end
-- ==== Proof.Body44Bits.lean ====
/-
The rows of group 2 that arrived at all-gather step 0, widened, are stored into the accumulator and that finished block copied to
the result array. Then all-gather step 1 of group 3: its first transfer is over and the neighbour's rows of step 0 have arrived;
with the device's own rows they are the rows of step 1, sent to the neighbour across axis 1 (the left half share lent again).
-/
import proofs.«900882_g7700000000000883_dist_matmul_gelu_kshard_i_m2048_n2048_k1024_v7x_i8_f32_1_alg».proof.Proof.RulesBits
import proofs.«900882_g7700000000000883_dist_matmul_gelu_kshard_i_m2048_n2048_k1024_v7x_i8_f32_1_alg».proof.Proof.TopoBitsTab
import proofs.«900882_g7700000000000883_dist_matmul_gelu_kshard_i_m2048_n2048_k1024_v7x_i8_f32_1_alg».proof.Proof.PiecesTabBits
import proofs.«900882_g7700000000000883_dist_matmul_gelu_kshard_i_m2048_n2048_k1024_v7x_i8_f32_1_alg».proof.Proof.PiecesOutTabBits
import proofs.«900882_g7700000000000883_dist_matmul_gelu_kshard_i_m2048_n2048_k1024_v7x_i8_f32_1_alg».proof.Proof.Gen.Kernel.Skeleton
import Idealize.ShloMosaic.Lib.Pipeline.Value

set_option maxRecDepth 16384

noncomputable section

namespace Cert.Kernel.Proto

open Cert.Kernel Cert.Kernel.Gen Cert.Kernel.Topo
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : Vals F)

set_option maxRecDepth 65536 in
set_option maxHeartbeats 4000000 in
theorem part44_run (c : Dev nD) (κo κwS κwR κs κr : ℕ) (W : Waits sig Unit) (v2 v8 v1226 v1236 : BitVec 32) (v1364 : FVec F S256x384 .f32) (v1366 : Vec F S256x384 .f32)
    (g3 : Buf (Elt F) ((agM3_0 c).view.loc (c : Thread nD τ)))
    (f8 : Buf (Elt F) ((outSrcM8 c).view.loc (c : Thread nD τ))) (fd : Buf (Elt F) ((outDstM8 c).view.loc (c : Thread nD τ)))
    (hVout : V.out8 c ((outSrcM8 c).view.read (Elt F) (((Memref.whole cc0_scratch0 : Memref sig .tc .vmem S2048x2048 .f32).access (Rect.unit (s := S2048x2048) (k0_off88 c) S256x384.size (k0_off88_inb c))).write (Elt F) f8 (k0_pay90 v1364) Finset.univ)))
    (hVag : ∀ fa : Buf (Elt F) ((agM3_0 (nbr 2 c)).view.loc (c : Thread nD τ)), V.ag3_0 (nbr 2 c) ((agM3_0 (nbr 2 c)).view.read (Elt F) fa) →
      V.ag3_1 c ((agM3_1 c).view.read (Elt F) ((agM3_0 (nbr 2 c)).view.set.piecewise fa g3))) :
    iprop(cellInv ER (sched V) κo (cell c (.out 8)) ∗ cellInv ER (sched V) κwS (cell c (.agS 3 0)) ∗ cellInv ER (sched V) κwR (cell c (.agR 3 0))
        ∗ cellInv ER (sched V) κs (cell c (.agS 3 1)) ∗ cellInv ER (sched V) κr (cell (nbr 1 c) (.agR 3 1))
        ∗ reached ER (cell c (.out 8)) 0 ∗ reached ER (cell c (.agS 3 1)) 0 ∗ reached ER (cell (nbr 1 c) (.agR 3 1)) 0
        ∗ dutyTok ER (cell c (.out 8)) 0 (0 : Fin 3) ∗ dutyTok ER (cell c (.agS 3 1)) 0 (0 : Fin 3) ∗ dutyTok ER (cell (nbr 1 c) (.agR 3 1)) 0 (0 : Fin 3)
        ∗ cred (tallyAt (cell c (.agS 3 0)) () (amt (.agR 3 0))) ∗ atPos ER (cell c (.agS 3 0)) 0 ∅ 0
        ∗ cred (tallyAt (cell c (.agR 3 0)) () (amt (.agR 3 0))) ∗ atPos ER (cell c (.agR 3 0)) 0 ∅ 0
        ∗ owes (c : Thread nD τ) (Owe c 30) W ∗ levAts L lv
        ∗ ptsAny (F := F) (nbr 1 c) (agM3_1 c)
        ∗ ((agM3_0 c).view.loc (c : Thread nD τ) ↦[(agM3_0 c).view.set]{fullShare.right} g3)
        ∗ heldW c (outSrcM8 c) f8 ∗ heldW c (outDstM8 c) fd)
      ⊢ wp frame (wpE (defs₀ (F := F)) 𝒱₀ c none) Set.univ
          (k0_part44 (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23 c v2 v8 v1226 v1236 v1364 v1366)
          (fun r => iprop(∃ fa : Buf (Elt F) ((agM3_0 (nbr 2 c)).view.loc (c : Thread nD τ)),
            ⌜r = ⟨Scalar.xori v2 3#32, Scalar.subi v1236 (Scalar.muli v8 512#32)⟩⌝
            ∗ ⌜V.ag3_0 (nbr 2 c) ((agM3_0 (nbr 2 c)).view.read (Elt F) fa)⌝
            ∗ cred (tallyAt (cell c (.out 8)) () (amt (.out 8)))
            ∗ owes (c : Thread nD τ) (Owe c 31) (insert ((CK.agR 3 0).sem, ()) (insert ((CK.agS 3 0).sem, ()) W))
            ∗ atPos ER (cell c (.agS 3 0)) 1 ∅ 0 ∗ atPos ER (cell c (.agR 3 0)) 1 ∅ 0
            ∗ cred (tallyAt (cell c (.agS 3 1)) () (amt (.agR 3 1)))
            ∗ ((agM3_1 c).view.loc (c : Thread nD τ) ↦[(agM3_1 c).view.set]{fullShare.right} ((agM3_0 (nbr 2 c)).view.set.piecewise fa g3)))) := by
  simp only [k0_part44_eq_skeleton]; unfold k0_part44_skel
  simp only [Prog.lift, Prog.bind_op, Prog.bind_ret, Prog.pure_eq_ret]
  iintro ⟨#HIo, #HIwS, #HIwR, #HIs, #HIr, #Hro, #Hrs, #Hrr, Hto, Hts, Htr, HcwS, HatS, HcwR, HatR, HO, #Hlev, Hdst, Hown, H8, Hd⟩
  unfold heldW
  have h88 : ((Memref.whole cc0_scratch0 : Memref sig .tc .vmem S2048x2048 .f32).access (Rect.unit (s := S2048x2048) (k0_off88 c) ![256, 384] (k0_off88_inb c))).set ⊆ (outSrcM8 c).view.set :=
    le_of_eq ((View.set_slice_whole _ _).trans ((unit_set_congr ((off88_eq c).trans (off89_eq c).symm) rfl).trans (View.set_slice_whole _ _).symm))
  have h88' : ((Memref.whole cc0_scratch0 : Memref sig .tc .vmem S2048x2048 .f32).access (Rect.unit (s := S2048x2048) (k0_off88 c) ![256, 384] (k0_off88_inb c))).setOn Finset.univ ⊆ (outSrcM8 c).view.set := h88
  sl_exec
  -- the rows that arrived at step 0 of group 2, widened, are a finished block of the accumulator: it goes to the result array
  iapply (wp_copy_own V c (.out 8) (by decide) (src := outSrcM8 c) (dst := outDstM8 c) (out_sem_eq 8 _) rfl fd κo
      (by
        show _ ⊢ iprop(ptsIs c (outDstM8 c) (V.out8 c) ∗ ptsAny (F := F) c (outSrcM8 c))
        exact BIClass.sep_mono (ptsIs_intro c (outDstM8 c) _ _ (by rw [View.read_write_univ]; exact hVout)) (ptsAny_intro c (outSrcM8 c) _))) $$ [H8 Hd Hto]
  · isplitr; · iexact HIo
    isplitl [H8]; · iexact H8
    isplitl [Hd]; · iexact Hd
    isplitl [Hto]; · iexact Hto
    iexact Hro
  iintro Hco
  -- group 3's first all-gather transfer is over: the lent half share of its own rows comes back
  ihave HcwS := (Entails.of_eq (show cred (tallyAt (cell c (.agS 3 0)) () (amt (.agR 3 0))) = cred (tallyAt (cell c (.agS 3 0)) () (amt (.agS 3 0))) from rfl)) $$ HcwS
  iapply (wp_wait_xfer V c (.agS 3 0) (by decide) 30 (agS_sem_eq 3 0 _) (k' := (agM3_0 c : Memref sig .tc .vmem S256x384 .bf16).view.dmaCredit) rfl (wpE_waitDma2_eq 𝒱₀ (c : Thread nD τ) none Set.univ)
      (mayWait_own c (.agS 3 0) (lv_cell c (.agS 3 0)) 30) κwS W) $$ [HcwS HO HatS]
  · isplitr; · iexact HIwS
    isplitl [HcwS]; · iexact HcwS
    isplitl [HO]; · iexact HO
    isplitr; · iexact Hlev
    iexact HatS
  iintro ⟨HO, HatS, HqS⟩
  ihave HpS := (Entails.of_eq (show pay V c (.agS 3 0) 0 = ptsLent (F := F) c (agM3_0 c) from rfl)) $$ HqS
  -- and the neighbour's rows of all-gather step 0 have arrived
  iapply (wp_wait_xfer V c (.agR 3 0) (by decide) 30 (agR_sem_eq 3 0 _) (k' := (agM3_0 c : Memref sig .tc .vmem S256x384 .bf16).view.dmaCredit) rfl (wpE_waitDma2_eq 𝒱₀ (c : Thread nD τ) none Set.univ)
      (mayWait_agR c 3 0 30 (by decide)) κwR _) $$ [HcwR HO HatR]
  · isplitr; · iexact HIwR
    isplitl [HcwR]; · iexact HcwR
    isplitl [HO]; · iexact HO
    isplitr; · iexact Hlev
    iexact HatR
  iintro ⟨HO, HatR, HqR⟩
  ihave HpR := (Entails.of_eq (show pay V c (.agR 3 0) 0 = ptsIs c (agM3_0 (nbr 2 c)) (V.ag3_0 (nbr 2 c)) from rfl)) $$ HqR
  unfold ptsIs ptsLent ptsAny
  icases HpR with ⟨%fa, Hfa, %hfa⟩
  icases HpS with ⟨%g3', Hlent⟩
  icases Hdst with ⟨%fdn, Hdst⟩
  -- the kept right half and the lent left half of the own rows agree, so they make the full share again
  ihave Hag := (persistent_entails_right pointsTo_agree) $$ [Hlent Hown]
  · isplitl [Hlent]; · iexact Hlent
    iexact Hown
  icases Hag with ⟨%hag, Hlent, Hown⟩
  ihave Hlent' := (Entails.of_eq (pointsTo_congr (f := g3') (g := g3) fun i hi => (hag i (Finset.mem_inter.mpr ⟨hi, hi⟩)).1)) $$ Hlent
  ihave Hfull := (pointsTo_share (PosShare.mem_left_op_right fullShare)).2 $$ [Hlent' Hown]
  · isplitl [Hlent']; · iexact Hlent'
    iexact Hown
  -- the own rows and the arrived rows are the rows of the next step
  ihave Hj := (pointsTo_join (ℓ := (Memref.whole cc0_scratch16 : Memref sig .tc .vmem S2048x384 .bf16).view.loc (c : Thread nD τ)) (q := fullShare) (f := g3) (g := fa) (ag_disj0_3 c)) $$ [Hfull Hfa]
  · isplitl [Hfull]; · iexact Hfull
    iexact Hfa
  ihave Hj2 := (Entails.of_eq (pts_set_eq (F := F) (ag_join0_3 c).symm)) $$ Hj
  ihave Hh := (pointsTo_share (PosShare.mem_left_op_right fullShare)).1 $$ Hj2
  icases Hh with ⟨HjL, HjR⟩
  have hp2 : ((agM3_1 c).view.loc (nbr 1 c : Thread nD τ) ↦[(agM3_1 c).view.set]{fullShare}
      ((agM3_1 c).view.write (Elt F) fdn ((agM3_1 c).view.read (Elt F) ((agM3_0 (nbr 2 c)).view.set.piecewise fa g3)) Finset.univ) : sProp 𝕄)
      ⊢ pay V (nbr 1 c) (.agR 3 1) 0 := by
    have e : pay V (nbr 1 c) (.agR 3 1) 0 = ptsIs (nbr 1 c) (agM3_1 c) (V.ag3_1 c) := by
      show ptsIs (nbr 1 c) (agM3_1 (nbr 1 (nbr 1 c))) (V.ag3_1 (nbr 1 (nbr 1 c))) = _
      rw [nbr_nbr]
    rw [e]
    exact ptsIs_intro (nbr 1 c) (agM3_1 c) _ _ (by rw [View.read_write_univ]; exact hVag fa hfa)
  iapply (wp_send_to V c ⟨k0_dev31 c, k0_dev31_lt c⟩ 1 (dev31_eq c) (.agS 3 1) (.agR 3 1) (by decide) (by decide) 30 (by decide) (paid_ag c 3 1) rfl
      (src := agM3_1 c) (dst := agM3_1 c) (agS_sem_eq 3 1 _) (agR_sem_eq 3 1 _) rfl fdn κs κr _
      (ptsLent_intro c (agM3_1 c) _) hp2) $$ [HjL Hdst HO Hts Htr]
  · isplitr; · iexact HIs
    isplitr; · iexact HIr
    isplitl [HjL]; · iexact HjL
    isplitl [Hdst]; · iexact Hdst
    isplitl [HO]; · iexact HO
    isplitl [Hts]; · iexact Hts
    isplitr; · iexact Hrs
    isplitl [Htr]; · iexact Htr
    iexact Hrr
  iintro ⟨Hcs, HO⟩
  ihave HjR := (Entails.of_eq (show ((Memref.whole cc0_scratch16 : Memref sig .tc .vmem S2048x384 .bf16).view.loc (c : Thread nD τ) ↦[(agM3_1 c).view.set]{fullShare.right} ((agM3_0 (nbr 2 c)).view.set.piecewise fa g3) : sProp 𝕄)
      = ((agM3_1 c).view.loc (c : Thread nD τ) ↦[(agM3_1 c).view.set]{fullShare.right} ((agM3_0 (nbr 2 c)).view.set.piecewise fa g3)) from rfl)) $$ HjR
  sl_step
  iexists fa
  isplitr; · ipureintro; rfl
  isplitr; · ipureintro; exact hfa
  isplitl [Hco]; · iexact Hco
  isplitl [HO]; · iexact HO
  isplitl [HatS]; · iexact HatS
  isplitl [HatR]; · iexact HatR
  isplitl [Hcs]; · iexact Hcs
  iexact HjR

end Cert.Kernel.Proto

end
-- ==== Proof.Body45Bits.lean ====
/-
The rows of group 3 that arrived at all-gather step 0, widened, are stored into the accumulator and that finished block copied to
the result array; then the waits of group 4's all-gather step 0: its first transfer is over (the lent half share of its own rows
comes back) and the neighbour's rows have arrived.
-/
import proofs.«900882_g7700000000000883_dist_matmul_gelu_kshard_i_m2048_n2048_k1024_v7x_i8_f32_1_alg».proof.Proof.RulesBits
import proofs.«900882_g7700000000000883_dist_matmul_gelu_kshard_i_m2048_n2048_k1024_v7x_i8_f32_1_alg».proof.Proof.TopoBitsTab
import proofs.«900882_g7700000000000883_dist_matmul_gelu_kshard_i_m2048_n2048_k1024_v7x_i8_f32_1_alg».proof.Proof.PiecesTabBits
import proofs.«900882_g7700000000000883_dist_matmul_gelu_kshard_i_m2048_n2048_k1024_v7x_i8_f32_1_alg».proof.Proof.PiecesOutTabBits
import proofs.«900882_g7700000000000883_dist_matmul_gelu_kshard_i_m2048_n2048_k1024_v7x_i8_f32_1_alg».proof.Proof.Gen.Kernel.Skeleton
import Idealize.ShloMosaic.Lib.Pipeline.Value

set_option maxRecDepth 16384

noncomputable section

namespace Cert.Kernel.Proto

open Cert.Kernel Cert.Kernel.Gen Cert.Kernel.Topo
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : Vals F)

/-- The kept right half share of a piece (folded while the program text is normalised). -/
private def heldR (c : Dev nD) {sp : Space} {s : Shape} {e : EltTy} (M : Memref sig .tc sp s e) (f : Buf (Elt F) (M.view.loc (c : Thread nD τ))) : sProp 𝕄 :=
  M.view.loc (c : Thread nD τ) ↦[M.view.set]{fullShare.right} f

set_option maxRecDepth 65536 in
set_option maxHeartbeats 4000000 in
private theorem part45_aux (c : Dev nD) (κo κwS κwR : ℕ) (W : Waits sig Unit) (v2 v8 v1239 v1240 v1393 : BitVec 32)
    (g31 : Buf (Elt F) ((agM3_1 c).view.loc (c : Thread nD τ)))
    (f9 : Buf (Elt F) ((outSrcM9 c).view.loc (c : Thread nD τ))) (fd : Buf (Elt F) ((outDstM9 c).view.loc (c : Thread nD τ)))
    (hVout : V.out9 c ((outSrcM9 c).view.read (Elt F) (((Memref.whole cc0_scratch0 : Memref sig .tc .vmem S2048x2048 .f32).access (Rect.unit (s := S2048x2048) (k0_off90 c) S256x384.size (k0_off90_inb c))).write (Elt F) f9 (k0_pay91 (View.readAt (Elt F) (Memref.whole cc0_scratch16 : Memref sig .tc .vmem S2048x384 .bf16).view (Rect.unit (s := S2048x384) (k0_off79 c) S256x384.size (k0_off79_inb c)).toLoadRect g31)) Finset.univ))) :
    iprop(cellInv ER (sched V) κo (cell c (.out 9)) ∗ cellInv ER (sched V) κwS (cell c (.agS 4 0)) ∗ cellInv ER (sched V) κwR (cell c (.agR 4 0))
        ∗ reached ER (cell c (.out 9)) 0 ∗ dutyTok ER (cell c (.out 9)) 0 (0 : Fin 3)
        ∗ cred (tallyAt (cell c (.agS 4 0)) () (amt (.agR 4 0))) ∗ atPos ER (cell c (.agS 4 0)) 0 ∅ 0
        ∗ cred (tallyAt (cell c (.agR 4 0)) () (amt (.agR 4 0))) ∗ atPos ER (cell c (.agR 4 0)) 0 ∅ 0
        ∗ owes (c : Thread nD τ) (Owe c 31) W ∗ levAts L lv
        ∗ heldR c (agM3_1 c) g31
        ∗ heldW c (outSrcM9 c) f9 ∗ heldW c (outDstM9 c) fd)
      ⊢ wp frame (wpE (defs₀ (F := F)) 𝒱₀ c none) Set.univ
          (k0_part45 (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23 c v2 v8 v1239 v1240 v1393)
          (fun r => iprop(⌜r = ⟨Scalar.addi v1393 (Scalar.muli (Scalar.subi 1#32 v8) 512#32), Scalar.xori v2 4#32⟩⌝
            ∗ cred (tallyAt (cell c (.out 9)) () (amt (.out 9)))
            ∗ owes (c : Thread nD τ) (Owe c 31) (insert ((CK.agR 4 0).sem, ()) (insert ((CK.agS 4 0).sem, ()) W))
            ∗ atPos ER (cell c (.agS 4 0)) 1 ∅ 0 ∗ atPos ER (cell c (.agR 4 0)) 1 ∅ 0
            ∗ ptsLent (F := F) c (agM4_0 c) ∗ ptsIs c (agM4_0 (nbr 0 c)) (V.ag4_0 (nbr 0 c))
            ∗ heldR c (agM3_1 c) g31)) := by
  simp only [k0_part45_eq_skeleton]; unfold k0_part45_skel
  simp only [Prog.lift, Prog.bind_op, Prog.bind_ret, Prog.pure_eq_ret]
  iintro ⟨#HIo, #HIwS, #HIwR, #Hro, Hto, HcwS, HatS, HcwR, HatR, HO, #Hlev, Hr, H9, Hd⟩
  unfold heldW heldR
  have h79 : ((Memref.whole cc0_scratch16 : Memref sig .tc .vmem S2048x384 .bf16).access (Rect.unit (s := S2048x384) (k0_off79 c) ![256, 384] (k0_off79_inb c))).set ⊆ (agM3_1 c).view.set := by
    refine (le_of_eq (View.set_slice_whole _ _)).trans ?_
    piece_dev c unit_subset [off79_eq, off78_eq]
  have h90 : ((Memref.whole cc0_scratch0 : Memref sig .tc .vmem S2048x2048 .f32).access (Rect.unit (s := S2048x2048) (k0_off90 c) ![256, 384] (k0_off90_inb c))).set ⊆ (outSrcM9 c).view.set :=
    le_of_eq ((View.set_slice_whole _ _).trans ((unit_set_congr ((off90_eq c).trans (off91_eq c).symm) rfl).trans (View.set_slice_whole _ _).symm))
  have h90' : ((Memref.whole cc0_scratch0 : Memref sig .tc .vmem S2048x2048 .f32).access (Rect.unit (s := S2048x2048) (k0_off90 c) ![256, 384] (k0_off90_inb c))).setOn Finset.univ ⊆ (outSrcM9 c).view.set := h90
  sl_exec
  -- the rows that arrived at step 0 of group 3, widened, are a finished block of the accumulator: it goes to the result array
  iapply (wp_copy_own V c (.out 9) (by decide) (src := outSrcM9 c) (dst := outDstM9 c) (out_sem_eq 9 _) rfl fd κo
      (by
        show _ ⊢ iprop(ptsIs c (outDstM9 c) (V.out9 c) ∗ ptsAny (F := F) c (outSrcM9 c))
        exact BIClass.sep_mono (ptsIs_intro c (outDstM9 c) _ _ (by rw [View.read_write_univ]; exact hVout)) (ptsAny_intro c (outSrcM9 c) _))) $$ [H9 Hd Hto]
  · isplitr; · iexact HIo
    isplitl [H9]; · iexact H9
    isplitl [Hd]; · iexact Hd
    isplitl [Hto]; · iexact Hto
    iexact Hro
  iintro Hco
  -- group 4's first all-gather transfer is over: the lent half share of its own rows comes back
  ihave HcwS := (Entails.of_eq (show cred (tallyAt (cell c (.agS 4 0)) () (amt (.agR 4 0))) = cred (tallyAt (cell c (.agS 4 0)) () (amt (.agS 4 0))) from rfl)) $$ HcwS
  iapply (wp_wait_xfer V c (.agS 4 0) (by decide) 31 (agS_sem_eq 4 0 _) (k' := (agM4_0 c : Memref sig .tc .vmem S256x256 .bf16).view.dmaCredit) rfl (wpE_waitDma2_eq 𝒱₀ (c : Thread nD τ) none Set.univ)
      (mayWait_own c (.agS 4 0) (lv_cell c (.agS 4 0)) 31) κwS W) $$ [HcwS HO HatS]
  · isplitr; · iexact HIwS
    isplitl [HcwS]; · iexact HcwS
    isplitl [HO]; · iexact HO
    isplitr; · iexact Hlev
    iexact HatS
  iintro ⟨HO, HatS, HqS⟩
  ihave HpS := (Entails.of_eq (show pay V c (.agS 4 0) 0 = ptsLent (F := F) c (agM4_0 c) from rfl)) $$ HqS
  -- and the neighbour's rows of all-gather step 0 have arrived
  iapply (wp_wait_xfer V c (.agR 4 0) (by decide) 31 (agR_sem_eq 4 0 _) (k' := (agM4_0 c : Memref sig .tc .vmem S256x256 .bf16).view.dmaCredit) rfl (wpE_waitDma2_eq 𝒱₀ (c : Thread nD τ) none Set.univ)
      (mayWait_agR c 4 0 31 (by decide)) κwR _) $$ [HcwR HO HatR]
  · isplitr; · iexact HIwR
    isplitl [HcwR]; · iexact HcwR
    isplitl [HO]; · iexact HO
    isplitr; · iexact Hlev
    iexact HatR
  iintro ⟨HO, HatR, HqR⟩
  ihave HpR := (Entails.of_eq (show pay V c (.agR 4 0) 0 = ptsIs c (agM4_0 (nbr 0 c)) (V.ag4_0 (nbr 0 c)) from rfl)) $$ HqR
  sl_step
  isplitr; · ipureintro; rfl
  isplitl [Hco]; · iexact Hco
  isplitl [HO]; · iexact HO
  isplitl [HatS]; · iexact HatS
  isplitl [HatR]; · iexact HatR
  isplitl [HpS]; · iexact HpS
  isplitl [HpR]; · iexact HpR
  iexact Hr

theorem part45_run (c : Dev nD) (κo κwS κwR : ℕ) (W : Waits sig Unit) (v2 v8 v1239 v1240 v1393 : BitVec 32)
    (g31 : Buf (Elt F) ((agM3_1 c).view.loc (c : Thread nD τ)))
    (f9 : Buf (Elt F) ((outSrcM9 c).view.loc (c : Thread nD τ))) (fd : Buf (Elt F) ((outDstM9 c).view.loc (c : Thread nD τ)))
    (hVout : V.out9 c ((outSrcM9 c).view.read (Elt F) (((Memref.whole cc0_scratch0 : Memref sig .tc .vmem S2048x2048 .f32).access (Rect.unit (s := S2048x2048) (k0_off90 c) S256x384.size (k0_off90_inb c))).write (Elt F) f9 (k0_pay91 (View.readAt (Elt F) (Memref.whole cc0_scratch16 : Memref sig .tc .vmem S2048x384 .bf16).view (Rect.unit (s := S2048x384) (k0_off79 c) S256x384.size (k0_off79_inb c)).toLoadRect g31)) Finset.univ))) :
    iprop(cellInv ER (sched V) κo (cell c (.out 9)) ∗ cellInv ER (sched V) κwS (cell c (.agS 4 0)) ∗ cellInv ER (sched V) κwR (cell c (.agR 4 0))
        ∗ reached ER (cell c (.out 9)) 0 ∗ dutyTok ER (cell c (.out 9)) 0 (0 : Fin 3)
        ∗ cred (tallyAt (cell c (.agS 4 0)) () (amt (.agR 4 0))) ∗ atPos ER (cell c (.agS 4 0)) 0 ∅ 0
        ∗ cred (tallyAt (cell c (.agR 4 0)) () (amt (.agR 4 0))) ∗ atPos ER (cell c (.agR 4 0)) 0 ∅ 0
        ∗ owes (c : Thread nD τ) (Owe c 31) W ∗ levAts L lv
        ∗ ((agM3_1 c).view.loc (c : Thread nD τ) ↦[(agM3_1 c).view.set]{fullShare.right} g31)
        ∗ heldW c (outSrcM9 c) f9 ∗ heldW c (outDstM9 c) fd)
      ⊢ wp frame (wpE (defs₀ (F := F)) 𝒱₀ c none) Set.univ
          (k0_part45 (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23 c v2 v8 v1239 v1240 v1393)
          (fun r => iprop(⌜r = ⟨Scalar.addi v1393 (Scalar.muli (Scalar.subi 1#32 v8) 512#32), Scalar.xori v2 4#32⟩⌝
            ∗ cred (tallyAt (cell c (.out 9)) () (amt (.out 9)))
            ∗ owes (c : Thread nD τ) (Owe c 31) (insert ((CK.agR 4 0).sem, ()) (insert ((CK.agS 4 0).sem, ()) W))
            ∗ atPos ER (cell c (.agS 4 0)) 1 ∅ 0 ∗ atPos ER (cell c (.agR 4 0)) 1 ∅ 0
            ∗ ptsLent (F := F) c (agM4_0 c) ∗ ptsIs c (agM4_0 (nbr 0 c)) (V.ag4_0 (nbr 0 c))
            ∗ ((agM3_1 c).view.loc (c : Thread nD τ) ↦[(agM3_1 c).view.set]{fullShare.right} g31))) := by
  have h := part45_aux V c κo κwS κwR W v2 v8 v1239 v1240 v1393 g31 f9 fd hVout
  unfold heldR at h
  exact h

end Cert.Kernel.Proto

end
-- ==== Proof.Body46Bits.lean ====
/-
Stretch 46 of a device's kernel body: all-gather step 1 of group 4 — the device's own rows (whose lent half share is back)
and the neighbour's rows that arrived at step 0 are the rows of step 1, sent to the neighbour across axis 2 (the left half
share lent again); the arrived rows are widened into block 10 of the accumulator and that block copied to the result
array; then the wait for the end of group 5's first all-gather transfer.
-/
import proofs.«900882_g7700000000000883_dist_matmul_gelu_kshard_i_m2048_n2048_k1024_v7x_i8_f32_1_alg».proof.Proof.RulesBits
import proofs.«900882_g7700000000000883_dist_matmul_gelu_kshard_i_m2048_n2048_k1024_v7x_i8_f32_1_alg».proof.Proof.TopoBitsTab
import proofs.«900882_g7700000000000883_dist_matmul_gelu_kshard_i_m2048_n2048_k1024_v7x_i8_f32_1_alg».proof.Proof.PiecesTabBits
import proofs.«900882_g7700000000000883_dist_matmul_gelu_kshard_i_m2048_n2048_k1024_v7x_i8_f32_1_alg».proof.Proof.Gen.Kernel.Skeleton
import proofs.«900882_g7700000000000883_dist_matmul_gelu_kshard_i_m2048_n2048_k1024_v7x_i8_f32_1_alg».proof.Proof.TopoClosedBits
import proofs.«900882_g7700000000000883_dist_matmul_gelu_kshard_i_m2048_n2048_k1024_v7x_i8_f32_1_alg».proof.Proof.PiecesOutSepBits
import Idealize.ShloMosaic.Lib.Pipeline.Value

set_option maxRecDepth 16384

noncomputable section

namespace Cert.Kernel.Proto

open Cert.Kernel Cert.Kernel.Gen Cert.Kernel.Topo
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : Vals F)

set_option maxRecDepth 65536 in
set_option maxHeartbeats 4000000 in
theorem part46_run (c : Dev nD) (κs κr κo κw : ℕ) (W : Waits sig Unit) (v9 v1250 v1253 v1254 : BitVec 32)
    (g0 : Buf (Elt F) ((agM4_0 c : Memref sig .tc .vmem S256x256 .bf16).view.loc (c : Thread nD τ)))
    (fa : Buf (Elt F) ((agM4_0 (nbr 0 c) : Memref sig .tc .vmem S256x256 .bf16).view.loc (c : Thread nD τ)))
    (fo : Buf (Elt F) ((outSrcM10 c : Memref sig .tc .vmem S256x256 .f32).view.loc (c : Thread nD τ))) (fd : Buf (Elt F) ((outDstM10 c : Memref sig .tc .hbm S256x256 .f32).view.loc (c : Thread nD τ)))
    (hVag : V.ag4_1 c ((agM4_1 c : Memref sig .tc .vmem S512x256 .bf16).view.read (Elt F) ((agM4_0 (nbr 0 c) : Memref sig .tc .vmem S256x256 .bf16).view.set.piecewise fa g0)))
    (hVout : V.out10 c ((outSrcM10 c : Memref sig .tc .vmem S256x256 .f32).view.read (Elt F) (View.write (Elt F) ((Memref.whole cc0_scratch0 : Memref sig .tc .vmem S2048x2048 .f32).access (Rect.unit (s := S2048x2048) (k0_off94 c) ![256, 256] (k0_off94_inb c))) fo (k0_pay92 (View.readAt (Elt F) (Memref.whole cc0_scratch17 : Memref sig .tc .vmem S2048x256 .bf16).view (Rect.unit (s := S2048x256) (k0_off93 c) ![256, 256] (k0_off93_inb c)).toLoadRect ((agM4_0 (nbr 0 c)).view.set.piecewise fa g0))) Finset.univ))) :
    iprop(cellInv ER (sched V) κs (cell c (.agS 4 1)) ∗ cellInv ER (sched V) κr (cell (nbr 2 c) (.agR 4 1))
        ∗ cellInv ER (sched V) κo (cell c (.out 10)) ∗ cellInv ER (sched V) κw (cell c (.agS 5 0))
        ∗ reached ER (cell c (.agS 4 1)) 0 ∗ reached ER (cell (nbr 2 c) (.agR 4 1)) 0 ∗ reached ER (cell c (.out 10)) 0
        ∗ dutyTok ER (cell c (.agS 4 1)) 0 (0 : Fin 3) ∗ dutyTok ER (cell (nbr 2 c) (.agR 4 1)) 0 (0 : Fin 3) ∗ dutyTok ER (cell c (.out 10)) 0 (0 : Fin 3)
        ∗ cred (tallyAt (cell c (.agS 5 0)) () (amt (.agR 5 0))) ∗ atPos ER (cell c (.agS 5 0)) 0 ∅ 0
        ∗ owes (c : Thread nD τ) (Owe c 31) W ∗ levAts L lv
        ∗ ptsAny (F := F) (nbr 2 c) (agM4_1 c)
        ∗ ptsLent (F := F) c (agM4_0 c) ∗ ((agM4_0 c : Memref sig .tc .vmem S256x256 .bf16).view.loc (c : Thread nD τ) ↦[(agM4_0 c : Memref sig .tc .vmem S256x256 .bf16).view.set]{fullShare.right} g0)
        ∗ heldW c (agM4_0 (nbr 0 c) : Memref sig .tc .vmem S256x256 .bf16) fa
        ∗ heldW c (outSrcM10 c : Memref sig .tc .vmem S256x256 .f32) fo ∗ heldW c (outDstM10 c : Memref sig .tc .hbm S256x256 .f32) fd)
      ⊢ wp frame (wpE (defs₀ (F := F)) 𝒱₀ c none) Set.univ
          (k0_part46 (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23 c v9 v1250 v1253 v1254)
          (fun r => iprop(⌜r = ⟨Scalar.subi v1250 (Scalar.muli v9 512#32), Scalar.addi (Scalar.subi v1250 (Scalar.muli v9 512#32)) (Scalar.muli (Scalar.subi (1#32) v9) 512#32)⟩⌝
            ∗ owes (c : Thread nD τ) (Owe c 32) (insert ((CK.agS 5 0).sem, ()) W)
            ∗ atPos ER (cell c (.agS 5 0)) 1 ∅ 0
            ∗ cred (tallyAt (cell c (.agS 4 1)) () (amt (.agR 4 1))) ∗ cred (tallyAt (cell c (.out 10)) () (amt (.out 10)))
            ∗ ((agM4_1 c : Memref sig .tc .vmem S512x256 .bf16).view.loc (c : Thread nD τ) ↦[(agM4_1 c : Memref sig .tc .vmem S512x256 .bf16).view.set]{fullShare.right} ((agM4_0 (nbr 0 c) : Memref sig .tc .vmem S256x256 .bf16).view.set.piecewise fa g0))
            ∗ ptsLent (F := F) c (agM5_0 c))) := by
  simp only [k0_part46_eq_skeleton]; unfold k0_part46_skel
  simp only [Prog.lift, Prog.bind_op, Prog.bind_ret, Prog.pure_eq_ret]
  iintro ⟨#HIs, #HIr, #HIo10, #HIw, #Hrs, #Hrr, #Hro10, Hts, Htr, Hto10, Hcw, Hatw, HO, #Hlev, Hdst, Hlent, Hown, Hfa, Hblk, Hd⟩
  unfold heldW
  unfold ptsLent ptsAny
  icases Hlent with ⟨%g0', Hlent⟩
  icases Hdst with ⟨%fdn, Hdst⟩
  -- the kept right half and the lent left half of the own rows agree, so they make the full share again
  ihave Hag := (persistent_entails_right pointsTo_agree) $$ [Hlent Hown]
  · isplitl [Hlent]; · iexact Hlent
    iexact Hown
  icases Hag with ⟨%hag, Hlent, Hown⟩
  ihave Hlent' := (Entails.of_eq (pointsTo_congr (f := g0') (g := g0) fun i hi => (hag i (Finset.mem_inter.mpr ⟨hi, hi⟩)).1)) $$ Hlent
  ihave Hfull := (pointsTo_share (PosShare.mem_left_op_right fullShare)).2 $$ [Hlent' Hown]
  · isplitl [Hlent']; · iexact Hlent'
    iexact Hown
  -- the own rows and the arrived rows are the rows of the next step
  ihave Hj := (pointsTo_join (ℓ := (Memref.whole cc0_scratch17 : Memref sig .tc .vmem S2048x256 .bf16).view.loc (c : Thread nD τ)) (q := fullShare) (f := g0) (g := fa) (ag_disj0_4 c)) $$ [Hfull Hfa]
  · isplitl [Hfull]; · iexact Hfull
    iexact Hfa
  ihave Hj2 := (Entails.of_eq (pts_set_eq (F := F) (ag_join0_4 c).symm)) $$ Hj
  ihave Hh := (pointsTo_share (PosShare.mem_left_op_right fullShare)).1 $$ Hj2
  icases Hh with ⟨HjL, HjR⟩
  have hp2 : ((agM4_1 c : Memref sig .tc .vmem S512x256 .bf16).view.loc (nbr 2 c : Thread nD τ) ↦[(agM4_1 c : Memref sig .tc .vmem S512x256 .bf16).view.set]{fullShare}
      ((agM4_1 c : Memref sig .tc .vmem S512x256 .bf16).view.write (Elt F) fdn ((agM4_1 c : Memref sig .tc .vmem S512x256 .bf16).view.read (Elt F) ((agM4_0 (nbr 0 c) : Memref sig .tc .vmem S256x256 .bf16).view.set.piecewise fa g0)) Finset.univ) : sProp 𝕄)
      ⊢ pay V (nbr 2 c) (.agR 4 1) 0 := by
    have e : pay V (nbr 2 c) (.agR 4 1) 0 = ptsIs (nbr 2 c) (agM4_1 c) (V.ag4_1 c) := by
      show ptsIs (nbr 2 c) (agM4_1 (nbr 2 (nbr 2 c))) (V.ag4_1 (nbr 2 (nbr 2 c))) = _
      rw [nbr_nbr]
    rw [e]
    exact ptsIs_intro (nbr 2 c) (agM4_1 c) _ _ (by rw [View.read_write_univ]; exact hVag)
  iapply (wp_send_to V c ⟨k0_dev32 c, k0_dev32_lt c⟩ 2 (dev32_eq c) (.agS 4 1) (.agR 4 1) (by decide) (by decide) 31 (by decide) (paid_ag c 4 1) rfl
      (src := agM4_1 c) (dst := agM4_1 c) (agS_sem_eq 4 1 _) (agR_sem_eq 4 1 _) rfl fdn κs κr _
      (ptsLent_intro c (agM4_1 c) _) hp2) $$ [HjL Hdst HO Hts Htr]
  · isplitr; · iexact HIs
    isplitr; · iexact HIr
    isplitl [HjL]; · iexact HjL
    isplitl [Hdst]; · iexact Hdst
    isplitl [HO]; · iexact HO
    isplitl [Hts]; · iexact Hts
    isplitr; · iexact Hrs
    isplitl [Htr]; · iexact Htr
    iexact Hrr
  iintro ⟨Hcs, HO⟩
  have hinc1 : ((Memref.whole cc0_scratch17 : Memref sig .tc .vmem S2048x256 .bf16).access (Rect.unit (s := S2048x256) (k0_off93 c) ![256, 256] (k0_off93_inb c))).set
      ⊆ (agM4_1 c : Memref sig .tc .vmem S512x256 .bf16).view.set := by
    rw [View.set_slice_whole, View.set_slice_whole]
    refine unit_subset ?_
    piece_arith c [off93_eq, off92_eq]
  ihave HjR := (Entails.of_eq (show ((Memref.whole cc0_scratch17 : Memref sig .tc .vmem S2048x256 .bf16).view.loc (c : Thread nD τ) ↦[(agM4_1 c : Memref sig .tc .vmem S512x256 .bf16).view.set]{fullShare.right} ((agM4_0 (nbr 0 c) : Memref sig .tc .vmem S256x256 .bf16).view.set.piecewise fa g0) : sProp 𝕄)
      = ((agM4_1 c : Memref sig .tc .vmem S512x256 .bf16).view.loc (c : Thread nD τ) ↦[(agM4_1 c : Memref sig .tc .vmem S512x256 .bf16).view.set]{fullShare.right} ((agM4_0 (nbr 0 c) : Memref sig .tc .vmem S256x256 .bf16).view.set.piecewise fa g0)) from rfl)) $$ HjR
  have hinc2 : ((Memref.whole cc0_scratch0 : Memref sig .tc .vmem S2048x2048 .f32).access (Rect.unit (s := S2048x2048) (k0_off94 c) ![256, 256] (k0_off94_inb c))).set
      ⊆ (outSrcM10 c : Memref sig .tc .vmem S256x256 .f32).view.set := by
    rw [View.set_slice_whole, View.set_slice_whole]
    refine unit_subset ?_
    piece_arith c [off94_eq, off95_eq]
  have hinc3 : ((Memref.whole cc0_scratch0 : Memref sig .tc .vmem S2048x2048 .f32).access (Rect.unit (s := S2048x2048) (k0_off94 c) ![256, 256] (k0_off94_inb c))).setOn Finset.univ
      ⊆ (outSrcM10 c : Memref sig .tc .vmem S256x256 .f32).view.set := by
    rw [View.setOn_univ]
    rw [View.set_slice_whole, View.set_slice_whole]
    refine unit_subset ?_
    piece_arith c [off94_eq, off95_eq]
  sl_exec
  have hpay10 : iprop(((outDstM10 c : Memref sig .tc .hbm S256x256 .f32).view.loc (c : Thread nD τ) ↦[(outDstM10 c : Memref sig .tc .hbm S256x256 .f32).view.set]{fullShare}
        ((outDstM10 c : Memref sig .tc .hbm S256x256 .f32).view.write (Elt F) fd ((outSrcM10 c : Memref sig .tc .vmem S256x256 .f32).view.read (Elt F) (View.write (Elt F) ((Memref.whole cc0_scratch0 : Memref sig .tc .vmem S2048x2048 .f32).access (Rect.unit (s := S2048x2048) (k0_off94 c) ![256, 256] (k0_off94_inb c))) fo (k0_pay92 (View.readAt (Elt F) (Memref.whole cc0_scratch17 : Memref sig .tc .vmem S2048x256 .bf16).view (Rect.unit (s := S2048x256) (k0_off93 c) ![256, 256] (k0_off93_inb c)).toLoadRect ((agM4_0 (nbr 0 c)).view.set.piecewise fa g0))) Finset.univ)) Finset.univ))
      ∗ ((outSrcM10 c : Memref sig .tc .vmem S256x256 .f32).view.loc (c : Thread nD τ) ↦[(outSrcM10 c : Memref sig .tc .vmem S256x256 .f32).view.set]{fullShare} (View.write (Elt F) ((Memref.whole cc0_scratch0 : Memref sig .tc .vmem S2048x2048 .f32).access (Rect.unit (s := S2048x2048) (k0_off94 c) ![256, 256] (k0_off94_inb c))) fo (k0_pay92 (View.readAt (Elt F) (Memref.whole cc0_scratch17 : Memref sig .tc .vmem S2048x256 .bf16).view (Rect.unit (s := S2048x256) (k0_off93 c) ![256, 256] (k0_off93_inb c)).toLoadRect ((agM4_0 (nbr 0 c)).view.set.piecewise fa g0))) Finset.univ))) ⊢ pay V c (.out 10) 0 := by
    show _ ⊢ iprop(ptsIs c (outDstM10 c) (V.out10 c) ∗ ptsAny (F := F) c (outSrcM10 c))
    iintro ⟨Hd, Hs⟩
    isplitl [Hd]
    · unfold ptsIs
      iexists _
      isplitl [Hd]; · iexact Hd
      ipureintro; rw [View.read_write_univ]; exact hVout
    · unfold ptsAny
      iexists _
      iexact Hs
  iapply (wp_copy_own V c (.out 10) (by decide) (src := outSrcM10 c) (dst := outDstM10 c) (out_sem_eq 10 _) rfl fd κo hpay10) $$ [Hblk Hd Hto10]
  · isplitr; · iexact HIo10
    isplitl [Hblk]; · iexact Hblk
    isplitl [Hd]; · iexact Hd
    isplitl [Hto10]; · iexact Hto10
    iexact Hro10
  iintro Hco10
  -- group 5's first all-gather transfer is over: the lent half share of its own rows comes back
  ihave Hcw := (Entails.of_eq (show cred (tallyAt (cell c (.agS 5 0)) () (amt (.agR 5 0))) = cred (tallyAt (cell c (.agS 5 0)) () (amt (.agS 5 0))) from rfl)) $$ Hcw
  iapply (wp_wait_xfer V c (.agS 5 0) (by decide) 32 (agS_sem_eq 5 0 _)
      (show (agM5_0 c : Memref sig .tc .vmem S256x256 .bf16).view.dmaCredit = amt (.agS 5 0) from rfl)
      (wpE_waitDma2_eq 𝒱₀ (c : Thread nD τ) none Set.univ)
      (mayWait_own c (.agS 5 0) (lv_cell c _) 32) κw W) $$ [Hcw HO Hatw]
  · isplitr; · iexact HIw
    isplitl [Hcw]; · iexact Hcw
    isplitl [HO]; · iexact HO
    isplitr; · iexact Hlev
    iexact Hatw
  iintro ⟨HO, Hatw, Hpay1⟩
  ihave Hp1 := (Entails.of_eq (show pay V c (CK.agS 5 0) 0 = ptsLent (F := F) c (agM5_0 c) from rfl)) $$ Hpay1
  sl_step
  isplitr; · ipureintro; rfl
  isplitl [HO]; · iexact HO
  isplitl [Hatw]; · iexact Hatw
  isplitl [Hcs]; · iexact Hcs
  isplitl [Hco10]; · iexact Hco10
  isplitl [HjR]; · iexact HjR
  unfold ptsLent
  iexact Hp1

end Cert.Kernel.Proto

end
-- ==== Proof.Body47Bits.lean ====
/-
All-gather step 1 of group 5: the neighbour's rows of step 0 have arrived; with the device's own rows (whose lent half share is
back) they are the rows of step 1, sent to the neighbour across axis 0 (the left half share lent again). The arrived rows are
widened into the accumulator and that finished block copied to the result array; then the wait for the end of group 0's second
transfer.
-/
import proofs.«900882_g7700000000000883_dist_matmul_gelu_kshard_i_m2048_n2048_k1024_v7x_i8_f32_1_alg».proof.Proof.RulesBits
import proofs.«900882_g7700000000000883_dist_matmul_gelu_kshard_i_m2048_n2048_k1024_v7x_i8_f32_1_alg».proof.Proof.TopoBitsTab
import proofs.«900882_g7700000000000883_dist_matmul_gelu_kshard_i_m2048_n2048_k1024_v7x_i8_f32_1_alg».proof.Proof.PiecesTabBits
import proofs.«900882_g7700000000000883_dist_matmul_gelu_kshard_i_m2048_n2048_k1024_v7x_i8_f32_1_alg».proof.Proof.PiecesOutTabBits
import proofs.«900882_g7700000000000883_dist_matmul_gelu_kshard_i_m2048_n2048_k1024_v7x_i8_f32_1_alg».proof.Proof.Gen.Kernel.Skeleton
import Idealize.ShloMosaic.Lib.Pipeline.Value

set_option maxRecDepth 16384

noncomputable section

namespace Cert.Kernel.Proto

open Cert.Kernel Cert.Kernel.Gen Cert.Kernel.Topo
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : Vals F)

set_option maxRecDepth 65536 in
set_option maxHeartbeats 4000000 in
theorem part47_run (c : Dev nD) (κwR κs κr κo κw1 : ℕ) (W : Waits sig Unit) (v2 v6 v1264 v1267 : BitVec 32)
    (g0 : Buf (Elt F) ((agM5_0 c).view.loc (c : Thread nD τ)))
    (fo : Buf (Elt F) ((outSrcM11 c).view.loc (c : Thread nD τ))) (fd : Buf (Elt F) ((outDstM11 c).view.loc (c : Thread nD τ)))
    (hVag : ∀ fa : Buf (Elt F) ((agM5_0 (nbr 1 c)).view.loc (c : Thread nD τ)), V.ag5_0 (nbr 1 c) ((agM5_0 (nbr 1 c)).view.read (Elt F) fa) →
      V.ag5_1 c ((agM5_1 c).view.read (Elt F) ((agM5_0 (nbr 1 c)).view.set.piecewise fa g0)))
    (hVout : ∀ fa : Buf (Elt F) ((agM5_0 (nbr 1 c)).view.loc (c : Thread nD τ)), V.ag5_0 (nbr 1 c) ((agM5_0 (nbr 1 c)).view.read (Elt F) fa) →
      V.out11 c ((outSrcM11 c).view.read (Elt F) (((Memref.whole cc0_scratch0 : Memref sig .tc .vmem S2048x2048 .f32).access (Rect.unit (s := S2048x2048) (k0_off98 c) S256x256.size (k0_off98_inb c))).write (Elt F) fo (k0_pay93 (View.readAt (Elt F) (Memref.whole cc0_scratch18 : Memref sig .tc .vmem S2048x256 .bf16).view (Rect.unit (s := S2048x256) (k0_off97 c) S256x256.size (k0_off97_inb c)).toLoadRect ((agM5_0 (nbr 1 c)).view.set.piecewise fa g0))) Finset.univ))) :
    iprop(cellInv ER (sched V) κwR (cell c (.agR 5 0)) ∗ cellInv ER (sched V) κs (cell c (.agS 5 1)) ∗ cellInv ER (sched V) κr (cell (nbr 0 c) (.agR 5 1))
        ∗ cellInv ER (sched V) κo (cell c (.out 11)) ∗ cellInv ER (sched V) κw1 (cell c (.agS 0 1))
        ∗ reached ER (cell c (.agS 5 1)) 0 ∗ reached ER (cell (nbr 0 c) (.agR 5 1)) 0 ∗ reached ER (cell c (.out 11)) 0
        ∗ dutyTok ER (cell c (.agS 5 1)) 0 (0 : Fin 3) ∗ dutyTok ER (cell (nbr 0 c) (.agR 5 1)) 0 (0 : Fin 3) ∗ dutyTok ER (cell c (.out 11)) 0 (0 : Fin 3)
        ∗ cred (tallyAt (cell c (.agR 5 0)) () (amt (.agR 5 0))) ∗ atPos ER (cell c (.agR 5 0)) 0 ∅ 0
        ∗ cred (tallyAt (cell c (.agS 0 1)) () (amt (.agR 0 1))) ∗ atPos ER (cell c (.agS 0 1)) 0 ∅ 0
        ∗ owes (c : Thread nD τ) (Owe c 32) W ∗ levAts L lv
        ∗ ptsAny (F := F) (nbr 0 c) (agM5_1 c)
        ∗ ptsLent (F := F) c (agM5_0 c) ∗ ((agM5_0 c).view.loc (c : Thread nD τ) ↦[(agM5_0 c).view.set]{fullShare.right} g0)
        ∗ heldW c (outSrcM11 c) fo ∗ heldW c (outDstM11 c) fd)
      ⊢ wp frame (wpE (defs₀ (F := F)) 𝒱₀ c none) Set.univ
          (k0_part47 (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23 c v2 v6 v1264 v1267)
          (fun r => iprop(∃ fa : Buf (Elt F) ((agM5_0 (nbr 1 c)).view.loc (c : Thread nD τ)),
            ⌜r = ⟨Scalar.xori v2 1#32, Scalar.subi v1264 (Scalar.muli v6 512#32), Scalar.addi (Scalar.subi v1264 (Scalar.muli v6 512#32)) (Scalar.muli (Scalar.subi 1#32 v6) 512#32)⟩⌝
            ∗ ⌜V.ag5_0 (nbr 1 c) ((agM5_0 (nbr 1 c)).view.read (Elt F) fa)⌝
            ∗ owes (c : Thread nD τ) (Owe c 33) (insert ((CK.agS 0 1).sem, ()) (insert ((CK.agR 5 0).sem, ()) W))
            ∗ atPos ER (cell c (.agR 5 0)) 1 ∅ 0 ∗ atPos ER (cell c (.agS 0 1)) 1 ∅ 0
            ∗ cred (tallyAt (cell c (.agS 5 1)) () (amt (.agR 5 1))) ∗ cred (tallyAt (cell c (.out 11)) () (amt (.out 11)))
            ∗ ((agM5_1 c).view.loc (c : Thread nD τ) ↦[(agM5_1 c).view.set]{fullShare.right} ((agM5_0 (nbr 1 c)).view.set.piecewise fa g0))
            ∗ ptsLent (F := F) c (agM0_1 c))) := by
  simp only [k0_part47_eq_skeleton]; unfold k0_part47_skel
  simp only [Prog.lift, Prog.bind_op, Prog.bind_ret, Prog.pure_eq_ret]
  iintro ⟨#HIwR, #HIs, #HIr, #HIo, #HIw1, #Hrs, #Hrr, #Hro, Hts, Htr, Hto, HcwR, HatR, Hcw1, Hat1, HO, #Hlev, Hdst, Hlent, Hown, H6, Hd⟩
  unfold heldW
  -- the neighbour's rows of all-gather step 0 have arrived
  iapply (wp_wait_xfer V c (.agR 5 0) (by decide) 32 (agR_sem_eq 5 0 _) (k' := (agM5_0 c : Memref sig .tc .vmem S256x256 .bf16).view.dmaCredit) rfl (wpE_waitDma2_eq 𝒱₀ (c : Thread nD τ) none Set.univ)
      (mayWait_agR c 5 0 32 (by decide)) κwR W) $$ [HcwR HO HatR]
  · isplitr; · iexact HIwR
    isplitl [HcwR]; · iexact HcwR
    isplitl [HO]; · iexact HO
    isplitr; · iexact Hlev
    iexact HatR
  iintro ⟨HO, HatR, HqR⟩
  ihave HpR := (Entails.of_eq (show pay V c (.agR 5 0) 0 = ptsIs c (agM5_0 (nbr 1 c)) (V.ag5_0 (nbr 1 c)) from rfl)) $$ HqR
  unfold ptsIs ptsLent ptsAny
  icases HpR with ⟨%fa, Hfa, %hfa⟩
  icases Hlent with ⟨%g0', Hlent⟩
  icases Hdst with ⟨%fdn, Hdst⟩
  -- the kept right half and the lent left half of the own rows agree, so they make the full share again
  ihave Hag := (persistent_entails_right pointsTo_agree) $$ [Hlent Hown]
  · isplitl [Hlent]; · iexact Hlent
    iexact Hown
  icases Hag with ⟨%hag, Hlent, Hown⟩
  ihave Hlent' := (Entails.of_eq (pointsTo_congr (f := g0') (g := g0) fun i hi => (hag i (Finset.mem_inter.mpr ⟨hi, hi⟩)).1)) $$ Hlent
  ihave Hfull := (pointsTo_share (PosShare.mem_left_op_right fullShare)).2 $$ [Hlent' Hown]
  · isplitl [Hlent']; · iexact Hlent'
    iexact Hown
  -- the own rows and the arrived rows are the rows of the next step
  ihave Hj := (pointsTo_join (ℓ := (Memref.whole cc0_scratch18 : Memref sig .tc .vmem S2048x256 .bf16).view.loc (c : Thread nD τ)) (q := fullShare) (f := g0) (g := fa) (ag_disj0_5 c)) $$ [Hfull Hfa]
  · isplitl [Hfull]; · iexact Hfull
    iexact Hfa
  ihave Hj2 := (Entails.of_eq (pts_set_eq (F := F) (ag_join0_5 c).symm)) $$ Hj
  ihave Hh := (pointsTo_share (PosShare.mem_left_op_right fullShare)).1 $$ Hj2
  icases Hh with ⟨HjL, HjR⟩
  have hp2 : ((agM5_1 c).view.loc (nbr 0 c : Thread nD τ) ↦[(agM5_1 c).view.set]{fullShare}
      ((agM5_1 c).view.write (Elt F) fdn ((agM5_1 c).view.read (Elt F) ((agM5_0 (nbr 1 c)).view.set.piecewise fa g0)) Finset.univ) : sProp 𝕄)
      ⊢ pay V (nbr 0 c) (.agR 5 1) 0 := by
    have e : pay V (nbr 0 c) (.agR 5 1) 0 = ptsIs (nbr 0 c) (agM5_1 c) (V.ag5_1 c) := by
      show ptsIs (nbr 0 c) (agM5_1 (nbr 0 (nbr 0 c))) (V.ag5_1 (nbr 0 (nbr 0 c))) = _
      rw [nbr_nbr]
    rw [e]
    exact ptsIs_intro (nbr 0 c) (agM5_1 c) _ _ (by rw [View.read_write_univ]; exact hVag fa hfa)
  iapply (wp_send_to V c ⟨k0_dev33 c, k0_dev33_lt c⟩ 0 (dev33_eq c) (.agS 5 1) (.agR 5 1) (by decide) (by decide) 32 (by decide) (paid_ag c 5 1) rfl
      (src := agM5_1 c) (dst := agM5_1 c) (agS_sem_eq 5 1 _) (agR_sem_eq 5 1 _) rfl fdn κs κr _
      (ptsLent_intro c (agM5_1 c) _) hp2) $$ [HjL Hdst HO Hts Htr]
  · isplitr; · iexact HIs
    isplitr; · iexact HIr
    isplitl [HjL]; · iexact HjL
    isplitl [Hdst]; · iexact Hdst
    isplitl [HO]; · iexact HO
    isplitl [Hts]; · iexact Hts
    isplitr; · iexact Hrs
    isplitl [Htr]; · iexact Htr
    iexact Hrr
  iintro ⟨Hcs, HO⟩
  have h79 : ((Memref.whole cc0_scratch18 : Memref sig .tc .vmem S2048x256 .bf16).access (Rect.unit (s := S2048x256) (k0_off97 c) ![256, 256] (k0_off97_inb c))).set ⊆ (agM5_1 c).view.set := by
    refine (le_of_eq (View.set_slice_whole _ _)).trans ?_
    piece_dev c unit_subset [off97_eq, off96_eq]
  ihave HjR := (Entails.of_eq (show ((Memref.whole cc0_scratch18 : Memref sig .tc .vmem S2048x256 .bf16).view.loc (c : Thread nD τ) ↦[(agM5_1 c).view.set]{fullShare.right} ((agM5_0 (nbr 1 c)).view.set.piecewise fa g0) : sProp 𝕄)
      = ((agM5_1 c).view.loc (c : Thread nD τ) ↦[(agM5_1 c).view.set]{fullShare.right} ((agM5_0 (nbr 1 c)).view.set.piecewise fa g0)) from rfl)) $$ HjR
  have h80 : ((Memref.whole cc0_scratch0 : Memref sig .tc .vmem S2048x2048 .f32).access (Rect.unit (s := S2048x2048) (k0_off98 c) ![256, 256] (k0_off98_inb c))).set ⊆ (outSrcM11 c).view.set :=
    le_of_eq ((View.set_slice_whole _ _).trans ((unit_set_congr ((off98_eq c).trans (off99_eq c).symm) rfl).trans (View.set_slice_whole _ _).symm))
  have h80' : ((Memref.whole cc0_scratch0 : Memref sig .tc .vmem S2048x2048 .f32).access (Rect.unit (s := S2048x2048) (k0_off98 c) ![256, 256] (k0_off98_inb c))).setOn Finset.univ ⊆ (outSrcM11 c).view.set := h80
  sl_exec
  -- the rows that arrived, widened, are a finished block of the accumulator: it goes to the result array
  iapply (wp_copy_own V c (.out 11) (by decide) (src := outSrcM11 c) (dst := outDstM11 c) (out_sem_eq 11 _) rfl fd κo
      (by
        show _ ⊢ iprop(ptsIs c (outDstM11 c) (V.out11 c) ∗ ptsAny (F := F) c (outSrcM11 c))
        exact BIClass.sep_mono (ptsIs_intro c (outDstM11 c) _ _ (by rw [View.read_write_univ]; exact hVout fa hfa)) (ptsAny_intro c (outSrcM11 c) _))) $$ [H6 Hd Hto]
  · isplitr; · iexact HIo
    isplitl [H6]; · iexact H6
    isplitl [Hd]; · iexact Hd
    isplitl [Hto]; · iexact Hto
    iexact Hro
  iintro Hco
  -- group 1's first all-gather transfer is over: the lent half share of its own rows comes back
  ihave Hcw1 := (Entails.of_eq (show cred (tallyAt (cell c (.agS 0 1)) () (amt (.agR 0 1))) = cred (tallyAt (cell c (.agS 0 1)) () (amt (.agS 0 1))) from rfl)) $$ Hcw1
  iapply (wp_wait_xfer V c (.agS 0 1) (by decide) 33 (agS_sem_eq 0 1 _) (k' := (agM0_1 c : Memref sig .tc .vmem S512x384 .bf16).view.dmaCredit) rfl (wpE_waitDma2_eq 𝒱₀ (c : Thread nD τ) none Set.univ)
      (mayWait_own c (.agS 0 1) (lv_cell c (.agS 0 1)) 33) κw1 _) $$ [Hcw1 HO Hat1]
  · isplitr; · iexact HIw1
    isplitl [Hcw1]; · iexact Hcw1
    isplitl [HO]; · iexact HO
    isplitr; · iexact Hlev
    iexact Hat1
  iintro ⟨HO, Hat1, Hq1⟩
  ihave Hp1 := (Entails.of_eq (show pay V c (.agS 0 1) 0 = ptsLent (F := F) c (agM0_1 c) from rfl)) $$ Hq1
  sl_step
  iexists fa
  isplitr; · ipureintro; rfl
  isplitr; · ipureintro; exact hfa
  isplitl [HO]; · iexact HO
  isplitl [HatR]; · iexact HatR
  isplitl [Hat1]; · iexact Hat1
  isplitl [Hcs]; · iexact Hcs
  isplitl [Hco]; · iexact Hco
  isplitl [HjR]; · iexact HjR
  unfold ptsLent
  iexact Hp1

end Cert.Kernel.Proto

end
-- ==== Proof.Body48Bits.lean ====
/-
A stretch of a device's kernel body, in the all-gather phase. Column group 0's second round: the 512 rows that
arrived from the neighbour across axis 1 join the device's own 512 rows into the 1024 rows it sends across axis 0.
The transfer borrows the left half share of those rows; the device keeps the right half, reads the arrived rows
again, widens them to f32 into their block of the accumulator and copies that block to the result array.
-/
import proofs.«900882_g7700000000000883_dist_matmul_gelu_kshard_i_m2048_n2048_k1024_v7x_i8_f32_1_alg».proof.Proof.RulesBits
import proofs.«900882_g7700000000000883_dist_matmul_gelu_kshard_i_m2048_n2048_k1024_v7x_i8_f32_1_alg».proof.Proof.TopoBitsTab
import proofs.«900882_g7700000000000883_dist_matmul_gelu_kshard_i_m2048_n2048_k1024_v7x_i8_f32_1_alg».proof.Proof.PiecesTabBits
import proofs.«900882_g7700000000000883_dist_matmul_gelu_kshard_i_m2048_n2048_k1024_v7x_i8_f32_1_alg».proof.Proof.PiecesOutSepBits
import proofs.«900882_g7700000000000883_dist_matmul_gelu_kshard_i_m2048_n2048_k1024_v7x_i8_f32_1_alg».proof.Proof.PiecesOutTabBits
import proofs.«900882_g7700000000000883_dist_matmul_gelu_kshard_i_m2048_n2048_k1024_v7x_i8_f32_1_alg».proof.Proof.Gen.Kernel.Skeleton
import Idealize.ShloMosaic.Lib.Pipeline.Value

set_option maxRecDepth 16384

noncomputable section

namespace Cert.Kernel.Proto

open Cert.Kernel Cert.Kernel.Gen Cert.Kernel.Topo
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : Vals F)

set_option maxHeartbeats 4000000 in
theorem part48_run (c : Dev nD) (κr1 κs κr κo : ℕ) (W : Waits sig Unit) (v2 v6 v1278 v1288 v1291 : BitVec 32)
    (g1 : Buf (Elt F) ((Memref.whole cc0_scratch13 : Memref sig .tc .vmem S2048x384 .bf16).view.loc (c : Thread nD τ)))
    (f12 : Buf (Elt F) ((outSrcM12 c).view.loc (c : Thread nD τ))) (fd : Buf (Elt F) ((outDstM12 c).view.loc (c : Thread nD τ)))
    (hVag : ∀ f2 : Buf (Elt F) ((Memref.whole cc0_scratch13 : Memref sig .tc .vmem S2048x384 .bf16).view.loc (c : Thread nD τ)), V.ag0_1 (nbr 1 c) ((agM0_1 (nbr 1 c)).view.read (Elt F) f2) →
      V.ag0_2 c ((agM0_2 c).view.read (Elt F) (((agM0_1 (nbr 1 c)).view.set : Finset (Idx ((Memref.whole cc0_scratch13 : Memref sig .tc .vmem S2048x384 .bf16).view.loc (c : Thread nD τ)))).piecewise f2 g1)))
    (hVout : ∀ f2 : Buf (Elt F) ((Memref.whole cc0_scratch13 : Memref sig .tc .vmem S2048x384 .bf16).view.loc (c : Thread nD τ)), V.ag0_1 (nbr 1 c) ((agM0_1 (nbr 1 c)).view.read (Elt F) f2) →
      V.out12 c ((outSrcM12 c).view.read (Elt F)
        (((Memref.whole cc0_scratch0 : Memref sig .tc .vmem S2048x2048 .f32).access (Rect.unit (s := S2048x2048) (k0_off102 c) S512x384.size (k0_off102_inb c))).write (Elt F) f12
          (k0_pay94 (View.readAt (Elt F) (Memref.whole cc0_scratch13 : Memref sig .tc .vmem S2048x384 .bf16).view (Rect.unit (s := S2048x384) (k0_off101 c) S512x384.size (k0_off101_inb c)).toLoadRect (((agM0_1 (nbr 1 c)).view.set : Finset (Idx ((Memref.whole cc0_scratch13 : Memref sig .tc .vmem S2048x384 .bf16).view.loc (c : Thread nD τ)))).piecewise f2 g1))) Finset.univ))) :
    iprop(cellInv ER (sched V) κr1 (cell c (.agR 0 1)) ∗ cellInv ER (sched V) κs (cell c (.agS 0 2)) ∗ cellInv ER (sched V) κr (cell (nbr 0 c) (.agR 0 2))
        ∗ cellInv ER (sched V) κo (cell c (.out 12))
        ∗ reached ER (cell c (.agS 0 2)) 0 ∗ reached ER (cell (nbr 0 c) (.agR 0 2)) 0 ∗ reached ER (cell c (.out 12)) 0
        ∗ dutyTok ER (cell c (.agS 0 2)) 0 (0 : Fin 3) ∗ dutyTok ER (cell (nbr 0 c) (.agR 0 2)) 0 (0 : Fin 3) ∗ dutyTok ER (cell c (.out 12)) 0 (0 : Fin 3)
        ∗ cred (tallyAt (cell c (.agR 0 1)) () (amt (.agR 0 1))) ∗ atPos ER (cell c (.agR 0 1)) 0 ∅ 0
        ∗ owes (c : Thread nD τ) (Owe c 33) W ∗ levAts L lv
        ∗ ptsAny (F := F) (nbr 0 c) (agM0_2 c)
        ∗ ptsLent (F := F) c (agM0_1 c) ∗ ((agM0_1 c).view.loc (c : Thread nD τ) ↦[(agM0_1 c).view.set]{fullShare.right} g1)
        ∗ heldW c (outSrcM12 c) f12 ∗ heldW c (outDstM12 c) fd)
      ⊢ wp frame (wpE (defs₀ (F := F)) 𝒱₀ c none) Set.univ
          (k0_part48 (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23 c v2 v6 v1278 v1288 v1291)
          (fun r => iprop(⌜r = ⟨Scalar.xori v2 1#32, Scalar.addi (Scalar.subi v1288 (Scalar.muli v6 1024#32)) (Scalar.muli (Scalar.subi 1#32 v6) 1024#32)⟩⌝
            ∗ ∃ f2 : Buf (Elt F) ((Memref.whole cc0_scratch13 : Memref sig .tc .vmem S2048x384 .bf16).view.loc (c : Thread nD τ)), ⌜V.ag0_1 (nbr 1 c) ((agM0_1 (nbr 1 c)).view.read (Elt F) f2)⌝
            ∗ owes (c : Thread nD τ) (Owe c 34) (insert ((CK.agR 0 1).sem, ()) W) ∗ atPos ER (cell c (.agR 0 1)) 1 ∅ 0
            ∗ cred (tallyAt (cell c (.agS 0 2)) () (amt (.agR 0 2))) ∗ cred (tallyAt (cell c (.out 12)) () (amt (.out 12)))
            ∗ ((agM0_2 c).view.loc (c : Thread nD τ) ↦[(agM0_2 c).view.set]{fullShare.right} (((agM0_1 (nbr 1 c)).view.set : Finset (Idx ((Memref.whole cc0_scratch13 : Memref sig .tc .vmem S2048x384 .bf16).view.loc (c : Thread nD τ)))).piecewise f2 g1)))) := by
  simp only [k0_part48_eq_skeleton]; unfold k0_part48_skel
  simp only [Prog.lift, Prog.bind_op, Prog.bind_ret, Prog.pure_eq_ret]
  iintro ⟨#HIr1, #HIs, #HIr, #HIo, #Hrs, #Hrr, #Hro, Hts, Htr, Hto, Hcr1, Hat1, HO, #Hlev, Hdst, Hlent, Hown, H12, Hd⟩
  unfold heldW
  iapply (wp_wait_xfer V c (.agR 0 1) (by decide) 33 (agR_sem_eq 0 1 _) (k' := (agM0_1 c : Memref sig .tc .vmem S512x384 .bf16).view.dmaCredit) rfl (wpE_waitDma2_eq 𝒱₀ (c : Thread nD τ) none Set.univ)
      (mayWait_agR c 0 1 33 (by decide)) κr1 W) $$ [Hcr1 HO Hat1]
  · isplitr; · iexact HIr1
    isplitl [Hcr1]; · iexact Hcr1
    isplitl [HO]; · iexact HO
    isplitr; · iexact Hlev
    iexact Hat1
  iintro ⟨HO, Hat1, Hpay⟩
  ihave Hp := (Entails.of_eq (show pay V c (.agR 0 1) 0 = ptsIs c (agM0_1 (nbr 1 c)) (V.ag0_1 (nbr 1 c)) from rfl)) $$ Hpay
  unfold ptsIs ptsLent ptsAny
  icases Hp with ⟨%f2, Hf2, %hf2⟩
  icases Hlent with ⟨%g1', Hlent⟩
  icases Hdst with ⟨%fdn, Hdst⟩
  -- the kept right half and the lent left half of the own rows agree, so they make the full share again
  ihave Hag := (persistent_entails_right (pointsTo_agree (ℓ := ((Memref.whole cc0_scratch13 : Memref sig .tc .vmem S2048x384 .bf16).view.loc (c : Thread nD τ))) (I := (agM0_1 c).view.set) (J := (agM0_1 c).view.set) (q₁ := fullShare.left) (q₂ := fullShare.right) (f := g1') (g := g1))) $$ [Hlent Hown]
  · isplitl [Hlent]; · iexact Hlent
    iexact Hown
  icases Hag with ⟨%hag, Hlent, Hown⟩
  ihave Hlent' := (Entails.of_eq (pointsTo_congr (ℓ := ((Memref.whole cc0_scratch13 : Memref sig .tc .vmem S2048x384 .bf16).view.loc (c : Thread nD τ))) (I := (agM0_1 c).view.set) (q := fullShare.left) (f := g1') (g := g1) fun i hi => (hag i (Finset.mem_inter.mpr ⟨hi, hi⟩)).1)) $$ Hlent
  ihave Hfull := (pointsTo_share (ℓ := ((Memref.whole cc0_scratch13 : Memref sig .tc .vmem S2048x384 .bf16).view.loc (c : Thread nD τ))) (I := (agM0_1 c).view.set) (f := g1) (PosShare.mem_left_op_right fullShare)).2 $$ [Hlent' Hown]
  · isplitl [Hlent']; · iexact Hlent'
    iexact Hown
  -- the own rows and the arrived rows are the rows of the next step
  ihave Hj := (pointsTo_join (ℓ := ((Memref.whole cc0_scratch13 : Memref sig .tc .vmem S2048x384 .bf16).view.loc (c : Thread nD τ))) (I := (agM0_1 c).view.set) (J := (agM0_1 (nbr 1 c)).view.set) (q := fullShare) (f := g1) (g := f2) (ag_disj1_0 c)) $$ [Hfull Hf2]
  · isplitl [Hfull]; · iexact Hfull
    iexact Hf2
  ihave Hj2 := (Entails.of_eq (pts_set_eq (F := F) (ℓ := ((Memref.whole cc0_scratch13 : Memref sig .tc .vmem S2048x384 .bf16).view.loc (c : Thread nD τ))) (S' := (agM0_2 c).view.set) (q := fullShare) (f := (((agM0_1 (nbr 1 c)).view.set : Finset (Idx ((Memref.whole cc0_scratch13 : Memref sig .tc .vmem S2048x384 .bf16).view.loc (c : Thread nD τ)))).piecewise f2 g1)) (ag_join1_0 c).symm)) $$ Hj
  ihave Hh := (pointsTo_share (ℓ := ((Memref.whole cc0_scratch13 : Memref sig .tc .vmem S2048x384 .bf16).view.loc (c : Thread nD τ))) (I := (agM0_2 c).view.set) (f := (((agM0_1 (nbr 1 c)).view.set : Finset (Idx ((Memref.whole cc0_scratch13 : Memref sig .tc .vmem S2048x384 .bf16).view.loc (c : Thread nD τ)))).piecewise f2 g1)) (PosShare.mem_left_op_right fullShare)).1 $$ Hj2
  icases Hh with ⟨HjL0, HjR0⟩
  ihave HjL := (Entails.of_eq (show ((((Memref.whole cc0_scratch13 : Memref sig .tc .vmem S2048x384 .bf16).view.loc (c : Thread nD τ)) ↦[(agM0_2 c).view.set]{fullShare.left} (((agM0_1 (nbr 1 c)).view.set : Finset (Idx ((Memref.whole cc0_scratch13 : Memref sig .tc .vmem S2048x384 .bf16).view.loc (c : Thread nD τ)))).piecewise f2 g1) : sProp 𝕄)) = ((agM0_2 c).view.loc (c : Thread nD τ) ↦[(agM0_2 c).view.set]{fullShare.left} (((agM0_1 (nbr 1 c)).view.set : Finset (Idx ((Memref.whole cc0_scratch13 : Memref sig .tc .vmem S2048x384 .bf16).view.loc (c : Thread nD τ)))).piecewise f2 g1)) from rfl)) $$ HjL0
  ihave HjR := (Entails.of_eq (show ((((Memref.whole cc0_scratch13 : Memref sig .tc .vmem S2048x384 .bf16).view.loc (c : Thread nD τ)) ↦[(agM0_2 c).view.set]{fullShare.right} (((agM0_1 (nbr 1 c)).view.set : Finset (Idx ((Memref.whole cc0_scratch13 : Memref sig .tc .vmem S2048x384 .bf16).view.loc (c : Thread nD τ)))).piecewise f2 g1) : sProp 𝕄)) = ((agM0_2 c).view.loc (c : Thread nD τ) ↦[(agM0_2 c).view.set]{fullShare.right} (((agM0_1 (nbr 1 c)).view.set : Finset (Idx ((Memref.whole cc0_scratch13 : Memref sig .tc .vmem S2048x384 .bf16).view.loc (c : Thread nD τ)))).piecewise f2 g1)) from rfl)) $$ HjR0
  have hp2 : ((agM0_2 c).view.loc (nbr 0 c : Thread nD τ) ↦[(agM0_2 c).view.set]{fullShare}
      ((agM0_2 c).view.write (Elt F) fdn ((agM0_2 c).view.read (Elt F) (((agM0_1 (nbr 1 c)).view.set : Finset (Idx ((Memref.whole cc0_scratch13 : Memref sig .tc .vmem S2048x384 .bf16).view.loc (c : Thread nD τ)))).piecewise f2 g1)) Finset.univ) : sProp 𝕄)
      ⊢ pay V (nbr 0 c) (.agR 0 2) 0 := by
    have e : pay V (nbr 0 c) (.agR 0 2) 0 = ptsIs (nbr 0 c) (agM0_2 c) (V.ag0_2 c) := by
      show ptsIs (nbr 0 c) (agM0_2 (nbr 0 (nbr 0 c))) (V.ag0_2 (nbr 0 (nbr 0 c))) = _
      rw [nbr_nbr]
    rw [e]
    exact ptsIs_intro (nbr 0 c) (agM0_2 c) _ _ (by rw [View.read_write_univ]; exact hVag f2 hf2)
  iapply (wp_send_to V c ⟨k0_dev34 c, k0_dev34_lt c⟩ 0 (dev34_eq c) (.agS 0 2) (.agR 0 2) (by decide) (by decide) 33 (by decide) (paid_ag c 0 2) rfl
      (src := agM0_2 c) (dst := agM0_2 c) (agS_sem_eq 0 2 _) (agR_sem_eq 0 2 _) rfl fdn κs κr _
      (ptsLent_intro c (agM0_2 c) _) hp2) $$ [HjL Hdst HO Hts Htr]
  · isplitr; · iexact HIs
    isplitr; · iexact HIr
    isplitl [HjL]; · iexact HjL
    isplitl [Hdst]; · iexact Hdst
    isplitl [HO]; · iexact HO
    isplitl [Hts]; · iexact Hts
    isplitr; · iexact Hrs
    isplitl [Htr]; · iexact Htr
    iexact Hrr
  iintro ⟨Hcs, HO⟩
  have h101 : ((Memref.whole cc0_scratch13 : Memref sig .tc .vmem S2048x384 .bf16).access (Rect.unit (s := S2048x384) (k0_off101 c) ![512, 384] (k0_off101_inb c))).set ⊆ (agM0_2 c).view.set := by
    refine Finset.Subset.trans (le_of_eq (View.set_slice_whole _ _)) ?_
    piece_dev c unit_subset [off101_eq, off100_eq]
  have h102 : ((Memref.whole cc0_scratch0 : Memref sig .tc .vmem S2048x2048 .f32).access (Rect.unit (s := S2048x2048) (k0_off102 c) ![512, 384] (k0_off102_inb c))).set ⊆ (outSrcM12 c).view.set :=
    le_of_eq ((View.set_slice_whole _ _).trans ((unit_set_congr ((off102_eq c).trans (off103_eq c).symm) rfl).trans (View.set_slice_whole _ _).symm))
  have h102' : ((Memref.whole cc0_scratch0 : Memref sig .tc .vmem S2048x2048 .f32).access (Rect.unit (s := S2048x2048) (k0_off102 c) ![512, 384] (k0_off102_inb c))).setOn Finset.univ ⊆ (outSrcM12 c).view.set := h102
  sl_exec
  have hpo : iprop(((outDstM12 c).view.loc (c : Thread nD τ) ↦[(outDstM12 c).view.set]{fullShare} ((outDstM12 c).view.write (Elt F) fd ((outSrcM12 c).view.read (Elt F)
        (((Memref.whole cc0_scratch0 : Memref sig .tc .vmem S2048x2048 .f32).access (Rect.unit (s := S2048x2048) (k0_off102 c) S512x384.size (k0_off102_inb c))).write (Elt F) f12
          (k0_pay94 (View.readAt (Elt F) (Memref.whole cc0_scratch13 : Memref sig .tc .vmem S2048x384 .bf16).view (Rect.unit (s := S2048x384) (k0_off101 c) S512x384.size (k0_off101_inb c)).toLoadRect (((agM0_1 (nbr 1 c)).view.set : Finset (Idx ((Memref.whole cc0_scratch13 : Memref sig .tc .vmem S2048x384 .bf16).view.loc (c : Thread nD τ)))).piecewise f2 g1))) Finset.univ)) Finset.univ))
      ∗ ((outSrcM12 c).view.loc (c : Thread nD τ) ↦[(outSrcM12 c).view.set]{fullShare}
        (((Memref.whole cc0_scratch0 : Memref sig .tc .vmem S2048x2048 .f32).access (Rect.unit (s := S2048x2048) (k0_off102 c) S512x384.size (k0_off102_inb c))).write (Elt F) f12
          (k0_pay94 (View.readAt (Elt F) (Memref.whole cc0_scratch13 : Memref sig .tc .vmem S2048x384 .bf16).view (Rect.unit (s := S2048x384) (k0_off101 c) S512x384.size (k0_off101_inb c)).toLoadRect (((agM0_1 (nbr 1 c)).view.set : Finset (Idx ((Memref.whole cc0_scratch13 : Memref sig .tc .vmem S2048x384 .bf16).view.loc (c : Thread nD τ)))).piecewise f2 g1))) Finset.univ)) : sProp 𝕄) ⊢ pay V c (.out 12) 0 := by
    show _ ⊢ iprop(ptsIs c (outDstM12 c) (V.out12 c) ∗ ptsAny (F := F) c (outSrcM12 c))
    exact BI.sep_mono (ptsIs_intro c (outDstM12 c) _ _ (by rw [View.read_write_univ]; exact hVout f2 hf2)) (ptsAny_intro c (outSrcM12 c) _)
  iapply (wp_copy_own V c (.out 12) (by decide) (src := outSrcM12 c) (dst := outDstM12 c) (out_sem_eq 12 _) rfl fd κo hpo) $$ [H12 Hd Hto]
  · isplitr; · iexact HIo
    isplitl [H12]; · iexact H12
    isplitl [Hd]; · iexact Hd
    isplitl [Hto]; · iexact Hto
    iexact Hro
  iintro Hco
  sl_step
  isplitr; · ipureintro; rfl
  iexists f2
  isplitr; · ipureintro; exact hf2
  isplitl [HO]; · iexact HO
  isplitl [Hat1]; · iexact Hat1
  isplitl [Hcs]; · iexact Hcs
  isplitl [Hco]; · iexact Hco
  iexact HjR

end Cert.Kernel.Proto

end
-- ==== Proof.Body49Bits.lean ====
/-
A stretch of a device's kernel body, in the all-gather phase. Column group 1's second round: its first-round
transfer is over (the lent half share of the own rows comes back) and the neighbour's 512 rows across axis 2 have
arrived; joined with the own rows they are the 1024 rows sent across axis 1, of which the transfer borrows the left
half share. The arrived rows and their block of the accumulator are then read.
-/
import proofs.«900882_g7700000000000883_dist_matmul_gelu_kshard_i_m2048_n2048_k1024_v7x_i8_f32_1_alg».proof.Proof.RulesBits
import proofs.«900882_g7700000000000883_dist_matmul_gelu_kshard_i_m2048_n2048_k1024_v7x_i8_f32_1_alg».proof.Proof.TopoBitsTab
import proofs.«900882_g7700000000000883_dist_matmul_gelu_kshard_i_m2048_n2048_k1024_v7x_i8_f32_1_alg».proof.Proof.PiecesTabBits
import proofs.«900882_g7700000000000883_dist_matmul_gelu_kshard_i_m2048_n2048_k1024_v7x_i8_f32_1_alg».proof.Proof.PiecesOutSepBits
import proofs.«900882_g7700000000000883_dist_matmul_gelu_kshard_i_m2048_n2048_k1024_v7x_i8_f32_1_alg».proof.Proof.PiecesOutTabBits
import proofs.«900882_g7700000000000883_dist_matmul_gelu_kshard_i_m2048_n2048_k1024_v7x_i8_f32_1_alg».proof.Proof.Gen.Kernel.Skeleton
import Idealize.ShloMosaic.Lib.Pipeline.Value

set_option maxRecDepth 16384

noncomputable section

namespace Cert.Kernel.Proto

open Cert.Kernel Cert.Kernel.Gen Cert.Kernel.Topo
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : Vals F)

set_option maxHeartbeats 4000000 in
theorem part49_run (c : Dev nD) (κs1 κr1 κs κr : ℕ) (W : Waits sig Unit) (v2 v8 v1313 v1323 v1326 : BitVec 32)
    (g1 : Buf (Elt F) ((Memref.whole cc0_scratch14 : Memref sig .tc .vmem S2048x384 .bf16).view.loc (c : Thread nD τ)))
    (f13 : Buf (Elt F) ((outSrcM13 c).view.loc (c : Thread nD τ)))
    (hVag : ∀ f2 : Buf (Elt F) ((Memref.whole cc0_scratch14 : Memref sig .tc .vmem S2048x384 .bf16).view.loc (c : Thread nD τ)), V.ag1_1 (nbr 2 c) ((agM1_1 (nbr 2 c)).view.read (Elt F) f2) →
      V.ag1_2 c ((agM1_2 c).view.read (Elt F) (((agM1_1 (nbr 2 c)).view.set : Finset (Idx ((Memref.whole cc0_scratch14 : Memref sig .tc .vmem S2048x384 .bf16).view.loc (c : Thread nD τ)))).piecewise f2 g1))) :
    iprop(cellInv ER (sched V) κs1 (cell c (.agS 1 1)) ∗ cellInv ER (sched V) κr1 (cell c (.agR 1 1))
        ∗ cellInv ER (sched V) κs (cell c (.agS 1 2)) ∗ cellInv ER (sched V) κr (cell (nbr 1 c) (.agR 1 2))
        ∗ reached ER (cell c (.agS 1 2)) 0 ∗ reached ER (cell (nbr 1 c) (.agR 1 2)) 0
        ∗ dutyTok ER (cell c (.agS 1 2)) 0 (0 : Fin 3) ∗ dutyTok ER (cell (nbr 1 c) (.agR 1 2)) 0 (0 : Fin 3)
        ∗ cred (tallyAt (cell c (.agS 1 1)) () (amt (.agR 1 1))) ∗ atPos ER (cell c (.agS 1 1)) 0 ∅ 0
        ∗ cred (tallyAt (cell c (.agR 1 1)) () (amt (.agR 1 1))) ∗ atPos ER (cell c (.agR 1 1)) 0 ∅ 0
        ∗ owes (c : Thread nD τ) (Owe c 34) W ∗ levAts L lv
        ∗ ptsAny (F := F) (nbr 1 c) (agM1_2 c)
        ∗ ((agM1_1 c).view.loc (c : Thread nD τ) ↦[(agM1_1 c).view.set]{fullShare.right} g1)
        ∗ heldW c (outSrcM13 c) f13)
      ⊢ wp frame (wpE (defs₀ (F := F)) 𝒱₀ c none) Set.univ
          (k0_part49 (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23 c v2 v8 v1313 v1323 v1326)
          (fun r => iprop(∃ f2 : Buf (Elt F) ((Memref.whole cc0_scratch14 : Memref sig .tc .vmem S2048x384 .bf16).view.loc (c : Thread nD τ)),
            ⌜r = ⟨Scalar.xori v2 3#32, Scalar.addi (Scalar.subi v1323 (Scalar.muli v8 1024#32)) (Scalar.muli (Scalar.subi 1#32 v8) 1024#32), k0_pay95 (View.readAt (Elt F) (Memref.whole cc0_scratch14 : Memref sig .tc .vmem S2048x384 .bf16).view (Rect.unit (s := S2048x384) (k0_off105 c) S512x384.size (k0_off105_inb c)).toLoadRect (((agM1_1 (nbr 2 c)).view.set : Finset (Idx ((Memref.whole cc0_scratch14 : Memref sig .tc .vmem S2048x384 .bf16).view.loc (c : Thread nD τ)))).piecewise f2 g1)), (View.readAt (Elt F) (Memref.whole cc0_scratch0 : Memref sig .tc .vmem S2048x2048 .f32).view (Rect.unit (s := S2048x2048) (k0_off106 c) S512x384.size (k0_off106_inb c)).toLoadRect f13)⟩⌝
            ∗ ⌜V.ag1_1 (nbr 2 c) ((agM1_1 (nbr 2 c)).view.read (Elt F) f2)⌝
            ∗ owes (c : Thread nD τ) (Owe c 35) (insert ((CK.agR 1 1).sem, ()) (insert ((CK.agS 1 1).sem, ()) W))
            ∗ atPos ER (cell c (.agS 1 1)) 1 ∅ 0 ∗ atPos ER (cell c (.agR 1 1)) 1 ∅ 0
            ∗ cred (tallyAt (cell c (.agS 1 2)) () (amt (.agR 1 2)))
            ∗ ((agM1_2 c).view.loc (c : Thread nD τ) ↦[(agM1_2 c).view.set]{fullShare.right} (((agM1_1 (nbr 2 c)).view.set : Finset (Idx ((Memref.whole cc0_scratch14 : Memref sig .tc .vmem S2048x384 .bf16).view.loc (c : Thread nD τ)))).piecewise f2 g1))
            ∗ heldW c (outSrcM13 c) f13)) := by
  simp only [k0_part49_eq_skeleton]; unfold k0_part49_skel
  simp only [Prog.lift, Prog.bind_op, Prog.bind_ret, Prog.pure_eq_ret]
  iintro ⟨#HIs1, #HIr1, #HIs, #HIr, #Hrs, #Hrr, Hts, Htr, Hcs1, Hats1, Hcr1, Hatr1, HO, #Hlev, Hdst, Hown, H13⟩
  unfold heldW
  iapply (wp_wait_xfer V c (.agS 1 1) (by decide) 34 (agS_sem_eq 1 1 _) (k' := ((agM1_1 c) : Memref sig .tc .vmem S512x384 .bf16).view.dmaCredit) rfl (wpE_waitDma2_eq 𝒱₀ (c : Thread nD τ) none Set.univ)
      (mayWait_own c (.agS 1 1) (lv_cell c (.agS 1 1)) 34) κs1 W) $$ [Hcs1 HO Hats1]
  · isplitr; · iexact HIs1
    isplitl [Hcs1]; · iexact Hcs1
    isplitl [HO]; · iexact HO
    isplitr; · iexact Hlev
    iexact Hats1
  iintro ⟨HO, Hats1, HqS⟩
  iapply (wp_wait_xfer V c (.agR 1 1) (by decide) 34 (agR_sem_eq 1 1 _) (k' := ((agM1_1 c) : Memref sig .tc .vmem S512x384 .bf16).view.dmaCredit) rfl (wpE_waitDma2_eq 𝒱₀ (c : Thread nD τ) none Set.univ)
      (mayWait_agR c 1 1 34 (by decide)) κr1 (insert ((CK.agS 1 1).sem, ()) W)) $$ [Hcr1 HO Hatr1]
  · isplitr; · iexact HIr1
    isplitl [Hcr1]; · iexact Hcr1
    isplitl [HO]; · iexact HO
    isplitr; · iexact Hlev
    iexact Hatr1
  iintro ⟨HO, Hatr1, HqR⟩
  ihave Hlent := (Entails.of_eq (show pay V c (.agS 1 1) 0 = ptsLent (F := F) c (agM1_1 c) from rfl)) $$ HqS
  ihave Hp := (Entails.of_eq (show pay V c (.agR 1 1) 0 = ptsIs c (agM1_1 (nbr 2 c)) (V.ag1_1 (nbr 2 c)) from rfl)) $$ HqR
  unfold ptsIs ptsLent ptsAny
  icases Hp with ⟨%f2, Hf2, %hf2⟩
  icases Hlent with ⟨%g1', Hlent⟩
  icases Hdst with ⟨%fdn, Hdst⟩
  -- the kept right half and the lent left half of the own rows agree, so they make the full share again
  ihave Hag := (persistent_entails_right (pointsTo_agree (ℓ := ((Memref.whole cc0_scratch14 : Memref sig .tc .vmem S2048x384 .bf16).view.loc (c : Thread nD τ))) (I := (agM1_1 c).view.set) (J := (agM1_1 c).view.set) (q₁ := fullShare.left) (q₂ := fullShare.right) (f := g1') (g := g1))) $$ [Hlent Hown]
  · isplitl [Hlent]; · iexact Hlent
    iexact Hown
  icases Hag with ⟨%hag, Hlent, Hown⟩
  ihave Hlent' := (Entails.of_eq (pointsTo_congr (ℓ := ((Memref.whole cc0_scratch14 : Memref sig .tc .vmem S2048x384 .bf16).view.loc (c : Thread nD τ))) (I := (agM1_1 c).view.set) (q := fullShare.left) (f := g1') (g := g1) fun i hi => (hag i (Finset.mem_inter.mpr ⟨hi, hi⟩)).1)) $$ Hlent
  ihave Hfull := (pointsTo_share (ℓ := ((Memref.whole cc0_scratch14 : Memref sig .tc .vmem S2048x384 .bf16).view.loc (c : Thread nD τ))) (I := (agM1_1 c).view.set) (f := g1) (PosShare.mem_left_op_right fullShare)).2 $$ [Hlent' Hown]
  · isplitl [Hlent']; · iexact Hlent'
    iexact Hown
  -- the own rows and the arrived rows are the rows of the next step
  ihave Hj := (pointsTo_join (ℓ := ((Memref.whole cc0_scratch14 : Memref sig .tc .vmem S2048x384 .bf16).view.loc (c : Thread nD τ))) (I := (agM1_1 c).view.set) (J := (agM1_1 (nbr 2 c)).view.set) (q := fullShare) (f := g1) (g := f2) (ag_disj1_1 c)) $$ [Hfull Hf2]
  · isplitl [Hfull]; · iexact Hfull
    iexact Hf2
  ihave Hj2 := (Entails.of_eq (pts_set_eq (F := F) (ℓ := ((Memref.whole cc0_scratch14 : Memref sig .tc .vmem S2048x384 .bf16).view.loc (c : Thread nD τ))) (S' := (agM1_2 c).view.set) (q := fullShare) (f := (((agM1_1 (nbr 2 c)).view.set : Finset (Idx ((Memref.whole cc0_scratch14 : Memref sig .tc .vmem S2048x384 .bf16).view.loc (c : Thread nD τ)))).piecewise f2 g1)) (ag_join1_1 c).symm)) $$ Hj
  ihave Hh := (pointsTo_share (ℓ := ((Memref.whole cc0_scratch14 : Memref sig .tc .vmem S2048x384 .bf16).view.loc (c : Thread nD τ))) (I := (agM1_2 c).view.set) (f := (((agM1_1 (nbr 2 c)).view.set : Finset (Idx ((Memref.whole cc0_scratch14 : Memref sig .tc .vmem S2048x384 .bf16).view.loc (c : Thread nD τ)))).piecewise f2 g1)) (PosShare.mem_left_op_right fullShare)).1 $$ Hj2
  icases Hh with ⟨HjL0, HjR0⟩
  ihave HjL := (Entails.of_eq (show ((((Memref.whole cc0_scratch14 : Memref sig .tc .vmem S2048x384 .bf16).view.loc (c : Thread nD τ)) ↦[(agM1_2 c).view.set]{fullShare.left} (((agM1_1 (nbr 2 c)).view.set : Finset (Idx ((Memref.whole cc0_scratch14 : Memref sig .tc .vmem S2048x384 .bf16).view.loc (c : Thread nD τ)))).piecewise f2 g1) : sProp 𝕄)) = ((agM1_2 c).view.loc (c : Thread nD τ) ↦[(agM1_2 c).view.set]{fullShare.left} (((agM1_1 (nbr 2 c)).view.set : Finset (Idx ((Memref.whole cc0_scratch14 : Memref sig .tc .vmem S2048x384 .bf16).view.loc (c : Thread nD τ)))).piecewise f2 g1)) from rfl)) $$ HjL0
  ihave HjR := (Entails.of_eq (show ((((Memref.whole cc0_scratch14 : Memref sig .tc .vmem S2048x384 .bf16).view.loc (c : Thread nD τ)) ↦[(agM1_2 c).view.set]{fullShare.right} (((agM1_1 (nbr 2 c)).view.set : Finset (Idx ((Memref.whole cc0_scratch14 : Memref sig .tc .vmem S2048x384 .bf16).view.loc (c : Thread nD τ)))).piecewise f2 g1) : sProp 𝕄)) = ((agM1_2 c).view.loc (c : Thread nD τ) ↦[(agM1_2 c).view.set]{fullShare.right} (((agM1_1 (nbr 2 c)).view.set : Finset (Idx ((Memref.whole cc0_scratch14 : Memref sig .tc .vmem S2048x384 .bf16).view.loc (c : Thread nD τ)))).piecewise f2 g1)) from rfl)) $$ HjR0
  have hp2 : ((agM1_2 c).view.loc (nbr 1 c : Thread nD τ) ↦[(agM1_2 c).view.set]{fullShare}
      ((agM1_2 c).view.write (Elt F) fdn ((agM1_2 c).view.read (Elt F) (((agM1_1 (nbr 2 c)).view.set : Finset (Idx ((Memref.whole cc0_scratch14 : Memref sig .tc .vmem S2048x384 .bf16).view.loc (c : Thread nD τ)))).piecewise f2 g1)) Finset.univ) : sProp 𝕄)
      ⊢ pay V (nbr 1 c) (.agR 1 2) 0 := by
    have e : pay V (nbr 1 c) (.agR 1 2) 0 = ptsIs (nbr 1 c) (agM1_2 c) (V.ag1_2 c) := by
      show ptsIs (nbr 1 c) (agM1_2 (nbr 1 (nbr 1 c))) (V.ag1_2 (nbr 1 (nbr 1 c))) = _
      rw [nbr_nbr]
    rw [e]
    exact ptsIs_intro (nbr 1 c) (agM1_2 c) _ _ (by rw [View.read_write_univ]; exact hVag f2 hf2)
  iapply (wp_send_to V c ⟨k0_dev35 c, k0_dev35_lt c⟩ 1 (dev35_eq c) (.agS 1 2) (.agR 1 2) (by decide) (by decide) 34 (by decide) (paid_ag c 1 2) rfl
      (src := (agM1_2 c)) (dst := (agM1_2 c)) (agS_sem_eq 1 2 _) (agR_sem_eq 1 2 _) rfl fdn κs κr _
      (ptsLent_intro c (agM1_2 c) _) hp2) $$ [HjL Hdst HO Hts Htr]
  · isplitr; · iexact HIs
    isplitr; · iexact HIr
    isplitl [HjL]; · iexact HjL
    isplitl [Hdst]; · iexact Hdst
    isplitl [HO]; · iexact HO
    isplitl [Hts]; · iexact Hts
    isplitr; · iexact Hrs
    isplitl [Htr]; · iexact Htr
    iexact Hrr
  iintro ⟨Hcs, HO⟩
  have hA : ((Memref.whole cc0_scratch14 : Memref sig .tc .vmem S2048x384 .bf16).access (Rect.unit (s := S2048x384) (k0_off105 c) ![512, 384] (k0_off105_inb c))).set ⊆ (agM1_2 c).view.set := by
    refine Finset.Subset.trans (le_of_eq (View.set_slice_whole _ _)) ?_
    piece_dev c unit_subset [off105_eq, off104_eq]
  have hB : ((Memref.whole cc0_scratch0 : Memref sig .tc .vmem S2048x2048 .f32).access (Rect.unit (s := S2048x2048) (k0_off106 c) ![512, 384] (k0_off106_inb c))).set ⊆ (outSrcM13 c).view.set :=
    le_of_eq ((View.set_slice_whole _ _).trans ((unit_set_congr ((off106_eq c).trans (off107_eq c).symm) rfl).trans (View.set_slice_whole _ _).symm))
  have hB' : ((Memref.whole cc0_scratch0 : Memref sig .tc .vmem S2048x2048 .f32).access (Rect.unit (s := S2048x2048) (k0_off106 c) ![512, 384] (k0_off106_inb c))).setOn Finset.univ ⊆ (outSrcM13 c).view.set := hB
  sl_exec
  sl_step
  iexists f2
  isplitr; · ipureintro; rfl
  isplitr; · ipureintro; exact hf2
  isplitl [HO]; · iexact HO
  isplitl [Hats1]; · iexact Hats1
  isplitl [Hatr1]; · iexact Hatr1
  isplitl [Hcs]; · iexact Hcs
  isplitl [HjR]; · iexact HjR
  iexact H13

end Cert.Kernel.Proto

end
-- ==== Proof.Body50Bits.lean ====
/-
A stretch of a device's kernel body, in the all-gather phase. The widened rows of column group 1 are stored into
their block of the accumulator and that block is copied to the result array. Column group 2's second round: the
lent half share of its own rows comes back, the neighbour's 512 rows across axis 0 arrive, and the 1024 joined rows
are sent across axis 2, the transfer borrowing their left half share.
-/
import proofs.«900882_g7700000000000883_dist_matmul_gelu_kshard_i_m2048_n2048_k1024_v7x_i8_f32_1_alg».proof.Proof.RulesBits
import proofs.«900882_g7700000000000883_dist_matmul_gelu_kshard_i_m2048_n2048_k1024_v7x_i8_f32_1_alg».proof.Proof.TopoBitsTab
import proofs.«900882_g7700000000000883_dist_matmul_gelu_kshard_i_m2048_n2048_k1024_v7x_i8_f32_1_alg».proof.Proof.PiecesTabBits
import proofs.«900882_g7700000000000883_dist_matmul_gelu_kshard_i_m2048_n2048_k1024_v7x_i8_f32_1_alg».proof.Proof.PiecesOutSepBits
import proofs.«900882_g7700000000000883_dist_matmul_gelu_kshard_i_m2048_n2048_k1024_v7x_i8_f32_1_alg».proof.Proof.PiecesOutTabBits
import proofs.«900882_g7700000000000883_dist_matmul_gelu_kshard_i_m2048_n2048_k1024_v7x_i8_f32_1_alg».proof.Proof.Gen.Kernel.Skeleton
import Idealize.ShloMosaic.Lib.Pipeline.Value

set_option maxRecDepth 16384

noncomputable section

namespace Cert.Kernel.Proto

open Cert.Kernel Cert.Kernel.Gen Cert.Kernel.Topo
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : Vals F)

set_option maxHeartbeats 4000000 in
theorem part50_run (c : Dev nD) (κo κs1 κr1 κs κr : ℕ) (W : Waits sig Unit) (v2 v9 v1348 v1358 : BitVec 32) (v1539 : FVec F S512x384 .f32) (v1541 : Vec F S512x384 .f32)
    (g1 : Buf (Elt F) ((Memref.whole cc0_scratch15 : Memref sig .tc .vmem S2048x384 .bf16).view.loc (c : Thread nD τ)))
    (f13 : Buf (Elt F) ((outSrcM13 c).view.loc (c : Thread nD τ))) (fd : Buf (Elt F) ((outDstM13 c).view.loc (c : Thread nD τ)))
    (hVout : V.out13 c ((outSrcM13 c).view.read (Elt F) (((Memref.whole cc0_scratch0 : Memref sig .tc .vmem S2048x2048 .f32).access (Rect.unit (s := S2048x2048) (k0_off106 c) S512x384.size (k0_off106_inb c))).write (Elt F) f13 (k0_pay96 v1539) Finset.univ)))
    (hVag : ∀ f2 : Buf (Elt F) ((Memref.whole cc0_scratch15 : Memref sig .tc .vmem S2048x384 .bf16).view.loc (c : Thread nD τ)), V.ag2_1 (nbr 0 c) ((agM2_1 (nbr 0 c)).view.read (Elt F) f2) →
      V.ag2_2 c ((agM2_2 c).view.read (Elt F) (((agM2_1 (nbr 0 c)).view.set : Finset (Idx ((Memref.whole cc0_scratch15 : Memref sig .tc .vmem S2048x384 .bf16).view.loc (c : Thread nD τ)))).piecewise f2 g1))) :
    iprop(cellInv ER (sched V) κo (cell c (.out 13)) ∗ cellInv ER (sched V) κs1 (cell c (.agS 2 1)) ∗ cellInv ER (sched V) κr1 (cell c (.agR 2 1))
        ∗ cellInv ER (sched V) κs (cell c (.agS 2 2)) ∗ cellInv ER (sched V) κr (cell (nbr 2 c) (.agR 2 2))
        ∗ reached ER (cell c (.out 13)) 0 ∗ reached ER (cell c (.agS 2 2)) 0 ∗ reached ER (cell (nbr 2 c) (.agR 2 2)) 0
        ∗ dutyTok ER (cell c (.out 13)) 0 (0 : Fin 3) ∗ dutyTok ER (cell c (.agS 2 2)) 0 (0 : Fin 3) ∗ dutyTok ER (cell (nbr 2 c) (.agR 2 2)) 0 (0 : Fin 3)
        ∗ cred (tallyAt (cell c (.agS 2 1)) () (amt (.agR 2 1))) ∗ atPos ER (cell c (.agS 2 1)) 0 ∅ 0
        ∗ cred (tallyAt (cell c (.agR 2 1)) () (amt (.agR 2 1))) ∗ atPos ER (cell c (.agR 2 1)) 0 ∅ 0
        ∗ owes (c : Thread nD τ) (Owe c 35) W ∗ levAts L lv
        ∗ ptsAny (F := F) (nbr 2 c) (agM2_2 c)
        ∗ ((agM2_1 c).view.loc (c : Thread nD τ) ↦[(agM2_1 c).view.set]{fullShare.right} g1)
        ∗ heldW c (outSrcM13 c) f13 ∗ heldW c (outDstM13 c) fd)
      ⊢ wp frame (wpE (defs₀ (F := F)) 𝒱₀ c none) Set.univ
          (k0_part50 (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23 c v2 v9 v1348 v1358 v1539 v1541)
          (fun r => iprop(⌜r = ⟨Scalar.xori v2 4#32, Scalar.subi v1358 (Scalar.muli v9 1024#32)⟩⌝
            ∗ ∃ f2 : Buf (Elt F) ((Memref.whole cc0_scratch15 : Memref sig .tc .vmem S2048x384 .bf16).view.loc (c : Thread nD τ)), ⌜V.ag2_1 (nbr 0 c) ((agM2_1 (nbr 0 c)).view.read (Elt F) f2)⌝
            ∗ owes (c : Thread nD τ) (Owe c 36) (insert ((CK.agR 2 1).sem, ()) (insert ((CK.agS 2 1).sem, ()) W))
            ∗ atPos ER (cell c (.agS 2 1)) 1 ∅ 0 ∗ atPos ER (cell c (.agR 2 1)) 1 ∅ 0
            ∗ cred (tallyAt (cell c (.out 13)) () (amt (.out 13))) ∗ cred (tallyAt (cell c (.agS 2 2)) () (amt (.agR 2 2)))
            ∗ ((agM2_2 c).view.loc (c : Thread nD τ) ↦[(agM2_2 c).view.set]{fullShare.right} (((agM2_1 (nbr 0 c)).view.set : Finset (Idx ((Memref.whole cc0_scratch15 : Memref sig .tc .vmem S2048x384 .bf16).view.loc (c : Thread nD τ)))).piecewise f2 g1)))) := by
  simp only [k0_part50_eq_skeleton]; unfold k0_part50_skel
  simp only [Prog.lift, Prog.bind_op, Prog.bind_ret, Prog.pure_eq_ret]
  iintro ⟨#HIo, #HIs1, #HIr1, #HIs, #HIr, #Hro, #Hrs, #Hrr, Hto, Hts, Htr, Hcs1, Hats1, Hcr1, Hatr1, HO, #Hlev, Hdst, Hown, H13, Hd⟩
  unfold heldW
  have hB : ((Memref.whole cc0_scratch0 : Memref sig .tc .vmem S2048x2048 .f32).access (Rect.unit (s := S2048x2048) (k0_off106 c) ![512, 384] (k0_off106_inb c))).set ⊆ (outSrcM13 c).view.set :=
    le_of_eq ((View.set_slice_whole _ _).trans ((unit_set_congr ((off106_eq c).trans (off107_eq c).symm) rfl).trans (View.set_slice_whole _ _).symm))
  have hB' : ((Memref.whole cc0_scratch0 : Memref sig .tc .vmem S2048x2048 .f32).access (Rect.unit (s := S2048x2048) (k0_off106 c) ![512, 384] (k0_off106_inb c))).setOn Finset.univ ⊆ (outSrcM13 c).view.set := hB
  sl_exec
  have hpo13 : iprop(((outDstM13 c).view.loc (c : Thread nD τ) ↦[(outDstM13 c).view.set]{fullShare} ((outDstM13 c).view.write (Elt F) fd ((outSrcM13 c).view.read (Elt F)
        (((Memref.whole cc0_scratch0 : Memref sig .tc .vmem S2048x2048 .f32).access (Rect.unit (s := S2048x2048) (k0_off106 c) S512x384.size (k0_off106_inb c))).write (Elt F) f13 (k0_pay96 v1539) Finset.univ)) Finset.univ))
      ∗ ((outSrcM13 c).view.loc (c : Thread nD τ) ↦[(outSrcM13 c).view.set]{fullShare}
        (((Memref.whole cc0_scratch0 : Memref sig .tc .vmem S2048x2048 .f32).access (Rect.unit (s := S2048x2048) (k0_off106 c) S512x384.size (k0_off106_inb c))).write (Elt F) f13 (k0_pay96 v1539) Finset.univ)) : sProp 𝕄) ⊢ pay V c (.out 13) 0 := by
    show _ ⊢ iprop(ptsIs c (outDstM13 c) (V.out13 c) ∗ ptsAny (F := F) c (outSrcM13 c))
    exact BI.sep_mono (ptsIs_intro c (outDstM13 c) _ _ (by rw [View.read_write_univ]; exact hVout)) (ptsAny_intro c (outSrcM13 c) _)
  iapply (wp_copy_own V c (.out 13) (by decide) (src := outSrcM13 c) (dst := outDstM13 c) (out_sem_eq 13 _) rfl fd κo hpo13) $$ [H13 Hd Hto]
  · isplitr; · iexact HIo
    isplitl [H13]; · iexact H13
    isplitl [Hd]; · iexact Hd
    isplitl [Hto]; · iexact Hto
    iexact Hro
  iintro Hco
  iapply (wp_wait_xfer V c (.agS 2 1) (by decide) 35 (agS_sem_eq 2 1 _) (k' := ((agM2_1 c) : Memref sig .tc .vmem S512x384 .bf16).view.dmaCredit) rfl (wpE_waitDma2_eq 𝒱₀ (c : Thread nD τ) none Set.univ)
      (mayWait_own c (.agS 2 1) (lv_cell c (.agS 2 1)) 35) κs1 W) $$ [Hcs1 HO Hats1]
  · isplitr; · iexact HIs1
    isplitl [Hcs1]; · iexact Hcs1
    isplitl [HO]; · iexact HO
    isplitr; · iexact Hlev
    iexact Hats1
  iintro ⟨HO, Hats1, HqS⟩
  iapply (wp_wait_xfer V c (.agR 2 1) (by decide) 35 (agR_sem_eq 2 1 _) (k' := ((agM2_1 c) : Memref sig .tc .vmem S512x384 .bf16).view.dmaCredit) rfl (wpE_waitDma2_eq 𝒱₀ (c : Thread nD τ) none Set.univ)
      (mayWait_agR c 2 1 35 (by decide)) κr1 (insert ((CK.agS 2 1).sem, ()) W)) $$ [Hcr1 HO Hatr1]
  · isplitr; · iexact HIr1
    isplitl [Hcr1]; · iexact Hcr1
    isplitl [HO]; · iexact HO
    isplitr; · iexact Hlev
    iexact Hatr1
  iintro ⟨HO, Hatr1, HqR⟩
  ihave Hlent := (Entails.of_eq (show pay V c (.agS 2 1) 0 = ptsLent (F := F) c (agM2_1 c) from rfl)) $$ HqS
  ihave Hp := (Entails.of_eq (show pay V c (.agR 2 1) 0 = ptsIs c (agM2_1 (nbr 0 c)) (V.ag2_1 (nbr 0 c)) from rfl)) $$ HqR
  unfold ptsIs ptsLent ptsAny
  icases Hp with ⟨%f2, Hf2, %hf2⟩
  icases Hlent with ⟨%g1', Hlent⟩
  icases Hdst with ⟨%fdn, Hdst⟩
  -- the kept right half and the lent left half of the own rows agree, so they make the full share again
  ihave Hag := (persistent_entails_right (pointsTo_agree (ℓ := ((Memref.whole cc0_scratch15 : Memref sig .tc .vmem S2048x384 .bf16).view.loc (c : Thread nD τ))) (I := (agM2_1 c).view.set) (J := (agM2_1 c).view.set) (q₁ := fullShare.left) (q₂ := fullShare.right) (f := g1') (g := g1))) $$ [Hlent Hown]
  · isplitl [Hlent]; · iexact Hlent
    iexact Hown
  icases Hag with ⟨%hag, Hlent, Hown⟩
  ihave Hlent' := (Entails.of_eq (pointsTo_congr (ℓ := ((Memref.whole cc0_scratch15 : Memref sig .tc .vmem S2048x384 .bf16).view.loc (c : Thread nD τ))) (I := (agM2_1 c).view.set) (q := fullShare.left) (f := g1') (g := g1) fun i hi => (hag i (Finset.mem_inter.mpr ⟨hi, hi⟩)).1)) $$ Hlent
  ihave Hfull := (pointsTo_share (ℓ := ((Memref.whole cc0_scratch15 : Memref sig .tc .vmem S2048x384 .bf16).view.loc (c : Thread nD τ))) (I := (agM2_1 c).view.set) (f := g1) (PosShare.mem_left_op_right fullShare)).2 $$ [Hlent' Hown]
  · isplitl [Hlent']; · iexact Hlent'
    iexact Hown
  -- the own rows and the arrived rows are the rows of the next step
  ihave Hj := (pointsTo_join (ℓ := ((Memref.whole cc0_scratch15 : Memref sig .tc .vmem S2048x384 .bf16).view.loc (c : Thread nD τ))) (I := (agM2_1 c).view.set) (J := (agM2_1 (nbr 0 c)).view.set) (q := fullShare) (f := g1) (g := f2) (ag_disj1_2 c)) $$ [Hfull Hf2]
  · isplitl [Hfull]; · iexact Hfull
    iexact Hf2
  ihave Hj2 := (Entails.of_eq (pts_set_eq (F := F) (ℓ := ((Memref.whole cc0_scratch15 : Memref sig .tc .vmem S2048x384 .bf16).view.loc (c : Thread nD τ))) (S' := (agM2_2 c).view.set) (q := fullShare) (f := (((agM2_1 (nbr 0 c)).view.set : Finset (Idx ((Memref.whole cc0_scratch15 : Memref sig .tc .vmem S2048x384 .bf16).view.loc (c : Thread nD τ)))).piecewise f2 g1)) (ag_join1_2 c).symm)) $$ Hj
  ihave Hh := (pointsTo_share (ℓ := ((Memref.whole cc0_scratch15 : Memref sig .tc .vmem S2048x384 .bf16).view.loc (c : Thread nD τ))) (I := (agM2_2 c).view.set) (f := (((agM2_1 (nbr 0 c)).view.set : Finset (Idx ((Memref.whole cc0_scratch15 : Memref sig .tc .vmem S2048x384 .bf16).view.loc (c : Thread nD τ)))).piecewise f2 g1)) (PosShare.mem_left_op_right fullShare)).1 $$ Hj2
  icases Hh with ⟨HjL0, HjR0⟩
  ihave HjL := (Entails.of_eq (show ((((Memref.whole cc0_scratch15 : Memref sig .tc .vmem S2048x384 .bf16).view.loc (c : Thread nD τ)) ↦[(agM2_2 c).view.set]{fullShare.left} (((agM2_1 (nbr 0 c)).view.set : Finset (Idx ((Memref.whole cc0_scratch15 : Memref sig .tc .vmem S2048x384 .bf16).view.loc (c : Thread nD τ)))).piecewise f2 g1) : sProp 𝕄)) = ((agM2_2 c).view.loc (c : Thread nD τ) ↦[(agM2_2 c).view.set]{fullShare.left} (((agM2_1 (nbr 0 c)).view.set : Finset (Idx ((Memref.whole cc0_scratch15 : Memref sig .tc .vmem S2048x384 .bf16).view.loc (c : Thread nD τ)))).piecewise f2 g1)) from rfl)) $$ HjL0
  ihave HjR := (Entails.of_eq (show ((((Memref.whole cc0_scratch15 : Memref sig .tc .vmem S2048x384 .bf16).view.loc (c : Thread nD τ)) ↦[(agM2_2 c).view.set]{fullShare.right} (((agM2_1 (nbr 0 c)).view.set : Finset (Idx ((Memref.whole cc0_scratch15 : Memref sig .tc .vmem S2048x384 .bf16).view.loc (c : Thread nD τ)))).piecewise f2 g1) : sProp 𝕄)) = ((agM2_2 c).view.loc (c : Thread nD τ) ↦[(agM2_2 c).view.set]{fullShare.right} (((agM2_1 (nbr 0 c)).view.set : Finset (Idx ((Memref.whole cc0_scratch15 : Memref sig .tc .vmem S2048x384 .bf16).view.loc (c : Thread nD τ)))).piecewise f2 g1)) from rfl)) $$ HjR0
  have hp2 : ((agM2_2 c).view.loc (nbr 2 c : Thread nD τ) ↦[(agM2_2 c).view.set]{fullShare}
      ((agM2_2 c).view.write (Elt F) fdn ((agM2_2 c).view.read (Elt F) (((agM2_1 (nbr 0 c)).view.set : Finset (Idx ((Memref.whole cc0_scratch15 : Memref sig .tc .vmem S2048x384 .bf16).view.loc (c : Thread nD τ)))).piecewise f2 g1)) Finset.univ) : sProp 𝕄)
      ⊢ pay V (nbr 2 c) (.agR 2 2) 0 := by
    have e : pay V (nbr 2 c) (.agR 2 2) 0 = ptsIs (nbr 2 c) (agM2_2 c) (V.ag2_2 c) := by
      show ptsIs (nbr 2 c) (agM2_2 (nbr 2 (nbr 2 c))) (V.ag2_2 (nbr 2 (nbr 2 c))) = _
      rw [nbr_nbr]
    rw [e]
    exact ptsIs_intro (nbr 2 c) (agM2_2 c) _ _ (by rw [View.read_write_univ]; exact hVag f2 hf2)
  iapply (wp_send_to V c ⟨k0_dev36 c, k0_dev36_lt c⟩ 2 (dev36_eq c) (.agS 2 2) (.agR 2 2) (by decide) (by decide) 35 (by decide) (paid_ag c 2 2) rfl
      (src := (agM2_2 c)) (dst := (agM2_2 c)) (agS_sem_eq 2 2 _) (agR_sem_eq 2 2 _) rfl fdn κs κr _
      (ptsLent_intro c (agM2_2 c) _) hp2) $$ [HjL Hdst HO Hts Htr]
  · isplitr; · iexact HIs
    isplitr; · iexact HIr
    isplitl [HjL]; · iexact HjL
    isplitl [Hdst]; · iexact Hdst
    isplitl [HO]; · iexact HO
    isplitl [Hts]; · iexact Hts
    isplitr; · iexact Hrs
    isplitl [Htr]; · iexact Htr
    iexact Hrr
  iintro ⟨Hcs, HO⟩
  sl_step
  isplitr; · ipureintro; rfl
  iexists f2
  isplitr; · ipureintro; exact hf2
  isplitl [HO]; · iexact HO
  isplitl [Hats1]; · iexact Hats1
  isplitl [Hatr1]; · iexact Hatr1
  isplitl [Hco]; · iexact Hco
  isplitl [Hcs]; · iexact Hcs
  iexact HjR

end Cert.Kernel.Proto

end
-- ==== Proof.Body51Bits.lean ====
/-
A stretch of a device's kernel body, in the all-gather phase. The 512 rows of column group 2 that arrived in its
first round are read from the kept right half share, widened to f32 into their block of the accumulator, and the
block is copied to the result array. Then column group 3's first-round transfer is waited for: the lent half share
of the own rows comes back and the neighbour's 512 rows across axis 1 arrive.
-/
import proofs.«900882_g7700000000000883_dist_matmul_gelu_kshard_i_m2048_n2048_k1024_v7x_i8_f32_1_alg».proof.Proof.RulesBits
import proofs.«900882_g7700000000000883_dist_matmul_gelu_kshard_i_m2048_n2048_k1024_v7x_i8_f32_1_alg».proof.Proof.TopoBitsTab
import proofs.«900882_g7700000000000883_dist_matmul_gelu_kshard_i_m2048_n2048_k1024_v7x_i8_f32_1_alg».proof.Proof.PiecesTabBits
import proofs.«900882_g7700000000000883_dist_matmul_gelu_kshard_i_m2048_n2048_k1024_v7x_i8_f32_1_alg».proof.Proof.PiecesOutSepBits
import proofs.«900882_g7700000000000883_dist_matmul_gelu_kshard_i_m2048_n2048_k1024_v7x_i8_f32_1_alg».proof.Proof.PiecesOutTabBits
import proofs.«900882_g7700000000000883_dist_matmul_gelu_kshard_i_m2048_n2048_k1024_v7x_i8_f32_1_alg».proof.Proof.Gen.Kernel.Skeleton
import Idealize.ShloMosaic.Lib.Pipeline.Value

set_option maxRecDepth 16384

noncomputable section

namespace Cert.Kernel.Proto

open Cert.Kernel Cert.Kernel.Gen Cert.Kernel.Topo
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : Vals F)

set_option maxHeartbeats 4000000 in
theorem part51_run (c : Dev nD) (κo κs1 κr1 : ℕ) (W : Waits sig Unit) (v2 v9 v1361 v1383 v1568 : BitVec 32)
    (g2 : Buf (Elt F) ((Memref.whole cc0_scratch15 : Memref sig .tc .vmem S2048x384 .bf16).view.loc (c : Thread nD τ)))
    (f14 : Buf (Elt F) ((outSrcM14 c).view.loc (c : Thread nD τ))) (fd : Buf (Elt F) ((outDstM14 c).view.loc (c : Thread nD τ)))
    (hVout : V.out14 c ((outSrcM14 c).view.read (Elt F) (((Memref.whole cc0_scratch0 : Memref sig .tc .vmem S2048x2048 .f32).access (Rect.unit (s := S2048x2048) (k0_off110 c) S512x384.size (k0_off110_inb c))).write (Elt F) f14 (k0_pay97 (View.readAt (Elt F) (Memref.whole cc0_scratch15 : Memref sig .tc .vmem S2048x384 .bf16).view (Rect.unit (s := S2048x384) (k0_off109 c) S512x384.size (k0_off109_inb c)).toLoadRect g2)) Finset.univ))) :
    iprop(cellInv ER (sched V) κo (cell c (.out 14)) ∗ cellInv ER (sched V) κs1 (cell c (.agS 3 1)) ∗ cellInv ER (sched V) κr1 (cell c (.agR 3 1))
        ∗ reached ER (cell c (.out 14)) 0 ∗ dutyTok ER (cell c (.out 14)) 0 (0 : Fin 3)
        ∗ cred (tallyAt (cell c (.agS 3 1)) () (amt (.agR 3 1))) ∗ atPos ER (cell c (.agS 3 1)) 0 ∅ 0
        ∗ cred (tallyAt (cell c (.agR 3 1)) () (amt (.agR 3 1))) ∗ atPos ER (cell c (.agR 3 1)) 0 ∅ 0
        ∗ owes (c : Thread nD τ) (Owe c 36) W ∗ levAts L lv
        ∗ ((agM2_2 c).view.loc (c : Thread nD τ) ↦[(agM2_2 c).view.set]{fullShare.right} g2)
        ∗ heldW c (outSrcM14 c) f14 ∗ heldW c (outDstM14 c) fd)
      ⊢ wp frame (wpE (defs₀ (F := F)) 𝒱₀ c none) Set.univ
          (k0_part51 (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23 c v2 v9 v1361 v1383 v1568)
          (fun r => iprop(⌜r = ⟨Scalar.addi v1568 (Scalar.muli (Scalar.subi 1#32 v9) 1024#32), Scalar.xori v2 1#32⟩⌝
            ∗ ∃ f3 : Buf (Elt F) ((Memref.whole cc0_scratch16 : Memref sig .tc .vmem S2048x384 .bf16).view.loc (c : Thread nD τ)), ⌜V.ag3_1 (nbr 1 c) ((agM3_1 (nbr 1 c)).view.read (Elt F) f3)⌝
            ∗ owes (c : Thread nD τ) (Owe c 36) (insert ((CK.agR 3 1).sem, ()) (insert ((CK.agS 3 1).sem, ()) W))
            ∗ atPos ER (cell c (.agS 3 1)) 1 ∅ 0 ∗ atPos ER (cell c (.agR 3 1)) 1 ∅ 0
            ∗ cred (tallyAt (cell c (.out 14)) () (amt (.out 14)))
            ∗ ((agM2_2 c).view.loc (c : Thread nD τ) ↦[(agM2_2 c).view.set]{fullShare.right} g2)
            ∗ ptsLent (F := F) c (agM3_1 c)
            ∗ ((agM3_1 (nbr 1 c)).view.loc (c : Thread nD τ) ↦[(agM3_1 (nbr 1 c)).view.set]{fullShare} f3))) := by
  simp only [k0_part51_eq_skeleton]; unfold k0_part51_skel
  simp only [Prog.lift, Prog.bind_op, Prog.bind_ret, Prog.pure_eq_ret]
  iintro ⟨#HIo, #HIs1, #HIr1, #Hro, Hto, Hcs1, Hats1, Hcr1, Hatr1, HO, #Hlev, Hg2, H14, Hd⟩
  unfold heldW
  have hA : ((Memref.whole cc0_scratch15 : Memref sig .tc .vmem S2048x384 .bf16).access (Rect.unit (s := S2048x384) (k0_off109 c) ![512, 384] (k0_off109_inb c))).set ⊆ (agM2_2 c).view.set := by
    refine Finset.Subset.trans (le_of_eq (View.set_slice_whole _ _)) ?_
    piece_dev c unit_subset [off109_eq, off108_eq]
  have hB : ((Memref.whole cc0_scratch0 : Memref sig .tc .vmem S2048x2048 .f32).access (Rect.unit (s := S2048x2048) (k0_off110 c) ![512, 384] (k0_off110_inb c))).set ⊆ (outSrcM14 c).view.set :=
    le_of_eq ((View.set_slice_whole _ _).trans ((unit_set_congr ((off110_eq c).trans (off111_eq c).symm) rfl).trans (View.set_slice_whole _ _).symm))
  have hB' : ((Memref.whole cc0_scratch0 : Memref sig .tc .vmem S2048x2048 .f32).access (Rect.unit (s := S2048x2048) (k0_off110 c) ![512, 384] (k0_off110_inb c))).setOn Finset.univ ⊆ (outSrcM14 c).view.set := hB
  ihave Hg2 := (Entails.of_eq (show ((_ : sProp 𝕄)) = ((agM2_2 c).view.loc (c : Thread nD τ) ↦[(agM2_2 c).view.set]{fullShare.right} g2) from rfl)) $$ Hg2
  sl_exec
  have hpo14 : iprop(((outDstM14 c).view.loc (c : Thread nD τ) ↦[(outDstM14 c).view.set]{fullShare} ((outDstM14 c).view.write (Elt F) fd ((outSrcM14 c).view.read (Elt F)
        (((Memref.whole cc0_scratch0 : Memref sig .tc .vmem S2048x2048 .f32).access (Rect.unit (s := S2048x2048) (k0_off110 c) S512x384.size (k0_off110_inb c))).write (Elt F) f14 (k0_pay97 (View.readAt (Elt F) (Memref.whole cc0_scratch15 : Memref sig .tc .vmem S2048x384 .bf16).view (Rect.unit (s := S2048x384) (k0_off109 c) S512x384.size (k0_off109_inb c)).toLoadRect g2)) Finset.univ)) Finset.univ))
      ∗ ((outSrcM14 c).view.loc (c : Thread nD τ) ↦[(outSrcM14 c).view.set]{fullShare}
        (((Memref.whole cc0_scratch0 : Memref sig .tc .vmem S2048x2048 .f32).access (Rect.unit (s := S2048x2048) (k0_off110 c) S512x384.size (k0_off110_inb c))).write (Elt F) f14 (k0_pay97 (View.readAt (Elt F) (Memref.whole cc0_scratch15 : Memref sig .tc .vmem S2048x384 .bf16).view (Rect.unit (s := S2048x384) (k0_off109 c) S512x384.size (k0_off109_inb c)).toLoadRect g2)) Finset.univ)) : sProp 𝕄) ⊢ pay V c (.out 14) 0 := by
    show _ ⊢ iprop(ptsIs c (outDstM14 c) (V.out14 c) ∗ ptsAny (F := F) c (outSrcM14 c))
    exact BI.sep_mono (ptsIs_intro c (outDstM14 c) _ _ (by rw [View.read_write_univ]; exact hVout)) (ptsAny_intro c (outSrcM14 c) _)
  iapply (wp_copy_own V c (.out 14) (by decide) (src := outSrcM14 c) (dst := outDstM14 c) (out_sem_eq 14 _) rfl fd κo hpo14) $$ [H14 Hd Hto]
  · isplitr; · iexact HIo
    isplitl [H14]; · iexact H14
    isplitl [Hd]; · iexact Hd
    isplitl [Hto]; · iexact Hto
    iexact Hro
  iintro Hco
  iapply (wp_wait_xfer V c (.agS 3 1) (by decide) 36 (agS_sem_eq 3 1 _) (k' := ((agM3_1 c) : Memref sig .tc .vmem S512x384 .bf16).view.dmaCredit) rfl (wpE_waitDma2_eq 𝒱₀ (c : Thread nD τ) none Set.univ)
      (mayWait_own c (.agS 3 1) (lv_cell c (.agS 3 1)) 36) κs1 W) $$ [Hcs1 HO Hats1]
  · isplitr; · iexact HIs1
    isplitl [Hcs1]; · iexact Hcs1
    isplitl [HO]; · iexact HO
    isplitr; · iexact Hlev
    iexact Hats1
  iintro ⟨HO, Hats1, HqS⟩
  iapply (wp_wait_xfer V c (.agR 3 1) (by decide) 36 (agR_sem_eq 3 1 _) (k' := ((agM3_1 c) : Memref sig .tc .vmem S512x384 .bf16).view.dmaCredit) rfl (wpE_waitDma2_eq 𝒱₀ (c : Thread nD τ) none Set.univ)
      (mayWait_agR c 3 1 36 (by decide)) κr1 (insert ((CK.agS 3 1).sem, ()) W)) $$ [Hcr1 HO Hatr1]
  · isplitr; · iexact HIr1
    isplitl [Hcr1]; · iexact Hcr1
    isplitl [HO]; · iexact HO
    isplitr; · iexact Hlev
    iexact Hatr1
  iintro ⟨HO, Hatr1, HqR⟩
  ihave Hlent := (Entails.of_eq (show pay V c (.agS 3 1) 0 = ptsLent (F := F) c (agM3_1 c) from rfl)) $$ HqS
  ihave Hp := (Entails.of_eq (show pay V c (.agR 3 1) 0 = ptsIs c (agM3_1 (nbr 1 c)) (V.ag3_1 (nbr 1 c)) from rfl)) $$ HqR
  unfold ptsIs
  icases Hp with ⟨%f3, Hf3, %hf3⟩
  sl_step
  isplitr; · ipureintro; rfl
  iexists f3
  isplitr; · ipureintro; exact hf3
  isplitl [HO]; · iexact HO
  isplitl [Hats1]; · iexact Hats1
  isplitl [Hatr1]; · iexact Hatr1
  isplitl [Hco]; · iexact Hco
  isplitl [Hg2]; · iexact Hg2
  isplitl [Hlent]; · iexact Hlent
  iexact Hf3

end Cert.Kernel.Proto

end
-- ==== Proof.Body52Bits.lean ====
/-
A stretch of a device's kernel body, in the all-gather phase. Column group 3's second round: the own 512 rows and
the arrived 512 rows are the 1024 rows sent across axis 0, the transfer borrowing their left half share; the arrived
rows are widened to f32 into their block of the accumulator and the block is copied to the result array. Then the
lent half share of column group 4's own rows comes back.
-/
import proofs.«900882_g7700000000000883_dist_matmul_gelu_kshard_i_m2048_n2048_k1024_v7x_i8_f32_1_alg».proof.Proof.RulesBits
import proofs.«900882_g7700000000000883_dist_matmul_gelu_kshard_i_m2048_n2048_k1024_v7x_i8_f32_1_alg».proof.Proof.TopoBitsTab
import proofs.«900882_g7700000000000883_dist_matmul_gelu_kshard_i_m2048_n2048_k1024_v7x_i8_f32_1_alg».proof.Proof.PiecesTabBits
import proofs.«900882_g7700000000000883_dist_matmul_gelu_kshard_i_m2048_n2048_k1024_v7x_i8_f32_1_alg».proof.Proof.PiecesOutSepBits
import proofs.«900882_g7700000000000883_dist_matmul_gelu_kshard_i_m2048_n2048_k1024_v7x_i8_f32_1_alg».proof.Proof.PiecesOutTabBits
import proofs.«900882_g7700000000000883_dist_matmul_gelu_kshard_i_m2048_n2048_k1024_v7x_i8_f32_1_alg».proof.Proof.Gen.Kernel.Skeleton
import Idealize.ShloMosaic.Lib.Pipeline.Value

set_option maxRecDepth 16384

noncomputable section

namespace Cert.Kernel.Proto

open Cert.Kernel Cert.Kernel.Gen Cert.Kernel.Topo
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : Vals F)

set_option maxHeartbeats 4000000 in
theorem part52_run (c : Dev nD) (κs κr κo κs1 : ℕ) (W : Waits sig Unit) (v6 v1393 v1396 v1418 : BitVec 32)
    (g1 f3 : Buf (Elt F) ((Memref.whole cc0_scratch16 : Memref sig .tc .vmem S2048x384 .bf16).view.loc (c : Thread nD τ)))
    (f15 : Buf (Elt F) ((outSrcM15 c).view.loc (c : Thread nD τ))) (fd : Buf (Elt F) ((outDstM15 c).view.loc (c : Thread nD τ)))
    (hVag : V.ag3_2 c ((agM3_2 c).view.read (Elt F) (((agM3_1 (nbr 1 c)).view.set : Finset (Idx ((Memref.whole cc0_scratch16 : Memref sig .tc .vmem S2048x384 .bf16).view.loc (c : Thread nD τ)))).piecewise f3 g1)))
    (hVout : V.out15 c ((outSrcM15 c).view.read (Elt F) (((Memref.whole cc0_scratch0 : Memref sig .tc .vmem S2048x2048 .f32).access (Rect.unit (s := S2048x2048) (k0_off112 c) S512x384.size (k0_off112_inb c))).write (Elt F) f15 (k0_pay98 (View.readAt (Elt F) (Memref.whole cc0_scratch16 : Memref sig .tc .vmem S2048x384 .bf16).view (Rect.unit (s := S2048x384) (k0_off101 c) S512x384.size (k0_off101_inb c)).toLoadRect (((agM3_1 (nbr 1 c)).view.set : Finset (Idx ((Memref.whole cc0_scratch16 : Memref sig .tc .vmem S2048x384 .bf16).view.loc (c : Thread nD τ)))).piecewise f3 g1))) Finset.univ))) :
    iprop(cellInv ER (sched V) κs (cell c (.agS 3 2)) ∗ cellInv ER (sched V) κr (cell (nbr 0 c) (.agR 3 2))
        ∗ cellInv ER (sched V) κo (cell c (.out 15)) ∗ cellInv ER (sched V) κs1 (cell c (.agS 4 1))
        ∗ reached ER (cell c (.agS 3 2)) 0 ∗ reached ER (cell (nbr 0 c) (.agR 3 2)) 0 ∗ reached ER (cell c (.out 15)) 0
        ∗ dutyTok ER (cell c (.agS 3 2)) 0 (0 : Fin 3) ∗ dutyTok ER (cell (nbr 0 c) (.agR 3 2)) 0 (0 : Fin 3) ∗ dutyTok ER (cell c (.out 15)) 0 (0 : Fin 3)
        ∗ cred (tallyAt (cell c (.agS 4 1)) () (amt (.agR 4 1))) ∗ atPos ER (cell c (.agS 4 1)) 0 ∅ 0
        ∗ owes (c : Thread nD τ) (Owe c 36) W ∗ levAts L lv
        ∗ ptsAny (F := F) (nbr 0 c) (agM3_2 c)
        ∗ ptsLent (F := F) c (agM3_1 c) ∗ ((agM3_1 c).view.loc (c : Thread nD τ) ↦[(agM3_1 c).view.set]{fullShare.right} g1)
        ∗ ((agM3_1 (nbr 1 c)).view.loc (c : Thread nD τ) ↦[(agM3_1 (nbr 1 c)).view.set]{fullShare} f3)
        ∗ heldW c (outSrcM15 c) f15 ∗ heldW c (outDstM15 c) fd)
      ⊢ wp frame (wpE (defs₀ (F := F)) 𝒱₀ c none) Set.univ
          (k0_part52 (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23 c v6 v1393 v1396 v1418)
          (fun r => iprop(⌜r = Scalar.addi (Scalar.subi v1393 (Scalar.muli v6 1024#32)) (Scalar.muli (Scalar.subi 1#32 v6) 1024#32)⌝
            ∗ owes (c : Thread nD τ) (Owe c 37) (insert ((CK.agS 4 1).sem, ()) W) ∗ atPos ER (cell c (.agS 4 1)) 1 ∅ 0
            ∗ cred (tallyAt (cell c (.agS 3 2)) () (amt (.agR 3 2))) ∗ cred (tallyAt (cell c (.out 15)) () (amt (.out 15)))
            ∗ ((agM3_2 c).view.loc (c : Thread nD τ) ↦[(agM3_2 c).view.set]{fullShare.right} (((agM3_1 (nbr 1 c)).view.set : Finset (Idx ((Memref.whole cc0_scratch16 : Memref sig .tc .vmem S2048x384 .bf16).view.loc (c : Thread nD τ)))).piecewise f3 g1))
            ∗ ptsLent (F := F) c (agM4_1 c))) := by
  simp only [k0_part52_eq_skeleton]; unfold k0_part52_skel
  simp only [Prog.lift, Prog.bind_op, Prog.bind_ret, Prog.pure_eq_ret]
  iintro ⟨#HIs, #HIr, #HIo, #HIs1, #Hrs, #Hrr, #Hro, Hts, Htr, Hto, Hcs1, Hats1, HO, #Hlev, Hdst, Hlent, Hown, Hf3, H15, Hd⟩
  unfold heldW
  unfold ptsLent ptsAny
  icases Hlent with ⟨%g1', Hlent⟩
  icases Hdst with ⟨%fdn, Hdst⟩
  -- the kept right half and the lent left half of the own rows agree, so they make the full share again
  ihave Hag := (persistent_entails_right (pointsTo_agree (ℓ := ((Memref.whole cc0_scratch16 : Memref sig .tc .vmem S2048x384 .bf16).view.loc (c : Thread nD τ))) (I := (agM3_1 c).view.set) (J := (agM3_1 c).view.set) (q₁ := fullShare.left) (q₂ := fullShare.right) (f := g1') (g := g1))) $$ [Hlent Hown]
  · isplitl [Hlent]; · iexact Hlent
    iexact Hown
  icases Hag with ⟨%hag, Hlent, Hown⟩
  ihave Hlent' := (Entails.of_eq (pointsTo_congr (ℓ := ((Memref.whole cc0_scratch16 : Memref sig .tc .vmem S2048x384 .bf16).view.loc (c : Thread nD τ))) (I := (agM3_1 c).view.set) (q := fullShare.left) (f := g1') (g := g1) fun i hi => (hag i (Finset.mem_inter.mpr ⟨hi, hi⟩)).1)) $$ Hlent
  ihave Hfull := (pointsTo_share (ℓ := ((Memref.whole cc0_scratch16 : Memref sig .tc .vmem S2048x384 .bf16).view.loc (c : Thread nD τ))) (I := (agM3_1 c).view.set) (f := g1) (PosShare.mem_left_op_right fullShare)).2 $$ [Hlent' Hown]
  · isplitl [Hlent']; · iexact Hlent'
    iexact Hown
  -- the own rows and the arrived rows are the rows of the next step
  ihave Hj := (pointsTo_join (ℓ := ((Memref.whole cc0_scratch16 : Memref sig .tc .vmem S2048x384 .bf16).view.loc (c : Thread nD τ))) (I := (agM3_1 c).view.set) (J := (agM3_1 (nbr 1 c)).view.set) (q := fullShare) (f := g1) (g := f3) (ag_disj1_3 c)) $$ [Hfull Hf3]
  · isplitl [Hfull]; · iexact Hfull
    iexact Hf3
  ihave Hj2 := (Entails.of_eq (pts_set_eq (F := F) (ℓ := ((Memref.whole cc0_scratch16 : Memref sig .tc .vmem S2048x384 .bf16).view.loc (c : Thread nD τ))) (S' := (agM3_2 c).view.set) (q := fullShare) (f := (((agM3_1 (nbr 1 c)).view.set : Finset (Idx ((Memref.whole cc0_scratch16 : Memref sig .tc .vmem S2048x384 .bf16).view.loc (c : Thread nD τ)))).piecewise f3 g1)) (ag_join1_3 c).symm)) $$ Hj
  ihave Hh := (pointsTo_share (ℓ := ((Memref.whole cc0_scratch16 : Memref sig .tc .vmem S2048x384 .bf16).view.loc (c : Thread nD τ))) (I := (agM3_2 c).view.set) (f := (((agM3_1 (nbr 1 c)).view.set : Finset (Idx ((Memref.whole cc0_scratch16 : Memref sig .tc .vmem S2048x384 .bf16).view.loc (c : Thread nD τ)))).piecewise f3 g1)) (PosShare.mem_left_op_right fullShare)).1 $$ Hj2
  icases Hh with ⟨HjL0, HjR0⟩
  ihave HjL := (Entails.of_eq (show ((((Memref.whole cc0_scratch16 : Memref sig .tc .vmem S2048x384 .bf16).view.loc (c : Thread nD τ)) ↦[(agM3_2 c).view.set]{fullShare.left} (((agM3_1 (nbr 1 c)).view.set : Finset (Idx ((Memref.whole cc0_scratch16 : Memref sig .tc .vmem S2048x384 .bf16).view.loc (c : Thread nD τ)))).piecewise f3 g1) : sProp 𝕄)) = ((agM3_2 c).view.loc (c : Thread nD τ) ↦[(agM3_2 c).view.set]{fullShare.left} (((agM3_1 (nbr 1 c)).view.set : Finset (Idx ((Memref.whole cc0_scratch16 : Memref sig .tc .vmem S2048x384 .bf16).view.loc (c : Thread nD τ)))).piecewise f3 g1)) from rfl)) $$ HjL0
  ihave HjR := (Entails.of_eq (show ((((Memref.whole cc0_scratch16 : Memref sig .tc .vmem S2048x384 .bf16).view.loc (c : Thread nD τ)) ↦[(agM3_2 c).view.set]{fullShare.right} (((agM3_1 (nbr 1 c)).view.set : Finset (Idx ((Memref.whole cc0_scratch16 : Memref sig .tc .vmem S2048x384 .bf16).view.loc (c : Thread nD τ)))).piecewise f3 g1) : sProp 𝕄)) = ((agM3_2 c).view.loc (c : Thread nD τ) ↦[(agM3_2 c).view.set]{fullShare.right} (((agM3_1 (nbr 1 c)).view.set : Finset (Idx ((Memref.whole cc0_scratch16 : Memref sig .tc .vmem S2048x384 .bf16).view.loc (c : Thread nD τ)))).piecewise f3 g1)) from rfl)) $$ HjR0
  have hp2 : ((agM3_2 c).view.loc (nbr 0 c : Thread nD τ) ↦[(agM3_2 c).view.set]{fullShare}
      ((agM3_2 c).view.write (Elt F) fdn ((agM3_2 c).view.read (Elt F) (((agM3_1 (nbr 1 c)).view.set : Finset (Idx ((Memref.whole cc0_scratch16 : Memref sig .tc .vmem S2048x384 .bf16).view.loc (c : Thread nD τ)))).piecewise f3 g1)) Finset.univ) : sProp 𝕄)
      ⊢ pay V (nbr 0 c) (.agR 3 2) 0 := by
    have e : pay V (nbr 0 c) (.agR 3 2) 0 = ptsIs (nbr 0 c) (agM3_2 c) (V.ag3_2 c) := by
      show ptsIs (nbr 0 c) (agM3_2 (nbr 0 (nbr 0 c))) (V.ag3_2 (nbr 0 (nbr 0 c))) = _
      rw [nbr_nbr]
    rw [e]
    exact ptsIs_intro (nbr 0 c) (agM3_2 c) _ _ (by rw [View.read_write_univ]; exact hVag)
  iapply (wp_send_to V c ⟨k0_dev37 c, k0_dev37_lt c⟩ 0 (dev37_eq c) (.agS 3 2) (.agR 3 2) (by decide) (by decide) 36 (by decide) (paid_ag c 3 2) rfl
      (src := (agM3_2 c)) (dst := (agM3_2 c)) (agS_sem_eq 3 2 _) (agR_sem_eq 3 2 _) rfl fdn κs κr _
      (ptsLent_intro c (agM3_2 c) _) hp2) $$ [HjL Hdst HO Hts Htr]
  · isplitr; · iexact HIs
    isplitr; · iexact HIr
    isplitl [HjL]; · iexact HjL
    isplitl [Hdst]; · iexact Hdst
    isplitl [HO]; · iexact HO
    isplitl [Hts]; · iexact Hts
    isplitr; · iexact Hrs
    isplitl [Htr]; · iexact Htr
    iexact Hrr
  iintro ⟨Hcs, HO⟩
  have hA : ((Memref.whole cc0_scratch16 : Memref sig .tc .vmem S2048x384 .bf16).access (Rect.unit (s := S2048x384) (k0_off101 c) ![512, 384] (k0_off101_inb c))).set ⊆ (agM3_2 c).view.set := by
    refine Finset.Subset.trans (le_of_eq (View.set_slice_whole _ _)) ?_
    piece_dev c unit_subset [off101_eq, off100_eq]
  have hB : ((Memref.whole cc0_scratch0 : Memref sig .tc .vmem S2048x2048 .f32).access (Rect.unit (s := S2048x2048) (k0_off112 c) ![512, 384] (k0_off112_inb c))).set ⊆ (outSrcM15 c).view.set :=
    le_of_eq ((View.set_slice_whole _ _).trans ((unit_set_congr ((off112_eq c).trans (off113_eq c).symm) rfl).trans (View.set_slice_whole _ _).symm))
  have hB' : ((Memref.whole cc0_scratch0 : Memref sig .tc .vmem S2048x2048 .f32).access (Rect.unit (s := S2048x2048) (k0_off112 c) ![512, 384] (k0_off112_inb c))).setOn Finset.univ ⊆ (outSrcM15 c).view.set := hB
  sl_exec
  have hpo15 : iprop(((outDstM15 c).view.loc (c : Thread nD τ) ↦[(outDstM15 c).view.set]{fullShare} ((outDstM15 c).view.write (Elt F) fd ((outSrcM15 c).view.read (Elt F)
        (((Memref.whole cc0_scratch0 : Memref sig .tc .vmem S2048x2048 .f32).access (Rect.unit (s := S2048x2048) (k0_off112 c) S512x384.size (k0_off112_inb c))).write (Elt F) f15 (k0_pay98 (View.readAt (Elt F) (Memref.whole cc0_scratch16 : Memref sig .tc .vmem S2048x384 .bf16).view (Rect.unit (s := S2048x384) (k0_off101 c) S512x384.size (k0_off101_inb c)).toLoadRect (((agM3_1 (nbr 1 c)).view.set : Finset (Idx ((Memref.whole cc0_scratch16 : Memref sig .tc .vmem S2048x384 .bf16).view.loc (c : Thread nD τ)))).piecewise f3 g1))) Finset.univ)) Finset.univ))
      ∗ ((outSrcM15 c).view.loc (c : Thread nD τ) ↦[(outSrcM15 c).view.set]{fullShare}
        (((Memref.whole cc0_scratch0 : Memref sig .tc .vmem S2048x2048 .f32).access (Rect.unit (s := S2048x2048) (k0_off112 c) S512x384.size (k0_off112_inb c))).write (Elt F) f15 (k0_pay98 (View.readAt (Elt F) (Memref.whole cc0_scratch16 : Memref sig .tc .vmem S2048x384 .bf16).view (Rect.unit (s := S2048x384) (k0_off101 c) S512x384.size (k0_off101_inb c)).toLoadRect (((agM3_1 (nbr 1 c)).view.set : Finset (Idx ((Memref.whole cc0_scratch16 : Memref sig .tc .vmem S2048x384 .bf16).view.loc (c : Thread nD τ)))).piecewise f3 g1))) Finset.univ)) : sProp 𝕄) ⊢ pay V c (.out 15) 0 := by
    show _ ⊢ iprop(ptsIs c (outDstM15 c) (V.out15 c) ∗ ptsAny (F := F) c (outSrcM15 c))
    exact BI.sep_mono (ptsIs_intro c (outDstM15 c) _ _ (by rw [View.read_write_univ]; exact hVout)) (ptsAny_intro c (outSrcM15 c) _)
  iapply (wp_copy_own V c (.out 15) (by decide) (src := outSrcM15 c) (dst := outDstM15 c) (out_sem_eq 15 _) rfl fd κo hpo15) $$ [H15 Hd Hto]
  · isplitr; · iexact HIo
    isplitl [H15]; · iexact H15
    isplitl [Hd]; · iexact Hd
    isplitl [Hto]; · iexact Hto
    iexact Hro
  iintro Hco
  iapply (wp_wait_xfer V c (.agS 4 1) (by decide) 37 (agS_sem_eq 4 1 _) (k' := ((agM4_1 c) : Memref sig .tc .vmem S512x256 .bf16).view.dmaCredit) rfl (wpE_waitDma2_eq 𝒱₀ (c : Thread nD τ) none Set.univ)
      (mayWait_own c (.agS 4 1) (lv_cell c (.agS 4 1)) 37) κs1 W) $$ [Hcs1 HO Hats1]
  · isplitr; · iexact HIs1
    isplitl [Hcs1]; · iexact Hcs1
    isplitl [HO]; · iexact HO
    isplitr; · iexact Hlev
    iexact Hats1
  iintro ⟨HO, Hats1, HqS⟩
  ihave Hlent4 := (Entails.of_eq (show pay V c (.agS 4 1) 0 = (iprop(∃ f : Buf (Elt F) ((agM4_1 c).view.loc (c : Thread nD τ)), (agM4_1 c).view.loc (c : Thread nD τ) ↦[(agM4_1 c).view.set]{fullShare.left} f) : sProp 𝕄) from rfl)) $$ HqS
  sl_step
  isplitr; · ipureintro; rfl
  isplitl [HO]; · iexact HO
  isplitl [Hats1]; · iexact Hats1
  isplitl [Hcs]; · iexact Hcs
  isplitl [Hco]; · iexact Hco
  isplitl [HjR]; · iexact HjR
  iexact Hlent4

end Cert.Kernel.Proto

end
-- ==== Proof.Body53Bits.lean ====
/-
A stretch of a device's kernel body, in the all-gather phase. Column group 4's second round: the neighbour's 512
rows across axis 2 arrive, join the own rows into the 1024 rows sent across axis 1 (the transfer borrows their left
half share), are widened to f32 into their block of the accumulator, and the block is copied to the result array.
Then the lent half share of column group 5's own rows comes back.
-/
import proofs.«900882_g7700000000000883_dist_matmul_gelu_kshard_i_m2048_n2048_k1024_v7x_i8_f32_1_alg».proof.Proof.RulesBits
import proofs.«900882_g7700000000000883_dist_matmul_gelu_kshard_i_m2048_n2048_k1024_v7x_i8_f32_1_alg».proof.Proof.TopoBitsTab
import proofs.«900882_g7700000000000883_dist_matmul_gelu_kshard_i_m2048_n2048_k1024_v7x_i8_f32_1_alg».proof.Proof.PiecesTabBits
import proofs.«900882_g7700000000000883_dist_matmul_gelu_kshard_i_m2048_n2048_k1024_v7x_i8_f32_1_alg».proof.Proof.PiecesOutSepBits
import proofs.«900882_g7700000000000883_dist_matmul_gelu_kshard_i_m2048_n2048_k1024_v7x_i8_f32_1_alg».proof.Proof.PiecesOutTabBits
import proofs.«900882_g7700000000000883_dist_matmul_gelu_kshard_i_m2048_n2048_k1024_v7x_i8_f32_1_alg».proof.Proof.Gen.Kernel.Skeleton
import Idealize.ShloMosaic.Lib.Pipeline.Value

set_option maxRecDepth 16384

noncomputable section

namespace Cert.Kernel.Proto

open Cert.Kernel Cert.Kernel.Gen Cert.Kernel.Topo
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : Vals F)

set_option maxHeartbeats 4000000 in
theorem part53_run (c : Dev nD) (κr1 κs κr κo κs1 : ℕ) (W : Waits sig Unit) (v2 v8 v1428 v1431 : BitVec 32)
    (g1 : Buf (Elt F) ((Memref.whole cc0_scratch17 : Memref sig .tc .vmem S2048x256 .bf16).view.loc (c : Thread nD τ)))
    (f16 : Buf (Elt F) ((outSrcM16 c).view.loc (c : Thread nD τ))) (fd : Buf (Elt F) ((outDstM16 c).view.loc (c : Thread nD τ)))
    (hVag : ∀ f2 : Buf (Elt F) ((Memref.whole cc0_scratch17 : Memref sig .tc .vmem S2048x256 .bf16).view.loc (c : Thread nD τ)), V.ag4_1 (nbr 2 c) ((agM4_1 (nbr 2 c)).view.read (Elt F) f2) →
      V.ag4_2 c ((agM4_2 c).view.read (Elt F) (((agM4_1 (nbr 2 c)).view.set : Finset (Idx ((Memref.whole cc0_scratch17 : Memref sig .tc .vmem S2048x256 .bf16).view.loc (c : Thread nD τ)))).piecewise f2 g1)))
    (hVout : ∀ f2 : Buf (Elt F) ((Memref.whole cc0_scratch17 : Memref sig .tc .vmem S2048x256 .bf16).view.loc (c : Thread nD τ)), V.ag4_1 (nbr 2 c) ((agM4_1 (nbr 2 c)).view.read (Elt F) f2) →
      V.out16 c ((outSrcM16 c).view.read (Elt F) (((Memref.whole cc0_scratch0 : Memref sig .tc .vmem S2048x2048 .f32).access (Rect.unit (s := S2048x2048) (k0_off116 c) S512x256.size (k0_off116_inb c))).write (Elt F) f16 (k0_pay99 (View.readAt (Elt F) (Memref.whole cc0_scratch17 : Memref sig .tc .vmem S2048x256 .bf16).view (Rect.unit (s := S2048x256) (k0_off115 c) S512x256.size (k0_off115_inb c)).toLoadRect (((agM4_1 (nbr 2 c)).view.set : Finset (Idx ((Memref.whole cc0_scratch17 : Memref sig .tc .vmem S2048x256 .bf16).view.loc (c : Thread nD τ)))).piecewise f2 g1))) Finset.univ))) :
    iprop(cellInv ER (sched V) κr1 (cell c (.agR 4 1)) ∗ cellInv ER (sched V) κs (cell c (.agS 4 2)) ∗ cellInv ER (sched V) κr (cell (nbr 1 c) (.agR 4 2))
        ∗ cellInv ER (sched V) κo (cell c (.out 16)) ∗ cellInv ER (sched V) κs1 (cell c (.agS 5 1))
        ∗ reached ER (cell c (.agS 4 2)) 0 ∗ reached ER (cell (nbr 1 c) (.agR 4 2)) 0 ∗ reached ER (cell c (.out 16)) 0
        ∗ dutyTok ER (cell c (.agS 4 2)) 0 (0 : Fin 3) ∗ dutyTok ER (cell (nbr 1 c) (.agR 4 2)) 0 (0 : Fin 3) ∗ dutyTok ER (cell c (.out 16)) 0 (0 : Fin 3)
        ∗ cred (tallyAt (cell c (.agR 4 1)) () (amt (.agR 4 1))) ∗ atPos ER (cell c (.agR 4 1)) 0 ∅ 0
        ∗ cred (tallyAt (cell c (.agS 5 1)) () (amt (.agR 5 1))) ∗ atPos ER (cell c (.agS 5 1)) 0 ∅ 0
        ∗ owes (c : Thread nD τ) (Owe c 37) W ∗ levAts L lv
        ∗ ptsAny (F := F) (nbr 1 c) (agM4_2 c)
        ∗ ptsLent (F := F) c (agM4_1 c) ∗ ((agM4_1 c).view.loc (c : Thread nD τ) ↦[(agM4_1 c).view.set]{fullShare.right} g1)
        ∗ heldW c (outSrcM16 c) f16 ∗ heldW c (outDstM16 c) fd)
      ⊢ wp frame (wpE (defs₀ (F := F)) 𝒱₀ c none) Set.univ
          (k0_part53 (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23 c v2 v8 v1428 v1431)
          (fun r => iprop(⌜r = ⟨Scalar.xori v2 3#32, Scalar.addi (Scalar.subi v1428 (Scalar.muli v8 1024#32)) (Scalar.muli (Scalar.subi 1#32 v8) 1024#32)⟩⌝
            ∗ ∃ f2 : Buf (Elt F) ((Memref.whole cc0_scratch17 : Memref sig .tc .vmem S2048x256 .bf16).view.loc (c : Thread nD τ)), ⌜V.ag4_1 (nbr 2 c) ((agM4_1 (nbr 2 c)).view.read (Elt F) f2)⌝
            ∗ owes (c : Thread nD τ) (Owe c 38) (insert ((CK.agS 5 1).sem, ()) (insert ((CK.agR 4 1).sem, ()) W))
            ∗ atPos ER (cell c (.agR 4 1)) 1 ∅ 0 ∗ atPos ER (cell c (.agS 5 1)) 1 ∅ 0
            ∗ cred (tallyAt (cell c (.agS 4 2)) () (amt (.agR 4 2))) ∗ cred (tallyAt (cell c (.out 16)) () (amt (.out 16)))
            ∗ ((agM4_2 c).view.loc (c : Thread nD τ) ↦[(agM4_2 c).view.set]{fullShare.right} (((agM4_1 (nbr 2 c)).view.set : Finset (Idx ((Memref.whole cc0_scratch17 : Memref sig .tc .vmem S2048x256 .bf16).view.loc (c : Thread nD τ)))).piecewise f2 g1))
            ∗ ptsLent (F := F) c (agM5_1 c))) := by
  simp only [k0_part53_eq_skeleton]; unfold k0_part53_skel
  simp only [Prog.lift, Prog.bind_op, Prog.bind_ret, Prog.pure_eq_ret]
  iintro ⟨#HIr1, #HIs, #HIr, #HIo, #HIs1, #Hrs, #Hrr, #Hro, Hts, Htr, Hto, Hcr1, Hatr1, Hcs1, Hats1, HO, #Hlev, Hdst, Hlent, Hown, H16, Hd⟩
  unfold heldW
  iapply (wp_wait_xfer V c (.agR 4 1) (by decide) 37 (agR_sem_eq 4 1 _) (k' := ((agM4_1 c) : Memref sig .tc .vmem S512x256 .bf16).view.dmaCredit) rfl (wpE_waitDma2_eq 𝒱₀ (c : Thread nD τ) none Set.univ)
      (mayWait_agR c 4 1 37 (by decide)) κr1 W) $$ [Hcr1 HO Hatr1]
  · isplitr; · iexact HIr1
    isplitl [Hcr1]; · iexact Hcr1
    isplitl [HO]; · iexact HO
    isplitr; · iexact Hlev
    iexact Hatr1
  iintro ⟨HO, Hatr1, HqR⟩
  ihave Hp := (Entails.of_eq (show pay V c (.agR 4 1) 0 = ptsIs c (agM4_1 (nbr 2 c)) (V.ag4_1 (nbr 2 c)) from rfl)) $$ HqR
  unfold ptsIs ptsLent ptsAny
  icases Hp with ⟨%f2, Hf2, %hf2⟩
  icases Hlent with ⟨%g1', Hlent⟩
  icases Hdst with ⟨%fdn, Hdst⟩
  -- the kept right half and the lent left half of the own rows agree, so they make the full share again
  ihave Hag := (persistent_entails_right (pointsTo_agree (ℓ := ((Memref.whole cc0_scratch17 : Memref sig .tc .vmem S2048x256 .bf16).view.loc (c : Thread nD τ))) (I := (agM4_1 c).view.set) (J := (agM4_1 c).view.set) (q₁ := fullShare.left) (q₂ := fullShare.right) (f := g1') (g := g1))) $$ [Hlent Hown]
  · isplitl [Hlent]; · iexact Hlent
    iexact Hown
  icases Hag with ⟨%hag, Hlent, Hown⟩
  ihave Hlent' := (Entails.of_eq (pointsTo_congr (ℓ := ((Memref.whole cc0_scratch17 : Memref sig .tc .vmem S2048x256 .bf16).view.loc (c : Thread nD τ))) (I := (agM4_1 c).view.set) (q := fullShare.left) (f := g1') (g := g1) fun i hi => (hag i (Finset.mem_inter.mpr ⟨hi, hi⟩)).1)) $$ Hlent
  ihave Hfull := (pointsTo_share (ℓ := ((Memref.whole cc0_scratch17 : Memref sig .tc .vmem S2048x256 .bf16).view.loc (c : Thread nD τ))) (I := (agM4_1 c).view.set) (f := g1) (PosShare.mem_left_op_right fullShare)).2 $$ [Hlent' Hown]
  · isplitl [Hlent']; · iexact Hlent'
    iexact Hown
  -- the own rows and the arrived rows are the rows of the next step
  ihave Hj := (pointsTo_join (ℓ := ((Memref.whole cc0_scratch17 : Memref sig .tc .vmem S2048x256 .bf16).view.loc (c : Thread nD τ))) (I := (agM4_1 c).view.set) (J := (agM4_1 (nbr 2 c)).view.set) (q := fullShare) (f := g1) (g := f2) (ag_disj1_4 c)) $$ [Hfull Hf2]
  · isplitl [Hfull]; · iexact Hfull
    iexact Hf2
  ihave Hj2 := (Entails.of_eq (pts_set_eq (F := F) (ℓ := ((Memref.whole cc0_scratch17 : Memref sig .tc .vmem S2048x256 .bf16).view.loc (c : Thread nD τ))) (S' := (agM4_2 c).view.set) (q := fullShare) (f := (((agM4_1 (nbr 2 c)).view.set : Finset (Idx ((Memref.whole cc0_scratch17 : Memref sig .tc .vmem S2048x256 .bf16).view.loc (c : Thread nD τ)))).piecewise f2 g1)) (ag_join1_4 c).symm)) $$ Hj
  ihave Hh := (pointsTo_share (ℓ := ((Memref.whole cc0_scratch17 : Memref sig .tc .vmem S2048x256 .bf16).view.loc (c : Thread nD τ))) (I := (agM4_2 c).view.set) (f := (((agM4_1 (nbr 2 c)).view.set : Finset (Idx ((Memref.whole cc0_scratch17 : Memref sig .tc .vmem S2048x256 .bf16).view.loc (c : Thread nD τ)))).piecewise f2 g1)) (PosShare.mem_left_op_right fullShare)).1 $$ Hj2
  icases Hh with ⟨HjL0, HjR0⟩
  ihave HjL := (Entails.of_eq (show ((((Memref.whole cc0_scratch17 : Memref sig .tc .vmem S2048x256 .bf16).view.loc (c : Thread nD τ)) ↦[(agM4_2 c).view.set]{fullShare.left} (((agM4_1 (nbr 2 c)).view.set : Finset (Idx ((Memref.whole cc0_scratch17 : Memref sig .tc .vmem S2048x256 .bf16).view.loc (c : Thread nD τ)))).piecewise f2 g1) : sProp 𝕄)) = ((agM4_2 c).view.loc (c : Thread nD τ) ↦[(agM4_2 c).view.set]{fullShare.left} (((agM4_1 (nbr 2 c)).view.set : Finset (Idx ((Memref.whole cc0_scratch17 : Memref sig .tc .vmem S2048x256 .bf16).view.loc (c : Thread nD τ)))).piecewise f2 g1)) from rfl)) $$ HjL0
  ihave HjR := (Entails.of_eq (show ((((Memref.whole cc0_scratch17 : Memref sig .tc .vmem S2048x256 .bf16).view.loc (c : Thread nD τ)) ↦[(agM4_2 c).view.set]{fullShare.right} (((agM4_1 (nbr 2 c)).view.set : Finset (Idx ((Memref.whole cc0_scratch17 : Memref sig .tc .vmem S2048x256 .bf16).view.loc (c : Thread nD τ)))).piecewise f2 g1) : sProp 𝕄)) = ((agM4_2 c).view.loc (c : Thread nD τ) ↦[(agM4_2 c).view.set]{fullShare.right} (((agM4_1 (nbr 2 c)).view.set : Finset (Idx ((Memref.whole cc0_scratch17 : Memref sig .tc .vmem S2048x256 .bf16).view.loc (c : Thread nD τ)))).piecewise f2 g1)) from rfl)) $$ HjR0
  have hp2 : ((agM4_2 c).view.loc (nbr 1 c : Thread nD τ) ↦[(agM4_2 c).view.set]{fullShare}
      ((agM4_2 c).view.write (Elt F) fdn ((agM4_2 c).view.read (Elt F) (((agM4_1 (nbr 2 c)).view.set : Finset (Idx ((Memref.whole cc0_scratch17 : Memref sig .tc .vmem S2048x256 .bf16).view.loc (c : Thread nD τ)))).piecewise f2 g1)) Finset.univ) : sProp 𝕄)
      ⊢ pay V (nbr 1 c) (.agR 4 2) 0 := by
    have e : pay V (nbr 1 c) (.agR 4 2) 0 = ptsIs (nbr 1 c) (agM4_2 c) (V.ag4_2 c) := by
      show ptsIs (nbr 1 c) (agM4_2 (nbr 1 (nbr 1 c))) (V.ag4_2 (nbr 1 (nbr 1 c))) = _
      rw [nbr_nbr]
    rw [e]
    exact ptsIs_intro (nbr 1 c) (agM4_2 c) _ _ (by rw [View.read_write_univ]; exact hVag f2 hf2)
  iapply (wp_send_to V c ⟨k0_dev38 c, k0_dev38_lt c⟩ 1 (dev38_eq c) (.agS 4 2) (.agR 4 2) (by decide) (by decide) 37 (by decide) (paid_ag c 4 2) rfl
      (src := (agM4_2 c)) (dst := (agM4_2 c)) (agS_sem_eq 4 2 _) (agR_sem_eq 4 2 _) rfl fdn κs κr _
      (ptsLent_intro c (agM4_2 c) _) hp2) $$ [HjL Hdst HO Hts Htr]
  · isplitr; · iexact HIs
    isplitr; · iexact HIr
    isplitl [HjL]; · iexact HjL
    isplitl [Hdst]; · iexact Hdst
    isplitl [HO]; · iexact HO
    isplitl [Hts]; · iexact Hts
    isplitr; · iexact Hrs
    isplitl [Htr]; · iexact Htr
    iexact Hrr
  iintro ⟨Hcs, HO⟩
  have hA : ((Memref.whole cc0_scratch17 : Memref sig .tc .vmem S2048x256 .bf16).access (Rect.unit (s := S2048x256) (k0_off115 c) ![512, 256] (k0_off115_inb c))).set ⊆ (agM4_2 c).view.set := by
    refine Finset.Subset.trans (le_of_eq (View.set_slice_whole _ _)) ?_
    piece_dev c unit_subset [off115_eq, off114_eq]
  have hB : ((Memref.whole cc0_scratch0 : Memref sig .tc .vmem S2048x2048 .f32).access (Rect.unit (s := S2048x2048) (k0_off116 c) ![512, 256] (k0_off116_inb c))).set ⊆ (outSrcM16 c).view.set :=
    le_of_eq ((View.set_slice_whole _ _).trans ((unit_set_congr ((off116_eq c).trans (off117_eq c).symm) rfl).trans (View.set_slice_whole _ _).symm))
  have hB' : ((Memref.whole cc0_scratch0 : Memref sig .tc .vmem S2048x2048 .f32).access (Rect.unit (s := S2048x2048) (k0_off116 c) ![512, 256] (k0_off116_inb c))).setOn Finset.univ ⊆ (outSrcM16 c).view.set := hB
  sl_exec
  have hpo16 : iprop(((outDstM16 c).view.loc (c : Thread nD τ) ↦[(outDstM16 c).view.set]{fullShare} ((outDstM16 c).view.write (Elt F) fd ((outSrcM16 c).view.read (Elt F)
        (((Memref.whole cc0_scratch0 : Memref sig .tc .vmem S2048x2048 .f32).access (Rect.unit (s := S2048x2048) (k0_off116 c) S512x256.size (k0_off116_inb c))).write (Elt F) f16 (k0_pay99 (View.readAt (Elt F) (Memref.whole cc0_scratch17 : Memref sig .tc .vmem S2048x256 .bf16).view (Rect.unit (s := S2048x256) (k0_off115 c) S512x256.size (k0_off115_inb c)).toLoadRect (((agM4_1 (nbr 2 c)).view.set : Finset (Idx ((Memref.whole cc0_scratch17 : Memref sig .tc .vmem S2048x256 .bf16).view.loc (c : Thread nD τ)))).piecewise f2 g1))) Finset.univ)) Finset.univ))
      ∗ ((outSrcM16 c).view.loc (c : Thread nD τ) ↦[(outSrcM16 c).view.set]{fullShare}
        (((Memref.whole cc0_scratch0 : Memref sig .tc .vmem S2048x2048 .f32).access (Rect.unit (s := S2048x2048) (k0_off116 c) S512x256.size (k0_off116_inb c))).write (Elt F) f16 (k0_pay99 (View.readAt (Elt F) (Memref.whole cc0_scratch17 : Memref sig .tc .vmem S2048x256 .bf16).view (Rect.unit (s := S2048x256) (k0_off115 c) S512x256.size (k0_off115_inb c)).toLoadRect (((agM4_1 (nbr 2 c)).view.set : Finset (Idx ((Memref.whole cc0_scratch17 : Memref sig .tc .vmem S2048x256 .bf16).view.loc (c : Thread nD τ)))).piecewise f2 g1))) Finset.univ)) : sProp 𝕄) ⊢ pay V c (.out 16) 0 := by
    show _ ⊢ iprop(ptsIs c (outDstM16 c) (V.out16 c) ∗ ptsAny (F := F) c (outSrcM16 c))
    exact BI.sep_mono (ptsIs_intro c (outDstM16 c) _ _ (by rw [View.read_write_univ]; exact hVout f2 hf2)) (ptsAny_intro c (outSrcM16 c) _)
  iapply (wp_copy_own V c (.out 16) (by decide) (src := outSrcM16 c) (dst := outDstM16 c) (out_sem_eq 16 _) rfl fd κo hpo16) $$ [H16 Hd Hto]
  · isplitr; · iexact HIo
    isplitl [H16]; · iexact H16
    isplitl [Hd]; · iexact Hd
    isplitl [Hto]; · iexact Hto
    iexact Hro
  iintro Hco
  iapply (wp_wait_xfer V c (.agS 5 1) (by decide) 38 (agS_sem_eq 5 1 _) (k' := ((agM5_1 c) : Memref sig .tc .vmem S512x256 .bf16).view.dmaCredit) rfl (wpE_waitDma2_eq 𝒱₀ (c : Thread nD τ) none Set.univ)
      (mayWait_own c (.agS 5 1) (lv_cell c (.agS 5 1)) 38) κs1 (insert ((CK.agR 4 1).sem, ()) W)) $$ [Hcs1 HO Hats1]
  · isplitr; · iexact HIs1
    isplitl [Hcs1]; · iexact Hcs1
    isplitl [HO]; · iexact HO
    isplitr; · iexact Hlev
    iexact Hats1
  iintro ⟨HO, Hats1, HqS⟩
  ihave Hlent5 := (Entails.of_eq (show pay V c (.agS 5 1) 0 = (iprop(∃ f : Buf (Elt F) ((agM5_1 c).view.loc (c : Thread nD τ)), (agM5_1 c).view.loc (c : Thread nD τ) ↦[(agM5_1 c).view.set]{fullShare.left} f) : sProp 𝕄) from rfl)) $$ HqS
  sl_step
  isplitr; · ipureintro; rfl
  iexists f2
  isplitr; · ipureintro; exact hf2
  isplitl [HO]; · iexact HO
  isplitl [Hatr1]; · iexact Hatr1
  isplitl [Hats1]; · iexact Hats1
  isplitl [Hcs]; · iexact Hcs
  isplitl [Hco]; · iexact Hco
  isplitl [HjR]; · iexact HjR
  iexact Hlent5

end Cert.Kernel.Proto

end
-- ==== Proof.Body54Bits.lean ====
/-
A stretch of a device's kernel body, in the all-gather phase. Column group 5's second round: the neighbour's 512
rows across axis 0 arrive, join the own rows into the 1024 rows sent across axis 2 (the transfer borrows their left
half share), are widened to f32 into their block of the accumulator, and the block is copied to the result array.
With this transfer the device has made all its payments.
-/
import proofs.«900882_g7700000000000883_dist_matmul_gelu_kshard_i_m2048_n2048_k1024_v7x_i8_f32_1_alg».proof.Proof.RulesBits
import proofs.«900882_g7700000000000883_dist_matmul_gelu_kshard_i_m2048_n2048_k1024_v7x_i8_f32_1_alg».proof.Proof.TopoBitsTab
import proofs.«900882_g7700000000000883_dist_matmul_gelu_kshard_i_m2048_n2048_k1024_v7x_i8_f32_1_alg».proof.Proof.PiecesTabBits
import proofs.«900882_g7700000000000883_dist_matmul_gelu_kshard_i_m2048_n2048_k1024_v7x_i8_f32_1_alg».proof.Proof.PiecesOutSepBits
import proofs.«900882_g7700000000000883_dist_matmul_gelu_kshard_i_m2048_n2048_k1024_v7x_i8_f32_1_alg».proof.Proof.PiecesOutTabBits
import proofs.«900882_g7700000000000883_dist_matmul_gelu_kshard_i_m2048_n2048_k1024_v7x_i8_f32_1_alg».proof.Proof.Gen.Kernel.Skeleton
import Idealize.ShloMosaic.Lib.Pipeline.Value

set_option maxRecDepth 16384

noncomputable section

namespace Cert.Kernel.Proto

open Cert.Kernel Cert.Kernel.Gen Cert.Kernel.Topo
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : Vals F)

set_option maxHeartbeats 4000000 in
theorem part54_run (c : Dev nD) (κr1 κs κr κo : ℕ) (W : Waits sig Unit) (v2 v9 v1453 v1463 v1466 : BitVec 32)
    (g1 : Buf (Elt F) ((Memref.whole cc0_scratch18 : Memref sig .tc .vmem S2048x256 .bf16).view.loc (c : Thread nD τ)))
    (f17 : Buf (Elt F) ((outSrcM17 c).view.loc (c : Thread nD τ))) (fd : Buf (Elt F) ((outDstM17 c).view.loc (c : Thread nD τ)))
    (hVag : ∀ f2 : Buf (Elt F) ((Memref.whole cc0_scratch18 : Memref sig .tc .vmem S2048x256 .bf16).view.loc (c : Thread nD τ)), V.ag5_1 (nbr 0 c) ((agM5_1 (nbr 0 c)).view.read (Elt F) f2) →
      V.ag5_2 c ((agM5_2 c).view.read (Elt F) (((agM5_1 (nbr 0 c)).view.set : Finset (Idx ((Memref.whole cc0_scratch18 : Memref sig .tc .vmem S2048x256 .bf16).view.loc (c : Thread nD τ)))).piecewise f2 g1)))
    (hVout : ∀ f2 : Buf (Elt F) ((Memref.whole cc0_scratch18 : Memref sig .tc .vmem S2048x256 .bf16).view.loc (c : Thread nD τ)), V.ag5_1 (nbr 0 c) ((agM5_1 (nbr 0 c)).view.read (Elt F) f2) →
      V.out17 c ((outSrcM17 c).view.read (Elt F) (((Memref.whole cc0_scratch0 : Memref sig .tc .vmem S2048x2048 .f32).access (Rect.unit (s := S2048x2048) (k0_off120 c) S512x256.size (k0_off120_inb c))).write (Elt F) f17 (k0_pay100 (View.readAt (Elt F) (Memref.whole cc0_scratch18 : Memref sig .tc .vmem S2048x256 .bf16).view (Rect.unit (s := S2048x256) (k0_off119 c) S512x256.size (k0_off119_inb c)).toLoadRect (((agM5_1 (nbr 0 c)).view.set : Finset (Idx ((Memref.whole cc0_scratch18 : Memref sig .tc .vmem S2048x256 .bf16).view.loc (c : Thread nD τ)))).piecewise f2 g1))) Finset.univ))) :
    iprop(cellInv ER (sched V) κr1 (cell c (.agR 5 1)) ∗ cellInv ER (sched V) κs (cell c (.agS 5 2)) ∗ cellInv ER (sched V) κr (cell (nbr 2 c) (.agR 5 2))
        ∗ cellInv ER (sched V) κo (cell c (.out 17))
        ∗ reached ER (cell c (.agS 5 2)) 0 ∗ reached ER (cell (nbr 2 c) (.agR 5 2)) 0 ∗ reached ER (cell c (.out 17)) 0
        ∗ dutyTok ER (cell c (.agS 5 2)) 0 (0 : Fin 3) ∗ dutyTok ER (cell (nbr 2 c) (.agR 5 2)) 0 (0 : Fin 3) ∗ dutyTok ER (cell c (.out 17)) 0 (0 : Fin 3)
        ∗ cred (tallyAt (cell c (.agR 5 1)) () (amt (.agR 5 1))) ∗ atPos ER (cell c (.agR 5 1)) 0 ∅ 0
        ∗ owes (c : Thread nD τ) (Owe c 38) W ∗ levAts L lv
        ∗ ptsAny (F := F) (nbr 2 c) (agM5_2 c)
        ∗ ptsLent (F := F) c (agM5_1 c) ∗ ((agM5_1 c).view.loc (c : Thread nD τ) ↦[(agM5_1 c).view.set]{fullShare.right} g1)
        ∗ heldW c (outSrcM17 c) f17 ∗ heldW c (outDstM17 c) fd)
      ⊢ wp frame (wpE (defs₀ (F := F)) 𝒱₀ c none) Set.univ
          (k0_part54 (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23 c v2 v9 v1453 v1463 v1466)
          (fun r => iprop(⌜r = ⟨Scalar.xori v2 4#32, Scalar.addi (Scalar.subi v1463 (Scalar.muli v9 1024#32)) (Scalar.muli (Scalar.subi 1#32 v9) 1024#32)⟩⌝
            ∗ ∃ f2 : Buf (Elt F) ((Memref.whole cc0_scratch18 : Memref sig .tc .vmem S2048x256 .bf16).view.loc (c : Thread nD τ)), ⌜V.ag5_1 (nbr 0 c) ((agM5_1 (nbr 0 c)).view.read (Elt F) f2)⌝
            ∗ owes (c : Thread nD τ) (Owe c 39) (insert ((CK.agR 5 1).sem, ()) W)
            ∗ atPos ER (cell c (.agR 5 1)) 1 ∅ 0
            ∗ cred (tallyAt (cell c (.agS 5 2)) () (amt (.agR 5 2))) ∗ cred (tallyAt (cell c (.out 17)) () (amt (.out 17)))
            ∗ ((agM5_2 c).view.loc (c : Thread nD τ) ↦[(agM5_2 c).view.set]{fullShare.right} (((agM5_1 (nbr 0 c)).view.set : Finset (Idx ((Memref.whole cc0_scratch18 : Memref sig .tc .vmem S2048x256 .bf16).view.loc (c : Thread nD τ)))).piecewise f2 g1)))) := by
  simp only [k0_part54_eq_skeleton]; unfold k0_part54_skel
  simp only [Prog.lift, Prog.bind_op, Prog.bind_ret, Prog.pure_eq_ret]
  iintro ⟨#HIr1, #HIs, #HIr, #HIo, #Hrs, #Hrr, #Hro, Hts, Htr, Hto, Hcr1, Hatr1, HO, #Hlev, Hdst, Hlent, Hown, H17, Hd⟩
  unfold heldW
  iapply (wp_wait_xfer V c (.agR 5 1) (by decide) 38 (agR_sem_eq 5 1 _) (k' := ((agM5_1 c) : Memref sig .tc .vmem S512x256 .bf16).view.dmaCredit) rfl (wpE_waitDma2_eq 𝒱₀ (c : Thread nD τ) none Set.univ)
      (mayWait_agR c 5 1 38 (by decide)) κr1 W) $$ [Hcr1 HO Hatr1]
  · isplitr; · iexact HIr1
    isplitl [Hcr1]; · iexact Hcr1
    isplitl [HO]; · iexact HO
    isplitr; · iexact Hlev
    iexact Hatr1
  iintro ⟨HO, Hatr1, HqR⟩
  ihave Hp := (Entails.of_eq (show pay V c (.agR 5 1) 0 = ptsIs c (agM5_1 (nbr 0 c)) (V.ag5_1 (nbr 0 c)) from rfl)) $$ HqR
  unfold ptsIs ptsLent ptsAny
  icases Hp with ⟨%f2, Hf2, %hf2⟩
  icases Hlent with ⟨%g1', Hlent⟩
  icases Hdst with ⟨%fdn, Hdst⟩
  -- the kept right half and the lent left half of the own rows agree, so they make the full share again
  ihave Hag := (persistent_entails_right (pointsTo_agree (ℓ := ((Memref.whole cc0_scratch18 : Memref sig .tc .vmem S2048x256 .bf16).view.loc (c : Thread nD τ))) (I := (agM5_1 c).view.set) (J := (agM5_1 c).view.set) (q₁ := fullShare.left) (q₂ := fullShare.right) (f := g1') (g := g1))) $$ [Hlent Hown]
  · isplitl [Hlent]; · iexact Hlent
    iexact Hown
  icases Hag with ⟨%hag, Hlent, Hown⟩
  ihave Hlent' := (Entails.of_eq (pointsTo_congr (ℓ := ((Memref.whole cc0_scratch18 : Memref sig .tc .vmem S2048x256 .bf16).view.loc (c : Thread nD τ))) (I := (agM5_1 c).view.set) (q := fullShare.left) (f := g1') (g := g1) fun i hi => (hag i (Finset.mem_inter.mpr ⟨hi, hi⟩)).1)) $$ Hlent
  ihave Hfull := (pointsTo_share (ℓ := ((Memref.whole cc0_scratch18 : Memref sig .tc .vmem S2048x256 .bf16).view.loc (c : Thread nD τ))) (I := (agM5_1 c).view.set) (f := g1) (PosShare.mem_left_op_right fullShare)).2 $$ [Hlent' Hown]
  · isplitl [Hlent']; · iexact Hlent'
    iexact Hown
  -- the own rows and the arrived rows are the rows of the next step
  ihave Hj := (pointsTo_join (ℓ := ((Memref.whole cc0_scratch18 : Memref sig .tc .vmem S2048x256 .bf16).view.loc (c : Thread nD τ))) (I := (agM5_1 c).view.set) (J := (agM5_1 (nbr 0 c)).view.set) (q := fullShare) (f := g1) (g := f2) (ag_disj1_5 c)) $$ [Hfull Hf2]
  · isplitl [Hfull]; · iexact Hfull
    iexact Hf2
  ihave Hj2 := (Entails.of_eq (pts_set_eq (F := F) (ℓ := ((Memref.whole cc0_scratch18 : Memref sig .tc .vmem S2048x256 .bf16).view.loc (c : Thread nD τ))) (S' := (agM5_2 c).view.set) (q := fullShare) (f := (((agM5_1 (nbr 0 c)).view.set : Finset (Idx ((Memref.whole cc0_scratch18 : Memref sig .tc .vmem S2048x256 .bf16).view.loc (c : Thread nD τ)))).piecewise f2 g1)) (ag_join1_5 c).symm)) $$ Hj
  ihave Hh := (pointsTo_share (ℓ := ((Memref.whole cc0_scratch18 : Memref sig .tc .vmem S2048x256 .bf16).view.loc (c : Thread nD τ))) (I := (agM5_2 c).view.set) (f := (((agM5_1 (nbr 0 c)).view.set : Finset (Idx ((Memref.whole cc0_scratch18 : Memref sig .tc .vmem S2048x256 .bf16).view.loc (c : Thread nD τ)))).piecewise f2 g1)) (PosShare.mem_left_op_right fullShare)).1 $$ Hj2
  icases Hh with ⟨HjL0, HjR0⟩
  ihave HjL := (Entails.of_eq (show ((((Memref.whole cc0_scratch18 : Memref sig .tc .vmem S2048x256 .bf16).view.loc (c : Thread nD τ)) ↦[(agM5_2 c).view.set]{fullShare.left} (((agM5_1 (nbr 0 c)).view.set : Finset (Idx ((Memref.whole cc0_scratch18 : Memref sig .tc .vmem S2048x256 .bf16).view.loc (c : Thread nD τ)))).piecewise f2 g1) : sProp 𝕄)) = ((agM5_2 c).view.loc (c : Thread nD τ) ↦[(agM5_2 c).view.set]{fullShare.left} (((agM5_1 (nbr 0 c)).view.set : Finset (Idx ((Memref.whole cc0_scratch18 : Memref sig .tc .vmem S2048x256 .bf16).view.loc (c : Thread nD τ)))).piecewise f2 g1)) from rfl)) $$ HjL0
  ihave HjR := (Entails.of_eq (show ((((Memref.whole cc0_scratch18 : Memref sig .tc .vmem S2048x256 .bf16).view.loc (c : Thread nD τ)) ↦[(agM5_2 c).view.set]{fullShare.right} (((agM5_1 (nbr 0 c)).view.set : Finset (Idx ((Memref.whole cc0_scratch18 : Memref sig .tc .vmem S2048x256 .bf16).view.loc (c : Thread nD τ)))).piecewise f2 g1) : sProp 𝕄)) = ((agM5_2 c).view.loc (c : Thread nD τ) ↦[(agM5_2 c).view.set]{fullShare.right} (((agM5_1 (nbr 0 c)).view.set : Finset (Idx ((Memref.whole cc0_scratch18 : Memref sig .tc .vmem S2048x256 .bf16).view.loc (c : Thread nD τ)))).piecewise f2 g1)) from rfl)) $$ HjR0
  have hp2 : ((agM5_2 c).view.loc (nbr 2 c : Thread nD τ) ↦[(agM5_2 c).view.set]{fullShare}
      ((agM5_2 c).view.write (Elt F) fdn ((agM5_2 c).view.read (Elt F) (((agM5_1 (nbr 0 c)).view.set : Finset (Idx ((Memref.whole cc0_scratch18 : Memref sig .tc .vmem S2048x256 .bf16).view.loc (c : Thread nD τ)))).piecewise f2 g1)) Finset.univ) : sProp 𝕄)
      ⊢ pay V (nbr 2 c) (.agR 5 2) 0 := by
    have e : pay V (nbr 2 c) (.agR 5 2) 0 = ptsIs (nbr 2 c) (agM5_2 c) (V.ag5_2 c) := by
      show ptsIs (nbr 2 c) (agM5_2 (nbr 2 (nbr 2 c))) (V.ag5_2 (nbr 2 (nbr 2 c))) = _
      rw [nbr_nbr]
    rw [e]
    exact ptsIs_intro (nbr 2 c) (agM5_2 c) _ _ (by rw [View.read_write_univ]; exact hVag f2 hf2)
  iapply (wp_send_to V c ⟨k0_dev39 c, k0_dev39_lt c⟩ 2 (dev39_eq c) (.agS 5 2) (.agR 5 2) (by decide) (by decide) 38 (by decide) (paid_ag c 5 2) rfl
      (src := (agM5_2 c)) (dst := (agM5_2 c)) (agS_sem_eq 5 2 _) (agR_sem_eq 5 2 _) rfl fdn κs κr _
      (ptsLent_intro c (agM5_2 c) _) hp2) $$ [HjL Hdst HO Hts Htr]
  · isplitr; · iexact HIs
    isplitr; · iexact HIr
    isplitl [HjL]; · iexact HjL
    isplitl [Hdst]; · iexact Hdst
    isplitl [HO]; · iexact HO
    isplitl [Hts]; · iexact Hts
    isplitr; · iexact Hrs
    isplitl [Htr]; · iexact Htr
    iexact Hrr
  iintro ⟨Hcs, HO⟩
  have hA : ((Memref.whole cc0_scratch18 : Memref sig .tc .vmem S2048x256 .bf16).access (Rect.unit (s := S2048x256) (k0_off119 c) ![512, 256] (k0_off119_inb c))).set ⊆ (agM5_2 c).view.set := by
    refine Finset.Subset.trans (le_of_eq (View.set_slice_whole _ _)) ?_
    piece_dev c unit_subset [off119_eq, off118_eq]
  have hB : ((Memref.whole cc0_scratch0 : Memref sig .tc .vmem S2048x2048 .f32).access (Rect.unit (s := S2048x2048) (k0_off120 c) ![512, 256] (k0_off120_inb c))).set ⊆ (outSrcM17 c).view.set :=
    le_of_eq ((View.set_slice_whole _ _).trans ((unit_set_congr ((off120_eq c).trans (off121_eq c).symm) rfl).trans (View.set_slice_whole _ _).symm))
  have hB' : ((Memref.whole cc0_scratch0 : Memref sig .tc .vmem S2048x2048 .f32).access (Rect.unit (s := S2048x2048) (k0_off120 c) ![512, 256] (k0_off120_inb c))).setOn Finset.univ ⊆ (outSrcM17 c).view.set := hB
  sl_exec
  have hpo17 : iprop(((outDstM17 c).view.loc (c : Thread nD τ) ↦[(outDstM17 c).view.set]{fullShare} ((outDstM17 c).view.write (Elt F) fd ((outSrcM17 c).view.read (Elt F)
        (((Memref.whole cc0_scratch0 : Memref sig .tc .vmem S2048x2048 .f32).access (Rect.unit (s := S2048x2048) (k0_off120 c) S512x256.size (k0_off120_inb c))).write (Elt F) f17 (k0_pay100 (View.readAt (Elt F) (Memref.whole cc0_scratch18 : Memref sig .tc .vmem S2048x256 .bf16).view (Rect.unit (s := S2048x256) (k0_off119 c) S512x256.size (k0_off119_inb c)).toLoadRect (((agM5_1 (nbr 0 c)).view.set : Finset (Idx ((Memref.whole cc0_scratch18 : Memref sig .tc .vmem S2048x256 .bf16).view.loc (c : Thread nD τ)))).piecewise f2 g1))) Finset.univ)) Finset.univ))
      ∗ ((outSrcM17 c).view.loc (c : Thread nD τ) ↦[(outSrcM17 c).view.set]{fullShare}
        (((Memref.whole cc0_scratch0 : Memref sig .tc .vmem S2048x2048 .f32).access (Rect.unit (s := S2048x2048) (k0_off120 c) S512x256.size (k0_off120_inb c))).write (Elt F) f17 (k0_pay100 (View.readAt (Elt F) (Memref.whole cc0_scratch18 : Memref sig .tc .vmem S2048x256 .bf16).view (Rect.unit (s := S2048x256) (k0_off119 c) S512x256.size (k0_off119_inb c)).toLoadRect (((agM5_1 (nbr 0 c)).view.set : Finset (Idx ((Memref.whole cc0_scratch18 : Memref sig .tc .vmem S2048x256 .bf16).view.loc (c : Thread nD τ)))).piecewise f2 g1))) Finset.univ)) : sProp 𝕄) ⊢ pay V c (.out 17) 0 := by
    show _ ⊢ iprop(ptsIs c (outDstM17 c) (V.out17 c) ∗ ptsAny (F := F) c (outSrcM17 c))
    exact BI.sep_mono (ptsIs_intro c (outDstM17 c) _ _ (by rw [View.read_write_univ]; exact hVout f2 hf2)) (ptsAny_intro c (outSrcM17 c) _)
  iapply (wp_copy_own V c (.out 17) (by decide) (src := outSrcM17 c) (dst := outDstM17 c) (out_sem_eq 17 _) rfl fd κo hpo17) $$ [H17 Hd Hto]
  · isplitr; · iexact HIo
    isplitl [H17]; · iexact H17
    isplitl [Hd]; · iexact Hd
    isplitl [Hto]; · iexact Hto
    iexact Hro
  iintro Hco
  sl_step
  isplitr; · ipureintro; rfl
  iexists f2
  isplitr; · ipureintro; exact hf2
  isplitl [HO]; · iexact HO
  isplitl [Hatr1]; · iexact Hatr1
  isplitl [Hcs]; · iexact Hcs
  isplitl [Hco]; · iexact Hco
  iexact HjR

end Cert.Kernel.Proto

end
-- ==== Proof.Body55Bits.lean ====
/-
A stretch of a device's kernel body, at the end of the all-gather phase. Column group 0's last round is waited
for: the lent half share of the 1024 rows sent comes back and the other 1024 rows arrive from the neighbour across
axis 0; they are widened to f32 into the last block of the accumulator's column group 0, which is copied to the
result array. Then the lent half share of column group 1's 1024 rows comes back.
-/
import proofs.«900882_g7700000000000883_dist_matmul_gelu_kshard_i_m2048_n2048_k1024_v7x_i8_f32_1_alg».proof.Proof.RulesBits
import proofs.«900882_g7700000000000883_dist_matmul_gelu_kshard_i_m2048_n2048_k1024_v7x_i8_f32_1_alg».proof.Proof.TopoBitsTab
import proofs.«900882_g7700000000000883_dist_matmul_gelu_kshard_i_m2048_n2048_k1024_v7x_i8_f32_1_alg».proof.Proof.PiecesTabBits
import proofs.«900882_g7700000000000883_dist_matmul_gelu_kshard_i_m2048_n2048_k1024_v7x_i8_f32_1_alg».proof.Proof.PiecesOutSepBits
import proofs.«900882_g7700000000000883_dist_matmul_gelu_kshard_i_m2048_n2048_k1024_v7x_i8_f32_1_alg».proof.Proof.PiecesOutTabBits
import proofs.«900882_g7700000000000883_dist_matmul_gelu_kshard_i_m2048_n2048_k1024_v7x_i8_f32_1_alg».proof.Proof.Gen.Kernel.Skeleton
import Idealize.ShloMosaic.Lib.Pipeline.Value

set_option maxRecDepth 16384

noncomputable section

namespace Cert.Kernel.Proto

open Cert.Kernel Cert.Kernel.Gen Cert.Kernel.Topo
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : Vals F)

set_option maxHeartbeats 4000000 in
theorem part55_run (c : Dev nD) (κs0 κr0 κo κs1 : ℕ) (W : Waits sig Unit) (v1488 v1501 : BitVec 32)
    (f18 : Buf (Elt F) ((outSrcM18 c).view.loc (c : Thread nD τ))) (fd : Buf (Elt F) ((outDstM18 c).view.loc (c : Thread nD τ)))
    (hVout : ∀ fa : Buf (Elt F) ((Memref.whole cc0_scratch13 : Memref sig .tc .vmem S2048x384 .bf16).view.loc (c : Thread nD τ)), V.ag0_2 (nbr 0 c) ((agM0_2 (nbr 0 c)).view.read (Elt F) fa) →
      V.out18 c ((outSrcM18 c).view.read (Elt F) (((Memref.whole cc0_scratch0 : Memref sig .tc .vmem S2048x2048 .f32).access (Rect.unit (s := S2048x2048) (k0_off123 c) S1024x384.size (k0_off123_inb c))).write (Elt F) f18 (k0_pay101 (View.readAt (Elt F) (Memref.whole cc0_scratch13 : Memref sig .tc .vmem S2048x384 .bf16).view (Rect.unit (s := S2048x384) (k0_off122 c) S1024x384.size (k0_off122_inb c)).toLoadRect fa)) Finset.univ))) :
    iprop(cellInv ER (sched V) κs0 (cell c (.agS 0 2)) ∗ cellInv ER (sched V) κr0 (cell c (.agR 0 2))
        ∗ cellInv ER (sched V) κo (cell c (.out 18)) ∗ cellInv ER (sched V) κs1 (cell c (.agS 1 2))
        ∗ reached ER (cell c (.out 18)) 0 ∗ dutyTok ER (cell c (.out 18)) 0 (0 : Fin 3)
        ∗ cred (tallyAt (cell c (.agS 0 2)) () (amt (.agR 0 2))) ∗ atPos ER (cell c (.agS 0 2)) 0 ∅ 0
        ∗ cred (tallyAt (cell c (.agR 0 2)) () (amt (.agR 0 2))) ∗ atPos ER (cell c (.agR 0 2)) 0 ∅ 0
        ∗ cred (tallyAt (cell c (.agS 1 2)) () (amt (.agR 1 2))) ∗ atPos ER (cell c (.agS 1 2)) 0 ∅ 0
        ∗ owes (c : Thread nD τ) (Owe c 39) W ∗ levAts L lv
        ∗ heldW c (outSrcM18 c) f18 ∗ heldW c (outDstM18 c) fd)
      ⊢ wp frame (wpE (defs₀ (F := F)) 𝒱₀ c none) Set.univ
          (k0_part55 (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23 c v1488 v1501)
          (fun r => iprop(⌜r = ⟨⟩⌝
            ∗ ∃ fa : Buf (Elt F) ((Memref.whole cc0_scratch13 : Memref sig .tc .vmem S2048x384 .bf16).view.loc (c : Thread nD τ)), ⌜V.ag0_2 (nbr 0 c) ((agM0_2 (nbr 0 c)).view.read (Elt F) fa)⌝
            ∗ owes (c : Thread nD τ) (Owe c 39) (insert ((CK.agS 1 2).sem, ()) (insert ((CK.agR 0 2).sem, ()) (insert ((CK.agS 0 2).sem, ()) W)))
            ∗ atPos ER (cell c (.agS 0 2)) 1 ∅ 0 ∗ atPos ER (cell c (.agR 0 2)) 1 ∅ 0 ∗ atPos ER (cell c (.agS 1 2)) 1 ∅ 0
            ∗ cred (tallyAt (cell c (.out 18)) () (amt (.out 18)))
            ∗ ptsLent (F := F) c (agM0_2 c)
            ∗ ((agM0_2 (nbr 0 c)).view.loc (c : Thread nD τ) ↦[(agM0_2 (nbr 0 c)).view.set]{fullShare} fa)
            ∗ ptsLent (F := F) c (agM1_2 c))) := by
  simp only [k0_part55_eq_skeleton]; unfold k0_part55_skel
  simp only [Prog.lift, Prog.bind_op, Prog.bind_ret, Prog.pure_eq_ret]
  iintro ⟨#HIs0, #HIr0, #HIo, #HIs1, #Hro, Hto, Hcs0, Hats0, Hcr0, Hatr0, Hcs1, Hats1, HO, #Hlev, H18, Hd⟩
  unfold heldW
  iapply (wp_wait_xfer V c (.agS 0 2) (by decide) 39 (agS_sem_eq 0 2 _) (k' := ((agM0_2 c) : Memref sig .tc .vmem S1024x384 .bf16).view.dmaCredit) rfl (wpE_waitDma2_eq 𝒱₀ (c : Thread nD τ) none Set.univ)
      (mayWait_own c (.agS 0 2) (lv_cell c (.agS 0 2)) 39) κs0 W) $$ [Hcs0 HO Hats0]
  · isplitr; · iexact HIs0
    isplitl [Hcs0]; · iexact Hcs0
    isplitl [HO]; · iexact HO
    isplitr; · iexact Hlev
    iexact Hats0
  iintro ⟨HO, Hats0, HqS⟩
  iapply (wp_wait_xfer V c (.agR 0 2) (by decide) 39 (agR_sem_eq 0 2 _) (k' := ((agM0_2 c) : Memref sig .tc .vmem S1024x384 .bf16).view.dmaCredit) rfl (wpE_waitDma2_eq 𝒱₀ (c : Thread nD τ) none Set.univ)
      (mayWait_agR c 0 2 39 (by decide)) κr0 (insert ((CK.agS 0 2).sem, ()) W)) $$ [Hcr0 HO Hatr0]
  · isplitr; · iexact HIr0
    isplitl [Hcr0]; · iexact Hcr0
    isplitl [HO]; · iexact HO
    isplitr; · iexact Hlev
    iexact Hatr0
  iintro ⟨HO, Hatr0, HqR⟩
  ihave Hp := (Entails.of_eq (show pay V c (.agR 0 2) 0 = ptsIs c (agM0_2 (nbr 0 c)) (V.ag0_2 (nbr 0 c)) from rfl)) $$ HqR
  unfold ptsIs ptsLent
  icases Hp with ⟨%fa, Hfa, %hfa⟩
  ihave Hlent0 := (Entails.of_eq (show pay V c (.agS 0 2) 0 = (iprop(∃ f : Buf (Elt F) ((agM0_2 c).view.loc (c : Thread nD τ)), (agM0_2 c).view.loc (c : Thread nD τ) ↦[(agM0_2 c).view.set]{fullShare.left} f) : sProp 𝕄) from rfl)) $$ HqS
  have hA : ((Memref.whole cc0_scratch13 : Memref sig .tc .vmem S2048x384 .bf16).access (Rect.unit (s := S2048x384) (k0_off122 c) ![1024, 384] (k0_off122_inb c))).set ⊆ (agM0_2 (nbr 0 c)).view.set := by
    refine Finset.Subset.trans (le_of_eq (View.set_slice_whole _ _)) ?_
    piece_dev c unit_subset [off122_eq, off100_eq]
  have hB : ((Memref.whole cc0_scratch0 : Memref sig .tc .vmem S2048x2048 .f32).access (Rect.unit (s := S2048x2048) (k0_off123 c) ![1024, 384] (k0_off123_inb c))).set ⊆ (outSrcM18 c).view.set :=
    le_of_eq ((View.set_slice_whole _ _).trans ((unit_set_congr ((off123_eq c).trans (off124_eq c).symm) rfl).trans (View.set_slice_whole _ _).symm))
  have hB' : ((Memref.whole cc0_scratch0 : Memref sig .tc .vmem S2048x2048 .f32).access (Rect.unit (s := S2048x2048) (k0_off123 c) ![1024, 384] (k0_off123_inb c))).setOn Finset.univ ⊆ (outSrcM18 c).view.set := hB
  sl_exec
  have hpo18 : iprop(((outDstM18 c).view.loc (c : Thread nD τ) ↦[(outDstM18 c).view.set]{fullShare} ((outDstM18 c).view.write (Elt F) fd ((outSrcM18 c).view.read (Elt F)
        (((Memref.whole cc0_scratch0 : Memref sig .tc .vmem S2048x2048 .f32).access (Rect.unit (s := S2048x2048) (k0_off123 c) S1024x384.size (k0_off123_inb c))).write (Elt F) f18 (k0_pay101 (View.readAt (Elt F) (Memref.whole cc0_scratch13 : Memref sig .tc .vmem S2048x384 .bf16).view (Rect.unit (s := S2048x384) (k0_off122 c) S1024x384.size (k0_off122_inb c)).toLoadRect fa)) Finset.univ)) Finset.univ))
      ∗ ((outSrcM18 c).view.loc (c : Thread nD τ) ↦[(outSrcM18 c).view.set]{fullShare}
        (((Memref.whole cc0_scratch0 : Memref sig .tc .vmem S2048x2048 .f32).access (Rect.unit (s := S2048x2048) (k0_off123 c) S1024x384.size (k0_off123_inb c))).write (Elt F) f18 (k0_pay101 (View.readAt (Elt F) (Memref.whole cc0_scratch13 : Memref sig .tc .vmem S2048x384 .bf16).view (Rect.unit (s := S2048x384) (k0_off122 c) S1024x384.size (k0_off122_inb c)).toLoadRect fa)) Finset.univ)) : sProp 𝕄) ⊢ pay V c (.out 18) 0 := by
    show _ ⊢ iprop(ptsIs c (outDstM18 c) (V.out18 c) ∗ ptsAny (F := F) c (outSrcM18 c))
    exact BI.sep_mono (ptsIs_intro c (outDstM18 c) _ _ (by rw [View.read_write_univ]; exact hVout fa hfa)) (ptsAny_intro c (outSrcM18 c) _)
  iapply (wp_copy_own V c (.out 18) (by decide) (src := outSrcM18 c) (dst := outDstM18 c) (out_sem_eq 18 _) rfl fd κo hpo18) $$ [H18 Hd Hto]
  · isplitr; · iexact HIo
    isplitl [H18]; · iexact H18
    isplitl [Hd]; · iexact Hd
    isplitl [Hto]; · iexact Hto
    iexact Hro
  iintro Hco
  iapply (wp_wait_xfer V c (.agS 1 2) (by decide) 39 (agS_sem_eq 1 2 _) (k' := ((agM1_2 c) : Memref sig .tc .vmem S1024x384 .bf16).view.dmaCredit) rfl (wpE_waitDma2_eq 𝒱₀ (c : Thread nD τ) none Set.univ)
      (mayWait_own c (.agS 1 2) (lv_cell c (.agS 1 2)) 39) κs1 (insert ((CK.agR 0 2).sem, ()) (insert ((CK.agS 0 2).sem, ()) W))) $$ [Hcs1 HO Hats1]
  · isplitr; · iexact HIs1
    isplitl [Hcs1]; · iexact Hcs1
    isplitl [HO]; · iexact HO
    isplitr; · iexact Hlev
    iexact Hats1
  iintro ⟨HO, Hats1, HqS1⟩
  ihave Hlent1 := (Entails.of_eq (show pay V c (.agS 1 2) 0 = (iprop(∃ f : Buf (Elt F) ((agM1_2 c).view.loc (c : Thread nD τ)), (agM1_2 c).view.loc (c : Thread nD τ) ↦[(agM1_2 c).view.set]{fullShare.left} f) : sProp 𝕄) from rfl)) $$ HqS1
  sl_step
  isplitr; · ipureintro; trivial
  iexists fa
  isplitr; · ipureintro; exact hfa
  isplitl [HO]; · iexact HO
  isplitl [Hats0]; · iexact Hats0
  isplitl [Hatr0]; · iexact Hatr0
  isplitl [Hats1]; · iexact Hats1
  isplitl [Hco]; · iexact Hco
  isplitl [Hlent0]; · iexact Hlent0
  isplitl [Hfa]; · iexact Hfa
  iexact Hlent1

end Cert.Kernel.Proto

end
-- ==== Proof.Body56Bits.lean ====
/-
Stretch 56 of a device's kernel body: the wait for group 1's last all-gather landing (1024 rows from the neighbour across
axis 1), their upcast into block 19 of the accumulator and the copy of that block to the result array; the two waits of
group 2's last all-gather exchange and the load of its landed rows.
-/
import proofs.«900882_g7700000000000883_dist_matmul_gelu_kshard_i_m2048_n2048_k1024_v7x_i8_f32_1_alg».proof.Proof.RulesBits
import proofs.«900882_g7700000000000883_dist_matmul_gelu_kshard_i_m2048_n2048_k1024_v7x_i8_f32_1_alg».proof.Proof.TopoBitsTab
import proofs.«900882_g7700000000000883_dist_matmul_gelu_kshard_i_m2048_n2048_k1024_v7x_i8_f32_1_alg».proof.Proof.PiecesTabBits
import proofs.«900882_g7700000000000883_dist_matmul_gelu_kshard_i_m2048_n2048_k1024_v7x_i8_f32_1_alg».proof.Proof.Gen.Kernel.Skeleton
import proofs.«900882_g7700000000000883_dist_matmul_gelu_kshard_i_m2048_n2048_k1024_v7x_i8_f32_1_alg».proof.Proof.TopoClosedBits
import proofs.«900882_g7700000000000883_dist_matmul_gelu_kshard_i_m2048_n2048_k1024_v7x_i8_f32_1_alg».proof.Proof.PiecesOutSepBits
import Idealize.ShloMosaic.Lib.Pipeline.Value

set_option maxRecDepth 16384

noncomputable section

namespace Cert.Kernel.Proto

open Cert.Kernel Cert.Kernel.Gen Cert.Kernel.Topo
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : Vals F)

set_option maxHeartbeats 4000000 in
theorem part56_run (c : Dev nD) (κa κo19 κb κd : ℕ) (W : Waits sig Unit) (v1523 v1536 v1558 v1571 : BitVec 32)
    (fb : Buf (Elt F) ((outSrcM19 c : Memref sig .tc .vmem S1024x384 .f32).view.loc (c : Thread nD τ)))
    (fo : Buf (Elt F) ((outDstM19 c : Memref sig .tc .hbm S1024x384 .f32).view.loc (c : Thread nD τ)))
    (hV : ∀ fl1 : Buf (Elt F) ((agM1_2 (nbr 1 c) : Memref sig .tc .vmem S1024x384 .bf16).view.loc (c : Thread nD τ)), V.ag1_2 (nbr 1 c) ((agM1_2 (nbr 1 c) : Memref sig .tc .vmem S1024x384 .bf16).view.read (Elt F) fl1) →
        V.out19 c ((outSrcM19 c : Memref sig .tc .vmem S1024x384 .f32).view.read (Elt F) (View.write (Elt F) ((Memref.whole cc0_scratch0 : Memref sig .tc .vmem S2048x2048 .f32).access (Rect.unit (s := S2048x2048) (k0_off126 c) ![1024, 384] (k0_off126_inb c))) fb (k0_pay102 (View.readAt (Elt F) (Memref.whole cc0_scratch14 : Memref sig .tc .vmem S2048x384 .bf16).view (Rect.unit (s := S2048x384) (k0_off125 c) ![1024, 384] (k0_off125_inb c)).toLoadRect fl1)) Finset.univ))) :
    iprop(owes (c : Thread nD τ) (Owe c 39) W ∗ levAts L lv
        ∗ cellInv ER (sched V) κa (cell c (.agR 1 2)) ∗ cred (tallyAt (cell c (.agR 1 2)) () (amt (.agR 1 2))) ∗ atPos ER (cell c (.agR 1 2)) 0 ∅ 0
        ∗ heldW c (outSrcM19 c : Memref sig .tc .vmem S1024x384 .f32) fb
        ∗ heldW c (outDstM19 c : Memref sig .tc .hbm S1024x384 .f32) fo
        ∗ cellInv ER (sched V) κo19 (cell c (.out 19)) ∗ dutyTok ER (cell c (.out 19)) 0 (0 : Fin 3) ∗ reached ER (cell c (.out 19)) 0
        ∗ cellInv ER (sched V) κb (cell c (.agS 2 2)) ∗ cred (tallyAt (cell c (.agS 2 2)) () (amt (.agS 2 2))) ∗ atPos ER (cell c (.agS 2 2)) 0 ∅ 0
        ∗ cellInv ER (sched V) κd (cell c (.agR 2 2)) ∗ cred (tallyAt (cell c (.agR 2 2)) () (amt (.agR 2 2))) ∗ atPos ER (cell c (.agR 2 2)) 0 ∅ 0)
      ⊢ wp frame (wpE (defs₀ (F := F)) 𝒱₀ c none) Set.univ
          (k0_part56 (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23 c v1523 v1536 v1558 v1571)
          (fun r => iprop(∃ (fl1 : Buf (Elt F) ((agM1_2 (nbr 1 c) : Memref sig .tc .vmem S1024x384 .bf16).view.loc (c : Thread nD τ))) (fl2 : Buf (Elt F) ((agM2_2 (nbr 2 c) : Memref sig .tc .vmem S1024x384 .bf16).view.loc (c : Thread nD τ))), ⌜r = (k0_pay103 (View.readAt (Elt F) (Memref.whole cc0_scratch15 : Memref sig .tc .vmem S2048x384 .bf16).view (Rect.unit (s := S2048x384) (k0_off128 c) ![1024, 384] (k0_off128_inb c)).toLoadRect fl2))⌝
            ∗ ⌜V.ag1_2 (nbr 1 c) ((agM1_2 (nbr 1 c) : Memref sig .tc .vmem S1024x384 .bf16).view.read (Elt F) fl1)⌝ ∗ ⌜V.ag2_2 (nbr 2 c) ((agM2_2 (nbr 2 c) : Memref sig .tc .vmem S1024x384 .bf16).view.read (Elt F) fl2)⌝
            ∗ heldW c (agM1_2 (nbr 1 c) : Memref sig .tc .vmem S1024x384 .bf16) fl1 ∗ heldW c (agM2_2 (nbr 2 c) : Memref sig .tc .vmem S1024x384 .bf16) fl2
            ∗ cred (tallyAt (cell c (.out 19)) () (amt (.out 19)))
            ∗ owes (c : Thread nD τ) (Owe c 39) (insert ((CK.agR 2 2).sem, ()) (insert ((CK.agS 2 2).sem, ()) (insert ((CK.agR 1 2).sem, ()) W)))
            ∗ atPos ER (cell c (.agR 1 2)) 1 ∅ 0 ∗ atPos ER (cell c (.agS 2 2)) 1 ∅ 0 ∗ atPos ER (cell c (.agR 2 2)) 1 ∅ 0
            ∗ ptsLent (F := F) c (agM2_2 c))) := by
  simp only [k0_part56_eq_skeleton]; unfold k0_part56_skel
  simp only [Prog.lift, Prog.bind_op, Prog.bind_ret, Prog.pure_eq_ret]
  iintro ⟨HO, #Hlev, #HIa, Hca, Hata, Hblk, Hdst, #HIo19, Hto19, #Hro19, #HIb, Hcb, Hatb, #HId, Hcd, Hatd⟩
  unfold heldW
  iapply (wp_wait_xfer V c (.agR 1 2) (by decide) 39 (agR_sem_eq 1 2 _)
      (show (agM1_2 c : Memref sig .tc .vmem S1024x384 .bf16).view.dmaCredit = amt (.agR 1 2) from rfl)
      (wpE_waitDma2_eq 𝒱₀ (c : Thread nD τ) none Set.univ)
      (mayWait_agR c 1 2 39 (by decide)) κa W) $$ [Hca HO Hata]
  · isplitr; · iexact HIa
    isplitl [Hca]; · iexact Hca
    isplitl [HO]; · iexact HO
    isplitr; · iexact Hlev
    iexact Hata
  iintro ⟨HO, Hata, Hpay0⟩
  ihave Hp0 := (Entails.of_eq (show pay V c (CK.agR 1 2) 0 = ptsIs c (agM1_2 (nbr 1 c)) (V.ag1_2 (nbr 1 c)) from rfl)) $$ Hpay0
  unfold ptsIs
  icases Hp0 with ⟨%fl1, Hl1, %hX1⟩
  have hinc1 : ((Memref.whole cc0_scratch14 : Memref sig .tc .vmem S2048x384 .bf16).access (Rect.unit (s := S2048x384) (k0_off125 c) ![1024, 384] (k0_off125_inb c))).set
      ⊆ (agM1_2 (nbr 1 c) : Memref sig .tc .vmem S1024x384 .bf16).view.set := by
    rw [View.set_slice_whole, View.set_slice_whole]
    refine unit_subset ?_
    piece_arith c [off125_eq, off104_eq]
  have hinc2 : ((Memref.whole cc0_scratch0 : Memref sig .tc .vmem S2048x2048 .f32).access (Rect.unit (s := S2048x2048) (k0_off126 c) ![1024, 384] (k0_off126_inb c))).set
      ⊆ (outSrcM19 c : Memref sig .tc .vmem S1024x384 .f32).view.set := by
    rw [View.set_slice_whole, View.set_slice_whole]
    refine unit_subset ?_
    piece_arith c [off126_eq, off127_eq]
  have hinc3 : ((Memref.whole cc0_scratch0 : Memref sig .tc .vmem S2048x2048 .f32).access (Rect.unit (s := S2048x2048) (k0_off126 c) ![1024, 384] (k0_off126_inb c))).setOn Finset.univ
      ⊆ (outSrcM19 c : Memref sig .tc .vmem S1024x384 .f32).view.set := by
    rw [View.setOn_univ]
    rw [View.set_slice_whole, View.set_slice_whole]
    refine unit_subset ?_
    piece_arith c [off126_eq, off127_eq]
  sl_exec
  have hpay19 : iprop(((outDstM19 c : Memref sig .tc .hbm S1024x384 .f32).view.loc (c : Thread nD τ) ↦[(outDstM19 c : Memref sig .tc .hbm S1024x384 .f32).view.set]{fullShare}
        ((outDstM19 c : Memref sig .tc .hbm S1024x384 .f32).view.write (Elt F) fo ((outSrcM19 c : Memref sig .tc .vmem S1024x384 .f32).view.read (Elt F) (View.write (Elt F) ((Memref.whole cc0_scratch0 : Memref sig .tc .vmem S2048x2048 .f32).access (Rect.unit (s := S2048x2048) (k0_off126 c) ![1024, 384] (k0_off126_inb c))) fb (k0_pay102 (View.readAt (Elt F) (Memref.whole cc0_scratch14 : Memref sig .tc .vmem S2048x384 .bf16).view (Rect.unit (s := S2048x384) (k0_off125 c) ![1024, 384] (k0_off125_inb c)).toLoadRect fl1)) Finset.univ)) Finset.univ))
      ∗ ((outSrcM19 c : Memref sig .tc .vmem S1024x384 .f32).view.loc (c : Thread nD τ) ↦[(outSrcM19 c : Memref sig .tc .vmem S1024x384 .f32).view.set]{fullShare} (View.write (Elt F) ((Memref.whole cc0_scratch0 : Memref sig .tc .vmem S2048x2048 .f32).access (Rect.unit (s := S2048x2048) (k0_off126 c) ![1024, 384] (k0_off126_inb c))) fb (k0_pay102 (View.readAt (Elt F) (Memref.whole cc0_scratch14 : Memref sig .tc .vmem S2048x384 .bf16).view (Rect.unit (s := S2048x384) (k0_off125 c) ![1024, 384] (k0_off125_inb c)).toLoadRect fl1)) Finset.univ))) ⊢ pay V c (.out 19) 0 := by
    show _ ⊢ iprop(ptsIs c (outDstM19 c) (V.out19 c) ∗ ptsAny (F := F) c (outSrcM19 c))
    iintro ⟨Hd, Hs⟩
    isplitl [Hd]
    · unfold ptsIs
      iexists _
      isplitl [Hd]; · iexact Hd
      ipureintro; rw [View.read_write_univ]; exact (hV fl1 hX1)
    · unfold ptsAny
      iexists _
      iexact Hs
  iapply (wp_copy_own V c (.out 19) (by decide) (src := outSrcM19 c) (dst := outDstM19 c) (out_sem_eq 19 _) rfl fo κo19 hpay19) $$ [Hblk Hdst Hto19]
  · isplitr; · iexact HIo19
    isplitl [Hblk]; · iexact Hblk
    isplitl [Hdst]; · iexact Hdst
    isplitl [Hto19]; · iexact Hto19
    iexact Hro19
  iintro Hco19
  iapply (wp_wait_xfer V c (.agS 2 2) (by decide) 39 (agS_sem_eq 2 2 _)
      (show (agM2_2 c : Memref sig .tc .vmem S1024x384 .bf16).view.dmaCredit = amt (.agS 2 2) from rfl)
      (wpE_waitDma2_eq 𝒱₀ (c : Thread nD τ) none Set.univ)
      (mayWait_own c (.agS 2 2) (lv_cell c _) 39) κb (insert ((CK.agR 1 2).sem, ()) W)) $$ [Hcb HO Hatb]
  · isplitr; · iexact HIb
    isplitl [Hcb]; · iexact Hcb
    isplitl [HO]; · iexact HO
    isplitr; · iexact Hlev
    iexact Hatb
  iintro ⟨HO, Hatb, Hpay1⟩
  iapply (wp_wait_xfer V c (.agR 2 2) (by decide) 39 (agR_sem_eq 2 2 _)
      (show (agM2_2 c : Memref sig .tc .vmem S1024x384 .bf16).view.dmaCredit = amt (.agR 2 2) from rfl)
      (wpE_waitDma2_eq 𝒱₀ (c : Thread nD τ) none Set.univ)
      (mayWait_agR c 2 2 39 (by decide)) κd (insert ((CK.agS 2 2).sem, ()) (insert ((CK.agR 1 2).sem, ()) W))) $$ [Hcd HO Hatd]
  · isplitr; · iexact HId
    isplitl [Hcd]; · iexact Hcd
    isplitl [HO]; · iexact HO
    isplitr; · iexact Hlev
    iexact Hatd
  iintro ⟨HO, Hatd, Hpay2⟩
  ihave Hp1 := (Entails.of_eq (show pay V c (CK.agS 2 2) 0 = ptsLent (F := F) c (agM2_2 c) from rfl)) $$ Hpay1
  ihave Hp2 := (Entails.of_eq (show pay V c (CK.agR 2 2) 0 = ptsIs c (agM2_2 (nbr 2 c)) (V.ag2_2 (nbr 2 c)) from rfl)) $$ Hpay2
  unfold ptsIs
  icases Hp2 with ⟨%fl2, Hl2, %hX2⟩
  have hinc4 : ((Memref.whole cc0_scratch15 : Memref sig .tc .vmem S2048x384 .bf16).access (Rect.unit (s := S2048x384) (k0_off128 c) ![1024, 384] (k0_off128_inb c))).set
      ⊆ (agM2_2 (nbr 2 c) : Memref sig .tc .vmem S1024x384 .bf16).view.set := by
    rw [View.set_slice_whole, View.set_slice_whole]
    refine unit_subset ?_
    piece_arith c [off128_eq, off108_eq]
  sl_exec
  sl_step
  iexists fl1, fl2
  isplitr; · ipureintro; rfl
  isplitr; · ipureintro; exact hX1
  isplitr; · ipureintro; exact hX2
  isplitl [Hl1]; · iexact Hl1
  isplitl [Hl2]; · iexact Hl2
  isplitl [Hco19]; · iexact Hco19
  isplitl [HO]; · iexact HO
  isplitl [Hata]; · iexact Hata
  isplitl [Hatb]; · iexact Hatb
  isplitl [Hatd]; · iexact Hatd
  iexact Hp1

end Cert.Kernel.Proto

end
-- ==== Proof.Body57Bits.lean ====
/-
Stretch 57 of a device's kernel body: the upcast of group 2's last landed rows into block 20 of the accumulator and the
copy of that block to the result array; the two waits of group 3's last all-gather exchange, the upcast of its landed
rows into block 21 and the copy of that block.
-/
import proofs.«900882_g7700000000000883_dist_matmul_gelu_kshard_i_m2048_n2048_k1024_v7x_i8_f32_1_alg».proof.Proof.RulesBits
import proofs.«900882_g7700000000000883_dist_matmul_gelu_kshard_i_m2048_n2048_k1024_v7x_i8_f32_1_alg».proof.Proof.TopoBitsTab
import proofs.«900882_g7700000000000883_dist_matmul_gelu_kshard_i_m2048_n2048_k1024_v7x_i8_f32_1_alg».proof.Proof.PiecesTabBits
import proofs.«900882_g7700000000000883_dist_matmul_gelu_kshard_i_m2048_n2048_k1024_v7x_i8_f32_1_alg».proof.Proof.Gen.Kernel.Skeleton
import proofs.«900882_g7700000000000883_dist_matmul_gelu_kshard_i_m2048_n2048_k1024_v7x_i8_f32_1_alg».proof.Proof.TopoClosedBits
import proofs.«900882_g7700000000000883_dist_matmul_gelu_kshard_i_m2048_n2048_k1024_v7x_i8_f32_1_alg».proof.Proof.PiecesOutSepBits
import Idealize.ShloMosaic.Lib.Pipeline.Value

set_option maxRecDepth 16384

noncomputable section

namespace Cert.Kernel.Proto

open Cert.Kernel Cert.Kernel.Gen Cert.Kernel.Topo
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : Vals F)

set_option maxHeartbeats 4000000 in
theorem part57_run (c : Dev nD) (κo20 κo21 κb κd : ℕ) (W : Waits sig Unit) (v1571 v1593 v1606 : BitVec 32) (v1742 : FVec F S1024x384 .f32)
    (fb20 : Buf (Elt F) ((outSrcM20 c : Memref sig .tc .vmem S1024x384 .f32).view.loc (c : Thread nD τ)))
    (fo20 : Buf (Elt F) ((outDstM20 c : Memref sig .tc .hbm S1024x384 .f32).view.loc (c : Thread nD τ)))
    (fb21 : Buf (Elt F) ((outSrcM21 c : Memref sig .tc .vmem S1024x384 .f32).view.loc (c : Thread nD τ)))
    (fo21 : Buf (Elt F) ((outDstM21 c : Memref sig .tc .hbm S1024x384 .f32).view.loc (c : Thread nD τ)))
    (hV20 : V.out20 c ((outSrcM20 c : Memref sig .tc .vmem S1024x384 .f32).view.read (Elt F) (View.write (Elt F) ((Memref.whole cc0_scratch0 : Memref sig .tc .vmem S2048x2048 .f32).access (Rect.unit (s := S2048x2048) (k0_off129 c) ![1024, 384] (k0_off129_inb c))) fb20 (k0_pay104 v1742) Finset.univ)))
    (hV21 : ∀ fl : Buf (Elt F) ((agM3_2 (nbr 0 c) : Memref sig .tc .vmem S1024x384 .bf16).view.loc (c : Thread nD τ)), V.ag3_2 (nbr 0 c) ((agM3_2 (nbr 0 c) : Memref sig .tc .vmem S1024x384 .bf16).view.read (Elt F) fl) →
        V.out21 c ((outSrcM21 c : Memref sig .tc .vmem S1024x384 .f32).view.read (Elt F) (View.write (Elt F) ((Memref.whole cc0_scratch0 : Memref sig .tc .vmem S2048x2048 .f32).access (Rect.unit (s := S2048x2048) (k0_off131 c) ![1024, 384] (k0_off131_inb c))) fb21 (k0_pay105 (View.readAt (Elt F) (Memref.whole cc0_scratch16 : Memref sig .tc .vmem S2048x384 .bf16).view (Rect.unit (s := S2048x384) (k0_off122 c) ![1024, 384] (k0_off122_inb c)).toLoadRect fl)) Finset.univ))) :
    iprop(owes (c : Thread nD τ) (Owe c 39) W ∗ levAts L lv
        ∗ heldW c (outSrcM20 c : Memref sig .tc .vmem S1024x384 .f32) fb20 ∗ heldW c (outDstM20 c : Memref sig .tc .hbm S1024x384 .f32) fo20
        ∗ cellInv ER (sched V) κo20 (cell c (.out 20)) ∗ dutyTok ER (cell c (.out 20)) 0 (0 : Fin 3) ∗ reached ER (cell c (.out 20)) 0
        ∗ cellInv ER (sched V) κb (cell c (.agS 3 2)) ∗ cred (tallyAt (cell c (.agS 3 2)) () (amt (.agS 3 2))) ∗ atPos ER (cell c (.agS 3 2)) 0 ∅ 0
        ∗ cellInv ER (sched V) κd (cell c (.agR 3 2)) ∗ cred (tallyAt (cell c (.agR 3 2)) () (amt (.agR 3 2))) ∗ atPos ER (cell c (.agR 3 2)) 0 ∅ 0
        ∗ heldW c (outSrcM21 c : Memref sig .tc .vmem S1024x384 .f32) fb21 ∗ heldW c (outDstM21 c : Memref sig .tc .hbm S1024x384 .f32) fo21
        ∗ cellInv ER (sched V) κo21 (cell c (.out 21)) ∗ dutyTok ER (cell c (.out 21)) 0 (0 : Fin 3) ∗ reached ER (cell c (.out 21)) 0)
      ⊢ wp frame (wpE (defs₀ (F := F)) 𝒱₀ c none) Set.univ
          (k0_part57 (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23 c v1571 v1593 v1606 v1742)
          (fun r => iprop(⌜r = ⟨⟩⌝ ∗ (∃ fl : Buf (Elt F) ((agM3_2 (nbr 0 c) : Memref sig .tc .vmem S1024x384 .bf16).view.loc (c : Thread nD τ)), ⌜V.ag3_2 (nbr 0 c) ((agM3_2 (nbr 0 c) : Memref sig .tc .vmem S1024x384 .bf16).view.read (Elt F) fl)⌝
            ∗ heldW c (agM3_2 (nbr 0 c) : Memref sig .tc .vmem S1024x384 .bf16) fl
            ∗ cred (tallyAt (cell c (.out 20)) () (amt (.out 20))) ∗ cred (tallyAt (cell c (.out 21)) () (amt (.out 21)))
            ∗ owes (c : Thread nD τ) (Owe c 39) (insert ((CK.agR 3 2).sem, ()) (insert ((CK.agS 3 2).sem, ()) W))
            ∗ atPos ER (cell c (.agS 3 2)) 1 ∅ 0 ∗ atPos ER (cell c (.agR 3 2)) 1 ∅ 0
            ∗ ptsLent (F := F) c (agM3_2 c)))) := by
  simp only [k0_part57_eq_skeleton]; unfold k0_part57_skel
  simp only [Prog.lift, Prog.bind_op, Prog.bind_ret, Prog.pure_eq_ret]
  iintro ⟨HO, #Hlev, Hblk20, Hdst20, #HIo20, Hto20, #Hro20, #HIb, Hcb, Hatb, #HId, Hcd, Hatd, Hblk21, Hdst21, #HIo21, Hto21, #Hro21⟩
  unfold heldW
  have hinc2 : ((Memref.whole cc0_scratch0 : Memref sig .tc .vmem S2048x2048 .f32).access (Rect.unit (s := S2048x2048) (k0_off129 c) ![1024, 384] (k0_off129_inb c))).set
      ⊆ (outSrcM20 c : Memref sig .tc .vmem S1024x384 .f32).view.set := by
    rw [View.set_slice_whole, View.set_slice_whole]
    refine unit_subset ?_
    piece_arith c [off129_eq, off130_eq]
  have hinc3 : ((Memref.whole cc0_scratch0 : Memref sig .tc .vmem S2048x2048 .f32).access (Rect.unit (s := S2048x2048) (k0_off129 c) ![1024, 384] (k0_off129_inb c))).setOn Finset.univ
      ⊆ (outSrcM20 c : Memref sig .tc .vmem S1024x384 .f32).view.set := by
    rw [View.setOn_univ]
    rw [View.set_slice_whole, View.set_slice_whole]
    refine unit_subset ?_
    piece_arith c [off129_eq, off130_eq]
  sl_exec
  have hpay20 : iprop(((outDstM20 c : Memref sig .tc .hbm S1024x384 .f32).view.loc (c : Thread nD τ) ↦[(outDstM20 c : Memref sig .tc .hbm S1024x384 .f32).view.set]{fullShare}
        ((outDstM20 c : Memref sig .tc .hbm S1024x384 .f32).view.write (Elt F) fo20 ((outSrcM20 c : Memref sig .tc .vmem S1024x384 .f32).view.read (Elt F) (View.write (Elt F) ((Memref.whole cc0_scratch0 : Memref sig .tc .vmem S2048x2048 .f32).access (Rect.unit (s := S2048x2048) (k0_off129 c) ![1024, 384] (k0_off129_inb c))) fb20 (k0_pay104 v1742) Finset.univ)) Finset.univ))
      ∗ ((outSrcM20 c : Memref sig .tc .vmem S1024x384 .f32).view.loc (c : Thread nD τ) ↦[(outSrcM20 c : Memref sig .tc .vmem S1024x384 .f32).view.set]{fullShare} (View.write (Elt F) ((Memref.whole cc0_scratch0 : Memref sig .tc .vmem S2048x2048 .f32).access (Rect.unit (s := S2048x2048) (k0_off129 c) ![1024, 384] (k0_off129_inb c))) fb20 (k0_pay104 v1742) Finset.univ))) ⊢ pay V c (.out 20) 0 := by
    show _ ⊢ iprop(ptsIs c (outDstM20 c) (V.out20 c) ∗ ptsAny (F := F) c (outSrcM20 c))
    iintro ⟨Hd, Hs⟩
    isplitl [Hd]
    · unfold ptsIs
      iexists _
      isplitl [Hd]; · iexact Hd
      ipureintro; rw [View.read_write_univ]; exact hV20
    · unfold ptsAny
      iexists _
      iexact Hs
  iapply (wp_copy_own V c (.out 20) (by decide) (src := outSrcM20 c) (dst := outDstM20 c) (out_sem_eq 20 _) rfl fo20 κo20 hpay20) $$ [Hblk20 Hdst20 Hto20]
  · isplitr; · iexact HIo20
    isplitl [Hblk20]; · iexact Hblk20
    isplitl [Hdst20]; · iexact Hdst20
    isplitl [Hto20]; · iexact Hto20
    iexact Hro20
  iintro Hco20
  iapply (wp_wait_xfer V c (.agS 3 2) (by decide) 39 (agS_sem_eq 3 2 _)
      (show (agM3_2 c : Memref sig .tc .vmem S1024x384 .bf16).view.dmaCredit = amt (.agS 3 2) from rfl)
      (wpE_waitDma2_eq 𝒱₀ (c : Thread nD τ) none Set.univ)
      (mayWait_own c (.agS 3 2) (lv_cell c _) 39) κb W) $$ [Hcb HO Hatb]
  · isplitr; · iexact HIb
    isplitl [Hcb]; · iexact Hcb
    isplitl [HO]; · iexact HO
    isplitr; · iexact Hlev
    iexact Hatb
  iintro ⟨HO, Hatb, Hpay1⟩
  iapply (wp_wait_xfer V c (.agR 3 2) (by decide) 39 (agR_sem_eq 3 2 _)
      (show (agM3_2 c : Memref sig .tc .vmem S1024x384 .bf16).view.dmaCredit = amt (.agR 3 2) from rfl)
      (wpE_waitDma2_eq 𝒱₀ (c : Thread nD τ) none Set.univ)
      (mayWait_agR c 3 2 39 (by decide)) κd (insert ((CK.agS 3 2).sem, ()) W)) $$ [Hcd HO Hatd]
  · isplitr; · iexact HId
    isplitl [Hcd]; · iexact Hcd
    isplitl [HO]; · iexact HO
    isplitr; · iexact Hlev
    iexact Hatd
  iintro ⟨HO, Hatd, Hpay2⟩
  ihave Hp1 := (Entails.of_eq (show pay V c (CK.agS 3 2) 0 = ptsLent (F := F) c (agM3_2 c) from rfl)) $$ Hpay1
  ihave Hp2 := (Entails.of_eq (show pay V c (CK.agR 3 2) 0 = ptsIs c (agM3_2 (nbr 0 c)) (V.ag3_2 (nbr 0 c)) from rfl)) $$ Hpay2
  unfold ptsIs
  icases Hp2 with ⟨%fl, Hl, %hX⟩
  have hinc4 : ((Memref.whole cc0_scratch16 : Memref sig .tc .vmem S2048x384 .bf16).access (Rect.unit (s := S2048x384) (k0_off122 c) ![1024, 384] (k0_off122_inb c))).set
      ⊆ (agM3_2 (nbr 0 c) : Memref sig .tc .vmem S1024x384 .bf16).view.set := by
    rw [View.set_slice_whole, View.set_slice_whole]
    refine unit_subset ?_
    piece_arith c [off122_eq, off100_eq]
  have hinc5 : ((Memref.whole cc0_scratch0 : Memref sig .tc .vmem S2048x2048 .f32).access (Rect.unit (s := S2048x2048) (k0_off131 c) ![1024, 384] (k0_off131_inb c))).set
      ⊆ (outSrcM21 c : Memref sig .tc .vmem S1024x384 .f32).view.set := by
    rw [View.set_slice_whole, View.set_slice_whole]
    refine unit_subset ?_
    piece_arith c [off131_eq, off132_eq]
  have hinc6 : ((Memref.whole cc0_scratch0 : Memref sig .tc .vmem S2048x2048 .f32).access (Rect.unit (s := S2048x2048) (k0_off131 c) ![1024, 384] (k0_off131_inb c))).setOn Finset.univ
      ⊆ (outSrcM21 c : Memref sig .tc .vmem S1024x384 .f32).view.set := by
    rw [View.setOn_univ]
    rw [View.set_slice_whole, View.set_slice_whole]
    refine unit_subset ?_
    piece_arith c [off131_eq, off132_eq]
  sl_exec
  have hpay21 : iprop(((outDstM21 c : Memref sig .tc .hbm S1024x384 .f32).view.loc (c : Thread nD τ) ↦[(outDstM21 c : Memref sig .tc .hbm S1024x384 .f32).view.set]{fullShare}
        ((outDstM21 c : Memref sig .tc .hbm S1024x384 .f32).view.write (Elt F) fo21 ((outSrcM21 c : Memref sig .tc .vmem S1024x384 .f32).view.read (Elt F) (View.write (Elt F) ((Memref.whole cc0_scratch0 : Memref sig .tc .vmem S2048x2048 .f32).access (Rect.unit (s := S2048x2048) (k0_off131 c) ![1024, 384] (k0_off131_inb c))) fb21 (k0_pay105 (View.readAt (Elt F) (Memref.whole cc0_scratch16 : Memref sig .tc .vmem S2048x384 .bf16).view (Rect.unit (s := S2048x384) (k0_off122 c) ![1024, 384] (k0_off122_inb c)).toLoadRect fl)) Finset.univ)) Finset.univ))
      ∗ ((outSrcM21 c : Memref sig .tc .vmem S1024x384 .f32).view.loc (c : Thread nD τ) ↦[(outSrcM21 c : Memref sig .tc .vmem S1024x384 .f32).view.set]{fullShare} (View.write (Elt F) ((Memref.whole cc0_scratch0 : Memref sig .tc .vmem S2048x2048 .f32).access (Rect.unit (s := S2048x2048) (k0_off131 c) ![1024, 384] (k0_off131_inb c))) fb21 (k0_pay105 (View.readAt (Elt F) (Memref.whole cc0_scratch16 : Memref sig .tc .vmem S2048x384 .bf16).view (Rect.unit (s := S2048x384) (k0_off122 c) ![1024, 384] (k0_off122_inb c)).toLoadRect fl)) Finset.univ))) ⊢ pay V c (.out 21) 0 := by
    show _ ⊢ iprop(ptsIs c (outDstM21 c) (V.out21 c) ∗ ptsAny (F := F) c (outSrcM21 c))
    iintro ⟨Hd, Hs⟩
    isplitl [Hd]
    · unfold ptsIs
      iexists _
      isplitl [Hd]; · iexact Hd
      ipureintro; rw [View.read_write_univ]; exact (hV21 fl hX)
    · unfold ptsAny
      iexists _
      iexact Hs
  iapply (wp_copy_own V c (.out 21) (by decide) (src := outSrcM21 c) (dst := outDstM21 c) (out_sem_eq 21 _) rfl fo21 κo21 hpay21) $$ [Hblk21 Hdst21 Hto21]
  · isplitr; · iexact HIo21
    isplitl [Hblk21]; · iexact Hblk21
    isplitl [Hdst21]; · iexact Hdst21
    isplitl [Hto21]; · iexact Hto21
    iexact Hro21
  iintro Hco21
  sl_step
  isplitr; · ipureintro; trivial
  iexists fl
  isplitr; · ipureintro; exact hX
  isplitl [Hl]; · iexact Hl
  isplitl [Hco20]; · iexact Hco20
  isplitl [Hco21]; · iexact Hco21
  isplitl [HO]; · iexact HO
  isplitl [Hatb]; · iexact Hatb
  isplitl [Hatd]; · iexact Hatd
  iexact Hp1

end Cert.Kernel.Proto

end
-- ==== Proof.Body58Bits.lean ====
/-
Stretch 58 of a device's kernel body: the two waits of group 4's last all-gather exchange, the upcast of its landed rows
into block 22 of the accumulator and the copy of that block to the result array; the wait for group 5's last all-gather
send to leave its rows.
-/
import proofs.«900882_g7700000000000883_dist_matmul_gelu_kshard_i_m2048_n2048_k1024_v7x_i8_f32_1_alg».proof.Proof.RulesBits
import proofs.«900882_g7700000000000883_dist_matmul_gelu_kshard_i_m2048_n2048_k1024_v7x_i8_f32_1_alg».proof.Proof.TopoBitsTab
import proofs.«900882_g7700000000000883_dist_matmul_gelu_kshard_i_m2048_n2048_k1024_v7x_i8_f32_1_alg».proof.Proof.PiecesTabBits
import proofs.«900882_g7700000000000883_dist_matmul_gelu_kshard_i_m2048_n2048_k1024_v7x_i8_f32_1_alg».proof.Proof.Gen.Kernel.Skeleton
import proofs.«900882_g7700000000000883_dist_matmul_gelu_kshard_i_m2048_n2048_k1024_v7x_i8_f32_1_alg».proof.Proof.TopoClosedBits
import proofs.«900882_g7700000000000883_dist_matmul_gelu_kshard_i_m2048_n2048_k1024_v7x_i8_f32_1_alg».proof.Proof.PiecesOutSepBits
import Idealize.ShloMosaic.Lib.Pipeline.Value

set_option maxRecDepth 16384

noncomputable section

namespace Cert.Kernel.Proto

open Cert.Kernel Cert.Kernel.Gen Cert.Kernel.Topo
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : Vals F)

set_option maxHeartbeats 4000000 in
theorem part58_run (c : Dev nD) (κb κd κo22 κe : ℕ) (W : Waits sig Unit) (v1628 v1641 : BitVec 32)
    (fb : Buf (Elt F) ((outSrcM22 c : Memref sig .tc .vmem S1024x256 .f32).view.loc (c : Thread nD τ)))
    (fo : Buf (Elt F) ((outDstM22 c : Memref sig .tc .hbm S1024x256 .f32).view.loc (c : Thread nD τ)))
    (hV : ∀ fl : Buf (Elt F) ((agM4_2 (nbr 1 c) : Memref sig .tc .vmem S1024x256 .bf16).view.loc (c : Thread nD τ)), V.ag4_2 (nbr 1 c) ((agM4_2 (nbr 1 c) : Memref sig .tc .vmem S1024x256 .bf16).view.read (Elt F) fl) →
        V.out22 c ((outSrcM22 c : Memref sig .tc .vmem S1024x256 .f32).view.read (Elt F) (View.write (Elt F) ((Memref.whole cc0_scratch0 : Memref sig .tc .vmem S2048x2048 .f32).access (Rect.unit (s := S2048x2048) (k0_off134 c) ![1024, 256] (k0_off134_inb c))) fb (k0_pay106 (View.readAt (Elt F) (Memref.whole cc0_scratch17 : Memref sig .tc .vmem S2048x256 .bf16).view (Rect.unit (s := S2048x256) (k0_off133 c) ![1024, 256] (k0_off133_inb c)).toLoadRect fl)) Finset.univ))) :
    iprop(owes (c : Thread nD τ) (Owe c 39) W ∗ levAts L lv
        ∗ cellInv ER (sched V) κb (cell c (.agS 4 2)) ∗ cred (tallyAt (cell c (.agS 4 2)) () (amt (.agS 4 2))) ∗ atPos ER (cell c (.agS 4 2)) 0 ∅ 0
        ∗ cellInv ER (sched V) κd (cell c (.agR 4 2)) ∗ cred (tallyAt (cell c (.agR 4 2)) () (amt (.agR 4 2))) ∗ atPos ER (cell c (.agR 4 2)) 0 ∅ 0
        ∗ heldW c (outSrcM22 c : Memref sig .tc .vmem S1024x256 .f32) fb ∗ heldW c (outDstM22 c : Memref sig .tc .hbm S1024x256 .f32) fo
        ∗ cellInv ER (sched V) κo22 (cell c (.out 22)) ∗ dutyTok ER (cell c (.out 22)) 0 (0 : Fin 3) ∗ reached ER (cell c (.out 22)) 0
        ∗ cellInv ER (sched V) κe (cell c (.agS 5 2)) ∗ cred (tallyAt (cell c (.agS 5 2)) () (amt (.agS 5 2))) ∗ atPos ER (cell c (.agS 5 2)) 0 ∅ 0)
      ⊢ wp frame (wpE (defs₀ (F := F)) 𝒱₀ c none) Set.univ
          (k0_part58 (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23 c v1628 v1641)
          (fun r => iprop(⌜r = ⟨⟩⌝ ∗ (∃ fl : Buf (Elt F) ((agM4_2 (nbr 1 c) : Memref sig .tc .vmem S1024x256 .bf16).view.loc (c : Thread nD τ)), ⌜V.ag4_2 (nbr 1 c) ((agM4_2 (nbr 1 c) : Memref sig .tc .vmem S1024x256 .bf16).view.read (Elt F) fl)⌝
            ∗ heldW c (agM4_2 (nbr 1 c) : Memref sig .tc .vmem S1024x256 .bf16) fl
            ∗ cred (tallyAt (cell c (.out 22)) () (amt (.out 22)))
            ∗ owes (c : Thread nD τ) (Owe c 39) (insert ((CK.agS 5 2).sem, ()) (insert ((CK.agR 4 2).sem, ()) (insert ((CK.agS 4 2).sem, ()) W)))
            ∗ atPos ER (cell c (.agS 4 2)) 1 ∅ 0 ∗ atPos ER (cell c (.agR 4 2)) 1 ∅ 0 ∗ atPos ER (cell c (.agS 5 2)) 1 ∅ 0
            ∗ ptsLent (F := F) c (agM4_2 c) ∗ ptsLent (F := F) c (agM5_2 c)))) := by
  simp only [k0_part58_eq_skeleton]; unfold k0_part58_skel
  simp only [Prog.lift, Prog.bind_op, Prog.bind_ret, Prog.pure_eq_ret]
  iintro ⟨HO, #Hlev, #HIb, Hcb, Hatb, #HId, Hcd, Hatd, Hblk, Hdst, #HIo22, Hto22, #Hro22, #HIe, Hce, Hate⟩
  unfold heldW
  iapply (wp_wait_xfer V c (.agS 4 2) (by decide) 39 (agS_sem_eq 4 2 _)
      (show (agM4_2 c : Memref sig .tc .vmem S1024x256 .bf16).view.dmaCredit = amt (.agS 4 2) from rfl)
      (wpE_waitDma2_eq 𝒱₀ (c : Thread nD τ) none Set.univ)
      (mayWait_own c (.agS 4 2) (lv_cell c _) 39) κb W) $$ [Hcb HO Hatb]
  · isplitr; · iexact HIb
    isplitl [Hcb]; · iexact Hcb
    isplitl [HO]; · iexact HO
    isplitr; · iexact Hlev
    iexact Hatb
  iintro ⟨HO, Hatb, Hpay1⟩
  iapply (wp_wait_xfer V c (.agR 4 2) (by decide) 39 (agR_sem_eq 4 2 _)
      (show (agM4_2 c : Memref sig .tc .vmem S1024x256 .bf16).view.dmaCredit = amt (.agR 4 2) from rfl)
      (wpE_waitDma2_eq 𝒱₀ (c : Thread nD τ) none Set.univ)
      (mayWait_agR c 4 2 39 (by decide)) κd (insert ((CK.agS 4 2).sem, ()) W)) $$ [Hcd HO Hatd]
  · isplitr; · iexact HId
    isplitl [Hcd]; · iexact Hcd
    isplitl [HO]; · iexact HO
    isplitr; · iexact Hlev
    iexact Hatd
  iintro ⟨HO, Hatd, Hpay2⟩
  ihave Hp1 := (Entails.of_eq (show pay V c (CK.agS 4 2) 0 = ptsLent (F := F) c (agM4_2 c) from rfl)) $$ Hpay1
  ihave Hp2 := (Entails.of_eq (show pay V c (CK.agR 4 2) 0 = ptsIs c (agM4_2 (nbr 1 c)) (V.ag4_2 (nbr 1 c)) from rfl)) $$ Hpay2
  unfold ptsIs
  icases Hp2 with ⟨%fl, Hl, %hX⟩
  have hinc1 : ((Memref.whole cc0_scratch17 : Memref sig .tc .vmem S2048x256 .bf16).access (Rect.unit (s := S2048x256) (k0_off133 c) ![1024, 256] (k0_off133_inb c))).set
      ⊆ (agM4_2 (nbr 1 c) : Memref sig .tc .vmem S1024x256 .bf16).view.set := by
    rw [View.set_slice_whole, View.set_slice_whole]
    refine unit_subset ?_
    piece_arith c [off133_eq, off114_eq]
  have hinc2 : ((Memref.whole cc0_scratch0 : Memref sig .tc .vmem S2048x2048 .f32).access (Rect.unit (s := S2048x2048) (k0_off134 c) ![1024, 256] (k0_off134_inb c))).set
      ⊆ (outSrcM22 c : Memref sig .tc .vmem S1024x256 .f32).view.set := by
    rw [View.set_slice_whole, View.set_slice_whole]
    refine unit_subset ?_
    piece_arith c [off134_eq, off135_eq]
  have hinc3 : ((Memref.whole cc0_scratch0 : Memref sig .tc .vmem S2048x2048 .f32).access (Rect.unit (s := S2048x2048) (k0_off134 c) ![1024, 256] (k0_off134_inb c))).setOn Finset.univ
      ⊆ (outSrcM22 c : Memref sig .tc .vmem S1024x256 .f32).view.set := by
    rw [View.setOn_univ]
    rw [View.set_slice_whole, View.set_slice_whole]
    refine unit_subset ?_
    piece_arith c [off134_eq, off135_eq]
  sl_exec
  have hpay22 : iprop(((outDstM22 c : Memref sig .tc .hbm S1024x256 .f32).view.loc (c : Thread nD τ) ↦[(outDstM22 c : Memref sig .tc .hbm S1024x256 .f32).view.set]{fullShare}
        ((outDstM22 c : Memref sig .tc .hbm S1024x256 .f32).view.write (Elt F) fo ((outSrcM22 c : Memref sig .tc .vmem S1024x256 .f32).view.read (Elt F) (View.write (Elt F) ((Memref.whole cc0_scratch0 : Memref sig .tc .vmem S2048x2048 .f32).access (Rect.unit (s := S2048x2048) (k0_off134 c) ![1024, 256] (k0_off134_inb c))) fb (k0_pay106 (View.readAt (Elt F) (Memref.whole cc0_scratch17 : Memref sig .tc .vmem S2048x256 .bf16).view (Rect.unit (s := S2048x256) (k0_off133 c) ![1024, 256] (k0_off133_inb c)).toLoadRect fl)) Finset.univ)) Finset.univ))
      ∗ ((outSrcM22 c : Memref sig .tc .vmem S1024x256 .f32).view.loc (c : Thread nD τ) ↦[(outSrcM22 c : Memref sig .tc .vmem S1024x256 .f32).view.set]{fullShare} (View.write (Elt F) ((Memref.whole cc0_scratch0 : Memref sig .tc .vmem S2048x2048 .f32).access (Rect.unit (s := S2048x2048) (k0_off134 c) ![1024, 256] (k0_off134_inb c))) fb (k0_pay106 (View.readAt (Elt F) (Memref.whole cc0_scratch17 : Memref sig .tc .vmem S2048x256 .bf16).view (Rect.unit (s := S2048x256) (k0_off133 c) ![1024, 256] (k0_off133_inb c)).toLoadRect fl)) Finset.univ))) ⊢ pay V c (.out 22) 0 := by
    show _ ⊢ iprop(ptsIs c (outDstM22 c) (V.out22 c) ∗ ptsAny (F := F) c (outSrcM22 c))
    iintro ⟨Hd, Hs⟩
    isplitl [Hd]
    · unfold ptsIs
      iexists _
      isplitl [Hd]; · iexact Hd
      ipureintro; rw [View.read_write_univ]; exact (hV fl hX)
    · unfold ptsAny
      iexists _
      iexact Hs
  iapply (wp_copy_own V c (.out 22) (by decide) (src := outSrcM22 c) (dst := outDstM22 c) (out_sem_eq 22 _) rfl fo κo22 hpay22) $$ [Hblk Hdst Hto22]
  · isplitr; · iexact HIo22
    isplitl [Hblk]; · iexact Hblk
    isplitl [Hdst]; · iexact Hdst
    isplitl [Hto22]; · iexact Hto22
    iexact Hro22
  iintro Hco22
  iapply (wp_wait_xfer V c (.agS 5 2) (by decide) 39 (agS_sem_eq 5 2 _)
      (show (agM5_2 c : Memref sig .tc .vmem S1024x256 .bf16).view.dmaCredit = amt (.agS 5 2) from rfl)
      (wpE_waitDma2_eq 𝒱₀ (c : Thread nD τ) none Set.univ)
      (mayWait_own c (.agS 5 2) (lv_cell c _) 39) κe (insert ((CK.agR 4 2).sem, ()) (insert ((CK.agS 4 2).sem, ()) W))) $$ [Hce HO Hate]
  · isplitr; · iexact HIe
    isplitl [Hce]; · iexact Hce
    isplitl [HO]; · iexact HO
    isplitr; · iexact Hlev
    iexact Hate
  iintro ⟨HO, Hate, Hpay3⟩
  ihave Hp3 := (Entails.of_eq (show pay V c (CK.agS 5 2) 0 = ptsLent (F := F) c (agM5_2 c) from rfl)) $$ Hpay3
  sl_step
  isplitr; · ipureintro; trivial
  iexists fl
  isplitr; · ipureintro; exact hX
  isplitl [Hl]; · iexact Hl
  isplitl [Hco22]; · iexact Hco22
  isplitl [HO]; · iexact HO
  isplitl [Hatb]; · iexact Hatb
  isplitl [Hatd]; · iexact Hatd
  isplitl [Hate]; · iexact Hate
  isplitl [Hp1]; · iexact Hp1
  iexact Hp3

end Cert.Kernel.Proto

end
-- ==== Proof.Body59Bits.lean ====
/-
Stretch 59 of a device's kernel body: the wait for group 5's last all-gather landing, the upcast of its rows into block 23
of the accumulator and the copy of that block to the result array; the waits for the first three result copies.
-/
import proofs.«900882_g7700000000000883_dist_matmul_gelu_kshard_i_m2048_n2048_k1024_v7x_i8_f32_1_alg».proof.Proof.RulesBits
import proofs.«900882_g7700000000000883_dist_matmul_gelu_kshard_i_m2048_n2048_k1024_v7x_i8_f32_1_alg».proof.Proof.TopoBitsTab
import proofs.«900882_g7700000000000883_dist_matmul_gelu_kshard_i_m2048_n2048_k1024_v7x_i8_f32_1_alg».proof.Proof.PiecesTabBits
import proofs.«900882_g7700000000000883_dist_matmul_gelu_kshard_i_m2048_n2048_k1024_v7x_i8_f32_1_alg».proof.Proof.Gen.Kernel.Skeleton
import proofs.«900882_g7700000000000883_dist_matmul_gelu_kshard_i_m2048_n2048_k1024_v7x_i8_f32_1_alg».proof.Proof.TopoClosedBits
import proofs.«900882_g7700000000000883_dist_matmul_gelu_kshard_i_m2048_n2048_k1024_v7x_i8_f32_1_alg».proof.Proof.PiecesOutSepBits
import Idealize.ShloMosaic.Lib.Pipeline.Value

set_option maxRecDepth 16384

noncomputable section

namespace Cert.Kernel.Proto

open Cert.Kernel Cert.Kernel.Gen Cert.Kernel.Topo
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : Vals F)

set_option maxHeartbeats 4000000 in
theorem part59_run (c : Dev nD) (κd κo23 κw0 κw1 κw2 : ℕ) (W : Waits sig Unit) (v1663 v1676 : BitVec 32)
    (fb : Buf (Elt F) ((outSrcM23 c : Memref sig .tc .vmem S1024x256 .f32).view.loc (c : Thread nD τ)))
    (fo : Buf (Elt F) ((outDstM23 c : Memref sig .tc .hbm S1024x256 .f32).view.loc (c : Thread nD τ)))
    (hV : ∀ fl : Buf (Elt F) ((agM5_2 (nbr 2 c) : Memref sig .tc .vmem S1024x256 .bf16).view.loc (c : Thread nD τ)), V.ag5_2 (nbr 2 c) ((agM5_2 (nbr 2 c) : Memref sig .tc .vmem S1024x256 .bf16).view.read (Elt F) fl) →
        V.out23 c ((outSrcM23 c : Memref sig .tc .vmem S1024x256 .f32).view.read (Elt F) (View.write (Elt F) ((Memref.whole cc0_scratch0 : Memref sig .tc .vmem S2048x2048 .f32).access (Rect.unit (s := S2048x2048) (k0_off137 c) ![1024, 256] (k0_off137_inb c))) fb (k0_pay107 (View.readAt (Elt F) (Memref.whole cc0_scratch18 : Memref sig .tc .vmem S2048x256 .bf16).view (Rect.unit (s := S2048x256) (k0_off136 c) ![1024, 256] (k0_off136_inb c)).toLoadRect fl)) Finset.univ))) :
    iprop(owes (c : Thread nD τ) (Owe c 39) W ∗ levAts L lv
        ∗ cellInv ER (sched V) κd (cell c (.agR 5 2)) ∗ cred (tallyAt (cell c (.agR 5 2)) () (amt (.agR 5 2))) ∗ atPos ER (cell c (.agR 5 2)) 0 ∅ 0
        ∗ heldW c (outSrcM23 c : Memref sig .tc .vmem S1024x256 .f32) fb ∗ heldW c (outDstM23 c : Memref sig .tc .hbm S1024x256 .f32) fo
        ∗ cellInv ER (sched V) κo23 (cell c (.out 23)) ∗ dutyTok ER (cell c (.out 23)) 0 (0 : Fin 3) ∗ reached ER (cell c (.out 23)) 0
        ∗ cellInv ER (sched V) κw0 (cell c (.out 0)) ∗ cred (tallyAt (cell c (.out 0)) () (amt (.out 0))) ∗ atPos ER (cell c (.out 0)) 0 ∅ 0
        ∗ cellInv ER (sched V) κw1 (cell c (.out 1)) ∗ cred (tallyAt (cell c (.out 1)) () (amt (.out 1))) ∗ atPos ER (cell c (.out 1)) 0 ∅ 0
        ∗ cellInv ER (sched V) κw2 (cell c (.out 2)) ∗ cred (tallyAt (cell c (.out 2)) () (amt (.out 2))) ∗ atPos ER (cell c (.out 2)) 0 ∅ 0)
      ⊢ wp frame (wpE (defs₀ (F := F)) 𝒱₀ c none) Set.univ
          (k0_part59 (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23 c v1663 v1676)
          (fun r => iprop(⌜r = ⟨⟩⌝ ∗ (∃ fl : Buf (Elt F) ((agM5_2 (nbr 2 c) : Memref sig .tc .vmem S1024x256 .bf16).view.loc (c : Thread nD τ)), ⌜V.ag5_2 (nbr 2 c) ((agM5_2 (nbr 2 c) : Memref sig .tc .vmem S1024x256 .bf16).view.read (Elt F) fl)⌝
            ∗ heldW c (agM5_2 (nbr 2 c) : Memref sig .tc .vmem S1024x256 .bf16) fl
            ∗ cred (tallyAt (cell c (.out 23)) () (amt (.out 23)))
            ∗ owes (c : Thread nD τ) (Owe c 39) (insert ((CK.out 2).sem, ()) (insert ((CK.out 1).sem, ()) (insert ((CK.out 0).sem, ()) (insert ((CK.agR 5 2).sem, ()) W))))
            ∗ atPos ER (cell c (.agR 5 2)) 1 ∅ 0
            ∗ atPos ER (cell c (.out 0)) 1 ∅ 0 ∗ ptsIs c (outDstM0 c) (V.out0 c) ∗ ptsAny (F := F) c (outSrcM0 c)
            ∗ atPos ER (cell c (.out 1)) 1 ∅ 0 ∗ ptsIs c (outDstM1 c) (V.out1 c) ∗ ptsAny (F := F) c (outSrcM1 c)
            ∗ atPos ER (cell c (.out 2)) 1 ∅ 0 ∗ ptsIs c (outDstM2 c) (V.out2 c) ∗ ptsAny (F := F) c (outSrcM2 c)))) := by
  simp only [k0_part59_eq_skeleton]; unfold k0_part59_skel
  simp only [Prog.lift, Prog.bind_op, Prog.bind_ret, Prog.pure_eq_ret]
  iintro ⟨HO, #Hlev, #HId, Hcd, Hatd, Hblk, Hdst, #HIo23, Hto23, #Hro23, #HIw0, Hcw0, Hatw0, #HIw1, Hcw1, Hatw1, #HIw2, Hcw2, Hatw2⟩
  unfold heldW
  iapply (wp_wait_xfer V c (.agR 5 2) (by decide) 39 (agR_sem_eq 5 2 _)
      (show (agM5_2 c : Memref sig .tc .vmem S1024x256 .bf16).view.dmaCredit = amt (.agR 5 2) from rfl)
      (wpE_waitDma2_eq 𝒱₀ (c : Thread nD τ) none Set.univ)
      (mayWait_agR c 5 2 39 (by decide)) κd W) $$ [Hcd HO Hatd]
  · isplitr; · iexact HId
    isplitl [Hcd]; · iexact Hcd
    isplitl [HO]; · iexact HO
    isplitr; · iexact Hlev
    iexact Hatd
  iintro ⟨HO, Hatd, Hpay2⟩
  ihave Hp2 := (Entails.of_eq (show pay V c (CK.agR 5 2) 0 = ptsIs c (agM5_2 (nbr 2 c)) (V.ag5_2 (nbr 2 c)) from rfl)) $$ Hpay2
  unfold ptsIs
  icases Hp2 with ⟨%fl, Hl, %hX⟩
  have hinc1 : ((Memref.whole cc0_scratch18 : Memref sig .tc .vmem S2048x256 .bf16).access (Rect.unit (s := S2048x256) (k0_off136 c) ![1024, 256] (k0_off136_inb c))).set
      ⊆ (agM5_2 (nbr 2 c) : Memref sig .tc .vmem S1024x256 .bf16).view.set := by
    rw [View.set_slice_whole, View.set_slice_whole]
    refine unit_subset ?_
    piece_arith c [off136_eq, off118_eq]
  have hinc2 : ((Memref.whole cc0_scratch0 : Memref sig .tc .vmem S2048x2048 .f32).access (Rect.unit (s := S2048x2048) (k0_off137 c) ![1024, 256] (k0_off137_inb c))).set
      ⊆ (outSrcM23 c : Memref sig .tc .vmem S1024x256 .f32).view.set := by
    rw [View.set_slice_whole, View.set_slice_whole]
    refine unit_subset ?_
    piece_arith c [off137_eq, off138_eq]
  have hinc3 : ((Memref.whole cc0_scratch0 : Memref sig .tc .vmem S2048x2048 .f32).access (Rect.unit (s := S2048x2048) (k0_off137 c) ![1024, 256] (k0_off137_inb c))).setOn Finset.univ
      ⊆ (outSrcM23 c : Memref sig .tc .vmem S1024x256 .f32).view.set := by
    rw [View.setOn_univ]
    rw [View.set_slice_whole, View.set_slice_whole]
    refine unit_subset ?_
    piece_arith c [off137_eq, off138_eq]
  sl_exec
  have hpay23 : iprop(((outDstM23 c : Memref sig .tc .hbm S1024x256 .f32).view.loc (c : Thread nD τ) ↦[(outDstM23 c : Memref sig .tc .hbm S1024x256 .f32).view.set]{fullShare}
        ((outDstM23 c : Memref sig .tc .hbm S1024x256 .f32).view.write (Elt F) fo ((outSrcM23 c : Memref sig .tc .vmem S1024x256 .f32).view.read (Elt F) (View.write (Elt F) ((Memref.whole cc0_scratch0 : Memref sig .tc .vmem S2048x2048 .f32).access (Rect.unit (s := S2048x2048) (k0_off137 c) ![1024, 256] (k0_off137_inb c))) fb (k0_pay107 (View.readAt (Elt F) (Memref.whole cc0_scratch18 : Memref sig .tc .vmem S2048x256 .bf16).view (Rect.unit (s := S2048x256) (k0_off136 c) ![1024, 256] (k0_off136_inb c)).toLoadRect fl)) Finset.univ)) Finset.univ))
      ∗ ((outSrcM23 c : Memref sig .tc .vmem S1024x256 .f32).view.loc (c : Thread nD τ) ↦[(outSrcM23 c : Memref sig .tc .vmem S1024x256 .f32).view.set]{fullShare} (View.write (Elt F) ((Memref.whole cc0_scratch0 : Memref sig .tc .vmem S2048x2048 .f32).access (Rect.unit (s := S2048x2048) (k0_off137 c) ![1024, 256] (k0_off137_inb c))) fb (k0_pay107 (View.readAt (Elt F) (Memref.whole cc0_scratch18 : Memref sig .tc .vmem S2048x256 .bf16).view (Rect.unit (s := S2048x256) (k0_off136 c) ![1024, 256] (k0_off136_inb c)).toLoadRect fl)) Finset.univ))) ⊢ pay V c (.out 23) 0 := by
    show _ ⊢ iprop(ptsIs c (outDstM23 c) (V.out23 c) ∗ ptsAny (F := F) c (outSrcM23 c))
    iintro ⟨Hd, Hs⟩
    isplitl [Hd]
    · unfold ptsIs
      iexists _
      isplitl [Hd]; · iexact Hd
      ipureintro; rw [View.read_write_univ]; exact (hV fl hX)
    · unfold ptsAny
      iexists _
      iexact Hs
  iapply (wp_copy_own V c (.out 23) (by decide) (src := outSrcM23 c) (dst := outDstM23 c) (out_sem_eq 23 _) rfl fo κo23 hpay23) $$ [Hblk Hdst Hto23]
  · isplitr; · iexact HIo23
    isplitl [Hblk]; · iexact Hblk
    isplitl [Hdst]; · iexact Hdst
    isplitl [Hto23]; · iexact Hto23
    iexact Hro23
  iintro Hco23
  iapply (wp_wait_xfer V c (.out 0) (by decide) 39 (out_sem_eq 0 _)
      (show (outDstM0 c : Memref sig .tc .hbm S256x384 .f32).view.dmaCredit = amt (.out 0) from rfl)
      (wpE_waitDma2_eq 𝒱₀ (c : Thread nD τ) none Set.univ)
      (mayWait_own c (.out 0) (lv_cell c _) 39) κw0 (insert ((CK.agR 5 2).sem, ()) W)) $$ [Hcw0 HO Hatw0]
  · isplitr; · iexact HIw0
    isplitl [Hcw0]; · iexact Hcw0
    isplitl [HO]; · iexact HO
    isplitr; · iexact Hlev
    iexact Hatw0
  iintro ⟨HO, Hatw0, Hpw0⟩
  ihave Hpw0 := (Entails.of_eq (show pay V c (CK.out 0) 0 = iprop(ptsIs c (outDstM0 c) (V.out0 c) ∗ ptsAny (F := F) c (outSrcM0 c)) from rfl)) $$ Hpw0
  icases Hpw0 with ⟨Hpi0, Hpa0⟩
  iapply (wp_wait_xfer V c (.out 1) (by decide) 39 (out_sem_eq 1 _)
      (show (outDstM1 c : Memref sig .tc .hbm S256x384 .f32).view.dmaCredit = amt (.out 1) from rfl)
      (wpE_waitDma2_eq 𝒱₀ (c : Thread nD τ) none Set.univ)
      (mayWait_own c (.out 1) (lv_cell c _) 39) κw1 (insert ((CK.out 0).sem, ()) (insert ((CK.agR 5 2).sem, ()) W))) $$ [Hcw1 HO Hatw1]
  · isplitr; · iexact HIw1
    isplitl [Hcw1]; · iexact Hcw1
    isplitl [HO]; · iexact HO
    isplitr; · iexact Hlev
    iexact Hatw1
  iintro ⟨HO, Hatw1, Hpw1⟩
  ihave Hpw1 := (Entails.of_eq (show pay V c (CK.out 1) 0 = iprop(ptsIs c (outDstM1 c) (V.out1 c) ∗ ptsAny (F := F) c (outSrcM1 c)) from rfl)) $$ Hpw1
  icases Hpw1 with ⟨Hpi1, Hpa1⟩
  iapply (wp_wait_xfer V c (.out 2) (by decide) 39 (out_sem_eq 2 _)
      (show (outDstM2 c : Memref sig .tc .hbm S256x384 .f32).view.dmaCredit = amt (.out 2) from rfl)
      (wpE_waitDma2_eq 𝒱₀ (c : Thread nD τ) none Set.univ)
      (mayWait_own c (.out 2) (lv_cell c _) 39) κw2 (insert ((CK.out 1).sem, ()) (insert ((CK.out 0).sem, ()) (insert ((CK.agR 5 2).sem, ()) W)))) $$ [Hcw2 HO Hatw2]
  · isplitr; · iexact HIw2
    isplitl [Hcw2]; · iexact Hcw2
    isplitl [HO]; · iexact HO
    isplitr; · iexact Hlev
    iexact Hatw2
  iintro ⟨HO, Hatw2, Hpw2⟩
  ihave Hpw2 := (Entails.of_eq (show pay V c (CK.out 2) 0 = iprop(ptsIs c (outDstM2 c) (V.out2 c) ∗ ptsAny (F := F) c (outSrcM2 c)) from rfl)) $$ Hpw2
  icases Hpw2 with ⟨Hpi2, Hpa2⟩
  sl_step
  isplitr; · ipureintro; trivial
  iexists fl
  isplitr; · ipureintro; exact hX
  unfold ptsIs
  isplitl [Hl]; · iexact Hl
  isplitl [Hco23]; · iexact Hco23
  isplitl [HO]; · iexact HO
  isplitl [Hatd]; · iexact Hatd
  isplitl [Hatw0]; · iexact Hatw0
  isplitl [Hpi0]; · iexact Hpi0
  isplitl [Hpa0]; · iexact Hpa0
  isplitl [Hatw1]; · iexact Hatw1
  isplitl [Hpi1]; · iexact Hpi1
  isplitl [Hpa1]; · iexact Hpa1
  isplitl [Hatw2]; · iexact Hatw2
  isplitl [Hpi2]; · iexact Hpi2
  iexact Hpa2

end Cert.Kernel.Proto

end
-- ==== Proof.Body60Bits.lean ====
/-
Stretch 60 of a device's kernel body: the waits for the result copies 3 to 10; each brings the block of the result array
it wrote and gives the accumulator's block back.
-/
import proofs.«900882_g7700000000000883_dist_matmul_gelu_kshard_i_m2048_n2048_k1024_v7x_i8_f32_1_alg».proof.Proof.RulesBits
import proofs.«900882_g7700000000000883_dist_matmul_gelu_kshard_i_m2048_n2048_k1024_v7x_i8_f32_1_alg».proof.Proof.TopoBitsTab
import proofs.«900882_g7700000000000883_dist_matmul_gelu_kshard_i_m2048_n2048_k1024_v7x_i8_f32_1_alg».proof.Proof.PiecesTabBits
import proofs.«900882_g7700000000000883_dist_matmul_gelu_kshard_i_m2048_n2048_k1024_v7x_i8_f32_1_alg».proof.Proof.Gen.Kernel.Skeleton
import proofs.«900882_g7700000000000883_dist_matmul_gelu_kshard_i_m2048_n2048_k1024_v7x_i8_f32_1_alg».proof.Proof.TopoClosedBits
import proofs.«900882_g7700000000000883_dist_matmul_gelu_kshard_i_m2048_n2048_k1024_v7x_i8_f32_1_alg».proof.Proof.PiecesOutSepBits
import Idealize.ShloMosaic.Lib.Pipeline.Value

set_option maxRecDepth 16384

noncomputable section

namespace Cert.Kernel.Proto

open Cert.Kernel Cert.Kernel.Gen Cert.Kernel.Topo
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : Vals F)

set_option maxHeartbeats 4000000 in
theorem part60_run (c : Dev nD) (κw3 κw4 κw5 κw6 κw7 κw8 κw9 κw10 : ℕ) (W : Waits sig Unit) :
    iprop(owes (c : Thread nD τ) (Owe c 39) W ∗ levAts L lv
        ∗ cellInv ER (sched V) κw3 (cell c (.out 3)) ∗ cred (tallyAt (cell c (.out 3)) () (amt (.out 3))) ∗ atPos ER (cell c (.out 3)) 0 ∅ 0
        ∗ cellInv ER (sched V) κw4 (cell c (.out 4)) ∗ cred (tallyAt (cell c (.out 4)) () (amt (.out 4))) ∗ atPos ER (cell c (.out 4)) 0 ∅ 0
        ∗ cellInv ER (sched V) κw5 (cell c (.out 5)) ∗ cred (tallyAt (cell c (.out 5)) () (amt (.out 5))) ∗ atPos ER (cell c (.out 5)) 0 ∅ 0
        ∗ cellInv ER (sched V) κw6 (cell c (.out 6)) ∗ cred (tallyAt (cell c (.out 6)) () (amt (.out 6))) ∗ atPos ER (cell c (.out 6)) 0 ∅ 0
        ∗ cellInv ER (sched V) κw7 (cell c (.out 7)) ∗ cred (tallyAt (cell c (.out 7)) () (amt (.out 7))) ∗ atPos ER (cell c (.out 7)) 0 ∅ 0
        ∗ cellInv ER (sched V) κw8 (cell c (.out 8)) ∗ cred (tallyAt (cell c (.out 8)) () (amt (.out 8))) ∗ atPos ER (cell c (.out 8)) 0 ∅ 0
        ∗ cellInv ER (sched V) κw9 (cell c (.out 9)) ∗ cred (tallyAt (cell c (.out 9)) () (amt (.out 9))) ∗ atPos ER (cell c (.out 9)) 0 ∅ 0
        ∗ cellInv ER (sched V) κw10 (cell c (.out 10)) ∗ cred (tallyAt (cell c (.out 10)) () (amt (.out 10))) ∗ atPos ER (cell c (.out 10)) 0 ∅ 0)
      ⊢ wp frame (wpE (defs₀ (F := F)) 𝒱₀ c none) Set.univ
          (k0_part60 (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23 c)
          (fun r => iprop(⌜r = ⟨⟩⌝ ∗ owes (c : Thread nD τ) (Owe c 39) (insert ((CK.out 10).sem, ()) (insert ((CK.out 9).sem, ()) (insert ((CK.out 8).sem, ()) (insert ((CK.out 7).sem, ()) (insert ((CK.out 6).sem, ()) (insert ((CK.out 5).sem, ()) (insert ((CK.out 4).sem, ()) (insert ((CK.out 3).sem, ()) W))))))))
            ∗ atPos ER (cell c (.out 3)) 1 ∅ 0 ∗ ptsIs c (outDstM3 c) (V.out3 c) ∗ ptsAny (F := F) c (outSrcM3 c)
            ∗ atPos ER (cell c (.out 4)) 1 ∅ 0 ∗ ptsIs c (outDstM4 c) (V.out4 c) ∗ ptsAny (F := F) c (outSrcM4 c)
            ∗ atPos ER (cell c (.out 5)) 1 ∅ 0 ∗ ptsIs c (outDstM5 c) (V.out5 c) ∗ ptsAny (F := F) c (outSrcM5 c)
            ∗ atPos ER (cell c (.out 6)) 1 ∅ 0 ∗ ptsIs c (outDstM6 c) (V.out6 c) ∗ ptsAny (F := F) c (outSrcM6 c)
            ∗ atPos ER (cell c (.out 7)) 1 ∅ 0 ∗ ptsIs c (outDstM7 c) (V.out7 c) ∗ ptsAny (F := F) c (outSrcM7 c)
            ∗ atPos ER (cell c (.out 8)) 1 ∅ 0 ∗ ptsIs c (outDstM8 c) (V.out8 c) ∗ ptsAny (F := F) c (outSrcM8 c)
            ∗ atPos ER (cell c (.out 9)) 1 ∅ 0 ∗ ptsIs c (outDstM9 c) (V.out9 c) ∗ ptsAny (F := F) c (outSrcM9 c)
            ∗ atPos ER (cell c (.out 10)) 1 ∅ 0 ∗ ptsIs c (outDstM10 c) (V.out10 c) ∗ ptsAny (F := F) c (outSrcM10 c))) := by
  simp only [k0_part60_eq_skeleton]; unfold k0_part60_skel
  simp only [Prog.lift, Prog.bind_op, Prog.bind_ret, Prog.pure_eq_ret]
  iintro ⟨HO, #Hlev, #HIw3, Hcw3, Hatw3, #HIw4, Hcw4, Hatw4, #HIw5, Hcw5, Hatw5, #HIw6, Hcw6, Hatw6, #HIw7, Hcw7, Hatw7, #HIw8, Hcw8, Hatw8, #HIw9, Hcw9, Hatw9, #HIw10, Hcw10, Hatw10⟩
  iapply (wp_wait_xfer V c (.out 3) (by decide) 39 (out_sem_eq 3 _)
      (show (outDstM3 c : Memref sig .tc .hbm S256x384 .f32).view.dmaCredit = amt (.out 3) from rfl)
      (wpE_waitDma2_eq 𝒱₀ (c : Thread nD τ) none Set.univ)
      (mayWait_own c (.out 3) (lv_cell c _) 39) κw3 W) $$ [Hcw3 HO Hatw3]
  · isplitr; · iexact HIw3
    isplitl [Hcw3]; · iexact Hcw3
    isplitl [HO]; · iexact HO
    isplitr; · iexact Hlev
    iexact Hatw3
  iintro ⟨HO, Hatw3, Hpw3⟩
  ihave Hpw3 := (Entails.of_eq (show pay V c (CK.out 3) 0 = iprop(ptsIs c (outDstM3 c) (V.out3 c) ∗ ptsAny (F := F) c (outSrcM3 c)) from rfl)) $$ Hpw3
  icases Hpw3 with ⟨Hpi3, Hpa3⟩
  iapply (wp_wait_xfer V c (.out 4) (by decide) 39 (out_sem_eq 4 _)
      (show (outDstM4 c : Memref sig .tc .hbm S256x256 .f32).view.dmaCredit = amt (.out 4) from rfl)
      (wpE_waitDma2_eq 𝒱₀ (c : Thread nD τ) none Set.univ)
      (mayWait_own c (.out 4) (lv_cell c _) 39) κw4 (insert ((CK.out 3).sem, ()) W)) $$ [Hcw4 HO Hatw4]
  · isplitr; · iexact HIw4
    isplitl [Hcw4]; · iexact Hcw4
    isplitl [HO]; · iexact HO
    isplitr; · iexact Hlev
    iexact Hatw4
  iintro ⟨HO, Hatw4, Hpw4⟩
  ihave Hpw4 := (Entails.of_eq (show pay V c (CK.out 4) 0 = iprop(ptsIs c (outDstM4 c) (V.out4 c) ∗ ptsAny (F := F) c (outSrcM4 c)) from rfl)) $$ Hpw4
  icases Hpw4 with ⟨Hpi4, Hpa4⟩
  iapply (wp_wait_xfer V c (.out 5) (by decide) 39 (out_sem_eq 5 _)
      (show (outDstM5 c : Memref sig .tc .hbm S256x256 .f32).view.dmaCredit = amt (.out 5) from rfl)
      (wpE_waitDma2_eq 𝒱₀ (c : Thread nD τ) none Set.univ)
      (mayWait_own c (.out 5) (lv_cell c _) 39) κw5 (insert ((CK.out 4).sem, ()) (insert ((CK.out 3).sem, ()) W))) $$ [Hcw5 HO Hatw5]
  · isplitr; · iexact HIw5
    isplitl [Hcw5]; · iexact Hcw5
    isplitl [HO]; · iexact HO
    isplitr; · iexact Hlev
    iexact Hatw5
  iintro ⟨HO, Hatw5, Hpw5⟩
  ihave Hpw5 := (Entails.of_eq (show pay V c (CK.out 5) 0 = iprop(ptsIs c (outDstM5 c) (V.out5 c) ∗ ptsAny (F := F) c (outSrcM5 c)) from rfl)) $$ Hpw5
  icases Hpw5 with ⟨Hpi5, Hpa5⟩
  iapply (wp_wait_xfer V c (.out 6) (by decide) 39 (out_sem_eq 6 _)
      (show (outDstM6 c : Memref sig .tc .hbm S256x384 .f32).view.dmaCredit = amt (.out 6) from rfl)
      (wpE_waitDma2_eq 𝒱₀ (c : Thread nD τ) none Set.univ)
      (mayWait_own c (.out 6) (lv_cell c _) 39) κw6 (insert ((CK.out 5).sem, ()) (insert ((CK.out 4).sem, ()) (insert ((CK.out 3).sem, ()) W)))) $$ [Hcw6 HO Hatw6]
  · isplitr; · iexact HIw6
    isplitl [Hcw6]; · iexact Hcw6
    isplitl [HO]; · iexact HO
    isplitr; · iexact Hlev
    iexact Hatw6
  iintro ⟨HO, Hatw6, Hpw6⟩
  ihave Hpw6 := (Entails.of_eq (show pay V c (CK.out 6) 0 = iprop(ptsIs c (outDstM6 c) (V.out6 c) ∗ ptsAny (F := F) c (outSrcM6 c)) from rfl)) $$ Hpw6
  icases Hpw6 with ⟨Hpi6, Hpa6⟩
  iapply (wp_wait_xfer V c (.out 7) (by decide) 39 (out_sem_eq 7 _)
      (show (outDstM7 c : Memref sig .tc .hbm S256x384 .f32).view.dmaCredit = amt (.out 7) from rfl)
      (wpE_waitDma2_eq 𝒱₀ (c : Thread nD τ) none Set.univ)
      (mayWait_own c (.out 7) (lv_cell c _) 39) κw7 (insert ((CK.out 6).sem, ()) (insert ((CK.out 5).sem, ()) (insert ((CK.out 4).sem, ()) (insert ((CK.out 3).sem, ()) W))))) $$ [Hcw7 HO Hatw7]
  · isplitr; · iexact HIw7
    isplitl [Hcw7]; · iexact Hcw7
    isplitl [HO]; · iexact HO
    isplitr; · iexact Hlev
    iexact Hatw7
  iintro ⟨HO, Hatw7, Hpw7⟩
  ihave Hpw7 := (Entails.of_eq (show pay V c (CK.out 7) 0 = iprop(ptsIs c (outDstM7 c) (V.out7 c) ∗ ptsAny (F := F) c (outSrcM7 c)) from rfl)) $$ Hpw7
  icases Hpw7 with ⟨Hpi7, Hpa7⟩
  iapply (wp_wait_xfer V c (.out 8) (by decide) 39 (out_sem_eq 8 _)
      (show (outDstM8 c : Memref sig .tc .hbm S256x384 .f32).view.dmaCredit = amt (.out 8) from rfl)
      (wpE_waitDma2_eq 𝒱₀ (c : Thread nD τ) none Set.univ)
      (mayWait_own c (.out 8) (lv_cell c _) 39) κw8 (insert ((CK.out 7).sem, ()) (insert ((CK.out 6).sem, ()) (insert ((CK.out 5).sem, ()) (insert ((CK.out 4).sem, ()) (insert ((CK.out 3).sem, ()) W)))))) $$ [Hcw8 HO Hatw8]
  · isplitr; · iexact HIw8
    isplitl [Hcw8]; · iexact Hcw8
    isplitl [HO]; · iexact HO
    isplitr; · iexact Hlev
    iexact Hatw8
  iintro ⟨HO, Hatw8, Hpw8⟩
  ihave Hpw8 := (Entails.of_eq (show pay V c (CK.out 8) 0 = iprop(ptsIs c (outDstM8 c) (V.out8 c) ∗ ptsAny (F := F) c (outSrcM8 c)) from rfl)) $$ Hpw8
  icases Hpw8 with ⟨Hpi8, Hpa8⟩
  iapply (wp_wait_xfer V c (.out 9) (by decide) 39 (out_sem_eq 9 _)
      (show (outDstM9 c : Memref sig .tc .hbm S256x384 .f32).view.dmaCredit = amt (.out 9) from rfl)
      (wpE_waitDma2_eq 𝒱₀ (c : Thread nD τ) none Set.univ)
      (mayWait_own c (.out 9) (lv_cell c _) 39) κw9 (insert ((CK.out 8).sem, ()) (insert ((CK.out 7).sem, ()) (insert ((CK.out 6).sem, ()) (insert ((CK.out 5).sem, ()) (insert ((CK.out 4).sem, ()) (insert ((CK.out 3).sem, ()) W))))))) $$ [Hcw9 HO Hatw9]
  · isplitr; · iexact HIw9
    isplitl [Hcw9]; · iexact Hcw9
    isplitl [HO]; · iexact HO
    isplitr; · iexact Hlev
    iexact Hatw9
  iintro ⟨HO, Hatw9, Hpw9⟩
  ihave Hpw9 := (Entails.of_eq (show pay V c (CK.out 9) 0 = iprop(ptsIs c (outDstM9 c) (V.out9 c) ∗ ptsAny (F := F) c (outSrcM9 c)) from rfl)) $$ Hpw9
  icases Hpw9 with ⟨Hpi9, Hpa9⟩
  iapply (wp_wait_xfer V c (.out 10) (by decide) 39 (out_sem_eq 10 _)
      (show (outDstM10 c : Memref sig .tc .hbm S256x256 .f32).view.dmaCredit = amt (.out 10) from rfl)
      (wpE_waitDma2_eq 𝒱₀ (c : Thread nD τ) none Set.univ)
      (mayWait_own c (.out 10) (lv_cell c _) 39) κw10 (insert ((CK.out 9).sem, ()) (insert ((CK.out 8).sem, ()) (insert ((CK.out 7).sem, ()) (insert ((CK.out 6).sem, ()) (insert ((CK.out 5).sem, ()) (insert ((CK.out 4).sem, ()) (insert ((CK.out 3).sem, ()) W)))))))) $$ [Hcw10 HO Hatw10]
  · isplitr; · iexact HIw10
    isplitl [Hcw10]; · iexact Hcw10
    isplitl [HO]; · iexact HO
    isplitr; · iexact Hlev
    iexact Hatw10
  iintro ⟨HO, Hatw10, Hpw10⟩
  ihave Hpw10 := (Entails.of_eq (show pay V c (CK.out 10) 0 = iprop(ptsIs c (outDstM10 c) (V.out10 c) ∗ ptsAny (F := F) c (outSrcM10 c)) from rfl)) $$ Hpw10
  icases Hpw10 with ⟨Hpi10, Hpa10⟩
  sl_step
  isplitr; · ipureintro; trivial
  isplitl [HO]; · iexact HO
  isplitl [Hatw3]; · iexact Hatw3
  isplitl [Hpi3]; · iexact Hpi3
  isplitl [Hpa3]; · iexact Hpa3
  isplitl [Hatw4]; · iexact Hatw4
  isplitl [Hpi4]; · iexact Hpi4
  isplitl [Hpa4]; · iexact Hpa4
  isplitl [Hatw5]; · iexact Hatw5
  isplitl [Hpi5]; · iexact Hpi5
  isplitl [Hpa5]; · iexact Hpa5
  isplitl [Hatw6]; · iexact Hatw6
  isplitl [Hpi6]; · iexact Hpi6
  isplitl [Hpa6]; · iexact Hpa6
  isplitl [Hatw7]; · iexact Hatw7
  isplitl [Hpi7]; · iexact Hpi7
  isplitl [Hpa7]; · iexact Hpa7
  isplitl [Hatw8]; · iexact Hatw8
  isplitl [Hpi8]; · iexact Hpi8
  isplitl [Hpa8]; · iexact Hpa8
  isplitl [Hatw9]; · iexact Hatw9
  isplitl [Hpi9]; · iexact Hpi9
  isplitl [Hpa9]; · iexact Hpa9
  isplitl [Hatw10]; · iexact Hatw10
  isplitl [Hpi10]; · iexact Hpi10
  iexact Hpa10

end Cert.Kernel.Proto

end
-- ==== Proof.Body61Bits.lean ====
/-
Stretch 61 of a device's kernel body: the waits for the result copies 11 to 17.
-/
import proofs.«900882_g7700000000000883_dist_matmul_gelu_kshard_i_m2048_n2048_k1024_v7x_i8_f32_1_alg».proof.Proof.RulesBits
import proofs.«900882_g7700000000000883_dist_matmul_gelu_kshard_i_m2048_n2048_k1024_v7x_i8_f32_1_alg».proof.Proof.TopoBitsTab
import proofs.«900882_g7700000000000883_dist_matmul_gelu_kshard_i_m2048_n2048_k1024_v7x_i8_f32_1_alg».proof.Proof.PiecesTabBits
import proofs.«900882_g7700000000000883_dist_matmul_gelu_kshard_i_m2048_n2048_k1024_v7x_i8_f32_1_alg».proof.Proof.Gen.Kernel.Skeleton
import proofs.«900882_g7700000000000883_dist_matmul_gelu_kshard_i_m2048_n2048_k1024_v7x_i8_f32_1_alg».proof.Proof.TopoClosedBits
import proofs.«900882_g7700000000000883_dist_matmul_gelu_kshard_i_m2048_n2048_k1024_v7x_i8_f32_1_alg».proof.Proof.PiecesOutSepBits
import Idealize.ShloMosaic.Lib.Pipeline.Value

set_option maxRecDepth 16384

noncomputable section

namespace Cert.Kernel.Proto

open Cert.Kernel Cert.Kernel.Gen Cert.Kernel.Topo
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : Vals F)

set_option maxHeartbeats 4000000 in
theorem part61_run (c : Dev nD) (κw11 κw12 κw13 κw14 κw15 κw16 κw17 : ℕ) (W : Waits sig Unit) :
    iprop(owes (c : Thread nD τ) (Owe c 39) W ∗ levAts L lv
        ∗ cellInv ER (sched V) κw11 (cell c (.out 11)) ∗ cred (tallyAt (cell c (.out 11)) () (amt (.out 11))) ∗ atPos ER (cell c (.out 11)) 0 ∅ 0
        ∗ cellInv ER (sched V) κw12 (cell c (.out 12)) ∗ cred (tallyAt (cell c (.out 12)) () (amt (.out 12))) ∗ atPos ER (cell c (.out 12)) 0 ∅ 0
        ∗ cellInv ER (sched V) κw13 (cell c (.out 13)) ∗ cred (tallyAt (cell c (.out 13)) () (amt (.out 13))) ∗ atPos ER (cell c (.out 13)) 0 ∅ 0
        ∗ cellInv ER (sched V) κw14 (cell c (.out 14)) ∗ cred (tallyAt (cell c (.out 14)) () (amt (.out 14))) ∗ atPos ER (cell c (.out 14)) 0 ∅ 0
        ∗ cellInv ER (sched V) κw15 (cell c (.out 15)) ∗ cred (tallyAt (cell c (.out 15)) () (amt (.out 15))) ∗ atPos ER (cell c (.out 15)) 0 ∅ 0
        ∗ cellInv ER (sched V) κw16 (cell c (.out 16)) ∗ cred (tallyAt (cell c (.out 16)) () (amt (.out 16))) ∗ atPos ER (cell c (.out 16)) 0 ∅ 0
        ∗ cellInv ER (sched V) κw17 (cell c (.out 17)) ∗ cred (tallyAt (cell c (.out 17)) () (amt (.out 17))) ∗ atPos ER (cell c (.out 17)) 0 ∅ 0)
      ⊢ wp frame (wpE (defs₀ (F := F)) 𝒱₀ c none) Set.univ
          (k0_part61 (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23 c)
          (fun r => iprop(⌜r = ⟨⟩⌝ ∗ owes (c : Thread nD τ) (Owe c 39) (insert ((CK.out 17).sem, ()) (insert ((CK.out 16).sem, ()) (insert ((CK.out 15).sem, ()) (insert ((CK.out 14).sem, ()) (insert ((CK.out 13).sem, ()) (insert ((CK.out 12).sem, ()) (insert ((CK.out 11).sem, ()) W)))))))
            ∗ atPos ER (cell c (.out 11)) 1 ∅ 0 ∗ ptsIs c (outDstM11 c) (V.out11 c) ∗ ptsAny (F := F) c (outSrcM11 c)
            ∗ atPos ER (cell c (.out 12)) 1 ∅ 0 ∗ ptsIs c (outDstM12 c) (V.out12 c) ∗ ptsAny (F := F) c (outSrcM12 c)
            ∗ atPos ER (cell c (.out 13)) 1 ∅ 0 ∗ ptsIs c (outDstM13 c) (V.out13 c) ∗ ptsAny (F := F) c (outSrcM13 c)
            ∗ atPos ER (cell c (.out 14)) 1 ∅ 0 ∗ ptsIs c (outDstM14 c) (V.out14 c) ∗ ptsAny (F := F) c (outSrcM14 c)
            ∗ atPos ER (cell c (.out 15)) 1 ∅ 0 ∗ ptsIs c (outDstM15 c) (V.out15 c) ∗ ptsAny (F := F) c (outSrcM15 c)
            ∗ atPos ER (cell c (.out 16)) 1 ∅ 0 ∗ ptsIs c (outDstM16 c) (V.out16 c) ∗ ptsAny (F := F) c (outSrcM16 c)
            ∗ atPos ER (cell c (.out 17)) 1 ∅ 0 ∗ ptsIs c (outDstM17 c) (V.out17 c) ∗ ptsAny (F := F) c (outSrcM17 c))) := by
  simp only [k0_part61_eq_skeleton]; unfold k0_part61_skel
  simp only [Prog.lift, Prog.bind_op, Prog.bind_ret, Prog.pure_eq_ret]
  iintro ⟨HO, #Hlev, #HIw11, Hcw11, Hatw11, #HIw12, Hcw12, Hatw12, #HIw13, Hcw13, Hatw13, #HIw14, Hcw14, Hatw14, #HIw15, Hcw15, Hatw15, #HIw16, Hcw16, Hatw16, #HIw17, Hcw17, Hatw17⟩
  iapply (wp_wait_xfer V c (.out 11) (by decide) 39 (out_sem_eq 11 _)
      (show (outDstM11 c : Memref sig .tc .hbm S256x256 .f32).view.dmaCredit = amt (.out 11) from rfl)
      (wpE_waitDma2_eq 𝒱₀ (c : Thread nD τ) none Set.univ)
      (mayWait_own c (.out 11) (lv_cell c _) 39) κw11 W) $$ [Hcw11 HO Hatw11]
  · isplitr; · iexact HIw11
    isplitl [Hcw11]; · iexact Hcw11
    isplitl [HO]; · iexact HO
    isplitr; · iexact Hlev
    iexact Hatw11
  iintro ⟨HO, Hatw11, Hpw11⟩
  ihave Hpw11 := (Entails.of_eq (show pay V c (CK.out 11) 0 = iprop(ptsIs c (outDstM11 c) (V.out11 c) ∗ ptsAny (F := F) c (outSrcM11 c)) from rfl)) $$ Hpw11
  icases Hpw11 with ⟨Hpi11, Hpa11⟩
  iapply (wp_wait_xfer V c (.out 12) (by decide) 39 (out_sem_eq 12 _)
      (show (outDstM12 c : Memref sig .tc .hbm S512x384 .f32).view.dmaCredit = amt (.out 12) from rfl)
      (wpE_waitDma2_eq 𝒱₀ (c : Thread nD τ) none Set.univ)
      (mayWait_own c (.out 12) (lv_cell c _) 39) κw12 (insert ((CK.out 11).sem, ()) W)) $$ [Hcw12 HO Hatw12]
  · isplitr; · iexact HIw12
    isplitl [Hcw12]; · iexact Hcw12
    isplitl [HO]; · iexact HO
    isplitr; · iexact Hlev
    iexact Hatw12
  iintro ⟨HO, Hatw12, Hpw12⟩
  ihave Hpw12 := (Entails.of_eq (show pay V c (CK.out 12) 0 = iprop(ptsIs c (outDstM12 c) (V.out12 c) ∗ ptsAny (F := F) c (outSrcM12 c)) from rfl)) $$ Hpw12
  icases Hpw12 with ⟨Hpi12, Hpa12⟩
  iapply (wp_wait_xfer V c (.out 13) (by decide) 39 (out_sem_eq 13 _)
      (show (outDstM13 c : Memref sig .tc .hbm S512x384 .f32).view.dmaCredit = amt (.out 13) from rfl)
      (wpE_waitDma2_eq 𝒱₀ (c : Thread nD τ) none Set.univ)
      (mayWait_own c (.out 13) (lv_cell c _) 39) κw13 (insert ((CK.out 12).sem, ()) (insert ((CK.out 11).sem, ()) W))) $$ [Hcw13 HO Hatw13]
  · isplitr; · iexact HIw13
    isplitl [Hcw13]; · iexact Hcw13
    isplitl [HO]; · iexact HO
    isplitr; · iexact Hlev
    iexact Hatw13
  iintro ⟨HO, Hatw13, Hpw13⟩
  ihave Hpw13 := (Entails.of_eq (show pay V c (CK.out 13) 0 = iprop(ptsIs c (outDstM13 c) (V.out13 c) ∗ ptsAny (F := F) c (outSrcM13 c)) from rfl)) $$ Hpw13
  icases Hpw13 with ⟨Hpi13, Hpa13⟩
  iapply (wp_wait_xfer V c (.out 14) (by decide) 39 (out_sem_eq 14 _)
      (show (outDstM14 c : Memref sig .tc .hbm S512x384 .f32).view.dmaCredit = amt (.out 14) from rfl)
      (wpE_waitDma2_eq 𝒱₀ (c : Thread nD τ) none Set.univ)
      (mayWait_own c (.out 14) (lv_cell c _) 39) κw14 (insert ((CK.out 13).sem, ()) (insert ((CK.out 12).sem, ()) (insert ((CK.out 11).sem, ()) W)))) $$ [Hcw14 HO Hatw14]
  · isplitr; · iexact HIw14
    isplitl [Hcw14]; · iexact Hcw14
    isplitl [HO]; · iexact HO
    isplitr; · iexact Hlev
    iexact Hatw14
  iintro ⟨HO, Hatw14, Hpw14⟩
  ihave Hpw14 := (Entails.of_eq (show pay V c (CK.out 14) 0 = iprop(ptsIs c (outDstM14 c) (V.out14 c) ∗ ptsAny (F := F) c (outSrcM14 c)) from rfl)) $$ Hpw14
  icases Hpw14 with ⟨Hpi14, Hpa14⟩
  iapply (wp_wait_xfer V c (.out 15) (by decide) 39 (out_sem_eq 15 _)
      (show (outDstM15 c : Memref sig .tc .hbm S512x384 .f32).view.dmaCredit = amt (.out 15) from rfl)
      (wpE_waitDma2_eq 𝒱₀ (c : Thread nD τ) none Set.univ)
      (mayWait_own c (.out 15) (lv_cell c _) 39) κw15 (insert ((CK.out 14).sem, ()) (insert ((CK.out 13).sem, ()) (insert ((CK.out 12).sem, ()) (insert ((CK.out 11).sem, ()) W))))) $$ [Hcw15 HO Hatw15]
  · isplitr; · iexact HIw15
    isplitl [Hcw15]; · iexact Hcw15
    isplitl [HO]; · iexact HO
    isplitr; · iexact Hlev
    iexact Hatw15
  iintro ⟨HO, Hatw15, Hpw15⟩
  ihave Hpw15 := (Entails.of_eq (show pay V c (CK.out 15) 0 = iprop(ptsIs c (outDstM15 c) (V.out15 c) ∗ ptsAny (F := F) c (outSrcM15 c)) from rfl)) $$ Hpw15
  icases Hpw15 with ⟨Hpi15, Hpa15⟩
  iapply (wp_wait_xfer V c (.out 16) (by decide) 39 (out_sem_eq 16 _)
      (show (outDstM16 c : Memref sig .tc .hbm S512x256 .f32).view.dmaCredit = amt (.out 16) from rfl)
      (wpE_waitDma2_eq 𝒱₀ (c : Thread nD τ) none Set.univ)
      (mayWait_own c (.out 16) (lv_cell c _) 39) κw16 (insert ((CK.out 15).sem, ()) (insert ((CK.out 14).sem, ()) (insert ((CK.out 13).sem, ()) (insert ((CK.out 12).sem, ()) (insert ((CK.out 11).sem, ()) W)))))) $$ [Hcw16 HO Hatw16]
  · isplitr; · iexact HIw16
    isplitl [Hcw16]; · iexact Hcw16
    isplitl [HO]; · iexact HO
    isplitr; · iexact Hlev
    iexact Hatw16
  iintro ⟨HO, Hatw16, Hpw16⟩
  ihave Hpw16 := (Entails.of_eq (show pay V c (CK.out 16) 0 = iprop(ptsIs c (outDstM16 c) (V.out16 c) ∗ ptsAny (F := F) c (outSrcM16 c)) from rfl)) $$ Hpw16
  icases Hpw16 with ⟨Hpi16, Hpa16⟩
  iapply (wp_wait_xfer V c (.out 17) (by decide) 39 (out_sem_eq 17 _)
      (show (outDstM17 c : Memref sig .tc .hbm S512x256 .f32).view.dmaCredit = amt (.out 17) from rfl)
      (wpE_waitDma2_eq 𝒱₀ (c : Thread nD τ) none Set.univ)
      (mayWait_own c (.out 17) (lv_cell c _) 39) κw17 (insert ((CK.out 16).sem, ()) (insert ((CK.out 15).sem, ()) (insert ((CK.out 14).sem, ()) (insert ((CK.out 13).sem, ()) (insert ((CK.out 12).sem, ()) (insert ((CK.out 11).sem, ()) W))))))) $$ [Hcw17 HO Hatw17]
  · isplitr; · iexact HIw17
    isplitl [Hcw17]; · iexact Hcw17
    isplitl [HO]; · iexact HO
    isplitr; · iexact Hlev
    iexact Hatw17
  iintro ⟨HO, Hatw17, Hpw17⟩
  ihave Hpw17 := (Entails.of_eq (show pay V c (CK.out 17) 0 = iprop(ptsIs c (outDstM17 c) (V.out17 c) ∗ ptsAny (F := F) c (outSrcM17 c)) from rfl)) $$ Hpw17
  icases Hpw17 with ⟨Hpi17, Hpa17⟩
  sl_step
  isplitr; · ipureintro; trivial
  isplitl [HO]; · iexact HO
  isplitl [Hatw11]; · iexact Hatw11
  isplitl [Hpi11]; · iexact Hpi11
  isplitl [Hpa11]; · iexact Hpa11
  isplitl [Hatw12]; · iexact Hatw12
  isplitl [Hpi12]; · iexact Hpi12
  isplitl [Hpa12]; · iexact Hpa12
  isplitl [Hatw13]; · iexact Hatw13
  isplitl [Hpi13]; · iexact Hpi13
  isplitl [Hpa13]; · iexact Hpa13
  isplitl [Hatw14]; · iexact Hatw14
  isplitl [Hpi14]; · iexact Hpi14
  isplitl [Hpa14]; · iexact Hpa14
  isplitl [Hatw15]; · iexact Hatw15
  isplitl [Hpi15]; · iexact Hpi15
  isplitl [Hpa15]; · iexact Hpa15
  isplitl [Hatw16]; · iexact Hatw16
  isplitl [Hpi16]; · iexact Hpi16
  isplitl [Hpa16]; · iexact Hpa16
  isplitl [Hatw17]; · iexact Hatw17
  isplitl [Hpi17]; · iexact Hpi17
  iexact Hpa17

end Cert.Kernel.Proto

end
-- ==== Proof.Body62Bits.lean ====
/-
The end of a device's kernel body: the six waits for the result copies 18 to 23 (the 1024-row blocks), each bringing the
block of the result array it wrote and giving the accumulator's block back; and the body as its stretches followed by them.
-/
import proofs.«900882_g7700000000000883_dist_matmul_gelu_kshard_i_m2048_n2048_k1024_v7x_i8_f32_1_alg».proof.Proof.RulesBits
import proofs.«900882_g7700000000000883_dist_matmul_gelu_kshard_i_m2048_n2048_k1024_v7x_i8_f32_1_alg».proof.Proof.TopoBitsTab
import proofs.«900882_g7700000000000883_dist_matmul_gelu_kshard_i_m2048_n2048_k1024_v7x_i8_f32_1_alg».proof.Proof.PiecesTabBits
import proofs.«900882_g7700000000000883_dist_matmul_gelu_kshard_i_m2048_n2048_k1024_v7x_i8_f32_1_alg».proof.Proof.Gen.Kernel.Skeleton
import proofs.«900882_g7700000000000883_dist_matmul_gelu_kshard_i_m2048_n2048_k1024_v7x_i8_f32_1_alg».proof.Proof.TopoClosedBits
import proofs.«900882_g7700000000000883_dist_matmul_gelu_kshard_i_m2048_n2048_k1024_v7x_i8_f32_1_alg».proof.Proof.PiecesOutSepBits
import Idealize.ShloMosaic.Lib.Pipeline.Value

set_option maxRecDepth 16384

noncomputable section

namespace Cert.Kernel.Proto

open Cert.Kernel Cert.Kernel.Gen Cert.Kernel.Topo
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : Vals F)

/-- The six waits that end the body: for the result copies 18 to 23. -/
def tailProg (c : Dev nD) : Prog (TpuEff nD τ sig (Elt F) Λ₀ .tc) PUnit := do
  Prog.lift (.waitDma2 ((cc0_scratch23.slice (Rect.unit (s := S24) ![18] S1.size inb_S24_S1_18)).squeeze S_ squeezes_S1_S_).sem (outSrcM18 c) (outDstM18 c) (View.wordExact_bits rfl) (View.wordExact_bits rfl))
  Prog.lift (.waitDma2 ((cc0_scratch23.slice (Rect.unit (s := S24) ![19] S1.size inb_S24_S1_19)).squeeze S_ squeezes_S1_S_).sem (outSrcM19 c) (outDstM19 c) (View.wordExact_bits rfl) (View.wordExact_bits rfl))
  Prog.lift (.waitDma2 ((cc0_scratch23.slice (Rect.unit (s := S24) ![20] S1.size inb_S24_S1_20)).squeeze S_ squeezes_S1_S_).sem (outSrcM20 c) (outDstM20 c) (View.wordExact_bits rfl) (View.wordExact_bits rfl))
  Prog.lift (.waitDma2 ((cc0_scratch23.slice (Rect.unit (s := S24) ![21] S1.size inb_S24_S1_21)).squeeze S_ squeezes_S1_S_).sem (outSrcM21 c) (outDstM21 c) (View.wordExact_bits rfl) (View.wordExact_bits rfl))
  Prog.lift (.waitDma2 ((cc0_scratch23.slice (Rect.unit (s := S24) ![22] S1.size inb_S24_S1_22)).squeeze S_ squeezes_S1_S_).sem (outSrcM22 c) (outDstM22 c) (View.wordExact_bits rfl) (View.wordExact_bits rfl))
  Prog.lift (.waitDma2 ((cc0_scratch23.slice (Rect.unit (s := S24) ![23] S1.size inb_S24_S1_23)).squeeze S_ squeezes_S1_S_).sem (outSrcM23 c) (outDstM23 c) (View.wordExact_bits rfl) (View.wordExact_bits rfl))
  pure ⟨⟩

/-- The body is its first stretches, the stretch of the waits 11 to 17, and these six waits. -/
theorem cc0_body_tail :
    cc0_body (F := F) (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23
      = (do
          let d0 ← k0_part62 (F := F) (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23
          k0_part61 (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23 d0
          tailProg d0) := rfl

set_option maxHeartbeats 4000000 in
theorem tail_run (c : Dev nD) (κw18 κw19 κw20 κw21 κw22 κw23 : ℕ) (W : Waits sig Unit) :
    iprop(owes (c : Thread nD τ) (Owe c 39) W ∗ levAts L lv
        ∗ cellInv ER (sched V) κw18 (cell c (.out 18)) ∗ cred (tallyAt (cell c (.out 18)) () (amt (.out 18))) ∗ atPos ER (cell c (.out 18)) 0 ∅ 0
        ∗ cellInv ER (sched V) κw19 (cell c (.out 19)) ∗ cred (tallyAt (cell c (.out 19)) () (amt (.out 19))) ∗ atPos ER (cell c (.out 19)) 0 ∅ 0
        ∗ cellInv ER (sched V) κw20 (cell c (.out 20)) ∗ cred (tallyAt (cell c (.out 20)) () (amt (.out 20))) ∗ atPos ER (cell c (.out 20)) 0 ∅ 0
        ∗ cellInv ER (sched V) κw21 (cell c (.out 21)) ∗ cred (tallyAt (cell c (.out 21)) () (amt (.out 21))) ∗ atPos ER (cell c (.out 21)) 0 ∅ 0
        ∗ cellInv ER (sched V) κw22 (cell c (.out 22)) ∗ cred (tallyAt (cell c (.out 22)) () (amt (.out 22))) ∗ atPos ER (cell c (.out 22)) 0 ∅ 0
        ∗ cellInv ER (sched V) κw23 (cell c (.out 23)) ∗ cred (tallyAt (cell c (.out 23)) () (amt (.out 23))) ∗ atPos ER (cell c (.out 23)) 0 ∅ 0)
      ⊢ wp frame (wpE (defs₀ (F := F)) 𝒱₀ c none) Set.univ
          (tailProg (F := F) c)
          (fun r => iprop(⌜r = ⟨⟩⌝ ∗ owes (c : Thread nD τ) (Owe c 39) (insert ((CK.out 23).sem, ()) (insert ((CK.out 22).sem, ()) (insert ((CK.out 21).sem, ()) (insert ((CK.out 20).sem, ()) (insert ((CK.out 19).sem, ()) (insert ((CK.out 18).sem, ()) W))))))
            ∗ atPos ER (cell c (.out 18)) 1 ∅ 0 ∗ ptsIs c (outDstM18 c) (V.out18 c) ∗ ptsAny (F := F) c (outSrcM18 c)
            ∗ atPos ER (cell c (.out 19)) 1 ∅ 0 ∗ ptsIs c (outDstM19 c) (V.out19 c) ∗ ptsAny (F := F) c (outSrcM19 c)
            ∗ atPos ER (cell c (.out 20)) 1 ∅ 0 ∗ ptsIs c (outDstM20 c) (V.out20 c) ∗ ptsAny (F := F) c (outSrcM20 c)
            ∗ atPos ER (cell c (.out 21)) 1 ∅ 0 ∗ ptsIs c (outDstM21 c) (V.out21 c) ∗ ptsAny (F := F) c (outSrcM21 c)
            ∗ atPos ER (cell c (.out 22)) 1 ∅ 0 ∗ ptsIs c (outDstM22 c) (V.out22 c) ∗ ptsAny (F := F) c (outSrcM22 c)
            ∗ atPos ER (cell c (.out 23)) 1 ∅ 0 ∗ ptsIs c (outDstM23 c) (V.out23 c) ∗ ptsAny (F := F) c (outSrcM23 c))) := by
  unfold tailProg
  simp only [Prog.lift, Prog.bind_op, Prog.bind_ret, Prog.pure_eq_ret]
  iintro ⟨HO, #Hlev, #HIw18, Hcw18, Hatw18, #HIw19, Hcw19, Hatw19, #HIw20, Hcw20, Hatw20, #HIw21, Hcw21, Hatw21, #HIw22, Hcw22, Hatw22, #HIw23, Hcw23, Hatw23⟩
  iapply (wp_wait_xfer V c (.out 18) (by decide) 39 (out_sem_eq 18 _)
      (show (outDstM18 c : Memref sig .tc .hbm S1024x384 .f32).view.dmaCredit = amt (.out 18) from rfl)
      (wpE_waitDma2_eq 𝒱₀ (c : Thread nD τ) none Set.univ)
      (mayWait_own c (.out 18) (lv_cell c _) 39) κw18 W) $$ [Hcw18 HO Hatw18]
  · isplitr; · iexact HIw18
    isplitl [Hcw18]; · iexact Hcw18
    isplitl [HO]; · iexact HO
    isplitr; · iexact Hlev
    iexact Hatw18
  iintro ⟨HO, Hatw18, Hpw18⟩
  ihave Hpw18 := (Entails.of_eq (show pay V c (CK.out 18) 0 = iprop(ptsIs c (outDstM18 c) (V.out18 c) ∗ ptsAny (F := F) c (outSrcM18 c)) from rfl)) $$ Hpw18
  icases Hpw18 with ⟨Hpi18, Hpa18⟩
  iapply (wp_wait_xfer V c (.out 19) (by decide) 39 (out_sem_eq 19 _)
      (show (outDstM19 c : Memref sig .tc .hbm S1024x384 .f32).view.dmaCredit = amt (.out 19) from rfl)
      (wpE_waitDma2_eq 𝒱₀ (c : Thread nD τ) none Set.univ)
      (mayWait_own c (.out 19) (lv_cell c _) 39) κw19 (insert ((CK.out 18).sem, ()) W)) $$ [Hcw19 HO Hatw19]
  · isplitr; · iexact HIw19
    isplitl [Hcw19]; · iexact Hcw19
    isplitl [HO]; · iexact HO
    isplitr; · iexact Hlev
    iexact Hatw19
  iintro ⟨HO, Hatw19, Hpw19⟩
  ihave Hpw19 := (Entails.of_eq (show pay V c (CK.out 19) 0 = iprop(ptsIs c (outDstM19 c) (V.out19 c) ∗ ptsAny (F := F) c (outSrcM19 c)) from rfl)) $$ Hpw19
  icases Hpw19 with ⟨Hpi19, Hpa19⟩
  iapply (wp_wait_xfer V c (.out 20) (by decide) 39 (out_sem_eq 20 _)
      (show (outDstM20 c : Memref sig .tc .hbm S1024x384 .f32).view.dmaCredit = amt (.out 20) from rfl)
      (wpE_waitDma2_eq 𝒱₀ (c : Thread nD τ) none Set.univ)
      (mayWait_own c (.out 20) (lv_cell c _) 39) κw20 (insert ((CK.out 19).sem, ()) (insert ((CK.out 18).sem, ()) W))) $$ [Hcw20 HO Hatw20]
  · isplitr; · iexact HIw20
    isplitl [Hcw20]; · iexact Hcw20
    isplitl [HO]; · iexact HO
    isplitr; · iexact Hlev
    iexact Hatw20
  iintro ⟨HO, Hatw20, Hpw20⟩
  ihave Hpw20 := (Entails.of_eq (show pay V c (CK.out 20) 0 = iprop(ptsIs c (outDstM20 c) (V.out20 c) ∗ ptsAny (F := F) c (outSrcM20 c)) from rfl)) $$ Hpw20
  icases Hpw20 with ⟨Hpi20, Hpa20⟩
  iapply (wp_wait_xfer V c (.out 21) (by decide) 39 (out_sem_eq 21 _)
      (show (outDstM21 c : Memref sig .tc .hbm S1024x384 .f32).view.dmaCredit = amt (.out 21) from rfl)
      (wpE_waitDma2_eq 𝒱₀ (c : Thread nD τ) none Set.univ)
      (mayWait_own c (.out 21) (lv_cell c _) 39) κw21 (insert ((CK.out 20).sem, ()) (insert ((CK.out 19).sem, ()) (insert ((CK.out 18).sem, ()) W)))) $$ [Hcw21 HO Hatw21]
  · isplitr; · iexact HIw21
    isplitl [Hcw21]; · iexact Hcw21
    isplitl [HO]; · iexact HO
    isplitr; · iexact Hlev
    iexact Hatw21
  iintro ⟨HO, Hatw21, Hpw21⟩
  ihave Hpw21 := (Entails.of_eq (show pay V c (CK.out 21) 0 = iprop(ptsIs c (outDstM21 c) (V.out21 c) ∗ ptsAny (F := F) c (outSrcM21 c)) from rfl)) $$ Hpw21
  icases Hpw21 with ⟨Hpi21, Hpa21⟩
  iapply (wp_wait_xfer V c (.out 22) (by decide) 39 (out_sem_eq 22 _)
      (show (outDstM22 c : Memref sig .tc .hbm S1024x256 .f32).view.dmaCredit = amt (.out 22) from rfl)
      (wpE_waitDma2_eq 𝒱₀ (c : Thread nD τ) none Set.univ)
      (mayWait_own c (.out 22) (lv_cell c _) 39) κw22 (insert ((CK.out 21).sem, ()) (insert ((CK.out 20).sem, ()) (insert ((CK.out 19).sem, ()) (insert ((CK.out 18).sem, ()) W))))) $$ [Hcw22 HO Hatw22]
  · isplitr; · iexact HIw22
    isplitl [Hcw22]; · iexact Hcw22
    isplitl [HO]; · iexact HO
    isplitr; · iexact Hlev
    iexact Hatw22
  iintro ⟨HO, Hatw22, Hpw22⟩
  ihave Hpw22 := (Entails.of_eq (show pay V c (CK.out 22) 0 = iprop(ptsIs c (outDstM22 c) (V.out22 c) ∗ ptsAny (F := F) c (outSrcM22 c)) from rfl)) $$ Hpw22
  icases Hpw22 with ⟨Hpi22, Hpa22⟩
  iapply (wp_wait_xfer V c (.out 23) (by decide) 39 (out_sem_eq 23 _)
      (show (outDstM23 c : Memref sig .tc .hbm S1024x256 .f32).view.dmaCredit = amt (.out 23) from rfl)
      (wpE_waitDma2_eq 𝒱₀ (c : Thread nD τ) none Set.univ)
      (mayWait_own c (.out 23) (lv_cell c _) 39) κw23 (insert ((CK.out 22).sem, ()) (insert ((CK.out 21).sem, ()) (insert ((CK.out 20).sem, ()) (insert ((CK.out 19).sem, ()) (insert ((CK.out 18).sem, ()) W)))))) $$ [Hcw23 HO Hatw23]
  · isplitr; · iexact HIw23
    isplitl [Hcw23]; · iexact Hcw23
    isplitl [HO]; · iexact HO
    isplitr; · iexact Hlev
    iexact Hatw23
  iintro ⟨HO, Hatw23, Hpw23⟩
  ihave Hpw23 := (Entails.of_eq (show pay V c (CK.out 23) 0 = iprop(ptsIs c (outDstM23 c) (V.out23 c) ∗ ptsAny (F := F) c (outSrcM23 c)) from rfl)) $$ Hpw23
  icases Hpw23 with ⟨Hpi23, Hpa23⟩
  sl_step
  isplitr; · ipureintro; trivial
  isplitl [HO]; · iexact HO
  isplitl [Hatw18]; · iexact Hatw18
  isplitl [Hpi18]; · iexact Hpi18
  isplitl [Hpa18]; · iexact Hpa18
  isplitl [Hatw19]; · iexact Hatw19
  isplitl [Hpi19]; · iexact Hpi19
  isplitl [Hpa19]; · iexact Hpa19
  isplitl [Hatw20]; · iexact Hatw20
  isplitl [Hpi20]; · iexact Hpi20
  isplitl [Hpa20]; · iexact Hpa20
  isplitl [Hatw21]; · iexact Hatw21
  isplitl [Hpi21]; · iexact Hpi21
  isplitl [Hpa21]; · iexact Hpa21
  isplitl [Hatw22]; · iexact Hatw22
  isplitl [Hpi22]; · iexact Hpi22
  isplitl [Hpa22]; · iexact Hpa22
  isplitl [Hatw23]; · iexact Hatw23
  isplitl [Hpi23]; · iexact Hpi23
  iexact Hpa23

end Cert.Kernel.Proto

end
-- ==== Proof.BodyAllBits.lean ====
/-
The body of a device, whole: from what the launch hands it, every resource apart, through the sixty-two stretches
of the kernel's body in order — each stretch's lemma applied at its call — to what the body hands back. Nothing is
said of values here: every predicate of the record of values is the true one, so every stretch's value fact holds.
-/
import proofs.«900882_g7700000000000883_dist_matmul_gelu_kshard_i_m2048_n2048_k1024_v7x_i8_f32_1_alg».proof.Proof.BodyEndBits
import proofs.«900882_g7700000000000883_dist_matmul_gelu_kshard_i_m2048_n2048_k1024_v7x_i8_f32_1_alg».proof.Proof.TopoClosedBits
import proofs.«900882_g7700000000000883_dist_matmul_gelu_kshard_i_m2048_n2048_k1024_v7x_i8_f32_1_alg».proof.Proof.Body01Bits
import proofs.«900882_g7700000000000883_dist_matmul_gelu_kshard_i_m2048_n2048_k1024_v7x_i8_f32_1_alg».proof.Proof.Body03Bits
import proofs.«900882_g7700000000000883_dist_matmul_gelu_kshard_i_m2048_n2048_k1024_v7x_i8_f32_1_alg».proof.Proof.Body04Bits
import proofs.«900882_g7700000000000883_dist_matmul_gelu_kshard_i_m2048_n2048_k1024_v7x_i8_f32_1_alg».proof.Proof.Body05Bits
import proofs.«900882_g7700000000000883_dist_matmul_gelu_kshard_i_m2048_n2048_k1024_v7x_i8_f32_1_alg».proof.Proof.Body06Bits
import proofs.«900882_g7700000000000883_dist_matmul_gelu_kshard_i_m2048_n2048_k1024_v7x_i8_f32_1_alg».proof.Proof.Body07Bits
import proofs.«900882_g7700000000000883_dist_matmul_gelu_kshard_i_m2048_n2048_k1024_v7x_i8_f32_1_alg».proof.Proof.Body08Bits
import proofs.«900882_g7700000000000883_dist_matmul_gelu_kshard_i_m2048_n2048_k1024_v7x_i8_f32_1_alg».proof.Proof.Body09Bits
import proofs.«900882_g7700000000000883_dist_matmul_gelu_kshard_i_m2048_n2048_k1024_v7x_i8_f32_1_alg».proof.Proof.Body10Bits
import proofs.«900882_g7700000000000883_dist_matmul_gelu_kshard_i_m2048_n2048_k1024_v7x_i8_f32_1_alg».proof.Proof.Body11Bits
import proofs.«900882_g7700000000000883_dist_matmul_gelu_kshard_i_m2048_n2048_k1024_v7x_i8_f32_1_alg».proof.Proof.Body12Bits
import proofs.«900882_g7700000000000883_dist_matmul_gelu_kshard_i_m2048_n2048_k1024_v7x_i8_f32_1_alg».proof.Proof.Body13Bits
import proofs.«900882_g7700000000000883_dist_matmul_gelu_kshard_i_m2048_n2048_k1024_v7x_i8_f32_1_alg».proof.Proof.Body14Bits
import proofs.«900882_g7700000000000883_dist_matmul_gelu_kshard_i_m2048_n2048_k1024_v7x_i8_f32_1_alg».proof.Proof.Body15Bits
import proofs.«900882_g7700000000000883_dist_matmul_gelu_kshard_i_m2048_n2048_k1024_v7x_i8_f32_1_alg».proof.Proof.Body16Bits
import proofs.«900882_g7700000000000883_dist_matmul_gelu_kshard_i_m2048_n2048_k1024_v7x_i8_f32_1_alg».proof.Proof.Body17Bits
import proofs.«900882_g7700000000000883_dist_matmul_gelu_kshard_i_m2048_n2048_k1024_v7x_i8_f32_1_alg».proof.Proof.Body18Bits
import proofs.«900882_g7700000000000883_dist_matmul_gelu_kshard_i_m2048_n2048_k1024_v7x_i8_f32_1_alg».proof.Proof.Body19Bits
import proofs.«900882_g7700000000000883_dist_matmul_gelu_kshard_i_m2048_n2048_k1024_v7x_i8_f32_1_alg».proof.Proof.Body20Bits
import proofs.«900882_g7700000000000883_dist_matmul_gelu_kshard_i_m2048_n2048_k1024_v7x_i8_f32_1_alg».proof.Proof.Body21Bits
import proofs.«900882_g7700000000000883_dist_matmul_gelu_kshard_i_m2048_n2048_k1024_v7x_i8_f32_1_alg».proof.Proof.Body22Bits
import proofs.«900882_g7700000000000883_dist_matmul_gelu_kshard_i_m2048_n2048_k1024_v7x_i8_f32_1_alg».proof.Proof.Body23Bits
import proofs.«900882_g7700000000000883_dist_matmul_gelu_kshard_i_m2048_n2048_k1024_v7x_i8_f32_1_alg».proof.Proof.Body24Bits
import proofs.«900882_g7700000000000883_dist_matmul_gelu_kshard_i_m2048_n2048_k1024_v7x_i8_f32_1_alg».proof.Proof.Body25Bits
import proofs.«900882_g7700000000000883_dist_matmul_gelu_kshard_i_m2048_n2048_k1024_v7x_i8_f32_1_alg».proof.Proof.Body26Bits
import proofs.«900882_g7700000000000883_dist_matmul_gelu_kshard_i_m2048_n2048_k1024_v7x_i8_f32_1_alg».proof.Proof.Body27Bits
import proofs.«900882_g7700000000000883_dist_matmul_gelu_kshard_i_m2048_n2048_k1024_v7x_i8_f32_1_alg».proof.Proof.Body28Bits
import proofs.«900882_g7700000000000883_dist_matmul_gelu_kshard_i_m2048_n2048_k1024_v7x_i8_f32_1_alg».proof.Proof.Body29Bits
import proofs.«900882_g7700000000000883_dist_matmul_gelu_kshard_i_m2048_n2048_k1024_v7x_i8_f32_1_alg».proof.Proof.Body30Bits
import proofs.«900882_g7700000000000883_dist_matmul_gelu_kshard_i_m2048_n2048_k1024_v7x_i8_f32_1_alg».proof.Proof.Body31Bits
import proofs.«900882_g7700000000000883_dist_matmul_gelu_kshard_i_m2048_n2048_k1024_v7x_i8_f32_1_alg».proof.Proof.Body32Bits
import proofs.«900882_g7700000000000883_dist_matmul_gelu_kshard_i_m2048_n2048_k1024_v7x_i8_f32_1_alg».proof.Proof.Body33Bits
import proofs.«900882_g7700000000000883_dist_matmul_gelu_kshard_i_m2048_n2048_k1024_v7x_i8_f32_1_alg».proof.Proof.Body34Bits
import proofs.«900882_g7700000000000883_dist_matmul_gelu_kshard_i_m2048_n2048_k1024_v7x_i8_f32_1_alg».proof.Proof.Body35Bits
import proofs.«900882_g7700000000000883_dist_matmul_gelu_kshard_i_m2048_n2048_k1024_v7x_i8_f32_1_alg».proof.Proof.Body36Bits
import proofs.«900882_g7700000000000883_dist_matmul_gelu_kshard_i_m2048_n2048_k1024_v7x_i8_f32_1_alg».proof.Proof.Body37Bits
import proofs.«900882_g7700000000000883_dist_matmul_gelu_kshard_i_m2048_n2048_k1024_v7x_i8_f32_1_alg».proof.Proof.Body38Bits
import proofs.«900882_g7700000000000883_dist_matmul_gelu_kshard_i_m2048_n2048_k1024_v7x_i8_f32_1_alg».proof.Proof.Body39Bits
import proofs.«900882_g7700000000000883_dist_matmul_gelu_kshard_i_m2048_n2048_k1024_v7x_i8_f32_1_alg».proof.Proof.Body40Bits
import proofs.«900882_g7700000000000883_dist_matmul_gelu_kshard_i_m2048_n2048_k1024_v7x_i8_f32_1_alg».proof.Proof.Body41Bits
import proofs.«900882_g7700000000000883_dist_matmul_gelu_kshard_i_m2048_n2048_k1024_v7x_i8_f32_1_alg».proof.Proof.Body42Bits
import proofs.«900882_g7700000000000883_dist_matmul_gelu_kshard_i_m2048_n2048_k1024_v7x_i8_f32_1_alg».proof.Proof.Body43Bits
import proofs.«900882_g7700000000000883_dist_matmul_gelu_kshard_i_m2048_n2048_k1024_v7x_i8_f32_1_alg».proof.Proof.Body44Bits
import proofs.«900882_g7700000000000883_dist_matmul_gelu_kshard_i_m2048_n2048_k1024_v7x_i8_f32_1_alg».proof.Proof.Body45Bits
import proofs.«900882_g7700000000000883_dist_matmul_gelu_kshard_i_m2048_n2048_k1024_v7x_i8_f32_1_alg».proof.Proof.Body46Bits
import proofs.«900882_g7700000000000883_dist_matmul_gelu_kshard_i_m2048_n2048_k1024_v7x_i8_f32_1_alg».proof.Proof.Body47Bits
import proofs.«900882_g7700000000000883_dist_matmul_gelu_kshard_i_m2048_n2048_k1024_v7x_i8_f32_1_alg».proof.Proof.Body48Bits
import proofs.«900882_g7700000000000883_dist_matmul_gelu_kshard_i_m2048_n2048_k1024_v7x_i8_f32_1_alg».proof.Proof.Body49Bits
import proofs.«900882_g7700000000000883_dist_matmul_gelu_kshard_i_m2048_n2048_k1024_v7x_i8_f32_1_alg».proof.Proof.Body50Bits
import proofs.«900882_g7700000000000883_dist_matmul_gelu_kshard_i_m2048_n2048_k1024_v7x_i8_f32_1_alg».proof.Proof.Body51Bits
import proofs.«900882_g7700000000000883_dist_matmul_gelu_kshard_i_m2048_n2048_k1024_v7x_i8_f32_1_alg».proof.Proof.Body52Bits
import proofs.«900882_g7700000000000883_dist_matmul_gelu_kshard_i_m2048_n2048_k1024_v7x_i8_f32_1_alg».proof.Proof.Body53Bits
import proofs.«900882_g7700000000000883_dist_matmul_gelu_kshard_i_m2048_n2048_k1024_v7x_i8_f32_1_alg».proof.Proof.Body54Bits
import proofs.«900882_g7700000000000883_dist_matmul_gelu_kshard_i_m2048_n2048_k1024_v7x_i8_f32_1_alg».proof.Proof.Body55Bits
import proofs.«900882_g7700000000000883_dist_matmul_gelu_kshard_i_m2048_n2048_k1024_v7x_i8_f32_1_alg».proof.Proof.Body56Bits
import proofs.«900882_g7700000000000883_dist_matmul_gelu_kshard_i_m2048_n2048_k1024_v7x_i8_f32_1_alg».proof.Proof.Body57Bits
import proofs.«900882_g7700000000000883_dist_matmul_gelu_kshard_i_m2048_n2048_k1024_v7x_i8_f32_1_alg».proof.Proof.Body58Bits
import proofs.«900882_g7700000000000883_dist_matmul_gelu_kshard_i_m2048_n2048_k1024_v7x_i8_f32_1_alg».proof.Proof.Body59Bits
import proofs.«900882_g7700000000000883_dist_matmul_gelu_kshard_i_m2048_n2048_k1024_v7x_i8_f32_1_alg».proof.Proof.Body60Bits
import proofs.«900882_g7700000000000883_dist_matmul_gelu_kshard_i_m2048_n2048_k1024_v7x_i8_f32_1_alg».proof.Proof.Body61Bits
import proofs.«900882_g7700000000000883_dist_matmul_gelu_kshard_i_m2048_n2048_k1024_v7x_i8_f32_1_alg».proof.Proof.Body62Bits

set_option maxRecDepth 65536

noncomputable section

namespace Cert.Kernel.Proto

open Cert.Kernel Cert.Kernel.Gen Cert.Kernel.Topo
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- Nothing is said of any value: every predicate holds of everything. -/
def Vtrue : Vals F := by constructor <;> exact fun _ _ => True

variable (m : (ℓ : Loc nD τ sig) → Buf (Elt F) ℓ) (ρ : Dev nD → PrngReg)

set_option maxHeartbeats 400000000 in
theorem body_run (c : Dev nD) (K : Dev nD × Fin 97 → ℕ) (W : Waits sig Unit) :
    bodyStart m (Vtrue (F := F)) K c W
      ⊢ wp frame (wpE (defs₀ (F := F)) 𝒱₀ c none) Set.univ
          (cc0_body (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23)
          (fun _ => iprop(∃ W', bodyEnd m (Vtrue (F := F)) K c W')) := by
  unfold bodyStart ownRecs paidRecs toksLit posLit credLit bufsLit
  iintro ⟨⟨#Hlev, ⟨⟨#HI_bar, #HR_bar⟩, ⟨#HI_rsS00, #HR_rsS00⟩, ⟨#HI_rsS01, #HR_rsS01⟩, ⟨#HI_rsS02, #HR_rsS02⟩, ⟨#HI_rsS10, #HR_rsS10⟩, ⟨#HI_rsS11, #HR_rsS11⟩, ⟨#HI_rsS12, #HR_rsS12⟩, ⟨#HI_rsS20, #HR_rsS20⟩, ⟨#HI_rsS21, #HR_rsS21⟩, ⟨#HI_rsS22, #HR_rsS22⟩, ⟨#HI_rsS30, #HR_rsS30⟩, ⟨#HI_rsS31, #HR_rsS31⟩, ⟨#HI_rsS32, #HR_rsS32⟩, ⟨#HI_rsS40, #HR_rsS40⟩, ⟨#HI_rsS41, #HR_rsS41⟩, ⟨#HI_rsS42, #HR_rsS42⟩, ⟨#HI_rsS50, #HR_rsS50⟩, ⟨#HI_rsS51, #HR_rsS51⟩, ⟨#HI_rsS52, #HR_rsS52⟩, ⟨#HI_rsR00, #HR_rsR00⟩, ⟨#HI_rsR01, #HR_rsR01⟩, ⟨#HI_rsR02, #HR_rsR02⟩, ⟨#HI_rsR10, #HR_rsR10⟩, ⟨#HI_rsR11, #HR_rsR11⟩, ⟨#HI_rsR12, #HR_rsR12⟩, ⟨#HI_rsR20, #HR_rsR20⟩, ⟨#HI_rsR21, #HR_rsR21⟩, ⟨#HI_rsR22, #HR_rsR22⟩, ⟨#HI_rsR30, #HR_rsR30⟩, ⟨#HI_rsR31, #HR_rsR31⟩, ⟨#HI_rsR32, #HR_rsR32⟩, ⟨#HI_rsR40, #HR_rsR40⟩, ⟨#HI_rsR41, #HR_rsR41⟩, ⟨#HI_rsR42, #HR_rsR42⟩, ⟨#HI_rsR50, #HR_rsR50⟩, ⟨#HI_rsR51, #HR_rsR51⟩, ⟨#HI_rsR52, #HR_rsR52⟩, ⟨#HI_agS00, #HR_agS00⟩, ⟨#HI_agS01, #HR_agS01⟩, ⟨#HI_agS02, #HR_agS02⟩, ⟨#HI_agS10, #HR_agS10⟩, ⟨#HI_agS11, #HR_agS11⟩, ⟨#HI_agS12, #HR_agS12⟩, ⟨#HI_agS20, #HR_agS20⟩, ⟨#HI_agS21, #HR_agS21⟩, ⟨#HI_agS22, #HR_agS22⟩, ⟨#HI_agS30, #HR_agS30⟩, ⟨#HI_agS31, #HR_agS31⟩, ⟨#HI_agS32, #HR_agS32⟩, ⟨#HI_agS40, #HR_agS40⟩, ⟨#HI_agS41, #HR_agS41⟩, ⟨#HI_agS42, #HR_agS42⟩, ⟨#HI_agS50, #HR_agS50⟩, ⟨#HI_agS51, #HR_agS51⟩, ⟨#HI_agS52, #HR_agS52⟩, ⟨#HI_agR00, #HR_agR00⟩, ⟨#HI_agR01, #HR_agR01⟩, ⟨#HI_agR02, #HR_agR02⟩, ⟨#HI_agR10, #HR_agR10⟩, ⟨#HI_agR11, #HR_agR11⟩, ⟨#HI_agR12, #HR_agR12⟩, ⟨#HI_agR20, #HR_agR20⟩, ⟨#HI_agR21, #HR_agR21⟩, ⟨#HI_agR22, #HR_agR22⟩, ⟨#HI_agR30, #HR_agR30⟩, ⟨#HI_agR31, #HR_agR31⟩, ⟨#HI_agR32, #HR_agR32⟩, ⟨#HI_agR40, #HR_agR40⟩, ⟨#HI_agR41, #HR_agR41⟩, ⟨#HI_agR42, #HR_agR42⟩, ⟨#HI_agR50, #HR_agR50⟩, ⟨#HI_agR51, #HR_agR51⟩, ⟨#HI_agR52, #HR_agR52⟩, ⟨#HI_out0, #HR_out0⟩, ⟨#HI_out1, #HR_out1⟩, ⟨#HI_out2, #HR_out2⟩, ⟨#HI_out3, #HR_out3⟩, ⟨#HI_out4, #HR_out4⟩, ⟨#HI_out5, #HR_out5⟩, ⟨#HI_out6, #HR_out6⟩, ⟨#HI_out7, #HR_out7⟩, ⟨#HI_out8, #HR_out8⟩, ⟨#HI_out9, #HR_out9⟩, ⟨#HI_out10, #HR_out10⟩, ⟨#HI_out11, #HR_out11⟩, ⟨#HI_out12, #HR_out12⟩, ⟨#HI_out13, #HR_out13⟩, ⟨#HI_out14, #HR_out14⟩, ⟨#HI_out15, #HR_out15⟩, ⟨#HI_out16, #HR_out16⟩, ⟨#HI_out17, #HR_out17⟩, ⟨#HI_out18, #HR_out18⟩, ⟨#HI_out19, #HR_out19⟩, ⟨#HI_out20, #HR_out20⟩, ⟨#HI_out21, #HR_out21⟩, ⟨#HI_out22, #HR_out22⟩, ⟨#HI_out23, #HR_out23⟩⟩, ⟨⟨⟨#HIn_bar0, #HRn_bar0⟩, ⟨#HIn_bar1, #HRn_bar1⟩, ⟨#HIn_bar2, #HRn_bar2⟩⟩, ⟨⟨#HIn_rsR00, #HRn_rsR00⟩, ⟨#HIn_rsR01, #HRn_rsR01⟩, ⟨#HIn_rsR02, #HRn_rsR02⟩, ⟨#HIn_rsR10, #HRn_rsR10⟩, ⟨#HIn_rsR11, #HRn_rsR11⟩, ⟨#HIn_rsR12, #HRn_rsR12⟩, ⟨#HIn_rsR20, #HRn_rsR20⟩, ⟨#HIn_rsR21, #HRn_rsR21⟩, ⟨#HIn_rsR22, #HRn_rsR22⟩, ⟨#HIn_rsR30, #HRn_rsR30⟩, ⟨#HIn_rsR31, #HRn_rsR31⟩, ⟨#HIn_rsR32, #HRn_rsR32⟩, ⟨#HIn_rsR40, #HRn_rsR40⟩, ⟨#HIn_rsR41, #HRn_rsR41⟩, ⟨#HIn_rsR42, #HRn_rsR42⟩, ⟨#HIn_rsR50, #HRn_rsR50⟩, ⟨#HIn_rsR51, #HRn_rsR51⟩, ⟨#HIn_rsR52, #HRn_rsR52⟩⟩, ⟨⟨#HIn_agR00, #HRn_agR00⟩, ⟨#HIn_agR01, #HRn_agR01⟩, ⟨#HIn_agR02, #HRn_agR02⟩, ⟨#HIn_agR10, #HRn_agR10⟩, ⟨#HIn_agR11, #HRn_agR11⟩, ⟨#HIn_agR12, #HRn_agR12⟩, ⟨#HIn_agR20, #HRn_agR20⟩, ⟨#HIn_agR21, #HRn_agR21⟩, ⟨#HIn_agR22, #HRn_agR22⟩, ⟨#HIn_agR30, #HRn_agR30⟩, ⟨#HIn_agR31, #HRn_agR31⟩, ⟨#HIn_agR32, #HRn_agR32⟩, ⟨#HIn_agR40, #HRn_agR40⟩, ⟨#HIn_agR41, #HRn_agR41⟩, ⟨#HIn_agR42, #HRn_agR42⟩, ⟨#HIn_agR50, #HRn_agR50⟩, ⟨#HIn_agR51, #HRn_agR51⟩, ⟨#HIn_agR52, #HRn_agR52⟩⟩⟩⟩, ⟨⟨Ht_bar0, Ht_bar1, Ht_bar2⟩, ⟨Ht_rsR00, Ht_rsR01, Ht_rsR02, Ht_rsR10, Ht_rsR11, Ht_rsR12, Ht_rsR20, Ht_rsR21, Ht_rsR22, Ht_rsR30, Ht_rsR31, Ht_rsR32, Ht_rsR40, Ht_rsR41, Ht_rsR42, Ht_rsR50, Ht_rsR51, Ht_rsR52⟩, ⟨Ht_agR00, Ht_agR01, Ht_agR02, Ht_agR10, Ht_agR11, Ht_agR12, Ht_agR20, Ht_agR21, Ht_agR22, Ht_agR30, Ht_agR31, Ht_agR32, Ht_agR40, Ht_agR41, Ht_agR42, Ht_agR50, Ht_agR51, Ht_agR52⟩, ⟨Ht_rsS00, Ht_rsS01, Ht_rsS02, Ht_rsS10, Ht_rsS11, Ht_rsS12, Ht_rsS20, Ht_rsS21, Ht_rsS22, Ht_rsS30, Ht_rsS31, Ht_rsS32, Ht_rsS40, Ht_rsS41, Ht_rsS42, Ht_rsS50, Ht_rsS51, Ht_rsS52⟩, ⟨Ht_agS00, Ht_agS01, Ht_agS02, Ht_agS10, Ht_agS11, Ht_agS12, Ht_agS20, Ht_agS21, Ht_agS22, Ht_agS30, Ht_agS31, Ht_agS32, Ht_agS40, Ht_agS41, Ht_agS42, Ht_agS50, Ht_agS51, Ht_agS52⟩, ⟨Ht_out0, Ht_out1, Ht_out2, Ht_out3, Ht_out4, Ht_out5, Ht_out6, Ht_out7, Ht_out8, Ht_out9, Ht_out10, Ht_out11, Ht_out12, Ht_out13, Ht_out14, Ht_out15, Ht_out16, Ht_out17, Ht_out18, Ht_out19, Ht_out20, Ht_out21, Ht_out22, Ht_out23⟩⟩, ⟨Hat_bar, Hat_rsS00, Hat_rsS01, Hat_rsS02, Hat_rsS10, Hat_rsS11, Hat_rsS12, Hat_rsS20, Hat_rsS21, Hat_rsS22, Hat_rsS30, Hat_rsS31, Hat_rsS32, Hat_rsS40, Hat_rsS41, Hat_rsS42, Hat_rsS50, Hat_rsS51, Hat_rsS52, Hat_rsR00, Hat_rsR01, Hat_rsR02, Hat_rsR10, Hat_rsR11, Hat_rsR12, Hat_rsR20, Hat_rsR21, Hat_rsR22, Hat_rsR30, Hat_rsR31, Hat_rsR32, Hat_rsR40, Hat_rsR41, Hat_rsR42, Hat_rsR50, Hat_rsR51, Hat_rsR52, Hat_agS00, Hat_agS01, Hat_agS02, Hat_agS10, Hat_agS11, Hat_agS12, Hat_agS20, Hat_agS21, Hat_agS22, Hat_agS30, Hat_agS31, Hat_agS32, Hat_agS40, Hat_agS41, Hat_agS42, Hat_agS50, Hat_agS51, Hat_agS52, Hat_agR00, Hat_agR01, Hat_agR02, Hat_agR10, Hat_agR11, Hat_agR12, Hat_agR20, Hat_agR21, Hat_agR22, Hat_agR30, Hat_agR31, Hat_agR32, Hat_agR40, Hat_agR41, Hat_agR42, Hat_agR50, Hat_agR51, Hat_agR52, Hat_out0, Hat_out1, Hat_out2, Hat_out3, Hat_out4, Hat_out5, Hat_out6, Hat_out7, Hat_out8, Hat_out9, Hat_out10, Hat_out11, Hat_out12, Hat_out13, Hat_out14, Hat_out15, Hat_out16, Hat_out17, Hat_out18, Hat_out19, Hat_out20, Hat_out21, Hat_out22, Hat_out23⟩, ⟨Hc_bar, ⟨Hc_rsR00, Hc_rsR01, Hc_rsR02, Hc_rsR10, Hc_rsR11, Hc_rsR12, Hc_rsR20, Hc_rsR21, Hc_rsR22, Hc_rsR30, Hc_rsR31, Hc_rsR32, Hc_rsR40, Hc_rsR41, Hc_rsR42, Hc_rsR50, Hc_rsR51, Hc_rsR52⟩, ⟨Hc_agR00, Hc_agR01, Hc_agR02, Hc_agR10, Hc_agR11, Hc_agR12, Hc_agR20, Hc_agR21, Hc_agR22, Hc_agR30, Hc_agR31, Hc_agR32, Hc_agR40, Hc_agR41, Hc_agR42, Hc_agR50, Hc_agR51, Hc_agR52⟩⟩, HO, ⟨HA, HB, Hout, ⟨%facc, Hacc⟩, ⟨⟨%fstg0, Hstg0⟩, ⟨%fstg1, Hstg1⟩, ⟨%fstg2, Hstg2⟩, ⟨%fstg3, Hstg3⟩, ⟨%fstg4, Hstg4⟩, ⟨%fstg5, Hstg5⟩⟩, ⟨Hbp0, Hbp1, Hbp2⟩, ⟨⟨%fown0, Hown0⟩, ⟨%fown1, Hown1⟩, ⟨%fown2, Hown2⟩, ⟨%fown3, Hown3⟩, ⟨%fown4, Hown4⟩, ⟨%fown5, Hown5⟩⟩⟩⟩
  have hcut1 := fun κ0 κ1 κ2 κb W fa fb => part1_run (Vtrue (F := F)) c κ0 κ1 κ2 κb W fa fb
  have hcut2 := fun κs κr W v2 v6 v8 v25 v27 fa fb f10 f11 => part2_run (Vtrue (F := F)) c κs κr W v2 v6 v8 v25 v27 fa fb f10 f11 (by intros; trivial)
  have hcut3 := fun κs κr W v2 v8 v9 v58 fa fb f11 f12 => part3_run (Vtrue (F := F)) c κs κr W v2 v8 v9 v58 fa fb f11 f12 (by intros; trivial)
  have hcut4 := fun κs2 κr2 κs3 κr3 W v2 v6 v8 v9 fa fb f12 f13 => part4_run (Vtrue (F := F)) c κs2 κr2 κs3 κr3 W v2 v6 v8 v9 fa fb f12 f13 (by intros; trivial) (by intros; trivial)
  have hcut5 := fun κs κr W v2 v8 v9 v121 fa fb f14 f15 => part5_run (Vtrue (F := F)) c κs κr W v2 v8 v9 v121 fa fb f14 f15 (by intros; trivial)
  have hcut6 := fun κs κr W v2 v9 v43 v67 v91 fa fb f15 f3 => part6_run (Vtrue (F := F)) c κs κr W v2 v9 v43 v67 v91 fa fb f15 f3 (by intros; trivial)
  have hcut7 := fun v91 v115 v139 v163 fa fb f3 => part7_run (F := F) c v91 v115 v139 v163 fa fb f3
  have hcut8 := fun κw1 κw2 W v8 v34 v43 v163 v227 fb f3 => part8_run (Vtrue (F := F)) c κw1 κw2 W v8 v34 v43 v163 v227 fb f3
  have hcut9 := fun κs κr W v2 v43 v248 v250 v252 v257 fs fr f3 => part9_run (Vtrue (F := F)) c κs κr W v2 v43 v248 v250 v252 v257 fs fr f3 (by intros; trivial)
  have hcut10 := fun κw1 κw2 W v9 v58 v67 f3 => part10_run (Vtrue (F := F)) c κw1 κw2 W v9 v58 v67 f3
  have hcut11 := fun κs κr κw1 W v2 v67 v82 v304 v322 fs fr f3 => part11_run (Vtrue (F := F)) c κs κr κw1 W v2 v67 v82 v304 v322 fs fr f3 (by intros; trivial)
  have hcut12 := fun κw2 W v2 v6 v91 v348 c0_i32_257 fs f3 => part12_run (Vtrue (F := F)) c κw2 W v2 v6 v91 v348 c0_i32_257 fs f3
  have hcut13 := fun κs κr κw1 κw2 W v8 v91 v106 v115 v358 fs fr f3 => part13_run (Vtrue (F := F)) c κs κr κw1 κw2 W v8 v91 v106 v115 v358 fs fr f3 (by intros; trivial)
  have hcut14 := fun κs κr W v2 v8 v115 v410 c512_i32_308 f3 f13 fl => part14_run (Vtrue (F := F)) c κs κr W v2 v8 v115 v410 c512_i32_308 f3 f13 fl (by intros; trivial)
  have hcut15 := fun κw κv W v9 v130 v139 v412 v441 v446 f3 => part15_run (Vtrue (F := F)) c κw κv W v9 v130 v139 v412 v441 v446 f3
  have hcut16 := fun κs κr W v2 v139 v464 v466 v474 v476 f3 f14 fl => part16_run (Vtrue (F := F)) c κs κr W v2 v139 v464 v466 v474 v476 f3 f14 fl (by intros; trivial)
  have hcut17 := fun κw κv W v2 v6 v154 v163 f3 => part17_run (Vtrue (F := F)) c κw κv W v2 v6 v154 v163 f3
  have hcut18 := fun κs κr κw W v163 v269 v520 v539 f3 f9 f15 => part18_run (Vtrue (F := F)) c κs κr κw W v163 v269 v520 v539 f3 f9 f15 (by intros; trivial)
  have hcut19 := fun κw W v2 v9 v250 f3 f10 => part19_run (Vtrue (F := F)) c κw W v2 v9 v250 f3 f10
  have hcut20 := fun κs κr κw κv W v6 v250 v304 v323 v574 f3 f10 fl => part20_run (Vtrue (F := F)) c κs κr κw κv W v6 v250 v304 v323 v574 f3 f10 fl (by intros; trivial)
  have hcut21 := fun κs κr W v2 v304 v626 v628 f3 f11 fl => part21_run (Vtrue (F := F)) c κs κr W v2 v304 v626 v628 f3 f11 fl (by intros; trivial)
  have hcut22 := fun κw κv W v8 v358 v377 v663 v665 f3 => part22_run (Vtrue (F := F)) c κw κv W v8 v358 v377 v663 v665 f3
  have hcut23 := fun κs κr W v2 v358 v682 f3 f12 fl => part23_run (Vtrue (F := F)) c κs κr W v2 v358 v682 f3 f12 fl (by intros; trivial)
  have hcut24 := fun κw κv W v2 v9 v412 v431 f3 => part24_run (Vtrue (F := F)) c κw κv W v2 v9 v412 v431 f3
  have hcut25 := fun κs κr κw W v412 v485 v736 v755 c1_i32_583 f3 f13 fl => part25_run (Vtrue (F := F)) c κs κr κw W v412 v485 v736 v755 c1_i32_583 f3 f13 fl (by intros; trivial)
  have hcut26 := fun κv κs κr W v2 v6 v466 f3 f14 => part26_run (Vtrue (F := F)) c κv κs κr W v2 v6 v466 f3 f14 (by intros; trivial)
  have hcut27 := fun κw κv W v8 v466 v520 v539 v790 f3 fl => part27_run (Vtrue (F := F)) c κw κv W v8 v466 v520 v539 v790 f3 fl
  have hcut28 := fun κs κr W v2 v520 v842 v844 v846 v848 f3 f15 fl => part28_run (Vtrue (F := F)) c κs κr W v2 v520 v842 v844 v846 v848 f3 f15 fl (by intros; trivial)
  have hcut29 := fun κw κv W v574 v593 f3 => part29_run (Vtrue (F := F)) c κw κv W v574 v593 f3
  have hcut30 := fun κo κw κv W v574 v628 v647 v909 v914 cst_707 f3 fa fo => part30_run (Vtrue (F := F)) c κo κw κv W v574 v628 v647 v909 v914 cst_707 f3 fa fo (by intros; trivial)
  have hcut31 := fun κo v628 fb fl fa fo => part31_run (Vtrue (F := F)) c κo v628 fb fl fa fo (by intros; trivial)
  have hcut32 := fun κw κv W v682 v701 fb => part32_run (Vtrue (F := F)) c κw κv W v682 v701 fb
  have hcut33 := fun κo κs κr W v682 v736 v755 v1009 v1016 f2 f3 g2 fd => part33_run (Vtrue (F := F)) c κo κs κr W v682 v736 v755 v1009 v1016 f2 f3 g2 fd (by intros; trivial)
  have hcut34 := fun κo v736 v1045 f3 fc g3 fd => part34_run (Vtrue (F := F)) c κo v736 v1045 f3 fc g3 fd (by intros; trivial)
  have hcut35 := fun κs κr W v790 v809 f4 => part35_run (Vtrue (F := F)) c κs κr W v790 v809 f4
  have hcut36 := fun κo κs κr W v790 v844 v863 v1109 v1117 cst_837 f4 f5 g4 fd => part36_run (Vtrue (F := F)) c κo κs κr W v790 v844 v863 v1109 v1117 cst_837 f4 f5 g4 fd (by intros; trivial)
  have hcut37 := fun κo v2 v844 v1145 v1146 c1536_i32_863 f5 fc g5 fd => part37_run (Vtrue (F := F)) c κo v2 v844 v1145 v1146 c1536_i32_863 f5 fc g5 fd (by intros; trivial)
  have hcut38 := fun κs0 κr0 κs1 κr1 W v2 v6 v9 v574 v628 v1184 c1_i32_880 g0 g1 => part38_run (Vtrue (F := F)) c κs0 κr0 κs1 κr1 W v2 v6 v9 v574 v628 v1184 c1_i32_880 g0 g1 (by intros; trivial) (by intros; trivial)
  have hcut39 := fun κs2 κr2 κs3 κr3 κs4 κr4 W v2 v8 v9 v682 v736 g2 g3 g4 => part39_run (Vtrue (F := F)) c κs2 κr2 κs3 κr3 κs4 κr4 W v2 v8 v9 v682 v736 g2 g3 g4 (by intros; trivial) (by intros; trivial) (by intros; trivial)
  have hcut40 := fun κs5 κr5 κwS W v2 v6 v8 v790 v844 v1184 g5 => part40_run (Vtrue (F := F)) c κs5 κr5 κwS W v2 v6 v8 v790 v844 v1184 g5 (by intros; trivial)
  have hcut41 := fun κwR κs κr κo κw1 W v2 v8 v1194 v1197 g0 f6 fd => part41_run (Vtrue (F := F)) c κwR κs κr κo κw1 W v2 v8 v1194 v1197 g0 f6 fd (by intros; trivial) (by intros; trivial)
  have hcut42 := fun κwR κs κr κo W v2 v9 v1198 v1208 v1211 g1 f7 fd => part42_run (Vtrue (F := F)) c κwR κs κr κo W v2 v9 v1198 v1208 v1211 g1 f7 fd (by intros; trivial) (by intros; trivial)
  have hcut43 := fun κwS κwR κs κr W v2 v6 v1212 v1222 v1225 g2 f8 => part43_run (Vtrue (F := F)) c κwS κwR κs κr W v2 v6 v1212 v1222 v1225 g2 f8 (by intros; trivial)
  have hcut44 := fun κo κwS κwR κs κr W v2 v8 v1226 v1236 v1364 v1366 g3 f8 fd => part44_run (Vtrue (F := F)) c κo κwS κwR κs κr W v2 v8 v1226 v1236 v1364 v1366 g3 f8 fd (by intros; trivial) (by intros; trivial)
  have hcut45 := fun κo κwS κwR W v2 v8 v1239 v1240 v1393 g31 f9 fd => part45_run (Vtrue (F := F)) c κo κwS κwR W v2 v8 v1239 v1240 v1393 g31 f9 fd (by intros; trivial)
  have hcut46 := fun κs κr κo κw W v9 v1250 v1253 v1254 g0 fa fo fd => part46_run (Vtrue (F := F)) c κs κr κo κw W v9 v1250 v1253 v1254 g0 fa fo fd (by intros; trivial) (by intros; trivial)
  have hcut47 := fun κwR κs κr κo κw1 W v2 v6 v1264 v1267 g0 fo fd => part47_run (Vtrue (F := F)) c κwR κs κr κo κw1 W v2 v6 v1264 v1267 g0 fo fd (by intros; trivial) (by intros; trivial)
  have hcut48 := fun κr1 κs κr κo W v2 v6 v1278 v1288 v1291 g1 f12 fd => part48_run (Vtrue (F := F)) c κr1 κs κr κo W v2 v6 v1278 v1288 v1291 g1 f12 fd (by intros; trivial) (by intros; trivial)
  have hcut49 := fun κs1 κr1 κs κr W v2 v8 v1313 v1323 v1326 g1 f13 => part49_run (Vtrue (F := F)) c κs1 κr1 κs κr W v2 v8 v1313 v1323 v1326 g1 f13 (by intros; trivial)
  have hcut50 := fun κo κs1 κr1 κs κr W v2 v9 v1348 v1358 v1539 v1541 g1 f13 fd => part50_run (Vtrue (F := F)) c κo κs1 κr1 κs κr W v2 v9 v1348 v1358 v1539 v1541 g1 f13 fd (by intros; trivial) (by intros; trivial)
  have hcut51 := fun κo κs1 κr1 W v2 v9 v1361 v1383 v1568 g2 f14 fd => part51_run (Vtrue (F := F)) c κo κs1 κr1 W v2 v9 v1361 v1383 v1568 g2 f14 fd (by intros; trivial)
  have hcut52 := fun κs κr κo κs1 W v6 v1393 v1396 v1418 g1 f3 f15 fd => part52_run (Vtrue (F := F)) c κs κr κo κs1 W v6 v1393 v1396 v1418 g1 f3 f15 fd (by intros; trivial) (by intros; trivial)
  have hcut53 := fun κr1 κs κr κo κs1 W v2 v8 v1428 v1431 g1 f16 fd => part53_run (Vtrue (F := F)) c κr1 κs κr κo κs1 W v2 v8 v1428 v1431 g1 f16 fd (by intros; trivial) (by intros; trivial)
  have hcut54 := fun κr1 κs κr κo W v2 v9 v1453 v1463 v1466 g1 f17 fd => part54_run (Vtrue (F := F)) c κr1 κs κr κo W v2 v9 v1453 v1463 v1466 g1 f17 fd (by intros; trivial) (by intros; trivial)
  have hcut55 := fun κs0 κr0 κo κs1 W v1488 v1501 f18 fd => part55_run (Vtrue (F := F)) c κs0 κr0 κo κs1 W v1488 v1501 f18 fd (by intros; trivial)
  have hcut56 := fun κa κo19 κb κd W v1523 v1536 v1558 v1571 fb fo => part56_run (Vtrue (F := F)) c κa κo19 κb κd W v1523 v1536 v1558 v1571 fb fo (by intros; trivial)
  have hcut57 := fun κo20 κo21 κb κd W v1571 v1593 v1606 v1742 fb20 fo20 fb21 fo21 => part57_run (Vtrue (F := F)) c κo20 κo21 κb κd W v1571 v1593 v1606 v1742 fb20 fo20 fb21 fo21 (by intros; trivial) (by intros; trivial)
  have hcut58 := fun κb κd κo22 κe W v1628 v1641 fb fo => part58_run (Vtrue (F := F)) c κb κd κo22 κe W v1628 v1641 fb fo (by intros; trivial)
  have hcut59 := fun κd κo23 κw0 κw1 κw2 W v1663 v1676 fb fo => part59_run (Vtrue (F := F)) c κd κo23 κw0 κw1 κw2 W v1663 v1676 fb fo (by intros; trivial)
  have hcut60 := fun κw3 κw4 κw5 κw6 κw7 κw8 κw9 κw10 W => part60_run (Vtrue (F := F)) c κw3 κw4 κw5 κw6 κw7 κw8 κw9 κw10 W
  have hcut61 := fun κw11 κw12 κw13 κw14 κw15 κw16 κw17 W => part61_run (Vtrue (F := F)) c κw11 κw12 κw13 κw14 κw15 κw16 κw17 W
  have hcutTail := fun κw18 κw19 κw20 κw21 κw22 κw23 W => tail_run (Vtrue (F := F)) c κw18 κw19 κw20 κw21 κw22 κw23 W
  rw [cc0_body_tail]
  unfold k0_part62
  set_option sl_exec.maxSteps 2 in sl_exec
  injection hk0_part1_0 with hd0 hrest
  subst hd0
  clear hrest
  sl_exec
  iexists _
  unfold bodyEnd ownRecs pos1Lit dstLit accLit commEnd stgEnd agEnd
  sl_close

end Cert.Kernel.Proto

end
-- ==== Proof.BodyObBits.lean ====
/-
The body obligation of the region from the run of the body: the prologue takes what the region hands the body to
the body's starting state, the run takes the starting state through the program to the end state, and the
epilogue closes the cells, joins the buffers and hands the region what it expects.
-/
import proofs.«900882_g7700000000000883_dist_matmul_gelu_kshard_i_m2048_n2048_k1024_v7x_i8_f32_1_alg».proof.Proof.BodyAllBits

set_option maxRecDepth 100000

noncomputable section

namespace Cert.Kernel.Proto

open Cert.Kernel Cert.Kernel.Gen Cert.Kernel.Topo
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (V : Vals F)

/-- The library's body obligation on device c, from the run of the body between its starting state and its end state. -/
theorem body_obligation_of (hres : ∀ c g, outFacts V c g → V.res c g) (c : Dev nD)
    (hrun : ∀ (K : Dev nD × Fin 97 → ℕ) (W : Waits sig Unit), bodyStart m V K c W
      ⊢ wp frame (wpE (defs₀ (F := F)) 𝒱₀ c none) Set.univ
          (defs₀ (F := F) .tc cfg0.body (cfg0.bodyArgs t0_0 (cfg0.slots t0_0))) (fun _ => iprop(∃ W', bodyEnd m V K c W'))) :
    BodyObligation (dats m ρ V 0 c) (defs₀ (F := F)) 𝒱₀ () Set.univ := fun t => by
  rw [fin_N0 t]
  rw [bigSep_W0, bigSep_W0]
  simp only [owns_whole_eq]
  show bodyPre' m ρ V c ⊢ wp frame (wpE (defs₀ (F := F)) 𝒱₀ c none) Set.univ
    (defs₀ (F := F) .tc cfg0.body (cfg0.bodyArgs t0_0 (cfg0.slots t0_0))) (fun _ => bodyPost' m ρ V c)
  have hend (K : Dev nD × Fin 97 → ℕ) : (iprop(∃ W', bodyEnd m V K c W') : sProp 𝕄) ⊢ iprop(|={Set.univ}[frame]=> bodyPost' m ρ V c) := by
    iintro ⟨%W', H⟩
    imod (epilogue_end m ρ V hres K c W') $$ H with H'
    imodintro
    iexact H'
  iintro H
  ihave H' := (prologue m ρ V c) $$ H
  icases H' with ⟨%K, %W, Hs⟩
  iapply (wp_fupd frame (wpE (defs₀ (F := F)) 𝒱₀ c none) Set.univ _ _)
  iapply (wp_mono frame (wpE (defs₀ (F := F)) 𝒱₀ c none) Set.univ fun _ => hend K)
  iapply (hrun K W)
  iexact Hs

/-- The library's body obligation on device c, at the result predicates that hold of everything. -/
theorem body_obligation (c : Dev nD) : BodyObligation (dats (F := F) m ρ Vtrue 0 c) (defs₀ (F := F)) 𝒱₀ () Set.univ :=
  body_obligation_of m ρ Vtrue (fun _ _ _ => trivial) c (fun K W => body_run m c K W)

end Cert.Kernel.Proto

end
-- ==== Proof.ValsReal.lean ====
/-
The mathematics of the values that travel, over the extended reals. A is the whole 2048 x 8192 array and B the
whole 8192 x 2048 one; device c holds the columns 1024 c .. 1024 c + 1024 of A and the same rows of B, so its SHARE
of entry (i, j) of the product is the sum over its 1024 inner indices, and the entry is the sum of the eight shares.
Column group k covers the columns from colLo k on. With (p, q, r) the device's coordinates along the cube axes
k, k + 1, k + 2 (mod 3) — the axes its three reduce-scatter steps cross — step 0 sends the half of the rows it does
not keep, (1 - p) 1024, step 1 the quarter p 1024 + (1 - q) 512 of its half, step 2 the eighth
p 1024 + q 512 + (1 - r) 256; what it ends up owning is the eighth at p 1024 + q 512 + r 256, which the all-gather
steps grow back to the quarter, the half and the whole.
-/
import proofs.«900882_g7700000000000883_dist_matmul_gelu_kshard_i_m2048_n2048_k1024_v7x_i8_f32_1_alg».proof.Proof.PiecesOut
import proofs.«900882_g7700000000000883_dist_matmul_gelu_kshard_i_m2048_n2048_k1024_v7x_i8_f32_1_alg».proof.Proof.RefSpec
import proofs.«900882_g7700000000000883_dist_matmul_gelu_kshard_i_m2048_n2048_k1024_v7x_i8_f32_1_alg».proof.Proof.BlockSum

noncomputable section

namespace Cert.KernelIdeal.Proto

open Cert.KernelIdeal Cert.KernelIdeal.Gen Cert.KernelIdeal.Topo
open Idealize.ShloMosaic Idealize.ShloMosaic.ValueIdx
open scoped BigOperators

variable (A : (⟨2, ![2048, 8192]⟩ : Shape).Idx → EReal) (B : (⟨2, ![8192, 2048]⟩ : Shape).Idx → EReal)

/-- Entry (i, K) of A, and 0 outside the array. -/
def Aat (i K : ℕ) : EReal := if h : i < 2048 ∧ K < 8192 then A (ix2 ⟨i, h.1⟩ ⟨K, h.2⟩) else 0
/-- Entry (K, j) of B, and 0 outside the array. -/
def Bat (K j : ℕ) : EReal := if h : K < 8192 ∧ j < 2048 then B (ix2 ⟨K, h.1⟩ ⟨j, h.2⟩) else 0

/-- Device number c's share of entry (i, j) of the product: the sum over its 1024 inner indices. -/
def share (c i j : ℕ) : EReal := ∑ κ ∈ Finset.range 1024, Aat A i (1024 * c + κ) * Bat B (1024 * c + κ) j
/-- Entry (i, j) of the product. -/
def tot (i j : ℕ) : EReal := ∑ K ∈ Finset.range 8192, Aat A i K * Bat B K j

/-- The first column of group k. -/
def colLo (k : ℕ) : ℕ := match k with | 0 => 0 | 1 => 384 | 2 => 768 | 3 => 1152 | 4 => 1536 | _ => 1792

/-- The neighbour across the axis group k's reduce-scatter step s crosses. -/
def nb (k s : ℕ) (c : Dev nD) : Dev nD := nbr ⟨(k + s) % 3, Nat.mod_lt _ (by decide)⟩ c

/-- The first row device c SENDS at reduce-scatter step s of group k. -/
def sendRow (k s : ℕ) (c : Dev nD) : ℕ :=
  match s with
  | 0 => (1 - coordN c k) * 1024
  | 1 => coordN c k * 1024 + (1 - coordN c (k + 1)) * 512
  | _ => coordN c k * 1024 + coordN c (k + 1) * 512 + (1 - coordN c (k + 2)) * 256
/-- The first row of what device c holds of group k after s all-gather steps (its eighth, quarter, half). -/
def ownRow (k s : ℕ) (c : Dev nD) : ℕ :=
  match s with
  | 0 => coordN c k * 1024 + coordN c (k + 1) * 512 + coordN c (k + 2) * 256
  | 1 => coordN c k * 1024 + coordN c (k + 1) * 512
  | _ => coordN c k * 1024

/-- Entry (r, j) of what device c sends at reduce-scatter step s of group k: at step 0 its own share; at step 1 its
    share and the share of its neighbour across the step-0 axis; at step 2 those two and the same two of its neighbour
    across the step-1 axis — grouped as the kernel adds them. -/
def rsSpec (k s : ℕ) (c : Dev nD) (r j : ℕ) : EReal :=
  match s with
  | 0 => share A B c.val (sendRow k 0 c + r) (colLo k + j)
  | 1 => share A B c.val (sendRow k 1 c + r) (colLo k + j) + share A B (nb k 0 c).val (sendRow k 1 c + r) (colLo k + j)
  | _ => (share A B c.val (sendRow k 2 c + r) (colLo k + j) + share A B (nb k 0 c).val (sendRow k 2 c + r) (colLo k + j))
          + (share A B (nb k 1 c).val (sendRow k 2 c + r) (colLo k + j) + share A B (nb k 0 (nb k 1 c)).val (sendRow k 2 c + r) (colLo k + j))

/-- Entry (r, j) of what device c sends at all-gather step s of group k: the finished entry. -/
def agSpec (k s : ℕ) (c : Dev nD) (r j : ℕ) : EReal := Cert.RefSide.gelu1 (tot A B (ownRow k s c + r) (colLo k + j))

/-- Entry (r, jj) of the block result copy j writes: the finished entry. -/
def outSpec (j : Fin 24) (c : Dev nD) (r jj : ℕ) : EReal := Cert.RefSide.gelu1 (tot A B (outRow c j + r) (outColLo j + jj))

end Cert.KernelIdeal.Proto

end
-- ==== Proof.ValsRealTab.lean ====
/-
What is true of every value that travels, over the extended reals, as a record of predicates: field by field,
the entry at (r, j) of what a device sends at a reduce-scatter step is the sum of the shares of the devices that
have contributed so far, at the row the step sends; of what it sends at an all-gather step, and of each block it
copies to the result, it is the finished entry: gelu of the whole product.
-/
import proofs.«900882_g7700000000000883_dist_matmul_gelu_kshard_i_m2048_n2048_k1024_v7x_i8_f32_1_alg».proof.Proof.ValsReal

noncomputable section

namespace Cert.KernelIdeal.Proto

open Cert.KernelIdeal Cert.KernelIdeal.Gen Cert.KernelIdeal.Topo
open Idealize.ShloMosaic Idealize.ShloMosaic.ValueIdx

/-- The record of predicates for whole arrays A, B. -/
def Vreal (A : (⟨2, ![2048, 8192]⟩ : Shape).Idx → EReal) (B : (⟨2, ![8192, 2048]⟩ : Shape).Idx → EReal) : Vals Ideal where
  rs0_0 := fun c X => ∀ (r : Fin 1024) (j : Fin 384), (X (ix2 r j) : EReal) = rsSpec A B 0 0 c r.val j.val
  rs0_1 := fun c X => ∀ (r : Fin 512) (j : Fin 384), (X (ix2 r j) : EReal) = rsSpec A B 0 1 c r.val j.val
  rs0_2 := fun c X => ∀ (r : Fin 256) (j : Fin 384), (X (ix2 r j) : EReal) = rsSpec A B 0 2 c r.val j.val
  rs1_0 := fun c X => ∀ (r : Fin 1024) (j : Fin 384), (X (ix2 r j) : EReal) = rsSpec A B 1 0 c r.val j.val
  rs1_1 := fun c X => ∀ (r : Fin 512) (j : Fin 384), (X (ix2 r j) : EReal) = rsSpec A B 1 1 c r.val j.val
  rs1_2 := fun c X => ∀ (r : Fin 256) (j : Fin 384), (X (ix2 r j) : EReal) = rsSpec A B 1 2 c r.val j.val
  rs2_0 := fun c X => ∀ (r : Fin 1024) (j : Fin 384), (X (ix2 r j) : EReal) = rsSpec A B 2 0 c r.val j.val
  rs2_1 := fun c X => ∀ (r : Fin 512) (j : Fin 384), (X (ix2 r j) : EReal) = rsSpec A B 2 1 c r.val j.val
  rs2_2 := fun c X => ∀ (r : Fin 256) (j : Fin 384), (X (ix2 r j) : EReal) = rsSpec A B 2 2 c r.val j.val
  rs3_0 := fun c X => ∀ (r : Fin 1024) (j : Fin 384), (X (ix2 r j) : EReal) = rsSpec A B 3 0 c r.val j.val
  rs3_1 := fun c X => ∀ (r : Fin 512) (j : Fin 384), (X (ix2 r j) : EReal) = rsSpec A B 3 1 c r.val j.val
  rs3_2 := fun c X => ∀ (r : Fin 256) (j : Fin 384), (X (ix2 r j) : EReal) = rsSpec A B 3 2 c r.val j.val
  rs4_0 := fun c X => ∀ (r : Fin 1024) (j : Fin 256), (X (ix2 r j) : EReal) = rsSpec A B 4 0 c r.val j.val
  rs4_1 := fun c X => ∀ (r : Fin 512) (j : Fin 256), (X (ix2 r j) : EReal) = rsSpec A B 4 1 c r.val j.val
  rs4_2 := fun c X => ∀ (r : Fin 256) (j : Fin 256), (X (ix2 r j) : EReal) = rsSpec A B 4 2 c r.val j.val
  rs5_0 := fun c X => ∀ (r : Fin 1024) (j : Fin 256), (X (ix2 r j) : EReal) = rsSpec A B 5 0 c r.val j.val
  rs5_1 := fun c X => ∀ (r : Fin 512) (j : Fin 256), (X (ix2 r j) : EReal) = rsSpec A B 5 1 c r.val j.val
  rs5_2 := fun c X => ∀ (r : Fin 256) (j : Fin 256), (X (ix2 r j) : EReal) = rsSpec A B 5 2 c r.val j.val
  ag0_0 := fun c X => ∀ (r : Fin 256) (j : Fin 384), (X (ix2 r j) : EReal) = agSpec A B 0 0 c r.val j.val
  ag0_1 := fun c X => ∀ (r : Fin 512) (j : Fin 384), (X (ix2 r j) : EReal) = agSpec A B 0 1 c r.val j.val
  ag0_2 := fun c X => ∀ (r : Fin 1024) (j : Fin 384), (X (ix2 r j) : EReal) = agSpec A B 0 2 c r.val j.val
  ag1_0 := fun c X => ∀ (r : Fin 256) (j : Fin 384), (X (ix2 r j) : EReal) = agSpec A B 1 0 c r.val j.val
  ag1_1 := fun c X => ∀ (r : Fin 512) (j : Fin 384), (X (ix2 r j) : EReal) = agSpec A B 1 1 c r.val j.val
  ag1_2 := fun c X => ∀ (r : Fin 1024) (j : Fin 384), (X (ix2 r j) : EReal) = agSpec A B 1 2 c r.val j.val
  ag2_0 := fun c X => ∀ (r : Fin 256) (j : Fin 384), (X (ix2 r j) : EReal) = agSpec A B 2 0 c r.val j.val
  ag2_1 := fun c X => ∀ (r : Fin 512) (j : Fin 384), (X (ix2 r j) : EReal) = agSpec A B 2 1 c r.val j.val
  ag2_2 := fun c X => ∀ (r : Fin 1024) (j : Fin 384), (X (ix2 r j) : EReal) = agSpec A B 2 2 c r.val j.val
  ag3_0 := fun c X => ∀ (r : Fin 256) (j : Fin 384), (X (ix2 r j) : EReal) = agSpec A B 3 0 c r.val j.val
  ag3_1 := fun c X => ∀ (r : Fin 512) (j : Fin 384), (X (ix2 r j) : EReal) = agSpec A B 3 1 c r.val j.val
  ag3_2 := fun c X => ∀ (r : Fin 1024) (j : Fin 384), (X (ix2 r j) : EReal) = agSpec A B 3 2 c r.val j.val
  ag4_0 := fun c X => ∀ (r : Fin 256) (j : Fin 256), (X (ix2 r j) : EReal) = agSpec A B 4 0 c r.val j.val
  ag4_1 := fun c X => ∀ (r : Fin 512) (j : Fin 256), (X (ix2 r j) : EReal) = agSpec A B 4 1 c r.val j.val
  ag4_2 := fun c X => ∀ (r : Fin 1024) (j : Fin 256), (X (ix2 r j) : EReal) = agSpec A B 4 2 c r.val j.val
  ag5_0 := fun c X => ∀ (r : Fin 256) (j : Fin 256), (X (ix2 r j) : EReal) = agSpec A B 5 0 c r.val j.val
  ag5_1 := fun c X => ∀ (r : Fin 512) (j : Fin 256), (X (ix2 r j) : EReal) = agSpec A B 5 1 c r.val j.val
  ag5_2 := fun c X => ∀ (r : Fin 1024) (j : Fin 256), (X (ix2 r j) : EReal) = agSpec A B 5 2 c r.val j.val
  out0 := fun c X => ∀ (r : Fin 256) (jj : Fin 384), (X (ix2 r jj) : EReal) = outSpec A B 0 c r.val jj.val
  out1 := fun c X => ∀ (r : Fin 256) (jj : Fin 384), (X (ix2 r jj) : EReal) = outSpec A B 1 c r.val jj.val
  out2 := fun c X => ∀ (r : Fin 256) (jj : Fin 384), (X (ix2 r jj) : EReal) = outSpec A B 2 c r.val jj.val
  out3 := fun c X => ∀ (r : Fin 256) (jj : Fin 384), (X (ix2 r jj) : EReal) = outSpec A B 3 c r.val jj.val
  out4 := fun c X => ∀ (r : Fin 256) (jj : Fin 256), (X (ix2 r jj) : EReal) = outSpec A B 4 c r.val jj.val
  out5 := fun c X => ∀ (r : Fin 256) (jj : Fin 256), (X (ix2 r jj) : EReal) = outSpec A B 5 c r.val jj.val
  out6 := fun c X => ∀ (r : Fin 256) (jj : Fin 384), (X (ix2 r jj) : EReal) = outSpec A B 6 c r.val jj.val
  out7 := fun c X => ∀ (r : Fin 256) (jj : Fin 384), (X (ix2 r jj) : EReal) = outSpec A B 7 c r.val jj.val
  out8 := fun c X => ∀ (r : Fin 256) (jj : Fin 384), (X (ix2 r jj) : EReal) = outSpec A B 8 c r.val jj.val
  out9 := fun c X => ∀ (r : Fin 256) (jj : Fin 384), (X (ix2 r jj) : EReal) = outSpec A B 9 c r.val jj.val
  out10 := fun c X => ∀ (r : Fin 256) (jj : Fin 256), (X (ix2 r jj) : EReal) = outSpec A B 10 c r.val jj.val
  out11 := fun c X => ∀ (r : Fin 256) (jj : Fin 256), (X (ix2 r jj) : EReal) = outSpec A B 11 c r.val jj.val
  out12 := fun c X => ∀ (r : Fin 512) (jj : Fin 384), (X (ix2 r jj) : EReal) = outSpec A B 12 c r.val jj.val
  out13 := fun c X => ∀ (r : Fin 512) (jj : Fin 384), (X (ix2 r jj) : EReal) = outSpec A B 13 c r.val jj.val
  out14 := fun c X => ∀ (r : Fin 512) (jj : Fin 384), (X (ix2 r jj) : EReal) = outSpec A B 14 c r.val jj.val
  out15 := fun c X => ∀ (r : Fin 512) (jj : Fin 384), (X (ix2 r jj) : EReal) = outSpec A B 15 c r.val jj.val
  out16 := fun c X => ∀ (r : Fin 512) (jj : Fin 256), (X (ix2 r jj) : EReal) = outSpec A B 16 c r.val jj.val
  out17 := fun c X => ∀ (r : Fin 512) (jj : Fin 256), (X (ix2 r jj) : EReal) = outSpec A B 17 c r.val jj.val
  out18 := fun c X => ∀ (r : Fin 1024) (jj : Fin 384), (X (ix2 r jj) : EReal) = outSpec A B 18 c r.val jj.val
  out19 := fun c X => ∀ (r : Fin 1024) (jj : Fin 384), (X (ix2 r jj) : EReal) = outSpec A B 19 c r.val jj.val
  out20 := fun c X => ∀ (r : Fin 1024) (jj : Fin 384), (X (ix2 r jj) : EReal) = outSpec A B 20 c r.val jj.val
  out21 := fun c X => ∀ (r : Fin 1024) (jj : Fin 384), (X (ix2 r jj) : EReal) = outSpec A B 21 c r.val jj.val
  out22 := fun c X => ∀ (r : Fin 1024) (jj : Fin 256), (X (ix2 r jj) : EReal) = outSpec A B 22 c r.val jj.val
  out23 := fun c X => ∀ (r : Fin 1024) (jj : Fin 256), (X (ix2 r jj) : EReal) = outSpec A B 23 c r.val jj.val
  res := fun _ f => f = Cert.RefSide.Gref A B

end Cert.KernelIdeal.Proto

end
-- ==== Proof.ResReal.lean ====
/-
The twenty-four blocks of the result array, each reading gelu of the whole product at its rows and columns, make up
the reference's result: every index of the 2048 x 2048 array lies in one block's set, is read there through the block's
view, and the sum over the range 0..8192 of the padded entries is the sum over the contracted axis.
-/
import proofs.«900882_g7700000000000883_dist_matmul_gelu_kshard_i_m2048_n2048_k1024_v7x_i8_f32_1_alg».proof.Proof.EpilogueEnd
import proofs.«900882_g7700000000000883_dist_matmul_gelu_kshard_i_m2048_n2048_k1024_v7x_i8_f32_1_alg».proof.Proof.ValsRealTab
import Mathlib.Algebra.BigOperators.Fin

set_option maxRecDepth 100000

noncomputable section

namespace Cert.KernelIdeal.Proto

open Cert.KernelIdeal Cert.KernelIdeal.Gen Cert.KernelIdeal.Topo
open Idealize.ShloMosaic Idealize.ShloMosaic.TcCoe Idealize.ShloMosaic.ValueIdx
open Idealize.SL Idealize.SL.RA Idealize.SL.BI
open scoped Idealize.SL.BI BigOperators
open Idealize.SL.BI.BIBase Idealize.SL.BI.Laws Idealize.SL.ProofMode Idealize.SL.Sem
open Idealize.ShloMosaic.Rounds

variable (A : (⟨2, ![2048, 8192]⟩ : Shape).Idx → EReal) (B : (⟨2, ![8192, 2048]⟩ : Shape).Idx → EReal)

/-- Inside the array the padded sum over the range is the sum over the contracted axis. -/
theorem tot_eq_dot (i j : Fin 2048) : tot A B i.val j.val = Cert.RefSide.dot A B i j := by
  unfold tot Cert.RefSide.dot
  rw [Finset.sum_range]
  refine Finset.sum_congr rfl fun K _ => ?_
  unfold Aat Bat
  rw [dif_pos ⟨i.isLt, K.isLt⟩, dif_pos ⟨K.isLt, j.isLt⟩]

/-- A block of the result array that reads, entry by entry, gelu of the whole product at its rows and columns holds
    that value at every index of its set. -/
theorem block_val_of {nr nw : ℕ} (c : Dev nD) (j : Fin 24) (off : Fin 2 → ℕ)
    (inb : ∀ a, off a + (![nr, nw] : Fin 2 → ℕ) a ≤ S2048x2048.size a)
    (hoff : off = ![outRow c j, outColLo j]) (hH : outRowH j = nr) (hW : outColW j = nw)
    (g : Buf (Elt Ideal) ((Memref.whole main_v1 : Memref sig .tc .hbm S2048x2048 .f32).view.loc (c : Thread nD τ)))
    (h : ∀ (r : Fin nr) (jj : Fin nw),
      ((((Memref.whole main_v1 : Memref sig .tc .hbm S2048x2048 .f32).slice (Rect.unit (s := S2048x2048) off ![nr, nw] inb) (fun _ => rfl)).view.read (Elt Ideal) g) (ix2 r jj) : EReal)
        = outSpec A B j c r.val jj.val) :
    ∀ y ∈ outSet c j, (g y : EReal) = Cert.RefSide.gelu1 (tot A B (y 0).val (y 1).val) := by
  subst hoff hH hW
  intro y hy
  have hy' := Rect.mem_set_unit.mp hy
  simp only [Fin.forall_fin_two, Matrix.cons_val_zero, Matrix.cons_val_one] at hy'
  obtain ⟨⟨h0l, h0u⟩, ⟨h1l, h1u⟩⟩ := hy'
  have hv : _ = outSpec A B j c ((y 0).val - outRow c j) ((y 1).val - outColLo j) :=
    h ⟨(y 0).val - outRow c j, by omega⟩ ⟨(y 1).val - outColLo j, by omega⟩
  rw [View.read_apply] at hv
  have he : ((Memref.whole main_v1 : Memref sig .tc .hbm S2048x2048 .f32).slice (Rect.unit (s := S2048x2048) ![outRow c j, outColLo j] ![outRowH j, outColW j] inb) (fun _ => rfl)).view.emb
      (ix2 (⟨(y 0).val - outRow c j, by omega⟩ : Fin (outRowH j)) (⟨(y 1).val - outColLo j, by omega⟩ : Fin (outColW j))) = y := by
    have hc : ∀ a : Fin 2, (((Memref.whole main_v1 : Memref sig .tc .hbm S2048x2048 .f32).slice (Rect.unit (s := S2048x2048) ![outRow c j, outColLo j] ![outRowH j, outColW j] inb) (fun _ => rfl)).view.emb
        (ix2 (⟨(y 0).val - outRow c j, by omega⟩ : Fin (outRowH j)) (⟨(y 1).val - outColLo j, by omega⟩ : Fin (outColW j))) a).val = (y a).val := by
      rw [Fin.forall_fin_two]
      constructor
      · show outRow c j + 1 * ((y 0).val - outRow c j) = (y 0).val
        omega
      · show outColLo j + 1 * ((y 1).val - outColLo j) = (y 1).val
        omega
    exact funext fun a => Fin.ext (hc a)
  rw [he, cast_eq] at hv
  rw [hv]
  unfold outSpec
  congr 2 <;> omega

/-- The twenty-four blocks, each reading gelu of the whole product at its rows and columns, are the reference's array. -/
theorem hres_real : ∀ (c : Dev nD) (g : Buf (Elt Ideal) ((Memref.whole main_v1).view.loc (c : Thread nD τ))),
    outFacts (Vreal A B) c g → (Vreal A B).res c g := by
  intro c g hf
  show g = Cert.RefSide.Gref A B
  funext y
  -- the index lies in one copy's set
  have hcov : y ∈ Finset.univ.biUnion (outSet c) := by rw [outSet_cover]; exact Finset.mem_univ _
  obtain ⟨j, -, hj⟩ := Finset.mem_biUnion.mp hcov
  have key : (g y : EReal) = Cert.RefSide.gelu1 (tot A B (y 0).val (y 1).val) := by
    obtain ⟨h0, h1, h2, h3, h4, h5, h6, h7, h8, h9, h10, h11, h12, h13, h14, h15, h16, h17, h18, h19, h20, h21, h22, h23⟩ := hf
    fin_cases j
    · exact block_val_of A B c 0 (k0_off59 c) (k0_off59_inb c) (by rw [off59_eq]; rfl) rfl rfl g h0 y hj
    · exact block_val_of A B c 1 (k0_off62 c) (k0_off62_inb c) (by rw [off62_eq]; rfl) rfl rfl g h1 y hj
    · exact block_val_of A B c 2 (k0_off65 c) (k0_off65_inb c) (by rw [off65_eq]; rfl) rfl rfl g h2 y hj
    · exact block_val_of A B c 3 (k0_off66 c) (k0_off66_inb c) (by rw [off66_eq]; rfl) rfl rfl g h3 y hj
    · exact block_val_of A B c 4 (k0_off69 c) (k0_off69_inb c) (by rw [off69_eq]; rfl) rfl rfl g h4 y hj
    · exact block_val_of A B c 5 (k0_off72 c) (k0_off72_inb c) (by rw [off72_eq]; rfl) rfl rfl g h5 y hj
    · exact block_val_of A B c 6 (k0_off81 c) (k0_off81_inb c) (by rw [off81_eq]; rfl) rfl rfl g h6 y hj
    · exact block_val_of A B c 7 (k0_off85 c) (k0_off85_inb c) (by rw [off85_eq]; rfl) rfl rfl g h7 y hj
    · exact block_val_of A B c 8 (k0_off89 c) (k0_off89_inb c) (by rw [off89_eq]; rfl) rfl rfl g h8 y hj
    · exact block_val_of A B c 9 (k0_off91 c) (k0_off91_inb c) (by rw [off91_eq]; rfl) rfl rfl g h9 y hj
    · exact block_val_of A B c 10 (k0_off95 c) (k0_off95_inb c) (by rw [off95_eq]; rfl) rfl rfl g h10 y hj
    · exact block_val_of A B c 11 (k0_off99 c) (k0_off99_inb c) (by rw [off99_eq]; rfl) rfl rfl g h11 y hj
    · exact block_val_of A B c 12 (k0_off103 c) (k0_off103_inb c) (by rw [off103_eq]; rfl) rfl rfl g h12 y hj
    · exact block_val_of A B c 13 (k0_off107 c) (k0_off107_inb c) (by rw [off107_eq]; rfl) rfl rfl g h13 y hj
    · exact block_val_of A B c 14 (k0_off111 c) (k0_off111_inb c) (by rw [off111_eq]; rfl) rfl rfl g h14 y hj
    · exact block_val_of A B c 15 (k0_off113 c) (k0_off113_inb c) (by rw [off113_eq]; rfl) rfl rfl g h15 y hj
    · exact block_val_of A B c 16 (k0_off117 c) (k0_off117_inb c) (by rw [off117_eq]; rfl) rfl rfl g h16 y hj
    · exact block_val_of A B c 17 (k0_off121 c) (k0_off121_inb c) (by rw [off121_eq]; rfl) rfl rfl g h17 y hj
    · exact block_val_of A B c 18 (k0_off124 c) (k0_off124_inb c) (by rw [off124_eq]; rfl) rfl rfl g h18 y hj
    · exact block_val_of A B c 19 (k0_off127 c) (k0_off127_inb c) (by rw [off127_eq]; rfl) rfl rfl g h19 y hj
    · exact block_val_of A B c 20 (k0_off130 c) (k0_off130_inb c) (by rw [off130_eq]; rfl) rfl rfl g h20 y hj
    · exact block_val_of A B c 21 (k0_off132 c) (k0_off132_inb c) (by rw [off132_eq]; rfl) rfl rfl g h21 y hj
    · exact block_val_of A B c 22 (k0_off135 c) (k0_off135_inb c) (by rw [off135_eq]; rfl) rfl rfl g h22 y hj
    · exact block_val_of A B c 23 (k0_off138 c) (k0_off138_inb c) (by rw [off138_eq]; rfl) rfl rfl g h23 y hj
  rw [key]
  exact congrArg Cert.RefSide.gelu1 (tot_eq_dot A B (y 0) (y 1))

end Cert.KernelIdeal.Proto

end
-- ==== Proof.ValStep0.lean ====
/-
The values of the first reduce-scatter step, over the extended reals: what a device stages for group k and sends
is, entry by entry, its own share of the product at the rows it sends away and the group's columns — the sum over
its 1024 inner indices of its block of A times its block of B.
-/
import proofs.«900882_g7700000000000883_dist_matmul_gelu_kshard_i_m2048_n2048_k1024_v7x_i8_f32_1_alg».proof.Proof.Dats
import proofs.«900882_g7700000000000883_dist_matmul_gelu_kshard_i_m2048_n2048_k1024_v7x_i8_f32_1_alg».proof.Proof.ValsRealTab
import proofs.«900882_g7700000000000883_dist_matmul_gelu_kshard_i_m2048_n2048_k1024_v7x_i8_f32_1_alg».proof.Proof.TopoTab
import proofs.«900882_g7700000000000883_dist_matmul_gelu_kshard_i_m2048_n2048_k1024_v7x_i8_f32_1_alg».proof.Proof.Gen.KernelIdeal.Skeleton
import Idealize.ShloMosaic.Lib.Pipeline.Value
import Idealize.ShloMosaic.Lib.WritesUnit
import Idealize.ShloMosaic.PureOps.Ideal.Laws

set_option maxRecDepth 100000

noncomputable section

namespace Cert.KernelIdeal.Proto

open Cert.KernelIdeal Cert.KernelIdeal.Gen Cert.KernelIdeal.Topo
open Idealize.ShloMosaic Idealize.ShloMosaic.TcCoe Idealize.ShloMosaic.ValueIdx
open scoped BigOperators

variable (A : (⟨2, ![2048, 8192]⟩ : Shape).Idx → EReal) (B : (⟨2, ![8192, 2048]⟩ : Shape).Idx → EReal)

theorem Astg_eq (m : (ℓ : Loc nD τ sig) → Buf (Elt Ideal) ℓ) (c : Dev nD) : Astg m c = m ((c : Thread nD τ).loc main_arg0) := by
  unfold Astg
  first
  | exact Memref.read_access_unit_zero (Elt Ideal) main_arg0 (funext fun a => by fin_cases a <;> rfl) _ _
  | exact Memref.read_access_unit_zero (Elt Ideal) main_arg0 (funext fun a => Nat.zero_mul _) _ _

theorem Bstg_eq (m : (ℓ : Loc nD τ sig) → Buf (Elt Ideal) ℓ) (c : Dev nD) : Bstg m c = m ((c : Thread nD τ).loc main_arg1) := by
  unfold Bstg
  first
  | exact Memref.read_access_unit_zero (Elt Ideal) main_arg1 (funext fun a => by fin_cases a <;> rfl) _ _
  | exact Memref.read_access_unit_zero (Elt Ideal) main_arg1 (funext fun a => Nat.zero_mul _) _ _

/-- An entry of the rows of the device's block of A loaded from row R on: the entry of A at that row and the device's column. -/
theorem readA_apply (m : (ℓ : Loc nD τ sig) → Buf (Elt Ideal) ℓ)
    (hA : ∀ c : Dev nD, m ((c : Thread nD τ).loc main_arg0) = Layout.block ⟨2, ![2048, 1024]⟩ ⟨2, ![2048, 8192]⟩ 1 8 c A)
    (c : Dev nD) (off : Fin 2 → ℕ) (inb : ∀ a, off a + S1024x1024.size a ≤ S2048x1024.size a) (R : ℕ) (hoff : off = ![R, 0]) (r κ : Fin 1024) :
    (View.readAt (Elt Ideal) (Memref.whole cc0_stg0_0 : Memref sig .tc .vmem S2048x1024 .f32).view (Rect.unit (s := S2048x1024) off S1024x1024.size inb).toLoadRect (Astg m c)) (ix2 r κ)
      = Aat A (R + r.val) (1024 * c.val + κ.val) := by
  subst hoff
  have hR : R + 1024 ≤ 2048 := inb 0
  have hi : R + r.val < 2048 := by have := r.isLt; omega
  rw [View.readAt_eq_ld, Astg_eq, hA c]
  have he : (Rect.unit (s := S2048x1024) ![R, 0] S1024x1024.size inb).emb (ix2 r κ) = ix2 (⟨R + r.val, hi⟩ : Fin 2048) κ := by
    funext a; refine Fin.ext ?_
    match a with
    | ⟨0, _⟩ => show R + 1 * r.val = R + r.val; omega
    | ⟨1, _⟩ => show 0 + 1 * κ.val = κ.val; omega
  show (Layout.block ⟨2, ![2048, 1024]⟩ ⟨2, ![2048, 8192]⟩ 1 8 c A) ((Rect.unit (s := S2048x1024) ![R, 0] S1024x1024.size inb).emb (ix2 r κ)) = _
  rw [he, Cert.BlockSum.left_block]
  have hK : 1024 * c.val + κ.val < 8192 := by have : c.val < 8 := c.isLt; have := κ.isLt; omega
  unfold Aat
  rw [dif_pos ⟨hi, hK⟩]
  refine congrArg A (congrArg (ix2 _) (Fin.ext ?_))
  rw [Cert.BlockSum.pos_val]; show c.val * 1024 + κ.val = 1024 * c.val + κ.val; omega

/-- An entry of the columns of the device's block of B loaded from column C on: the entry of B at the device's row and that column. -/
theorem readB_apply (m : (ℓ : Loc nD τ sig) → Buf (Elt Ideal) ℓ)
    (hB : ∀ c : Dev nD, m ((c : Thread nD τ).loc main_arg1) = Layout.block ⟨2, ![1024, 2048]⟩ ⟨2, ![8192, 2048]⟩ 0 8 c B)
    (c : Dev nD) (w C : ℕ) (inb : ∀ a, (![0, C] : Fin 2 → ℕ) a + (⟨2, ![1024, w]⟩ : Shape).size a ≤ S1024x2048.size a) (κ : Fin 1024) (j : Fin w) :
    (View.readAt (Elt Ideal) (Memref.whole cc0_stg1_0 : Memref sig .tc .vmem S1024x2048 .f32).view (Rect.unit (s := S1024x2048) ![0, C] (⟨2, ![1024, w]⟩ : Shape).size inb).toLoadRect (Bstg m c)) (ix2 κ j)
      = Bat B (1024 * c.val + κ.val) (C + j.val) := by
  have hC : C + w ≤ 2048 := inb 1
  have hj : C + j.val < 2048 := by have := j.isLt; omega
  rw [View.readAt_eq_ld, Bstg_eq, hB c]
  have he : (Rect.unit (s := S1024x2048) ![0, C] (⟨2, ![1024, w]⟩ : Shape).size inb).emb (ix2 κ j) = ix2 κ (⟨C + j.val, hj⟩ : Fin 2048) := by
    funext a; refine Fin.ext ?_
    match a with
    | ⟨0, _⟩ => show 0 + 1 * κ.val = κ.val; omega
    | ⟨1, _⟩ => show C + 1 * j.val = C + j.val; omega
  show (Layout.block ⟨2, ![1024, 2048]⟩ ⟨2, ![8192, 2048]⟩ 0 8 c B) ((Rect.unit (s := S1024x2048) ![0, C] (⟨2, ![1024, w]⟩ : Shape).size inb).emb (ix2 κ j)) = _
  rw [he, Cert.BlockSum.right_block]
  have hK : 1024 * c.val + κ.val < 8192 := by have : c.val < 8 := c.isLt; have := κ.isLt; omega
  unfold Bat
  rw [dif_pos ⟨hK, hj⟩]
  refine congrArg B (congrArg (fun x => ix2 x _) (Fin.ext ?_))
  rw [Cert.BlockSum.pos_val]; show c.val * 1024 + κ.val = 1024 * c.val + κ.val; omega

theorem lhs384_0 (i : S1024x384.Idx) (q : dot_S1024x1024_S1024x384_S1024x384_1_0_0_1_n_n.contr.Idx) : (dot_S1024x1024_S1024x384_S1024x384_1_0_0_1_n_n.lhsIdx i q 0).val = (i 0).val := by
  unfold DotDims.lhsIdx
  rw [dif_neg (show ¬(0 : Fin S1024x1024.rank) ∈ dot_S1024x1024_S1024x384_S1024x384_1_0_0_1_n_n.lhsBatch by decide), dif_pos (show (0 : Fin S1024x1024.rank) ∈ dot_S1024x1024_S1024x384_S1024x384_1_0_0_1_n_n.lhsNonContracting by decide)]
  rfl
theorem lhs384_1 (i : S1024x384.Idx) (q : dot_S1024x1024_S1024x384_S1024x384_1_0_0_1_n_n.contr.Idx) : (dot_S1024x1024_S1024x384_S1024x384_1_0_0_1_n_n.lhsIdx i q 1).val = (q ⟨0, by decide⟩).val :=
  dot_S1024x1024_S1024x384_S1024x384_1_0_0_1_n_n.lhsIdx_val_of_single rfl i q
theorem rhs384_0 (i : S1024x384.Idx) (q : dot_S1024x1024_S1024x384_S1024x384_1_0_0_1_n_n.contr.Idx) : (dot_S1024x1024_S1024x384_S1024x384_1_0_0_1_n_n.rhsIdx i q 0).val = (q ⟨0, by decide⟩).val :=
  dot_S1024x1024_S1024x384_S1024x384_1_0_0_1_n_n.rhsIdx_val_of_single rfl i q
theorem rhs384_1 (i : S1024x384.Idx) (q : dot_S1024x1024_S1024x384_S1024x384_1_0_0_1_n_n.contr.Idx) : (dot_S1024x1024_S1024x384_S1024x384_1_0_0_1_n_n.rhsIdx i q 1).val = (i 1).val := by
  unfold DotDims.rhsIdx
  rw [dif_neg (show ¬(1 : Fin S1024x384.rank) ∈ dot_S1024x1024_S1024x384_S1024x384_1_0_0_1_n_n.rhsBatch by decide), dif_pos (show (1 : Fin S1024x384.rank) ∈ dot_S1024x1024_S1024x384_S1024x384_1_0_0_1_n_n.rhsNonContracting by decide)]
  rfl

/-- An entry of a product into a zero accumulator: the sum over the 1024 inner indices. -/
theorem matmul384_apply (X : FVec Ideal S1024x1024 .bf16) (Y : FVec Ideal S1024x384 .bf16) (r : Fin 1024) (j : Fin 384) :
    matmul (F := Ideal) dot_S1024x1024_S1024x384_S1024x384_1_0_0_1_n_n none X Y (constant S1024x384 .f32 0x00000000#32) (ix2 r j) = ∑ κ : Fin 1024, X (ix2 r κ) * Y (ix2 κ j) := by
  show FloatOps.matmul dot_S1024x1024_S1024x384_S1024x384_1_0_0_1_n_n none X Y (constant S1024x384 .f32 0x00000000#32) (ix2 r j) = _
  rw [Ideal.matmul_constant_zero_apply, ← Equiv.sum_comp (ValueIdx.contrEquiv1 dot_S1024x1024_S1024x384_S1024x384_1_0_0_1_n_n 1024 rfl rfl).symm]
  refine Finset.sum_congr rfl fun k _ => ?_
  have hk := ValueIdx.contrEquiv1_symm_val dot_S1024x1024_S1024x384_S1024x384_1_0_0_1_n_n 1024 rfl rfl k
  have el : dot_S1024x1024_S1024x384_S1024x384_1_0_0_1_n_n.lhsIdx (ix2 r j) ((ValueIdx.contrEquiv1 dot_S1024x1024_S1024x384_S1024x384_1_0_0_1_n_n 1024 rfl rfl).symm k) = ix2 r k := funext fun a => Fin.ext (by
    match a with
    | ⟨0, _⟩ => exact lhs384_0 _ _
    | ⟨1, _⟩ => exact (lhs384_1 _ _).trans hk)
  have er : dot_S1024x1024_S1024x384_S1024x384_1_0_0_1_n_n.rhsIdx (ix2 r j) ((ValueIdx.contrEquiv1 dot_S1024x1024_S1024x384_S1024x384_1_0_0_1_n_n 1024 rfl rfl).symm k) = ix2 k j := funext fun a => Fin.ext (by
    match a with
    | ⟨0, _⟩ => exact (rhs384_0 _ _).trans hk
    | ⟨1, _⟩ => exact rhs384_1 _ _)
  rw [el, er]

theorem lhs256_0 (i : S1024x256.Idx) (q : dot_S1024x1024_S1024x256_S1024x256_1_0_0_1_n_n.contr.Idx) : (dot_S1024x1024_S1024x256_S1024x256_1_0_0_1_n_n.lhsIdx i q 0).val = (i 0).val := by
  unfold DotDims.lhsIdx
  rw [dif_neg (show ¬(0 : Fin S1024x1024.rank) ∈ dot_S1024x1024_S1024x256_S1024x256_1_0_0_1_n_n.lhsBatch by decide), dif_pos (show (0 : Fin S1024x1024.rank) ∈ dot_S1024x1024_S1024x256_S1024x256_1_0_0_1_n_n.lhsNonContracting by decide)]
  rfl
theorem lhs256_1 (i : S1024x256.Idx) (q : dot_S1024x1024_S1024x256_S1024x256_1_0_0_1_n_n.contr.Idx) : (dot_S1024x1024_S1024x256_S1024x256_1_0_0_1_n_n.lhsIdx i q 1).val = (q ⟨0, by decide⟩).val :=
  dot_S1024x1024_S1024x256_S1024x256_1_0_0_1_n_n.lhsIdx_val_of_single rfl i q
theorem rhs256_0 (i : S1024x256.Idx) (q : dot_S1024x1024_S1024x256_S1024x256_1_0_0_1_n_n.contr.Idx) : (dot_S1024x1024_S1024x256_S1024x256_1_0_0_1_n_n.rhsIdx i q 0).val = (q ⟨0, by decide⟩).val :=
  dot_S1024x1024_S1024x256_S1024x256_1_0_0_1_n_n.rhsIdx_val_of_single rfl i q
theorem rhs256_1 (i : S1024x256.Idx) (q : dot_S1024x1024_S1024x256_S1024x256_1_0_0_1_n_n.contr.Idx) : (dot_S1024x1024_S1024x256_S1024x256_1_0_0_1_n_n.rhsIdx i q 1).val = (i 1).val := by
  unfold DotDims.rhsIdx
  rw [dif_neg (show ¬(1 : Fin S1024x256.rank) ∈ dot_S1024x1024_S1024x256_S1024x256_1_0_0_1_n_n.rhsBatch by decide), dif_pos (show (1 : Fin S1024x256.rank) ∈ dot_S1024x1024_S1024x256_S1024x256_1_0_0_1_n_n.rhsNonContracting by decide)]
  rfl

/-- An entry of a product into a zero accumulator: the sum over the 1024 inner indices. -/
theorem matmul256_apply (X : FVec Ideal S1024x1024 .bf16) (Y : FVec Ideal S1024x256 .bf16) (r : Fin 1024) (j : Fin 256) :
    matmul (F := Ideal) dot_S1024x1024_S1024x256_S1024x256_1_0_0_1_n_n none X Y (constant S1024x256 .f32 0x00000000#32) (ix2 r j) = ∑ κ : Fin 1024, X (ix2 r κ) * Y (ix2 κ j) := by
  show FloatOps.matmul dot_S1024x1024_S1024x256_S1024x256_1_0_0_1_n_n none X Y (constant S1024x256 .f32 0x00000000#32) (ix2 r j) = _
  rw [Ideal.matmul_constant_zero_apply, ← Equiv.sum_comp (ValueIdx.contrEquiv1 dot_S1024x1024_S1024x256_S1024x256_1_0_0_1_n_n 1024 rfl rfl).symm]
  refine Finset.sum_congr rfl fun k _ => ?_
  have hk := ValueIdx.contrEquiv1_symm_val dot_S1024x1024_S1024x256_S1024x256_1_0_0_1_n_n 1024 rfl rfl k
  have el : dot_S1024x1024_S1024x256_S1024x256_1_0_0_1_n_n.lhsIdx (ix2 r j) ((ValueIdx.contrEquiv1 dot_S1024x1024_S1024x256_S1024x256_1_0_0_1_n_n 1024 rfl rfl).symm k) = ix2 r k := funext fun a => Fin.ext (by
    match a with
    | ⟨0, _⟩ => exact lhs256_0 _ _
    | ⟨1, _⟩ => exact (lhs256_1 _ _).trans hk)
  have er : dot_S1024x1024_S1024x256_S1024x256_1_0_0_1_n_n.rhsIdx (ix2 r j) ((ValueIdx.contrEquiv1 dot_S1024x1024_S1024x256_S1024x256_1_0_0_1_n_n 1024 rfl rfl).symm k) = ix2 k j := funext fun a => Fin.ext (by
    match a with
    | ⟨0, _⟩ => exact (rhs256_0 _ _).trans hk
    | ⟨1, _⟩ => exact rhs256_1 _ _)
  rw [el, er]

/-- Group 0: what is staged and sent at the first reduce-scatter step is the device's share at the rows it sends away. -/
theorem val_rs0_0 (m : (ℓ : Loc nD τ sig) → Buf (Elt Ideal) ℓ)
    (hagree : ∀ c : Dev nD,
      m ((c : Thread nD τ).loc main_arg0) = Layout.block ⟨2, ![2048, 1024]⟩ ⟨2, ![2048, 8192]⟩ 1 8 c A
      ∧ m ((c : Thread nD τ).loc main_arg1) = Layout.block ⟨2, ![1024, 2048]⟩ ⟨2, ![8192, 2048]⟩ 0 8 c B)
    (c : Dev nD) (f10 : Buf (Elt Ideal) ((Memref.whole cc0_scratch7 : Memref sig .tc .vmem S1024x384 .bf16).view.loc (c : Thread nD τ))) :
    (Vreal A B).rs0_0 c ((stgM0_0 : Memref sig .tc .vmem S1024x384 .bf16).view.read (Elt Ideal)
      ((Memref.whole cc0_scratch7 : Memref sig .tc .vmem S1024x384 .bf16).view.writes (Elt Ideal) f10 [⟨Rect.unit (s := S1024x384) ![0, 0] S1024x384.size inb_S1024x384_S1024x384_0_0,
        k0_pay3 (F := Ideal) (k0_pay1 (View.readAt (Elt Ideal) (Memref.whole cc0_stg0_0 : Memref sig .tc .vmem S2048x1024 .f32).view (Rect.unit (s := S2048x1024) (k0_off1 c) S1024x1024.size (k0_off1_inb c)).toLoadRect (Astg m c))) (k0_pay2 (View.readAt (Elt Ideal) (Memref.whole cc0_stg1_0 : Memref sig .tc .vmem S1024x2048 .f32).view (Rect.unit (s := S1024x2048) ![0, 0] S1024x384.size inb_S1024x2048_S1024x384_0_0).toLoadRect (Bstg m c)))⟩])) := by
  intro r j
  refine (View.read_writes_cons_emb (Memref.whole cc0_scratch7 : Memref sig .tc .vmem S1024x384 .bf16).view f10 (Rect.unit (s := S1024x384) ![0, 0] S1024x384.size inb_S1024x384_S1024x384_0_0) _ [] (ix2 r j)).trans ?_
  unfold k0_pay3 k0_pay1 k0_pay2
  simp only [shapeCast_self]
  refine (matmul384_apply _ _ r j).trans ?_
  show _ = share A B c.val (sendRow 0 0 c + r.val) (colLo 0 + j.val)
  unfold share
  rw [Finset.sum_range]
  refine Finset.sum_congr rfl fun κ _ => ?_
  have hA' := readA_apply A m (fun c => (hagree c).1) c _ (k0_off1_inb c) ((1 - cx c) * 1024) (off1_eq c) r κ
  have hB' := readB_apply B m (fun c => (hagree c).2) c 384 0 inb_S1024x2048_S1024x384_0_0 κ j
  exact congrArg₂ (fun a b : EReal => a * b) hA' hB'

/-- Group 1: what is staged and sent at the first reduce-scatter step is the device's share at the rows it sends away. -/
theorem val_rs1_0 (m : (ℓ : Loc nD τ sig) → Buf (Elt Ideal) ℓ)
    (hagree : ∀ c : Dev nD,
      m ((c : Thread nD τ).loc main_arg0) = Layout.block ⟨2, ![2048, 1024]⟩ ⟨2, ![2048, 8192]⟩ 1 8 c A
      ∧ m ((c : Thread nD τ).loc main_arg1) = Layout.block ⟨2, ![1024, 2048]⟩ ⟨2, ![8192, 2048]⟩ 0 8 c B)
    (c : Dev nD) (f : Buf (Elt Ideal) ((Memref.whole cc0_scratch8 : Memref sig .tc .vmem S1024x384 .bf16).view.loc (c : Thread nD τ))) :
    (Vreal A B).rs1_0 c ((stgM1_0 : Memref sig .tc .vmem S1024x384 .bf16).view.read (Elt Ideal)
      ((Memref.whole cc0_scratch8 : Memref sig .tc .vmem S1024x384 .bf16).view.writes (Elt Ideal) f [⟨Rect.unit (s := S1024x384) ![0, 0] S1024x384.size inb_S1024x384_S1024x384_0_0,
        k0_pay4 (F := Ideal) (View.readAt (Elt Ideal) (Memref.whole cc0_stg0_0 : Memref sig .tc .vmem S2048x1024 .f32).view (Rect.unit (s := S2048x1024) (k0_off2 c) S1024x1024.size (k0_off2_inb c)).toLoadRect (Astg m c)) (View.readAt (Elt Ideal) (Memref.whole cc0_stg1_0 : Memref sig .tc .vmem S1024x2048 .f32).view (Rect.unit (s := S1024x2048) ![0, 384] S1024x384.size inb_S1024x2048_S1024x384_0_384).toLoadRect (Bstg m c))⟩])) := by
  intro r j
  refine (View.read_writes_cons_emb (Memref.whole cc0_scratch8 : Memref sig .tc .vmem S1024x384 .bf16).view f (Rect.unit (s := S1024x384) ![0, 0] S1024x384.size inb_S1024x384_S1024x384_0_0) _ [] (ix2 r j)).trans ?_
  unfold k0_pay4
  simp only [shapeCast_self]
  refine (matmul384_apply _ _ r j).trans ?_
  show _ = share A B c.val (sendRow 1 0 c + r.val) (colLo 1 + j.val)
  unfold share
  rw [Finset.sum_range]
  refine Finset.sum_congr rfl fun κ _ => ?_
  have hA' := readA_apply A m (fun c => (hagree c).1) c _ (k0_off2_inb c) ((1 - cy c) * 1024) (off2_eq c) r κ
  have hB' := readB_apply B m (fun c => (hagree c).2) c 384 384 inb_S1024x2048_S1024x384_0_384 κ j
  exact congrArg₂ (fun a b : EReal => a * b) hA' hB'

/-- Group 2: what is staged and sent at the first reduce-scatter step is the device's share at the rows it sends away. -/
theorem val_rs2_0 (m : (ℓ : Loc nD τ sig) → Buf (Elt Ideal) ℓ)
    (hagree : ∀ c : Dev nD,
      m ((c : Thread nD τ).loc main_arg0) = Layout.block ⟨2, ![2048, 1024]⟩ ⟨2, ![2048, 8192]⟩ 1 8 c A
      ∧ m ((c : Thread nD τ).loc main_arg1) = Layout.block ⟨2, ![1024, 2048]⟩ ⟨2, ![8192, 2048]⟩ 0 8 c B)
    (c : Dev nD) (f : Buf (Elt Ideal) ((Memref.whole cc0_scratch9 : Memref sig .tc .vmem S1024x384 .bf16).view.loc (c : Thread nD τ))) :
    (Vreal A B).rs2_0 c ((stgM2_0 : Memref sig .tc .vmem S1024x384 .bf16).view.read (Elt Ideal)
      ((Memref.whole cc0_scratch9 : Memref sig .tc .vmem S1024x384 .bf16).view.writes (Elt Ideal) f [⟨Rect.unit (s := S1024x384) ![0, 0] S1024x384.size inb_S1024x384_S1024x384_0_0,
        k0_pay5 (F := Ideal) (View.readAt (Elt Ideal) (Memref.whole cc0_stg0_0 : Memref sig .tc .vmem S2048x1024 .f32).view (Rect.unit (s := S2048x1024) (k0_off3 c) S1024x1024.size (k0_off3_inb c)).toLoadRect (Astg m c)) (View.readAt (Elt Ideal) (Memref.whole cc0_stg1_0 : Memref sig .tc .vmem S1024x2048 .f32).view (Rect.unit (s := S1024x2048) ![0, 768] S1024x384.size inb_S1024x2048_S1024x384_0_768).toLoadRect (Bstg m c))⟩])) := by
  intro r j
  refine (View.read_writes_cons_emb (Memref.whole cc0_scratch9 : Memref sig .tc .vmem S1024x384 .bf16).view f (Rect.unit (s := S1024x384) ![0, 0] S1024x384.size inb_S1024x384_S1024x384_0_0) _ [] (ix2 r j)).trans ?_
  unfold k0_pay5
  simp only [shapeCast_self]
  refine (matmul384_apply _ _ r j).trans ?_
  show _ = share A B c.val (sendRow 2 0 c + r.val) (colLo 2 + j.val)
  unfold share
  rw [Finset.sum_range]
  refine Finset.sum_congr rfl fun κ _ => ?_
  have hA' := readA_apply A m (fun c => (hagree c).1) c _ (k0_off3_inb c) ((1 - cz c) * 1024) (off3_eq c) r κ
  have hB' := readB_apply B m (fun c => (hagree c).2) c 384 768 inb_S1024x2048_S1024x384_0_768 κ j
  exact congrArg₂ (fun a b : EReal => a * b) hA' hB'

/-- Group 3: what is staged and sent at the first reduce-scatter step is the device's share at the rows it sends away. -/
theorem val_rs3_0 (m : (ℓ : Loc nD τ sig) → Buf (Elt Ideal) ℓ)
    (hagree : ∀ c : Dev nD,
      m ((c : Thread nD τ).loc main_arg0) = Layout.block ⟨2, ![2048, 1024]⟩ ⟨2, ![2048, 8192]⟩ 1 8 c A
      ∧ m ((c : Thread nD τ).loc main_arg1) = Layout.block ⟨2, ![1024, 2048]⟩ ⟨2, ![8192, 2048]⟩ 0 8 c B)
    (c : Dev nD) (f : Buf (Elt Ideal) ((Memref.whole cc0_scratch10 : Memref sig .tc .vmem S1024x384 .bf16).view.loc (c : Thread nD τ))) :
    (Vreal A B).rs3_0 c ((stgM3_0 : Memref sig .tc .vmem S1024x384 .bf16).view.read (Elt Ideal)
      ((Memref.whole cc0_scratch10 : Memref sig .tc .vmem S1024x384 .bf16).view.writes (Elt Ideal) f [⟨Rect.unit (s := S1024x384) ![0, 0] S1024x384.size inb_S1024x384_S1024x384_0_0,
        k0_pay6 (F := Ideal) (View.readAt (Elt Ideal) (Memref.whole cc0_stg0_0 : Memref sig .tc .vmem S2048x1024 .f32).view (Rect.unit (s := S2048x1024) (k0_off1 c) S1024x1024.size (k0_off1_inb c)).toLoadRect (Astg m c)) (View.readAt (Elt Ideal) (Memref.whole cc0_stg1_0 : Memref sig .tc .vmem S1024x2048 .f32).view (Rect.unit (s := S1024x2048) ![0, 1152] S1024x384.size inb_S1024x2048_S1024x384_0_1152).toLoadRect (Bstg m c))⟩])) := by
  intro r j
  refine (View.read_writes_cons_emb (Memref.whole cc0_scratch10 : Memref sig .tc .vmem S1024x384 .bf16).view f (Rect.unit (s := S1024x384) ![0, 0] S1024x384.size inb_S1024x384_S1024x384_0_0) _ [] (ix2 r j)).trans ?_
  unfold k0_pay6
  simp only [shapeCast_self]
  refine (matmul384_apply _ _ r j).trans ?_
  show _ = share A B c.val (sendRow 3 0 c + r.val) (colLo 3 + j.val)
  unfold share
  rw [Finset.sum_range]
  refine Finset.sum_congr rfl fun κ _ => ?_
  have hA' := readA_apply A m (fun c => (hagree c).1) c _ (k0_off1_inb c) ((1 - cx c) * 1024) (off1_eq c) r κ
  have hB' := readB_apply B m (fun c => (hagree c).2) c 384 1152 inb_S1024x2048_S1024x384_0_1152 κ j
  exact congrArg₂ (fun a b : EReal => a * b) hA' hB'

/-- Group 4: what is staged and sent at the first reduce-scatter step is the device's share at the rows it sends away. -/
theorem val_rs4_0 (m : (ℓ : Loc nD τ sig) → Buf (Elt Ideal) ℓ)
    (hagree : ∀ c : Dev nD,
      m ((c : Thread nD τ).loc main_arg0) = Layout.block ⟨2, ![2048, 1024]⟩ ⟨2, ![2048, 8192]⟩ 1 8 c A
      ∧ m ((c : Thread nD τ).loc main_arg1) = Layout.block ⟨2, ![1024, 2048]⟩ ⟨2, ![8192, 2048]⟩ 0 8 c B)
    (c : Dev nD) (f : Buf (Elt Ideal) ((Memref.whole cc0_scratch11 : Memref sig .tc .vmem S1024x256 .bf16).view.loc (c : Thread nD τ))) :
    (Vreal A B).rs4_0 c ((stgM4_0 : Memref sig .tc .vmem S1024x256 .bf16).view.read (Elt Ideal)
      ((Memref.whole cc0_scratch11 : Memref sig .tc .vmem S1024x256 .bf16).view.writes (Elt Ideal) f [⟨Rect.unit (s := S1024x256) ![0, 0] S1024x256.size inb_S1024x256_S1024x256_0_0,
        k0_pay8 (F := Ideal) (k0_pay7 (View.readAt (Elt Ideal) (Memref.whole cc0_stg0_0 : Memref sig .tc .vmem S2048x1024 .f32).view (Rect.unit (s := S2048x1024) (k0_off2 c) S1024x1024.size (k0_off2_inb c)).toLoadRect (Astg m c))) (View.readAt (Elt Ideal) (Memref.whole cc0_stg1_0 : Memref sig .tc .vmem S1024x2048 .f32).view (Rect.unit (s := S1024x2048) ![0, 1536] S1024x256.size inb_S1024x2048_S1024x256_0_1536).toLoadRect (Bstg m c))⟩])) := by
  intro r j
  refine (View.read_writes_cons_emb (Memref.whole cc0_scratch11 : Memref sig .tc .vmem S1024x256 .bf16).view f (Rect.unit (s := S1024x256) ![0, 0] S1024x256.size inb_S1024x256_S1024x256_0_0) _ [] (ix2 r j)).trans ?_
  unfold k0_pay8 k0_pay7
  simp only [shapeCast_self]
  refine (matmul256_apply _ _ r j).trans ?_
  show _ = share A B c.val (sendRow 4 0 c + r.val) (colLo 4 + j.val)
  unfold share
  rw [Finset.sum_range]
  refine Finset.sum_congr rfl fun κ _ => ?_
  have hA' := readA_apply A m (fun c => (hagree c).1) c _ (k0_off2_inb c) ((1 - cy c) * 1024) (off2_eq c) r κ
  have hB' := readB_apply B m (fun c => (hagree c).2) c 256 1536 inb_S1024x2048_S1024x256_0_1536 κ j
  exact congrArg₂ (fun a b : EReal => a * b) hA' hB'

/-- Group 5: what is staged and sent at the first reduce-scatter step is the device's share at the rows it sends away. -/
theorem val_rs5_0 (m : (ℓ : Loc nD τ sig) → Buf (Elt Ideal) ℓ)
    (hagree : ∀ c : Dev nD,
      m ((c : Thread nD τ).loc main_arg0) = Layout.block ⟨2, ![2048, 1024]⟩ ⟨2, ![2048, 8192]⟩ 1 8 c A
      ∧ m ((c : Thread nD τ).loc main_arg1) = Layout.block ⟨2, ![1024, 2048]⟩ ⟨2, ![8192, 2048]⟩ 0 8 c B)
    (c : Dev nD) (f : Buf (Elt Ideal) ((Memref.whole cc0_scratch12 : Memref sig .tc .vmem S1024x256 .bf16).view.loc (c : Thread nD τ))) :
    (Vreal A B).rs5_0 c ((stgM5_0 : Memref sig .tc .vmem S1024x256 .bf16).view.read (Elt Ideal)
      ((Memref.whole cc0_scratch12 : Memref sig .tc .vmem S1024x256 .bf16).view.writes (Elt Ideal) f [⟨Rect.unit (s := S1024x256) ![0, 0] S1024x256.size inb_S1024x256_S1024x256_0_0,
        k0_pay9 (F := Ideal) (View.readAt (Elt Ideal) (Memref.whole cc0_stg0_0 : Memref sig .tc .vmem S2048x1024 .f32).view (Rect.unit (s := S2048x1024) (k0_off3 c) S1024x1024.size (k0_off3_inb c)).toLoadRect (Astg m c)) (View.readAt (Elt Ideal) (Memref.whole cc0_stg1_0 : Memref sig .tc .vmem S1024x2048 .f32).view (Rect.unit (s := S1024x2048) ![0, 1792] S1024x256.size inb_S1024x2048_S1024x256_0_1792).toLoadRect (Bstg m c))⟩])) := by
  intro r j
  refine (View.read_writes_cons_emb (Memref.whole cc0_scratch12 : Memref sig .tc .vmem S1024x256 .bf16).view f (Rect.unit (s := S1024x256) ![0, 0] S1024x256.size inb_S1024x256_S1024x256_0_0) _ [] (ix2 r j)).trans ?_
  unfold k0_pay9
  simp only [shapeCast_self]
  refine (matmul256_apply _ _ r j).trans ?_
  show _ = share A B c.val (sendRow 5 0 c + r.val) (colLo 5 + j.val)
  unfold share
  rw [Finset.sum_range]
  refine Finset.sum_congr rfl fun κ _ => ?_
  have hA' := readA_apply A m (fun c => (hagree c).1) c _ (k0_off3_inb c) ((1 - cz c) * 1024) (off3_eq c) r κ
  have hB' := readB_apply B m (fun c => (hagree c).2) c 256 1792 inb_S1024x2048_S1024x256_0_1792 κ j
  exact congrArg₂ (fun a b : EReal => a * b) hA' hB'

end Cert.KernelIdeal.Proto

end
-- ==== Proof.ValStep1.lean ====
/-
The values of the second reduce-scatter step of group 0, over the extended reals. What the kept half of the accumulator
holds after the first step is the device's own share; the rows that landed from the neighbour across axis 0 hold that
neighbour's share at the same rows. The quarter sent at the second step is their sum, rounded into the staging buffer.
-/
import proofs.«900882_g7700000000000883_dist_matmul_gelu_kshard_i_m2048_n2048_k1024_v7x_i8_f32_1_alg».proof.Proof.ValStep0
import proofs.«900882_g7700000000000883_dist_matmul_gelu_kshard_i_m2048_n2048_k1024_v7x_i8_f32_1_alg».proof.Proof.ValsRealTab
import proofs.«900882_g7700000000000883_dist_matmul_gelu_kshard_i_m2048_n2048_k1024_v7x_i8_f32_1_alg».proof.Proof.TopoTab
import proofs.«900882_g7700000000000883_dist_matmul_gelu_kshard_i_m2048_n2048_k1024_v7x_i8_f32_1_alg».proof.Proof.Gen.KernelIdeal.Skeleton
import Idealize.ShloMosaic.Lib.Pipeline.Value
import Idealize.ShloMosaic.Lib.WritesUnit
import Idealize.ShloMosaic.Lib.Pipeline.FrameBody
import Idealize.ShloMosaic.PureOps.Ideal.Laws

set_option maxRecDepth 100000

noncomputable section

namespace Cert.KernelIdeal.Proto

open Cert.KernelIdeal Cert.KernelIdeal.Gen Cert.KernelIdeal.Topo
open Idealize.ShloMosaic Idealize.ShloMosaic.TcCoe Idealize.ShloMosaic.ValueIdx
open scoped BigOperators

variable (A : (⟨2, ![2048, 8192]⟩ : Shape).Idx → EReal) (B : (⟨2, ![8192, 2048]⟩ : Shape).Idx → EReal)

/-- The kept half of the accumulator holds the device's own share of group k's columns (w of them). -/
def J1 (k w : ℕ) (c : Dev nD) (g : Buf (Elt Ideal) ((Memref.whole cc0_scratch0 : Memref sig .tc .vmem S2048x2048 .f32).view.loc (c : Thread nD τ))) : Prop :=
  ∀ (i : Fin 1024) (j : Fin w) (y : S2048x2048.Idx), (y 0).val = coordN c k * 1024 + i.val → (y 1).val = colLo k + j.val →
    (Memref.whole cc0_scratch0 : Memref sig .tc .vmem S2048x2048 .f32).view.read (Elt Ideal) g y = share A B c.val (coordN c k * 1024 + i.val) (colLo k + j.val)

/-- A store to other columns leaves the fact. -/
theorem J1_cons {k w : ℕ} {c : Dev nD} {g : Buf (Elt Ideal) ((Memref.whole cc0_scratch0 : Memref sig .tc .vmem S2048x2048 .f32).view.loc (c : Thread nD τ))}
    {off off' size : Fin 2 → ℕ} (inb : ∀ a, off a + size a ≤ S2048x2048.size a)
    (pay : (Rect.unit (s := S2048x2048) off size inb).shape.Idx → Elt Ideal .f32) (L : List (View.Piece (Elt Ideal) S2048x2048 .f32))
    (heq : off = off') (hcols : off' 1 + size 1 ≤ colLo k ∨ colLo k + w ≤ off' 1)
    (h : J1 A B k w c ((Memref.whole cc0_scratch0 : Memref sig .tc .vmem S2048x2048 .f32).view.writes (Elt Ideal) g L)) :
    J1 A B k w c ((Memref.whole cc0_scratch0 : Memref sig .tc .vmem S2048x2048 .f32).view.writes (Elt Ideal) g ((⟨Rect.unit (s := S2048x2048) off size inb, pay⟩ : View.Piece (Elt Ideal) S2048x2048 .f32) :: L)) := by
  intro i j y h0 h1
  rw [View.read_writes_cons_unit_of_not_mem (Memref.whole cc0_scratch0 : Memref sig .tc .vmem S2048x2048 .f32).view g inb pay L y heq 1
    (by rcases hcols with hc | hc
        · right; omega
        · left; have := j.isLt; omega)]
  exact h i j y h0 h1

theorem J1_nil {k w : ℕ} {c : Dev nD} {g : Buf (Elt Ideal) ((Memref.whole cc0_scratch0 : Memref sig .tc .vmem S2048x2048 .f32).view.loc (c : Thread nD τ))} (h : J1 A B k w c g) :
    J1 A B k w c ((Memref.whole cc0_scratch0 : Memref sig .tc .vmem S2048x2048 .f32).view.writes (Elt Ideal) g []) := h

/-- Group 0 after the stretch that stores the kept half: the accumulator's kept rows of group 0's columns hold the device's share. -/
theorem J1_0_stored (m : (ℓ : Loc nD τ sig) → Buf (Elt Ideal) ℓ)
    (hagree : ∀ c : Dev nD,
      m ((c : Thread nD τ).loc main_arg0) = Layout.block ⟨2, ![2048, 1024]⟩ ⟨2, ![2048, 8192]⟩ 1 8 c A
      ∧ m ((c : Thread nD τ).loc main_arg1) = Layout.block ⟨2, ![1024, 2048]⟩ ⟨2, ![8192, 2048]⟩ 0 8 c B)
    (c : Dev nD) (f3 : Buf (Elt Ideal) ((Memref.whole cc0_scratch0 : Memref sig .tc .vmem S2048x2048 .f32).view.loc (c : Thread nD τ))) :
    J1 A B 0 384 c ((Memref.whole cc0_scratch0 : Memref sig .tc .vmem S2048x2048 .f32).view.writes (Elt Ideal) f3
      [⟨Rect.unit (s := S2048x2048) (k0_off7 c) S1024x384.size (k0_off7_inb c), k0_pay11 (F := Ideal) (View.readAt (Elt Ideal) (Memref.whole cc0_stg0_0 : Memref sig .tc .vmem S2048x1024 .f32).view (Rect.unit (s := S2048x1024) (k0_off6 c) S1024x1024.size (k0_off6_inb c)).toLoadRect (Astg m c)) (View.readAt (Elt Ideal) (Memref.whole cc0_stg1_0 : Memref sig .tc .vmem S1024x2048 .f32).view (Rect.unit (s := S1024x2048) ![0, 384] S1024x384.size inb_S1024x2048_S1024x384_0_384).toLoadRect (Bstg m c))⟩,
       ⟨Rect.unit (s := S2048x2048) (k0_off5 c) S1024x384.size (k0_off5_inb c), k0_pay10 (F := Ideal) (View.readAt (Elt Ideal) (Memref.whole cc0_stg0_0 : Memref sig .tc .vmem S2048x1024 .f32).view (Rect.unit (s := S2048x1024) (k0_off4 c) S1024x1024.size (k0_off4_inb c)).toLoadRect (Astg m c)) (View.readAt (Elt Ideal) (Memref.whole cc0_stg1_0 : Memref sig .tc .vmem S1024x2048 .f32).view (Rect.unit (s := S1024x2048) ![0, 0] S1024x384.size inb_S1024x2048_S1024x384_0_0).toLoadRect (Bstg m c))⟩]) := by
  refine J1_cons A B (k0_off7_inb c) _ _ (off7_eq c) (Or.inr (by show 0 + 384 ≤ 384; omega)) ?_
  intro i j y h0 h1
  rw [View.read_writes_cons_unit_of_mem (Memref.whole cc0_scratch0 : Memref sig .tc .vmem S2048x2048 .f32).view f3 (k0_off5_inb c) _ [] y (ix2 i j) (off5_eq c)
    (fun a => by
      match a with
      | ⟨0, _⟩ => exact h0
      | ⟨1, _⟩ => exact h1)]
  unfold k0_pay10
  simp only [shapeCast_self]
  refine (matmul384_apply _ _ i j).trans ?_
  show _ = share A B c.val (coordN c 0 * 1024 + i.val) (colLo 0 + j.val)
  unfold share
  rw [Finset.sum_range]
  refine Finset.sum_congr rfl fun κ _ => ?_
  have hA' := readA_apply A m (fun c => (hagree c).1) c _ (k0_off4_inb c) (cx c * 1024) (off4_eq c) i κ
  have hB' := readB_apply B m (fun c => (hagree c).2) c 384 0 inb_S1024x2048_S1024x384_0_0 κ j
  exact congrArg₂ (fun a b : EReal => a * b) hA' hB'

/-- …and after the next stretch's stores to the columns of groups 2, 3 and 4: the accumulator as the stretch that loads it finds it. -/
theorem J1_0_carried (m : (ℓ : Loc nD τ sig) → Buf (Elt Ideal) ℓ)
    (hagree : ∀ c : Dev nD,
      m ((c : Thread nD τ).loc main_arg0) = Layout.block ⟨2, ![2048, 1024]⟩ ⟨2, ![2048, 8192]⟩ 1 8 c A
      ∧ m ((c : Thread nD τ).loc main_arg1) = Layout.block ⟨2, ![1024, 2048]⟩ ⟨2, ![8192, 2048]⟩ 0 8 c B)
    (c : Dev nD) (f3 : Buf (Elt Ideal) ((Memref.whole cc0_scratch0 : Memref sig .tc .vmem S2048x2048 .f32).view.loc (c : Thread nD τ))) :
    J1 A B 0 384 c ((Memref.whole cc0_scratch0 : Memref sig .tc .vmem S2048x2048 .f32).view.writes (Elt Ideal) ((Memref.whole cc0_scratch0 : Memref sig .tc .vmem S2048x2048 .f32).view.writes (Elt Ideal) f3
      [⟨Rect.unit (s := S2048x2048) (k0_off7 c) S1024x384.size (k0_off7_inb c), k0_pay11 (F := Ideal) (View.readAt (Elt Ideal) (Memref.whole cc0_stg0_0 : Memref sig .tc .vmem S2048x1024 .f32).view (Rect.unit (s := S2048x1024) (k0_off6 c) S1024x1024.size (k0_off6_inb c)).toLoadRect (Astg m c)) (View.readAt (Elt Ideal) (Memref.whole cc0_stg1_0 : Memref sig .tc .vmem S1024x2048 .f32).view (Rect.unit (s := S1024x2048) ![0, 384] S1024x384.size inb_S1024x2048_S1024x384_0_384).toLoadRect (Bstg m c))⟩,
       ⟨Rect.unit (s := S2048x2048) (k0_off5 c) S1024x384.size (k0_off5_inb c), k0_pay10 (F := Ideal) (View.readAt (Elt Ideal) (Memref.whole cc0_stg0_0 : Memref sig .tc .vmem S2048x1024 .f32).view (Rect.unit (s := S2048x1024) (k0_off4 c) S1024x1024.size (k0_off4_inb c)).toLoadRect (Astg m c)) (View.readAt (Elt Ideal) (Memref.whole cc0_stg1_0 : Memref sig .tc .vmem S1024x2048 .f32).view (Rect.unit (s := S1024x2048) ![0, 0] S1024x384.size inb_S1024x2048_S1024x384_0_0).toLoadRect (Bstg m c))⟩])
      [⟨Rect.unit (s := S2048x2048) (k0_off11 c) S1024x256.size (k0_off11_inb c), k0_pay14 (F := Ideal) (View.readAt (Elt Ideal) (Memref.whole cc0_stg0_0 : Memref sig .tc .vmem S2048x1024 .f32).view (Rect.unit (s := S2048x1024) (k0_off6 c) S1024x1024.size (k0_off6_inb c)).toLoadRect (Astg m c)) (View.readAt (Elt Ideal) (Memref.whole cc0_stg1_0 : Memref sig .tc .vmem S1024x2048 .f32).view (Rect.unit (s := S1024x2048) ![0, 1536] S1024x256.size inb_S1024x2048_S1024x256_0_1536).toLoadRect (Bstg m c))⟩,
       ⟨Rect.unit (s := S2048x2048) (k0_off10 c) S1024x384.size (k0_off10_inb c), k0_pay13 (F := Ideal) (View.readAt (Elt Ideal) (Memref.whole cc0_stg0_0 : Memref sig .tc .vmem S2048x1024 .f32).view (Rect.unit (s := S2048x1024) (k0_off4 c) S1024x1024.size (k0_off4_inb c)).toLoadRect (Astg m c)) (View.readAt (Elt Ideal) (Memref.whole cc0_stg1_0 : Memref sig .tc .vmem S1024x2048 .f32).view (Rect.unit (s := S1024x2048) ![0, 1152] S1024x384.size inb_S1024x2048_S1024x384_0_1152).toLoadRect (Bstg m c))⟩,
       ⟨Rect.unit (s := S2048x2048) (k0_off9 c) S1024x384.size (k0_off9_inb c), k0_pay12 (F := Ideal) (View.readAt (Elt Ideal) (Memref.whole cc0_stg0_0 : Memref sig .tc .vmem S2048x1024 .f32).view (Rect.unit (s := S2048x1024) (k0_off8 c) S1024x1024.size (k0_off8_inb c)).toLoadRect (Astg m c)) (View.readAt (Elt Ideal) (Memref.whole cc0_stg1_0 : Memref sig .tc .vmem S1024x2048 .f32).view (Rect.unit (s := S1024x2048) ![0, 768] S1024x384.size inb_S1024x2048_S1024x384_0_768).toLoadRect (Bstg m c))⟩]) := by
  refine J1_cons A B (k0_off11_inb c) _ _ (off11_eq c) (Or.inr (by show 0 + 384 ≤ 1536; omega)) ?_
  refine J1_cons A B (k0_off10_inb c) _ _ (off10_eq c) (Or.inr (by show 0 + 384 ≤ 1152; omega)) ?_
  refine J1_cons A B (k0_off9_inb c) _ _ (off9_eq c) (Or.inr (by show 0 + 384 ≤ 768; omega)) ?_
  exact J1_nil A B (J1_0_stored A B m hagree c f3)

/-- Group 0, second reduce-scatter step: the staged quarter is the device's share plus the share of its neighbour across axis 0. -/
theorem val_rs0_1 (c : Dev nD)
    (fs : Buf (Elt Ideal) ((stgM0_0 : Memref sig .tc .vmem S1024x384 .bf16).view.loc (c : Thread nD τ))) (fl : Buf (Elt Ideal) ((commM0_0 : Memref sig .tc .vmem S1024x384 .bf16).view.loc (c : Thread nD τ))) (g : Buf (Elt Ideal) ((Memref.whole cc0_scratch0 : Memref sig .tc .vmem S2048x2048 .f32).view.loc (c : Thread nD τ)))
    (hJ1 : ∀ (i : Fin 1024) (j : Fin 384) (y : S2048x2048.Idx), (y 0).val = coordN c 0 * 1024 + i.val → (y 1).val = colLo 0 + j.val →
      (Memref.whole cc0_scratch0 : Memref sig .tc .vmem S2048x2048 .f32).view.read (Elt Ideal) g y = share A B c.val (coordN c 0 * 1024 + i.val) (colLo 0 + j.val))
    (hl : (Vreal A B).rs0_0 (nbr 0 c) ((commM0_0 : Memref sig .tc .vmem S1024x384 .bf16).view.read (Elt Ideal) fl)) :
    (Vreal A B).rs0_1 c ((stgM0_1 : Memref sig .tc .vmem S512x384 .bf16).view.read (Elt Ideal)
      (View.write (Elt Ideal) ((Memref.whole cc0_scratch7 : Memref sig .tc .vmem S1024x384 .bf16).access (Rect.unit (s := S1024x384) ![0, 0] S512x384.size inb_S1024x384_S512x384_0_0)) fs
        (k0_pay19 (F := Ideal) ((Memref.whole cc0_scratch0 : Memref sig .tc .vmem S2048x2048 .f32).view.readCov [⟨(Rect.unit (s := S2048x2048) (k0_off13 c) S512x384.size (k0_off13_inb c)), k0_pay18 (F := Ideal) (View.readAt (Elt Ideal) (Memref.whole cc0_scratch0 : Memref sig .tc .vmem S2048x2048 .f32).view (Rect.unit (s := S2048x2048) (k0_off13 c) S512x384.size (k0_off13_inb c)).toLoadRect g) (k0_pay17 (F := Ideal) (View.readAt (Elt Ideal) (Memref.whole cc0_scratch1 : Memref sig .tc .vmem S1792x384 .bf16).view (Rect.unit (s := S1792x384) (k0_off14 c) S512x384.size (k0_off14_inb c)).toLoadRect fl))⟩] (Rect.unit (s := S2048x2048) (k0_off13 c) S512x384.size (k0_off13_inb c)).toLoadRect)) Finset.univ)) := by
  intro r j
  refine (congrFun (View.read_write_univ _ _) (ix2 r j)).trans ?_
  unfold k0_pay19
  simp only [shapeCast_self]
  rw [View.readCov_cons_toLoadRect]
  unfold k0_pay18 k0_pay17
  simp only [shapeCast_self]
  have hi : (1 - cy c) * 512 + r.val < 1024 := by have := cy_le c; have := r.isLt; omega
  -- the rows of the accumulator that leave at this step hold the device's own share
  have h1 : (View.readAt (Elt Ideal) (Memref.whole cc0_scratch0 : Memref sig .tc .vmem S2048x2048 .f32).view (Rect.unit (s := S2048x2048) (k0_off13 c) S512x384.size (k0_off13_inb c)).toLoadRect g) (ix2 r j)
      = share A B c.val (sendRow 0 1 c + r.val) (colLo 0 + j.val) := by
    rw [View.readAt_eq_ld]
    have e : coordN c 0 * 1024 + ((1 - cy c) * 512 + r.val) = sendRow 0 1 c + r.val := by
      show cx c * 1024 + ((1 - cy c) * 512 + r.val) = cx c * 1024 + (1 - cy c) * 512 + r.val; omega
    have := hJ1 ⟨(1 - cy c) * 512 + r.val, hi⟩ j ((Rect.unit (s := S2048x2048) (k0_off13 c) S512x384.size (k0_off13_inb c)).emb (ix2 r j))
      (by show (k0_off13 c) 0 + 1 * r.val = cx c * 1024 + ((1 - cy c) * 512 + r.val); rw [off13_eq c]
          show cx c * 1024 + (1 - cy c) * 512 + 1 * r.val = _; omega)
      (by show (k0_off13 c) 1 + 1 * j.val = 0 + j.val; rw [off13_eq c]; show 0 + 1 * j.val = 0 + j.val; omega)
    rw [e] at this
    exact this
  -- the landed rows hold the share of the neighbour across axis 0 at the same rows
  have h2 : (View.readAt (Elt Ideal) (Memref.whole cc0_scratch1 : Memref sig .tc .vmem S1792x384 .bf16).view (Rect.unit (s := S1792x384) (k0_off14 c) S512x384.size (k0_off14_inb c)).toLoadRect fl) (ix2 r j)
      = share A B (nb 0 0 c).val (sendRow 0 1 c + r.val) (colLo 0 + j.val) := by
    have hh := hl ⟨(1 - cy c) * 512 + r.val, hi⟩ j
    rw [View.readAt_eq_ld]
    have he : (Rect.unit (s := S1792x384) (k0_off14 c) S512x384.size (k0_off14_inb c)).emb (ix2 r j) = (Rect.unit (s := S1792x384) ![0, 0] S1024x384.size inb_S1792x384_S1024x384_0_0).emb (ix2 (⟨(1 - cy c) * 512 + r.val, hi⟩ : Fin 1024) j) := funext fun a => Fin.ext (by
      match a with
      | ⟨0, _⟩ => show (k0_off14 c) 0 + 1 * r.val = 0 + 1 * ((1 - cy c) * 512 + r.val); rw [off14_eq c]; show (1 - cy c) * 512 + 1 * r.val = _; omega
      | ⟨1, _⟩ => show (k0_off14 c) 1 + 1 * j.val = 0 + 1 * j.val; rw [off14_eq c]; rfl)
    show (Memref.whole cc0_scratch1 : Memref sig .tc .vmem S1792x384 .bf16).view.read (Elt Ideal) fl ((Rect.unit (s := S1792x384) (k0_off14 c) S512x384.size (k0_off14_inb c)).emb (ix2 r j)) = _
    rw [he]
    refine hh.trans ?_
    have e : sendRow 0 0 (nbr 0 c) + ((1 - cy c) * 512 + r.val) = sendRow 0 1 c + r.val := by
      show (1 - cx (nbr 0 c)) * 1024 + ((1 - cy c) * 512 + r.val) = cx c * 1024 + (1 - cy c) * 512 + r.val
      rw [cx_nbr0]; have := cx_le c; omega
    show share A B (nbr 0 c).val (sendRow 0 0 (nbr 0 c) + ((1 - cy c) * 512 + r.val)) (colLo 0 + j.val) = _
    rw [e]; rfl
  exact congrArg₂ (fun a b : EReal => a + b) h1 h2

/-- The same over the accumulator the run has at that point, its contents before the kept halves were stored arbitrary. -/
theorem val_rs0_1_run (m : (ℓ : Loc nD τ sig) → Buf (Elt Ideal) ℓ)
    (hagree : ∀ c : Dev nD,
      m ((c : Thread nD τ).loc main_arg0) = Layout.block ⟨2, ![2048, 1024]⟩ ⟨2, ![2048, 8192]⟩ 1 8 c A
      ∧ m ((c : Thread nD τ).loc main_arg1) = Layout.block ⟨2, ![1024, 2048]⟩ ⟨2, ![8192, 2048]⟩ 0 8 c B)
    (c : Dev nD) (fs : Buf (Elt Ideal) ((stgM0_0 : Memref sig .tc .vmem S1024x384 .bf16).view.loc (c : Thread nD τ))) (fl : Buf (Elt Ideal) ((commM0_0 : Memref sig .tc .vmem S1024x384 .bf16).view.loc (c : Thread nD τ)))
    (f3 : Buf (Elt Ideal) ((Memref.whole cc0_scratch0 : Memref sig .tc .vmem S2048x2048 .f32).view.loc (c : Thread nD τ)))
    (hl : (Vreal A B).rs0_0 (nbr 0 c) ((commM0_0 : Memref sig .tc .vmem S1024x384 .bf16).view.read (Elt Ideal) fl)) :
    (Vreal A B).rs0_1 c ((stgM0_1 : Memref sig .tc .vmem S512x384 .bf16).view.read (Elt Ideal)
      (View.write (Elt Ideal) ((Memref.whole cc0_scratch7 : Memref sig .tc .vmem S1024x384 .bf16).access (Rect.unit (s := S1024x384) ![0, 0] S512x384.size inb_S1024x384_S512x384_0_0)) fs
        (k0_pay19 (F := Ideal) ((Memref.whole cc0_scratch0 : Memref sig .tc .vmem S2048x2048 .f32).view.readCov [⟨(Rect.unit (s := S2048x2048) (k0_off13 c) S512x384.size (k0_off13_inb c)), k0_pay18 (F := Ideal) (View.readAt (Elt Ideal) (Memref.whole cc0_scratch0 : Memref sig .tc .vmem S2048x2048 .f32).view (Rect.unit (s := S2048x2048) (k0_off13 c) S512x384.size (k0_off13_inb c)).toLoadRect ((Memref.whole cc0_scratch0 : Memref sig .tc .vmem S2048x2048 .f32).view.writes (Elt Ideal) ((Memref.whole cc0_scratch0 : Memref sig .tc .vmem S2048x2048 .f32).view.writes (Elt Ideal) f3
      [⟨Rect.unit (s := S2048x2048) (k0_off7 c) S1024x384.size (k0_off7_inb c), k0_pay11 (F := Ideal) (View.readAt (Elt Ideal) (Memref.whole cc0_stg0_0 : Memref sig .tc .vmem S2048x1024 .f32).view (Rect.unit (s := S2048x1024) (k0_off6 c) S1024x1024.size (k0_off6_inb c)).toLoadRect (Astg m c)) (View.readAt (Elt Ideal) (Memref.whole cc0_stg1_0 : Memref sig .tc .vmem S1024x2048 .f32).view (Rect.unit (s := S1024x2048) ![0, 384] S1024x384.size inb_S1024x2048_S1024x384_0_384).toLoadRect (Bstg m c))⟩,
       ⟨Rect.unit (s := S2048x2048) (k0_off5 c) S1024x384.size (k0_off5_inb c), k0_pay10 (F := Ideal) (View.readAt (Elt Ideal) (Memref.whole cc0_stg0_0 : Memref sig .tc .vmem S2048x1024 .f32).view (Rect.unit (s := S2048x1024) (k0_off4 c) S1024x1024.size (k0_off4_inb c)).toLoadRect (Astg m c)) (View.readAt (Elt Ideal) (Memref.whole cc0_stg1_0 : Memref sig .tc .vmem S1024x2048 .f32).view (Rect.unit (s := S1024x2048) ![0, 0] S1024x384.size inb_S1024x2048_S1024x384_0_0).toLoadRect (Bstg m c))⟩])
      [⟨Rect.unit (s := S2048x2048) (k0_off11 c) S1024x256.size (k0_off11_inb c), k0_pay14 (F := Ideal) (View.readAt (Elt Ideal) (Memref.whole cc0_stg0_0 : Memref sig .tc .vmem S2048x1024 .f32).view (Rect.unit (s := S2048x1024) (k0_off6 c) S1024x1024.size (k0_off6_inb c)).toLoadRect (Astg m c)) (View.readAt (Elt Ideal) (Memref.whole cc0_stg1_0 : Memref sig .tc .vmem S1024x2048 .f32).view (Rect.unit (s := S1024x2048) ![0, 1536] S1024x256.size inb_S1024x2048_S1024x256_0_1536).toLoadRect (Bstg m c))⟩,
       ⟨Rect.unit (s := S2048x2048) (k0_off10 c) S1024x384.size (k0_off10_inb c), k0_pay13 (F := Ideal) (View.readAt (Elt Ideal) (Memref.whole cc0_stg0_0 : Memref sig .tc .vmem S2048x1024 .f32).view (Rect.unit (s := S2048x1024) (k0_off4 c) S1024x1024.size (k0_off4_inb c)).toLoadRect (Astg m c)) (View.readAt (Elt Ideal) (Memref.whole cc0_stg1_0 : Memref sig .tc .vmem S1024x2048 .f32).view (Rect.unit (s := S1024x2048) ![0, 1152] S1024x384.size inb_S1024x2048_S1024x384_0_1152).toLoadRect (Bstg m c))⟩,
       ⟨Rect.unit (s := S2048x2048) (k0_off9 c) S1024x384.size (k0_off9_inb c), k0_pay12 (F := Ideal) (View.readAt (Elt Ideal) (Memref.whole cc0_stg0_0 : Memref sig .tc .vmem S2048x1024 .f32).view (Rect.unit (s := S2048x1024) (k0_off8 c) S1024x1024.size (k0_off8_inb c)).toLoadRect (Astg m c)) (View.readAt (Elt Ideal) (Memref.whole cc0_stg1_0 : Memref sig .tc .vmem S1024x2048 .f32).view (Rect.unit (s := S1024x2048) ![0, 768] S1024x384.size inb_S1024x2048_S1024x384_0_768).toLoadRect (Bstg m c))⟩])) (k0_pay17 (F := Ideal) (View.readAt (Elt Ideal) (Memref.whole cc0_scratch1 : Memref sig .tc .vmem S1792x384 .bf16).view (Rect.unit (s := S1792x384) (k0_off14 c) S512x384.size (k0_off14_inb c)).toLoadRect fl))⟩] (Rect.unit (s := S2048x2048) (k0_off13 c) S512x384.size (k0_off13_inb c)).toLoadRect)) Finset.univ)) :=
  val_rs0_1 A B c fs fl _ (J1_0_carried A B m hagree c f3) hl

/-- Group 1: the stretch that stores its kept half leaves the device's share in the accumulator's kept rows of its columns. -/
theorem J1_1_stored (m : (ℓ : Loc nD τ sig) → Buf (Elt Ideal) ℓ)
    (hagree : ∀ c : Dev nD,
      m ((c : Thread nD τ).loc main_arg0) = Layout.block ⟨2, ![2048, 1024]⟩ ⟨2, ![2048, 8192]⟩ 1 8 c A
      ∧ m ((c : Thread nD τ).loc main_arg1) = Layout.block ⟨2, ![1024, 2048]⟩ ⟨2, ![8192, 2048]⟩ 0 8 c B)
    (c : Dev nD) (g : Buf (Elt Ideal) ((Memref.whole cc0_scratch0 : Memref sig .tc .vmem S2048x2048 .f32).view.loc (c : Thread nD τ))) :
    J1 A B 1 384 c ((Memref.whole cc0_scratch0 : Memref sig .tc .vmem S2048x2048 .f32).view.writes (Elt Ideal) g
      [⟨Rect.unit (s := S2048x2048) (k0_off7 c) S1024x384.size (k0_off7_inb c), k0_pay11 (F := Ideal) (View.readAt (Elt Ideal) (Memref.whole cc0_stg0_0 : Memref sig .tc .vmem S2048x1024 .f32).view (Rect.unit (s := S2048x1024) (k0_off6 c) S1024x1024.size (k0_off6_inb c)).toLoadRect (Astg m c)) (View.readAt (Elt Ideal) (Memref.whole cc0_stg1_0 : Memref sig .tc .vmem S1024x2048 .f32).view (Rect.unit (s := S1024x2048) ![0, 384] S1024x384.size inb_S1024x2048_S1024x384_0_384).toLoadRect (Bstg m c))⟩,
       ⟨Rect.unit (s := S2048x2048) (k0_off5 c) S1024x384.size (k0_off5_inb c), k0_pay10 (F := Ideal) (View.readAt (Elt Ideal) (Memref.whole cc0_stg0_0 : Memref sig .tc .vmem S2048x1024 .f32).view (Rect.unit (s := S2048x1024) (k0_off4 c) S1024x1024.size (k0_off4_inb c)).toLoadRect (Astg m c)) (View.readAt (Elt Ideal) (Memref.whole cc0_stg1_0 : Memref sig .tc .vmem S1024x2048 .f32).view (Rect.unit (s := S1024x2048) ![0, 0] S1024x384.size inb_S1024x2048_S1024x384_0_0).toLoadRect (Bstg m c))⟩]) := by
  intro i j y h0 h1
  rw [View.read_writes_cons_unit_of_mem (Memref.whole cc0_scratch0 : Memref sig .tc .vmem S2048x2048 .f32).view g (k0_off7_inb c) _ _ y (ix2 i j) (off7_eq c)
    (fun a => by
      match a with
      | ⟨0, _⟩ => exact h0
      | ⟨1, _⟩ => exact h1)]
  unfold k0_pay11
  simp only [shapeCast_self]
  refine (matmul384_apply _ _ i j).trans ?_
  show _ = share A B c.val (coordN c 1 * 1024 + i.val) (colLo 1 + j.val)
  unfold share
  rw [Finset.sum_range]
  refine Finset.sum_congr rfl fun κ _ => ?_
  have hA' := readA_apply A m (fun c => (hagree c).1) c _ (k0_off6_inb c) (cy c * 1024) (off6_eq c) i κ
  have hB' := readB_apply B m (fun c => (hagree c).2) c 384 384 inb_S1024x2048_S1024x384_0_384 κ j
  exact congrArg₂ (fun a b : EReal => a * b) hA' hB'

/-- Group 2: the stretch that stores its kept half leaves the device's share in the accumulator's kept rows of its columns. -/
theorem J1_2_stored (m : (ℓ : Loc nD τ sig) → Buf (Elt Ideal) ℓ)
    (hagree : ∀ c : Dev nD,
      m ((c : Thread nD τ).loc main_arg0) = Layout.block ⟨2, ![2048, 1024]⟩ ⟨2, ![2048, 8192]⟩ 1 8 c A
      ∧ m ((c : Thread nD τ).loc main_arg1) = Layout.block ⟨2, ![1024, 2048]⟩ ⟨2, ![8192, 2048]⟩ 0 8 c B)
    (c : Dev nD) (g : Buf (Elt Ideal) ((Memref.whole cc0_scratch0 : Memref sig .tc .vmem S2048x2048 .f32).view.loc (c : Thread nD τ))) :
    J1 A B 2 384 c ((Memref.whole cc0_scratch0 : Memref sig .tc .vmem S2048x2048 .f32).view.writes (Elt Ideal) g
      [⟨Rect.unit (s := S2048x2048) (k0_off11 c) S1024x256.size (k0_off11_inb c), k0_pay14 (F := Ideal) (View.readAt (Elt Ideal) (Memref.whole cc0_stg0_0 : Memref sig .tc .vmem S2048x1024 .f32).view (Rect.unit (s := S2048x1024) (k0_off6 c) S1024x1024.size (k0_off6_inb c)).toLoadRect (Astg m c)) (View.readAt (Elt Ideal) (Memref.whole cc0_stg1_0 : Memref sig .tc .vmem S1024x2048 .f32).view (Rect.unit (s := S1024x2048) ![0, 1536] S1024x256.size inb_S1024x2048_S1024x256_0_1536).toLoadRect (Bstg m c))⟩,
       ⟨Rect.unit (s := S2048x2048) (k0_off10 c) S1024x384.size (k0_off10_inb c), k0_pay13 (F := Ideal) (View.readAt (Elt Ideal) (Memref.whole cc0_stg0_0 : Memref sig .tc .vmem S2048x1024 .f32).view (Rect.unit (s := S2048x1024) (k0_off4 c) S1024x1024.size (k0_off4_inb c)).toLoadRect (Astg m c)) (View.readAt (Elt Ideal) (Memref.whole cc0_stg1_0 : Memref sig .tc .vmem S1024x2048 .f32).view (Rect.unit (s := S1024x2048) ![0, 1152] S1024x384.size inb_S1024x2048_S1024x384_0_1152).toLoadRect (Bstg m c))⟩,
       ⟨Rect.unit (s := S2048x2048) (k0_off9 c) S1024x384.size (k0_off9_inb c), k0_pay12 (F := Ideal) (View.readAt (Elt Ideal) (Memref.whole cc0_stg0_0 : Memref sig .tc .vmem S2048x1024 .f32).view (Rect.unit (s := S2048x1024) (k0_off8 c) S1024x1024.size (k0_off8_inb c)).toLoadRect (Astg m c)) (View.readAt (Elt Ideal) (Memref.whole cc0_stg1_0 : Memref sig .tc .vmem S1024x2048 .f32).view (Rect.unit (s := S1024x2048) ![0, 768] S1024x384.size inb_S1024x2048_S1024x384_0_768).toLoadRect (Bstg m c))⟩]) := by
  refine J1_cons A B (k0_off11_inb c) _ _ (off11_eq c) (Or.inr (by show 768 + 384 ≤ 1536; omega)) ?_
  refine J1_cons A B (k0_off10_inb c) _ _ (off10_eq c) (Or.inr (by show 768 + 384 ≤ 1152; omega)) ?_
  intro i j y h0 h1
  rw [View.read_writes_cons_unit_of_mem (Memref.whole cc0_scratch0 : Memref sig .tc .vmem S2048x2048 .f32).view g (k0_off9_inb c) _ _ y (ix2 i j) (off9_eq c)
    (fun a => by
      match a with
      | ⟨0, _⟩ => exact h0
      | ⟨1, _⟩ => exact h1)]
  unfold k0_pay12
  simp only [shapeCast_self]
  refine (matmul384_apply _ _ i j).trans ?_
  show _ = share A B c.val (coordN c 2 * 1024 + i.val) (colLo 2 + j.val)
  unfold share
  rw [Finset.sum_range]
  refine Finset.sum_congr rfl fun κ _ => ?_
  have hA' := readA_apply A m (fun c => (hagree c).1) c _ (k0_off8_inb c) (cz c * 1024) (off8_eq c) i κ
  have hB' := readB_apply B m (fun c => (hagree c).2) c 384 768 inb_S1024x2048_S1024x384_0_768 κ j
  exact congrArg₂ (fun a b : EReal => a * b) hA' hB'

/-- Group 3: the stretch that stores its kept half leaves the device's share in the accumulator's kept rows of its columns. -/
theorem J1_3_stored (m : (ℓ : Loc nD τ sig) → Buf (Elt Ideal) ℓ)
    (hagree : ∀ c : Dev nD,
      m ((c : Thread nD τ).loc main_arg0) = Layout.block ⟨2, ![2048, 1024]⟩ ⟨2, ![2048, 8192]⟩ 1 8 c A
      ∧ m ((c : Thread nD τ).loc main_arg1) = Layout.block ⟨2, ![1024, 2048]⟩ ⟨2, ![8192, 2048]⟩ 0 8 c B)
    (c : Dev nD) (g : Buf (Elt Ideal) ((Memref.whole cc0_scratch0 : Memref sig .tc .vmem S2048x2048 .f32).view.loc (c : Thread nD τ))) :
    J1 A B 3 384 c ((Memref.whole cc0_scratch0 : Memref sig .tc .vmem S2048x2048 .f32).view.writes (Elt Ideal) g
      [⟨Rect.unit (s := S2048x2048) (k0_off11 c) S1024x256.size (k0_off11_inb c), k0_pay14 (F := Ideal) (View.readAt (Elt Ideal) (Memref.whole cc0_stg0_0 : Memref sig .tc .vmem S2048x1024 .f32).view (Rect.unit (s := S2048x1024) (k0_off6 c) S1024x1024.size (k0_off6_inb c)).toLoadRect (Astg m c)) (View.readAt (Elt Ideal) (Memref.whole cc0_stg1_0 : Memref sig .tc .vmem S1024x2048 .f32).view (Rect.unit (s := S1024x2048) ![0, 1536] S1024x256.size inb_S1024x2048_S1024x256_0_1536).toLoadRect (Bstg m c))⟩,
       ⟨Rect.unit (s := S2048x2048) (k0_off10 c) S1024x384.size (k0_off10_inb c), k0_pay13 (F := Ideal) (View.readAt (Elt Ideal) (Memref.whole cc0_stg0_0 : Memref sig .tc .vmem S2048x1024 .f32).view (Rect.unit (s := S2048x1024) (k0_off4 c) S1024x1024.size (k0_off4_inb c)).toLoadRect (Astg m c)) (View.readAt (Elt Ideal) (Memref.whole cc0_stg1_0 : Memref sig .tc .vmem S1024x2048 .f32).view (Rect.unit (s := S1024x2048) ![0, 1152] S1024x384.size inb_S1024x2048_S1024x384_0_1152).toLoadRect (Bstg m c))⟩,
       ⟨Rect.unit (s := S2048x2048) (k0_off9 c) S1024x384.size (k0_off9_inb c), k0_pay12 (F := Ideal) (View.readAt (Elt Ideal) (Memref.whole cc0_stg0_0 : Memref sig .tc .vmem S2048x1024 .f32).view (Rect.unit (s := S2048x1024) (k0_off8 c) S1024x1024.size (k0_off8_inb c)).toLoadRect (Astg m c)) (View.readAt (Elt Ideal) (Memref.whole cc0_stg1_0 : Memref sig .tc .vmem S1024x2048 .f32).view (Rect.unit (s := S1024x2048) ![0, 768] S1024x384.size inb_S1024x2048_S1024x384_0_768).toLoadRect (Bstg m c))⟩]) := by
  refine J1_cons A B (k0_off11_inb c) _ _ (off11_eq c) (Or.inr (by show 1152 + 384 ≤ 1536; omega)) ?_
  intro i j y h0 h1
  rw [View.read_writes_cons_unit_of_mem (Memref.whole cc0_scratch0 : Memref sig .tc .vmem S2048x2048 .f32).view g (k0_off10_inb c) _ _ y (ix2 i j) (off10_eq c)
    (fun a => by
      match a with
      | ⟨0, _⟩ => exact h0
      | ⟨1, _⟩ => exact h1)]
  unfold k0_pay13
  simp only [shapeCast_self]
  refine (matmul384_apply _ _ i j).trans ?_
  show _ = share A B c.val (coordN c 3 * 1024 + i.val) (colLo 3 + j.val)
  unfold share
  rw [Finset.sum_range]
  refine Finset.sum_congr rfl fun κ _ => ?_
  have hA' := readA_apply A m (fun c => (hagree c).1) c _ (k0_off4_inb c) (cx c * 1024) (off4_eq c) i κ
  have hB' := readB_apply B m (fun c => (hagree c).2) c 384 1152 inb_S1024x2048_S1024x384_0_1152 κ j
  exact congrArg₂ (fun a b : EReal => a * b) hA' hB'

/-- Group 4: the stretch that stores its kept half leaves the device's share in the accumulator's kept rows of its columns. -/
theorem J1_4_stored (m : (ℓ : Loc nD τ sig) → Buf (Elt Ideal) ℓ)
    (hagree : ∀ c : Dev nD,
      m ((c : Thread nD τ).loc main_arg0) = Layout.block ⟨2, ![2048, 1024]⟩ ⟨2, ![2048, 8192]⟩ 1 8 c A
      ∧ m ((c : Thread nD τ).loc main_arg1) = Layout.block ⟨2, ![1024, 2048]⟩ ⟨2, ![8192, 2048]⟩ 0 8 c B)
    (c : Dev nD) (g : Buf (Elt Ideal) ((Memref.whole cc0_scratch0 : Memref sig .tc .vmem S2048x2048 .f32).view.loc (c : Thread nD τ))) :
    J1 A B 4 256 c ((Memref.whole cc0_scratch0 : Memref sig .tc .vmem S2048x2048 .f32).view.writes (Elt Ideal) g
      [⟨Rect.unit (s := S2048x2048) (k0_off11 c) S1024x256.size (k0_off11_inb c), k0_pay14 (F := Ideal) (View.readAt (Elt Ideal) (Memref.whole cc0_stg0_0 : Memref sig .tc .vmem S2048x1024 .f32).view (Rect.unit (s := S2048x1024) (k0_off6 c) S1024x1024.size (k0_off6_inb c)).toLoadRect (Astg m c)) (View.readAt (Elt Ideal) (Memref.whole cc0_stg1_0 : Memref sig .tc .vmem S1024x2048 .f32).view (Rect.unit (s := S1024x2048) ![0, 1536] S1024x256.size inb_S1024x2048_S1024x256_0_1536).toLoadRect (Bstg m c))⟩,
       ⟨Rect.unit (s := S2048x2048) (k0_off10 c) S1024x384.size (k0_off10_inb c), k0_pay13 (F := Ideal) (View.readAt (Elt Ideal) (Memref.whole cc0_stg0_0 : Memref sig .tc .vmem S2048x1024 .f32).view (Rect.unit (s := S2048x1024) (k0_off4 c) S1024x1024.size (k0_off4_inb c)).toLoadRect (Astg m c)) (View.readAt (Elt Ideal) (Memref.whole cc0_stg1_0 : Memref sig .tc .vmem S1024x2048 .f32).view (Rect.unit (s := S1024x2048) ![0, 1152] S1024x384.size inb_S1024x2048_S1024x384_0_1152).toLoadRect (Bstg m c))⟩,
       ⟨Rect.unit (s := S2048x2048) (k0_off9 c) S1024x384.size (k0_off9_inb c), k0_pay12 (F := Ideal) (View.readAt (Elt Ideal) (Memref.whole cc0_stg0_0 : Memref sig .tc .vmem S2048x1024 .f32).view (Rect.unit (s := S2048x1024) (k0_off8 c) S1024x1024.size (k0_off8_inb c)).toLoadRect (Astg m c)) (View.readAt (Elt Ideal) (Memref.whole cc0_stg1_0 : Memref sig .tc .vmem S1024x2048 .f32).view (Rect.unit (s := S1024x2048) ![0, 768] S1024x384.size inb_S1024x2048_S1024x384_0_768).toLoadRect (Bstg m c))⟩]) := by
  intro i j y h0 h1
  rw [View.read_writes_cons_unit_of_mem (Memref.whole cc0_scratch0 : Memref sig .tc .vmem S2048x2048 .f32).view g (k0_off11_inb c) _ _ y (ix2 i j) (off11_eq c)
    (fun a => by
      match a with
      | ⟨0, _⟩ => exact h0
      | ⟨1, _⟩ => exact h1)]
  unfold k0_pay14
  simp only [shapeCast_self]
  refine (matmul256_apply _ _ i j).trans ?_
  show _ = share A B c.val (coordN c 4 * 1024 + i.val) (colLo 4 + j.val)
  unfold share
  rw [Finset.sum_range]
  refine Finset.sum_congr rfl fun κ _ => ?_
  have hA' := readA_apply A m (fun c => (hagree c).1) c _ (k0_off6_inb c) (cy c * 1024) (off6_eq c) i κ
  have hB' := readB_apply B m (fun c => (hagree c).2) c 256 1536 inb_S1024x2048_S1024x256_0_1536 κ j
  exact congrArg₂ (fun a b : EReal => a * b) hA' hB'

/-- Group 5: the stretch that stores its kept half leaves the device's share in the accumulator's kept rows of its columns. -/
theorem J1_5_stored (m : (ℓ : Loc nD τ sig) → Buf (Elt Ideal) ℓ)
    (hagree : ∀ c : Dev nD,
      m ((c : Thread nD τ).loc main_arg0) = Layout.block ⟨2, ![2048, 1024]⟩ ⟨2, ![2048, 8192]⟩ 1 8 c A
      ∧ m ((c : Thread nD τ).loc main_arg1) = Layout.block ⟨2, ![1024, 2048]⟩ ⟨2, ![8192, 2048]⟩ 0 8 c B)
    (c : Dev nD) (g : Buf (Elt Ideal) ((Memref.whole cc0_scratch0 : Memref sig .tc .vmem S2048x2048 .f32).view.loc (c : Thread nD τ))) :
    J1 A B 5 256 c ((Memref.whole cc0_scratch0 : Memref sig .tc .vmem S2048x2048 .f32).view.writes (Elt Ideal) g
      [⟨Rect.unit (s := S2048x2048) (k0_off12 c) S1024x256.size (k0_off12_inb c), k0_pay16 (F := Ideal) (k0_pay15 (View.readAt (Elt Ideal) (Memref.whole cc0_stg0_0 : Memref sig .tc .vmem S2048x1024 .f32).view (Rect.unit (s := S2048x1024) (k0_off8 c) S1024x1024.size (k0_off8_inb c)).toLoadRect (Astg m c))) (View.readAt (Elt Ideal) (Memref.whole cc0_stg1_0 : Memref sig .tc .vmem S1024x2048 .f32).view (Rect.unit (s := S1024x2048) ![0, 1792] S1024x256.size inb_S1024x2048_S1024x256_0_1792).toLoadRect (Bstg m c))⟩]) := by
  intro i j y h0 h1
  rw [View.read_writes_cons_unit_of_mem (Memref.whole cc0_scratch0 : Memref sig .tc .vmem S2048x2048 .f32).view g (k0_off12_inb c) _ _ y (ix2 i j) (off12_eq c)
    (fun a => by
      match a with
      | ⟨0, _⟩ => exact h0
      | ⟨1, _⟩ => exact h1)]
  unfold k0_pay16 k0_pay15
  simp only [shapeCast_self]
  refine (matmul256_apply _ _ i j).trans ?_
  show _ = share A B c.val (coordN c 5 * 1024 + i.val) (colLo 5 + j.val)
  unfold share
  rw [Finset.sum_range]
  refine Finset.sum_congr rfl fun κ _ => ?_
  have hA' := readA_apply A m (fun c => (hagree c).1) c _ (k0_off8_inb c) (cz c * 1024) (off8_eq c) i κ
  have hB' := readB_apply B m (fun c => (hagree c).2) c 256 1792 inb_S1024x2048_S1024x256_0_1792 κ j
  exact congrArg₂ (fun a b : EReal => a * b) hA' hB'

/-- Group 1, second reduce-scatter step: the staged quarter is the device's share plus the share of its neighbour across the first step's axis. -/
theorem val_rs1_1 (c : Dev nD)
    (fs : Buf (Elt Ideal) ((stgM1_0 : Memref sig .tc .vmem S1024x384 .bf16).view.loc (c : Thread nD τ))) (fl : Buf (Elt Ideal) ((commM1_0 : Memref sig .tc .vmem S1024x384 .bf16).view.loc (c : Thread nD τ)))
    (g : Buf (Elt Ideal) ((Memref.whole cc0_scratch0 : Memref sig .tc .vmem S2048x2048 .f32).view.loc (c : Thread nD τ)))
    (hJ1 : J1 A B 1 384 c g)
    (hl : (Vreal A B).rs1_0 (nbr 1 c) ((commM1_0 : Memref sig .tc .vmem S1024x384 .bf16).view.read (Elt Ideal) fl)) :
    (Vreal A B).rs1_1 c ((stgM1_1 : Memref sig .tc .vmem S512x384 .bf16).view.read (Elt Ideal)
      (View.write (Elt Ideal) ((Memref.whole cc0_scratch8 : Memref sig .tc .vmem S1024x384 .bf16).access (Rect.unit (s := S1024x384) ![0, 0] S512x384.size inb_S1024x384_S512x384_0_0)) fs
        (k0_pay22 (F := Ideal) ((Memref.whole cc0_scratch0 : Memref sig .tc .vmem S2048x2048 .f32).view.readCov [⟨(Rect.unit (s := S2048x2048) (k0_off17 c) S512x384.size (k0_off17_inb c)), k0_pay21 (F := Ideal) (View.readAt (Elt Ideal) (Memref.whole cc0_scratch0 : Memref sig .tc .vmem S2048x2048 .f32).view (Rect.unit (s := S2048x2048) (k0_off17 c) S512x384.size (k0_off17_inb c)).toLoadRect g) (View.readAt (Elt Ideal) (Memref.whole cc0_scratch2 : Memref sig .tc .vmem S1792x384 .bf16).view (Rect.unit (s := S1792x384) (k0_off18 c) S512x384.size (k0_off18_inb c)).toLoadRect fl)⟩] (Rect.unit (s := S2048x2048) (k0_off17 c) S512x384.size (k0_off17_inb c)).toLoadRect)) Finset.univ)) := by
  intro r j
  refine (congrFun (View.read_write_univ _ _) (ix2 r j)).trans ?_
  unfold k0_pay22
  simp only [shapeCast_self]
  rw [View.readCov_cons_toLoadRect]
  unfold k0_pay21
  simp only [shapeCast_self]
  have hi : (1 - cz c) * 512 + r.val < 1024 := by have := cz_le c; have := r.isLt; omega
  have h1 : (View.readAt (Elt Ideal) (Memref.whole cc0_scratch0 : Memref sig .tc .vmem S2048x2048 .f32).view (Rect.unit (s := S2048x2048) (k0_off17 c) S512x384.size (k0_off17_inb c)).toLoadRect g) (ix2 r j)
      = share A B c.val (sendRow 1 1 c + r.val) (colLo 1 + j.val) := by
    rw [View.readAt_eq_ld]
    have e : coordN c 1 * 1024 + ((1 - cz c) * 512 + r.val) = sendRow 1 1 c + r.val := by
      show cy c * 1024 + ((1 - cz c) * 512 + r.val) = cy c * 1024 + (1 - cz c) * 512 + r.val; omega
    have := hJ1 ⟨(1 - cz c) * 512 + r.val, hi⟩ j ((Rect.unit (s := S2048x2048) (k0_off17 c) S512x384.size (k0_off17_inb c)).emb (ix2 r j))
      (by show (k0_off17 c) 0 + 1 * r.val = cy c * 1024 + ((1 - cz c) * 512 + r.val); rw [off17_eq c]
          show cy c * 1024 + (1 - cz c) * 512 + 1 * r.val = _; omega)
      (by show (k0_off17 c) 1 + 1 * j.val = 384 + j.val; rw [off17_eq c]; show 384 + 1 * j.val = 384 + j.val; omega)
    rw [e] at this
    exact this
  have h2 : (View.readAt (Elt Ideal) (Memref.whole cc0_scratch2 : Memref sig .tc .vmem S1792x384 .bf16).view (Rect.unit (s := S1792x384) (k0_off18 c) S512x384.size (k0_off18_inb c)).toLoadRect fl) (ix2 r j)
      = share A B (nb 1 0 c).val (sendRow 1 1 c + r.val) (colLo 1 + j.val) := by
    have hh := hl ⟨(1 - cz c) * 512 + r.val, hi⟩ j
    rw [View.readAt_eq_ld]
    have he : (Rect.unit (s := S1792x384) (k0_off18 c) S512x384.size (k0_off18_inb c)).emb (ix2 r j) = (Rect.unit (s := S1792x384) ![0, 0] S1024x384.size inb_S1792x384_S1024x384_0_0).emb (ix2 (⟨(1 - cz c) * 512 + r.val, hi⟩ : Fin 1024) j) := funext fun a => Fin.ext (by
      match a with
      | ⟨0, _⟩ => show (k0_off18 c) 0 + 1 * r.val = 0 + 1 * ((1 - cz c) * 512 + r.val); rw [off18_eq c]; show (1 - cz c) * 512 + 1 * r.val = _; omega
      | ⟨1, _⟩ => show (k0_off18 c) 1 + 1 * j.val = 0 + 1 * j.val; rw [off18_eq c]; rfl)
    show (Memref.whole cc0_scratch2 : Memref sig .tc .vmem S1792x384 .bf16).view.read (Elt Ideal) fl ((Rect.unit (s := S1792x384) (k0_off18 c) S512x384.size (k0_off18_inb c)).emb (ix2 r j)) = _
    rw [he]
    refine hh.trans ?_
    have e : sendRow 1 0 (nbr 1 c) + ((1 - cz c) * 512 + r.val) = sendRow 1 1 c + r.val := by
      show (1 - cy (nbr 1 c)) * 1024 + ((1 - cz c) * 512 + r.val) = cy c * 1024 + (1 - cz c) * 512 + r.val
      rw [cy_nbr1]; have := cy_le c; omega
    show share A B (nbr 1 c).val (sendRow 1 0 (nbr 1 c) + ((1 - cz c) * 512 + r.val)) (colLo 1 + j.val) = _
    rw [e]; rfl
  exact congrArg₂ (fun a b : EReal => a + b) h1 h2

/-- Group 2, second reduce-scatter step: the staged quarter is the device's share plus the share of its neighbour across the first step's axis. -/
theorem val_rs2_1 (c : Dev nD)
    (fs : Buf (Elt Ideal) ((stgM2_0 : Memref sig .tc .vmem S1024x384 .bf16).view.loc (c : Thread nD τ))) (fl : Buf (Elt Ideal) ((commM2_0 : Memref sig .tc .vmem S1024x384 .bf16).view.loc (c : Thread nD τ)))
    (g : Buf (Elt Ideal) ((Memref.whole cc0_scratch0 : Memref sig .tc .vmem S2048x2048 .f32).view.loc (c : Thread nD τ)))
    (hJ1 : J1 A B 2 384 c g)
    (hl : (Vreal A B).rs2_0 (nbr 2 c) ((commM2_0 : Memref sig .tc .vmem S1024x384 .bf16).view.read (Elt Ideal) fl)) :
    (Vreal A B).rs2_1 c ((stgM2_1 : Memref sig .tc .vmem S512x384 .bf16).view.read (Elt Ideal)
      (View.write (Elt Ideal) ((Memref.whole cc0_scratch9 : Memref sig .tc .vmem S1024x384 .bf16).access (Rect.unit (s := S1024x384) ![0, 0] S512x384.size inb_S1024x384_S512x384_0_0)) fs
        (k0_pay25 (F := Ideal) ((Memref.whole cc0_scratch0 : Memref sig .tc .vmem S2048x2048 .f32).view.readCov [⟨(Rect.unit (s := S2048x2048) (k0_off21 c) S512x384.size (k0_off21_inb c)), k0_pay24 (F := Ideal) (View.readAt (Elt Ideal) (Memref.whole cc0_scratch0 : Memref sig .tc .vmem S2048x2048 .f32).view (Rect.unit (s := S2048x2048) (k0_off21 c) S512x384.size (k0_off21_inb c)).toLoadRect g) (View.readAt (Elt Ideal) (Memref.whole cc0_scratch3 : Memref sig .tc .vmem S1792x384 .bf16).view (Rect.unit (s := S1792x384) (k0_off22 c) S512x384.size (k0_off22_inb c)).toLoadRect fl)⟩] (Rect.unit (s := S2048x2048) (k0_off21 c) S512x384.size (k0_off21_inb c)).toLoadRect)) Finset.univ)) := by
  intro r j
  refine (congrFun (View.read_write_univ _ _) (ix2 r j)).trans ?_
  unfold k0_pay25
  simp only [shapeCast_self]
  rw [View.readCov_cons_toLoadRect]
  unfold k0_pay24
  simp only [shapeCast_self]
  have hi : (1 - cx c) * 512 + r.val < 1024 := by have := cx_le c; have := r.isLt; omega
  have h1 : (View.readAt (Elt Ideal) (Memref.whole cc0_scratch0 : Memref sig .tc .vmem S2048x2048 .f32).view (Rect.unit (s := S2048x2048) (k0_off21 c) S512x384.size (k0_off21_inb c)).toLoadRect g) (ix2 r j)
      = share A B c.val (sendRow 2 1 c + r.val) (colLo 2 + j.val) := by
    rw [View.readAt_eq_ld]
    have e : coordN c 2 * 1024 + ((1 - cx c) * 512 + r.val) = sendRow 2 1 c + r.val := by
      show cz c * 1024 + ((1 - cx c) * 512 + r.val) = cz c * 1024 + (1 - cx c) * 512 + r.val; omega
    have := hJ1 ⟨(1 - cx c) * 512 + r.val, hi⟩ j ((Rect.unit (s := S2048x2048) (k0_off21 c) S512x384.size (k0_off21_inb c)).emb (ix2 r j))
      (by show (k0_off21 c) 0 + 1 * r.val = cz c * 1024 + ((1 - cx c) * 512 + r.val); rw [off21_eq c]
          show cz c * 1024 + (1 - cx c) * 512 + 1 * r.val = _; omega)
      (by show (k0_off21 c) 1 + 1 * j.val = 768 + j.val; rw [off21_eq c]; show 768 + 1 * j.val = 768 + j.val; omega)
    rw [e] at this
    exact this
  have h2 : (View.readAt (Elt Ideal) (Memref.whole cc0_scratch3 : Memref sig .tc .vmem S1792x384 .bf16).view (Rect.unit (s := S1792x384) (k0_off22 c) S512x384.size (k0_off22_inb c)).toLoadRect fl) (ix2 r j)
      = share A B (nb 2 0 c).val (sendRow 2 1 c + r.val) (colLo 2 + j.val) := by
    have hh := hl ⟨(1 - cx c) * 512 + r.val, hi⟩ j
    rw [View.readAt_eq_ld]
    have he : (Rect.unit (s := S1792x384) (k0_off22 c) S512x384.size (k0_off22_inb c)).emb (ix2 r j) = (Rect.unit (s := S1792x384) ![0, 0] S1024x384.size inb_S1792x384_S1024x384_0_0).emb (ix2 (⟨(1 - cx c) * 512 + r.val, hi⟩ : Fin 1024) j) := funext fun a => Fin.ext (by
      match a with
      | ⟨0, _⟩ => show (k0_off22 c) 0 + 1 * r.val = 0 + 1 * ((1 - cx c) * 512 + r.val); rw [off22_eq c]; show (1 - cx c) * 512 + 1 * r.val = _; omega
      | ⟨1, _⟩ => show (k0_off22 c) 1 + 1 * j.val = 0 + 1 * j.val; rw [off22_eq c]; rfl)
    show (Memref.whole cc0_scratch3 : Memref sig .tc .vmem S1792x384 .bf16).view.read (Elt Ideal) fl ((Rect.unit (s := S1792x384) (k0_off22 c) S512x384.size (k0_off22_inb c)).emb (ix2 r j)) = _
    rw [he]
    refine hh.trans ?_
    have e : sendRow 2 0 (nbr 2 c) + ((1 - cx c) * 512 + r.val) = sendRow 2 1 c + r.val := by
      show (1 - cz (nbr 2 c)) * 1024 + ((1 - cx c) * 512 + r.val) = cz c * 1024 + (1 - cx c) * 512 + r.val
      rw [cz_nbr2]; have := cz_le c; omega
    show share A B (nbr 2 c).val (sendRow 2 0 (nbr 2 c) + ((1 - cx c) * 512 + r.val)) (colLo 2 + j.val) = _
    rw [e]; rfl
  exact congrArg₂ (fun a b : EReal => a + b) h1 h2

/-- Group 3, second reduce-scatter step: the staged quarter is the device's share plus the share of its neighbour across the first step's axis. -/
theorem val_rs3_1 (c : Dev nD)
    (fs : Buf (Elt Ideal) ((stgM3_0 : Memref sig .tc .vmem S1024x384 .bf16).view.loc (c : Thread nD τ))) (fl : Buf (Elt Ideal) ((commM3_0 : Memref sig .tc .vmem S1024x384 .bf16).view.loc (c : Thread nD τ)))
    (g : Buf (Elt Ideal) ((Memref.whole cc0_scratch0 : Memref sig .tc .vmem S2048x2048 .f32).view.loc (c : Thread nD τ)))
    (hJ1 : J1 A B 3 384 c g)
    (hl : (Vreal A B).rs3_0 (nbr 0 c) ((commM3_0 : Memref sig .tc .vmem S1024x384 .bf16).view.read (Elt Ideal) fl)) :
    (Vreal A B).rs3_1 c ((stgM3_1 : Memref sig .tc .vmem S512x384 .bf16).view.read (Elt Ideal)
      (View.write (Elt Ideal) ((Memref.whole cc0_scratch10 : Memref sig .tc .vmem S1024x384 .bf16).access (Rect.unit (s := S1024x384) ![0, 0] S512x384.size inb_S1024x384_S512x384_0_0)) fs
        (k0_pay28 (F := Ideal) ((Memref.whole cc0_scratch0 : Memref sig .tc .vmem S2048x2048 .f32).view.readCov [⟨(Rect.unit (s := S2048x2048) (k0_off25 c) S512x384.size (k0_off25_inb c)), k0_pay27 (F := Ideal) (View.readAt (Elt Ideal) (Memref.whole cc0_scratch0 : Memref sig .tc .vmem S2048x2048 .f32).view (Rect.unit (s := S2048x2048) (k0_off25 c) S512x384.size (k0_off25_inb c)).toLoadRect g) (View.readAt (Elt Ideal) (Memref.whole cc0_scratch4 : Memref sig .tc .vmem S1792x384 .bf16).view (Rect.unit (s := S1792x384) (k0_off14 c) S512x384.size (k0_off14_inb c)).toLoadRect fl)⟩] (Rect.unit (s := S2048x2048) (k0_off25 c) S512x384.size (k0_off25_inb c)).toLoadRect)) Finset.univ)) := by
  intro r j
  refine (congrFun (View.read_write_univ _ _) (ix2 r j)).trans ?_
  unfold k0_pay28
  simp only [shapeCast_self]
  rw [View.readCov_cons_toLoadRect]
  unfold k0_pay27
  simp only [shapeCast_self]
  have hi : (1 - cy c) * 512 + r.val < 1024 := by have := cy_le c; have := r.isLt; omega
  have h1 : (View.readAt (Elt Ideal) (Memref.whole cc0_scratch0 : Memref sig .tc .vmem S2048x2048 .f32).view (Rect.unit (s := S2048x2048) (k0_off25 c) S512x384.size (k0_off25_inb c)).toLoadRect g) (ix2 r j)
      = share A B c.val (sendRow 3 1 c + r.val) (colLo 3 + j.val) := by
    rw [View.readAt_eq_ld]
    have e : coordN c 3 * 1024 + ((1 - cy c) * 512 + r.val) = sendRow 3 1 c + r.val := by
      show cx c * 1024 + ((1 - cy c) * 512 + r.val) = cx c * 1024 + (1 - cy c) * 512 + r.val; omega
    have := hJ1 ⟨(1 - cy c) * 512 + r.val, hi⟩ j ((Rect.unit (s := S2048x2048) (k0_off25 c) S512x384.size (k0_off25_inb c)).emb (ix2 r j))
      (by show (k0_off25 c) 0 + 1 * r.val = cx c * 1024 + ((1 - cy c) * 512 + r.val); rw [off25_eq c]
          show cx c * 1024 + (1 - cy c) * 512 + 1 * r.val = _; omega)
      (by show (k0_off25 c) 1 + 1 * j.val = 1152 + j.val; rw [off25_eq c]; show 1152 + 1 * j.val = 1152 + j.val; omega)
    rw [e] at this
    exact this
  have h2 : (View.readAt (Elt Ideal) (Memref.whole cc0_scratch4 : Memref sig .tc .vmem S1792x384 .bf16).view (Rect.unit (s := S1792x384) (k0_off14 c) S512x384.size (k0_off14_inb c)).toLoadRect fl) (ix2 r j)
      = share A B (nb 3 0 c).val (sendRow 3 1 c + r.val) (colLo 3 + j.val) := by
    have hh := hl ⟨(1 - cy c) * 512 + r.val, hi⟩ j
    rw [View.readAt_eq_ld]
    have he : (Rect.unit (s := S1792x384) (k0_off14 c) S512x384.size (k0_off14_inb c)).emb (ix2 r j) = (Rect.unit (s := S1792x384) ![0, 0] S1024x384.size inb_S1792x384_S1024x384_0_0).emb (ix2 (⟨(1 - cy c) * 512 + r.val, hi⟩ : Fin 1024) j) := funext fun a => Fin.ext (by
      match a with
      | ⟨0, _⟩ => show (k0_off14 c) 0 + 1 * r.val = 0 + 1 * ((1 - cy c) * 512 + r.val); rw [off14_eq c]; show (1 - cy c) * 512 + 1 * r.val = _; omega
      | ⟨1, _⟩ => show (k0_off14 c) 1 + 1 * j.val = 0 + 1 * j.val; rw [off14_eq c]; rfl)
    show (Memref.whole cc0_scratch4 : Memref sig .tc .vmem S1792x384 .bf16).view.read (Elt Ideal) fl ((Rect.unit (s := S1792x384) (k0_off14 c) S512x384.size (k0_off14_inb c)).emb (ix2 r j)) = _
    rw [he]
    refine hh.trans ?_
    have e : sendRow 3 0 (nbr 0 c) + ((1 - cy c) * 512 + r.val) = sendRow 3 1 c + r.val := by
      show (1 - cx (nbr 0 c)) * 1024 + ((1 - cy c) * 512 + r.val) = cx c * 1024 + (1 - cy c) * 512 + r.val
      rw [cx_nbr0]; have := cx_le c; omega
    show share A B (nbr 0 c).val (sendRow 3 0 (nbr 0 c) + ((1 - cy c) * 512 + r.val)) (colLo 3 + j.val) = _
    rw [e]; rfl
  exact congrArg₂ (fun a b : EReal => a + b) h1 h2

/-- Group 4, second reduce-scatter step: the staged quarter is the device's share plus the share of its neighbour across the first step's axis. -/
theorem val_rs4_1 (c : Dev nD)
    (fs : Buf (Elt Ideal) ((stgM4_0 : Memref sig .tc .vmem S1024x256 .bf16).view.loc (c : Thread nD τ))) (fl : Buf (Elt Ideal) ((commM4_0 : Memref sig .tc .vmem S1024x256 .bf16).view.loc (c : Thread nD τ)))
    (g : Buf (Elt Ideal) ((Memref.whole cc0_scratch0 : Memref sig .tc .vmem S2048x2048 .f32).view.loc (c : Thread nD τ)))
    (hJ1 : J1 A B 4 256 c g)
    (hl : (Vreal A B).rs4_0 (nbr 1 c) ((commM4_0 : Memref sig .tc .vmem S1024x256 .bf16).view.read (Elt Ideal) fl)) :
    (Vreal A B).rs4_1 c ((stgM4_1 : Memref sig .tc .vmem S512x256 .bf16).view.read (Elt Ideal)
      (View.write (Elt Ideal) ((Memref.whole cc0_scratch11 : Memref sig .tc .vmem S1024x256 .bf16).access (Rect.unit (s := S1024x256) ![0, 0] S512x256.size inb_S1024x256_S512x256_0_0)) fs
        (k0_pay33 (F := Ideal) ((Memref.whole cc0_scratch0 : Memref sig .tc .vmem S2048x2048 .f32).view.readCov [⟨(Rect.unit (s := S2048x2048) (k0_off27 c) S512x256.size (k0_off27_inb c)), k0_pay32 (F := Ideal) (k0_pay31 (F := Ideal) (View.readAt (Elt Ideal) (Memref.whole cc0_scratch0 : Memref sig .tc .vmem S2048x2048 .f32).view (Rect.unit (s := S2048x2048) (k0_off27 c) S512x256.size (k0_off27_inb c)).toLoadRect g) (View.readAt (Elt Ideal) (Memref.whole cc0_scratch5 : Memref sig .tc .vmem S1792x256 .bf16).view (Rect.unit (s := S1792x256) (k0_off28 c) S512x256.size (k0_off28_inb c)).toLoadRect fl))⟩] (Rect.unit (s := S2048x2048) (k0_off27 c) S512x256.size (k0_off27_inb c)).toLoadRect)) Finset.univ)) := by
  intro r j
  refine (congrFun (View.read_write_univ _ _) (ix2 r j)).trans ?_
  unfold k0_pay33
  simp only [shapeCast_self]
  rw [View.readCov_cons_toLoadRect]
  unfold k0_pay32 k0_pay31
  simp only [shapeCast_self]
  have hi : (1 - cz c) * 512 + r.val < 1024 := by have := cz_le c; have := r.isLt; omega
  have h1 : (View.readAt (Elt Ideal) (Memref.whole cc0_scratch0 : Memref sig .tc .vmem S2048x2048 .f32).view (Rect.unit (s := S2048x2048) (k0_off27 c) S512x256.size (k0_off27_inb c)).toLoadRect g) (ix2 r j)
      = share A B c.val (sendRow 4 1 c + r.val) (colLo 4 + j.val) := by
    rw [View.readAt_eq_ld]
    have e : coordN c 4 * 1024 + ((1 - cz c) * 512 + r.val) = sendRow 4 1 c + r.val := by
      show cy c * 1024 + ((1 - cz c) * 512 + r.val) = cy c * 1024 + (1 - cz c) * 512 + r.val; omega
    have := hJ1 ⟨(1 - cz c) * 512 + r.val, hi⟩ j ((Rect.unit (s := S2048x2048) (k0_off27 c) S512x256.size (k0_off27_inb c)).emb (ix2 r j))
      (by show (k0_off27 c) 0 + 1 * r.val = cy c * 1024 + ((1 - cz c) * 512 + r.val); rw [off27_eq c]
          show cy c * 1024 + (1 - cz c) * 512 + 1 * r.val = _; omega)
      (by show (k0_off27 c) 1 + 1 * j.val = 1536 + j.val; rw [off27_eq c]; show 1536 + 1 * j.val = 1536 + j.val; omega)
    rw [e] at this
    exact this
  have h2 : (View.readAt (Elt Ideal) (Memref.whole cc0_scratch5 : Memref sig .tc .vmem S1792x256 .bf16).view (Rect.unit (s := S1792x256) (k0_off28 c) S512x256.size (k0_off28_inb c)).toLoadRect fl) (ix2 r j)
      = share A B (nb 4 0 c).val (sendRow 4 1 c + r.val) (colLo 4 + j.val) := by
    have hh := hl ⟨(1 - cz c) * 512 + r.val, hi⟩ j
    rw [View.readAt_eq_ld]
    have he : (Rect.unit (s := S1792x256) (k0_off28 c) S512x256.size (k0_off28_inb c)).emb (ix2 r j) = (Rect.unit (s := S1792x256) ![0, 0] S1024x256.size inb_S1792x256_S1024x256_0_0).emb (ix2 (⟨(1 - cz c) * 512 + r.val, hi⟩ : Fin 1024) j) := funext fun a => Fin.ext (by
      match a with
      | ⟨0, _⟩ => show (k0_off28 c) 0 + 1 * r.val = 0 + 1 * ((1 - cz c) * 512 + r.val); rw [off28_eq c]; show (1 - cz c) * 512 + 1 * r.val = _; omega
      | ⟨1, _⟩ => show (k0_off28 c) 1 + 1 * j.val = 0 + 1 * j.val; rw [off28_eq c]; rfl)
    show (Memref.whole cc0_scratch5 : Memref sig .tc .vmem S1792x256 .bf16).view.read (Elt Ideal) fl ((Rect.unit (s := S1792x256) (k0_off28 c) S512x256.size (k0_off28_inb c)).emb (ix2 r j)) = _
    rw [he]
    refine hh.trans ?_
    have e : sendRow 4 0 (nbr 1 c) + ((1 - cz c) * 512 + r.val) = sendRow 4 1 c + r.val := by
      show (1 - cy (nbr 1 c)) * 1024 + ((1 - cz c) * 512 + r.val) = cy c * 1024 + (1 - cz c) * 512 + r.val
      rw [cy_nbr1]; have := cy_le c; omega
    show share A B (nbr 1 c).val (sendRow 4 0 (nbr 1 c) + ((1 - cz c) * 512 + r.val)) (colLo 4 + j.val) = _
    rw [e]; rfl
  exact congrArg₂ (fun a b : EReal => a + b) h1 h2

/-- Group 5, second reduce-scatter step: the staged quarter is the device's share plus the share of its neighbour across the first step's axis. -/
theorem val_rs5_1 (c : Dev nD)
    (fs : Buf (Elt Ideal) ((stgM5_0 : Memref sig .tc .vmem S1024x256 .bf16).view.loc (c : Thread nD τ))) (fl : Buf (Elt Ideal) ((commM5_0 : Memref sig .tc .vmem S1024x256 .bf16).view.loc (c : Thread nD τ)))
    (g : Buf (Elt Ideal) ((Memref.whole cc0_scratch0 : Memref sig .tc .vmem S2048x2048 .f32).view.loc (c : Thread nD τ)))
    (hJ1 : J1 A B 5 256 c g)
    (hl : (Vreal A B).rs5_0 (nbr 2 c) ((commM5_0 : Memref sig .tc .vmem S1024x256 .bf16).view.read (Elt Ideal) fl)) :
    (Vreal A B).rs5_1 c ((stgM5_1 : Memref sig .tc .vmem S512x256 .bf16).view.read (Elt Ideal)
      (View.write (Elt Ideal) ((Memref.whole cc0_scratch12 : Memref sig .tc .vmem S1024x256 .bf16).access (Rect.unit (s := S1024x256) ![0, 0] S512x256.size inb_S1024x256_S512x256_0_0)) fs
        (k0_pay36 (F := Ideal) ((Memref.whole cc0_scratch0 : Memref sig .tc .vmem S2048x2048 .f32).view.readCov [⟨(Rect.unit (s := S2048x2048) (k0_off31 c) S512x256.size (k0_off31_inb c)), k0_pay35 (F := Ideal) (View.readAt (Elt Ideal) (Memref.whole cc0_scratch0 : Memref sig .tc .vmem S2048x2048 .f32).view (Rect.unit (s := S2048x2048) (k0_off31 c) S512x256.size (k0_off31_inb c)).toLoadRect g) (View.readAt (Elt Ideal) (Memref.whole cc0_scratch6 : Memref sig .tc .vmem S1792x256 .bf16).view (Rect.unit (s := S1792x256) (k0_off32 c) S512x256.size (k0_off32_inb c)).toLoadRect fl)⟩] (Rect.unit (s := S2048x2048) (k0_off31 c) S512x256.size (k0_off31_inb c)).toLoadRect)) Finset.univ)) := by
  intro r j
  refine (congrFun (View.read_write_univ _ _) (ix2 r j)).trans ?_
  unfold k0_pay36
  simp only [shapeCast_self]
  rw [View.readCov_cons_toLoadRect]
  unfold k0_pay35
  simp only [shapeCast_self]
  have hi : (1 - cx c) * 512 + r.val < 1024 := by have := cx_le c; have := r.isLt; omega
  have h1 : (View.readAt (Elt Ideal) (Memref.whole cc0_scratch0 : Memref sig .tc .vmem S2048x2048 .f32).view (Rect.unit (s := S2048x2048) (k0_off31 c) S512x256.size (k0_off31_inb c)).toLoadRect g) (ix2 r j)
      = share A B c.val (sendRow 5 1 c + r.val) (colLo 5 + j.val) := by
    rw [View.readAt_eq_ld]
    have e : coordN c 5 * 1024 + ((1 - cx c) * 512 + r.val) = sendRow 5 1 c + r.val := by
      show cz c * 1024 + ((1 - cx c) * 512 + r.val) = cz c * 1024 + (1 - cx c) * 512 + r.val; omega
    have := hJ1 ⟨(1 - cx c) * 512 + r.val, hi⟩ j ((Rect.unit (s := S2048x2048) (k0_off31 c) S512x256.size (k0_off31_inb c)).emb (ix2 r j))
      (by show (k0_off31 c) 0 + 1 * r.val = cz c * 1024 + ((1 - cx c) * 512 + r.val); rw [off31_eq c]
          show cz c * 1024 + (1 - cx c) * 512 + 1 * r.val = _; omega)
      (by show (k0_off31 c) 1 + 1 * j.val = 1792 + j.val; rw [off31_eq c]; show 1792 + 1 * j.val = 1792 + j.val; omega)
    rw [e] at this
    exact this
  have h2 : (View.readAt (Elt Ideal) (Memref.whole cc0_scratch6 : Memref sig .tc .vmem S1792x256 .bf16).view (Rect.unit (s := S1792x256) (k0_off32 c) S512x256.size (k0_off32_inb c)).toLoadRect fl) (ix2 r j)
      = share A B (nb 5 0 c).val (sendRow 5 1 c + r.val) (colLo 5 + j.val) := by
    have hh := hl ⟨(1 - cx c) * 512 + r.val, hi⟩ j
    rw [View.readAt_eq_ld]
    have he : (Rect.unit (s := S1792x256) (k0_off32 c) S512x256.size (k0_off32_inb c)).emb (ix2 r j) = (Rect.unit (s := S1792x256) ![0, 0] S1024x256.size inb_S1792x256_S1024x256_0_0).emb (ix2 (⟨(1 - cx c) * 512 + r.val, hi⟩ : Fin 1024) j) := funext fun a => Fin.ext (by
      match a with
      | ⟨0, _⟩ => show (k0_off32 c) 0 + 1 * r.val = 0 + 1 * ((1 - cx c) * 512 + r.val); rw [off32_eq c]; show (1 - cx c) * 512 + 1 * r.val = _; omega
      | ⟨1, _⟩ => show (k0_off32 c) 1 + 1 * j.val = 0 + 1 * j.val; rw [off32_eq c]; rfl)
    show (Memref.whole cc0_scratch6 : Memref sig .tc .vmem S1792x256 .bf16).view.read (Elt Ideal) fl ((Rect.unit (s := S1792x256) (k0_off32 c) S512x256.size (k0_off32_inb c)).emb (ix2 r j)) = _
    rw [he]
    refine hh.trans ?_
    have e : sendRow 5 0 (nbr 2 c) + ((1 - cx c) * 512 + r.val) = sendRow 5 1 c + r.val := by
      show (1 - cz (nbr 2 c)) * 1024 + ((1 - cx c) * 512 + r.val) = cz c * 1024 + (1 - cx c) * 512 + r.val
      rw [cz_nbr2]; have := cz_le c; omega
    show share A B (nbr 2 c).val (sendRow 5 0 (nbr 2 c) + ((1 - cx c) * 512 + r.val)) (colLo 5 + j.val) = _
    rw [e]; rfl
  exact congrArg₂ (fun a b : EReal => a + b) h1 h2

end Cert.KernelIdeal.Proto

end
-- ==== Proof.ValStep2.lean ====
/-
The values of the third reduce-scatter step of group 0, over the extended reals. After the second step the kept quarter of
the accumulator holds the device's share plus the share of its neighbour across axis 0; the rows that landed from the
neighbour across axis 1 hold that neighbour's pair. The eighth sent at the third step is the sum of the four.
-/
import proofs.«900882_g7700000000000883_dist_matmul_gelu_kshard_i_m2048_n2048_k1024_v7x_i8_f32_1_alg».proof.Proof.ValStep1
import proofs.«900882_g7700000000000883_dist_matmul_gelu_kshard_i_m2048_n2048_k1024_v7x_i8_f32_1_alg».proof.Proof.ValsRealTab
import proofs.«900882_g7700000000000883_dist_matmul_gelu_kshard_i_m2048_n2048_k1024_v7x_i8_f32_1_alg».proof.Proof.TopoTab
import proofs.«900882_g7700000000000883_dist_matmul_gelu_kshard_i_m2048_n2048_k1024_v7x_i8_f32_1_alg».proof.Proof.Gen.KernelIdeal.Skeleton
import Idealize.ShloMosaic.Lib.Pipeline.Value
import Idealize.ShloMosaic.Lib.WritesUnit
import Idealize.ShloMosaic.Lib.Pipeline.FrameBody
import Idealize.ShloMosaic.PureOps.Ideal.Laws

set_option maxRecDepth 100000

noncomputable section

namespace Cert.KernelIdeal.Proto

open Cert.KernelIdeal Cert.KernelIdeal.Gen Cert.KernelIdeal.Topo
open Idealize.ShloMosaic Idealize.ShloMosaic.TcCoe Idealize.ShloMosaic.ValueIdx
open scoped BigOperators

variable (A : (⟨2, ![2048, 8192]⟩ : Shape).Idx → EReal) (B : (⟨2, ![8192, 2048]⟩ : Shape).Idx → EReal)

/-- The kept quarter of the accumulator holds the device's share plus the share of its neighbour across the first step's axis. -/
def J2 (k w : ℕ) (c : Dev nD) (g : Buf (Elt Ideal) ((Memref.whole cc0_scratch0 : Memref sig .tc .vmem S2048x2048 .f32).view.loc (c : Thread nD τ))) : Prop :=
  ∀ (i : Fin 512) (j : Fin w) (y : S2048x2048.Idx), (y 0).val = ownRow k 1 c + i.val → (y 1).val = colLo k + j.val →
    (Memref.whole cc0_scratch0 : Memref sig .tc .vmem S2048x2048 .f32).view.read (Elt Ideal) g y = share A B c.val (ownRow k 1 c + i.val) (colLo k + j.val) + share A B (nb k 0 c).val (ownRow k 1 c + i.val) (colLo k + j.val)

/-- A store to other columns leaves the fact. -/
theorem J2_cons {k w : ℕ} {c : Dev nD} {g : Buf (Elt Ideal) ((Memref.whole cc0_scratch0 : Memref sig .tc .vmem S2048x2048 .f32).view.loc (c : Thread nD τ))}
    {off off' size : Fin 2 → ℕ} (inb : ∀ a, off a + size a ≤ S2048x2048.size a)
    (pay : (Rect.unit (s := S2048x2048) off size inb).shape.Idx → Elt Ideal .f32) (L : List (View.Piece (Elt Ideal) S2048x2048 .f32))
    (heq : off = off') (hcols : off' 1 + size 1 ≤ colLo k ∨ colLo k + w ≤ off' 1)
    (h : J2 A B k w c ((Memref.whole cc0_scratch0 : Memref sig .tc .vmem S2048x2048 .f32).view.writes (Elt Ideal) g L)) :
    J2 A B k w c ((Memref.whole cc0_scratch0 : Memref sig .tc .vmem S2048x2048 .f32).view.writes (Elt Ideal) g ((⟨Rect.unit (s := S2048x2048) off size inb, pay⟩ : View.Piece (Elt Ideal) S2048x2048 .f32) :: L)) := by
  intro i j y h0 h1
  rw [View.read_writes_cons_unit_of_not_mem (Memref.whole cc0_scratch0 : Memref sig .tc .vmem S2048x2048 .f32).view g inb pay L y heq 1
    (by rcases hcols with hc | hc
        · right; omega
        · left; have := j.isLt; omega)]
  exact h i j y h0 h1

theorem J2_nil {k w : ℕ} {c : Dev nD} {g : Buf (Elt Ideal) ((Memref.whole cc0_scratch0 : Memref sig .tc .vmem S2048x2048 .f32).view.loc (c : Thread nD τ))} (h : J2 A B k w c g) :
    J2 A B k w c ((Memref.whole cc0_scratch0 : Memref sig .tc .vmem S2048x2048 .f32).view.writes (Elt Ideal) g []) := h

/-- Group 0 after the stretch of its second step: the landed rows that belong to the kept quarter were added to it. -/
theorem J2_0_stored (c : Dev nD) (g : Buf (Elt Ideal) ((Memref.whole cc0_scratch0 : Memref sig .tc .vmem S2048x2048 .f32).view.loc (c : Thread nD τ)))
    (v252 : Vec Ideal S512x384 .f32) (v257 : FVec Ideal S512x384 .f32) (fl : Buf (Elt Ideal) ((commM0_0 : Memref sig .tc .vmem S1024x384 .bf16).view.loc (c : Thread nD τ)))
    (hJ1 : J1 A B 0 384 c g)
    (hl : (Vreal A B).rs0_0 (nbr 0 c) ((commM0_0 : Memref sig .tc .vmem S1024x384 .bf16).view.read (Elt Ideal) fl)) :
    J2 A B 0 384 c ((Memref.whole cc0_scratch0 : Memref sig .tc .vmem S2048x2048 .f32).view.writes (Elt Ideal) g
      [⟨(Rect.unit (s := S2048x2048) (k0_off15 c) S512x384.size (k0_off15_inb c)), k0_pay20 (F := Ideal) (View.readAt (Elt Ideal) (Memref.whole cc0_scratch0 : Memref sig .tc .vmem S2048x2048 .f32).view (Rect.unit (s := S2048x2048) (k0_off15 c) S512x384.size (k0_off15_inb c)).toLoadRect ((Memref.whole cc0_scratch0 : Memref sig .tc .vmem S2048x2048 .f32).view.writes (Elt Ideal) g [⟨(Rect.unit (s := S2048x2048) (k0_off13 c) S512x384.size (k0_off13_inb c)), k0_pay18 (F := Ideal) v252 v257⟩]))
          (View.readAt (Elt Ideal) (Memref.whole cc0_scratch1 : Memref sig .tc .vmem S1792x384 .bf16).view (Rect.unit (s := S1792x384) (k0_off16 c) S512x384.size (k0_off16_inb c)).toLoadRect fl)⟩,
       ⟨(Rect.unit (s := S2048x2048) (k0_off13 c) S512x384.size (k0_off13_inb c)), k0_pay18 (F := Ideal) v252 v257⟩]) := by
  intro i j y h0 h1
  rw [View.read_writes_cons_unit_of_mem (Memref.whole cc0_scratch0 : Memref sig .tc .vmem S2048x2048 .f32).view g (k0_off15_inb c) _ _ y (ix2 i j) (off15_eq c)
    (fun a => by
      match a with
      | ⟨0, _⟩ => exact h0
      | ⟨1, _⟩ => exact h1)]
  unfold k0_pay20
  simp only [shapeCast_self]
  have hi : cy c * 512 + i.val < 1024 := by have := cy_le c; have := i.isLt; omega
  have hy0 : (((Rect.unit (s := S2048x2048) (k0_off15 c) S512x384.size (k0_off15_inb c)).emb (ix2 i j)) 0).val = cx c * 1024 + cy c * 512 + i.val := by
    show (k0_off15 c) 0 + 1 * i.val = _; rw [off15_eq c]; show cx c * 1024 + cy c * 512 + 1 * i.val = _; omega
  have hy1 : (((Rect.unit (s := S2048x2048) (k0_off15 c) S512x384.size (k0_off15_inb c)).emb (ix2 i j)) 1).val = 0 + j.val := by
    show (k0_off15 c) 1 + 1 * j.val = _; rw [off15_eq c]; show 0 + 1 * j.val = _; omega
  have h1x : (View.readAt (Elt Ideal) (Memref.whole cc0_scratch0 : Memref sig .tc .vmem S2048x2048 .f32).view (Rect.unit (s := S2048x2048) (k0_off15 c) S512x384.size (k0_off15_inb c)).toLoadRect ((Memref.whole cc0_scratch0 : Memref sig .tc .vmem S2048x2048 .f32).view.writes (Elt Ideal) g [⟨(Rect.unit (s := S2048x2048) (k0_off13 c) S512x384.size (k0_off13_inb c)), k0_pay18 (F := Ideal) v252 v257⟩])) (ix2 i j)
      = share A B c.val (ownRow 0 1 c + i.val) (colLo 0 + j.val) := by
    rw [View.readAt_eq_ld]
    show (Memref.whole cc0_scratch0 : Memref sig .tc .vmem S2048x2048 .f32).view.read (Elt Ideal) ((Memref.whole cc0_scratch0 : Memref sig .tc .vmem S2048x2048 .f32).view.writes (Elt Ideal) g [⟨(Rect.unit (s := S2048x2048) (k0_off13 c) S512x384.size (k0_off13_inb c)), k0_pay18 (F := Ideal) v252 v257⟩]) ((Rect.unit (s := S2048x2048) (k0_off15 c) S512x384.size (k0_off15_inb c)).emb (ix2 i j)) = _
    rw [View.read_writes_cons_unit_of_not_mem (Memref.whole cc0_scratch0 : Memref sig .tc .vmem S2048x2048 .f32).view g (k0_off13_inb c) _ [] _ (off13_eq c) 0
      (by rw [hy0]
          show cx c * 1024 + cy c * 512 + i.val < cx c * 1024 + (1 - cy c) * 512 ∨ cx c * 1024 + (1 - cy c) * 512 + 512 ≤ cx c * 1024 + cy c * 512 + i.val
          have := cy_le c; have := i.isLt; omega)]
    have e : coordN c 0 * 1024 + (cy c * 512 + i.val) = ownRow 0 1 c + i.val := by
      show cx c * 1024 + (cy c * 512 + i.val) = cx c * 1024 + cy c * 512 + i.val; omega
    have := hJ1 ⟨cy c * 512 + i.val, hi⟩ j ((Rect.unit (s := S2048x2048) (k0_off15 c) S512x384.size (k0_off15_inb c)).emb (ix2 i j)) (by rw [hy0]; show _ = cx c * 1024 + (cy c * 512 + i.val); omega) hy1
    rw [e] at this
    exact this
  have h2x : (View.readAt (Elt Ideal) (Memref.whole cc0_scratch1 : Memref sig .tc .vmem S1792x384 .bf16).view (Rect.unit (s := S1792x384) (k0_off16 c) S512x384.size (k0_off16_inb c)).toLoadRect fl) (ix2 i j)
      = share A B (nb 0 0 c).val (ownRow 0 1 c + i.val) (colLo 0 + j.val) := by
    have hh := hl ⟨cy c * 512 + i.val, hi⟩ j
    rw [View.readAt_eq_ld]
    have he : (Rect.unit (s := S1792x384) (k0_off16 c) S512x384.size (k0_off16_inb c)).emb (ix2 i j) = (Rect.unit (s := S1792x384) ![0, 0] S1024x384.size inb_S1792x384_S1024x384_0_0).emb (ix2 (⟨cy c * 512 + i.val, hi⟩ : Fin 1024) j) := funext fun a => Fin.ext (by
      match a with
      | ⟨0, _⟩ => show (k0_off16 c) 0 + 1 * i.val = 0 + 1 * (cy c * 512 + i.val); rw [off16_eq c]; show cy c * 512 + 1 * i.val = _; omega
      | ⟨1, _⟩ => show (k0_off16 c) 1 + 1 * j.val = 0 + 1 * j.val; rw [off16_eq c]; rfl)
    show (Memref.whole cc0_scratch1 : Memref sig .tc .vmem S1792x384 .bf16).view.read (Elt Ideal) fl ((Rect.unit (s := S1792x384) (k0_off16 c) S512x384.size (k0_off16_inb c)).emb (ix2 i j)) = _
    rw [he]
    refine hh.trans ?_
    have e : sendRow 0 0 (nbr 0 c) + (cy c * 512 + i.val) = ownRow 0 1 c + i.val := by
      show (1 - cx (nbr 0 c)) * 1024 + (cy c * 512 + i.val) = cx c * 1024 + cy c * 512 + i.val
      rw [cx_nbr0]; have := cx_le c; omega
    show share A B (nbr 0 c).val (sendRow 0 0 (nbr 0 c) + (cy c * 512 + i.val)) (colLo 0 + j.val) = _
    rw [e]; rfl
  exact congrArg₂ (fun a b : EReal => a + b) h1x h2x

/-- Group 0, third reduce-scatter step: the staged eighth is the sum of four shares, grouped as they were added. -/
theorem val_rs0_2 (c : Dev nD)
    (fs : Buf (Elt Ideal) ((stgM0_1 : Memref sig .tc .vmem S512x384 .bf16).view.loc (c : Thread nD τ))) (fl : Buf (Elt Ideal) ((commM0_1 : Memref sig .tc .vmem S512x384 .bf16).view.loc (c : Thread nD τ)))
    (g : Buf (Elt Ideal) ((Memref.whole cc0_scratch0 : Memref sig .tc .vmem S2048x2048 .f32).view.loc (c : Thread nD τ)))
    (hJ2 : J2 A B 0 384 c g)
    (hl : (Vreal A B).rs0_1 (nbr 1 c) ((commM0_1 : Memref sig .tc .vmem S512x384 .bf16).view.read (Elt Ideal) fl)) :
    (Vreal A B).rs0_2 c ((stgM0_2 : Memref sig .tc .vmem S256x384 .bf16).view.read (Elt Ideal)
      (View.write (Elt Ideal) ((Memref.whole cc0_scratch7 : Memref sig .tc .vmem S1024x384 .bf16).access (Rect.unit (s := S1024x384) ![0, 0] S256x384.size inb_S1024x384_S256x384_0_0)) fs
        (k0_pay39 (F := Ideal) ((Memref.whole cc0_scratch0 : Memref sig .tc .vmem S2048x2048 .f32).view.readCov [⟨(Rect.unit (s := S2048x2048) (k0_off35 c) S256x384.size (k0_off35_inb c)), k0_pay38 (F := Ideal) (View.readAt (Elt Ideal) (Memref.whole cc0_scratch0 : Memref sig .tc .vmem S2048x2048 .f32).view (Rect.unit (s := S2048x2048) (k0_off35 c) S256x384.size (k0_off35_inb c)).toLoadRect g)
          (View.readAt (Elt Ideal) (Memref.whole cc0_scratch1 : Memref sig .tc .vmem S1792x384 .bf16).view (Rect.unit (s := S1792x384) (k0_off36 c) S256x384.size (k0_off36_inb c)).toLoadRect fl)⟩] (Rect.unit (s := S2048x2048) (k0_off35 c) S256x384.size (k0_off35_inb c)).toLoadRect)) Finset.univ)) := by
  intro r j
  refine (congrFun (View.read_write_univ _ _) (ix2 r j)).trans ?_
  unfold k0_pay39
  simp only [shapeCast_self]
  rw [View.readCov_cons_toLoadRect]
  unfold k0_pay38
  simp only [shapeCast_self]
  have hi : (1 - cz c) * 256 + r.val < 512 := by have := cz_le c; have := r.isLt; omega
  have h1 : (View.readAt (Elt Ideal) (Memref.whole cc0_scratch0 : Memref sig .tc .vmem S2048x2048 .f32).view (Rect.unit (s := S2048x2048) (k0_off35 c) S256x384.size (k0_off35_inb c)).toLoadRect g) (ix2 r j)
      = share A B c.val (sendRow 0 2 c + r.val) (colLo 0 + j.val) + share A B (nb 0 0 c).val (sendRow 0 2 c + r.val) (colLo 0 + j.val) := by
    rw [View.readAt_eq_ld]
    have e : ownRow 0 1 c + ((1 - cz c) * 256 + r.val) = sendRow 0 2 c + r.val := by
      show cx c * 1024 + cy c * 512 + ((1 - cz c) * 256 + r.val) = cx c * 1024 + cy c * 512 + (1 - cz c) * 256 + r.val; omega
    have := hJ2 ⟨(1 - cz c) * 256 + r.val, hi⟩ j ((Rect.unit (s := S2048x2048) (k0_off35 c) S256x384.size (k0_off35_inb c)).emb (ix2 r j))
      (by show (k0_off35 c) 0 + 1 * r.val = cx c * 1024 + cy c * 512 + ((1 - cz c) * 256 + r.val); rw [off35_eq c]
          show cx c * 1024 + cy c * 512 + (1 - cz c) * 256 + 1 * r.val = _; omega)
      (by show (k0_off35 c) 1 + 1 * j.val = 0 + j.val; rw [off35_eq c]; show 0 + 1 * j.val = 0 + j.val; omega)
    rw [e] at this
    exact this
  have h2 : (View.readAt (Elt Ideal) (Memref.whole cc0_scratch1 : Memref sig .tc .vmem S1792x384 .bf16).view (Rect.unit (s := S1792x384) (k0_off36 c) S256x384.size (k0_off36_inb c)).toLoadRect fl) (ix2 r j)
      = share A B (nb 0 1 c).val (sendRow 0 2 c + r.val) (colLo 0 + j.val) + share A B (nb 0 0 (nb 0 1 c)).val (sendRow 0 2 c + r.val) (colLo 0 + j.val) := by
    have hh := hl ⟨(1 - cz c) * 256 + r.val, hi⟩ j
    rw [View.readAt_eq_ld]
    have he : (Rect.unit (s := S1792x384) (k0_off36 c) S256x384.size (k0_off36_inb c)).emb (ix2 r j) = (Rect.unit (s := S1792x384) ![1024, 0] S512x384.size inb_S1792x384_S512x384_1024_0).emb (ix2 (⟨(1 - cz c) * 256 + r.val, hi⟩ : Fin 512) j) := funext fun a => Fin.ext (by
      match a with
      | ⟨0, _⟩ => show (k0_off36 c) 0 + 1 * r.val = 1024 + 1 * ((1 - cz c) * 256 + r.val); rw [off36_eq c]; show 1024 + (1 - cz c) * 256 + 1 * r.val = _; omega
      | ⟨1, _⟩ => show (k0_off36 c) 1 + 1 * j.val = 0 + 1 * j.val; rw [off36_eq c]; rfl)
    show (Memref.whole cc0_scratch1 : Memref sig .tc .vmem S1792x384 .bf16).view.read (Elt Ideal) fl ((Rect.unit (s := S1792x384) (k0_off36 c) S256x384.size (k0_off36_inb c)).emb (ix2 r j)) = _
    rw [he]
    refine hh.trans ?_
    have e : sendRow 0 1 (nbr 1 c) + ((1 - cz c) * 256 + r.val) = sendRow 0 2 c + r.val := by
      show cx (nbr 1 c) * 1024 + (1 - cy (nbr 1 c)) * 512 + ((1 - cz c) * 256 + r.val) = cx c * 1024 + cy c * 512 + (1 - cz c) * 256 + r.val
      rw [cx_nbr1, cy_nbr1]; have := cy_le c; omega
    show share A B (nbr 1 c).val (sendRow 0 1 (nbr 1 c) + ((1 - cz c) * 256 + r.val)) (colLo 0 + j.val)
        + share A B (nb 0 0 (nbr 1 c)).val (sendRow 0 1 (nbr 1 c) + ((1 - cz c) * 256 + r.val)) (colLo 0 + j.val) = _
    rw [e]; rfl
  exact congrArg₂ (fun a b : EReal => a + b) h1 h2

/-- The kept eighth of the accumulator holds four shares: the device's, its first neighbour's, and the same two of its second neighbour. -/
def J3 (k w : ℕ) (c : Dev nD) (g : Buf (Elt Ideal) ((Memref.whole cc0_scratch0 : Memref sig .tc .vmem S2048x2048 .f32).view.loc (c : Thread nD τ))) : Prop :=
  ∀ (i : Fin 256) (j : Fin w) (y : S2048x2048.Idx), (y 0).val = ownRow k 0 c + i.val → (y 1).val = colLo k + j.val →
    (Memref.whole cc0_scratch0 : Memref sig .tc .vmem S2048x2048 .f32).view.read (Elt Ideal) g y = (share A B c.val (ownRow k 0 c + i.val) (colLo k + j.val) + share A B (nb k 0 c).val (ownRow k 0 c + i.val) (colLo k + j.val))
        + (share A B (nb k 1 c).val (ownRow k 0 c + i.val) (colLo k + j.val) + share A B (nb k 0 (nb k 1 c)).val (ownRow k 0 c + i.val) (colLo k + j.val))

/-- A store to other columns leaves the fact. -/
theorem J3_cons {k w : ℕ} {c : Dev nD} {g : Buf (Elt Ideal) ((Memref.whole cc0_scratch0 : Memref sig .tc .vmem S2048x2048 .f32).view.loc (c : Thread nD τ))}
    {off off' size : Fin 2 → ℕ} (inb : ∀ a, off a + size a ≤ S2048x2048.size a)
    (pay : (Rect.unit (s := S2048x2048) off size inb).shape.Idx → Elt Ideal .f32) (L : List (View.Piece (Elt Ideal) S2048x2048 .f32))
    (heq : off = off') (hcols : off' 1 + size 1 ≤ colLo k ∨ colLo k + w ≤ off' 1)
    (h : J3 A B k w c ((Memref.whole cc0_scratch0 : Memref sig .tc .vmem S2048x2048 .f32).view.writes (Elt Ideal) g L)) :
    J3 A B k w c ((Memref.whole cc0_scratch0 : Memref sig .tc .vmem S2048x2048 .f32).view.writes (Elt Ideal) g ((⟨Rect.unit (s := S2048x2048) off size inb, pay⟩ : View.Piece (Elt Ideal) S2048x2048 .f32) :: L)) := by
  intro i j y h0 h1
  rw [View.read_writes_cons_unit_of_not_mem (Memref.whole cc0_scratch0 : Memref sig .tc .vmem S2048x2048 .f32).view g inb pay L y heq 1
    (by rcases hcols with hc | hc
        · right; omega
        · left; have := j.isLt; omega)]
  exact h i j y h0 h1

theorem J3_nil {k w : ℕ} {c : Dev nD} {g : Buf (Elt Ideal) ((Memref.whole cc0_scratch0 : Memref sig .tc .vmem S2048x2048 .f32).view.loc (c : Thread nD τ))} (h : J3 A B k w c g) :
    J3 A B k w c ((Memref.whole cc0_scratch0 : Memref sig .tc .vmem S2048x2048 .f32).view.writes (Elt Ideal) g []) := h

/-- Group 0 after the stretch of its third step: the landed rows that belong to the kept eighth were added to it. -/
theorem J3_0_stored (c : Dev nD) (g : Buf (Elt Ideal) ((Memref.whole cc0_scratch0 : Memref sig .tc .vmem S2048x2048 .f32).view.loc (c : Thread nD τ)))
    (fl : Buf (Elt Ideal) ((commM0_1 : Memref sig .tc .vmem S512x384 .bf16).view.loc (c : Thread nD τ)))
    (hJ2 : J2 A B 0 384 c g)
    (hl : (Vreal A B).rs0_1 (nbr 1 c) ((commM0_1 : Memref sig .tc .vmem S512x384 .bf16).view.read (Elt Ideal) fl)) :
    J3 A B 0 384 c ((Memref.whole cc0_scratch0 : Memref sig .tc .vmem S2048x2048 .f32).view.writes (Elt Ideal) g
      [⟨(Rect.unit (s := S2048x2048) (k0_off37 c) S256x384.size (k0_off37_inb c)), k0_pay40 (F := Ideal) (View.readAt (Elt Ideal) (Memref.whole cc0_scratch0 : Memref sig .tc .vmem S2048x2048 .f32).view (Rect.unit (s := S2048x2048) (k0_off37 c) S256x384.size (k0_off37_inb c)).toLoadRect g)
          (View.readAt (Elt Ideal) (Memref.whole cc0_scratch1 : Memref sig .tc .vmem S1792x384 .bf16).view (Rect.unit (s := S1792x384) (k0_off38 c) S256x384.size (k0_off38_inb c)).toLoadRect fl)⟩]) := by
  intro i j y h0 h1
  rw [View.read_writes_cons_unit_of_mem (Memref.whole cc0_scratch0 : Memref sig .tc .vmem S2048x2048 .f32).view g (k0_off37_inb c) _ _ y (ix2 i j) (off37_eq c)
    (fun a => by
      match a with
      | ⟨0, _⟩ => exact h0
      | ⟨1, _⟩ => exact h1)]
  unfold k0_pay40
  simp only [shapeCast_self]
  have hi : cz c * 256 + i.val < 512 := by have := cz_le c; have := i.isLt; omega
  have h1x : (View.readAt (Elt Ideal) (Memref.whole cc0_scratch0 : Memref sig .tc .vmem S2048x2048 .f32).view (Rect.unit (s := S2048x2048) (k0_off37 c) S256x384.size (k0_off37_inb c)).toLoadRect g) (ix2 i j)
      = share A B c.val (ownRow 0 0 c + i.val) (colLo 0 + j.val) + share A B (nb 0 0 c).val (ownRow 0 0 c + i.val) (colLo 0 + j.val) := by
    rw [View.readAt_eq_ld]
    have e : ownRow 0 1 c + (cz c * 256 + i.val) = ownRow 0 0 c + i.val := by
      show cx c * 1024 + cy c * 512 + (cz c * 256 + i.val) = cx c * 1024 + cy c * 512 + cz c * 256 + i.val; omega
    have := hJ2 ⟨cz c * 256 + i.val, hi⟩ j ((Rect.unit (s := S2048x2048) (k0_off37 c) S256x384.size (k0_off37_inb c)).emb (ix2 i j))
      (by show (k0_off37 c) 0 + 1 * i.val = cx c * 1024 + cy c * 512 + (cz c * 256 + i.val); rw [off37_eq c]
          show cx c * 1024 + cy c * 512 + cz c * 256 + 1 * i.val = _; omega)
      (by show (k0_off37 c) 1 + 1 * j.val = 0 + j.val; rw [off37_eq c]; show 0 + 1 * j.val = 0 + j.val; omega)
    rw [e] at this
    exact this
  have h2x : (View.readAt (Elt Ideal) (Memref.whole cc0_scratch1 : Memref sig .tc .vmem S1792x384 .bf16).view (Rect.unit (s := S1792x384) (k0_off38 c) S256x384.size (k0_off38_inb c)).toLoadRect fl) (ix2 i j)
      = share A B (nb 0 1 c).val (ownRow 0 0 c + i.val) (colLo 0 + j.val) + share A B (nb 0 0 (nb 0 1 c)).val (ownRow 0 0 c + i.val) (colLo 0 + j.val) := by
    have hh := hl ⟨cz c * 256 + i.val, hi⟩ j
    rw [View.readAt_eq_ld]
    have he : (Rect.unit (s := S1792x384) (k0_off38 c) S256x384.size (k0_off38_inb c)).emb (ix2 i j) = (Rect.unit (s := S1792x384) ![1024, 0] S512x384.size inb_S1792x384_S512x384_1024_0).emb (ix2 (⟨cz c * 256 + i.val, hi⟩ : Fin 512) j) := funext fun a => Fin.ext (by
      match a with
      | ⟨0, _⟩ => show (k0_off38 c) 0 + 1 * i.val = 1024 + 1 * (cz c * 256 + i.val); rw [off38_eq c]; show 1024 + cz c * 256 + 1 * i.val = _; omega
      | ⟨1, _⟩ => show (k0_off38 c) 1 + 1 * j.val = 0 + 1 * j.val; rw [off38_eq c]; rfl)
    show (Memref.whole cc0_scratch1 : Memref sig .tc .vmem S1792x384 .bf16).view.read (Elt Ideal) fl ((Rect.unit (s := S1792x384) (k0_off38 c) S256x384.size (k0_off38_inb c)).emb (ix2 i j)) = _
    rw [he]
    refine hh.trans ?_
    have e : sendRow 0 1 (nbr 1 c) + (cz c * 256 + i.val) = ownRow 0 0 c + i.val := by
      show cx (nbr 1 c) * 1024 + (1 - cy (nbr 1 c)) * 512 + (cz c * 256 + i.val) = cx c * 1024 + cy c * 512 + cz c * 256 + i.val
      rw [cx_nbr1, cy_nbr1]; have := cy_le c; omega
    show share A B (nbr 1 c).val (sendRow 0 1 (nbr 1 c) + (cz c * 256 + i.val)) (colLo 0 + j.val)
        + share A B (nb 0 0 (nbr 1 c)).val (sendRow 0 1 (nbr 1 c) + (cz c * 256 + i.val)) (colLo 0 + j.val) = _
    rw [e]; rfl
  exact congrArg₂ (fun a b : EReal => a + b) h1x h2x

theorem coordN_le (c : Dev nD) (a : ℕ) : coordN c a ≤ 1 := by
  unfold coordN; split_ifs
  · exact cx_le c
  · exact cy_le c
  · exact cz_le c

/-- The kept-eighth fact read through a load of those rows. -/
theorem J3_readAt {k w : ℕ} {c : Dev nD} {g : Buf (Elt Ideal) ((Memref.whole cc0_scratch0 : Memref sig .tc .vmem S2048x2048 .f32).view.loc (c : Thread nD τ))} (h : J3 A B k w c g)
    (off : Fin 2 → ℕ) (inb : ∀ a, off a + (⟨2, ![256, w]⟩ : Shape).size a ≤ S2048x2048.size a) (hoff : off = ![ownRow k 0 c, colLo k])
    (r : Fin 256) (j : Fin w) :
    (View.readAt (Elt Ideal) (Memref.whole cc0_scratch0 : Memref sig .tc .vmem S2048x2048 .f32).view (Rect.unit (s := S2048x2048) off (⟨2, ![256, w]⟩ : Shape).size inb).toLoadRect g) (ix2 r j)
      = (share A B c.val (ownRow k 0 c + r.val) (colLo k + j.val) + share A B (nb k 0 c).val (ownRow k 0 c + r.val) (colLo k + j.val))
        + (share A B (nb k 1 c).val (ownRow k 0 c + r.val) (colLo k + j.val) + share A B (nb k 0 (nb k 1 c)).val (ownRow k 0 c + r.val) (colLo k + j.val)) := by
  subst hoff
  rw [View.readAt_eq_ld]
  exact h r j _ (by show ownRow k 0 c + 1 * r.val = ownRow k 0 c + r.val; omega) (by show colLo k + 1 * j.val = colLo k + j.val; omega)

/-- Group 0: the kept-eighth fact in the form of a load at the device's own rows. -/
theorem J3_0_readAt {c : Dev nD} {g : Buf (Elt Ideal) ((Memref.whole cc0_scratch0 : Memref sig .tc .vmem S2048x2048 .f32).view.loc (c : Thread nD τ))} (h : J3 A B 0 384 c g) (r : Fin 256) (j : Fin 384) :
    ((View.readAt (Elt Ideal) (Memref.whole cc0_scratch0 : Memref sig .tc .vmem S2048x2048 .f32).view (Rect.unit (s := S2048x2048) (k0_off37 c) ![256, 384] (k0_off37_inb c)).toLoadRect g) (ix2 r j) : EReal)
      = (share A B c.val (ownRow 0 0 c + r.val) (colLo 0 + j.val) + share A B (nb 0 0 c).val (ownRow 0 0 c + r.val) (colLo 0 + j.val))
        + (share A B (nb 0 1 c).val (ownRow 0 0 c + r.val) (colLo 0 + j.val) + share A B (nb 0 0 (nb 0 1 c)).val (ownRow 0 0 c + r.val) (colLo 0 + j.val)) :=
  J3_readAt A B h (k0_off37 c) (k0_off37_inb c) (off37_eq c) r j

/-- The kept quarter's fact on the kept eighth alone (what is left of it once the other eighth has been added to and sent). -/
def J2e (k w : ℕ) (c : Dev nD) (g : Buf (Elt Ideal) ((Memref.whole cc0_scratch0 : Memref sig .tc .vmem S2048x2048 .f32).view.loc (c : Thread nD τ))) : Prop :=
  ∀ (i : Fin 256) (j : Fin w) (y : S2048x2048.Idx), (y 0).val = ownRow k 0 c + i.val → (y 1).val = colLo k + j.val →
    (Memref.whole cc0_scratch0 : Memref sig .tc .vmem S2048x2048 .f32).view.read (Elt Ideal) g y = share A B c.val (ownRow k 0 c + i.val) (colLo k + j.val) + share A B (nb k 0 c).val (ownRow k 0 c + i.val) (colLo k + j.val)

theorem J2e_of_J2 {k w : ℕ} {c : Dev nD} {g : Buf (Elt Ideal) ((Memref.whole cc0_scratch0 : Memref sig .tc .vmem S2048x2048 .f32).view.loc (c : Thread nD τ))} (h : J2 A B k w c g) : J2e A B k w c g := by
  intro i j y h0 h1
  have hle := coordN_le c (k + 2)
  have hi : coordN c (k + 2) * 256 + i.val < 512 := by have := i.isLt; omega
  have e : ownRow k 1 c + (coordN c (k + 2) * 256 + i.val) = ownRow k 0 c + i.val := by
    show coordN c k * 1024 + coordN c (k + 1) * 512 + (coordN c (k + 2) * 256 + i.val) = coordN c k * 1024 + coordN c (k + 1) * 512 + coordN c (k + 2) * 256 + i.val; omega
  have := h ⟨coordN c (k + 2) * 256 + i.val, hi⟩ j y (by rw [h0]; exact e.symm) h1
  rw [e] at this
  exact this

/-- A store to other columns, or to other rows of the same columns, leaves the fact. -/
theorem J2e_cons {k w : ℕ} {c : Dev nD} {g : Buf (Elt Ideal) ((Memref.whole cc0_scratch0 : Memref sig .tc .vmem S2048x2048 .f32).view.loc (c : Thread nD τ))}
    {off off' size : Fin 2 → ℕ} (inb : ∀ a, off a + size a ≤ S2048x2048.size a)
    (pay : (Rect.unit (s := S2048x2048) off size inb).shape.Idx → Elt Ideal .f32) (L : List (View.Piece (Elt Ideal) S2048x2048 .f32))
    (heq : off = off')
    (hdis : (off' 1 + size 1 ≤ colLo k ∨ colLo k + w ≤ off' 1) ∨ (off' 0 + size 0 ≤ ownRow k 0 c ∨ ownRow k 0 c + 256 ≤ off' 0))
    (h : J2e A B k w c ((Memref.whole cc0_scratch0 : Memref sig .tc .vmem S2048x2048 .f32).view.writes (Elt Ideal) g L)) :
    J2e A B k w c ((Memref.whole cc0_scratch0 : Memref sig .tc .vmem S2048x2048 .f32).view.writes (Elt Ideal) g ((⟨Rect.unit (s := S2048x2048) off size inb, pay⟩ : View.Piece (Elt Ideal) S2048x2048 .f32) :: L)) := by
  intro i j y h0 h1
  rcases hdis with hc | hr
  · rw [View.read_writes_cons_unit_of_not_mem (Memref.whole cc0_scratch0 : Memref sig .tc .vmem S2048x2048 .f32).view g inb pay L y heq 1
      (by rcases hc with hc | hc
          · right; omega
          · left; have := j.isLt; omega)]
    exact h i j y h0 h1
  · rw [View.read_writes_cons_unit_of_not_mem (Memref.whole cc0_scratch0 : Memref sig .tc .vmem S2048x2048 .f32).view g inb pay L y heq 0
      (by rcases hr with hr | hr
          · right; omega
          · left; have := i.isLt; omega)]
    exact h i j y h0 h1

theorem J2e_nil {k w : ℕ} {c : Dev nD} {g : Buf (Elt Ideal) ((Memref.whole cc0_scratch0 : Memref sig .tc .vmem S2048x2048 .f32).view.loc (c : Thread nD τ))} (h : J2e A B k w c g) :
    J2e A B k w c ((Memref.whole cc0_scratch0 : Memref sig .tc .vmem S2048x2048 .f32).view.writes (Elt Ideal) g []) := h

/-- The same from the kept quarter's fact on the kept eighth alone: the form the run can supply, the other eighth having been rewritten. -/
theorem J3_0_stored' (c : Dev nD) (g : Buf (Elt Ideal) ((Memref.whole cc0_scratch0 : Memref sig .tc .vmem S2048x2048 .f32).view.loc (c : Thread nD τ)))
    (fl : Buf (Elt Ideal) ((commM0_1 : Memref sig .tc .vmem S512x384 .bf16).view.loc (c : Thread nD τ)))
    (hJ2e : J2e A B 0 384 c g)
    (hl : (Vreal A B).rs0_1 (nbr 1 c) ((commM0_1 : Memref sig .tc .vmem S512x384 .bf16).view.read (Elt Ideal) fl)) :
    J3 A B 0 384 c ((Memref.whole cc0_scratch0 : Memref sig .tc .vmem S2048x2048 .f32).view.writes (Elt Ideal) g
      [⟨(Rect.unit (s := S2048x2048) (k0_off37 c) S256x384.size (k0_off37_inb c)), k0_pay40 (F := Ideal) (View.readAt (Elt Ideal) (Memref.whole cc0_scratch0 : Memref sig .tc .vmem S2048x2048 .f32).view (Rect.unit (s := S2048x2048) (k0_off37 c) S256x384.size (k0_off37_inb c)).toLoadRect g)
          (View.readAt (Elt Ideal) (Memref.whole cc0_scratch1 : Memref sig .tc .vmem S1792x384 .bf16).view (Rect.unit (s := S1792x384) (k0_off38 c) S256x384.size (k0_off38_inb c)).toLoadRect fl)⟩]) := by
  intro i j y h0 h1
  rw [View.read_writes_cons_unit_of_mem (Memref.whole cc0_scratch0 : Memref sig .tc .vmem S2048x2048 .f32).view g (k0_off37_inb c) _ _ y (ix2 i j) (off37_eq c)
    (fun a => by
      match a with
      | ⟨0, _⟩ => exact h0
      | ⟨1, _⟩ => exact h1)]
  unfold k0_pay40
  simp only [shapeCast_self]
  have hi : cz c * 256 + i.val < 512 := by have := cz_le c; have := i.isLt; omega
  have h1x : (View.readAt (Elt Ideal) (Memref.whole cc0_scratch0 : Memref sig .tc .vmem S2048x2048 .f32).view (Rect.unit (s := S2048x2048) (k0_off37 c) S256x384.size (k0_off37_inb c)).toLoadRect g) (ix2 i j)
      = share A B c.val (ownRow 0 0 c + i.val) (colLo 0 + j.val) + share A B (nb 0 0 c).val (ownRow 0 0 c + i.val) (colLo 0 + j.val) := by
    rw [View.readAt_eq_ld]
    exact hJ2e i j ((Rect.unit (s := S2048x2048) (k0_off37 c) S256x384.size (k0_off37_inb c)).emb (ix2 i j))
      (by show (k0_off37 c) 0 + 1 * i.val = cx c * 1024 + cy c * 512 + cz c * 256 + i.val; rw [off37_eq c]
          show cx c * 1024 + cy c * 512 + cz c * 256 + 1 * i.val = _; omega)
      (by show (k0_off37 c) 1 + 1 * j.val = 0 + j.val; rw [off37_eq c]; show 0 + 1 * j.val = 0 + j.val; omega)
  have h2x : (View.readAt (Elt Ideal) (Memref.whole cc0_scratch1 : Memref sig .tc .vmem S1792x384 .bf16).view (Rect.unit (s := S1792x384) (k0_off38 c) S256x384.size (k0_off38_inb c)).toLoadRect fl) (ix2 i j)
      = share A B (nb 0 1 c).val (ownRow 0 0 c + i.val) (colLo 0 + j.val) + share A B (nb 0 0 (nb 0 1 c)).val (ownRow 0 0 c + i.val) (colLo 0 + j.val) := by
    have hh := hl ⟨cz c * 256 + i.val, hi⟩ j
    rw [View.readAt_eq_ld]
    have he : (Rect.unit (s := S1792x384) (k0_off38 c) S256x384.size (k0_off38_inb c)).emb (ix2 i j) = (Rect.unit (s := S1792x384) ![1024, 0] S512x384.size inb_S1792x384_S512x384_1024_0).emb (ix2 (⟨cz c * 256 + i.val, hi⟩ : Fin 512) j) := funext fun a => Fin.ext (by
      match a with
      | ⟨0, _⟩ => show (k0_off38 c) 0 + 1 * i.val = 1024 + 1 * (cz c * 256 + i.val); rw [off38_eq c]; show 1024 + cz c * 256 + 1 * i.val = _; omega
      | ⟨1, _⟩ => show (k0_off38 c) 1 + 1 * j.val = 0 + 1 * j.val; rw [off38_eq c]; rfl)
    show (Memref.whole cc0_scratch1 : Memref sig .tc .vmem S1792x384 .bf16).view.read (Elt Ideal) fl ((Rect.unit (s := S1792x384) (k0_off38 c) S256x384.size (k0_off38_inb c)).emb (ix2 i j)) = _
    rw [he]
    refine hh.trans ?_
    have e : sendRow 0 1 (nbr 1 c) + (cz c * 256 + i.val) = ownRow 0 0 c + i.val := by
      show cx (nbr 1 c) * 1024 + (1 - cy (nbr 1 c)) * 512 + (cz c * 256 + i.val) = cx c * 1024 + cy c * 512 + cz c * 256 + i.val
      rw [cx_nbr1, cy_nbr1]; have := cy_le c; omega
    show share A B (nbr 1 c).val (sendRow 0 1 (nbr 1 c) + (cz c * 256 + i.val)) (colLo 0 + j.val)
        + share A B (nb 0 0 (nbr 1 c)).val (sendRow 0 1 (nbr 1 c) + (cz c * 256 + i.val)) (colLo 0 + j.val) = _
    rw [e]; rfl
  exact congrArg₂ (fun a b : EReal => a + b) h1x h2x

/-- The kept half's fact on the kept quarter alone (what is left of it once the other quarter has been added to and sent). -/
def J1q (k w : ℕ) (c : Dev nD) (g : Buf (Elt Ideal) ((Memref.whole cc0_scratch0 : Memref sig .tc .vmem S2048x2048 .f32).view.loc (c : Thread nD τ))) : Prop :=
  ∀ (i : Fin 512) (j : Fin w) (y : S2048x2048.Idx), (y 0).val = ownRow k 1 c + i.val → (y 1).val = colLo k + j.val →
    (Memref.whole cc0_scratch0 : Memref sig .tc .vmem S2048x2048 .f32).view.read (Elt Ideal) g y = share A B c.val (ownRow k 1 c + i.val) (colLo k + j.val)

theorem J1q_of_J1 {k w : ℕ} {c : Dev nD} {g : Buf (Elt Ideal) ((Memref.whole cc0_scratch0 : Memref sig .tc .vmem S2048x2048 .f32).view.loc (c : Thread nD τ))} (h : J1 A B k w c g) : J1q A B k w c g := by
  intro i j y h0 h1
  have hle := coordN_le c (k + 1)
  have hi : coordN c (k + 1) * 512 + i.val < 1024 := by have := i.isLt; omega
  have e : coordN c k * 1024 + (coordN c (k + 1) * 512 + i.val) = ownRow k 1 c + i.val := by
    show coordN c k * 1024 + (coordN c (k + 1) * 512 + i.val) = coordN c k * 1024 + coordN c (k + 1) * 512 + i.val; omega
  have := h ⟨coordN c (k + 1) * 512 + i.val, hi⟩ j y (by rw [h0]; exact e.symm) h1
  rw [e] at this
  exact this

/-- A store to other columns, or to other rows of the same columns, leaves the fact. -/
theorem J1q_cons {k w : ℕ} {c : Dev nD} {g : Buf (Elt Ideal) ((Memref.whole cc0_scratch0 : Memref sig .tc .vmem S2048x2048 .f32).view.loc (c : Thread nD τ))}
    {off off' size : Fin 2 → ℕ} (inb : ∀ a, off a + size a ≤ S2048x2048.size a)
    (pay : (Rect.unit (s := S2048x2048) off size inb).shape.Idx → Elt Ideal .f32) (L : List (View.Piece (Elt Ideal) S2048x2048 .f32))
    (heq : off = off')
    (hdis : (off' 1 + size 1 ≤ colLo k ∨ colLo k + w ≤ off' 1) ∨ (off' 0 + size 0 ≤ ownRow k 1 c ∨ ownRow k 1 c + 512 ≤ off' 0))
    (h : J1q A B k w c ((Memref.whole cc0_scratch0 : Memref sig .tc .vmem S2048x2048 .f32).view.writes (Elt Ideal) g L)) :
    J1q A B k w c ((Memref.whole cc0_scratch0 : Memref sig .tc .vmem S2048x2048 .f32).view.writes (Elt Ideal) g ((⟨Rect.unit (s := S2048x2048) off size inb, pay⟩ : View.Piece (Elt Ideal) S2048x2048 .f32) :: L)) := by
  intro i j y h0 h1
  rcases hdis with hc | hr
  · rw [View.read_writes_cons_unit_of_not_mem (Memref.whole cc0_scratch0 : Memref sig .tc .vmem S2048x2048 .f32).view g inb pay L y heq 1
      (by rcases hc with hc | hc
          · right; omega
          · left; have := j.isLt; omega)]
    exact h i j y h0 h1
  · rw [View.read_writes_cons_unit_of_not_mem (Memref.whole cc0_scratch0 : Memref sig .tc .vmem S2048x2048 .f32).view g inb pay L y heq 0
      (by rcases hr with hr | hr
          · right; omega
          · left; have := i.isLt; omega)]
    exact h i j y h0 h1

theorem J1q_nil {k w : ℕ} {c : Dev nD} {g : Buf (Elt Ideal) ((Memref.whole cc0_scratch0 : Memref sig .tc .vmem S2048x2048 .f32).view.loc (c : Thread nD τ))} (h : J1q A B k w c g) :
    J1q A B k w c ((Memref.whole cc0_scratch0 : Memref sig .tc .vmem S2048x2048 .f32).view.writes (Elt Ideal) g []) := h

/-- Group 1 after the stretch of its second step: the landed rows that belong to the kept quarter were added to it. -/
theorem J2_1_stored' (c : Dev nD) (g : Buf (Elt Ideal) ((Memref.whole cc0_scratch0 : Memref sig .tc .vmem S2048x2048 .f32).view.loc (c : Thread nD τ)))
    (fl : Buf (Elt Ideal) ((commM1_0 : Memref sig .tc .vmem S1024x384 .bf16).view.loc (c : Thread nD τ)))
    (hq : J1q A B 1 384 c g)
    (hl : (Vreal A B).rs1_0 (nbr 1 c) ((commM1_0 : Memref sig .tc .vmem S1024x384 .bf16).view.read (Elt Ideal) fl)) :
    J2 A B 1 384 c ((Memref.whole cc0_scratch0 : Memref sig .tc .vmem S2048x2048 .f32).view.writes (Elt Ideal) g
      [⟨(Rect.unit (s := S2048x2048) (k0_off19 c) S512x384.size (k0_off19_inb c)), k0_pay23 (F := Ideal) (View.readAt (Elt Ideal) (Memref.whole cc0_scratch0 : Memref sig .tc .vmem S2048x2048 .f32).view (Rect.unit (s := S2048x2048) (k0_off19 c) S512x384.size (k0_off19_inb c)).toLoadRect g)
          (View.readAt (Elt Ideal) (Memref.whole cc0_scratch2 : Memref sig .tc .vmem S1792x384 .bf16).view (Rect.unit (s := S1792x384) (k0_off20 c) S512x384.size (k0_off20_inb c)).toLoadRect fl)⟩]) := by
  intro i j y h0 h1
  rw [View.read_writes_cons_unit_of_mem (Memref.whole cc0_scratch0 : Memref sig .tc .vmem S2048x2048 .f32).view g (k0_off19_inb c) _ _ y (ix2 i j) (off19_eq c)
    (fun a => by
      match a with
      | ⟨0, _⟩ => exact h0
      | ⟨1, _⟩ => exact h1)]
  unfold k0_pay23
  simp only [shapeCast_self]
  have hi : cz c * 512 + i.val < 1024 := by have := cz_le c; have := i.isLt; omega
  have h1x : (View.readAt (Elt Ideal) (Memref.whole cc0_scratch0 : Memref sig .tc .vmem S2048x2048 .f32).view (Rect.unit (s := S2048x2048) (k0_off19 c) S512x384.size (k0_off19_inb c)).toLoadRect g) (ix2 i j)
      = share A B c.val (ownRow 1 1 c + i.val) (colLo 1 + j.val) := by
    rw [View.readAt_eq_ld]
    exact hq i j ((Rect.unit (s := S2048x2048) (k0_off19 c) S512x384.size (k0_off19_inb c)).emb (ix2 i j))
      (by show (k0_off19 c) 0 + 1 * i.val = cy c * 1024 + cz c * 512 + i.val; rw [off19_eq c]
          show cy c * 1024 + cz c * 512 + 1 * i.val = _; omega)
      (by show (k0_off19 c) 1 + 1 * j.val = 384 + j.val; rw [off19_eq c]; show 384 + 1 * j.val = 384 + j.val; omega)
  have h2x : (View.readAt (Elt Ideal) (Memref.whole cc0_scratch2 : Memref sig .tc .vmem S1792x384 .bf16).view (Rect.unit (s := S1792x384) (k0_off20 c) S512x384.size (k0_off20_inb c)).toLoadRect fl) (ix2 i j)
      = share A B (nb 1 0 c).val (ownRow 1 1 c + i.val) (colLo 1 + j.val) := by
    have hh := hl ⟨cz c * 512 + i.val, hi⟩ j
    rw [View.readAt_eq_ld]
    have he : (Rect.unit (s := S1792x384) (k0_off20 c) S512x384.size (k0_off20_inb c)).emb (ix2 i j) = (Rect.unit (s := S1792x384) ![0, 0] S1024x384.size inb_S1792x384_S1024x384_0_0).emb (ix2 (⟨cz c * 512 + i.val, hi⟩ : Fin 1024) j) := funext fun a => Fin.ext (by
      match a with
      | ⟨0, _⟩ => show (k0_off20 c) 0 + 1 * i.val = 0 + 1 * (cz c * 512 + i.val); rw [off20_eq c]; show cz c * 512 + 1 * i.val = _; omega
      | ⟨1, _⟩ => show (k0_off20 c) 1 + 1 * j.val = 0 + 1 * j.val; rw [off20_eq c]; rfl)
    show (Memref.whole cc0_scratch2 : Memref sig .tc .vmem S1792x384 .bf16).view.read (Elt Ideal) fl ((Rect.unit (s := S1792x384) (k0_off20 c) S512x384.size (k0_off20_inb c)).emb (ix2 i j)) = _
    rw [he]
    refine hh.trans ?_
    have e : sendRow 1 0 (nbr 1 c) + (cz c * 512 + i.val) = ownRow 1 1 c + i.val := by
      show (1 - cy (nbr 1 c)) * 1024 + (cz c * 512 + i.val) = cy c * 1024 + cz c * 512 + i.val
      rw [cy_nbr1]; have := cy_le c; omega
    show share A B (nbr 1 c).val (sendRow 1 0 (nbr 1 c) + (cz c * 512 + i.val)) (colLo 1 + j.val) = _
    rw [e]; rfl
  exact congrArg₂ (fun a b : EReal => a + b) h1x h2x

/-- Group 2 after the stretch of its second step: the landed rows that belong to the kept quarter were added to it. -/
theorem J2_2_stored' (c : Dev nD) (g : Buf (Elt Ideal) ((Memref.whole cc0_scratch0 : Memref sig .tc .vmem S2048x2048 .f32).view.loc (c : Thread nD τ)))
    (fl : Buf (Elt Ideal) ((commM2_0 : Memref sig .tc .vmem S1024x384 .bf16).view.loc (c : Thread nD τ)))
    (hq : J1q A B 2 384 c g)
    (hl : (Vreal A B).rs2_0 (nbr 2 c) ((commM2_0 : Memref sig .tc .vmem S1024x384 .bf16).view.read (Elt Ideal) fl)) :
    J2 A B 2 384 c ((Memref.whole cc0_scratch0 : Memref sig .tc .vmem S2048x2048 .f32).view.writes (Elt Ideal) g
      [⟨(Rect.unit (s := S2048x2048) (k0_off23 c) S512x384.size (k0_off23_inb c)), k0_pay26 (F := Ideal) (View.readAt (Elt Ideal) (Memref.whole cc0_scratch0 : Memref sig .tc .vmem S2048x2048 .f32).view (Rect.unit (s := S2048x2048) (k0_off23 c) S512x384.size (k0_off23_inb c)).toLoadRect g)
          (View.readAt (Elt Ideal) (Memref.whole cc0_scratch3 : Memref sig .tc .vmem S1792x384 .bf16).view (Rect.unit (s := S1792x384) (k0_off24 c) S512x384.size (k0_off24_inb c)).toLoadRect fl)⟩]) := by
  intro i j y h0 h1
  rw [View.read_writes_cons_unit_of_mem (Memref.whole cc0_scratch0 : Memref sig .tc .vmem S2048x2048 .f32).view g (k0_off23_inb c) _ _ y (ix2 i j) (off23_eq c)
    (fun a => by
      match a with
      | ⟨0, _⟩ => exact h0
      | ⟨1, _⟩ => exact h1)]
  unfold k0_pay26
  simp only [shapeCast_self]
  have hi : cx c * 512 + i.val < 1024 := by have := cx_le c; have := i.isLt; omega
  have h1x : (View.readAt (Elt Ideal) (Memref.whole cc0_scratch0 : Memref sig .tc .vmem S2048x2048 .f32).view (Rect.unit (s := S2048x2048) (k0_off23 c) S512x384.size (k0_off23_inb c)).toLoadRect g) (ix2 i j)
      = share A B c.val (ownRow 2 1 c + i.val) (colLo 2 + j.val) := by
    rw [View.readAt_eq_ld]
    exact hq i j ((Rect.unit (s := S2048x2048) (k0_off23 c) S512x384.size (k0_off23_inb c)).emb (ix2 i j))
      (by show (k0_off23 c) 0 + 1 * i.val = cz c * 1024 + cx c * 512 + i.val; rw [off23_eq c]
          show cz c * 1024 + cx c * 512 + 1 * i.val = _; omega)
      (by show (k0_off23 c) 1 + 1 * j.val = 768 + j.val; rw [off23_eq c]; show 768 + 1 * j.val = 768 + j.val; omega)
  have h2x : (View.readAt (Elt Ideal) (Memref.whole cc0_scratch3 : Memref sig .tc .vmem S1792x384 .bf16).view (Rect.unit (s := S1792x384) (k0_off24 c) S512x384.size (k0_off24_inb c)).toLoadRect fl) (ix2 i j)
      = share A B (nb 2 0 c).val (ownRow 2 1 c + i.val) (colLo 2 + j.val) := by
    have hh := hl ⟨cx c * 512 + i.val, hi⟩ j
    rw [View.readAt_eq_ld]
    have he : (Rect.unit (s := S1792x384) (k0_off24 c) S512x384.size (k0_off24_inb c)).emb (ix2 i j) = (Rect.unit (s := S1792x384) ![0, 0] S1024x384.size inb_S1792x384_S1024x384_0_0).emb (ix2 (⟨cx c * 512 + i.val, hi⟩ : Fin 1024) j) := funext fun a => Fin.ext (by
      match a with
      | ⟨0, _⟩ => show (k0_off24 c) 0 + 1 * i.val = 0 + 1 * (cx c * 512 + i.val); rw [off24_eq c]; show cx c * 512 + 1 * i.val = _; omega
      | ⟨1, _⟩ => show (k0_off24 c) 1 + 1 * j.val = 0 + 1 * j.val; rw [off24_eq c]; rfl)
    show (Memref.whole cc0_scratch3 : Memref sig .tc .vmem S1792x384 .bf16).view.read (Elt Ideal) fl ((Rect.unit (s := S1792x384) (k0_off24 c) S512x384.size (k0_off24_inb c)).emb (ix2 i j)) = _
    rw [he]
    refine hh.trans ?_
    have e : sendRow 2 0 (nbr 2 c) + (cx c * 512 + i.val) = ownRow 2 1 c + i.val := by
      show (1 - cz (nbr 2 c)) * 1024 + (cx c * 512 + i.val) = cz c * 1024 + cx c * 512 + i.val
      rw [cz_nbr2]; have := cz_le c; omega
    show share A B (nbr 2 c).val (sendRow 2 0 (nbr 2 c) + (cx c * 512 + i.val)) (colLo 2 + j.val) = _
    rw [e]; rfl
  exact congrArg₂ (fun a b : EReal => a + b) h1x h2x

/-- Group 2 after the stretch of its third step: the landed rows that belong to the kept eighth were added to it. -/
theorem J3_2_stored' (c : Dev nD) (g : Buf (Elt Ideal) ((Memref.whole cc0_scratch0 : Memref sig .tc .vmem S2048x2048 .f32).view.loc (c : Thread nD τ)))
    (fl : Buf (Elt Ideal) ((commM2_1 : Memref sig .tc .vmem S512x384 .bf16).view.loc (c : Thread nD τ)))
    (hJ2e : J2e A B 2 384 c g)
    (hl : (Vreal A B).rs2_1 (nbr 0 c) ((commM2_1 : Memref sig .tc .vmem S512x384 .bf16).view.read (Elt Ideal) fl)) :
    J3 A B 2 384 c ((Memref.whole cc0_scratch0 : Memref sig .tc .vmem S2048x2048 .f32).view.writes (Elt Ideal) g
      [⟨(Rect.unit (s := S2048x2048) (k0_off45 c) S256x384.size (k0_off45_inb c)), k0_pay47 (F := Ideal) (View.readAt (Elt Ideal) (Memref.whole cc0_scratch0 : Memref sig .tc .vmem S2048x2048 .f32).view (Rect.unit (s := S2048x2048) (k0_off45 c) S256x384.size (k0_off45_inb c)).toLoadRect g)
          (View.readAt (Elt Ideal) (Memref.whole cc0_scratch3 : Memref sig .tc .vmem S1792x384 .bf16).view (Rect.unit (s := S1792x384) (k0_off46 c) S256x384.size (k0_off46_inb c)).toLoadRect fl)⟩]) := by
  intro i j y h0 h1
  rw [View.read_writes_cons_unit_of_mem (Memref.whole cc0_scratch0 : Memref sig .tc .vmem S2048x2048 .f32).view g (k0_off45_inb c) _ _ y (ix2 i j) (off45_eq c)
    (fun a => by
      match a with
      | ⟨0, _⟩ => exact h0
      | ⟨1, _⟩ => exact h1)]
  unfold k0_pay47
  simp only [shapeCast_self]
  have hi : cy c * 256 + i.val < 512 := by have := cy_le c; have := i.isLt; omega
  have h1x : (View.readAt (Elt Ideal) (Memref.whole cc0_scratch0 : Memref sig .tc .vmem S2048x2048 .f32).view (Rect.unit (s := S2048x2048) (k0_off45 c) S256x384.size (k0_off45_inb c)).toLoadRect g) (ix2 i j)
      = share A B c.val (ownRow 2 0 c + i.val) (colLo 2 + j.val) + share A B (nb 2 0 c).val (ownRow 2 0 c + i.val) (colLo 2 + j.val) := by
    rw [View.readAt_eq_ld]
    exact hJ2e i j ((Rect.unit (s := S2048x2048) (k0_off45 c) S256x384.size (k0_off45_inb c)).emb (ix2 i j))
      (by show (k0_off45 c) 0 + 1 * i.val = cz c * 1024 + cx c * 512 + cy c * 256 + i.val; rw [off45_eq c]
          show cz c * 1024 + cx c * 512 + cy c * 256 + 1 * i.val = _; omega)
      (by show (k0_off45 c) 1 + 1 * j.val = 768 + j.val; rw [off45_eq c]; show 768 + 1 * j.val = 768 + j.val; omega)
  have h2x : (View.readAt (Elt Ideal) (Memref.whole cc0_scratch3 : Memref sig .tc .vmem S1792x384 .bf16).view (Rect.unit (s := S1792x384) (k0_off46 c) S256x384.size (k0_off46_inb c)).toLoadRect fl) (ix2 i j)
      = share A B (nb 2 1 c).val (ownRow 2 0 c + i.val) (colLo 2 + j.val) + share A B (nb 2 0 (nb 2 1 c)).val (ownRow 2 0 c + i.val) (colLo 2 + j.val) := by
    have hh := hl ⟨cy c * 256 + i.val, hi⟩ j
    rw [View.readAt_eq_ld]
    have he : (Rect.unit (s := S1792x384) (k0_off46 c) S256x384.size (k0_off46_inb c)).emb (ix2 i j) = (Rect.unit (s := S1792x384) ![1024, 0] S512x384.size inb_S1792x384_S512x384_1024_0).emb (ix2 (⟨cy c * 256 + i.val, hi⟩ : Fin 512) j) := funext fun a => Fin.ext (by
      match a with
      | ⟨0, _⟩ => show (k0_off46 c) 0 + 1 * i.val = 1024 + 1 * (cy c * 256 + i.val); rw [off46_eq c]; show 1024 + cy c * 256 + 1 * i.val = _; omega
      | ⟨1, _⟩ => show (k0_off46 c) 1 + 1 * j.val = 0 + 1 * j.val; rw [off46_eq c]; rfl)
    show (Memref.whole cc0_scratch3 : Memref sig .tc .vmem S1792x384 .bf16).view.read (Elt Ideal) fl ((Rect.unit (s := S1792x384) (k0_off46 c) S256x384.size (k0_off46_inb c)).emb (ix2 i j)) = _
    rw [he]
    refine hh.trans ?_
    have e : sendRow 2 1 (nbr 0 c) + (cy c * 256 + i.val) = ownRow 2 0 c + i.val := by
      show cz (nbr 0 c) * 1024 + (1 - cx (nbr 0 c)) * 512 + (cy c * 256 + i.val) = cz c * 1024 + cx c * 512 + cy c * 256 + i.val
      rw [cz_nbr0, cx_nbr0]; have := cx_le c; omega
    show share A B (nbr 0 c).val (sendRow 2 1 (nbr 0 c) + (cy c * 256 + i.val)) (colLo 2 + j.val)
        + share A B (nb 2 0 (nbr 0 c)).val (sendRow 2 1 (nbr 0 c) + (cy c * 256 + i.val)) (colLo 2 + j.val) = _
    rw [e]; rfl
  exact congrArg₂ (fun a b : EReal => a + b) h1x h2x

/-- Group 3 after the stretch of its third step: the landed rows that belong to the kept eighth were added to it. -/
theorem J3_3_stored' (c : Dev nD) (g : Buf (Elt Ideal) ((Memref.whole cc0_scratch0 : Memref sig .tc .vmem S2048x2048 .f32).view.loc (c : Thread nD τ)))
    (fl : Buf (Elt Ideal) ((commM3_1 : Memref sig .tc .vmem S512x384 .bf16).view.loc (c : Thread nD τ)))
    (hJ2e : J2e A B 3 384 c g)
    (hl : (Vreal A B).rs3_1 (nbr 1 c) ((commM3_1 : Memref sig .tc .vmem S512x384 .bf16).view.read (Elt Ideal) fl)) :
    J3 A B 3 384 c ((Memref.whole cc0_scratch0 : Memref sig .tc .vmem S2048x2048 .f32).view.writes (Elt Ideal) g
      [⟨(Rect.unit (s := S2048x2048) (k0_off48 c) S256x384.size (k0_off48_inb c)), k0_pay50 (F := Ideal) (View.readAt (Elt Ideal) (Memref.whole cc0_scratch0 : Memref sig .tc .vmem S2048x2048 .f32).view (Rect.unit (s := S2048x2048) (k0_off48 c) S256x384.size (k0_off48_inb c)).toLoadRect g)
          (View.readAt (Elt Ideal) (Memref.whole cc0_scratch4 : Memref sig .tc .vmem S1792x384 .bf16).view (Rect.unit (s := S1792x384) (k0_off38 c) S256x384.size (k0_off38_inb c)).toLoadRect fl)⟩]) := by
  intro i j y h0 h1
  rw [View.read_writes_cons_unit_of_mem (Memref.whole cc0_scratch0 : Memref sig .tc .vmem S2048x2048 .f32).view g (k0_off48_inb c) _ _ y (ix2 i j) (off48_eq c)
    (fun a => by
      match a with
      | ⟨0, _⟩ => exact h0
      | ⟨1, _⟩ => exact h1)]
  unfold k0_pay50
  simp only [shapeCast_self]
  have hi : cz c * 256 + i.val < 512 := by have := cz_le c; have := i.isLt; omega
  have h1x : (View.readAt (Elt Ideal) (Memref.whole cc0_scratch0 : Memref sig .tc .vmem S2048x2048 .f32).view (Rect.unit (s := S2048x2048) (k0_off48 c) S256x384.size (k0_off48_inb c)).toLoadRect g) (ix2 i j)
      = share A B c.val (ownRow 3 0 c + i.val) (colLo 3 + j.val) + share A B (nb 3 0 c).val (ownRow 3 0 c + i.val) (colLo 3 + j.val) := by
    rw [View.readAt_eq_ld]
    exact hJ2e i j ((Rect.unit (s := S2048x2048) (k0_off48 c) S256x384.size (k0_off48_inb c)).emb (ix2 i j))
      (by show (k0_off48 c) 0 + 1 * i.val = cx c * 1024 + cy c * 512 + cz c * 256 + i.val; rw [off48_eq c]
          show cx c * 1024 + cy c * 512 + cz c * 256 + 1 * i.val = _; omega)
      (by show (k0_off48 c) 1 + 1 * j.val = 1152 + j.val; rw [off48_eq c]; show 1152 + 1 * j.val = 1152 + j.val; omega)
  have h2x : (View.readAt (Elt Ideal) (Memref.whole cc0_scratch4 : Memref sig .tc .vmem S1792x384 .bf16).view (Rect.unit (s := S1792x384) (k0_off38 c) S256x384.size (k0_off38_inb c)).toLoadRect fl) (ix2 i j)
      = share A B (nb 3 1 c).val (ownRow 3 0 c + i.val) (colLo 3 + j.val) + share A B (nb 3 0 (nb 3 1 c)).val (ownRow 3 0 c + i.val) (colLo 3 + j.val) := by
    have hh := hl ⟨cz c * 256 + i.val, hi⟩ j
    rw [View.readAt_eq_ld]
    have he : (Rect.unit (s := S1792x384) (k0_off38 c) S256x384.size (k0_off38_inb c)).emb (ix2 i j) = (Rect.unit (s := S1792x384) ![1024, 0] S512x384.size inb_S1792x384_S512x384_1024_0).emb (ix2 (⟨cz c * 256 + i.val, hi⟩ : Fin 512) j) := funext fun a => Fin.ext (by
      match a with
      | ⟨0, _⟩ => show (k0_off38 c) 0 + 1 * i.val = 1024 + 1 * (cz c * 256 + i.val); rw [off38_eq c]; show 1024 + cz c * 256 + 1 * i.val = _; omega
      | ⟨1, _⟩ => show (k0_off38 c) 1 + 1 * j.val = 0 + 1 * j.val; rw [off38_eq c]; rfl)
    show (Memref.whole cc0_scratch4 : Memref sig .tc .vmem S1792x384 .bf16).view.read (Elt Ideal) fl ((Rect.unit (s := S1792x384) (k0_off38 c) S256x384.size (k0_off38_inb c)).emb (ix2 i j)) = _
    rw [he]
    refine hh.trans ?_
    have e : sendRow 3 1 (nbr 1 c) + (cz c * 256 + i.val) = ownRow 3 0 c + i.val := by
      show cx (nbr 1 c) * 1024 + (1 - cy (nbr 1 c)) * 512 + (cz c * 256 + i.val) = cx c * 1024 + cy c * 512 + cz c * 256 + i.val
      rw [cx_nbr1, cy_nbr1]; have := cy_le c; omega
    show share A B (nbr 1 c).val (sendRow 3 1 (nbr 1 c) + (cz c * 256 + i.val)) (colLo 3 + j.val)
        + share A B (nb 3 0 (nbr 1 c)).val (sendRow 3 1 (nbr 1 c) + (cz c * 256 + i.val)) (colLo 3 + j.val) = _
    rw [e]; rfl
  exact congrArg₂ (fun a b : EReal => a + b) h1x h2x

/-- Group 4 after the stretch of its third step: the landed rows that belong to the kept eighth were added to it. -/
theorem J3_4_stored' (c : Dev nD) (g : Buf (Elt Ideal) ((Memref.whole cc0_scratch0 : Memref sig .tc .vmem S2048x2048 .f32).view.loc (c : Thread nD τ)))
    (fl : Buf (Elt Ideal) ((commM4_1 : Memref sig .tc .vmem S512x256 .bf16).view.loc (c : Thread nD τ)))
    (hJ2e : J2e A B 4 256 c g)
    (hl : (Vreal A B).rs4_1 (nbr 2 c) ((commM4_1 : Memref sig .tc .vmem S512x256 .bf16).view.read (Elt Ideal) fl)) :
    J3 A B 4 256 c ((Memref.whole cc0_scratch0 : Memref sig .tc .vmem S2048x2048 .f32).view.writes (Elt Ideal) g
      [⟨(Rect.unit (s := S2048x2048) (k0_off51 c) S256x256.size (k0_off51_inb c)), k0_pay53 (F := Ideal) (View.readAt (Elt Ideal) (Memref.whole cc0_scratch0 : Memref sig .tc .vmem S2048x2048 .f32).view (Rect.unit (s := S2048x2048) (k0_off51 c) S256x256.size (k0_off51_inb c)).toLoadRect g)
          (View.readAt (Elt Ideal) (Memref.whole cc0_scratch5 : Memref sig .tc .vmem S1792x256 .bf16).view (Rect.unit (s := S1792x256) (k0_off52 c) S256x256.size (k0_off52_inb c)).toLoadRect fl)⟩]) := by
  intro i j y h0 h1
  rw [View.read_writes_cons_unit_of_mem (Memref.whole cc0_scratch0 : Memref sig .tc .vmem S2048x2048 .f32).view g (k0_off51_inb c) _ _ y (ix2 i j) (off51_eq c)
    (fun a => by
      match a with
      | ⟨0, _⟩ => exact h0
      | ⟨1, _⟩ => exact h1)]
  unfold k0_pay53
  simp only [shapeCast_self]
  have hi : cx c * 256 + i.val < 512 := by have := cx_le c; have := i.isLt; omega
  have h1x : (View.readAt (Elt Ideal) (Memref.whole cc0_scratch0 : Memref sig .tc .vmem S2048x2048 .f32).view (Rect.unit (s := S2048x2048) (k0_off51 c) S256x256.size (k0_off51_inb c)).toLoadRect g) (ix2 i j)
      = share A B c.val (ownRow 4 0 c + i.val) (colLo 4 + j.val) + share A B (nb 4 0 c).val (ownRow 4 0 c + i.val) (colLo 4 + j.val) := by
    rw [View.readAt_eq_ld]
    exact hJ2e i j ((Rect.unit (s := S2048x2048) (k0_off51 c) S256x256.size (k0_off51_inb c)).emb (ix2 i j))
      (by show (k0_off51 c) 0 + 1 * i.val = cy c * 1024 + cz c * 512 + cx c * 256 + i.val; rw [off51_eq c]
          show cy c * 1024 + cz c * 512 + cx c * 256 + 1 * i.val = _; omega)
      (by show (k0_off51 c) 1 + 1 * j.val = 1536 + j.val; rw [off51_eq c]; show 1536 + 1 * j.val = 1536 + j.val; omega)
  have h2x : (View.readAt (Elt Ideal) (Memref.whole cc0_scratch5 : Memref sig .tc .vmem S1792x256 .bf16).view (Rect.unit (s := S1792x256) (k0_off52 c) S256x256.size (k0_off52_inb c)).toLoadRect fl) (ix2 i j)
      = share A B (nb 4 1 c).val (ownRow 4 0 c + i.val) (colLo 4 + j.val) + share A B (nb 4 0 (nb 4 1 c)).val (ownRow 4 0 c + i.val) (colLo 4 + j.val) := by
    have hh := hl ⟨cx c * 256 + i.val, hi⟩ j
    rw [View.readAt_eq_ld]
    have he : (Rect.unit (s := S1792x256) (k0_off52 c) S256x256.size (k0_off52_inb c)).emb (ix2 i j) = (Rect.unit (s := S1792x256) ![1024, 0] S512x256.size inb_S1792x256_S512x256_1024_0).emb (ix2 (⟨cx c * 256 + i.val, hi⟩ : Fin 512) j) := funext fun a => Fin.ext (by
      match a with
      | ⟨0, _⟩ => show (k0_off52 c) 0 + 1 * i.val = 1024 + 1 * (cx c * 256 + i.val); rw [off52_eq c]; show 1024 + cx c * 256 + 1 * i.val = _; omega
      | ⟨1, _⟩ => show (k0_off52 c) 1 + 1 * j.val = 0 + 1 * j.val; rw [off52_eq c]; rfl)
    show (Memref.whole cc0_scratch5 : Memref sig .tc .vmem S1792x256 .bf16).view.read (Elt Ideal) fl ((Rect.unit (s := S1792x256) (k0_off52 c) S256x256.size (k0_off52_inb c)).emb (ix2 i j)) = _
    rw [he]
    refine hh.trans ?_
    have e : sendRow 4 1 (nbr 2 c) + (cx c * 256 + i.val) = ownRow 4 0 c + i.val := by
      show cy (nbr 2 c) * 1024 + (1 - cz (nbr 2 c)) * 512 + (cx c * 256 + i.val) = cy c * 1024 + cz c * 512 + cx c * 256 + i.val
      rw [cy_nbr2, cz_nbr2]; have := cz_le c; omega
    show share A B (nbr 2 c).val (sendRow 4 1 (nbr 2 c) + (cx c * 256 + i.val)) (colLo 4 + j.val)
        + share A B (nb 4 0 (nbr 2 c)).val (sendRow 4 1 (nbr 2 c) + (cx c * 256 + i.val)) (colLo 4 + j.val) = _
    rw [e]; rfl
  exact congrArg₂ (fun a b : EReal => a + b) h1x h2x

/-- Group 1, third reduce-scatter step: the staged eighth is the sum of four shares, grouped as they were added. -/
theorem val_rs1_2 (c : Dev nD)
    (fs : Buf (Elt Ideal) ((stgM1_1 : Memref sig .tc .vmem S512x384 .bf16).view.loc (c : Thread nD τ))) (fl : Buf (Elt Ideal) ((commM1_1 : Memref sig .tc .vmem S512x384 .bf16).view.loc (c : Thread nD τ)))
    (g : Buf (Elt Ideal) ((Memref.whole cc0_scratch0 : Memref sig .tc .vmem S2048x2048 .f32).view.loc (c : Thread nD τ)))
    (hJ2 : J2 A B 1 384 c g)
    (hl : (Vreal A B).rs1_1 (nbr 2 c) ((commM1_1 : Memref sig .tc .vmem S512x384 .bf16).view.read (Elt Ideal) fl)) :
    (Vreal A B).rs1_2 c ((stgM1_2 : Memref sig .tc .vmem S256x384 .bf16).view.read (Elt Ideal)
      (View.write (Elt Ideal) ((Memref.whole cc0_scratch8 : Memref sig .tc .vmem S1024x384 .bf16).access (Rect.unit (s := S1024x384) ![0, 0] S256x384.size inb_S1024x384_S256x384_0_0)) fs
        (k0_pay42 (F := Ideal) ((Memref.whole cc0_scratch0 : Memref sig .tc .vmem S2048x2048 .f32).view.readCov [⟨(Rect.unit (s := S2048x2048) (k0_off39 c) S256x384.size (k0_off39_inb c)), k0_pay41 (F := Ideal) (View.readAt (Elt Ideal) (Memref.whole cc0_scratch0 : Memref sig .tc .vmem S2048x2048 .f32).view (Rect.unit (s := S2048x2048) (k0_off39 c) S256x384.size (k0_off39_inb c)).toLoadRect g)
          (View.readAt (Elt Ideal) (Memref.whole cc0_scratch2 : Memref sig .tc .vmem S1792x384 .bf16).view (Rect.unit (s := S1792x384) (k0_off40 c) S256x384.size (k0_off40_inb c)).toLoadRect fl)⟩] (Rect.unit (s := S2048x2048) (k0_off39 c) S256x384.size (k0_off39_inb c)).toLoadRect)) Finset.univ)) := by
  intro r j
  refine (congrFun (View.read_write_univ _ _) (ix2 r j)).trans ?_
  unfold k0_pay42
  simp only [shapeCast_self]
  rw [View.readCov_cons_toLoadRect]
  unfold k0_pay41
  simp only [shapeCast_self]
  have hi : (1 - cx c) * 256 + r.val < 512 := by have := cx_le c; have := r.isLt; omega
  have h1 : (View.readAt (Elt Ideal) (Memref.whole cc0_scratch0 : Memref sig .tc .vmem S2048x2048 .f32).view (Rect.unit (s := S2048x2048) (k0_off39 c) S256x384.size (k0_off39_inb c)).toLoadRect g) (ix2 r j)
      = share A B c.val (sendRow 1 2 c + r.val) (colLo 1 + j.val) + share A B (nb 1 0 c).val (sendRow 1 2 c + r.val) (colLo 1 + j.val) := by
    rw [View.readAt_eq_ld]
    have e : ownRow 1 1 c + ((1 - cx c) * 256 + r.val) = sendRow 1 2 c + r.val := by
      show cy c * 1024 + cz c * 512 + ((1 - cx c) * 256 + r.val) = cy c * 1024 + cz c * 512 + (1 - cx c) * 256 + r.val; omega
    have := hJ2 ⟨(1 - cx c) * 256 + r.val, hi⟩ j ((Rect.unit (s := S2048x2048) (k0_off39 c) S256x384.size (k0_off39_inb c)).emb (ix2 r j))
      (by show (k0_off39 c) 0 + 1 * r.val = cy c * 1024 + cz c * 512 + ((1 - cx c) * 256 + r.val); rw [off39_eq c]
          show cy c * 1024 + cz c * 512 + (1 - cx c) * 256 + 1 * r.val = _; omega)
      (by show (k0_off39 c) 1 + 1 * j.val = 384 + j.val; rw [off39_eq c]; show 384 + 1 * j.val = 384 + j.val; omega)
    rw [e] at this
    exact this
  have h2 : (View.readAt (Elt Ideal) (Memref.whole cc0_scratch2 : Memref sig .tc .vmem S1792x384 .bf16).view (Rect.unit (s := S1792x384) (k0_off40 c) S256x384.size (k0_off40_inb c)).toLoadRect fl) (ix2 r j)
      = share A B (nb 1 1 c).val (sendRow 1 2 c + r.val) (colLo 1 + j.val) + share A B (nb 1 0 (nb 1 1 c)).val (sendRow 1 2 c + r.val) (colLo 1 + j.val) := by
    have hh := hl ⟨(1 - cx c) * 256 + r.val, hi⟩ j
    rw [View.readAt_eq_ld]
    have he : (Rect.unit (s := S1792x384) (k0_off40 c) S256x384.size (k0_off40_inb c)).emb (ix2 r j) = (Rect.unit (s := S1792x384) ![1024, 0] S512x384.size inb_S1792x384_S512x384_1024_0).emb (ix2 (⟨(1 - cx c) * 256 + r.val, hi⟩ : Fin 512) j) := funext fun a => Fin.ext (by
      match a with
      | ⟨0, _⟩ => show (k0_off40 c) 0 + 1 * r.val = 1024 + 1 * ((1 - cx c) * 256 + r.val); rw [off40_eq c]; show 1024 + (1 - cx c) * 256 + 1 * r.val = _; omega
      | ⟨1, _⟩ => show (k0_off40 c) 1 + 1 * j.val = 0 + 1 * j.val; rw [off40_eq c]; rfl)
    show (Memref.whole cc0_scratch2 : Memref sig .tc .vmem S1792x384 .bf16).view.read (Elt Ideal) fl ((Rect.unit (s := S1792x384) (k0_off40 c) S256x384.size (k0_off40_inb c)).emb (ix2 r j)) = _
    rw [he]
    refine hh.trans ?_
    have e : sendRow 1 1 (nbr 2 c) + ((1 - cx c) * 256 + r.val) = sendRow 1 2 c + r.val := by
      show cy (nbr 2 c) * 1024 + (1 - cz (nbr 2 c)) * 512 + ((1 - cx c) * 256 + r.val) = cy c * 1024 + cz c * 512 + (1 - cx c) * 256 + r.val
      rw [cy_nbr2, cz_nbr2]; have := cz_le c; omega
    show share A B (nbr 2 c).val (sendRow 1 1 (nbr 2 c) + ((1 - cx c) * 256 + r.val)) (colLo 1 + j.val)
        + share A B (nb 1 0 (nbr 2 c)).val (sendRow 1 1 (nbr 2 c) + ((1 - cx c) * 256 + r.val)) (colLo 1 + j.val) = _
    rw [e]; rfl
  exact congrArg₂ (fun a b : EReal => a + b) h1 h2

/-- Group 3 after the stretch that adds the landed rows to its kept quarter, the two summands' values given. -/
theorem J2_3_stored' (c : Dev nD) (g : Buf (Elt Ideal) ((Memref.whole cc0_scratch0 : Memref sig .tc .vmem S2048x2048 .f32).view.loc (c : Thread nD τ)))
    (v441 : Vec Ideal S512x384 .f32) (v446 : FVec Ideal S512x384 .f32)
    (h441 : ∀ (i : Fin 512) (j : Fin 384), (v441 (ix2 i j) : EReal) = share A B c.val (ownRow 3 1 c + i.val) (colLo 3 + j.val))
    (h446 : ∀ (i : Fin 512) (j : Fin 384), (v446 (ix2 i j) : EReal) = share A B (nb 3 0 c).val (ownRow 3 1 c + i.val) (colLo 3 + j.val)) :
    J2 A B 3 384 c ((Memref.whole cc0_scratch0 : Memref sig .tc .vmem S2048x2048 .f32).view.writes (Elt Ideal) g [⟨(Rect.unit (s := S2048x2048) (k0_off26 c) S512x384.size (k0_off26_inb c)), k0_pay30 (F := Ideal) v441 v446⟩]) := by
  intro i j y h0 h1
  rw [View.read_writes_cons_unit_of_mem (Memref.whole cc0_scratch0 : Memref sig .tc .vmem S2048x2048 .f32).view g (k0_off26_inb c) _ _ y (ix2 i j) (off26_eq c)
    (fun a => by
      match a with
      | ⟨0, _⟩ => exact h0
      | ⟨1, _⟩ => exact h1)]
  unfold k0_pay30
  simp only [shapeCast_self]
  exact congrArg₂ (fun a b : EReal => a + b) (h441 i j) (h446 i j)

/-- Group 1 after the stretch that stores its kept eighth, the stored sum's value given. -/
theorem J3_1_stored' (c : Dev nD) (g : Buf (Elt Ideal) ((Memref.whole cc0_scratch0 : Memref sig .tc .vmem S2048x2048 .f32).view.loc (c : Thread nD τ)))
    (v663 : FVec Ideal S256x384 .f32)
    (h663 : ∀ (i : Fin 256) (j : Fin 384), (v663 (ix2 i j) : EReal)
      = (share A B c.val (ownRow 1 0 c + i.val) (colLo 1 + j.val) + share A B (nb 1 0 c).val (ownRow 1 0 c + i.val) (colLo 1 + j.val))
        + (share A B (nb 1 1 c).val (ownRow 1 0 c + i.val) (colLo 1 + j.val) + share A B (nb 1 0 (nb 1 1 c)).val (ownRow 1 0 c + i.val) (colLo 1 + j.val))) :
    J3 A B 1 384 c ((Memref.whole cc0_scratch0 : Memref sig .tc .vmem S2048x2048 .f32).view.writes (Elt Ideal) g [⟨(Rect.unit (s := S2048x2048) (k0_off41 c) S256x384.size (k0_off41_inb c)), k0_pay44 (F := Ideal) v663⟩]) := by
  intro i j y h0 h1
  rw [View.read_writes_cons_unit_of_mem (Memref.whole cc0_scratch0 : Memref sig .tc .vmem S2048x2048 .f32).view g (k0_off41_inb c) _ _ y (ix2 i j) (off41_eq c)
    (fun a => by
      match a with
      | ⟨0, _⟩ => exact h0
      | ⟨1, _⟩ => exact h1)]
  unfold k0_pay44
  simp only [shapeCast_self]
  exact h663 i j

/-- Group 5 after the stretch of its second step: the landed rows that belong to the kept quarter were added to it. -/
theorem J2_5_stored' (c : Dev nD) (g : Buf (Elt Ideal) ((Memref.whole cc0_scratch0 : Memref sig .tc .vmem S2048x2048 .f32).view.loc (c : Thread nD τ)))
    (fl : Buf (Elt Ideal) ((commM5_0 : Memref sig .tc .vmem S1024x256 .bf16).view.loc (c : Thread nD τ)))
    (hq : J1q A B 5 256 c g)
    (hl : (Vreal A B).rs5_0 (nbr 2 c) ((commM5_0 : Memref sig .tc .vmem S1024x256 .bf16).view.read (Elt Ideal) fl)) :
    J2 A B 5 256 c ((Memref.whole cc0_scratch0 : Memref sig .tc .vmem S2048x2048 .f32).view.writes (Elt Ideal) g
      [⟨(Rect.unit (s := S2048x2048) (k0_off33 c) S512x256.size (k0_off33_inb c)), k0_pay37 (F := Ideal) (View.readAt (Elt Ideal) (Memref.whole cc0_scratch0 : Memref sig .tc .vmem S2048x2048 .f32).view (Rect.unit (s := S2048x2048) (k0_off33 c) S512x256.size (k0_off33_inb c)).toLoadRect g)
          (View.readAt (Elt Ideal) (Memref.whole cc0_scratch6 : Memref sig .tc .vmem S1792x256 .bf16).view (Rect.unit (s := S1792x256) (k0_off34 c) S512x256.size (k0_off34_inb c)).toLoadRect fl)⟩]) := by
  intro i j y h0 h1
  rw [View.read_writes_cons_unit_of_mem (Memref.whole cc0_scratch0 : Memref sig .tc .vmem S2048x2048 .f32).view g (k0_off33_inb c) _ _ y (ix2 i j) (off33_eq c)
    (fun a => by
      match a with
      | ⟨0, _⟩ => exact h0
      | ⟨1, _⟩ => exact h1)]
  unfold k0_pay37
  simp only [shapeCast_self]
  have hi : cx c * 512 + i.val < 1024 := by have := cx_le c; have := i.isLt; omega
  have h1x : (View.readAt (Elt Ideal) (Memref.whole cc0_scratch0 : Memref sig .tc .vmem S2048x2048 .f32).view (Rect.unit (s := S2048x2048) (k0_off33 c) S512x256.size (k0_off33_inb c)).toLoadRect g) (ix2 i j)
      = share A B c.val (ownRow 5 1 c + i.val) (colLo 5 + j.val) := by
    rw [View.readAt_eq_ld]
    exact hq i j ((Rect.unit (s := S2048x2048) (k0_off33 c) S512x256.size (k0_off33_inb c)).emb (ix2 i j))
      (by show (k0_off33 c) 0 + 1 * i.val = cz c * 1024 + cx c * 512 + i.val; rw [off33_eq c]
          show cz c * 1024 + cx c * 512 + 1 * i.val = _; omega)
      (by show (k0_off33 c) 1 + 1 * j.val = 1792 + j.val; rw [off33_eq c]; show 1792 + 1 * j.val = 1792 + j.val; omega)
  have h2x : (View.readAt (Elt Ideal) (Memref.whole cc0_scratch6 : Memref sig .tc .vmem S1792x256 .bf16).view (Rect.unit (s := S1792x256) (k0_off34 c) S512x256.size (k0_off34_inb c)).toLoadRect fl) (ix2 i j)
      = share A B (nb 5 0 c).val (ownRow 5 1 c + i.val) (colLo 5 + j.val) := by
    have hh := hl ⟨cx c * 512 + i.val, hi⟩ j
    rw [View.readAt_eq_ld]
    have he : (Rect.unit (s := S1792x256) (k0_off34 c) S512x256.size (k0_off34_inb c)).emb (ix2 i j) = (Rect.unit (s := S1792x256) ![0, 0] S1024x256.size inb_S1792x256_S1024x256_0_0).emb (ix2 (⟨cx c * 512 + i.val, hi⟩ : Fin 1024) j) := funext fun a => Fin.ext (by
      match a with
      | ⟨0, _⟩ => show (k0_off34 c) 0 + 1 * i.val = 0 + 1 * (cx c * 512 + i.val); rw [off34_eq c]; show cx c * 512 + 1 * i.val = _; omega
      | ⟨1, _⟩ => show (k0_off34 c) 1 + 1 * j.val = 0 + 1 * j.val; rw [off34_eq c]; rfl)
    show (Memref.whole cc0_scratch6 : Memref sig .tc .vmem S1792x256 .bf16).view.read (Elt Ideal) fl ((Rect.unit (s := S1792x256) (k0_off34 c) S512x256.size (k0_off34_inb c)).emb (ix2 i j)) = _
    rw [he]
    refine hh.trans ?_
    have e : sendRow 5 0 (nbr 2 c) + (cx c * 512 + i.val) = ownRow 5 1 c + i.val := by
      show (1 - cz (nbr 2 c)) * 1024 + (cx c * 512 + i.val) = cz c * 1024 + cx c * 512 + i.val
      rw [cz_nbr2]; have := cz_le c; omega
    show share A B (nbr 2 c).val (sendRow 5 0 (nbr 2 c) + (cx c * 512 + i.val)) (colLo 5 + j.val) = _
    rw [e]; rfl
  exact congrArg₂ (fun a b : EReal => a + b) h1x h2x

/-- Group 4 after the stretch of its second step (both quarters in one stretch): the landed rows that belong to the kept quarter were added to it. -/
theorem J2_4_stored' (c : Dev nD) (g : Buf (Elt Ideal) ((Memref.whole cc0_scratch0 : Memref sig .tc .vmem S2048x2048 .f32).view.loc (c : Thread nD τ)))
    (v474 : FVec Ideal S512x256 .f32) (fl : Buf (Elt Ideal) ((commM4_0 : Memref sig .tc .vmem S1024x256 .bf16).view.loc (c : Thread nD τ)))
    (hJ1 : J1 A B 4 256 c g)
    (hl : (Vreal A B).rs4_0 (nbr 1 c) ((commM4_0 : Memref sig .tc .vmem S1024x256 .bf16).view.read (Elt Ideal) fl)) :
    J2 A B 4 256 c ((Memref.whole cc0_scratch0 : Memref sig .tc .vmem S2048x2048 .f32).view.writes (Elt Ideal) g
      [⟨(Rect.unit (s := S2048x2048) (k0_off29 c) S512x256.size (k0_off29_inb c)), k0_pay34 (F := Ideal) (View.readAt (Elt Ideal) (Memref.whole cc0_scratch0 : Memref sig .tc .vmem S2048x2048 .f32).view (Rect.unit (s := S2048x2048) (k0_off29 c) S512x256.size (k0_off29_inb c)).toLoadRect ((Memref.whole cc0_scratch0 : Memref sig .tc .vmem S2048x2048 .f32).view.writes (Elt Ideal) g [⟨(Rect.unit (s := S2048x2048) (k0_off27 c) S512x256.size (k0_off27_inb c)), k0_pay32 (F := Ideal) v474⟩]))
          (View.readAt (Elt Ideal) (Memref.whole cc0_scratch5 : Memref sig .tc .vmem S1792x256 .bf16).view (Rect.unit (s := S1792x256) (k0_off30 c) S512x256.size (k0_off30_inb c)).toLoadRect fl)⟩,
       ⟨(Rect.unit (s := S2048x2048) (k0_off27 c) S512x256.size (k0_off27_inb c)), k0_pay32 (F := Ideal) v474⟩]) := by
  intro i j y h0 h1
  rw [View.read_writes_cons_unit_of_mem (Memref.whole cc0_scratch0 : Memref sig .tc .vmem S2048x2048 .f32).view g (k0_off29_inb c) _ _ y (ix2 i j) (off29_eq c)
    (fun a => by
      match a with
      | ⟨0, _⟩ => exact h0
      | ⟨1, _⟩ => exact h1)]
  unfold k0_pay34
  simp only [shapeCast_self]
  have hi : cz c * 512 + i.val < 1024 := by have := cz_le c; have := i.isLt; omega
  have hy0 : (((Rect.unit (s := S2048x2048) (k0_off29 c) S512x256.size (k0_off29_inb c)).emb (ix2 i j)) 0).val = cy c * 1024 + cz c * 512 + i.val := by
    show (k0_off29 c) 0 + 1 * i.val = _; rw [off29_eq c]; show cy c * 1024 + cz c * 512 + 1 * i.val = _; omega
  have hy1 : (((Rect.unit (s := S2048x2048) (k0_off29 c) S512x256.size (k0_off29_inb c)).emb (ix2 i j)) 1).val = 1536 + j.val := by
    show (k0_off29 c) 1 + 1 * j.val = _; rw [off29_eq c]; show 1536 + 1 * j.val = _; omega
  have h1x : (View.readAt (Elt Ideal) (Memref.whole cc0_scratch0 : Memref sig .tc .vmem S2048x2048 .f32).view (Rect.unit (s := S2048x2048) (k0_off29 c) S512x256.size (k0_off29_inb c)).toLoadRect ((Memref.whole cc0_scratch0 : Memref sig .tc .vmem S2048x2048 .f32).view.writes (Elt Ideal) g [⟨(Rect.unit (s := S2048x2048) (k0_off27 c) S512x256.size (k0_off27_inb c)), k0_pay32 (F := Ideal) v474⟩])) (ix2 i j)
      = share A B c.val (ownRow 4 1 c + i.val) (colLo 4 + j.val) := by
    rw [View.readAt_eq_ld]
    show (Memref.whole cc0_scratch0 : Memref sig .tc .vmem S2048x2048 .f32).view.read (Elt Ideal) ((Memref.whole cc0_scratch0 : Memref sig .tc .vmem S2048x2048 .f32).view.writes (Elt Ideal) g [⟨(Rect.unit (s := S2048x2048) (k0_off27 c) S512x256.size (k0_off27_inb c)), k0_pay32 (F := Ideal) v474⟩]) ((Rect.unit (s := S2048x2048) (k0_off29 c) S512x256.size (k0_off29_inb c)).emb (ix2 i j)) = _
    rw [View.read_writes_cons_unit_of_not_mem (Memref.whole cc0_scratch0 : Memref sig .tc .vmem S2048x2048 .f32).view g (k0_off27_inb c) _ [] _ (off27_eq c) 0
      (by rw [hy0]
          show cy c * 1024 + cz c * 512 + i.val < cy c * 1024 + (1 - cz c) * 512 ∨ cy c * 1024 + (1 - cz c) * 512 + 512 ≤ cy c * 1024 + cz c * 512 + i.val
          have := cz_le c; have := i.isLt; omega)]
    have e : coordN c 4 * 1024 + (cz c * 512 + i.val) = ownRow 4 1 c + i.val := by
      show cy c * 1024 + (cz c * 512 + i.val) = cy c * 1024 + cz c * 512 + i.val; omega
    have := hJ1 ⟨cz c * 512 + i.val, hi⟩ j ((Rect.unit (s := S2048x2048) (k0_off29 c) S512x256.size (k0_off29_inb c)).emb (ix2 i j)) (by rw [hy0]; show _ = cy c * 1024 + (cz c * 512 + i.val); omega) hy1
    rw [e] at this
    exact this
  have h2x : (View.readAt (Elt Ideal) (Memref.whole cc0_scratch5 : Memref sig .tc .vmem S1792x256 .bf16).view (Rect.unit (s := S1792x256) (k0_off30 c) S512x256.size (k0_off30_inb c)).toLoadRect fl) (ix2 i j)
      = share A B (nb 4 0 c).val (ownRow 4 1 c + i.val) (colLo 4 + j.val) := by
    have hh := hl ⟨cz c * 512 + i.val, hi⟩ j
    rw [View.readAt_eq_ld]
    have he : (Rect.unit (s := S1792x256) (k0_off30 c) S512x256.size (k0_off30_inb c)).emb (ix2 i j) = (Rect.unit (s := S1792x256) ![0, 0] S1024x256.size inb_S1792x256_S1024x256_0_0).emb (ix2 (⟨cz c * 512 + i.val, hi⟩ : Fin 1024) j) := funext fun a => Fin.ext (by
      match a with
      | ⟨0, _⟩ => show (k0_off30 c) 0 + 1 * i.val = 0 + 1 * (cz c * 512 + i.val); rw [off30_eq c]; show cz c * 512 + 1 * i.val = _; omega
      | ⟨1, _⟩ => show (k0_off30 c) 1 + 1 * j.val = 0 + 1 * j.val; rw [off30_eq c]; rfl)
    show (Memref.whole cc0_scratch5 : Memref sig .tc .vmem S1792x256 .bf16).view.read (Elt Ideal) fl ((Rect.unit (s := S1792x256) (k0_off30 c) S512x256.size (k0_off30_inb c)).emb (ix2 i j)) = _
    rw [he]
    refine hh.trans ?_
    have e : sendRow 4 0 (nbr 1 c) + (cz c * 512 + i.val) = ownRow 4 1 c + i.val := by
      show (1 - cy (nbr 1 c)) * 1024 + (cz c * 512 + i.val) = cy c * 1024 + cz c * 512 + i.val
      rw [cy_nbr1]; have := cy_le c; omega
    show share A B (nbr 1 c).val (sendRow 4 0 (nbr 1 c) + (cz c * 512 + i.val)) (colLo 4 + j.val) = _
    rw [e]; rfl
  exact congrArg₂ (fun a b : EReal => a + b) h1x h2x

/-- Group 5 after the stretch of its third step (both eighths in one stretch): the landed rows that belong to the kept eighth were added to it. -/
theorem J3_5_stored' (c : Dev nD) (g : Buf (Elt Ideal) ((Memref.whole cc0_scratch0 : Memref sig .tc .vmem S2048x2048 .f32).view.loc (c : Thread nD τ)))
    (v846 : Vec Ideal S256x256 .f32) (fl : Buf (Elt Ideal) ((commM5_1 : Memref sig .tc .vmem S512x256 .bf16).view.loc (c : Thread nD τ)))
    (hJ2e : J2e A B 5 256 c g)
    (hl : (Vreal A B).rs5_1 (nbr 0 c) ((commM5_1 : Memref sig .tc .vmem S512x256 .bf16).view.read (Elt Ideal) fl)) :
    J3 A B 5 256 c ((Memref.whole cc0_scratch0 : Memref sig .tc .vmem S2048x2048 .f32).view.writes (Elt Ideal) g
      [⟨(Rect.unit (s := S2048x2048) (k0_off55 c) S256x256.size (k0_off55_inb c)), k0_pay56 (F := Ideal) (View.readAt (Elt Ideal) (Memref.whole cc0_scratch0 : Memref sig .tc .vmem S2048x2048 .f32).view (Rect.unit (s := S2048x2048) (k0_off55 c) S256x256.size (k0_off55_inb c)).toLoadRect ((Memref.whole cc0_scratch0 : Memref sig .tc .vmem S2048x2048 .f32).view.writes (Elt Ideal) g [⟨(Rect.unit (s := S2048x2048) (k0_off53 c) S256x256.size (k0_off53_inb c)), k0_pay54 (F := Ideal) v846 (View.readAt (Elt Ideal) (Memref.whole cc0_scratch6 : Memref sig .tc .vmem S1792x256 .bf16).view (Rect.unit (s := S1792x256) (k0_off54 c) S256x256.size (k0_off54_inb c)).toLoadRect fl)⟩]))
          (View.readAt (Elt Ideal) (Memref.whole cc0_scratch6 : Memref sig .tc .vmem S1792x256 .bf16).view (Rect.unit (s := S1792x256) (k0_off56 c) S256x256.size (k0_off56_inb c)).toLoadRect fl)⟩,
       ⟨(Rect.unit (s := S2048x2048) (k0_off53 c) S256x256.size (k0_off53_inb c)), k0_pay54 (F := Ideal) v846 (View.readAt (Elt Ideal) (Memref.whole cc0_scratch6 : Memref sig .tc .vmem S1792x256 .bf16).view (Rect.unit (s := S1792x256) (k0_off54 c) S256x256.size (k0_off54_inb c)).toLoadRect fl)⟩]) := by
  intro i j y h0 h1
  rw [View.read_writes_cons_unit_of_mem (Memref.whole cc0_scratch0 : Memref sig .tc .vmem S2048x2048 .f32).view g (k0_off55_inb c) _ _ y (ix2 i j) (off55_eq c)
    (fun a => by
      match a with
      | ⟨0, _⟩ => exact h0
      | ⟨1, _⟩ => exact h1)]
  unfold k0_pay56
  simp only [shapeCast_self]
  have hi : cy c * 256 + i.val < 512 := by have := cy_le c; have := i.isLt; omega
  have hy0 : (((Rect.unit (s := S2048x2048) (k0_off55 c) S256x256.size (k0_off55_inb c)).emb (ix2 i j)) 0).val = cz c * 1024 + cx c * 512 + cy c * 256 + i.val := by
    show (k0_off55 c) 0 + 1 * i.val = _; rw [off55_eq c]; show cz c * 1024 + cx c * 512 + cy c * 256 + 1 * i.val = _; omega
  have hy1 : (((Rect.unit (s := S2048x2048) (k0_off55 c) S256x256.size (k0_off55_inb c)).emb (ix2 i j)) 1).val = 1792 + j.val := by
    show (k0_off55 c) 1 + 1 * j.val = _; rw [off55_eq c]; show 1792 + 1 * j.val = _; omega
  have h1x : (View.readAt (Elt Ideal) (Memref.whole cc0_scratch0 : Memref sig .tc .vmem S2048x2048 .f32).view (Rect.unit (s := S2048x2048) (k0_off55 c) S256x256.size (k0_off55_inb c)).toLoadRect ((Memref.whole cc0_scratch0 : Memref sig .tc .vmem S2048x2048 .f32).view.writes (Elt Ideal) g [⟨(Rect.unit (s := S2048x2048) (k0_off53 c) S256x256.size (k0_off53_inb c)), k0_pay54 (F := Ideal) v846 (View.readAt (Elt Ideal) (Memref.whole cc0_scratch6 : Memref sig .tc .vmem S1792x256 .bf16).view (Rect.unit (s := S1792x256) (k0_off54 c) S256x256.size (k0_off54_inb c)).toLoadRect fl)⟩])) (ix2 i j)
      = share A B c.val (ownRow 5 0 c + i.val) (colLo 5 + j.val) + share A B (nb 5 0 c).val (ownRow 5 0 c + i.val) (colLo 5 + j.val) := by
    rw [View.readAt_eq_ld]
    show (Memref.whole cc0_scratch0 : Memref sig .tc .vmem S2048x2048 .f32).view.read (Elt Ideal) ((Memref.whole cc0_scratch0 : Memref sig .tc .vmem S2048x2048 .f32).view.writes (Elt Ideal) g [⟨(Rect.unit (s := S2048x2048) (k0_off53 c) S256x256.size (k0_off53_inb c)), k0_pay54 (F := Ideal) v846 (View.readAt (Elt Ideal) (Memref.whole cc0_scratch6 : Memref sig .tc .vmem S1792x256 .bf16).view (Rect.unit (s := S1792x256) (k0_off54 c) S256x256.size (k0_off54_inb c)).toLoadRect fl)⟩]) ((Rect.unit (s := S2048x2048) (k0_off55 c) S256x256.size (k0_off55_inb c)).emb (ix2 i j)) = _
    rw [View.read_writes_cons_unit_of_not_mem (Memref.whole cc0_scratch0 : Memref sig .tc .vmem S2048x2048 .f32).view g (k0_off53_inb c) _ [] _ (off53_eq c) 0
      (by rw [hy0]
          show cz c * 1024 + cx c * 512 + cy c * 256 + i.val < cz c * 1024 + cx c * 512 + (1 - cy c) * 256 ∨ cz c * 1024 + cx c * 512 + (1 - cy c) * 256 + 256 ≤ cz c * 1024 + cx c * 512 + cy c * 256 + i.val
          have := cy_le c; have := i.isLt; omega)]
    exact hJ2e i j ((Rect.unit (s := S2048x2048) (k0_off55 c) S256x256.size (k0_off55_inb c)).emb (ix2 i j)) hy0 hy1
  have h2x : (View.readAt (Elt Ideal) (Memref.whole cc0_scratch6 : Memref sig .tc .vmem S1792x256 .bf16).view (Rect.unit (s := S1792x256) (k0_off56 c) S256x256.size (k0_off56_inb c)).toLoadRect fl) (ix2 i j)
      = share A B (nb 5 1 c).val (ownRow 5 0 c + i.val) (colLo 5 + j.val) + share A B (nb 5 0 (nb 5 1 c)).val (ownRow 5 0 c + i.val) (colLo 5 + j.val) := by
    have hh := hl ⟨cy c * 256 + i.val, hi⟩ j
    rw [View.readAt_eq_ld]
    have he : (Rect.unit (s := S1792x256) (k0_off56 c) S256x256.size (k0_off56_inb c)).emb (ix2 i j) = (Rect.unit (s := S1792x256) ![1024, 0] S512x256.size inb_S1792x256_S512x256_1024_0).emb (ix2 (⟨cy c * 256 + i.val, hi⟩ : Fin 512) j) := funext fun a => Fin.ext (by
      match a with
      | ⟨0, _⟩ => show (k0_off56 c) 0 + 1 * i.val = 1024 + 1 * (cy c * 256 + i.val); rw [off56_eq c]; show 1024 + cy c * 256 + 1 * i.val = _; omega
      | ⟨1, _⟩ => show (k0_off56 c) 1 + 1 * j.val = 0 + 1 * j.val; rw [off56_eq c]; rfl)
    show (Memref.whole cc0_scratch6 : Memref sig .tc .vmem S1792x256 .bf16).view.read (Elt Ideal) fl ((Rect.unit (s := S1792x256) (k0_off56 c) S256x256.size (k0_off56_inb c)).emb (ix2 i j)) = _
    rw [he]
    refine hh.trans ?_
    have e : sendRow 5 1 (nbr 0 c) + (cy c * 256 + i.val) = ownRow 5 0 c + i.val := by
      show cz (nbr 0 c) * 1024 + (1 - cx (nbr 0 c)) * 512 + (cy c * 256 + i.val) = cz c * 1024 + cx c * 512 + cy c * 256 + i.val
      rw [cz_nbr0, cx_nbr0]; have := cx_le c; omega
    show share A B (nbr 0 c).val (sendRow 5 1 (nbr 0 c) + (cy c * 256 + i.val)) (colLo 5 + j.val)
        + share A B (nb 5 0 (nbr 0 c)).val (sendRow 5 1 (nbr 0 c) + (cy c * 256 + i.val)) (colLo 5 + j.val) = _
    rw [e]; rfl
  exact congrArg₂ (fun a b : EReal => a + b) h1x h2x

end Cert.KernelIdeal.Proto

end
-- ==== Proof.AccInv.lean ====
/-
What is known of the accumulator, all six column groups at once. The groups store into the one buffer in turn, each
into its own columns, so a fact about one group's columns survives the others' stores; a phase per group says which
fact currently holds of it: the kept half holds the device's share, the kept quarter two shares, the kept eighth two
and then four shares (and, once part of the kept half has been rewritten, the kept quarter still the device's share).
-/
import proofs.«900882_g7700000000000883_dist_matmul_gelu_kshard_i_m2048_n2048_k1024_v7x_i8_f32_1_alg».proof.Proof.ValStep2

set_option maxRecDepth 100000

noncomputable section

namespace Cert.KernelIdeal.Proto

open Cert.KernelIdeal Cert.KernelIdeal.Gen Cert.KernelIdeal.Topo
open Idealize.ShloMosaic Idealize.ShloMosaic.TcCoe Idealize.ShloMosaic.ValueIdx
open scoped BigOperators

variable (A : (⟨2, ![2048, 8192]⟩ : Shape).Idx → EReal) (B : (⟨2, ![8192, 2048]⟩ : Shape).Idx → EReal)

/-! ## The accumulator's facts, all six groups at once -/

/-- The width of group k's columns. -/
def wOf : Fin 6 → ℕ := ![384, 384, 384, 384, 256, 256]

/-- What is known of group k's columns of the accumulator at phase p: nothing (0), the kept half holds the device's
    share (1), the kept quarter two shares (2), the kept eighth two shares (3), the kept eighth four shares (4), nothing needed any more (5), the kept quarter holds
    the device's share (6). -/
def LJ (k : Fin 6) (c : Dev nD) (p : ℕ)
    (g : Buf (Elt Ideal) ((Memref.whole cc0_scratch0 : Memref sig .tc .vmem S2048x2048 .f32).view.loc (c : Thread nD τ))) : Prop :=
  match p with
  | 1 => J1 A B k.val (wOf k) c g
  | 2 => J2 A B k.val (wOf k) c g
  | 3 => J2e A B k.val (wOf k) c g
  | 4 => J3 A B k.val (wOf k) c g
  | 6 => J1q A B k.val (wOf k) c g
  | _ => True

/-- The accumulator's facts: each group at its phase. -/
def AccInv (c : Dev nD) (φ : Fin 6 → ℕ)
    (g : Buf (Elt Ideal) ((Memref.whole cc0_scratch0 : Memref sig .tc .vmem S2048x2048 .f32).view.loc (c : Thread nD τ))) : Prop :=
  ∀ k : Fin 6, LJ A B k c (φ k) g

variable {A B}

theorem LJ_one {k : Fin 6} {c : Dev nD} {g} : LJ A B k c 1 g = J1 A B k.val (wOf k) c g := rfl
theorem LJ_two {k : Fin 6} {c : Dev nD} {g} : LJ A B k c 2 g = J2 A B k.val (wOf k) c g := rfl
theorem LJ_three {k : Fin 6} {c : Dev nD} {g} : LJ A B k c 3 g = J2e A B k.val (wOf k) c g := rfl
theorem LJ_four {k : Fin 6} {c : Dev nD} {g} : LJ A B k c 4 g = J3 A B k.val (wOf k) c g := rfl
theorem LJ_six {k : Fin 6} {c : Dev nD} {g} : LJ A B k c 6 g = J1q A B k.val (wOf k) c g := rfl
theorem LJ_zero {k : Fin 6} {c : Dev nD} {g} : LJ A B k c 0 g := trivial
theorem LJ_dead {k : Fin 6} {c : Dev nD} {g} {p : ℕ} (hp : 7 ≤ p) : LJ A B k c p g := by
  unfold LJ; split <;> first | omega | trivial

/-- From the six groups' facts. -/
theorem AccInv.mk6 {c : Dev nD} {g} {p0 p1 p2 p3 p4 p5 : ℕ}
    (h0 : LJ A B 0 c p0 g) (h1 : LJ A B 1 c p1 g) (h2 : LJ A B 2 c p2 g) (h3 : LJ A B 3 c p3 g) (h4 : LJ A B 4 c p4 g) (h5 : LJ A B 5 c p5 g) :
    AccInv A B c ![p0, p1, p2, p3, p4, p5] g := by
  intro k; fin_cases k
  · exact h0
  · exact h1
  · exact h2
  · exact h3
  · exact h4
  · exact h5

theorem AccInv.get0 {c : Dev nD} {g} {p0 p1 p2 p3 p4 p5 : ℕ} (h : AccInv A B c ![p0, p1, p2, p3, p4, p5] g) : LJ A B 0 c p0 g := h 0
theorem AccInv.get1 {c : Dev nD} {g} {p0 p1 p2 p3 p4 p5 : ℕ} (h : AccInv A B c ![p0, p1, p2, p3, p4, p5] g) : LJ A B 1 c p1 g := h 1
theorem AccInv.get2 {c : Dev nD} {g} {p0 p1 p2 p3 p4 p5 : ℕ} (h : AccInv A B c ![p0, p1, p2, p3, p4, p5] g) : LJ A B 2 c p2 g := h 2
theorem AccInv.get3 {c : Dev nD} {g} {p0 p1 p2 p3 p4 p5 : ℕ} (h : AccInv A B c ![p0, p1, p2, p3, p4, p5] g) : LJ A B 3 c p3 g := h 3
theorem AccInv.get4 {c : Dev nD} {g} {p0 p1 p2 p3 p4 p5 : ℕ} (h : AccInv A B c ![p0, p1, p2, p3, p4, p5] g) : LJ A B 4 c p4 g := h 4
theorem AccInv.get5 {c : Dev nD} {g} {p0 p1 p2 p3 p4 p5 : ℕ} (h : AccInv A B c ![p0, p1, p2, p3, p4, p5] g) : LJ A B 5 c p5 g := h 5

/-- Nothing is known at the start. -/
theorem AccInv.start {c : Dev nD} {g} : AccInv A B c ![0, 0, 0, 0, 0, 0] g := AccInv.mk6 trivial trivial trivial trivial trivial trivial

/-- A store to columns apart from group k's leaves group k's fact, whatever its phase. -/
theorem LJ_cons {k : Fin 6} {c : Dev nD} {p : ℕ}
    {g : Buf (Elt Ideal) ((Memref.whole cc0_scratch0 : Memref sig .tc .vmem S2048x2048 .f32).view.loc (c : Thread nD τ))}
    {off off' size : Fin 2 → ℕ} (inb : ∀ a, off a + size a ≤ S2048x2048.size a)
    (pay : (Rect.unit (s := S2048x2048) off size inb).shape.Idx → Elt Ideal .f32) (L : List (View.Piece (Elt Ideal) S2048x2048 .f32))
    (heq : off = off') (hcols : off' 1 + size 1 ≤ colLo k.val ∨ colLo k.val + wOf k ≤ off' 1)
    (h : LJ A B k c p ((Memref.whole cc0_scratch0 : Memref sig .tc .vmem S2048x2048 .f32).view.writes (Elt Ideal) g L)) :
    LJ A B k c p ((Memref.whole cc0_scratch0 : Memref sig .tc .vmem S2048x2048 .f32).view.writes (Elt Ideal) g ((⟨Rect.unit (s := S2048x2048) off size inb, pay⟩ : View.Piece (Elt Ideal) S2048x2048 .f32) :: L)) := by
  unfold LJ at h ⊢
  split at h
  · exact J1_cons A B inb pay L heq hcols h
  · exact J2_cons A B inb pay L heq hcols h
  · exact J2e_cons A B inb pay L heq (Or.inl hcols) h
  · exact J3_cons A B inb pay L heq hcols h
  · exact J1q_cons A B inb pay L heq (Or.inl hcols) h
  · trivial

/-- An empty list of stores changes nothing. -/
theorem LJ_nil {k : Fin 6} {c : Dev nD} {p : ℕ}
    {g : Buf (Elt Ideal) ((Memref.whole cc0_scratch0 : Memref sig .tc .vmem S2048x2048 .f32).view.loc (c : Thread nD τ))}
    (h : LJ A B k c p g) :
    LJ A B k c p ((Memref.whole cc0_scratch0 : Memref sig .tc .vmem S2048x2048 .f32).view.writes (Elt Ideal) g []) := h

/-- A fact that is no longer needed may be dropped. -/
theorem LJ_drop {k : Fin 6} {c : Dev nD} {g} : LJ A B k c 5 g := trivial

end Cert.KernelIdeal.Proto

end
-- ==== Proof.ValSliceE2.lean ====
/-
The values of the first all-gather round after a device's own, over the extended reals, for each column group k. A
device's 512 rows of that round are its own 256 rows, which hold the finished entries (gelu of the whole product) at
its eighth of the rows, and the 256 rows that arrived from its neighbour across the round's axis, which hold the
finished entries at the neighbour's eighth: the two eighths are the two halves of the device's quarter, so the 512 rows
hold the finished entries at its quarter. The arrived eighth, widened to f32 and stored into its block of the
accumulator, makes that block hold the finished entries at the block's rows and the group's columns: that is what the
result copies 6 to 11 move.
-/
import proofs.«900882_g7700000000000883_dist_matmul_gelu_kshard_i_m2048_n2048_k1024_v7x_i8_f32_1_alg».proof.Proof.Dats
import proofs.«900882_g7700000000000883_dist_matmul_gelu_kshard_i_m2048_n2048_k1024_v7x_i8_f32_1_alg».proof.Proof.ValsRealTab
import proofs.«900882_g7700000000000883_dist_matmul_gelu_kshard_i_m2048_n2048_k1024_v7x_i8_f32_1_alg».proof.Proof.TopoTab
import proofs.«900882_g7700000000000883_dist_matmul_gelu_kshard_i_m2048_n2048_k1024_v7x_i8_f32_1_alg».proof.Proof.PiecesTab
import proofs.«900882_g7700000000000883_dist_matmul_gelu_kshard_i_m2048_n2048_k1024_v7x_i8_f32_1_alg».proof.Proof.Gen.KernelIdeal.Skeleton
import Idealize.ShloMosaic.Lib.Pipeline.Value
import Idealize.ShloMosaic.Lib.WritesUnit
import Idealize.ShloMosaic.Lib.ValueIdxCoords
import Idealize.ShloMosaic.PureOps.Ideal.Laws

set_option maxRecDepth 100000

noncomputable section

namespace Cert.KernelIdeal.Proto

open Cert.KernelIdeal Cert.KernelIdeal.Gen Cert.KernelIdeal.Topo
open Idealize.ShloMosaic Idealize.ShloMosaic.TcCoe Idealize.ShloMosaic.ValueIdx
open scoped BigOperators

variable (A : (⟨2, ![2048, 8192]⟩ : Shape).Idx → EReal) (B : (⟨2, ![8192, 2048]⟩ : Shape).Idx → EReal)

/-- The rows a device sends at the first all-gather round after its own of group 0 hold the finished entries at its
    quarter of the rows, given that its own eighth and the eighth that arrived from its neighbour across axis 2 hold theirs. -/
theorem val_ag0_1 (c : Dev nD) (g0 fa : Buf (Elt Ideal) ((Memref.whole cc0_scratch13 : Memref sig .tc .vmem S2048x384 .bf16).view.loc (c : Thread nD τ)))
    (hg0 : (Vreal A B).ag0_0 c ((agM0_0 c).view.read (Elt Ideal) g0))
    (hfa : (Vreal A B).ag0_0 (nbr 2 c) ((agM0_0 (nbr 2 c)).view.read (Elt Ideal) fa)) :
    (Vreal A B).ag0_1 c ((agM0_1 c).view.read (Elt Ideal) (((agM0_0 (nbr 2 c)).view.set : Finset (Idx ((Memref.whole cc0_scratch13 : Memref sig .tc .vmem S2048x384 .bf16).view.loc (c : Thread nD τ)))).piecewise fa g0)) := by
  intro r j
  have hq := cz_le c
  have h02 : ownRow 0 1 c = cx c * 1024 + cy c * 512 := by simp [ownRow, coordN]
  by_cases hown : cz c * 256 ≤ r.val ∧ r.val < cz c * 256 + 256
  · -- a row of the device's own eighth
    have hr' : r.val - cz c * 256 < 256 := by omega
    have hidx : (agM0_1 c).view.emb (ix2 r j) = (agM0_0 c).view.emb (ix2 ⟨r.val - cz c * 256, hr'⟩ j) := by
      apply Shape.idx_ext₂
      · show k0_off78 c 0 + 1 * r.val = k0_off73 c 0 + 1 * (r.val - cz c * 256)
        rw [off78_eq, off73_eq]; simp only [Matrix.cons_val_zero]; omega
      · show k0_off78 c 1 + 1 * j.val = k0_off73 c 1 + 1 * j.val
        rw [off78_eq, off73_eq]; simp only [Matrix.cons_val_one]
    have hnot : (agM0_1 c).view.emb (ix2 r j) ∉ (agM0_0 (nbr 2 c)).view.set := by
      rw [hidx]; exact Finset.disjoint_left.mp (ag_disj0_0 c) (View.emb_mem_set _ _)
    have h1 := hg0 ⟨r.val - cz c * 256, hr'⟩ j
    have e : (agM0_1 c).view.read (Elt Ideal) (((agM0_0 (nbr 2 c)).view.set : Finset (Idx ((Memref.whole cc0_scratch13 : Memref sig .tc .vmem S2048x384 .bf16).view.loc (c : Thread nD τ)))).piecewise fa g0) (ix2 r j) = (agM0_0 c).view.read (Elt Ideal) g0 (ix2 ⟨r.val - cz c * 256, hr'⟩ j) := by
      rw [View.read_apply, View.read_apply, Finset.piecewise_eq_of_notMem _ _ _ hnot, hidx]
    rw [e, h1]
    have h01 : ownRow 0 0 c = cx c * 1024 + cy c * 512 + cz c * 256 := by simp [ownRow, coordN]
    show Cert.RefSide.gelu1 (tot A B (ownRow 0 0 c + (r.val - cz c * 256)) (colLo 0 + j.val)) = Cert.RefSide.gelu1 (tot A B (ownRow 0 1 c + r.val) (colLo 0 + j.val))
    rw [h01, h02, show cx c * 1024 + cy c * 512 + cz c * 256 + (r.val - cz c * 256) = cx c * 1024 + cy c * 512 + r.val from by omega]
  · -- a row of the eighth that arrived from the neighbour across axis 2
    have hlo : (1 - cz c) * 256 ≤ r.val := by have := r.isLt; omega
    have hr' : r.val - (1 - cz c) * 256 < 256 := by have := r.isLt; omega
    have hidx : (agM0_1 c).view.emb (ix2 r j) = (agM0_0 (nbr 2 c)).view.emb (ix2 ⟨r.val - (1 - cz c) * 256, hr'⟩ j) := by
      apply Shape.idx_ext₂
      · show k0_off78 c 0 + 1 * r.val = k0_off73 (nbr 2 c) 0 + 1 * (r.val - (1 - cz c) * 256)
        rw [off78_eq, off73_eq, cx_nbr2, cy_nbr2, cz_nbr2]; simp only [Matrix.cons_val_zero]; omega
      · show k0_off78 c 1 + 1 * j.val = k0_off73 (nbr 2 c) 1 + 1 * j.val
        rw [off78_eq, off73_eq]; simp only [Matrix.cons_val_one]
    have hmem : (agM0_1 c).view.emb (ix2 r j) ∈ (agM0_0 (nbr 2 c)).view.set := by
      rw [hidx]; exact View.emb_mem_set _ _
    have h1 := hfa ⟨r.val - (1 - cz c) * 256, hr'⟩ j
    have e : (agM0_1 c).view.read (Elt Ideal) (((agM0_0 (nbr 2 c)).view.set : Finset (Idx ((Memref.whole cc0_scratch13 : Memref sig .tc .vmem S2048x384 .bf16).view.loc (c : Thread nD τ)))).piecewise fa g0) (ix2 r j) = (agM0_0 (nbr 2 c)).view.read (Elt Ideal) fa (ix2 ⟨r.val - (1 - cz c) * 256, hr'⟩ j) := by
      rw [View.read_apply, View.read_apply, Finset.piecewise_eq_of_mem _ _ _ hmem, hidx]
    rw [e, h1]
    have h01 : ownRow 0 0 (nbr 2 c) = cx c * 1024 + cy c * 512 + (1 - cz c) * 256 := by simp [ownRow, coordN, cx_nbr2, cy_nbr2, cz_nbr2]
    show Cert.RefSide.gelu1 (tot A B (ownRow 0 0 (nbr 2 c) + (r.val - (1 - cz c) * 256)) (colLo 0 + j.val)) = Cert.RefSide.gelu1 (tot A B (ownRow 0 1 c + r.val) (colLo 0 + j.val))
    rw [h01, h02, show cx c * 1024 + cy c * 512 + (1 - cz c) * 256 + (r.val - (1 - cz c) * 256) = cx c * 1024 + cy c * 512 + r.val from by omega]

/-- The rows a device sends at the first all-gather round after its own of group 1 hold the finished entries at its
    quarter of the rows, given that its own eighth and the eighth that arrived from its neighbour across axis 0 hold theirs. -/
theorem val_ag1_1 (c : Dev nD) (g0 fa : Buf (Elt Ideal) ((Memref.whole cc0_scratch14 : Memref sig .tc .vmem S2048x384 .bf16).view.loc (c : Thread nD τ)))
    (hg0 : (Vreal A B).ag1_0 c ((agM1_0 c).view.read (Elt Ideal) g0))
    (hfa : (Vreal A B).ag1_0 (nbr 0 c) ((agM1_0 (nbr 0 c)).view.read (Elt Ideal) fa)) :
    (Vreal A B).ag1_1 c ((agM1_1 c).view.read (Elt Ideal) (((agM1_0 (nbr 0 c)).view.set : Finset (Idx ((Memref.whole cc0_scratch14 : Memref sig .tc .vmem S2048x384 .bf16).view.loc (c : Thread nD τ)))).piecewise fa g0)) := by
  intro r j
  have hq := cx_le c
  have h02 : ownRow 1 1 c = cy c * 1024 + cz c * 512 := by simp [ownRow, coordN]
  by_cases hown : cx c * 256 ≤ r.val ∧ r.val < cx c * 256 + 256
  · -- a row of the device's own eighth
    have hr' : r.val - cx c * 256 < 256 := by omega
    have hidx : (agM1_1 c).view.emb (ix2 r j) = (agM1_0 c).view.emb (ix2 ⟨r.val - cx c * 256, hr'⟩ j) := by
      apply Shape.idx_ext₂
      · show k0_off82 c 0 + 1 * r.val = k0_off74 c 0 + 1 * (r.val - cx c * 256)
        rw [off82_eq, off74_eq]; simp only [Matrix.cons_val_zero]; omega
      · show k0_off82 c 1 + 1 * j.val = k0_off74 c 1 + 1 * j.val
        rw [off82_eq, off74_eq]; simp only [Matrix.cons_val_one]
    have hnot : (agM1_1 c).view.emb (ix2 r j) ∉ (agM1_0 (nbr 0 c)).view.set := by
      rw [hidx]; exact Finset.disjoint_left.mp (ag_disj0_1 c) (View.emb_mem_set _ _)
    have h1 := hg0 ⟨r.val - cx c * 256, hr'⟩ j
    have e : (agM1_1 c).view.read (Elt Ideal) (((agM1_0 (nbr 0 c)).view.set : Finset (Idx ((Memref.whole cc0_scratch14 : Memref sig .tc .vmem S2048x384 .bf16).view.loc (c : Thread nD τ)))).piecewise fa g0) (ix2 r j) = (agM1_0 c).view.read (Elt Ideal) g0 (ix2 ⟨r.val - cx c * 256, hr'⟩ j) := by
      rw [View.read_apply, View.read_apply, Finset.piecewise_eq_of_notMem _ _ _ hnot, hidx]
    rw [e, h1]
    have h01 : ownRow 1 0 c = cy c * 1024 + cz c * 512 + cx c * 256 := by simp [ownRow, coordN]
    show Cert.RefSide.gelu1 (tot A B (ownRow 1 0 c + (r.val - cx c * 256)) (colLo 1 + j.val)) = Cert.RefSide.gelu1 (tot A B (ownRow 1 1 c + r.val) (colLo 1 + j.val))
    rw [h01, h02, show cy c * 1024 + cz c * 512 + cx c * 256 + (r.val - cx c * 256) = cy c * 1024 + cz c * 512 + r.val from by omega]
  · -- a row of the eighth that arrived from the neighbour across axis 0
    have hlo : (1 - cx c) * 256 ≤ r.val := by have := r.isLt; omega
    have hr' : r.val - (1 - cx c) * 256 < 256 := by have := r.isLt; omega
    have hidx : (agM1_1 c).view.emb (ix2 r j) = (agM1_0 (nbr 0 c)).view.emb (ix2 ⟨r.val - (1 - cx c) * 256, hr'⟩ j) := by
      apply Shape.idx_ext₂
      · show k0_off82 c 0 + 1 * r.val = k0_off74 (nbr 0 c) 0 + 1 * (r.val - (1 - cx c) * 256)
        rw [off82_eq, off74_eq, cy_nbr0, cz_nbr0, cx_nbr0]; simp only [Matrix.cons_val_zero]; omega
      · show k0_off82 c 1 + 1 * j.val = k0_off74 (nbr 0 c) 1 + 1 * j.val
        rw [off82_eq, off74_eq]; simp only [Matrix.cons_val_one]
    have hmem : (agM1_1 c).view.emb (ix2 r j) ∈ (agM1_0 (nbr 0 c)).view.set := by
      rw [hidx]; exact View.emb_mem_set _ _
    have h1 := hfa ⟨r.val - (1 - cx c) * 256, hr'⟩ j
    have e : (agM1_1 c).view.read (Elt Ideal) (((agM1_0 (nbr 0 c)).view.set : Finset (Idx ((Memref.whole cc0_scratch14 : Memref sig .tc .vmem S2048x384 .bf16).view.loc (c : Thread nD τ)))).piecewise fa g0) (ix2 r j) = (agM1_0 (nbr 0 c)).view.read (Elt Ideal) fa (ix2 ⟨r.val - (1 - cx c) * 256, hr'⟩ j) := by
      rw [View.read_apply, View.read_apply, Finset.piecewise_eq_of_mem _ _ _ hmem, hidx]
    rw [e, h1]
    have h01 : ownRow 1 0 (nbr 0 c) = cy c * 1024 + cz c * 512 + (1 - cx c) * 256 := by simp [ownRow, coordN, cy_nbr0, cz_nbr0, cx_nbr0]
    show Cert.RefSide.gelu1 (tot A B (ownRow 1 0 (nbr 0 c) + (r.val - (1 - cx c) * 256)) (colLo 1 + j.val)) = Cert.RefSide.gelu1 (tot A B (ownRow 1 1 c + r.val) (colLo 1 + j.val))
    rw [h01, h02, show cy c * 1024 + cz c * 512 + (1 - cx c) * 256 + (r.val - (1 - cx c) * 256) = cy c * 1024 + cz c * 512 + r.val from by omega]

/-- The rows a device sends at the first all-gather round after its own of group 3 hold the finished entries at its
    quarter of the rows, given that its own eighth and the eighth that arrived from its neighbour across axis 2 hold theirs. -/
theorem val_ag3_1 (c : Dev nD) (g0 fa : Buf (Elt Ideal) ((Memref.whole cc0_scratch16 : Memref sig .tc .vmem S2048x384 .bf16).view.loc (c : Thread nD τ)))
    (hg0 : (Vreal A B).ag3_0 c ((agM3_0 c).view.read (Elt Ideal) g0))
    (hfa : (Vreal A B).ag3_0 (nbr 2 c) ((agM3_0 (nbr 2 c)).view.read (Elt Ideal) fa)) :
    (Vreal A B).ag3_1 c ((agM3_1 c).view.read (Elt Ideal) (((agM3_0 (nbr 2 c)).view.set : Finset (Idx ((Memref.whole cc0_scratch16 : Memref sig .tc .vmem S2048x384 .bf16).view.loc (c : Thread nD τ)))).piecewise fa g0)) := by
  intro r j
  have hq := cz_le c
  have h02 : ownRow 3 1 c = cx c * 1024 + cy c * 512 := by simp [ownRow, coordN]
  by_cases hown : cz c * 256 ≤ r.val ∧ r.val < cz c * 256 + 256
  · -- a row of the device's own eighth
    have hr' : r.val - cz c * 256 < 256 := by omega
    have hidx : (agM3_1 c).view.emb (ix2 r j) = (agM3_0 c).view.emb (ix2 ⟨r.val - cz c * 256, hr'⟩ j) := by
      apply Shape.idx_ext₂
      · show k0_off78 c 0 + 1 * r.val = k0_off73 c 0 + 1 * (r.val - cz c * 256)
        rw [off78_eq, off73_eq]; simp only [Matrix.cons_val_zero]; omega
      · show k0_off78 c 1 + 1 * j.val = k0_off73 c 1 + 1 * j.val
        rw [off78_eq, off73_eq]; simp only [Matrix.cons_val_one]
    have hnot : (agM3_1 c).view.emb (ix2 r j) ∉ (agM3_0 (nbr 2 c)).view.set := by
      rw [hidx]; exact Finset.disjoint_left.mp (ag_disj0_3 c) (View.emb_mem_set _ _)
    have h1 := hg0 ⟨r.val - cz c * 256, hr'⟩ j
    have e : (agM3_1 c).view.read (Elt Ideal) (((agM3_0 (nbr 2 c)).view.set : Finset (Idx ((Memref.whole cc0_scratch16 : Memref sig .tc .vmem S2048x384 .bf16).view.loc (c : Thread nD τ)))).piecewise fa g0) (ix2 r j) = (agM3_0 c).view.read (Elt Ideal) g0 (ix2 ⟨r.val - cz c * 256, hr'⟩ j) := by
      rw [View.read_apply, View.read_apply, Finset.piecewise_eq_of_notMem _ _ _ hnot, hidx]
    rw [e, h1]
    have h01 : ownRow 3 0 c = cx c * 1024 + cy c * 512 + cz c * 256 := by simp [ownRow, coordN]
    show Cert.RefSide.gelu1 (tot A B (ownRow 3 0 c + (r.val - cz c * 256)) (colLo 3 + j.val)) = Cert.RefSide.gelu1 (tot A B (ownRow 3 1 c + r.val) (colLo 3 + j.val))
    rw [h01, h02, show cx c * 1024 + cy c * 512 + cz c * 256 + (r.val - cz c * 256) = cx c * 1024 + cy c * 512 + r.val from by omega]
  · -- a row of the eighth that arrived from the neighbour across axis 2
    have hlo : (1 - cz c) * 256 ≤ r.val := by have := r.isLt; omega
    have hr' : r.val - (1 - cz c) * 256 < 256 := by have := r.isLt; omega
    have hidx : (agM3_1 c).view.emb (ix2 r j) = (agM3_0 (nbr 2 c)).view.emb (ix2 ⟨r.val - (1 - cz c) * 256, hr'⟩ j) := by
      apply Shape.idx_ext₂
      · show k0_off78 c 0 + 1 * r.val = k0_off73 (nbr 2 c) 0 + 1 * (r.val - (1 - cz c) * 256)
        rw [off78_eq, off73_eq, cx_nbr2, cy_nbr2, cz_nbr2]; simp only [Matrix.cons_val_zero]; omega
      · show k0_off78 c 1 + 1 * j.val = k0_off73 (nbr 2 c) 1 + 1 * j.val
        rw [off78_eq, off73_eq]; simp only [Matrix.cons_val_one]
    have hmem : (agM3_1 c).view.emb (ix2 r j) ∈ (agM3_0 (nbr 2 c)).view.set := by
      rw [hidx]; exact View.emb_mem_set _ _
    have h1 := hfa ⟨r.val - (1 - cz c) * 256, hr'⟩ j
    have e : (agM3_1 c).view.read (Elt Ideal) (((agM3_0 (nbr 2 c)).view.set : Finset (Idx ((Memref.whole cc0_scratch16 : Memref sig .tc .vmem S2048x384 .bf16).view.loc (c : Thread nD τ)))).piecewise fa g0) (ix2 r j) = (agM3_0 (nbr 2 c)).view.read (Elt Ideal) fa (ix2 ⟨r.val - (1 - cz c) * 256, hr'⟩ j) := by
      rw [View.read_apply, View.read_apply, Finset.piecewise_eq_of_mem _ _ _ hmem, hidx]
    rw [e, h1]
    have h01 : ownRow 3 0 (nbr 2 c) = cx c * 1024 + cy c * 512 + (1 - cz c) * 256 := by simp [ownRow, coordN, cx_nbr2, cy_nbr2, cz_nbr2]
    show Cert.RefSide.gelu1 (tot A B (ownRow 3 0 (nbr 2 c) + (r.val - (1 - cz c) * 256)) (colLo 3 + j.val)) = Cert.RefSide.gelu1 (tot A B (ownRow 3 1 c + r.val) (colLo 3 + j.val))
    rw [h01, h02, show cx c * 1024 + cy c * 512 + (1 - cz c) * 256 + (r.val - (1 - cz c) * 256) = cx c * 1024 + cy c * 512 + r.val from by omega]

/-- The rows a device sends at the first all-gather round after its own of group 4 hold the finished entries at its
    quarter of the rows, given that its own eighth and the eighth that arrived from its neighbour across axis 0 hold theirs. -/
theorem val_ag4_1 (c : Dev nD) (g0 fa : Buf (Elt Ideal) ((Memref.whole cc0_scratch17 : Memref sig .tc .vmem S2048x256 .bf16).view.loc (c : Thread nD τ)))
    (hg0 : (Vreal A B).ag4_0 c ((agM4_0 c).view.read (Elt Ideal) g0))
    (hfa : (Vreal A B).ag4_0 (nbr 0 c) ((agM4_0 (nbr 0 c)).view.read (Elt Ideal) fa)) :
    (Vreal A B).ag4_1 c ((agM4_1 c).view.read (Elt Ideal) (((agM4_0 (nbr 0 c)).view.set : Finset (Idx ((Memref.whole cc0_scratch17 : Memref sig .tc .vmem S2048x256 .bf16).view.loc (c : Thread nD τ)))).piecewise fa g0)) := by
  intro r j
  have hq := cx_le c
  have h02 : ownRow 4 1 c = cy c * 1024 + cz c * 512 := by simp [ownRow, coordN]
  by_cases hown : cx c * 256 ≤ r.val ∧ r.val < cx c * 256 + 256
  · -- a row of the device's own eighth
    have hr' : r.val - cx c * 256 < 256 := by omega
    have hidx : (agM4_1 c).view.emb (ix2 r j) = (agM4_0 c).view.emb (ix2 ⟨r.val - cx c * 256, hr'⟩ j) := by
      apply Shape.idx_ext₂
      · show k0_off92 c 0 + 1 * r.val = k0_off76 c 0 + 1 * (r.val - cx c * 256)
        rw [off92_eq, off76_eq]; simp only [Matrix.cons_val_zero]; omega
      · show k0_off92 c 1 + 1 * j.val = k0_off76 c 1 + 1 * j.val
        rw [off92_eq, off76_eq]; simp only [Matrix.cons_val_one]
    have hnot : (agM4_1 c).view.emb (ix2 r j) ∉ (agM4_0 (nbr 0 c)).view.set := by
      rw [hidx]; exact Finset.disjoint_left.mp (ag_disj0_4 c) (View.emb_mem_set _ _)
    have h1 := hg0 ⟨r.val - cx c * 256, hr'⟩ j
    have e : (agM4_1 c).view.read (Elt Ideal) (((agM4_0 (nbr 0 c)).view.set : Finset (Idx ((Memref.whole cc0_scratch17 : Memref sig .tc .vmem S2048x256 .bf16).view.loc (c : Thread nD τ)))).piecewise fa g0) (ix2 r j) = (agM4_0 c).view.read (Elt Ideal) g0 (ix2 ⟨r.val - cx c * 256, hr'⟩ j) := by
      rw [View.read_apply, View.read_apply, Finset.piecewise_eq_of_notMem _ _ _ hnot, hidx]
    rw [e, h1]
    have h01 : ownRow 4 0 c = cy c * 1024 + cz c * 512 + cx c * 256 := by simp [ownRow, coordN]
    show Cert.RefSide.gelu1 (tot A B (ownRow 4 0 c + (r.val - cx c * 256)) (colLo 4 + j.val)) = Cert.RefSide.gelu1 (tot A B (ownRow 4 1 c + r.val) (colLo 4 + j.val))
    rw [h01, h02, show cy c * 1024 + cz c * 512 + cx c * 256 + (r.val - cx c * 256) = cy c * 1024 + cz c * 512 + r.val from by omega]
  · -- a row of the eighth that arrived from the neighbour across axis 0
    have hlo : (1 - cx c) * 256 ≤ r.val := by have := r.isLt; omega
    have hr' : r.val - (1 - cx c) * 256 < 256 := by have := r.isLt; omega
    have hidx : (agM4_1 c).view.emb (ix2 r j) = (agM4_0 (nbr 0 c)).view.emb (ix2 ⟨r.val - (1 - cx c) * 256, hr'⟩ j) := by
      apply Shape.idx_ext₂
      · show k0_off92 c 0 + 1 * r.val = k0_off76 (nbr 0 c) 0 + 1 * (r.val - (1 - cx c) * 256)
        rw [off92_eq, off76_eq, cy_nbr0, cz_nbr0, cx_nbr0]; simp only [Matrix.cons_val_zero]; omega
      · show k0_off92 c 1 + 1 * j.val = k0_off76 (nbr 0 c) 1 + 1 * j.val
        rw [off92_eq, off76_eq]; simp only [Matrix.cons_val_one]
    have hmem : (agM4_1 c).view.emb (ix2 r j) ∈ (agM4_0 (nbr 0 c)).view.set := by
      rw [hidx]; exact View.emb_mem_set _ _
    have h1 := hfa ⟨r.val - (1 - cx c) * 256, hr'⟩ j
    have e : (agM4_1 c).view.read (Elt Ideal) (((agM4_0 (nbr 0 c)).view.set : Finset (Idx ((Memref.whole cc0_scratch17 : Memref sig .tc .vmem S2048x256 .bf16).view.loc (c : Thread nD τ)))).piecewise fa g0) (ix2 r j) = (agM4_0 (nbr 0 c)).view.read (Elt Ideal) fa (ix2 ⟨r.val - (1 - cx c) * 256, hr'⟩ j) := by
      rw [View.read_apply, View.read_apply, Finset.piecewise_eq_of_mem _ _ _ hmem, hidx]
    rw [e, h1]
    have h01 : ownRow 4 0 (nbr 0 c) = cy c * 1024 + cz c * 512 + (1 - cx c) * 256 := by simp [ownRow, coordN, cy_nbr0, cz_nbr0, cx_nbr0]
    show Cert.RefSide.gelu1 (tot A B (ownRow 4 0 (nbr 0 c) + (r.val - (1 - cx c) * 256)) (colLo 4 + j.val)) = Cert.RefSide.gelu1 (tot A B (ownRow 4 1 c + r.val) (colLo 4 + j.val))
    rw [h01, h02, show cy c * 1024 + cz c * 512 + (1 - cx c) * 256 + (r.val - (1 - cx c) * 256) = cy c * 1024 + cz c * 512 + r.val from by omega]

/-- The rows a device sends at the first all-gather round after its own of group 5 hold the finished entries at its
    quarter of the rows, given that its own eighth and the eighth that arrived from its neighbour across axis 1 hold theirs. -/
theorem val_ag5_1 (c : Dev nD) (g0 fa : Buf (Elt Ideal) ((Memref.whole cc0_scratch18 : Memref sig .tc .vmem S2048x256 .bf16).view.loc (c : Thread nD τ)))
    (hg0 : (Vreal A B).ag5_0 c ((agM5_0 c).view.read (Elt Ideal) g0))
    (hfa : (Vreal A B).ag5_0 (nbr 1 c) ((agM5_0 (nbr 1 c)).view.read (Elt Ideal) fa)) :
    (Vreal A B).ag5_1 c ((agM5_1 c).view.read (Elt Ideal) (((agM5_0 (nbr 1 c)).view.set : Finset (Idx ((Memref.whole cc0_scratch18 : Memref sig .tc .vmem S2048x256 .bf16).view.loc (c : Thread nD τ)))).piecewise fa g0)) := by
  intro r j
  have hq := cy_le c
  have h02 : ownRow 5 1 c = cz c * 1024 + cx c * 512 := by simp [ownRow, coordN]
  by_cases hown : cy c * 256 ≤ r.val ∧ r.val < cy c * 256 + 256
  · -- a row of the device's own eighth
    have hr' : r.val - cy c * 256 < 256 := by omega
    have hidx : (agM5_1 c).view.emb (ix2 r j) = (agM5_0 c).view.emb (ix2 ⟨r.val - cy c * 256, hr'⟩ j) := by
      apply Shape.idx_ext₂
      · show k0_off96 c 0 + 1 * r.val = k0_off77 c 0 + 1 * (r.val - cy c * 256)
        rw [off96_eq, off77_eq]; simp only [Matrix.cons_val_zero]; omega
      · show k0_off96 c 1 + 1 * j.val = k0_off77 c 1 + 1 * j.val
        rw [off96_eq, off77_eq]; simp only [Matrix.cons_val_one]
    have hnot : (agM5_1 c).view.emb (ix2 r j) ∉ (agM5_0 (nbr 1 c)).view.set := by
      rw [hidx]; exact Finset.disjoint_left.mp (ag_disj0_5 c) (View.emb_mem_set _ _)
    have h1 := hg0 ⟨r.val - cy c * 256, hr'⟩ j
    have e : (agM5_1 c).view.read (Elt Ideal) (((agM5_0 (nbr 1 c)).view.set : Finset (Idx ((Memref.whole cc0_scratch18 : Memref sig .tc .vmem S2048x256 .bf16).view.loc (c : Thread nD τ)))).piecewise fa g0) (ix2 r j) = (agM5_0 c).view.read (Elt Ideal) g0 (ix2 ⟨r.val - cy c * 256, hr'⟩ j) := by
      rw [View.read_apply, View.read_apply, Finset.piecewise_eq_of_notMem _ _ _ hnot, hidx]
    rw [e, h1]
    have h01 : ownRow 5 0 c = cz c * 1024 + cx c * 512 + cy c * 256 := by simp [ownRow, coordN]
    show Cert.RefSide.gelu1 (tot A B (ownRow 5 0 c + (r.val - cy c * 256)) (colLo 5 + j.val)) = Cert.RefSide.gelu1 (tot A B (ownRow 5 1 c + r.val) (colLo 5 + j.val))
    rw [h01, h02, show cz c * 1024 + cx c * 512 + cy c * 256 + (r.val - cy c * 256) = cz c * 1024 + cx c * 512 + r.val from by omega]
  · -- a row of the eighth that arrived from the neighbour across axis 1
    have hlo : (1 - cy c) * 256 ≤ r.val := by have := r.isLt; omega
    have hr' : r.val - (1 - cy c) * 256 < 256 := by have := r.isLt; omega
    have hidx : (agM5_1 c).view.emb (ix2 r j) = (agM5_0 (nbr 1 c)).view.emb (ix2 ⟨r.val - (1 - cy c) * 256, hr'⟩ j) := by
      apply Shape.idx_ext₂
      · show k0_off96 c 0 + 1 * r.val = k0_off77 (nbr 1 c) 0 + 1 * (r.val - (1 - cy c) * 256)
        rw [off96_eq, off77_eq, cz_nbr1, cx_nbr1, cy_nbr1]; simp only [Matrix.cons_val_zero]; omega
      · show k0_off96 c 1 + 1 * j.val = k0_off77 (nbr 1 c) 1 + 1 * j.val
        rw [off96_eq, off77_eq]; simp only [Matrix.cons_val_one]
    have hmem : (agM5_1 c).view.emb (ix2 r j) ∈ (agM5_0 (nbr 1 c)).view.set := by
      rw [hidx]; exact View.emb_mem_set _ _
    have h1 := hfa ⟨r.val - (1 - cy c) * 256, hr'⟩ j
    have e : (agM5_1 c).view.read (Elt Ideal) (((agM5_0 (nbr 1 c)).view.set : Finset (Idx ((Memref.whole cc0_scratch18 : Memref sig .tc .vmem S2048x256 .bf16).view.loc (c : Thread nD τ)))).piecewise fa g0) (ix2 r j) = (agM5_0 (nbr 1 c)).view.read (Elt Ideal) fa (ix2 ⟨r.val - (1 - cy c) * 256, hr'⟩ j) := by
      rw [View.read_apply, View.read_apply, Finset.piecewise_eq_of_mem _ _ _ hmem, hidx]
    rw [e, h1]
    have h01 : ownRow 5 0 (nbr 1 c) = cz c * 1024 + cx c * 512 + (1 - cy c) * 256 := by simp [ownRow, coordN, cz_nbr1, cx_nbr1, cy_nbr1]
    show Cert.RefSide.gelu1 (tot A B (ownRow 5 0 (nbr 1 c) + (r.val - (1 - cy c) * 256)) (colLo 5 + j.val)) = Cert.RefSide.gelu1 (tot A B (ownRow 5 1 c + r.val) (colLo 5 + j.val))
    rw [h01, h02, show cz c * 1024 + cx c * 512 + (1 - cy c) * 256 + (r.val - (1 - cy c) * 256) = cz c * 1024 + cx c * 512 + r.val from by omega]

/-- The block of the accumulator that the result copy 6 moves holds the finished entries at the rows of the eighth that
    arrived from the neighbour across axis 2 and the columns of group 0: it is those arrived rows, widened. -/
theorem val_out6 (c : Dev nD) (g0 fa : Buf (Elt Ideal) ((Memref.whole cc0_scratch13 : Memref sig .tc .vmem S2048x384 .bf16).view.loc (c : Thread nD τ)))
    (fb : Buf (Elt Ideal) ((outSrcM6 c).view.loc (c : Thread nD τ)))
    (hfa : (Vreal A B).ag0_0 (nbr 2 c) ((agM0_0 (nbr 2 c)).view.read (Elt Ideal) fa)) :
    (Vreal A B).out6 c ((outSrcM6 c).view.read (Elt Ideal) (((Memref.whole cc0_scratch0 : Memref sig .tc .vmem S2048x2048 .f32).access (Rect.unit (s := S2048x2048) (k0_off80 c) S256x384.size (k0_off80_inb c))).write (Elt Ideal) fb (k0_pay87 (F := Ideal) (View.readAt (Elt Ideal) (Memref.whole cc0_scratch13 : Memref sig .tc .vmem S2048x384 .bf16).view (Rect.unit (s := S2048x384) (k0_off79 c) S256x384.size (k0_off79_inb c)).toLoadRect (((agM0_0 (nbr 2 c)).view.set : Finset (Idx ((Memref.whole cc0_scratch13 : Memref sig .tc .vmem S2048x384 .bf16).view.loc (c : Thread nD τ)))).piecewise fa g0))) Finset.univ)) := by
  intro r jj
  have hq := cz_le c
  have hidx : (outSrcM6 c).view.emb (ix2 r jj) = ((Memref.whole cc0_scratch0 : Memref sig .tc .vmem S2048x2048 .f32).access (Rect.unit (s := S2048x2048) (k0_off80 c) S256x384.size (k0_off80_inb c))).emb (ix2 r jj) := by
    apply Shape.idx_ext₂
    · show k0_off81 c 0 + 1 * r.val = k0_off80 c 0 + 1 * r.val
      rw [off81_eq, off80_eq]
    · show k0_off81 c 1 + 1 * jj.val = k0_off80 c 1 + 1 * jj.val
      rw [off81_eq, off80_eq]
  have e1 : (outSrcM6 c).view.read (Elt Ideal) (((Memref.whole cc0_scratch0 : Memref sig .tc .vmem S2048x2048 .f32).access (Rect.unit (s := S2048x2048) (k0_off80 c) S256x384.size (k0_off80_inb c))).write (Elt Ideal) fb (k0_pay87 (F := Ideal) (View.readAt (Elt Ideal) (Memref.whole cc0_scratch13 : Memref sig .tc .vmem S2048x384 .bf16).view (Rect.unit (s := S2048x384) (k0_off79 c) S256x384.size (k0_off79_inb c)).toLoadRect (((agM0_0 (nbr 2 c)).view.set : Finset (Idx ((Memref.whole cc0_scratch13 : Memref sig .tc .vmem S2048x384 .bf16).view.loc (c : Thread nD τ)))).piecewise fa g0))) Finset.univ) (ix2 r jj) = ((Memref.whole cc0_scratch0 : Memref sig .tc .vmem S2048x2048 .f32).access (Rect.unit (s := S2048x2048) (k0_off80 c) S256x384.size (k0_off80_inb c))).read (Elt Ideal) (((Memref.whole cc0_scratch0 : Memref sig .tc .vmem S2048x2048 .f32).access (Rect.unit (s := S2048x2048) (k0_off80 c) S256x384.size (k0_off80_inb c))).write (Elt Ideal) fb (k0_pay87 (F := Ideal) (View.readAt (Elt Ideal) (Memref.whole cc0_scratch13 : Memref sig .tc .vmem S2048x384 .bf16).view (Rect.unit (s := S2048x384) (k0_off79 c) S256x384.size (k0_off79_inb c)).toLoadRect (((agM0_0 (nbr 2 c)).view.set : Finset (Idx ((Memref.whole cc0_scratch13 : Memref sig .tc .vmem S2048x384 .bf16).view.loc (c : Thread nD τ)))).piecewise fa g0))) Finset.univ) (ix2 r jj) := by
    rw [View.read_apply, View.read_apply, hidx]
  rw [e1, View.read_write_of_mem _ _ (Finset.mem_univ _)]
  unfold k0_pay87
  simp only [shapeCast_self]
  rw [extf_apply, View.readAt_rect]
  have hidx2 : ((Memref.whole cc0_scratch13 : Memref sig .tc .vmem S2048x384 .bf16).view.slice (Rect.unit (s := S2048x384) (k0_off79 c) S256x384.size (k0_off79_inb c))).emb (ix2 r jj) = (agM0_0 (nbr 2 c)).view.emb (ix2 r jj) := by
    apply Shape.idx_ext₂
    · show k0_off79 c 0 + 1 * r.val = k0_off73 (nbr 2 c) 0 + 1 * r.val
      rw [off79_eq, off73_eq, cx_nbr2, cy_nbr2, cz_nbr2]
    · show k0_off79 c 1 + 1 * jj.val = k0_off73 (nbr 2 c) 1 + 1 * jj.val
      rw [off79_eq, off73_eq]; simp only [Matrix.cons_val_one]
  have hmem : ((Memref.whole cc0_scratch13 : Memref sig .tc .vmem S2048x384 .bf16).view.slice (Rect.unit (s := S2048x384) (k0_off79 c) S256x384.size (k0_off79_inb c))).emb (ix2 r jj) ∈ (agM0_0 (nbr 2 c)).view.set := by
    rw [hidx2]; exact View.emb_mem_set _ _
  have e2 : ((Memref.whole cc0_scratch13 : Memref sig .tc .vmem S2048x384 .bf16).view.slice (Rect.unit (s := S2048x384) (k0_off79 c) S256x384.size (k0_off79_inb c))).read (Elt Ideal) (((agM0_0 (nbr 2 c)).view.set : Finset (Idx ((Memref.whole cc0_scratch13 : Memref sig .tc .vmem S2048x384 .bf16).view.loc (c : Thread nD τ)))).piecewise fa g0) (ix2 r jj) = (agM0_0 (nbr 2 c)).view.read (Elt Ideal) fa (ix2 r jj) := by
    rw [View.read_apply, View.read_apply, Finset.piecewise_eq_of_mem _ _ _ hmem, hidx2]
  have h1 := hfa r jj
  have h01 : ownRow 0 0 (nbr 2 c) = cx c * 1024 + cy c * 512 + (1 - cz c) * 256 := by simp [ownRow, coordN, cx_nbr2, cy_nbr2, cz_nbr2]
  have ho : outRow c 6 = cx c * 1024 + cy c * 512 + (1 - cz c) * 256 := by simp [outRow, coordN]
  have hc : outColLo 6 = colLo 0 := by simp [outColLo, colLo]
  refine e2.trans (h1.trans ?_)
  show Cert.RefSide.gelu1 (tot A B (ownRow 0 0 (nbr 2 c) + r.val) (colLo 0 + jj.val)) = Cert.RefSide.gelu1 (tot A B (outRow c 6 + r.val) (outColLo 6 + jj.val))
  rw [h01, ho, hc]

/-- The block of the accumulator that the result copy 7 moves holds the finished entries at the rows of the eighth that
    arrived from the neighbour across axis 0 and the columns of group 1: it is those arrived rows, widened. -/
theorem val_out7 (c : Dev nD) (g0 fa : Buf (Elt Ideal) ((Memref.whole cc0_scratch14 : Memref sig .tc .vmem S2048x384 .bf16).view.loc (c : Thread nD τ)))
    (fb : Buf (Elt Ideal) ((outSrcM7 c).view.loc (c : Thread nD τ)))
    (hfa : (Vreal A B).ag1_0 (nbr 0 c) ((agM1_0 (nbr 0 c)).view.read (Elt Ideal) fa)) :
    (Vreal A B).out7 c ((outSrcM7 c).view.read (Elt Ideal) (((Memref.whole cc0_scratch0 : Memref sig .tc .vmem S2048x2048 .f32).access (Rect.unit (s := S2048x2048) (k0_off84 c) S256x384.size (k0_off84_inb c))).write (Elt Ideal) fb (k0_pay88 (F := Ideal) (View.readAt (Elt Ideal) (Memref.whole cc0_scratch14 : Memref sig .tc .vmem S2048x384 .bf16).view (Rect.unit (s := S2048x384) (k0_off83 c) S256x384.size (k0_off83_inb c)).toLoadRect (((agM1_0 (nbr 0 c)).view.set : Finset (Idx ((Memref.whole cc0_scratch14 : Memref sig .tc .vmem S2048x384 .bf16).view.loc (c : Thread nD τ)))).piecewise fa g0))) Finset.univ)) := by
  intro r jj
  have hq := cx_le c
  have hidx : (outSrcM7 c).view.emb (ix2 r jj) = ((Memref.whole cc0_scratch0 : Memref sig .tc .vmem S2048x2048 .f32).access (Rect.unit (s := S2048x2048) (k0_off84 c) S256x384.size (k0_off84_inb c))).emb (ix2 r jj) := by
    apply Shape.idx_ext₂
    · show k0_off85 c 0 + 1 * r.val = k0_off84 c 0 + 1 * r.val
      rw [off85_eq, off84_eq]
    · show k0_off85 c 1 + 1 * jj.val = k0_off84 c 1 + 1 * jj.val
      rw [off85_eq, off84_eq]
  have e1 : (outSrcM7 c).view.read (Elt Ideal) (((Memref.whole cc0_scratch0 : Memref sig .tc .vmem S2048x2048 .f32).access (Rect.unit (s := S2048x2048) (k0_off84 c) S256x384.size (k0_off84_inb c))).write (Elt Ideal) fb (k0_pay88 (F := Ideal) (View.readAt (Elt Ideal) (Memref.whole cc0_scratch14 : Memref sig .tc .vmem S2048x384 .bf16).view (Rect.unit (s := S2048x384) (k0_off83 c) S256x384.size (k0_off83_inb c)).toLoadRect (((agM1_0 (nbr 0 c)).view.set : Finset (Idx ((Memref.whole cc0_scratch14 : Memref sig .tc .vmem S2048x384 .bf16).view.loc (c : Thread nD τ)))).piecewise fa g0))) Finset.univ) (ix2 r jj) = ((Memref.whole cc0_scratch0 : Memref sig .tc .vmem S2048x2048 .f32).access (Rect.unit (s := S2048x2048) (k0_off84 c) S256x384.size (k0_off84_inb c))).read (Elt Ideal) (((Memref.whole cc0_scratch0 : Memref sig .tc .vmem S2048x2048 .f32).access (Rect.unit (s := S2048x2048) (k0_off84 c) S256x384.size (k0_off84_inb c))).write (Elt Ideal) fb (k0_pay88 (F := Ideal) (View.readAt (Elt Ideal) (Memref.whole cc0_scratch14 : Memref sig .tc .vmem S2048x384 .bf16).view (Rect.unit (s := S2048x384) (k0_off83 c) S256x384.size (k0_off83_inb c)).toLoadRect (((agM1_0 (nbr 0 c)).view.set : Finset (Idx ((Memref.whole cc0_scratch14 : Memref sig .tc .vmem S2048x384 .bf16).view.loc (c : Thread nD τ)))).piecewise fa g0))) Finset.univ) (ix2 r jj) := by
    rw [View.read_apply, View.read_apply, hidx]
  rw [e1, View.read_write_of_mem _ _ (Finset.mem_univ _)]
  unfold k0_pay88
  simp only [shapeCast_self]
  rw [extf_apply, View.readAt_rect]
  have hidx2 : ((Memref.whole cc0_scratch14 : Memref sig .tc .vmem S2048x384 .bf16).view.slice (Rect.unit (s := S2048x384) (k0_off83 c) S256x384.size (k0_off83_inb c))).emb (ix2 r jj) = (agM1_0 (nbr 0 c)).view.emb (ix2 r jj) := by
    apply Shape.idx_ext₂
    · show k0_off83 c 0 + 1 * r.val = k0_off74 (nbr 0 c) 0 + 1 * r.val
      rw [off83_eq, off74_eq, cy_nbr0, cz_nbr0, cx_nbr0]
    · show k0_off83 c 1 + 1 * jj.val = k0_off74 (nbr 0 c) 1 + 1 * jj.val
      rw [off83_eq, off74_eq]; simp only [Matrix.cons_val_one]
  have hmem : ((Memref.whole cc0_scratch14 : Memref sig .tc .vmem S2048x384 .bf16).view.slice (Rect.unit (s := S2048x384) (k0_off83 c) S256x384.size (k0_off83_inb c))).emb (ix2 r jj) ∈ (agM1_0 (nbr 0 c)).view.set := by
    rw [hidx2]; exact View.emb_mem_set _ _
  have e2 : ((Memref.whole cc0_scratch14 : Memref sig .tc .vmem S2048x384 .bf16).view.slice (Rect.unit (s := S2048x384) (k0_off83 c) S256x384.size (k0_off83_inb c))).read (Elt Ideal) (((agM1_0 (nbr 0 c)).view.set : Finset (Idx ((Memref.whole cc0_scratch14 : Memref sig .tc .vmem S2048x384 .bf16).view.loc (c : Thread nD τ)))).piecewise fa g0) (ix2 r jj) = (agM1_0 (nbr 0 c)).view.read (Elt Ideal) fa (ix2 r jj) := by
    rw [View.read_apply, View.read_apply, Finset.piecewise_eq_of_mem _ _ _ hmem, hidx2]
  have h1 := hfa r jj
  have h01 : ownRow 1 0 (nbr 0 c) = cy c * 1024 + cz c * 512 + (1 - cx c) * 256 := by simp [ownRow, coordN, cy_nbr0, cz_nbr0, cx_nbr0]
  have ho : outRow c 7 = cy c * 1024 + cz c * 512 + (1 - cx c) * 256 := by simp [outRow, coordN]
  have hc : outColLo 7 = colLo 1 := by simp [outColLo, colLo]
  refine e2.trans (h1.trans ?_)
  show Cert.RefSide.gelu1 (tot A B (ownRow 1 0 (nbr 0 c) + r.val) (colLo 1 + jj.val)) = Cert.RefSide.gelu1 (tot A B (outRow c 7 + r.val) (outColLo 7 + jj.val))
  rw [h01, ho, hc]

/-- The block of the accumulator that the result copy 8 moves holds the finished entries at the rows of the eighth that
    arrived from the neighbour across axis 1 and the columns of group 2: it is those arrived rows, widened. -/
theorem val_out8_e (c : Dev nD) (g0 fa : Buf (Elt Ideal) ((Memref.whole cc0_scratch15 : Memref sig .tc .vmem S2048x384 .bf16).view.loc (c : Thread nD τ)))
    (fb : Buf (Elt Ideal) ((outSrcM8 c).view.loc (c : Thread nD τ)))
    (hfa : (Vreal A B).ag2_0 (nbr 1 c) ((agM2_0 (nbr 1 c)).view.read (Elt Ideal) fa)) :
    (Vreal A B).out8 c ((outSrcM8 c).view.read (Elt Ideal) (((Memref.whole cc0_scratch0 : Memref sig .tc .vmem S2048x2048 .f32).access (Rect.unit (s := S2048x2048) (k0_off88 c) S256x384.size (k0_off88_inb c))).write (Elt Ideal) fb (k0_pay90 (F := Ideal) (k0_pay89 (F := Ideal) (View.readAt (Elt Ideal) (Memref.whole cc0_scratch15 : Memref sig .tc .vmem S2048x384 .bf16).view (Rect.unit (s := S2048x384) (k0_off87 c) S256x384.size (k0_off87_inb c)).toLoadRect (((agM2_0 (nbr 1 c)).view.set : Finset (Idx ((Memref.whole cc0_scratch15 : Memref sig .tc .vmem S2048x384 .bf16).view.loc (c : Thread nD τ)))).piecewise fa g0)))) Finset.univ)) := by
  intro r jj
  have hq := cy_le c
  have hidx : (outSrcM8 c).view.emb (ix2 r jj) = ((Memref.whole cc0_scratch0 : Memref sig .tc .vmem S2048x2048 .f32).access (Rect.unit (s := S2048x2048) (k0_off88 c) S256x384.size (k0_off88_inb c))).emb (ix2 r jj) := by
    apply Shape.idx_ext₂
    · show k0_off89 c 0 + 1 * r.val = k0_off88 c 0 + 1 * r.val
      rw [off89_eq, off88_eq]
    · show k0_off89 c 1 + 1 * jj.val = k0_off88 c 1 + 1 * jj.val
      rw [off89_eq, off88_eq]
  have e1 : (outSrcM8 c).view.read (Elt Ideal) (((Memref.whole cc0_scratch0 : Memref sig .tc .vmem S2048x2048 .f32).access (Rect.unit (s := S2048x2048) (k0_off88 c) S256x384.size (k0_off88_inb c))).write (Elt Ideal) fb (k0_pay90 (F := Ideal) (k0_pay89 (F := Ideal) (View.readAt (Elt Ideal) (Memref.whole cc0_scratch15 : Memref sig .tc .vmem S2048x384 .bf16).view (Rect.unit (s := S2048x384) (k0_off87 c) S256x384.size (k0_off87_inb c)).toLoadRect (((agM2_0 (nbr 1 c)).view.set : Finset (Idx ((Memref.whole cc0_scratch15 : Memref sig .tc .vmem S2048x384 .bf16).view.loc (c : Thread nD τ)))).piecewise fa g0)))) Finset.univ) (ix2 r jj) = ((Memref.whole cc0_scratch0 : Memref sig .tc .vmem S2048x2048 .f32).access (Rect.unit (s := S2048x2048) (k0_off88 c) S256x384.size (k0_off88_inb c))).read (Elt Ideal) (((Memref.whole cc0_scratch0 : Memref sig .tc .vmem S2048x2048 .f32).access (Rect.unit (s := S2048x2048) (k0_off88 c) S256x384.size (k0_off88_inb c))).write (Elt Ideal) fb (k0_pay90 (F := Ideal) (k0_pay89 (F := Ideal) (View.readAt (Elt Ideal) (Memref.whole cc0_scratch15 : Memref sig .tc .vmem S2048x384 .bf16).view (Rect.unit (s := S2048x384) (k0_off87 c) S256x384.size (k0_off87_inb c)).toLoadRect (((agM2_0 (nbr 1 c)).view.set : Finset (Idx ((Memref.whole cc0_scratch15 : Memref sig .tc .vmem S2048x384 .bf16).view.loc (c : Thread nD τ)))).piecewise fa g0)))) Finset.univ) (ix2 r jj) := by
    rw [View.read_apply, View.read_apply, hidx]
  rw [e1, View.read_write_of_mem _ _ (Finset.mem_univ _)]
  unfold k0_pay90 k0_pay89
  simp only [shapeCast_self]
  rw [extf_apply, View.readAt_rect]
  have hidx2 : ((Memref.whole cc0_scratch15 : Memref sig .tc .vmem S2048x384 .bf16).view.slice (Rect.unit (s := S2048x384) (k0_off87 c) S256x384.size (k0_off87_inb c))).emb (ix2 r jj) = (agM2_0 (nbr 1 c)).view.emb (ix2 r jj) := by
    apply Shape.idx_ext₂
    · show k0_off87 c 0 + 1 * r.val = k0_off75 (nbr 1 c) 0 + 1 * r.val
      rw [off87_eq, off75_eq, cz_nbr1, cx_nbr1, cy_nbr1]
    · show k0_off87 c 1 + 1 * jj.val = k0_off75 (nbr 1 c) 1 + 1 * jj.val
      rw [off87_eq, off75_eq]; simp only [Matrix.cons_val_one]
  have hmem : ((Memref.whole cc0_scratch15 : Memref sig .tc .vmem S2048x384 .bf16).view.slice (Rect.unit (s := S2048x384) (k0_off87 c) S256x384.size (k0_off87_inb c))).emb (ix2 r jj) ∈ (agM2_0 (nbr 1 c)).view.set := by
    rw [hidx2]; exact View.emb_mem_set _ _
  have e2 : ((Memref.whole cc0_scratch15 : Memref sig .tc .vmem S2048x384 .bf16).view.slice (Rect.unit (s := S2048x384) (k0_off87 c) S256x384.size (k0_off87_inb c))).read (Elt Ideal) (((agM2_0 (nbr 1 c)).view.set : Finset (Idx ((Memref.whole cc0_scratch15 : Memref sig .tc .vmem S2048x384 .bf16).view.loc (c : Thread nD τ)))).piecewise fa g0) (ix2 r jj) = (agM2_0 (nbr 1 c)).view.read (Elt Ideal) fa (ix2 r jj) := by
    rw [View.read_apply, View.read_apply, Finset.piecewise_eq_of_mem _ _ _ hmem, hidx2]
  have h1 := hfa r jj
  have h01 : ownRow 2 0 (nbr 1 c) = cz c * 1024 + cx c * 512 + (1 - cy c) * 256 := by simp [ownRow, coordN, cz_nbr1, cx_nbr1, cy_nbr1]
  have ho : outRow c 8 = cz c * 1024 + cx c * 512 + (1 - cy c) * 256 := by simp [outRow, coordN]
  have hc : outColLo 8 = colLo 2 := by simp [outColLo, colLo]
  refine e2.trans (h1.trans ?_)
  show Cert.RefSide.gelu1 (tot A B (ownRow 2 0 (nbr 1 c) + r.val) (colLo 2 + jj.val)) = Cert.RefSide.gelu1 (tot A B (outRow c 8 + r.val) (outColLo 8 + jj.val))
  rw [h01, ho, hc]

/-- The block of the accumulator that the result copy 9 moves holds the finished entries at the rows of the eighth that
    arrived from the neighbour across axis 2 and the columns of group 3: it is those arrived rows, widened. -/
theorem val_out9 (c : Dev nD) (g0 fa : Buf (Elt Ideal) ((Memref.whole cc0_scratch16 : Memref sig .tc .vmem S2048x384 .bf16).view.loc (c : Thread nD τ)))
    (fb : Buf (Elt Ideal) ((outSrcM9 c).view.loc (c : Thread nD τ)))
    (hfa : (Vreal A B).ag3_0 (nbr 2 c) ((agM3_0 (nbr 2 c)).view.read (Elt Ideal) fa)) :
    (Vreal A B).out9 c ((outSrcM9 c).view.read (Elt Ideal) (((Memref.whole cc0_scratch0 : Memref sig .tc .vmem S2048x2048 .f32).access (Rect.unit (s := S2048x2048) (k0_off90 c) S256x384.size (k0_off90_inb c))).write (Elt Ideal) fb (k0_pay91 (F := Ideal) (View.readAt (Elt Ideal) (Memref.whole cc0_scratch16 : Memref sig .tc .vmem S2048x384 .bf16).view (Rect.unit (s := S2048x384) (k0_off79 c) S256x384.size (k0_off79_inb c)).toLoadRect (((agM3_0 (nbr 2 c)).view.set : Finset (Idx ((Memref.whole cc0_scratch16 : Memref sig .tc .vmem S2048x384 .bf16).view.loc (c : Thread nD τ)))).piecewise fa g0))) Finset.univ)) := by
  intro r jj
  have hq := cz_le c
  have hidx : (outSrcM9 c).view.emb (ix2 r jj) = ((Memref.whole cc0_scratch0 : Memref sig .tc .vmem S2048x2048 .f32).access (Rect.unit (s := S2048x2048) (k0_off90 c) S256x384.size (k0_off90_inb c))).emb (ix2 r jj) := by
    apply Shape.idx_ext₂
    · show k0_off91 c 0 + 1 * r.val = k0_off90 c 0 + 1 * r.val
      rw [off91_eq, off90_eq]
    · show k0_off91 c 1 + 1 * jj.val = k0_off90 c 1 + 1 * jj.val
      rw [off91_eq, off90_eq]
  have e1 : (outSrcM9 c).view.read (Elt Ideal) (((Memref.whole cc0_scratch0 : Memref sig .tc .vmem S2048x2048 .f32).access (Rect.unit (s := S2048x2048) (k0_off90 c) S256x384.size (k0_off90_inb c))).write (Elt Ideal) fb (k0_pay91 (F := Ideal) (View.readAt (Elt Ideal) (Memref.whole cc0_scratch16 : Memref sig .tc .vmem S2048x384 .bf16).view (Rect.unit (s := S2048x384) (k0_off79 c) S256x384.size (k0_off79_inb c)).toLoadRect (((agM3_0 (nbr 2 c)).view.set : Finset (Idx ((Memref.whole cc0_scratch16 : Memref sig .tc .vmem S2048x384 .bf16).view.loc (c : Thread nD τ)))).piecewise fa g0))) Finset.univ) (ix2 r jj) = ((Memref.whole cc0_scratch0 : Memref sig .tc .vmem S2048x2048 .f32).access (Rect.unit (s := S2048x2048) (k0_off90 c) S256x384.size (k0_off90_inb c))).read (Elt Ideal) (((Memref.whole cc0_scratch0 : Memref sig .tc .vmem S2048x2048 .f32).access (Rect.unit (s := S2048x2048) (k0_off90 c) S256x384.size (k0_off90_inb c))).write (Elt Ideal) fb (k0_pay91 (F := Ideal) (View.readAt (Elt Ideal) (Memref.whole cc0_scratch16 : Memref sig .tc .vmem S2048x384 .bf16).view (Rect.unit (s := S2048x384) (k0_off79 c) S256x384.size (k0_off79_inb c)).toLoadRect (((agM3_0 (nbr 2 c)).view.set : Finset (Idx ((Memref.whole cc0_scratch16 : Memref sig .tc .vmem S2048x384 .bf16).view.loc (c : Thread nD τ)))).piecewise fa g0))) Finset.univ) (ix2 r jj) := by
    rw [View.read_apply, View.read_apply, hidx]
  rw [e1, View.read_write_of_mem _ _ (Finset.mem_univ _)]
  unfold k0_pay91
  simp only [shapeCast_self]
  rw [extf_apply, View.readAt_rect]
  have hidx2 : ((Memref.whole cc0_scratch16 : Memref sig .tc .vmem S2048x384 .bf16).view.slice (Rect.unit (s := S2048x384) (k0_off79 c) S256x384.size (k0_off79_inb c))).emb (ix2 r jj) = (agM3_0 (nbr 2 c)).view.emb (ix2 r jj) := by
    apply Shape.idx_ext₂
    · show k0_off79 c 0 + 1 * r.val = k0_off73 (nbr 2 c) 0 + 1 * r.val
      rw [off79_eq, off73_eq, cx_nbr2, cy_nbr2, cz_nbr2]
    · show k0_off79 c 1 + 1 * jj.val = k0_off73 (nbr 2 c) 1 + 1 * jj.val
      rw [off79_eq, off73_eq]; simp only [Matrix.cons_val_one]
  have hmem : ((Memref.whole cc0_scratch16 : Memref sig .tc .vmem S2048x384 .bf16).view.slice (Rect.unit (s := S2048x384) (k0_off79 c) S256x384.size (k0_off79_inb c))).emb (ix2 r jj) ∈ (agM3_0 (nbr 2 c)).view.set := by
    rw [hidx2]; exact View.emb_mem_set _ _
  have e2 : ((Memref.whole cc0_scratch16 : Memref sig .tc .vmem S2048x384 .bf16).view.slice (Rect.unit (s := S2048x384) (k0_off79 c) S256x384.size (k0_off79_inb c))).read (Elt Ideal) (((agM3_0 (nbr 2 c)).view.set : Finset (Idx ((Memref.whole cc0_scratch16 : Memref sig .tc .vmem S2048x384 .bf16).view.loc (c : Thread nD τ)))).piecewise fa g0) (ix2 r jj) = (agM3_0 (nbr 2 c)).view.read (Elt Ideal) fa (ix2 r jj) := by
    rw [View.read_apply, View.read_apply, Finset.piecewise_eq_of_mem _ _ _ hmem, hidx2]
  have h1 := hfa r jj
  have h01 : ownRow 3 0 (nbr 2 c) = cx c * 1024 + cy c * 512 + (1 - cz c) * 256 := by simp [ownRow, coordN, cx_nbr2, cy_nbr2, cz_nbr2]
  have ho : outRow c 9 = cx c * 1024 + cy c * 512 + (1 - cz c) * 256 := by simp [outRow, coordN]
  have hc : outColLo 9 = colLo 3 := by simp [outColLo, colLo]
  refine e2.trans (h1.trans ?_)
  show Cert.RefSide.gelu1 (tot A B (ownRow 3 0 (nbr 2 c) + r.val) (colLo 3 + jj.val)) = Cert.RefSide.gelu1 (tot A B (outRow c 9 + r.val) (outColLo 9 + jj.val))
  rw [h01, ho, hc]

/-- The block of the accumulator that the result copy 10 moves holds the finished entries at the rows of the eighth that
    arrived from the neighbour across axis 0 and the columns of group 4: it is those arrived rows, widened. -/
theorem val_out10 (c : Dev nD) (g0 fa : Buf (Elt Ideal) ((Memref.whole cc0_scratch17 : Memref sig .tc .vmem S2048x256 .bf16).view.loc (c : Thread nD τ)))
    (fb : Buf (Elt Ideal) ((outSrcM10 c).view.loc (c : Thread nD τ)))
    (hfa : (Vreal A B).ag4_0 (nbr 0 c) ((agM4_0 (nbr 0 c)).view.read (Elt Ideal) fa)) :
    (Vreal A B).out10 c ((outSrcM10 c).view.read (Elt Ideal) (((Memref.whole cc0_scratch0 : Memref sig .tc .vmem S2048x2048 .f32).access (Rect.unit (s := S2048x2048) (k0_off94 c) S256x256.size (k0_off94_inb c))).write (Elt Ideal) fb (k0_pay92 (F := Ideal) (View.readAt (Elt Ideal) (Memref.whole cc0_scratch17 : Memref sig .tc .vmem S2048x256 .bf16).view (Rect.unit (s := S2048x256) (k0_off93 c) S256x256.size (k0_off93_inb c)).toLoadRect (((agM4_0 (nbr 0 c)).view.set : Finset (Idx ((Memref.whole cc0_scratch17 : Memref sig .tc .vmem S2048x256 .bf16).view.loc (c : Thread nD τ)))).piecewise fa g0))) Finset.univ)) := by
  intro r jj
  have hq := cx_le c
  have hidx : (outSrcM10 c).view.emb (ix2 r jj) = ((Memref.whole cc0_scratch0 : Memref sig .tc .vmem S2048x2048 .f32).access (Rect.unit (s := S2048x2048) (k0_off94 c) S256x256.size (k0_off94_inb c))).emb (ix2 r jj) := by
    apply Shape.idx_ext₂
    · show k0_off95 c 0 + 1 * r.val = k0_off94 c 0 + 1 * r.val
      rw [off95_eq, off94_eq]
    · show k0_off95 c 1 + 1 * jj.val = k0_off94 c 1 + 1 * jj.val
      rw [off95_eq, off94_eq]
  have e1 : (outSrcM10 c).view.read (Elt Ideal) (((Memref.whole cc0_scratch0 : Memref sig .tc .vmem S2048x2048 .f32).access (Rect.unit (s := S2048x2048) (k0_off94 c) S256x256.size (k0_off94_inb c))).write (Elt Ideal) fb (k0_pay92 (F := Ideal) (View.readAt (Elt Ideal) (Memref.whole cc0_scratch17 : Memref sig .tc .vmem S2048x256 .bf16).view (Rect.unit (s := S2048x256) (k0_off93 c) S256x256.size (k0_off93_inb c)).toLoadRect (((agM4_0 (nbr 0 c)).view.set : Finset (Idx ((Memref.whole cc0_scratch17 : Memref sig .tc .vmem S2048x256 .bf16).view.loc (c : Thread nD τ)))).piecewise fa g0))) Finset.univ) (ix2 r jj) = ((Memref.whole cc0_scratch0 : Memref sig .tc .vmem S2048x2048 .f32).access (Rect.unit (s := S2048x2048) (k0_off94 c) S256x256.size (k0_off94_inb c))).read (Elt Ideal) (((Memref.whole cc0_scratch0 : Memref sig .tc .vmem S2048x2048 .f32).access (Rect.unit (s := S2048x2048) (k0_off94 c) S256x256.size (k0_off94_inb c))).write (Elt Ideal) fb (k0_pay92 (F := Ideal) (View.readAt (Elt Ideal) (Memref.whole cc0_scratch17 : Memref sig .tc .vmem S2048x256 .bf16).view (Rect.unit (s := S2048x256) (k0_off93 c) S256x256.size (k0_off93_inb c)).toLoadRect (((agM4_0 (nbr 0 c)).view.set : Finset (Idx ((Memref.whole cc0_scratch17 : Memref sig .tc .vmem S2048x256 .bf16).view.loc (c : Thread nD τ)))).piecewise fa g0))) Finset.univ) (ix2 r jj) := by
    rw [View.read_apply, View.read_apply, hidx]
  rw [e1, View.read_write_of_mem _ _ (Finset.mem_univ _)]
  unfold k0_pay92
  simp only [shapeCast_self]
  rw [extf_apply, View.readAt_rect]
  have hidx2 : ((Memref.whole cc0_scratch17 : Memref sig .tc .vmem S2048x256 .bf16).view.slice (Rect.unit (s := S2048x256) (k0_off93 c) S256x256.size (k0_off93_inb c))).emb (ix2 r jj) = (agM4_0 (nbr 0 c)).view.emb (ix2 r jj) := by
    apply Shape.idx_ext₂
    · show k0_off93 c 0 + 1 * r.val = k0_off76 (nbr 0 c) 0 + 1 * r.val
      rw [off93_eq, off76_eq, cy_nbr0, cz_nbr0, cx_nbr0]
    · show k0_off93 c 1 + 1 * jj.val = k0_off76 (nbr 0 c) 1 + 1 * jj.val
      rw [off93_eq, off76_eq]; simp only [Matrix.cons_val_one]
  have hmem : ((Memref.whole cc0_scratch17 : Memref sig .tc .vmem S2048x256 .bf16).view.slice (Rect.unit (s := S2048x256) (k0_off93 c) S256x256.size (k0_off93_inb c))).emb (ix2 r jj) ∈ (agM4_0 (nbr 0 c)).view.set := by
    rw [hidx2]; exact View.emb_mem_set _ _
  have e2 : ((Memref.whole cc0_scratch17 : Memref sig .tc .vmem S2048x256 .bf16).view.slice (Rect.unit (s := S2048x256) (k0_off93 c) S256x256.size (k0_off93_inb c))).read (Elt Ideal) (((agM4_0 (nbr 0 c)).view.set : Finset (Idx ((Memref.whole cc0_scratch17 : Memref sig .tc .vmem S2048x256 .bf16).view.loc (c : Thread nD τ)))).piecewise fa g0) (ix2 r jj) = (agM4_0 (nbr 0 c)).view.read (Elt Ideal) fa (ix2 r jj) := by
    rw [View.read_apply, View.read_apply, Finset.piecewise_eq_of_mem _ _ _ hmem, hidx2]
  have h1 := hfa r jj
  have h01 : ownRow 4 0 (nbr 0 c) = cy c * 1024 + cz c * 512 + (1 - cx c) * 256 := by simp [ownRow, coordN, cy_nbr0, cz_nbr0, cx_nbr0]
  have ho : outRow c 10 = cy c * 1024 + cz c * 512 + (1 - cx c) * 256 := by simp [outRow, coordN]
  have hc : outColLo 10 = colLo 4 := by simp [outColLo, colLo]
  refine e2.trans (h1.trans ?_)
  show Cert.RefSide.gelu1 (tot A B (ownRow 4 0 (nbr 0 c) + r.val) (colLo 4 + jj.val)) = Cert.RefSide.gelu1 (tot A B (outRow c 10 + r.val) (outColLo 10 + jj.val))
  rw [h01, ho, hc]

/-- The block of the accumulator that the result copy 11 moves holds the finished entries at the rows of the eighth that
    arrived from the neighbour across axis 1 and the columns of group 5: it is those arrived rows, widened. -/
theorem val_out11 (c : Dev nD) (g0 fa : Buf (Elt Ideal) ((Memref.whole cc0_scratch18 : Memref sig .tc .vmem S2048x256 .bf16).view.loc (c : Thread nD τ)))
    (fb : Buf (Elt Ideal) ((outSrcM11 c).view.loc (c : Thread nD τ)))
    (hfa : (Vreal A B).ag5_0 (nbr 1 c) ((agM5_0 (nbr 1 c)).view.read (Elt Ideal) fa)) :
    (Vreal A B).out11 c ((outSrcM11 c).view.read (Elt Ideal) (((Memref.whole cc0_scratch0 : Memref sig .tc .vmem S2048x2048 .f32).access (Rect.unit (s := S2048x2048) (k0_off98 c) S256x256.size (k0_off98_inb c))).write (Elt Ideal) fb (k0_pay93 (F := Ideal) (View.readAt (Elt Ideal) (Memref.whole cc0_scratch18 : Memref sig .tc .vmem S2048x256 .bf16).view (Rect.unit (s := S2048x256) (k0_off97 c) S256x256.size (k0_off97_inb c)).toLoadRect (((agM5_0 (nbr 1 c)).view.set : Finset (Idx ((Memref.whole cc0_scratch18 : Memref sig .tc .vmem S2048x256 .bf16).view.loc (c : Thread nD τ)))).piecewise fa g0))) Finset.univ)) := by
  intro r jj
  have hq := cy_le c
  have hidx : (outSrcM11 c).view.emb (ix2 r jj) = ((Memref.whole cc0_scratch0 : Memref sig .tc .vmem S2048x2048 .f32).access (Rect.unit (s := S2048x2048) (k0_off98 c) S256x256.size (k0_off98_inb c))).emb (ix2 r jj) := by
    apply Shape.idx_ext₂
    · show k0_off99 c 0 + 1 * r.val = k0_off98 c 0 + 1 * r.val
      rw [off99_eq, off98_eq]
    · show k0_off99 c 1 + 1 * jj.val = k0_off98 c 1 + 1 * jj.val
      rw [off99_eq, off98_eq]
  have e1 : (outSrcM11 c).view.read (Elt Ideal) (((Memref.whole cc0_scratch0 : Memref sig .tc .vmem S2048x2048 .f32).access (Rect.unit (s := S2048x2048) (k0_off98 c) S256x256.size (k0_off98_inb c))).write (Elt Ideal) fb (k0_pay93 (F := Ideal) (View.readAt (Elt Ideal) (Memref.whole cc0_scratch18 : Memref sig .tc .vmem S2048x256 .bf16).view (Rect.unit (s := S2048x256) (k0_off97 c) S256x256.size (k0_off97_inb c)).toLoadRect (((agM5_0 (nbr 1 c)).view.set : Finset (Idx ((Memref.whole cc0_scratch18 : Memref sig .tc .vmem S2048x256 .bf16).view.loc (c : Thread nD τ)))).piecewise fa g0))) Finset.univ) (ix2 r jj) = ((Memref.whole cc0_scratch0 : Memref sig .tc .vmem S2048x2048 .f32).access (Rect.unit (s := S2048x2048) (k0_off98 c) S256x256.size (k0_off98_inb c))).read (Elt Ideal) (((Memref.whole cc0_scratch0 : Memref sig .tc .vmem S2048x2048 .f32).access (Rect.unit (s := S2048x2048) (k0_off98 c) S256x256.size (k0_off98_inb c))).write (Elt Ideal) fb (k0_pay93 (F := Ideal) (View.readAt (Elt Ideal) (Memref.whole cc0_scratch18 : Memref sig .tc .vmem S2048x256 .bf16).view (Rect.unit (s := S2048x256) (k0_off97 c) S256x256.size (k0_off97_inb c)).toLoadRect (((agM5_0 (nbr 1 c)).view.set : Finset (Idx ((Memref.whole cc0_scratch18 : Memref sig .tc .vmem S2048x256 .bf16).view.loc (c : Thread nD τ)))).piecewise fa g0))) Finset.univ) (ix2 r jj) := by
    rw [View.read_apply, View.read_apply, hidx]
  rw [e1, View.read_write_of_mem _ _ (Finset.mem_univ _)]
  unfold k0_pay93
  simp only [shapeCast_self]
  rw [extf_apply, View.readAt_rect]
  have hidx2 : ((Memref.whole cc0_scratch18 : Memref sig .tc .vmem S2048x256 .bf16).view.slice (Rect.unit (s := S2048x256) (k0_off97 c) S256x256.size (k0_off97_inb c))).emb (ix2 r jj) = (agM5_0 (nbr 1 c)).view.emb (ix2 r jj) := by
    apply Shape.idx_ext₂
    · show k0_off97 c 0 + 1 * r.val = k0_off77 (nbr 1 c) 0 + 1 * r.val
      rw [off97_eq, off77_eq, cz_nbr1, cx_nbr1, cy_nbr1]
    · show k0_off97 c 1 + 1 * jj.val = k0_off77 (nbr 1 c) 1 + 1 * jj.val
      rw [off97_eq, off77_eq]; simp only [Matrix.cons_val_one]
  have hmem : ((Memref.whole cc0_scratch18 : Memref sig .tc .vmem S2048x256 .bf16).view.slice (Rect.unit (s := S2048x256) (k0_off97 c) S256x256.size (k0_off97_inb c))).emb (ix2 r jj) ∈ (agM5_0 (nbr 1 c)).view.set := by
    rw [hidx2]; exact View.emb_mem_set _ _
  have e2 : ((Memref.whole cc0_scratch18 : Memref sig .tc .vmem S2048x256 .bf16).view.slice (Rect.unit (s := S2048x256) (k0_off97 c) S256x256.size (k0_off97_inb c))).read (Elt Ideal) (((agM5_0 (nbr 1 c)).view.set : Finset (Idx ((Memref.whole cc0_scratch18 : Memref sig .tc .vmem S2048x256 .bf16).view.loc (c : Thread nD τ)))).piecewise fa g0) (ix2 r jj) = (agM5_0 (nbr 1 c)).view.read (Elt Ideal) fa (ix2 r jj) := by
    rw [View.read_apply, View.read_apply, Finset.piecewise_eq_of_mem _ _ _ hmem, hidx2]
  have h1 := hfa r jj
  have h01 : ownRow 5 0 (nbr 1 c) = cz c * 1024 + cx c * 512 + (1 - cy c) * 256 := by simp [ownRow, coordN, cz_nbr1, cx_nbr1, cy_nbr1]
  have ho : outRow c 11 = cz c * 1024 + cx c * 512 + (1 - cy c) * 256 := by simp [outRow, coordN]
  have hc : outColLo 11 = colLo 5 := by simp [outColLo, colLo]
  refine e2.trans (h1.trans ?_)
  show Cert.RefSide.gelu1 (tot A B (ownRow 5 0 (nbr 1 c) + r.val) (colLo 5 + jj.val)) = Cert.RefSide.gelu1 (tot A B (outRow c 11 + r.val) (outColLo 11 + jj.val))
  rw [h01, ho, hc]

end Cert.KernelIdeal.Proto

end
-- ==== Proof.RealB.lean ====
/-
The stretches 3 to 13 and 47 of a device's body with their values named: each stretch's run, at the true predicates of A
and B, takes the facts it needs of its input contents and hands on the facts of what it leaves.
-/
import proofs.«900882_g7700000000000883_dist_matmul_gelu_kshard_i_m2048_n2048_k1024_v7x_i8_f32_1_alg».proof.Proof.Body03
import proofs.«900882_g7700000000000883_dist_matmul_gelu_kshard_i_m2048_n2048_k1024_v7x_i8_f32_1_alg».proof.Proof.Body04
import proofs.«900882_g7700000000000883_dist_matmul_gelu_kshard_i_m2048_n2048_k1024_v7x_i8_f32_1_alg».proof.Proof.Body05
import proofs.«900882_g7700000000000883_dist_matmul_gelu_kshard_i_m2048_n2048_k1024_v7x_i8_f32_1_alg».proof.Proof.Body06
import proofs.«900882_g7700000000000883_dist_matmul_gelu_kshard_i_m2048_n2048_k1024_v7x_i8_f32_1_alg».proof.Proof.Body07
import proofs.«900882_g7700000000000883_dist_matmul_gelu_kshard_i_m2048_n2048_k1024_v7x_i8_f32_1_alg».proof.Proof.Body08
import proofs.«900882_g7700000000000883_dist_matmul_gelu_kshard_i_m2048_n2048_k1024_v7x_i8_f32_1_alg».proof.Proof.Body09
import proofs.«900882_g7700000000000883_dist_matmul_gelu_kshard_i_m2048_n2048_k1024_v7x_i8_f32_1_alg».proof.Proof.Body10
import proofs.«900882_g7700000000000883_dist_matmul_gelu_kshard_i_m2048_n2048_k1024_v7x_i8_f32_1_alg».proof.Proof.Body11
import proofs.«900882_g7700000000000883_dist_matmul_gelu_kshard_i_m2048_n2048_k1024_v7x_i8_f32_1_alg».proof.Proof.Body12
import proofs.«900882_g7700000000000883_dist_matmul_gelu_kshard_i_m2048_n2048_k1024_v7x_i8_f32_1_alg».proof.Proof.Body13
import proofs.«900882_g7700000000000883_dist_matmul_gelu_kshard_i_m2048_n2048_k1024_v7x_i8_f32_1_alg».proof.Proof.Body47
import proofs.«900882_g7700000000000883_dist_matmul_gelu_kshard_i_m2048_n2048_k1024_v7x_i8_f32_1_alg».proof.Proof.AccInv
import proofs.«900882_g7700000000000883_dist_matmul_gelu_kshard_i_m2048_n2048_k1024_v7x_i8_f32_1_alg».proof.Proof.ValSliceE2

set_option maxRecDepth 100000

noncomputable section

namespace Cert.KernelIdeal.Proto

open Cert.KernelIdeal Cert.KernelIdeal.Gen Cert.KernelIdeal.Topo
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open scoped BigOperators

local notation "𝕄" => MT nD τ sig Unit (Elt Ideal) ℕ UU ℕ

variable (A : (⟨2, ![2048, 8192]⟩ : Shape).Idx → EReal) (B : (⟨2, ![8192, 2048]⟩ : Shape).Idx → EReal)
  (m : (ℓ : Loc nD τ sig) → Buf (Elt Ideal) ℓ)
  (hagree : ∀ c : Dev nD,
      m ((c : Thread nD τ).loc main_arg0) = Layout.block ⟨2, ![2048, 1024]⟩ ⟨2, ![2048, 8192]⟩ 1 8 c A
      ∧ m ((c : Thread nD τ).loc main_arg1) = Layout.block ⟨2, ![1024, 2048]⟩ ⟨2, ![8192, 2048]⟩ 0 8 c B)

/-- The rows of the accumulator that leave at group 0's second step hold the device's own share, while the kept half does. -/
theorem acc_send1_0 {c : Dev nD} {g : Buf (Elt Ideal) ((Memref.whole cc0_scratch0 : Memref sig .tc .vmem S2048x2048 .f32).view.loc (c : Thread nD τ))} (hJ1 : J1 A B 0 384 c g)
    (i : Fin 512) (j : Fin 384) :
    ((View.readAt (Elt Ideal) (Memref.whole cc0_scratch0 : Memref sig .tc .vmem S2048x2048 .f32).view (Rect.unit (s := S2048x2048) (k0_off13 c) S512x384.size (k0_off13_inb c)).toLoadRect g) (ix2 i j) : EReal)
      = share A B c.val (sendRow 0 1 c + i.val) (colLo 0 + j.val) := by
  have hi : (1 - cy c) * 512 + i.val < 1024 := by have := cy_le c; have := i.isLt; omega
  rw [View.readAt_eq_ld]
  have e : coordN c 0 * 1024 + ((1 - cy c) * 512 + i.val) = sendRow 0 1 c + i.val := by
    show cx c * 1024 + ((1 - cy c) * 512 + i.val) = cx c * 1024 + (1 - cy c) * 512 + i.val; omega
  have := hJ1 ⟨(1 - cy c) * 512 + i.val, hi⟩ j ((Rect.unit (s := S2048x2048) (k0_off13 c) S512x384.size (k0_off13_inb c)).emb (ix2 i j))
    (by show (k0_off13 c) 0 + 1 * i.val = cx c * 1024 + ((1 - cy c) * 512 + i.val); rw [off13_eq c]
        show cx c * 1024 + (1 - cy c) * 512 + 1 * i.val = _; omega)
    (by show (k0_off13 c) 1 + 1 * j.val = 0 + j.val; rw [off13_eq c]; show 0 + 1 * j.val = 0 + j.val; omega)
  rw [e] at this
  exact this

/-- Group 0's second step from the value of the loaded rows and the landed piece's fact. -/
theorem val_rs0_1v (c : Dev nD)
    (fs : Buf (Elt Ideal) ((stgM0_0 : Memref sig .tc .vmem S1024x384 .bf16).view.loc (c : Thread nD τ))) (fl : Buf (Elt Ideal) ((commM0_0 : Memref sig .tc .vmem S1024x384 .bf16).view.loc (c : Thread nD τ)))
    (v252 : Vec Ideal S512x384 .f32)
    (h252 : ∀ (i : Fin 512) (j : Fin 384), (v252 (ix2 i j) : EReal) = share A B c.val (sendRow 0 1 c + i.val) (colLo 0 + j.val))
    (hl : (Vreal A B).rs0_0 (nbr 0 c) ((commM0_0 : Memref sig .tc .vmem S1024x384 .bf16).view.read (Elt Ideal) fl)) :
    (Vreal A B).rs0_1 c ((stgM0_1 : Memref sig .tc .vmem S512x384 .bf16).view.read (Elt Ideal)
      (View.write (Elt Ideal) ((Memref.whole cc0_scratch7 : Memref sig .tc .vmem S1024x384 .bf16).access (Rect.unit (s := S1024x384) ![0, 0] S512x384.size inb_S1024x384_S512x384_0_0)) fs
        (k0_pay19 (F := Ideal) ((Memref.whole cc0_scratch0 : Memref sig .tc .vmem S2048x2048 .f32).view.readCov [⟨(Rect.unit (s := S2048x2048) (k0_off13 c) S512x384.size (k0_off13_inb c)), k0_pay18 (F := Ideal) v252 (k0_pay17 (F := Ideal) (View.readAt (Elt Ideal) (Memref.whole cc0_scratch1 : Memref sig .tc .vmem S1792x384 .bf16).view (Rect.unit (s := S1792x384) (k0_off14 c) S512x384.size (k0_off14_inb c)).toLoadRect fl))⟩] (Rect.unit (s := S2048x2048) (k0_off13 c) S512x384.size (k0_off13_inb c)).toLoadRect)) Finset.univ)) := by
  intro r j
  refine (congrFun (View.read_write_univ _ _) (ix2 r j)).trans ?_
  unfold k0_pay19
  simp only [shapeCast_self]
  rw [View.readCov_cons_toLoadRect]
  unfold k0_pay18 k0_pay17
  simp only [shapeCast_self]
  have hi : (1 - cy c) * 512 + r.val < 1024 := by have := cy_le c; have := r.isLt; omega
  have h1 := h252 r j
  have h2 : (View.readAt (Elt Ideal) (Memref.whole cc0_scratch1 : Memref sig .tc .vmem S1792x384 .bf16).view (Rect.unit (s := S1792x384) (k0_off14 c) S512x384.size (k0_off14_inb c)).toLoadRect fl) (ix2 r j)
      = share A B (nb 0 0 c).val (sendRow 0 1 c + r.val) (colLo 0 + j.val) := by
    have hh := hl ⟨(1 - cy c) * 512 + r.val, hi⟩ j
    rw [View.readAt_eq_ld]
    have he : (Rect.unit (s := S1792x384) (k0_off14 c) S512x384.size (k0_off14_inb c)).emb (ix2 r j) = (Rect.unit (s := S1792x384) ![0, 0] S1024x384.size inb_S1792x384_S1024x384_0_0).emb (ix2 (⟨(1 - cy c) * 512 + r.val, hi⟩ : Fin 1024) j) := funext fun a => Fin.ext (by
      match a with
      | ⟨0, _⟩ => show (k0_off14 c) 0 + 1 * r.val = 0 + 1 * ((1 - cy c) * 512 + r.val); rw [off14_eq c]; show (1 - cy c) * 512 + 1 * r.val = _; omega
      | ⟨1, _⟩ => show (k0_off14 c) 1 + 1 * j.val = 0 + 1 * j.val; rw [off14_eq c]; rfl)
    show (Memref.whole cc0_scratch1 : Memref sig .tc .vmem S1792x384 .bf16).view.read (Elt Ideal) fl ((Rect.unit (s := S1792x384) (k0_off14 c) S512x384.size (k0_off14_inb c)).emb (ix2 r j)) = _
    rw [he]
    refine hh.trans ?_
    have e : sendRow 0 0 (nbr 0 c) + ((1 - cy c) * 512 + r.val) = sendRow 0 1 c + r.val := by
      show (1 - cx (nbr 0 c)) * 1024 + ((1 - cy c) * 512 + r.val) = cx c * 1024 + (1 - cy c) * 512 + r.val
      rw [cx_nbr0]; have := cx_le c; omega
    show share A B (nbr 0 c).val (sendRow 0 0 (nbr 0 c) + ((1 - cy c) * 512 + r.val)) (colLo 0 + j.val) = _
    rw [e]; rfl
  exact congrArg₂ (fun a b : EReal => a + b) h1 h2

/-- Group 1's second-step quarter as computed from the accumulator and the landed rows: its value. -/
theorem val_v322 (c : Dev nD) (fl : Buf (Elt Ideal) ((commM1_0 : Memref sig .tc .vmem S1024x384 .bf16).view.loc (c : Thread nD τ)))
    (g : Buf (Elt Ideal) ((Memref.whole cc0_scratch0 : Memref sig .tc .vmem S2048x2048 .f32).view.loc (c : Thread nD τ)))
    (hJ1 : J1 A B 1 384 c g)
    (hl : (Vreal A B).rs1_0 (nbr 1 c) ((commM1_0 : Memref sig .tc .vmem S1024x384 .bf16).view.read (Elt Ideal) fl))
    (fs : Buf (Elt Ideal) ((stgM1_0 : Memref sig .tc .vmem S1024x384 .bf16).view.loc (c : Thread nD τ))) :
    ∀ (r' : Fin 512) (j : Fin 384), ((k0_pay22 (F := Ideal) ((Memref.whole cc0_scratch0 : Memref sig .tc .vmem S2048x2048 .f32).view.readCov [⟨Rect.unit (s := S2048x2048) (k0_off17 c) S512x384.size (k0_off17_inb c), k0_pay21 (F := Ideal) (View.readAt (Elt Ideal) (Memref.whole cc0_scratch0 : Memref sig .tc .vmem S2048x2048 .f32).view (Rect.unit (s := S2048x2048) (k0_off17 c) S512x384.size (k0_off17_inb c)).toLoadRect g) (View.readAt (Elt Ideal) (Memref.whole cc0_scratch2 : Memref sig .tc .vmem S1792x384 .bf16).view (Rect.unit (s := S1792x384) (k0_off18 c) S512x384.size (k0_off18_inb c)).toLoadRect fl)⟩] (Rect.unit (s := S2048x2048) (k0_off17 c) S512x384.size (k0_off17_inb c)).toLoadRect)) (ix2 r' j) : EReal) = rsSpec A B 1 1 c r'.val j.val := by
  intro r' j
  have h := val_rs1_1 A B c fs fl g hJ1 hl r' j
  refine Eq.trans ?_ h
  symm
  exact congrFun (View.read_write_univ _ _) (ix2 r' j)

/-- Group 1's second step from the value of the quarter to stage. -/
theorem val_rs1_1v (c : Dev nD) (fs : Buf (Elt Ideal) ((stgM1_0 : Memref sig .tc .vmem S1024x384 .bf16).view.loc (c : Thread nD τ)))
    (v322 : FVec Ideal S512x384 .bf16)
    (h : ∀ (r' : Fin 512) (j : Fin 384), ((v322) (ix2 r' j) : EReal) = rsSpec A B 1 1 c r'.val j.val) :
    (Vreal A B).rs1_1 c ((stgM1_1 : Memref sig .tc .vmem S512x384 .bf16).view.read (Elt Ideal)
      (View.write (Elt Ideal) ((Memref.whole cc0_scratch8 : Memref sig .tc .vmem S1024x384 .bf16).access (Rect.unit (s := S1024x384) ![0, 0] S512x384.size inb_S1024x384_S512x384_0_0)) fs v322 Finset.univ)) := by
  intro r j
  refine (congrFun (View.read_write_univ _ _) (ix2 r j)).trans ?_
  exact h r j

set_option maxHeartbeats 1000000 in
include hagree in
theorem part3_real (c : Dev nD) (κs κr : ℕ)
    (W : Waits sig Unit)
    (v2 v8 v9 v58 : BitVec 32)
    (fa : Buf (Elt Ideal) ((Memref.whole cc0_stg0_0 : Memref sig .tc .vmem S2048x1024 .f32).view.loc (c : Thread nD τ)))
    (fb : Buf (Elt Ideal) ((Memref.whole cc0_stg1_0 : Memref sig .tc .vmem S1024x2048 .f32).view.loc (c : Thread nD τ)))
    (f11 : Buf (Elt Ideal) ((Memref.whole cc0_scratch8 : Memref sig .tc .vmem S1024x384 .bf16).view.loc (c : Thread nD τ)))
    (f12 : Buf (Elt Ideal) ((Memref.whole cc0_scratch9 : Memref sig .tc .vmem S1024x384 .bf16).view.loc (c : Thread nD τ)))
    (hea : fa = Astg m c) (heb : fb = Bstg m c) :
    iprop((cellInv ER (sched (Vreal A B)) κs (cell c (.rsS 1 0))
        ∗ cellInv ER (sched (Vreal A B)) κr (cell (nbr 1 c) (.rsR 1 0))
        ∗ reached ER (cell c (.rsS 1 0)) 0
        ∗ reached ER (cell (nbr 1 c) (.rsR 1 0)) 0
        ∗ dutyTok ER (cell c (.rsS 1 0)) 0 (0 : Fin 3)
        ∗ dutyTok ER (cell (nbr 1 c) (.rsR 1 0)) 0 (0 : Fin 3)
        ∗ ptsAny (F := Ideal) (nbr 1 c) commM1_0
        ∗ owes (c : Thread nD τ) (Owe c 4) W
        ∗ heldW c (Memref.whole cc0_stg0_0 : Memref sig .tc .vmem S2048x1024 .f32) fa
        ∗ heldW c (Memref.whole cc0_stg1_0 : Memref sig .tc .vmem S1024x2048 .f32) fb
        ∗ heldW c (Memref.whole cc0_scratch8 : Memref sig .tc .vmem S1024x384 .bf16) f11
        ∗ heldW c (Memref.whole cc0_scratch9 : Memref sig .tc .vmem S1024x384 .bf16) f12)
        ∗ ⌜(Vreal A B).rs1_0 c ((stgM1_0 : Memref sig .tc .vmem S1024x384 .bf16).view.read (Elt Ideal) f11)⌝)
      ⊢ wp frame (wpE (defs₀ (F := Ideal)) 𝒱₀ c none) Set.univ
          (k0_part3 (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23 c v2 v8 v9 v58)
          (fun r => iprop((⌜r = ⟨Scalar.muli v8 1024#32, Scalar.xori v2 4#32⟩⌝
            ∗ cred (tallyAt (cell c (.rsS 1 0)) () (amt (.rsR 1 0)))
            ∗ owes (c : Thread nD τ) (Owe c 5) W
            ∗ heldW c (Memref.whole cc0_stg0_0 : Memref sig .tc .vmem S2048x1024 .f32) fa
            ∗ heldW c (Memref.whole cc0_stg1_0 : Memref sig .tc .vmem S1024x2048 .f32) fb
            ∗ heldW c (Memref.whole cc0_scratch9 : Memref sig .tc .vmem S1024x384 .bf16) ((Memref.whole cc0_scratch9 : Memref sig .tc .vmem S1024x384 .bf16).view.writes (Elt Ideal) f12 [⟨Rect.unit (s := S1024x384) ![0, 0] S1024x384.size inb_S1024x384_S1024x384_0_0, k0_pay5 (F := Ideal) (View.readAt (Elt Ideal) (Memref.whole cc0_stg0_0 : Memref sig .tc .vmem S2048x1024 .f32).view (Rect.unit (s := S2048x1024) (k0_off3 c) S1024x1024.size (k0_off3_inb c)).toLoadRect fa) (View.readAt (Elt Ideal) (Memref.whole cc0_stg1_0 : Memref sig .tc .vmem S1024x2048 .f32).view (Rect.unit (s := S1024x2048) ![0, 768] S1024x384.size inb_S1024x2048_S1024x384_0_768).toLoadRect fb)⟩]))
            ∗ ⌜(Vreal A B).rs2_0 c ((stgM2_0 : Memref sig .tc .vmem S1024x384 .bf16).view.read (Elt Ideal) ((Memref.whole cc0_scratch9 : Memref sig .tc .vmem S1024x384 .bf16).view.writes (Elt Ideal) f12 [⟨Rect.unit (s := S1024x384) ![0, 0] S1024x384.size inb_S1024x384_S1024x384_0_0, k0_pay5 (F := Ideal) (View.readAt (Elt Ideal) (Memref.whole cc0_stg0_0 : Memref sig .tc .vmem S2048x1024 .f32).view (Rect.unit (s := S2048x1024) (k0_off3 c) S1024x1024.size (k0_off3_inb c)).toLoadRect fa) (View.readAt (Elt Ideal) (Memref.whole cc0_stg1_0 : Memref sig .tc .vmem S1024x2048 .f32).view (Rect.unit (s := S1024x2048) ![0, 768] S1024x384.size inb_S1024x2048_S1024x384_0_768).toLoadRect fb)⟩]))⌝)) := by
  iintro ⟨Hpre, %hin0⟩
  have hpost : ∀ r : (Σ' (v67 : BitVec 32), BitVec 32), iprop(⌜r = ⟨Scalar.muli v8 1024#32, Scalar.xori v2 4#32⟩⌝
            ∗ cred (tallyAt (cell c (.rsS 1 0)) () (amt (.rsR 1 0)))
            ∗ owes (c : Thread nD τ) (Owe c 5) W
            ∗ heldW c (Memref.whole cc0_stg0_0 : Memref sig .tc .vmem S2048x1024 .f32) fa
            ∗ heldW c (Memref.whole cc0_stg1_0 : Memref sig .tc .vmem S1024x2048 .f32) fb
            ∗ heldW c (Memref.whole cc0_scratch9 : Memref sig .tc .vmem S1024x384 .bf16) ((Memref.whole cc0_scratch9 : Memref sig .tc .vmem S1024x384 .bf16).view.writes (Elt Ideal) f12 [⟨Rect.unit (s := S1024x384) ![0, 0] S1024x384.size inb_S1024x384_S1024x384_0_0, k0_pay5 (F := Ideal) (View.readAt (Elt Ideal) (Memref.whole cc0_stg0_0 : Memref sig .tc .vmem S2048x1024 .f32).view (Rect.unit (s := S2048x1024) (k0_off3 c) S1024x1024.size (k0_off3_inb c)).toLoadRect fa) (View.readAt (Elt Ideal) (Memref.whole cc0_stg1_0 : Memref sig .tc .vmem S1024x2048 .f32).view (Rect.unit (s := S1024x2048) ![0, 768] S1024x384.size inb_S1024x2048_S1024x384_0_768).toLoadRect fb)⟩])) ⊢ iprop((⌜r = ⟨Scalar.muli v8 1024#32, Scalar.xori v2 4#32⟩⌝
            ∗ cred (tallyAt (cell c (.rsS 1 0)) () (amt (.rsR 1 0)))
            ∗ owes (c : Thread nD τ) (Owe c 5) W
            ∗ heldW c (Memref.whole cc0_stg0_0 : Memref sig .tc .vmem S2048x1024 .f32) fa
            ∗ heldW c (Memref.whole cc0_stg1_0 : Memref sig .tc .vmem S1024x2048 .f32) fb
            ∗ heldW c (Memref.whole cc0_scratch9 : Memref sig .tc .vmem S1024x384 .bf16) ((Memref.whole cc0_scratch9 : Memref sig .tc .vmem S1024x384 .bf16).view.writes (Elt Ideal) f12 [⟨Rect.unit (s := S1024x384) ![0, 0] S1024x384.size inb_S1024x384_S1024x384_0_0, k0_pay5 (F := Ideal) (View.readAt (Elt Ideal) (Memref.whole cc0_stg0_0 : Memref sig .tc .vmem S2048x1024 .f32).view (Rect.unit (s := S2048x1024) (k0_off3 c) S1024x1024.size (k0_off3_inb c)).toLoadRect fa) (View.readAt (Elt Ideal) (Memref.whole cc0_stg1_0 : Memref sig .tc .vmem S1024x2048 .f32).view (Rect.unit (s := S1024x2048) ![0, 768] S1024x384.size inb_S1024x2048_S1024x384_0_768).toLoadRect fb)⟩]))
            ∗ ⌜(Vreal A B).rs2_0 c ((stgM2_0 : Memref sig .tc .vmem S1024x384 .bf16).view.read (Elt Ideal) ((Memref.whole cc0_scratch9 : Memref sig .tc .vmem S1024x384 .bf16).view.writes (Elt Ideal) f12 [⟨Rect.unit (s := S1024x384) ![0, 0] S1024x384.size inb_S1024x384_S1024x384_0_0, k0_pay5 (F := Ideal) (View.readAt (Elt Ideal) (Memref.whole cc0_stg0_0 : Memref sig .tc .vmem S2048x1024 .f32).view (Rect.unit (s := S2048x1024) (k0_off3 c) S1024x1024.size (k0_off3_inb c)).toLoadRect fa) (View.readAt (Elt Ideal) (Memref.whole cc0_stg1_0 : Memref sig .tc .vmem S1024x2048 .f32).view (Rect.unit (s := S1024x2048) ![0, 768] S1024x384.size inb_S1024x2048_S1024x384_0_768).toLoadRect fb)⟩]))⌝) := fun r => by
    iintro H
    isplitl [H]; · iexact H
    ipureintro; exact (by subst hea; subst heb; exact val_rs2_0 A B m hagree c f12)
  iapply (wp_mono frame (wpE (defs₀ (F := Ideal)) 𝒱₀ c none) Set.univ (fun r => hpost r))
  iapply (part3_run (Vreal A B) c κs κr W v2 v8 v9 v58 fa fb f11 f12 (by subst hea; subst heb; exact hin0))
  iexact Hpre

set_option maxHeartbeats 1000000 in
include hagree in
theorem part4_real (c : Dev nD) (κs2 κr2 κs3 κr3 : ℕ)
    (W : Waits sig Unit)
    (v2 v6 v8 v9 : BitVec 32)
    (fa : Buf (Elt Ideal) ((Memref.whole cc0_stg0_0 : Memref sig .tc .vmem S2048x1024 .f32).view.loc (c : Thread nD τ)))
    (fb : Buf (Elt Ideal) ((Memref.whole cc0_stg1_0 : Memref sig .tc .vmem S1024x2048 .f32).view.loc (c : Thread nD τ)))
    (f12 : Buf (Elt Ideal) ((Memref.whole cc0_scratch9 : Memref sig .tc .vmem S1024x384 .bf16).view.loc (c : Thread nD τ)))
    (f13 : Buf (Elt Ideal) ((Memref.whole cc0_scratch10 : Memref sig .tc .vmem S1024x384 .bf16).view.loc (c : Thread nD τ)))
    (hea : fa = Astg m c) (heb : fb = Bstg m c) :
    iprop((cellInv ER (sched (Vreal A B)) κs2 (cell c (.rsS 2 0))
        ∗ cellInv ER (sched (Vreal A B)) κr2 (cell (nbr 2 c) (.rsR 2 0))
        ∗ reached ER (cell c (.rsS 2 0)) 0
        ∗ reached ER (cell (nbr 2 c) (.rsR 2 0)) 0
        ∗ cellInv ER (sched (Vreal A B)) κs3 (cell c (.rsS 3 0))
        ∗ cellInv ER (sched (Vreal A B)) κr3 (cell (nbr 0 c) (.rsR 3 0))
        ∗ reached ER (cell c (.rsS 3 0)) 0
        ∗ reached ER (cell (nbr 0 c) (.rsR 3 0)) 0
        ∗ dutyTok ER (cell c (.rsS 2 0)) 0 (0 : Fin 3)
        ∗ dutyTok ER (cell (nbr 2 c) (.rsR 2 0)) 0 (0 : Fin 3)
        ∗ ptsAny (F := Ideal) (nbr 2 c) commM2_0
        ∗ dutyTok ER (cell c (.rsS 3 0)) 0 (0 : Fin 3)
        ∗ dutyTok ER (cell (nbr 0 c) (.rsR 3 0)) 0 (0 : Fin 3)
        ∗ ptsAny (F := Ideal) (nbr 0 c) commM3_0
        ∗ owes (c : Thread nD τ) (Owe c 5) W
        ∗ heldW c (Memref.whole cc0_stg0_0 : Memref sig .tc .vmem S2048x1024 .f32) fa
        ∗ heldW c (Memref.whole cc0_stg1_0 : Memref sig .tc .vmem S1024x2048 .f32) fb
        ∗ heldW c (Memref.whole cc0_scratch9 : Memref sig .tc .vmem S1024x384 .bf16) f12
        ∗ heldW c (Memref.whole cc0_scratch10 : Memref sig .tc .vmem S1024x384 .bf16) f13)
        ∗ ⌜(Vreal A B).rs2_0 c ((stgM2_0 : Memref sig .tc .vmem S1024x384 .bf16).view.read (Elt Ideal) f12)⌝)
      ⊢ wp frame (wpE (defs₀ (F := Ideal)) 𝒱₀ c none) Set.univ
          (k0_part4 (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23 c v2 v6 v8 v9)
          (fun r => iprop(⌜r = ⟨Scalar.muli v9 1024#32, Scalar.xori v2 1#32, Scalar.muli v6 1024#32, k0_pay7 (F := Ideal) (View.readAt (Elt Ideal) (Memref.whole cc0_stg0_0 : Memref sig .tc .vmem S2048x1024 .f32).view (Rect.unit (s := S2048x1024) (k0_off2 c) S1024x1024.size (k0_off2_inb c)).toLoadRect fa)⟩⌝
            ∗ cred (tallyAt (cell c (.rsS 2 0)) () (amt (.rsR 2 0)))
            ∗ cred (tallyAt (cell c (.rsS 3 0)) () (amt (.rsR 3 0)))
            ∗ owes (c : Thread nD τ) (Owe c 7) W
            ∗ heldW c (Memref.whole cc0_stg0_0 : Memref sig .tc .vmem S2048x1024 .f32) fa
            ∗ heldW c (Memref.whole cc0_stg1_0 : Memref sig .tc .vmem S1024x2048 .f32) fb)) := by
  iintro ⟨Hpre, %hin0⟩
  iapply (part4_run (Vreal A B) c κs2 κr2 κs3 κr3 W v2 v6 v8 v9 fa fb f12 f13 (by subst hea; subst heb; exact hin0) (by subst hea; subst heb; exact val_rs3_0 A B m hagree c f13))
  iexact Hpre

set_option maxHeartbeats 1000000 in
include hagree in
theorem part5_real (c : Dev nD) (κs κr : ℕ)
    (W : Waits sig Unit)
    (v2 v8 v9 : BitVec 32)
    (v121 : FVec Ideal S1024x1024 .bf16)
    (fa : Buf (Elt Ideal) ((Memref.whole cc0_stg0_0 : Memref sig .tc .vmem S2048x1024 .f32).view.loc (c : Thread nD τ)))
    (fb : Buf (Elt Ideal) ((Memref.whole cc0_stg1_0 : Memref sig .tc .vmem S1024x2048 .f32).view.loc (c : Thread nD τ)))
    (f14 : Buf (Elt Ideal) ((Memref.whole cc0_scratch11 : Memref sig .tc .vmem S1024x256 .bf16).view.loc (c : Thread nD τ)))
    (f15 : Buf (Elt Ideal) ((Memref.whole cc0_scratch12 : Memref sig .tc .vmem S1024x256 .bf16).view.loc (c : Thread nD τ)))
    (hea : fa = Astg m c) (heb : fb = Bstg m c) (he_v121 : v121 = k0_pay7 (F := Ideal) (View.readAt (Elt Ideal) (Memref.whole cc0_stg0_0 : Memref sig .tc .vmem S2048x1024 .f32).view (Rect.unit (s := S2048x1024) (k0_off2 c) S1024x1024.size (k0_off2_inb c)).toLoadRect fa)) :
    iprop((cellInv ER (sched (Vreal A B)) κs (cell c (.rsS 4 0))
        ∗ cellInv ER (sched (Vreal A B)) κr (cell (nbr 1 c) (.rsR 4 0))
        ∗ reached ER (cell c (.rsS 4 0)) 0
        ∗ reached ER (cell (nbr 1 c) (.rsR 4 0)) 0
        ∗ dutyTok ER (cell c (.rsS 4 0)) 0 (0 : Fin 3)
        ∗ dutyTok ER (cell (nbr 1 c) (.rsR 4 0)) 0 (0 : Fin 3)
        ∗ ptsAny (F := Ideal) (nbr 1 c) commM4_0
        ∗ owes (c : Thread nD τ) (Owe c 7) W
        ∗ heldW c (Memref.whole cc0_stg0_0 : Memref sig .tc .vmem S2048x1024 .f32) fa
        ∗ heldW c (Memref.whole cc0_stg1_0 : Memref sig .tc .vmem S1024x2048 .f32) fb
        ∗ heldW c (Memref.whole cc0_scratch11 : Memref sig .tc .vmem S1024x256 .bf16) f14
        ∗ heldW c (Memref.whole cc0_scratch12 : Memref sig .tc .vmem S1024x256 .bf16) f15))
      ⊢ wp frame (wpE (defs₀ (F := Ideal)) 𝒱₀ c none) Set.univ
          (k0_part5 (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23 c v2 v8 v9 v121)
          (fun r => iprop((⌜r = ⟨Scalar.xori v2 3#32, Scalar.muli v8 1024#32⟩⌝
            ∗ cred (tallyAt (cell c (.rsS 4 0)) () (amt (.rsR 4 0)))
            ∗ owes (c : Thread nD τ) (Owe c 8) W
            ∗ heldW c (Memref.whole cc0_stg0_0 : Memref sig .tc .vmem S2048x1024 .f32) fa
            ∗ heldW c (Memref.whole cc0_stg1_0 : Memref sig .tc .vmem S1024x2048 .f32) fb
            ∗ heldW c (Memref.whole cc0_scratch12 : Memref sig .tc .vmem S1024x256 .bf16) ((Memref.whole cc0_scratch12 : Memref sig .tc .vmem S1024x256 .bf16).view.writes (Elt Ideal) f15 [⟨Rect.unit (s := S1024x256) ![0, 0] S1024x256.size inb_S1024x256_S1024x256_0_0, k0_pay9 (F := Ideal) (View.readAt (Elt Ideal) (Memref.whole cc0_stg0_0 : Memref sig .tc .vmem S2048x1024 .f32).view (Rect.unit (s := S2048x1024) (k0_off3 c) S1024x1024.size (k0_off3_inb c)).toLoadRect fa) (View.readAt (Elt Ideal) (Memref.whole cc0_stg1_0 : Memref sig .tc .vmem S1024x2048 .f32).view (Rect.unit (s := S1024x2048) ![0, 1792] S1024x256.size inb_S1024x2048_S1024x256_0_1792).toLoadRect fb)⟩]))
            ∗ ⌜(Vreal A B).rs5_0 c ((stgM5_0 : Memref sig .tc .vmem S1024x256 .bf16).view.read (Elt Ideal) ((Memref.whole cc0_scratch12 : Memref sig .tc .vmem S1024x256 .bf16).view.writes (Elt Ideal) f15 [⟨Rect.unit (s := S1024x256) ![0, 0] S1024x256.size inb_S1024x256_S1024x256_0_0, k0_pay9 (F := Ideal) (View.readAt (Elt Ideal) (Memref.whole cc0_stg0_0 : Memref sig .tc .vmem S2048x1024 .f32).view (Rect.unit (s := S2048x1024) (k0_off3 c) S1024x1024.size (k0_off3_inb c)).toLoadRect fa) (View.readAt (Elt Ideal) (Memref.whole cc0_stg1_0 : Memref sig .tc .vmem S1024x2048 .f32).view (Rect.unit (s := S1024x2048) ![0, 1792] S1024x256.size inb_S1024x2048_S1024x256_0_1792).toLoadRect fb)⟩]))⌝)) := by
  iintro ⟨Hpre⟩
  have hpost : ∀ r : (Σ' (v130 : BitVec 32), BitVec 32), iprop(⌜r = ⟨Scalar.xori v2 3#32, Scalar.muli v8 1024#32⟩⌝
            ∗ cred (tallyAt (cell c (.rsS 4 0)) () (amt (.rsR 4 0)))
            ∗ owes (c : Thread nD τ) (Owe c 8) W
            ∗ heldW c (Memref.whole cc0_stg0_0 : Memref sig .tc .vmem S2048x1024 .f32) fa
            ∗ heldW c (Memref.whole cc0_stg1_0 : Memref sig .tc .vmem S1024x2048 .f32) fb
            ∗ heldW c (Memref.whole cc0_scratch12 : Memref sig .tc .vmem S1024x256 .bf16) ((Memref.whole cc0_scratch12 : Memref sig .tc .vmem S1024x256 .bf16).view.writes (Elt Ideal) f15 [⟨Rect.unit (s := S1024x256) ![0, 0] S1024x256.size inb_S1024x256_S1024x256_0_0, k0_pay9 (F := Ideal) (View.readAt (Elt Ideal) (Memref.whole cc0_stg0_0 : Memref sig .tc .vmem S2048x1024 .f32).view (Rect.unit (s := S2048x1024) (k0_off3 c) S1024x1024.size (k0_off3_inb c)).toLoadRect fa) (View.readAt (Elt Ideal) (Memref.whole cc0_stg1_0 : Memref sig .tc .vmem S1024x2048 .f32).view (Rect.unit (s := S1024x2048) ![0, 1792] S1024x256.size inb_S1024x2048_S1024x256_0_1792).toLoadRect fb)⟩])) ⊢ iprop((⌜r = ⟨Scalar.xori v2 3#32, Scalar.muli v8 1024#32⟩⌝
            ∗ cred (tallyAt (cell c (.rsS 4 0)) () (amt (.rsR 4 0)))
            ∗ owes (c : Thread nD τ) (Owe c 8) W
            ∗ heldW c (Memref.whole cc0_stg0_0 : Memref sig .tc .vmem S2048x1024 .f32) fa
            ∗ heldW c (Memref.whole cc0_stg1_0 : Memref sig .tc .vmem S1024x2048 .f32) fb
            ∗ heldW c (Memref.whole cc0_scratch12 : Memref sig .tc .vmem S1024x256 .bf16) ((Memref.whole cc0_scratch12 : Memref sig .tc .vmem S1024x256 .bf16).view.writes (Elt Ideal) f15 [⟨Rect.unit (s := S1024x256) ![0, 0] S1024x256.size inb_S1024x256_S1024x256_0_0, k0_pay9 (F := Ideal) (View.readAt (Elt Ideal) (Memref.whole cc0_stg0_0 : Memref sig .tc .vmem S2048x1024 .f32).view (Rect.unit (s := S2048x1024) (k0_off3 c) S1024x1024.size (k0_off3_inb c)).toLoadRect fa) (View.readAt (Elt Ideal) (Memref.whole cc0_stg1_0 : Memref sig .tc .vmem S1024x2048 .f32).view (Rect.unit (s := S1024x2048) ![0, 1792] S1024x256.size inb_S1024x2048_S1024x256_0_1792).toLoadRect fb)⟩]))
            ∗ ⌜(Vreal A B).rs5_0 c ((stgM5_0 : Memref sig .tc .vmem S1024x256 .bf16).view.read (Elt Ideal) ((Memref.whole cc0_scratch12 : Memref sig .tc .vmem S1024x256 .bf16).view.writes (Elt Ideal) f15 [⟨Rect.unit (s := S1024x256) ![0, 0] S1024x256.size inb_S1024x256_S1024x256_0_0, k0_pay9 (F := Ideal) (View.readAt (Elt Ideal) (Memref.whole cc0_stg0_0 : Memref sig .tc .vmem S2048x1024 .f32).view (Rect.unit (s := S2048x1024) (k0_off3 c) S1024x1024.size (k0_off3_inb c)).toLoadRect fa) (View.readAt (Elt Ideal) (Memref.whole cc0_stg1_0 : Memref sig .tc .vmem S1024x2048 .f32).view (Rect.unit (s := S1024x2048) ![0, 1792] S1024x256.size inb_S1024x2048_S1024x256_0_1792).toLoadRect fb)⟩]))⌝) := fun r => by
    iintro H
    isplitl [H]; · iexact H
    ipureintro; exact (by subst hea; subst heb; subst he_v121; exact val_rs5_0 A B m hagree c f15)
  iapply (wp_mono frame (wpE (defs₀ (F := Ideal)) 𝒱₀ c none) Set.univ (fun r => hpost r))
  iapply (part5_run (Vreal A B) c κs κr W v2 v8 v9 v121 fa fb f14 f15 (by subst hea; subst heb; subst he_v121; exact val_rs4_0 A B m hagree c f14))
  iexact Hpre

set_option maxHeartbeats 1000000 in
include hagree in
theorem part6_real (c : Dev nD) (κs κr : ℕ)
    (W : Waits sig Unit)
    (v2 v9 v43 v67 v91 : BitVec 32)
    (fa : Buf (Elt Ideal) ((Memref.whole cc0_stg0_0 : Memref sig .tc .vmem S2048x1024 .f32).view.loc (c : Thread nD τ)))
    (fb : Buf (Elt Ideal) ((Memref.whole cc0_stg1_0 : Memref sig .tc .vmem S1024x2048 .f32).view.loc (c : Thread nD τ)))
    (f15 : Buf (Elt Ideal) ((Memref.whole cc0_scratch12 : Memref sig .tc .vmem S1024x256 .bf16).view.loc (c : Thread nD τ)))
    (f3 : Buf (Elt Ideal) ((Memref.whole cc0_scratch0 : Memref sig .tc .vmem S2048x2048 .f32).view.loc (c : Thread nD τ)))
    (hea : fa = Astg m c) (heb : fb = Bstg m c) :
    iprop((cellInv ER (sched (Vreal A B)) κs (cell c (.rsS 5 0))
        ∗ cellInv ER (sched (Vreal A B)) κr (cell (nbr 2 c) (.rsR 5 0))
        ∗ reached ER (cell c (.rsS 5 0)) 0
        ∗ reached ER (cell (nbr 2 c) (.rsR 5 0)) 0
        ∗ dutyTok ER (cell c (.rsS 5 0)) 0 (0 : Fin 3)
        ∗ dutyTok ER (cell (nbr 2 c) (.rsR 5 0)) 0 (0 : Fin 3)
        ∗ ptsAny (F := Ideal) (nbr 2 c) commM5_0
        ∗ owes (c : Thread nD τ) (Owe c 8) W
        ∗ heldW c (Memref.whole cc0_stg0_0 : Memref sig .tc .vmem S2048x1024 .f32) fa
        ∗ heldW c (Memref.whole cc0_stg1_0 : Memref sig .tc .vmem S1024x2048 .f32) fb
        ∗ heldW c (Memref.whole cc0_scratch12 : Memref sig .tc .vmem S1024x256 .bf16) f15
        ∗ heldW c (Memref.whole cc0_scratch0 : Memref sig .tc .vmem S2048x2048 .f32) f3)
        ∗ ⌜(Vreal A B).rs5_0 c ((stgM5_0 : Memref sig .tc .vmem S1024x256 .bf16).view.read (Elt Ideal) f15)⌝)
      ⊢ wp frame (wpE (defs₀ (F := Ideal)) 𝒱₀ c none) Set.univ
          (k0_part6 (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23 c v2 v9 v43 v67 v91)
          (fun r => iprop((⌜r = ⟨Scalar.xori v2 4#32, Scalar.muli v9 1024#32⟩⌝
            ∗ cred (tallyAt (cell c (.rsS 5 0)) () (amt (.rsR 5 0)))
            ∗ owes (c : Thread nD τ) (Owe c 9) W
            ∗ heldW c (Memref.whole cc0_stg0_0 : Memref sig .tc .vmem S2048x1024 .f32) fa
            ∗ heldW c (Memref.whole cc0_stg1_0 : Memref sig .tc .vmem S1024x2048 .f32) fb
            ∗ heldW c (Memref.whole cc0_scratch0 : Memref sig .tc .vmem S2048x2048 .f32) ((Memref.whole cc0_scratch0 : Memref sig .tc .vmem S2048x2048 .f32).view.writes (Elt Ideal) f3
              [⟨Rect.unit (s := S2048x2048) (k0_off7 c) S1024x384.size (k0_off7_inb c), k0_pay11 (F := Ideal) (View.readAt (Elt Ideal) (Memref.whole cc0_stg0_0 : Memref sig .tc .vmem S2048x1024 .f32).view (Rect.unit (s := S2048x1024) (k0_off6 c) S1024x1024.size (k0_off6_inb c)).toLoadRect fa) (View.readAt (Elt Ideal) (Memref.whole cc0_stg1_0 : Memref sig .tc .vmem S1024x2048 .f32).view (Rect.unit (s := S1024x2048) ![0, 384] S1024x384.size inb_S1024x2048_S1024x384_0_384).toLoadRect fb)⟩,
               ⟨Rect.unit (s := S2048x2048) (k0_off5 c) S1024x384.size (k0_off5_inb c), k0_pay10 (F := Ideal) (View.readAt (Elt Ideal) (Memref.whole cc0_stg0_0 : Memref sig .tc .vmem S2048x1024 .f32).view (Rect.unit (s := S2048x1024) (k0_off4 c) S1024x1024.size (k0_off4_inb c)).toLoadRect fa) (View.readAt (Elt Ideal) (Memref.whole cc0_stg1_0 : Memref sig .tc .vmem S1024x2048 .f32).view (Rect.unit (s := S1024x2048) ![0, 0] S1024x384.size inb_S1024x2048_S1024x384_0_0).toLoadRect fb)⟩]))
            ∗ ⌜AccInv A B c ![1, 1, 0, 0, 0, 0] ((Memref.whole cc0_scratch0 : Memref sig .tc .vmem S2048x2048 .f32).view.writes (Elt Ideal) f3
              [⟨Rect.unit (s := S2048x2048) (k0_off7 c) S1024x384.size (k0_off7_inb c), k0_pay11 (F := Ideal) (View.readAt (Elt Ideal) (Memref.whole cc0_stg0_0 : Memref sig .tc .vmem S2048x1024 .f32).view (Rect.unit (s := S2048x1024) (k0_off6 c) S1024x1024.size (k0_off6_inb c)).toLoadRect fa) (View.readAt (Elt Ideal) (Memref.whole cc0_stg1_0 : Memref sig .tc .vmem S1024x2048 .f32).view (Rect.unit (s := S1024x2048) ![0, 384] S1024x384.size inb_S1024x2048_S1024x384_0_384).toLoadRect fb)⟩,
               ⟨Rect.unit (s := S2048x2048) (k0_off5 c) S1024x384.size (k0_off5_inb c), k0_pay10 (F := Ideal) (View.readAt (Elt Ideal) (Memref.whole cc0_stg0_0 : Memref sig .tc .vmem S2048x1024 .f32).view (Rect.unit (s := S2048x1024) (k0_off4 c) S1024x1024.size (k0_off4_inb c)).toLoadRect fa) (View.readAt (Elt Ideal) (Memref.whole cc0_stg1_0 : Memref sig .tc .vmem S1024x2048 .f32).view (Rect.unit (s := S1024x2048) ![0, 0] S1024x384.size inb_S1024x2048_S1024x384_0_0).toLoadRect fb)⟩])⌝)) := by
  iintro ⟨Hpre, %hin0⟩
  have hpost : ∀ r : (Σ' (v154 : BitVec 32), BitVec 32), iprop(⌜r = ⟨Scalar.xori v2 4#32, Scalar.muli v9 1024#32⟩⌝
            ∗ cred (tallyAt (cell c (.rsS 5 0)) () (amt (.rsR 5 0)))
            ∗ owes (c : Thread nD τ) (Owe c 9) W
            ∗ heldW c (Memref.whole cc0_stg0_0 : Memref sig .tc .vmem S2048x1024 .f32) fa
            ∗ heldW c (Memref.whole cc0_stg1_0 : Memref sig .tc .vmem S1024x2048 .f32) fb
            ∗ heldW c (Memref.whole cc0_scratch0 : Memref sig .tc .vmem S2048x2048 .f32) ((Memref.whole cc0_scratch0 : Memref sig .tc .vmem S2048x2048 .f32).view.writes (Elt Ideal) f3
              [⟨Rect.unit (s := S2048x2048) (k0_off7 c) S1024x384.size (k0_off7_inb c), k0_pay11 (F := Ideal) (View.readAt (Elt Ideal) (Memref.whole cc0_stg0_0 : Memref sig .tc .vmem S2048x1024 .f32).view (Rect.unit (s := S2048x1024) (k0_off6 c) S1024x1024.size (k0_off6_inb c)).toLoadRect fa) (View.readAt (Elt Ideal) (Memref.whole cc0_stg1_0 : Memref sig .tc .vmem S1024x2048 .f32).view (Rect.unit (s := S1024x2048) ![0, 384] S1024x384.size inb_S1024x2048_S1024x384_0_384).toLoadRect fb)⟩,
               ⟨Rect.unit (s := S2048x2048) (k0_off5 c) S1024x384.size (k0_off5_inb c), k0_pay10 (F := Ideal) (View.readAt (Elt Ideal) (Memref.whole cc0_stg0_0 : Memref sig .tc .vmem S2048x1024 .f32).view (Rect.unit (s := S2048x1024) (k0_off4 c) S1024x1024.size (k0_off4_inb c)).toLoadRect fa) (View.readAt (Elt Ideal) (Memref.whole cc0_stg1_0 : Memref sig .tc .vmem S1024x2048 .f32).view (Rect.unit (s := S1024x2048) ![0, 0] S1024x384.size inb_S1024x2048_S1024x384_0_0).toLoadRect fb)⟩])) ⊢ iprop((⌜r = ⟨Scalar.xori v2 4#32, Scalar.muli v9 1024#32⟩⌝
            ∗ cred (tallyAt (cell c (.rsS 5 0)) () (amt (.rsR 5 0)))
            ∗ owes (c : Thread nD τ) (Owe c 9) W
            ∗ heldW c (Memref.whole cc0_stg0_0 : Memref sig .tc .vmem S2048x1024 .f32) fa
            ∗ heldW c (Memref.whole cc0_stg1_0 : Memref sig .tc .vmem S1024x2048 .f32) fb
            ∗ heldW c (Memref.whole cc0_scratch0 : Memref sig .tc .vmem S2048x2048 .f32) ((Memref.whole cc0_scratch0 : Memref sig .tc .vmem S2048x2048 .f32).view.writes (Elt Ideal) f3
              [⟨Rect.unit (s := S2048x2048) (k0_off7 c) S1024x384.size (k0_off7_inb c), k0_pay11 (F := Ideal) (View.readAt (Elt Ideal) (Memref.whole cc0_stg0_0 : Memref sig .tc .vmem S2048x1024 .f32).view (Rect.unit (s := S2048x1024) (k0_off6 c) S1024x1024.size (k0_off6_inb c)).toLoadRect fa) (View.readAt (Elt Ideal) (Memref.whole cc0_stg1_0 : Memref sig .tc .vmem S1024x2048 .f32).view (Rect.unit (s := S1024x2048) ![0, 384] S1024x384.size inb_S1024x2048_S1024x384_0_384).toLoadRect fb)⟩,
               ⟨Rect.unit (s := S2048x2048) (k0_off5 c) S1024x384.size (k0_off5_inb c), k0_pay10 (F := Ideal) (View.readAt (Elt Ideal) (Memref.whole cc0_stg0_0 : Memref sig .tc .vmem S2048x1024 .f32).view (Rect.unit (s := S2048x1024) (k0_off4 c) S1024x1024.size (k0_off4_inb c)).toLoadRect fa) (View.readAt (Elt Ideal) (Memref.whole cc0_stg1_0 : Memref sig .tc .vmem S1024x2048 .f32).view (Rect.unit (s := S1024x2048) ![0, 0] S1024x384.size inb_S1024x2048_S1024x384_0_0).toLoadRect fb)⟩]))
            ∗ ⌜AccInv A B c ![1, 1, 0, 0, 0, 0] ((Memref.whole cc0_scratch0 : Memref sig .tc .vmem S2048x2048 .f32).view.writes (Elt Ideal) f3
              [⟨Rect.unit (s := S2048x2048) (k0_off7 c) S1024x384.size (k0_off7_inb c), k0_pay11 (F := Ideal) (View.readAt (Elt Ideal) (Memref.whole cc0_stg0_0 : Memref sig .tc .vmem S2048x1024 .f32).view (Rect.unit (s := S2048x1024) (k0_off6 c) S1024x1024.size (k0_off6_inb c)).toLoadRect fa) (View.readAt (Elt Ideal) (Memref.whole cc0_stg1_0 : Memref sig .tc .vmem S1024x2048 .f32).view (Rect.unit (s := S1024x2048) ![0, 384] S1024x384.size inb_S1024x2048_S1024x384_0_384).toLoadRect fb)⟩,
               ⟨Rect.unit (s := S2048x2048) (k0_off5 c) S1024x384.size (k0_off5_inb c), k0_pay10 (F := Ideal) (View.readAt (Elt Ideal) (Memref.whole cc0_stg0_0 : Memref sig .tc .vmem S2048x1024 .f32).view (Rect.unit (s := S2048x1024) (k0_off4 c) S1024x1024.size (k0_off4_inb c)).toLoadRect fa) (View.readAt (Elt Ideal) (Memref.whole cc0_stg1_0 : Memref sig .tc .vmem S1024x2048 .f32).view (Rect.unit (s := S1024x2048) ![0, 0] S1024x384.size inb_S1024x2048_S1024x384_0_0).toLoadRect fb)⟩])⌝) := fun r => by
    iintro H
    isplitl [H]; · iexact H
    ipureintro; exact (by subst hea; subst heb; exact AccInv.mk6 (J1_0_stored A B m hagree c f3) (J1_1_stored A B m hagree c f3) LJ_zero LJ_zero LJ_zero LJ_zero)
  iapply (wp_mono frame (wpE (defs₀ (F := Ideal)) 𝒱₀ c none) Set.univ (fun r => hpost r))
  iapply (part6_run (Vreal A B) c κs κr W v2 v9 v43 v67 v91 fa fb f15 f3 (by subst hea; subst heb; exact hin0))
  iexact Hpre

set_option maxHeartbeats 1000000 in
include hagree in
theorem part7_real (c : Dev nD) (v91 v115 v139 v163 : BitVec 32)
    (fa : Buf (Elt Ideal) ((Memref.whole cc0_stg0_0 : Memref sig .tc .vmem S2048x1024 .f32).view.loc (c : Thread nD τ)))
    (fb : Buf (Elt Ideal) ((Memref.whole cc0_stg1_0 : Memref sig .tc .vmem S1024x2048 .f32).view.loc (c : Thread nD τ)))
    (f3 : Buf (Elt Ideal) ((Memref.whole cc0_scratch0 : Memref sig .tc .vmem S2048x2048 .f32).view.loc (c : Thread nD τ)))
    (hea : fa = Astg m c) (heb : fb = Bstg m c) :
    iprop((heldW c (Memref.whole cc0_stg0_0 : Memref sig .tc .vmem S2048x1024 .f32) fa
        ∗ heldW c (Memref.whole cc0_stg1_0 : Memref sig .tc .vmem S1024x2048 .f32) fb
        ∗ heldW c (Memref.whole cc0_scratch0 : Memref sig .tc .vmem S2048x2048 .f32) f3)
        ∗ ⌜AccInv A B c ![1, 1, 0, 0, 0, 0] f3⌝)
      ⊢ wp frame (wpE (defs₀ (F := Ideal)) 𝒱₀ c none) Set.univ
          (k0_part7 (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23 c v91 v115 v139 v163)
          (fun r => iprop((⌜r = k0_pay15 (F := Ideal) (View.readAt (Elt Ideal) (Memref.whole cc0_stg0_0 : Memref sig .tc .vmem S2048x1024 .f32).view (Rect.unit (s := S2048x1024) (k0_off8 c) S1024x1024.size (k0_off8_inb c)).toLoadRect fa)⌝
            ∗ heldW c (Memref.whole cc0_stg0_0 : Memref sig .tc .vmem S2048x1024 .f32) fa
            ∗ heldW c (Memref.whole cc0_stg1_0 : Memref sig .tc .vmem S1024x2048 .f32) fb
            ∗ heldW c (Memref.whole cc0_scratch0 : Memref sig .tc .vmem S2048x2048 .f32) ((Memref.whole cc0_scratch0 : Memref sig .tc .vmem S2048x2048 .f32).view.writes (Elt Ideal) f3
              [⟨Rect.unit (s := S2048x2048) (k0_off11 c) S1024x256.size (k0_off11_inb c), k0_pay14 (F := Ideal) (View.readAt (Elt Ideal) (Memref.whole cc0_stg0_0 : Memref sig .tc .vmem S2048x1024 .f32).view (Rect.unit (s := S2048x1024) (k0_off6 c) S1024x1024.size (k0_off6_inb c)).toLoadRect fa) (View.readAt (Elt Ideal) (Memref.whole cc0_stg1_0 : Memref sig .tc .vmem S1024x2048 .f32).view (Rect.unit (s := S1024x2048) ![0, 1536] S1024x256.size inb_S1024x2048_S1024x256_0_1536).toLoadRect fb)⟩,
               ⟨Rect.unit (s := S2048x2048) (k0_off10 c) S1024x384.size (k0_off10_inb c), k0_pay13 (F := Ideal) (View.readAt (Elt Ideal) (Memref.whole cc0_stg0_0 : Memref sig .tc .vmem S2048x1024 .f32).view (Rect.unit (s := S2048x1024) (k0_off4 c) S1024x1024.size (k0_off4_inb c)).toLoadRect fa) (View.readAt (Elt Ideal) (Memref.whole cc0_stg1_0 : Memref sig .tc .vmem S1024x2048 .f32).view (Rect.unit (s := S1024x2048) ![0, 1152] S1024x384.size inb_S1024x2048_S1024x384_0_1152).toLoadRect fb)⟩,
               ⟨Rect.unit (s := S2048x2048) (k0_off9 c) S1024x384.size (k0_off9_inb c), k0_pay12 (F := Ideal) (View.readAt (Elt Ideal) (Memref.whole cc0_stg0_0 : Memref sig .tc .vmem S2048x1024 .f32).view (Rect.unit (s := S2048x1024) (k0_off8 c) S1024x1024.size (k0_off8_inb c)).toLoadRect fa) (View.readAt (Elt Ideal) (Memref.whole cc0_stg1_0 : Memref sig .tc .vmem S1024x2048 .f32).view (Rect.unit (s := S1024x2048) ![0, 768] S1024x384.size inb_S1024x2048_S1024x384_0_768).toLoadRect fb)⟩]))
            ∗ ⌜AccInv A B c ![1, 1, 1, 1, 1, 0] ((Memref.whole cc0_scratch0 : Memref sig .tc .vmem S2048x2048 .f32).view.writes (Elt Ideal) f3
              [⟨Rect.unit (s := S2048x2048) (k0_off11 c) S1024x256.size (k0_off11_inb c), k0_pay14 (F := Ideal) (View.readAt (Elt Ideal) (Memref.whole cc0_stg0_0 : Memref sig .tc .vmem S2048x1024 .f32).view (Rect.unit (s := S2048x1024) (k0_off6 c) S1024x1024.size (k0_off6_inb c)).toLoadRect fa) (View.readAt (Elt Ideal) (Memref.whole cc0_stg1_0 : Memref sig .tc .vmem S1024x2048 .f32).view (Rect.unit (s := S1024x2048) ![0, 1536] S1024x256.size inb_S1024x2048_S1024x256_0_1536).toLoadRect fb)⟩,
               ⟨Rect.unit (s := S2048x2048) (k0_off10 c) S1024x384.size (k0_off10_inb c), k0_pay13 (F := Ideal) (View.readAt (Elt Ideal) (Memref.whole cc0_stg0_0 : Memref sig .tc .vmem S2048x1024 .f32).view (Rect.unit (s := S2048x1024) (k0_off4 c) S1024x1024.size (k0_off4_inb c)).toLoadRect fa) (View.readAt (Elt Ideal) (Memref.whole cc0_stg1_0 : Memref sig .tc .vmem S1024x2048 .f32).view (Rect.unit (s := S1024x2048) ![0, 1152] S1024x384.size inb_S1024x2048_S1024x384_0_1152).toLoadRect fb)⟩,
               ⟨Rect.unit (s := S2048x2048) (k0_off9 c) S1024x384.size (k0_off9_inb c), k0_pay12 (F := Ideal) (View.readAt (Elt Ideal) (Memref.whole cc0_stg0_0 : Memref sig .tc .vmem S2048x1024 .f32).view (Rect.unit (s := S2048x1024) (k0_off8 c) S1024x1024.size (k0_off8_inb c)).toLoadRect fa) (View.readAt (Elt Ideal) (Memref.whole cc0_stg1_0 : Memref sig .tc .vmem S1024x2048 .f32).view (Rect.unit (s := S1024x2048) ![0, 768] S1024x384.size inb_S1024x2048_S1024x384_0_768).toLoadRect fb)⟩])⌝)) := by
  iintro ⟨Hpre, %hin0⟩
  have hpost : ∀ r : (FVec Ideal S1024x1024 .bf16), iprop(⌜r = k0_pay15 (F := Ideal) (View.readAt (Elt Ideal) (Memref.whole cc0_stg0_0 : Memref sig .tc .vmem S2048x1024 .f32).view (Rect.unit (s := S2048x1024) (k0_off8 c) S1024x1024.size (k0_off8_inb c)).toLoadRect fa)⌝
            ∗ heldW c (Memref.whole cc0_stg0_0 : Memref sig .tc .vmem S2048x1024 .f32) fa
            ∗ heldW c (Memref.whole cc0_stg1_0 : Memref sig .tc .vmem S1024x2048 .f32) fb
            ∗ heldW c (Memref.whole cc0_scratch0 : Memref sig .tc .vmem S2048x2048 .f32) ((Memref.whole cc0_scratch0 : Memref sig .tc .vmem S2048x2048 .f32).view.writes (Elt Ideal) f3
              [⟨Rect.unit (s := S2048x2048) (k0_off11 c) S1024x256.size (k0_off11_inb c), k0_pay14 (F := Ideal) (View.readAt (Elt Ideal) (Memref.whole cc0_stg0_0 : Memref sig .tc .vmem S2048x1024 .f32).view (Rect.unit (s := S2048x1024) (k0_off6 c) S1024x1024.size (k0_off6_inb c)).toLoadRect fa) (View.readAt (Elt Ideal) (Memref.whole cc0_stg1_0 : Memref sig .tc .vmem S1024x2048 .f32).view (Rect.unit (s := S1024x2048) ![0, 1536] S1024x256.size inb_S1024x2048_S1024x256_0_1536).toLoadRect fb)⟩,
               ⟨Rect.unit (s := S2048x2048) (k0_off10 c) S1024x384.size (k0_off10_inb c), k0_pay13 (F := Ideal) (View.readAt (Elt Ideal) (Memref.whole cc0_stg0_0 : Memref sig .tc .vmem S2048x1024 .f32).view (Rect.unit (s := S2048x1024) (k0_off4 c) S1024x1024.size (k0_off4_inb c)).toLoadRect fa) (View.readAt (Elt Ideal) (Memref.whole cc0_stg1_0 : Memref sig .tc .vmem S1024x2048 .f32).view (Rect.unit (s := S1024x2048) ![0, 1152] S1024x384.size inb_S1024x2048_S1024x384_0_1152).toLoadRect fb)⟩,
               ⟨Rect.unit (s := S2048x2048) (k0_off9 c) S1024x384.size (k0_off9_inb c), k0_pay12 (F := Ideal) (View.readAt (Elt Ideal) (Memref.whole cc0_stg0_0 : Memref sig .tc .vmem S2048x1024 .f32).view (Rect.unit (s := S2048x1024) (k0_off8 c) S1024x1024.size (k0_off8_inb c)).toLoadRect fa) (View.readAt (Elt Ideal) (Memref.whole cc0_stg1_0 : Memref sig .tc .vmem S1024x2048 .f32).view (Rect.unit (s := S1024x2048) ![0, 768] S1024x384.size inb_S1024x2048_S1024x384_0_768).toLoadRect fb)⟩])) ⊢ iprop((⌜r = k0_pay15 (F := Ideal) (View.readAt (Elt Ideal) (Memref.whole cc0_stg0_0 : Memref sig .tc .vmem S2048x1024 .f32).view (Rect.unit (s := S2048x1024) (k0_off8 c) S1024x1024.size (k0_off8_inb c)).toLoadRect fa)⌝
            ∗ heldW c (Memref.whole cc0_stg0_0 : Memref sig .tc .vmem S2048x1024 .f32) fa
            ∗ heldW c (Memref.whole cc0_stg1_0 : Memref sig .tc .vmem S1024x2048 .f32) fb
            ∗ heldW c (Memref.whole cc0_scratch0 : Memref sig .tc .vmem S2048x2048 .f32) ((Memref.whole cc0_scratch0 : Memref sig .tc .vmem S2048x2048 .f32).view.writes (Elt Ideal) f3
              [⟨Rect.unit (s := S2048x2048) (k0_off11 c) S1024x256.size (k0_off11_inb c), k0_pay14 (F := Ideal) (View.readAt (Elt Ideal) (Memref.whole cc0_stg0_0 : Memref sig .tc .vmem S2048x1024 .f32).view (Rect.unit (s := S2048x1024) (k0_off6 c) S1024x1024.size (k0_off6_inb c)).toLoadRect fa) (View.readAt (Elt Ideal) (Memref.whole cc0_stg1_0 : Memref sig .tc .vmem S1024x2048 .f32).view (Rect.unit (s := S1024x2048) ![0, 1536] S1024x256.size inb_S1024x2048_S1024x256_0_1536).toLoadRect fb)⟩,
               ⟨Rect.unit (s := S2048x2048) (k0_off10 c) S1024x384.size (k0_off10_inb c), k0_pay13 (F := Ideal) (View.readAt (Elt Ideal) (Memref.whole cc0_stg0_0 : Memref sig .tc .vmem S2048x1024 .f32).view (Rect.unit (s := S2048x1024) (k0_off4 c) S1024x1024.size (k0_off4_inb c)).toLoadRect fa) (View.readAt (Elt Ideal) (Memref.whole cc0_stg1_0 : Memref sig .tc .vmem S1024x2048 .f32).view (Rect.unit (s := S1024x2048) ![0, 1152] S1024x384.size inb_S1024x2048_S1024x384_0_1152).toLoadRect fb)⟩,
               ⟨Rect.unit (s := S2048x2048) (k0_off9 c) S1024x384.size (k0_off9_inb c), k0_pay12 (F := Ideal) (View.readAt (Elt Ideal) (Memref.whole cc0_stg0_0 : Memref sig .tc .vmem S2048x1024 .f32).view (Rect.unit (s := S2048x1024) (k0_off8 c) S1024x1024.size (k0_off8_inb c)).toLoadRect fa) (View.readAt (Elt Ideal) (Memref.whole cc0_stg1_0 : Memref sig .tc .vmem S1024x2048 .f32).view (Rect.unit (s := S1024x2048) ![0, 768] S1024x384.size inb_S1024x2048_S1024x384_0_768).toLoadRect fb)⟩]))
            ∗ ⌜AccInv A B c ![1, 1, 1, 1, 1, 0] ((Memref.whole cc0_scratch0 : Memref sig .tc .vmem S2048x2048 .f32).view.writes (Elt Ideal) f3
              [⟨Rect.unit (s := S2048x2048) (k0_off11 c) S1024x256.size (k0_off11_inb c), k0_pay14 (F := Ideal) (View.readAt (Elt Ideal) (Memref.whole cc0_stg0_0 : Memref sig .tc .vmem S2048x1024 .f32).view (Rect.unit (s := S2048x1024) (k0_off6 c) S1024x1024.size (k0_off6_inb c)).toLoadRect fa) (View.readAt (Elt Ideal) (Memref.whole cc0_stg1_0 : Memref sig .tc .vmem S1024x2048 .f32).view (Rect.unit (s := S1024x2048) ![0, 1536] S1024x256.size inb_S1024x2048_S1024x256_0_1536).toLoadRect fb)⟩,
               ⟨Rect.unit (s := S2048x2048) (k0_off10 c) S1024x384.size (k0_off10_inb c), k0_pay13 (F := Ideal) (View.readAt (Elt Ideal) (Memref.whole cc0_stg0_0 : Memref sig .tc .vmem S2048x1024 .f32).view (Rect.unit (s := S2048x1024) (k0_off4 c) S1024x1024.size (k0_off4_inb c)).toLoadRect fa) (View.readAt (Elt Ideal) (Memref.whole cc0_stg1_0 : Memref sig .tc .vmem S1024x2048 .f32).view (Rect.unit (s := S1024x2048) ![0, 1152] S1024x384.size inb_S1024x2048_S1024x384_0_1152).toLoadRect fb)⟩,
               ⟨Rect.unit (s := S2048x2048) (k0_off9 c) S1024x384.size (k0_off9_inb c), k0_pay12 (F := Ideal) (View.readAt (Elt Ideal) (Memref.whole cc0_stg0_0 : Memref sig .tc .vmem S2048x1024 .f32).view (Rect.unit (s := S2048x1024) (k0_off8 c) S1024x1024.size (k0_off8_inb c)).toLoadRect fa) (View.readAt (Elt Ideal) (Memref.whole cc0_stg1_0 : Memref sig .tc .vmem S1024x2048 .f32).view (Rect.unit (s := S1024x2048) ![0, 768] S1024x384.size inb_S1024x2048_S1024x384_0_768).toLoadRect fb)⟩])⌝) := fun r => by
    iintro H
    isplitl [H]; · iexact H
    ipureintro; exact (by subst hea; subst heb; exact AccInv.mk6 (LJ_cons (k := 0) (k0_off11_inb c) _ _ (off11_eq c) (Or.inr (by show 0 + 384 ≤ 1536; omega)) (LJ_cons (k := 0) (k0_off10_inb c) _ _ (off10_eq c) (Or.inr (by show 0 + 384 ≤ 1152; omega)) (LJ_cons (k := 0) (k0_off9_inb c) _ _ (off9_eq c) (Or.inr (by show 0 + 384 ≤ 768; omega)) (LJ_nil (AccInv.get0 hin0))))) (LJ_cons (k := 1) (k0_off11_inb c) _ _ (off11_eq c) (Or.inr (by show 384 + 384 ≤ 1536; omega)) (LJ_cons (k := 1) (k0_off10_inb c) _ _ (off10_eq c) (Or.inr (by show 384 + 384 ≤ 1152; omega)) (LJ_cons (k := 1) (k0_off9_inb c) _ _ (off9_eq c) (Or.inr (by show 384 + 384 ≤ 768; omega)) (LJ_nil (AccInv.get1 hin0))))) (J1_2_stored A B m hagree c f3) (J1_3_stored A B m hagree c f3) (J1_4_stored A B m hagree c f3) LJ_zero)
  iapply (wp_mono frame (wpE (defs₀ (F := Ideal)) 𝒱₀ c none) Set.univ (fun r => hpost r))
  iapply (part7_run c v91 v115 v139 v163 fa fb f3)
  iexact Hpre

set_option maxHeartbeats 1000000 in
include hagree in
theorem part8_real (c : Dev nD) (κw1 κw2 : ℕ)
    (W : Waits sig Unit)
    (v8 v34 v43 v163 : BitVec 32)
    (v227 : FVec Ideal S1024x1024 .bf16)
    (fb : Buf (Elt Ideal) ((Memref.whole cc0_stg1_0 : Memref sig .tc .vmem S1024x2048 .f32).view.loc (c : Thread nD τ)))
    (f3 : Buf (Elt Ideal) ((Memref.whole cc0_scratch0 : Memref sig .tc .vmem S2048x2048 .f32).view.loc (c : Thread nD τ)))
    (heb : fb = Bstg m c) (he_v227 : v227 = k0_pay15 (F := Ideal) (View.readAt (Elt Ideal) (Memref.whole cc0_stg0_0 : Memref sig .tc .vmem S2048x1024 .f32).view (Rect.unit (s := S2048x1024) (k0_off8 c) S1024x1024.size (k0_off8_inb c)).toLoadRect (Astg m c))) :
    iprop((cellInv ER (sched (Vreal A B)) κw1 (cell c (.rsS 0 0)) ∗ cellInv ER (sched (Vreal A B)) κw2 (cell c (.rsR 0 0)) ∗ levAts L lv
        ∗ cred (tallyAt (cell c (.rsS 0 0)) () (amt (.rsR 0 0))) ∗ cred (tallyAt (cell c (.rsR 0 0)) () (amt (.rsR 0 0)))
        ∗ atPos ER (cell c (.rsS 0 0)) 0 ∅ 0 ∗ atPos ER (cell c (.rsR 0 0)) 0 ∅ 0
        ∗ owes (c : Thread nD τ) (Owe c 9) W
        ∗ heldW c (Memref.whole cc0_stg1_0 : Memref sig .tc .vmem S1024x2048 .f32) fb ∗ heldW c (Memref.whole cc0_scratch0 : Memref sig .tc .vmem S2048x2048 .f32) f3)
        ∗ ⌜AccInv A B c ![1, 1, 1, 1, 1, 0] f3⌝)
      ⊢ wp frame (wpE (defs₀ (F := Ideal)) 𝒱₀ c none) Set.univ
          (k0_part8 (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23 c v8 v34 v43 v163 v227)
          (fun r => iprop(∃ fr : Buf (Elt Ideal) ((commM0_0 : Memref sig .tc .vmem S1024x384 .bf16).view.loc (c : Thread nD τ)),
            ⌜r = ⟨Scalar.addi v43 (Scalar.muli (Scalar.subi 1#32 v8) 512#32), Scalar.addi v43 (Scalar.muli v8 512#32),
                (View.readAt (Elt Ideal) (Memref.whole cc0_scratch0 : Memref sig .tc .vmem S2048x2048 .f32).view (Rect.unit (s := S2048x2048) (k0_off13 c) S512x384.size (k0_off13_inb c)).toLoadRect f3),
                k0_pay17 (F := Ideal) (View.readAt (Elt Ideal) (Memref.whole cc0_scratch1 : Memref sig .tc .vmem S1792x384 .bf16).view (Rect.unit (s := S1792x384) (k0_off14 c) S512x384.size (k0_off14_inb c)).toLoadRect fr)⟩⌝
            ∗ ⌜(Vreal A B).rs0_0 (nbr 0 c) ((commM0_0 : Memref sig .tc .vmem S1024x384 .bf16).view.read (Elt Ideal) fr)⌝
            ∗ ⌜AccInv A B c ![1, 1, 1, 1, 1, 1] ((Memref.whole cc0_scratch0 : Memref sig .tc .vmem S2048x2048 .f32).view.writes (Elt Ideal) f3
              [⟨Rect.unit (s := S2048x2048) (k0_off12 c) S1024x256.size (k0_off12_inb c), k0_pay16 (F := Ideal) v227 (View.readAt (Elt Ideal) (Memref.whole cc0_stg1_0 : Memref sig .tc .vmem S1024x2048 .f32).view (Rect.unit (s := S1024x2048) ![0, 1792] S1024x256.size inb_S1024x2048_S1024x256_0_1792).toLoadRect fb)⟩])⌝
            ∗ ⌜∀ (i : Fin 512) (j : Fin 384), ((View.readAt (Elt Ideal) (Memref.whole cc0_scratch0 : Memref sig .tc .vmem S2048x2048 .f32).view (Rect.unit (s := S2048x2048) (k0_off13 c) S512x384.size (k0_off13_inb c)).toLoadRect f3) (ix2 i j) : EReal) = share A B c.val (sendRow 0 1 c + i.val) (colLo 0 + j.val)⌝
            ∗ owes (c : Thread nD τ) (Owe c 9) (insert ((CK.rsR 0 0).sem, ()) (insert ((CK.rsS 0 0).sem, ()) W))
            ∗ atPos ER (cell c (.rsS 0 0)) 1 ∅ 0 ∗ atPos ER (cell c (.rsR 0 0)) 1 ∅ 0
            ∗ ptsAny (F := Ideal) c stgM0_0
            ∗ heldW c (commM0_0 : Memref sig .tc .vmem S1024x384 .bf16) fr
            ∗ heldW c (Memref.whole cc0_stg1_0 : Memref sig .tc .vmem S1024x2048 .f32) fb
            ∗ heldW c (Memref.whole cc0_scratch0 : Memref sig .tc .vmem S2048x2048 .f32) ((Memref.whole cc0_scratch0 : Memref sig .tc .vmem S2048x2048 .f32).view.writes (Elt Ideal) f3
              [⟨Rect.unit (s := S2048x2048) (k0_off12 c) S1024x256.size (k0_off12_inb c), k0_pay16 (F := Ideal) v227 (View.readAt (Elt Ideal) (Memref.whole cc0_stg1_0 : Memref sig .tc .vmem S1024x2048 .f32).view (Rect.unit (s := S1024x2048) ![0, 1792] S1024x256.size inb_S1024x2048_S1024x256_0_1792).toLoadRect fb)⟩]))) := by
  iintro ⟨Hpre, %hin0⟩
  have hpost : ∀ r : (Σ' (v248 : BitVec 32) (v250 : BitVec 32) (v252 : Vec Ideal S512x384 .f32), FVec Ideal S512x384 .f32), iprop(∃ fr : Buf (Elt Ideal) ((commM0_0 : Memref sig .tc .vmem S1024x384 .bf16).view.loc (c : Thread nD τ)),
            ⌜r = ⟨Scalar.addi v43 (Scalar.muli (Scalar.subi 1#32 v8) 512#32), Scalar.addi v43 (Scalar.muli v8 512#32),
                (View.readAt (Elt Ideal) (Memref.whole cc0_scratch0 : Memref sig .tc .vmem S2048x2048 .f32).view (Rect.unit (s := S2048x2048) (k0_off13 c) S512x384.size (k0_off13_inb c)).toLoadRect f3),
                k0_pay17 (F := Ideal) (View.readAt (Elt Ideal) (Memref.whole cc0_scratch1 : Memref sig .tc .vmem S1792x384 .bf16).view (Rect.unit (s := S1792x384) (k0_off14 c) S512x384.size (k0_off14_inb c)).toLoadRect fr)⟩⌝
            ∗ ⌜(Vreal A B).rs0_0 (nbr 0 c) ((commM0_0 : Memref sig .tc .vmem S1024x384 .bf16).view.read (Elt Ideal) fr)⌝
            ∗ owes (c : Thread nD τ) (Owe c 9) (insert ((CK.rsR 0 0).sem, ()) (insert ((CK.rsS 0 0).sem, ()) W))
            ∗ atPos ER (cell c (.rsS 0 0)) 1 ∅ 0 ∗ atPos ER (cell c (.rsR 0 0)) 1 ∅ 0
            ∗ ptsAny (F := Ideal) c stgM0_0
            ∗ heldW c (commM0_0 : Memref sig .tc .vmem S1024x384 .bf16) fr
            ∗ heldW c (Memref.whole cc0_stg1_0 : Memref sig .tc .vmem S1024x2048 .f32) fb
            ∗ heldW c (Memref.whole cc0_scratch0 : Memref sig .tc .vmem S2048x2048 .f32) ((Memref.whole cc0_scratch0 : Memref sig .tc .vmem S2048x2048 .f32).view.writes (Elt Ideal) f3
              [⟨Rect.unit (s := S2048x2048) (k0_off12 c) S1024x256.size (k0_off12_inb c), k0_pay16 (F := Ideal) v227 (View.readAt (Elt Ideal) (Memref.whole cc0_stg1_0 : Memref sig .tc .vmem S1024x2048 .f32).view (Rect.unit (s := S1024x2048) ![0, 1792] S1024x256.size inb_S1024x2048_S1024x256_0_1792).toLoadRect fb)⟩])) ⊢ iprop(∃ fr : Buf (Elt Ideal) ((commM0_0 : Memref sig .tc .vmem S1024x384 .bf16).view.loc (c : Thread nD τ)),
            ⌜r = ⟨Scalar.addi v43 (Scalar.muli (Scalar.subi 1#32 v8) 512#32), Scalar.addi v43 (Scalar.muli v8 512#32),
                (View.readAt (Elt Ideal) (Memref.whole cc0_scratch0 : Memref sig .tc .vmem S2048x2048 .f32).view (Rect.unit (s := S2048x2048) (k0_off13 c) S512x384.size (k0_off13_inb c)).toLoadRect f3),
                k0_pay17 (F := Ideal) (View.readAt (Elt Ideal) (Memref.whole cc0_scratch1 : Memref sig .tc .vmem S1792x384 .bf16).view (Rect.unit (s := S1792x384) (k0_off14 c) S512x384.size (k0_off14_inb c)).toLoadRect fr)⟩⌝
            ∗ ⌜(Vreal A B).rs0_0 (nbr 0 c) ((commM0_0 : Memref sig .tc .vmem S1024x384 .bf16).view.read (Elt Ideal) fr)⌝
            ∗ ⌜AccInv A B c ![1, 1, 1, 1, 1, 1] ((Memref.whole cc0_scratch0 : Memref sig .tc .vmem S2048x2048 .f32).view.writes (Elt Ideal) f3
              [⟨Rect.unit (s := S2048x2048) (k0_off12 c) S1024x256.size (k0_off12_inb c), k0_pay16 (F := Ideal) v227 (View.readAt (Elt Ideal) (Memref.whole cc0_stg1_0 : Memref sig .tc .vmem S1024x2048 .f32).view (Rect.unit (s := S1024x2048) ![0, 1792] S1024x256.size inb_S1024x2048_S1024x256_0_1792).toLoadRect fb)⟩])⌝
            ∗ ⌜∀ (i : Fin 512) (j : Fin 384), ((View.readAt (Elt Ideal) (Memref.whole cc0_scratch0 : Memref sig .tc .vmem S2048x2048 .f32).view (Rect.unit (s := S2048x2048) (k0_off13 c) S512x384.size (k0_off13_inb c)).toLoadRect f3) (ix2 i j) : EReal) = share A B c.val (sendRow 0 1 c + i.val) (colLo 0 + j.val)⌝
            ∗ owes (c : Thread nD τ) (Owe c 9) (insert ((CK.rsR 0 0).sem, ()) (insert ((CK.rsS 0 0).sem, ()) W))
            ∗ atPos ER (cell c (.rsS 0 0)) 1 ∅ 0 ∗ atPos ER (cell c (.rsR 0 0)) 1 ∅ 0
            ∗ ptsAny (F := Ideal) c stgM0_0
            ∗ heldW c (commM0_0 : Memref sig .tc .vmem S1024x384 .bf16) fr
            ∗ heldW c (Memref.whole cc0_stg1_0 : Memref sig .tc .vmem S1024x2048 .f32) fb
            ∗ heldW c (Memref.whole cc0_scratch0 : Memref sig .tc .vmem S2048x2048 .f32) ((Memref.whole cc0_scratch0 : Memref sig .tc .vmem S2048x2048 .f32).view.writes (Elt Ideal) f3
              [⟨Rect.unit (s := S2048x2048) (k0_off12 c) S1024x256.size (k0_off12_inb c), k0_pay16 (F := Ideal) v227 (View.readAt (Elt Ideal) (Memref.whole cc0_stg1_0 : Memref sig .tc .vmem S1024x2048 .f32).view (Rect.unit (s := S1024x2048) ![0, 1792] S1024x256.size inb_S1024x2048_S1024x256_0_1792).toLoadRect fb)⟩])) := fun r => by
    iintro ⟨%fr, %hr, %hf, H⟩
    iexists fr
    isplitr; · ipureintro; exact hr
    isplitr; · ipureintro; exact hf
    isplitr; · ipureintro; exact (by subst heb; subst he_v227; exact AccInv.mk6 (LJ_cons (k := 0) (k0_off12_inb c) _ _ (off12_eq c) (Or.inr (by show 0 + 384 ≤ 1792; omega)) (LJ_nil (AccInv.get0 hin0))) (LJ_cons (k := 1) (k0_off12_inb c) _ _ (off12_eq c) (Or.inr (by show 384 + 384 ≤ 1792; omega)) (LJ_nil (AccInv.get1 hin0))) (LJ_cons (k := 2) (k0_off12_inb c) _ _ (off12_eq c) (Or.inr (by show 768 + 384 ≤ 1792; omega)) (LJ_nil (AccInv.get2 hin0))) (LJ_cons (k := 3) (k0_off12_inb c) _ _ (off12_eq c) (Or.inr (by show 1152 + 384 ≤ 1792; omega)) (LJ_nil (AccInv.get3 hin0))) (LJ_cons (k := 4) (k0_off12_inb c) _ _ (off12_eq c) (Or.inr (by show 1536 + 256 ≤ 1792; omega)) (LJ_nil (AccInv.get4 hin0))) (J1_5_stored A B m hagree c f3))
    isplitr; · ipureintro; exact (by subst heb; subst he_v227; exact acc_send1_0 A B (AccInv.get0 hin0))
    iexact H
  iapply (wp_mono frame (wpE (defs₀ (F := Ideal)) 𝒱₀ c none) Set.univ (fun r => hpost r))
  iapply (part8_run (Vreal A B) c κw1 κw2 W v8 v34 v43 v163 v227 fb f3)
  iexact Hpre

set_option maxHeartbeats 1000000 in
include hagree in
theorem part9_real (c : Dev nD) (κs κr : ℕ)
    (W : Waits sig Unit)
    (v2 v43 v248 v250 : BitVec 32)
    (v252 : Vec Ideal S512x384 .f32)
    (v257 : FVec Ideal S512x384 .f32)
    (fs : Buf (Elt Ideal) ((stgM0_0 : Memref sig .tc .vmem S1024x384 .bf16).view.loc (c : Thread nD τ)))
    (fr : Buf (Elt Ideal) ((commM0_0 : Memref sig .tc .vmem S1024x384 .bf16).view.loc (c : Thread nD τ)))
    (f3 : Buf (Elt Ideal) ((Memref.whole cc0_scratch0 : Memref sig .tc .vmem S2048x2048 .f32).view.loc (c : Thread nD τ)))
    (he_v257 : v257 = k0_pay17 (F := Ideal) (View.readAt (Elt Ideal) (Memref.whole cc0_scratch1 : Memref sig .tc .vmem S1792x384 .bf16).view (Rect.unit (s := S1792x384) (k0_off14 c) S512x384.size (k0_off14_inb c)).toLoadRect fr)) :
    iprop((cellInv ER (sched (Vreal A B)) κs (cell c (.rsS 0 1))
        ∗ cellInv ER (sched (Vreal A B)) κr (cell (nbr 1 c) (.rsR 0 1))
        ∗ reached ER (cell c (.rsS 0 1)) 0
        ∗ reached ER (cell (nbr 1 c) (.rsR 0 1)) 0
        ∗ dutyTok ER (cell c (.rsS 0 1)) 0 (0 : Fin 3)
        ∗ dutyTok ER (cell (nbr 1 c) (.rsR 0 1)) 0 (0 : Fin 3)
        ∗ ptsAny (F := Ideal) (nbr 1 c) commM0_1
        ∗ owes (c : Thread nD τ) (Owe c 9) W
        ∗ heldW c (stgM0_0 : Memref sig .tc .vmem S1024x384 .bf16) fs
        ∗ heldW c (commM0_0 : Memref sig .tc .vmem S1024x384 .bf16) fr
        ∗ heldW c (Memref.whole cc0_scratch0 : Memref sig .tc .vmem S2048x2048 .f32) f3)
        ∗ ⌜AccInv A B c ![1, 1, 1, 1, 1, 1] f3⌝
        ∗ ⌜(Vreal A B).rs0_0 (nbr 0 c) ((commM0_0 : Memref sig .tc .vmem S1024x384 .bf16).view.read (Elt Ideal) fr)⌝
        ∗ ⌜∀ (i : Fin 512) (j : Fin 384), ((v252) (ix2 i j) : EReal) = share A B c.val (sendRow 0 1 c + i.val) (colLo 0 + j.val)⌝)
      ⊢ wp frame (wpE (defs₀ (F := Ideal)) 𝒱₀ c none) Set.univ
          (k0_part9 (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23 c v2 v43 v248 v250 v252 v257)
          (fun r => iprop((⌜r = Scalar.xori v2 3#32⌝
            ∗ cred (tallyAt (cell c (.rsS 0 1)) () (amt (.rsR 0 1)))
            ∗ owes (c : Thread nD τ) (Owe c 10) W
            ∗ ((stgM0_0 : Memref sig .tc .vmem S1024x384 .bf16).view.loc (c : Thread nD τ) ↦[(stgM0_0 : Memref sig .tc .vmem S1024x384 .bf16).view.set \ (stgM0_1 : Memref sig .tc .vmem S512x384 .bf16).view.set]{fullShare} (View.write (Elt Ideal) ((Memref.whole cc0_scratch7 : Memref sig .tc .vmem S1024x384 .bf16).access (Rect.unit (s := S1024x384) ![0, 0] S512x384.size inb_S1024x384_S512x384_0_0)) fs (k0_pay19 (F := Ideal) ((Memref.whole cc0_scratch0 : Memref sig .tc .vmem S2048x2048 .f32).view.readCov [⟨Rect.unit (s := S2048x2048) (k0_off13 c) S512x384.size (k0_off13_inb c), k0_pay18 (F := Ideal) v252 v257⟩] (Rect.unit (s := S2048x2048) (k0_off13 c) S512x384.size (k0_off13_inb c)).toLoadRect)) Finset.univ))
            ∗ heldW c (commM0_0 : Memref sig .tc .vmem S1024x384 .bf16) fr
            ∗ heldW c (Memref.whole cc0_scratch0 : Memref sig .tc .vmem S2048x2048 .f32) ((Memref.whole cc0_scratch0 : Memref sig .tc .vmem S2048x2048 .f32).view.writes (Elt Ideal) f3
              [⟨Rect.unit (s := S2048x2048) (k0_off15 c) S512x384.size (k0_off15_inb c), k0_pay20 (F := Ideal) (View.readAt (Elt Ideal) (Memref.whole cc0_scratch0 : Memref sig .tc .vmem S2048x2048 .f32).view (Rect.unit (s := S2048x2048) (k0_off15 c) S512x384.size (k0_off15_inb c)).toLoadRect ((Memref.whole cc0_scratch0 : Memref sig .tc .vmem S2048x2048 .f32).view.writes (Elt Ideal) f3
              [⟨Rect.unit (s := S2048x2048) (k0_off13 c) S512x384.size (k0_off13_inb c), k0_pay18 (F := Ideal) v252 v257⟩])) (View.readAt (Elt Ideal) (Memref.whole cc0_scratch1 : Memref sig .tc .vmem S1792x384 .bf16).view (Rect.unit (s := S1792x384) (k0_off16 c) S512x384.size (k0_off16_inb c)).toLoadRect fr)⟩,
               ⟨Rect.unit (s := S2048x2048) (k0_off13 c) S512x384.size (k0_off13_inb c), k0_pay18 (F := Ideal) v252 v257⟩]))
            ∗ ⌜AccInv A B c ![2, 1, 1, 1, 1, 1] ((Memref.whole cc0_scratch0 : Memref sig .tc .vmem S2048x2048 .f32).view.writes (Elt Ideal) f3
              [⟨Rect.unit (s := S2048x2048) (k0_off15 c) S512x384.size (k0_off15_inb c), k0_pay20 (F := Ideal) (View.readAt (Elt Ideal) (Memref.whole cc0_scratch0 : Memref sig .tc .vmem S2048x2048 .f32).view (Rect.unit (s := S2048x2048) (k0_off15 c) S512x384.size (k0_off15_inb c)).toLoadRect ((Memref.whole cc0_scratch0 : Memref sig .tc .vmem S2048x2048 .f32).view.writes (Elt Ideal) f3
              [⟨Rect.unit (s := S2048x2048) (k0_off13 c) S512x384.size (k0_off13_inb c), k0_pay18 (F := Ideal) v252 v257⟩])) (View.readAt (Elt Ideal) (Memref.whole cc0_scratch1 : Memref sig .tc .vmem S1792x384 .bf16).view (Rect.unit (s := S1792x384) (k0_off16 c) S512x384.size (k0_off16_inb c)).toLoadRect fr)⟩,
               ⟨Rect.unit (s := S2048x2048) (k0_off13 c) S512x384.size (k0_off13_inb c), k0_pay18 (F := Ideal) v252 v257⟩])⌝)) := by
  iintro ⟨Hpre, %hin0, %hin1, %hin2⟩
  have hpost : ∀ r : (BitVec 32), iprop(⌜r = Scalar.xori v2 3#32⌝
            ∗ cred (tallyAt (cell c (.rsS 0 1)) () (amt (.rsR 0 1)))
            ∗ owes (c : Thread nD τ) (Owe c 10) W
            ∗ ((stgM0_0 : Memref sig .tc .vmem S1024x384 .bf16).view.loc (c : Thread nD τ) ↦[(stgM0_0 : Memref sig .tc .vmem S1024x384 .bf16).view.set \ (stgM0_1 : Memref sig .tc .vmem S512x384 .bf16).view.set]{fullShare} (View.write (Elt Ideal) ((Memref.whole cc0_scratch7 : Memref sig .tc .vmem S1024x384 .bf16).access (Rect.unit (s := S1024x384) ![0, 0] S512x384.size inb_S1024x384_S512x384_0_0)) fs (k0_pay19 (F := Ideal) ((Memref.whole cc0_scratch0 : Memref sig .tc .vmem S2048x2048 .f32).view.readCov [⟨Rect.unit (s := S2048x2048) (k0_off13 c) S512x384.size (k0_off13_inb c), k0_pay18 (F := Ideal) v252 v257⟩] (Rect.unit (s := S2048x2048) (k0_off13 c) S512x384.size (k0_off13_inb c)).toLoadRect)) Finset.univ))
            ∗ heldW c (commM0_0 : Memref sig .tc .vmem S1024x384 .bf16) fr
            ∗ heldW c (Memref.whole cc0_scratch0 : Memref sig .tc .vmem S2048x2048 .f32) ((Memref.whole cc0_scratch0 : Memref sig .tc .vmem S2048x2048 .f32).view.writes (Elt Ideal) f3
              [⟨Rect.unit (s := S2048x2048) (k0_off15 c) S512x384.size (k0_off15_inb c), k0_pay20 (F := Ideal) (View.readAt (Elt Ideal) (Memref.whole cc0_scratch0 : Memref sig .tc .vmem S2048x2048 .f32).view (Rect.unit (s := S2048x2048) (k0_off15 c) S512x384.size (k0_off15_inb c)).toLoadRect ((Memref.whole cc0_scratch0 : Memref sig .tc .vmem S2048x2048 .f32).view.writes (Elt Ideal) f3
              [⟨Rect.unit (s := S2048x2048) (k0_off13 c) S512x384.size (k0_off13_inb c), k0_pay18 (F := Ideal) v252 v257⟩])) (View.readAt (Elt Ideal) (Memref.whole cc0_scratch1 : Memref sig .tc .vmem S1792x384 .bf16).view (Rect.unit (s := S1792x384) (k0_off16 c) S512x384.size (k0_off16_inb c)).toLoadRect fr)⟩,
               ⟨Rect.unit (s := S2048x2048) (k0_off13 c) S512x384.size (k0_off13_inb c), k0_pay18 (F := Ideal) v252 v257⟩])) ⊢ iprop((⌜r = Scalar.xori v2 3#32⌝
            ∗ cred (tallyAt (cell c (.rsS 0 1)) () (amt (.rsR 0 1)))
            ∗ owes (c : Thread nD τ) (Owe c 10) W
            ∗ ((stgM0_0 : Memref sig .tc .vmem S1024x384 .bf16).view.loc (c : Thread nD τ) ↦[(stgM0_0 : Memref sig .tc .vmem S1024x384 .bf16).view.set \ (stgM0_1 : Memref sig .tc .vmem S512x384 .bf16).view.set]{fullShare} (View.write (Elt Ideal) ((Memref.whole cc0_scratch7 : Memref sig .tc .vmem S1024x384 .bf16).access (Rect.unit (s := S1024x384) ![0, 0] S512x384.size inb_S1024x384_S512x384_0_0)) fs (k0_pay19 (F := Ideal) ((Memref.whole cc0_scratch0 : Memref sig .tc .vmem S2048x2048 .f32).view.readCov [⟨Rect.unit (s := S2048x2048) (k0_off13 c) S512x384.size (k0_off13_inb c), k0_pay18 (F := Ideal) v252 v257⟩] (Rect.unit (s := S2048x2048) (k0_off13 c) S512x384.size (k0_off13_inb c)).toLoadRect)) Finset.univ))
            ∗ heldW c (commM0_0 : Memref sig .tc .vmem S1024x384 .bf16) fr
            ∗ heldW c (Memref.whole cc0_scratch0 : Memref sig .tc .vmem S2048x2048 .f32) ((Memref.whole cc0_scratch0 : Memref sig .tc .vmem S2048x2048 .f32).view.writes (Elt Ideal) f3
              [⟨Rect.unit (s := S2048x2048) (k0_off15 c) S512x384.size (k0_off15_inb c), k0_pay20 (F := Ideal) (View.readAt (Elt Ideal) (Memref.whole cc0_scratch0 : Memref sig .tc .vmem S2048x2048 .f32).view (Rect.unit (s := S2048x2048) (k0_off15 c) S512x384.size (k0_off15_inb c)).toLoadRect ((Memref.whole cc0_scratch0 : Memref sig .tc .vmem S2048x2048 .f32).view.writes (Elt Ideal) f3
              [⟨Rect.unit (s := S2048x2048) (k0_off13 c) S512x384.size (k0_off13_inb c), k0_pay18 (F := Ideal) v252 v257⟩])) (View.readAt (Elt Ideal) (Memref.whole cc0_scratch1 : Memref sig .tc .vmem S1792x384 .bf16).view (Rect.unit (s := S1792x384) (k0_off16 c) S512x384.size (k0_off16_inb c)).toLoadRect fr)⟩,
               ⟨Rect.unit (s := S2048x2048) (k0_off13 c) S512x384.size (k0_off13_inb c), k0_pay18 (F := Ideal) v252 v257⟩]))
            ∗ ⌜AccInv A B c ![2, 1, 1, 1, 1, 1] ((Memref.whole cc0_scratch0 : Memref sig .tc .vmem S2048x2048 .f32).view.writes (Elt Ideal) f3
              [⟨Rect.unit (s := S2048x2048) (k0_off15 c) S512x384.size (k0_off15_inb c), k0_pay20 (F := Ideal) (View.readAt (Elt Ideal) (Memref.whole cc0_scratch0 : Memref sig .tc .vmem S2048x2048 .f32).view (Rect.unit (s := S2048x2048) (k0_off15 c) S512x384.size (k0_off15_inb c)).toLoadRect ((Memref.whole cc0_scratch0 : Memref sig .tc .vmem S2048x2048 .f32).view.writes (Elt Ideal) f3
              [⟨Rect.unit (s := S2048x2048) (k0_off13 c) S512x384.size (k0_off13_inb c), k0_pay18 (F := Ideal) v252 v257⟩])) (View.readAt (Elt Ideal) (Memref.whole cc0_scratch1 : Memref sig .tc .vmem S1792x384 .bf16).view (Rect.unit (s := S1792x384) (k0_off16 c) S512x384.size (k0_off16_inb c)).toLoadRect fr)⟩,
               ⟨Rect.unit (s := S2048x2048) (k0_off13 c) S512x384.size (k0_off13_inb c), k0_pay18 (F := Ideal) v252 v257⟩])⌝) := fun r => by
    iintro H
    isplitl [H]; · iexact H
    ipureintro; exact (by subst he_v257; exact AccInv.mk6 (J2_0_stored A B c f3 v252 _ fr (AccInv.get0 hin0) hin1) (LJ_cons (k := 1) (k0_off15_inb c) _ _ (off15_eq c) (Or.inl (by show 0 + 384 ≤ 384; omega)) (LJ_cons (k := 1) (k0_off13_inb c) _ _ (off13_eq c) (Or.inl (by show 0 + 384 ≤ 384; omega)) (LJ_nil (AccInv.get1 hin0)))) (LJ_cons (k := 2) (k0_off15_inb c) _ _ (off15_eq c) (Or.inl (by show 0 + 384 ≤ 768; omega)) (LJ_cons (k := 2) (k0_off13_inb c) _ _ (off13_eq c) (Or.inl (by show 0 + 384 ≤ 768; omega)) (LJ_nil (AccInv.get2 hin0)))) (LJ_cons (k := 3) (k0_off15_inb c) _ _ (off15_eq c) (Or.inl (by show 0 + 384 ≤ 1152; omega)) (LJ_cons (k := 3) (k0_off13_inb c) _ _ (off13_eq c) (Or.inl (by show 0 + 384 ≤ 1152; omega)) (LJ_nil (AccInv.get3 hin0)))) (LJ_cons (k := 4) (k0_off15_inb c) _ _ (off15_eq c) (Or.inl (by show 0 + 384 ≤ 1536; omega)) (LJ_cons (k := 4) (k0_off13_inb c) _ _ (off13_eq c) (Or.inl (by show 0 + 384 ≤ 1536; omega)) (LJ_nil (AccInv.get4 hin0)))) (LJ_cons (k := 5) (k0_off15_inb c) _ _ (off15_eq c) (Or.inl (by show 0 + 384 ≤ 1792; omega)) (LJ_cons (k := 5) (k0_off13_inb c) _ _ (off13_eq c) (Or.inl (by show 0 + 384 ≤ 1792; omega)) (LJ_nil (AccInv.get5 hin0)))))
  iapply (wp_mono frame (wpE (defs₀ (F := Ideal)) 𝒱₀ c none) Set.univ (fun r => hpost r))
  iapply (part9_run (Vreal A B) c κs κr W v2 v43 v248 v250 v252 v257 fs fr f3 (by subst he_v257; exact val_rs0_1v A B c fs fr v252 hin2 hin1))
  iexact Hpre

set_option maxHeartbeats 1000000 in
include hagree in
theorem part10_real (c : Dev nD) (κw1 κw2 : ℕ)
    (W : Waits sig Unit)
    (v9 v58 v67 : BitVec 32)
    (f3 : Buf (Elt Ideal) ((Memref.whole cc0_scratch0 : Memref sig .tc .vmem S2048x2048 .f32).view.loc (c : Thread nD τ))) :
    iprop((cellInv ER (sched (Vreal A B)) κw1 (cell c (.rsS 1 0))
        ∗ cellInv ER (sched (Vreal A B)) κw2 (cell c (.rsR 1 0))
        ∗ levAts L lv
        ∗ cred (tallyAt (cell c (.rsS 1 0)) () (amt (.rsR 1 0)))
        ∗ cred (tallyAt (cell c (.rsR 1 0)) () (amt (.rsR 1 0)))
        ∗ atPos ER (cell c (.rsS 1 0)) 0 ∅ 0
        ∗ atPos ER (cell c (.rsR 1 0)) 0 ∅ 0
        ∗ owes (c : Thread nD τ) (Owe c 10) W
        ∗ heldW c (Memref.whole cc0_scratch0 : Memref sig .tc .vmem S2048x2048 .f32) f3)
        ∗ ⌜AccInv A B c ![2, 1, 1, 1, 1, 1] f3⌝)
      ⊢ wp frame (wpE (defs₀ (F := Ideal)) 𝒱₀ c none) Set.univ
          (k0_part10 (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23 c v9 v58 v67)
          (fun r => iprop(∃ fr : Buf (Elt Ideal) ((commM1_0 : Memref sig .tc .vmem S1024x384 .bf16).view.loc (c : Thread nD τ)), ⌜r = ⟨Scalar.addi v67 (Scalar.muli v9 512#32), k0_pay22 (F := Ideal) ((Memref.whole cc0_scratch0 : Memref sig .tc .vmem S2048x2048 .f32).view.readCov [⟨Rect.unit (s := S2048x2048) (k0_off17 c) S512x384.size (k0_off17_inb c), k0_pay21 (F := Ideal) (View.readAt (Elt Ideal) (Memref.whole cc0_scratch0 : Memref sig .tc .vmem S2048x2048 .f32).view (Rect.unit (s := S2048x2048) (k0_off17 c) S512x384.size (k0_off17_inb c)).toLoadRect f3) (View.readAt (Elt Ideal) (Memref.whole cc0_scratch2 : Memref sig .tc .vmem S1792x384 .bf16).view (Rect.unit (s := S1792x384) (k0_off18 c) S512x384.size (k0_off18_inb c)).toLoadRect fr)⟩] (Rect.unit (s := S2048x2048) (k0_off17 c) S512x384.size (k0_off17_inb c)).toLoadRect)⟩⌝
            ∗ ⌜(Vreal A B).rs1_0 (nbr 1 c) ((commM1_0 : Memref sig .tc .vmem S1024x384 .bf16).view.read (Elt Ideal) fr)⌝
            ∗ ⌜AccInv A B c ![2, 6, 1, 1, 1, 1] ((Memref.whole cc0_scratch0 : Memref sig .tc .vmem S2048x2048 .f32).view.writes (Elt Ideal) f3
              [⟨Rect.unit (s := S2048x2048) (k0_off17 c) S512x384.size (k0_off17_inb c), k0_pay21 (F := Ideal) (View.readAt (Elt Ideal) (Memref.whole cc0_scratch0 : Memref sig .tc .vmem S2048x2048 .f32).view (Rect.unit (s := S2048x2048) (k0_off17 c) S512x384.size (k0_off17_inb c)).toLoadRect f3) (View.readAt (Elt Ideal) (Memref.whole cc0_scratch2 : Memref sig .tc .vmem S1792x384 .bf16).view (Rect.unit (s := S1792x384) (k0_off18 c) S512x384.size (k0_off18_inb c)).toLoadRect fr)⟩])⌝
            ∗ ⌜∀ (r' : Fin 512) (j : Fin 384), ((k0_pay22 (F := Ideal) ((Memref.whole cc0_scratch0 : Memref sig .tc .vmem S2048x2048 .f32).view.readCov [⟨Rect.unit (s := S2048x2048) (k0_off17 c) S512x384.size (k0_off17_inb c), k0_pay21 (F := Ideal) (View.readAt (Elt Ideal) (Memref.whole cc0_scratch0 : Memref sig .tc .vmem S2048x2048 .f32).view (Rect.unit (s := S2048x2048) (k0_off17 c) S512x384.size (k0_off17_inb c)).toLoadRect f3) (View.readAt (Elt Ideal) (Memref.whole cc0_scratch2 : Memref sig .tc .vmem S1792x384 .bf16).view (Rect.unit (s := S1792x384) (k0_off18 c) S512x384.size (k0_off18_inb c)).toLoadRect fr)⟩] (Rect.unit (s := S2048x2048) (k0_off17 c) S512x384.size (k0_off17_inb c)).toLoadRect)) (ix2 r' j) : EReal) = rsSpec A B 1 1 c r'.val j.val⌝
            ∗ owes (c : Thread nD τ) (Owe c 10) (insert ((CK.rsR 1 0).sem, ()) (insert ((CK.rsS 1 0).sem, ()) W))
            ∗ atPos ER (cell c (.rsS 1 0)) 1 ∅ 0
            ∗ atPos ER (cell c (.rsR 1 0)) 1 ∅ 0
            ∗ ptsAny (F := Ideal) c stgM1_0
            ∗ heldW c (commM1_0 : Memref sig .tc .vmem S1024x384 .bf16) fr
            ∗ heldW c (Memref.whole cc0_scratch0 : Memref sig .tc .vmem S2048x2048 .f32) ((Memref.whole cc0_scratch0 : Memref sig .tc .vmem S2048x2048 .f32).view.writes (Elt Ideal) f3
              [⟨Rect.unit (s := S2048x2048) (k0_off17 c) S512x384.size (k0_off17_inb c), k0_pay21 (F := Ideal) (View.readAt (Elt Ideal) (Memref.whole cc0_scratch0 : Memref sig .tc .vmem S2048x2048 .f32).view (Rect.unit (s := S2048x2048) (k0_off17 c) S512x384.size (k0_off17_inb c)).toLoadRect f3) (View.readAt (Elt Ideal) (Memref.whole cc0_scratch2 : Memref sig .tc .vmem S1792x384 .bf16).view (Rect.unit (s := S1792x384) (k0_off18 c) S512x384.size (k0_off18_inb c)).toLoadRect fr)⟩]))) := by
  iintro ⟨Hpre, %hin0⟩
  have hpost : ∀ r : (Σ' (v304 : BitVec 32), FVec Ideal S512x384 .bf16), iprop(∃ fr : Buf (Elt Ideal) ((commM1_0 : Memref sig .tc .vmem S1024x384 .bf16).view.loc (c : Thread nD τ)), ⌜r = ⟨Scalar.addi v67 (Scalar.muli v9 512#32), k0_pay22 (F := Ideal) ((Memref.whole cc0_scratch0 : Memref sig .tc .vmem S2048x2048 .f32).view.readCov [⟨Rect.unit (s := S2048x2048) (k0_off17 c) S512x384.size (k0_off17_inb c), k0_pay21 (F := Ideal) (View.readAt (Elt Ideal) (Memref.whole cc0_scratch0 : Memref sig .tc .vmem S2048x2048 .f32).view (Rect.unit (s := S2048x2048) (k0_off17 c) S512x384.size (k0_off17_inb c)).toLoadRect f3) (View.readAt (Elt Ideal) (Memref.whole cc0_scratch2 : Memref sig .tc .vmem S1792x384 .bf16).view (Rect.unit (s := S1792x384) (k0_off18 c) S512x384.size (k0_off18_inb c)).toLoadRect fr)⟩] (Rect.unit (s := S2048x2048) (k0_off17 c) S512x384.size (k0_off17_inb c)).toLoadRect)⟩⌝
            ∗ ⌜(Vreal A B).rs1_0 (nbr 1 c) ((commM1_0 : Memref sig .tc .vmem S1024x384 .bf16).view.read (Elt Ideal) fr)⌝
            ∗ owes (c : Thread nD τ) (Owe c 10) (insert ((CK.rsR 1 0).sem, ()) (insert ((CK.rsS 1 0).sem, ()) W))
            ∗ atPos ER (cell c (.rsS 1 0)) 1 ∅ 0
            ∗ atPos ER (cell c (.rsR 1 0)) 1 ∅ 0
            ∗ ptsAny (F := Ideal) c stgM1_0
            ∗ heldW c (commM1_0 : Memref sig .tc .vmem S1024x384 .bf16) fr
            ∗ heldW c (Memref.whole cc0_scratch0 : Memref sig .tc .vmem S2048x2048 .f32) ((Memref.whole cc0_scratch0 : Memref sig .tc .vmem S2048x2048 .f32).view.writes (Elt Ideal) f3
              [⟨Rect.unit (s := S2048x2048) (k0_off17 c) S512x384.size (k0_off17_inb c), k0_pay21 (F := Ideal) (View.readAt (Elt Ideal) (Memref.whole cc0_scratch0 : Memref sig .tc .vmem S2048x2048 .f32).view (Rect.unit (s := S2048x2048) (k0_off17 c) S512x384.size (k0_off17_inb c)).toLoadRect f3) (View.readAt (Elt Ideal) (Memref.whole cc0_scratch2 : Memref sig .tc .vmem S1792x384 .bf16).view (Rect.unit (s := S1792x384) (k0_off18 c) S512x384.size (k0_off18_inb c)).toLoadRect fr)⟩])) ⊢ iprop(∃ fr : Buf (Elt Ideal) ((commM1_0 : Memref sig .tc .vmem S1024x384 .bf16).view.loc (c : Thread nD τ)), ⌜r = ⟨Scalar.addi v67 (Scalar.muli v9 512#32), k0_pay22 (F := Ideal) ((Memref.whole cc0_scratch0 : Memref sig .tc .vmem S2048x2048 .f32).view.readCov [⟨Rect.unit (s := S2048x2048) (k0_off17 c) S512x384.size (k0_off17_inb c), k0_pay21 (F := Ideal) (View.readAt (Elt Ideal) (Memref.whole cc0_scratch0 : Memref sig .tc .vmem S2048x2048 .f32).view (Rect.unit (s := S2048x2048) (k0_off17 c) S512x384.size (k0_off17_inb c)).toLoadRect f3) (View.readAt (Elt Ideal) (Memref.whole cc0_scratch2 : Memref sig .tc .vmem S1792x384 .bf16).view (Rect.unit (s := S1792x384) (k0_off18 c) S512x384.size (k0_off18_inb c)).toLoadRect fr)⟩] (Rect.unit (s := S2048x2048) (k0_off17 c) S512x384.size (k0_off17_inb c)).toLoadRect)⟩⌝
            ∗ ⌜(Vreal A B).rs1_0 (nbr 1 c) ((commM1_0 : Memref sig .tc .vmem S1024x384 .bf16).view.read (Elt Ideal) fr)⌝
            ∗ ⌜AccInv A B c ![2, 6, 1, 1, 1, 1] ((Memref.whole cc0_scratch0 : Memref sig .tc .vmem S2048x2048 .f32).view.writes (Elt Ideal) f3
              [⟨Rect.unit (s := S2048x2048) (k0_off17 c) S512x384.size (k0_off17_inb c), k0_pay21 (F := Ideal) (View.readAt (Elt Ideal) (Memref.whole cc0_scratch0 : Memref sig .tc .vmem S2048x2048 .f32).view (Rect.unit (s := S2048x2048) (k0_off17 c) S512x384.size (k0_off17_inb c)).toLoadRect f3) (View.readAt (Elt Ideal) (Memref.whole cc0_scratch2 : Memref sig .tc .vmem S1792x384 .bf16).view (Rect.unit (s := S1792x384) (k0_off18 c) S512x384.size (k0_off18_inb c)).toLoadRect fr)⟩])⌝
            ∗ ⌜∀ (r' : Fin 512) (j : Fin 384), ((k0_pay22 (F := Ideal) ((Memref.whole cc0_scratch0 : Memref sig .tc .vmem S2048x2048 .f32).view.readCov [⟨Rect.unit (s := S2048x2048) (k0_off17 c) S512x384.size (k0_off17_inb c), k0_pay21 (F := Ideal) (View.readAt (Elt Ideal) (Memref.whole cc0_scratch0 : Memref sig .tc .vmem S2048x2048 .f32).view (Rect.unit (s := S2048x2048) (k0_off17 c) S512x384.size (k0_off17_inb c)).toLoadRect f3) (View.readAt (Elt Ideal) (Memref.whole cc0_scratch2 : Memref sig .tc .vmem S1792x384 .bf16).view (Rect.unit (s := S1792x384) (k0_off18 c) S512x384.size (k0_off18_inb c)).toLoadRect fr)⟩] (Rect.unit (s := S2048x2048) (k0_off17 c) S512x384.size (k0_off17_inb c)).toLoadRect)) (ix2 r' j) : EReal) = rsSpec A B 1 1 c r'.val j.val⌝
            ∗ owes (c : Thread nD τ) (Owe c 10) (insert ((CK.rsR 1 0).sem, ()) (insert ((CK.rsS 1 0).sem, ()) W))
            ∗ atPos ER (cell c (.rsS 1 0)) 1 ∅ 0
            ∗ atPos ER (cell c (.rsR 1 0)) 1 ∅ 0
            ∗ ptsAny (F := Ideal) c stgM1_0
            ∗ heldW c (commM1_0 : Memref sig .tc .vmem S1024x384 .bf16) fr
            ∗ heldW c (Memref.whole cc0_scratch0 : Memref sig .tc .vmem S2048x2048 .f32) ((Memref.whole cc0_scratch0 : Memref sig .tc .vmem S2048x2048 .f32).view.writes (Elt Ideal) f3
              [⟨Rect.unit (s := S2048x2048) (k0_off17 c) S512x384.size (k0_off17_inb c), k0_pay21 (F := Ideal) (View.readAt (Elt Ideal) (Memref.whole cc0_scratch0 : Memref sig .tc .vmem S2048x2048 .f32).view (Rect.unit (s := S2048x2048) (k0_off17 c) S512x384.size (k0_off17_inb c)).toLoadRect f3) (View.readAt (Elt Ideal) (Memref.whole cc0_scratch2 : Memref sig .tc .vmem S1792x384 .bf16).view (Rect.unit (s := S1792x384) (k0_off18 c) S512x384.size (k0_off18_inb c)).toLoadRect fr)⟩])) := fun r => by
    iintro ⟨%fr, %hr, %hf, H⟩
    iexists fr
    isplitr; · ipureintro; exact hr
    isplitr; · ipureintro; exact hf
    isplitr; · ipureintro; exact (by exact AccInv.mk6 (LJ_cons (k := 0) (k0_off17_inb c) _ _ (off17_eq c) (Or.inr (by show 0 + 384 ≤ 384; omega)) (LJ_nil (AccInv.get0 hin0))) (show LJ A B 1 c 6 _ from J1q_cons A B (k0_off17_inb c) _ _ (off17_eq c) (Or.inr (by show cy c * 1024 + (1 - cz c) * 512 + 512 ≤ cy c * 1024 + cz c * 512 ∨ cy c * 1024 + cz c * 512 + 512 ≤ cy c * 1024 + (1 - cz c) * 512; have := cz_le c; omega)) (J1q_nil A B (J1q_of_J1 A B (AccInv.get1 hin0)))) (LJ_cons (k := 2) (k0_off17_inb c) _ _ (off17_eq c) (Or.inl (by show 384 + 384 ≤ 768; omega)) (LJ_nil (AccInv.get2 hin0))) (LJ_cons (k := 3) (k0_off17_inb c) _ _ (off17_eq c) (Or.inl (by show 384 + 384 ≤ 1152; omega)) (LJ_nil (AccInv.get3 hin0))) (LJ_cons (k := 4) (k0_off17_inb c) _ _ (off17_eq c) (Or.inl (by show 384 + 384 ≤ 1536; omega)) (LJ_nil (AccInv.get4 hin0))) (LJ_cons (k := 5) (k0_off17_inb c) _ _ (off17_eq c) (Or.inl (by show 384 + 384 ≤ 1792; omega)) (LJ_nil (AccInv.get5 hin0))))
    isplitr; · ipureintro; exact (by exact val_v322 A B c fr f3 (AccInv.get1 hin0) hf (Classical.arbitrary _))
    iexact H
  iapply (wp_mono frame (wpE (defs₀ (F := Ideal)) 𝒱₀ c none) Set.univ (fun r => hpost r))
  iapply (part10_run (Vreal A B) c κw1 κw2 W v9 v58 v67 f3)
  iexact Hpre

set_option maxHeartbeats 1000000 in
include hagree in
theorem part11_real (c : Dev nD) (κs κr κw1 : ℕ)
    (W : Waits sig Unit)
    (v2 v67 v82 v304 : BitVec 32)
    (v322 : FVec Ideal S512x384 .bf16)
    (fs : Buf (Elt Ideal) ((stgM1_0 : Memref sig .tc .vmem S1024x384 .bf16).view.loc (c : Thread nD τ)))
    (fr : Buf (Elt Ideal) ((commM1_0 : Memref sig .tc .vmem S1024x384 .bf16).view.loc (c : Thread nD τ)))
    (f3 : Buf (Elt Ideal) ((Memref.whole cc0_scratch0 : Memref sig .tc .vmem S2048x2048 .f32).view.loc (c : Thread nD τ))) :
    iprop((cellInv ER (sched (Vreal A B)) κs (cell c (.rsS 1 1))
        ∗ cellInv ER (sched (Vreal A B)) κr (cell (nbr 2 c) (.rsR 1 1))
        ∗ reached ER (cell c (.rsS 1 1)) 0
        ∗ reached ER (cell (nbr 2 c) (.rsR 1 1)) 0
        ∗ dutyTok ER (cell c (.rsS 1 1)) 0 (0 : Fin 3)
        ∗ dutyTok ER (cell (nbr 2 c) (.rsR 1 1)) 0 (0 : Fin 3)
        ∗ ptsAny (F := Ideal) (nbr 2 c) commM1_1
        ∗ owes (c : Thread nD τ) (Owe c 10) W
        ∗ heldW c (stgM1_0 : Memref sig .tc .vmem S1024x384 .bf16) fs
        ∗ heldW c (commM1_0 : Memref sig .tc .vmem S1024x384 .bf16) fr
        ∗ heldW c (Memref.whole cc0_scratch0 : Memref sig .tc .vmem S2048x2048 .f32) f3
        ∗ cellInv ER (sched (Vreal A B)) κw1 (cell c (.rsS 2 0))
        ∗ levAts L lv
        ∗ cred (tallyAt (cell c (.rsS 2 0)) () (amt (.rsR 2 0)))
        ∗ atPos ER (cell c (.rsS 2 0)) 0 ∅ 0)
        ∗ ⌜AccInv A B c ![2, 6, 1, 1, 1, 1] f3⌝
        ∗ ⌜(Vreal A B).rs1_0 (nbr 1 c) ((commM1_0 : Memref sig .tc .vmem S1024x384 .bf16).view.read (Elt Ideal) fr)⌝
        ∗ ⌜∀ (r' : Fin 512) (j : Fin 384), ((v322) (ix2 r' j) : EReal) = rsSpec A B 1 1 c r'.val j.val⌝)
      ⊢ wp frame (wpE (defs₀ (F := Ideal)) 𝒱₀ c none) Set.univ
          (k0_part11 (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23 c v2 v67 v82 v304 v322)
          (fun r => iprop((⌜r = ⟨Scalar.xori v2 4#32, Scalar.muli v82 1#32, 0#32⟩⌝
            ∗ cred (tallyAt (cell c (.rsS 1 1)) () (amt (.rsR 1 1)))
            ∗ owes (c : Thread nD τ) (Owe c 11) (insert ((CK.rsS 2 0).sem, ()) W)
            ∗ ((stgM1_0 : Memref sig .tc .vmem S1024x384 .bf16).view.loc (c : Thread nD τ) ↦[(stgM1_0 : Memref sig .tc .vmem S1024x384 .bf16).view.set \ (stgM1_1 : Memref sig .tc .vmem S512x384 .bf16).view.set]{fullShare} (View.write (Elt Ideal) ((Memref.whole cc0_scratch8 : Memref sig .tc .vmem S1024x384 .bf16).access (Rect.unit (s := S1024x384) ![0, 0] S512x384.size inb_S1024x384_S512x384_0_0)) fs v322 Finset.univ))
            ∗ heldW c (commM1_0 : Memref sig .tc .vmem S1024x384 .bf16) fr
            ∗ heldW c (Memref.whole cc0_scratch0 : Memref sig .tc .vmem S2048x2048 .f32) ((Memref.whole cc0_scratch0 : Memref sig .tc .vmem S2048x2048 .f32).view.writes (Elt Ideal) f3
              [⟨Rect.unit (s := S2048x2048) (k0_off19 c) S512x384.size (k0_off19_inb c), k0_pay23 (F := Ideal) (View.readAt (Elt Ideal) (Memref.whole cc0_scratch0 : Memref sig .tc .vmem S2048x2048 .f32).view (Rect.unit (s := S2048x2048) (k0_off19 c) S512x384.size (k0_off19_inb c)).toLoadRect f3) (View.readAt (Elt Ideal) (Memref.whole cc0_scratch2 : Memref sig .tc .vmem S1792x384 .bf16).view (Rect.unit (s := S1792x384) (k0_off20 c) S512x384.size (k0_off20_inb c)).toLoadRect fr)⟩])
            ∗ atPos ER (cell c (.rsS 2 0)) 1 ∅ 0
            ∗ ptsAny (F := Ideal) c stgM2_0)
            ∗ ⌜AccInv A B c ![2, 2, 1, 1, 1, 1] ((Memref.whole cc0_scratch0 : Memref sig .tc .vmem S2048x2048 .f32).view.writes (Elt Ideal) f3
              [⟨Rect.unit (s := S2048x2048) (k0_off19 c) S512x384.size (k0_off19_inb c), k0_pay23 (F := Ideal) (View.readAt (Elt Ideal) (Memref.whole cc0_scratch0 : Memref sig .tc .vmem S2048x2048 .f32).view (Rect.unit (s := S2048x2048) (k0_off19 c) S512x384.size (k0_off19_inb c)).toLoadRect f3) (View.readAt (Elt Ideal) (Memref.whole cc0_scratch2 : Memref sig .tc .vmem S1792x384 .bf16).view (Rect.unit (s := S1792x384) (k0_off20 c) S512x384.size (k0_off20_inb c)).toLoadRect fr)⟩])⌝)) := by
  iintro ⟨Hpre, %hin0, %hin1, %hin2⟩
  have hpost : ∀ r : (Σ' (v323 : BitVec 32) (v348 : BitVec 32), BitVec 32), iprop(⌜r = ⟨Scalar.xori v2 4#32, Scalar.muli v82 1#32, 0#32⟩⌝
            ∗ cred (tallyAt (cell c (.rsS 1 1)) () (amt (.rsR 1 1)))
            ∗ owes (c : Thread nD τ) (Owe c 11) (insert ((CK.rsS 2 0).sem, ()) W)
            ∗ ((stgM1_0 : Memref sig .tc .vmem S1024x384 .bf16).view.loc (c : Thread nD τ) ↦[(stgM1_0 : Memref sig .tc .vmem S1024x384 .bf16).view.set \ (stgM1_1 : Memref sig .tc .vmem S512x384 .bf16).view.set]{fullShare} (View.write (Elt Ideal) ((Memref.whole cc0_scratch8 : Memref sig .tc .vmem S1024x384 .bf16).access (Rect.unit (s := S1024x384) ![0, 0] S512x384.size inb_S1024x384_S512x384_0_0)) fs v322 Finset.univ))
            ∗ heldW c (commM1_0 : Memref sig .tc .vmem S1024x384 .bf16) fr
            ∗ heldW c (Memref.whole cc0_scratch0 : Memref sig .tc .vmem S2048x2048 .f32) ((Memref.whole cc0_scratch0 : Memref sig .tc .vmem S2048x2048 .f32).view.writes (Elt Ideal) f3
              [⟨Rect.unit (s := S2048x2048) (k0_off19 c) S512x384.size (k0_off19_inb c), k0_pay23 (F := Ideal) (View.readAt (Elt Ideal) (Memref.whole cc0_scratch0 : Memref sig .tc .vmem S2048x2048 .f32).view (Rect.unit (s := S2048x2048) (k0_off19 c) S512x384.size (k0_off19_inb c)).toLoadRect f3) (View.readAt (Elt Ideal) (Memref.whole cc0_scratch2 : Memref sig .tc .vmem S1792x384 .bf16).view (Rect.unit (s := S1792x384) (k0_off20 c) S512x384.size (k0_off20_inb c)).toLoadRect fr)⟩])
            ∗ atPos ER (cell c (.rsS 2 0)) 1 ∅ 0
            ∗ ptsAny (F := Ideal) c stgM2_0) ⊢ iprop((⌜r = ⟨Scalar.xori v2 4#32, Scalar.muli v82 1#32, 0#32⟩⌝
            ∗ cred (tallyAt (cell c (.rsS 1 1)) () (amt (.rsR 1 1)))
            ∗ owes (c : Thread nD τ) (Owe c 11) (insert ((CK.rsS 2 0).sem, ()) W)
            ∗ ((stgM1_0 : Memref sig .tc .vmem S1024x384 .bf16).view.loc (c : Thread nD τ) ↦[(stgM1_0 : Memref sig .tc .vmem S1024x384 .bf16).view.set \ (stgM1_1 : Memref sig .tc .vmem S512x384 .bf16).view.set]{fullShare} (View.write (Elt Ideal) ((Memref.whole cc0_scratch8 : Memref sig .tc .vmem S1024x384 .bf16).access (Rect.unit (s := S1024x384) ![0, 0] S512x384.size inb_S1024x384_S512x384_0_0)) fs v322 Finset.univ))
            ∗ heldW c (commM1_0 : Memref sig .tc .vmem S1024x384 .bf16) fr
            ∗ heldW c (Memref.whole cc0_scratch0 : Memref sig .tc .vmem S2048x2048 .f32) ((Memref.whole cc0_scratch0 : Memref sig .tc .vmem S2048x2048 .f32).view.writes (Elt Ideal) f3
              [⟨Rect.unit (s := S2048x2048) (k0_off19 c) S512x384.size (k0_off19_inb c), k0_pay23 (F := Ideal) (View.readAt (Elt Ideal) (Memref.whole cc0_scratch0 : Memref sig .tc .vmem S2048x2048 .f32).view (Rect.unit (s := S2048x2048) (k0_off19 c) S512x384.size (k0_off19_inb c)).toLoadRect f3) (View.readAt (Elt Ideal) (Memref.whole cc0_scratch2 : Memref sig .tc .vmem S1792x384 .bf16).view (Rect.unit (s := S1792x384) (k0_off20 c) S512x384.size (k0_off20_inb c)).toLoadRect fr)⟩])
            ∗ atPos ER (cell c (.rsS 2 0)) 1 ∅ 0
            ∗ ptsAny (F := Ideal) c stgM2_0)
            ∗ ⌜AccInv A B c ![2, 2, 1, 1, 1, 1] ((Memref.whole cc0_scratch0 : Memref sig .tc .vmem S2048x2048 .f32).view.writes (Elt Ideal) f3
              [⟨Rect.unit (s := S2048x2048) (k0_off19 c) S512x384.size (k0_off19_inb c), k0_pay23 (F := Ideal) (View.readAt (Elt Ideal) (Memref.whole cc0_scratch0 : Memref sig .tc .vmem S2048x2048 .f32).view (Rect.unit (s := S2048x2048) (k0_off19 c) S512x384.size (k0_off19_inb c)).toLoadRect f3) (View.readAt (Elt Ideal) (Memref.whole cc0_scratch2 : Memref sig .tc .vmem S1792x384 .bf16).view (Rect.unit (s := S1792x384) (k0_off20 c) S512x384.size (k0_off20_inb c)).toLoadRect fr)⟩])⌝) := fun r => by
    iintro H
    isplitl [H]; · iexact H
    ipureintro; exact (by exact AccInv.mk6 (LJ_cons (k := 0) (k0_off19_inb c) _ _ (off19_eq c) (Or.inr (by show 0 + 384 ≤ 384; omega)) (LJ_nil (AccInv.get0 hin0))) (J2_1_stored' A B c f3 fr (AccInv.get1 hin0) hin1) (LJ_cons (k := 2) (k0_off19_inb c) _ _ (off19_eq c) (Or.inl (by show 384 + 384 ≤ 768; omega)) (LJ_nil (AccInv.get2 hin0))) (LJ_cons (k := 3) (k0_off19_inb c) _ _ (off19_eq c) (Or.inl (by show 384 + 384 ≤ 1152; omega)) (LJ_nil (AccInv.get3 hin0))) (LJ_cons (k := 4) (k0_off19_inb c) _ _ (off19_eq c) (Or.inl (by show 384 + 384 ≤ 1536; omega)) (LJ_nil (AccInv.get4 hin0))) (LJ_cons (k := 5) (k0_off19_inb c) _ _ (off19_eq c) (Or.inl (by show 384 + 384 ≤ 1792; omega)) (LJ_nil (AccInv.get5 hin0))))
  iapply (wp_mono frame (wpE (defs₀ (F := Ideal)) 𝒱₀ c none) Set.univ (fun r => hpost r))
  iapply (part11_run (Vreal A B) c κs κr κw1 W v2 v67 v82 v304 v322 fs fr f3 (by exact val_rs1_1v A B c fs v322 hin2))
  iexact Hpre

set_option maxHeartbeats 1000000 in
include hagree in
theorem part12_real (c : Dev nD) (κw2 : ℕ)
    (W : Waits sig Unit)
    (v2 v6 v91 v348 c0_i32_257 : BitVec 32)
    (fs : Buf (Elt Ideal) ((stgM2_0 : Memref sig .tc .vmem S1024x384 .bf16).view.loc (c : Thread nD τ)))
    (f3 : Buf (Elt Ideal) ((Memref.whole cc0_scratch0 : Memref sig .tc .vmem S2048x2048 .f32).view.loc (c : Thread nD τ))) :
    iprop((cellInv ER (sched (Vreal A B)) κw2 (cell c (.rsR 2 0))
        ∗ levAts L lv
        ∗ cred (tallyAt (cell c (.rsR 2 0)) () (amt (.rsR 2 0)))
        ∗ atPos ER (cell c (.rsR 2 0)) 0 ∅ 0
        ∗ owes (c : Thread nD τ) (Owe c 11) W
        ∗ heldW c (stgM2_0 : Memref sig .tc .vmem S1024x384 .bf16) fs
        ∗ heldW c (Memref.whole cc0_scratch0 : Memref sig .tc .vmem S2048x2048 .f32) f3)
        ∗ ⌜AccInv A B c ![2, 2, 1, 1, 1, 1] f3⌝)
      ⊢ wp frame (wpE (defs₀ (F := Ideal)) 𝒱₀ c none) Set.univ
          (k0_part12 (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23 c v2 v6 v91 v348 c0_i32_257)
          (fun r => iprop(∃ fr : Buf (Elt Ideal) ((commM2_0 : Memref sig .tc .vmem S1024x384 .bf16).view.loc (c : Thread nD τ)), ⌜r = ⟨Scalar.addi v91 (Scalar.muli v6 512#32), Scalar.xori v2 1#32⟩⌝
            ∗ ⌜(Vreal A B).rs2_0 (nbr 2 c) ((commM2_0 : Memref sig .tc .vmem S1024x384 .bf16).view.read (Elt Ideal) fr)⌝
            ∗ ⌜AccInv A B c ![2, 2, 6, 1, 1, 1] ((Memref.whole cc0_scratch0 : Memref sig .tc .vmem S2048x2048 .f32).view.writes (Elt Ideal) f3
              [⟨Rect.unit (s := S2048x2048) (k0_off21 c) S512x384.size (k0_off21_inb c), k0_pay24 (F := Ideal) (View.readAt (Elt Ideal) (Memref.whole cc0_scratch0 : Memref sig .tc .vmem S2048x2048 .f32).view (Rect.unit (s := S2048x2048) (k0_off21 c) S512x384.size (k0_off21_inb c)).toLoadRect f3) (View.readAt (Elt Ideal) (Memref.whole cc0_scratch3 : Memref sig .tc .vmem S1792x384 .bf16).view (Rect.unit (s := S1792x384) (k0_off22 c) S512x384.size (k0_off22_inb c)).toLoadRect fr)⟩])⌝
            ∗ ⌜(Vreal A B).rs2_1 c ((stgM2_1 : Memref sig .tc .vmem S512x384 .bf16).view.read (Elt Ideal) (View.write (Elt Ideal) ((Memref.whole cc0_scratch9 : Memref sig .tc .vmem S1024x384 .bf16).access (Rect.unit (s := S1024x384) ![0, 0] S512x384.size inb_S1024x384_S512x384_0_0)) fs (k0_pay25 (F := Ideal) ((Memref.whole cc0_scratch0 : Memref sig .tc .vmem S2048x2048 .f32).view.readCov [⟨Rect.unit (s := S2048x2048) (k0_off21 c) S512x384.size (k0_off21_inb c), k0_pay24 (F := Ideal) (View.readAt (Elt Ideal) (Memref.whole cc0_scratch0 : Memref sig .tc .vmem S2048x2048 .f32).view (Rect.unit (s := S2048x2048) (k0_off21 c) S512x384.size (k0_off21_inb c)).toLoadRect f3) (View.readAt (Elt Ideal) (Memref.whole cc0_scratch3 : Memref sig .tc .vmem S1792x384 .bf16).view (Rect.unit (s := S1792x384) (k0_off22 c) S512x384.size (k0_off22_inb c)).toLoadRect fr)⟩] (Rect.unit (s := S2048x2048) (k0_off21 c) S512x384.size (k0_off21_inb c)).toLoadRect)) Finset.univ))⌝
            ∗ owes (c : Thread nD τ) (Owe c 11) (insert ((CK.rsR 2 0).sem, ()) W)
            ∗ atPos ER (cell c (.rsR 2 0)) 1 ∅ 0
            ∗ heldW c (stgM2_0 : Memref sig .tc .vmem S1024x384 .bf16) (View.write (Elt Ideal) ((Memref.whole cc0_scratch9 : Memref sig .tc .vmem S1024x384 .bf16).access (Rect.unit (s := S1024x384) ![0, 0] S512x384.size inb_S1024x384_S512x384_0_0)) fs (k0_pay25 (F := Ideal) ((Memref.whole cc0_scratch0 : Memref sig .tc .vmem S2048x2048 .f32).view.readCov [⟨Rect.unit (s := S2048x2048) (k0_off21 c) S512x384.size (k0_off21_inb c), k0_pay24 (F := Ideal) (View.readAt (Elt Ideal) (Memref.whole cc0_scratch0 : Memref sig .tc .vmem S2048x2048 .f32).view (Rect.unit (s := S2048x2048) (k0_off21 c) S512x384.size (k0_off21_inb c)).toLoadRect f3) (View.readAt (Elt Ideal) (Memref.whole cc0_scratch3 : Memref sig .tc .vmem S1792x384 .bf16).view (Rect.unit (s := S1792x384) (k0_off22 c) S512x384.size (k0_off22_inb c)).toLoadRect fr)⟩] (Rect.unit (s := S2048x2048) (k0_off21 c) S512x384.size (k0_off21_inb c)).toLoadRect)) Finset.univ)
            ∗ heldW c (commM2_0 : Memref sig .tc .vmem S1024x384 .bf16) fr
            ∗ heldW c (Memref.whole cc0_scratch0 : Memref sig .tc .vmem S2048x2048 .f32) ((Memref.whole cc0_scratch0 : Memref sig .tc .vmem S2048x2048 .f32).view.writes (Elt Ideal) f3
              [⟨Rect.unit (s := S2048x2048) (k0_off21 c) S512x384.size (k0_off21_inb c), k0_pay24 (F := Ideal) (View.readAt (Elt Ideal) (Memref.whole cc0_scratch0 : Memref sig .tc .vmem S2048x2048 .f32).view (Rect.unit (s := S2048x2048) (k0_off21 c) S512x384.size (k0_off21_inb c)).toLoadRect f3) (View.readAt (Elt Ideal) (Memref.whole cc0_scratch3 : Memref sig .tc .vmem S1792x384 .bf16).view (Rect.unit (s := S1792x384) (k0_off22 c) S512x384.size (k0_off22_inb c)).toLoadRect fr)⟩]))) := by
  iintro ⟨Hpre, %hin0⟩
  have hpost : ∀ r : (Σ' (v358 : BitVec 32), BitVec 32), iprop(∃ fr : Buf (Elt Ideal) ((commM2_0 : Memref sig .tc .vmem S1024x384 .bf16).view.loc (c : Thread nD τ)), ⌜r = ⟨Scalar.addi v91 (Scalar.muli v6 512#32), Scalar.xori v2 1#32⟩⌝
            ∗ ⌜(Vreal A B).rs2_0 (nbr 2 c) ((commM2_0 : Memref sig .tc .vmem S1024x384 .bf16).view.read (Elt Ideal) fr)⌝
            ∗ owes (c : Thread nD τ) (Owe c 11) (insert ((CK.rsR 2 0).sem, ()) W)
            ∗ atPos ER (cell c (.rsR 2 0)) 1 ∅ 0
            ∗ heldW c (stgM2_0 : Memref sig .tc .vmem S1024x384 .bf16) (View.write (Elt Ideal) ((Memref.whole cc0_scratch9 : Memref sig .tc .vmem S1024x384 .bf16).access (Rect.unit (s := S1024x384) ![0, 0] S512x384.size inb_S1024x384_S512x384_0_0)) fs (k0_pay25 (F := Ideal) ((Memref.whole cc0_scratch0 : Memref sig .tc .vmem S2048x2048 .f32).view.readCov [⟨Rect.unit (s := S2048x2048) (k0_off21 c) S512x384.size (k0_off21_inb c), k0_pay24 (F := Ideal) (View.readAt (Elt Ideal) (Memref.whole cc0_scratch0 : Memref sig .tc .vmem S2048x2048 .f32).view (Rect.unit (s := S2048x2048) (k0_off21 c) S512x384.size (k0_off21_inb c)).toLoadRect f3) (View.readAt (Elt Ideal) (Memref.whole cc0_scratch3 : Memref sig .tc .vmem S1792x384 .bf16).view (Rect.unit (s := S1792x384) (k0_off22 c) S512x384.size (k0_off22_inb c)).toLoadRect fr)⟩] (Rect.unit (s := S2048x2048) (k0_off21 c) S512x384.size (k0_off21_inb c)).toLoadRect)) Finset.univ)
            ∗ heldW c (commM2_0 : Memref sig .tc .vmem S1024x384 .bf16) fr
            ∗ heldW c (Memref.whole cc0_scratch0 : Memref sig .tc .vmem S2048x2048 .f32) ((Memref.whole cc0_scratch0 : Memref sig .tc .vmem S2048x2048 .f32).view.writes (Elt Ideal) f3
              [⟨Rect.unit (s := S2048x2048) (k0_off21 c) S512x384.size (k0_off21_inb c), k0_pay24 (F := Ideal) (View.readAt (Elt Ideal) (Memref.whole cc0_scratch0 : Memref sig .tc .vmem S2048x2048 .f32).view (Rect.unit (s := S2048x2048) (k0_off21 c) S512x384.size (k0_off21_inb c)).toLoadRect f3) (View.readAt (Elt Ideal) (Memref.whole cc0_scratch3 : Memref sig .tc .vmem S1792x384 .bf16).view (Rect.unit (s := S1792x384) (k0_off22 c) S512x384.size (k0_off22_inb c)).toLoadRect fr)⟩])) ⊢ iprop(∃ fr : Buf (Elt Ideal) ((commM2_0 : Memref sig .tc .vmem S1024x384 .bf16).view.loc (c : Thread nD τ)), ⌜r = ⟨Scalar.addi v91 (Scalar.muli v6 512#32), Scalar.xori v2 1#32⟩⌝
            ∗ ⌜(Vreal A B).rs2_0 (nbr 2 c) ((commM2_0 : Memref sig .tc .vmem S1024x384 .bf16).view.read (Elt Ideal) fr)⌝
            ∗ ⌜AccInv A B c ![2, 2, 6, 1, 1, 1] ((Memref.whole cc0_scratch0 : Memref sig .tc .vmem S2048x2048 .f32).view.writes (Elt Ideal) f3
              [⟨Rect.unit (s := S2048x2048) (k0_off21 c) S512x384.size (k0_off21_inb c), k0_pay24 (F := Ideal) (View.readAt (Elt Ideal) (Memref.whole cc0_scratch0 : Memref sig .tc .vmem S2048x2048 .f32).view (Rect.unit (s := S2048x2048) (k0_off21 c) S512x384.size (k0_off21_inb c)).toLoadRect f3) (View.readAt (Elt Ideal) (Memref.whole cc0_scratch3 : Memref sig .tc .vmem S1792x384 .bf16).view (Rect.unit (s := S1792x384) (k0_off22 c) S512x384.size (k0_off22_inb c)).toLoadRect fr)⟩])⌝
            ∗ ⌜(Vreal A B).rs2_1 c ((stgM2_1 : Memref sig .tc .vmem S512x384 .bf16).view.read (Elt Ideal) (View.write (Elt Ideal) ((Memref.whole cc0_scratch9 : Memref sig .tc .vmem S1024x384 .bf16).access (Rect.unit (s := S1024x384) ![0, 0] S512x384.size inb_S1024x384_S512x384_0_0)) fs (k0_pay25 (F := Ideal) ((Memref.whole cc0_scratch0 : Memref sig .tc .vmem S2048x2048 .f32).view.readCov [⟨Rect.unit (s := S2048x2048) (k0_off21 c) S512x384.size (k0_off21_inb c), k0_pay24 (F := Ideal) (View.readAt (Elt Ideal) (Memref.whole cc0_scratch0 : Memref sig .tc .vmem S2048x2048 .f32).view (Rect.unit (s := S2048x2048) (k0_off21 c) S512x384.size (k0_off21_inb c)).toLoadRect f3) (View.readAt (Elt Ideal) (Memref.whole cc0_scratch3 : Memref sig .tc .vmem S1792x384 .bf16).view (Rect.unit (s := S1792x384) (k0_off22 c) S512x384.size (k0_off22_inb c)).toLoadRect fr)⟩] (Rect.unit (s := S2048x2048) (k0_off21 c) S512x384.size (k0_off21_inb c)).toLoadRect)) Finset.univ))⌝
            ∗ owes (c : Thread nD τ) (Owe c 11) (insert ((CK.rsR 2 0).sem, ()) W)
            ∗ atPos ER (cell c (.rsR 2 0)) 1 ∅ 0
            ∗ heldW c (stgM2_0 : Memref sig .tc .vmem S1024x384 .bf16) (View.write (Elt Ideal) ((Memref.whole cc0_scratch9 : Memref sig .tc .vmem S1024x384 .bf16).access (Rect.unit (s := S1024x384) ![0, 0] S512x384.size inb_S1024x384_S512x384_0_0)) fs (k0_pay25 (F := Ideal) ((Memref.whole cc0_scratch0 : Memref sig .tc .vmem S2048x2048 .f32).view.readCov [⟨Rect.unit (s := S2048x2048) (k0_off21 c) S512x384.size (k0_off21_inb c), k0_pay24 (F := Ideal) (View.readAt (Elt Ideal) (Memref.whole cc0_scratch0 : Memref sig .tc .vmem S2048x2048 .f32).view (Rect.unit (s := S2048x2048) (k0_off21 c) S512x384.size (k0_off21_inb c)).toLoadRect f3) (View.readAt (Elt Ideal) (Memref.whole cc0_scratch3 : Memref sig .tc .vmem S1792x384 .bf16).view (Rect.unit (s := S1792x384) (k0_off22 c) S512x384.size (k0_off22_inb c)).toLoadRect fr)⟩] (Rect.unit (s := S2048x2048) (k0_off21 c) S512x384.size (k0_off21_inb c)).toLoadRect)) Finset.univ)
            ∗ heldW c (commM2_0 : Memref sig .tc .vmem S1024x384 .bf16) fr
            ∗ heldW c (Memref.whole cc0_scratch0 : Memref sig .tc .vmem S2048x2048 .f32) ((Memref.whole cc0_scratch0 : Memref sig .tc .vmem S2048x2048 .f32).view.writes (Elt Ideal) f3
              [⟨Rect.unit (s := S2048x2048) (k0_off21 c) S512x384.size (k0_off21_inb c), k0_pay24 (F := Ideal) (View.readAt (Elt Ideal) (Memref.whole cc0_scratch0 : Memref sig .tc .vmem S2048x2048 .f32).view (Rect.unit (s := S2048x2048) (k0_off21 c) S512x384.size (k0_off21_inb c)).toLoadRect f3) (View.readAt (Elt Ideal) (Memref.whole cc0_scratch3 : Memref sig .tc .vmem S1792x384 .bf16).view (Rect.unit (s := S1792x384) (k0_off22 c) S512x384.size (k0_off22_inb c)).toLoadRect fr)⟩])) := fun r => by
    iintro ⟨%fr, %hr, %hf, H⟩
    iexists fr
    isplitr; · ipureintro; exact hr
    isplitr; · ipureintro; exact hf
    isplitr; · ipureintro; exact (by exact AccInv.mk6 (LJ_cons (k := 0) (k0_off21_inb c) _ _ (off21_eq c) (Or.inr (by show 0 + 384 ≤ 768; omega)) (LJ_nil (AccInv.get0 hin0))) (LJ_cons (k := 1) (k0_off21_inb c) _ _ (off21_eq c) (Or.inr (by show 384 + 384 ≤ 768; omega)) (LJ_nil (AccInv.get1 hin0))) (show LJ A B 2 c 6 _ from J1q_cons A B (k0_off21_inb c) _ _ (off21_eq c) (Or.inr (by show cz c * 1024 + (1 - cx c) * 512 + 512 ≤ cz c * 1024 + cx c * 512 ∨ cz c * 1024 + cx c * 512 + 512 ≤ cz c * 1024 + (1 - cx c) * 512; have := cx_le c; omega)) (J1q_nil A B (J1q_of_J1 A B (AccInv.get2 hin0)))) (LJ_cons (k := 3) (k0_off21_inb c) _ _ (off21_eq c) (Or.inl (by show 768 + 384 ≤ 1152; omega)) (LJ_nil (AccInv.get3 hin0))) (LJ_cons (k := 4) (k0_off21_inb c) _ _ (off21_eq c) (Or.inl (by show 768 + 384 ≤ 1536; omega)) (LJ_nil (AccInv.get4 hin0))) (LJ_cons (k := 5) (k0_off21_inb c) _ _ (off21_eq c) (Or.inl (by show 768 + 384 ≤ 1792; omega)) (LJ_nil (AccInv.get5 hin0))))
    isplitr; · ipureintro; exact (by exact val_rs2_1 A B c fs fr f3 (AccInv.get2 hin0) hf)
    iexact H
  iapply (wp_mono frame (wpE (defs₀ (F := Ideal)) 𝒱₀ c none) Set.univ (fun r => hpost r))
  iapply (part12_run (Vreal A B) c κw2 W v2 v6 v91 v348 c0_i32_257 fs f3)
  iexact Hpre

set_option maxHeartbeats 1000000 in
include hagree in
theorem part13_real (c : Dev nD) (κs κr κw1 κw2 : ℕ)
    (W : Waits sig Unit)
    (v8 v91 v106 v115 v358 : BitVec 32)
    (fs : Buf (Elt Ideal) ((stgM2_0 : Memref sig .tc .vmem S1024x384 .bf16).view.loc (c : Thread nD τ)))
    (fr : Buf (Elt Ideal) ((commM2_0 : Memref sig .tc .vmem S1024x384 .bf16).view.loc (c : Thread nD τ)))
    (f3 : Buf (Elt Ideal) ((Memref.whole cc0_scratch0 : Memref sig .tc .vmem S2048x2048 .f32).view.loc (c : Thread nD τ))) :
    iprop((cellInv ER (sched (Vreal A B)) κs (cell c (.rsS 2 1))
        ∗ cellInv ER (sched (Vreal A B)) κr (cell (nbr 0 c) (.rsR 2 1))
        ∗ reached ER (cell c (.rsS 2 1)) 0
        ∗ reached ER (cell (nbr 0 c) (.rsR 2 1)) 0
        ∗ dutyTok ER (cell c (.rsS 2 1)) 0 (0 : Fin 3)
        ∗ dutyTok ER (cell (nbr 0 c) (.rsR 2 1)) 0 (0 : Fin 3)
        ∗ ptsAny (F := Ideal) (nbr 0 c) commM2_1
        ∗ owes (c : Thread nD τ) (Owe c 11) W
        ∗ heldW c (stgM2_0 : Memref sig .tc .vmem S1024x384 .bf16) fs
        ∗ heldW c (commM2_0 : Memref sig .tc .vmem S1024x384 .bf16) fr
        ∗ heldW c (Memref.whole cc0_scratch0 : Memref sig .tc .vmem S2048x2048 .f32) f3
        ∗ cellInv ER (sched (Vreal A B)) κw1 (cell c (.rsS 3 0))
        ∗ cellInv ER (sched (Vreal A B)) κw2 (cell c (.rsR 3 0))
        ∗ levAts L lv
        ∗ cred (tallyAt (cell c (.rsS 3 0)) () (amt (.rsR 3 0)))
        ∗ cred (tallyAt (cell c (.rsR 3 0)) () (amt (.rsR 3 0)))
        ∗ atPos ER (cell c (.rsS 3 0)) 0 ∅ 0
        ∗ atPos ER (cell c (.rsR 3 0)) 0 ∅ 0)
        ∗ ⌜AccInv A B c ![2, 2, 6, 1, 1, 1] f3⌝
        ∗ ⌜(Vreal A B).rs2_0 (nbr 2 c) ((commM2_0 : Memref sig .tc .vmem S1024x384 .bf16).view.read (Elt Ideal) fr)⌝
        ∗ ⌜(Vreal A B).rs2_1 c ((stgM2_1 : Memref sig .tc .vmem S512x384 .bf16).view.read (Elt Ideal) fs)⌝)
      ⊢ wp frame (wpE (defs₀ (F := Ideal)) 𝒱₀ c none) Set.univ
          (k0_part13 (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23 c v8 v91 v106 v115 v358)
          (fun r => iprop(∃ fr3 : Buf (Elt Ideal) ((commM3_0 : Memref sig .tc .vmem S1024x384 .bf16).view.loc (c : Thread nD τ)), ⌜r = ⟨Scalar.addi v115 (Scalar.muli (Scalar.subi 1#32 v8) 512#32), 512#32⟩⌝
            ∗ ⌜(Vreal A B).rs3_0 (nbr 0 c) ((commM3_0 : Memref sig .tc .vmem S1024x384 .bf16).view.read (Elt Ideal) fr3)⌝
            ∗ ⌜AccInv A B c ![2, 2, 2, 1, 1, 1] ((Memref.whole cc0_scratch0 : Memref sig .tc .vmem S2048x2048 .f32).view.writes (Elt Ideal) f3
              [⟨Rect.unit (s := S2048x2048) (k0_off23 c) S512x384.size (k0_off23_inb c), k0_pay26 (F := Ideal) (View.readAt (Elt Ideal) (Memref.whole cc0_scratch0 : Memref sig .tc .vmem S2048x2048 .f32).view (Rect.unit (s := S2048x2048) (k0_off23 c) S512x384.size (k0_off23_inb c)).toLoadRect f3) (View.readAt (Elt Ideal) (Memref.whole cc0_scratch3 : Memref sig .tc .vmem S1792x384 .bf16).view (Rect.unit (s := S1792x384) (k0_off24 c) S512x384.size (k0_off24_inb c)).toLoadRect fr)⟩])⌝
            ∗ cred (tallyAt (cell c (.rsS 2 1)) () (amt (.rsR 2 1)))
            ∗ owes (c : Thread nD τ) (Owe c 12) (insert ((CK.rsR 3 0).sem, ()) (insert ((CK.rsS 3 0).sem, ()) W))
            ∗ ((stgM2_0 : Memref sig .tc .vmem S1024x384 .bf16).view.loc (c : Thread nD τ) ↦[(stgM2_0 : Memref sig .tc .vmem S1024x384 .bf16).view.set \ (stgM2_1 : Memref sig .tc .vmem S512x384 .bf16).view.set]{fullShare} fs)
            ∗ heldW c (commM2_0 : Memref sig .tc .vmem S1024x384 .bf16) fr
            ∗ heldW c (Memref.whole cc0_scratch0 : Memref sig .tc .vmem S2048x2048 .f32) ((Memref.whole cc0_scratch0 : Memref sig .tc .vmem S2048x2048 .f32).view.writes (Elt Ideal) f3
              [⟨Rect.unit (s := S2048x2048) (k0_off23 c) S512x384.size (k0_off23_inb c), k0_pay26 (F := Ideal) (View.readAt (Elt Ideal) (Memref.whole cc0_scratch0 : Memref sig .tc .vmem S2048x2048 .f32).view (Rect.unit (s := S2048x2048) (k0_off23 c) S512x384.size (k0_off23_inb c)).toLoadRect f3) (View.readAt (Elt Ideal) (Memref.whole cc0_scratch3 : Memref sig .tc .vmem S1792x384 .bf16).view (Rect.unit (s := S1792x384) (k0_off24 c) S512x384.size (k0_off24_inb c)).toLoadRect fr)⟩])
            ∗ atPos ER (cell c (.rsS 3 0)) 1 ∅ 0
            ∗ atPos ER (cell c (.rsR 3 0)) 1 ∅ 0
            ∗ ptsAny (F := Ideal) c stgM3_0
            ∗ heldW c (commM3_0 : Memref sig .tc .vmem S1024x384 .bf16) fr3)) := by
  iintro ⟨Hpre, %hin0, %hin1, %hin2⟩
  have hpost : ∀ r : (Σ' (v410 : BitVec 32), BitVec 32), iprop(∃ fr3 : Buf (Elt Ideal) ((commM3_0 : Memref sig .tc .vmem S1024x384 .bf16).view.loc (c : Thread nD τ)), ⌜r = ⟨Scalar.addi v115 (Scalar.muli (Scalar.subi 1#32 v8) 512#32), 512#32⟩⌝
            ∗ ⌜(Vreal A B).rs3_0 (nbr 0 c) ((commM3_0 : Memref sig .tc .vmem S1024x384 .bf16).view.read (Elt Ideal) fr3)⌝
            ∗ cred (tallyAt (cell c (.rsS 2 1)) () (amt (.rsR 2 1)))
            ∗ owes (c : Thread nD τ) (Owe c 12) (insert ((CK.rsR 3 0).sem, ()) (insert ((CK.rsS 3 0).sem, ()) W))
            ∗ ((stgM2_0 : Memref sig .tc .vmem S1024x384 .bf16).view.loc (c : Thread nD τ) ↦[(stgM2_0 : Memref sig .tc .vmem S1024x384 .bf16).view.set \ (stgM2_1 : Memref sig .tc .vmem S512x384 .bf16).view.set]{fullShare} fs)
            ∗ heldW c (commM2_0 : Memref sig .tc .vmem S1024x384 .bf16) fr
            ∗ heldW c (Memref.whole cc0_scratch0 : Memref sig .tc .vmem S2048x2048 .f32) ((Memref.whole cc0_scratch0 : Memref sig .tc .vmem S2048x2048 .f32).view.writes (Elt Ideal) f3
              [⟨Rect.unit (s := S2048x2048) (k0_off23 c) S512x384.size (k0_off23_inb c), k0_pay26 (F := Ideal) (View.readAt (Elt Ideal) (Memref.whole cc0_scratch0 : Memref sig .tc .vmem S2048x2048 .f32).view (Rect.unit (s := S2048x2048) (k0_off23 c) S512x384.size (k0_off23_inb c)).toLoadRect f3) (View.readAt (Elt Ideal) (Memref.whole cc0_scratch3 : Memref sig .tc .vmem S1792x384 .bf16).view (Rect.unit (s := S1792x384) (k0_off24 c) S512x384.size (k0_off24_inb c)).toLoadRect fr)⟩])
            ∗ atPos ER (cell c (.rsS 3 0)) 1 ∅ 0
            ∗ atPos ER (cell c (.rsR 3 0)) 1 ∅ 0
            ∗ ptsAny (F := Ideal) c stgM3_0
            ∗ heldW c (commM3_0 : Memref sig .tc .vmem S1024x384 .bf16) fr3) ⊢ iprop(∃ fr3 : Buf (Elt Ideal) ((commM3_0 : Memref sig .tc .vmem S1024x384 .bf16).view.loc (c : Thread nD τ)), ⌜r = ⟨Scalar.addi v115 (Scalar.muli (Scalar.subi 1#32 v8) 512#32), 512#32⟩⌝
            ∗ ⌜(Vreal A B).rs3_0 (nbr 0 c) ((commM3_0 : Memref sig .tc .vmem S1024x384 .bf16).view.read (Elt Ideal) fr3)⌝
            ∗ ⌜AccInv A B c ![2, 2, 2, 1, 1, 1] ((Memref.whole cc0_scratch0 : Memref sig .tc .vmem S2048x2048 .f32).view.writes (Elt Ideal) f3
              [⟨Rect.unit (s := S2048x2048) (k0_off23 c) S512x384.size (k0_off23_inb c), k0_pay26 (F := Ideal) (View.readAt (Elt Ideal) (Memref.whole cc0_scratch0 : Memref sig .tc .vmem S2048x2048 .f32).view (Rect.unit (s := S2048x2048) (k0_off23 c) S512x384.size (k0_off23_inb c)).toLoadRect f3) (View.readAt (Elt Ideal) (Memref.whole cc0_scratch3 : Memref sig .tc .vmem S1792x384 .bf16).view (Rect.unit (s := S1792x384) (k0_off24 c) S512x384.size (k0_off24_inb c)).toLoadRect fr)⟩])⌝
            ∗ cred (tallyAt (cell c (.rsS 2 1)) () (amt (.rsR 2 1)))
            ∗ owes (c : Thread nD τ) (Owe c 12) (insert ((CK.rsR 3 0).sem, ()) (insert ((CK.rsS 3 0).sem, ()) W))
            ∗ ((stgM2_0 : Memref sig .tc .vmem S1024x384 .bf16).view.loc (c : Thread nD τ) ↦[(stgM2_0 : Memref sig .tc .vmem S1024x384 .bf16).view.set \ (stgM2_1 : Memref sig .tc .vmem S512x384 .bf16).view.set]{fullShare} fs)
            ∗ heldW c (commM2_0 : Memref sig .tc .vmem S1024x384 .bf16) fr
            ∗ heldW c (Memref.whole cc0_scratch0 : Memref sig .tc .vmem S2048x2048 .f32) ((Memref.whole cc0_scratch0 : Memref sig .tc .vmem S2048x2048 .f32).view.writes (Elt Ideal) f3
              [⟨Rect.unit (s := S2048x2048) (k0_off23 c) S512x384.size (k0_off23_inb c), k0_pay26 (F := Ideal) (View.readAt (Elt Ideal) (Memref.whole cc0_scratch0 : Memref sig .tc .vmem S2048x2048 .f32).view (Rect.unit (s := S2048x2048) (k0_off23 c) S512x384.size (k0_off23_inb c)).toLoadRect f3) (View.readAt (Elt Ideal) (Memref.whole cc0_scratch3 : Memref sig .tc .vmem S1792x384 .bf16).view (Rect.unit (s := S1792x384) (k0_off24 c) S512x384.size (k0_off24_inb c)).toLoadRect fr)⟩])
            ∗ atPos ER (cell c (.rsS 3 0)) 1 ∅ 0
            ∗ atPos ER (cell c (.rsR 3 0)) 1 ∅ 0
            ∗ ptsAny (F := Ideal) c stgM3_0
            ∗ heldW c (commM3_0 : Memref sig .tc .vmem S1024x384 .bf16) fr3) := fun r => by
    iintro ⟨%fr3, %hr, %hf, H⟩
    iexists fr3
    isplitr; · ipureintro; exact hr
    isplitr; · ipureintro; exact hf
    isplitr; · ipureintro; exact (by exact AccInv.mk6 (LJ_cons (k := 0) (k0_off23_inb c) _ _ (off23_eq c) (Or.inr (by show 0 + 384 ≤ 768; omega)) (LJ_nil (AccInv.get0 hin0))) (LJ_cons (k := 1) (k0_off23_inb c) _ _ (off23_eq c) (Or.inr (by show 384 + 384 ≤ 768; omega)) (LJ_nil (AccInv.get1 hin0))) (J2_2_stored' A B c f3 fr (AccInv.get2 hin0) hin1) (LJ_cons (k := 3) (k0_off23_inb c) _ _ (off23_eq c) (Or.inl (by show 768 + 384 ≤ 1152; omega)) (LJ_nil (AccInv.get3 hin0))) (LJ_cons (k := 4) (k0_off23_inb c) _ _ (off23_eq c) (Or.inl (by show 768 + 384 ≤ 1536; omega)) (LJ_nil (AccInv.get4 hin0))) (LJ_cons (k := 5) (k0_off23_inb c) _ _ (off23_eq c) (Or.inl (by show 768 + 384 ≤ 1792; omega)) (LJ_nil (AccInv.get5 hin0))))
    iexact H
  iapply (wp_mono frame (wpE (defs₀ (F := Ideal)) 𝒱₀ c none) Set.univ (fun r => hpost r))
  iapply (part13_run (Vreal A B) c κs κr κw1 κw2 W v8 v91 v106 v115 v358 fs fr f3 (by exact hin2))
  iexact Hpre

set_option maxHeartbeats 1000000 in
include hagree in
theorem part47_real (c : Dev nD) (κwR κs κr κo κw1 : ℕ)
    (W : Waits sig Unit)
    (v2 v6 v1264 v1267 : BitVec 32)
    (g0 : Buf (Elt Ideal) ((agM5_0 c).view.loc (c : Thread nD τ)))
    (fo : Buf (Elt Ideal) ((outSrcM11 c).view.loc (c : Thread nD τ)))
    (fd : Buf (Elt Ideal) ((outDstM11 c).view.loc (c : Thread nD τ))) :
    iprop((cellInv ER (sched (Vreal A B)) κwR (cell c (.agR 5 0)) ∗ cellInv ER (sched (Vreal A B)) κs (cell c (.agS 5 1)) ∗ cellInv ER (sched (Vreal A B)) κr (cell (nbr 0 c) (.agR 5 1))
        ∗ cellInv ER (sched (Vreal A B)) κo (cell c (.out 11)) ∗ cellInv ER (sched (Vreal A B)) κw1 (cell c (.agS 0 1))
        ∗ reached ER (cell c (.agS 5 1)) 0 ∗ reached ER (cell (nbr 0 c) (.agR 5 1)) 0 ∗ reached ER (cell c (.out 11)) 0
        ∗ dutyTok ER (cell c (.agS 5 1)) 0 (0 : Fin 3) ∗ dutyTok ER (cell (nbr 0 c) (.agR 5 1)) 0 (0 : Fin 3) ∗ dutyTok ER (cell c (.out 11)) 0 (0 : Fin 3)
        ∗ cred (tallyAt (cell c (.agR 5 0)) () (amt (.agR 5 0))) ∗ atPos ER (cell c (.agR 5 0)) 0 ∅ 0
        ∗ cred (tallyAt (cell c (.agS 0 1)) () (amt (.agR 0 1))) ∗ atPos ER (cell c (.agS 0 1)) 0 ∅ 0
        ∗ owes (c : Thread nD τ) (Owe c 32) W ∗ levAts L lv
        ∗ ptsAny (F := Ideal) (nbr 0 c) (agM5_1 c)
        ∗ ptsLent (F := Ideal) c (agM5_0 c) ∗ ((agM5_0 c).view.loc (c : Thread nD τ) ↦[(agM5_0 c).view.set]{fullShare.right} g0)
        ∗ heldW c (outSrcM11 c) fo ∗ heldW c (outDstM11 c) fd)
        ∗ ⌜(Vreal A B).ag5_0 c ((agM5_0 c).view.read (Elt Ideal) g0)⌝)
      ⊢ wp frame (wpE (defs₀ (F := Ideal)) 𝒱₀ c none) Set.univ
          (k0_part47 (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23 c v2 v6 v1264 v1267)
          (fun r => iprop(∃ fa : Buf (Elt Ideal) ((agM5_0 (nbr 1 c)).view.loc (c : Thread nD τ)),
            ⌜r = ⟨Scalar.xori v2 1#32, Scalar.subi v1264 (Scalar.muli v6 512#32), Scalar.addi (Scalar.subi v1264 (Scalar.muli v6 512#32)) (Scalar.muli (Scalar.subi 1#32 v6) 512#32)⟩⌝
            ∗ ⌜(Vreal A B).ag5_0 (nbr 1 c) ((agM5_0 (nbr 1 c)).view.read (Elt Ideal) fa)⌝
            ∗ ⌜(Vreal A B).ag5_1 c ((agM5_1 c).view.read (Elt Ideal) ((agM5_0 (nbr 1 c)).view.set.piecewise fa g0))⌝
            ∗ owes (c : Thread nD τ) (Owe c 33) (insert ((CK.agS 0 1).sem, ()) (insert ((CK.agR 5 0).sem, ()) W))
            ∗ atPos ER (cell c (.agR 5 0)) 1 ∅ 0 ∗ atPos ER (cell c (.agS 0 1)) 1 ∅ 0
            ∗ cred (tallyAt (cell c (.agS 5 1)) () (amt (.agR 5 1))) ∗ cred (tallyAt (cell c (.out 11)) () (amt (.out 11)))
            ∗ ((agM5_1 c).view.loc (c : Thread nD τ) ↦[(agM5_1 c).view.set]{fullShare.right} ((agM5_0 (nbr 1 c)).view.set.piecewise fa g0))
            ∗ ptsLent (F := Ideal) c (agM0_1 c))) := by
  iintro ⟨Hpre, %hin0⟩
  have hpost : ∀ r : (Σ' (v1453 : BitVec 32) (v1463 : BitVec 32), BitVec 32), iprop(∃ fa : Buf (Elt Ideal) ((agM5_0 (nbr 1 c)).view.loc (c : Thread nD τ)),
            ⌜r = ⟨Scalar.xori v2 1#32, Scalar.subi v1264 (Scalar.muli v6 512#32), Scalar.addi (Scalar.subi v1264 (Scalar.muli v6 512#32)) (Scalar.muli (Scalar.subi 1#32 v6) 512#32)⟩⌝
            ∗ ⌜(Vreal A B).ag5_0 (nbr 1 c) ((agM5_0 (nbr 1 c)).view.read (Elt Ideal) fa)⌝
            ∗ owes (c : Thread nD τ) (Owe c 33) (insert ((CK.agS 0 1).sem, ()) (insert ((CK.agR 5 0).sem, ()) W))
            ∗ atPos ER (cell c (.agR 5 0)) 1 ∅ 0 ∗ atPos ER (cell c (.agS 0 1)) 1 ∅ 0
            ∗ cred (tallyAt (cell c (.agS 5 1)) () (amt (.agR 5 1))) ∗ cred (tallyAt (cell c (.out 11)) () (amt (.out 11)))
            ∗ ((agM5_1 c).view.loc (c : Thread nD τ) ↦[(agM5_1 c).view.set]{fullShare.right} ((agM5_0 (nbr 1 c)).view.set.piecewise fa g0))
            ∗ ptsLent (F := Ideal) c (agM0_1 c)) ⊢ iprop(∃ fa : Buf (Elt Ideal) ((agM5_0 (nbr 1 c)).view.loc (c : Thread nD τ)),
            ⌜r = ⟨Scalar.xori v2 1#32, Scalar.subi v1264 (Scalar.muli v6 512#32), Scalar.addi (Scalar.subi v1264 (Scalar.muli v6 512#32)) (Scalar.muli (Scalar.subi 1#32 v6) 512#32)⟩⌝
            ∗ ⌜(Vreal A B).ag5_0 (nbr 1 c) ((agM5_0 (nbr 1 c)).view.read (Elt Ideal) fa)⌝
            ∗ ⌜(Vreal A B).ag5_1 c ((agM5_1 c).view.read (Elt Ideal) ((agM5_0 (nbr 1 c)).view.set.piecewise fa g0))⌝
            ∗ owes (c : Thread nD τ) (Owe c 33) (insert ((CK.agS 0 1).sem, ()) (insert ((CK.agR 5 0).sem, ()) W))
            ∗ atPos ER (cell c (.agR 5 0)) 1 ∅ 0 ∗ atPos ER (cell c (.agS 0 1)) 1 ∅ 0
            ∗ cred (tallyAt (cell c (.agS 5 1)) () (amt (.agR 5 1))) ∗ cred (tallyAt (cell c (.out 11)) () (amt (.out 11)))
            ∗ ((agM5_1 c).view.loc (c : Thread nD τ) ↦[(agM5_1 c).view.set]{fullShare.right} ((agM5_0 (nbr 1 c)).view.set.piecewise fa g0))
            ∗ ptsLent (F := Ideal) c (agM0_1 c)) := fun r => by
    iintro ⟨%fa, %hr, %hf, H⟩
    iexists fa
    isplitr; · ipureintro; exact hr
    isplitr; · ipureintro; exact hf
    isplitr; · ipureintro; exact (by exact val_ag5_1 A B c g0 fa hin0 hf)
    iexact H
  iapply (wp_mono frame (wpE (defs₀ (F := Ideal)) 𝒱₀ c none) Set.univ (fun r => hpost r))
  iapply (part47_run (Vreal A B) c κwR κs κr κo κw1 W v2 v6 v1264 v1267 g0 fo fd (by exact fun fa hfa => val_ag5_1 A B c g0 fa hin0 hfa) (by exact fun fa hfa => val_out11 A B c g0 fa fo hfa))
  iexact Hpre

end Cert.KernelIdeal.Proto

end
-- ==== Proof.RealB2.lean ====
/-
The stretch that copies group 2's finished block to the result array, stores its rows of the all-gather buffer and loads
group 3's kept eighth, with its values named: the block and the rows hold gelu of the whole product (the facts come with
the factors the stretch before returned), and the loaded eighth holds four shares.
-/
import proofs.«900882_g7700000000000883_dist_matmul_gelu_kshard_i_m2048_n2048_k1024_v7x_i8_f32_1_alg».proof.Proof.Body33
import proofs.«900882_g7700000000000883_dist_matmul_gelu_kshard_i_m2048_n2048_k1024_v7x_i8_f32_1_alg».proof.Proof.AccInv

set_option maxRecDepth 100000

noncomputable section

namespace Cert.KernelIdeal.Proto

open Cert.KernelIdeal Cert.KernelIdeal.Gen Cert.KernelIdeal.Topo
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open scoped BigOperators

local notation "𝕄" => MT nD τ sig Unit (Elt Ideal) ℕ UU ℕ

variable (A : (⟨2, ![2048, 8192]⟩ : Shape).Idx → EReal) (B : (⟨2, ![8192, 2048]⟩ : Shape).Idx → EReal)
  (m : (ℓ : Loc nD τ sig) → Buf (Elt Ideal) ℓ)
  (hagree : ∀ c : Dev nD,
      m ((c : Thread nD τ).loc main_arg0) = Layout.block ⟨2, ![2048, 1024]⟩ ⟨2, ![2048, 8192]⟩ 1 8 c A
      ∧ m ((c : Thread nD τ).loc main_arg1) = Layout.block ⟨2, ![1024, 2048]⟩ ⟨2, ![8192, 2048]⟩ 0 8 c B)

set_option maxHeartbeats 1000000 in
include hagree in
theorem part33_real (c : Dev nD) (κo κs κr : ℕ)
    (W : Waits sig Unit)
    (v682 v736 v755 : BitVec 32)
    (v1009 v1016 : FVec Ideal S256x384 .f32)
    (f2 : Buf (Elt Ideal) ((outSrcM2 c).view.loc (c : Thread nD τ)))
    (f3 : Buf (Elt Ideal) ((outSrcM3 c).view.loc (c : Thread nD τ)))
    (g2 : Buf (Elt Ideal) ((agM2_0 c).view.loc (c : Thread nD τ)))
    (fd : Buf (Elt Ideal) ((outDstM2 c).view.loc (c : Thread nD τ))) :
    iprop((cellInv ER (sched (Vreal A B)) κo (cell c (.out 2)) ∗ cellInv ER (sched (Vreal A B)) κs (cell c (.rsS 3 2)) ∗ cellInv ER (sched (Vreal A B)) κr (cell c (.rsR 3 2))
        ∗ reached ER (cell c (.out 2)) 0 ∗ dutyTok ER (cell c (.out 2)) 0 (0 : Fin 3)
        ∗ cred (tallyAt (cell c (.rsS 3 2)) () (amt (.rsR 3 2))) ∗ cred (tallyAt (cell c (.rsR 3 2)) () (amt (.rsR 3 2)))
        ∗ atPos ER (cell c (.rsS 3 2)) 0 ∅ 0 ∗ atPos ER (cell c (.rsR 3 2)) 0 ∅ 0
        ∗ owes (c : Thread nD τ) (Owe c 21) W ∗ levAts L lv
        ∗ heldW c (outSrcM2 c) f2 ∗ heldW c (outSrcM3 c) f3 ∗ heldW c (agM2_0 c) g2 ∗ heldW c (outDstM2 c) fd)
        ∗ ⌜∀ f : Buf (Elt Ideal) ((outSrcM2 c).view.loc (c : Thread nD τ)), (Vreal A B).out2 c ((outSrcM2 c).view.read (Elt Ideal) (((Memref.whole cc0_scratch0 : Memref sig .tc .vmem S2048x2048 .f32).access (Rect.unit (s := S2048x2048) (k0_off45 c) S256x384.size (k0_off45_inb c))).write (Elt Ideal) f (k0_pay71 (F := Ideal) v1009 v1016) Finset.univ))⌝
        ∗ ⌜∀ g : Buf (Elt Ideal) ((agM2_0 c).view.loc (c : Thread nD τ)), (Vreal A B).ag2_0 c ((agM2_0 c).view.read (Elt Ideal) (((Memref.whole cc0_scratch15 : Memref sig .tc .vmem S2048x384 .bf16).access (Rect.unit (s := S2048x384) (k0_off64 c) S256x384.size (k0_off64_inb c))).write (Elt Ideal) g (k0_pay72 (F := Ideal) v1009 v1016) Finset.univ))⌝
        ∗ ⌜AccInv A B c ![5, 5, 5, 4, 4, 4] f3⌝)
      ⊢ wp frame (wpE (defs₀ (F := Ideal)) 𝒱₀ c none) Set.univ
          (k0_part33 (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23 c v682 v736 v755 v1009 v1016)
          (fun r => iprop((⌜r = View.readAt (Elt Ideal) (Memref.whole cc0_scratch0 : Memref sig .tc .vmem S2048x2048 .f32).view (Rect.unit (s := S2048x2048) (k0_off48 c) S256x384.size (k0_off48_inb c)).toLoadRect f3⌝
            ∗ cred (tallyAt (cell c (.out 2)) () (amt (.out 2)))
            ∗ owes (c : Thread nD τ) (Owe c 21) (insert ((CK.rsR 3 2).sem, ()) (insert ((CK.rsS 3 2).sem, ()) W))
            ∗ atPos ER (cell c (.rsS 3 2)) 1 ∅ 0 ∗ atPos ER (cell c (.rsR 3 2)) 1 ∅ 0
            ∗ ptsAny (F := Ideal) c stgM3_2 ∗ ptsIs c commM3_2 ((Vreal A B).rs3_2 (nbr 2 c))
            ∗ heldW c (outSrcM3 c) f3 ∗ heldW c (agM2_0 c) (((Memref.whole cc0_scratch15 : Memref sig .tc .vmem S2048x384 .bf16).access (Rect.unit (s := S2048x384) (k0_off64 c) S256x384.size (k0_off64_inb c))).write (Elt Ideal) g2 (k0_pay72 (F := Ideal) v1009 v1016) Finset.univ))
            ∗ ⌜(Vreal A B).ag2_0 c ((agM2_0 c).view.read (Elt Ideal) (((Memref.whole cc0_scratch15 : Memref sig .tc .vmem S2048x384 .bf16).access (Rect.unit (s := S2048x384) (k0_off64 c) S256x384.size (k0_off64_inb c))).write (Elt Ideal) g2 (k0_pay72 (F := Ideal) v1009 v1016) Finset.univ))⌝
            ∗ ⌜∀ (r' : Fin 256) (j : Fin 384), ((View.readAt (Elt Ideal) (Memref.whole cc0_scratch0 : Memref sig .tc .vmem S2048x2048 .f32).view (Rect.unit (s := S2048x2048) (k0_off48 c) S256x384.size (k0_off48_inb c)).toLoadRect f3) (ix2 r' j) : EReal) = (share A B c.val (ownRow 3 0 c + r'.val) (colLo 3 + j.val) + share A B (nb 3 0 c).val (ownRow 3 0 c + r'.val) (colLo 3 + j.val)) + (share A B (nb 3 1 c).val (ownRow 3 0 c + r'.val) (colLo 3 + j.val) + share A B (nb 3 0 (nb 3 1 c)).val (ownRow 3 0 c + r'.val) (colLo 3 + j.val))⌝
            ∗ ⌜AccInv A B c ![5, 5, 5, 4, 4, 4] f3⌝)) := by
  iintro ⟨Hpre, %hin0, %hin1, %hin2⟩
  have hpost : ∀ r : (Vec Ideal S256x384 .f32), iprop(⌜r = View.readAt (Elt Ideal) (Memref.whole cc0_scratch0 : Memref sig .tc .vmem S2048x2048 .f32).view (Rect.unit (s := S2048x2048) (k0_off48 c) S256x384.size (k0_off48_inb c)).toLoadRect f3⌝
            ∗ cred (tallyAt (cell c (.out 2)) () (amt (.out 2)))
            ∗ owes (c : Thread nD τ) (Owe c 21) (insert ((CK.rsR 3 2).sem, ()) (insert ((CK.rsS 3 2).sem, ()) W))
            ∗ atPos ER (cell c (.rsS 3 2)) 1 ∅ 0 ∗ atPos ER (cell c (.rsR 3 2)) 1 ∅ 0
            ∗ ptsAny (F := Ideal) c stgM3_2 ∗ ptsIs c commM3_2 ((Vreal A B).rs3_2 (nbr 2 c))
            ∗ heldW c (outSrcM3 c) f3 ∗ heldW c (agM2_0 c) (((Memref.whole cc0_scratch15 : Memref sig .tc .vmem S2048x384 .bf16).access (Rect.unit (s := S2048x384) (k0_off64 c) S256x384.size (k0_off64_inb c))).write (Elt Ideal) g2 (k0_pay72 (F := Ideal) v1009 v1016) Finset.univ)) ⊢ iprop((⌜r = View.readAt (Elt Ideal) (Memref.whole cc0_scratch0 : Memref sig .tc .vmem S2048x2048 .f32).view (Rect.unit (s := S2048x2048) (k0_off48 c) S256x384.size (k0_off48_inb c)).toLoadRect f3⌝
            ∗ cred (tallyAt (cell c (.out 2)) () (amt (.out 2)))
            ∗ owes (c : Thread nD τ) (Owe c 21) (insert ((CK.rsR 3 2).sem, ()) (insert ((CK.rsS 3 2).sem, ()) W))
            ∗ atPos ER (cell c (.rsS 3 2)) 1 ∅ 0 ∗ atPos ER (cell c (.rsR 3 2)) 1 ∅ 0
            ∗ ptsAny (F := Ideal) c stgM3_2 ∗ ptsIs c commM3_2 ((Vreal A B).rs3_2 (nbr 2 c))
            ∗ heldW c (outSrcM3 c) f3 ∗ heldW c (agM2_0 c) (((Memref.whole cc0_scratch15 : Memref sig .tc .vmem S2048x384 .bf16).access (Rect.unit (s := S2048x384) (k0_off64 c) S256x384.size (k0_off64_inb c))).write (Elt Ideal) g2 (k0_pay72 (F := Ideal) v1009 v1016) Finset.univ))
            ∗ ⌜(Vreal A B).ag2_0 c ((agM2_0 c).view.read (Elt Ideal) (((Memref.whole cc0_scratch15 : Memref sig .tc .vmem S2048x384 .bf16).access (Rect.unit (s := S2048x384) (k0_off64 c) S256x384.size (k0_off64_inb c))).write (Elt Ideal) g2 (k0_pay72 (F := Ideal) v1009 v1016) Finset.univ))⌝
            ∗ ⌜∀ (r' : Fin 256) (j : Fin 384), ((View.readAt (Elt Ideal) (Memref.whole cc0_scratch0 : Memref sig .tc .vmem S2048x2048 .f32).view (Rect.unit (s := S2048x2048) (k0_off48 c) S256x384.size (k0_off48_inb c)).toLoadRect f3) (ix2 r' j) : EReal) = (share A B c.val (ownRow 3 0 c + r'.val) (colLo 3 + j.val) + share A B (nb 3 0 c).val (ownRow 3 0 c + r'.val) (colLo 3 + j.val)) + (share A B (nb 3 1 c).val (ownRow 3 0 c + r'.val) (colLo 3 + j.val) + share A B (nb 3 0 (nb 3 1 c)).val (ownRow 3 0 c + r'.val) (colLo 3 + j.val))⌝
            ∗ ⌜AccInv A B c ![5, 5, 5, 4, 4, 4] f3⌝) := fun r => by
    iintro H
    isplitl [H]; · iexact H
    isplitr; · ipureintro; exact (by exact hin1 g2)
    isplitr; · ipureintro; exact (by exact fun r' j => J3_readAt A B (show J3 A B 3 384 c f3 from AccInv.get3 hin2) (k0_off48 c) (k0_off48_inb c) (off48_eq c) r' j)
    ipureintro; exact (by exact hin2)
  iapply (wp_mono frame (wpE (defs₀ (F := Ideal)) 𝒱₀ c none) Set.univ (fun r => hpost r))
  iapply (part33_run (Vreal A B) c κo κs κr W v682 v736 v755 v1009 v1016 f2 f3 g2 fd (by exact hin0 f2))
  iexact Hpre

end Cert.KernelIdeal.Proto

end
-- ==== Proof.TreeSum.lean ====
/-
The product's entry is the sum of the eight devices' shares, and the three pairwise exchanges of a column group's
reduce-scatter, seen from any device, add the eight shares once each: the device's own and its neighbour's across the
first axis, then the same two of the neighbour across the second axis, then the same four of the neighbour across the
third. At the rows a device ends up owning, what it kept and what its neighbour across the third axis sent make the entry.
-/
import proofs.«900882_g7700000000000883_dist_matmul_gelu_kshard_i_m2048_n2048_k1024_v7x_i8_f32_1_alg».proof.Proof.ValsReal
import proofs.«900882_g7700000000000883_dist_matmul_gelu_kshard_i_m2048_n2048_k1024_v7x_i8_f32_1_alg».proof.Proof.BlockSum
import Mathlib.Algebra.BigOperators.Intervals

noncomputable section

namespace Cert.KernelIdeal.Proto

open Cert.KernelIdeal Cert.KernelIdeal.Gen Cert.KernelIdeal.Topo
open Idealize.ShloMosaic Idealize.ShloMosaic.ValueIdx
open scoped BigOperators

variable (A : (⟨2, ![2048, 8192]⟩ : Shape).Idx → EReal) (B : (⟨2, ![8192, 2048]⟩ : Shape).Idx → EReal)

/-- A sum over m consecutive blocks of length n is the sum of the blocks' sums. -/
theorem sum_range_blocks (f : ℕ → EReal) (n : ℕ) :
    ∀ m, ∑ K ∈ Finset.range (m * n), f K = ∑ c ∈ Finset.range m, ∑ κ ∈ Finset.range n, f (n * c + κ)
  | 0 => by simp
  | m + 1 => by
    rw [Nat.succ_mul, Finset.sum_range_add, sum_range_blocks f n m, Finset.sum_range_succ, Nat.mul_comm m n]

/-- An entry of the product is the sum of the eight devices' shares of it. -/
theorem tot_eq_shares (i j : ℕ) : tot A B i j = ∑ c ∈ Finset.range 8, share A B c i j := by
  unfold tot share
  exact sum_range_blocks (fun K => Aat A i K * Bat B K j) 1024 8

/-- The devices in the order in which a column group's three exchanges add their shares, seen from device c. -/
def lst (k : ℕ) (c : Dev nD) : Fin 8 → Fin 8 :=
  ![c, nb k 0 c, nb k 1 c, nb k 0 (nb k 1 c), nb k 2 c, nb k 0 (nb k 2 c), nb k 1 (nb k 2 c), nb k 0 (nb k 1 (nb k 2 c))]

/-- That order lists the eight devices once each. -/
theorem lst_bij : ∀ (k : Fin 6) (c : Dev nD), Function.Bijective (lst k.val c) := by decide

/-- The three exchanges of group k, seen from device c, add the eight shares of an entry once each. -/
theorem tree_total (k : ℕ) (hk : k < 6) (c : Dev nD) (i j : ℕ) :
    ((share A B c.val i j + share A B (nb k 0 c).val i j) + (share A B (nb k 1 c).val i j + share A B (nb k 0 (nb k 1 c)).val i j))
      + ((share A B (nb k 2 c).val i j + share A B (nb k 0 (nb k 2 c)).val i j)
        + (share A B (nb k 1 (nb k 2 c)).val i j + share A B (nb k 0 (nb k 1 (nb k 2 c))).val i j)) = tot A B i j := by
  have h := Cert.BlockSum.tree_sum (fun d : Fin 8 => share A B d.val i j) (lst k c) (lst_bij ⟨k, hk⟩ c)
  rw [tot_eq_shares, ← Fin.sum_univ_eq_sum_range (fun d => share A B d i j) 8]
  exact h

/-- The rows a device ends up owning are the rows its neighbour across the third axis sends at the last step. -/
theorem sendRow2_nb2 : ∀ (k : Fin 6) (c : Dev nD), sendRow k.val 2 (nb k.val 2 c) = ownRow k.val 0 c := by decide

/-- At the rows a device ends up owning, what it kept of the first two exchanges and what its neighbour across the third
    axis sent at the last step make the entry of the product. -/
theorem own_total (k : ℕ) (hk : k < 6) (c : Dev nD) (r j : ℕ) :
    ((share A B c.val (ownRow k 0 c + r) (colLo k + j) + share A B (nb k 0 c).val (ownRow k 0 c + r) (colLo k + j))
        + (share A B (nb k 1 c).val (ownRow k 0 c + r) (colLo k + j) + share A B (nb k 0 (nb k 1 c)).val (ownRow k 0 c + r) (colLo k + j)))
      + rsSpec A B k 2 (nb k 2 c) r j = tot A B (ownRow k 0 c + r) (colLo k + j) := by
  have e : sendRow k 2 (nb k 2 c) = ownRow k 0 c := sendRow2_nb2 ⟨k, hk⟩ c
  show _ + ((share A B (nb k 2 c).val (sendRow k 2 (nb k 2 c) + r) (colLo k + j) + share A B (nb k 0 (nb k 2 c)).val (sendRow k 2 (nb k 2 c) + r) (colLo k + j))
          + (share A B (nb k 1 (nb k 2 c)).val (sendRow k 2 (nb k 2 c) + r) (colLo k + j) + share A B (nb k 0 (nb k 1 (nb k 2 c))).val (sendRow k 2 (nb k 2 c) + r) (colLo k + j))) = _
  rw [e]
  exact tree_total A B k hk c _ _

end Cert.KernelIdeal.Proto

end
-- ==== Proof.ValSliceD.lean ====
/-
The value of the first finished block of column group 2, over the extended reals: the accumulator's own 256 rows hold, entry
by entry, the whole product (the eight shares added); the two factors of the tanh form of GELU are computed from them and
multiplied, the block is stored back at the same rows, and what the copy to the result array reads is GELU of the product at
the block's rows and columns.
-/
import proofs.«900882_g7700000000000883_dist_matmul_gelu_kshard_i_m2048_n2048_k1024_v7x_i8_f32_1_alg».proof.Proof.Dats
import proofs.«900882_g7700000000000883_dist_matmul_gelu_kshard_i_m2048_n2048_k1024_v7x_i8_f32_1_alg».proof.Proof.ValsRealTab
import proofs.«900882_g7700000000000883_dist_matmul_gelu_kshard_i_m2048_n2048_k1024_v7x_i8_f32_1_alg».proof.Proof.TopoTab
import proofs.«900882_g7700000000000883_dist_matmul_gelu_kshard_i_m2048_n2048_k1024_v7x_i8_f32_1_alg».proof.Proof.Gen.KernelIdeal.Skeleton
import proofs.«900882_g7700000000000883_dist_matmul_gelu_kshard_i_m2048_n2048_k1024_v7x_i8_f32_1_alg».proof.Proof.TreeSum
import proofs.«900882_g7700000000000883_dist_matmul_gelu_kshard_i_m2048_n2048_k1024_v7x_i8_f32_1_alg».proof.Proof.PiecesTab
import Idealize.ShloMosaic.Lib.Pipeline.Value
import Idealize.ShloMosaic.Lib.WritesUnit
import Idealize.ShloMosaic.PureOps.Ideal.Laws

set_option maxRecDepth 100000

noncomputable section

namespace Cert.KernelIdeal.Proto

open Cert.KernelIdeal Cert.KernelIdeal.Gen Cert.KernelIdeal.Topo
open Idealize.ShloMosaic Idealize.ShloMosaic.TcCoe Idealize.ShloMosaic.ValueIdx
open scoped BigOperators

variable (A : (⟨2, ![2048, 8192]⟩ : Shape).Idx → EReal) (B : (⟨2, ![8192, 2048]⟩ : Shape).Idx → EReal)

/-- The product of the two factors computed from an entry x is the tanh form of GELU of x. -/
theorem gelu_factors_2 (x : Vec Ideal S256x384 .f32) (idx : S256x384.Idx) :
    k0_pay71 (F := Ideal) (k0_pay68 x) (k0_pay69 x) idx = Cert.RefSide.gelu1 (x idx) := by
  unfold k0_pay71; rw [shapeCast_self]; rfl

/-- Reading a block through its piece after storing the block through the whole buffer at the same rows and columns
    gives what was stored. -/
theorem read_piece_write_box (c : Dev nD) (w : S256x384.Idx → Elt Ideal .f32) :
    ∀ (o : Fin 2 → ℕ) (ho : o = k0_off65 c) (inb : ∀ a, o a + S256x384.size a ≤ S2048x2048.size a)
      (f : Buf (Elt Ideal) (((Memref.whole cc0_scratch0 : Memref sig .tc .vmem S2048x2048 .f32).access (Rect.unit (s := S2048x2048) o S256x384.size inb)).loc (c : Thread nD τ))),
      (outSrcM2 c).view.read (Elt Ideal)
        (((Memref.whole cc0_scratch0 : Memref sig .tc .vmem S2048x2048 .f32).access (Rect.unit (s := S2048x2048) o S256x384.size inb)).write (Elt Ideal) f w Finset.univ) = w := by
  intro o ho
  subst ho
  intro inb f
  exact View.read_write_univ _ _

/-- Copy 2's block starts at the device's own rows of group 2 and at the group's first column. -/
theorem outRow_2 : ∀ c : Dev nD, outRow c 2 = ownRow 2 0 c := by decide
theorem outColLo_2 : outColLo 2 = colLo 2 := rfl

/-- The block of the accumulator the copy of group 2's finished rows reads holds GELU of the product. -/
theorem val_out2 (c : Dev nD) (f2 : Buf (Elt Ideal) ((outSrcM2 c).view.loc (c : Thread nD τ))) (x : Vec Ideal S256x384 .f32)
    (hx : ∀ (r : Fin 256) (j : Fin 384), (x (ix2 r j) : EReal) = tot A B (ownRow 2 0 c + r.val) (colLo 2 + j.val)) :
    (Vreal A B).out2 c ((outSrcM2 c).view.read (Elt Ideal)
      (((Memref.whole cc0_scratch0 : Memref sig .tc .vmem S2048x2048 .f32).access (Rect.unit (s := S2048x2048) (k0_off45 c) S256x384.size (k0_off45_inb c))).write (Elt Ideal) f2
        (k0_pay71 (F := Ideal) (k0_pay68 x) (k0_pay69 x)) Finset.univ)) := by
  intro r jj
  rw [read_piece_write_box c _ (k0_off45 c) ((off45_eq c).trans (off65_eq c).symm) (k0_off45_inb c) f2, gelu_factors_2, hx]
  unfold outSpec
  rw [outRow_2, outColLo_2]

/-! ### The last accumulation of group 2: the landed quarter-sum added to the kept one is the whole product -/

/-- The sum of an accumulator entry and a landed entry. -/
theorem acc_plus_landed_2 (a : Vec Ideal S256x384 .f32) (b : Vec Ideal S256x384 .bf16) (idx : S256x384.Idx) :
    k0_pay67 (F := Ideal) a b idx = a idx + b idx := by
  unfold k0_pay67; rw [shapeCast_self]; rfl

/-- A load of the accumulator's block through the whole buffer reads what the block's piece reads. -/
theorem load_box_piece_acc2 (c : Dev nD) (fb : Buf (Elt Ideal) ((outSrcM2 c).view.loc (c : Thread nD τ))) :
    ∀ (o : Fin 2 → ℕ) (ho : o = k0_off65 c) (inb : ∀ a, o a + (![256, 384] : Fin 2 → ℕ) a ≤ S2048x2048.size a),
      View.readAt (Elt Ideal) (Memref.whole cc0_scratch0 : Memref sig .tc .vmem S2048x2048 .f32).view (Rect.unit (s := S2048x2048) o ![256, 384] inb).toLoadRect fb
        = (outSrcM2 c).view.read (Elt Ideal) fb := by
  intro o ho; subst ho; intro inb; rfl

/-- A load of the last 256 landing rows through the whole landing buffer reads what their piece reads. -/
theorem load_box_piece_land2 (c : Dev nD) (fl : Buf (Elt Ideal) ((commM2_2 : Memref sig .tc .vmem S256x384 .bf16).view.loc (c : Thread nD τ))) :
    ∀ (o : Fin 2 → ℕ) (ho : o = ![1536, 0]) (inb : ∀ a, o a + (![256, 384] : Fin 2 → ℕ) a ≤ S1792x384.size a),
      View.readAt (Elt Ideal) (Memref.whole cc0_scratch3 : Memref sig .tc .vmem S1792x384 .bf16).view (Rect.unit (s := S1792x384) o ![256, 384] inb).toLoadRect fl
        = (commM2_2 : Memref sig .tc .vmem S256x384 .bf16).view.read (Elt Ideal) fl := by
  intro o ho; subst ho; intro inb; rfl

/-- What the activation of group 2 is applied to: the kept sum of four shares (the block's contents before) plus the landed
    sum of the other four is the whole product, entry by entry. -/
theorem val_x2 (c : Dev nD) (fb : Buf (Elt Ideal) ((outSrcM2 c).view.loc (c : Thread nD τ)))
    (fl : Buf (Elt Ideal) ((commM2_2 : Memref sig .tc .vmem S256x384 .bf16).view.loc (c : Thread nD τ)))
    (hJ3 : ∀ (r : Fin 256) (j : Fin 384), ((outSrcM2 c).view.read (Elt Ideal) fb (ix2 r j) : EReal)
      = ((share A B c.val (ownRow 2 0 c + r.val) (colLo 2 + j.val) + share A B (nb 2 0 c).val (ownRow 2 0 c + r.val) (colLo 2 + j.val)) + (share A B (nb 2 1 c).val (ownRow 2 0 c + r.val) (colLo 2 + j.val) + share A B (nb 2 0 (nb 2 1 c)).val (ownRow 2 0 c + r.val) (colLo 2 + j.val))))
    (hfl : (Vreal A B).rs2_2 (nbr 1 c) ((commM2_2 : Memref sig .tc .vmem S256x384 .bf16).view.read (Elt Ideal) fl)) :
    ∀ (r : Fin 256) (j : Fin 384),
      (k0_pay67 (F := Ideal) (View.readAt (Elt Ideal) (Memref.whole cc0_scratch0 : Memref sig .tc .vmem S2048x2048 .f32).view (Rect.unit (s := S2048x2048) (k0_off45 c) ![256, 384] (k0_off45_inb c)).toLoadRect fb) (View.readAt (Elt Ideal) (Memref.whole cc0_scratch3 : Memref sig .tc .vmem S1792x384 .bf16).view (Rect.unit (s := S1792x384) (k0_off63 c) ![256, 384] (k0_off63_inb c)).toLoadRect fl) (ix2 r j) : EReal)
        = tot A B (ownRow 2 0 c + r.val) (colLo 2 + j.val) := by
  intro r j
  rw [acc_plus_landed_2, load_box_piece_acc2 c fb (k0_off45 c) ((off45_eq c).trans (off65_eq c).symm) (k0_off45_inb c),
    load_box_piece_land2 c fl (k0_off63 c) (off63_eq c) (k0_off63_inb c), hJ3 r j, hfl r j]
  exact own_total A B 2 (by decide) c r.val j.val

/-! ### The step-2 accumulation of group 2 on the rows the device keeps: two shares kept, two landed -/

/-- The sum of an accumulator entry and a landed entry (the step-2 accumulation on the kept rows). -/
theorem acc_plus_landed_2k (a : Vec Ideal S256x384 .f32) (b : Vec Ideal S256x384 .bf16) (idx : S256x384.Idx) :
    k0_pay47 (F := Ideal) a b idx = a idx + b idx := by
  unfold k0_pay47; rw [shapeCast_self]; rfl

/-- The rows the device keeps at step 2 start, within the 512 rows its step-1 neighbour sent, at its third coordinate
    times 256: the neighbour's first sent row plus that is the device's own first row. -/
theorem sendRow1_nb1_2 : ∀ c : Dev nD, sendRow 2 1 (nb 2 1 c) + cy c * 256 = ownRow 2 0 c := by decide

/-- The load of the kept rows' part of the landed 512 rows reads the landed piece at the shifted row. -/
theorem landed_rows_2 (c : Dev nD) (fl : Buf (Elt Ideal) ((commM2_1 : Memref sig .tc .vmem S512x384 .bf16).view.loc (c : Thread nD τ)))
    (r : Fin 256) (j : Fin 384) :
    (View.readAt (Elt Ideal) (Memref.whole cc0_scratch3 : Memref sig .tc .vmem S1792x384 .bf16).view (Rect.unit (s := S1792x384) (k0_off46 c) ![256, 384] (k0_off46_inb c)).toLoadRect fl) (ix2 r j)
      = (commM2_1 : Memref sig .tc .vmem S512x384 .bf16).view.read (Elt Ideal) fl
          (ix2 ⟨cy c * 256 + r.val, by have := cy_le c; omega⟩ j) := by
  have h : ((Memref.whole cc0_scratch3 : Memref sig .tc .vmem S1792x384 .bf16).view.slice (Rect.unit (s := S1792x384) (k0_off46 c) ![256, 384] (k0_off46_inb c))).emb (ix2 r j)
      = (commM2_1 : Memref sig .tc .vmem S512x384 .bf16).view.emb (ix2 ⟨cy c * 256 + r.val, by have := cy_le c; omega⟩ j) := by
    refine funext fun a => Fin.ext ?_
    show k0_off46 c a + 1 * ((ix2 r j) a).val = (![1024, 0] : Fin 2 → ℕ) a + 1 * ((ix2 (⟨cy c * 256 + r.val, by have := cy_le c; omega⟩ : Fin 512) j) a).val
    rw [off46_eq]
    match a with
    | ⟨0, _⟩ => show 1024 + cy c * 256 + 1 * r.val = 1024 + 1 * (cy c * 256 + r.val); omega
    | ⟨1, _⟩ => rfl
  show ((Memref.whole cc0_scratch3 : Memref sig .tc .vmem S1792x384 .bf16).view.slice (Rect.unit (s := S1792x384) (k0_off46 c) ![256, 384] (k0_off46_inb c))).read (Elt Ideal) fl (ix2 r j) = _
  rw [View.read_apply, View.read_apply, h]

/-- After the step-2 accumulation the device's own rows of group 2 hold the sum of four shares: its own and its step-0
    neighbour's (kept), and the same two of its step-1 neighbour (landed). -/
theorem val_J3_2 (c : Dev nD) (f3 : Buf (Elt Ideal) ((Memref.whole cc0_scratch0 : Memref sig .tc .vmem S2048x2048 .f32).view.loc (c : Thread nD τ)))
    (fl : Buf (Elt Ideal) ((commM2_1 : Memref sig .tc .vmem S512x384 .bf16).view.loc (c : Thread nD τ)))
    (hJ2 : ∀ (r : Fin 256) (j : Fin 384), ((View.readAt (Elt Ideal) (Memref.whole cc0_scratch0 : Memref sig .tc .vmem S2048x2048 .f32).view (Rect.unit (s := S2048x2048) (k0_off45 c) ![256, 384] (k0_off45_inb c)).toLoadRect f3) (ix2 r j) : EReal)
      = share A B c.val (ownRow 2 0 c + r.val) (colLo 2 + j.val) + share A B (nb 2 0 c).val (ownRow 2 0 c + r.val) (colLo 2 + j.val))
    (hfl : (Vreal A B).rs2_1 (nbr 0 c) ((commM2_1 : Memref sig .tc .vmem S512x384 .bf16).view.read (Elt Ideal) fl)) :
    ∀ (r : Fin 256) (j : Fin 384),
      ((outSrcM2 c).view.read (Elt Ideal)
        ((Memref.whole cc0_scratch0 : Memref sig .tc .vmem S2048x2048 .f32).view.writes (Elt Ideal) f3
          [⟨Rect.unit (s := S2048x2048) (k0_off45 c) ![256, 384] (k0_off45_inb c), k0_pay47 (F := Ideal) (View.readAt (Elt Ideal) (Memref.whole cc0_scratch0 : Memref sig .tc .vmem S2048x2048 .f32).view (Rect.unit (s := S2048x2048) (k0_off45 c) ![256, 384] (k0_off45_inb c)).toLoadRect f3) (View.readAt (Elt Ideal) (Memref.whole cc0_scratch3 : Memref sig .tc .vmem S1792x384 .bf16).view (Rect.unit (s := S1792x384) (k0_off46 c) ![256, 384] (k0_off46_inb c)).toLoadRect fl)⟩]) (ix2 r j) : EReal)
        = ((share A B c.val (ownRow 2 0 c + r.val) (colLo 2 + j.val) + share A B (nb 2 0 c).val (ownRow 2 0 c + r.val) (colLo 2 + j.val)) + (share A B (nb 2 1 c).val (ownRow 2 0 c + r.val) (colLo 2 + j.val) + share A B (nb 2 0 (nb 2 1 c)).val (ownRow 2 0 c + r.val) (colLo 2 + j.val))) := by
  intro r j
  refine (congrFun (read_piece_write_box c _ (k0_off45 c) ((off45_eq c).trans (off65_eq c).symm) (k0_off45_inb c) f3) (ix2 r j)).trans ?_
  show k0_pay47 (F := Ideal) _ _ (ix2 r j) = _
  rw [acc_plus_landed_2k, hJ2 r j, landed_rows_2 c fl r j, hfl ⟨cy c * 256 + r.val, by have := cy_le c; omega⟩ j]
  show _ + (share A B (nb 2 1 c).val (sendRow 2 1 (nb 2 1 c) + (cy c * 256 + r.val)) (colLo 2 + j.val)
      + share A B (nb 2 0 (nb 2 1 c)).val (sendRow 2 1 (nb 2 1 c) + (cy c * 256 + r.val)) (colLo 2 + j.val)) = _
  rw [← Nat.add_assoc, sendRow1_nb1_2]

/-! ### The step-1 accumulation of group 2 on the quarter the device keeps: its own share kept, its step-0 neighbour's landed -/

/-- The sum of an accumulator entry and a landed entry (the step-1 accumulation on the kept rows). -/
theorem acc_plus_landed_2q (a : Vec Ideal S512x384 .f32) (b : Vec Ideal S512x384 .bf16) (idx : S512x384.Idx) :
    k0_pay26 (F := Ideal) a b idx = a idx + b idx := by
  unfold k0_pay26; rw [shapeCast_self]; rfl

/-- The quarter the device keeps at step 1 starts, within the 1024 rows its step-0 neighbour sent, at its second coordinate
    times 512: the neighbour's first sent row plus that is the first row of the device's quarter. -/
theorem sendRow0_nb0_2 : ∀ c : Dev nD, sendRow 2 0 (nb 2 0 c) + cx c * 512 = ownRow 2 1 c := by decide

/-- The load of the kept quarter's part of the landed 1024 rows reads the landed piece at the shifted row. -/
theorem landed_rows_2q (c : Dev nD) (fr : Buf (Elt Ideal) ((commM2_0 : Memref sig .tc .vmem S1024x384 .bf16).view.loc (c : Thread nD τ)))
    (r : Fin 512) (j : Fin 384) :
    (View.readAt (Elt Ideal) (Memref.whole cc0_scratch3 : Memref sig .tc .vmem S1792x384 .bf16).view (Rect.unit (s := S1792x384) (k0_off24 c) S512x384.size (k0_off24_inb c)).toLoadRect fr) (ix2 r j)
      = (commM2_0 : Memref sig .tc .vmem S1024x384 .bf16).view.read (Elt Ideal) fr
          (ix2 ⟨cx c * 512 + r.val, by have := cx_le c; omega⟩ j) := by
  have h : ((Memref.whole cc0_scratch3 : Memref sig .tc .vmem S1792x384 .bf16).view.slice (Rect.unit (s := S1792x384) (k0_off24 c) S512x384.size (k0_off24_inb c))).emb (ix2 r j)
      = (commM2_0 : Memref sig .tc .vmem S1024x384 .bf16).view.emb (ix2 ⟨cx c * 512 + r.val, by have := cx_le c; omega⟩ j) := by
    refine funext fun a => Fin.ext ?_
    show k0_off24 c a + 1 * ((ix2 r j) a).val = (![0, 0] : Fin 2 → ℕ) a + 1 * ((ix2 (⟨cx c * 512 + r.val, by have := cx_le c; omega⟩ : Fin 1024) j) a).val
    rw [off24_eq]
    match a with
    | ⟨0, _⟩ => show cx c * 512 + 1 * r.val = 0 + 1 * (cx c * 512 + r.val); omega
    | ⟨1, _⟩ => rfl
  show ((Memref.whole cc0_scratch3 : Memref sig .tc .vmem S1792x384 .bf16).view.slice (Rect.unit (s := S1792x384) (k0_off24 c) S512x384.size (k0_off24_inb c))).read (Elt Ideal) fr (ix2 r j) = _
  rw [View.read_apply, View.read_apply, h]

/-- After the step-1 accumulation the quarter the device keeps of group 2 holds the sum of two shares: its own (kept) and
    its step-0 neighbour's (landed). -/
theorem val_J2_2 (c : Dev nD) (f3 : Buf (Elt Ideal) ((Memref.whole cc0_scratch0 : Memref sig .tc .vmem S2048x2048 .f32).view.loc (c : Thread nD τ)))
    (fr : Buf (Elt Ideal) ((commM2_0 : Memref sig .tc .vmem S1024x384 .bf16).view.loc (c : Thread nD τ)))
    (hJ1 : ∀ (r : Fin 512) (j : Fin 384), ((View.readAt (Elt Ideal) (Memref.whole cc0_scratch0 : Memref sig .tc .vmem S2048x2048 .f32).view (Rect.unit (s := S2048x2048) (k0_off23 c) S512x384.size (k0_off23_inb c)).toLoadRect f3) (ix2 r j) : EReal) = share A B c.val (ownRow 2 1 c + r.val) (colLo 2 + j.val))
    (hfr : (Vreal A B).rs2_0 (nbr 2 c) ((commM2_0 : Memref sig .tc .vmem S1024x384 .bf16).view.read (Elt Ideal) fr)) :
    ∀ (r : Fin 512) (j : Fin 384),
      (View.readAt (Elt Ideal) (Memref.whole cc0_scratch0 : Memref sig .tc .vmem S2048x2048 .f32).view (Rect.unit (s := S2048x2048) (k0_off23 c) S512x384.size (k0_off23_inb c)).toLoadRect
        ((Memref.whole cc0_scratch0 : Memref sig .tc .vmem S2048x2048 .f32).view.writes (Elt Ideal) f3
          [⟨(Rect.unit (s := S2048x2048) (k0_off23 c) S512x384.size (k0_off23_inb c)), k0_pay26 (F := Ideal) (View.readAt (Elt Ideal) (Memref.whole cc0_scratch0 : Memref sig .tc .vmem S2048x2048 .f32).view (Rect.unit (s := S2048x2048) (k0_off23 c) S512x384.size (k0_off23_inb c)).toLoadRect f3) (View.readAt (Elt Ideal) (Memref.whole cc0_scratch3 : Memref sig .tc .vmem S1792x384 .bf16).view (Rect.unit (s := S1792x384) (k0_off24 c) S512x384.size (k0_off24_inb c)).toLoadRect fr)⟩]) (ix2 r j) : EReal)
        = share A B c.val (ownRow 2 1 c + r.val) (colLo 2 + j.val) + share A B (nb 2 0 c).val (ownRow 2 1 c + r.val) (colLo 2 + j.val) := by
  intro r j
  refine (congrFun (View.read_write_univ (v := (Memref.whole cc0_scratch0 : Memref sig .tc .vmem S2048x2048 .f32).view.slice (Rect.unit (s := S2048x2048) (k0_off23 c) S512x384.size (k0_off23_inb c))) f3 _) (ix2 r j)).trans ?_
  show k0_pay26 (F := Ideal) _ _ (ix2 r j) = _
  rw [acc_plus_landed_2q, hJ1 r j, landed_rows_2q c fr r j, hfr ⟨cx c * 512 + r.val, by have := cx_le c; omega⟩ j]
  show _ + share A B (nb 2 0 c).val (sendRow 2 0 (nb 2 0 c) + (cx c * 512 + r.val)) (colLo 2 + j.val) = _
  rw [← Nat.add_assoc, sendRow0_nb0_2]

/-! ### Framing: a block of the accumulator read through stores that lie apart from it, and an eighth inside its quarter -/

/-- A load of a block of the accumulator does not see a store into a block that lies apart from it along an axis (another
    column group's columns, or other rows of the same group). -/
theorem acc_box_writes_cons_apart (c : Dev nD) (f : Buf (Elt Ideal) ((Memref.whole cc0_scratch0 : Memref sig .tc .vmem S2048x2048 .f32).view.loc (c : Thread nD τ)))
    {off off' size size' : Fin 2 → ℕ}
    (inb : ∀ a, off a + size a ≤ S2048x2048.size a) (inb' : ∀ a, off' a + size' a ≤ S2048x2048.size a)
    (w' : (Rect.unit (s := S2048x2048) off' size' inb').shape.Idx → Elt Ideal .f32) (L : List (View.Piece (Elt Ideal) S2048x2048 .f32))
    (a : Fin 2) (h : off a + size a ≤ off' a ∨ off' a + size' a ≤ off a) :
    View.readAt (Elt Ideal) (Memref.whole cc0_scratch0 : Memref sig .tc .vmem S2048x2048 .f32).view (Rect.unit (s := S2048x2048) off size inb).toLoadRect
        ((Memref.whole cc0_scratch0 : Memref sig .tc .vmem S2048x2048 .f32).view.writes (Elt Ideal) f ((⟨Rect.unit (s := S2048x2048) off' size' inb', w'⟩ : View.Piece (Elt Ideal) S2048x2048 .f32) :: L))
      = View.readAt (Elt Ideal) (Memref.whole cc0_scratch0 : Memref sig .tc .vmem S2048x2048 .f32).view (Rect.unit (s := S2048x2048) off size inb).toLoadRect ((Memref.whole cc0_scratch0 : Memref sig .tc .vmem S2048x2048 .f32).view.writes (Elt Ideal) f L) := by
  funext x
  rw [View.readAt_apply, View.readAt_apply]
  refine View.read_writes_cons_unit_of_not_mem (Memref.whole cc0_scratch0 : Memref sig .tc .vmem S2048x2048 .f32).view f inb' w' L _ rfl a ?_
  have hx : (x a).val < size a := (x a).isLt
  show (off a + 1 * (x a).val) < off' a ∨ off' a + size' a ≤ (off a + 1 * (x a).val)
  omega

/-- The device's own eighth of group 2 starts, within the quarter it kept at step 1, at its third coordinate times 256. -/
theorem ownRow1_2 : ∀ c : Dev nD, ownRow 2 1 c + cy c * 256 = ownRow 2 0 c := by decide

/-- A load of the own eighth reads what a load of the kept quarter reads at the shifted row. -/
theorem eighth_in_quarter_2 (c : Dev nD) (g : Buf (Elt Ideal) ((Memref.whole cc0_scratch0 : Memref sig .tc .vmem S2048x2048 .f32).view.loc (c : Thread nD τ))) (r : Fin 256) (j : Fin 384) :
    View.readAt (Elt Ideal) (Memref.whole cc0_scratch0 : Memref sig .tc .vmem S2048x2048 .f32).view (Rect.unit (s := S2048x2048) (k0_off45 c) ![256, 384] (k0_off45_inb c)).toLoadRect g (ix2 r j)
      = View.readAt (Elt Ideal) (Memref.whole cc0_scratch0 : Memref sig .tc .vmem S2048x2048 .f32).view (Rect.unit (s := S2048x2048) (k0_off23 c) S512x384.size (k0_off23_inb c)).toLoadRect g (ix2 ⟨cy c * 256 + r.val, by have := cy_le c; omega⟩ j) := by
  have h : ((Memref.whole cc0_scratch0 : Memref sig .tc .vmem S2048x2048 .f32).view.slice (Rect.unit (s := S2048x2048) (k0_off45 c) ![256, 384] (k0_off45_inb c))).emb (ix2 r j)
      = ((Memref.whole cc0_scratch0 : Memref sig .tc .vmem S2048x2048 .f32).view.slice (Rect.unit (s := S2048x2048) (k0_off23 c) S512x384.size (k0_off23_inb c))).emb (ix2 ⟨cy c * 256 + r.val, by have := cy_le c; omega⟩ j) := by
    refine funext fun a => Fin.ext ?_
    show k0_off45 c a + 1 * ((ix2 r j) a).val = k0_off23 c a + 1 * ((ix2 (⟨cy c * 256 + r.val, by have := cy_le c; omega⟩ : Fin 512) j) a).val
    rw [off45_eq, off23_eq]
    match a with
    | ⟨0, _⟩ => show cz c * 1024 + cx c * 512 + cy c * 256 + 1 * r.val = cz c * 1024 + cx c * 512 + 1 * (cy c * 256 + r.val); omega
    | ⟨1, _⟩ => rfl
  show ((Memref.whole cc0_scratch0 : Memref sig .tc .vmem S2048x2048 .f32).view.slice (Rect.unit (s := S2048x2048) (k0_off45 c) ![256, 384] (k0_off45_inb c))).read (Elt Ideal) g (ix2 r j)
    = ((Memref.whole cc0_scratch0 : Memref sig .tc .vmem S2048x2048 .f32).view.slice (Rect.unit (s := S2048x2048) (k0_off23 c) S512x384.size (k0_off23_inb c))).read (Elt Ideal) g (ix2 ⟨cy c * 256 + r.val, by have := cy_le c; omega⟩ j)
  rw [View.read_apply, View.read_apply, h]

/-- The two-share sum on the kept quarter gives it on the own eighth. -/
theorem J2_eighth_of_quarter_2 (c : Dev nD) (g : Buf (Elt Ideal) ((Memref.whole cc0_scratch0 : Memref sig .tc .vmem S2048x2048 .f32).view.loc (c : Thread nD τ)))
    (hq : ∀ (r : Fin 512) (j : Fin 384), (View.readAt (Elt Ideal) (Memref.whole cc0_scratch0 : Memref sig .tc .vmem S2048x2048 .f32).view (Rect.unit (s := S2048x2048) (k0_off23 c) S512x384.size (k0_off23_inb c)).toLoadRect g (ix2 r j) : EReal)
      = share A B c.val (ownRow 2 1 c + r.val) (colLo 2 + j.val) + share A B (nb 2 0 c).val (ownRow 2 1 c + r.val) (colLo 2 + j.val)) :
    ∀ (r : Fin 256) (j : Fin 384),
      (View.readAt (Elt Ideal) (Memref.whole cc0_scratch0 : Memref sig .tc .vmem S2048x2048 .f32).view (Rect.unit (s := S2048x2048) (k0_off45 c) ![256, 384] (k0_off45_inb c)).toLoadRect g (ix2 r j) : EReal)
        = share A B c.val (ownRow 2 0 c + r.val) (colLo 2 + j.val) + share A B (nb 2 0 c).val (ownRow 2 0 c + r.val) (colLo 2 + j.val) := by
  intro r j
  rw [eighth_in_quarter_2 c g r j, hq ⟨cy c * 256 + r.val, by have := cy_le c; omega⟩ j]
  show share A B c.val (ownRow 2 1 c + (cy c * 256 + r.val)) _ + share A B (nb 2 0 c).val (ownRow 2 1 c + (cy c * 256 + r.val)) _ = _
  rw [← Nat.add_assoc, ownRow1_2]

/-! ### Two more of the travelling values of group 2: what it sends at the last reduce-scatter step, and at the first all-gather step -/

/-- A narrowed entry is the entry. -/
theorem narrowed_2 (x : Vec Ideal S256x384 .f32) (idx : S256x384.Idx) : k0_pay46 (F := Ideal) x idx = x idx := by
  unfold k0_pay46; rw [shapeCast_self]; rfl

/-- The rows device c sends at the last reduce-scatter step start at its first two coordinates' rows and its third coordinate
    flipped. -/
theorem sendRow2_2 : ∀ c : Dev nD, sendRow 2 2 c = cz c * 1024 + cx c * 512 + (1 - cy c) * 256 := by decide

/-- What group 2 stages and sends at the last reduce-scatter step is the sum of four shares at the rows it sends away:
    the staging rows are the accumulator's rows there, narrowed. -/
theorem val_rs2_2 (c : Dev nD) (f3 : Buf (Elt Ideal) ((Memref.whole cc0_scratch0 : Memref sig .tc .vmem S2048x2048 .f32).view.loc (c : Thread nD τ)))
    (f12 : Buf (Elt Ideal) ((stgM2_1 : Memref sig .tc .vmem S512x384 .bf16).view.loc (c : Thread nD τ)))
    (hS : ∀ (r : Fin 256) (j : Fin 384), ((View.readAt (Elt Ideal) (Memref.whole cc0_scratch0 : Memref sig .tc .vmem S2048x2048 .f32).view (Rect.unit (s := S2048x2048) (k0_off43 c) ![256, 384] (k0_off43_inb c)).toLoadRect f3) (ix2 r j) : EReal)
      = ((share A B c.val (sendRow 2 2 c + r.val) (colLo 2 + j.val) + share A B (nb 2 0 c).val (sendRow 2 2 c + r.val) (colLo 2 + j.val)) + (share A B (nb 2 1 c).val (sendRow 2 2 c + r.val) (colLo 2 + j.val) + share A B (nb 2 0 (nb 2 1 c)).val (sendRow 2 2 c + r.val) (colLo 2 + j.val)))) :
    (Vreal A B).rs2_2 c ((stgM2_2 : Memref sig .tc .vmem S256x384 .bf16).view.read (Elt Ideal)
      (View.write (Elt Ideal) ((Memref.whole cc0_scratch9 : Memref sig .tc .vmem S1024x384 .bf16).access (Rect.unit (s := S1024x384) ![0, 0] ![256, 384] inb_S1024x384_S256x384_0_0)) f12
        (k0_pay46 (F := Ideal) (View.readAt (Elt Ideal) (Memref.whole cc0_scratch0 : Memref sig .tc .vmem S2048x2048 .f32).view (Rect.unit (s := S2048x2048) (k0_off43 c) ![256, 384] (k0_off43_inb c)).toLoadRect f3)) Finset.univ)) := by
  intro r j
  refine (congrFun (View.read_write_univ (v := (stgM2_2 : Memref sig .tc .vmem S256x384 .bf16).view) f12 _) (ix2 r j)).trans ?_
  rw [narrowed_2, hS r j]
  rfl

/-- The product of the two factors, narrowed, is the tanh form of GELU too. -/
theorem gelu_factors_2n (x : Vec Ideal S256x384 .f32) (idx : S256x384.Idx) :
    k0_pay72 (F := Ideal) (k0_pay68 x) (k0_pay69 x) idx = Cert.RefSide.gelu1 (x idx) := by
  unfold k0_pay72; rw [shapeCast_self]; rfl

/-- Reading the own rows of group 2's all-gather buffer through their piece after storing them through the whole buffer. -/
theorem read_piece_write_box_ag2 (c : Dev nD) (w : S256x384.Idx → Elt Ideal .bf16) :
    ∀ (o : Fin 2 → ℕ) (ho : o = k0_off75 c) (inb : ∀ a, o a + S256x384.size a ≤ S2048x384.size a)
      (f : Buf (Elt Ideal) (((Memref.whole cc0_scratch15 : Memref sig .tc .vmem S2048x384 .bf16).access (Rect.unit (s := S2048x384) o S256x384.size inb)).loc (c : Thread nD τ))),
      (agM2_0 c).view.read (Elt Ideal)
        (((Memref.whole cc0_scratch15 : Memref sig .tc .vmem S2048x384 .bf16).access (Rect.unit (s := S2048x384) o S256x384.size inb)).write (Elt Ideal) f w Finset.univ) = w := by
  intro o ho
  subst ho
  intro inb f
  exact View.read_write_univ _ _

/-- What group 2 sends at the first all-gather step — its own rows of the all-gather buffer — is GELU of the product. -/
theorem val_ag2_0 (c : Dev nD) (g2 : Buf (Elt Ideal) ((agM2_0 c).view.loc (c : Thread nD τ))) (x : Vec Ideal S256x384 .f32)
    (hx : ∀ (r : Fin 256) (j : Fin 384), (x (ix2 r j) : EReal) = tot A B (ownRow 2 0 c + r.val) (colLo 2 + j.val)) :
    (Vreal A B).ag2_0 c ((agM2_0 c).view.read (Elt Ideal) (((Memref.whole cc0_scratch15 : Memref sig .tc .vmem S2048x384 .bf16).access (Rect.unit (s := S2048x384) (k0_off64 c) S256x384.size (k0_off64_inb c))).write (Elt Ideal) g2 (k0_pay72 (F := Ideal) (k0_pay68 x) (k0_pay69 x)) Finset.univ)) := by
  intro r j
  rw [read_piece_write_box_ag2 c _ (k0_off64 c) ((off64_eq c).trans (off75_eq c).symm) (k0_off64_inb c) g2, gelu_factors_2n, hx]
  rfl

/-! ### The all-gather join of group 2 at step 1: the own 256 rows and the arrived 256 rows are the 512 rows sent next -/

/-- The first row of the quarter of group 2 a device holds after one all-gather step, and of its two eighths. -/
theorem ownRow0_nb_2 : ∀ c : Dev nD, ownRow 2 0 (nbr 1 c) = ownRow 2 1 c + (1 - cy c) * 256 := by decide
theorem ownRow0_own_2 : ∀ c : Dev nD, ownRow 2 0 c = ownRow 2 1 c + cy c * 256 := by decide

theorem val_ag2_1 (c : Dev nD) (g2 : Buf (Elt Ideal) ((agM2_0 c).view.loc (c : Thread nD τ)))
    (hg : (Vreal A B).ag2_0 c ((agM2_0 c).view.read (Elt Ideal) g2)) :
    ∀ fa : Buf (Elt Ideal) ((agM2_0 (nbr 1 c)).view.loc (c : Thread nD τ)),
      (Vreal A B).ag2_0 (nbr 1 c) ((agM2_0 (nbr 1 c)).view.read (Elt Ideal) fa) →
      (Vreal A B).ag2_1 c ((agM2_1 c).view.read (Elt Ideal) ((agM2_0 (nbr 1 c)).view.set.piecewise fa g2)) := by
  intro fa hfa r j
  have hcy := cy_le c
  have hrl := r.isLt
  by_cases hr : r.val / 256 = 1 - cy c
  · -- a row of the arrived eighth
    have hlt : r.val - (1 - cy c) * 256 < 256 := by omega
    have he : (agM2_1 c).view.emb (ix2 r j) = (agM2_0 (nbr 1 c)).view.emb (ix2 ⟨r.val - (1 - cy c) * 256, hlt⟩ j) := by
      refine funext fun a => Fin.ext ?_
      show k0_off86 c a + 1 * ((ix2 r j) a).val = k0_off75 (nbr 1 c) a + 1 * ((ix2 (⟨r.val - (1 - cy c) * 256, hlt⟩ : Fin 256) j) a).val
      rw [off86_eq, off75_eq, cx_nbr1, cy_nbr1, cz_nbr1]
      match a with
      | ⟨0, _⟩ => show cz c * 1024 + cx c * 512 + 1 * r.val = cz c * 1024 + cx c * 512 + (1 - cy c) * 256 + 1 * (r.val - (1 - cy c) * 256); omega
      | ⟨1, _⟩ => rfl
    have h1 : (agM2_1 c).view.read (Elt Ideal) ((agM2_0 (nbr 1 c)).view.set.piecewise fa g2) (ix2 r j)
        = (agM2_0 (nbr 1 c)).view.read (Elt Ideal) fa (ix2 ⟨r.val - (1 - cy c) * 256, hlt⟩ j) := by
      have hp : (agM2_0 (nbr 1 c)).view.set.piecewise fa g2 ((agM2_0 (nbr 1 c)).view.emb (ix2 ⟨r.val - (1 - cy c) * 256, hlt⟩ j))
          = fa ((agM2_0 (nbr 1 c)).view.emb (ix2 ⟨r.val - (1 - cy c) * 256, hlt⟩ j)) :=
        Finset.piecewise_eq_of_mem _ _ _ (View.emb_mem_set _ _)
      rw [View.read_apply, View.read_apply, he, hp]
    rw [h1, hfa ⟨r.val - (1 - cy c) * 256, hlt⟩ j]
    show Cert.RefSide.gelu1 (tot A B (ownRow 2 0 (nbr 1 c) + (r.val - (1 - cy c) * 256)) (colLo 2 + j.val))
      = Cert.RefSide.gelu1 (tot A B (ownRow 2 1 c + r.val) (colLo 2 + j.val))
    rw [ownRow0_nb_2]
    congr 2
    omega
  · -- a row of the own eighth
    have hlt : r.val - cy c * 256 < 256 := by omega
    have he : (agM2_1 c).view.emb (ix2 r j) = (agM2_0 c).view.emb (ix2 ⟨r.val - cy c * 256, hlt⟩ j) := by
      refine funext fun a => Fin.ext ?_
      show k0_off86 c a + 1 * ((ix2 r j) a).val = k0_off75 c a + 1 * ((ix2 (⟨r.val - cy c * 256, hlt⟩ : Fin 256) j) a).val
      rw [off86_eq, off75_eq]
      match a with
      | ⟨0, _⟩ => show cz c * 1024 + cx c * 512 + 1 * r.val = cz c * 1024 + cx c * 512 + cy c * 256 + 1 * (r.val - cy c * 256); omega
      | ⟨1, _⟩ => rfl
    have hnot : (agM2_0 c).view.emb (ix2 ⟨r.val - cy c * 256, hlt⟩ j) ∉ (agM2_0 (nbr 1 c)).view.set :=
      Finset.disjoint_left.mp (ag_disj0_2 c) (View.emb_mem_set _ _)
    have h1 : (agM2_1 c).view.read (Elt Ideal) ((agM2_0 (nbr 1 c)).view.set.piecewise fa g2) (ix2 r j)
        = (agM2_0 c).view.read (Elt Ideal) g2 (ix2 ⟨r.val - cy c * 256, hlt⟩ j) := by
      have hp : (agM2_0 (nbr 1 c)).view.set.piecewise fa g2 ((agM2_0 c).view.emb (ix2 ⟨r.val - cy c * 256, hlt⟩ j))
          = g2 ((agM2_0 c).view.emb (ix2 ⟨r.val - cy c * 256, hlt⟩ j)) :=
        Finset.piecewise_eq_of_notMem _ _ _ hnot
      rw [View.read_apply, View.read_apply, he, hp]
    rw [h1, hg ⟨r.val - cy c * 256, hlt⟩ j]
    show Cert.RefSide.gelu1 (tot A B (ownRow 2 0 c + (r.val - cy c * 256)) (colLo 2 + j.val))
      = Cert.RefSide.gelu1 (tot A B (ownRow 2 1 c + r.val) (colLo 2 + j.val))
    rw [ownRow0_own_2]
    congr 2
    omega

/-! ### The block of group 2 that arrived at all-gather step 0, widened into the accumulator and copied out -/

/-- A widened entry is the entry. -/
theorem widened_2 (x : Vec Ideal S256x384 .bf16) (idx : S256x384.Idx) : k0_pay90 (F := Ideal) (k0_pay89 x) idx = x idx := by
  unfold k0_pay90; rw [shapeCast_self]; rfl

/-- Reading block 8 through its piece after storing it through the whole accumulator at the same rows and columns. -/
theorem read_piece_write_box_8 (c : Dev nD) (w : S256x384.Idx → Elt Ideal .f32) :
    ∀ (o : Fin 2 → ℕ) (ho : o = k0_off89 c) (inb : ∀ a, o a + S256x384.size a ≤ S2048x2048.size a)
      (f : Buf (Elt Ideal) (((Memref.whole cc0_scratch0 : Memref sig .tc .vmem S2048x2048 .f32).access (Rect.unit (s := S2048x2048) o S256x384.size inb)).loc (c : Thread nD τ))),
      (outSrcM8 c).view.read (Elt Ideal) (((Memref.whole cc0_scratch0 : Memref sig .tc .vmem S2048x2048 .f32).access (Rect.unit (s := S2048x2048) o S256x384.size inb)).write (Elt Ideal) f w Finset.univ) = w := by
  intro o ho
  subst ho
  intro inb f
  exact View.read_write_univ _ _

/-- Copy 8's block starts at the rows the device's step-0 all-gather neighbour owns, at group 2's first column. -/
theorem outRow_8 : ∀ c : Dev nD, outRow c 8 = ownRow 2 0 (nbr 1 c) := by decide
theorem outColLo_8 : outColLo 8 = colLo 2 := rfl

/-- The rows of group 2 that arrived at all-gather step 0 are read from the joined rows as the neighbour sent them. -/
theorem arrived_rows_2 (c : Dev nD) (g2 : Buf (Elt Ideal) ((agM2_0 c).view.loc (c : Thread nD τ)))
    (fa : Buf (Elt Ideal) ((agM2_0 (nbr 1 c)).view.loc (c : Thread nD τ))) (r : Fin 256) (j : Fin 384) :
    (View.readAt (Elt Ideal) (Memref.whole cc0_scratch15 : Memref sig .tc .vmem S2048x384 .bf16).view (Rect.unit (s := S2048x384) (k0_off87 c) S256x384.size (k0_off87_inb c)).toLoadRect ((agM2_0 (nbr 1 c)).view.set.piecewise fa g2)) (ix2 r j) = (agM2_0 (nbr 1 c)).view.read (Elt Ideal) fa (ix2 r j) := by
  have he : ((Memref.whole cc0_scratch15 : Memref sig .tc .vmem S2048x384 .bf16).view.slice (Rect.unit (s := S2048x384) (k0_off87 c) S256x384.size (k0_off87_inb c))).emb (ix2 r j)
      = (agM2_0 (nbr 1 c)).view.emb (ix2 r j) := by
    refine funext fun a => Fin.ext ?_
    show k0_off87 c a + 1 * ((ix2 r j) a).val = k0_off75 (nbr 1 c) a + 1 * ((ix2 r j) a).val
    rw [off87_eq, off75_eq, cx_nbr1, cy_nbr1, cz_nbr1]
  have hp : (agM2_0 (nbr 1 c)).view.set.piecewise fa g2 ((agM2_0 (nbr 1 c)).view.emb (ix2 r j)) = fa ((agM2_0 (nbr 1 c)).view.emb (ix2 r j)) :=
    Finset.piecewise_eq_of_mem _ _ _ (View.emb_mem_set _ _)
  show ((Memref.whole cc0_scratch15 : Memref sig .tc .vmem S2048x384 .bf16).view.slice (Rect.unit (s := S2048x384) (k0_off87 c) S256x384.size (k0_off87_inb c))).read (Elt Ideal) ((agM2_0 (nbr 1 c)).view.set.piecewise fa g2) (ix2 r j) = _
  rw [View.read_apply, View.read_apply, he, hp]

/-- The block of the accumulator copy 8 reads — the arrived rows of group 2, widened — holds GELU of the product. -/
theorem val_out8 (c : Dev nD) (f8 : Buf (Elt Ideal) ((outSrcM8 c).view.loc (c : Thread nD τ)))
    (g2 : Buf (Elt Ideal) ((agM2_0 c).view.loc (c : Thread nD τ))) (fa : Buf (Elt Ideal) ((agM2_0 (nbr 1 c)).view.loc (c : Thread nD τ)))
    (hfa : (Vreal A B).ag2_0 (nbr 1 c) ((agM2_0 (nbr 1 c)).view.read (Elt Ideal) fa)) :
    (Vreal A B).out8 c ((outSrcM8 c).view.read (Elt Ideal)
      (((Memref.whole cc0_scratch0 : Memref sig .tc .vmem S2048x2048 .f32).access (Rect.unit (s := S2048x2048) (k0_off88 c) S256x384.size (k0_off88_inb c))).write (Elt Ideal) f8
        (k0_pay90 (F := Ideal) (k0_pay89 (View.readAt (Elt Ideal) (Memref.whole cc0_scratch15 : Memref sig .tc .vmem S2048x384 .bf16).view (Rect.unit (s := S2048x384) (k0_off87 c) S256x384.size (k0_off87_inb c)).toLoadRect ((agM2_0 (nbr 1 c)).view.set.piecewise fa g2)))) Finset.univ)) := by
  intro r jj
  rw [read_piece_write_box_8 c _ (k0_off88 c) ((off88_eq c).trans (off89_eq c).symm) (k0_off88_inb c) f8, widened_2,
    arrived_rows_2 c g2 fa r jj, hfa r jj]
  unfold outSpec agSpec
  rw [outRow_8, outColLo_8]

/-! ### The half of group 2 that arrived at the last all-gather step, widened into the accumulator and copied out -/

/-- A widened entry is the entry (the last copy's 1024 rows). -/
theorem widened_2h (x : Vec Ideal S1024x384 .bf16) (idx : S1024x384.Idx) : k0_pay104 (F := Ideal) (k0_pay103 x) idx = x idx := by
  unfold k0_pay104; rw [shapeCast_self]; rfl

/-- Reading block 20 through its piece after storing it through the whole accumulator at the same rows and columns. -/
theorem read_piece_write_box_20 (c : Dev nD) (w : S1024x384.Idx → Elt Ideal .f32) :
    ∀ (o : Fin 2 → ℕ) (ho : o = k0_off130 c) (inb : ∀ a, o a + (![1024, 384] : Fin 2 → ℕ) a ≤ S2048x2048.size a)
      (f : Buf (Elt Ideal) (((Memref.whole cc0_scratch0 : Memref sig .tc .vmem S2048x2048 .f32).access (Rect.unit (s := S2048x2048) o ![1024, 384] inb)).loc (c : Thread nD τ))),
      (outSrcM20 c : Memref sig .tc .vmem S1024x384 .f32).view.read (Elt Ideal)
        (View.write (Elt Ideal) ((Memref.whole cc0_scratch0 : Memref sig .tc .vmem S2048x2048 .f32).access (Rect.unit (s := S2048x2048) o ![1024, 384] inb)) f w Finset.univ) = w := by
  intro o ho
  subst ho
  intro inb f
  exact View.read_write_univ _ _

/-- Copy 20's block starts at the half the device's last all-gather neighbour holds, at group 2's first column. -/
theorem outRow_20 : ∀ c : Dev nD, outRow c 20 = ownRow 2 2 (nbr 2 c) := by decide
theorem outColLo_20 : outColLo 20 = colLo 2 := rfl

/-- The load of the arrived half through the whole all-gather buffer reads what the arrived piece reads. -/
theorem arrived_half_2 (c : Dev nD) (fl2 : Buf (Elt Ideal) ((agM2_2 (nbr 2 c) : Memref sig .tc .vmem S1024x384 .bf16).view.loc (c : Thread nD τ)))
    (r : Fin 1024) (j : Fin 384) :
    (View.readAt (Elt Ideal) (Memref.whole cc0_scratch15 : Memref sig .tc .vmem S2048x384 .bf16).view (Rect.unit (s := S2048x384) (k0_off128 c) ![1024, 384] (k0_off128_inb c)).toLoadRect fl2) (ix2 r j) = (agM2_2 (nbr 2 c) : Memref sig .tc .vmem S1024x384 .bf16).view.read (Elt Ideal) fl2 (ix2 r j) := by
  have he : ((Memref.whole cc0_scratch15 : Memref sig .tc .vmem S2048x384 .bf16).view.slice (Rect.unit (s := S2048x384) (k0_off128 c) ![1024, 384] (k0_off128_inb c))).emb (ix2 r j)
      = (agM2_2 (nbr 2 c) : Memref sig .tc .vmem S1024x384 .bf16).view.emb (ix2 r j) := by
    refine funext fun a => Fin.ext ?_
    show k0_off128 c a + 1 * ((ix2 r j) a).val = k0_off108 (nbr 2 c) a + 1 * ((ix2 r j) a).val
    rw [off128_eq, off108_eq, cz_nbr2]
  show ((Memref.whole cc0_scratch15 : Memref sig .tc .vmem S2048x384 .bf16).view.slice (Rect.unit (s := S2048x384) (k0_off128 c) ![1024, 384] (k0_off128_inb c))).read (Elt Ideal) fl2 (ix2 r j) = _
  rw [View.read_apply, View.read_apply, he]

/-- The block of the accumulator copy 20 reads — the half of group 2 that arrived last, widened — holds GELU of the product. -/
theorem val_out20 (c : Dev nD) (fb20 : Buf (Elt Ideal) ((outSrcM20 c : Memref sig .tc .vmem S1024x384 .f32).view.loc (c : Thread nD τ)))
    (fl2 : Buf (Elt Ideal) ((agM2_2 (nbr 2 c) : Memref sig .tc .vmem S1024x384 .bf16).view.loc (c : Thread nD τ)))
    (hfl : (Vreal A B).ag2_2 (nbr 2 c) ((agM2_2 (nbr 2 c) : Memref sig .tc .vmem S1024x384 .bf16).view.read (Elt Ideal) fl2)) :
    (Vreal A B).out20 c ((outSrcM20 c : Memref sig .tc .vmem S1024x384 .f32).view.read (Elt Ideal)
      (View.write (Elt Ideal) ((Memref.whole cc0_scratch0 : Memref sig .tc .vmem S2048x2048 .f32).access (Rect.unit (s := S2048x2048) (k0_off129 c) ![1024, 384] (k0_off129_inb c))) fb20
        (k0_pay104 (F := Ideal) (k0_pay103 (View.readAt (Elt Ideal) (Memref.whole cc0_scratch15 : Memref sig .tc .vmem S2048x384 .bf16).view (Rect.unit (s := S2048x384) (k0_off128 c) ![1024, 384] (k0_off128_inb c)).toLoadRect fl2))) Finset.univ)) := by
  intro r jj
  rw [read_piece_write_box_20 c _ (k0_off129 c) ((off129_eq c).trans (off130_eq c).symm) (k0_off129_inb c) fb20, widened_2h,
    arrived_half_2 c fl2 r jj, hfl r jj]
  unfold outSpec agSpec
  rw [outRow_20, outColLo_20]

/-! ### Group 2 from the step-1 accumulation to the first finished block, over the accumulator's real history

The accumulator's contents are spelt as the parts leave them: each stretch a list of stores, newest first, over the contents
before. The other column groups' payloads are arbitrary (they are apart in columns), as is group 2's own store into the rows it
sends at step 2 (apart in rows). -/

/-- The accumulator after the step-1 accumulation of group 2 on its kept quarter. -/
def accT13 (c : Dev nD) (f : Buf (Elt Ideal) ((Memref.whole cc0_scratch0 : Memref sig .tc .vmem S2048x2048 .f32).view.loc (c : Thread nD τ)))
    (fl0 : Buf (Elt Ideal) ((commM2_0 : Memref sig .tc .vmem S1024x384 .bf16).view.loc (c : Thread nD τ))) :
    Buf (Elt Ideal) ((Memref.whole cc0_scratch0 : Memref sig .tc .vmem S2048x2048 .f32).view.loc (c : Thread nD τ)) := ((Memref.whole cc0_scratch0 : Memref sig .tc .vmem S2048x2048 .f32).view.writes (Elt Ideal) f [⟨(Rect.unit (s := S2048x2048) (k0_off23 c) S512x384.size (k0_off23_inb c)), k0_pay26 (F := Ideal) (View.readAt (Elt Ideal) (Memref.whole cc0_scratch0 : Memref sig .tc .vmem S2048x2048 .f32).view (Rect.unit (s := S2048x2048) (k0_off23 c) S512x384.size (k0_off23_inb c)).toLoadRect f) (View.readAt (Elt Ideal) (Memref.whole cc0_scratch3 : Memref sig .tc .vmem S1792x384 .bf16).view (Rect.unit (s := S1792x384) (k0_off24 c) S512x384.size (k0_off24_inb c)).toLoadRect fl0)⟩])

/-- The accumulator when the step-2 accumulation of group 2 on its kept eighth begins: eleven stores later. -/
def accH23 (c : Dev nD) (g : Buf (Elt Ideal) ((Memref.whole cc0_scratch0 : Memref sig .tc .vmem S2048x2048 .f32).view.loc (c : Thread nD τ))) (w14 : (Rect.unit (s := S2048x2048) (k0_off25 c) S512x384.size (k0_off25_inb c)).shape.Idx → Elt Ideal .f32) (w15 : (Rect.unit (s := S2048x2048) (k0_off26 c) S512x384.size (k0_off26_inb c)).shape.Idx → Elt Ideal .f32) (w16a : (Rect.unit (s := S2048x2048) (k0_off27 c) S512x256.size (k0_off27_inb c)).shape.Idx → Elt Ideal .f32) (w16b : (Rect.unit (s := S2048x2048) (k0_off29 c) S512x256.size (k0_off29_inb c)).shape.Idx → Elt Ideal .f32) (w17 : (Rect.unit (s := S2048x2048) (k0_off31 c) S512x256.size (k0_off31_inb c)).shape.Idx → Elt Ideal .f32) (w18 : (Rect.unit (s := S2048x2048) (k0_off33 c) S512x256.size (k0_off33_inb c)).shape.Idx → Elt Ideal .f32) (w19 : (Rect.unit (s := S2048x2048) (k0_off35 c) S256x384.size (k0_off35_inb c)).shape.Idx → Elt Ideal .f32) (w20 : (Rect.unit (s := S2048x2048) (k0_off37 c) S256x384.size (k0_off37_inb c)).shape.Idx → Elt Ideal .f32) (w21 : (Rect.unit (s := S2048x2048) (k0_off39 c) S256x384.size (k0_off39_inb c)).shape.Idx → Elt Ideal .f32) (w22a : (Rect.unit (s := S2048x2048) (k0_off41 c) S256x384.size (k0_off41_inb c)).shape.Idx → Elt Ideal .f32) (w22b : (Rect.unit (s := S2048x2048) (k0_off43 c) S256x384.size (k0_off43_inb c)).shape.Idx → Elt Ideal .f32) :
    Buf (Elt Ideal) ((Memref.whole cc0_scratch0 : Memref sig .tc .vmem S2048x2048 .f32).view.loc (c : Thread nD τ)) := (Memref.whole cc0_scratch0 : Memref sig .tc .vmem S2048x2048 .f32).view.writes (Elt Ideal) g [⟨(Rect.unit (s := S2048x2048) (k0_off43 c) S256x384.size (k0_off43_inb c)), w22b⟩, ⟨(Rect.unit (s := S2048x2048) (k0_off41 c) S256x384.size (k0_off41_inb c)), w22a⟩, ⟨(Rect.unit (s := S2048x2048) (k0_off39 c) S256x384.size (k0_off39_inb c)), w21⟩, ⟨(Rect.unit (s := S2048x2048) (k0_off37 c) S256x384.size (k0_off37_inb c)), w20⟩, ⟨(Rect.unit (s := S2048x2048) (k0_off35 c) S256x384.size (k0_off35_inb c)), w19⟩, ⟨(Rect.unit (s := S2048x2048) (k0_off33 c) S512x256.size (k0_off33_inb c)), w18⟩, ⟨(Rect.unit (s := S2048x2048) (k0_off31 c) S512x256.size (k0_off31_inb c)), w17⟩, ⟨(Rect.unit (s := S2048x2048) (k0_off29 c) S512x256.size (k0_off29_inb c)), w16b⟩, ⟨(Rect.unit (s := S2048x2048) (k0_off27 c) S512x256.size (k0_off27_inb c)), w16a⟩, ⟨(Rect.unit (s := S2048x2048) (k0_off26 c) S512x384.size (k0_off26_inb c)), w15⟩, ⟨(Rect.unit (s := S2048x2048) (k0_off25 c) S512x384.size (k0_off25_inb c)), w14⟩]

/-- The accumulator after that accumulation. -/
def accT23 (c : Dev nD) (h : Buf (Elt Ideal) ((Memref.whole cc0_scratch0 : Memref sig .tc .vmem S2048x2048 .f32).view.loc (c : Thread nD τ)))
    (fl1 : Buf (Elt Ideal) ((commM2_1 : Memref sig .tc .vmem S512x384 .bf16).view.loc (c : Thread nD τ))) :
    Buf (Elt Ideal) ((Memref.whole cc0_scratch0 : Memref sig .tc .vmem S2048x2048 .f32).view.loc (c : Thread nD τ)) :=
  (Memref.whole cc0_scratch0 : Memref sig .tc .vmem S2048x2048 .f32).view.writes (Elt Ideal) h [⟨(Rect.unit (s := S2048x2048) (k0_off45 c) ![256, 384] (k0_off45_inb c)), k0_pay47 (F := Ideal) (View.readAt (Elt Ideal) (Memref.whole cc0_scratch0 : Memref sig .tc .vmem S2048x2048 .f32).view (Rect.unit (s := S2048x2048) (k0_off45 c) ![256, 384] (k0_off45_inb c)).toLoadRect h) (View.readAt (Elt Ideal) (Memref.whole cc0_scratch3 : Memref sig .tc .vmem S1792x384 .bf16).view (Rect.unit (s := S1792x384) (k0_off46 c) ![256, 384] (k0_off46_inb c)).toLoadRect fl1)⟩]

/-- The contents of group 2's block when its last accumulation begins: eight stores later (the last one just before the
    accumulator is cut into blocks). -/
def accFB (c : Dev nD) (t : Buf (Elt Ideal) ((Memref.whole cc0_scratch0 : Memref sig .tc .vmem S2048x2048 .f32).view.loc (c : Thread nD τ))) (w24 : (Rect.unit (s := S2048x2048) (k0_off47 c) S256x384.size (k0_off47_inb c)).shape.Idx → Elt Ideal .f32) (w25 : (Rect.unit (s := S2048x2048) (k0_off48 c) S256x384.size (k0_off48_inb c)).shape.Idx → Elt Ideal .f32) (w26 : (Rect.unit (s := S2048x2048) (k0_off49 c) S256x256.size (k0_off49_inb c)).shape.Idx → Elt Ideal .f32) (w27 : (Rect.unit (s := S2048x2048) (k0_off51 c) S256x256.size (k0_off51_inb c)).shape.Idx → Elt Ideal .f32) (w28a : (Rect.unit (s := S2048x2048) (k0_off53 c) S256x256.size (k0_off53_inb c)).shape.Idx → Elt Ideal .f32) (w28b : (Rect.unit (s := S2048x2048) (k0_off55 c) S256x256.size (k0_off55_inb c)).shape.Idx → Elt Ideal .f32) (w29 : (Rect.unit (s := S2048x2048) (k0_off37 c) S256x384.size (k0_off37_inb c)).shape.Idx → Elt Ideal .f32) (w30 : (Rect.unit (s := S2048x2048) (k0_off37 c) S256x384.size (k0_off37_inb c)).shape.Idx → Elt Ideal .f32) :
    Buf (Elt Ideal) ((Memref.whole cc0_scratch0 : Memref sig .tc .vmem S2048x2048 .f32).view.loc (c : Thread nD τ)) := (Memref.whole cc0_scratch0 : Memref sig .tc .vmem S2048x2048 .f32).view.writes (Elt Ideal) t [⟨(Rect.unit (s := S2048x2048) (k0_off37 c) S256x384.size (k0_off37_inb c)), w30⟩, ⟨(Rect.unit (s := S2048x2048) (k0_off37 c) S256x384.size (k0_off37_inb c)), w29⟩, ⟨(Rect.unit (s := S2048x2048) (k0_off55 c) S256x256.size (k0_off55_inb c)), w28b⟩, ⟨(Rect.unit (s := S2048x2048) (k0_off53 c) S256x256.size (k0_off53_inb c)), w28a⟩, ⟨(Rect.unit (s := S2048x2048) (k0_off51 c) S256x256.size (k0_off51_inb c)), w27⟩, ⟨(Rect.unit (s := S2048x2048) (k0_off49 c) S256x256.size (k0_off49_inb c)), w26⟩, ⟨(Rect.unit (s := S2048x2048) (k0_off48 c) S256x384.size (k0_off48_inb c)), w25⟩, ⟨(Rect.unit (s := S2048x2048) (k0_off47 c) S256x384.size (k0_off47_inb c)), w24⟩]

/-- The own eighth of group 2 is read the same through the eleven stores between the two accumulations. -/
theorem carry_eighth_13_23 (c : Dev nD) (g : Buf (Elt Ideal) ((Memref.whole cc0_scratch0 : Memref sig .tc .vmem S2048x2048 .f32).view.loc (c : Thread nD τ))) (w14 : (Rect.unit (s := S2048x2048) (k0_off25 c) S512x384.size (k0_off25_inb c)).shape.Idx → Elt Ideal .f32) (w15 : (Rect.unit (s := S2048x2048) (k0_off26 c) S512x384.size (k0_off26_inb c)).shape.Idx → Elt Ideal .f32) (w16a : (Rect.unit (s := S2048x2048) (k0_off27 c) S512x256.size (k0_off27_inb c)).shape.Idx → Elt Ideal .f32) (w16b : (Rect.unit (s := S2048x2048) (k0_off29 c) S512x256.size (k0_off29_inb c)).shape.Idx → Elt Ideal .f32) (w17 : (Rect.unit (s := S2048x2048) (k0_off31 c) S512x256.size (k0_off31_inb c)).shape.Idx → Elt Ideal .f32) (w18 : (Rect.unit (s := S2048x2048) (k0_off33 c) S512x256.size (k0_off33_inb c)).shape.Idx → Elt Ideal .f32) (w19 : (Rect.unit (s := S2048x2048) (k0_off35 c) S256x384.size (k0_off35_inb c)).shape.Idx → Elt Ideal .f32) (w20 : (Rect.unit (s := S2048x2048) (k0_off37 c) S256x384.size (k0_off37_inb c)).shape.Idx → Elt Ideal .f32) (w21 : (Rect.unit (s := S2048x2048) (k0_off39 c) S256x384.size (k0_off39_inb c)).shape.Idx → Elt Ideal .f32) (w22a : (Rect.unit (s := S2048x2048) (k0_off41 c) S256x384.size (k0_off41_inb c)).shape.Idx → Elt Ideal .f32) (w22b : (Rect.unit (s := S2048x2048) (k0_off43 c) S256x384.size (k0_off43_inb c)).shape.Idx → Elt Ideal .f32) :
    (View.readAt (Elt Ideal) (Memref.whole cc0_scratch0 : Memref sig .tc .vmem S2048x2048 .f32).view (Rect.unit (s := S2048x2048) (k0_off45 c) ![256, 384] (k0_off45_inb c)).toLoadRect (accH23 c g w14 w15 w16a w16b w17 w18 w19 w20 w21 w22a w22b)) = (View.readAt (Elt Ideal) (Memref.whole cc0_scratch0 : Memref sig .tc .vmem S2048x2048 .f32).view (Rect.unit (s := S2048x2048) (k0_off45 c) ![256, 384] (k0_off45_inb c)).toLoadRect g) :=
  ((acc_box_writes_cons_apart c g (size := ![256, 384]) (k0_off45_inb c) (k0_off43_inb c) w22b _ 0 (by rw [off45_eq, off43_eq]; have := cy_le c; show (cz c * 1024 + cx c * 512 + cy c * 256) + 256 ≤ cz c * 1024 + cx c * 512 + (1 - cy c) * 256 ∨ (cz c * 1024 + cx c * 512 + (1 - cy c) * 256) + 256 ≤ cz c * 1024 + cx c * 512 + cy c * 256; omega)).trans ((acc_box_writes_cons_apart c g (size := ![256, 384]) (k0_off45_inb c) (k0_off41_inb c) w22a _ 1 (Or.inr (by rw [off45_eq, off41_eq]; show 384 + 384 ≤ 768; decide))).trans ((acc_box_writes_cons_apart c g (size := ![256, 384]) (k0_off45_inb c) (k0_off39_inb c) w21 _ 1 (Or.inr (by rw [off45_eq, off39_eq]; show 384 + 384 ≤ 768; decide))).trans ((acc_box_writes_cons_apart c g (size := ![256, 384]) (k0_off45_inb c) (k0_off37_inb c) w20 _ 1 (Or.inr (by rw [off45_eq, off37_eq]; show 0 + 384 ≤ 768; decide))).trans ((acc_box_writes_cons_apart c g (size := ![256, 384]) (k0_off45_inb c) (k0_off35_inb c) w19 _ 1 (Or.inr (by rw [off45_eq, off35_eq]; show 0 + 384 ≤ 768; decide))).trans ((acc_box_writes_cons_apart c g (size := ![256, 384]) (k0_off45_inb c) (k0_off33_inb c) w18 _ 1 (Or.inl (by rw [off45_eq, off33_eq]; show 768 + 384 ≤ 1792; decide))).trans ((acc_box_writes_cons_apart c g (size := ![256, 384]) (k0_off45_inb c) (k0_off31_inb c) w17 _ 1 (Or.inl (by rw [off45_eq, off31_eq]; show 768 + 384 ≤ 1792; decide))).trans ((acc_box_writes_cons_apart c g (size := ![256, 384]) (k0_off45_inb c) (k0_off29_inb c) w16b _ 1 (Or.inl (by rw [off45_eq, off29_eq]; show 768 + 384 ≤ 1536; decide))).trans ((acc_box_writes_cons_apart c g (size := ![256, 384]) (k0_off45_inb c) (k0_off27_inb c) w16a _ 1 (Or.inl (by rw [off45_eq, off27_eq]; show 768 + 384 ≤ 1536; decide))).trans ((acc_box_writes_cons_apart c g (size := ![256, 384]) (k0_off45_inb c) (k0_off26_inb c) w15 _ 1 (Or.inl (by rw [off45_eq, off26_eq]; show 768 + 384 ≤ 1152; decide))).trans (acc_box_writes_cons_apart c g (size := ![256, 384]) (k0_off45_inb c) (k0_off25_inb c) w14 _ 1 (Or.inl (by rw [off45_eq, off25_eq]; show 768 + 384 ≤ 1152; decide)))))))))))))

/-- The own eighth of group 2 is read the same through the eight stores between its step-2 accumulation and its last one. -/
theorem carry_eighth_23_32 (c : Dev nD) (t : Buf (Elt Ideal) ((Memref.whole cc0_scratch0 : Memref sig .tc .vmem S2048x2048 .f32).view.loc (c : Thread nD τ))) (w24 : (Rect.unit (s := S2048x2048) (k0_off47 c) S256x384.size (k0_off47_inb c)).shape.Idx → Elt Ideal .f32) (w25 : (Rect.unit (s := S2048x2048) (k0_off48 c) S256x384.size (k0_off48_inb c)).shape.Idx → Elt Ideal .f32) (w26 : (Rect.unit (s := S2048x2048) (k0_off49 c) S256x256.size (k0_off49_inb c)).shape.Idx → Elt Ideal .f32) (w27 : (Rect.unit (s := S2048x2048) (k0_off51 c) S256x256.size (k0_off51_inb c)).shape.Idx → Elt Ideal .f32) (w28a : (Rect.unit (s := S2048x2048) (k0_off53 c) S256x256.size (k0_off53_inb c)).shape.Idx → Elt Ideal .f32) (w28b : (Rect.unit (s := S2048x2048) (k0_off55 c) S256x256.size (k0_off55_inb c)).shape.Idx → Elt Ideal .f32) (w29 : (Rect.unit (s := S2048x2048) (k0_off37 c) S256x384.size (k0_off37_inb c)).shape.Idx → Elt Ideal .f32) (w30 : (Rect.unit (s := S2048x2048) (k0_off37 c) S256x384.size (k0_off37_inb c)).shape.Idx → Elt Ideal .f32) :
    (View.readAt (Elt Ideal) (Memref.whole cc0_scratch0 : Memref sig .tc .vmem S2048x2048 .f32).view (Rect.unit (s := S2048x2048) (k0_off45 c) ![256, 384] (k0_off45_inb c)).toLoadRect (accFB c t w24 w25 w26 w27 w28a w28b w29 w30)) = (View.readAt (Elt Ideal) (Memref.whole cc0_scratch0 : Memref sig .tc .vmem S2048x2048 .f32).view (Rect.unit (s := S2048x2048) (k0_off45 c) ![256, 384] (k0_off45_inb c)).toLoadRect t) :=
  ((acc_box_writes_cons_apart c t (size := ![256, 384]) (k0_off45_inb c) (k0_off37_inb c) w30 _ 1 (Or.inr (by rw [off45_eq, off37_eq]; show 0 + 384 ≤ 768; decide))).trans ((acc_box_writes_cons_apart c t (size := ![256, 384]) (k0_off45_inb c) (k0_off37_inb c) w29 _ 1 (Or.inr (by rw [off45_eq, off37_eq]; show 0 + 384 ≤ 768; decide))).trans ((acc_box_writes_cons_apart c t (size := ![256, 384]) (k0_off45_inb c) (k0_off55_inb c) w28b _ 1 (Or.inl (by rw [off45_eq, off55_eq]; show 768 + 384 ≤ 1792; decide))).trans ((acc_box_writes_cons_apart c t (size := ![256, 384]) (k0_off45_inb c) (k0_off53_inb c) w28a _ 1 (Or.inl (by rw [off45_eq, off53_eq]; show 768 + 384 ≤ 1792; decide))).trans ((acc_box_writes_cons_apart c t (size := ![256, 384]) (k0_off45_inb c) (k0_off51_inb c) w27 _ 1 (Or.inl (by rw [off45_eq, off51_eq]; show 768 + 384 ≤ 1536; decide))).trans ((acc_box_writes_cons_apart c t (size := ![256, 384]) (k0_off45_inb c) (k0_off49_inb c) w26 _ 1 (Or.inl (by rw [off45_eq, off49_eq]; show 768 + 384 ≤ 1536; decide))).trans ((acc_box_writes_cons_apart c t (size := ![256, 384]) (k0_off45_inb c) (k0_off48_inb c) w25 _ 1 (Or.inl (by rw [off45_eq, off48_eq]; show 768 + 384 ≤ 1152; decide))).trans (acc_box_writes_cons_apart c t (size := ![256, 384]) (k0_off45_inb c) (k0_off47_inb c) w24 _ 1 (Or.inl (by rw [off45_eq, off47_eq]; show 768 + 384 ≤ 1152; decide))))))))))

/-- GROUP 2, parts 13 to 33, end to end: from the device's own share on its kept quarter before the step-1 accumulation
    (the one joint fact left) and the three landed pieces' facts, the block copy 2 reads holds GELU of the whole product —
    through the step-1 accumulation, eleven foreign stores, the step-2 accumulation, eight foreign stores and the cut, the last
    accumulation, and the activation. -/
theorem val_out2_run13 (c : Dev nD) (f : Buf (Elt Ideal) ((Memref.whole cc0_scratch0 : Memref sig .tc .vmem S2048x2048 .f32).view.loc (c : Thread nD τ)))
    (fl0 : Buf (Elt Ideal) ((commM2_0 : Memref sig .tc .vmem S1024x384 .bf16).view.loc (c : Thread nD τ)))
    (fl1 : Buf (Elt Ideal) ((commM2_1 : Memref sig .tc .vmem S512x384 .bf16).view.loc (c : Thread nD τ)))
    (fl2 : Buf (Elt Ideal) ((commM2_2 : Memref sig .tc .vmem S256x384 .bf16).view.loc (c : Thread nD τ)))
    (w14 : (Rect.unit (s := S2048x2048) (k0_off25 c) S512x384.size (k0_off25_inb c)).shape.Idx → Elt Ideal .f32) (w15 : (Rect.unit (s := S2048x2048) (k0_off26 c) S512x384.size (k0_off26_inb c)).shape.Idx → Elt Ideal .f32) (w16a : (Rect.unit (s := S2048x2048) (k0_off27 c) S512x256.size (k0_off27_inb c)).shape.Idx → Elt Ideal .f32) (w16b : (Rect.unit (s := S2048x2048) (k0_off29 c) S512x256.size (k0_off29_inb c)).shape.Idx → Elt Ideal .f32) (w17 : (Rect.unit (s := S2048x2048) (k0_off31 c) S512x256.size (k0_off31_inb c)).shape.Idx → Elt Ideal .f32) (w18 : (Rect.unit (s := S2048x2048) (k0_off33 c) S512x256.size (k0_off33_inb c)).shape.Idx → Elt Ideal .f32) (w19 : (Rect.unit (s := S2048x2048) (k0_off35 c) S256x384.size (k0_off35_inb c)).shape.Idx → Elt Ideal .f32) (w20 : (Rect.unit (s := S2048x2048) (k0_off37 c) S256x384.size (k0_off37_inb c)).shape.Idx → Elt Ideal .f32) (w21 : (Rect.unit (s := S2048x2048) (k0_off39 c) S256x384.size (k0_off39_inb c)).shape.Idx → Elt Ideal .f32) (w22a : (Rect.unit (s := S2048x2048) (k0_off41 c) S256x384.size (k0_off41_inb c)).shape.Idx → Elt Ideal .f32) (w22b : (Rect.unit (s := S2048x2048) (k0_off43 c) S256x384.size (k0_off43_inb c)).shape.Idx → Elt Ideal .f32)
    (w24 : (Rect.unit (s := S2048x2048) (k0_off47 c) S256x384.size (k0_off47_inb c)).shape.Idx → Elt Ideal .f32) (w25 : (Rect.unit (s := S2048x2048) (k0_off48 c) S256x384.size (k0_off48_inb c)).shape.Idx → Elt Ideal .f32) (w26 : (Rect.unit (s := S2048x2048) (k0_off49 c) S256x256.size (k0_off49_inb c)).shape.Idx → Elt Ideal .f32) (w27 : (Rect.unit (s := S2048x2048) (k0_off51 c) S256x256.size (k0_off51_inb c)).shape.Idx → Elt Ideal .f32) (w28a : (Rect.unit (s := S2048x2048) (k0_off53 c) S256x256.size (k0_off53_inb c)).shape.Idx → Elt Ideal .f32) (w28b : (Rect.unit (s := S2048x2048) (k0_off55 c) S256x256.size (k0_off55_inb c)).shape.Idx → Elt Ideal .f32) (w29 : (Rect.unit (s := S2048x2048) (k0_off37 c) S256x384.size (k0_off37_inb c)).shape.Idx → Elt Ideal .f32) (w30 : (Rect.unit (s := S2048x2048) (k0_off37 c) S256x384.size (k0_off37_inb c)).shape.Idx → Elt Ideal .f32)
    (hJ1 : ∀ (r : Fin 512) (j : Fin 384), ((View.readAt (Elt Ideal) (Memref.whole cc0_scratch0 : Memref sig .tc .vmem S2048x2048 .f32).view (Rect.unit (s := S2048x2048) (k0_off23 c) S512x384.size (k0_off23_inb c)).toLoadRect f) (ix2 r j) : EReal) = share A B c.val (ownRow 2 1 c + r.val) (colLo 2 + j.val))
    (hl0 : (Vreal A B).rs2_0 (nbr 2 c) ((commM2_0 : Memref sig .tc .vmem S1024x384 .bf16).view.read (Elt Ideal) fl0))
    (hl1 : (Vreal A B).rs2_1 (nbr 0 c) ((commM2_1 : Memref sig .tc .vmem S512x384 .bf16).view.read (Elt Ideal) fl1))
    (hl2 : (Vreal A B).rs2_2 (nbr 1 c) ((commM2_2 : Memref sig .tc .vmem S256x384 .bf16).view.read (Elt Ideal) fl2)) :
    (Vreal A B).out2 c ((outSrcM2 c).view.read (Elt Ideal)
      (((Memref.whole cc0_scratch0 : Memref sig .tc .vmem S2048x2048 .f32).access (Rect.unit (s := S2048x2048) (k0_off45 c) S256x384.size (k0_off45_inb c))).write (Elt Ideal) (View.write (Elt Ideal) ((Memref.whole cc0_scratch0 : Memref sig .tc .vmem S2048x2048 .f32).access (Rect.unit (s := S2048x2048) (k0_off45 c) ![256, 384] (k0_off45_inb c))) (accFB c (accT23 c (accH23 c (accT13 c f fl0) w14 w15 w16a w16b w17 w18 w19 w20 w21 w22a w22b) fl1) w24 w25 w26 w27 w28a w28b w29 w30) (k0_pay67 (F := Ideal) (View.readAt (Elt Ideal) (Memref.whole cc0_scratch0 : Memref sig .tc .vmem S2048x2048 .f32).view (Rect.unit (s := S2048x2048) (k0_off45 c) ![256, 384] (k0_off45_inb c)).toLoadRect (accFB c (accT23 c (accH23 c (accT13 c f fl0) w14 w15 w16a w16b w17 w18 w19 w20 w21 w22a w22b) fl1) w24 w25 w26 w27 w28a w28b w29 w30)) (View.readAt (Elt Ideal) (Memref.whole cc0_scratch3 : Memref sig .tc .vmem S1792x384 .bf16).view (Rect.unit (s := S1792x384) (k0_off63 c) ![256, 384] (k0_off63_inb c)).toLoadRect fl2)) Finset.univ)
        (k0_pay71 (F := Ideal) (k0_pay68 (k0_pay67 (F := Ideal) (View.readAt (Elt Ideal) (Memref.whole cc0_scratch0 : Memref sig .tc .vmem S2048x2048 .f32).view (Rect.unit (s := S2048x2048) (k0_off45 c) ![256, 384] (k0_off45_inb c)).toLoadRect (accFB c (accT23 c (accH23 c (accT13 c f fl0) w14 w15 w16a w16b w17 w18 w19 w20 w21 w22a w22b) fl1) w24 w25 w26 w27 w28a w28b w29 w30)) (View.readAt (Elt Ideal) (Memref.whole cc0_scratch3 : Memref sig .tc .vmem S1792x384 .bf16).view (Rect.unit (s := S1792x384) (k0_off63 c) ![256, 384] (k0_off63_inb c)).toLoadRect fl2))) (k0_pay69 (k0_pay67 (F := Ideal) (View.readAt (Elt Ideal) (Memref.whole cc0_scratch0 : Memref sig .tc .vmem S2048x2048 .f32).view (Rect.unit (s := S2048x2048) (k0_off45 c) ![256, 384] (k0_off45_inb c)).toLoadRect (accFB c (accT23 c (accH23 c (accT13 c f fl0) w14 w15 w16a w16b w17 w18 w19 w20 w21 w22a w22b) fl1) w24 w25 w26 w27 w28a w28b w29 w30)) (View.readAt (Elt Ideal) (Memref.whole cc0_scratch3 : Memref sig .tc .vmem S1792x384 .bf16).view (Rect.unit (s := S1792x384) (k0_off63 c) ![256, 384] (k0_off63_inb c)).toLoadRect fl2)))) Finset.univ)) := by
  have hq := val_J2_2 A B c f fl0 hJ1 hl0
  have he := J2_eighth_of_quarter_2 A B c (accT13 c f fl0) hq
  have hcA := carry_eighth_13_23 c (accT13 c f fl0) w14 w15 w16a w16b w17 w18 w19 w20 w21 w22a w22b
  have hJ2 : ∀ (r : Fin 256) (j : Fin 384), ((View.readAt (Elt Ideal) (Memref.whole cc0_scratch0 : Memref sig .tc .vmem S2048x2048 .f32).view (Rect.unit (s := S2048x2048) (k0_off45 c) ![256, 384] (k0_off45_inb c)).toLoadRect (accH23 c (accT13 c f fl0) w14 w15 w16a w16b w17 w18 w19 w20 w21 w22a w22b)) (ix2 r j) : EReal) = share A B c.val (ownRow 2 0 c + r.val) (colLo 2 + j.val) + share A B (nb 2 0 c).val (ownRow 2 0 c + r.val) (colLo 2 + j.val) := by
    intro r j; rw [hcA]; exact he r j
  have hJ3 := val_J3_2 A B c (accH23 c (accT13 c f fl0) w14 w15 w16a w16b w17 w18 w19 w20 w21 w22a w22b) fl1 hJ2 hl1
  have hpiece : ∀ g : Buf (Elt Ideal) ((Memref.whole cc0_scratch0 : Memref sig .tc .vmem S2048x2048 .f32).view.loc (c : Thread nD τ)), (outSrcM2 c).view.read (Elt Ideal) g = (View.readAt (Elt Ideal) (Memref.whole cc0_scratch0 : Memref sig .tc .vmem S2048x2048 .f32).view (Rect.unit (s := S2048x2048) (k0_off45 c) ![256, 384] (k0_off45_inb c)).toLoadRect g) :=
    fun g => (load_box_piece_acc2 c g (k0_off45 c) ((off45_eq c).trans (off65_eq c).symm) (k0_off45_inb c)).symm
  have hcB := carry_eighth_23_32 c (accT23 c (accH23 c (accT13 c f fl0) w14 w15 w16a w16b w17 w18 w19 w20 w21 w22a w22b) fl1) w24 w25 w26 w27 w28a w28b w29 w30
  have hJ3' : ∀ (r : Fin 256) (j : Fin 384), ((outSrcM2 c).view.read (Elt Ideal) (accFB c (accT23 c (accH23 c (accT13 c f fl0) w14 w15 w16a w16b w17 w18 w19 w20 w21 w22a w22b) fl1) w24 w25 w26 w27 w28a w28b w29 w30) (ix2 r j) : EReal)
      = ((share A B c.val (ownRow 2 0 c + r.val) (colLo 2 + j.val) + share A B (nb 2 0 c).val (ownRow 2 0 c + r.val) (colLo 2 + j.val)) + (share A B (nb 2 1 c).val (ownRow 2 0 c + r.val) (colLo 2 + j.val) + share A B (nb 2 0 (nb 2 1 c)).val (ownRow 2 0 c + r.val) (colLo 2 + j.val))) := by
    intro r j
    rw [hpiece, hcB, ← hpiece]
    exact hJ3 r j
  have hx := val_x2 A B c (accFB c (accT23 c (accH23 c (accT13 c f fl0) w14 w15 w16a w16b w17 w18 w19 w20 w21 w22a w22b) fl1) w24 w25 w26 w27 w28a w28b w29 w30) fl2 hJ3' hl2
  exact val_out2 A B c _ _ hx

end Cert.KernelIdeal.Proto

end
-- ==== Proof.ValGelu.lean ====
/-
The pointwise chain the kernel applies to a device's own finished rows is the reference's gelu: half the entry times
one plus tanh of the third-order term, with the same four f32 words and in the same order of operations, so over the
extended reals the two agree entry by entry; the rounding to bf16 that follows is the identity there.
-/
import proofs.«900882_g7700000000000883_dist_matmul_gelu_kshard_i_m2048_n2048_k1024_v7x_i8_f32_1_alg».proof.Proof.Dats
import proofs.«900882_g7700000000000883_dist_matmul_gelu_kshard_i_m2048_n2048_k1024_v7x_i8_f32_1_alg».proof.Proof.ValsRealTab
import proofs.«900882_g7700000000000883_dist_matmul_gelu_kshard_i_m2048_n2048_k1024_v7x_i8_f32_1_alg».proof.Proof.TopoTab
import proofs.«900882_g7700000000000883_dist_matmul_gelu_kshard_i_m2048_n2048_k1024_v7x_i8_f32_1_alg».proof.Proof.TreeSum
import proofs.«900882_g7700000000000883_dist_matmul_gelu_kshard_i_m2048_n2048_k1024_v7x_i8_f32_1_alg».proof.Proof.Gen.KernelIdeal.Skeleton
import Idealize.ShloMosaic.Lib.Pipeline.Value
import Idealize.ShloMosaic.Lib.WritesUnit
import Idealize.ShloMosaic.PureOps.Ideal.Laws

set_option maxRecDepth 100000

noncomputable section

namespace Cert.KernelIdeal.Proto

open Cert.KernelIdeal Cert.KernelIdeal.Gen Cert.KernelIdeal.Topo
open Idealize.ShloMosaic Idealize.ShloMosaic.TcCoe Idealize.ShloMosaic.ValueIdx
open scoped BigOperators

/-- Group 1's gelu chain is the reference's gelu, entry by entry. -/
theorem gelu_pay64 (x : Vec Ideal S256x384 .f32) (i : S256x384.Idx) :
    (k0_pay64 (F := Ideal) x i : EReal) = Cert.RefSide.gelu1 (x i) := by
  unfold k0_pay64
  rfl

/-- What is stored back into the accumulator is that value, -/
theorem gelu_pay65 (x : Vec Ideal S256x384 .f32) (i : S256x384.Idx) :
    (k0_pay65 (F := Ideal) x i : EReal) = Cert.RefSide.gelu1 (x i) := by
  unfold k0_pay65
  simp only [shapeCast_self]
  exact gelu_pay64 x i

/-- and, rounded to bf16 (the identity over the extended reals), what is stored into the all-gather buffer. -/
theorem gelu_pay66 (x : Vec Ideal S256x384 .f32) (i : S256x384.Idx) :
    (k0_pay66 (F := Ideal) x i : EReal) = Cert.RefSide.gelu1 (x i) := by
  unfold k0_pay66
  simp only [shapeCast_self]
  exact gelu_pay64 x i

/-- Group 0's chain is cut in two by a stretch boundary: its first terms are computed in one stretch, the tanh and the
    product in the next, the word for sqrt(2/π) travelling between them. Put together it is the same gelu. -/
theorem gelu_pay60 (x : Vec Ideal S256x384 .f32) (i : S256x384.Idx) :
    (k0_pay60 (F := Ideal) (k0_pay58 x) (k0_pay59 x) (FloatOps.ofBits FTy.f32 1061962282#32) i : EReal) = Cert.RefSide.gelu1 (x i) := by
  unfold k0_pay60 k0_pay58 k0_pay59
  rfl

theorem gelu_pay61 (x : Vec Ideal S256x384 .f32) (i : S256x384.Idx) :
    (k0_pay61 (F := Ideal) (k0_pay58 x) (k0_pay59 x) (FloatOps.ofBits FTy.f32 1061962282#32) i : EReal) = Cert.RefSide.gelu1 (x i) := by
  unfold k0_pay61
  simp only [shapeCast_self]
  exact gelu_pay60 x i

theorem gelu_pay62 (x : Vec Ideal S256x384 .f32) (i : S256x384.Idx) :
    (k0_pay62 (F := Ideal) (k0_pay58 x) (k0_pay59 x) (FloatOps.ofBits FTy.f32 1061962282#32) i : EReal) = Cert.RefSide.gelu1 (x i) := by
  unfold k0_pay62
  simp only [shapeCast_self]
  exact gelu_pay60 x i

variable (A : (⟨2, ![2048, 8192]⟩ : Shape).Idx → EReal) (B : (⟨2, ![8192, 2048]⟩ : Shape).Idx → EReal)

/-- Slices of one buffer at equal offsets are the same view. -/
theorem slice_unit_congr {b : Ref sig .tc} {off off' size : Fin b.ty.shape.rank → ℕ} {inb inb'} (h : off = off') :
    (View.whole b).slice (Rect.unit off size inb) = (View.whole b).slice (Rect.unit off' size inb') := by
  subst h; rfl

/-- A write through a slice, read back through the slice at an equal offset, gives what was written. -/
theorem read_slice_write_slice {b : Ref sig .tc} {Val : EltTy → Type} {off off' size : Fin b.ty.shape.rank → ℕ} {inb inb'} (h : off = off')
    (f : ((View.whole b).slice (Rect.unit off' size inb')).ty.Contents Val) (w : (Rect.unit (s := b.ty.shape) off' size inb').shape.Idx → Val b.ty.elt) :
    ((View.whole b).slice (Rect.unit off size inb)).read Val (((View.whole b).slice (Rect.unit off' size inb')).write Val f w Finset.univ) = w := by
  subst h; exact View.read_write_univ _ _

/-- Slices at equal offsets read the same. -/
theorem read_slice_congr {b : Ref sig .tc} {Val : EltTy → Type} {off off' size : Fin b.ty.shape.rank → ℕ} {inb inb'} (h : off = off')
    (f : ((View.whole b).slice (Rect.unit off size inb)).ty.Contents Val) :
    ((View.whole b).slice (Rect.unit off size inb)).read Val f = ((View.whole b).slice (Rect.unit off' size inb')).read Val f := by
  subst h; rfl

/-- The sum that precedes group 1's gelu: the accumulator's entry plus the landed entry. -/
theorem pay63_apply (x : Vec Ideal S256x384 .f32) (y : Vec Ideal S256x384 .bf16) (i : S256x384.Idx) :
    (k0_pay63 (F := Ideal) x y i : EReal) = (x i : EReal) + (y i : EReal) := by
  unfold k0_pay63
  simp only [shapeCast_self]
  rfl

/-- Group 1, the device's own 256 rows of the all-gather buffer after the gelu stretch: if the accumulator's rows held the
    four shares the first two exchanges gathered and the last landing holds what the neighbour across the third axis
    sent, every entry is gelu of the whole product. -/
theorem val_ag1_0 (c : Dev nD)
    (fb : Buf (Elt Ideal) ((outSrcM1 c : Memref sig .tc .vmem S256x384 .f32).view.loc (c : Thread nD τ)))
    (fl : Buf (Elt Ideal) ((commM1_2 : Memref sig .tc .vmem S256x384 .bf16).view.loc (c : Thread nD τ)))
    (fa : Buf (Elt Ideal) ((agM1_0 c : Memref sig .tc .vmem S256x384 .bf16).view.loc (c : Thread nD τ)))
    (hJ3 : ∀ (r : Fin 256) (j : Fin 384),
      ((View.readAt (Elt Ideal) (Memref.whole cc0_scratch0 : Memref sig .tc .vmem S2048x2048 .f32).view (Rect.unit (s := S2048x2048) (k0_off41 c) ![256, 384] (k0_off41_inb c)).toLoadRect fb) (ix2 r j) : EReal)
        = (share A B c.val (ownRow 1 0 c + r.val) (colLo 1 + j.val) + share A B (nb 1 0 c).val (ownRow 1 0 c + r.val) (colLo 1 + j.val))
          + (share A B (nb 1 1 c).val (ownRow 1 0 c + r.val) (colLo 1 + j.val) + share A B (nb 1 0 (nb 1 1 c)).val (ownRow 1 0 c + r.val) (colLo 1 + j.val)))
    (hL : (Vreal A B).rs1_2 (nbr 0 c) ((commM1_2 : Memref sig .tc .vmem S256x384 .bf16).view.read (Elt Ideal) fl)) :
    (Vreal A B).ag1_0 c ((agM1_0 c : Memref sig .tc .vmem S256x384 .bf16).view.read (Elt Ideal) (View.write (Elt Ideal) ((Memref.whole cc0_scratch14 : Memref sig .tc .vmem S2048x384 .bf16).access (Rect.unit (s := S2048x384) (k0_off61 c) ![256, 384] (k0_off61_inb c))) fa (k0_pay66 (F := Ideal) (k0_pay63 (F := Ideal) (View.readAt (Elt Ideal) (Memref.whole cc0_scratch0 : Memref sig .tc .vmem S2048x2048 .f32).view (Rect.unit (s := S2048x2048) (k0_off41 c) ![256, 384] (k0_off41_inb c)).toLoadRect fb) (View.readAt (Elt Ideal) (Memref.whole cc0_scratch2 : Memref sig .tc .vmem S1792x384 .bf16).view (Rect.unit (s := S1792x384) (k0_off60 c) ![256, 384] (k0_off60_inb c)).toLoadRect fl))) Finset.univ)) := by
  intro r j
  refine (congrFun (read_slice_write_slice (b := cc0_scratch14) (Val := Elt Ideal) (off := k0_off74 c) (off' := k0_off61 c)
    (inb := k0_off74_inb c) (inb' := k0_off61_inb c) ((off74_eq c).trans (off61_eq c).symm) fa _) (ix2 r j)).trans ?_
  rw [gelu_pay66, pay63_apply, hJ3 r j]
  have e2 : View.readAt (Elt Ideal) (Memref.whole cc0_scratch2 : Memref sig .tc .vmem S1792x384 .bf16).view (Rect.unit (s := S1792x384) (k0_off60 c) ![256, 384] (k0_off60_inb c)).toLoadRect fl
      = (commM1_2 : Memref sig .tc .vmem S256x384 .bf16).view.read (Elt Ideal) fl := by
    rw [View.readAt_rect]
    exact read_slice_congr (b := cc0_scratch2) (Val := Elt Ideal) (inb := k0_off60_inb c) (inb' := inb_S1792x384_S256x384_1536_0) (off60_eq c) fl
  rw [e2, hL r j]
  exact congrArg Cert.RefSide.gelu1 (own_total A B 1 (by decide) c r.val j.val)

/-- Group 1, the accumulator's block 1 after the gelu stretch, under the same two facts: the block the copy to the result
    array reads holds gelu of the whole product. -/
theorem val_out1 (c : Dev nD)
    (fb : Buf (Elt Ideal) ((outSrcM1 c : Memref sig .tc .vmem S256x384 .f32).view.loc (c : Thread nD τ)))
    (fl : Buf (Elt Ideal) ((commM1_2 : Memref sig .tc .vmem S256x384 .bf16).view.loc (c : Thread nD τ)))
    (hJ3 : ∀ (r : Fin 256) (j : Fin 384),
      ((View.readAt (Elt Ideal) (Memref.whole cc0_scratch0 : Memref sig .tc .vmem S2048x2048 .f32).view (Rect.unit (s := S2048x2048) (k0_off41 c) ![256, 384] (k0_off41_inb c)).toLoadRect fb) (ix2 r j) : EReal)
        = (share A B c.val (ownRow 1 0 c + r.val) (colLo 1 + j.val) + share A B (nb 1 0 c).val (ownRow 1 0 c + r.val) (colLo 1 + j.val))
          + (share A B (nb 1 1 c).val (ownRow 1 0 c + r.val) (colLo 1 + j.val) + share A B (nb 1 0 (nb 1 1 c)).val (ownRow 1 0 c + r.val) (colLo 1 + j.val)))
    (hL : (Vreal A B).rs1_2 (nbr 0 c) ((commM1_2 : Memref sig .tc .vmem S256x384 .bf16).view.read (Elt Ideal) fl)) :
    (Vreal A B).out1 c ((outSrcM1 c : Memref sig .tc .vmem S256x384 .f32).view.read (Elt Ideal) (View.write (Elt Ideal) ((Memref.whole cc0_scratch0 : Memref sig .tc .vmem S2048x2048 .f32).access (Rect.unit (s := S2048x2048) (k0_off41 c) ![256, 384] (k0_off41_inb c))) (View.write (Elt Ideal) ((Memref.whole cc0_scratch0 : Memref sig .tc .vmem S2048x2048 .f32).access (Rect.unit (s := S2048x2048) (k0_off41 c) ![256, 384] (k0_off41_inb c))) fb (k0_pay63 (F := Ideal) (View.readAt (Elt Ideal) (Memref.whole cc0_scratch0 : Memref sig .tc .vmem S2048x2048 .f32).view (Rect.unit (s := S2048x2048) (k0_off41 c) ![256, 384] (k0_off41_inb c)).toLoadRect fb) (View.readAt (Elt Ideal) (Memref.whole cc0_scratch2 : Memref sig .tc .vmem S1792x384 .bf16).view (Rect.unit (s := S1792x384) (k0_off60 c) ![256, 384] (k0_off60_inb c)).toLoadRect fl)) Finset.univ) (k0_pay65 (F := Ideal) (k0_pay63 (F := Ideal) (View.readAt (Elt Ideal) (Memref.whole cc0_scratch0 : Memref sig .tc .vmem S2048x2048 .f32).view (Rect.unit (s := S2048x2048) (k0_off41 c) ![256, 384] (k0_off41_inb c)).toLoadRect fb) (View.readAt (Elt Ideal) (Memref.whole cc0_scratch2 : Memref sig .tc .vmem S1792x384 .bf16).view (Rect.unit (s := S1792x384) (k0_off60 c) ![256, 384] (k0_off60_inb c)).toLoadRect fl))) Finset.univ)) := by
  intro r j
  refine (congrFun (read_slice_write_slice (b := cc0_scratch0) (Val := Elt Ideal) (off := k0_off62 c) (off' := k0_off41 c)
    (inb := k0_off62_inb c) (inb' := k0_off41_inb c) ((off62_eq c).trans (off41_eq c).symm) _ _) (ix2 r j)).trans ?_
  rw [gelu_pay65, pay63_apply, hJ3 r j]
  have e2 : View.readAt (Elt Ideal) (Memref.whole cc0_scratch2 : Memref sig .tc .vmem S1792x384 .bf16).view (Rect.unit (s := S1792x384) (k0_off60 c) ![256, 384] (k0_off60_inb c)).toLoadRect fl
      = (commM1_2 : Memref sig .tc .vmem S256x384 .bf16).view.read (Elt Ideal) fl := by
    rw [View.readAt_rect]
    exact read_slice_congr (b := cc0_scratch2) (Val := Elt Ideal) (inb := k0_off60_inb c) (inb' := inb_S1792x384_S256x384_1536_0) (off60_eq c) fl
  rw [e2, hL r j]
  exact congrArg Cert.RefSide.gelu1 (own_total A B 1 (by decide) c r.val j.val)

/-! ### Group 0: its gelu stretch is cut in two, the sum and the first terms in one stretch, the tanh and the stores in the next -/

theorem pay57_apply (x : Vec Ideal S256x384 .f32) (y : Vec Ideal S256x384 .bf16) (i : S256x384.Idx) :
    (k0_pay57 (F := Ideal) x y i : EReal) = (x i : EReal) + (y i : EReal) := by
  unfold k0_pay57; simp only [shapeCast_self]; rfl

/-- A load of the box one earlier store covers reads that store's payload. -/
theorem readCov_one {s : Shape} {e : EltTy} {sp : Space} (v : View sig .tc sp s e) (R : Rect s) (P : R.shape.Idx → Elt Ideal e) :
    v.readCov [⟨R, P⟩] R.toLoadRect = P := by
  show (v.slice R).read (Elt Ideal) ((v.slice R).write (Elt Ideal) v.junk P Finset.univ) = P
  exact View.read_write_univ _ _

/-- Group 0, the device's own 256 rows of the all-gather buffer after its gelu: gelu of the whole product. -/
theorem val_ag0_0 (c : Dev nD)
    (f3 : Buf (Elt Ideal) ((Memref.whole cc0_scratch0 : Memref sig .tc .vmem S2048x2048 .f32).view.loc (c : Thread nD τ)))
    (fl : Buf (Elt Ideal) ((commM0_2 : Memref sig .tc .vmem S256x384 .bf16).view.loc (c : Thread nD τ)))
    (fa : Buf (Elt Ideal) ((agM0_0 c : Memref sig .tc .vmem S256x384 .bf16).view.loc (c : Thread nD τ)))
    (hJ3 : ∀ (r : Fin 256) (j : Fin 384),
      ((View.readAt (Elt Ideal) (Memref.whole cc0_scratch0 : Memref sig .tc .vmem S2048x2048 .f32).view (Rect.unit (s := S2048x2048) (k0_off37 c) ![256, 384] (k0_off37_inb c)).toLoadRect f3) (ix2 r j) : EReal)
        = (share A B c.val (ownRow 0 0 c + r.val) (colLo 0 + j.val) + share A B (nb 0 0 c).val (ownRow 0 0 c + r.val) (colLo 0 + j.val))
          + (share A B (nb 0 1 c).val (ownRow 0 0 c + r.val) (colLo 0 + j.val) + share A B (nb 0 0 (nb 0 1 c)).val (ownRow 0 0 c + r.val) (colLo 0 + j.val)))
    (hL : (Vreal A B).rs0_2 (nbr 2 c) ((commM0_2 : Memref sig .tc .vmem S256x384 .bf16).view.read (Elt Ideal) fl)) :
    (Vreal A B).ag0_0 c ((agM0_0 c : Memref sig .tc .vmem S256x384 .bf16).view.read (Elt Ideal)
      (View.write (Elt Ideal) ((Memref.whole cc0_scratch13 : Memref sig .tc .vmem S2048x384 .bf16).access (Rect.unit (s := S2048x384) (k0_off58 c) ![256, 384] (k0_off58_inb c))) fa
        (k0_pay62 (F := Ideal) (k0_pay58 (F := Ideal) ((Memref.whole cc0_scratch0 : Memref sig .tc .vmem S2048x2048 .f32).view.readCov [⟨Rect.unit (s := S2048x2048) (k0_off37 c) ![256, 384] (k0_off37_inb c), k0_pay57 (F := Ideal) (View.readAt (Elt Ideal) (Memref.whole cc0_scratch0 : Memref sig .tc .vmem S2048x2048 .f32).view (Rect.unit (s := S2048x2048) (k0_off37 c) ![256, 384] (k0_off37_inb c)).toLoadRect f3) (View.readAt (Elt Ideal) (Memref.whole cc0_scratch1 : Memref sig .tc .vmem S1792x384 .bf16).view (Rect.unit (s := S1792x384) (k0_off57 c) ![256, 384] (k0_off57_inb c)).toLoadRect fl)⟩] (Rect.unit (s := S2048x2048) (k0_off37 c) ![256, 384] (k0_off37_inb c)).toLoadRect)) (k0_pay59 (F := Ideal) ((Memref.whole cc0_scratch0 : Memref sig .tc .vmem S2048x2048 .f32).view.readCov [⟨Rect.unit (s := S2048x2048) (k0_off37 c) ![256, 384] (k0_off37_inb c), k0_pay57 (F := Ideal) (View.readAt (Elt Ideal) (Memref.whole cc0_scratch0 : Memref sig .tc .vmem S2048x2048 .f32).view (Rect.unit (s := S2048x2048) (k0_off37 c) ![256, 384] (k0_off37_inb c)).toLoadRect f3) (View.readAt (Elt Ideal) (Memref.whole cc0_scratch1 : Memref sig .tc .vmem S1792x384 .bf16).view (Rect.unit (s := S1792x384) (k0_off57 c) ![256, 384] (k0_off57_inb c)).toLoadRect fl)⟩] (Rect.unit (s := S2048x2048) (k0_off37 c) ![256, 384] (k0_off37_inb c)).toLoadRect)) (FloatOps.ofBits FTy.f32 1061962282#32)) Finset.univ)) := by
  intro r j
  refine (congrFun (read_slice_write_slice (b := cc0_scratch13) (Val := Elt Ideal) (off := k0_off73 c) (off' := k0_off58 c)
    (inb := k0_off73_inb c) (inb' := k0_off58_inb c) ((off73_eq c).trans (off58_eq c).symm) fa _) (ix2 r j)).trans ?_
  rw [gelu_pay62, readCov_one]
  rw [pay57_apply, hJ3 r j]
  have e2 : View.readAt (Elt Ideal) (Memref.whole cc0_scratch1 : Memref sig .tc .vmem S1792x384 .bf16).view (Rect.unit (s := S1792x384) (k0_off57 c) ![256, 384] (k0_off57_inb c)).toLoadRect fl
      = (commM0_2 : Memref sig .tc .vmem S256x384 .bf16).view.read (Elt Ideal) fl := by
    rw [View.readAt_rect]
    exact read_slice_congr (b := cc0_scratch1) (Val := Elt Ideal) (inb := k0_off57_inb c) (inb' := inb_S1792x384_S256x384_1536_0) (off57_eq c) fl
  rw [e2, hL r j]
  exact congrArg Cert.RefSide.gelu1 (own_total A B 0 (by decide) c r.val j.val)

/-- Group 0, the accumulator's block 0 after its gelu: what copy 0 reads is gelu of the whole product. -/
theorem val_out0 (c : Dev nD)
    (g f3 : Buf (Elt Ideal) ((Memref.whole cc0_scratch0 : Memref sig .tc .vmem S2048x2048 .f32).view.loc (c : Thread nD τ)))
    (fl : Buf (Elt Ideal) ((commM0_2 : Memref sig .tc .vmem S256x384 .bf16).view.loc (c : Thread nD τ)))
    (hJ3 : ∀ (r : Fin 256) (j : Fin 384),
      ((View.readAt (Elt Ideal) (Memref.whole cc0_scratch0 : Memref sig .tc .vmem S2048x2048 .f32).view (Rect.unit (s := S2048x2048) (k0_off37 c) ![256, 384] (k0_off37_inb c)).toLoadRect f3) (ix2 r j) : EReal)
        = (share A B c.val (ownRow 0 0 c + r.val) (colLo 0 + j.val) + share A B (nb 0 0 c).val (ownRow 0 0 c + r.val) (colLo 0 + j.val))
          + (share A B (nb 0 1 c).val (ownRow 0 0 c + r.val) (colLo 0 + j.val) + share A B (nb 0 0 (nb 0 1 c)).val (ownRow 0 0 c + r.val) (colLo 0 + j.val)))
    (hL : (Vreal A B).rs0_2 (nbr 2 c) ((commM0_2 : Memref sig .tc .vmem S256x384 .bf16).view.read (Elt Ideal) fl)) :
    (Vreal A B).out0 c ((outSrcM0 c : Memref sig .tc .vmem S256x384 .f32).view.read (Elt Ideal)
      ((Memref.whole cc0_scratch0 : Memref sig .tc .vmem S2048x2048 .f32).view.writes (Elt Ideal) g
        [⟨Rect.unit (s := S2048x2048) (k0_off37 c) ![256, 384] (k0_off37_inb c), k0_pay61 (F := Ideal) (k0_pay58 (F := Ideal) ((Memref.whole cc0_scratch0 : Memref sig .tc .vmem S2048x2048 .f32).view.readCov [⟨Rect.unit (s := S2048x2048) (k0_off37 c) ![256, 384] (k0_off37_inb c), k0_pay57 (F := Ideal) (View.readAt (Elt Ideal) (Memref.whole cc0_scratch0 : Memref sig .tc .vmem S2048x2048 .f32).view (Rect.unit (s := S2048x2048) (k0_off37 c) ![256, 384] (k0_off37_inb c)).toLoadRect f3) (View.readAt (Elt Ideal) (Memref.whole cc0_scratch1 : Memref sig .tc .vmem S1792x384 .bf16).view (Rect.unit (s := S1792x384) (k0_off57 c) ![256, 384] (k0_off57_inb c)).toLoadRect fl)⟩] (Rect.unit (s := S2048x2048) (k0_off37 c) ![256, 384] (k0_off37_inb c)).toLoadRect)) (k0_pay59 (F := Ideal) ((Memref.whole cc0_scratch0 : Memref sig .tc .vmem S2048x2048 .f32).view.readCov [⟨Rect.unit (s := S2048x2048) (k0_off37 c) ![256, 384] (k0_off37_inb c), k0_pay57 (F := Ideal) (View.readAt (Elt Ideal) (Memref.whole cc0_scratch0 : Memref sig .tc .vmem S2048x2048 .f32).view (Rect.unit (s := S2048x2048) (k0_off37 c) ![256, 384] (k0_off37_inb c)).toLoadRect f3) (View.readAt (Elt Ideal) (Memref.whole cc0_scratch1 : Memref sig .tc .vmem S1792x384 .bf16).view (Rect.unit (s := S1792x384) (k0_off57 c) ![256, 384] (k0_off57_inb c)).toLoadRect fl)⟩] (Rect.unit (s := S2048x2048) (k0_off37 c) ![256, 384] (k0_off37_inb c)).toLoadRect)) (FloatOps.ofBits FTy.f32 1061962282#32)⟩])) := by
  intro r j
  refine (congrFun (read_slice_write_slice (b := cc0_scratch0) (Val := Elt Ideal) (off := k0_off59 c) (off' := k0_off37 c)
    (inb := k0_off59_inb c) (inb' := k0_off37_inb c) ((off59_eq c).trans (off37_eq c).symm) g _) (ix2 r j)).trans ?_
  show (k0_pay61 (F := Ideal) _ _ _ (ix2 r j) : EReal) = _
  rw [gelu_pay61, readCov_one]
  rw [pay57_apply, hJ3 r j]
  have e2 : View.readAt (Elt Ideal) (Memref.whole cc0_scratch1 : Memref sig .tc .vmem S1792x384 .bf16).view (Rect.unit (s := S1792x384) (k0_off57 c) ![256, 384] (k0_off57_inb c)).toLoadRect fl
      = (commM0_2 : Memref sig .tc .vmem S256x384 .bf16).view.read (Elt Ideal) fl := by
    rw [View.readAt_rect]
    exact read_slice_congr (b := cc0_scratch1) (Val := Elt Ideal) (inb := k0_off57_inb c) (inb' := inb_S1792x384_S256x384_1536_0) (off57_eq c) fl
  rw [e2, hL r j]
  exact congrArg Cert.RefSide.gelu1 (own_total A B 0 (by decide) c r.val j.val)

/-! ### Group 3: its gelu stretch -/

theorem pay73_apply (x : Vec Ideal S256x384 .f32) (y : Vec Ideal S256x384 .bf16) (i : S256x384.Idx) :
    (k0_pay73 (F := Ideal) x y i : EReal) = (x i : EReal) + (y i : EReal) := by
  unfold k0_pay73
  first | (simp only [shapeCast_self]; rfl) | rfl
theorem gelu_pay74 (x : Vec Ideal S256x384 .f32) (i : S256x384.Idx) : (k0_pay74 (F := Ideal) x i : EReal) = Cert.RefSide.gelu1 (x i) := by
  unfold k0_pay74; rfl
theorem gelu_pay75 (x : Vec Ideal S256x384 .f32) (i : S256x384.Idx) : (k0_pay75 (F := Ideal) x i : EReal) = Cert.RefSide.gelu1 (x i) := by
  unfold k0_pay75; simp only [shapeCast_self]; exact gelu_pay74 x i
theorem gelu_pay76 (x : Vec Ideal S256x384 .f32) (i : S256x384.Idx) : (k0_pay76 (F := Ideal) x i : EReal) = Cert.RefSide.gelu1 (x i) := by
  unfold k0_pay76; simp only [shapeCast_self]; exact gelu_pay74 x i

/-- Group 3, the device's own 256 rows of the all-gather buffer after its gelu (v1045: the accumulator rows loaded before,
    holding the four shares): gelu of the whole product. -/
theorem val_ag3_0 (c : Dev nD) (v1045 : Vec Ideal S256x384 .f32)
    (fl : Buf (Elt Ideal) ((commM3_2 : Memref sig .tc .vmem S256x384 .bf16).view.loc (c : Thread nD τ)))
    (g : Buf (Elt Ideal) ((agM3_0 c : Memref sig .tc .vmem S256x384 .bf16).view.loc (c : Thread nD τ)))
    (hJ3 : ∀ (r : Fin 256) (j : Fin 384), (v1045 (ix2 r j) : EReal)
      = (share A B c.val (ownRow 3 0 c + r.val) (colLo 3 + j.val) + share A B (nb 3 0 c).val (ownRow 3 0 c + r.val) (colLo 3 + j.val))
          + (share A B (nb 3 1 c).val (ownRow 3 0 c + r.val) (colLo 3 + j.val) + share A B (nb 3 0 (nb 3 1 c)).val (ownRow 3 0 c + r.val) (colLo 3 + j.val)))
    (hL : (Vreal A B).rs3_2 (nbr 2 c) ((commM3_2 : Memref sig .tc .vmem S256x384 .bf16).view.read (Elt Ideal) fl)) :
    (Vreal A B).ag3_0 c ((agM3_0 c : Memref sig .tc .vmem S256x384 .bf16).view.read (Elt Ideal)
      (((Memref.whole cc0_scratch16 : Memref sig .tc .vmem S2048x384 .bf16).access (Rect.unit (s := S2048x384) (k0_off58 c) S256x384.size (k0_off58_inb c))).write (Elt Ideal) g
        (k0_pay76 (F := Ideal) (k0_pay73 (F := Ideal) v1045 (View.readAt (Elt Ideal) (Memref.whole cc0_scratch4 : Memref sig .tc .vmem S1792x384 .bf16).view (Rect.unit (s := S1792x384) (k0_off57 c) S256x384.size (k0_off57_inb c)).toLoadRect fl))) Finset.univ)) := by
  intro r j
  refine (congrFun (read_slice_write_slice (b := cc0_scratch16) (Val := Elt Ideal) (off := k0_off73 c) (off' := k0_off58 c)
    (inb := k0_off73_inb c) (inb' := k0_off58_inb c) ((off73_eq c).trans (off58_eq c).symm) g _) (ix2 r j)).trans ?_
  rw [gelu_pay76]
  rw [pay73_apply, hJ3 r j]
  have e2 : (View.readAt (Elt Ideal) (Memref.whole cc0_scratch4 : Memref sig .tc .vmem S1792x384 .bf16).view (Rect.unit (s := S1792x384) (k0_off57 c) S256x384.size (k0_off57_inb c)).toLoadRect fl) = (commM3_2 : Memref sig .tc .vmem S256x384 .bf16).view.read (Elt Ideal) fl := by
    rw [View.readAt_rect]
    exact read_slice_congr (b := cc0_scratch4) (Val := Elt Ideal) (inb := k0_off57_inb c) (inb' := inb_S1792x384_S256x384_1536_0) (off57_eq c) fl
  rw [e2, hL r j]
  exact congrArg Cert.RefSide.gelu1 (own_total A B 3 (by decide) c r.val j.val)

/-- Group 3, the accumulator's block 3 after its gelu: what copy 3 reads is gelu of the whole product. -/
theorem val_out3 (c : Dev nD) (v1045 : Vec Ideal S256x384 .f32)
    (fl : Buf (Elt Ideal) ((commM3_2 : Memref sig .tc .vmem S256x384 .bf16).view.loc (c : Thread nD τ)))
    (f : Buf (Elt Ideal) ((outSrcM3 c : Memref sig .tc .vmem S256x384 .f32).view.loc (c : Thread nD τ)))
    (hJ3 : ∀ (r : Fin 256) (j : Fin 384), (v1045 (ix2 r j) : EReal)
      = (share A B c.val (ownRow 3 0 c + r.val) (colLo 3 + j.val) + share A B (nb 3 0 c).val (ownRow 3 0 c + r.val) (colLo 3 + j.val))
          + (share A B (nb 3 1 c).val (ownRow 3 0 c + r.val) (colLo 3 + j.val) + share A B (nb 3 0 (nb 3 1 c)).val (ownRow 3 0 c + r.val) (colLo 3 + j.val)))
    (hL : (Vreal A B).rs3_2 (nbr 2 c) ((commM3_2 : Memref sig .tc .vmem S256x384 .bf16).view.read (Elt Ideal) fl)) :
    (Vreal A B).out3 c ((outSrcM3 c : Memref sig .tc .vmem S256x384 .f32).view.read (Elt Ideal)
      (((Memref.whole cc0_scratch0 : Memref sig .tc .vmem S2048x2048 .f32).access (Rect.unit (s := S2048x2048) (k0_off48 c) S256x384.size (k0_off48_inb c))).write (Elt Ideal)
        (((Memref.whole cc0_scratch0 : Memref sig .tc .vmem S2048x2048 .f32).access (Rect.unit (s := S2048x2048) (k0_off48 c) S256x384.size (k0_off48_inb c))).write (Elt Ideal) f (k0_pay73 (F := Ideal) v1045 (View.readAt (Elt Ideal) (Memref.whole cc0_scratch4 : Memref sig .tc .vmem S1792x384 .bf16).view (Rect.unit (s := S1792x384) (k0_off57 c) S256x384.size (k0_off57_inb c)).toLoadRect fl)) Finset.univ)
        (k0_pay75 (F := Ideal) (k0_pay73 (F := Ideal) v1045 (View.readAt (Elt Ideal) (Memref.whole cc0_scratch4 : Memref sig .tc .vmem S1792x384 .bf16).view (Rect.unit (s := S1792x384) (k0_off57 c) S256x384.size (k0_off57_inb c)).toLoadRect fl))) Finset.univ)) := by
  intro r j
  refine (congrFun (read_slice_write_slice (b := cc0_scratch0) (Val := Elt Ideal) (off := k0_off66 c) (off' := k0_off48 c)
    (inb := k0_off66_inb c) (inb' := k0_off48_inb c) ((off66_eq c).trans (off48_eq c).symm) _ _) (ix2 r j)).trans ?_
  rw [gelu_pay75]
  rw [pay73_apply, hJ3 r j]
  have e2 : (View.readAt (Elt Ideal) (Memref.whole cc0_scratch4 : Memref sig .tc .vmem S1792x384 .bf16).view (Rect.unit (s := S1792x384) (k0_off57 c) S256x384.size (k0_off57_inb c)).toLoadRect fl) = (commM3_2 : Memref sig .tc .vmem S256x384 .bf16).view.read (Elt Ideal) fl := by
    rw [View.readAt_rect]
    exact read_slice_congr (b := cc0_scratch4) (Val := Elt Ideal) (inb := k0_off57_inb c) (inb' := inb_S1792x384_S256x384_1536_0) (off57_eq c) fl
  rw [e2, hL r j]
  exact congrArg Cert.RefSide.gelu1 (own_total A B 3 (by decide) c r.val j.val)

/-! ### Group 5: its gelu stretch -/

theorem pay83_apply (x : Vec Ideal S256x256 .f32) (y : Vec Ideal S256x256 .bf16) (i : S256x256.Idx) :
    (k0_pay83 (F := Ideal) x y i : EReal) = (x i : EReal) + (y i : EReal) := by
  unfold k0_pay83
  first | (simp only [shapeCast_self]; rfl) | rfl
theorem gelu_pay84 (x : Vec Ideal S256x256 .f32) (i : S256x256.Idx) : (k0_pay84 (F := Ideal) x i : EReal) = Cert.RefSide.gelu1 (x i) := by
  unfold k0_pay84; rfl
theorem gelu_pay85 (x : Vec Ideal S256x256 .f32) (i : S256x256.Idx) : (k0_pay85 (F := Ideal) x i : EReal) = Cert.RefSide.gelu1 (x i) := by
  unfold k0_pay85; simp only [shapeCast_self]; exact gelu_pay84 x i
theorem gelu_pay86 (x : Vec Ideal S256x256 .f32) (i : S256x256.Idx) : (k0_pay86 (F := Ideal) x i : EReal) = Cert.RefSide.gelu1 (x i) := by
  unfold k0_pay86; simp only [shapeCast_self]; exact gelu_pay84 x i

/-- Group 5, the device's own 256 rows of the all-gather buffer after its gelu (v1145: the accumulator rows loaded before,
    holding the four shares): gelu of the whole product. -/
theorem val_ag5_0 (c : Dev nD) (v1145 : Vec Ideal S256x256 .f32)
    (fl : Buf (Elt Ideal) ((commM5_2 : Memref sig .tc .vmem S256x256 .bf16).view.loc (c : Thread nD τ)))
    (g : Buf (Elt Ideal) ((agM5_0 c : Memref sig .tc .vmem S256x256 .bf16).view.loc (c : Thread nD τ)))
    (hJ3 : ∀ (r : Fin 256) (j : Fin 256), (v1145 (ix2 r j) : EReal)
      = (share A B c.val (ownRow 5 0 c + r.val) (colLo 5 + j.val) + share A B (nb 5 0 c).val (ownRow 5 0 c + r.val) (colLo 5 + j.val))
          + (share A B (nb 5 1 c).val (ownRow 5 0 c + r.val) (colLo 5 + j.val) + share A B (nb 5 0 (nb 5 1 c)).val (ownRow 5 0 c + r.val) (colLo 5 + j.val)))
    (hL : (Vreal A B).rs5_2 (nbr 1 c) ((commM5_2 : Memref sig .tc .vmem S256x256 .bf16).view.read (Elt Ideal) fl)) :
    (Vreal A B).ag5_0 c ((agM5_0 c : Memref sig .tc .vmem S256x256 .bf16).view.read (Elt Ideal)
      (((Memref.whole cc0_scratch18 : Memref sig .tc .vmem S2048x256 .bf16).access (Rect.unit (s := S2048x256) (k0_off71 c) S256x256.size (k0_off71_inb c))).write (Elt Ideal) g
        (k0_pay86 (F := Ideal) (k0_pay83 (F := Ideal) v1145 (View.readAt (Elt Ideal) (Memref.whole cc0_scratch6 : Memref sig .tc .vmem S1792x256 .bf16).view (Rect.unit (s := S1792x256) (k0_off70 c) S256x256.size (k0_off70_inb c)).toLoadRect fl))) Finset.univ)) := by
  intro r j
  refine (congrFun (read_slice_write_slice (b := cc0_scratch18) (Val := Elt Ideal) (off := k0_off77 c) (off' := k0_off71 c)
    (inb := k0_off77_inb c) (inb' := k0_off71_inb c) ((off77_eq c).trans (off71_eq c).symm) g _) (ix2 r j)).trans ?_
  rw [gelu_pay86]
  rw [pay83_apply, hJ3 r j]
  have e2 : (View.readAt (Elt Ideal) (Memref.whole cc0_scratch6 : Memref sig .tc .vmem S1792x256 .bf16).view (Rect.unit (s := S1792x256) (k0_off70 c) S256x256.size (k0_off70_inb c)).toLoadRect fl) = (commM5_2 : Memref sig .tc .vmem S256x256 .bf16).view.read (Elt Ideal) fl := by
    rw [View.readAt_rect]
    exact read_slice_congr (b := cc0_scratch6) (Val := Elt Ideal) (inb := k0_off70_inb c) (inb' := inb_S1792x256_S256x256_1536_0) (off70_eq c) fl
  rw [e2, hL r j]
  exact congrArg Cert.RefSide.gelu1 (own_total A B 5 (by decide) c r.val j.val)

/-- Group 5, the accumulator's block 5 after its gelu: what copy 5 reads is gelu of the whole product. -/
theorem val_out5 (c : Dev nD) (v1145 : Vec Ideal S256x256 .f32)
    (fl : Buf (Elt Ideal) ((commM5_2 : Memref sig .tc .vmem S256x256 .bf16).view.loc (c : Thread nD τ)))
    (f : Buf (Elt Ideal) ((outSrcM5 c : Memref sig .tc .vmem S256x256 .f32).view.loc (c : Thread nD τ)))
    (hJ3 : ∀ (r : Fin 256) (j : Fin 256), (v1145 (ix2 r j) : EReal)
      = (share A B c.val (ownRow 5 0 c + r.val) (colLo 5 + j.val) + share A B (nb 5 0 c).val (ownRow 5 0 c + r.val) (colLo 5 + j.val))
          + (share A B (nb 5 1 c).val (ownRow 5 0 c + r.val) (colLo 5 + j.val) + share A B (nb 5 0 (nb 5 1 c)).val (ownRow 5 0 c + r.val) (colLo 5 + j.val)))
    (hL : (Vreal A B).rs5_2 (nbr 1 c) ((commM5_2 : Memref sig .tc .vmem S256x256 .bf16).view.read (Elt Ideal) fl)) :
    (Vreal A B).out5 c ((outSrcM5 c : Memref sig .tc .vmem S256x256 .f32).view.read (Elt Ideal)
      (((Memref.whole cc0_scratch0 : Memref sig .tc .vmem S2048x2048 .f32).access (Rect.unit (s := S2048x2048) (k0_off55 c) S256x256.size (k0_off55_inb c))).write (Elt Ideal)
        (((Memref.whole cc0_scratch0 : Memref sig .tc .vmem S2048x2048 .f32).access (Rect.unit (s := S2048x2048) (k0_off55 c) S256x256.size (k0_off55_inb c))).write (Elt Ideal) f (k0_pay83 (F := Ideal) v1145 (View.readAt (Elt Ideal) (Memref.whole cc0_scratch6 : Memref sig .tc .vmem S1792x256 .bf16).view (Rect.unit (s := S1792x256) (k0_off70 c) S256x256.size (k0_off70_inb c)).toLoadRect fl)) Finset.univ)
        (k0_pay85 (F := Ideal) (k0_pay83 (F := Ideal) v1145 (View.readAt (Elt Ideal) (Memref.whole cc0_scratch6 : Memref sig .tc .vmem S1792x256 .bf16).view (Rect.unit (s := S1792x256) (k0_off70 c) S256x256.size (k0_off70_inb c)).toLoadRect fl))) Finset.univ)) := by
  intro r j
  refine (congrFun (read_slice_write_slice (b := cc0_scratch0) (Val := Elt Ideal) (off := k0_off72 c) (off' := k0_off55 c)
    (inb := k0_off72_inb c) (inb' := k0_off55_inb c) ((off72_eq c).trans (off55_eq c).symm) _ _) (ix2 r j)).trans ?_
  rw [gelu_pay85]
  rw [pay83_apply, hJ3 r j]
  have e2 : (View.readAt (Elt Ideal) (Memref.whole cc0_scratch6 : Memref sig .tc .vmem S1792x256 .bf16).view (Rect.unit (s := S1792x256) (k0_off70 c) S256x256.size (k0_off70_inb c)).toLoadRect fl) = (commM5_2 : Memref sig .tc .vmem S256x256 .bf16).view.read (Elt Ideal) fl := by
    rw [View.readAt_rect]
    exact read_slice_congr (b := cc0_scratch6) (Val := Elt Ideal) (inb := k0_off70_inb c) (inb' := inb_S1792x256_S256x256_1536_0) (off70_eq c) fl
  rw [e2, hL r j]
  exact congrArg Cert.RefSide.gelu1 (own_total A B 5 (by decide) c r.val j.val)

/-! ### Group 4: its gelu stretch is cut in two, the sum, the half and the tanh in one stretch, the product and the stores in the next -/

theorem pay77_apply (x : Vec Ideal S256x256 .f32) (y : Vec Ideal S256x256 .bf16) (i : S256x256.Idx) :
    (k0_pay77 (F := Ideal) x y i : EReal) = (x i : EReal) + (y i : EReal) := by
  unfold k0_pay77; simp only [shapeCast_self]; rfl
theorem gelu_pay80 (x : Vec Ideal S256x256 .f32) (i : S256x256.Idx) :
    (k0_pay80 (F := Ideal) (k0_pay78 (F := Ideal) x) (k0_pay79 (F := Ideal) x) (Scalar.ofBits .f32 0x3F800000#32) i : EReal) = Cert.RefSide.gelu1 (x i) := by
  unfold k0_pay80 k0_pay78 k0_pay79; rfl
theorem gelu_pay81 (x : Vec Ideal S256x256 .f32) (i : S256x256.Idx) :
    (k0_pay81 (F := Ideal) (k0_pay78 (F := Ideal) x) (k0_pay79 (F := Ideal) x) (Scalar.ofBits .f32 0x3F800000#32) i : EReal) = Cert.RefSide.gelu1 (x i) := by
  unfold k0_pay81; simp only [shapeCast_self]; exact gelu_pay80 x i
theorem gelu_pay82 (x : Vec Ideal S256x256 .f32) (i : S256x256.Idx) :
    (k0_pay82 (F := Ideal) (k0_pay78 (F := Ideal) x) (k0_pay79 (F := Ideal) x) (Scalar.ofBits .f32 0x3F800000#32) i : EReal) = Cert.RefSide.gelu1 (x i) := by
  unfold k0_pay82; simp only [shapeCast_self]; exact gelu_pay80 x i

/-- Group 4, the device's own 256 rows of the all-gather buffer after its gelu: gelu of the whole product. -/
theorem val_ag4_0 (c : Dev nD)
    (f4 : Buf (Elt Ideal) ((Memref.whole cc0_scratch0 : Memref sig .tc .vmem S2048x2048 .f32).view.loc (c : Thread nD τ)))
    (fc : Buf (Elt Ideal) ((commM4_2 : Memref sig .tc .vmem S256x256 .bf16).view.loc (c : Thread nD τ)))
    (g : Buf (Elt Ideal) ((agM4_0 c : Memref sig .tc .vmem S256x256 .bf16).view.loc (c : Thread nD τ)))
    (hJ3 : ∀ (r : Fin 256) (j : Fin 256), ((View.readAt (Elt Ideal) (Memref.whole cc0_scratch0 : Memref sig .tc .vmem S2048x2048 .f32).view (Rect.unit (s := S2048x2048) (k0_off51 c) S256x256.size (k0_off51_inb c)).toLoadRect f4) (ix2 r j) : EReal)
      = (share A B c.val (ownRow 4 0 c + r.val) (colLo 4 + j.val) + share A B (nb 4 0 c).val (ownRow 4 0 c + r.val) (colLo 4 + j.val))
          + (share A B (nb 4 1 c).val (ownRow 4 0 c + r.val) (colLo 4 + j.val) + share A B (nb 4 0 (nb 4 1 c)).val (ownRow 4 0 c + r.val) (colLo 4 + j.val)))
    (hL : (Vreal A B).rs4_2 (nbr 0 c) ((commM4_2 : Memref sig .tc .vmem S256x256 .bf16).view.read (Elt Ideal) fc)) :
    (Vreal A B).ag4_0 c ((agM4_0 c : Memref sig .tc .vmem S256x256 .bf16).view.read (Elt Ideal)
      (((Memref.whole cc0_scratch17 : Memref sig .tc .vmem S2048x256 .bf16).access (Rect.unit (s := S2048x256) (k0_off68 c) S256x256.size (k0_off68_inb c))).write (Elt Ideal) g
        (k0_pay82 (F := Ideal) (k0_pay78 (F := Ideal) (k0_pay77 (F := Ideal) (View.readAt (Elt Ideal) (Memref.whole cc0_scratch0 : Memref sig .tc .vmem S2048x2048 .f32).view (Rect.unit (s := S2048x2048) (k0_off51 c) S256x256.size (k0_off51_inb c)).toLoadRect f4) (View.readAt (Elt Ideal) (Memref.whole cc0_scratch5 : Memref sig .tc .vmem S1792x256 .bf16).view (Rect.unit (s := S1792x256) (k0_off67 c) S256x256.size (k0_off67_inb c)).toLoadRect fc))) (k0_pay79 (F := Ideal) (k0_pay77 (F := Ideal) (View.readAt (Elt Ideal) (Memref.whole cc0_scratch0 : Memref sig .tc .vmem S2048x2048 .f32).view (Rect.unit (s := S2048x2048) (k0_off51 c) S256x256.size (k0_off51_inb c)).toLoadRect f4) (View.readAt (Elt Ideal) (Memref.whole cc0_scratch5 : Memref sig .tc .vmem S1792x256 .bf16).view (Rect.unit (s := S1792x256) (k0_off67 c) S256x256.size (k0_off67_inb c)).toLoadRect fc))) (Scalar.ofBits .f32 0x3F800000#32)) Finset.univ)) := by
  intro r j
  refine (congrFun (read_slice_write_slice (b := cc0_scratch17) (Val := Elt Ideal) (off := k0_off76 c) (off' := k0_off68 c)
    (inb := k0_off76_inb c) (inb' := k0_off68_inb c) ((off76_eq c).trans (off68_eq c).symm) g _) (ix2 r j)).trans ?_
  rw [gelu_pay82]
  rw [pay77_apply, hJ3 r j]
  have e2 : View.readAt (Elt Ideal) (Memref.whole cc0_scratch5 : Memref sig .tc .vmem S1792x256 .bf16).view (Rect.unit (s := S1792x256) (k0_off67 c) S256x256.size (k0_off67_inb c)).toLoadRect fc
      = (commM4_2 : Memref sig .tc .vmem S256x256 .bf16).view.read (Elt Ideal) fc := by
    rw [View.readAt_rect]
    exact read_slice_congr (b := cc0_scratch5) (Val := Elt Ideal) (inb := k0_off67_inb c) (inb' := inb_S1792x256_S256x256_1536_0) (off67_eq c) fc
  rw [e2, hL r j]
  exact congrArg Cert.RefSide.gelu1 (own_total A B 4 (by decide) c r.val j.val)

/-- Group 4, the accumulator's block 4 after its gelu: what copy 4 reads is gelu of the whole product. -/
theorem val_out4 (c : Dev nD)
    (f4 : Buf (Elt Ideal) ((Memref.whole cc0_scratch0 : Memref sig .tc .vmem S2048x2048 .f32).view.loc (c : Thread nD τ)))
    (fc : Buf (Elt Ideal) ((commM4_2 : Memref sig .tc .vmem S256x256 .bf16).view.loc (c : Thread nD τ)))
    (f : Buf (Elt Ideal) ((outSrcM4 c : Memref sig .tc .vmem S256x256 .f32).view.loc (c : Thread nD τ)))
    (hJ3 : ∀ (r : Fin 256) (j : Fin 256), ((View.readAt (Elt Ideal) (Memref.whole cc0_scratch0 : Memref sig .tc .vmem S2048x2048 .f32).view (Rect.unit (s := S2048x2048) (k0_off51 c) S256x256.size (k0_off51_inb c)).toLoadRect f4) (ix2 r j) : EReal)
      = (share A B c.val (ownRow 4 0 c + r.val) (colLo 4 + j.val) + share A B (nb 4 0 c).val (ownRow 4 0 c + r.val) (colLo 4 + j.val))
          + (share A B (nb 4 1 c).val (ownRow 4 0 c + r.val) (colLo 4 + j.val) + share A B (nb 4 0 (nb 4 1 c)).val (ownRow 4 0 c + r.val) (colLo 4 + j.val)))
    (hL : (Vreal A B).rs4_2 (nbr 0 c) ((commM4_2 : Memref sig .tc .vmem S256x256 .bf16).view.read (Elt Ideal) fc)) :
    (Vreal A B).out4 c ((outSrcM4 c : Memref sig .tc .vmem S256x256 .f32).view.read (Elt Ideal)
      (((Memref.whole cc0_scratch0 : Memref sig .tc .vmem S2048x2048 .f32).access (Rect.unit (s := S2048x2048) (k0_off51 c) S256x256.size (k0_off51_inb c))).write (Elt Ideal) f
        (k0_pay81 (F := Ideal) (k0_pay78 (F := Ideal) (k0_pay77 (F := Ideal) (View.readAt (Elt Ideal) (Memref.whole cc0_scratch0 : Memref sig .tc .vmem S2048x2048 .f32).view (Rect.unit (s := S2048x2048) (k0_off51 c) S256x256.size (k0_off51_inb c)).toLoadRect f4) (View.readAt (Elt Ideal) (Memref.whole cc0_scratch5 : Memref sig .tc .vmem S1792x256 .bf16).view (Rect.unit (s := S1792x256) (k0_off67 c) S256x256.size (k0_off67_inb c)).toLoadRect fc))) (k0_pay79 (F := Ideal) (k0_pay77 (F := Ideal) (View.readAt (Elt Ideal) (Memref.whole cc0_scratch0 : Memref sig .tc .vmem S2048x2048 .f32).view (Rect.unit (s := S2048x2048) (k0_off51 c) S256x256.size (k0_off51_inb c)).toLoadRect f4) (View.readAt (Elt Ideal) (Memref.whole cc0_scratch5 : Memref sig .tc .vmem S1792x256 .bf16).view (Rect.unit (s := S1792x256) (k0_off67 c) S256x256.size (k0_off67_inb c)).toLoadRect fc))) (Scalar.ofBits .f32 0x3F800000#32)) Finset.univ)) := by
  intro r j
  refine (congrFun (read_slice_write_slice (b := cc0_scratch0) (Val := Elt Ideal) (off := k0_off69 c) (off' := k0_off51 c)
    (inb := k0_off69_inb c) (inb' := k0_off51_inb c) ((off69_eq c).trans (off51_eq c).symm) f _) (ix2 r j)).trans ?_
  rw [gelu_pay81]
  rw [pay77_apply, hJ3 r j]
  have e2 : View.readAt (Elt Ideal) (Memref.whole cc0_scratch5 : Memref sig .tc .vmem S1792x256 .bf16).view (Rect.unit (s := S1792x256) (k0_off67 c) S256x256.size (k0_off67_inb c)).toLoadRect fc
      = (commM4_2 : Memref sig .tc .vmem S256x256 .bf16).view.read (Elt Ideal) fc := by
    rw [View.readAt_rect]
    exact read_slice_congr (b := cc0_scratch5) (Val := Elt Ideal) (inb := k0_off67_inb c) (inb' := inb_S1792x256_S256x256_1536_0) (off67_eq c) fc
  rw [e2, hL r j]
  exact congrArg Cert.RefSide.gelu1 (own_total A B 4 (by decide) c r.val j.val)

end Cert.KernelIdeal.Proto

end
-- ==== Proof.ValSliceC.lean ====
/-
Group 1's value chain one step further back, over the extended reals: the step-2 accumulation on the rows the device keeps
(four shares: two kept, two landed from the neighbour across the second exchange's axis) and the eighth it restages and
sends on at the third exchange.
-/
import proofs.«900882_g7700000000000883_dist_matmul_gelu_kshard_i_m2048_n2048_k1024_v7x_i8_f32_1_alg».proof.Proof.Dats
import proofs.«900882_g7700000000000883_dist_matmul_gelu_kshard_i_m2048_n2048_k1024_v7x_i8_f32_1_alg».proof.Proof.ValsRealTab
import proofs.«900882_g7700000000000883_dist_matmul_gelu_kshard_i_m2048_n2048_k1024_v7x_i8_f32_1_alg».proof.Proof.TopoTab
import proofs.«900882_g7700000000000883_dist_matmul_gelu_kshard_i_m2048_n2048_k1024_v7x_i8_f32_1_alg».proof.Proof.Gen.KernelIdeal.Skeleton
import Idealize.ShloMosaic.Lib.Pipeline.Value
import Idealize.ShloMosaic.Lib.WritesUnit
import Idealize.ShloMosaic.PureOps.Ideal.Laws

set_option maxRecDepth 100000

noncomputable section

namespace Cert.KernelIdeal.Proto

open Cert.KernelIdeal Cert.KernelIdeal.Gen Cert.KernelIdeal.Topo
open Idealize.ShloMosaic Idealize.ShloMosaic.TcCoe Idealize.ShloMosaic.ValueIdx
open scoped BigOperators

variable (A : (⟨2, ![2048, 8192]⟩ : Shape).Idx → EReal) (B : (⟨2, ![8192, 2048]⟩ : Shape).Idx → EReal)

/-! ### Group 1, reduce-scatter step 2: the pointwise terms -/

theorem pay41_apply (x : Vec Ideal S256x384 .f32) (y : Vec Ideal S256x384 .bf16) (i : S256x384.Idx) :
    (k0_pay41 (F := Ideal) x y i : EReal) = (x i : EReal) + (y i : EReal) := by
  unfold k0_pay41; simp only [shapeCast_self]; rfl
theorem pay42_apply (x : Vec Ideal S256x384 .f32) (i : S256x384.Idx) : (k0_pay42 (F := Ideal) x i : EReal) = (x i : EReal) := by
  unfold k0_pay42; simp only [shapeCast_self]; rfl
theorem pay43_apply (x : Vec Ideal S256x384 .f32) (y : Vec Ideal S256x384 .bf16) (i : S256x384.Idx) :
    (k0_pay43 (F := Ideal) x y i : EReal) = (x i : EReal) + (y i : EReal) := by
  unfold k0_pay43; rfl
theorem pay44_apply (x : FVec Ideal S256x384 .f32) (i : S256x384.Idx) : (k0_pay44 (F := Ideal) x i : EReal) = (x i : EReal) := by
  unfold k0_pay44; simp only [shapeCast_self]

/-- Within the 512 rows its step-1 neighbour sent, the rows the device keeps at step 2 start at its third coordinate times
    256 and the rows it sends on at the other eighth. -/
theorem sendRow1_nb1_1k : ∀ c : Dev nD, sendRow 1 1 (nb 1 1 c) + cx c * 256 = ownRow 1 0 c := by decide
theorem sendRow1_nb1_1s : ∀ c : Dev nD, sendRow 1 1 (nb 1 1 c) + (1 - cx c) * 256 = sendRow 1 2 c := by decide

/-- The load of the kept rows' part of the landed 512 rows reads the landed piece at the shifted row. -/
theorem landed_rows_1k (c : Dev nD) (fl : Buf (Elt Ideal) ((commM1_1 : Memref sig .tc .vmem S512x384 .bf16).view.loc (c : Thread nD τ))) (r : Fin 256) (j : Fin 384) :
    (View.readAt (Elt Ideal) (Memref.whole cc0_scratch2 : Memref sig .tc .vmem S1792x384 .bf16).view (Rect.unit (s := S1792x384) (k0_off42 c) ![256, 384] (k0_off42_inb c)).toLoadRect fl) (ix2 r j)
      = (commM1_1 : Memref sig .tc .vmem S512x384 .bf16).view.read (Elt Ideal) fl (ix2 ⟨cx c * 256 + r.val, by have := cx_le c; omega⟩ j) := by
  have h : ((Memref.whole cc0_scratch2 : Memref sig .tc .vmem S1792x384 .bf16).view.slice (Rect.unit (s := S1792x384) (k0_off42 c) ![256, 384] (k0_off42_inb c))).emb (ix2 r j)
      = (commM1_1 : Memref sig .tc .vmem S512x384 .bf16).view.emb (ix2 ⟨cx c * 256 + r.val, by have := cx_le c; omega⟩ j) := by
    refine funext fun a => Fin.ext ?_
    show k0_off42 c a + 1 * ((ix2 r j) a).val = (![1024, 0] : Fin 2 → ℕ) a + 1 * ((ix2 (⟨cx c * 256 + r.val, by have := cx_le c; omega⟩ : Fin 512) j) a).val
    rw [off42_eq]
    match a with
    | ⟨0, _⟩ => show 1024 + cx c * 256 + 1 * r.val = 1024 + 1 * (cx c * 256 + r.val); omega
    | ⟨1, _⟩ => rfl
  show ((Memref.whole cc0_scratch2 : Memref sig .tc .vmem S1792x384 .bf16).view.slice (Rect.unit (s := S1792x384) (k0_off42 c) ![256, 384] (k0_off42_inb c))).read (Elt Ideal) fl (ix2 r j) = _
  rw [View.read_apply, View.read_apply, h]

/-- The load of the sent-on rows' part of the landed 512 rows reads the landed piece at the other shifted row. -/
theorem landed_rows_1s (c : Dev nD) (fl : Buf (Elt Ideal) ((commM1_1 : Memref sig .tc .vmem S512x384 .bf16).view.loc (c : Thread nD τ))) (r : Fin 256) (j : Fin 384) :
    (View.readAt (Elt Ideal) (Memref.whole cc0_scratch2 : Memref sig .tc .vmem S1792x384 .bf16).view (Rect.unit (s := S1792x384) (k0_off40 c) ![256, 384] (k0_off40_inb c)).toLoadRect fl) (ix2 r j)
      = (commM1_1 : Memref sig .tc .vmem S512x384 .bf16).view.read (Elt Ideal) fl (ix2 ⟨(1 - cx c) * 256 + r.val, by have := cx_le c; omega⟩ j) := by
  have h : ((Memref.whole cc0_scratch2 : Memref sig .tc .vmem S1792x384 .bf16).view.slice (Rect.unit (s := S1792x384) (k0_off40 c) ![256, 384] (k0_off40_inb c))).emb (ix2 r j)
      = (commM1_1 : Memref sig .tc .vmem S512x384 .bf16).view.emb (ix2 ⟨(1 - cx c) * 256 + r.val, by have := cx_le c; omega⟩ j) := by
    refine funext fun a => Fin.ext ?_
    show k0_off40 c a + 1 * ((ix2 r j) a).val = (![1024, 0] : Fin 2 → ℕ) a + 1 * ((ix2 (⟨(1 - cx c) * 256 + r.val, by have := cx_le c; omega⟩ : Fin 512) j) a).val
    rw [off40_eq]
    match a with
    | ⟨0, _⟩ => show 1024 + (1 - cx c) * 256 + 1 * r.val = 1024 + 1 * ((1 - cx c) * 256 + r.val); omega
    | ⟨1, _⟩ => rfl
  show ((Memref.whole cc0_scratch2 : Memref sig .tc .vmem S1792x384 .bf16).view.slice (Rect.unit (s := S1792x384) (k0_off40 c) ![256, 384] (k0_off40_inb c))).read (Elt Ideal) fl (ix2 r j) = _
  rw [View.read_apply, View.read_apply, h]

/-- After the step-2 accumulation the device's own rows of group 1 hold the sum of four shares: its own and its step-0
    neighbour's (kept, in the accumulator rows x that were loaded), and the same two of its step-1 neighbour (landed). -/
theorem val_J3_1 (c : Dev nD) (x : Vec Ideal S256x384 .f32) (fl : Buf (Elt Ideal) ((commM1_1 : Memref sig .tc .vmem S512x384 .bf16).view.loc (c : Thread nD τ)))
    (hJ2 : ∀ (r : Fin 256) (j : Fin 384), (x (ix2 r j) : EReal)
      = share A B c.val (ownRow 1 0 c + r.val) (colLo 1 + j.val) + share A B (nb 1 0 c).val (ownRow 1 0 c + r.val) (colLo 1 + j.val))
    (hfl : (Vreal A B).rs1_1 (nbr 2 c) ((commM1_1 : Memref sig .tc .vmem S512x384 .bf16).view.read (Elt Ideal) fl)) :
    ∀ (r : Fin 256) (j : Fin 384),
      (k0_pay44 (F := Ideal) (k0_pay43 (F := Ideal) x
        (View.readAt (Elt Ideal) (Memref.whole cc0_scratch2 : Memref sig .tc .vmem S1792x384 .bf16).view (Rect.unit (s := S1792x384) (k0_off42 c) ![256, 384] (k0_off42_inb c)).toLoadRect fl)) (ix2 r j) : EReal)
        = (share A B c.val (ownRow 1 0 c + r.val) (colLo 1 + j.val) + share A B (nb 1 0 c).val (ownRow 1 0 c + r.val) (colLo 1 + j.val))
          + (share A B (nb 1 1 c).val (ownRow 1 0 c + r.val) (colLo 1 + j.val) + share A B (nb 1 0 (nb 1 1 c)).val (ownRow 1 0 c + r.val) (colLo 1 + j.val)) := by
  intro r j
  rw [pay44_apply, pay43_apply, hJ2 r j, landed_rows_1k c fl r j, hfl ⟨cx c * 256 + r.val, by have := cx_le c; omega⟩ j]
  show _ + (share A B (nb 1 1 c).val (sendRow 1 1 (nb 1 1 c) + (cx c * 256 + r.val)) (colLo 1 + j.val)
      + share A B (nb 1 0 (nb 1 1 c)).val (sendRow 1 1 (nb 1 1 c) + (cx c * 256 + r.val)) (colLo 1 + j.val)) = _
  rw [← Nat.add_assoc, sendRow1_nb1_1k]

/-- A load of the box one earlier store covers reads that store's payload. -/
theorem readCov_self {s : Shape} {e : EltTy} {sp : Space} (v : View sig .tc sp s e) (R : Rect s) (P : R.shape.Idx → Elt Ideal e) :
    v.readCov [⟨R, P⟩] R.toLoadRect = P := by
  show (v.slice R).read (Elt Ideal) ((v.slice R).write (Elt Ideal) v.junk P Finset.univ) = P
  exact View.read_write_univ _ _

/-- What the device restages and sends at group 1's third exchange: the eighth of its kept quarter it does not keep,
    holding its own and its step-0 neighbour's shares, plus the same rows of what its step-1 neighbour sent — the four
    shares the third exchange's partial sum is made of. -/
theorem val_rs1_2_of (c : Dev nD)
    (f3 : Buf (Elt Ideal) ((Memref.whole cc0_scratch0 : Memref sig .tc .vmem S2048x2048 .f32).view.loc (c : Thread nD τ)))
    (f11 : Buf (Elt Ideal) ((stgM1_1 : Memref sig .tc .vmem S512x384 .bf16).view.loc (c : Thread nD τ)))
    (fl : Buf (Elt Ideal) ((commM1_1 : Memref sig .tc .vmem S512x384 .bf16).view.loc (c : Thread nD τ)))
    (hS : ∀ (r : Fin 256) (j : Fin 384),
      ((View.readAt (Elt Ideal) (Memref.whole cc0_scratch0 : Memref sig .tc .vmem S2048x2048 .f32).view (Rect.unit (s := S2048x2048) (k0_off39 c) ![256, 384] (k0_off39_inb c)).toLoadRect f3) (ix2 r j) : EReal)
        = share A B c.val (sendRow 1 2 c + r.val) (colLo 1 + j.val) + share A B (nb 1 0 c).val (sendRow 1 2 c + r.val) (colLo 1 + j.val))
    (hfl : (Vreal A B).rs1_1 (nbr 2 c) ((commM1_1 : Memref sig .tc .vmem S512x384 .bf16).view.read (Elt Ideal) fl)) :
    (Vreal A B).rs1_2 c ((stgM1_2 : Memref sig .tc .vmem S256x384 .bf16).view.read (Elt Ideal) (View.write (Elt Ideal) ((Memref.whole cc0_scratch8 : Memref sig .tc .vmem S1024x384 .bf16).access (Rect.unit (s := S1024x384) ![0, 0] ![256, 384] inb_S1024x384_S256x384_0_0)) f11 (k0_pay42 (F := Ideal) ((Memref.whole cc0_scratch0 : Memref sig .tc .vmem S2048x2048 .f32).view.readCov [⟨Rect.unit (s := S2048x2048) (k0_off39 c) ![256, 384] (k0_off39_inb c), k0_pay41 (F := Ideal) (View.readAt (Elt Ideal) (Memref.whole cc0_scratch0 : Memref sig .tc .vmem S2048x2048 .f32).view (Rect.unit (s := S2048x2048) (k0_off39 c) ![256, 384] (k0_off39_inb c)).toLoadRect f3) (View.readAt (Elt Ideal) (Memref.whole cc0_scratch2 : Memref sig .tc .vmem S1792x384 .bf16).view (Rect.unit (s := S1792x384) (k0_off40 c) ![256, 384] (k0_off40_inb c)).toLoadRect fl)⟩] (Rect.unit (s := S2048x2048) (k0_off39 c) ![256, 384] (k0_off39_inb c)).toLoadRect)) Finset.univ)) := by
  intro r j
  refine (congrFun (View.read_write_univ (v := (stgM1_2 : Memref sig .tc .vmem S256x384 .bf16).view) _ _) (ix2 r j)).trans ?_
  rw [pay42_apply, readCov_self, pay41_apply, hS r j, landed_rows_1s c fl r j, hfl ⟨(1 - cx c) * 256 + r.val, by have := cx_le c; omega⟩ j]
  show _ + (share A B (nb 1 1 c).val (sendRow 1 1 (nb 1 1 c) + ((1 - cx c) * 256 + r.val)) (colLo 1 + j.val)
      + share A B (nb 1 0 (nb 1 1 c)).val (sendRow 1 1 (nb 1 1 c) + ((1 - cx c) * 256 + r.val)) (colLo 1 + j.val)) = _
  rw [← Nat.add_assoc, sendRow1_nb1_1s]
  rfl

/-! ### The accumulator between the two eighths of group 1's kept quarter -/

/-- The store of the sent-on eighth does not touch the kept eighth: a load of the kept rows after it reads what was there
    before. -/
theorem readAt_keep_after_send_1 (c : Dev nD) (f3 : Buf (Elt Ideal) ((Memref.whole cc0_scratch0 : Memref sig .tc .vmem S2048x2048 .f32).view.loc (c : Thread nD τ))) (w : S256x384.Idx → Elt Ideal .f32) :
    View.readAt (Elt Ideal) (Memref.whole cc0_scratch0 : Memref sig .tc .vmem S2048x2048 .f32).view (Rect.unit (s := S2048x2048) (k0_off41 c) ![256, 384] (k0_off41_inb c)).toLoadRect
        ((Memref.whole cc0_scratch0 : Memref sig .tc .vmem S2048x2048 .f32).view.writes (Elt Ideal) f3 [⟨Rect.unit (s := S2048x2048) (k0_off39 c) ![256, 384] (k0_off39_inb c), w⟩])
      = View.readAt (Elt Ideal) (Memref.whole cc0_scratch0 : Memref sig .tc .vmem S2048x2048 .f32).view (Rect.unit (s := S2048x2048) (k0_off41 c) ![256, 384] (k0_off41_inb c)).toLoadRect f3 := by
  refine View.readAt_writes_of_forall_not_mem _ _ _ _ fun j p hp => ?_
  rw [List.mem_singleton] at hp
  subst hp
  intro hm
  have hm' : (Rect.unit (s := S2048x2048) (k0_off41 c) ![256, 384] (k0_off41_inb c)).toLoadRect.idx j
      ∈ (Rect.unit (s := S2048x2048) (k0_off39 c) ![256, 384] (k0_off39_inb c)).set := hm
  have h0 := (Rect.mem_set_unit (s := S2048x2048)).mp hm' (0 : Fin 2)
  have hj : ((j 0 : Fin _) : ℕ) < 256 := (j 0).isLt
  simp only [LoadRect.idx_apply, Rect.off_unit, Rect.stride_unit, off41_eq, off39_eq, Matrix.cons_val_zero] at h0
  have := cx_le c
  omega

/-- Block 1 of the accumulator after the stores of group 1's kept eighth and, later, of group 2's sent-on eighth (other
    columns): it reads the kept eighth's payload. -/
theorem block1_after_step2 (c : Dev nD) (f3 : Buf (Elt Ideal) ((Memref.whole cc0_scratch0 : Memref sig .tc .vmem S2048x2048 .f32).view.loc (c : Thread nD τ))) (X Y : S256x384.Idx → Elt Ideal .f32) :
    (outSrcM1 c : Memref sig .tc .vmem S256x384 .f32).view.read (Elt Ideal)
        ((Memref.whole cc0_scratch0 : Memref sig .tc .vmem S2048x2048 .f32).view.writes (Elt Ideal) f3
          [⟨Rect.unit (s := S2048x2048) (k0_off43 c) ![256, 384] (k0_off43_inb c), X⟩,
           ⟨Rect.unit (s := S2048x2048) (k0_off41 c) ![256, 384] (k0_off41_inb c), Y⟩])
      = Y := by
  rw [View.writes_cons]
  have hd : Disjoint ((Memref.whole cc0_scratch0 : Memref sig .tc .vmem S2048x2048 .f32).view.slice (Rect.unit (s := S2048x2048) (k0_off62 c) ![256, 384] (k0_off62_inb c))).set
      (((Memref.whole cc0_scratch0 : Memref sig .tc .vmem S2048x2048 .f32).view.slice (Rect.unit (s := S2048x2048) (k0_off43 c) ![256, 384] (k0_off43_inb c))).setOn Finset.univ) := by
    rw [View.setOn_univ, View.set_slice_whole, View.set_slice_whole]
    refine unit_disjoint_cols ?_
    piece_arith c [off62_eq, off43_eq]
  refine (View.read_slice_write_slice_of_disjoint (v := (Memref.whole cc0_scratch0 : Memref sig .tc .vmem S2048x2048 .f32).view) (Rect.unit (s := S2048x2048) (k0_off62 c) ![256, 384] (k0_off62_inb c))
    (Rect.unit (s := S2048x2048) (k0_off43 c) ![256, 384] (k0_off43_inb c)) _ X Finset.univ hd).trans ?_
  have key : ∀ (o : Fin 2 → ℕ) (ho : o = k0_off41 c) (inb : ∀ a, o a + (![256, 384] : Fin 2 → ℕ) a ≤ S2048x2048.size a),
      ((Memref.whole cc0_scratch0 : Memref sig .tc .vmem S2048x2048 .f32).view.slice (Rect.unit (s := S2048x2048) o ![256, 384] inb)).read (Elt Ideal)
        (((Memref.whole cc0_scratch0 : Memref sig .tc .vmem S2048x2048 .f32).view.slice (Rect.unit (s := S2048x2048) (k0_off41 c) ![256, 384] (k0_off41_inb c))).write (Elt Ideal) f3 Y Finset.univ) = Y := by
    intro o ho
    subst ho
    intro inb
    exact View.read_write_univ _ _
  exact key (k0_off62 c) ((off62_eq c).trans (off41_eq c).symm) (k0_off62_inb c)

/-- The same through the accumulator's real term after the stretch that stores the kept eighth: block 1, read after that
    store and the later store of group 2's eighth, holds the four shares — given the two kept shares in the accumulator
    before the sent-on eighth was stored, and the landed piece's fact. -/
theorem val_J3_1_blk (c : Dev nD) (g f3 : Buf (Elt Ideal) ((Memref.whole cc0_scratch0 : Memref sig .tc .vmem S2048x2048 .f32).view.loc (c : Thread nD τ))) (fl : Buf (Elt Ideal) ((commM1_1 : Memref sig .tc .vmem S512x384 .bf16).view.loc (c : Thread nD τ))) (X w39 : S256x384.Idx → Elt Ideal .f32)
    (hJ2 : ∀ (r : Fin 256) (j : Fin 384), ((View.readAt (Elt Ideal) (Memref.whole cc0_scratch0 : Memref sig .tc .vmem S2048x2048 .f32).view (Rect.unit (s := S2048x2048) (k0_off41 c) ![256, 384] (k0_off41_inb c)).toLoadRect f3) (ix2 r j) : EReal)
      = share A B c.val (ownRow 1 0 c + r.val) (colLo 1 + j.val) + share A B (nb 1 0 c).val (ownRow 1 0 c + r.val) (colLo 1 + j.val))
    (hfl : (Vreal A B).rs1_1 (nbr 2 c) ((commM1_1 : Memref sig .tc .vmem S512x384 .bf16).view.read (Elt Ideal) fl)) :
    ∀ (r : Fin 256) (j : Fin 384),
      ((outSrcM1 c : Memref sig .tc .vmem S256x384 .f32).view.read (Elt Ideal)
        ((Memref.whole cc0_scratch0 : Memref sig .tc .vmem S2048x2048 .f32).view.writes (Elt Ideal) g
          [⟨Rect.unit (s := S2048x2048) (k0_off43 c) ![256, 384] (k0_off43_inb c), X⟩,
           ⟨Rect.unit (s := S2048x2048) (k0_off41 c) ![256, 384] (k0_off41_inb c), k0_pay44 (F := Ideal) (k0_pay43 (F := Ideal)
              (View.readAt (Elt Ideal) (Memref.whole cc0_scratch0 : Memref sig .tc .vmem S2048x2048 .f32).view (Rect.unit (s := S2048x2048) (k0_off41 c) ![256, 384] (k0_off41_inb c)).toLoadRect ((Memref.whole cc0_scratch0 : Memref sig .tc .vmem S2048x2048 .f32).view.writes (Elt Ideal) f3 [⟨Rect.unit (s := S2048x2048) (k0_off39 c) ![256, 384] (k0_off39_inb c), w39⟩]))
              (View.readAt (Elt Ideal) (Memref.whole cc0_scratch2 : Memref sig .tc .vmem S1792x384 .bf16).view (Rect.unit (s := S1792x384) (k0_off42 c) ![256, 384] (k0_off42_inb c)).toLoadRect fl))⟩]) (ix2 r j) : EReal)
        = (share A B c.val (ownRow 1 0 c + r.val) (colLo 1 + j.val) + share A B (nb 1 0 c).val (ownRow 1 0 c + r.val) (colLo 1 + j.val))
          + (share A B (nb 1 1 c).val (ownRow 1 0 c + r.val) (colLo 1 + j.val) + share A B (nb 1 0 (nb 1 1 c)).val (ownRow 1 0 c + r.val) (colLo 1 + j.val)) := by
  intro r j
  rw [block1_after_step2, readAt_keep_after_send_1]
  exact val_J3_1 A B c _ fl hJ2 hfl r j

/-! ### Group 0, reduce-scatter step 2 -/

theorem pay38_apply (x : Vec Ideal S256x384 .f32) (y : Vec Ideal S256x384 .bf16) (i : S256x384.Idx) :
    (k0_pay38 (F := Ideal) x y i : EReal) = (x i : EReal) + (y i : EReal) := by
  unfold k0_pay38; simp only [shapeCast_self]; rfl
theorem pay40_apply (x : Vec Ideal S256x384 .f32) (y : Vec Ideal S256x384 .bf16) (i : S256x384.Idx) :
    (k0_pay40 (F := Ideal) x y i : EReal) = (x i : EReal) + (y i : EReal) := by
  unfold k0_pay40; simp only [shapeCast_self]; rfl
theorem pay39_apply (x : Vec Ideal S256x384 .f32) (i : S256x384.Idx) : (k0_pay39 (F := Ideal) x i : EReal) = (x i : EReal) := by
  unfold k0_pay39; simp only [shapeCast_self]; rfl

theorem sendRow1_nb1_0k : ∀ c : Dev nD, sendRow 0 1 (nb 0 1 c) + cz c * 256 = ownRow 0 0 c := by decide
theorem sendRow1_nb1_0s : ∀ c : Dev nD, sendRow 0 1 (nb 0 1 c) + (1 - cz c) * 256 = sendRow 0 2 c := by decide

/-- Group 0: the load of the kept rows' part of the landed 512 rows reads the landed piece at the shifted row. -/
theorem landed_rows_0k (c : Dev nD) (fl : Buf (Elt Ideal) ((commM0_1 : Memref sig .tc .vmem S512x384 .bf16).view.loc (c : Thread nD τ))) (r : Fin 256) (j : Fin 384) :
    (View.readAt (Elt Ideal) (Memref.whole cc0_scratch1 : Memref sig .tc .vmem S1792x384 .bf16).view (Rect.unit (s := S1792x384) (k0_off38 c) ![256, 384] (k0_off38_inb c)).toLoadRect fl) (ix2 r j)
      = (commM0_1 : Memref sig .tc .vmem S512x384 .bf16).view.read (Elt Ideal) fl (ix2 ⟨cz c * 256 + r.val, by have := cz_le c; omega⟩ j) := by
  have h : ((Memref.whole cc0_scratch1 : Memref sig .tc .vmem S1792x384 .bf16).view.slice (Rect.unit (s := S1792x384) (k0_off38 c) ![256, 384] (k0_off38_inb c))).emb (ix2 r j)
      = (commM0_1 : Memref sig .tc .vmem S512x384 .bf16).view.emb (ix2 ⟨cz c * 256 + r.val, by have := cz_le c; omega⟩ j) := by
    refine funext fun a => Fin.ext ?_
    show k0_off38 c a + 1 * ((ix2 r j) a).val = (![1024, 0] : Fin 2 → ℕ) a + 1 * ((ix2 (⟨cz c * 256 + r.val, by have := cz_le c; omega⟩ : Fin 512) j) a).val
    rw [off38_eq]
    match a with
    | ⟨0, _⟩ => show 1024 + cz c * 256 + 1 * r.val = 1024 + 1 * (cz c * 256 + r.val); omega
    | ⟨1, _⟩ => rfl
  show ((Memref.whole cc0_scratch1 : Memref sig .tc .vmem S1792x384 .bf16).view.slice (Rect.unit (s := S1792x384) (k0_off38 c) ![256, 384] (k0_off38_inb c))).read (Elt Ideal) fl (ix2 r j) = _
  rw [View.read_apply, View.read_apply, h]
/-- Group 0: the load of the sent-on rows' part of the landed 512 rows reads the landed piece at the other shifted row. -/
theorem landed_rows_0s (c : Dev nD) (fl : Buf (Elt Ideal) ((commM0_1 : Memref sig .tc .vmem S512x384 .bf16).view.loc (c : Thread nD τ))) (r : Fin 256) (j : Fin 384) :
    (View.readAt (Elt Ideal) (Memref.whole cc0_scratch1 : Memref sig .tc .vmem S1792x384 .bf16).view (Rect.unit (s := S1792x384) (k0_off36 c) ![256, 384] (k0_off36_inb c)).toLoadRect fl) (ix2 r j)
      = (commM0_1 : Memref sig .tc .vmem S512x384 .bf16).view.read (Elt Ideal) fl (ix2 ⟨(1 - cz c) * 256 + r.val, by have := cz_le c; omega⟩ j) := by
  have h : ((Memref.whole cc0_scratch1 : Memref sig .tc .vmem S1792x384 .bf16).view.slice (Rect.unit (s := S1792x384) (k0_off36 c) ![256, 384] (k0_off36_inb c))).emb (ix2 r j)
      = (commM0_1 : Memref sig .tc .vmem S512x384 .bf16).view.emb (ix2 ⟨(1 - cz c) * 256 + r.val, by have := cz_le c; omega⟩ j) := by
    refine funext fun a => Fin.ext ?_
    show k0_off36 c a + 1 * ((ix2 r j) a).val = (![1024, 0] : Fin 2 → ℕ) a + 1 * ((ix2 (⟨(1 - cz c) * 256 + r.val, by have := cz_le c; omega⟩ : Fin 512) j) a).val
    rw [off36_eq]
    match a with
    | ⟨0, _⟩ => show 1024 + (1 - cz c) * 256 + 1 * r.val = 1024 + 1 * ((1 - cz c) * 256 + r.val); omega
    | ⟨1, _⟩ => rfl
  show ((Memref.whole cc0_scratch1 : Memref sig .tc .vmem S1792x384 .bf16).view.slice (Rect.unit (s := S1792x384) (k0_off36 c) ![256, 384] (k0_off36_inb c))).read (Elt Ideal) fl (ix2 r j) = _
  rw [View.read_apply, View.read_apply, h]

/-- Group 0: after the step-2 accumulation the device's own rows hold the sum of four shares (x: the accumulator rows that
    were loaded, holding the two kept shares). -/
theorem val_J3_0 (c : Dev nD) (x : Vec Ideal S256x384 .f32) (fl : Buf (Elt Ideal) ((commM0_1 : Memref sig .tc .vmem S512x384 .bf16).view.loc (c : Thread nD τ)))
    (hJ2 : ∀ (r : Fin 256) (j : Fin 384), (x (ix2 r j) : EReal) = share A B c.val (ownRow 0 0 c + r.val) (colLo 0 + j.val) + share A B (nb 0 0 c).val (ownRow 0 0 c + r.val) (colLo 0 + j.val))
    (hfl : (Vreal A B).rs0_1 (nbr 1 c) ((commM0_1 : Memref sig .tc .vmem S512x384 .bf16).view.read (Elt Ideal) fl)) :
    ∀ (r : Fin 256) (j : Fin 384),
      (k0_pay40 (F := Ideal) x
        (View.readAt (Elt Ideal) (Memref.whole cc0_scratch1 : Memref sig .tc .vmem S1792x384 .bf16).view (Rect.unit (s := S1792x384) (k0_off38 c) ![256, 384] (k0_off38_inb c)).toLoadRect fl) (ix2 r j) : EReal)
        = (share A B c.val (ownRow 0 0 c + r.val) (colLo 0 + j.val) + share A B (nb 0 0 c).val (ownRow 0 0 c + r.val) (colLo 0 + j.val))
          + (share A B (nb 0 1 c).val (ownRow 0 0 c + r.val) (colLo 0 + j.val) + share A B (nb 0 0 (nb 0 1 c)).val (ownRow 0 0 c + r.val) (colLo 0 + j.val)) := by
  intro r j
  rw [pay40_apply, hJ2 r j, landed_rows_0k c fl r j, hfl ⟨cz c * 256 + r.val, by have := cz_le c; omega⟩ j]
  show _ + (share A B (nb 0 1 c).val (sendRow 0 1 (nb 0 1 c) + (cz c * 256 + r.val)) (colLo 0 + j.val)
      + share A B (nb 0 0 (nb 0 1 c)).val (sendRow 0 1 (nb 0 1 c) + (cz c * 256 + r.val)) (colLo 0 + j.val)) = _
  rw [← Nat.add_assoc, sendRow1_nb1_0k]

/-- Group 0: what the device restages and sends at the third exchange holds the four shares of that exchange's partial sum. -/
theorem val_rs0_2_of (c : Dev nD) (f3 : Buf (Elt Ideal) ((Memref.whole cc0_scratch0 : Memref sig .tc .vmem S2048x2048 .f32).view.loc (c : Thread nD τ)))
    (f10 : Buf (Elt Ideal) ((stgM0_1 : Memref sig .tc .vmem S512x384 .bf16).view.loc (c : Thread nD τ)))
    (fl : Buf (Elt Ideal) ((commM0_1 : Memref sig .tc .vmem S512x384 .bf16).view.loc (c : Thread nD τ)))
    (hS : ∀ (r : Fin 256) (j : Fin 384), ((View.readAt (Elt Ideal) (Memref.whole cc0_scratch0 : Memref sig .tc .vmem S2048x2048 .f32).view (Rect.unit (s := S2048x2048) (k0_off35 c) ![256, 384] (k0_off35_inb c)).toLoadRect f3) (ix2 r j) : EReal) = share A B c.val (sendRow 0 2 c + r.val) (colLo 0 + j.val) + share A B (nb 0 0 c).val (sendRow 0 2 c + r.val) (colLo 0 + j.val))
    (hfl : (Vreal A B).rs0_1 (nbr 1 c) ((commM0_1 : Memref sig .tc .vmem S512x384 .bf16).view.read (Elt Ideal) fl)) :
    (Vreal A B).rs0_2 c ((stgM0_2 : Memref sig .tc .vmem S256x384 .bf16).view.read (Elt Ideal) (View.write (Elt Ideal) ((Memref.whole cc0_scratch7 : Memref sig .tc .vmem S1024x384 .bf16).access (Rect.unit (s := S1024x384) ![0, 0] ![256, 384] inb_S1024x384_S256x384_0_0)) f10 (k0_pay39 (F := Ideal) ((Memref.whole cc0_scratch0 : Memref sig .tc .vmem S2048x2048 .f32).view.readCov [⟨Rect.unit (s := S2048x2048) (k0_off35 c) ![256, 384] (k0_off35_inb c), k0_pay38 (F := Ideal) (View.readAt (Elt Ideal) (Memref.whole cc0_scratch0 : Memref sig .tc .vmem S2048x2048 .f32).view (Rect.unit (s := S2048x2048) (k0_off35 c) ![256, 384] (k0_off35_inb c)).toLoadRect f3) (View.readAt (Elt Ideal) (Memref.whole cc0_scratch1 : Memref sig .tc .vmem S1792x384 .bf16).view (Rect.unit (s := S1792x384) (k0_off36 c) ![256, 384] (k0_off36_inb c)).toLoadRect fl)⟩] (Rect.unit (s := S2048x2048) (k0_off35 c) ![256, 384] (k0_off35_inb c)).toLoadRect)) Finset.univ)) := by
  intro r j
  refine (congrFun (View.read_write_univ (v := (stgM0_2 : Memref sig .tc .vmem S256x384 .bf16).view) _ _) (ix2 r j)).trans ?_
  rw [pay39_apply, readCov_self, pay38_apply, hS r j, landed_rows_0s c fl r j, hfl ⟨(1 - cz c) * 256 + r.val, by have := cz_le c; omega⟩ j]
  show _ + (share A B (nb 0 1 c).val (sendRow 0 1 (nb 0 1 c) + ((1 - cz c) * 256 + r.val)) (colLo 0 + j.val)
      + share A B (nb 0 0 (nb 0 1 c)).val (sendRow 0 1 (nb 0 1 c) + ((1 - cz c) * 256 + r.val)) (colLo 0 + j.val)) = _
  rw [← Nat.add_assoc, sendRow1_nb1_0s]
  rfl

/-! ### Group 3, reduce-scatter step 2 -/

theorem pay48_apply (x : Vec Ideal S256x384 .f32) (y : Vec Ideal S256x384 .bf16) (i : S256x384.Idx) :
    (k0_pay48 (F := Ideal) x y i : EReal) = (x i : EReal) + (y i : EReal) := by
  unfold k0_pay48; simp only [shapeCast_self]; rfl
theorem pay50_apply (x : Vec Ideal S256x384 .f32) (y : Vec Ideal S256x384 .bf16) (i : S256x384.Idx) :
    (k0_pay50 (F := Ideal) x y i : EReal) = (x i : EReal) + (y i : EReal) := by
  unfold k0_pay50; simp only [shapeCast_self]; rfl
theorem pay49_apply (x : Vec Ideal S256x384 .f32) (i : S256x384.Idx) : (k0_pay49 (F := Ideal) x i : EReal) = (x i : EReal) := by
  unfold k0_pay49; simp only [shapeCast_self]; rfl

theorem sendRow1_nb1_3k : ∀ c : Dev nD, sendRow 3 1 (nb 3 1 c) + cz c * 256 = ownRow 3 0 c := by decide
theorem sendRow1_nb1_3s : ∀ c : Dev nD, sendRow 3 1 (nb 3 1 c) + (1 - cz c) * 256 = sendRow 3 2 c := by decide

/-- Group 3: the load of the kept rows' part of the landed 512 rows reads the landed piece at the shifted row. -/
theorem landed_rows_3k (c : Dev nD) (fl : Buf (Elt Ideal) ((commM3_1 : Memref sig .tc .vmem S512x384 .bf16).view.loc (c : Thread nD τ))) (r : Fin 256) (j : Fin 384) :
    (View.readAt (Elt Ideal) (Memref.whole cc0_scratch4 : Memref sig .tc .vmem S1792x384 .bf16).view (Rect.unit (s := S1792x384) (k0_off38 c) ![256, 384] (k0_off38_inb c)).toLoadRect fl) (ix2 r j)
      = (commM3_1 : Memref sig .tc .vmem S512x384 .bf16).view.read (Elt Ideal) fl (ix2 ⟨cz c * 256 + r.val, by have := cz_le c; omega⟩ j) := by
  have h : ((Memref.whole cc0_scratch4 : Memref sig .tc .vmem S1792x384 .bf16).view.slice (Rect.unit (s := S1792x384) (k0_off38 c) ![256, 384] (k0_off38_inb c))).emb (ix2 r j)
      = (commM3_1 : Memref sig .tc .vmem S512x384 .bf16).view.emb (ix2 ⟨cz c * 256 + r.val, by have := cz_le c; omega⟩ j) := by
    refine funext fun a => Fin.ext ?_
    show k0_off38 c a + 1 * ((ix2 r j) a).val = (![1024, 0] : Fin 2 → ℕ) a + 1 * ((ix2 (⟨cz c * 256 + r.val, by have := cz_le c; omega⟩ : Fin 512) j) a).val
    rw [off38_eq]
    match a with
    | ⟨0, _⟩ => show 1024 + cz c * 256 + 1 * r.val = 1024 + 1 * (cz c * 256 + r.val); omega
    | ⟨1, _⟩ => rfl
  show ((Memref.whole cc0_scratch4 : Memref sig .tc .vmem S1792x384 .bf16).view.slice (Rect.unit (s := S1792x384) (k0_off38 c) ![256, 384] (k0_off38_inb c))).read (Elt Ideal) fl (ix2 r j) = _
  rw [View.read_apply, View.read_apply, h]
/-- Group 3: the load of the sent-on rows' part of the landed 512 rows reads the landed piece at the other shifted row. -/
theorem landed_rows_3s (c : Dev nD) (fl : Buf (Elt Ideal) ((commM3_1 : Memref sig .tc .vmem S512x384 .bf16).view.loc (c : Thread nD τ))) (r : Fin 256) (j : Fin 384) :
    (View.readAt (Elt Ideal) (Memref.whole cc0_scratch4 : Memref sig .tc .vmem S1792x384 .bf16).view (Rect.unit (s := S1792x384) (k0_off36 c) ![256, 384] (k0_off36_inb c)).toLoadRect fl) (ix2 r j)
      = (commM3_1 : Memref sig .tc .vmem S512x384 .bf16).view.read (Elt Ideal) fl (ix2 ⟨(1 - cz c) * 256 + r.val, by have := cz_le c; omega⟩ j) := by
  have h : ((Memref.whole cc0_scratch4 : Memref sig .tc .vmem S1792x384 .bf16).view.slice (Rect.unit (s := S1792x384) (k0_off36 c) ![256, 384] (k0_off36_inb c))).emb (ix2 r j)
      = (commM3_1 : Memref sig .tc .vmem S512x384 .bf16).view.emb (ix2 ⟨(1 - cz c) * 256 + r.val, by have := cz_le c; omega⟩ j) := by
    refine funext fun a => Fin.ext ?_
    show k0_off36 c a + 1 * ((ix2 r j) a).val = (![1024, 0] : Fin 2 → ℕ) a + 1 * ((ix2 (⟨(1 - cz c) * 256 + r.val, by have := cz_le c; omega⟩ : Fin 512) j) a).val
    rw [off36_eq]
    match a with
    | ⟨0, _⟩ => show 1024 + (1 - cz c) * 256 + 1 * r.val = 1024 + 1 * ((1 - cz c) * 256 + r.val); omega
    | ⟨1, _⟩ => rfl
  show ((Memref.whole cc0_scratch4 : Memref sig .tc .vmem S1792x384 .bf16).view.slice (Rect.unit (s := S1792x384) (k0_off36 c) ![256, 384] (k0_off36_inb c))).read (Elt Ideal) fl (ix2 r j) = _
  rw [View.read_apply, View.read_apply, h]

/-- Group 3: after the step-2 accumulation the device's own rows hold the sum of four shares (x: the accumulator rows that
    were loaded, holding the two kept shares). -/
theorem val_J3_3 (c : Dev nD) (x : Vec Ideal S256x384 .f32) (fl : Buf (Elt Ideal) ((commM3_1 : Memref sig .tc .vmem S512x384 .bf16).view.loc (c : Thread nD τ)))
    (hJ2 : ∀ (r : Fin 256) (j : Fin 384), (x (ix2 r j) : EReal) = share A B c.val (ownRow 3 0 c + r.val) (colLo 3 + j.val) + share A B (nb 3 0 c).val (ownRow 3 0 c + r.val) (colLo 3 + j.val))
    (hfl : (Vreal A B).rs3_1 (nbr 1 c) ((commM3_1 : Memref sig .tc .vmem S512x384 .bf16).view.read (Elt Ideal) fl)) :
    ∀ (r : Fin 256) (j : Fin 384),
      (k0_pay50 (F := Ideal) x
        (View.readAt (Elt Ideal) (Memref.whole cc0_scratch4 : Memref sig .tc .vmem S1792x384 .bf16).view (Rect.unit (s := S1792x384) (k0_off38 c) ![256, 384] (k0_off38_inb c)).toLoadRect fl) (ix2 r j) : EReal)
        = (share A B c.val (ownRow 3 0 c + r.val) (colLo 3 + j.val) + share A B (nb 3 0 c).val (ownRow 3 0 c + r.val) (colLo 3 + j.val))
          + (share A B (nb 3 1 c).val (ownRow 3 0 c + r.val) (colLo 3 + j.val) + share A B (nb 3 0 (nb 3 1 c)).val (ownRow 3 0 c + r.val) (colLo 3 + j.val)) := by
  intro r j
  rw [pay50_apply, hJ2 r j, landed_rows_3k c fl r j, hfl ⟨cz c * 256 + r.val, by have := cz_le c; omega⟩ j]
  show _ + (share A B (nb 3 1 c).val (sendRow 3 1 (nb 3 1 c) + (cz c * 256 + r.val)) (colLo 3 + j.val)
      + share A B (nb 3 0 (nb 3 1 c)).val (sendRow 3 1 (nb 3 1 c) + (cz c * 256 + r.val)) (colLo 3 + j.val)) = _
  rw [← Nat.add_assoc, sendRow1_nb1_3k]

/-- Group 3: what the device restages and sends at the third exchange holds the four shares of that exchange's partial sum. -/
theorem val_rs3_2_of (c : Dev nD) (f3 : Buf (Elt Ideal) ((Memref.whole cc0_scratch0 : Memref sig .tc .vmem S2048x2048 .f32).view.loc (c : Thread nD τ)))
    (fs : Buf (Elt Ideal) ((stgM3_1 : Memref sig .tc .vmem S512x384 .bf16).view.loc (c : Thread nD τ)))
    (fl : Buf (Elt Ideal) ((commM3_1 : Memref sig .tc .vmem S512x384 .bf16).view.loc (c : Thread nD τ)))
    (hS : ∀ (r : Fin 256) (j : Fin 384), ((View.readAt (Elt Ideal) (Memref.whole cc0_scratch0 : Memref sig .tc .vmem S2048x2048 .f32).view (Rect.unit (s := S2048x2048) (k0_off47 c) ![256, 384] (k0_off47_inb c)).toLoadRect f3) (ix2 r j) : EReal) = share A B c.val (sendRow 3 2 c + r.val) (colLo 3 + j.val) + share A B (nb 3 0 c).val (sendRow 3 2 c + r.val) (colLo 3 + j.val))
    (hfl : (Vreal A B).rs3_1 (nbr 1 c) ((commM3_1 : Memref sig .tc .vmem S512x384 .bf16).view.read (Elt Ideal) fl)) :
    (Vreal A B).rs3_2 c ((stgM3_2 : Memref sig .tc .vmem S256x384 .bf16).view.read (Elt Ideal) (View.write (Elt Ideal) ((Memref.whole cc0_scratch10 : Memref sig .tc .vmem S1024x384 .bf16).access (Rect.unit (s := S1024x384) ![0, 0] ![256, 384] inb_S1024x384_S256x384_0_0)) fs (k0_pay49 (F := Ideal) ((Memref.whole cc0_scratch0 : Memref sig .tc .vmem S2048x2048 .f32).view.readCov [⟨Rect.unit (s := S2048x2048) (k0_off47 c) ![256, 384] (k0_off47_inb c), k0_pay48 (F := Ideal) (View.readAt (Elt Ideal) (Memref.whole cc0_scratch0 : Memref sig .tc .vmem S2048x2048 .f32).view (Rect.unit (s := S2048x2048) (k0_off47 c) ![256, 384] (k0_off47_inb c)).toLoadRect f3) (View.readAt (Elt Ideal) (Memref.whole cc0_scratch4 : Memref sig .tc .vmem S1792x384 .bf16).view (Rect.unit (s := S1792x384) (k0_off36 c) ![256, 384] (k0_off36_inb c)).toLoadRect fl)⟩] (Rect.unit (s := S2048x2048) (k0_off47 c) ![256, 384] (k0_off47_inb c)).toLoadRect)) Finset.univ)) := by
  intro r j
  refine (congrFun (View.read_write_univ (v := (stgM3_2 : Memref sig .tc .vmem S256x384 .bf16).view) _ _) (ix2 r j)).trans ?_
  rw [pay49_apply, readCov_self, pay48_apply, hS r j, landed_rows_3s c fl r j, hfl ⟨(1 - cz c) * 256 + r.val, by have := cz_le c; omega⟩ j]
  show _ + (share A B (nb 3 1 c).val (sendRow 3 1 (nb 3 1 c) + ((1 - cz c) * 256 + r.val)) (colLo 3 + j.val)
      + share A B (nb 3 0 (nb 3 1 c)).val (sendRow 3 1 (nb 3 1 c) + ((1 - cz c) * 256 + r.val)) (colLo 3 + j.val)) = _
  rw [← Nat.add_assoc, sendRow1_nb1_3s]
  rfl

/-! ### Group 4, reduce-scatter step 2 -/

theorem pay51_apply (x : Vec Ideal S256x256 .f32) (y : Vec Ideal S256x256 .bf16) (i : S256x256.Idx) :
    (k0_pay51 (F := Ideal) x y i : EReal) = (x i : EReal) + (y i : EReal) := by
  unfold k0_pay51; simp only [shapeCast_self]; rfl
theorem pay53_apply (x : Vec Ideal S256x256 .f32) (y : Vec Ideal S256x256 .bf16) (i : S256x256.Idx) :
    (k0_pay53 (F := Ideal) x y i : EReal) = (x i : EReal) + (y i : EReal) := by
  unfold k0_pay53; simp only [shapeCast_self]; rfl
theorem pay52_apply (x : Vec Ideal S256x256 .f32) (i : S256x256.Idx) : (k0_pay52 (F := Ideal) x i : EReal) = (x i : EReal) := by
  unfold k0_pay52; simp only [shapeCast_self]; rfl

theorem sendRow1_nb1_4k : ∀ c : Dev nD, sendRow 4 1 (nb 4 1 c) + cx c * 256 = ownRow 4 0 c := by decide
theorem sendRow1_nb1_4s : ∀ c : Dev nD, sendRow 4 1 (nb 4 1 c) + (1 - cx c) * 256 = sendRow 4 2 c := by decide

/-- Group 4: the load of the kept rows' part of the landed 512 rows reads the landed piece at the shifted row. -/
theorem landed_rows_4k (c : Dev nD) (fl : Buf (Elt Ideal) ((commM4_1 : Memref sig .tc .vmem S512x256 .bf16).view.loc (c : Thread nD τ))) (r : Fin 256) (j : Fin 256) :
    (View.readAt (Elt Ideal) (Memref.whole cc0_scratch5 : Memref sig .tc .vmem S1792x256 .bf16).view (Rect.unit (s := S1792x256) (k0_off52 c) ![256, 256] (k0_off52_inb c)).toLoadRect fl) (ix2 r j)
      = (commM4_1 : Memref sig .tc .vmem S512x256 .bf16).view.read (Elt Ideal) fl (ix2 ⟨cx c * 256 + r.val, by have := cx_le c; omega⟩ j) := by
  have h : ((Memref.whole cc0_scratch5 : Memref sig .tc .vmem S1792x256 .bf16).view.slice (Rect.unit (s := S1792x256) (k0_off52 c) ![256, 256] (k0_off52_inb c))).emb (ix2 r j)
      = (commM4_1 : Memref sig .tc .vmem S512x256 .bf16).view.emb (ix2 ⟨cx c * 256 + r.val, by have := cx_le c; omega⟩ j) := by
    refine funext fun a => Fin.ext ?_
    show k0_off52 c a + 1 * ((ix2 r j) a).val = (![1024, 0] : Fin 2 → ℕ) a + 1 * ((ix2 (⟨cx c * 256 + r.val, by have := cx_le c; omega⟩ : Fin 512) j) a).val
    rw [off52_eq]
    match a with
    | ⟨0, _⟩ => show 1024 + cx c * 256 + 1 * r.val = 1024 + 1 * (cx c * 256 + r.val); omega
    | ⟨1, _⟩ => rfl
  show ((Memref.whole cc0_scratch5 : Memref sig .tc .vmem S1792x256 .bf16).view.slice (Rect.unit (s := S1792x256) (k0_off52 c) ![256, 256] (k0_off52_inb c))).read (Elt Ideal) fl (ix2 r j) = _
  rw [View.read_apply, View.read_apply, h]
/-- Group 4: the load of the sent-on rows' part of the landed 512 rows reads the landed piece at the other shifted row. -/
theorem landed_rows_4s (c : Dev nD) (fl : Buf (Elt Ideal) ((commM4_1 : Memref sig .tc .vmem S512x256 .bf16).view.loc (c : Thread nD τ))) (r : Fin 256) (j : Fin 256) :
    (View.readAt (Elt Ideal) (Memref.whole cc0_scratch5 : Memref sig .tc .vmem S1792x256 .bf16).view (Rect.unit (s := S1792x256) (k0_off50 c) ![256, 256] (k0_off50_inb c)).toLoadRect fl) (ix2 r j)
      = (commM4_1 : Memref sig .tc .vmem S512x256 .bf16).view.read (Elt Ideal) fl (ix2 ⟨(1 - cx c) * 256 + r.val, by have := cx_le c; omega⟩ j) := by
  have h : ((Memref.whole cc0_scratch5 : Memref sig .tc .vmem S1792x256 .bf16).view.slice (Rect.unit (s := S1792x256) (k0_off50 c) ![256, 256] (k0_off50_inb c))).emb (ix2 r j)
      = (commM4_1 : Memref sig .tc .vmem S512x256 .bf16).view.emb (ix2 ⟨(1 - cx c) * 256 + r.val, by have := cx_le c; omega⟩ j) := by
    refine funext fun a => Fin.ext ?_
    show k0_off50 c a + 1 * ((ix2 r j) a).val = (![1024, 0] : Fin 2 → ℕ) a + 1 * ((ix2 (⟨(1 - cx c) * 256 + r.val, by have := cx_le c; omega⟩ : Fin 512) j) a).val
    rw [off50_eq]
    match a with
    | ⟨0, _⟩ => show 1024 + (1 - cx c) * 256 + 1 * r.val = 1024 + 1 * ((1 - cx c) * 256 + r.val); omega
    | ⟨1, _⟩ => rfl
  show ((Memref.whole cc0_scratch5 : Memref sig .tc .vmem S1792x256 .bf16).view.slice (Rect.unit (s := S1792x256) (k0_off50 c) ![256, 256] (k0_off50_inb c))).read (Elt Ideal) fl (ix2 r j) = _
  rw [View.read_apply, View.read_apply, h]

/-- Group 4: after the step-2 accumulation the device's own rows hold the sum of four shares (x: the accumulator rows that
    were loaded, holding the two kept shares). -/
theorem val_J3_4 (c : Dev nD) (x : Vec Ideal S256x256 .f32) (fl : Buf (Elt Ideal) ((commM4_1 : Memref sig .tc .vmem S512x256 .bf16).view.loc (c : Thread nD τ)))
    (hJ2 : ∀ (r : Fin 256) (j : Fin 256), (x (ix2 r j) : EReal) = share A B c.val (ownRow 4 0 c + r.val) (colLo 4 + j.val) + share A B (nb 4 0 c).val (ownRow 4 0 c + r.val) (colLo 4 + j.val))
    (hfl : (Vreal A B).rs4_1 (nbr 2 c) ((commM4_1 : Memref sig .tc .vmem S512x256 .bf16).view.read (Elt Ideal) fl)) :
    ∀ (r : Fin 256) (j : Fin 256),
      (k0_pay53 (F := Ideal) x
        (View.readAt (Elt Ideal) (Memref.whole cc0_scratch5 : Memref sig .tc .vmem S1792x256 .bf16).view (Rect.unit (s := S1792x256) (k0_off52 c) ![256, 256] (k0_off52_inb c)).toLoadRect fl) (ix2 r j) : EReal)
        = (share A B c.val (ownRow 4 0 c + r.val) (colLo 4 + j.val) + share A B (nb 4 0 c).val (ownRow 4 0 c + r.val) (colLo 4 + j.val))
          + (share A B (nb 4 1 c).val (ownRow 4 0 c + r.val) (colLo 4 + j.val) + share A B (nb 4 0 (nb 4 1 c)).val (ownRow 4 0 c + r.val) (colLo 4 + j.val)) := by
  intro r j
  rw [pay53_apply, hJ2 r j, landed_rows_4k c fl r j, hfl ⟨cx c * 256 + r.val, by have := cx_le c; omega⟩ j]
  show _ + (share A B (nb 4 1 c).val (sendRow 4 1 (nb 4 1 c) + (cx c * 256 + r.val)) (colLo 4 + j.val)
      + share A B (nb 4 0 (nb 4 1 c)).val (sendRow 4 1 (nb 4 1 c) + (cx c * 256 + r.val)) (colLo 4 + j.val)) = _
  rw [← Nat.add_assoc, sendRow1_nb1_4k]

/-- Group 4: what the device restages and sends at the third exchange holds the four shares of that exchange's partial sum. -/
theorem val_rs4_2_of (c : Dev nD) (f3 : Buf (Elt Ideal) ((Memref.whole cc0_scratch0 : Memref sig .tc .vmem S2048x2048 .f32).view.loc (c : Thread nD τ)))
    (f14 : Buf (Elt Ideal) ((stgM4_1 : Memref sig .tc .vmem S512x256 .bf16).view.loc (c : Thread nD τ)))
    (fl : Buf (Elt Ideal) ((commM4_1 : Memref sig .tc .vmem S512x256 .bf16).view.loc (c : Thread nD τ)))
    (hS : ∀ (r : Fin 256) (j : Fin 256), ((View.readAt (Elt Ideal) (Memref.whole cc0_scratch0 : Memref sig .tc .vmem S2048x2048 .f32).view (Rect.unit (s := S2048x2048) (k0_off49 c) ![256, 256] (k0_off49_inb c)).toLoadRect f3) (ix2 r j) : EReal) = share A B c.val (sendRow 4 2 c + r.val) (colLo 4 + j.val) + share A B (nb 4 0 c).val (sendRow 4 2 c + r.val) (colLo 4 + j.val))
    (hfl : (Vreal A B).rs4_1 (nbr 2 c) ((commM4_1 : Memref sig .tc .vmem S512x256 .bf16).view.read (Elt Ideal) fl)) :
    (Vreal A B).rs4_2 c ((stgM4_2 : Memref sig .tc .vmem S256x256 .bf16).view.read (Elt Ideal) (View.write (Elt Ideal) ((Memref.whole cc0_scratch11 : Memref sig .tc .vmem S1024x256 .bf16).access (Rect.unit (s := S1024x256) ![0, 0] ![256, 256] inb_S1024x256_S256x256_0_0)) f14 (k0_pay52 (F := Ideal) ((Memref.whole cc0_scratch0 : Memref sig .tc .vmem S2048x2048 .f32).view.readCov [⟨Rect.unit (s := S2048x2048) (k0_off49 c) ![256, 256] (k0_off49_inb c), k0_pay51 (F := Ideal) (View.readAt (Elt Ideal) (Memref.whole cc0_scratch0 : Memref sig .tc .vmem S2048x2048 .f32).view (Rect.unit (s := S2048x2048) (k0_off49 c) ![256, 256] (k0_off49_inb c)).toLoadRect f3) (View.readAt (Elt Ideal) (Memref.whole cc0_scratch5 : Memref sig .tc .vmem S1792x256 .bf16).view (Rect.unit (s := S1792x256) (k0_off50 c) ![256, 256] (k0_off50_inb c)).toLoadRect fl)⟩] (Rect.unit (s := S2048x2048) (k0_off49 c) ![256, 256] (k0_off49_inb c)).toLoadRect)) Finset.univ)) := by
  intro r j
  refine (congrFun (View.read_write_univ (v := (stgM4_2 : Memref sig .tc .vmem S256x256 .bf16).view) _ _) (ix2 r j)).trans ?_
  rw [pay52_apply, readCov_self, pay51_apply, hS r j, landed_rows_4s c fl r j, hfl ⟨(1 - cx c) * 256 + r.val, by have := cx_le c; omega⟩ j]
  show _ + (share A B (nb 4 1 c).val (sendRow 4 1 (nb 4 1 c) + ((1 - cx c) * 256 + r.val)) (colLo 4 + j.val)
      + share A B (nb 4 0 (nb 4 1 c)).val (sendRow 4 1 (nb 4 1 c) + ((1 - cx c) * 256 + r.val)) (colLo 4 + j.val)) = _
  rw [← Nat.add_assoc, sendRow1_nb1_4s]
  rfl

/-! ### Group 5, reduce-scatter step 2 -/

theorem pay54_apply (x : Vec Ideal S256x256 .f32) (y : Vec Ideal S256x256 .bf16) (i : S256x256.Idx) :
    (k0_pay54 (F := Ideal) x y i : EReal) = (x i : EReal) + (y i : EReal) := by
  unfold k0_pay54; simp only [shapeCast_self]; rfl
theorem pay56_apply (x : Vec Ideal S256x256 .f32) (y : Vec Ideal S256x256 .bf16) (i : S256x256.Idx) :
    (k0_pay56 (F := Ideal) x y i : EReal) = (x i : EReal) + (y i : EReal) := by
  unfold k0_pay56; simp only [shapeCast_self]; rfl
theorem pay55_apply (x : Vec Ideal S256x256 .f32) (i : S256x256.Idx) : (k0_pay55 (F := Ideal) x i : EReal) = (x i : EReal) := by
  unfold k0_pay55; simp only [shapeCast_self]; rfl

theorem sendRow1_nb1_5k : ∀ c : Dev nD, sendRow 5 1 (nb 5 1 c) + cy c * 256 = ownRow 5 0 c := by decide
theorem sendRow1_nb1_5s : ∀ c : Dev nD, sendRow 5 1 (nb 5 1 c) + (1 - cy c) * 256 = sendRow 5 2 c := by decide

/-- Group 5: the load of the kept rows' part of the landed 512 rows reads the landed piece at the shifted row. -/
theorem landed_rows_5k (c : Dev nD) (fl : Buf (Elt Ideal) ((commM5_1 : Memref sig .tc .vmem S512x256 .bf16).view.loc (c : Thread nD τ))) (r : Fin 256) (j : Fin 256) :
    (View.readAt (Elt Ideal) (Memref.whole cc0_scratch6 : Memref sig .tc .vmem S1792x256 .bf16).view (Rect.unit (s := S1792x256) (k0_off56 c) ![256, 256] (k0_off56_inb c)).toLoadRect fl) (ix2 r j)
      = (commM5_1 : Memref sig .tc .vmem S512x256 .bf16).view.read (Elt Ideal) fl (ix2 ⟨cy c * 256 + r.val, by have := cy_le c; omega⟩ j) := by
  have h : ((Memref.whole cc0_scratch6 : Memref sig .tc .vmem S1792x256 .bf16).view.slice (Rect.unit (s := S1792x256) (k0_off56 c) ![256, 256] (k0_off56_inb c))).emb (ix2 r j)
      = (commM5_1 : Memref sig .tc .vmem S512x256 .bf16).view.emb (ix2 ⟨cy c * 256 + r.val, by have := cy_le c; omega⟩ j) := by
    refine funext fun a => Fin.ext ?_
    show k0_off56 c a + 1 * ((ix2 r j) a).val = (![1024, 0] : Fin 2 → ℕ) a + 1 * ((ix2 (⟨cy c * 256 + r.val, by have := cy_le c; omega⟩ : Fin 512) j) a).val
    rw [off56_eq]
    match a with
    | ⟨0, _⟩ => show 1024 + cy c * 256 + 1 * r.val = 1024 + 1 * (cy c * 256 + r.val); omega
    | ⟨1, _⟩ => rfl
  show ((Memref.whole cc0_scratch6 : Memref sig .tc .vmem S1792x256 .bf16).view.slice (Rect.unit (s := S1792x256) (k0_off56 c) ![256, 256] (k0_off56_inb c))).read (Elt Ideal) fl (ix2 r j) = _
  rw [View.read_apply, View.read_apply, h]
/-- Group 5: the load of the sent-on rows' part of the landed 512 rows reads the landed piece at the other shifted row. -/
theorem landed_rows_5s (c : Dev nD) (fl : Buf (Elt Ideal) ((commM5_1 : Memref sig .tc .vmem S512x256 .bf16).view.loc (c : Thread nD τ))) (r : Fin 256) (j : Fin 256) :
    (View.readAt (Elt Ideal) (Memref.whole cc0_scratch6 : Memref sig .tc .vmem S1792x256 .bf16).view (Rect.unit (s := S1792x256) (k0_off54 c) ![256, 256] (k0_off54_inb c)).toLoadRect fl) (ix2 r j)
      = (commM5_1 : Memref sig .tc .vmem S512x256 .bf16).view.read (Elt Ideal) fl (ix2 ⟨(1 - cy c) * 256 + r.val, by have := cy_le c; omega⟩ j) := by
  have h : ((Memref.whole cc0_scratch6 : Memref sig .tc .vmem S1792x256 .bf16).view.slice (Rect.unit (s := S1792x256) (k0_off54 c) ![256, 256] (k0_off54_inb c))).emb (ix2 r j)
      = (commM5_1 : Memref sig .tc .vmem S512x256 .bf16).view.emb (ix2 ⟨(1 - cy c) * 256 + r.val, by have := cy_le c; omega⟩ j) := by
    refine funext fun a => Fin.ext ?_
    show k0_off54 c a + 1 * ((ix2 r j) a).val = (![1024, 0] : Fin 2 → ℕ) a + 1 * ((ix2 (⟨(1 - cy c) * 256 + r.val, by have := cy_le c; omega⟩ : Fin 512) j) a).val
    rw [off54_eq]
    match a with
    | ⟨0, _⟩ => show 1024 + (1 - cy c) * 256 + 1 * r.val = 1024 + 1 * ((1 - cy c) * 256 + r.val); omega
    | ⟨1, _⟩ => rfl
  show ((Memref.whole cc0_scratch6 : Memref sig .tc .vmem S1792x256 .bf16).view.slice (Rect.unit (s := S1792x256) (k0_off54 c) ![256, 256] (k0_off54_inb c))).read (Elt Ideal) fl (ix2 r j) = _
  rw [View.read_apply, View.read_apply, h]

/-- Group 5: after the step-2 accumulation the device's own rows hold the sum of four shares (x: the accumulator rows that
    were loaded, holding the two kept shares). -/
theorem val_J3_5 (c : Dev nD) (x : Vec Ideal S256x256 .f32) (fl : Buf (Elt Ideal) ((commM5_1 : Memref sig .tc .vmem S512x256 .bf16).view.loc (c : Thread nD τ)))
    (hJ2 : ∀ (r : Fin 256) (j : Fin 256), (x (ix2 r j) : EReal) = share A B c.val (ownRow 5 0 c + r.val) (colLo 5 + j.val) + share A B (nb 5 0 c).val (ownRow 5 0 c + r.val) (colLo 5 + j.val))
    (hfl : (Vreal A B).rs5_1 (nbr 0 c) ((commM5_1 : Memref sig .tc .vmem S512x256 .bf16).view.read (Elt Ideal) fl)) :
    ∀ (r : Fin 256) (j : Fin 256),
      (k0_pay56 (F := Ideal) x
        (View.readAt (Elt Ideal) (Memref.whole cc0_scratch6 : Memref sig .tc .vmem S1792x256 .bf16).view (Rect.unit (s := S1792x256) (k0_off56 c) ![256, 256] (k0_off56_inb c)).toLoadRect fl) (ix2 r j) : EReal)
        = (share A B c.val (ownRow 5 0 c + r.val) (colLo 5 + j.val) + share A B (nb 5 0 c).val (ownRow 5 0 c + r.val) (colLo 5 + j.val))
          + (share A B (nb 5 1 c).val (ownRow 5 0 c + r.val) (colLo 5 + j.val) + share A B (nb 5 0 (nb 5 1 c)).val (ownRow 5 0 c + r.val) (colLo 5 + j.val)) := by
  intro r j
  rw [pay56_apply, hJ2 r j, landed_rows_5k c fl r j, hfl ⟨cy c * 256 + r.val, by have := cy_le c; omega⟩ j]
  show _ + (share A B (nb 5 1 c).val (sendRow 5 1 (nb 5 1 c) + (cy c * 256 + r.val)) (colLo 5 + j.val)
      + share A B (nb 5 0 (nb 5 1 c)).val (sendRow 5 1 (nb 5 1 c) + (cy c * 256 + r.val)) (colLo 5 + j.val)) = _
  rw [← Nat.add_assoc, sendRow1_nb1_5k]

/-- Group 5: what the device restages and sends at the third exchange holds the four shares of that exchange's partial sum. -/
theorem val_rs5_2_of (c : Dev nD) (v846 : Vec Ideal S256x256 .f32)
    (f15 : Buf (Elt Ideal) ((stgM5_1 : Memref sig .tc .vmem S512x256 .bf16).view.loc (c : Thread nD τ)))
    (fl : Buf (Elt Ideal) ((commM5_1 : Memref sig .tc .vmem S512x256 .bf16).view.loc (c : Thread nD τ)))
    (hS : ∀ (r : Fin 256) (j : Fin 256), (v846 (ix2 r j) : EReal) = share A B c.val (sendRow 5 2 c + r.val) (colLo 5 + j.val) + share A B (nb 5 0 c).val (sendRow 5 2 c + r.val) (colLo 5 + j.val))
    (hfl : (Vreal A B).rs5_1 (nbr 0 c) ((commM5_1 : Memref sig .tc .vmem S512x256 .bf16).view.read (Elt Ideal) fl)) :
    (Vreal A B).rs5_2 c ((stgM5_2 : Memref sig .tc .vmem S256x256 .bf16).view.read (Elt Ideal) (View.write (Elt Ideal) ((Memref.whole cc0_scratch12 : Memref sig .tc .vmem S1024x256 .bf16).access (Rect.unit (s := S1024x256) ![0, 0] ![256, 256] inb_S1024x256_S256x256_0_0)) f15 (k0_pay55 (F := Ideal) ((Memref.whole cc0_scratch0 : Memref sig .tc .vmem S2048x2048 .f32).view.readCov [⟨Rect.unit (s := S2048x2048) (k0_off53 c) ![256, 256] (k0_off53_inb c), k0_pay54 (F := Ideal) v846 (View.readAt (Elt Ideal) (Memref.whole cc0_scratch6 : Memref sig .tc .vmem S1792x256 .bf16).view (Rect.unit (s := S1792x256) (k0_off54 c) ![256, 256] (k0_off54_inb c)).toLoadRect fl)⟩] (Rect.unit (s := S2048x2048) (k0_off53 c) ![256, 256] (k0_off53_inb c)).toLoadRect)) Finset.univ)) := by
  intro r j
  refine (congrFun (View.read_write_univ (v := (stgM5_2 : Memref sig .tc .vmem S256x256 .bf16).view) _ _) (ix2 r j)).trans ?_
  rw [pay55_apply, readCov_self, pay54_apply, hS r j, landed_rows_5s c fl r j, hfl ⟨(1 - cy c) * 256 + r.val, by have := cy_le c; omega⟩ j]
  show _ + (share A B (nb 5 1 c).val (sendRow 5 1 (nb 5 1 c) + ((1 - cy c) * 256 + r.val)) (colLo 5 + j.val)
      + share A B (nb 5 0 (nb 5 1 c)).val (sendRow 5 1 (nb 5 1 c) + ((1 - cy c) * 256 + r.val)) (colLo 5 + j.val)) = _
  rw [← Nat.add_assoc, sendRow1_nb1_5s]
  rfl

end Cert.KernelIdeal.Proto

end
-- ==== Proof.RealC.lean ====
/-
The stretches 14 to 23 and 29 to 32 of a device's kernel body with their value facts derived, over the extended reals:
each takes what is known of its inputs as pure facts and hands on what is then known of its outputs.
-/
import proofs.«900882_g7700000000000883_dist_matmul_gelu_kshard_i_m2048_n2048_k1024_v7x_i8_f32_1_alg».proof.Proof.Body14
import proofs.«900882_g7700000000000883_dist_matmul_gelu_kshard_i_m2048_n2048_k1024_v7x_i8_f32_1_alg».proof.Proof.Body15
import proofs.«900882_g7700000000000883_dist_matmul_gelu_kshard_i_m2048_n2048_k1024_v7x_i8_f32_1_alg».proof.Proof.Body16
import proofs.«900882_g7700000000000883_dist_matmul_gelu_kshard_i_m2048_n2048_k1024_v7x_i8_f32_1_alg».proof.Proof.Body17
import proofs.«900882_g7700000000000883_dist_matmul_gelu_kshard_i_m2048_n2048_k1024_v7x_i8_f32_1_alg».proof.Proof.Body18
import proofs.«900882_g7700000000000883_dist_matmul_gelu_kshard_i_m2048_n2048_k1024_v7x_i8_f32_1_alg».proof.Proof.Body19
import proofs.«900882_g7700000000000883_dist_matmul_gelu_kshard_i_m2048_n2048_k1024_v7x_i8_f32_1_alg».proof.Proof.Body20
import proofs.«900882_g7700000000000883_dist_matmul_gelu_kshard_i_m2048_n2048_k1024_v7x_i8_f32_1_alg».proof.Proof.Body21
import proofs.«900882_g7700000000000883_dist_matmul_gelu_kshard_i_m2048_n2048_k1024_v7x_i8_f32_1_alg».proof.Proof.Body22
import proofs.«900882_g7700000000000883_dist_matmul_gelu_kshard_i_m2048_n2048_k1024_v7x_i8_f32_1_alg».proof.Proof.Body23
import proofs.«900882_g7700000000000883_dist_matmul_gelu_kshard_i_m2048_n2048_k1024_v7x_i8_f32_1_alg».proof.Proof.Body29
import proofs.«900882_g7700000000000883_dist_matmul_gelu_kshard_i_m2048_n2048_k1024_v7x_i8_f32_1_alg».proof.Proof.Body30
import proofs.«900882_g7700000000000883_dist_matmul_gelu_kshard_i_m2048_n2048_k1024_v7x_i8_f32_1_alg».proof.Proof.Body31
import proofs.«900882_g7700000000000883_dist_matmul_gelu_kshard_i_m2048_n2048_k1024_v7x_i8_f32_1_alg».proof.Proof.Body32
import proofs.«900882_g7700000000000883_dist_matmul_gelu_kshard_i_m2048_n2048_k1024_v7x_i8_f32_1_alg».proof.Proof.AccInv
import proofs.«900882_g7700000000000883_dist_matmul_gelu_kshard_i_m2048_n2048_k1024_v7x_i8_f32_1_alg».proof.Proof.ValSliceD
import proofs.«900882_g7700000000000883_dist_matmul_gelu_kshard_i_m2048_n2048_k1024_v7x_i8_f32_1_alg».proof.Proof.ValGelu
import proofs.«900882_g7700000000000883_dist_matmul_gelu_kshard_i_m2048_n2048_k1024_v7x_i8_f32_1_alg».proof.Proof.ValSliceC

set_option maxRecDepth 65536

noncomputable section

namespace Cert.KernelIdeal.Proto

open Cert.KernelIdeal Cert.KernelIdeal.Gen Cert.KernelIdeal.Topo
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ UU ℕ

variable (A : (⟨2, ![2048, 8192]⟩ : Shape).Idx → EReal) (B : (⟨2, ![8192, 2048]⟩ : Shape).Idx → EReal)
variable (m : (ℓ : Loc nD τ sig) → Buf (Elt Ideal) ℓ)
    (hagree : ∀ c : Dev nD,
      m ((c : Thread nD τ).loc main_arg0) = Layout.block ⟨2, ![2048, 1024]⟩ ⟨2, ![2048, 8192]⟩ 1 8 c A
      ∧ m ((c : Thread nD τ).loc main_arg1) = Layout.block ⟨2, ![1024, 2048]⟩ ⟨2, ![8192, 2048]⟩ 0 8 c B)

/-- The kept quarter of group 3 as it is loaded after the sent-on quarter was stored: the device's own share; and the landed
    rows that belong to it: the share of its neighbour across the first exchange's axis. -/
theorem kept_quarter_3_c (c : Dev nD) (f3 : Buf (Elt Ideal) ((Memref.whole cc0_scratch0 : Memref sig .tc .vmem S2048x2048 .f32).view.loc (c : Thread nD τ))) (w : S512x384.Idx → Elt Ideal .f32)
    (hJ1 : J1 A B 3 384 c f3) :
    ∀ (i : Fin 512) (j : Fin 384),
      ((View.readAt (Elt Ideal) (Memref.whole cc0_scratch0 : Memref sig .tc .vmem S2048x2048 .f32).view (Rect.unit (s := S2048x2048) (k0_off26 c) ![512, 384] (k0_off26_inb c)).toLoadRect ((Memref.whole cc0_scratch0 : Memref sig .tc .vmem S2048x2048 .f32).view.writes (Elt Ideal) f3 [⟨Rect.unit (s := S2048x2048) (k0_off25 c) ![512, 384] (k0_off25_inb c), w⟩])) (ix2 i j) : EReal)
        = share A B c.val (ownRow 3 1 c + i.val) (colLo 3 + j.val) := by
  intro i j
  have hskip : View.readAt (Elt Ideal) (Memref.whole cc0_scratch0 : Memref sig .tc .vmem S2048x2048 .f32).view (Rect.unit (s := S2048x2048) (k0_off26 c) ![512, 384] (k0_off26_inb c)).toLoadRect ((Memref.whole cc0_scratch0 : Memref sig .tc .vmem S2048x2048 .f32).view.writes (Elt Ideal) f3 [⟨Rect.unit (s := S2048x2048) (k0_off25 c) ![512, 384] (k0_off25_inb c), w⟩])
      = View.readAt (Elt Ideal) (Memref.whole cc0_scratch0 : Memref sig .tc .vmem S2048x2048 .f32).view (Rect.unit (s := S2048x2048) (k0_off26 c) ![512, 384] (k0_off26_inb c)).toLoadRect f3 := by
    refine View.readAt_writes_of_forall_not_mem _ _ _ _ fun jj p hp => ?_
    rw [List.mem_singleton] at hp
    subst hp
    intro hm
    have hm' : (Rect.unit (s := S2048x2048) (k0_off26 c) ![512, 384] (k0_off26_inb c)).toLoadRect.idx jj ∈ (Rect.unit (s := S2048x2048) (k0_off25 c) ![512, 384] (k0_off25_inb c)).set := hm
    have h0 := (Rect.mem_set_unit (s := S2048x2048)).mp hm' (0 : Fin 2)
    have hj : ((jj 0 : Fin _) : ℕ) < 512 := (jj 0).isLt
    simp only [LoadRect.idx_apply, Rect.off_unit, Rect.stride_unit, off26_eq, off25_eq, Matrix.cons_val_zero] at h0
    have := cy_le c
    omega
  rw [hskip, View.readAt_eq_ld]
  have hi : cy c * 512 + i.val < 1024 := by have := cy_le c; have := i.isLt; omega
  have := hJ1 ⟨cy c * 512 + i.val, hi⟩ j ((Rect.unit (s := S2048x2048) (k0_off26 c) ![512, 384] (k0_off26_inb c)).emb (ix2 i j))
    (by show k0_off26 c 0 + 1 * i.val = _
        rw [off26_eq]
        show cx c * 1024 + cy c * 512 + 1 * i.val = cx c * 1024 + (cy c * 512 + i.val)
        omega)
    (by show k0_off26 c 1 + 1 * j.val = _
        rw [off26_eq]
        show 1152 + 1 * j.val = 1152 + j.val
        omega)
  have e : cx c * 1024 + (cy c * 512 + i.val) = ownRow 3 1 c + i.val := by
    show _ = cx c * 1024 + cy c * 512 + i.val
    omega
  show _ = share A B c.val (ownRow 3 1 c + i.val) (colLo 3 + j.val)
  rw [← e]
  exact this

theorem landed_quarter_3_c (c : Dev nD) (fl : Buf (Elt Ideal) ((commM3_0 : Memref sig .tc .vmem S1024x384 .bf16).view.loc (c : Thread nD τ)))
    (hfl : (Vreal A B).rs3_0 (nbr 0 c) ((commM3_0 : Memref sig .tc .vmem S1024x384 .bf16).view.read (Elt Ideal) fl)) :
    ∀ (i : Fin 512) (j : Fin 384),
      (k0_pay29 (F := Ideal) (View.readAt (Elt Ideal) (Memref.whole cc0_scratch4 : Memref sig .tc .vmem S1792x384 .bf16).view (Rect.unit (s := S1792x384) (k0_off16 c) ![512, 384] (k0_off16_inb c)).toLoadRect fl) (ix2 i j) : EReal)
        = share A B (nb 3 0 c).val (ownRow 3 1 c + i.val) (colLo 3 + j.val) := by
  intro i j
  have hi : cy c * 512 + i.val < 1024 := by have := cy_le c; have := i.isLt; omega
  have hh := hfl ⟨cy c * 512 + i.val, hi⟩ j
  have he : ((Memref.whole cc0_scratch4 : Memref sig .tc .vmem S1792x384 .bf16).view.slice (Rect.unit (s := S1792x384) (k0_off16 c) ![512, 384] (k0_off16_inb c))).emb (ix2 i j)
      = (commM3_0 : Memref sig .tc .vmem S1024x384 .bf16).view.emb (ix2 (⟨cy c * 512 + i.val, hi⟩ : Fin 1024) j) := by
    refine funext fun a => Fin.ext ?_
    show k0_off16 c a + 1 * ((ix2 i j) a).val = (![0, 0] : Fin 2 → ℕ) a + 1 * ((ix2 (⟨cy c * 512 + i.val, hi⟩ : Fin 1024) j) a).val
    rw [off16_eq]
    match a with
    | ⟨0, _⟩ => show cy c * 512 + 1 * i.val = 0 + 1 * (cy c * 512 + i.val); omega
    | ⟨1, _⟩ => show 0 + 1 * j.val = 0 + 1 * j.val; rfl
  show (k0_pay29 (F := Ideal) _ (ix2 i j) : EReal) = _
  unfold k0_pay29
  show ((Memref.whole cc0_scratch4 : Memref sig .tc .vmem S1792x384 .bf16).view.slice (Rect.unit (s := S1792x384) (k0_off16 c) ![512, 384] (k0_off16_inb c))).read (Elt Ideal) fl (ix2 i j) = _
  rw [View.read_apply, he, ← View.read_apply]
  refine hh.trans ?_
  have e : sendRow 3 0 (nbr 0 c) + (cy c * 512 + i.val) = ownRow 3 1 c + i.val := by
    show (1 - cx (nbr 0 c)) * 1024 + (cy c * 512 + i.val) = cx c * 1024 + cy c * 512 + i.val
    rw [cx_nbr0]; have := cx_le c; omega
  show share A B (nbr 0 c).val (sendRow 3 0 (nbr 0 c) + (cy c * 512 + i.val)) (colLo 3 + j.val) = _
  rw [e]; rfl

/-- The sent-on quarter of group 4 as it is loaded and summed with the landed rows: two shares. -/
theorem sent_quarter_4_c (c : Dev nD) (f3 : Buf (Elt Ideal) ((Memref.whole cc0_scratch0 : Memref sig .tc .vmem S2048x2048 .f32).view.loc (c : Thread nD τ))) (fl : Buf (Elt Ideal) ((commM4_0 : Memref sig .tc .vmem S1024x256 .bf16).view.loc (c : Thread nD τ)))
    (hJ1 : J1 A B 4 256 c f3)
    (hfl : (Vreal A B).rs4_0 (nbr 1 c) ((commM4_0 : Memref sig .tc .vmem S1024x256 .bf16).view.read (Elt Ideal) fl)) :
    ∀ (i : Fin 512) (j : Fin 256), ((k0_pay31 (F := Ideal) (View.readAt (Elt Ideal) (Memref.whole cc0_scratch0 : Memref sig .tc .vmem S2048x2048 .f32).view (Rect.unit (s := S2048x2048) (k0_off27 c) ![512, 256] (k0_off27_inb c)).toLoadRect f3) (View.readAt (Elt Ideal) (Memref.whole cc0_scratch5 : Memref sig .tc .vmem S1792x256 .bf16).view (Rect.unit (s := S1792x256) (k0_off28 c) ![512, 256] (k0_off28_inb c)).toLoadRect fl)) (ix2 i j) : EReal) = share A B c.val (sendRow 4 1 c + i.val) (colLo 4 + j.val) + share A B (nb 4 0 c).val (sendRow 4 1 c + i.val) (colLo 4 + j.val) := by
  intro i j
  have hi : (1 - cz c) * 512 + i.val < 1024 := by have := cz_le c; have := i.isLt; omega
  have h1 : ((View.readAt (Elt Ideal) (Memref.whole cc0_scratch0 : Memref sig .tc .vmem S2048x2048 .f32).view (Rect.unit (s := S2048x2048) (k0_off27 c) ![512, 256] (k0_off27_inb c)).toLoadRect f3) (ix2 i j) : EReal)
      = share A B c.val (sendRow 4 1 c + i.val) (colLo 4 + j.val) := by
    rw [View.readAt_eq_ld]
    have := hJ1 ⟨(1 - cz c) * 512 + i.val, hi⟩ j ((Rect.unit (s := S2048x2048) (k0_off27 c) ![512, 256] (k0_off27_inb c)).emb (ix2 i j))
      (by show k0_off27 c 0 + 1 * i.val = _
          rw [off27_eq]
          show cy c * 1024 + (1 - cz c) * 512 + 1 * i.val = cy c * 1024 + ((1 - cz c) * 512 + i.val)
          omega)
      (by show k0_off27 c 1 + 1 * j.val = _
          rw [off27_eq]
          show 1536 + 1 * j.val = 1536 + j.val
          omega)
    have e : cy c * 1024 + ((1 - cz c) * 512 + i.val) = sendRow 4 1 c + i.val := by
      show _ = cy c * 1024 + (1 - cz c) * 512 + i.val
      omega
    show _ = share A B c.val (sendRow 4 1 c + i.val) (colLo 4 + j.val)
    rw [← e]
    exact this
  have h2 : ((View.readAt (Elt Ideal) (Memref.whole cc0_scratch5 : Memref sig .tc .vmem S1792x256 .bf16).view (Rect.unit (s := S1792x256) (k0_off28 c) ![512, 256] (k0_off28_inb c)).toLoadRect fl) (ix2 i j) : EReal)
      = share A B (nb 4 0 c).val (sendRow 4 1 c + i.val) (colLo 4 + j.val) := by
    have hh := hfl ⟨(1 - cz c) * 512 + i.val, hi⟩ j
    have he : ((Memref.whole cc0_scratch5 : Memref sig .tc .vmem S1792x256 .bf16).view.slice (Rect.unit (s := S1792x256) (k0_off28 c) ![512, 256] (k0_off28_inb c))).emb (ix2 i j)
        = (commM4_0 : Memref sig .tc .vmem S1024x256 .bf16).view.emb (ix2 (⟨(1 - cz c) * 512 + i.val, hi⟩ : Fin 1024) j) := by
      refine funext fun a => Fin.ext ?_
      show k0_off28 c a + 1 * ((ix2 i j) a).val = (![0, 0] : Fin 2 → ℕ) a + 1 * ((ix2 (⟨(1 - cz c) * 512 + i.val, hi⟩ : Fin 1024) j) a).val
      rw [off28_eq]
      match a with
      | ⟨0, _⟩ => show (1 - cz c) * 512 + 1 * i.val = 0 + 1 * ((1 - cz c) * 512 + i.val); omega
      | ⟨1, _⟩ => show 0 + 1 * j.val = 0 + 1 * j.val; rfl
    show ((Memref.whole cc0_scratch5 : Memref sig .tc .vmem S1792x256 .bf16).view.slice (Rect.unit (s := S1792x256) (k0_off28 c) ![512, 256] (k0_off28_inb c))).read (Elt Ideal) fl (ix2 i j) = _
    rw [View.read_apply, he, ← View.read_apply]
    refine hh.trans ?_
    have e : sendRow 4 0 (nbr 1 c) + ((1 - cz c) * 512 + i.val) = sendRow 4 1 c + i.val := by
      show (1 - cy (nbr 1 c)) * 1024 + ((1 - cz c) * 512 + i.val) = cy c * 1024 + (1 - cz c) * 512 + i.val
      rw [cy_nbr1]; have := cy_le c; omega
    show share A B (nbr 1 c).val (sendRow 4 0 (nbr 1 c) + ((1 - cz c) * 512 + i.val)) (colLo 4 + j.val) = _
    rw [e]; rfl
  show (k0_pay31 (F := Ideal) _ _ (ix2 i j) : EReal) = _
  unfold k0_pay31
  exact congrArg₂ (fun a b : EReal => a + b) h1 h2

/-! ### Pointwise payloads of the stretches 14 to 16 -/

theorem pay32_apply_c (x : FVec Ideal S512x256 .f32) (i : S512x256.Idx) : (k0_pay32 (F := Ideal) x i : EReal) = (x i : EReal) := by
  unfold k0_pay32; simp only [shapeCast_self]
theorem pay33_apply_c (x : Vec Ideal S512x256 .f32) (i : S512x256.Idx) : (k0_pay33 (F := Ideal) x i : EReal) = (x i : EReal) := by
  unfold k0_pay33; simp only [shapeCast_self]; rfl

/-! ### Group 2's sent-on eighth at the stretch that stores it (for the fact the next stretch's send needs) -/

theorem pay45_apply_c (x : Vec Ideal S256x384 .f32) (y : Vec Ideal S256x384 .bf16) (i : S256x384.Idx) :
    (k0_pay45 (F := Ideal) x y i : EReal) = (x i : EReal) + (y i : EReal) := by
  unfold k0_pay45; simp only [shapeCast_self]; rfl

theorem sendRow1_nb1_2s_c : ∀ c : Dev nD, sendRow 2 1 (nb 2 1 c) + (1 - cy c) * 256 = sendRow 2 2 c := by decide

theorem landed_rows_2s_c (c : Dev nD) (fl : Buf (Elt Ideal) ((commM2_1 : Memref sig .tc .vmem S512x384 .bf16).view.loc (c : Thread nD τ))) (r : Fin 256) (j : Fin 384) :
    (View.readAt (Elt Ideal) (Memref.whole cc0_scratch3 : Memref sig .tc .vmem S1792x384 .bf16).view (Rect.unit (s := S1792x384) (k0_off44 c) ![256, 384] (k0_off44_inb c)).toLoadRect fl) (ix2 r j)
      = (commM2_1 : Memref sig .tc .vmem S512x384 .bf16).view.read (Elt Ideal) fl (ix2 ⟨(1 - cy c) * 256 + r.val, by have := cy_le c; omega⟩ j) := by
  have h : ((Memref.whole cc0_scratch3 : Memref sig .tc .vmem S1792x384 .bf16).view.slice (Rect.unit (s := S1792x384) (k0_off44 c) ![256, 384] (k0_off44_inb c))).emb (ix2 r j)
      = (commM2_1 : Memref sig .tc .vmem S512x384 .bf16).view.emb (ix2 ⟨(1 - cy c) * 256 + r.val, by have := cy_le c; omega⟩ j) := by
    refine funext fun a => Fin.ext ?_
    show k0_off44 c a + 1 * ((ix2 r j) a).val = (![1024, 0] : Fin 2 → ℕ) a + 1 * ((ix2 (⟨(1 - cy c) * 256 + r.val, by have := cy_le c; omega⟩ : Fin 512) j) a).val
    rw [off44_eq]
    match a with
    | ⟨0, _⟩ => show 1024 + (1 - cy c) * 256 + 1 * r.val = 1024 + 1 * ((1 - cy c) * 256 + r.val); omega
    | ⟨1, _⟩ => rfl
  show ((Memref.whole cc0_scratch3 : Memref sig .tc .vmem S1792x384 .bf16).view.slice (Rect.unit (s := S1792x384) (k0_off44 c) ![256, 384] (k0_off44_inb c))).read (Elt Ideal) fl (ix2 r j) = _
  rw [View.read_apply, View.read_apply, h]

/-- The sent-on eighth of group 2 after its step-2 accumulation: four shares. -/
theorem sent_eighth_2_c (c : Dev nD) (f3 : Buf (Elt Ideal) ((Memref.whole cc0_scratch0 : Memref sig .tc .vmem S2048x2048 .f32).view.loc (c : Thread nD τ))) (fl : Buf (Elt Ideal) ((commM2_1 : Memref sig .tc .vmem S512x384 .bf16).view.loc (c : Thread nD τ)))
    (hJ2 : J2 A B 2 384 c f3)
    (hfl : (Vreal A B).rs2_1 (nbr 0 c) ((commM2_1 : Memref sig .tc .vmem S512x384 .bf16).view.read (Elt Ideal) fl)) :
    ∀ (r : Fin 256) (j : Fin 384),
      (k0_pay45 (F := Ideal) (View.readAt (Elt Ideal) (Memref.whole cc0_scratch0 : Memref sig .tc .vmem S2048x2048 .f32).view (Rect.unit (s := S2048x2048) (k0_off43 c) ![256, 384] (k0_off43_inb c)).toLoadRect f3)
        (View.readAt (Elt Ideal) (Memref.whole cc0_scratch3 : Memref sig .tc .vmem S1792x384 .bf16).view (Rect.unit (s := S1792x384) (k0_off44 c) ![256, 384] (k0_off44_inb c)).toLoadRect fl) (ix2 r j) : EReal)
      = ((share A B c.val (sendRow 2 2 c + r.val) (colLo 2 + j.val) + share A B (nb 2 0 c).val (sendRow 2 2 c + r.val) (colLo 2 + j.val)) + (share A B (nb 2 1 c).val (sendRow 2 2 c + r.val) (colLo 2 + j.val) + share A B (nb 2 0 (nb 2 1 c)).val (sendRow 2 2 c + r.val) (colLo 2 + j.val))) := by
  intro r j
  have hi : (1 - cy c) * 256 + r.val < 512 := by have := cy_le c; have := r.isLt; omega
  have e : ownRow 2 1 c + ((1 - cy c) * 256 + r.val) = sendRow 2 2 c + r.val := by
    show cz c * 1024 + cx c * 512 + ((1 - cy c) * 256 + r.val) = cz c * 1024 + cx c * 512 + (1 - cy c) * 256 + r.val
    omega
  have h1 : ((View.readAt (Elt Ideal) (Memref.whole cc0_scratch0 : Memref sig .tc .vmem S2048x2048 .f32).view (Rect.unit (s := S2048x2048) (k0_off43 c) ![256, 384] (k0_off43_inb c)).toLoadRect f3) (ix2 r j) : EReal)
      = share A B c.val (sendRow 2 2 c + r.val) (colLo 2 + j.val) + share A B (nb 2 0 c).val (sendRow 2 2 c + r.val) (colLo 2 + j.val) := by
    rw [View.readAt_eq_ld]
    have := hJ2 ⟨(1 - cy c) * 256 + r.val, hi⟩ j ((Rect.unit (s := S2048x2048) (k0_off43 c) ![256, 384] (k0_off43_inb c)).emb (ix2 r j))
      (by show k0_off43 c 0 + 1 * r.val = _
          rw [off43_eq]
          show cz c * 1024 + cx c * 512 + (1 - cy c) * 256 + 1 * r.val = cz c * 1024 + cx c * 512 + ((1 - cy c) * 256 + r.val)
          omega)
      (by show k0_off43 c 1 + 1 * j.val = _
          rw [off43_eq]
          show 768 + 1 * j.val = 768 + j.val
          omega)
    rw [e] at this
    exact this
  rw [pay45_apply_c, h1, landed_rows_2s_c c fl r j, hfl ⟨(1 - cy c) * 256 + r.val, hi⟩ j]
  show _ + (share A B (nb 2 1 c).val (sendRow 2 1 (nb 2 1 c) + ((1 - cy c) * 256 + r.val)) (colLo 2 + j.val)
      + share A B (nb 2 0 (nb 2 1 c)).val (sendRow 2 1 (nb 2 1 c) + ((1 - cy c) * 256 + r.val)) (colLo 2 + j.val)) = _
  rw [← Nat.add_assoc, sendRow1_nb1_2s_c]

include hagree in
/-- Stretch 14 with its value facts derived. -/
theorem part14_real (c : Dev nD) (κs κr : ℕ) (W : Waits sig Unit) (v2 v8 v115 v410 c512_i32_308 : BitVec 32)
    (f3 : Buf (Elt Ideal) ((Memref.whole cc0_scratch0 : Memref sig .tc .vmem S2048x2048 .f32).view.loc (c : Thread nD τ)))
    (f13 : Buf (Elt Ideal) ((stgM3_0 : Memref sig .tc .vmem S1024x384 .bf16).view.loc (c : Thread nD τ)))
    (fl : Buf (Elt Ideal) ((commM3_0 : Memref sig .tc .vmem S1024x384 .bf16).view.loc (c : Thread nD τ))) :
    iprop(iprop(cellInv ER (sched (Vreal A B)) κs (cell c (.rsS 3 1)) ∗ cellInv ER (sched (Vreal A B)) κr (cell (nbr 1 c) (.rsR 3 1))
        ∗ reached ER (cell c (.rsS 3 1)) 0 ∗ reached ER (cell (nbr 1 c) (.rsR 3 1)) 0
        ∗ dutyTok ER (cell c (.rsS 3 1)) 0 (0 : Fin 3) ∗ dutyTok ER (cell (nbr 1 c) (.rsR 3 1)) 0 (0 : Fin 3)
        ∗ ptsAny (F := Ideal) (nbr 1 c) commM3_1
        ∗ owes (c : Thread nD τ) (Owe c 12) W
        ∗ heldW c (stgM3_0 : Memref sig .tc .vmem S1024x384 .bf16) f13
        ∗ heldW c (Memref.whole cc0_scratch0 : Memref sig .tc .vmem S2048x2048 .f32) f3
        ∗ heldW c (commM3_0 : Memref sig .tc .vmem S1024x384 .bf16) fl) ∗ ⌜AccInv A B c ![2, 2, 2, 1, 1, 1] f3⌝ ∗ ⌜(Vreal A B).rs3_0 (nbr 0 c) ((commM3_0 : Memref sig .tc .vmem S1024x384 .bf16).view.read (Elt Ideal) fl)⌝)
      ⊢ wp frame (wpE (defs₀ (F := Ideal)) 𝒱₀ c none) Set.univ
          (k0_part14 (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23 c v2 v8 v115 v410 c512_i32_308)
          (fun r => iprop((⌜r = ⟨Scalar.addi v115 (Scalar.muli v8 c512_i32_308), ⟨Scalar.xori v2 3#32, ⟨View.readAt (Elt Ideal) (Memref.whole cc0_scratch0 : Memref sig .tc .vmem S2048x2048 .f32).view (Rect.unit (s := S2048x2048) (k0_off26 c) ![512, 384] (k0_off26_inb c)).toLoadRect ((Memref.whole cc0_scratch0 : Memref sig .tc .vmem S2048x2048 .f32).view.writes (Elt Ideal) f3 [⟨Rect.unit (s := S2048x2048) (k0_off25 c) ![512, 384] (k0_off25_inb c), k0_pay27 (F := Ideal) (View.readAt (Elt Ideal) (Memref.whole cc0_scratch0 : Memref sig .tc .vmem S2048x2048 .f32).view (Rect.unit (s := S2048x2048) (k0_off25 c) ![512, 384] (k0_off25_inb c)).toLoadRect f3) (View.readAt (Elt Ideal) (Memref.whole cc0_scratch4 : Memref sig .tc .vmem S1792x384 .bf16).view (Rect.unit (s := S1792x384) (k0_off14 c) ![512, 384] (k0_off14_inb c)).toLoadRect fl)⟩]), k0_pay29 (F := Ideal) (View.readAt (Elt Ideal) (Memref.whole cc0_scratch4 : Memref sig .tc .vmem S1792x384 .bf16).view (Rect.unit (s := S1792x384) (k0_off16 c) ![512, 384] (k0_off16_inb c)).toLoadRect fl)⟩⟩⟩⌝ ∗ cred (tallyAt (cell c (.rsS 3 1)) () (amt (.rsR 3 1)))
            ∗ owes (c : Thread nD τ) (Owe c 13) W
            ∗ heldW c (Memref.whole cc0_scratch0 : Memref sig .tc .vmem S2048x2048 .f32) ((Memref.whole cc0_scratch0 : Memref sig .tc .vmem S2048x2048 .f32).view.writes (Elt Ideal) f3 [⟨Rect.unit (s := S2048x2048) (k0_off25 c) ![512, 384] (k0_off25_inb c), k0_pay27 (F := Ideal) (View.readAt (Elt Ideal) (Memref.whole cc0_scratch0 : Memref sig .tc .vmem S2048x2048 .f32).view (Rect.unit (s := S2048x2048) (k0_off25 c) ![512, 384] (k0_off25_inb c)).toLoadRect f3) (View.readAt (Elt Ideal) (Memref.whole cc0_scratch4 : Memref sig .tc .vmem S1792x384 .bf16).view (Rect.unit (s := S1792x384) (k0_off14 c) ![512, 384] (k0_off14_inb c)).toLoadRect fl)⟩])
            ∗ heldW c (commM3_0 : Memref sig .tc .vmem S1024x384 .bf16) fl
            ∗ ((stgM3_0 : Memref sig .tc .vmem S1024x384 .bf16).view.loc (c : Thread nD τ) ↦[(stgM3_0 : Memref sig .tc .vmem S1024x384 .bf16).view.set \ (stgM3_1 : Memref sig .tc .vmem S512x384 .bf16).view.set]{fullShare} (View.write (Elt Ideal) ((Memref.whole cc0_scratch10 : Memref sig .tc .vmem S1024x384 .bf16).access (Rect.unit (s := S1024x384) ![0, 0] ![512, 384] inb_S1024x384_S512x384_0_0)) f13 (k0_pay28 (F := Ideal) ((Memref.whole cc0_scratch0 : Memref sig .tc .vmem S2048x2048 .f32).view.readCov [⟨Rect.unit (s := S2048x2048) (k0_off25 c) ![512, 384] (k0_off25_inb c), k0_pay27 (F := Ideal) (View.readAt (Elt Ideal) (Memref.whole cc0_scratch0 : Memref sig .tc .vmem S2048x2048 .f32).view (Rect.unit (s := S2048x2048) (k0_off25 c) ![512, 384] (k0_off25_inb c)).toLoadRect f3) (View.readAt (Elt Ideal) (Memref.whole cc0_scratch4 : Memref sig .tc .vmem S1792x384 .bf16).view (Rect.unit (s := S1792x384) (k0_off14 c) ![512, 384] (k0_off14_inb c)).toLoadRect fl)⟩] (Rect.unit (s := S2048x2048) (k0_off25 c) ![512, 384] (k0_off25_inb c)).toLoadRect)) Finset.univ))) ∗ ⌜AccInv A B c ![2, 2, 2, 6, 1, 1] ((Memref.whole cc0_scratch0 : Memref sig .tc .vmem S2048x2048 .f32).view.writes (Elt Ideal) f3 [⟨Rect.unit (s := S2048x2048) (k0_off25 c) ![512, 384] (k0_off25_inb c), k0_pay27 (F := Ideal) (View.readAt (Elt Ideal) (Memref.whole cc0_scratch0 : Memref sig .tc .vmem S2048x2048 .f32).view (Rect.unit (s := S2048x2048) (k0_off25 c) ![512, 384] (k0_off25_inb c)).toLoadRect f3) (View.readAt (Elt Ideal) (Memref.whole cc0_scratch4 : Memref sig .tc .vmem S1792x384 .bf16).view (Rect.unit (s := S1792x384) (k0_off14 c) ![512, 384] (k0_off14_inb c)).toLoadRect fl)⟩])⌝ ∗ ⌜∀ (i : Fin 512) (j : Fin 384), ((View.readAt (Elt Ideal) (Memref.whole cc0_scratch0 : Memref sig .tc .vmem S2048x2048 .f32).view (Rect.unit (s := S2048x2048) (k0_off26 c) ![512, 384] (k0_off26_inb c)).toLoadRect ((Memref.whole cc0_scratch0 : Memref sig .tc .vmem S2048x2048 .f32).view.writes (Elt Ideal) f3 [⟨Rect.unit (s := S2048x2048) (k0_off25 c) ![512, 384] (k0_off25_inb c), k0_pay27 (F := Ideal) (View.readAt (Elt Ideal) (Memref.whole cc0_scratch0 : Memref sig .tc .vmem S2048x2048 .f32).view (Rect.unit (s := S2048x2048) (k0_off25 c) ![512, 384] (k0_off25_inb c)).toLoadRect f3) (View.readAt (Elt Ideal) (Memref.whole cc0_scratch4 : Memref sig .tc .vmem S1792x384 .bf16).view (Rect.unit (s := S1792x384) (k0_off14 c) ![512, 384] (k0_off14_inb c)).toLoadRect fl)⟩])) (ix2 i j) : EReal) = share A B c.val (ownRow 3 1 c + i.val) (colLo 3 + j.val)⌝ ∗ ⌜∀ (i : Fin 512) (j : Fin 384), ((k0_pay29 (F := Ideal) (View.readAt (Elt Ideal) (Memref.whole cc0_scratch4 : Memref sig .tc .vmem S1792x384 .bf16).view (Rect.unit (s := S1792x384) (k0_off16 c) ![512, 384] (k0_off16_inb c)).toLoadRect fl)) (ix2 i j) : EReal) = share A B (nb 3 0 c).val (ownRow 3 1 c + i.val) (colLo 3 + j.val)⌝)) := by
  iintro ⟨Hpre, %hA, %hl⟩
  have hJ1 : J1 A B 3 384 c f3 := hA.get3
  have hout0 : AccInv A B c ![2, 2, 2, 6, 1, 1] ((Memref.whole cc0_scratch0 : Memref sig .tc .vmem S2048x2048 .f32).view.writes (Elt Ideal) f3 [⟨Rect.unit (s := S2048x2048) (k0_off25 c) ![512, 384] (k0_off25_inb c), k0_pay27 (F := Ideal) (View.readAt (Elt Ideal) (Memref.whole cc0_scratch0 : Memref sig .tc .vmem S2048x2048 .f32).view (Rect.unit (s := S2048x2048) (k0_off25 c) ![512, 384] (k0_off25_inb c)).toLoadRect f3) (View.readAt (Elt Ideal) (Memref.whole cc0_scratch4 : Memref sig .tc .vmem S1792x384 .bf16).view (Rect.unit (s := S1792x384) (k0_off14 c) ![512, 384] (k0_off14_inb c)).toLoadRect fl)⟩]) :=
    AccInv.mk6 (LJ_cons (k := 0) (k0_off25_inb c) _ _ (off25_eq c) (Or.inr (show colLo (0 : Fin 6).val + wOf 0 ≤ 1152 from by decide)) (LJ_nil hA.get0))
      (LJ_cons (k := 1) (k0_off25_inb c) _ _ (off25_eq c) (Or.inr (show colLo (1 : Fin 6).val + wOf 1 ≤ 1152 from by decide)) (LJ_nil hA.get1))
      (LJ_cons (k := 2) (k0_off25_inb c) _ _ (off25_eq c) (Or.inr (show colLo (2 : Fin 6).val + wOf 2 ≤ 1152 from by decide)) (LJ_nil hA.get2))
      (J1q_cons A B (k0_off25_inb c) _ [] (off25_eq c)
        (Or.inr (by
          show (cx c * 1024 + (1 - cy c) * 512) + 512 ≤ cx c * 1024 + cy c * 512 ∨ cx c * 1024 + cy c * 512 + 512 ≤ cx c * 1024 + (1 - cy c) * 512
          have := cy_le c
          omega))
        (J1q_nil A B (J1q_of_J1 A B hJ1)))
      (LJ_cons (k := 4) (k0_off25_inb c) _ _ (off25_eq c) (Or.inl (show 1152 + 384 ≤ colLo (4 : Fin 6).val from by decide)) (LJ_nil hA.get4))
      (LJ_cons (k := 5) (k0_off25_inb c) _ _ (off25_eq c) (Or.inl (show 1152 + 384 ≤ colLo (5 : Fin 6).val from by decide)) (LJ_nil hA.get5))
  have hout1 : ∀ (i : Fin 512) (j : Fin 384), ((View.readAt (Elt Ideal) (Memref.whole cc0_scratch0 : Memref sig .tc .vmem S2048x2048 .f32).view (Rect.unit (s := S2048x2048) (k0_off26 c) ![512, 384] (k0_off26_inb c)).toLoadRect ((Memref.whole cc0_scratch0 : Memref sig .tc .vmem S2048x2048 .f32).view.writes (Elt Ideal) f3 [⟨Rect.unit (s := S2048x2048) (k0_off25 c) ![512, 384] (k0_off25_inb c), k0_pay27 (F := Ideal) (View.readAt (Elt Ideal) (Memref.whole cc0_scratch0 : Memref sig .tc .vmem S2048x2048 .f32).view (Rect.unit (s := S2048x2048) (k0_off25 c) ![512, 384] (k0_off25_inb c)).toLoadRect f3) (View.readAt (Elt Ideal) (Memref.whole cc0_scratch4 : Memref sig .tc .vmem S1792x384 .bf16).view (Rect.unit (s := S1792x384) (k0_off14 c) ![512, 384] (k0_off14_inb c)).toLoadRect fl)⟩])) (ix2 i j) : EReal) = share A B c.val (ownRow 3 1 c + i.val) (colLo 3 + j.val) :=
    kept_quarter_3_c A B c f3 _ hJ1
  have hout2 : ∀ (i : Fin 512) (j : Fin 384), ((k0_pay29 (F := Ideal) (View.readAt (Elt Ideal) (Memref.whole cc0_scratch4 : Memref sig .tc .vmem S1792x384 .bf16).view (Rect.unit (s := S1792x384) (k0_off16 c) ![512, 384] (k0_off16_inb c)).toLoadRect fl)) (ix2 i j) : EReal) = share A B (nb 3 0 c).val (ownRow 3 1 c + i.val) (colLo 3 + j.val) :=
    landed_quarter_3_c A B c fl hl
  iapply (wp_mono frame (wpE (defs₀ (F := Ideal)) 𝒱₀ c none) Set.univ (fun r => by
    iintro H
    isplitl [H]; · iexact H
    isplitr; · ipureintro; exact hout0
    isplitr; · ipureintro; exact hout1
    ipureintro; exact hout2))
  iapply (part14_run (Vreal A B) c κs κr W v2 v8 v115 v410 c512_i32_308 f3 f13 fl (val_rs3_1 A B c f13 fl f3 hJ1 hl))
  iexact Hpre

set_option maxHeartbeats 2000000 in
include hagree in
/-- Stretch 15 with its value facts derived. -/
theorem part15_real (c : Dev nD) (κw κv : ℕ) (W : Waits sig Unit) (v9 v130 v139 v412 : BitVec 32) (v441 : Vec Ideal S512x384 .f32) (v446 : FVec Ideal S512x384 .f32)
    (f3 : Buf (Elt Ideal) ((Memref.whole cc0_scratch0 : Memref sig .tc .vmem S2048x2048 .f32).view.loc (c : Thread nD τ))) :
    iprop(iprop(owes (c : Thread nD τ) (Owe c 13) W ∗ levAts L lv
        ∗ heldW c (Memref.whole cc0_scratch0 : Memref sig .tc .vmem S2048x2048 .f32) f3
        ∗ cellInv ER (sched (Vreal A B)) κw (cell c (.rsS 4 0)) ∗ cred (tallyAt (cell c (.rsS 4 0)) () (amt (.rsS 4 0))) ∗ atPos ER (cell c (.rsS 4 0)) 0 ∅ 0
        ∗ cellInv ER (sched (Vreal A B)) κv (cell c (.rsR 4 0)) ∗ cred (tallyAt (cell c (.rsR 4 0)) () (amt (.rsR 4 0))) ∗ atPos ER (cell c (.rsR 4 0)) 0 ∅ 0) ∗ ⌜AccInv A B c ![2, 2, 2, 6, 1, 1] f3⌝ ∗ ⌜∀ (i : Fin 512) (j : Fin 384), (v441 (ix2 i j) : EReal) = share A B c.val (ownRow 3 1 c + i.val) (colLo 3 + j.val)⌝ ∗ ⌜∀ (i : Fin 512) (j : Fin 384), (v446 (ix2 i j) : EReal) = share A B (nb 3 0 c).val (ownRow 3 1 c + i.val) (colLo 3 + j.val)⌝)
      ⊢ wp frame (wpE (defs₀ (F := Ideal)) 𝒱₀ c none) Set.univ
          (k0_part15 (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23 c v9 v130 v139 v412 v441 v446)
          (fun r => iprop(∃ fl : Buf (Elt Ideal) ((commM4_0 : Memref sig .tc .vmem S1024x256 .bf16).view.loc (c : Thread nD τ)), ⌜r = ⟨Scalar.addi v139 (Scalar.muli (Scalar.subi (1#32) v9) 512#32), ⟨Scalar.addi v139 (Scalar.muli v9 512#32), ⟨k0_pay31 (F := Ideal) (View.readAt (Elt Ideal) (Memref.whole cc0_scratch0 : Memref sig .tc .vmem S2048x2048 .f32).view (Rect.unit (s := S2048x2048) (k0_off27 c) ![512, 256] (k0_off27_inb c)).toLoadRect f3) (View.readAt (Elt Ideal) (Memref.whole cc0_scratch5 : Memref sig .tc .vmem S1792x256 .bf16).view (Rect.unit (s := S1792x256) (k0_off28 c) ![512, 256] (k0_off28_inb c)).toLoadRect fl), View.readAt (Elt Ideal) (Memref.whole cc0_scratch0 : Memref sig .tc .vmem S2048x2048 .f32).view (Rect.unit (s := S2048x2048) (k0_off27 c) ![512, 256] (k0_off27_inb c)).toLoadRect f3⟩⟩⟩⌝
            ∗ ⌜(Vreal A B).rs4_0 (nbr 1 c) ((commM4_0 : Memref sig .tc .vmem S1024x256 .bf16).view.read (Elt Ideal) fl)⌝ ∗ ⌜AccInv A B c ![2, 2, 2, 2, 1, 1] ((Memref.whole cc0_scratch0 : Memref sig .tc .vmem S2048x2048 .f32).view.writes (Elt Ideal) f3 [⟨Rect.unit (s := S2048x2048) (k0_off26 c) ![512, 384] (k0_off26_inb c), k0_pay30 (F := Ideal) v441 v446⟩])⌝ ∗ ⌜∀ (i : Fin 512) (j : Fin 256), ((k0_pay31 (F := Ideal) (View.readAt (Elt Ideal) (Memref.whole cc0_scratch0 : Memref sig .tc .vmem S2048x2048 .f32).view (Rect.unit (s := S2048x2048) (k0_off27 c) ![512, 256] (k0_off27_inb c)).toLoadRect f3) (View.readAt (Elt Ideal) (Memref.whole cc0_scratch5 : Memref sig .tc .vmem S1792x256 .bf16).view (Rect.unit (s := S1792x256) (k0_off28 c) ![512, 256] (k0_off28_inb c)).toLoadRect fl)) (ix2 i j) : EReal) = share A B c.val (sendRow 4 1 c + i.val) (colLo 4 + j.val) + share A B (nb 4 0 c).val (sendRow 4 1 c + i.val) (colLo 4 + j.val)⌝
            ∗ heldW c (commM4_0 : Memref sig .tc .vmem S1024x256 .bf16) fl
            ∗ owes (c : Thread nD τ) (Owe c 13) (insert ((CK.rsR 4 0).sem, ()) (insert ((CK.rsS 4 0).sem, ()) W))
            ∗ atPos ER (cell c (.rsS 4 0)) 1 ∅ 0 ∗ atPos ER (cell c (.rsR 4 0)) 1 ∅ 0
            ∗ ptsAny (F := Ideal) c stgM4_0
            ∗ heldW c (Memref.whole cc0_scratch0 : Memref sig .tc .vmem S2048x2048 .f32) ((Memref.whole cc0_scratch0 : Memref sig .tc .vmem S2048x2048 .f32).view.writes (Elt Ideal) f3 [⟨Rect.unit (s := S2048x2048) (k0_off26 c) ![512, 384] (k0_off26_inb c), k0_pay30 (F := Ideal) v441 v446⟩]))) := by
  iintro ⟨Hpre, %hA, %h441, %h446⟩
  have hJ1 : J1 A B 4 256 c f3 := hA.get4
  have hpost : ∀ r : (Σ' (v464 : BitVec 32) (v466 : BitVec 32) (v474 : FVec Ideal S512x256 .f32), Vec Ideal S512x256 .f32), (iprop(∃ fl : Buf (Elt Ideal) ((commM4_0 : Memref sig .tc .vmem S1024x256 .bf16).view.loc (c : Thread nD τ)), ⌜r = ⟨Scalar.addi v139 (Scalar.muli (Scalar.subi (1#32) v9) 512#32), ⟨Scalar.addi v139 (Scalar.muli v9 512#32), ⟨k0_pay31 (F := Ideal) (View.readAt (Elt Ideal) (Memref.whole cc0_scratch0 : Memref sig .tc .vmem S2048x2048 .f32).view (Rect.unit (s := S2048x2048) (k0_off27 c) ![512, 256] (k0_off27_inb c)).toLoadRect f3) (View.readAt (Elt Ideal) (Memref.whole cc0_scratch5 : Memref sig .tc .vmem S1792x256 .bf16).view (Rect.unit (s := S1792x256) (k0_off28 c) ![512, 256] (k0_off28_inb c)).toLoadRect fl), View.readAt (Elt Ideal) (Memref.whole cc0_scratch0 : Memref sig .tc .vmem S2048x2048 .f32).view (Rect.unit (s := S2048x2048) (k0_off27 c) ![512, 256] (k0_off27_inb c)).toLoadRect f3⟩⟩⟩⌝
            ∗ ⌜(Vreal A B).rs4_0 (nbr 1 c) ((commM4_0 : Memref sig .tc .vmem S1024x256 .bf16).view.read (Elt Ideal) fl)⌝
            ∗ heldW c (commM4_0 : Memref sig .tc .vmem S1024x256 .bf16) fl
            ∗ owes (c : Thread nD τ) (Owe c 13) (insert ((CK.rsR 4 0).sem, ()) (insert ((CK.rsS 4 0).sem, ()) W))
            ∗ atPos ER (cell c (.rsS 4 0)) 1 ∅ 0 ∗ atPos ER (cell c (.rsR 4 0)) 1 ∅ 0
            ∗ ptsAny (F := Ideal) c stgM4_0
            ∗ heldW c (Memref.whole cc0_scratch0 : Memref sig .tc .vmem S2048x2048 .f32) ((Memref.whole cc0_scratch0 : Memref sig .tc .vmem S2048x2048 .f32).view.writes (Elt Ideal) f3 [⟨Rect.unit (s := S2048x2048) (k0_off26 c) ![512, 384] (k0_off26_inb c), k0_pay30 (F := Ideal) v441 v446⟩])) : sProp 𝕄) ⊢ iprop(∃ fl : Buf (Elt Ideal) ((commM4_0 : Memref sig .tc .vmem S1024x256 .bf16).view.loc (c : Thread nD τ)), ⌜r = ⟨Scalar.addi v139 (Scalar.muli (Scalar.subi (1#32) v9) 512#32), ⟨Scalar.addi v139 (Scalar.muli v9 512#32), ⟨k0_pay31 (F := Ideal) (View.readAt (Elt Ideal) (Memref.whole cc0_scratch0 : Memref sig .tc .vmem S2048x2048 .f32).view (Rect.unit (s := S2048x2048) (k0_off27 c) ![512, 256] (k0_off27_inb c)).toLoadRect f3) (View.readAt (Elt Ideal) (Memref.whole cc0_scratch5 : Memref sig .tc .vmem S1792x256 .bf16).view (Rect.unit (s := S1792x256) (k0_off28 c) ![512, 256] (k0_off28_inb c)).toLoadRect fl), View.readAt (Elt Ideal) (Memref.whole cc0_scratch0 : Memref sig .tc .vmem S2048x2048 .f32).view (Rect.unit (s := S2048x2048) (k0_off27 c) ![512, 256] (k0_off27_inb c)).toLoadRect f3⟩⟩⟩⌝
            ∗ ⌜(Vreal A B).rs4_0 (nbr 1 c) ((commM4_0 : Memref sig .tc .vmem S1024x256 .bf16).view.read (Elt Ideal) fl)⌝ ∗ ⌜AccInv A B c ![2, 2, 2, 2, 1, 1] ((Memref.whole cc0_scratch0 : Memref sig .tc .vmem S2048x2048 .f32).view.writes (Elt Ideal) f3 [⟨Rect.unit (s := S2048x2048) (k0_off26 c) ![512, 384] (k0_off26_inb c), k0_pay30 (F := Ideal) v441 v446⟩])⌝ ∗ ⌜∀ (i : Fin 512) (j : Fin 256), ((k0_pay31 (F := Ideal) (View.readAt (Elt Ideal) (Memref.whole cc0_scratch0 : Memref sig .tc .vmem S2048x2048 .f32).view (Rect.unit (s := S2048x2048) (k0_off27 c) ![512, 256] (k0_off27_inb c)).toLoadRect f3) (View.readAt (Elt Ideal) (Memref.whole cc0_scratch5 : Memref sig .tc .vmem S1792x256 .bf16).view (Rect.unit (s := S1792x256) (k0_off28 c) ![512, 256] (k0_off28_inb c)).toLoadRect fl)) (ix2 i j) : EReal) = share A B c.val (sendRow 4 1 c + i.val) (colLo 4 + j.val) + share A B (nb 4 0 c).val (sendRow 4 1 c + i.val) (colLo 4 + j.val)⌝
            ∗ heldW c (commM4_0 : Memref sig .tc .vmem S1024x256 .bf16) fl
            ∗ owes (c : Thread nD τ) (Owe c 13) (insert ((CK.rsR 4 0).sem, ()) (insert ((CK.rsS 4 0).sem, ()) W))
            ∗ atPos ER (cell c (.rsS 4 0)) 1 ∅ 0 ∗ atPos ER (cell c (.rsR 4 0)) 1 ∅ 0
            ∗ ptsAny (F := Ideal) c stgM4_0
            ∗ heldW c (Memref.whole cc0_scratch0 : Memref sig .tc .vmem S2048x2048 .f32) ((Memref.whole cc0_scratch0 : Memref sig .tc .vmem S2048x2048 .f32).view.writes (Elt Ideal) f3 [⟨Rect.unit (s := S2048x2048) (k0_off26 c) ![512, 384] (k0_off26_inb c), k0_pay30 (F := Ideal) v441 v446⟩])) := by
    intro r
    iintro H
    icases H with ⟨%fl, %hr, %hX, H⟩
    iexists fl
    isplitr; · ipureintro; exact hr
    isplitr; · ipureintro; exact hX
    isplitr
    · ipureintro
      exact AccInv.mk6 (LJ_cons (k := 0) (k0_off26_inb c) _ _ (off26_eq c) (Or.inr (show colLo (0 : Fin 6).val + wOf 0 ≤ 1152 from by decide)) (LJ_nil hA.get0))
        (LJ_cons (k := 1) (k0_off26_inb c) _ _ (off26_eq c) (Or.inr (show colLo (1 : Fin 6).val + wOf 1 ≤ 1152 from by decide)) (LJ_nil hA.get1))
        (LJ_cons (k := 2) (k0_off26_inb c) _ _ (off26_eq c) (Or.inr (show colLo (2 : Fin 6).val + wOf 2 ≤ 1152 from by decide)) (LJ_nil hA.get2))
        (J2_3_stored' A B c f3 v441 v446 h441 h446)
        (LJ_cons (k := 4) (k0_off26_inb c) _ _ (off26_eq c) (Or.inl (show 1152 + 384 ≤ colLo (4 : Fin 6).val from by decide)) (LJ_nil hA.get4))
        (LJ_cons (k := 5) (k0_off26_inb c) _ _ (off26_eq c) (Or.inl (show 1152 + 384 ≤ colLo (5 : Fin 6).val from by decide)) (LJ_nil hA.get5))
    isplitr
    · ipureintro
      exact sent_quarter_4_c A B c f3 fl hJ1 hX
    iexact H
  iapply (wp_mono frame (wpE (defs₀ (F := Ideal)) 𝒱₀ c none) Set.univ hpost)
  iapply (part15_run (Vreal A B) c κw κv W v9 v130 v139 v412 v441 v446 f3)
  iexact Hpre

include hagree in
/-- Stretch 16 with its value facts derived. -/
theorem part16_real (c : Dev nD) (κs κr : ℕ) (W : Waits sig Unit) (v2 v139 v464 v466 : BitVec 32) (v474 : FVec Ideal S512x256 .f32) (v476 : Vec Ideal S512x256 .f32)
    (f3 : Buf (Elt Ideal) ((Memref.whole cc0_scratch0 : Memref sig .tc .vmem S2048x2048 .f32).view.loc (c : Thread nD τ)))
    (f14 : Buf (Elt Ideal) ((stgM4_0 : Memref sig .tc .vmem S1024x256 .bf16).view.loc (c : Thread nD τ)))
    (fl : Buf (Elt Ideal) ((commM4_0 : Memref sig .tc .vmem S1024x256 .bf16).view.loc (c : Thread nD τ))) :
    iprop(iprop(cellInv ER (sched (Vreal A B)) κs (cell c (.rsS 4 1)) ∗ cellInv ER (sched (Vreal A B)) κr (cell (nbr 2 c) (.rsR 4 1))
        ∗ reached ER (cell c (.rsS 4 1)) 0 ∗ reached ER (cell (nbr 2 c) (.rsR 4 1)) 0
        ∗ dutyTok ER (cell c (.rsS 4 1)) 0 (0 : Fin 3) ∗ dutyTok ER (cell (nbr 2 c) (.rsR 4 1)) 0 (0 : Fin 3)
        ∗ ptsAny (F := Ideal) (nbr 2 c) commM4_1
        ∗ owes (c : Thread nD τ) (Owe c 13) W
        ∗ heldW c (stgM4_0 : Memref sig .tc .vmem S1024x256 .bf16) f14
        ∗ heldW c (Memref.whole cc0_scratch0 : Memref sig .tc .vmem S2048x2048 .f32) f3
        ∗ heldW c (commM4_0 : Memref sig .tc .vmem S1024x256 .bf16) fl) ∗ ⌜AccInv A B c ![2, 2, 2, 2, 1, 1] f3⌝ ∗ ⌜∀ (i : Fin 512) (j : Fin 256), (v474 (ix2 i j) : EReal) = share A B c.val (sendRow 4 1 c + i.val) (colLo 4 + j.val) + share A B (nb 4 0 c).val (sendRow 4 1 c + i.val) (colLo 4 + j.val)⌝ ∗ ⌜(Vreal A B).rs4_0 (nbr 1 c) ((commM4_0 : Memref sig .tc .vmem S1024x256 .bf16).view.read (Elt Ideal) fl)⌝)
      ⊢ wp frame (wpE (defs₀ (F := Ideal)) 𝒱₀ c none) Set.univ
          (k0_part16 (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23 c v2 v139 v464 v466 v474 v476)
          (fun r => iprop((⌜r = (Scalar.xori v2 4#32)⌝ ∗ cred (tallyAt (cell c (.rsS 4 1)) () (amt (.rsR 4 1)))
            ∗ owes (c : Thread nD τ) (Owe c 14) W
            ∗ heldW c (Memref.whole cc0_scratch0 : Memref sig .tc .vmem S2048x2048 .f32) ((Memref.whole cc0_scratch0 : Memref sig .tc .vmem S2048x2048 .f32).view.writes (Elt Ideal) f3 [⟨Rect.unit (s := S2048x2048) (k0_off29 c) ![512, 256] (k0_off29_inb c), k0_pay34 (F := Ideal) (View.readAt (Elt Ideal) (Memref.whole cc0_scratch0 : Memref sig .tc .vmem S2048x2048 .f32).view (Rect.unit (s := S2048x2048) (k0_off29 c) ![512, 256] (k0_off29_inb c)).toLoadRect ((Memref.whole cc0_scratch0 : Memref sig .tc .vmem S2048x2048 .f32).view.writes (Elt Ideal) f3 [⟨Rect.unit (s := S2048x2048) (k0_off27 c) ![512, 256] (k0_off27_inb c), k0_pay32 (F := Ideal) v474⟩])) (View.readAt (Elt Ideal) (Memref.whole cc0_scratch5 : Memref sig .tc .vmem S1792x256 .bf16).view (Rect.unit (s := S1792x256) (k0_off30 c) ![512, 256] (k0_off30_inb c)).toLoadRect fl)⟩, ⟨Rect.unit (s := S2048x2048) (k0_off27 c) ![512, 256] (k0_off27_inb c), k0_pay32 (F := Ideal) v474⟩])
            ∗ heldW c (commM4_0 : Memref sig .tc .vmem S1024x256 .bf16) fl
            ∗ ((stgM4_0 : Memref sig .tc .vmem S1024x256 .bf16).view.loc (c : Thread nD τ) ↦[(stgM4_0 : Memref sig .tc .vmem S1024x256 .bf16).view.set \ (stgM4_1 : Memref sig .tc .vmem S512x256 .bf16).view.set]{fullShare} (View.write (Elt Ideal) ((Memref.whole cc0_scratch11 : Memref sig .tc .vmem S1024x256 .bf16).access (Rect.unit (s := S1024x256) ![0, 0] ![512, 256] inb_S1024x256_S512x256_0_0)) f14 (k0_pay33 (F := Ideal) ((Memref.whole cc0_scratch0 : Memref sig .tc .vmem S2048x2048 .f32).view.readCov [⟨Rect.unit (s := S2048x2048) (k0_off27 c) ![512, 256] (k0_off27_inb c), k0_pay32 (F := Ideal) v474⟩] (Rect.unit (s := S2048x2048) (k0_off27 c) ![512, 256] (k0_off27_inb c)).toLoadRect)) Finset.univ))) ∗ ⌜AccInv A B c ![2, 2, 2, 2, 2, 1] ((Memref.whole cc0_scratch0 : Memref sig .tc .vmem S2048x2048 .f32).view.writes (Elt Ideal) f3 [⟨Rect.unit (s := S2048x2048) (k0_off29 c) ![512, 256] (k0_off29_inb c), k0_pay34 (F := Ideal) (View.readAt (Elt Ideal) (Memref.whole cc0_scratch0 : Memref sig .tc .vmem S2048x2048 .f32).view (Rect.unit (s := S2048x2048) (k0_off29 c) ![512, 256] (k0_off29_inb c)).toLoadRect ((Memref.whole cc0_scratch0 : Memref sig .tc .vmem S2048x2048 .f32).view.writes (Elt Ideal) f3 [⟨Rect.unit (s := S2048x2048) (k0_off27 c) ![512, 256] (k0_off27_inb c), k0_pay32 (F := Ideal) v474⟩])) (View.readAt (Elt Ideal) (Memref.whole cc0_scratch5 : Memref sig .tc .vmem S1792x256 .bf16).view (Rect.unit (s := S1792x256) (k0_off30 c) ![512, 256] (k0_off30_inb c)).toLoadRect fl)⟩, ⟨Rect.unit (s := S2048x2048) (k0_off27 c) ![512, 256] (k0_off27_inb c), k0_pay32 (F := Ideal) v474⟩])⌝)) := by
  iintro ⟨Hpre, %hA, %h474, %hl⟩
  have hV : (Vreal A B).rs4_1 c ((stgM4_1 : Memref sig .tc .vmem S512x256 .bf16).view.read (Elt Ideal) (View.write (Elt Ideal) ((Memref.whole cc0_scratch11 : Memref sig .tc .vmem S1024x256 .bf16).access (Rect.unit (s := S1024x256) ![0, 0] ![512, 256] inb_S1024x256_S512x256_0_0)) f14 (k0_pay33 (F := Ideal) ((Memref.whole cc0_scratch0 : Memref sig .tc .vmem S2048x2048 .f32).view.readCov [⟨Rect.unit (s := S2048x2048) (k0_off27 c) ![512, 256] (k0_off27_inb c), k0_pay32 (F := Ideal) v474⟩] (Rect.unit (s := S2048x2048) (k0_off27 c) ![512, 256] (k0_off27_inb c)).toLoadRect)) Finset.univ)) := by
    intro r j
    refine (congrFun (View.read_write_univ (v := (stgM4_1 : Memref sig .tc .vmem S512x256 .bf16).view) _ _) (ix2 r j)).trans ?_
    rw [pay33_apply_c, readCov_self, pay32_apply_c, h474 r j]
    rfl
  have hout : AccInv A B c ![2, 2, 2, 2, 2, 1] ((Memref.whole cc0_scratch0 : Memref sig .tc .vmem S2048x2048 .f32).view.writes (Elt Ideal) f3 [⟨Rect.unit (s := S2048x2048) (k0_off29 c) ![512, 256] (k0_off29_inb c), k0_pay34 (F := Ideal) (View.readAt (Elt Ideal) (Memref.whole cc0_scratch0 : Memref sig .tc .vmem S2048x2048 .f32).view (Rect.unit (s := S2048x2048) (k0_off29 c) ![512, 256] (k0_off29_inb c)).toLoadRect ((Memref.whole cc0_scratch0 : Memref sig .tc .vmem S2048x2048 .f32).view.writes (Elt Ideal) f3 [⟨Rect.unit (s := S2048x2048) (k0_off27 c) ![512, 256] (k0_off27_inb c), k0_pay32 (F := Ideal) v474⟩])) (View.readAt (Elt Ideal) (Memref.whole cc0_scratch5 : Memref sig .tc .vmem S1792x256 .bf16).view (Rect.unit (s := S1792x256) (k0_off30 c) ![512, 256] (k0_off30_inb c)).toLoadRect fl)⟩, ⟨Rect.unit (s := S2048x2048) (k0_off27 c) ![512, 256] (k0_off27_inb c), k0_pay32 (F := Ideal) v474⟩]) :=
    AccInv.mk6 (LJ_cons (k := 0) (k0_off29_inb c) _ _ (off29_eq c) (Or.inr (show colLo (0 : Fin 6).val + wOf 0 ≤ 1536 from by decide)) (LJ_cons (k := 0) (k0_off27_inb c) _ _ (off27_eq c) (Or.inr (show colLo (0 : Fin 6).val + wOf 0 ≤ 1536 from by decide)) (LJ_nil hA.get0)))
      (LJ_cons (k := 1) (k0_off29_inb c) _ _ (off29_eq c) (Or.inr (show colLo (1 : Fin 6).val + wOf 1 ≤ 1536 from by decide)) (LJ_cons (k := 1) (k0_off27_inb c) _ _ (off27_eq c) (Or.inr (show colLo (1 : Fin 6).val + wOf 1 ≤ 1536 from by decide)) (LJ_nil hA.get1)))
      (LJ_cons (k := 2) (k0_off29_inb c) _ _ (off29_eq c) (Or.inr (show colLo (2 : Fin 6).val + wOf 2 ≤ 1536 from by decide)) (LJ_cons (k := 2) (k0_off27_inb c) _ _ (off27_eq c) (Or.inr (show colLo (2 : Fin 6).val + wOf 2 ≤ 1536 from by decide)) (LJ_nil hA.get2)))
      (LJ_cons (k := 3) (k0_off29_inb c) _ _ (off29_eq c) (Or.inr (show colLo (3 : Fin 6).val + wOf 3 ≤ 1536 from by decide)) (LJ_cons (k := 3) (k0_off27_inb c) _ _ (off27_eq c) (Or.inr (show colLo (3 : Fin 6).val + wOf 3 ≤ 1536 from by decide)) (LJ_nil hA.get3)))
      (J2_4_stored' A B c f3 v474 fl hA.get4 hl)
      (LJ_cons (k := 5) (k0_off29_inb c) _ _ (off29_eq c) (Or.inl (show 1536 + 256 ≤ colLo (5 : Fin 6).val from by decide)) (LJ_cons (k := 5) (k0_off27_inb c) _ _ (off27_eq c) (Or.inl (show 1536 + 256 ≤ colLo (5 : Fin 6).val from by decide)) (LJ_nil hA.get5)))
  iapply (wp_mono frame (wpE (defs₀ (F := Ideal)) 𝒱₀ c none) Set.univ (fun r => by
    iintro H
    isplitl [H]; · iexact H
    ipureintro; exact hout))
  iapply (part16_run (Vreal A B) c κs κr W v2 v139 v464 v466 v474 v476 f3 f14 fl hV)
  iexact Hpre

include hagree in
/-- Stretch 17 with its value facts derived. -/
theorem part17_real (c : Dev nD) (κw κv : ℕ) (W : Waits sig Unit) (v2 v6 v154 v163 : BitVec 32)
    (f3 : Buf (Elt Ideal) ((Memref.whole cc0_scratch0 : Memref sig .tc .vmem S2048x2048 .f32).view.loc (c : Thread nD τ))) :
    iprop(iprop(owes (c : Thread nD τ) (Owe c 14) W ∗ levAts L lv
        ∗ heldW c (Memref.whole cc0_scratch0 : Memref sig .tc .vmem S2048x2048 .f32) f3
        ∗ cellInv ER (sched (Vreal A B)) κw (cell c (.rsS 5 0)) ∗ cred (tallyAt (cell c (.rsS 5 0)) () (amt (.rsS 5 0))) ∗ atPos ER (cell c (.rsS 5 0)) 0 ∅ 0
        ∗ cellInv ER (sched (Vreal A B)) κv (cell c (.rsR 5 0)) ∗ cred (tallyAt (cell c (.rsR 5 0)) () (amt (.rsR 5 0))) ∗ atPos ER (cell c (.rsR 5 0)) 0 ∅ 0) ∗ ⌜AccInv A B c ![2, 2, 2, 2, 2, 1] f3⌝)
      ⊢ wp frame (wpE (defs₀ (F := Ideal)) 𝒱₀ c none) Set.univ
          (k0_part17 (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23 c v2 v6 v154 v163)
          (fun r => iprop(⌜r = ⟨Scalar.addi v163 (Scalar.muli v6 512#32), Scalar.xori v2 1#32⟩⌝
            ∗ (∃ (fl : Buf (Elt Ideal) ((commM5_0 : Memref sig .tc .vmem S1024x256 .bf16).view.loc (c : Thread nD τ))) (fs : Buf (Elt Ideal) ((stgM5_0 : Memref sig .tc .vmem S1024x256 .bf16).view.loc (c : Thread nD τ))), ⌜(Vreal A B).rs5_0 (nbr 2 c) ((commM5_0 : Memref sig .tc .vmem S1024x256 .bf16).view.read (Elt Ideal) fl)⌝ ∗ ⌜AccInv A B c ![2, 2, 2, 2, 2, 6] ((Memref.whole cc0_scratch0 : Memref sig .tc .vmem S2048x2048 .f32).view.writes (Elt Ideal) f3 [⟨Rect.unit (s := S2048x2048) (k0_off31 c) ![512, 256] (k0_off31_inb c), k0_pay35 (F := Ideal) (View.readAt (Elt Ideal) (Memref.whole cc0_scratch0 : Memref sig .tc .vmem S2048x2048 .f32).view (Rect.unit (s := S2048x2048) (k0_off31 c) ![512, 256] (k0_off31_inb c)).toLoadRect f3) (View.readAt (Elt Ideal) (Memref.whole cc0_scratch6 : Memref sig .tc .vmem S1792x256 .bf16).view (Rect.unit (s := S1792x256) (k0_off32 c) ![512, 256] (k0_off32_inb c)).toLoadRect fl)⟩])⌝ ∗ ⌜(Vreal A B).rs5_1 c ((stgM5_1 : Memref sig .tc .vmem S512x256 .bf16).view.read (Elt Ideal) (View.write (Elt Ideal) ((Memref.whole cc0_scratch12 : Memref sig .tc .vmem S1024x256 .bf16).access (Rect.unit (s := S1024x256) ![0, 0] ![512, 256] inb_S1024x256_S512x256_0_0)) fs (k0_pay36 (F := Ideal) ((Memref.whole cc0_scratch0 : Memref sig .tc .vmem S2048x2048 .f32).view.readCov [⟨Rect.unit (s := S2048x2048) (k0_off31 c) ![512, 256] (k0_off31_inb c), k0_pay35 (F := Ideal) (View.readAt (Elt Ideal) (Memref.whole cc0_scratch0 : Memref sig .tc .vmem S2048x2048 .f32).view (Rect.unit (s := S2048x2048) (k0_off31 c) ![512, 256] (k0_off31_inb c)).toLoadRect f3) (View.readAt (Elt Ideal) (Memref.whole cc0_scratch6 : Memref sig .tc .vmem S1792x256 .bf16).view (Rect.unit (s := S1792x256) (k0_off32 c) ![512, 256] (k0_off32_inb c)).toLoadRect fl)⟩] (Rect.unit (s := S2048x2048) (k0_off31 c) ![512, 256] (k0_off31_inb c)).toLoadRect)) Finset.univ))⌝
              ∗ heldW c (commM5_0 : Memref sig .tc .vmem S1024x256 .bf16) fl
              ∗ owes (c : Thread nD τ) (Owe c 14) (insert ((CK.rsR 5 0).sem, ()) (insert ((CK.rsS 5 0).sem, ()) W))
              ∗ atPos ER (cell c (.rsS 5 0)) 1 ∅ 0 ∗ atPos ER (cell c (.rsR 5 0)) 1 ∅ 0
              ∗ heldW c (Memref.whole cc0_scratch0 : Memref sig .tc .vmem S2048x2048 .f32) ((Memref.whole cc0_scratch0 : Memref sig .tc .vmem S2048x2048 .f32).view.writes (Elt Ideal) f3 [⟨Rect.unit (s := S2048x2048) (k0_off31 c) ![512, 256] (k0_off31_inb c), k0_pay35 (F := Ideal) (View.readAt (Elt Ideal) (Memref.whole cc0_scratch0 : Memref sig .tc .vmem S2048x2048 .f32).view (Rect.unit (s := S2048x2048) (k0_off31 c) ![512, 256] (k0_off31_inb c)).toLoadRect f3) (View.readAt (Elt Ideal) (Memref.whole cc0_scratch6 : Memref sig .tc .vmem S1792x256 .bf16).view (Rect.unit (s := S1792x256) (k0_off32 c) ![512, 256] (k0_off32_inb c)).toLoadRect fl)⟩])
              ∗ heldW c (stgM5_1 : Memref sig .tc .vmem S512x256 .bf16) (View.write (Elt Ideal) ((Memref.whole cc0_scratch12 : Memref sig .tc .vmem S1024x256 .bf16).access (Rect.unit (s := S1024x256) ![0, 0] ![512, 256] inb_S1024x256_S512x256_0_0)) fs (k0_pay36 (F := Ideal) ((Memref.whole cc0_scratch0 : Memref sig .tc .vmem S2048x2048 .f32).view.readCov [⟨Rect.unit (s := S2048x2048) (k0_off31 c) ![512, 256] (k0_off31_inb c), k0_pay35 (F := Ideal) (View.readAt (Elt Ideal) (Memref.whole cc0_scratch0 : Memref sig .tc .vmem S2048x2048 .f32).view (Rect.unit (s := S2048x2048) (k0_off31 c) ![512, 256] (k0_off31_inb c)).toLoadRect f3) (View.readAt (Elt Ideal) (Memref.whole cc0_scratch6 : Memref sig .tc .vmem S1792x256 .bf16).view (Rect.unit (s := S1792x256) (k0_off32 c) ![512, 256] (k0_off32_inb c)).toLoadRect fl)⟩] (Rect.unit (s := S2048x2048) (k0_off31 c) ![512, 256] (k0_off31_inb c)).toLoadRect)) Finset.univ)
              ∗ ((stgM5_0 : Memref sig .tc .vmem S1024x256 .bf16).view.loc (c : Thread nD τ) ↦[(stgM5_0 : Memref sig .tc .vmem S1024x256 .bf16).view.set \ (stgM5_1 : Memref sig .tc .vmem S512x256 .bf16).view.set]{fullShare} (View.write (Elt Ideal) ((Memref.whole cc0_scratch12 : Memref sig .tc .vmem S1024x256 .bf16).access (Rect.unit (s := S1024x256) ![0, 0] ![512, 256] inb_S1024x256_S512x256_0_0)) fs (k0_pay36 (F := Ideal) ((Memref.whole cc0_scratch0 : Memref sig .tc .vmem S2048x2048 .f32).view.readCov [⟨Rect.unit (s := S2048x2048) (k0_off31 c) ![512, 256] (k0_off31_inb c), k0_pay35 (F := Ideal) (View.readAt (Elt Ideal) (Memref.whole cc0_scratch0 : Memref sig .tc .vmem S2048x2048 .f32).view (Rect.unit (s := S2048x2048) (k0_off31 c) ![512, 256] (k0_off31_inb c)).toLoadRect f3) (View.readAt (Elt Ideal) (Memref.whole cc0_scratch6 : Memref sig .tc .vmem S1792x256 .bf16).view (Rect.unit (s := S1792x256) (k0_off32 c) ![512, 256] (k0_off32_inb c)).toLoadRect fl)⟩] (Rect.unit (s := S2048x2048) (k0_off31 c) ![512, 256] (k0_off31_inb c)).toLoadRect)) Finset.univ))))) := by
  iintro ⟨Hpre, %hA⟩
  have hJ1 : J1 A B 5 256 c f3 := hA.get5
  have hpost : ∀ r : (Σ' (v520 : BitVec 32), BitVec 32), (iprop(⌜r = ⟨Scalar.addi v163 (Scalar.muli v6 512#32), Scalar.xori v2 1#32⟩⌝
            ∗ (∃ (fl : Buf (Elt Ideal) ((commM5_0 : Memref sig .tc .vmem S1024x256 .bf16).view.loc (c : Thread nD τ))) (fs : Buf (Elt Ideal) ((stgM5_0 : Memref sig .tc .vmem S1024x256 .bf16).view.loc (c : Thread nD τ))), ⌜(Vreal A B).rs5_0 (nbr 2 c) ((commM5_0 : Memref sig .tc .vmem S1024x256 .bf16).view.read (Elt Ideal) fl)⌝
              ∗ heldW c (commM5_0 : Memref sig .tc .vmem S1024x256 .bf16) fl
              ∗ owes (c : Thread nD τ) (Owe c 14) (insert ((CK.rsR 5 0).sem, ()) (insert ((CK.rsS 5 0).sem, ()) W))
              ∗ atPos ER (cell c (.rsS 5 0)) 1 ∅ 0 ∗ atPos ER (cell c (.rsR 5 0)) 1 ∅ 0
              ∗ heldW c (Memref.whole cc0_scratch0 : Memref sig .tc .vmem S2048x2048 .f32) ((Memref.whole cc0_scratch0 : Memref sig .tc .vmem S2048x2048 .f32).view.writes (Elt Ideal) f3 [⟨Rect.unit (s := S2048x2048) (k0_off31 c) ![512, 256] (k0_off31_inb c), k0_pay35 (F := Ideal) (View.readAt (Elt Ideal) (Memref.whole cc0_scratch0 : Memref sig .tc .vmem S2048x2048 .f32).view (Rect.unit (s := S2048x2048) (k0_off31 c) ![512, 256] (k0_off31_inb c)).toLoadRect f3) (View.readAt (Elt Ideal) (Memref.whole cc0_scratch6 : Memref sig .tc .vmem S1792x256 .bf16).view (Rect.unit (s := S1792x256) (k0_off32 c) ![512, 256] (k0_off32_inb c)).toLoadRect fl)⟩])
              ∗ heldW c (stgM5_1 : Memref sig .tc .vmem S512x256 .bf16) (View.write (Elt Ideal) ((Memref.whole cc0_scratch12 : Memref sig .tc .vmem S1024x256 .bf16).access (Rect.unit (s := S1024x256) ![0, 0] ![512, 256] inb_S1024x256_S512x256_0_0)) fs (k0_pay36 (F := Ideal) ((Memref.whole cc0_scratch0 : Memref sig .tc .vmem S2048x2048 .f32).view.readCov [⟨Rect.unit (s := S2048x2048) (k0_off31 c) ![512, 256] (k0_off31_inb c), k0_pay35 (F := Ideal) (View.readAt (Elt Ideal) (Memref.whole cc0_scratch0 : Memref sig .tc .vmem S2048x2048 .f32).view (Rect.unit (s := S2048x2048) (k0_off31 c) ![512, 256] (k0_off31_inb c)).toLoadRect f3) (View.readAt (Elt Ideal) (Memref.whole cc0_scratch6 : Memref sig .tc .vmem S1792x256 .bf16).view (Rect.unit (s := S1792x256) (k0_off32 c) ![512, 256] (k0_off32_inb c)).toLoadRect fl)⟩] (Rect.unit (s := S2048x2048) (k0_off31 c) ![512, 256] (k0_off31_inb c)).toLoadRect)) Finset.univ)
              ∗ ((stgM5_0 : Memref sig .tc .vmem S1024x256 .bf16).view.loc (c : Thread nD τ) ↦[(stgM5_0 : Memref sig .tc .vmem S1024x256 .bf16).view.set \ (stgM5_1 : Memref sig .tc .vmem S512x256 .bf16).view.set]{fullShare} (View.write (Elt Ideal) ((Memref.whole cc0_scratch12 : Memref sig .tc .vmem S1024x256 .bf16).access (Rect.unit (s := S1024x256) ![0, 0] ![512, 256] inb_S1024x256_S512x256_0_0)) fs (k0_pay36 (F := Ideal) ((Memref.whole cc0_scratch0 : Memref sig .tc .vmem S2048x2048 .f32).view.readCov [⟨Rect.unit (s := S2048x2048) (k0_off31 c) ![512, 256] (k0_off31_inb c), k0_pay35 (F := Ideal) (View.readAt (Elt Ideal) (Memref.whole cc0_scratch0 : Memref sig .tc .vmem S2048x2048 .f32).view (Rect.unit (s := S2048x2048) (k0_off31 c) ![512, 256] (k0_off31_inb c)).toLoadRect f3) (View.readAt (Elt Ideal) (Memref.whole cc0_scratch6 : Memref sig .tc .vmem S1792x256 .bf16).view (Rect.unit (s := S1792x256) (k0_off32 c) ![512, 256] (k0_off32_inb c)).toLoadRect fl)⟩] (Rect.unit (s := S2048x2048) (k0_off31 c) ![512, 256] (k0_off31_inb c)).toLoadRect)) Finset.univ)))) : sProp 𝕄) ⊢ iprop(⌜r = ⟨Scalar.addi v163 (Scalar.muli v6 512#32), Scalar.xori v2 1#32⟩⌝
            ∗ (∃ (fl : Buf (Elt Ideal) ((commM5_0 : Memref sig .tc .vmem S1024x256 .bf16).view.loc (c : Thread nD τ))) (fs : Buf (Elt Ideal) ((stgM5_0 : Memref sig .tc .vmem S1024x256 .bf16).view.loc (c : Thread nD τ))), ⌜(Vreal A B).rs5_0 (nbr 2 c) ((commM5_0 : Memref sig .tc .vmem S1024x256 .bf16).view.read (Elt Ideal) fl)⌝ ∗ ⌜AccInv A B c ![2, 2, 2, 2, 2, 6] ((Memref.whole cc0_scratch0 : Memref sig .tc .vmem S2048x2048 .f32).view.writes (Elt Ideal) f3 [⟨Rect.unit (s := S2048x2048) (k0_off31 c) ![512, 256] (k0_off31_inb c), k0_pay35 (F := Ideal) (View.readAt (Elt Ideal) (Memref.whole cc0_scratch0 : Memref sig .tc .vmem S2048x2048 .f32).view (Rect.unit (s := S2048x2048) (k0_off31 c) ![512, 256] (k0_off31_inb c)).toLoadRect f3) (View.readAt (Elt Ideal) (Memref.whole cc0_scratch6 : Memref sig .tc .vmem S1792x256 .bf16).view (Rect.unit (s := S1792x256) (k0_off32 c) ![512, 256] (k0_off32_inb c)).toLoadRect fl)⟩])⌝ ∗ ⌜(Vreal A B).rs5_1 c ((stgM5_1 : Memref sig .tc .vmem S512x256 .bf16).view.read (Elt Ideal) (View.write (Elt Ideal) ((Memref.whole cc0_scratch12 : Memref sig .tc .vmem S1024x256 .bf16).access (Rect.unit (s := S1024x256) ![0, 0] ![512, 256] inb_S1024x256_S512x256_0_0)) fs (k0_pay36 (F := Ideal) ((Memref.whole cc0_scratch0 : Memref sig .tc .vmem S2048x2048 .f32).view.readCov [⟨Rect.unit (s := S2048x2048) (k0_off31 c) ![512, 256] (k0_off31_inb c), k0_pay35 (F := Ideal) (View.readAt (Elt Ideal) (Memref.whole cc0_scratch0 : Memref sig .tc .vmem S2048x2048 .f32).view (Rect.unit (s := S2048x2048) (k0_off31 c) ![512, 256] (k0_off31_inb c)).toLoadRect f3) (View.readAt (Elt Ideal) (Memref.whole cc0_scratch6 : Memref sig .tc .vmem S1792x256 .bf16).view (Rect.unit (s := S1792x256) (k0_off32 c) ![512, 256] (k0_off32_inb c)).toLoadRect fl)⟩] (Rect.unit (s := S2048x2048) (k0_off31 c) ![512, 256] (k0_off31_inb c)).toLoadRect)) Finset.univ))⌝
              ∗ heldW c (commM5_0 : Memref sig .tc .vmem S1024x256 .bf16) fl
              ∗ owes (c : Thread nD τ) (Owe c 14) (insert ((CK.rsR 5 0).sem, ()) (insert ((CK.rsS 5 0).sem, ()) W))
              ∗ atPos ER (cell c (.rsS 5 0)) 1 ∅ 0 ∗ atPos ER (cell c (.rsR 5 0)) 1 ∅ 0
              ∗ heldW c (Memref.whole cc0_scratch0 : Memref sig .tc .vmem S2048x2048 .f32) ((Memref.whole cc0_scratch0 : Memref sig .tc .vmem S2048x2048 .f32).view.writes (Elt Ideal) f3 [⟨Rect.unit (s := S2048x2048) (k0_off31 c) ![512, 256] (k0_off31_inb c), k0_pay35 (F := Ideal) (View.readAt (Elt Ideal) (Memref.whole cc0_scratch0 : Memref sig .tc .vmem S2048x2048 .f32).view (Rect.unit (s := S2048x2048) (k0_off31 c) ![512, 256] (k0_off31_inb c)).toLoadRect f3) (View.readAt (Elt Ideal) (Memref.whole cc0_scratch6 : Memref sig .tc .vmem S1792x256 .bf16).view (Rect.unit (s := S1792x256) (k0_off32 c) ![512, 256] (k0_off32_inb c)).toLoadRect fl)⟩])
              ∗ heldW c (stgM5_1 : Memref sig .tc .vmem S512x256 .bf16) (View.write (Elt Ideal) ((Memref.whole cc0_scratch12 : Memref sig .tc .vmem S1024x256 .bf16).access (Rect.unit (s := S1024x256) ![0, 0] ![512, 256] inb_S1024x256_S512x256_0_0)) fs (k0_pay36 (F := Ideal) ((Memref.whole cc0_scratch0 : Memref sig .tc .vmem S2048x2048 .f32).view.readCov [⟨Rect.unit (s := S2048x2048) (k0_off31 c) ![512, 256] (k0_off31_inb c), k0_pay35 (F := Ideal) (View.readAt (Elt Ideal) (Memref.whole cc0_scratch0 : Memref sig .tc .vmem S2048x2048 .f32).view (Rect.unit (s := S2048x2048) (k0_off31 c) ![512, 256] (k0_off31_inb c)).toLoadRect f3) (View.readAt (Elt Ideal) (Memref.whole cc0_scratch6 : Memref sig .tc .vmem S1792x256 .bf16).view (Rect.unit (s := S1792x256) (k0_off32 c) ![512, 256] (k0_off32_inb c)).toLoadRect fl)⟩] (Rect.unit (s := S2048x2048) (k0_off31 c) ![512, 256] (k0_off31_inb c)).toLoadRect)) Finset.univ)
              ∗ ((stgM5_0 : Memref sig .tc .vmem S1024x256 .bf16).view.loc (c : Thread nD τ) ↦[(stgM5_0 : Memref sig .tc .vmem S1024x256 .bf16).view.set \ (stgM5_1 : Memref sig .tc .vmem S512x256 .bf16).view.set]{fullShare} (View.write (Elt Ideal) ((Memref.whole cc0_scratch12 : Memref sig .tc .vmem S1024x256 .bf16).access (Rect.unit (s := S1024x256) ![0, 0] ![512, 256] inb_S1024x256_S512x256_0_0)) fs (k0_pay36 (F := Ideal) ((Memref.whole cc0_scratch0 : Memref sig .tc .vmem S2048x2048 .f32).view.readCov [⟨Rect.unit (s := S2048x2048) (k0_off31 c) ![512, 256] (k0_off31_inb c), k0_pay35 (F := Ideal) (View.readAt (Elt Ideal) (Memref.whole cc0_scratch0 : Memref sig .tc .vmem S2048x2048 .f32).view (Rect.unit (s := S2048x2048) (k0_off31 c) ![512, 256] (k0_off31_inb c)).toLoadRect f3) (View.readAt (Elt Ideal) (Memref.whole cc0_scratch6 : Memref sig .tc .vmem S1792x256 .bf16).view (Rect.unit (s := S1792x256) (k0_off32 c) ![512, 256] (k0_off32_inb c)).toLoadRect fl)⟩] (Rect.unit (s := S2048x2048) (k0_off31 c) ![512, 256] (k0_off31_inb c)).toLoadRect)) Finset.univ)))) := by
    intro r
    iintro ⟨%hr, H⟩
    icases H with ⟨%fl, %fs, %hX, H⟩
    isplitr; · ipureintro; exact hr
    iexists fl, fs
    isplitr; · ipureintro; exact hX
    isplitr
    · ipureintro
      exact AccInv.mk6
        (LJ_cons (k := 0) (k0_off31_inb c) _ _ (off31_eq c) (Or.inr (show colLo (0 : Fin 6).val + wOf 0 ≤ 1792 from by decide)) (LJ_nil hA.get0))
        (LJ_cons (k := 1) (k0_off31_inb c) _ _ (off31_eq c) (Or.inr (show colLo (1 : Fin 6).val + wOf 1 ≤ 1792 from by decide)) (LJ_nil hA.get1))
        (LJ_cons (k := 2) (k0_off31_inb c) _ _ (off31_eq c) (Or.inr (show colLo (2 : Fin 6).val + wOf 2 ≤ 1792 from by decide)) (LJ_nil hA.get2))
        (LJ_cons (k := 3) (k0_off31_inb c) _ _ (off31_eq c) (Or.inr (show colLo (3 : Fin 6).val + wOf 3 ≤ 1792 from by decide)) (LJ_nil hA.get3))
        (LJ_cons (k := 4) (k0_off31_inb c) _ _ (off31_eq c) (Or.inr (show colLo (4 : Fin 6).val + wOf 4 ≤ 1792 from by decide)) (LJ_nil hA.get4))
        (J1q_cons A B (k0_off31_inb c) _ [] (off31_eq c)
          (Or.inr (by
            show (cz c * 1024 + (1 - cx c) * 512) + 512 ≤ cz c * 1024 + cx c * 512 ∨ cz c * 1024 + cx c * 512 + 512 ≤ cz c * 1024 + (1 - cx c) * 512
            have := cx_le c
            omega))
          (J1q_nil A B (J1q_of_J1 A B hJ1)))
    isplitr
    · ipureintro
      exact val_rs5_1 A B c fs fl f3 hJ1 hX
    iexact H
  iapply (wp_mono frame (wpE (defs₀ (F := Ideal)) 𝒱₀ c none) Set.univ hpost)
  iapply (part17_run (Vreal A B) c κw κv W v2 v6 v154 v163 f3)
  iexact Hpre

include hagree in
/-- Stretch 18 with its value facts derived. -/
theorem part18_real (c : Dev nD) (κs κr κw : ℕ) (W : Waits sig Unit) (v163 v269 v520 v539 : BitVec 32)
    (f3 : Buf (Elt Ideal) ((Memref.whole cc0_scratch0 : Memref sig .tc .vmem S2048x2048 .f32).view.loc (c : Thread nD τ)))
    (f9 : Buf (Elt Ideal) ((commM5_0 : Memref sig .tc .vmem S1024x256 .bf16).view.loc (c : Thread nD τ)))
    (f15 : Buf (Elt Ideal) ((stgM5_1 : Memref sig .tc .vmem S512x256 .bf16).view.loc (c : Thread nD τ))) :
    iprop(iprop(cellInv ER (sched (Vreal A B)) κs (cell c (.rsS 5 1)) ∗ cellInv ER (sched (Vreal A B)) κr (cell (nbr 0 c) (.rsR 5 1))
        ∗ reached ER (cell c (.rsS 5 1)) 0 ∗ reached ER (cell (nbr 0 c) (.rsR 5 1)) 0
        ∗ dutyTok ER (cell c (.rsS 5 1)) 0 (0 : Fin 3) ∗ dutyTok ER (cell (nbr 0 c) (.rsR 5 1)) 0 (0 : Fin 3)
        ∗ ptsAny (F := Ideal) (nbr 0 c) commM5_1
        ∗ owes (c : Thread nD τ) (Owe c 14) W
        ∗ heldW c (stgM5_1 : Memref sig .tc .vmem S512x256 .bf16) f15
        ∗ heldW c (Memref.whole cc0_scratch0 : Memref sig .tc .vmem S2048x2048 .f32) f3
        ∗ heldW c (commM5_0 : Memref sig .tc .vmem S1024x256 .bf16) f9
        ∗ cellInv ER (sched (Vreal A B)) κw (cell c (.rsS 0 1)) ∗ cred (tallyAt (cell c (.rsS 0 1)) () (amt (.rsS 0 1))) ∗ levAts L lv ∗ atPos ER (cell c (.rsS 0 1)) 0 ∅ 0) ∗ ⌜AccInv A B c ![2, 2, 2, 2, 2, 6] f3⌝ ∗ ⌜(Vreal A B).rs5_1 c ((stgM5_1 : Memref sig .tc .vmem S512x256 .bf16).view.read (Elt Ideal) f15)⌝ ∗ ⌜(Vreal A B).rs5_0 (nbr 2 c) ((commM5_0 : Memref sig .tc .vmem S1024x256 .bf16).view.read (Elt Ideal) f9)⌝)
      ⊢ wp frame (wpE (defs₀ (F := Ideal)) 𝒱₀ c none) Set.univ
          (k0_part18 (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23 c v163 v269 v520 v539)
          (fun r => iprop((⌜r = ⟨⟩⌝ ∗ cred (tallyAt (cell c (.rsS 5 1)) () (amt (.rsR 5 1))) ∗ owes (c : Thread nD τ) (Owe c 15) (insert ((CK.rsS 0 1).sem, ()) W)
            ∗ heldW c (Memref.whole cc0_scratch0 : Memref sig .tc .vmem S2048x2048 .f32) ((Memref.whole cc0_scratch0 : Memref sig .tc .vmem S2048x2048 .f32).view.writes (Elt Ideal) f3
                [⟨Rect.unit (s := S2048x2048) (k0_off33 c) S512x256.size (k0_off33_inb c),
                  k0_pay37 (F := Ideal) (View.readAt (Elt Ideal) (Memref.whole cc0_scratch0 : Memref sig .tc .vmem S2048x2048 .f32).view (Rect.unit (s := S2048x2048) (k0_off33 c) S512x256.size (k0_off33_inb c)).toLoadRect f3)
                    (View.readAt (Elt Ideal) (Memref.whole cc0_scratch6 : Memref sig .tc .vmem S1792x256 .bf16).view (Rect.unit (s := S1792x256) (k0_off34 c) S512x256.size (k0_off34_inb c)).toLoadRect f9)⟩])
            ∗ heldW c (commM5_0 : Memref sig .tc .vmem S1024x256 .bf16) f9
            ∗ atPos ER (cell c (.rsS 0 1)) 1 ∅ 0 ∗ ptsAny (F := Ideal) c stgM0_1) ∗ ⌜AccInv A B c ![2, 2, 2, 2, 2, 2] ((Memref.whole cc0_scratch0 : Memref sig .tc .vmem S2048x2048 .f32).view.writes (Elt Ideal) f3
                [⟨Rect.unit (s := S2048x2048) (k0_off33 c) S512x256.size (k0_off33_inb c),
                  k0_pay37 (F := Ideal) (View.readAt (Elt Ideal) (Memref.whole cc0_scratch0 : Memref sig .tc .vmem S2048x2048 .f32).view (Rect.unit (s := S2048x2048) (k0_off33 c) S512x256.size (k0_off33_inb c)).toLoadRect f3)
                    (View.readAt (Elt Ideal) (Memref.whole cc0_scratch6 : Memref sig .tc .vmem S1792x256 .bf16).view (Rect.unit (s := S1792x256) (k0_off34 c) S512x256.size (k0_off34_inb c)).toLoadRect f9)⟩])⌝)) := by
  iintro ⟨Hpre, %hA, %hin, %hl⟩
  have hout : AccInv A B c ![2, 2, 2, 2, 2, 2] ((Memref.whole cc0_scratch0 : Memref sig .tc .vmem S2048x2048 .f32).view.writes (Elt Ideal) f3
                [⟨Rect.unit (s := S2048x2048) (k0_off33 c) S512x256.size (k0_off33_inb c),
                  k0_pay37 (F := Ideal) (View.readAt (Elt Ideal) (Memref.whole cc0_scratch0 : Memref sig .tc .vmem S2048x2048 .f32).view (Rect.unit (s := S2048x2048) (k0_off33 c) S512x256.size (k0_off33_inb c)).toLoadRect f3)
                    (View.readAt (Elt Ideal) (Memref.whole cc0_scratch6 : Memref sig .tc .vmem S1792x256 .bf16).view (Rect.unit (s := S1792x256) (k0_off34 c) S512x256.size (k0_off34_inb c)).toLoadRect f9)⟩]) :=
    AccInv.mk6 (LJ_cons (k := 0) (k0_off33_inb c) _ _ (off33_eq c) (Or.inr (show colLo (0 : Fin 6).val + wOf 0 ≤ 1792 from by decide)) (LJ_nil hA.get0))
      (LJ_cons (k := 1) (k0_off33_inb c) _ _ (off33_eq c) (Or.inr (show colLo (1 : Fin 6).val + wOf 1 ≤ 1792 from by decide)) (LJ_nil hA.get1))
      (LJ_cons (k := 2) (k0_off33_inb c) _ _ (off33_eq c) (Or.inr (show colLo (2 : Fin 6).val + wOf 2 ≤ 1792 from by decide)) (LJ_nil hA.get2))
      (LJ_cons (k := 3) (k0_off33_inb c) _ _ (off33_eq c) (Or.inr (show colLo (3 : Fin 6).val + wOf 3 ≤ 1792 from by decide)) (LJ_nil hA.get3))
      (LJ_cons (k := 4) (k0_off33_inb c) _ _ (off33_eq c) (Or.inr (show colLo (4 : Fin 6).val + wOf 4 ≤ 1792 from by decide)) (LJ_nil hA.get4))
      (J2_5_stored' A B c f3 f9 hA.get5 hl)
  iapply (wp_mono frame (wpE (defs₀ (F := Ideal)) 𝒱₀ c none) Set.univ (fun r => by
    iintro H
    isplitl [H]; · iexact H
    ipureintro; exact hout))
  iapply (part18_run (Vreal A B) c κs κr κw W v163 v269 v520 v539 f3 f9 f15 hin)
  iexact Hpre

include hagree in
/-- Stretch 19 with its value facts derived. -/
theorem part19_real (c : Dev nD) (κw : ℕ) (W : Waits sig Unit) (v2 v9 v250 : BitVec 32)
    (f3 : Buf (Elt Ideal) ((Memref.whole cc0_scratch0 : Memref sig .tc .vmem S2048x2048 .f32).view.loc (c : Thread nD τ)))
    (f10 : Buf (Elt Ideal) ((stgM0_1 : Memref sig .tc .vmem S512x384 .bf16).view.loc (c : Thread nD τ))) :
    iprop(iprop(cellInv ER (sched (Vreal A B)) κw (cell c (.rsR 0 1)) ∗ cred (tallyAt (cell c (.rsR 0 1)) () (amt (.rsR 0 1)))
        ∗ owes (c : Thread nD τ) (Owe c 15) W ∗ levAts L lv ∗ atPos ER (cell c (.rsR 0 1)) 0 ∅ 0
        ∗ heldW c (Memref.whole cc0_scratch0 : Memref sig .tc .vmem S2048x2048 .f32) f3
        ∗ heldW c (stgM0_1 : Memref sig .tc .vmem S512x384 .bf16) f10) ∗ ⌜AccInv A B c ![2, 2, 2, 2, 2, 2] f3⌝)
      ⊢ wp frame (wpE (defs₀ (F := Ideal)) 𝒱₀ c none) Set.univ
          (k0_part19 (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23 c v2 v9 v250)
          (fun r => iprop(⌜r = ⟨Scalar.addi v250 (Scalar.muli v9 256#32), Scalar.xori v2 4#32⟩⌝ ∗ (∃ fl : Buf (Elt Ideal) ((commM0_1 : Memref sig .tc .vmem S512x384 .bf16).view.loc (c : Thread nD τ)), ⌜(Vreal A B).rs0_1 (nbr 1 c) ((commM0_1 : Memref sig .tc .vmem S512x384 .bf16).view.read (Elt Ideal) fl)⌝ ∗ ⌜AccInv A B c ![3, 2, 2, 2, 2, 2] ((Memref.whole cc0_scratch0 : Memref sig .tc .vmem S2048x2048 .f32).view.writes (Elt Ideal) f3 [⟨Rect.unit (s := S2048x2048) (k0_off35 c) ![256, 384] (k0_off35_inb c), k0_pay38 (F := Ideal) (View.readAt (Elt Ideal) (Memref.whole cc0_scratch0 : Memref sig .tc .vmem S2048x2048 .f32).view (Rect.unit (s := S2048x2048) (k0_off35 c) ![256, 384] (k0_off35_inb c)).toLoadRect f3) (View.readAt (Elt Ideal) (Memref.whole cc0_scratch1 : Memref sig .tc .vmem S1792x384 .bf16).view (Rect.unit (s := S1792x384) (k0_off36 c) ![256, 384] (k0_off36_inb c)).toLoadRect fl)⟩])⌝ ∗ ⌜(Vreal A B).rs0_2 c ((stgM0_2 : Memref sig .tc .vmem S256x384 .bf16).view.read (Elt Ideal) (View.write (Elt Ideal) ((Memref.whole cc0_scratch7 : Memref sig .tc .vmem S1024x384 .bf16).access (Rect.unit (s := S1024x384) ![0, 0] ![256, 384] inb_S1024x384_S256x384_0_0)) f10 (k0_pay39 (F := Ideal) ((Memref.whole cc0_scratch0 : Memref sig .tc .vmem S2048x2048 .f32).view.readCov [⟨Rect.unit (s := S2048x2048) (k0_off35 c) ![256, 384] (k0_off35_inb c), k0_pay38 (F := Ideal) (View.readAt (Elt Ideal) (Memref.whole cc0_scratch0 : Memref sig .tc .vmem S2048x2048 .f32).view (Rect.unit (s := S2048x2048) (k0_off35 c) ![256, 384] (k0_off35_inb c)).toLoadRect f3) (View.readAt (Elt Ideal) (Memref.whole cc0_scratch1 : Memref sig .tc .vmem S1792x384 .bf16).view (Rect.unit (s := S1792x384) (k0_off36 c) ![256, 384] (k0_off36_inb c)).toLoadRect fl)⟩] (Rect.unit (s := S2048x2048) (k0_off35 c) ![256, 384] (k0_off35_inb c)).toLoadRect)) Finset.univ))⌝
            ∗ heldW c (commM0_1 : Memref sig .tc .vmem S512x384 .bf16) fl
            ∗ owes (c : Thread nD τ) (Owe c 15) (insert ((CK.rsR 0 1).sem, ()) W) ∗ atPos ER (cell c (.rsR 0 1)) 1 ∅ 0
            ∗ heldW c (Memref.whole cc0_scratch0 : Memref sig .tc .vmem S2048x2048 .f32) ((Memref.whole cc0_scratch0 : Memref sig .tc .vmem S2048x2048 .f32).view.writes (Elt Ideal) f3 [⟨Rect.unit (s := S2048x2048) (k0_off35 c) ![256, 384] (k0_off35_inb c), k0_pay38 (F := Ideal) (View.readAt (Elt Ideal) (Memref.whole cc0_scratch0 : Memref sig .tc .vmem S2048x2048 .f32).view (Rect.unit (s := S2048x2048) (k0_off35 c) ![256, 384] (k0_off35_inb c)).toLoadRect f3) (View.readAt (Elt Ideal) (Memref.whole cc0_scratch1 : Memref sig .tc .vmem S1792x384 .bf16).view (Rect.unit (s := S1792x384) (k0_off36 c) ![256, 384] (k0_off36_inb c)).toLoadRect fl)⟩])
            ∗ heldW c (stgM0_1 : Memref sig .tc .vmem S512x384 .bf16) (View.write (Elt Ideal) ((Memref.whole cc0_scratch7 : Memref sig .tc .vmem S1024x384 .bf16).access (Rect.unit (s := S1024x384) ![0, 0] ![256, 384] inb_S1024x384_S256x384_0_0)) f10 (k0_pay39 (F := Ideal) ((Memref.whole cc0_scratch0 : Memref sig .tc .vmem S2048x2048 .f32).view.readCov [⟨Rect.unit (s := S2048x2048) (k0_off35 c) ![256, 384] (k0_off35_inb c), k0_pay38 (F := Ideal) (View.readAt (Elt Ideal) (Memref.whole cc0_scratch0 : Memref sig .tc .vmem S2048x2048 .f32).view (Rect.unit (s := S2048x2048) (k0_off35 c) ![256, 384] (k0_off35_inb c)).toLoadRect f3) (View.readAt (Elt Ideal) (Memref.whole cc0_scratch1 : Memref sig .tc .vmem S1792x384 .bf16).view (Rect.unit (s := S1792x384) (k0_off36 c) ![256, 384] (k0_off36_inb c)).toLoadRect fl)⟩] (Rect.unit (s := S2048x2048) (k0_off35 c) ![256, 384] (k0_off35_inb c)).toLoadRect)) Finset.univ)))) := by
  iintro ⟨Hpre, %hA⟩
  have hJ2 : J2 A B 0 384 c f3 := hA.get0
  have hpost : ∀ r : (Σ' (v574 : BitVec 32), BitVec 32), (iprop(⌜r = ⟨Scalar.addi v250 (Scalar.muli v9 256#32), Scalar.xori v2 4#32⟩⌝ ∗ (∃ fl : Buf (Elt Ideal) ((commM0_1 : Memref sig .tc .vmem S512x384 .bf16).view.loc (c : Thread nD τ)), ⌜(Vreal A B).rs0_1 (nbr 1 c) ((commM0_1 : Memref sig .tc .vmem S512x384 .bf16).view.read (Elt Ideal) fl)⌝
            ∗ heldW c (commM0_1 : Memref sig .tc .vmem S512x384 .bf16) fl
            ∗ owes (c : Thread nD τ) (Owe c 15) (insert ((CK.rsR 0 1).sem, ()) W) ∗ atPos ER (cell c (.rsR 0 1)) 1 ∅ 0
            ∗ heldW c (Memref.whole cc0_scratch0 : Memref sig .tc .vmem S2048x2048 .f32) ((Memref.whole cc0_scratch0 : Memref sig .tc .vmem S2048x2048 .f32).view.writes (Elt Ideal) f3 [⟨Rect.unit (s := S2048x2048) (k0_off35 c) ![256, 384] (k0_off35_inb c), k0_pay38 (F := Ideal) (View.readAt (Elt Ideal) (Memref.whole cc0_scratch0 : Memref sig .tc .vmem S2048x2048 .f32).view (Rect.unit (s := S2048x2048) (k0_off35 c) ![256, 384] (k0_off35_inb c)).toLoadRect f3) (View.readAt (Elt Ideal) (Memref.whole cc0_scratch1 : Memref sig .tc .vmem S1792x384 .bf16).view (Rect.unit (s := S1792x384) (k0_off36 c) ![256, 384] (k0_off36_inb c)).toLoadRect fl)⟩])
            ∗ heldW c (stgM0_1 : Memref sig .tc .vmem S512x384 .bf16) (View.write (Elt Ideal) ((Memref.whole cc0_scratch7 : Memref sig .tc .vmem S1024x384 .bf16).access (Rect.unit (s := S1024x384) ![0, 0] ![256, 384] inb_S1024x384_S256x384_0_0)) f10 (k0_pay39 (F := Ideal) ((Memref.whole cc0_scratch0 : Memref sig .tc .vmem S2048x2048 .f32).view.readCov [⟨Rect.unit (s := S2048x2048) (k0_off35 c) ![256, 384] (k0_off35_inb c), k0_pay38 (F := Ideal) (View.readAt (Elt Ideal) (Memref.whole cc0_scratch0 : Memref sig .tc .vmem S2048x2048 .f32).view (Rect.unit (s := S2048x2048) (k0_off35 c) ![256, 384] (k0_off35_inb c)).toLoadRect f3) (View.readAt (Elt Ideal) (Memref.whole cc0_scratch1 : Memref sig .tc .vmem S1792x384 .bf16).view (Rect.unit (s := S1792x384) (k0_off36 c) ![256, 384] (k0_off36_inb c)).toLoadRect fl)⟩] (Rect.unit (s := S2048x2048) (k0_off35 c) ![256, 384] (k0_off35_inb c)).toLoadRect)) Finset.univ))) : sProp 𝕄) ⊢ iprop(⌜r = ⟨Scalar.addi v250 (Scalar.muli v9 256#32), Scalar.xori v2 4#32⟩⌝ ∗ (∃ fl : Buf (Elt Ideal) ((commM0_1 : Memref sig .tc .vmem S512x384 .bf16).view.loc (c : Thread nD τ)), ⌜(Vreal A B).rs0_1 (nbr 1 c) ((commM0_1 : Memref sig .tc .vmem S512x384 .bf16).view.read (Elt Ideal) fl)⌝ ∗ ⌜AccInv A B c ![3, 2, 2, 2, 2, 2] ((Memref.whole cc0_scratch0 : Memref sig .tc .vmem S2048x2048 .f32).view.writes (Elt Ideal) f3 [⟨Rect.unit (s := S2048x2048) (k0_off35 c) ![256, 384] (k0_off35_inb c), k0_pay38 (F := Ideal) (View.readAt (Elt Ideal) (Memref.whole cc0_scratch0 : Memref sig .tc .vmem S2048x2048 .f32).view (Rect.unit (s := S2048x2048) (k0_off35 c) ![256, 384] (k0_off35_inb c)).toLoadRect f3) (View.readAt (Elt Ideal) (Memref.whole cc0_scratch1 : Memref sig .tc .vmem S1792x384 .bf16).view (Rect.unit (s := S1792x384) (k0_off36 c) ![256, 384] (k0_off36_inb c)).toLoadRect fl)⟩])⌝ ∗ ⌜(Vreal A B).rs0_2 c ((stgM0_2 : Memref sig .tc .vmem S256x384 .bf16).view.read (Elt Ideal) (View.write (Elt Ideal) ((Memref.whole cc0_scratch7 : Memref sig .tc .vmem S1024x384 .bf16).access (Rect.unit (s := S1024x384) ![0, 0] ![256, 384] inb_S1024x384_S256x384_0_0)) f10 (k0_pay39 (F := Ideal) ((Memref.whole cc0_scratch0 : Memref sig .tc .vmem S2048x2048 .f32).view.readCov [⟨Rect.unit (s := S2048x2048) (k0_off35 c) ![256, 384] (k0_off35_inb c), k0_pay38 (F := Ideal) (View.readAt (Elt Ideal) (Memref.whole cc0_scratch0 : Memref sig .tc .vmem S2048x2048 .f32).view (Rect.unit (s := S2048x2048) (k0_off35 c) ![256, 384] (k0_off35_inb c)).toLoadRect f3) (View.readAt (Elt Ideal) (Memref.whole cc0_scratch1 : Memref sig .tc .vmem S1792x384 .bf16).view (Rect.unit (s := S1792x384) (k0_off36 c) ![256, 384] (k0_off36_inb c)).toLoadRect fl)⟩] (Rect.unit (s := S2048x2048) (k0_off35 c) ![256, 384] (k0_off35_inb c)).toLoadRect)) Finset.univ))⌝
            ∗ heldW c (commM0_1 : Memref sig .tc .vmem S512x384 .bf16) fl
            ∗ owes (c : Thread nD τ) (Owe c 15) (insert ((CK.rsR 0 1).sem, ()) W) ∗ atPos ER (cell c (.rsR 0 1)) 1 ∅ 0
            ∗ heldW c (Memref.whole cc0_scratch0 : Memref sig .tc .vmem S2048x2048 .f32) ((Memref.whole cc0_scratch0 : Memref sig .tc .vmem S2048x2048 .f32).view.writes (Elt Ideal) f3 [⟨Rect.unit (s := S2048x2048) (k0_off35 c) ![256, 384] (k0_off35_inb c), k0_pay38 (F := Ideal) (View.readAt (Elt Ideal) (Memref.whole cc0_scratch0 : Memref sig .tc .vmem S2048x2048 .f32).view (Rect.unit (s := S2048x2048) (k0_off35 c) ![256, 384] (k0_off35_inb c)).toLoadRect f3) (View.readAt (Elt Ideal) (Memref.whole cc0_scratch1 : Memref sig .tc .vmem S1792x384 .bf16).view (Rect.unit (s := S1792x384) (k0_off36 c) ![256, 384] (k0_off36_inb c)).toLoadRect fl)⟩])
            ∗ heldW c (stgM0_1 : Memref sig .tc .vmem S512x384 .bf16) (View.write (Elt Ideal) ((Memref.whole cc0_scratch7 : Memref sig .tc .vmem S1024x384 .bf16).access (Rect.unit (s := S1024x384) ![0, 0] ![256, 384] inb_S1024x384_S256x384_0_0)) f10 (k0_pay39 (F := Ideal) ((Memref.whole cc0_scratch0 : Memref sig .tc .vmem S2048x2048 .f32).view.readCov [⟨Rect.unit (s := S2048x2048) (k0_off35 c) ![256, 384] (k0_off35_inb c), k0_pay38 (F := Ideal) (View.readAt (Elt Ideal) (Memref.whole cc0_scratch0 : Memref sig .tc .vmem S2048x2048 .f32).view (Rect.unit (s := S2048x2048) (k0_off35 c) ![256, 384] (k0_off35_inb c)).toLoadRect f3) (View.readAt (Elt Ideal) (Memref.whole cc0_scratch1 : Memref sig .tc .vmem S1792x384 .bf16).view (Rect.unit (s := S1792x384) (k0_off36 c) ![256, 384] (k0_off36_inb c)).toLoadRect fl)⟩] (Rect.unit (s := S2048x2048) (k0_off35 c) ![256, 384] (k0_off35_inb c)).toLoadRect)) Finset.univ))) := by
    intro r
    iintro ⟨%hr, H⟩
    icases H with ⟨%fl, %hX, H⟩
    isplitr; · ipureintro; exact hr
    iexists fl
    isplitr; · ipureintro; exact hX
    isplitr
    · ipureintro
      exact AccInv.mk6
        (J2e_cons A B (k0_off35_inb c) _ [] (off35_eq c)
          (Or.inr (by
            show (cx c * 1024 + cy c * 512 + (1 - cz c) * 256) + 256 ≤ cx c * 1024 + cy c * 512 + cz c * 256 ∨ cx c * 1024 + cy c * 512 + cz c * 256 + 256 ≤ cx c * 1024 + cy c * 512 + (1 - cz c) * 256
            have := cz_le c
            omega))
          (J2e_nil A B (J2e_of_J2 A B hJ2)))
        (LJ_cons (k := 1) (k0_off35_inb c) _ _ (off35_eq c) (Or.inl (show 0 + 384 ≤ colLo (1 : Fin 6).val from by decide)) (LJ_nil hA.get1))
        (LJ_cons (k := 2) (k0_off35_inb c) _ _ (off35_eq c) (Or.inl (show 0 + 384 ≤ colLo (2 : Fin 6).val from by decide)) (LJ_nil hA.get2))
        (LJ_cons (k := 3) (k0_off35_inb c) _ _ (off35_eq c) (Or.inl (show 0 + 384 ≤ colLo (3 : Fin 6).val from by decide)) (LJ_nil hA.get3))
        (LJ_cons (k := 4) (k0_off35_inb c) _ _ (off35_eq c) (Or.inl (show 0 + 384 ≤ colLo (4 : Fin 6).val from by decide)) (LJ_nil hA.get4))
        (LJ_cons (k := 5) (k0_off35_inb c) _ _ (off35_eq c) (Or.inl (show 0 + 384 ≤ colLo (5 : Fin 6).val from by decide)) (LJ_nil hA.get5))
    isplitr
    · ipureintro
      exact val_rs0_2 A B c f10 fl f3 hJ2 hX
    iexact H
  iapply (wp_mono frame (wpE (defs₀ (F := Ideal)) 𝒱₀ c none) Set.univ hpost)
  iapply (part19_run (Vreal A B) c κw W v2 v9 v250 f3 f10)
  iexact Hpre

include hagree in
/-- Stretch 20 with its value facts derived. -/
theorem part20_real (c : Dev nD) (κs κr κw κv : ℕ) (W : Waits sig Unit) (v6 v250 v304 v323 v574 : BitVec 32)
    (f3 : Buf (Elt Ideal) ((Memref.whole cc0_scratch0 : Memref sig .tc .vmem S2048x2048 .f32).view.loc (c : Thread nD τ)))
    (f10 : Buf (Elt Ideal) ((stgM0_1 : Memref sig .tc .vmem S512x384 .bf16).view.loc (c : Thread nD τ)))
    (fl : Buf (Elt Ideal) ((commM0_1 : Memref sig .tc .vmem S512x384 .bf16).view.loc (c : Thread nD τ))) :
    iprop(iprop(cellInv ER (sched (Vreal A B)) κs (cell c (.rsS 0 2)) ∗ cellInv ER (sched (Vreal A B)) κr (cell (nbr 2 c) (.rsR 0 2))
        ∗ reached ER (cell c (.rsS 0 2)) 0 ∗ reached ER (cell (nbr 2 c) (.rsR 0 2)) 0
        ∗ dutyTok ER (cell c (.rsS 0 2)) 0 (0 : Fin 3) ∗ dutyTok ER (cell (nbr 2 c) (.rsR 0 2)) 0 (0 : Fin 3)
        ∗ ptsAny (F := Ideal) (nbr 2 c) commM0_2
        ∗ owes (c : Thread nD τ) (Owe c 15) W
        ∗ heldW c (stgM0_1 : Memref sig .tc .vmem S512x384 .bf16) f10
        ∗ heldW c (Memref.whole cc0_scratch0 : Memref sig .tc .vmem S2048x2048 .f32) f3
        ∗ heldW c (commM0_1 : Memref sig .tc .vmem S512x384 .bf16) fl
        ∗ levAts L lv
        ∗ cellInv ER (sched (Vreal A B)) κw (cell c (.rsS 1 1)) ∗ cred (tallyAt (cell c (.rsS 1 1)) () (amt (.rsS 1 1))) ∗ atPos ER (cell c (.rsS 1 1)) 0 ∅ 0
        ∗ cellInv ER (sched (Vreal A B)) κv (cell c (.rsR 1 1)) ∗ cred (tallyAt (cell c (.rsR 1 1)) () (amt (.rsR 1 1))) ∗ atPos ER (cell c (.rsR 1 1)) 0 ∅ 0) ∗ ⌜AccInv A B c ![3, 2, 2, 2, 2, 2] f3⌝ ∗ ⌜(Vreal A B).rs0_2 c ((stgM0_2 : Memref sig .tc .vmem S256x384 .bf16).view.read (Elt Ideal) f10)⌝ ∗ ⌜(Vreal A B).rs0_1 (nbr 1 c) ((commM0_1 : Memref sig .tc .vmem S512x384 .bf16).view.read (Elt Ideal) fl)⌝)
      ⊢ wp frame (wpE (defs₀ (F := Ideal)) 𝒱₀ c none) Set.univ
          (k0_part20 (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23 c v6 v250 v304 v323 v574)
          (fun r => iprop((⌜r = ⟨Scalar.addi v304 (Scalar.muli (Scalar.subi (1#32) v6) 256#32), Scalar.addi v304 (Scalar.muli v6 256#32)⟩⌝ ∗ cred (tallyAt (cell c (.rsS 0 2)) () (amt (.rsR 0 2)))
            ∗ owes (c : Thread nD τ) (Owe c 16) (insert ((CK.rsR 1 1).sem, ()) (insert ((CK.rsS 1 1).sem, ()) W))
            ∗ heldW c (Memref.whole cc0_scratch0 : Memref sig .tc .vmem S2048x2048 .f32) ((Memref.whole cc0_scratch0 : Memref sig .tc .vmem S2048x2048 .f32).view.writes (Elt Ideal) f3 [⟨Rect.unit (s := S2048x2048) (k0_off37 c) ![256, 384] (k0_off37_inb c), k0_pay40 (F := Ideal) (View.readAt (Elt Ideal) (Memref.whole cc0_scratch0 : Memref sig .tc .vmem S2048x2048 .f32).view (Rect.unit (s := S2048x2048) (k0_off37 c) ![256, 384] (k0_off37_inb c)).toLoadRect f3) (View.readAt (Elt Ideal) (Memref.whole cc0_scratch1 : Memref sig .tc .vmem S1792x384 .bf16).view (Rect.unit (s := S1792x384) (k0_off38 c) ![256, 384] (k0_off38_inb c)).toLoadRect fl)⟩])
            ∗ heldW c (commM0_1 : Memref sig .tc .vmem S512x384 .bf16) fl
            ∗ ((stgM0_1 : Memref sig .tc .vmem S512x384 .bf16).view.loc (c : Thread nD τ) ↦[(stgM0_1 : Memref sig .tc .vmem S512x384 .bf16).view.set \ (stgM0_2 : Memref sig .tc .vmem S256x384 .bf16).view.set]{fullShare} f10)
            ∗ atPos ER (cell c (.rsS 1 1)) 1 ∅ 0 ∗ atPos ER (cell c (.rsR 1 1)) 1 ∅ 0
            ∗ ptsAny (F := Ideal) c stgM1_1 ∗ ptsIs c commM1_1 ((Vreal A B).rs1_1 (nbr 2 c))) ∗ ⌜AccInv A B c ![4, 2, 2, 2, 2, 2] ((Memref.whole cc0_scratch0 : Memref sig .tc .vmem S2048x2048 .f32).view.writes (Elt Ideal) f3 [⟨Rect.unit (s := S2048x2048) (k0_off37 c) ![256, 384] (k0_off37_inb c), k0_pay40 (F := Ideal) (View.readAt (Elt Ideal) (Memref.whole cc0_scratch0 : Memref sig .tc .vmem S2048x2048 .f32).view (Rect.unit (s := S2048x2048) (k0_off37 c) ![256, 384] (k0_off37_inb c)).toLoadRect f3) (View.readAt (Elt Ideal) (Memref.whole cc0_scratch1 : Memref sig .tc .vmem S1792x384 .bf16).view (Rect.unit (s := S1792x384) (k0_off38 c) ![256, 384] (k0_off38_inb c)).toLoadRect fl)⟩])⌝)) := by
  iintro ⟨Hpre, %hA, %hin, %hl⟩
  have hout : AccInv A B c ![4, 2, 2, 2, 2, 2] ((Memref.whole cc0_scratch0 : Memref sig .tc .vmem S2048x2048 .f32).view.writes (Elt Ideal) f3 [⟨Rect.unit (s := S2048x2048) (k0_off37 c) ![256, 384] (k0_off37_inb c), k0_pay40 (F := Ideal) (View.readAt (Elt Ideal) (Memref.whole cc0_scratch0 : Memref sig .tc .vmem S2048x2048 .f32).view (Rect.unit (s := S2048x2048) (k0_off37 c) ![256, 384] (k0_off37_inb c)).toLoadRect f3) (View.readAt (Elt Ideal) (Memref.whole cc0_scratch1 : Memref sig .tc .vmem S1792x384 .bf16).view (Rect.unit (s := S1792x384) (k0_off38 c) ![256, 384] (k0_off38_inb c)).toLoadRect fl)⟩]) :=
    AccInv.mk6 (J3_0_stored' A B c f3 fl hA.get0 hl)
      (LJ_cons (k := 1) (k0_off37_inb c) _ _ (off37_eq c) (Or.inl (show 0 + 384 ≤ colLo (1 : Fin 6).val from by decide)) (LJ_nil hA.get1))
      (LJ_cons (k := 2) (k0_off37_inb c) _ _ (off37_eq c) (Or.inl (show 0 + 384 ≤ colLo (2 : Fin 6).val from by decide)) (LJ_nil hA.get2))
      (LJ_cons (k := 3) (k0_off37_inb c) _ _ (off37_eq c) (Or.inl (show 0 + 384 ≤ colLo (3 : Fin 6).val from by decide)) (LJ_nil hA.get3))
      (LJ_cons (k := 4) (k0_off37_inb c) _ _ (off37_eq c) (Or.inl (show 0 + 384 ≤ colLo (4 : Fin 6).val from by decide)) (LJ_nil hA.get4))
      (LJ_cons (k := 5) (k0_off37_inb c) _ _ (off37_eq c) (Or.inl (show 0 + 384 ≤ colLo (5 : Fin 6).val from by decide)) (LJ_nil hA.get5))
  iapply (wp_mono frame (wpE (defs₀ (F := Ideal)) 𝒱₀ c none) Set.univ (fun r => by
    iintro H
    isplitl [H]; · iexact H
    ipureintro; exact hout))
  iapply (part20_run (Vreal A B) c κs κr κw κv W v6 v250 v304 v323 v574 f3 f10 fl hin)
  iexact Hpre

include hagree in
/-- Stretch 21 with its value facts derived. -/
theorem part21_real (c : Dev nD) (κs κr : ℕ) (W : Waits sig Unit) (v2 v304 v626 v628 : BitVec 32)
    (f3 : Buf (Elt Ideal) ((Memref.whole cc0_scratch0 : Memref sig .tc .vmem S2048x2048 .f32).view.loc (c : Thread nD τ)))
    (f11 : Buf (Elt Ideal) ((stgM1_1 : Memref sig .tc .vmem S512x384 .bf16).view.loc (c : Thread nD τ)))
    (fl : Buf (Elt Ideal) ((commM1_1 : Memref sig .tc .vmem S512x384 .bf16).view.loc (c : Thread nD τ))) :
    iprop(iprop(cellInv ER (sched (Vreal A B)) κs (cell c (.rsS 1 2)) ∗ cellInv ER (sched (Vreal A B)) κr (cell (nbr 0 c) (.rsR 1 2))
        ∗ reached ER (cell c (.rsS 1 2)) 0 ∗ reached ER (cell (nbr 0 c) (.rsR 1 2)) 0
        ∗ dutyTok ER (cell c (.rsS 1 2)) 0 (0 : Fin 3) ∗ dutyTok ER (cell (nbr 0 c) (.rsR 1 2)) 0 (0 : Fin 3)
        ∗ ptsAny (F := Ideal) (nbr 0 c) commM1_2
        ∗ owes (c : Thread nD τ) (Owe c 16) W
        ∗ heldW c (stgM1_1 : Memref sig .tc .vmem S512x384 .bf16) f11
        ∗ heldW c (Memref.whole cc0_scratch0 : Memref sig .tc .vmem S2048x2048 .f32) f3
        ∗ heldW c (commM1_1 : Memref sig .tc .vmem S512x384 .bf16) fl) ∗ ⌜AccInv A B c ![4, 2, 2, 2, 2, 2] f3⌝ ∗ ⌜(Vreal A B).rs1_1 (nbr 2 c) ((commM1_1 : Memref sig .tc .vmem S512x384 .bf16).view.read (Elt Ideal) fl)⌝)
      ⊢ wp frame (wpE (defs₀ (F := Ideal)) 𝒱₀ c none) Set.univ
          (k0_part21 (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23 c v2 v304 v626 v628)
          (fun r => iprop((⌜r = ⟨Scalar.xori v2 1#32, ⟨k0_pay43 (F := Ideal) (View.readAt (Elt Ideal) (Memref.whole cc0_scratch0 : Memref sig .tc .vmem S2048x2048 .f32).view (Rect.unit (s := S2048x2048) (k0_off41 c) ![256, 384] (k0_off41_inb c)).toLoadRect ((Memref.whole cc0_scratch0 : Memref sig .tc .vmem S2048x2048 .f32).view.writes (Elt Ideal) f3 [⟨Rect.unit (s := S2048x2048) (k0_off39 c) ![256, 384] (k0_off39_inb c), k0_pay41 (F := Ideal) (View.readAt (Elt Ideal) (Memref.whole cc0_scratch0 : Memref sig .tc .vmem S2048x2048 .f32).view (Rect.unit (s := S2048x2048) (k0_off39 c) ![256, 384] (k0_off39_inb c)).toLoadRect f3) (View.readAt (Elt Ideal) (Memref.whole cc0_scratch2 : Memref sig .tc .vmem S1792x384 .bf16).view (Rect.unit (s := S1792x384) (k0_off40 c) ![256, 384] (k0_off40_inb c)).toLoadRect fl)⟩])) (View.readAt (Elt Ideal) (Memref.whole cc0_scratch2 : Memref sig .tc .vmem S1792x384 .bf16).view (Rect.unit (s := S1792x384) (k0_off42 c) ![256, 384] (k0_off42_inb c)).toLoadRect fl), View.readAt (Elt Ideal) (Memref.whole cc0_scratch0 : Memref sig .tc .vmem S2048x2048 .f32).view (Rect.unit (s := S2048x2048) (k0_off41 c) ![256, 384] (k0_off41_inb c)).toLoadRect ((Memref.whole cc0_scratch0 : Memref sig .tc .vmem S2048x2048 .f32).view.writes (Elt Ideal) f3 [⟨Rect.unit (s := S2048x2048) (k0_off39 c) ![256, 384] (k0_off39_inb c), k0_pay41 (F := Ideal) (View.readAt (Elt Ideal) (Memref.whole cc0_scratch0 : Memref sig .tc .vmem S2048x2048 .f32).view (Rect.unit (s := S2048x2048) (k0_off39 c) ![256, 384] (k0_off39_inb c)).toLoadRect f3) (View.readAt (Elt Ideal) (Memref.whole cc0_scratch2 : Memref sig .tc .vmem S1792x384 .bf16).view (Rect.unit (s := S1792x384) (k0_off40 c) ![256, 384] (k0_off40_inb c)).toLoadRect fl)⟩])⟩⟩⌝ ∗ cred (tallyAt (cell c (.rsS 1 2)) () (amt (.rsR 1 2)))
            ∗ owes (c : Thread nD τ) (Owe c 17) W
            ∗ heldW c (Memref.whole cc0_scratch0 : Memref sig .tc .vmem S2048x2048 .f32) ((Memref.whole cc0_scratch0 : Memref sig .tc .vmem S2048x2048 .f32).view.writes (Elt Ideal) f3 [⟨Rect.unit (s := S2048x2048) (k0_off39 c) ![256, 384] (k0_off39_inb c), k0_pay41 (F := Ideal) (View.readAt (Elt Ideal) (Memref.whole cc0_scratch0 : Memref sig .tc .vmem S2048x2048 .f32).view (Rect.unit (s := S2048x2048) (k0_off39 c) ![256, 384] (k0_off39_inb c)).toLoadRect f3) (View.readAt (Elt Ideal) (Memref.whole cc0_scratch2 : Memref sig .tc .vmem S1792x384 .bf16).view (Rect.unit (s := S1792x384) (k0_off40 c) ![256, 384] (k0_off40_inb c)).toLoadRect fl)⟩])
            ∗ heldW c (commM1_1 : Memref sig .tc .vmem S512x384 .bf16) fl
            ∗ ((stgM1_1 : Memref sig .tc .vmem S512x384 .bf16).view.loc (c : Thread nD τ) ↦[(stgM1_1 : Memref sig .tc .vmem S512x384 .bf16).view.set \ (stgM1_2 : Memref sig .tc .vmem S256x384 .bf16).view.set]{fullShare} (View.write (Elt Ideal) ((Memref.whole cc0_scratch8 : Memref sig .tc .vmem S1024x384 .bf16).access (Rect.unit (s := S1024x384) ![0, 0] ![256, 384] inb_S1024x384_S256x384_0_0)) f11 (k0_pay42 (F := Ideal) ((Memref.whole cc0_scratch0 : Memref sig .tc .vmem S2048x2048 .f32).view.readCov [⟨Rect.unit (s := S2048x2048) (k0_off39 c) ![256, 384] (k0_off39_inb c), k0_pay41 (F := Ideal) (View.readAt (Elt Ideal) (Memref.whole cc0_scratch0 : Memref sig .tc .vmem S2048x2048 .f32).view (Rect.unit (s := S2048x2048) (k0_off39 c) ![256, 384] (k0_off39_inb c)).toLoadRect f3) (View.readAt (Elt Ideal) (Memref.whole cc0_scratch2 : Memref sig .tc .vmem S1792x384 .bf16).view (Rect.unit (s := S1792x384) (k0_off40 c) ![256, 384] (k0_off40_inb c)).toLoadRect fl)⟩] (Rect.unit (s := S2048x2048) (k0_off39 c) ![256, 384] (k0_off39_inb c)).toLoadRect)) Finset.univ))) ∗ ⌜AccInv A B c ![4, 3, 2, 2, 2, 2] ((Memref.whole cc0_scratch0 : Memref sig .tc .vmem S2048x2048 .f32).view.writes (Elt Ideal) f3 [⟨Rect.unit (s := S2048x2048) (k0_off39 c) ![256, 384] (k0_off39_inb c), k0_pay41 (F := Ideal) (View.readAt (Elt Ideal) (Memref.whole cc0_scratch0 : Memref sig .tc .vmem S2048x2048 .f32).view (Rect.unit (s := S2048x2048) (k0_off39 c) ![256, 384] (k0_off39_inb c)).toLoadRect f3) (View.readAt (Elt Ideal) (Memref.whole cc0_scratch2 : Memref sig .tc .vmem S1792x384 .bf16).view (Rect.unit (s := S1792x384) (k0_off40 c) ![256, 384] (k0_off40_inb c)).toLoadRect fl)⟩])⌝ ∗ ⌜∀ (i : Fin 256) (j : Fin 384), ((k0_pay43 (F := Ideal) (View.readAt (Elt Ideal) (Memref.whole cc0_scratch0 : Memref sig .tc .vmem S2048x2048 .f32).view (Rect.unit (s := S2048x2048) (k0_off41 c) ![256, 384] (k0_off41_inb c)).toLoadRect ((Memref.whole cc0_scratch0 : Memref sig .tc .vmem S2048x2048 .f32).view.writes (Elt Ideal) f3 [⟨Rect.unit (s := S2048x2048) (k0_off39 c) ![256, 384] (k0_off39_inb c), k0_pay41 (F := Ideal) (View.readAt (Elt Ideal) (Memref.whole cc0_scratch0 : Memref sig .tc .vmem S2048x2048 .f32).view (Rect.unit (s := S2048x2048) (k0_off39 c) ![256, 384] (k0_off39_inb c)).toLoadRect f3) (View.readAt (Elt Ideal) (Memref.whole cc0_scratch2 : Memref sig .tc .vmem S1792x384 .bf16).view (Rect.unit (s := S1792x384) (k0_off40 c) ![256, 384] (k0_off40_inb c)).toLoadRect fl)⟩])) (View.readAt (Elt Ideal) (Memref.whole cc0_scratch2 : Memref sig .tc .vmem S1792x384 .bf16).view (Rect.unit (s := S1792x384) (k0_off42 c) ![256, 384] (k0_off42_inb c)).toLoadRect fl)) (ix2 i j) : EReal) = (share A B c.val (ownRow 1 0 c + i.val) (colLo 1 + j.val) + share A B (nb 1 0 c).val (ownRow 1 0 c + i.val) (colLo 1 + j.val))
          + (share A B (nb 1 1 c).val (ownRow 1 0 c + i.val) (colLo 1 + j.val) + share A B (nb 1 0 (nb 1 1 c)).val (ownRow 1 0 c + i.val) (colLo 1 + j.val))⌝)) := by
  iintro ⟨Hpre, %hA, %hl⟩
  have hJ2 : J2 A B 1 384 c f3 := hA.get1
  have hJ2r : ∀ (r : Fin 256) (j : Fin 384), ((View.readAt (Elt Ideal) (Memref.whole cc0_scratch0 : Memref sig .tc .vmem S2048x2048 .f32).view (Rect.unit (s := S2048x2048) (k0_off41 c) ![256, 384] (k0_off41_inb c)).toLoadRect f3) (ix2 r j) : EReal)
      = share A B c.val (ownRow 1 0 c + r.val) (colLo 1 + j.val) + share A B (nb 1 0 c).val (ownRow 1 0 c + r.val) (colLo 1 + j.val) := by
    intro r j
    rw [View.readAt_eq_ld]
    exact (J2e_of_J2 A B hJ2) r j _
      (by show k0_off41 c 0 + 1 * r.val = _
          rw [off41_eq]
          show cy c * 1024 + cz c * 512 + cx c * 256 + 1 * r.val = cy c * 1024 + cz c * 512 + cx c * 256 + r.val
          omega)
      (by show k0_off41 c 1 + 1 * j.val = _
          rw [off41_eq]
          show 384 + 1 * j.val = 384 + j.val
          omega)
  have hout0 : AccInv A B c ![4, 3, 2, 2, 2, 2] ((Memref.whole cc0_scratch0 : Memref sig .tc .vmem S2048x2048 .f32).view.writes (Elt Ideal) f3 [⟨Rect.unit (s := S2048x2048) (k0_off39 c) ![256, 384] (k0_off39_inb c), k0_pay41 (F := Ideal) (View.readAt (Elt Ideal) (Memref.whole cc0_scratch0 : Memref sig .tc .vmem S2048x2048 .f32).view (Rect.unit (s := S2048x2048) (k0_off39 c) ![256, 384] (k0_off39_inb c)).toLoadRect f3) (View.readAt (Elt Ideal) (Memref.whole cc0_scratch2 : Memref sig .tc .vmem S1792x384 .bf16).view (Rect.unit (s := S1792x384) (k0_off40 c) ![256, 384] (k0_off40_inb c)).toLoadRect fl)⟩]) :=
    AccInv.mk6 (LJ_cons (k := 0) (k0_off39_inb c) _ _ (off39_eq c) (Or.inr (show colLo (0 : Fin 6).val + wOf 0 ≤ 384 from by decide)) (LJ_nil hA.get0))
      (J2e_cons A B (k0_off39_inb c) _ [] (off39_eq c)
        (Or.inr (by
          show (cy c * 1024 + cz c * 512 + (1 - cx c) * 256) + 256 ≤ cy c * 1024 + cz c * 512 + cx c * 256 ∨ cy c * 1024 + cz c * 512 + cx c * 256 + 256 ≤ cy c * 1024 + cz c * 512 + (1 - cx c) * 256
          have := cx_le c
          omega))
        (J2e_nil A B (J2e_of_J2 A B hJ2)))
      (LJ_cons (k := 2) (k0_off39_inb c) _ _ (off39_eq c) (Or.inl (show 384 + 384 ≤ colLo (2 : Fin 6).val from by decide)) (LJ_nil hA.get2)) (LJ_cons (k := 3) (k0_off39_inb c) _ _ (off39_eq c) (Or.inl (show 384 + 384 ≤ colLo (3 : Fin 6).val from by decide)) (LJ_nil hA.get3)) (LJ_cons (k := 4) (k0_off39_inb c) _ _ (off39_eq c) (Or.inl (show 384 + 384 ≤ colLo (4 : Fin 6).val from by decide)) (LJ_nil hA.get4)) (LJ_cons (k := 5) (k0_off39_inb c) _ _ (off39_eq c) (Or.inl (show 384 + 384 ≤ colLo (5 : Fin 6).val from by decide)) (LJ_nil hA.get5))
  have hout1 : ∀ (i : Fin 256) (j : Fin 384), ((k0_pay43 (F := Ideal) (View.readAt (Elt Ideal) (Memref.whole cc0_scratch0 : Memref sig .tc .vmem S2048x2048 .f32).view (Rect.unit (s := S2048x2048) (k0_off41 c) ![256, 384] (k0_off41_inb c)).toLoadRect ((Memref.whole cc0_scratch0 : Memref sig .tc .vmem S2048x2048 .f32).view.writes (Elt Ideal) f3 [⟨Rect.unit (s := S2048x2048) (k0_off39 c) ![256, 384] (k0_off39_inb c), k0_pay41 (F := Ideal) (View.readAt (Elt Ideal) (Memref.whole cc0_scratch0 : Memref sig .tc .vmem S2048x2048 .f32).view (Rect.unit (s := S2048x2048) (k0_off39 c) ![256, 384] (k0_off39_inb c)).toLoadRect f3) (View.readAt (Elt Ideal) (Memref.whole cc0_scratch2 : Memref sig .tc .vmem S1792x384 .bf16).view (Rect.unit (s := S1792x384) (k0_off40 c) ![256, 384] (k0_off40_inb c)).toLoadRect fl)⟩])) (View.readAt (Elt Ideal) (Memref.whole cc0_scratch2 : Memref sig .tc .vmem S1792x384 .bf16).view (Rect.unit (s := S1792x384) (k0_off42 c) ![256, 384] (k0_off42_inb c)).toLoadRect fl)) (ix2 i j) : EReal) = (share A B c.val (ownRow 1 0 c + i.val) (colLo 1 + j.val) + share A B (nb 1 0 c).val (ownRow 1 0 c + i.val) (colLo 1 + j.val))
          + (share A B (nb 1 1 c).val (ownRow 1 0 c + i.val) (colLo 1 + j.val) + share A B (nb 1 0 (nb 1 1 c)).val (ownRow 1 0 c + i.val) (colLo 1 + j.val)) :=
    fun i j => (pay44_apply _ (ix2 i j)).symm.trans (val_J3_1 A B c _ fl (fun r j => by rw [readAt_keep_after_send_1]; exact hJ2r r j) hl i j)
  iapply (wp_mono frame (wpE (defs₀ (F := Ideal)) 𝒱₀ c none) Set.univ (fun r => by
    iintro H
    isplitl [H]; · iexact H
    isplitr; · ipureintro; exact hout0
    ipureintro; exact hout1))
  iapply (part21_run (Vreal A B) c κs κr W v2 v304 v626 v628 f3 f11 fl (val_rs1_2 A B c f11 fl f3 hJ2 hl))
  iexact Hpre

set_option maxHeartbeats 2000000 in
include hagree in
/-- Stretch 22 with its value facts derived. -/
theorem part22_real (c : Dev nD) (κw κv : ℕ) (W : Waits sig Unit) (v8 v358 v377 : BitVec 32) (v663 : FVec Ideal S256x384 .f32) (v665 : Vec Ideal S256x384 .f32)
    (f3 : Buf (Elt Ideal) ((Memref.whole cc0_scratch0 : Memref sig .tc .vmem S2048x2048 .f32).view.loc (c : Thread nD τ))) :
    iprop(iprop(owes (c : Thread nD τ) (Owe c 17) W ∗ levAts L lv
        ∗ heldW c (Memref.whole cc0_scratch0 : Memref sig .tc .vmem S2048x2048 .f32) f3
        ∗ cellInv ER (sched (Vreal A B)) κw (cell c (.rsS 2 1)) ∗ cred (tallyAt (cell c (.rsS 2 1)) () (amt (.rsS 2 1))) ∗ atPos ER (cell c (.rsS 2 1)) 0 ∅ 0
        ∗ cellInv ER (sched (Vreal A B)) κv (cell c (.rsR 2 1)) ∗ cred (tallyAt (cell c (.rsR 2 1)) () (amt (.rsR 2 1))) ∗ atPos ER (cell c (.rsR 2 1)) 0 ∅ 0) ∗ ⌜AccInv A B c ![4, 3, 2, 2, 2, 2] f3⌝ ∗ ⌜∀ (i : Fin 256) (j : Fin 384), (v663 (ix2 i j) : EReal) = (share A B c.val (ownRow 1 0 c + i.val) (colLo 1 + j.val) + share A B (nb 1 0 c).val (ownRow 1 0 c + i.val) (colLo 1 + j.val))
          + (share A B (nb 1 1 c).val (ownRow 1 0 c + i.val) (colLo 1 + j.val) + share A B (nb 1 0 (nb 1 1 c)).val (ownRow 1 0 c + i.val) (colLo 1 + j.val))⌝)
      ⊢ wp frame (wpE (defs₀ (F := Ideal)) 𝒱₀ c none) Set.univ
          (k0_part22 (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23 c v8 v358 v377 v663 v665)
          (fun r => iprop(⌜r = (Scalar.addi v358 (Scalar.muli v8 256#32))⌝ ∗ (∃ fl : Buf (Elt Ideal) ((commM2_1 : Memref sig .tc .vmem S512x384 .bf16).view.loc (c : Thread nD τ)), ⌜(Vreal A B).rs2_1 (nbr 0 c) ((commM2_1 : Memref sig .tc .vmem S512x384 .bf16).view.read (Elt Ideal) fl)⌝ ∗ ⌜AccInv A B c ![4, 4, 3, 2, 2, 2] ((Memref.whole cc0_scratch0 : Memref sig .tc .vmem S2048x2048 .f32).view.writes (Elt Ideal) f3 [⟨Rect.unit (s := S2048x2048) (k0_off43 c) ![256, 384] (k0_off43_inb c), k0_pay45 (F := Ideal) (View.readAt (Elt Ideal) (Memref.whole cc0_scratch0 : Memref sig .tc .vmem S2048x2048 .f32).view (Rect.unit (s := S2048x2048) (k0_off43 c) ![256, 384] (k0_off43_inb c)).toLoadRect f3) (View.readAt (Elt Ideal) (Memref.whole cc0_scratch3 : Memref sig .tc .vmem S1792x384 .bf16).view (Rect.unit (s := S1792x384) (k0_off44 c) ![256, 384] (k0_off44_inb c)).toLoadRect fl)⟩, ⟨Rect.unit (s := S2048x2048) (k0_off41 c) ![256, 384] (k0_off41_inb c), k0_pay44 (F := Ideal) v663⟩])⌝ ∗ ⌜∀ (r : Fin 256) (j : Fin 384), ((View.readAt (Elt Ideal) (Memref.whole cc0_scratch0 : Memref sig .tc .vmem S2048x2048 .f32).view (Rect.unit (s := S2048x2048) (k0_off43 c) ![256, 384] (k0_off43_inb c)).toLoadRect ((Memref.whole cc0_scratch0 : Memref sig .tc .vmem S2048x2048 .f32).view.writes (Elt Ideal) f3 [⟨Rect.unit (s := S2048x2048) (k0_off43 c) ![256, 384] (k0_off43_inb c), k0_pay45 (F := Ideal) (View.readAt (Elt Ideal) (Memref.whole cc0_scratch0 : Memref sig .tc .vmem S2048x2048 .f32).view (Rect.unit (s := S2048x2048) (k0_off43 c) ![256, 384] (k0_off43_inb c)).toLoadRect f3) (View.readAt (Elt Ideal) (Memref.whole cc0_scratch3 : Memref sig .tc .vmem S1792x384 .bf16).view (Rect.unit (s := S1792x384) (k0_off44 c) ![256, 384] (k0_off44_inb c)).toLoadRect fl)⟩, ⟨Rect.unit (s := S2048x2048) (k0_off41 c) ![256, 384] (k0_off41_inb c), k0_pay44 (F := Ideal) v663⟩])) (ix2 r j) : EReal) = ((share A B c.val (sendRow 2 2 c + r.val) (colLo 2 + j.val) + share A B (nb 2 0 c).val (sendRow 2 2 c + r.val) (colLo 2 + j.val)) + (share A B (nb 2 1 c).val (sendRow 2 2 c + r.val) (colLo 2 + j.val) + share A B (nb 2 0 (nb 2 1 c)).val (sendRow 2 2 c + r.val) (colLo 2 + j.val)))⌝
            ∗ heldW c (commM2_1 : Memref sig .tc .vmem S512x384 .bf16) fl
            ∗ owes (c : Thread nD τ) (Owe c 17) (insert ((CK.rsR 2 1).sem, ()) (insert ((CK.rsS 2 1).sem, ()) W))
            ∗ atPos ER (cell c (.rsS 2 1)) 1 ∅ 0 ∗ atPos ER (cell c (.rsR 2 1)) 1 ∅ 0
            ∗ ptsAny (F := Ideal) c stgM2_1
            ∗ heldW c (Memref.whole cc0_scratch0 : Memref sig .tc .vmem S2048x2048 .f32) ((Memref.whole cc0_scratch0 : Memref sig .tc .vmem S2048x2048 .f32).view.writes (Elt Ideal) f3 [⟨Rect.unit (s := S2048x2048) (k0_off43 c) ![256, 384] (k0_off43_inb c), k0_pay45 (F := Ideal) (View.readAt (Elt Ideal) (Memref.whole cc0_scratch0 : Memref sig .tc .vmem S2048x2048 .f32).view (Rect.unit (s := S2048x2048) (k0_off43 c) ![256, 384] (k0_off43_inb c)).toLoadRect f3) (View.readAt (Elt Ideal) (Memref.whole cc0_scratch3 : Memref sig .tc .vmem S1792x384 .bf16).view (Rect.unit (s := S1792x384) (k0_off44 c) ![256, 384] (k0_off44_inb c)).toLoadRect fl)⟩, ⟨Rect.unit (s := S2048x2048) (k0_off41 c) ![256, 384] (k0_off41_inb c), k0_pay44 (F := Ideal) v663⟩])))) := by
  iintro ⟨Hpre, %hA, %h663⟩
  have hJ2 : J2 A B 2 384 c f3 := hA.get2
  have hpost : ∀ r : (BitVec 32), (iprop(⌜r = (Scalar.addi v358 (Scalar.muli v8 256#32))⌝ ∗ (∃ fl : Buf (Elt Ideal) ((commM2_1 : Memref sig .tc .vmem S512x384 .bf16).view.loc (c : Thread nD τ)), ⌜(Vreal A B).rs2_1 (nbr 0 c) ((commM2_1 : Memref sig .tc .vmem S512x384 .bf16).view.read (Elt Ideal) fl)⌝
            ∗ heldW c (commM2_1 : Memref sig .tc .vmem S512x384 .bf16) fl
            ∗ owes (c : Thread nD τ) (Owe c 17) (insert ((CK.rsR 2 1).sem, ()) (insert ((CK.rsS 2 1).sem, ()) W))
            ∗ atPos ER (cell c (.rsS 2 1)) 1 ∅ 0 ∗ atPos ER (cell c (.rsR 2 1)) 1 ∅ 0
            ∗ ptsAny (F := Ideal) c stgM2_1
            ∗ heldW c (Memref.whole cc0_scratch0 : Memref sig .tc .vmem S2048x2048 .f32) ((Memref.whole cc0_scratch0 : Memref sig .tc .vmem S2048x2048 .f32).view.writes (Elt Ideal) f3 [⟨Rect.unit (s := S2048x2048) (k0_off43 c) ![256, 384] (k0_off43_inb c), k0_pay45 (F := Ideal) (View.readAt (Elt Ideal) (Memref.whole cc0_scratch0 : Memref sig .tc .vmem S2048x2048 .f32).view (Rect.unit (s := S2048x2048) (k0_off43 c) ![256, 384] (k0_off43_inb c)).toLoadRect f3) (View.readAt (Elt Ideal) (Memref.whole cc0_scratch3 : Memref sig .tc .vmem S1792x384 .bf16).view (Rect.unit (s := S1792x384) (k0_off44 c) ![256, 384] (k0_off44_inb c)).toLoadRect fl)⟩, ⟨Rect.unit (s := S2048x2048) (k0_off41 c) ![256, 384] (k0_off41_inb c), k0_pay44 (F := Ideal) v663⟩]))) : sProp 𝕄) ⊢ iprop(⌜r = (Scalar.addi v358 (Scalar.muli v8 256#32))⌝ ∗ (∃ fl : Buf (Elt Ideal) ((commM2_1 : Memref sig .tc .vmem S512x384 .bf16).view.loc (c : Thread nD τ)), ⌜(Vreal A B).rs2_1 (nbr 0 c) ((commM2_1 : Memref sig .tc .vmem S512x384 .bf16).view.read (Elt Ideal) fl)⌝ ∗ ⌜AccInv A B c ![4, 4, 3, 2, 2, 2] ((Memref.whole cc0_scratch0 : Memref sig .tc .vmem S2048x2048 .f32).view.writes (Elt Ideal) f3 [⟨Rect.unit (s := S2048x2048) (k0_off43 c) ![256, 384] (k0_off43_inb c), k0_pay45 (F := Ideal) (View.readAt (Elt Ideal) (Memref.whole cc0_scratch0 : Memref sig .tc .vmem S2048x2048 .f32).view (Rect.unit (s := S2048x2048) (k0_off43 c) ![256, 384] (k0_off43_inb c)).toLoadRect f3) (View.readAt (Elt Ideal) (Memref.whole cc0_scratch3 : Memref sig .tc .vmem S1792x384 .bf16).view (Rect.unit (s := S1792x384) (k0_off44 c) ![256, 384] (k0_off44_inb c)).toLoadRect fl)⟩, ⟨Rect.unit (s := S2048x2048) (k0_off41 c) ![256, 384] (k0_off41_inb c), k0_pay44 (F := Ideal) v663⟩])⌝ ∗ ⌜∀ (r : Fin 256) (j : Fin 384), ((View.readAt (Elt Ideal) (Memref.whole cc0_scratch0 : Memref sig .tc .vmem S2048x2048 .f32).view (Rect.unit (s := S2048x2048) (k0_off43 c) ![256, 384] (k0_off43_inb c)).toLoadRect ((Memref.whole cc0_scratch0 : Memref sig .tc .vmem S2048x2048 .f32).view.writes (Elt Ideal) f3 [⟨Rect.unit (s := S2048x2048) (k0_off43 c) ![256, 384] (k0_off43_inb c), k0_pay45 (F := Ideal) (View.readAt (Elt Ideal) (Memref.whole cc0_scratch0 : Memref sig .tc .vmem S2048x2048 .f32).view (Rect.unit (s := S2048x2048) (k0_off43 c) ![256, 384] (k0_off43_inb c)).toLoadRect f3) (View.readAt (Elt Ideal) (Memref.whole cc0_scratch3 : Memref sig .tc .vmem S1792x384 .bf16).view (Rect.unit (s := S1792x384) (k0_off44 c) ![256, 384] (k0_off44_inb c)).toLoadRect fl)⟩, ⟨Rect.unit (s := S2048x2048) (k0_off41 c) ![256, 384] (k0_off41_inb c), k0_pay44 (F := Ideal) v663⟩])) (ix2 r j) : EReal) = ((share A B c.val (sendRow 2 2 c + r.val) (colLo 2 + j.val) + share A B (nb 2 0 c).val (sendRow 2 2 c + r.val) (colLo 2 + j.val)) + (share A B (nb 2 1 c).val (sendRow 2 2 c + r.val) (colLo 2 + j.val) + share A B (nb 2 0 (nb 2 1 c)).val (sendRow 2 2 c + r.val) (colLo 2 + j.val)))⌝
            ∗ heldW c (commM2_1 : Memref sig .tc .vmem S512x384 .bf16) fl
            ∗ owes (c : Thread nD τ) (Owe c 17) (insert ((CK.rsR 2 1).sem, ()) (insert ((CK.rsS 2 1).sem, ()) W))
            ∗ atPos ER (cell c (.rsS 2 1)) 1 ∅ 0 ∗ atPos ER (cell c (.rsR 2 1)) 1 ∅ 0
            ∗ ptsAny (F := Ideal) c stgM2_1
            ∗ heldW c (Memref.whole cc0_scratch0 : Memref sig .tc .vmem S2048x2048 .f32) ((Memref.whole cc0_scratch0 : Memref sig .tc .vmem S2048x2048 .f32).view.writes (Elt Ideal) f3 [⟨Rect.unit (s := S2048x2048) (k0_off43 c) ![256, 384] (k0_off43_inb c), k0_pay45 (F := Ideal) (View.readAt (Elt Ideal) (Memref.whole cc0_scratch0 : Memref sig .tc .vmem S2048x2048 .f32).view (Rect.unit (s := S2048x2048) (k0_off43 c) ![256, 384] (k0_off43_inb c)).toLoadRect f3) (View.readAt (Elt Ideal) (Memref.whole cc0_scratch3 : Memref sig .tc .vmem S1792x384 .bf16).view (Rect.unit (s := S1792x384) (k0_off44 c) ![256, 384] (k0_off44_inb c)).toLoadRect fl)⟩, ⟨Rect.unit (s := S2048x2048) (k0_off41 c) ![256, 384] (k0_off41_inb c), k0_pay44 (F := Ideal) v663⟩]))) := by
    intro r
    iintro ⟨%hr, H⟩
    icases H with ⟨%fl, %hX, H⟩
    isplitr; · ipureintro; exact hr
    iexists fl
    isplitr; · ipureintro; exact hX
    isplitr
    · ipureintro
      exact AccInv.mk6 (LJ_cons (k := 0) (k0_off43_inb c) _ _ (off43_eq c) (Or.inr (show colLo (0 : Fin 6).val + wOf 0 ≤ 768 from by decide)) (LJ_cons (k := 0) (k0_off41_inb c) _ _ (off41_eq c) (Or.inr (show colLo (0 : Fin 6).val + wOf 0 ≤ 384 from by decide)) (LJ_nil hA.get0)))
        (LJ_cons (k := 1) (k0_off43_inb c) _ _ (off43_eq c) (Or.inr (show colLo (1 : Fin 6).val + wOf 1 ≤ 768 from by decide)) (show LJ A B 1 c 4 _ from J3_1_stored' A B c f3 v663 h663))
        (J2e_cons A B (k0_off43_inb c) _ _ (off43_eq c)
          (Or.inr (by
            show (cz c * 1024 + cx c * 512 + (1 - cy c) * 256) + 256 ≤ cz c * 1024 + cx c * 512 + cy c * 256 ∨ cz c * 1024 + cx c * 512 + cy c * 256 + 256 ≤ cz c * 1024 + cx c * 512 + (1 - cy c) * 256
            have := cy_le c
            omega))
          (J2e_cons A B (k0_off41_inb c) _ [] (off41_eq c) (Or.inl (Or.inl (show 384 + 384 ≤ colLo 2 from by decide))) (J2e_nil A B (J2e_of_J2 A B hJ2))))
        (LJ_cons (k := 3) (k0_off43_inb c) _ _ (off43_eq c) (Or.inl (show 768 + 384 ≤ colLo (3 : Fin 6).val from by decide)) (LJ_cons (k := 3) (k0_off41_inb c) _ _ (off41_eq c) (Or.inl (show 384 + 384 ≤ colLo (3 : Fin 6).val from by decide)) (LJ_nil hA.get3)))
        (LJ_cons (k := 4) (k0_off43_inb c) _ _ (off43_eq c) (Or.inl (show 768 + 384 ≤ colLo (4 : Fin 6).val from by decide)) (LJ_cons (k := 4) (k0_off41_inb c) _ _ (off41_eq c) (Or.inl (show 384 + 384 ≤ colLo (4 : Fin 6).val from by decide)) (LJ_nil hA.get4)))
        (LJ_cons (k := 5) (k0_off43_inb c) _ _ (off43_eq c) (Or.inl (show 768 + 384 ≤ colLo (5 : Fin 6).val from by decide)) (LJ_cons (k := 5) (k0_off41_inb c) _ _ (off41_eq c) (Or.inl (show 384 + 384 ≤ colLo (5 : Fin 6).val from by decide)) (LJ_nil hA.get5)))
    isplitr
    · ipureintro
      intro r' j
      show (((Memref.whole cc0_scratch0 : Memref sig .tc .vmem S2048x2048 .f32).view.slice (Rect.unit (s := S2048x2048) (k0_off43 c) ![256, 384] (k0_off43_inb c))).read (Elt Ideal) (((Memref.whole cc0_scratch0 : Memref sig .tc .vmem S2048x2048 .f32).view.slice (Rect.unit (s := S2048x2048) (k0_off43 c) ![256, 384] (k0_off43_inb c))).write (Elt Ideal) _ _ Finset.univ) (ix2 r' j) : EReal) = _
      rw [View.read_write_univ]
      exact sent_eighth_2_c A B c f3 fl hJ2 hX r' j
    iexact H
  iapply (wp_mono frame (wpE (defs₀ (F := Ideal)) 𝒱₀ c none) Set.univ hpost)
  iapply (part22_run (Vreal A B) c κw κv W v8 v358 v377 v663 v665 f3)
  iexact Hpre

include hagree in
/-- Stretch 23 with its value facts derived. -/
theorem part23_real (c : Dev nD) (κs κr : ℕ) (W : Waits sig Unit) (v2 v358 v682 : BitVec 32)
    (f3 : Buf (Elt Ideal) ((Memref.whole cc0_scratch0 : Memref sig .tc .vmem S2048x2048 .f32).view.loc (c : Thread nD τ)))
    (f12 : Buf (Elt Ideal) ((stgM2_1 : Memref sig .tc .vmem S512x384 .bf16).view.loc (c : Thread nD τ)))
    (fl : Buf (Elt Ideal) ((commM2_1 : Memref sig .tc .vmem S512x384 .bf16).view.loc (c : Thread nD τ))) :
    iprop(iprop(cellInv ER (sched (Vreal A B)) κs (cell c (.rsS 2 2)) ∗ cellInv ER (sched (Vreal A B)) κr (cell (nbr 1 c) (.rsR 2 2))
        ∗ reached ER (cell c (.rsS 2 2)) 0 ∗ reached ER (cell (nbr 1 c) (.rsR 2 2)) 0
        ∗ dutyTok ER (cell c (.rsS 2 2)) 0 (0 : Fin 3) ∗ dutyTok ER (cell (nbr 1 c) (.rsR 2 2)) 0 (0 : Fin 3)
        ∗ ptsAny (F := Ideal) (nbr 1 c) commM2_2
        ∗ owes (c : Thread nD τ) (Owe c 17) W
        ∗ heldW c (stgM2_1 : Memref sig .tc .vmem S512x384 .bf16) f12
        ∗ heldW c (Memref.whole cc0_scratch0 : Memref sig .tc .vmem S2048x2048 .f32) f3
        ∗ heldW c (commM2_1 : Memref sig .tc .vmem S512x384 .bf16) fl) ∗ ⌜AccInv A B c ![4, 4, 3, 2, 2, 2] f3⌝ ∗ ⌜∀ (r : Fin 256) (j : Fin 384), ((View.readAt (Elt Ideal) (Memref.whole cc0_scratch0 : Memref sig .tc .vmem S2048x2048 .f32).view (Rect.unit (s := S2048x2048) (k0_off43 c) ![256, 384] (k0_off43_inb c)).toLoadRect f3) (ix2 r j) : EReal) = ((share A B c.val (sendRow 2 2 c + r.val) (colLo 2 + j.val) + share A B (nb 2 0 c).val (sendRow 2 2 c + r.val) (colLo 2 + j.val)) + (share A B (nb 2 1 c).val (sendRow 2 2 c + r.val) (colLo 2 + j.val) + share A B (nb 2 0 (nb 2 1 c)).val (sendRow 2 2 c + r.val) (colLo 2 + j.val)))⌝ ∗ ⌜(Vreal A B).rs2_1 (nbr 0 c) ((commM2_1 : Memref sig .tc .vmem S512x384 .bf16).view.read (Elt Ideal) fl)⌝)
      ⊢ wp frame (wpE (defs₀ (F := Ideal)) 𝒱₀ c none) Set.univ
          (k0_part23 (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23 c v2 v358 v682)
          (fun r => iprop((⌜r = (Scalar.xori v2 3#32)⌝ ∗ cred (tallyAt (cell c (.rsS 2 2)) () (amt (.rsR 2 2)))
            ∗ owes (c : Thread nD τ) (Owe c 18) W
            ∗ heldW c (Memref.whole cc0_scratch0 : Memref sig .tc .vmem S2048x2048 .f32) ((Memref.whole cc0_scratch0 : Memref sig .tc .vmem S2048x2048 .f32).view.writes (Elt Ideal) f3 [⟨Rect.unit (s := S2048x2048) (k0_off45 c) ![256, 384] (k0_off45_inb c), k0_pay47 (F := Ideal) (View.readAt (Elt Ideal) (Memref.whole cc0_scratch0 : Memref sig .tc .vmem S2048x2048 .f32).view (Rect.unit (s := S2048x2048) (k0_off45 c) ![256, 384] (k0_off45_inb c)).toLoadRect f3) (View.readAt (Elt Ideal) (Memref.whole cc0_scratch3 : Memref sig .tc .vmem S1792x384 .bf16).view (Rect.unit (s := S1792x384) (k0_off46 c) ![256, 384] (k0_off46_inb c)).toLoadRect fl)⟩])
            ∗ heldW c (commM2_1 : Memref sig .tc .vmem S512x384 .bf16) fl
            ∗ ((stgM2_1 : Memref sig .tc .vmem S512x384 .bf16).view.loc (c : Thread nD τ) ↦[(stgM2_1 : Memref sig .tc .vmem S512x384 .bf16).view.set \ (stgM2_2 : Memref sig .tc .vmem S256x384 .bf16).view.set]{fullShare} (View.write (Elt Ideal) ((Memref.whole cc0_scratch9 : Memref sig .tc .vmem S1024x384 .bf16).access (Rect.unit (s := S1024x384) ![0, 0] ![256, 384] inb_S1024x384_S256x384_0_0)) f12 (k0_pay46 (F := Ideal) (View.readAt (Elt Ideal) (Memref.whole cc0_scratch0 : Memref sig .tc .vmem S2048x2048 .f32).view (Rect.unit (s := S2048x2048) (k0_off43 c) ![256, 384] (k0_off43_inb c)).toLoadRect f3)) Finset.univ))) ∗ ⌜AccInv A B c ![4, 4, 4, 2, 2, 2] ((Memref.whole cc0_scratch0 : Memref sig .tc .vmem S2048x2048 .f32).view.writes (Elt Ideal) f3 [⟨Rect.unit (s := S2048x2048) (k0_off45 c) ![256, 384] (k0_off45_inb c), k0_pay47 (F := Ideal) (View.readAt (Elt Ideal) (Memref.whole cc0_scratch0 : Memref sig .tc .vmem S2048x2048 .f32).view (Rect.unit (s := S2048x2048) (k0_off45 c) ![256, 384] (k0_off45_inb c)).toLoadRect f3) (View.readAt (Elt Ideal) (Memref.whole cc0_scratch3 : Memref sig .tc .vmem S1792x384 .bf16).view (Rect.unit (s := S1792x384) (k0_off46 c) ![256, 384] (k0_off46_inb c)).toLoadRect fl)⟩])⌝)) := by
  iintro ⟨Hpre, %hA, %hS, %hl⟩
  have hout : AccInv A B c ![4, 4, 4, 2, 2, 2] ((Memref.whole cc0_scratch0 : Memref sig .tc .vmem S2048x2048 .f32).view.writes (Elt Ideal) f3 [⟨Rect.unit (s := S2048x2048) (k0_off45 c) ![256, 384] (k0_off45_inb c), k0_pay47 (F := Ideal) (View.readAt (Elt Ideal) (Memref.whole cc0_scratch0 : Memref sig .tc .vmem S2048x2048 .f32).view (Rect.unit (s := S2048x2048) (k0_off45 c) ![256, 384] (k0_off45_inb c)).toLoadRect f3) (View.readAt (Elt Ideal) (Memref.whole cc0_scratch3 : Memref sig .tc .vmem S1792x384 .bf16).view (Rect.unit (s := S1792x384) (k0_off46 c) ![256, 384] (k0_off46_inb c)).toLoadRect fl)⟩]) :=
    AccInv.mk6 (LJ_cons (k := 0) (k0_off45_inb c) _ _ (off45_eq c) (Or.inr (show colLo (0 : Fin 6).val + wOf 0 ≤ 768 from by decide)) (LJ_nil hA.get0))
      (LJ_cons (k := 1) (k0_off45_inb c) _ _ (off45_eq c) (Or.inr (show colLo (1 : Fin 6).val + wOf 1 ≤ 768 from by decide)) (LJ_nil hA.get1))
      (J3_2_stored' A B c f3 fl hA.get2 hl)
      (LJ_cons (k := 3) (k0_off45_inb c) _ _ (off45_eq c) (Or.inl (show 768 + 384 ≤ colLo (3 : Fin 6).val from by decide)) (LJ_nil hA.get3))
      (LJ_cons (k := 4) (k0_off45_inb c) _ _ (off45_eq c) (Or.inl (show 768 + 384 ≤ colLo (4 : Fin 6).val from by decide)) (LJ_nil hA.get4))
      (LJ_cons (k := 5) (k0_off45_inb c) _ _ (off45_eq c) (Or.inl (show 768 + 384 ≤ colLo (5 : Fin 6).val from by decide)) (LJ_nil hA.get5))
  iapply (wp_mono frame (wpE (defs₀ (F := Ideal)) 𝒱₀ c none) Set.univ (fun r => by
    iintro H
    isplitl [H]; · iexact H
    ipureintro; exact hout))
  iapply (part23_run (Vreal A B) c κs κr W v2 v358 v682 f3 f12 fl (val_rs2_2 A B c f3 f12 hS))
  iexact Hpre

set_option maxHeartbeats 2000000 in
include hagree in
/-- Stretch 29 with its value facts derived. -/
theorem part29_real (c : Dev nD) (κw κv : ℕ) (W : Waits sig Unit) (v574 v593 : BitVec 32)
    (f3 : Buf (Elt Ideal) ((Memref.whole cc0_scratch0 : Memref sig .tc .vmem S2048x2048 .f32).view.loc (c : Thread nD τ))) :
    iprop(iprop(owes (c : Thread nD τ) (Owe c 21) W ∗ levAts L lv
        ∗ heldW c (Memref.whole cc0_scratch0 : Memref sig .tc .vmem S2048x2048 .f32) f3
        ∗ cellInv ER (sched (Vreal A B)) κw (cell c (.rsS 0 2)) ∗ cred (tallyAt (cell c (.rsS 0 2)) () (amt (.rsS 0 2))) ∗ atPos ER (cell c (.rsS 0 2)) 0 ∅ 0
        ∗ cellInv ER (sched (Vreal A B)) κv (cell c (.rsR 0 2)) ∗ cred (tallyAt (cell c (.rsR 0 2)) () (amt (.rsR 0 2))) ∗ atPos ER (cell c (.rsR 0 2)) 0 ∅ 0) ∗ ⌜AccInv A B c ![4, 4, 4, 4, 4, 4] f3⌝)
      ⊢ wp frame (wpE (defs₀ (F := Ideal)) 𝒱₀ c none) Set.univ
          (k0_part29 (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23 c v574 v593)
          (fun r => iprop(∃ fl : Buf (Elt Ideal) ((commM0_2 : Memref sig .tc .vmem S256x384 .bf16).view.loc (c : Thread nD τ)), ⌜r = ⟨k0_pay58 (F := Ideal) ((Memref.whole cc0_scratch0 : Memref sig .tc .vmem S2048x2048 .f32).view.readCov [⟨Rect.unit (s := S2048x2048) (k0_off37 c) ![256, 384] (k0_off37_inb c), k0_pay57 (F := Ideal) (View.readAt (Elt Ideal) (Memref.whole cc0_scratch0 : Memref sig .tc .vmem S2048x2048 .f32).view (Rect.unit (s := S2048x2048) (k0_off37 c) ![256, 384] (k0_off37_inb c)).toLoadRect f3) (View.readAt (Elt Ideal) (Memref.whole cc0_scratch1 : Memref sig .tc .vmem S1792x384 .bf16).view (Rect.unit (s := S1792x384) (k0_off57 c) ![256, 384] (k0_off57_inb c)).toLoadRect fl)⟩] (Rect.unit (s := S2048x2048) (k0_off37 c) ![256, 384] (k0_off37_inb c)).toLoadRect), ⟨k0_pay59 (F := Ideal) ((Memref.whole cc0_scratch0 : Memref sig .tc .vmem S2048x2048 .f32).view.readCov [⟨Rect.unit (s := S2048x2048) (k0_off37 c) ![256, 384] (k0_off37_inb c), k0_pay57 (F := Ideal) (View.readAt (Elt Ideal) (Memref.whole cc0_scratch0 : Memref sig .tc .vmem S2048x2048 .f32).view (Rect.unit (s := S2048x2048) (k0_off37 c) ![256, 384] (k0_off37_inb c)).toLoadRect f3) (View.readAt (Elt Ideal) (Memref.whole cc0_scratch1 : Memref sig .tc .vmem S1792x384 .bf16).view (Rect.unit (s := S1792x384) (k0_off57 c) ![256, 384] (k0_off57_inb c)).toLoadRect fl)⟩] (Rect.unit (s := S2048x2048) (k0_off37 c) ![256, 384] (k0_off37_inb c)).toLoadRect), FloatOps.ofBits (F := Ideal) FTy.f32 1061962282#32⟩⟩⌝
            ∗ ⌜(Vreal A B).rs0_2 (nbr 2 c) ((commM0_2 : Memref sig .tc .vmem S256x384 .bf16).view.read (Elt Ideal) fl)⌝ ∗ ⌜AccInv A B c ![5, 4, 4, 4, 4, 4] ((Memref.whole cc0_scratch0 : Memref sig .tc .vmem S2048x2048 .f32).view.writes (Elt Ideal) f3 [⟨Rect.unit (s := S2048x2048) (k0_off37 c) ![256, 384] (k0_off37_inb c), k0_pay57 (F := Ideal) (View.readAt (Elt Ideal) (Memref.whole cc0_scratch0 : Memref sig .tc .vmem S2048x2048 .f32).view (Rect.unit (s := S2048x2048) (k0_off37 c) ![256, 384] (k0_off37_inb c)).toLoadRect f3) (View.readAt (Elt Ideal) (Memref.whole cc0_scratch1 : Memref sig .tc .vmem S1792x384 .bf16).view (Rect.unit (s := S1792x384) (k0_off57 c) ![256, 384] (k0_off57_inb c)).toLoadRect fl)⟩])⌝ ∗ ⌜∀ (r' : Fin 256) (j : Fin 384), (k0_pay61 (F := Ideal) (k0_pay58 (F := Ideal) ((Memref.whole cc0_scratch0 : Memref sig .tc .vmem S2048x2048 .f32).view.readCov [⟨Rect.unit (s := S2048x2048) (k0_off37 c) ![256, 384] (k0_off37_inb c), k0_pay57 (F := Ideal) (View.readAt (Elt Ideal) (Memref.whole cc0_scratch0 : Memref sig .tc .vmem S2048x2048 .f32).view (Rect.unit (s := S2048x2048) (k0_off37 c) ![256, 384] (k0_off37_inb c)).toLoadRect f3) (View.readAt (Elt Ideal) (Memref.whole cc0_scratch1 : Memref sig .tc .vmem S1792x384 .bf16).view (Rect.unit (s := S1792x384) (k0_off57 c) ![256, 384] (k0_off57_inb c)).toLoadRect fl)⟩] (Rect.unit (s := S2048x2048) (k0_off37 c) ![256, 384] (k0_off37_inb c)).toLoadRect)) (k0_pay59 (F := Ideal) ((Memref.whole cc0_scratch0 : Memref sig .tc .vmem S2048x2048 .f32).view.readCov [⟨Rect.unit (s := S2048x2048) (k0_off37 c) ![256, 384] (k0_off37_inb c), k0_pay57 (F := Ideal) (View.readAt (Elt Ideal) (Memref.whole cc0_scratch0 : Memref sig .tc .vmem S2048x2048 .f32).view (Rect.unit (s := S2048x2048) (k0_off37 c) ![256, 384] (k0_off37_inb c)).toLoadRect f3) (View.readAt (Elt Ideal) (Memref.whole cc0_scratch1 : Memref sig .tc .vmem S1792x384 .bf16).view (Rect.unit (s := S1792x384) (k0_off57 c) ![256, 384] (k0_off57_inb c)).toLoadRect fl)⟩] (Rect.unit (s := S2048x2048) (k0_off37 c) ![256, 384] (k0_off37_inb c)).toLoadRect)) (FloatOps.ofBits (F := Ideal) FTy.f32 1061962282#32) (ix2 r' j) : EReal) = Cert.RefSide.gelu1 (tot A B (ownRow 0 0 c + r'.val) (colLo 0 + j.val))⌝ ∗ ⌜∀ (r' : Fin 256) (j : Fin 384), (k0_pay62 (F := Ideal) (k0_pay58 (F := Ideal) ((Memref.whole cc0_scratch0 : Memref sig .tc .vmem S2048x2048 .f32).view.readCov [⟨Rect.unit (s := S2048x2048) (k0_off37 c) ![256, 384] (k0_off37_inb c), k0_pay57 (F := Ideal) (View.readAt (Elt Ideal) (Memref.whole cc0_scratch0 : Memref sig .tc .vmem S2048x2048 .f32).view (Rect.unit (s := S2048x2048) (k0_off37 c) ![256, 384] (k0_off37_inb c)).toLoadRect f3) (View.readAt (Elt Ideal) (Memref.whole cc0_scratch1 : Memref sig .tc .vmem S1792x384 .bf16).view (Rect.unit (s := S1792x384) (k0_off57 c) ![256, 384] (k0_off57_inb c)).toLoadRect fl)⟩] (Rect.unit (s := S2048x2048) (k0_off37 c) ![256, 384] (k0_off37_inb c)).toLoadRect)) (k0_pay59 (F := Ideal) ((Memref.whole cc0_scratch0 : Memref sig .tc .vmem S2048x2048 .f32).view.readCov [⟨Rect.unit (s := S2048x2048) (k0_off37 c) ![256, 384] (k0_off37_inb c), k0_pay57 (F := Ideal) (View.readAt (Elt Ideal) (Memref.whole cc0_scratch0 : Memref sig .tc .vmem S2048x2048 .f32).view (Rect.unit (s := S2048x2048) (k0_off37 c) ![256, 384] (k0_off37_inb c)).toLoadRect f3) (View.readAt (Elt Ideal) (Memref.whole cc0_scratch1 : Memref sig .tc .vmem S1792x384 .bf16).view (Rect.unit (s := S1792x384) (k0_off57 c) ![256, 384] (k0_off57_inb c)).toLoadRect fl)⟩] (Rect.unit (s := S2048x2048) (k0_off37 c) ![256, 384] (k0_off37_inb c)).toLoadRect)) (FloatOps.ofBits (F := Ideal) FTy.f32 1061962282#32) (ix2 r' j) : EReal) = Cert.RefSide.gelu1 (tot A B (ownRow 0 0 c + r'.val) (colLo 0 + j.val))⌝
            ∗ heldW c (commM0_2 : Memref sig .tc .vmem S256x384 .bf16) fl
            ∗ owes (c : Thread nD τ) (Owe c 21) (insert ((CK.rsR 0 2).sem, ()) (insert ((CK.rsS 0 2).sem, ()) W))
            ∗ atPos ER (cell c (.rsS 0 2)) 1 ∅ 0 ∗ atPos ER (cell c (.rsR 0 2)) 1 ∅ 0
            ∗ ptsAny (F := Ideal) c stgM0_2
            ∗ heldW c (Memref.whole cc0_scratch0 : Memref sig .tc .vmem S2048x2048 .f32) ((Memref.whole cc0_scratch0 : Memref sig .tc .vmem S2048x2048 .f32).view.writes (Elt Ideal) f3 [⟨Rect.unit (s := S2048x2048) (k0_off37 c) ![256, 384] (k0_off37_inb c), k0_pay57 (F := Ideal) (View.readAt (Elt Ideal) (Memref.whole cc0_scratch0 : Memref sig .tc .vmem S2048x2048 .f32).view (Rect.unit (s := S2048x2048) (k0_off37 c) ![256, 384] (k0_off37_inb c)).toLoadRect f3) (View.readAt (Elt Ideal) (Memref.whole cc0_scratch1 : Memref sig .tc .vmem S1792x384 .bf16).view (Rect.unit (s := S1792x384) (k0_off57 c) ![256, 384] (k0_off57_inb c)).toLoadRect fl)⟩]))) := by
  iintro ⟨Hpre, %hA⟩
  have hJ3 : J3 A B 0 384 c f3 := hA.get0
  have hpost : ∀ r : (Σ' (v909 : FVec Ideal S256x384 .f32) (v914 : FVec Ideal S256x384 .f32), Ideal .f32), (iprop(∃ fl : Buf (Elt Ideal) ((commM0_2 : Memref sig .tc .vmem S256x384 .bf16).view.loc (c : Thread nD τ)), ⌜r = ⟨k0_pay58 (F := Ideal) ((Memref.whole cc0_scratch0 : Memref sig .tc .vmem S2048x2048 .f32).view.readCov [⟨Rect.unit (s := S2048x2048) (k0_off37 c) ![256, 384] (k0_off37_inb c), k0_pay57 (F := Ideal) (View.readAt (Elt Ideal) (Memref.whole cc0_scratch0 : Memref sig .tc .vmem S2048x2048 .f32).view (Rect.unit (s := S2048x2048) (k0_off37 c) ![256, 384] (k0_off37_inb c)).toLoadRect f3) (View.readAt (Elt Ideal) (Memref.whole cc0_scratch1 : Memref sig .tc .vmem S1792x384 .bf16).view (Rect.unit (s := S1792x384) (k0_off57 c) ![256, 384] (k0_off57_inb c)).toLoadRect fl)⟩] (Rect.unit (s := S2048x2048) (k0_off37 c) ![256, 384] (k0_off37_inb c)).toLoadRect), ⟨k0_pay59 (F := Ideal) ((Memref.whole cc0_scratch0 : Memref sig .tc .vmem S2048x2048 .f32).view.readCov [⟨Rect.unit (s := S2048x2048) (k0_off37 c) ![256, 384] (k0_off37_inb c), k0_pay57 (F := Ideal) (View.readAt (Elt Ideal) (Memref.whole cc0_scratch0 : Memref sig .tc .vmem S2048x2048 .f32).view (Rect.unit (s := S2048x2048) (k0_off37 c) ![256, 384] (k0_off37_inb c)).toLoadRect f3) (View.readAt (Elt Ideal) (Memref.whole cc0_scratch1 : Memref sig .tc .vmem S1792x384 .bf16).view (Rect.unit (s := S1792x384) (k0_off57 c) ![256, 384] (k0_off57_inb c)).toLoadRect fl)⟩] (Rect.unit (s := S2048x2048) (k0_off37 c) ![256, 384] (k0_off37_inb c)).toLoadRect), FloatOps.ofBits (F := Ideal) FTy.f32 1061962282#32⟩⟩⌝
            ∗ ⌜(Vreal A B).rs0_2 (nbr 2 c) ((commM0_2 : Memref sig .tc .vmem S256x384 .bf16).view.read (Elt Ideal) fl)⌝
            ∗ heldW c (commM0_2 : Memref sig .tc .vmem S256x384 .bf16) fl
            ∗ owes (c : Thread nD τ) (Owe c 21) (insert ((CK.rsR 0 2).sem, ()) (insert ((CK.rsS 0 2).sem, ()) W))
            ∗ atPos ER (cell c (.rsS 0 2)) 1 ∅ 0 ∗ atPos ER (cell c (.rsR 0 2)) 1 ∅ 0
            ∗ ptsAny (F := Ideal) c stgM0_2
            ∗ heldW c (Memref.whole cc0_scratch0 : Memref sig .tc .vmem S2048x2048 .f32) ((Memref.whole cc0_scratch0 : Memref sig .tc .vmem S2048x2048 .f32).view.writes (Elt Ideal) f3 [⟨Rect.unit (s := S2048x2048) (k0_off37 c) ![256, 384] (k0_off37_inb c), k0_pay57 (F := Ideal) (View.readAt (Elt Ideal) (Memref.whole cc0_scratch0 : Memref sig .tc .vmem S2048x2048 .f32).view (Rect.unit (s := S2048x2048) (k0_off37 c) ![256, 384] (k0_off37_inb c)).toLoadRect f3) (View.readAt (Elt Ideal) (Memref.whole cc0_scratch1 : Memref sig .tc .vmem S1792x384 .bf16).view (Rect.unit (s := S1792x384) (k0_off57 c) ![256, 384] (k0_off57_inb c)).toLoadRect fl)⟩])) : sProp 𝕄) ⊢ iprop(∃ fl : Buf (Elt Ideal) ((commM0_2 : Memref sig .tc .vmem S256x384 .bf16).view.loc (c : Thread nD τ)), ⌜r = ⟨k0_pay58 (F := Ideal) ((Memref.whole cc0_scratch0 : Memref sig .tc .vmem S2048x2048 .f32).view.readCov [⟨Rect.unit (s := S2048x2048) (k0_off37 c) ![256, 384] (k0_off37_inb c), k0_pay57 (F := Ideal) (View.readAt (Elt Ideal) (Memref.whole cc0_scratch0 : Memref sig .tc .vmem S2048x2048 .f32).view (Rect.unit (s := S2048x2048) (k0_off37 c) ![256, 384] (k0_off37_inb c)).toLoadRect f3) (View.readAt (Elt Ideal) (Memref.whole cc0_scratch1 : Memref sig .tc .vmem S1792x384 .bf16).view (Rect.unit (s := S1792x384) (k0_off57 c) ![256, 384] (k0_off57_inb c)).toLoadRect fl)⟩] (Rect.unit (s := S2048x2048) (k0_off37 c) ![256, 384] (k0_off37_inb c)).toLoadRect), ⟨k0_pay59 (F := Ideal) ((Memref.whole cc0_scratch0 : Memref sig .tc .vmem S2048x2048 .f32).view.readCov [⟨Rect.unit (s := S2048x2048) (k0_off37 c) ![256, 384] (k0_off37_inb c), k0_pay57 (F := Ideal) (View.readAt (Elt Ideal) (Memref.whole cc0_scratch0 : Memref sig .tc .vmem S2048x2048 .f32).view (Rect.unit (s := S2048x2048) (k0_off37 c) ![256, 384] (k0_off37_inb c)).toLoadRect f3) (View.readAt (Elt Ideal) (Memref.whole cc0_scratch1 : Memref sig .tc .vmem S1792x384 .bf16).view (Rect.unit (s := S1792x384) (k0_off57 c) ![256, 384] (k0_off57_inb c)).toLoadRect fl)⟩] (Rect.unit (s := S2048x2048) (k0_off37 c) ![256, 384] (k0_off37_inb c)).toLoadRect), FloatOps.ofBits (F := Ideal) FTy.f32 1061962282#32⟩⟩⌝
            ∗ ⌜(Vreal A B).rs0_2 (nbr 2 c) ((commM0_2 : Memref sig .tc .vmem S256x384 .bf16).view.read (Elt Ideal) fl)⌝ ∗ ⌜AccInv A B c ![5, 4, 4, 4, 4, 4] ((Memref.whole cc0_scratch0 : Memref sig .tc .vmem S2048x2048 .f32).view.writes (Elt Ideal) f3 [⟨Rect.unit (s := S2048x2048) (k0_off37 c) ![256, 384] (k0_off37_inb c), k0_pay57 (F := Ideal) (View.readAt (Elt Ideal) (Memref.whole cc0_scratch0 : Memref sig .tc .vmem S2048x2048 .f32).view (Rect.unit (s := S2048x2048) (k0_off37 c) ![256, 384] (k0_off37_inb c)).toLoadRect f3) (View.readAt (Elt Ideal) (Memref.whole cc0_scratch1 : Memref sig .tc .vmem S1792x384 .bf16).view (Rect.unit (s := S1792x384) (k0_off57 c) ![256, 384] (k0_off57_inb c)).toLoadRect fl)⟩])⌝ ∗ ⌜∀ (r' : Fin 256) (j : Fin 384), (k0_pay61 (F := Ideal) (k0_pay58 (F := Ideal) ((Memref.whole cc0_scratch0 : Memref sig .tc .vmem S2048x2048 .f32).view.readCov [⟨Rect.unit (s := S2048x2048) (k0_off37 c) ![256, 384] (k0_off37_inb c), k0_pay57 (F := Ideal) (View.readAt (Elt Ideal) (Memref.whole cc0_scratch0 : Memref sig .tc .vmem S2048x2048 .f32).view (Rect.unit (s := S2048x2048) (k0_off37 c) ![256, 384] (k0_off37_inb c)).toLoadRect f3) (View.readAt (Elt Ideal) (Memref.whole cc0_scratch1 : Memref sig .tc .vmem S1792x384 .bf16).view (Rect.unit (s := S1792x384) (k0_off57 c) ![256, 384] (k0_off57_inb c)).toLoadRect fl)⟩] (Rect.unit (s := S2048x2048) (k0_off37 c) ![256, 384] (k0_off37_inb c)).toLoadRect)) (k0_pay59 (F := Ideal) ((Memref.whole cc0_scratch0 : Memref sig .tc .vmem S2048x2048 .f32).view.readCov [⟨Rect.unit (s := S2048x2048) (k0_off37 c) ![256, 384] (k0_off37_inb c), k0_pay57 (F := Ideal) (View.readAt (Elt Ideal) (Memref.whole cc0_scratch0 : Memref sig .tc .vmem S2048x2048 .f32).view (Rect.unit (s := S2048x2048) (k0_off37 c) ![256, 384] (k0_off37_inb c)).toLoadRect f3) (View.readAt (Elt Ideal) (Memref.whole cc0_scratch1 : Memref sig .tc .vmem S1792x384 .bf16).view (Rect.unit (s := S1792x384) (k0_off57 c) ![256, 384] (k0_off57_inb c)).toLoadRect fl)⟩] (Rect.unit (s := S2048x2048) (k0_off37 c) ![256, 384] (k0_off37_inb c)).toLoadRect)) (FloatOps.ofBits (F := Ideal) FTy.f32 1061962282#32) (ix2 r' j) : EReal) = Cert.RefSide.gelu1 (tot A B (ownRow 0 0 c + r'.val) (colLo 0 + j.val))⌝ ∗ ⌜∀ (r' : Fin 256) (j : Fin 384), (k0_pay62 (F := Ideal) (k0_pay58 (F := Ideal) ((Memref.whole cc0_scratch0 : Memref sig .tc .vmem S2048x2048 .f32).view.readCov [⟨Rect.unit (s := S2048x2048) (k0_off37 c) ![256, 384] (k0_off37_inb c), k0_pay57 (F := Ideal) (View.readAt (Elt Ideal) (Memref.whole cc0_scratch0 : Memref sig .tc .vmem S2048x2048 .f32).view (Rect.unit (s := S2048x2048) (k0_off37 c) ![256, 384] (k0_off37_inb c)).toLoadRect f3) (View.readAt (Elt Ideal) (Memref.whole cc0_scratch1 : Memref sig .tc .vmem S1792x384 .bf16).view (Rect.unit (s := S1792x384) (k0_off57 c) ![256, 384] (k0_off57_inb c)).toLoadRect fl)⟩] (Rect.unit (s := S2048x2048) (k0_off37 c) ![256, 384] (k0_off37_inb c)).toLoadRect)) (k0_pay59 (F := Ideal) ((Memref.whole cc0_scratch0 : Memref sig .tc .vmem S2048x2048 .f32).view.readCov [⟨Rect.unit (s := S2048x2048) (k0_off37 c) ![256, 384] (k0_off37_inb c), k0_pay57 (F := Ideal) (View.readAt (Elt Ideal) (Memref.whole cc0_scratch0 : Memref sig .tc .vmem S2048x2048 .f32).view (Rect.unit (s := S2048x2048) (k0_off37 c) ![256, 384] (k0_off37_inb c)).toLoadRect f3) (View.readAt (Elt Ideal) (Memref.whole cc0_scratch1 : Memref sig .tc .vmem S1792x384 .bf16).view (Rect.unit (s := S1792x384) (k0_off57 c) ![256, 384] (k0_off57_inb c)).toLoadRect fl)⟩] (Rect.unit (s := S2048x2048) (k0_off37 c) ![256, 384] (k0_off37_inb c)).toLoadRect)) (FloatOps.ofBits (F := Ideal) FTy.f32 1061962282#32) (ix2 r' j) : EReal) = Cert.RefSide.gelu1 (tot A B (ownRow 0 0 c + r'.val) (colLo 0 + j.val))⌝
            ∗ heldW c (commM0_2 : Memref sig .tc .vmem S256x384 .bf16) fl
            ∗ owes (c : Thread nD τ) (Owe c 21) (insert ((CK.rsR 0 2).sem, ()) (insert ((CK.rsS 0 2).sem, ()) W))
            ∗ atPos ER (cell c (.rsS 0 2)) 1 ∅ 0 ∗ atPos ER (cell c (.rsR 0 2)) 1 ∅ 0
            ∗ ptsAny (F := Ideal) c stgM0_2
            ∗ heldW c (Memref.whole cc0_scratch0 : Memref sig .tc .vmem S2048x2048 .f32) ((Memref.whole cc0_scratch0 : Memref sig .tc .vmem S2048x2048 .f32).view.writes (Elt Ideal) f3 [⟨Rect.unit (s := S2048x2048) (k0_off37 c) ![256, 384] (k0_off37_inb c), k0_pay57 (F := Ideal) (View.readAt (Elt Ideal) (Memref.whole cc0_scratch0 : Memref sig .tc .vmem S2048x2048 .f32).view (Rect.unit (s := S2048x2048) (k0_off37 c) ![256, 384] (k0_off37_inb c)).toLoadRect f3) (View.readAt (Elt Ideal) (Memref.whole cc0_scratch1 : Memref sig .tc .vmem S1792x384 .bf16).view (Rect.unit (s := S1792x384) (k0_off57 c) ![256, 384] (k0_off57_inb c)).toLoadRect fl)⟩])) := by
    intro r
    iintro H
    icases H with ⟨%fl, %hr, %hX, H⟩
    have hx0 : ∀ (r' : Fin 256) (j : Fin 384), (((Memref.whole cc0_scratch0 : Memref sig .tc .vmem S2048x2048 .f32).view.readCov (Val := Elt Ideal) [⟨Rect.unit (s := S2048x2048) (k0_off37 c) ![256, 384] (k0_off37_inb c), k0_pay57 (F := Ideal) (View.readAt (Elt Ideal) (Memref.whole cc0_scratch0 : Memref sig .tc .vmem S2048x2048 .f32).view (Rect.unit (s := S2048x2048) (k0_off37 c) ![256, 384] (k0_off37_inb c)).toLoadRect f3) (View.readAt (Elt Ideal) (Memref.whole cc0_scratch1 : Memref sig .tc .vmem S1792x384 .bf16).view (Rect.unit (s := S1792x384) (k0_off57 c) ![256, 384] (k0_off57_inb c)).toLoadRect fl)⟩] (Rect.unit (s := S2048x2048) (k0_off37 c) ![256, 384] (k0_off37_inb c)).toLoadRect) (ix2 r' j) : EReal) = tot A B (ownRow 0 0 c + r'.val) (colLo 0 + j.val) := by
      intro r' j
      rw [readCov_one, pay57_apply, J3_0_readAt A B hJ3 r' j]
      have e2 : View.readAt (Elt Ideal) (Memref.whole cc0_scratch1 : Memref sig .tc .vmem S1792x384 .bf16).view (Rect.unit (s := S1792x384) (k0_off57 c) ![256, 384] (k0_off57_inb c)).toLoadRect fl
          = (commM0_2 : Memref sig .tc .vmem S256x384 .bf16).view.read (Elt Ideal) fl := by
        rw [View.readAt_rect]
        exact read_slice_congr (b := cc0_scratch1) (Val := Elt Ideal) (inb := k0_off57_inb c) (inb' := inb_S1792x384_S256x384_1536_0) (off57_eq c) fl
      rw [e2, hX r' j]
      exact own_total A B 0 (by decide) c r'.val j.val
    iexists fl
    isplitr; · ipureintro; exact hr
    isplitr; · ipureintro; exact hX
    isplitr
    · ipureintro
      exact AccInv.mk6 LJ_drop
        (LJ_cons (k := 1) (k0_off37_inb c) _ _ (off37_eq c) (Or.inl (show 0 + 384 ≤ colLo (1 : Fin 6).val from by decide)) (LJ_nil hA.get1))
        (LJ_cons (k := 2) (k0_off37_inb c) _ _ (off37_eq c) (Or.inl (show 0 + 384 ≤ colLo (2 : Fin 6).val from by decide)) (LJ_nil hA.get2))
        (LJ_cons (k := 3) (k0_off37_inb c) _ _ (off37_eq c) (Or.inl (show 0 + 384 ≤ colLo (3 : Fin 6).val from by decide)) (LJ_nil hA.get3))
        (LJ_cons (k := 4) (k0_off37_inb c) _ _ (off37_eq c) (Or.inl (show 0 + 384 ≤ colLo (4 : Fin 6).val from by decide)) (LJ_nil hA.get4))
        (LJ_cons (k := 5) (k0_off37_inb c) _ _ (off37_eq c) (Or.inl (show 0 + 384 ≤ colLo (5 : Fin 6).val from by decide)) (LJ_nil hA.get5))
    isplitr
    · ipureintro
      intro r' j
      rw [gelu_pay61, hx0 r' j]
    isplitr
    · ipureintro
      intro r' j
      rw [gelu_pay62, hx0 r' j]
    iexact H
  iapply (wp_mono frame (wpE (defs₀ (F := Ideal)) 𝒱₀ c none) Set.univ hpost)
  iapply (part29_run (Vreal A B) c κw κv W v574 v593 f3)
  iexact Hpre

include hagree in
/-- Stretch 30 with its value facts derived. -/
theorem part30_real (c : Dev nD) (κo κw κv : ℕ) (W : Waits sig Unit) (v574 v628 v647 : BitVec 32) (v909 v914 : FVec Ideal S256x384 .f32) (cst_707 : Ideal .f32)
    (f3 : Buf (Elt Ideal) ((Memref.whole cc0_scratch0 : Memref sig .tc .vmem S2048x2048 .f32).view.loc (c : Thread nD τ)))
    (fa : Buf (Elt Ideal) ((agM0_0 c : Memref sig .tc .vmem S256x384 .bf16).view.loc (c : Thread nD τ)))
    (fo : Buf (Elt Ideal) ((Memref.whole main_v1 : Memref sig .tc .hbm S2048x2048 .f32).view.loc (c : Thread nD τ))) :
    iprop(iprop(owes (c : Thread nD τ) (Owe c 21) W ∗ levAts L lv
        ∗ heldW c (Memref.whole cc0_scratch0 : Memref sig .tc .vmem S2048x2048 .f32) f3
        ∗ heldW c (agM0_0 c : Memref sig .tc .vmem S256x384 .bf16) fa
        ∗ heldW c (Memref.whole main_v1 : Memref sig .tc .hbm S2048x2048 .f32) fo
        ∗ cellInv ER (sched (Vreal A B)) κo (cell c (.out 0)) ∗ dutyTok ER (cell c (.out 0)) 0 (0 : Fin 3) ∗ reached ER (cell c (.out 0)) 0
        ∗ cellInv ER (sched (Vreal A B)) κw (cell c (.rsS 1 2)) ∗ cred (tallyAt (cell c (.rsS 1 2)) () (amt (.rsS 1 2))) ∗ atPos ER (cell c (.rsS 1 2)) 0 ∅ 0
        ∗ cellInv ER (sched (Vreal A B)) κv (cell c (.rsR 1 2)) ∗ cred (tallyAt (cell c (.rsR 1 2)) () (amt (.rsR 1 2))) ∗ atPos ER (cell c (.rsR 1 2)) 0 ∅ 0) ∗ ⌜AccInv A B c ![5, 4, 4, 4, 4, 4] f3⌝ ∗ ⌜∀ (r' : Fin 256) (j : Fin 384), (k0_pay61 (F := Ideal) v909 v914 cst_707 (ix2 r' j) : EReal) = Cert.RefSide.gelu1 (tot A B (ownRow 0 0 c + r'.val) (colLo 0 + j.val))⌝ ∗ ⌜∀ (r' : Fin 256) (j : Fin 384), (k0_pay62 (F := Ideal) v909 v914 cst_707 (ix2 r' j) : EReal) = Cert.RefSide.gelu1 (tot A B (ownRow 0 0 c + r'.val) (colLo 0 + j.val))⌝)
      ⊢ wp frame (wpE (defs₀ (F := Ideal)) 𝒱₀ c none) Set.univ
          (k0_part30 (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23 c v574 v628 v647 v909 v914 cst_707)
          (fun r => iprop((⌜r = ⟨⟩⌝ ∗ cred (tallyAt (cell c (.out 0)) () (amt (.out 0)))
            ∗ owes (c : Thread nD τ) (Owe c 21) (insert ((CK.rsR 1 2).sem, ()) (insert ((CK.rsS 1 2).sem, ()) W))
            ∗ atPos ER (cell c (.rsS 1 2)) 1 ∅ 0 ∗ atPos ER (cell c (.rsR 1 2)) 1 ∅ 0
            ∗ ptsAny (F := Ideal) c stgM1_2 ∗ ptsIs c commM1_2 ((Vreal A B).rs1_2 (nbr 0 c))
            ∗ heldW c (agM0_0 c : Memref sig .tc .vmem S256x384 .bf16) (View.write (Elt Ideal) ((Memref.whole cc0_scratch13 : Memref sig .tc .vmem S2048x384 .bf16).access (Rect.unit (s := S2048x384) (k0_off58 c) ![256, 384] (k0_off58_inb c))) fa (k0_pay62 (F := Ideal) v909 v914 cst_707) Finset.univ)
            ∗ heldW c (outSrcM1 c : Memref sig .tc .vmem S256x384 .f32) ((Memref.whole cc0_scratch0 : Memref sig .tc .vmem S2048x2048 .f32).view.writes (Elt Ideal) f3 [⟨Rect.unit (s := S2048x2048) (k0_off37 c) ![256, 384] (k0_off37_inb c), k0_pay61 (F := Ideal) v909 v914 cst_707⟩])
            ∗ heldW c (outSrcM2 c : Memref sig .tc .vmem S256x384 .f32) ((Memref.whole cc0_scratch0 : Memref sig .tc .vmem S2048x2048 .f32).view.writes (Elt Ideal) f3 [⟨Rect.unit (s := S2048x2048) (k0_off37 c) ![256, 384] (k0_off37_inb c), k0_pay61 (F := Ideal) v909 v914 cst_707⟩])
            ∗ heldW c (outSrcM3 c : Memref sig .tc .vmem S256x384 .f32) ((Memref.whole cc0_scratch0 : Memref sig .tc .vmem S2048x2048 .f32).view.writes (Elt Ideal) f3 [⟨Rect.unit (s := S2048x2048) (k0_off37 c) ![256, 384] (k0_off37_inb c), k0_pay61 (F := Ideal) v909 v914 cst_707⟩])
            ∗ heldW c (outSrcM4 c : Memref sig .tc .vmem S256x256 .f32) ((Memref.whole cc0_scratch0 : Memref sig .tc .vmem S2048x2048 .f32).view.writes (Elt Ideal) f3 [⟨Rect.unit (s := S2048x2048) (k0_off37 c) ![256, 384] (k0_off37_inb c), k0_pay61 (F := Ideal) v909 v914 cst_707⟩])
            ∗ heldW c (outSrcM5 c : Memref sig .tc .vmem S256x256 .f32) ((Memref.whole cc0_scratch0 : Memref sig .tc .vmem S2048x2048 .f32).view.writes (Elt Ideal) f3 [⟨Rect.unit (s := S2048x2048) (k0_off37 c) ![256, 384] (k0_off37_inb c), k0_pay61 (F := Ideal) v909 v914 cst_707⟩])
            ∗ heldW c (outSrcM6 c : Memref sig .tc .vmem S256x384 .f32) ((Memref.whole cc0_scratch0 : Memref sig .tc .vmem S2048x2048 .f32).view.writes (Elt Ideal) f3 [⟨Rect.unit (s := S2048x2048) (k0_off37 c) ![256, 384] (k0_off37_inb c), k0_pay61 (F := Ideal) v909 v914 cst_707⟩])
            ∗ heldW c (outSrcM7 c : Memref sig .tc .vmem S256x384 .f32) ((Memref.whole cc0_scratch0 : Memref sig .tc .vmem S2048x2048 .f32).view.writes (Elt Ideal) f3 [⟨Rect.unit (s := S2048x2048) (k0_off37 c) ![256, 384] (k0_off37_inb c), k0_pay61 (F := Ideal) v909 v914 cst_707⟩])
            ∗ heldW c (outSrcM8 c : Memref sig .tc .vmem S256x384 .f32) ((Memref.whole cc0_scratch0 : Memref sig .tc .vmem S2048x2048 .f32).view.writes (Elt Ideal) f3 [⟨Rect.unit (s := S2048x2048) (k0_off37 c) ![256, 384] (k0_off37_inb c), k0_pay61 (F := Ideal) v909 v914 cst_707⟩])
            ∗ heldW c (outSrcM9 c : Memref sig .tc .vmem S256x384 .f32) ((Memref.whole cc0_scratch0 : Memref sig .tc .vmem S2048x2048 .f32).view.writes (Elt Ideal) f3 [⟨Rect.unit (s := S2048x2048) (k0_off37 c) ![256, 384] (k0_off37_inb c), k0_pay61 (F := Ideal) v909 v914 cst_707⟩])
            ∗ heldW c (outSrcM10 c : Memref sig .tc .vmem S256x256 .f32) ((Memref.whole cc0_scratch0 : Memref sig .tc .vmem S2048x2048 .f32).view.writes (Elt Ideal) f3 [⟨Rect.unit (s := S2048x2048) (k0_off37 c) ![256, 384] (k0_off37_inb c), k0_pay61 (F := Ideal) v909 v914 cst_707⟩])
            ∗ heldW c (outSrcM11 c : Memref sig .tc .vmem S256x256 .f32) ((Memref.whole cc0_scratch0 : Memref sig .tc .vmem S2048x2048 .f32).view.writes (Elt Ideal) f3 [⟨Rect.unit (s := S2048x2048) (k0_off37 c) ![256, 384] (k0_off37_inb c), k0_pay61 (F := Ideal) v909 v914 cst_707⟩])
            ∗ heldW c (outSrcM12 c : Memref sig .tc .vmem S512x384 .f32) ((Memref.whole cc0_scratch0 : Memref sig .tc .vmem S2048x2048 .f32).view.writes (Elt Ideal) f3 [⟨Rect.unit (s := S2048x2048) (k0_off37 c) ![256, 384] (k0_off37_inb c), k0_pay61 (F := Ideal) v909 v914 cst_707⟩])
            ∗ heldW c (outSrcM13 c : Memref sig .tc .vmem S512x384 .f32) ((Memref.whole cc0_scratch0 : Memref sig .tc .vmem S2048x2048 .f32).view.writes (Elt Ideal) f3 [⟨Rect.unit (s := S2048x2048) (k0_off37 c) ![256, 384] (k0_off37_inb c), k0_pay61 (F := Ideal) v909 v914 cst_707⟩])
            ∗ heldW c (outSrcM14 c : Memref sig .tc .vmem S512x384 .f32) ((Memref.whole cc0_scratch0 : Memref sig .tc .vmem S2048x2048 .f32).view.writes (Elt Ideal) f3 [⟨Rect.unit (s := S2048x2048) (k0_off37 c) ![256, 384] (k0_off37_inb c), k0_pay61 (F := Ideal) v909 v914 cst_707⟩])
            ∗ heldW c (outSrcM15 c : Memref sig .tc .vmem S512x384 .f32) ((Memref.whole cc0_scratch0 : Memref sig .tc .vmem S2048x2048 .f32).view.writes (Elt Ideal) f3 [⟨Rect.unit (s := S2048x2048) (k0_off37 c) ![256, 384] (k0_off37_inb c), k0_pay61 (F := Ideal) v909 v914 cst_707⟩])
            ∗ heldW c (outSrcM16 c : Memref sig .tc .vmem S512x256 .f32) ((Memref.whole cc0_scratch0 : Memref sig .tc .vmem S2048x2048 .f32).view.writes (Elt Ideal) f3 [⟨Rect.unit (s := S2048x2048) (k0_off37 c) ![256, 384] (k0_off37_inb c), k0_pay61 (F := Ideal) v909 v914 cst_707⟩])
            ∗ heldW c (outSrcM17 c : Memref sig .tc .vmem S512x256 .f32) ((Memref.whole cc0_scratch0 : Memref sig .tc .vmem S2048x2048 .f32).view.writes (Elt Ideal) f3 [⟨Rect.unit (s := S2048x2048) (k0_off37 c) ![256, 384] (k0_off37_inb c), k0_pay61 (F := Ideal) v909 v914 cst_707⟩])
            ∗ heldW c (outSrcM18 c : Memref sig .tc .vmem S1024x384 .f32) ((Memref.whole cc0_scratch0 : Memref sig .tc .vmem S2048x2048 .f32).view.writes (Elt Ideal) f3 [⟨Rect.unit (s := S2048x2048) (k0_off37 c) ![256, 384] (k0_off37_inb c), k0_pay61 (F := Ideal) v909 v914 cst_707⟩])
            ∗ heldW c (outSrcM19 c : Memref sig .tc .vmem S1024x384 .f32) ((Memref.whole cc0_scratch0 : Memref sig .tc .vmem S2048x2048 .f32).view.writes (Elt Ideal) f3 [⟨Rect.unit (s := S2048x2048) (k0_off37 c) ![256, 384] (k0_off37_inb c), k0_pay61 (F := Ideal) v909 v914 cst_707⟩])
            ∗ heldW c (outSrcM20 c : Memref sig .tc .vmem S1024x384 .f32) ((Memref.whole cc0_scratch0 : Memref sig .tc .vmem S2048x2048 .f32).view.writes (Elt Ideal) f3 [⟨Rect.unit (s := S2048x2048) (k0_off37 c) ![256, 384] (k0_off37_inb c), k0_pay61 (F := Ideal) v909 v914 cst_707⟩])
            ∗ heldW c (outSrcM21 c : Memref sig .tc .vmem S1024x384 .f32) ((Memref.whole cc0_scratch0 : Memref sig .tc .vmem S2048x2048 .f32).view.writes (Elt Ideal) f3 [⟨Rect.unit (s := S2048x2048) (k0_off37 c) ![256, 384] (k0_off37_inb c), k0_pay61 (F := Ideal) v909 v914 cst_707⟩])
            ∗ heldW c (outSrcM22 c : Memref sig .tc .vmem S1024x256 .f32) ((Memref.whole cc0_scratch0 : Memref sig .tc .vmem S2048x2048 .f32).view.writes (Elt Ideal) f3 [⟨Rect.unit (s := S2048x2048) (k0_off37 c) ![256, 384] (k0_off37_inb c), k0_pay61 (F := Ideal) v909 v914 cst_707⟩])
            ∗ heldW c (outSrcM23 c : Memref sig .tc .vmem S1024x256 .f32) ((Memref.whole cc0_scratch0 : Memref sig .tc .vmem S2048x2048 .f32).view.writes (Elt Ideal) f3 [⟨Rect.unit (s := S2048x2048) (k0_off37 c) ![256, 384] (k0_off37_inb c), k0_pay61 (F := Ideal) v909 v914 cst_707⟩])
            ∗ heldW c (outDstM1 c : Memref sig .tc .hbm S256x384 .f32) fo
            ∗ heldW c (outDstM2 c : Memref sig .tc .hbm S256x384 .f32) fo
            ∗ heldW c (outDstM3 c : Memref sig .tc .hbm S256x384 .f32) fo
            ∗ heldW c (outDstM4 c : Memref sig .tc .hbm S256x256 .f32) fo
            ∗ heldW c (outDstM5 c : Memref sig .tc .hbm S256x256 .f32) fo
            ∗ heldW c (outDstM6 c : Memref sig .tc .hbm S256x384 .f32) fo
            ∗ heldW c (outDstM7 c : Memref sig .tc .hbm S256x384 .f32) fo
            ∗ heldW c (outDstM8 c : Memref sig .tc .hbm S256x384 .f32) fo
            ∗ heldW c (outDstM9 c : Memref sig .tc .hbm S256x384 .f32) fo
            ∗ heldW c (outDstM10 c : Memref sig .tc .hbm S256x256 .f32) fo
            ∗ heldW c (outDstM11 c : Memref sig .tc .hbm S256x256 .f32) fo
            ∗ heldW c (outDstM12 c : Memref sig .tc .hbm S512x384 .f32) fo
            ∗ heldW c (outDstM13 c : Memref sig .tc .hbm S512x384 .f32) fo
            ∗ heldW c (outDstM14 c : Memref sig .tc .hbm S512x384 .f32) fo
            ∗ heldW c (outDstM15 c : Memref sig .tc .hbm S512x384 .f32) fo
            ∗ heldW c (outDstM16 c : Memref sig .tc .hbm S512x256 .f32) fo
            ∗ heldW c (outDstM17 c : Memref sig .tc .hbm S512x256 .f32) fo
            ∗ heldW c (outDstM18 c : Memref sig .tc .hbm S1024x384 .f32) fo
            ∗ heldW c (outDstM19 c : Memref sig .tc .hbm S1024x384 .f32) fo
            ∗ heldW c (outDstM20 c : Memref sig .tc .hbm S1024x384 .f32) fo
            ∗ heldW c (outDstM21 c : Memref sig .tc .hbm S1024x384 .f32) fo
            ∗ heldW c (outDstM22 c : Memref sig .tc .hbm S1024x256 .f32) fo
            ∗ heldW c (outDstM23 c : Memref sig .tc .hbm S1024x256 .f32) fo) ∗ ⌜AccInv A B c ![5, 4, 4, 4, 4, 4] ((Memref.whole cc0_scratch0 : Memref sig .tc .vmem S2048x2048 .f32).view.writes (Elt Ideal) f3 [⟨Rect.unit (s := S2048x2048) (k0_off37 c) ![256, 384] (k0_off37_inb c), k0_pay61 (F := Ideal) v909 v914 cst_707⟩])⌝ ∗ ⌜(Vreal A B).ag0_0 c ((agM0_0 c : Memref sig .tc .vmem S256x384 .bf16).view.read (Elt Ideal) (View.write (Elt Ideal) ((Memref.whole cc0_scratch13 : Memref sig .tc .vmem S2048x384 .bf16).access (Rect.unit (s := S2048x384) (k0_off58 c) ![256, 384] (k0_off58_inb c))) fa (k0_pay62 (F := Ideal) v909 v914 cst_707) Finset.univ))⌝)) := by
  iintro ⟨Hpre, %hA, %h61, %h62⟩
  have hV : (Vreal A B).out0 c ((outSrcM0 c : Memref sig .tc .vmem S256x384 .f32).view.read (Elt Ideal) ((Memref.whole cc0_scratch0 : Memref sig .tc .vmem S2048x2048 .f32).view.writes (Elt Ideal) f3 [⟨Rect.unit (s := S2048x2048) (k0_off37 c) ![256, 384] (k0_off37_inb c), k0_pay61 (F := Ideal) v909 v914 cst_707⟩])) := fun r j =>
    (congrFun (read_slice_write_slice (b := cc0_scratch0) (Val := Elt Ideal) (off := k0_off59 c) (off' := k0_off37 c)
      (inb := k0_off59_inb c) (inb' := k0_off37_inb c) ((off59_eq c).trans (off37_eq c).symm) f3 _) (ix2 r j)).trans (h61 r j)
  have hout0 : AccInv A B c ![5, 4, 4, 4, 4, 4] ((Memref.whole cc0_scratch0 : Memref sig .tc .vmem S2048x2048 .f32).view.writes (Elt Ideal) f3 [⟨Rect.unit (s := S2048x2048) (k0_off37 c) ![256, 384] (k0_off37_inb c), k0_pay61 (F := Ideal) v909 v914 cst_707⟩]) :=
    AccInv.mk6 LJ_drop
      (LJ_cons (k := 1) (k0_off37_inb c) _ _ (off37_eq c) (Or.inl (show 0 + 384 ≤ colLo (1 : Fin 6).val from by decide)) (LJ_nil hA.get1))
      (LJ_cons (k := 2) (k0_off37_inb c) _ _ (off37_eq c) (Or.inl (show 0 + 384 ≤ colLo (2 : Fin 6).val from by decide)) (LJ_nil hA.get2))
      (LJ_cons (k := 3) (k0_off37_inb c) _ _ (off37_eq c) (Or.inl (show 0 + 384 ≤ colLo (3 : Fin 6).val from by decide)) (LJ_nil hA.get3))
      (LJ_cons (k := 4) (k0_off37_inb c) _ _ (off37_eq c) (Or.inl (show 0 + 384 ≤ colLo (4 : Fin 6).val from by decide)) (LJ_nil hA.get4))
      (LJ_cons (k := 5) (k0_off37_inb c) _ _ (off37_eq c) (Or.inl (show 0 + 384 ≤ colLo (5 : Fin 6).val from by decide)) (LJ_nil hA.get5))
  have hout1 : (Vreal A B).ag0_0 c ((agM0_0 c : Memref sig .tc .vmem S256x384 .bf16).view.read (Elt Ideal) (View.write (Elt Ideal) ((Memref.whole cc0_scratch13 : Memref sig .tc .vmem S2048x384 .bf16).access (Rect.unit (s := S2048x384) (k0_off58 c) ![256, 384] (k0_off58_inb c))) fa (k0_pay62 (F := Ideal) v909 v914 cst_707) Finset.univ)) :=
    fun r j => (congrFun (read_slice_write_slice (b := cc0_scratch13) (Val := Elt Ideal) (off := k0_off73 c) (off' := k0_off58 c)
      (inb := k0_off73_inb c) (inb' := k0_off58_inb c) ((off73_eq c).trans (off58_eq c).symm) fa _) (ix2 r j)).trans (h62 r j)
  iapply (wp_mono frame (wpE (defs₀ (F := Ideal)) 𝒱₀ c none) Set.univ (fun r => by
    iintro H
    isplitl [H]; · iexact H
    isplitr; · ipureintro; exact hout0
    ipureintro; exact hout1))
  iapply (part30_run (Vreal A B) c κo κw κv W v574 v628 v647 v909 v914 cst_707 f3 fa fo hV)
  iexact Hpre

include hagree in
/-- Stretch 31 with its value facts derived. -/
theorem part31_real (c : Dev nD) (κo : ℕ) (v628 : BitVec 32)
    (fb : Buf (Elt Ideal) ((outSrcM1 c : Memref sig .tc .vmem S256x384 .f32).view.loc (c : Thread nD τ)))
    (fl : Buf (Elt Ideal) ((commM1_2 : Memref sig .tc .vmem S256x384 .bf16).view.loc (c : Thread nD τ)))
    (fa : Buf (Elt Ideal) ((agM1_0 c : Memref sig .tc .vmem S256x384 .bf16).view.loc (c : Thread nD τ)))
    (fo : Buf (Elt Ideal) ((outDstM1 c : Memref sig .tc .hbm S256x384 .f32).view.loc (c : Thread nD τ))) :
    iprop(iprop(heldW c (outSrcM1 c : Memref sig .tc .vmem S256x384 .f32) fb
        ∗ heldW c (commM1_2 : Memref sig .tc .vmem S256x384 .bf16) fl
        ∗ heldW c (agM1_0 c : Memref sig .tc .vmem S256x384 .bf16) fa
        ∗ heldW c (outDstM1 c : Memref sig .tc .hbm S256x384 .f32) fo
        ∗ cellInv ER (sched (Vreal A B)) κo (cell c (.out 1)) ∗ dutyTok ER (cell c (.out 1)) 0 (0 : Fin 3) ∗ reached ER (cell c (.out 1)) 0) ∗ ⌜AccInv A B c ![5, 4, 4, 4, 4, 4] fb⌝ ∗ ⌜(Vreal A B).rs1_2 (nbr 0 c) ((commM1_2 : Memref sig .tc .vmem S256x384 .bf16).view.read (Elt Ideal) fl)⌝)
      ⊢ wp frame (wpE (defs₀ (F := Ideal)) 𝒱₀ c none) Set.univ
          (k0_part31 (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23 c v628)
          (fun r => iprop((⌜r = ⟨⟩⌝ ∗ cred (tallyAt (cell c (.out 1)) () (amt (.out 1)))
            ∗ heldW c (commM1_2 : Memref sig .tc .vmem S256x384 .bf16) fl
            ∗ heldW c (agM1_0 c : Memref sig .tc .vmem S256x384 .bf16) (View.write (Elt Ideal) ((Memref.whole cc0_scratch14 : Memref sig .tc .vmem S2048x384 .bf16).access (Rect.unit (s := S2048x384) (k0_off61 c) ![256, 384] (k0_off61_inb c))) fa (k0_pay66 (F := Ideal) (k0_pay63 (F := Ideal) (View.readAt (Elt Ideal) (Memref.whole cc0_scratch0 : Memref sig .tc .vmem S2048x2048 .f32).view (Rect.unit (s := S2048x2048) (k0_off41 c) ![256, 384] (k0_off41_inb c)).toLoadRect fb) (View.readAt (Elt Ideal) (Memref.whole cc0_scratch2 : Memref sig .tc .vmem S1792x384 .bf16).view (Rect.unit (s := S1792x384) (k0_off60 c) ![256, 384] (k0_off60_inb c)).toLoadRect fl))) Finset.univ)) ∗ ⌜(Vreal A B).ag1_0 c ((agM1_0 c : Memref sig .tc .vmem S256x384 .bf16).view.read (Elt Ideal) (View.write (Elt Ideal) ((Memref.whole cc0_scratch14 : Memref sig .tc .vmem S2048x384 .bf16).access (Rect.unit (s := S2048x384) (k0_off61 c) ![256, 384] (k0_off61_inb c))) fa (k0_pay66 (F := Ideal) (k0_pay63 (F := Ideal) (View.readAt (Elt Ideal) (Memref.whole cc0_scratch0 : Memref sig .tc .vmem S2048x2048 .f32).view (Rect.unit (s := S2048x2048) (k0_off41 c) ![256, 384] (k0_off41_inb c)).toLoadRect fb) (View.readAt (Elt Ideal) (Memref.whole cc0_scratch2 : Memref sig .tc .vmem S1792x384 .bf16).view (Rect.unit (s := S1792x384) (k0_off60 c) ![256, 384] (k0_off60_inb c)).toLoadRect fl))) Finset.univ))⌝ ∗ ⌜AccInv A B c ![5, 5, 4, 4, 4, 4] fb⌝)) := by
  iintro ⟨Hpre, %hA, %hl⟩
  have hJ3 : ∀ (r : Fin 256) (j : Fin 384), ((View.readAt (Elt Ideal) (Memref.whole cc0_scratch0 : Memref sig .tc .vmem S2048x2048 .f32).view (Rect.unit (s := S2048x2048) (k0_off41 c) ![256, 384] (k0_off41_inb c)).toLoadRect fb) (ix2 r j) : EReal)
      = (share A B c.val (ownRow 1 0 c + r.val) (colLo 1 + j.val) + share A B (nb 1 0 c).val (ownRow 1 0 c + r.val) (colLo 1 + j.val))
          + (share A B (nb 1 1 c).val (ownRow 1 0 c + r.val) (colLo 1 + j.val) + share A B (nb 1 0 (nb 1 1 c)).val (ownRow 1 0 c + r.val) (colLo 1 + j.val)) :=
    fun r j => J3_readAt A B (k := 1) (w := 384) hA.get1 (k0_off41 c) (k0_off41_inb c) ((off41_eq c).trans rfl) r j
  have hout0 : (Vreal A B).ag1_0 c ((agM1_0 c : Memref sig .tc .vmem S256x384 .bf16).view.read (Elt Ideal) (View.write (Elt Ideal) ((Memref.whole cc0_scratch14 : Memref sig .tc .vmem S2048x384 .bf16).access (Rect.unit (s := S2048x384) (k0_off61 c) ![256, 384] (k0_off61_inb c))) fa (k0_pay66 (F := Ideal) (k0_pay63 (F := Ideal) (View.readAt (Elt Ideal) (Memref.whole cc0_scratch0 : Memref sig .tc .vmem S2048x2048 .f32).view (Rect.unit (s := S2048x2048) (k0_off41 c) ![256, 384] (k0_off41_inb c)).toLoadRect fb) (View.readAt (Elt Ideal) (Memref.whole cc0_scratch2 : Memref sig .tc .vmem S1792x384 .bf16).view (Rect.unit (s := S1792x384) (k0_off60 c) ![256, 384] (k0_off60_inb c)).toLoadRect fl))) Finset.univ)) :=
    val_ag1_0 A B c fb fl fa hJ3 hl
  have hout1 : AccInv A B c ![5, 5, 4, 4, 4, 4] fb :=
    AccInv.mk6 hA.get0 LJ_drop hA.get2 hA.get3 hA.get4 hA.get5
  iapply (wp_mono frame (wpE (defs₀ (F := Ideal)) 𝒱₀ c none) Set.univ (fun r => by
    iintro H
    isplitl [H]; · iexact H
    isplitr; · ipureintro; exact hout0
    ipureintro; exact hout1))
  iapply (part31_run (Vreal A B) c κo v628 fb fl fa fo (val_out1 A B c fb fl hJ3 hl))
  iexact Hpre

set_option maxHeartbeats 2000000 in
include hagree in
/-- Stretch 32 with its value facts derived. -/
theorem part32_real (c : Dev nD) (κw κv : ℕ) (W : Waits sig Unit) (v682 v701 : BitVec 32)
    (fb : Buf (Elt Ideal) ((outSrcM2 c : Memref sig .tc .vmem S256x384 .f32).view.loc (c : Thread nD τ))) :
    iprop(iprop(owes (c : Thread nD τ) (Owe c 21) W ∗ levAts L lv
        ∗ heldW c (outSrcM2 c : Memref sig .tc .vmem S256x384 .f32) fb
        ∗ cellInv ER (sched (Vreal A B)) κw (cell c (.rsS 2 2)) ∗ cred (tallyAt (cell c (.rsS 2 2)) () (amt (.rsS 2 2))) ∗ atPos ER (cell c (.rsS 2 2)) 0 ∅ 0
        ∗ cellInv ER (sched (Vreal A B)) κv (cell c (.rsR 2 2)) ∗ cred (tallyAt (cell c (.rsR 2 2)) () (amt (.rsR 2 2))) ∗ atPos ER (cell c (.rsR 2 2)) 0 ∅ 0) ∗ ⌜AccInv A B c ![5, 5, 4, 4, 4, 4] fb⌝)
      ⊢ wp frame (wpE (defs₀ (F := Ideal)) 𝒱₀ c none) Set.univ
          (k0_part32 (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23 c v682 v701)
          (fun r => iprop(∃ fl : Buf (Elt Ideal) ((commM2_2 : Memref sig .tc .vmem S256x384 .bf16).view.loc (c : Thread nD τ)), ⌜r = ⟨k0_pay68 (F := Ideal) (k0_pay67 (F := Ideal) (View.readAt (Elt Ideal) (Memref.whole cc0_scratch0 : Memref sig .tc .vmem S2048x2048 .f32).view (Rect.unit (s := S2048x2048) (k0_off45 c) ![256, 384] (k0_off45_inb c)).toLoadRect fb) (View.readAt (Elt Ideal) (Memref.whole cc0_scratch3 : Memref sig .tc .vmem S1792x384 .bf16).view (Rect.unit (s := S1792x384) (k0_off63 c) ![256, 384] (k0_off63_inb c)).toLoadRect fl)), k0_pay69 (F := Ideal) (k0_pay67 (F := Ideal) (View.readAt (Elt Ideal) (Memref.whole cc0_scratch0 : Memref sig .tc .vmem S2048x2048 .f32).view (Rect.unit (s := S2048x2048) (k0_off45 c) ![256, 384] (k0_off45_inb c)).toLoadRect fb) (View.readAt (Elt Ideal) (Memref.whole cc0_scratch3 : Memref sig .tc .vmem S1792x384 .bf16).view (Rect.unit (s := S1792x384) (k0_off63 c) ![256, 384] (k0_off63_inb c)).toLoadRect fl))⟩⌝
            ∗ ⌜(Vreal A B).rs2_2 (nbr 1 c) ((commM2_2 : Memref sig .tc .vmem S256x384 .bf16).view.read (Elt Ideal) fl)⌝ ∗ ⌜AccInv A B c ![5, 5, 5, 4, 4, 4] fb⌝ ∗ ⌜∀ (r' : Fin 256) (j : Fin 384), ((k0_pay67 (F := Ideal) (View.readAt (Elt Ideal) (Memref.whole cc0_scratch0 : Memref sig .tc .vmem S2048x2048 .f32).view (Rect.unit (s := S2048x2048) (k0_off45 c) ![256, 384] (k0_off45_inb c)).toLoadRect fb) (View.readAt (Elt Ideal) (Memref.whole cc0_scratch3 : Memref sig .tc .vmem S1792x384 .bf16).view (Rect.unit (s := S1792x384) (k0_off63 c) ![256, 384] (k0_off63_inb c)).toLoadRect fl)) (ix2 r' j) : EReal) = tot A B (ownRow 2 0 c + r'.val) (colLo 2 + j.val)⌝ ∗ ⌜∀ f2 : Buf (Elt Ideal) ((outSrcM2 c).view.loc (c : Thread nD τ)), (Vreal A B).out2 c ((outSrcM2 c).view.read (Elt Ideal) (((Memref.whole cc0_scratch0 : Memref sig .tc .vmem S2048x2048 .f32).access (Rect.unit (s := S2048x2048) (k0_off45 c) S256x384.size (k0_off45_inb c))).write (Elt Ideal) f2 (k0_pay71 (F := Ideal) (k0_pay68 (F := Ideal) (k0_pay67 (F := Ideal) (View.readAt (Elt Ideal) (Memref.whole cc0_scratch0 : Memref sig .tc .vmem S2048x2048 .f32).view (Rect.unit (s := S2048x2048) (k0_off45 c) ![256, 384] (k0_off45_inb c)).toLoadRect fb) (View.readAt (Elt Ideal) (Memref.whole cc0_scratch3 : Memref sig .tc .vmem S1792x384 .bf16).view (Rect.unit (s := S1792x384) (k0_off63 c) ![256, 384] (k0_off63_inb c)).toLoadRect fl))) (k0_pay69 (F := Ideal) (k0_pay67 (F := Ideal) (View.readAt (Elt Ideal) (Memref.whole cc0_scratch0 : Memref sig .tc .vmem S2048x2048 .f32).view (Rect.unit (s := S2048x2048) (k0_off45 c) ![256, 384] (k0_off45_inb c)).toLoadRect fb) (View.readAt (Elt Ideal) (Memref.whole cc0_scratch3 : Memref sig .tc .vmem S1792x384 .bf16).view (Rect.unit (s := S1792x384) (k0_off63 c) ![256, 384] (k0_off63_inb c)).toLoadRect fl)))) Finset.univ))⌝ ∗ ⌜∀ g2 : Buf (Elt Ideal) ((agM2_0 c).view.loc (c : Thread nD τ)), (Vreal A B).ag2_0 c ((agM2_0 c).view.read (Elt Ideal) (((Memref.whole cc0_scratch15 : Memref sig .tc .vmem S2048x384 .bf16).access (Rect.unit (s := S2048x384) (k0_off64 c) S256x384.size (k0_off64_inb c))).write (Elt Ideal) g2 (k0_pay72 (F := Ideal) (k0_pay68 (F := Ideal) (k0_pay67 (F := Ideal) (View.readAt (Elt Ideal) (Memref.whole cc0_scratch0 : Memref sig .tc .vmem S2048x2048 .f32).view (Rect.unit (s := S2048x2048) (k0_off45 c) ![256, 384] (k0_off45_inb c)).toLoadRect fb) (View.readAt (Elt Ideal) (Memref.whole cc0_scratch3 : Memref sig .tc .vmem S1792x384 .bf16).view (Rect.unit (s := S1792x384) (k0_off63 c) ![256, 384] (k0_off63_inb c)).toLoadRect fl))) (k0_pay69 (F := Ideal) (k0_pay67 (F := Ideal) (View.readAt (Elt Ideal) (Memref.whole cc0_scratch0 : Memref sig .tc .vmem S2048x2048 .f32).view (Rect.unit (s := S2048x2048) (k0_off45 c) ![256, 384] (k0_off45_inb c)).toLoadRect fb) (View.readAt (Elt Ideal) (Memref.whole cc0_scratch3 : Memref sig .tc .vmem S1792x384 .bf16).view (Rect.unit (s := S1792x384) (k0_off63 c) ![256, 384] (k0_off63_inb c)).toLoadRect fl)))) Finset.univ))⌝
            ∗ heldW c (commM2_2 : Memref sig .tc .vmem S256x384 .bf16) fl
            ∗ owes (c : Thread nD τ) (Owe c 21) (insert ((CK.rsR 2 2).sem, ()) (insert ((CK.rsS 2 2).sem, ()) W))
            ∗ atPos ER (cell c (.rsS 2 2)) 1 ∅ 0 ∗ atPos ER (cell c (.rsR 2 2)) 1 ∅ 0
            ∗ ptsAny (F := Ideal) c stgM2_2
            ∗ heldW c (outSrcM2 c : Memref sig .tc .vmem S256x384 .f32) (View.write (Elt Ideal) ((Memref.whole cc0_scratch0 : Memref sig .tc .vmem S2048x2048 .f32).access (Rect.unit (s := S2048x2048) (k0_off45 c) ![256, 384] (k0_off45_inb c))) fb (k0_pay67 (F := Ideal) (View.readAt (Elt Ideal) (Memref.whole cc0_scratch0 : Memref sig .tc .vmem S2048x2048 .f32).view (Rect.unit (s := S2048x2048) (k0_off45 c) ![256, 384] (k0_off45_inb c)).toLoadRect fb) (View.readAt (Elt Ideal) (Memref.whole cc0_scratch3 : Memref sig .tc .vmem S1792x384 .bf16).view (Rect.unit (s := S1792x384) (k0_off63 c) ![256, 384] (k0_off63_inb c)).toLoadRect fl)) Finset.univ))) := by
  iintro ⟨Hpre, %hA⟩
  have hJ3 : J3 A B 2 384 c fb := hA.get2
  have hJ3' : ∀ (r' : Fin 256) (j : Fin 384), ((outSrcM2 c : Memref sig .tc .vmem S256x384 .f32).view.read (Elt Ideal) fb (ix2 r' j) : EReal) = (share A B c.val (ownRow 2 0 c + r'.val) (colLo 2 + j.val) + share A B (nb 2 0 c).val (ownRow 2 0 c + r'.val) (colLo 2 + j.val))
          + (share A B (nb 2 1 c).val (ownRow 2 0 c + r'.val) (colLo 2 + j.val) + share A B (nb 2 0 (nb 2 1 c)).val (ownRow 2 0 c + r'.val) (colLo 2 + j.val)) := by
    intro r' j
    have h := hJ3 r' j ((outSrcM2 c : Memref sig .tc .vmem S256x384 .f32).view.emb (ix2 r' j))
      (by show k0_off65 c 0 + 1 * r'.val = _
          rw [off65_eq]
          show cz c * 1024 + cx c * 512 + cy c * 256 + 1 * r'.val = cz c * 1024 + cx c * 512 + cy c * 256 + r'.val
          omega)
      (by show k0_off65 c 1 + 1 * j.val = _
          rw [off65_eq]
          show 768 + 1 * j.val = 768 + j.val
          omega)
    rw [View.read_apply, cast_eq]
    exact h
  have hpost : ∀ r : (Σ' (v1009 : FVec Ideal S256x384 .f32), FVec Ideal S256x384 .f32), (iprop(∃ fl : Buf (Elt Ideal) ((commM2_2 : Memref sig .tc .vmem S256x384 .bf16).view.loc (c : Thread nD τ)), ⌜r = ⟨k0_pay68 (F := Ideal) (k0_pay67 (F := Ideal) (View.readAt (Elt Ideal) (Memref.whole cc0_scratch0 : Memref sig .tc .vmem S2048x2048 .f32).view (Rect.unit (s := S2048x2048) (k0_off45 c) ![256, 384] (k0_off45_inb c)).toLoadRect fb) (View.readAt (Elt Ideal) (Memref.whole cc0_scratch3 : Memref sig .tc .vmem S1792x384 .bf16).view (Rect.unit (s := S1792x384) (k0_off63 c) ![256, 384] (k0_off63_inb c)).toLoadRect fl)), k0_pay69 (F := Ideal) (k0_pay67 (F := Ideal) (View.readAt (Elt Ideal) (Memref.whole cc0_scratch0 : Memref sig .tc .vmem S2048x2048 .f32).view (Rect.unit (s := S2048x2048) (k0_off45 c) ![256, 384] (k0_off45_inb c)).toLoadRect fb) (View.readAt (Elt Ideal) (Memref.whole cc0_scratch3 : Memref sig .tc .vmem S1792x384 .bf16).view (Rect.unit (s := S1792x384) (k0_off63 c) ![256, 384] (k0_off63_inb c)).toLoadRect fl))⟩⌝
            ∗ ⌜(Vreal A B).rs2_2 (nbr 1 c) ((commM2_2 : Memref sig .tc .vmem S256x384 .bf16).view.read (Elt Ideal) fl)⌝
            ∗ heldW c (commM2_2 : Memref sig .tc .vmem S256x384 .bf16) fl
            ∗ owes (c : Thread nD τ) (Owe c 21) (insert ((CK.rsR 2 2).sem, ()) (insert ((CK.rsS 2 2).sem, ()) W))
            ∗ atPos ER (cell c (.rsS 2 2)) 1 ∅ 0 ∗ atPos ER (cell c (.rsR 2 2)) 1 ∅ 0
            ∗ ptsAny (F := Ideal) c stgM2_2
            ∗ heldW c (outSrcM2 c : Memref sig .tc .vmem S256x384 .f32) (View.write (Elt Ideal) ((Memref.whole cc0_scratch0 : Memref sig .tc .vmem S2048x2048 .f32).access (Rect.unit (s := S2048x2048) (k0_off45 c) ![256, 384] (k0_off45_inb c))) fb (k0_pay67 (F := Ideal) (View.readAt (Elt Ideal) (Memref.whole cc0_scratch0 : Memref sig .tc .vmem S2048x2048 .f32).view (Rect.unit (s := S2048x2048) (k0_off45 c) ![256, 384] (k0_off45_inb c)).toLoadRect fb) (View.readAt (Elt Ideal) (Memref.whole cc0_scratch3 : Memref sig .tc .vmem S1792x384 .bf16).view (Rect.unit (s := S1792x384) (k0_off63 c) ![256, 384] (k0_off63_inb c)).toLoadRect fl)) Finset.univ)) : sProp 𝕄) ⊢ iprop(∃ fl : Buf (Elt Ideal) ((commM2_2 : Memref sig .tc .vmem S256x384 .bf16).view.loc (c : Thread nD τ)), ⌜r = ⟨k0_pay68 (F := Ideal) (k0_pay67 (F := Ideal) (View.readAt (Elt Ideal) (Memref.whole cc0_scratch0 : Memref sig .tc .vmem S2048x2048 .f32).view (Rect.unit (s := S2048x2048) (k0_off45 c) ![256, 384] (k0_off45_inb c)).toLoadRect fb) (View.readAt (Elt Ideal) (Memref.whole cc0_scratch3 : Memref sig .tc .vmem S1792x384 .bf16).view (Rect.unit (s := S1792x384) (k0_off63 c) ![256, 384] (k0_off63_inb c)).toLoadRect fl)), k0_pay69 (F := Ideal) (k0_pay67 (F := Ideal) (View.readAt (Elt Ideal) (Memref.whole cc0_scratch0 : Memref sig .tc .vmem S2048x2048 .f32).view (Rect.unit (s := S2048x2048) (k0_off45 c) ![256, 384] (k0_off45_inb c)).toLoadRect fb) (View.readAt (Elt Ideal) (Memref.whole cc0_scratch3 : Memref sig .tc .vmem S1792x384 .bf16).view (Rect.unit (s := S1792x384) (k0_off63 c) ![256, 384] (k0_off63_inb c)).toLoadRect fl))⟩⌝
            ∗ ⌜(Vreal A B).rs2_2 (nbr 1 c) ((commM2_2 : Memref sig .tc .vmem S256x384 .bf16).view.read (Elt Ideal) fl)⌝ ∗ ⌜AccInv A B c ![5, 5, 5, 4, 4, 4] fb⌝ ∗ ⌜∀ (r' : Fin 256) (j : Fin 384), ((k0_pay67 (F := Ideal) (View.readAt (Elt Ideal) (Memref.whole cc0_scratch0 : Memref sig .tc .vmem S2048x2048 .f32).view (Rect.unit (s := S2048x2048) (k0_off45 c) ![256, 384] (k0_off45_inb c)).toLoadRect fb) (View.readAt (Elt Ideal) (Memref.whole cc0_scratch3 : Memref sig .tc .vmem S1792x384 .bf16).view (Rect.unit (s := S1792x384) (k0_off63 c) ![256, 384] (k0_off63_inb c)).toLoadRect fl)) (ix2 r' j) : EReal) = tot A B (ownRow 2 0 c + r'.val) (colLo 2 + j.val)⌝ ∗ ⌜∀ f2 : Buf (Elt Ideal) ((outSrcM2 c).view.loc (c : Thread nD τ)), (Vreal A B).out2 c ((outSrcM2 c).view.read (Elt Ideal) (((Memref.whole cc0_scratch0 : Memref sig .tc .vmem S2048x2048 .f32).access (Rect.unit (s := S2048x2048) (k0_off45 c) S256x384.size (k0_off45_inb c))).write (Elt Ideal) f2 (k0_pay71 (F := Ideal) (k0_pay68 (F := Ideal) (k0_pay67 (F := Ideal) (View.readAt (Elt Ideal) (Memref.whole cc0_scratch0 : Memref sig .tc .vmem S2048x2048 .f32).view (Rect.unit (s := S2048x2048) (k0_off45 c) ![256, 384] (k0_off45_inb c)).toLoadRect fb) (View.readAt (Elt Ideal) (Memref.whole cc0_scratch3 : Memref sig .tc .vmem S1792x384 .bf16).view (Rect.unit (s := S1792x384) (k0_off63 c) ![256, 384] (k0_off63_inb c)).toLoadRect fl))) (k0_pay69 (F := Ideal) (k0_pay67 (F := Ideal) (View.readAt (Elt Ideal) (Memref.whole cc0_scratch0 : Memref sig .tc .vmem S2048x2048 .f32).view (Rect.unit (s := S2048x2048) (k0_off45 c) ![256, 384] (k0_off45_inb c)).toLoadRect fb) (View.readAt (Elt Ideal) (Memref.whole cc0_scratch3 : Memref sig .tc .vmem S1792x384 .bf16).view (Rect.unit (s := S1792x384) (k0_off63 c) ![256, 384] (k0_off63_inb c)).toLoadRect fl)))) Finset.univ))⌝ ∗ ⌜∀ g2 : Buf (Elt Ideal) ((agM2_0 c).view.loc (c : Thread nD τ)), (Vreal A B).ag2_0 c ((agM2_0 c).view.read (Elt Ideal) (((Memref.whole cc0_scratch15 : Memref sig .tc .vmem S2048x384 .bf16).access (Rect.unit (s := S2048x384) (k0_off64 c) S256x384.size (k0_off64_inb c))).write (Elt Ideal) g2 (k0_pay72 (F := Ideal) (k0_pay68 (F := Ideal) (k0_pay67 (F := Ideal) (View.readAt (Elt Ideal) (Memref.whole cc0_scratch0 : Memref sig .tc .vmem S2048x2048 .f32).view (Rect.unit (s := S2048x2048) (k0_off45 c) ![256, 384] (k0_off45_inb c)).toLoadRect fb) (View.readAt (Elt Ideal) (Memref.whole cc0_scratch3 : Memref sig .tc .vmem S1792x384 .bf16).view (Rect.unit (s := S1792x384) (k0_off63 c) ![256, 384] (k0_off63_inb c)).toLoadRect fl))) (k0_pay69 (F := Ideal) (k0_pay67 (F := Ideal) (View.readAt (Elt Ideal) (Memref.whole cc0_scratch0 : Memref sig .tc .vmem S2048x2048 .f32).view (Rect.unit (s := S2048x2048) (k0_off45 c) ![256, 384] (k0_off45_inb c)).toLoadRect fb) (View.readAt (Elt Ideal) (Memref.whole cc0_scratch3 : Memref sig .tc .vmem S1792x384 .bf16).view (Rect.unit (s := S1792x384) (k0_off63 c) ![256, 384] (k0_off63_inb c)).toLoadRect fl)))) Finset.univ))⌝
            ∗ heldW c (commM2_2 : Memref sig .tc .vmem S256x384 .bf16) fl
            ∗ owes (c : Thread nD τ) (Owe c 21) (insert ((CK.rsR 2 2).sem, ()) (insert ((CK.rsS 2 2).sem, ()) W))
            ∗ atPos ER (cell c (.rsS 2 2)) 1 ∅ 0 ∗ atPos ER (cell c (.rsR 2 2)) 1 ∅ 0
            ∗ ptsAny (F := Ideal) c stgM2_2
            ∗ heldW c (outSrcM2 c : Memref sig .tc .vmem S256x384 .f32) (View.write (Elt Ideal) ((Memref.whole cc0_scratch0 : Memref sig .tc .vmem S2048x2048 .f32).access (Rect.unit (s := S2048x2048) (k0_off45 c) ![256, 384] (k0_off45_inb c))) fb (k0_pay67 (F := Ideal) (View.readAt (Elt Ideal) (Memref.whole cc0_scratch0 : Memref sig .tc .vmem S2048x2048 .f32).view (Rect.unit (s := S2048x2048) (k0_off45 c) ![256, 384] (k0_off45_inb c)).toLoadRect fb) (View.readAt (Elt Ideal) (Memref.whole cc0_scratch3 : Memref sig .tc .vmem S1792x384 .bf16).view (Rect.unit (s := S1792x384) (k0_off63 c) ![256, 384] (k0_off63_inb c)).toLoadRect fl)) Finset.univ)) := by
    intro r
    iintro H
    icases H with ⟨%fl, %hr, %hX, H⟩
    iexists fl
    isplitr; · ipureintro; exact hr
    isplitr; · ipureintro; exact hX
    isplitr
    · ipureintro
      exact AccInv.mk6 hA.get0 hA.get1 LJ_drop hA.get3 hA.get4 hA.get5
    have hx := val_x2 A B c fb fl hJ3' hX
    isplitr
    · ipureintro
      exact hx
    isplitr
    · ipureintro
      exact fun f2 => val_out2 A B c f2 _ hx
    isplitr
    · ipureintro
      exact fun g2 => val_ag2_0 A B c g2 _ hx
    iexact H
  iapply (wp_mono frame (wpE (defs₀ (F := Ideal)) 𝒱₀ c none) Set.univ hpost)
  iapply (part32_run (Vreal A B) c κw κv W v682 v701 fb)
  iexact Hpre

end Cert.KernelIdeal.Proto

end
-- ==== Proof.RealC2.lean ====
/-
Further stretches of a device's kernel body with their value facts derived, over the extended reals.
-/
import proofs.«900882_g7700000000000883_dist_matmul_gelu_kshard_i_m2048_n2048_k1024_v7x_i8_f32_1_alg».proof.Proof.Body34
import proofs.«900882_g7700000000000883_dist_matmul_gelu_kshard_i_m2048_n2048_k1024_v7x_i8_f32_1_alg».proof.Proof.Body35
import proofs.«900882_g7700000000000883_dist_matmul_gelu_kshard_i_m2048_n2048_k1024_v7x_i8_f32_1_alg».proof.Proof.AccInv
import proofs.«900882_g7700000000000883_dist_matmul_gelu_kshard_i_m2048_n2048_k1024_v7x_i8_f32_1_alg».proof.Proof.ValSliceD
import proofs.«900882_g7700000000000883_dist_matmul_gelu_kshard_i_m2048_n2048_k1024_v7x_i8_f32_1_alg».proof.Proof.ValGelu
import proofs.«900882_g7700000000000883_dist_matmul_gelu_kshard_i_m2048_n2048_k1024_v7x_i8_f32_1_alg».proof.Proof.ValSliceC

set_option maxRecDepth 65536

noncomputable section

namespace Cert.KernelIdeal.Proto

open Cert.KernelIdeal Cert.KernelIdeal.Gen Cert.KernelIdeal.Topo
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ UU ℕ

variable (A : (⟨2, ![2048, 8192]⟩ : Shape).Idx → EReal) (B : (⟨2, ![8192, 2048]⟩ : Shape).Idx → EReal)
variable (m : (ℓ : Loc nD τ sig) → Buf (Elt Ideal) ℓ)
    (hagree : ∀ c : Dev nD,
      m ((c : Thread nD τ).loc main_arg0) = Layout.block ⟨2, ![2048, 1024]⟩ ⟨2, ![2048, 8192]⟩ 1 8 c A
      ∧ m ((c : Thread nD τ).loc main_arg1) = Layout.block ⟨2, ![1024, 2048]⟩ ⟨2, ![8192, 2048]⟩ 0 8 c B)

include hagree in
/-- Stretch 34 with its value facts derived. -/
theorem part34_real (c : Dev nD) (κo : ℕ) (v736 : BitVec 32) (v1045 : Vec Ideal S256x384 .f32)
    (f3 : Buf (Elt Ideal) ((outSrcM3 c).view.loc (c : Thread nD τ))) (fc : Buf (Elt Ideal) ((commM3_2 : Memref sig .tc .vmem S256x384 .bf16).view.loc (c : Thread nD τ)))
    (g3 : Buf (Elt Ideal) ((agM3_0 c).view.loc (c : Thread nD τ))) (fd : Buf (Elt Ideal) ((outDstM3 c).view.loc (c : Thread nD τ))) :
    iprop(iprop(cellInv ER (sched (Vreal A B)) κo (cell c (.out 3)) ∗ reached ER (cell c (.out 3)) 0 ∗ dutyTok ER (cell c (.out 3)) 0 (0 : Fin 3)
        ∗ heldW c (commM3_2 : Memref sig .tc .vmem S256x384 .bf16) fc ∗ heldW c (outSrcM3 c) f3 ∗ heldW c (agM3_0 c) g3 ∗ heldW c (outDstM3 c) fd) ∗ ⌜AccInv A B c ![5, 5, 5, 4, 4, 4] f3⌝ ∗ ⌜∀ (r' : Fin 256) (j : Fin 384), (v1045 (ix2 r' j) : EReal) = (share A B c.val (ownRow 3 0 c + r'.val) (colLo 3 + j.val) + share A B (nb 3 0 c).val (ownRow 3 0 c + r'.val) (colLo 3 + j.val))
          + (share A B (nb 3 1 c).val (ownRow 3 0 c + r'.val) (colLo 3 + j.val) + share A B (nb 3 0 (nb 3 1 c)).val (ownRow 3 0 c + r'.val) (colLo 3 + j.val))⌝ ∗ ⌜(Vreal A B).rs3_2 (nbr 2 c) ((commM3_2 : Memref sig .tc .vmem S256x384 .bf16).view.read (Elt Ideal) fc)⌝)
      ⊢ wp frame (wpE (defs₀ (F := Ideal)) 𝒱₀ c none) Set.univ
          (k0_part34 (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23 c v736 v1045)
          (fun r => iprop((⌜r = ⟨⟩⌝
            ∗ cred (tallyAt (cell c (.out 3)) () (amt (.out 3)))
            ∗ heldW c (commM3_2 : Memref sig .tc .vmem S256x384 .bf16) fc ∗ heldW c (agM3_0 c) (((Memref.whole cc0_scratch16 : Memref sig .tc .vmem S2048x384 .bf16).access (Rect.unit (s := S2048x384) (k0_off58 c) S256x384.size (k0_off58_inb c))).write (Elt Ideal) g3 (k0_pay76 (F := Ideal) (k0_pay73 (F := Ideal) v1045 (View.readAt (Elt Ideal) (Memref.whole cc0_scratch4 : Memref sig .tc .vmem S1792x384 .bf16).view (Rect.unit (s := S1792x384) (k0_off57 c) S256x384.size (k0_off57_inb c)).toLoadRect fc))) Finset.univ)) ∗ ⌜(Vreal A B).ag3_0 c ((agM3_0 c : Memref sig .tc .vmem S256x384 .bf16).view.read (Elt Ideal) (((Memref.whole cc0_scratch16 : Memref sig .tc .vmem S2048x384 .bf16).access (Rect.unit (s := S2048x384) (k0_off58 c) S256x384.size (k0_off58_inb c))).write (Elt Ideal) g3 (k0_pay76 (F := Ideal) (k0_pay73 (F := Ideal) v1045 (View.readAt (Elt Ideal) (Memref.whole cc0_scratch4 : Memref sig .tc .vmem S1792x384 .bf16).view (Rect.unit (s := S1792x384) (k0_off57 c) S256x384.size (k0_off57_inb c)).toLoadRect fc))) Finset.univ))⌝ ∗ ⌜AccInv A B c ![5, 5, 5, 5, 4, 4] f3⌝)) := by
  iintro ⟨Hpre, %hA, %hJ3, %hL⟩
  have hout0 : (Vreal A B).ag3_0 c ((agM3_0 c : Memref sig .tc .vmem S256x384 .bf16).view.read (Elt Ideal) (((Memref.whole cc0_scratch16 : Memref sig .tc .vmem S2048x384 .bf16).access (Rect.unit (s := S2048x384) (k0_off58 c) S256x384.size (k0_off58_inb c))).write (Elt Ideal) g3 (k0_pay76 (F := Ideal) (k0_pay73 (F := Ideal) v1045 (View.readAt (Elt Ideal) (Memref.whole cc0_scratch4 : Memref sig .tc .vmem S1792x384 .bf16).view (Rect.unit (s := S1792x384) (k0_off57 c) S256x384.size (k0_off57_inb c)).toLoadRect fc))) Finset.univ)) :=
    val_ag3_0 A B c v1045 fc g3 hJ3 hL
  have hout1 : AccInv A B c ![5, 5, 5, 5, 4, 4] f3 :=
    AccInv.mk6 hA.get0 hA.get1 hA.get2 LJ_drop hA.get4 hA.get5
  iapply (wp_mono frame (wpE (defs₀ (F := Ideal)) 𝒱₀ c none) Set.univ (fun r => by
    iintro H
    isplitl [H]; · iexact H
    isplitr; · ipureintro; exact hout0
    ipureintro; exact hout1))
  iapply (part34_run (Vreal A B) c κo v736 v1045 f3 fc g3 fd (val_out3 A B c v1045 fc f3 hJ3 hL))
  iexact Hpre

set_option maxHeartbeats 2000000 in
include hagree in
/-- Stretch 35 with its value facts derived. -/
theorem part35_real (c : Dev nD) (κs κr : ℕ) (W : Waits sig Unit) (v790 v809 : BitVec 32)
    (f4 : Buf (Elt Ideal) ((outSrcM4 c).view.loc (c : Thread nD τ))) :
    iprop(iprop(cellInv ER (sched (Vreal A B)) κs (cell c (.rsS 4 2)) ∗ cellInv ER (sched (Vreal A B)) κr (cell c (.rsR 4 2))
        ∗ cred (tallyAt (cell c (.rsS 4 2)) () (amt (.rsR 4 2))) ∗ cred (tallyAt (cell c (.rsR 4 2)) () (amt (.rsR 4 2)))
        ∗ atPos ER (cell c (.rsS 4 2)) 0 ∅ 0 ∗ atPos ER (cell c (.rsR 4 2)) 0 ∅ 0
        ∗ owes (c : Thread nD τ) (Owe c 21) W ∗ levAts L lv
        ∗ heldW c (outSrcM4 c) f4) ∗ ⌜AccInv A B c ![5, 5, 5, 5, 4, 4] f4⌝)
      ⊢ wp frame (wpE (defs₀ (F := Ideal)) 𝒱₀ c none) Set.univ
          (k0_part35 (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23 c v790 v809)
          (fun r => iprop(∃ fc : Buf (Elt Ideal) ((commM4_2 : Memref sig .tc .vmem S256x256 .bf16).view.loc (c : Thread nD τ)),
            ⌜r = ⟨k0_pay78 (F := Ideal) (k0_pay77 (F := Ideal) (View.readAt (Elt Ideal) (Memref.whole cc0_scratch0 : Memref sig .tc .vmem S2048x2048 .f32).view (Rect.unit (s := S2048x2048) (k0_off51 c) S256x256.size (k0_off51_inb c)).toLoadRect f4) (View.readAt (Elt Ideal) (Memref.whole cc0_scratch5 : Memref sig .tc .vmem S1792x256 .bf16).view (Rect.unit (s := S1792x256) (k0_off67 c) S256x256.size (k0_off67_inb c)).toLoadRect fc)), k0_pay79 (F := Ideal) (k0_pay77 (F := Ideal) (View.readAt (Elt Ideal) (Memref.whole cc0_scratch0 : Memref sig .tc .vmem S2048x2048 .f32).view (Rect.unit (s := S2048x2048) (k0_off51 c) S256x256.size (k0_off51_inb c)).toLoadRect f4) (View.readAt (Elt Ideal) (Memref.whole cc0_scratch5 : Memref sig .tc .vmem S1792x256 .bf16).view (Rect.unit (s := S1792x256) (k0_off67 c) S256x256.size (k0_off67_inb c)).toLoadRect fc)), Scalar.ofBits .f32 0x3F800000#32⟩⌝
            ∗ ⌜(Vreal A B).rs4_2 (nbr 0 c) ((commM4_2 : Memref sig .tc .vmem S256x256 .bf16).view.read (Elt Ideal) fc)⌝ ∗ ⌜∀ f : Buf (Elt Ideal) ((outSrcM4 c).view.loc (c : Thread nD τ)), (Vreal A B).out4 c ((outSrcM4 c).view.read (Elt Ideal) (((Memref.whole cc0_scratch0 : Memref sig .tc .vmem S2048x2048 .f32).access (Rect.unit (s := S2048x2048) (k0_off51 c) S256x256.size (k0_off51_inb c))).write (Elt Ideal) f (k0_pay81 (F := Ideal) (k0_pay78 (F := Ideal) (k0_pay77 (F := Ideal) (View.readAt (Elt Ideal) (Memref.whole cc0_scratch0 : Memref sig .tc .vmem S2048x2048 .f32).view (Rect.unit (s := S2048x2048) (k0_off51 c) S256x256.size (k0_off51_inb c)).toLoadRect f4) (View.readAt (Elt Ideal) (Memref.whole cc0_scratch5 : Memref sig .tc .vmem S1792x256 .bf16).view (Rect.unit (s := S1792x256) (k0_off67 c) S256x256.size (k0_off67_inb c)).toLoadRect fc))) (k0_pay79 (F := Ideal) (k0_pay77 (F := Ideal) (View.readAt (Elt Ideal) (Memref.whole cc0_scratch0 : Memref sig .tc .vmem S2048x2048 .f32).view (Rect.unit (s := S2048x2048) (k0_off51 c) S256x256.size (k0_off51_inb c)).toLoadRect f4) (View.readAt (Elt Ideal) (Memref.whole cc0_scratch5 : Memref sig .tc .vmem S1792x256 .bf16).view (Rect.unit (s := S1792x256) (k0_off67 c) S256x256.size (k0_off67_inb c)).toLoadRect fc))) (Scalar.ofBits .f32 0x3F800000#32)) Finset.univ))⌝ ∗ ⌜∀ g : Buf (Elt Ideal) ((agM4_0 c).view.loc (c : Thread nD τ)), (Vreal A B).ag4_0 c ((agM4_0 c : Memref sig .tc .vmem S256x256 .bf16).view.read (Elt Ideal) (((Memref.whole cc0_scratch17 : Memref sig .tc .vmem S2048x256 .bf16).access (Rect.unit (s := S2048x256) (k0_off68 c) S256x256.size (k0_off68_inb c))).write (Elt Ideal) g (k0_pay82 (F := Ideal) (k0_pay78 (F := Ideal) (k0_pay77 (F := Ideal) (View.readAt (Elt Ideal) (Memref.whole cc0_scratch0 : Memref sig .tc .vmem S2048x2048 .f32).view (Rect.unit (s := S2048x2048) (k0_off51 c) S256x256.size (k0_off51_inb c)).toLoadRect f4) (View.readAt (Elt Ideal) (Memref.whole cc0_scratch5 : Memref sig .tc .vmem S1792x256 .bf16).view (Rect.unit (s := S1792x256) (k0_off67 c) S256x256.size (k0_off67_inb c)).toLoadRect fc))) (k0_pay79 (F := Ideal) (k0_pay77 (F := Ideal) (View.readAt (Elt Ideal) (Memref.whole cc0_scratch0 : Memref sig .tc .vmem S2048x2048 .f32).view (Rect.unit (s := S2048x2048) (k0_off51 c) S256x256.size (k0_off51_inb c)).toLoadRect f4) (View.readAt (Elt Ideal) (Memref.whole cc0_scratch5 : Memref sig .tc .vmem S1792x256 .bf16).view (Rect.unit (s := S1792x256) (k0_off67 c) S256x256.size (k0_off67_inb c)).toLoadRect fc))) (Scalar.ofBits .f32 0x3F800000#32)) Finset.univ))⌝ ∗ ⌜AccInv A B c ![5, 5, 5, 5, 4, 4] f4⌝
            ∗ owes (c : Thread nD τ) (Owe c 21) (insert ((CK.rsR 4 2).sem, ()) (insert ((CK.rsS 4 2).sem, ()) W))
            ∗ atPos ER (cell c (.rsS 4 2)) 1 ∅ 0 ∗ atPos ER (cell c (.rsR 4 2)) 1 ∅ 0
            ∗ ptsAny (F := Ideal) c stgM4_2
            ∗ heldW c (commM4_2 : Memref sig .tc .vmem S256x256 .bf16) fc
            ∗ heldW c (outSrcM4 c) (((Memref.whole cc0_scratch0 : Memref sig .tc .vmem S2048x2048 .f32).access (Rect.unit (s := S2048x2048) (k0_off51 c) S256x256.size (k0_off51_inb c))).write (Elt Ideal) f4 (k0_pay77 (F := Ideal) (View.readAt (Elt Ideal) (Memref.whole cc0_scratch0 : Memref sig .tc .vmem S2048x2048 .f32).view (Rect.unit (s := S2048x2048) (k0_off51 c) S256x256.size (k0_off51_inb c)).toLoadRect f4) (View.readAt (Elt Ideal) (Memref.whole cc0_scratch5 : Memref sig .tc .vmem S1792x256 .bf16).view (Rect.unit (s := S1792x256) (k0_off67 c) S256x256.size (k0_off67_inb c)).toLoadRect fc)) Finset.univ))) := by
  iintro ⟨Hpre, %hA⟩
  have hJ3 : ∀ (r : Fin 256) (j : Fin 256), ((View.readAt (Elt Ideal) (Memref.whole cc0_scratch0 : Memref sig .tc .vmem S2048x2048 .f32).view (Rect.unit (s := S2048x2048) (k0_off51 c) S256x256.size (k0_off51_inb c)).toLoadRect f4) (ix2 r j) : EReal) = (share A B c.val (ownRow 4 0 c + r.val) (colLo 4 + j.val) + share A B (nb 4 0 c).val (ownRow 4 0 c + r.val) (colLo 4 + j.val))
          + (share A B (nb 4 1 c).val (ownRow 4 0 c + r.val) (colLo 4 + j.val) + share A B (nb 4 0 (nb 4 1 c)).val (ownRow 4 0 c + r.val) (colLo 4 + j.val)) :=
    fun r j => J3_readAt A B (k := 4) (w := 256) hA.get4 (k0_off51 c) (k0_off51_inb c) ((off51_eq c).trans rfl) r j
  have hpost : ∀ r : (Σ' (v1109 : FVec Ideal S256x256 .f32) (v1117 : FVec Ideal S256x256 .f32), Ideal .f32), (iprop(∃ fc : Buf (Elt Ideal) ((commM4_2 : Memref sig .tc .vmem S256x256 .bf16).view.loc (c : Thread nD τ)),
            ⌜r = ⟨k0_pay78 (F := Ideal) (k0_pay77 (F := Ideal) (View.readAt (Elt Ideal) (Memref.whole cc0_scratch0 : Memref sig .tc .vmem S2048x2048 .f32).view (Rect.unit (s := S2048x2048) (k0_off51 c) S256x256.size (k0_off51_inb c)).toLoadRect f4) (View.readAt (Elt Ideal) (Memref.whole cc0_scratch5 : Memref sig .tc .vmem S1792x256 .bf16).view (Rect.unit (s := S1792x256) (k0_off67 c) S256x256.size (k0_off67_inb c)).toLoadRect fc)), k0_pay79 (F := Ideal) (k0_pay77 (F := Ideal) (View.readAt (Elt Ideal) (Memref.whole cc0_scratch0 : Memref sig .tc .vmem S2048x2048 .f32).view (Rect.unit (s := S2048x2048) (k0_off51 c) S256x256.size (k0_off51_inb c)).toLoadRect f4) (View.readAt (Elt Ideal) (Memref.whole cc0_scratch5 : Memref sig .tc .vmem S1792x256 .bf16).view (Rect.unit (s := S1792x256) (k0_off67 c) S256x256.size (k0_off67_inb c)).toLoadRect fc)), Scalar.ofBits .f32 0x3F800000#32⟩⌝
            ∗ ⌜(Vreal A B).rs4_2 (nbr 0 c) ((commM4_2 : Memref sig .tc .vmem S256x256 .bf16).view.read (Elt Ideal) fc)⌝
            ∗ owes (c : Thread nD τ) (Owe c 21) (insert ((CK.rsR 4 2).sem, ()) (insert ((CK.rsS 4 2).sem, ()) W))
            ∗ atPos ER (cell c (.rsS 4 2)) 1 ∅ 0 ∗ atPos ER (cell c (.rsR 4 2)) 1 ∅ 0
            ∗ ptsAny (F := Ideal) c stgM4_2
            ∗ heldW c (commM4_2 : Memref sig .tc .vmem S256x256 .bf16) fc
            ∗ heldW c (outSrcM4 c) (((Memref.whole cc0_scratch0 : Memref sig .tc .vmem S2048x2048 .f32).access (Rect.unit (s := S2048x2048) (k0_off51 c) S256x256.size (k0_off51_inb c))).write (Elt Ideal) f4 (k0_pay77 (F := Ideal) (View.readAt (Elt Ideal) (Memref.whole cc0_scratch0 : Memref sig .tc .vmem S2048x2048 .f32).view (Rect.unit (s := S2048x2048) (k0_off51 c) S256x256.size (k0_off51_inb c)).toLoadRect f4) (View.readAt (Elt Ideal) (Memref.whole cc0_scratch5 : Memref sig .tc .vmem S1792x256 .bf16).view (Rect.unit (s := S1792x256) (k0_off67 c) S256x256.size (k0_off67_inb c)).toLoadRect fc)) Finset.univ)) : sProp 𝕄) ⊢ iprop(∃ fc : Buf (Elt Ideal) ((commM4_2 : Memref sig .tc .vmem S256x256 .bf16).view.loc (c : Thread nD τ)),
            ⌜r = ⟨k0_pay78 (F := Ideal) (k0_pay77 (F := Ideal) (View.readAt (Elt Ideal) (Memref.whole cc0_scratch0 : Memref sig .tc .vmem S2048x2048 .f32).view (Rect.unit (s := S2048x2048) (k0_off51 c) S256x256.size (k0_off51_inb c)).toLoadRect f4) (View.readAt (Elt Ideal) (Memref.whole cc0_scratch5 : Memref sig .tc .vmem S1792x256 .bf16).view (Rect.unit (s := S1792x256) (k0_off67 c) S256x256.size (k0_off67_inb c)).toLoadRect fc)), k0_pay79 (F := Ideal) (k0_pay77 (F := Ideal) (View.readAt (Elt Ideal) (Memref.whole cc0_scratch0 : Memref sig .tc .vmem S2048x2048 .f32).view (Rect.unit (s := S2048x2048) (k0_off51 c) S256x256.size (k0_off51_inb c)).toLoadRect f4) (View.readAt (Elt Ideal) (Memref.whole cc0_scratch5 : Memref sig .tc .vmem S1792x256 .bf16).view (Rect.unit (s := S1792x256) (k0_off67 c) S256x256.size (k0_off67_inb c)).toLoadRect fc)), Scalar.ofBits .f32 0x3F800000#32⟩⌝
            ∗ ⌜(Vreal A B).rs4_2 (nbr 0 c) ((commM4_2 : Memref sig .tc .vmem S256x256 .bf16).view.read (Elt Ideal) fc)⌝ ∗ ⌜∀ f : Buf (Elt Ideal) ((outSrcM4 c).view.loc (c : Thread nD τ)), (Vreal A B).out4 c ((outSrcM4 c).view.read (Elt Ideal) (((Memref.whole cc0_scratch0 : Memref sig .tc .vmem S2048x2048 .f32).access (Rect.unit (s := S2048x2048) (k0_off51 c) S256x256.size (k0_off51_inb c))).write (Elt Ideal) f (k0_pay81 (F := Ideal) (k0_pay78 (F := Ideal) (k0_pay77 (F := Ideal) (View.readAt (Elt Ideal) (Memref.whole cc0_scratch0 : Memref sig .tc .vmem S2048x2048 .f32).view (Rect.unit (s := S2048x2048) (k0_off51 c) S256x256.size (k0_off51_inb c)).toLoadRect f4) (View.readAt (Elt Ideal) (Memref.whole cc0_scratch5 : Memref sig .tc .vmem S1792x256 .bf16).view (Rect.unit (s := S1792x256) (k0_off67 c) S256x256.size (k0_off67_inb c)).toLoadRect fc))) (k0_pay79 (F := Ideal) (k0_pay77 (F := Ideal) (View.readAt (Elt Ideal) (Memref.whole cc0_scratch0 : Memref sig .tc .vmem S2048x2048 .f32).view (Rect.unit (s := S2048x2048) (k0_off51 c) S256x256.size (k0_off51_inb c)).toLoadRect f4) (View.readAt (Elt Ideal) (Memref.whole cc0_scratch5 : Memref sig .tc .vmem S1792x256 .bf16).view (Rect.unit (s := S1792x256) (k0_off67 c) S256x256.size (k0_off67_inb c)).toLoadRect fc))) (Scalar.ofBits .f32 0x3F800000#32)) Finset.univ))⌝ ∗ ⌜∀ g : Buf (Elt Ideal) ((agM4_0 c).view.loc (c : Thread nD τ)), (Vreal A B).ag4_0 c ((agM4_0 c : Memref sig .tc .vmem S256x256 .bf16).view.read (Elt Ideal) (((Memref.whole cc0_scratch17 : Memref sig .tc .vmem S2048x256 .bf16).access (Rect.unit (s := S2048x256) (k0_off68 c) S256x256.size (k0_off68_inb c))).write (Elt Ideal) g (k0_pay82 (F := Ideal) (k0_pay78 (F := Ideal) (k0_pay77 (F := Ideal) (View.readAt (Elt Ideal) (Memref.whole cc0_scratch0 : Memref sig .tc .vmem S2048x2048 .f32).view (Rect.unit (s := S2048x2048) (k0_off51 c) S256x256.size (k0_off51_inb c)).toLoadRect f4) (View.readAt (Elt Ideal) (Memref.whole cc0_scratch5 : Memref sig .tc .vmem S1792x256 .bf16).view (Rect.unit (s := S1792x256) (k0_off67 c) S256x256.size (k0_off67_inb c)).toLoadRect fc))) (k0_pay79 (F := Ideal) (k0_pay77 (F := Ideal) (View.readAt (Elt Ideal) (Memref.whole cc0_scratch0 : Memref sig .tc .vmem S2048x2048 .f32).view (Rect.unit (s := S2048x2048) (k0_off51 c) S256x256.size (k0_off51_inb c)).toLoadRect f4) (View.readAt (Elt Ideal) (Memref.whole cc0_scratch5 : Memref sig .tc .vmem S1792x256 .bf16).view (Rect.unit (s := S1792x256) (k0_off67 c) S256x256.size (k0_off67_inb c)).toLoadRect fc))) (Scalar.ofBits .f32 0x3F800000#32)) Finset.univ))⌝ ∗ ⌜AccInv A B c ![5, 5, 5, 5, 4, 4] f4⌝
            ∗ owes (c : Thread nD τ) (Owe c 21) (insert ((CK.rsR 4 2).sem, ()) (insert ((CK.rsS 4 2).sem, ()) W))
            ∗ atPos ER (cell c (.rsS 4 2)) 1 ∅ 0 ∗ atPos ER (cell c (.rsR 4 2)) 1 ∅ 0
            ∗ ptsAny (F := Ideal) c stgM4_2
            ∗ heldW c (commM4_2 : Memref sig .tc .vmem S256x256 .bf16) fc
            ∗ heldW c (outSrcM4 c) (((Memref.whole cc0_scratch0 : Memref sig .tc .vmem S2048x2048 .f32).access (Rect.unit (s := S2048x2048) (k0_off51 c) S256x256.size (k0_off51_inb c))).write (Elt Ideal) f4 (k0_pay77 (F := Ideal) (View.readAt (Elt Ideal) (Memref.whole cc0_scratch0 : Memref sig .tc .vmem S2048x2048 .f32).view (Rect.unit (s := S2048x2048) (k0_off51 c) S256x256.size (k0_off51_inb c)).toLoadRect f4) (View.readAt (Elt Ideal) (Memref.whole cc0_scratch5 : Memref sig .tc .vmem S1792x256 .bf16).view (Rect.unit (s := S1792x256) (k0_off67 c) S256x256.size (k0_off67_inb c)).toLoadRect fc)) Finset.univ)) := by
    intro r
    iintro H
    icases H with ⟨%fc, %hr, %hX, H⟩
    iexists fc
    isplitr; · ipureintro; exact hr
    isplitr; · ipureintro; exact hX
    isplitr
    · ipureintro
      exact fun f => val_out4 A B c f4 fc f hJ3 hX
    isplitr
    · ipureintro
      exact fun g => val_ag4_0 A B c f4 fc g hJ3 hX
    isplitr
    · ipureintro
      exact hA
    iexact H
  iapply (wp_mono frame (wpE (defs₀ (F := Ideal)) 𝒱₀ c none) Set.univ hpost)
  iapply (part35_run (Vreal A B) c κs κr W v790 v809 f4)
  iexact Hpre

end Cert.KernelIdeal.Proto

end
-- ==== Proof.RealD.lean ====
/-
The stretches of a device's kernel body with every travelling value named over the extended reals: each stretch's run, its
value hypotheses discharged from the facts that hold of its input contents, and the facts of its output contents handed on.
-/
import proofs.«900882_g7700000000000883_dist_matmul_gelu_kshard_i_m2048_n2048_k1024_v7x_i8_f32_1_alg».proof.Proof.Body38
import proofs.«900882_g7700000000000883_dist_matmul_gelu_kshard_i_m2048_n2048_k1024_v7x_i8_f32_1_alg».proof.Proof.Body39
import proofs.«900882_g7700000000000883_dist_matmul_gelu_kshard_i_m2048_n2048_k1024_v7x_i8_f32_1_alg».proof.Proof.Body40
import proofs.«900882_g7700000000000883_dist_matmul_gelu_kshard_i_m2048_n2048_k1024_v7x_i8_f32_1_alg».proof.Proof.Body43
import proofs.«900882_g7700000000000883_dist_matmul_gelu_kshard_i_m2048_n2048_k1024_v7x_i8_f32_1_alg».proof.Proof.Body45
import proofs.«900882_g7700000000000883_dist_matmul_gelu_kshard_i_m2048_n2048_k1024_v7x_i8_f32_1_alg».proof.Proof.ValSliceD

set_option maxRecDepth 100000

noncomputable section

namespace Cert.KernelIdeal.Proto

open Cert.KernelIdeal Cert.KernelIdeal.Gen Cert.KernelIdeal.Topo
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open scoped BigOperators

local notation "𝕄" => MT nD τ sig Unit (Elt Ideal) ℕ UU ℕ

variable (A : (⟨2, ![2048, 8192]⟩ : Shape).Idx → EReal) (B : (⟨2, ![8192, 2048]⟩ : Shape).Idx → EReal)
  (m : (ℓ : Loc nD τ sig) → Buf (Elt Ideal) ℓ)
  (hagree : ∀ c : Dev nD,
    m ((c : Thread nD τ).loc main_arg0) = Layout.block ⟨2, ![2048, 1024]⟩ ⟨2, ![2048, 8192]⟩ 1 8 c A
    ∧ m ((c : Thread nD τ).loc main_arg1) = Layout.block ⟨2, ![1024, 2048]⟩ ⟨2, ![8192, 2048]⟩ 0 8 c B)

/-- A widened entry is the entry (group 3's arrived rows). -/
theorem widened_3 (x : Vec Ideal S256x384 .bf16) (idx : S256x384.Idx) : k0_pay91 (F := Ideal) x idx = x idx := by
  unfold k0_pay91; rw [shapeCast_self]; rfl

/-- Reading block 9 through its piece after storing it through the whole accumulator at the same rows and columns. -/
theorem read_piece_write_box_9 (c : Dev nD) (w : S256x384.Idx → Elt Ideal .f32) :
    ∀ (o : Fin 2 → ℕ) (ho : o = k0_off91 c) (inb : ∀ a, o a + S256x384.size a ≤ S2048x2048.size a)
      (f : Buf (Elt Ideal) (((Memref.whole cc0_scratch0 : Memref sig .tc .vmem S2048x2048 .f32).access (Rect.unit (s := S2048x2048) o S256x384.size inb)).loc (c : Thread nD τ))),
      (outSrcM9 c).view.read (Elt Ideal) (((Memref.whole cc0_scratch0 : Memref sig .tc .vmem S2048x2048 .f32).access (Rect.unit (s := S2048x2048) o S256x384.size inb)).write (Elt Ideal) f w Finset.univ) = w := by
  intro o ho
  subst ho
  intro inb f
  exact View.read_write_univ _ _

theorem outRow_9 : ∀ c : Dev nD, outRow c 9 = ownRow 3 0 (nbr 2 c) := by decide
theorem outColLo_9 : outColLo 9 = colLo 3 := rfl

/-- The load of the rows of group 3 that arrived at all-gather step 0 reads what their piece reads. -/
theorem arrived_rows_3 (c : Dev nD) (g31 : Buf (Elt Ideal) ((agM3_1 c).view.loc (c : Thread nD τ))) (r : Fin 256) (j : Fin 384) :
    (View.readAt (Elt Ideal) (Memref.whole cc0_scratch16 : Memref sig .tc .vmem S2048x384 .bf16).view (Rect.unit (s := S2048x384) (k0_off79 c) S256x384.size (k0_off79_inb c)).toLoadRect g31) (ix2 r j) = (agM3_0 (nbr 2 c)).view.read (Elt Ideal) g31 (ix2 r j) := by
  have he : ((Memref.whole cc0_scratch16 : Memref sig .tc .vmem S2048x384 .bf16).view.slice (Rect.unit (s := S2048x384) (k0_off79 c) S256x384.size (k0_off79_inb c))).emb (ix2 r j)
      = (agM3_0 (nbr 2 c)).view.emb (ix2 r j) := by
    refine funext fun a => Fin.ext ?_
    show k0_off79 c a + 1 * ((ix2 r j) a).val = k0_off73 (nbr 2 c) a + 1 * ((ix2 r j) a).val
    rw [off79_eq, off73_eq, cx_nbr2, cy_nbr2, cz_nbr2]
  show ((Memref.whole cc0_scratch16 : Memref sig .tc .vmem S2048x384 .bf16).view.slice (Rect.unit (s := S2048x384) (k0_off79 c) S256x384.size (k0_off79_inb c))).read (Elt Ideal) g31 (ix2 r j) = _
  rw [View.read_apply, View.read_apply, he]

/-- The block copy 9 reads — the arrived rows of group 3, widened — holds GELU of the product. -/
theorem val_out9_of (c : Dev nD) (f9 : Buf (Elt Ideal) ((outSrcM9 c).view.loc (c : Thread nD τ)))
    (g31 : Buf (Elt Ideal) ((agM3_1 c).view.loc (c : Thread nD τ)))
    (h : (Vreal A B).ag3_0 (nbr 2 c) ((agM3_0 (nbr 2 c)).view.read (Elt Ideal) g31)) :
    (Vreal A B).out9 c ((outSrcM9 c).view.read (Elt Ideal) (((Memref.whole cc0_scratch0 : Memref sig .tc .vmem S2048x2048 .f32).access (Rect.unit (s := S2048x2048) (k0_off90 c) S256x384.size (k0_off90_inb c))).write (Elt Ideal) f9 (k0_pay91 (F := Ideal) (View.readAt (Elt Ideal) (Memref.whole cc0_scratch16 : Memref sig .tc .vmem S2048x384 .bf16).view (Rect.unit (s := S2048x384) (k0_off79 c) S256x384.size (k0_off79_inb c)).toLoadRect g31)) Finset.univ)) := by
  intro r jj
  rw [read_piece_write_box_9 c _ (k0_off90 c) ((off90_eq c).trans (off91_eq c).symm) (k0_off90_inb c) f9, widened_3,
    arrived_rows_3 c g31 r jj, h r jj]
  unfold outSpec agSpec
  rw [outRow_9, outColLo_9]

set_option maxHeartbeats 4000000 in
include hagree in
theorem part38_real (c : Dev nD) (κs0 κr0 κs1 κr1 : ℕ) (W : Waits sig Unit) (v2 v6 v9 v574 v628 v1184 c1_i32_880 : BitVec 32) (g0 : Buf (Elt Ideal) ((agM0_0 c).view.loc (c : Thread nD τ))) (g1 : Buf (Elt Ideal) ((agM1_0 c).view.loc (c : Thread nD τ))) :
    iprop((cellInv ER (sched (Vreal A B)) κs0 (cell c (.agS 0 0)) ∗ cellInv ER (sched (Vreal A B)) κr0 (cell (nbr 2 c) (.agR 0 0))
        ∗ cellInv ER (sched (Vreal A B)) κs1 (cell c (.agS 1 0)) ∗ cellInv ER (sched (Vreal A B)) κr1 (cell (nbr 0 c) (.agR 1 0))
        ∗ reached ER (cell c (.agS 0 0)) 0 ∗ reached ER (cell (nbr 2 c) (.agR 0 0)) 0
        ∗ reached ER (cell c (.agS 1 0)) 0 ∗ reached ER (cell (nbr 0 c) (.agR 1 0)) 0
        ∗ dutyTok ER (cell c (.agS 0 0)) 0 (0 : Fin 3) ∗ dutyTok ER (cell (nbr 2 c) (.agR 0 0)) 0 (0 : Fin 3)
        ∗ dutyTok ER (cell c (.agS 1 0)) 0 (0 : Fin 3) ∗ dutyTok ER (cell (nbr 0 c) (.agR 1 0)) 0 (0 : Fin 3)
        ∗ ptsAny (F := Ideal) (nbr 2 c) (agM0_0 c) ∗ ptsAny (F := Ideal) (nbr 0 c) (agM1_0 c)
        ∗ owes (c : Thread nD τ) (Owe c 21) W
        ∗ heldW c (agM0_0 c) g0 ∗ heldW c (agM1_0 c) g1) ∗ ⌜(Vreal A B).ag0_0 c ((agM0_0 c).view.read (Elt Ideal) g0)⌝ ∗ ⌜(Vreal A B).ag1_0 c ((agM1_0 c).view.read (Elt Ideal) g1)⌝)
      ⊢ wp frame (wpE (defs₀ (F := Ideal)) 𝒱₀ c none) Set.univ
          (k0_part38 (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23 c v2 v6 v9 v574 v628 v1184 c1_i32_880)
          (fun r => iprop(⌜r = ⟨Scalar.subi v574 (Scalar.muli v9 256#32), Scalar.addi (Scalar.subi v574 (Scalar.muli v9 256#32)) (Scalar.muli (Scalar.subi 1#32 v9) 256#32), Scalar.xori v2 1#32,
                Scalar.subi v628 (Scalar.muli v6 256#32), Scalar.addi (Scalar.subi v628 (Scalar.muli v6 256#32)) (Scalar.muli (Scalar.subi 1#32 v6) 256#32), Scalar.xori v2 3#32⟩⌝
            ∗ cred (tallyAt (cell c (.agS 0 0)) () (amt (.agR 0 0))) ∗ cred (tallyAt (cell c (.agS 1 0)) () (amt (.agR 1 0)))
            ∗ owes (c : Thread nD τ) (Owe c 23) W
            ∗ ((agM0_0 c).view.loc (c : Thread nD τ) ↦[(agM0_0 c).view.set]{fullShare.right} g0)
            ∗ ((agM1_0 c).view.loc (c : Thread nD τ) ↦[(agM1_0 c).view.set]{fullShare.right} g1))) := by
  iintro ⟨Hpre, %h0, %h1⟩
  iapply (part38_run (Vreal A B) c κs0 κr0 κs1 κr1 W v2 v6 v9 v574 v628 v1184 c1_i32_880 g0 g1 (h0) (h1))
  iexact Hpre

set_option maxHeartbeats 4000000 in
include hagree in
theorem part39_real (c : Dev nD) (κs2 κr2 κs3 κr3 κs4 κr4 : ℕ) (W : Waits sig Unit) (v2 v8 v9 v682 v736 : BitVec 32) (g2 : Buf (Elt Ideal) ((agM2_0 c).view.loc (c : Thread nD τ))) (g3 : Buf (Elt Ideal) ((agM3_0 c).view.loc (c : Thread nD τ))) (g4 : Buf (Elt Ideal) ((agM4_0 c).view.loc (c : Thread nD τ))) :
    iprop((cellInv ER (sched (Vreal A B)) κs2 (cell c (.agS 2 0)) ∗ cellInv ER (sched (Vreal A B)) κr2 (cell (nbr 1 c) (.agR 2 0))
        ∗ cellInv ER (sched (Vreal A B)) κs3 (cell c (.agS 3 0)) ∗ cellInv ER (sched (Vreal A B)) κr3 (cell (nbr 2 c) (.agR 3 0))
        ∗ cellInv ER (sched (Vreal A B)) κs4 (cell c (.agS 4 0)) ∗ cellInv ER (sched (Vreal A B)) κr4 (cell (nbr 0 c) (.agR 4 0))
        ∗ reached ER (cell c (.agS 2 0)) 0 ∗ reached ER (cell (nbr 1 c) (.agR 2 0)) 0
        ∗ reached ER (cell c (.agS 3 0)) 0 ∗ reached ER (cell (nbr 2 c) (.agR 3 0)) 0
        ∗ reached ER (cell c (.agS 4 0)) 0 ∗ reached ER (cell (nbr 0 c) (.agR 4 0)) 0
        ∗ dutyTok ER (cell c (.agS 2 0)) 0 (0 : Fin 3) ∗ dutyTok ER (cell (nbr 1 c) (.agR 2 0)) 0 (0 : Fin 3)
        ∗ dutyTok ER (cell c (.agS 3 0)) 0 (0 : Fin 3) ∗ dutyTok ER (cell (nbr 2 c) (.agR 3 0)) 0 (0 : Fin 3)
        ∗ dutyTok ER (cell c (.agS 4 0)) 0 (0 : Fin 3) ∗ dutyTok ER (cell (nbr 0 c) (.agR 4 0)) 0 (0 : Fin 3)
        ∗ ptsAny (F := Ideal) (nbr 1 c) (agM2_0 c) ∗ ptsAny (F := Ideal) (nbr 2 c) (agM3_0 c) ∗ ptsAny (F := Ideal) (nbr 0 c) (agM4_0 c)
        ∗ owes (c : Thread nD τ) (Owe c 23) W
        ∗ heldW c (agM2_0 c) g2 ∗ heldW c (agM3_0 c) g3 ∗ heldW c (agM4_0 c) g4) ∗ ⌜(Vreal A B).ag2_0 c ((agM2_0 c).view.read (Elt Ideal) g2)⌝ ∗ ⌜(Vreal A B).ag3_0 c ((agM3_0 c).view.read (Elt Ideal) g3)⌝ ∗ ⌜(Vreal A B).ag4_0 c ((agM4_0 c).view.read (Elt Ideal) g4)⌝)
      ⊢ wp frame (wpE (defs₀ (F := Ideal)) 𝒱₀ c none) Set.univ
          (k0_part39 (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23 c v2 v8 v9 v682 v736)
          (fun r => iprop(⌜r = ⟨Scalar.subi v682 (Scalar.muli v8 256#32), Scalar.addi (Scalar.subi v682 (Scalar.muli v8 256#32)) (Scalar.muli (Scalar.subi 1#32 v8) 256#32), Scalar.xori v2 4#32,
                Scalar.subi v736 (Scalar.muli v9 256#32), Scalar.addi (Scalar.subi v736 (Scalar.muli v9 256#32)) (Scalar.muli (Scalar.subi 1#32 v9) 256#32), Scalar.xori v2 1#32⟩⌝
            ∗ cred (tallyAt (cell c (.agS 2 0)) () (amt (.agR 2 0))) ∗ cred (tallyAt (cell c (.agS 3 0)) () (amt (.agR 3 0))) ∗ cred (tallyAt (cell c (.agS 4 0)) () (amt (.agR 4 0)))
            ∗ owes (c : Thread nD τ) (Owe c 26) W
            ∗ ((agM2_0 c).view.loc (c : Thread nD τ) ↦[(agM2_0 c).view.set]{fullShare.right} g2)
            ∗ ((agM3_0 c).view.loc (c : Thread nD τ) ↦[(agM3_0 c).view.set]{fullShare.right} g3)
            ∗ ((agM4_0 c).view.loc (c : Thread nD τ) ↦[(agM4_0 c).view.set]{fullShare.right} g4))) := by
  iintro ⟨Hpre, %h0, %h1, %h2⟩
  iapply (part39_run (Vreal A B) c κs2 κr2 κs3 κr3 κs4 κr4 W v2 v8 v9 v682 v736 g2 g3 g4 (h0) (h1) (h2))
  iexact Hpre

set_option maxHeartbeats 4000000 in
include hagree in
theorem part40_real (c : Dev nD) (κs5 κr5 κwS : ℕ) (W : Waits sig Unit) (v2 v6 v8 v790 v844 v1184 : BitVec 32) (g5 : Buf (Elt Ideal) ((agM5_0 c).view.loc (c : Thread nD τ))) :
    iprop((cellInv ER (sched (Vreal A B)) κs5 (cell c (.agS 5 0)) ∗ cellInv ER (sched (Vreal A B)) κr5 (cell (nbr 1 c) (.agR 5 0)) ∗ cellInv ER (sched (Vreal A B)) κwS (cell c (.agS 0 0))
        ∗ reached ER (cell c (.agS 5 0)) 0 ∗ reached ER (cell (nbr 1 c) (.agR 5 0)) 0
        ∗ dutyTok ER (cell c (.agS 5 0)) 0 (0 : Fin 3) ∗ dutyTok ER (cell (nbr 1 c) (.agR 5 0)) 0 (0 : Fin 3)
        ∗ ptsAny (F := Ideal) (nbr 1 c) (agM5_0 c)
        ∗ cred (tallyAt (cell c (.agS 0 0)) () (amt (.agR 0 0))) ∗ atPos ER (cell c (.agS 0 0)) 0 ∅ 0
        ∗ owes (c : Thread nD τ) (Owe c 26) W ∗ levAts L lv
        ∗ heldW c (agM5_0 c) g5) ∗ ⌜(Vreal A B).ag5_0 c ((agM5_0 c).view.read (Elt Ideal) g5)⌝)
      ⊢ wp frame (wpE (defs₀ (F := Ideal)) 𝒱₀ c none) Set.univ
          (k0_part40 (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23 c v2 v6 v8 v790 v844 v1184)
          (fun r => iprop(⌜r = ⟨Scalar.subi v790 (Scalar.muli v6 256#32), Scalar.addi (Scalar.subi v790 (Scalar.muli v6 256#32)) (Scalar.muli (Scalar.subi 1#32 v6) 256#32), Scalar.xori v2 3#32,
                Scalar.subi v844 (Scalar.muli v8 256#32), Scalar.addi (Scalar.subi v844 (Scalar.muli v8 256#32)) (Scalar.muli (Scalar.subi 1#32 v8) 256#32)⟩⌝
            ∗ cred (tallyAt (cell c (.agS 5 0)) () (amt (.agR 5 0)))
            ∗ owes (c : Thread nD τ) (Owe c 27) (insert ((CK.agS 0 0).sem, ()) W)
            ∗ atPos ER (cell c (.agS 0 0)) 1 ∅ 0
            ∗ ptsLent (F := Ideal) c (agM0_0 c)
            ∗ ((agM5_0 c).view.loc (c : Thread nD τ) ↦[(agM5_0 c).view.set]{fullShare.right} g5))) := by
  iintro ⟨Hpre, %h0⟩
  iapply (part40_run (Vreal A B) c κs5 κr5 κwS W v2 v6 v8 v790 v844 v1184 g5 (h0))
  iexact Hpre

set_option maxHeartbeats 4000000 in
include hagree in
theorem part43_real (c : Dev nD) (κwS κwR κs κr : ℕ) (W : Waits sig Unit) (v2 v6 v1212 v1222 v1225 : BitVec 32) (g2 : Buf (Elt Ideal) ((agM2_0 c).view.loc (c : Thread nD τ))) (f8 : Buf (Elt Ideal) ((outSrcM8 c).view.loc (c : Thread nD τ))) :
    iprop((cellInv ER (sched (Vreal A B)) κwS (cell c (.agS 2 0)) ∗ cellInv ER (sched (Vreal A B)) κwR (cell c (.agR 2 0))
        ∗ cellInv ER (sched (Vreal A B)) κs (cell c (.agS 2 1)) ∗ cellInv ER (sched (Vreal A B)) κr (cell (nbr 0 c) (.agR 2 1))
        ∗ reached ER (cell c (.agS 2 1)) 0 ∗ reached ER (cell (nbr 0 c) (.agR 2 1)) 0
        ∗ dutyTok ER (cell c (.agS 2 1)) 0 (0 : Fin 3) ∗ dutyTok ER (cell (nbr 0 c) (.agR 2 1)) 0 (0 : Fin 3)
        ∗ cred (tallyAt (cell c (.agS 2 0)) () (amt (.agR 2 0))) ∗ atPos ER (cell c (.agS 2 0)) 0 ∅ 0
        ∗ cred (tallyAt (cell c (.agR 2 0)) () (amt (.agR 2 0))) ∗ atPos ER (cell c (.agR 2 0)) 0 ∅ 0
        ∗ owes (c : Thread nD τ) (Owe c 29) W ∗ levAts L lv
        ∗ ptsAny (F := Ideal) (nbr 0 c) (agM2_1 c)
        ∗ ((agM2_0 c).view.loc (c : Thread nD τ) ↦[(agM2_0 c).view.set]{fullShare.right} g2)
        ∗ heldW c (outSrcM8 c) f8) ∗ ⌜(Vreal A B).ag2_0 c ((agM2_0 c).view.read (Elt Ideal) g2)⌝)
      ⊢ wp frame (wpE (defs₀ (F := Ideal)) 𝒱₀ c none) Set.univ
          (k0_part43 (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23 c v2 v6 v1212 v1222 v1225)
          (fun r => iprop(∃ fa : Buf (Elt Ideal) ((agM2_0 (nbr 1 c)).view.loc (c : Thread nD τ)),
            ⌜r = ⟨Scalar.xori v2 1#32, Scalar.subi v1222 (Scalar.muli v6 512#32), Scalar.addi (Scalar.subi v1222 (Scalar.muli v6 512#32)) (Scalar.muli (Scalar.subi 1#32 v6) 512#32),
                k0_pay89 (View.readAt (Elt Ideal) (Memref.whole cc0_scratch15 : Memref sig .tc .vmem S2048x384 .bf16).view (Rect.unit (s := S2048x384) (k0_off87 c) S256x384.size (k0_off87_inb c)).toLoadRect ((agM2_0 (nbr 1 c)).view.set.piecewise fa g2)),
                View.readAt (Elt Ideal) (Memref.whole cc0_scratch0 : Memref sig .tc .vmem S2048x2048 .f32).view (Rect.unit (s := S2048x2048) (k0_off88 c) S256x384.size (k0_off88_inb c)).toLoadRect f8⟩⌝
            ∗ ⌜(Vreal A B).ag2_0 (nbr 1 c) ((agM2_0 (nbr 1 c)).view.read (Elt Ideal) fa)⌝
            ∗ ⌜(Vreal A B).ag2_1 c ((agM2_1 c).view.read (Elt Ideal) ((agM2_0 (nbr 1 c)).view.set.piecewise fa g2))⌝
            ∗ ⌜∀ (r' : Fin 256) (jj : Fin 384), (k0_pay89 (View.readAt (Elt Ideal) (Memref.whole cc0_scratch15 : Memref sig .tc .vmem S2048x384 .bf16).view (Rect.unit (s := S2048x384) (k0_off87 c) S256x384.size (k0_off87_inb c)).toLoadRect ((agM2_0 (nbr 1 c)).view.set.piecewise fa g2))) (ix2 r' jj) = agSpec A B 2 0 (nbr 1 c) r'.val jj.val⌝
            ∗ owes (c : Thread nD τ) (Owe c 30) (insert ((CK.agR 2 0).sem, ()) (insert ((CK.agS 2 0).sem, ()) W))
            ∗ atPos ER (cell c (.agS 2 0)) 1 ∅ 0 ∗ atPos ER (cell c (.agR 2 0)) 1 ∅ 0
            ∗ cred (tallyAt (cell c (.agS 2 1)) () (amt (.agR 2 1)))
            ∗ ((agM2_1 c).view.loc (c : Thread nD τ) ↦[(agM2_1 c).view.set]{fullShare.right} ((agM2_0 (nbr 1 c)).view.set.piecewise fa g2))
            ∗ heldW c (outSrcM8 c) f8)) := by
  iintro ⟨Hpre, %h0⟩
  have hpost : ∀ r : (Σ' (v1348 : BitVec 32) (v1358 : BitVec 32) (v1361 : BitVec 32) (v1364 : FVec Ideal S256x384 .f32), Vec Ideal S256x384 .f32), (iprop(∃ fa : Buf (Elt Ideal) ((agM2_0 (nbr 1 c)).view.loc (c : Thread nD τ)),
            ⌜r = ⟨Scalar.xori v2 1#32, Scalar.subi v1222 (Scalar.muli v6 512#32), Scalar.addi (Scalar.subi v1222 (Scalar.muli v6 512#32)) (Scalar.muli (Scalar.subi 1#32 v6) 512#32),
                k0_pay89 (View.readAt (Elt Ideal) (Memref.whole cc0_scratch15 : Memref sig .tc .vmem S2048x384 .bf16).view (Rect.unit (s := S2048x384) (k0_off87 c) S256x384.size (k0_off87_inb c)).toLoadRect ((agM2_0 (nbr 1 c)).view.set.piecewise fa g2)),
                View.readAt (Elt Ideal) (Memref.whole cc0_scratch0 : Memref sig .tc .vmem S2048x2048 .f32).view (Rect.unit (s := S2048x2048) (k0_off88 c) S256x384.size (k0_off88_inb c)).toLoadRect f8⟩⌝
            ∗ ⌜(Vreal A B).ag2_0 (nbr 1 c) ((agM2_0 (nbr 1 c)).view.read (Elt Ideal) fa)⌝
            ∗ owes (c : Thread nD τ) (Owe c 30) (insert ((CK.agR 2 0).sem, ()) (insert ((CK.agS 2 0).sem, ()) W))
            ∗ atPos ER (cell c (.agS 2 0)) 1 ∅ 0 ∗ atPos ER (cell c (.agR 2 0)) 1 ∅ 0
            ∗ cred (tallyAt (cell c (.agS 2 1)) () (amt (.agR 2 1)))
            ∗ ((agM2_1 c).view.loc (c : Thread nD τ) ↦[(agM2_1 c).view.set]{fullShare.right} ((agM2_0 (nbr 1 c)).view.set.piecewise fa g2))
            ∗ heldW c (outSrcM8 c) f8) : sProp 𝕄) ⊢ iprop(∃ fa : Buf (Elt Ideal) ((agM2_0 (nbr 1 c)).view.loc (c : Thread nD τ)),
            ⌜r = ⟨Scalar.xori v2 1#32, Scalar.subi v1222 (Scalar.muli v6 512#32), Scalar.addi (Scalar.subi v1222 (Scalar.muli v6 512#32)) (Scalar.muli (Scalar.subi 1#32 v6) 512#32),
                k0_pay89 (View.readAt (Elt Ideal) (Memref.whole cc0_scratch15 : Memref sig .tc .vmem S2048x384 .bf16).view (Rect.unit (s := S2048x384) (k0_off87 c) S256x384.size (k0_off87_inb c)).toLoadRect ((agM2_0 (nbr 1 c)).view.set.piecewise fa g2)),
                View.readAt (Elt Ideal) (Memref.whole cc0_scratch0 : Memref sig .tc .vmem S2048x2048 .f32).view (Rect.unit (s := S2048x2048) (k0_off88 c) S256x384.size (k0_off88_inb c)).toLoadRect f8⟩⌝
            ∗ ⌜(Vreal A B).ag2_0 (nbr 1 c) ((agM2_0 (nbr 1 c)).view.read (Elt Ideal) fa)⌝
            ∗ ⌜(Vreal A B).ag2_1 c ((agM2_1 c).view.read (Elt Ideal) ((agM2_0 (nbr 1 c)).view.set.piecewise fa g2))⌝
            ∗ ⌜∀ (r' : Fin 256) (jj : Fin 384), (k0_pay89 (View.readAt (Elt Ideal) (Memref.whole cc0_scratch15 : Memref sig .tc .vmem S2048x384 .bf16).view (Rect.unit (s := S2048x384) (k0_off87 c) S256x384.size (k0_off87_inb c)).toLoadRect ((agM2_0 (nbr 1 c)).view.set.piecewise fa g2))) (ix2 r' jj) = agSpec A B 2 0 (nbr 1 c) r'.val jj.val⌝
            ∗ owes (c : Thread nD τ) (Owe c 30) (insert ((CK.agR 2 0).sem, ()) (insert ((CK.agS 2 0).sem, ()) W))
            ∗ atPos ER (cell c (.agS 2 0)) 1 ∅ 0 ∗ atPos ER (cell c (.agR 2 0)) 1 ∅ 0
            ∗ cred (tallyAt (cell c (.agS 2 1)) () (amt (.agR 2 1)))
            ∗ ((agM2_1 c).view.loc (c : Thread nD τ) ↦[(agM2_1 c).view.set]{fullShare.right} ((agM2_0 (nbr 1 c)).view.set.piecewise fa g2))
            ∗ heldW c (outSrcM8 c) f8) := by
    intro r
    iintro ⟨%fa, %hr, %hfa, H⟩
    iexists fa
    isplitr; · ipureintro; exact hr
    isplitr; · ipureintro; exact hfa
    isplitr; · ipureintro; exact val_ag2_1 A B c g2 h0 fa hfa
    isplitr; · ipureintro; exact fun r' jj => (arrived_rows_2 c g2 fa r' jj).trans (hfa r' jj)
    iexact H
  iapply (wp_mono frame (wpE (defs₀ (F := Ideal)) 𝒱₀ c none) Set.univ hpost)
  iapply (part43_run (Vreal A B) c κwS κwR κs κr W v2 v6 v1212 v1222 v1225 g2 f8 (val_ag2_1 A B c g2 h0))
  iexact Hpre

set_option maxHeartbeats 4000000 in
include hagree in
theorem part45_real (c : Dev nD) (κo κwS κwR : ℕ) (W : Waits sig Unit) (v2 v8 v1239 v1240 v1393 : BitVec 32) (g31 : Buf (Elt Ideal) ((agM3_1 c).view.loc (c : Thread nD τ))) (f9 : Buf (Elt Ideal) ((outSrcM9 c).view.loc (c : Thread nD τ))) (fd : Buf (Elt Ideal) ((outDstM9 c).view.loc (c : Thread nD τ))) :
    iprop((cellInv ER (sched (Vreal A B)) κo (cell c (.out 9)) ∗ cellInv ER (sched (Vreal A B)) κwS (cell c (.agS 4 0)) ∗ cellInv ER (sched (Vreal A B)) κwR (cell c (.agR 4 0))
        ∗ reached ER (cell c (.out 9)) 0 ∗ dutyTok ER (cell c (.out 9)) 0 (0 : Fin 3)
        ∗ cred (tallyAt (cell c (.agS 4 0)) () (amt (.agR 4 0))) ∗ atPos ER (cell c (.agS 4 0)) 0 ∅ 0
        ∗ cred (tallyAt (cell c (.agR 4 0)) () (amt (.agR 4 0))) ∗ atPos ER (cell c (.agR 4 0)) 0 ∅ 0
        ∗ owes (c : Thread nD τ) (Owe c 31) W ∗ levAts L lv
        ∗ ((agM3_1 c).view.loc (c : Thread nD τ) ↦[(agM3_1 c).view.set]{fullShare.right} g31)
        ∗ heldW c (outSrcM9 c) f9 ∗ heldW c (outDstM9 c) fd) ∗ ⌜(Vreal A B).ag3_0 (nbr 2 c) ((agM3_0 (nbr 2 c)).view.read (Elt Ideal) g31)⌝)
      ⊢ wp frame (wpE (defs₀ (F := Ideal)) 𝒱₀ c none) Set.univ
          (k0_part45 (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23 c v2 v8 v1239 v1240 v1393)
          (fun r => iprop(⌜r = ⟨Scalar.addi v1393 (Scalar.muli (Scalar.subi 1#32 v8) 512#32), Scalar.xori v2 4#32⟩⌝
            ∗ cred (tallyAt (cell c (.out 9)) () (amt (.out 9)))
            ∗ owes (c : Thread nD τ) (Owe c 31) (insert ((CK.agR 4 0).sem, ()) (insert ((CK.agS 4 0).sem, ()) W))
            ∗ atPos ER (cell c (.agS 4 0)) 1 ∅ 0 ∗ atPos ER (cell c (.agR 4 0)) 1 ∅ 0
            ∗ ptsLent (F := Ideal) c (agM4_0 c) ∗ ptsIs c (agM4_0 (nbr 0 c)) ((Vreal A B).ag4_0 (nbr 0 c))
            ∗ ((agM3_1 c).view.loc (c : Thread nD τ) ↦[(agM3_1 c).view.set]{fullShare.right} g31))) := by
  iintro ⟨Hpre, %h0⟩
  iapply (part45_run (Vreal A B) c κo κwS κwR W v2 v8 v1239 v1240 v1393 g31 f9 fd (val_out9_of A B c f9 g31 h0))
  iexact Hpre

end Cert.KernelIdeal.Proto

end
-- ==== Proof.ValSliceE.lean ====
/-
The values of the second and last all-gather rounds, over the extended reals, for each column group k. A device's
1024 rows of the second round are its own 512 rows, which hold the finished entries (gelu of the whole product) at its
quarter of the rows, and the 512 rows that arrived from its neighbour across the round's axis, which hold the finished
entries at the neighbour's quarter: the two quarters are the two halves of the device's half, so the 1024 rows hold the
finished entries at its half. The arrived quarter, widened to f32 and stored into its block of the accumulator, makes
that block hold the finished entries at the block's rows and the group's columns: that is what the result copies 12 to
17 move; and the half that arrives at the last round, widened, is what the result copies 18 to 23 move.
-/
import proofs.«900882_g7700000000000883_dist_matmul_gelu_kshard_i_m2048_n2048_k1024_v7x_i8_f32_1_alg».proof.Proof.Dats
import proofs.«900882_g7700000000000883_dist_matmul_gelu_kshard_i_m2048_n2048_k1024_v7x_i8_f32_1_alg».proof.Proof.ValsRealTab
import proofs.«900882_g7700000000000883_dist_matmul_gelu_kshard_i_m2048_n2048_k1024_v7x_i8_f32_1_alg».proof.Proof.TopoTab
import proofs.«900882_g7700000000000883_dist_matmul_gelu_kshard_i_m2048_n2048_k1024_v7x_i8_f32_1_alg».proof.Proof.PiecesTab
import proofs.«900882_g7700000000000883_dist_matmul_gelu_kshard_i_m2048_n2048_k1024_v7x_i8_f32_1_alg».proof.Proof.Gen.KernelIdeal.Skeleton
import Idealize.ShloMosaic.Lib.Pipeline.Value
import Idealize.ShloMosaic.Lib.WritesUnit
import Idealize.ShloMosaic.Lib.ValueIdxCoords
import Idealize.ShloMosaic.PureOps.Ideal.Laws

set_option maxRecDepth 100000

noncomputable section

namespace Cert.KernelIdeal.Proto

open Cert.KernelIdeal Cert.KernelIdeal.Gen Cert.KernelIdeal.Topo
open Idealize.ShloMosaic Idealize.ShloMosaic.TcCoe Idealize.ShloMosaic.ValueIdx
open scoped BigOperators

variable (A : (⟨2, ![2048, 8192]⟩ : Shape).Idx → EReal) (B : (⟨2, ![8192, 2048]⟩ : Shape).Idx → EReal)

/-- The rows a device sends at the second all-gather round of group 0 hold the finished entries at its half of the rows,
    given that its own quarter and the quarter that arrived from its neighbour across axis 1 hold theirs. -/
theorem val_ag0_2 (c : Dev nD) (g1 f2 : Buf (Elt Ideal) ((Memref.whole cc0_scratch13 : Memref sig .tc .vmem S2048x384 .bf16).view.loc (c : Thread nD τ)))
    (hg1 : (Vreal A B).ag0_1 c ((agM0_1 c).view.read (Elt Ideal) g1))
    (hf2 : (Vreal A B).ag0_1 (nbr 1 c) ((agM0_1 (nbr 1 c)).view.read (Elt Ideal) f2)) :
    (Vreal A B).ag0_2 c ((agM0_2 c).view.read (Elt Ideal) (((agM0_1 (nbr 1 c)).view.set : Finset (Idx ((Memref.whole cc0_scratch13 : Memref sig .tc .vmem S2048x384 .bf16).view.loc (c : Thread nD τ)))).piecewise f2 g1)) := by
  intro r j
  have hcy := cy_le c
  have h02 : ownRow 0 2 c = cx c * 1024 := by simp [ownRow, coordN]
  by_cases hown : cy c * 512 ≤ r.val ∧ r.val < cy c * 512 + 512
  · -- a row of the device's own quarter
    have hr' : r.val - cy c * 512 < 512 := by omega
    have hidx : (agM0_2 c).view.emb (ix2 r j) = (agM0_1 c).view.emb (ix2 ⟨r.val - cy c * 512, hr'⟩ j) := by
      apply Shape.idx_ext₂
      · show k0_off100 c 0 + 1 * r.val = k0_off78 c 0 + 1 * (r.val - cy c * 512)
        rw [off100_eq, off78_eq]; simp only [Matrix.cons_val_zero]; omega
      · show k0_off100 c 1 + 1 * j.val = k0_off78 c 1 + 1 * j.val
        rw [off100_eq, off78_eq]; simp only [Matrix.cons_val_one]
    have hnot : (agM0_2 c).view.emb (ix2 r j) ∉ (agM0_1 (nbr 1 c)).view.set := by
      rw [hidx]; exact Finset.disjoint_left.mp (ag_disj1_0 c) (View.emb_mem_set _ _)
    have h1 := hg1 ⟨r.val - cy c * 512, hr'⟩ j
    have e : (agM0_2 c).view.read (Elt Ideal) (((agM0_1 (nbr 1 c)).view.set : Finset (Idx ((Memref.whole cc0_scratch13 : Memref sig .tc .vmem S2048x384 .bf16).view.loc (c : Thread nD τ)))).piecewise f2 g1) (ix2 r j) = (agM0_1 c).view.read (Elt Ideal) g1 (ix2 ⟨r.val - cy c * 512, hr'⟩ j) := by
      rw [View.read_apply, View.read_apply, Finset.piecewise_eq_of_notMem _ _ _ hnot, hidx]
    rw [e, h1]
    have h01 : ownRow 0 1 c = cx c * 1024 + cy c * 512 := by simp [ownRow, coordN]
    show Cert.RefSide.gelu1 (tot A B (ownRow 0 1 c + (r.val - cy c * 512)) (colLo 0 + j.val)) = Cert.RefSide.gelu1 (tot A B (ownRow 0 2 c + r.val) (colLo 0 + j.val))
    rw [h01, h02, show cx c * 1024 + cy c * 512 + (r.val - cy c * 512) = cx c * 1024 + r.val from by omega]
  · -- a row of the quarter that arrived from the neighbour across axis 1
    have hlo : (1 - cy c) * 512 ≤ r.val := by have := r.isLt; omega
    have hr' : r.val - (1 - cy c) * 512 < 512 := by have := r.isLt; omega
    have hidx : (agM0_2 c).view.emb (ix2 r j) = (agM0_1 (nbr 1 c)).view.emb (ix2 ⟨r.val - (1 - cy c) * 512, hr'⟩ j) := by
      apply Shape.idx_ext₂
      · show k0_off100 c 0 + 1 * r.val = k0_off78 (nbr 1 c) 0 + 1 * (r.val - (1 - cy c) * 512)
        rw [off100_eq, off78_eq, cx_nbr1, cy_nbr1]; simp only [Matrix.cons_val_zero]; omega
      · show k0_off100 c 1 + 1 * j.val = k0_off78 (nbr 1 c) 1 + 1 * j.val
        rw [off100_eq, off78_eq]; simp only [Matrix.cons_val_one]
    have hmem : (agM0_2 c).view.emb (ix2 r j) ∈ (agM0_1 (nbr 1 c)).view.set := by
      rw [hidx]; exact View.emb_mem_set _ _
    have h1 := hf2 ⟨r.val - (1 - cy c) * 512, hr'⟩ j
    have e : (agM0_2 c).view.read (Elt Ideal) (((agM0_1 (nbr 1 c)).view.set : Finset (Idx ((Memref.whole cc0_scratch13 : Memref sig .tc .vmem S2048x384 .bf16).view.loc (c : Thread nD τ)))).piecewise f2 g1) (ix2 r j) = (agM0_1 (nbr 1 c)).view.read (Elt Ideal) f2 (ix2 ⟨r.val - (1 - cy c) * 512, hr'⟩ j) := by
      rw [View.read_apply, View.read_apply, Finset.piecewise_eq_of_mem _ _ _ hmem, hidx]
    rw [e, h1]
    have h01 : ownRow 0 1 (nbr 1 c) = cx c * 1024 + (1 - cy c) * 512 := by simp [ownRow, coordN, cx_nbr1, cy_nbr1]
    show Cert.RefSide.gelu1 (tot A B (ownRow 0 1 (nbr 1 c) + (r.val - (1 - cy c) * 512)) (colLo 0 + j.val)) = Cert.RefSide.gelu1 (tot A B (ownRow 0 2 c + r.val) (colLo 0 + j.val))
    rw [h01, h02, show cx c * 1024 + (1 - cy c) * 512 + (r.val - (1 - cy c) * 512) = cx c * 1024 + r.val from by omega]

/-- The block of the accumulator that the result copy 12 moves holds the finished entries at the rows of the quarter that
    arrived from the neighbour across axis 1 and the columns of group 0: it is those arrived rows, widened. -/
theorem val_out12 (c : Dev nD) (g1 f2 : Buf (Elt Ideal) ((Memref.whole cc0_scratch13 : Memref sig .tc .vmem S2048x384 .bf16).view.loc (c : Thread nD τ)))
    (f12 : Buf (Elt Ideal) ((outSrcM12 c).view.loc (c : Thread nD τ)))
    (hf2 : (Vreal A B).ag0_1 (nbr 1 c) ((agM0_1 (nbr 1 c)).view.read (Elt Ideal) f2)) :
    (Vreal A B).out12 c ((outSrcM12 c).view.read (Elt Ideal) (((Memref.whole cc0_scratch0 : Memref sig .tc .vmem S2048x2048 .f32).access (Rect.unit (s := S2048x2048) (k0_off102 c) S512x384.size (k0_off102_inb c))).write (Elt Ideal) f12 (k0_pay94 (F := Ideal) (View.readAt (Elt Ideal) (Memref.whole cc0_scratch13 : Memref sig .tc .vmem S2048x384 .bf16).view (Rect.unit (s := S2048x384) (k0_off101 c) S512x384.size (k0_off101_inb c)).toLoadRect (((agM0_1 (nbr 1 c)).view.set : Finset (Idx ((Memref.whole cc0_scratch13 : Memref sig .tc .vmem S2048x384 .bf16).view.loc (c : Thread nD τ)))).piecewise f2 g1))) Finset.univ)) := by
  intro r jj
  have hcy := cy_le c
  -- the block read is the block written
  have hidx : (outSrcM12 c).view.emb (ix2 r jj) = ((Memref.whole cc0_scratch0 : Memref sig .tc .vmem S2048x2048 .f32).access (Rect.unit (s := S2048x2048) (k0_off102 c) S512x384.size (k0_off102_inb c))).emb (ix2 r jj) := by
    apply Shape.idx_ext₂
    · show k0_off103 c 0 + 1 * r.val = k0_off102 c 0 + 1 * r.val
      rw [off103_eq, off102_eq]
    · show k0_off103 c 1 + 1 * jj.val = k0_off102 c 1 + 1 * jj.val
      rw [off103_eq, off102_eq]
  have e1 : (outSrcM12 c).view.read (Elt Ideal) (((Memref.whole cc0_scratch0 : Memref sig .tc .vmem S2048x2048 .f32).access (Rect.unit (s := S2048x2048) (k0_off102 c) S512x384.size (k0_off102_inb c))).write (Elt Ideal) f12 (k0_pay94 (F := Ideal) (View.readAt (Elt Ideal) (Memref.whole cc0_scratch13 : Memref sig .tc .vmem S2048x384 .bf16).view (Rect.unit (s := S2048x384) (k0_off101 c) S512x384.size (k0_off101_inb c)).toLoadRect (((agM0_1 (nbr 1 c)).view.set : Finset (Idx ((Memref.whole cc0_scratch13 : Memref sig .tc .vmem S2048x384 .bf16).view.loc (c : Thread nD τ)))).piecewise f2 g1))) Finset.univ) (ix2 r jj) = ((Memref.whole cc0_scratch0 : Memref sig .tc .vmem S2048x2048 .f32).access (Rect.unit (s := S2048x2048) (k0_off102 c) S512x384.size (k0_off102_inb c))).read (Elt Ideal) (((Memref.whole cc0_scratch0 : Memref sig .tc .vmem S2048x2048 .f32).access (Rect.unit (s := S2048x2048) (k0_off102 c) S512x384.size (k0_off102_inb c))).write (Elt Ideal) f12 (k0_pay94 (F := Ideal) (View.readAt (Elt Ideal) (Memref.whole cc0_scratch13 : Memref sig .tc .vmem S2048x384 .bf16).view (Rect.unit (s := S2048x384) (k0_off101 c) S512x384.size (k0_off101_inb c)).toLoadRect (((agM0_1 (nbr 1 c)).view.set : Finset (Idx ((Memref.whole cc0_scratch13 : Memref sig .tc .vmem S2048x384 .bf16).view.loc (c : Thread nD τ)))).piecewise f2 g1))) Finset.univ) (ix2 r jj) := by
    rw [View.read_apply, View.read_apply, hidx]
  rw [e1, View.read_write_of_mem _ _ (Finset.mem_univ _)]
  unfold k0_pay94
  simp only [shapeCast_self]
  rw [extf_apply, View.readAt_rect]
  -- the rows read are the rows that arrived
  have hidx2 : ((Memref.whole cc0_scratch13 : Memref sig .tc .vmem S2048x384 .bf16).view.slice (Rect.unit (s := S2048x384) (k0_off101 c) S512x384.size (k0_off101_inb c))).emb (ix2 r jj) = (agM0_1 (nbr 1 c)).view.emb (ix2 r jj) := by
    apply Shape.idx_ext₂
    · show k0_off101 c 0 + 1 * r.val = k0_off78 (nbr 1 c) 0 + 1 * r.val
      rw [off101_eq, off78_eq, cx_nbr1, cy_nbr1]
    · show k0_off101 c 1 + 1 * jj.val = k0_off78 (nbr 1 c) 1 + 1 * jj.val
      rw [off101_eq, off78_eq]; simp only [Matrix.cons_val_one]
  have hmem : ((Memref.whole cc0_scratch13 : Memref sig .tc .vmem S2048x384 .bf16).view.slice (Rect.unit (s := S2048x384) (k0_off101 c) S512x384.size (k0_off101_inb c))).emb (ix2 r jj) ∈ (agM0_1 (nbr 1 c)).view.set := by
    rw [hidx2]; exact View.emb_mem_set _ _
  have e2 : ((Memref.whole cc0_scratch13 : Memref sig .tc .vmem S2048x384 .bf16).view.slice (Rect.unit (s := S2048x384) (k0_off101 c) S512x384.size (k0_off101_inb c))).read (Elt Ideal) (((agM0_1 (nbr 1 c)).view.set : Finset (Idx ((Memref.whole cc0_scratch13 : Memref sig .tc .vmem S2048x384 .bf16).view.loc (c : Thread nD τ)))).piecewise f2 g1) (ix2 r jj) = (agM0_1 (nbr 1 c)).view.read (Elt Ideal) f2 (ix2 r jj) := by
    rw [View.read_apply, View.read_apply, Finset.piecewise_eq_of_mem _ _ _ hmem, hidx2]
  have h1 := hf2 r jj
  have h01 : ownRow 0 1 (nbr 1 c) = cx c * 1024 + (1 - cy c) * 512 := by simp [ownRow, coordN, cx_nbr1, cy_nbr1]
  have ho : outRow c 12 = cx c * 1024 + (1 - cy c) * 512 := by simp [outRow, coordN]
  have hc : outColLo 12 = 0 := by simp [outColLo]
  refine e2.trans (h1.trans ?_)
  show Cert.RefSide.gelu1 (tot A B (ownRow 0 1 (nbr 1 c) + r.val) (colLo 0 + jj.val)) = Cert.RefSide.gelu1 (tot A B (outRow c 12 + r.val) (outColLo 12 + jj.val))
  rw [h01, ho, hc]
  rfl

/-- The rows a device sends at the second all-gather round of group 1 hold the finished entries at its half of the rows,
    given that its own quarter and the quarter that arrived from its neighbour across axis 2 hold theirs. -/
theorem val_ag1_2 (c : Dev nD) (g1 f2 : Buf (Elt Ideal) ((Memref.whole cc0_scratch14 : Memref sig .tc .vmem S2048x384 .bf16).view.loc (c : Thread nD τ)))
    (hg1 : (Vreal A B).ag1_1 c ((agM1_1 c).view.read (Elt Ideal) g1))
    (hf2 : (Vreal A B).ag1_1 (nbr 2 c) ((agM1_1 (nbr 2 c)).view.read (Elt Ideal) f2)) :
    (Vreal A B).ag1_2 c ((agM1_2 c).view.read (Elt Ideal) (((agM1_1 (nbr 2 c)).view.set : Finset (Idx ((Memref.whole cc0_scratch14 : Memref sig .tc .vmem S2048x384 .bf16).view.loc (c : Thread nD τ)))).piecewise f2 g1)) := by
  intro r j
  have hq := cz_le c
  have h02 : ownRow 1 2 c = cy c * 1024 := by simp [ownRow, coordN]
  by_cases hown : cz c * 512 ≤ r.val ∧ r.val < cz c * 512 + 512
  · -- a row of the device's own quarter
    have hr' : r.val - cz c * 512 < 512 := by omega
    have hidx : (agM1_2 c).view.emb (ix2 r j) = (agM1_1 c).view.emb (ix2 ⟨r.val - cz c * 512, hr'⟩ j) := by
      apply Shape.idx_ext₂
      · show k0_off104 c 0 + 1 * r.val = k0_off82 c 0 + 1 * (r.val - cz c * 512)
        rw [off104_eq, off82_eq]; simp only [Matrix.cons_val_zero]; omega
      · show k0_off104 c 1 + 1 * j.val = k0_off82 c 1 + 1 * j.val
        rw [off104_eq, off82_eq]; simp only [Matrix.cons_val_one]
    have hnot : (agM1_2 c).view.emb (ix2 r j) ∉ (agM1_1 (nbr 2 c)).view.set := by
      rw [hidx]; exact Finset.disjoint_left.mp (ag_disj1_1 c) (View.emb_mem_set _ _)
    have h1 := hg1 ⟨r.val - cz c * 512, hr'⟩ j
    have e : (agM1_2 c).view.read (Elt Ideal) (((agM1_1 (nbr 2 c)).view.set : Finset (Idx ((Memref.whole cc0_scratch14 : Memref sig .tc .vmem S2048x384 .bf16).view.loc (c : Thread nD τ)))).piecewise f2 g1) (ix2 r j) = (agM1_1 c).view.read (Elt Ideal) g1 (ix2 ⟨r.val - cz c * 512, hr'⟩ j) := by
      rw [View.read_apply, View.read_apply, Finset.piecewise_eq_of_notMem _ _ _ hnot, hidx]
    rw [e, h1]
    have h01 : ownRow 1 1 c = cy c * 1024 + cz c * 512 := by simp [ownRow, coordN]
    show Cert.RefSide.gelu1 (tot A B (ownRow 1 1 c + (r.val - cz c * 512)) (colLo 1 + j.val)) = Cert.RefSide.gelu1 (tot A B (ownRow 1 2 c + r.val) (colLo 1 + j.val))
    rw [h01, h02, show cy c * 1024 + cz c * 512 + (r.val - cz c * 512) = cy c * 1024 + r.val from by omega]
  · -- a row of the quarter that arrived from the neighbour across axis 2
    have hlo : (1 - cz c) * 512 ≤ r.val := by have := r.isLt; omega
    have hr' : r.val - (1 - cz c) * 512 < 512 := by have := r.isLt; omega
    have hidx : (agM1_2 c).view.emb (ix2 r j) = (agM1_1 (nbr 2 c)).view.emb (ix2 ⟨r.val - (1 - cz c) * 512, hr'⟩ j) := by
      apply Shape.idx_ext₂
      · show k0_off104 c 0 + 1 * r.val = k0_off82 (nbr 2 c) 0 + 1 * (r.val - (1 - cz c) * 512)
        rw [off104_eq, off82_eq, cy_nbr2, cz_nbr2]; simp only [Matrix.cons_val_zero]; omega
      · show k0_off104 c 1 + 1 * j.val = k0_off82 (nbr 2 c) 1 + 1 * j.val
        rw [off104_eq, off82_eq]; simp only [Matrix.cons_val_one]
    have hmem : (agM1_2 c).view.emb (ix2 r j) ∈ (agM1_1 (nbr 2 c)).view.set := by
      rw [hidx]; exact View.emb_mem_set _ _
    have h1 := hf2 ⟨r.val - (1 - cz c) * 512, hr'⟩ j
    have e : (agM1_2 c).view.read (Elt Ideal) (((agM1_1 (nbr 2 c)).view.set : Finset (Idx ((Memref.whole cc0_scratch14 : Memref sig .tc .vmem S2048x384 .bf16).view.loc (c : Thread nD τ)))).piecewise f2 g1) (ix2 r j) = (agM1_1 (nbr 2 c)).view.read (Elt Ideal) f2 (ix2 ⟨r.val - (1 - cz c) * 512, hr'⟩ j) := by
      rw [View.read_apply, View.read_apply, Finset.piecewise_eq_of_mem _ _ _ hmem, hidx]
    rw [e, h1]
    have h01 : ownRow 1 1 (nbr 2 c) = cy c * 1024 + (1 - cz c) * 512 := by simp [ownRow, coordN, cy_nbr2, cz_nbr2]
    show Cert.RefSide.gelu1 (tot A B (ownRow 1 1 (nbr 2 c) + (r.val - (1 - cz c) * 512)) (colLo 1 + j.val)) = Cert.RefSide.gelu1 (tot A B (ownRow 1 2 c + r.val) (colLo 1 + j.val))
    rw [h01, h02, show cy c * 1024 + (1 - cz c) * 512 + (r.val - (1 - cz c) * 512) = cy c * 1024 + r.val from by omega]

/-- The rows a device sends at the second all-gather round of group 2 hold the finished entries at its half of the rows,
    given that its own quarter and the quarter that arrived from its neighbour across axis 0 hold theirs. -/
theorem val_ag2_2 (c : Dev nD) (g1 f2 : Buf (Elt Ideal) ((Memref.whole cc0_scratch15 : Memref sig .tc .vmem S2048x384 .bf16).view.loc (c : Thread nD τ)))
    (hg1 : (Vreal A B).ag2_1 c ((agM2_1 c).view.read (Elt Ideal) g1))
    (hf2 : (Vreal A B).ag2_1 (nbr 0 c) ((agM2_1 (nbr 0 c)).view.read (Elt Ideal) f2)) :
    (Vreal A B).ag2_2 c ((agM2_2 c).view.read (Elt Ideal) (((agM2_1 (nbr 0 c)).view.set : Finset (Idx ((Memref.whole cc0_scratch15 : Memref sig .tc .vmem S2048x384 .bf16).view.loc (c : Thread nD τ)))).piecewise f2 g1)) := by
  intro r j
  have hq := cx_le c
  have h02 : ownRow 2 2 c = cz c * 1024 := by simp [ownRow, coordN]
  by_cases hown : cx c * 512 ≤ r.val ∧ r.val < cx c * 512 + 512
  · -- a row of the device's own quarter
    have hr' : r.val - cx c * 512 < 512 := by omega
    have hidx : (agM2_2 c).view.emb (ix2 r j) = (agM2_1 c).view.emb (ix2 ⟨r.val - cx c * 512, hr'⟩ j) := by
      apply Shape.idx_ext₂
      · show k0_off108 c 0 + 1 * r.val = k0_off86 c 0 + 1 * (r.val - cx c * 512)
        rw [off108_eq, off86_eq]; simp only [Matrix.cons_val_zero]; omega
      · show k0_off108 c 1 + 1 * j.val = k0_off86 c 1 + 1 * j.val
        rw [off108_eq, off86_eq]; simp only [Matrix.cons_val_one]
    have hnot : (agM2_2 c).view.emb (ix2 r j) ∉ (agM2_1 (nbr 0 c)).view.set := by
      rw [hidx]; exact Finset.disjoint_left.mp (ag_disj1_2 c) (View.emb_mem_set _ _)
    have h1 := hg1 ⟨r.val - cx c * 512, hr'⟩ j
    have e : (agM2_2 c).view.read (Elt Ideal) (((agM2_1 (nbr 0 c)).view.set : Finset (Idx ((Memref.whole cc0_scratch15 : Memref sig .tc .vmem S2048x384 .bf16).view.loc (c : Thread nD τ)))).piecewise f2 g1) (ix2 r j) = (agM2_1 c).view.read (Elt Ideal) g1 (ix2 ⟨r.val - cx c * 512, hr'⟩ j) := by
      rw [View.read_apply, View.read_apply, Finset.piecewise_eq_of_notMem _ _ _ hnot, hidx]
    rw [e, h1]
    have h01 : ownRow 2 1 c = cz c * 1024 + cx c * 512 := by simp [ownRow, coordN]
    show Cert.RefSide.gelu1 (tot A B (ownRow 2 1 c + (r.val - cx c * 512)) (colLo 2 + j.val)) = Cert.RefSide.gelu1 (tot A B (ownRow 2 2 c + r.val) (colLo 2 + j.val))
    rw [h01, h02, show cz c * 1024 + cx c * 512 + (r.val - cx c * 512) = cz c * 1024 + r.val from by omega]
  · -- a row of the quarter that arrived from the neighbour across axis 0
    have hlo : (1 - cx c) * 512 ≤ r.val := by have := r.isLt; omega
    have hr' : r.val - (1 - cx c) * 512 < 512 := by have := r.isLt; omega
    have hidx : (agM2_2 c).view.emb (ix2 r j) = (agM2_1 (nbr 0 c)).view.emb (ix2 ⟨r.val - (1 - cx c) * 512, hr'⟩ j) := by
      apply Shape.idx_ext₂
      · show k0_off108 c 0 + 1 * r.val = k0_off86 (nbr 0 c) 0 + 1 * (r.val - (1 - cx c) * 512)
        rw [off108_eq, off86_eq, cz_nbr0, cx_nbr0]; simp only [Matrix.cons_val_zero]; omega
      · show k0_off108 c 1 + 1 * j.val = k0_off86 (nbr 0 c) 1 + 1 * j.val
        rw [off108_eq, off86_eq]; simp only [Matrix.cons_val_one]
    have hmem : (agM2_2 c).view.emb (ix2 r j) ∈ (agM2_1 (nbr 0 c)).view.set := by
      rw [hidx]; exact View.emb_mem_set _ _
    have h1 := hf2 ⟨r.val - (1 - cx c) * 512, hr'⟩ j
    have e : (agM2_2 c).view.read (Elt Ideal) (((agM2_1 (nbr 0 c)).view.set : Finset (Idx ((Memref.whole cc0_scratch15 : Memref sig .tc .vmem S2048x384 .bf16).view.loc (c : Thread nD τ)))).piecewise f2 g1) (ix2 r j) = (agM2_1 (nbr 0 c)).view.read (Elt Ideal) f2 (ix2 ⟨r.val - (1 - cx c) * 512, hr'⟩ j) := by
      rw [View.read_apply, View.read_apply, Finset.piecewise_eq_of_mem _ _ _ hmem, hidx]
    rw [e, h1]
    have h01 : ownRow 2 1 (nbr 0 c) = cz c * 1024 + (1 - cx c) * 512 := by simp [ownRow, coordN, cz_nbr0, cx_nbr0]
    show Cert.RefSide.gelu1 (tot A B (ownRow 2 1 (nbr 0 c) + (r.val - (1 - cx c) * 512)) (colLo 2 + j.val)) = Cert.RefSide.gelu1 (tot A B (ownRow 2 2 c + r.val) (colLo 2 + j.val))
    rw [h01, h02, show cz c * 1024 + (1 - cx c) * 512 + (r.val - (1 - cx c) * 512) = cz c * 1024 + r.val from by omega]

/-- The rows a device sends at the second all-gather round of group 3 hold the finished entries at its half of the rows,
    given that its own quarter and the quarter that arrived from its neighbour across axis 1 hold theirs. -/
theorem val_ag3_2 (c : Dev nD) (g1 f2 : Buf (Elt Ideal) ((Memref.whole cc0_scratch16 : Memref sig .tc .vmem S2048x384 .bf16).view.loc (c : Thread nD τ)))
    (hg1 : (Vreal A B).ag3_1 c ((agM3_1 c).view.read (Elt Ideal) g1))
    (hf2 : (Vreal A B).ag3_1 (nbr 1 c) ((agM3_1 (nbr 1 c)).view.read (Elt Ideal) f2)) :
    (Vreal A B).ag3_2 c ((agM3_2 c).view.read (Elt Ideal) (((agM3_1 (nbr 1 c)).view.set : Finset (Idx ((Memref.whole cc0_scratch16 : Memref sig .tc .vmem S2048x384 .bf16).view.loc (c : Thread nD τ)))).piecewise f2 g1)) := by
  intro r j
  have hq := cy_le c
  have h02 : ownRow 3 2 c = cx c * 1024 := by simp [ownRow, coordN]
  by_cases hown : cy c * 512 ≤ r.val ∧ r.val < cy c * 512 + 512
  · -- a row of the device's own quarter
    have hr' : r.val - cy c * 512 < 512 := by omega
    have hidx : (agM3_2 c).view.emb (ix2 r j) = (agM3_1 c).view.emb (ix2 ⟨r.val - cy c * 512, hr'⟩ j) := by
      apply Shape.idx_ext₂
      · show k0_off100 c 0 + 1 * r.val = k0_off78 c 0 + 1 * (r.val - cy c * 512)
        rw [off100_eq, off78_eq]; simp only [Matrix.cons_val_zero]; omega
      · show k0_off100 c 1 + 1 * j.val = k0_off78 c 1 + 1 * j.val
        rw [off100_eq, off78_eq]; simp only [Matrix.cons_val_one]
    have hnot : (agM3_2 c).view.emb (ix2 r j) ∉ (agM3_1 (nbr 1 c)).view.set := by
      rw [hidx]; exact Finset.disjoint_left.mp (ag_disj1_3 c) (View.emb_mem_set _ _)
    have h1 := hg1 ⟨r.val - cy c * 512, hr'⟩ j
    have e : (agM3_2 c).view.read (Elt Ideal) (((agM3_1 (nbr 1 c)).view.set : Finset (Idx ((Memref.whole cc0_scratch16 : Memref sig .tc .vmem S2048x384 .bf16).view.loc (c : Thread nD τ)))).piecewise f2 g1) (ix2 r j) = (agM3_1 c).view.read (Elt Ideal) g1 (ix2 ⟨r.val - cy c * 512, hr'⟩ j) := by
      rw [View.read_apply, View.read_apply, Finset.piecewise_eq_of_notMem _ _ _ hnot, hidx]
    rw [e, h1]
    have h01 : ownRow 3 1 c = cx c * 1024 + cy c * 512 := by simp [ownRow, coordN]
    show Cert.RefSide.gelu1 (tot A B (ownRow 3 1 c + (r.val - cy c * 512)) (colLo 3 + j.val)) = Cert.RefSide.gelu1 (tot A B (ownRow 3 2 c + r.val) (colLo 3 + j.val))
    rw [h01, h02, show cx c * 1024 + cy c * 512 + (r.val - cy c * 512) = cx c * 1024 + r.val from by omega]
  · -- a row of the quarter that arrived from the neighbour across axis 1
    have hlo : (1 - cy c) * 512 ≤ r.val := by have := r.isLt; omega
    have hr' : r.val - (1 - cy c) * 512 < 512 := by have := r.isLt; omega
    have hidx : (agM3_2 c).view.emb (ix2 r j) = (agM3_1 (nbr 1 c)).view.emb (ix2 ⟨r.val - (1 - cy c) * 512, hr'⟩ j) := by
      apply Shape.idx_ext₂
      · show k0_off100 c 0 + 1 * r.val = k0_off78 (nbr 1 c) 0 + 1 * (r.val - (1 - cy c) * 512)
        rw [off100_eq, off78_eq, cx_nbr1, cy_nbr1]; simp only [Matrix.cons_val_zero]; omega
      · show k0_off100 c 1 + 1 * j.val = k0_off78 (nbr 1 c) 1 + 1 * j.val
        rw [off100_eq, off78_eq]; simp only [Matrix.cons_val_one]
    have hmem : (agM3_2 c).view.emb (ix2 r j) ∈ (agM3_1 (nbr 1 c)).view.set := by
      rw [hidx]; exact View.emb_mem_set _ _
    have h1 := hf2 ⟨r.val - (1 - cy c) * 512, hr'⟩ j
    have e : (agM3_2 c).view.read (Elt Ideal) (((agM3_1 (nbr 1 c)).view.set : Finset (Idx ((Memref.whole cc0_scratch16 : Memref sig .tc .vmem S2048x384 .bf16).view.loc (c : Thread nD τ)))).piecewise f2 g1) (ix2 r j) = (agM3_1 (nbr 1 c)).view.read (Elt Ideal) f2 (ix2 ⟨r.val - (1 - cy c) * 512, hr'⟩ j) := by
      rw [View.read_apply, View.read_apply, Finset.piecewise_eq_of_mem _ _ _ hmem, hidx]
    rw [e, h1]
    have h01 : ownRow 3 1 (nbr 1 c) = cx c * 1024 + (1 - cy c) * 512 := by simp [ownRow, coordN, cx_nbr1, cy_nbr1]
    show Cert.RefSide.gelu1 (tot A B (ownRow 3 1 (nbr 1 c) + (r.val - (1 - cy c) * 512)) (colLo 3 + j.val)) = Cert.RefSide.gelu1 (tot A B (ownRow 3 2 c + r.val) (colLo 3 + j.val))
    rw [h01, h02, show cx c * 1024 + (1 - cy c) * 512 + (r.val - (1 - cy c) * 512) = cx c * 1024 + r.val from by omega]

/-- The rows a device sends at the second all-gather round of group 4 hold the finished entries at its half of the rows,
    given that its own quarter and the quarter that arrived from its neighbour across axis 2 hold theirs. -/
theorem val_ag4_2 (c : Dev nD) (g1 f2 : Buf (Elt Ideal) ((Memref.whole cc0_scratch17 : Memref sig .tc .vmem S2048x256 .bf16).view.loc (c : Thread nD τ)))
    (hg1 : (Vreal A B).ag4_1 c ((agM4_1 c).view.read (Elt Ideal) g1))
    (hf2 : (Vreal A B).ag4_1 (nbr 2 c) ((agM4_1 (nbr 2 c)).view.read (Elt Ideal) f2)) :
    (Vreal A B).ag4_2 c ((agM4_2 c).view.read (Elt Ideal) (((agM4_1 (nbr 2 c)).view.set : Finset (Idx ((Memref.whole cc0_scratch17 : Memref sig .tc .vmem S2048x256 .bf16).view.loc (c : Thread nD τ)))).piecewise f2 g1)) := by
  intro r j
  have hq := cz_le c
  have h02 : ownRow 4 2 c = cy c * 1024 := by simp [ownRow, coordN]
  by_cases hown : cz c * 512 ≤ r.val ∧ r.val < cz c * 512 + 512
  · -- a row of the device's own quarter
    have hr' : r.val - cz c * 512 < 512 := by omega
    have hidx : (agM4_2 c).view.emb (ix2 r j) = (agM4_1 c).view.emb (ix2 ⟨r.val - cz c * 512, hr'⟩ j) := by
      apply Shape.idx_ext₂
      · show k0_off114 c 0 + 1 * r.val = k0_off92 c 0 + 1 * (r.val - cz c * 512)
        rw [off114_eq, off92_eq]; simp only [Matrix.cons_val_zero]; omega
      · show k0_off114 c 1 + 1 * j.val = k0_off92 c 1 + 1 * j.val
        rw [off114_eq, off92_eq]; simp only [Matrix.cons_val_one]
    have hnot : (agM4_2 c).view.emb (ix2 r j) ∉ (agM4_1 (nbr 2 c)).view.set := by
      rw [hidx]; exact Finset.disjoint_left.mp (ag_disj1_4 c) (View.emb_mem_set _ _)
    have h1 := hg1 ⟨r.val - cz c * 512, hr'⟩ j
    have e : (agM4_2 c).view.read (Elt Ideal) (((agM4_1 (nbr 2 c)).view.set : Finset (Idx ((Memref.whole cc0_scratch17 : Memref sig .tc .vmem S2048x256 .bf16).view.loc (c : Thread nD τ)))).piecewise f2 g1) (ix2 r j) = (agM4_1 c).view.read (Elt Ideal) g1 (ix2 ⟨r.val - cz c * 512, hr'⟩ j) := by
      rw [View.read_apply, View.read_apply, Finset.piecewise_eq_of_notMem _ _ _ hnot, hidx]
    rw [e, h1]
    have h01 : ownRow 4 1 c = cy c * 1024 + cz c * 512 := by simp [ownRow, coordN]
    show Cert.RefSide.gelu1 (tot A B (ownRow 4 1 c + (r.val - cz c * 512)) (colLo 4 + j.val)) = Cert.RefSide.gelu1 (tot A B (ownRow 4 2 c + r.val) (colLo 4 + j.val))
    rw [h01, h02, show cy c * 1024 + cz c * 512 + (r.val - cz c * 512) = cy c * 1024 + r.val from by omega]
  · -- a row of the quarter that arrived from the neighbour across axis 2
    have hlo : (1 - cz c) * 512 ≤ r.val := by have := r.isLt; omega
    have hr' : r.val - (1 - cz c) * 512 < 512 := by have := r.isLt; omega
    have hidx : (agM4_2 c).view.emb (ix2 r j) = (agM4_1 (nbr 2 c)).view.emb (ix2 ⟨r.val - (1 - cz c) * 512, hr'⟩ j) := by
      apply Shape.idx_ext₂
      · show k0_off114 c 0 + 1 * r.val = k0_off92 (nbr 2 c) 0 + 1 * (r.val - (1 - cz c) * 512)
        rw [off114_eq, off92_eq, cy_nbr2, cz_nbr2]; simp only [Matrix.cons_val_zero]; omega
      · show k0_off114 c 1 + 1 * j.val = k0_off92 (nbr 2 c) 1 + 1 * j.val
        rw [off114_eq, off92_eq]; simp only [Matrix.cons_val_one]
    have hmem : (agM4_2 c).view.emb (ix2 r j) ∈ (agM4_1 (nbr 2 c)).view.set := by
      rw [hidx]; exact View.emb_mem_set _ _
    have h1 := hf2 ⟨r.val - (1 - cz c) * 512, hr'⟩ j
    have e : (agM4_2 c).view.read (Elt Ideal) (((agM4_1 (nbr 2 c)).view.set : Finset (Idx ((Memref.whole cc0_scratch17 : Memref sig .tc .vmem S2048x256 .bf16).view.loc (c : Thread nD τ)))).piecewise f2 g1) (ix2 r j) = (agM4_1 (nbr 2 c)).view.read (Elt Ideal) f2 (ix2 ⟨r.val - (1 - cz c) * 512, hr'⟩ j) := by
      rw [View.read_apply, View.read_apply, Finset.piecewise_eq_of_mem _ _ _ hmem, hidx]
    rw [e, h1]
    have h01 : ownRow 4 1 (nbr 2 c) = cy c * 1024 + (1 - cz c) * 512 := by simp [ownRow, coordN, cy_nbr2, cz_nbr2]
    show Cert.RefSide.gelu1 (tot A B (ownRow 4 1 (nbr 2 c) + (r.val - (1 - cz c) * 512)) (colLo 4 + j.val)) = Cert.RefSide.gelu1 (tot A B (ownRow 4 2 c + r.val) (colLo 4 + j.val))
    rw [h01, h02, show cy c * 1024 + (1 - cz c) * 512 + (r.val - (1 - cz c) * 512) = cy c * 1024 + r.val from by omega]

/-- The rows a device sends at the second all-gather round of group 5 hold the finished entries at its half of the rows,
    given that its own quarter and the quarter that arrived from its neighbour across axis 0 hold theirs. -/
theorem val_ag5_2 (c : Dev nD) (g1 f2 : Buf (Elt Ideal) ((Memref.whole cc0_scratch18 : Memref sig .tc .vmem S2048x256 .bf16).view.loc (c : Thread nD τ)))
    (hg1 : (Vreal A B).ag5_1 c ((agM5_1 c).view.read (Elt Ideal) g1))
    (hf2 : (Vreal A B).ag5_1 (nbr 0 c) ((agM5_1 (nbr 0 c)).view.read (Elt Ideal) f2)) :
    (Vreal A B).ag5_2 c ((agM5_2 c).view.read (Elt Ideal) (((agM5_1 (nbr 0 c)).view.set : Finset (Idx ((Memref.whole cc0_scratch18 : Memref sig .tc .vmem S2048x256 .bf16).view.loc (c : Thread nD τ)))).piecewise f2 g1)) := by
  intro r j
  have hq := cx_le c
  have h02 : ownRow 5 2 c = cz c * 1024 := by simp [ownRow, coordN]
  by_cases hown : cx c * 512 ≤ r.val ∧ r.val < cx c * 512 + 512
  · -- a row of the device's own quarter
    have hr' : r.val - cx c * 512 < 512 := by omega
    have hidx : (agM5_2 c).view.emb (ix2 r j) = (agM5_1 c).view.emb (ix2 ⟨r.val - cx c * 512, hr'⟩ j) := by
      apply Shape.idx_ext₂
      · show k0_off118 c 0 + 1 * r.val = k0_off96 c 0 + 1 * (r.val - cx c * 512)
        rw [off118_eq, off96_eq]; simp only [Matrix.cons_val_zero]; omega
      · show k0_off118 c 1 + 1 * j.val = k0_off96 c 1 + 1 * j.val
        rw [off118_eq, off96_eq]; simp only [Matrix.cons_val_one]
    have hnot : (agM5_2 c).view.emb (ix2 r j) ∉ (agM5_1 (nbr 0 c)).view.set := by
      rw [hidx]; exact Finset.disjoint_left.mp (ag_disj1_5 c) (View.emb_mem_set _ _)
    have h1 := hg1 ⟨r.val - cx c * 512, hr'⟩ j
    have e : (agM5_2 c).view.read (Elt Ideal) (((agM5_1 (nbr 0 c)).view.set : Finset (Idx ((Memref.whole cc0_scratch18 : Memref sig .tc .vmem S2048x256 .bf16).view.loc (c : Thread nD τ)))).piecewise f2 g1) (ix2 r j) = (agM5_1 c).view.read (Elt Ideal) g1 (ix2 ⟨r.val - cx c * 512, hr'⟩ j) := by
      rw [View.read_apply, View.read_apply, Finset.piecewise_eq_of_notMem _ _ _ hnot, hidx]
    rw [e, h1]
    have h01 : ownRow 5 1 c = cz c * 1024 + cx c * 512 := by simp [ownRow, coordN]
    show Cert.RefSide.gelu1 (tot A B (ownRow 5 1 c + (r.val - cx c * 512)) (colLo 5 + j.val)) = Cert.RefSide.gelu1 (tot A B (ownRow 5 2 c + r.val) (colLo 5 + j.val))
    rw [h01, h02, show cz c * 1024 + cx c * 512 + (r.val - cx c * 512) = cz c * 1024 + r.val from by omega]
  · -- a row of the quarter that arrived from the neighbour across axis 0
    have hlo : (1 - cx c) * 512 ≤ r.val := by have := r.isLt; omega
    have hr' : r.val - (1 - cx c) * 512 < 512 := by have := r.isLt; omega
    have hidx : (agM5_2 c).view.emb (ix2 r j) = (agM5_1 (nbr 0 c)).view.emb (ix2 ⟨r.val - (1 - cx c) * 512, hr'⟩ j) := by
      apply Shape.idx_ext₂
      · show k0_off118 c 0 + 1 * r.val = k0_off96 (nbr 0 c) 0 + 1 * (r.val - (1 - cx c) * 512)
        rw [off118_eq, off96_eq, cz_nbr0, cx_nbr0]; simp only [Matrix.cons_val_zero]; omega
      · show k0_off118 c 1 + 1 * j.val = k0_off96 (nbr 0 c) 1 + 1 * j.val
        rw [off118_eq, off96_eq]; simp only [Matrix.cons_val_one]
    have hmem : (agM5_2 c).view.emb (ix2 r j) ∈ (agM5_1 (nbr 0 c)).view.set := by
      rw [hidx]; exact View.emb_mem_set _ _
    have h1 := hf2 ⟨r.val - (1 - cx c) * 512, hr'⟩ j
    have e : (agM5_2 c).view.read (Elt Ideal) (((agM5_1 (nbr 0 c)).view.set : Finset (Idx ((Memref.whole cc0_scratch18 : Memref sig .tc .vmem S2048x256 .bf16).view.loc (c : Thread nD τ)))).piecewise f2 g1) (ix2 r j) = (agM5_1 (nbr 0 c)).view.read (Elt Ideal) f2 (ix2 ⟨r.val - (1 - cx c) * 512, hr'⟩ j) := by
      rw [View.read_apply, View.read_apply, Finset.piecewise_eq_of_mem _ _ _ hmem, hidx]
    rw [e, h1]
    have h01 : ownRow 5 1 (nbr 0 c) = cz c * 1024 + (1 - cx c) * 512 := by simp [ownRow, coordN, cz_nbr0, cx_nbr0]
    show Cert.RefSide.gelu1 (tot A B (ownRow 5 1 (nbr 0 c) + (r.val - (1 - cx c) * 512)) (colLo 5 + j.val)) = Cert.RefSide.gelu1 (tot A B (ownRow 5 2 c + r.val) (colLo 5 + j.val))
    rw [h01, h02, show cz c * 1024 + (1 - cx c) * 512 + (r.val - (1 - cx c) * 512) = cz c * 1024 + r.val from by omega]

/-- The block of the accumulator that the result copy 13 moves holds the finished entries at the rows of the quarter that
    arrived from the neighbour across axis 2 and the columns of group 1: it is those arrived rows, widened. -/
theorem val_out13 (c : Dev nD) (g1 f2 : Buf (Elt Ideal) ((Memref.whole cc0_scratch14 : Memref sig .tc .vmem S2048x384 .bf16).view.loc (c : Thread nD τ)))
    (f13 : Buf (Elt Ideal) ((outSrcM13 c).view.loc (c : Thread nD τ)))
    (hf2 : (Vreal A B).ag1_1 (nbr 2 c) ((agM1_1 (nbr 2 c)).view.read (Elt Ideal) f2)) :
    (Vreal A B).out13 c ((outSrcM13 c).view.read (Elt Ideal) (((Memref.whole cc0_scratch0 : Memref sig .tc .vmem S2048x2048 .f32).access (Rect.unit (s := S2048x2048) (k0_off106 c) S512x384.size (k0_off106_inb c))).write (Elt Ideal) f13 (k0_pay96 (F := Ideal) (k0_pay95 (F := Ideal) (View.readAt (Elt Ideal) (Memref.whole cc0_scratch14 : Memref sig .tc .vmem S2048x384 .bf16).view (Rect.unit (s := S2048x384) (k0_off105 c) S512x384.size (k0_off105_inb c)).toLoadRect (((agM1_1 (nbr 2 c)).view.set : Finset (Idx ((Memref.whole cc0_scratch14 : Memref sig .tc .vmem S2048x384 .bf16).view.loc (c : Thread nD τ)))).piecewise f2 g1)))) Finset.univ)) := by
  intro r jj
  have hq := cz_le c
  -- the block read is the block written
  have hidx : (outSrcM13 c).view.emb (ix2 r jj) = ((Memref.whole cc0_scratch0 : Memref sig .tc .vmem S2048x2048 .f32).access (Rect.unit (s := S2048x2048) (k0_off106 c) S512x384.size (k0_off106_inb c))).emb (ix2 r jj) := by
    apply Shape.idx_ext₂
    · show k0_off107 c 0 + 1 * r.val = k0_off106 c 0 + 1 * r.val
      rw [off107_eq, off106_eq]
    · show k0_off107 c 1 + 1 * jj.val = k0_off106 c 1 + 1 * jj.val
      rw [off107_eq, off106_eq]
  have e1 : (outSrcM13 c).view.read (Elt Ideal) (((Memref.whole cc0_scratch0 : Memref sig .tc .vmem S2048x2048 .f32).access (Rect.unit (s := S2048x2048) (k0_off106 c) S512x384.size (k0_off106_inb c))).write (Elt Ideal) f13 (k0_pay96 (F := Ideal) (k0_pay95 (F := Ideal) (View.readAt (Elt Ideal) (Memref.whole cc0_scratch14 : Memref sig .tc .vmem S2048x384 .bf16).view (Rect.unit (s := S2048x384) (k0_off105 c) S512x384.size (k0_off105_inb c)).toLoadRect (((agM1_1 (nbr 2 c)).view.set : Finset (Idx ((Memref.whole cc0_scratch14 : Memref sig .tc .vmem S2048x384 .bf16).view.loc (c : Thread nD τ)))).piecewise f2 g1)))) Finset.univ) (ix2 r jj) = ((Memref.whole cc0_scratch0 : Memref sig .tc .vmem S2048x2048 .f32).access (Rect.unit (s := S2048x2048) (k0_off106 c) S512x384.size (k0_off106_inb c))).read (Elt Ideal) (((Memref.whole cc0_scratch0 : Memref sig .tc .vmem S2048x2048 .f32).access (Rect.unit (s := S2048x2048) (k0_off106 c) S512x384.size (k0_off106_inb c))).write (Elt Ideal) f13 (k0_pay96 (F := Ideal) (k0_pay95 (F := Ideal) (View.readAt (Elt Ideal) (Memref.whole cc0_scratch14 : Memref sig .tc .vmem S2048x384 .bf16).view (Rect.unit (s := S2048x384) (k0_off105 c) S512x384.size (k0_off105_inb c)).toLoadRect (((agM1_1 (nbr 2 c)).view.set : Finset (Idx ((Memref.whole cc0_scratch14 : Memref sig .tc .vmem S2048x384 .bf16).view.loc (c : Thread nD τ)))).piecewise f2 g1)))) Finset.univ) (ix2 r jj) := by
    rw [View.read_apply, View.read_apply, hidx]
  rw [e1, View.read_write_of_mem _ _ (Finset.mem_univ _)]
  unfold k0_pay96 k0_pay95
  simp only [shapeCast_self]
  rw [extf_apply, View.readAt_rect]
  -- the rows read are the rows that arrived
  have hidx2 : ((Memref.whole cc0_scratch14 : Memref sig .tc .vmem S2048x384 .bf16).view.slice (Rect.unit (s := S2048x384) (k0_off105 c) S512x384.size (k0_off105_inb c))).emb (ix2 r jj) = (agM1_1 (nbr 2 c)).view.emb (ix2 r jj) := by
    apply Shape.idx_ext₂
    · show k0_off105 c 0 + 1 * r.val = k0_off82 (nbr 2 c) 0 + 1 * r.val
      rw [off105_eq, off82_eq, cy_nbr2, cz_nbr2]
    · show k0_off105 c 1 + 1 * jj.val = k0_off82 (nbr 2 c) 1 + 1 * jj.val
      rw [off105_eq, off82_eq]; simp only [Matrix.cons_val_one]
  have hmem : ((Memref.whole cc0_scratch14 : Memref sig .tc .vmem S2048x384 .bf16).view.slice (Rect.unit (s := S2048x384) (k0_off105 c) S512x384.size (k0_off105_inb c))).emb (ix2 r jj) ∈ (agM1_1 (nbr 2 c)).view.set := by
    rw [hidx2]; exact View.emb_mem_set _ _
  have e2 : ((Memref.whole cc0_scratch14 : Memref sig .tc .vmem S2048x384 .bf16).view.slice (Rect.unit (s := S2048x384) (k0_off105 c) S512x384.size (k0_off105_inb c))).read (Elt Ideal) (((agM1_1 (nbr 2 c)).view.set : Finset (Idx ((Memref.whole cc0_scratch14 : Memref sig .tc .vmem S2048x384 .bf16).view.loc (c : Thread nD τ)))).piecewise f2 g1) (ix2 r jj) = (agM1_1 (nbr 2 c)).view.read (Elt Ideal) f2 (ix2 r jj) := by
    rw [View.read_apply, View.read_apply, Finset.piecewise_eq_of_mem _ _ _ hmem, hidx2]
  have h1 := hf2 r jj
  have h01 : ownRow 1 1 (nbr 2 c) = cy c * 1024 + (1 - cz c) * 512 := by simp [ownRow, coordN, cy_nbr2, cz_nbr2]
  have ho : outRow c 13 = cy c * 1024 + (1 - cz c) * 512 := by simp [outRow, coordN]
  have hc : outColLo 13 = colLo 1 := by simp [outColLo, colLo]
  refine e2.trans (h1.trans ?_)
  show Cert.RefSide.gelu1 (tot A B (ownRow 1 1 (nbr 2 c) + r.val) (colLo 1 + jj.val)) = Cert.RefSide.gelu1 (tot A B (outRow c 13 + r.val) (outColLo 13 + jj.val))
  rw [h01, ho, hc]

/-- The block of the accumulator that the result copy 14 moves holds the finished entries at the rows of the quarter that
    arrived from the neighbour across axis 0 and the columns of group 2: it is those arrived rows, widened. -/
theorem val_out14 (c : Dev nD) (g1 f2 : Buf (Elt Ideal) ((Memref.whole cc0_scratch15 : Memref sig .tc .vmem S2048x384 .bf16).view.loc (c : Thread nD τ)))
    (f14 : Buf (Elt Ideal) ((outSrcM14 c).view.loc (c : Thread nD τ)))
    (hf2 : (Vreal A B).ag2_1 (nbr 0 c) ((agM2_1 (nbr 0 c)).view.read (Elt Ideal) f2)) :
    (Vreal A B).out14 c ((outSrcM14 c).view.read (Elt Ideal) (((Memref.whole cc0_scratch0 : Memref sig .tc .vmem S2048x2048 .f32).access (Rect.unit (s := S2048x2048) (k0_off110 c) S512x384.size (k0_off110_inb c))).write (Elt Ideal) f14 (k0_pay97 (F := Ideal) (View.readAt (Elt Ideal) (Memref.whole cc0_scratch15 : Memref sig .tc .vmem S2048x384 .bf16).view (Rect.unit (s := S2048x384) (k0_off109 c) S512x384.size (k0_off109_inb c)).toLoadRect (((agM2_1 (nbr 0 c)).view.set : Finset (Idx ((Memref.whole cc0_scratch15 : Memref sig .tc .vmem S2048x384 .bf16).view.loc (c : Thread nD τ)))).piecewise f2 g1))) Finset.univ)) := by
  intro r jj
  have hq := cx_le c
  -- the block read is the block written
  have hidx : (outSrcM14 c).view.emb (ix2 r jj) = ((Memref.whole cc0_scratch0 : Memref sig .tc .vmem S2048x2048 .f32).access (Rect.unit (s := S2048x2048) (k0_off110 c) S512x384.size (k0_off110_inb c))).emb (ix2 r jj) := by
    apply Shape.idx_ext₂
    · show k0_off111 c 0 + 1 * r.val = k0_off110 c 0 + 1 * r.val
      rw [off111_eq, off110_eq]
    · show k0_off111 c 1 + 1 * jj.val = k0_off110 c 1 + 1 * jj.val
      rw [off111_eq, off110_eq]
  have e1 : (outSrcM14 c).view.read (Elt Ideal) (((Memref.whole cc0_scratch0 : Memref sig .tc .vmem S2048x2048 .f32).access (Rect.unit (s := S2048x2048) (k0_off110 c) S512x384.size (k0_off110_inb c))).write (Elt Ideal) f14 (k0_pay97 (F := Ideal) (View.readAt (Elt Ideal) (Memref.whole cc0_scratch15 : Memref sig .tc .vmem S2048x384 .bf16).view (Rect.unit (s := S2048x384) (k0_off109 c) S512x384.size (k0_off109_inb c)).toLoadRect (((agM2_1 (nbr 0 c)).view.set : Finset (Idx ((Memref.whole cc0_scratch15 : Memref sig .tc .vmem S2048x384 .bf16).view.loc (c : Thread nD τ)))).piecewise f2 g1))) Finset.univ) (ix2 r jj) = ((Memref.whole cc0_scratch0 : Memref sig .tc .vmem S2048x2048 .f32).access (Rect.unit (s := S2048x2048) (k0_off110 c) S512x384.size (k0_off110_inb c))).read (Elt Ideal) (((Memref.whole cc0_scratch0 : Memref sig .tc .vmem S2048x2048 .f32).access (Rect.unit (s := S2048x2048) (k0_off110 c) S512x384.size (k0_off110_inb c))).write (Elt Ideal) f14 (k0_pay97 (F := Ideal) (View.readAt (Elt Ideal) (Memref.whole cc0_scratch15 : Memref sig .tc .vmem S2048x384 .bf16).view (Rect.unit (s := S2048x384) (k0_off109 c) S512x384.size (k0_off109_inb c)).toLoadRect (((agM2_1 (nbr 0 c)).view.set : Finset (Idx ((Memref.whole cc0_scratch15 : Memref sig .tc .vmem S2048x384 .bf16).view.loc (c : Thread nD τ)))).piecewise f2 g1))) Finset.univ) (ix2 r jj) := by
    rw [View.read_apply, View.read_apply, hidx]
  rw [e1, View.read_write_of_mem _ _ (Finset.mem_univ _)]
  unfold k0_pay97
  simp only [shapeCast_self]
  rw [extf_apply, View.readAt_rect]
  -- the rows read are the rows that arrived
  have hidx2 : ((Memref.whole cc0_scratch15 : Memref sig .tc .vmem S2048x384 .bf16).view.slice (Rect.unit (s := S2048x384) (k0_off109 c) S512x384.size (k0_off109_inb c))).emb (ix2 r jj) = (agM2_1 (nbr 0 c)).view.emb (ix2 r jj) := by
    apply Shape.idx_ext₂
    · show k0_off109 c 0 + 1 * r.val = k0_off86 (nbr 0 c) 0 + 1 * r.val
      rw [off109_eq, off86_eq, cz_nbr0, cx_nbr0]
    · show k0_off109 c 1 + 1 * jj.val = k0_off86 (nbr 0 c) 1 + 1 * jj.val
      rw [off109_eq, off86_eq]; simp only [Matrix.cons_val_one]
  have hmem : ((Memref.whole cc0_scratch15 : Memref sig .tc .vmem S2048x384 .bf16).view.slice (Rect.unit (s := S2048x384) (k0_off109 c) S512x384.size (k0_off109_inb c))).emb (ix2 r jj) ∈ (agM2_1 (nbr 0 c)).view.set := by
    rw [hidx2]; exact View.emb_mem_set _ _
  have e2 : ((Memref.whole cc0_scratch15 : Memref sig .tc .vmem S2048x384 .bf16).view.slice (Rect.unit (s := S2048x384) (k0_off109 c) S512x384.size (k0_off109_inb c))).read (Elt Ideal) (((agM2_1 (nbr 0 c)).view.set : Finset (Idx ((Memref.whole cc0_scratch15 : Memref sig .tc .vmem S2048x384 .bf16).view.loc (c : Thread nD τ)))).piecewise f2 g1) (ix2 r jj) = (agM2_1 (nbr 0 c)).view.read (Elt Ideal) f2 (ix2 r jj) := by
    rw [View.read_apply, View.read_apply, Finset.piecewise_eq_of_mem _ _ _ hmem, hidx2]
  have h1 := hf2 r jj
  have h01 : ownRow 2 1 (nbr 0 c) = cz c * 1024 + (1 - cx c) * 512 := by simp [ownRow, coordN, cz_nbr0, cx_nbr0]
  have ho : outRow c 14 = cz c * 1024 + (1 - cx c) * 512 := by simp [outRow, coordN]
  have hc : outColLo 14 = colLo 2 := by simp [outColLo, colLo]
  refine e2.trans (h1.trans ?_)
  show Cert.RefSide.gelu1 (tot A B (ownRow 2 1 (nbr 0 c) + r.val) (colLo 2 + jj.val)) = Cert.RefSide.gelu1 (tot A B (outRow c 14 + r.val) (outColLo 14 + jj.val))
  rw [h01, ho, hc]

/-- The block of the accumulator that the result copy 15 moves holds the finished entries at the rows of the quarter that
    arrived from the neighbour across axis 1 and the columns of group 3: it is those arrived rows, widened. -/
theorem val_out15 (c : Dev nD) (g1 f2 : Buf (Elt Ideal) ((Memref.whole cc0_scratch16 : Memref sig .tc .vmem S2048x384 .bf16).view.loc (c : Thread nD τ)))
    (f15 : Buf (Elt Ideal) ((outSrcM15 c).view.loc (c : Thread nD τ)))
    (hf2 : (Vreal A B).ag3_1 (nbr 1 c) ((agM3_1 (nbr 1 c)).view.read (Elt Ideal) f2)) :
    (Vreal A B).out15 c ((outSrcM15 c).view.read (Elt Ideal) (((Memref.whole cc0_scratch0 : Memref sig .tc .vmem S2048x2048 .f32).access (Rect.unit (s := S2048x2048) (k0_off112 c) S512x384.size (k0_off112_inb c))).write (Elt Ideal) f15 (k0_pay98 (F := Ideal) (View.readAt (Elt Ideal) (Memref.whole cc0_scratch16 : Memref sig .tc .vmem S2048x384 .bf16).view (Rect.unit (s := S2048x384) (k0_off101 c) S512x384.size (k0_off101_inb c)).toLoadRect (((agM3_1 (nbr 1 c)).view.set : Finset (Idx ((Memref.whole cc0_scratch16 : Memref sig .tc .vmem S2048x384 .bf16).view.loc (c : Thread nD τ)))).piecewise f2 g1))) Finset.univ)) := by
  intro r jj
  have hq := cy_le c
  -- the block read is the block written
  have hidx : (outSrcM15 c).view.emb (ix2 r jj) = ((Memref.whole cc0_scratch0 : Memref sig .tc .vmem S2048x2048 .f32).access (Rect.unit (s := S2048x2048) (k0_off112 c) S512x384.size (k0_off112_inb c))).emb (ix2 r jj) := by
    apply Shape.idx_ext₂
    · show k0_off113 c 0 + 1 * r.val = k0_off112 c 0 + 1 * r.val
      rw [off113_eq, off112_eq]
    · show k0_off113 c 1 + 1 * jj.val = k0_off112 c 1 + 1 * jj.val
      rw [off113_eq, off112_eq]
  have e1 : (outSrcM15 c).view.read (Elt Ideal) (((Memref.whole cc0_scratch0 : Memref sig .tc .vmem S2048x2048 .f32).access (Rect.unit (s := S2048x2048) (k0_off112 c) S512x384.size (k0_off112_inb c))).write (Elt Ideal) f15 (k0_pay98 (F := Ideal) (View.readAt (Elt Ideal) (Memref.whole cc0_scratch16 : Memref sig .tc .vmem S2048x384 .bf16).view (Rect.unit (s := S2048x384) (k0_off101 c) S512x384.size (k0_off101_inb c)).toLoadRect (((agM3_1 (nbr 1 c)).view.set : Finset (Idx ((Memref.whole cc0_scratch16 : Memref sig .tc .vmem S2048x384 .bf16).view.loc (c : Thread nD τ)))).piecewise f2 g1))) Finset.univ) (ix2 r jj) = ((Memref.whole cc0_scratch0 : Memref sig .tc .vmem S2048x2048 .f32).access (Rect.unit (s := S2048x2048) (k0_off112 c) S512x384.size (k0_off112_inb c))).read (Elt Ideal) (((Memref.whole cc0_scratch0 : Memref sig .tc .vmem S2048x2048 .f32).access (Rect.unit (s := S2048x2048) (k0_off112 c) S512x384.size (k0_off112_inb c))).write (Elt Ideal) f15 (k0_pay98 (F := Ideal) (View.readAt (Elt Ideal) (Memref.whole cc0_scratch16 : Memref sig .tc .vmem S2048x384 .bf16).view (Rect.unit (s := S2048x384) (k0_off101 c) S512x384.size (k0_off101_inb c)).toLoadRect (((agM3_1 (nbr 1 c)).view.set : Finset (Idx ((Memref.whole cc0_scratch16 : Memref sig .tc .vmem S2048x384 .bf16).view.loc (c : Thread nD τ)))).piecewise f2 g1))) Finset.univ) (ix2 r jj) := by
    rw [View.read_apply, View.read_apply, hidx]
  rw [e1, View.read_write_of_mem _ _ (Finset.mem_univ _)]
  unfold k0_pay98
  simp only [shapeCast_self]
  rw [extf_apply, View.readAt_rect]
  -- the rows read are the rows that arrived
  have hidx2 : ((Memref.whole cc0_scratch16 : Memref sig .tc .vmem S2048x384 .bf16).view.slice (Rect.unit (s := S2048x384) (k0_off101 c) S512x384.size (k0_off101_inb c))).emb (ix2 r jj) = (agM3_1 (nbr 1 c)).view.emb (ix2 r jj) := by
    apply Shape.idx_ext₂
    · show k0_off101 c 0 + 1 * r.val = k0_off78 (nbr 1 c) 0 + 1 * r.val
      rw [off101_eq, off78_eq, cx_nbr1, cy_nbr1]
    · show k0_off101 c 1 + 1 * jj.val = k0_off78 (nbr 1 c) 1 + 1 * jj.val
      rw [off101_eq, off78_eq]; simp only [Matrix.cons_val_one]
  have hmem : ((Memref.whole cc0_scratch16 : Memref sig .tc .vmem S2048x384 .bf16).view.slice (Rect.unit (s := S2048x384) (k0_off101 c) S512x384.size (k0_off101_inb c))).emb (ix2 r jj) ∈ (agM3_1 (nbr 1 c)).view.set := by
    rw [hidx2]; exact View.emb_mem_set _ _
  have e2 : ((Memref.whole cc0_scratch16 : Memref sig .tc .vmem S2048x384 .bf16).view.slice (Rect.unit (s := S2048x384) (k0_off101 c) S512x384.size (k0_off101_inb c))).read (Elt Ideal) (((agM3_1 (nbr 1 c)).view.set : Finset (Idx ((Memref.whole cc0_scratch16 : Memref sig .tc .vmem S2048x384 .bf16).view.loc (c : Thread nD τ)))).piecewise f2 g1) (ix2 r jj) = (agM3_1 (nbr 1 c)).view.read (Elt Ideal) f2 (ix2 r jj) := by
    rw [View.read_apply, View.read_apply, Finset.piecewise_eq_of_mem _ _ _ hmem, hidx2]
  have h1 := hf2 r jj
  have h01 : ownRow 3 1 (nbr 1 c) = cx c * 1024 + (1 - cy c) * 512 := by simp [ownRow, coordN, cx_nbr1, cy_nbr1]
  have ho : outRow c 15 = cx c * 1024 + (1 - cy c) * 512 := by simp [outRow, coordN]
  have hc : outColLo 15 = colLo 3 := by simp [outColLo, colLo]
  refine e2.trans (h1.trans ?_)
  show Cert.RefSide.gelu1 (tot A B (ownRow 3 1 (nbr 1 c) + r.val) (colLo 3 + jj.val)) = Cert.RefSide.gelu1 (tot A B (outRow c 15 + r.val) (outColLo 15 + jj.val))
  rw [h01, ho, hc]

/-- The block of the accumulator that the result copy 16 moves holds the finished entries at the rows of the quarter that
    arrived from the neighbour across axis 2 and the columns of group 4: it is those arrived rows, widened. -/
theorem val_out16 (c : Dev nD) (g1 f2 : Buf (Elt Ideal) ((Memref.whole cc0_scratch17 : Memref sig .tc .vmem S2048x256 .bf16).view.loc (c : Thread nD τ)))
    (f16 : Buf (Elt Ideal) ((outSrcM16 c).view.loc (c : Thread nD τ)))
    (hf2 : (Vreal A B).ag4_1 (nbr 2 c) ((agM4_1 (nbr 2 c)).view.read (Elt Ideal) f2)) :
    (Vreal A B).out16 c ((outSrcM16 c).view.read (Elt Ideal) (((Memref.whole cc0_scratch0 : Memref sig .tc .vmem S2048x2048 .f32).access (Rect.unit (s := S2048x2048) (k0_off116 c) S512x256.size (k0_off116_inb c))).write (Elt Ideal) f16 (k0_pay99 (F := Ideal) (View.readAt (Elt Ideal) (Memref.whole cc0_scratch17 : Memref sig .tc .vmem S2048x256 .bf16).view (Rect.unit (s := S2048x256) (k0_off115 c) S512x256.size (k0_off115_inb c)).toLoadRect (((agM4_1 (nbr 2 c)).view.set : Finset (Idx ((Memref.whole cc0_scratch17 : Memref sig .tc .vmem S2048x256 .bf16).view.loc (c : Thread nD τ)))).piecewise f2 g1))) Finset.univ)) := by
  intro r jj
  have hq := cz_le c
  -- the block read is the block written
  have hidx : (outSrcM16 c).view.emb (ix2 r jj) = ((Memref.whole cc0_scratch0 : Memref sig .tc .vmem S2048x2048 .f32).access (Rect.unit (s := S2048x2048) (k0_off116 c) S512x256.size (k0_off116_inb c))).emb (ix2 r jj) := by
    apply Shape.idx_ext₂
    · show k0_off117 c 0 + 1 * r.val = k0_off116 c 0 + 1 * r.val
      rw [off117_eq, off116_eq]
    · show k0_off117 c 1 + 1 * jj.val = k0_off116 c 1 + 1 * jj.val
      rw [off117_eq, off116_eq]
  have e1 : (outSrcM16 c).view.read (Elt Ideal) (((Memref.whole cc0_scratch0 : Memref sig .tc .vmem S2048x2048 .f32).access (Rect.unit (s := S2048x2048) (k0_off116 c) S512x256.size (k0_off116_inb c))).write (Elt Ideal) f16 (k0_pay99 (F := Ideal) (View.readAt (Elt Ideal) (Memref.whole cc0_scratch17 : Memref sig .tc .vmem S2048x256 .bf16).view (Rect.unit (s := S2048x256) (k0_off115 c) S512x256.size (k0_off115_inb c)).toLoadRect (((agM4_1 (nbr 2 c)).view.set : Finset (Idx ((Memref.whole cc0_scratch17 : Memref sig .tc .vmem S2048x256 .bf16).view.loc (c : Thread nD τ)))).piecewise f2 g1))) Finset.univ) (ix2 r jj) = ((Memref.whole cc0_scratch0 : Memref sig .tc .vmem S2048x2048 .f32).access (Rect.unit (s := S2048x2048) (k0_off116 c) S512x256.size (k0_off116_inb c))).read (Elt Ideal) (((Memref.whole cc0_scratch0 : Memref sig .tc .vmem S2048x2048 .f32).access (Rect.unit (s := S2048x2048) (k0_off116 c) S512x256.size (k0_off116_inb c))).write (Elt Ideal) f16 (k0_pay99 (F := Ideal) (View.readAt (Elt Ideal) (Memref.whole cc0_scratch17 : Memref sig .tc .vmem S2048x256 .bf16).view (Rect.unit (s := S2048x256) (k0_off115 c) S512x256.size (k0_off115_inb c)).toLoadRect (((agM4_1 (nbr 2 c)).view.set : Finset (Idx ((Memref.whole cc0_scratch17 : Memref sig .tc .vmem S2048x256 .bf16).view.loc (c : Thread nD τ)))).piecewise f2 g1))) Finset.univ) (ix2 r jj) := by
    rw [View.read_apply, View.read_apply, hidx]
  rw [e1, View.read_write_of_mem _ _ (Finset.mem_univ _)]
  unfold k0_pay99
  simp only [shapeCast_self]
  rw [extf_apply, View.readAt_rect]
  -- the rows read are the rows that arrived
  have hidx2 : ((Memref.whole cc0_scratch17 : Memref sig .tc .vmem S2048x256 .bf16).view.slice (Rect.unit (s := S2048x256) (k0_off115 c) S512x256.size (k0_off115_inb c))).emb (ix2 r jj) = (agM4_1 (nbr 2 c)).view.emb (ix2 r jj) := by
    apply Shape.idx_ext₂
    · show k0_off115 c 0 + 1 * r.val = k0_off92 (nbr 2 c) 0 + 1 * r.val
      rw [off115_eq, off92_eq, cy_nbr2, cz_nbr2]
    · show k0_off115 c 1 + 1 * jj.val = k0_off92 (nbr 2 c) 1 + 1 * jj.val
      rw [off115_eq, off92_eq]; simp only [Matrix.cons_val_one]
  have hmem : ((Memref.whole cc0_scratch17 : Memref sig .tc .vmem S2048x256 .bf16).view.slice (Rect.unit (s := S2048x256) (k0_off115 c) S512x256.size (k0_off115_inb c))).emb (ix2 r jj) ∈ (agM4_1 (nbr 2 c)).view.set := by
    rw [hidx2]; exact View.emb_mem_set _ _
  have e2 : ((Memref.whole cc0_scratch17 : Memref sig .tc .vmem S2048x256 .bf16).view.slice (Rect.unit (s := S2048x256) (k0_off115 c) S512x256.size (k0_off115_inb c))).read (Elt Ideal) (((agM4_1 (nbr 2 c)).view.set : Finset (Idx ((Memref.whole cc0_scratch17 : Memref sig .tc .vmem S2048x256 .bf16).view.loc (c : Thread nD τ)))).piecewise f2 g1) (ix2 r jj) = (agM4_1 (nbr 2 c)).view.read (Elt Ideal) f2 (ix2 r jj) := by
    rw [View.read_apply, View.read_apply, Finset.piecewise_eq_of_mem _ _ _ hmem, hidx2]
  have h1 := hf2 r jj
  have h01 : ownRow 4 1 (nbr 2 c) = cy c * 1024 + (1 - cz c) * 512 := by simp [ownRow, coordN, cy_nbr2, cz_nbr2]
  have ho : outRow c 16 = cy c * 1024 + (1 - cz c) * 512 := by simp [outRow, coordN]
  have hc : outColLo 16 = colLo 4 := by simp [outColLo, colLo]
  refine e2.trans (h1.trans ?_)
  show Cert.RefSide.gelu1 (tot A B (ownRow 4 1 (nbr 2 c) + r.val) (colLo 4 + jj.val)) = Cert.RefSide.gelu1 (tot A B (outRow c 16 + r.val) (outColLo 16 + jj.val))
  rw [h01, ho, hc]

/-- The block of the accumulator that the result copy 17 moves holds the finished entries at the rows of the quarter that
    arrived from the neighbour across axis 0 and the columns of group 5: it is those arrived rows, widened. -/
theorem val_out17 (c : Dev nD) (g1 f2 : Buf (Elt Ideal) ((Memref.whole cc0_scratch18 : Memref sig .tc .vmem S2048x256 .bf16).view.loc (c : Thread nD τ)))
    (f17 : Buf (Elt Ideal) ((outSrcM17 c).view.loc (c : Thread nD τ)))
    (hf2 : (Vreal A B).ag5_1 (nbr 0 c) ((agM5_1 (nbr 0 c)).view.read (Elt Ideal) f2)) :
    (Vreal A B).out17 c ((outSrcM17 c).view.read (Elt Ideal) (((Memref.whole cc0_scratch0 : Memref sig .tc .vmem S2048x2048 .f32).access (Rect.unit (s := S2048x2048) (k0_off120 c) S512x256.size (k0_off120_inb c))).write (Elt Ideal) f17 (k0_pay100 (F := Ideal) (View.readAt (Elt Ideal) (Memref.whole cc0_scratch18 : Memref sig .tc .vmem S2048x256 .bf16).view (Rect.unit (s := S2048x256) (k0_off119 c) S512x256.size (k0_off119_inb c)).toLoadRect (((agM5_1 (nbr 0 c)).view.set : Finset (Idx ((Memref.whole cc0_scratch18 : Memref sig .tc .vmem S2048x256 .bf16).view.loc (c : Thread nD τ)))).piecewise f2 g1))) Finset.univ)) := by
  intro r jj
  have hq := cx_le c
  -- the block read is the block written
  have hidx : (outSrcM17 c).view.emb (ix2 r jj) = ((Memref.whole cc0_scratch0 : Memref sig .tc .vmem S2048x2048 .f32).access (Rect.unit (s := S2048x2048) (k0_off120 c) S512x256.size (k0_off120_inb c))).emb (ix2 r jj) := by
    apply Shape.idx_ext₂
    · show k0_off121 c 0 + 1 * r.val = k0_off120 c 0 + 1 * r.val
      rw [off121_eq, off120_eq]
    · show k0_off121 c 1 + 1 * jj.val = k0_off120 c 1 + 1 * jj.val
      rw [off121_eq, off120_eq]
  have e1 : (outSrcM17 c).view.read (Elt Ideal) (((Memref.whole cc0_scratch0 : Memref sig .tc .vmem S2048x2048 .f32).access (Rect.unit (s := S2048x2048) (k0_off120 c) S512x256.size (k0_off120_inb c))).write (Elt Ideal) f17 (k0_pay100 (F := Ideal) (View.readAt (Elt Ideal) (Memref.whole cc0_scratch18 : Memref sig .tc .vmem S2048x256 .bf16).view (Rect.unit (s := S2048x256) (k0_off119 c) S512x256.size (k0_off119_inb c)).toLoadRect (((agM5_1 (nbr 0 c)).view.set : Finset (Idx ((Memref.whole cc0_scratch18 : Memref sig .tc .vmem S2048x256 .bf16).view.loc (c : Thread nD τ)))).piecewise f2 g1))) Finset.univ) (ix2 r jj) = ((Memref.whole cc0_scratch0 : Memref sig .tc .vmem S2048x2048 .f32).access (Rect.unit (s := S2048x2048) (k0_off120 c) S512x256.size (k0_off120_inb c))).read (Elt Ideal) (((Memref.whole cc0_scratch0 : Memref sig .tc .vmem S2048x2048 .f32).access (Rect.unit (s := S2048x2048) (k0_off120 c) S512x256.size (k0_off120_inb c))).write (Elt Ideal) f17 (k0_pay100 (F := Ideal) (View.readAt (Elt Ideal) (Memref.whole cc0_scratch18 : Memref sig .tc .vmem S2048x256 .bf16).view (Rect.unit (s := S2048x256) (k0_off119 c) S512x256.size (k0_off119_inb c)).toLoadRect (((agM5_1 (nbr 0 c)).view.set : Finset (Idx ((Memref.whole cc0_scratch18 : Memref sig .tc .vmem S2048x256 .bf16).view.loc (c : Thread nD τ)))).piecewise f2 g1))) Finset.univ) (ix2 r jj) := by
    rw [View.read_apply, View.read_apply, hidx]
  rw [e1, View.read_write_of_mem _ _ (Finset.mem_univ _)]
  unfold k0_pay100
  simp only [shapeCast_self]
  rw [extf_apply, View.readAt_rect]
  -- the rows read are the rows that arrived
  have hidx2 : ((Memref.whole cc0_scratch18 : Memref sig .tc .vmem S2048x256 .bf16).view.slice (Rect.unit (s := S2048x256) (k0_off119 c) S512x256.size (k0_off119_inb c))).emb (ix2 r jj) = (agM5_1 (nbr 0 c)).view.emb (ix2 r jj) := by
    apply Shape.idx_ext₂
    · show k0_off119 c 0 + 1 * r.val = k0_off96 (nbr 0 c) 0 + 1 * r.val
      rw [off119_eq, off96_eq, cz_nbr0, cx_nbr0]
    · show k0_off119 c 1 + 1 * jj.val = k0_off96 (nbr 0 c) 1 + 1 * jj.val
      rw [off119_eq, off96_eq]; simp only [Matrix.cons_val_one]
  have hmem : ((Memref.whole cc0_scratch18 : Memref sig .tc .vmem S2048x256 .bf16).view.slice (Rect.unit (s := S2048x256) (k0_off119 c) S512x256.size (k0_off119_inb c))).emb (ix2 r jj) ∈ (agM5_1 (nbr 0 c)).view.set := by
    rw [hidx2]; exact View.emb_mem_set _ _
  have e2 : ((Memref.whole cc0_scratch18 : Memref sig .tc .vmem S2048x256 .bf16).view.slice (Rect.unit (s := S2048x256) (k0_off119 c) S512x256.size (k0_off119_inb c))).read (Elt Ideal) (((agM5_1 (nbr 0 c)).view.set : Finset (Idx ((Memref.whole cc0_scratch18 : Memref sig .tc .vmem S2048x256 .bf16).view.loc (c : Thread nD τ)))).piecewise f2 g1) (ix2 r jj) = (agM5_1 (nbr 0 c)).view.read (Elt Ideal) f2 (ix2 r jj) := by
    rw [View.read_apply, View.read_apply, Finset.piecewise_eq_of_mem _ _ _ hmem, hidx2]
  have h1 := hf2 r jj
  have h01 : ownRow 5 1 (nbr 0 c) = cz c * 1024 + (1 - cx c) * 512 := by simp [ownRow, coordN, cz_nbr0, cx_nbr0]
  have ho : outRow c 17 = cz c * 1024 + (1 - cx c) * 512 := by simp [outRow, coordN]
  have hc : outColLo 17 = colLo 5 := by simp [outColLo, colLo]
  refine e2.trans (h1.trans ?_)
  show Cert.RefSide.gelu1 (tot A B (ownRow 5 1 (nbr 0 c) + r.val) (colLo 5 + jj.val)) = Cert.RefSide.gelu1 (tot A B (outRow c 17 + r.val) (outColLo 17 + jj.val))
  rw [h01, ho, hc]

/-- The block of the accumulator that the result copy 18 moves holds the finished entries at the rows of the half that
    arrived from the neighbour across axis 0 at the last all-gather round and the columns of group 0: it is those
    arrived rows, widened. -/
theorem val_out18 (c : Dev nD) (fa : Buf (Elt Ideal) ((Memref.whole cc0_scratch13 : Memref sig .tc .vmem S2048x384 .bf16).view.loc (c : Thread nD τ)))
    (f18 : Buf (Elt Ideal) ((outSrcM18 c).view.loc (c : Thread nD τ)))
    (hfa : (Vreal A B).ag0_2 (nbr 0 c) ((agM0_2 (nbr 0 c)).view.read (Elt Ideal) fa)) :
    (Vreal A B).out18 c ((outSrcM18 c).view.read (Elt Ideal) (((Memref.whole cc0_scratch0 : Memref sig .tc .vmem S2048x2048 .f32).access (Rect.unit (s := S2048x2048) (k0_off123 c) S1024x384.size (k0_off123_inb c))).write (Elt Ideal) f18 (k0_pay101 (F := Ideal) (View.readAt (Elt Ideal) (Memref.whole cc0_scratch13 : Memref sig .tc .vmem S2048x384 .bf16).view (Rect.unit (s := S2048x384) (k0_off122 c) S1024x384.size (k0_off122_inb c)).toLoadRect fa)) Finset.univ)) := by
  intro r jj
  have hq := cx_le c
  have hidx : (outSrcM18 c).view.emb (ix2 r jj) = ((Memref.whole cc0_scratch0 : Memref sig .tc .vmem S2048x2048 .f32).access (Rect.unit (s := S2048x2048) (k0_off123 c) S1024x384.size (k0_off123_inb c))).emb (ix2 r jj) := by
    apply Shape.idx_ext₂
    · show k0_off124 c 0 + 1 * r.val = k0_off123 c 0 + 1 * r.val
      rw [off124_eq, off123_eq]
    · show k0_off124 c 1 + 1 * jj.val = k0_off123 c 1 + 1 * jj.val
      rw [off124_eq, off123_eq]
  have e1 : (outSrcM18 c).view.read (Elt Ideal) (((Memref.whole cc0_scratch0 : Memref sig .tc .vmem S2048x2048 .f32).access (Rect.unit (s := S2048x2048) (k0_off123 c) S1024x384.size (k0_off123_inb c))).write (Elt Ideal) f18 (k0_pay101 (F := Ideal) (View.readAt (Elt Ideal) (Memref.whole cc0_scratch13 : Memref sig .tc .vmem S2048x384 .bf16).view (Rect.unit (s := S2048x384) (k0_off122 c) S1024x384.size (k0_off122_inb c)).toLoadRect fa)) Finset.univ) (ix2 r jj) = ((Memref.whole cc0_scratch0 : Memref sig .tc .vmem S2048x2048 .f32).access (Rect.unit (s := S2048x2048) (k0_off123 c) S1024x384.size (k0_off123_inb c))).read (Elt Ideal) (((Memref.whole cc0_scratch0 : Memref sig .tc .vmem S2048x2048 .f32).access (Rect.unit (s := S2048x2048) (k0_off123 c) S1024x384.size (k0_off123_inb c))).write (Elt Ideal) f18 (k0_pay101 (F := Ideal) (View.readAt (Elt Ideal) (Memref.whole cc0_scratch13 : Memref sig .tc .vmem S2048x384 .bf16).view (Rect.unit (s := S2048x384) (k0_off122 c) S1024x384.size (k0_off122_inb c)).toLoadRect fa)) Finset.univ) (ix2 r jj) := by
    rw [View.read_apply, View.read_apply, hidx]
  rw [e1, View.read_write_of_mem _ _ (Finset.mem_univ _)]
  unfold k0_pay101
  simp only [shapeCast_self]
  rw [extf_apply, View.readAt_rect]
  have hidx2 : ((Memref.whole cc0_scratch13 : Memref sig .tc .vmem S2048x384 .bf16).view.slice (Rect.unit (s := S2048x384) (k0_off122 c) S1024x384.size (k0_off122_inb c))).emb (ix2 r jj) = (agM0_2 (nbr 0 c)).view.emb (ix2 r jj) := by
    apply Shape.idx_ext₂
    · show k0_off122 c 0 + 1 * r.val = k0_off100 (nbr 0 c) 0 + 1 * r.val
      rw [off122_eq, off100_eq, cx_nbr0]
    · show k0_off122 c 1 + 1 * jj.val = k0_off100 (nbr 0 c) 1 + 1 * jj.val
      rw [off122_eq, off100_eq]; simp only [Matrix.cons_val_one]
  have e2 : ((Memref.whole cc0_scratch13 : Memref sig .tc .vmem S2048x384 .bf16).view.slice (Rect.unit (s := S2048x384) (k0_off122 c) S1024x384.size (k0_off122_inb c))).read (Elt Ideal) fa (ix2 r jj) = (agM0_2 (nbr 0 c)).view.read (Elt Ideal) fa (ix2 r jj) := by
    rw [View.read_apply, View.read_apply, hidx2]
  have h1 := hfa r jj
  have h01 : ownRow 0 2 (nbr 0 c) = (1 - cx c) * 1024 := by simp [ownRow, coordN, cx_nbr0]
  have ho : outRow c 18 = (1 - cx c) * 1024 := by simp [outRow, coordN]
  have hc : outColLo 18 = colLo 0 := by simp [outColLo, colLo]
  refine e2.trans (h1.trans ?_)
  show Cert.RefSide.gelu1 (tot A B (ownRow 0 2 (nbr 0 c) + r.val) (colLo 0 + jj.val)) = Cert.RefSide.gelu1 (tot A B (outRow c 18 + r.val) (outColLo 18 + jj.val))
  rw [h01, ho, hc]

/-- The block of the accumulator that the result copy 19 moves holds the finished entries at the rows of the half that
    arrived from the neighbour across axis 1 at the last all-gather round and the columns of group 1: it is those
    arrived rows, widened. -/
theorem val_out19 (c : Dev nD) (fa : Buf (Elt Ideal) ((Memref.whole cc0_scratch14 : Memref sig .tc .vmem S2048x384 .bf16).view.loc (c : Thread nD τ)))
    (fb : Buf (Elt Ideal) ((outSrcM19 c).view.loc (c : Thread nD τ)))
    (hfa : (Vreal A B).ag1_2 (nbr 1 c) ((agM1_2 (nbr 1 c)).view.read (Elt Ideal) fa)) :
    (Vreal A B).out19 c ((outSrcM19 c).view.read (Elt Ideal) (((Memref.whole cc0_scratch0 : Memref sig .tc .vmem S2048x2048 .f32).access (Rect.unit (s := S2048x2048) (k0_off126 c) S1024x384.size (k0_off126_inb c))).write (Elt Ideal) fb (k0_pay102 (F := Ideal) (View.readAt (Elt Ideal) (Memref.whole cc0_scratch14 : Memref sig .tc .vmem S2048x384 .bf16).view (Rect.unit (s := S2048x384) (k0_off125 c) S1024x384.size (k0_off125_inb c)).toLoadRect fa)) Finset.univ)) := by
  intro r jj
  have hq := cy_le c
  have hidx : (outSrcM19 c).view.emb (ix2 r jj) = ((Memref.whole cc0_scratch0 : Memref sig .tc .vmem S2048x2048 .f32).access (Rect.unit (s := S2048x2048) (k0_off126 c) S1024x384.size (k0_off126_inb c))).emb (ix2 r jj) := by
    apply Shape.idx_ext₂
    · show k0_off127 c 0 + 1 * r.val = k0_off126 c 0 + 1 * r.val
      rw [off127_eq, off126_eq]
    · show k0_off127 c 1 + 1 * jj.val = k0_off126 c 1 + 1 * jj.val
      rw [off127_eq, off126_eq]
  have e1 : (outSrcM19 c).view.read (Elt Ideal) (((Memref.whole cc0_scratch0 : Memref sig .tc .vmem S2048x2048 .f32).access (Rect.unit (s := S2048x2048) (k0_off126 c) S1024x384.size (k0_off126_inb c))).write (Elt Ideal) fb (k0_pay102 (F := Ideal) (View.readAt (Elt Ideal) (Memref.whole cc0_scratch14 : Memref sig .tc .vmem S2048x384 .bf16).view (Rect.unit (s := S2048x384) (k0_off125 c) S1024x384.size (k0_off125_inb c)).toLoadRect fa)) Finset.univ) (ix2 r jj) = ((Memref.whole cc0_scratch0 : Memref sig .tc .vmem S2048x2048 .f32).access (Rect.unit (s := S2048x2048) (k0_off126 c) S1024x384.size (k0_off126_inb c))).read (Elt Ideal) (((Memref.whole cc0_scratch0 : Memref sig .tc .vmem S2048x2048 .f32).access (Rect.unit (s := S2048x2048) (k0_off126 c) S1024x384.size (k0_off126_inb c))).write (Elt Ideal) fb (k0_pay102 (F := Ideal) (View.readAt (Elt Ideal) (Memref.whole cc0_scratch14 : Memref sig .tc .vmem S2048x384 .bf16).view (Rect.unit (s := S2048x384) (k0_off125 c) S1024x384.size (k0_off125_inb c)).toLoadRect fa)) Finset.univ) (ix2 r jj) := by
    rw [View.read_apply, View.read_apply, hidx]
  rw [e1, View.read_write_of_mem _ _ (Finset.mem_univ _)]
  unfold k0_pay102
  simp only [shapeCast_self]
  rw [extf_apply, View.readAt_rect]
  have hidx2 : ((Memref.whole cc0_scratch14 : Memref sig .tc .vmem S2048x384 .bf16).view.slice (Rect.unit (s := S2048x384) (k0_off125 c) S1024x384.size (k0_off125_inb c))).emb (ix2 r jj) = (agM1_2 (nbr 1 c)).view.emb (ix2 r jj) := by
    apply Shape.idx_ext₂
    · show k0_off125 c 0 + 1 * r.val = k0_off104 (nbr 1 c) 0 + 1 * r.val
      rw [off125_eq, off104_eq, cy_nbr1]
    · show k0_off125 c 1 + 1 * jj.val = k0_off104 (nbr 1 c) 1 + 1 * jj.val
      rw [off125_eq, off104_eq]; simp only [Matrix.cons_val_one]
  have e2 : ((Memref.whole cc0_scratch14 : Memref sig .tc .vmem S2048x384 .bf16).view.slice (Rect.unit (s := S2048x384) (k0_off125 c) S1024x384.size (k0_off125_inb c))).read (Elt Ideal) fa (ix2 r jj) = (agM1_2 (nbr 1 c)).view.read (Elt Ideal) fa (ix2 r jj) := by
    rw [View.read_apply, View.read_apply, hidx2]
  have h1 := hfa r jj
  have h01 : ownRow 1 2 (nbr 1 c) = (1 - cy c) * 1024 := by simp [ownRow, coordN, cy_nbr1]
  have ho : outRow c 19 = (1 - cy c) * 1024 := by simp [outRow, coordN]
  have hc : outColLo 19 = colLo 1 := by simp [outColLo, colLo]
  refine e2.trans (h1.trans ?_)
  show Cert.RefSide.gelu1 (tot A B (ownRow 1 2 (nbr 1 c) + r.val) (colLo 1 + jj.val)) = Cert.RefSide.gelu1 (tot A B (outRow c 19 + r.val) (outColLo 19 + jj.val))
  rw [h01, ho, hc]

/-- The block of the accumulator that the result copy 20 moves holds the finished entries at the rows of the half that
    arrived from the neighbour across axis 2 at the last all-gather round and the columns of group 2: it is those
    arrived rows, widened. -/
theorem val_out20_e (c : Dev nD) (fa : Buf (Elt Ideal) ((Memref.whole cc0_scratch15 : Memref sig .tc .vmem S2048x384 .bf16).view.loc (c : Thread nD τ)))
    (fb : Buf (Elt Ideal) ((outSrcM20 c).view.loc (c : Thread nD τ)))
    (hfa : (Vreal A B).ag2_2 (nbr 2 c) ((agM2_2 (nbr 2 c)).view.read (Elt Ideal) fa)) :
    (Vreal A B).out20 c ((outSrcM20 c).view.read (Elt Ideal) (((Memref.whole cc0_scratch0 : Memref sig .tc .vmem S2048x2048 .f32).access (Rect.unit (s := S2048x2048) (k0_off129 c) S1024x384.size (k0_off129_inb c))).write (Elt Ideal) fb (k0_pay104 (F := Ideal) (k0_pay103 (F := Ideal) (View.readAt (Elt Ideal) (Memref.whole cc0_scratch15 : Memref sig .tc .vmem S2048x384 .bf16).view (Rect.unit (s := S2048x384) (k0_off128 c) S1024x384.size (k0_off128_inb c)).toLoadRect fa))) Finset.univ)) := by
  intro r jj
  have hq := cz_le c
  have hidx : (outSrcM20 c).view.emb (ix2 r jj) = ((Memref.whole cc0_scratch0 : Memref sig .tc .vmem S2048x2048 .f32).access (Rect.unit (s := S2048x2048) (k0_off129 c) S1024x384.size (k0_off129_inb c))).emb (ix2 r jj) := by
    apply Shape.idx_ext₂
    · show k0_off130 c 0 + 1 * r.val = k0_off129 c 0 + 1 * r.val
      rw [off130_eq, off129_eq]
    · show k0_off130 c 1 + 1 * jj.val = k0_off129 c 1 + 1 * jj.val
      rw [off130_eq, off129_eq]
  have e1 : (outSrcM20 c).view.read (Elt Ideal) (((Memref.whole cc0_scratch0 : Memref sig .tc .vmem S2048x2048 .f32).access (Rect.unit (s := S2048x2048) (k0_off129 c) S1024x384.size (k0_off129_inb c))).write (Elt Ideal) fb (k0_pay104 (F := Ideal) (k0_pay103 (F := Ideal) (View.readAt (Elt Ideal) (Memref.whole cc0_scratch15 : Memref sig .tc .vmem S2048x384 .bf16).view (Rect.unit (s := S2048x384) (k0_off128 c) S1024x384.size (k0_off128_inb c)).toLoadRect fa))) Finset.univ) (ix2 r jj) = ((Memref.whole cc0_scratch0 : Memref sig .tc .vmem S2048x2048 .f32).access (Rect.unit (s := S2048x2048) (k0_off129 c) S1024x384.size (k0_off129_inb c))).read (Elt Ideal) (((Memref.whole cc0_scratch0 : Memref sig .tc .vmem S2048x2048 .f32).access (Rect.unit (s := S2048x2048) (k0_off129 c) S1024x384.size (k0_off129_inb c))).write (Elt Ideal) fb (k0_pay104 (F := Ideal) (k0_pay103 (F := Ideal) (View.readAt (Elt Ideal) (Memref.whole cc0_scratch15 : Memref sig .tc .vmem S2048x384 .bf16).view (Rect.unit (s := S2048x384) (k0_off128 c) S1024x384.size (k0_off128_inb c)).toLoadRect fa))) Finset.univ) (ix2 r jj) := by
    rw [View.read_apply, View.read_apply, hidx]
  rw [e1, View.read_write_of_mem _ _ (Finset.mem_univ _)]
  unfold k0_pay104 k0_pay103
  simp only [shapeCast_self]
  rw [extf_apply, View.readAt_rect]
  have hidx2 : ((Memref.whole cc0_scratch15 : Memref sig .tc .vmem S2048x384 .bf16).view.slice (Rect.unit (s := S2048x384) (k0_off128 c) S1024x384.size (k0_off128_inb c))).emb (ix2 r jj) = (agM2_2 (nbr 2 c)).view.emb (ix2 r jj) := by
    apply Shape.idx_ext₂
    · show k0_off128 c 0 + 1 * r.val = k0_off108 (nbr 2 c) 0 + 1 * r.val
      rw [off128_eq, off108_eq, cz_nbr2]
    · show k0_off128 c 1 + 1 * jj.val = k0_off108 (nbr 2 c) 1 + 1 * jj.val
      rw [off128_eq, off108_eq]; simp only [Matrix.cons_val_one]
  have e2 : ((Memref.whole cc0_scratch15 : Memref sig .tc .vmem S2048x384 .bf16).view.slice (Rect.unit (s := S2048x384) (k0_off128 c) S1024x384.size (k0_off128_inb c))).read (Elt Ideal) fa (ix2 r jj) = (agM2_2 (nbr 2 c)).view.read (Elt Ideal) fa (ix2 r jj) := by
    rw [View.read_apply, View.read_apply, hidx2]
  have h1 := hfa r jj
  have h01 : ownRow 2 2 (nbr 2 c) = (1 - cz c) * 1024 := by simp [ownRow, coordN, cz_nbr2]
  have ho : outRow c 20 = (1 - cz c) * 1024 := by simp [outRow, coordN]
  have hc : outColLo 20 = colLo 2 := by simp [outColLo, colLo]
  refine e2.trans (h1.trans ?_)
  show Cert.RefSide.gelu1 (tot A B (ownRow 2 2 (nbr 2 c) + r.val) (colLo 2 + jj.val)) = Cert.RefSide.gelu1 (tot A B (outRow c 20 + r.val) (outColLo 20 + jj.val))
  rw [h01, ho, hc]

/-- The block of the accumulator that the result copy 21 moves holds the finished entries at the rows of the half that
    arrived from the neighbour across axis 0 at the last all-gather round and the columns of group 3: it is those
    arrived rows, widened. -/
theorem val_out21 (c : Dev nD) (fa : Buf (Elt Ideal) ((Memref.whole cc0_scratch16 : Memref sig .tc .vmem S2048x384 .bf16).view.loc (c : Thread nD τ)))
    (fb : Buf (Elt Ideal) ((outSrcM21 c).view.loc (c : Thread nD τ)))
    (hfa : (Vreal A B).ag3_2 (nbr 0 c) ((agM3_2 (nbr 0 c)).view.read (Elt Ideal) fa)) :
    (Vreal A B).out21 c ((outSrcM21 c).view.read (Elt Ideal) (((Memref.whole cc0_scratch0 : Memref sig .tc .vmem S2048x2048 .f32).access (Rect.unit (s := S2048x2048) (k0_off131 c) S1024x384.size (k0_off131_inb c))).write (Elt Ideal) fb (k0_pay105 (F := Ideal) (View.readAt (Elt Ideal) (Memref.whole cc0_scratch16 : Memref sig .tc .vmem S2048x384 .bf16).view (Rect.unit (s := S2048x384) (k0_off122 c) S1024x384.size (k0_off122_inb c)).toLoadRect fa)) Finset.univ)) := by
  intro r jj
  have hq := cx_le c
  have hidx : (outSrcM21 c).view.emb (ix2 r jj) = ((Memref.whole cc0_scratch0 : Memref sig .tc .vmem S2048x2048 .f32).access (Rect.unit (s := S2048x2048) (k0_off131 c) S1024x384.size (k0_off131_inb c))).emb (ix2 r jj) := by
    apply Shape.idx_ext₂
    · show k0_off132 c 0 + 1 * r.val = k0_off131 c 0 + 1 * r.val
      rw [off132_eq, off131_eq]
    · show k0_off132 c 1 + 1 * jj.val = k0_off131 c 1 + 1 * jj.val
      rw [off132_eq, off131_eq]
  have e1 : (outSrcM21 c).view.read (Elt Ideal) (((Memref.whole cc0_scratch0 : Memref sig .tc .vmem S2048x2048 .f32).access (Rect.unit (s := S2048x2048) (k0_off131 c) S1024x384.size (k0_off131_inb c))).write (Elt Ideal) fb (k0_pay105 (F := Ideal) (View.readAt (Elt Ideal) (Memref.whole cc0_scratch16 : Memref sig .tc .vmem S2048x384 .bf16).view (Rect.unit (s := S2048x384) (k0_off122 c) S1024x384.size (k0_off122_inb c)).toLoadRect fa)) Finset.univ) (ix2 r jj) = ((Memref.whole cc0_scratch0 : Memref sig .tc .vmem S2048x2048 .f32).access (Rect.unit (s := S2048x2048) (k0_off131 c) S1024x384.size (k0_off131_inb c))).read (Elt Ideal) (((Memref.whole cc0_scratch0 : Memref sig .tc .vmem S2048x2048 .f32).access (Rect.unit (s := S2048x2048) (k0_off131 c) S1024x384.size (k0_off131_inb c))).write (Elt Ideal) fb (k0_pay105 (F := Ideal) (View.readAt (Elt Ideal) (Memref.whole cc0_scratch16 : Memref sig .tc .vmem S2048x384 .bf16).view (Rect.unit (s := S2048x384) (k0_off122 c) S1024x384.size (k0_off122_inb c)).toLoadRect fa)) Finset.univ) (ix2 r jj) := by
    rw [View.read_apply, View.read_apply, hidx]
  rw [e1, View.read_write_of_mem _ _ (Finset.mem_univ _)]
  unfold k0_pay105
  simp only [shapeCast_self]
  rw [extf_apply, View.readAt_rect]
  have hidx2 : ((Memref.whole cc0_scratch16 : Memref sig .tc .vmem S2048x384 .bf16).view.slice (Rect.unit (s := S2048x384) (k0_off122 c) S1024x384.size (k0_off122_inb c))).emb (ix2 r jj) = (agM3_2 (nbr 0 c)).view.emb (ix2 r jj) := by
    apply Shape.idx_ext₂
    · show k0_off122 c 0 + 1 * r.val = k0_off100 (nbr 0 c) 0 + 1 * r.val
      rw [off122_eq, off100_eq, cx_nbr0]
    · show k0_off122 c 1 + 1 * jj.val = k0_off100 (nbr 0 c) 1 + 1 * jj.val
      rw [off122_eq, off100_eq]; simp only [Matrix.cons_val_one]
  have e2 : ((Memref.whole cc0_scratch16 : Memref sig .tc .vmem S2048x384 .bf16).view.slice (Rect.unit (s := S2048x384) (k0_off122 c) S1024x384.size (k0_off122_inb c))).read (Elt Ideal) fa (ix2 r jj) = (agM3_2 (nbr 0 c)).view.read (Elt Ideal) fa (ix2 r jj) := by
    rw [View.read_apply, View.read_apply, hidx2]
  have h1 := hfa r jj
  have h01 : ownRow 3 2 (nbr 0 c) = (1 - cx c) * 1024 := by simp [ownRow, coordN, cx_nbr0]
  have ho : outRow c 21 = (1 - cx c) * 1024 := by simp [outRow, coordN]
  have hc : outColLo 21 = colLo 3 := by simp [outColLo, colLo]
  refine e2.trans (h1.trans ?_)
  show Cert.RefSide.gelu1 (tot A B (ownRow 3 2 (nbr 0 c) + r.val) (colLo 3 + jj.val)) = Cert.RefSide.gelu1 (tot A B (outRow c 21 + r.val) (outColLo 21 + jj.val))
  rw [h01, ho, hc]

/-- The block of the accumulator that the result copy 22 moves holds the finished entries at the rows of the half that
    arrived from the neighbour across axis 1 at the last all-gather round and the columns of group 4: it is those
    arrived rows, widened. -/
theorem val_out22 (c : Dev nD) (fa : Buf (Elt Ideal) ((Memref.whole cc0_scratch17 : Memref sig .tc .vmem S2048x256 .bf16).view.loc (c : Thread nD τ)))
    (fb : Buf (Elt Ideal) ((outSrcM22 c).view.loc (c : Thread nD τ)))
    (hfa : (Vreal A B).ag4_2 (nbr 1 c) ((agM4_2 (nbr 1 c)).view.read (Elt Ideal) fa)) :
    (Vreal A B).out22 c ((outSrcM22 c).view.read (Elt Ideal) (((Memref.whole cc0_scratch0 : Memref sig .tc .vmem S2048x2048 .f32).access (Rect.unit (s := S2048x2048) (k0_off134 c) S1024x256.size (k0_off134_inb c))).write (Elt Ideal) fb (k0_pay106 (F := Ideal) (View.readAt (Elt Ideal) (Memref.whole cc0_scratch17 : Memref sig .tc .vmem S2048x256 .bf16).view (Rect.unit (s := S2048x256) (k0_off133 c) S1024x256.size (k0_off133_inb c)).toLoadRect fa)) Finset.univ)) := by
  intro r jj
  have hq := cy_le c
  have hidx : (outSrcM22 c).view.emb (ix2 r jj) = ((Memref.whole cc0_scratch0 : Memref sig .tc .vmem S2048x2048 .f32).access (Rect.unit (s := S2048x2048) (k0_off134 c) S1024x256.size (k0_off134_inb c))).emb (ix2 r jj) := by
    apply Shape.idx_ext₂
    · show k0_off135 c 0 + 1 * r.val = k0_off134 c 0 + 1 * r.val
      rw [off135_eq, off134_eq]
    · show k0_off135 c 1 + 1 * jj.val = k0_off134 c 1 + 1 * jj.val
      rw [off135_eq, off134_eq]
  have e1 : (outSrcM22 c).view.read (Elt Ideal) (((Memref.whole cc0_scratch0 : Memref sig .tc .vmem S2048x2048 .f32).access (Rect.unit (s := S2048x2048) (k0_off134 c) S1024x256.size (k0_off134_inb c))).write (Elt Ideal) fb (k0_pay106 (F := Ideal) (View.readAt (Elt Ideal) (Memref.whole cc0_scratch17 : Memref sig .tc .vmem S2048x256 .bf16).view (Rect.unit (s := S2048x256) (k0_off133 c) S1024x256.size (k0_off133_inb c)).toLoadRect fa)) Finset.univ) (ix2 r jj) = ((Memref.whole cc0_scratch0 : Memref sig .tc .vmem S2048x2048 .f32).access (Rect.unit (s := S2048x2048) (k0_off134 c) S1024x256.size (k0_off134_inb c))).read (Elt Ideal) (((Memref.whole cc0_scratch0 : Memref sig .tc .vmem S2048x2048 .f32).access (Rect.unit (s := S2048x2048) (k0_off134 c) S1024x256.size (k0_off134_inb c))).write (Elt Ideal) fb (k0_pay106 (F := Ideal) (View.readAt (Elt Ideal) (Memref.whole cc0_scratch17 : Memref sig .tc .vmem S2048x256 .bf16).view (Rect.unit (s := S2048x256) (k0_off133 c) S1024x256.size (k0_off133_inb c)).toLoadRect fa)) Finset.univ) (ix2 r jj) := by
    rw [View.read_apply, View.read_apply, hidx]
  rw [e1, View.read_write_of_mem _ _ (Finset.mem_univ _)]
  unfold k0_pay106
  simp only [shapeCast_self]
  rw [extf_apply, View.readAt_rect]
  have hidx2 : ((Memref.whole cc0_scratch17 : Memref sig .tc .vmem S2048x256 .bf16).view.slice (Rect.unit (s := S2048x256) (k0_off133 c) S1024x256.size (k0_off133_inb c))).emb (ix2 r jj) = (agM4_2 (nbr 1 c)).view.emb (ix2 r jj) := by
    apply Shape.idx_ext₂
    · show k0_off133 c 0 + 1 * r.val = k0_off114 (nbr 1 c) 0 + 1 * r.val
      rw [off133_eq, off114_eq, cy_nbr1]
    · show k0_off133 c 1 + 1 * jj.val = k0_off114 (nbr 1 c) 1 + 1 * jj.val
      rw [off133_eq, off114_eq]; simp only [Matrix.cons_val_one]
  have e2 : ((Memref.whole cc0_scratch17 : Memref sig .tc .vmem S2048x256 .bf16).view.slice (Rect.unit (s := S2048x256) (k0_off133 c) S1024x256.size (k0_off133_inb c))).read (Elt Ideal) fa (ix2 r jj) = (agM4_2 (nbr 1 c)).view.read (Elt Ideal) fa (ix2 r jj) := by
    rw [View.read_apply, View.read_apply, hidx2]
  have h1 := hfa r jj
  have h01 : ownRow 4 2 (nbr 1 c) = (1 - cy c) * 1024 := by simp [ownRow, coordN, cy_nbr1]
  have ho : outRow c 22 = (1 - cy c) * 1024 := by simp [outRow, coordN]
  have hc : outColLo 22 = colLo 4 := by simp [outColLo, colLo]
  refine e2.trans (h1.trans ?_)
  show Cert.RefSide.gelu1 (tot A B (ownRow 4 2 (nbr 1 c) + r.val) (colLo 4 + jj.val)) = Cert.RefSide.gelu1 (tot A B (outRow c 22 + r.val) (outColLo 22 + jj.val))
  rw [h01, ho, hc]

/-- The block of the accumulator that the result copy 23 moves holds the finished entries at the rows of the half that
    arrived from the neighbour across axis 2 at the last all-gather round and the columns of group 5: it is those
    arrived rows, widened. -/
theorem val_out23 (c : Dev nD) (fa : Buf (Elt Ideal) ((Memref.whole cc0_scratch18 : Memref sig .tc .vmem S2048x256 .bf16).view.loc (c : Thread nD τ)))
    (fb : Buf (Elt Ideal) ((outSrcM23 c).view.loc (c : Thread nD τ)))
    (hfa : (Vreal A B).ag5_2 (nbr 2 c) ((agM5_2 (nbr 2 c)).view.read (Elt Ideal) fa)) :
    (Vreal A B).out23 c ((outSrcM23 c).view.read (Elt Ideal) (((Memref.whole cc0_scratch0 : Memref sig .tc .vmem S2048x2048 .f32).access (Rect.unit (s := S2048x2048) (k0_off137 c) S1024x256.size (k0_off137_inb c))).write (Elt Ideal) fb (k0_pay107 (F := Ideal) (View.readAt (Elt Ideal) (Memref.whole cc0_scratch18 : Memref sig .tc .vmem S2048x256 .bf16).view (Rect.unit (s := S2048x256) (k0_off136 c) S1024x256.size (k0_off136_inb c)).toLoadRect fa)) Finset.univ)) := by
  intro r jj
  have hq := cz_le c
  have hidx : (outSrcM23 c).view.emb (ix2 r jj) = ((Memref.whole cc0_scratch0 : Memref sig .tc .vmem S2048x2048 .f32).access (Rect.unit (s := S2048x2048) (k0_off137 c) S1024x256.size (k0_off137_inb c))).emb (ix2 r jj) := by
    apply Shape.idx_ext₂
    · show k0_off138 c 0 + 1 * r.val = k0_off137 c 0 + 1 * r.val
      rw [off138_eq, off137_eq]
    · show k0_off138 c 1 + 1 * jj.val = k0_off137 c 1 + 1 * jj.val
      rw [off138_eq, off137_eq]
  have e1 : (outSrcM23 c).view.read (Elt Ideal) (((Memref.whole cc0_scratch0 : Memref sig .tc .vmem S2048x2048 .f32).access (Rect.unit (s := S2048x2048) (k0_off137 c) S1024x256.size (k0_off137_inb c))).write (Elt Ideal) fb (k0_pay107 (F := Ideal) (View.readAt (Elt Ideal) (Memref.whole cc0_scratch18 : Memref sig .tc .vmem S2048x256 .bf16).view (Rect.unit (s := S2048x256) (k0_off136 c) S1024x256.size (k0_off136_inb c)).toLoadRect fa)) Finset.univ) (ix2 r jj) = ((Memref.whole cc0_scratch0 : Memref sig .tc .vmem S2048x2048 .f32).access (Rect.unit (s := S2048x2048) (k0_off137 c) S1024x256.size (k0_off137_inb c))).read (Elt Ideal) (((Memref.whole cc0_scratch0 : Memref sig .tc .vmem S2048x2048 .f32).access (Rect.unit (s := S2048x2048) (k0_off137 c) S1024x256.size (k0_off137_inb c))).write (Elt Ideal) fb (k0_pay107 (F := Ideal) (View.readAt (Elt Ideal) (Memref.whole cc0_scratch18 : Memref sig .tc .vmem S2048x256 .bf16).view (Rect.unit (s := S2048x256) (k0_off136 c) S1024x256.size (k0_off136_inb c)).toLoadRect fa)) Finset.univ) (ix2 r jj) := by
    rw [View.read_apply, View.read_apply, hidx]
  rw [e1, View.read_write_of_mem _ _ (Finset.mem_univ _)]
  unfold k0_pay107
  simp only [shapeCast_self]
  rw [extf_apply, View.readAt_rect]
  have hidx2 : ((Memref.whole cc0_scratch18 : Memref sig .tc .vmem S2048x256 .bf16).view.slice (Rect.unit (s := S2048x256) (k0_off136 c) S1024x256.size (k0_off136_inb c))).emb (ix2 r jj) = (agM5_2 (nbr 2 c)).view.emb (ix2 r jj) := by
    apply Shape.idx_ext₂
    · show k0_off136 c 0 + 1 * r.val = k0_off118 (nbr 2 c) 0 + 1 * r.val
      rw [off136_eq, off118_eq, cz_nbr2]
    · show k0_off136 c 1 + 1 * jj.val = k0_off118 (nbr 2 c) 1 + 1 * jj.val
      rw [off136_eq, off118_eq]; simp only [Matrix.cons_val_one]
  have e2 : ((Memref.whole cc0_scratch18 : Memref sig .tc .vmem S2048x256 .bf16).view.slice (Rect.unit (s := S2048x256) (k0_off136 c) S1024x256.size (k0_off136_inb c))).read (Elt Ideal) fa (ix2 r jj) = (agM5_2 (nbr 2 c)).view.read (Elt Ideal) fa (ix2 r jj) := by
    rw [View.read_apply, View.read_apply, hidx2]
  have h1 := hfa r jj
  have h01 : ownRow 5 2 (nbr 2 c) = (1 - cz c) * 1024 := by simp [ownRow, coordN, cz_nbr2]
  have ho : outRow c 23 = (1 - cz c) * 1024 := by simp [outRow, coordN]
  have hc : outColLo 23 = colLo 5 := by simp [outColLo, colLo]
  refine e2.trans (h1.trans ?_)
  show Cert.RefSide.gelu1 (tot A B (ownRow 5 2 (nbr 2 c) + r.val) (colLo 5 + jj.val)) = Cert.RefSide.gelu1 (tot A B (outRow c 23 + r.val) (outColLo 23 + jj.val))
  rw [h01, ho, hc]

end Cert.KernelIdeal.Proto

end
-- ==== Proof.RealE.lean ====
/-
The stretches of a device's kernel body from the second all-gather round on, with every value named: over the extended
reals, with the record of values the true predicates of A and B, each stretch's value facts follow from what is known of
its input contents — the own rows of an all-gather buffer hold the finished entries at the device's rows, an arrived
piece holds them at the neighbour's — so the stretch runs from its starting state and those facts alone.
-/
import proofs.«900882_g7700000000000883_dist_matmul_gelu_kshard_i_m2048_n2048_k1024_v7x_i8_f32_1_alg».proof.Proof.Body46
import proofs.«900882_g7700000000000883_dist_matmul_gelu_kshard_i_m2048_n2048_k1024_v7x_i8_f32_1_alg».proof.Proof.Body48
import proofs.«900882_g7700000000000883_dist_matmul_gelu_kshard_i_m2048_n2048_k1024_v7x_i8_f32_1_alg».proof.Proof.Body49
import proofs.«900882_g7700000000000883_dist_matmul_gelu_kshard_i_m2048_n2048_k1024_v7x_i8_f32_1_alg».proof.Proof.Body50
import proofs.«900882_g7700000000000883_dist_matmul_gelu_kshard_i_m2048_n2048_k1024_v7x_i8_f32_1_alg».proof.Proof.Body51
import proofs.«900882_g7700000000000883_dist_matmul_gelu_kshard_i_m2048_n2048_k1024_v7x_i8_f32_1_alg».proof.Proof.Body52
import proofs.«900882_g7700000000000883_dist_matmul_gelu_kshard_i_m2048_n2048_k1024_v7x_i8_f32_1_alg».proof.Proof.Body53
import proofs.«900882_g7700000000000883_dist_matmul_gelu_kshard_i_m2048_n2048_k1024_v7x_i8_f32_1_alg».proof.Proof.Body54
import proofs.«900882_g7700000000000883_dist_matmul_gelu_kshard_i_m2048_n2048_k1024_v7x_i8_f32_1_alg».proof.Proof.Body55
import proofs.«900882_g7700000000000883_dist_matmul_gelu_kshard_i_m2048_n2048_k1024_v7x_i8_f32_1_alg».proof.Proof.Body56
import proofs.«900882_g7700000000000883_dist_matmul_gelu_kshard_i_m2048_n2048_k1024_v7x_i8_f32_1_alg».proof.Proof.Body57
import proofs.«900882_g7700000000000883_dist_matmul_gelu_kshard_i_m2048_n2048_k1024_v7x_i8_f32_1_alg».proof.Proof.Body58
import proofs.«900882_g7700000000000883_dist_matmul_gelu_kshard_i_m2048_n2048_k1024_v7x_i8_f32_1_alg».proof.Proof.Body59
import proofs.«900882_g7700000000000883_dist_matmul_gelu_kshard_i_m2048_n2048_k1024_v7x_i8_f32_1_alg».proof.Proof.Body60
import proofs.«900882_g7700000000000883_dist_matmul_gelu_kshard_i_m2048_n2048_k1024_v7x_i8_f32_1_alg».proof.Proof.Body61
import proofs.«900882_g7700000000000883_dist_matmul_gelu_kshard_i_m2048_n2048_k1024_v7x_i8_f32_1_alg».proof.Proof.Body62
import proofs.«900882_g7700000000000883_dist_matmul_gelu_kshard_i_m2048_n2048_k1024_v7x_i8_f32_1_alg».proof.Proof.ValSliceE
import proofs.«900882_g7700000000000883_dist_matmul_gelu_kshard_i_m2048_n2048_k1024_v7x_i8_f32_1_alg».proof.Proof.ValSliceE2
import proofs.«900882_g7700000000000883_dist_matmul_gelu_kshard_i_m2048_n2048_k1024_v7x_i8_f32_1_alg».proof.Proof.ValSliceD
import proofs.«900882_g7700000000000883_dist_matmul_gelu_kshard_i_m2048_n2048_k1024_v7x_i8_f32_1_alg».proof.Proof.AccInv

set_option maxRecDepth 100000

noncomputable section

namespace Cert.KernelIdeal.Proto

open Cert.KernelIdeal Cert.KernelIdeal.Gen Cert.KernelIdeal.Topo
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open scoped BigOperators

local notation "𝕄" => MT nD τ sig Unit (Elt Ideal) ℕ UU ℕ

variable (A : (⟨2, ![2048, 8192]⟩ : Shape).Idx → EReal) (B : (⟨2, ![8192, 2048]⟩ : Shape).Idx → EReal)
  (m : (ℓ : Loc nD τ sig) → Buf (Elt Ideal) ℓ)
  (hagree : ∀ c : Dev nD,
      m ((c : Thread nD τ).loc main_arg0) = Layout.block ⟨2, ![2048, 1024]⟩ ⟨2, ![2048, 8192]⟩ 1 8 c A
      ∧ m ((c : Thread nD τ).loc main_arg1) = Layout.block ⟨2, ![1024, 2048]⟩ ⟨2, ![8192, 2048]⟩ 0 8 c B)

/-- The widened rows read out of group 1's second-round rows are the quarter that arrived from the neighbour across
    axis 2: entry by entry the finished entries at that neighbour's quarter. -/
theorem ent_v1539 (c : Dev nD) (g1 f2 : Buf (Elt Ideal) ((Memref.whole cc0_scratch14 : Memref sig .tc .vmem S2048x384 .bf16).view.loc (c : Thread nD τ)))
    (hf2 : (Vreal A B).ag1_1 (nbr 2 c) ((agM1_1 (nbr 2 c)).view.read (Elt Ideal) f2)) :
    ∀ (r : Fin 512) (jj : Fin 384), (k0_pay95 (F := Ideal) (View.readAt (Elt Ideal) (Memref.whole cc0_scratch14 : Memref sig .tc .vmem S2048x384 .bf16).view (Rect.unit (s := S2048x384) (k0_off105 c) S512x384.size (k0_off105_inb c)).toLoadRect (((agM1_1 (nbr 2 c)).view.set : Finset (Idx ((Memref.whole cc0_scratch14 : Memref sig .tc .vmem S2048x384 .bf16).view.loc (c : Thread nD τ)))).piecewise f2 g1))) (ix2 r jj) = agSpec A B 1 1 (nbr 2 c) r.val jj.val := by
  intro r jj
  unfold k0_pay95
  rw [extf_apply, View.readAt_rect]
  have hidx2 : ((Memref.whole cc0_scratch14 : Memref sig .tc .vmem S2048x384 .bf16).view.slice (Rect.unit (s := S2048x384) (k0_off105 c) S512x384.size (k0_off105_inb c))).emb (ix2 r jj) = (agM1_1 (nbr 2 c)).view.emb (ix2 r jj) := by
    apply Shape.idx_ext₂
    · show k0_off105 c 0 + 1 * r.val = k0_off82 (nbr 2 c) 0 + 1 * r.val
      rw [off105_eq, off82_eq, cy_nbr2, cz_nbr2]
    · show k0_off105 c 1 + 1 * jj.val = k0_off82 (nbr 2 c) 1 + 1 * jj.val
      rw [off105_eq, off82_eq]; simp only [Matrix.cons_val_one]
  have hmem : ((Memref.whole cc0_scratch14 : Memref sig .tc .vmem S2048x384 .bf16).view.slice (Rect.unit (s := S2048x384) (k0_off105 c) S512x384.size (k0_off105_inb c))).emb (ix2 r jj) ∈ (agM1_1 (nbr 2 c)).view.set := by
    rw [hidx2]; exact View.emb_mem_set _ _
  have e2 : ((Memref.whole cc0_scratch14 : Memref sig .tc .vmem S2048x384 .bf16).view.slice (Rect.unit (s := S2048x384) (k0_off105 c) S512x384.size (k0_off105_inb c))).read (Elt Ideal) (((agM1_1 (nbr 2 c)).view.set : Finset (Idx ((Memref.whole cc0_scratch14 : Memref sig .tc .vmem S2048x384 .bf16).view.loc (c : Thread nD τ)))).piecewise f2 g1) (ix2 r jj) = (agM1_1 (nbr 2 c)).view.read (Elt Ideal) f2 (ix2 r jj) := by
    rw [View.read_apply, View.read_apply, Finset.piecewise_eq_of_mem _ _ _ hmem, hidx2]
  exact e2.trans (hf2 r jj)

/-- A block of 512 rows whose entries are the finished entries at the quarter of the neighbour across axis 2, stored
    into the accumulator's block 13, makes that block hold what the result copy 13 moves. -/
theorem val_out13_of (c : Dev nD) (f13 : Buf (Elt Ideal) ((outSrcM13 c).view.loc (c : Thread nD τ))) (v1539 : FVec Ideal S512x384 .f32)
    (hv : ∀ (r : Fin 512) (jj : Fin 384), v1539 (ix2 r jj) = agSpec A B 1 1 (nbr 2 c) r.val jj.val) :
    (Vreal A B).out13 c ((outSrcM13 c).view.read (Elt Ideal) (((Memref.whole cc0_scratch0 : Memref sig .tc .vmem S2048x2048 .f32).access (Rect.unit (s := S2048x2048) (k0_off106 c) S512x384.size (k0_off106_inb c))).write (Elt Ideal) f13 (k0_pay96 (F := Ideal) v1539) Finset.univ)) := by
  intro r jj
  have hq := cz_le c
  have h01 : ownRow 1 1 (nbr 2 c) = cy c * 1024 + (1 - cz c) * 512 := by simp [ownRow, coordN, cy_nbr2, cz_nbr2]
  have ho : outRow c 13 = cy c * 1024 + (1 - cz c) * 512 := by simp [outRow, coordN]
  have hc : outColLo 13 = colLo 1 := by simp [outColLo, colLo]
  have hidx : (outSrcM13 c).view.emb (ix2 r jj) = ((Memref.whole cc0_scratch0 : Memref sig .tc .vmem S2048x2048 .f32).access (Rect.unit (s := S2048x2048) (k0_off106 c) S512x384.size (k0_off106_inb c))).emb (ix2 r jj) := by
    apply Shape.idx_ext₂
    · show k0_off107 c 0 + 1 * r.val = k0_off106 c 0 + 1 * r.val
      rw [off107_eq, off106_eq]
    · show k0_off107 c 1 + 1 * jj.val = k0_off106 c 1 + 1 * jj.val
      rw [off107_eq, off106_eq]
  have e1 : (outSrcM13 c).view.read (Elt Ideal) (((Memref.whole cc0_scratch0 : Memref sig .tc .vmem S2048x2048 .f32).access (Rect.unit (s := S2048x2048) (k0_off106 c) S512x384.size (k0_off106_inb c))).write (Elt Ideal) f13 (k0_pay96 (F := Ideal) v1539) Finset.univ) (ix2 r jj) = ((Memref.whole cc0_scratch0 : Memref sig .tc .vmem S2048x2048 .f32).access (Rect.unit (s := S2048x2048) (k0_off106 c) S512x384.size (k0_off106_inb c))).read (Elt Ideal) (((Memref.whole cc0_scratch0 : Memref sig .tc .vmem S2048x2048 .f32).access (Rect.unit (s := S2048x2048) (k0_off106 c) S512x384.size (k0_off106_inb c))).write (Elt Ideal) f13 (k0_pay96 (F := Ideal) v1539) Finset.univ) (ix2 r jj) := by
    rw [View.read_apply, View.read_apply, hidx]
  rw [e1, View.read_write_of_mem _ _ (Finset.mem_univ _)]
  unfold k0_pay96
  simp only [shapeCast_self]
  refine (hv r jj).trans ?_
  show Cert.RefSide.gelu1 (tot A B (ownRow 1 1 (nbr 2 c) + r.val) (colLo 1 + jj.val)) = Cert.RefSide.gelu1 (tot A B (outRow c 13 + r.val) (outColLo 13 + jj.val))
  rw [h01, ho, hc]

/-- Read through the arrived quarter's own rows, the joined rows of group 2 are the arrived quarter. -/
theorem pw_arr2 (c : Dev nD) (g1 f2 : Buf (Elt Ideal) ((Memref.whole cc0_scratch15 : Memref sig .tc .vmem S2048x384 .bf16).view.loc (c : Thread nD τ)))
    (hf2 : (Vreal A B).ag2_1 (nbr 0 c) ((agM2_1 (nbr 0 c)).view.read (Elt Ideal) f2)) :
    (Vreal A B).ag2_1 (nbr 0 c) ((agM2_1 (nbr 0 c)).view.read (Elt Ideal) (((agM2_1 (nbr 0 c)).view.set : Finset (Idx ((Memref.whole cc0_scratch15 : Memref sig .tc .vmem S2048x384 .bf16).view.loc (c : Thread nD τ)))).piecewise f2 g1)) := by
  intro r jj
  have e : (agM2_1 (nbr 0 c)).view.read (Elt Ideal) (((agM2_1 (nbr 0 c)).view.set : Finset (Idx ((Memref.whole cc0_scratch15 : Memref sig .tc .vmem S2048x384 .bf16).view.loc (c : Thread nD τ)))).piecewise f2 g1) (ix2 r jj) = (agM2_1 (nbr 0 c)).view.read (Elt Ideal) f2 (ix2 r jj) := by
    rw [View.read_apply, View.read_apply, Finset.piecewise_eq_of_mem _ _ _ (View.emb_mem_set _ _)]
  exact e.trans (hf2 r jj)

/-- The quarter of group 2 that arrived from the neighbour across axis 0, read out of any contents that hold it,
    widened and stored into the accumulator's block 14, makes that block hold what the result copy 14 moves. -/
theorem val_out14_of (c : Dev nD) (g2 : Buf (Elt Ideal) ((Memref.whole cc0_scratch15 : Memref sig .tc .vmem S2048x384 .bf16).view.loc (c : Thread nD τ))) (f14 : Buf (Elt Ideal) ((outSrcM14 c).view.loc (c : Thread nD τ)))
    (hg2 : (Vreal A B).ag2_1 (nbr 0 c) ((agM2_1 (nbr 0 c)).view.read (Elt Ideal) g2)) :
    (Vreal A B).out14 c ((outSrcM14 c).view.read (Elt Ideal) (((Memref.whole cc0_scratch0 : Memref sig .tc .vmem S2048x2048 .f32).access (Rect.unit (s := S2048x2048) (k0_off110 c) S512x384.size (k0_off110_inb c))).write (Elt Ideal) f14 (k0_pay97 (F := Ideal) (View.readAt (Elt Ideal) (Memref.whole cc0_scratch15 : Memref sig .tc .vmem S2048x384 .bf16).view (Rect.unit (s := S2048x384) (k0_off109 c) S512x384.size (k0_off109_inb c)).toLoadRect g2)) Finset.univ)) := by
  intro r jj
  have hq := cx_le c
  have h01 : ownRow 2 1 (nbr 0 c) = cz c * 1024 + (1 - cx c) * 512 := by simp [ownRow, coordN, cz_nbr0, cx_nbr0]
  have ho : outRow c 14 = cz c * 1024 + (1 - cx c) * 512 := by simp [outRow, coordN]
  have hc : outColLo 14 = colLo 2 := by simp [outColLo, colLo]
  have hidx : (outSrcM14 c).view.emb (ix2 r jj) = ((Memref.whole cc0_scratch0 : Memref sig .tc .vmem S2048x2048 .f32).access (Rect.unit (s := S2048x2048) (k0_off110 c) S512x384.size (k0_off110_inb c))).emb (ix2 r jj) := by
    apply Shape.idx_ext₂
    · show k0_off111 c 0 + 1 * r.val = k0_off110 c 0 + 1 * r.val
      rw [off111_eq, off110_eq]
    · show k0_off111 c 1 + 1 * jj.val = k0_off110 c 1 + 1 * jj.val
      rw [off111_eq, off110_eq]
  have e1 : (outSrcM14 c).view.read (Elt Ideal) (((Memref.whole cc0_scratch0 : Memref sig .tc .vmem S2048x2048 .f32).access (Rect.unit (s := S2048x2048) (k0_off110 c) S512x384.size (k0_off110_inb c))).write (Elt Ideal) f14 (k0_pay97 (F := Ideal) (View.readAt (Elt Ideal) (Memref.whole cc0_scratch15 : Memref sig .tc .vmem S2048x384 .bf16).view (Rect.unit (s := S2048x384) (k0_off109 c) S512x384.size (k0_off109_inb c)).toLoadRect g2)) Finset.univ) (ix2 r jj) = ((Memref.whole cc0_scratch0 : Memref sig .tc .vmem S2048x2048 .f32).access (Rect.unit (s := S2048x2048) (k0_off110 c) S512x384.size (k0_off110_inb c))).read (Elt Ideal) (((Memref.whole cc0_scratch0 : Memref sig .tc .vmem S2048x2048 .f32).access (Rect.unit (s := S2048x2048) (k0_off110 c) S512x384.size (k0_off110_inb c))).write (Elt Ideal) f14 (k0_pay97 (F := Ideal) (View.readAt (Elt Ideal) (Memref.whole cc0_scratch15 : Memref sig .tc .vmem S2048x384 .bf16).view (Rect.unit (s := S2048x384) (k0_off109 c) S512x384.size (k0_off109_inb c)).toLoadRect g2)) Finset.univ) (ix2 r jj) := by
    rw [View.read_apply, View.read_apply, hidx]
  rw [e1, View.read_write_of_mem _ _ (Finset.mem_univ _)]
  unfold k0_pay97
  simp only [shapeCast_self]
  rw [extf_apply, View.readAt_rect]
  have hidx2 : ((Memref.whole cc0_scratch15 : Memref sig .tc .vmem S2048x384 .bf16).view.slice (Rect.unit (s := S2048x384) (k0_off109 c) S512x384.size (k0_off109_inb c))).emb (ix2 r jj) = (agM2_1 (nbr 0 c)).view.emb (ix2 r jj) := by
    apply Shape.idx_ext₂
    · show k0_off109 c 0 + 1 * r.val = k0_off86 (nbr 0 c) 0 + 1 * r.val
      rw [off109_eq, off86_eq, cz_nbr0, cx_nbr0]
    · show k0_off109 c 1 + 1 * jj.val = k0_off86 (nbr 0 c) 1 + 1 * jj.val
      rw [off109_eq, off86_eq]; simp only [Matrix.cons_val_one]
  have e2 : ((Memref.whole cc0_scratch15 : Memref sig .tc .vmem S2048x384 .bf16).view.slice (Rect.unit (s := S2048x384) (k0_off109 c) S512x384.size (k0_off109_inb c))).read (Elt Ideal) g2 (ix2 r jj) = (agM2_1 (nbr 0 c)).view.read (Elt Ideal) g2 (ix2 r jj) := by
    rw [View.read_apply, View.read_apply, hidx2]
  refine e2.trans ((hg2 r jj).trans ?_)
  show Cert.RefSide.gelu1 (tot A B (ownRow 2 1 (nbr 0 c) + r.val) (colLo 2 + jj.val)) = Cert.RefSide.gelu1 (tot A B (outRow c 14 + r.val) (outColLo 14 + jj.val))
  rw [h01, ho, hc]

/-- The widened rows read out of group 2's last-round rows are the half that arrived from the neighbour across axis 2:
    entry by entry the finished entries at that neighbour's half. -/
theorem ent_v1742 (c : Dev nD) (fl2 : Buf (Elt Ideal) ((Memref.whole cc0_scratch15 : Memref sig .tc .vmem S2048x384 .bf16).view.loc (c : Thread nD τ)))
    (h : (Vreal A B).ag2_2 (nbr 2 c) ((agM2_2 (nbr 2 c)).view.read (Elt Ideal) fl2)) :
    ∀ (r : Fin 1024) (jj : Fin 384), (k0_pay103 (F := Ideal) (View.readAt (Elt Ideal) (Memref.whole cc0_scratch15 : Memref sig .tc .vmem S2048x384 .bf16).view (Rect.unit (s := S2048x384) (k0_off128 c) S1024x384.size (k0_off128_inb c)).toLoadRect fl2)) (ix2 r jj) = agSpec A B 2 2 (nbr 2 c) r.val jj.val := by
  intro r jj
  unfold k0_pay103
  rw [extf_apply, View.readAt_rect]
  have hidx2 : ((Memref.whole cc0_scratch15 : Memref sig .tc .vmem S2048x384 .bf16).view.slice (Rect.unit (s := S2048x384) (k0_off128 c) S1024x384.size (k0_off128_inb c))).emb (ix2 r jj) = (agM2_2 (nbr 2 c)).view.emb (ix2 r jj) := by
    apply Shape.idx_ext₂
    · show k0_off128 c 0 + 1 * r.val = k0_off108 (nbr 2 c) 0 + 1 * r.val
      rw [off128_eq, off108_eq, cz_nbr2]
    · show k0_off128 c 1 + 1 * jj.val = k0_off108 (nbr 2 c) 1 + 1 * jj.val
      rw [off128_eq, off108_eq]; simp only [Matrix.cons_val_one]
  have e2 : ((Memref.whole cc0_scratch15 : Memref sig .tc .vmem S2048x384 .bf16).view.slice (Rect.unit (s := S2048x384) (k0_off128 c) S1024x384.size (k0_off128_inb c))).read (Elt Ideal) fl2 (ix2 r jj) = (agM2_2 (nbr 2 c)).view.read (Elt Ideal) fl2 (ix2 r jj) := by
    rw [View.read_apply, View.read_apply, hidx2]
  exact e2.trans (h r jj)

/-- A block of 1024 rows whose entries are the finished entries at the half of the neighbour across axis 2, stored into
    the accumulator's block 20, makes that block hold what the result copy 20 moves. -/
theorem val_out20_of (c : Dev nD) (fb20 : Buf (Elt Ideal) ((outSrcM20 c).view.loc (c : Thread nD τ))) (v1742 : FVec Ideal S1024x384 .f32)
    (hv : ∀ (r : Fin 1024) (jj : Fin 384), v1742 (ix2 r jj) = agSpec A B 2 2 (nbr 2 c) r.val jj.val) :
    (Vreal A B).out20 c ((outSrcM20 c).view.read (Elt Ideal) (((Memref.whole cc0_scratch0 : Memref sig .tc .vmem S2048x2048 .f32).access (Rect.unit (s := S2048x2048) (k0_off129 c) S1024x384.size (k0_off129_inb c))).write (Elt Ideal) fb20 (k0_pay104 (F := Ideal) v1742) Finset.univ)) := by
  intro r jj
  have hq := cz_le c
  have h01 : ownRow 2 2 (nbr 2 c) = (1 - cz c) * 1024 := by simp [ownRow, coordN, cz_nbr2]
  have ho : outRow c 20 = (1 - cz c) * 1024 := by simp [outRow, coordN]
  have hc : outColLo 20 = colLo 2 := by simp [outColLo, colLo]
  have hidx : (outSrcM20 c).view.emb (ix2 r jj) = ((Memref.whole cc0_scratch0 : Memref sig .tc .vmem S2048x2048 .f32).access (Rect.unit (s := S2048x2048) (k0_off129 c) S1024x384.size (k0_off129_inb c))).emb (ix2 r jj) := by
    apply Shape.idx_ext₂
    · show k0_off130 c 0 + 1 * r.val = k0_off129 c 0 + 1 * r.val
      rw [off130_eq, off129_eq]
    · show k0_off130 c 1 + 1 * jj.val = k0_off129 c 1 + 1 * jj.val
      rw [off130_eq, off129_eq]
  have e1 : (outSrcM20 c).view.read (Elt Ideal) (((Memref.whole cc0_scratch0 : Memref sig .tc .vmem S2048x2048 .f32).access (Rect.unit (s := S2048x2048) (k0_off129 c) S1024x384.size (k0_off129_inb c))).write (Elt Ideal) fb20 (k0_pay104 (F := Ideal) v1742) Finset.univ) (ix2 r jj) = ((Memref.whole cc0_scratch0 : Memref sig .tc .vmem S2048x2048 .f32).access (Rect.unit (s := S2048x2048) (k0_off129 c) S1024x384.size (k0_off129_inb c))).read (Elt Ideal) (((Memref.whole cc0_scratch0 : Memref sig .tc .vmem S2048x2048 .f32).access (Rect.unit (s := S2048x2048) (k0_off129 c) S1024x384.size (k0_off129_inb c))).write (Elt Ideal) fb20 (k0_pay104 (F := Ideal) v1742) Finset.univ) (ix2 r jj) := by
    rw [View.read_apply, View.read_apply, hidx]
  rw [e1, View.read_write_of_mem _ _ (Finset.mem_univ _)]
  unfold k0_pay104
  simp only [shapeCast_self]
  refine (hv r jj).trans ?_
  show Cert.RefSide.gelu1 (tot A B (ownRow 2 2 (nbr 2 c) + r.val) (colLo 2 + jj.val)) = Cert.RefSide.gelu1 (tot A B (outRow c 20 + r.val) (outColLo 20 + jj.val))
  rw [h01, ho, hc]

set_option maxHeartbeats 2000000 in
include hagree in
theorem part46_real (c : Dev nD) (κs κr κo κw : ℕ) (W : Waits sig Unit) (v9 v1250 v1253 v1254 : BitVec 32) (g0 : Buf (Elt Ideal) ((agM4_0 c : Memref sig .tc .vmem S256x256 .bf16).view.loc (c : Thread nD τ))) (fa : Buf (Elt Ideal) ((agM4_0 (nbr 0 c) : Memref sig .tc .vmem S256x256 .bf16).view.loc (c : Thread nD τ))) (fo : Buf (Elt Ideal) ((outSrcM10 c : Memref sig .tc .vmem S256x256 .f32).view.loc (c : Thread nD τ))) (fd : Buf (Elt Ideal) ((outDstM10 c : Memref sig .tc .hbm S256x256 .f32).view.loc (c : Thread nD τ))) :
    iprop((cellInv ER (sched (Vreal A B)) κs (cell c (.agS 4 1)) ∗ cellInv ER (sched (Vreal A B)) κr (cell (nbr 2 c) (.agR 4 1))
        ∗ cellInv ER (sched (Vreal A B)) κo (cell c (.out 10)) ∗ cellInv ER (sched (Vreal A B)) κw (cell c (.agS 5 0))
        ∗ reached ER (cell c (.agS 4 1)) 0 ∗ reached ER (cell (nbr 2 c) (.agR 4 1)) 0 ∗ reached ER (cell c (.out 10)) 0
        ∗ dutyTok ER (cell c (.agS 4 1)) 0 (0 : Fin 3) ∗ dutyTok ER (cell (nbr 2 c) (.agR 4 1)) 0 (0 : Fin 3) ∗ dutyTok ER (cell c (.out 10)) 0 (0 : Fin 3)
        ∗ cred (tallyAt (cell c (.agS 5 0)) () (amt (.agR 5 0))) ∗ atPos ER (cell c (.agS 5 0)) 0 ∅ 0
        ∗ owes (c : Thread nD τ) (Owe c 31) W ∗ levAts L lv
        ∗ ptsAny (F := Ideal) (nbr 2 c) (agM4_1 c)
        ∗ ptsLent (F := Ideal) c (agM4_0 c) ∗ ((agM4_0 c : Memref sig .tc .vmem S256x256 .bf16).view.loc (c : Thread nD τ) ↦[(agM4_0 c : Memref sig .tc .vmem S256x256 .bf16).view.set]{fullShare.right} g0)
        ∗ heldW c (agM4_0 (nbr 0 c) : Memref sig .tc .vmem S256x256 .bf16) fa
        ∗ heldW c (outSrcM10 c : Memref sig .tc .vmem S256x256 .f32) fo ∗ heldW c (outDstM10 c : Memref sig .tc .hbm S256x256 .f32) fd)
        ∗ ⌜(Vreal A B).ag4_0 c ((agM4_0 c : Memref sig .tc .vmem S256x256 .bf16).view.read (Elt Ideal) g0)⌝
        ∗ ⌜(Vreal A B).ag4_0 (nbr 0 c) ((agM4_0 (nbr 0 c) : Memref sig .tc .vmem S256x256 .bf16).view.read (Elt Ideal) fa)⌝)
      ⊢ wp frame (wpE (defs₀ (F := Ideal)) 𝒱₀ c none) Set.univ
          (k0_part46 (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23 c v9 v1250 v1253 v1254)
          (fun r => iprop((⌜r = ⟨Scalar.subi v1250 (Scalar.muli v9 512#32), Scalar.addi (Scalar.subi v1250 (Scalar.muli v9 512#32)) (Scalar.muli (Scalar.subi (1#32) v9) 512#32)⟩⌝
            ∗ owes (c : Thread nD τ) (Owe c 32) (insert ((CK.agS 5 0).sem, ()) W)
            ∗ atPos ER (cell c (.agS 5 0)) 1 ∅ 0
            ∗ cred (tallyAt (cell c (.agS 4 1)) () (amt (.agR 4 1))) ∗ cred (tallyAt (cell c (.out 10)) () (amt (.out 10)))
            ∗ ((agM4_1 c : Memref sig .tc .vmem S512x256 .bf16).view.loc (c : Thread nD τ) ↦[(agM4_1 c : Memref sig .tc .vmem S512x256 .bf16).view.set]{fullShare.right} ((agM4_0 (nbr 0 c) : Memref sig .tc .vmem S256x256 .bf16).view.set.piecewise fa g0))
            ∗ ptsLent (F := Ideal) c (agM5_0 c))
            ∗ ⌜(Vreal A B).ag4_1 c ((agM4_1 c : Memref sig .tc .vmem S512x256 .bf16).view.read (Elt Ideal) ((agM4_0 (nbr 0 c) : Memref sig .tc .vmem S256x256 .bf16).view.set.piecewise fa g0))⌝)) := by
  iintro ⟨Hpre, %h1, %h2⟩
  have hpost : ∀ r : (Σ' (v1428 : BitVec 32), BitVec 32), (iprop(⌜r = ⟨Scalar.subi v1250 (Scalar.muli v9 512#32), Scalar.addi (Scalar.subi v1250 (Scalar.muli v9 512#32)) (Scalar.muli (Scalar.subi (1#32) v9) 512#32)⟩⌝
            ∗ owes (c : Thread nD τ) (Owe c 32) (insert ((CK.agS 5 0).sem, ()) W)
            ∗ atPos ER (cell c (.agS 5 0)) 1 ∅ 0
            ∗ cred (tallyAt (cell c (.agS 4 1)) () (amt (.agR 4 1))) ∗ cred (tallyAt (cell c (.out 10)) () (amt (.out 10)))
            ∗ ((agM4_1 c : Memref sig .tc .vmem S512x256 .bf16).view.loc (c : Thread nD τ) ↦[(agM4_1 c : Memref sig .tc .vmem S512x256 .bf16).view.set]{fullShare.right} ((agM4_0 (nbr 0 c) : Memref sig .tc .vmem S256x256 .bf16).view.set.piecewise fa g0))
            ∗ ptsLent (F := Ideal) c (agM5_0 c)) : sProp 𝕄) ⊢ iprop((⌜r = ⟨Scalar.subi v1250 (Scalar.muli v9 512#32), Scalar.addi (Scalar.subi v1250 (Scalar.muli v9 512#32)) (Scalar.muli (Scalar.subi (1#32) v9) 512#32)⟩⌝
            ∗ owes (c : Thread nD τ) (Owe c 32) (insert ((CK.agS 5 0).sem, ()) W)
            ∗ atPos ER (cell c (.agS 5 0)) 1 ∅ 0
            ∗ cred (tallyAt (cell c (.agS 4 1)) () (amt (.agR 4 1))) ∗ cred (tallyAt (cell c (.out 10)) () (amt (.out 10)))
            ∗ ((agM4_1 c : Memref sig .tc .vmem S512x256 .bf16).view.loc (c : Thread nD τ) ↦[(agM4_1 c : Memref sig .tc .vmem S512x256 .bf16).view.set]{fullShare.right} ((agM4_0 (nbr 0 c) : Memref sig .tc .vmem S256x256 .bf16).view.set.piecewise fa g0))
            ∗ ptsLent (F := Ideal) c (agM5_0 c))
            ∗ ⌜(Vreal A B).ag4_1 c ((agM4_1 c : Memref sig .tc .vmem S512x256 .bf16).view.read (Elt Ideal) ((agM4_0 (nbr 0 c) : Memref sig .tc .vmem S256x256 .bf16).view.set.piecewise fa g0))⌝) := by
    intro r
    iintro H
    isplitl [H]; · iexact H
    ipureintro; exact val_ag4_1 A B c g0 fa h1 h2
  iapply (wp_mono frame (wpE (defs₀ (F := Ideal)) 𝒱₀ c none) Set.univ hpost)
  iapply (part46_run (Vreal A B) c κs κr κo κw W v9 v1250 v1253 v1254 g0 fa fo fd (val_ag4_1 A B c g0 fa h1 h2) (val_out10 A B c g0 fa fo h2))
  iexact Hpre

include hagree in
theorem part48_real (c : Dev nD) (κr1 κs κr κo : ℕ) (W : Waits sig Unit) (v2 v6 v1278 v1288 v1291 : BitVec 32) (g1 : Buf (Elt Ideal) ((Memref.whole cc0_scratch13 : Memref sig .tc .vmem S2048x384 .bf16).view.loc (c : Thread nD τ))) (f12 : Buf (Elt Ideal) ((outSrcM12 c).view.loc (c : Thread nD τ))) (fd : Buf (Elt Ideal) ((outDstM12 c).view.loc (c : Thread nD τ))) :
    iprop((cellInv ER (sched (Vreal A B)) κr1 (cell c (.agR 0 1)) ∗ cellInv ER (sched (Vreal A B)) κs (cell c (.agS 0 2)) ∗ cellInv ER (sched (Vreal A B)) κr (cell (nbr 0 c) (.agR 0 2))
        ∗ cellInv ER (sched (Vreal A B)) κo (cell c (.out 12))
        ∗ reached ER (cell c (.agS 0 2)) 0 ∗ reached ER (cell (nbr 0 c) (.agR 0 2)) 0 ∗ reached ER (cell c (.out 12)) 0
        ∗ dutyTok ER (cell c (.agS 0 2)) 0 (0 : Fin 3) ∗ dutyTok ER (cell (nbr 0 c) (.agR 0 2)) 0 (0 : Fin 3) ∗ dutyTok ER (cell c (.out 12)) 0 (0 : Fin 3)
        ∗ cred (tallyAt (cell c (.agR 0 1)) () (amt (.agR 0 1))) ∗ atPos ER (cell c (.agR 0 1)) 0 ∅ 0
        ∗ owes (c : Thread nD τ) (Owe c 33) W ∗ levAts L lv
        ∗ ptsAny (F := Ideal) (nbr 0 c) (agM0_2 c)
        ∗ ptsLent (F := Ideal) c (agM0_1 c) ∗ ((agM0_1 c).view.loc (c : Thread nD τ) ↦[(agM0_1 c).view.set]{fullShare.right} g1)
        ∗ heldW c (outSrcM12 c) f12 ∗ heldW c (outDstM12 c) fd)
        ∗ ⌜(Vreal A B).ag0_1 c ((agM0_1 c).view.read (Elt Ideal) g1)⌝)
      ⊢ wp frame (wpE (defs₀ (F := Ideal)) 𝒱₀ c none) Set.univ
          (k0_part48 (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23 c v2 v6 v1278 v1288 v1291)
          (fun r => iprop(⌜r = ⟨Scalar.xori v2 1#32, Scalar.addi (Scalar.subi v1288 (Scalar.muli v6 1024#32)) (Scalar.muli (Scalar.subi 1#32 v6) 1024#32)⟩⌝
            ∗ ∃ f2 : Buf (Elt Ideal) ((Memref.whole cc0_scratch13 : Memref sig .tc .vmem S2048x384 .bf16).view.loc (c : Thread nD τ)), ⌜(Vreal A B).ag0_1 (nbr 1 c) ((agM0_1 (nbr 1 c)).view.read (Elt Ideal) f2)⌝
            ∗ owes (c : Thread nD τ) (Owe c 34) (insert ((CK.agR 0 1).sem, ()) W) ∗ atPos ER (cell c (.agR 0 1)) 1 ∅ 0
            ∗ cred (tallyAt (cell c (.agS 0 2)) () (amt (.agR 0 2))) ∗ cred (tallyAt (cell c (.out 12)) () (amt (.out 12)))
            ∗ ((agM0_2 c).view.loc (c : Thread nD τ) ↦[(agM0_2 c).view.set]{fullShare.right} (((agM0_1 (nbr 1 c)).view.set : Finset (Idx ((Memref.whole cc0_scratch13 : Memref sig .tc .vmem S2048x384 .bf16).view.loc (c : Thread nD τ)))).piecewise f2 g1)))) := by
  iintro ⟨Hpre, %h1⟩
  iapply (part48_run (Vreal A B) c κr1 κs κr κo W v2 v6 v1278 v1288 v1291 g1 f12 fd (fun f2 hf2 => val_ag0_2 A B c g1 f2 h1 hf2) (fun f2 hf2 => val_out12 A B c g1 f2 f12 hf2))
  iexact Hpre

set_option maxHeartbeats 2000000 in
include hagree in
theorem part49_real (c : Dev nD) (κs1 κr1 κs κr : ℕ) (W : Waits sig Unit) (v2 v8 v1313 v1323 v1326 : BitVec 32) (g1 : Buf (Elt Ideal) ((Memref.whole cc0_scratch14 : Memref sig .tc .vmem S2048x384 .bf16).view.loc (c : Thread nD τ))) (f13 : Buf (Elt Ideal) ((outSrcM13 c).view.loc (c : Thread nD τ))) :
    iprop((cellInv ER (sched (Vreal A B)) κs1 (cell c (.agS 1 1)) ∗ cellInv ER (sched (Vreal A B)) κr1 (cell c (.agR 1 1))
        ∗ cellInv ER (sched (Vreal A B)) κs (cell c (.agS 1 2)) ∗ cellInv ER (sched (Vreal A B)) κr (cell (nbr 1 c) (.agR 1 2))
        ∗ reached ER (cell c (.agS 1 2)) 0 ∗ reached ER (cell (nbr 1 c) (.agR 1 2)) 0
        ∗ dutyTok ER (cell c (.agS 1 2)) 0 (0 : Fin 3) ∗ dutyTok ER (cell (nbr 1 c) (.agR 1 2)) 0 (0 : Fin 3)
        ∗ cred (tallyAt (cell c (.agS 1 1)) () (amt (.agR 1 1))) ∗ atPos ER (cell c (.agS 1 1)) 0 ∅ 0
        ∗ cred (tallyAt (cell c (.agR 1 1)) () (amt (.agR 1 1))) ∗ atPos ER (cell c (.agR 1 1)) 0 ∅ 0
        ∗ owes (c : Thread nD τ) (Owe c 34) W ∗ levAts L lv
        ∗ ptsAny (F := Ideal) (nbr 1 c) (agM1_2 c)
        ∗ ((agM1_1 c).view.loc (c : Thread nD τ) ↦[(agM1_1 c).view.set]{fullShare.right} g1)
        ∗ heldW c (outSrcM13 c) f13)
        ∗ ⌜(Vreal A B).ag1_1 c ((agM1_1 c).view.read (Elt Ideal) g1)⌝)
      ⊢ wp frame (wpE (defs₀ (F := Ideal)) 𝒱₀ c none) Set.univ
          (k0_part49 (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23 c v2 v8 v1313 v1323 v1326)
          (fun r => iprop(∃ f2 : Buf (Elt Ideal) ((Memref.whole cc0_scratch14 : Memref sig .tc .vmem S2048x384 .bf16).view.loc (c : Thread nD τ)),
            ⌜r = ⟨Scalar.xori v2 3#32, Scalar.addi (Scalar.subi v1323 (Scalar.muli v8 1024#32)) (Scalar.muli (Scalar.subi 1#32 v8) 1024#32), k0_pay95 (View.readAt (Elt Ideal) (Memref.whole cc0_scratch14 : Memref sig .tc .vmem S2048x384 .bf16).view (Rect.unit (s := S2048x384) (k0_off105 c) S512x384.size (k0_off105_inb c)).toLoadRect (((agM1_1 (nbr 2 c)).view.set : Finset (Idx ((Memref.whole cc0_scratch14 : Memref sig .tc .vmem S2048x384 .bf16).view.loc (c : Thread nD τ)))).piecewise f2 g1)), (View.readAt (Elt Ideal) (Memref.whole cc0_scratch0 : Memref sig .tc .vmem S2048x2048 .f32).view (Rect.unit (s := S2048x2048) (k0_off106 c) S512x384.size (k0_off106_inb c)).toLoadRect f13)⟩⌝
            ∗ ⌜(Vreal A B).ag1_1 (nbr 2 c) ((agM1_1 (nbr 2 c)).view.read (Elt Ideal) f2)⌝
            ∗ ⌜∀ (r' : Fin 512) (jj : Fin 384), (k0_pay95 (F := Ideal) (View.readAt (Elt Ideal) (Memref.whole cc0_scratch14 : Memref sig .tc .vmem S2048x384 .bf16).view (Rect.unit (s := S2048x384) (k0_off105 c) S512x384.size (k0_off105_inb c)).toLoadRect (((agM1_1 (nbr 2 c)).view.set : Finset (Idx ((Memref.whole cc0_scratch14 : Memref sig .tc .vmem S2048x384 .bf16).view.loc (c : Thread nD τ)))).piecewise f2 g1))) (ix2 r' jj) = agSpec A B 1 1 (nbr 2 c) r'.val jj.val⌝
            ∗ owes (c : Thread nD τ) (Owe c 35) (insert ((CK.agR 1 1).sem, ()) (insert ((CK.agS 1 1).sem, ()) W))
            ∗ atPos ER (cell c (.agS 1 1)) 1 ∅ 0 ∗ atPos ER (cell c (.agR 1 1)) 1 ∅ 0
            ∗ cred (tallyAt (cell c (.agS 1 2)) () (amt (.agR 1 2)))
            ∗ ((agM1_2 c).view.loc (c : Thread nD τ) ↦[(agM1_2 c).view.set]{fullShare.right} (((agM1_1 (nbr 2 c)).view.set : Finset (Idx ((Memref.whole cc0_scratch14 : Memref sig .tc .vmem S2048x384 .bf16).view.loc (c : Thread nD τ)))).piecewise f2 g1))
            ∗ heldW c (outSrcM13 c) f13)) := by
  iintro ⟨Hpre, %h1⟩
  have hpost : ∀ r : (Σ' (v1523 : BitVec 32) (v1536 : BitVec 32) (v1539 : FVec Ideal S512x384 .f32), Vec Ideal S512x384 .f32), (iprop(∃ f2 : Buf (Elt Ideal) ((Memref.whole cc0_scratch14 : Memref sig .tc .vmem S2048x384 .bf16).view.loc (c : Thread nD τ)),
            ⌜r = ⟨Scalar.xori v2 3#32, Scalar.addi (Scalar.subi v1323 (Scalar.muli v8 1024#32)) (Scalar.muli (Scalar.subi 1#32 v8) 1024#32), k0_pay95 (View.readAt (Elt Ideal) (Memref.whole cc0_scratch14 : Memref sig .tc .vmem S2048x384 .bf16).view (Rect.unit (s := S2048x384) (k0_off105 c) S512x384.size (k0_off105_inb c)).toLoadRect (((agM1_1 (nbr 2 c)).view.set : Finset (Idx ((Memref.whole cc0_scratch14 : Memref sig .tc .vmem S2048x384 .bf16).view.loc (c : Thread nD τ)))).piecewise f2 g1)), (View.readAt (Elt Ideal) (Memref.whole cc0_scratch0 : Memref sig .tc .vmem S2048x2048 .f32).view (Rect.unit (s := S2048x2048) (k0_off106 c) S512x384.size (k0_off106_inb c)).toLoadRect f13)⟩⌝
            ∗ ⌜(Vreal A B).ag1_1 (nbr 2 c) ((agM1_1 (nbr 2 c)).view.read (Elt Ideal) f2)⌝
            ∗ owes (c : Thread nD τ) (Owe c 35) (insert ((CK.agR 1 1).sem, ()) (insert ((CK.agS 1 1).sem, ()) W))
            ∗ atPos ER (cell c (.agS 1 1)) 1 ∅ 0 ∗ atPos ER (cell c (.agR 1 1)) 1 ∅ 0
            ∗ cred (tallyAt (cell c (.agS 1 2)) () (amt (.agR 1 2)))
            ∗ ((agM1_2 c).view.loc (c : Thread nD τ) ↦[(agM1_2 c).view.set]{fullShare.right} (((agM1_1 (nbr 2 c)).view.set : Finset (Idx ((Memref.whole cc0_scratch14 : Memref sig .tc .vmem S2048x384 .bf16).view.loc (c : Thread nD τ)))).piecewise f2 g1))
            ∗ heldW c (outSrcM13 c) f13) : sProp 𝕄) ⊢ iprop(∃ f2 : Buf (Elt Ideal) ((Memref.whole cc0_scratch14 : Memref sig .tc .vmem S2048x384 .bf16).view.loc (c : Thread nD τ)),
            ⌜r = ⟨Scalar.xori v2 3#32, Scalar.addi (Scalar.subi v1323 (Scalar.muli v8 1024#32)) (Scalar.muli (Scalar.subi 1#32 v8) 1024#32), k0_pay95 (View.readAt (Elt Ideal) (Memref.whole cc0_scratch14 : Memref sig .tc .vmem S2048x384 .bf16).view (Rect.unit (s := S2048x384) (k0_off105 c) S512x384.size (k0_off105_inb c)).toLoadRect (((agM1_1 (nbr 2 c)).view.set : Finset (Idx ((Memref.whole cc0_scratch14 : Memref sig .tc .vmem S2048x384 .bf16).view.loc (c : Thread nD τ)))).piecewise f2 g1)), (View.readAt (Elt Ideal) (Memref.whole cc0_scratch0 : Memref sig .tc .vmem S2048x2048 .f32).view (Rect.unit (s := S2048x2048) (k0_off106 c) S512x384.size (k0_off106_inb c)).toLoadRect f13)⟩⌝
            ∗ ⌜(Vreal A B).ag1_1 (nbr 2 c) ((agM1_1 (nbr 2 c)).view.read (Elt Ideal) f2)⌝
            ∗ ⌜∀ (r' : Fin 512) (jj : Fin 384), (k0_pay95 (F := Ideal) (View.readAt (Elt Ideal) (Memref.whole cc0_scratch14 : Memref sig .tc .vmem S2048x384 .bf16).view (Rect.unit (s := S2048x384) (k0_off105 c) S512x384.size (k0_off105_inb c)).toLoadRect (((agM1_1 (nbr 2 c)).view.set : Finset (Idx ((Memref.whole cc0_scratch14 : Memref sig .tc .vmem S2048x384 .bf16).view.loc (c : Thread nD τ)))).piecewise f2 g1))) (ix2 r' jj) = agSpec A B 1 1 (nbr 2 c) r'.val jj.val⌝
            ∗ owes (c : Thread nD τ) (Owe c 35) (insert ((CK.agR 1 1).sem, ()) (insert ((CK.agS 1 1).sem, ()) W))
            ∗ atPos ER (cell c (.agS 1 1)) 1 ∅ 0 ∗ atPos ER (cell c (.agR 1 1)) 1 ∅ 0
            ∗ cred (tallyAt (cell c (.agS 1 2)) () (amt (.agR 1 2)))
            ∗ ((agM1_2 c).view.loc (c : Thread nD τ) ↦[(agM1_2 c).view.set]{fullShare.right} (((agM1_1 (nbr 2 c)).view.set : Finset (Idx ((Memref.whole cc0_scratch14 : Memref sig .tc .vmem S2048x384 .bf16).view.loc (c : Thread nD τ)))).piecewise f2 g1))
            ∗ heldW c (outSrcM13 c) f13) := by
    intro r
    iintro ⟨%f2, %hr, %hf2, H⟩
    iexists f2
    isplitr; · ipureintro; exact hr
    isplitr; · ipureintro; exact hf2
    isplitr; · ipureintro; exact ent_v1539 A B c g1 f2 hf2
    iexact H
  iapply (wp_mono frame (wpE (defs₀ (F := Ideal)) 𝒱₀ c none) Set.univ hpost)
  iapply (part49_run (Vreal A B) c κs1 κr1 κs κr W v2 v8 v1313 v1323 v1326 g1 f13 (fun f2 hf2 => val_ag1_2 A B c g1 f2 h1 hf2))
  iexact Hpre

set_option maxHeartbeats 2000000 in
include hagree in
theorem part50_real (c : Dev nD) (κo κs1 κr1 κs κr : ℕ) (W : Waits sig Unit) (v2 v9 v1348 v1358 : BitVec 32) (v1539 : FVec Ideal S512x384 .f32) (v1541 : Vec Ideal S512x384 .f32) (g1 : Buf (Elt Ideal) ((Memref.whole cc0_scratch15 : Memref sig .tc .vmem S2048x384 .bf16).view.loc (c : Thread nD τ))) (f13 : Buf (Elt Ideal) ((outSrcM13 c).view.loc (c : Thread nD τ))) (fd : Buf (Elt Ideal) ((outDstM13 c).view.loc (c : Thread nD τ))) :
    iprop((cellInv ER (sched (Vreal A B)) κo (cell c (.out 13)) ∗ cellInv ER (sched (Vreal A B)) κs1 (cell c (.agS 2 1)) ∗ cellInv ER (sched (Vreal A B)) κr1 (cell c (.agR 2 1))
        ∗ cellInv ER (sched (Vreal A B)) κs (cell c (.agS 2 2)) ∗ cellInv ER (sched (Vreal A B)) κr (cell (nbr 2 c) (.agR 2 2))
        ∗ reached ER (cell c (.out 13)) 0 ∗ reached ER (cell c (.agS 2 2)) 0 ∗ reached ER (cell (nbr 2 c) (.agR 2 2)) 0
        ∗ dutyTok ER (cell c (.out 13)) 0 (0 : Fin 3) ∗ dutyTok ER (cell c (.agS 2 2)) 0 (0 : Fin 3) ∗ dutyTok ER (cell (nbr 2 c) (.agR 2 2)) 0 (0 : Fin 3)
        ∗ cred (tallyAt (cell c (.agS 2 1)) () (amt (.agR 2 1))) ∗ atPos ER (cell c (.agS 2 1)) 0 ∅ 0
        ∗ cred (tallyAt (cell c (.agR 2 1)) () (amt (.agR 2 1))) ∗ atPos ER (cell c (.agR 2 1)) 0 ∅ 0
        ∗ owes (c : Thread nD τ) (Owe c 35) W ∗ levAts L lv
        ∗ ptsAny (F := Ideal) (nbr 2 c) (agM2_2 c)
        ∗ ((agM2_1 c).view.loc (c : Thread nD τ) ↦[(agM2_1 c).view.set]{fullShare.right} g1)
        ∗ heldW c (outSrcM13 c) f13 ∗ heldW c (outDstM13 c) fd)
        ∗ ⌜(Vreal A B).ag2_1 c ((agM2_1 c).view.read (Elt Ideal) g1)⌝
        ∗ ⌜∀ (r' : Fin 512) (jj : Fin 384), v1539 (ix2 r' jj) = agSpec A B 1 1 (nbr 2 c) r'.val jj.val⌝)
      ⊢ wp frame (wpE (defs₀ (F := Ideal)) 𝒱₀ c none) Set.univ
          (k0_part50 (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23 c v2 v9 v1348 v1358 v1539 v1541)
          (fun r => iprop(⌜r = ⟨Scalar.xori v2 4#32, Scalar.subi v1358 (Scalar.muli v9 1024#32)⟩⌝
            ∗ ∃ f2 : Buf (Elt Ideal) ((Memref.whole cc0_scratch15 : Memref sig .tc .vmem S2048x384 .bf16).view.loc (c : Thread nD τ)), ⌜(Vreal A B).ag2_1 (nbr 0 c) ((agM2_1 (nbr 0 c)).view.read (Elt Ideal) f2)⌝
            ∗ ⌜(Vreal A B).ag2_1 (nbr 0 c) ((agM2_1 (nbr 0 c)).view.read (Elt Ideal) (((agM2_1 (nbr 0 c)).view.set : Finset (Idx ((Memref.whole cc0_scratch15 : Memref sig .tc .vmem S2048x384 .bf16).view.loc (c : Thread nD τ)))).piecewise f2 g1))⌝
            ∗ owes (c : Thread nD τ) (Owe c 36) (insert ((CK.agR 2 1).sem, ()) (insert ((CK.agS 2 1).sem, ()) W))
            ∗ atPos ER (cell c (.agS 2 1)) 1 ∅ 0 ∗ atPos ER (cell c (.agR 2 1)) 1 ∅ 0
            ∗ cred (tallyAt (cell c (.out 13)) () (amt (.out 13))) ∗ cred (tallyAt (cell c (.agS 2 2)) () (amt (.agR 2 2)))
            ∗ ((agM2_2 c).view.loc (c : Thread nD τ) ↦[(agM2_2 c).view.set]{fullShare.right} (((agM2_1 (nbr 0 c)).view.set : Finset (Idx ((Memref.whole cc0_scratch15 : Memref sig .tc .vmem S2048x384 .bf16).view.loc (c : Thread nD τ)))).piecewise f2 g1)))) := by
  iintro ⟨Hpre, %h1, %h2⟩
  have hpost : ∀ r : (Σ' (v1558 : BitVec 32), BitVec 32), (iprop(⌜r = ⟨Scalar.xori v2 4#32, Scalar.subi v1358 (Scalar.muli v9 1024#32)⟩⌝
            ∗ ∃ f2 : Buf (Elt Ideal) ((Memref.whole cc0_scratch15 : Memref sig .tc .vmem S2048x384 .bf16).view.loc (c : Thread nD τ)), ⌜(Vreal A B).ag2_1 (nbr 0 c) ((agM2_1 (nbr 0 c)).view.read (Elt Ideal) f2)⌝
            ∗ owes (c : Thread nD τ) (Owe c 36) (insert ((CK.agR 2 1).sem, ()) (insert ((CK.agS 2 1).sem, ()) W))
            ∗ atPos ER (cell c (.agS 2 1)) 1 ∅ 0 ∗ atPos ER (cell c (.agR 2 1)) 1 ∅ 0
            ∗ cred (tallyAt (cell c (.out 13)) () (amt (.out 13))) ∗ cred (tallyAt (cell c (.agS 2 2)) () (amt (.agR 2 2)))
            ∗ ((agM2_2 c).view.loc (c : Thread nD τ) ↦[(agM2_2 c).view.set]{fullShare.right} (((agM2_1 (nbr 0 c)).view.set : Finset (Idx ((Memref.whole cc0_scratch15 : Memref sig .tc .vmem S2048x384 .bf16).view.loc (c : Thread nD τ)))).piecewise f2 g1))) : sProp 𝕄) ⊢ iprop(⌜r = ⟨Scalar.xori v2 4#32, Scalar.subi v1358 (Scalar.muli v9 1024#32)⟩⌝
            ∗ ∃ f2 : Buf (Elt Ideal) ((Memref.whole cc0_scratch15 : Memref sig .tc .vmem S2048x384 .bf16).view.loc (c : Thread nD τ)), ⌜(Vreal A B).ag2_1 (nbr 0 c) ((agM2_1 (nbr 0 c)).view.read (Elt Ideal) f2)⌝
            ∗ ⌜(Vreal A B).ag2_1 (nbr 0 c) ((agM2_1 (nbr 0 c)).view.read (Elt Ideal) (((agM2_1 (nbr 0 c)).view.set : Finset (Idx ((Memref.whole cc0_scratch15 : Memref sig .tc .vmem S2048x384 .bf16).view.loc (c : Thread nD τ)))).piecewise f2 g1))⌝
            ∗ owes (c : Thread nD τ) (Owe c 36) (insert ((CK.agR 2 1).sem, ()) (insert ((CK.agS 2 1).sem, ()) W))
            ∗ atPos ER (cell c (.agS 2 1)) 1 ∅ 0 ∗ atPos ER (cell c (.agR 2 1)) 1 ∅ 0
            ∗ cred (tallyAt (cell c (.out 13)) () (amt (.out 13))) ∗ cred (tallyAt (cell c (.agS 2 2)) () (amt (.agR 2 2)))
            ∗ ((agM2_2 c).view.loc (c : Thread nD τ) ↦[(agM2_2 c).view.set]{fullShare.right} (((agM2_1 (nbr 0 c)).view.set : Finset (Idx ((Memref.whole cc0_scratch15 : Memref sig .tc .vmem S2048x384 .bf16).view.loc (c : Thread nD τ)))).piecewise f2 g1))) := by
    intro r
    iintro ⟨%hr, %f2, %hf2, H⟩
    isplitr; · ipureintro; exact hr
    iexists f2
    isplitr; · ipureintro; exact hf2
    isplitr; · ipureintro; exact pw_arr2 A B c g1 f2 hf2
    iexact H
  iapply (wp_mono frame (wpE (defs₀ (F := Ideal)) 𝒱₀ c none) Set.univ hpost)
  iapply (part50_run (Vreal A B) c κo κs1 κr1 κs κr W v2 v9 v1348 v1358 v1539 v1541 g1 f13 fd (val_out13_of A B c f13 v1539 h2) (fun f2 hf2 => val_ag2_2 A B c g1 f2 h1 hf2))
  iexact Hpre

include hagree in
theorem part51_real (c : Dev nD) (κo κs1 κr1 : ℕ) (W : Waits sig Unit) (v2 v9 v1361 v1383 v1568 : BitVec 32) (g2 : Buf (Elt Ideal) ((Memref.whole cc0_scratch15 : Memref sig .tc .vmem S2048x384 .bf16).view.loc (c : Thread nD τ))) (f14 : Buf (Elt Ideal) ((outSrcM14 c).view.loc (c : Thread nD τ))) (fd : Buf (Elt Ideal) ((outDstM14 c).view.loc (c : Thread nD τ))) :
    iprop((cellInv ER (sched (Vreal A B)) κo (cell c (.out 14)) ∗ cellInv ER (sched (Vreal A B)) κs1 (cell c (.agS 3 1)) ∗ cellInv ER (sched (Vreal A B)) κr1 (cell c (.agR 3 1))
        ∗ reached ER (cell c (.out 14)) 0 ∗ dutyTok ER (cell c (.out 14)) 0 (0 : Fin 3)
        ∗ cred (tallyAt (cell c (.agS 3 1)) () (amt (.agR 3 1))) ∗ atPos ER (cell c (.agS 3 1)) 0 ∅ 0
        ∗ cred (tallyAt (cell c (.agR 3 1)) () (amt (.agR 3 1))) ∗ atPos ER (cell c (.agR 3 1)) 0 ∅ 0
        ∗ owes (c : Thread nD τ) (Owe c 36) W ∗ levAts L lv
        ∗ ((agM2_2 c).view.loc (c : Thread nD τ) ↦[(agM2_2 c).view.set]{fullShare.right} g2)
        ∗ heldW c (outSrcM14 c) f14 ∗ heldW c (outDstM14 c) fd)
        ∗ ⌜(Vreal A B).ag2_1 (nbr 0 c) ((agM2_1 (nbr 0 c)).view.read (Elt Ideal) g2)⌝)
      ⊢ wp frame (wpE (defs₀ (F := Ideal)) 𝒱₀ c none) Set.univ
          (k0_part51 (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23 c v2 v9 v1361 v1383 v1568)
          (fun r => iprop(⌜r = ⟨Scalar.addi v1568 (Scalar.muli (Scalar.subi 1#32 v9) 1024#32), Scalar.xori v2 1#32⟩⌝
            ∗ ∃ f3 : Buf (Elt Ideal) ((Memref.whole cc0_scratch16 : Memref sig .tc .vmem S2048x384 .bf16).view.loc (c : Thread nD τ)), ⌜(Vreal A B).ag3_1 (nbr 1 c) ((agM3_1 (nbr 1 c)).view.read (Elt Ideal) f3)⌝
            ∗ owes (c : Thread nD τ) (Owe c 36) (insert ((CK.agR 3 1).sem, ()) (insert ((CK.agS 3 1).sem, ()) W))
            ∗ atPos ER (cell c (.agS 3 1)) 1 ∅ 0 ∗ atPos ER (cell c (.agR 3 1)) 1 ∅ 0
            ∗ cred (tallyAt (cell c (.out 14)) () (amt (.out 14)))
            ∗ ((agM2_2 c).view.loc (c : Thread nD τ) ↦[(agM2_2 c).view.set]{fullShare.right} g2)
            ∗ ptsLent (F := Ideal) c (agM3_1 c)
            ∗ ((agM3_1 (nbr 1 c)).view.loc (c : Thread nD τ) ↦[(agM3_1 (nbr 1 c)).view.set]{fullShare} f3))) := by
  iintro ⟨Hpre, %h1⟩
  iapply (part51_run (Vreal A B) c κo κs1 κr1 W v2 v9 v1361 v1383 v1568 g2 f14 fd (val_out14_of A B c g2 f14 h1))
  iexact Hpre

include hagree in
theorem part52_real (c : Dev nD) (κs κr κo κs1 : ℕ) (W : Waits sig Unit) (v6 v1393 v1396 v1418 : BitVec 32) (g1 f3 : Buf (Elt Ideal) ((Memref.whole cc0_scratch16 : Memref sig .tc .vmem S2048x384 .bf16).view.loc (c : Thread nD τ))) (f15 : Buf (Elt Ideal) ((outSrcM15 c).view.loc (c : Thread nD τ))) (fd : Buf (Elt Ideal) ((outDstM15 c).view.loc (c : Thread nD τ))) :
    iprop((cellInv ER (sched (Vreal A B)) κs (cell c (.agS 3 2)) ∗ cellInv ER (sched (Vreal A B)) κr (cell (nbr 0 c) (.agR 3 2))
        ∗ cellInv ER (sched (Vreal A B)) κo (cell c (.out 15)) ∗ cellInv ER (sched (Vreal A B)) κs1 (cell c (.agS 4 1))
        ∗ reached ER (cell c (.agS 3 2)) 0 ∗ reached ER (cell (nbr 0 c) (.agR 3 2)) 0 ∗ reached ER (cell c (.out 15)) 0
        ∗ dutyTok ER (cell c (.agS 3 2)) 0 (0 : Fin 3) ∗ dutyTok ER (cell (nbr 0 c) (.agR 3 2)) 0 (0 : Fin 3) ∗ dutyTok ER (cell c (.out 15)) 0 (0 : Fin 3)
        ∗ cred (tallyAt (cell c (.agS 4 1)) () (amt (.agR 4 1))) ∗ atPos ER (cell c (.agS 4 1)) 0 ∅ 0
        ∗ owes (c : Thread nD τ) (Owe c 36) W ∗ levAts L lv
        ∗ ptsAny (F := Ideal) (nbr 0 c) (agM3_2 c)
        ∗ ptsLent (F := Ideal) c (agM3_1 c) ∗ ((agM3_1 c).view.loc (c : Thread nD τ) ↦[(agM3_1 c).view.set]{fullShare.right} g1)
        ∗ ((agM3_1 (nbr 1 c)).view.loc (c : Thread nD τ) ↦[(agM3_1 (nbr 1 c)).view.set]{fullShare} f3)
        ∗ heldW c (outSrcM15 c) f15 ∗ heldW c (outDstM15 c) fd)
        ∗ ⌜(Vreal A B).ag3_1 c ((agM3_1 c).view.read (Elt Ideal) g1)⌝
        ∗ ⌜(Vreal A B).ag3_1 (nbr 1 c) ((agM3_1 (nbr 1 c)).view.read (Elt Ideal) f3)⌝)
      ⊢ wp frame (wpE (defs₀ (F := Ideal)) 𝒱₀ c none) Set.univ
          (k0_part52 (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23 c v6 v1393 v1396 v1418)
          (fun r => iprop(⌜r = Scalar.addi (Scalar.subi v1393 (Scalar.muli v6 1024#32)) (Scalar.muli (Scalar.subi 1#32 v6) 1024#32)⌝
            ∗ owes (c : Thread nD τ) (Owe c 37) (insert ((CK.agS 4 1).sem, ()) W) ∗ atPos ER (cell c (.agS 4 1)) 1 ∅ 0
            ∗ cred (tallyAt (cell c (.agS 3 2)) () (amt (.agR 3 2))) ∗ cred (tallyAt (cell c (.out 15)) () (amt (.out 15)))
            ∗ ((agM3_2 c).view.loc (c : Thread nD τ) ↦[(agM3_2 c).view.set]{fullShare.right} (((agM3_1 (nbr 1 c)).view.set : Finset (Idx ((Memref.whole cc0_scratch16 : Memref sig .tc .vmem S2048x384 .bf16).view.loc (c : Thread nD τ)))).piecewise f3 g1))
            ∗ ptsLent (F := Ideal) c (agM4_1 c))) := by
  iintro ⟨Hpre, %h1, %h2⟩
  iapply (part52_run (Vreal A B) c κs κr κo κs1 W v6 v1393 v1396 v1418 g1 f3 f15 fd (val_ag3_2 A B c g1 f3 h1 h2) (val_out15 A B c g1 f3 f15 h2))
  iexact Hpre

include hagree in
theorem part53_real (c : Dev nD) (κr1 κs κr κo κs1 : ℕ) (W : Waits sig Unit) (v2 v8 v1428 v1431 : BitVec 32) (g1 : Buf (Elt Ideal) ((Memref.whole cc0_scratch17 : Memref sig .tc .vmem S2048x256 .bf16).view.loc (c : Thread nD τ))) (f16 : Buf (Elt Ideal) ((outSrcM16 c).view.loc (c : Thread nD τ))) (fd : Buf (Elt Ideal) ((outDstM16 c).view.loc (c : Thread nD τ))) :
    iprop((cellInv ER (sched (Vreal A B)) κr1 (cell c (.agR 4 1)) ∗ cellInv ER (sched (Vreal A B)) κs (cell c (.agS 4 2)) ∗ cellInv ER (sched (Vreal A B)) κr (cell (nbr 1 c) (.agR 4 2))
        ∗ cellInv ER (sched (Vreal A B)) κo (cell c (.out 16)) ∗ cellInv ER (sched (Vreal A B)) κs1 (cell c (.agS 5 1))
        ∗ reached ER (cell c (.agS 4 2)) 0 ∗ reached ER (cell (nbr 1 c) (.agR 4 2)) 0 ∗ reached ER (cell c (.out 16)) 0
        ∗ dutyTok ER (cell c (.agS 4 2)) 0 (0 : Fin 3) ∗ dutyTok ER (cell (nbr 1 c) (.agR 4 2)) 0 (0 : Fin 3) ∗ dutyTok ER (cell c (.out 16)) 0 (0 : Fin 3)
        ∗ cred (tallyAt (cell c (.agR 4 1)) () (amt (.agR 4 1))) ∗ atPos ER (cell c (.agR 4 1)) 0 ∅ 0
        ∗ cred (tallyAt (cell c (.agS 5 1)) () (amt (.agR 5 1))) ∗ atPos ER (cell c (.agS 5 1)) 0 ∅ 0
        ∗ owes (c : Thread nD τ) (Owe c 37) W ∗ levAts L lv
        ∗ ptsAny (F := Ideal) (nbr 1 c) (agM4_2 c)
        ∗ ptsLent (F := Ideal) c (agM4_1 c) ∗ ((agM4_1 c).view.loc (c : Thread nD τ) ↦[(agM4_1 c).view.set]{fullShare.right} g1)
        ∗ heldW c (outSrcM16 c) f16 ∗ heldW c (outDstM16 c) fd)
        ∗ ⌜(Vreal A B).ag4_1 c ((agM4_1 c).view.read (Elt Ideal) g1)⌝)
      ⊢ wp frame (wpE (defs₀ (F := Ideal)) 𝒱₀ c none) Set.univ
          (k0_part53 (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23 c v2 v8 v1428 v1431)
          (fun r => iprop(⌜r = ⟨Scalar.xori v2 3#32, Scalar.addi (Scalar.subi v1428 (Scalar.muli v8 1024#32)) (Scalar.muli (Scalar.subi 1#32 v8) 1024#32)⟩⌝
            ∗ ∃ f2 : Buf (Elt Ideal) ((Memref.whole cc0_scratch17 : Memref sig .tc .vmem S2048x256 .bf16).view.loc (c : Thread nD τ)), ⌜(Vreal A B).ag4_1 (nbr 2 c) ((agM4_1 (nbr 2 c)).view.read (Elt Ideal) f2)⌝
            ∗ owes (c : Thread nD τ) (Owe c 38) (insert ((CK.agS 5 1).sem, ()) (insert ((CK.agR 4 1).sem, ()) W))
            ∗ atPos ER (cell c (.agR 4 1)) 1 ∅ 0 ∗ atPos ER (cell c (.agS 5 1)) 1 ∅ 0
            ∗ cred (tallyAt (cell c (.agS 4 2)) () (amt (.agR 4 2))) ∗ cred (tallyAt (cell c (.out 16)) () (amt (.out 16)))
            ∗ ((agM4_2 c).view.loc (c : Thread nD τ) ↦[(agM4_2 c).view.set]{fullShare.right} (((agM4_1 (nbr 2 c)).view.set : Finset (Idx ((Memref.whole cc0_scratch17 : Memref sig .tc .vmem S2048x256 .bf16).view.loc (c : Thread nD τ)))).piecewise f2 g1))
            ∗ ptsLent (F := Ideal) c (agM5_1 c))) := by
  iintro ⟨Hpre, %h1⟩
  iapply (part53_run (Vreal A B) c κr1 κs κr κo κs1 W v2 v8 v1428 v1431 g1 f16 fd (fun f2 hf2 => val_ag4_2 A B c g1 f2 h1 hf2) (fun f2 hf2 => val_out16 A B c g1 f2 f16 hf2))
  iexact Hpre

include hagree in
theorem part54_real (c : Dev nD) (κr1 κs κr κo : ℕ) (W : Waits sig Unit) (v2 v9 v1453 v1463 v1466 : BitVec 32) (g1 : Buf (Elt Ideal) ((Memref.whole cc0_scratch18 : Memref sig .tc .vmem S2048x256 .bf16).view.loc (c : Thread nD τ))) (f17 : Buf (Elt Ideal) ((outSrcM17 c).view.loc (c : Thread nD τ))) (fd : Buf (Elt Ideal) ((outDstM17 c).view.loc (c : Thread nD τ))) :
    iprop((cellInv ER (sched (Vreal A B)) κr1 (cell c (.agR 5 1)) ∗ cellInv ER (sched (Vreal A B)) κs (cell c (.agS 5 2)) ∗ cellInv ER (sched (Vreal A B)) κr (cell (nbr 2 c) (.agR 5 2))
        ∗ cellInv ER (sched (Vreal A B)) κo (cell c (.out 17))
        ∗ reached ER (cell c (.agS 5 2)) 0 ∗ reached ER (cell (nbr 2 c) (.agR 5 2)) 0 ∗ reached ER (cell c (.out 17)) 0
        ∗ dutyTok ER (cell c (.agS 5 2)) 0 (0 : Fin 3) ∗ dutyTok ER (cell (nbr 2 c) (.agR 5 2)) 0 (0 : Fin 3) ∗ dutyTok ER (cell c (.out 17)) 0 (0 : Fin 3)
        ∗ cred (tallyAt (cell c (.agR 5 1)) () (amt (.agR 5 1))) ∗ atPos ER (cell c (.agR 5 1)) 0 ∅ 0
        ∗ owes (c : Thread nD τ) (Owe c 38) W ∗ levAts L lv
        ∗ ptsAny (F := Ideal) (nbr 2 c) (agM5_2 c)
        ∗ ptsLent (F := Ideal) c (agM5_1 c) ∗ ((agM5_1 c).view.loc (c : Thread nD τ) ↦[(agM5_1 c).view.set]{fullShare.right} g1)
        ∗ heldW c (outSrcM17 c) f17 ∗ heldW c (outDstM17 c) fd)
        ∗ ⌜(Vreal A B).ag5_1 c ((agM5_1 c).view.read (Elt Ideal) g1)⌝)
      ⊢ wp frame (wpE (defs₀ (F := Ideal)) 𝒱₀ c none) Set.univ
          (k0_part54 (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23 c v2 v9 v1453 v1463 v1466)
          (fun r => iprop(⌜r = ⟨Scalar.xori v2 4#32, Scalar.addi (Scalar.subi v1463 (Scalar.muli v9 1024#32)) (Scalar.muli (Scalar.subi 1#32 v9) 1024#32)⟩⌝
            ∗ ∃ f2 : Buf (Elt Ideal) ((Memref.whole cc0_scratch18 : Memref sig .tc .vmem S2048x256 .bf16).view.loc (c : Thread nD τ)), ⌜(Vreal A B).ag5_1 (nbr 0 c) ((agM5_1 (nbr 0 c)).view.read (Elt Ideal) f2)⌝
            ∗ owes (c : Thread nD τ) (Owe c 39) (insert ((CK.agR 5 1).sem, ()) W)
            ∗ atPos ER (cell c (.agR 5 1)) 1 ∅ 0
            ∗ cred (tallyAt (cell c (.agS 5 2)) () (amt (.agR 5 2))) ∗ cred (tallyAt (cell c (.out 17)) () (amt (.out 17)))
            ∗ ((agM5_2 c).view.loc (c : Thread nD τ) ↦[(agM5_2 c).view.set]{fullShare.right} (((agM5_1 (nbr 0 c)).view.set : Finset (Idx ((Memref.whole cc0_scratch18 : Memref sig .tc .vmem S2048x256 .bf16).view.loc (c : Thread nD τ)))).piecewise f2 g1)))) := by
  iintro ⟨Hpre, %h1⟩
  iapply (part54_run (Vreal A B) c κr1 κs κr κo W v2 v9 v1453 v1463 v1466 g1 f17 fd (fun f2 hf2 => val_ag5_2 A B c g1 f2 h1 hf2) (fun f2 hf2 => val_out17 A B c g1 f2 f17 hf2))
  iexact Hpre

include hagree in
theorem part55_real (c : Dev nD) (κs0 κr0 κo κs1 : ℕ) (W : Waits sig Unit) (v1488 v1501 : BitVec 32) (f18 : Buf (Elt Ideal) ((outSrcM18 c).view.loc (c : Thread nD τ))) (fd : Buf (Elt Ideal) ((outDstM18 c).view.loc (c : Thread nD τ))) :
    iprop(cellInv ER (sched (Vreal A B)) κs0 (cell c (.agS 0 2)) ∗ cellInv ER (sched (Vreal A B)) κr0 (cell c (.agR 0 2))
        ∗ cellInv ER (sched (Vreal A B)) κo (cell c (.out 18)) ∗ cellInv ER (sched (Vreal A B)) κs1 (cell c (.agS 1 2))
        ∗ reached ER (cell c (.out 18)) 0 ∗ dutyTok ER (cell c (.out 18)) 0 (0 : Fin 3)
        ∗ cred (tallyAt (cell c (.agS 0 2)) () (amt (.agR 0 2))) ∗ atPos ER (cell c (.agS 0 2)) 0 ∅ 0
        ∗ cred (tallyAt (cell c (.agR 0 2)) () (amt (.agR 0 2))) ∗ atPos ER (cell c (.agR 0 2)) 0 ∅ 0
        ∗ cred (tallyAt (cell c (.agS 1 2)) () (amt (.agR 1 2))) ∗ atPos ER (cell c (.agS 1 2)) 0 ∅ 0
        ∗ owes (c : Thread nD τ) (Owe c 39) W ∗ levAts L lv
        ∗ heldW c (outSrcM18 c) f18 ∗ heldW c (outDstM18 c) fd)
      ⊢ wp frame (wpE (defs₀ (F := Ideal)) 𝒱₀ c none) Set.univ
          (k0_part55 (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23 c v1488 v1501)
          (fun r => iprop(⌜r = ⟨⟩⌝
            ∗ ∃ fa : Buf (Elt Ideal) ((Memref.whole cc0_scratch13 : Memref sig .tc .vmem S2048x384 .bf16).view.loc (c : Thread nD τ)), ⌜(Vreal A B).ag0_2 (nbr 0 c) ((agM0_2 (nbr 0 c)).view.read (Elt Ideal) fa)⌝
            ∗ owes (c : Thread nD τ) (Owe c 39) (insert ((CK.agS 1 2).sem, ()) (insert ((CK.agR 0 2).sem, ()) (insert ((CK.agS 0 2).sem, ()) W)))
            ∗ atPos ER (cell c (.agS 0 2)) 1 ∅ 0 ∗ atPos ER (cell c (.agR 0 2)) 1 ∅ 0 ∗ atPos ER (cell c (.agS 1 2)) 1 ∅ 0
            ∗ cred (tallyAt (cell c (.out 18)) () (amt (.out 18)))
            ∗ ptsLent (F := Ideal) c (agM0_2 c)
            ∗ ((agM0_2 (nbr 0 c)).view.loc (c : Thread nD τ) ↦[(agM0_2 (nbr 0 c)).view.set]{fullShare} fa)
            ∗ ptsLent (F := Ideal) c (agM1_2 c))) := by
  iintro Hpre
  iapply (part55_run (Vreal A B) c κs0 κr0 κo κs1 W v1488 v1501 f18 fd (fun fa hfa => val_out18 A B c fa f18 hfa))
  iexact Hpre

set_option maxHeartbeats 2000000 in
include hagree in
theorem part56_real (c : Dev nD) (κa κo19 κb κd : ℕ) (W : Waits sig Unit) (v1523 v1536 v1558 v1571 : BitVec 32) (fb : Buf (Elt Ideal) ((outSrcM19 c : Memref sig .tc .vmem S1024x384 .f32).view.loc (c : Thread nD τ))) (fo : Buf (Elt Ideal) ((outDstM19 c : Memref sig .tc .hbm S1024x384 .f32).view.loc (c : Thread nD τ))) :
    iprop(owes (c : Thread nD τ) (Owe c 39) W ∗ levAts L lv
        ∗ cellInv ER (sched (Vreal A B)) κa (cell c (.agR 1 2)) ∗ cred (tallyAt (cell c (.agR 1 2)) () (amt (.agR 1 2))) ∗ atPos ER (cell c (.agR 1 2)) 0 ∅ 0
        ∗ heldW c (outSrcM19 c : Memref sig .tc .vmem S1024x384 .f32) fb
        ∗ heldW c (outDstM19 c : Memref sig .tc .hbm S1024x384 .f32) fo
        ∗ cellInv ER (sched (Vreal A B)) κo19 (cell c (.out 19)) ∗ dutyTok ER (cell c (.out 19)) 0 (0 : Fin 3) ∗ reached ER (cell c (.out 19)) 0
        ∗ cellInv ER (sched (Vreal A B)) κb (cell c (.agS 2 2)) ∗ cred (tallyAt (cell c (.agS 2 2)) () (amt (.agS 2 2))) ∗ atPos ER (cell c (.agS 2 2)) 0 ∅ 0
        ∗ cellInv ER (sched (Vreal A B)) κd (cell c (.agR 2 2)) ∗ cred (tallyAt (cell c (.agR 2 2)) () (amt (.agR 2 2))) ∗ atPos ER (cell c (.agR 2 2)) 0 ∅ 0)
      ⊢ wp frame (wpE (defs₀ (F := Ideal)) 𝒱₀ c none) Set.univ
          (k0_part56 (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23 c v1523 v1536 v1558 v1571)
          (fun r => iprop(∃ (fl1 : Buf (Elt Ideal) ((agM1_2 (nbr 1 c) : Memref sig .tc .vmem S1024x384 .bf16).view.loc (c : Thread nD τ))) (fl2 : Buf (Elt Ideal) ((agM2_2 (nbr 2 c) : Memref sig .tc .vmem S1024x384 .bf16).view.loc (c : Thread nD τ))), ⌜r = (k0_pay103 (View.readAt (Elt Ideal) (Memref.whole cc0_scratch15 : Memref sig .tc .vmem S2048x384 .bf16).view (Rect.unit (s := S2048x384) (k0_off128 c) ![1024, 384] (k0_off128_inb c)).toLoadRect fl2))⌝
            ∗ ⌜(Vreal A B).ag1_2 (nbr 1 c) ((agM1_2 (nbr 1 c) : Memref sig .tc .vmem S1024x384 .bf16).view.read (Elt Ideal) fl1)⌝ ∗ ⌜(Vreal A B).ag2_2 (nbr 2 c) ((agM2_2 (nbr 2 c) : Memref sig .tc .vmem S1024x384 .bf16).view.read (Elt Ideal) fl2)⌝
            ∗ ⌜∀ (r' : Fin 1024) (jj : Fin 384), (k0_pay103 (F := Ideal) (View.readAt (Elt Ideal) (Memref.whole cc0_scratch15 : Memref sig .tc .vmem S2048x384 .bf16).view (Rect.unit (s := S2048x384) (k0_off128 c) S1024x384.size (k0_off128_inb c)).toLoadRect fl2)) (ix2 r' jj) = agSpec A B 2 2 (nbr 2 c) r'.val jj.val⌝
            ∗ heldW c (agM1_2 (nbr 1 c) : Memref sig .tc .vmem S1024x384 .bf16) fl1 ∗ heldW c (agM2_2 (nbr 2 c) : Memref sig .tc .vmem S1024x384 .bf16) fl2
            ∗ cred (tallyAt (cell c (.out 19)) () (amt (.out 19)))
            ∗ owes (c : Thread nD τ) (Owe c 39) (insert ((CK.agR 2 2).sem, ()) (insert ((CK.agS 2 2).sem, ()) (insert ((CK.agR 1 2).sem, ()) W)))
            ∗ atPos ER (cell c (.agR 1 2)) 1 ∅ 0 ∗ atPos ER (cell c (.agS 2 2)) 1 ∅ 0 ∗ atPos ER (cell c (.agR 2 2)) 1 ∅ 0
            ∗ ptsLent (F := Ideal) c (agM2_2 c))) := by
  iintro Hpre
  have hpost : ∀ r : (FVec Ideal S1024x384 .f32), (iprop(∃ (fl1 : Buf (Elt Ideal) ((agM1_2 (nbr 1 c) : Memref sig .tc .vmem S1024x384 .bf16).view.loc (c : Thread nD τ))) (fl2 : Buf (Elt Ideal) ((agM2_2 (nbr 2 c) : Memref sig .tc .vmem S1024x384 .bf16).view.loc (c : Thread nD τ))), ⌜r = (k0_pay103 (View.readAt (Elt Ideal) (Memref.whole cc0_scratch15 : Memref sig .tc .vmem S2048x384 .bf16).view (Rect.unit (s := S2048x384) (k0_off128 c) ![1024, 384] (k0_off128_inb c)).toLoadRect fl2))⌝
            ∗ ⌜(Vreal A B).ag1_2 (nbr 1 c) ((agM1_2 (nbr 1 c) : Memref sig .tc .vmem S1024x384 .bf16).view.read (Elt Ideal) fl1)⌝ ∗ ⌜(Vreal A B).ag2_2 (nbr 2 c) ((agM2_2 (nbr 2 c) : Memref sig .tc .vmem S1024x384 .bf16).view.read (Elt Ideal) fl2)⌝
            ∗ heldW c (agM1_2 (nbr 1 c) : Memref sig .tc .vmem S1024x384 .bf16) fl1 ∗ heldW c (agM2_2 (nbr 2 c) : Memref sig .tc .vmem S1024x384 .bf16) fl2
            ∗ cred (tallyAt (cell c (.out 19)) () (amt (.out 19)))
            ∗ owes (c : Thread nD τ) (Owe c 39) (insert ((CK.agR 2 2).sem, ()) (insert ((CK.agS 2 2).sem, ()) (insert ((CK.agR 1 2).sem, ()) W)))
            ∗ atPos ER (cell c (.agR 1 2)) 1 ∅ 0 ∗ atPos ER (cell c (.agS 2 2)) 1 ∅ 0 ∗ atPos ER (cell c (.agR 2 2)) 1 ∅ 0
            ∗ ptsLent (F := Ideal) c (agM2_2 c)) : sProp 𝕄) ⊢ iprop(∃ (fl1 : Buf (Elt Ideal) ((agM1_2 (nbr 1 c) : Memref sig .tc .vmem S1024x384 .bf16).view.loc (c : Thread nD τ))) (fl2 : Buf (Elt Ideal) ((agM2_2 (nbr 2 c) : Memref sig .tc .vmem S1024x384 .bf16).view.loc (c : Thread nD τ))), ⌜r = (k0_pay103 (View.readAt (Elt Ideal) (Memref.whole cc0_scratch15 : Memref sig .tc .vmem S2048x384 .bf16).view (Rect.unit (s := S2048x384) (k0_off128 c) ![1024, 384] (k0_off128_inb c)).toLoadRect fl2))⌝
            ∗ ⌜(Vreal A B).ag1_2 (nbr 1 c) ((agM1_2 (nbr 1 c) : Memref sig .tc .vmem S1024x384 .bf16).view.read (Elt Ideal) fl1)⌝ ∗ ⌜(Vreal A B).ag2_2 (nbr 2 c) ((agM2_2 (nbr 2 c) : Memref sig .tc .vmem S1024x384 .bf16).view.read (Elt Ideal) fl2)⌝
            ∗ ⌜∀ (r' : Fin 1024) (jj : Fin 384), (k0_pay103 (F := Ideal) (View.readAt (Elt Ideal) (Memref.whole cc0_scratch15 : Memref sig .tc .vmem S2048x384 .bf16).view (Rect.unit (s := S2048x384) (k0_off128 c) S1024x384.size (k0_off128_inb c)).toLoadRect fl2)) (ix2 r' jj) = agSpec A B 2 2 (nbr 2 c) r'.val jj.val⌝
            ∗ heldW c (agM1_2 (nbr 1 c) : Memref sig .tc .vmem S1024x384 .bf16) fl1 ∗ heldW c (agM2_2 (nbr 2 c) : Memref sig .tc .vmem S1024x384 .bf16) fl2
            ∗ cred (tallyAt (cell c (.out 19)) () (amt (.out 19)))
            ∗ owes (c : Thread nD τ) (Owe c 39) (insert ((CK.agR 2 2).sem, ()) (insert ((CK.agS 2 2).sem, ()) (insert ((CK.agR 1 2).sem, ()) W)))
            ∗ atPos ER (cell c (.agR 1 2)) 1 ∅ 0 ∗ atPos ER (cell c (.agS 2 2)) 1 ∅ 0 ∗ atPos ER (cell c (.agR 2 2)) 1 ∅ 0
            ∗ ptsLent (F := Ideal) c (agM2_2 c)) := by
    intro r
    iintro ⟨%fl1, %fl2, %hr, %hf1, %hf2, H⟩
    iexists fl1
    iexists fl2
    isplitr; · ipureintro; exact hr
    isplitr; · ipureintro; exact hf1
    isplitr; · ipureintro; exact hf2
    isplitr; · ipureintro; exact ent_v1742 A B c fl2 hf2
    iexact H
  iapply (wp_mono frame (wpE (defs₀ (F := Ideal)) 𝒱₀ c none) Set.univ hpost)
  iapply (part56_run (Vreal A B) c κa κo19 κb κd W v1523 v1536 v1558 v1571 fb fo (fun fl1 hfl1 => val_out19 A B c fl1 fb hfl1))
  iexact Hpre

include hagree in
theorem part57_real (c : Dev nD) (κo20 κo21 κb κd : ℕ) (W : Waits sig Unit) (v1571 v1593 v1606 : BitVec 32) (v1742 : FVec Ideal S1024x384 .f32) (fb20 : Buf (Elt Ideal) ((outSrcM20 c : Memref sig .tc .vmem S1024x384 .f32).view.loc (c : Thread nD τ))) (fo20 : Buf (Elt Ideal) ((outDstM20 c : Memref sig .tc .hbm S1024x384 .f32).view.loc (c : Thread nD τ))) (fb21 : Buf (Elt Ideal) ((outSrcM21 c : Memref sig .tc .vmem S1024x384 .f32).view.loc (c : Thread nD τ))) (fo21 : Buf (Elt Ideal) ((outDstM21 c : Memref sig .tc .hbm S1024x384 .f32).view.loc (c : Thread nD τ))) :
    iprop((owes (c : Thread nD τ) (Owe c 39) W ∗ levAts L lv
        ∗ heldW c (outSrcM20 c : Memref sig .tc .vmem S1024x384 .f32) fb20 ∗ heldW c (outDstM20 c : Memref sig .tc .hbm S1024x384 .f32) fo20
        ∗ cellInv ER (sched (Vreal A B)) κo20 (cell c (.out 20)) ∗ dutyTok ER (cell c (.out 20)) 0 (0 : Fin 3) ∗ reached ER (cell c (.out 20)) 0
        ∗ cellInv ER (sched (Vreal A B)) κb (cell c (.agS 3 2)) ∗ cred (tallyAt (cell c (.agS 3 2)) () (amt (.agS 3 2))) ∗ atPos ER (cell c (.agS 3 2)) 0 ∅ 0
        ∗ cellInv ER (sched (Vreal A B)) κd (cell c (.agR 3 2)) ∗ cred (tallyAt (cell c (.agR 3 2)) () (amt (.agR 3 2))) ∗ atPos ER (cell c (.agR 3 2)) 0 ∅ 0
        ∗ heldW c (outSrcM21 c : Memref sig .tc .vmem S1024x384 .f32) fb21 ∗ heldW c (outDstM21 c : Memref sig .tc .hbm S1024x384 .f32) fo21
        ∗ cellInv ER (sched (Vreal A B)) κo21 (cell c (.out 21)) ∗ dutyTok ER (cell c (.out 21)) 0 (0 : Fin 3) ∗ reached ER (cell c (.out 21)) 0)
        ∗ ⌜∀ (r' : Fin 1024) (jj : Fin 384), v1742 (ix2 r' jj) = agSpec A B 2 2 (nbr 2 c) r'.val jj.val⌝)
      ⊢ wp frame (wpE (defs₀ (F := Ideal)) 𝒱₀ c none) Set.univ
          (k0_part57 (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23 c v1571 v1593 v1606 v1742)
          (fun r => iprop(⌜r = ⟨⟩⌝ ∗ (∃ fl : Buf (Elt Ideal) ((agM3_2 (nbr 0 c) : Memref sig .tc .vmem S1024x384 .bf16).view.loc (c : Thread nD τ)), ⌜(Vreal A B).ag3_2 (nbr 0 c) ((agM3_2 (nbr 0 c) : Memref sig .tc .vmem S1024x384 .bf16).view.read (Elt Ideal) fl)⌝
            ∗ heldW c (agM3_2 (nbr 0 c) : Memref sig .tc .vmem S1024x384 .bf16) fl
            ∗ cred (tallyAt (cell c (.out 20)) () (amt (.out 20))) ∗ cred (tallyAt (cell c (.out 21)) () (amt (.out 21)))
            ∗ owes (c : Thread nD τ) (Owe c 39) (insert ((CK.agR 3 2).sem, ()) (insert ((CK.agS 3 2).sem, ()) W))
            ∗ atPos ER (cell c (.agS 3 2)) 1 ∅ 0 ∗ atPos ER (cell c (.agR 3 2)) 1 ∅ 0
            ∗ ptsLent (F := Ideal) c (agM3_2 c)))) := by
  iintro ⟨Hpre, %h1⟩
  iapply (part57_run (Vreal A B) c κo20 κo21 κb κd W v1571 v1593 v1606 v1742 fb20 fo20 fb21 fo21 (val_out20_of A B c fb20 v1742 h1) (fun fl hfl => val_out21 A B c fl fb21 hfl))
  iexact Hpre

include hagree in
theorem part58_real (c : Dev nD) (κb κd κo22 κe : ℕ) (W : Waits sig Unit) (v1628 v1641 : BitVec 32) (fb : Buf (Elt Ideal) ((outSrcM22 c : Memref sig .tc .vmem S1024x256 .f32).view.loc (c : Thread nD τ))) (fo : Buf (Elt Ideal) ((outDstM22 c : Memref sig .tc .hbm S1024x256 .f32).view.loc (c : Thread nD τ))) :
    iprop(owes (c : Thread nD τ) (Owe c 39) W ∗ levAts L lv
        ∗ cellInv ER (sched (Vreal A B)) κb (cell c (.agS 4 2)) ∗ cred (tallyAt (cell c (.agS 4 2)) () (amt (.agS 4 2))) ∗ atPos ER (cell c (.agS 4 2)) 0 ∅ 0
        ∗ cellInv ER (sched (Vreal A B)) κd (cell c (.agR 4 2)) ∗ cred (tallyAt (cell c (.agR 4 2)) () (amt (.agR 4 2))) ∗ atPos ER (cell c (.agR 4 2)) 0 ∅ 0
        ∗ heldW c (outSrcM22 c : Memref sig .tc .vmem S1024x256 .f32) fb ∗ heldW c (outDstM22 c : Memref sig .tc .hbm S1024x256 .f32) fo
        ∗ cellInv ER (sched (Vreal A B)) κo22 (cell c (.out 22)) ∗ dutyTok ER (cell c (.out 22)) 0 (0 : Fin 3) ∗ reached ER (cell c (.out 22)) 0
        ∗ cellInv ER (sched (Vreal A B)) κe (cell c (.agS 5 2)) ∗ cred (tallyAt (cell c (.agS 5 2)) () (amt (.agS 5 2))) ∗ atPos ER (cell c (.agS 5 2)) 0 ∅ 0)
      ⊢ wp frame (wpE (defs₀ (F := Ideal)) 𝒱₀ c none) Set.univ
          (k0_part58 (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23 c v1628 v1641)
          (fun r => iprop(⌜r = ⟨⟩⌝ ∗ (∃ fl : Buf (Elt Ideal) ((agM4_2 (nbr 1 c) : Memref sig .tc .vmem S1024x256 .bf16).view.loc (c : Thread nD τ)), ⌜(Vreal A B).ag4_2 (nbr 1 c) ((agM4_2 (nbr 1 c) : Memref sig .tc .vmem S1024x256 .bf16).view.read (Elt Ideal) fl)⌝
            ∗ heldW c (agM4_2 (nbr 1 c) : Memref sig .tc .vmem S1024x256 .bf16) fl
            ∗ cred (tallyAt (cell c (.out 22)) () (amt (.out 22)))
            ∗ owes (c : Thread nD τ) (Owe c 39) (insert ((CK.agS 5 2).sem, ()) (insert ((CK.agR 4 2).sem, ()) (insert ((CK.agS 4 2).sem, ()) W)))
            ∗ atPos ER (cell c (.agS 4 2)) 1 ∅ 0 ∗ atPos ER (cell c (.agR 4 2)) 1 ∅ 0 ∗ atPos ER (cell c (.agS 5 2)) 1 ∅ 0
            ∗ ptsLent (F := Ideal) c (agM4_2 c) ∗ ptsLent (F := Ideal) c (agM5_2 c)))) := by
  iintro Hpre
  iapply (part58_run (Vreal A B) c κb κd κo22 κe W v1628 v1641 fb fo (fun fl hfl => val_out22 A B c fl fb hfl))
  iexact Hpre

include hagree in
theorem part59_real (c : Dev nD) (κd κo23 κw0 κw1 κw2 : ℕ) (W : Waits sig Unit) (v1663 v1676 : BitVec 32) (fb : Buf (Elt Ideal) ((outSrcM23 c : Memref sig .tc .vmem S1024x256 .f32).view.loc (c : Thread nD τ))) (fo : Buf (Elt Ideal) ((outDstM23 c : Memref sig .tc .hbm S1024x256 .f32).view.loc (c : Thread nD τ))) :
    iprop(owes (c : Thread nD τ) (Owe c 39) W ∗ levAts L lv
        ∗ cellInv ER (sched (Vreal A B)) κd (cell c (.agR 5 2)) ∗ cred (tallyAt (cell c (.agR 5 2)) () (amt (.agR 5 2))) ∗ atPos ER (cell c (.agR 5 2)) 0 ∅ 0
        ∗ heldW c (outSrcM23 c : Memref sig .tc .vmem S1024x256 .f32) fb ∗ heldW c (outDstM23 c : Memref sig .tc .hbm S1024x256 .f32) fo
        ∗ cellInv ER (sched (Vreal A B)) κo23 (cell c (.out 23)) ∗ dutyTok ER (cell c (.out 23)) 0 (0 : Fin 3) ∗ reached ER (cell c (.out 23)) 0
        ∗ cellInv ER (sched (Vreal A B)) κw0 (cell c (.out 0)) ∗ cred (tallyAt (cell c (.out 0)) () (amt (.out 0))) ∗ atPos ER (cell c (.out 0)) 0 ∅ 0
        ∗ cellInv ER (sched (Vreal A B)) κw1 (cell c (.out 1)) ∗ cred (tallyAt (cell c (.out 1)) () (amt (.out 1))) ∗ atPos ER (cell c (.out 1)) 0 ∅ 0
        ∗ cellInv ER (sched (Vreal A B)) κw2 (cell c (.out 2)) ∗ cred (tallyAt (cell c (.out 2)) () (amt (.out 2))) ∗ atPos ER (cell c (.out 2)) 0 ∅ 0)
      ⊢ wp frame (wpE (defs₀ (F := Ideal)) 𝒱₀ c none) Set.univ
          (k0_part59 (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23 c v1663 v1676)
          (fun r => iprop(⌜r = ⟨⟩⌝ ∗ (∃ fl : Buf (Elt Ideal) ((agM5_2 (nbr 2 c) : Memref sig .tc .vmem S1024x256 .bf16).view.loc (c : Thread nD τ)), ⌜(Vreal A B).ag5_2 (nbr 2 c) ((agM5_2 (nbr 2 c) : Memref sig .tc .vmem S1024x256 .bf16).view.read (Elt Ideal) fl)⌝
            ∗ heldW c (agM5_2 (nbr 2 c) : Memref sig .tc .vmem S1024x256 .bf16) fl
            ∗ cred (tallyAt (cell c (.out 23)) () (amt (.out 23)))
            ∗ owes (c : Thread nD τ) (Owe c 39) (insert ((CK.out 2).sem, ()) (insert ((CK.out 1).sem, ()) (insert ((CK.out 0).sem, ()) (insert ((CK.agR 5 2).sem, ()) W))))
            ∗ atPos ER (cell c (.agR 5 2)) 1 ∅ 0
            ∗ atPos ER (cell c (.out 0)) 1 ∅ 0 ∗ ptsIs c (outDstM0 c) ((Vreal A B).out0 c) ∗ ptsAny (F := Ideal) c (outSrcM0 c)
            ∗ atPos ER (cell c (.out 1)) 1 ∅ 0 ∗ ptsIs c (outDstM1 c) ((Vreal A B).out1 c) ∗ ptsAny (F := Ideal) c (outSrcM1 c)
            ∗ atPos ER (cell c (.out 2)) 1 ∅ 0 ∗ ptsIs c (outDstM2 c) ((Vreal A B).out2 c) ∗ ptsAny (F := Ideal) c (outSrcM2 c)))) := by
  iintro Hpre
  iapply (part59_run (Vreal A B) c κd κo23 κw0 κw1 κw2 W v1663 v1676 fb fo (fun fl hfl => val_out23 A B c fl fb hfl))
  iexact Hpre

include hagree in
theorem part60_real (c : Dev nD) (κw3 κw4 κw5 κw6 κw7 κw8 κw9 κw10 : ℕ) (W : Waits sig Unit) :
    iprop(owes (c : Thread nD τ) (Owe c 39) W ∗ levAts L lv
        ∗ cellInv ER (sched (Vreal A B)) κw3 (cell c (.out 3)) ∗ cred (tallyAt (cell c (.out 3)) () (amt (.out 3))) ∗ atPos ER (cell c (.out 3)) 0 ∅ 0
        ∗ cellInv ER (sched (Vreal A B)) κw4 (cell c (.out 4)) ∗ cred (tallyAt (cell c (.out 4)) () (amt (.out 4))) ∗ atPos ER (cell c (.out 4)) 0 ∅ 0
        ∗ cellInv ER (sched (Vreal A B)) κw5 (cell c (.out 5)) ∗ cred (tallyAt (cell c (.out 5)) () (amt (.out 5))) ∗ atPos ER (cell c (.out 5)) 0 ∅ 0
        ∗ cellInv ER (sched (Vreal A B)) κw6 (cell c (.out 6)) ∗ cred (tallyAt (cell c (.out 6)) () (amt (.out 6))) ∗ atPos ER (cell c (.out 6)) 0 ∅ 0
        ∗ cellInv ER (sched (Vreal A B)) κw7 (cell c (.out 7)) ∗ cred (tallyAt (cell c (.out 7)) () (amt (.out 7))) ∗ atPos ER (cell c (.out 7)) 0 ∅ 0
        ∗ cellInv ER (sched (Vreal A B)) κw8 (cell c (.out 8)) ∗ cred (tallyAt (cell c (.out 8)) () (amt (.out 8))) ∗ atPos ER (cell c (.out 8)) 0 ∅ 0
        ∗ cellInv ER (sched (Vreal A B)) κw9 (cell c (.out 9)) ∗ cred (tallyAt (cell c (.out 9)) () (amt (.out 9))) ∗ atPos ER (cell c (.out 9)) 0 ∅ 0
        ∗ cellInv ER (sched (Vreal A B)) κw10 (cell c (.out 10)) ∗ cred (tallyAt (cell c (.out 10)) () (amt (.out 10))) ∗ atPos ER (cell c (.out 10)) 0 ∅ 0)
      ⊢ wp frame (wpE (defs₀ (F := Ideal)) 𝒱₀ c none) Set.univ
          (k0_part60 (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23 c)
          (fun r => iprop(⌜r = ⟨⟩⌝ ∗ owes (c : Thread nD τ) (Owe c 39) (insert ((CK.out 10).sem, ()) (insert ((CK.out 9).sem, ()) (insert ((CK.out 8).sem, ()) (insert ((CK.out 7).sem, ()) (insert ((CK.out 6).sem, ()) (insert ((CK.out 5).sem, ()) (insert ((CK.out 4).sem, ()) (insert ((CK.out 3).sem, ()) W))))))))
            ∗ atPos ER (cell c (.out 3)) 1 ∅ 0 ∗ ptsIs c (outDstM3 c) ((Vreal A B).out3 c) ∗ ptsAny (F := Ideal) c (outSrcM3 c)
            ∗ atPos ER (cell c (.out 4)) 1 ∅ 0 ∗ ptsIs c (outDstM4 c) ((Vreal A B).out4 c) ∗ ptsAny (F := Ideal) c (outSrcM4 c)
            ∗ atPos ER (cell c (.out 5)) 1 ∅ 0 ∗ ptsIs c (outDstM5 c) ((Vreal A B).out5 c) ∗ ptsAny (F := Ideal) c (outSrcM5 c)
            ∗ atPos ER (cell c (.out 6)) 1 ∅ 0 ∗ ptsIs c (outDstM6 c) ((Vreal A B).out6 c) ∗ ptsAny (F := Ideal) c (outSrcM6 c)
            ∗ atPos ER (cell c (.out 7)) 1 ∅ 0 ∗ ptsIs c (outDstM7 c) ((Vreal A B).out7 c) ∗ ptsAny (F := Ideal) c (outSrcM7 c)
            ∗ atPos ER (cell c (.out 8)) 1 ∅ 0 ∗ ptsIs c (outDstM8 c) ((Vreal A B).out8 c) ∗ ptsAny (F := Ideal) c (outSrcM8 c)
            ∗ atPos ER (cell c (.out 9)) 1 ∅ 0 ∗ ptsIs c (outDstM9 c) ((Vreal A B).out9 c) ∗ ptsAny (F := Ideal) c (outSrcM9 c)
            ∗ atPos ER (cell c (.out 10)) 1 ∅ 0 ∗ ptsIs c (outDstM10 c) ((Vreal A B).out10 c) ∗ ptsAny (F := Ideal) c (outSrcM10 c))) := by
  iintro Hpre
  iapply (part60_run (Vreal A B) c κw3 κw4 κw5 κw6 κw7 κw8 κw9 κw10 W)
  iexact Hpre

include hagree in
theorem part61_real (c : Dev nD) (κw11 κw12 κw13 κw14 κw15 κw16 κw17 : ℕ) (W : Waits sig Unit) :
    iprop(owes (c : Thread nD τ) (Owe c 39) W ∗ levAts L lv
        ∗ cellInv ER (sched (Vreal A B)) κw11 (cell c (.out 11)) ∗ cred (tallyAt (cell c (.out 11)) () (amt (.out 11))) ∗ atPos ER (cell c (.out 11)) 0 ∅ 0
        ∗ cellInv ER (sched (Vreal A B)) κw12 (cell c (.out 12)) ∗ cred (tallyAt (cell c (.out 12)) () (amt (.out 12))) ∗ atPos ER (cell c (.out 12)) 0 ∅ 0
        ∗ cellInv ER (sched (Vreal A B)) κw13 (cell c (.out 13)) ∗ cred (tallyAt (cell c (.out 13)) () (amt (.out 13))) ∗ atPos ER (cell c (.out 13)) 0 ∅ 0
        ∗ cellInv ER (sched (Vreal A B)) κw14 (cell c (.out 14)) ∗ cred (tallyAt (cell c (.out 14)) () (amt (.out 14))) ∗ atPos ER (cell c (.out 14)) 0 ∅ 0
        ∗ cellInv ER (sched (Vreal A B)) κw15 (cell c (.out 15)) ∗ cred (tallyAt (cell c (.out 15)) () (amt (.out 15))) ∗ atPos ER (cell c (.out 15)) 0 ∅ 0
        ∗ cellInv ER (sched (Vreal A B)) κw16 (cell c (.out 16)) ∗ cred (tallyAt (cell c (.out 16)) () (amt (.out 16))) ∗ atPos ER (cell c (.out 16)) 0 ∅ 0
        ∗ cellInv ER (sched (Vreal A B)) κw17 (cell c (.out 17)) ∗ cred (tallyAt (cell c (.out 17)) () (amt (.out 17))) ∗ atPos ER (cell c (.out 17)) 0 ∅ 0)
      ⊢ wp frame (wpE (defs₀ (F := Ideal)) 𝒱₀ c none) Set.univ
          (k0_part61 (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23 c)
          (fun r => iprop(⌜r = ⟨⟩⌝ ∗ owes (c : Thread nD τ) (Owe c 39) (insert ((CK.out 17).sem, ()) (insert ((CK.out 16).sem, ()) (insert ((CK.out 15).sem, ()) (insert ((CK.out 14).sem, ()) (insert ((CK.out 13).sem, ()) (insert ((CK.out 12).sem, ()) (insert ((CK.out 11).sem, ()) W)))))))
            ∗ atPos ER (cell c (.out 11)) 1 ∅ 0 ∗ ptsIs c (outDstM11 c) ((Vreal A B).out11 c) ∗ ptsAny (F := Ideal) c (outSrcM11 c)
            ∗ atPos ER (cell c (.out 12)) 1 ∅ 0 ∗ ptsIs c (outDstM12 c) ((Vreal A B).out12 c) ∗ ptsAny (F := Ideal) c (outSrcM12 c)
            ∗ atPos ER (cell c (.out 13)) 1 ∅ 0 ∗ ptsIs c (outDstM13 c) ((Vreal A B).out13 c) ∗ ptsAny (F := Ideal) c (outSrcM13 c)
            ∗ atPos ER (cell c (.out 14)) 1 ∅ 0 ∗ ptsIs c (outDstM14 c) ((Vreal A B).out14 c) ∗ ptsAny (F := Ideal) c (outSrcM14 c)
            ∗ atPos ER (cell c (.out 15)) 1 ∅ 0 ∗ ptsIs c (outDstM15 c) ((Vreal A B).out15 c) ∗ ptsAny (F := Ideal) c (outSrcM15 c)
            ∗ atPos ER (cell c (.out 16)) 1 ∅ 0 ∗ ptsIs c (outDstM16 c) ((Vreal A B).out16 c) ∗ ptsAny (F := Ideal) c (outSrcM16 c)
            ∗ atPos ER (cell c (.out 17)) 1 ∅ 0 ∗ ptsIs c (outDstM17 c) ((Vreal A B).out17 c) ∗ ptsAny (F := Ideal) c (outSrcM17 c))) := by
  iintro Hpre
  iapply (part61_run (Vreal A B) c κw11 κw12 κw13 κw14 κw15 κw16 κw17 W)
  iexact Hpre

include hagree in
theorem part62_real (c : Dev nD) (κw18 κw19 κw20 κw21 κw22 κw23 : ℕ) (W : Waits sig Unit) :
    iprop(owes (c : Thread nD τ) (Owe c 39) W ∗ levAts L lv
        ∗ cellInv ER (sched (Vreal A B)) κw18 (cell c (.out 18)) ∗ cred (tallyAt (cell c (.out 18)) () (amt (.out 18))) ∗ atPos ER (cell c (.out 18)) 0 ∅ 0
        ∗ cellInv ER (sched (Vreal A B)) κw19 (cell c (.out 19)) ∗ cred (tallyAt (cell c (.out 19)) () (amt (.out 19))) ∗ atPos ER (cell c (.out 19)) 0 ∅ 0
        ∗ cellInv ER (sched (Vreal A B)) κw20 (cell c (.out 20)) ∗ cred (tallyAt (cell c (.out 20)) () (amt (.out 20))) ∗ atPos ER (cell c (.out 20)) 0 ∅ 0
        ∗ cellInv ER (sched (Vreal A B)) κw21 (cell c (.out 21)) ∗ cred (tallyAt (cell c (.out 21)) () (amt (.out 21))) ∗ atPos ER (cell c (.out 21)) 0 ∅ 0
        ∗ cellInv ER (sched (Vreal A B)) κw22 (cell c (.out 22)) ∗ cred (tallyAt (cell c (.out 22)) () (amt (.out 22))) ∗ atPos ER (cell c (.out 22)) 0 ∅ 0
        ∗ cellInv ER (sched (Vreal A B)) κw23 (cell c (.out 23)) ∗ cred (tallyAt (cell c (.out 23)) () (amt (.out 23))) ∗ atPos ER (cell c (.out 23)) 0 ∅ 0)
      ⊢ wp frame (wpE (defs₀ (F := Ideal)) 𝒱₀ c none) Set.univ
          (tailProg (F := Ideal) c)
          (fun r => iprop(⌜r = ⟨⟩⌝ ∗ owes (c : Thread nD τ) (Owe c 39) (insert ((CK.out 23).sem, ()) (insert ((CK.out 22).sem, ()) (insert ((CK.out 21).sem, ()) (insert ((CK.out 20).sem, ()) (insert ((CK.out 19).sem, ()) (insert ((CK.out 18).sem, ()) W))))))
            ∗ atPos ER (cell c (.out 18)) 1 ∅ 0 ∗ ptsIs c (outDstM18 c) ((Vreal A B).out18 c) ∗ ptsAny (F := Ideal) c (outSrcM18 c)
            ∗ atPos ER (cell c (.out 19)) 1 ∅ 0 ∗ ptsIs c (outDstM19 c) ((Vreal A B).out19 c) ∗ ptsAny (F := Ideal) c (outSrcM19 c)
            ∗ atPos ER (cell c (.out 20)) 1 ∅ 0 ∗ ptsIs c (outDstM20 c) ((Vreal A B).out20 c) ∗ ptsAny (F := Ideal) c (outSrcM20 c)
            ∗ atPos ER (cell c (.out 21)) 1 ∅ 0 ∗ ptsIs c (outDstM21 c) ((Vreal A B).out21 c) ∗ ptsAny (F := Ideal) c (outSrcM21 c)
            ∗ atPos ER (cell c (.out 22)) 1 ∅ 0 ∗ ptsIs c (outDstM22 c) ((Vreal A B).out22 c) ∗ ptsAny (F := Ideal) c (outSrcM22 c)
            ∗ atPos ER (cell c (.out 23)) 1 ∅ 0 ∗ ptsIs c (outDstM23 c) ((Vreal A B).out23 c) ∗ ptsAny (F := Ideal) c (outSrcM23 c))) := by
  iintro Hpre
  iapply (tail_run (Vreal A B) c κw18 κw19 κw20 κw21 κw22 κw23 W)
  iexact Hpre

end Cert.KernelIdeal.Proto

end
-- ==== Proof.RealE2.lean ====
/-
The stretches of a device's kernel body at the last reduce-scatter step of column groups 3, 4 and 5, with every value
named: the eighth sent on is the device's two kept shares plus what landed, the eighth kept becomes the sum of four
shares; stores into other columns, or into other rows of the same columns, leave what is known of the accumulator.
-/
import proofs.«900882_g7700000000000883_dist_matmul_gelu_kshard_i_m2048_n2048_k1024_v7x_i8_f32_1_alg».proof.Proof.Body24
import proofs.«900882_g7700000000000883_dist_matmul_gelu_kshard_i_m2048_n2048_k1024_v7x_i8_f32_1_alg».proof.Proof.Body25
import proofs.«900882_g7700000000000883_dist_matmul_gelu_kshard_i_m2048_n2048_k1024_v7x_i8_f32_1_alg».proof.Proof.Body26
import proofs.«900882_g7700000000000883_dist_matmul_gelu_kshard_i_m2048_n2048_k1024_v7x_i8_f32_1_alg».proof.Proof.Body27
import proofs.«900882_g7700000000000883_dist_matmul_gelu_kshard_i_m2048_n2048_k1024_v7x_i8_f32_1_alg».proof.Proof.Body28
import proofs.«900882_g7700000000000883_dist_matmul_gelu_kshard_i_m2048_n2048_k1024_v7x_i8_f32_1_alg».proof.Proof.ValSliceC
import proofs.«900882_g7700000000000883_dist_matmul_gelu_kshard_i_m2048_n2048_k1024_v7x_i8_f32_1_alg».proof.Proof.ValStep2
import proofs.«900882_g7700000000000883_dist_matmul_gelu_kshard_i_m2048_n2048_k1024_v7x_i8_f32_1_alg».proof.Proof.AccInv

set_option maxRecDepth 100000

noncomputable section

namespace Cert.KernelIdeal.Proto

open Cert.KernelIdeal Cert.KernelIdeal.Gen Cert.KernelIdeal.Topo
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open scoped BigOperators

local notation "𝕄" => MT nD τ sig Unit (Elt Ideal) ℕ UU ℕ

variable (A : (⟨2, ![2048, 8192]⟩ : Shape).Idx → EReal) (B : (⟨2, ![8192, 2048]⟩ : Shape).Idx → EReal)
  (m : (ℓ : Loc nD τ sig) → Buf (Elt Ideal) ℓ)
  (hagree : ∀ c : Dev nD,
      m ((c : Thread nD τ).loc main_arg0) = Layout.block ⟨2, ![2048, 1024]⟩ ⟨2, ![2048, 8192]⟩ 1 8 c A
      ∧ m ((c : Thread nD τ).loc main_arg1) = Layout.block ⟨2, ![1024, 2048]⟩ ⟨2, ![8192, 2048]⟩ 0 8 c B)

/-- Group 3: the eighth a device sends at the last reduce-scatter step, read out of an accumulator whose kept quarter
    holds the device's share and its first partner's, holds those two shares at the rows sent. -/
theorem acc_send2_3 {c : Dev nD} {g : Buf (Elt Ideal) ((Memref.whole cc0_scratch0 : Memref sig .tc .vmem S2048x2048 .f32).view.loc (c : Thread nD τ))} (hJ2 : J2 A B 3 384 c g)
    (i : Fin 256) (j : Fin 384) :
    ((View.readAt (Elt Ideal) (Memref.whole cc0_scratch0 : Memref sig .tc .vmem S2048x2048 .f32).view (Rect.unit (s := S2048x2048) (k0_off47 c) ![256, 384] (k0_off47_inb c)).toLoadRect g) (ix2 i j) : EReal)
      = share A B c.val (sendRow 3 2 c + i.val) (colLo 3 + j.val) + share A B (nb 3 0 c).val (sendRow 3 2 c + i.val) (colLo 3 + j.val) := by
  have hR := cz_le c
  have hi : (1 - cz c) * 256 + i.val < 512 := by have := i.isLt; omega
  rw [View.readAt_eq_ld]
  have e : ownRow 3 1 c + ((1 - cz c) * 256 + i.val) = sendRow 3 2 c + i.val := by
    show cx c * 1024 + cy c * 512 + ((1 - cz c) * 256 + i.val) = cx c * 1024 + cy c * 512 + (1 - cz c) * 256 + i.val; omega
  have := hJ2 ⟨(1 - cz c) * 256 + i.val, hi⟩ j ((Rect.unit (s := S2048x2048) (k0_off47 c) ![256, 384] (k0_off47_inb c)).emb (ix2 i j))
    (by show (k0_off47 c) 0 + 1 * i.val = cx c * 1024 + cy c * 512 + ((1 - cz c) * 256 + i.val); rw [off47_eq c]
        show cx c * 1024 + cy c * 512 + (1 - cz c) * 256 + 1 * i.val = _; omega)
    (by show (k0_off47 c) 1 + 1 * j.val = 1152 + j.val; rw [off47_eq c]; show 1152 + 1 * j.val = 1152 + j.val; omega)
  rw [e] at this
  exact this

/-- Group 4: the eighth a device sends at the last reduce-scatter step, read out of an accumulator whose kept quarter
    holds the device's share and its first partner's, holds those two shares at the rows sent. -/
theorem acc_send2_4 {c : Dev nD} {g : Buf (Elt Ideal) ((Memref.whole cc0_scratch0 : Memref sig .tc .vmem S2048x2048 .f32).view.loc (c : Thread nD τ))} (hJ2 : J2 A B 4 256 c g)
    (i : Fin 256) (j : Fin 256) :
    ((View.readAt (Elt Ideal) (Memref.whole cc0_scratch0 : Memref sig .tc .vmem S2048x2048 .f32).view (Rect.unit (s := S2048x2048) (k0_off49 c) ![256, 256] (k0_off49_inb c)).toLoadRect g) (ix2 i j) : EReal)
      = share A B c.val (sendRow 4 2 c + i.val) (colLo 4 + j.val) + share A B (nb 4 0 c).val (sendRow 4 2 c + i.val) (colLo 4 + j.val) := by
  have hR := cx_le c
  have hi : (1 - cx c) * 256 + i.val < 512 := by have := i.isLt; omega
  rw [View.readAt_eq_ld]
  have e : ownRow 4 1 c + ((1 - cx c) * 256 + i.val) = sendRow 4 2 c + i.val := by
    show cy c * 1024 + cz c * 512 + ((1 - cx c) * 256 + i.val) = cy c * 1024 + cz c * 512 + (1 - cx c) * 256 + i.val; omega
  have := hJ2 ⟨(1 - cx c) * 256 + i.val, hi⟩ j ((Rect.unit (s := S2048x2048) (k0_off49 c) ![256, 256] (k0_off49_inb c)).emb (ix2 i j))
    (by show (k0_off49 c) 0 + 1 * i.val = cy c * 1024 + cz c * 512 + ((1 - cx c) * 256 + i.val); rw [off49_eq c]
        show cy c * 1024 + cz c * 512 + (1 - cx c) * 256 + 1 * i.val = _; omega)
    (by show (k0_off49 c) 1 + 1 * j.val = 1536 + j.val; rw [off49_eq c]; show 1536 + 1 * j.val = 1536 + j.val; omega)
  rw [e] at this
  exact this

/-- Group 5: the eighth a device sends at the last reduce-scatter step, read out of an accumulator whose kept quarter
    holds the device's share and its first partner's, holds those two shares at the rows sent. -/
theorem acc_send2_5 {c : Dev nD} {g : Buf (Elt Ideal) ((Memref.whole cc0_scratch0 : Memref sig .tc .vmem S2048x2048 .f32).view.loc (c : Thread nD τ))} (hJ2 : J2 A B 5 256 c g)
    (i : Fin 256) (j : Fin 256) :
    ((View.readAt (Elt Ideal) (Memref.whole cc0_scratch0 : Memref sig .tc .vmem S2048x2048 .f32).view (Rect.unit (s := S2048x2048) (k0_off53 c) ![256, 256] (k0_off53_inb c)).toLoadRect g) (ix2 i j) : EReal)
      = share A B c.val (sendRow 5 2 c + i.val) (colLo 5 + j.val) + share A B (nb 5 0 c).val (sendRow 5 2 c + i.val) (colLo 5 + j.val) := by
  have hR := cy_le c
  have hi : (1 - cy c) * 256 + i.val < 512 := by have := i.isLt; omega
  rw [View.readAt_eq_ld]
  have e : ownRow 5 1 c + ((1 - cy c) * 256 + i.val) = sendRow 5 2 c + i.val := by
    show cz c * 1024 + cx c * 512 + ((1 - cy c) * 256 + i.val) = cz c * 1024 + cx c * 512 + (1 - cy c) * 256 + i.val; omega
  have := hJ2 ⟨(1 - cy c) * 256 + i.val, hi⟩ j ((Rect.unit (s := S2048x2048) (k0_off53 c) ![256, 256] (k0_off53_inb c)).emb (ix2 i j))
    (by show (k0_off53 c) 0 + 1 * i.val = cz c * 1024 + cx c * 512 + ((1 - cy c) * 256 + i.val); rw [off53_eq c]
        show cz c * 1024 + cx c * 512 + (1 - cy c) * 256 + 1 * i.val = _; omega)
    (by show (k0_off53 c) 1 + 1 * j.val = 1792 + j.val; rw [off53_eq c]; show 1792 + 1 * j.val = 1792 + j.val; omega)
  rw [e] at this
  exact this

set_option maxHeartbeats 2000000 in
include hagree in
theorem part24_real (c : Dev nD) (κw κv : ℕ) (W : Waits sig Unit) (v2 v9 v412 v431 : BitVec 32) (f3 : Buf (Elt Ideal) ((Memref.whole cc0_scratch0 : Memref sig .tc .vmem S2048x2048 .f32).view.loc (c : Thread nD τ))) :
    iprop((owes (c : Thread nD τ) (Owe c 18) W ∗ levAts L lv
        ∗ heldW c (Memref.whole cc0_scratch0 : Memref sig .tc .vmem S2048x2048 .f32) f3
        ∗ cellInv ER (sched (Vreal A B)) κw (cell c (.rsS 3 1)) ∗ cred (tallyAt (cell c (.rsS 3 1)) () (amt (.rsS 3 1))) ∗ atPos ER (cell c (.rsS 3 1)) 0 ∅ 0
        ∗ cellInv ER (sched (Vreal A B)) κv (cell c (.rsR 3 1)) ∗ cred (tallyAt (cell c (.rsR 3 1)) () (amt (.rsR 3 1))) ∗ atPos ER (cell c (.rsR 3 1)) 0 ∅ 0)
        ∗ ⌜AccInv A B c ![4, 4, 4, 2, 2, 2] f3⌝)
      ⊢ wp frame (wpE (defs₀ (F := Ideal)) 𝒱₀ c none) Set.univ
          (k0_part24 (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23 c v2 v9 v412 v431)
          (fun r => iprop(⌜r = ⟨Scalar.addi v412 (Scalar.muli v9 256#32), ⟨Scalar.xori v2 4#32, 1#32⟩⟩⌝ ∗ (∃ (fl : Buf (Elt Ideal) ((commM3_1 : Memref sig .tc .vmem S512x384 .bf16).view.loc (c : Thread nD τ))) (fs : Buf (Elt Ideal) ((stgM3_1 : Memref sig .tc .vmem S512x384 .bf16).view.loc (c : Thread nD τ))), ⌜(Vreal A B).rs3_1 (nbr 1 c) ((commM3_1 : Memref sig .tc .vmem S512x384 .bf16).view.read (Elt Ideal) fl)⌝
            ∗ ⌜AccInv A B c ![4, 4, 4, 3, 2, 2] ((Memref.whole cc0_scratch0 : Memref sig .tc .vmem S2048x2048 .f32).view.writes (Elt Ideal) f3 [⟨Rect.unit (s := S2048x2048) (k0_off47 c) ![256, 384] (k0_off47_inb c), k0_pay48 (F := Ideal) (View.readAt (Elt Ideal) (Memref.whole cc0_scratch0 : Memref sig .tc .vmem S2048x2048 .f32).view (Rect.unit (s := S2048x2048) (k0_off47 c) ![256, 384] (k0_off47_inb c)).toLoadRect f3) (View.readAt (Elt Ideal) (Memref.whole cc0_scratch4 : Memref sig .tc .vmem S1792x384 .bf16).view (Rect.unit (s := S1792x384) (k0_off36 c) ![256, 384] (k0_off36_inb c)).toLoadRect fl)⟩])⌝
            ∗ ⌜(Vreal A B).rs3_2 c ((stgM3_2 : Memref sig .tc .vmem S256x384 .bf16).view.read (Elt Ideal) (View.write (Elt Ideal) ((Memref.whole cc0_scratch10 : Memref sig .tc .vmem S1024x384 .bf16).access (Rect.unit (s := S1024x384) ![0, 0] ![256, 384] inb_S1024x384_S256x384_0_0)) fs (k0_pay49 (F := Ideal) ((Memref.whole cc0_scratch0 : Memref sig .tc .vmem S2048x2048 .f32).view.readCov [⟨Rect.unit (s := S2048x2048) (k0_off47 c) ![256, 384] (k0_off47_inb c), k0_pay48 (F := Ideal) (View.readAt (Elt Ideal) (Memref.whole cc0_scratch0 : Memref sig .tc .vmem S2048x2048 .f32).view (Rect.unit (s := S2048x2048) (k0_off47 c) ![256, 384] (k0_off47_inb c)).toLoadRect f3) (View.readAt (Elt Ideal) (Memref.whole cc0_scratch4 : Memref sig .tc .vmem S1792x384 .bf16).view (Rect.unit (s := S1792x384) (k0_off36 c) ![256, 384] (k0_off36_inb c)).toLoadRect fl)⟩] (Rect.unit (s := S2048x2048) (k0_off47 c) ![256, 384] (k0_off47_inb c)).toLoadRect)) Finset.univ))⌝
            ∗ heldW c (commM3_1 : Memref sig .tc .vmem S512x384 .bf16) fl
            ∗ owes (c : Thread nD τ) (Owe c 18) (insert ((CK.rsR 3 1).sem, ()) (insert ((CK.rsS 3 1).sem, ()) W))
            ∗ atPos ER (cell c (.rsS 3 1)) 1 ∅ 0 ∗ atPos ER (cell c (.rsR 3 1)) 1 ∅ 0
            ∗ heldW c (Memref.whole cc0_scratch0 : Memref sig .tc .vmem S2048x2048 .f32) ((Memref.whole cc0_scratch0 : Memref sig .tc .vmem S2048x2048 .f32).view.writes (Elt Ideal) f3 [⟨Rect.unit (s := S2048x2048) (k0_off47 c) ![256, 384] (k0_off47_inb c), k0_pay48 (F := Ideal) (View.readAt (Elt Ideal) (Memref.whole cc0_scratch0 : Memref sig .tc .vmem S2048x2048 .f32).view (Rect.unit (s := S2048x2048) (k0_off47 c) ![256, 384] (k0_off47_inb c)).toLoadRect f3) (View.readAt (Elt Ideal) (Memref.whole cc0_scratch4 : Memref sig .tc .vmem S1792x384 .bf16).view (Rect.unit (s := S1792x384) (k0_off36 c) ![256, 384] (k0_off36_inb c)).toLoadRect fl)⟩])
            ∗ heldW c (stgM3_1 : Memref sig .tc .vmem S512x384 .bf16) (View.write (Elt Ideal) ((Memref.whole cc0_scratch10 : Memref sig .tc .vmem S1024x384 .bf16).access (Rect.unit (s := S1024x384) ![0, 0] ![256, 384] inb_S1024x384_S256x384_0_0)) fs (k0_pay49 (F := Ideal) ((Memref.whole cc0_scratch0 : Memref sig .tc .vmem S2048x2048 .f32).view.readCov [⟨Rect.unit (s := S2048x2048) (k0_off47 c) ![256, 384] (k0_off47_inb c), k0_pay48 (F := Ideal) (View.readAt (Elt Ideal) (Memref.whole cc0_scratch0 : Memref sig .tc .vmem S2048x2048 .f32).view (Rect.unit (s := S2048x2048) (k0_off47 c) ![256, 384] (k0_off47_inb c)).toLoadRect f3) (View.readAt (Elt Ideal) (Memref.whole cc0_scratch4 : Memref sig .tc .vmem S1792x384 .bf16).view (Rect.unit (s := S1792x384) (k0_off36 c) ![256, 384] (k0_off36_inb c)).toLoadRect fl)⟩] (Rect.unit (s := S2048x2048) (k0_off47 c) ![256, 384] (k0_off47_inb c)).toLoadRect)) Finset.univ)))) := by
  iintro ⟨Hpre, %h1⟩
  have hA := h1
  have hJ2 : J2 A B 3 384 c f3 := hA.get3
  have hacc : ∀ fl : Buf (Elt Ideal) ((commM3_1 : Memref sig .tc .vmem S512x384 .bf16).view.loc (c : Thread nD τ)), AccInv A B c ![4, 4, 4, 3, 2, 2] ((Memref.whole cc0_scratch0 : Memref sig .tc .vmem S2048x2048 .f32).view.writes (Elt Ideal) f3 [⟨Rect.unit (s := S2048x2048) (k0_off47 c) ![256, 384] (k0_off47_inb c), k0_pay48 (F := Ideal) (View.readAt (Elt Ideal) (Memref.whole cc0_scratch0 : Memref sig .tc .vmem S2048x2048 .f32).view (Rect.unit (s := S2048x2048) (k0_off47 c) ![256, 384] (k0_off47_inb c)).toLoadRect f3) (View.readAt (Elt Ideal) (Memref.whole cc0_scratch4 : Memref sig .tc .vmem S1792x384 .bf16).view (Rect.unit (s := S1792x384) (k0_off36 c) ![256, 384] (k0_off36_inb c)).toLoadRect fl)⟩]) := fun fl =>
    AccInv.mk6 (LJ_cons (k := 0) (k0_off47_inb c) _ _ (off47_eq c) (Or.inr (show colLo (0 : Fin 6).val + wOf 0 ≤ 1152 from by decide)) (LJ_nil hA.get0))
      (LJ_cons (k := 1) (k0_off47_inb c) _ _ (off47_eq c) (Or.inr (show colLo (1 : Fin 6).val + wOf 1 ≤ 1152 from by decide)) (LJ_nil hA.get1))
      (LJ_cons (k := 2) (k0_off47_inb c) _ _ (off47_eq c) (Or.inr (show colLo (2 : Fin 6).val + wOf 2 ≤ 1152 from by decide)) (LJ_nil hA.get2))
      (J2e_cons A B (k0_off47_inb c) _ [] (off47_eq c)
        (Or.inr (by
          show (cx c * 1024 + cy c * 512 + (1 - cz c) * 256) + 256 ≤ cx c * 1024 + cy c * 512 + cz c * 256 ∨ cx c * 1024 + cy c * 512 + cz c * 256 + 256 ≤ cx c * 1024 + cy c * 512 + (1 - cz c) * 256
          have := cz_le c
          omega))
        (J2e_nil A B (J2e_of_J2 A B hJ2)))
      (LJ_cons (k := 4) (k0_off47_inb c) _ _ (off47_eq c) (Or.inl (show 1152 + 384 ≤ colLo (4 : Fin 6).val from by decide)) (LJ_nil hA.get4))
      (LJ_cons (k := 5) (k0_off47_inb c) _ _ (off47_eq c) (Or.inl (show 1152 + 384 ≤ colLo (5 : Fin 6).val from by decide)) (LJ_nil hA.get5))
  have hpost : ∀ r : (Σ' (v736 : BitVec 32) (v755 : BitVec 32), BitVec 32), (iprop(⌜r = ⟨Scalar.addi v412 (Scalar.muli v9 256#32), ⟨Scalar.xori v2 4#32, 1#32⟩⟩⌝ ∗ (∃ (fl : Buf (Elt Ideal) ((commM3_1 : Memref sig .tc .vmem S512x384 .bf16).view.loc (c : Thread nD τ))) (fs : Buf (Elt Ideal) ((stgM3_1 : Memref sig .tc .vmem S512x384 .bf16).view.loc (c : Thread nD τ))), ⌜(Vreal A B).rs3_1 (nbr 1 c) ((commM3_1 : Memref sig .tc .vmem S512x384 .bf16).view.read (Elt Ideal) fl)⌝
            ∗ heldW c (commM3_1 : Memref sig .tc .vmem S512x384 .bf16) fl
            ∗ owes (c : Thread nD τ) (Owe c 18) (insert ((CK.rsR 3 1).sem, ()) (insert ((CK.rsS 3 1).sem, ()) W))
            ∗ atPos ER (cell c (.rsS 3 1)) 1 ∅ 0 ∗ atPos ER (cell c (.rsR 3 1)) 1 ∅ 0
            ∗ heldW c (Memref.whole cc0_scratch0 : Memref sig .tc .vmem S2048x2048 .f32) ((Memref.whole cc0_scratch0 : Memref sig .tc .vmem S2048x2048 .f32).view.writes (Elt Ideal) f3 [⟨Rect.unit (s := S2048x2048) (k0_off47 c) ![256, 384] (k0_off47_inb c), k0_pay48 (F := Ideal) (View.readAt (Elt Ideal) (Memref.whole cc0_scratch0 : Memref sig .tc .vmem S2048x2048 .f32).view (Rect.unit (s := S2048x2048) (k0_off47 c) ![256, 384] (k0_off47_inb c)).toLoadRect f3) (View.readAt (Elt Ideal) (Memref.whole cc0_scratch4 : Memref sig .tc .vmem S1792x384 .bf16).view (Rect.unit (s := S1792x384) (k0_off36 c) ![256, 384] (k0_off36_inb c)).toLoadRect fl)⟩])
            ∗ heldW c (stgM3_1 : Memref sig .tc .vmem S512x384 .bf16) (View.write (Elt Ideal) ((Memref.whole cc0_scratch10 : Memref sig .tc .vmem S1024x384 .bf16).access (Rect.unit (s := S1024x384) ![0, 0] ![256, 384] inb_S1024x384_S256x384_0_0)) fs (k0_pay49 (F := Ideal) ((Memref.whole cc0_scratch0 : Memref sig .tc .vmem S2048x2048 .f32).view.readCov [⟨Rect.unit (s := S2048x2048) (k0_off47 c) ![256, 384] (k0_off47_inb c), k0_pay48 (F := Ideal) (View.readAt (Elt Ideal) (Memref.whole cc0_scratch0 : Memref sig .tc .vmem S2048x2048 .f32).view (Rect.unit (s := S2048x2048) (k0_off47 c) ![256, 384] (k0_off47_inb c)).toLoadRect f3) (View.readAt (Elt Ideal) (Memref.whole cc0_scratch4 : Memref sig .tc .vmem S1792x384 .bf16).view (Rect.unit (s := S1792x384) (k0_off36 c) ![256, 384] (k0_off36_inb c)).toLoadRect fl)⟩] (Rect.unit (s := S2048x2048) (k0_off47 c) ![256, 384] (k0_off47_inb c)).toLoadRect)) Finset.univ))) : sProp 𝕄) ⊢ iprop(⌜r = ⟨Scalar.addi v412 (Scalar.muli v9 256#32), ⟨Scalar.xori v2 4#32, 1#32⟩⟩⌝ ∗ (∃ (fl : Buf (Elt Ideal) ((commM3_1 : Memref sig .tc .vmem S512x384 .bf16).view.loc (c : Thread nD τ))) (fs : Buf (Elt Ideal) ((stgM3_1 : Memref sig .tc .vmem S512x384 .bf16).view.loc (c : Thread nD τ))), ⌜(Vreal A B).rs3_1 (nbr 1 c) ((commM3_1 : Memref sig .tc .vmem S512x384 .bf16).view.read (Elt Ideal) fl)⌝
            ∗ ⌜AccInv A B c ![4, 4, 4, 3, 2, 2] ((Memref.whole cc0_scratch0 : Memref sig .tc .vmem S2048x2048 .f32).view.writes (Elt Ideal) f3 [⟨Rect.unit (s := S2048x2048) (k0_off47 c) ![256, 384] (k0_off47_inb c), k0_pay48 (F := Ideal) (View.readAt (Elt Ideal) (Memref.whole cc0_scratch0 : Memref sig .tc .vmem S2048x2048 .f32).view (Rect.unit (s := S2048x2048) (k0_off47 c) ![256, 384] (k0_off47_inb c)).toLoadRect f3) (View.readAt (Elt Ideal) (Memref.whole cc0_scratch4 : Memref sig .tc .vmem S1792x384 .bf16).view (Rect.unit (s := S1792x384) (k0_off36 c) ![256, 384] (k0_off36_inb c)).toLoadRect fl)⟩])⌝
            ∗ ⌜(Vreal A B).rs3_2 c ((stgM3_2 : Memref sig .tc .vmem S256x384 .bf16).view.read (Elt Ideal) (View.write (Elt Ideal) ((Memref.whole cc0_scratch10 : Memref sig .tc .vmem S1024x384 .bf16).access (Rect.unit (s := S1024x384) ![0, 0] ![256, 384] inb_S1024x384_S256x384_0_0)) fs (k0_pay49 (F := Ideal) ((Memref.whole cc0_scratch0 : Memref sig .tc .vmem S2048x2048 .f32).view.readCov [⟨Rect.unit (s := S2048x2048) (k0_off47 c) ![256, 384] (k0_off47_inb c), k0_pay48 (F := Ideal) (View.readAt (Elt Ideal) (Memref.whole cc0_scratch0 : Memref sig .tc .vmem S2048x2048 .f32).view (Rect.unit (s := S2048x2048) (k0_off47 c) ![256, 384] (k0_off47_inb c)).toLoadRect f3) (View.readAt (Elt Ideal) (Memref.whole cc0_scratch4 : Memref sig .tc .vmem S1792x384 .bf16).view (Rect.unit (s := S1792x384) (k0_off36 c) ![256, 384] (k0_off36_inb c)).toLoadRect fl)⟩] (Rect.unit (s := S2048x2048) (k0_off47 c) ![256, 384] (k0_off47_inb c)).toLoadRect)) Finset.univ))⌝
            ∗ heldW c (commM3_1 : Memref sig .tc .vmem S512x384 .bf16) fl
            ∗ owes (c : Thread nD τ) (Owe c 18) (insert ((CK.rsR 3 1).sem, ()) (insert ((CK.rsS 3 1).sem, ()) W))
            ∗ atPos ER (cell c (.rsS 3 1)) 1 ∅ 0 ∗ atPos ER (cell c (.rsR 3 1)) 1 ∅ 0
            ∗ heldW c (Memref.whole cc0_scratch0 : Memref sig .tc .vmem S2048x2048 .f32) ((Memref.whole cc0_scratch0 : Memref sig .tc .vmem S2048x2048 .f32).view.writes (Elt Ideal) f3 [⟨Rect.unit (s := S2048x2048) (k0_off47 c) ![256, 384] (k0_off47_inb c), k0_pay48 (F := Ideal) (View.readAt (Elt Ideal) (Memref.whole cc0_scratch0 : Memref sig .tc .vmem S2048x2048 .f32).view (Rect.unit (s := S2048x2048) (k0_off47 c) ![256, 384] (k0_off47_inb c)).toLoadRect f3) (View.readAt (Elt Ideal) (Memref.whole cc0_scratch4 : Memref sig .tc .vmem S1792x384 .bf16).view (Rect.unit (s := S1792x384) (k0_off36 c) ![256, 384] (k0_off36_inb c)).toLoadRect fl)⟩])
            ∗ heldW c (stgM3_1 : Memref sig .tc .vmem S512x384 .bf16) (View.write (Elt Ideal) ((Memref.whole cc0_scratch10 : Memref sig .tc .vmem S1024x384 .bf16).access (Rect.unit (s := S1024x384) ![0, 0] ![256, 384] inb_S1024x384_S256x384_0_0)) fs (k0_pay49 (F := Ideal) ((Memref.whole cc0_scratch0 : Memref sig .tc .vmem S2048x2048 .f32).view.readCov [⟨Rect.unit (s := S2048x2048) (k0_off47 c) ![256, 384] (k0_off47_inb c), k0_pay48 (F := Ideal) (View.readAt (Elt Ideal) (Memref.whole cc0_scratch0 : Memref sig .tc .vmem S2048x2048 .f32).view (Rect.unit (s := S2048x2048) (k0_off47 c) ![256, 384] (k0_off47_inb c)).toLoadRect f3) (View.readAt (Elt Ideal) (Memref.whole cc0_scratch4 : Memref sig .tc .vmem S1792x384 .bf16).view (Rect.unit (s := S1792x384) (k0_off36 c) ![256, 384] (k0_off36_inb c)).toLoadRect fl)⟩] (Rect.unit (s := S2048x2048) (k0_off47 c) ![256, 384] (k0_off47_inb c)).toLoadRect)) Finset.univ))) := by
    intro r
    iintro ⟨%hr, %fl, %fs, %hfl, H⟩
    isplitr; · ipureintro; exact hr
    iexists fl
    iexists fs
    isplitr; · ipureintro; exact hfl
    isplitr; · ipureintro; exact hacc fl
    isplitr; · ipureintro; exact val_rs3_2_of A B c f3 fs fl (fun r j => acc_send2_3 A B hJ2 r j) hfl
    iexact H
  iapply (wp_mono frame (wpE (defs₀ (F := Ideal)) 𝒱₀ c none) Set.univ hpost)
  iapply (part24_run (Vreal A B) c κw κv W v2 v9 v412 v431 f3)
  iexact Hpre

set_option maxHeartbeats 2000000 in
include hagree in
theorem part25_real (c : Dev nD) (κs κr κw : ℕ) (W : Waits sig Unit) (v412 v485 v736 v755 c1_i32_583 : BitVec 32) (f3 : Buf (Elt Ideal) ((Memref.whole cc0_scratch0 : Memref sig .tc .vmem S2048x2048 .f32).view.loc (c : Thread nD τ))) (f13 : Buf (Elt Ideal) ((stgM3_1 : Memref sig .tc .vmem S512x384 .bf16).view.loc (c : Thread nD τ))) (fl : Buf (Elt Ideal) ((commM3_1 : Memref sig .tc .vmem S512x384 .bf16).view.loc (c : Thread nD τ))) :
    iprop((cellInv ER (sched (Vreal A B)) κs (cell c (.rsS 3 2)) ∗ cellInv ER (sched (Vreal A B)) κr (cell (nbr 2 c) (.rsR 3 2))
        ∗ reached ER (cell c (.rsS 3 2)) 0 ∗ reached ER (cell (nbr 2 c) (.rsR 3 2)) 0
        ∗ dutyTok ER (cell c (.rsS 3 2)) 0 (0 : Fin 3) ∗ dutyTok ER (cell (nbr 2 c) (.rsR 3 2)) 0 (0 : Fin 3)
        ∗ ptsAny (F := Ideal) (nbr 2 c) commM3_2
        ∗ owes (c : Thread nD τ) (Owe c 18) W
        ∗ heldW c (stgM3_1 : Memref sig .tc .vmem S512x384 .bf16) f13
        ∗ heldW c (Memref.whole cc0_scratch0 : Memref sig .tc .vmem S2048x2048 .f32) f3
        ∗ heldW c (commM3_1 : Memref sig .tc .vmem S512x384 .bf16) fl
        ∗ levAts L lv
        ∗ cellInv ER (sched (Vreal A B)) κw (cell c (.rsS 4 1)) ∗ cred (tallyAt (cell c (.rsS 4 1)) () (amt (.rsS 4 1))) ∗ atPos ER (cell c (.rsS 4 1)) 0 ∅ 0)
        ∗ ⌜AccInv A B c ![4, 4, 4, 3, 2, 2] f3⌝
        ∗ ⌜(Vreal A B).rs3_2 c ((stgM3_2 : Memref sig .tc .vmem S256x384 .bf16).view.read (Elt Ideal) f13)⌝
        ∗ ⌜(Vreal A B).rs3_1 (nbr 1 c) ((commM3_1 : Memref sig .tc .vmem S512x384 .bf16).view.read (Elt Ideal) fl)⌝)
      ⊢ wp frame (wpE (defs₀ (F := Ideal)) 𝒱₀ c none) Set.univ
          (k0_part25 (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23 c v412 v485 v736 v755 c1_i32_583)
          (fun r => iprop((⌜r = ⟨⟩⌝ ∗ cred (tallyAt (cell c (.rsS 3 2)) () (amt (.rsR 3 2)))
            ∗ owes (c : Thread nD τ) (Owe c 19) (insert ((CK.rsS 4 1).sem, ()) W)
            ∗ heldW c (Memref.whole cc0_scratch0 : Memref sig .tc .vmem S2048x2048 .f32) ((Memref.whole cc0_scratch0 : Memref sig .tc .vmem S2048x2048 .f32).view.writes (Elt Ideal) f3 [⟨Rect.unit (s := S2048x2048) (k0_off48 c) ![256, 384] (k0_off48_inb c), k0_pay50 (F := Ideal) (View.readAt (Elt Ideal) (Memref.whole cc0_scratch0 : Memref sig .tc .vmem S2048x2048 .f32).view (Rect.unit (s := S2048x2048) (k0_off48 c) ![256, 384] (k0_off48_inb c)).toLoadRect f3) (View.readAt (Elt Ideal) (Memref.whole cc0_scratch4 : Memref sig .tc .vmem S1792x384 .bf16).view (Rect.unit (s := S1792x384) (k0_off38 c) ![256, 384] (k0_off38_inb c)).toLoadRect fl)⟩])
            ∗ heldW c (commM3_1 : Memref sig .tc .vmem S512x384 .bf16) fl
            ∗ ((stgM3_1 : Memref sig .tc .vmem S512x384 .bf16).view.loc (c : Thread nD τ) ↦[(stgM3_1 : Memref sig .tc .vmem S512x384 .bf16).view.set \ (stgM3_2 : Memref sig .tc .vmem S256x384 .bf16).view.set]{fullShare} f13)
            ∗ atPos ER (cell c (.rsS 4 1)) 1 ∅ 0
            ∗ ptsAny (F := Ideal) c stgM4_1)
            ∗ ⌜AccInv A B c ![4, 4, 4, 4, 2, 2] ((Memref.whole cc0_scratch0 : Memref sig .tc .vmem S2048x2048 .f32).view.writes (Elt Ideal) f3 [⟨Rect.unit (s := S2048x2048) (k0_off48 c) ![256, 384] (k0_off48_inb c), k0_pay50 (F := Ideal) (View.readAt (Elt Ideal) (Memref.whole cc0_scratch0 : Memref sig .tc .vmem S2048x2048 .f32).view (Rect.unit (s := S2048x2048) (k0_off48 c) ![256, 384] (k0_off48_inb c)).toLoadRect f3) (View.readAt (Elt Ideal) (Memref.whole cc0_scratch4 : Memref sig .tc .vmem S1792x384 .bf16).view (Rect.unit (s := S1792x384) (k0_off38 c) ![256, 384] (k0_off38_inb c)).toLoadRect fl)⟩])⌝)) := by
  iintro ⟨Hpre, %h1, %h2, %h3⟩
  have hA := h1
  have hl := h3
  have hout : AccInv A B c ![4, 4, 4, 4, 2, 2] ((Memref.whole cc0_scratch0 : Memref sig .tc .vmem S2048x2048 .f32).view.writes (Elt Ideal) f3 [⟨Rect.unit (s := S2048x2048) (k0_off48 c) ![256, 384] (k0_off48_inb c), k0_pay50 (F := Ideal) (View.readAt (Elt Ideal) (Memref.whole cc0_scratch0 : Memref sig .tc .vmem S2048x2048 .f32).view (Rect.unit (s := S2048x2048) (k0_off48 c) ![256, 384] (k0_off48_inb c)).toLoadRect f3) (View.readAt (Elt Ideal) (Memref.whole cc0_scratch4 : Memref sig .tc .vmem S1792x384 .bf16).view (Rect.unit (s := S1792x384) (k0_off38 c) ![256, 384] (k0_off38_inb c)).toLoadRect fl)⟩]) :=
    AccInv.mk6 (LJ_cons (k := 0) (k0_off48_inb c) _ _ (off48_eq c) (Or.inr (show colLo (0 : Fin 6).val + wOf 0 ≤ 1152 from by decide)) (LJ_nil hA.get0))
      (LJ_cons (k := 1) (k0_off48_inb c) _ _ (off48_eq c) (Or.inr (show colLo (1 : Fin 6).val + wOf 1 ≤ 1152 from by decide)) (LJ_nil hA.get1))
      (LJ_cons (k := 2) (k0_off48_inb c) _ _ (off48_eq c) (Or.inr (show colLo (2 : Fin 6).val + wOf 2 ≤ 1152 from by decide)) (LJ_nil hA.get2))
      (J3_3_stored' A B c f3 fl hA.get3 hl)
      (LJ_cons (k := 4) (k0_off48_inb c) _ _ (off48_eq c) (Or.inl (show 1152 + 384 ≤ colLo (4 : Fin 6).val from by decide)) (LJ_nil hA.get4))
      (LJ_cons (k := 5) (k0_off48_inb c) _ _ (off48_eq c) (Or.inl (show 1152 + 384 ≤ colLo (5 : Fin 6).val from by decide)) (LJ_nil hA.get5))
  have hpost : ∀ r : (PUnit), (iprop(⌜r = ⟨⟩⌝ ∗ cred (tallyAt (cell c (.rsS 3 2)) () (amt (.rsR 3 2)))
            ∗ owes (c : Thread nD τ) (Owe c 19) (insert ((CK.rsS 4 1).sem, ()) W)
            ∗ heldW c (Memref.whole cc0_scratch0 : Memref sig .tc .vmem S2048x2048 .f32) ((Memref.whole cc0_scratch0 : Memref sig .tc .vmem S2048x2048 .f32).view.writes (Elt Ideal) f3 [⟨Rect.unit (s := S2048x2048) (k0_off48 c) ![256, 384] (k0_off48_inb c), k0_pay50 (F := Ideal) (View.readAt (Elt Ideal) (Memref.whole cc0_scratch0 : Memref sig .tc .vmem S2048x2048 .f32).view (Rect.unit (s := S2048x2048) (k0_off48 c) ![256, 384] (k0_off48_inb c)).toLoadRect f3) (View.readAt (Elt Ideal) (Memref.whole cc0_scratch4 : Memref sig .tc .vmem S1792x384 .bf16).view (Rect.unit (s := S1792x384) (k0_off38 c) ![256, 384] (k0_off38_inb c)).toLoadRect fl)⟩])
            ∗ heldW c (commM3_1 : Memref sig .tc .vmem S512x384 .bf16) fl
            ∗ ((stgM3_1 : Memref sig .tc .vmem S512x384 .bf16).view.loc (c : Thread nD τ) ↦[(stgM3_1 : Memref sig .tc .vmem S512x384 .bf16).view.set \ (stgM3_2 : Memref sig .tc .vmem S256x384 .bf16).view.set]{fullShare} f13)
            ∗ atPos ER (cell c (.rsS 4 1)) 1 ∅ 0
            ∗ ptsAny (F := Ideal) c stgM4_1) : sProp 𝕄) ⊢ iprop((⌜r = ⟨⟩⌝ ∗ cred (tallyAt (cell c (.rsS 3 2)) () (amt (.rsR 3 2)))
            ∗ owes (c : Thread nD τ) (Owe c 19) (insert ((CK.rsS 4 1).sem, ()) W)
            ∗ heldW c (Memref.whole cc0_scratch0 : Memref sig .tc .vmem S2048x2048 .f32) ((Memref.whole cc0_scratch0 : Memref sig .tc .vmem S2048x2048 .f32).view.writes (Elt Ideal) f3 [⟨Rect.unit (s := S2048x2048) (k0_off48 c) ![256, 384] (k0_off48_inb c), k0_pay50 (F := Ideal) (View.readAt (Elt Ideal) (Memref.whole cc0_scratch0 : Memref sig .tc .vmem S2048x2048 .f32).view (Rect.unit (s := S2048x2048) (k0_off48 c) ![256, 384] (k0_off48_inb c)).toLoadRect f3) (View.readAt (Elt Ideal) (Memref.whole cc0_scratch4 : Memref sig .tc .vmem S1792x384 .bf16).view (Rect.unit (s := S1792x384) (k0_off38 c) ![256, 384] (k0_off38_inb c)).toLoadRect fl)⟩])
            ∗ heldW c (commM3_1 : Memref sig .tc .vmem S512x384 .bf16) fl
            ∗ ((stgM3_1 : Memref sig .tc .vmem S512x384 .bf16).view.loc (c : Thread nD τ) ↦[(stgM3_1 : Memref sig .tc .vmem S512x384 .bf16).view.set \ (stgM3_2 : Memref sig .tc .vmem S256x384 .bf16).view.set]{fullShare} f13)
            ∗ atPos ER (cell c (.rsS 4 1)) 1 ∅ 0
            ∗ ptsAny (F := Ideal) c stgM4_1)
            ∗ ⌜AccInv A B c ![4, 4, 4, 4, 2, 2] ((Memref.whole cc0_scratch0 : Memref sig .tc .vmem S2048x2048 .f32).view.writes (Elt Ideal) f3 [⟨Rect.unit (s := S2048x2048) (k0_off48 c) ![256, 384] (k0_off48_inb c), k0_pay50 (F := Ideal) (View.readAt (Elt Ideal) (Memref.whole cc0_scratch0 : Memref sig .tc .vmem S2048x2048 .f32).view (Rect.unit (s := S2048x2048) (k0_off48 c) ![256, 384] (k0_off48_inb c)).toLoadRect f3) (View.readAt (Elt Ideal) (Memref.whole cc0_scratch4 : Memref sig .tc .vmem S1792x384 .bf16).view (Rect.unit (s := S1792x384) (k0_off38 c) ![256, 384] (k0_off38_inb c)).toLoadRect fl)⟩])⌝) := by
    intro r
    iintro H
    isplitl [H]; · iexact H
    ipureintro; exact hout
  iapply (wp_mono frame (wpE (defs₀ (F := Ideal)) 𝒱₀ c none) Set.univ hpost)
  iapply (part25_run (Vreal A B) c κs κr κw W v412 v485 v736 v755 c1_i32_583 f3 f13 fl (h2))
  iexact Hpre

set_option maxHeartbeats 2000000 in
include hagree in
theorem part26_real (c : Dev nD) (κv κs κr : ℕ) (W : Waits sig Unit) (v2 v6 v466 : BitVec 32) (f3 : Buf (Elt Ideal) ((Memref.whole cc0_scratch0 : Memref sig .tc .vmem S2048x2048 .f32).view.loc (c : Thread nD τ))) (f14 : Buf (Elt Ideal) ((stgM4_1 : Memref sig .tc .vmem S512x256 .bf16).view.loc (c : Thread nD τ))) :
    iprop((owes (c : Thread nD τ) (Owe c 19) W ∗ levAts L lv
        ∗ cellInv ER (sched (Vreal A B)) κv (cell c (.rsR 4 1)) ∗ cred (tallyAt (cell c (.rsR 4 1)) () (amt (.rsR 4 1))) ∗ atPos ER (cell c (.rsR 4 1)) 0 ∅ 0
        ∗ heldW c (Memref.whole cc0_scratch0 : Memref sig .tc .vmem S2048x2048 .f32) f3
        ∗ heldW c (stgM4_1 : Memref sig .tc .vmem S512x256 .bf16) f14
        ∗ cellInv ER (sched (Vreal A B)) κs (cell c (.rsS 4 2)) ∗ cellInv ER (sched (Vreal A B)) κr (cell (nbr 0 c) (.rsR 4 2))
        ∗ reached ER (cell c (.rsS 4 2)) 0 ∗ reached ER (cell (nbr 0 c) (.rsR 4 2)) 0
        ∗ dutyTok ER (cell c (.rsS 4 2)) 0 (0 : Fin 3) ∗ dutyTok ER (cell (nbr 0 c) (.rsR 4 2)) 0 (0 : Fin 3)
        ∗ ptsAny (F := Ideal) (nbr 0 c) commM4_2)
        ∗ ⌜AccInv A B c ![4, 4, 4, 4, 2, 2] f3⌝)
      ⊢ wp frame (wpE (defs₀ (F := Ideal)) 𝒱₀ c none) Set.univ
          (k0_part26 (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23 c v2 v6 v466)
          (fun r => iprop(⌜r = ⟨Scalar.addi v466 (Scalar.muli v6 256#32), Scalar.xori v2 1#32⟩⌝ ∗ (∃ fl : Buf (Elt Ideal) ((commM4_1 : Memref sig .tc .vmem S512x256 .bf16).view.loc (c : Thread nD τ)), ⌜(Vreal A B).rs4_1 (nbr 2 c) ((commM4_1 : Memref sig .tc .vmem S512x256 .bf16).view.read (Elt Ideal) fl)⌝
            ∗ ⌜AccInv A B c ![4, 4, 4, 4, 3, 2] ((Memref.whole cc0_scratch0 : Memref sig .tc .vmem S2048x2048 .f32).view.writes (Elt Ideal) f3 [⟨Rect.unit (s := S2048x2048) (k0_off49 c) ![256, 256] (k0_off49_inb c), k0_pay51 (F := Ideal) (View.readAt (Elt Ideal) (Memref.whole cc0_scratch0 : Memref sig .tc .vmem S2048x2048 .f32).view (Rect.unit (s := S2048x2048) (k0_off49 c) ![256, 256] (k0_off49_inb c)).toLoadRect f3) (View.readAt (Elt Ideal) (Memref.whole cc0_scratch5 : Memref sig .tc .vmem S1792x256 .bf16).view (Rect.unit (s := S1792x256) (k0_off50 c) ![256, 256] (k0_off50_inb c)).toLoadRect fl)⟩])⌝
            ∗ heldW c (commM4_1 : Memref sig .tc .vmem S512x256 .bf16) fl
            ∗ cred (tallyAt (cell c (.rsS 4 2)) () (amt (.rsR 4 2)))
            ∗ owes (c : Thread nD τ) (Owe c 20) (insert ((CK.rsR 4 1).sem, ()) W)
            ∗ atPos ER (cell c (.rsR 4 1)) 1 ∅ 0
            ∗ heldW c (Memref.whole cc0_scratch0 : Memref sig .tc .vmem S2048x2048 .f32) ((Memref.whole cc0_scratch0 : Memref sig .tc .vmem S2048x2048 .f32).view.writes (Elt Ideal) f3 [⟨Rect.unit (s := S2048x2048) (k0_off49 c) ![256, 256] (k0_off49_inb c), k0_pay51 (F := Ideal) (View.readAt (Elt Ideal) (Memref.whole cc0_scratch0 : Memref sig .tc .vmem S2048x2048 .f32).view (Rect.unit (s := S2048x2048) (k0_off49 c) ![256, 256] (k0_off49_inb c)).toLoadRect f3) (View.readAt (Elt Ideal) (Memref.whole cc0_scratch5 : Memref sig .tc .vmem S1792x256 .bf16).view (Rect.unit (s := S1792x256) (k0_off50 c) ![256, 256] (k0_off50_inb c)).toLoadRect fl)⟩])
            ∗ ((stgM4_1 : Memref sig .tc .vmem S512x256 .bf16).view.loc (c : Thread nD τ) ↦[(stgM4_1 : Memref sig .tc .vmem S512x256 .bf16).view.set \ (stgM4_2 : Memref sig .tc .vmem S256x256 .bf16).view.set]{fullShare} (View.write (Elt Ideal) ((Memref.whole cc0_scratch11 : Memref sig .tc .vmem S1024x256 .bf16).access (Rect.unit (s := S1024x256) ![0, 0] ![256, 256] inb_S1024x256_S256x256_0_0)) f14 (k0_pay52 (F := Ideal) ((Memref.whole cc0_scratch0 : Memref sig .tc .vmem S2048x2048 .f32).view.readCov [⟨Rect.unit (s := S2048x2048) (k0_off49 c) ![256, 256] (k0_off49_inb c), k0_pay51 (F := Ideal) (View.readAt (Elt Ideal) (Memref.whole cc0_scratch0 : Memref sig .tc .vmem S2048x2048 .f32).view (Rect.unit (s := S2048x2048) (k0_off49 c) ![256, 256] (k0_off49_inb c)).toLoadRect f3) (View.readAt (Elt Ideal) (Memref.whole cc0_scratch5 : Memref sig .tc .vmem S1792x256 .bf16).view (Rect.unit (s := S1792x256) (k0_off50 c) ![256, 256] (k0_off50_inb c)).toLoadRect fl)⟩] (Rect.unit (s := S2048x2048) (k0_off49 c) ![256, 256] (k0_off49_inb c)).toLoadRect)) Finset.univ))))) := by
  iintro ⟨Hpre, %h1⟩
  have hA := h1
  have hJ2 : J2 A B 4 256 c f3 := hA.get4
  have hacc : ∀ fl : Buf (Elt Ideal) ((commM4_1 : Memref sig .tc .vmem S512x256 .bf16).view.loc (c : Thread nD τ)), AccInv A B c ![4, 4, 4, 4, 3, 2] ((Memref.whole cc0_scratch0 : Memref sig .tc .vmem S2048x2048 .f32).view.writes (Elt Ideal) f3 [⟨Rect.unit (s := S2048x2048) (k0_off49 c) ![256, 256] (k0_off49_inb c), k0_pay51 (F := Ideal) (View.readAt (Elt Ideal) (Memref.whole cc0_scratch0 : Memref sig .tc .vmem S2048x2048 .f32).view (Rect.unit (s := S2048x2048) (k0_off49 c) ![256, 256] (k0_off49_inb c)).toLoadRect f3) (View.readAt (Elt Ideal) (Memref.whole cc0_scratch5 : Memref sig .tc .vmem S1792x256 .bf16).view (Rect.unit (s := S1792x256) (k0_off50 c) ![256, 256] (k0_off50_inb c)).toLoadRect fl)⟩]) := fun fl =>
    AccInv.mk6 (LJ_cons (k := 0) (k0_off49_inb c) _ _ (off49_eq c) (Or.inr (show colLo (0 : Fin 6).val + wOf 0 ≤ 1536 from by decide)) (LJ_nil hA.get0))
      (LJ_cons (k := 1) (k0_off49_inb c) _ _ (off49_eq c) (Or.inr (show colLo (1 : Fin 6).val + wOf 1 ≤ 1536 from by decide)) (LJ_nil hA.get1))
      (LJ_cons (k := 2) (k0_off49_inb c) _ _ (off49_eq c) (Or.inr (show colLo (2 : Fin 6).val + wOf 2 ≤ 1536 from by decide)) (LJ_nil hA.get2))
      (LJ_cons (k := 3) (k0_off49_inb c) _ _ (off49_eq c) (Or.inr (show colLo (3 : Fin 6).val + wOf 3 ≤ 1536 from by decide)) (LJ_nil hA.get3))
      (J2e_cons A B (k0_off49_inb c) _ [] (off49_eq c)
        (Or.inr (by
          show (cy c * 1024 + cz c * 512 + (1 - cx c) * 256) + 256 ≤ cy c * 1024 + cz c * 512 + cx c * 256 ∨ cy c * 1024 + cz c * 512 + cx c * 256 + 256 ≤ cy c * 1024 + cz c * 512 + (1 - cx c) * 256
          have := cx_le c
          omega))
        (J2e_nil A B (J2e_of_J2 A B hJ2)))
      (LJ_cons (k := 5) (k0_off49_inb c) _ _ (off49_eq c) (Or.inl (show 1536 + 256 ≤ colLo (5 : Fin 6).val from by decide)) (LJ_nil hA.get5))
  have hpost : ∀ r : (Σ' (v790 : BitVec 32), BitVec 32), (iprop(⌜r = ⟨Scalar.addi v466 (Scalar.muli v6 256#32), Scalar.xori v2 1#32⟩⌝ ∗ (∃ fl : Buf (Elt Ideal) ((commM4_1 : Memref sig .tc .vmem S512x256 .bf16).view.loc (c : Thread nD τ)), ⌜(Vreal A B).rs4_1 (nbr 2 c) ((commM4_1 : Memref sig .tc .vmem S512x256 .bf16).view.read (Elt Ideal) fl)⌝
            ∗ heldW c (commM4_1 : Memref sig .tc .vmem S512x256 .bf16) fl
            ∗ cred (tallyAt (cell c (.rsS 4 2)) () (amt (.rsR 4 2)))
            ∗ owes (c : Thread nD τ) (Owe c 20) (insert ((CK.rsR 4 1).sem, ()) W)
            ∗ atPos ER (cell c (.rsR 4 1)) 1 ∅ 0
            ∗ heldW c (Memref.whole cc0_scratch0 : Memref sig .tc .vmem S2048x2048 .f32) ((Memref.whole cc0_scratch0 : Memref sig .tc .vmem S2048x2048 .f32).view.writes (Elt Ideal) f3 [⟨Rect.unit (s := S2048x2048) (k0_off49 c) ![256, 256] (k0_off49_inb c), k0_pay51 (F := Ideal) (View.readAt (Elt Ideal) (Memref.whole cc0_scratch0 : Memref sig .tc .vmem S2048x2048 .f32).view (Rect.unit (s := S2048x2048) (k0_off49 c) ![256, 256] (k0_off49_inb c)).toLoadRect f3) (View.readAt (Elt Ideal) (Memref.whole cc0_scratch5 : Memref sig .tc .vmem S1792x256 .bf16).view (Rect.unit (s := S1792x256) (k0_off50 c) ![256, 256] (k0_off50_inb c)).toLoadRect fl)⟩])
            ∗ ((stgM4_1 : Memref sig .tc .vmem S512x256 .bf16).view.loc (c : Thread nD τ) ↦[(stgM4_1 : Memref sig .tc .vmem S512x256 .bf16).view.set \ (stgM4_2 : Memref sig .tc .vmem S256x256 .bf16).view.set]{fullShare} (View.write (Elt Ideal) ((Memref.whole cc0_scratch11 : Memref sig .tc .vmem S1024x256 .bf16).access (Rect.unit (s := S1024x256) ![0, 0] ![256, 256] inb_S1024x256_S256x256_0_0)) f14 (k0_pay52 (F := Ideal) ((Memref.whole cc0_scratch0 : Memref sig .tc .vmem S2048x2048 .f32).view.readCov [⟨Rect.unit (s := S2048x2048) (k0_off49 c) ![256, 256] (k0_off49_inb c), k0_pay51 (F := Ideal) (View.readAt (Elt Ideal) (Memref.whole cc0_scratch0 : Memref sig .tc .vmem S2048x2048 .f32).view (Rect.unit (s := S2048x2048) (k0_off49 c) ![256, 256] (k0_off49_inb c)).toLoadRect f3) (View.readAt (Elt Ideal) (Memref.whole cc0_scratch5 : Memref sig .tc .vmem S1792x256 .bf16).view (Rect.unit (s := S1792x256) (k0_off50 c) ![256, 256] (k0_off50_inb c)).toLoadRect fl)⟩] (Rect.unit (s := S2048x2048) (k0_off49 c) ![256, 256] (k0_off49_inb c)).toLoadRect)) Finset.univ)))) : sProp 𝕄) ⊢ iprop(⌜r = ⟨Scalar.addi v466 (Scalar.muli v6 256#32), Scalar.xori v2 1#32⟩⌝ ∗ (∃ fl : Buf (Elt Ideal) ((commM4_1 : Memref sig .tc .vmem S512x256 .bf16).view.loc (c : Thread nD τ)), ⌜(Vreal A B).rs4_1 (nbr 2 c) ((commM4_1 : Memref sig .tc .vmem S512x256 .bf16).view.read (Elt Ideal) fl)⌝
            ∗ ⌜AccInv A B c ![4, 4, 4, 4, 3, 2] ((Memref.whole cc0_scratch0 : Memref sig .tc .vmem S2048x2048 .f32).view.writes (Elt Ideal) f3 [⟨Rect.unit (s := S2048x2048) (k0_off49 c) ![256, 256] (k0_off49_inb c), k0_pay51 (F := Ideal) (View.readAt (Elt Ideal) (Memref.whole cc0_scratch0 : Memref sig .tc .vmem S2048x2048 .f32).view (Rect.unit (s := S2048x2048) (k0_off49 c) ![256, 256] (k0_off49_inb c)).toLoadRect f3) (View.readAt (Elt Ideal) (Memref.whole cc0_scratch5 : Memref sig .tc .vmem S1792x256 .bf16).view (Rect.unit (s := S1792x256) (k0_off50 c) ![256, 256] (k0_off50_inb c)).toLoadRect fl)⟩])⌝
            ∗ heldW c (commM4_1 : Memref sig .tc .vmem S512x256 .bf16) fl
            ∗ cred (tallyAt (cell c (.rsS 4 2)) () (amt (.rsR 4 2)))
            ∗ owes (c : Thread nD τ) (Owe c 20) (insert ((CK.rsR 4 1).sem, ()) W)
            ∗ atPos ER (cell c (.rsR 4 1)) 1 ∅ 0
            ∗ heldW c (Memref.whole cc0_scratch0 : Memref sig .tc .vmem S2048x2048 .f32) ((Memref.whole cc0_scratch0 : Memref sig .tc .vmem S2048x2048 .f32).view.writes (Elt Ideal) f3 [⟨Rect.unit (s := S2048x2048) (k0_off49 c) ![256, 256] (k0_off49_inb c), k0_pay51 (F := Ideal) (View.readAt (Elt Ideal) (Memref.whole cc0_scratch0 : Memref sig .tc .vmem S2048x2048 .f32).view (Rect.unit (s := S2048x2048) (k0_off49 c) ![256, 256] (k0_off49_inb c)).toLoadRect f3) (View.readAt (Elt Ideal) (Memref.whole cc0_scratch5 : Memref sig .tc .vmem S1792x256 .bf16).view (Rect.unit (s := S1792x256) (k0_off50 c) ![256, 256] (k0_off50_inb c)).toLoadRect fl)⟩])
            ∗ ((stgM4_1 : Memref sig .tc .vmem S512x256 .bf16).view.loc (c : Thread nD τ) ↦[(stgM4_1 : Memref sig .tc .vmem S512x256 .bf16).view.set \ (stgM4_2 : Memref sig .tc .vmem S256x256 .bf16).view.set]{fullShare} (View.write (Elt Ideal) ((Memref.whole cc0_scratch11 : Memref sig .tc .vmem S1024x256 .bf16).access (Rect.unit (s := S1024x256) ![0, 0] ![256, 256] inb_S1024x256_S256x256_0_0)) f14 (k0_pay52 (F := Ideal) ((Memref.whole cc0_scratch0 : Memref sig .tc .vmem S2048x2048 .f32).view.readCov [⟨Rect.unit (s := S2048x2048) (k0_off49 c) ![256, 256] (k0_off49_inb c), k0_pay51 (F := Ideal) (View.readAt (Elt Ideal) (Memref.whole cc0_scratch0 : Memref sig .tc .vmem S2048x2048 .f32).view (Rect.unit (s := S2048x2048) (k0_off49 c) ![256, 256] (k0_off49_inb c)).toLoadRect f3) (View.readAt (Elt Ideal) (Memref.whole cc0_scratch5 : Memref sig .tc .vmem S1792x256 .bf16).view (Rect.unit (s := S1792x256) (k0_off50 c) ![256, 256] (k0_off50_inb c)).toLoadRect fl)⟩] (Rect.unit (s := S2048x2048) (k0_off49 c) ![256, 256] (k0_off49_inb c)).toLoadRect)) Finset.univ)))) := by
    intro r
    iintro ⟨%hr, %fl, %hfl, H⟩
    isplitr; · ipureintro; exact hr
    iexists fl
    isplitr; · ipureintro; exact hfl
    isplitr; · ipureintro; exact hacc fl
    iexact H
  iapply (wp_mono frame (wpE (defs₀ (F := Ideal)) 𝒱₀ c none) Set.univ hpost)
  iapply (part26_run (Vreal A B) c κv κs κr W v2 v6 v466 f3 f14 (fun fl hfl => val_rs4_2_of A B c f3 f14 fl (fun r j => acc_send2_4 A B hJ2 r j) hfl))
  iexact Hpre

set_option maxHeartbeats 2000000 in
include hagree in
theorem part27_real (c : Dev nD) (κw κv : ℕ) (W : Waits sig Unit) (v8 v466 v520 v539 v790 : BitVec 32) (f3 : Buf (Elt Ideal) ((Memref.whole cc0_scratch0 : Memref sig .tc .vmem S2048x2048 .f32).view.loc (c : Thread nD τ))) (fl : Buf (Elt Ideal) ((commM4_1 : Memref sig .tc .vmem S512x256 .bf16).view.loc (c : Thread nD τ))) :
    iprop((owes (c : Thread nD τ) (Owe c 20) W ∗ levAts L lv
        ∗ heldW c (Memref.whole cc0_scratch0 : Memref sig .tc .vmem S2048x2048 .f32) f3
        ∗ heldW c (commM4_1 : Memref sig .tc .vmem S512x256 .bf16) fl
        ∗ cellInv ER (sched (Vreal A B)) κw (cell c (.rsS 5 1)) ∗ cred (tallyAt (cell c (.rsS 5 1)) () (amt (.rsS 5 1))) ∗ atPos ER (cell c (.rsS 5 1)) 0 ∅ 0
        ∗ cellInv ER (sched (Vreal A B)) κv (cell c (.rsR 5 1)) ∗ cred (tallyAt (cell c (.rsR 5 1)) () (amt (.rsR 5 1))) ∗ atPos ER (cell c (.rsR 5 1)) 0 ∅ 0)
        ∗ ⌜AccInv A B c ![4, 4, 4, 4, 3, 2] f3⌝
        ∗ ⌜(Vreal A B).rs4_1 (nbr 2 c) ((commM4_1 : Memref sig .tc .vmem S512x256 .bf16).view.read (Elt Ideal) fl)⌝)
      ⊢ wp frame (wpE (defs₀ (F := Ideal)) 𝒱₀ c none) Set.univ
          (k0_part27 (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23 c v8 v466 v520 v539 v790)
          (fun r => iprop((⌜r = ⟨Scalar.addi v520 (Scalar.muli (Scalar.subi (1#32) v8) 256#32), ⟨Scalar.addi v520 (Scalar.muli v8 256#32), ⟨View.readAt (Elt Ideal) (Memref.whole cc0_scratch0 : Memref sig .tc .vmem S2048x2048 .f32).view (Rect.unit (s := S2048x2048) (k0_off53 c) ![256, 256] (k0_off53_inb c)).toLoadRect f3, Scalar.addi (1024#32) (Scalar.subi (Scalar.addi v520 (Scalar.muli (Scalar.subi (1#32) v8) 256#32)) v520)⟩⟩⟩⌝ ∗ owes (c : Thread nD τ) (Owe c 20) (insert ((CK.rsR 5 1).sem, ()) (insert ((CK.rsS 5 1).sem, ()) W))
            ∗ heldW c (Memref.whole cc0_scratch0 : Memref sig .tc .vmem S2048x2048 .f32) ((Memref.whole cc0_scratch0 : Memref sig .tc .vmem S2048x2048 .f32).view.writes (Elt Ideal) f3 [⟨Rect.unit (s := S2048x2048) (k0_off51 c) ![256, 256] (k0_off51_inb c), k0_pay53 (F := Ideal) (View.readAt (Elt Ideal) (Memref.whole cc0_scratch0 : Memref sig .tc .vmem S2048x2048 .f32).view (Rect.unit (s := S2048x2048) (k0_off51 c) ![256, 256] (k0_off51_inb c)).toLoadRect f3) (View.readAt (Elt Ideal) (Memref.whole cc0_scratch5 : Memref sig .tc .vmem S1792x256 .bf16).view (Rect.unit (s := S1792x256) (k0_off52 c) ![256, 256] (k0_off52_inb c)).toLoadRect fl)⟩])
            ∗ heldW c (commM4_1 : Memref sig .tc .vmem S512x256 .bf16) fl
            ∗ atPos ER (cell c (.rsS 5 1)) 1 ∅ 0 ∗ atPos ER (cell c (.rsR 5 1)) 1 ∅ 0
            ∗ ptsAny (F := Ideal) c stgM5_1 ∗ ptsIs c commM5_1 ((Vreal A B).rs5_1 (nbr 0 c)))
            ∗ ⌜AccInv A B c ![4, 4, 4, 4, 4, 2] ((Memref.whole cc0_scratch0 : Memref sig .tc .vmem S2048x2048 .f32).view.writes (Elt Ideal) f3 [⟨Rect.unit (s := S2048x2048) (k0_off51 c) ![256, 256] (k0_off51_inb c), k0_pay53 (F := Ideal) (View.readAt (Elt Ideal) (Memref.whole cc0_scratch0 : Memref sig .tc .vmem S2048x2048 .f32).view (Rect.unit (s := S2048x2048) (k0_off51 c) ![256, 256] (k0_off51_inb c)).toLoadRect f3) (View.readAt (Elt Ideal) (Memref.whole cc0_scratch5 : Memref sig .tc .vmem S1792x256 .bf16).view (Rect.unit (s := S1792x256) (k0_off52 c) ![256, 256] (k0_off52_inb c)).toLoadRect fl)⟩])⌝
            ∗ ⌜∀ (r' : Fin 256) (j : Fin 256), ((View.readAt (Elt Ideal) (Memref.whole cc0_scratch0 : Memref sig .tc .vmem S2048x2048 .f32).view (Rect.unit (s := S2048x2048) (k0_off53 c) ![256, 256] (k0_off53_inb c)).toLoadRect f3) (ix2 r' j) : EReal) = share A B c.val (sendRow 5 2 c + r'.val) (colLo 5 + j.val) + share A B (nb 5 0 c).val (sendRow 5 2 c + r'.val) (colLo 5 + j.val)⌝)) := by
  iintro ⟨Hpre, %h1, %h2⟩
  have hA := h1
  have hl := h2
  have hout : AccInv A B c ![4, 4, 4, 4, 4, 2] ((Memref.whole cc0_scratch0 : Memref sig .tc .vmem S2048x2048 .f32).view.writes (Elt Ideal) f3 [⟨Rect.unit (s := S2048x2048) (k0_off51 c) ![256, 256] (k0_off51_inb c), k0_pay53 (F := Ideal) (View.readAt (Elt Ideal) (Memref.whole cc0_scratch0 : Memref sig .tc .vmem S2048x2048 .f32).view (Rect.unit (s := S2048x2048) (k0_off51 c) ![256, 256] (k0_off51_inb c)).toLoadRect f3) (View.readAt (Elt Ideal) (Memref.whole cc0_scratch5 : Memref sig .tc .vmem S1792x256 .bf16).view (Rect.unit (s := S1792x256) (k0_off52 c) ![256, 256] (k0_off52_inb c)).toLoadRect fl)⟩]) :=
    AccInv.mk6 (LJ_cons (k := 0) (k0_off51_inb c) _ _ (off51_eq c) (Or.inr (show colLo (0 : Fin 6).val + wOf 0 ≤ 1536 from by decide)) (LJ_nil hA.get0))
      (LJ_cons (k := 1) (k0_off51_inb c) _ _ (off51_eq c) (Or.inr (show colLo (1 : Fin 6).val + wOf 1 ≤ 1536 from by decide)) (LJ_nil hA.get1))
      (LJ_cons (k := 2) (k0_off51_inb c) _ _ (off51_eq c) (Or.inr (show colLo (2 : Fin 6).val + wOf 2 ≤ 1536 from by decide)) (LJ_nil hA.get2))
      (LJ_cons (k := 3) (k0_off51_inb c) _ _ (off51_eq c) (Or.inr (show colLo (3 : Fin 6).val + wOf 3 ≤ 1536 from by decide)) (LJ_nil hA.get3))
      (J3_4_stored' A B c f3 fl hA.get4 hl)
      (LJ_cons (k := 5) (k0_off51_inb c) _ _ (off51_eq c) (Or.inl (show 1536 + 256 ≤ colLo (5 : Fin 6).val from by decide)) (LJ_nil hA.get5))
  have hpost : ∀ r : (Σ' (v842 : BitVec 32) (v844 : BitVec 32) (v846 : Vec Ideal S256x256 .f32), BitVec 32), (iprop(⌜r = ⟨Scalar.addi v520 (Scalar.muli (Scalar.subi (1#32) v8) 256#32), ⟨Scalar.addi v520 (Scalar.muli v8 256#32), ⟨View.readAt (Elt Ideal) (Memref.whole cc0_scratch0 : Memref sig .tc .vmem S2048x2048 .f32).view (Rect.unit (s := S2048x2048) (k0_off53 c) ![256, 256] (k0_off53_inb c)).toLoadRect f3, Scalar.addi (1024#32) (Scalar.subi (Scalar.addi v520 (Scalar.muli (Scalar.subi (1#32) v8) 256#32)) v520)⟩⟩⟩⌝ ∗ owes (c : Thread nD τ) (Owe c 20) (insert ((CK.rsR 5 1).sem, ()) (insert ((CK.rsS 5 1).sem, ()) W))
            ∗ heldW c (Memref.whole cc0_scratch0 : Memref sig .tc .vmem S2048x2048 .f32) ((Memref.whole cc0_scratch0 : Memref sig .tc .vmem S2048x2048 .f32).view.writes (Elt Ideal) f3 [⟨Rect.unit (s := S2048x2048) (k0_off51 c) ![256, 256] (k0_off51_inb c), k0_pay53 (F := Ideal) (View.readAt (Elt Ideal) (Memref.whole cc0_scratch0 : Memref sig .tc .vmem S2048x2048 .f32).view (Rect.unit (s := S2048x2048) (k0_off51 c) ![256, 256] (k0_off51_inb c)).toLoadRect f3) (View.readAt (Elt Ideal) (Memref.whole cc0_scratch5 : Memref sig .tc .vmem S1792x256 .bf16).view (Rect.unit (s := S1792x256) (k0_off52 c) ![256, 256] (k0_off52_inb c)).toLoadRect fl)⟩])
            ∗ heldW c (commM4_1 : Memref sig .tc .vmem S512x256 .bf16) fl
            ∗ atPos ER (cell c (.rsS 5 1)) 1 ∅ 0 ∗ atPos ER (cell c (.rsR 5 1)) 1 ∅ 0
            ∗ ptsAny (F := Ideal) c stgM5_1 ∗ ptsIs c commM5_1 ((Vreal A B).rs5_1 (nbr 0 c))) : sProp 𝕄) ⊢ iprop((⌜r = ⟨Scalar.addi v520 (Scalar.muli (Scalar.subi (1#32) v8) 256#32), ⟨Scalar.addi v520 (Scalar.muli v8 256#32), ⟨View.readAt (Elt Ideal) (Memref.whole cc0_scratch0 : Memref sig .tc .vmem S2048x2048 .f32).view (Rect.unit (s := S2048x2048) (k0_off53 c) ![256, 256] (k0_off53_inb c)).toLoadRect f3, Scalar.addi (1024#32) (Scalar.subi (Scalar.addi v520 (Scalar.muli (Scalar.subi (1#32) v8) 256#32)) v520)⟩⟩⟩⌝ ∗ owes (c : Thread nD τ) (Owe c 20) (insert ((CK.rsR 5 1).sem, ()) (insert ((CK.rsS 5 1).sem, ()) W))
            ∗ heldW c (Memref.whole cc0_scratch0 : Memref sig .tc .vmem S2048x2048 .f32) ((Memref.whole cc0_scratch0 : Memref sig .tc .vmem S2048x2048 .f32).view.writes (Elt Ideal) f3 [⟨Rect.unit (s := S2048x2048) (k0_off51 c) ![256, 256] (k0_off51_inb c), k0_pay53 (F := Ideal) (View.readAt (Elt Ideal) (Memref.whole cc0_scratch0 : Memref sig .tc .vmem S2048x2048 .f32).view (Rect.unit (s := S2048x2048) (k0_off51 c) ![256, 256] (k0_off51_inb c)).toLoadRect f3) (View.readAt (Elt Ideal) (Memref.whole cc0_scratch5 : Memref sig .tc .vmem S1792x256 .bf16).view (Rect.unit (s := S1792x256) (k0_off52 c) ![256, 256] (k0_off52_inb c)).toLoadRect fl)⟩])
            ∗ heldW c (commM4_1 : Memref sig .tc .vmem S512x256 .bf16) fl
            ∗ atPos ER (cell c (.rsS 5 1)) 1 ∅ 0 ∗ atPos ER (cell c (.rsR 5 1)) 1 ∅ 0
            ∗ ptsAny (F := Ideal) c stgM5_1 ∗ ptsIs c commM5_1 ((Vreal A B).rs5_1 (nbr 0 c)))
            ∗ ⌜AccInv A B c ![4, 4, 4, 4, 4, 2] ((Memref.whole cc0_scratch0 : Memref sig .tc .vmem S2048x2048 .f32).view.writes (Elt Ideal) f3 [⟨Rect.unit (s := S2048x2048) (k0_off51 c) ![256, 256] (k0_off51_inb c), k0_pay53 (F := Ideal) (View.readAt (Elt Ideal) (Memref.whole cc0_scratch0 : Memref sig .tc .vmem S2048x2048 .f32).view (Rect.unit (s := S2048x2048) (k0_off51 c) ![256, 256] (k0_off51_inb c)).toLoadRect f3) (View.readAt (Elt Ideal) (Memref.whole cc0_scratch5 : Memref sig .tc .vmem S1792x256 .bf16).view (Rect.unit (s := S1792x256) (k0_off52 c) ![256, 256] (k0_off52_inb c)).toLoadRect fl)⟩])⌝
            ∗ ⌜∀ (r' : Fin 256) (j : Fin 256), ((View.readAt (Elt Ideal) (Memref.whole cc0_scratch0 : Memref sig .tc .vmem S2048x2048 .f32).view (Rect.unit (s := S2048x2048) (k0_off53 c) ![256, 256] (k0_off53_inb c)).toLoadRect f3) (ix2 r' j) : EReal) = share A B c.val (sendRow 5 2 c + r'.val) (colLo 5 + j.val) + share A B (nb 5 0 c).val (sendRow 5 2 c + r'.val) (colLo 5 + j.val)⌝) := by
    intro r
    iintro H
    isplitl [H]; · iexact H
    isplitr; · ipureintro; exact hout
    ipureintro; exact fun r' j => acc_send2_5 A B hA.get5 r' j
  iapply (wp_mono frame (wpE (defs₀ (F := Ideal)) 𝒱₀ c none) Set.univ hpost)
  iapply (part27_run (Vreal A B) c κw κv W v8 v466 v520 v539 v790 f3 fl)
  iexact Hpre

set_option maxHeartbeats 2000000 in
include hagree in
theorem part28_real (c : Dev nD) (κs κr : ℕ) (W : Waits sig Unit) (v2 v520 v842 v844 : BitVec 32) (v846 : Vec Ideal S256x256 .f32) (v848 : BitVec 32) (f3 : Buf (Elt Ideal) ((Memref.whole cc0_scratch0 : Memref sig .tc .vmem S2048x2048 .f32).view.loc (c : Thread nD τ))) (f15 : Buf (Elt Ideal) ((stgM5_1 : Memref sig .tc .vmem S512x256 .bf16).view.loc (c : Thread nD τ))) (fl : Buf (Elt Ideal) ((commM5_1 : Memref sig .tc .vmem S512x256 .bf16).view.loc (c : Thread nD τ))) :
    iprop((cellInv ER (sched (Vreal A B)) κs (cell c (.rsS 5 2)) ∗ cellInv ER (sched (Vreal A B)) κr (cell (nbr 1 c) (.rsR 5 2))
        ∗ reached ER (cell c (.rsS 5 2)) 0 ∗ reached ER (cell (nbr 1 c) (.rsR 5 2)) 0
        ∗ dutyTok ER (cell c (.rsS 5 2)) 0 (0 : Fin 3) ∗ dutyTok ER (cell (nbr 1 c) (.rsR 5 2)) 0 (0 : Fin 3)
        ∗ ptsAny (F := Ideal) (nbr 1 c) commM5_2
        ∗ owes (c : Thread nD τ) (Owe c 20) W
        ∗ heldW c (stgM5_1 : Memref sig .tc .vmem S512x256 .bf16) f15
        ∗ heldW c (Memref.whole cc0_scratch0 : Memref sig .tc .vmem S2048x2048 .f32) f3
        ∗ heldW c (commM5_1 : Memref sig .tc .vmem S512x256 .bf16) fl)
        ∗ ⌜AccInv A B c ![4, 4, 4, 4, 4, 2] f3⌝
        ∗ ⌜∀ (r' : Fin 256) (j : Fin 256), (v846 (ix2 r' j) : EReal) = share A B c.val (sendRow 5 2 c + r'.val) (colLo 5 + j.val) + share A B (nb 5 0 c).val (sendRow 5 2 c + r'.val) (colLo 5 + j.val)⌝
        ∗ ⌜(Vreal A B).rs5_1 (nbr 0 c) ((commM5_1 : Memref sig .tc .vmem S512x256 .bf16).view.read (Elt Ideal) fl)⌝)
      ⊢ wp frame (wpE (defs₀ (F := Ideal)) 𝒱₀ c none) Set.univ
          (k0_part28 (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23 c v2 v520 v842 v844 v846 v848)
          (fun r => iprop((⌜r = (Scalar.xori v2 3#32)⌝ ∗ cred (tallyAt (cell c (.rsS 5 2)) () (amt (.rsR 5 2)))
            ∗ owes (c : Thread nD τ) (Owe c 21) W
            ∗ heldW c (Memref.whole cc0_scratch0 : Memref sig .tc .vmem S2048x2048 .f32) ((Memref.whole cc0_scratch0 : Memref sig .tc .vmem S2048x2048 .f32).view.writes (Elt Ideal) f3 [⟨Rect.unit (s := S2048x2048) (k0_off55 c) ![256, 256] (k0_off55_inb c), k0_pay56 (F := Ideal) (View.readAt (Elt Ideal) (Memref.whole cc0_scratch0 : Memref sig .tc .vmem S2048x2048 .f32).view (Rect.unit (s := S2048x2048) (k0_off55 c) ![256, 256] (k0_off55_inb c)).toLoadRect ((Memref.whole cc0_scratch0 : Memref sig .tc .vmem S2048x2048 .f32).view.writes (Elt Ideal) f3 [⟨Rect.unit (s := S2048x2048) (k0_off53 c) ![256, 256] (k0_off53_inb c), k0_pay54 (F := Ideal) v846 (View.readAt (Elt Ideal) (Memref.whole cc0_scratch6 : Memref sig .tc .vmem S1792x256 .bf16).view (Rect.unit (s := S1792x256) (k0_off54 c) ![256, 256] (k0_off54_inb c)).toLoadRect fl)⟩])) (View.readAt (Elt Ideal) (Memref.whole cc0_scratch6 : Memref sig .tc .vmem S1792x256 .bf16).view (Rect.unit (s := S1792x256) (k0_off56 c) ![256, 256] (k0_off56_inb c)).toLoadRect fl)⟩, ⟨Rect.unit (s := S2048x2048) (k0_off53 c) ![256, 256] (k0_off53_inb c), k0_pay54 (F := Ideal) v846 (View.readAt (Elt Ideal) (Memref.whole cc0_scratch6 : Memref sig .tc .vmem S1792x256 .bf16).view (Rect.unit (s := S1792x256) (k0_off54 c) ![256, 256] (k0_off54_inb c)).toLoadRect fl)⟩])
            ∗ heldW c (commM5_1 : Memref sig .tc .vmem S512x256 .bf16) fl
            ∗ ((stgM5_1 : Memref sig .tc .vmem S512x256 .bf16).view.loc (c : Thread nD τ) ↦[(stgM5_1 : Memref sig .tc .vmem S512x256 .bf16).view.set \ (stgM5_2 : Memref sig .tc .vmem S256x256 .bf16).view.set]{fullShare} (View.write (Elt Ideal) ((Memref.whole cc0_scratch12 : Memref sig .tc .vmem S1024x256 .bf16).access (Rect.unit (s := S1024x256) ![0, 0] ![256, 256] inb_S1024x256_S256x256_0_0)) f15 (k0_pay55 (F := Ideal) ((Memref.whole cc0_scratch0 : Memref sig .tc .vmem S2048x2048 .f32).view.readCov [⟨Rect.unit (s := S2048x2048) (k0_off53 c) ![256, 256] (k0_off53_inb c), k0_pay54 (F := Ideal) v846 (View.readAt (Elt Ideal) (Memref.whole cc0_scratch6 : Memref sig .tc .vmem S1792x256 .bf16).view (Rect.unit (s := S1792x256) (k0_off54 c) ![256, 256] (k0_off54_inb c)).toLoadRect fl)⟩] (Rect.unit (s := S2048x2048) (k0_off53 c) ![256, 256] (k0_off53_inb c)).toLoadRect)) Finset.univ)))
            ∗ ⌜AccInv A B c ![4, 4, 4, 4, 4, 4] ((Memref.whole cc0_scratch0 : Memref sig .tc .vmem S2048x2048 .f32).view.writes (Elt Ideal) f3 [⟨Rect.unit (s := S2048x2048) (k0_off55 c) ![256, 256] (k0_off55_inb c), k0_pay56 (F := Ideal) (View.readAt (Elt Ideal) (Memref.whole cc0_scratch0 : Memref sig .tc .vmem S2048x2048 .f32).view (Rect.unit (s := S2048x2048) (k0_off55 c) ![256, 256] (k0_off55_inb c)).toLoadRect ((Memref.whole cc0_scratch0 : Memref sig .tc .vmem S2048x2048 .f32).view.writes (Elt Ideal) f3 [⟨Rect.unit (s := S2048x2048) (k0_off53 c) ![256, 256] (k0_off53_inb c), k0_pay54 (F := Ideal) v846 (View.readAt (Elt Ideal) (Memref.whole cc0_scratch6 : Memref sig .tc .vmem S1792x256 .bf16).view (Rect.unit (s := S1792x256) (k0_off54 c) ![256, 256] (k0_off54_inb c)).toLoadRect fl)⟩])) (View.readAt (Elt Ideal) (Memref.whole cc0_scratch6 : Memref sig .tc .vmem S1792x256 .bf16).view (Rect.unit (s := S1792x256) (k0_off56 c) ![256, 256] (k0_off56_inb c)).toLoadRect fl)⟩, ⟨Rect.unit (s := S2048x2048) (k0_off53 c) ![256, 256] (k0_off53_inb c), k0_pay54 (F := Ideal) v846 (View.readAt (Elt Ideal) (Memref.whole cc0_scratch6 : Memref sig .tc .vmem S1792x256 .bf16).view (Rect.unit (s := S1792x256) (k0_off54 c) ![256, 256] (k0_off54_inb c)).toLoadRect fl)⟩])⌝)) := by
  iintro ⟨Hpre, %h1, %h2, %h3⟩
  have hA := h1
  have hl := h3
  have hout : AccInv A B c ![4, 4, 4, 4, 4, 4] ((Memref.whole cc0_scratch0 : Memref sig .tc .vmem S2048x2048 .f32).view.writes (Elt Ideal) f3 [⟨Rect.unit (s := S2048x2048) (k0_off55 c) ![256, 256] (k0_off55_inb c), k0_pay56 (F := Ideal) (View.readAt (Elt Ideal) (Memref.whole cc0_scratch0 : Memref sig .tc .vmem S2048x2048 .f32).view (Rect.unit (s := S2048x2048) (k0_off55 c) ![256, 256] (k0_off55_inb c)).toLoadRect ((Memref.whole cc0_scratch0 : Memref sig .tc .vmem S2048x2048 .f32).view.writes (Elt Ideal) f3 [⟨Rect.unit (s := S2048x2048) (k0_off53 c) ![256, 256] (k0_off53_inb c), k0_pay54 (F := Ideal) v846 (View.readAt (Elt Ideal) (Memref.whole cc0_scratch6 : Memref sig .tc .vmem S1792x256 .bf16).view (Rect.unit (s := S1792x256) (k0_off54 c) ![256, 256] (k0_off54_inb c)).toLoadRect fl)⟩])) (View.readAt (Elt Ideal) (Memref.whole cc0_scratch6 : Memref sig .tc .vmem S1792x256 .bf16).view (Rect.unit (s := S1792x256) (k0_off56 c) ![256, 256] (k0_off56_inb c)).toLoadRect fl)⟩, ⟨Rect.unit (s := S2048x2048) (k0_off53 c) ![256, 256] (k0_off53_inb c), k0_pay54 (F := Ideal) v846 (View.readAt (Elt Ideal) (Memref.whole cc0_scratch6 : Memref sig .tc .vmem S1792x256 .bf16).view (Rect.unit (s := S1792x256) (k0_off54 c) ![256, 256] (k0_off54_inb c)).toLoadRect fl)⟩]) :=
    AccInv.mk6 (LJ_cons (k := 0) (k0_off55_inb c) _ _ (off55_eq c) (Or.inr (show colLo (0 : Fin 6).val + wOf 0 ≤ 1792 from by decide)) (LJ_cons (k := 0) (k0_off53_inb c) _ _ (off53_eq c) (Or.inr (show colLo (0 : Fin 6).val + wOf 0 ≤ 1792 from by decide)) (LJ_nil hA.get0)))
      (LJ_cons (k := 1) (k0_off55_inb c) _ _ (off55_eq c) (Or.inr (show colLo (1 : Fin 6).val + wOf 1 ≤ 1792 from by decide)) (LJ_cons (k := 1) (k0_off53_inb c) _ _ (off53_eq c) (Or.inr (show colLo (1 : Fin 6).val + wOf 1 ≤ 1792 from by decide)) (LJ_nil hA.get1)))
      (LJ_cons (k := 2) (k0_off55_inb c) _ _ (off55_eq c) (Or.inr (show colLo (2 : Fin 6).val + wOf 2 ≤ 1792 from by decide)) (LJ_cons (k := 2) (k0_off53_inb c) _ _ (off53_eq c) (Or.inr (show colLo (2 : Fin 6).val + wOf 2 ≤ 1792 from by decide)) (LJ_nil hA.get2)))
      (LJ_cons (k := 3) (k0_off55_inb c) _ _ (off55_eq c) (Or.inr (show colLo (3 : Fin 6).val + wOf 3 ≤ 1792 from by decide)) (LJ_cons (k := 3) (k0_off53_inb c) _ _ (off53_eq c) (Or.inr (show colLo (3 : Fin 6).val + wOf 3 ≤ 1792 from by decide)) (LJ_nil hA.get3)))
      (LJ_cons (k := 4) (k0_off55_inb c) _ _ (off55_eq c) (Or.inr (show colLo (4 : Fin 6).val + wOf 4 ≤ 1792 from by decide)) (LJ_cons (k := 4) (k0_off53_inb c) _ _ (off53_eq c) (Or.inr (show colLo (4 : Fin 6).val + wOf 4 ≤ 1792 from by decide)) (LJ_nil hA.get4)))
      (J3_5_stored' A B c f3 v846 fl (J2e_of_J2 A B (hA.get5 : J2 A B 5 256 c f3)) hl)
  have hpost : ∀ r : (BitVec 32), (iprop(⌜r = (Scalar.xori v2 3#32)⌝ ∗ cred (tallyAt (cell c (.rsS 5 2)) () (amt (.rsR 5 2)))
            ∗ owes (c : Thread nD τ) (Owe c 21) W
            ∗ heldW c (Memref.whole cc0_scratch0 : Memref sig .tc .vmem S2048x2048 .f32) ((Memref.whole cc0_scratch0 : Memref sig .tc .vmem S2048x2048 .f32).view.writes (Elt Ideal) f3 [⟨Rect.unit (s := S2048x2048) (k0_off55 c) ![256, 256] (k0_off55_inb c), k0_pay56 (F := Ideal) (View.readAt (Elt Ideal) (Memref.whole cc0_scratch0 : Memref sig .tc .vmem S2048x2048 .f32).view (Rect.unit (s := S2048x2048) (k0_off55 c) ![256, 256] (k0_off55_inb c)).toLoadRect ((Memref.whole cc0_scratch0 : Memref sig .tc .vmem S2048x2048 .f32).view.writes (Elt Ideal) f3 [⟨Rect.unit (s := S2048x2048) (k0_off53 c) ![256, 256] (k0_off53_inb c), k0_pay54 (F := Ideal) v846 (View.readAt (Elt Ideal) (Memref.whole cc0_scratch6 : Memref sig .tc .vmem S1792x256 .bf16).view (Rect.unit (s := S1792x256) (k0_off54 c) ![256, 256] (k0_off54_inb c)).toLoadRect fl)⟩])) (View.readAt (Elt Ideal) (Memref.whole cc0_scratch6 : Memref sig .tc .vmem S1792x256 .bf16).view (Rect.unit (s := S1792x256) (k0_off56 c) ![256, 256] (k0_off56_inb c)).toLoadRect fl)⟩, ⟨Rect.unit (s := S2048x2048) (k0_off53 c) ![256, 256] (k0_off53_inb c), k0_pay54 (F := Ideal) v846 (View.readAt (Elt Ideal) (Memref.whole cc0_scratch6 : Memref sig .tc .vmem S1792x256 .bf16).view (Rect.unit (s := S1792x256) (k0_off54 c) ![256, 256] (k0_off54_inb c)).toLoadRect fl)⟩])
            ∗ heldW c (commM5_1 : Memref sig .tc .vmem S512x256 .bf16) fl
            ∗ ((stgM5_1 : Memref sig .tc .vmem S512x256 .bf16).view.loc (c : Thread nD τ) ↦[(stgM5_1 : Memref sig .tc .vmem S512x256 .bf16).view.set \ (stgM5_2 : Memref sig .tc .vmem S256x256 .bf16).view.set]{fullShare} (View.write (Elt Ideal) ((Memref.whole cc0_scratch12 : Memref sig .tc .vmem S1024x256 .bf16).access (Rect.unit (s := S1024x256) ![0, 0] ![256, 256] inb_S1024x256_S256x256_0_0)) f15 (k0_pay55 (F := Ideal) ((Memref.whole cc0_scratch0 : Memref sig .tc .vmem S2048x2048 .f32).view.readCov [⟨Rect.unit (s := S2048x2048) (k0_off53 c) ![256, 256] (k0_off53_inb c), k0_pay54 (F := Ideal) v846 (View.readAt (Elt Ideal) (Memref.whole cc0_scratch6 : Memref sig .tc .vmem S1792x256 .bf16).view (Rect.unit (s := S1792x256) (k0_off54 c) ![256, 256] (k0_off54_inb c)).toLoadRect fl)⟩] (Rect.unit (s := S2048x2048) (k0_off53 c) ![256, 256] (k0_off53_inb c)).toLoadRect)) Finset.univ))) : sProp 𝕄) ⊢ iprop((⌜r = (Scalar.xori v2 3#32)⌝ ∗ cred (tallyAt (cell c (.rsS 5 2)) () (amt (.rsR 5 2)))
            ∗ owes (c : Thread nD τ) (Owe c 21) W
            ∗ heldW c (Memref.whole cc0_scratch0 : Memref sig .tc .vmem S2048x2048 .f32) ((Memref.whole cc0_scratch0 : Memref sig .tc .vmem S2048x2048 .f32).view.writes (Elt Ideal) f3 [⟨Rect.unit (s := S2048x2048) (k0_off55 c) ![256, 256] (k0_off55_inb c), k0_pay56 (F := Ideal) (View.readAt (Elt Ideal) (Memref.whole cc0_scratch0 : Memref sig .tc .vmem S2048x2048 .f32).view (Rect.unit (s := S2048x2048) (k0_off55 c) ![256, 256] (k0_off55_inb c)).toLoadRect ((Memref.whole cc0_scratch0 : Memref sig .tc .vmem S2048x2048 .f32).view.writes (Elt Ideal) f3 [⟨Rect.unit (s := S2048x2048) (k0_off53 c) ![256, 256] (k0_off53_inb c), k0_pay54 (F := Ideal) v846 (View.readAt (Elt Ideal) (Memref.whole cc0_scratch6 : Memref sig .tc .vmem S1792x256 .bf16).view (Rect.unit (s := S1792x256) (k0_off54 c) ![256, 256] (k0_off54_inb c)).toLoadRect fl)⟩])) (View.readAt (Elt Ideal) (Memref.whole cc0_scratch6 : Memref sig .tc .vmem S1792x256 .bf16).view (Rect.unit (s := S1792x256) (k0_off56 c) ![256, 256] (k0_off56_inb c)).toLoadRect fl)⟩, ⟨Rect.unit (s := S2048x2048) (k0_off53 c) ![256, 256] (k0_off53_inb c), k0_pay54 (F := Ideal) v846 (View.readAt (Elt Ideal) (Memref.whole cc0_scratch6 : Memref sig .tc .vmem S1792x256 .bf16).view (Rect.unit (s := S1792x256) (k0_off54 c) ![256, 256] (k0_off54_inb c)).toLoadRect fl)⟩])
            ∗ heldW c (commM5_1 : Memref sig .tc .vmem S512x256 .bf16) fl
            ∗ ((stgM5_1 : Memref sig .tc .vmem S512x256 .bf16).view.loc (c : Thread nD τ) ↦[(stgM5_1 : Memref sig .tc .vmem S512x256 .bf16).view.set \ (stgM5_2 : Memref sig .tc .vmem S256x256 .bf16).view.set]{fullShare} (View.write (Elt Ideal) ((Memref.whole cc0_scratch12 : Memref sig .tc .vmem S1024x256 .bf16).access (Rect.unit (s := S1024x256) ![0, 0] ![256, 256] inb_S1024x256_S256x256_0_0)) f15 (k0_pay55 (F := Ideal) ((Memref.whole cc0_scratch0 : Memref sig .tc .vmem S2048x2048 .f32).view.readCov [⟨Rect.unit (s := S2048x2048) (k0_off53 c) ![256, 256] (k0_off53_inb c), k0_pay54 (F := Ideal) v846 (View.readAt (Elt Ideal) (Memref.whole cc0_scratch6 : Memref sig .tc .vmem S1792x256 .bf16).view (Rect.unit (s := S1792x256) (k0_off54 c) ![256, 256] (k0_off54_inb c)).toLoadRect fl)⟩] (Rect.unit (s := S2048x2048) (k0_off53 c) ![256, 256] (k0_off53_inb c)).toLoadRect)) Finset.univ)))
            ∗ ⌜AccInv A B c ![4, 4, 4, 4, 4, 4] ((Memref.whole cc0_scratch0 : Memref sig .tc .vmem S2048x2048 .f32).view.writes (Elt Ideal) f3 [⟨Rect.unit (s := S2048x2048) (k0_off55 c) ![256, 256] (k0_off55_inb c), k0_pay56 (F := Ideal) (View.readAt (Elt Ideal) (Memref.whole cc0_scratch0 : Memref sig .tc .vmem S2048x2048 .f32).view (Rect.unit (s := S2048x2048) (k0_off55 c) ![256, 256] (k0_off55_inb c)).toLoadRect ((Memref.whole cc0_scratch0 : Memref sig .tc .vmem S2048x2048 .f32).view.writes (Elt Ideal) f3 [⟨Rect.unit (s := S2048x2048) (k0_off53 c) ![256, 256] (k0_off53_inb c), k0_pay54 (F := Ideal) v846 (View.readAt (Elt Ideal) (Memref.whole cc0_scratch6 : Memref sig .tc .vmem S1792x256 .bf16).view (Rect.unit (s := S1792x256) (k0_off54 c) ![256, 256] (k0_off54_inb c)).toLoadRect fl)⟩])) (View.readAt (Elt Ideal) (Memref.whole cc0_scratch6 : Memref sig .tc .vmem S1792x256 .bf16).view (Rect.unit (s := S1792x256) (k0_off56 c) ![256, 256] (k0_off56_inb c)).toLoadRect fl)⟩, ⟨Rect.unit (s := S2048x2048) (k0_off53 c) ![256, 256] (k0_off53_inb c), k0_pay54 (F := Ideal) v846 (View.readAt (Elt Ideal) (Memref.whole cc0_scratch6 : Memref sig .tc .vmem S1792x256 .bf16).view (Rect.unit (s := S1792x256) (k0_off54 c) ![256, 256] (k0_off54_inb c)).toLoadRect fl)⟩])⌝) := by
    intro r
    iintro H
    isplitl [H]; · iexact H
    ipureintro; exact hout
  iapply (wp_mono frame (wpE (defs₀ (F := Ideal)) 𝒱₀ c none) Set.univ hpost)
  iapply (part28_run (Vreal A B) c κs κr W v2 v520 v842 v844 v846 v848 f3 f15 fl (val_rs5_2_of A B c v846 f15 fl h2 h3))
  iexact Hpre

end Cert.KernelIdeal.Proto

end
-- ==== Proof.RealE3.lean ====
/-
The stretches of a device's kernel body at the first all-gather round after a device's own, for column groups 0, 1 and
3, with every value named: the own eighth and the arrived eighth make the quarter sent on, and the arrived eighth,
widened, is the block the result copy moves. The contents are spelt over the pieces' own locations, as the stretches
spell them; they are the same functions as over the whole buffer's location.
-/
import proofs.«900882_g7700000000000883_dist_matmul_gelu_kshard_i_m2048_n2048_k1024_v7x_i8_f32_1_alg».proof.Proof.Body41
import proofs.«900882_g7700000000000883_dist_matmul_gelu_kshard_i_m2048_n2048_k1024_v7x_i8_f32_1_alg».proof.Proof.Body42
import proofs.«900882_g7700000000000883_dist_matmul_gelu_kshard_i_m2048_n2048_k1024_v7x_i8_f32_1_alg».proof.Proof.Body44
import proofs.«900882_g7700000000000883_dist_matmul_gelu_kshard_i_m2048_n2048_k1024_v7x_i8_f32_1_alg».proof.Proof.ValSliceE
import proofs.«900882_g7700000000000883_dist_matmul_gelu_kshard_i_m2048_n2048_k1024_v7x_i8_f32_1_alg».proof.Proof.ValSliceE2
import proofs.«900882_g7700000000000883_dist_matmul_gelu_kshard_i_m2048_n2048_k1024_v7x_i8_f32_1_alg».proof.Proof.ValSliceD

set_option maxRecDepth 100000

noncomputable section

namespace Cert.KernelIdeal.Proto

open Cert.KernelIdeal Cert.KernelIdeal.Gen Cert.KernelIdeal.Topo
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open scoped BigOperators

local notation "𝕄" => MT nD τ sig Unit (Elt Ideal) ℕ UU ℕ

variable (A : (⟨2, ![2048, 8192]⟩ : Shape).Idx → EReal) (B : (⟨2, ![8192, 2048]⟩ : Shape).Idx → EReal)
  (m : (ℓ : Loc nD τ sig) → Buf (Elt Ideal) ℓ)
  (hagree : ∀ c : Dev nD,
      m ((c : Thread nD τ).loc main_arg0) = Layout.block ⟨2, ![2048, 1024]⟩ ⟨2, ![2048, 8192]⟩ 1 8 c A
      ∧ m ((c : Thread nD τ).loc main_arg1) = Layout.block ⟨2, ![1024, 2048]⟩ ⟨2, ![8192, 2048]⟩ 0 8 c B)

/-- Group 0's first joined rows, the contents spelt over the pieces' own locations. -/
theorem val_ag0_1_nat (c : Dev nD) (g0 : Buf (Elt Ideal) ((agM0_0 c).view.loc (c : Thread nD τ))) (fa : Buf (Elt Ideal) ((agM0_0 (nbr 2 c)).view.loc (c : Thread nD τ)))
    (hg0 : (Vreal A B).ag0_0 c ((agM0_0 c).view.read (Elt Ideal) g0))
    (hfa : (Vreal A B).ag0_0 (nbr 2 c) ((agM0_0 (nbr 2 c)).view.read (Elt Ideal) fa)) :
    (Vreal A B).ag0_1 c ((agM0_1 c).view.read (Elt Ideal) ((agM0_0 (nbr 2 c)).view.set.piecewise fa g0)) := by
  have hpw : (((agM0_0 (nbr 2 c)).view.set.piecewise fa g0) : Buf (Elt Ideal) ((Memref.whole cc0_scratch13 : Memref sig .tc .vmem S2048x384 .bf16).view.loc (c : Thread nD τ))) = (((agM0_0 (nbr 2 c)).view.set : Finset (Idx ((Memref.whole cc0_scratch13 : Memref sig .tc .vmem S2048x384 .bf16).view.loc (c : Thread nD τ)))).piecewise fa g0) := by
    funext i
    by_cases hm : i ∈ (agM0_0 (nbr 2 c)).view.set
    · rw [Finset.piecewise_eq_of_mem _ _ _ hm]
    · rw [Finset.piecewise_eq_of_notMem _ _ _ hm]
  have h := val_ag0_1 A B c g0 fa hg0 hfa
  rw [← hpw] at h
  exact h

/-- The block the result copy 6 moves, the contents spelt over the pieces' own locations. -/
theorem val_out6_nat (c : Dev nD) (g0 : Buf (Elt Ideal) ((agM0_0 c).view.loc (c : Thread nD τ))) (fa : Buf (Elt Ideal) ((agM0_0 (nbr 2 c)).view.loc (c : Thread nD τ)))
    (fb : Buf (Elt Ideal) ((outSrcM6 c).view.loc (c : Thread nD τ)))
    (hfa : (Vreal A B).ag0_0 (nbr 2 c) ((agM0_0 (nbr 2 c)).view.read (Elt Ideal) fa)) :
    (Vreal A B).out6 c ((outSrcM6 c).view.read (Elt Ideal) (((Memref.whole cc0_scratch0 : Memref sig .tc .vmem S2048x2048 .f32).access (Rect.unit (s := S2048x2048) (k0_off80 c) S256x384.size (k0_off80_inb c))).write (Elt Ideal) fb (k0_pay87 (F := Ideal) (View.readAt (Elt Ideal) (Memref.whole cc0_scratch13 : Memref sig .tc .vmem S2048x384 .bf16).view (Rect.unit (s := S2048x384) (k0_off79 c) S256x384.size (k0_off79_inb c)).toLoadRect ((agM0_0 (nbr 2 c)).view.set.piecewise fa g0))) Finset.univ)) := by
  have hpw : (((agM0_0 (nbr 2 c)).view.set.piecewise fa g0) : Buf (Elt Ideal) ((Memref.whole cc0_scratch13 : Memref sig .tc .vmem S2048x384 .bf16).view.loc (c : Thread nD τ))) = (((agM0_0 (nbr 2 c)).view.set : Finset (Idx ((Memref.whole cc0_scratch13 : Memref sig .tc .vmem S2048x384 .bf16).view.loc (c : Thread nD τ)))).piecewise fa g0) := by
    funext i
    by_cases hm : i ∈ (agM0_0 (nbr 2 c)).view.set
    · rw [Finset.piecewise_eq_of_mem _ _ _ hm]
    · rw [Finset.piecewise_eq_of_notMem _ _ _ hm]
  have h := val_out6 A B c g0 fa fb hfa
  rw [← hpw] at h
  exact h

/-- Group 1's first joined rows, the contents spelt over the pieces' own locations. -/
theorem val_ag1_1_nat (c : Dev nD) (g0 : Buf (Elt Ideal) ((agM1_0 c).view.loc (c : Thread nD τ))) (fa : Buf (Elt Ideal) ((agM1_0 (nbr 0 c)).view.loc (c : Thread nD τ)))
    (hg0 : (Vreal A B).ag1_0 c ((agM1_0 c).view.read (Elt Ideal) g0))
    (hfa : (Vreal A B).ag1_0 (nbr 0 c) ((agM1_0 (nbr 0 c)).view.read (Elt Ideal) fa)) :
    (Vreal A B).ag1_1 c ((agM1_1 c).view.read (Elt Ideal) ((agM1_0 (nbr 0 c)).view.set.piecewise fa g0)) := by
  have hpw : (((agM1_0 (nbr 0 c)).view.set.piecewise fa g0) : Buf (Elt Ideal) ((Memref.whole cc0_scratch14 : Memref sig .tc .vmem S2048x384 .bf16).view.loc (c : Thread nD τ))) = (((agM1_0 (nbr 0 c)).view.set : Finset (Idx ((Memref.whole cc0_scratch14 : Memref sig .tc .vmem S2048x384 .bf16).view.loc (c : Thread nD τ)))).piecewise fa g0) := by
    funext i
    by_cases hm : i ∈ (agM1_0 (nbr 0 c)).view.set
    · rw [Finset.piecewise_eq_of_mem _ _ _ hm]
    · rw [Finset.piecewise_eq_of_notMem _ _ _ hm]
  have h := val_ag1_1 A B c g0 fa hg0 hfa
  rw [← hpw] at h
  exact h

/-- The block the result copy 7 moves, the contents spelt over the pieces' own locations. -/
theorem val_out7_nat (c : Dev nD) (g0 : Buf (Elt Ideal) ((agM1_0 c).view.loc (c : Thread nD τ))) (fa : Buf (Elt Ideal) ((agM1_0 (nbr 0 c)).view.loc (c : Thread nD τ)))
    (fb : Buf (Elt Ideal) ((outSrcM7 c).view.loc (c : Thread nD τ)))
    (hfa : (Vreal A B).ag1_0 (nbr 0 c) ((agM1_0 (nbr 0 c)).view.read (Elt Ideal) fa)) :
    (Vreal A B).out7 c ((outSrcM7 c).view.read (Elt Ideal) (((Memref.whole cc0_scratch0 : Memref sig .tc .vmem S2048x2048 .f32).access (Rect.unit (s := S2048x2048) (k0_off84 c) S256x384.size (k0_off84_inb c))).write (Elt Ideal) fb (k0_pay88 (F := Ideal) (View.readAt (Elt Ideal) (Memref.whole cc0_scratch14 : Memref sig .tc .vmem S2048x384 .bf16).view (Rect.unit (s := S2048x384) (k0_off83 c) S256x384.size (k0_off83_inb c)).toLoadRect ((agM1_0 (nbr 0 c)).view.set.piecewise fa g0))) Finset.univ)) := by
  have hpw : (((agM1_0 (nbr 0 c)).view.set.piecewise fa g0) : Buf (Elt Ideal) ((Memref.whole cc0_scratch14 : Memref sig .tc .vmem S2048x384 .bf16).view.loc (c : Thread nD τ))) = (((agM1_0 (nbr 0 c)).view.set : Finset (Idx ((Memref.whole cc0_scratch14 : Memref sig .tc .vmem S2048x384 .bf16).view.loc (c : Thread nD τ)))).piecewise fa g0) := by
    funext i
    by_cases hm : i ∈ (agM1_0 (nbr 0 c)).view.set
    · rw [Finset.piecewise_eq_of_mem _ _ _ hm]
    · rw [Finset.piecewise_eq_of_notMem _ _ _ hm]
  have h := val_out7 A B c g0 fa fb hfa
  rw [← hpw] at h
  exact h

/-- Group 3's first joined rows, the contents spelt over the pieces' own locations. -/
theorem val_ag3_1_nat (c : Dev nD) (g0 : Buf (Elt Ideal) ((agM3_0 c).view.loc (c : Thread nD τ))) (fa : Buf (Elt Ideal) ((agM3_0 (nbr 2 c)).view.loc (c : Thread nD τ)))
    (hg0 : (Vreal A B).ag3_0 c ((agM3_0 c).view.read (Elt Ideal) g0))
    (hfa : (Vreal A B).ag3_0 (nbr 2 c) ((agM3_0 (nbr 2 c)).view.read (Elt Ideal) fa)) :
    (Vreal A B).ag3_1 c ((agM3_1 c).view.read (Elt Ideal) ((agM3_0 (nbr 2 c)).view.set.piecewise fa g0)) := by
  have hpw : (((agM3_0 (nbr 2 c)).view.set.piecewise fa g0) : Buf (Elt Ideal) ((Memref.whole cc0_scratch16 : Memref sig .tc .vmem S2048x384 .bf16).view.loc (c : Thread nD τ))) = (((agM3_0 (nbr 2 c)).view.set : Finset (Idx ((Memref.whole cc0_scratch16 : Memref sig .tc .vmem S2048x384 .bf16).view.loc (c : Thread nD τ)))).piecewise fa g0) := by
    funext i
    by_cases hm : i ∈ (agM3_0 (nbr 2 c)).view.set
    · rw [Finset.piecewise_eq_of_mem _ _ _ hm]
    · rw [Finset.piecewise_eq_of_notMem _ _ _ hm]
  have h := val_ag3_1 A B c g0 fa hg0 hfa
  rw [← hpw] at h
  exact h

/-- A block of 256 rows whose entries are the finished entries at the eighth of the neighbour across axis 1, stored into
    the accumulator's block 8, makes that block hold what the result copy 8 moves. -/
theorem val_out8_of (c : Dev nD) (f8 : Buf (Elt Ideal) ((outSrcM8 c).view.loc (c : Thread nD τ))) (v1364 : FVec Ideal S256x384 .f32)
    (hv : ∀ (r : Fin 256) (jj : Fin 384), v1364 (ix2 r jj) = agSpec A B 2 0 (nbr 1 c) r.val jj.val) :
    (Vreal A B).out8 c ((outSrcM8 c).view.read (Elt Ideal) (((Memref.whole cc0_scratch0 : Memref sig .tc .vmem S2048x2048 .f32).access (Rect.unit (s := S2048x2048) (k0_off88 c) S256x384.size (k0_off88_inb c))).write (Elt Ideal) f8 (k0_pay90 (F := Ideal) v1364) Finset.univ)) := by
  intro r jj
  have hq := cy_le c
  have h01 : ownRow 2 0 (nbr 1 c) = cz c * 1024 + cx c * 512 + (1 - cy c) * 256 := by simp [ownRow, coordN, cz_nbr1, cx_nbr1, cy_nbr1]
  have ho : outRow c 8 = cz c * 1024 + cx c * 512 + (1 - cy c) * 256 := by simp [outRow, coordN]
  have hc : outColLo 8 = colLo 2 := by simp [outColLo, colLo]
  have hidx : (outSrcM8 c).view.emb (ix2 r jj) = ((Memref.whole cc0_scratch0 : Memref sig .tc .vmem S2048x2048 .f32).access (Rect.unit (s := S2048x2048) (k0_off88 c) S256x384.size (k0_off88_inb c))).emb (ix2 r jj) := by
    apply Shape.idx_ext₂
    · show k0_off89 c 0 + 1 * r.val = k0_off88 c 0 + 1 * r.val
      rw [off89_eq, off88_eq]
    · show k0_off89 c 1 + 1 * jj.val = k0_off88 c 1 + 1 * jj.val
      rw [off89_eq, off88_eq]
  have e1 : (outSrcM8 c).view.read (Elt Ideal) (((Memref.whole cc0_scratch0 : Memref sig .tc .vmem S2048x2048 .f32).access (Rect.unit (s := S2048x2048) (k0_off88 c) S256x384.size (k0_off88_inb c))).write (Elt Ideal) f8 (k0_pay90 (F := Ideal) v1364) Finset.univ) (ix2 r jj) = ((Memref.whole cc0_scratch0 : Memref sig .tc .vmem S2048x2048 .f32).access (Rect.unit (s := S2048x2048) (k0_off88 c) S256x384.size (k0_off88_inb c))).read (Elt Ideal) (((Memref.whole cc0_scratch0 : Memref sig .tc .vmem S2048x2048 .f32).access (Rect.unit (s := S2048x2048) (k0_off88 c) S256x384.size (k0_off88_inb c))).write (Elt Ideal) f8 (k0_pay90 (F := Ideal) v1364) Finset.univ) (ix2 r jj) := by
    rw [View.read_apply, View.read_apply, hidx]
  rw [e1, View.read_write_of_mem _ _ (Finset.mem_univ _)]
  unfold k0_pay90
  simp only [shapeCast_self]
  refine (hv r jj).trans ?_
  show Cert.RefSide.gelu1 (tot A B (ownRow 2 0 (nbr 1 c) + r.val) (colLo 2 + jj.val)) = Cert.RefSide.gelu1 (tot A B (outRow c 8 + r.val) (outColLo 8 + jj.val))
  rw [h01, ho, hc]

/-- Read through the arrived eighth's own rows, the joined rows of group 3 are the arrived eighth. -/
theorem pw_arr3_0 (c : Dev nD) (g3 : Buf (Elt Ideal) ((agM3_0 c).view.loc (c : Thread nD τ))) (fa : Buf (Elt Ideal) ((agM3_0 (nbr 2 c)).view.loc (c : Thread nD τ)))
    (hfa : (Vreal A B).ag3_0 (nbr 2 c) ((agM3_0 (nbr 2 c)).view.read (Elt Ideal) fa)) :
    (Vreal A B).ag3_0 (nbr 2 c) ((agM3_0 (nbr 2 c)).view.read (Elt Ideal) ((agM3_0 (nbr 2 c)).view.set.piecewise fa g3)) := by
  intro r jj
  have e : (agM3_0 (nbr 2 c)).view.read (Elt Ideal) ((agM3_0 (nbr 2 c)).view.set.piecewise fa g3) (ix2 r jj) = (agM3_0 (nbr 2 c)).view.read (Elt Ideal) fa (ix2 r jj) := by
    rw [View.read_apply, View.read_apply, Finset.piecewise_eq_of_mem _ _ _ (View.emb_mem_set _ _)]
  exact e.trans (hfa r jj)

set_option maxHeartbeats 2000000 in
include hagree in
theorem part41_real (c : Dev nD) (κwR κs κr κo κw1 : ℕ) (W : Waits sig Unit) (v2 v8 v1194 v1197 : BitVec 32) (g0 : Buf (Elt Ideal) ((agM0_0 c).view.loc (c : Thread nD τ))) (f6 : Buf (Elt Ideal) ((outSrcM6 c).view.loc (c : Thread nD τ))) (fd : Buf (Elt Ideal) ((outDstM6 c).view.loc (c : Thread nD τ))) :
    iprop((cellInv ER (sched (Vreal A B)) κwR (cell c (.agR 0 0)) ∗ cellInv ER (sched (Vreal A B)) κs (cell c (.agS 0 1)) ∗ cellInv ER (sched (Vreal A B)) κr (cell (nbr 1 c) (.agR 0 1))
        ∗ cellInv ER (sched (Vreal A B)) κo (cell c (.out 6)) ∗ cellInv ER (sched (Vreal A B)) κw1 (cell c (.agS 1 0))
        ∗ reached ER (cell c (.agS 0 1)) 0 ∗ reached ER (cell (nbr 1 c) (.agR 0 1)) 0 ∗ reached ER (cell c (.out 6)) 0
        ∗ dutyTok ER (cell c (.agS 0 1)) 0 (0 : Fin 3) ∗ dutyTok ER (cell (nbr 1 c) (.agR 0 1)) 0 (0 : Fin 3) ∗ dutyTok ER (cell c (.out 6)) 0 (0 : Fin 3)
        ∗ cred (tallyAt (cell c (.agR 0 0)) () (amt (.agR 0 0))) ∗ atPos ER (cell c (.agR 0 0)) 0 ∅ 0
        ∗ cred (tallyAt (cell c (.agS 1 0)) () (amt (.agR 1 0))) ∗ atPos ER (cell c (.agS 1 0)) 0 ∅ 0
        ∗ owes (c : Thread nD τ) (Owe c 27) W ∗ levAts L lv
        ∗ ptsAny (F := Ideal) (nbr 1 c) (agM0_1 c)
        ∗ ptsLent (F := Ideal) c (agM0_0 c) ∗ ((agM0_0 c).view.loc (c : Thread nD τ) ↦[(agM0_0 c).view.set]{fullShare.right} g0)
        ∗ heldW c (outSrcM6 c) f6 ∗ heldW c (outDstM6 c) fd)
        ∗ ⌜(Vreal A B).ag0_0 c ((agM0_0 c).view.read (Elt Ideal) g0)⌝)
      ⊢ wp frame (wpE (defs₀ (F := Ideal)) 𝒱₀ c none) Set.univ
          (k0_part41 (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23 c v2 v8 v1194 v1197)
          (fun r => iprop(∃ fa : Buf (Elt Ideal) ((agM0_0 (nbr 2 c)).view.loc (c : Thread nD τ)),
            ⌜r = ⟨Scalar.xori v2 3#32, Scalar.subi v1194 (Scalar.muli v8 512#32), Scalar.addi (Scalar.subi v1194 (Scalar.muli v8 512#32)) (Scalar.muli (Scalar.subi 1#32 v8) 512#32)⟩⌝
            ∗ ⌜(Vreal A B).ag0_0 (nbr 2 c) ((agM0_0 (nbr 2 c)).view.read (Elt Ideal) fa)⌝
            ∗ ⌜(Vreal A B).ag0_1 c ((agM0_1 c).view.read (Elt Ideal) ((agM0_0 (nbr 2 c)).view.set.piecewise fa g0))⌝
            ∗ owes (c : Thread nD τ) (Owe c 28) (insert ((CK.agS 1 0).sem, ()) (insert ((CK.agR 0 0).sem, ()) W))
            ∗ atPos ER (cell c (.agR 0 0)) 1 ∅ 0 ∗ atPos ER (cell c (.agS 1 0)) 1 ∅ 0
            ∗ cred (tallyAt (cell c (.agS 0 1)) () (amt (.agR 0 1))) ∗ cred (tallyAt (cell c (.out 6)) () (amt (.out 6)))
            ∗ ((agM0_1 c).view.loc (c : Thread nD τ) ↦[(agM0_1 c).view.set]{fullShare.right} ((agM0_0 (nbr 2 c)).view.set.piecewise fa g0))
            ∗ ptsLent (F := Ideal) c (agM1_0 c))) := by
  iintro ⟨Hpre, %h1⟩
  have hpost : ∀ r : (Σ' (v1278 : BitVec 32) (v1288 : BitVec 32), BitVec 32), (iprop(∃ fa : Buf (Elt Ideal) ((agM0_0 (nbr 2 c)).view.loc (c : Thread nD τ)),
            ⌜r = ⟨Scalar.xori v2 3#32, Scalar.subi v1194 (Scalar.muli v8 512#32), Scalar.addi (Scalar.subi v1194 (Scalar.muli v8 512#32)) (Scalar.muli (Scalar.subi 1#32 v8) 512#32)⟩⌝
            ∗ ⌜(Vreal A B).ag0_0 (nbr 2 c) ((agM0_0 (nbr 2 c)).view.read (Elt Ideal) fa)⌝
            ∗ owes (c : Thread nD τ) (Owe c 28) (insert ((CK.agS 1 0).sem, ()) (insert ((CK.agR 0 0).sem, ()) W))
            ∗ atPos ER (cell c (.agR 0 0)) 1 ∅ 0 ∗ atPos ER (cell c (.agS 1 0)) 1 ∅ 0
            ∗ cred (tallyAt (cell c (.agS 0 1)) () (amt (.agR 0 1))) ∗ cred (tallyAt (cell c (.out 6)) () (amt (.out 6)))
            ∗ ((agM0_1 c).view.loc (c : Thread nD τ) ↦[(agM0_1 c).view.set]{fullShare.right} ((agM0_0 (nbr 2 c)).view.set.piecewise fa g0))
            ∗ ptsLent (F := Ideal) c (agM1_0 c)) : sProp 𝕄) ⊢ iprop(∃ fa : Buf (Elt Ideal) ((agM0_0 (nbr 2 c)).view.loc (c : Thread nD τ)),
            ⌜r = ⟨Scalar.xori v2 3#32, Scalar.subi v1194 (Scalar.muli v8 512#32), Scalar.addi (Scalar.subi v1194 (Scalar.muli v8 512#32)) (Scalar.muli (Scalar.subi 1#32 v8) 512#32)⟩⌝
            ∗ ⌜(Vreal A B).ag0_0 (nbr 2 c) ((agM0_0 (nbr 2 c)).view.read (Elt Ideal) fa)⌝
            ∗ ⌜(Vreal A B).ag0_1 c ((agM0_1 c).view.read (Elt Ideal) ((agM0_0 (nbr 2 c)).view.set.piecewise fa g0))⌝
            ∗ owes (c : Thread nD τ) (Owe c 28) (insert ((CK.agS 1 0).sem, ()) (insert ((CK.agR 0 0).sem, ()) W))
            ∗ atPos ER (cell c (.agR 0 0)) 1 ∅ 0 ∗ atPos ER (cell c (.agS 1 0)) 1 ∅ 0
            ∗ cred (tallyAt (cell c (.agS 0 1)) () (amt (.agR 0 1))) ∗ cred (tallyAt (cell c (.out 6)) () (amt (.out 6)))
            ∗ ((agM0_1 c).view.loc (c : Thread nD τ) ↦[(agM0_1 c).view.set]{fullShare.right} ((agM0_0 (nbr 2 c)).view.set.piecewise fa g0))
            ∗ ptsLent (F := Ideal) c (agM1_0 c)) := by
    intro r
    iintro ⟨%fa, %hr, %hfa, H⟩
    iexists fa
    isplitr; · ipureintro; exact hr
    isplitr; · ipureintro; exact hfa
    isplitr; · ipureintro; exact val_ag0_1_nat A B c g0 fa h1 hfa
    iexact H
  iapply (wp_mono frame (wpE (defs₀ (F := Ideal)) 𝒱₀ c none) Set.univ hpost)
  iapply (part41_run (Vreal A B) c κwR κs κr κo κw1 W v2 v8 v1194 v1197 g0 f6 fd (fun fa hfa => val_ag0_1_nat A B c g0 fa h1 hfa) (fun fa hfa => val_out6_nat A B c g0 fa f6 hfa))
  iexact Hpre

set_option maxHeartbeats 2000000 in
include hagree in
theorem part42_real (c : Dev nD) (κwR κs κr κo : ℕ) (W : Waits sig Unit) (v2 v9 v1198 v1208 v1211 : BitVec 32) (g1 : Buf (Elt Ideal) ((agM1_0 c).view.loc (c : Thread nD τ))) (f7 : Buf (Elt Ideal) ((outSrcM7 c).view.loc (c : Thread nD τ))) (fd : Buf (Elt Ideal) ((outDstM7 c).view.loc (c : Thread nD τ))) :
    iprop((cellInv ER (sched (Vreal A B)) κwR (cell c (.agR 1 0)) ∗ cellInv ER (sched (Vreal A B)) κs (cell c (.agS 1 1)) ∗ cellInv ER (sched (Vreal A B)) κr (cell (nbr 2 c) (.agR 1 1))
        ∗ cellInv ER (sched (Vreal A B)) κo (cell c (.out 7))
        ∗ reached ER (cell c (.agS 1 1)) 0 ∗ reached ER (cell (nbr 2 c) (.agR 1 1)) 0 ∗ reached ER (cell c (.out 7)) 0
        ∗ dutyTok ER (cell c (.agS 1 1)) 0 (0 : Fin 3) ∗ dutyTok ER (cell (nbr 2 c) (.agR 1 1)) 0 (0 : Fin 3) ∗ dutyTok ER (cell c (.out 7)) 0 (0 : Fin 3)
        ∗ cred (tallyAt (cell c (.agR 1 0)) () (amt (.agR 1 0))) ∗ atPos ER (cell c (.agR 1 0)) 0 ∅ 0
        ∗ owes (c : Thread nD τ) (Owe c 28) W ∗ levAts L lv
        ∗ ptsAny (F := Ideal) (nbr 2 c) (agM1_1 c)
        ∗ ptsLent (F := Ideal) c (agM1_0 c) ∗ ((agM1_0 c).view.loc (c : Thread nD τ) ↦[(agM1_0 c).view.set]{fullShare.right} g1)
        ∗ heldW c (outSrcM7 c) f7 ∗ heldW c (outDstM7 c) fd)
        ∗ ⌜(Vreal A B).ag1_0 c ((agM1_0 c).view.read (Elt Ideal) g1)⌝)
      ⊢ wp frame (wpE (defs₀ (F := Ideal)) 𝒱₀ c none) Set.univ
          (k0_part42 (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23 c v2 v9 v1198 v1208 v1211)
          (fun r => iprop(∃ fa : Buf (Elt Ideal) ((agM1_0 (nbr 0 c)).view.loc (c : Thread nD τ)),
            ⌜r = ⟨Scalar.xori v2 4#32, Scalar.subi v1208 (Scalar.muli v9 512#32), Scalar.addi (Scalar.subi v1208 (Scalar.muli v9 512#32)) (Scalar.muli (Scalar.subi 1#32 v9) 512#32)⟩⌝
            ∗ ⌜(Vreal A B).ag1_0 (nbr 0 c) ((agM1_0 (nbr 0 c)).view.read (Elt Ideal) fa)⌝
            ∗ ⌜(Vreal A B).ag1_1 c ((agM1_1 c).view.read (Elt Ideal) ((agM1_0 (nbr 0 c)).view.set.piecewise fa g1))⌝
            ∗ owes (c : Thread nD τ) (Owe c 29) (insert ((CK.agR 1 0).sem, ()) W)
            ∗ atPos ER (cell c (.agR 1 0)) 1 ∅ 0
            ∗ cred (tallyAt (cell c (.agS 1 1)) () (amt (.agR 1 1))) ∗ cred (tallyAt (cell c (.out 7)) () (amt (.out 7)))
            ∗ ((agM1_1 c).view.loc (c : Thread nD τ) ↦[(agM1_1 c).view.set]{fullShare.right} ((agM1_0 (nbr 0 c)).view.set.piecewise fa g1)))) := by
  iintro ⟨Hpre, %h1⟩
  have hpost : ∀ r : (Σ' (v1313 : BitVec 32) (v1323 : BitVec 32), BitVec 32), (iprop(∃ fa : Buf (Elt Ideal) ((agM1_0 (nbr 0 c)).view.loc (c : Thread nD τ)),
            ⌜r = ⟨Scalar.xori v2 4#32, Scalar.subi v1208 (Scalar.muli v9 512#32), Scalar.addi (Scalar.subi v1208 (Scalar.muli v9 512#32)) (Scalar.muli (Scalar.subi 1#32 v9) 512#32)⟩⌝
            ∗ ⌜(Vreal A B).ag1_0 (nbr 0 c) ((agM1_0 (nbr 0 c)).view.read (Elt Ideal) fa)⌝
            ∗ owes (c : Thread nD τ) (Owe c 29) (insert ((CK.agR 1 0).sem, ()) W)
            ∗ atPos ER (cell c (.agR 1 0)) 1 ∅ 0
            ∗ cred (tallyAt (cell c (.agS 1 1)) () (amt (.agR 1 1))) ∗ cred (tallyAt (cell c (.out 7)) () (amt (.out 7)))
            ∗ ((agM1_1 c).view.loc (c : Thread nD τ) ↦[(agM1_1 c).view.set]{fullShare.right} ((agM1_0 (nbr 0 c)).view.set.piecewise fa g1))) : sProp 𝕄) ⊢ iprop(∃ fa : Buf (Elt Ideal) ((agM1_0 (nbr 0 c)).view.loc (c : Thread nD τ)),
            ⌜r = ⟨Scalar.xori v2 4#32, Scalar.subi v1208 (Scalar.muli v9 512#32), Scalar.addi (Scalar.subi v1208 (Scalar.muli v9 512#32)) (Scalar.muli (Scalar.subi 1#32 v9) 512#32)⟩⌝
            ∗ ⌜(Vreal A B).ag1_0 (nbr 0 c) ((agM1_0 (nbr 0 c)).view.read (Elt Ideal) fa)⌝
            ∗ ⌜(Vreal A B).ag1_1 c ((agM1_1 c).view.read (Elt Ideal) ((agM1_0 (nbr 0 c)).view.set.piecewise fa g1))⌝
            ∗ owes (c : Thread nD τ) (Owe c 29) (insert ((CK.agR 1 0).sem, ()) W)
            ∗ atPos ER (cell c (.agR 1 0)) 1 ∅ 0
            ∗ cred (tallyAt (cell c (.agS 1 1)) () (amt (.agR 1 1))) ∗ cred (tallyAt (cell c (.out 7)) () (amt (.out 7)))
            ∗ ((agM1_1 c).view.loc (c : Thread nD τ) ↦[(agM1_1 c).view.set]{fullShare.right} ((agM1_0 (nbr 0 c)).view.set.piecewise fa g1))) := by
    intro r
    iintro ⟨%fa, %hr, %hfa, H⟩
    iexists fa
    isplitr; · ipureintro; exact hr
    isplitr; · ipureintro; exact hfa
    isplitr; · ipureintro; exact val_ag1_1_nat A B c g1 fa h1 hfa
    iexact H
  iapply (wp_mono frame (wpE (defs₀ (F := Ideal)) 𝒱₀ c none) Set.univ hpost)
  iapply (part42_run (Vreal A B) c κwR κs κr κo W v2 v9 v1198 v1208 v1211 g1 f7 fd (fun fa hfa => val_ag1_1_nat A B c g1 fa h1 hfa) (fun fa hfa => val_out7_nat A B c g1 fa f7 hfa))
  iexact Hpre

set_option maxHeartbeats 2000000 in
include hagree in
theorem part44_real (c : Dev nD) (κo κwS κwR κs κr : ℕ) (W : Waits sig Unit) (v2 v8 v1226 v1236 : BitVec 32) (v1364 : FVec Ideal S256x384 .f32) (v1366 : Vec Ideal S256x384 .f32) (g3 : Buf (Elt Ideal) ((agM3_0 c).view.loc (c : Thread nD τ))) (f8 : Buf (Elt Ideal) ((outSrcM8 c).view.loc (c : Thread nD τ))) (fd : Buf (Elt Ideal) ((outDstM8 c).view.loc (c : Thread nD τ))) :
    iprop((cellInv ER (sched (Vreal A B)) κo (cell c (.out 8)) ∗ cellInv ER (sched (Vreal A B)) κwS (cell c (.agS 3 0)) ∗ cellInv ER (sched (Vreal A B)) κwR (cell c (.agR 3 0))
        ∗ cellInv ER (sched (Vreal A B)) κs (cell c (.agS 3 1)) ∗ cellInv ER (sched (Vreal A B)) κr (cell (nbr 1 c) (.agR 3 1))
        ∗ reached ER (cell c (.out 8)) 0 ∗ reached ER (cell c (.agS 3 1)) 0 ∗ reached ER (cell (nbr 1 c) (.agR 3 1)) 0
        ∗ dutyTok ER (cell c (.out 8)) 0 (0 : Fin 3) ∗ dutyTok ER (cell c (.agS 3 1)) 0 (0 : Fin 3) ∗ dutyTok ER (cell (nbr 1 c) (.agR 3 1)) 0 (0 : Fin 3)
        ∗ cred (tallyAt (cell c (.agS 3 0)) () (amt (.agR 3 0))) ∗ atPos ER (cell c (.agS 3 0)) 0 ∅ 0
        ∗ cred (tallyAt (cell c (.agR 3 0)) () (amt (.agR 3 0))) ∗ atPos ER (cell c (.agR 3 0)) 0 ∅ 0
        ∗ owes (c : Thread nD τ) (Owe c 30) W ∗ levAts L lv
        ∗ ptsAny (F := Ideal) (nbr 1 c) (agM3_1 c)
        ∗ ((agM3_0 c).view.loc (c : Thread nD τ) ↦[(agM3_0 c).view.set]{fullShare.right} g3)
        ∗ heldW c (outSrcM8 c) f8 ∗ heldW c (outDstM8 c) fd)
        ∗ ⌜∀ (r' : Fin 256) (jj : Fin 384), v1364 (ix2 r' jj) = agSpec A B 2 0 (nbr 1 c) r'.val jj.val⌝
        ∗ ⌜(Vreal A B).ag3_0 c ((agM3_0 c).view.read (Elt Ideal) g3)⌝)
      ⊢ wp frame (wpE (defs₀ (F := Ideal)) 𝒱₀ c none) Set.univ
          (k0_part44 (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23 c v2 v8 v1226 v1236 v1364 v1366)
          (fun r => iprop(∃ fa : Buf (Elt Ideal) ((agM3_0 (nbr 2 c)).view.loc (c : Thread nD τ)),
            ⌜r = ⟨Scalar.xori v2 3#32, Scalar.subi v1236 (Scalar.muli v8 512#32)⟩⌝
            ∗ ⌜(Vreal A B).ag3_0 (nbr 2 c) ((agM3_0 (nbr 2 c)).view.read (Elt Ideal) fa)⌝
            ∗ ⌜(Vreal A B).ag3_1 c ((agM3_1 c).view.read (Elt Ideal) ((agM3_0 (nbr 2 c)).view.set.piecewise fa g3))⌝
            ∗ ⌜(Vreal A B).ag3_0 (nbr 2 c) ((agM3_0 (nbr 2 c)).view.read (Elt Ideal) ((agM3_0 (nbr 2 c)).view.set.piecewise fa g3))⌝
            ∗ cred (tallyAt (cell c (.out 8)) () (amt (.out 8)))
            ∗ owes (c : Thread nD τ) (Owe c 31) (insert ((CK.agR 3 0).sem, ()) (insert ((CK.agS 3 0).sem, ()) W))
            ∗ atPos ER (cell c (.agS 3 0)) 1 ∅ 0 ∗ atPos ER (cell c (.agR 3 0)) 1 ∅ 0
            ∗ cred (tallyAt (cell c (.agS 3 1)) () (amt (.agR 3 1)))
            ∗ ((agM3_1 c).view.loc (c : Thread nD τ) ↦[(agM3_1 c).view.set]{fullShare.right} ((agM3_0 (nbr 2 c)).view.set.piecewise fa g3)))) := by
  iintro ⟨Hpre, %h1, %h2⟩
  have hpost : ∀ r : (Σ' (v1383 : BitVec 32), BitVec 32), (iprop(∃ fa : Buf (Elt Ideal) ((agM3_0 (nbr 2 c)).view.loc (c : Thread nD τ)),
            ⌜r = ⟨Scalar.xori v2 3#32, Scalar.subi v1236 (Scalar.muli v8 512#32)⟩⌝
            ∗ ⌜(Vreal A B).ag3_0 (nbr 2 c) ((agM3_0 (nbr 2 c)).view.read (Elt Ideal) fa)⌝
            ∗ cred (tallyAt (cell c (.out 8)) () (amt (.out 8)))
            ∗ owes (c : Thread nD τ) (Owe c 31) (insert ((CK.agR 3 0).sem, ()) (insert ((CK.agS 3 0).sem, ()) W))
            ∗ atPos ER (cell c (.agS 3 0)) 1 ∅ 0 ∗ atPos ER (cell c (.agR 3 0)) 1 ∅ 0
            ∗ cred (tallyAt (cell c (.agS 3 1)) () (amt (.agR 3 1)))
            ∗ ((agM3_1 c).view.loc (c : Thread nD τ) ↦[(agM3_1 c).view.set]{fullShare.right} ((agM3_0 (nbr 2 c)).view.set.piecewise fa g3))) : sProp 𝕄) ⊢ iprop(∃ fa : Buf (Elt Ideal) ((agM3_0 (nbr 2 c)).view.loc (c : Thread nD τ)),
            ⌜r = ⟨Scalar.xori v2 3#32, Scalar.subi v1236 (Scalar.muli v8 512#32)⟩⌝
            ∗ ⌜(Vreal A B).ag3_0 (nbr 2 c) ((agM3_0 (nbr 2 c)).view.read (Elt Ideal) fa)⌝
            ∗ ⌜(Vreal A B).ag3_1 c ((agM3_1 c).view.read (Elt Ideal) ((agM3_0 (nbr 2 c)).view.set.piecewise fa g3))⌝
            ∗ ⌜(Vreal A B).ag3_0 (nbr 2 c) ((agM3_0 (nbr 2 c)).view.read (Elt Ideal) ((agM3_0 (nbr 2 c)).view.set.piecewise fa g3))⌝
            ∗ cred (tallyAt (cell c (.out 8)) () (amt (.out 8)))
            ∗ owes (c : Thread nD τ) (Owe c 31) (insert ((CK.agR 3 0).sem, ()) (insert ((CK.agS 3 0).sem, ()) W))
            ∗ atPos ER (cell c (.agS 3 0)) 1 ∅ 0 ∗ atPos ER (cell c (.agR 3 0)) 1 ∅ 0
            ∗ cred (tallyAt (cell c (.agS 3 1)) () (amt (.agR 3 1)))
            ∗ ((agM3_1 c).view.loc (c : Thread nD τ) ↦[(agM3_1 c).view.set]{fullShare.right} ((agM3_0 (nbr 2 c)).view.set.piecewise fa g3))) := by
    intro r
    iintro ⟨%fa, %hr, %hfa, H⟩
    iexists fa
    isplitr; · ipureintro; exact hr
    isplitr; · ipureintro; exact hfa
    isplitr; · ipureintro; exact val_ag3_1_nat A B c g3 fa h2 hfa
    isplitr; · ipureintro; exact pw_arr3_0 A B c g3 fa hfa
    iexact H
  iapply (wp_mono frame (wpE (defs₀ (F := Ideal)) 𝒱₀ c none) Set.univ hpost)
  iapply (part44_run (Vreal A B) c κo κwS κwR κs κr W v2 v8 v1226 v1236 v1364 v1366 g3 f8 fd (val_out8_of A B c f8 v1364 h1) (fun fa hfa => val_ag3_1_nat A B c g3 fa h2 hfa))
  iexact Hpre

end Cert.KernelIdeal.Proto

end
-- ==== Proof.RealE4.lean ====
/-
The stretches of a device's kernel body that finish column groups 4 and 5, with every value named: the device's own
256 rows, summed over all eight shares and passed through the activation, are stored back into the accumulator, rounded
into the all-gather buffer's own rows, and the finished block is copied to the result array.
-/
import proofs.«900882_g7700000000000883_dist_matmul_gelu_kshard_i_m2048_n2048_k1024_v7x_i8_f32_1_alg».proof.Proof.Body36
import proofs.«900882_g7700000000000883_dist_matmul_gelu_kshard_i_m2048_n2048_k1024_v7x_i8_f32_1_alg».proof.Proof.Body37
import proofs.«900882_g7700000000000883_dist_matmul_gelu_kshard_i_m2048_n2048_k1024_v7x_i8_f32_1_alg».proof.Proof.ValGelu
import proofs.«900882_g7700000000000883_dist_matmul_gelu_kshard_i_m2048_n2048_k1024_v7x_i8_f32_1_alg».proof.Proof.ValStep2
import proofs.«900882_g7700000000000883_dist_matmul_gelu_kshard_i_m2048_n2048_k1024_v7x_i8_f32_1_alg».proof.Proof.AccInv

set_option maxRecDepth 100000

noncomputable section

namespace Cert.KernelIdeal.Proto

open Cert.KernelIdeal Cert.KernelIdeal.Gen Cert.KernelIdeal.Topo
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open scoped BigOperators

local notation "𝕄" => MT nD τ sig Unit (Elt Ideal) ℕ UU ℕ

variable (A : (⟨2, ![2048, 8192]⟩ : Shape).Idx → EReal) (B : (⟨2, ![8192, 2048]⟩ : Shape).Idx → EReal)
  (m : (ℓ : Loc nD τ sig) → Buf (Elt Ideal) ℓ)
  (hagree : ∀ c : Dev nD,
      m ((c : Thread nD τ).loc main_arg0) = Layout.block ⟨2, ![2048, 1024]⟩ ⟨2, ![2048, 8192]⟩ 1 8 c A
      ∧ m ((c : Thread nD τ).loc main_arg1) = Layout.block ⟨2, ![1024, 2048]⟩ ⟨2, ![8192, 2048]⟩ 0 8 c B)

set_option maxHeartbeats 2000000 in
include hagree in
theorem part36_real (c : Dev nD) (κo κs κr : ℕ) (W : Waits sig Unit) (v790 v844 v863 : BitVec 32) (v1109 v1117 : FVec Ideal S256x256 .f32) (cst_837 : Ideal .f32) (f4 : Buf (Elt Ideal) ((outSrcM4 c).view.loc (c : Thread nD τ))) (f5 : Buf (Elt Ideal) ((outSrcM5 c).view.loc (c : Thread nD τ))) (g4 : Buf (Elt Ideal) ((agM4_0 c).view.loc (c : Thread nD τ))) (fd : Buf (Elt Ideal) ((outDstM4 c).view.loc (c : Thread nD τ))) :
    iprop((cellInv ER (sched (Vreal A B)) κo (cell c (.out 4)) ∗ cellInv ER (sched (Vreal A B)) κs (cell c (.rsS 5 2)) ∗ cellInv ER (sched (Vreal A B)) κr (cell c (.rsR 5 2))
        ∗ reached ER (cell c (.out 4)) 0 ∗ dutyTok ER (cell c (.out 4)) 0 (0 : Fin 3)
        ∗ cred (tallyAt (cell c (.rsS 5 2)) () (amt (.rsR 5 2))) ∗ cred (tallyAt (cell c (.rsR 5 2)) () (amt (.rsR 5 2)))
        ∗ atPos ER (cell c (.rsS 5 2)) 0 ∅ 0 ∗ atPos ER (cell c (.rsR 5 2)) 0 ∅ 0
        ∗ owes (c : Thread nD τ) (Owe c 21) W ∗ levAts L lv
        ∗ heldW c (outSrcM4 c) f4 ∗ heldW c (outSrcM5 c) f5 ∗ heldW c (agM4_0 c) g4 ∗ heldW c (outDstM4 c) fd)
        ∗ ⌜∀ f : Buf (Elt Ideal) ((outSrcM4 c).view.loc (c : Thread nD τ)), (Vreal A B).out4 c ((outSrcM4 c).view.read (Elt Ideal) (((Memref.whole cc0_scratch0 : Memref sig .tc .vmem S2048x2048 .f32).access (Rect.unit (s := S2048x2048) (k0_off51 c) S256x256.size (k0_off51_inb c))).write (Elt Ideal) f (k0_pay81 (F := Ideal) v1109 v1117 cst_837) Finset.univ))⌝
        ∗ ⌜∀ g : Buf (Elt Ideal) ((agM4_0 c).view.loc (c : Thread nD τ)), (Vreal A B).ag4_0 c ((agM4_0 c : Memref sig .tc .vmem S256x256 .bf16).view.read (Elt Ideal) (((Memref.whole cc0_scratch17 : Memref sig .tc .vmem S2048x256 .bf16).access (Rect.unit (s := S2048x256) (k0_off68 c) S256x256.size (k0_off68_inb c))).write (Elt Ideal) g (k0_pay82 (F := Ideal) v1109 v1117 cst_837) Finset.univ))⌝
        ∗ ⌜AccInv A B c ![5, 5, 5, 5, 4, 4] f5⌝)
      ⊢ wp frame (wpE (defs₀ (F := Ideal)) 𝒱₀ c none) Set.univ
          (k0_part36 (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23 c v790 v844 v863 v1109 v1117 cst_837)
          (fun r => iprop((⌜r = ⟨View.readAt (Elt Ideal) (Memref.whole cc0_scratch0 : Memref sig .tc .vmem S2048x2048 .f32).view (Rect.unit (s := S2048x2048) (k0_off55 c) S256x256.size (k0_off55_inb c)).toLoadRect f5, Scalar.subi v844 v844, 1536#32⟩⌝
            ∗ cred (tallyAt (cell c (.out 4)) () (amt (.out 4)))
            ∗ owes (c : Thread nD τ) (Owe c 21) (insert ((CK.rsR 5 2).sem, ()) (insert ((CK.rsS 5 2).sem, ()) W))
            ∗ atPos ER (cell c (.rsS 5 2)) 1 ∅ 0 ∗ atPos ER (cell c (.rsR 5 2)) 1 ∅ 0
            ∗ ptsAny (F := Ideal) c stgM5_2 ∗ ptsIs c commM5_2 ((Vreal A B).rs5_2 (nbr 1 c))
            ∗ heldW c (outSrcM5 c) f5 ∗ heldW c (agM4_0 c) (((Memref.whole cc0_scratch17 : Memref sig .tc .vmem S2048x256 .bf16).access (Rect.unit (s := S2048x256) (k0_off68 c) S256x256.size (k0_off68_inb c))).write (Elt Ideal) g4 (k0_pay82 (F := Ideal) v1109 v1117 cst_837) Finset.univ))
            ∗ ⌜(Vreal A B).ag4_0 c ((agM4_0 c : Memref sig .tc .vmem S256x256 .bf16).view.read (Elt Ideal) (((Memref.whole cc0_scratch17 : Memref sig .tc .vmem S2048x256 .bf16).access (Rect.unit (s := S2048x256) (k0_off68 c) S256x256.size (k0_off68_inb c))).write (Elt Ideal) g4 (k0_pay82 (F := Ideal) v1109 v1117 cst_837) Finset.univ))⌝
            ∗ ⌜AccInv A B c ![5, 5, 5, 5, 5, 4] f5⌝
            ∗ ⌜∀ (r' : Fin 256) (j : Fin 256), ((View.readAt (Elt Ideal) (Memref.whole cc0_scratch0 : Memref sig .tc .vmem S2048x2048 .f32).view (Rect.unit (s := S2048x2048) (k0_off55 c) S256x256.size (k0_off55_inb c)).toLoadRect f5) (ix2 r' j) : EReal) = (share A B c.val (ownRow 5 0 c + r'.val) (colLo 5 + j.val) + share A B (nb 5 0 c).val (ownRow 5 0 c + r'.val) (colLo 5 + j.val)) + (share A B (nb 5 1 c).val (ownRow 5 0 c + r'.val) (colLo 5 + j.val) + share A B (nb 5 0 (nb 5 1 c)).val (ownRow 5 0 c + r'.val) (colLo 5 + j.val))⌝)) := by
  iintro ⟨Hpre, %h1, %h2, %h3⟩
  have hA := h3
  have hpost : ∀ r : (Σ' (v1145 : Vec Ideal S256x256 .f32) (v1146 : BitVec 32), BitVec 32), (iprop(⌜r = ⟨View.readAt (Elt Ideal) (Memref.whole cc0_scratch0 : Memref sig .tc .vmem S2048x2048 .f32).view (Rect.unit (s := S2048x2048) (k0_off55 c) S256x256.size (k0_off55_inb c)).toLoadRect f5, Scalar.subi v844 v844, 1536#32⟩⌝
            ∗ cred (tallyAt (cell c (.out 4)) () (amt (.out 4)))
            ∗ owes (c : Thread nD τ) (Owe c 21) (insert ((CK.rsR 5 2).sem, ()) (insert ((CK.rsS 5 2).sem, ()) W))
            ∗ atPos ER (cell c (.rsS 5 2)) 1 ∅ 0 ∗ atPos ER (cell c (.rsR 5 2)) 1 ∅ 0
            ∗ ptsAny (F := Ideal) c stgM5_2 ∗ ptsIs c commM5_2 ((Vreal A B).rs5_2 (nbr 1 c))
            ∗ heldW c (outSrcM5 c) f5 ∗ heldW c (agM4_0 c) (((Memref.whole cc0_scratch17 : Memref sig .tc .vmem S2048x256 .bf16).access (Rect.unit (s := S2048x256) (k0_off68 c) S256x256.size (k0_off68_inb c))).write (Elt Ideal) g4 (k0_pay82 (F := Ideal) v1109 v1117 cst_837) Finset.univ)) : sProp 𝕄) ⊢ iprop((⌜r = ⟨View.readAt (Elt Ideal) (Memref.whole cc0_scratch0 : Memref sig .tc .vmem S2048x2048 .f32).view (Rect.unit (s := S2048x2048) (k0_off55 c) S256x256.size (k0_off55_inb c)).toLoadRect f5, Scalar.subi v844 v844, 1536#32⟩⌝
            ∗ cred (tallyAt (cell c (.out 4)) () (amt (.out 4)))
            ∗ owes (c : Thread nD τ) (Owe c 21) (insert ((CK.rsR 5 2).sem, ()) (insert ((CK.rsS 5 2).sem, ()) W))
            ∗ atPos ER (cell c (.rsS 5 2)) 1 ∅ 0 ∗ atPos ER (cell c (.rsR 5 2)) 1 ∅ 0
            ∗ ptsAny (F := Ideal) c stgM5_2 ∗ ptsIs c commM5_2 ((Vreal A B).rs5_2 (nbr 1 c))
            ∗ heldW c (outSrcM5 c) f5 ∗ heldW c (agM4_0 c) (((Memref.whole cc0_scratch17 : Memref sig .tc .vmem S2048x256 .bf16).access (Rect.unit (s := S2048x256) (k0_off68 c) S256x256.size (k0_off68_inb c))).write (Elt Ideal) g4 (k0_pay82 (F := Ideal) v1109 v1117 cst_837) Finset.univ))
            ∗ ⌜(Vreal A B).ag4_0 c ((agM4_0 c : Memref sig .tc .vmem S256x256 .bf16).view.read (Elt Ideal) (((Memref.whole cc0_scratch17 : Memref sig .tc .vmem S2048x256 .bf16).access (Rect.unit (s := S2048x256) (k0_off68 c) S256x256.size (k0_off68_inb c))).write (Elt Ideal) g4 (k0_pay82 (F := Ideal) v1109 v1117 cst_837) Finset.univ))⌝
            ∗ ⌜AccInv A B c ![5, 5, 5, 5, 5, 4] f5⌝
            ∗ ⌜∀ (r' : Fin 256) (j : Fin 256), ((View.readAt (Elt Ideal) (Memref.whole cc0_scratch0 : Memref sig .tc .vmem S2048x2048 .f32).view (Rect.unit (s := S2048x2048) (k0_off55 c) S256x256.size (k0_off55_inb c)).toLoadRect f5) (ix2 r' j) : EReal) = (share A B c.val (ownRow 5 0 c + r'.val) (colLo 5 + j.val) + share A B (nb 5 0 c).val (ownRow 5 0 c + r'.val) (colLo 5 + j.val)) + (share A B (nb 5 1 c).val (ownRow 5 0 c + r'.val) (colLo 5 + j.val) + share A B (nb 5 0 (nb 5 1 c)).val (ownRow 5 0 c + r'.val) (colLo 5 + j.val))⌝) := by
    intro r
    iintro H
    isplitl [H]; · iexact H
    isplitr; · ipureintro; exact h2 g4
    isplitr; · ipureintro; exact AccInv.mk6 hA.get0 hA.get1 hA.get2 hA.get3 LJ_drop hA.get5
    ipureintro; exact fun r' j => J3_readAt A B (hA.get5 : J3 A B 5 256 c f5) (k0_off55 c) (k0_off55_inb c) (off55_eq c) r' j
  iapply (wp_mono frame (wpE (defs₀ (F := Ideal)) 𝒱₀ c none) Set.univ hpost)
  iapply (part36_run (Vreal A B) c κo κs κr W v790 v844 v863 v1109 v1117 cst_837 f4 f5 g4 fd (h1 f4))
  iexact Hpre

set_option maxHeartbeats 2000000 in
include hagree in
theorem part37_real (c : Dev nD) (κo : ℕ) (v2 v844 : BitVec 32) (v1145 : Vec Ideal S256x256 .f32) (v1146 c1536_i32_863 : BitVec 32) (f5 : Buf (Elt Ideal) ((outSrcM5 c).view.loc (c : Thread nD τ))) (fc : Buf (Elt Ideal) ((commM5_2 : Memref sig .tc .vmem S256x256 .bf16).view.loc (c : Thread nD τ))) (g5 : Buf (Elt Ideal) ((agM5_0 c).view.loc (c : Thread nD τ))) (fd : Buf (Elt Ideal) ((outDstM5 c).view.loc (c : Thread nD τ))) :
    iprop((cellInv ER (sched (Vreal A B)) κo (cell c (.out 5)) ∗ reached ER (cell c (.out 5)) 0 ∗ dutyTok ER (cell c (.out 5)) 0 (0 : Fin 3)
        ∗ heldW c (commM5_2 : Memref sig .tc .vmem S256x256 .bf16) fc ∗ heldW c (outSrcM5 c) f5 ∗ heldW c (agM5_0 c) g5 ∗ heldW c (outDstM5 c) fd)
        ∗ ⌜∀ (r' : Fin 256) (j : Fin 256), (v1145 (ix2 r' j) : EReal) = (share A B c.val (ownRow 5 0 c + r'.val) (colLo 5 + j.val) + share A B (nb 5 0 c).val (ownRow 5 0 c + r'.val) (colLo 5 + j.val)) + (share A B (nb 5 1 c).val (ownRow 5 0 c + r'.val) (colLo 5 + j.val) + share A B (nb 5 0 (nb 5 1 c)).val (ownRow 5 0 c + r'.val) (colLo 5 + j.val))⌝
        ∗ ⌜(Vreal A B).rs5_2 (nbr 1 c) ((commM5_2 : Memref sig .tc .vmem S256x256 .bf16).view.read (Elt Ideal) fc)⌝)
      ⊢ wp frame (wpE (defs₀ (F := Ideal)) 𝒱₀ c none) Set.univ
          (k0_part37 (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23 c v2 v844 v1145 v1146 c1536_i32_863)
          (fun r => iprop((⌜r = ⟨Scalar.xori v2 4#32, 1#32⟩⌝
            ∗ cred (tallyAt (cell c (.out 5)) () (amt (.out 5)))
            ∗ heldW c (commM5_2 : Memref sig .tc .vmem S256x256 .bf16) fc ∗ heldW c (agM5_0 c) (((Memref.whole cc0_scratch18 : Memref sig .tc .vmem S2048x256 .bf16).access (Rect.unit (s := S2048x256) (k0_off71 c) S256x256.size (k0_off71_inb c))).write (Elt Ideal) g5 (k0_pay86 (F := Ideal) (k0_pay83 (F := Ideal) v1145 (View.readAt (Elt Ideal) (Memref.whole cc0_scratch6 : Memref sig .tc .vmem S1792x256 .bf16).view (Rect.unit (s := S1792x256) (k0_off70 c) S256x256.size (k0_off70_inb c)).toLoadRect fc))) Finset.univ))
            ∗ ⌜(Vreal A B).ag5_0 c ((agM5_0 c).view.read (Elt Ideal) (((Memref.whole cc0_scratch18 : Memref sig .tc .vmem S2048x256 .bf16).access (Rect.unit (s := S2048x256) (k0_off71 c) S256x256.size (k0_off71_inb c))).write (Elt Ideal) g5 (k0_pay86 (F := Ideal) (k0_pay83 (F := Ideal) v1145 (View.readAt (Elt Ideal) (Memref.whole cc0_scratch6 : Memref sig .tc .vmem S1792x256 .bf16).view (Rect.unit (s := S1792x256) (k0_off70 c) S256x256.size (k0_off70_inb c)).toLoadRect fc))) Finset.univ))⌝)) := by
  iintro ⟨Hpre, %h1, %h2⟩
  have hpost : ∀ r : (Σ' (v1184 : BitVec 32), BitVec 32), (iprop(⌜r = ⟨Scalar.xori v2 4#32, 1#32⟩⌝
            ∗ cred (tallyAt (cell c (.out 5)) () (amt (.out 5)))
            ∗ heldW c (commM5_2 : Memref sig .tc .vmem S256x256 .bf16) fc ∗ heldW c (agM5_0 c) (((Memref.whole cc0_scratch18 : Memref sig .tc .vmem S2048x256 .bf16).access (Rect.unit (s := S2048x256) (k0_off71 c) S256x256.size (k0_off71_inb c))).write (Elt Ideal) g5 (k0_pay86 (F := Ideal) (k0_pay83 (F := Ideal) v1145 (View.readAt (Elt Ideal) (Memref.whole cc0_scratch6 : Memref sig .tc .vmem S1792x256 .bf16).view (Rect.unit (s := S1792x256) (k0_off70 c) S256x256.size (k0_off70_inb c)).toLoadRect fc))) Finset.univ)) : sProp 𝕄) ⊢ iprop((⌜r = ⟨Scalar.xori v2 4#32, 1#32⟩⌝
            ∗ cred (tallyAt (cell c (.out 5)) () (amt (.out 5)))
            ∗ heldW c (commM5_2 : Memref sig .tc .vmem S256x256 .bf16) fc ∗ heldW c (agM5_0 c) (((Memref.whole cc0_scratch18 : Memref sig .tc .vmem S2048x256 .bf16).access (Rect.unit (s := S2048x256) (k0_off71 c) S256x256.size (k0_off71_inb c))).write (Elt Ideal) g5 (k0_pay86 (F := Ideal) (k0_pay83 (F := Ideal) v1145 (View.readAt (Elt Ideal) (Memref.whole cc0_scratch6 : Memref sig .tc .vmem S1792x256 .bf16).view (Rect.unit (s := S1792x256) (k0_off70 c) S256x256.size (k0_off70_inb c)).toLoadRect fc))) Finset.univ))
            ∗ ⌜(Vreal A B).ag5_0 c ((agM5_0 c).view.read (Elt Ideal) (((Memref.whole cc0_scratch18 : Memref sig .tc .vmem S2048x256 .bf16).access (Rect.unit (s := S2048x256) (k0_off71 c) S256x256.size (k0_off71_inb c))).write (Elt Ideal) g5 (k0_pay86 (F := Ideal) (k0_pay83 (F := Ideal) v1145 (View.readAt (Elt Ideal) (Memref.whole cc0_scratch6 : Memref sig .tc .vmem S1792x256 .bf16).view (Rect.unit (s := S1792x256) (k0_off70 c) S256x256.size (k0_off70_inb c)).toLoadRect fc))) Finset.univ))⌝) := by
    intro r
    iintro H
    isplitl [H]; · iexact H
    ipureintro; exact val_ag5_0 A B c v1145 fc g5 h1 h2
  iapply (wp_mono frame (wpE (defs₀ (F := Ideal)) 𝒱₀ c none) Set.univ hpost)
  iapply (part37_run (Vreal A B) c κo v2 v844 v1145 v1146 c1536_i32_863 f5 fc g5 fd (val_out5 A B c v1145 fc f5 h1 h2))
  iexact Hpre

end Cert.KernelIdeal.Proto

end
-- ==== Proof.RealW.lean ====
/-
The second stretch with its values named: what it sends across axis 0 is the device's share at the rows it gives
away, and the product it leaves in group 1's staging buffer is the share that the next stretch sends.
-/
import proofs.«900882_g7700000000000883_dist_matmul_gelu_kshard_i_m2048_n2048_k1024_v7x_i8_f32_1_alg».proof.Proof.Body01
import proofs.«900882_g7700000000000883_dist_matmul_gelu_kshard_i_m2048_n2048_k1024_v7x_i8_f32_1_alg».proof.Proof.ValStep0

set_option maxRecDepth 65536

noncomputable section

namespace Cert.KernelIdeal.Proto

open Cert.KernelIdeal Cert.KernelIdeal.Gen Cert.KernelIdeal.Topo
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ UU ℕ

variable (A : (⟨2, ![2048, 8192]⟩ : Shape).Idx → EReal) (B : (⟨2, ![8192, 2048]⟩ : Shape).Idx → EReal)
  (m : (ℓ : Loc nD τ sig) → Buf (Elt Ideal) ℓ)
  (hagree : ∀ c : Dev nD,
      m ((c : Thread nD τ).loc main_arg0) = Layout.block ⟨2, ![2048, 1024]⟩ ⟨2, ![2048, 8192]⟩ 1 8 c A
      ∧ m ((c : Thread nD τ).loc main_arg1) = Layout.block ⟨2, ![1024, 2048]⟩ ⟨2, ![8192, 2048]⟩ 0 8 c B)

include hagree in
theorem part2_real (c : Dev nD) (κs κr : ℕ) (W : Waits sig Unit) (v2 v6 v8 : BitVec 32) (v25 : FVec Ideal S1024x1024 .bf16) (v27 : FVec Ideal S1024x384 .f32)
    (fa : Buf (Elt Ideal) ((Memref.whole cc0_stg0_0 : Memref sig .tc .vmem S2048x1024 .f32).view.loc (c : Thread nD τ)))
    (fb : Buf (Elt Ideal) ((Memref.whole cc0_stg1_0 : Memref sig .tc .vmem S1024x2048 .f32).view.loc (c : Thread nD τ)))
    (f10 : Buf (Elt Ideal) ((Memref.whole cc0_scratch7 : Memref sig .tc .vmem S1024x384 .bf16).view.loc (c : Thread nD τ)))
    (f11 : Buf (Elt Ideal) ((Memref.whole cc0_scratch8 : Memref sig .tc .vmem S1024x384 .bf16).view.loc (c : Thread nD τ)))
    (hea : fa = Astg m c) (heb : fb = Bstg m c)
    (he25 : v25 = k0_pay1 (F := Ideal) (View.readAt (Elt Ideal) (Memref.whole cc0_stg0_0 : Memref sig .tc .vmem S2048x1024 .f32).view (Rect.unit (s := S2048x1024) (k0_off1 c) S1024x1024.size (k0_off1_inb c)).toLoadRect (Astg m c)))
    (he27 : v27 = k0_pay2 (F := Ideal) (View.readAt (Elt Ideal) (Memref.whole cc0_stg1_0 : Memref sig .tc .vmem S1024x2048 .f32).view (Rect.unit (s := S1024x2048) ![0, 0] S1024x384.size inb_S1024x2048_S1024x384_0_0).toLoadRect (Bstg m c)))
    :
    iprop(cellInv ER (sched (Vreal A B)) κs (cell c (.rsS 0 0)) ∗ cellInv ER (sched (Vreal A B)) κr (cell (nbr 0 c) (.rsR 0 0))
        ∗ reached ER (cell c (.rsS 0 0)) 0 ∗ reached ER (cell (nbr 0 c) (.rsR 0 0)) 0
        ∗ dutyTok ER (cell c (.rsS 0 0)) 0 (0 : Fin 3) ∗ dutyTok ER (cell (nbr 0 c) (.rsR 0 0)) 0 (0 : Fin 3)
        ∗ ptsAny (F := Ideal) (nbr 0 c) commM0_0
        ∗ owes (c : Thread nD τ) (Owe c 3) W
        ∗ heldW c (Memref.whole cc0_stg0_0 : Memref sig .tc .vmem S2048x1024 .f32) fa ∗ heldW c (Memref.whole cc0_stg1_0 : Memref sig .tc .vmem S1024x2048 .f32) fb
        ∗ heldW c (Memref.whole cc0_scratch7 : Memref sig .tc .vmem S1024x384 .bf16) f10 ∗ heldW c (Memref.whole cc0_scratch8 : Memref sig .tc .vmem S1024x384 .bf16) f11)
      ⊢ wp frame (wpE (defs₀ (F := Ideal)) 𝒱₀ c none) Set.univ
          (k0_part2 (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23 c v2 v6 v8 v25 v27)
          (fun r => iprop((⌜r = ⟨Scalar.xori v2 1#32, Scalar.muli v6 1024#32, Scalar.xori v2 3#32⟩⌝
            ∗ cred (tallyAt (cell c (.rsS 0 0)) () (amt (.rsR 0 0))) ∗ owes (c : Thread nD τ) (Owe c 4) W
            ∗ heldW c (Memref.whole cc0_stg0_0 : Memref sig .tc .vmem S2048x1024 .f32) fa ∗ heldW c (Memref.whole cc0_stg1_0 : Memref sig .tc .vmem S1024x2048 .f32) fb
            ∗ heldW c (Memref.whole cc0_scratch8 : Memref sig .tc .vmem S1024x384 .bf16)
                ((Memref.whole cc0_scratch8 : Memref sig .tc .vmem S1024x384 .bf16).view.writes (Elt Ideal) f11
                  [⟨Rect.unit (s := S1024x384) ![0, 0] S1024x384.size inb_S1024x384_S1024x384_0_0,
                    k0_pay4 (View.readAt (Elt Ideal) (Memref.whole cc0_stg0_0 : Memref sig .tc .vmem S2048x1024 .f32).view (Rect.unit (s := S2048x1024) (k0_off2 c) S1024x1024.size (k0_off2_inb c)).toLoadRect fa)
                      (View.readAt (Elt Ideal) (Memref.whole cc0_stg1_0 : Memref sig .tc .vmem S1024x2048 .f32).view (Rect.unit (s := S1024x2048) ![0, 384] S1024x384.size inb_S1024x2048_S1024x384_0_384).toLoadRect fb)⟩]))
            ∗ ⌜(Vreal A B).rs1_0 c ((stgM1_0 : Memref sig .tc .vmem S1024x384 .bf16).view.read (Elt Ideal) ((Memref.whole cc0_scratch8 : Memref sig .tc .vmem S1024x384 .bf16).view.writes (Elt Ideal) f11
                  [⟨Rect.unit (s := S1024x384) ![0, 0] S1024x384.size inb_S1024x384_S1024x384_0_0,
                    k0_pay4 (View.readAt (Elt Ideal) (Memref.whole cc0_stg0_0 : Memref sig .tc .vmem S2048x1024 .f32).view (Rect.unit (s := S2048x1024) (k0_off2 c) S1024x1024.size (k0_off2_inb c)).toLoadRect fa)
                      (View.readAt (Elt Ideal) (Memref.whole cc0_stg1_0 : Memref sig .tc .vmem S1024x2048 .f32).view (Rect.unit (s := S1024x2048) ![0, 384] S1024x384.size inb_S1024x2048_S1024x384_0_384).toLoadRect fb)⟩]))⌝)) := by
  subst hea heb he25 he27
  have hout := val_rs1_0 A B m hagree c f11
  iintro Hpre
  iapply (wp_mono frame (wpE (defs₀ (F := Ideal)) 𝒱₀ c none) Set.univ (fun r => by
    iintro H
    isplitl [H]; · iexact H
    ipureintro; exact hout))
  iapply (part2_run (Vreal A B) c κs κr W v2 v6 v8 _ _ _ _ f10 f11 (val_rs0_0 A B m hagree c f10))
  iexact Hpre

end Cert.KernelIdeal.Proto

end
-- ==== Proof.BodyAllReal.lean ====
/-
The body of a device with every value named, over the extended reals: the sixty-two stretches in order, each
stretch's valued lemma applied at its call; what a stretch must know of its inputs is what the stretches before it
have established, and the twenty-four result blocks end holding gelu of the whole product.
-/
import proofs.«900882_g7700000000000883_dist_matmul_gelu_kshard_i_m2048_n2048_k1024_v7x_i8_f32_1_alg».proof.Proof.BodyEnd
import proofs.«900882_g7700000000000883_dist_matmul_gelu_kshard_i_m2048_n2048_k1024_v7x_i8_f32_1_alg».proof.Proof.TopoClosed
import proofs.«900882_g7700000000000883_dist_matmul_gelu_kshard_i_m2048_n2048_k1024_v7x_i8_f32_1_alg».proof.Proof.ValsRealTab
import proofs.«900882_g7700000000000883_dist_matmul_gelu_kshard_i_m2048_n2048_k1024_v7x_i8_f32_1_alg».proof.Proof.Body01
import proofs.«900882_g7700000000000883_dist_matmul_gelu_kshard_i_m2048_n2048_k1024_v7x_i8_f32_1_alg».proof.Proof.Body62
import proofs.«900882_g7700000000000883_dist_matmul_gelu_kshard_i_m2048_n2048_k1024_v7x_i8_f32_1_alg».proof.Proof.RealB
import proofs.«900882_g7700000000000883_dist_matmul_gelu_kshard_i_m2048_n2048_k1024_v7x_i8_f32_1_alg».proof.Proof.RealB2
import proofs.«900882_g7700000000000883_dist_matmul_gelu_kshard_i_m2048_n2048_k1024_v7x_i8_f32_1_alg».proof.Proof.RealC
import proofs.«900882_g7700000000000883_dist_matmul_gelu_kshard_i_m2048_n2048_k1024_v7x_i8_f32_1_alg».proof.Proof.RealC2
import proofs.«900882_g7700000000000883_dist_matmul_gelu_kshard_i_m2048_n2048_k1024_v7x_i8_f32_1_alg».proof.Proof.RealD
import proofs.«900882_g7700000000000883_dist_matmul_gelu_kshard_i_m2048_n2048_k1024_v7x_i8_f32_1_alg».proof.Proof.RealE
import proofs.«900882_g7700000000000883_dist_matmul_gelu_kshard_i_m2048_n2048_k1024_v7x_i8_f32_1_alg».proof.Proof.RealE2
import proofs.«900882_g7700000000000883_dist_matmul_gelu_kshard_i_m2048_n2048_k1024_v7x_i8_f32_1_alg».proof.Proof.RealE3
import proofs.«900882_g7700000000000883_dist_matmul_gelu_kshard_i_m2048_n2048_k1024_v7x_i8_f32_1_alg».proof.Proof.RealE4
import proofs.«900882_g7700000000000883_dist_matmul_gelu_kshard_i_m2048_n2048_k1024_v7x_i8_f32_1_alg».proof.Proof.RealW

set_option maxRecDepth 65536

noncomputable section

namespace Cert.KernelIdeal.Proto

open Cert.KernelIdeal Cert.KernelIdeal.Gen Cert.KernelIdeal.Topo
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ UU ℕ

variable (A : (⟨2, ![2048, 8192]⟩ : Shape).Idx → EReal) (B : (⟨2, ![8192, 2048]⟩ : Shape).Idx → EReal)

set_option maxHeartbeats 400000000 in
theorem body_run_real (m : (ℓ : Loc nD τ sig) → Buf (Elt Ideal) ℓ)
    (hagree : ∀ c : Dev nD,
      m ((c : Thread nD τ).loc main_arg0) = Layout.block ⟨2, ![2048, 1024]⟩ ⟨2, ![2048, 8192]⟩ 1 8 c A
      ∧ m ((c : Thread nD τ).loc main_arg1) = Layout.block ⟨2, ![1024, 2048]⟩ ⟨2, ![8192, 2048]⟩ 0 8 c B)
    (c : Dev nD) (K : Dev nD × Fin 97 → ℕ) (W : Waits sig Unit) :
    bodyStart m (Vreal A B) K c W
      ⊢ wp frame (wpE (defs₀ (F := Ideal)) 𝒱₀ c none) Set.univ
          (cc0_body (Memref.whole cc0_stg0_0) (Memref.isWhole_whole _) (Memref.whole cc0_stg1_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            (Memref.whole cc0_scratch18) (Memref.isWhole_whole _) cc0_scratch19 cc0_scratch20 cc0_scratch21 cc0_scratch22 cc0_scratch23)
          (fun _ => iprop(∃ W', bodyEnd m (Vreal A B) K c W')) := by
  unfold bodyStart ownRecs paidRecs toksLit posLit credLit bufsLit
  iintro ⟨⟨#Hlev, ⟨⟨#HI_bar, #HR_bar⟩, ⟨#HI_rsS00, #HR_rsS00⟩, ⟨#HI_rsS01, #HR_rsS01⟩, ⟨#HI_rsS02, #HR_rsS02⟩, ⟨#HI_rsS10, #HR_rsS10⟩, ⟨#HI_rsS11, #HR_rsS11⟩, ⟨#HI_rsS12, #HR_rsS12⟩, ⟨#HI_rsS20, #HR_rsS20⟩, ⟨#HI_rsS21, #HR_rsS21⟩, ⟨#HI_rsS22, #HR_rsS22⟩, ⟨#HI_rsS30, #HR_rsS30⟩, ⟨#HI_rsS31, #HR_rsS31⟩, ⟨#HI_rsS32, #HR_rsS32⟩, ⟨#HI_rsS40, #HR_rsS40⟩, ⟨#HI_rsS41, #HR_rsS41⟩, ⟨#HI_rsS42, #HR_rsS42⟩, ⟨#HI_rsS50, #HR_rsS50⟩, ⟨#HI_rsS51, #HR_rsS51⟩, ⟨#HI_rsS52, #HR_rsS52⟩, ⟨#HI_rsR00, #HR_rsR00⟩, ⟨#HI_rsR01, #HR_rsR01⟩, ⟨#HI_rsR02, #HR_rsR02⟩, ⟨#HI_rsR10, #HR_rsR10⟩, ⟨#HI_rsR11, #HR_rsR11⟩, ⟨#HI_rsR12, #HR_rsR12⟩, ⟨#HI_rsR20, #HR_rsR20⟩, ⟨#HI_rsR21, #HR_rsR21⟩, ⟨#HI_rsR22, #HR_rsR22⟩, ⟨#HI_rsR30, #HR_rsR30⟩, ⟨#HI_rsR31, #HR_rsR31⟩, ⟨#HI_rsR32, #HR_rsR32⟩, ⟨#HI_rsR40, #HR_rsR40⟩, ⟨#HI_rsR41, #HR_rsR41⟩, ⟨#HI_rsR42, #HR_rsR42⟩, ⟨#HI_rsR50, #HR_rsR50⟩, ⟨#HI_rsR51, #HR_rsR51⟩, ⟨#HI_rsR52, #HR_rsR52⟩, ⟨#HI_agS00, #HR_agS00⟩, ⟨#HI_agS01, #HR_agS01⟩, ⟨#HI_agS02, #HR_agS02⟩, ⟨#HI_agS10, #HR_agS10⟩, ⟨#HI_agS11, #HR_agS11⟩, ⟨#HI_agS12, #HR_agS12⟩, ⟨#HI_agS20, #HR_agS20⟩, ⟨#HI_agS21, #HR_agS21⟩, ⟨#HI_agS22, #HR_agS22⟩, ⟨#HI_agS30, #HR_agS30⟩, ⟨#HI_agS31, #HR_agS31⟩, ⟨#HI_agS32, #HR_agS32⟩, ⟨#HI_agS40, #HR_agS40⟩, ⟨#HI_agS41, #HR_agS41⟩, ⟨#HI_agS42, #HR_agS42⟩, ⟨#HI_agS50, #HR_agS50⟩, ⟨#HI_agS51, #HR_agS51⟩, ⟨#HI_agS52, #HR_agS52⟩, ⟨#HI_agR00, #HR_agR00⟩, ⟨#HI_agR01, #HR_agR01⟩, ⟨#HI_agR02, #HR_agR02⟩, ⟨#HI_agR10, #HR_agR10⟩, ⟨#HI_agR11, #HR_agR11⟩, ⟨#HI_agR12, #HR_agR12⟩, ⟨#HI_agR20, #HR_agR20⟩, ⟨#HI_agR21, #HR_agR21⟩, ⟨#HI_agR22, #HR_agR22⟩, ⟨#HI_agR30, #HR_agR30⟩, ⟨#HI_agR31, #HR_agR31⟩, ⟨#HI_agR32, #HR_agR32⟩, ⟨#HI_agR40, #HR_agR40⟩, ⟨#HI_agR41, #HR_agR41⟩, ⟨#HI_agR42, #HR_agR42⟩, ⟨#HI_agR50, #HR_agR50⟩, ⟨#HI_agR51, #HR_agR51⟩, ⟨#HI_agR52, #HR_agR52⟩, ⟨#HI_out0, #HR_out0⟩, ⟨#HI_out1, #HR_out1⟩, ⟨#HI_out2, #HR_out2⟩, ⟨#HI_out3, #HR_out3⟩, ⟨#HI_out4, #HR_out4⟩, ⟨#HI_out5, #HR_out5⟩, ⟨#HI_out6, #HR_out6⟩, ⟨#HI_out7, #HR_out7⟩, ⟨#HI_out8, #HR_out8⟩, ⟨#HI_out9, #HR_out9⟩, ⟨#HI_out10, #HR_out10⟩, ⟨#HI_out11, #HR_out11⟩, ⟨#HI_out12, #HR_out12⟩, ⟨#HI_out13, #HR_out13⟩, ⟨#HI_out14, #HR_out14⟩, ⟨#HI_out15, #HR_out15⟩, ⟨#HI_out16, #HR_out16⟩, ⟨#HI_out17, #HR_out17⟩, ⟨#HI_out18, #HR_out18⟩, ⟨#HI_out19, #HR_out19⟩, ⟨#HI_out20, #HR_out20⟩, ⟨#HI_out21, #HR_out21⟩, ⟨#HI_out22, #HR_out22⟩, ⟨#HI_out23, #HR_out23⟩⟩, ⟨⟨⟨#HIn_bar0, #HRn_bar0⟩, ⟨#HIn_bar1, #HRn_bar1⟩, ⟨#HIn_bar2, #HRn_bar2⟩⟩, ⟨⟨#HIn_rsR00, #HRn_rsR00⟩, ⟨#HIn_rsR01, #HRn_rsR01⟩, ⟨#HIn_rsR02, #HRn_rsR02⟩, ⟨#HIn_rsR10, #HRn_rsR10⟩, ⟨#HIn_rsR11, #HRn_rsR11⟩, ⟨#HIn_rsR12, #HRn_rsR12⟩, ⟨#HIn_rsR20, #HRn_rsR20⟩, ⟨#HIn_rsR21, #HRn_rsR21⟩, ⟨#HIn_rsR22, #HRn_rsR22⟩, ⟨#HIn_rsR30, #HRn_rsR30⟩, ⟨#HIn_rsR31, #HRn_rsR31⟩, ⟨#HIn_rsR32, #HRn_rsR32⟩, ⟨#HIn_rsR40, #HRn_rsR40⟩, ⟨#HIn_rsR41, #HRn_rsR41⟩, ⟨#HIn_rsR42, #HRn_rsR42⟩, ⟨#HIn_rsR50, #HRn_rsR50⟩, ⟨#HIn_rsR51, #HRn_rsR51⟩, ⟨#HIn_rsR52, #HRn_rsR52⟩⟩, ⟨⟨#HIn_agR00, #HRn_agR00⟩, ⟨#HIn_agR01, #HRn_agR01⟩, ⟨#HIn_agR02, #HRn_agR02⟩, ⟨#HIn_agR10, #HRn_agR10⟩, ⟨#HIn_agR11, #HRn_agR11⟩, ⟨#HIn_agR12, #HRn_agR12⟩, ⟨#HIn_agR20, #HRn_agR20⟩, ⟨#HIn_agR21, #HRn_agR21⟩, ⟨#HIn_agR22, #HRn_agR22⟩, ⟨#HIn_agR30, #HRn_agR30⟩, ⟨#HIn_agR31, #HRn_agR31⟩, ⟨#HIn_agR32, #HRn_agR32⟩, ⟨#HIn_agR40, #HRn_agR40⟩, ⟨#HIn_agR41, #HRn_agR41⟩, ⟨#HIn_agR42, #HRn_agR42⟩, ⟨#HIn_agR50, #HRn_agR50⟩, ⟨#HIn_agR51, #HRn_agR51⟩, ⟨#HIn_agR52, #HRn_agR52⟩⟩⟩⟩, ⟨⟨Ht_bar0, Ht_bar1, Ht_bar2⟩, ⟨Ht_rsR00, Ht_rsR01, Ht_rsR02, Ht_rsR10, Ht_rsR11, Ht_rsR12, Ht_rsR20, Ht_rsR21, Ht_rsR22, Ht_rsR30, Ht_rsR31, Ht_rsR32, Ht_rsR40, Ht_rsR41, Ht_rsR42, Ht_rsR50, Ht_rsR51, Ht_rsR52⟩, ⟨Ht_agR00, Ht_agR01, Ht_agR02, Ht_agR10, Ht_agR11, Ht_agR12, Ht_agR20, Ht_agR21, Ht_agR22, Ht_agR30, Ht_agR31, Ht_agR32, Ht_agR40, Ht_agR41, Ht_agR42, Ht_agR50, Ht_agR51, Ht_agR52⟩, ⟨Ht_rsS00, Ht_rsS01, Ht_rsS02, Ht_rsS10, Ht_rsS11, Ht_rsS12, Ht_rsS20, Ht_rsS21, Ht_rsS22, Ht_rsS30, Ht_rsS31, Ht_rsS32, Ht_rsS40, Ht_rsS41, Ht_rsS42, Ht_rsS50, Ht_rsS51, Ht_rsS52⟩, ⟨Ht_agS00, Ht_agS01, Ht_agS02, Ht_agS10, Ht_agS11, Ht_agS12, Ht_agS20, Ht_agS21, Ht_agS22, Ht_agS30, Ht_agS31, Ht_agS32, Ht_agS40, Ht_agS41, Ht_agS42, Ht_agS50, Ht_agS51, Ht_agS52⟩, ⟨Ht_out0, Ht_out1, Ht_out2, Ht_out3, Ht_out4, Ht_out5, Ht_out6, Ht_out7, Ht_out8, Ht_out9, Ht_out10, Ht_out11, Ht_out12, Ht_out13, Ht_out14, Ht_out15, Ht_out16, Ht_out17, Ht_out18, Ht_out19, Ht_out20, Ht_out21, Ht_out22, Ht_out23⟩⟩, ⟨Hat_bar, Hat_rsS00, Hat_rsS01, Hat_rsS02, Hat_rsS10, Hat_rsS11, Hat_rsS12, Hat_rsS20, Hat_rsS21, Hat_rsS22, Hat_rsS30, Hat_rsS31, Hat_rsS32, Hat_rsS40, Hat_rsS41, Hat_rsS42, Hat_rsS50, Hat_rsS51, Hat_rsS52, Hat_rsR00, Hat_rsR01, Hat_rsR02, Hat_rsR10, Hat_rsR11, Hat_rsR12, Hat_rsR20, Hat_rsR21, Hat_rsR22, Hat_rsR30, Hat_rsR31, Hat_rsR32, Hat_rsR40, Hat_rsR41, Hat_rsR42, Hat_rsR50, Hat_rsR51, Hat_rsR52, Hat_agS00, Hat_agS01, Hat_agS02, Hat_agS10, Hat_agS11, Hat_agS12, Hat_agS20, Hat_agS21, Hat_agS22, Hat_agS30, Hat_agS31, Hat_agS32, Hat_agS40, Hat_agS41, Hat_agS42, Hat_agS50, Hat_agS51, Hat_agS52, Hat_agR00, Hat_agR01, Hat_agR02, Hat_agR10, Hat_agR11, Hat_agR12, Hat_agR20, Hat_agR21, Hat_agR22, Hat_agR30, Hat_agR31, Hat_agR32, Hat_agR40, Hat_agR41, Hat_agR42, Hat_agR50, Hat_agR51, Hat_agR52, Hat_out0, Hat_out1, Hat_out2, Hat_out3, Hat_out4, Hat_out5, Hat_out6, Hat_out7, Hat_out8, Hat_out9, Hat_out10, Hat_out11, Hat_out12, Hat_out13, Hat_out14, Hat_out15, Hat_out16, Hat_out17, Hat_out18, Hat_out19, Hat_out20, Hat_out21, Hat_out22, Hat_out23⟩, ⟨Hc_bar, ⟨Hc_rsR00, Hc_rsR01, Hc_rsR02, Hc_rsR10, Hc_rsR11, Hc_rsR12, Hc_rsR20, Hc_rsR21, Hc_rsR22, Hc_rsR30, Hc_rsR31, Hc_rsR32, Hc_rsR40, Hc_rsR41, Hc_rsR42, Hc_rsR50, Hc_rsR51, Hc_rsR52⟩, ⟨Hc_agR00, Hc_agR01, Hc_agR02, Hc_agR10, Hc_agR11, Hc_agR12, Hc_agR20, Hc_agR21, Hc_agR22, Hc_agR30, Hc_agR31, Hc_agR32, Hc_agR40, Hc_agR41, Hc_agR42, Hc_agR50, Hc_agR51, Hc_agR52⟩⟩, HO, ⟨HA, HB, Hout, ⟨%facc, Hacc⟩, ⟨⟨%fstg0, Hstg0⟩, ⟨%fstg1, Hstg1⟩, ⟨%fstg2, Hstg2⟩, ⟨%fstg3, Hstg3⟩, ⟨%fstg4, Hstg4⟩, ⟨%fstg5, Hstg5⟩⟩, ⟨Hbp0, Hbp1, Hbp2⟩, ⟨⟨%fown0, Hown0⟩, ⟨%fown1, Hown1⟩, ⟨%fown2, Hown2⟩, ⟨%fown3, Hown3⟩, ⟨%fown4, Hown4⟩, ⟨%fown5, Hown5⟩⟩⟩⟩
  have hcut1 := fun κ0 κ1 κ2 κb W fa fb => part1_run (Vreal A B) c κ0 κ1 κ2 κb W fa fb
  have hcut2 := fun κs κr W v2 v6 v8 v25 v27 fa fb f10 f11 hea heb he25 he27 => part2_real A B m hagree c κs κr W v2 v6 v8 v25 v27 fa fb f10 f11 hea heb he25 he27
  have hcut3 := fun κs κr W v2 v8 v9 v58 fa fb f11 f12 hea heb => part3_real A B m hagree c κs κr W v2 v8 v9 v58 fa fb f11 f12 hea heb
  have hcut4 := fun κs2 κr2 κs3 κr3 W v2 v6 v8 v9 fa fb f12 f13 hea heb => part4_real A B m hagree c κs2 κr2 κs3 κr3 W v2 v6 v8 v9 fa fb f12 f13 hea heb
  have hcut5 := fun κs κr W v2 v8 v9 v121 fa fb f14 f15 hea heb he_v121 => part5_real A B m hagree c κs κr W v2 v8 v9 v121 fa fb f14 f15 hea heb he_v121
  have hcut6 := fun κs κr W v2 v9 v43 v67 v91 fa fb f15 f3 hea heb => part6_real A B m hagree c κs κr W v2 v9 v43 v67 v91 fa fb f15 f3 hea heb
  have hcut7 := fun v91 v115 v139 v163 fa fb f3 hea heb => part7_real A B m hagree c v91 v115 v139 v163 fa fb f3 hea heb
  have hcut8 := fun κw1 κw2 W v8 v34 v43 v163 v227 fb f3 heb he_v227 => part8_real A B m hagree c κw1 κw2 W v8 v34 v43 v163 v227 fb f3 heb he_v227
  have hcut9 := fun κs κr W v2 v43 v248 v250 v252 v257 fs fr f3 he_v257 => part9_real A B m hagree c κs κr W v2 v43 v248 v250 v252 v257 fs fr f3 he_v257
  have hcut10 := fun κw1 κw2 W v9 v58 v67 f3 => part10_real A B m hagree c κw1 κw2 W v9 v58 v67 f3
  have hcut11 := fun κs κr κw1 W v2 v67 v82 v304 v322 fs fr f3 => part11_real A B m hagree c κs κr κw1 W v2 v67 v82 v304 v322 fs fr f3
  have hcut12 := fun κw2 W v2 v6 v91 v348 c0_i32_257 fs f3 => part12_real A B m hagree c κw2 W v2 v6 v91 v348 c0_i32_257 fs f3
  have hcut13 := fun κs κr κw1 κw2 W v8 v91 v106 v115 v358 fs fr f3 => part13_real A B m hagree c κs κr κw1 κw2 W v8 v91 v106 v115 v358 fs fr f3
  have hcut14 := fun κs κr W v2 v8 v115 v410 c512_i32_308 f3 f13 fl => part14_real A B m hagree c κs κr W v2 v8 v115 v410 c512_i32_308 f3 f13 fl
  have hcut15 := fun κw κv W v9 v130 v139 v412 v441 v446 f3 => part15_real A B m hagree c κw κv W v9 v130 v139 v412 v441 v446 f3
  have hcut16 := fun κs κr W v2 v139 v464 v466 v474 v476 f3 f14 fl => part16_real A B m hagree c κs κr W v2 v139 v464 v466 v474 v476 f3 f14 fl
  have hcut17 := fun κw κv W v2 v6 v154 v163 f3 => part17_real A B m hagree c κw κv W v2 v6 v154 v163 f3
  have hcut18 := fun κs κr κw W v163 v269 v520 v539 f3 f9 f15 => part18_real A B m hagree c κs κr κw W v163 v269 v520 v539 f3 f9 f15
  have hcut19 := fun κw W v2 v9 v250 f3 f10 => part19_real A B m hagree c κw W v2 v9 v250 f3 f10
  have hcut20 := fun κs κr κw κv W v6 v250 v304 v323 v574 f3 f10 fl => part20_real A B m hagree c κs κr κw κv W v6 v250 v304 v323 v574 f3 f10 fl
  have hcut21 := fun κs κr W v2 v304 v626 v628 f3 f11 fl => part21_real A B m hagree c κs κr W v2 v304 v626 v628 f3 f11 fl
  have hcut22 := fun κw κv W v8 v358 v377 v663 v665 f3 => part22_real A B m hagree c κw κv W v8 v358 v377 v663 v665 f3
  have hcut23 := fun κs κr W v2 v358 v682 f3 f12 fl => part23_real A B m hagree c κs κr W v2 v358 v682 f3 f12 fl
  have hcut24 := fun κw κv W v2 v9 v412 v431 f3 => part24_real A B m hagree c κw κv W v2 v9 v412 v431 f3
  have hcut25 := fun κs κr κw W v412 v485 v736 v755 c1_i32_583 f3 f13 fl => part25_real A B m hagree c κs κr κw W v412 v485 v736 v755 c1_i32_583 f3 f13 fl
  have hcut26 := fun κv κs κr W v2 v6 v466 f3 f14 => part26_real A B m hagree c κv κs κr W v2 v6 v466 f3 f14
  have hcut27 := fun κw κv W v8 v466 v520 v539 v790 f3 fl => part27_real A B m hagree c κw κv W v8 v466 v520 v539 v790 f3 fl
  have hcut28 := fun κs κr W v2 v520 v842 v844 v846 v848 f3 f15 fl => part28_real A B m hagree c κs κr W v2 v520 v842 v844 v846 v848 f3 f15 fl
  have hcut29 := fun κw κv W v574 v593 f3 => part29_real A B m hagree c κw κv W v574 v593 f3
  have hcut30 := fun κo κw κv W v574 v628 v647 v909 v914 cst_707 f3 fa fo => part30_real A B m hagree c κo κw κv W v574 v628 v647 v909 v914 cst_707 f3 fa fo
  have hcut31 := fun κo v628 fb fl fa fo => part31_real A B m hagree c κo v628 fb fl fa fo
  have hcut32 := fun κw κv W v682 v701 fb => part32_real A B m hagree c κw κv W v682 v701 fb
  have hcut33 := fun κo κs κr W v682 v736 v755 v1009 v1016 f2 f3 g2 fd => part33_real A B m hagree c κo κs κr W v682 v736 v755 v1009 v1016 f2 f3 g2 fd
  have hcut34 := fun κo v736 v1045 f3 fc g3 fd => part34_real A B m hagree c κo v736 v1045 f3 fc g3 fd
  have hcut35 := fun κs κr W v790 v809 f4 => part35_real A B m hagree c κs κr W v790 v809 f4
  have hcut36 := fun κo κs κr W v790 v844 v863 v1109 v1117 cst_837 f4 f5 g4 fd => part36_real A B m hagree c κo κs κr W v790 v844 v863 v1109 v1117 cst_837 f4 f5 g4 fd
  have hcut37 := fun κo v2 v844 v1145 v1146 c1536_i32_863 f5 fc g5 fd => part37_real A B m hagree c κo v2 v844 v1145 v1146 c1536_i32_863 f5 fc g5 fd
  have hcut38 := fun κs0 κr0 κs1 κr1 W v2 v6 v9 v574 v628 v1184 c1_i32_880 g0 g1 => part38_real A B m hagree c κs0 κr0 κs1 κr1 W v2 v6 v9 v574 v628 v1184 c1_i32_880 g0 g1
  have hcut39 := fun κs2 κr2 κs3 κr3 κs4 κr4 W v2 v8 v9 v682 v736 g2 g3 g4 => part39_real A B m hagree c κs2 κr2 κs3 κr3 κs4 κr4 W v2 v8 v9 v682 v736 g2 g3 g4
  have hcut40 := fun κs5 κr5 κwS W v2 v6 v8 v790 v844 v1184 g5 => part40_real A B m hagree c κs5 κr5 κwS W v2 v6 v8 v790 v844 v1184 g5
  have hcut41 := fun κwR κs κr κo κw1 W v2 v8 v1194 v1197 g0 f6 fd => part41_real A B m hagree c κwR κs κr κo κw1 W v2 v8 v1194 v1197 g0 f6 fd
  have hcut42 := fun κwR κs κr κo W v2 v9 v1198 v1208 v1211 g1 f7 fd => part42_real A B m hagree c κwR κs κr κo W v2 v9 v1198 v1208 v1211 g1 f7 fd
  have hcut43 := fun κwS κwR κs κr W v2 v6 v1212 v1222 v1225 g2 f8 => part43_real A B m hagree c κwS κwR κs κr W v2 v6 v1212 v1222 v1225 g2 f8
  have hcut44 := fun κo κwS κwR κs κr W v2 v8 v1226 v1236 v1364 v1366 g3 f8 fd => part44_real A B m hagree c κo κwS κwR κs κr W v2 v8 v1226 v1236 v1364 v1366 g3 f8 fd
  have hcut45 := fun κo κwS κwR W v2 v8 v1239 v1240 v1393 g31 f9 fd => part45_real A B m hagree c κo κwS κwR W v2 v8 v1239 v1240 v1393 g31 f9 fd
  have hcut46 := fun κs κr κo κw W v9 v1250 v1253 v1254 g0 fa fo fd => part46_real A B m hagree c κs κr κo κw W v9 v1250 v1253 v1254 g0 fa fo fd
  have hcut47 := fun κwR κs κr κo κw1 W v2 v6 v1264 v1267 g0 fo fd => part47_real A B m hagree c κwR κs κr κo κw1 W v2 v6 v1264 v1267 g0 fo fd
  have hcut48 := fun κr1 κs κr κo W v2 v6 v1278 v1288 v1291 g1 f12 fd => part48_real A B m hagree c κr1 κs κr κo W v2 v6 v1278 v1288 v1291 g1 f12 fd
  have hcut49 := fun κs1 κr1 κs κr W v2 v8 v1313 v1323 v1326 g1 f13 => part49_real A B m hagree c κs1 κr1 κs κr W v2 v8 v1313 v1323 v1326 g1 f13
  have hcut50 := fun κo κs1 κr1 κs κr W v2 v9 v1348 v1358 v1539 v1541 g1 f13 fd => part50_real A B m hagree c κo κs1 κr1 κs κr W v2 v9 v1348 v1358 v1539 v1541 g1 f13 fd
  have hcut51 := fun κo κs1 κr1 W v2 v9 v1361 v1383 v1568 g2 f14 fd => part51_real A B m hagree c κo κs1 κr1 W v2 v9 v1361 v1383 v1568 g2 f14 fd
  have hcut52 := fun κs κr κo κs1 W v6 v1393 v1396 v1418 g1 f3 f15 fd => part52_real A B m hagree c κs κr κo κs1 W v6 v1393 v1396 v1418 g1 f3 f15 fd
  have hcut53 := fun κr1 κs κr κo κs1 W v2 v8 v1428 v1431 g1 f16 fd => part53_real A B m hagree c κr1 κs κr κo κs1 W v2 v8 v1428 v1431 g1 f16 fd
  have hcut54 := fun κr1 κs κr κo W v2 v9 v1453 v1463 v1466 g1 f17 fd => part54_real A B m hagree c κr1 κs κr κo W v2 v9 v1453 v1463 v1466 g1 f17 fd
  have hcut55 := fun κs0 κr0 κo κs1 W v1488 v1501 f18 fd => part55_real A B m hagree c κs0 κr0 κo κs1 W v1488 v1501 f18 fd
  have hcut56 := fun κa κo19 κb κd W v1523 v1536 v1558 v1571 fb fo => part56_real A B m hagree c κa κo19 κb κd W v1523 v1536 v1558 v1571 fb fo
  have hcut57 := fun κo20 κo21 κb κd W v1571 v1593 v1606 v1742 fb20 fo20 fb21 fo21 => part57_real A B m hagree c κo20 κo21 κb κd W v1571 v1593 v1606 v1742 fb20 fo20 fb21 fo21
  have hcut58 := fun κb κd κo22 κe W v1628 v1641 fb fo => part58_real A B m hagree c κb κd κo22 κe W v1628 v1641 fb fo
  have hcut59 := fun κd κo23 κw0 κw1 κw2 W v1663 v1676 fb fo => part59_real A B m hagree c κd κo23 κw0 κw1 κw2 W v1663 v1676 fb fo
  have hcut60 := fun κw3 κw4 κw5 κw6 κw7 κw8 κw9 κw10 W => part60_real A B m hagree c κw3 κw4 κw5 κw6 κw7 κw8 κw9 κw10 W
  have hcut61 := fun κw11 κw12 κw13 κw14 κw15 κw16 κw17 W => part61_real A B m hagree c κw11 κw12 κw13 κw14 κw15 κw16 κw17 W
  have hcutTail := fun κw18 κw19 κw20 κw21 κw22 κw23 W => part62_real A B m hagree c κw18 κw19 κw20 κw21 κw22 κw23 W
  rw [cc0_body_tail]
  unfold k0_part62
  iterate 200 (try (set_option sl_exec.maxSteps 1 in sl_exec); try injections; try subst_vars)
  iexists _
  unfold bodyEnd ownRecs pos1Lit dstLit accLit commEnd stgEnd agEnd
  sl_close

end Cert.KernelIdeal.Proto

end
-- ==== Proof.BodyReal.lean ====
/-
The kernel's run with every value named, over the extended reals: the same launch and the same body, the record of
values now the true predicates of A and B (what each device sends at each step, what each result block holds). Two
facts carry it: the body's sixty-two stretches establish each stretch's value fact from those before it, and the
twenty-four result blocks, each holding gelu of the whole product at its rows and columns, make up the reference's
result array (the latter proved apart).
-/
import proofs.«900882_g7700000000000883_dist_matmul_gelu_kshard_i_m2048_n2048_k1024_v7x_i8_f32_1_alg».proof.Proof.BodyOb
import proofs.«900882_g7700000000000883_dist_matmul_gelu_kshard_i_m2048_n2048_k1024_v7x_i8_f32_1_alg».proof.Proof.ValsRealTab
import proofs.«900882_g7700000000000883_dist_matmul_gelu_kshard_i_m2048_n2048_k1024_v7x_i8_f32_1_alg».proof.Proof.ResReal
import proofs.«900882_g7700000000000883_dist_matmul_gelu_kshard_i_m2048_n2048_k1024_v7x_i8_f32_1_alg».proof.Proof.BodyAllReal

set_option maxRecDepth 100000

noncomputable section

namespace Cert.KernelIdeal.Proto

open Cert.KernelIdeal Cert.KernelIdeal.Gen Cert.KernelIdeal.Topo
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ UU ℕ

variable (A : (⟨2, ![2048, 8192]⟩ : Shape).Idx → EReal) (B : (⟨2, ![8192, 2048]⟩ : Shape).Idx → EReal)

/-- The kernel's run: every device ends with the reference's result array, its arguments unchanged. -/
theorem run_real (m : (ℓ : Loc nD τ sig) → Buf (Elt Ideal) ℓ) (ρ : Dev nD → PrngReg)
    (hagree : ∀ c : Dev nD,
      m ((c : Thread nD τ).loc main_arg0) = Layout.block ⟨2, ![2048, 1024]⟩ ⟨2, ![2048, 8192]⟩ 1 8 c A
      ∧ m ((c : Thread nD τ).loc main_arg1) = Layout.block ⟨2, ![1024, 2048]⟩ ⟨2, ![8192, 2048]⟩ 0 8 c B) :
    θ_run (defs (F := Ideal)) (onTc (τ := τ) (main (F := Ideal))) (s₀ m ρ) (fun r => ∀ c : Dev nD,
        r.2.mem ((c : Thread nD τ).loc main_v1) = Cert.RefSide.Gref A B
        ∧ r.2.mem ((c : Thread nD τ).loc main_arg0) = m ((c : Thread nD τ).loc main_arg0)
        ∧ r.2.mem ((c : Thread nD τ).loc main_arg1) = m ((c : Thread nD τ).loc main_arg1)) :=
  run_main m ρ (Vreal A B) (fun c => body_obligation_of m ρ (Vreal A B) (hres_real A B) c (fun K W => body_run_real A B m hagree c K W))

end Cert.KernelIdeal.Proto

end
-- ==== Proof.lean ====
/-
The five claims. The two kernel frames: every device's body is run through its sixty-two stretches against the
protocol's schedule (one round per semaphore cell; the barrier handshake hands each neighbour the rows it will
write), and the launch turns the eight bodies into the run of the program; nothing is said of values there.
The reference's frame and run are read off its generated run. The idealization rewrote nothing.
-/
import proofs.«900882_g7700000000000883_dist_matmul_gelu_kshard_i_m2048_n2048_k1024_v7x_i8_f32_1_alg».proof.Defs
import proofs.«900882_g7700000000000883_dist_matmul_gelu_kshard_i_m2048_n2048_k1024_v7x_i8_f32_1_alg».proof.Proof.Gen.Kernel
import proofs.«900882_g7700000000000883_dist_matmul_gelu_kshard_i_m2048_n2048_k1024_v7x_i8_f32_1_alg».proof.Proof.Gen.Kernel.Skeleton
import proofs.«900882_g7700000000000883_dist_matmul_gelu_kshard_i_m2048_n2048_k1024_v7x_i8_f32_1_alg».proof.Proof.Gen.Kernel.Launch
import proofs.«900882_g7700000000000883_dist_matmul_gelu_kshard_i_m2048_n2048_k1024_v7x_i8_f32_1_alg».proof.Proof.Gen.Kernel.Points
import proofs.«900882_g7700000000000883_dist_matmul_gelu_kshard_i_m2048_n2048_k1024_v7x_i8_f32_1_alg».proof.Proof.Gen.Kernel.Frame
import proofs.«900882_g7700000000000883_dist_matmul_gelu_kshard_i_m2048_n2048_k1024_v7x_i8_f32_1_alg».proof.Proof.Gen.KernelIdeal
import proofs.«900882_g7700000000000883_dist_matmul_gelu_kshard_i_m2048_n2048_k1024_v7x_i8_f32_1_alg».proof.Proof.Gen.KernelIdeal.Skeleton
import proofs.«900882_g7700000000000883_dist_matmul_gelu_kshard_i_m2048_n2048_k1024_v7x_i8_f32_1_alg».proof.Proof.Gen.KernelIdeal.Launch
import proofs.«900882_g7700000000000883_dist_matmul_gelu_kshard_i_m2048_n2048_k1024_v7x_i8_f32_1_alg».proof.Proof.Gen.KernelIdeal.Points
import proofs.«900882_g7700000000000883_dist_matmul_gelu_kshard_i_m2048_n2048_k1024_v7x_i8_f32_1_alg».proof.Proof.Gen.KernelIdeal.Frame
import proofs.«900882_g7700000000000883_dist_matmul_gelu_kshard_i_m2048_n2048_k1024_v7x_i8_f32_1_alg».proof.Proof.Gen.ReferenceIdeal
import proofs.«900882_g7700000000000883_dist_matmul_gelu_kshard_i_m2048_n2048_k1024_v7x_i8_f32_1_alg».proof.Proof.Gen.Pre_finite_inputs_Kernel
import proofs.«900882_g7700000000000883_dist_matmul_gelu_kshard_i_m2048_n2048_k1024_v7x_i8_f32_1_alg».proof.Proof.Gen.Pre_finite_inputs_ReferenceIdeal
import proofs.«900882_g7700000000000883_dist_matmul_gelu_kshard_i_m2048_n2048_k1024_v7x_i8_f32_1_alg».proof.Proof.Gen.ReferenceIdeal.Run
import proofs.«900882_g7700000000000883_dist_matmul_gelu_kshard_i_m2048_n2048_k1024_v7x_i8_f32_1_alg».proof.Proof.Gen.ReferenceIdeal.Read
import proofs.«900882_g7700000000000883_dist_matmul_gelu_kshard_i_m2048_n2048_k1024_v7x_i8_f32_1_alg».proof.Proof.RefIsSpec
import proofs.«900882_g7700000000000883_dist_matmul_gelu_kshard_i_m2048_n2048_k1024_v7x_i8_f32_1_alg».proof.Proof.BlockSum
import proofs.«900882_g7700000000000883_dist_matmul_gelu_kshard_i_m2048_n2048_k1024_v7x_i8_f32_1_alg».proof.Proof.BodyOb
import proofs.«900882_g7700000000000883_dist_matmul_gelu_kshard_i_m2048_n2048_k1024_v7x_i8_f32_1_alg».proof.Proof.BodyObBits
import proofs.«900882_g7700000000000883_dist_matmul_gelu_kshard_i_m2048_n2048_k1024_v7x_i8_f32_1_alg».proof.Proof.BodyReal
import Idealize.ShloMosaic.Adequacy
import Idealize.ShloMosaic.Init

noncomputable section

namespace Cert.Proof

open Idealize.ShloMosaic Idealize.SL.Sem

theorem frame_Kernel_pf [hKernel : Cert.Kernel.Facts] [hPre : Cert.Pre_finite_inputs_Kernel.Facts] : Cert.frame_Kernel := fun m g _ =>
  (θ_run _ _ _).mono (fun r h c => ⟨(h c).2.1, (h c).2.2⟩)
    (Cert.Kernel.Proto.run_main (F := Bits) m g Cert.Kernel.Proto.Vtrue (fun c => Cert.Kernel.Proto.body_obligation m g c))

theorem frame_KernelIdeal_pf [hKernelIdeal : Cert.KernelIdeal.Facts] [hPre : Cert.Pre_finite_inputs_Kernel.Facts] : Cert.frame_KernelIdeal := fun m g _ =>
  (θ_run _ _ _).mono (fun r h c => ⟨(h c).2.1, (h c).2.2⟩)
    (Cert.KernelIdeal.Proto.run_main (F := Ideal) m g Cert.KernelIdeal.Proto.Vtrue (fun c => Cert.KernelIdeal.Proto.body_obligation m g c))

theorem algebraic_pf [hKernelIdeal : Cert.KernelIdeal.Facts] [hReferenceIdeal : Cert.ReferenceIdeal.Facts] [hPre : Cert.Pre_finite_inputs_Kernel.Facts] :
    Cert.algebraic_KernelIdeal_ReferenceIdeal := fun m g m' g' hpre hagree =>
  ⟨Cert.RefSide.Gref (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    Cert.KernelIdeal.Proto.run_real _ _ m g hagree,
    Cert.RefSide.ref_run m' g'⟩

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  frame_Kernel_pf, frame_KernelIdeal_pf, Cert.RefSide.frame_ref, trivial, algebraic_pf⟩

end Cert.Proof

end
